-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1317)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1317) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x64x64 : Shape := ⟨4, ![1, 512, 64, 64]⟩
abbrev S3x4 : Shape := ⟨2, ![3, 4]⟩
abbrev S4x4 : Shape := ⟨2, ![4, 4]⟩
abbrev S2 : Shape := ⟨1, ![2]⟩
abbrev S150528x1024 : Shape := ⟨2, ![150528, 1024]⟩
abbrev S1024 : Shape := ⟨1, ![1024]⟩
abbrev S_ : Shape := ⟨0, ![]⟩

class Facts : Prop where
  bcast_S_S1x512x64x64 : S_.BroadcastsInDim S1x512x64x64 (![] : Fin 0 → Fin S1x512x64x64.rank)
  reducesTo_S1x512x64x64_S_d0_1_2_3 : S1x512x64x64.ReducesTo [0, 1, 2, 3] S_
  h_S_ : 0 < S_.numel
  bcast_S_S3x4 : S_.BroadcastsInDim S3x4 (![] : Fin 0 → Fin S3x4.rank)
  reducesTo_S3x4_S_d0_1 : S3x4.ReducesTo [0, 1] S_
  bcast_S_S4x4 : S_.BroadcastsInDim S4x4 (![] : Fin 0 → Fin S4x4.rank)
  reducesTo_S4x4_S_d0_1 : S4x4.ReducesTo [0, 1] S_
  bcast_S_S2 : S_.BroadcastsInDim S2 (![] : Fin 0 → Fin S2.rank)
  reducesTo_S2_S_d0 : S2.ReducesTo [0] S_
  bcast_S_S150528x1024 : S_.BroadcastsInDim S150528x1024 (![] : Fin 0 → Fin S150528x1024.rank)
  reducesTo_S150528x1024_S_d0_1 : S150528x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S150528x1024 .f32) (main_arg5 : FVec F S1024 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S150528x1024 .f32 := Host.absf main_arg4
  let main_cst_6 : FVec F S_ .f32 := constant S_ .f32 0x7F800000#32
  let main_v20 : FVec F S150528x1024 .f32 := broadcastInDim S150528x1024 ![] bcast_S_S150528x1024 main_cst_6
  let main_v21 : IVec S150528x1024 1 := cmpf .olt main_v19 main_v20
  let main_c_7 : IVec S_ 1 := constantI S_ 1 1#1
  let main_v22 : IVec S_ 1 := (fun x v => Host.reduce IntOp.andi x v reducesTo_S150528x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S1x512x64x64 .f32) (main_arg1 : FVec F S3x4 .f32) (main_arg2 : FVec F S4x4 .f32) (main_arg3 : FVec F S2 .f32) (main_arg4 : FVec F S150528x1024 .f32) (main_arg5 : FVec F S1024 .f32) : IVec S_ 1 :=
  let main_v0 : FVec F S1x512x64x64 .f32 := Host.absf main_arg0
  let main_cst : FVec F S_ .f32 := constant S_ .f32 0x7F800000#32
  let main_v1 : FVec F S1x512x64x64 .f32 := broadcastInDim S1x512x64x64 ![] bcast_S_S1x512x64x64 main_cst
  let main_v2 : IVec S1x512x64x64 1 := cmpf .olt main_v0 main_v1
  let main_c : IVec S_ 1 := constantI S_ 1 1#1
  let main_v3 : IVec S_ 1 := (fun x v => Host.reduce IntOp.andi x v reducesTo_S1x512x64x64_S_d0_1_2_3 h_S_) main_v2 main_c
  let main_v4 : FVec F S3x4 .f32 := Host.absf main_arg1
  let main_cst_0 : FVec F S_ .f32 := constant S_ .f32 0x7F800000#32
  let main_v5 : FVec F S3x4 .f32 := broadcastInDim S3x4 ![] bcast_S_S3x4 main_cst_0
  let main_v6 : IVec S3x4 1 := cmpf .olt main_v4 main_v5
  let main_c_1 : IVec S_ 1 := constantI S_ 1 1#1
  let main_v7 : IVec S_ 1 := (fun x v => Host.reduce IntOp.andi x v reducesTo_S3x4_S_d0_1 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_arg5 main_v13 main_v16
-- ==== Kernel.lean ====
abbrev S1x512x64x64 : Shape := ⟨4, ![1, 512, 64, 64]⟩
abbrev S3x4 : Shape := ⟨2, ![3, 4]⟩
abbrev S4x4 : Shape := ⟨2, ![4, 4]⟩
abbrev S2 : Shape := ⟨1, ![2]⟩
abbrev S150528x1024 : Shape := ⟨2, ![150528, 1024]⟩
abbrev S1024 : Shape := ⟨1, ![1024]⟩
abbrev S512x64x64 : Shape := ⟨3, ![512, 64, 64]⟩
abbrev S1 : Shape := ⟨1, ![1]⟩
abbrev S_ : Shape := ⟨0, ![]⟩
abbrev S4 : Shape := ⟨1, ![4]⟩
abbrev S1x4 : Shape := ⟨2, ![1, 4]⟩
abbrev S7 : Shape := ⟨1, ![7]⟩
abbrev S64 : Shape := ⟨1, ![64]⟩
abbrev S1x64 : Shape := ⟨2, ![1, 64]⟩
abbrev S7x1 : Shape := ⟨2, ![7, 1]⟩
abbrev S7x64 : Shape := ⟨2, ![7, 64]⟩
abbrev S7x1x64x1 : Shape := ⟨4, ![7, 1, 64, 1]⟩
abbrev S7x512x64x64 : Shape := ⟨4, ![7, 512, 64, 64]⟩
abbrev S7x512x64 : Shape := ⟨3, ![7, 512, 64]⟩
abbrev S1x1x7x64 : Shape := ⟨4, ![1, 1, 7, 64]⟩
abbrev S7x512x1x64 : Shape := ⟨4, ![7, 512, 1, 64]⟩
abbrev S7x512x7x64 : Shape := ⟨4, ![7, 512, 7, 64]⟩
abbrev S7x512x7 : Shape := ⟨3, ![7, 512, 7]⟩
abbrev S512x7x7 : Shape := ⟨3, ![512, 7, 7]⟩
abbrev S25088 : Shape := ⟨1, ![25088]⟩
abbrev S1x1 : Shape := ⟨2, ![1, 1]⟩
abbrev S150528 : Shape := ⟨1, ![150528]⟩
abbrev S1x150528 : Shape := ⟨2, ![1, 150528]⟩
abbrev S3x150528 : Shape := ⟨2, ![3, 150528]⟩
abbrev S3x1024 : Shape := ⟨2, ![3, 1024]⟩
abbrev S3x3072 : Shape := ⟨2, ![3, 3072]⟩
abbrev S3072x1024 : Shape := ⟨2, ![3072, 1024]⟩
abbrev S1x1024 : Shape := ⟨2, ![1, 1024]⟩

abbrev nBuf : Space → Nat
  | .hbm => 2612
  | .vmem => 7
  | .smem => 0
  | _ => 0

abbrev hbmTy0_0 (i : Nat) : BufTy := match i % 128 with
  | 0 => ⟨S1x512x64x64, .f32⟩
  | 1 => ⟨S3x4, .f32⟩
  | 2 => ⟨S4x4, .f32⟩
  | 3 => ⟨S2, .f32⟩
  | 4 => ⟨S150528x1024, .f32⟩
  | 5 => ⟨S1024, .f32⟩
  | 6 => ⟨S512x64x64, .f32⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S1, .f32⟩
  | 17 => ⟨S1, .f32⟩
  | 18 => ⟨S1, .f32⟩
  | 19 => ⟨S4, .f32⟩
  | 20 => ⟨S1x4, .f32⟩
  | 21 => ⟨S3x4, .f32⟩
  | 22 => ⟨S3x4, .f32⟩
  | 23 => ⟨S3x4, .f32⟩
  | 24 => ⟨S3x4, .i32⟩
  | 25 => ⟨S1x4, .f32⟩
  | 26 => ⟨S4x4, .f32⟩
  | 27 => ⟨S4x4, .f32⟩
  | 28 => ⟨S4x4, .f32⟩
  | 29 => ⟨S4x4, .i32⟩
  | 30 => ⟨S7, .i32⟩
  | 31 => ⟨S7, .i32⟩
  | 32 => ⟨S_, .i32⟩
  | 33 => ⟨S7, .i32⟩
  | 34 => ⟨S7, .i32⟩
  | 35 => ⟨S_, .i32⟩
  | 36 => ⟨S_, .i32⟩
  | 37 => ⟨S7, .i32⟩
  | 38 => ⟨S7, .i32⟩
  | 39 => ⟨S7, .i32⟩
  | 40 => ⟨S_, .i32⟩
  | 41 => ⟨S7, .i32⟩
  | 42 => ⟨S7, .i1⟩
  | 43 => ⟨S7, .i32⟩
  | 44 => ⟨S7, .i32⟩
  | 45 => ⟨S_, .i32⟩
  | 46 => ⟨S7, .i32⟩
  | 47 => ⟨S7, .i1⟩
  | 48 => ⟨S7, .i1⟩
  | 49 => ⟨S_, .i32⟩
  | 50 => ⟨S7, .i32⟩
  | 51 => ⟨S7, .i32⟩
  | 52 => ⟨S7, .i32⟩
  | 53 => ⟨S_, .i32⟩
  | 54 => ⟨S7, .i32⟩
  | 55 => ⟨S7, .i32⟩
  | 56 => ⟨S_, .i32⟩
  | 57 => ⟨S7, .i32⟩
  | 58 => ⟨S7, .i32⟩
  | 59 => ⟨S7, .i32⟩
  | 60 => ⟨S_, .i32⟩
  | 61 => ⟨S7, .i32⟩
  | 62 => ⟨S7, .i32⟩
  | 63 => ⟨S_, .i32⟩
  | 64 => ⟨S_, .i32⟩
  | 65 => ⟨S7, .i32⟩
  | 66 => ⟨S7, .i32⟩
  | 67 => ⟨S7, .i32⟩
  | 68 => ⟨S_, .i32⟩
  | 69 => ⟨S7, .i32⟩
  | 70 => ⟨S7, .i1⟩
  | 71 => ⟨S7, .i32⟩
  | 72 => ⟨S7, .i32⟩
  | 73 => ⟨S_, .i32⟩
  | 74 => ⟨S7, .i32⟩
  | 75 => ⟨S7, .i1⟩
  | 76 => ⟨S7, .i1⟩
  | 77 => ⟨S_, .i32⟩
  | 78 => ⟨S7, .i32⟩
  | 79 => ⟨S7, .i32⟩
  | 80 => ⟨S7, .i32⟩
  | 81 => ⟨S_, .i32⟩
  | 82 => ⟨S7, .i32⟩
  | 83 => ⟨S7, .i32⟩
  | 84 => ⟨S_, .i32⟩
  | 85 => ⟨S7, .i32⟩
  | 86 => ⟨S7, .i32⟩
  | 87 => ⟨S_, .i32⟩
  | 88 => ⟨S_, .i32⟩
  | 89 => ⟨S7, .i32⟩
  | 90 => ⟨S7, .i32⟩
  | 91 => ⟨S7, .i32⟩
  | 92 => ⟨S_, .i32⟩
  | 93 => ⟨S7, .i32⟩
  | 94 => ⟨S7, .i1⟩
  | 95 => ⟨S7, .i32⟩
  | 96 => ⟨S7, .i32⟩
  | 97 => ⟨S_, .i32⟩
  | 98 => ⟨S7, .i32⟩
  | 99 => ⟨S7, .i1⟩
  | 100 => ⟨S7, .i1⟩
  | 101 => ⟨S_, .i32⟩
  | 102 => ⟨S7, .i32⟩
  | 103 => ⟨S7, .i32⟩
  | 104 => ⟨S7, .i32⟩
  | 105 => ⟨S_, .i32⟩
  | 106 => ⟨S7, .i32⟩
  | 107 => ⟨S7, .i32⟩
  | 108 => ⟨S_, .i32⟩
  | 109 => ⟨S7, .i32⟩
  | 110 => ⟨S7, .i32⟩
  | 111 => ⟨S7, .i32⟩
  | 112 => ⟨S_, .i32⟩
  | 113 => ⟨S7, .i32⟩
  | 114 => ⟨S7, .i32⟩
  | 115 => ⟨S_, .i32⟩
  | 116 => ⟨S_, .i32⟩
  | 117 => ⟨S7, .i32⟩
  | 118 => ⟨S7, .i32⟩
  | 119 => ⟨S7, .i32⟩
  | 120 => ⟨S_, .i32⟩
  | 121 => ⟨S7, .i32⟩
  | 122 => ⟨S7, .i1⟩
  | 123 => ⟨S7, .i32⟩
  | 124 => ⟨S7, .i32⟩
  | 125 => ⟨S_, .i32⟩
  | 126 => ⟨S7, .i32⟩
  | 127 => ⟨S7, .i1⟩
  | _ => ⟨S1x512x64x64, .f32⟩

abbrev hbmTy0_1 (i : Nat) : BufTy := match i % 128 with
  | 0 => ⟨S7, .i1⟩
  | 1 => ⟨S_, .i32⟩
  | 2 => ⟨S7, .i32⟩
  | 3 => ⟨S7, .i32⟩
  | 4 => ⟨S7, .i32⟩
  | 5 => ⟨S_, .i32⟩
  | 6 => ⟨S7, .i32⟩
  | 7 => ⟨S7, .i32⟩
  | 8 => ⟨S64, .i32⟩
  | 9 => ⟨S64, .i32⟩
  | 10 => ⟨S1x64, .i32⟩
  | 11 => ⟨S7x1, .i32⟩
  | 12 => ⟨S7x64, .i32⟩
  | 13 => ⟨S7x64, .i32⟩
  | 14 => ⟨S7x64, .i1⟩
  | 15 => ⟨S1x64, .i32⟩
  | 16 => ⟨S7x1, .i32⟩
  | 17 => ⟨S7x64, .i32⟩
  | 18 => ⟨S7x64, .i32⟩
  | 19 => ⟨S7x64, .i1⟩
  | 20 => ⟨S7x64, .i1⟩
  | 21 => ⟨S1x64, .i32⟩
  | 22 => ⟨S7x1, .i32⟩
  | 23 => ⟨S7x64, .i32⟩
  | 24 => ⟨S7x64, .i32⟩
  | 25 => ⟨S7x64, .i1⟩
  | 26 => ⟨S1x64, .i32⟩
  | 27 => ⟨S7x1, .i32⟩
  | 28 => ⟨S7x64, .i32⟩
  | 29 => ⟨S7x64, .i32⟩
  | 30 => ⟨S7x64, .i1⟩
  | 31 => ⟨S7x64, .i1⟩
  | 32 => ⟨S7x1x64x1, .i1⟩
  | 33 => ⟨S1x512x64x64, .f32⟩
  | 34 => ⟨S_, .f32⟩
  | 35 => ⟨S7x512x64x64, .i1⟩
  | 36 => ⟨S7x512x64x64, .f32⟩
  | 37 => ⟨S7x512x64x64, .f32⟩
  | 38 => ⟨S7x512x64x64, .f32⟩
  | 39 => ⟨S_, .f32⟩
  | 40 => ⟨S7x512x64, .f32⟩
  | 41 => ⟨S1x1x7x64, .i1⟩
  | 42 => ⟨S7x512x1x64, .f32⟩
  | 43 => ⟨S_, .f32⟩
  | 44 => ⟨S7x512x7x64, .i1⟩
  | 45 => ⟨S7x512x7x64, .f32⟩
  | 46 => ⟨S7x512x7x64, .f32⟩
  | 47 => ⟨S7x512x7x64, .f32⟩
  | 48 => ⟨S_, .f32⟩
  | 49 => ⟨S7x512x7, .f32⟩
  | 50 => ⟨S512x7x7, .f32⟩
  | 51 => ⟨S25088, .f32⟩
  | 52 => ⟨S1x1, .i32⟩
  | 53 => ⟨S_, .i32⟩
  | 54 => ⟨S1x1, .i32⟩
  | 55 => ⟨S_, .i32⟩
  | 56 => ⟨S1x1, .i32⟩
  | 57 => ⟨S_, .i32⟩
  | 58 => ⟨S1x1, .i32⟩
  | 59 => ⟨S_, .i32⟩
  | 60 => ⟨S_, .i32⟩
  | 61 => ⟨S_, .i32⟩
  | 62 => ⟨S7, .i32⟩
  | 63 => ⟨S7, .i32⟩
  | 64 => ⟨S7, .i32⟩
  | 65 => ⟨S7, .i32⟩
  | 66 => ⟨S_, .i32⟩
  | 67 => ⟨S_, .i32⟩
  | 68 => ⟨S7, .i32⟩
  | 69 => ⟨S7, .i32⟩
  | 70 => ⟨S7, .i32⟩
  | 71 => ⟨S_, .i32⟩
  | 72 => ⟨S7, .i32⟩
  | 73 => ⟨S7, .i1⟩
  | 74 => ⟨S7, .i32⟩
  | 75 => ⟨S7, .i32⟩
  | 76 => ⟨S_, .i32⟩
  | 77 => ⟨S7, .i32⟩
  | 78 => ⟨S7, .i1⟩
  | 79 => ⟨S7, .i1⟩
  | 80 => ⟨S_, .i32⟩
  | 81 => ⟨S7, .i32⟩
  | 82 => ⟨S7, .i32⟩
  | 83 => ⟨S7, .i32⟩
  | 84 => ⟨S7, .i32⟩
  | 85 => ⟨S7, .i32⟩
  | 86 => ⟨S_, .i32⟩
  | 87 => ⟨S7, .i32⟩
  | 88 => ⟨S7, .i32⟩
  | 89 => ⟨S7, .i32⟩
  | 90 => ⟨S7, .i32⟩
  | 91 => ⟨S7, .i32⟩
  | 92 => ⟨S_, .i32⟩
  | 93 => ⟨S_, .i32⟩
  | 94 => ⟨S7, .i32⟩
  | 95 => ⟨S7, .i32⟩
  | 96 => ⟨S7, .i32⟩
  | 97 => ⟨S_, .i32⟩
  | 98 => ⟨S7, .i32⟩
  | 99 => ⟨S7, .i1⟩
  | 100 => ⟨S7, .i32⟩
  | 101 => ⟨S7, .i32⟩
  | 102 => ⟨S_, .i32⟩
  | 103 => ⟨S7, .i32⟩
  | 104 => ⟨S7, .i1⟩
  | 105 => ⟨S7, .i1⟩
  | 106 => ⟨S_, .i32⟩
  | 107 => ⟨S7, .i32⟩
  | 108 => ⟨S7, .i32⟩
  | 109 => ⟨S7, .i32⟩
  | 110 => ⟨S7, .i32⟩
  | 111 => ⟨S7, .i32⟩
  | 112 => ⟨S7, .i32⟩
  | 113 => ⟨S7, .i32⟩
  | 114 => ⟨S_, .i32⟩
  | 115 => ⟨S_, .i32⟩
  | 116 => ⟨S7, .i32⟩
  | 117 => ⟨S7, .i32⟩
  | 118 => ⟨S7, .i32⟩
  | 119 => ⟨S_, .i32⟩
  | 120 => ⟨S7, .i32⟩
  | 121 => ⟨S7, .i1⟩
  | 122 => ⟨S7, .i32⟩
  | 123 => ⟨S7, .i32⟩
  | 124 => ⟨S_, .i32⟩
  | 125 => ⟨S7, .i32⟩
  | 126 => ⟨S7, .i1⟩
  | 127 => ⟨S7, .i1⟩
  | _ => ⟨S1x512x64x64, .f32⟩

abbrev hbmTy0_2 (i : Nat) : BufTy := match i % 128 with
  | 0 => ⟨S_, .i32⟩
  | 1 => ⟨S7, .i32⟩
  | 2 => ⟨S7, .i32⟩
  | 3 => ⟨S7, .i32⟩
  | 4 => ⟨S7, .i32⟩
  | 5 => ⟨S7, .i32⟩
  | 6 => ⟨S_, .i32⟩
  | 7 => ⟨S7, .i32⟩
  | 8 => ⟨S7, .i32⟩
  | 9 => ⟨S7, .i32⟩
  | 10 => ⟨S7, .i32⟩
  | 11 => ⟨S7, .i32⟩
  | 12 => ⟨S_, .i32⟩
  | 13 => ⟨S_, .i32⟩
  | 14 => ⟨S7, .i32⟩
  | 15 => ⟨S7, .i32⟩
  | 16 => ⟨S7, .i32⟩
  | 17 => ⟨S_, .i32⟩
  | 18 => ⟨S7, .i32⟩
  | 19 => ⟨S7, .i1⟩
  | 20 => ⟨S7, .i32⟩
  | 21 => ⟨S7, .i32⟩
  | 22 => ⟨S_, .i32⟩
  | 23 => ⟨S7, .i32⟩
  | 24 => ⟨S7, .i1⟩
  | 25 => ⟨S7, .i1⟩
  | 26 => ⟨S_, .i32⟩
  | 27 => ⟨S7, .i32⟩
  | 28 => ⟨S7, .i32⟩
  | 29 => ⟨S7, .i32⟩
  | 30 => ⟨S7, .i32⟩
  | 31 => ⟨S7, .i32⟩
  | 32 => ⟨S64, .i32⟩
  | 33 => ⟨S64, .i32⟩
  | 34 => ⟨S1x64, .i32⟩
  | 35 => ⟨S7x1, .i32⟩
  | 36 => ⟨S7x64, .i32⟩
  | 37 => ⟨S7x64, .i32⟩
  | 38 => ⟨S7x64, .i1⟩
  | 39 => ⟨S1x64, .i32⟩
  | 40 => ⟨S7x1, .i32⟩
  | 41 => ⟨S7x64, .i32⟩
  | 42 => ⟨S7x64, .i32⟩
  | 43 => ⟨S7x64, .i1⟩
  | 44 => ⟨S7x64, .i1⟩
  | 45 => ⟨S1x64, .i32⟩
  | 46 => ⟨S7x1, .i32⟩
  | 47 => ⟨S7x64, .i32⟩
  | 48 => ⟨S7x64, .i32⟩
  | 49 => ⟨S7x64, .i1⟩
  | 50 => ⟨S1x64, .i32⟩
  | 51 => ⟨S7x1, .i32⟩
  | 52 => ⟨S7x64, .i32⟩
  | 53 => ⟨S7x64, .i32⟩
  | 54 => ⟨S7x64, .i1⟩
  | 55 => ⟨S7x64, .i1⟩
  | 56 => ⟨S7x1x64x1, .i1⟩
  | 57 => ⟨S1x512x64x64, .f32⟩
  | 58 => ⟨S_, .f32⟩
  | 59 => ⟨S7x512x64x64, .i1⟩
  | 60 => ⟨S7x512x64x64, .f32⟩
  | 61 => ⟨S7x512x64x64, .f32⟩
  | 62 => ⟨S7x512x64x64, .f32⟩
  | 63 => ⟨S_, .f32⟩
  | 64 => ⟨S7x512x64, .f32⟩
  | 65 => ⟨S1x1x7x64, .i1⟩
  | 66 => ⟨S7x512x1x64, .f32⟩
  | 67 => ⟨S_, .f32⟩
  | 68 => ⟨S7x512x7x64, .i1⟩
  | 69 => ⟨S7x512x7x64, .f32⟩
  | 70 => ⟨S7x512x7x64, .f32⟩
  | 71 => ⟨S7x512x7x64, .f32⟩
  | 72 => ⟨S_, .f32⟩
  | 73 => ⟨S7x512x7, .f32⟩
  | 74 => ⟨S512x7x7, .f32⟩
  | 75 => ⟨S25088, .f32⟩
  | 76 => ⟨S1x1, .i32⟩
  | 77 => ⟨S_, .i32⟩
  | 78 => ⟨S1x1, .i32⟩
  | 79 => ⟨S_, .i32⟩
  | 80 => ⟨S1x1, .i32⟩
  | 81 => ⟨S_, .i32⟩
  | 82 => ⟨S1x1, .i32⟩
  | 83 => ⟨S_, .i32⟩
  | 84 => ⟨S_, .i32⟩
  | 85 => ⟨S_, .i32⟩
  | 86 => ⟨S7, .i32⟩
  | 87 => ⟨S7, .i32⟩
  | 88 => ⟨S7, .i32⟩
  | 89 => ⟨S7, .i32⟩
  | 90 => ⟨S_, .i32⟩
  | 91 => ⟨S_, .i32⟩
  | 92 => ⟨S7, .i32⟩
  | 93 => ⟨S7, .i32⟩
  | 94 => ⟨S7, .i32⟩
  | 95 => ⟨S_, .i32⟩
  | 96 => ⟨S7, .i32⟩
  | 97 => ⟨S7, .i1⟩
  | 98 => ⟨S7, .i32⟩
  | 99 => ⟨S7, .i32⟩
  | 100 => ⟨S_, .i32⟩
  | 101 => ⟨S7, .i32⟩
  | 102 => ⟨S7, .i1⟩
  | 103 => ⟨S7, .i1⟩
  | 104 => ⟨S_, .i32⟩
  | 105 => ⟨S7, .i32⟩
  | 106 => ⟨S7, .i32⟩
  | 107 => ⟨S7, .i32⟩
  | 108 => ⟨S7, .i32⟩
  | 109 => ⟨S7, .i32⟩
  | 110 => ⟨S_, .i32⟩
  | 111 => ⟨S7, .i32⟩
  | 112 => ⟨S7, .i32⟩
  | 113 => ⟨S7, .i32⟩
  | 114 => ⟨S7, .i32⟩
  | 115 => ⟨S7, .i32⟩
  | 116 => ⟨S_, .i32⟩
  | 117 => ⟨S_, .i32⟩
  | 118 => ⟨S7, .i32⟩
  | 119 => ⟨S7, .i32⟩
  | 120 => ⟨S7, .i32⟩
  | 121 => ⟨S_, .i32⟩
  | 122 => ⟨S7, .i32⟩
  | 123 => ⟨S7, .i1⟩
  | 124 => ⟨S7, .i32⟩
  | 125 => ⟨S7, .i32⟩
  | 126 => ⟨S_, .i32⟩
  | 127 => ⟨S7, .i32⟩
  | _ => ⟨S1x512x64x64, .f32⟩

abbrev hbmTy0_3 (i : Nat) : BufTy := match i % 128 with
  | 0 => ⟨S7, .i1⟩
  | 1 => ⟨S7, .i1⟩
  | 2 => ⟨S_, .i32⟩
  | 3 => ⟨S7, .i32⟩
  | 4 => ⟨S7, .i32⟩
  | 5 => ⟨S7, .i32⟩
  | 6 => ⟨S7, .i32⟩
  | 7 => ⟨S7, .i32⟩
  | 8 => ⟨S7, .i32⟩
  | 9 => ⟨S7, .i32⟩
  | 10 => ⟨S_, .i32⟩
  | 11 => ⟨S_, .i32⟩
  | 12 => ⟨S7, .i32⟩
  | 13 => ⟨S7, .i32⟩
  | 14 => ⟨S7, .i32⟩
  | 15 => ⟨S_, .i32⟩
  | 16 => ⟨S7, .i32⟩
  | 17 => ⟨S7, .i1⟩
  | 18 => ⟨S7, .i32⟩
  | 19 => ⟨S7, .i32⟩
  | 20 => ⟨S_, .i32⟩
  | 21 => ⟨S7, .i32⟩
  | 22 => ⟨S7, .i1⟩
  | 23 => ⟨S7, .i1⟩
  | 24 => ⟨S_, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S7, .i32⟩
  | 32 => ⟨S7, .i32⟩
  | 33 => ⟨S7, .i32⟩
  | 34 => ⟨S7, .i32⟩
  | 35 => ⟨S7, .i32⟩
  | 36 => ⟨S_, .i32⟩
  | 37 => ⟨S_, .i32⟩
  | 38 => ⟨S7, .i32⟩
  | 39 => ⟨S7, .i32⟩
  | 40 => ⟨S7, .i32⟩
  | 41 => ⟨S_, .i32⟩
  | 42 => ⟨S7, .i32⟩
  | 43 => ⟨S7, .i1⟩
  | 44 => ⟨S7, .i32⟩
  | 45 => ⟨S7, .i32⟩
  | 46 => ⟨S_, .i32⟩
  | 47 => ⟨S7, .i32⟩
  | 48 => ⟨S7, .i1⟩
  | 49 => ⟨S7, .i1⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S64, .i32⟩
  | 57 => ⟨S64, .i32⟩
  | 58 => ⟨S1x64, .i32⟩
  | 59 => ⟨S7x1, .i32⟩
  | 60 => ⟨S7x64, .i32⟩
  | 61 => ⟨S7x64, .i32⟩
  | 62 => ⟨S7x64, .i1⟩
  | 63 => ⟨S1x64, .i32⟩
  | 64 => ⟨S7x1, .i32⟩
  | 65 => ⟨S7x64, .i32⟩
  | 66 => ⟨S7x64, .i32⟩
  | 67 => ⟨S7x64, .i1⟩
  | 68 => ⟨S7x64, .i1⟩
  | 69 => ⟨S1x64, .i32⟩
  | 70 => ⟨S7x1, .i32⟩
  | 71 => ⟨S7x64, .i32⟩
  | 72 => ⟨S7x64, .i32⟩
  | 73 => ⟨S7x64, .i1⟩
  | 74 => ⟨S1x64, .i32⟩
  | 75 => ⟨S7x1, .i32⟩
  | 76 => ⟨S7x64, .i32⟩
  | 77 => ⟨S7x64, .i32⟩
  | 78 => ⟨S7x64, .i1⟩
  | 79 => ⟨S7x64, .i1⟩
  | 80 => ⟨S7x1x64x1, .i1⟩
  | 81 => ⟨S1x512x64x64, .f32⟩
  | 82 => ⟨S_, .f32⟩
  | 83 => ⟨S7x512x64x64, .i1⟩
  | 84 => ⟨S7x512x64x64, .f32⟩
  | 85 => ⟨S7x512x64x64, .f32⟩
  | 86 => ⟨S7x512x64x64, .f32⟩
  | 87 => ⟨S_, .f32⟩
  | 88 => ⟨S7x512x64, .f32⟩
  | 89 => ⟨S1x1x7x64, .i1⟩
  | 90 => ⟨S7x512x1x64, .f32⟩
  | 91 => ⟨S_, .f32⟩
  | 92 => ⟨S7x512x7x64, .i1⟩
  | 93 => ⟨S7x512x7x64, .f32⟩
  | 94 => ⟨S7x512x7x64, .f32⟩
  | 95 => ⟨S7x512x7x64, .f32⟩
  | 96 => ⟨S_, .f32⟩
  | 97 => ⟨S7x512x7, .f32⟩
  | 98 => ⟨S512x7x7, .f32⟩
  | 99 => ⟨S25088, .f32⟩
  | 100 => ⟨S1x1, .i32⟩
  | 101 => ⟨S_, .i32⟩
  | 102 => ⟨S1x1, .i32⟩
  | 103 => ⟨S_, .i32⟩
  | 104 => ⟨S1x1, .i32⟩
  | 105 => ⟨S_, .i32⟩
  | 106 => ⟨S1x1, .i32⟩
  | 107 => ⟨S_, .i32⟩
  | 108 => ⟨S_, .i32⟩
  | 109 => ⟨S_, .i32⟩
  | 110 => ⟨S7, .i32⟩
  | 111 => ⟨S7, .i32⟩
  | 112 => ⟨S7, .i32⟩
  | 113 => ⟨S7, .i32⟩
  | 114 => ⟨S_, .i32⟩
  | 115 => ⟨S_, .i32⟩
  | 116 => ⟨S7, .i32⟩
  | 117 => ⟨S7, .i32⟩
  | 118 => ⟨S7, .i32⟩
  | 119 => ⟨S_, .i32⟩
  | 120 => ⟨S7, .i32⟩
  | 121 => ⟨S7, .i1⟩
  | 122 => ⟨S7, .i32⟩
  | 123 => ⟨S7, .i32⟩
  | 124 => ⟨S_, .i32⟩
  | 125 => ⟨S7, .i32⟩
  | 126 => ⟨S7, .i1⟩
  | 127 => ⟨S7, .i1⟩
  | _ => ⟨S1x512x64x64, .f32⟩

abbrev hbmTy0_4 (i : Nat) : BufTy := match i % 128 with
  | 0 => ⟨S_, .i32⟩
  | 1 => ⟨S7, .i32⟩
  | 2 => ⟨S7, .i32⟩
  | 3 => ⟨S7, .i32⟩
  | 4 => ⟨S7, .i32⟩
  | 5 => ⟨S7, .i32⟩
  | 6 => ⟨S_, .i32⟩
  | 7 => ⟨S7, .i32⟩
  | 8 => ⟨S7, .i32⟩
  | 9 => ⟨S7, .i32⟩
  | 10 => ⟨S7, .i32⟩
  | 11 => ⟨S7, .i32⟩
  | 12 => ⟨S_, .i32⟩
  | 13 => ⟨S_, .i32⟩
  | 14 => ⟨S7, .i32⟩
  | 15 => ⟨S7, .i32⟩
  | 16 => ⟨S7, .i32⟩
  | 17 => ⟨S_, .i32⟩
  | 18 => ⟨S7, .i32⟩
  | 19 => ⟨S7, .i1⟩
  | 20 => ⟨S7, .i32⟩
  | 21 => ⟨S7, .i32⟩
  | 22 => ⟨S_, .i32⟩
  | 23 => ⟨S7, .i32⟩
  | 24 => ⟨S7, .i1⟩
  | 25 => ⟨S7, .i1⟩
  | 26 => ⟨S_, .i32⟩
  | 27 => ⟨S7, .i32⟩
  | 28 => ⟨S7, .i32⟩
  | 29 => ⟨S7, .i32⟩
  | 30 => ⟨S7, .i32⟩
  | 31 => ⟨S7, .i32⟩
  | 32 => ⟨S7, .i32⟩
  | 33 => ⟨S7, .i32⟩
  | 34 => ⟨S_, .i32⟩
  | 35 => ⟨S_, .i32⟩
  | 36 => ⟨S7, .i32⟩
  | 37 => ⟨S7, .i32⟩
  | 38 => ⟨S7, .i32⟩
  | 39 => ⟨S_, .i32⟩
  | 40 => ⟨S7, .i32⟩
  | 41 => ⟨S7, .i1⟩
  | 42 => ⟨S7, .i32⟩
  | 43 => ⟨S7, .i32⟩
  | 44 => ⟨S_, .i32⟩
  | 45 => ⟨S7, .i32⟩
  | 46 => ⟨S7, .i1⟩
  | 47 => ⟨S7, .i1⟩
  | 48 => ⟨S_, .i32⟩
  | 49 => ⟨S7, .i32⟩
  | 50 => ⟨S7, .i32⟩
  | 51 => ⟨S7, .i32⟩
  | 52 => ⟨S7, .i32⟩
  | 53 => ⟨S7, .i32⟩
  | 54 => ⟨S_, .i32⟩
  | 55 => ⟨S7, .i32⟩
  | 56 => ⟨S7, .i32⟩
  | 57 => ⟨S7, .i32⟩
  | 58 => ⟨S7, .i32⟩
  | 59 => ⟨S7, .i32⟩
  | 60 => ⟨S_, .i32⟩
  | 61 => ⟨S_, .i32⟩
  | 62 => ⟨S7, .i32⟩
  | 63 => ⟨S7, .i32⟩
  | 64 => ⟨S7, .i32⟩
  | 65 => ⟨S_, .i32⟩
  | 66 => ⟨S7, .i32⟩
  | 67 => ⟨S7, .i1⟩
  | 68 => ⟨S7, .i32⟩
  | 69 => ⟨S7, .i32⟩
  | 70 => ⟨S_, .i32⟩
  | 71 => ⟨S7, .i32⟩
  | 72 => ⟨S7, .i1⟩
  | 73 => ⟨S7, .i1⟩
  | 74 => ⟨S_, .i32⟩
  | 75 => ⟨S7, .i32⟩
  | 76 => ⟨S7, .i32⟩
  | 77 => ⟨S7, .i32⟩
  | 78 => ⟨S7, .i32⟩
  | 79 => ⟨S7, .i32⟩
  | 80 => ⟨S64, .i32⟩
  | 81 => ⟨S64, .i32⟩
  | 82 => ⟨S1x64, .i32⟩
  | 83 => ⟨S7x1, .i32⟩
  | 84 => ⟨S7x64, .i32⟩
  | 85 => ⟨S7x64, .i32⟩
  | 86 => ⟨S7x64, .i1⟩
  | 87 => ⟨S1x64, .i32⟩
  | 88 => ⟨S7x1, .i32⟩
  | 89 => ⟨S7x64, .i32⟩
  | 90 => ⟨S7x64, .i32⟩
  | 91 => ⟨S7x64, .i1⟩
  | 92 => ⟨S7x64, .i1⟩
  | 93 => ⟨S1x64, .i32⟩
  | 94 => ⟨S7x1, .i32⟩
  | 95 => ⟨S7x64, .i32⟩
  | 96 => ⟨S7x64, .i32⟩
  | 97 => ⟨S7x64, .i1⟩
  | 98 => ⟨S1x64, .i32⟩
  | 99 => ⟨S7x1, .i32⟩
  | 100 => ⟨S7x64, .i32⟩
  | 101 => ⟨S7x64, .i32⟩
  | 102 => ⟨S7x64, .i1⟩
  | 103 => ⟨S7x64, .i1⟩
  | 104 => ⟨S7x1x64x1, .i1⟩
  | 105 => ⟨S1x512x64x64, .f32⟩
  | 106 => ⟨S_, .f32⟩
  | 107 => ⟨S7x512x64x64, .i1⟩
  | 108 => ⟨S7x512x64x64, .f32⟩
  | 109 => ⟨S7x512x64x64, .f32⟩
  | 110 => ⟨S7x512x64x64, .f32⟩
  | 111 => ⟨S_, .f32⟩
  | 112 => ⟨S7x512x64, .f32⟩
  | 113 => ⟨S1x1x7x64, .i1⟩
  | 114 => ⟨S7x512x1x64, .f32⟩
  | 115 => ⟨S_, .f32⟩
  | 116 => ⟨S7x512x7x64, .i1⟩
  | 117 => ⟨S7x512x7x64, .f32⟩
  | 118 => ⟨S7x512x7x64, .f32⟩
  | 119 => ⟨S7x512x7x64, .f32⟩
  | 120 => ⟨S_, .f32⟩
  | 121 => ⟨S7x512x7, .f32⟩
  | 122 => ⟨S512x7x7, .f32⟩
  | 123 => ⟨S25088, .f32⟩
  | 124 => ⟨S1x1, .i32⟩
  | 125 => ⟨S_, .i32⟩
  | 126 => ⟨S1x1, .i32⟩
  | 127 => ⟨S_, .i32⟩
  | _ => ⟨S1x512x64x64, .f32⟩

abbrev hbmTy0_5 (i : Nat) : BufTy := match i % 128 with
  | 0 => ⟨S_, .i32⟩
  | 1 => ⟨S1x1, .i32⟩
  | 2 => ⟨S_, .i32⟩
  | 3 => ⟨S1x1, .i32⟩
  | 4 => ⟨S_, .i32⟩
  | 5 => ⟨S_, .i32⟩
  | 6 => ⟨S1x1, .i32⟩
  | 7 => ⟨S_, .i32⟩
  | 8 => ⟨S1x1, .i32⟩
  | 9 => ⟨S_, .i32⟩
  | 10 => ⟨S_, .i32⟩
  | 11 => ⟨S1x1, .i32⟩
  | 12 => ⟨S_, .i32⟩
  | 13 => ⟨S1x1, .i32⟩
  | 14 => ⟨S_, .i32⟩
  | 15 => ⟨S_, .i32⟩
  | 16 => ⟨S_, .i32⟩
  | 17 => ⟨S_, .i32⟩
  | 18 => ⟨S7, .i32⟩
  | 19 => ⟨S7, .i32⟩
  | 20 => ⟨S7, .i32⟩
  | 21 => ⟨S7, .i32⟩
  | 22 => ⟨S_, .i32⟩
  | 23 => ⟨S_, .i32⟩
  | 24 => ⟨S7, .i32⟩
  | 25 => ⟨S7, .i32⟩
  | 26 => ⟨S7, .i32⟩
  | 27 => ⟨S_, .i32⟩
  | 28 => ⟨S7, .i32⟩
  | 29 => ⟨S7, .i1⟩
  | 30 => ⟨S7, .i32⟩
  | 31 => ⟨S7, .i32⟩
  | 32 => ⟨S_, .i32⟩
  | 33 => ⟨S7, .i32⟩
  | 34 => ⟨S7, .i1⟩
  | 35 => ⟨S7, .i1⟩
  | 36 => ⟨S_, .i32⟩
  | 37 => ⟨S7, .i32⟩
  | 38 => ⟨S7, .i32⟩
  | 39 => ⟨S7, .i32⟩
  | 40 => ⟨S7, .i32⟩
  | 41 => ⟨S7, .i32⟩
  | 42 => ⟨S_, .i32⟩
  | 43 => ⟨S7, .i32⟩
  | 44 => ⟨S7, .i32⟩
  | 45 => ⟨S7, .i32⟩
  | 46 => ⟨S7, .i32⟩
  | 47 => ⟨S7, .i32⟩
  | 48 => ⟨S_, .i32⟩
  | 49 => ⟨S_, .i32⟩
  | 50 => ⟨S7, .i32⟩
  | 51 => ⟨S7, .i32⟩
  | 52 => ⟨S7, .i32⟩
  | 53 => ⟨S_, .i32⟩
  | 54 => ⟨S7, .i32⟩
  | 55 => ⟨S7, .i1⟩
  | 56 => ⟨S7, .i32⟩
  | 57 => ⟨S7, .i32⟩
  | 58 => ⟨S_, .i32⟩
  | 59 => ⟨S7, .i32⟩
  | 60 => ⟨S7, .i1⟩
  | 61 => ⟨S7, .i1⟩
  | 62 => ⟨S_, .i32⟩
  | 63 => ⟨S7, .i32⟩
  | 64 => ⟨S7, .i32⟩
  | 65 => ⟨S7, .i32⟩
  | 66 => ⟨S7, .i32⟩
  | 67 => ⟨S7, .i32⟩
  | 68 => ⟨S7, .i32⟩
  | 69 => ⟨S7, .i32⟩
  | 70 => ⟨S_, .i32⟩
  | 71 => ⟨S_, .i32⟩
  | 72 => ⟨S7, .i32⟩
  | 73 => ⟨S7, .i32⟩
  | 74 => ⟨S7, .i32⟩
  | 75 => ⟨S_, .i32⟩
  | 76 => ⟨S7, .i32⟩
  | 77 => ⟨S7, .i1⟩
  | 78 => ⟨S7, .i32⟩
  | 79 => ⟨S7, .i32⟩
  | 80 => ⟨S_, .i32⟩
  | 81 => ⟨S7, .i32⟩
  | 82 => ⟨S7, .i1⟩
  | 83 => ⟨S7, .i1⟩
  | 84 => ⟨S_, .i32⟩
  | 85 => ⟨S7, .i32⟩
  | 86 => ⟨S7, .i32⟩
  | 87 => ⟨S7, .i32⟩
  | 88 => ⟨S7, .i32⟩
  | 89 => ⟨S7, .i32⟩
  | 90 => ⟨S_, .i32⟩
  | 91 => ⟨S7, .i32⟩
  | 92 => ⟨S7, .i32⟩
  | 93 => ⟨S7, .i32⟩
  | 94 => ⟨S7, .i32⟩
  | 95 => ⟨S7, .i32⟩
  | 96 => ⟨S_, .i32⟩
  | 97 => ⟨S_, .i32⟩
  | 98 => ⟨S7, .i32⟩
  | 99 => ⟨S7, .i32⟩
  | 100 => ⟨S7, .i32⟩
  | 101 => ⟨S_, .i32⟩
  | 102 => ⟨S7, .i32⟩
  | 103 => ⟨S7, .i1⟩
  | 104 => ⟨S7, .i32⟩
  | 105 => ⟨S7, .i32⟩
  | 106 => ⟨S_, .i32⟩
  | 107 => ⟨S7, .i32⟩
  | 108 => ⟨S7, .i1⟩
  | 109 => ⟨S7, .i1⟩
  | 110 => ⟨S_, .i32⟩
  | 111 => ⟨S7, .i32⟩
  | 112 => ⟨S7, .i32⟩
  | 113 => ⟨S7, .i32⟩
  | 114 => ⟨S7, .i32⟩
  | 115 => ⟨S7, .i32⟩
  | 116 => ⟨S64, .i32⟩
  | 117 => ⟨S64, .i32⟩
  | 118 => ⟨S1x64, .i32⟩
  | 119 => ⟨S7x1, .i32⟩
  | 120 => ⟨S7x64, .i32⟩
  | 121 => ⟨S7x64, .i32⟩
  | 122 => ⟨S7x64, .i1⟩
  | 123 => ⟨S1x64, .i32⟩
  | 124 => ⟨S7x1, .i32⟩
  | 125 => ⟨S7x64, .i32⟩
  | 126 => ⟨S7x64, .i32⟩
  | 127 => ⟨S7x64, .i1⟩
  | _ => ⟨S1x512x64x64, .f32⟩

abbrev hbmTy0_6 (i : Nat) : BufTy := match i % 128 with
  | 0 => ⟨S7x64, .i1⟩
  | 1 => ⟨S1x64, .i32⟩
  | 2 => ⟨S7x1, .i32⟩
  | 3 => ⟨S7x64, .i32⟩
  | 4 => ⟨S7x64, .i32⟩
  | 5 => ⟨S7x64, .i1⟩
  | 6 => ⟨S1x64, .i32⟩
  | 7 => ⟨S7x1, .i32⟩
  | 8 => ⟨S7x64, .i32⟩
  | 9 => ⟨S7x64, .i32⟩
  | 10 => ⟨S7x64, .i1⟩
  | 11 => ⟨S7x64, .i1⟩
  | 12 => ⟨S7x1x64x1, .i1⟩
  | 13 => ⟨S1x512x64x64, .f32⟩
  | 14 => ⟨S_, .f32⟩
  | 15 => ⟨S7x512x64x64, .i1⟩
  | 16 => ⟨S7x512x64x64, .f32⟩
  | 17 => ⟨S7x512x64x64, .f32⟩
  | 18 => ⟨S7x512x64x64, .f32⟩
  | 19 => ⟨S_, .f32⟩
  | 20 => ⟨S7x512x64, .f32⟩
  | 21 => ⟨S1x1x7x64, .i1⟩
  | 22 => ⟨S7x512x1x64, .f32⟩
  | 23 => ⟨S_, .f32⟩
  | 24 => ⟨S7x512x7x64, .i1⟩
  | 25 => ⟨S7x512x7x64, .f32⟩
  | 26 => ⟨S7x512x7x64, .f32⟩
  | 27 => ⟨S7x512x7x64, .f32⟩
  | 28 => ⟨S_, .f32⟩
  | 29 => ⟨S7x512x7, .f32⟩
  | 30 => ⟨S512x7x7, .f32⟩
  | 31 => ⟨S25088, .f32⟩
  | 32 => ⟨S1x1, .i32⟩
  | 33 => ⟨S_, .i32⟩
  | 34 => ⟨S1x1, .i32⟩
  | 35 => ⟨S_, .i32⟩
  | 36 => ⟨S_, .i32⟩
  | 37 => ⟨S1x1, .i32⟩
  | 38 => ⟨S_, .i32⟩
  | 39 => ⟨S1x1, .i32⟩
  | 40 => ⟨S_, .i32⟩
  | 41 => ⟨S_, .i32⟩
  | 42 => ⟨S1x1, .i32⟩
  | 43 => ⟨S_, .i32⟩
  | 44 => ⟨S1x1, .i32⟩
  | 45 => ⟨S_, .i32⟩
  | 46 => ⟨S_, .i32⟩
  | 47 => ⟨S1x1, .i32⟩
  | 48 => ⟨S_, .i32⟩
  | 49 => ⟨S1x1, .i32⟩
  | 50 => ⟨S_, .i32⟩
  | 51 => ⟨S_, .i32⟩
  | 52 => ⟨S_, .i32⟩
  | 53 => ⟨S_, .i32⟩
  | 54 => ⟨S7, .i32⟩
  | 55 => ⟨S7, .i32⟩
  | 56 => ⟨S7, .i32⟩
  | 57 => ⟨S7, .i32⟩
  | 58 => ⟨S_, .i32⟩
  | 59 => ⟨S_, .i32⟩
  | 60 => ⟨S7, .i32⟩
  | 61 => ⟨S7, .i32⟩
  | 62 => ⟨S7, .i32⟩
  | 63 => ⟨S_, .i32⟩
  | 64 => ⟨S7, .i32⟩
  | 65 => ⟨S7, .i1⟩
  | 66 => ⟨S7, .i32⟩
  | 67 => ⟨S7, .i32⟩
  | 68 => ⟨S_, .i32⟩
  | 69 => ⟨S7, .i32⟩
  | 70 => ⟨S7, .i1⟩
  | 71 => ⟨S7, .i1⟩
  | 72 => ⟨S_, .i32⟩
  | 73 => ⟨S7, .i32⟩
  | 74 => ⟨S7, .i32⟩
  | 75 => ⟨S7, .i32⟩
  | 76 => ⟨S7, .i32⟩
  | 77 => ⟨S7, .i32⟩
  | 78 => ⟨S_, .i32⟩
  | 79 => ⟨S7, .i32⟩
  | 80 => ⟨S7, .i32⟩
  | 81 => ⟨S7, .i32⟩
  | 82 => ⟨S7, .i32⟩
  | 83 => ⟨S7, .i32⟩
  | 84 => ⟨S_, .i32⟩
  | 85 => ⟨S_, .i32⟩
  | 86 => ⟨S7, .i32⟩
  | 87 => ⟨S7, .i32⟩
  | 88 => ⟨S7, .i32⟩
  | 89 => ⟨S_, .i32⟩
  | 90 => ⟨S7, .i32⟩
  | 91 => ⟨S7, .i1⟩
  | 92 => ⟨S7, .i32⟩
  | 93 => ⟨S7, .i32⟩
  | 94 => ⟨S_, .i32⟩
  | 95 => ⟨S7, .i32⟩
  | 96 => ⟨S7, .i1⟩
  | 97 => ⟨S7, .i1⟩
  | 98 => ⟨S_, .i32⟩
  | 99 => ⟨S7, .i32⟩
  | 100 => ⟨S7, .i32⟩
  | 101 => ⟨S7, .i32⟩
  | 102 => ⟨S7, .i32⟩
  | 103 => ⟨S7, .i32⟩
  | 104 => ⟨S7, .i32⟩
  | 105 => ⟨S7, .i32⟩
  | 106 => ⟨S_, .i32⟩
  | 107 => ⟨S_, .i32⟩
  | 108 => ⟨S7, .i32⟩
  | 109 => ⟨S7, .i32⟩
  | 110 => ⟨S7, .i32⟩
  | 111 => ⟨S_, .i32⟩
  | 112 => ⟨S7, .i32⟩
  | 113 => ⟨S7, .i1⟩
  | 114 => ⟨S7, .i32⟩
  | 115 => ⟨S7, .i32⟩
  | 116 => ⟨S_, .i32⟩
  | 117 => ⟨S7, .i32⟩
  | 118 => ⟨S7, .i1⟩
  | 119 => ⟨S7, .i1⟩
  | 120 => ⟨S_, .i32⟩
  | 121 => ⟨S7, .i32⟩
  | 122 => ⟨S7, .i32⟩
  | 123 => ⟨S7, .i32⟩
  | 124 => ⟨S7, .i32⟩
  | 125 => ⟨S7, .i32⟩
  | 126 => ⟨S_, .i32⟩
  | 127 => ⟨S7, .i32⟩
  | _ => ⟨S1x512x64x64, .f32⟩

abbrev hbmTy0_7 (i : Nat) : BufTy := match i % 128 with
  | 0 => ⟨S7, .i32⟩
  | 1 => ⟨S7, .i32⟩
  | 2 => ⟨S7, .i32⟩
  | 3 => ⟨S7, .i32⟩
  | 4 => ⟨S_, .i32⟩
  | 5 => ⟨S_, .i32⟩
  | 6 => ⟨S7, .i32⟩
  | 7 => ⟨S7, .i32⟩
  | 8 => ⟨S7, .i32⟩
  | 9 => ⟨S_, .i32⟩
  | 10 => ⟨S7, .i32⟩
  | 11 => ⟨S7, .i1⟩
  | 12 => ⟨S7, .i32⟩
  | 13 => ⟨S7, .i32⟩
  | 14 => ⟨S_, .i32⟩
  | 15 => ⟨S7, .i32⟩
  | 16 => ⟨S7, .i1⟩
  | 17 => ⟨S7, .i1⟩
  | 18 => ⟨S_, .i32⟩
  | 19 => ⟨S7, .i32⟩
  | 20 => ⟨S7, .i32⟩
  | 21 => ⟨S7, .i32⟩
  | 22 => ⟨S7, .i32⟩
  | 23 => ⟨S7, .i32⟩
  | 24 => ⟨S64, .i32⟩
  | 25 => ⟨S64, .i32⟩
  | 26 => ⟨S1x64, .i32⟩
  | 27 => ⟨S7x1, .i32⟩
  | 28 => ⟨S7x64, .i32⟩
  | 29 => ⟨S7x64, .i32⟩
  | 30 => ⟨S7x64, .i1⟩
  | 31 => ⟨S1x64, .i32⟩
  | 32 => ⟨S7x1, .i32⟩
  | 33 => ⟨S7x64, .i32⟩
  | 34 => ⟨S7x64, .i32⟩
  | 35 => ⟨S7x64, .i1⟩
  | 36 => ⟨S7x64, .i1⟩
  | 37 => ⟨S1x64, .i32⟩
  | 38 => ⟨S7x1, .i32⟩
  | 39 => ⟨S7x64, .i32⟩
  | 40 => ⟨S7x64, .i32⟩
  | 41 => ⟨S7x64, .i1⟩
  | 42 => ⟨S1x64, .i32⟩
  | 43 => ⟨S7x1, .i32⟩
  | 44 => ⟨S7x64, .i32⟩
  | 45 => ⟨S7x64, .i32⟩
  | 46 => ⟨S7x64, .i1⟩
  | 47 => ⟨S7x64, .i1⟩
  | 48 => ⟨S7x1x64x1, .i1⟩
  | 49 => ⟨S1x512x64x64, .f32⟩
  | 50 => ⟨S_, .f32⟩
  | 51 => ⟨S7x512x64x64, .i1⟩
  | 52 => ⟨S7x512x64x64, .f32⟩
  | 53 => ⟨S7x512x64x64, .f32⟩
  | 54 => ⟨S7x512x64x64, .f32⟩
  | 55 => ⟨S_, .f32⟩
  | 56 => ⟨S7x512x64, .f32⟩
  | 57 => ⟨S1x1x7x64, .i1⟩
  | 58 => ⟨S7x512x1x64, .f32⟩
  | 59 => ⟨S_, .f32⟩
  | 60 => ⟨S7x512x7x64, .i1⟩
  | 61 => ⟨S7x512x7x64, .f32⟩
  | 62 => ⟨S7x512x7x64, .f32⟩
  | 63 => ⟨S7x512x7x64, .f32⟩
  | 64 => ⟨S_, .f32⟩
  | 65 => ⟨S7x512x7, .f32⟩
  | 66 => ⟨S512x7x7, .f32⟩
  | 67 => ⟨S25088, .f32⟩
  | 68 => ⟨S1x1, .i32⟩
  | 69 => ⟨S_, .i32⟩
  | 70 => ⟨S1x1, .i32⟩
  | 71 => ⟨S_, .i32⟩
  | 72 => ⟨S_, .i32⟩
  | 73 => ⟨S1x1, .i32⟩
  | 74 => ⟨S_, .i32⟩
  | 75 => ⟨S1x1, .i32⟩
  | 76 => ⟨S_, .i32⟩
  | 77 => ⟨S_, .i32⟩
  | 78 => ⟨S1x1, .i32⟩
  | 79 => ⟨S_, .i32⟩
  | 80 => ⟨S1x1, .i32⟩
  | 81 => ⟨S_, .i32⟩
  | 82 => ⟨S_, .i32⟩
  | 83 => ⟨S1x1, .i32⟩
  | 84 => ⟨S_, .i32⟩
  | 85 => ⟨S1x1, .i32⟩
  | 86 => ⟨S_, .i32⟩
  | 87 => ⟨S_, .i32⟩
  | 88 => ⟨S_, .i32⟩
  | 89 => ⟨S_, .i32⟩
  | 90 => ⟨S7, .i32⟩
  | 91 => ⟨S7, .i32⟩
  | 92 => ⟨S7, .i32⟩
  | 93 => ⟨S7, .i32⟩
  | 94 => ⟨S_, .i32⟩
  | 95 => ⟨S_, .i32⟩
  | 96 => ⟨S7, .i32⟩
  | 97 => ⟨S7, .i32⟩
  | 98 => ⟨S7, .i32⟩
  | 99 => ⟨S_, .i32⟩
  | 100 => ⟨S7, .i32⟩
  | 101 => ⟨S7, .i1⟩
  | 102 => ⟨S7, .i32⟩
  | 103 => ⟨S7, .i32⟩
  | 104 => ⟨S_, .i32⟩
  | 105 => ⟨S7, .i32⟩
  | 106 => ⟨S7, .i1⟩
  | 107 => ⟨S7, .i1⟩
  | 108 => ⟨S_, .i32⟩
  | 109 => ⟨S7, .i32⟩
  | 110 => ⟨S7, .i32⟩
  | 111 => ⟨S7, .i32⟩
  | 112 => ⟨S7, .i32⟩
  | 113 => ⟨S7, .i32⟩
  | 114 => ⟨S_, .i32⟩
  | 115 => ⟨S7, .i32⟩
  | 116 => ⟨S7, .i32⟩
  | 117 => ⟨S7, .i32⟩
  | 118 => ⟨S7, .i32⟩
  | 119 => ⟨S7, .i32⟩
  | 120 => ⟨S_, .i32⟩
  | 121 => ⟨S_, .i32⟩
  | 122 => ⟨S7, .i32⟩
  | 123 => ⟨S7, .i32⟩
  | 124 => ⟨S7, .i32⟩
  | 125 => ⟨S_, .i32⟩
  | 126 => ⟨S7, .i32⟩
  | 127 => ⟨S7, .i1⟩
  | _ => ⟨S1x512x64x64, .f32⟩

abbrev hbmTy0_8 (i : Nat) : BufTy := match i % 128 with
  | 0 => ⟨S7, .i32⟩
  | 1 => ⟨S7, .i32⟩
  | 2 => ⟨S_, .i32⟩
  | 3 => ⟨S7, .i32⟩
  | 4 => ⟨S7, .i1⟩
  | 5 => ⟨S7, .i1⟩
  | 6 => ⟨S_, .i32⟩
  | 7 => ⟨S7, .i32⟩
  | 8 => ⟨S7, .i32⟩
  | 9 => ⟨S7, .i32⟩
  | 10 => ⟨S7, .i32⟩
  | 11 => ⟨S7, .i32⟩
  | 12 => ⟨S7, .i32⟩
  | 13 => ⟨S7, .i32⟩
  | 14 => ⟨S_, .i32⟩
  | 15 => ⟨S_, .i32⟩
  | 16 => ⟨S7, .i32⟩
  | 17 => ⟨S7, .i32⟩
  | 18 => ⟨S7, .i32⟩
  | 19 => ⟨S_, .i32⟩
  | 20 => ⟨S7, .i32⟩
  | 21 => ⟨S7, .i1⟩
  | 22 => ⟨S7, .i32⟩
  | 23 => ⟨S7, .i32⟩
  | 24 => ⟨S_, .i32⟩
  | 25 => ⟨S7, .i32⟩
  | 26 => ⟨S7, .i1⟩
  | 27 => ⟨S7, .i1⟩
  | 28 => ⟨S_, .i32⟩
  | 29 => ⟨S7, .i32⟩
  | 30 => ⟨S7, .i32⟩
  | 31 => ⟨S7, .i32⟩
  | 32 => ⟨S7, .i32⟩
  | 33 => ⟨S7, .i32⟩
  | 34 => ⟨S_, .i32⟩
  | 35 => ⟨S7, .i32⟩
  | 36 => ⟨S7, .i32⟩
  | 37 => ⟨S7, .i32⟩
  | 38 => ⟨S7, .i32⟩
  | 39 => ⟨S7, .i32⟩
  | 40 => ⟨S_, .i32⟩
  | 41 => ⟨S_, .i32⟩
  | 42 => ⟨S7, .i32⟩
  | 43 => ⟨S7, .i32⟩
  | 44 => ⟨S7, .i32⟩
  | 45 => ⟨S_, .i32⟩
  | 46 => ⟨S7, .i32⟩
  | 47 => ⟨S7, .i1⟩
  | 48 => ⟨S7, .i32⟩
  | 49 => ⟨S7, .i32⟩
  | 50 => ⟨S_, .i32⟩
  | 51 => ⟨S7, .i32⟩
  | 52 => ⟨S7, .i1⟩
  | 53 => ⟨S7, .i1⟩
  | 54 => ⟨S_, .i32⟩
  | 55 => ⟨S7, .i32⟩
  | 56 => ⟨S7, .i32⟩
  | 57 => ⟨S7, .i32⟩
  | 58 => ⟨S7, .i32⟩
  | 59 => ⟨S7, .i32⟩
  | 60 => ⟨S64, .i32⟩
  | 61 => ⟨S64, .i32⟩
  | 62 => ⟨S1x64, .i32⟩
  | 63 => ⟨S7x1, .i32⟩
  | 64 => ⟨S7x64, .i32⟩
  | 65 => ⟨S7x64, .i32⟩
  | 66 => ⟨S7x64, .i1⟩
  | 67 => ⟨S1x64, .i32⟩
  | 68 => ⟨S7x1, .i32⟩
  | 69 => ⟨S7x64, .i32⟩
  | 70 => ⟨S7x64, .i32⟩
  | 71 => ⟨S7x64, .i1⟩
  | 72 => ⟨S7x64, .i1⟩
  | 73 => ⟨S1x64, .i32⟩
  | 74 => ⟨S7x1, .i32⟩
  | 75 => ⟨S7x64, .i32⟩
  | 76 => ⟨S7x64, .i32⟩
  | 77 => ⟨S7x64, .i1⟩
  | 78 => ⟨S1x64, .i32⟩
  | 79 => ⟨S7x1, .i32⟩
  | 80 => ⟨S7x64, .i32⟩
  | 81 => ⟨S7x64, .i32⟩
  | 82 => ⟨S7x64, .i1⟩
  | 83 => ⟨S7x64, .i1⟩
  | 84 => ⟨S7x1x64x1, .i1⟩
  | 85 => ⟨S1x512x64x64, .f32⟩
  | 86 => ⟨S_, .f32⟩
  | 87 => ⟨S7x512x64x64, .i1⟩
  | 88 => ⟨S7x512x64x64, .f32⟩
  | 89 => ⟨S7x512x64x64, .f32⟩
  | 90 => ⟨S7x512x64x64, .f32⟩
  | 91 => ⟨S_, .f32⟩
  | 92 => ⟨S7x512x64, .f32⟩
  | 93 => ⟨S1x1x7x64, .i1⟩
  | 94 => ⟨S7x512x1x64, .f32⟩
  | 95 => ⟨S_, .f32⟩
  | 96 => ⟨S7x512x7x64, .i1⟩
  | 97 => ⟨S7x512x7x64, .f32⟩
  | 98 => ⟨S7x512x7x64, .f32⟩
  | 99 => ⟨S7x512x7x64, .f32⟩
  | 100 => ⟨S_, .f32⟩
  | 101 => ⟨S7x512x7, .f32⟩
  | 102 => ⟨S512x7x7, .f32⟩
  | 103 => ⟨S25088, .f32⟩
  | 104 => ⟨S1x1, .i32⟩
  | 105 => ⟨S_, .i32⟩
  | 106 => ⟨S1x1, .i32⟩
  | 107 => ⟨S_, .i32⟩
  | 108 => ⟨S_, .i32⟩
  | 109 => ⟨S1x1, .i32⟩
  | 110 => ⟨S_, .i32⟩
  | 111 => ⟨S1x1, .i32⟩
  | 112 => ⟨S_, .i32⟩
  | 113 => ⟨S_, .i32⟩
  | 114 => ⟨S1x1, .i32⟩
  | 115 => ⟨S_, .i32⟩
  | 116 => ⟨S1x1, .i32⟩
  | 117 => ⟨S_, .i32⟩
  | 118 => ⟨S_, .i32⟩
  | 119 => ⟨S1x1, .i32⟩
  | 120 => ⟨S_, .i32⟩
  | 121 => ⟨S1x1, .i32⟩
  | 122 => ⟨S_, .i32⟩
  | 123 => ⟨S_, .i32⟩
  | 124 => ⟨S_, .i32⟩
  | 125 => ⟨S_, .i32⟩
  | 126 => ⟨S7, .i32⟩
  | 127 => ⟨S7, .i32⟩
  | _ => ⟨S1x512x64x64, .f32⟩

abbrev hbmTy0_9 (i : Nat) : BufTy := match i % 128 with
  | 0 => ⟨S7, .i32⟩
  | 1 => ⟨S7, .i32⟩
  | 2 => ⟨S_, .i32⟩
  | 3 => ⟨S_, .i32⟩
  | 4 => ⟨S7, .i32⟩
  | 5 => ⟨S7, .i32⟩
  | 6 => ⟨S7, .i32⟩
  | 7 => ⟨S_, .i32⟩
  | 8 => ⟨S7, .i32⟩
  | 9 => ⟨S7, .i1⟩
  | 10 => ⟨S7, .i32⟩
  | 11 => ⟨S7, .i32⟩
  | 12 => ⟨S_, .i32⟩
  | 13 => ⟨S7, .i32⟩
  | 14 => ⟨S7, .i1⟩
  | 15 => ⟨S7, .i1⟩
  | 16 => ⟨S_, .i32⟩
  | 17 => ⟨S7, .i32⟩
  | 18 => ⟨S7, .i32⟩
  | 19 => ⟨S7, .i32⟩
  | 20 => ⟨S7, .i32⟩
  | 21 => ⟨S7, .i32⟩
  | 22 => ⟨S_, .i32⟩
  | 23 => ⟨S7, .i32⟩
  | 24 => ⟨S7, .i32⟩
  | 25 => ⟨S7, .i32⟩
  | 26 => ⟨S7, .i32⟩
  | 27 => ⟨S7, .i32⟩
  | 28 => ⟨S_, .i32⟩
  | 29 => ⟨S_, .i32⟩
  | 30 => ⟨S7, .i32⟩
  | 31 => ⟨S7, .i32⟩
  | 32 => ⟨S7, .i32⟩
  | 33 => ⟨S_, .i32⟩
  | 34 => ⟨S7, .i32⟩
  | 35 => ⟨S7, .i1⟩
  | 36 => ⟨S7, .i32⟩
  | 37 => ⟨S7, .i32⟩
  | 38 => ⟨S_, .i32⟩
  | 39 => ⟨S7, .i32⟩
  | 40 => ⟨S7, .i1⟩
  | 41 => ⟨S7, .i1⟩
  | 42 => ⟨S_, .i32⟩
  | 43 => ⟨S7, .i32⟩
  | 44 => ⟨S7, .i32⟩
  | 45 => ⟨S7, .i32⟩
  | 46 => ⟨S7, .i32⟩
  | 47 => ⟨S7, .i32⟩
  | 48 => ⟨S7, .i32⟩
  | 49 => ⟨S7, .i32⟩
  | 50 => ⟨S_, .i32⟩
  | 51 => ⟨S_, .i32⟩
  | 52 => ⟨S7, .i32⟩
  | 53 => ⟨S7, .i32⟩
  | 54 => ⟨S7, .i32⟩
  | 55 => ⟨S_, .i32⟩
  | 56 => ⟨S7, .i32⟩
  | 57 => ⟨S7, .i1⟩
  | 58 => ⟨S7, .i32⟩
  | 59 => ⟨S7, .i32⟩
  | 60 => ⟨S_, .i32⟩
  | 61 => ⟨S7, .i32⟩
  | 62 => ⟨S7, .i1⟩
  | 63 => ⟨S7, .i1⟩
  | 64 => ⟨S_, .i32⟩
  | 65 => ⟨S7, .i32⟩
  | 66 => ⟨S7, .i32⟩
  | 67 => ⟨S7, .i32⟩
  | 68 => ⟨S7, .i32⟩
  | 69 => ⟨S7, .i32⟩
  | 70 => ⟨S_, .i32⟩
  | 71 => ⟨S7, .i32⟩
  | 72 => ⟨S7, .i32⟩
  | 73 => ⟨S7, .i32⟩
  | 74 => ⟨S7, .i32⟩
  | 75 => ⟨S7, .i32⟩
  | 76 => ⟨S_, .i32⟩
  | 77 => ⟨S_, .i32⟩
  | 78 => ⟨S7, .i32⟩
  | 79 => ⟨S7, .i32⟩
  | 80 => ⟨S7, .i32⟩
  | 81 => ⟨S_, .i32⟩
  | 82 => ⟨S7, .i32⟩
  | 83 => ⟨S7, .i1⟩
  | 84 => ⟨S7, .i32⟩
  | 85 => ⟨S7, .i32⟩
  | 86 => ⟨S_, .i32⟩
  | 87 => ⟨S7, .i32⟩
  | 88 => ⟨S7, .i1⟩
  | 89 => ⟨S7, .i1⟩
  | 90 => ⟨S_, .i32⟩
  | 91 => ⟨S7, .i32⟩
  | 92 => ⟨S7, .i32⟩
  | 93 => ⟨S7, .i32⟩
  | 94 => ⟨S7, .i32⟩
  | 95 => ⟨S7, .i32⟩
  | 96 => ⟨S64, .i32⟩
  | 97 => ⟨S64, .i32⟩
  | 98 => ⟨S1x64, .i32⟩
  | 99 => ⟨S7x1, .i32⟩
  | 100 => ⟨S7x64, .i32⟩
  | 101 => ⟨S7x64, .i32⟩
  | 102 => ⟨S7x64, .i1⟩
  | 103 => ⟨S1x64, .i32⟩
  | 104 => ⟨S7x1, .i32⟩
  | 105 => ⟨S7x64, .i32⟩
  | 106 => ⟨S7x64, .i32⟩
  | 107 => ⟨S7x64, .i1⟩
  | 108 => ⟨S7x64, .i1⟩
  | 109 => ⟨S1x64, .i32⟩
  | 110 => ⟨S7x1, .i32⟩
  | 111 => ⟨S7x64, .i32⟩
  | 112 => ⟨S7x64, .i32⟩
  | 113 => ⟨S7x64, .i1⟩
  | 114 => ⟨S1x64, .i32⟩
  | 115 => ⟨S7x1, .i32⟩
  | 116 => ⟨S7x64, .i32⟩
  | 117 => ⟨S7x64, .i32⟩
  | 118 => ⟨S7x64, .i1⟩
  | 119 => ⟨S7x64, .i1⟩
  | 120 => ⟨S7x1x64x1, .i1⟩
  | 121 => ⟨S1x512x64x64, .f32⟩
  | 122 => ⟨S_, .f32⟩
  | 123 => ⟨S7x512x64x64, .i1⟩
  | 124 => ⟨S7x512x64x64, .f32⟩
  | 125 => ⟨S7x512x64x64, .f32⟩
  | 126 => ⟨S7x512x64x64, .f32⟩
  | 127 => ⟨S_, .f32⟩
  | _ => ⟨S1x512x64x64, .f32⟩

abbrev hbmTy0_10 (i : Nat) : BufTy := match i % 128 with
  | 0 => ⟨S7x512x64, .f32⟩
  | 1 => ⟨S1x1x7x64, .i1⟩
  | 2 => ⟨S7x512x1x64, .f32⟩
  | 3 => ⟨S_, .f32⟩
  | 4 => ⟨S7x512x7x64, .i1⟩
  | 5 => ⟨S7x512x7x64, .f32⟩
  | 6 => ⟨S7x512x7x64, .f32⟩
  | 7 => ⟨S7x512x7x64, .f32⟩
  | 8 => ⟨S_, .f32⟩
  | 9 => ⟨S7x512x7, .f32⟩
  | 10 => ⟨S512x7x7, .f32⟩
  | 11 => ⟨S25088, .f32⟩
  | 12 => ⟨S1x1, .i32⟩
  | 13 => ⟨S_, .i32⟩
  | 14 => ⟨S1x1, .i32⟩
  | 15 => ⟨S_, .i32⟩
  | 16 => ⟨S_, .i32⟩
  | 17 => ⟨S1x1, .i32⟩
  | 18 => ⟨S_, .i32⟩
  | 19 => ⟨S1x1, .i32⟩
  | 20 => ⟨S_, .i32⟩
  | 21 => ⟨S_, .i32⟩
  | 22 => ⟨S1x1, .i32⟩
  | 23 => ⟨S_, .i32⟩
  | 24 => ⟨S1x1, .i32⟩
  | 25 => ⟨S_, .i32⟩
  | 26 => ⟨S_, .i32⟩
  | 27 => ⟨S1x1, .i32⟩
  | 28 => ⟨S_, .i32⟩
  | 29 => ⟨S1x1, .i32⟩
  | 30 => ⟨S_, .i32⟩
  | 31 => ⟨S_, .i32⟩
  | 32 => ⟨S_, .i32⟩
  | 33 => ⟨S_, .i32⟩
  | 34 => ⟨S7, .i32⟩
  | 35 => ⟨S7, .i32⟩
  | 36 => ⟨S7, .i32⟩
  | 37 => ⟨S7, .i32⟩
  | 38 => ⟨S_, .i32⟩
  | 39 => ⟨S_, .i32⟩
  | 40 => ⟨S7, .i32⟩
  | 41 => ⟨S7, .i32⟩
  | 42 => ⟨S7, .i32⟩
  | 43 => ⟨S_, .i32⟩
  | 44 => ⟨S7, .i32⟩
  | 45 => ⟨S7, .i1⟩
  | 46 => ⟨S7, .i32⟩
  | 47 => ⟨S7, .i32⟩
  | 48 => ⟨S_, .i32⟩
  | 49 => ⟨S7, .i32⟩
  | 50 => ⟨S7, .i1⟩
  | 51 => ⟨S7, .i1⟩
  | 52 => ⟨S_, .i32⟩
  | 53 => ⟨S7, .i32⟩
  | 54 => ⟨S7, .i32⟩
  | 55 => ⟨S7, .i32⟩
  | 56 => ⟨S7, .i32⟩
  | 57 => ⟨S7, .i32⟩
  | 58 => ⟨S_, .i32⟩
  | 59 => ⟨S7, .i32⟩
  | 60 => ⟨S7, .i32⟩
  | 61 => ⟨S7, .i32⟩
  | 62 => ⟨S7, .i32⟩
  | 63 => ⟨S7, .i32⟩
  | 64 => ⟨S_, .i32⟩
  | 65 => ⟨S_, .i32⟩
  | 66 => ⟨S7, .i32⟩
  | 67 => ⟨S7, .i32⟩
  | 68 => ⟨S7, .i32⟩
  | 69 => ⟨S_, .i32⟩
  | 70 => ⟨S7, .i32⟩
  | 71 => ⟨S7, .i1⟩
  | 72 => ⟨S7, .i32⟩
  | 73 => ⟨S7, .i32⟩
  | 74 => ⟨S_, .i32⟩
  | 75 => ⟨S7, .i32⟩
  | 76 => ⟨S7, .i1⟩
  | 77 => ⟨S7, .i1⟩
  | 78 => ⟨S_, .i32⟩
  | 79 => ⟨S7, .i32⟩
  | 80 => ⟨S7, .i32⟩
  | 81 => ⟨S7, .i32⟩
  | 82 => ⟨S7, .i32⟩
  | 83 => ⟨S7, .i32⟩
  | 84 => ⟨S7, .i32⟩
  | 85 => ⟨S7, .i32⟩
  | 86 => ⟨S_, .i32⟩
  | 87 => ⟨S_, .i32⟩
  | 88 => ⟨S7, .i32⟩
  | 89 => ⟨S7, .i32⟩
  | 90 => ⟨S7, .i32⟩
  | 91 => ⟨S_, .i32⟩
  | 92 => ⟨S7, .i32⟩
  | 93 => ⟨S7, .i1⟩
  | 94 => ⟨S7, .i32⟩
  | 95 => ⟨S7, .i32⟩
  | 96 => ⟨S_, .i32⟩
  | 97 => ⟨S7, .i32⟩
  | 98 => ⟨S7, .i1⟩
  | 99 => ⟨S7, .i1⟩
  | 100 => ⟨S_, .i32⟩
  | 101 => ⟨S7, .i32⟩
  | 102 => ⟨S7, .i32⟩
  | 103 => ⟨S7, .i32⟩
  | 104 => ⟨S7, .i32⟩
  | 105 => ⟨S7, .i32⟩
  | 106 => ⟨S_, .i32⟩
  | 107 => ⟨S7, .i32⟩
  | 108 => ⟨S7, .i32⟩
  | 109 => ⟨S7, .i32⟩
  | 110 => ⟨S7, .i32⟩
  | 111 => ⟨S7, .i32⟩
  | 112 => ⟨S_, .i32⟩
  | 113 => ⟨S_, .i32⟩
  | 114 => ⟨S7, .i32⟩
  | 115 => ⟨S7, .i32⟩
  | 116 => ⟨S7, .i32⟩
  | 117 => ⟨S_, .i32⟩
  | 118 => ⟨S7, .i32⟩
  | 119 => ⟨S7, .i1⟩
  | 120 => ⟨S7, .i32⟩
  | 121 => ⟨S7, .i32⟩
  | 122 => ⟨S_, .i32⟩
  | 123 => ⟨S7, .i32⟩
  | 124 => ⟨S7, .i1⟩
  | 125 => ⟨S7, .i1⟩
  | 126 => ⟨S_, .i32⟩
  | 127 => ⟨S7, .i32⟩
  | _ => ⟨S1x512x64x64, .f32⟩

abbrev hbmTy0_11 (i : Nat) : BufTy := match i % 128 with
  | 0 => ⟨S7, .i32⟩
  | 1 => ⟨S7, .i32⟩
  | 2 => ⟨S7, .i32⟩
  | 3 => ⟨S7, .i32⟩
  | 4 => ⟨S64, .i32⟩
  | 5 => ⟨S64, .i32⟩
  | 6 => ⟨S1x64, .i32⟩
  | 7 => ⟨S7x1, .i32⟩
  | 8 => ⟨S7x64, .i32⟩
  | 9 => ⟨S7x64, .i32⟩
  | 10 => ⟨S7x64, .i1⟩
  | 11 => ⟨S1x64, .i32⟩
  | 12 => ⟨S7x1, .i32⟩
  | 13 => ⟨S7x64, .i32⟩
  | 14 => ⟨S7x64, .i32⟩
  | 15 => ⟨S7x64, .i1⟩
  | 16 => ⟨S7x64, .i1⟩
  | 17 => ⟨S1x64, .i32⟩
  | 18 => ⟨S7x1, .i32⟩
  | 19 => ⟨S7x64, .i32⟩
  | 20 => ⟨S7x64, .i32⟩
  | 21 => ⟨S7x64, .i1⟩
  | 22 => ⟨S1x64, .i32⟩
  | 23 => ⟨S7x1, .i32⟩
  | 24 => ⟨S7x64, .i32⟩
  | 25 => ⟨S7x64, .i32⟩
  | 26 => ⟨S7x64, .i1⟩
  | 27 => ⟨S7x64, .i1⟩
  | 28 => ⟨S7x1x64x1, .i1⟩
  | 29 => ⟨S1x512x64x64, .f32⟩
  | 30 => ⟨S_, .f32⟩
  | 31 => ⟨S7x512x64x64, .i1⟩
  | 32 => ⟨S7x512x64x64, .f32⟩
  | 33 => ⟨S7x512x64x64, .f32⟩
  | 34 => ⟨S7x512x64x64, .f32⟩
  | 35 => ⟨S_, .f32⟩
  | 36 => ⟨S7x512x64, .f32⟩
  | 37 => ⟨S1x1x7x64, .i1⟩
  | 38 => ⟨S7x512x1x64, .f32⟩
  | 39 => ⟨S_, .f32⟩
  | 40 => ⟨S7x512x7x64, .i1⟩
  | 41 => ⟨S7x512x7x64, .f32⟩
  | 42 => ⟨S7x512x7x64, .f32⟩
  | 43 => ⟨S7x512x7x64, .f32⟩
  | 44 => ⟨S_, .f32⟩
  | 45 => ⟨S7x512x7, .f32⟩
  | 46 => ⟨S512x7x7, .f32⟩
  | 47 => ⟨S25088, .f32⟩
  | 48 => ⟨S1x1, .i32⟩
  | 49 => ⟨S_, .i32⟩
  | 50 => ⟨S1x1, .i32⟩
  | 51 => ⟨S_, .i32⟩
  | 52 => ⟨S_, .i32⟩
  | 53 => ⟨S1x1, .i32⟩
  | 54 => ⟨S_, .i32⟩
  | 55 => ⟨S1x1, .i32⟩
  | 56 => ⟨S_, .i32⟩
  | 57 => ⟨S_, .i32⟩
  | 58 => ⟨S1x1, .i32⟩
  | 59 => ⟨S_, .i32⟩
  | 60 => ⟨S1x1, .i32⟩
  | 61 => ⟨S_, .i32⟩
  | 62 => ⟨S_, .i32⟩
  | 63 => ⟨S1x1, .i32⟩
  | 64 => ⟨S_, .i32⟩
  | 65 => ⟨S1x1, .i32⟩
  | 66 => ⟨S_, .i32⟩
  | 67 => ⟨S_, .i32⟩
  | 68 => ⟨S_, .i32⟩
  | 69 => ⟨S_, .i32⟩
  | 70 => ⟨S7, .i32⟩
  | 71 => ⟨S7, .i32⟩
  | 72 => ⟨S7, .i32⟩
  | 73 => ⟨S7, .i32⟩
  | 74 => ⟨S_, .i32⟩
  | 75 => ⟨S_, .i32⟩
  | 76 => ⟨S7, .i32⟩
  | 77 => ⟨S7, .i32⟩
  | 78 => ⟨S7, .i32⟩
  | 79 => ⟨S_, .i32⟩
  | 80 => ⟨S7, .i32⟩
  | 81 => ⟨S7, .i1⟩
  | 82 => ⟨S7, .i32⟩
  | 83 => ⟨S7, .i32⟩
  | 84 => ⟨S_, .i32⟩
  | 85 => ⟨S7, .i32⟩
  | 86 => ⟨S7, .i1⟩
  | 87 => ⟨S7, .i1⟩
  | 88 => ⟨S_, .i32⟩
  | 89 => ⟨S7, .i32⟩
  | 90 => ⟨S7, .i32⟩
  | 91 => ⟨S7, .i32⟩
  | 92 => ⟨S7, .i32⟩
  | 93 => ⟨S7, .i32⟩
  | 94 => ⟨S_, .i32⟩
  | 95 => ⟨S7, .i32⟩
  | 96 => ⟨S7, .i32⟩
  | 97 => ⟨S7, .i32⟩
  | 98 => ⟨S7, .i32⟩
  | 99 => ⟨S7, .i32⟩
  | 100 => ⟨S_, .i32⟩
  | 101 => ⟨S_, .i32⟩
  | 102 => ⟨S7, .i32⟩
  | 103 => ⟨S7, .i32⟩
  | 104 => ⟨S7, .i32⟩
  | 105 => ⟨S_, .i32⟩
  | 106 => ⟨S7, .i32⟩
  | 107 => ⟨S7, .i1⟩
  | 108 => ⟨S7, .i32⟩
  | 109 => ⟨S7, .i32⟩
  | 110 => ⟨S_, .i32⟩
  | 111 => ⟨S7, .i32⟩
  | 112 => ⟨S7, .i1⟩
  | 113 => ⟨S7, .i1⟩
  | 114 => ⟨S_, .i32⟩
  | 115 => ⟨S7, .i32⟩
  | 116 => ⟨S7, .i32⟩
  | 117 => ⟨S7, .i32⟩
  | 118 => ⟨S7, .i32⟩
  | 119 => ⟨S7, .i32⟩
  | 120 => ⟨S7, .i32⟩
  | 121 => ⟨S7, .i32⟩
  | 122 => ⟨S_, .i32⟩
  | 123 => ⟨S_, .i32⟩
  | 124 => ⟨S7, .i32⟩
  | 125 => ⟨S7, .i32⟩
  | 126 => ⟨S7, .i32⟩
  | 127 => ⟨S_, .i32⟩
  | _ => ⟨S1x512x64x64, .f32⟩

abbrev hbmTy0_12 (i : Nat) : BufTy := match i % 128 with
  | 0 => ⟨S7, .i32⟩
  | 1 => ⟨S7, .i1⟩
  | 2 => ⟨S7, .i32⟩
  | 3 => ⟨S7, .i32⟩
  | 4 => ⟨S_, .i32⟩
  | 5 => ⟨S7, .i32⟩
  | 6 => ⟨S7, .i1⟩
  | 7 => ⟨S7, .i1⟩
  | 8 => ⟨S_, .i32⟩
  | 9 => ⟨S7, .i32⟩
  | 10 => ⟨S7, .i32⟩
  | 11 => ⟨S7, .i32⟩
  | 12 => ⟨S7, .i32⟩
  | 13 => ⟨S7, .i32⟩
  | 14 => ⟨S_, .i32⟩
  | 15 => ⟨S7, .i32⟩
  | 16 => ⟨S7, .i32⟩
  | 17 => ⟨S7, .i32⟩
  | 18 => ⟨S7, .i32⟩
  | 19 => ⟨S7, .i32⟩
  | 20 => ⟨S_, .i32⟩
  | 21 => ⟨S_, .i32⟩
  | 22 => ⟨S7, .i32⟩
  | 23 => ⟨S7, .i32⟩
  | 24 => ⟨S7, .i32⟩
  | 25 => ⟨S_, .i32⟩
  | 26 => ⟨S7, .i32⟩
  | 27 => ⟨S7, .i1⟩
  | 28 => ⟨S7, .i32⟩
  | 29 => ⟨S7, .i32⟩
  | 30 => ⟨S_, .i32⟩
  | 31 => ⟨S7, .i32⟩
  | 32 => ⟨S7, .i1⟩
  | 33 => ⟨S7, .i1⟩
  | 34 => ⟨S_, .i32⟩
  | 35 => ⟨S7, .i32⟩
  | 36 => ⟨S7, .i32⟩
  | 37 => ⟨S7, .i32⟩
  | 38 => ⟨S7, .i32⟩
  | 39 => ⟨S7, .i32⟩
  | 40 => ⟨S64, .i32⟩
  | 41 => ⟨S64, .i32⟩
  | 42 => ⟨S1x64, .i32⟩
  | 43 => ⟨S7x1, .i32⟩
  | 44 => ⟨S7x64, .i32⟩
  | 45 => ⟨S7x64, .i32⟩
  | 46 => ⟨S7x64, .i1⟩
  | 47 => ⟨S1x64, .i32⟩
  | 48 => ⟨S7x1, .i32⟩
  | 49 => ⟨S7x64, .i32⟩
  | 50 => ⟨S7x64, .i32⟩
  | 51 => ⟨S7x64, .i1⟩
  | 52 => ⟨S7x64, .i1⟩
  | 53 => ⟨S1x64, .i32⟩
  | 54 => ⟨S7x1, .i32⟩
  | 55 => ⟨S7x64, .i32⟩
  | 56 => ⟨S7x64, .i32⟩
  | 57 => ⟨S7x64, .i1⟩
  | 58 => ⟨S1x64, .i32⟩
  | 59 => ⟨S7x1, .i32⟩
  | 60 => ⟨S7x64, .i32⟩
  | 61 => ⟨S7x64, .i32⟩
  | 62 => ⟨S7x64, .i1⟩
  | 63 => ⟨S7x64, .i1⟩
  | 64 => ⟨S7x1x64x1, .i1⟩
  | 65 => ⟨S1x512x64x64, .f32⟩
  | 66 => ⟨S_, .f32⟩
  | 67 => ⟨S7x512x64x64, .i1⟩
  | 68 => ⟨S7x512x64x64, .f32⟩
  | 69 => ⟨S7x512x64x64, .f32⟩
  | 70 => ⟨S7x512x64x64, .f32⟩
  | 71 => ⟨S_, .f32⟩
  | 72 => ⟨S7x512x64, .f32⟩
  | 73 => ⟨S1x1x7x64, .i1⟩
  | 74 => ⟨S7x512x1x64, .f32⟩
  | 75 => ⟨S_, .f32⟩
  | 76 => ⟨S7x512x7x64, .i1⟩
  | 77 => ⟨S7x512x7x64, .f32⟩
  | 78 => ⟨S7x512x7x64, .f32⟩
  | 79 => ⟨S7x512x7x64, .f32⟩
  | 80 => ⟨S_, .f32⟩
  | 81 => ⟨S7x512x7, .f32⟩
  | 82 => ⟨S512x7x7, .f32⟩
  | 83 => ⟨S25088, .f32⟩
  | 84 => ⟨S1x1, .i32⟩
  | 85 => ⟨S_, .i32⟩
  | 86 => ⟨S1x1, .i32⟩
  | 87 => ⟨S_, .i32⟩
  | 88 => ⟨S_, .i32⟩
  | 89 => ⟨S1x1, .i32⟩
  | 90 => ⟨S_, .i32⟩
  | 91 => ⟨S1x1, .i32⟩
  | 92 => ⟨S_, .i32⟩
  | 93 => ⟨S_, .i32⟩
  | 94 => ⟨S1x1, .i32⟩
  | 95 => ⟨S_, .i32⟩
  | 96 => ⟨S1x1, .i32⟩
  | 97 => ⟨S_, .i32⟩
  | 98 => ⟨S_, .i32⟩
  | 99 => ⟨S1x1, .i32⟩
  | 100 => ⟨S_, .i32⟩
  | 101 => ⟨S1x1, .i32⟩
  | 102 => ⟨S_, .i32⟩
  | 103 => ⟨S_, .i32⟩
  | 104 => ⟨S_, .i32⟩
  | 105 => ⟨S_, .i32⟩
  | 106 => ⟨S7, .i32⟩
  | 107 => ⟨S7, .i32⟩
  | 108 => ⟨S7, .i32⟩
  | 109 => ⟨S7, .i32⟩
  | 110 => ⟨S_, .i32⟩
  | 111 => ⟨S_, .i32⟩
  | 112 => ⟨S7, .i32⟩
  | 113 => ⟨S7, .i32⟩
  | 114 => ⟨S7, .i32⟩
  | 115 => ⟨S_, .i32⟩
  | 116 => ⟨S7, .i32⟩
  | 117 => ⟨S7, .i1⟩
  | 118 => ⟨S7, .i32⟩
  | 119 => ⟨S7, .i32⟩
  | 120 => ⟨S_, .i32⟩
  | 121 => ⟨S7, .i32⟩
  | 122 => ⟨S7, .i1⟩
  | 123 => ⟨S7, .i1⟩
  | 124 => ⟨S_, .i32⟩
  | 125 => ⟨S7, .i32⟩
  | 126 => ⟨S7, .i32⟩
  | 127 => ⟨S7, .i32⟩
  | _ => ⟨S1x512x64x64, .f32⟩

abbrev hbmTy0_13 (i : Nat) : BufTy := match i % 128 with
  | 0 => ⟨S7, .i32⟩
  | 1 => ⟨S7, .i32⟩
  | 2 => ⟨S_, .i32⟩
  | 3 => ⟨S7, .i32⟩
  | 4 => ⟨S7, .i32⟩
  | 5 => ⟨S7, .i32⟩
  | 6 => ⟨S7, .i32⟩
  | 7 => ⟨S7, .i32⟩
  | 8 => ⟨S_, .i32⟩
  | 9 => ⟨S_, .i32⟩
  | 10 => ⟨S7, .i32⟩
  | 11 => ⟨S7, .i32⟩
  | 12 => ⟨S7, .i32⟩
  | 13 => ⟨S_, .i32⟩
  | 14 => ⟨S7, .i32⟩
  | 15 => ⟨S7, .i1⟩
  | 16 => ⟨S7, .i32⟩
  | 17 => ⟨S7, .i32⟩
  | 18 => ⟨S_, .i32⟩
  | 19 => ⟨S7, .i32⟩
  | 20 => ⟨S7, .i1⟩
  | 21 => ⟨S7, .i1⟩
  | 22 => ⟨S_, .i32⟩
  | 23 => ⟨S7, .i32⟩
  | 24 => ⟨S7, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S_, .i32⟩
  | 32 => ⟨S7, .i32⟩
  | 33 => ⟨S7, .i32⟩
  | 34 => ⟨S7, .i32⟩
  | 35 => ⟨S_, .i32⟩
  | 36 => ⟨S7, .i32⟩
  | 37 => ⟨S7, .i1⟩
  | 38 => ⟨S7, .i32⟩
  | 39 => ⟨S7, .i32⟩
  | 40 => ⟨S_, .i32⟩
  | 41 => ⟨S7, .i32⟩
  | 42 => ⟨S7, .i1⟩
  | 43 => ⟨S7, .i1⟩
  | 44 => ⟨S_, .i32⟩
  | 45 => ⟨S7, .i32⟩
  | 46 => ⟨S7, .i32⟩
  | 47 => ⟨S7, .i32⟩
  | 48 => ⟨S7, .i32⟩
  | 49 => ⟨S7, .i32⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S_, .i32⟩
  | 57 => ⟨S_, .i32⟩
  | 58 => ⟨S7, .i32⟩
  | 59 => ⟨S7, .i32⟩
  | 60 => ⟨S7, .i32⟩
  | 61 => ⟨S_, .i32⟩
  | 62 => ⟨S7, .i32⟩
  | 63 => ⟨S7, .i1⟩
  | 64 => ⟨S7, .i32⟩
  | 65 => ⟨S7, .i32⟩
  | 66 => ⟨S_, .i32⟩
  | 67 => ⟨S7, .i32⟩
  | 68 => ⟨S7, .i1⟩
  | 69 => ⟨S7, .i1⟩
  | 70 => ⟨S_, .i32⟩
  | 71 => ⟨S7, .i32⟩
  | 72 => ⟨S7, .i32⟩
  | 73 => ⟨S7, .i32⟩
  | 74 => ⟨S7, .i32⟩
  | 75 => ⟨S7, .i32⟩
  | 76 => ⟨S64, .i32⟩
  | 77 => ⟨S64, .i32⟩
  | 78 => ⟨S1x64, .i32⟩
  | 79 => ⟨S7x1, .i32⟩
  | 80 => ⟨S7x64, .i32⟩
  | 81 => ⟨S7x64, .i32⟩
  | 82 => ⟨S7x64, .i1⟩
  | 83 => ⟨S1x64, .i32⟩
  | 84 => ⟨S7x1, .i32⟩
  | 85 => ⟨S7x64, .i32⟩
  | 86 => ⟨S7x64, .i32⟩
  | 87 => ⟨S7x64, .i1⟩
  | 88 => ⟨S7x64, .i1⟩
  | 89 => ⟨S1x64, .i32⟩
  | 90 => ⟨S7x1, .i32⟩
  | 91 => ⟨S7x64, .i32⟩
  | 92 => ⟨S7x64, .i32⟩
  | 93 => ⟨S7x64, .i1⟩
  | 94 => ⟨S1x64, .i32⟩
  | 95 => ⟨S7x1, .i32⟩
  | 96 => ⟨S7x64, .i32⟩
  | 97 => ⟨S7x64, .i32⟩
  | 98 => ⟨S7x64, .i1⟩
  | 99 => ⟨S7x64, .i1⟩
  | 100 => ⟨S7x1x64x1, .i1⟩
  | 101 => ⟨S1x512x64x64, .f32⟩
  | 102 => ⟨S_, .f32⟩
  | 103 => ⟨S7x512x64x64, .i1⟩
  | 104 => ⟨S7x512x64x64, .f32⟩
  | 105 => ⟨S7x512x64x64, .f32⟩
  | 106 => ⟨S7x512x64x64, .f32⟩
  | 107 => ⟨S_, .f32⟩
  | 108 => ⟨S7x512x64, .f32⟩
  | 109 => ⟨S1x1x7x64, .i1⟩
  | 110 => ⟨S7x512x1x64, .f32⟩
  | 111 => ⟨S_, .f32⟩
  | 112 => ⟨S7x512x7x64, .i1⟩
  | 113 => ⟨S7x512x7x64, .f32⟩
  | 114 => ⟨S7x512x7x64, .f32⟩
  | 115 => ⟨S7x512x7x64, .f32⟩
  | 116 => ⟨S_, .f32⟩
  | 117 => ⟨S7x512x7, .f32⟩
  | 118 => ⟨S512x7x7, .f32⟩
  | 119 => ⟨S25088, .f32⟩
  | 120 => ⟨S1x1, .i32⟩
  | 121 => ⟨S_, .i32⟩
  | 122 => ⟨S1x1, .i32⟩
  | 123 => ⟨S_, .i32⟩
  | 124 => ⟨S_, .i32⟩
  | 125 => ⟨S1x1, .i32⟩
  | 126 => ⟨S_, .i32⟩
  | 127 => ⟨S1x1, .i32⟩
  | _ => ⟨S1x512x64x64, .f32⟩

abbrev hbmTy0_14 (i : Nat) : BufTy := match i % 128 with
  | 0 => ⟨S_, .i32⟩
  | 1 => ⟨S_, .i32⟩
  | 2 => ⟨S1x1, .i32⟩
  | 3 => ⟨S_, .i32⟩
  | 4 => ⟨S1x1, .i32⟩
  | 5 => ⟨S_, .i32⟩
  | 6 => ⟨S_, .i32⟩
  | 7 => ⟨S1x1, .i32⟩
  | 8 => ⟨S_, .i32⟩
  | 9 => ⟨S1x1, .i32⟩
  | 10 => ⟨S_, .i32⟩
  | 11 => ⟨S_, .i32⟩
  | 12 => ⟨S_, .i32⟩
  | 13 => ⟨S_, .i32⟩
  | 14 => ⟨S7, .i32⟩
  | 15 => ⟨S7, .i32⟩
  | 16 => ⟨S7, .i32⟩
  | 17 => ⟨S7, .i32⟩
  | 18 => ⟨S_, .i32⟩
  | 19 => ⟨S_, .i32⟩
  | 20 => ⟨S7, .i32⟩
  | 21 => ⟨S7, .i32⟩
  | 22 => ⟨S7, .i32⟩
  | 23 => ⟨S_, .i32⟩
  | 24 => ⟨S7, .i32⟩
  | 25 => ⟨S7, .i1⟩
  | 26 => ⟨S7, .i32⟩
  | 27 => ⟨S7, .i32⟩
  | 28 => ⟨S_, .i32⟩
  | 29 => ⟨S7, .i32⟩
  | 30 => ⟨S7, .i1⟩
  | 31 => ⟨S7, .i1⟩
  | 32 => ⟨S_, .i32⟩
  | 33 => ⟨S7, .i32⟩
  | 34 => ⟨S7, .i32⟩
  | 35 => ⟨S7, .i32⟩
  | 36 => ⟨S7, .i32⟩
  | 37 => ⟨S7, .i32⟩
  | 38 => ⟨S_, .i32⟩
  | 39 => ⟨S7, .i32⟩
  | 40 => ⟨S7, .i32⟩
  | 41 => ⟨S7, .i32⟩
  | 42 => ⟨S7, .i32⟩
  | 43 => ⟨S7, .i32⟩
  | 44 => ⟨S_, .i32⟩
  | 45 => ⟨S_, .i32⟩
  | 46 => ⟨S7, .i32⟩
  | 47 => ⟨S7, .i32⟩
  | 48 => ⟨S7, .i32⟩
  | 49 => ⟨S_, .i32⟩
  | 50 => ⟨S7, .i32⟩
  | 51 => ⟨S7, .i1⟩
  | 52 => ⟨S7, .i32⟩
  | 53 => ⟨S7, .i32⟩
  | 54 => ⟨S_, .i32⟩
  | 55 => ⟨S7, .i32⟩
  | 56 => ⟨S7, .i1⟩
  | 57 => ⟨S7, .i1⟩
  | 58 => ⟨S_, .i32⟩
  | 59 => ⟨S7, .i32⟩
  | 60 => ⟨S7, .i32⟩
  | 61 => ⟨S7, .i32⟩
  | 62 => ⟨S7, .i32⟩
  | 63 => ⟨S7, .i32⟩
  | 64 => ⟨S7, .i32⟩
  | 65 => ⟨S7, .i32⟩
  | 66 => ⟨S_, .i32⟩
  | 67 => ⟨S_, .i32⟩
  | 68 => ⟨S7, .i32⟩
  | 69 => ⟨S7, .i32⟩
  | 70 => ⟨S7, .i32⟩
  | 71 => ⟨S_, .i32⟩
  | 72 => ⟨S7, .i32⟩
  | 73 => ⟨S7, .i1⟩
  | 74 => ⟨S7, .i32⟩
  | 75 => ⟨S7, .i32⟩
  | 76 => ⟨S_, .i32⟩
  | 77 => ⟨S7, .i32⟩
  | 78 => ⟨S7, .i1⟩
  | 79 => ⟨S7, .i1⟩
  | 80 => ⟨S_, .i32⟩
  | 81 => ⟨S7, .i32⟩
  | 82 => ⟨S7, .i32⟩
  | 83 => ⟨S7, .i32⟩
  | 84 => ⟨S7, .i32⟩
  | 85 => ⟨S7, .i32⟩
  | 86 => ⟨S_, .i32⟩
  | 87 => ⟨S7, .i32⟩
  | 88 => ⟨S7, .i32⟩
  | 89 => ⟨S7, .i32⟩
  | 90 => ⟨S7, .i32⟩
  | 91 => ⟨S7, .i32⟩
  | 92 => ⟨S_, .i32⟩
  | 93 => ⟨S_, .i32⟩
  | 94 => ⟨S7, .i32⟩
  | 95 => ⟨S7, .i32⟩
  | 96 => ⟨S7, .i32⟩
  | 97 => ⟨S_, .i32⟩
  | 98 => ⟨S7, .i32⟩
  | 99 => ⟨S7, .i1⟩
  | 100 => ⟨S7, .i32⟩
  | 101 => ⟨S7, .i32⟩
  | 102 => ⟨S_, .i32⟩
  | 103 => ⟨S7, .i32⟩
  | 104 => ⟨S7, .i1⟩
  | 105 => ⟨S7, .i1⟩
  | 106 => ⟨S_, .i32⟩
  | 107 => ⟨S7, .i32⟩
  | 108 => ⟨S7, .i32⟩
  | 109 => ⟨S7, .i32⟩
  | 110 => ⟨S7, .i32⟩
  | 111 => ⟨S7, .i32⟩
  | 112 => ⟨S64, .i32⟩
  | 113 => ⟨S64, .i32⟩
  | 114 => ⟨S1x64, .i32⟩
  | 115 => ⟨S7x1, .i32⟩
  | 116 => ⟨S7x64, .i32⟩
  | 117 => ⟨S7x64, .i32⟩
  | 118 => ⟨S7x64, .i1⟩
  | 119 => ⟨S1x64, .i32⟩
  | 120 => ⟨S7x1, .i32⟩
  | 121 => ⟨S7x64, .i32⟩
  | 122 => ⟨S7x64, .i32⟩
  | 123 => ⟨S7x64, .i1⟩
  | 124 => ⟨S7x64, .i1⟩
  | 125 => ⟨S1x64, .i32⟩
  | 126 => ⟨S7x1, .i32⟩
  | 127 => ⟨S7x64, .i32⟩
  | _ => ⟨S1x512x64x64, .f32⟩

abbrev hbmTy0_15 (i : Nat) : BufTy := match i % 128 with
  | 0 => ⟨S7x64, .i32⟩
  | 1 => ⟨S7x64, .i1⟩
  | 2 => ⟨S1x64, .i32⟩
  | 3 => ⟨S7x1, .i32⟩
  | 4 => ⟨S7x64, .i32⟩
  | 5 => ⟨S7x64, .i32⟩
  | 6 => ⟨S7x64, .i1⟩
  | 7 => ⟨S7x64, .i1⟩
  | 8 => ⟨S7x1x64x1, .i1⟩
  | 9 => ⟨S1x512x64x64, .f32⟩
  | 10 => ⟨S_, .f32⟩
  | 11 => ⟨S7x512x64x64, .i1⟩
  | 12 => ⟨S7x512x64x64, .f32⟩
  | 13 => ⟨S7x512x64x64, .f32⟩
  | 14 => ⟨S7x512x64x64, .f32⟩
  | 15 => ⟨S_, .f32⟩
  | 16 => ⟨S7x512x64, .f32⟩
  | 17 => ⟨S1x1x7x64, .i1⟩
  | 18 => ⟨S7x512x1x64, .f32⟩
  | 19 => ⟨S_, .f32⟩
  | 20 => ⟨S7x512x7x64, .i1⟩
  | 21 => ⟨S7x512x7x64, .f32⟩
  | 22 => ⟨S7x512x7x64, .f32⟩
  | 23 => ⟨S7x512x7x64, .f32⟩
  | 24 => ⟨S_, .f32⟩
  | 25 => ⟨S7x512x7, .f32⟩
  | 26 => ⟨S512x7x7, .f32⟩
  | 27 => ⟨S25088, .f32⟩
  | 28 => ⟨S1x1, .i32⟩
  | 29 => ⟨S_, .i32⟩
  | 30 => ⟨S1x1, .i32⟩
  | 31 => ⟨S_, .i32⟩
  | 32 => ⟨S_, .i32⟩
  | 33 => ⟨S1x1, .i32⟩
  | 34 => ⟨S_, .i32⟩
  | 35 => ⟨S1x1, .i32⟩
  | 36 => ⟨S_, .i32⟩
  | 37 => ⟨S_, .i32⟩
  | 38 => ⟨S1x1, .i32⟩
  | 39 => ⟨S_, .i32⟩
  | 40 => ⟨S1x1, .i32⟩
  | 41 => ⟨S_, .i32⟩
  | 42 => ⟨S_, .i32⟩
  | 43 => ⟨S1x1, .i32⟩
  | 44 => ⟨S_, .i32⟩
  | 45 => ⟨S1x1, .i32⟩
  | 46 => ⟨S_, .i32⟩
  | 47 => ⟨S_, .i32⟩
  | 48 => ⟨S_, .i32⟩
  | 49 => ⟨S_, .i32⟩
  | 50 => ⟨S7, .i32⟩
  | 51 => ⟨S7, .i32⟩
  | 52 => ⟨S7, .i32⟩
  | 53 => ⟨S7, .i32⟩
  | 54 => ⟨S_, .i32⟩
  | 55 => ⟨S_, .i32⟩
  | 56 => ⟨S7, .i32⟩
  | 57 => ⟨S7, .i32⟩
  | 58 => ⟨S7, .i32⟩
  | 59 => ⟨S_, .i32⟩
  | 60 => ⟨S7, .i32⟩
  | 61 => ⟨S7, .i1⟩
  | 62 => ⟨S7, .i32⟩
  | 63 => ⟨S7, .i32⟩
  | 64 => ⟨S_, .i32⟩
  | 65 => ⟨S7, .i32⟩
  | 66 => ⟨S7, .i1⟩
  | 67 => ⟨S7, .i1⟩
  | 68 => ⟨S_, .i32⟩
  | 69 => ⟨S7, .i32⟩
  | 70 => ⟨S7, .i32⟩
  | 71 => ⟨S7, .i32⟩
  | 72 => ⟨S7, .i32⟩
  | 73 => ⟨S7, .i32⟩
  | 74 => ⟨S_, .i32⟩
  | 75 => ⟨S7, .i32⟩
  | 76 => ⟨S7, .i32⟩
  | 77 => ⟨S7, .i32⟩
  | 78 => ⟨S7, .i32⟩
  | 79 => ⟨S7, .i32⟩
  | 80 => ⟨S_, .i32⟩
  | 81 => ⟨S_, .i32⟩
  | 82 => ⟨S7, .i32⟩
  | 83 => ⟨S7, .i32⟩
  | 84 => ⟨S7, .i32⟩
  | 85 => ⟨S_, .i32⟩
  | 86 => ⟨S7, .i32⟩
  | 87 => ⟨S7, .i1⟩
  | 88 => ⟨S7, .i32⟩
  | 89 => ⟨S7, .i32⟩
  | 90 => ⟨S_, .i32⟩
  | 91 => ⟨S7, .i32⟩
  | 92 => ⟨S7, .i1⟩
  | 93 => ⟨S7, .i1⟩
  | 94 => ⟨S_, .i32⟩
  | 95 => ⟨S7, .i32⟩
  | 96 => ⟨S7, .i32⟩
  | 97 => ⟨S7, .i32⟩
  | 98 => ⟨S7, .i32⟩
  | 99 => ⟨S7, .i32⟩
  | 100 => ⟨S7, .i32⟩
  | 101 => ⟨S7, .i32⟩
  | 102 => ⟨S_, .i32⟩
  | 103 => ⟨S_, .i32⟩
  | 104 => ⟨S7, .i32⟩
  | 105 => ⟨S7, .i32⟩
  | 106 => ⟨S7, .i32⟩
  | 107 => ⟨S_, .i32⟩
  | 108 => ⟨S7, .i32⟩
  | 109 => ⟨S7, .i1⟩
  | 110 => ⟨S7, .i32⟩
  | 111 => ⟨S7, .i32⟩
  | 112 => ⟨S_, .i32⟩
  | 113 => ⟨S7, .i32⟩
  | 114 => ⟨S7, .i1⟩
  | 115 => ⟨S7, .i1⟩
  | 116 => ⟨S_, .i32⟩
  | 117 => ⟨S7, .i32⟩
  | 118 => ⟨S7, .i32⟩
  | 119 => ⟨S7, .i32⟩
  | 120 => ⟨S7, .i32⟩
  | 121 => ⟨S7, .i32⟩
  | 122 => ⟨S_, .i32⟩
  | 123 => ⟨S7, .i32⟩
  | 124 => ⟨S7, .i32⟩
  | 125 => ⟨S7, .i32⟩
  | 126 => ⟨S7, .i32⟩
  | 127 => ⟨S7, .i32⟩
  | _ => ⟨S1x512x64x64, .f32⟩

abbrev hbmTy0_16 (i : Nat) : BufTy := match i % 128 with
  | 0 => ⟨S_, .i32⟩
  | 1 => ⟨S_, .i32⟩
  | 2 => ⟨S7, .i32⟩
  | 3 => ⟨S7, .i32⟩
  | 4 => ⟨S7, .i32⟩
  | 5 => ⟨S_, .i32⟩
  | 6 => ⟨S7, .i32⟩
  | 7 => ⟨S7, .i1⟩
  | 8 => ⟨S7, .i32⟩
  | 9 => ⟨S7, .i32⟩
  | 10 => ⟨S_, .i32⟩
  | 11 => ⟨S7, .i32⟩
  | 12 => ⟨S7, .i1⟩
  | 13 => ⟨S7, .i1⟩
  | 14 => ⟨S_, .i32⟩
  | 15 => ⟨S7, .i32⟩
  | 16 => ⟨S7, .i32⟩
  | 17 => ⟨S7, .i32⟩
  | 18 => ⟨S7, .i32⟩
  | 19 => ⟨S7, .i32⟩
  | 20 => ⟨S64, .i32⟩
  | 21 => ⟨S64, .i32⟩
  | 22 => ⟨S1x64, .i32⟩
  | 23 => ⟨S7x1, .i32⟩
  | 24 => ⟨S7x64, .i32⟩
  | 25 => ⟨S7x64, .i32⟩
  | 26 => ⟨S7x64, .i1⟩
  | 27 => ⟨S1x64, .i32⟩
  | 28 => ⟨S7x1, .i32⟩
  | 29 => ⟨S7x64, .i32⟩
  | 30 => ⟨S7x64, .i32⟩
  | 31 => ⟨S7x64, .i1⟩
  | 32 => ⟨S7x64, .i1⟩
  | 33 => ⟨S1x64, .i32⟩
  | 34 => ⟨S7x1, .i32⟩
  | 35 => ⟨S7x64, .i32⟩
  | 36 => ⟨S7x64, .i32⟩
  | 37 => ⟨S7x64, .i1⟩
  | 38 => ⟨S1x64, .i32⟩
  | 39 => ⟨S7x1, .i32⟩
  | 40 => ⟨S7x64, .i32⟩
  | 41 => ⟨S7x64, .i32⟩
  | 42 => ⟨S7x64, .i1⟩
  | 43 => ⟨S7x64, .i1⟩
  | 44 => ⟨S7x1x64x1, .i1⟩
  | 45 => ⟨S1x512x64x64, .f32⟩
  | 46 => ⟨S_, .f32⟩
  | 47 => ⟨S7x512x64x64, .i1⟩
  | 48 => ⟨S7x512x64x64, .f32⟩
  | 49 => ⟨S7x512x64x64, .f32⟩
  | 50 => ⟨S7x512x64x64, .f32⟩
  | 51 => ⟨S_, .f32⟩
  | 52 => ⟨S7x512x64, .f32⟩
  | 53 => ⟨S1x1x7x64, .i1⟩
  | 54 => ⟨S7x512x1x64, .f32⟩
  | 55 => ⟨S_, .f32⟩
  | 56 => ⟨S7x512x7x64, .i1⟩
  | 57 => ⟨S7x512x7x64, .f32⟩
  | 58 => ⟨S7x512x7x64, .f32⟩
  | 59 => ⟨S7x512x7x64, .f32⟩
  | 60 => ⟨S_, .f32⟩
  | 61 => ⟨S7x512x7, .f32⟩
  | 62 => ⟨S512x7x7, .f32⟩
  | 63 => ⟨S25088, .f32⟩
  | 64 => ⟨S1x1, .i32⟩
  | 65 => ⟨S_, .i32⟩
  | 66 => ⟨S1x1, .i32⟩
  | 67 => ⟨S_, .i32⟩
  | 68 => ⟨S_, .i32⟩
  | 69 => ⟨S1x1, .i32⟩
  | 70 => ⟨S_, .i32⟩
  | 71 => ⟨S1x1, .i32⟩
  | 72 => ⟨S_, .i32⟩
  | 73 => ⟨S_, .i32⟩
  | 74 => ⟨S1x1, .i32⟩
  | 75 => ⟨S_, .i32⟩
  | 76 => ⟨S1x1, .i32⟩
  | 77 => ⟨S_, .i32⟩
  | 78 => ⟨S_, .i32⟩
  | 79 => ⟨S1x1, .i32⟩
  | 80 => ⟨S_, .i32⟩
  | 81 => ⟨S1x1, .i32⟩
  | 82 => ⟨S_, .i32⟩
  | 83 => ⟨S_, .i32⟩
  | 84 => ⟨S_, .i32⟩
  | 85 => ⟨S_, .i32⟩
  | 86 => ⟨S7, .i32⟩
  | 87 => ⟨S7, .i32⟩
  | 88 => ⟨S7, .i32⟩
  | 89 => ⟨S7, .i32⟩
  | 90 => ⟨S_, .i32⟩
  | 91 => ⟨S_, .i32⟩
  | 92 => ⟨S7, .i32⟩
  | 93 => ⟨S7, .i32⟩
  | 94 => ⟨S7, .i32⟩
  | 95 => ⟨S_, .i32⟩
  | 96 => ⟨S7, .i32⟩
  | 97 => ⟨S7, .i1⟩
  | 98 => ⟨S7, .i32⟩
  | 99 => ⟨S7, .i32⟩
  | 100 => ⟨S_, .i32⟩
  | 101 => ⟨S7, .i32⟩
  | 102 => ⟨S7, .i1⟩
  | 103 => ⟨S7, .i1⟩
  | 104 => ⟨S_, .i32⟩
  | 105 => ⟨S7, .i32⟩
  | 106 => ⟨S7, .i32⟩
  | 107 => ⟨S7, .i32⟩
  | 108 => ⟨S7, .i32⟩
  | 109 => ⟨S7, .i32⟩
  | 110 => ⟨S_, .i32⟩
  | 111 => ⟨S7, .i32⟩
  | 112 => ⟨S7, .i32⟩
  | 113 => ⟨S7, .i32⟩
  | 114 => ⟨S7, .i32⟩
  | 115 => ⟨S7, .i32⟩
  | 116 => ⟨S_, .i32⟩
  | 117 => ⟨S_, .i32⟩
  | 118 => ⟨S7, .i32⟩
  | 119 => ⟨S7, .i32⟩
  | 120 => ⟨S7, .i32⟩
  | 121 => ⟨S_, .i32⟩
  | 122 => ⟨S7, .i32⟩
  | 123 => ⟨S7, .i1⟩
  | 124 => ⟨S7, .i32⟩
  | 125 => ⟨S7, .i32⟩
  | 126 => ⟨S_, .i32⟩
  | 127 => ⟨S7, .i32⟩
  | _ => ⟨S1x512x64x64, .f32⟩

abbrev hbmTy0_17 (i : Nat) : BufTy := match i % 128 with
  | 0 => ⟨S7, .i1⟩
  | 1 => ⟨S7, .i1⟩
  | 2 => ⟨S_, .i32⟩
  | 3 => ⟨S7, .i32⟩
  | 4 => ⟨S7, .i32⟩
  | 5 => ⟨S7, .i32⟩
  | 6 => ⟨S7, .i32⟩
  | 7 => ⟨S7, .i32⟩
  | 8 => ⟨S7, .i32⟩
  | 9 => ⟨S7, .i32⟩
  | 10 => ⟨S_, .i32⟩
  | 11 => ⟨S_, .i32⟩
  | 12 => ⟨S7, .i32⟩
  | 13 => ⟨S7, .i32⟩
  | 14 => ⟨S7, .i32⟩
  | 15 => ⟨S_, .i32⟩
  | 16 => ⟨S7, .i32⟩
  | 17 => ⟨S7, .i1⟩
  | 18 => ⟨S7, .i32⟩
  | 19 => ⟨S7, .i32⟩
  | 20 => ⟨S_, .i32⟩
  | 21 => ⟨S7, .i32⟩
  | 22 => ⟨S7, .i1⟩
  | 23 => ⟨S7, .i1⟩
  | 24 => ⟨S_, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S7, .i32⟩
  | 32 => ⟨S7, .i32⟩
  | 33 => ⟨S7, .i32⟩
  | 34 => ⟨S7, .i32⟩
  | 35 => ⟨S7, .i32⟩
  | 36 => ⟨S_, .i32⟩
  | 37 => ⟨S_, .i32⟩
  | 38 => ⟨S7, .i32⟩
  | 39 => ⟨S7, .i32⟩
  | 40 => ⟨S7, .i32⟩
  | 41 => ⟨S_, .i32⟩
  | 42 => ⟨S7, .i32⟩
  | 43 => ⟨S7, .i1⟩
  | 44 => ⟨S7, .i32⟩
  | 45 => ⟨S7, .i32⟩
  | 46 => ⟨S_, .i32⟩
  | 47 => ⟨S7, .i32⟩
  | 48 => ⟨S7, .i1⟩
  | 49 => ⟨S7, .i1⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S64, .i32⟩
  | 57 => ⟨S64, .i32⟩
  | 58 => ⟨S1x64, .i32⟩
  | 59 => ⟨S7x1, .i32⟩
  | 60 => ⟨S7x64, .i32⟩
  | 61 => ⟨S7x64, .i32⟩
  | 62 => ⟨S7x64, .i1⟩
  | 63 => ⟨S1x64, .i32⟩
  | 64 => ⟨S7x1, .i32⟩
  | 65 => ⟨S7x64, .i32⟩
  | 66 => ⟨S7x64, .i32⟩
  | 67 => ⟨S7x64, .i1⟩
  | 68 => ⟨S7x64, .i1⟩
  | 69 => ⟨S1x64, .i32⟩
  | 70 => ⟨S7x1, .i32⟩
  | 71 => ⟨S7x64, .i32⟩
  | 72 => ⟨S7x64, .i32⟩
  | 73 => ⟨S7x64, .i1⟩
  | 74 => ⟨S1x64, .i32⟩
  | 75 => ⟨S7x1, .i32⟩
  | 76 => ⟨S7x64, .i32⟩
  | 77 => ⟨S7x64, .i32⟩
  | 78 => ⟨S7x64, .i1⟩
  | 79 => ⟨S7x64, .i1⟩
  | 80 => ⟨S7x1x64x1, .i1⟩
  | 81 => ⟨S1x512x64x64, .f32⟩
  | 82 => ⟨S_, .f32⟩
  | 83 => ⟨S7x512x64x64, .i1⟩
  | 84 => ⟨S7x512x64x64, .f32⟩
  | 85 => ⟨S7x512x64x64, .f32⟩
  | 86 => ⟨S7x512x64x64, .f32⟩
  | 87 => ⟨S_, .f32⟩
  | 88 => ⟨S7x512x64, .f32⟩
  | 89 => ⟨S1x1x7x64, .i1⟩
  | 90 => ⟨S7x512x1x64, .f32⟩
  | 91 => ⟨S_, .f32⟩
  | 92 => ⟨S7x512x7x64, .i1⟩
  | 93 => ⟨S7x512x7x64, .f32⟩
  | 94 => ⟨S7x512x7x64, .f32⟩
  | 95 => ⟨S7x512x7x64, .f32⟩
  | 96 => ⟨S_, .f32⟩
  | 97 => ⟨S7x512x7, .f32⟩
  | 98 => ⟨S512x7x7, .f32⟩
  | 99 => ⟨S25088, .f32⟩
  | 100 => ⟨S1x1, .i32⟩
  | 101 => ⟨S_, .i32⟩
  | 102 => ⟨S1x1, .i32⟩
  | 103 => ⟨S_, .i32⟩
  | 104 => ⟨S_, .i32⟩
  | 105 => ⟨S1x1, .i32⟩
  | 106 => ⟨S_, .i32⟩
  | 107 => ⟨S1x1, .i32⟩
  | 108 => ⟨S_, .i32⟩
  | 109 => ⟨S_, .i32⟩
  | 110 => ⟨S1x1, .i32⟩
  | 111 => ⟨S_, .i32⟩
  | 112 => ⟨S1x1, .i32⟩
  | 113 => ⟨S_, .i32⟩
  | 114 => ⟨S_, .i32⟩
  | 115 => ⟨S1x1, .i32⟩
  | 116 => ⟨S_, .i32⟩
  | 117 => ⟨S1x1, .i32⟩
  | 118 => ⟨S_, .i32⟩
  | 119 => ⟨S_, .i32⟩
  | 120 => ⟨S_, .i32⟩
  | 121 => ⟨S_, .i32⟩
  | 122 => ⟨S7, .i32⟩
  | 123 => ⟨S7, .i32⟩
  | 124 => ⟨S7, .i32⟩
  | 125 => ⟨S7, .i32⟩
  | 126 => ⟨S_, .i32⟩
  | 127 => ⟨S_, .i32⟩
  | _ => ⟨S1x512x64x64, .f32⟩

abbrev hbmTy0_18 (i : Nat) : BufTy := match i % 128 with
  | 0 => ⟨S7, .i32⟩
  | 1 => ⟨S7, .i32⟩
  | 2 => ⟨S7, .i32⟩
  | 3 => ⟨S_, .i32⟩
  | 4 => ⟨S7, .i32⟩
  | 5 => ⟨S7, .i1⟩
  | 6 => ⟨S7, .i32⟩
  | 7 => ⟨S7, .i32⟩
  | 8 => ⟨S_, .i32⟩
  | 9 => ⟨S7, .i32⟩
  | 10 => ⟨S7, .i1⟩
  | 11 => ⟨S7, .i1⟩
  | 12 => ⟨S_, .i32⟩
  | 13 => ⟨S7, .i32⟩
  | 14 => ⟨S7, .i32⟩
  | 15 => ⟨S7, .i32⟩
  | 16 => ⟨S7, .i32⟩
  | 17 => ⟨S7, .i32⟩
  | 18 => ⟨S_, .i32⟩
  | 19 => ⟨S7, .i32⟩
  | 20 => ⟨S7, .i32⟩
  | 21 => ⟨S7, .i32⟩
  | 22 => ⟨S7, .i32⟩
  | 23 => ⟨S7, .i32⟩
  | 24 => ⟨S_, .i32⟩
  | 25 => ⟨S_, .i32⟩
  | 26 => ⟨S7, .i32⟩
  | 27 => ⟨S7, .i32⟩
  | 28 => ⟨S7, .i32⟩
  | 29 => ⟨S_, .i32⟩
  | 30 => ⟨S7, .i32⟩
  | 31 => ⟨S7, .i1⟩
  | 32 => ⟨S7, .i32⟩
  | 33 => ⟨S7, .i32⟩
  | 34 => ⟨S_, .i32⟩
  | 35 => ⟨S7, .i32⟩
  | 36 => ⟨S7, .i1⟩
  | 37 => ⟨S7, .i1⟩
  | 38 => ⟨S_, .i32⟩
  | 39 => ⟨S7, .i32⟩
  | 40 => ⟨S7, .i32⟩
  | 41 => ⟨S7, .i32⟩
  | 42 => ⟨S7, .i32⟩
  | 43 => ⟨S7, .i32⟩
  | 44 => ⟨S7, .i32⟩
  | 45 => ⟨S7, .i32⟩
  | 46 => ⟨S_, .i32⟩
  | 47 => ⟨S_, .i32⟩
  | 48 => ⟨S7, .i32⟩
  | 49 => ⟨S7, .i32⟩
  | 50 => ⟨S7, .i32⟩
  | 51 => ⟨S_, .i32⟩
  | 52 => ⟨S7, .i32⟩
  | 53 => ⟨S7, .i1⟩
  | 54 => ⟨S7, .i32⟩
  | 55 => ⟨S7, .i32⟩
  | 56 => ⟨S_, .i32⟩
  | 57 => ⟨S7, .i32⟩
  | 58 => ⟨S7, .i1⟩
  | 59 => ⟨S7, .i1⟩
  | 60 => ⟨S_, .i32⟩
  | 61 => ⟨S7, .i32⟩
  | 62 => ⟨S7, .i32⟩
  | 63 => ⟨S7, .i32⟩
  | 64 => ⟨S7, .i32⟩
  | 65 => ⟨S7, .i32⟩
  | 66 => ⟨S_, .i32⟩
  | 67 => ⟨S7, .i32⟩
  | 68 => ⟨S7, .i32⟩
  | 69 => ⟨S7, .i32⟩
  | 70 => ⟨S7, .i32⟩
  | 71 => ⟨S7, .i32⟩
  | 72 => ⟨S_, .i32⟩
  | 73 => ⟨S_, .i32⟩
  | 74 => ⟨S7, .i32⟩
  | 75 => ⟨S7, .i32⟩
  | 76 => ⟨S7, .i32⟩
  | 77 => ⟨S_, .i32⟩
  | 78 => ⟨S7, .i32⟩
  | 79 => ⟨S7, .i1⟩
  | 80 => ⟨S7, .i32⟩
  | 81 => ⟨S7, .i32⟩
  | 82 => ⟨S_, .i32⟩
  | 83 => ⟨S7, .i32⟩
  | 84 => ⟨S7, .i1⟩
  | 85 => ⟨S7, .i1⟩
  | 86 => ⟨S_, .i32⟩
  | 87 => ⟨S7, .i32⟩
  | 88 => ⟨S7, .i32⟩
  | 89 => ⟨S7, .i32⟩
  | 90 => ⟨S7, .i32⟩
  | 91 => ⟨S7, .i32⟩
  | 92 => ⟨S64, .i32⟩
  | 93 => ⟨S64, .i32⟩
  | 94 => ⟨S1x64, .i32⟩
  | 95 => ⟨S7x1, .i32⟩
  | 96 => ⟨S7x64, .i32⟩
  | 97 => ⟨S7x64, .i32⟩
  | 98 => ⟨S7x64, .i1⟩
  | 99 => ⟨S1x64, .i32⟩
  | 100 => ⟨S7x1, .i32⟩
  | 101 => ⟨S7x64, .i32⟩
  | 102 => ⟨S7x64, .i32⟩
  | 103 => ⟨S7x64, .i1⟩
  | 104 => ⟨S7x64, .i1⟩
  | 105 => ⟨S1x64, .i32⟩
  | 106 => ⟨S7x1, .i32⟩
  | 107 => ⟨S7x64, .i32⟩
  | 108 => ⟨S7x64, .i32⟩
  | 109 => ⟨S7x64, .i1⟩
  | 110 => ⟨S1x64, .i32⟩
  | 111 => ⟨S7x1, .i32⟩
  | 112 => ⟨S7x64, .i32⟩
  | 113 => ⟨S7x64, .i32⟩
  | 114 => ⟨S7x64, .i1⟩
  | 115 => ⟨S7x64, .i1⟩
  | 116 => ⟨S7x1x64x1, .i1⟩
  | 117 => ⟨S1x512x64x64, .f32⟩
  | 118 => ⟨S_, .f32⟩
  | 119 => ⟨S7x512x64x64, .i1⟩
  | 120 => ⟨S7x512x64x64, .f32⟩
  | 121 => ⟨S7x512x64x64, .f32⟩
  | 122 => ⟨S7x512x64x64, .f32⟩
  | 123 => ⟨S_, .f32⟩
  | 124 => ⟨S7x512x64, .f32⟩
  | 125 => ⟨S1x1x7x64, .i1⟩
  | 126 => ⟨S7x512x1x64, .f32⟩
  | 127 => ⟨S_, .f32⟩
  | _ => ⟨S1x512x64x64, .f32⟩

abbrev hbmTy0_19 (i : Nat) : BufTy := match i % 128 with
  | 0 => ⟨S7x512x7x64, .i1⟩
  | 1 => ⟨S7x512x7x64, .f32⟩
  | 2 => ⟨S7x512x7x64, .f32⟩
  | 3 => ⟨S7x512x7x64, .f32⟩
  | 4 => ⟨S_, .f32⟩
  | 5 => ⟨S7x512x7, .f32⟩
  | 6 => ⟨S512x7x7, .f32⟩
  | 7 => ⟨S25088, .f32⟩
  | 8 => ⟨S1x1, .i32⟩
  | 9 => ⟨S_, .i32⟩
  | 10 => ⟨S1x1, .i32⟩
  | 11 => ⟨S_, .i32⟩
  | 12 => ⟨S_, .i32⟩
  | 13 => ⟨S1x1, .i32⟩
  | 14 => ⟨S_, .i32⟩
  | 15 => ⟨S1x1, .i32⟩
  | 16 => ⟨S_, .i32⟩
  | 17 => ⟨S_, .i32⟩
  | 18 => ⟨S1x1, .i32⟩
  | 19 => ⟨S_, .i32⟩
  | 20 => ⟨S1x1, .i32⟩
  | 21 => ⟨S_, .i32⟩
  | 22 => ⟨S_, .i32⟩
  | 23 => ⟨S1x1, .i32⟩
  | 24 => ⟨S_, .i32⟩
  | 25 => ⟨S1x1, .i32⟩
  | 26 => ⟨S_, .i32⟩
  | 27 => ⟨S_, .i32⟩
  | 28 => ⟨S_, .i32⟩
  | 29 => ⟨S_, .i32⟩
  | 30 => ⟨S7, .i32⟩
  | 31 => ⟨S7, .i32⟩
  | 32 => ⟨S7, .i32⟩
  | 33 => ⟨S7, .i32⟩
  | 34 => ⟨S_, .i32⟩
  | 35 => ⟨S_, .i32⟩
  | 36 => ⟨S7, .i32⟩
  | 37 => ⟨S7, .i32⟩
  | 38 => ⟨S7, .i32⟩
  | 39 => ⟨S_, .i32⟩
  | 40 => ⟨S7, .i32⟩
  | 41 => ⟨S7, .i1⟩
  | 42 => ⟨S7, .i32⟩
  | 43 => ⟨S7, .i32⟩
  | 44 => ⟨S_, .i32⟩
  | 45 => ⟨S7, .i32⟩
  | 46 => ⟨S7, .i1⟩
  | 47 => ⟨S7, .i1⟩
  | 48 => ⟨S_, .i32⟩
  | 49 => ⟨S7, .i32⟩
  | 50 => ⟨S7, .i32⟩
  | 51 => ⟨S7, .i32⟩
  | 52 => ⟨S7, .i32⟩
  | 53 => ⟨S7, .i32⟩
  | 54 => ⟨S_, .i32⟩
  | 55 => ⟨S7, .i32⟩
  | 56 => ⟨S7, .i32⟩
  | 57 => ⟨S7, .i32⟩
  | 58 => ⟨S7, .i32⟩
  | 59 => ⟨S7, .i32⟩
  | 60 => ⟨S_, .i32⟩
  | 61 => ⟨S_, .i32⟩
  | 62 => ⟨S7, .i32⟩
  | 63 => ⟨S7, .i32⟩
  | 64 => ⟨S7, .i32⟩
  | 65 => ⟨S_, .i32⟩
  | 66 => ⟨S7, .i32⟩
  | 67 => ⟨S7, .i1⟩
  | 68 => ⟨S7, .i32⟩
  | 69 => ⟨S7, .i32⟩
  | 70 => ⟨S_, .i32⟩
  | 71 => ⟨S7, .i32⟩
  | 72 => ⟨S7, .i1⟩
  | 73 => ⟨S7, .i1⟩
  | 74 => ⟨S_, .i32⟩
  | 75 => ⟨S7, .i32⟩
  | 76 => ⟨S7, .i32⟩
  | 77 => ⟨S7, .i32⟩
  | 78 => ⟨S7, .i32⟩
  | 79 => ⟨S7, .i32⟩
  | 80 => ⟨S7, .i32⟩
  | 81 => ⟨S7, .i32⟩
  | 82 => ⟨S_, .i32⟩
  | 83 => ⟨S_, .i32⟩
  | 84 => ⟨S7, .i32⟩
  | 85 => ⟨S7, .i32⟩
  | 86 => ⟨S7, .i32⟩
  | 87 => ⟨S_, .i32⟩
  | 88 => ⟨S7, .i32⟩
  | 89 => ⟨S7, .i1⟩
  | 90 => ⟨S7, .i32⟩
  | 91 => ⟨S7, .i32⟩
  | 92 => ⟨S_, .i32⟩
  | 93 => ⟨S7, .i32⟩
  | 94 => ⟨S7, .i1⟩
  | 95 => ⟨S7, .i1⟩
  | 96 => ⟨S_, .i32⟩
  | 97 => ⟨S7, .i32⟩
  | 98 => ⟨S7, .i32⟩
  | 99 => ⟨S7, .i32⟩
  | 100 => ⟨S7, .i32⟩
  | 101 => ⟨S7, .i32⟩
  | 102 => ⟨S_, .i32⟩
  | 103 => ⟨S7, .i32⟩
  | 104 => ⟨S7, .i32⟩
  | 105 => ⟨S7, .i32⟩
  | 106 => ⟨S7, .i32⟩
  | 107 => ⟨S7, .i32⟩
  | 108 => ⟨S_, .i32⟩
  | 109 => ⟨S_, .i32⟩
  | 110 => ⟨S7, .i32⟩
  | 111 => ⟨S7, .i32⟩
  | 112 => ⟨S7, .i32⟩
  | 113 => ⟨S_, .i32⟩
  | 114 => ⟨S7, .i32⟩
  | 115 => ⟨S7, .i1⟩
  | 116 => ⟨S7, .i32⟩
  | 117 => ⟨S7, .i32⟩
  | 118 => ⟨S_, .i32⟩
  | 119 => ⟨S7, .i32⟩
  | 120 => ⟨S7, .i1⟩
  | 121 => ⟨S7, .i1⟩
  | 122 => ⟨S_, .i32⟩
  | 123 => ⟨S7, .i32⟩
  | 124 => ⟨S7, .i32⟩
  | 125 => ⟨S7, .i32⟩
  | 126 => ⟨S7, .i32⟩
  | 127 => ⟨S7, .i32⟩
  | _ => ⟨S1x512x64x64, .f32⟩

abbrev hbmTy0_20 (i : Nat) : BufTy := match i % 128 with
  | 0 => ⟨S64, .i32⟩
  | 1 => ⟨S64, .i32⟩
  | 2 => ⟨S1x64, .i32⟩
  | 3 => ⟨S7x1, .i32⟩
  | 4 => ⟨S7x64, .i32⟩
  | 5 => ⟨S7x64, .i32⟩
  | 6 => ⟨S7x64, .i1⟩
  | 7 => ⟨S1x64, .i32⟩
  | 8 => ⟨S7x1, .i32⟩
  | 9 => ⟨S7x64, .i32⟩
  | 10 => ⟨S7x64, .i32⟩
  | 11 => ⟨S7x64, .i1⟩
  | 12 => ⟨S7x64, .i1⟩
  | 13 => ⟨S1x64, .i32⟩
  | 14 => ⟨S7x1, .i32⟩
  | 15 => ⟨S7x64, .i32⟩
  | 16 => ⟨S7x64, .i32⟩
  | 17 => ⟨S7x64, .i1⟩
  | 18 => ⟨S1x64, .i32⟩
  | 19 => ⟨S7x1, .i32⟩
  | 20 => ⟨S7x64, .i32⟩
  | 21 => ⟨S7x64, .i32⟩
  | 22 => ⟨S7x64, .i1⟩
  | 23 => ⟨S7x64, .i1⟩
  | 24 => ⟨S7x1x64x1, .i1⟩
  | 25 => ⟨S1x512x64x64, .f32⟩
  | 26 => ⟨S_, .f32⟩
  | 27 => ⟨S7x512x64x64, .i1⟩
  | 28 => ⟨S7x512x64x64, .f32⟩
  | 29 => ⟨S7x512x64x64, .f32⟩
  | 30 => ⟨S7x512x64x64, .f32⟩
  | 31 => ⟨S_, .f32⟩
  | 32 => ⟨S7x512x64, .f32⟩
  | 33 => ⟨S1x1x7x64, .i1⟩
  | 34 => ⟨S7x512x1x64, .f32⟩
  | 35 => ⟨S_, .f32⟩
  | 36 => ⟨S7x512x7x64, .i1⟩
  | 37 => ⟨S7x512x7x64, .f32⟩
  | 38 => ⟨S7x512x7x64, .f32⟩
  | 39 => ⟨S7x512x7x64, .f32⟩
  | 40 => ⟨S_, .f32⟩
  | 41 => ⟨S7x512x7, .f32⟩
  | 42 => ⟨S512x7x7, .f32⟩
  | 43 => ⟨S25088, .f32⟩
  | 44 => ⟨S150528, .f32⟩
  | 45 => ⟨S150528, .f32⟩
  | 46 => ⟨S150528, .f32⟩
  | 47 => ⟨S1x150528, .f32⟩
  | 48 => ⟨S1x150528, .f32⟩
  | 49 => ⟨S1x150528, .f32⟩
  | 50 => ⟨S3x150528, .f32⟩
  | 51 => ⟨S3x1024, .f32⟩
  | _ => ⟨S1x512x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | _ => ⟨S1x512x64x64, .f32⟩

abbrev bufTy : (tb : Table) → Fin (tcTables nBuf tb) → BufTy
  | .hbm, ⟨i, _⟩ => hbmTy i
  | .local _ .vmem, ⟨0, _⟩ => ⟨S3x3072, .f32⟩
  | .local _ .vmem, ⟨1, _⟩ => ⟨S3x3072, .f32⟩
  | .local _ .vmem, ⟨2, _⟩ => ⟨S3072x1024, .f32⟩
  | .local _ .vmem, ⟨3, _⟩ => ⟨S3072x1024, .f32⟩
  | .local _ .vmem, ⟨4, _⟩ => ⟨S1024, .f32⟩
  | .local _ .vmem, ⟨5, _⟩ => ⟨S3x1024, .f32⟩
  | .local _ .vmem, ⟨6, _⟩ => ⟨S3x1024, .f32⟩
  | _, _ => ⟨S1x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v28 : Ref sig .tc := ⟨.hbm, 52, rfl⟩
abbrev main_c_1 : Ref sig .tc := ⟨.hbm, 53, rfl⟩
abbrev main_v29 : Ref sig .tc := ⟨.hbm, 54, rfl⟩
abbrev main_v30 : Ref sig .tc := ⟨.hbm, 55, rfl⟩
abbrev main_c_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_3 : Ref sig .tc := ⟨.hbm, 60, rfl⟩
abbrev main_v34 : Ref sig .tc := ⟨.hbm, 61, rfl⟩
abbrev main_v35 : Ref sig .tc := ⟨.hbm, 62, rfl⟩
abbrev main_c_4 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v36 : Ref sig .tc := ⟨.hbm, 80, rfl⟩
abbrev main_c_5 : Ref sig .tc := ⟨.hbm, 81, rfl⟩
abbrev main_v37 : Ref sig .tc := ⟨.hbm, 82, rfl⟩
abbrev main_v38 : Ref sig .tc := ⟨.hbm, 83, rfl⟩
abbrev main_c_6 : Ref sig .tc := ⟨.hbm, 84, rfl⟩
abbrev main_v39 : Ref sig .tc := ⟨.hbm, 85, rfl⟩
abbrev main_v40 : Ref sig .tc := ⟨.hbm, 86, rfl⟩
abbrev main_c_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_c : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_0 : Ref sig .tc := ⟨.hbm, 101, rfl⟩
abbrev main_call4_v12 : Ref sig .tc := ⟨.hbm, 102, rfl⟩
abbrev main_call4_v13 : Ref sig .tc := ⟨.hbm, 103, rfl⟩
abbrev main_v41 : Ref sig .tc := ⟨.hbm, 104, rfl⟩
abbrev main_c_8 : Ref sig .tc := ⟨.hbm, 105, rfl⟩
abbrev main_v42 : Ref sig .tc := ⟨.hbm, 106, rfl⟩
abbrev main_v43 : Ref sig .tc := ⟨.hbm, 107, rfl⟩
abbrev main_c_9 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_c_10 : Ref sig .tc := ⟨.hbm, 112, rfl⟩
abbrev main_v47 : Ref sig .tc := ⟨.hbm, 113, rfl⟩
abbrev main_v48 : Ref sig .tc := ⟨.hbm, 114, rfl⟩
abbrev main_c_11 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_v5 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_c : Ref sig .tc := ⟨.hbm, 125, rfl⟩
abbrev main_call5_v9 : Ref sig .tc := ⟨.hbm, 126, rfl⟩
abbrev main_call5_v10 : Ref sig .tc := ⟨.hbm, 127, rfl⟩
abbrev main_call5_v11 : Ref sig .tc := ⟨.hbm, 128, rfl⟩
abbrev main_call5_c_0 : Ref sig .tc := ⟨.hbm, 129, rfl⟩
abbrev main_call5_v12 : Ref sig .tc := ⟨.hbm, 130, rfl⟩
abbrev main_call5_v13 : Ref sig .tc := ⟨.hbm, 131, rfl⟩
abbrev main_v49 : Ref sig .tc := ⟨.hbm, 132, rfl⟩
abbrev main_c_12 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_cst : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v78 : Ref sig .tc := ⟨.hbm, 166, rfl⟩
abbrev main_cst_13 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_cst_14 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v82 : Ref sig .tc := ⟨.hbm, 175, rfl⟩
abbrev main_cst_15 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_c_16 : Ref sig .tc := ⟨.hbm, 194, rfl⟩
abbrev main_call8_v0 : Ref sig .tc := ⟨.hbm, 195, rfl⟩
abbrev main_call8_v1 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_call8_v5 : Ref sig .tc := ⟨.hbm, 200, rfl⟩
abbrev main_call8_v6 : Ref sig .tc := ⟨.hbm, 201, rfl⟩
abbrev main_call8_v7 : Ref sig .tc := ⟨.hbm, 202, rfl⟩
abbrev main_call8_v8 : Ref sig .tc := ⟨.hbm, 203, rfl⟩
abbrev main_call8_c : Ref sig .tc := ⟨.hbm, 204, rfl⟩
abbrev main_call8_v9 : Ref sig .tc := ⟨.hbm, 205, rfl⟩
abbrev main_call8_v10 : Ref sig .tc := ⟨.hbm, 206, rfl⟩
abbrev main_call8_v11 : Ref sig .tc := ⟨.hbm, 207, rfl⟩
abbrev main_call8_c_0 : Ref sig .tc := ⟨.hbm, 208, rfl⟩
abbrev main_call8_v12 : Ref sig .tc := ⟨.hbm, 209, rfl⟩
abbrev main_call8_v13 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_c_17 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_c_18 : Ref sig .tc := ⟨.hbm, 220, rfl⟩
abbrev main_call9_v0 : Ref sig .tc := ⟨.hbm, 221, rfl⟩
abbrev main_call9_v1 : Ref sig .tc := ⟨.hbm, 222, rfl⟩
abbrev main_call9_v2 : Ref sig .tc := ⟨.hbm, 223, rfl⟩
abbrev main_call9_v3 : Ref sig .tc := ⟨.hbm, 224, rfl⟩
abbrev main_call9_v4 : Ref sig .tc := ⟨.hbm, 225, rfl⟩
abbrev main_call9_v5 : Ref sig .tc := ⟨.hbm, 226, rfl⟩
abbrev main_call9_v6 : Ref sig .tc := ⟨.hbm, 227, rfl⟩
abbrev main_call9_v7 : Ref sig .tc := ⟨.hbm, 228, rfl⟩
abbrev main_call9_v8 : Ref sig .tc := ⟨.hbm, 229, rfl⟩
abbrev main_call9_c : Ref sig .tc := ⟨.hbm, 230, rfl⟩
abbrev main_call9_v9 : Ref sig .tc := ⟨.hbm, 231, rfl⟩
abbrev main_call9_v10 : Ref sig .tc := ⟨.hbm, 232, rfl⟩
abbrev main_call9_v11 : Ref sig .tc := ⟨.hbm, 233, rfl⟩
abbrev main_call9_c_0 : Ref sig .tc := ⟨.hbm, 234, rfl⟩
abbrev main_call9_v12 : Ref sig .tc := ⟨.hbm, 235, rfl⟩
abbrev main_call9_v13 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_c_19 : Ref sig .tc := ⟨.hbm, 242, rfl⟩
abbrev main_call10_v0 : Ref sig .tc := ⟨.hbm, 243, rfl⟩
abbrev main_call10_v1 : Ref sig .tc := ⟨.hbm, 244, rfl⟩
abbrev main_call10_v2 : Ref sig .tc := ⟨.hbm, 245, rfl⟩
abbrev main_call10_v3 : Ref sig .tc := ⟨.hbm, 246, rfl⟩
abbrev main_call10_v4 : Ref sig .tc := ⟨.hbm, 247, rfl⟩
abbrev main_call10_v5 : Ref sig .tc := ⟨.hbm, 248, rfl⟩
abbrev main_call10_v6 : Ref sig .tc := ⟨.hbm, 249, rfl⟩
abbrev main_call10_v7 : Ref sig .tc := ⟨.hbm, 250, rfl⟩
abbrev main_call10_v8 : Ref sig .tc := ⟨.hbm, 251, rfl⟩
abbrev main_call10_c : Ref sig .tc := ⟨.hbm, 252, rfl⟩
abbrev main_call10_v9 : Ref sig .tc := ⟨.hbm, 253, rfl⟩
abbrev main_call10_v10 : Ref sig .tc := ⟨.hbm, 254, rfl⟩
abbrev main_call10_v11 : Ref sig .tc := ⟨.hbm, 255, rfl⟩
abbrev main_call10_c_0 : Ref sig .tc := ⟨.hbm, 256, rfl⟩
abbrev main_call10_v12 : Ref sig .tc := ⟨.hbm, 257, rfl⟩
abbrev main_call10_v13 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_c_20 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_c_21 : Ref sig .tc := ⟨.hbm, 268, rfl⟩
abbrev main_call11_v0 : Ref sig .tc := ⟨.hbm, 269, rfl⟩
abbrev main_call11_v1 : Ref sig .tc := ⟨.hbm, 270, rfl⟩
abbrev main_call11_v2 : Ref sig .tc := ⟨.hbm, 271, rfl⟩
abbrev main_call11_v3 : Ref sig .tc := ⟨.hbm, 272, rfl⟩
abbrev main_call11_v4 : Ref sig .tc := ⟨.hbm, 273, rfl⟩
abbrev main_call11_v5 : Ref sig .tc := ⟨.hbm, 274, rfl⟩
abbrev main_call11_v6 : Ref sig .tc := ⟨.hbm, 275, rfl⟩
abbrev main_call11_v7 : Ref sig .tc := ⟨.hbm, 276, rfl⟩
abbrev main_call11_v8 : Ref sig .tc := ⟨.hbm, 277, rfl⟩
abbrev main_call11_c : Ref sig .tc := ⟨.hbm, 278, rfl⟩
abbrev main_call11_v9 : Ref sig .tc := ⟨.hbm, 279, rfl⟩
abbrev main_call11_v10 : Ref sig .tc := ⟨.hbm, 280, rfl⟩
abbrev main_call11_v11 : Ref sig .tc := ⟨.hbm, 281, rfl⟩
abbrev main_call11_c_0 : Ref sig .tc := ⟨.hbm, 282, rfl⟩
abbrev main_call11_v12 : Ref sig .tc := ⟨.hbm, 283, rfl⟩
abbrev main_call11_v13 : Ref sig .tc := ⟨.hbm, 284, rfl⟩
abbrev main_v121 : Ref sig .tc := ⟨.hbm, 285, rfl⟩
abbrev main_v122 : Ref sig .tc := ⟨.hbm, 286, rfl⟩
abbrev main_v123 : Ref sig .tc := ⟨.hbm, 287, rfl⟩
abbrev main_v124 : Ref sig .tc := ⟨.hbm, 288, rfl⟩
abbrev main_v125 : Ref sig .tc := ⟨.hbm, 289, rfl⟩
abbrev main_v126 : Ref sig .tc := ⟨.hbm, 290, rfl⟩
abbrev main_v127 : Ref sig .tc := ⟨.hbm, 291, rfl⟩
abbrev main_v128 : Ref sig .tc := ⟨.hbm, 292, rfl⟩
abbrev main_v129 : Ref sig .tc := ⟨.hbm, 293, rfl⟩
abbrev main_v130 : Ref sig .tc := ⟨.hbm, 294, rfl⟩
abbrev main_v131 : Ref sig .tc := ⟨.hbm, 295, rfl⟩
abbrev main_v132 : Ref sig .tc := ⟨.hbm, 296, rfl⟩
abbrev main_v133 : Ref sig .tc := ⟨.hbm, 297, rfl⟩
abbrev main_v134 : Ref sig .tc := ⟨.hbm, 298, rfl⟩
abbrev main_v135 : Ref sig .tc := ⟨.hbm, 299, rfl⟩
abbrev main_v136 : Ref sig .tc := ⟨.hbm, 300, rfl⟩
abbrev main_v137 : Ref sig .tc := ⟨.hbm, 301, rfl⟩
abbrev main_v138 : Ref sig .tc := ⟨.hbm, 302, rfl⟩
abbrev main_v139 : Ref sig .tc := ⟨.hbm, 303, rfl⟩
abbrev main_v140 : Ref sig .tc := ⟨.hbm, 304, rfl⟩
abbrev main_v141 : Ref sig .tc := ⟨.hbm, 305, rfl⟩
abbrev main_v142 : Ref sig .tc := ⟨.hbm, 306, rfl⟩
abbrev main_v143 : Ref sig .tc := ⟨.hbm, 307, rfl⟩
abbrev main_v144 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_v148 : Ref sig .tc := ⟨.hbm, 312, rfl⟩
abbrev main_v149 : Ref sig .tc := ⟨.hbm, 313, rfl⟩
abbrev main_cst_22 : Ref sig .tc := ⟨.hbm, 314, rfl⟩
abbrev main_call12_v0 : Ref sig .tc := ⟨.hbm, 315, rfl⟩
abbrev main_call12_v1 : Ref sig .tc := ⟨.hbm, 316, rfl⟩
abbrev main_call12_v2 : Ref sig .tc := ⟨.hbm, 317, rfl⟩
abbrev main_v150 : Ref sig .tc := ⟨.hbm, 318, rfl⟩
abbrev main_cst_23 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_cst_24 : Ref sig .tc := ⟨.hbm, 323, rfl⟩
abbrev main_call13_v0 : Ref sig .tc := ⟨.hbm, 324, rfl⟩
abbrev main_call13_v1 : Ref sig .tc := ⟨.hbm, 325, rfl⟩
abbrev main_call13_v2 : Ref sig .tc := ⟨.hbm, 326, rfl⟩
abbrev main_v154 : Ref sig .tc := ⟨.hbm, 327, rfl⟩
abbrev main_cst_25 : Ref sig .tc := ⟨.hbm, 328, rfl⟩
abbrev main_v155 : Ref sig .tc := ⟨.hbm, 329, rfl⟩
abbrev main_v156 : Ref sig .tc := ⟨.hbm, 330, rfl⟩
abbrev main_v157 : Ref sig .tc := ⟨.hbm, 331, rfl⟩
abbrev main_v158 : Ref sig .tc := ⟨.hbm, 332, rfl⟩
abbrev main_v159 : Ref sig .tc := ⟨.hbm, 333, rfl⟩
abbrev main_v160 : Ref sig .tc := ⟨.hbm, 334, rfl⟩
abbrev main_v161 : Ref sig .tc := ⟨.hbm, 335, rfl⟩
abbrev main_v162 : Ref sig .tc := ⟨.hbm, 336, rfl⟩
abbrev main_v163 : Ref sig .tc := ⟨.hbm, 337, rfl⟩
abbrev main_v164 : Ref sig .tc := ⟨.hbm, 338, rfl⟩
abbrev main_v165 : Ref sig .tc := ⟨.hbm, 339, rfl⟩
abbrev main_v166 : Ref sig .tc := ⟨.hbm, 340, rfl⟩
abbrev main_v167 : Ref sig .tc := ⟨.hbm, 341, rfl⟩
abbrev main_v168 : Ref sig .tc := ⟨.hbm, 342, rfl⟩
abbrev main_v169 : Ref sig .tc := ⟨.hbm, 343, rfl⟩
abbrev main_v170 : Ref sig .tc := ⟨.hbm, 344, rfl⟩
abbrev main_v171 : Ref sig .tc := ⟨.hbm, 345, rfl⟩
abbrev main_c_26 : Ref sig .tc := ⟨.hbm, 346, rfl⟩
abbrev main_call14_v0 : Ref sig .tc := ⟨.hbm, 347, rfl⟩
abbrev main_call14_v1 : Ref sig .tc := ⟨.hbm, 348, rfl⟩
abbrev main_call14_v2 : Ref sig .tc := ⟨.hbm, 349, rfl⟩
abbrev main_call14_v3 : Ref sig .tc := ⟨.hbm, 350, rfl⟩
abbrev main_call14_v4 : Ref sig .tc := ⟨.hbm, 351, rfl⟩
abbrev main_call14_v5 : Ref sig .tc := ⟨.hbm, 352, rfl⟩
abbrev main_call14_v6 : Ref sig .tc := ⟨.hbm, 353, rfl⟩
abbrev main_call14_v7 : Ref sig .tc := ⟨.hbm, 354, rfl⟩
abbrev main_call14_v8 : Ref sig .tc := ⟨.hbm, 355, rfl⟩
abbrev main_call14_c : Ref sig .tc := ⟨.hbm, 356, rfl⟩
abbrev main_call14_v9 : Ref sig .tc := ⟨.hbm, 357, rfl⟩
abbrev main_call14_v10 : Ref sig .tc := ⟨.hbm, 358, rfl⟩
abbrev main_call14_v11 : Ref sig .tc := ⟨.hbm, 359, rfl⟩
abbrev main_call14_c_0 : Ref sig .tc := ⟨.hbm, 360, rfl⟩
abbrev main_call14_v12 : Ref sig .tc := ⟨.hbm, 361, rfl⟩
abbrev main_call14_v13 : Ref sig .tc := ⟨.hbm, 362, rfl⟩
abbrev main_v172 : Ref sig .tc := ⟨.hbm, 363, rfl⟩
abbrev main_v173 : Ref sig .tc := ⟨.hbm, 364, rfl⟩
abbrev main_v174 : Ref sig .tc := ⟨.hbm, 365, rfl⟩
abbrev main_c_27 : Ref sig .tc := ⟨.hbm, 366, rfl⟩
abbrev main_v175 : Ref sig .tc := ⟨.hbm, 367, rfl⟩
abbrev main_v176 : Ref sig .tc := ⟨.hbm, 368, rfl⟩
abbrev main_v177 : Ref sig .tc := ⟨.hbm, 369, rfl⟩
abbrev main_v178 : Ref sig .tc := ⟨.hbm, 370, rfl⟩
abbrev main_v179 : Ref sig .tc := ⟨.hbm, 371, rfl⟩
abbrev main_c_28 : Ref sig .tc := ⟨.hbm, 372, rfl⟩
abbrev main_call15_v0 : Ref sig .tc := ⟨.hbm, 373, rfl⟩
abbrev main_call15_v1 : Ref sig .tc := ⟨.hbm, 374, rfl⟩
abbrev main_call15_v2 : Ref sig .tc := ⟨.hbm, 375, rfl⟩
abbrev main_call15_v3 : Ref sig .tc := ⟨.hbm, 376, rfl⟩
abbrev main_call15_v4 : Ref sig .tc := ⟨.hbm, 377, rfl⟩
abbrev main_call15_v5 : Ref sig .tc := ⟨.hbm, 378, rfl⟩
abbrev main_call15_v6 : Ref sig .tc := ⟨.hbm, 379, rfl⟩
abbrev main_call15_v7 : Ref sig .tc := ⟨.hbm, 380, rfl⟩
abbrev main_call15_v8 : Ref sig .tc := ⟨.hbm, 381, rfl⟩
abbrev main_call15_c : Ref sig .tc := ⟨.hbm, 382, rfl⟩
abbrev main_call15_v9 : Ref sig .tc := ⟨.hbm, 383, rfl⟩
abbrev main_call15_v10 : Ref sig .tc := ⟨.hbm, 384, rfl⟩
abbrev main_call15_v11 : Ref sig .tc := ⟨.hbm, 385, rfl⟩
abbrev main_call15_c_0 : Ref sig .tc := ⟨.hbm, 386, rfl⟩
abbrev main_call15_v12 : Ref sig .tc := ⟨.hbm, 387, rfl⟩
abbrev main_call15_v13 : Ref sig .tc := ⟨.hbm, 388, rfl⟩
abbrev main_v180 : Ref sig .tc := ⟨.hbm, 389, rfl⟩
abbrev main_v181 : Ref sig .tc := ⟨.hbm, 390, rfl⟩
abbrev main_v182 : Ref sig .tc := ⟨.hbm, 391, rfl⟩
abbrev main_v183 : Ref sig .tc := ⟨.hbm, 392, rfl⟩
abbrev main_v184 : Ref sig .tc := ⟨.hbm, 393, rfl⟩
abbrev main_c_29 : Ref sig .tc := ⟨.hbm, 394, rfl⟩
abbrev main_call16_v0 : Ref sig .tc := ⟨.hbm, 395, rfl⟩
abbrev main_call16_v1 : Ref sig .tc := ⟨.hbm, 396, rfl⟩
abbrev main_call16_v2 : Ref sig .tc := ⟨.hbm, 397, rfl⟩
abbrev main_call16_v3 : Ref sig .tc := ⟨.hbm, 398, rfl⟩
abbrev main_call16_v4 : Ref sig .tc := ⟨.hbm, 399, rfl⟩
abbrev main_call16_v5 : Ref sig .tc := ⟨.hbm, 400, rfl⟩
abbrev main_call16_v6 : Ref sig .tc := ⟨.hbm, 401, rfl⟩
abbrev main_call16_v7 : Ref sig .tc := ⟨.hbm, 402, rfl⟩
abbrev main_call16_v8 : Ref sig .tc := ⟨.hbm, 403, rfl⟩
abbrev main_call16_c : Ref sig .tc := ⟨.hbm, 404, rfl⟩
abbrev main_call16_v9 : Ref sig .tc := ⟨.hbm, 405, rfl⟩
abbrev main_call16_v10 : Ref sig .tc := ⟨.hbm, 406, rfl⟩
abbrev main_call16_v11 : Ref sig .tc := ⟨.hbm, 407, rfl⟩
abbrev main_call16_c_0 : Ref sig .tc := ⟨.hbm, 408, rfl⟩
abbrev main_call16_v12 : Ref sig .tc := ⟨.hbm, 409, rfl⟩
abbrev main_call16_v13 : Ref sig .tc := ⟨.hbm, 410, rfl⟩
abbrev main_v185 : Ref sig .tc := ⟨.hbm, 411, rfl⟩
abbrev main_v186 : Ref sig .tc := ⟨.hbm, 412, rfl⟩
abbrev main_v187 : Ref sig .tc := ⟨.hbm, 413, rfl⟩
abbrev main_c_30 : Ref sig .tc := ⟨.hbm, 414, rfl⟩
abbrev main_v188 : Ref sig .tc := ⟨.hbm, 415, rfl⟩
abbrev main_v189 : Ref sig .tc := ⟨.hbm, 416, rfl⟩
abbrev main_v190 : Ref sig .tc := ⟨.hbm, 417, rfl⟩
abbrev main_v191 : Ref sig .tc := ⟨.hbm, 418, rfl⟩
abbrev main_v192 : Ref sig .tc := ⟨.hbm, 419, rfl⟩
abbrev main_c_31 : Ref sig .tc := ⟨.hbm, 420, rfl⟩
abbrev main_call17_v0 : Ref sig .tc := ⟨.hbm, 421, rfl⟩
abbrev main_call17_v1 : Ref sig .tc := ⟨.hbm, 422, rfl⟩
abbrev main_call17_v2 : Ref sig .tc := ⟨.hbm, 423, rfl⟩
abbrev main_call17_v3 : Ref sig .tc := ⟨.hbm, 424, rfl⟩
abbrev main_call17_v4 : Ref sig .tc := ⟨.hbm, 425, rfl⟩
abbrev main_call17_v5 : Ref sig .tc := ⟨.hbm, 426, rfl⟩
abbrev main_call17_v6 : Ref sig .tc := ⟨.hbm, 427, rfl⟩
abbrev main_call17_v7 : Ref sig .tc := ⟨.hbm, 428, rfl⟩
abbrev main_call17_v8 : Ref sig .tc := ⟨.hbm, 429, rfl⟩
abbrev main_call17_c : Ref sig .tc := ⟨.hbm, 430, rfl⟩
abbrev main_call17_v9 : Ref sig .tc := ⟨.hbm, 431, rfl⟩
abbrev main_call17_v10 : Ref sig .tc := ⟨.hbm, 432, rfl⟩
abbrev main_call17_v11 : Ref sig .tc := ⟨.hbm, 433, rfl⟩
abbrev main_call17_c_0 : Ref sig .tc := ⟨.hbm, 434, rfl⟩
abbrev main_call17_v12 : Ref sig .tc := ⟨.hbm, 435, rfl⟩
abbrev main_call17_v13 : Ref sig .tc := ⟨.hbm, 436, rfl⟩
abbrev main_v193 : Ref sig .tc := ⟨.hbm, 437, rfl⟩
abbrev main_v194 : Ref sig .tc := ⟨.hbm, 438, rfl⟩
abbrev main_v195 : Ref sig .tc := ⟨.hbm, 439, rfl⟩
abbrev main_v196 : Ref sig .tc := ⟨.hbm, 440, rfl⟩
abbrev main_v197 : Ref sig .tc := ⟨.hbm, 441, rfl⟩
abbrev main_v198 : Ref sig .tc := ⟨.hbm, 442, rfl⟩
abbrev main_v199 : Ref sig .tc := ⟨.hbm, 443, rfl⟩
abbrev main_v200 : Ref sig .tc := ⟨.hbm, 444, rfl⟩
abbrev main_v201 : Ref sig .tc := ⟨.hbm, 445, rfl⟩
abbrev main_v202 : Ref sig .tc := ⟨.hbm, 446, rfl⟩
abbrev main_v203 : Ref sig .tc := ⟨.hbm, 447, rfl⟩
abbrev main_v204 : Ref sig .tc := ⟨.hbm, 448, rfl⟩
abbrev main_v205 : Ref sig .tc := ⟨.hbm, 449, rfl⟩
abbrev main_v206 : Ref sig .tc := ⟨.hbm, 450, rfl⟩
abbrev main_v207 : Ref sig .tc := ⟨.hbm, 451, rfl⟩
abbrev main_v208 : Ref sig .tc := ⟨.hbm, 452, rfl⟩
abbrev main_v209 : Ref sig .tc := ⟨.hbm, 453, rfl⟩
abbrev main_v210 : Ref sig .tc := ⟨.hbm, 454, rfl⟩
abbrev main_v211 : Ref sig .tc := ⟨.hbm, 455, rfl⟩
abbrev main_v212 : Ref sig .tc := ⟨.hbm, 456, rfl⟩
abbrev main_v213 : Ref sig .tc := ⟨.hbm, 457, rfl⟩
abbrev main_v214 : Ref sig .tc := ⟨.hbm, 458, rfl⟩
abbrev main_v215 : Ref sig .tc := ⟨.hbm, 459, rfl⟩
abbrev main_v216 : Ref sig .tc := ⟨.hbm, 460, rfl⟩
abbrev main_v217 : Ref sig .tc := ⟨.hbm, 461, rfl⟩
abbrev main_v218 : Ref sig .tc := ⟨.hbm, 462, rfl⟩
abbrev main_v219 : Ref sig .tc := ⟨.hbm, 463, rfl⟩
abbrev main_v220 : Ref sig .tc := ⟨.hbm, 464, rfl⟩
abbrev main_v221 : Ref sig .tc := ⟨.hbm, 465, rfl⟩
abbrev main_cst_32 : Ref sig .tc := ⟨.hbm, 466, rfl⟩
abbrev main_call18_v0 : Ref sig .tc := ⟨.hbm, 467, rfl⟩
abbrev main_call18_v1 : Ref sig .tc := ⟨.hbm, 468, rfl⟩
abbrev main_call18_v2 : Ref sig .tc := ⟨.hbm, 469, rfl⟩
abbrev main_v222 : Ref sig .tc := ⟨.hbm, 470, rfl⟩
abbrev main_cst_33 : Ref sig .tc := ⟨.hbm, 471, rfl⟩
abbrev main_v223 : Ref sig .tc := ⟨.hbm, 472, rfl⟩
abbrev main_v224 : Ref sig .tc := ⟨.hbm, 473, rfl⟩
abbrev main_v225 : Ref sig .tc := ⟨.hbm, 474, rfl⟩
abbrev main_cst_34 : Ref sig .tc := ⟨.hbm, 475, rfl⟩
abbrev main_call19_v0 : Ref sig .tc := ⟨.hbm, 476, rfl⟩
abbrev main_call19_v1 : Ref sig .tc := ⟨.hbm, 477, rfl⟩
abbrev main_call19_v2 : Ref sig .tc := ⟨.hbm, 478, rfl⟩
abbrev main_v226 : Ref sig .tc := ⟨.hbm, 479, rfl⟩
abbrev main_cst_35 : Ref sig .tc := ⟨.hbm, 480, rfl⟩
abbrev main_v227 : Ref sig .tc := ⟨.hbm, 481, rfl⟩
abbrev main_v228 : Ref sig .tc := ⟨.hbm, 482, rfl⟩
abbrev main_v229 : Ref sig .tc := ⟨.hbm, 483, rfl⟩
abbrev main_v230 : Ref sig .tc := ⟨.hbm, 484, rfl⟩
abbrev main_v231 : Ref sig .tc := ⟨.hbm, 485, rfl⟩
abbrev main_v232 : Ref sig .tc := ⟨.hbm, 486, rfl⟩
abbrev main_v233 : Ref sig .tc := ⟨.hbm, 487, rfl⟩
abbrev main_v234 : Ref sig .tc := ⟨.hbm, 488, rfl⟩
abbrev main_v235 : Ref sig .tc := ⟨.hbm, 489, rfl⟩
abbrev main_v236 : Ref sig .tc := ⟨.hbm, 490, rfl⟩
abbrev main_v237 : Ref sig .tc := ⟨.hbm, 491, rfl⟩
abbrev main_v238 : Ref sig .tc := ⟨.hbm, 492, rfl⟩
abbrev main_v239 : Ref sig .tc := ⟨.hbm, 493, rfl⟩
abbrev main_v240 : Ref sig .tc := ⟨.hbm, 494, rfl⟩
abbrev main_v241 : Ref sig .tc := ⟨.hbm, 495, rfl⟩
abbrev main_v242 : Ref sig .tc := ⟨.hbm, 496, rfl⟩
abbrev main_v243 : Ref sig .tc := ⟨.hbm, 497, rfl⟩
abbrev main_c_36 : Ref sig .tc := ⟨.hbm, 498, rfl⟩
abbrev main_call20_v0 : Ref sig .tc := ⟨.hbm, 499, rfl⟩
abbrev main_call20_v1 : Ref sig .tc := ⟨.hbm, 500, rfl⟩
abbrev main_call20_v2 : Ref sig .tc := ⟨.hbm, 501, rfl⟩
abbrev main_call20_v3 : Ref sig .tc := ⟨.hbm, 502, rfl⟩
abbrev main_call20_v4 : Ref sig .tc := ⟨.hbm, 503, rfl⟩
abbrev main_call20_v5 : Ref sig .tc := ⟨.hbm, 504, rfl⟩
abbrev main_call20_v6 : Ref sig .tc := ⟨.hbm, 505, rfl⟩
abbrev main_call20_v7 : Ref sig .tc := ⟨.hbm, 506, rfl⟩
abbrev main_call20_v8 : Ref sig .tc := ⟨.hbm, 507, rfl⟩
abbrev main_call20_c : Ref sig .tc := ⟨.hbm, 508, rfl⟩
abbrev main_call20_v9 : Ref sig .tc := ⟨.hbm, 509, rfl⟩
abbrev main_call20_v10 : Ref sig .tc := ⟨.hbm, 510, rfl⟩
abbrev main_call20_v11 : Ref sig .tc := ⟨.hbm, 511, rfl⟩
abbrev main_call20_c_0 : Ref sig .tc := ⟨.hbm, 512, rfl⟩
abbrev main_call20_v12 : Ref sig .tc := ⟨.hbm, 513, rfl⟩
abbrev main_call20_v13 : Ref sig .tc := ⟨.hbm, 514, rfl⟩
abbrev main_v244 : Ref sig .tc := ⟨.hbm, 515, rfl⟩
abbrev main_v245 : Ref sig .tc := ⟨.hbm, 516, rfl⟩
abbrev main_v246 : Ref sig .tc := ⟨.hbm, 517, rfl⟩
abbrev main_c_37 : Ref sig .tc := ⟨.hbm, 518, rfl⟩
abbrev main_v247 : Ref sig .tc := ⟨.hbm, 519, rfl⟩
abbrev main_v248 : Ref sig .tc := ⟨.hbm, 520, rfl⟩
abbrev main_v249 : Ref sig .tc := ⟨.hbm, 521, rfl⟩
abbrev main_v250 : Ref sig .tc := ⟨.hbm, 522, rfl⟩
abbrev main_v251 : Ref sig .tc := ⟨.hbm, 523, rfl⟩
abbrev main_c_38 : Ref sig .tc := ⟨.hbm, 524, rfl⟩
abbrev main_call21_v0 : Ref sig .tc := ⟨.hbm, 525, rfl⟩
abbrev main_call21_v1 : Ref sig .tc := ⟨.hbm, 526, rfl⟩
abbrev main_call21_v2 : Ref sig .tc := ⟨.hbm, 527, rfl⟩
abbrev main_call21_v3 : Ref sig .tc := ⟨.hbm, 528, rfl⟩
abbrev main_call21_v4 : Ref sig .tc := ⟨.hbm, 529, rfl⟩
abbrev main_call21_v5 : Ref sig .tc := ⟨.hbm, 530, rfl⟩
abbrev main_call21_v6 : Ref sig .tc := ⟨.hbm, 531, rfl⟩
abbrev main_call21_v7 : Ref sig .tc := ⟨.hbm, 532, rfl⟩
abbrev main_call21_v8 : Ref sig .tc := ⟨.hbm, 533, rfl⟩
abbrev main_call21_c : Ref sig .tc := ⟨.hbm, 534, rfl⟩
abbrev main_call21_v9 : Ref sig .tc := ⟨.hbm, 535, rfl⟩
abbrev main_call21_v10 : Ref sig .tc := ⟨.hbm, 536, rfl⟩
abbrev main_call21_v11 : Ref sig .tc := ⟨.hbm, 537, rfl⟩
abbrev main_call21_c_0 : Ref sig .tc := ⟨.hbm, 538, rfl⟩
abbrev main_call21_v12 : Ref sig .tc := ⟨.hbm, 539, rfl⟩
abbrev main_call21_v13 : Ref sig .tc := ⟨.hbm, 540, rfl⟩
abbrev main_v252 : Ref sig .tc := ⟨.hbm, 541, rfl⟩
abbrev main_v253 : Ref sig .tc := ⟨.hbm, 542, rfl⟩
abbrev main_v254 : Ref sig .tc := ⟨.hbm, 543, rfl⟩
abbrev main_v255 : Ref sig .tc := ⟨.hbm, 544, rfl⟩
abbrev main_v256 : Ref sig .tc := ⟨.hbm, 545, rfl⟩
abbrev main_c_39 : Ref sig .tc := ⟨.hbm, 546, rfl⟩
abbrev main_call22_v0 : Ref sig .tc := ⟨.hbm, 547, rfl⟩
abbrev main_call22_v1 : Ref sig .tc := ⟨.hbm, 548, rfl⟩
abbrev main_call22_v2 : Ref sig .tc := ⟨.hbm, 549, rfl⟩
abbrev main_call22_v3 : Ref sig .tc := ⟨.hbm, 550, rfl⟩
abbrev main_call22_v4 : Ref sig .tc := ⟨.hbm, 551, rfl⟩
abbrev main_call22_v5 : Ref sig .tc := ⟨.hbm, 552, rfl⟩
abbrev main_call22_v6 : Ref sig .tc := ⟨.hbm, 553, rfl⟩
abbrev main_call22_v7 : Ref sig .tc := ⟨.hbm, 554, rfl⟩
abbrev main_call22_v8 : Ref sig .tc := ⟨.hbm, 555, rfl⟩
abbrev main_call22_c : Ref sig .tc := ⟨.hbm, 556, rfl⟩
abbrev main_call22_v9 : Ref sig .tc := ⟨.hbm, 557, rfl⟩
abbrev main_call22_v10 : Ref sig .tc := ⟨.hbm, 558, rfl⟩
abbrev main_call22_v11 : Ref sig .tc := ⟨.hbm, 559, rfl⟩
abbrev main_call22_c_0 : Ref sig .tc := ⟨.hbm, 560, rfl⟩
abbrev main_call22_v12 : Ref sig .tc := ⟨.hbm, 561, rfl⟩
abbrev main_call22_v13 : Ref sig .tc := ⟨.hbm, 562, rfl⟩
abbrev main_v257 : Ref sig .tc := ⟨.hbm, 563, rfl⟩
abbrev main_v258 : Ref sig .tc := ⟨.hbm, 564, rfl⟩
abbrev main_v259 : Ref sig .tc := ⟨.hbm, 565, rfl⟩
abbrev main_c_40 : Ref sig .tc := ⟨.hbm, 566, rfl⟩
abbrev main_v260 : Ref sig .tc := ⟨.hbm, 567, rfl⟩
abbrev main_v261 : Ref sig .tc := ⟨.hbm, 568, rfl⟩
abbrev main_v262 : Ref sig .tc := ⟨.hbm, 569, rfl⟩
abbrev main_v263 : Ref sig .tc := ⟨.hbm, 570, rfl⟩
abbrev main_v264 : Ref sig .tc := ⟨.hbm, 571, rfl⟩
abbrev main_c_41 : Ref sig .tc := ⟨.hbm, 572, rfl⟩
abbrev main_call23_v0 : Ref sig .tc := ⟨.hbm, 573, rfl⟩
abbrev main_call23_v1 : Ref sig .tc := ⟨.hbm, 574, rfl⟩
abbrev main_call23_v2 : Ref sig .tc := ⟨.hbm, 575, rfl⟩
abbrev main_call23_v3 : Ref sig .tc := ⟨.hbm, 576, rfl⟩
abbrev main_call23_v4 : Ref sig .tc := ⟨.hbm, 577, rfl⟩
abbrev main_call23_v5 : Ref sig .tc := ⟨.hbm, 578, rfl⟩
abbrev main_call23_v6 : Ref sig .tc := ⟨.hbm, 579, rfl⟩
abbrev main_call23_v7 : Ref sig .tc := ⟨.hbm, 580, rfl⟩
abbrev main_call23_v8 : Ref sig .tc := ⟨.hbm, 581, rfl⟩
abbrev main_call23_c : Ref sig .tc := ⟨.hbm, 582, rfl⟩
abbrev main_call23_v9 : Ref sig .tc := ⟨.hbm, 583, rfl⟩
abbrev main_call23_v10 : Ref sig .tc := ⟨.hbm, 584, rfl⟩
abbrev main_call23_v11 : Ref sig .tc := ⟨.hbm, 585, rfl⟩
abbrev main_call23_c_0 : Ref sig .tc := ⟨.hbm, 586, rfl⟩
abbrev main_call23_v12 : Ref sig .tc := ⟨.hbm, 587, rfl⟩
abbrev main_call23_v13 : Ref sig .tc := ⟨.hbm, 588, rfl⟩
abbrev main_v265 : Ref sig .tc := ⟨.hbm, 589, rfl⟩
abbrev main_v266 : Ref sig .tc := ⟨.hbm, 590, rfl⟩
abbrev main_v267 : Ref sig .tc := ⟨.hbm, 591, rfl⟩
abbrev main_v268 : Ref sig .tc := ⟨.hbm, 592, rfl⟩
abbrev main_v269 : Ref sig .tc := ⟨.hbm, 593, rfl⟩
abbrev main_v270 : Ref sig .tc := ⟨.hbm, 594, rfl⟩
abbrev main_v271 : Ref sig .tc := ⟨.hbm, 595, rfl⟩
abbrev main_v272 : Ref sig .tc := ⟨.hbm, 596, rfl⟩
abbrev main_v273 : Ref sig .tc := ⟨.hbm, 597, rfl⟩
abbrev main_v274 : Ref sig .tc := ⟨.hbm, 598, rfl⟩
abbrev main_v275 : Ref sig .tc := ⟨.hbm, 599, rfl⟩
abbrev main_v276 : Ref sig .tc := ⟨.hbm, 600, rfl⟩
abbrev main_v277 : Ref sig .tc := ⟨.hbm, 601, rfl⟩
abbrev main_v278 : Ref sig .tc := ⟨.hbm, 602, rfl⟩
abbrev main_v279 : Ref sig .tc := ⟨.hbm, 603, rfl⟩
abbrev main_v280 : Ref sig .tc := ⟨.hbm, 604, rfl⟩
abbrev main_v281 : Ref sig .tc := ⟨.hbm, 605, rfl⟩
abbrev main_v282 : Ref sig .tc := ⟨.hbm, 606, rfl⟩
abbrev main_v283 : Ref sig .tc := ⟨.hbm, 607, rfl⟩
abbrev main_v284 : Ref sig .tc := ⟨.hbm, 608, rfl⟩
abbrev main_v285 : Ref sig .tc := ⟨.hbm, 609, rfl⟩
abbrev main_v286 : Ref sig .tc := ⟨.hbm, 610, rfl⟩
abbrev main_v287 : Ref sig .tc := ⟨.hbm, 611, rfl⟩
abbrev main_v288 : Ref sig .tc := ⟨.hbm, 612, rfl⟩
abbrev main_v289 : Ref sig .tc := ⟨.hbm, 613, rfl⟩
abbrev main_v290 : Ref sig .tc := ⟨.hbm, 614, rfl⟩
abbrev main_v291 : Ref sig .tc := ⟨.hbm, 615, rfl⟩
abbrev main_v292 : Ref sig .tc := ⟨.hbm, 616, rfl⟩
abbrev main_v293 : Ref sig .tc := ⟨.hbm, 617, rfl⟩
abbrev main_cst_42 : Ref sig .tc := ⟨.hbm, 618, rfl⟩
abbrev main_call24_v0 : Ref sig .tc := ⟨.hbm, 619, rfl⟩
abbrev main_call24_v1 : Ref sig .tc := ⟨.hbm, 620, rfl⟩
abbrev main_call24_v2 : Ref sig .tc := ⟨.hbm, 621, rfl⟩
abbrev main_v294 : Ref sig .tc := ⟨.hbm, 622, rfl⟩
abbrev main_cst_43 : Ref sig .tc := ⟨.hbm, 623, rfl⟩
abbrev main_v295 : Ref sig .tc := ⟨.hbm, 624, rfl⟩
abbrev main_v296 : Ref sig .tc := ⟨.hbm, 625, rfl⟩
abbrev main_v297 : Ref sig .tc := ⟨.hbm, 626, rfl⟩
abbrev main_cst_44 : Ref sig .tc := ⟨.hbm, 627, rfl⟩
abbrev main_call25_v0 : Ref sig .tc := ⟨.hbm, 628, rfl⟩
abbrev main_call25_v1 : Ref sig .tc := ⟨.hbm, 629, rfl⟩
abbrev main_call25_v2 : Ref sig .tc := ⟨.hbm, 630, rfl⟩
abbrev main_v298 : Ref sig .tc := ⟨.hbm, 631, rfl⟩
abbrev main_cst_45 : Ref sig .tc := ⟨.hbm, 632, rfl⟩
abbrev main_v299 : Ref sig .tc := ⟨.hbm, 633, rfl⟩
abbrev main_v300 : Ref sig .tc := ⟨.hbm, 634, rfl⟩
abbrev main_v301 : Ref sig .tc := ⟨.hbm, 635, rfl⟩
abbrev main_v302 : Ref sig .tc := ⟨.hbm, 636, rfl⟩
abbrev main_v303 : Ref sig .tc := ⟨.hbm, 637, rfl⟩
abbrev main_v304 : Ref sig .tc := ⟨.hbm, 638, rfl⟩
abbrev main_v305 : Ref sig .tc := ⟨.hbm, 639, rfl⟩
abbrev main_v306 : Ref sig .tc := ⟨.hbm, 640, rfl⟩
abbrev main_v307 : Ref sig .tc := ⟨.hbm, 641, rfl⟩
abbrev main_v308 : Ref sig .tc := ⟨.hbm, 642, rfl⟩
abbrev main_v309 : Ref sig .tc := ⟨.hbm, 643, rfl⟩
abbrev main_v310 : Ref sig .tc := ⟨.hbm, 644, rfl⟩
abbrev main_v311 : Ref sig .tc := ⟨.hbm, 645, rfl⟩
abbrev main_v312 : Ref sig .tc := ⟨.hbm, 646, rfl⟩
abbrev main_v313 : Ref sig .tc := ⟨.hbm, 647, rfl⟩
abbrev main_v314 : Ref sig .tc := ⟨.hbm, 648, rfl⟩
abbrev main_v315 : Ref sig .tc := ⟨.hbm, 649, rfl⟩
abbrev main_v316 : Ref sig .tc := ⟨.hbm, 650, rfl⟩
abbrev main_v317 : Ref sig .tc := ⟨.hbm, 651, rfl⟩
abbrev main_v318 : Ref sig .tc := ⟨.hbm, 652, rfl⟩
abbrev main_v319 : Ref sig .tc := ⟨.hbm, 653, rfl⟩
abbrev main_v320 : Ref sig .tc := ⟨.hbm, 654, rfl⟩
abbrev main_v321 : Ref sig .tc := ⟨.hbm, 655, rfl⟩
abbrev main_v322 : Ref sig .tc := ⟨.hbm, 656, rfl⟩
abbrev main_v323 : Ref sig .tc := ⟨.hbm, 657, rfl⟩
abbrev main_v324 : Ref sig .tc := ⟨.hbm, 658, rfl⟩
abbrev main_v325 : Ref sig .tc := ⟨.hbm, 659, rfl⟩
abbrev main_v326 : Ref sig .tc := ⟨.hbm, 660, rfl⟩
abbrev main_v327 : Ref sig .tc := ⟨.hbm, 661, rfl⟩
abbrev main_c_46 : Ref sig .tc := ⟨.hbm, 662, rfl⟩
abbrev main_call26_v0 : Ref sig .tc := ⟨.hbm, 663, rfl⟩
abbrev main_call26_v1 : Ref sig .tc := ⟨.hbm, 664, rfl⟩
abbrev main_call26_v2 : Ref sig .tc := ⟨.hbm, 665, rfl⟩
abbrev main_call26_v3 : Ref sig .tc := ⟨.hbm, 666, rfl⟩
abbrev main_call26_v4 : Ref sig .tc := ⟨.hbm, 667, rfl⟩
abbrev main_call26_v5 : Ref sig .tc := ⟨.hbm, 668, rfl⟩
abbrev main_call26_v6 : Ref sig .tc := ⟨.hbm, 669, rfl⟩
abbrev main_call26_v7 : Ref sig .tc := ⟨.hbm, 670, rfl⟩
abbrev main_call26_v8 : Ref sig .tc := ⟨.hbm, 671, rfl⟩
abbrev main_call26_c : Ref sig .tc := ⟨.hbm, 672, rfl⟩
abbrev main_call26_v9 : Ref sig .tc := ⟨.hbm, 673, rfl⟩
abbrev main_call26_v10 : Ref sig .tc := ⟨.hbm, 674, rfl⟩
abbrev main_call26_v11 : Ref sig .tc := ⟨.hbm, 675, rfl⟩
abbrev main_call26_c_0 : Ref sig .tc := ⟨.hbm, 676, rfl⟩
abbrev main_call26_v12 : Ref sig .tc := ⟨.hbm, 677, rfl⟩
abbrev main_call26_v13 : Ref sig .tc := ⟨.hbm, 678, rfl⟩
abbrev main_v328 : Ref sig .tc := ⟨.hbm, 679, rfl⟩
abbrev main_v329 : Ref sig .tc := ⟨.hbm, 680, rfl⟩
abbrev main_v330 : Ref sig .tc := ⟨.hbm, 681, rfl⟩
abbrev main_c_47 : Ref sig .tc := ⟨.hbm, 682, rfl⟩
abbrev main_v331 : Ref sig .tc := ⟨.hbm, 683, rfl⟩
abbrev main_v332 : Ref sig .tc := ⟨.hbm, 684, rfl⟩
abbrev main_v333 : Ref sig .tc := ⟨.hbm, 685, rfl⟩
abbrev main_v334 : Ref sig .tc := ⟨.hbm, 686, rfl⟩
abbrev main_v335 : Ref sig .tc := ⟨.hbm, 687, rfl⟩
abbrev main_c_48 : Ref sig .tc := ⟨.hbm, 688, rfl⟩
abbrev main_call27_v0 : Ref sig .tc := ⟨.hbm, 689, rfl⟩
abbrev main_call27_v1 : Ref sig .tc := ⟨.hbm, 690, rfl⟩
abbrev main_call27_v2 : Ref sig .tc := ⟨.hbm, 691, rfl⟩
abbrev main_call27_v3 : Ref sig .tc := ⟨.hbm, 692, rfl⟩
abbrev main_call27_v4 : Ref sig .tc := ⟨.hbm, 693, rfl⟩
abbrev main_call27_v5 : Ref sig .tc := ⟨.hbm, 694, rfl⟩
abbrev main_call27_v6 : Ref sig .tc := ⟨.hbm, 695, rfl⟩
abbrev main_call27_v7 : Ref sig .tc := ⟨.hbm, 696, rfl⟩
abbrev main_call27_v8 : Ref sig .tc := ⟨.hbm, 697, rfl⟩
abbrev main_call27_c : Ref sig .tc := ⟨.hbm, 698, rfl⟩
abbrev main_call27_v9 : Ref sig .tc := ⟨.hbm, 699, rfl⟩
abbrev main_call27_v10 : Ref sig .tc := ⟨.hbm, 700, rfl⟩
abbrev main_call27_v11 : Ref sig .tc := ⟨.hbm, 701, rfl⟩
abbrev main_call27_c_0 : Ref sig .tc := ⟨.hbm, 702, rfl⟩
abbrev main_call27_v12 : Ref sig .tc := ⟨.hbm, 703, rfl⟩
abbrev main_call27_v13 : Ref sig .tc := ⟨.hbm, 704, rfl⟩
abbrev main_v336 : Ref sig .tc := ⟨.hbm, 705, rfl⟩
abbrev main_v337 : Ref sig .tc := ⟨.hbm, 706, rfl⟩
abbrev main_v338 : Ref sig .tc := ⟨.hbm, 707, rfl⟩
abbrev main_v339 : Ref sig .tc := ⟨.hbm, 708, rfl⟩
abbrev main_v340 : Ref sig .tc := ⟨.hbm, 709, rfl⟩
abbrev main_c_49 : Ref sig .tc := ⟨.hbm, 710, rfl⟩
abbrev main_call28_v0 : Ref sig .tc := ⟨.hbm, 711, rfl⟩
abbrev main_call28_v1 : Ref sig .tc := ⟨.hbm, 712, rfl⟩
abbrev main_call28_v2 : Ref sig .tc := ⟨.hbm, 713, rfl⟩
abbrev main_call28_v3 : Ref sig .tc := ⟨.hbm, 714, rfl⟩
abbrev main_call28_v4 : Ref sig .tc := ⟨.hbm, 715, rfl⟩
abbrev main_call28_v5 : Ref sig .tc := ⟨.hbm, 716, rfl⟩
abbrev main_call28_v6 : Ref sig .tc := ⟨.hbm, 717, rfl⟩
abbrev main_call28_v7 : Ref sig .tc := ⟨.hbm, 718, rfl⟩
abbrev main_call28_v8 : Ref sig .tc := ⟨.hbm, 719, rfl⟩
abbrev main_call28_c : Ref sig .tc := ⟨.hbm, 720, rfl⟩
abbrev main_call28_v9 : Ref sig .tc := ⟨.hbm, 721, rfl⟩
abbrev main_call28_v10 : Ref sig .tc := ⟨.hbm, 722, rfl⟩
abbrev main_call28_v11 : Ref sig .tc := ⟨.hbm, 723, rfl⟩
abbrev main_call28_c_0 : Ref sig .tc := ⟨.hbm, 724, rfl⟩
abbrev main_call28_v12 : Ref sig .tc := ⟨.hbm, 725, rfl⟩
abbrev main_call28_v13 : Ref sig .tc := ⟨.hbm, 726, rfl⟩
abbrev main_v341 : Ref sig .tc := ⟨.hbm, 727, rfl⟩
abbrev main_v342 : Ref sig .tc := ⟨.hbm, 728, rfl⟩
abbrev main_v343 : Ref sig .tc := ⟨.hbm, 729, rfl⟩
abbrev main_c_50 : Ref sig .tc := ⟨.hbm, 730, rfl⟩
abbrev main_v344 : Ref sig .tc := ⟨.hbm, 731, rfl⟩
abbrev main_v345 : Ref sig .tc := ⟨.hbm, 732, rfl⟩
abbrev main_v346 : Ref sig .tc := ⟨.hbm, 733, rfl⟩
abbrev main_v347 : Ref sig .tc := ⟨.hbm, 734, rfl⟩
abbrev main_v348 : Ref sig .tc := ⟨.hbm, 735, rfl⟩
abbrev main_c_51 : Ref sig .tc := ⟨.hbm, 736, rfl⟩
abbrev main_call29_v0 : Ref sig .tc := ⟨.hbm, 737, rfl⟩
abbrev main_call29_v1 : Ref sig .tc := ⟨.hbm, 738, rfl⟩
abbrev main_call29_v2 : Ref sig .tc := ⟨.hbm, 739, rfl⟩
abbrev main_call29_v3 : Ref sig .tc := ⟨.hbm, 740, rfl⟩
abbrev main_call29_v4 : Ref sig .tc := ⟨.hbm, 741, rfl⟩
abbrev main_call29_v5 : Ref sig .tc := ⟨.hbm, 742, rfl⟩
abbrev main_call29_v6 : Ref sig .tc := ⟨.hbm, 743, rfl⟩
abbrev main_call29_v7 : Ref sig .tc := ⟨.hbm, 744, rfl⟩
abbrev main_call29_v8 : Ref sig .tc := ⟨.hbm, 745, rfl⟩
abbrev main_call29_c : Ref sig .tc := ⟨.hbm, 746, rfl⟩
abbrev main_call29_v9 : Ref sig .tc := ⟨.hbm, 747, rfl⟩
abbrev main_call29_v10 : Ref sig .tc := ⟨.hbm, 748, rfl⟩
abbrev main_call29_v11 : Ref sig .tc := ⟨.hbm, 749, rfl⟩
abbrev main_call29_c_0 : Ref sig .tc := ⟨.hbm, 750, rfl⟩
abbrev main_call29_v12 : Ref sig .tc := ⟨.hbm, 751, rfl⟩
abbrev main_call29_v13 : Ref sig .tc := ⟨.hbm, 752, rfl⟩
abbrev main_v349 : Ref sig .tc := ⟨.hbm, 753, rfl⟩
abbrev main_v350 : Ref sig .tc := ⟨.hbm, 754, rfl⟩
abbrev main_v351 : Ref sig .tc := ⟨.hbm, 755, rfl⟩
abbrev main_v352 : Ref sig .tc := ⟨.hbm, 756, rfl⟩
abbrev main_v353 : Ref sig .tc := ⟨.hbm, 757, rfl⟩
abbrev main_v354 : Ref sig .tc := ⟨.hbm, 758, rfl⟩
abbrev main_v355 : Ref sig .tc := ⟨.hbm, 759, rfl⟩
abbrev main_v356 : Ref sig .tc := ⟨.hbm, 760, rfl⟩
abbrev main_v357 : Ref sig .tc := ⟨.hbm, 761, rfl⟩
abbrev main_v358 : Ref sig .tc := ⟨.hbm, 762, rfl⟩
abbrev main_v359 : Ref sig .tc := ⟨.hbm, 763, rfl⟩
abbrev main_v360 : Ref sig .tc := ⟨.hbm, 764, rfl⟩
abbrev main_v361 : Ref sig .tc := ⟨.hbm, 765, rfl⟩
abbrev main_v362 : Ref sig .tc := ⟨.hbm, 766, rfl⟩
abbrev main_v363 : Ref sig .tc := ⟨.hbm, 767, rfl⟩
abbrev main_v364 : Ref sig .tc := ⟨.hbm, 768, rfl⟩
abbrev main_v365 : Ref sig .tc := ⟨.hbm, 769, rfl⟩
abbrev main_v366 : Ref sig .tc := ⟨.hbm, 770, rfl⟩
abbrev main_v367 : Ref sig .tc := ⟨.hbm, 771, rfl⟩
abbrev main_v368 : Ref sig .tc := ⟨.hbm, 772, rfl⟩
abbrev main_v369 : Ref sig .tc := ⟨.hbm, 773, rfl⟩
abbrev main_v370 : Ref sig .tc := ⟨.hbm, 774, rfl⟩
abbrev main_v371 : Ref sig .tc := ⟨.hbm, 775, rfl⟩
abbrev main_v372 : Ref sig .tc := ⟨.hbm, 776, rfl⟩
abbrev main_v373 : Ref sig .tc := ⟨.hbm, 777, rfl⟩
abbrev main_v374 : Ref sig .tc := ⟨.hbm, 778, rfl⟩
abbrev main_v375 : Ref sig .tc := ⟨.hbm, 779, rfl⟩
abbrev main_v376 : Ref sig .tc := ⟨.hbm, 780, rfl⟩
abbrev main_v377 : Ref sig .tc := ⟨.hbm, 781, rfl⟩
abbrev main_cst_52 : Ref sig .tc := ⟨.hbm, 782, rfl⟩
abbrev main_call30_v0 : Ref sig .tc := ⟨.hbm, 783, rfl⟩
abbrev main_call30_v1 : Ref sig .tc := ⟨.hbm, 784, rfl⟩
abbrev main_call30_v2 : Ref sig .tc := ⟨.hbm, 785, rfl⟩
abbrev main_v378 : Ref sig .tc := ⟨.hbm, 786, rfl⟩
abbrev main_cst_53 : Ref sig .tc := ⟨.hbm, 787, rfl⟩
abbrev main_v379 : Ref sig .tc := ⟨.hbm, 788, rfl⟩
abbrev main_v380 : Ref sig .tc := ⟨.hbm, 789, rfl⟩
abbrev main_v381 : Ref sig .tc := ⟨.hbm, 790, rfl⟩
abbrev main_cst_54 : Ref sig .tc := ⟨.hbm, 791, rfl⟩
abbrev main_call31_v0 : Ref sig .tc := ⟨.hbm, 792, rfl⟩
abbrev main_call31_v1 : Ref sig .tc := ⟨.hbm, 793, rfl⟩
abbrev main_call31_v2 : Ref sig .tc := ⟨.hbm, 794, rfl⟩
abbrev main_v382 : Ref sig .tc := ⟨.hbm, 795, rfl⟩
abbrev main_cst_55 : Ref sig .tc := ⟨.hbm, 796, rfl⟩
abbrev main_v383 : Ref sig .tc := ⟨.hbm, 797, rfl⟩
abbrev main_v384 : Ref sig .tc := ⟨.hbm, 798, rfl⟩
abbrev main_v385 : Ref sig .tc := ⟨.hbm, 799, rfl⟩
abbrev main_v386 : Ref sig .tc := ⟨.hbm, 800, rfl⟩
abbrev main_v387 : Ref sig .tc := ⟨.hbm, 801, rfl⟩
abbrev main_v388 : Ref sig .tc := ⟨.hbm, 802, rfl⟩
abbrev main_v389 : Ref sig .tc := ⟨.hbm, 803, rfl⟩
abbrev main_v390 : Ref sig .tc := ⟨.hbm, 804, rfl⟩
abbrev main_v391 : Ref sig .tc := ⟨.hbm, 805, rfl⟩
abbrev main_v392 : Ref sig .tc := ⟨.hbm, 806, rfl⟩
abbrev main_v393 : Ref sig .tc := ⟨.hbm, 807, rfl⟩
abbrev main_v394 : Ref sig .tc := ⟨.hbm, 808, rfl⟩
abbrev main_v395 : Ref sig .tc := ⟨.hbm, 809, rfl⟩
abbrev main_v396 : Ref sig .tc := ⟨.hbm, 810, rfl⟩
abbrev main_v397 : Ref sig .tc := ⟨.hbm, 811, rfl⟩
abbrev main_v398 : Ref sig .tc := ⟨.hbm, 812, rfl⟩
abbrev main_v399 : Ref sig .tc := ⟨.hbm, 813, rfl⟩
abbrev main_v400 : Ref sig .tc := ⟨.hbm, 814, rfl⟩
abbrev main_v401 : Ref sig .tc := ⟨.hbm, 815, rfl⟩
abbrev main_v402 : Ref sig .tc := ⟨.hbm, 816, rfl⟩
abbrev main_v403 : Ref sig .tc := ⟨.hbm, 817, rfl⟩
abbrev main_v404 : Ref sig .tc := ⟨.hbm, 818, rfl⟩
abbrev main_v405 : Ref sig .tc := ⟨.hbm, 819, rfl⟩
abbrev main_v406 : Ref sig .tc := ⟨.hbm, 820, rfl⟩
abbrev main_v407 : Ref sig .tc := ⟨.hbm, 821, rfl⟩
abbrev main_v408 : Ref sig .tc := ⟨.hbm, 822, rfl⟩
abbrev main_v409 : Ref sig .tc := ⟨.hbm, 823, rfl⟩
abbrev main_v410 : Ref sig .tc := ⟨.hbm, 824, rfl⟩
abbrev main_v411 : Ref sig .tc := ⟨.hbm, 825, rfl⟩
abbrev main_c_56 : Ref sig .tc := ⟨.hbm, 826, rfl⟩
abbrev main_call32_v0 : Ref sig .tc := ⟨.hbm, 827, rfl⟩
abbrev main_call32_v1 : Ref sig .tc := ⟨.hbm, 828, rfl⟩
abbrev main_call32_v2 : Ref sig .tc := ⟨.hbm, 829, rfl⟩
abbrev main_call32_v3 : Ref sig .tc := ⟨.hbm, 830, rfl⟩
abbrev main_call32_v4 : Ref sig .tc := ⟨.hbm, 831, rfl⟩
abbrev main_call32_v5 : Ref sig .tc := ⟨.hbm, 832, rfl⟩
abbrev main_call32_v6 : Ref sig .tc := ⟨.hbm, 833, rfl⟩
abbrev main_call32_v7 : Ref sig .tc := ⟨.hbm, 834, rfl⟩
abbrev main_call32_v8 : Ref sig .tc := ⟨.hbm, 835, rfl⟩
abbrev main_call32_c : Ref sig .tc := ⟨.hbm, 836, rfl⟩
abbrev main_call32_v9 : Ref sig .tc := ⟨.hbm, 837, rfl⟩
abbrev main_call32_v10 : Ref sig .tc := ⟨.hbm, 838, rfl⟩
abbrev main_call32_v11 : Ref sig .tc := ⟨.hbm, 839, rfl⟩
abbrev main_call32_c_0 : Ref sig .tc := ⟨.hbm, 840, rfl⟩
abbrev main_call32_v12 : Ref sig .tc := ⟨.hbm, 841, rfl⟩
abbrev main_call32_v13 : Ref sig .tc := ⟨.hbm, 842, rfl⟩
abbrev main_v412 : Ref sig .tc := ⟨.hbm, 843, rfl⟩
abbrev main_v413 : Ref sig .tc := ⟨.hbm, 844, rfl⟩
abbrev main_v414 : Ref sig .tc := ⟨.hbm, 845, rfl⟩
abbrev main_c_57 : Ref sig .tc := ⟨.hbm, 846, rfl⟩
abbrev main_v415 : Ref sig .tc := ⟨.hbm, 847, rfl⟩
abbrev main_v416 : Ref sig .tc := ⟨.hbm, 848, rfl⟩
abbrev main_v417 : Ref sig .tc := ⟨.hbm, 849, rfl⟩
abbrev main_v418 : Ref sig .tc := ⟨.hbm, 850, rfl⟩
abbrev main_v419 : Ref sig .tc := ⟨.hbm, 851, rfl⟩
abbrev main_c_58 : Ref sig .tc := ⟨.hbm, 852, rfl⟩
abbrev main_call33_v0 : Ref sig .tc := ⟨.hbm, 853, rfl⟩
abbrev main_call33_v1 : Ref sig .tc := ⟨.hbm, 854, rfl⟩
abbrev main_call33_v2 : Ref sig .tc := ⟨.hbm, 855, rfl⟩
abbrev main_call33_v3 : Ref sig .tc := ⟨.hbm, 856, rfl⟩
abbrev main_call33_v4 : Ref sig .tc := ⟨.hbm, 857, rfl⟩
abbrev main_call33_v5 : Ref sig .tc := ⟨.hbm, 858, rfl⟩
abbrev main_call33_v6 : Ref sig .tc := ⟨.hbm, 859, rfl⟩
abbrev main_call33_v7 : Ref sig .tc := ⟨.hbm, 860, rfl⟩
abbrev main_call33_v8 : Ref sig .tc := ⟨.hbm, 861, rfl⟩
abbrev main_call33_c : Ref sig .tc := ⟨.hbm, 862, rfl⟩
abbrev main_call33_v9 : Ref sig .tc := ⟨.hbm, 863, rfl⟩
abbrev main_call33_v10 : Ref sig .tc := ⟨.hbm, 864, rfl⟩
abbrev main_call33_v11 : Ref sig .tc := ⟨.hbm, 865, rfl⟩
abbrev main_call33_c_0 : Ref sig .tc := ⟨.hbm, 866, rfl⟩
abbrev main_call33_v12 : Ref sig .tc := ⟨.hbm, 867, rfl⟩
abbrev main_call33_v13 : Ref sig .tc := ⟨.hbm, 868, rfl⟩
abbrev main_v420 : Ref sig .tc := ⟨.hbm, 869, rfl⟩
abbrev main_v421 : Ref sig .tc := ⟨.hbm, 870, rfl⟩
abbrev main_v422 : Ref sig .tc := ⟨.hbm, 871, rfl⟩
abbrev main_v423 : Ref sig .tc := ⟨.hbm, 872, rfl⟩
abbrev main_v424 : Ref sig .tc := ⟨.hbm, 873, rfl⟩
abbrev main_c_59 : Ref sig .tc := ⟨.hbm, 874, rfl⟩
abbrev main_call34_v0 : Ref sig .tc := ⟨.hbm, 875, rfl⟩
abbrev main_call34_v1 : Ref sig .tc := ⟨.hbm, 876, rfl⟩
abbrev main_call34_v2 : Ref sig .tc := ⟨.hbm, 877, rfl⟩
abbrev main_call34_v3 : Ref sig .tc := ⟨.hbm, 878, rfl⟩
abbrev main_call34_v4 : Ref sig .tc := ⟨.hbm, 879, rfl⟩
abbrev main_call34_v5 : Ref sig .tc := ⟨.hbm, 880, rfl⟩
abbrev main_call34_v6 : Ref sig .tc := ⟨.hbm, 881, rfl⟩
abbrev main_call34_v7 : Ref sig .tc := ⟨.hbm, 882, rfl⟩
abbrev main_call34_v8 : Ref sig .tc := ⟨.hbm, 883, rfl⟩
abbrev main_call34_c : Ref sig .tc := ⟨.hbm, 884, rfl⟩
abbrev main_call34_v9 : Ref sig .tc := ⟨.hbm, 885, rfl⟩
abbrev main_call34_v10 : Ref sig .tc := ⟨.hbm, 886, rfl⟩
abbrev main_call34_v11 : Ref sig .tc := ⟨.hbm, 887, rfl⟩
abbrev main_call34_c_0 : Ref sig .tc := ⟨.hbm, 888, rfl⟩
abbrev main_call34_v12 : Ref sig .tc := ⟨.hbm, 889, rfl⟩
abbrev main_call34_v13 : Ref sig .tc := ⟨.hbm, 890, rfl⟩
abbrev main_v425 : Ref sig .tc := ⟨.hbm, 891, rfl⟩
abbrev main_v426 : Ref sig .tc := ⟨.hbm, 892, rfl⟩
abbrev main_v427 : Ref sig .tc := ⟨.hbm, 893, rfl⟩
abbrev main_c_60 : Ref sig .tc := ⟨.hbm, 894, rfl⟩
abbrev main_v428 : Ref sig .tc := ⟨.hbm, 895, rfl⟩
abbrev main_v429 : Ref sig .tc := ⟨.hbm, 896, rfl⟩
abbrev main_v430 : Ref sig .tc := ⟨.hbm, 897, rfl⟩
abbrev main_v431 : Ref sig .tc := ⟨.hbm, 898, rfl⟩
abbrev main_v432 : Ref sig .tc := ⟨.hbm, 899, rfl⟩
abbrev main_c_61 : Ref sig .tc := ⟨.hbm, 900, rfl⟩
abbrev main_call35_v0 : Ref sig .tc := ⟨.hbm, 901, rfl⟩
abbrev main_call35_v1 : Ref sig .tc := ⟨.hbm, 902, rfl⟩
abbrev main_call35_v2 : Ref sig .tc := ⟨.hbm, 903, rfl⟩
abbrev main_call35_v3 : Ref sig .tc := ⟨.hbm, 904, rfl⟩
abbrev main_call35_v4 : Ref sig .tc := ⟨.hbm, 905, rfl⟩
abbrev main_call35_v5 : Ref sig .tc := ⟨.hbm, 906, rfl⟩
abbrev main_call35_v6 : Ref sig .tc := ⟨.hbm, 907, rfl⟩
abbrev main_call35_v7 : Ref sig .tc := ⟨.hbm, 908, rfl⟩
abbrev main_call35_v8 : Ref sig .tc := ⟨.hbm, 909, rfl⟩
abbrev main_call35_c : Ref sig .tc := ⟨.hbm, 910, rfl⟩
abbrev main_call35_v9 : Ref sig .tc := ⟨.hbm, 911, rfl⟩
abbrev main_call35_v10 : Ref sig .tc := ⟨.hbm, 912, rfl⟩
abbrev main_call35_v11 : Ref sig .tc := ⟨.hbm, 913, rfl⟩
abbrev main_call35_c_0 : Ref sig .tc := ⟨.hbm, 914, rfl⟩
abbrev main_call35_v12 : Ref sig .tc := ⟨.hbm, 915, rfl⟩
abbrev main_call35_v13 : Ref sig .tc := ⟨.hbm, 916, rfl⟩
abbrev main_v433 : Ref sig .tc := ⟨.hbm, 917, rfl⟩
abbrev main_v434 : Ref sig .tc := ⟨.hbm, 918, rfl⟩
abbrev main_v435 : Ref sig .tc := ⟨.hbm, 919, rfl⟩
abbrev main_v436 : Ref sig .tc := ⟨.hbm, 920, rfl⟩
abbrev main_v437 : Ref sig .tc := ⟨.hbm, 921, rfl⟩
abbrev main_v438 : Ref sig .tc := ⟨.hbm, 922, rfl⟩
abbrev main_v439 : Ref sig .tc := ⟨.hbm, 923, rfl⟩
abbrev main_v440 : Ref sig .tc := ⟨.hbm, 924, rfl⟩
abbrev main_v441 : Ref sig .tc := ⟨.hbm, 925, rfl⟩
abbrev main_v442 : Ref sig .tc := ⟨.hbm, 926, rfl⟩
abbrev main_v443 : Ref sig .tc := ⟨.hbm, 927, rfl⟩
abbrev main_v444 : Ref sig .tc := ⟨.hbm, 928, rfl⟩
abbrev main_v445 : Ref sig .tc := ⟨.hbm, 929, rfl⟩
abbrev main_v446 : Ref sig .tc := ⟨.hbm, 930, rfl⟩
abbrev main_v447 : Ref sig .tc := ⟨.hbm, 931, rfl⟩
abbrev main_v448 : Ref sig .tc := ⟨.hbm, 932, rfl⟩
abbrev main_v449 : Ref sig .tc := ⟨.hbm, 933, rfl⟩
abbrev main_v450 : Ref sig .tc := ⟨.hbm, 934, rfl⟩
abbrev main_v451 : Ref sig .tc := ⟨.hbm, 935, rfl⟩
abbrev main_v452 : Ref sig .tc := ⟨.hbm, 936, rfl⟩
abbrev main_v453 : Ref sig .tc := ⟨.hbm, 937, rfl⟩
abbrev main_v454 : Ref sig .tc := ⟨.hbm, 938, rfl⟩
abbrev main_v455 : Ref sig .tc := ⟨.hbm, 939, rfl⟩
abbrev main_v456 : Ref sig .tc := ⟨.hbm, 940, rfl⟩
abbrev main_v457 : Ref sig .tc := ⟨.hbm, 941, rfl⟩
abbrev main_v458 : Ref sig .tc := ⟨.hbm, 942, rfl⟩
abbrev main_v459 : Ref sig .tc := ⟨.hbm, 943, rfl⟩
abbrev main_v460 : Ref sig .tc := ⟨.hbm, 944, rfl⟩
abbrev main_v461 : Ref sig .tc := ⟨.hbm, 945, rfl⟩
abbrev main_cst_62 : Ref sig .tc := ⟨.hbm, 946, rfl⟩
abbrev main_call36_v0 : Ref sig .tc := ⟨.hbm, 947, rfl⟩
abbrev main_call36_v1 : Ref sig .tc := ⟨.hbm, 948, rfl⟩
abbrev main_call36_v2 : Ref sig .tc := ⟨.hbm, 949, rfl⟩
abbrev main_v462 : Ref sig .tc := ⟨.hbm, 950, rfl⟩
abbrev main_cst_63 : Ref sig .tc := ⟨.hbm, 951, rfl⟩
abbrev main_v463 : Ref sig .tc := ⟨.hbm, 952, rfl⟩
abbrev main_v464 : Ref sig .tc := ⟨.hbm, 953, rfl⟩
abbrev main_v465 : Ref sig .tc := ⟨.hbm, 954, rfl⟩
abbrev main_cst_64 : Ref sig .tc := ⟨.hbm, 955, rfl⟩
abbrev main_call37_v0 : Ref sig .tc := ⟨.hbm, 956, rfl⟩
abbrev main_call37_v1 : Ref sig .tc := ⟨.hbm, 957, rfl⟩
abbrev main_call37_v2 : Ref sig .tc := ⟨.hbm, 958, rfl⟩
abbrev main_v466 : Ref sig .tc := ⟨.hbm, 959, rfl⟩
abbrev main_cst_65 : Ref sig .tc := ⟨.hbm, 960, rfl⟩
abbrev main_v467 : Ref sig .tc := ⟨.hbm, 961, rfl⟩
abbrev main_v468 : Ref sig .tc := ⟨.hbm, 962, rfl⟩
abbrev main_v469 : Ref sig .tc := ⟨.hbm, 963, rfl⟩
abbrev main_v470 : Ref sig .tc := ⟨.hbm, 964, rfl⟩
abbrev main_v471 : Ref sig .tc := ⟨.hbm, 965, rfl⟩
abbrev main_v472 : Ref sig .tc := ⟨.hbm, 966, rfl⟩
abbrev main_v473 : Ref sig .tc := ⟨.hbm, 967, rfl⟩
abbrev main_v474 : Ref sig .tc := ⟨.hbm, 968, rfl⟩
abbrev main_v475 : Ref sig .tc := ⟨.hbm, 969, rfl⟩
abbrev main_v476 : Ref sig .tc := ⟨.hbm, 970, rfl⟩
abbrev main_v477 : Ref sig .tc := ⟨.hbm, 971, rfl⟩
abbrev main_v478 : Ref sig .tc := ⟨.hbm, 972, rfl⟩
abbrev main_v479 : Ref sig .tc := ⟨.hbm, 973, rfl⟩
abbrev main_v480 : Ref sig .tc := ⟨.hbm, 974, rfl⟩
abbrev main_v481 : Ref sig .tc := ⟨.hbm, 975, rfl⟩
abbrev main_v482 : Ref sig .tc := ⟨.hbm, 976, rfl⟩
abbrev main_v483 : Ref sig .tc := ⟨.hbm, 977, rfl⟩
abbrev main_v484 : Ref sig .tc := ⟨.hbm, 978, rfl⟩
abbrev main_v485 : Ref sig .tc := ⟨.hbm, 979, rfl⟩
abbrev main_v486 : Ref sig .tc := ⟨.hbm, 980, rfl⟩
abbrev main_v487 : Ref sig .tc := ⟨.hbm, 981, rfl⟩
abbrev main_v488 : Ref sig .tc := ⟨.hbm, 982, rfl⟩
abbrev main_v489 : Ref sig .tc := ⟨.hbm, 983, rfl⟩
abbrev main_v490 : Ref sig .tc := ⟨.hbm, 984, rfl⟩
abbrev main_v491 : Ref sig .tc := ⟨.hbm, 985, rfl⟩
abbrev main_v492 : Ref sig .tc := ⟨.hbm, 986, rfl⟩
abbrev main_v493 : Ref sig .tc := ⟨.hbm, 987, rfl⟩
abbrev main_v494 : Ref sig .tc := ⟨.hbm, 988, rfl⟩
abbrev main_v495 : Ref sig .tc := ⟨.hbm, 989, rfl⟩
abbrev main_c_66 : Ref sig .tc := ⟨.hbm, 990, rfl⟩
abbrev main_call38_v0 : Ref sig .tc := ⟨.hbm, 991, rfl⟩
abbrev main_call38_v1 : Ref sig .tc := ⟨.hbm, 992, rfl⟩
abbrev main_call38_v2 : Ref sig .tc := ⟨.hbm, 993, rfl⟩
abbrev main_call38_v3 : Ref sig .tc := ⟨.hbm, 994, rfl⟩
abbrev main_call38_v4 : Ref sig .tc := ⟨.hbm, 995, rfl⟩
abbrev main_call38_v5 : Ref sig .tc := ⟨.hbm, 996, rfl⟩
abbrev main_call38_v6 : Ref sig .tc := ⟨.hbm, 997, rfl⟩
abbrev main_call38_v7 : Ref sig .tc := ⟨.hbm, 998, rfl⟩
abbrev main_call38_v8 : Ref sig .tc := ⟨.hbm, 999, rfl⟩
abbrev main_call38_c : Ref sig .tc := ⟨.hbm, 1000, rfl⟩
abbrev main_call38_v9 : Ref sig .tc := ⟨.hbm, 1001, rfl⟩
abbrev main_call38_v10 : Ref sig .tc := ⟨.hbm, 1002, rfl⟩
abbrev main_call38_v11 : Ref sig .tc := ⟨.hbm, 1003, rfl⟩
abbrev main_call38_c_0 : Ref sig .tc := ⟨.hbm, 1004, rfl⟩
abbrev main_call38_v12 : Ref sig .tc := ⟨.hbm, 1005, rfl⟩
abbrev main_call38_v13 : Ref sig .tc := ⟨.hbm, 1006, rfl⟩
abbrev main_v496 : Ref sig .tc := ⟨.hbm, 1007, rfl⟩
abbrev main_v497 : Ref sig .tc := ⟨.hbm, 1008, rfl⟩
abbrev main_v498 : Ref sig .tc := ⟨.hbm, 1009, rfl⟩
abbrev main_c_67 : Ref sig .tc := ⟨.hbm, 1010, rfl⟩
abbrev main_v499 : Ref sig .tc := ⟨.hbm, 1011, rfl⟩
abbrev main_v500 : Ref sig .tc := ⟨.hbm, 1012, rfl⟩
abbrev main_v501 : Ref sig .tc := ⟨.hbm, 1013, rfl⟩
abbrev main_v502 : Ref sig .tc := ⟨.hbm, 1014, rfl⟩
abbrev main_v503 : Ref sig .tc := ⟨.hbm, 1015, rfl⟩
abbrev main_c_68 : Ref sig .tc := ⟨.hbm, 1016, rfl⟩
abbrev main_call39_v0 : Ref sig .tc := ⟨.hbm, 1017, rfl⟩
abbrev main_call39_v1 : Ref sig .tc := ⟨.hbm, 1018, rfl⟩
abbrev main_call39_v2 : Ref sig .tc := ⟨.hbm, 1019, rfl⟩
abbrev main_call39_v3 : Ref sig .tc := ⟨.hbm, 1020, rfl⟩
abbrev main_call39_v4 : Ref sig .tc := ⟨.hbm, 1021, rfl⟩
abbrev main_call39_v5 : Ref sig .tc := ⟨.hbm, 1022, rfl⟩
abbrev main_call39_v6 : Ref sig .tc := ⟨.hbm, 1023, rfl⟩
abbrev main_call39_v7 : Ref sig .tc := ⟨.hbm, 1024, rfl⟩
abbrev main_call39_v8 : Ref sig .tc := ⟨.hbm, 1025, rfl⟩
abbrev main_call39_c : Ref sig .tc := ⟨.hbm, 1026, rfl⟩
abbrev main_call39_v9 : Ref sig .tc := ⟨.hbm, 1027, rfl⟩
abbrev main_call39_v10 : Ref sig .tc := ⟨.hbm, 1028, rfl⟩
abbrev main_call39_v11 : Ref sig .tc := ⟨.hbm, 1029, rfl⟩
abbrev main_call39_c_0 : Ref sig .tc := ⟨.hbm, 1030, rfl⟩
abbrev main_call39_v12 : Ref sig .tc := ⟨.hbm, 1031, rfl⟩
abbrev main_call39_v13 : Ref sig .tc := ⟨.hbm, 1032, rfl⟩
abbrev main_v504 : Ref sig .tc := ⟨.hbm, 1033, rfl⟩
abbrev main_v505 : Ref sig .tc := ⟨.hbm, 1034, rfl⟩
abbrev main_v506 : Ref sig .tc := ⟨.hbm, 1035, rfl⟩
abbrev main_v507 : Ref sig .tc := ⟨.hbm, 1036, rfl⟩
abbrev main_v508 : Ref sig .tc := ⟨.hbm, 1037, rfl⟩
abbrev main_c_69 : Ref sig .tc := ⟨.hbm, 1038, rfl⟩
abbrev main_call40_v0 : Ref sig .tc := ⟨.hbm, 1039, rfl⟩
abbrev main_call40_v1 : Ref sig .tc := ⟨.hbm, 1040, rfl⟩
abbrev main_call40_v2 : Ref sig .tc := ⟨.hbm, 1041, rfl⟩
abbrev main_call40_v3 : Ref sig .tc := ⟨.hbm, 1042, rfl⟩
abbrev main_call40_v4 : Ref sig .tc := ⟨.hbm, 1043, rfl⟩
abbrev main_call40_v5 : Ref sig .tc := ⟨.hbm, 1044, rfl⟩
abbrev main_call40_v6 : Ref sig .tc := ⟨.hbm, 1045, rfl⟩
abbrev main_call40_v7 : Ref sig .tc := ⟨.hbm, 1046, rfl⟩
abbrev main_call40_v8 : Ref sig .tc := ⟨.hbm, 1047, rfl⟩
abbrev main_call40_c : Ref sig .tc := ⟨.hbm, 1048, rfl⟩
abbrev main_call40_v9 : Ref sig .tc := ⟨.hbm, 1049, rfl⟩
abbrev main_call40_v10 : Ref sig .tc := ⟨.hbm, 1050, rfl⟩
abbrev main_call40_v11 : Ref sig .tc := ⟨.hbm, 1051, rfl⟩
abbrev main_call40_c_0 : Ref sig .tc := ⟨.hbm, 1052, rfl⟩
abbrev main_call40_v12 : Ref sig .tc := ⟨.hbm, 1053, rfl⟩
abbrev main_call40_v13 : Ref sig .tc := ⟨.hbm, 1054, rfl⟩
abbrev main_v509 : Ref sig .tc := ⟨.hbm, 1055, rfl⟩
abbrev main_v510 : Ref sig .tc := ⟨.hbm, 1056, rfl⟩
abbrev main_v511 : Ref sig .tc := ⟨.hbm, 1057, rfl⟩
abbrev main_c_70 : Ref sig .tc := ⟨.hbm, 1058, rfl⟩
abbrev main_v512 : Ref sig .tc := ⟨.hbm, 1059, rfl⟩
abbrev main_v513 : Ref sig .tc := ⟨.hbm, 1060, rfl⟩
abbrev main_v514 : Ref sig .tc := ⟨.hbm, 1061, rfl⟩
abbrev main_v515 : Ref sig .tc := ⟨.hbm, 1062, rfl⟩
abbrev main_v516 : Ref sig .tc := ⟨.hbm, 1063, rfl⟩
abbrev main_c_71 : Ref sig .tc := ⟨.hbm, 1064, rfl⟩
abbrev main_call41_v0 : Ref sig .tc := ⟨.hbm, 1065, rfl⟩
abbrev main_call41_v1 : Ref sig .tc := ⟨.hbm, 1066, rfl⟩
abbrev main_call41_v2 : Ref sig .tc := ⟨.hbm, 1067, rfl⟩
abbrev main_call41_v3 : Ref sig .tc := ⟨.hbm, 1068, rfl⟩
abbrev main_call41_v4 : Ref sig .tc := ⟨.hbm, 1069, rfl⟩
abbrev main_call41_v5 : Ref sig .tc := ⟨.hbm, 1070, rfl⟩
abbrev main_call41_v6 : Ref sig .tc := ⟨.hbm, 1071, rfl⟩
abbrev main_call41_v7 : Ref sig .tc := ⟨.hbm, 1072, rfl⟩
abbrev main_call41_v8 : Ref sig .tc := ⟨.hbm, 1073, rfl⟩
abbrev main_call41_c : Ref sig .tc := ⟨.hbm, 1074, rfl⟩
abbrev main_call41_v9 : Ref sig .tc := ⟨.hbm, 1075, rfl⟩
abbrev main_call41_v10 : Ref sig .tc := ⟨.hbm, 1076, rfl⟩
abbrev main_call41_v11 : Ref sig .tc := ⟨.hbm, 1077, rfl⟩
abbrev main_call41_c_0 : Ref sig .tc := ⟨.hbm, 1078, rfl⟩
abbrev main_call41_v12 : Ref sig .tc := ⟨.hbm, 1079, rfl⟩
abbrev main_call41_v13 : Ref sig .tc := ⟨.hbm, 1080, rfl⟩
abbrev main_v517 : Ref sig .tc := ⟨.hbm, 1081, rfl⟩
abbrev main_v518 : Ref sig .tc := ⟨.hbm, 1082, rfl⟩
abbrev main_v519 : Ref sig .tc := ⟨.hbm, 1083, rfl⟩
abbrev main_v520 : Ref sig .tc := ⟨.hbm, 1084, rfl⟩
abbrev main_v521 : Ref sig .tc := ⟨.hbm, 1085, rfl⟩
abbrev main_v522 : Ref sig .tc := ⟨.hbm, 1086, rfl⟩
abbrev main_v523 : Ref sig .tc := ⟨.hbm, 1087, rfl⟩
abbrev main_v524 : Ref sig .tc := ⟨.hbm, 1088, rfl⟩
abbrev main_v525 : Ref sig .tc := ⟨.hbm, 1089, rfl⟩
abbrev main_v526 : Ref sig .tc := ⟨.hbm, 1090, rfl⟩
abbrev main_v527 : Ref sig .tc := ⟨.hbm, 1091, rfl⟩
abbrev main_v528 : Ref sig .tc := ⟨.hbm, 1092, rfl⟩
abbrev main_v529 : Ref sig .tc := ⟨.hbm, 1093, rfl⟩
abbrev main_v530 : Ref sig .tc := ⟨.hbm, 1094, rfl⟩
abbrev main_v531 : Ref sig .tc := ⟨.hbm, 1095, rfl⟩
abbrev main_v532 : Ref sig .tc := ⟨.hbm, 1096, rfl⟩
abbrev main_v533 : Ref sig .tc := ⟨.hbm, 1097, rfl⟩
abbrev main_v534 : Ref sig .tc := ⟨.hbm, 1098, rfl⟩
abbrev main_v535 : Ref sig .tc := ⟨.hbm, 1099, rfl⟩
abbrev main_v536 : Ref sig .tc := ⟨.hbm, 1100, rfl⟩
abbrev main_v537 : Ref sig .tc := ⟨.hbm, 1101, rfl⟩
abbrev main_v538 : Ref sig .tc := ⟨.hbm, 1102, rfl⟩
abbrev main_v539 : Ref sig .tc := ⟨.hbm, 1103, rfl⟩
abbrev main_v540 : Ref sig .tc := ⟨.hbm, 1104, rfl⟩
abbrev main_v541 : Ref sig .tc := ⟨.hbm, 1105, rfl⟩
abbrev main_v542 : Ref sig .tc := ⟨.hbm, 1106, rfl⟩
abbrev main_v543 : Ref sig .tc := ⟨.hbm, 1107, rfl⟩
abbrev main_v544 : Ref sig .tc := ⟨.hbm, 1108, rfl⟩
abbrev main_v545 : Ref sig .tc := ⟨.hbm, 1109, rfl⟩
abbrev main_cst_72 : Ref sig .tc := ⟨.hbm, 1110, rfl⟩
abbrev main_call42_v0 : Ref sig .tc := ⟨.hbm, 1111, rfl⟩
abbrev main_call42_v1 : Ref sig .tc := ⟨.hbm, 1112, rfl⟩
abbrev main_call42_v2 : Ref sig .tc := ⟨.hbm, 1113, rfl⟩
abbrev main_v546 : Ref sig .tc := ⟨.hbm, 1114, rfl⟩
abbrev main_cst_73 : Ref sig .tc := ⟨.hbm, 1115, rfl⟩
abbrev main_v547 : Ref sig .tc := ⟨.hbm, 1116, rfl⟩
abbrev main_v548 : Ref sig .tc := ⟨.hbm, 1117, rfl⟩
abbrev main_v549 : Ref sig .tc := ⟨.hbm, 1118, rfl⟩
abbrev main_cst_74 : Ref sig .tc := ⟨.hbm, 1119, rfl⟩
abbrev main_call43_v0 : Ref sig .tc := ⟨.hbm, 1120, rfl⟩
abbrev main_call43_v1 : Ref sig .tc := ⟨.hbm, 1121, rfl⟩
abbrev main_call43_v2 : Ref sig .tc := ⟨.hbm, 1122, rfl⟩
abbrev main_v550 : Ref sig .tc := ⟨.hbm, 1123, rfl⟩
abbrev main_cst_75 : Ref sig .tc := ⟨.hbm, 1124, rfl⟩
abbrev main_v551 : Ref sig .tc := ⟨.hbm, 1125, rfl⟩
abbrev main_v552 : Ref sig .tc := ⟨.hbm, 1126, rfl⟩
abbrev main_v553 : Ref sig .tc := ⟨.hbm, 1127, rfl⟩
abbrev main_v554 : Ref sig .tc := ⟨.hbm, 1128, rfl⟩
abbrev main_v555 : Ref sig .tc := ⟨.hbm, 1129, rfl⟩
abbrev main_v556 : Ref sig .tc := ⟨.hbm, 1130, rfl⟩
abbrev main_v557 : Ref sig .tc := ⟨.hbm, 1131, rfl⟩
abbrev main_v558 : Ref sig .tc := ⟨.hbm, 1132, rfl⟩
abbrev main_v559 : Ref sig .tc := ⟨.hbm, 1133, rfl⟩
abbrev main_v560 : Ref sig .tc := ⟨.hbm, 1134, rfl⟩
abbrev main_v561 : Ref sig .tc := ⟨.hbm, 1135, rfl⟩
abbrev main_v562 : Ref sig .tc := ⟨.hbm, 1136, rfl⟩
abbrev main_v563 : Ref sig .tc := ⟨.hbm, 1137, rfl⟩
abbrev main_v564 : Ref sig .tc := ⟨.hbm, 1138, rfl⟩
abbrev main_v565 : Ref sig .tc := ⟨.hbm, 1139, rfl⟩
abbrev main_v566 : Ref sig .tc := ⟨.hbm, 1140, rfl⟩
abbrev main_v567 : Ref sig .tc := ⟨.hbm, 1141, rfl⟩
abbrev main_v568 : Ref sig .tc := ⟨.hbm, 1142, rfl⟩
abbrev main_v569 : Ref sig .tc := ⟨.hbm, 1143, rfl⟩
abbrev main_v570 : Ref sig .tc := ⟨.hbm, 1144, rfl⟩
abbrev main_v571 : Ref sig .tc := ⟨.hbm, 1145, rfl⟩
abbrev main_v572 : Ref sig .tc := ⟨.hbm, 1146, rfl⟩
abbrev main_v573 : Ref sig .tc := ⟨.hbm, 1147, rfl⟩
abbrev main_v574 : Ref sig .tc := ⟨.hbm, 1148, rfl⟩
abbrev main_v575 : Ref sig .tc := ⟨.hbm, 1149, rfl⟩
abbrev main_v576 : Ref sig .tc := ⟨.hbm, 1150, rfl⟩
abbrev main_v577 : Ref sig .tc := ⟨.hbm, 1151, rfl⟩
abbrev main_v578 : Ref sig .tc := ⟨.hbm, 1152, rfl⟩
abbrev main_v579 : Ref sig .tc := ⟨.hbm, 1153, rfl⟩
abbrev main_c_76 : Ref sig .tc := ⟨.hbm, 1154, rfl⟩
abbrev main_call44_v0 : Ref sig .tc := ⟨.hbm, 1155, rfl⟩
abbrev main_call44_v1 : Ref sig .tc := ⟨.hbm, 1156, rfl⟩
abbrev main_call44_v2 : Ref sig .tc := ⟨.hbm, 1157, rfl⟩
abbrev main_call44_v3 : Ref sig .tc := ⟨.hbm, 1158, rfl⟩
abbrev main_call44_v4 : Ref sig .tc := ⟨.hbm, 1159, rfl⟩
abbrev main_call44_v5 : Ref sig .tc := ⟨.hbm, 1160, rfl⟩
abbrev main_call44_v6 : Ref sig .tc := ⟨.hbm, 1161, rfl⟩
abbrev main_call44_v7 : Ref sig .tc := ⟨.hbm, 1162, rfl⟩
abbrev main_call44_v8 : Ref sig .tc := ⟨.hbm, 1163, rfl⟩
abbrev main_call44_c : Ref sig .tc := ⟨.hbm, 1164, rfl⟩
abbrev main_call44_v9 : Ref sig .tc := ⟨.hbm, 1165, rfl⟩
abbrev main_call44_v10 : Ref sig .tc := ⟨.hbm, 1166, rfl⟩
abbrev main_call44_v11 : Ref sig .tc := ⟨.hbm, 1167, rfl⟩
abbrev main_call44_c_0 : Ref sig .tc := ⟨.hbm, 1168, rfl⟩
abbrev main_call44_v12 : Ref sig .tc := ⟨.hbm, 1169, rfl⟩
abbrev main_call44_v13 : Ref sig .tc := ⟨.hbm, 1170, rfl⟩
abbrev main_v580 : Ref sig .tc := ⟨.hbm, 1171, rfl⟩
abbrev main_v581 : Ref sig .tc := ⟨.hbm, 1172, rfl⟩
abbrev main_v582 : Ref sig .tc := ⟨.hbm, 1173, rfl⟩
abbrev main_c_77 : Ref sig .tc := ⟨.hbm, 1174, rfl⟩
abbrev main_v583 : Ref sig .tc := ⟨.hbm, 1175, rfl⟩
abbrev main_v584 : Ref sig .tc := ⟨.hbm, 1176, rfl⟩
abbrev main_v585 : Ref sig .tc := ⟨.hbm, 1177, rfl⟩
abbrev main_v586 : Ref sig .tc := ⟨.hbm, 1178, rfl⟩
abbrev main_v587 : Ref sig .tc := ⟨.hbm, 1179, rfl⟩
abbrev main_c_78 : Ref sig .tc := ⟨.hbm, 1180, rfl⟩
abbrev main_call45_v0 : Ref sig .tc := ⟨.hbm, 1181, rfl⟩
abbrev main_call45_v1 : Ref sig .tc := ⟨.hbm, 1182, rfl⟩
abbrev main_call45_v2 : Ref sig .tc := ⟨.hbm, 1183, rfl⟩
abbrev main_call45_v3 : Ref sig .tc := ⟨.hbm, 1184, rfl⟩
abbrev main_call45_v4 : Ref sig .tc := ⟨.hbm, 1185, rfl⟩
abbrev main_call45_v5 : Ref sig .tc := ⟨.hbm, 1186, rfl⟩
abbrev main_call45_v6 : Ref sig .tc := ⟨.hbm, 1187, rfl⟩
abbrev main_call45_v7 : Ref sig .tc := ⟨.hbm, 1188, rfl⟩
abbrev main_call45_v8 : Ref sig .tc := ⟨.hbm, 1189, rfl⟩
abbrev main_call45_c : Ref sig .tc := ⟨.hbm, 1190, rfl⟩
abbrev main_call45_v9 : Ref sig .tc := ⟨.hbm, 1191, rfl⟩
abbrev main_call45_v10 : Ref sig .tc := ⟨.hbm, 1192, rfl⟩
abbrev main_call45_v11 : Ref sig .tc := ⟨.hbm, 1193, rfl⟩
abbrev main_call45_c_0 : Ref sig .tc := ⟨.hbm, 1194, rfl⟩
abbrev main_call45_v12 : Ref sig .tc := ⟨.hbm, 1195, rfl⟩
abbrev main_call45_v13 : Ref sig .tc := ⟨.hbm, 1196, rfl⟩
abbrev main_v588 : Ref sig .tc := ⟨.hbm, 1197, rfl⟩
abbrev main_v589 : Ref sig .tc := ⟨.hbm, 1198, rfl⟩
abbrev main_v590 : Ref sig .tc := ⟨.hbm, 1199, rfl⟩
abbrev main_v591 : Ref sig .tc := ⟨.hbm, 1200, rfl⟩
abbrev main_v592 : Ref sig .tc := ⟨.hbm, 1201, rfl⟩
abbrev main_c_79 : Ref sig .tc := ⟨.hbm, 1202, rfl⟩
abbrev main_call46_v0 : Ref sig .tc := ⟨.hbm, 1203, rfl⟩
abbrev main_call46_v1 : Ref sig .tc := ⟨.hbm, 1204, rfl⟩
abbrev main_call46_v2 : Ref sig .tc := ⟨.hbm, 1205, rfl⟩
abbrev main_call46_v3 : Ref sig .tc := ⟨.hbm, 1206, rfl⟩
abbrev main_call46_v4 : Ref sig .tc := ⟨.hbm, 1207, rfl⟩
abbrev main_call46_v5 : Ref sig .tc := ⟨.hbm, 1208, rfl⟩
abbrev main_call46_v6 : Ref sig .tc := ⟨.hbm, 1209, rfl⟩
abbrev main_call46_v7 : Ref sig .tc := ⟨.hbm, 1210, rfl⟩
abbrev main_call46_v8 : Ref sig .tc := ⟨.hbm, 1211, rfl⟩
abbrev main_call46_c : Ref sig .tc := ⟨.hbm, 1212, rfl⟩
abbrev main_call46_v9 : Ref sig .tc := ⟨.hbm, 1213, rfl⟩
abbrev main_call46_v10 : Ref sig .tc := ⟨.hbm, 1214, rfl⟩
abbrev main_call46_v11 : Ref sig .tc := ⟨.hbm, 1215, rfl⟩
abbrev main_call46_c_0 : Ref sig .tc := ⟨.hbm, 1216, rfl⟩
abbrev main_call46_v12 : Ref sig .tc := ⟨.hbm, 1217, rfl⟩
abbrev main_call46_v13 : Ref sig .tc := ⟨.hbm, 1218, rfl⟩
abbrev main_v593 : Ref sig .tc := ⟨.hbm, 1219, rfl⟩
abbrev main_v594 : Ref sig .tc := ⟨.hbm, 1220, rfl⟩
abbrev main_v595 : Ref sig .tc := ⟨.hbm, 1221, rfl⟩
abbrev main_c_80 : Ref sig .tc := ⟨.hbm, 1222, rfl⟩
abbrev main_v596 : Ref sig .tc := ⟨.hbm, 1223, rfl⟩
abbrev main_v597 : Ref sig .tc := ⟨.hbm, 1224, rfl⟩
abbrev main_v598 : Ref sig .tc := ⟨.hbm, 1225, rfl⟩
abbrev main_v599 : Ref sig .tc := ⟨.hbm, 1226, rfl⟩
abbrev main_v600 : Ref sig .tc := ⟨.hbm, 1227, rfl⟩
abbrev main_c_81 : Ref sig .tc := ⟨.hbm, 1228, rfl⟩
abbrev main_call47_v0 : Ref sig .tc := ⟨.hbm, 1229, rfl⟩
abbrev main_call47_v1 : Ref sig .tc := ⟨.hbm, 1230, rfl⟩
abbrev main_call47_v2 : Ref sig .tc := ⟨.hbm, 1231, rfl⟩
abbrev main_call47_v3 : Ref sig .tc := ⟨.hbm, 1232, rfl⟩
abbrev main_call47_v4 : Ref sig .tc := ⟨.hbm, 1233, rfl⟩
abbrev main_call47_v5 : Ref sig .tc := ⟨.hbm, 1234, rfl⟩
abbrev main_call47_v6 : Ref sig .tc := ⟨.hbm, 1235, rfl⟩
abbrev main_call47_v7 : Ref sig .tc := ⟨.hbm, 1236, rfl⟩
abbrev main_call47_v8 : Ref sig .tc := ⟨.hbm, 1237, rfl⟩
abbrev main_call47_c : Ref sig .tc := ⟨.hbm, 1238, rfl⟩
abbrev main_call47_v9 : Ref sig .tc := ⟨.hbm, 1239, rfl⟩
abbrev main_call47_v10 : Ref sig .tc := ⟨.hbm, 1240, rfl⟩
abbrev main_call47_v11 : Ref sig .tc := ⟨.hbm, 1241, rfl⟩
abbrev main_call47_c_0 : Ref sig .tc := ⟨.hbm, 1242, rfl⟩
abbrev main_call47_v12 : Ref sig .tc := ⟨.hbm, 1243, rfl⟩
abbrev main_call47_v13 : Ref sig .tc := ⟨.hbm, 1244, rfl⟩
abbrev main_v601 : Ref sig .tc := ⟨.hbm, 1245, rfl⟩
abbrev main_v602 : Ref sig .tc := ⟨.hbm, 1246, rfl⟩
abbrev main_v603 : Ref sig .tc := ⟨.hbm, 1247, rfl⟩
abbrev main_v604 : Ref sig .tc := ⟨.hbm, 1248, rfl⟩
abbrev main_v605 : Ref sig .tc := ⟨.hbm, 1249, rfl⟩
abbrev main_v606 : Ref sig .tc := ⟨.hbm, 1250, rfl⟩
abbrev main_v607 : Ref sig .tc := ⟨.hbm, 1251, rfl⟩
abbrev main_v608 : Ref sig .tc := ⟨.hbm, 1252, rfl⟩
abbrev main_v609 : Ref sig .tc := ⟨.hbm, 1253, rfl⟩
abbrev main_v610 : Ref sig .tc := ⟨.hbm, 1254, rfl⟩
abbrev main_v611 : Ref sig .tc := ⟨.hbm, 1255, rfl⟩
abbrev main_v612 : Ref sig .tc := ⟨.hbm, 1256, rfl⟩
abbrev main_v613 : Ref sig .tc := ⟨.hbm, 1257, rfl⟩
abbrev main_v614 : Ref sig .tc := ⟨.hbm, 1258, rfl⟩
abbrev main_v615 : Ref sig .tc := ⟨.hbm, 1259, rfl⟩
abbrev main_v616 : Ref sig .tc := ⟨.hbm, 1260, rfl⟩
abbrev main_v617 : Ref sig .tc := ⟨.hbm, 1261, rfl⟩
abbrev main_v618 : Ref sig .tc := ⟨.hbm, 1262, rfl⟩
abbrev main_v619 : Ref sig .tc := ⟨.hbm, 1263, rfl⟩
abbrev main_v620 : Ref sig .tc := ⟨.hbm, 1264, rfl⟩
abbrev main_v621 : Ref sig .tc := ⟨.hbm, 1265, rfl⟩
abbrev main_v622 : Ref sig .tc := ⟨.hbm, 1266, rfl⟩
abbrev main_v623 : Ref sig .tc := ⟨.hbm, 1267, rfl⟩
abbrev main_v624 : Ref sig .tc := ⟨.hbm, 1268, rfl⟩
abbrev main_v625 : Ref sig .tc := ⟨.hbm, 1269, rfl⟩
abbrev main_v626 : Ref sig .tc := ⟨.hbm, 1270, rfl⟩
abbrev main_v627 : Ref sig .tc := ⟨.hbm, 1271, rfl⟩
abbrev main_v628 : Ref sig .tc := ⟨.hbm, 1272, rfl⟩
abbrev main_v629 : Ref sig .tc := ⟨.hbm, 1273, rfl⟩
abbrev main_cst_82 : Ref sig .tc := ⟨.hbm, 1274, rfl⟩
abbrev main_call48_v0 : Ref sig .tc := ⟨.hbm, 1275, rfl⟩
abbrev main_call48_v1 : Ref sig .tc := ⟨.hbm, 1276, rfl⟩
abbrev main_call48_v2 : Ref sig .tc := ⟨.hbm, 1277, rfl⟩
abbrev main_v630 : Ref sig .tc := ⟨.hbm, 1278, rfl⟩
abbrev main_cst_83 : Ref sig .tc := ⟨.hbm, 1279, rfl⟩
abbrev main_v631 : Ref sig .tc := ⟨.hbm, 1280, rfl⟩
abbrev main_v632 : Ref sig .tc := ⟨.hbm, 1281, rfl⟩
abbrev main_v633 : Ref sig .tc := ⟨.hbm, 1282, rfl⟩
abbrev main_cst_84 : Ref sig .tc := ⟨.hbm, 1283, rfl⟩
abbrev main_call49_v0 : Ref sig .tc := ⟨.hbm, 1284, rfl⟩
abbrev main_call49_v1 : Ref sig .tc := ⟨.hbm, 1285, rfl⟩
abbrev main_call49_v2 : Ref sig .tc := ⟨.hbm, 1286, rfl⟩
abbrev main_v634 : Ref sig .tc := ⟨.hbm, 1287, rfl⟩
abbrev main_cst_85 : Ref sig .tc := ⟨.hbm, 1288, rfl⟩
abbrev main_v635 : Ref sig .tc := ⟨.hbm, 1289, rfl⟩
abbrev main_v636 : Ref sig .tc := ⟨.hbm, 1290, rfl⟩
abbrev main_v637 : Ref sig .tc := ⟨.hbm, 1291, rfl⟩
abbrev main_v638 : Ref sig .tc := ⟨.hbm, 1292, rfl⟩
abbrev main_v639 : Ref sig .tc := ⟨.hbm, 1293, rfl⟩
abbrev main_v640 : Ref sig .tc := ⟨.hbm, 1294, rfl⟩
abbrev main_v641 : Ref sig .tc := ⟨.hbm, 1295, rfl⟩
abbrev main_v642 : Ref sig .tc := ⟨.hbm, 1296, rfl⟩
abbrev main_v643 : Ref sig .tc := ⟨.hbm, 1297, rfl⟩
abbrev main_v644 : Ref sig .tc := ⟨.hbm, 1298, rfl⟩
abbrev main_v645 : Ref sig .tc := ⟨.hbm, 1299, rfl⟩
abbrev main_v646 : Ref sig .tc := ⟨.hbm, 1300, rfl⟩
abbrev main_v647 : Ref sig .tc := ⟨.hbm, 1301, rfl⟩
abbrev main_v648 : Ref sig .tc := ⟨.hbm, 1302, rfl⟩
abbrev main_v649 : Ref sig .tc := ⟨.hbm, 1303, rfl⟩
abbrev main_v650 : Ref sig .tc := ⟨.hbm, 1304, rfl⟩
abbrev main_v651 : Ref sig .tc := ⟨.hbm, 1305, rfl⟩
abbrev main_v652 : Ref sig .tc := ⟨.hbm, 1306, rfl⟩
abbrev main_v653 : Ref sig .tc := ⟨.hbm, 1307, rfl⟩
abbrev main_v654 : Ref sig .tc := ⟨.hbm, 1308, rfl⟩
abbrev main_v655 : Ref sig .tc := ⟨.hbm, 1309, rfl⟩
abbrev main_v656 : Ref sig .tc := ⟨.hbm, 1310, rfl⟩
abbrev main_v657 : Ref sig .tc := ⟨.hbm, 1311, rfl⟩
abbrev main_v658 : Ref sig .tc := ⟨.hbm, 1312, rfl⟩
abbrev main_v659 : Ref sig .tc := ⟨.hbm, 1313, rfl⟩
abbrev main_v660 : Ref sig .tc := ⟨.hbm, 1314, rfl⟩
abbrev main_v661 : Ref sig .tc := ⟨.hbm, 1315, rfl⟩
abbrev main_v662 : Ref sig .tc := ⟨.hbm, 1316, rfl⟩
abbrev main_v663 : Ref sig .tc := ⟨.hbm, 1317, rfl⟩
abbrev main_c_86 : Ref sig .tc := ⟨.hbm, 1318, rfl⟩
abbrev main_call50_v0 : Ref sig .tc := ⟨.hbm, 1319, rfl⟩
abbrev main_call50_v1 : Ref sig .tc := ⟨.hbm, 1320, rfl⟩
abbrev main_call50_v2 : Ref sig .tc := ⟨.hbm, 1321, rfl⟩
abbrev main_call50_v3 : Ref sig .tc := ⟨.hbm, 1322, rfl⟩
abbrev main_call50_v4 : Ref sig .tc := ⟨.hbm, 1323, rfl⟩
abbrev main_call50_v5 : Ref sig .tc := ⟨.hbm, 1324, rfl⟩
abbrev main_call50_v6 : Ref sig .tc := ⟨.hbm, 1325, rfl⟩
abbrev main_call50_v7 : Ref sig .tc := ⟨.hbm, 1326, rfl⟩
abbrev main_call50_v8 : Ref sig .tc := ⟨.hbm, 1327, rfl⟩
abbrev main_call50_c : Ref sig .tc := ⟨.hbm, 1328, rfl⟩
abbrev main_call50_v9 : Ref sig .tc := ⟨.hbm, 1329, rfl⟩
abbrev main_call50_v10 : Ref sig .tc := ⟨.hbm, 1330, rfl⟩
abbrev main_call50_v11 : Ref sig .tc := ⟨.hbm, 1331, rfl⟩
abbrev main_call50_c_0 : Ref sig .tc := ⟨.hbm, 1332, rfl⟩
abbrev main_call50_v12 : Ref sig .tc := ⟨.hbm, 1333, rfl⟩
abbrev main_call50_v13 : Ref sig .tc := ⟨.hbm, 1334, rfl⟩
abbrev main_v664 : Ref sig .tc := ⟨.hbm, 1335, rfl⟩
abbrev main_v665 : Ref sig .tc := ⟨.hbm, 1336, rfl⟩
abbrev main_v666 : Ref sig .tc := ⟨.hbm, 1337, rfl⟩
abbrev main_c_87 : Ref sig .tc := ⟨.hbm, 1338, rfl⟩
abbrev main_v667 : Ref sig .tc := ⟨.hbm, 1339, rfl⟩
abbrev main_v668 : Ref sig .tc := ⟨.hbm, 1340, rfl⟩
abbrev main_v669 : Ref sig .tc := ⟨.hbm, 1341, rfl⟩
abbrev main_v670 : Ref sig .tc := ⟨.hbm, 1342, rfl⟩
abbrev main_v671 : Ref sig .tc := ⟨.hbm, 1343, rfl⟩
abbrev main_c_88 : Ref sig .tc := ⟨.hbm, 1344, rfl⟩
abbrev main_call51_v0 : Ref sig .tc := ⟨.hbm, 1345, rfl⟩
abbrev main_call51_v1 : Ref sig .tc := ⟨.hbm, 1346, rfl⟩
abbrev main_call51_v2 : Ref sig .tc := ⟨.hbm, 1347, rfl⟩
abbrev main_call51_v3 : Ref sig .tc := ⟨.hbm, 1348, rfl⟩
abbrev main_call51_v4 : Ref sig .tc := ⟨.hbm, 1349, rfl⟩
abbrev main_call51_v5 : Ref sig .tc := ⟨.hbm, 1350, rfl⟩
abbrev main_call51_v6 : Ref sig .tc := ⟨.hbm, 1351, rfl⟩
abbrev main_call51_v7 : Ref sig .tc := ⟨.hbm, 1352, rfl⟩
abbrev main_call51_v8 : Ref sig .tc := ⟨.hbm, 1353, rfl⟩
abbrev main_call51_c : Ref sig .tc := ⟨.hbm, 1354, rfl⟩
abbrev main_call51_v9 : Ref sig .tc := ⟨.hbm, 1355, rfl⟩
abbrev main_call51_v10 : Ref sig .tc := ⟨.hbm, 1356, rfl⟩
abbrev main_call51_v11 : Ref sig .tc := ⟨.hbm, 1357, rfl⟩
abbrev main_call51_c_0 : Ref sig .tc := ⟨.hbm, 1358, rfl⟩
abbrev main_call51_v12 : Ref sig .tc := ⟨.hbm, 1359, rfl⟩
abbrev main_call51_v13 : Ref sig .tc := ⟨.hbm, 1360, rfl⟩
abbrev main_v672 : Ref sig .tc := ⟨.hbm, 1361, rfl⟩
abbrev main_v673 : Ref sig .tc := ⟨.hbm, 1362, rfl⟩
abbrev main_v674 : Ref sig .tc := ⟨.hbm, 1363, rfl⟩
abbrev main_v675 : Ref sig .tc := ⟨.hbm, 1364, rfl⟩
abbrev main_v676 : Ref sig .tc := ⟨.hbm, 1365, rfl⟩
abbrev main_c_89 : Ref sig .tc := ⟨.hbm, 1366, rfl⟩
abbrev main_call52_v0 : Ref sig .tc := ⟨.hbm, 1367, rfl⟩
abbrev main_call52_v1 : Ref sig .tc := ⟨.hbm, 1368, rfl⟩
abbrev main_call52_v2 : Ref sig .tc := ⟨.hbm, 1369, rfl⟩
abbrev main_call52_v3 : Ref sig .tc := ⟨.hbm, 1370, rfl⟩
abbrev main_call52_v4 : Ref sig .tc := ⟨.hbm, 1371, rfl⟩
abbrev main_call52_v5 : Ref sig .tc := ⟨.hbm, 1372, rfl⟩
abbrev main_call52_v6 : Ref sig .tc := ⟨.hbm, 1373, rfl⟩
abbrev main_call52_v7 : Ref sig .tc := ⟨.hbm, 1374, rfl⟩
abbrev main_call52_v8 : Ref sig .tc := ⟨.hbm, 1375, rfl⟩
abbrev main_call52_c : Ref sig .tc := ⟨.hbm, 1376, rfl⟩
abbrev main_call52_v9 : Ref sig .tc := ⟨.hbm, 1377, rfl⟩
abbrev main_call52_v10 : Ref sig .tc := ⟨.hbm, 1378, rfl⟩
abbrev main_call52_v11 : Ref sig .tc := ⟨.hbm, 1379, rfl⟩
abbrev main_call52_c_0 : Ref sig .tc := ⟨.hbm, 1380, rfl⟩
abbrev main_call52_v12 : Ref sig .tc := ⟨.hbm, 1381, rfl⟩
abbrev main_call52_v13 : Ref sig .tc := ⟨.hbm, 1382, rfl⟩
abbrev main_v677 : Ref sig .tc := ⟨.hbm, 1383, rfl⟩
abbrev main_v678 : Ref sig .tc := ⟨.hbm, 1384, rfl⟩
abbrev main_v679 : Ref sig .tc := ⟨.hbm, 1385, rfl⟩
abbrev main_c_90 : Ref sig .tc := ⟨.hbm, 1386, rfl⟩
abbrev main_v680 : Ref sig .tc := ⟨.hbm, 1387, rfl⟩
abbrev main_v681 : Ref sig .tc := ⟨.hbm, 1388, rfl⟩
abbrev main_v682 : Ref sig .tc := ⟨.hbm, 1389, rfl⟩
abbrev main_v683 : Ref sig .tc := ⟨.hbm, 1390, rfl⟩
abbrev main_v684 : Ref sig .tc := ⟨.hbm, 1391, rfl⟩
abbrev main_c_91 : Ref sig .tc := ⟨.hbm, 1392, rfl⟩
abbrev main_call53_v0 : Ref sig .tc := ⟨.hbm, 1393, rfl⟩
abbrev main_call53_v1 : Ref sig .tc := ⟨.hbm, 1394, rfl⟩
abbrev main_call53_v2 : Ref sig .tc := ⟨.hbm, 1395, rfl⟩
abbrev main_call53_v3 : Ref sig .tc := ⟨.hbm, 1396, rfl⟩
abbrev main_call53_v4 : Ref sig .tc := ⟨.hbm, 1397, rfl⟩
abbrev main_call53_v5 : Ref sig .tc := ⟨.hbm, 1398, rfl⟩
abbrev main_call53_v6 : Ref sig .tc := ⟨.hbm, 1399, rfl⟩
abbrev main_call53_v7 : Ref sig .tc := ⟨.hbm, 1400, rfl⟩
abbrev main_call53_v8 : Ref sig .tc := ⟨.hbm, 1401, rfl⟩
abbrev main_call53_c : Ref sig .tc := ⟨.hbm, 1402, rfl⟩
abbrev main_call53_v9 : Ref sig .tc := ⟨.hbm, 1403, rfl⟩
abbrev main_call53_v10 : Ref sig .tc := ⟨.hbm, 1404, rfl⟩
abbrev main_call53_v11 : Ref sig .tc := ⟨.hbm, 1405, rfl⟩
abbrev main_call53_c_0 : Ref sig .tc := ⟨.hbm, 1406, rfl⟩
abbrev main_call53_v12 : Ref sig .tc := ⟨.hbm, 1407, rfl⟩
abbrev main_call53_v13 : Ref sig .tc := ⟨.hbm, 1408, rfl⟩
abbrev main_v685 : Ref sig .tc := ⟨.hbm, 1409, rfl⟩
abbrev main_v686 : Ref sig .tc := ⟨.hbm, 1410, rfl⟩
abbrev main_v687 : Ref sig .tc := ⟨.hbm, 1411, rfl⟩
abbrev main_v688 : Ref sig .tc := ⟨.hbm, 1412, rfl⟩
abbrev main_v689 : Ref sig .tc := ⟨.hbm, 1413, rfl⟩
abbrev main_v690 : Ref sig .tc := ⟨.hbm, 1414, rfl⟩
abbrev main_v691 : Ref sig .tc := ⟨.hbm, 1415, rfl⟩
abbrev main_v692 : Ref sig .tc := ⟨.hbm, 1416, rfl⟩
abbrev main_v693 : Ref sig .tc := ⟨.hbm, 1417, rfl⟩
abbrev main_v694 : Ref sig .tc := ⟨.hbm, 1418, rfl⟩
abbrev main_v695 : Ref sig .tc := ⟨.hbm, 1419, rfl⟩
abbrev main_v696 : Ref sig .tc := ⟨.hbm, 1420, rfl⟩
abbrev main_v697 : Ref sig .tc := ⟨.hbm, 1421, rfl⟩
abbrev main_v698 : Ref sig .tc := ⟨.hbm, 1422, rfl⟩
abbrev main_v699 : Ref sig .tc := ⟨.hbm, 1423, rfl⟩
abbrev main_v700 : Ref sig .tc := ⟨.hbm, 1424, rfl⟩
abbrev main_v701 : Ref sig .tc := ⟨.hbm, 1425, rfl⟩
abbrev main_v702 : Ref sig .tc := ⟨.hbm, 1426, rfl⟩
abbrev main_v703 : Ref sig .tc := ⟨.hbm, 1427, rfl⟩
abbrev main_v704 : Ref sig .tc := ⟨.hbm, 1428, rfl⟩
abbrev main_v705 : Ref sig .tc := ⟨.hbm, 1429, rfl⟩
abbrev main_v706 : Ref sig .tc := ⟨.hbm, 1430, rfl⟩
abbrev main_v707 : Ref sig .tc := ⟨.hbm, 1431, rfl⟩
abbrev main_v708 : Ref sig .tc := ⟨.hbm, 1432, rfl⟩
abbrev main_v709 : Ref sig .tc := ⟨.hbm, 1433, rfl⟩
abbrev main_v710 : Ref sig .tc := ⟨.hbm, 1434, rfl⟩
abbrev main_v711 : Ref sig .tc := ⟨.hbm, 1435, rfl⟩
abbrev main_v712 : Ref sig .tc := ⟨.hbm, 1436, rfl⟩
abbrev main_v713 : Ref sig .tc := ⟨.hbm, 1437, rfl⟩
abbrev main_cst_92 : Ref sig .tc := ⟨.hbm, 1438, rfl⟩
abbrev main_call54_v0 : Ref sig .tc := ⟨.hbm, 1439, rfl⟩
abbrev main_call54_v1 : Ref sig .tc := ⟨.hbm, 1440, rfl⟩
abbrev main_call54_v2 : Ref sig .tc := ⟨.hbm, 1441, rfl⟩
abbrev main_v714 : Ref sig .tc := ⟨.hbm, 1442, rfl⟩
abbrev main_cst_93 : Ref sig .tc := ⟨.hbm, 1443, rfl⟩
abbrev main_v715 : Ref sig .tc := ⟨.hbm, 1444, rfl⟩
abbrev main_v716 : Ref sig .tc := ⟨.hbm, 1445, rfl⟩
abbrev main_v717 : Ref sig .tc := ⟨.hbm, 1446, rfl⟩
abbrev main_cst_94 : Ref sig .tc := ⟨.hbm, 1447, rfl⟩
abbrev main_call55_v0 : Ref sig .tc := ⟨.hbm, 1448, rfl⟩
abbrev main_call55_v1 : Ref sig .tc := ⟨.hbm, 1449, rfl⟩
abbrev main_call55_v2 : Ref sig .tc := ⟨.hbm, 1450, rfl⟩
abbrev main_v718 : Ref sig .tc := ⟨.hbm, 1451, rfl⟩
abbrev main_cst_95 : Ref sig .tc := ⟨.hbm, 1452, rfl⟩
abbrev main_v719 : Ref sig .tc := ⟨.hbm, 1453, rfl⟩
abbrev main_v720 : Ref sig .tc := ⟨.hbm, 1454, rfl⟩
abbrev main_v721 : Ref sig .tc := ⟨.hbm, 1455, rfl⟩
abbrev main_v722 : Ref sig .tc := ⟨.hbm, 1456, rfl⟩
abbrev main_v723 : Ref sig .tc := ⟨.hbm, 1457, rfl⟩
abbrev main_v724 : Ref sig .tc := ⟨.hbm, 1458, rfl⟩
abbrev main_v725 : Ref sig .tc := ⟨.hbm, 1459, rfl⟩
abbrev main_v726 : Ref sig .tc := ⟨.hbm, 1460, rfl⟩
abbrev main_v727 : Ref sig .tc := ⟨.hbm, 1461, rfl⟩
abbrev main_v728 : Ref sig .tc := ⟨.hbm, 1462, rfl⟩
abbrev main_v729 : Ref sig .tc := ⟨.hbm, 1463, rfl⟩
abbrev main_v730 : Ref sig .tc := ⟨.hbm, 1464, rfl⟩
abbrev main_v731 : Ref sig .tc := ⟨.hbm, 1465, rfl⟩
abbrev main_v732 : Ref sig .tc := ⟨.hbm, 1466, rfl⟩
abbrev main_v733 : Ref sig .tc := ⟨.hbm, 1467, rfl⟩
abbrev main_v734 : Ref sig .tc := ⟨.hbm, 1468, rfl⟩
abbrev main_v735 : Ref sig .tc := ⟨.hbm, 1469, rfl⟩
abbrev main_v736 : Ref sig .tc := ⟨.hbm, 1470, rfl⟩
abbrev main_v737 : Ref sig .tc := ⟨.hbm, 1471, rfl⟩
abbrev main_v738 : Ref sig .tc := ⟨.hbm, 1472, rfl⟩
abbrev main_v739 : Ref sig .tc := ⟨.hbm, 1473, rfl⟩
abbrev main_v740 : Ref sig .tc := ⟨.hbm, 1474, rfl⟩
abbrev main_v741 : Ref sig .tc := ⟨.hbm, 1475, rfl⟩
abbrev main_v742 : Ref sig .tc := ⟨.hbm, 1476, rfl⟩
abbrev main_v743 : Ref sig .tc := ⟨.hbm, 1477, rfl⟩
abbrev main_v744 : Ref sig .tc := ⟨.hbm, 1478, rfl⟩
abbrev main_v745 : Ref sig .tc := ⟨.hbm, 1479, rfl⟩
abbrev main_v746 : Ref sig .tc := ⟨.hbm, 1480, rfl⟩
abbrev main_v747 : Ref sig .tc := ⟨.hbm, 1481, rfl⟩
abbrev main_c_96 : Ref sig .tc := ⟨.hbm, 1482, rfl⟩
abbrev main_call56_v0 : Ref sig .tc := ⟨.hbm, 1483, rfl⟩
abbrev main_call56_v1 : Ref sig .tc := ⟨.hbm, 1484, rfl⟩
abbrev main_call56_v2 : Ref sig .tc := ⟨.hbm, 1485, rfl⟩
abbrev main_call56_v3 : Ref sig .tc := ⟨.hbm, 1486, rfl⟩
abbrev main_call56_v4 : Ref sig .tc := ⟨.hbm, 1487, rfl⟩
abbrev main_call56_v5 : Ref sig .tc := ⟨.hbm, 1488, rfl⟩
abbrev main_call56_v6 : Ref sig .tc := ⟨.hbm, 1489, rfl⟩
abbrev main_call56_v7 : Ref sig .tc := ⟨.hbm, 1490, rfl⟩
abbrev main_call56_v8 : Ref sig .tc := ⟨.hbm, 1491, rfl⟩
abbrev main_call56_c : Ref sig .tc := ⟨.hbm, 1492, rfl⟩
abbrev main_call56_v9 : Ref sig .tc := ⟨.hbm, 1493, rfl⟩
abbrev main_call56_v10 : Ref sig .tc := ⟨.hbm, 1494, rfl⟩
abbrev main_call56_v11 : Ref sig .tc := ⟨.hbm, 1495, rfl⟩
abbrev main_call56_c_0 : Ref sig .tc := ⟨.hbm, 1496, rfl⟩
abbrev main_call56_v12 : Ref sig .tc := ⟨.hbm, 1497, rfl⟩
abbrev main_call56_v13 : Ref sig .tc := ⟨.hbm, 1498, rfl⟩
abbrev main_v748 : Ref sig .tc := ⟨.hbm, 1499, rfl⟩
abbrev main_v749 : Ref sig .tc := ⟨.hbm, 1500, rfl⟩
abbrev main_v750 : Ref sig .tc := ⟨.hbm, 1501, rfl⟩
abbrev main_c_97 : Ref sig .tc := ⟨.hbm, 1502, rfl⟩
abbrev main_v751 : Ref sig .tc := ⟨.hbm, 1503, rfl⟩
abbrev main_v752 : Ref sig .tc := ⟨.hbm, 1504, rfl⟩
abbrev main_v753 : Ref sig .tc := ⟨.hbm, 1505, rfl⟩
abbrev main_v754 : Ref sig .tc := ⟨.hbm, 1506, rfl⟩
abbrev main_v755 : Ref sig .tc := ⟨.hbm, 1507, rfl⟩
abbrev main_c_98 : Ref sig .tc := ⟨.hbm, 1508, rfl⟩
abbrev main_call57_v0 : Ref sig .tc := ⟨.hbm, 1509, rfl⟩
abbrev main_call57_v1 : Ref sig .tc := ⟨.hbm, 1510, rfl⟩
abbrev main_call57_v2 : Ref sig .tc := ⟨.hbm, 1511, rfl⟩
abbrev main_call57_v3 : Ref sig .tc := ⟨.hbm, 1512, rfl⟩
abbrev main_call57_v4 : Ref sig .tc := ⟨.hbm, 1513, rfl⟩
abbrev main_call57_v5 : Ref sig .tc := ⟨.hbm, 1514, rfl⟩
abbrev main_call57_v6 : Ref sig .tc := ⟨.hbm, 1515, rfl⟩
abbrev main_call57_v7 : Ref sig .tc := ⟨.hbm, 1516, rfl⟩
abbrev main_call57_v8 : Ref sig .tc := ⟨.hbm, 1517, rfl⟩
abbrev main_call57_c : Ref sig .tc := ⟨.hbm, 1518, rfl⟩
abbrev main_call57_v9 : Ref sig .tc := ⟨.hbm, 1519, rfl⟩
abbrev main_call57_v10 : Ref sig .tc := ⟨.hbm, 1520, rfl⟩
abbrev main_call57_v11 : Ref sig .tc := ⟨.hbm, 1521, rfl⟩
abbrev main_call57_c_0 : Ref sig .tc := ⟨.hbm, 1522, rfl⟩
abbrev main_call57_v12 : Ref sig .tc := ⟨.hbm, 1523, rfl⟩
abbrev main_call57_v13 : Ref sig .tc := ⟨.hbm, 1524, rfl⟩
abbrev main_v756 : Ref sig .tc := ⟨.hbm, 1525, rfl⟩
abbrev main_v757 : Ref sig .tc := ⟨.hbm, 1526, rfl⟩
abbrev main_v758 : Ref sig .tc := ⟨.hbm, 1527, rfl⟩
abbrev main_v759 : Ref sig .tc := ⟨.hbm, 1528, rfl⟩
abbrev main_v760 : Ref sig .tc := ⟨.hbm, 1529, rfl⟩
abbrev main_c_99 : Ref sig .tc := ⟨.hbm, 1530, rfl⟩
abbrev main_call58_v0 : Ref sig .tc := ⟨.hbm, 1531, rfl⟩
abbrev main_call58_v1 : Ref sig .tc := ⟨.hbm, 1532, rfl⟩
abbrev main_call58_v2 : Ref sig .tc := ⟨.hbm, 1533, rfl⟩
abbrev main_call58_v3 : Ref sig .tc := ⟨.hbm, 1534, rfl⟩
abbrev main_call58_v4 : Ref sig .tc := ⟨.hbm, 1535, rfl⟩
abbrev main_call58_v5 : Ref sig .tc := ⟨.hbm, 1536, rfl⟩
abbrev main_call58_v6 : Ref sig .tc := ⟨.hbm, 1537, rfl⟩
abbrev main_call58_v7 : Ref sig .tc := ⟨.hbm, 1538, rfl⟩
abbrev main_call58_v8 : Ref sig .tc := ⟨.hbm, 1539, rfl⟩
abbrev main_call58_c : Ref sig .tc := ⟨.hbm, 1540, rfl⟩
abbrev main_call58_v9 : Ref sig .tc := ⟨.hbm, 1541, rfl⟩
abbrev main_call58_v10 : Ref sig .tc := ⟨.hbm, 1542, rfl⟩
abbrev main_call58_v11 : Ref sig .tc := ⟨.hbm, 1543, rfl⟩
abbrev main_call58_c_0 : Ref sig .tc := ⟨.hbm, 1544, rfl⟩
abbrev main_call58_v12 : Ref sig .tc := ⟨.hbm, 1545, rfl⟩
abbrev main_call58_v13 : Ref sig .tc := ⟨.hbm, 1546, rfl⟩
abbrev main_v761 : Ref sig .tc := ⟨.hbm, 1547, rfl⟩
abbrev main_v762 : Ref sig .tc := ⟨.hbm, 1548, rfl⟩
abbrev main_v763 : Ref sig .tc := ⟨.hbm, 1549, rfl⟩
abbrev main_c_100 : Ref sig .tc := ⟨.hbm, 1550, rfl⟩
abbrev main_v764 : Ref sig .tc := ⟨.hbm, 1551, rfl⟩
abbrev main_v765 : Ref sig .tc := ⟨.hbm, 1552, rfl⟩
abbrev main_v766 : Ref sig .tc := ⟨.hbm, 1553, rfl⟩
abbrev main_v767 : Ref sig .tc := ⟨.hbm, 1554, rfl⟩
abbrev main_v768 : Ref sig .tc := ⟨.hbm, 1555, rfl⟩
abbrev main_c_101 : Ref sig .tc := ⟨.hbm, 1556, rfl⟩
abbrev main_call59_v0 : Ref sig .tc := ⟨.hbm, 1557, rfl⟩
abbrev main_call59_v1 : Ref sig .tc := ⟨.hbm, 1558, rfl⟩
abbrev main_call59_v2 : Ref sig .tc := ⟨.hbm, 1559, rfl⟩
abbrev main_call59_v3 : Ref sig .tc := ⟨.hbm, 1560, rfl⟩
abbrev main_call59_v4 : Ref sig .tc := ⟨.hbm, 1561, rfl⟩
abbrev main_call59_v5 : Ref sig .tc := ⟨.hbm, 1562, rfl⟩
abbrev main_call59_v6 : Ref sig .tc := ⟨.hbm, 1563, rfl⟩
abbrev main_call59_v7 : Ref sig .tc := ⟨.hbm, 1564, rfl⟩
abbrev main_call59_v8 : Ref sig .tc := ⟨.hbm, 1565, rfl⟩
abbrev main_call59_c : Ref sig .tc := ⟨.hbm, 1566, rfl⟩
abbrev main_call59_v9 : Ref sig .tc := ⟨.hbm, 1567, rfl⟩
abbrev main_call59_v10 : Ref sig .tc := ⟨.hbm, 1568, rfl⟩
abbrev main_call59_v11 : Ref sig .tc := ⟨.hbm, 1569, rfl⟩
abbrev main_call59_c_0 : Ref sig .tc := ⟨.hbm, 1570, rfl⟩
abbrev main_call59_v12 : Ref sig .tc := ⟨.hbm, 1571, rfl⟩
abbrev main_call59_v13 : Ref sig .tc := ⟨.hbm, 1572, rfl⟩
abbrev main_v769 : Ref sig .tc := ⟨.hbm, 1573, rfl⟩
abbrev main_v770 : Ref sig .tc := ⟨.hbm, 1574, rfl⟩
abbrev main_v771 : Ref sig .tc := ⟨.hbm, 1575, rfl⟩
abbrev main_v772 : Ref sig .tc := ⟨.hbm, 1576, rfl⟩
abbrev main_v773 : Ref sig .tc := ⟨.hbm, 1577, rfl⟩
abbrev main_v774 : Ref sig .tc := ⟨.hbm, 1578, rfl⟩
abbrev main_v775 : Ref sig .tc := ⟨.hbm, 1579, rfl⟩
abbrev main_v776 : Ref sig .tc := ⟨.hbm, 1580, rfl⟩
abbrev main_v777 : Ref sig .tc := ⟨.hbm, 1581, rfl⟩
abbrev main_v778 : Ref sig .tc := ⟨.hbm, 1582, rfl⟩
abbrev main_v779 : Ref sig .tc := ⟨.hbm, 1583, rfl⟩
abbrev main_v780 : Ref sig .tc := ⟨.hbm, 1584, rfl⟩
abbrev main_v781 : Ref sig .tc := ⟨.hbm, 1585, rfl⟩
abbrev main_v782 : Ref sig .tc := ⟨.hbm, 1586, rfl⟩
abbrev main_v783 : Ref sig .tc := ⟨.hbm, 1587, rfl⟩
abbrev main_v784 : Ref sig .tc := ⟨.hbm, 1588, rfl⟩
abbrev main_v785 : Ref sig .tc := ⟨.hbm, 1589, rfl⟩
abbrev main_v786 : Ref sig .tc := ⟨.hbm, 1590, rfl⟩
abbrev main_v787 : Ref sig .tc := ⟨.hbm, 1591, rfl⟩
abbrev main_v788 : Ref sig .tc := ⟨.hbm, 1592, rfl⟩
abbrev main_v789 : Ref sig .tc := ⟨.hbm, 1593, rfl⟩
abbrev main_v790 : Ref sig .tc := ⟨.hbm, 1594, rfl⟩
abbrev main_v791 : Ref sig .tc := ⟨.hbm, 1595, rfl⟩
abbrev main_v792 : Ref sig .tc := ⟨.hbm, 1596, rfl⟩
abbrev main_v793 : Ref sig .tc := ⟨.hbm, 1597, rfl⟩
abbrev main_v794 : Ref sig .tc := ⟨.hbm, 1598, rfl⟩
abbrev main_v795 : Ref sig .tc := ⟨.hbm, 1599, rfl⟩
abbrev main_v796 : Ref sig .tc := ⟨.hbm, 1600, rfl⟩
abbrev main_v797 : Ref sig .tc := ⟨.hbm, 1601, rfl⟩
abbrev main_cst_102 : Ref sig .tc := ⟨.hbm, 1602, rfl⟩
abbrev main_call60_v0 : Ref sig .tc := ⟨.hbm, 1603, rfl⟩
abbrev main_call60_v1 : Ref sig .tc := ⟨.hbm, 1604, rfl⟩
abbrev main_call60_v2 : Ref sig .tc := ⟨.hbm, 1605, rfl⟩
abbrev main_v798 : Ref sig .tc := ⟨.hbm, 1606, rfl⟩
abbrev main_cst_103 : Ref sig .tc := ⟨.hbm, 1607, rfl⟩
abbrev main_v799 : Ref sig .tc := ⟨.hbm, 1608, rfl⟩
abbrev main_v800 : Ref sig .tc := ⟨.hbm, 1609, rfl⟩
abbrev main_v801 : Ref sig .tc := ⟨.hbm, 1610, rfl⟩
abbrev main_cst_104 : Ref sig .tc := ⟨.hbm, 1611, rfl⟩
abbrev main_call61_v0 : Ref sig .tc := ⟨.hbm, 1612, rfl⟩
abbrev main_call61_v1 : Ref sig .tc := ⟨.hbm, 1613, rfl⟩
abbrev main_call61_v2 : Ref sig .tc := ⟨.hbm, 1614, rfl⟩
abbrev main_v802 : Ref sig .tc := ⟨.hbm, 1615, rfl⟩
abbrev main_cst_105 : Ref sig .tc := ⟨.hbm, 1616, rfl⟩
abbrev main_v803 : Ref sig .tc := ⟨.hbm, 1617, rfl⟩
abbrev main_v804 : Ref sig .tc := ⟨.hbm, 1618, rfl⟩
abbrev main_v805 : Ref sig .tc := ⟨.hbm, 1619, rfl⟩
abbrev main_v806 : Ref sig .tc := ⟨.hbm, 1620, rfl⟩
abbrev main_v807 : Ref sig .tc := ⟨.hbm, 1621, rfl⟩
abbrev main_v808 : Ref sig .tc := ⟨.hbm, 1622, rfl⟩
abbrev main_v809 : Ref sig .tc := ⟨.hbm, 1623, rfl⟩
abbrev main_v810 : Ref sig .tc := ⟨.hbm, 1624, rfl⟩
abbrev main_v811 : Ref sig .tc := ⟨.hbm, 1625, rfl⟩
abbrev main_v812 : Ref sig .tc := ⟨.hbm, 1626, rfl⟩
abbrev main_v813 : Ref sig .tc := ⟨.hbm, 1627, rfl⟩
abbrev main_v814 : Ref sig .tc := ⟨.hbm, 1628, rfl⟩
abbrev main_v815 : Ref sig .tc := ⟨.hbm, 1629, rfl⟩
abbrev main_v816 : Ref sig .tc := ⟨.hbm, 1630, rfl⟩
abbrev main_v817 : Ref sig .tc := ⟨.hbm, 1631, rfl⟩
abbrev main_v818 : Ref sig .tc := ⟨.hbm, 1632, rfl⟩
abbrev main_v819 : Ref sig .tc := ⟨.hbm, 1633, rfl⟩
abbrev main_v820 : Ref sig .tc := ⟨.hbm, 1634, rfl⟩
abbrev main_v821 : Ref sig .tc := ⟨.hbm, 1635, rfl⟩
abbrev main_v822 : Ref sig .tc := ⟨.hbm, 1636, rfl⟩
abbrev main_v823 : Ref sig .tc := ⟨.hbm, 1637, rfl⟩
abbrev main_v824 : Ref sig .tc := ⟨.hbm, 1638, rfl⟩
abbrev main_v825 : Ref sig .tc := ⟨.hbm, 1639, rfl⟩
abbrev main_v826 : Ref sig .tc := ⟨.hbm, 1640, rfl⟩
abbrev main_v827 : Ref sig .tc := ⟨.hbm, 1641, rfl⟩
abbrev main_v828 : Ref sig .tc := ⟨.hbm, 1642, rfl⟩
abbrev main_v829 : Ref sig .tc := ⟨.hbm, 1643, rfl⟩
abbrev main_v830 : Ref sig .tc := ⟨.hbm, 1644, rfl⟩
abbrev main_v831 : Ref sig .tc := ⟨.hbm, 1645, rfl⟩
abbrev main_c_106 : Ref sig .tc := ⟨.hbm, 1646, rfl⟩
abbrev main_call62_v0 : Ref sig .tc := ⟨.hbm, 1647, rfl⟩
abbrev main_call62_v1 : Ref sig .tc := ⟨.hbm, 1648, rfl⟩
abbrev main_call62_v2 : Ref sig .tc := ⟨.hbm, 1649, rfl⟩
abbrev main_call62_v3 : Ref sig .tc := ⟨.hbm, 1650, rfl⟩
abbrev main_call62_v4 : Ref sig .tc := ⟨.hbm, 1651, rfl⟩
abbrev main_call62_v5 : Ref sig .tc := ⟨.hbm, 1652, rfl⟩
abbrev main_call62_v6 : Ref sig .tc := ⟨.hbm, 1653, rfl⟩
abbrev main_call62_v7 : Ref sig .tc := ⟨.hbm, 1654, rfl⟩
abbrev main_call62_v8 : Ref sig .tc := ⟨.hbm, 1655, rfl⟩
abbrev main_call62_c : Ref sig .tc := ⟨.hbm, 1656, rfl⟩
abbrev main_call62_v9 : Ref sig .tc := ⟨.hbm, 1657, rfl⟩
abbrev main_call62_v10 : Ref sig .tc := ⟨.hbm, 1658, rfl⟩
abbrev main_call62_v11 : Ref sig .tc := ⟨.hbm, 1659, rfl⟩
abbrev main_call62_c_0 : Ref sig .tc := ⟨.hbm, 1660, rfl⟩
abbrev main_call62_v12 : Ref sig .tc := ⟨.hbm, 1661, rfl⟩
abbrev main_call62_v13 : Ref sig .tc := ⟨.hbm, 1662, rfl⟩
abbrev main_v832 : Ref sig .tc := ⟨.hbm, 1663, rfl⟩
abbrev main_v833 : Ref sig .tc := ⟨.hbm, 1664, rfl⟩
abbrev main_v834 : Ref sig .tc := ⟨.hbm, 1665, rfl⟩
abbrev main_c_107 : Ref sig .tc := ⟨.hbm, 1666, rfl⟩
abbrev main_v835 : Ref sig .tc := ⟨.hbm, 1667, rfl⟩
abbrev main_v836 : Ref sig .tc := ⟨.hbm, 1668, rfl⟩
abbrev main_v837 : Ref sig .tc := ⟨.hbm, 1669, rfl⟩
abbrev main_v838 : Ref sig .tc := ⟨.hbm, 1670, rfl⟩
abbrev main_v839 : Ref sig .tc := ⟨.hbm, 1671, rfl⟩
abbrev main_c_108 : Ref sig .tc := ⟨.hbm, 1672, rfl⟩
abbrev main_call63_v0 : Ref sig .tc := ⟨.hbm, 1673, rfl⟩
abbrev main_call63_v1 : Ref sig .tc := ⟨.hbm, 1674, rfl⟩
abbrev main_call63_v2 : Ref sig .tc := ⟨.hbm, 1675, rfl⟩
abbrev main_call63_v3 : Ref sig .tc := ⟨.hbm, 1676, rfl⟩
abbrev main_call63_v4 : Ref sig .tc := ⟨.hbm, 1677, rfl⟩
abbrev main_call63_v5 : Ref sig .tc := ⟨.hbm, 1678, rfl⟩
abbrev main_call63_v6 : Ref sig .tc := ⟨.hbm, 1679, rfl⟩
abbrev main_call63_v7 : Ref sig .tc := ⟨.hbm, 1680, rfl⟩
abbrev main_call63_v8 : Ref sig .tc := ⟨.hbm, 1681, rfl⟩
abbrev main_call63_c : Ref sig .tc := ⟨.hbm, 1682, rfl⟩
abbrev main_call63_v9 : Ref sig .tc := ⟨.hbm, 1683, rfl⟩
abbrev main_call63_v10 : Ref sig .tc := ⟨.hbm, 1684, rfl⟩
abbrev main_call63_v11 : Ref sig .tc := ⟨.hbm, 1685, rfl⟩
abbrev main_call63_c_0 : Ref sig .tc := ⟨.hbm, 1686, rfl⟩
abbrev main_call63_v12 : Ref sig .tc := ⟨.hbm, 1687, rfl⟩
abbrev main_call63_v13 : Ref sig .tc := ⟨.hbm, 1688, rfl⟩
abbrev main_v840 : Ref sig .tc := ⟨.hbm, 1689, rfl⟩
abbrev main_v841 : Ref sig .tc := ⟨.hbm, 1690, rfl⟩
abbrev main_v842 : Ref sig .tc := ⟨.hbm, 1691, rfl⟩
abbrev main_v843 : Ref sig .tc := ⟨.hbm, 1692, rfl⟩
abbrev main_v844 : Ref sig .tc := ⟨.hbm, 1693, rfl⟩
abbrev main_c_109 : Ref sig .tc := ⟨.hbm, 1694, rfl⟩
abbrev main_call64_v0 : Ref sig .tc := ⟨.hbm, 1695, rfl⟩
abbrev main_call64_v1 : Ref sig .tc := ⟨.hbm, 1696, rfl⟩
abbrev main_call64_v2 : Ref sig .tc := ⟨.hbm, 1697, rfl⟩
abbrev main_call64_v3 : Ref sig .tc := ⟨.hbm, 1698, rfl⟩
abbrev main_call64_v4 : Ref sig .tc := ⟨.hbm, 1699, rfl⟩
abbrev main_call64_v5 : Ref sig .tc := ⟨.hbm, 1700, rfl⟩
abbrev main_call64_v6 : Ref sig .tc := ⟨.hbm, 1701, rfl⟩
abbrev main_call64_v7 : Ref sig .tc := ⟨.hbm, 1702, rfl⟩
abbrev main_call64_v8 : Ref sig .tc := ⟨.hbm, 1703, rfl⟩
abbrev main_call64_c : Ref sig .tc := ⟨.hbm, 1704, rfl⟩
abbrev main_call64_v9 : Ref sig .tc := ⟨.hbm, 1705, rfl⟩
abbrev main_call64_v10 : Ref sig .tc := ⟨.hbm, 1706, rfl⟩
abbrev main_call64_v11 : Ref sig .tc := ⟨.hbm, 1707, rfl⟩
abbrev main_call64_c_0 : Ref sig .tc := ⟨.hbm, 1708, rfl⟩
abbrev main_call64_v12 : Ref sig .tc := ⟨.hbm, 1709, rfl⟩
abbrev main_call64_v13 : Ref sig .tc := ⟨.hbm, 1710, rfl⟩
abbrev main_v845 : Ref sig .tc := ⟨.hbm, 1711, rfl⟩
abbrev main_v846 : Ref sig .tc := ⟨.hbm, 1712, rfl⟩
abbrev main_v847 : Ref sig .tc := ⟨.hbm, 1713, rfl⟩
abbrev main_c_110 : Ref sig .tc := ⟨.hbm, 1714, rfl⟩
abbrev main_v848 : Ref sig .tc := ⟨.hbm, 1715, rfl⟩
abbrev main_v849 : Ref sig .tc := ⟨.hbm, 1716, rfl⟩
abbrev main_v850 : Ref sig .tc := ⟨.hbm, 1717, rfl⟩
abbrev main_v851 : Ref sig .tc := ⟨.hbm, 1718, rfl⟩
abbrev main_v852 : Ref sig .tc := ⟨.hbm, 1719, rfl⟩
abbrev main_c_111 : Ref sig .tc := ⟨.hbm, 1720, rfl⟩
abbrev main_call65_v0 : Ref sig .tc := ⟨.hbm, 1721, rfl⟩
abbrev main_call65_v1 : Ref sig .tc := ⟨.hbm, 1722, rfl⟩
abbrev main_call65_v2 : Ref sig .tc := ⟨.hbm, 1723, rfl⟩
abbrev main_call65_v3 : Ref sig .tc := ⟨.hbm, 1724, rfl⟩
abbrev main_call65_v4 : Ref sig .tc := ⟨.hbm, 1725, rfl⟩
abbrev main_call65_v5 : Ref sig .tc := ⟨.hbm, 1726, rfl⟩
abbrev main_call65_v6 : Ref sig .tc := ⟨.hbm, 1727, rfl⟩
abbrev main_call65_v7 : Ref sig .tc := ⟨.hbm, 1728, rfl⟩
abbrev main_call65_v8 : Ref sig .tc := ⟨.hbm, 1729, rfl⟩
abbrev main_call65_c : Ref sig .tc := ⟨.hbm, 1730, rfl⟩
abbrev main_call65_v9 : Ref sig .tc := ⟨.hbm, 1731, rfl⟩
abbrev main_call65_v10 : Ref sig .tc := ⟨.hbm, 1732, rfl⟩
abbrev main_call65_v11 : Ref sig .tc := ⟨.hbm, 1733, rfl⟩
abbrev main_call65_c_0 : Ref sig .tc := ⟨.hbm, 1734, rfl⟩
abbrev main_call65_v12 : Ref sig .tc := ⟨.hbm, 1735, rfl⟩
abbrev main_call65_v13 : Ref sig .tc := ⟨.hbm, 1736, rfl⟩
abbrev main_v853 : Ref sig .tc := ⟨.hbm, 1737, rfl⟩
abbrev main_v854 : Ref sig .tc := ⟨.hbm, 1738, rfl⟩
abbrev main_v855 : Ref sig .tc := ⟨.hbm, 1739, rfl⟩
abbrev main_v856 : Ref sig .tc := ⟨.hbm, 1740, rfl⟩
abbrev main_v857 : Ref sig .tc := ⟨.hbm, 1741, rfl⟩
abbrev main_v858 : Ref sig .tc := ⟨.hbm, 1742, rfl⟩
abbrev main_v859 : Ref sig .tc := ⟨.hbm, 1743, rfl⟩
abbrev main_v860 : Ref sig .tc := ⟨.hbm, 1744, rfl⟩
abbrev main_v861 : Ref sig .tc := ⟨.hbm, 1745, rfl⟩
abbrev main_v862 : Ref sig .tc := ⟨.hbm, 1746, rfl⟩
abbrev main_v863 : Ref sig .tc := ⟨.hbm, 1747, rfl⟩
abbrev main_v864 : Ref sig .tc := ⟨.hbm, 1748, rfl⟩
abbrev main_v865 : Ref sig .tc := ⟨.hbm, 1749, rfl⟩
abbrev main_v866 : Ref sig .tc := ⟨.hbm, 1750, rfl⟩
abbrev main_v867 : Ref sig .tc := ⟨.hbm, 1751, rfl⟩
abbrev main_v868 : Ref sig .tc := ⟨.hbm, 1752, rfl⟩
abbrev main_v869 : Ref sig .tc := ⟨.hbm, 1753, rfl⟩
abbrev main_v870 : Ref sig .tc := ⟨.hbm, 1754, rfl⟩
abbrev main_v871 : Ref sig .tc := ⟨.hbm, 1755, rfl⟩
abbrev main_v872 : Ref sig .tc := ⟨.hbm, 1756, rfl⟩
abbrev main_v873 : Ref sig .tc := ⟨.hbm, 1757, rfl⟩
abbrev main_v874 : Ref sig .tc := ⟨.hbm, 1758, rfl⟩
abbrev main_v875 : Ref sig .tc := ⟨.hbm, 1759, rfl⟩
abbrev main_v876 : Ref sig .tc := ⟨.hbm, 1760, rfl⟩
abbrev main_v877 : Ref sig .tc := ⟨.hbm, 1761, rfl⟩
abbrev main_v878 : Ref sig .tc := ⟨.hbm, 1762, rfl⟩
abbrev main_v879 : Ref sig .tc := ⟨.hbm, 1763, rfl⟩
abbrev main_v880 : Ref sig .tc := ⟨.hbm, 1764, rfl⟩
abbrev main_v881 : Ref sig .tc := ⟨.hbm, 1765, rfl⟩
abbrev main_cst_112 : Ref sig .tc := ⟨.hbm, 1766, rfl⟩
abbrev main_call66_v0 : Ref sig .tc := ⟨.hbm, 1767, rfl⟩
abbrev main_call66_v1 : Ref sig .tc := ⟨.hbm, 1768, rfl⟩
abbrev main_call66_v2 : Ref sig .tc := ⟨.hbm, 1769, rfl⟩
abbrev main_v882 : Ref sig .tc := ⟨.hbm, 1770, rfl⟩
abbrev main_cst_113 : Ref sig .tc := ⟨.hbm, 1771, rfl⟩
abbrev main_v883 : Ref sig .tc := ⟨.hbm, 1772, rfl⟩
abbrev main_v884 : Ref sig .tc := ⟨.hbm, 1773, rfl⟩
abbrev main_v885 : Ref sig .tc := ⟨.hbm, 1774, rfl⟩
abbrev main_cst_114 : Ref sig .tc := ⟨.hbm, 1775, rfl⟩
abbrev main_call67_v0 : Ref sig .tc := ⟨.hbm, 1776, rfl⟩
abbrev main_call67_v1 : Ref sig .tc := ⟨.hbm, 1777, rfl⟩
abbrev main_call67_v2 : Ref sig .tc := ⟨.hbm, 1778, rfl⟩
abbrev main_v886 : Ref sig .tc := ⟨.hbm, 1779, rfl⟩
abbrev main_cst_115 : Ref sig .tc := ⟨.hbm, 1780, rfl⟩
abbrev main_v887 : Ref sig .tc := ⟨.hbm, 1781, rfl⟩
abbrev main_v888 : Ref sig .tc := ⟨.hbm, 1782, rfl⟩
abbrev main_v889 : Ref sig .tc := ⟨.hbm, 1783, rfl⟩
abbrev main_v890 : Ref sig .tc := ⟨.hbm, 1784, rfl⟩
abbrev main_v891 : Ref sig .tc := ⟨.hbm, 1785, rfl⟩
abbrev main_v892 : Ref sig .tc := ⟨.hbm, 1786, rfl⟩
abbrev main_v893 : Ref sig .tc := ⟨.hbm, 1787, rfl⟩
abbrev main_v894 : Ref sig .tc := ⟨.hbm, 1788, rfl⟩
abbrev main_v895 : Ref sig .tc := ⟨.hbm, 1789, rfl⟩
abbrev main_v896 : Ref sig .tc := ⟨.hbm, 1790, rfl⟩
abbrev main_v897 : Ref sig .tc := ⟨.hbm, 1791, rfl⟩
abbrev main_v898 : Ref sig .tc := ⟨.hbm, 1792, rfl⟩
abbrev main_v899 : Ref sig .tc := ⟨.hbm, 1793, rfl⟩
abbrev main_v900 : Ref sig .tc := ⟨.hbm, 1794, rfl⟩
abbrev main_v901 : Ref sig .tc := ⟨.hbm, 1795, rfl⟩
abbrev main_v902 : Ref sig .tc := ⟨.hbm, 1796, rfl⟩
abbrev main_v903 : Ref sig .tc := ⟨.hbm, 1797, rfl⟩
abbrev main_v904 : Ref sig .tc := ⟨.hbm, 1798, rfl⟩
abbrev main_v905 : Ref sig .tc := ⟨.hbm, 1799, rfl⟩
abbrev main_v906 : Ref sig .tc := ⟨.hbm, 1800, rfl⟩
abbrev main_v907 : Ref sig .tc := ⟨.hbm, 1801, rfl⟩
abbrev main_v908 : Ref sig .tc := ⟨.hbm, 1802, rfl⟩
abbrev main_v909 : Ref sig .tc := ⟨.hbm, 1803, rfl⟩
abbrev main_v910 : Ref sig .tc := ⟨.hbm, 1804, rfl⟩
abbrev main_v911 : Ref sig .tc := ⟨.hbm, 1805, rfl⟩
abbrev main_v912 : Ref sig .tc := ⟨.hbm, 1806, rfl⟩
abbrev main_v913 : Ref sig .tc := ⟨.hbm, 1807, rfl⟩
abbrev main_v914 : Ref sig .tc := ⟨.hbm, 1808, rfl⟩
abbrev main_v915 : Ref sig .tc := ⟨.hbm, 1809, rfl⟩
abbrev main_c_116 : Ref sig .tc := ⟨.hbm, 1810, rfl⟩
abbrev main_call68_v0 : Ref sig .tc := ⟨.hbm, 1811, rfl⟩
abbrev main_call68_v1 : Ref sig .tc := ⟨.hbm, 1812, rfl⟩
abbrev main_call68_v2 : Ref sig .tc := ⟨.hbm, 1813, rfl⟩
abbrev main_call68_v3 : Ref sig .tc := ⟨.hbm, 1814, rfl⟩
abbrev main_call68_v4 : Ref sig .tc := ⟨.hbm, 1815, rfl⟩
abbrev main_call68_v5 : Ref sig .tc := ⟨.hbm, 1816, rfl⟩
abbrev main_call68_v6 : Ref sig .tc := ⟨.hbm, 1817, rfl⟩
abbrev main_call68_v7 : Ref sig .tc := ⟨.hbm, 1818, rfl⟩
abbrev main_call68_v8 : Ref sig .tc := ⟨.hbm, 1819, rfl⟩
abbrev main_call68_c : Ref sig .tc := ⟨.hbm, 1820, rfl⟩
abbrev main_call68_v9 : Ref sig .tc := ⟨.hbm, 1821, rfl⟩
abbrev main_call68_v10 : Ref sig .tc := ⟨.hbm, 1822, rfl⟩
abbrev main_call68_v11 : Ref sig .tc := ⟨.hbm, 1823, rfl⟩
abbrev main_call68_c_0 : Ref sig .tc := ⟨.hbm, 1824, rfl⟩
abbrev main_call68_v12 : Ref sig .tc := ⟨.hbm, 1825, rfl⟩
abbrev main_call68_v13 : Ref sig .tc := ⟨.hbm, 1826, rfl⟩
abbrev main_v916 : Ref sig .tc := ⟨.hbm, 1827, rfl⟩
abbrev main_v917 : Ref sig .tc := ⟨.hbm, 1828, rfl⟩
abbrev main_v918 : Ref sig .tc := ⟨.hbm, 1829, rfl⟩
abbrev main_c_117 : Ref sig .tc := ⟨.hbm, 1830, rfl⟩
abbrev main_v919 : Ref sig .tc := ⟨.hbm, 1831, rfl⟩
abbrev main_v920 : Ref sig .tc := ⟨.hbm, 1832, rfl⟩
abbrev main_v921 : Ref sig .tc := ⟨.hbm, 1833, rfl⟩
abbrev main_v922 : Ref sig .tc := ⟨.hbm, 1834, rfl⟩
abbrev main_v923 : Ref sig .tc := ⟨.hbm, 1835, rfl⟩
abbrev main_c_118 : Ref sig .tc := ⟨.hbm, 1836, rfl⟩
abbrev main_call69_v0 : Ref sig .tc := ⟨.hbm, 1837, rfl⟩
abbrev main_call69_v1 : Ref sig .tc := ⟨.hbm, 1838, rfl⟩
abbrev main_call69_v2 : Ref sig .tc := ⟨.hbm, 1839, rfl⟩
abbrev main_call69_v3 : Ref sig .tc := ⟨.hbm, 1840, rfl⟩
abbrev main_call69_v4 : Ref sig .tc := ⟨.hbm, 1841, rfl⟩
abbrev main_call69_v5 : Ref sig .tc := ⟨.hbm, 1842, rfl⟩
abbrev main_call69_v6 : Ref sig .tc := ⟨.hbm, 1843, rfl⟩
abbrev main_call69_v7 : Ref sig .tc := ⟨.hbm, 1844, rfl⟩
abbrev main_call69_v8 : Ref sig .tc := ⟨.hbm, 1845, rfl⟩
abbrev main_call69_c : Ref sig .tc := ⟨.hbm, 1846, rfl⟩
abbrev main_call69_v9 : Ref sig .tc := ⟨.hbm, 1847, rfl⟩
abbrev main_call69_v10 : Ref sig .tc := ⟨.hbm, 1848, rfl⟩
abbrev main_call69_v11 : Ref sig .tc := ⟨.hbm, 1849, rfl⟩
abbrev main_call69_c_0 : Ref sig .tc := ⟨.hbm, 1850, rfl⟩
abbrev main_call69_v12 : Ref sig .tc := ⟨.hbm, 1851, rfl⟩
abbrev main_call69_v13 : Ref sig .tc := ⟨.hbm, 1852, rfl⟩
abbrev main_v924 : Ref sig .tc := ⟨.hbm, 1853, rfl⟩
abbrev main_v925 : Ref sig .tc := ⟨.hbm, 1854, rfl⟩
abbrev main_v926 : Ref sig .tc := ⟨.hbm, 1855, rfl⟩
abbrev main_v927 : Ref sig .tc := ⟨.hbm, 1856, rfl⟩
abbrev main_v928 : Ref sig .tc := ⟨.hbm, 1857, rfl⟩
abbrev main_c_119 : Ref sig .tc := ⟨.hbm, 1858, rfl⟩
abbrev main_call70_v0 : Ref sig .tc := ⟨.hbm, 1859, rfl⟩
abbrev main_call70_v1 : Ref sig .tc := ⟨.hbm, 1860, rfl⟩
abbrev main_call70_v2 : Ref sig .tc := ⟨.hbm, 1861, rfl⟩
abbrev main_call70_v3 : Ref sig .tc := ⟨.hbm, 1862, rfl⟩
abbrev main_call70_v4 : Ref sig .tc := ⟨.hbm, 1863, rfl⟩
abbrev main_call70_v5 : Ref sig .tc := ⟨.hbm, 1864, rfl⟩
abbrev main_call70_v6 : Ref sig .tc := ⟨.hbm, 1865, rfl⟩
abbrev main_call70_v7 : Ref sig .tc := ⟨.hbm, 1866, rfl⟩
abbrev main_call70_v8 : Ref sig .tc := ⟨.hbm, 1867, rfl⟩
abbrev main_call70_c : Ref sig .tc := ⟨.hbm, 1868, rfl⟩
abbrev main_call70_v9 : Ref sig .tc := ⟨.hbm, 1869, rfl⟩
abbrev main_call70_v10 : Ref sig .tc := ⟨.hbm, 1870, rfl⟩
abbrev main_call70_v11 : Ref sig .tc := ⟨.hbm, 1871, rfl⟩
abbrev main_call70_c_0 : Ref sig .tc := ⟨.hbm, 1872, rfl⟩
abbrev main_call70_v12 : Ref sig .tc := ⟨.hbm, 1873, rfl⟩
abbrev main_call70_v13 : Ref sig .tc := ⟨.hbm, 1874, rfl⟩
abbrev main_v929 : Ref sig .tc := ⟨.hbm, 1875, rfl⟩
abbrev main_v930 : Ref sig .tc := ⟨.hbm, 1876, rfl⟩
abbrev main_v931 : Ref sig .tc := ⟨.hbm, 1877, rfl⟩
abbrev main_c_120 : Ref sig .tc := ⟨.hbm, 1878, rfl⟩
abbrev main_v932 : Ref sig .tc := ⟨.hbm, 1879, rfl⟩
abbrev main_v933 : Ref sig .tc := ⟨.hbm, 1880, rfl⟩
abbrev main_v934 : Ref sig .tc := ⟨.hbm, 1881, rfl⟩
abbrev main_v935 : Ref sig .tc := ⟨.hbm, 1882, rfl⟩
abbrev main_v936 : Ref sig .tc := ⟨.hbm, 1883, rfl⟩
abbrev main_c_121 : Ref sig .tc := ⟨.hbm, 1884, rfl⟩
abbrev main_call71_v0 : Ref sig .tc := ⟨.hbm, 1885, rfl⟩
abbrev main_call71_v1 : Ref sig .tc := ⟨.hbm, 1886, rfl⟩
abbrev main_call71_v2 : Ref sig .tc := ⟨.hbm, 1887, rfl⟩
abbrev main_call71_v3 : Ref sig .tc := ⟨.hbm, 1888, rfl⟩
abbrev main_call71_v4 : Ref sig .tc := ⟨.hbm, 1889, rfl⟩
abbrev main_call71_v5 : Ref sig .tc := ⟨.hbm, 1890, rfl⟩
abbrev main_call71_v6 : Ref sig .tc := ⟨.hbm, 1891, rfl⟩
abbrev main_call71_v7 : Ref sig .tc := ⟨.hbm, 1892, rfl⟩
abbrev main_call71_v8 : Ref sig .tc := ⟨.hbm, 1893, rfl⟩
abbrev main_call71_c : Ref sig .tc := ⟨.hbm, 1894, rfl⟩
abbrev main_call71_v9 : Ref sig .tc := ⟨.hbm, 1895, rfl⟩
abbrev main_call71_v10 : Ref sig .tc := ⟨.hbm, 1896, rfl⟩
abbrev main_call71_v11 : Ref sig .tc := ⟨.hbm, 1897, rfl⟩
abbrev main_call71_c_0 : Ref sig .tc := ⟨.hbm, 1898, rfl⟩
abbrev main_call71_v12 : Ref sig .tc := ⟨.hbm, 1899, rfl⟩
abbrev main_call71_v13 : Ref sig .tc := ⟨.hbm, 1900, rfl⟩
abbrev main_v937 : Ref sig .tc := ⟨.hbm, 1901, rfl⟩
abbrev main_v938 : Ref sig .tc := ⟨.hbm, 1902, rfl⟩
abbrev main_v939 : Ref sig .tc := ⟨.hbm, 1903, rfl⟩
abbrev main_v940 : Ref sig .tc := ⟨.hbm, 1904, rfl⟩
abbrev main_v941 : Ref sig .tc := ⟨.hbm, 1905, rfl⟩
abbrev main_v942 : Ref sig .tc := ⟨.hbm, 1906, rfl⟩
abbrev main_v943 : Ref sig .tc := ⟨.hbm, 1907, rfl⟩
abbrev main_v944 : Ref sig .tc := ⟨.hbm, 1908, rfl⟩
abbrev main_v945 : Ref sig .tc := ⟨.hbm, 1909, rfl⟩
abbrev main_v946 : Ref sig .tc := ⟨.hbm, 1910, rfl⟩
abbrev main_v947 : Ref sig .tc := ⟨.hbm, 1911, rfl⟩
abbrev main_v948 : Ref sig .tc := ⟨.hbm, 1912, rfl⟩
abbrev main_v949 : Ref sig .tc := ⟨.hbm, 1913, rfl⟩
abbrev main_v950 : Ref sig .tc := ⟨.hbm, 1914, rfl⟩
abbrev main_v951 : Ref sig .tc := ⟨.hbm, 1915, rfl⟩
abbrev main_v952 : Ref sig .tc := ⟨.hbm, 1916, rfl⟩
abbrev main_v953 : Ref sig .tc := ⟨.hbm, 1917, rfl⟩
abbrev main_v954 : Ref sig .tc := ⟨.hbm, 1918, rfl⟩
abbrev main_v955 : Ref sig .tc := ⟨.hbm, 1919, rfl⟩
abbrev main_v956 : Ref sig .tc := ⟨.hbm, 1920, rfl⟩
abbrev main_v957 : Ref sig .tc := ⟨.hbm, 1921, rfl⟩
abbrev main_v958 : Ref sig .tc := ⟨.hbm, 1922, rfl⟩
abbrev main_v959 : Ref sig .tc := ⟨.hbm, 1923, rfl⟩
abbrev main_v960 : Ref sig .tc := ⟨.hbm, 1924, rfl⟩
abbrev main_v961 : Ref sig .tc := ⟨.hbm, 1925, rfl⟩
abbrev main_v962 : Ref sig .tc := ⟨.hbm, 1926, rfl⟩
abbrev main_v963 : Ref sig .tc := ⟨.hbm, 1927, rfl⟩
abbrev main_v964 : Ref sig .tc := ⟨.hbm, 1928, rfl⟩
abbrev main_v965 : Ref sig .tc := ⟨.hbm, 1929, rfl⟩
abbrev main_cst_122 : Ref sig .tc := ⟨.hbm, 1930, rfl⟩
abbrev main_call72_v0 : Ref sig .tc := ⟨.hbm, 1931, rfl⟩
abbrev main_call72_v1 : Ref sig .tc := ⟨.hbm, 1932, rfl⟩
abbrev main_call72_v2 : Ref sig .tc := ⟨.hbm, 1933, rfl⟩
abbrev main_v966 : Ref sig .tc := ⟨.hbm, 1934, rfl⟩
abbrev main_cst_123 : Ref sig .tc := ⟨.hbm, 1935, rfl⟩
abbrev main_v967 : Ref sig .tc := ⟨.hbm, 1936, rfl⟩
abbrev main_v968 : Ref sig .tc := ⟨.hbm, 1937, rfl⟩
abbrev main_v969 : Ref sig .tc := ⟨.hbm, 1938, rfl⟩
abbrev main_cst_124 : Ref sig .tc := ⟨.hbm, 1939, rfl⟩
abbrev main_call73_v0 : Ref sig .tc := ⟨.hbm, 1940, rfl⟩
abbrev main_call73_v1 : Ref sig .tc := ⟨.hbm, 1941, rfl⟩
abbrev main_call73_v2 : Ref sig .tc := ⟨.hbm, 1942, rfl⟩
abbrev main_v970 : Ref sig .tc := ⟨.hbm, 1943, rfl⟩
abbrev main_cst_125 : Ref sig .tc := ⟨.hbm, 1944, rfl⟩
abbrev main_v971 : Ref sig .tc := ⟨.hbm, 1945, rfl⟩
abbrev main_v972 : Ref sig .tc := ⟨.hbm, 1946, rfl⟩
abbrev main_v973 : Ref sig .tc := ⟨.hbm, 1947, rfl⟩
abbrev main_v974 : Ref sig .tc := ⟨.hbm, 1948, rfl⟩
abbrev main_v975 : Ref sig .tc := ⟨.hbm, 1949, rfl⟩
abbrev main_v976 : Ref sig .tc := ⟨.hbm, 1950, rfl⟩
abbrev main_v977 : Ref sig .tc := ⟨.hbm, 1951, rfl⟩
abbrev main_v978 : Ref sig .tc := ⟨.hbm, 1952, rfl⟩
abbrev main_v979 : Ref sig .tc := ⟨.hbm, 1953, rfl⟩
abbrev main_v980 : Ref sig .tc := ⟨.hbm, 1954, rfl⟩
abbrev main_v981 : Ref sig .tc := ⟨.hbm, 1955, rfl⟩
abbrev main_v982 : Ref sig .tc := ⟨.hbm, 1956, rfl⟩
abbrev main_v983 : Ref sig .tc := ⟨.hbm, 1957, rfl⟩
abbrev main_v984 : Ref sig .tc := ⟨.hbm, 1958, rfl⟩
abbrev main_v985 : Ref sig .tc := ⟨.hbm, 1959, rfl⟩
abbrev main_v986 : Ref sig .tc := ⟨.hbm, 1960, rfl⟩
abbrev main_v987 : Ref sig .tc := ⟨.hbm, 1961, rfl⟩
abbrev main_v988 : Ref sig .tc := ⟨.hbm, 1962, rfl⟩
abbrev main_v989 : Ref sig .tc := ⟨.hbm, 1963, rfl⟩
abbrev main_v990 : Ref sig .tc := ⟨.hbm, 1964, rfl⟩
abbrev main_v991 : Ref sig .tc := ⟨.hbm, 1965, rfl⟩
abbrev main_v992 : Ref sig .tc := ⟨.hbm, 1966, rfl⟩
abbrev main_v993 : Ref sig .tc := ⟨.hbm, 1967, rfl⟩
abbrev main_v994 : Ref sig .tc := ⟨.hbm, 1968, rfl⟩
abbrev main_v995 : Ref sig .tc := ⟨.hbm, 1969, rfl⟩
abbrev main_v996 : Ref sig .tc := ⟨.hbm, 1970, rfl⟩
abbrev main_v997 : Ref sig .tc := ⟨.hbm, 1971, rfl⟩
abbrev main_v998 : Ref sig .tc := ⟨.hbm, 1972, rfl⟩
abbrev main_v999 : Ref sig .tc := ⟨.hbm, 1973, rfl⟩
abbrev main_c_126 : Ref sig .tc := ⟨.hbm, 1974, rfl⟩
abbrev main_call74_v0 : Ref sig .tc := ⟨.hbm, 1975, rfl⟩
abbrev main_call74_v1 : Ref sig .tc := ⟨.hbm, 1976, rfl⟩
abbrev main_call74_v2 : Ref sig .tc := ⟨.hbm, 1977, rfl⟩
abbrev main_call74_v3 : Ref sig .tc := ⟨.hbm, 1978, rfl⟩
abbrev main_call74_v4 : Ref sig .tc := ⟨.hbm, 1979, rfl⟩
abbrev main_call74_v5 : Ref sig .tc := ⟨.hbm, 1980, rfl⟩
abbrev main_call74_v6 : Ref sig .tc := ⟨.hbm, 1981, rfl⟩
abbrev main_call74_v7 : Ref sig .tc := ⟨.hbm, 1982, rfl⟩
abbrev main_call74_v8 : Ref sig .tc := ⟨.hbm, 1983, rfl⟩
abbrev main_call74_c : Ref sig .tc := ⟨.hbm, 1984, rfl⟩
abbrev main_call74_v9 : Ref sig .tc := ⟨.hbm, 1985, rfl⟩
abbrev main_call74_v10 : Ref sig .tc := ⟨.hbm, 1986, rfl⟩
abbrev main_call74_v11 : Ref sig .tc := ⟨.hbm, 1987, rfl⟩
abbrev main_call74_c_0 : Ref sig .tc := ⟨.hbm, 1988, rfl⟩
abbrev main_call74_v12 : Ref sig .tc := ⟨.hbm, 1989, rfl⟩
abbrev main_call74_v13 : Ref sig .tc := ⟨.hbm, 1990, rfl⟩
abbrev main_v1000 : Ref sig .tc := ⟨.hbm, 1991, rfl⟩
abbrev main_v1001 : Ref sig .tc := ⟨.hbm, 1992, rfl⟩
abbrev main_v1002 : Ref sig .tc := ⟨.hbm, 1993, rfl⟩
abbrev main_c_127 : Ref sig .tc := ⟨.hbm, 1994, rfl⟩
abbrev main_v1003 : Ref sig .tc := ⟨.hbm, 1995, rfl⟩
abbrev main_v1004 : Ref sig .tc := ⟨.hbm, 1996, rfl⟩
abbrev main_v1005 : Ref sig .tc := ⟨.hbm, 1997, rfl⟩
abbrev main_v1006 : Ref sig .tc := ⟨.hbm, 1998, rfl⟩
abbrev main_v1007 : Ref sig .tc := ⟨.hbm, 1999, rfl⟩
abbrev main_c_128 : Ref sig .tc := ⟨.hbm, 2000, rfl⟩
abbrev main_call75_v0 : Ref sig .tc := ⟨.hbm, 2001, rfl⟩
abbrev main_call75_v1 : Ref sig .tc := ⟨.hbm, 2002, rfl⟩
abbrev main_call75_v2 : Ref sig .tc := ⟨.hbm, 2003, rfl⟩
abbrev main_call75_v3 : Ref sig .tc := ⟨.hbm, 2004, rfl⟩
abbrev main_call75_v4 : Ref sig .tc := ⟨.hbm, 2005, rfl⟩
abbrev main_call75_v5 : Ref sig .tc := ⟨.hbm, 2006, rfl⟩
abbrev main_call75_v6 : Ref sig .tc := ⟨.hbm, 2007, rfl⟩
abbrev main_call75_v7 : Ref sig .tc := ⟨.hbm, 2008, rfl⟩
abbrev main_call75_v8 : Ref sig .tc := ⟨.hbm, 2009, rfl⟩
abbrev main_call75_c : Ref sig .tc := ⟨.hbm, 2010, rfl⟩
abbrev main_call75_v9 : Ref sig .tc := ⟨.hbm, 2011, rfl⟩
abbrev main_call75_v10 : Ref sig .tc := ⟨.hbm, 2012, rfl⟩
abbrev main_call75_v11 : Ref sig .tc := ⟨.hbm, 2013, rfl⟩
abbrev main_call75_c_0 : Ref sig .tc := ⟨.hbm, 2014, rfl⟩
abbrev main_call75_v12 : Ref sig .tc := ⟨.hbm, 2015, rfl⟩
abbrev main_call75_v13 : Ref sig .tc := ⟨.hbm, 2016, rfl⟩
abbrev main_v1008 : Ref sig .tc := ⟨.hbm, 2017, rfl⟩
abbrev main_v1009 : Ref sig .tc := ⟨.hbm, 2018, rfl⟩
abbrev main_v1010 : Ref sig .tc := ⟨.hbm, 2019, rfl⟩
abbrev main_v1011 : Ref sig .tc := ⟨.hbm, 2020, rfl⟩
abbrev main_v1012 : Ref sig .tc := ⟨.hbm, 2021, rfl⟩
abbrev main_c_129 : Ref sig .tc := ⟨.hbm, 2022, rfl⟩
abbrev main_call76_v0 : Ref sig .tc := ⟨.hbm, 2023, rfl⟩
abbrev main_call76_v1 : Ref sig .tc := ⟨.hbm, 2024, rfl⟩
abbrev main_call76_v2 : Ref sig .tc := ⟨.hbm, 2025, rfl⟩
abbrev main_call76_v3 : Ref sig .tc := ⟨.hbm, 2026, rfl⟩
abbrev main_call76_v4 : Ref sig .tc := ⟨.hbm, 2027, rfl⟩
abbrev main_call76_v5 : Ref sig .tc := ⟨.hbm, 2028, rfl⟩
abbrev main_call76_v6 : Ref sig .tc := ⟨.hbm, 2029, rfl⟩
abbrev main_call76_v7 : Ref sig .tc := ⟨.hbm, 2030, rfl⟩
abbrev main_call76_v8 : Ref sig .tc := ⟨.hbm, 2031, rfl⟩
abbrev main_call76_c : Ref sig .tc := ⟨.hbm, 2032, rfl⟩
abbrev main_call76_v9 : Ref sig .tc := ⟨.hbm, 2033, rfl⟩
abbrev main_call76_v10 : Ref sig .tc := ⟨.hbm, 2034, rfl⟩
abbrev main_call76_v11 : Ref sig .tc := ⟨.hbm, 2035, rfl⟩
abbrev main_call76_c_0 : Ref sig .tc := ⟨.hbm, 2036, rfl⟩
abbrev main_call76_v12 : Ref sig .tc := ⟨.hbm, 2037, rfl⟩
abbrev main_call76_v13 : Ref sig .tc := ⟨.hbm, 2038, rfl⟩
abbrev main_v1013 : Ref sig .tc := ⟨.hbm, 2039, rfl⟩
abbrev main_v1014 : Ref sig .tc := ⟨.hbm, 2040, rfl⟩
abbrev main_v1015 : Ref sig .tc := ⟨.hbm, 2041, rfl⟩
abbrev main_c_130 : Ref sig .tc := ⟨.hbm, 2042, rfl⟩
abbrev main_v1016 : Ref sig .tc := ⟨.hbm, 2043, rfl⟩
abbrev main_v1017 : Ref sig .tc := ⟨.hbm, 2044, rfl⟩
abbrev main_v1018 : Ref sig .tc := ⟨.hbm, 2045, rfl⟩
abbrev main_v1019 : Ref sig .tc := ⟨.hbm, 2046, rfl⟩
abbrev main_v1020 : Ref sig .tc := ⟨.hbm, 2047, rfl⟩
abbrev main_c_131 : Ref sig .tc := ⟨.hbm, 2048, rfl⟩
abbrev main_call77_v0 : Ref sig .tc := ⟨.hbm, 2049, rfl⟩
abbrev main_call77_v1 : Ref sig .tc := ⟨.hbm, 2050, rfl⟩
abbrev main_call77_v2 : Ref sig .tc := ⟨.hbm, 2051, rfl⟩
abbrev main_call77_v3 : Ref sig .tc := ⟨.hbm, 2052, rfl⟩
abbrev main_call77_v4 : Ref sig .tc := ⟨.hbm, 2053, rfl⟩
abbrev main_call77_v5 : Ref sig .tc := ⟨.hbm, 2054, rfl⟩
abbrev main_call77_v6 : Ref sig .tc := ⟨.hbm, 2055, rfl⟩
abbrev main_call77_v7 : Ref sig .tc := ⟨.hbm, 2056, rfl⟩
abbrev main_call77_v8 : Ref sig .tc := ⟨.hbm, 2057, rfl⟩
abbrev main_call77_c : Ref sig .tc := ⟨.hbm, 2058, rfl⟩
abbrev main_call77_v9 : Ref sig .tc := ⟨.hbm, 2059, rfl⟩
abbrev main_call77_v10 : Ref sig .tc := ⟨.hbm, 2060, rfl⟩
abbrev main_call77_v11 : Ref sig .tc := ⟨.hbm, 2061, rfl⟩
abbrev main_call77_c_0 : Ref sig .tc := ⟨.hbm, 2062, rfl⟩
abbrev main_call77_v12 : Ref sig .tc := ⟨.hbm, 2063, rfl⟩
abbrev main_call77_v13 : Ref sig .tc := ⟨.hbm, 2064, rfl⟩
abbrev main_v1021 : Ref sig .tc := ⟨.hbm, 2065, rfl⟩
abbrev main_v1022 : Ref sig .tc := ⟨.hbm, 2066, rfl⟩
abbrev main_v1023 : Ref sig .tc := ⟨.hbm, 2067, rfl⟩
abbrev main_v1024 : Ref sig .tc := ⟨.hbm, 2068, rfl⟩
abbrev main_v1025 : Ref sig .tc := ⟨.hbm, 2069, rfl⟩
abbrev main_v1026 : Ref sig .tc := ⟨.hbm, 2070, rfl⟩
abbrev main_v1027 : Ref sig .tc := ⟨.hbm, 2071, rfl⟩
abbrev main_v1028 : Ref sig .tc := ⟨.hbm, 2072, rfl⟩
abbrev main_v1029 : Ref sig .tc := ⟨.hbm, 2073, rfl⟩
abbrev main_v1030 : Ref sig .tc := ⟨.hbm, 2074, rfl⟩
abbrev main_v1031 : Ref sig .tc := ⟨.hbm, 2075, rfl⟩
abbrev main_v1032 : Ref sig .tc := ⟨.hbm, 2076, rfl⟩
abbrev main_v1033 : Ref sig .tc := ⟨.hbm, 2077, rfl⟩
abbrev main_v1034 : Ref sig .tc := ⟨.hbm, 2078, rfl⟩
abbrev main_v1035 : Ref sig .tc := ⟨.hbm, 2079, rfl⟩
abbrev main_v1036 : Ref sig .tc := ⟨.hbm, 2080, rfl⟩
abbrev main_v1037 : Ref sig .tc := ⟨.hbm, 2081, rfl⟩
abbrev main_v1038 : Ref sig .tc := ⟨.hbm, 2082, rfl⟩
abbrev main_v1039 : Ref sig .tc := ⟨.hbm, 2083, rfl⟩
abbrev main_v1040 : Ref sig .tc := ⟨.hbm, 2084, rfl⟩
abbrev main_v1041 : Ref sig .tc := ⟨.hbm, 2085, rfl⟩
abbrev main_v1042 : Ref sig .tc := ⟨.hbm, 2086, rfl⟩
abbrev main_v1043 : Ref sig .tc := ⟨.hbm, 2087, rfl⟩
abbrev main_v1044 : Ref sig .tc := ⟨.hbm, 2088, rfl⟩
abbrev main_v1045 : Ref sig .tc := ⟨.hbm, 2089, rfl⟩
abbrev main_v1046 : Ref sig .tc := ⟨.hbm, 2090, rfl⟩
abbrev main_v1047 : Ref sig .tc := ⟨.hbm, 2091, rfl⟩
abbrev main_v1048 : Ref sig .tc := ⟨.hbm, 2092, rfl⟩
abbrev main_v1049 : Ref sig .tc := ⟨.hbm, 2093, rfl⟩
abbrev main_cst_132 : Ref sig .tc := ⟨.hbm, 2094, rfl⟩
abbrev main_call78_v0 : Ref sig .tc := ⟨.hbm, 2095, rfl⟩
abbrev main_call78_v1 : Ref sig .tc := ⟨.hbm, 2096, rfl⟩
abbrev main_call78_v2 : Ref sig .tc := ⟨.hbm, 2097, rfl⟩
abbrev main_v1050 : Ref sig .tc := ⟨.hbm, 2098, rfl⟩
abbrev main_cst_133 : Ref sig .tc := ⟨.hbm, 2099, rfl⟩
abbrev main_v1051 : Ref sig .tc := ⟨.hbm, 2100, rfl⟩
abbrev main_v1052 : Ref sig .tc := ⟨.hbm, 2101, rfl⟩
abbrev main_v1053 : Ref sig .tc := ⟨.hbm, 2102, rfl⟩
abbrev main_cst_134 : Ref sig .tc := ⟨.hbm, 2103, rfl⟩
abbrev main_call79_v0 : Ref sig .tc := ⟨.hbm, 2104, rfl⟩
abbrev main_call79_v1 : Ref sig .tc := ⟨.hbm, 2105, rfl⟩
abbrev main_call79_v2 : Ref sig .tc := ⟨.hbm, 2106, rfl⟩
abbrev main_v1054 : Ref sig .tc := ⟨.hbm, 2107, rfl⟩
abbrev main_cst_135 : Ref sig .tc := ⟨.hbm, 2108, rfl⟩
abbrev main_v1055 : Ref sig .tc := ⟨.hbm, 2109, rfl⟩
abbrev main_v1056 : Ref sig .tc := ⟨.hbm, 2110, rfl⟩
abbrev main_v1057 : Ref sig .tc := ⟨.hbm, 2111, rfl⟩
abbrev main_v1058 : Ref sig .tc := ⟨.hbm, 2112, rfl⟩
abbrev main_v1059 : Ref sig .tc := ⟨.hbm, 2113, rfl⟩
abbrev main_v1060 : Ref sig .tc := ⟨.hbm, 2114, rfl⟩
abbrev main_v1061 : Ref sig .tc := ⟨.hbm, 2115, rfl⟩
abbrev main_v1062 : Ref sig .tc := ⟨.hbm, 2116, rfl⟩
abbrev main_v1063 : Ref sig .tc := ⟨.hbm, 2117, rfl⟩
abbrev main_v1064 : Ref sig .tc := ⟨.hbm, 2118, rfl⟩
abbrev main_v1065 : Ref sig .tc := ⟨.hbm, 2119, rfl⟩
abbrev main_v1066 : Ref sig .tc := ⟨.hbm, 2120, rfl⟩
abbrev main_v1067 : Ref sig .tc := ⟨.hbm, 2121, rfl⟩
abbrev main_v1068 : Ref sig .tc := ⟨.hbm, 2122, rfl⟩
abbrev main_v1069 : Ref sig .tc := ⟨.hbm, 2123, rfl⟩
abbrev main_v1070 : Ref sig .tc := ⟨.hbm, 2124, rfl⟩
abbrev main_v1071 : Ref sig .tc := ⟨.hbm, 2125, rfl⟩
abbrev main_v1072 : Ref sig .tc := ⟨.hbm, 2126, rfl⟩
abbrev main_v1073 : Ref sig .tc := ⟨.hbm, 2127, rfl⟩
abbrev main_v1074 : Ref sig .tc := ⟨.hbm, 2128, rfl⟩
abbrev main_v1075 : Ref sig .tc := ⟨.hbm, 2129, rfl⟩
abbrev main_v1076 : Ref sig .tc := ⟨.hbm, 2130, rfl⟩
abbrev main_v1077 : Ref sig .tc := ⟨.hbm, 2131, rfl⟩
abbrev main_v1078 : Ref sig .tc := ⟨.hbm, 2132, rfl⟩
abbrev main_v1079 : Ref sig .tc := ⟨.hbm, 2133, rfl⟩
abbrev main_v1080 : Ref sig .tc := ⟨.hbm, 2134, rfl⟩
abbrev main_v1081 : Ref sig .tc := ⟨.hbm, 2135, rfl⟩
abbrev main_v1082 : Ref sig .tc := ⟨.hbm, 2136, rfl⟩
abbrev main_v1083 : Ref sig .tc := ⟨.hbm, 2137, rfl⟩
abbrev main_c_136 : Ref sig .tc := ⟨.hbm, 2138, rfl⟩
abbrev main_call80_v0 : Ref sig .tc := ⟨.hbm, 2139, rfl⟩
abbrev main_call80_v1 : Ref sig .tc := ⟨.hbm, 2140, rfl⟩
abbrev main_call80_v2 : Ref sig .tc := ⟨.hbm, 2141, rfl⟩
abbrev main_call80_v3 : Ref sig .tc := ⟨.hbm, 2142, rfl⟩
abbrev main_call80_v4 : Ref sig .tc := ⟨.hbm, 2143, rfl⟩
abbrev main_call80_v5 : Ref sig .tc := ⟨.hbm, 2144, rfl⟩
abbrev main_call80_v6 : Ref sig .tc := ⟨.hbm, 2145, rfl⟩
abbrev main_call80_v7 : Ref sig .tc := ⟨.hbm, 2146, rfl⟩
abbrev main_call80_v8 : Ref sig .tc := ⟨.hbm, 2147, rfl⟩
abbrev main_call80_c : Ref sig .tc := ⟨.hbm, 2148, rfl⟩
abbrev main_call80_v9 : Ref sig .tc := ⟨.hbm, 2149, rfl⟩
abbrev main_call80_v10 : Ref sig .tc := ⟨.hbm, 2150, rfl⟩
abbrev main_call80_v11 : Ref sig .tc := ⟨.hbm, 2151, rfl⟩
abbrev main_call80_c_0 : Ref sig .tc := ⟨.hbm, 2152, rfl⟩
abbrev main_call80_v12 : Ref sig .tc := ⟨.hbm, 2153, rfl⟩
abbrev main_call80_v13 : Ref sig .tc := ⟨.hbm, 2154, rfl⟩
abbrev main_v1084 : Ref sig .tc := ⟨.hbm, 2155, rfl⟩
abbrev main_v1085 : Ref sig .tc := ⟨.hbm, 2156, rfl⟩
abbrev main_v1086 : Ref sig .tc := ⟨.hbm, 2157, rfl⟩
abbrev main_c_137 : Ref sig .tc := ⟨.hbm, 2158, rfl⟩
abbrev main_v1087 : Ref sig .tc := ⟨.hbm, 2159, rfl⟩
abbrev main_v1088 : Ref sig .tc := ⟨.hbm, 2160, rfl⟩
abbrev main_v1089 : Ref sig .tc := ⟨.hbm, 2161, rfl⟩
abbrev main_v1090 : Ref sig .tc := ⟨.hbm, 2162, rfl⟩
abbrev main_v1091 : Ref sig .tc := ⟨.hbm, 2163, rfl⟩
abbrev main_c_138 : Ref sig .tc := ⟨.hbm, 2164, rfl⟩
abbrev main_call81_v0 : Ref sig .tc := ⟨.hbm, 2165, rfl⟩
abbrev main_call81_v1 : Ref sig .tc := ⟨.hbm, 2166, rfl⟩
abbrev main_call81_v2 : Ref sig .tc := ⟨.hbm, 2167, rfl⟩
abbrev main_call81_v3 : Ref sig .tc := ⟨.hbm, 2168, rfl⟩
abbrev main_call81_v4 : Ref sig .tc := ⟨.hbm, 2169, rfl⟩
abbrev main_call81_v5 : Ref sig .tc := ⟨.hbm, 2170, rfl⟩
abbrev main_call81_v6 : Ref sig .tc := ⟨.hbm, 2171, rfl⟩
abbrev main_call81_v7 : Ref sig .tc := ⟨.hbm, 2172, rfl⟩
abbrev main_call81_v8 : Ref sig .tc := ⟨.hbm, 2173, rfl⟩
abbrev main_call81_c : Ref sig .tc := ⟨.hbm, 2174, rfl⟩
abbrev main_call81_v9 : Ref sig .tc := ⟨.hbm, 2175, rfl⟩
abbrev main_call81_v10 : Ref sig .tc := ⟨.hbm, 2176, rfl⟩
abbrev main_call81_v11 : Ref sig .tc := ⟨.hbm, 2177, rfl⟩
abbrev main_call81_c_0 : Ref sig .tc := ⟨.hbm, 2178, rfl⟩
abbrev main_call81_v12 : Ref sig .tc := ⟨.hbm, 2179, rfl⟩
abbrev main_call81_v13 : Ref sig .tc := ⟨.hbm, 2180, rfl⟩
abbrev main_v1092 : Ref sig .tc := ⟨.hbm, 2181, rfl⟩
abbrev main_v1093 : Ref sig .tc := ⟨.hbm, 2182, rfl⟩
abbrev main_v1094 : Ref sig .tc := ⟨.hbm, 2183, rfl⟩
abbrev main_v1095 : Ref sig .tc := ⟨.hbm, 2184, rfl⟩
abbrev main_v1096 : Ref sig .tc := ⟨.hbm, 2185, rfl⟩
abbrev main_c_139 : Ref sig .tc := ⟨.hbm, 2186, rfl⟩
abbrev main_call82_v0 : Ref sig .tc := ⟨.hbm, 2187, rfl⟩
abbrev main_call82_v1 : Ref sig .tc := ⟨.hbm, 2188, rfl⟩
abbrev main_call82_v2 : Ref sig .tc := ⟨.hbm, 2189, rfl⟩
abbrev main_call82_v3 : Ref sig .tc := ⟨.hbm, 2190, rfl⟩
abbrev main_call82_v4 : Ref sig .tc := ⟨.hbm, 2191, rfl⟩
abbrev main_call82_v5 : Ref sig .tc := ⟨.hbm, 2192, rfl⟩
abbrev main_call82_v6 : Ref sig .tc := ⟨.hbm, 2193, rfl⟩
abbrev main_call82_v7 : Ref sig .tc := ⟨.hbm, 2194, rfl⟩
abbrev main_call82_v8 : Ref sig .tc := ⟨.hbm, 2195, rfl⟩
abbrev main_call82_c : Ref sig .tc := ⟨.hbm, 2196, rfl⟩
abbrev main_call82_v9 : Ref sig .tc := ⟨.hbm, 2197, rfl⟩
abbrev main_call82_v10 : Ref sig .tc := ⟨.hbm, 2198, rfl⟩
abbrev main_call82_v11 : Ref sig .tc := ⟨.hbm, 2199, rfl⟩
abbrev main_call82_c_0 : Ref sig .tc := ⟨.hbm, 2200, rfl⟩
abbrev main_call82_v12 : Ref sig .tc := ⟨.hbm, 2201, rfl⟩
abbrev main_call82_v13 : Ref sig .tc := ⟨.hbm, 2202, rfl⟩
abbrev main_v1097 : Ref sig .tc := ⟨.hbm, 2203, rfl⟩
abbrev main_v1098 : Ref sig .tc := ⟨.hbm, 2204, rfl⟩
abbrev main_v1099 : Ref sig .tc := ⟨.hbm, 2205, rfl⟩
abbrev main_c_140 : Ref sig .tc := ⟨.hbm, 2206, rfl⟩
abbrev main_v1100 : Ref sig .tc := ⟨.hbm, 2207, rfl⟩
abbrev main_v1101 : Ref sig .tc := ⟨.hbm, 2208, rfl⟩
abbrev main_v1102 : Ref sig .tc := ⟨.hbm, 2209, rfl⟩
abbrev main_v1103 : Ref sig .tc := ⟨.hbm, 2210, rfl⟩
abbrev main_v1104 : Ref sig .tc := ⟨.hbm, 2211, rfl⟩
abbrev main_c_141 : Ref sig .tc := ⟨.hbm, 2212, rfl⟩
abbrev main_call83_v0 : Ref sig .tc := ⟨.hbm, 2213, rfl⟩
abbrev main_call83_v1 : Ref sig .tc := ⟨.hbm, 2214, rfl⟩
abbrev main_call83_v2 : Ref sig .tc := ⟨.hbm, 2215, rfl⟩
abbrev main_call83_v3 : Ref sig .tc := ⟨.hbm, 2216, rfl⟩
abbrev main_call83_v4 : Ref sig .tc := ⟨.hbm, 2217, rfl⟩
abbrev main_call83_v5 : Ref sig .tc := ⟨.hbm, 2218, rfl⟩
abbrev main_call83_v6 : Ref sig .tc := ⟨.hbm, 2219, rfl⟩
abbrev main_call83_v7 : Ref sig .tc := ⟨.hbm, 2220, rfl⟩
abbrev main_call83_v8 : Ref sig .tc := ⟨.hbm, 2221, rfl⟩
abbrev main_call83_c : Ref sig .tc := ⟨.hbm, 2222, rfl⟩
abbrev main_call83_v9 : Ref sig .tc := ⟨.hbm, 2223, rfl⟩
abbrev main_call83_v10 : Ref sig .tc := ⟨.hbm, 2224, rfl⟩
abbrev main_call83_v11 : Ref sig .tc := ⟨.hbm, 2225, rfl⟩
abbrev main_call83_c_0 : Ref sig .tc := ⟨.hbm, 2226, rfl⟩
abbrev main_call83_v12 : Ref sig .tc := ⟨.hbm, 2227, rfl⟩
abbrev main_call83_v13 : Ref sig .tc := ⟨.hbm, 2228, rfl⟩
abbrev main_v1105 : Ref sig .tc := ⟨.hbm, 2229, rfl⟩
abbrev main_v1106 : Ref sig .tc := ⟨.hbm, 2230, rfl⟩
abbrev main_v1107 : Ref sig .tc := ⟨.hbm, 2231, rfl⟩
abbrev main_v1108 : Ref sig .tc := ⟨.hbm, 2232, rfl⟩
abbrev main_v1109 : Ref sig .tc := ⟨.hbm, 2233, rfl⟩
abbrev main_v1110 : Ref sig .tc := ⟨.hbm, 2234, rfl⟩
abbrev main_v1111 : Ref sig .tc := ⟨.hbm, 2235, rfl⟩
abbrev main_v1112 : Ref sig .tc := ⟨.hbm, 2236, rfl⟩
abbrev main_v1113 : Ref sig .tc := ⟨.hbm, 2237, rfl⟩
abbrev main_v1114 : Ref sig .tc := ⟨.hbm, 2238, rfl⟩
abbrev main_v1115 : Ref sig .tc := ⟨.hbm, 2239, rfl⟩
abbrev main_v1116 : Ref sig .tc := ⟨.hbm, 2240, rfl⟩
abbrev main_v1117 : Ref sig .tc := ⟨.hbm, 2241, rfl⟩
abbrev main_v1118 : Ref sig .tc := ⟨.hbm, 2242, rfl⟩
abbrev main_v1119 : Ref sig .tc := ⟨.hbm, 2243, rfl⟩
abbrev main_v1120 : Ref sig .tc := ⟨.hbm, 2244, rfl⟩
abbrev main_v1121 : Ref sig .tc := ⟨.hbm, 2245, rfl⟩
abbrev main_v1122 : Ref sig .tc := ⟨.hbm, 2246, rfl⟩
abbrev main_v1123 : Ref sig .tc := ⟨.hbm, 2247, rfl⟩
abbrev main_v1124 : Ref sig .tc := ⟨.hbm, 2248, rfl⟩
abbrev main_v1125 : Ref sig .tc := ⟨.hbm, 2249, rfl⟩
abbrev main_v1126 : Ref sig .tc := ⟨.hbm, 2250, rfl⟩
abbrev main_v1127 : Ref sig .tc := ⟨.hbm, 2251, rfl⟩
abbrev main_v1128 : Ref sig .tc := ⟨.hbm, 2252, rfl⟩
abbrev main_v1129 : Ref sig .tc := ⟨.hbm, 2253, rfl⟩
abbrev main_v1130 : Ref sig .tc := ⟨.hbm, 2254, rfl⟩
abbrev main_v1131 : Ref sig .tc := ⟨.hbm, 2255, rfl⟩
abbrev main_v1132 : Ref sig .tc := ⟨.hbm, 2256, rfl⟩
abbrev main_v1133 : Ref sig .tc := ⟨.hbm, 2257, rfl⟩
abbrev main_cst_142 : Ref sig .tc := ⟨.hbm, 2258, rfl⟩
abbrev main_call84_v0 : Ref sig .tc := ⟨.hbm, 2259, rfl⟩
abbrev main_call84_v1 : Ref sig .tc := ⟨.hbm, 2260, rfl⟩
abbrev main_call84_v2 : Ref sig .tc := ⟨.hbm, 2261, rfl⟩
abbrev main_v1134 : Ref sig .tc := ⟨.hbm, 2262, rfl⟩
abbrev main_cst_143 : Ref sig .tc := ⟨.hbm, 2263, rfl⟩
abbrev main_v1135 : Ref sig .tc := ⟨.hbm, 2264, rfl⟩
abbrev main_v1136 : Ref sig .tc := ⟨.hbm, 2265, rfl⟩
abbrev main_v1137 : Ref sig .tc := ⟨.hbm, 2266, rfl⟩
abbrev main_cst_144 : Ref sig .tc := ⟨.hbm, 2267, rfl⟩
abbrev main_call85_v0 : Ref sig .tc := ⟨.hbm, 2268, rfl⟩
abbrev main_call85_v1 : Ref sig .tc := ⟨.hbm, 2269, rfl⟩
abbrev main_call85_v2 : Ref sig .tc := ⟨.hbm, 2270, rfl⟩
abbrev main_v1138 : Ref sig .tc := ⟨.hbm, 2271, rfl⟩
abbrev main_cst_145 : Ref sig .tc := ⟨.hbm, 2272, rfl⟩
abbrev main_v1139 : Ref sig .tc := ⟨.hbm, 2273, rfl⟩
abbrev main_v1140 : Ref sig .tc := ⟨.hbm, 2274, rfl⟩
abbrev main_v1141 : Ref sig .tc := ⟨.hbm, 2275, rfl⟩
abbrev main_v1142 : Ref sig .tc := ⟨.hbm, 2276, rfl⟩
abbrev main_v1143 : Ref sig .tc := ⟨.hbm, 2277, rfl⟩
abbrev main_v1144 : Ref sig .tc := ⟨.hbm, 2278, rfl⟩
abbrev main_v1145 : Ref sig .tc := ⟨.hbm, 2279, rfl⟩
abbrev main_v1146 : Ref sig .tc := ⟨.hbm, 2280, rfl⟩
abbrev main_v1147 : Ref sig .tc := ⟨.hbm, 2281, rfl⟩
abbrev main_v1148 : Ref sig .tc := ⟨.hbm, 2282, rfl⟩
abbrev main_v1149 : Ref sig .tc := ⟨.hbm, 2283, rfl⟩
abbrev main_v1150 : Ref sig .tc := ⟨.hbm, 2284, rfl⟩
abbrev main_v1151 : Ref sig .tc := ⟨.hbm, 2285, rfl⟩
abbrev main_v1152 : Ref sig .tc := ⟨.hbm, 2286, rfl⟩
abbrev main_v1153 : Ref sig .tc := ⟨.hbm, 2287, rfl⟩
abbrev main_v1154 : Ref sig .tc := ⟨.hbm, 2288, rfl⟩
abbrev main_v1155 : Ref sig .tc := ⟨.hbm, 2289, rfl⟩
abbrev main_v1156 : Ref sig .tc := ⟨.hbm, 2290, rfl⟩
abbrev main_v1157 : Ref sig .tc := ⟨.hbm, 2291, rfl⟩
abbrev main_v1158 : Ref sig .tc := ⟨.hbm, 2292, rfl⟩
abbrev main_v1159 : Ref sig .tc := ⟨.hbm, 2293, rfl⟩
abbrev main_v1160 : Ref sig .tc := ⟨.hbm, 2294, rfl⟩
abbrev main_v1161 : Ref sig .tc := ⟨.hbm, 2295, rfl⟩
abbrev main_v1162 : Ref sig .tc := ⟨.hbm, 2296, rfl⟩
abbrev main_v1163 : Ref sig .tc := ⟨.hbm, 2297, rfl⟩
abbrev main_v1164 : Ref sig .tc := ⟨.hbm, 2298, rfl⟩
abbrev main_v1165 : Ref sig .tc := ⟨.hbm, 2299, rfl⟩
abbrev main_v1166 : Ref sig .tc := ⟨.hbm, 2300, rfl⟩
abbrev main_v1167 : Ref sig .tc := ⟨.hbm, 2301, rfl⟩
abbrev main_c_146 : Ref sig .tc := ⟨.hbm, 2302, rfl⟩
abbrev main_call86_v0 : Ref sig .tc := ⟨.hbm, 2303, rfl⟩
abbrev main_call86_v1 : Ref sig .tc := ⟨.hbm, 2304, rfl⟩
abbrev main_call86_v2 : Ref sig .tc := ⟨.hbm, 2305, rfl⟩
abbrev main_call86_v3 : Ref sig .tc := ⟨.hbm, 2306, rfl⟩
abbrev main_call86_v4 : Ref sig .tc := ⟨.hbm, 2307, rfl⟩
abbrev main_call86_v5 : Ref sig .tc := ⟨.hbm, 2308, rfl⟩
abbrev main_call86_v6 : Ref sig .tc := ⟨.hbm, 2309, rfl⟩
abbrev main_call86_v7 : Ref sig .tc := ⟨.hbm, 2310, rfl⟩
abbrev main_call86_v8 : Ref sig .tc := ⟨.hbm, 2311, rfl⟩
abbrev main_call86_c : Ref sig .tc := ⟨.hbm, 2312, rfl⟩
abbrev main_call86_v9 : Ref sig .tc := ⟨.hbm, 2313, rfl⟩
abbrev main_call86_v10 : Ref sig .tc := ⟨.hbm, 2314, rfl⟩
abbrev main_call86_v11 : Ref sig .tc := ⟨.hbm, 2315, rfl⟩
abbrev main_call86_c_0 : Ref sig .tc := ⟨.hbm, 2316, rfl⟩
abbrev main_call86_v12 : Ref sig .tc := ⟨.hbm, 2317, rfl⟩
abbrev main_call86_v13 : Ref sig .tc := ⟨.hbm, 2318, rfl⟩
abbrev main_v1168 : Ref sig .tc := ⟨.hbm, 2319, rfl⟩
abbrev main_v1169 : Ref sig .tc := ⟨.hbm, 2320, rfl⟩
abbrev main_v1170 : Ref sig .tc := ⟨.hbm, 2321, rfl⟩
abbrev main_c_147 : Ref sig .tc := ⟨.hbm, 2322, rfl⟩
abbrev main_v1171 : Ref sig .tc := ⟨.hbm, 2323, rfl⟩
abbrev main_v1172 : Ref sig .tc := ⟨.hbm, 2324, rfl⟩
abbrev main_v1173 : Ref sig .tc := ⟨.hbm, 2325, rfl⟩
abbrev main_v1174 : Ref sig .tc := ⟨.hbm, 2326, rfl⟩
abbrev main_v1175 : Ref sig .tc := ⟨.hbm, 2327, rfl⟩
abbrev main_c_148 : Ref sig .tc := ⟨.hbm, 2328, rfl⟩
abbrev main_call87_v0 : Ref sig .tc := ⟨.hbm, 2329, rfl⟩
abbrev main_call87_v1 : Ref sig .tc := ⟨.hbm, 2330, rfl⟩
abbrev main_call87_v2 : Ref sig .tc := ⟨.hbm, 2331, rfl⟩
abbrev main_call87_v3 : Ref sig .tc := ⟨.hbm, 2332, rfl⟩
abbrev main_call87_v4 : Ref sig .tc := ⟨.hbm, 2333, rfl⟩
abbrev main_call87_v5 : Ref sig .tc := ⟨.hbm, 2334, rfl⟩
abbrev main_call87_v6 : Ref sig .tc := ⟨.hbm, 2335, rfl⟩
abbrev main_call87_v7 : Ref sig .tc := ⟨.hbm, 2336, rfl⟩
abbrev main_call87_v8 : Ref sig .tc := ⟨.hbm, 2337, rfl⟩
abbrev main_call87_c : Ref sig .tc := ⟨.hbm, 2338, rfl⟩
abbrev main_call87_v9 : Ref sig .tc := ⟨.hbm, 2339, rfl⟩
abbrev main_call87_v10 : Ref sig .tc := ⟨.hbm, 2340, rfl⟩
abbrev main_call87_v11 : Ref sig .tc := ⟨.hbm, 2341, rfl⟩
abbrev main_call87_c_0 : Ref sig .tc := ⟨.hbm, 2342, rfl⟩
abbrev main_call87_v12 : Ref sig .tc := ⟨.hbm, 2343, rfl⟩
abbrev main_call87_v13 : Ref sig .tc := ⟨.hbm, 2344, rfl⟩
abbrev main_v1176 : Ref sig .tc := ⟨.hbm, 2345, rfl⟩
abbrev main_v1177 : Ref sig .tc := ⟨.hbm, 2346, rfl⟩
abbrev main_v1178 : Ref sig .tc := ⟨.hbm, 2347, rfl⟩
abbrev main_v1179 : Ref sig .tc := ⟨.hbm, 2348, rfl⟩
abbrev main_v1180 : Ref sig .tc := ⟨.hbm, 2349, rfl⟩
abbrev main_c_149 : Ref sig .tc := ⟨.hbm, 2350, rfl⟩
abbrev main_call88_v0 : Ref sig .tc := ⟨.hbm, 2351, rfl⟩
abbrev main_call88_v1 : Ref sig .tc := ⟨.hbm, 2352, rfl⟩
abbrev main_call88_v2 : Ref sig .tc := ⟨.hbm, 2353, rfl⟩
abbrev main_call88_v3 : Ref sig .tc := ⟨.hbm, 2354, rfl⟩
abbrev main_call88_v4 : Ref sig .tc := ⟨.hbm, 2355, rfl⟩
abbrev main_call88_v5 : Ref sig .tc := ⟨.hbm, 2356, rfl⟩
abbrev main_call88_v6 : Ref sig .tc := ⟨.hbm, 2357, rfl⟩
abbrev main_call88_v7 : Ref sig .tc := ⟨.hbm, 2358, rfl⟩
abbrev main_call88_v8 : Ref sig .tc := ⟨.hbm, 2359, rfl⟩
abbrev main_call88_c : Ref sig .tc := ⟨.hbm, 2360, rfl⟩
abbrev main_call88_v9 : Ref sig .tc := ⟨.hbm, 2361, rfl⟩
abbrev main_call88_v10 : Ref sig .tc := ⟨.hbm, 2362, rfl⟩
abbrev main_call88_v11 : Ref sig .tc := ⟨.hbm, 2363, rfl⟩
abbrev main_call88_c_0 : Ref sig .tc := ⟨.hbm, 2364, rfl⟩
abbrev main_call88_v12 : Ref sig .tc := ⟨.hbm, 2365, rfl⟩
abbrev main_call88_v13 : Ref sig .tc := ⟨.hbm, 2366, rfl⟩
abbrev main_v1181 : Ref sig .tc := ⟨.hbm, 2367, rfl⟩
abbrev main_v1182 : Ref sig .tc := ⟨.hbm, 2368, rfl⟩
abbrev main_v1183 : Ref sig .tc := ⟨.hbm, 2369, rfl⟩
abbrev main_c_150 : Ref sig .tc := ⟨.hbm, 2370, rfl⟩
abbrev main_v1184 : Ref sig .tc := ⟨.hbm, 2371, rfl⟩
abbrev main_v1185 : Ref sig .tc := ⟨.hbm, 2372, rfl⟩
abbrev main_v1186 : Ref sig .tc := ⟨.hbm, 2373, rfl⟩
abbrev main_v1187 : Ref sig .tc := ⟨.hbm, 2374, rfl⟩
abbrev main_v1188 : Ref sig .tc := ⟨.hbm, 2375, rfl⟩
abbrev main_c_151 : Ref sig .tc := ⟨.hbm, 2376, rfl⟩
abbrev main_call89_v0 : Ref sig .tc := ⟨.hbm, 2377, rfl⟩
abbrev main_call89_v1 : Ref sig .tc := ⟨.hbm, 2378, rfl⟩
abbrev main_call89_v2 : Ref sig .tc := ⟨.hbm, 2379, rfl⟩
abbrev main_call89_v3 : Ref sig .tc := ⟨.hbm, 2380, rfl⟩
abbrev main_call89_v4 : Ref sig .tc := ⟨.hbm, 2381, rfl⟩
abbrev main_call89_v5 : Ref sig .tc := ⟨.hbm, 2382, rfl⟩
abbrev main_call89_v6 : Ref sig .tc := ⟨.hbm, 2383, rfl⟩
abbrev main_call89_v7 : Ref sig .tc := ⟨.hbm, 2384, rfl⟩
abbrev main_call89_v8 : Ref sig .tc := ⟨.hbm, 2385, rfl⟩
abbrev main_call89_c : Ref sig .tc := ⟨.hbm, 2386, rfl⟩
abbrev main_call89_v9 : Ref sig .tc := ⟨.hbm, 2387, rfl⟩
abbrev main_call89_v10 : Ref sig .tc := ⟨.hbm, 2388, rfl⟩
abbrev main_call89_v11 : Ref sig .tc := ⟨.hbm, 2389, rfl⟩
abbrev main_call89_c_0 : Ref sig .tc := ⟨.hbm, 2390, rfl⟩
abbrev main_call89_v12 : Ref sig .tc := ⟨.hbm, 2391, rfl⟩
abbrev main_call89_v13 : Ref sig .tc := ⟨.hbm, 2392, rfl⟩
abbrev main_v1189 : Ref sig .tc := ⟨.hbm, 2393, rfl⟩
abbrev main_v1190 : Ref sig .tc := ⟨.hbm, 2394, rfl⟩
abbrev main_v1191 : Ref sig .tc := ⟨.hbm, 2395, rfl⟩
abbrev main_v1192 : Ref sig .tc := ⟨.hbm, 2396, rfl⟩
abbrev main_v1193 : Ref sig .tc := ⟨.hbm, 2397, rfl⟩
abbrev main_v1194 : Ref sig .tc := ⟨.hbm, 2398, rfl⟩
abbrev main_v1195 : Ref sig .tc := ⟨.hbm, 2399, rfl⟩
abbrev main_v1196 : Ref sig .tc := ⟨.hbm, 2400, rfl⟩
abbrev main_v1197 : Ref sig .tc := ⟨.hbm, 2401, rfl⟩
abbrev main_v1198 : Ref sig .tc := ⟨.hbm, 2402, rfl⟩
abbrev main_v1199 : Ref sig .tc := ⟨.hbm, 2403, rfl⟩
abbrev main_v1200 : Ref sig .tc := ⟨.hbm, 2404, rfl⟩
abbrev main_v1201 : Ref sig .tc := ⟨.hbm, 2405, rfl⟩
abbrev main_v1202 : Ref sig .tc := ⟨.hbm, 2406, rfl⟩
abbrev main_v1203 : Ref sig .tc := ⟨.hbm, 2407, rfl⟩
abbrev main_v1204 : Ref sig .tc := ⟨.hbm, 2408, rfl⟩
abbrev main_v1205 : Ref sig .tc := ⟨.hbm, 2409, rfl⟩
abbrev main_v1206 : Ref sig .tc := ⟨.hbm, 2410, rfl⟩
abbrev main_v1207 : Ref sig .tc := ⟨.hbm, 2411, rfl⟩
abbrev main_v1208 : Ref sig .tc := ⟨.hbm, 2412, rfl⟩
abbrev main_v1209 : Ref sig .tc := ⟨.hbm, 2413, rfl⟩
abbrev main_v1210 : Ref sig .tc := ⟨.hbm, 2414, rfl⟩
abbrev main_v1211 : Ref sig .tc := ⟨.hbm, 2415, rfl⟩
abbrev main_v1212 : Ref sig .tc := ⟨.hbm, 2416, rfl⟩
abbrev main_v1213 : Ref sig .tc := ⟨.hbm, 2417, rfl⟩
abbrev main_v1214 : Ref sig .tc := ⟨.hbm, 2418, rfl⟩
abbrev main_v1215 : Ref sig .tc := ⟨.hbm, 2419, rfl⟩
abbrev main_v1216 : Ref sig .tc := ⟨.hbm, 2420, rfl⟩
abbrev main_v1217 : Ref sig .tc := ⟨.hbm, 2421, rfl⟩
abbrev main_cst_152 : Ref sig .tc := ⟨.hbm, 2422, rfl⟩
abbrev main_call90_v0 : Ref sig .tc := ⟨.hbm, 2423, rfl⟩
abbrev main_call90_v1 : Ref sig .tc := ⟨.hbm, 2424, rfl⟩
abbrev main_call90_v2 : Ref sig .tc := ⟨.hbm, 2425, rfl⟩
abbrev main_v1218 : Ref sig .tc := ⟨.hbm, 2426, rfl⟩
abbrev main_cst_153 : Ref sig .tc := ⟨.hbm, 2427, rfl⟩
abbrev main_v1219 : Ref sig .tc := ⟨.hbm, 2428, rfl⟩
abbrev main_v1220 : Ref sig .tc := ⟨.hbm, 2429, rfl⟩
abbrev main_v1221 : Ref sig .tc := ⟨.hbm, 2430, rfl⟩
abbrev main_cst_154 : Ref sig .tc := ⟨.hbm, 2431, rfl⟩
abbrev main_call91_v0 : Ref sig .tc := ⟨.hbm, 2432, rfl⟩
abbrev main_call91_v1 : Ref sig .tc := ⟨.hbm, 2433, rfl⟩
abbrev main_call91_v2 : Ref sig .tc := ⟨.hbm, 2434, rfl⟩
abbrev main_v1222 : Ref sig .tc := ⟨.hbm, 2435, rfl⟩
abbrev main_cst_155 : Ref sig .tc := ⟨.hbm, 2436, rfl⟩
abbrev main_v1223 : Ref sig .tc := ⟨.hbm, 2437, rfl⟩
abbrev main_v1224 : Ref sig .tc := ⟨.hbm, 2438, rfl⟩
abbrev main_v1225 : Ref sig .tc := ⟨.hbm, 2439, rfl⟩
abbrev main_v1226 : Ref sig .tc := ⟨.hbm, 2440, rfl⟩
abbrev main_v1227 : Ref sig .tc := ⟨.hbm, 2441, rfl⟩
abbrev main_v1228 : Ref sig .tc := ⟨.hbm, 2442, rfl⟩
abbrev main_v1229 : Ref sig .tc := ⟨.hbm, 2443, rfl⟩
abbrev main_v1230 : Ref sig .tc := ⟨.hbm, 2444, rfl⟩
abbrev main_v1231 : Ref sig .tc := ⟨.hbm, 2445, rfl⟩
abbrev main_v1232 : Ref sig .tc := ⟨.hbm, 2446, rfl⟩
abbrev main_v1233 : Ref sig .tc := ⟨.hbm, 2447, rfl⟩
abbrev main_v1234 : Ref sig .tc := ⟨.hbm, 2448, rfl⟩
abbrev main_v1235 : Ref sig .tc := ⟨.hbm, 2449, rfl⟩
abbrev main_v1236 : Ref sig .tc := ⟨.hbm, 2450, rfl⟩
abbrev main_v1237 : Ref sig .tc := ⟨.hbm, 2451, rfl⟩
abbrev main_v1238 : Ref sig .tc := ⟨.hbm, 2452, rfl⟩
abbrev main_v1239 : Ref sig .tc := ⟨.hbm, 2453, rfl⟩
abbrev main_v1240 : Ref sig .tc := ⟨.hbm, 2454, rfl⟩
abbrev main_v1241 : Ref sig .tc := ⟨.hbm, 2455, rfl⟩
abbrev main_v1242 : Ref sig .tc := ⟨.hbm, 2456, rfl⟩
abbrev main_v1243 : Ref sig .tc := ⟨.hbm, 2457, rfl⟩
abbrev main_v1244 : Ref sig .tc := ⟨.hbm, 2458, rfl⟩
abbrev main_v1245 : Ref sig .tc := ⟨.hbm, 2459, rfl⟩
abbrev main_v1246 : Ref sig .tc := ⟨.hbm, 2460, rfl⟩
abbrev main_v1247 : Ref sig .tc := ⟨.hbm, 2461, rfl⟩
abbrev main_v1248 : Ref sig .tc := ⟨.hbm, 2462, rfl⟩
abbrev main_v1249 : Ref sig .tc := ⟨.hbm, 2463, rfl⟩
abbrev main_v1250 : Ref sig .tc := ⟨.hbm, 2464, rfl⟩
abbrev main_v1251 : Ref sig .tc := ⟨.hbm, 2465, rfl⟩
abbrev main_c_156 : Ref sig .tc := ⟨.hbm, 2466, rfl⟩
abbrev main_call92_v0 : Ref sig .tc := ⟨.hbm, 2467, rfl⟩
abbrev main_call92_v1 : Ref sig .tc := ⟨.hbm, 2468, rfl⟩
abbrev main_call92_v2 : Ref sig .tc := ⟨.hbm, 2469, rfl⟩
abbrev main_call92_v3 : Ref sig .tc := ⟨.hbm, 2470, rfl⟩
abbrev main_call92_v4 : Ref sig .tc := ⟨.hbm, 2471, rfl⟩
abbrev main_call92_v5 : Ref sig .tc := ⟨.hbm, 2472, rfl⟩
abbrev main_call92_v6 : Ref sig .tc := ⟨.hbm, 2473, rfl⟩
abbrev main_call92_v7 : Ref sig .tc := ⟨.hbm, 2474, rfl⟩
abbrev main_call92_v8 : Ref sig .tc := ⟨.hbm, 2475, rfl⟩
abbrev main_call92_c : Ref sig .tc := ⟨.hbm, 2476, rfl⟩
abbrev main_call92_v9 : Ref sig .tc := ⟨.hbm, 2477, rfl⟩
abbrev main_call92_v10 : Ref sig .tc := ⟨.hbm, 2478, rfl⟩
abbrev main_call92_v11 : Ref sig .tc := ⟨.hbm, 2479, rfl⟩
abbrev main_call92_c_0 : Ref sig .tc := ⟨.hbm, 2480, rfl⟩
abbrev main_call92_v12 : Ref sig .tc := ⟨.hbm, 2481, rfl⟩
abbrev main_call92_v13 : Ref sig .tc := ⟨.hbm, 2482, rfl⟩
abbrev main_v1252 : Ref sig .tc := ⟨.hbm, 2483, rfl⟩
abbrev main_v1253 : Ref sig .tc := ⟨.hbm, 2484, rfl⟩
abbrev main_v1254 : Ref sig .tc := ⟨.hbm, 2485, rfl⟩
abbrev main_c_157 : Ref sig .tc := ⟨.hbm, 2486, rfl⟩
abbrev main_v1255 : Ref sig .tc := ⟨.hbm, 2487, rfl⟩
abbrev main_v1256 : Ref sig .tc := ⟨.hbm, 2488, rfl⟩
abbrev main_v1257 : Ref sig .tc := ⟨.hbm, 2489, rfl⟩
abbrev main_v1258 : Ref sig .tc := ⟨.hbm, 2490, rfl⟩
abbrev main_v1259 : Ref sig .tc := ⟨.hbm, 2491, rfl⟩
abbrev main_c_158 : Ref sig .tc := ⟨.hbm, 2492, rfl⟩
abbrev main_call93_v0 : Ref sig .tc := ⟨.hbm, 2493, rfl⟩
abbrev main_call93_v1 : Ref sig .tc := ⟨.hbm, 2494, rfl⟩
abbrev main_call93_v2 : Ref sig .tc := ⟨.hbm, 2495, rfl⟩
abbrev main_call93_v3 : Ref sig .tc := ⟨.hbm, 2496, rfl⟩
abbrev main_call93_v4 : Ref sig .tc := ⟨.hbm, 2497, rfl⟩
abbrev main_call93_v5 : Ref sig .tc := ⟨.hbm, 2498, rfl⟩
abbrev main_call93_v6 : Ref sig .tc := ⟨.hbm, 2499, rfl⟩
abbrev main_call93_v7 : Ref sig .tc := ⟨.hbm, 2500, rfl⟩
abbrev main_call93_v8 : Ref sig .tc := ⟨.hbm, 2501, rfl⟩
abbrev main_call93_c : Ref sig .tc := ⟨.hbm, 2502, rfl⟩
abbrev main_call93_v9 : Ref sig .tc := ⟨.hbm, 2503, rfl⟩
abbrev main_call93_v10 : Ref sig .tc := ⟨.hbm, 2504, rfl⟩
abbrev main_call93_v11 : Ref sig .tc := ⟨.hbm, 2505, rfl⟩
abbrev main_call93_c_0 : Ref sig .tc := ⟨.hbm, 2506, rfl⟩
abbrev main_call93_v12 : Ref sig .tc := ⟨.hbm, 2507, rfl⟩
abbrev main_call93_v13 : Ref sig .tc := ⟨.hbm, 2508, rfl⟩
abbrev main_v1260 : Ref sig .tc := ⟨.hbm, 2509, rfl⟩
abbrev main_v1261 : Ref sig .tc := ⟨.hbm, 2510, rfl⟩
abbrev main_v1262 : Ref sig .tc := ⟨.hbm, 2511, rfl⟩
abbrev main_v1263 : Ref sig .tc := ⟨.hbm, 2512, rfl⟩
abbrev main_v1264 : Ref sig .tc := ⟨.hbm, 2513, rfl⟩
abbrev main_c_159 : Ref sig .tc := ⟨.hbm, 2514, rfl⟩
abbrev main_call94_v0 : Ref sig .tc := ⟨.hbm, 2515, rfl⟩
abbrev main_call94_v1 : Ref sig .tc := ⟨.hbm, 2516, rfl⟩
abbrev main_call94_v2 : Ref sig .tc := ⟨.hbm, 2517, rfl⟩
abbrev main_call94_v3 : Ref sig .tc := ⟨.hbm, 2518, rfl⟩
abbrev main_call94_v4 : Ref sig .tc := ⟨.hbm, 2519, rfl⟩
abbrev main_call94_v5 : Ref sig .tc := ⟨.hbm, 2520, rfl⟩
abbrev main_call94_v6 : Ref sig .tc := ⟨.hbm, 2521, rfl⟩
abbrev main_call94_v7 : Ref sig .tc := ⟨.hbm, 2522, rfl⟩
abbrev main_call94_v8 : Ref sig .tc := ⟨.hbm, 2523, rfl⟩
abbrev main_call94_c : Ref sig .tc := ⟨.hbm, 2524, rfl⟩
abbrev main_call94_v9 : Ref sig .tc := ⟨.hbm, 2525, rfl⟩
abbrev main_call94_v10 : Ref sig .tc := ⟨.hbm, 2526, rfl⟩
abbrev main_call94_v11 : Ref sig .tc := ⟨.hbm, 2527, rfl⟩
abbrev main_call94_c_0 : Ref sig .tc := ⟨.hbm, 2528, rfl⟩
abbrev main_call94_v12 : Ref sig .tc := ⟨.hbm, 2529, rfl⟩
abbrev main_call94_v13 : Ref sig .tc := ⟨.hbm, 2530, rfl⟩
abbrev main_v1265 : Ref sig .tc := ⟨.hbm, 2531, rfl⟩
abbrev main_v1266 : Ref sig .tc := ⟨.hbm, 2532, rfl⟩
abbrev main_v1267 : Ref sig .tc := ⟨.hbm, 2533, rfl⟩
abbrev main_c_160 : Ref sig .tc := ⟨.hbm, 2534, rfl⟩
abbrev main_v1268 : Ref sig .tc := ⟨.hbm, 2535, rfl⟩
abbrev main_v1269 : Ref sig .tc := ⟨.hbm, 2536, rfl⟩
abbrev main_v1270 : Ref sig .tc := ⟨.hbm, 2537, rfl⟩
abbrev main_v1271 : Ref sig .tc := ⟨.hbm, 2538, rfl⟩
abbrev main_v1272 : Ref sig .tc := ⟨.hbm, 2539, rfl⟩
abbrev main_c_161 : Ref sig .tc := ⟨.hbm, 2540, rfl⟩
abbrev main_call95_v0 : Ref sig .tc := ⟨.hbm, 2541, rfl⟩
abbrev main_call95_v1 : Ref sig .tc := ⟨.hbm, 2542, rfl⟩
abbrev main_call95_v2 : Ref sig .tc := ⟨.hbm, 2543, rfl⟩
abbrev main_call95_v3 : Ref sig .tc := ⟨.hbm, 2544, rfl⟩
abbrev main_call95_v4 : Ref sig .tc := ⟨.hbm, 2545, rfl⟩
abbrev main_call95_v5 : Ref sig .tc := ⟨.hbm, 2546, rfl⟩
abbrev main_call95_v6 : Ref sig .tc := ⟨.hbm, 2547, rfl⟩
abbrev main_call95_v7 : Ref sig .tc := ⟨.hbm, 2548, rfl⟩
abbrev main_call95_v8 : Ref sig .tc := ⟨.hbm, 2549, rfl⟩
abbrev main_call95_c : Ref sig .tc := ⟨.hbm, 2550, rfl⟩
abbrev main_call95_v9 : Ref sig .tc := ⟨.hbm, 2551, rfl⟩
abbrev main_call95_v10 : Ref sig .tc := ⟨.hbm, 2552, rfl⟩
abbrev main_call95_v11 : Ref sig .tc := ⟨.hbm, 2553, rfl⟩
abbrev main_call95_c_0 : Ref sig .tc := ⟨.hbm, 2554, rfl⟩
abbrev main_call95_v12 : Ref sig .tc := ⟨.hbm, 2555, rfl⟩
abbrev main_call95_v13 : Ref sig .tc := ⟨.hbm, 2556, rfl⟩
abbrev main_v1273 : Ref sig .tc := ⟨.hbm, 2557, rfl⟩
abbrev main_v1274 : Ref sig .tc := ⟨.hbm, 2558, rfl⟩
abbrev main_v1275 : Ref sig .tc := ⟨.hbm, 2559, rfl⟩
abbrev main_v1276 : Ref sig .tc := ⟨.hbm, 2560, rfl⟩
abbrev main_v1277 : Ref sig .tc := ⟨.hbm, 2561, rfl⟩
abbrev main_v1278 : Ref sig .tc := ⟨.hbm, 2562, rfl⟩
abbrev main_v1279 : Ref sig .tc := ⟨.hbm, 2563, rfl⟩
abbrev main_v1280 : Ref sig .tc := ⟨.hbm, 2564, rfl⟩
abbrev main_v1281 : Ref sig .tc := ⟨.hbm, 2565, rfl⟩
abbrev main_v1282 : Ref sig .tc := ⟨.hbm, 2566, rfl⟩
abbrev main_v1283 : Ref sig .tc := ⟨.hbm, 2567, rfl⟩
abbrev main_v1284 : Ref sig .tc := ⟨.hbm, 2568, rfl⟩
abbrev main_v1285 : Ref sig .tc := ⟨.hbm, 2569, rfl⟩
abbrev main_v1286 : Ref sig .tc := ⟨.hbm, 2570, rfl⟩
abbrev main_v1287 : Ref sig .tc := ⟨.hbm, 2571, rfl⟩
abbrev main_v1288 : Ref sig .tc := ⟨.hbm, 2572, rfl⟩
abbrev main_v1289 : Ref sig .tc := ⟨.hbm, 2573, rfl⟩
abbrev main_v1290 : Ref sig .tc := ⟨.hbm, 2574, rfl⟩
abbrev main_v1291 : Ref sig .tc := ⟨.hbm, 2575, rfl⟩
abbrev main_v1292 : Ref sig .tc := ⟨.hbm, 2576, rfl⟩
abbrev main_v1293 : Ref sig .tc := ⟨.hbm, 2577, rfl⟩
abbrev main_v1294 : Ref sig .tc := ⟨.hbm, 2578, rfl⟩
abbrev main_v1295 : Ref sig .tc := ⟨.hbm, 2579, rfl⟩
abbrev main_v1296 : Ref sig .tc := ⟨.hbm, 2580, rfl⟩
abbrev main_v1297 : Ref sig .tc := ⟨.hbm, 2581, rfl⟩
abbrev main_v1298 : Ref sig .tc := ⟨.hbm, 2582, rfl⟩
abbrev main_v1299 : Ref sig .tc := ⟨.hbm, 2583, rfl⟩
abbrev main_v1300 : Ref sig .tc := ⟨.hbm, 2584, rfl⟩
abbrev main_v1301 : Ref sig .tc := ⟨.hbm, 2585, rfl⟩
abbrev main_cst_162 : Ref sig .tc := ⟨.hbm, 2586, rfl⟩
abbrev main_call96_v0 : Ref sig .tc := ⟨.hbm, 2587, rfl⟩
abbrev main_call96_v1 : Ref sig .tc := ⟨.hbm, 2588, rfl⟩
abbrev main_call96_v2 : Ref sig .tc := ⟨.hbm, 2589, rfl⟩
abbrev main_v1302 : Ref sig .tc := ⟨.hbm, 2590, rfl⟩
abbrev main_cst_163 : Ref sig .tc := ⟨.hbm, 2591, rfl⟩
abbrev main_v1303 : Ref sig .tc := ⟨.hbm, 2592, rfl⟩
abbrev main_v1304 : Ref sig .tc := ⟨.hbm, 2593, rfl⟩
abbrev main_v1305 : Ref sig .tc := ⟨.hbm, 2594, rfl⟩
abbrev main_cst_164 : Ref sig .tc := ⟨.hbm, 2595, rfl⟩
abbrev main_call97_v0 : Ref sig .tc := ⟨.hbm, 2596, rfl⟩
abbrev main_call97_v1 : Ref sig .tc := ⟨.hbm, 2597, rfl⟩
abbrev main_call97_v2 : Ref sig .tc := ⟨.hbm, 2598, rfl⟩
abbrev main_v1306 : Ref sig .tc := ⟨.hbm, 2599, rfl⟩
abbrev main_cst_165 : Ref sig .tc := ⟨.hbm, 2600, rfl⟩
abbrev main_v1307 : Ref sig .tc := ⟨.hbm, 2601, rfl⟩
abbrev main_v1308 : Ref sig .tc := ⟨.hbm, 2602, rfl⟩
abbrev main_v1309 : Ref sig .tc := ⟨.hbm, 2603, rfl⟩
abbrev main_v1310 : Ref sig .tc := ⟨.hbm, 2604, rfl⟩
abbrev main_v1311 : Ref sig .tc := ⟨.hbm, 2605, rfl⟩
abbrev main_v1312 : Ref sig .tc := ⟨.hbm, 2606, rfl⟩
abbrev main_v1313 : Ref sig .tc := ⟨.hbm, 2607, rfl⟩
abbrev main_v1314 : Ref sig .tc := ⟨.hbm, 2608, rfl⟩
abbrev main_v1315 : Ref sig .tc := ⟨.hbm, 2609, rfl⟩
abbrev main_v1316 : Ref sig .tc := ⟨.hbm, 2610, rfl⟩
abbrev main_v1317 : Ref sig .tc := ⟨.hbm, 2611, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v14 : BitVec 1 := Scalar.cmpi .eq arg0 c48_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1x512x64x64_S512x64x64 : S1x512x64x64.ShapeCasts S512x64x64
  slices_S2_S1_0 : S2.Slices ![0] S1
  shapeCasts_S1_S_ : S1.ShapeCasts S_
  slices_S2_S1_1 : S2.Slices ![1] S1
  bcast_S_S1 : S_.BroadcastsInDim S1 (![] : Fin 0 → Fin S1.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S3x4_0_1 : S1x4.BroadcastsInDim S3x4 (![0, 1] : Fin 2 → Fin S3x4.rank)
  bcast_S1x4_S4x4_0_1 : S1x4.BroadcastsInDim S4x4 (![0, 1] : Fin 2 → Fin S4x4.rank)
  bcast_S_S7 : S_.BroadcastsInDim S7 (![] : Fin 0 → Fin S7.rank)
  bcast_S64_S1x64_1 : S64.BroadcastsInDim S1x64 (![1] : Fin 1 → Fin S1x64.rank)
  bcast_S7_S7x1_0 : S7.BroadcastsInDim S7x1 (![0] : Fin 1 → Fin S7x1.rank)
  bcast_S1x64_S7x64_0_1 : S1x64.BroadcastsInDim S7x64 (![0, 1] : Fin 2 → Fin S7x64.rank)
  bcast_S7x1_S7x64_0_1 : S7x1.BroadcastsInDim S7x64 (![0, 1] : Fin 2 → Fin S7x64.rank)
  bcast_S7x64_S7x1x64x1_0_2 : S7x64.BroadcastsInDim S7x1x64x1 (![0, 2] : Fin 2 → Fin S7x1x64x1.rank)
  bcast_S512x64x64_S1x512x64x64_1_2_3 : S512x64x64.BroadcastsInDim S1x512x64x64 (![1, 2, 3] : Fin 3 → Fin S1x512x64x64.rank)
  bcast_S7x1x64x1_S7x512x64x64_0_1_2_3 : S7x1x64x1.BroadcastsInDim S7x512x64x64 (![0, 1, 2, 3] : Fin 4 → Fin S7x512x64x64.rank)
  bcast_S1x512x64x64_S7x512x64x64_0_1_2_3 : S1x512x64x64.BroadcastsInDim S7x512x64x64 (![0, 1, 2, 3] : Fin 4 → Fin S7x512x64x64.rank)
  bcast_S_S7x512x64x64 : S_.BroadcastsInDim S7x512x64x64 (![] : Fin 0 → Fin S7x512x64x64.rank)
  reducesTo_S7x512x64x64_S7x512x64_d2 : S7x512x64x64.ReducesTo [2] S7x512x64
  h_S_ : 0 < S_.numel
  bcast_S7x64_S1x1x7x64_2_3 : S7x64.BroadcastsInDim S1x1x7x64 (![2, 3] : Fin 2 → Fin S1x1x7x64.rank)
  bcast_S7x512x64_S7x512x1x64_0_1_3 : S7x512x64.BroadcastsInDim S7x512x1x64 (![0, 1, 3] : Fin 3 → Fin S7x512x1x64.rank)
  bcast_S1x1x7x64_S7x512x7x64_0_1_2_3 : S1x1x7x64.BroadcastsInDim S7x512x7x64 (![0, 1, 2, 3] : Fin 4 → Fin S7x512x7x64.rank)
  bcast_S7x512x1x64_S7x512x7x64_0_1_2_3 : S7x512x1x64.BroadcastsInDim S7x512x7x64 (![0, 1, 2, 3] : Fin 4 → Fin S7x512x7x64.rank)
  bcast_S_S7x512x7x64 : S_.BroadcastsInDim S7x512x7x64 (![] : Fin 0 → Fin S7x512x7x64.rank)
  reducesTo_S7x512x7x64_S7x512x7_d3 : S7x512x7x64.ReducesTo [3] S7x512x7
  transposes_S7x512x7_S512x7x7_1_0_2 : S7x512x7.Transposes [1, 0, 2] S512x7x7
  shapeCasts_S512x7x7_S25088 : S512x7x7.ShapeCasts S25088
  slices_S3x4_S1x1_0_1 : S3x4.Slices ![0, 1] S1x1
  shapeCasts_S1x1_S_ : S1x1.ShapeCasts S_
  slices_S3x4_S1x1_0_3 : S3x4.Slices ![0, 3] S1x1
  slices_S3x4_S1x1_0_0 : S3x4.Slices ![0, 0] S1x1
  slices_S3x4_S1x1_0_2 : S3x4.Slices ![0, 2] S1x1
  slices_S3x4_S1x1_1_1 : S3x4.Slices ![1, 1] S1x1
  slices_S3x4_S1x1_1_3 : S3x4.Slices ![1, 3] S1x1
  slices_S3x4_S1x1_1_0 : S3x4.Slices ![1, 0] S1x1
  slices_S3x4_S1x1_1_2 : S3x4.Slices ![1, 2] S1x1
  slices_S3x4_S1x1_2_1 : S3x4.Slices ![2, 1] S1x1
  slices_S3x4_S1x1_2_3 : S3x4.Slices ![2, 3] S1x1
  slices_S3x4_S1x1_2_0 : S3x4.Slices ![2, 0] S1x1
  slices_S3x4_S1x1_2_2 : S3x4.Slices ![2, 2] S1x1
  slices_S4x4_S1x1_0_1 : S4x4.Slices ![0, 1] S1x1
  slices_S4x4_S1x1_0_3 : S4x4.Slices ![0, 3] S1x1
  slices_S4x4_S1x1_0_0 : S4x4.Slices ![0, 0] S1x1
  slices_S4x4_S1x1_0_2 : S4x4.Slices ![0, 2] S1x1
  slices_S4x4_S1x1_1_1 : S4x4.Slices ![1, 1] S1x1
  slices_S4x4_S1x1_1_3 : S4x4.Slices ![1, 3] S1x1
  slices_S4x4_S1x1_1_0 : S4x4.Slices ![1, 0] S1x1
  slices_S4x4_S1x1_1_2 : S4x4.Slices ![1, 2] S1x1
  slices_S4x4_S1x1_2_1 : S4x4.Slices ![2, 1] S1x1
  slices_S4x4_S1x1_2_3 : S4x4.Slices ![2, 3] S1x1
  slices_S4x4_S1x1_2_0 : S4x4.Slices ![2, 0] S1x1
  slices_S4x4_S1x1_2_2 : S4x4.Slices ![2, 2] S1x1
  slices_S4x4_S1x1_3_1 : S4x4.Slices ![3, 1] S1x1
  slices_S4x4_S1x1_3_3 : S4x4.Slices ![3, 3] S1x1
  slices_S4x4_S1x1_3_0 : S4x4.Slices ![3, 0] S1x1
  slices_S4x4_S1x1_3_2 : S4x4.Slices ![3, 2] S1x1
  concatenates_S25088_S25088_S25088_S25088_S25088_S25088_S150528_d0 : Shape.Concatenates [S25088, S25088, S25088, S25088, S25088, S25088] S150528 0
  bcast_S150528_S1x150528_1 : S150528.BroadcastsInDim S1x150528 (![1] : Fin 1 → Fin S1x150528.rank)
  concatenates_S1x150528_S1x150528_S1x150528_S3x150528_d0 : Shape.Concatenates [S1x150528, S1x150528, S1x150528] S3x150528 0
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S3x3072_S3x3072_0_0 : ∀ a, (![0, 0] : Fin 2 → Nat) a + S3x3072.size a ≤ S3x3072.size a
  h_S3x3072 : 0 < S3x3072.numel
  shapeCasts_S3x3072_S3x3072 : S3x3072.ShapeCasts S3x3072
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S3x1024 : S1x1024.Broadcasts S3x1024
  dot_S3x3072_S3072x1024_S3x1024_1_0_0_1_n_n_wf : DotDims.WF S3x3072 S3072x1024 S3x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x3072.size a ≤ S3x150528.size a
  hwx0_0 : ∀ i : grid0.Coords, EltTy.bits .f32 = 32 ∨ (Rect.block (s := S3x150528) S3x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S150528x1024.size a
  hwx0_1 : ∀ i : grid0.Coords, EltTy.bits .f32 = 32 ∨ (Rect.block (s := S150528x1024) S3072x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x1024.size a
  hwx0_3 : ∀ i : grid0.Coords, EltTy.bits .f32 = 32 ∨ (Rect.block (s := S3x1024) S3x1024.size (cc0_transform_3 i) (hinb0_3 i)).WholeWords (EltTy.packing .f32)

variable [Facts₀]

def dot_S3x3072_S3072x1024_S3x1024_1_0_0_1_n_n : DotDims S3x3072 S3072x1024 S3x1024 where
  lhsContracting := [1]
  rhsContracting := [0]
  lhsNonContracting := [0]
  rhsNonContracting := [1]
  lhsBatch := []
  rhsBatch := []
  wf := dot_S3x3072_S3072x1024_S3x1024_1_0_0_1_n_n_wf

abbrev win0_0 : Pipeline.Window sig grid0 :=
  Pipeline.Window.ofSpec (Memref.whole main_v1316) S3x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3072x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1317) S3x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x512x64x64 : Shape := ⟨4, ![1, 512, 64, 64]⟩
abbrev S3x4 : Shape := ⟨2, ![3, 4]⟩
abbrev S4x4 : Shape := ⟨2, ![4, 4]⟩
abbrev S2 : Shape := ⟨1, ![2]⟩
abbrev S150528x1024 : Shape := ⟨2, ![150528, 1024]⟩
abbrev S1024 : Shape := ⟨1, ![1024]⟩
abbrev S512x64x64 : Shape := ⟨3, ![512, 64, 64]⟩
abbrev S1 : Shape := ⟨1, ![1]⟩
abbrev S_ : Shape := ⟨0, ![]⟩
abbrev S4 : Shape := ⟨1, ![4]⟩
abbrev S1x4 : Shape := ⟨2, ![1, 4]⟩
abbrev S7 : Shape := ⟨1, ![7]⟩
abbrev S64 : Shape := ⟨1, ![64]⟩
abbrev S1x64 : Shape := ⟨2, ![1, 64]⟩
abbrev S7x1 : Shape := ⟨2, ![7, 1]⟩
abbrev S7x64 : Shape := ⟨2, ![7, 64]⟩
abbrev S7x1x64x1 : Shape := ⟨4, ![7, 1, 64, 1]⟩
abbrev S7x512x64x64 : Shape := ⟨4, ![7, 512, 64, 64]⟩
abbrev S7x512x64 : Shape := ⟨3, ![7, 512, 64]⟩
abbrev S1x1x7x64 : Shape := ⟨4, ![1, 1, 7, 64]⟩
abbrev S7x512x1x64 : Shape := ⟨4, ![7, 512, 1, 64]⟩
abbrev S7x512x7x64 : Shape := ⟨4, ![7, 512, 7, 64]⟩
abbrev S7x512x7 : Shape := ⟨3, ![7, 512, 7]⟩
abbrev S512x7x7 : Shape := ⟨3, ![512, 7, 7]⟩
abbrev S25088 : Shape := ⟨1, ![25088]⟩
abbrev S1x1 : Shape := ⟨2, ![1, 1]⟩
abbrev S150528 : Shape := ⟨1, ![150528]⟩
abbrev S1x150528 : Shape := ⟨2, ![1, 150528]⟩
abbrev S3x150528 : Shape := ⟨2, ![3, 150528]⟩
abbrev S3x1024 : Shape := ⟨2, ![3, 1024]⟩
abbrev S1x1024 : Shape := ⟨2, ![1, 1024]⟩

abbrev nBuf : Space → Nat
  | .hbm => 2615
  | .vmem => 0
  | .smem => 0
  | _ => 0

abbrev hbmTy0_0 (i : Nat) : BufTy := match i % 128 with
  | 0 => ⟨S1x512x64x64, .f32⟩
  | 1 => ⟨S3x4, .f32⟩
  | 2 => ⟨S4x4, .f32⟩
  | 3 => ⟨S2, .f32⟩
  | 4 => ⟨S150528x1024, .f32⟩
  | 5 => ⟨S1024, .f32⟩
  | 6 => ⟨S512x64x64, .f32⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S1, .f32⟩
  | 17 => ⟨S1, .f32⟩
  | 18 => ⟨S1, .f32⟩
  | 19 => ⟨S4, .f32⟩
  | 20 => ⟨S1x4, .f32⟩
  | 21 => ⟨S3x4, .f32⟩
  | 22 => ⟨S3x4, .f32⟩
  | 23 => ⟨S3x4, .f32⟩
  | 24 => ⟨S3x4, .i32⟩
  | 25 => ⟨S1x4, .f32⟩
  | 26 => ⟨S4x4, .f32⟩
  | 27 => ⟨S4x4, .f32⟩
  | 28 => ⟨S4x4, .f32⟩
  | 29 => ⟨S4x4, .i32⟩
  | 30 => ⟨S7, .i32⟩
  | 31 => ⟨S7, .i32⟩
  | 32 => ⟨S_, .i32⟩
  | 33 => ⟨S7, .i32⟩
  | 34 => ⟨S7, .i32⟩
  | 35 => ⟨S_, .i32⟩
  | 36 => ⟨S_, .i32⟩
  | 37 => ⟨S7, .i32⟩
  | 38 => ⟨S7, .i32⟩
  | 39 => ⟨S7, .i32⟩
  | 40 => ⟨S_, .i32⟩
  | 41 => ⟨S7, .i32⟩
  | 42 => ⟨S7, .i1⟩
  | 43 => ⟨S7, .i32⟩
  | 44 => ⟨S7, .i32⟩
  | 45 => ⟨S_, .i32⟩
  | 46 => ⟨S7, .i32⟩
  | 47 => ⟨S7, .i1⟩
  | 48 => ⟨S7, .i1⟩
  | 49 => ⟨S_, .i32⟩
  | 50 => ⟨S7, .i32⟩
  | 51 => ⟨S7, .i32⟩
  | 52 => ⟨S7, .i32⟩
  | 53 => ⟨S_, .i32⟩
  | 54 => ⟨S7, .i32⟩
  | 55 => ⟨S7, .i32⟩
  | 56 => ⟨S_, .i32⟩
  | 57 => ⟨S7, .i32⟩
  | 58 => ⟨S7, .i32⟩
  | 59 => ⟨S7, .i32⟩
  | 60 => ⟨S_, .i32⟩
  | 61 => ⟨S7, .i32⟩
  | 62 => ⟨S7, .i32⟩
  | 63 => ⟨S_, .i32⟩
  | 64 => ⟨S_, .i32⟩
  | 65 => ⟨S7, .i32⟩
  | 66 => ⟨S7, .i32⟩
  | 67 => ⟨S7, .i32⟩
  | 68 => ⟨S_, .i32⟩
  | 69 => ⟨S7, .i32⟩
  | 70 => ⟨S7, .i1⟩
  | 71 => ⟨S7, .i32⟩
  | 72 => ⟨S7, .i32⟩
  | 73 => ⟨S_, .i32⟩
  | 74 => ⟨S7, .i32⟩
  | 75 => ⟨S7, .i1⟩
  | 76 => ⟨S7, .i1⟩
  | 77 => ⟨S_, .i32⟩
  | 78 => ⟨S7, .i32⟩
  | 79 => ⟨S7, .i32⟩
  | 80 => ⟨S7, .i32⟩
  | 81 => ⟨S_, .i32⟩
  | 82 => ⟨S7, .i32⟩
  | 83 => ⟨S7, .i32⟩
  | 84 => ⟨S_, .i32⟩
  | 85 => ⟨S7, .i32⟩
  | 86 => ⟨S7, .i32⟩
  | 87 => ⟨S_, .i32⟩
  | 88 => ⟨S_, .i32⟩
  | 89 => ⟨S7, .i32⟩
  | 90 => ⟨S7, .i32⟩
  | 91 => ⟨S7, .i32⟩
  | 92 => ⟨S_, .i32⟩
  | 93 => ⟨S7, .i32⟩
  | 94 => ⟨S7, .i1⟩
  | 95 => ⟨S7, .i32⟩
  | 96 => ⟨S7, .i32⟩
  | 97 => ⟨S_, .i32⟩
  | 98 => ⟨S7, .i32⟩
  | 99 => ⟨S7, .i1⟩
  | 100 => ⟨S7, .i1⟩
  | 101 => ⟨S_, .i32⟩
  | 102 => ⟨S7, .i32⟩
  | 103 => ⟨S7, .i32⟩
  | 104 => ⟨S7, .i32⟩
  | 105 => ⟨S_, .i32⟩
  | 106 => ⟨S7, .i32⟩
  | 107 => ⟨S7, .i32⟩
  | 108 => ⟨S_, .i32⟩
  | 109 => ⟨S7, .i32⟩
  | 110 => ⟨S7, .i32⟩
  | 111 => ⟨S7, .i32⟩
  | 112 => ⟨S_, .i32⟩
  | 113 => ⟨S7, .i32⟩
  | 114 => ⟨S7, .i32⟩
  | 115 => ⟨S_, .i32⟩
  | 116 => ⟨S_, .i32⟩
  | 117 => ⟨S7, .i32⟩
  | 118 => ⟨S7, .i32⟩
  | 119 => ⟨S7, .i32⟩
  | 120 => ⟨S_, .i32⟩
  | 121 => ⟨S7, .i32⟩
  | 122 => ⟨S7, .i1⟩
  | 123 => ⟨S7, .i32⟩
  | 124 => ⟨S7, .i32⟩
  | 125 => ⟨S_, .i32⟩
  | 126 => ⟨S7, .i32⟩
  | 127 => ⟨S7, .i1⟩
  | _ => ⟨S1x512x64x64, .f32⟩

abbrev hbmTy0_1 (i : Nat) : BufTy := match i % 128 with
  | 0 => ⟨S7, .i1⟩
  | 1 => ⟨S_, .i32⟩
  | 2 => ⟨S7, .i32⟩
  | 3 => ⟨S7, .i32⟩
  | 4 => ⟨S7, .i32⟩
  | 5 => ⟨S_, .i32⟩
  | 6 => ⟨S7, .i32⟩
  | 7 => ⟨S7, .i32⟩
  | 8 => ⟨S64, .i32⟩
  | 9 => ⟨S64, .i32⟩
  | 10 => ⟨S1x64, .i32⟩
  | 11 => ⟨S7x1, .i32⟩
  | 12 => ⟨S7x64, .i32⟩
  | 13 => ⟨S7x64, .i32⟩
  | 14 => ⟨S7x64, .i1⟩
  | 15 => ⟨S1x64, .i32⟩
  | 16 => ⟨S7x1, .i32⟩
  | 17 => ⟨S7x64, .i32⟩
  | 18 => ⟨S7x64, .i32⟩
  | 19 => ⟨S7x64, .i1⟩
  | 20 => ⟨S7x64, .i1⟩
  | 21 => ⟨S1x64, .i32⟩
  | 22 => ⟨S7x1, .i32⟩
  | 23 => ⟨S7x64, .i32⟩
  | 24 => ⟨S7x64, .i32⟩
  | 25 => ⟨S7x64, .i1⟩
  | 26 => ⟨S1x64, .i32⟩
  | 27 => ⟨S7x1, .i32⟩
  | 28 => ⟨S7x64, .i32⟩
  | 29 => ⟨S7x64, .i32⟩
  | 30 => ⟨S7x64, .i1⟩
  | 31 => ⟨S7x64, .i1⟩
  | 32 => ⟨S7x1x64x1, .i1⟩
  | 33 => ⟨S1x512x64x64, .f32⟩
  | 34 => ⟨S_, .f32⟩
  | 35 => ⟨S7x512x64x64, .i1⟩
  | 36 => ⟨S7x512x64x64, .f32⟩
  | 37 => ⟨S7x512x64x64, .f32⟩
  | 38 => ⟨S7x512x64x64, .f32⟩
  | 39 => ⟨S_, .f32⟩
  | 40 => ⟨S7x512x64, .f32⟩
  | 41 => ⟨S1x1x7x64, .i1⟩
  | 42 => ⟨S7x512x1x64, .f32⟩
  | 43 => ⟨S_, .f32⟩
  | 44 => ⟨S7x512x7x64, .i1⟩
  | 45 => ⟨S7x512x7x64, .f32⟩
  | 46 => ⟨S7x512x7x64, .f32⟩
  | 47 => ⟨S7x512x7x64, .f32⟩
  | 48 => ⟨S_, .f32⟩
  | 49 => ⟨S7x512x7, .f32⟩
  | 50 => ⟨S512x7x7, .f32⟩
  | 51 => ⟨S25088, .f32⟩
  | 52 => ⟨S1x1, .i32⟩
  | 53 => ⟨S_, .i32⟩
  | 54 => ⟨S1x1, .i32⟩
  | 55 => ⟨S_, .i32⟩
  | 56 => ⟨S1x1, .i32⟩
  | 57 => ⟨S_, .i32⟩
  | 58 => ⟨S1x1, .i32⟩
  | 59 => ⟨S_, .i32⟩
  | 60 => ⟨S_, .i32⟩
  | 61 => ⟨S_, .i32⟩
  | 62 => ⟨S7, .i32⟩
  | 63 => ⟨S7, .i32⟩
  | 64 => ⟨S7, .i32⟩
  | 65 => ⟨S7, .i32⟩
  | 66 => ⟨S_, .i32⟩
  | 67 => ⟨S_, .i32⟩
  | 68 => ⟨S7, .i32⟩
  | 69 => ⟨S7, .i32⟩
  | 70 => ⟨S7, .i32⟩
  | 71 => ⟨S_, .i32⟩
  | 72 => ⟨S7, .i32⟩
  | 73 => ⟨S7, .i1⟩
  | 74 => ⟨S7, .i32⟩
  | 75 => ⟨S7, .i32⟩
  | 76 => ⟨S_, .i32⟩
  | 77 => ⟨S7, .i32⟩
  | 78 => ⟨S7, .i1⟩
  | 79 => ⟨S7, .i1⟩
  | 80 => ⟨S_, .i32⟩
  | 81 => ⟨S7, .i32⟩
  | 82 => ⟨S7, .i32⟩
  | 83 => ⟨S7, .i32⟩
  | 84 => ⟨S7, .i32⟩
  | 85 => ⟨S7, .i32⟩
  | 86 => ⟨S_, .i32⟩
  | 87 => ⟨S7, .i32⟩
  | 88 => ⟨S7, .i32⟩
  | 89 => ⟨S7, .i32⟩
  | 90 => ⟨S7, .i32⟩
  | 91 => ⟨S7, .i32⟩
  | 92 => ⟨S_, .i32⟩
  | 93 => ⟨S_, .i32⟩
  | 94 => ⟨S7, .i32⟩
  | 95 => ⟨S7, .i32⟩
  | 96 => ⟨S7, .i32⟩
  | 97 => ⟨S_, .i32⟩
  | 98 => ⟨S7, .i32⟩
  | 99 => ⟨S7, .i1⟩
  | 100 => ⟨S7, .i32⟩
  | 101 => ⟨S7, .i32⟩
  | 102 => ⟨S_, .i32⟩
  | 103 => ⟨S7, .i32⟩
  | 104 => ⟨S7, .i1⟩
  | 105 => ⟨S7, .i1⟩
  | 106 => ⟨S_, .i32⟩
  | 107 => ⟨S7, .i32⟩
  | 108 => ⟨S7, .i32⟩
  | 109 => ⟨S7, .i32⟩
  | 110 => ⟨S7, .i32⟩
  | 111 => ⟨S7, .i32⟩
  | 112 => ⟨S7, .i32⟩
  | 113 => ⟨S7, .i32⟩
  | 114 => ⟨S_, .i32⟩
  | 115 => ⟨S_, .i32⟩
  | 116 => ⟨S7, .i32⟩
  | 117 => ⟨S7, .i32⟩
  | 118 => ⟨S7, .i32⟩
  | 119 => ⟨S_, .i32⟩
  | 120 => ⟨S7, .i32⟩
  | 121 => ⟨S7, .i1⟩
  | 122 => ⟨S7, .i32⟩
  | 123 => ⟨S7, .i32⟩
  | 124 => ⟨S_, .i32⟩
  | 125 => ⟨S7, .i32⟩
  | 126 => ⟨S7, .i1⟩
  | 127 => ⟨S7, .i1⟩
  | _ => ⟨S1x512x64x64, .f32⟩

abbrev hbmTy0_2 (i : Nat) : BufTy := match i % 128 with
  | 0 => ⟨S_, .i32⟩
  | 1 => ⟨S7, .i32⟩
  | 2 => ⟨S7, .i32⟩
  | 3 => ⟨S7, .i32⟩
  | 4 => ⟨S7, .i32⟩
  | 5 => ⟨S7, .i32⟩
  | 6 => ⟨S_, .i32⟩
  | 7 => ⟨S7, .i32⟩
  | 8 => ⟨S7, .i32⟩
  | 9 => ⟨S7, .i32⟩
  | 10 => ⟨S7, .i32⟩
  | 11 => ⟨S7, .i32⟩
  | 12 => ⟨S_, .i32⟩
  | 13 => ⟨S_, .i32⟩
  | 14 => ⟨S7, .i32⟩
  | 15 => ⟨S7, .i32⟩
  | 16 => ⟨S7, .i32⟩
  | 17 => ⟨S_, .i32⟩
  | 18 => ⟨S7, .i32⟩
  | 19 => ⟨S7, .i1⟩
  | 20 => ⟨S7, .i32⟩
  | 21 => ⟨S7, .i32⟩
  | 22 => ⟨S_, .i32⟩
  | 23 => ⟨S7, .i32⟩
  | 24 => ⟨S7, .i1⟩
  | 25 => ⟨S7, .i1⟩
  | 26 => ⟨S_, .i32⟩
  | 27 => ⟨S7, .i32⟩
  | 28 => ⟨S7, .i32⟩
  | 29 => ⟨S7, .i32⟩
  | 30 => ⟨S7, .i32⟩
  | 31 => ⟨S7, .i32⟩
  | 32 => ⟨S64, .i32⟩
  | 33 => ⟨S64, .i32⟩
  | 34 => ⟨S1x64, .i32⟩
  | 35 => ⟨S7x1, .i32⟩
  | 36 => ⟨S7x64, .i32⟩
  | 37 => ⟨S7x64, .i32⟩
  | 38 => ⟨S7x64, .i1⟩
  | 39 => ⟨S1x64, .i32⟩
  | 40 => ⟨S7x1, .i32⟩
  | 41 => ⟨S7x64, .i32⟩
  | 42 => ⟨S7x64, .i32⟩
  | 43 => ⟨S7x64, .i1⟩
  | 44 => ⟨S7x64, .i1⟩
  | 45 => ⟨S1x64, .i32⟩
  | 46 => ⟨S7x1, .i32⟩
  | 47 => ⟨S7x64, .i32⟩
  | 48 => ⟨S7x64, .i32⟩
  | 49 => ⟨S7x64, .i1⟩
  | 50 => ⟨S1x64, .i32⟩
  | 51 => ⟨S7x1, .i32⟩
  | 52 => ⟨S7x64, .i32⟩
  | 53 => ⟨S7x64, .i32⟩
  | 54 => ⟨S7x64, .i1⟩
  | 55 => ⟨S7x64, .i1⟩
  | 56 => ⟨S7x1x64x1, .i1⟩
  | 57 => ⟨S1x512x64x64, .f32⟩
  | 58 => ⟨S_, .f32⟩
  | 59 => ⟨S7x512x64x64, .i1⟩
  | 60 => ⟨S7x512x64x64, .f32⟩
  | 61 => ⟨S7x512x64x64, .f32⟩
  | 62 => ⟨S7x512x64x64, .f32⟩
  | 63 => ⟨S_, .f32⟩
  | 64 => ⟨S7x512x64, .f32⟩
  | 65 => ⟨S1x1x7x64, .i1⟩
  | 66 => ⟨S7x512x1x64, .f32⟩
  | 67 => ⟨S_, .f32⟩
  | 68 => ⟨S7x512x7x64, .i1⟩
  | 69 => ⟨S7x512x7x64, .f32⟩
  | 70 => ⟨S7x512x7x64, .f32⟩
  | 71 => ⟨S7x512x7x64, .f32⟩
  | 72 => ⟨S_, .f32⟩
  | 73 => ⟨S7x512x7, .f32⟩
  | 74 => ⟨S512x7x7, .f32⟩
  | 75 => ⟨S25088, .f32⟩
  | 76 => ⟨S1x1, .i32⟩
  | 77 => ⟨S_, .i32⟩
  | 78 => ⟨S1x1, .i32⟩
  | 79 => ⟨S_, .i32⟩
  | 80 => ⟨S1x1, .i32⟩
  | 81 => ⟨S_, .i32⟩
  | 82 => ⟨S1x1, .i32⟩
  | 83 => ⟨S_, .i32⟩
  | 84 => ⟨S_, .i32⟩
  | 85 => ⟨S_, .i32⟩
  | 86 => ⟨S7, .i32⟩
  | 87 => ⟨S7, .i32⟩
  | 88 => ⟨S7, .i32⟩
  | 89 => ⟨S7, .i32⟩
  | 90 => ⟨S_, .i32⟩
  | 91 => ⟨S_, .i32⟩
  | 92 => ⟨S7, .i32⟩
  | 93 => ⟨S7, .i32⟩
  | 94 => ⟨S7, .i32⟩
  | 95 => ⟨S_, .i32⟩
  | 96 => ⟨S7, .i32⟩
  | 97 => ⟨S7, .i1⟩
  | 98 => ⟨S7, .i32⟩
  | 99 => ⟨S7, .i32⟩
  | 100 => ⟨S_, .i32⟩
  | 101 => ⟨S7, .i32⟩
  | 102 => ⟨S7, .i1⟩
  | 103 => ⟨S7, .i1⟩
  | 104 => ⟨S_, .i32⟩
  | 105 => ⟨S7, .i32⟩
  | 106 => ⟨S7, .i32⟩
  | 107 => ⟨S7, .i32⟩
  | 108 => ⟨S7, .i32⟩
  | 109 => ⟨S7, .i32⟩
  | 110 => ⟨S_, .i32⟩
  | 111 => ⟨S7, .i32⟩
  | 112 => ⟨S7, .i32⟩
  | 113 => ⟨S7, .i32⟩
  | 114 => ⟨S7, .i32⟩
  | 115 => ⟨S7, .i32⟩
  | 116 => ⟨S_, .i32⟩
  | 117 => ⟨S_, .i32⟩
  | 118 => ⟨S7, .i32⟩
  | 119 => ⟨S7, .i32⟩
  | 120 => ⟨S7, .i32⟩
  | 121 => ⟨S_, .i32⟩
  | 122 => ⟨S7, .i32⟩
  | 123 => ⟨S7, .i1⟩
  | 124 => ⟨S7, .i32⟩
  | 125 => ⟨S7, .i32⟩
  | 126 => ⟨S_, .i32⟩
  | 127 => ⟨S7, .i32⟩
  | _ => ⟨S1x512x64x64, .f32⟩

abbrev hbmTy0_3 (i : Nat) : BufTy := match i % 128 with
  | 0 => ⟨S7, .i1⟩
  | 1 => ⟨S7, .i1⟩
  | 2 => ⟨S_, .i32⟩
  | 3 => ⟨S7, .i32⟩
  | 4 => ⟨S7, .i32⟩
  | 5 => ⟨S7, .i32⟩
  | 6 => ⟨S7, .i32⟩
  | 7 => ⟨S7, .i32⟩
  | 8 => ⟨S7, .i32⟩
  | 9 => ⟨S7, .i32⟩
  | 10 => ⟨S_, .i32⟩
  | 11 => ⟨S_, .i32⟩
  | 12 => ⟨S7, .i32⟩
  | 13 => ⟨S7, .i32⟩
  | 14 => ⟨S7, .i32⟩
  | 15 => ⟨S_, .i32⟩
  | 16 => ⟨S7, .i32⟩
  | 17 => ⟨S7, .i1⟩
  | 18 => ⟨S7, .i32⟩
  | 19 => ⟨S7, .i32⟩
  | 20 => ⟨S_, .i32⟩
  | 21 => ⟨S7, .i32⟩
  | 22 => ⟨S7, .i1⟩
  | 23 => ⟨S7, .i1⟩
  | 24 => ⟨S_, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S7, .i32⟩
  | 32 => ⟨S7, .i32⟩
  | 33 => ⟨S7, .i32⟩
  | 34 => ⟨S7, .i32⟩
  | 35 => ⟨S7, .i32⟩
  | 36 => ⟨S_, .i32⟩
  | 37 => ⟨S_, .i32⟩
  | 38 => ⟨S7, .i32⟩
  | 39 => ⟨S7, .i32⟩
  | 40 => ⟨S7, .i32⟩
  | 41 => ⟨S_, .i32⟩
  | 42 => ⟨S7, .i32⟩
  | 43 => ⟨S7, .i1⟩
  | 44 => ⟨S7, .i32⟩
  | 45 => ⟨S7, .i32⟩
  | 46 => ⟨S_, .i32⟩
  | 47 => ⟨S7, .i32⟩
  | 48 => ⟨S7, .i1⟩
  | 49 => ⟨S7, .i1⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S64, .i32⟩
  | 57 => ⟨S64, .i32⟩
  | 58 => ⟨S1x64, .i32⟩
  | 59 => ⟨S7x1, .i32⟩
  | 60 => ⟨S7x64, .i32⟩
  | 61 => ⟨S7x64, .i32⟩
  | 62 => ⟨S7x64, .i1⟩
  | 63 => ⟨S1x64, .i32⟩
  | 64 => ⟨S7x1, .i32⟩
  | 65 => ⟨S7x64, .i32⟩
  | 66 => ⟨S7x64, .i32⟩
  | 67 => ⟨S7x64, .i1⟩
  | 68 => ⟨S7x64, .i1⟩
  | 69 => ⟨S1x64, .i32⟩
  | 70 => ⟨S7x1, .i32⟩
  | 71 => ⟨S7x64, .i32⟩
  | 72 => ⟨S7x64, .i32⟩
  | 73 => ⟨S7x64, .i1⟩
  | 74 => ⟨S1x64, .i32⟩
  | 75 => ⟨S7x1, .i32⟩
  | 76 => ⟨S7x64, .i32⟩
  | 77 => ⟨S7x64, .i32⟩
  | 78 => ⟨S7x64, .i1⟩
  | 79 => ⟨S7x64, .i1⟩
  | 80 => ⟨S7x1x64x1, .i1⟩
  | 81 => ⟨S1x512x64x64, .f32⟩
  | 82 => ⟨S_, .f32⟩
  | 83 => ⟨S7x512x64x64, .i1⟩
  | 84 => ⟨S7x512x64x64, .f32⟩
  | 85 => ⟨S7x512x64x64, .f32⟩
  | 86 => ⟨S7x512x64x64, .f32⟩
  | 87 => ⟨S_, .f32⟩
  | 88 => ⟨S7x512x64, .f32⟩
  | 89 => ⟨S1x1x7x64, .i1⟩
  | 90 => ⟨S7x512x1x64, .f32⟩
  | 91 => ⟨S_, .f32⟩
  | 92 => ⟨S7x512x7x64, .i1⟩
  | 93 => ⟨S7x512x7x64, .f32⟩
  | 94 => ⟨S7x512x7x64, .f32⟩
  | 95 => ⟨S7x512x7x64, .f32⟩
  | 96 => ⟨S_, .f32⟩
  | 97 => ⟨S7x512x7, .f32⟩
  | 98 => ⟨S512x7x7, .f32⟩
  | 99 => ⟨S25088, .f32⟩
  | 100 => ⟨S1x1, .i32⟩
  | 101 => ⟨S_, .i32⟩
  | 102 => ⟨S1x1, .i32⟩
  | 103 => ⟨S_, .i32⟩
  | 104 => ⟨S1x1, .i32⟩
  | 105 => ⟨S_, .i32⟩
  | 106 => ⟨S1x1, .i32⟩
  | 107 => ⟨S_, .i32⟩
  | 108 => ⟨S_, .i32⟩
  | 109 => ⟨S_, .i32⟩
  | 110 => ⟨S7, .i32⟩
  | 111 => ⟨S7, .i32⟩
  | 112 => ⟨S7, .i32⟩
  | 113 => ⟨S7, .i32⟩
  | 114 => ⟨S_, .i32⟩
  | 115 => ⟨S_, .i32⟩
  | 116 => ⟨S7, .i32⟩
  | 117 => ⟨S7, .i32⟩
  | 118 => ⟨S7, .i32⟩
  | 119 => ⟨S_, .i32⟩
  | 120 => ⟨S7, .i32⟩
  | 121 => ⟨S7, .i1⟩
  | 122 => ⟨S7, .i32⟩
  | 123 => ⟨S7, .i32⟩
  | 124 => ⟨S_, .i32⟩
  | 125 => ⟨S7, .i32⟩
  | 126 => ⟨S7, .i1⟩
  | 127 => ⟨S7, .i1⟩
  | _ => ⟨S1x512x64x64, .f32⟩

abbrev hbmTy0_4 (i : Nat) : BufTy := match i % 128 with
  | 0 => ⟨S_, .i32⟩
  | 1 => ⟨S7, .i32⟩
  | 2 => ⟨S7, .i32⟩
  | 3 => ⟨S7, .i32⟩
  | 4 => ⟨S7, .i32⟩
  | 5 => ⟨S7, .i32⟩
  | 6 => ⟨S_, .i32⟩
  | 7 => ⟨S7, .i32⟩
  | 8 => ⟨S7, .i32⟩
  | 9 => ⟨S7, .i32⟩
  | 10 => ⟨S7, .i32⟩
  | 11 => ⟨S7, .i32⟩
  | 12 => ⟨S_, .i32⟩
  | 13 => ⟨S_, .i32⟩
  | 14 => ⟨S7, .i32⟩
  | 15 => ⟨S7, .i32⟩
  | 16 => ⟨S7, .i32⟩
  | 17 => ⟨S_, .i32⟩
  | 18 => ⟨S7, .i32⟩
  | 19 => ⟨S7, .i1⟩
  | 20 => ⟨S7, .i32⟩
  | 21 => ⟨S7, .i32⟩
  | 22 => ⟨S_, .i32⟩
  | 23 => ⟨S7, .i32⟩
  | 24 => ⟨S7, .i1⟩
  | 25 => ⟨S7, .i1⟩
  | 26 => ⟨S_, .i32⟩
  | 27 => ⟨S7, .i32⟩
  | 28 => ⟨S7, .i32⟩
  | 29 => ⟨S7, .i32⟩
  | 30 => ⟨S7, .i32⟩
  | 31 => ⟨S7, .i32⟩
  | 32 => ⟨S7, .i32⟩
  | 33 => ⟨S7, .i32⟩
  | 34 => ⟨S_, .i32⟩
  | 35 => ⟨S_, .i32⟩
  | 36 => ⟨S7, .i32⟩
  | 37 => ⟨S7, .i32⟩
  | 38 => ⟨S7, .i32⟩
  | 39 => ⟨S_, .i32⟩
  | 40 => ⟨S7, .i32⟩
  | 41 => ⟨S7, .i1⟩
  | 42 => ⟨S7, .i32⟩
  | 43 => ⟨S7, .i32⟩
  | 44 => ⟨S_, .i32⟩
  | 45 => ⟨S7, .i32⟩
  | 46 => ⟨S7, .i1⟩
  | 47 => ⟨S7, .i1⟩
  | 48 => ⟨S_, .i32⟩
  | 49 => ⟨S7, .i32⟩
  | 50 => ⟨S7, .i32⟩
  | 51 => ⟨S7, .i32⟩
  | 52 => ⟨S7, .i32⟩
  | 53 => ⟨S7, .i32⟩
  | 54 => ⟨S_, .i32⟩
  | 55 => ⟨S7, .i32⟩
  | 56 => ⟨S7, .i32⟩
  | 57 => ⟨S7, .i32⟩
  | 58 => ⟨S7, .i32⟩
  | 59 => ⟨S7, .i32⟩
  | 60 => ⟨S_, .i32⟩
  | 61 => ⟨S_, .i32⟩
  | 62 => ⟨S7, .i32⟩
  | 63 => ⟨S7, .i32⟩
  | 64 => ⟨S7, .i32⟩
  | 65 => ⟨S_, .i32⟩
  | 66 => ⟨S7, .i32⟩
  | 67 => ⟨S7, .i1⟩
  | 68 => ⟨S7, .i32⟩
  | 69 => ⟨S7, .i32⟩
  | 70 => ⟨S_, .i32⟩
  | 71 => ⟨S7, .i32⟩
  | 72 => ⟨S7, .i1⟩
  | 73 => ⟨S7, .i1⟩
  | 74 => ⟨S_, .i32⟩
  | 75 => ⟨S7, .i32⟩
  | 76 => ⟨S7, .i32⟩
  | 77 => ⟨S7, .i32⟩
  | 78 => ⟨S7, .i32⟩
  | 79 => ⟨S7, .i32⟩
  | 80 => ⟨S64, .i32⟩
  | 81 => ⟨S64, .i32⟩
  | 82 => ⟨S1x64, .i32⟩
  | 83 => ⟨S7x1, .i32⟩
  | 84 => ⟨S7x64, .i32⟩
  | 85 => ⟨S7x64, .i32⟩
  | 86 => ⟨S7x64, .i1⟩
  | 87 => ⟨S1x64, .i32⟩
  | 88 => ⟨S7x1, .i32⟩
  | 89 => ⟨S7x64, .i32⟩
  | 90 => ⟨S7x64, .i32⟩
  | 91 => ⟨S7x64, .i1⟩
  | 92 => ⟨S7x64, .i1⟩
  | 93 => ⟨S1x64, .i32⟩
  | 94 => ⟨S7x1, .i32⟩
  | 95 => ⟨S7x64, .i32⟩
  | 96 => ⟨S7x64, .i32⟩
  | 97 => ⟨S7x64, .i1⟩
  | 98 => ⟨S1x64, .i32⟩
  | 99 => ⟨S7x1, .i32⟩
  | 100 => ⟨S7x64, .i32⟩
  | 101 => ⟨S7x64, .i32⟩
  | 102 => ⟨S7x64, .i1⟩
  | 103 => ⟨S7x64, .i1⟩
  | 104 => ⟨S7x1x64x1, .i1⟩
  | 105 => ⟨S1x512x64x64, .f32⟩
  | 106 => ⟨S_, .f32⟩
  | 107 => ⟨S7x512x64x64, .i1⟩
  | 108 => ⟨S7x512x64x64, .f32⟩
  | 109 => ⟨S7x512x64x64, .f32⟩
  | 110 => ⟨S7x512x64x64, .f32⟩
  | 111 => ⟨S_, .f32⟩
  | 112 => ⟨S7x512x64, .f32⟩
  | 113 => ⟨S1x1x7x64, .i1⟩
  | 114 => ⟨S7x512x1x64, .f32⟩
  | 115 => ⟨S_, .f32⟩
  | 116 => ⟨S7x512x7x64, .i1⟩
  | 117 => ⟨S7x512x7x64, .f32⟩
  | 118 => ⟨S7x512x7x64, .f32⟩
  | 119 => ⟨S7x512x7x64, .f32⟩
  | 120 => ⟨S_, .f32⟩
  | 121 => ⟨S7x512x7, .f32⟩
  | 122 => ⟨S512x7x7, .f32⟩
  | 123 => ⟨S25088, .f32⟩
  | 124 => ⟨S1x1, .i32⟩
  | 125 => ⟨S_, .i32⟩
  | 126 => ⟨S1x1, .i32⟩
  | 127 => ⟨S_, .i32⟩
  | _ => ⟨S1x512x64x64, .f32⟩

abbrev hbmTy0_5 (i : Nat) : BufTy := match i % 128 with
  | 0 => ⟨S_, .i32⟩
  | 1 => ⟨S1x1, .i32⟩
  | 2 => ⟨S_, .i32⟩
  | 3 => ⟨S1x1, .i32⟩
  | 4 => ⟨S_, .i32⟩
  | 5 => ⟨S_, .i32⟩
  | 6 => ⟨S1x1, .i32⟩
  | 7 => ⟨S_, .i32⟩
  | 8 => ⟨S1x1, .i32⟩
  | 9 => ⟨S_, .i32⟩
  | 10 => ⟨S_, .i32⟩
  | 11 => ⟨S1x1, .i32⟩
  | 12 => ⟨S_, .i32⟩
  | 13 => ⟨S1x1, .i32⟩
  | 14 => ⟨S_, .i32⟩
  | 15 => ⟨S_, .i32⟩
  | 16 => ⟨S_, .i32⟩
  | 17 => ⟨S_, .i32⟩
  | 18 => ⟨S7, .i32⟩
  | 19 => ⟨S7, .i32⟩
  | 20 => ⟨S7, .i32⟩
  | 21 => ⟨S7, .i32⟩
  | 22 => ⟨S_, .i32⟩
  | 23 => ⟨S_, .i32⟩
  | 24 => ⟨S7, .i32⟩
  | 25 => ⟨S7, .i32⟩
  | 26 => ⟨S7, .i32⟩
  | 27 => ⟨S_, .i32⟩
  | 28 => ⟨S7, .i32⟩
  | 29 => ⟨S7, .i1⟩
  | 30 => ⟨S7, .i32⟩
  | 31 => ⟨S7, .i32⟩
  | 32 => ⟨S_, .i32⟩
  | 33 => ⟨S7, .i32⟩
  | 34 => ⟨S7, .i1⟩
  | 35 => ⟨S7, .i1⟩
  | 36 => ⟨S_, .i32⟩
  | 37 => ⟨S7, .i32⟩
  | 38 => ⟨S7, .i32⟩
  | 39 => ⟨S7, .i32⟩
  | 40 => ⟨S7, .i32⟩
  | 41 => ⟨S7, .i32⟩
  | 42 => ⟨S_, .i32⟩
  | 43 => ⟨S7, .i32⟩
  | 44 => ⟨S7, .i32⟩
  | 45 => ⟨S7, .i32⟩
  | 46 => ⟨S7, .i32⟩
  | 47 => ⟨S7, .i32⟩
  | 48 => ⟨S_, .i32⟩
  | 49 => ⟨S_, .i32⟩
  | 50 => ⟨S7, .i32⟩
  | 51 => ⟨S7, .i32⟩
  | 52 => ⟨S7, .i32⟩
  | 53 => ⟨S_, .i32⟩
  | 54 => ⟨S7, .i32⟩
  | 55 => ⟨S7, .i1⟩
  | 56 => ⟨S7, .i32⟩
  | 57 => ⟨S7, .i32⟩
  | 58 => ⟨S_, .i32⟩
  | 59 => ⟨S7, .i32⟩
  | 60 => ⟨S7, .i1⟩
  | 61 => ⟨S7, .i1⟩
  | 62 => ⟨S_, .i32⟩
  | 63 => ⟨S7, .i32⟩
  | 64 => ⟨S7, .i32⟩
  | 65 => ⟨S7, .i32⟩
  | 66 => ⟨S7, .i32⟩
  | 67 => ⟨S7, .i32⟩
  | 68 => ⟨S7, .i32⟩
  | 69 => ⟨S7, .i32⟩
  | 70 => ⟨S_, .i32⟩
  | 71 => ⟨S_, .i32⟩
  | 72 => ⟨S7, .i32⟩
  | 73 => ⟨S7, .i32⟩
  | 74 => ⟨S7, .i32⟩
  | 75 => ⟨S_, .i32⟩
  | 76 => ⟨S7, .i32⟩
  | 77 => ⟨S7, .i1⟩
  | 78 => ⟨S7, .i32⟩
  | 79 => ⟨S7, .i32⟩
  | 80 => ⟨S_, .i32⟩
  | 81 => ⟨S7, .i32⟩
  | 82 => ⟨S7, .i1⟩
  | 83 => ⟨S7, .i1⟩
  | 84 => ⟨S_, .i32⟩
  | 85 => ⟨S7, .i32⟩
  | 86 => ⟨S7, .i32⟩
  | 87 => ⟨S7, .i32⟩
  | 88 => ⟨S7, .i32⟩
  | 89 => ⟨S7, .i32⟩
  | 90 => ⟨S_, .i32⟩
  | 91 => ⟨S7, .i32⟩
  | 92 => ⟨S7, .i32⟩
  | 93 => ⟨S7, .i32⟩
  | 94 => ⟨S7, .i32⟩
  | 95 => ⟨S7, .i32⟩
  | 96 => ⟨S_, .i32⟩
  | 97 => ⟨S_, .i32⟩
  | 98 => ⟨S7, .i32⟩
  | 99 => ⟨S7, .i32⟩
  | 100 => ⟨S7, .i32⟩
  | 101 => ⟨S_, .i32⟩
  | 102 => ⟨S7, .i32⟩
  | 103 => ⟨S7, .i1⟩
  | 104 => ⟨S7, .i32⟩
  | 105 => ⟨S7, .i32⟩
  | 106 => ⟨S_, .i32⟩
  | 107 => ⟨S7, .i32⟩
  | 108 => ⟨S7, .i1⟩
  | 109 => ⟨S7, .i1⟩
  | 110 => ⟨S_, .i32⟩
  | 111 => ⟨S7, .i32⟩
  | 112 => ⟨S7, .i32⟩
  | 113 => ⟨S7, .i32⟩
  | 114 => ⟨S7, .i32⟩
  | 115 => ⟨S7, .i32⟩
  | 116 => ⟨S64, .i32⟩
  | 117 => ⟨S64, .i32⟩
  | 118 => ⟨S1x64, .i32⟩
  | 119 => ⟨S7x1, .i32⟩
  | 120 => ⟨S7x64, .i32⟩
  | 121 => ⟨S7x64, .i32⟩
  | 122 => ⟨S7x64, .i1⟩
  | 123 => ⟨S1x64, .i32⟩
  | 124 => ⟨S7x1, .i32⟩
  | 125 => ⟨S7x64, .i32⟩
  | 126 => ⟨S7x64, .i32⟩
  | 127 => ⟨S7x64, .i1⟩
  | _ => ⟨S1x512x64x64, .f32⟩

abbrev hbmTy0_6 (i : Nat) : BufTy := match i % 128 with
  | 0 => ⟨S7x64, .i1⟩
  | 1 => ⟨S1x64, .i32⟩
  | 2 => ⟨S7x1, .i32⟩
  | 3 => ⟨S7x64, .i32⟩
  | 4 => ⟨S7x64, .i32⟩
  | 5 => ⟨S7x64, .i1⟩
  | 6 => ⟨S1x64, .i32⟩
  | 7 => ⟨S7x1, .i32⟩
  | 8 => ⟨S7x64, .i32⟩
  | 9 => ⟨S7x64, .i32⟩
  | 10 => ⟨S7x64, .i1⟩
  | 11 => ⟨S7x64, .i1⟩
  | 12 => ⟨S7x1x64x1, .i1⟩
  | 13 => ⟨S1x512x64x64, .f32⟩
  | 14 => ⟨S_, .f32⟩
  | 15 => ⟨S7x512x64x64, .i1⟩
  | 16 => ⟨S7x512x64x64, .f32⟩
  | 17 => ⟨S7x512x64x64, .f32⟩
  | 18 => ⟨S7x512x64x64, .f32⟩
  | 19 => ⟨S_, .f32⟩
  | 20 => ⟨S7x512x64, .f32⟩
  | 21 => ⟨S1x1x7x64, .i1⟩
  | 22 => ⟨S7x512x1x64, .f32⟩
  | 23 => ⟨S_, .f32⟩
  | 24 => ⟨S7x512x7x64, .i1⟩
  | 25 => ⟨S7x512x7x64, .f32⟩
  | 26 => ⟨S7x512x7x64, .f32⟩
  | 27 => ⟨S7x512x7x64, .f32⟩
  | 28 => ⟨S_, .f32⟩
  | 29 => ⟨S7x512x7, .f32⟩
  | 30 => ⟨S512x7x7, .f32⟩
  | 31 => ⟨S25088, .f32⟩
  | 32 => ⟨S1x1, .i32⟩
  | 33 => ⟨S_, .i32⟩
  | 34 => ⟨S1x1, .i32⟩
  | 35 => ⟨S_, .i32⟩
  | 36 => ⟨S_, .i32⟩
  | 37 => ⟨S1x1, .i32⟩
  | 38 => ⟨S_, .i32⟩
  | 39 => ⟨S1x1, .i32⟩
  | 40 => ⟨S_, .i32⟩
  | 41 => ⟨S_, .i32⟩
  | 42 => ⟨S1x1, .i32⟩
  | 43 => ⟨S_, .i32⟩
  | 44 => ⟨S1x1, .i32⟩
  | 45 => ⟨S_, .i32⟩
  | 46 => ⟨S_, .i32⟩
  | 47 => ⟨S1x1, .i32⟩
  | 48 => ⟨S_, .i32⟩
  | 49 => ⟨S1x1, .i32⟩
  | 50 => ⟨S_, .i32⟩
  | 51 => ⟨S_, .i32⟩
  | 52 => ⟨S_, .i32⟩
  | 53 => ⟨S_, .i32⟩
  | 54 => ⟨S7, .i32⟩
  | 55 => ⟨S7, .i32⟩
  | 56 => ⟨S7, .i32⟩
  | 57 => ⟨S7, .i32⟩
  | 58 => ⟨S_, .i32⟩
  | 59 => ⟨S_, .i32⟩
  | 60 => ⟨S7, .i32⟩
  | 61 => ⟨S7, .i32⟩
  | 62 => ⟨S7, .i32⟩
  | 63 => ⟨S_, .i32⟩
  | 64 => ⟨S7, .i32⟩
  | 65 => ⟨S7, .i1⟩
  | 66 => ⟨S7, .i32⟩
  | 67 => ⟨S7, .i32⟩
  | 68 => ⟨S_, .i32⟩
  | 69 => ⟨S7, .i32⟩
  | 70 => ⟨S7, .i1⟩
  | 71 => ⟨S7, .i1⟩
  | 72 => ⟨S_, .i32⟩
  | 73 => ⟨S7, .i32⟩
  | 74 => ⟨S7, .i32⟩
  | 75 => ⟨S7, .i32⟩
  | 76 => ⟨S7, .i32⟩
  | 77 => ⟨S7, .i32⟩
  | 78 => ⟨S_, .i32⟩
  | 79 => ⟨S7, .i32⟩
  | 80 => ⟨S7, .i32⟩
  | 81 => ⟨S7, .i32⟩
  | 82 => ⟨S7, .i32⟩
  | 83 => ⟨S7, .i32⟩
  | 84 => ⟨S_, .i32⟩
  | 85 => ⟨S_, .i32⟩
  | 86 => ⟨S7, .i32⟩
  | 87 => ⟨S7, .i32⟩
  | 88 => ⟨S7, .i32⟩
  | 89 => ⟨S_, .i32⟩
  | 90 => ⟨S7, .i32⟩
  | 91 => ⟨S7, .i1⟩
  | 92 => ⟨S7, .i32⟩
  | 93 => ⟨S7, .i32⟩
  | 94 => ⟨S_, .i32⟩
  | 95 => ⟨S7, .i32⟩
  | 96 => ⟨S7, .i1⟩
  | 97 => ⟨S7, .i1⟩
  | 98 => ⟨S_, .i32⟩
  | 99 => ⟨S7, .i32⟩
  | 100 => ⟨S7, .i32⟩
  | 101 => ⟨S7, .i32⟩
  | 102 => ⟨S7, .i32⟩
  | 103 => ⟨S7, .i32⟩
  | 104 => ⟨S7, .i32⟩
  | 105 => ⟨S7, .i32⟩
  | 106 => ⟨S_, .i32⟩
  | 107 => ⟨S_, .i32⟩
  | 108 => ⟨S7, .i32⟩
  | 109 => ⟨S7, .i32⟩
  | 110 => ⟨S7, .i32⟩
  | 111 => ⟨S_, .i32⟩
  | 112 => ⟨S7, .i32⟩
  | 113 => ⟨S7, .i1⟩
  | 114 => ⟨S7, .i32⟩
  | 115 => ⟨S7, .i32⟩
  | 116 => ⟨S_, .i32⟩
  | 117 => ⟨S7, .i32⟩
  | 118 => ⟨S7, .i1⟩
  | 119 => ⟨S7, .i1⟩
  | 120 => ⟨S_, .i32⟩
  | 121 => ⟨S7, .i32⟩
  | 122 => ⟨S7, .i32⟩
  | 123 => ⟨S7, .i32⟩
  | 124 => ⟨S7, .i32⟩
  | 125 => ⟨S7, .i32⟩
  | 126 => ⟨S_, .i32⟩
  | 127 => ⟨S7, .i32⟩
  | _ => ⟨S1x512x64x64, .f32⟩

abbrev hbmTy0_7 (i : Nat) : BufTy := match i % 128 with
  | 0 => ⟨S7, .i32⟩
  | 1 => ⟨S7, .i32⟩
  | 2 => ⟨S7, .i32⟩
  | 3 => ⟨S7, .i32⟩
  | 4 => ⟨S_, .i32⟩
  | 5 => ⟨S_, .i32⟩
  | 6 => ⟨S7, .i32⟩
  | 7 => ⟨S7, .i32⟩
  | 8 => ⟨S7, .i32⟩
  | 9 => ⟨S_, .i32⟩
  | 10 => ⟨S7, .i32⟩
  | 11 => ⟨S7, .i1⟩
  | 12 => ⟨S7, .i32⟩
  | 13 => ⟨S7, .i32⟩
  | 14 => ⟨S_, .i32⟩
  | 15 => ⟨S7, .i32⟩
  | 16 => ⟨S7, .i1⟩
  | 17 => ⟨S7, .i1⟩
  | 18 => ⟨S_, .i32⟩
  | 19 => ⟨S7, .i32⟩
  | 20 => ⟨S7, .i32⟩
  | 21 => ⟨S7, .i32⟩
  | 22 => ⟨S7, .i32⟩
  | 23 => ⟨S7, .i32⟩
  | 24 => ⟨S64, .i32⟩
  | 25 => ⟨S64, .i32⟩
  | 26 => ⟨S1x64, .i32⟩
  | 27 => ⟨S7x1, .i32⟩
  | 28 => ⟨S7x64, .i32⟩
  | 29 => ⟨S7x64, .i32⟩
  | 30 => ⟨S7x64, .i1⟩
  | 31 => ⟨S1x64, .i32⟩
  | 32 => ⟨S7x1, .i32⟩
  | 33 => ⟨S7x64, .i32⟩
  | 34 => ⟨S7x64, .i32⟩
  | 35 => ⟨S7x64, .i1⟩
  | 36 => ⟨S7x64, .i1⟩
  | 37 => ⟨S1x64, .i32⟩
  | 38 => ⟨S7x1, .i32⟩
  | 39 => ⟨S7x64, .i32⟩
  | 40 => ⟨S7x64, .i32⟩
  | 41 => ⟨S7x64, .i1⟩
  | 42 => ⟨S1x64, .i32⟩
  | 43 => ⟨S7x1, .i32⟩
  | 44 => ⟨S7x64, .i32⟩
  | 45 => ⟨S7x64, .i32⟩
  | 46 => ⟨S7x64, .i1⟩
  | 47 => ⟨S7x64, .i1⟩
  | 48 => ⟨S7x1x64x1, .i1⟩
  | 49 => ⟨S1x512x64x64, .f32⟩
  | 50 => ⟨S_, .f32⟩
  | 51 => ⟨S7x512x64x64, .i1⟩
  | 52 => ⟨S7x512x64x64, .f32⟩
  | 53 => ⟨S7x512x64x64, .f32⟩
  | 54 => ⟨S7x512x64x64, .f32⟩
  | 55 => ⟨S_, .f32⟩
  | 56 => ⟨S7x512x64, .f32⟩
  | 57 => ⟨S1x1x7x64, .i1⟩
  | 58 => ⟨S7x512x1x64, .f32⟩
  | 59 => ⟨S_, .f32⟩
  | 60 => ⟨S7x512x7x64, .i1⟩
  | 61 => ⟨S7x512x7x64, .f32⟩
  | 62 => ⟨S7x512x7x64, .f32⟩
  | 63 => ⟨S7x512x7x64, .f32⟩
  | 64 => ⟨S_, .f32⟩
  | 65 => ⟨S7x512x7, .f32⟩
  | 66 => ⟨S512x7x7, .f32⟩
  | 67 => ⟨S25088, .f32⟩
  | 68 => ⟨S1x1, .i32⟩
  | 69 => ⟨S_, .i32⟩
  | 70 => ⟨S1x1, .i32⟩
  | 71 => ⟨S_, .i32⟩
  | 72 => ⟨S_, .i32⟩
  | 73 => ⟨S1x1, .i32⟩
  | 74 => ⟨S_, .i32⟩
  | 75 => ⟨S1x1, .i32⟩
  | 76 => ⟨S_, .i32⟩
  | 77 => ⟨S_, .i32⟩
  | 78 => ⟨S1x1, .i32⟩
  | 79 => ⟨S_, .i32⟩
  | 80 => ⟨S1x1, .i32⟩
  | 81 => ⟨S_, .i32⟩
  | 82 => ⟨S_, .i32⟩
  | 83 => ⟨S1x1, .i32⟩
  | 84 => ⟨S_, .i32⟩
  | 85 => ⟨S1x1, .i32⟩
  | 86 => ⟨S_, .i32⟩
  | 87 => ⟨S_, .i32⟩
  | 88 => ⟨S_, .i32⟩
  | 89 => ⟨S_, .i32⟩
  | 90 => ⟨S7, .i32⟩
  | 91 => ⟨S7, .i32⟩
  | 92 => ⟨S7, .i32⟩
  | 93 => ⟨S7, .i32⟩
  | 94 => ⟨S_, .i32⟩
  | 95 => ⟨S_, .i32⟩
  | 96 => ⟨S7, .i32⟩
  | 97 => ⟨S7, .i32⟩
  | 98 => ⟨S7, .i32⟩
  | 99 => ⟨S_, .i32⟩
  | 100 => ⟨S7, .i32⟩
  | 101 => ⟨S7, .i1⟩
  | 102 => ⟨S7, .i32⟩
  | 103 => ⟨S7, .i32⟩
  | 104 => ⟨S_, .i32⟩
  | 105 => ⟨S7, .i32⟩
  | 106 => ⟨S7, .i1⟩
  | 107 => ⟨S7, .i1⟩
  | 108 => ⟨S_, .i32⟩
  | 109 => ⟨S7, .i32⟩
  | 110 => ⟨S7, .i32⟩
  | 111 => ⟨S7, .i32⟩
  | 112 => ⟨S7, .i32⟩
  | 113 => ⟨S7, .i32⟩
  | 114 => ⟨S_, .i32⟩
  | 115 => ⟨S7, .i32⟩
  | 116 => ⟨S7, .i32⟩
  | 117 => ⟨S7, .i32⟩
  | 118 => ⟨S7, .i32⟩
  | 119 => ⟨S7, .i32⟩
  | 120 => ⟨S_, .i32⟩
  | 121 => ⟨S_, .i32⟩
  | 122 => ⟨S7, .i32⟩
  | 123 => ⟨S7, .i32⟩
  | 124 => ⟨S7, .i32⟩
  | 125 => ⟨S_, .i32⟩
  | 126 => ⟨S7, .i32⟩
  | 127 => ⟨S7, .i1⟩
  | _ => ⟨S1x512x64x64, .f32⟩

abbrev hbmTy0_8 (i : Nat) : BufTy := match i % 128 with
  | 0 => ⟨S7, .i32⟩
  | 1 => ⟨S7, .i32⟩
  | 2 => ⟨S_, .i32⟩
  | 3 => ⟨S7, .i32⟩
  | 4 => ⟨S7, .i1⟩
  | 5 => ⟨S7, .i1⟩
  | 6 => ⟨S_, .i32⟩
  | 7 => ⟨S7, .i32⟩
  | 8 => ⟨S7, .i32⟩
  | 9 => ⟨S7, .i32⟩
  | 10 => ⟨S7, .i32⟩
  | 11 => ⟨S7, .i32⟩
  | 12 => ⟨S7, .i32⟩
  | 13 => ⟨S7, .i32⟩
  | 14 => ⟨S_, .i32⟩
  | 15 => ⟨S_, .i32⟩
  | 16 => ⟨S7, .i32⟩
  | 17 => ⟨S7, .i32⟩
  | 18 => ⟨S7, .i32⟩
  | 19 => ⟨S_, .i32⟩
  | 20 => ⟨S7, .i32⟩
  | 21 => ⟨S7, .i1⟩
  | 22 => ⟨S7, .i32⟩
  | 23 => ⟨S7, .i32⟩
  | 24 => ⟨S_, .i32⟩
  | 25 => ⟨S7, .i32⟩
  | 26 => ⟨S7, .i1⟩
  | 27 => ⟨S7, .i1⟩
  | 28 => ⟨S_, .i32⟩
  | 29 => ⟨S7, .i32⟩
  | 30 => ⟨S7, .i32⟩
  | 31 => ⟨S7, .i32⟩
  | 32 => ⟨S7, .i32⟩
  | 33 => ⟨S7, .i32⟩
  | 34 => ⟨S_, .i32⟩
  | 35 => ⟨S7, .i32⟩
  | 36 => ⟨S7, .i32⟩
  | 37 => ⟨S7, .i32⟩
  | 38 => ⟨S7, .i32⟩
  | 39 => ⟨S7, .i32⟩
  | 40 => ⟨S_, .i32⟩
  | 41 => ⟨S_, .i32⟩
  | 42 => ⟨S7, .i32⟩
  | 43 => ⟨S7, .i32⟩
  | 44 => ⟨S7, .i32⟩
  | 45 => ⟨S_, .i32⟩
  | 46 => ⟨S7, .i32⟩
  | 47 => ⟨S7, .i1⟩
  | 48 => ⟨S7, .i32⟩
  | 49 => ⟨S7, .i32⟩
  | 50 => ⟨S_, .i32⟩
  | 51 => ⟨S7, .i32⟩
  | 52 => ⟨S7, .i1⟩
  | 53 => ⟨S7, .i1⟩
  | 54 => ⟨S_, .i32⟩
  | 55 => ⟨S7, .i32⟩
  | 56 => ⟨S7, .i32⟩
  | 57 => ⟨S7, .i32⟩
  | 58 => ⟨S7, .i32⟩
  | 59 => ⟨S7, .i32⟩
  | 60 => ⟨S64, .i32⟩
  | 61 => ⟨S64, .i32⟩
  | 62 => ⟨S1x64, .i32⟩
  | 63 => ⟨S7x1, .i32⟩
  | 64 => ⟨S7x64, .i32⟩
  | 65 => ⟨S7x64, .i32⟩
  | 66 => ⟨S7x64, .i1⟩
  | 67 => ⟨S1x64, .i32⟩
  | 68 => ⟨S7x1, .i32⟩
  | 69 => ⟨S7x64, .i32⟩
  | 70 => ⟨S7x64, .i32⟩
  | 71 => ⟨S7x64, .i1⟩
  | 72 => ⟨S7x64, .i1⟩
  | 73 => ⟨S1x64, .i32⟩
  | 74 => ⟨S7x1, .i32⟩
  | 75 => ⟨S7x64, .i32⟩
  | 76 => ⟨S7x64, .i32⟩
  | 77 => ⟨S7x64, .i1⟩
  | 78 => ⟨S1x64, .i32⟩
  | 79 => ⟨S7x1, .i32⟩
  | 80 => ⟨S7x64, .i32⟩
  | 81 => ⟨S7x64, .i32⟩
  | 82 => ⟨S7x64, .i1⟩
  | 83 => ⟨S7x64, .i1⟩
  | 84 => ⟨S7x1x64x1, .i1⟩
  | 85 => ⟨S1x512x64x64, .f32⟩
  | 86 => ⟨S_, .f32⟩
  | 87 => ⟨S7x512x64x64, .i1⟩
  | 88 => ⟨S7x512x64x64, .f32⟩
  | 89 => ⟨S7x512x64x64, .f32⟩
  | 90 => ⟨S7x512x64x64, .f32⟩
  | 91 => ⟨S_, .f32⟩
  | 92 => ⟨S7x512x64, .f32⟩
  | 93 => ⟨S1x1x7x64, .i1⟩
  | 94 => ⟨S7x512x1x64, .f32⟩
  | 95 => ⟨S_, .f32⟩
  | 96 => ⟨S7x512x7x64, .i1⟩
  | 97 => ⟨S7x512x7x64, .f32⟩
  | 98 => ⟨S7x512x7x64, .f32⟩
  | 99 => ⟨S7x512x7x64, .f32⟩
  | 100 => ⟨S_, .f32⟩
  | 101 => ⟨S7x512x7, .f32⟩
  | 102 => ⟨S512x7x7, .f32⟩
  | 103 => ⟨S25088, .f32⟩
  | 104 => ⟨S1x1, .i32⟩
  | 105 => ⟨S_, .i32⟩
  | 106 => ⟨S1x1, .i32⟩
  | 107 => ⟨S_, .i32⟩
  | 108 => ⟨S_, .i32⟩
  | 109 => ⟨S1x1, .i32⟩
  | 110 => ⟨S_, .i32⟩
  | 111 => ⟨S1x1, .i32⟩
  | 112 => ⟨S_, .i32⟩
  | 113 => ⟨S_, .i32⟩
  | 114 => ⟨S1x1, .i32⟩
  | 115 => ⟨S_, .i32⟩
  | 116 => ⟨S1x1, .i32⟩
  | 117 => ⟨S_, .i32⟩
  | 118 => ⟨S_, .i32⟩
  | 119 => ⟨S1x1, .i32⟩
  | 120 => ⟨S_, .i32⟩
  | 121 => ⟨S1x1, .i32⟩
  | 122 => ⟨S_, .i32⟩
  | 123 => ⟨S_, .i32⟩
  | 124 => ⟨S_, .i32⟩
  | 125 => ⟨S_, .i32⟩
  | 126 => ⟨S7, .i32⟩
  | 127 => ⟨S7, .i32⟩
  | _ => ⟨S1x512x64x64, .f32⟩

abbrev hbmTy0_9 (i : Nat) : BufTy := match i % 128 with
  | 0 => ⟨S7, .i32⟩
  | 1 => ⟨S7, .i32⟩
  | 2 => ⟨S_, .i32⟩
  | 3 => ⟨S_, .i32⟩
  | 4 => ⟨S7, .i32⟩
  | 5 => ⟨S7, .i32⟩
  | 6 => ⟨S7, .i32⟩
  | 7 => ⟨S_, .i32⟩
  | 8 => ⟨S7, .i32⟩
  | 9 => ⟨S7, .i1⟩
  | 10 => ⟨S7, .i32⟩
  | 11 => ⟨S7, .i32⟩
  | 12 => ⟨S_, .i32⟩
  | 13 => ⟨S7, .i32⟩
  | 14 => ⟨S7, .i1⟩
  | 15 => ⟨S7, .i1⟩
  | 16 => ⟨S_, .i32⟩
  | 17 => ⟨S7, .i32⟩
  | 18 => ⟨S7, .i32⟩
  | 19 => ⟨S7, .i32⟩
  | 20 => ⟨S7, .i32⟩
  | 21 => ⟨S7, .i32⟩
  | 22 => ⟨S_, .i32⟩
  | 23 => ⟨S7, .i32⟩
  | 24 => ⟨S7, .i32⟩
  | 25 => ⟨S7, .i32⟩
  | 26 => ⟨S7, .i32⟩
  | 27 => ⟨S7, .i32⟩
  | 28 => ⟨S_, .i32⟩
  | 29 => ⟨S_, .i32⟩
  | 30 => ⟨S7, .i32⟩
  | 31 => ⟨S7, .i32⟩
  | 32 => ⟨S7, .i32⟩
  | 33 => ⟨S_, .i32⟩
  | 34 => ⟨S7, .i32⟩
  | 35 => ⟨S7, .i1⟩
  | 36 => ⟨S7, .i32⟩
  | 37 => ⟨S7, .i32⟩
  | 38 => ⟨S_, .i32⟩
  | 39 => ⟨S7, .i32⟩
  | 40 => ⟨S7, .i1⟩
  | 41 => ⟨S7, .i1⟩
  | 42 => ⟨S_, .i32⟩
  | 43 => ⟨S7, .i32⟩
  | 44 => ⟨S7, .i32⟩
  | 45 => ⟨S7, .i32⟩
  | 46 => ⟨S7, .i32⟩
  | 47 => ⟨S7, .i32⟩
  | 48 => ⟨S7, .i32⟩
  | 49 => ⟨S7, .i32⟩
  | 50 => ⟨S_, .i32⟩
  | 51 => ⟨S_, .i32⟩
  | 52 => ⟨S7, .i32⟩
  | 53 => ⟨S7, .i32⟩
  | 54 => ⟨S7, .i32⟩
  | 55 => ⟨S_, .i32⟩
  | 56 => ⟨S7, .i32⟩
  | 57 => ⟨S7, .i1⟩
  | 58 => ⟨S7, .i32⟩
  | 59 => ⟨S7, .i32⟩
  | 60 => ⟨S_, .i32⟩
  | 61 => ⟨S7, .i32⟩
  | 62 => ⟨S7, .i1⟩
  | 63 => ⟨S7, .i1⟩
  | 64 => ⟨S_, .i32⟩
  | 65 => ⟨S7, .i32⟩
  | 66 => ⟨S7, .i32⟩
  | 67 => ⟨S7, .i32⟩
  | 68 => ⟨S7, .i32⟩
  | 69 => ⟨S7, .i32⟩
  | 70 => ⟨S_, .i32⟩
  | 71 => ⟨S7, .i32⟩
  | 72 => ⟨S7, .i32⟩
  | 73 => ⟨S7, .i32⟩
  | 74 => ⟨S7, .i32⟩
  | 75 => ⟨S7, .i32⟩
  | 76 => ⟨S_, .i32⟩
  | 77 => ⟨S_, .i32⟩
  | 78 => ⟨S7, .i32⟩
  | 79 => ⟨S7, .i32⟩
  | 80 => ⟨S7, .i32⟩
  | 81 => ⟨S_, .i32⟩
  | 82 => ⟨S7, .i32⟩
  | 83 => ⟨S7, .i1⟩
  | 84 => ⟨S7, .i32⟩
  | 85 => ⟨S7, .i32⟩
  | 86 => ⟨S_, .i32⟩
  | 87 => ⟨S7, .i32⟩
  | 88 => ⟨S7, .i1⟩
  | 89 => ⟨S7, .i1⟩
  | 90 => ⟨S_, .i32⟩
  | 91 => ⟨S7, .i32⟩
  | 92 => ⟨S7, .i32⟩
  | 93 => ⟨S7, .i32⟩
  | 94 => ⟨S7, .i32⟩
  | 95 => ⟨S7, .i32⟩
  | 96 => ⟨S64, .i32⟩
  | 97 => ⟨S64, .i32⟩
  | 98 => ⟨S1x64, .i32⟩
  | 99 => ⟨S7x1, .i32⟩
  | 100 => ⟨S7x64, .i32⟩
  | 101 => ⟨S7x64, .i32⟩
  | 102 => ⟨S7x64, .i1⟩
  | 103 => ⟨S1x64, .i32⟩
  | 104 => ⟨S7x1, .i32⟩
  | 105 => ⟨S7x64, .i32⟩
  | 106 => ⟨S7x64, .i32⟩
  | 107 => ⟨S7x64, .i1⟩
  | 108 => ⟨S7x64, .i1⟩
  | 109 => ⟨S1x64, .i32⟩
  | 110 => ⟨S7x1, .i32⟩
  | 111 => ⟨S7x64, .i32⟩
  | 112 => ⟨S7x64, .i32⟩
  | 113 => ⟨S7x64, .i1⟩
  | 114 => ⟨S1x64, .i32⟩
  | 115 => ⟨S7x1, .i32⟩
  | 116 => ⟨S7x64, .i32⟩
  | 117 => ⟨S7x64, .i32⟩
  | 118 => ⟨S7x64, .i1⟩
  | 119 => ⟨S7x64, .i1⟩
  | 120 => ⟨S7x1x64x1, .i1⟩
  | 121 => ⟨S1x512x64x64, .f32⟩
  | 122 => ⟨S_, .f32⟩
  | 123 => ⟨S7x512x64x64, .i1⟩
  | 124 => ⟨S7x512x64x64, .f32⟩
  | 125 => ⟨S7x512x64x64, .f32⟩
  | 126 => ⟨S7x512x64x64, .f32⟩
  | 127 => ⟨S_, .f32⟩
  | _ => ⟨S1x512x64x64, .f32⟩

abbrev hbmTy0_10 (i : Nat) : BufTy := match i % 128 with
  | 0 => ⟨S7x512x64, .f32⟩
  | 1 => ⟨S1x1x7x64, .i1⟩
  | 2 => ⟨S7x512x1x64, .f32⟩
  | 3 => ⟨S_, .f32⟩
  | 4 => ⟨S7x512x7x64, .i1⟩
  | 5 => ⟨S7x512x7x64, .f32⟩
  | 6 => ⟨S7x512x7x64, .f32⟩
  | 7 => ⟨S7x512x7x64, .f32⟩
  | 8 => ⟨S_, .f32⟩
  | 9 => ⟨S7x512x7, .f32⟩
  | 10 => ⟨S512x7x7, .f32⟩
  | 11 => ⟨S25088, .f32⟩
  | 12 => ⟨S1x1, .i32⟩
  | 13 => ⟨S_, .i32⟩
  | 14 => ⟨S1x1, .i32⟩
  | 15 => ⟨S_, .i32⟩
  | 16 => ⟨S_, .i32⟩
  | 17 => ⟨S1x1, .i32⟩
  | 18 => ⟨S_, .i32⟩
  | 19 => ⟨S1x1, .i32⟩
  | 20 => ⟨S_, .i32⟩
  | 21 => ⟨S_, .i32⟩
  | 22 => ⟨S1x1, .i32⟩
  | 23 => ⟨S_, .i32⟩
  | 24 => ⟨S1x1, .i32⟩
  | 25 => ⟨S_, .i32⟩
  | 26 => ⟨S_, .i32⟩
  | 27 => ⟨S1x1, .i32⟩
  | 28 => ⟨S_, .i32⟩
  | 29 => ⟨S1x1, .i32⟩
  | 30 => ⟨S_, .i32⟩
  | 31 => ⟨S_, .i32⟩
  | 32 => ⟨S_, .i32⟩
  | 33 => ⟨S_, .i32⟩
  | 34 => ⟨S7, .i32⟩
  | 35 => ⟨S7, .i32⟩
  | 36 => ⟨S7, .i32⟩
  | 37 => ⟨S7, .i32⟩
  | 38 => ⟨S_, .i32⟩
  | 39 => ⟨S_, .i32⟩
  | 40 => ⟨S7, .i32⟩
  | 41 => ⟨S7, .i32⟩
  | 42 => ⟨S7, .i32⟩
  | 43 => ⟨S_, .i32⟩
  | 44 => ⟨S7, .i32⟩
  | 45 => ⟨S7, .i1⟩
  | 46 => ⟨S7, .i32⟩
  | 47 => ⟨S7, .i32⟩
  | 48 => ⟨S_, .i32⟩
  | 49 => ⟨S7, .i32⟩
  | 50 => ⟨S7, .i1⟩
  | 51 => ⟨S7, .i1⟩
  | 52 => ⟨S_, .i32⟩
  | 53 => ⟨S7, .i32⟩
  | 54 => ⟨S7, .i32⟩
  | 55 => ⟨S7, .i32⟩
  | 56 => ⟨S7, .i32⟩
  | 57 => ⟨S7, .i32⟩
  | 58 => ⟨S_, .i32⟩
  | 59 => ⟨S7, .i32⟩
  | 60 => ⟨S7, .i32⟩
  | 61 => ⟨S7, .i32⟩
  | 62 => ⟨S7, .i32⟩
  | 63 => ⟨S7, .i32⟩
  | 64 => ⟨S_, .i32⟩
  | 65 => ⟨S_, .i32⟩
  | 66 => ⟨S7, .i32⟩
  | 67 => ⟨S7, .i32⟩
  | 68 => ⟨S7, .i32⟩
  | 69 => ⟨S_, .i32⟩
  | 70 => ⟨S7, .i32⟩
  | 71 => ⟨S7, .i1⟩
  | 72 => ⟨S7, .i32⟩
  | 73 => ⟨S7, .i32⟩
  | 74 => ⟨S_, .i32⟩
  | 75 => ⟨S7, .i32⟩
  | 76 => ⟨S7, .i1⟩
  | 77 => ⟨S7, .i1⟩
  | 78 => ⟨S_, .i32⟩
  | 79 => ⟨S7, .i32⟩
  | 80 => ⟨S7, .i32⟩
  | 81 => ⟨S7, .i32⟩
  | 82 => ⟨S7, .i32⟩
  | 83 => ⟨S7, .i32⟩
  | 84 => ⟨S7, .i32⟩
  | 85 => ⟨S7, .i32⟩
  | 86 => ⟨S_, .i32⟩
  | 87 => ⟨S_, .i32⟩
  | 88 => ⟨S7, .i32⟩
  | 89 => ⟨S7, .i32⟩
  | 90 => ⟨S7, .i32⟩
  | 91 => ⟨S_, .i32⟩
  | 92 => ⟨S7, .i32⟩
  | 93 => ⟨S7, .i1⟩
  | 94 => ⟨S7, .i32⟩
  | 95 => ⟨S7, .i32⟩
  | 96 => ⟨S_, .i32⟩
  | 97 => ⟨S7, .i32⟩
  | 98 => ⟨S7, .i1⟩
  | 99 => ⟨S7, .i1⟩
  | 100 => ⟨S_, .i32⟩
  | 101 => ⟨S7, .i32⟩
  | 102 => ⟨S7, .i32⟩
  | 103 => ⟨S7, .i32⟩
  | 104 => ⟨S7, .i32⟩
  | 105 => ⟨S7, .i32⟩
  | 106 => ⟨S_, .i32⟩
  | 107 => ⟨S7, .i32⟩
  | 108 => ⟨S7, .i32⟩
  | 109 => ⟨S7, .i32⟩
  | 110 => ⟨S7, .i32⟩
  | 111 => ⟨S7, .i32⟩
  | 112 => ⟨S_, .i32⟩
  | 113 => ⟨S_, .i32⟩
  | 114 => ⟨S7, .i32⟩
  | 115 => ⟨S7, .i32⟩
  | 116 => ⟨S7, .i32⟩
  | 117 => ⟨S_, .i32⟩
  | 118 => ⟨S7, .i32⟩
  | 119 => ⟨S7, .i1⟩
  | 120 => ⟨S7, .i32⟩
  | 121 => ⟨S7, .i32⟩
  | 122 => ⟨S_, .i32⟩
  | 123 => ⟨S7, .i32⟩
  | 124 => ⟨S7, .i1⟩
  | 125 => ⟨S7, .i1⟩
  | 126 => ⟨S_, .i32⟩
  | 127 => ⟨S7, .i32⟩
  | _ => ⟨S1x512x64x64, .f32⟩

abbrev hbmTy0_11 (i : Nat) : BufTy := match i % 128 with
  | 0 => ⟨S7, .i32⟩
  | 1 => ⟨S7, .i32⟩
  | 2 => ⟨S7, .i32⟩
  | 3 => ⟨S7, .i32⟩
  | 4 => ⟨S64, .i32⟩
  | 5 => ⟨S64, .i32⟩
  | 6 => ⟨S1x64, .i32⟩
  | 7 => ⟨S7x1, .i32⟩
  | 8 => ⟨S7x64, .i32⟩
  | 9 => ⟨S7x64, .i32⟩
  | 10 => ⟨S7x64, .i1⟩
  | 11 => ⟨S1x64, .i32⟩
  | 12 => ⟨S7x1, .i32⟩
  | 13 => ⟨S7x64, .i32⟩
  | 14 => ⟨S7x64, .i32⟩
  | 15 => ⟨S7x64, .i1⟩
  | 16 => ⟨S7x64, .i1⟩
  | 17 => ⟨S1x64, .i32⟩
  | 18 => ⟨S7x1, .i32⟩
  | 19 => ⟨S7x64, .i32⟩
  | 20 => ⟨S7x64, .i32⟩
  | 21 => ⟨S7x64, .i1⟩
  | 22 => ⟨S1x64, .i32⟩
  | 23 => ⟨S7x1, .i32⟩
  | 24 => ⟨S7x64, .i32⟩
  | 25 => ⟨S7x64, .i32⟩
  | 26 => ⟨S7x64, .i1⟩
  | 27 => ⟨S7x64, .i1⟩
  | 28 => ⟨S7x1x64x1, .i1⟩
  | 29 => ⟨S1x512x64x64, .f32⟩
  | 30 => ⟨S_, .f32⟩
  | 31 => ⟨S7x512x64x64, .i1⟩
  | 32 => ⟨S7x512x64x64, .f32⟩
  | 33 => ⟨S7x512x64x64, .f32⟩
  | 34 => ⟨S7x512x64x64, .f32⟩
  | 35 => ⟨S_, .f32⟩
  | 36 => ⟨S7x512x64, .f32⟩
  | 37 => ⟨S1x1x7x64, .i1⟩
  | 38 => ⟨S7x512x1x64, .f32⟩
  | 39 => ⟨S_, .f32⟩
  | 40 => ⟨S7x512x7x64, .i1⟩
  | 41 => ⟨S7x512x7x64, .f32⟩
  | 42 => ⟨S7x512x7x64, .f32⟩
  | 43 => ⟨S7x512x7x64, .f32⟩
  | 44 => ⟨S_, .f32⟩
  | 45 => ⟨S7x512x7, .f32⟩
  | 46 => ⟨S512x7x7, .f32⟩
  | 47 => ⟨S25088, .f32⟩
  | 48 => ⟨S1x1, .i32⟩
  | 49 => ⟨S_, .i32⟩
  | 50 => ⟨S1x1, .i32⟩
  | 51 => ⟨S_, .i32⟩
  | 52 => ⟨S_, .i32⟩
  | 53 => ⟨S1x1, .i32⟩
  | 54 => ⟨S_, .i32⟩
  | 55 => ⟨S1x1, .i32⟩
  | 56 => ⟨S_, .i32⟩
  | 57 => ⟨S_, .i32⟩
  | 58 => ⟨S1x1, .i32⟩
  | 59 => ⟨S_, .i32⟩
  | 60 => ⟨S1x1, .i32⟩
  | 61 => ⟨S_, .i32⟩
  | 62 => ⟨S_, .i32⟩
  | 63 => ⟨S1x1, .i32⟩
  | 64 => ⟨S_, .i32⟩
  | 65 => ⟨S1x1, .i32⟩
  | 66 => ⟨S_, .i32⟩
  | 67 => ⟨S_, .i32⟩
  | 68 => ⟨S_, .i32⟩
  | 69 => ⟨S_, .i32⟩
  | 70 => ⟨S7, .i32⟩
  | 71 => ⟨S7, .i32⟩
  | 72 => ⟨S7, .i32⟩
  | 73 => ⟨S7, .i32⟩
  | 74 => ⟨S_, .i32⟩
  | 75 => ⟨S_, .i32⟩
  | 76 => ⟨S7, .i32⟩
  | 77 => ⟨S7, .i32⟩
  | 78 => ⟨S7, .i32⟩
  | 79 => ⟨S_, .i32⟩
  | 80 => ⟨S7, .i32⟩
  | 81 => ⟨S7, .i1⟩
  | 82 => ⟨S7, .i32⟩
  | 83 => ⟨S7, .i32⟩
  | 84 => ⟨S_, .i32⟩
  | 85 => ⟨S7, .i32⟩
  | 86 => ⟨S7, .i1⟩
  | 87 => ⟨S7, .i1⟩
  | 88 => ⟨S_, .i32⟩
  | 89 => ⟨S7, .i32⟩
  | 90 => ⟨S7, .i32⟩
  | 91 => ⟨S7, .i32⟩
  | 92 => ⟨S7, .i32⟩
  | 93 => ⟨S7, .i32⟩
  | 94 => ⟨S_, .i32⟩
  | 95 => ⟨S7, .i32⟩
  | 96 => ⟨S7, .i32⟩
  | 97 => ⟨S7, .i32⟩
  | 98 => ⟨S7, .i32⟩
  | 99 => ⟨S7, .i32⟩
  | 100 => ⟨S_, .i32⟩
  | 101 => ⟨S_, .i32⟩
  | 102 => ⟨S7, .i32⟩
  | 103 => ⟨S7, .i32⟩
  | 104 => ⟨S7, .i32⟩
  | 105 => ⟨S_, .i32⟩
  | 106 => ⟨S7, .i32⟩
  | 107 => ⟨S7, .i1⟩
  | 108 => ⟨S7, .i32⟩
  | 109 => ⟨S7, .i32⟩
  | 110 => ⟨S_, .i32⟩
  | 111 => ⟨S7, .i32⟩
  | 112 => ⟨S7, .i1⟩
  | 113 => ⟨S7, .i1⟩
  | 114 => ⟨S_, .i32⟩
  | 115 => ⟨S7, .i32⟩
  | 116 => ⟨S7, .i32⟩
  | 117 => ⟨S7, .i32⟩
  | 118 => ⟨S7, .i32⟩
  | 119 => ⟨S7, .i32⟩
  | 120 => ⟨S7, .i32⟩
  | 121 => ⟨S7, .i32⟩
  | 122 => ⟨S_, .i32⟩
  | 123 => ⟨S_, .i32⟩
  | 124 => ⟨S7, .i32⟩
  | 125 => ⟨S7, .i32⟩
  | 126 => ⟨S7, .i32⟩
  | 127 => ⟨S_, .i32⟩
  | _ => ⟨S1x512x64x64, .f32⟩

abbrev hbmTy0_12 (i : Nat) : BufTy := match i % 128 with
  | 0 => ⟨S7, .i32⟩
  | 1 => ⟨S7, .i1⟩
  | 2 => ⟨S7, .i32⟩
  | 3 => ⟨S7, .i32⟩
  | 4 => ⟨S_, .i32⟩
  | 5 => ⟨S7, .i32⟩
  | 6 => ⟨S7, .i1⟩
  | 7 => ⟨S7, .i1⟩
  | 8 => ⟨S_, .i32⟩
  | 9 => ⟨S7, .i32⟩
  | 10 => ⟨S7, .i32⟩
  | 11 => ⟨S7, .i32⟩
  | 12 => ⟨S7, .i32⟩
  | 13 => ⟨S7, .i32⟩
  | 14 => ⟨S_, .i32⟩
  | 15 => ⟨S7, .i32⟩
  | 16 => ⟨S7, .i32⟩
  | 17 => ⟨S7, .i32⟩
  | 18 => ⟨S7, .i32⟩
  | 19 => ⟨S7, .i32⟩
  | 20 => ⟨S_, .i32⟩
  | 21 => ⟨S_, .i32⟩
  | 22 => ⟨S7, .i32⟩
  | 23 => ⟨S7, .i32⟩
  | 24 => ⟨S7, .i32⟩
  | 25 => ⟨S_, .i32⟩
  | 26 => ⟨S7, .i32⟩
  | 27 => ⟨S7, .i1⟩
  | 28 => ⟨S7, .i32⟩
  | 29 => ⟨S7, .i32⟩
  | 30 => ⟨S_, .i32⟩
  | 31 => ⟨S7, .i32⟩
  | 32 => ⟨S7, .i1⟩
  | 33 => ⟨S7, .i1⟩
  | 34 => ⟨S_, .i32⟩
  | 35 => ⟨S7, .i32⟩
  | 36 => ⟨S7, .i32⟩
  | 37 => ⟨S7, .i32⟩
  | 38 => ⟨S7, .i32⟩
  | 39 => ⟨S7, .i32⟩
  | 40 => ⟨S64, .i32⟩
  | 41 => ⟨S64, .i32⟩
  | 42 => ⟨S1x64, .i32⟩
  | 43 => ⟨S7x1, .i32⟩
  | 44 => ⟨S7x64, .i32⟩
  | 45 => ⟨S7x64, .i32⟩
  | 46 => ⟨S7x64, .i1⟩
  | 47 => ⟨S1x64, .i32⟩
  | 48 => ⟨S7x1, .i32⟩
  | 49 => ⟨S7x64, .i32⟩
  | 50 => ⟨S7x64, .i32⟩
  | 51 => ⟨S7x64, .i1⟩
  | 52 => ⟨S7x64, .i1⟩
  | 53 => ⟨S1x64, .i32⟩
  | 54 => ⟨S7x1, .i32⟩
  | 55 => ⟨S7x64, .i32⟩
  | 56 => ⟨S7x64, .i32⟩
  | 57 => ⟨S7x64, .i1⟩
  | 58 => ⟨S1x64, .i32⟩
  | 59 => ⟨S7x1, .i32⟩
  | 60 => ⟨S7x64, .i32⟩
  | 61 => ⟨S7x64, .i32⟩
  | 62 => ⟨S7x64, .i1⟩
  | 63 => ⟨S7x64, .i1⟩
  | 64 => ⟨S7x1x64x1, .i1⟩
  | 65 => ⟨S1x512x64x64, .f32⟩
  | 66 => ⟨S_, .f32⟩
  | 67 => ⟨S7x512x64x64, .i1⟩
  | 68 => ⟨S7x512x64x64, .f32⟩
  | 69 => ⟨S7x512x64x64, .f32⟩
  | 70 => ⟨S7x512x64x64, .f32⟩
  | 71 => ⟨S_, .f32⟩
  | 72 => ⟨S7x512x64, .f32⟩
  | 73 => ⟨S1x1x7x64, .i1⟩
  | 74 => ⟨S7x512x1x64, .f32⟩
  | 75 => ⟨S_, .f32⟩
  | 76 => ⟨S7x512x7x64, .i1⟩
  | 77 => ⟨S7x512x7x64, .f32⟩
  | 78 => ⟨S7x512x7x64, .f32⟩
  | 79 => ⟨S7x512x7x64, .f32⟩
  | 80 => ⟨S_, .f32⟩
  | 81 => ⟨S7x512x7, .f32⟩
  | 82 => ⟨S512x7x7, .f32⟩
  | 83 => ⟨S25088, .f32⟩
  | 84 => ⟨S1x1, .i32⟩
  | 85 => ⟨S_, .i32⟩
  | 86 => ⟨S1x1, .i32⟩
  | 87 => ⟨S_, .i32⟩
  | 88 => ⟨S_, .i32⟩
  | 89 => ⟨S1x1, .i32⟩
  | 90 => ⟨S_, .i32⟩
  | 91 => ⟨S1x1, .i32⟩
  | 92 => ⟨S_, .i32⟩
  | 93 => ⟨S_, .i32⟩
  | 94 => ⟨S1x1, .i32⟩
  | 95 => ⟨S_, .i32⟩
  | 96 => ⟨S1x1, .i32⟩
  | 97 => ⟨S_, .i32⟩
  | 98 => ⟨S_, .i32⟩
  | 99 => ⟨S1x1, .i32⟩
  | 100 => ⟨S_, .i32⟩
  | 101 => ⟨S1x1, .i32⟩
  | 102 => ⟨S_, .i32⟩
  | 103 => ⟨S_, .i32⟩
  | 104 => ⟨S_, .i32⟩
  | 105 => ⟨S_, .i32⟩
  | 106 => ⟨S7, .i32⟩
  | 107 => ⟨S7, .i32⟩
  | 108 => ⟨S7, .i32⟩
  | 109 => ⟨S7, .i32⟩
  | 110 => ⟨S_, .i32⟩
  | 111 => ⟨S_, .i32⟩
  | 112 => ⟨S7, .i32⟩
  | 113 => ⟨S7, .i32⟩
  | 114 => ⟨S7, .i32⟩
  | 115 => ⟨S_, .i32⟩
  | 116 => ⟨S7, .i32⟩
  | 117 => ⟨S7, .i1⟩
  | 118 => ⟨S7, .i32⟩
  | 119 => ⟨S7, .i32⟩
  | 120 => ⟨S_, .i32⟩
  | 121 => ⟨S7, .i32⟩
  | 122 => ⟨S7, .i1⟩
  | 123 => ⟨S7, .i1⟩
  | 124 => ⟨S_, .i32⟩
  | 125 => ⟨S7, .i32⟩
  | 126 => ⟨S7, .i32⟩
  | 127 => ⟨S7, .i32⟩
  | _ => ⟨S1x512x64x64, .f32⟩

abbrev hbmTy0_13 (i : Nat) : BufTy := match i % 128 with
  | 0 => ⟨S7, .i32⟩
  | 1 => ⟨S7, .i32⟩
  | 2 => ⟨S_, .i32⟩
  | 3 => ⟨S7, .i32⟩
  | 4 => ⟨S7, .i32⟩
  | 5 => ⟨S7, .i32⟩
  | 6 => ⟨S7, .i32⟩
  | 7 => ⟨S7, .i32⟩
  | 8 => ⟨S_, .i32⟩
  | 9 => ⟨S_, .i32⟩
  | 10 => ⟨S7, .i32⟩
  | 11 => ⟨S7, .i32⟩
  | 12 => ⟨S7, .i32⟩
  | 13 => ⟨S_, .i32⟩
  | 14 => ⟨S7, .i32⟩
  | 15 => ⟨S7, .i1⟩
  | 16 => ⟨S7, .i32⟩
  | 17 => ⟨S7, .i32⟩
  | 18 => ⟨S_, .i32⟩
  | 19 => ⟨S7, .i32⟩
  | 20 => ⟨S7, .i1⟩
  | 21 => ⟨S7, .i1⟩
  | 22 => ⟨S_, .i32⟩
  | 23 => ⟨S7, .i32⟩
  | 24 => ⟨S7, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S_, .i32⟩
  | 32 => ⟨S7, .i32⟩
  | 33 => ⟨S7, .i32⟩
  | 34 => ⟨S7, .i32⟩
  | 35 => ⟨S_, .i32⟩
  | 36 => ⟨S7, .i32⟩
  | 37 => ⟨S7, .i1⟩
  | 38 => ⟨S7, .i32⟩
  | 39 => ⟨S7, .i32⟩
  | 40 => ⟨S_, .i32⟩
  | 41 => ⟨S7, .i32⟩
  | 42 => ⟨S7, .i1⟩
  | 43 => ⟨S7, .i1⟩
  | 44 => ⟨S_, .i32⟩
  | 45 => ⟨S7, .i32⟩
  | 46 => ⟨S7, .i32⟩
  | 47 => ⟨S7, .i32⟩
  | 48 => ⟨S7, .i32⟩
  | 49 => ⟨S7, .i32⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S_, .i32⟩
  | 57 => ⟨S_, .i32⟩
  | 58 => ⟨S7, .i32⟩
  | 59 => ⟨S7, .i32⟩
  | 60 => ⟨S7, .i32⟩
  | 61 => ⟨S_, .i32⟩
  | 62 => ⟨S7, .i32⟩
  | 63 => ⟨S7, .i1⟩
  | 64 => ⟨S7, .i32⟩
  | 65 => ⟨S7, .i32⟩
  | 66 => ⟨S_, .i32⟩
  | 67 => ⟨S7, .i32⟩
  | 68 => ⟨S7, .i1⟩
  | 69 => ⟨S7, .i1⟩
  | 70 => ⟨S_, .i32⟩
  | 71 => ⟨S7, .i32⟩
  | 72 => ⟨S7, .i32⟩
  | 73 => ⟨S7, .i32⟩
  | 74 => ⟨S7, .i32⟩
  | 75 => ⟨S7, .i32⟩
  | 76 => ⟨S64, .i32⟩
  | 77 => ⟨S64, .i32⟩
  | 78 => ⟨S1x64, .i32⟩
  | 79 => ⟨S7x1, .i32⟩
  | 80 => ⟨S7x64, .i32⟩
  | 81 => ⟨S7x64, .i32⟩
  | 82 => ⟨S7x64, .i1⟩
  | 83 => ⟨S1x64, .i32⟩
  | 84 => ⟨S7x1, .i32⟩
  | 85 => ⟨S7x64, .i32⟩
  | 86 => ⟨S7x64, .i32⟩
  | 87 => ⟨S7x64, .i1⟩
  | 88 => ⟨S7x64, .i1⟩
  | 89 => ⟨S1x64, .i32⟩
  | 90 => ⟨S7x1, .i32⟩
  | 91 => ⟨S7x64, .i32⟩
  | 92 => ⟨S7x64, .i32⟩
  | 93 => ⟨S7x64, .i1⟩
  | 94 => ⟨S1x64, .i32⟩
  | 95 => ⟨S7x1, .i32⟩
  | 96 => ⟨S7x64, .i32⟩
  | 97 => ⟨S7x64, .i32⟩
  | 98 => ⟨S7x64, .i1⟩
  | 99 => ⟨S7x64, .i1⟩
  | 100 => ⟨S7x1x64x1, .i1⟩
  | 101 => ⟨S1x512x64x64, .f32⟩
  | 102 => ⟨S_, .f32⟩
  | 103 => ⟨S7x512x64x64, .i1⟩
  | 104 => ⟨S7x512x64x64, .f32⟩
  | 105 => ⟨S7x512x64x64, .f32⟩
  | 106 => ⟨S7x512x64x64, .f32⟩
  | 107 => ⟨S_, .f32⟩
  | 108 => ⟨S7x512x64, .f32⟩
  | 109 => ⟨S1x1x7x64, .i1⟩
  | 110 => ⟨S7x512x1x64, .f32⟩
  | 111 => ⟨S_, .f32⟩
  | 112 => ⟨S7x512x7x64, .i1⟩
  | 113 => ⟨S7x512x7x64, .f32⟩
  | 114 => ⟨S7x512x7x64, .f32⟩
  | 115 => ⟨S7x512x7x64, .f32⟩
  | 116 => ⟨S_, .f32⟩
  | 117 => ⟨S7x512x7, .f32⟩
  | 118 => ⟨S512x7x7, .f32⟩
  | 119 => ⟨S25088, .f32⟩
  | 120 => ⟨S1x1, .i32⟩
  | 121 => ⟨S_, .i32⟩
  | 122 => ⟨S1x1, .i32⟩
  | 123 => ⟨S_, .i32⟩
  | 124 => ⟨S_, .i32⟩
  | 125 => ⟨S1x1, .i32⟩
  | 126 => ⟨S_, .i32⟩
  | 127 => ⟨S1x1, .i32⟩
  | _ => ⟨S1x512x64x64, .f32⟩

abbrev hbmTy0_14 (i : Nat) : BufTy := match i % 128 with
  | 0 => ⟨S_, .i32⟩
  | 1 => ⟨S_, .i32⟩
  | 2 => ⟨S1x1, .i32⟩
  | 3 => ⟨S_, .i32⟩
  | 4 => ⟨S1x1, .i32⟩
  | 5 => ⟨S_, .i32⟩
  | 6 => ⟨S_, .i32⟩
  | 7 => ⟨S1x1, .i32⟩
  | 8 => ⟨S_, .i32⟩
  | 9 => ⟨S1x1, .i32⟩
  | 10 => ⟨S_, .i32⟩
  | 11 => ⟨S_, .i32⟩
  | 12 => ⟨S_, .i32⟩
  | 13 => ⟨S_, .i32⟩
  | 14 => ⟨S7, .i32⟩
  | 15 => ⟨S7, .i32⟩
  | 16 => ⟨S7, .i32⟩
  | 17 => ⟨S7, .i32⟩
  | 18 => ⟨S_, .i32⟩
  | 19 => ⟨S_, .i32⟩
  | 20 => ⟨S7, .i32⟩
  | 21 => ⟨S7, .i32⟩
  | 22 => ⟨S7, .i32⟩
  | 23 => ⟨S_, .i32⟩
  | 24 => ⟨S7, .i32⟩
  | 25 => ⟨S7, .i1⟩
  | 26 => ⟨S7, .i32⟩
  | 27 => ⟨S7, .i32⟩
  | 28 => ⟨S_, .i32⟩
  | 29 => ⟨S7, .i32⟩
  | 30 => ⟨S7, .i1⟩
  | 31 => ⟨S7, .i1⟩
  | 32 => ⟨S_, .i32⟩
  | 33 => ⟨S7, .i32⟩
  | 34 => ⟨S7, .i32⟩
  | 35 => ⟨S7, .i32⟩
  | 36 => ⟨S7, .i32⟩
  | 37 => ⟨S7, .i32⟩
  | 38 => ⟨S_, .i32⟩
  | 39 => ⟨S7, .i32⟩
  | 40 => ⟨S7, .i32⟩
  | 41 => ⟨S7, .i32⟩
  | 42 => ⟨S7, .i32⟩
  | 43 => ⟨S7, .i32⟩
  | 44 => ⟨S_, .i32⟩
  | 45 => ⟨S_, .i32⟩
  | 46 => ⟨S7, .i32⟩
  | 47 => ⟨S7, .i32⟩
  | 48 => ⟨S7, .i32⟩
  | 49 => ⟨S_, .i32⟩
  | 50 => ⟨S7, .i32⟩
  | 51 => ⟨S7, .i1⟩
  | 52 => ⟨S7, .i32⟩
  | 53 => ⟨S7, .i32⟩
  | 54 => ⟨S_, .i32⟩
  | 55 => ⟨S7, .i32⟩
  | 56 => ⟨S7, .i1⟩
  | 57 => ⟨S7, .i1⟩
  | 58 => ⟨S_, .i32⟩
  | 59 => ⟨S7, .i32⟩
  | 60 => ⟨S7, .i32⟩
  | 61 => ⟨S7, .i32⟩
  | 62 => ⟨S7, .i32⟩
  | 63 => ⟨S7, .i32⟩
  | 64 => ⟨S7, .i32⟩
  | 65 => ⟨S7, .i32⟩
  | 66 => ⟨S_, .i32⟩
  | 67 => ⟨S_, .i32⟩
  | 68 => ⟨S7, .i32⟩
  | 69 => ⟨S7, .i32⟩
  | 70 => ⟨S7, .i32⟩
  | 71 => ⟨S_, .i32⟩
  | 72 => ⟨S7, .i32⟩
  | 73 => ⟨S7, .i1⟩
  | 74 => ⟨S7, .i32⟩
  | 75 => ⟨S7, .i32⟩
  | 76 => ⟨S_, .i32⟩
  | 77 => ⟨S7, .i32⟩
  | 78 => ⟨S7, .i1⟩
  | 79 => ⟨S7, .i1⟩
  | 80 => ⟨S_, .i32⟩
  | 81 => ⟨S7, .i32⟩
  | 82 => ⟨S7, .i32⟩
  | 83 => ⟨S7, .i32⟩
  | 84 => ⟨S7, .i32⟩
  | 85 => ⟨S7, .i32⟩
  | 86 => ⟨S_, .i32⟩
  | 87 => ⟨S7, .i32⟩
  | 88 => ⟨S7, .i32⟩
  | 89 => ⟨S7, .i32⟩
  | 90 => ⟨S7, .i32⟩
  | 91 => ⟨S7, .i32⟩
  | 92 => ⟨S_, .i32⟩
  | 93 => ⟨S_, .i32⟩
  | 94 => ⟨S7, .i32⟩
  | 95 => ⟨S7, .i32⟩
  | 96 => ⟨S7, .i32⟩
  | 97 => ⟨S_, .i32⟩
  | 98 => ⟨S7, .i32⟩
  | 99 => ⟨S7, .i1⟩
  | 100 => ⟨S7, .i32⟩
  | 101 => ⟨S7, .i32⟩
  | 102 => ⟨S_, .i32⟩
  | 103 => ⟨S7, .i32⟩
  | 104 => ⟨S7, .i1⟩
  | 105 => ⟨S7, .i1⟩
  | 106 => ⟨S_, .i32⟩
  | 107 => ⟨S7, .i32⟩
  | 108 => ⟨S7, .i32⟩
  | 109 => ⟨S7, .i32⟩
  | 110 => ⟨S7, .i32⟩
  | 111 => ⟨S7, .i32⟩
  | 112 => ⟨S64, .i32⟩
  | 113 => ⟨S64, .i32⟩
  | 114 => ⟨S1x64, .i32⟩
  | 115 => ⟨S7x1, .i32⟩
  | 116 => ⟨S7x64, .i32⟩
  | 117 => ⟨S7x64, .i32⟩
  | 118 => ⟨S7x64, .i1⟩
  | 119 => ⟨S1x64, .i32⟩
  | 120 => ⟨S7x1, .i32⟩
  | 121 => ⟨S7x64, .i32⟩
  | 122 => ⟨S7x64, .i32⟩
  | 123 => ⟨S7x64, .i1⟩
  | 124 => ⟨S7x64, .i1⟩
  | 125 => ⟨S1x64, .i32⟩
  | 126 => ⟨S7x1, .i32⟩
  | 127 => ⟨S7x64, .i32⟩
  | _ => ⟨S1x512x64x64, .f32⟩

abbrev hbmTy0_15 (i : Nat) : BufTy := match i % 128 with
  | 0 => ⟨S7x64, .i32⟩
  | 1 => ⟨S7x64, .i1⟩
  | 2 => ⟨S1x64, .i32⟩
  | 3 => ⟨S7x1, .i32⟩
  | 4 => ⟨S7x64, .i32⟩
  | 5 => ⟨S7x64, .i32⟩
  | 6 => ⟨S7x64, .i1⟩
  | 7 => ⟨S7x64, .i1⟩
  | 8 => ⟨S7x1x64x1, .i1⟩
  | 9 => ⟨S1x512x64x64, .f32⟩
  | 10 => ⟨S_, .f32⟩
  | 11 => ⟨S7x512x64x64, .i1⟩
  | 12 => ⟨S7x512x64x64, .f32⟩
  | 13 => ⟨S7x512x64x64, .f32⟩
  | 14 => ⟨S7x512x64x64, .f32⟩
  | 15 => ⟨S_, .f32⟩
  | 16 => ⟨S7x512x64, .f32⟩
  | 17 => ⟨S1x1x7x64, .i1⟩
  | 18 => ⟨S7x512x1x64, .f32⟩
  | 19 => ⟨S_, .f32⟩
  | 20 => ⟨S7x512x7x64, .i1⟩
  | 21 => ⟨S7x512x7x64, .f32⟩
  | 22 => ⟨S7x512x7x64, .f32⟩
  | 23 => ⟨S7x512x7x64, .f32⟩
  | 24 => ⟨S_, .f32⟩
  | 25 => ⟨S7x512x7, .f32⟩
  | 26 => ⟨S512x7x7, .f32⟩
  | 27 => ⟨S25088, .f32⟩
  | 28 => ⟨S1x1, .i32⟩
  | 29 => ⟨S_, .i32⟩
  | 30 => ⟨S1x1, .i32⟩
  | 31 => ⟨S_, .i32⟩
  | 32 => ⟨S_, .i32⟩
  | 33 => ⟨S1x1, .i32⟩
  | 34 => ⟨S_, .i32⟩
  | 35 => ⟨S1x1, .i32⟩
  | 36 => ⟨S_, .i32⟩
  | 37 => ⟨S_, .i32⟩
  | 38 => ⟨S1x1, .i32⟩
  | 39 => ⟨S_, .i32⟩
  | 40 => ⟨S1x1, .i32⟩
  | 41 => ⟨S_, .i32⟩
  | 42 => ⟨S_, .i32⟩
  | 43 => ⟨S1x1, .i32⟩
  | 44 => ⟨S_, .i32⟩
  | 45 => ⟨S1x1, .i32⟩
  | 46 => ⟨S_, .i32⟩
  | 47 => ⟨S_, .i32⟩
  | 48 => ⟨S_, .i32⟩
  | 49 => ⟨S_, .i32⟩
  | 50 => ⟨S7, .i32⟩
  | 51 => ⟨S7, .i32⟩
  | 52 => ⟨S7, .i32⟩
  | 53 => ⟨S7, .i32⟩
  | 54 => ⟨S_, .i32⟩
  | 55 => ⟨S_, .i32⟩
  | 56 => ⟨S7, .i32⟩
  | 57 => ⟨S7, .i32⟩
  | 58 => ⟨S7, .i32⟩
  | 59 => ⟨S_, .i32⟩
  | 60 => ⟨S7, .i32⟩
  | 61 => ⟨S7, .i1⟩
  | 62 => ⟨S7, .i32⟩
  | 63 => ⟨S7, .i32⟩
  | 64 => ⟨S_, .i32⟩
  | 65 => ⟨S7, .i32⟩
  | 66 => ⟨S7, .i1⟩
  | 67 => ⟨S7, .i1⟩
  | 68 => ⟨S_, .i32⟩
  | 69 => ⟨S7, .i32⟩
  | 70 => ⟨S7, .i32⟩
  | 71 => ⟨S7, .i32⟩
  | 72 => ⟨S7, .i32⟩
  | 73 => ⟨S7, .i32⟩
  | 74 => ⟨S_, .i32⟩
  | 75 => ⟨S7, .i32⟩
  | 76 => ⟨S7, .i32⟩
  | 77 => ⟨S7, .i32⟩
  | 78 => ⟨S7, .i32⟩
  | 79 => ⟨S7, .i32⟩
  | 80 => ⟨S_, .i32⟩
  | 81 => ⟨S_, .i32⟩
  | 82 => ⟨S7, .i32⟩
  | 83 => ⟨S7, .i32⟩
  | 84 => ⟨S7, .i32⟩
  | 85 => ⟨S_, .i32⟩
  | 86 => ⟨S7, .i32⟩
  | 87 => ⟨S7, .i1⟩
  | 88 => ⟨S7, .i32⟩
  | 89 => ⟨S7, .i32⟩
  | 90 => ⟨S_, .i32⟩
  | 91 => ⟨S7, .i32⟩
  | 92 => ⟨S7, .i1⟩
  | 93 => ⟨S7, .i1⟩
  | 94 => ⟨S_, .i32⟩
  | 95 => ⟨S7, .i32⟩
  | 96 => ⟨S7, .i32⟩
  | 97 => ⟨S7, .i32⟩
  | 98 => ⟨S7, .i32⟩
  | 99 => ⟨S7, .i32⟩
  | 100 => ⟨S7, .i32⟩
  | 101 => ⟨S7, .i32⟩
  | 102 => ⟨S_, .i32⟩
  | 103 => ⟨S_, .i32⟩
  | 104 => ⟨S7, .i32⟩
  | 105 => ⟨S7, .i32⟩
  | 106 => ⟨S7, .i32⟩
  | 107 => ⟨S_, .i32⟩
  | 108 => ⟨S7, .i32⟩
  | 109 => ⟨S7, .i1⟩
  | 110 => ⟨S7, .i32⟩
  | 111 => ⟨S7, .i32⟩
  | 112 => ⟨S_, .i32⟩
  | 113 => ⟨S7, .i32⟩
  | 114 => ⟨S7, .i1⟩
  | 115 => ⟨S7, .i1⟩
  | 116 => ⟨S_, .i32⟩
  | 117 => ⟨S7, .i32⟩
  | 118 => ⟨S7, .i32⟩
  | 119 => ⟨S7, .i32⟩
  | 120 => ⟨S7, .i32⟩
  | 121 => ⟨S7, .i32⟩
  | 122 => ⟨S_, .i32⟩
  | 123 => ⟨S7, .i32⟩
  | 124 => ⟨S7, .i32⟩
  | 125 => ⟨S7, .i32⟩
  | 126 => ⟨S7, .i32⟩
  | 127 => ⟨S7, .i32⟩
  | _ => ⟨S1x512x64x64, .f32⟩

abbrev hbmTy0_16 (i : Nat) : BufTy := match i % 128 with
  | 0 => ⟨S_, .i32⟩
  | 1 => ⟨S_, .i32⟩
  | 2 => ⟨S7, .i32⟩
  | 3 => ⟨S7, .i32⟩
  | 4 => ⟨S7, .i32⟩
  | 5 => ⟨S_, .i32⟩
  | 6 => ⟨S7, .i32⟩
  | 7 => ⟨S7, .i1⟩
  | 8 => ⟨S7, .i32⟩
  | 9 => ⟨S7, .i32⟩
  | 10 => ⟨S_, .i32⟩
  | 11 => ⟨S7, .i32⟩
  | 12 => ⟨S7, .i1⟩
  | 13 => ⟨S7, .i1⟩
  | 14 => ⟨S_, .i32⟩
  | 15 => ⟨S7, .i32⟩
  | 16 => ⟨S7, .i32⟩
  | 17 => ⟨S7, .i32⟩
  | 18 => ⟨S7, .i32⟩
  | 19 => ⟨S7, .i32⟩
  | 20 => ⟨S64, .i32⟩
  | 21 => ⟨S64, .i32⟩
  | 22 => ⟨S1x64, .i32⟩
  | 23 => ⟨S7x1, .i32⟩
  | 24 => ⟨S7x64, .i32⟩
  | 25 => ⟨S7x64, .i32⟩
  | 26 => ⟨S7x64, .i1⟩
  | 27 => ⟨S1x64, .i32⟩
  | 28 => ⟨S7x1, .i32⟩
  | 29 => ⟨S7x64, .i32⟩
  | 30 => ⟨S7x64, .i32⟩
  | 31 => ⟨S7x64, .i1⟩
  | 32 => ⟨S7x64, .i1⟩
  | 33 => ⟨S1x64, .i32⟩
  | 34 => ⟨S7x1, .i32⟩
  | 35 => ⟨S7x64, .i32⟩
  | 36 => ⟨S7x64, .i32⟩
  | 37 => ⟨S7x64, .i1⟩
  | 38 => ⟨S1x64, .i32⟩
  | 39 => ⟨S7x1, .i32⟩
  | 40 => ⟨S7x64, .i32⟩
  | 41 => ⟨S7x64, .i32⟩
  | 42 => ⟨S7x64, .i1⟩
  | 43 => ⟨S7x64, .i1⟩
  | 44 => ⟨S7x1x64x1, .i1⟩
  | 45 => ⟨S1x512x64x64, .f32⟩
  | 46 => ⟨S_, .f32⟩
  | 47 => ⟨S7x512x64x64, .i1⟩
  | 48 => ⟨S7x512x64x64, .f32⟩
  | 49 => ⟨S7x512x64x64, .f32⟩
  | 50 => ⟨S7x512x64x64, .f32⟩
  | 51 => ⟨S_, .f32⟩
  | 52 => ⟨S7x512x64, .f32⟩
  | 53 => ⟨S1x1x7x64, .i1⟩
  | 54 => ⟨S7x512x1x64, .f32⟩
  | 55 => ⟨S_, .f32⟩
  | 56 => ⟨S7x512x7x64, .i1⟩
  | 57 => ⟨S7x512x7x64, .f32⟩
  | 58 => ⟨S7x512x7x64, .f32⟩
  | 59 => ⟨S7x512x7x64, .f32⟩
  | 60 => ⟨S_, .f32⟩
  | 61 => ⟨S7x512x7, .f32⟩
  | 62 => ⟨S512x7x7, .f32⟩
  | 63 => ⟨S25088, .f32⟩
  | 64 => ⟨S1x1, .i32⟩
  | 65 => ⟨S_, .i32⟩
  | 66 => ⟨S1x1, .i32⟩
  | 67 => ⟨S_, .i32⟩
  | 68 => ⟨S_, .i32⟩
  | 69 => ⟨S1x1, .i32⟩
  | 70 => ⟨S_, .i32⟩
  | 71 => ⟨S1x1, .i32⟩
  | 72 => ⟨S_, .i32⟩
  | 73 => ⟨S_, .i32⟩
  | 74 => ⟨S1x1, .i32⟩
  | 75 => ⟨S_, .i32⟩
  | 76 => ⟨S1x1, .i32⟩
  | 77 => ⟨S_, .i32⟩
  | 78 => ⟨S_, .i32⟩
  | 79 => ⟨S1x1, .i32⟩
  | 80 => ⟨S_, .i32⟩
  | 81 => ⟨S1x1, .i32⟩
  | 82 => ⟨S_, .i32⟩
  | 83 => ⟨S_, .i32⟩
  | 84 => ⟨S_, .i32⟩
  | 85 => ⟨S_, .i32⟩
  | 86 => ⟨S7, .i32⟩
  | 87 => ⟨S7, .i32⟩
  | 88 => ⟨S7, .i32⟩
  | 89 => ⟨S7, .i32⟩
  | 90 => ⟨S_, .i32⟩
  | 91 => ⟨S_, .i32⟩
  | 92 => ⟨S7, .i32⟩
  | 93 => ⟨S7, .i32⟩
  | 94 => ⟨S7, .i32⟩
  | 95 => ⟨S_, .i32⟩
  | 96 => ⟨S7, .i32⟩
  | 97 => ⟨S7, .i1⟩
  | 98 => ⟨S7, .i32⟩
  | 99 => ⟨S7, .i32⟩
  | 100 => ⟨S_, .i32⟩
  | 101 => ⟨S7, .i32⟩
  | 102 => ⟨S7, .i1⟩
  | 103 => ⟨S7, .i1⟩
  | 104 => ⟨S_, .i32⟩
  | 105 => ⟨S7, .i32⟩
  | 106 => ⟨S7, .i32⟩
  | 107 => ⟨S7, .i32⟩
  | 108 => ⟨S7, .i32⟩
  | 109 => ⟨S7, .i32⟩
  | 110 => ⟨S_, .i32⟩
  | 111 => ⟨S7, .i32⟩
  | 112 => ⟨S7, .i32⟩
  | 113 => ⟨S7, .i32⟩
  | 114 => ⟨S7, .i32⟩
  | 115 => ⟨S7, .i32⟩
  | 116 => ⟨S_, .i32⟩
  | 117 => ⟨S_, .i32⟩
  | 118 => ⟨S7, .i32⟩
  | 119 => ⟨S7, .i32⟩
  | 120 => ⟨S7, .i32⟩
  | 121 => ⟨S_, .i32⟩
  | 122 => ⟨S7, .i32⟩
  | 123 => ⟨S7, .i1⟩
  | 124 => ⟨S7, .i32⟩
  | 125 => ⟨S7, .i32⟩
  | 126 => ⟨S_, .i32⟩
  | 127 => ⟨S7, .i32⟩
  | _ => ⟨S1x512x64x64, .f32⟩

abbrev hbmTy0_17 (i : Nat) : BufTy := match i % 128 with
  | 0 => ⟨S7, .i1⟩
  | 1 => ⟨S7, .i1⟩
  | 2 => ⟨S_, .i32⟩
  | 3 => ⟨S7, .i32⟩
  | 4 => ⟨S7, .i32⟩
  | 5 => ⟨S7, .i32⟩
  | 6 => ⟨S7, .i32⟩
  | 7 => ⟨S7, .i32⟩
  | 8 => ⟨S7, .i32⟩
  | 9 => ⟨S7, .i32⟩
  | 10 => ⟨S_, .i32⟩
  | 11 => ⟨S_, .i32⟩
  | 12 => ⟨S7, .i32⟩
  | 13 => ⟨S7, .i32⟩
  | 14 => ⟨S7, .i32⟩
  | 15 => ⟨S_, .i32⟩
  | 16 => ⟨S7, .i32⟩
  | 17 => ⟨S7, .i1⟩
  | 18 => ⟨S7, .i32⟩
  | 19 => ⟨S7, .i32⟩
  | 20 => ⟨S_, .i32⟩
  | 21 => ⟨S7, .i32⟩
  | 22 => ⟨S7, .i1⟩
  | 23 => ⟨S7, .i1⟩
  | 24 => ⟨S_, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S7, .i32⟩
  | 32 => ⟨S7, .i32⟩
  | 33 => ⟨S7, .i32⟩
  | 34 => ⟨S7, .i32⟩
  | 35 => ⟨S7, .i32⟩
  | 36 => ⟨S_, .i32⟩
  | 37 => ⟨S_, .i32⟩
  | 38 => ⟨S7, .i32⟩
  | 39 => ⟨S7, .i32⟩
  | 40 => ⟨S7, .i32⟩
  | 41 => ⟨S_, .i32⟩
  | 42 => ⟨S7, .i32⟩
  | 43 => ⟨S7, .i1⟩
  | 44 => ⟨S7, .i32⟩
  | 45 => ⟨S7, .i32⟩
  | 46 => ⟨S_, .i32⟩
  | 47 => ⟨S7, .i32⟩
  | 48 => ⟨S7, .i1⟩
  | 49 => ⟨S7, .i1⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S64, .i32⟩
  | 57 => ⟨S64, .i32⟩
  | 58 => ⟨S1x64, .i32⟩
  | 59 => ⟨S7x1, .i32⟩
  | 60 => ⟨S7x64, .i32⟩
  | 61 => ⟨S7x64, .i32⟩
  | 62 => ⟨S7x64, .i1⟩
  | 63 => ⟨S1x64, .i32⟩
  | 64 => ⟨S7x1, .i32⟩
  | 65 => ⟨S7x64, .i32⟩
  | 66 => ⟨S7x64, .i32⟩
  | 67 => ⟨S7x64, .i1⟩
  | 68 => ⟨S7x64, .i1⟩
  | 69 => ⟨S1x64, .i32⟩
  | 70 => ⟨S7x1, .i32⟩
  | 71 => ⟨S7x64, .i32⟩
  | 72 => ⟨S7x64, .i32⟩
  | 73 => ⟨S7x64, .i1⟩
  | 74 => ⟨S1x64, .i32⟩
  | 75 => ⟨S7x1, .i32⟩
  | 76 => ⟨S7x64, .i32⟩
  | 77 => ⟨S7x64, .i32⟩
  | 78 => ⟨S7x64, .i1⟩
  | 79 => ⟨S7x64, .i1⟩
  | 80 => ⟨S7x1x64x1, .i1⟩
  | 81 => ⟨S1x512x64x64, .f32⟩
  | 82 => ⟨S_, .f32⟩
  | 83 => ⟨S7x512x64x64, .i1⟩
  | 84 => ⟨S7x512x64x64, .f32⟩
  | 85 => ⟨S7x512x64x64, .f32⟩
  | 86 => ⟨S7x512x64x64, .f32⟩
  | 87 => ⟨S_, .f32⟩
  | 88 => ⟨S7x512x64, .f32⟩
  | 89 => ⟨S1x1x7x64, .i1⟩
  | 90 => ⟨S7x512x1x64, .f32⟩
  | 91 => ⟨S_, .f32⟩
  | 92 => ⟨S7x512x7x64, .i1⟩
  | 93 => ⟨S7x512x7x64, .f32⟩
  | 94 => ⟨S7x512x7x64, .f32⟩
  | 95 => ⟨S7x512x7x64, .f32⟩
  | 96 => ⟨S_, .f32⟩
  | 97 => ⟨S7x512x7, .f32⟩
  | 98 => ⟨S512x7x7, .f32⟩
  | 99 => ⟨S25088, .f32⟩
  | 100 => ⟨S1x1, .i32⟩
  | 101 => ⟨S_, .i32⟩
  | 102 => ⟨S1x1, .i32⟩
  | 103 => ⟨S_, .i32⟩
  | 104 => ⟨S_, .i32⟩
  | 105 => ⟨S1x1, .i32⟩
  | 106 => ⟨S_, .i32⟩
  | 107 => ⟨S1x1, .i32⟩
  | 108 => ⟨S_, .i32⟩
  | 109 => ⟨S_, .i32⟩
  | 110 => ⟨S1x1, .i32⟩
  | 111 => ⟨S_, .i32⟩
  | 112 => ⟨S1x1, .i32⟩
  | 113 => ⟨S_, .i32⟩
  | 114 => ⟨S_, .i32⟩
  | 115 => ⟨S1x1, .i32⟩
  | 116 => ⟨S_, .i32⟩
  | 117 => ⟨S1x1, .i32⟩
  | 118 => ⟨S_, .i32⟩
  | 119 => ⟨S_, .i32⟩
  | 120 => ⟨S_, .i32⟩
  | 121 => ⟨S_, .i32⟩
  | 122 => ⟨S7, .i32⟩
  | 123 => ⟨S7, .i32⟩
  | 124 => ⟨S7, .i32⟩
  | 125 => ⟨S7, .i32⟩
  | 126 => ⟨S_, .i32⟩
  | 127 => ⟨S_, .i32⟩
  | _ => ⟨S1x512x64x64, .f32⟩

abbrev hbmTy0_18 (i : Nat) : BufTy := match i % 128 with
  | 0 => ⟨S7, .i32⟩
  | 1 => ⟨S7, .i32⟩
  | 2 => ⟨S7, .i32⟩
  | 3 => ⟨S_, .i32⟩
  | 4 => ⟨S7, .i32⟩
  | 5 => ⟨S7, .i1⟩
  | 6 => ⟨S7, .i32⟩
  | 7 => ⟨S7, .i32⟩
  | 8 => ⟨S_, .i32⟩
  | 9 => ⟨S7, .i32⟩
  | 10 => ⟨S7, .i1⟩
  | 11 => ⟨S7, .i1⟩
  | 12 => ⟨S_, .i32⟩
  | 13 => ⟨S7, .i32⟩
  | 14 => ⟨S7, .i32⟩
  | 15 => ⟨S7, .i32⟩
  | 16 => ⟨S7, .i32⟩
  | 17 => ⟨S7, .i32⟩
  | 18 => ⟨S_, .i32⟩
  | 19 => ⟨S7, .i32⟩
  | 20 => ⟨S7, .i32⟩
  | 21 => ⟨S7, .i32⟩
  | 22 => ⟨S7, .i32⟩
  | 23 => ⟨S7, .i32⟩
  | 24 => ⟨S_, .i32⟩
  | 25 => ⟨S_, .i32⟩
  | 26 => ⟨S7, .i32⟩
  | 27 => ⟨S7, .i32⟩
  | 28 => ⟨S7, .i32⟩
  | 29 => ⟨S_, .i32⟩
  | 30 => ⟨S7, .i32⟩
  | 31 => ⟨S7, .i1⟩
  | 32 => ⟨S7, .i32⟩
  | 33 => ⟨S7, .i32⟩
  | 34 => ⟨S_, .i32⟩
  | 35 => ⟨S7, .i32⟩
  | 36 => ⟨S7, .i1⟩
  | 37 => ⟨S7, .i1⟩
  | 38 => ⟨S_, .i32⟩
  | 39 => ⟨S7, .i32⟩
  | 40 => ⟨S7, .i32⟩
  | 41 => ⟨S7, .i32⟩
  | 42 => ⟨S7, .i32⟩
  | 43 => ⟨S7, .i32⟩
  | 44 => ⟨S7, .i32⟩
  | 45 => ⟨S7, .i32⟩
  | 46 => ⟨S_, .i32⟩
  | 47 => ⟨S_, .i32⟩
  | 48 => ⟨S7, .i32⟩
  | 49 => ⟨S7, .i32⟩
  | 50 => ⟨S7, .i32⟩
  | 51 => ⟨S_, .i32⟩
  | 52 => ⟨S7, .i32⟩
  | 53 => ⟨S7, .i1⟩
  | 54 => ⟨S7, .i32⟩
  | 55 => ⟨S7, .i32⟩
  | 56 => ⟨S_, .i32⟩
  | 57 => ⟨S7, .i32⟩
  | 58 => ⟨S7, .i1⟩
  | 59 => ⟨S7, .i1⟩
  | 60 => ⟨S_, .i32⟩
  | 61 => ⟨S7, .i32⟩
  | 62 => ⟨S7, .i32⟩
  | 63 => ⟨S7, .i32⟩
  | 64 => ⟨S7, .i32⟩
  | 65 => ⟨S7, .i32⟩
  | 66 => ⟨S_, .i32⟩
  | 67 => ⟨S7, .i32⟩
  | 68 => ⟨S7, .i32⟩
  | 69 => ⟨S7, .i32⟩
  | 70 => ⟨S7, .i32⟩
  | 71 => ⟨S7, .i32⟩
  | 72 => ⟨S_, .i32⟩
  | 73 => ⟨S_, .i32⟩
  | 74 => ⟨S7, .i32⟩
  | 75 => ⟨S7, .i32⟩
  | 76 => ⟨S7, .i32⟩
  | 77 => ⟨S_, .i32⟩
  | 78 => ⟨S7, .i32⟩
  | 79 => ⟨S7, .i1⟩
  | 80 => ⟨S7, .i32⟩
  | 81 => ⟨S7, .i32⟩
  | 82 => ⟨S_, .i32⟩
  | 83 => ⟨S7, .i32⟩
  | 84 => ⟨S7, .i1⟩
  | 85 => ⟨S7, .i1⟩
  | 86 => ⟨S_, .i32⟩
  | 87 => ⟨S7, .i32⟩
  | 88 => ⟨S7, .i32⟩
  | 89 => ⟨S7, .i32⟩
  | 90 => ⟨S7, .i32⟩
  | 91 => ⟨S7, .i32⟩
  | 92 => ⟨S64, .i32⟩
  | 93 => ⟨S64, .i32⟩
  | 94 => ⟨S1x64, .i32⟩
  | 95 => ⟨S7x1, .i32⟩
  | 96 => ⟨S7x64, .i32⟩
  | 97 => ⟨S7x64, .i32⟩
  | 98 => ⟨S7x64, .i1⟩
  | 99 => ⟨S1x64, .i32⟩
  | 100 => ⟨S7x1, .i32⟩
  | 101 => ⟨S7x64, .i32⟩
  | 102 => ⟨S7x64, .i32⟩
  | 103 => ⟨S7x64, .i1⟩
  | 104 => ⟨S7x64, .i1⟩
  | 105 => ⟨S1x64, .i32⟩
  | 106 => ⟨S7x1, .i32⟩
  | 107 => ⟨S7x64, .i32⟩
  | 108 => ⟨S7x64, .i32⟩
  | 109 => ⟨S7x64, .i1⟩
  | 110 => ⟨S1x64, .i32⟩
  | 111 => ⟨S7x1, .i32⟩
  | 112 => ⟨S7x64, .i32⟩
  | 113 => ⟨S7x64, .i32⟩
  | 114 => ⟨S7x64, .i1⟩
  | 115 => ⟨S7x64, .i1⟩
  | 116 => ⟨S7x1x64x1, .i1⟩
  | 117 => ⟨S1x512x64x64, .f32⟩
  | 118 => ⟨S_, .f32⟩
  | 119 => ⟨S7x512x64x64, .i1⟩
  | 120 => ⟨S7x512x64x64, .f32⟩
  | 121 => ⟨S7x512x64x64, .f32⟩
  | 122 => ⟨S7x512x64x64, .f32⟩
  | 123 => ⟨S_, .f32⟩
  | 124 => ⟨S7x512x64, .f32⟩
  | 125 => ⟨S1x1x7x64, .i1⟩
  | 126 => ⟨S7x512x1x64, .f32⟩
  | 127 => ⟨S_, .f32⟩
  | _ => ⟨S1x512x64x64, .f32⟩

abbrev hbmTy0_19 (i : Nat) : BufTy := match i % 128 with
  | 0 => ⟨S7x512x7x64, .i1⟩
  | 1 => ⟨S7x512x7x64, .f32⟩
  | 2 => ⟨S7x512x7x64, .f32⟩
  | 3 => ⟨S7x512x7x64, .f32⟩
  | 4 => ⟨S_, .f32⟩
  | 5 => ⟨S7x512x7, .f32⟩
  | 6 => ⟨S512x7x7, .f32⟩
  | 7 => ⟨S25088, .f32⟩
  | 8 => ⟨S1x1, .i32⟩
  | 9 => ⟨S_, .i32⟩
  | 10 => ⟨S1x1, .i32⟩
  | 11 => ⟨S_, .i32⟩
  | 12 => ⟨S_, .i32⟩
  | 13 => ⟨S1x1, .i32⟩
  | 14 => ⟨S_, .i32⟩
  | 15 => ⟨S1x1, .i32⟩
  | 16 => ⟨S_, .i32⟩
  | 17 => ⟨S_, .i32⟩
  | 18 => ⟨S1x1, .i32⟩
  | 19 => ⟨S_, .i32⟩
  | 20 => ⟨S1x1, .i32⟩
  | 21 => ⟨S_, .i32⟩
  | 22 => ⟨S_, .i32⟩
  | 23 => ⟨S1x1, .i32⟩
  | 24 => ⟨S_, .i32⟩
  | 25 => ⟨S1x1, .i32⟩
  | 26 => ⟨S_, .i32⟩
  | 27 => ⟨S_, .i32⟩
  | 28 => ⟨S_, .i32⟩
  | 29 => ⟨S_, .i32⟩
  | 30 => ⟨S7, .i32⟩
  | 31 => ⟨S7, .i32⟩
  | 32 => ⟨S7, .i32⟩
  | 33 => ⟨S7, .i32⟩
  | 34 => ⟨S_, .i32⟩
  | 35 => ⟨S_, .i32⟩
  | 36 => ⟨S7, .i32⟩
  | 37 => ⟨S7, .i32⟩
  | 38 => ⟨S7, .i32⟩
  | 39 => ⟨S_, .i32⟩
  | 40 => ⟨S7, .i32⟩
  | 41 => ⟨S7, .i1⟩
  | 42 => ⟨S7, .i32⟩
  | 43 => ⟨S7, .i32⟩
  | 44 => ⟨S_, .i32⟩
  | 45 => ⟨S7, .i32⟩
  | 46 => ⟨S7, .i1⟩
  | 47 => ⟨S7, .i1⟩
  | 48 => ⟨S_, .i32⟩
  | 49 => ⟨S7, .i32⟩
  | 50 => ⟨S7, .i32⟩
  | 51 => ⟨S7, .i32⟩
  | 52 => ⟨S7, .i32⟩
  | 53 => ⟨S7, .i32⟩
  | 54 => ⟨S_, .i32⟩
  | 55 => ⟨S7, .i32⟩
  | 56 => ⟨S7, .i32⟩
  | 57 => ⟨S7, .i32⟩
  | 58 => ⟨S7, .i32⟩
  | 59 => ⟨S7, .i32⟩
  | 60 => ⟨S_, .i32⟩
  | 61 => ⟨S_, .i32⟩
  | 62 => ⟨S7, .i32⟩
  | 63 => ⟨S7, .i32⟩
  | 64 => ⟨S7, .i32⟩
  | 65 => ⟨S_, .i32⟩
  | 66 => ⟨S7, .i32⟩
  | 67 => ⟨S7, .i1⟩
  | 68 => ⟨S7, .i32⟩
  | 69 => ⟨S7, .i32⟩
  | 70 => ⟨S_, .i32⟩
  | 71 => ⟨S7, .i32⟩
  | 72 => ⟨S7, .i1⟩
  | 73 => ⟨S7, .i1⟩
  | 74 => ⟨S_, .i32⟩
  | 75 => ⟨S7, .i32⟩
  | 76 => ⟨S7, .i32⟩
  | 77 => ⟨S7, .i32⟩
  | 78 => ⟨S7, .i32⟩
  | 79 => ⟨S7, .i32⟩
  | 80 => ⟨S7, .i32⟩
  | 81 => ⟨S7, .i32⟩
  | 82 => ⟨S_, .i32⟩
  | 83 => ⟨S_, .i32⟩
  | 84 => ⟨S7, .i32⟩
  | 85 => ⟨S7, .i32⟩
  | 86 => ⟨S7, .i32⟩
  | 87 => ⟨S_, .i32⟩
  | 88 => ⟨S7, .i32⟩
  | 89 => ⟨S7, .i1⟩
  | 90 => ⟨S7, .i32⟩
  | 91 => ⟨S7, .i32⟩
  | 92 => ⟨S_, .i32⟩
  | 93 => ⟨S7, .i32⟩
  | 94 => ⟨S7, .i1⟩
  | 95 => ⟨S7, .i1⟩
  | 96 => ⟨S_, .i32⟩
  | 97 => ⟨S7, .i32⟩
  | 98 => ⟨S7, .i32⟩
  | 99 => ⟨S7, .i32⟩
  | 100 => ⟨S7, .i32⟩
  | 101 => ⟨S7, .i32⟩
  | 102 => ⟨S_, .i32⟩
  | 103 => ⟨S7, .i32⟩
  | 104 => ⟨S7, .i32⟩
  | 105 => ⟨S7, .i32⟩
  | 106 => ⟨S7, .i32⟩
  | 107 => ⟨S7, .i32⟩
  | 108 => ⟨S_, .i32⟩
  | 109 => ⟨S_, .i32⟩
  | 110 => ⟨S7, .i32⟩
  | 111 => ⟨S7, .i32⟩
  | 112 => ⟨S7, .i32⟩
  | 113 => ⟨S_, .i32⟩
  | 114 => ⟨S7, .i32⟩
  | 115 => ⟨S7, .i1⟩
  | 116 => ⟨S7, .i32⟩
  | 117 => ⟨S7, .i32⟩
  | 118 => ⟨S_, .i32⟩
  | 119 => ⟨S7, .i32⟩
  | 120 => ⟨S7, .i1⟩
  | 121 => ⟨S7, .i1⟩
  | 122 => ⟨S_, .i32⟩
  | 123 => ⟨S7, .i32⟩
  | 124 => ⟨S7, .i32⟩
  | 125 => ⟨S7, .i32⟩
  | 126 => ⟨S7, .i32⟩
  | 127 => ⟨S7, .i32⟩
  | _ => ⟨S1x512x64x64, .f32⟩

abbrev hbmTy0_20 (i : Nat) : BufTy := match i % 128 with
  | 0 => ⟨S64, .i32⟩
  | 1 => ⟨S64, .i32⟩
  | 2 => ⟨S1x64, .i32⟩
  | 3 => ⟨S7x1, .i32⟩
  | 4 => ⟨S7x64, .i32⟩
  | 5 => ⟨S7x64, .i32⟩
  | 6 => ⟨S7x64, .i1⟩
  | 7 => ⟨S1x64, .i32⟩
  | 8 => ⟨S7x1, .i32⟩
  | 9 => ⟨S7x64, .i32⟩
  | 10 => ⟨S7x64, .i32⟩
  | 11 => ⟨S7x64, .i1⟩
  | 12 => ⟨S7x64, .i1⟩
  | 13 => ⟨S1x64, .i32⟩
  | 14 => ⟨S7x1, .i32⟩
  | 15 => ⟨S7x64, .i32⟩
  | 16 => ⟨S7x64, .i32⟩
  | 17 => ⟨S7x64, .i1⟩
  | 18 => ⟨S1x64, .i32⟩
  | 19 => ⟨S7x1, .i32⟩
  | 20 => ⟨S7x64, .i32⟩
  | 21 => ⟨S7x64, .i32⟩
  | 22 => ⟨S7x64, .i1⟩
  | 23 => ⟨S7x64, .i1⟩
  | 24 => ⟨S7x1x64x1, .i1⟩
  | 25 => ⟨S1x512x64x64, .f32⟩
  | 26 => ⟨S_, .f32⟩
  | 27 => ⟨S7x512x64x64, .i1⟩
  | 28 => ⟨S7x512x64x64, .f32⟩
  | 29 => ⟨S7x512x64x64, .f32⟩
  | 30 => ⟨S7x512x64x64, .f32⟩
  | 31 => ⟨S_, .f32⟩
  | 32 => ⟨S7x512x64, .f32⟩
  | 33 => ⟨S1x1x7x64, .i1⟩
  | 34 => ⟨S7x512x1x64, .f32⟩
  | 35 => ⟨S_, .f32⟩
  | 36 => ⟨S7x512x7x64, .i1⟩
  | 37 => ⟨S7x512x7x64, .f32⟩
  | 38 => ⟨S7x512x7x64, .f32⟩
  | 39 => ⟨S7x512x7x64, .f32⟩
  | 40 => ⟨S_, .f32⟩
  | 41 => ⟨S7x512x7, .f32⟩
  | 42 => ⟨S512x7x7, .f32⟩
  | 43 => ⟨S25088, .f32⟩
  | 44 => ⟨S150528, .f32⟩
  | 45 => ⟨S150528, .f32⟩
  | 46 => ⟨S150528, .f32⟩
  | 47 => ⟨S1x150528, .f32⟩
  | 48 => ⟨S1x150528, .f32⟩
  | 49 => ⟨S1x150528, .f32⟩
  | 50 => ⟨S3x150528, .f32⟩
  | 51 => ⟨S3x1024, .f32⟩
  | 52 => ⟨S1x1024, .f32⟩
  | 53 => ⟨S3x1024, .f32⟩
  | 54 => ⟨S3x1024, .f32⟩
  | _ => ⟨S1x512x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | _ => ⟨S1x512x64x64, .f32⟩

abbrev bufTy : (tb : Table) → Fin (tcTables nBuf tb) → BufTy
  | .hbm, ⟨i, _⟩ => hbmTy i
  | _, _ => ⟨S1x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v28 : Ref sig .tc := ⟨.hbm, 52, rfl⟩
abbrev main_c_1 : Ref sig .tc := ⟨.hbm, 53, rfl⟩
abbrev main_v29 : Ref sig .tc := ⟨.hbm, 54, rfl⟩
abbrev main_v30 : Ref sig .tc := ⟨.hbm, 55, rfl⟩
abbrev main_c_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_3 : Ref sig .tc := ⟨.hbm, 60, rfl⟩
abbrev main_v34 : Ref sig .tc := ⟨.hbm, 61, rfl⟩
abbrev main_v35 : Ref sig .tc := ⟨.hbm, 62, rfl⟩
abbrev main_c_4 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v36 : Ref sig .tc := ⟨.hbm, 80, rfl⟩
abbrev main_c_5 : Ref sig .tc := ⟨.hbm, 81, rfl⟩
abbrev main_v37 : Ref sig .tc := ⟨.hbm, 82, rfl⟩
abbrev main_v38 : Ref sig .tc := ⟨.hbm, 83, rfl⟩
abbrev main_c_6 : Ref sig .tc := ⟨.hbm, 84, rfl⟩
abbrev main_v39 : Ref sig .tc := ⟨.hbm, 85, rfl⟩
abbrev main_v40 : Ref sig .tc := ⟨.hbm, 86, rfl⟩
abbrev main_c_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_c : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_0 : Ref sig .tc := ⟨.hbm, 101, rfl⟩
abbrev main_call4_v12 : Ref sig .tc := ⟨.hbm, 102, rfl⟩
abbrev main_call4_v13 : Ref sig .tc := ⟨.hbm, 103, rfl⟩
abbrev main_v41 : Ref sig .tc := ⟨.hbm, 104, rfl⟩
abbrev main_c_8 : Ref sig .tc := ⟨.hbm, 105, rfl⟩
abbrev main_v42 : Ref sig .tc := ⟨.hbm, 106, rfl⟩
abbrev main_v43 : Ref sig .tc := ⟨.hbm, 107, rfl⟩
abbrev main_c_9 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_c_10 : Ref sig .tc := ⟨.hbm, 112, rfl⟩
abbrev main_v47 : Ref sig .tc := ⟨.hbm, 113, rfl⟩
abbrev main_v48 : Ref sig .tc := ⟨.hbm, 114, rfl⟩
abbrev main_c_11 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_v5 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_c : Ref sig .tc := ⟨.hbm, 125, rfl⟩
abbrev main_call5_v9 : Ref sig .tc := ⟨.hbm, 126, rfl⟩
abbrev main_call5_v10 : Ref sig .tc := ⟨.hbm, 127, rfl⟩
abbrev main_call5_v11 : Ref sig .tc := ⟨.hbm, 128, rfl⟩
abbrev main_call5_c_0 : Ref sig .tc := ⟨.hbm, 129, rfl⟩
abbrev main_call5_v12 : Ref sig .tc := ⟨.hbm, 130, rfl⟩
abbrev main_call5_v13 : Ref sig .tc := ⟨.hbm, 131, rfl⟩
abbrev main_v49 : Ref sig .tc := ⟨.hbm, 132, rfl⟩
abbrev main_c_12 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_cst : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v78 : Ref sig .tc := ⟨.hbm, 166, rfl⟩
abbrev main_cst_13 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_cst_14 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v82 : Ref sig .tc := ⟨.hbm, 175, rfl⟩
abbrev main_cst_15 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_c_16 : Ref sig .tc := ⟨.hbm, 194, rfl⟩
abbrev main_call8_v0 : Ref sig .tc := ⟨.hbm, 195, rfl⟩
abbrev main_call8_v1 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_call8_v5 : Ref sig .tc := ⟨.hbm, 200, rfl⟩
abbrev main_call8_v6 : Ref sig .tc := ⟨.hbm, 201, rfl⟩
abbrev main_call8_v7 : Ref sig .tc := ⟨.hbm, 202, rfl⟩
abbrev main_call8_v8 : Ref sig .tc := ⟨.hbm, 203, rfl⟩
abbrev main_call8_c : Ref sig .tc := ⟨.hbm, 204, rfl⟩
abbrev main_call8_v9 : Ref sig .tc := ⟨.hbm, 205, rfl⟩
abbrev main_call8_v10 : Ref sig .tc := ⟨.hbm, 206, rfl⟩
abbrev main_call8_v11 : Ref sig .tc := ⟨.hbm, 207, rfl⟩
abbrev main_call8_c_0 : Ref sig .tc := ⟨.hbm, 208, rfl⟩
abbrev main_call8_v12 : Ref sig .tc := ⟨.hbm, 209, rfl⟩
abbrev main_call8_v13 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_c_17 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_c_18 : Ref sig .tc := ⟨.hbm, 220, rfl⟩
abbrev main_call9_v0 : Ref sig .tc := ⟨.hbm, 221, rfl⟩
abbrev main_call9_v1 : Ref sig .tc := ⟨.hbm, 222, rfl⟩
abbrev main_call9_v2 : Ref sig .tc := ⟨.hbm, 223, rfl⟩
abbrev main_call9_v3 : Ref sig .tc := ⟨.hbm, 224, rfl⟩
abbrev main_call9_v4 : Ref sig .tc := ⟨.hbm, 225, rfl⟩
abbrev main_call9_v5 : Ref sig .tc := ⟨.hbm, 226, rfl⟩
abbrev main_call9_v6 : Ref sig .tc := ⟨.hbm, 227, rfl⟩
abbrev main_call9_v7 : Ref sig .tc := ⟨.hbm, 228, rfl⟩
abbrev main_call9_v8 : Ref sig .tc := ⟨.hbm, 229, rfl⟩
abbrev main_call9_c : Ref sig .tc := ⟨.hbm, 230, rfl⟩
abbrev main_call9_v9 : Ref sig .tc := ⟨.hbm, 231, rfl⟩
abbrev main_call9_v10 : Ref sig .tc := ⟨.hbm, 232, rfl⟩
abbrev main_call9_v11 : Ref sig .tc := ⟨.hbm, 233, rfl⟩
abbrev main_call9_c_0 : Ref sig .tc := ⟨.hbm, 234, rfl⟩
abbrev main_call9_v12 : Ref sig .tc := ⟨.hbm, 235, rfl⟩
abbrev main_call9_v13 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_c_19 : Ref sig .tc := ⟨.hbm, 242, rfl⟩
abbrev main_call10_v0 : Ref sig .tc := ⟨.hbm, 243, rfl⟩
abbrev main_call10_v1 : Ref sig .tc := ⟨.hbm, 244, rfl⟩
abbrev main_call10_v2 : Ref sig .tc := ⟨.hbm, 245, rfl⟩
abbrev main_call10_v3 : Ref sig .tc := ⟨.hbm, 246, rfl⟩
abbrev main_call10_v4 : Ref sig .tc := ⟨.hbm, 247, rfl⟩
abbrev main_call10_v5 : Ref sig .tc := ⟨.hbm, 248, rfl⟩
abbrev main_call10_v6 : Ref sig .tc := ⟨.hbm, 249, rfl⟩
abbrev main_call10_v7 : Ref sig .tc := ⟨.hbm, 250, rfl⟩
abbrev main_call10_v8 : Ref sig .tc := ⟨.hbm, 251, rfl⟩
abbrev main_call10_c : Ref sig .tc := ⟨.hbm, 252, rfl⟩
abbrev main_call10_v9 : Ref sig .tc := ⟨.hbm, 253, rfl⟩
abbrev main_call10_v10 : Ref sig .tc := ⟨.hbm, 254, rfl⟩
abbrev main_call10_v11 : Ref sig .tc := ⟨.hbm, 255, rfl⟩
abbrev main_call10_c_0 : Ref sig .tc := ⟨.hbm, 256, rfl⟩
abbrev main_call10_v12 : Ref sig .tc := ⟨.hbm, 257, rfl⟩
abbrev main_call10_v13 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_c_20 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_c_21 : Ref sig .tc := ⟨.hbm, 268, rfl⟩
abbrev main_call11_v0 : Ref sig .tc := ⟨.hbm, 269, rfl⟩
abbrev main_call11_v1 : Ref sig .tc := ⟨.hbm, 270, rfl⟩
abbrev main_call11_v2 : Ref sig .tc := ⟨.hbm, 271, rfl⟩
abbrev main_call11_v3 : Ref sig .tc := ⟨.hbm, 272, rfl⟩
abbrev main_call11_v4 : Ref sig .tc := ⟨.hbm, 273, rfl⟩
abbrev main_call11_v5 : Ref sig .tc := ⟨.hbm, 274, rfl⟩
abbrev main_call11_v6 : Ref sig .tc := ⟨.hbm, 275, rfl⟩
abbrev main_call11_v7 : Ref sig .tc := ⟨.hbm, 276, rfl⟩
abbrev main_call11_v8 : Ref sig .tc := ⟨.hbm, 277, rfl⟩
abbrev main_call11_c : Ref sig .tc := ⟨.hbm, 278, rfl⟩
abbrev main_call11_v9 : Ref sig .tc := ⟨.hbm, 279, rfl⟩
abbrev main_call11_v10 : Ref sig .tc := ⟨.hbm, 280, rfl⟩
abbrev main_call11_v11 : Ref sig .tc := ⟨.hbm, 281, rfl⟩
abbrev main_call11_c_0 : Ref sig .tc := ⟨.hbm, 282, rfl⟩
abbrev main_call11_v12 : Ref sig .tc := ⟨.hbm, 283, rfl⟩
abbrev main_call11_v13 : Ref sig .tc := ⟨.hbm, 284, rfl⟩
abbrev main_v121 : Ref sig .tc := ⟨.hbm, 285, rfl⟩
abbrev main_v122 : Ref sig .tc := ⟨.hbm, 286, rfl⟩
abbrev main_v123 : Ref sig .tc := ⟨.hbm, 287, rfl⟩
abbrev main_v124 : Ref sig .tc := ⟨.hbm, 288, rfl⟩
abbrev main_v125 : Ref sig .tc := ⟨.hbm, 289, rfl⟩
abbrev main_v126 : Ref sig .tc := ⟨.hbm, 290, rfl⟩
abbrev main_v127 : Ref sig .tc := ⟨.hbm, 291, rfl⟩
abbrev main_v128 : Ref sig .tc := ⟨.hbm, 292, rfl⟩
abbrev main_v129 : Ref sig .tc := ⟨.hbm, 293, rfl⟩
abbrev main_v130 : Ref sig .tc := ⟨.hbm, 294, rfl⟩
abbrev main_v131 : Ref sig .tc := ⟨.hbm, 295, rfl⟩
abbrev main_v132 : Ref sig .tc := ⟨.hbm, 296, rfl⟩
abbrev main_v133 : Ref sig .tc := ⟨.hbm, 297, rfl⟩
abbrev main_v134 : Ref sig .tc := ⟨.hbm, 298, rfl⟩
abbrev main_v135 : Ref sig .tc := ⟨.hbm, 299, rfl⟩
abbrev main_v136 : Ref sig .tc := ⟨.hbm, 300, rfl⟩
abbrev main_v137 : Ref sig .tc := ⟨.hbm, 301, rfl⟩
abbrev main_v138 : Ref sig .tc := ⟨.hbm, 302, rfl⟩
abbrev main_v139 : Ref sig .tc := ⟨.hbm, 303, rfl⟩
abbrev main_v140 : Ref sig .tc := ⟨.hbm, 304, rfl⟩
abbrev main_v141 : Ref sig .tc := ⟨.hbm, 305, rfl⟩
abbrev main_v142 : Ref sig .tc := ⟨.hbm, 306, rfl⟩
abbrev main_v143 : Ref sig .tc := ⟨.hbm, 307, rfl⟩
abbrev main_v144 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_v148 : Ref sig .tc := ⟨.hbm, 312, rfl⟩
abbrev main_v149 : Ref sig .tc := ⟨.hbm, 313, rfl⟩
abbrev main_cst_22 : Ref sig .tc := ⟨.hbm, 314, rfl⟩
abbrev main_call12_v0 : Ref sig .tc := ⟨.hbm, 315, rfl⟩
abbrev main_call12_v1 : Ref sig .tc := ⟨.hbm, 316, rfl⟩
abbrev main_call12_v2 : Ref sig .tc := ⟨.hbm, 317, rfl⟩
abbrev main_v150 : Ref sig .tc := ⟨.hbm, 318, rfl⟩
abbrev main_cst_23 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_cst_24 : Ref sig .tc := ⟨.hbm, 323, rfl⟩
abbrev main_call13_v0 : Ref sig .tc := ⟨.hbm, 324, rfl⟩
abbrev main_call13_v1 : Ref sig .tc := ⟨.hbm, 325, rfl⟩
abbrev main_call13_v2 : Ref sig .tc := ⟨.hbm, 326, rfl⟩
abbrev main_v154 : Ref sig .tc := ⟨.hbm, 327, rfl⟩
abbrev main_cst_25 : Ref sig .tc := ⟨.hbm, 328, rfl⟩
abbrev main_v155 : Ref sig .tc := ⟨.hbm, 329, rfl⟩
abbrev main_v156 : Ref sig .tc := ⟨.hbm, 330, rfl⟩
abbrev main_v157 : Ref sig .tc := ⟨.hbm, 331, rfl⟩
abbrev main_v158 : Ref sig .tc := ⟨.hbm, 332, rfl⟩
abbrev main_v159 : Ref sig .tc := ⟨.hbm, 333, rfl⟩
abbrev main_v160 : Ref sig .tc := ⟨.hbm, 334, rfl⟩
abbrev main_v161 : Ref sig .tc := ⟨.hbm, 335, rfl⟩
abbrev main_v162 : Ref sig .tc := ⟨.hbm, 336, rfl⟩
abbrev main_v163 : Ref sig .tc := ⟨.hbm, 337, rfl⟩
abbrev main_v164 : Ref sig .tc := ⟨.hbm, 338, rfl⟩
abbrev main_v165 : Ref sig .tc := ⟨.hbm, 339, rfl⟩
abbrev main_v166 : Ref sig .tc := ⟨.hbm, 340, rfl⟩
abbrev main_v167 : Ref sig .tc := ⟨.hbm, 341, rfl⟩
abbrev main_v168 : Ref sig .tc := ⟨.hbm, 342, rfl⟩
abbrev main_v169 : Ref sig .tc := ⟨.hbm, 343, rfl⟩
abbrev main_v170 : Ref sig .tc := ⟨.hbm, 344, rfl⟩
abbrev main_v171 : Ref sig .tc := ⟨.hbm, 345, rfl⟩
abbrev main_c_26 : Ref sig .tc := ⟨.hbm, 346, rfl⟩
abbrev main_call14_v0 : Ref sig .tc := ⟨.hbm, 347, rfl⟩
abbrev main_call14_v1 : Ref sig .tc := ⟨.hbm, 348, rfl⟩
abbrev main_call14_v2 : Ref sig .tc := ⟨.hbm, 349, rfl⟩
abbrev main_call14_v3 : Ref sig .tc := ⟨.hbm, 350, rfl⟩
abbrev main_call14_v4 : Ref sig .tc := ⟨.hbm, 351, rfl⟩
abbrev main_call14_v5 : Ref sig .tc := ⟨.hbm, 352, rfl⟩
abbrev main_call14_v6 : Ref sig .tc := ⟨.hbm, 353, rfl⟩
abbrev main_call14_v7 : Ref sig .tc := ⟨.hbm, 354, rfl⟩
abbrev main_call14_v8 : Ref sig .tc := ⟨.hbm, 355, rfl⟩
abbrev main_call14_c : Ref sig .tc := ⟨.hbm, 356, rfl⟩
abbrev main_call14_v9 : Ref sig .tc := ⟨.hbm, 357, rfl⟩
abbrev main_call14_v10 : Ref sig .tc := ⟨.hbm, 358, rfl⟩
abbrev main_call14_v11 : Ref sig .tc := ⟨.hbm, 359, rfl⟩
abbrev main_call14_c_0 : Ref sig .tc := ⟨.hbm, 360, rfl⟩
abbrev main_call14_v12 : Ref sig .tc := ⟨.hbm, 361, rfl⟩
abbrev main_call14_v13 : Ref sig .tc := ⟨.hbm, 362, rfl⟩
abbrev main_v172 : Ref sig .tc := ⟨.hbm, 363, rfl⟩
abbrev main_v173 : Ref sig .tc := ⟨.hbm, 364, rfl⟩
abbrev main_v174 : Ref sig .tc := ⟨.hbm, 365, rfl⟩
abbrev main_c_27 : Ref sig .tc := ⟨.hbm, 366, rfl⟩
abbrev main_v175 : Ref sig .tc := ⟨.hbm, 367, rfl⟩
abbrev main_v176 : Ref sig .tc := ⟨.hbm, 368, rfl⟩
abbrev main_v177 : Ref sig .tc := ⟨.hbm, 369, rfl⟩
abbrev main_v178 : Ref sig .tc := ⟨.hbm, 370, rfl⟩
abbrev main_v179 : Ref sig .tc := ⟨.hbm, 371, rfl⟩
abbrev main_c_28 : Ref sig .tc := ⟨.hbm, 372, rfl⟩
abbrev main_call15_v0 : Ref sig .tc := ⟨.hbm, 373, rfl⟩
abbrev main_call15_v1 : Ref sig .tc := ⟨.hbm, 374, rfl⟩
abbrev main_call15_v2 : Ref sig .tc := ⟨.hbm, 375, rfl⟩
abbrev main_call15_v3 : Ref sig .tc := ⟨.hbm, 376, rfl⟩
abbrev main_call15_v4 : Ref sig .tc := ⟨.hbm, 377, rfl⟩
abbrev main_call15_v5 : Ref sig .tc := ⟨.hbm, 378, rfl⟩
abbrev main_call15_v6 : Ref sig .tc := ⟨.hbm, 379, rfl⟩
abbrev main_call15_v7 : Ref sig .tc := ⟨.hbm, 380, rfl⟩
abbrev main_call15_v8 : Ref sig .tc := ⟨.hbm, 381, rfl⟩
abbrev main_call15_c : Ref sig .tc := ⟨.hbm, 382, rfl⟩
abbrev main_call15_v9 : Ref sig .tc := ⟨.hbm, 383, rfl⟩
abbrev main_call15_v10 : Ref sig .tc := ⟨.hbm, 384, rfl⟩
abbrev main_call15_v11 : Ref sig .tc := ⟨.hbm, 385, rfl⟩
abbrev main_call15_c_0 : Ref sig .tc := ⟨.hbm, 386, rfl⟩
abbrev main_call15_v12 : Ref sig .tc := ⟨.hbm, 387, rfl⟩
abbrev main_call15_v13 : Ref sig .tc := ⟨.hbm, 388, rfl⟩
abbrev main_v180 : Ref sig .tc := ⟨.hbm, 389, rfl⟩
abbrev main_v181 : Ref sig .tc := ⟨.hbm, 390, rfl⟩
abbrev main_v182 : Ref sig .tc := ⟨.hbm, 391, rfl⟩
abbrev main_v183 : Ref sig .tc := ⟨.hbm, 392, rfl⟩
abbrev main_v184 : Ref sig .tc := ⟨.hbm, 393, rfl⟩
abbrev main_c_29 : Ref sig .tc := ⟨.hbm, 394, rfl⟩
abbrev main_call16_v0 : Ref sig .tc := ⟨.hbm, 395, rfl⟩
abbrev main_call16_v1 : Ref sig .tc := ⟨.hbm, 396, rfl⟩
abbrev main_call16_v2 : Ref sig .tc := ⟨.hbm, 397, rfl⟩
abbrev main_call16_v3 : Ref sig .tc := ⟨.hbm, 398, rfl⟩
abbrev main_call16_v4 : Ref sig .tc := ⟨.hbm, 399, rfl⟩
abbrev main_call16_v5 : Ref sig .tc := ⟨.hbm, 400, rfl⟩
abbrev main_call16_v6 : Ref sig .tc := ⟨.hbm, 401, rfl⟩
abbrev main_call16_v7 : Ref sig .tc := ⟨.hbm, 402, rfl⟩
abbrev main_call16_v8 : Ref sig .tc := ⟨.hbm, 403, rfl⟩
abbrev main_call16_c : Ref sig .tc := ⟨.hbm, 404, rfl⟩
abbrev main_call16_v9 : Ref sig .tc := ⟨.hbm, 405, rfl⟩
abbrev main_call16_v10 : Ref sig .tc := ⟨.hbm, 406, rfl⟩
abbrev main_call16_v11 : Ref sig .tc := ⟨.hbm, 407, rfl⟩
abbrev main_call16_c_0 : Ref sig .tc := ⟨.hbm, 408, rfl⟩
abbrev main_call16_v12 : Ref sig .tc := ⟨.hbm, 409, rfl⟩
abbrev main_call16_v13 : Ref sig .tc := ⟨.hbm, 410, rfl⟩
abbrev main_v185 : Ref sig .tc := ⟨.hbm, 411, rfl⟩
abbrev main_v186 : Ref sig .tc := ⟨.hbm, 412, rfl⟩
abbrev main_v187 : Ref sig .tc := ⟨.hbm, 413, rfl⟩
abbrev main_c_30 : Ref sig .tc := ⟨.hbm, 414, rfl⟩
abbrev main_v188 : Ref sig .tc := ⟨.hbm, 415, rfl⟩
abbrev main_v189 : Ref sig .tc := ⟨.hbm, 416, rfl⟩
abbrev main_v190 : Ref sig .tc := ⟨.hbm, 417, rfl⟩
abbrev main_v191 : Ref sig .tc := ⟨.hbm, 418, rfl⟩
abbrev main_v192 : Ref sig .tc := ⟨.hbm, 419, rfl⟩
abbrev main_c_31 : Ref sig .tc := ⟨.hbm, 420, rfl⟩
abbrev main_call17_v0 : Ref sig .tc := ⟨.hbm, 421, rfl⟩
abbrev main_call17_v1 : Ref sig .tc := ⟨.hbm, 422, rfl⟩
abbrev main_call17_v2 : Ref sig .tc := ⟨.hbm, 423, rfl⟩
abbrev main_call17_v3 : Ref sig .tc := ⟨.hbm, 424, rfl⟩
abbrev main_call17_v4 : Ref sig .tc := ⟨.hbm, 425, rfl⟩
abbrev main_call17_v5 : Ref sig .tc := ⟨.hbm, 426, rfl⟩
abbrev main_call17_v6 : Ref sig .tc := ⟨.hbm, 427, rfl⟩
abbrev main_call17_v7 : Ref sig .tc := ⟨.hbm, 428, rfl⟩
abbrev main_call17_v8 : Ref sig .tc := ⟨.hbm, 429, rfl⟩
abbrev main_call17_c : Ref sig .tc := ⟨.hbm, 430, rfl⟩
abbrev main_call17_v9 : Ref sig .tc := ⟨.hbm, 431, rfl⟩
abbrev main_call17_v10 : Ref sig .tc := ⟨.hbm, 432, rfl⟩
abbrev main_call17_v11 : Ref sig .tc := ⟨.hbm, 433, rfl⟩
abbrev main_call17_c_0 : Ref sig .tc := ⟨.hbm, 434, rfl⟩
abbrev main_call17_v12 : Ref sig .tc := ⟨.hbm, 435, rfl⟩
abbrev main_call17_v13 : Ref sig .tc := ⟨.hbm, 436, rfl⟩
abbrev main_v193 : Ref sig .tc := ⟨.hbm, 437, rfl⟩
abbrev main_v194 : Ref sig .tc := ⟨.hbm, 438, rfl⟩
abbrev main_v195 : Ref sig .tc := ⟨.hbm, 439, rfl⟩
abbrev main_v196 : Ref sig .tc := ⟨.hbm, 440, rfl⟩
abbrev main_v197 : Ref sig .tc := ⟨.hbm, 441, rfl⟩
abbrev main_v198 : Ref sig .tc := ⟨.hbm, 442, rfl⟩
abbrev main_v199 : Ref sig .tc := ⟨.hbm, 443, rfl⟩
abbrev main_v200 : Ref sig .tc := ⟨.hbm, 444, rfl⟩
abbrev main_v201 : Ref sig .tc := ⟨.hbm, 445, rfl⟩
abbrev main_v202 : Ref sig .tc := ⟨.hbm, 446, rfl⟩
abbrev main_v203 : Ref sig .tc := ⟨.hbm, 447, rfl⟩
abbrev main_v204 : Ref sig .tc := ⟨.hbm, 448, rfl⟩
abbrev main_v205 : Ref sig .tc := ⟨.hbm, 449, rfl⟩
abbrev main_v206 : Ref sig .tc := ⟨.hbm, 450, rfl⟩
abbrev main_v207 : Ref sig .tc := ⟨.hbm, 451, rfl⟩
abbrev main_v208 : Ref sig .tc := ⟨.hbm, 452, rfl⟩
abbrev main_v209 : Ref sig .tc := ⟨.hbm, 453, rfl⟩
abbrev main_v210 : Ref sig .tc := ⟨.hbm, 454, rfl⟩
abbrev main_v211 : Ref sig .tc := ⟨.hbm, 455, rfl⟩
abbrev main_v212 : Ref sig .tc := ⟨.hbm, 456, rfl⟩
abbrev main_v213 : Ref sig .tc := ⟨.hbm, 457, rfl⟩
abbrev main_v214 : Ref sig .tc := ⟨.hbm, 458, rfl⟩
abbrev main_v215 : Ref sig .tc := ⟨.hbm, 459, rfl⟩
abbrev main_v216 : Ref sig .tc := ⟨.hbm, 460, rfl⟩
abbrev main_v217 : Ref sig .tc := ⟨.hbm, 461, rfl⟩
abbrev main_v218 : Ref sig .tc := ⟨.hbm, 462, rfl⟩
abbrev main_v219 : Ref sig .tc := ⟨.hbm, 463, rfl⟩
abbrev main_v220 : Ref sig .tc := ⟨.hbm, 464, rfl⟩
abbrev main_v221 : Ref sig .tc := ⟨.hbm, 465, rfl⟩
abbrev main_cst_32 : Ref sig .tc := ⟨.hbm, 466, rfl⟩
abbrev main_call18_v0 : Ref sig .tc := ⟨.hbm, 467, rfl⟩
abbrev main_call18_v1 : Ref sig .tc := ⟨.hbm, 468, rfl⟩
abbrev main_call18_v2 : Ref sig .tc := ⟨.hbm, 469, rfl⟩
abbrev main_v222 : Ref sig .tc := ⟨.hbm, 470, rfl⟩
abbrev main_cst_33 : Ref sig .tc := ⟨.hbm, 471, rfl⟩
abbrev main_v223 : Ref sig .tc := ⟨.hbm, 472, rfl⟩
abbrev main_v224 : Ref sig .tc := ⟨.hbm, 473, rfl⟩
abbrev main_v225 : Ref sig .tc := ⟨.hbm, 474, rfl⟩
abbrev main_cst_34 : Ref sig .tc := ⟨.hbm, 475, rfl⟩
abbrev main_call19_v0 : Ref sig .tc := ⟨.hbm, 476, rfl⟩
abbrev main_call19_v1 : Ref sig .tc := ⟨.hbm, 477, rfl⟩
abbrev main_call19_v2 : Ref sig .tc := ⟨.hbm, 478, rfl⟩
abbrev main_v226 : Ref sig .tc := ⟨.hbm, 479, rfl⟩
abbrev main_cst_35 : Ref sig .tc := ⟨.hbm, 480, rfl⟩
abbrev main_v227 : Ref sig .tc := ⟨.hbm, 481, rfl⟩
abbrev main_v228 : Ref sig .tc := ⟨.hbm, 482, rfl⟩
abbrev main_v229 : Ref sig .tc := ⟨.hbm, 483, rfl⟩
abbrev main_v230 : Ref sig .tc := ⟨.hbm, 484, rfl⟩
abbrev main_v231 : Ref sig .tc := ⟨.hbm, 485, rfl⟩
abbrev main_v232 : Ref sig .tc := ⟨.hbm, 486, rfl⟩
abbrev main_v233 : Ref sig .tc := ⟨.hbm, 487, rfl⟩
abbrev main_v234 : Ref sig .tc := ⟨.hbm, 488, rfl⟩
abbrev main_v235 : Ref sig .tc := ⟨.hbm, 489, rfl⟩
abbrev main_v236 : Ref sig .tc := ⟨.hbm, 490, rfl⟩
abbrev main_v237 : Ref sig .tc := ⟨.hbm, 491, rfl⟩
abbrev main_v238 : Ref sig .tc := ⟨.hbm, 492, rfl⟩
abbrev main_v239 : Ref sig .tc := ⟨.hbm, 493, rfl⟩
abbrev main_v240 : Ref sig .tc := ⟨.hbm, 494, rfl⟩
abbrev main_v241 : Ref sig .tc := ⟨.hbm, 495, rfl⟩
abbrev main_v242 : Ref sig .tc := ⟨.hbm, 496, rfl⟩
abbrev main_v243 : Ref sig .tc := ⟨.hbm, 497, rfl⟩
abbrev main_c_36 : Ref sig .tc := ⟨.hbm, 498, rfl⟩
abbrev main_call20_v0 : Ref sig .tc := ⟨.hbm, 499, rfl⟩
abbrev main_call20_v1 : Ref sig .tc := ⟨.hbm, 500, rfl⟩
abbrev main_call20_v2 : Ref sig .tc := ⟨.hbm, 501, rfl⟩
abbrev main_call20_v3 : Ref sig .tc := ⟨.hbm, 502, rfl⟩
abbrev main_call20_v4 : Ref sig .tc := ⟨.hbm, 503, rfl⟩
abbrev main_call20_v5 : Ref sig .tc := ⟨.hbm, 504, rfl⟩
abbrev main_call20_v6 : Ref sig .tc := ⟨.hbm, 505, rfl⟩
abbrev main_call20_v7 : Ref sig .tc := ⟨.hbm, 506, rfl⟩
abbrev main_call20_v8 : Ref sig .tc := ⟨.hbm, 507, rfl⟩
abbrev main_call20_c : Ref sig .tc := ⟨.hbm, 508, rfl⟩
abbrev main_call20_v9 : Ref sig .tc := ⟨.hbm, 509, rfl⟩
abbrev main_call20_v10 : Ref sig .tc := ⟨.hbm, 510, rfl⟩
abbrev main_call20_v11 : Ref sig .tc := ⟨.hbm, 511, rfl⟩
abbrev main_call20_c_0 : Ref sig .tc := ⟨.hbm, 512, rfl⟩
abbrev main_call20_v12 : Ref sig .tc := ⟨.hbm, 513, rfl⟩
abbrev main_call20_v13 : Ref sig .tc := ⟨.hbm, 514, rfl⟩
abbrev main_v244 : Ref sig .tc := ⟨.hbm, 515, rfl⟩
abbrev main_v245 : Ref sig .tc := ⟨.hbm, 516, rfl⟩
abbrev main_v246 : Ref sig .tc := ⟨.hbm, 517, rfl⟩
abbrev main_c_37 : Ref sig .tc := ⟨.hbm, 518, rfl⟩
abbrev main_v247 : Ref sig .tc := ⟨.hbm, 519, rfl⟩
abbrev main_v248 : Ref sig .tc := ⟨.hbm, 520, rfl⟩
abbrev main_v249 : Ref sig .tc := ⟨.hbm, 521, rfl⟩
abbrev main_v250 : Ref sig .tc := ⟨.hbm, 522, rfl⟩
abbrev main_v251 : Ref sig .tc := ⟨.hbm, 523, rfl⟩
abbrev main_c_38 : Ref sig .tc := ⟨.hbm, 524, rfl⟩
abbrev main_call21_v0 : Ref sig .tc := ⟨.hbm, 525, rfl⟩
abbrev main_call21_v1 : Ref sig .tc := ⟨.hbm, 526, rfl⟩
abbrev main_call21_v2 : Ref sig .tc := ⟨.hbm, 527, rfl⟩
abbrev main_call21_v3 : Ref sig .tc := ⟨.hbm, 528, rfl⟩
abbrev main_call21_v4 : Ref sig .tc := ⟨.hbm, 529, rfl⟩
abbrev main_call21_v5 : Ref sig .tc := ⟨.hbm, 530, rfl⟩
abbrev main_call21_v6 : Ref sig .tc := ⟨.hbm, 531, rfl⟩
abbrev main_call21_v7 : Ref sig .tc := ⟨.hbm, 532, rfl⟩
abbrev main_call21_v8 : Ref sig .tc := ⟨.hbm, 533, rfl⟩
abbrev main_call21_c : Ref sig .tc := ⟨.hbm, 534, rfl⟩
abbrev main_call21_v9 : Ref sig .tc := ⟨.hbm, 535, rfl⟩
abbrev main_call21_v10 : Ref sig .tc := ⟨.hbm, 536, rfl⟩
abbrev main_call21_v11 : Ref sig .tc := ⟨.hbm, 537, rfl⟩
abbrev main_call21_c_0 : Ref sig .tc := ⟨.hbm, 538, rfl⟩
abbrev main_call21_v12 : Ref sig .tc := ⟨.hbm, 539, rfl⟩
abbrev main_call21_v13 : Ref sig .tc := ⟨.hbm, 540, rfl⟩
abbrev main_v252 : Ref sig .tc := ⟨.hbm, 541, rfl⟩
abbrev main_v253 : Ref sig .tc := ⟨.hbm, 542, rfl⟩
abbrev main_v254 : Ref sig .tc := ⟨.hbm, 543, rfl⟩
abbrev main_v255 : Ref sig .tc := ⟨.hbm, 544, rfl⟩
abbrev main_v256 : Ref sig .tc := ⟨.hbm, 545, rfl⟩
abbrev main_c_39 : Ref sig .tc := ⟨.hbm, 546, rfl⟩
abbrev main_call22_v0 : Ref sig .tc := ⟨.hbm, 547, rfl⟩
abbrev main_call22_v1 : Ref sig .tc := ⟨.hbm, 548, rfl⟩
abbrev main_call22_v2 : Ref sig .tc := ⟨.hbm, 549, rfl⟩
abbrev main_call22_v3 : Ref sig .tc := ⟨.hbm, 550, rfl⟩
abbrev main_call22_v4 : Ref sig .tc := ⟨.hbm, 551, rfl⟩
abbrev main_call22_v5 : Ref sig .tc := ⟨.hbm, 552, rfl⟩
abbrev main_call22_v6 : Ref sig .tc := ⟨.hbm, 553, rfl⟩
abbrev main_call22_v7 : Ref sig .tc := ⟨.hbm, 554, rfl⟩
abbrev main_call22_v8 : Ref sig .tc := ⟨.hbm, 555, rfl⟩
abbrev main_call22_c : Ref sig .tc := ⟨.hbm, 556, rfl⟩
abbrev main_call22_v9 : Ref sig .tc := ⟨.hbm, 557, rfl⟩
abbrev main_call22_v10 : Ref sig .tc := ⟨.hbm, 558, rfl⟩
abbrev main_call22_v11 : Ref sig .tc := ⟨.hbm, 559, rfl⟩
abbrev main_call22_c_0 : Ref sig .tc := ⟨.hbm, 560, rfl⟩
abbrev main_call22_v12 : Ref sig .tc := ⟨.hbm, 561, rfl⟩
abbrev main_call22_v13 : Ref sig .tc := ⟨.hbm, 562, rfl⟩
abbrev main_v257 : Ref sig .tc := ⟨.hbm, 563, rfl⟩
abbrev main_v258 : Ref sig .tc := ⟨.hbm, 564, rfl⟩
abbrev main_v259 : Ref sig .tc := ⟨.hbm, 565, rfl⟩
abbrev main_c_40 : Ref sig .tc := ⟨.hbm, 566, rfl⟩
abbrev main_v260 : Ref sig .tc := ⟨.hbm, 567, rfl⟩
abbrev main_v261 : Ref sig .tc := ⟨.hbm, 568, rfl⟩
abbrev main_v262 : Ref sig .tc := ⟨.hbm, 569, rfl⟩
abbrev main_v263 : Ref sig .tc := ⟨.hbm, 570, rfl⟩
abbrev main_v264 : Ref sig .tc := ⟨.hbm, 571, rfl⟩
abbrev main_c_41 : Ref sig .tc := ⟨.hbm, 572, rfl⟩
abbrev main_call23_v0 : Ref sig .tc := ⟨.hbm, 573, rfl⟩
abbrev main_call23_v1 : Ref sig .tc := ⟨.hbm, 574, rfl⟩
abbrev main_call23_v2 : Ref sig .tc := ⟨.hbm, 575, rfl⟩
abbrev main_call23_v3 : Ref sig .tc := ⟨.hbm, 576, rfl⟩
abbrev main_call23_v4 : Ref sig .tc := ⟨.hbm, 577, rfl⟩
abbrev main_call23_v5 : Ref sig .tc := ⟨.hbm, 578, rfl⟩
abbrev main_call23_v6 : Ref sig .tc := ⟨.hbm, 579, rfl⟩
abbrev main_call23_v7 : Ref sig .tc := ⟨.hbm, 580, rfl⟩
abbrev main_call23_v8 : Ref sig .tc := ⟨.hbm, 581, rfl⟩
abbrev main_call23_c : Ref sig .tc := ⟨.hbm, 582, rfl⟩
abbrev main_call23_v9 : Ref sig .tc := ⟨.hbm, 583, rfl⟩
abbrev main_call23_v10 : Ref sig .tc := ⟨.hbm, 584, rfl⟩
abbrev main_call23_v11 : Ref sig .tc := ⟨.hbm, 585, rfl⟩
abbrev main_call23_c_0 : Ref sig .tc := ⟨.hbm, 586, rfl⟩
abbrev main_call23_v12 : Ref sig .tc := ⟨.hbm, 587, rfl⟩
abbrev main_call23_v13 : Ref sig .tc := ⟨.hbm, 588, rfl⟩
abbrev main_v265 : Ref sig .tc := ⟨.hbm, 589, rfl⟩
abbrev main_v266 : Ref sig .tc := ⟨.hbm, 590, rfl⟩
abbrev main_v267 : Ref sig .tc := ⟨.hbm, 591, rfl⟩
abbrev main_v268 : Ref sig .tc := ⟨.hbm, 592, rfl⟩
abbrev main_v269 : Ref sig .tc := ⟨.hbm, 593, rfl⟩
abbrev main_v270 : Ref sig .tc := ⟨.hbm, 594, rfl⟩
abbrev main_v271 : Ref sig .tc := ⟨.hbm, 595, rfl⟩
abbrev main_v272 : Ref sig .tc := ⟨.hbm, 596, rfl⟩
abbrev main_v273 : Ref sig .tc := ⟨.hbm, 597, rfl⟩
abbrev main_v274 : Ref sig .tc := ⟨.hbm, 598, rfl⟩
abbrev main_v275 : Ref sig .tc := ⟨.hbm, 599, rfl⟩
abbrev main_v276 : Ref sig .tc := ⟨.hbm, 600, rfl⟩
abbrev main_v277 : Ref sig .tc := ⟨.hbm, 601, rfl⟩
abbrev main_v278 : Ref sig .tc := ⟨.hbm, 602, rfl⟩
abbrev main_v279 : Ref sig .tc := ⟨.hbm, 603, rfl⟩
abbrev main_v280 : Ref sig .tc := ⟨.hbm, 604, rfl⟩
abbrev main_v281 : Ref sig .tc := ⟨.hbm, 605, rfl⟩
abbrev main_v282 : Ref sig .tc := ⟨.hbm, 606, rfl⟩
abbrev main_v283 : Ref sig .tc := ⟨.hbm, 607, rfl⟩
abbrev main_v284 : Ref sig .tc := ⟨.hbm, 608, rfl⟩
abbrev main_v285 : Ref sig .tc := ⟨.hbm, 609, rfl⟩
abbrev main_v286 : Ref sig .tc := ⟨.hbm, 610, rfl⟩
abbrev main_v287 : Ref sig .tc := ⟨.hbm, 611, rfl⟩
abbrev main_v288 : Ref sig .tc := ⟨.hbm, 612, rfl⟩
abbrev main_v289 : Ref sig .tc := ⟨.hbm, 613, rfl⟩
abbrev main_v290 : Ref sig .tc := ⟨.hbm, 614, rfl⟩
abbrev main_v291 : Ref sig .tc := ⟨.hbm, 615, rfl⟩
abbrev main_v292 : Ref sig .tc := ⟨.hbm, 616, rfl⟩
abbrev main_v293 : Ref sig .tc := ⟨.hbm, 617, rfl⟩
abbrev main_cst_42 : Ref sig .tc := ⟨.hbm, 618, rfl⟩
abbrev main_call24_v0 : Ref sig .tc := ⟨.hbm, 619, rfl⟩
abbrev main_call24_v1 : Ref sig .tc := ⟨.hbm, 620, rfl⟩
abbrev main_call24_v2 : Ref sig .tc := ⟨.hbm, 621, rfl⟩
abbrev main_v294 : Ref sig .tc := ⟨.hbm, 622, rfl⟩
abbrev main_cst_43 : Ref sig .tc := ⟨.hbm, 623, rfl⟩
abbrev main_v295 : Ref sig .tc := ⟨.hbm, 624, rfl⟩
abbrev main_v296 : Ref sig .tc := ⟨.hbm, 625, rfl⟩
abbrev main_v297 : Ref sig .tc := ⟨.hbm, 626, rfl⟩
abbrev main_cst_44 : Ref sig .tc := ⟨.hbm, 627, rfl⟩
abbrev main_call25_v0 : Ref sig .tc := ⟨.hbm, 628, rfl⟩
abbrev main_call25_v1 : Ref sig .tc := ⟨.hbm, 629, rfl⟩
abbrev main_call25_v2 : Ref sig .tc := ⟨.hbm, 630, rfl⟩
abbrev main_v298 : Ref sig .tc := ⟨.hbm, 631, rfl⟩
abbrev main_cst_45 : Ref sig .tc := ⟨.hbm, 632, rfl⟩
abbrev main_v299 : Ref sig .tc := ⟨.hbm, 633, rfl⟩
abbrev main_v300 : Ref sig .tc := ⟨.hbm, 634, rfl⟩
abbrev main_v301 : Ref sig .tc := ⟨.hbm, 635, rfl⟩
abbrev main_v302 : Ref sig .tc := ⟨.hbm, 636, rfl⟩
abbrev main_v303 : Ref sig .tc := ⟨.hbm, 637, rfl⟩
abbrev main_v304 : Ref sig .tc := ⟨.hbm, 638, rfl⟩
abbrev main_v305 : Ref sig .tc := ⟨.hbm, 639, rfl⟩
abbrev main_v306 : Ref sig .tc := ⟨.hbm, 640, rfl⟩
abbrev main_v307 : Ref sig .tc := ⟨.hbm, 641, rfl⟩
abbrev main_v308 : Ref sig .tc := ⟨.hbm, 642, rfl⟩
abbrev main_v309 : Ref sig .tc := ⟨.hbm, 643, rfl⟩
abbrev main_v310 : Ref sig .tc := ⟨.hbm, 644, rfl⟩
abbrev main_v311 : Ref sig .tc := ⟨.hbm, 645, rfl⟩
abbrev main_v312 : Ref sig .tc := ⟨.hbm, 646, rfl⟩
abbrev main_v313 : Ref sig .tc := ⟨.hbm, 647, rfl⟩
abbrev main_v314 : Ref sig .tc := ⟨.hbm, 648, rfl⟩
abbrev main_v315 : Ref sig .tc := ⟨.hbm, 649, rfl⟩
abbrev main_v316 : Ref sig .tc := ⟨.hbm, 650, rfl⟩
abbrev main_v317 : Ref sig .tc := ⟨.hbm, 651, rfl⟩
abbrev main_v318 : Ref sig .tc := ⟨.hbm, 652, rfl⟩
abbrev main_v319 : Ref sig .tc := ⟨.hbm, 653, rfl⟩
abbrev main_v320 : Ref sig .tc := ⟨.hbm, 654, rfl⟩
abbrev main_v321 : Ref sig .tc := ⟨.hbm, 655, rfl⟩
abbrev main_v322 : Ref sig .tc := ⟨.hbm, 656, rfl⟩
abbrev main_v323 : Ref sig .tc := ⟨.hbm, 657, rfl⟩
abbrev main_v324 : Ref sig .tc := ⟨.hbm, 658, rfl⟩
abbrev main_v325 : Ref sig .tc := ⟨.hbm, 659, rfl⟩
abbrev main_v326 : Ref sig .tc := ⟨.hbm, 660, rfl⟩
abbrev main_v327 : Ref sig .tc := ⟨.hbm, 661, rfl⟩
abbrev main_c_46 : Ref sig .tc := ⟨.hbm, 662, rfl⟩
abbrev main_call26_v0 : Ref sig .tc := ⟨.hbm, 663, rfl⟩
abbrev main_call26_v1 : Ref sig .tc := ⟨.hbm, 664, rfl⟩
abbrev main_call26_v2 : Ref sig .tc := ⟨.hbm, 665, rfl⟩
abbrev main_call26_v3 : Ref sig .tc := ⟨.hbm, 666, rfl⟩
abbrev main_call26_v4 : Ref sig .tc := ⟨.hbm, 667, rfl⟩
abbrev main_call26_v5 : Ref sig .tc := ⟨.hbm, 668, rfl⟩
abbrev main_call26_v6 : Ref sig .tc := ⟨.hbm, 669, rfl⟩
abbrev main_call26_v7 : Ref sig .tc := ⟨.hbm, 670, rfl⟩
abbrev main_call26_v8 : Ref sig .tc := ⟨.hbm, 671, rfl⟩
abbrev main_call26_c : Ref sig .tc := ⟨.hbm, 672, rfl⟩
abbrev main_call26_v9 : Ref sig .tc := ⟨.hbm, 673, rfl⟩
abbrev main_call26_v10 : Ref sig .tc := ⟨.hbm, 674, rfl⟩
abbrev main_call26_v11 : Ref sig .tc := ⟨.hbm, 675, rfl⟩
abbrev main_call26_c_0 : Ref sig .tc := ⟨.hbm, 676, rfl⟩
abbrev main_call26_v12 : Ref sig .tc := ⟨.hbm, 677, rfl⟩
abbrev main_call26_v13 : Ref sig .tc := ⟨.hbm, 678, rfl⟩
abbrev main_v328 : Ref sig .tc := ⟨.hbm, 679, rfl⟩
abbrev main_v329 : Ref sig .tc := ⟨.hbm, 680, rfl⟩
abbrev main_v330 : Ref sig .tc := ⟨.hbm, 681, rfl⟩
abbrev main_c_47 : Ref sig .tc := ⟨.hbm, 682, rfl⟩
abbrev main_v331 : Ref sig .tc := ⟨.hbm, 683, rfl⟩
abbrev main_v332 : Ref sig .tc := ⟨.hbm, 684, rfl⟩
abbrev main_v333 : Ref sig .tc := ⟨.hbm, 685, rfl⟩
abbrev main_v334 : Ref sig .tc := ⟨.hbm, 686, rfl⟩
abbrev main_v335 : Ref sig .tc := ⟨.hbm, 687, rfl⟩
abbrev main_c_48 : Ref sig .tc := ⟨.hbm, 688, rfl⟩
abbrev main_call27_v0 : Ref sig .tc := ⟨.hbm, 689, rfl⟩
abbrev main_call27_v1 : Ref sig .tc := ⟨.hbm, 690, rfl⟩
abbrev main_call27_v2 : Ref sig .tc := ⟨.hbm, 691, rfl⟩
abbrev main_call27_v3 : Ref sig .tc := ⟨.hbm, 692, rfl⟩
abbrev main_call27_v4 : Ref sig .tc := ⟨.hbm, 693, rfl⟩
abbrev main_call27_v5 : Ref sig .tc := ⟨.hbm, 694, rfl⟩
abbrev main_call27_v6 : Ref sig .tc := ⟨.hbm, 695, rfl⟩
abbrev main_call27_v7 : Ref sig .tc := ⟨.hbm, 696, rfl⟩
abbrev main_call27_v8 : Ref sig .tc := ⟨.hbm, 697, rfl⟩
abbrev main_call27_c : Ref sig .tc := ⟨.hbm, 698, rfl⟩
abbrev main_call27_v9 : Ref sig .tc := ⟨.hbm, 699, rfl⟩
abbrev main_call27_v10 : Ref sig .tc := ⟨.hbm, 700, rfl⟩
abbrev main_call27_v11 : Ref sig .tc := ⟨.hbm, 701, rfl⟩
abbrev main_call27_c_0 : Ref sig .tc := ⟨.hbm, 702, rfl⟩
abbrev main_call27_v12 : Ref sig .tc := ⟨.hbm, 703, rfl⟩
abbrev main_call27_v13 : Ref sig .tc := ⟨.hbm, 704, rfl⟩
abbrev main_v336 : Ref sig .tc := ⟨.hbm, 705, rfl⟩
abbrev main_v337 : Ref sig .tc := ⟨.hbm, 706, rfl⟩
abbrev main_v338 : Ref sig .tc := ⟨.hbm, 707, rfl⟩
abbrev main_v339 : Ref sig .tc := ⟨.hbm, 708, rfl⟩
abbrev main_v340 : Ref sig .tc := ⟨.hbm, 709, rfl⟩
abbrev main_c_49 : Ref sig .tc := ⟨.hbm, 710, rfl⟩
abbrev main_call28_v0 : Ref sig .tc := ⟨.hbm, 711, rfl⟩
abbrev main_call28_v1 : Ref sig .tc := ⟨.hbm, 712, rfl⟩
abbrev main_call28_v2 : Ref sig .tc := ⟨.hbm, 713, rfl⟩
abbrev main_call28_v3 : Ref sig .tc := ⟨.hbm, 714, rfl⟩
abbrev main_call28_v4 : Ref sig .tc := ⟨.hbm, 715, rfl⟩
abbrev main_call28_v5 : Ref sig .tc := ⟨.hbm, 716, rfl⟩
abbrev main_call28_v6 : Ref sig .tc := ⟨.hbm, 717, rfl⟩
abbrev main_call28_v7 : Ref sig .tc := ⟨.hbm, 718, rfl⟩
abbrev main_call28_v8 : Ref sig .tc := ⟨.hbm, 719, rfl⟩
abbrev main_call28_c : Ref sig .tc := ⟨.hbm, 720, rfl⟩
abbrev main_call28_v9 : Ref sig .tc := ⟨.hbm, 721, rfl⟩
abbrev main_call28_v10 : Ref sig .tc := ⟨.hbm, 722, rfl⟩
abbrev main_call28_v11 : Ref sig .tc := ⟨.hbm, 723, rfl⟩
abbrev main_call28_c_0 : Ref sig .tc := ⟨.hbm, 724, rfl⟩
abbrev main_call28_v12 : Ref sig .tc := ⟨.hbm, 725, rfl⟩
abbrev main_call28_v13 : Ref sig .tc := ⟨.hbm, 726, rfl⟩
abbrev main_v341 : Ref sig .tc := ⟨.hbm, 727, rfl⟩
abbrev main_v342 : Ref sig .tc := ⟨.hbm, 728, rfl⟩
abbrev main_v343 : Ref sig .tc := ⟨.hbm, 729, rfl⟩
abbrev main_c_50 : Ref sig .tc := ⟨.hbm, 730, rfl⟩
abbrev main_v344 : Ref sig .tc := ⟨.hbm, 731, rfl⟩
abbrev main_v345 : Ref sig .tc := ⟨.hbm, 732, rfl⟩
abbrev main_v346 : Ref sig .tc := ⟨.hbm, 733, rfl⟩
abbrev main_v347 : Ref sig .tc := ⟨.hbm, 734, rfl⟩
abbrev main_v348 : Ref sig .tc := ⟨.hbm, 735, rfl⟩
abbrev main_c_51 : Ref sig .tc := ⟨.hbm, 736, rfl⟩
abbrev main_call29_v0 : Ref sig .tc := ⟨.hbm, 737, rfl⟩
abbrev main_call29_v1 : Ref sig .tc := ⟨.hbm, 738, rfl⟩
abbrev main_call29_v2 : Ref sig .tc := ⟨.hbm, 739, rfl⟩
abbrev main_call29_v3 : Ref sig .tc := ⟨.hbm, 740, rfl⟩
abbrev main_call29_v4 : Ref sig .tc := ⟨.hbm, 741, rfl⟩
abbrev main_call29_v5 : Ref sig .tc := ⟨.hbm, 742, rfl⟩
abbrev main_call29_v6 : Ref sig .tc := ⟨.hbm, 743, rfl⟩
abbrev main_call29_v7 : Ref sig .tc := ⟨.hbm, 744, rfl⟩
abbrev main_call29_v8 : Ref sig .tc := ⟨.hbm, 745, rfl⟩
abbrev main_call29_c : Ref sig .tc := ⟨.hbm, 746, rfl⟩
abbrev main_call29_v9 : Ref sig .tc := ⟨.hbm, 747, rfl⟩
abbrev main_call29_v10 : Ref sig .tc := ⟨.hbm, 748, rfl⟩
abbrev main_call29_v11 : Ref sig .tc := ⟨.hbm, 749, rfl⟩
abbrev main_call29_c_0 : Ref sig .tc := ⟨.hbm, 750, rfl⟩
abbrev main_call29_v12 : Ref sig .tc := ⟨.hbm, 751, rfl⟩
abbrev main_call29_v13 : Ref sig .tc := ⟨.hbm, 752, rfl⟩
abbrev main_v349 : Ref sig .tc := ⟨.hbm, 753, rfl⟩
abbrev main_v350 : Ref sig .tc := ⟨.hbm, 754, rfl⟩
abbrev main_v351 : Ref sig .tc := ⟨.hbm, 755, rfl⟩
abbrev main_v352 : Ref sig .tc := ⟨.hbm, 756, rfl⟩
abbrev main_v353 : Ref sig .tc := ⟨.hbm, 757, rfl⟩
abbrev main_v354 : Ref sig .tc := ⟨.hbm, 758, rfl⟩
abbrev main_v355 : Ref sig .tc := ⟨.hbm, 759, rfl⟩
abbrev main_v356 : Ref sig .tc := ⟨.hbm, 760, rfl⟩
abbrev main_v357 : Ref sig .tc := ⟨.hbm, 761, rfl⟩
abbrev main_v358 : Ref sig .tc := ⟨.hbm, 762, rfl⟩
abbrev main_v359 : Ref sig .tc := ⟨.hbm, 763, rfl⟩
abbrev main_v360 : Ref sig .tc := ⟨.hbm, 764, rfl⟩
abbrev main_v361 : Ref sig .tc := ⟨.hbm, 765, rfl⟩
abbrev main_v362 : Ref sig .tc := ⟨.hbm, 766, rfl⟩
abbrev main_v363 : Ref sig .tc := ⟨.hbm, 767, rfl⟩
abbrev main_v364 : Ref sig .tc := ⟨.hbm, 768, rfl⟩
abbrev main_v365 : Ref sig .tc := ⟨.hbm, 769, rfl⟩
abbrev main_v366 : Ref sig .tc := ⟨.hbm, 770, rfl⟩
abbrev main_v367 : Ref sig .tc := ⟨.hbm, 771, rfl⟩
abbrev main_v368 : Ref sig .tc := ⟨.hbm, 772, rfl⟩
abbrev main_v369 : Ref sig .tc := ⟨.hbm, 773, rfl⟩
abbrev main_v370 : Ref sig .tc := ⟨.hbm, 774, rfl⟩
abbrev main_v371 : Ref sig .tc := ⟨.hbm, 775, rfl⟩
abbrev main_v372 : Ref sig .tc := ⟨.hbm, 776, rfl⟩
abbrev main_v373 : Ref sig .tc := ⟨.hbm, 777, rfl⟩
abbrev main_v374 : Ref sig .tc := ⟨.hbm, 778, rfl⟩
abbrev main_v375 : Ref sig .tc := ⟨.hbm, 779, rfl⟩
abbrev main_v376 : Ref sig .tc := ⟨.hbm, 780, rfl⟩
abbrev main_v377 : Ref sig .tc := ⟨.hbm, 781, rfl⟩
abbrev main_cst_52 : Ref sig .tc := ⟨.hbm, 782, rfl⟩
abbrev main_call30_v0 : Ref sig .tc := ⟨.hbm, 783, rfl⟩
abbrev main_call30_v1 : Ref sig .tc := ⟨.hbm, 784, rfl⟩
abbrev main_call30_v2 : Ref sig .tc := ⟨.hbm, 785, rfl⟩
abbrev main_v378 : Ref sig .tc := ⟨.hbm, 786, rfl⟩
abbrev main_cst_53 : Ref sig .tc := ⟨.hbm, 787, rfl⟩
abbrev main_v379 : Ref sig .tc := ⟨.hbm, 788, rfl⟩
abbrev main_v380 : Ref sig .tc := ⟨.hbm, 789, rfl⟩
abbrev main_v381 : Ref sig .tc := ⟨.hbm, 790, rfl⟩
abbrev main_cst_54 : Ref sig .tc := ⟨.hbm, 791, rfl⟩
abbrev main_call31_v0 : Ref sig .tc := ⟨.hbm, 792, rfl⟩
abbrev main_call31_v1 : Ref sig .tc := ⟨.hbm, 793, rfl⟩
abbrev main_call31_v2 : Ref sig .tc := ⟨.hbm, 794, rfl⟩
abbrev main_v382 : Ref sig .tc := ⟨.hbm, 795, rfl⟩
abbrev main_cst_55 : Ref sig .tc := ⟨.hbm, 796, rfl⟩
abbrev main_v383 : Ref sig .tc := ⟨.hbm, 797, rfl⟩
abbrev main_v384 : Ref sig .tc := ⟨.hbm, 798, rfl⟩
abbrev main_v385 : Ref sig .tc := ⟨.hbm, 799, rfl⟩
abbrev main_v386 : Ref sig .tc := ⟨.hbm, 800, rfl⟩
abbrev main_v387 : Ref sig .tc := ⟨.hbm, 801, rfl⟩
abbrev main_v388 : Ref sig .tc := ⟨.hbm, 802, rfl⟩
abbrev main_v389 : Ref sig .tc := ⟨.hbm, 803, rfl⟩
abbrev main_v390 : Ref sig .tc := ⟨.hbm, 804, rfl⟩
abbrev main_v391 : Ref sig .tc := ⟨.hbm, 805, rfl⟩
abbrev main_v392 : Ref sig .tc := ⟨.hbm, 806, rfl⟩
abbrev main_v393 : Ref sig .tc := ⟨.hbm, 807, rfl⟩
abbrev main_v394 : Ref sig .tc := ⟨.hbm, 808, rfl⟩
abbrev main_v395 : Ref sig .tc := ⟨.hbm, 809, rfl⟩
abbrev main_v396 : Ref sig .tc := ⟨.hbm, 810, rfl⟩
abbrev main_v397 : Ref sig .tc := ⟨.hbm, 811, rfl⟩
abbrev main_v398 : Ref sig .tc := ⟨.hbm, 812, rfl⟩
abbrev main_v399 : Ref sig .tc := ⟨.hbm, 813, rfl⟩
abbrev main_v400 : Ref sig .tc := ⟨.hbm, 814, rfl⟩
abbrev main_v401 : Ref sig .tc := ⟨.hbm, 815, rfl⟩
abbrev main_v402 : Ref sig .tc := ⟨.hbm, 816, rfl⟩
abbrev main_v403 : Ref sig .tc := ⟨.hbm, 817, rfl⟩
abbrev main_v404 : Ref sig .tc := ⟨.hbm, 818, rfl⟩
abbrev main_v405 : Ref sig .tc := ⟨.hbm, 819, rfl⟩
abbrev main_v406 : Ref sig .tc := ⟨.hbm, 820, rfl⟩
abbrev main_v407 : Ref sig .tc := ⟨.hbm, 821, rfl⟩
abbrev main_v408 : Ref sig .tc := ⟨.hbm, 822, rfl⟩
abbrev main_v409 : Ref sig .tc := ⟨.hbm, 823, rfl⟩
abbrev main_v410 : Ref sig .tc := ⟨.hbm, 824, rfl⟩
abbrev main_v411 : Ref sig .tc := ⟨.hbm, 825, rfl⟩
abbrev main_c_56 : Ref sig .tc := ⟨.hbm, 826, rfl⟩
abbrev main_call32_v0 : Ref sig .tc := ⟨.hbm, 827, rfl⟩
abbrev main_call32_v1 : Ref sig .tc := ⟨.hbm, 828, rfl⟩
abbrev main_call32_v2 : Ref sig .tc := ⟨.hbm, 829, rfl⟩
abbrev main_call32_v3 : Ref sig .tc := ⟨.hbm, 830, rfl⟩
abbrev main_call32_v4 : Ref sig .tc := ⟨.hbm, 831, rfl⟩
abbrev main_call32_v5 : Ref sig .tc := ⟨.hbm, 832, rfl⟩
abbrev main_call32_v6 : Ref sig .tc := ⟨.hbm, 833, rfl⟩
abbrev main_call32_v7 : Ref sig .tc := ⟨.hbm, 834, rfl⟩
abbrev main_call32_v8 : Ref sig .tc := ⟨.hbm, 835, rfl⟩
abbrev main_call32_c : Ref sig .tc := ⟨.hbm, 836, rfl⟩
abbrev main_call32_v9 : Ref sig .tc := ⟨.hbm, 837, rfl⟩
abbrev main_call32_v10 : Ref sig .tc := ⟨.hbm, 838, rfl⟩
abbrev main_call32_v11 : Ref sig .tc := ⟨.hbm, 839, rfl⟩
abbrev main_call32_c_0 : Ref sig .tc := ⟨.hbm, 840, rfl⟩
abbrev main_call32_v12 : Ref sig .tc := ⟨.hbm, 841, rfl⟩
abbrev main_call32_v13 : Ref sig .tc := ⟨.hbm, 842, rfl⟩
abbrev main_v412 : Ref sig .tc := ⟨.hbm, 843, rfl⟩
abbrev main_v413 : Ref sig .tc := ⟨.hbm, 844, rfl⟩
abbrev main_v414 : Ref sig .tc := ⟨.hbm, 845, rfl⟩
abbrev main_c_57 : Ref sig .tc := ⟨.hbm, 846, rfl⟩
abbrev main_v415 : Ref sig .tc := ⟨.hbm, 847, rfl⟩
abbrev main_v416 : Ref sig .tc := ⟨.hbm, 848, rfl⟩
abbrev main_v417 : Ref sig .tc := ⟨.hbm, 849, rfl⟩
abbrev main_v418 : Ref sig .tc := ⟨.hbm, 850, rfl⟩
abbrev main_v419 : Ref sig .tc := ⟨.hbm, 851, rfl⟩
abbrev main_c_58 : Ref sig .tc := ⟨.hbm, 852, rfl⟩
abbrev main_call33_v0 : Ref sig .tc := ⟨.hbm, 853, rfl⟩
abbrev main_call33_v1 : Ref sig .tc := ⟨.hbm, 854, rfl⟩
abbrev main_call33_v2 : Ref sig .tc := ⟨.hbm, 855, rfl⟩
abbrev main_call33_v3 : Ref sig .tc := ⟨.hbm, 856, rfl⟩
abbrev main_call33_v4 : Ref sig .tc := ⟨.hbm, 857, rfl⟩
abbrev main_call33_v5 : Ref sig .tc := ⟨.hbm, 858, rfl⟩
abbrev main_call33_v6 : Ref sig .tc := ⟨.hbm, 859, rfl⟩
abbrev main_call33_v7 : Ref sig .tc := ⟨.hbm, 860, rfl⟩
abbrev main_call33_v8 : Ref sig .tc := ⟨.hbm, 861, rfl⟩
abbrev main_call33_c : Ref sig .tc := ⟨.hbm, 862, rfl⟩
abbrev main_call33_v9 : Ref sig .tc := ⟨.hbm, 863, rfl⟩
abbrev main_call33_v10 : Ref sig .tc := ⟨.hbm, 864, rfl⟩
abbrev main_call33_v11 : Ref sig .tc := ⟨.hbm, 865, rfl⟩
abbrev main_call33_c_0 : Ref sig .tc := ⟨.hbm, 866, rfl⟩
abbrev main_call33_v12 : Ref sig .tc := ⟨.hbm, 867, rfl⟩
abbrev main_call33_v13 : Ref sig .tc := ⟨.hbm, 868, rfl⟩
abbrev main_v420 : Ref sig .tc := ⟨.hbm, 869, rfl⟩
abbrev main_v421 : Ref sig .tc := ⟨.hbm, 870, rfl⟩
abbrev main_v422 : Ref sig .tc := ⟨.hbm, 871, rfl⟩
abbrev main_v423 : Ref sig .tc := ⟨.hbm, 872, rfl⟩
abbrev main_v424 : Ref sig .tc := ⟨.hbm, 873, rfl⟩
abbrev main_c_59 : Ref sig .tc := ⟨.hbm, 874, rfl⟩
abbrev main_call34_v0 : Ref sig .tc := ⟨.hbm, 875, rfl⟩
abbrev main_call34_v1 : Ref sig .tc := ⟨.hbm, 876, rfl⟩
abbrev main_call34_v2 : Ref sig .tc := ⟨.hbm, 877, rfl⟩
abbrev main_call34_v3 : Ref sig .tc := ⟨.hbm, 878, rfl⟩
abbrev main_call34_v4 : Ref sig .tc := ⟨.hbm, 879, rfl⟩
abbrev main_call34_v5 : Ref sig .tc := ⟨.hbm, 880, rfl⟩
abbrev main_call34_v6 : Ref sig .tc := ⟨.hbm, 881, rfl⟩
abbrev main_call34_v7 : Ref sig .tc := ⟨.hbm, 882, rfl⟩
abbrev main_call34_v8 : Ref sig .tc := ⟨.hbm, 883, rfl⟩
abbrev main_call34_c : Ref sig .tc := ⟨.hbm, 884, rfl⟩
abbrev main_call34_v9 : Ref sig .tc := ⟨.hbm, 885, rfl⟩
abbrev main_call34_v10 : Ref sig .tc := ⟨.hbm, 886, rfl⟩
abbrev main_call34_v11 : Ref sig .tc := ⟨.hbm, 887, rfl⟩
abbrev main_call34_c_0 : Ref sig .tc := ⟨.hbm, 888, rfl⟩
abbrev main_call34_v12 : Ref sig .tc := ⟨.hbm, 889, rfl⟩
abbrev main_call34_v13 : Ref sig .tc := ⟨.hbm, 890, rfl⟩
abbrev main_v425 : Ref sig .tc := ⟨.hbm, 891, rfl⟩
abbrev main_v426 : Ref sig .tc := ⟨.hbm, 892, rfl⟩
abbrev main_v427 : Ref sig .tc := ⟨.hbm, 893, rfl⟩
abbrev main_c_60 : Ref sig .tc := ⟨.hbm, 894, rfl⟩
abbrev main_v428 : Ref sig .tc := ⟨.hbm, 895, rfl⟩
abbrev main_v429 : Ref sig .tc := ⟨.hbm, 896, rfl⟩
abbrev main_v430 : Ref sig .tc := ⟨.hbm, 897, rfl⟩
abbrev main_v431 : Ref sig .tc := ⟨.hbm, 898, rfl⟩
abbrev main_v432 : Ref sig .tc := ⟨.hbm, 899, rfl⟩
abbrev main_c_61 : Ref sig .tc := ⟨.hbm, 900, rfl⟩
abbrev main_call35_v0 : Ref sig .tc := ⟨.hbm, 901, rfl⟩
abbrev main_call35_v1 : Ref sig .tc := ⟨.hbm, 902, rfl⟩
abbrev main_call35_v2 : Ref sig .tc := ⟨.hbm, 903, rfl⟩
abbrev main_call35_v3 : Ref sig .tc := ⟨.hbm, 904, rfl⟩
abbrev main_call35_v4 : Ref sig .tc := ⟨.hbm, 905, rfl⟩
abbrev main_call35_v5 : Ref sig .tc := ⟨.hbm, 906, rfl⟩
abbrev main_call35_v6 : Ref sig .tc := ⟨.hbm, 907, rfl⟩
abbrev main_call35_v7 : Ref sig .tc := ⟨.hbm, 908, rfl⟩
abbrev main_call35_v8 : Ref sig .tc := ⟨.hbm, 909, rfl⟩
abbrev main_call35_c : Ref sig .tc := ⟨.hbm, 910, rfl⟩
abbrev main_call35_v9 : Ref sig .tc := ⟨.hbm, 911, rfl⟩
abbrev main_call35_v10 : Ref sig .tc := ⟨.hbm, 912, rfl⟩
abbrev main_call35_v11 : Ref sig .tc := ⟨.hbm, 913, rfl⟩
abbrev main_call35_c_0 : Ref sig .tc := ⟨.hbm, 914, rfl⟩
abbrev main_call35_v12 : Ref sig .tc := ⟨.hbm, 915, rfl⟩
abbrev main_call35_v13 : Ref sig .tc := ⟨.hbm, 916, rfl⟩
abbrev main_v433 : Ref sig .tc := ⟨.hbm, 917, rfl⟩
abbrev main_v434 : Ref sig .tc := ⟨.hbm, 918, rfl⟩
abbrev main_v435 : Ref sig .tc := ⟨.hbm, 919, rfl⟩
abbrev main_v436 : Ref sig .tc := ⟨.hbm, 920, rfl⟩
abbrev main_v437 : Ref sig .tc := ⟨.hbm, 921, rfl⟩
abbrev main_v438 : Ref sig .tc := ⟨.hbm, 922, rfl⟩
abbrev main_v439 : Ref sig .tc := ⟨.hbm, 923, rfl⟩
abbrev main_v440 : Ref sig .tc := ⟨.hbm, 924, rfl⟩
abbrev main_v441 : Ref sig .tc := ⟨.hbm, 925, rfl⟩
abbrev main_v442 : Ref sig .tc := ⟨.hbm, 926, rfl⟩
abbrev main_v443 : Ref sig .tc := ⟨.hbm, 927, rfl⟩
abbrev main_v444 : Ref sig .tc := ⟨.hbm, 928, rfl⟩
abbrev main_v445 : Ref sig .tc := ⟨.hbm, 929, rfl⟩
abbrev main_v446 : Ref sig .tc := ⟨.hbm, 930, rfl⟩
abbrev main_v447 : Ref sig .tc := ⟨.hbm, 931, rfl⟩
abbrev main_v448 : Ref sig .tc := ⟨.hbm, 932, rfl⟩
abbrev main_v449 : Ref sig .tc := ⟨.hbm, 933, rfl⟩
abbrev main_v450 : Ref sig .tc := ⟨.hbm, 934, rfl⟩
abbrev main_v451 : Ref sig .tc := ⟨.hbm, 935, rfl⟩
abbrev main_v452 : Ref sig .tc := ⟨.hbm, 936, rfl⟩
abbrev main_v453 : Ref sig .tc := ⟨.hbm, 937, rfl⟩
abbrev main_v454 : Ref sig .tc := ⟨.hbm, 938, rfl⟩
abbrev main_v455 : Ref sig .tc := ⟨.hbm, 939, rfl⟩
abbrev main_v456 : Ref sig .tc := ⟨.hbm, 940, rfl⟩
abbrev main_v457 : Ref sig .tc := ⟨.hbm, 941, rfl⟩
abbrev main_v458 : Ref sig .tc := ⟨.hbm, 942, rfl⟩
abbrev main_v459 : Ref sig .tc := ⟨.hbm, 943, rfl⟩
abbrev main_v460 : Ref sig .tc := ⟨.hbm, 944, rfl⟩
abbrev main_v461 : Ref sig .tc := ⟨.hbm, 945, rfl⟩
abbrev main_cst_62 : Ref sig .tc := ⟨.hbm, 946, rfl⟩
abbrev main_call36_v0 : Ref sig .tc := ⟨.hbm, 947, rfl⟩
abbrev main_call36_v1 : Ref sig .tc := ⟨.hbm, 948, rfl⟩
abbrev main_call36_v2 : Ref sig .tc := ⟨.hbm, 949, rfl⟩
abbrev main_v462 : Ref sig .tc := ⟨.hbm, 950, rfl⟩
abbrev main_cst_63 : Ref sig .tc := ⟨.hbm, 951, rfl⟩
abbrev main_v463 : Ref sig .tc := ⟨.hbm, 952, rfl⟩
abbrev main_v464 : Ref sig .tc := ⟨.hbm, 953, rfl⟩
abbrev main_v465 : Ref sig .tc := ⟨.hbm, 954, rfl⟩
abbrev main_cst_64 : Ref sig .tc := ⟨.hbm, 955, rfl⟩
abbrev main_call37_v0 : Ref sig .tc := ⟨.hbm, 956, rfl⟩
abbrev main_call37_v1 : Ref sig .tc := ⟨.hbm, 957, rfl⟩
abbrev main_call37_v2 : Ref sig .tc := ⟨.hbm, 958, rfl⟩
abbrev main_v466 : Ref sig .tc := ⟨.hbm, 959, rfl⟩
abbrev main_cst_65 : Ref sig .tc := ⟨.hbm, 960, rfl⟩
abbrev main_v467 : Ref sig .tc := ⟨.hbm, 961, rfl⟩
abbrev main_v468 : Ref sig .tc := ⟨.hbm, 962, rfl⟩
abbrev main_v469 : Ref sig .tc := ⟨.hbm, 963, rfl⟩
abbrev main_v470 : Ref sig .tc := ⟨.hbm, 964, rfl⟩
abbrev main_v471 : Ref sig .tc := ⟨.hbm, 965, rfl⟩
abbrev main_v472 : Ref sig .tc := ⟨.hbm, 966, rfl⟩
abbrev main_v473 : Ref sig .tc := ⟨.hbm, 967, rfl⟩
abbrev main_v474 : Ref sig .tc := ⟨.hbm, 968, rfl⟩
abbrev main_v475 : Ref sig .tc := ⟨.hbm, 969, rfl⟩
abbrev main_v476 : Ref sig .tc := ⟨.hbm, 970, rfl⟩
abbrev main_v477 : Ref sig .tc := ⟨.hbm, 971, rfl⟩
abbrev main_v478 : Ref sig .tc := ⟨.hbm, 972, rfl⟩
abbrev main_v479 : Ref sig .tc := ⟨.hbm, 973, rfl⟩
abbrev main_v480 : Ref sig .tc := ⟨.hbm, 974, rfl⟩
abbrev main_v481 : Ref sig .tc := ⟨.hbm, 975, rfl⟩
abbrev main_v482 : Ref sig .tc := ⟨.hbm, 976, rfl⟩
abbrev main_v483 : Ref sig .tc := ⟨.hbm, 977, rfl⟩
abbrev main_v484 : Ref sig .tc := ⟨.hbm, 978, rfl⟩
abbrev main_v485 : Ref sig .tc := ⟨.hbm, 979, rfl⟩
abbrev main_v486 : Ref sig .tc := ⟨.hbm, 980, rfl⟩
abbrev main_v487 : Ref sig .tc := ⟨.hbm, 981, rfl⟩
abbrev main_v488 : Ref sig .tc := ⟨.hbm, 982, rfl⟩
abbrev main_v489 : Ref sig .tc := ⟨.hbm, 983, rfl⟩
abbrev main_v490 : Ref sig .tc := ⟨.hbm, 984, rfl⟩
abbrev main_v491 : Ref sig .tc := ⟨.hbm, 985, rfl⟩
abbrev main_v492 : Ref sig .tc := ⟨.hbm, 986, rfl⟩
abbrev main_v493 : Ref sig .tc := ⟨.hbm, 987, rfl⟩
abbrev main_v494 : Ref sig .tc := ⟨.hbm, 988, rfl⟩
abbrev main_v495 : Ref sig .tc := ⟨.hbm, 989, rfl⟩
abbrev main_c_66 : Ref sig .tc := ⟨.hbm, 990, rfl⟩
abbrev main_call38_v0 : Ref sig .tc := ⟨.hbm, 991, rfl⟩
abbrev main_call38_v1 : Ref sig .tc := ⟨.hbm, 992, rfl⟩
abbrev main_call38_v2 : Ref sig .tc := ⟨.hbm, 993, rfl⟩
abbrev main_call38_v3 : Ref sig .tc := ⟨.hbm, 994, rfl⟩
abbrev main_call38_v4 : Ref sig .tc := ⟨.hbm, 995, rfl⟩
abbrev main_call38_v5 : Ref sig .tc := ⟨.hbm, 996, rfl⟩
abbrev main_call38_v6 : Ref sig .tc := ⟨.hbm, 997, rfl⟩
abbrev main_call38_v7 : Ref sig .tc := ⟨.hbm, 998, rfl⟩
abbrev main_call38_v8 : Ref sig .tc := ⟨.hbm, 999, rfl⟩
abbrev main_call38_c : Ref sig .tc := ⟨.hbm, 1000, rfl⟩
abbrev main_call38_v9 : Ref sig .tc := ⟨.hbm, 1001, rfl⟩
abbrev main_call38_v10 : Ref sig .tc := ⟨.hbm, 1002, rfl⟩
abbrev main_call38_v11 : Ref sig .tc := ⟨.hbm, 1003, rfl⟩
abbrev main_call38_c_0 : Ref sig .tc := ⟨.hbm, 1004, rfl⟩
abbrev main_call38_v12 : Ref sig .tc := ⟨.hbm, 1005, rfl⟩
abbrev main_call38_v13 : Ref sig .tc := ⟨.hbm, 1006, rfl⟩
abbrev main_v496 : Ref sig .tc := ⟨.hbm, 1007, rfl⟩
abbrev main_v497 : Ref sig .tc := ⟨.hbm, 1008, rfl⟩
abbrev main_v498 : Ref sig .tc := ⟨.hbm, 1009, rfl⟩
abbrev main_c_67 : Ref sig .tc := ⟨.hbm, 1010, rfl⟩
abbrev main_v499 : Ref sig .tc := ⟨.hbm, 1011, rfl⟩
abbrev main_v500 : Ref sig .tc := ⟨.hbm, 1012, rfl⟩
abbrev main_v501 : Ref sig .tc := ⟨.hbm, 1013, rfl⟩
abbrev main_v502 : Ref sig .tc := ⟨.hbm, 1014, rfl⟩
abbrev main_v503 : Ref sig .tc := ⟨.hbm, 1015, rfl⟩
abbrev main_c_68 : Ref sig .tc := ⟨.hbm, 1016, rfl⟩
abbrev main_call39_v0 : Ref sig .tc := ⟨.hbm, 1017, rfl⟩
abbrev main_call39_v1 : Ref sig .tc := ⟨.hbm, 1018, rfl⟩
abbrev main_call39_v2 : Ref sig .tc := ⟨.hbm, 1019, rfl⟩
abbrev main_call39_v3 : Ref sig .tc := ⟨.hbm, 1020, rfl⟩
abbrev main_call39_v4 : Ref sig .tc := ⟨.hbm, 1021, rfl⟩
abbrev main_call39_v5 : Ref sig .tc := ⟨.hbm, 1022, rfl⟩
abbrev main_call39_v6 : Ref sig .tc := ⟨.hbm, 1023, rfl⟩
abbrev main_call39_v7 : Ref sig .tc := ⟨.hbm, 1024, rfl⟩
abbrev main_call39_v8 : Ref sig .tc := ⟨.hbm, 1025, rfl⟩
abbrev main_call39_c : Ref sig .tc := ⟨.hbm, 1026, rfl⟩
abbrev main_call39_v9 : Ref sig .tc := ⟨.hbm, 1027, rfl⟩
abbrev main_call39_v10 : Ref sig .tc := ⟨.hbm, 1028, rfl⟩
abbrev main_call39_v11 : Ref sig .tc := ⟨.hbm, 1029, rfl⟩
abbrev main_call39_c_0 : Ref sig .tc := ⟨.hbm, 1030, rfl⟩
abbrev main_call39_v12 : Ref sig .tc := ⟨.hbm, 1031, rfl⟩
abbrev main_call39_v13 : Ref sig .tc := ⟨.hbm, 1032, rfl⟩
abbrev main_v504 : Ref sig .tc := ⟨.hbm, 1033, rfl⟩
abbrev main_v505 : Ref sig .tc := ⟨.hbm, 1034, rfl⟩
abbrev main_v506 : Ref sig .tc := ⟨.hbm, 1035, rfl⟩
abbrev main_v507 : Ref sig .tc := ⟨.hbm, 1036, rfl⟩
abbrev main_v508 : Ref sig .tc := ⟨.hbm, 1037, rfl⟩
abbrev main_c_69 : Ref sig .tc := ⟨.hbm, 1038, rfl⟩
abbrev main_call40_v0 : Ref sig .tc := ⟨.hbm, 1039, rfl⟩
abbrev main_call40_v1 : Ref sig .tc := ⟨.hbm, 1040, rfl⟩
abbrev main_call40_v2 : Ref sig .tc := ⟨.hbm, 1041, rfl⟩
abbrev main_call40_v3 : Ref sig .tc := ⟨.hbm, 1042, rfl⟩
abbrev main_call40_v4 : Ref sig .tc := ⟨.hbm, 1043, rfl⟩
abbrev main_call40_v5 : Ref sig .tc := ⟨.hbm, 1044, rfl⟩
abbrev main_call40_v6 : Ref sig .tc := ⟨.hbm, 1045, rfl⟩
abbrev main_call40_v7 : Ref sig .tc := ⟨.hbm, 1046, rfl⟩
abbrev main_call40_v8 : Ref sig .tc := ⟨.hbm, 1047, rfl⟩
abbrev main_call40_c : Ref sig .tc := ⟨.hbm, 1048, rfl⟩
abbrev main_call40_v9 : Ref sig .tc := ⟨.hbm, 1049, rfl⟩
abbrev main_call40_v10 : Ref sig .tc := ⟨.hbm, 1050, rfl⟩
abbrev main_call40_v11 : Ref sig .tc := ⟨.hbm, 1051, rfl⟩
abbrev main_call40_c_0 : Ref sig .tc := ⟨.hbm, 1052, rfl⟩
abbrev main_call40_v12 : Ref sig .tc := ⟨.hbm, 1053, rfl⟩
abbrev main_call40_v13 : Ref sig .tc := ⟨.hbm, 1054, rfl⟩
abbrev main_v509 : Ref sig .tc := ⟨.hbm, 1055, rfl⟩
abbrev main_v510 : Ref sig .tc := ⟨.hbm, 1056, rfl⟩
abbrev main_v511 : Ref sig .tc := ⟨.hbm, 1057, rfl⟩
abbrev main_c_70 : Ref sig .tc := ⟨.hbm, 1058, rfl⟩
abbrev main_v512 : Ref sig .tc := ⟨.hbm, 1059, rfl⟩
abbrev main_v513 : Ref sig .tc := ⟨.hbm, 1060, rfl⟩
abbrev main_v514 : Ref sig .tc := ⟨.hbm, 1061, rfl⟩
abbrev main_v515 : Ref sig .tc := ⟨.hbm, 1062, rfl⟩
abbrev main_v516 : Ref sig .tc := ⟨.hbm, 1063, rfl⟩
abbrev main_c_71 : Ref sig .tc := ⟨.hbm, 1064, rfl⟩
abbrev main_call41_v0 : Ref sig .tc := ⟨.hbm, 1065, rfl⟩
abbrev main_call41_v1 : Ref sig .tc := ⟨.hbm, 1066, rfl⟩
abbrev main_call41_v2 : Ref sig .tc := ⟨.hbm, 1067, rfl⟩
abbrev main_call41_v3 : Ref sig .tc := ⟨.hbm, 1068, rfl⟩
abbrev main_call41_v4 : Ref sig .tc := ⟨.hbm, 1069, rfl⟩
abbrev main_call41_v5 : Ref sig .tc := ⟨.hbm, 1070, rfl⟩
abbrev main_call41_v6 : Ref sig .tc := ⟨.hbm, 1071, rfl⟩
abbrev main_call41_v7 : Ref sig .tc := ⟨.hbm, 1072, rfl⟩
abbrev main_call41_v8 : Ref sig .tc := ⟨.hbm, 1073, rfl⟩
abbrev main_call41_c : Ref sig .tc := ⟨.hbm, 1074, rfl⟩
abbrev main_call41_v9 : Ref sig .tc := ⟨.hbm, 1075, rfl⟩
abbrev main_call41_v10 : Ref sig .tc := ⟨.hbm, 1076, rfl⟩
abbrev main_call41_v11 : Ref sig .tc := ⟨.hbm, 1077, rfl⟩
abbrev main_call41_c_0 : Ref sig .tc := ⟨.hbm, 1078, rfl⟩
abbrev main_call41_v12 : Ref sig .tc := ⟨.hbm, 1079, rfl⟩
abbrev main_call41_v13 : Ref sig .tc := ⟨.hbm, 1080, rfl⟩
abbrev main_v517 : Ref sig .tc := ⟨.hbm, 1081, rfl⟩
abbrev main_v518 : Ref sig .tc := ⟨.hbm, 1082, rfl⟩
abbrev main_v519 : Ref sig .tc := ⟨.hbm, 1083, rfl⟩
abbrev main_v520 : Ref sig .tc := ⟨.hbm, 1084, rfl⟩
abbrev main_v521 : Ref sig .tc := ⟨.hbm, 1085, rfl⟩
abbrev main_v522 : Ref sig .tc := ⟨.hbm, 1086, rfl⟩
abbrev main_v523 : Ref sig .tc := ⟨.hbm, 1087, rfl⟩
abbrev main_v524 : Ref sig .tc := ⟨.hbm, 1088, rfl⟩
abbrev main_v525 : Ref sig .tc := ⟨.hbm, 1089, rfl⟩
abbrev main_v526 : Ref sig .tc := ⟨.hbm, 1090, rfl⟩
abbrev main_v527 : Ref sig .tc := ⟨.hbm, 1091, rfl⟩
abbrev main_v528 : Ref sig .tc := ⟨.hbm, 1092, rfl⟩
abbrev main_v529 : Ref sig .tc := ⟨.hbm, 1093, rfl⟩
abbrev main_v530 : Ref sig .tc := ⟨.hbm, 1094, rfl⟩
abbrev main_v531 : Ref sig .tc := ⟨.hbm, 1095, rfl⟩
abbrev main_v532 : Ref sig .tc := ⟨.hbm, 1096, rfl⟩
abbrev main_v533 : Ref sig .tc := ⟨.hbm, 1097, rfl⟩
abbrev main_v534 : Ref sig .tc := ⟨.hbm, 1098, rfl⟩
abbrev main_v535 : Ref sig .tc := ⟨.hbm, 1099, rfl⟩
abbrev main_v536 : Ref sig .tc := ⟨.hbm, 1100, rfl⟩
abbrev main_v537 : Ref sig .tc := ⟨.hbm, 1101, rfl⟩
abbrev main_v538 : Ref sig .tc := ⟨.hbm, 1102, rfl⟩
abbrev main_v539 : Ref sig .tc := ⟨.hbm, 1103, rfl⟩
abbrev main_v540 : Ref sig .tc := ⟨.hbm, 1104, rfl⟩
abbrev main_v541 : Ref sig .tc := ⟨.hbm, 1105, rfl⟩
abbrev main_v542 : Ref sig .tc := ⟨.hbm, 1106, rfl⟩
abbrev main_v543 : Ref sig .tc := ⟨.hbm, 1107, rfl⟩
abbrev main_v544 : Ref sig .tc := ⟨.hbm, 1108, rfl⟩
abbrev main_v545 : Ref sig .tc := ⟨.hbm, 1109, rfl⟩
abbrev main_cst_72 : Ref sig .tc := ⟨.hbm, 1110, rfl⟩
abbrev main_call42_v0 : Ref sig .tc := ⟨.hbm, 1111, rfl⟩
abbrev main_call42_v1 : Ref sig .tc := ⟨.hbm, 1112, rfl⟩
abbrev main_call42_v2 : Ref sig .tc := ⟨.hbm, 1113, rfl⟩
abbrev main_v546 : Ref sig .tc := ⟨.hbm, 1114, rfl⟩
abbrev main_cst_73 : Ref sig .tc := ⟨.hbm, 1115, rfl⟩
abbrev main_v547 : Ref sig .tc := ⟨.hbm, 1116, rfl⟩
abbrev main_v548 : Ref sig .tc := ⟨.hbm, 1117, rfl⟩
abbrev main_v549 : Ref sig .tc := ⟨.hbm, 1118, rfl⟩
abbrev main_cst_74 : Ref sig .tc := ⟨.hbm, 1119, rfl⟩
abbrev main_call43_v0 : Ref sig .tc := ⟨.hbm, 1120, rfl⟩
abbrev main_call43_v1 : Ref sig .tc := ⟨.hbm, 1121, rfl⟩
abbrev main_call43_v2 : Ref sig .tc := ⟨.hbm, 1122, rfl⟩
abbrev main_v550 : Ref sig .tc := ⟨.hbm, 1123, rfl⟩
abbrev main_cst_75 : Ref sig .tc := ⟨.hbm, 1124, rfl⟩
abbrev main_v551 : Ref sig .tc := ⟨.hbm, 1125, rfl⟩
abbrev main_v552 : Ref sig .tc := ⟨.hbm, 1126, rfl⟩
abbrev main_v553 : Ref sig .tc := ⟨.hbm, 1127, rfl⟩
abbrev main_v554 : Ref sig .tc := ⟨.hbm, 1128, rfl⟩
abbrev main_v555 : Ref sig .tc := ⟨.hbm, 1129, rfl⟩
abbrev main_v556 : Ref sig .tc := ⟨.hbm, 1130, rfl⟩
abbrev main_v557 : Ref sig .tc := ⟨.hbm, 1131, rfl⟩
abbrev main_v558 : Ref sig .tc := ⟨.hbm, 1132, rfl⟩
abbrev main_v559 : Ref sig .tc := ⟨.hbm, 1133, rfl⟩
abbrev main_v560 : Ref sig .tc := ⟨.hbm, 1134, rfl⟩
abbrev main_v561 : Ref sig .tc := ⟨.hbm, 1135, rfl⟩
abbrev main_v562 : Ref sig .tc := ⟨.hbm, 1136, rfl⟩
abbrev main_v563 : Ref sig .tc := ⟨.hbm, 1137, rfl⟩
abbrev main_v564 : Ref sig .tc := ⟨.hbm, 1138, rfl⟩
abbrev main_v565 : Ref sig .tc := ⟨.hbm, 1139, rfl⟩
abbrev main_v566 : Ref sig .tc := ⟨.hbm, 1140, rfl⟩
abbrev main_v567 : Ref sig .tc := ⟨.hbm, 1141, rfl⟩
abbrev main_v568 : Ref sig .tc := ⟨.hbm, 1142, rfl⟩
abbrev main_v569 : Ref sig .tc := ⟨.hbm, 1143, rfl⟩
abbrev main_v570 : Ref sig .tc := ⟨.hbm, 1144, rfl⟩
abbrev main_v571 : Ref sig .tc := ⟨.hbm, 1145, rfl⟩
abbrev main_v572 : Ref sig .tc := ⟨.hbm, 1146, rfl⟩
abbrev main_v573 : Ref sig .tc := ⟨.hbm, 1147, rfl⟩
abbrev main_v574 : Ref sig .tc := ⟨.hbm, 1148, rfl⟩
abbrev main_v575 : Ref sig .tc := ⟨.hbm, 1149, rfl⟩
abbrev main_v576 : Ref sig .tc := ⟨.hbm, 1150, rfl⟩
abbrev main_v577 : Ref sig .tc := ⟨.hbm, 1151, rfl⟩
abbrev main_v578 : Ref sig .tc := ⟨.hbm, 1152, rfl⟩
abbrev main_v579 : Ref sig .tc := ⟨.hbm, 1153, rfl⟩
abbrev main_c_76 : Ref sig .tc := ⟨.hbm, 1154, rfl⟩
abbrev main_call44_v0 : Ref sig .tc := ⟨.hbm, 1155, rfl⟩
abbrev main_call44_v1 : Ref sig .tc := ⟨.hbm, 1156, rfl⟩
abbrev main_call44_v2 : Ref sig .tc := ⟨.hbm, 1157, rfl⟩
abbrev main_call44_v3 : Ref sig .tc := ⟨.hbm, 1158, rfl⟩
abbrev main_call44_v4 : Ref sig .tc := ⟨.hbm, 1159, rfl⟩
abbrev main_call44_v5 : Ref sig .tc := ⟨.hbm, 1160, rfl⟩
abbrev main_call44_v6 : Ref sig .tc := ⟨.hbm, 1161, rfl⟩
abbrev main_call44_v7 : Ref sig .tc := ⟨.hbm, 1162, rfl⟩
abbrev main_call44_v8 : Ref sig .tc := ⟨.hbm, 1163, rfl⟩
abbrev main_call44_c : Ref sig .tc := ⟨.hbm, 1164, rfl⟩
abbrev main_call44_v9 : Ref sig .tc := ⟨.hbm, 1165, rfl⟩
abbrev main_call44_v10 : Ref sig .tc := ⟨.hbm, 1166, rfl⟩
abbrev main_call44_v11 : Ref sig .tc := ⟨.hbm, 1167, rfl⟩
abbrev main_call44_c_0 : Ref sig .tc := ⟨.hbm, 1168, rfl⟩
abbrev main_call44_v12 : Ref sig .tc := ⟨.hbm, 1169, rfl⟩
abbrev main_call44_v13 : Ref sig .tc := ⟨.hbm, 1170, rfl⟩
abbrev main_v580 : Ref sig .tc := ⟨.hbm, 1171, rfl⟩
abbrev main_v581 : Ref sig .tc := ⟨.hbm, 1172, rfl⟩
abbrev main_v582 : Ref sig .tc := ⟨.hbm, 1173, rfl⟩
abbrev main_c_77 : Ref sig .tc := ⟨.hbm, 1174, rfl⟩
abbrev main_v583 : Ref sig .tc := ⟨.hbm, 1175, rfl⟩
abbrev main_v584 : Ref sig .tc := ⟨.hbm, 1176, rfl⟩
abbrev main_v585 : Ref sig .tc := ⟨.hbm, 1177, rfl⟩
abbrev main_v586 : Ref sig .tc := ⟨.hbm, 1178, rfl⟩
abbrev main_v587 : Ref sig .tc := ⟨.hbm, 1179, rfl⟩
abbrev main_c_78 : Ref sig .tc := ⟨.hbm, 1180, rfl⟩
abbrev main_call45_v0 : Ref sig .tc := ⟨.hbm, 1181, rfl⟩
abbrev main_call45_v1 : Ref sig .tc := ⟨.hbm, 1182, rfl⟩
abbrev main_call45_v2 : Ref sig .tc := ⟨.hbm, 1183, rfl⟩
abbrev main_call45_v3 : Ref sig .tc := ⟨.hbm, 1184, rfl⟩
abbrev main_call45_v4 : Ref sig .tc := ⟨.hbm, 1185, rfl⟩
abbrev main_call45_v5 : Ref sig .tc := ⟨.hbm, 1186, rfl⟩
abbrev main_call45_v6 : Ref sig .tc := ⟨.hbm, 1187, rfl⟩
abbrev main_call45_v7 : Ref sig .tc := ⟨.hbm, 1188, rfl⟩
abbrev main_call45_v8 : Ref sig .tc := ⟨.hbm, 1189, rfl⟩
abbrev main_call45_c : Ref sig .tc := ⟨.hbm, 1190, rfl⟩
abbrev main_call45_v9 : Ref sig .tc := ⟨.hbm, 1191, rfl⟩
abbrev main_call45_v10 : Ref sig .tc := ⟨.hbm, 1192, rfl⟩
abbrev main_call45_v11 : Ref sig .tc := ⟨.hbm, 1193, rfl⟩
abbrev main_call45_c_0 : Ref sig .tc := ⟨.hbm, 1194, rfl⟩
abbrev main_call45_v12 : Ref sig .tc := ⟨.hbm, 1195, rfl⟩
abbrev main_call45_v13 : Ref sig .tc := ⟨.hbm, 1196, rfl⟩
abbrev main_v588 : Ref sig .tc := ⟨.hbm, 1197, rfl⟩
abbrev main_v589 : Ref sig .tc := ⟨.hbm, 1198, rfl⟩
abbrev main_v590 : Ref sig .tc := ⟨.hbm, 1199, rfl⟩
abbrev main_v591 : Ref sig .tc := ⟨.hbm, 1200, rfl⟩
abbrev main_v592 : Ref sig .tc := ⟨.hbm, 1201, rfl⟩
abbrev main_c_79 : Ref sig .tc := ⟨.hbm, 1202, rfl⟩
abbrev main_call46_v0 : Ref sig .tc := ⟨.hbm, 1203, rfl⟩
abbrev main_call46_v1 : Ref sig .tc := ⟨.hbm, 1204, rfl⟩
abbrev main_call46_v2 : Ref sig .tc := ⟨.hbm, 1205, rfl⟩
abbrev main_call46_v3 : Ref sig .tc := ⟨.hbm, 1206, rfl⟩
abbrev main_call46_v4 : Ref sig .tc := ⟨.hbm, 1207, rfl⟩
abbrev main_call46_v5 : Ref sig .tc := ⟨.hbm, 1208, rfl⟩
abbrev main_call46_v6 : Ref sig .tc := ⟨.hbm, 1209, rfl⟩
abbrev main_call46_v7 : Ref sig .tc := ⟨.hbm, 1210, rfl⟩
abbrev main_call46_v8 : Ref sig .tc := ⟨.hbm, 1211, rfl⟩
abbrev main_call46_c : Ref sig .tc := ⟨.hbm, 1212, rfl⟩
abbrev main_call46_v9 : Ref sig .tc := ⟨.hbm, 1213, rfl⟩
abbrev main_call46_v10 : Ref sig .tc := ⟨.hbm, 1214, rfl⟩
abbrev main_call46_v11 : Ref sig .tc := ⟨.hbm, 1215, rfl⟩
abbrev main_call46_c_0 : Ref sig .tc := ⟨.hbm, 1216, rfl⟩
abbrev main_call46_v12 : Ref sig .tc := ⟨.hbm, 1217, rfl⟩
abbrev main_call46_v13 : Ref sig .tc := ⟨.hbm, 1218, rfl⟩
abbrev main_v593 : Ref sig .tc := ⟨.hbm, 1219, rfl⟩
abbrev main_v594 : Ref sig .tc := ⟨.hbm, 1220, rfl⟩
abbrev main_v595 : Ref sig .tc := ⟨.hbm, 1221, rfl⟩
abbrev main_c_80 : Ref sig .tc := ⟨.hbm, 1222, rfl⟩
abbrev main_v596 : Ref sig .tc := ⟨.hbm, 1223, rfl⟩
abbrev main_v597 : Ref sig .tc := ⟨.hbm, 1224, rfl⟩
abbrev main_v598 : Ref sig .tc := ⟨.hbm, 1225, rfl⟩
abbrev main_v599 : Ref sig .tc := ⟨.hbm, 1226, rfl⟩
abbrev main_v600 : Ref sig .tc := ⟨.hbm, 1227, rfl⟩
abbrev main_c_81 : Ref sig .tc := ⟨.hbm, 1228, rfl⟩
abbrev main_call47_v0 : Ref sig .tc := ⟨.hbm, 1229, rfl⟩
abbrev main_call47_v1 : Ref sig .tc := ⟨.hbm, 1230, rfl⟩
abbrev main_call47_v2 : Ref sig .tc := ⟨.hbm, 1231, rfl⟩
abbrev main_call47_v3 : Ref sig .tc := ⟨.hbm, 1232, rfl⟩
abbrev main_call47_v4 : Ref sig .tc := ⟨.hbm, 1233, rfl⟩
abbrev main_call47_v5 : Ref sig .tc := ⟨.hbm, 1234, rfl⟩
abbrev main_call47_v6 : Ref sig .tc := ⟨.hbm, 1235, rfl⟩
abbrev main_call47_v7 : Ref sig .tc := ⟨.hbm, 1236, rfl⟩
abbrev main_call47_v8 : Ref sig .tc := ⟨.hbm, 1237, rfl⟩
abbrev main_call47_c : Ref sig .tc := ⟨.hbm, 1238, rfl⟩
abbrev main_call47_v9 : Ref sig .tc := ⟨.hbm, 1239, rfl⟩
abbrev main_call47_v10 : Ref sig .tc := ⟨.hbm, 1240, rfl⟩
abbrev main_call47_v11 : Ref sig .tc := ⟨.hbm, 1241, rfl⟩
abbrev main_call47_c_0 : Ref sig .tc := ⟨.hbm, 1242, rfl⟩
abbrev main_call47_v12 : Ref sig .tc := ⟨.hbm, 1243, rfl⟩
abbrev main_call47_v13 : Ref sig .tc := ⟨.hbm, 1244, rfl⟩
abbrev main_v601 : Ref sig .tc := ⟨.hbm, 1245, rfl⟩
abbrev main_v602 : Ref sig .tc := ⟨.hbm, 1246, rfl⟩
abbrev main_v603 : Ref sig .tc := ⟨.hbm, 1247, rfl⟩
abbrev main_v604 : Ref sig .tc := ⟨.hbm, 1248, rfl⟩
abbrev main_v605 : Ref sig .tc := ⟨.hbm, 1249, rfl⟩
abbrev main_v606 : Ref sig .tc := ⟨.hbm, 1250, rfl⟩
abbrev main_v607 : Ref sig .tc := ⟨.hbm, 1251, rfl⟩
abbrev main_v608 : Ref sig .tc := ⟨.hbm, 1252, rfl⟩
abbrev main_v609 : Ref sig .tc := ⟨.hbm, 1253, rfl⟩
abbrev main_v610 : Ref sig .tc := ⟨.hbm, 1254, rfl⟩
abbrev main_v611 : Ref sig .tc := ⟨.hbm, 1255, rfl⟩
abbrev main_v612 : Ref sig .tc := ⟨.hbm, 1256, rfl⟩
abbrev main_v613 : Ref sig .tc := ⟨.hbm, 1257, rfl⟩
abbrev main_v614 : Ref sig .tc := ⟨.hbm, 1258, rfl⟩
abbrev main_v615 : Ref sig .tc := ⟨.hbm, 1259, rfl⟩
abbrev main_v616 : Ref sig .tc := ⟨.hbm, 1260, rfl⟩
abbrev main_v617 : Ref sig .tc := ⟨.hbm, 1261, rfl⟩
abbrev main_v618 : Ref sig .tc := ⟨.hbm, 1262, rfl⟩
abbrev main_v619 : Ref sig .tc := ⟨.hbm, 1263, rfl⟩
abbrev main_v620 : Ref sig .tc := ⟨.hbm, 1264, rfl⟩
abbrev main_v621 : Ref sig .tc := ⟨.hbm, 1265, rfl⟩
abbrev main_v622 : Ref sig .tc := ⟨.hbm, 1266, rfl⟩
abbrev main_v623 : Ref sig .tc := ⟨.hbm, 1267, rfl⟩
abbrev main_v624 : Ref sig .tc := ⟨.hbm, 1268, rfl⟩
abbrev main_v625 : Ref sig .tc := ⟨.hbm, 1269, rfl⟩
abbrev main_v626 : Ref sig .tc := ⟨.hbm, 1270, rfl⟩
abbrev main_v627 : Ref sig .tc := ⟨.hbm, 1271, rfl⟩
abbrev main_v628 : Ref sig .tc := ⟨.hbm, 1272, rfl⟩
abbrev main_v629 : Ref sig .tc := ⟨.hbm, 1273, rfl⟩
abbrev main_cst_82 : Ref sig .tc := ⟨.hbm, 1274, rfl⟩
abbrev main_call48_v0 : Ref sig .tc := ⟨.hbm, 1275, rfl⟩
abbrev main_call48_v1 : Ref sig .tc := ⟨.hbm, 1276, rfl⟩
abbrev main_call48_v2 : Ref sig .tc := ⟨.hbm, 1277, rfl⟩
abbrev main_v630 : Ref sig .tc := ⟨.hbm, 1278, rfl⟩
abbrev main_cst_83 : Ref sig .tc := ⟨.hbm, 1279, rfl⟩
abbrev main_v631 : Ref sig .tc := ⟨.hbm, 1280, rfl⟩
abbrev main_v632 : Ref sig .tc := ⟨.hbm, 1281, rfl⟩
abbrev main_v633 : Ref sig .tc := ⟨.hbm, 1282, rfl⟩
abbrev main_cst_84 : Ref sig .tc := ⟨.hbm, 1283, rfl⟩
abbrev main_call49_v0 : Ref sig .tc := ⟨.hbm, 1284, rfl⟩
abbrev main_call49_v1 : Ref sig .tc := ⟨.hbm, 1285, rfl⟩
abbrev main_call49_v2 : Ref sig .tc := ⟨.hbm, 1286, rfl⟩
abbrev main_v634 : Ref sig .tc := ⟨.hbm, 1287, rfl⟩
abbrev main_cst_85 : Ref sig .tc := ⟨.hbm, 1288, rfl⟩
abbrev main_v635 : Ref sig .tc := ⟨.hbm, 1289, rfl⟩
abbrev main_v636 : Ref sig .tc := ⟨.hbm, 1290, rfl⟩
abbrev main_v637 : Ref sig .tc := ⟨.hbm, 1291, rfl⟩
abbrev main_v638 : Ref sig .tc := ⟨.hbm, 1292, rfl⟩
abbrev main_v639 : Ref sig .tc := ⟨.hbm, 1293, rfl⟩
abbrev main_v640 : Ref sig .tc := ⟨.hbm, 1294, rfl⟩
abbrev main_v641 : Ref sig .tc := ⟨.hbm, 1295, rfl⟩
abbrev main_v642 : Ref sig .tc := ⟨.hbm, 1296, rfl⟩
abbrev main_v643 : Ref sig .tc := ⟨.hbm, 1297, rfl⟩
abbrev main_v644 : Ref sig .tc := ⟨.hbm, 1298, rfl⟩
abbrev main_v645 : Ref sig .tc := ⟨.hbm, 1299, rfl⟩
abbrev main_v646 : Ref sig .tc := ⟨.hbm, 1300, rfl⟩
abbrev main_v647 : Ref sig .tc := ⟨.hbm, 1301, rfl⟩
abbrev main_v648 : Ref sig .tc := ⟨.hbm, 1302, rfl⟩
abbrev main_v649 : Ref sig .tc := ⟨.hbm, 1303, rfl⟩
abbrev main_v650 : Ref sig .tc := ⟨.hbm, 1304, rfl⟩
abbrev main_v651 : Ref sig .tc := ⟨.hbm, 1305, rfl⟩
abbrev main_v652 : Ref sig .tc := ⟨.hbm, 1306, rfl⟩
abbrev main_v653 : Ref sig .tc := ⟨.hbm, 1307, rfl⟩
abbrev main_v654 : Ref sig .tc := ⟨.hbm, 1308, rfl⟩
abbrev main_v655 : Ref sig .tc := ⟨.hbm, 1309, rfl⟩
abbrev main_v656 : Ref sig .tc := ⟨.hbm, 1310, rfl⟩
abbrev main_v657 : Ref sig .tc := ⟨.hbm, 1311, rfl⟩
abbrev main_v658 : Ref sig .tc := ⟨.hbm, 1312, rfl⟩
abbrev main_v659 : Ref sig .tc := ⟨.hbm, 1313, rfl⟩
abbrev main_v660 : Ref sig .tc := ⟨.hbm, 1314, rfl⟩
abbrev main_v661 : Ref sig .tc := ⟨.hbm, 1315, rfl⟩
abbrev main_v662 : Ref sig .tc := ⟨.hbm, 1316, rfl⟩
abbrev main_v663 : Ref sig .tc := ⟨.hbm, 1317, rfl⟩
abbrev main_c_86 : Ref sig .tc := ⟨.hbm, 1318, rfl⟩
abbrev main_call50_v0 : Ref sig .tc := ⟨.hbm, 1319, rfl⟩
abbrev main_call50_v1 : Ref sig .tc := ⟨.hbm, 1320, rfl⟩
abbrev main_call50_v2 : Ref sig .tc := ⟨.hbm, 1321, rfl⟩
abbrev main_call50_v3 : Ref sig .tc := ⟨.hbm, 1322, rfl⟩
abbrev main_call50_v4 : Ref sig .tc := ⟨.hbm, 1323, rfl⟩
abbrev main_call50_v5 : Ref sig .tc := ⟨.hbm, 1324, rfl⟩
abbrev main_call50_v6 : Ref sig .tc := ⟨.hbm, 1325, rfl⟩
abbrev main_call50_v7 : Ref sig .tc := ⟨.hbm, 1326, rfl⟩
abbrev main_call50_v8 : Ref sig .tc := ⟨.hbm, 1327, rfl⟩
abbrev main_call50_c : Ref sig .tc := ⟨.hbm, 1328, rfl⟩
abbrev main_call50_v9 : Ref sig .tc := ⟨.hbm, 1329, rfl⟩
abbrev main_call50_v10 : Ref sig .tc := ⟨.hbm, 1330, rfl⟩
abbrev main_call50_v11 : Ref sig .tc := ⟨.hbm, 1331, rfl⟩
abbrev main_call50_c_0 : Ref sig .tc := ⟨.hbm, 1332, rfl⟩
abbrev main_call50_v12 : Ref sig .tc := ⟨.hbm, 1333, rfl⟩
abbrev main_call50_v13 : Ref sig .tc := ⟨.hbm, 1334, rfl⟩
abbrev main_v664 : Ref sig .tc := ⟨.hbm, 1335, rfl⟩
abbrev main_v665 : Ref sig .tc := ⟨.hbm, 1336, rfl⟩
abbrev main_v666 : Ref sig .tc := ⟨.hbm, 1337, rfl⟩
abbrev main_c_87 : Ref sig .tc := ⟨.hbm, 1338, rfl⟩
abbrev main_v667 : Ref sig .tc := ⟨.hbm, 1339, rfl⟩
abbrev main_v668 : Ref sig .tc := ⟨.hbm, 1340, rfl⟩
abbrev main_v669 : Ref sig .tc := ⟨.hbm, 1341, rfl⟩
abbrev main_v670 : Ref sig .tc := ⟨.hbm, 1342, rfl⟩
abbrev main_v671 : Ref sig .tc := ⟨.hbm, 1343, rfl⟩
abbrev main_c_88 : Ref sig .tc := ⟨.hbm, 1344, rfl⟩
abbrev main_call51_v0 : Ref sig .tc := ⟨.hbm, 1345, rfl⟩
abbrev main_call51_v1 : Ref sig .tc := ⟨.hbm, 1346, rfl⟩
abbrev main_call51_v2 : Ref sig .tc := ⟨.hbm, 1347, rfl⟩
abbrev main_call51_v3 : Ref sig .tc := ⟨.hbm, 1348, rfl⟩
abbrev main_call51_v4 : Ref sig .tc := ⟨.hbm, 1349, rfl⟩
abbrev main_call51_v5 : Ref sig .tc := ⟨.hbm, 1350, rfl⟩
abbrev main_call51_v6 : Ref sig .tc := ⟨.hbm, 1351, rfl⟩
abbrev main_call51_v7 : Ref sig .tc := ⟨.hbm, 1352, rfl⟩
abbrev main_call51_v8 : Ref sig .tc := ⟨.hbm, 1353, rfl⟩
abbrev main_call51_c : Ref sig .tc := ⟨.hbm, 1354, rfl⟩
abbrev main_call51_v9 : Ref sig .tc := ⟨.hbm, 1355, rfl⟩
abbrev main_call51_v10 : Ref sig .tc := ⟨.hbm, 1356, rfl⟩
abbrev main_call51_v11 : Ref sig .tc := ⟨.hbm, 1357, rfl⟩
abbrev main_call51_c_0 : Ref sig .tc := ⟨.hbm, 1358, rfl⟩
abbrev main_call51_v12 : Ref sig .tc := ⟨.hbm, 1359, rfl⟩
abbrev main_call51_v13 : Ref sig .tc := ⟨.hbm, 1360, rfl⟩
abbrev main_v672 : Ref sig .tc := ⟨.hbm, 1361, rfl⟩
abbrev main_v673 : Ref sig .tc := ⟨.hbm, 1362, rfl⟩
abbrev main_v674 : Ref sig .tc := ⟨.hbm, 1363, rfl⟩
abbrev main_v675 : Ref sig .tc := ⟨.hbm, 1364, rfl⟩
abbrev main_v676 : Ref sig .tc := ⟨.hbm, 1365, rfl⟩
abbrev main_c_89 : Ref sig .tc := ⟨.hbm, 1366, rfl⟩
abbrev main_call52_v0 : Ref sig .tc := ⟨.hbm, 1367, rfl⟩
abbrev main_call52_v1 : Ref sig .tc := ⟨.hbm, 1368, rfl⟩
abbrev main_call52_v2 : Ref sig .tc := ⟨.hbm, 1369, rfl⟩
abbrev main_call52_v3 : Ref sig .tc := ⟨.hbm, 1370, rfl⟩
abbrev main_call52_v4 : Ref sig .tc := ⟨.hbm, 1371, rfl⟩
abbrev main_call52_v5 : Ref sig .tc := ⟨.hbm, 1372, rfl⟩
abbrev main_call52_v6 : Ref sig .tc := ⟨.hbm, 1373, rfl⟩
abbrev main_call52_v7 : Ref sig .tc := ⟨.hbm, 1374, rfl⟩
abbrev main_call52_v8 : Ref sig .tc := ⟨.hbm, 1375, rfl⟩
abbrev main_call52_c : Ref sig .tc := ⟨.hbm, 1376, rfl⟩
abbrev main_call52_v9 : Ref sig .tc := ⟨.hbm, 1377, rfl⟩
abbrev main_call52_v10 : Ref sig .tc := ⟨.hbm, 1378, rfl⟩
abbrev main_call52_v11 : Ref sig .tc := ⟨.hbm, 1379, rfl⟩
abbrev main_call52_c_0 : Ref sig .tc := ⟨.hbm, 1380, rfl⟩
abbrev main_call52_v12 : Ref sig .tc := ⟨.hbm, 1381, rfl⟩
abbrev main_call52_v13 : Ref sig .tc := ⟨.hbm, 1382, rfl⟩
abbrev main_v677 : Ref sig .tc := ⟨.hbm, 1383, rfl⟩
abbrev main_v678 : Ref sig .tc := ⟨.hbm, 1384, rfl⟩
abbrev main_v679 : Ref sig .tc := ⟨.hbm, 1385, rfl⟩
abbrev main_c_90 : Ref sig .tc := ⟨.hbm, 1386, rfl⟩
abbrev main_v680 : Ref sig .tc := ⟨.hbm, 1387, rfl⟩
abbrev main_v681 : Ref sig .tc := ⟨.hbm, 1388, rfl⟩
abbrev main_v682 : Ref sig .tc := ⟨.hbm, 1389, rfl⟩
abbrev main_v683 : Ref sig .tc := ⟨.hbm, 1390, rfl⟩
abbrev main_v684 : Ref sig .tc := ⟨.hbm, 1391, rfl⟩
abbrev main_c_91 : Ref sig .tc := ⟨.hbm, 1392, rfl⟩
abbrev main_call53_v0 : Ref sig .tc := ⟨.hbm, 1393, rfl⟩
abbrev main_call53_v1 : Ref sig .tc := ⟨.hbm, 1394, rfl⟩
abbrev main_call53_v2 : Ref sig .tc := ⟨.hbm, 1395, rfl⟩
abbrev main_call53_v3 : Ref sig .tc := ⟨.hbm, 1396, rfl⟩
abbrev main_call53_v4 : Ref sig .tc := ⟨.hbm, 1397, rfl⟩
abbrev main_call53_v5 : Ref sig .tc := ⟨.hbm, 1398, rfl⟩
abbrev main_call53_v6 : Ref sig .tc := ⟨.hbm, 1399, rfl⟩
abbrev main_call53_v7 : Ref sig .tc := ⟨.hbm, 1400, rfl⟩
abbrev main_call53_v8 : Ref sig .tc := ⟨.hbm, 1401, rfl⟩
abbrev main_call53_c : Ref sig .tc := ⟨.hbm, 1402, rfl⟩
abbrev main_call53_v9 : Ref sig .tc := ⟨.hbm, 1403, rfl⟩
abbrev main_call53_v10 : Ref sig .tc := ⟨.hbm, 1404, rfl⟩
abbrev main_call53_v11 : Ref sig .tc := ⟨.hbm, 1405, rfl⟩
abbrev main_call53_c_0 : Ref sig .tc := ⟨.hbm, 1406, rfl⟩
abbrev main_call53_v12 : Ref sig .tc := ⟨.hbm, 1407, rfl⟩
abbrev main_call53_v13 : Ref sig .tc := ⟨.hbm, 1408, rfl⟩
abbrev main_v685 : Ref sig .tc := ⟨.hbm, 1409, rfl⟩
abbrev main_v686 : Ref sig .tc := ⟨.hbm, 1410, rfl⟩
abbrev main_v687 : Ref sig .tc := ⟨.hbm, 1411, rfl⟩
abbrev main_v688 : Ref sig .tc := ⟨.hbm, 1412, rfl⟩
abbrev main_v689 : Ref sig .tc := ⟨.hbm, 1413, rfl⟩
abbrev main_v690 : Ref sig .tc := ⟨.hbm, 1414, rfl⟩
abbrev main_v691 : Ref sig .tc := ⟨.hbm, 1415, rfl⟩
abbrev main_v692 : Ref sig .tc := ⟨.hbm, 1416, rfl⟩
abbrev main_v693 : Ref sig .tc := ⟨.hbm, 1417, rfl⟩
abbrev main_v694 : Ref sig .tc := ⟨.hbm, 1418, rfl⟩
abbrev main_v695 : Ref sig .tc := ⟨.hbm, 1419, rfl⟩
abbrev main_v696 : Ref sig .tc := ⟨.hbm, 1420, rfl⟩
abbrev main_v697 : Ref sig .tc := ⟨.hbm, 1421, rfl⟩
abbrev main_v698 : Ref sig .tc := ⟨.hbm, 1422, rfl⟩
abbrev main_v699 : Ref sig .tc := ⟨.hbm, 1423, rfl⟩
abbrev main_v700 : Ref sig .tc := ⟨.hbm, 1424, rfl⟩
abbrev main_v701 : Ref sig .tc := ⟨.hbm, 1425, rfl⟩
abbrev main_v702 : Ref sig .tc := ⟨.hbm, 1426, rfl⟩
abbrev main_v703 : Ref sig .tc := ⟨.hbm, 1427, rfl⟩
abbrev main_v704 : Ref sig .tc := ⟨.hbm, 1428, rfl⟩
abbrev main_v705 : Ref sig .tc := ⟨.hbm, 1429, rfl⟩
abbrev main_v706 : Ref sig .tc := ⟨.hbm, 1430, rfl⟩
abbrev main_v707 : Ref sig .tc := ⟨.hbm, 1431, rfl⟩
abbrev main_v708 : Ref sig .tc := ⟨.hbm, 1432, rfl⟩
abbrev main_v709 : Ref sig .tc := ⟨.hbm, 1433, rfl⟩
abbrev main_v710 : Ref sig .tc := ⟨.hbm, 1434, rfl⟩
abbrev main_v711 : Ref sig .tc := ⟨.hbm, 1435, rfl⟩
abbrev main_v712 : Ref sig .tc := ⟨.hbm, 1436, rfl⟩
abbrev main_v713 : Ref sig .tc := ⟨.hbm, 1437, rfl⟩
abbrev main_cst_92 : Ref sig .tc := ⟨.hbm, 1438, rfl⟩
abbrev main_call54_v0 : Ref sig .tc := ⟨.hbm, 1439, rfl⟩
abbrev main_call54_v1 : Ref sig .tc := ⟨.hbm, 1440, rfl⟩
abbrev main_call54_v2 : Ref sig .tc := ⟨.hbm, 1441, rfl⟩
abbrev main_v714 : Ref sig .tc := ⟨.hbm, 1442, rfl⟩
abbrev main_cst_93 : Ref sig .tc := ⟨.hbm, 1443, rfl⟩
abbrev main_v715 : Ref sig .tc := ⟨.hbm, 1444, rfl⟩
abbrev main_v716 : Ref sig .tc := ⟨.hbm, 1445, rfl⟩
abbrev main_v717 : Ref sig .tc := ⟨.hbm, 1446, rfl⟩
abbrev main_cst_94 : Ref sig .tc := ⟨.hbm, 1447, rfl⟩
abbrev main_call55_v0 : Ref sig .tc := ⟨.hbm, 1448, rfl⟩
abbrev main_call55_v1 : Ref sig .tc := ⟨.hbm, 1449, rfl⟩
abbrev main_call55_v2 : Ref sig .tc := ⟨.hbm, 1450, rfl⟩
abbrev main_v718 : Ref sig .tc := ⟨.hbm, 1451, rfl⟩
abbrev main_cst_95 : Ref sig .tc := ⟨.hbm, 1452, rfl⟩
abbrev main_v719 : Ref sig .tc := ⟨.hbm, 1453, rfl⟩
abbrev main_v720 : Ref sig .tc := ⟨.hbm, 1454, rfl⟩
abbrev main_v721 : Ref sig .tc := ⟨.hbm, 1455, rfl⟩
abbrev main_v722 : Ref sig .tc := ⟨.hbm, 1456, rfl⟩
abbrev main_v723 : Ref sig .tc := ⟨.hbm, 1457, rfl⟩
abbrev main_v724 : Ref sig .tc := ⟨.hbm, 1458, rfl⟩
abbrev main_v725 : Ref sig .tc := ⟨.hbm, 1459, rfl⟩
abbrev main_v726 : Ref sig .tc := ⟨.hbm, 1460, rfl⟩
abbrev main_v727 : Ref sig .tc := ⟨.hbm, 1461, rfl⟩
abbrev main_v728 : Ref sig .tc := ⟨.hbm, 1462, rfl⟩
abbrev main_v729 : Ref sig .tc := ⟨.hbm, 1463, rfl⟩
abbrev main_v730 : Ref sig .tc := ⟨.hbm, 1464, rfl⟩
abbrev main_v731 : Ref sig .tc := ⟨.hbm, 1465, rfl⟩
abbrev main_v732 : Ref sig .tc := ⟨.hbm, 1466, rfl⟩
abbrev main_v733 : Ref sig .tc := ⟨.hbm, 1467, rfl⟩
abbrev main_v734 : Ref sig .tc := ⟨.hbm, 1468, rfl⟩
abbrev main_v735 : Ref sig .tc := ⟨.hbm, 1469, rfl⟩
abbrev main_v736 : Ref sig .tc := ⟨.hbm, 1470, rfl⟩
abbrev main_v737 : Ref sig .tc := ⟨.hbm, 1471, rfl⟩
abbrev main_v738 : Ref sig .tc := ⟨.hbm, 1472, rfl⟩
abbrev main_v739 : Ref sig .tc := ⟨.hbm, 1473, rfl⟩
abbrev main_v740 : Ref sig .tc := ⟨.hbm, 1474, rfl⟩
abbrev main_v741 : Ref sig .tc := ⟨.hbm, 1475, rfl⟩
abbrev main_v742 : Ref sig .tc := ⟨.hbm, 1476, rfl⟩
abbrev main_v743 : Ref sig .tc := ⟨.hbm, 1477, rfl⟩
abbrev main_v744 : Ref sig .tc := ⟨.hbm, 1478, rfl⟩
abbrev main_v745 : Ref sig .tc := ⟨.hbm, 1479, rfl⟩
abbrev main_v746 : Ref sig .tc := ⟨.hbm, 1480, rfl⟩
abbrev main_v747 : Ref sig .tc := ⟨.hbm, 1481, rfl⟩
abbrev main_c_96 : Ref sig .tc := ⟨.hbm, 1482, rfl⟩
abbrev main_call56_v0 : Ref sig .tc := ⟨.hbm, 1483, rfl⟩
abbrev main_call56_v1 : Ref sig .tc := ⟨.hbm, 1484, rfl⟩
abbrev main_call56_v2 : Ref sig .tc := ⟨.hbm, 1485, rfl⟩
abbrev main_call56_v3 : Ref sig .tc := ⟨.hbm, 1486, rfl⟩
abbrev main_call56_v4 : Ref sig .tc := ⟨.hbm, 1487, rfl⟩
abbrev main_call56_v5 : Ref sig .tc := ⟨.hbm, 1488, rfl⟩
abbrev main_call56_v6 : Ref sig .tc := ⟨.hbm, 1489, rfl⟩
abbrev main_call56_v7 : Ref sig .tc := ⟨.hbm, 1490, rfl⟩
abbrev main_call56_v8 : Ref sig .tc := ⟨.hbm, 1491, rfl⟩
abbrev main_call56_c : Ref sig .tc := ⟨.hbm, 1492, rfl⟩
abbrev main_call56_v9 : Ref sig .tc := ⟨.hbm, 1493, rfl⟩
abbrev main_call56_v10 : Ref sig .tc := ⟨.hbm, 1494, rfl⟩
abbrev main_call56_v11 : Ref sig .tc := ⟨.hbm, 1495, rfl⟩
abbrev main_call56_c_0 : Ref sig .tc := ⟨.hbm, 1496, rfl⟩
abbrev main_call56_v12 : Ref sig .tc := ⟨.hbm, 1497, rfl⟩
abbrev main_call56_v13 : Ref sig .tc := ⟨.hbm, 1498, rfl⟩
abbrev main_v748 : Ref sig .tc := ⟨.hbm, 1499, rfl⟩
abbrev main_v749 : Ref sig .tc := ⟨.hbm, 1500, rfl⟩
abbrev main_v750 : Ref sig .tc := ⟨.hbm, 1501, rfl⟩
abbrev main_c_97 : Ref sig .tc := ⟨.hbm, 1502, rfl⟩
abbrev main_v751 : Ref sig .tc := ⟨.hbm, 1503, rfl⟩
abbrev main_v752 : Ref sig .tc := ⟨.hbm, 1504, rfl⟩
abbrev main_v753 : Ref sig .tc := ⟨.hbm, 1505, rfl⟩
abbrev main_v754 : Ref sig .tc := ⟨.hbm, 1506, rfl⟩
abbrev main_v755 : Ref sig .tc := ⟨.hbm, 1507, rfl⟩
abbrev main_c_98 : Ref sig .tc := ⟨.hbm, 1508, rfl⟩
abbrev main_call57_v0 : Ref sig .tc := ⟨.hbm, 1509, rfl⟩
abbrev main_call57_v1 : Ref sig .tc := ⟨.hbm, 1510, rfl⟩
abbrev main_call57_v2 : Ref sig .tc := ⟨.hbm, 1511, rfl⟩
abbrev main_call57_v3 : Ref sig .tc := ⟨.hbm, 1512, rfl⟩
abbrev main_call57_v4 : Ref sig .tc := ⟨.hbm, 1513, rfl⟩
abbrev main_call57_v5 : Ref sig .tc := ⟨.hbm, 1514, rfl⟩
abbrev main_call57_v6 : Ref sig .tc := ⟨.hbm, 1515, rfl⟩
abbrev main_call57_v7 : Ref sig .tc := ⟨.hbm, 1516, rfl⟩
abbrev main_call57_v8 : Ref sig .tc := ⟨.hbm, 1517, rfl⟩
abbrev main_call57_c : Ref sig .tc := ⟨.hbm, 1518, rfl⟩
abbrev main_call57_v9 : Ref sig .tc := ⟨.hbm, 1519, rfl⟩
abbrev main_call57_v10 : Ref sig .tc := ⟨.hbm, 1520, rfl⟩
abbrev main_call57_v11 : Ref sig .tc := ⟨.hbm, 1521, rfl⟩
abbrev main_call57_c_0 : Ref sig .tc := ⟨.hbm, 1522, rfl⟩
abbrev main_call57_v12 : Ref sig .tc := ⟨.hbm, 1523, rfl⟩
abbrev main_call57_v13 : Ref sig .tc := ⟨.hbm, 1524, rfl⟩
abbrev main_v756 : Ref sig .tc := ⟨.hbm, 1525, rfl⟩
abbrev main_v757 : Ref sig .tc := ⟨.hbm, 1526, rfl⟩
abbrev main_v758 : Ref sig .tc := ⟨.hbm, 1527, rfl⟩
abbrev main_v759 : Ref sig .tc := ⟨.hbm, 1528, rfl⟩
abbrev main_v760 : Ref sig .tc := ⟨.hbm, 1529, rfl⟩
abbrev main_c_99 : Ref sig .tc := ⟨.hbm, 1530, rfl⟩
abbrev main_call58_v0 : Ref sig .tc := ⟨.hbm, 1531, rfl⟩
abbrev main_call58_v1 : Ref sig .tc := ⟨.hbm, 1532, rfl⟩
abbrev main_call58_v2 : Ref sig .tc := ⟨.hbm, 1533, rfl⟩
abbrev main_call58_v3 : Ref sig .tc := ⟨.hbm, 1534, rfl⟩
abbrev main_call58_v4 : Ref sig .tc := ⟨.hbm, 1535, rfl⟩
abbrev main_call58_v5 : Ref sig .tc := ⟨.hbm, 1536, rfl⟩
abbrev main_call58_v6 : Ref sig .tc := ⟨.hbm, 1537, rfl⟩
abbrev main_call58_v7 : Ref sig .tc := ⟨.hbm, 1538, rfl⟩
abbrev main_call58_v8 : Ref sig .tc := ⟨.hbm, 1539, rfl⟩
abbrev main_call58_c : Ref sig .tc := ⟨.hbm, 1540, rfl⟩
abbrev main_call58_v9 : Ref sig .tc := ⟨.hbm, 1541, rfl⟩
abbrev main_call58_v10 : Ref sig .tc := ⟨.hbm, 1542, rfl⟩
abbrev main_call58_v11 : Ref sig .tc := ⟨.hbm, 1543, rfl⟩
abbrev main_call58_c_0 : Ref sig .tc := ⟨.hbm, 1544, rfl⟩
abbrev main_call58_v12 : Ref sig .tc := ⟨.hbm, 1545, rfl⟩
abbrev main_call58_v13 : Ref sig .tc := ⟨.hbm, 1546, rfl⟩
abbrev main_v761 : Ref sig .tc := ⟨.hbm, 1547, rfl⟩
abbrev main_v762 : Ref sig .tc := ⟨.hbm, 1548, rfl⟩
abbrev main_v763 : Ref sig .tc := ⟨.hbm, 1549, rfl⟩
abbrev main_c_100 : Ref sig .tc := ⟨.hbm, 1550, rfl⟩
abbrev main_v764 : Ref sig .tc := ⟨.hbm, 1551, rfl⟩
abbrev main_v765 : Ref sig .tc := ⟨.hbm, 1552, rfl⟩
abbrev main_v766 : Ref sig .tc := ⟨.hbm, 1553, rfl⟩
abbrev main_v767 : Ref sig .tc := ⟨.hbm, 1554, rfl⟩
abbrev main_v768 : Ref sig .tc := ⟨.hbm, 1555, rfl⟩
abbrev main_c_101 : Ref sig .tc := ⟨.hbm, 1556, rfl⟩
abbrev main_call59_v0 : Ref sig .tc := ⟨.hbm, 1557, rfl⟩
abbrev main_call59_v1 : Ref sig .tc := ⟨.hbm, 1558, rfl⟩
abbrev main_call59_v2 : Ref sig .tc := ⟨.hbm, 1559, rfl⟩
abbrev main_call59_v3 : Ref sig .tc := ⟨.hbm, 1560, rfl⟩
abbrev main_call59_v4 : Ref sig .tc := ⟨.hbm, 1561, rfl⟩
abbrev main_call59_v5 : Ref sig .tc := ⟨.hbm, 1562, rfl⟩
abbrev main_call59_v6 : Ref sig .tc := ⟨.hbm, 1563, rfl⟩
abbrev main_call59_v7 : Ref sig .tc := ⟨.hbm, 1564, rfl⟩
abbrev main_call59_v8 : Ref sig .tc := ⟨.hbm, 1565, rfl⟩
abbrev main_call59_c : Ref sig .tc := ⟨.hbm, 1566, rfl⟩
abbrev main_call59_v9 : Ref sig .tc := ⟨.hbm, 1567, rfl⟩
abbrev main_call59_v10 : Ref sig .tc := ⟨.hbm, 1568, rfl⟩
abbrev main_call59_v11 : Ref sig .tc := ⟨.hbm, 1569, rfl⟩
abbrev main_call59_c_0 : Ref sig .tc := ⟨.hbm, 1570, rfl⟩
abbrev main_call59_v12 : Ref sig .tc := ⟨.hbm, 1571, rfl⟩
abbrev main_call59_v13 : Ref sig .tc := ⟨.hbm, 1572, rfl⟩
abbrev main_v769 : Ref sig .tc := ⟨.hbm, 1573, rfl⟩
abbrev main_v770 : Ref sig .tc := ⟨.hbm, 1574, rfl⟩
abbrev main_v771 : Ref sig .tc := ⟨.hbm, 1575, rfl⟩
abbrev main_v772 : Ref sig .tc := ⟨.hbm, 1576, rfl⟩
abbrev main_v773 : Ref sig .tc := ⟨.hbm, 1577, rfl⟩
abbrev main_v774 : Ref sig .tc := ⟨.hbm, 1578, rfl⟩
abbrev main_v775 : Ref sig .tc := ⟨.hbm, 1579, rfl⟩
abbrev main_v776 : Ref sig .tc := ⟨.hbm, 1580, rfl⟩
abbrev main_v777 : Ref sig .tc := ⟨.hbm, 1581, rfl⟩
abbrev main_v778 : Ref sig .tc := ⟨.hbm, 1582, rfl⟩
abbrev main_v779 : Ref sig .tc := ⟨.hbm, 1583, rfl⟩
abbrev main_v780 : Ref sig .tc := ⟨.hbm, 1584, rfl⟩
abbrev main_v781 : Ref sig .tc := ⟨.hbm, 1585, rfl⟩
abbrev main_v782 : Ref sig .tc := ⟨.hbm, 1586, rfl⟩
abbrev main_v783 : Ref sig .tc := ⟨.hbm, 1587, rfl⟩
abbrev main_v784 : Ref sig .tc := ⟨.hbm, 1588, rfl⟩
abbrev main_v785 : Ref sig .tc := ⟨.hbm, 1589, rfl⟩
abbrev main_v786 : Ref sig .tc := ⟨.hbm, 1590, rfl⟩
abbrev main_v787 : Ref sig .tc := ⟨.hbm, 1591, rfl⟩
abbrev main_v788 : Ref sig .tc := ⟨.hbm, 1592, rfl⟩
abbrev main_v789 : Ref sig .tc := ⟨.hbm, 1593, rfl⟩
abbrev main_v790 : Ref sig .tc := ⟨.hbm, 1594, rfl⟩
abbrev main_v791 : Ref sig .tc := ⟨.hbm, 1595, rfl⟩
abbrev main_v792 : Ref sig .tc := ⟨.hbm, 1596, rfl⟩
abbrev main_v793 : Ref sig .tc := ⟨.hbm, 1597, rfl⟩
abbrev main_v794 : Ref sig .tc := ⟨.hbm, 1598, rfl⟩
abbrev main_v795 : Ref sig .tc := ⟨.hbm, 1599, rfl⟩
abbrev main_v796 : Ref sig .tc := ⟨.hbm, 1600, rfl⟩
abbrev main_v797 : Ref sig .tc := ⟨.hbm, 1601, rfl⟩
abbrev main_cst_102 : Ref sig .tc := ⟨.hbm, 1602, rfl⟩
abbrev main_call60_v0 : Ref sig .tc := ⟨.hbm, 1603, rfl⟩
abbrev main_call60_v1 : Ref sig .tc := ⟨.hbm, 1604, rfl⟩
abbrev main_call60_v2 : Ref sig .tc := ⟨.hbm, 1605, rfl⟩
abbrev main_v798 : Ref sig .tc := ⟨.hbm, 1606, rfl⟩
abbrev main_cst_103 : Ref sig .tc := ⟨.hbm, 1607, rfl⟩
abbrev main_v799 : Ref sig .tc := ⟨.hbm, 1608, rfl⟩
abbrev main_v800 : Ref sig .tc := ⟨.hbm, 1609, rfl⟩
abbrev main_v801 : Ref sig .tc := ⟨.hbm, 1610, rfl⟩
abbrev main_cst_104 : Ref sig .tc := ⟨.hbm, 1611, rfl⟩
abbrev main_call61_v0 : Ref sig .tc := ⟨.hbm, 1612, rfl⟩
abbrev main_call61_v1 : Ref sig .tc := ⟨.hbm, 1613, rfl⟩
abbrev main_call61_v2 : Ref sig .tc := ⟨.hbm, 1614, rfl⟩
abbrev main_v802 : Ref sig .tc := ⟨.hbm, 1615, rfl⟩
abbrev main_cst_105 : Ref sig .tc := ⟨.hbm, 1616, rfl⟩
abbrev main_v803 : Ref sig .tc := ⟨.hbm, 1617, rfl⟩
abbrev main_v804 : Ref sig .tc := ⟨.hbm, 1618, rfl⟩
abbrev main_v805 : Ref sig .tc := ⟨.hbm, 1619, rfl⟩
abbrev main_v806 : Ref sig .tc := ⟨.hbm, 1620, rfl⟩
abbrev main_v807 : Ref sig .tc := ⟨.hbm, 1621, rfl⟩
abbrev main_v808 : Ref sig .tc := ⟨.hbm, 1622, rfl⟩
abbrev main_v809 : Ref sig .tc := ⟨.hbm, 1623, rfl⟩
abbrev main_v810 : Ref sig .tc := ⟨.hbm, 1624, rfl⟩
abbrev main_v811 : Ref sig .tc := ⟨.hbm, 1625, rfl⟩
abbrev main_v812 : Ref sig .tc := ⟨.hbm, 1626, rfl⟩
abbrev main_v813 : Ref sig .tc := ⟨.hbm, 1627, rfl⟩
abbrev main_v814 : Ref sig .tc := ⟨.hbm, 1628, rfl⟩
abbrev main_v815 : Ref sig .tc := ⟨.hbm, 1629, rfl⟩
abbrev main_v816 : Ref sig .tc := ⟨.hbm, 1630, rfl⟩
abbrev main_v817 : Ref sig .tc := ⟨.hbm, 1631, rfl⟩
abbrev main_v818 : Ref sig .tc := ⟨.hbm, 1632, rfl⟩
abbrev main_v819 : Ref sig .tc := ⟨.hbm, 1633, rfl⟩
abbrev main_v820 : Ref sig .tc := ⟨.hbm, 1634, rfl⟩
abbrev main_v821 : Ref sig .tc := ⟨.hbm, 1635, rfl⟩
abbrev main_v822 : Ref sig .tc := ⟨.hbm, 1636, rfl⟩
abbrev main_v823 : Ref sig .tc := ⟨.hbm, 1637, rfl⟩
abbrev main_v824 : Ref sig .tc := ⟨.hbm, 1638, rfl⟩
abbrev main_v825 : Ref sig .tc := ⟨.hbm, 1639, rfl⟩
abbrev main_v826 : Ref sig .tc := ⟨.hbm, 1640, rfl⟩
abbrev main_v827 : Ref sig .tc := ⟨.hbm, 1641, rfl⟩
abbrev main_v828 : Ref sig .tc := ⟨.hbm, 1642, rfl⟩
abbrev main_v829 : Ref sig .tc := ⟨.hbm, 1643, rfl⟩
abbrev main_v830 : Ref sig .tc := ⟨.hbm, 1644, rfl⟩
abbrev main_v831 : Ref sig .tc := ⟨.hbm, 1645, rfl⟩
abbrev main_c_106 : Ref sig .tc := ⟨.hbm, 1646, rfl⟩
abbrev main_call62_v0 : Ref sig .tc := ⟨.hbm, 1647, rfl⟩
abbrev main_call62_v1 : Ref sig .tc := ⟨.hbm, 1648, rfl⟩
abbrev main_call62_v2 : Ref sig .tc := ⟨.hbm, 1649, rfl⟩
abbrev main_call62_v3 : Ref sig .tc := ⟨.hbm, 1650, rfl⟩
abbrev main_call62_v4 : Ref sig .tc := ⟨.hbm, 1651, rfl⟩
abbrev main_call62_v5 : Ref sig .tc := ⟨.hbm, 1652, rfl⟩
abbrev main_call62_v6 : Ref sig .tc := ⟨.hbm, 1653, rfl⟩
abbrev main_call62_v7 : Ref sig .tc := ⟨.hbm, 1654, rfl⟩
abbrev main_call62_v8 : Ref sig .tc := ⟨.hbm, 1655, rfl⟩
abbrev main_call62_c : Ref sig .tc := ⟨.hbm, 1656, rfl⟩
abbrev main_call62_v9 : Ref sig .tc := ⟨.hbm, 1657, rfl⟩
abbrev main_call62_v10 : Ref sig .tc := ⟨.hbm, 1658, rfl⟩
abbrev main_call62_v11 : Ref sig .tc := ⟨.hbm, 1659, rfl⟩
abbrev main_call62_c_0 : Ref sig .tc := ⟨.hbm, 1660, rfl⟩
abbrev main_call62_v12 : Ref sig .tc := ⟨.hbm, 1661, rfl⟩
abbrev main_call62_v13 : Ref sig .tc := ⟨.hbm, 1662, rfl⟩
abbrev main_v832 : Ref sig .tc := ⟨.hbm, 1663, rfl⟩
abbrev main_v833 : Ref sig .tc := ⟨.hbm, 1664, rfl⟩
abbrev main_v834 : Ref sig .tc := ⟨.hbm, 1665, rfl⟩
abbrev main_c_107 : Ref sig .tc := ⟨.hbm, 1666, rfl⟩
abbrev main_v835 : Ref sig .tc := ⟨.hbm, 1667, rfl⟩
abbrev main_v836 : Ref sig .tc := ⟨.hbm, 1668, rfl⟩
abbrev main_v837 : Ref sig .tc := ⟨.hbm, 1669, rfl⟩
abbrev main_v838 : Ref sig .tc := ⟨.hbm, 1670, rfl⟩
abbrev main_v839 : Ref sig .tc := ⟨.hbm, 1671, rfl⟩
abbrev main_c_108 : Ref sig .tc := ⟨.hbm, 1672, rfl⟩
abbrev main_call63_v0 : Ref sig .tc := ⟨.hbm, 1673, rfl⟩
abbrev main_call63_v1 : Ref sig .tc := ⟨.hbm, 1674, rfl⟩
abbrev main_call63_v2 : Ref sig .tc := ⟨.hbm, 1675, rfl⟩
abbrev main_call63_v3 : Ref sig .tc := ⟨.hbm, 1676, rfl⟩
abbrev main_call63_v4 : Ref sig .tc := ⟨.hbm, 1677, rfl⟩
abbrev main_call63_v5 : Ref sig .tc := ⟨.hbm, 1678, rfl⟩
abbrev main_call63_v6 : Ref sig .tc := ⟨.hbm, 1679, rfl⟩
abbrev main_call63_v7 : Ref sig .tc := ⟨.hbm, 1680, rfl⟩
abbrev main_call63_v8 : Ref sig .tc := ⟨.hbm, 1681, rfl⟩
abbrev main_call63_c : Ref sig .tc := ⟨.hbm, 1682, rfl⟩
abbrev main_call63_v9 : Ref sig .tc := ⟨.hbm, 1683, rfl⟩
abbrev main_call63_v10 : Ref sig .tc := ⟨.hbm, 1684, rfl⟩
abbrev main_call63_v11 : Ref sig .tc := ⟨.hbm, 1685, rfl⟩
abbrev main_call63_c_0 : Ref sig .tc := ⟨.hbm, 1686, rfl⟩
abbrev main_call63_v12 : Ref sig .tc := ⟨.hbm, 1687, rfl⟩
abbrev main_call63_v13 : Ref sig .tc := ⟨.hbm, 1688, rfl⟩
abbrev main_v840 : Ref sig .tc := ⟨.hbm, 1689, rfl⟩
abbrev main_v841 : Ref sig .tc := ⟨.hbm, 1690, rfl⟩
abbrev main_v842 : Ref sig .tc := ⟨.hbm, 1691, rfl⟩
abbrev main_v843 : Ref sig .tc := ⟨.hbm, 1692, rfl⟩
abbrev main_v844 : Ref sig .tc := ⟨.hbm, 1693, rfl⟩
abbrev main_c_109 : Ref sig .tc := ⟨.hbm, 1694, rfl⟩
abbrev main_call64_v0 : Ref sig .tc := ⟨.hbm, 1695, rfl⟩
abbrev main_call64_v1 : Ref sig .tc := ⟨.hbm, 1696, rfl⟩
abbrev main_call64_v2 : Ref sig .tc := ⟨.hbm, 1697, rfl⟩
abbrev main_call64_v3 : Ref sig .tc := ⟨.hbm, 1698, rfl⟩
abbrev main_call64_v4 : Ref sig .tc := ⟨.hbm, 1699, rfl⟩
abbrev main_call64_v5 : Ref sig .tc := ⟨.hbm, 1700, rfl⟩
abbrev main_call64_v6 : Ref sig .tc := ⟨.hbm, 1701, rfl⟩
abbrev main_call64_v7 : Ref sig .tc := ⟨.hbm, 1702, rfl⟩
abbrev main_call64_v8 : Ref sig .tc := ⟨.hbm, 1703, rfl⟩
abbrev main_call64_c : Ref sig .tc := ⟨.hbm, 1704, rfl⟩
abbrev main_call64_v9 : Ref sig .tc := ⟨.hbm, 1705, rfl⟩
abbrev main_call64_v10 : Ref sig .tc := ⟨.hbm, 1706, rfl⟩
abbrev main_call64_v11 : Ref sig .tc := ⟨.hbm, 1707, rfl⟩
abbrev main_call64_c_0 : Ref sig .tc := ⟨.hbm, 1708, rfl⟩
abbrev main_call64_v12 : Ref sig .tc := ⟨.hbm, 1709, rfl⟩
abbrev main_call64_v13 : Ref sig .tc := ⟨.hbm, 1710, rfl⟩
abbrev main_v845 : Ref sig .tc := ⟨.hbm, 1711, rfl⟩
abbrev main_v846 : Ref sig .tc := ⟨.hbm, 1712, rfl⟩
abbrev main_v847 : Ref sig .tc := ⟨.hbm, 1713, rfl⟩
abbrev main_c_110 : Ref sig .tc := ⟨.hbm, 1714, rfl⟩
abbrev main_v848 : Ref sig .tc := ⟨.hbm, 1715, rfl⟩
abbrev main_v849 : Ref sig .tc := ⟨.hbm, 1716, rfl⟩
abbrev main_v850 : Ref sig .tc := ⟨.hbm, 1717, rfl⟩
abbrev main_v851 : Ref sig .tc := ⟨.hbm, 1718, rfl⟩
abbrev main_v852 : Ref sig .tc := ⟨.hbm, 1719, rfl⟩
abbrev main_c_111 : Ref sig .tc := ⟨.hbm, 1720, rfl⟩
abbrev main_call65_v0 : Ref sig .tc := ⟨.hbm, 1721, rfl⟩
abbrev main_call65_v1 : Ref sig .tc := ⟨.hbm, 1722, rfl⟩
abbrev main_call65_v2 : Ref sig .tc := ⟨.hbm, 1723, rfl⟩
abbrev main_call65_v3 : Ref sig .tc := ⟨.hbm, 1724, rfl⟩
abbrev main_call65_v4 : Ref sig .tc := ⟨.hbm, 1725, rfl⟩
abbrev main_call65_v5 : Ref sig .tc := ⟨.hbm, 1726, rfl⟩
abbrev main_call65_v6 : Ref sig .tc := ⟨.hbm, 1727, rfl⟩
abbrev main_call65_v7 : Ref sig .tc := ⟨.hbm, 1728, rfl⟩
abbrev main_call65_v8 : Ref sig .tc := ⟨.hbm, 1729, rfl⟩
abbrev main_call65_c : Ref sig .tc := ⟨.hbm, 1730, rfl⟩
abbrev main_call65_v9 : Ref sig .tc := ⟨.hbm, 1731, rfl⟩
abbrev main_call65_v10 : Ref sig .tc := ⟨.hbm, 1732, rfl⟩
abbrev main_call65_v11 : Ref sig .tc := ⟨.hbm, 1733, rfl⟩
abbrev main_call65_c_0 : Ref sig .tc := ⟨.hbm, 1734, rfl⟩
abbrev main_call65_v12 : Ref sig .tc := ⟨.hbm, 1735, rfl⟩
abbrev main_call65_v13 : Ref sig .tc := ⟨.hbm, 1736, rfl⟩
abbrev main_v853 : Ref sig .tc := ⟨.hbm, 1737, rfl⟩
abbrev main_v854 : Ref sig .tc := ⟨.hbm, 1738, rfl⟩
abbrev main_v855 : Ref sig .tc := ⟨.hbm, 1739, rfl⟩
abbrev main_v856 : Ref sig .tc := ⟨.hbm, 1740, rfl⟩
abbrev main_v857 : Ref sig .tc := ⟨.hbm, 1741, rfl⟩
abbrev main_v858 : Ref sig .tc := ⟨.hbm, 1742, rfl⟩
abbrev main_v859 : Ref sig .tc := ⟨.hbm, 1743, rfl⟩
abbrev main_v860 : Ref sig .tc := ⟨.hbm, 1744, rfl⟩
abbrev main_v861 : Ref sig .tc := ⟨.hbm, 1745, rfl⟩
abbrev main_v862 : Ref sig .tc := ⟨.hbm, 1746, rfl⟩
abbrev main_v863 : Ref sig .tc := ⟨.hbm, 1747, rfl⟩
abbrev main_v864 : Ref sig .tc := ⟨.hbm, 1748, rfl⟩
abbrev main_v865 : Ref sig .tc := ⟨.hbm, 1749, rfl⟩
abbrev main_v866 : Ref sig .tc := ⟨.hbm, 1750, rfl⟩
abbrev main_v867 : Ref sig .tc := ⟨.hbm, 1751, rfl⟩
abbrev main_v868 : Ref sig .tc := ⟨.hbm, 1752, rfl⟩
abbrev main_v869 : Ref sig .tc := ⟨.hbm, 1753, rfl⟩
abbrev main_v870 : Ref sig .tc := ⟨.hbm, 1754, rfl⟩
abbrev main_v871 : Ref sig .tc := ⟨.hbm, 1755, rfl⟩
abbrev main_v872 : Ref sig .tc := ⟨.hbm, 1756, rfl⟩
abbrev main_v873 : Ref sig .tc := ⟨.hbm, 1757, rfl⟩
abbrev main_v874 : Ref sig .tc := ⟨.hbm, 1758, rfl⟩
abbrev main_v875 : Ref sig .tc := ⟨.hbm, 1759, rfl⟩
abbrev main_v876 : Ref sig .tc := ⟨.hbm, 1760, rfl⟩
abbrev main_v877 : Ref sig .tc := ⟨.hbm, 1761, rfl⟩
abbrev main_v878 : Ref sig .tc := ⟨.hbm, 1762, rfl⟩
abbrev main_v879 : Ref sig .tc := ⟨.hbm, 1763, rfl⟩
abbrev main_v880 : Ref sig .tc := ⟨.hbm, 1764, rfl⟩
abbrev main_v881 : Ref sig .tc := ⟨.hbm, 1765, rfl⟩
abbrev main_cst_112 : Ref sig .tc := ⟨.hbm, 1766, rfl⟩
abbrev main_call66_v0 : Ref sig .tc := ⟨.hbm, 1767, rfl⟩
abbrev main_call66_v1 : Ref sig .tc := ⟨.hbm, 1768, rfl⟩
abbrev main_call66_v2 : Ref sig .tc := ⟨.hbm, 1769, rfl⟩
abbrev main_v882 : Ref sig .tc := ⟨.hbm, 1770, rfl⟩
abbrev main_cst_113 : Ref sig .tc := ⟨.hbm, 1771, rfl⟩
abbrev main_v883 : Ref sig .tc := ⟨.hbm, 1772, rfl⟩
abbrev main_v884 : Ref sig .tc := ⟨.hbm, 1773, rfl⟩
abbrev main_v885 : Ref sig .tc := ⟨.hbm, 1774, rfl⟩
abbrev main_cst_114 : Ref sig .tc := ⟨.hbm, 1775, rfl⟩
abbrev main_call67_v0 : Ref sig .tc := ⟨.hbm, 1776, rfl⟩
abbrev main_call67_v1 : Ref sig .tc := ⟨.hbm, 1777, rfl⟩
abbrev main_call67_v2 : Ref sig .tc := ⟨.hbm, 1778, rfl⟩
abbrev main_v886 : Ref sig .tc := ⟨.hbm, 1779, rfl⟩
abbrev main_cst_115 : Ref sig .tc := ⟨.hbm, 1780, rfl⟩
abbrev main_v887 : Ref sig .tc := ⟨.hbm, 1781, rfl⟩
abbrev main_v888 : Ref sig .tc := ⟨.hbm, 1782, rfl⟩
abbrev main_v889 : Ref sig .tc := ⟨.hbm, 1783, rfl⟩
abbrev main_v890 : Ref sig .tc := ⟨.hbm, 1784, rfl⟩
abbrev main_v891 : Ref sig .tc := ⟨.hbm, 1785, rfl⟩
abbrev main_v892 : Ref sig .tc := ⟨.hbm, 1786, rfl⟩
abbrev main_v893 : Ref sig .tc := ⟨.hbm, 1787, rfl⟩
abbrev main_v894 : Ref sig .tc := ⟨.hbm, 1788, rfl⟩
abbrev main_v895 : Ref sig .tc := ⟨.hbm, 1789, rfl⟩
abbrev main_v896 : Ref sig .tc := ⟨.hbm, 1790, rfl⟩
abbrev main_v897 : Ref sig .tc := ⟨.hbm, 1791, rfl⟩
abbrev main_v898 : Ref sig .tc := ⟨.hbm, 1792, rfl⟩
abbrev main_v899 : Ref sig .tc := ⟨.hbm, 1793, rfl⟩
abbrev main_v900 : Ref sig .tc := ⟨.hbm, 1794, rfl⟩
abbrev main_v901 : Ref sig .tc := ⟨.hbm, 1795, rfl⟩
abbrev main_v902 : Ref sig .tc := ⟨.hbm, 1796, rfl⟩
abbrev main_v903 : Ref sig .tc := ⟨.hbm, 1797, rfl⟩
abbrev main_v904 : Ref sig .tc := ⟨.hbm, 1798, rfl⟩
abbrev main_v905 : Ref sig .tc := ⟨.hbm, 1799, rfl⟩
abbrev main_v906 : Ref sig .tc := ⟨.hbm, 1800, rfl⟩
abbrev main_v907 : Ref sig .tc := ⟨.hbm, 1801, rfl⟩
abbrev main_v908 : Ref sig .tc := ⟨.hbm, 1802, rfl⟩
abbrev main_v909 : Ref sig .tc := ⟨.hbm, 1803, rfl⟩
abbrev main_v910 : Ref sig .tc := ⟨.hbm, 1804, rfl⟩
abbrev main_v911 : Ref sig .tc := ⟨.hbm, 1805, rfl⟩
abbrev main_v912 : Ref sig .tc := ⟨.hbm, 1806, rfl⟩
abbrev main_v913 : Ref sig .tc := ⟨.hbm, 1807, rfl⟩
abbrev main_v914 : Ref sig .tc := ⟨.hbm, 1808, rfl⟩
abbrev main_v915 : Ref sig .tc := ⟨.hbm, 1809, rfl⟩
abbrev main_c_116 : Ref sig .tc := ⟨.hbm, 1810, rfl⟩
abbrev main_call68_v0 : Ref sig .tc := ⟨.hbm, 1811, rfl⟩
abbrev main_call68_v1 : Ref sig .tc := ⟨.hbm, 1812, rfl⟩
abbrev main_call68_v2 : Ref sig .tc := ⟨.hbm, 1813, rfl⟩
abbrev main_call68_v3 : Ref sig .tc := ⟨.hbm, 1814, rfl⟩
abbrev main_call68_v4 : Ref sig .tc := ⟨.hbm, 1815, rfl⟩
abbrev main_call68_v5 : Ref sig .tc := ⟨.hbm, 1816, rfl⟩
abbrev main_call68_v6 : Ref sig .tc := ⟨.hbm, 1817, rfl⟩
abbrev main_call68_v7 : Ref sig .tc := ⟨.hbm, 1818, rfl⟩
abbrev main_call68_v8 : Ref sig .tc := ⟨.hbm, 1819, rfl⟩
abbrev main_call68_c : Ref sig .tc := ⟨.hbm, 1820, rfl⟩
abbrev main_call68_v9 : Ref sig .tc := ⟨.hbm, 1821, rfl⟩
abbrev main_call68_v10 : Ref sig .tc := ⟨.hbm, 1822, rfl⟩
abbrev main_call68_v11 : Ref sig .tc := ⟨.hbm, 1823, rfl⟩
abbrev main_call68_c_0 : Ref sig .tc := ⟨.hbm, 1824, rfl⟩
abbrev main_call68_v12 : Ref sig .tc := ⟨.hbm, 1825, rfl⟩
abbrev main_call68_v13 : Ref sig .tc := ⟨.hbm, 1826, rfl⟩
abbrev main_v916 : Ref sig .tc := ⟨.hbm, 1827, rfl⟩
abbrev main_v917 : Ref sig .tc := ⟨.hbm, 1828, rfl⟩
abbrev main_v918 : Ref sig .tc := ⟨.hbm, 1829, rfl⟩
abbrev main_c_117 : Ref sig .tc := ⟨.hbm, 1830, rfl⟩
abbrev main_v919 : Ref sig .tc := ⟨.hbm, 1831, rfl⟩
abbrev main_v920 : Ref sig .tc := ⟨.hbm, 1832, rfl⟩
abbrev main_v921 : Ref sig .tc := ⟨.hbm, 1833, rfl⟩
abbrev main_v922 : Ref sig .tc := ⟨.hbm, 1834, rfl⟩
abbrev main_v923 : Ref sig .tc := ⟨.hbm, 1835, rfl⟩
abbrev main_c_118 : Ref sig .tc := ⟨.hbm, 1836, rfl⟩
abbrev main_call69_v0 : Ref sig .tc := ⟨.hbm, 1837, rfl⟩
abbrev main_call69_v1 : Ref sig .tc := ⟨.hbm, 1838, rfl⟩
abbrev main_call69_v2 : Ref sig .tc := ⟨.hbm, 1839, rfl⟩
abbrev main_call69_v3 : Ref sig .tc := ⟨.hbm, 1840, rfl⟩
abbrev main_call69_v4 : Ref sig .tc := ⟨.hbm, 1841, rfl⟩
abbrev main_call69_v5 : Ref sig .tc := ⟨.hbm, 1842, rfl⟩
abbrev main_call69_v6 : Ref sig .tc := ⟨.hbm, 1843, rfl⟩
abbrev main_call69_v7 : Ref sig .tc := ⟨.hbm, 1844, rfl⟩
abbrev main_call69_v8 : Ref sig .tc := ⟨.hbm, 1845, rfl⟩
abbrev main_call69_c : Ref sig .tc := ⟨.hbm, 1846, rfl⟩
abbrev main_call69_v9 : Ref sig .tc := ⟨.hbm, 1847, rfl⟩
abbrev main_call69_v10 : Ref sig .tc := ⟨.hbm, 1848, rfl⟩
abbrev main_call69_v11 : Ref sig .tc := ⟨.hbm, 1849, rfl⟩
abbrev main_call69_c_0 : Ref sig .tc := ⟨.hbm, 1850, rfl⟩
abbrev main_call69_v12 : Ref sig .tc := ⟨.hbm, 1851, rfl⟩
abbrev main_call69_v13 : Ref sig .tc := ⟨.hbm, 1852, rfl⟩
abbrev main_v924 : Ref sig .tc := ⟨.hbm, 1853, rfl⟩
abbrev main_v925 : Ref sig .tc := ⟨.hbm, 1854, rfl⟩
abbrev main_v926 : Ref sig .tc := ⟨.hbm, 1855, rfl⟩
abbrev main_v927 : Ref sig .tc := ⟨.hbm, 1856, rfl⟩
abbrev main_v928 : Ref sig .tc := ⟨.hbm, 1857, rfl⟩
abbrev main_c_119 : Ref sig .tc := ⟨.hbm, 1858, rfl⟩
abbrev main_call70_v0 : Ref sig .tc := ⟨.hbm, 1859, rfl⟩
abbrev main_call70_v1 : Ref sig .tc := ⟨.hbm, 1860, rfl⟩
abbrev main_call70_v2 : Ref sig .tc := ⟨.hbm, 1861, rfl⟩
abbrev main_call70_v3 : Ref sig .tc := ⟨.hbm, 1862, rfl⟩
abbrev main_call70_v4 : Ref sig .tc := ⟨.hbm, 1863, rfl⟩
abbrev main_call70_v5 : Ref sig .tc := ⟨.hbm, 1864, rfl⟩
abbrev main_call70_v6 : Ref sig .tc := ⟨.hbm, 1865, rfl⟩
abbrev main_call70_v7 : Ref sig .tc := ⟨.hbm, 1866, rfl⟩
abbrev main_call70_v8 : Ref sig .tc := ⟨.hbm, 1867, rfl⟩
abbrev main_call70_c : Ref sig .tc := ⟨.hbm, 1868, rfl⟩
abbrev main_call70_v9 : Ref sig .tc := ⟨.hbm, 1869, rfl⟩
abbrev main_call70_v10 : Ref sig .tc := ⟨.hbm, 1870, rfl⟩
abbrev main_call70_v11 : Ref sig .tc := ⟨.hbm, 1871, rfl⟩
abbrev main_call70_c_0 : Ref sig .tc := ⟨.hbm, 1872, rfl⟩
abbrev main_call70_v12 : Ref sig .tc := ⟨.hbm, 1873, rfl⟩
abbrev main_call70_v13 : Ref sig .tc := ⟨.hbm, 1874, rfl⟩
abbrev main_v929 : Ref sig .tc := ⟨.hbm, 1875, rfl⟩
abbrev main_v930 : Ref sig .tc := ⟨.hbm, 1876, rfl⟩
abbrev main_v931 : Ref sig .tc := ⟨.hbm, 1877, rfl⟩
abbrev main_c_120 : Ref sig .tc := ⟨.hbm, 1878, rfl⟩
abbrev main_v932 : Ref sig .tc := ⟨.hbm, 1879, rfl⟩
abbrev main_v933 : Ref sig .tc := ⟨.hbm, 1880, rfl⟩
abbrev main_v934 : Ref sig .tc := ⟨.hbm, 1881, rfl⟩
abbrev main_v935 : Ref sig .tc := ⟨.hbm, 1882, rfl⟩
abbrev main_v936 : Ref sig .tc := ⟨.hbm, 1883, rfl⟩
abbrev main_c_121 : Ref sig .tc := ⟨.hbm, 1884, rfl⟩
abbrev main_call71_v0 : Ref sig .tc := ⟨.hbm, 1885, rfl⟩
abbrev main_call71_v1 : Ref sig .tc := ⟨.hbm, 1886, rfl⟩
abbrev main_call71_v2 : Ref sig .tc := ⟨.hbm, 1887, rfl⟩
abbrev main_call71_v3 : Ref sig .tc := ⟨.hbm, 1888, rfl⟩
abbrev main_call71_v4 : Ref sig .tc := ⟨.hbm, 1889, rfl⟩
abbrev main_call71_v5 : Ref sig .tc := ⟨.hbm, 1890, rfl⟩
abbrev main_call71_v6 : Ref sig .tc := ⟨.hbm, 1891, rfl⟩
abbrev main_call71_v7 : Ref sig .tc := ⟨.hbm, 1892, rfl⟩
abbrev main_call71_v8 : Ref sig .tc := ⟨.hbm, 1893, rfl⟩
abbrev main_call71_c : Ref sig .tc := ⟨.hbm, 1894, rfl⟩
abbrev main_call71_v9 : Ref sig .tc := ⟨.hbm, 1895, rfl⟩
abbrev main_call71_v10 : Ref sig .tc := ⟨.hbm, 1896, rfl⟩
abbrev main_call71_v11 : Ref sig .tc := ⟨.hbm, 1897, rfl⟩
abbrev main_call71_c_0 : Ref sig .tc := ⟨.hbm, 1898, rfl⟩
abbrev main_call71_v12 : Ref sig .tc := ⟨.hbm, 1899, rfl⟩
abbrev main_call71_v13 : Ref sig .tc := ⟨.hbm, 1900, rfl⟩
abbrev main_v937 : Ref sig .tc := ⟨.hbm, 1901, rfl⟩
abbrev main_v938 : Ref sig .tc := ⟨.hbm, 1902, rfl⟩
abbrev main_v939 : Ref sig .tc := ⟨.hbm, 1903, rfl⟩
abbrev main_v940 : Ref sig .tc := ⟨.hbm, 1904, rfl⟩
abbrev main_v941 : Ref sig .tc := ⟨.hbm, 1905, rfl⟩
abbrev main_v942 : Ref sig .tc := ⟨.hbm, 1906, rfl⟩
abbrev main_v943 : Ref sig .tc := ⟨.hbm, 1907, rfl⟩
abbrev main_v944 : Ref sig .tc := ⟨.hbm, 1908, rfl⟩
abbrev main_v945 : Ref sig .tc := ⟨.hbm, 1909, rfl⟩
abbrev main_v946 : Ref sig .tc := ⟨.hbm, 1910, rfl⟩
abbrev main_v947 : Ref sig .tc := ⟨.hbm, 1911, rfl⟩
abbrev main_v948 : Ref sig .tc := ⟨.hbm, 1912, rfl⟩
abbrev main_v949 : Ref sig .tc := ⟨.hbm, 1913, rfl⟩
abbrev main_v950 : Ref sig .tc := ⟨.hbm, 1914, rfl⟩
abbrev main_v951 : Ref sig .tc := ⟨.hbm, 1915, rfl⟩
abbrev main_v952 : Ref sig .tc := ⟨.hbm, 1916, rfl⟩
abbrev main_v953 : Ref sig .tc := ⟨.hbm, 1917, rfl⟩
abbrev main_v954 : Ref sig .tc := ⟨.hbm, 1918, rfl⟩
abbrev main_v955 : Ref sig .tc := ⟨.hbm, 1919, rfl⟩
abbrev main_v956 : Ref sig .tc := ⟨.hbm, 1920, rfl⟩
abbrev main_v957 : Ref sig .tc := ⟨.hbm, 1921, rfl⟩
abbrev main_v958 : Ref sig .tc := ⟨.hbm, 1922, rfl⟩
abbrev main_v959 : Ref sig .tc := ⟨.hbm, 1923, rfl⟩
abbrev main_v960 : Ref sig .tc := ⟨.hbm, 1924, rfl⟩
abbrev main_v961 : Ref sig .tc := ⟨.hbm, 1925, rfl⟩
abbrev main_v962 : Ref sig .tc := ⟨.hbm, 1926, rfl⟩
abbrev main_v963 : Ref sig .tc := ⟨.hbm, 1927, rfl⟩
abbrev main_v964 : Ref sig .tc := ⟨.hbm, 1928, rfl⟩
abbrev main_v965 : Ref sig .tc := ⟨.hbm, 1929, rfl⟩
abbrev main_cst_122 : Ref sig .tc := ⟨.hbm, 1930, rfl⟩
abbrev main_call72_v0 : Ref sig .tc := ⟨.hbm, 1931, rfl⟩
abbrev main_call72_v1 : Ref sig .tc := ⟨.hbm, 1932, rfl⟩
abbrev main_call72_v2 : Ref sig .tc := ⟨.hbm, 1933, rfl⟩
abbrev main_v966 : Ref sig .tc := ⟨.hbm, 1934, rfl⟩
abbrev main_cst_123 : Ref sig .tc := ⟨.hbm, 1935, rfl⟩
abbrev main_v967 : Ref sig .tc := ⟨.hbm, 1936, rfl⟩
abbrev main_v968 : Ref sig .tc := ⟨.hbm, 1937, rfl⟩
abbrev main_v969 : Ref sig .tc := ⟨.hbm, 1938, rfl⟩
abbrev main_cst_124 : Ref sig .tc := ⟨.hbm, 1939, rfl⟩
abbrev main_call73_v0 : Ref sig .tc := ⟨.hbm, 1940, rfl⟩
abbrev main_call73_v1 : Ref sig .tc := ⟨.hbm, 1941, rfl⟩
abbrev main_call73_v2 : Ref sig .tc := ⟨.hbm, 1942, rfl⟩
abbrev main_v970 : Ref sig .tc := ⟨.hbm, 1943, rfl⟩
abbrev main_cst_125 : Ref sig .tc := ⟨.hbm, 1944, rfl⟩
abbrev main_v971 : Ref sig .tc := ⟨.hbm, 1945, rfl⟩
abbrev main_v972 : Ref sig .tc := ⟨.hbm, 1946, rfl⟩
abbrev main_v973 : Ref sig .tc := ⟨.hbm, 1947, rfl⟩
abbrev main_v974 : Ref sig .tc := ⟨.hbm, 1948, rfl⟩
abbrev main_v975 : Ref sig .tc := ⟨.hbm, 1949, rfl⟩
abbrev main_v976 : Ref sig .tc := ⟨.hbm, 1950, rfl⟩
abbrev main_v977 : Ref sig .tc := ⟨.hbm, 1951, rfl⟩
abbrev main_v978 : Ref sig .tc := ⟨.hbm, 1952, rfl⟩
abbrev main_v979 : Ref sig .tc := ⟨.hbm, 1953, rfl⟩
abbrev main_v980 : Ref sig .tc := ⟨.hbm, 1954, rfl⟩
abbrev main_v981 : Ref sig .tc := ⟨.hbm, 1955, rfl⟩
abbrev main_v982 : Ref sig .tc := ⟨.hbm, 1956, rfl⟩
abbrev main_v983 : Ref sig .tc := ⟨.hbm, 1957, rfl⟩
abbrev main_v984 : Ref sig .tc := ⟨.hbm, 1958, rfl⟩
abbrev main_v985 : Ref sig .tc := ⟨.hbm, 1959, rfl⟩
abbrev main_v986 : Ref sig .tc := ⟨.hbm, 1960, rfl⟩
abbrev main_v987 : Ref sig .tc := ⟨.hbm, 1961, rfl⟩
abbrev main_v988 : Ref sig .tc := ⟨.hbm, 1962, rfl⟩
abbrev main_v989 : Ref sig .tc := ⟨.hbm, 1963, rfl⟩
abbrev main_v990 : Ref sig .tc := ⟨.hbm, 1964, rfl⟩
abbrev main_v991 : Ref sig .tc := ⟨.hbm, 1965, rfl⟩
abbrev main_v992 : Ref sig .tc := ⟨.hbm, 1966, rfl⟩
abbrev main_v993 : Ref sig .tc := ⟨.hbm, 1967, rfl⟩
abbrev main_v994 : Ref sig .tc := ⟨.hbm, 1968, rfl⟩
abbrev main_v995 : Ref sig .tc := ⟨.hbm, 1969, rfl⟩
abbrev main_v996 : Ref sig .tc := ⟨.hbm, 1970, rfl⟩
abbrev main_v997 : Ref sig .tc := ⟨.hbm, 1971, rfl⟩
abbrev main_v998 : Ref sig .tc := ⟨.hbm, 1972, rfl⟩
abbrev main_v999 : Ref sig .tc := ⟨.hbm, 1973, rfl⟩
abbrev main_c_126 : Ref sig .tc := ⟨.hbm, 1974, rfl⟩
abbrev main_call74_v0 : Ref sig .tc := ⟨.hbm, 1975, rfl⟩
abbrev main_call74_v1 : Ref sig .tc := ⟨.hbm, 1976, rfl⟩
abbrev main_call74_v2 : Ref sig .tc := ⟨.hbm, 1977, rfl⟩
abbrev main_call74_v3 : Ref sig .tc := ⟨.hbm, 1978, rfl⟩
abbrev main_call74_v4 : Ref sig .tc := ⟨.hbm, 1979, rfl⟩
abbrev main_call74_v5 : Ref sig .tc := ⟨.hbm, 1980, rfl⟩
abbrev main_call74_v6 : Ref sig .tc := ⟨.hbm, 1981, rfl⟩
abbrev main_call74_v7 : Ref sig .tc := ⟨.hbm, 1982, rfl⟩
abbrev main_call74_v8 : Ref sig .tc := ⟨.hbm, 1983, rfl⟩
abbrev main_call74_c : Ref sig .tc := ⟨.hbm, 1984, rfl⟩
abbrev main_call74_v9 : Ref sig .tc := ⟨.hbm, 1985, rfl⟩
abbrev main_call74_v10 : Ref sig .tc := ⟨.hbm, 1986, rfl⟩
abbrev main_call74_v11 : Ref sig .tc := ⟨.hbm, 1987, rfl⟩
abbrev main_call74_c_0 : Ref sig .tc := ⟨.hbm, 1988, rfl⟩
abbrev main_call74_v12 : Ref sig .tc := ⟨.hbm, 1989, rfl⟩
abbrev main_call74_v13 : Ref sig .tc := ⟨.hbm, 1990, rfl⟩
abbrev main_v1000 : Ref sig .tc := ⟨.hbm, 1991, rfl⟩
abbrev main_v1001 : Ref sig .tc := ⟨.hbm, 1992, rfl⟩
abbrev main_v1002 : Ref sig .tc := ⟨.hbm, 1993, rfl⟩
abbrev main_c_127 : Ref sig .tc := ⟨.hbm, 1994, rfl⟩
abbrev main_v1003 : Ref sig .tc := ⟨.hbm, 1995, rfl⟩
abbrev main_v1004 : Ref sig .tc := ⟨.hbm, 1996, rfl⟩
abbrev main_v1005 : Ref sig .tc := ⟨.hbm, 1997, rfl⟩
abbrev main_v1006 : Ref sig .tc := ⟨.hbm, 1998, rfl⟩
abbrev main_v1007 : Ref sig .tc := ⟨.hbm, 1999, rfl⟩
abbrev main_c_128 : Ref sig .tc := ⟨.hbm, 2000, rfl⟩
abbrev main_call75_v0 : Ref sig .tc := ⟨.hbm, 2001, rfl⟩
abbrev main_call75_v1 : Ref sig .tc := ⟨.hbm, 2002, rfl⟩
abbrev main_call75_v2 : Ref sig .tc := ⟨.hbm, 2003, rfl⟩
abbrev main_call75_v3 : Ref sig .tc := ⟨.hbm, 2004, rfl⟩
abbrev main_call75_v4 : Ref sig .tc := ⟨.hbm, 2005, rfl⟩
abbrev main_call75_v5 : Ref sig .tc := ⟨.hbm, 2006, rfl⟩
abbrev main_call75_v6 : Ref sig .tc := ⟨.hbm, 2007, rfl⟩
abbrev main_call75_v7 : Ref sig .tc := ⟨.hbm, 2008, rfl⟩
abbrev main_call75_v8 : Ref sig .tc := ⟨.hbm, 2009, rfl⟩
abbrev main_call75_c : Ref sig .tc := ⟨.hbm, 2010, rfl⟩
abbrev main_call75_v9 : Ref sig .tc := ⟨.hbm, 2011, rfl⟩
abbrev main_call75_v10 : Ref sig .tc := ⟨.hbm, 2012, rfl⟩
abbrev main_call75_v11 : Ref sig .tc := ⟨.hbm, 2013, rfl⟩
abbrev main_call75_c_0 : Ref sig .tc := ⟨.hbm, 2014, rfl⟩
abbrev main_call75_v12 : Ref sig .tc := ⟨.hbm, 2015, rfl⟩
abbrev main_call75_v13 : Ref sig .tc := ⟨.hbm, 2016, rfl⟩
abbrev main_v1008 : Ref sig .tc := ⟨.hbm, 2017, rfl⟩
abbrev main_v1009 : Ref sig .tc := ⟨.hbm, 2018, rfl⟩
abbrev main_v1010 : Ref sig .tc := ⟨.hbm, 2019, rfl⟩
abbrev main_v1011 : Ref sig .tc := ⟨.hbm, 2020, rfl⟩
abbrev main_v1012 : Ref sig .tc := ⟨.hbm, 2021, rfl⟩
abbrev main_c_129 : Ref sig .tc := ⟨.hbm, 2022, rfl⟩
abbrev main_call76_v0 : Ref sig .tc := ⟨.hbm, 2023, rfl⟩
abbrev main_call76_v1 : Ref sig .tc := ⟨.hbm, 2024, rfl⟩
abbrev main_call76_v2 : Ref sig .tc := ⟨.hbm, 2025, rfl⟩
abbrev main_call76_v3 : Ref sig .tc := ⟨.hbm, 2026, rfl⟩
abbrev main_call76_v4 : Ref sig .tc := ⟨.hbm, 2027, rfl⟩
abbrev main_call76_v5 : Ref sig .tc := ⟨.hbm, 2028, rfl⟩
abbrev main_call76_v6 : Ref sig .tc := ⟨.hbm, 2029, rfl⟩
abbrev main_call76_v7 : Ref sig .tc := ⟨.hbm, 2030, rfl⟩
abbrev main_call76_v8 : Ref sig .tc := ⟨.hbm, 2031, rfl⟩
abbrev main_call76_c : Ref sig .tc := ⟨.hbm, 2032, rfl⟩
abbrev main_call76_v9 : Ref sig .tc := ⟨.hbm, 2033, rfl⟩
abbrev main_call76_v10 : Ref sig .tc := ⟨.hbm, 2034, rfl⟩
abbrev main_call76_v11 : Ref sig .tc := ⟨.hbm, 2035, rfl⟩
abbrev main_call76_c_0 : Ref sig .tc := ⟨.hbm, 2036, rfl⟩
abbrev main_call76_v12 : Ref sig .tc := ⟨.hbm, 2037, rfl⟩
abbrev main_call76_v13 : Ref sig .tc := ⟨.hbm, 2038, rfl⟩
abbrev main_v1013 : Ref sig .tc := ⟨.hbm, 2039, rfl⟩
abbrev main_v1014 : Ref sig .tc := ⟨.hbm, 2040, rfl⟩
abbrev main_v1015 : Ref sig .tc := ⟨.hbm, 2041, rfl⟩
abbrev main_c_130 : Ref sig .tc := ⟨.hbm, 2042, rfl⟩
abbrev main_v1016 : Ref sig .tc := ⟨.hbm, 2043, rfl⟩
abbrev main_v1017 : Ref sig .tc := ⟨.hbm, 2044, rfl⟩
abbrev main_v1018 : Ref sig .tc := ⟨.hbm, 2045, rfl⟩
abbrev main_v1019 : Ref sig .tc := ⟨.hbm, 2046, rfl⟩
abbrev main_v1020 : Ref sig .tc := ⟨.hbm, 2047, rfl⟩
abbrev main_c_131 : Ref sig .tc := ⟨.hbm, 2048, rfl⟩
abbrev main_call77_v0 : Ref sig .tc := ⟨.hbm, 2049, rfl⟩
abbrev main_call77_v1 : Ref sig .tc := ⟨.hbm, 2050, rfl⟩
abbrev main_call77_v2 : Ref sig .tc := ⟨.hbm, 2051, rfl⟩
abbrev main_call77_v3 : Ref sig .tc := ⟨.hbm, 2052, rfl⟩
abbrev main_call77_v4 : Ref sig .tc := ⟨.hbm, 2053, rfl⟩
abbrev main_call77_v5 : Ref sig .tc := ⟨.hbm, 2054, rfl⟩
abbrev main_call77_v6 : Ref sig .tc := ⟨.hbm, 2055, rfl⟩
abbrev main_call77_v7 : Ref sig .tc := ⟨.hbm, 2056, rfl⟩
abbrev main_call77_v8 : Ref sig .tc := ⟨.hbm, 2057, rfl⟩
abbrev main_call77_c : Ref sig .tc := ⟨.hbm, 2058, rfl⟩
abbrev main_call77_v9 : Ref sig .tc := ⟨.hbm, 2059, rfl⟩
abbrev main_call77_v10 : Ref sig .tc := ⟨.hbm, 2060, rfl⟩
abbrev main_call77_v11 : Ref sig .tc := ⟨.hbm, 2061, rfl⟩
abbrev main_call77_c_0 : Ref sig .tc := ⟨.hbm, 2062, rfl⟩
abbrev main_call77_v12 : Ref sig .tc := ⟨.hbm, 2063, rfl⟩
abbrev main_call77_v13 : Ref sig .tc := ⟨.hbm, 2064, rfl⟩
abbrev main_v1021 : Ref sig .tc := ⟨.hbm, 2065, rfl⟩
abbrev main_v1022 : Ref sig .tc := ⟨.hbm, 2066, rfl⟩
abbrev main_v1023 : Ref sig .tc := ⟨.hbm, 2067, rfl⟩
abbrev main_v1024 : Ref sig .tc := ⟨.hbm, 2068, rfl⟩
abbrev main_v1025 : Ref sig .tc := ⟨.hbm, 2069, rfl⟩
abbrev main_v1026 : Ref sig .tc := ⟨.hbm, 2070, rfl⟩
abbrev main_v1027 : Ref sig .tc := ⟨.hbm, 2071, rfl⟩
abbrev main_v1028 : Ref sig .tc := ⟨.hbm, 2072, rfl⟩
abbrev main_v1029 : Ref sig .tc := ⟨.hbm, 2073, rfl⟩
abbrev main_v1030 : Ref sig .tc := ⟨.hbm, 2074, rfl⟩
abbrev main_v1031 : Ref sig .tc := ⟨.hbm, 2075, rfl⟩
abbrev main_v1032 : Ref sig .tc := ⟨.hbm, 2076, rfl⟩
abbrev main_v1033 : Ref sig .tc := ⟨.hbm, 2077, rfl⟩
abbrev main_v1034 : Ref sig .tc := ⟨.hbm, 2078, rfl⟩
abbrev main_v1035 : Ref sig .tc := ⟨.hbm, 2079, rfl⟩
abbrev main_v1036 : Ref sig .tc := ⟨.hbm, 2080, rfl⟩
abbrev main_v1037 : Ref sig .tc := ⟨.hbm, 2081, rfl⟩
abbrev main_v1038 : Ref sig .tc := ⟨.hbm, 2082, rfl⟩
abbrev main_v1039 : Ref sig .tc := ⟨.hbm, 2083, rfl⟩
abbrev main_v1040 : Ref sig .tc := ⟨.hbm, 2084, rfl⟩
abbrev main_v1041 : Ref sig .tc := ⟨.hbm, 2085, rfl⟩
abbrev main_v1042 : Ref sig .tc := ⟨.hbm, 2086, rfl⟩
abbrev main_v1043 : Ref sig .tc := ⟨.hbm, 2087, rfl⟩
abbrev main_v1044 : Ref sig .tc := ⟨.hbm, 2088, rfl⟩
abbrev main_v1045 : Ref sig .tc := ⟨.hbm, 2089, rfl⟩
abbrev main_v1046 : Ref sig .tc := ⟨.hbm, 2090, rfl⟩
abbrev main_v1047 : Ref sig .tc := ⟨.hbm, 2091, rfl⟩
abbrev main_v1048 : Ref sig .tc := ⟨.hbm, 2092, rfl⟩
abbrev main_v1049 : Ref sig .tc := ⟨.hbm, 2093, rfl⟩
abbrev main_cst_132 : Ref sig .tc := ⟨.hbm, 2094, rfl⟩
abbrev main_call78_v0 : Ref sig .tc := ⟨.hbm, 2095, rfl⟩
abbrev main_call78_v1 : Ref sig .tc := ⟨.hbm, 2096, rfl⟩
abbrev main_call78_v2 : Ref sig .tc := ⟨.hbm, 2097, rfl⟩
abbrev main_v1050 : Ref sig .tc := ⟨.hbm, 2098, rfl⟩
abbrev main_cst_133 : Ref sig .tc := ⟨.hbm, 2099, rfl⟩
abbrev main_v1051 : Ref sig .tc := ⟨.hbm, 2100, rfl⟩
abbrev main_v1052 : Ref sig .tc := ⟨.hbm, 2101, rfl⟩
abbrev main_v1053 : Ref sig .tc := ⟨.hbm, 2102, rfl⟩
abbrev main_cst_134 : Ref sig .tc := ⟨.hbm, 2103, rfl⟩
abbrev main_call79_v0 : Ref sig .tc := ⟨.hbm, 2104, rfl⟩
abbrev main_call79_v1 : Ref sig .tc := ⟨.hbm, 2105, rfl⟩
abbrev main_call79_v2 : Ref sig .tc := ⟨.hbm, 2106, rfl⟩
abbrev main_v1054 : Ref sig .tc := ⟨.hbm, 2107, rfl⟩
abbrev main_cst_135 : Ref sig .tc := ⟨.hbm, 2108, rfl⟩
abbrev main_v1055 : Ref sig .tc := ⟨.hbm, 2109, rfl⟩
abbrev main_v1056 : Ref sig .tc := ⟨.hbm, 2110, rfl⟩
abbrev main_v1057 : Ref sig .tc := ⟨.hbm, 2111, rfl⟩
abbrev main_v1058 : Ref sig .tc := ⟨.hbm, 2112, rfl⟩
abbrev main_v1059 : Ref sig .tc := ⟨.hbm, 2113, rfl⟩
abbrev main_v1060 : Ref sig .tc := ⟨.hbm, 2114, rfl⟩
abbrev main_v1061 : Ref sig .tc := ⟨.hbm, 2115, rfl⟩
abbrev main_v1062 : Ref sig .tc := ⟨.hbm, 2116, rfl⟩
abbrev main_v1063 : Ref sig .tc := ⟨.hbm, 2117, rfl⟩
abbrev main_v1064 : Ref sig .tc := ⟨.hbm, 2118, rfl⟩
abbrev main_v1065 : Ref sig .tc := ⟨.hbm, 2119, rfl⟩
abbrev main_v1066 : Ref sig .tc := ⟨.hbm, 2120, rfl⟩
abbrev main_v1067 : Ref sig .tc := ⟨.hbm, 2121, rfl⟩
abbrev main_v1068 : Ref sig .tc := ⟨.hbm, 2122, rfl⟩
abbrev main_v1069 : Ref sig .tc := ⟨.hbm, 2123, rfl⟩
abbrev main_v1070 : Ref sig .tc := ⟨.hbm, 2124, rfl⟩
abbrev main_v1071 : Ref sig .tc := ⟨.hbm, 2125, rfl⟩
abbrev main_v1072 : Ref sig .tc := ⟨.hbm, 2126, rfl⟩
abbrev main_v1073 : Ref sig .tc := ⟨.hbm, 2127, rfl⟩
abbrev main_v1074 : Ref sig .tc := ⟨.hbm, 2128, rfl⟩
abbrev main_v1075 : Ref sig .tc := ⟨.hbm, 2129, rfl⟩
abbrev main_v1076 : Ref sig .tc := ⟨.hbm, 2130, rfl⟩
abbrev main_v1077 : Ref sig .tc := ⟨.hbm, 2131, rfl⟩
abbrev main_v1078 : Ref sig .tc := ⟨.hbm, 2132, rfl⟩
abbrev main_v1079 : Ref sig .tc := ⟨.hbm, 2133, rfl⟩
abbrev main_v1080 : Ref sig .tc := ⟨.hbm, 2134, rfl⟩
abbrev main_v1081 : Ref sig .tc := ⟨.hbm, 2135, rfl⟩
abbrev main_v1082 : Ref sig .tc := ⟨.hbm, 2136, rfl⟩
abbrev main_v1083 : Ref sig .tc := ⟨.hbm, 2137, rfl⟩
abbrev main_c_136 : Ref sig .tc := ⟨.hbm, 2138, rfl⟩
abbrev main_call80_v0 : Ref sig .tc := ⟨.hbm, 2139, rfl⟩
abbrev main_call80_v1 : Ref sig .tc := ⟨.hbm, 2140, rfl⟩
abbrev main_call80_v2 : Ref sig .tc := ⟨.hbm, 2141, rfl⟩
abbrev main_call80_v3 : Ref sig .tc := ⟨.hbm, 2142, rfl⟩
abbrev main_call80_v4 : Ref sig .tc := ⟨.hbm, 2143, rfl⟩
abbrev main_call80_v5 : Ref sig .tc := ⟨.hbm, 2144, rfl⟩
abbrev main_call80_v6 : Ref sig .tc := ⟨.hbm, 2145, rfl⟩
abbrev main_call80_v7 : Ref sig .tc := ⟨.hbm, 2146, rfl⟩
abbrev main_call80_v8 : Ref sig .tc := ⟨.hbm, 2147, rfl⟩
abbrev main_call80_c : Ref sig .tc := ⟨.hbm, 2148, rfl⟩
abbrev main_call80_v9 : Ref sig .tc := ⟨.hbm, 2149, rfl⟩
abbrev main_call80_v10 : Ref sig .tc := ⟨.hbm, 2150, rfl⟩
abbrev main_call80_v11 : Ref sig .tc := ⟨.hbm, 2151, rfl⟩
abbrev main_call80_c_0 : Ref sig .tc := ⟨.hbm, 2152, rfl⟩
abbrev main_call80_v12 : Ref sig .tc := ⟨.hbm, 2153, rfl⟩
abbrev main_call80_v13 : Ref sig .tc := ⟨.hbm, 2154, rfl⟩
abbrev main_v1084 : Ref sig .tc := ⟨.hbm, 2155, rfl⟩
abbrev main_v1085 : Ref sig .tc := ⟨.hbm, 2156, rfl⟩
abbrev main_v1086 : Ref sig .tc := ⟨.hbm, 2157, rfl⟩
abbrev main_c_137 : Ref sig .tc := ⟨.hbm, 2158, rfl⟩
abbrev main_v1087 : Ref sig .tc := ⟨.hbm, 2159, rfl⟩
abbrev main_v1088 : Ref sig .tc := ⟨.hbm, 2160, rfl⟩
abbrev main_v1089 : Ref sig .tc := ⟨.hbm, 2161, rfl⟩
abbrev main_v1090 : Ref sig .tc := ⟨.hbm, 2162, rfl⟩
abbrev main_v1091 : Ref sig .tc := ⟨.hbm, 2163, rfl⟩
abbrev main_c_138 : Ref sig .tc := ⟨.hbm, 2164, rfl⟩
abbrev main_call81_v0 : Ref sig .tc := ⟨.hbm, 2165, rfl⟩
abbrev main_call81_v1 : Ref sig .tc := ⟨.hbm, 2166, rfl⟩
abbrev main_call81_v2 : Ref sig .tc := ⟨.hbm, 2167, rfl⟩
abbrev main_call81_v3 : Ref sig .tc := ⟨.hbm, 2168, rfl⟩
abbrev main_call81_v4 : Ref sig .tc := ⟨.hbm, 2169, rfl⟩
abbrev main_call81_v5 : Ref sig .tc := ⟨.hbm, 2170, rfl⟩
abbrev main_call81_v6 : Ref sig .tc := ⟨.hbm, 2171, rfl⟩
abbrev main_call81_v7 : Ref sig .tc := ⟨.hbm, 2172, rfl⟩
abbrev main_call81_v8 : Ref sig .tc := ⟨.hbm, 2173, rfl⟩
abbrev main_call81_c : Ref sig .tc := ⟨.hbm, 2174, rfl⟩
abbrev main_call81_v9 : Ref sig .tc := ⟨.hbm, 2175, rfl⟩
abbrev main_call81_v10 : Ref sig .tc := ⟨.hbm, 2176, rfl⟩
abbrev main_call81_v11 : Ref sig .tc := ⟨.hbm, 2177, rfl⟩
abbrev main_call81_c_0 : Ref sig .tc := ⟨.hbm, 2178, rfl⟩
abbrev main_call81_v12 : Ref sig .tc := ⟨.hbm, 2179, rfl⟩
abbrev main_call81_v13 : Ref sig .tc := ⟨.hbm, 2180, rfl⟩
abbrev main_v1092 : Ref sig .tc := ⟨.hbm, 2181, rfl⟩
abbrev main_v1093 : Ref sig .tc := ⟨.hbm, 2182, rfl⟩
abbrev main_v1094 : Ref sig .tc := ⟨.hbm, 2183, rfl⟩
abbrev main_v1095 : Ref sig .tc := ⟨.hbm, 2184, rfl⟩
abbrev main_v1096 : Ref sig .tc := ⟨.hbm, 2185, rfl⟩
abbrev main_c_139 : Ref sig .tc := ⟨.hbm, 2186, rfl⟩
abbrev main_call82_v0 : Ref sig .tc := ⟨.hbm, 2187, rfl⟩
abbrev main_call82_v1 : Ref sig .tc := ⟨.hbm, 2188, rfl⟩
abbrev main_call82_v2 : Ref sig .tc := ⟨.hbm, 2189, rfl⟩
abbrev main_call82_v3 : Ref sig .tc := ⟨.hbm, 2190, rfl⟩
abbrev main_call82_v4 : Ref sig .tc := ⟨.hbm, 2191, rfl⟩
abbrev main_call82_v5 : Ref sig .tc := ⟨.hbm, 2192, rfl⟩
abbrev main_call82_v6 : Ref sig .tc := ⟨.hbm, 2193, rfl⟩
abbrev main_call82_v7 : Ref sig .tc := ⟨.hbm, 2194, rfl⟩
abbrev main_call82_v8 : Ref sig .tc := ⟨.hbm, 2195, rfl⟩
abbrev main_call82_c : Ref sig .tc := ⟨.hbm, 2196, rfl⟩
abbrev main_call82_v9 : Ref sig .tc := ⟨.hbm, 2197, rfl⟩
abbrev main_call82_v10 : Ref sig .tc := ⟨.hbm, 2198, rfl⟩
abbrev main_call82_v11 : Ref sig .tc := ⟨.hbm, 2199, rfl⟩
abbrev main_call82_c_0 : Ref sig .tc := ⟨.hbm, 2200, rfl⟩
abbrev main_call82_v12 : Ref sig .tc := ⟨.hbm, 2201, rfl⟩
abbrev main_call82_v13 : Ref sig .tc := ⟨.hbm, 2202, rfl⟩
abbrev main_v1097 : Ref sig .tc := ⟨.hbm, 2203, rfl⟩
abbrev main_v1098 : Ref sig .tc := ⟨.hbm, 2204, rfl⟩
abbrev main_v1099 : Ref sig .tc := ⟨.hbm, 2205, rfl⟩
abbrev main_c_140 : Ref sig .tc := ⟨.hbm, 2206, rfl⟩
abbrev main_v1100 : Ref sig .tc := ⟨.hbm, 2207, rfl⟩
abbrev main_v1101 : Ref sig .tc := ⟨.hbm, 2208, rfl⟩
abbrev main_v1102 : Ref sig .tc := ⟨.hbm, 2209, rfl⟩
abbrev main_v1103 : Ref sig .tc := ⟨.hbm, 2210, rfl⟩
abbrev main_v1104 : Ref sig .tc := ⟨.hbm, 2211, rfl⟩
abbrev main_c_141 : Ref sig .tc := ⟨.hbm, 2212, rfl⟩
abbrev main_call83_v0 : Ref sig .tc := ⟨.hbm, 2213, rfl⟩
abbrev main_call83_v1 : Ref sig .tc := ⟨.hbm, 2214, rfl⟩
abbrev main_call83_v2 : Ref sig .tc := ⟨.hbm, 2215, rfl⟩
abbrev main_call83_v3 : Ref sig .tc := ⟨.hbm, 2216, rfl⟩
abbrev main_call83_v4 : Ref sig .tc := ⟨.hbm, 2217, rfl⟩
abbrev main_call83_v5 : Ref sig .tc := ⟨.hbm, 2218, rfl⟩
abbrev main_call83_v6 : Ref sig .tc := ⟨.hbm, 2219, rfl⟩
abbrev main_call83_v7 : Ref sig .tc := ⟨.hbm, 2220, rfl⟩
abbrev main_call83_v8 : Ref sig .tc := ⟨.hbm, 2221, rfl⟩
abbrev main_call83_c : Ref sig .tc := ⟨.hbm, 2222, rfl⟩
abbrev main_call83_v9 : Ref sig .tc := ⟨.hbm, 2223, rfl⟩
abbrev main_call83_v10 : Ref sig .tc := ⟨.hbm, 2224, rfl⟩
abbrev main_call83_v11 : Ref sig .tc := ⟨.hbm, 2225, rfl⟩
abbrev main_call83_c_0 : Ref sig .tc := ⟨.hbm, 2226, rfl⟩
abbrev main_call83_v12 : Ref sig .tc := ⟨.hbm, 2227, rfl⟩
abbrev main_call83_v13 : Ref sig .tc := ⟨.hbm, 2228, rfl⟩
abbrev main_v1105 : Ref sig .tc := ⟨.hbm, 2229, rfl⟩
abbrev main_v1106 : Ref sig .tc := ⟨.hbm, 2230, rfl⟩
abbrev main_v1107 : Ref sig .tc := ⟨.hbm, 2231, rfl⟩
abbrev main_v1108 : Ref sig .tc := ⟨.hbm, 2232, rfl⟩
abbrev main_v1109 : Ref sig .tc := ⟨.hbm, 2233, rfl⟩
abbrev main_v1110 : Ref sig .tc := ⟨.hbm, 2234, rfl⟩
abbrev main_v1111 : Ref sig .tc := ⟨.hbm, 2235, rfl⟩
abbrev main_v1112 : Ref sig .tc := ⟨.hbm, 2236, rfl⟩
abbrev main_v1113 : Ref sig .tc := ⟨.hbm, 2237, rfl⟩
abbrev main_v1114 : Ref sig .tc := ⟨.hbm, 2238, rfl⟩
abbrev main_v1115 : Ref sig .tc := ⟨.hbm, 2239, rfl⟩
abbrev main_v1116 : Ref sig .tc := ⟨.hbm, 2240, rfl⟩
abbrev main_v1117 : Ref sig .tc := ⟨.hbm, 2241, rfl⟩
abbrev main_v1118 : Ref sig .tc := ⟨.hbm, 2242, rfl⟩
abbrev main_v1119 : Ref sig .tc := ⟨.hbm, 2243, rfl⟩
abbrev main_v1120 : Ref sig .tc := ⟨.hbm, 2244, rfl⟩
abbrev main_v1121 : Ref sig .tc := ⟨.hbm, 2245, rfl⟩
abbrev main_v1122 : Ref sig .tc := ⟨.hbm, 2246, rfl⟩
abbrev main_v1123 : Ref sig .tc := ⟨.hbm, 2247, rfl⟩
abbrev main_v1124 : Ref sig .tc := ⟨.hbm, 2248, rfl⟩
abbrev main_v1125 : Ref sig .tc := ⟨.hbm, 2249, rfl⟩
abbrev main_v1126 : Ref sig .tc := ⟨.hbm, 2250, rfl⟩
abbrev main_v1127 : Ref sig .tc := ⟨.hbm, 2251, rfl⟩
abbrev main_v1128 : Ref sig .tc := ⟨.hbm, 2252, rfl⟩
abbrev main_v1129 : Ref sig .tc := ⟨.hbm, 2253, rfl⟩
abbrev main_v1130 : Ref sig .tc := ⟨.hbm, 2254, rfl⟩
abbrev main_v1131 : Ref sig .tc := ⟨.hbm, 2255, rfl⟩
abbrev main_v1132 : Ref sig .tc := ⟨.hbm, 2256, rfl⟩
abbrev main_v1133 : Ref sig .tc := ⟨.hbm, 2257, rfl⟩
abbrev main_cst_142 : Ref sig .tc := ⟨.hbm, 2258, rfl⟩
abbrev main_call84_v0 : Ref sig .tc := ⟨.hbm, 2259, rfl⟩
abbrev main_call84_v1 : Ref sig .tc := ⟨.hbm, 2260, rfl⟩
abbrev main_call84_v2 : Ref sig .tc := ⟨.hbm, 2261, rfl⟩
abbrev main_v1134 : Ref sig .tc := ⟨.hbm, 2262, rfl⟩
abbrev main_cst_143 : Ref sig .tc := ⟨.hbm, 2263, rfl⟩
abbrev main_v1135 : Ref sig .tc := ⟨.hbm, 2264, rfl⟩
abbrev main_v1136 : Ref sig .tc := ⟨.hbm, 2265, rfl⟩
abbrev main_v1137 : Ref sig .tc := ⟨.hbm, 2266, rfl⟩
abbrev main_cst_144 : Ref sig .tc := ⟨.hbm, 2267, rfl⟩
abbrev main_call85_v0 : Ref sig .tc := ⟨.hbm, 2268, rfl⟩
abbrev main_call85_v1 : Ref sig .tc := ⟨.hbm, 2269, rfl⟩
abbrev main_call85_v2 : Ref sig .tc := ⟨.hbm, 2270, rfl⟩
abbrev main_v1138 : Ref sig .tc := ⟨.hbm, 2271, rfl⟩
abbrev main_cst_145 : Ref sig .tc := ⟨.hbm, 2272, rfl⟩
abbrev main_v1139 : Ref sig .tc := ⟨.hbm, 2273, rfl⟩
abbrev main_v1140 : Ref sig .tc := ⟨.hbm, 2274, rfl⟩
abbrev main_v1141 : Ref sig .tc := ⟨.hbm, 2275, rfl⟩
abbrev main_v1142 : Ref sig .tc := ⟨.hbm, 2276, rfl⟩
abbrev main_v1143 : Ref sig .tc := ⟨.hbm, 2277, rfl⟩
abbrev main_v1144 : Ref sig .tc := ⟨.hbm, 2278, rfl⟩
abbrev main_v1145 : Ref sig .tc := ⟨.hbm, 2279, rfl⟩
abbrev main_v1146 : Ref sig .tc := ⟨.hbm, 2280, rfl⟩
abbrev main_v1147 : Ref sig .tc := ⟨.hbm, 2281, rfl⟩
abbrev main_v1148 : Ref sig .tc := ⟨.hbm, 2282, rfl⟩
abbrev main_v1149 : Ref sig .tc := ⟨.hbm, 2283, rfl⟩
abbrev main_v1150 : Ref sig .tc := ⟨.hbm, 2284, rfl⟩
abbrev main_v1151 : Ref sig .tc := ⟨.hbm, 2285, rfl⟩
abbrev main_v1152 : Ref sig .tc := ⟨.hbm, 2286, rfl⟩
abbrev main_v1153 : Ref sig .tc := ⟨.hbm, 2287, rfl⟩
abbrev main_v1154 : Ref sig .tc := ⟨.hbm, 2288, rfl⟩
abbrev main_v1155 : Ref sig .tc := ⟨.hbm, 2289, rfl⟩
abbrev main_v1156 : Ref sig .tc := ⟨.hbm, 2290, rfl⟩
abbrev main_v1157 : Ref sig .tc := ⟨.hbm, 2291, rfl⟩
abbrev main_v1158 : Ref sig .tc := ⟨.hbm, 2292, rfl⟩
abbrev main_v1159 : Ref sig .tc := ⟨.hbm, 2293, rfl⟩
abbrev main_v1160 : Ref sig .tc := ⟨.hbm, 2294, rfl⟩
abbrev main_v1161 : Ref sig .tc := ⟨.hbm, 2295, rfl⟩
abbrev main_v1162 : Ref sig .tc := ⟨.hbm, 2296, rfl⟩
abbrev main_v1163 : Ref sig .tc := ⟨.hbm, 2297, rfl⟩
abbrev main_v1164 : Ref sig .tc := ⟨.hbm, 2298, rfl⟩
abbrev main_v1165 : Ref sig .tc := ⟨.hbm, 2299, rfl⟩
abbrev main_v1166 : Ref sig .tc := ⟨.hbm, 2300, rfl⟩
abbrev main_v1167 : Ref sig .tc := ⟨.hbm, 2301, rfl⟩
abbrev main_c_146 : Ref sig .tc := ⟨.hbm, 2302, rfl⟩
abbrev main_call86_v0 : Ref sig .tc := ⟨.hbm, 2303, rfl⟩
abbrev main_call86_v1 : Ref sig .tc := ⟨.hbm, 2304, rfl⟩
abbrev main_call86_v2 : Ref sig .tc := ⟨.hbm, 2305, rfl⟩
abbrev main_call86_v3 : Ref sig .tc := ⟨.hbm, 2306, rfl⟩
abbrev main_call86_v4 : Ref sig .tc := ⟨.hbm, 2307, rfl⟩
abbrev main_call86_v5 : Ref sig .tc := ⟨.hbm, 2308, rfl⟩
abbrev main_call86_v6 : Ref sig .tc := ⟨.hbm, 2309, rfl⟩
abbrev main_call86_v7 : Ref sig .tc := ⟨.hbm, 2310, rfl⟩
abbrev main_call86_v8 : Ref sig .tc := ⟨.hbm, 2311, rfl⟩
abbrev main_call86_c : Ref sig .tc := ⟨.hbm, 2312, rfl⟩
abbrev main_call86_v9 : Ref sig .tc := ⟨.hbm, 2313, rfl⟩
abbrev main_call86_v10 : Ref sig .tc := ⟨.hbm, 2314, rfl⟩
abbrev main_call86_v11 : Ref sig .tc := ⟨.hbm, 2315, rfl⟩
abbrev main_call86_c_0 : Ref sig .tc := ⟨.hbm, 2316, rfl⟩
abbrev main_call86_v12 : Ref sig .tc := ⟨.hbm, 2317, rfl⟩
abbrev main_call86_v13 : Ref sig .tc := ⟨.hbm, 2318, rfl⟩
abbrev main_v1168 : Ref sig .tc := ⟨.hbm, 2319, rfl⟩
abbrev main_v1169 : Ref sig .tc := ⟨.hbm, 2320, rfl⟩
abbrev main_v1170 : Ref sig .tc := ⟨.hbm, 2321, rfl⟩
abbrev main_c_147 : Ref sig .tc := ⟨.hbm, 2322, rfl⟩
abbrev main_v1171 : Ref sig .tc := ⟨.hbm, 2323, rfl⟩
abbrev main_v1172 : Ref sig .tc := ⟨.hbm, 2324, rfl⟩
abbrev main_v1173 : Ref sig .tc := ⟨.hbm, 2325, rfl⟩
abbrev main_v1174 : Ref sig .tc := ⟨.hbm, 2326, rfl⟩
abbrev main_v1175 : Ref sig .tc := ⟨.hbm, 2327, rfl⟩
abbrev main_c_148 : Ref sig .tc := ⟨.hbm, 2328, rfl⟩
abbrev main_call87_v0 : Ref sig .tc := ⟨.hbm, 2329, rfl⟩
abbrev main_call87_v1 : Ref sig .tc := ⟨.hbm, 2330, rfl⟩
abbrev main_call87_v2 : Ref sig .tc := ⟨.hbm, 2331, rfl⟩
abbrev main_call87_v3 : Ref sig .tc := ⟨.hbm, 2332, rfl⟩
abbrev main_call87_v4 : Ref sig .tc := ⟨.hbm, 2333, rfl⟩
abbrev main_call87_v5 : Ref sig .tc := ⟨.hbm, 2334, rfl⟩
abbrev main_call87_v6 : Ref sig .tc := ⟨.hbm, 2335, rfl⟩
abbrev main_call87_v7 : Ref sig .tc := ⟨.hbm, 2336, rfl⟩
abbrev main_call87_v8 : Ref sig .tc := ⟨.hbm, 2337, rfl⟩
abbrev main_call87_c : Ref sig .tc := ⟨.hbm, 2338, rfl⟩
abbrev main_call87_v9 : Ref sig .tc := ⟨.hbm, 2339, rfl⟩
abbrev main_call87_v10 : Ref sig .tc := ⟨.hbm, 2340, rfl⟩
abbrev main_call87_v11 : Ref sig .tc := ⟨.hbm, 2341, rfl⟩
abbrev main_call87_c_0 : Ref sig .tc := ⟨.hbm, 2342, rfl⟩
abbrev main_call87_v12 : Ref sig .tc := ⟨.hbm, 2343, rfl⟩
abbrev main_call87_v13 : Ref sig .tc := ⟨.hbm, 2344, rfl⟩
abbrev main_v1176 : Ref sig .tc := ⟨.hbm, 2345, rfl⟩
abbrev main_v1177 : Ref sig .tc := ⟨.hbm, 2346, rfl⟩
abbrev main_v1178 : Ref sig .tc := ⟨.hbm, 2347, rfl⟩
abbrev main_v1179 : Ref sig .tc := ⟨.hbm, 2348, rfl⟩
abbrev main_v1180 : Ref sig .tc := ⟨.hbm, 2349, rfl⟩
abbrev main_c_149 : Ref sig .tc := ⟨.hbm, 2350, rfl⟩
abbrev main_call88_v0 : Ref sig .tc := ⟨.hbm, 2351, rfl⟩
abbrev main_call88_v1 : Ref sig .tc := ⟨.hbm, 2352, rfl⟩
abbrev main_call88_v2 : Ref sig .tc := ⟨.hbm, 2353, rfl⟩
abbrev main_call88_v3 : Ref sig .tc := ⟨.hbm, 2354, rfl⟩
abbrev main_call88_v4 : Ref sig .tc := ⟨.hbm, 2355, rfl⟩
abbrev main_call88_v5 : Ref sig .tc := ⟨.hbm, 2356, rfl⟩
abbrev main_call88_v6 : Ref sig .tc := ⟨.hbm, 2357, rfl⟩
abbrev main_call88_v7 : Ref sig .tc := ⟨.hbm, 2358, rfl⟩
abbrev main_call88_v8 : Ref sig .tc := ⟨.hbm, 2359, rfl⟩
abbrev main_call88_c : Ref sig .tc := ⟨.hbm, 2360, rfl⟩
abbrev main_call88_v9 : Ref sig .tc := ⟨.hbm, 2361, rfl⟩
abbrev main_call88_v10 : Ref sig .tc := ⟨.hbm, 2362, rfl⟩
abbrev main_call88_v11 : Ref sig .tc := ⟨.hbm, 2363, rfl⟩
abbrev main_call88_c_0 : Ref sig .tc := ⟨.hbm, 2364, rfl⟩
abbrev main_call88_v12 : Ref sig .tc := ⟨.hbm, 2365, rfl⟩
abbrev main_call88_v13 : Ref sig .tc := ⟨.hbm, 2366, rfl⟩
abbrev main_v1181 : Ref sig .tc := ⟨.hbm, 2367, rfl⟩
abbrev main_v1182 : Ref sig .tc := ⟨.hbm, 2368, rfl⟩
abbrev main_v1183 : Ref sig .tc := ⟨.hbm, 2369, rfl⟩
abbrev main_c_150 : Ref sig .tc := ⟨.hbm, 2370, rfl⟩
abbrev main_v1184 : Ref sig .tc := ⟨.hbm, 2371, rfl⟩
abbrev main_v1185 : Ref sig .tc := ⟨.hbm, 2372, rfl⟩
abbrev main_v1186 : Ref sig .tc := ⟨.hbm, 2373, rfl⟩
abbrev main_v1187 : Ref sig .tc := ⟨.hbm, 2374, rfl⟩
abbrev main_v1188 : Ref sig .tc := ⟨.hbm, 2375, rfl⟩
abbrev main_c_151 : Ref sig .tc := ⟨.hbm, 2376, rfl⟩
abbrev main_call89_v0 : Ref sig .tc := ⟨.hbm, 2377, rfl⟩
abbrev main_call89_v1 : Ref sig .tc := ⟨.hbm, 2378, rfl⟩
abbrev main_call89_v2 : Ref sig .tc := ⟨.hbm, 2379, rfl⟩
abbrev main_call89_v3 : Ref sig .tc := ⟨.hbm, 2380, rfl⟩
abbrev main_call89_v4 : Ref sig .tc := ⟨.hbm, 2381, rfl⟩
abbrev main_call89_v5 : Ref sig .tc := ⟨.hbm, 2382, rfl⟩
abbrev main_call89_v6 : Ref sig .tc := ⟨.hbm, 2383, rfl⟩
abbrev main_call89_v7 : Ref sig .tc := ⟨.hbm, 2384, rfl⟩
abbrev main_call89_v8 : Ref sig .tc := ⟨.hbm, 2385, rfl⟩
abbrev main_call89_c : Ref sig .tc := ⟨.hbm, 2386, rfl⟩
abbrev main_call89_v9 : Ref sig .tc := ⟨.hbm, 2387, rfl⟩
abbrev main_call89_v10 : Ref sig .tc := ⟨.hbm, 2388, rfl⟩
abbrev main_call89_v11 : Ref sig .tc := ⟨.hbm, 2389, rfl⟩
abbrev main_call89_c_0 : Ref sig .tc := ⟨.hbm, 2390, rfl⟩
abbrev main_call89_v12 : Ref sig .tc := ⟨.hbm, 2391, rfl⟩
abbrev main_call89_v13 : Ref sig .tc := ⟨.hbm, 2392, rfl⟩
abbrev main_v1189 : Ref sig .tc := ⟨.hbm, 2393, rfl⟩
abbrev main_v1190 : Ref sig .tc := ⟨.hbm, 2394, rfl⟩
abbrev main_v1191 : Ref sig .tc := ⟨.hbm, 2395, rfl⟩
abbrev main_v1192 : Ref sig .tc := ⟨.hbm, 2396, rfl⟩
abbrev main_v1193 : Ref sig .tc := ⟨.hbm, 2397, rfl⟩
abbrev main_v1194 : Ref sig .tc := ⟨.hbm, 2398, rfl⟩
abbrev main_v1195 : Ref sig .tc := ⟨.hbm, 2399, rfl⟩
abbrev main_v1196 : Ref sig .tc := ⟨.hbm, 2400, rfl⟩
abbrev main_v1197 : Ref sig .tc := ⟨.hbm, 2401, rfl⟩
abbrev main_v1198 : Ref sig .tc := ⟨.hbm, 2402, rfl⟩
abbrev main_v1199 : Ref sig .tc := ⟨.hbm, 2403, rfl⟩
abbrev main_v1200 : Ref sig .tc := ⟨.hbm, 2404, rfl⟩
abbrev main_v1201 : Ref sig .tc := ⟨.hbm, 2405, rfl⟩
abbrev main_v1202 : Ref sig .tc := ⟨.hbm, 2406, rfl⟩
abbrev main_v1203 : Ref sig .tc := ⟨.hbm, 2407, rfl⟩
abbrev main_v1204 : Ref sig .tc := ⟨.hbm, 2408, rfl⟩
abbrev main_v1205 : Ref sig .tc := ⟨.hbm, 2409, rfl⟩
abbrev main_v1206 : Ref sig .tc := ⟨.hbm, 2410, rfl⟩
abbrev main_v1207 : Ref sig .tc := ⟨.hbm, 2411, rfl⟩
abbrev main_v1208 : Ref sig .tc := ⟨.hbm, 2412, rfl⟩
abbrev main_v1209 : Ref sig .tc := ⟨.hbm, 2413, rfl⟩
abbrev main_v1210 : Ref sig .tc := ⟨.hbm, 2414, rfl⟩
abbrev main_v1211 : Ref sig .tc := ⟨.hbm, 2415, rfl⟩
abbrev main_v1212 : Ref sig .tc := ⟨.hbm, 2416, rfl⟩
abbrev main_v1213 : Ref sig .tc := ⟨.hbm, 2417, rfl⟩
abbrev main_v1214 : Ref sig .tc := ⟨.hbm, 2418, rfl⟩
abbrev main_v1215 : Ref sig .tc := ⟨.hbm, 2419, rfl⟩
abbrev main_v1216 : Ref sig .tc := ⟨.hbm, 2420, rfl⟩
abbrev main_v1217 : Ref sig .tc := ⟨.hbm, 2421, rfl⟩
abbrev main_cst_152 : Ref sig .tc := ⟨.hbm, 2422, rfl⟩
abbrev main_call90_v0 : Ref sig .tc := ⟨.hbm, 2423, rfl⟩
abbrev main_call90_v1 : Ref sig .tc := ⟨.hbm, 2424, rfl⟩
abbrev main_call90_v2 : Ref sig .tc := ⟨.hbm, 2425, rfl⟩
abbrev main_v1218 : Ref sig .tc := ⟨.hbm, 2426, rfl⟩
abbrev main_cst_153 : Ref sig .tc := ⟨.hbm, 2427, rfl⟩
abbrev main_v1219 : Ref sig .tc := ⟨.hbm, 2428, rfl⟩
abbrev main_v1220 : Ref sig .tc := ⟨.hbm, 2429, rfl⟩
abbrev main_v1221 : Ref sig .tc := ⟨.hbm, 2430, rfl⟩
abbrev main_cst_154 : Ref sig .tc := ⟨.hbm, 2431, rfl⟩
abbrev main_call91_v0 : Ref sig .tc := ⟨.hbm, 2432, rfl⟩
abbrev main_call91_v1 : Ref sig .tc := ⟨.hbm, 2433, rfl⟩
abbrev main_call91_v2 : Ref sig .tc := ⟨.hbm, 2434, rfl⟩
abbrev main_v1222 : Ref sig .tc := ⟨.hbm, 2435, rfl⟩
abbrev main_cst_155 : Ref sig .tc := ⟨.hbm, 2436, rfl⟩
abbrev main_v1223 : Ref sig .tc := ⟨.hbm, 2437, rfl⟩
abbrev main_v1224 : Ref sig .tc := ⟨.hbm, 2438, rfl⟩
abbrev main_v1225 : Ref sig .tc := ⟨.hbm, 2439, rfl⟩
abbrev main_v1226 : Ref sig .tc := ⟨.hbm, 2440, rfl⟩
abbrev main_v1227 : Ref sig .tc := ⟨.hbm, 2441, rfl⟩
abbrev main_v1228 : Ref sig .tc := ⟨.hbm, 2442, rfl⟩
abbrev main_v1229 : Ref sig .tc := ⟨.hbm, 2443, rfl⟩
abbrev main_v1230 : Ref sig .tc := ⟨.hbm, 2444, rfl⟩
abbrev main_v1231 : Ref sig .tc := ⟨.hbm, 2445, rfl⟩
abbrev main_v1232 : Ref sig .tc := ⟨.hbm, 2446, rfl⟩
abbrev main_v1233 : Ref sig .tc := ⟨.hbm, 2447, rfl⟩
abbrev main_v1234 : Ref sig .tc := ⟨.hbm, 2448, rfl⟩
abbrev main_v1235 : Ref sig .tc := ⟨.hbm, 2449, rfl⟩
abbrev main_v1236 : Ref sig .tc := ⟨.hbm, 2450, rfl⟩
abbrev main_v1237 : Ref sig .tc := ⟨.hbm, 2451, rfl⟩
abbrev main_v1238 : Ref sig .tc := ⟨.hbm, 2452, rfl⟩
abbrev main_v1239 : Ref sig .tc := ⟨.hbm, 2453, rfl⟩
abbrev main_v1240 : Ref sig .tc := ⟨.hbm, 2454, rfl⟩
abbrev main_v1241 : Ref sig .tc := ⟨.hbm, 2455, rfl⟩
abbrev main_v1242 : Ref sig .tc := ⟨.hbm, 2456, rfl⟩
abbrev main_v1243 : Ref sig .tc := ⟨.hbm, 2457, rfl⟩
abbrev main_v1244 : Ref sig .tc := ⟨.hbm, 2458, rfl⟩
abbrev main_v1245 : Ref sig .tc := ⟨.hbm, 2459, rfl⟩
abbrev main_v1246 : Ref sig .tc := ⟨.hbm, 2460, rfl⟩
abbrev main_v1247 : Ref sig .tc := ⟨.hbm, 2461, rfl⟩
abbrev main_v1248 : Ref sig .tc := ⟨.hbm, 2462, rfl⟩
abbrev main_v1249 : Ref sig .tc := ⟨.hbm, 2463, rfl⟩
abbrev main_v1250 : Ref sig .tc := ⟨.hbm, 2464, rfl⟩
abbrev main_v1251 : Ref sig .tc := ⟨.hbm, 2465, rfl⟩
abbrev main_c_156 : Ref sig .tc := ⟨.hbm, 2466, rfl⟩
abbrev main_call92_v0 : Ref sig .tc := ⟨.hbm, 2467, rfl⟩
abbrev main_call92_v1 : Ref sig .tc := ⟨.hbm, 2468, rfl⟩
abbrev main_call92_v2 : Ref sig .tc := ⟨.hbm, 2469, rfl⟩
abbrev main_call92_v3 : Ref sig .tc := ⟨.hbm, 2470, rfl⟩
abbrev main_call92_v4 : Ref sig .tc := ⟨.hbm, 2471, rfl⟩
abbrev main_call92_v5 : Ref sig .tc := ⟨.hbm, 2472, rfl⟩
abbrev main_call92_v6 : Ref sig .tc := ⟨.hbm, 2473, rfl⟩
abbrev main_call92_v7 : Ref sig .tc := ⟨.hbm, 2474, rfl⟩
abbrev main_call92_v8 : Ref sig .tc := ⟨.hbm, 2475, rfl⟩
abbrev main_call92_c : Ref sig .tc := ⟨.hbm, 2476, rfl⟩
abbrev main_call92_v9 : Ref sig .tc := ⟨.hbm, 2477, rfl⟩
abbrev main_call92_v10 : Ref sig .tc := ⟨.hbm, 2478, rfl⟩
abbrev main_call92_v11 : Ref sig .tc := ⟨.hbm, 2479, rfl⟩
abbrev main_call92_c_0 : Ref sig .tc := ⟨.hbm, 2480, rfl⟩
abbrev main_call92_v12 : Ref sig .tc := ⟨.hbm, 2481, rfl⟩
abbrev main_call92_v13 : Ref sig .tc := ⟨.hbm, 2482, rfl⟩
abbrev main_v1252 : Ref sig .tc := ⟨.hbm, 2483, rfl⟩
abbrev main_v1253 : Ref sig .tc := ⟨.hbm, 2484, rfl⟩
abbrev main_v1254 : Ref sig .tc := ⟨.hbm, 2485, rfl⟩
abbrev main_c_157 : Ref sig .tc := ⟨.hbm, 2486, rfl⟩
abbrev main_v1255 : Ref sig .tc := ⟨.hbm, 2487, rfl⟩
abbrev main_v1256 : Ref sig .tc := ⟨.hbm, 2488, rfl⟩
abbrev main_v1257 : Ref sig .tc := ⟨.hbm, 2489, rfl⟩
abbrev main_v1258 : Ref sig .tc := ⟨.hbm, 2490, rfl⟩
abbrev main_v1259 : Ref sig .tc := ⟨.hbm, 2491, rfl⟩
abbrev main_c_158 : Ref sig .tc := ⟨.hbm, 2492, rfl⟩
abbrev main_call93_v0 : Ref sig .tc := ⟨.hbm, 2493, rfl⟩
abbrev main_call93_v1 : Ref sig .tc := ⟨.hbm, 2494, rfl⟩
abbrev main_call93_v2 : Ref sig .tc := ⟨.hbm, 2495, rfl⟩
abbrev main_call93_v3 : Ref sig .tc := ⟨.hbm, 2496, rfl⟩
abbrev main_call93_v4 : Ref sig .tc := ⟨.hbm, 2497, rfl⟩
abbrev main_call93_v5 : Ref sig .tc := ⟨.hbm, 2498, rfl⟩
abbrev main_call93_v6 : Ref sig .tc := ⟨.hbm, 2499, rfl⟩
abbrev main_call93_v7 : Ref sig .tc := ⟨.hbm, 2500, rfl⟩
abbrev main_call93_v8 : Ref sig .tc := ⟨.hbm, 2501, rfl⟩
abbrev main_call93_c : Ref sig .tc := ⟨.hbm, 2502, rfl⟩
abbrev main_call93_v9 : Ref sig .tc := ⟨.hbm, 2503, rfl⟩
abbrev main_call93_v10 : Ref sig .tc := ⟨.hbm, 2504, rfl⟩
abbrev main_call93_v11 : Ref sig .tc := ⟨.hbm, 2505, rfl⟩
abbrev main_call93_c_0 : Ref sig .tc := ⟨.hbm, 2506, rfl⟩
abbrev main_call93_v12 : Ref sig .tc := ⟨.hbm, 2507, rfl⟩
abbrev main_call93_v13 : Ref sig .tc := ⟨.hbm, 2508, rfl⟩
abbrev main_v1260 : Ref sig .tc := ⟨.hbm, 2509, rfl⟩
abbrev main_v1261 : Ref sig .tc := ⟨.hbm, 2510, rfl⟩
abbrev main_v1262 : Ref sig .tc := ⟨.hbm, 2511, rfl⟩
abbrev main_v1263 : Ref sig .tc := ⟨.hbm, 2512, rfl⟩
abbrev main_v1264 : Ref sig .tc := ⟨.hbm, 2513, rfl⟩
abbrev main_c_159 : Ref sig .tc := ⟨.hbm, 2514, rfl⟩
abbrev main_call94_v0 : Ref sig .tc := ⟨.hbm, 2515, rfl⟩
abbrev main_call94_v1 : Ref sig .tc := ⟨.hbm, 2516, rfl⟩
abbrev main_call94_v2 : Ref sig .tc := ⟨.hbm, 2517, rfl⟩
abbrev main_call94_v3 : Ref sig .tc := ⟨.hbm, 2518, rfl⟩
abbrev main_call94_v4 : Ref sig .tc := ⟨.hbm, 2519, rfl⟩
abbrev main_call94_v5 : Ref sig .tc := ⟨.hbm, 2520, rfl⟩
abbrev main_call94_v6 : Ref sig .tc := ⟨.hbm, 2521, rfl⟩
abbrev main_call94_v7 : Ref sig .tc := ⟨.hbm, 2522, rfl⟩
abbrev main_call94_v8 : Ref sig .tc := ⟨.hbm, 2523, rfl⟩
abbrev main_call94_c : Ref sig .tc := ⟨.hbm, 2524, rfl⟩
abbrev main_call94_v9 : Ref sig .tc := ⟨.hbm, 2525, rfl⟩
abbrev main_call94_v10 : Ref sig .tc := ⟨.hbm, 2526, rfl⟩
abbrev main_call94_v11 : Ref sig .tc := ⟨.hbm, 2527, rfl⟩
abbrev main_call94_c_0 : Ref sig .tc := ⟨.hbm, 2528, rfl⟩
abbrev main_call94_v12 : Ref sig .tc := ⟨.hbm, 2529, rfl⟩
abbrev main_call94_v13 : Ref sig .tc := ⟨.hbm, 2530, rfl⟩
abbrev main_v1265 : Ref sig .tc := ⟨.hbm, 2531, rfl⟩
abbrev main_v1266 : Ref sig .tc := ⟨.hbm, 2532, rfl⟩
abbrev main_v1267 : Ref sig .tc := ⟨.hbm, 2533, rfl⟩
abbrev main_c_160 : Ref sig .tc := ⟨.hbm, 2534, rfl⟩
abbrev main_v1268 : Ref sig .tc := ⟨.hbm, 2535, rfl⟩
abbrev main_v1269 : Ref sig .tc := ⟨.hbm, 2536, rfl⟩
abbrev main_v1270 : Ref sig .tc := ⟨.hbm, 2537, rfl⟩
abbrev main_v1271 : Ref sig .tc := ⟨.hbm, 2538, rfl⟩
abbrev main_v1272 : Ref sig .tc := ⟨.hbm, 2539, rfl⟩
abbrev main_c_161 : Ref sig .tc := ⟨.hbm, 2540, rfl⟩
abbrev main_call95_v0 : Ref sig .tc := ⟨.hbm, 2541, rfl⟩
abbrev main_call95_v1 : Ref sig .tc := ⟨.hbm, 2542, rfl⟩
abbrev main_call95_v2 : Ref sig .tc := ⟨.hbm, 2543, rfl⟩
abbrev main_call95_v3 : Ref sig .tc := ⟨.hbm, 2544, rfl⟩
abbrev main_call95_v4 : Ref sig .tc := ⟨.hbm, 2545, rfl⟩
abbrev main_call95_v5 : Ref sig .tc := ⟨.hbm, 2546, rfl⟩
abbrev main_call95_v6 : Ref sig .tc := ⟨.hbm, 2547, rfl⟩
abbrev main_call95_v7 : Ref sig .tc := ⟨.hbm, 2548, rfl⟩
abbrev main_call95_v8 : Ref sig .tc := ⟨.hbm, 2549, rfl⟩
abbrev main_call95_c : Ref sig .tc := ⟨.hbm, 2550, rfl⟩
abbrev main_call95_v9 : Ref sig .tc := ⟨.hbm, 2551, rfl⟩
abbrev main_call95_v10 : Ref sig .tc := ⟨.hbm, 2552, rfl⟩
abbrev main_call95_v11 : Ref sig .tc := ⟨.hbm, 2553, rfl⟩
abbrev main_call95_c_0 : Ref sig .tc := ⟨.hbm, 2554, rfl⟩
abbrev main_call95_v12 : Ref sig .tc := ⟨.hbm, 2555, rfl⟩
abbrev main_call95_v13 : Ref sig .tc := ⟨.hbm, 2556, rfl⟩
abbrev main_v1273 : Ref sig .tc := ⟨.hbm, 2557, rfl⟩
abbrev main_v1274 : Ref sig .tc := ⟨.hbm, 2558, rfl⟩
abbrev main_v1275 : Ref sig .tc := ⟨.hbm, 2559, rfl⟩
abbrev main_v1276 : Ref sig .tc := ⟨.hbm, 2560, rfl⟩
abbrev main_v1277 : Ref sig .tc := ⟨.hbm, 2561, rfl⟩
abbrev main_v1278 : Ref sig .tc := ⟨.hbm, 2562, rfl⟩
abbrev main_v1279 : Ref sig .tc := ⟨.hbm, 2563, rfl⟩
abbrev main_v1280 : Ref sig .tc := ⟨.hbm, 2564, rfl⟩
abbrev main_v1281 : Ref sig .tc := ⟨.hbm, 2565, rfl⟩
abbrev main_v1282 : Ref sig .tc := ⟨.hbm, 2566, rfl⟩
abbrev main_v1283 : Ref sig .tc := ⟨.hbm, 2567, rfl⟩
abbrev main_v1284 : Ref sig .tc := ⟨.hbm, 2568, rfl⟩
abbrev main_v1285 : Ref sig .tc := ⟨.hbm, 2569, rfl⟩
abbrev main_v1286 : Ref sig .tc := ⟨.hbm, 2570, rfl⟩
abbrev main_v1287 : Ref sig .tc := ⟨.hbm, 2571, rfl⟩
abbrev main_v1288 : Ref sig .tc := ⟨.hbm, 2572, rfl⟩
abbrev main_v1289 : Ref sig .tc := ⟨.hbm, 2573, rfl⟩
abbrev main_v1290 : Ref sig .tc := ⟨.hbm, 2574, rfl⟩
abbrev main_v1291 : Ref sig .tc := ⟨.hbm, 2575, rfl⟩
abbrev main_v1292 : Ref sig .tc := ⟨.hbm, 2576, rfl⟩
abbrev main_v1293 : Ref sig .tc := ⟨.hbm, 2577, rfl⟩
abbrev main_v1294 : Ref sig .tc := ⟨.hbm, 2578, rfl⟩
abbrev main_v1295 : Ref sig .tc := ⟨.hbm, 2579, rfl⟩
abbrev main_v1296 : Ref sig .tc := ⟨.hbm, 2580, rfl⟩
abbrev main_v1297 : Ref sig .tc := ⟨.hbm, 2581, rfl⟩
abbrev main_v1298 : Ref sig .tc := ⟨.hbm, 2582, rfl⟩
abbrev main_v1299 : Ref sig .tc := ⟨.hbm, 2583, rfl⟩
abbrev main_v1300 : Ref sig .tc := ⟨.hbm, 2584, rfl⟩
abbrev main_v1301 : Ref sig .tc := ⟨.hbm, 2585, rfl⟩
abbrev main_cst_162 : Ref sig .tc := ⟨.hbm, 2586, rfl⟩
abbrev main_call96_v0 : Ref sig .tc := ⟨.hbm, 2587, rfl⟩
abbrev main_call96_v1 : Ref sig .tc := ⟨.hbm, 2588, rfl⟩
abbrev main_call96_v2 : Ref sig .tc := ⟨.hbm, 2589, rfl⟩
abbrev main_v1302 : Ref sig .tc := ⟨.hbm, 2590, rfl⟩
abbrev main_cst_163 : Ref sig .tc := ⟨.hbm, 2591, rfl⟩
abbrev main_v1303 : Ref sig .tc := ⟨.hbm, 2592, rfl⟩
abbrev main_v1304 : Ref sig .tc := ⟨.hbm, 2593, rfl⟩
abbrev main_v1305 : Ref sig .tc := ⟨.hbm, 2594, rfl⟩
abbrev main_cst_164 : Ref sig .tc := ⟨.hbm, 2595, rfl⟩
abbrev main_call97_v0 : Ref sig .tc := ⟨.hbm, 2596, rfl⟩
abbrev main_call97_v1 : Ref sig .tc := ⟨.hbm, 2597, rfl⟩
abbrev main_call97_v2 : Ref sig .tc := ⟨.hbm, 2598, rfl⟩
abbrev main_v1306 : Ref sig .tc := ⟨.hbm, 2599, rfl⟩
abbrev main_cst_165 : Ref sig .tc := ⟨.hbm, 2600, rfl⟩
abbrev main_v1307 : Ref sig .tc := ⟨.hbm, 2601, rfl⟩
abbrev main_v1308 : Ref sig .tc := ⟨.hbm, 2602, rfl⟩
abbrev main_v1309 : Ref sig .tc := ⟨.hbm, 2603, rfl⟩
abbrev main_v1310 : Ref sig .tc := ⟨.hbm, 2604, rfl⟩
abbrev main_v1311 : Ref sig .tc := ⟨.hbm, 2605, rfl⟩
abbrev main_v1312 : Ref sig .tc := ⟨.hbm, 2606, rfl⟩
abbrev main_v1313 : Ref sig .tc := ⟨.hbm, 2607, rfl⟩
abbrev main_v1314 : Ref sig .tc := ⟨.hbm, 2608, rfl⟩
abbrev main_v1315 : Ref sig .tc := ⟨.hbm, 2609, rfl⟩
abbrev main_v1316 : Ref sig .tc := ⟨.hbm, 2610, rfl⟩
abbrev main_v1317 : Ref sig .tc := ⟨.hbm, 2611, rfl⟩
abbrev main_v1318 : Ref sig .tc := ⟨.hbm, 2612, rfl⟩
abbrev main_v1319 : Ref sig .tc := ⟨.hbm, 2613, rfl⟩
abbrev main_v1320 : Ref sig .tc := ⟨.hbm, 2614, rfl⟩

abbrev nD : Nat := 1
abbrev τ : Topo := Topo.v7x

variable {F : FTy → Type} [FloatOps F]

class Facts₀ : Prop where
  shapeCasts_S1x512x64x64_S512x64x64 : S1x512x64x64.ShapeCasts S512x64x64
  slices_S2_S1_0 : S2.Slices ![0] S1
  shapeCasts_S1_S_ : S1.ShapeCasts S_
  slices_S2_S1_1 : S2.Slices ![1] S1
  bcast_S_S1 : S_.BroadcastsInDim S1 (![] : Fin 0 → Fin S1.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S3x4_0_1 : S1x4.BroadcastsInDim S3x4 (![0, 1] : Fin 2 → Fin S3x4.rank)
  bcast_S1x4_S4x4_0_1 : S1x4.BroadcastsInDim S4x4 (![0, 1] : Fin 2 → Fin S4x4.rank)
  bcast_S_S7 : S_.BroadcastsInDim S7 (![] : Fin 0 → Fin S7.rank)
  bcast_S64_S1x64_1 : S64.BroadcastsInDim S1x64 (![1] : Fin 1 → Fin S1x64.rank)
  bcast_S7_S7x1_0 : S7.BroadcastsInDim S7x1 (![0] : Fin 1 → Fin S7x1.rank)
  bcast_S1x64_S7x64_0_1 : S1x64.BroadcastsInDim S7x64 (![0, 1] : Fin 2 → Fin S7x64.rank)
  bcast_S7x1_S7x64_0_1 : S7x1.BroadcastsInDim S7x64 (![0, 1] : Fin 2 → Fin S7x64.rank)
  bcast_S7x64_S7x1x64x1_0_2 : S7x64.BroadcastsInDim S7x1x64x1 (![0, 2] : Fin 2 → Fin S7x1x64x1.rank)
  bcast_S512x64x64_S1x512x64x64_1_2_3 : S512x64x64.BroadcastsInDim S1x512x64x64 (![1, 2, 3] : Fin 3 → Fin S1x512x64x64.rank)
  bcast_S7x1x64x1_S7x512x64x64_0_1_2_3 : S7x1x64x1.BroadcastsInDim S7x512x64x64 (![0, 1, 2, 3] : Fin 4 → Fin S7x512x64x64.rank)
  bcast_S1x512x64x64_S7x512x64x64_0_1_2_3 : S1x512x64x64.BroadcastsInDim S7x512x64x64 (![0, 1, 2, 3] : Fin 4 → Fin S7x512x64x64.rank)
  bcast_S_S7x512x64x64 : S_.BroadcastsInDim S7x512x64x64 (![] : Fin 0 → Fin S7x512x64x64.rank)
  reducesTo_S7x512x64x64_S7x512x64_d2 : S7x512x64x64.ReducesTo [2] S7x512x64
  h_S_ : 0 < S_.numel
  bcast_S7x64_S1x1x7x64_2_3 : S7x64.BroadcastsInDim S1x1x7x64 (![2, 3] : Fin 2 → Fin S1x1x7x64.rank)
  bcast_S7x512x64_S7x512x1x64_0_1_3 : S7x512x64.BroadcastsInDim S7x512x1x64 (![0, 1, 3] : Fin 3 → Fin S7x512x1x64.rank)
  bcast_S1x1x7x64_S7x512x7x64_0_1_2_3 : S1x1x7x64.BroadcastsInDim S7x512x7x64 (![0, 1, 2, 3] : Fin 4 → Fin S7x512x7x64.rank)
  bcast_S7x512x1x64_S7x512x7x64_0_1_2_3 : S7x512x1x64.BroadcastsInDim S7x512x7x64 (![0, 1, 2, 3] : Fin 4 → Fin S7x512x7x64.rank)
  bcast_S_S7x512x7x64 : S_.BroadcastsInDim S7x512x7x64 (![] : Fin 0 → Fin S7x512x7x64.rank)
  reducesTo_S7x512x7x64_S7x512x7_d3 : S7x512x7x64.ReducesTo [3] S7x512x7
  transposes_S7x512x7_S512x7x7_1_0_2 : S7x512x7.Transposes [1, 0, 2] S512x7x7
  shapeCasts_S512x7x7_S25088 : S512x7x7.ShapeCasts S25088
  slices_S3x4_S1x1_0_1 : S3x4.Slices ![0, 1] S1x1
  shapeCasts_S1x1_S_ : S1x1.ShapeCasts S_
  slices_S3x4_S1x1_0_3 : S3x4.Slices ![0, 3] S1x1
  slices_S3x4_S1x1_0_0 : S3x4.Slices ![0, 0] S1x1
  slices_S3x4_S1x1_0_2 : S3x4.Slices ![0, 2] S1x1
  slices_S3x4_S1x1_1_1 : S3x4.Slices ![1, 1] S1x1
  slices_S3x4_S1x1_1_3 : S3x4.Slices ![1, 3] S1x1
  slices_S3x4_S1x1_1_0 : S3x4.Slices ![1, 0] S1x1
  slices_S3x4_S1x1_1_2 : S3x4.Slices ![1, 2] S1x1
  slices_S3x4_S1x1_2_1 : S3x4.Slices ![2, 1] S1x1
  slices_S3x4_S1x1_2_3 : S3x4.Slices ![2, 3] S1x1
  slices_S3x4_S1x1_2_0 : S3x4.Slices ![2, 0] S1x1
  slices_S3x4_S1x1_2_2 : S3x4.Slices ![2, 2] S1x1
  slices_S4x4_S1x1_0_1 : S4x4.Slices ![0, 1] S1x1
  slices_S4x4_S1x1_0_3 : S4x4.Slices ![0, 3] S1x1
  slices_S4x4_S1x1_0_0 : S4x4.Slices ![0, 0] S1x1
  slices_S4x4_S1x1_0_2 : S4x4.Slices ![0, 2] S1x1
  slices_S4x4_S1x1_1_1 : S4x4.Slices ![1, 1] S1x1
  slices_S4x4_S1x1_1_3 : S4x4.Slices ![1, 3] S1x1
  slices_S4x4_S1x1_1_0 : S4x4.Slices ![1, 0] S1x1
  slices_S4x4_S1x1_1_2 : S4x4.Slices ![1, 2] S1x1
  slices_S4x4_S1x1_2_1 : S4x4.Slices ![2, 1] S1x1
  slices_S4x4_S1x1_2_3 : S4x4.Slices ![2, 3] S1x1
  slices_S4x4_S1x1_2_0 : S4x4.Slices ![2, 0] S1x1
  slices_S4x4_S1x1_2_2 : S4x4.Slices ![2, 2] S1x1
  slices_S4x4_S1x1_3_1 : S4x4.Slices ![3, 1] S1x1
  slices_S4x4_S1x1_3_3 : S4x4.Slices ![3, 3] S1x1
  slices_S4x4_S1x1_3_0 : S4x4.Slices ![3, 0] S1x1
  slices_S4x4_S1x1_3_2 : S4x4.Slices ![3, 2] S1x1
  concatenates_S25088_S25088_S25088_S25088_S25088_S25088_S150528_d0 : Shape.Concatenates [S25088, S25088, S25088, S25088, S25088, S25088] S150528 0
  bcast_S150528_S1x150528_1 : S150528.BroadcastsInDim S1x150528 (![1] : Fin 1 → Fin S1x150528.rank)
  concatenates_S1x150528_S1x150528_S1x150528_S3x150528_d0 : Shape.Concatenates [S1x150528, S1x150528, S1x150528] S3x150528 0
  bcast_S1024_S1x1024_1 : S1024.BroadcastsInDim S1x1024 (![1] : Fin 1 → Fin S1x1024.rank)
  bcast_S1x1024_S3x1024_0_1 : S1x1024.BroadcastsInDim S3x1024 (![0, 1] : Fin 2 → Fin S3x1024.rank)
  dot_S3x150528_S150528x1024_S3x1024_1_0_0_1_n_n_wf : DotDims.WF S3x150528 S150528x1024 S3x1024 [1] [0] [0] [1] [] []

variable [Facts₀]

def dot_S3x150528_S150528x1024_S3x1024_1_0_0_1_n_n : DotDims S3x150528 S150528x1024 S3x1024 where
  lhsContracting := [1]
  rhsContracting := [0]
  lhsNonContracting := [0]
  rhsNonContracting := [1]
  lhsBatch := []
  rhsBatch := []
  wf := dot_S3x150528_S150528x1024_S3x1024_1_0_0_1_n_n_wf

class Facts : Prop extends Facts₀ where

variable [Facts]
-- ==== Proof.Stretches.lean ====
/- The host part of the kernel's program, before its one region: 197 stretches of operations, in order.
  Every operation of every stretch touches TensorCore buffers only and determines its result (none leaves a
  buffer at contents nobody chose), and the program is those stretches in order followed by the region. -/
import proofs.«107941_j79491254714775_1_alg».proof.Proof.Gen.KernelIdeal.Launch
import Idealize.ShloMosaic.Lib.Pipeline.Frame
import Idealize.ShloMosaic.Lib.StableHlo.Run

set_option maxRecDepth 16384

noncomputable section

namespace Cert.KernelIdeal.Acc

open Idealize.ShloMosaic Idealize.ShloMosaic.TcCoe Idealize.SL Idealize.SL.Sem
open Cert.KernelIdeal Cert.KernelIdeal.Gen

variable {F : FTy → Type} [FloatOps F]

/-- The stretches of host operations before the region, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147, hostOps0_148, hostOps0_149, hostOps0_150, hostOps0_151, hostOps0_152, hostOps0_153, hostOps0_154, hostOps0_155, hostOps0_156, hostOps0_157, hostOps0_158, hostOps0_159, hostOps0_160, hostOps0_161, hostOps0_162, hostOps0_163, hostOps0_164, hostOps0_165, hostOps0_166, hostOps0_167, hostOps0_168, hostOps0_169, hostOps0_170, hostOps0_171, hostOps0_172, hostOps0_173, hostOps0_174, hostOps0_175, hostOps0_176, hostOps0_177, hostOps0_178, hostOps0_179, hostOps0_180, hostOps0_181, hostOps0_182, hostOps0_183, hostOps0_184, hostOps0_185, hostOps0_186, hostOps0_187, hostOps0_188, hostOps0_189, hostOps0_190, hostOps0_191, hostOps0_192, hostOps0_193, hostOps0_194, hostOps0_195, hostOps0_196]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps0_73_fresh : (hostOps0_73 : List (HloOp τ sig (Elt F))).Forall fun op => op.fresh = ∅ := by
  simp only [List.Forall]; repeat' constructor
theorem hostOps0_74_fresh : (hostOps0_74 : List (HloOp τ sig (Elt F))).Forall fun op => op.fresh = ∅ := by
  simp only [List.Forall]; repeat' constructor
theorem hostOps0_75_fresh : (hostOps0_75 : List (HloOp τ sig (Elt F))).Forall fun op => op.fresh = ∅ := by
  simp only [List.Forall]; repeat' constructor
theorem hostOps0_76_fresh : (hostOps0_76 : List (HloOp τ sig (Elt F))).Forall fun op => op.fresh = ∅ := by
  simp only [List.Forall]; repeat' constructor
theorem hostOps0_77_fresh : (hostOps0_77 : List (HloOp τ sig (Elt F))).Forall fun op => op.fresh = ∅ := by
  simp only [List.Forall]; repeat' constructor
theorem hostOps0_78_fresh : (hostOps0_78 : List (HloOp τ sig (Elt F))).Forall fun op => op.fresh = ∅ := by
  simp only [List.Forall]; repeat' constructor
theorem hostOps0_79_fresh : (hostOps0_79 : List (HloOp τ sig (Elt F))).Forall fun op => op.fresh = ∅ := by
  simp only [List.Forall]; repeat' constructor
theorem hostOps0_80_fresh : (hostOps0_80 : List (HloOp τ sig (Elt F))).Forall fun op => op.fresh = ∅ := by
  simp only [List.Forall]; repeat' constructor
theorem hostOps0_81_fresh : (hostOps0_81 : List (HloOp τ sig (Elt F))).Forall fun op => op.fresh = ∅ := by
  simp only [List.Forall]; repeat' constructor
theorem hostOps0_82_fresh : (hostOps0_82 : List (HloOp τ sig (Elt F))).Forall fun op => op.fresh = ∅ := by
  simp only [List.Forall]; repeat' constructor
theorem hostOps0_83_fresh : (hostOps0_83 : List (HloOp τ sig (Elt F))).Forall fun op => op.fresh = ∅ := by
  simp only [List.Forall]; repeat' constructor
theorem hostOps0_84_fresh : (hostOps0_84 : List (HloOp τ sig (Elt F))).Forall fun op => op.fresh = ∅ := by
  simp only [List.Forall]; repeat' constructor
theorem hostOps0_85_fresh : (hostOps0_85 : List (HloOp τ sig (Elt F))).Forall fun op => op.fresh = ∅ := by
  simp only [List.Forall]; repeat' constructor
theorem hostOps0_86_fresh : (hostOps0_86 : List (HloOp τ sig (Elt F))).Forall fun op => op.fresh = ∅ := by
  simp only [List.Forall]; repeat' constructor
theorem hostOps0_87_fresh : (hostOps0_87 : List (HloOp τ sig (Elt F))).Forall fun op => op.fresh = ∅ := by
  simp only [List.Forall]; repeat' constructor
theorem hostOps0_88_fresh : (hostOps0_88 : List (HloOp τ sig (Elt F))).Forall fun op => op.fresh = ∅ := by
  simp only [List.Forall]; repeat' constructor
theorem hostOps0_89_fresh : (hostOps0_89 : List (HloOp τ sig (Elt F))).Forall fun op => op.fresh = ∅ := by
  simp only [List.Forall]; repeat' constructor
theorem hostOps0_90_fresh : (hostOps0_90 : List (HloOp τ sig (Elt F))).Forall fun op => op.fresh = ∅ := by
  simp only [List.Forall]; repeat' constructor
theorem hostOps0_91_fresh : (hostOps0_91 : List (HloOp τ sig (Elt F))).Forall fun op => op.fresh = ∅ := by
  simp only [List.Forall]; repeat' constructor
theorem hostOps0_92_fresh : (hostOps0_92 : List (HloOp τ sig (Elt F))).Forall fun op => op.fresh = ∅ := by
  simp only [List.Forall]; repeat' constructor
theorem hostOps0_93_fresh : (hostOps0_93 : List (HloOp τ sig (Elt F))).Forall fun op => op.fresh = ∅ := by
  simp only [List.Forall]; repeat' constructor
theorem hostOps0_94_fresh : (hostOps0_94 : List (HloOp τ sig (Elt F))).Forall fun op => op.fresh = ∅ := by
  simp only [List.Forall]; repeat' constructor
theorem hostOps0_95_fresh : (hostOps0_95 : List (HloOp τ sig (Elt F))).Forall fun op => op.fresh = ∅ := by
  simp only [List.Forall]; repeat' constructor
theorem hostOps0_96_fresh : (hostOps0_96 : List (HloOp τ sig (Elt F))).Forall fun op => op.fresh = ∅ := by
  simp only [List.Forall]; repeat' constructor
theorem hostOps0_97_fresh : (hostOps0_97 : List (HloOp τ sig (Elt F))).Forall fun op => op.fresh = ∅ := by
  simp only [List.Forall]; repeat' constructor
theorem hostOps0_98_fresh : (hostOps0_98 : List (HloOp τ sig (Elt F))).Forall fun op => op.fresh = ∅ := by
  simp only [List.Forall]; repeat' constructor
theorem hostOps0_99_fresh : (hostOps0_99 : List (HloOp τ sig (Elt F))).Forall fun op => op.fresh = ∅ := by
  simp only [List.Forall]; repeat' constructor
theorem hostOps0_100_fresh : (hostOps0_100 : List (HloOp τ sig (Elt F))).Forall fun op => op.fresh = ∅ := by
  simp only [List.Forall]; repeat' constructor
theorem hostOps0_101_fresh : (hostOps0_101 : List (HloOp τ sig (Elt F))).Forall fun op => op.fresh = ∅ := by
  simp only [List.Forall]; repeat' constructor
theorem hostOps0_102_fresh : (hostOps0_102 : List (HloOp τ sig (Elt F))).Forall fun op => op.fresh = ∅ := by
  simp only [List.Forall]; repeat' constructor
theorem hostOps0_103_fresh : (hostOps0_103 : List (HloOp τ sig (Elt F))).Forall fun op => op.fresh = ∅ := by
  simp only [List.Forall]; repeat' constructor
theorem hostOps0_104_fresh : (hostOps0_104 : List (HloOp τ sig (Elt F))).Forall fun op => op.fresh = ∅ := by
  simp only [List.Forall]; repeat' constructor
theorem hostOps0_105_fresh : (hostOps0_105 : List (HloOp τ sig (Elt F))).Forall fun op => op.fresh = ∅ := by
  simp only [List.Forall]; repeat' constructor
theorem hostOps0_106_fresh : (hostOps0_106 : List (HloOp τ sig (Elt F))).Forall fun op => op.fresh = ∅ := by
  simp only [List.Forall]; repeat' constructor
theorem hostOps0_107_fresh : (hostOps0_107 : List (HloOp τ sig (Elt F))).Forall fun op => op.fresh = ∅ := by
  simp only [List.Forall]; repeat' constructor
theorem hostOps0_108_fresh : (hostOps0_108 : List (HloOp τ sig (Elt F))).Forall fun op => op.fresh = ∅ := by
  simp only [List.Forall]; repeat' constructor
theorem hostOps0_109_fresh : (hostOps0_109 : List (HloOp τ sig (Elt F))).Forall fun op => op.fresh = ∅ := by
  simp only [List.Forall]; repeat' constructor
theorem hostOps0_110_fresh : (hostOps0_110 : List (HloOp τ sig (Elt F))).Forall fun op => op.fresh = ∅ := by
  simp only [List.Forall]; repeat' constructor
theorem hostOps0_111_fresh : (hostOps0_111 : List (HloOp τ sig (Elt F))).Forall fun op => op.fresh = ∅ := by
  simp only [List.Forall]; repeat' constructor
theorem hostOps0_112_fresh : (hostOps0_112 : List (HloOp τ sig (Elt F))).Forall fun op => op.fresh = ∅ := by
  simp only [List.Forall]; repeat' constructor
theorem hostOps0_113_fresh : (hostOps0_113 : List (HloOp τ sig (Elt F))).Forall fun op => op.fresh = ∅ := by
  simp only [List.Forall]; repeat' constructor
theorem hostOps0_114_fresh : (hostOps0_114 : List (HloOp τ sig (Elt F))).Forall fun op => op.fresh = ∅ := by
  simp only [List.Forall]; repeat' constructor
theorem hostOps0_115_fresh : (hostOps0_115 : List (HloOp τ sig (Elt F))).Forall fun op => op.fresh = ∅ := by
  simp only [List.Forall]; repeat' constructor
theorem hostOps0_116_fresh : (hostOps0_116 : List (HloOp τ sig (Elt F))).Forall fun op => op.fresh = ∅ := by
  simp only [List.Forall]; repeat' constructor
theorem hostOps0_117_fresh : (hostOps0_117 : List (HloOp τ sig (Elt F))).Forall fun op => op.fresh = ∅ := by
  simp only [List.Forall]; repeat' constructor
theorem hostOps0_118_fresh : (hostOps0_118 : List (HloOp τ sig (Elt F))).Forall fun op => op.fresh = ∅ := by
  simp only [List.Forall]; repeat' constructor
theorem hostOps0_119_fresh : (hostOps0_119 : List (HloOp τ sig (Elt F))).Forall fun op => op.fresh = ∅ := by
  simp only [List.Forall]; repeat' constructor
theorem hostOps0_120_fresh : (hostOps0_120 : List (HloOp τ sig (Elt F))).Forall fun op => op.fresh = ∅ := by
  simp only [List.Forall]; repeat' constructor
theorem hostOps0_121_fresh : (hostOps0_121 : List (HloOp τ sig (Elt F))).Forall fun op => op.fresh = ∅ := by
  simp only [List.Forall]; repeat' constructor
theorem hostOps0_122_fresh : (hostOps0_122 : List (HloOp τ sig (Elt F))).Forall fun op => op.fresh = ∅ := by
  simp only [List.Forall]; repeat' constructor
theorem hostOps0_123_fresh : (hostOps0_123 : List (HloOp τ sig (Elt F))).Forall fun op => op.fresh = ∅ := by
  simp only [List.Forall]; repeat' constructor
theorem hostOps0_124_fresh : (hostOps0_124 : List (HloOp τ sig (Elt F))).Forall fun op => op.fresh = ∅ := by
  simp only [List.Forall]; repeat' constructor
theorem hostOps0_125_fresh : (hostOps0_125 : List (HloOp τ sig (Elt F))).Forall fun op => op.fresh = ∅ := by
  simp only [List.Forall]; repeat' constructor
theorem hostOps0_126_fresh : (hostOps0_126 : List (HloOp τ sig (Elt F))).Forall fun op => op.fresh = ∅ := by
  simp only [List.Forall]; repeat' constructor
theorem hostOps0_127_fresh : (hostOps0_127 : List (HloOp τ sig (Elt F))).Forall fun op => op.fresh = ∅ := by
  simp only [List.Forall]; repeat' constructor
theorem hostOps0_128_fresh : (hostOps0_128 : List (HloOp τ sig (Elt F))).Forall fun op => op.fresh = ∅ := by
  simp only [List.Forall]; repeat' constructor
theorem hostOps0_129_fresh : (hostOps0_129 : List (HloOp τ sig (Elt F))).Forall fun op => op.fresh = ∅ := by
  simp only [List.Forall]; repeat' constructor
theorem hostOps0_130_fresh : (hostOps0_130 : List (HloOp τ sig (Elt F))).Forall fun op => op.fresh = ∅ := by
  simp only [List.Forall]; repeat' constructor
theorem hostOps0_131_fresh : (hostOps0_131 : List (HloOp τ sig (Elt F))).Forall fun op => op.fresh = ∅ := by
  simp only [List.Forall]; repeat' constructor
theorem hostOps0_132_fresh : (hostOps0_132 : List (HloOp τ sig (Elt F))).Forall fun op => op.fresh = ∅ := by
  simp only [List.Forall]; repeat' constructor
theorem hostOps0_133_fresh : (hostOps0_133 : List (HloOp τ sig (Elt F))).Forall fun op => op.fresh = ∅ := by
  simp only [List.Forall]; repeat' constructor
theorem hostOps0_134_fresh : (hostOps0_134 : List (HloOp τ sig (Elt F))).Forall fun op => op.fresh = ∅ := by
  simp only [List.Forall]; repeat' constructor
theorem hostOps0_135_fresh : (hostOps0_135 : List (HloOp τ sig (Elt F))).Forall fun op => op.fresh = ∅ := by
  simp only [List.Forall]; repeat' constructor
theorem hostOps0_136_fresh : (hostOps0_136 : List (HloOp τ sig (Elt F))).Forall fun op => op.fresh = ∅ := by
  simp only [List.Forall]; repeat' constructor
theorem hostOps0_137_fresh : (hostOps0_137 : List (HloOp τ sig (Elt F))).Forall fun op => op.fresh = ∅ := by
  simp only [List.Forall]; repeat' constructor
theorem hostOps0_138_fresh : (hostOps0_138 : List (HloOp τ sig (Elt F))).Forall fun op => op.fresh = ∅ := by
  simp only [List.Forall]; repeat' constructor
theorem hostOps0_139_fresh : (hostOps0_139 : List (HloOp τ sig (Elt F))).Forall fun op => op.fresh = ∅ := by
  simp only [List.Forall]; repeat' constructor
theorem hostOps0_140_fresh : (hostOps0_140 : List (HloOp τ sig (Elt F))).Forall fun op => op.fresh = ∅ := by
  simp only [List.Forall]; repeat' constructor
theorem hostOps0_141_fresh : (hostOps0_141 : List (HloOp τ sig (Elt F))).Forall fun op => op.fresh = ∅ := by
  simp only [List.Forall]; repeat' constructor
theorem hostOps0_142_fresh : (hostOps0_142 : List (HloOp τ sig (Elt F))).Forall fun op => op.fresh = ∅ := by
  simp only [List.Forall]; repeat' constructor
theorem hostOps0_143_fresh : (hostOps0_143 : List (HloOp τ sig (Elt F))).Forall fun op => op.fresh = ∅ := by
  simp only [List.Forall]; repeat' constructor
theorem hostOps0_144_fresh : (hostOps0_144 : List (HloOp τ sig (Elt F))).Forall fun op => op.fresh = ∅ := by
  simp only [List.Forall]; repeat' constructor
theorem hostOps0_145_fresh : (hostOps0_145 : List (HloOp τ sig (Elt F))).Forall fun op => op.fresh = ∅ := by
  simp only [List.Forall]; repeat' constructor
theorem hostOps0_146_fresh : (hostOps0_146 : List (HloOp τ sig (Elt F))).Forall fun op => op.fresh = ∅ := by
  simp only [List.Forall]; repeat' constructor
theorem hostOps0_147_fresh : (hostOps0_147 : List (HloOp τ sig (Elt F))).Forall fun op => op.fresh = ∅ := by
  simp only [List.Forall]; repeat' constructor
theorem hostOps0_148_fresh : (hostOps0_148 : List (HloOp τ sig (Elt F))).Forall fun op => op.fresh = ∅ := by
  simp only [List.Forall]; repeat' constructor
theorem hostOps0_149_fresh : (hostOps0_149 : List (HloOp τ sig (Elt F))).Forall fun op => op.fresh = ∅ := by
  simp only [List.Forall]; repeat' constructor
theorem hostOps0_150_fresh : (hostOps0_150 : List (HloOp τ sig (Elt F))).Forall fun op => op.fresh = ∅ := by
  simp only [List.Forall]; repeat' constructor
theorem hostOps0_151_fresh : (hostOps0_151 : List (HloOp τ sig (Elt F))).Forall fun op => op.fresh = ∅ := by
  simp only [List.Forall]; repeat' constructor
theorem hostOps0_152_fresh : (hostOps0_152 : List (HloOp τ sig (Elt F))).Forall fun op => op.fresh = ∅ := by
  simp only [List.Forall]; repeat' constructor
theorem hostOps0_153_fresh : (hostOps0_153 : List (HloOp τ sig (Elt F))).Forall fun op => op.fresh = ∅ := by
  simp only [List.Forall]; repeat' constructor
theorem hostOps0_154_fresh : (hostOps0_154 : List (HloOp τ sig (Elt F))).Forall fun op => op.fresh = ∅ := by
  simp only [List.Forall]; repeat' constructor
theorem hostOps0_155_fresh : (hostOps0_155 : List (HloOp τ sig (Elt F))).Forall fun op => op.fresh = ∅ := by
  simp only [List.Forall]; repeat' constructor
theorem hostOps0_156_fresh : (hostOps0_156 : List (HloOp τ sig (Elt F))).Forall fun op => op.fresh = ∅ := by
  simp only [List.Forall]; repeat' constructor
theorem hostOps0_157_fresh : (hostOps0_157 : List (HloOp τ sig (Elt F))).Forall fun op => op.fresh = ∅ := by
  simp only [List.Forall]; repeat' constructor
theorem hostOps0_158_fresh : (hostOps0_158 : List (HloOp τ sig (Elt F))).Forall fun op => op.fresh = ∅ := by
  simp only [List.Forall]; repeat' constructor
theorem hostOps0_159_fresh : (hostOps0_159 : List (HloOp τ sig (Elt F))).Forall fun op => op.fresh = ∅ := by
  simp only [List.Forall]; repeat' constructor
theorem hostOps0_160_fresh : (hostOps0_160 : List (HloOp τ sig (Elt F))).Forall fun op => op.fresh = ∅ := by
  simp only [List.Forall]; repeat' constructor
theorem hostOps0_161_fresh : (hostOps0_161 : List (HloOp τ sig (Elt F))).Forall fun op => op.fresh = ∅ := by
  simp only [List.Forall]; repeat' constructor
theorem hostOps0_162_fresh : (hostOps0_162 : List (HloOp τ sig (Elt F))).Forall fun op => op.fresh = ∅ := by
  simp only [List.Forall]; repeat' constructor
theorem hostOps0_163_fresh : (hostOps0_163 : List (HloOp τ sig (Elt F))).Forall fun op => op.fresh = ∅ := by
  simp only [List.Forall]; repeat' constructor
theorem hostOps0_164_fresh : (hostOps0_164 : List (HloOp τ sig (Elt F))).Forall fun op => op.fresh = ∅ := by
  simp only [List.Forall]; repeat' constructor
theorem hostOps0_165_fresh : (hostOps0_165 : List (HloOp τ sig (Elt F))).Forall fun op => op.fresh = ∅ := by
  simp only [List.Forall]; repeat' constructor
theorem hostOps0_166_fresh : (hostOps0_166 : List (HloOp τ sig (Elt F))).Forall fun op => op.fresh = ∅ := by
  simp only [List.Forall]; repeat' constructor
theorem hostOps0_167_fresh : (hostOps0_167 : List (HloOp τ sig (Elt F))).Forall fun op => op.fresh = ∅ := by
  simp only [List.Forall]; repeat' constructor
theorem hostOps0_168_fresh : (hostOps0_168 : List (HloOp τ sig (Elt F))).Forall fun op => op.fresh = ∅ := by
  simp only [List.Forall]; repeat' constructor
theorem hostOps0_169_fresh : (hostOps0_169 : List (HloOp τ sig (Elt F))).Forall fun op => op.fresh = ∅ := by
  simp only [List.Forall]; repeat' constructor
theorem hostOps0_170_fresh : (hostOps0_170 : List (HloOp τ sig (Elt F))).Forall fun op => op.fresh = ∅ := by
  simp only [List.Forall]; repeat' constructor
theorem hostOps0_171_fresh : (hostOps0_171 : List (HloOp τ sig (Elt F))).Forall fun op => op.fresh = ∅ := by
  simp only [List.Forall]; repeat' constructor
theorem hostOps0_172_fresh : (hostOps0_172 : List (HloOp τ sig (Elt F))).Forall fun op => op.fresh = ∅ := by
  simp only [List.Forall]; repeat' constructor
theorem hostOps0_173_fresh : (hostOps0_173 : List (HloOp τ sig (Elt F))).Forall fun op => op.fresh = ∅ := by
  simp only [List.Forall]; repeat' constructor
theorem hostOps0_174_fresh : (hostOps0_174 : List (HloOp τ sig (Elt F))).Forall fun op => op.fresh = ∅ := by
  simp only [List.Forall]; repeat' constructor
theorem hostOps0_175_fresh : (hostOps0_175 : List (HloOp τ sig (Elt F))).Forall fun op => op.fresh = ∅ := by
  simp only [List.Forall]; repeat' constructor
theorem hostOps0_176_fresh : (hostOps0_176 : List (HloOp τ sig (Elt F))).Forall fun op => op.fresh = ∅ := by
  simp only [List.Forall]; repeat' constructor
theorem hostOps0_177_fresh : (hostOps0_177 : List (HloOp τ sig (Elt F))).Forall fun op => op.fresh = ∅ := by
  simp only [List.Forall]; repeat' constructor
theorem hostOps0_178_fresh : (hostOps0_178 : List (HloOp τ sig (Elt F))).Forall fun op => op.fresh = ∅ := by
  simp only [List.Forall]; repeat' constructor
theorem hostOps0_179_fresh : (hostOps0_179 : List (HloOp τ sig (Elt F))).Forall fun op => op.fresh = ∅ := by
  simp only [List.Forall]; repeat' constructor
theorem hostOps0_180_fresh : (hostOps0_180 : List (HloOp τ sig (Elt F))).Forall fun op => op.fresh = ∅ := by
  simp only [List.Forall]; repeat' constructor
theorem hostOps0_181_fresh : (hostOps0_181 : List (HloOp τ sig (Elt F))).Forall fun op => op.fresh = ∅ := by
  simp only [List.Forall]; repeat' constructor
theorem hostOps0_182_fresh : (hostOps0_182 : List (HloOp τ sig (Elt F))).Forall fun op => op.fresh = ∅ := by
  simp only [List.Forall]; repeat' constructor
theorem hostOps0_183_fresh : (hostOps0_183 : List (HloOp τ sig (Elt F))).Forall fun op => op.fresh = ∅ := by
  simp only [List.Forall]; repeat' constructor
theorem hostOps0_184_fresh : (hostOps0_184 : List (HloOp τ sig (Elt F))).Forall fun op => op.fresh = ∅ := by
  simp only [List.Forall]; repeat' constructor
theorem hostOps0_185_fresh : (hostOps0_185 : List (HloOp τ sig (Elt F))).Forall fun op => op.fresh = ∅ := by
  simp only [List.Forall]; repeat' constructor
theorem hostOps0_186_fresh : (hostOps0_186 : List (HloOp τ sig (Elt F))).Forall fun op => op.fresh = ∅ := by
  simp only [List.Forall]; repeat' constructor
theorem hostOps0_187_fresh : (hostOps0_187 : List (HloOp τ sig (Elt F))).Forall fun op => op.fresh = ∅ := by
  simp only [List.Forall]; repeat' constructor
theorem hostOps0_188_fresh : (hostOps0_188 : List (HloOp τ sig (Elt F))).Forall fun op => op.fresh = ∅ := by
  simp only [List.Forall]; repeat' constructor
theorem hostOps0_189_fresh : (hostOps0_189 : List (HloOp τ sig (Elt F))).Forall fun op => op.fresh = ∅ := by
  simp only [List.Forall]; repeat' constructor
theorem hostOps0_190_fresh : (hostOps0_190 : List (HloOp τ sig (Elt F))).Forall fun op => op.fresh = ∅ := by
  simp only [List.Forall]; repeat' constructor
theorem hostOps0_191_fresh : (hostOps0_191 : List (HloOp τ sig (Elt F))).Forall fun op => op.fresh = ∅ := by
  simp only [List.Forall]; repeat' constructor
theorem hostOps0_192_fresh : (hostOps0_192 : List (HloOp τ sig (Elt F))).Forall fun op => op.fresh = ∅ := by
  simp only [List.Forall]; repeat' constructor
theorem hostOps0_193_fresh : (hostOps0_193 : List (HloOp τ sig (Elt F))).Forall fun op => op.fresh = ∅ := by
  simp only [List.Forall]; repeat' constructor
theorem hostOps0_194_fresh : (hostOps0_194 : List (HloOp τ sig (Elt F))).Forall fun op => op.fresh = ∅ := by
  simp only [List.Forall]; repeat' constructor
theorem hostOps0_195_fresh : (hostOps0_195 : List (HloOp τ sig (Elt F))).Forall fun op => op.fresh = ∅ := by
  simp only [List.Forall]; repeat' constructor
theorem hostOps0_196_fresh : (hostOps0_196 : List (HloOp τ sig (Elt F))).Forall fun op => op.fresh = ∅ := by
  simp only [List.Forall]; repeat' constructor

/-- Every operation touches TensorCore buffers only. -/
theorem stretches_sub : (stretches (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub, hostOps0_73_sub, hostOps0_74_sub, hostOps0_75_sub, hostOps0_76_sub, hostOps0_77_sub, hostOps0_78_sub, hostOps0_79_sub, hostOps0_80_sub, hostOps0_81_sub, hostOps0_82_sub, hostOps0_83_sub, hostOps0_84_sub, hostOps0_85_sub, hostOps0_86_sub, hostOps0_87_sub, hostOps0_88_sub, hostOps0_89_sub, hostOps0_90_sub, hostOps0_91_sub, hostOps0_92_sub, hostOps0_93_sub, hostOps0_94_sub, hostOps0_95_sub, hostOps0_96_sub, hostOps0_97_sub, hostOps0_98_sub, hostOps0_99_sub, hostOps0_100_sub, hostOps0_101_sub, hostOps0_102_sub, hostOps0_103_sub, hostOps0_104_sub, hostOps0_105_sub, hostOps0_106_sub, hostOps0_107_sub, hostOps0_108_sub, hostOps0_109_sub, hostOps0_110_sub, hostOps0_111_sub, hostOps0_112_sub, hostOps0_113_sub, hostOps0_114_sub, hostOps0_115_sub, hostOps0_116_sub, hostOps0_117_sub, hostOps0_118_sub, hostOps0_119_sub, hostOps0_120_sub, hostOps0_121_sub, hostOps0_122_sub, hostOps0_123_sub, hostOps0_124_sub, hostOps0_125_sub, hostOps0_126_sub, hostOps0_127_sub, hostOps0_128_sub, hostOps0_129_sub, hostOps0_130_sub, hostOps0_131_sub, hostOps0_132_sub, hostOps0_133_sub, hostOps0_134_sub, hostOps0_135_sub, hostOps0_136_sub, hostOps0_137_sub, hostOps0_138_sub, hostOps0_139_sub, hostOps0_140_sub, hostOps0_141_sub, hostOps0_142_sub, hostOps0_143_sub, hostOps0_144_sub, hostOps0_145_sub, hostOps0_146_sub, hostOps0_147_sub, hostOps0_148_sub, hostOps0_149_sub, hostOps0_150_sub, hostOps0_151_sub, hostOps0_152_sub, hostOps0_153_sub, hostOps0_154_sub, hostOps0_155_sub, hostOps0_156_sub, hostOps0_157_sub, hostOps0_158_sub, hostOps0_159_sub, hostOps0_160_sub, hostOps0_161_sub, hostOps0_162_sub, hostOps0_163_sub, hostOps0_164_sub, hostOps0_165_sub, hostOps0_166_sub, hostOps0_167_sub, hostOps0_168_sub, hostOps0_169_sub, hostOps0_170_sub, hostOps0_171_sub, hostOps0_172_sub, hostOps0_173_sub, hostOps0_174_sub, hostOps0_175_sub, hostOps0_176_sub, hostOps0_177_sub, hostOps0_178_sub, hostOps0_179_sub, hostOps0_180_sub, hostOps0_181_sub, hostOps0_182_sub, hostOps0_183_sub, hostOps0_184_sub, hostOps0_185_sub, hostOps0_186_sub, hostOps0_187_sub, hostOps0_188_sub, hostOps0_189_sub, hostOps0_190_sub, hostOps0_191_sub, hostOps0_192_sub, hostOps0_193_sub, hostOps0_194_sub, hostOps0_195_sub, hostOps0_196_sub⟩

/-- Every operation determines its result. -/
theorem stretches_fresh : (stretches (F := F)).Forall fun ops => ops.Forall fun op => op.fresh = ∅ := by
  simp only [List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh, hostOps0_73_fresh, hostOps0_74_fresh, hostOps0_75_fresh, hostOps0_76_fresh, hostOps0_77_fresh, hostOps0_78_fresh, hostOps0_79_fresh, hostOps0_80_fresh, hostOps0_81_fresh, hostOps0_82_fresh, hostOps0_83_fresh, hostOps0_84_fresh, hostOps0_85_fresh, hostOps0_86_fresh, hostOps0_87_fresh, hostOps0_88_fresh, hostOps0_89_fresh, hostOps0_90_fresh, hostOps0_91_fresh, hostOps0_92_fresh, hostOps0_93_fresh, hostOps0_94_fresh, hostOps0_95_fresh, hostOps0_96_fresh, hostOps0_97_fresh, hostOps0_98_fresh, hostOps0_99_fresh, hostOps0_100_fresh, hostOps0_101_fresh, hostOps0_102_fresh, hostOps0_103_fresh, hostOps0_104_fresh, hostOps0_105_fresh, hostOps0_106_fresh, hostOps0_107_fresh, hostOps0_108_fresh, hostOps0_109_fresh, hostOps0_110_fresh, hostOps0_111_fresh, hostOps0_112_fresh, hostOps0_113_fresh, hostOps0_114_fresh, hostOps0_115_fresh, hostOps0_116_fresh, hostOps0_117_fresh, hostOps0_118_fresh, hostOps0_119_fresh, hostOps0_120_fresh, hostOps0_121_fresh, hostOps0_122_fresh, hostOps0_123_fresh, hostOps0_124_fresh, hostOps0_125_fresh, hostOps0_126_fresh, hostOps0_127_fresh, hostOps0_128_fresh, hostOps0_129_fresh, hostOps0_130_fresh, hostOps0_131_fresh, hostOps0_132_fresh, hostOps0_133_fresh, hostOps0_134_fresh, hostOps0_135_fresh, hostOps0_136_fresh, hostOps0_137_fresh, hostOps0_138_fresh, hostOps0_139_fresh, hostOps0_140_fresh, hostOps0_141_fresh, hostOps0_142_fresh, hostOps0_143_fresh, hostOps0_144_fresh, hostOps0_145_fresh, hostOps0_146_fresh, hostOps0_147_fresh, hostOps0_148_fresh, hostOps0_149_fresh, hostOps0_150_fresh, hostOps0_151_fresh, hostOps0_152_fresh, hostOps0_153_fresh, hostOps0_154_fresh, hostOps0_155_fresh, hostOps0_156_fresh, hostOps0_157_fresh, hostOps0_158_fresh, hostOps0_159_fresh, hostOps0_160_fresh, hostOps0_161_fresh, hostOps0_162_fresh, hostOps0_163_fresh, hostOps0_164_fresh, hostOps0_165_fresh, hostOps0_166_fresh, hostOps0_167_fresh, hostOps0_168_fresh, hostOps0_169_fresh, hostOps0_170_fresh, hostOps0_171_fresh, hostOps0_172_fresh, hostOps0_173_fresh, hostOps0_174_fresh, hostOps0_175_fresh, hostOps0_176_fresh, hostOps0_177_fresh, hostOps0_178_fresh, hostOps0_179_fresh, hostOps0_180_fresh, hostOps0_181_fresh, hostOps0_182_fresh, hostOps0_183_fresh, hostOps0_184_fresh, hostOps0_185_fresh, hostOps0_186_fresh, hostOps0_187_fresh, hostOps0_188_fresh, hostOps0_189_fresh, hostOps0_190_fresh, hostOps0_191_fresh, hostOps0_192_fresh, hostOps0_193_fresh, hostOps0_194_fresh, hostOps0_195_fresh, hostOps0_196_fresh⟩

/-- The program is the stretches in order, then the region. -/
theorem main_is (c : Dev nD) :
    main (F := F) c = Pipeline.chain ((stretches (F := F)).map StableHlo.seq ++ [Prog.lift (.customCall (Pipeline.entry 0) ())]) :=
  (main_chain c).trans rfl

end Cert.KernelIdeal.Acc

end
-- ==== Proof.Keeps.lean ====
/- No host operation writes an argument of the program.
  Each of the 197 stretches before the region is a list of operations with one result buffer each, and every
  result buffer is a value of the program, never one of its six arguments.  So an argument's buffer holds after
  the whole line of stretches what it held before it. -/
import proofs.«107941_j79491254714775_1_alg».proof.Proof.Stretches

set_option maxRecDepth 16384

noncomputable section

namespace Cert.KernelIdeal.Acc

open Idealize.ShloMosaic Idealize.ShloMosaic.TcCoe Idealize.SL Idealize.SL.Sem
open Cert.KernelIdeal Cert.KernelIdeal.Gen

variable {F : FTy → Type} [FloatOps F]

/-- The program's six arguments. -/
abbrev args : List (Ref sig .tc) := [main_arg0, main_arg1, main_arg2, main_arg3, main_arg4, main_arg5]

/-- The operation writes none of the arguments. -/
def Keeps (op : HloOp τ sig (Elt F)) : Prop := ∀ a ∈ args, (Proc.devRef .tc a : DevRef τ sig) ∉ op.writes

/-- An operation whose one result buffer is not an argument writes no argument: distinct references are distinct
    device buffers. -/
theorem keeps_of_result {op : HloOp τ sig (Elt F)} {y : Ref sig .tc}
    (hw : op.writes = {Proc.devRef .tc y}) (hy : y ∉ args) : Keeps op := fun a ha hmem => by
  rw [hw, Finset.mem_singleton] at hmem
  exact hy (Proc.devRef_injective _ hmem ▸ ha)

/-! Stretch by stretch: the stretch is a conjunction over its operations, and each operation's result is read off
    the operation and compared with the six arguments. -/

set_option maxHeartbeats 400000 in
theorem hostOps0_keeps : (hostOps0 : List (HloOp τ sig (Elt F))).Forall Keeps := by
  simp only [List.Forall]
  repeat' apply And.intro
  all_goals exact keeps_of_result rfl (by decide)
set_option maxHeartbeats 400000 in
theorem hostOps0_1_keeps : (hostOps0_1 : List (HloOp τ sig (Elt F))).Forall Keeps := by
  simp only [List.Forall]
  repeat' apply And.intro
  all_goals exact keeps_of_result rfl (by decide)
set_option maxHeartbeats 400000 in
theorem hostOps0_2_keeps : (hostOps0_2 : List (HloOp τ sig (Elt F))).Forall Keeps := by
  simp only [List.Forall]
  repeat' apply And.intro
  all_goals exact keeps_of_result rfl (by decide)
set_option maxHeartbeats 400000 in
theorem hostOps0_3_keeps : (hostOps0_3 : List (HloOp τ sig (Elt F))).Forall Keeps := by
  simp only [List.Forall]
  repeat' apply And.intro
  all_goals exact keeps_of_result rfl (by decide)
set_option maxHeartbeats 400000 in
theorem hostOps0_4_keeps : (hostOps0_4 : List (HloOp τ sig (Elt F))).Forall Keeps := by
  simp only [List.Forall]
  repeat' apply And.intro
  all_goals exact keeps_of_result rfl (by decide)
set_option maxHeartbeats 400000 in
theorem hostOps0_5_keeps : (hostOps0_5 : List (HloOp τ sig (Elt F))).Forall Keeps := by
  simp only [List.Forall]
  repeat' apply And.intro
  all_goals exact keeps_of_result rfl (by decide)
set_option maxHeartbeats 400000 in
theorem hostOps0_6_keeps : (hostOps0_6 : List (HloOp τ sig (Elt F))).Forall Keeps := by
  simp only [List.Forall]
  repeat' apply And.intro
  all_goals exact keeps_of_result rfl (by decide)
set_option maxHeartbeats 400000 in
theorem hostOps0_7_keeps : (hostOps0_7 : List (HloOp τ sig (Elt F))).Forall Keeps := by
  simp only [List.Forall]
  repeat' apply And.intro
  all_goals exact keeps_of_result rfl (by decide)
set_option maxHeartbeats 400000 in
theorem hostOps0_8_keeps : (hostOps0_8 : List (HloOp τ sig (Elt F))).Forall Keeps := by
  simp only [List.Forall]
  repeat' apply And.intro
  all_goals exact keeps_of_result rfl (by decide)
set_option maxHeartbeats 400000 in
theorem hostOps0_9_keeps : (hostOps0_9 : List (HloOp τ sig (Elt F))).Forall Keeps := by
  simp only [List.Forall]
  repeat' apply And.intro
  all_goals exact keeps_of_result rfl (by decide)
set_option maxHeartbeats 400000 in
theorem hostOps0_10_keeps : (hostOps0_10 : List (HloOp τ sig (Elt F))).Forall Keeps := by
  simp only [List.Forall]
  repeat' apply And.intro
  all_goals exact keeps_of_result rfl (by decide)
set_option maxHeartbeats 400000 in
theorem hostOps0_11_keeps : (hostOps0_11 : List (HloOp τ sig (Elt F))).Forall Keeps := by
  simp only [List.Forall]
  repeat' apply And.intro
  all_goals exact keeps_of_result rfl (by decide)
set_option maxHeartbeats 400000 in
theorem hostOps0_12_keeps : (hostOps0_12 : List (HloOp τ sig (Elt F))).Forall Keeps := by
  simp only [List.Forall]
  repeat' apply And.intro
  all_goals exact keeps_of_result rfl (by decide)
set_option maxHeartbeats 400000 in
theorem hostOps0_13_keeps : (hostOps0_13 : List (HloOp τ sig (Elt F))).Forall Keeps := by
  simp only [List.Forall]
  repeat' apply And.intro
  all_goals exact keeps_of_result rfl (by decide)
set_option maxHeartbeats 400000 in
theorem hostOps0_14_keeps : (hostOps0_14 : List (HloOp τ sig (Elt F))).Forall Keeps := by
  simp only [List.Forall]
  repeat' apply And.intro
  all_goals exact keeps_of_result rfl (by decide)
set_option maxHeartbeats 400000 in
theorem hostOps0_15_keeps : (hostOps0_15 : List (HloOp τ sig (Elt F))).Forall Keeps := by
  simp only [List.Forall]
  repeat' apply And.intro
  all_goals exact keeps_of_result rfl (by decide)
set_option maxHeartbeats 400000 in
theorem hostOps0_16_keeps : (hostOps0_16 : List (HloOp τ sig (Elt F))).Forall Keeps := by
  simp only [List.Forall]
  repeat' apply And.intro
  all_goals exact keeps_of_result rfl (by decide)
set_option maxHeartbeats 400000 in
theorem hostOps0_17_keeps : (hostOps0_17 : List (HloOp τ sig (Elt F))).Forall Keeps := by
  simp only [List.Forall]
  repeat' apply And.intro
  all_goals exact keeps_of_result rfl (by decide)
set_option maxHeartbeats 400000 in
theorem hostOps0_18_keeps : (hostOps0_18 : List (HloOp τ sig (Elt F))).Forall Keeps := by
  simp only [List.Forall]
  repeat' apply And.intro
  all_goals exact keeps_of_result rfl (by decide)
set_option maxHeartbeats 400000 in
theorem hostOps0_19_keeps : (hostOps0_19 : List (HloOp τ sig (Elt F))).Forall Keeps := by
  simp only [List.Forall]
  repeat' apply And.intro
  all_goals exact keeps_of_result rfl (by decide)
set_option maxHeartbeats 400000 in
theorem hostOps0_20_keeps : (hostOps0_20 : List (HloOp τ sig (Elt F))).Forall Keeps := by
  simp only [List.Forall]
  repeat' apply And.intro
  all_goals exact keeps_of_result rfl (by decide)
set_option maxHeartbeats 400000 in
theorem hostOps0_21_keeps : (hostOps0_21 : List (HloOp τ sig (Elt F))).Forall Keeps := by
  simp only [List.Forall]
  repeat' apply And.intro
  all_goals exact keeps_of_result rfl (by decide)
set_option maxHeartbeats 400000 in
theorem hostOps0_22_keeps : (hostOps0_22 : List (HloOp τ sig (Elt F))).Forall Keeps := by
  simp only [List.Forall]
  repeat' apply And.intro
  all_goals exact keeps_of_result rfl (by decide)
set_option maxHeartbeats 400000 in
theorem hostOps0_23_keeps : (hostOps0_23 : List (HloOp τ sig (Elt F))).Forall Keeps := by
  simp only [List.Forall]
  repeat' apply And.intro
  all_goals exact keeps_of_result rfl (by decide)
set_option maxHeartbeats 400000 in
theorem hostOps0_24_keeps : (hostOps0_24 : List (HloOp τ sig (Elt F))).Forall Keeps := by
  simp only [List.Forall]
  repeat' apply And.intro
  all_goals exact keeps_of_result rfl (by decide)
set_option maxHeartbeats 400000 in
theorem hostOps0_25_keeps : (hostOps0_25 : List (HloOp τ sig (Elt F))).Forall Keeps := by
  simp only [List.Forall]
  repeat' apply And.intro
  all_goals exact keeps_of_result rfl (by decide)
set_option maxHeartbeats 400000 in
theorem hostOps0_26_keeps : (hostOps0_26 : List (HloOp τ sig (Elt F))).Forall Keeps := by
  simp only [List.Forall]
  repeat' apply And.intro
  all_goals exact keeps_of_result rfl (by decide)
set_option maxHeartbeats 400000 in
theorem hostOps0_27_keeps : (hostOps0_27 : List (HloOp τ sig (Elt F))).Forall Keeps := by
  simp only [List.Forall]
  repeat' apply And.intro
  all_goals exact keeps_of_result rfl (by decide)
set_option maxHeartbeats 400000 in
theorem hostOps0_28_keeps : (hostOps0_28 : List (HloOp τ sig (Elt F))).Forall Keeps := by
  simp only [List.Forall]
  repeat' apply And.intro
  all_goals exact keeps_of_result rfl (by decide)
set_option maxHeartbeats 400000 in
theorem hostOps0_29_keeps : (hostOps0_29 : List (HloOp τ sig (Elt F))).Forall Keeps := by
  simp only [List.Forall]
  repeat' apply And.intro
  all_goals exact keeps_of_result rfl (by decide)
set_option maxHeartbeats 400000 in
theorem hostOps0_30_keeps : (hostOps0_30 : List (HloOp τ sig (Elt F))).Forall Keeps := by
  simp only [List.Forall]
  repeat' apply And.intro
  all_goals exact keeps_of_result rfl (by decide)
set_option maxHeartbeats 400000 in
theorem hostOps0_31_keeps : (hostOps0_31 : List (HloOp τ sig (Elt F))).Forall Keeps := by
  simp only [List.Forall]
  repeat' apply And.intro
  all_goals exact keeps_of_result rfl (by decide)
set_option maxHeartbeats 400000 in
theorem hostOps0_32_keeps : (hostOps0_32 : List (HloOp τ sig (Elt F))).Forall Keeps := by
  simp only [List.Forall]
  repeat' apply And.intro
  all_goals exact keeps_of_result rfl (by decide)
set_option maxHeartbeats 400000 in
theorem hostOps0_33_keeps : (hostOps0_33 : List (HloOp τ sig (Elt F))).Forall Keeps := by
  simp only [List.Forall]
  repeat' apply And.intro
  all_goals exact keeps_of_result rfl (by decide)
set_option maxHeartbeats 400000 in
theorem hostOps0_34_keeps : (hostOps0_34 : List (HloOp τ sig (Elt F))).Forall Keeps := by
  simp only [List.Forall]
  repeat' apply And.intro
  all_goals exact keeps_of_result rfl (by decide)
set_option maxHeartbeats 400000 in
theorem hostOps0_35_keeps : (hostOps0_35 : List (HloOp τ sig (Elt F))).Forall Keeps := by
  simp only [List.Forall]
  repeat' apply And.intro
  all_goals exact keeps_of_result rfl (by decide)
set_option maxHeartbeats 400000 in
theorem hostOps0_36_keeps : (hostOps0_36 : List (HloOp τ sig (Elt F))).Forall Keeps := by
  simp only [List.Forall]
  repeat' apply And.intro
  all_goals exact keeps_of_result rfl (by decide)
set_option maxHeartbeats 400000 in
theorem hostOps0_37_keeps : (hostOps0_37 : List (HloOp τ sig (Elt F))).Forall Keeps := by
  simp only [List.Forall]
  repeat' apply And.intro
  all_goals exact keeps_of_result rfl (by decide)
set_option maxHeartbeats 400000 in
theorem hostOps0_38_keeps : (hostOps0_38 : List (HloOp τ sig (Elt F))).Forall Keeps := by
  simp only [List.Forall]
  repeat' apply And.intro
  all_goals exact keeps_of_result rfl (by decide)
set_option maxHeartbeats 400000 in
theorem hostOps0_39_keeps : (hostOps0_39 : List (HloOp τ sig (Elt F))).Forall Keeps := by
  simp only [List.Forall]
  repeat' apply And.intro
  all_goals exact keeps_of_result rfl (by decide)
set_option maxHeartbeats 400000 in
theorem hostOps0_40_keeps : (hostOps0_40 : List (HloOp τ sig (Elt F))).Forall Keeps := by
  simp only [List.Forall]
  repeat' apply And.intro
  all_goals exact keeps_of_result rfl (by decide)
set_option maxHeartbeats 400000 in
theorem hostOps0_41_keeps : (hostOps0_41 : List (HloOp τ sig (Elt F))).Forall Keeps := by
  simp only [List.Forall]
  repeat' apply And.intro
  all_goals exact keeps_of_result rfl (by decide)
set_option maxHeartbeats 400000 in
theorem hostOps0_42_keeps : (hostOps0_42 : List (HloOp τ sig (Elt F))).Forall Keeps := by
  simp only [List.Forall]
  repeat' apply And.intro
  all_goals exact keeps_of_result rfl (by decide)
set_option maxHeartbeats 400000 in
theorem hostOps0_43_keeps : (hostOps0_43 : List (HloOp τ sig (Elt F))).Forall Keeps := by
  simp only [List.Forall]
  repeat' apply And.intro
  all_goals exact keeps_of_result rfl (by decide)
set_option maxHeartbeats 400000 in
theorem hostOps0_44_keeps : (hostOps0_44 : List (HloOp τ sig (Elt F))).Forall Keeps := by
  simp only [List.Forall]
  repeat' apply And.intro
  all_goals exact keeps_of_result rfl (by decide)
set_option maxHeartbeats 400000 in
theorem hostOps0_45_keeps : (hostOps0_45 : List (HloOp τ sig (Elt F))).Forall Keeps := by
  simp only [List.Forall]
  repeat' apply And.intro
  all_goals exact keeps_of_result rfl (by decide)
set_option maxHeartbeats 400000 in
theorem hostOps0_46_keeps : (hostOps0_46 : List (HloOp τ sig (Elt F))).Forall Keeps := by
  simp only [List.Forall]
  repeat' apply And.intro
  all_goals exact keeps_of_result rfl (by decide)
set_option maxHeartbeats 400000 in
theorem hostOps0_47_keeps : (hostOps0_47 : List (HloOp τ sig (Elt F))).Forall Keeps := by
  simp only [List.Forall]
  repeat' apply And.intro
  all_goals exact keeps_of_result rfl (by decide)
set_option maxHeartbeats 400000 in
theorem hostOps0_48_keeps : (hostOps0_48 : List (HloOp τ sig (Elt F))).Forall Keeps := by
  simp only [List.Forall]
  repeat' apply And.intro
  all_goals exact keeps_of_result rfl (by decide)
set_option maxHeartbeats 400000 in
theorem hostOps0_49_keeps : (hostOps0_49 : List (HloOp τ sig (Elt F))).Forall Keeps := by
  simp only [List.Forall]
  repeat' apply And.intro
  all_goals exact keeps_of_result rfl (by decide)
set_option maxHeartbeats 400000 in
theorem hostOps0_50_keeps : (hostOps0_50 : List (HloOp τ sig (Elt F))).Forall Keeps := by
  simp only [List.Forall]
  repeat' apply And.intro
  all_goals exact keeps_of_result rfl (by decide)
set_option maxHeartbeats 400000 in
theorem hostOps0_51_keeps : (hostOps0_51 : List (HloOp τ sig (Elt F))).Forall Keeps := by
  simp only [List.Forall]
  repeat' apply And.intro
  all_goals exact keeps_of_result rfl (by decide)
set_option maxHeartbeats 400000 in
theorem hostOps0_52_keeps : (hostOps0_52 : List (HloOp τ sig (Elt F))).Forall Keeps := by
  simp only [List.Forall]
  repeat' apply And.intro
  all_goals exact keeps_of_result rfl (by decide)
set_option maxHeartbeats 400000 in
theorem hostOps0_53_keeps : (hostOps0_53 : List (HloOp τ sig (Elt F))).Forall Keeps := by
  simp only [List.Forall]
  repeat' apply And.intro
  all_goals exact keeps_of_result rfl (by decide)
set_option maxHeartbeats 400000 in
theorem hostOps0_54_keeps : (hostOps0_54 : List (HloOp τ sig (Elt F))).Forall Keeps := by
  simp only [List.Forall]
  repeat' apply And.intro
  all_goals exact keeps_of_result rfl (by decide)
set_option maxHeartbeats 400000 in
theorem hostOps0_55_keeps : (hostOps0_55 : List (HloOp τ sig (Elt F))).Forall Keeps := by
  simp only [List.Forall]
  repeat' apply And.intro
  all_goals exact keeps_of_result rfl (by decide)
set_option maxHeartbeats 400000 in
theorem hostOps0_56_keeps : (hostOps0_56 : List (HloOp τ sig (Elt F))).Forall Keeps := by
  simp only [List.Forall]
  repeat' apply And.intro
  all_goals exact keeps_of_result rfl (by decide)
set_option maxHeartbeats 400000 in
theorem hostOps0_57_keeps : (hostOps0_57 : List (HloOp τ sig (Elt F))).Forall Keeps := by
  simp only [List.Forall]
  repeat' apply And.intro
  all_goals exact keeps_of_result rfl (by decide)
set_option maxHeartbeats 400000 in
theorem hostOps0_58_keeps : (hostOps0_58 : List (HloOp τ sig (Elt F))).Forall Keeps := by
  simp only [List.Forall]
  repeat' apply And.intro
  all_goals exact keeps_of_result rfl (by decide)
set_option maxHeartbeats 400000 in
theorem hostOps0_59_keeps : (hostOps0_59 : List (HloOp τ sig (Elt F))).Forall Keeps := by
  simp only [List.Forall]
  repeat' apply And.intro
  all_goals exact keeps_of_result rfl (by decide)
set_option maxHeartbeats 400000 in
theorem hostOps0_60_keeps : (hostOps0_60 : List (HloOp τ sig (Elt F))).Forall Keeps := by
  simp only [List.Forall]
  repeat' apply And.intro
  all_goals exact keeps_of_result rfl (by decide)
set_option maxHeartbeats 400000 in
theorem hostOps0_61_keeps : (hostOps0_61 : List (HloOp τ sig (Elt F))).Forall Keeps := by
  simp only [List.Forall]
  repeat' apply And.intro
  all_goals exact keeps_of_result rfl (by decide)
set_option maxHeartbeats 400000 in
theorem hostOps0_62_keeps : (hostOps0_62 : List (HloOp τ sig (Elt F))).Forall Keeps := by
  simp only [List.Forall]
  repeat' apply And.intro
  all_goals exact keeps_of_result rfl (by decide)
set_option maxHeartbeats 400000 in
theorem hostOps0_63_keeps : (hostOps0_63 : List (HloOp τ sig (Elt F))).Forall Keeps := by
  simp only [List.Forall]
  repeat' apply And.intro
  all_goals exact keeps_of_result rfl (by decide)
set_option maxHeartbeats 400000 in
theorem hostOps0_64_keeps : (hostOps0_64 : List (HloOp τ sig (Elt F))).Forall Keeps := by
  simp only [List.Forall]
  repeat' apply And.intro
  all_goals exact keeps_of_result rfl (by decide)
set_option maxHeartbeats 400000 in
theorem hostOps0_65_keeps : (hostOps0_65 : List (HloOp τ sig (Elt F))).Forall Keeps := by
  simp only [List.Forall]
  repeat' apply And.intro
  all_goals exact keeps_of_result rfl (by decide)
set_option maxHeartbeats 400000 in
theorem hostOps0_66_keeps : (hostOps0_66 : List (HloOp τ sig (Elt F))).Forall Keeps := by
  simp only [List.Forall]
  repeat' apply And.intro
  all_goals exact keeps_of_result rfl (by decide)
set_option maxHeartbeats 400000 in
theorem hostOps0_67_keeps : (hostOps0_67 : List (HloOp τ sig (Elt F))).Forall Keeps := by
  simp only [List.Forall]
  repeat' apply And.intro
  all_goals exact keeps_of_result rfl (by decide)
set_option maxHeartbeats 400000 in
theorem hostOps0_68_keeps : (hostOps0_68 : List (HloOp τ sig (Elt F))).Forall Keeps := by
  simp only [List.Forall]
  repeat' apply And.intro
  all_goals exact keeps_of_result rfl (by decide)
set_option maxHeartbeats 400000 in
theorem hostOps0_69_keeps : (hostOps0_69 : List (HloOp τ sig (Elt F))).Forall Keeps := by
  simp only [List.Forall]
  repeat' apply And.intro
  all_goals exact keeps_of_result rfl (by decide)
set_option maxHeartbeats 400000 in
theorem hostOps0_70_keeps : (hostOps0_70 : List (HloOp τ sig (Elt F))).Forall Keeps := by
  simp only [List.Forall]
  repeat' apply And.intro
  all_goals exact keeps_of_result rfl (by decide)
set_option maxHeartbeats 400000 in
theorem hostOps0_71_keeps : (hostOps0_71 : List (HloOp τ sig (Elt F))).Forall Keeps := by
  simp only [List.Forall]
  repeat' apply And.intro
  all_goals exact keeps_of_result rfl (by decide)
set_option maxHeartbeats 400000 in
theorem hostOps0_72_keeps : (hostOps0_72 : List (HloOp τ sig (Elt F))).Forall Keeps := by
  simp only [List.Forall]
  repeat' apply And.intro
  all_goals exact keeps_of_result rfl (by decide)
set_option maxHeartbeats 400000 in
theorem hostOps0_73_keeps : (hostOps0_73 : List (HloOp τ sig (Elt F))).Forall Keeps := by
  simp only [List.Forall]
  repeat' apply And.intro
  all_goals exact keeps_of_result rfl (by decide)
set_option maxHeartbeats 400000 in
theorem hostOps0_74_keeps : (hostOps0_74 : List (HloOp τ sig (Elt F))).Forall Keeps := by
  simp only [List.Forall]
  repeat' apply And.intro
  all_goals exact keeps_of_result rfl (by decide)
set_option maxHeartbeats 400000 in
theorem hostOps0_75_keeps : (hostOps0_75 : List (HloOp τ sig (Elt F))).Forall Keeps := by
  simp only [List.Forall]
  repeat' apply And.intro
  all_goals exact keeps_of_result rfl (by decide)
set_option maxHeartbeats 400000 in
theorem hostOps0_76_keeps : (hostOps0_76 : List (HloOp τ sig (Elt F))).Forall Keeps := by
  simp only [List.Forall]
  repeat' apply And.intro
  all_goals exact keeps_of_result rfl (by decide)
set_option maxHeartbeats 400000 in
theorem hostOps0_77_keeps : (hostOps0_77 : List (HloOp τ sig (Elt F))).Forall Keeps := by
  simp only [List.Forall]
  repeat' apply And.intro
  all_goals exact keeps_of_result rfl (by decide)
set_option maxHeartbeats 400000 in
theorem hostOps0_78_keeps : (hostOps0_78 : List (HloOp τ sig (Elt F))).Forall Keeps := by
  simp only [List.Forall]
  repeat' apply And.intro
  all_goals exact keeps_of_result rfl (by decide)
set_option maxHeartbeats 400000 in
theorem hostOps0_79_keeps : (hostOps0_79 : List (HloOp τ sig (Elt F))).Forall Keeps := by
  simp only [List.Forall]
  repeat' apply And.intro
  all_goals exact keeps_of_result rfl (by decide)
set_option maxHeartbeats 400000 in
theorem hostOps0_80_keeps : (hostOps0_80 : List (HloOp τ sig (Elt F))).Forall Keeps := by
  simp only [List.Forall]
  repeat' apply And.intro
  all_goals exact keeps_of_result rfl (by decide)
set_option maxHeartbeats 400000 in
theorem hostOps0_81_keeps : (hostOps0_81 : List (HloOp τ sig (Elt F))).Forall Keeps := by
  simp only [List.Forall]
  repeat' apply And.intro
  all_goals exact keeps_of_result rfl (by decide)
set_option maxHeartbeats 400000 in
theorem hostOps0_82_keeps : (hostOps0_82 : List (HloOp τ sig (Elt F))).Forall Keeps := by
  simp only [List.Forall]
  repeat' apply And.intro
  all_goals exact keeps_of_result rfl (by decide)
set_option maxHeartbeats 400000 in
theorem hostOps0_83_keeps : (hostOps0_83 : List (HloOp τ sig (Elt F))).Forall Keeps := by
  simp only [List.Forall]
  repeat' apply And.intro
  all_goals exact keeps_of_result rfl (by decide)
set_option maxHeartbeats 400000 in
theorem hostOps0_84_keeps : (hostOps0_84 : List (HloOp τ sig (Elt F))).Forall Keeps := by
  simp only [List.Forall]
  repeat' apply And.intro
  all_goals exact keeps_of_result rfl (by decide)
set_option maxHeartbeats 400000 in
theorem hostOps0_85_keeps : (hostOps0_85 : List (HloOp τ sig (Elt F))).Forall Keeps := by
  simp only [List.Forall]
  repeat' apply And.intro
  all_goals exact keeps_of_result rfl (by decide)
set_option maxHeartbeats 400000 in
theorem hostOps0_86_keeps : (hostOps0_86 : List (HloOp τ sig (Elt F))).Forall Keeps := by
  simp only [List.Forall]
  repeat' apply And.intro
  all_goals exact keeps_of_result rfl (by decide)
set_option maxHeartbeats 400000 in
theorem hostOps0_87_keeps : (hostOps0_87 : List (HloOp τ sig (Elt F))).Forall Keeps := by
  simp only [List.Forall]
  repeat' apply And.intro
  all_goals exact keeps_of_result rfl (by decide)
set_option maxHeartbeats 400000 in
theorem hostOps0_88_keeps : (hostOps0_88 : List (HloOp τ sig (Elt F))).Forall Keeps := by
  simp only [List.Forall]
  repeat' apply And.intro
  all_goals exact keeps_of_result rfl (by decide)
set_option maxHeartbeats 400000 in
theorem hostOps0_89_keeps : (hostOps0_89 : List (HloOp τ sig (Elt F))).Forall Keeps := by
  simp only [List.Forall]
  repeat' apply And.intro
  all_goals exact keeps_of_result rfl (by decide)
set_option maxHeartbeats 400000 in
theorem hostOps0_90_keeps : (hostOps0_90 : List (HloOp τ sig (Elt F))).Forall Keeps := by
  simp only [List.Forall]
  repeat' apply And.intro
  all_goals exact keeps_of_result rfl (by decide)
set_option maxHeartbeats 400000 in
theorem hostOps0_91_keeps : (hostOps0_91 : List (HloOp τ sig (Elt F))).Forall Keeps := by
  simp only [List.Forall]
  repeat' apply And.intro
  all_goals exact keeps_of_result rfl (by decide)
set_option maxHeartbeats 400000 in
theorem hostOps0_92_keeps : (hostOps0_92 : List (HloOp τ sig (Elt F))).Forall Keeps := by
  simp only [List.Forall]
  repeat' apply And.intro
  all_goals exact keeps_of_result rfl (by decide)
set_option maxHeartbeats 400000 in
theorem hostOps0_93_keeps : (hostOps0_93 : List (HloOp τ sig (Elt F))).Forall Keeps := by
  simp only [List.Forall]
  repeat' apply And.intro
  all_goals exact keeps_of_result rfl (by decide)
set_option maxHeartbeats 400000 in
theorem hostOps0_94_keeps : (hostOps0_94 : List (HloOp τ sig (Elt F))).Forall Keeps := by
  simp only [List.Forall]
  repeat' apply And.intro
  all_goals exact keeps_of_result rfl (by decide)
set_option maxHeartbeats 400000 in
theorem hostOps0_95_keeps : (hostOps0_95 : List (HloOp τ sig (Elt F))).Forall Keeps := by
  simp only [List.Forall]
  repeat' apply And.intro
  all_goals exact keeps_of_result rfl (by decide)
set_option maxHeartbeats 400000 in
theorem hostOps0_96_keeps : (hostOps0_96 : List (HloOp τ sig (Elt F))).Forall Keeps := by
  simp only [List.Forall]
  repeat' apply And.intro
  all_goals exact keeps_of_result rfl (by decide)
set_option maxHeartbeats 400000 in
theorem hostOps0_97_keeps : (hostOps0_97 : List (HloOp τ sig (Elt F))).Forall Keeps := by
  simp only [List.Forall]
  repeat' apply And.intro
  all_goals exact keeps_of_result rfl (by decide)
set_option maxHeartbeats 400000 in
theorem hostOps0_98_keeps : (hostOps0_98 : List (HloOp τ sig (Elt F))).Forall Keeps := by
  simp only [List.Forall]
  repeat' apply And.intro
  all_goals exact keeps_of_result rfl (by decide)
set_option maxHeartbeats 400000 in
theorem hostOps0_99_keeps : (hostOps0_99 : List (HloOp τ sig (Elt F))).Forall Keeps := by
  simp only [List.Forall]
  repeat' apply And.intro
  all_goals exact keeps_of_result rfl (by decide)
set_option maxHeartbeats 400000 in
theorem hostOps0_100_keeps : (hostOps0_100 : List (HloOp τ sig (Elt F))).Forall Keeps := by
  simp only [List.Forall]
  repeat' apply And.intro
  all_goals exact keeps_of_result rfl (by decide)
set_option maxHeartbeats 400000 in
theorem hostOps0_101_keeps : (hostOps0_101 : List (HloOp τ sig (Elt F))).Forall Keeps := by
  simp only [List.Forall]
  repeat' apply And.intro
  all_goals exact keeps_of_result rfl (by decide)
set_option maxHeartbeats 400000 in
theorem hostOps0_102_keeps : (hostOps0_102 : List (HloOp τ sig (Elt F))).Forall Keeps := by
  simp only [List.Forall]
  repeat' apply And.intro
  all_goals exact keeps_of_result rfl (by decide)
set_option maxHeartbeats 400000 in
theorem hostOps0_103_keeps : (hostOps0_103 : List (HloOp τ sig (Elt F))).Forall Keeps := by
  simp only [List.Forall]
  repeat' apply And.intro
  all_goals exact keeps_of_result rfl (by decide)
set_option maxHeartbeats 400000 in
theorem hostOps0_104_keeps : (hostOps0_104 : List (HloOp τ sig (Elt F))).Forall Keeps := by
  simp only [List.Forall]
  repeat' apply And.intro
  all_goals exact keeps_of_result rfl (by decide)
set_option maxHeartbeats 400000 in
theorem hostOps0_105_keeps : (hostOps0_105 : List (HloOp τ sig (Elt F))).Forall Keeps := by
  simp only [List.Forall]
  repeat' apply And.intro
  all_goals exact keeps_of_result rfl (by decide)
set_option maxHeartbeats 400000 in
theorem hostOps0_106_keeps : (hostOps0_106 : List (HloOp τ sig (Elt F))).Forall Keeps := by
  simp only [List.Forall]
  repeat' apply And.intro
  all_goals exact keeps_of_result rfl (by decide)
set_option maxHeartbeats 400000 in
theorem hostOps0_107_keeps : (hostOps0_107 : List (HloOp τ sig (Elt F))).Forall Keeps := by
  simp only [List.Forall]
  repeat' apply And.intro
  all_goals exact keeps_of_result rfl (by decide)
set_option maxHeartbeats 400000 in
theorem hostOps0_108_keeps : (hostOps0_108 : List (HloOp τ sig (Elt F))).Forall Keeps := by
  simp only [List.Forall]
  repeat' apply And.intro
  all_goals exact keeps_of_result rfl (by decide)
set_option maxHeartbeats 400000 in
theorem hostOps0_109_keeps : (hostOps0_109 : List (HloOp τ sig (Elt F))).Forall Keeps := by
  simp only [List.Forall]
  repeat' apply And.intro
  all_goals exact keeps_of_result rfl (by decide)
set_option maxHeartbeats 400000 in
theorem hostOps0_110_keeps : (hostOps0_110 : List (HloOp τ sig (Elt F))).Forall Keeps := by
  simp only [List.Forall]
  repeat' apply And.intro
  all_goals exact keeps_of_result rfl (by decide)
set_option maxHeartbeats 400000 in
theorem hostOps0_111_keeps : (hostOps0_111 : List (HloOp τ sig (Elt F))).Forall Keeps := by
  simp only [List.Forall]
  repeat' apply And.intro
  all_goals exact keeps_of_result rfl (by decide)
set_option maxHeartbeats 400000 in
theorem hostOps0_112_keeps : (hostOps0_112 : List (HloOp τ sig (Elt F))).Forall Keeps := by
  simp only [List.Forall]
  repeat' apply And.intro
  all_goals exact keeps_of_result rfl (by decide)
set_option maxHeartbeats 400000 in
theorem hostOps0_113_keeps : (hostOps0_113 : List (HloOp τ sig (Elt F))).Forall Keeps := by
  simp only [List.Forall]
  repeat' apply And.intro
  all_goals exact keeps_of_result rfl (by decide)
set_option maxHeartbeats 400000 in
theorem hostOps0_114_keeps : (hostOps0_114 : List (HloOp τ sig (Elt F))).Forall Keeps := by
  simp only [List.Forall]
  repeat' apply And.intro
  all_goals exact keeps_of_result rfl (by decide)
set_option maxHeartbeats 400000 in
theorem hostOps0_115_keeps : (hostOps0_115 : List (HloOp τ sig (Elt F))).Forall Keeps := by
  simp only [List.Forall]
  repeat' apply And.intro
  all_goals exact keeps_of_result rfl (by decide)
set_option maxHeartbeats 400000 in
theorem hostOps0_116_keeps : (hostOps0_116 : List (HloOp τ sig (Elt F))).Forall Keeps := by
  simp only [List.Forall]
  repeat' apply And.intro
  all_goals exact keeps_of_result rfl (by decide)
set_option maxHeartbeats 400000 in
theorem hostOps0_117_keeps : (hostOps0_117 : List (HloOp τ sig (Elt F))).Forall Keeps := by
  simp only [List.Forall]
  repeat' apply And.intro
  all_goals exact keeps_of_result rfl (by decide)
set_option maxHeartbeats 400000 in
theorem hostOps0_118_keeps : (hostOps0_118 : List (HloOp τ sig (Elt F))).Forall Keeps := by
  simp only [List.Forall]
  repeat' apply And.intro
  all_goals exact keeps_of_result rfl (by decide)
set_option maxHeartbeats 400000 in
theorem hostOps0_119_keeps : (hostOps0_119 : List (HloOp τ sig (Elt F))).Forall Keeps := by
  simp only [List.Forall]
  repeat' apply And.intro
  all_goals exact keeps_of_result rfl (by decide)
set_option maxHeartbeats 400000 in
theorem hostOps0_120_keeps : (hostOps0_120 : List (HloOp τ sig (Elt F))).Forall Keeps := by
  simp only [List.Forall]
  repeat' apply And.intro
  all_goals exact keeps_of_result rfl (by decide)
set_option maxHeartbeats 400000 in
theorem hostOps0_121_keeps : (hostOps0_121 : List (HloOp τ sig (Elt F))).Forall Keeps := by
  simp only [List.Forall]
  repeat' apply And.intro
  all_goals exact keeps_of_result rfl (by decide)
set_option maxHeartbeats 400000 in
theorem hostOps0_122_keeps : (hostOps0_122 : List (HloOp τ sig (Elt F))).Forall Keeps := by
  simp only [List.Forall]
  repeat' apply And.intro
  all_goals exact keeps_of_result rfl (by decide)
set_option maxHeartbeats 400000 in
theorem hostOps0_123_keeps : (hostOps0_123 : List (HloOp τ sig (Elt F))).Forall Keeps := by
  simp only [List.Forall]
  repeat' apply And.intro
  all_goals exact keeps_of_result rfl (by decide)
set_option maxHeartbeats 400000 in
theorem hostOps0_124_keeps : (hostOps0_124 : List (HloOp τ sig (Elt F))).Forall Keeps := by
  simp only [List.Forall]
  repeat' apply And.intro
  all_goals exact keeps_of_result rfl (by decide)
set_option maxHeartbeats 400000 in
theorem hostOps0_125_keeps : (hostOps0_125 : List (HloOp τ sig (Elt F))).Forall Keeps := by
  simp only [List.Forall]
  repeat' apply And.intro
  all_goals exact keeps_of_result rfl (by decide)
set_option maxHeartbeats 400000 in
theorem hostOps0_126_keeps : (hostOps0_126 : List (HloOp τ sig (Elt F))).Forall Keeps := by
  simp only [List.Forall]
  repeat' apply And.intro
  all_goals exact keeps_of_result rfl (by decide)
set_option maxHeartbeats 400000 in
theorem hostOps0_127_keeps : (hostOps0_127 : List (HloOp τ sig (Elt F))).Forall Keeps := by
  simp only [List.Forall]
  repeat' apply And.intro
  all_goals exact keeps_of_result rfl (by decide)
set_option maxHeartbeats 400000 in
theorem hostOps0_128_keeps : (hostOps0_128 : List (HloOp τ sig (Elt F))).Forall Keeps := by
  simp only [List.Forall]
  repeat' apply And.intro
  all_goals exact keeps_of_result rfl (by decide)
set_option maxHeartbeats 400000 in
theorem hostOps0_129_keeps : (hostOps0_129 : List (HloOp τ sig (Elt F))).Forall Keeps := by
  simp only [List.Forall]
  repeat' apply And.intro
  all_goals exact keeps_of_result rfl (by decide)
set_option maxHeartbeats 400000 in
theorem hostOps0_130_keeps : (hostOps0_130 : List (HloOp τ sig (Elt F))).Forall Keeps := by
  simp only [List.Forall]
  repeat' apply And.intro
  all_goals exact keeps_of_result rfl (by decide)
set_option maxHeartbeats 400000 in
theorem hostOps0_131_keeps : (hostOps0_131 : List (HloOp τ sig (Elt F))).Forall Keeps := by
  simp only [List.Forall]
  repeat' apply And.intro
  all_goals exact keeps_of_result rfl (by decide)
set_option maxHeartbeats 400000 in
theorem hostOps0_132_keeps : (hostOps0_132 : List (HloOp τ sig (Elt F))).Forall Keeps := by
  simp only [List.Forall]
  repeat' apply And.intro
  all_goals exact keeps_of_result rfl (by decide)
set_option maxHeartbeats 400000 in
theorem hostOps0_133_keeps : (hostOps0_133 : List (HloOp τ sig (Elt F))).Forall Keeps := by
  simp only [List.Forall]
  repeat' apply And.intro
  all_goals exact keeps_of_result rfl (by decide)
set_option maxHeartbeats 400000 in
theorem hostOps0_134_keeps : (hostOps0_134 : List (HloOp τ sig (Elt F))).Forall Keeps := by
  simp only [List.Forall]
  repeat' apply And.intro
  all_goals exact keeps_of_result rfl (by decide)
set_option maxHeartbeats 400000 in
theorem hostOps0_135_keeps : (hostOps0_135 : List (HloOp τ sig (Elt F))).Forall Keeps := by
  simp only [List.Forall]
  repeat' apply And.intro
  all_goals exact keeps_of_result rfl (by decide)
set_option maxHeartbeats 400000 in
theorem hostOps0_136_keeps : (hostOps0_136 : List (HloOp τ sig (Elt F))).Forall Keeps := by
  simp only [List.Forall]
  repeat' apply And.intro
  all_goals exact keeps_of_result rfl (by decide)
set_option maxHeartbeats 400000 in
theorem hostOps0_137_keeps : (hostOps0_137 : List (HloOp τ sig (Elt F))).Forall Keeps := by
  simp only [List.Forall]
  repeat' apply And.intro
  all_goals exact keeps_of_result rfl (by decide)
set_option maxHeartbeats 400000 in
theorem hostOps0_138_keeps : (hostOps0_138 : List (HloOp τ sig (Elt F))).Forall Keeps := by
  simp only [List.Forall]
  repeat' apply And.intro
  all_goals exact keeps_of_result rfl (by decide)
set_option maxHeartbeats 400000 in
theorem hostOps0_139_keeps : (hostOps0_139 : List (HloOp τ sig (Elt F))).Forall Keeps := by
  simp only [List.Forall]
  repeat' apply And.intro
  all_goals exact keeps_of_result rfl (by decide)
set_option maxHeartbeats 400000 in
theorem hostOps0_140_keeps : (hostOps0_140 : List (HloOp τ sig (Elt F))).Forall Keeps := by
  simp only [List.Forall]
  repeat' apply And.intro
  all_goals exact keeps_of_result rfl (by decide)
set_option maxHeartbeats 400000 in
theorem hostOps0_141_keeps : (hostOps0_141 : List (HloOp τ sig (Elt F))).Forall Keeps := by
  simp only [List.Forall]
  repeat' apply And.intro
  all_goals exact keeps_of_result rfl (by decide)
set_option maxHeartbeats 400000 in
theorem hostOps0_142_keeps : (hostOps0_142 : List (HloOp τ sig (Elt F))).Forall Keeps := by
  simp only [List.Forall]
  repeat' apply And.intro
  all_goals exact keeps_of_result rfl (by decide)
set_option maxHeartbeats 400000 in
theorem hostOps0_143_keeps : (hostOps0_143 : List (HloOp τ sig (Elt F))).Forall Keeps := by
  simp only [List.Forall]
  repeat' apply And.intro
  all_goals exact keeps_of_result rfl (by decide)
set_option maxHeartbeats 400000 in
theorem hostOps0_144_keeps : (hostOps0_144 : List (HloOp τ sig (Elt F))).Forall Keeps := by
  simp only [List.Forall]
  repeat' apply And.intro
  all_goals exact keeps_of_result rfl (by decide)
set_option maxHeartbeats 400000 in
theorem hostOps0_145_keeps : (hostOps0_145 : List (HloOp τ sig (Elt F))).Forall Keeps := by
  simp only [List.Forall]
  repeat' apply And.intro
  all_goals exact keeps_of_result rfl (by decide)
set_option maxHeartbeats 400000 in
theorem hostOps0_146_keeps : (hostOps0_146 : List (HloOp τ sig (Elt F))).Forall Keeps := by
  simp only [List.Forall]
  repeat' apply And.intro
  all_goals exact keeps_of_result rfl (by decide)
set_option maxHeartbeats 400000 in
theorem hostOps0_147_keeps : (hostOps0_147 : List (HloOp τ sig (Elt F))).Forall Keeps := by
  simp only [List.Forall]
  repeat' apply And.intro
  all_goals exact keeps_of_result rfl (by decide)
set_option maxHeartbeats 400000 in
theorem hostOps0_148_keeps : (hostOps0_148 : List (HloOp τ sig (Elt F))).Forall Keeps := by
  simp only [List.Forall]
  repeat' apply And.intro
  all_goals exact keeps_of_result rfl (by decide)
set_option maxHeartbeats 400000 in
theorem hostOps0_149_keeps : (hostOps0_149 : List (HloOp τ sig (Elt F))).Forall Keeps := by
  simp only [List.Forall]
  repeat' apply And.intro
  all_goals exact keeps_of_result rfl (by decide)
set_option maxHeartbeats 400000 in
theorem hostOps0_150_keeps : (hostOps0_150 : List (HloOp τ sig (Elt F))).Forall Keeps := by
  simp only [List.Forall]
  repeat' apply And.intro
  all_goals exact keeps_of_result rfl (by decide)
set_option maxHeartbeats 400000 in
theorem hostOps0_151_keeps : (hostOps0_151 : List (HloOp τ sig (Elt F))).Forall Keeps := by
  simp only [List.Forall]
  repeat' apply And.intro
  all_goals exact keeps_of_result rfl (by decide)
set_option maxHeartbeats 400000 in
theorem hostOps0_152_keeps : (hostOps0_152 : List (HloOp τ sig (Elt F))).Forall Keeps := by
  simp only [List.Forall]
  repeat' apply And.intro
  all_goals exact keeps_of_result rfl (by decide)
set_option maxHeartbeats 400000 in
theorem hostOps0_153_keeps : (hostOps0_153 : List (HloOp τ sig (Elt F))).Forall Keeps := by
  simp only [List.Forall]
  repeat' apply And.intro
  all_goals exact keeps_of_result rfl (by decide)
set_option maxHeartbeats 400000 in
theorem hostOps0_154_keeps : (hostOps0_154 : List (HloOp τ sig (Elt F))).Forall Keeps := by
  simp only [List.Forall]
  repeat' apply And.intro
  all_goals exact keeps_of_result rfl (by decide)
set_option maxHeartbeats 400000 in
theorem hostOps0_155_keeps : (hostOps0_155 : List (HloOp τ sig (Elt F))).Forall Keeps := by
  simp only [List.Forall]
  repeat' apply And.intro
  all_goals exact keeps_of_result rfl (by decide)
set_option maxHeartbeats 400000 in
theorem hostOps0_156_keeps : (hostOps0_156 : List (HloOp τ sig (Elt F))).Forall Keeps := by
  simp only [List.Forall]
  repeat' apply And.intro
  all_goals exact keeps_of_result rfl (by decide)
set_option maxHeartbeats 400000 in
theorem hostOps0_157_keeps : (hostOps0_157 : List (HloOp τ sig (Elt F))).Forall Keeps := by
  simp only [List.Forall]
  repeat' apply And.intro
  all_goals exact keeps_of_result rfl (by decide)
set_option maxHeartbeats 400000 in
theorem hostOps0_158_keeps : (hostOps0_158 : List (HloOp τ sig (Elt F))).Forall Keeps := by
  simp only [List.Forall]
  repeat' apply And.intro
  all_goals exact keeps_of_result rfl (by decide)
set_option maxHeartbeats 400000 in
theorem hostOps0_159_keeps : (hostOps0_159 : List (HloOp τ sig (Elt F))).Forall Keeps := by
  simp only [List.Forall]
  repeat' apply And.intro
  all_goals exact keeps_of_result rfl (by decide)
set_option maxHeartbeats 400000 in
theorem hostOps0_160_keeps : (hostOps0_160 : List (HloOp τ sig (Elt F))).Forall Keeps := by
  simp only [List.Forall]
  repeat' apply And.intro
  all_goals exact keeps_of_result rfl (by decide)
set_option maxHeartbeats 400000 in
theorem hostOps0_161_keeps : (hostOps0_161 : List (HloOp τ sig (Elt F))).Forall Keeps := by
  simp only [List.Forall]
  repeat' apply And.intro
  all_goals exact keeps_of_result rfl (by decide)
set_option maxHeartbeats 400000 in
theorem hostOps0_162_keeps : (hostOps0_162 : List (HloOp τ sig (Elt F))).Forall Keeps := by
  simp only [List.Forall]
  repeat' apply And.intro
  all_goals exact keeps_of_result rfl (by decide)
set_option maxHeartbeats 400000 in
theorem hostOps0_163_keeps : (hostOps0_163 : List (HloOp τ sig (Elt F))).Forall Keeps := by
  simp only [List.Forall]
  repeat' apply And.intro
  all_goals exact keeps_of_result rfl (by decide)
set_option maxHeartbeats 400000 in
theorem hostOps0_164_keeps : (hostOps0_164 : List (HloOp τ sig (Elt F))).Forall Keeps := by
  simp only [List.Forall]
  repeat' apply And.intro
  all_goals exact keeps_of_result rfl (by decide)
set_option maxHeartbeats 400000 in
theorem hostOps0_165_keeps : (hostOps0_165 : List (HloOp τ sig (Elt F))).Forall Keeps := by
  simp only [List.Forall]
  repeat' apply And.intro
  all_goals exact keeps_of_result rfl (by decide)
set_option maxHeartbeats 400000 in
theorem hostOps0_166_keeps : (hostOps0_166 : List (HloOp τ sig (Elt F))).Forall Keeps := by
  simp only [List.Forall]
  repeat' apply And.intro
  all_goals exact keeps_of_result rfl (by decide)
set_option maxHeartbeats 400000 in
theorem hostOps0_167_keeps : (hostOps0_167 : List (HloOp τ sig (Elt F))).Forall Keeps := by
  simp only [List.Forall]
  repeat' apply And.intro
  all_goals exact keeps_of_result rfl (by decide)
set_option maxHeartbeats 400000 in
theorem hostOps0_168_keeps : (hostOps0_168 : List (HloOp τ sig (Elt F))).Forall Keeps := by
  simp only [List.Forall]
  repeat' apply And.intro
  all_goals exact keeps_of_result rfl (by decide)
set_option maxHeartbeats 400000 in
theorem hostOps0_169_keeps : (hostOps0_169 : List (HloOp τ sig (Elt F))).Forall Keeps := by
  simp only [List.Forall]
  repeat' apply And.intro
  all_goals exact keeps_of_result rfl (by decide)
set_option maxHeartbeats 400000 in
theorem hostOps0_170_keeps : (hostOps0_170 : List (HloOp τ sig (Elt F))).Forall Keeps := by
  simp only [List.Forall]
  repeat' apply And.intro
  all_goals exact keeps_of_result rfl (by decide)
set_option maxHeartbeats 400000 in
theorem hostOps0_171_keeps : (hostOps0_171 : List (HloOp τ sig (Elt F))).Forall Keeps := by
  simp only [List.Forall]
  repeat' apply And.intro
  all_goals exact keeps_of_result rfl (by decide)
set_option maxHeartbeats 400000 in
theorem hostOps0_172_keeps : (hostOps0_172 : List (HloOp τ sig (Elt F))).Forall Keeps := by
  simp only [List.Forall]
  repeat' apply And.intro
  all_goals exact keeps_of_result rfl (by decide)
set_option maxHeartbeats 400000 in
theorem hostOps0_173_keeps : (hostOps0_173 : List (HloOp τ sig (Elt F))).Forall Keeps := by
  simp only [List.Forall]
  repeat' apply And.intro
  all_goals exact keeps_of_result rfl (by decide)
set_option maxHeartbeats 400000 in
theorem hostOps0_174_keeps : (hostOps0_174 : List (HloOp τ sig (Elt F))).Forall Keeps := by
  simp only [List.Forall]
  repeat' apply And.intro
  all_goals exact keeps_of_result rfl (by decide)
set_option maxHeartbeats 400000 in
theorem hostOps0_175_keeps : (hostOps0_175 : List (HloOp τ sig (Elt F))).Forall Keeps := by
  simp only [List.Forall]
  repeat' apply And.intro
  all_goals exact keeps_of_result rfl (by decide)
set_option maxHeartbeats 400000 in
theorem hostOps0_176_keeps : (hostOps0_176 : List (HloOp τ sig (Elt F))).Forall Keeps := by
  simp only [List.Forall]
  repeat' apply And.intro
  all_goals exact keeps_of_result rfl (by decide)
set_option maxHeartbeats 400000 in
theorem hostOps0_177_keeps : (hostOps0_177 : List (HloOp τ sig (Elt F))).Forall Keeps := by
  simp only [List.Forall]
  repeat' apply And.intro
  all_goals exact keeps_of_result rfl (by decide)
set_option maxHeartbeats 400000 in
theorem hostOps0_178_keeps : (hostOps0_178 : List (HloOp τ sig (Elt F))).Forall Keeps := by
  simp only [List.Forall]
  repeat' apply And.intro
  all_goals exact keeps_of_result rfl (by decide)
set_option maxHeartbeats 400000 in
theorem hostOps0_179_keeps : (hostOps0_179 : List (HloOp τ sig (Elt F))).Forall Keeps := by
  simp only [List.Forall]
  repeat' apply And.intro
  all_goals exact keeps_of_result rfl (by decide)
set_option maxHeartbeats 400000 in
theorem hostOps0_180_keeps : (hostOps0_180 : List (HloOp τ sig (Elt F))).Forall Keeps := by
  simp only [List.Forall]
  repeat' apply And.intro
  all_goals exact keeps_of_result rfl (by decide)
set_option maxHeartbeats 400000 in
theorem hostOps0_181_keeps : (hostOps0_181 : List (HloOp τ sig (Elt F))).Forall Keeps := by
  simp only [List.Forall]
  repeat' apply And.intro
  all_goals exact keeps_of_result rfl (by decide)
set_option maxHeartbeats 400000 in
theorem hostOps0_182_keeps : (hostOps0_182 : List (HloOp τ sig (Elt F))).Forall Keeps := by
  simp only [List.Forall]
  repeat' apply And.intro
  all_goals exact keeps_of_result rfl (by decide)
set_option maxHeartbeats 400000 in
theorem hostOps0_183_keeps : (hostOps0_183 : List (HloOp τ sig (Elt F))).Forall Keeps := by
  simp only [List.Forall]
  repeat' apply And.intro
  all_goals exact keeps_of_result rfl (by decide)
set_option maxHeartbeats 400000 in
theorem hostOps0_184_keeps : (hostOps0_184 : List (HloOp τ sig (Elt F))).Forall Keeps := by
  simp only [List.Forall]
  repeat' apply And.intro
  all_goals exact keeps_of_result rfl (by decide)
set_option maxHeartbeats 400000 in
theorem hostOps0_185_keeps : (hostOps0_185 : List (HloOp τ sig (Elt F))).Forall Keeps := by
  simp only [List.Forall]
  repeat' apply And.intro
  all_goals exact keeps_of_result rfl (by decide)
set_option maxHeartbeats 400000 in
theorem hostOps0_186_keeps : (hostOps0_186 : List (HloOp τ sig (Elt F))).Forall Keeps := by
  simp only [List.Forall]
  repeat' apply And.intro
  all_goals exact keeps_of_result rfl (by decide)
set_option maxHeartbeats 400000 in
theorem hostOps0_187_keeps : (hostOps0_187 : List (HloOp τ sig (Elt F))).Forall Keeps := by
  simp only [List.Forall]
  repeat' apply And.intro
  all_goals exact keeps_of_result rfl (by decide)
set_option maxHeartbeats 400000 in
theorem hostOps0_188_keeps : (hostOps0_188 : List (HloOp τ sig (Elt F))).Forall Keeps := by
  simp only [List.Forall]
  repeat' apply And.intro
  all_goals exact keeps_of_result rfl (by decide)
set_option maxHeartbeats 400000 in
theorem hostOps0_189_keeps : (hostOps0_189 : List (HloOp τ sig (Elt F))).Forall Keeps := by
  simp only [List.Forall]
  repeat' apply And.intro
  all_goals exact keeps_of_result rfl (by decide)
set_option maxHeartbeats 400000 in
theorem hostOps0_190_keeps : (hostOps0_190 : List (HloOp τ sig (Elt F))).Forall Keeps := by
  simp only [List.Forall]
  repeat' apply And.intro
  all_goals exact keeps_of_result rfl (by decide)
set_option maxHeartbeats 400000 in
theorem hostOps0_191_keeps : (hostOps0_191 : List (HloOp τ sig (Elt F))).Forall Keeps := by
  simp only [List.Forall]
  repeat' apply And.intro
  all_goals exact keeps_of_result rfl (by decide)
set_option maxHeartbeats 400000 in
theorem hostOps0_192_keeps : (hostOps0_192 : List (HloOp τ sig (Elt F))).Forall Keeps := by
  simp only [List.Forall]
  repeat' apply And.intro
  all_goals exact keeps_of_result rfl (by decide)
set_option maxHeartbeats 400000 in
theorem hostOps0_193_keeps : (hostOps0_193 : List (HloOp τ sig (Elt F))).Forall Keeps := by
  simp only [List.Forall]
  repeat' apply And.intro
  all_goals exact keeps_of_result rfl (by decide)
set_option maxHeartbeats 400000 in
theorem hostOps0_194_keeps : (hostOps0_194 : List (HloOp τ sig (Elt F))).Forall Keeps := by
  simp only [List.Forall]
  repeat' apply And.intro
  all_goals exact keeps_of_result rfl (by decide)
set_option maxHeartbeats 400000 in
theorem hostOps0_195_keeps : (hostOps0_195 : List (HloOp τ sig (Elt F))).Forall Keeps := by
  simp only [List.Forall]
  repeat' apply And.intro
  all_goals exact keeps_of_result rfl (by decide)
set_option maxHeartbeats 400000 in
theorem hostOps0_196_keeps : (hostOps0_196 : List (HloOp τ sig (Elt F))).Forall Keeps := by
  simp only [List.Forall]
  repeat' apply And.intro
  all_goals exact keeps_of_result rfl (by decide)

/-- Every operation of every stretch writes no argument. -/
theorem stretches_keep : (stretches (F := F)).Forall fun ops => ops.Forall Keeps := by
  simp only [List.Forall]
  exact ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, hostOps0_50_keeps, hostOps0_51_keeps, hostOps0_52_keeps, hostOps0_53_keeps, hostOps0_54_keeps, hostOps0_55_keeps, hostOps0_56_keeps, hostOps0_57_keeps, hostOps0_58_keeps, hostOps0_59_keeps, hostOps0_60_keeps, hostOps0_61_keeps, hostOps0_62_keeps, hostOps0_63_keeps, hostOps0_64_keeps, hostOps0_65_keeps, hostOps0_66_keeps, hostOps0_67_keeps, hostOps0_68_keeps, hostOps0_69_keeps, hostOps0_70_keeps, hostOps0_71_keeps, hostOps0_72_keeps, hostOps0_73_keeps, hostOps0_74_keeps, hostOps0_75_keeps, hostOps0_76_keeps, hostOps0_77_keeps, hostOps0_78_keeps, hostOps0_79_keeps, hostOps0_80_keeps, hostOps0_81_keeps, hostOps0_82_keeps, hostOps0_83_keeps, hostOps0_84_keeps, hostOps0_85_keeps, hostOps0_86_keeps, hostOps0_87_keeps, hostOps0_88_keeps, hostOps0_89_keeps, hostOps0_90_keeps, hostOps0_91_keeps, hostOps0_92_keeps, hostOps0_93_keeps, hostOps0_94_keeps, hostOps0_95_keeps, hostOps0_96_keeps, hostOps0_97_keeps, hostOps0_98_keeps, hostOps0_99_keeps, hostOps0_100_keeps, hostOps0_101_keeps, hostOps0_102_keeps, hostOps0_103_keeps, hostOps0_104_keeps, hostOps0_105_keeps, hostOps0_106_keeps, hostOps0_107_keeps, hostOps0_108_keeps, hostOps0_109_keeps, hostOps0_110_keeps, hostOps0_111_keeps, hostOps0_112_keeps, hostOps0_113_keeps, hostOps0_114_keeps, hostOps0_115_keeps, hostOps0_116_keeps, hostOps0_117_keeps, hostOps0_118_keeps, hostOps0_119_keeps, hostOps0_120_keeps, hostOps0_121_keeps, hostOps0_122_keeps, hostOps0_123_keeps, hostOps0_124_keeps, hostOps0_125_keeps, hostOps0_126_keeps, hostOps0_127_keeps, hostOps0_128_keeps, hostOps0_129_keeps, hostOps0_130_keeps, hostOps0_131_keeps, hostOps0_132_keeps, hostOps0_133_keeps, hostOps0_134_keeps, hostOps0_135_keeps, hostOps0_136_keeps, hostOps0_137_keeps, hostOps0_138_keeps, hostOps0_139_keeps, hostOps0_140_keeps, hostOps0_141_keeps, hostOps0_142_keeps, hostOps0_143_keeps, hostOps0_144_keeps, hostOps0_145_keeps, hostOps0_146_keeps, hostOps0_147_keeps, hostOps0_148_keeps, hostOps0_149_keeps, hostOps0_150_keeps, hostOps0_151_keeps, hostOps0_152_keeps, hostOps0_153_keeps, hostOps0_154_keeps, hostOps0_155_keeps, hostOps0_156_keeps, hostOps0_157_keeps, hostOps0_158_keeps, hostOps0_159_keeps, hostOps0_160_keeps, hostOps0_161_keeps, hostOps0_162_keeps, hostOps0_163_keeps, hostOps0_164_keeps, hostOps0_165_keeps, hostOps0_166_keeps, hostOps0_167_keeps, hostOps0_168_keeps, hostOps0_169_keeps, hostOps0_170_keeps, hostOps0_171_keeps, hostOps0_172_keeps, hostOps0_173_keeps, hostOps0_174_keeps, hostOps0_175_keeps, hostOps0_176_keeps, hostOps0_177_keeps, hostOps0_178_keeps, hostOps0_179_keeps, hostOps0_180_keeps, hostOps0_181_keeps, hostOps0_182_keeps, hostOps0_183_keeps, hostOps0_184_keeps, hostOps0_185_keeps, hostOps0_186_keeps, hostOps0_187_keeps, hostOps0_188_keeps, hostOps0_189_keeps, hostOps0_190_keeps, hostOps0_191_keeps, hostOps0_192_keeps, hostOps0_193_keeps, hostOps0_194_keeps, hostOps0_195_keeps, hostOps0_196_keeps⟩

/-- So does every operation of the stretches laid end to end: it is an operation of one of them. -/
theorem flatten_keeps : ∀ op ∈ (stretches (F := F)).flatten, Keeps op := fun op hop => by
  obtain ⟨ops, hops, hmem⟩ := List.mem_flatten.mp hop
  exact List.forall_iff_forall_mem.mp (List.forall_iff_forall_mem.mp stretches_keep ops hops) op hmem

/-- An argument's buffer holds after the whole line what it held before it. -/
theorem after_arg (V : Valuation τ sig (Elt F)) {a : Ref sig .tc} (ha : a ∈ args) :
    StableHlo.after (stretches (F := F)).flatten V (Proc.devRef .tc a) = V (Proc.devRef .tc a) :=
  StableHlo.after_of_forall_not_mem _ V fun op hop => flatten_keeps op hop a ha

end Cert.KernelIdeal.Acc

end
-- ==== Proof.Entry.lean ====
/-
  The buffers as the region finds them.
  Before its one region the kernel's program runs its host part: 1,486 statements, 2,605 operations once the
  functions they call are written out in place (the RoI pooling that builds the 3 × 150528 feature matrix).  `entry m c b` is what buffer `b` of core `c` holds when the region is entered: the
  launch memory `m` with every one of those operations applied, in order.  No host operation writes an argument of
  the program, so each argument is found as launched.
-/
import proofs.«107941_j79491254714775_1_alg».proof.Proof.Keeps

set_option maxRecDepth 16384

noncomputable section

namespace Cert.KernelIdeal.Acc

open Idealize.ShloMosaic Idealize.ShloMosaic.TcCoe Idealize.SL Idealize.SL.Sem
open Idealize.ShloMosaic.Rounds
open Cert.KernelIdeal Cert.KernelIdeal.Gen

variable {F : FTy → Type} [FloatOps F]
variable (m : (ℓ : Loc nD τ sig) → Buf (Elt F) ℓ)

/-- Core `c`'s buffer `b` when the region is entered: the launch contents after every host operation. -/
abbrev entry (c : Dev nD) (b : Ref sig .tc) : Buf (Elt F) ((c : Thread nD τ).loc b) :=
  StableHlo.after (stretches (F := F)).flatten (fun b => m (c, b)) b

/-- The program up to its region: the host stretches run, and the region is entered with the buffers at `entry`. -/
theorem reaches (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main stretches stretches_sub stretches_fresh main_is

/-- No host operation writes the feature map: the region finds it as launched. -/
theorem entry_arg0 (c : Dev nD) : entry m c main_arg0 = m ((c : Thread nD τ).loc main_arg0) :=
  after_arg (fun b => m (c, b)) (a := main_arg0) (by decide)
/-- Nor the person boxes. -/
theorem entry_arg1 (c : Dev nD) : entry m c main_arg1 = m ((c : Thread nD τ).loc main_arg1) :=
  after_arg (fun b => m (c, b)) (a := main_arg1) (by decide)
/-- Nor the object boxes. -/
theorem entry_arg2 (c : Dev nD) : entry m c main_arg2 = m ((c : Thread nD τ).loc main_arg2) :=
  after_arg (fun b => m (c, b)) (a := main_arg2) (by decide)
/-- Nor the ratio. -/
theorem entry_arg3 (c : Dev nD) : entry m c main_arg3 = m ((c : Thread nD τ).loc main_arg3) :=
  after_arg (fun b => m (c, b)) (a := main_arg3) (by decide)
/-- Nor the weights. -/
theorem entry_arg4 (c : Dev nD) : entry m c main_arg4 = m ((c : Thread nD τ).loc main_arg4) :=
  after_arg (fun b => m (c, b)) (a := main_arg4) (by decide)
/-- Nor the bias. -/
theorem entry_arg5 (c : Dev nD) : entry m c main_arg5 = m ((c : Thread nD τ).loc main_arg5) :=
  after_arg (fun b => m (c, b)) (a := main_arg5) (by decide)

end Cert.KernelIdeal.Acc

end
-- ==== Proof.Cases.lean ====
/-
  The two tests the matmul body makes on its grid coordinate, in closed form.
  The body runs at the 49 blocks k = 0 … 48 of the long axis (150528 = 49 · 3072).  It tests
  k = 0 (clear the accumulator before adding this block's product) and k = 48 (after adding, write
  accumulator + bias to the result).  Both tests are integer chains over the coordinate alone; over
  the 49 points each is decided once, here.
-/
import proofs.«107941_j79491254714775_1_alg».proof.Proof.Gen.KernelIdeal.Launch
import proofs.«107941_j79491254714775_1_alg».proof.Proof.Gen.KernelIdeal.Skeleton
import proofs.«107941_j79491254714775_1_alg».proof.Proof.Gen.KernelIdeal.Points

noncomputable section

namespace Cert.KernelIdeal.Acc

open Idealize.ShloMosaic Idealize.ShloMosaic.TcCoe Idealize.SL.Sem
open Cert.KernelIdeal Cert.KernelIdeal.Gen

/-- "This is the first block": the body's test k = 0, as the integer chain the body computes. -/
abbrev isFirst (i : grid0.Coords) : Prop :=
  (Scalar.cmpi .ne (Scalar.extui (Scalar.cmpi .eq (BitVec.ofNat 32 (i 0).val) 0#32)) 0#32) = 1#1

/-- "This is the last block": the body's test k = 48. -/
abbrev isLast (i : grid0.Coords) : Prop := k0_cond2 i = 1#1

/-- The first test holds at point 0 and nowhere else. -/
theorem isFirst_iff : ∀ t : Fin cfg0.N, isFirst (grid0.coords t) ↔ t.val = 0 :=
  (by decide +kernel : ∀ t : Fin grid0.N, isFirst (grid0.coords t) ↔ t.val = 0)

/-- The last test holds at point 48 and nowhere else. -/
theorem isLast_iff : ∀ t : Fin cfg0.N, isLast (grid0.coords t) ↔ t.val = 48 :=
  (by decide +kernel : ∀ t : Fin grid0.N, isLast (grid0.coords t) ↔ t.val = 48)

/-- There are 49 points, so the first and the last are different points. -/
theorem points : cfg0.N = 49 := N_0

end Cert.KernelIdeal.Acc

end
-- ==== Proof.Blocks.lean ====
/-
  The region's blocks.
  The matmul region walks the 49 blocks k = 0 … 48 of the long axis.  At point k it is handed rows of the
  feature matrix (window 0, block [3,3072] at (0,k)), of the weights (window 1, block [3072,1024] at (k,0)),
  the bias (window 2, one block [1024], fetched at the first point only) and the result (window 3, one block
  [3,1024], written back at the last point only).  This module says what each input window's staging buffer
  holds at every point, when each window is idle, what the region's class invariant is, and that the run of
  the region leaves the program's arguments as launched.
-/
import proofs.«107941_j79491254714775_1_alg».proof.Proof.Entry
import proofs.«107941_j79491254714775_1_alg».proof.Proof.Cases
import Idealize.ShloMosaic.Lib.Pipeline.Frame
import Idealize.ShloMosaic.Lib.Pipeline.FrameBody

set_option maxRecDepth 16384

noncomputable section

namespace Cert.KernelIdeal.Acc

open Idealize.ShloMosaic Idealize.ShloMosaic.TcCoe Idealize.SL Idealize.SL.Sem
open Idealize.ShloMosaic.Rounds
open Idealize.SL.BI (sProp)
open scoped Idealize.SL.BI
open Idealize.SL.BI.BIBase
open Idealize.SL.RA
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option maxHeartbeats 400000 in
/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- Input window 0 (the feature matrix) is uncut: the part of a block's contents that a transfer moves is all of them. -/
private theorem cut_all0 {α : Type} (i : grid0.Coords) (X : (cfg0.win 0).block.Idx → α) :
    (cfg0.win 0).cut i X = X := rfl

/-- So a fetch into window 0's buffer leaves nothing of what the buffer held: it holds the array's block. -/
private theorem fetched_all0 {c : Dev nD} (dat : Pipeline.Dat τ (Elt F) Unit ℕ (UR sig nD τ) ℕ cfg0 c)
    (t : Fin cfg0.N) (d) : dat.fetched 0 t d = dat.blockOf 0 t := by
  unfold Pipeline.Dat.fetched
  rw [Pipeline.fill_of_clip_none (cfg := cfg0) 0 _ (fun _ => rfl) d (dat.blockOf 0 t) (dat.blockOf 0 t)]
  exact (cfg0.win 0).fill_cut _ (dat.blockOf 0 t)

/-- Input window 0's current staging buffer holds its block at every point, fetched there or not. -/
theorem before_in0 {c : Dev nD}
    (dat : Pipeline.Dat τ (Elt F) Unit ℕ (UR sig nD τ) ℕ cfg0 c)
    (hA : dat.A 0 = entry m c (Pipeline.arrRef spec0 0))
    (hafter : ∀ t, dat.after 0 t = blockAt m c 0 t) (t : Fin cfg0.N) (d) :
    dat.before 0 t d = blockAt m c 0 t := by
  -- the block the region reads off the array is the block of the array as the region finds it
  have hb : ∀ t, dat.blockOf 0 t = blockAt m c 0 t := fun t => by
    unfold Pipeline.Dat.blockOf blockAt; rw [hA]
  rw [dat.before_in_eq_fetched 0 rfl (fun _ => rfl) (fun _ _ _ => rfl)
    (fun t => by rw [cut_all0, hafter t, hb t]) t d, fetched_all0, hb t]

set_option maxHeartbeats 400000 in
/-- Input window 1 (the weights) is uncut: the part of a block's contents that a transfer moves is all of them. -/
private theorem cut_all1 {α : Type} (i : grid0.Coords) (X : (cfg0.win 1).block.Idx → α) :
    (cfg0.win 1).cut i X = X := rfl

/-- So a fetch into window 1's buffer leaves nothing of what the buffer held: it holds the array's block. -/
private theorem fetched_all1 {c : Dev nD} (dat : Pipeline.Dat τ (Elt F) Unit ℕ (UR sig nD τ) ℕ cfg0 c)
    (t : Fin cfg0.N) (d) : dat.fetched 1 t d = dat.blockOf 1 t := by
  unfold Pipeline.Dat.fetched
  rw [Pipeline.fill_of_clip_none (cfg := cfg0) 1 _ (fun _ => rfl) d (dat.blockOf 1 t) (dat.blockOf 1 t)]
  exact (cfg0.win 1).fill_cut _ (dat.blockOf 1 t)

/-- Input window 1's current staging buffer holds its block at every point, fetched there or not. -/
theorem before_in1 {c : Dev nD}
    (dat : Pipeline.Dat τ (Elt F) Unit ℕ (UR sig nD τ) ℕ cfg0 c)
    (hA : dat.A 1 = entry m c (Pipeline.arrRef spec0 1))
    (hafter : ∀ t, dat.after 1 t = blockAt m c 1 t) (t : Fin cfg0.N) (d) :
    dat.before 1 t d = blockAt m c 1 t := by
  -- the block the region reads off the array is the block of the array as the region finds it
  have hb : ∀ t, dat.blockOf 1 t = blockAt m c 1 t := fun t => by
    unfold Pipeline.Dat.blockOf blockAt; rw [hA]
  rw [dat.before_in_eq_fetched 1 rfl (fun _ => rfl) (fun _ _ _ => rfl)
    (fun t => by rw [cut_all1, hafter t, hb t]) t d, fetched_all1, hb t]

set_option maxHeartbeats 400000 in
/-- Input window 2 (the bias) is uncut: the part of a block's contents that a transfer moves is all of them. -/
private theorem cut_all2 {α : Type} (i : grid0.Coords) (X : (cfg0.win 2).block.Idx → α) :
    (cfg0.win 2).cut i X = X := rfl

/-- So a fetch into window 2's buffer leaves nothing of what the buffer held: it holds the array's block. -/
private theorem fetched_all2 {c : Dev nD} (dat : Pipeline.Dat τ (Elt F) Unit ℕ (UR sig nD τ) ℕ cfg0 c)
    (t : Fin cfg0.N) (d) : dat.fetched 2 t d = dat.blockOf 2 t := by
  unfold Pipeline.Dat.fetched
  rw [Pipeline.fill_of_clip_none (cfg := cfg0) 2 _ (fun _ => rfl) d (dat.blockOf 2 t) (dat.blockOf 2 t)]
  exact (cfg0.win 2).fill_cut _ (dat.blockOf 2 t)

/-- Input window 2's current staging buffer holds its block at every point, fetched there or not. -/
theorem before_in2 {c : Dev nD}
    (dat : Pipeline.Dat τ (Elt F) Unit ℕ (UR sig nD τ) ℕ cfg0 c)
    (hA : dat.A 2 = entry m c (Pipeline.arrRef spec0 2))
    (hafter : ∀ t, dat.after 2 t = blockAt m c 2 t) (t : Fin cfg0.N) (d) :
    dat.before 2 t d = blockAt m c 2 t := by
  -- the block the region reads off the array is the block of the array as the region finds it
  have hb : ∀ t, dat.blockOf 2 t = blockAt m c 2 t := fun t => by
    unfold Pipeline.Dat.blockOf blockAt; rw [hA]
  rw [dat.before_in_eq_fetched 2 rfl (fun _ => rfl) (fun _ _ _ => rfl)
    (fun t => by rw [cut_all2, hafter t, hb t]) t d, fetched_all2, hb t]

set_option maxHeartbeats 400000 in
/-- The three input windows are handed a block at every point. -/
theorem live_in : ∀ (w : Fin cfg0.W), w.val < 3 → ∀ t : Fin cfg0.N, cfg0.idle w (grid0.coords t) = false :=
  (by decide +kernel : ∀ (w : Fin 4), w.val < 3 → ∀ t : Fin grid0.N, idle0 w (grid0.coords t) = false)

/-- The result window is idle before the last point. -/
theorem result_idle : ∀ t : Fin cfg0.N, ¬isLast (grid0.coords t) → cfg0.idle 3 (grid0.coords t) = true :=
  (by decide +kernel : ∀ t : Fin grid0.N, ¬isLast (grid0.coords t) → idle0 3 (grid0.coords t) = true)

/-- At the last point the result window is live. -/
theorem result_live : ∀ t : Fin cfg0.N, isLast (grid0.coords t) → cfg0.idle 3 (grid0.coords t) = false :=
  (by decide +kernel : ∀ t : Fin grid0.N, isLast (grid0.coords t) → idle0 3 (grid0.coords t) = false)

/-- Before the last point the result block is not written back. -/
theorem result_kept : ∀ t : Fin cfg0.N, ¬isLast (grid0.coords t) → (cfg0.win 3).flush t = false :=
  (by decide +kernel : ∀ t : Fin grid0.N, ¬isLast (grid0.coords t) → win0_3.flush t = false)

/-- The accumulator. -/
abbrev acc : Memref sig .tc .vmem S3x1024 .f32 := Memref.whole cc0_scratch0

/-- The class invariant: the accumulator at some contents, the generator register at some state. -/
theorem inv_eq (c : Dev nD) :
    (Pipeline.ΦA spec0 c : sProp 𝕄) =
      iprop(iprop(∃ d, owns (c : Thread nD τ) acc fullShare d) ∗ (∃ r, prngReg c r)) := by
  unfold Pipeline.ΦA
  rw [scopedRest0_eq]
  simp only [acc, owns_whole]
  rfl

set_option maxHeartbeats 400000 in
/-- The run of the region leaves the six arguments as launched. -/
theorem args_kept
    (dats : (p : Fin 1) → (c : Dev nD) → Pipeline.Dat τ (Elt F) Unit ℕ (UR sig nD τ) ℕ (cfgs p) c)
    (hA : ∀ c w, (dats 0 c).A w = entry m c (Pipeline.arrRef spec0 w))
    (r : PUnit × MemSt nD τ sig (Elt F))
    (h : Pipeline.FramePost cfgs dats 0 (entry m) r) (c : Dev nD) :
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) := by
  obtain ⟨harr, hrest⟩ := h c
  -- the first four arguments are no window's array: the run leaves them as it found them
  have h0 := (hrest main_arg0 (Pipeline.mem_restRefs_of main_arg0 rfl (by decide))).trans (entry_arg0 m c)
  have h1 := (hrest main_arg1 (Pipeline.mem_restRefs_of main_arg1 rfl (by decide))).trans (entry_arg1 m c)
  have h2 := (hrest main_arg2 (Pipeline.mem_restRefs_of main_arg2 rfl (by decide))).trans (entry_arg2 m c)
  have h3 := (hrest main_arg3 (Pipeline.mem_restRefs_of main_arg3 rfl (by decide))).trans (entry_arg3 m c)
  -- the weights and the bias are the arrays of input windows 1 and 2: an input's array is never written
  have h4 := ((harr 1).trans ((dats 0 c).arrAt_in 1 rfl _)).trans ((hA c 1).trans (entry_arg4 m c))
  have h5 := ((harr 2).trans ((dats 0 c).arrAt_in 2 rfl _)).trans ((hA c 2).trans (entry_arg5 m c))
  exact ⟨h0, h1, h2, h3, h4, h5⟩

end Cert.KernelIdeal.Acc

end
-- ==== Proof.RunFirst.lean ====
/-
  The matmul body at the first block (k = 0).
  The first test holds and the last does not: the body clears the accumulator (stores zeros over
  whatever it held), then adds this block's product to it as at every block.  The result buffer
  and the bias are not touched.
-/
import proofs.«107941_j79491254714775_1_alg».proof.Proof.Cases
import proofs.«107941_j79491254714775_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 400000 in
/-- What the body leaves in the accumulator at the first block, as the pieces stored (last first),
    with the body's run: owning the three inputs whole at x0, x1, x2, the result buffer whole at
    xr and the accumulator whole at anything, the body runs to a continuation that holds the
    inputs and the result buffer as they were and the accumulator with the pieces written. -/
noncomputable def runFirst (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : isFirst i) (hl : ¬ isLast i)
    (x0 : Vec F S3x3072 .f32) (x1 : Vec F S3072x1024 .f32) (x2 : Vec F S1024 .f32)
    (xr : Vec F S3x1024 .f32) :
    { L5 : List (View.Piece (Elt F) S3x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xr
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare xr
                ∗ (∃ f, arg5.view.loc (c : Thread nD τ) ↦[arg5.view.set]{fullShare} arg5.view.writes (Elt F) f L5)) -∗ K ⟨⟩))
          ⊢ wp frame (wpE (defs₀ (F := F)) Variants.none c none) E (cc0__matmul_kernel i arg1 harg1 arg2 harg2 arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0
    obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact hf2
      iexact H2
    isplitl [H3]
    · iexists _; isplitr; · ipureintro; exact hf3
      iexact H3
    iexists _; iexact H4

/-- The pieces stored at the first block cover the accumulator. -/
theorem runFirst_covers (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : isFirst i) (hl : ¬ isLast i)
    (x0 : Vec F S3x3072 .f32) (x1 : Vec F S3072x1024 .f32) (x2 : Vec F S1024 .f32)
    (xr : Vec F S3x1024 .f32) (y : S3x1024.Idx) :
    ∃ pc ∈ (runFirst (F := F) c i arg1 harg1 arg2 harg2 arg3 harg3 arg4 harg4 arg5 harg5 hf hl x0 x1 x2 xr).1, y ∈ pc.1.set :=
  View.cover_of_tiledL _ S3x1024.size (by sl_kernel_rfl) y

set_option maxHeartbeats 400000 in
/-- What the accumulator reads after the first block, whatever it held before: the later of the
    two pieces stored is the whole accumulator, and its payload is this block's product added to
    what the body read back after clearing, which is the zeros it had just stored. -/
theorem runFirst_reads (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : isFirst i) (hl : ¬ isLast i)
    (x0 : Vec F S3x3072 .f32) (x1 : Vec F S3072x1024 .f32) (x2 : Vec F S1024 .f32)
    (xr : Vec F S3x1024 .f32) (f : arg5.view.ty.Contents (Elt F)) :
    arg5.view.read (Elt F) (arg5.view.writes (Elt F) f
      (runFirst (F := F) c i arg1 harg1 arg2 harg2 arg3 harg3 arg4 harg4 arg5 harg5 hf hl x0 x1 x2 xr).1)
      = k0_pay2 x0 x1 (k0_pay1 (F := F)) := by
  rw [View.read_writes_eq_canon _ _ _ (runFirst_covers (F := F) c i arg1 harg1 arg2 harg2 arg3 harg3 arg4 harg4 arg5 harg5 hf hl x0 x1 x2 xr)]
  unfold runFirst
  dsimp only
  sl_unfold_words
  have hz : (![0, 0] : Fin 2 → ℕ) = fun _ => 0 := by funext a; fin_cases a <;> rfl
  rw [View.canon_cons_unit_zero (S := S3x1024) hz]
  simp only [View.readAt_eq_ld, Memref.IsWhole.read_unread, View.ld_unit_zero (S := S3x3072) hz,
    View.ld_unit_zero (S := S3072x1024) hz, View.readCov_unit_zero (S := S3x1024) _ hz]

end Cert.KernelIdeal.Acc

end
-- ==== Proof.RunMiddle.lean ====
/-
  The matmul body at a block that is neither the first nor the last (0 < k < 48).
  Neither test holds, so the body only adds this block's product to the accumulator: it reads the
  feature block, the weight block and the accumulator, and stores accumulator + product back.  The
  result buffer and the bias are not touched.
-/
import proofs.«107941_j79491254714775_1_alg».proof.Proof.Cases
import proofs.«107941_j79491254714775_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 400000 in
/-- What the body leaves in the accumulator at a middle block, as the pieces stored (last first),
    with the body's run: owning the three inputs whole at x0, x1, x2, the result buffer whole at
    xr and the accumulator whole at xs, the body runs to a continuation that holds the inputs and
    the result buffer as they were and the accumulator with the pieces written. -/
noncomputable def runMiddle (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : ¬ isLast i)
    (x0 : Vec F S3x3072 .f32) (x1 : Vec F S3072x1024 .f32) (x2 : Vec F S1024 .f32)
    (xr : Vec F S3x1024 .f32) (xs : Vec F S3x1024 .f32) :
    { L5 : List (View.Piece (Elt F) S3x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xr
            ∗ owns (c : Thread nD τ) arg5 fullShare xs
            ∗ (iprop(owns (c : Thread nD τ) arg1 fullShare x0 ∗ owns (c : Thread nD τ) arg2 fullShare x1
                ∗ owns (c : Thread nD τ) arg3 fullShare x2 ∗ owns (c : Thread nD τ) arg4 fullShare xr
                ∗ (∃ f, arg5.view.loc (c : Thread nD τ) ↦[arg5.view.set]{fullShare} arg5.view.writes (Elt F) f L5)) -∗ K ⟨⟩))
          ⊢ wp frame (wpE (defs₀ (F := F)) Variants.none c none) E (cc0__matmul_kernel i arg1 harg1 arg2 harg2 arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0
    obtain rfl := harg2.eq_unread hf1
    obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact hf2
      iexact H2
    isplitl [H3]
    · iexists _; isplitr; · ipureintro; exact hf3
      iexact H3
    iexists _; iexact H4

/-- The pieces stored at a middle block cover the accumulator. -/
theorem runMiddle_covers (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : ¬ isLast i)
    (x0 : Vec F S3x3072 .f32) (x1 : Vec F S3072x1024 .f32) (x2 : Vec F S1024 .f32)
    (xr : Vec F S3x1024 .f32) (xs : Vec F S3x1024 .f32) (y : S3x1024.Idx) :
    ∃ pc ∈ (runMiddle (F := F) c i arg1 harg1 arg2 harg2 arg3 harg3 arg4 harg4 arg5 harg5 hf hl x0 x1 x2 xr xs).1, y ∈ pc.1.set :=
  View.cover_of_tiledL _ S3x1024.size (by sl_kernel_rfl) y

set_option maxHeartbeats 400000 in
/-- What the accumulator reads after a middle block, whatever it held outside the view: the one
    piece stored is the whole accumulator, and its payload is the old accumulator plus this
    block's product, over the blocks the loads read whole. -/
theorem runMiddle_reads (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : ¬ isLast i)
    (x0 : Vec F S3x3072 .f32) (x1 : Vec F S3072x1024 .f32) (x2 : Vec F S1024 .f32)
    (xr : Vec F S3x1024 .f32) (xs : Vec F S3x1024 .f32) (f : arg5.view.ty.Contents (Elt F)) :
    arg5.view.read (Elt F) (arg5.view.writes (Elt F) f
      (runMiddle (F := F) c i arg1 harg1 arg2 harg2 arg3 harg3 arg4 harg4 arg5 harg5 hf hl x0 x1 x2 xr xs).1)
      = k0_pay2 x0 x1 xs := by
  rw [View.read_writes_eq_canon _ _ _ (runMiddle_covers (F := F) c i arg1 harg1 arg2 harg2 arg3 harg3 arg4 harg4 arg5 harg5 hf hl x0 x1 x2 xr xs)]
  unfold runMiddle
  dsimp only
  sl_unfold_words
  have hz : (![0, 0] : Fin 2 → ℕ) = fun _ => 0 := by funext a; fin_cases a <;> rfl
  rw [View.canon_unit_zero (S := S3x1024) hz]
  simp only [View.readAt_eq_ld, Memref.IsWhole.read_unread, View.ld_unit_zero (S := S3x3072) hz,
    View.ld_unit_zero (S := S3072x1024) hz, View.ld_unit_zero (S := S3x1024) hz]

end Cert.KernelIdeal.Acc

end
-- ==== Proof.RunLast.lean ====
/-
  The matmul body at the last block (k = 48).
  The first test fails and the last holds: the body adds this block's product to the accumulator
  as at every block, then reads the accumulator and the bias and stores accumulator + bias into the
  result buffer, over whatever it held.
-/
import proofs.«107941_j79491254714775_1_alg».proof.Proof.Cases
import proofs.«107941_j79491254714775_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 400000 in
/-- What the body leaves in the accumulator and in the result buffer at the last block, as the
    pieces stored into each (last first), with the body's run: owning the three inputs whole at
    x0, x1, x2, the result buffer whole at anything and the accumulator whole at xs, the body runs
    to a continuation that holds the inputs as they were, and the accumulator and the result
    buffer each with its pieces written. -/
noncomputable def runLast (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) :
    Σ' (L5 : List (View.Piece (Elt F) S3x1024 .f32)) (L4 : List (View.Piece (Elt F) S3x1024 .f32)),
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ owns (c : Thread nD τ) arg5 fullShare xs
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__matmul_kernel i arg1 harg1 arg2 harg2 arg3 harg3 arg4 harg4 arg5 harg5) K := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0
    obtain rfl := harg2.eq_unread hf1
    obtain rfl := harg3.eq_unread hf2
    obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

/-- The pieces stored at the last block cover the accumulator. -/
theorem runLast_covers5 (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (y : S3x1024.Idx) :
    ∃ pc ∈ (runLast (F := F) c i arg1 harg1 arg2 harg2 arg3 harg3 arg4 harg4 arg5 harg5 hf hl x0 x1 x2 xs).1, y ∈ pc.1.set :=
  View.cover_of_tiledL _ S3x1024.size (by sl_kernel_rfl) y

/-- The pieces stored at the last block cover the result buffer. -/
theorem runLast_covers4 (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (y : S3x1024.Idx) :
    ∃ pc ∈ (runLast (F := F) c i arg1 harg1 arg2 harg2 arg3 harg3 arg4 harg4 arg5 harg5 hf hl x0 x1 x2 xs).2.1, y ∈ pc.1.set :=
  View.cover_of_tiledL _ S3x1024.size (by sl_kernel_rfl) y

set_option maxHeartbeats 400000 in
/-- What the accumulator reads after the last block, whatever it held outside the view: the one
    piece stored into it is the whole accumulator, the old accumulator plus this block's
    product. -/
theorem runLast_reads_acc (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (f : arg5.view.ty.Contents (Elt F)) :
    arg5.view.read (Elt F) (arg5.view.writes (Elt F) f
      (runLast (F := F) c i arg1 harg1 arg2 harg2 arg3 harg3 arg4 harg4 arg5 harg5 hf hl x0 x1 x2 xs).1)
      = k0_pay2 x0 x1 xs := by
  rw [View.read_writes_eq_canon _ _ _ (runLast_covers5 (F := F) c i arg1 harg1 arg2 harg2 arg3 harg3 arg4 harg4 arg5 harg5 hf hl x0 x1 x2 xs)]
  unfold runLast
  dsimp only
  sl_unfold_words
  have hz : (![0, 0] : Fin 2 → ℕ) = fun _ => 0 := by funext a; fin_cases a <;> rfl
  rw [View.canon_unit_zero (S := S3x1024) hz]
  simp only [View.readAt_eq_ld, Memref.IsWhole.read_unread, View.ld_unit_zero (S := S3x3072) hz,
    View.ld_unit_zero (S := S3072x1024) hz, View.ld_unit_zero (S := S3x1024) hz]

set_option maxHeartbeats 400000 in
/-- What the result buffer reads after the last block, whatever it held before: the one piece
    stored into it is the whole buffer, the accumulator as just updated (read back from the
    piece stored a moment earlier) plus the bias broadcast along the rows. -/
theorem runLast_reads_out (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (f : arg4.view.ty.Contents (Elt F)) :
    arg4.view.read (Elt F) (arg4.view.writes (Elt F) f
      (runLast (F := F) c i arg1 harg1 arg2 harg2 arg3 harg3 arg4 harg4 arg5 harg5 hf hl x0 x1 x2 xs).2.1)
      = k0_pay3 (k0_pay2 x0 x1 xs) x2 := by
  rw [View.read_writes_eq_canon _ _ _ (runLast_covers4 (F := F) c i arg1 harg1 arg2 harg2 arg3 harg3 arg4 harg4 arg5 harg5 hf hl x0 x1 x2 xs)]
  unfold runLast
  dsimp only
  sl_unfold_words
  have hz : (![0, 0] : Fin 2 → ℕ) = fun _ => 0 := by funext a; fin_cases a <;> rfl
  have hz1 : (![0] : Fin 1 → ℕ) = fun _ => 0 := by funext a; fin_cases a; rfl
  rw [View.canon_unit_zero (S := S3x1024) hz]
  simp only [View.readAt_eq_ld, Memref.IsWhole.read_unread, View.ld_unit_zero (S := S3x3072) hz,
    View.ld_unit_zero (S := S3072x1024) hz, View.ld_unit_zero (S := S3x1024) hz,
    View.ld_unit_zero (S := S1024) hz1, View.readCov_unit_zero (S := S3x1024) _ hz]

end Cert.KernelIdeal.Acc

end
-- ==== Proof.Carried.lean ====
/-
  The accumulator carried from block to block, and the run of the whole program.
  The matmul body visits the 49 blocks k = 0 … 48 of the long axis in order.  It keeps a 3 × 1024 accumulator
  between visits: cleared at k = 0, then at every k this block's product (feature block k times weight block k) is
  added to it; at k = 48 accumulator + bias is stored into the result's buffer, which is written back to the result
  array at that block only.  Here: what the accumulator holds after each block (a recursion over the blocks), what the
  result's buffer holds, the invariant that carries the accumulator between blocks, the pipeline's proof data, the body's
  obligation at every block, the run of the whole program, and the frame (no argument of the program is changed).
-/
import proofs.«107941_j79491254714775_1_alg».proof.Proof.Blocks
import proofs.«107941_j79491254714775_1_alg».proof.Proof.RunFirst
import proofs.«107941_j79491254714775_1_alg».proof.Proof.RunMiddle
import proofs.«107941_j79491254714775_1_alg».proof.Proof.RunLast
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator and the result's buffer hold, block by block -/

/-- The accumulator after the body at block `n`: at block 0 it was cleared and block 0's product added; at block
    `n + 1` block `n + 1`'s product is added to what block `n` left. -/
def accAt (c : Dev nD) : (n : ℕ) → n < cfg0.N → Vec F S3x1024 .f32
  | 0, h => k0_pay2 (blockAt m c 0 ⟨0, h⟩) (blockAt m c 1 ⟨0, h⟩) (k0_pay1 (F := F))
  | n + 1, h => k0_pay2 (blockAt m c 0 ⟨n + 1, h⟩) (blockAt m c 1 ⟨n + 1, h⟩) (accAt c n (Nat.lt_of_succ_lt h))

/-- The result's buffer after block `n` is taken to hold accumulator + bias.  Only the last block stores it, and only
    there is the buffer written back; at every other block the buffer is left as found and this is not consulted. -/
def resultAt (c : Dev nD) (n : ℕ) (h : n < cfg0.N) : Vec F S3x1024 .f32 :=
  k0_pay3 (accAt m c n h) (blockAt m c 2 ⟨n, h⟩)

/-- Block 0: the cleared accumulator plus block 0's product. -/
theorem accAt_zero (c : Dev nD) (h : 0 < cfg0.N) :
    accAt m c 0 h = k0_pay2 (blockAt m c 0 ⟨0, h⟩) (blockAt m c 1 ⟨0, h⟩) (k0_pay1 (F := F)) := rfl

/-- Block `n + 1`: what block `n` left plus block `n + 1`'s product. -/
theorem accAt_succ (c : Dev nD) (n : ℕ) (h : n + 1 < cfg0.N) :
    accAt m c (n + 1) h = k0_pay2 (blockAt m c 0 ⟨n + 1, h⟩) (blockAt m c 1 ⟨n + 1, h⟩) (accAt m c n (Nat.lt_of_succ_lt h)) := rfl

/-- The last block: the accumulator after all 49 blocks, plus the bias. -/
theorem resultAt_last (c : Dev nD) (h : 48 < cfg0.N) :
    resultAt m c 48 h = k0_pay3 (accAt m c 48 h) (blockAt m c 2 ⟨48, h⟩) := rfl

/-- The accumulator after the first block, at a point known to be the first. -/
theorem accAt_first (c : Dev nD) (t : Fin cfg0.N) (h : t.val = 0) :
    accAt m c t.val t.isLt = k0_pay2 (blockAt m c 0 t) (blockAt m c 1 t) (k0_pay1 (F := F)) := by
  obtain ⟨n, hn⟩ := t
  cases n with
  | zero => rfl
  | succ n => exact absurd h (Nat.succ_ne_zero n)

/-- The accumulator after a later block: this block's product added to what the block before left. -/
theorem accAt_later (c : Dev nD) (t : Fin cfg0.N) (h : t.val ≠ 0) :
    accAt m c t.val t.isLt
      = k0_pay2 (blockAt m c 0 t) (blockAt m c 1 t) (accAt m c (t.val - 1) (Nat.lt_of_le_of_lt (Nat.sub_le _ _) t.isLt)) := by
  obtain ⟨n, hn⟩ := t
  cases n with
  | zero => exact absurd rfl h
  | succ n => rfl

/-! ## The invariant carried between blocks -/

/-- Before block `n`: at `n = 0` the region's own invariant (the accumulator holds anything); before block `n + 1` the
    accumulator holds what block `n` left, and the generator register is at some state. -/
def carried (c : Dev nD) : (n : ℕ) → n ≤ cfg0.N → sProp 𝕄
  | 0, _ => Pipeline.ΦA spec0 c
  | n + 1, hn => iprop(iprop(owns (c : Thread nD τ) acc fullShare (accAt m c n hn)) ∗ (∃ r, prngReg c r))

theorem carried_zero (c : Dev nD) (n : ℕ) (h : n ≤ cfg0.N) (hz : n = 0) : carried m c n h = Pipeline.ΦA spec0 c := by
  subst hz; rfl

/-- After block `n`: the accumulator at that block's contents. -/
theorem carried_succ (c : Dev nD) (n : ℕ) (hn : n < cfg0.N) :
    carried m c (n + 1) hn = iprop(iprop(owns (c : Thread nD τ) acc fullShare (accAt m c n hn)) ∗ (∃ r, prngReg c r)) := rfl

/-- Before a block that is not the first: the accumulator at what the block before left. -/
theorem carried_pos (c : Dev nD) (n : ℕ) (h : n ≤ cfg0.N) (hz : n ≠ 0) :
    carried m c n h = iprop(iprop(owns (c : Thread nD τ) acc fullShare (accAt m c (n - 1) (by omega))) ∗ (∃ r, prngReg c r)) := by
  cases n with
  | zero => exact absurd rfl hz
  | succ n => rfl

/-! ## The pipeline's proof data -/

/-- Core `c`'s proof data: the arrays as the region finds them; after the body each input's buffer still at its
    block, the result's buffer at `resultAt`; the invariant `carried`; full shares; nothing owed. -/
def dats (_ : Fin 1) (c : Dev nD) : Pipeline.Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => resultAt m c t.val t.isLt
  Φ t := carried m c t.val (Nat.le_of_lt_succ t.isLt)
  q _ := fullShare
  owed _ := 0

/-- The proof data's arrays are the region-entry contents. -/
theorem A_eq (c : Dev nD) (w : Fin cfg0.W) : (dats m 0 c).A w = entry m c (Pipeline.arrRef spec0 w) := by
  dsimp only [dats]

/-- The invariant when a block starts, restated at the block's number. -/
theorem inv_start (c : Dev nD) (t : Fin cfg0.N) :
    (dats m 0 c).Φ t.castSucc = carried m c t.val (Nat.le_of_lt t.isLt) := by
  dsimp only [dats]; simp only [Fin.coe_castSucc]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = resultAt m c t.val t.isLt := by dsimp only [dats]

/-- Each input's current buffer holds its block at every point. -/
theorem before_0 (c : Dev nD) (t : Fin cfg0.N) (d) : (dats m 0 c).before 0 t d = blockAt m c 0 t :=
  before_in0 m (dats m 0 c) (A_eq m c 0) (after_0 m c) t d
theorem before_1 (c : Dev nD) (t : Fin cfg0.N) (d) : (dats m 0 c).before 1 t d = blockAt m c 1 t :=
  before_in1 m (dats m 0 c) (A_eq m c 1) (after_1 m c) t d
theorem before_2 (c : Dev nD) (t : Fin cfg0.N) (d) : (dats m 0 c).before 2 t d = blockAt m c 2 t :=
  before_in2 m (dats m 0 c) (A_eq m c 2) (after_2 m c) t d

/-! ## The body's obligation, at a generic block -/

/-- Each window's current buffer at block `t`, as the pipeline passes it to the body, and that it is a whole buffer. -/
abbrev featBuf (t : Fin cfg0.N) : Memref sig .tc .vmem S3x3072 .f32 := win0_0.stage (cfg0.slots t 0)
abbrev featWhole (t : Fin cfg0.N) : (featBuf t).IsWhole := hstage0_0 ((cfg0.slots t 0).cast nbuf0_0)
abbrev weightBuf (t : Fin cfg0.N) : Memref sig .tc .vmem S3072x1024 .f32 := win0_1.stage (cfg0.slots t 1)
abbrev weightWhole (t : Fin cfg0.N) : (weightBuf t).IsWhole := hstage0_1 ((cfg0.slots t 1).cast nbuf0_1)
abbrev biasBuf (t : Fin cfg0.N) : Memref sig .tc .vmem S1024 .f32 := win0_2.stage (cfg0.slots t 2)
abbrev biasWhole (t : Fin cfg0.N) : (biasBuf t).IsWhole := hstage0_2 ((cfg0.slots t 2).cast nbuf0_2)
abbrev outBuf (t : Fin cfg0.N) : Memref sig .tc .vmem S3x1024 .f32 := win0_3.stage (cfg0.slots t 3)
abbrev outWhole (t : Fin cfg0.N) : (outBuf t).IsWhole := hstage0_3 ((cfg0.slots t 3).cast nbuf0_3)

/-- The result's buffer at block `t`, with the point written as `t` itself. -/
theorem resultAt_at (c : Dev nD) (t : Fin cfg0.N) :
    resultAt m c t.val t.isLt = k0_pay3 (accAt m c t.val t.isLt) (blockAt m c 2 t) := rfl

/-- What the body is called with at block `t`: the invariant, what the core owes, and the four current buffers, -/
def bodyPre (c : Dev nD) (t : Fin cfg0.N) : sProp 𝕄 :=
  iprop((dats m 0 c).Φ t.castSucc ∗ (dats m 0 c).owesAt () t.castSucc
    ∗ (∃ d, owns (c : Thread nD τ) (featBuf t) fullShare ((dats m 0 c).before 0 t d))
    ∗ (∃ d, owns (c : Thread nD τ) (weightBuf t) fullShare ((dats m 0 c).before 1 t d))
    ∗ (∃ d, owns (c : Thread nD τ) (biasBuf t) fullShare ((dats m 0 c).before 2 t d))
    ∗ (∃ d, owns (c : Thread nD τ) (outBuf t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- An input's buffer is handed back at its block: the inputs are never idle. -/
theorem leaves_0 (c : Dev nD) (t : Fin cfg0.N) :
    (dats m 0 c).leavesExact 0 t = owns (c : Thread nD τ) (featBuf t) fullShare (blockAt m c 0 t) := by
  unfold Dat.leavesExact; rw [live_in 0 (by decide) t, after_0]
theorem leaves_1 (c : Dev nD) (t : Fin cfg0.N) :
    (dats m 0 c).leavesExact 1 t = owns (c : Thread nD τ) (weightBuf t) fullShare (blockAt m c 1 t) := by
  unfold Dat.leavesExact; rw [live_in 1 (by decide) t, after_1]
theorem leaves_2 (c : Dev nD) (t : Fin cfg0.N) :
    (dats m 0 c).leavesExact 2 t = owns (c : Thread nD τ) (biasBuf t) fullShare (blockAt m c 2 t) := by
  unfold Dat.leavesExact; rw [live_in 2 (by decide) t, after_2]

/-- Before the last block the result's buffer is handed back as it was found. -/
theorem leaves_3_idle (c : Dev nD) (t : Fin cfg0.N) (hl : ¬ isLast (grid0.coords t)) :
    (dats m 0 c).leavesExact 3 t = iprop(∃ d, owns (c : Thread nD τ) (outBuf t) fullShare ((dats m 0 c).before 3 t d)) :=
  Dat.leavesExact_idle (dats m 0 c) 3 t (result_idle t hl) (result_kept t hl)

/-- At the last block it is handed back at accumulator + bias. -/
theorem leaves_3_last (c : Dev nD) (t : Fin cfg0.N) (hl : isLast (grid0.coords t)) :
    (dats m 0 c).leavesExact 3 t = owns (c : Thread nD τ) (outBuf t) fullShare (resultAt m c t.val t.isLt) := by
  unfold Dat.leavesExact; rw [result_live t hl, after_3]

set_option maxHeartbeats 400000 in
/-- The body at any block.  The inputs' buffers hold their blocks.  At block 0 the invariant hands the body the
    accumulator at anything; the body clears it and adds block 0's product.  At a later block the invariant hands it
    the accumulator at what the block before left, and the body adds this block's product.  At the last block the body
    also stores accumulator + bias into the result's buffer; at every other block it leaves that buffer as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = carried m c (t.val + 1) t.isLt from rfl, carried_succ]
  rw [leaves_0, leaves_1, leaves_2, inv_start]
  by_cases hz : t.val = 0
  · -- the first block
    have hf : isFirst (grid0.coords t) := (isFirst_iff t).mpr hz
    have hl : ¬ isLast (grid0.coords t) := fun h => by have := (isLast_iff t).mp h; omega
    rw [leaves_3_idle m c t hl, carried_zero m c _ _ hz, inv_eq, accAt_first m c t hz]
    iintro ⟨⟨HS, Hg⟩, Ho, ⟨%d0, H0⟩, ⟨%d1, H1⟩, ⟨%d2, H2⟩, ⟨%d3, H3⟩⟩
    iapply ((runFirst c (grid0.coords t) (featBuf t) (featWhole t) (weightBuf t) (weightWhole t) (biasBuf t) (biasWhole t) (outBuf t) (outWhole t) acc (Memref.isWhole_whole _) hf hl
      (blockAt m c 0 t) (blockAt m c 1 t) (blockAt m c 2 t) ((dats m 0 c).before 3 t d3)).2 Set.univ _)
    isplitl [H0]; · iexact H0
    isplitl [H1]; · iexact H1
    isplitl [H2]; · iexact H2
    isplitl [H3]; · iexact H3
    isplitl [HS]; · iexact HS
    iintro ⟨H0, H1, H2, H3, ⟨%f5, HS⟩⟩
    isplitl [HS Hg]
    · isplitl [HS]
      · unfold owns; iexists _; isplitr
        swap; · iexact HS
        ipureintro
        exact runFirst_reads c _ _ _ _ _ _ _ _ _ _ _ hf hl _ _ _ _ _
      iexact Hg
    isplitl [Ho]; · iexact Ho
    isplitl [H0]; · iexact H0
    isplitl [H1]; · iexact H1
    isplitl [H2]; · iexact H2
    iexists _; iexact H3
  · have hf : ¬ isFirst (grid0.coords t) := fun h => hz ((isFirst_iff t).mp h)
    rw [carried_pos m c _ _ hz, accAt_later m c t hz]
    by_cases hL : t.val = 48
    · -- the last block
      have hl : isLast (grid0.coords t) := (isLast_iff t).mpr hL
      rw [leaves_3_last m c t hl, resultAt_at, accAt_later m c t hz]
      iintro ⟨⟨HS, Hg⟩, Ho, ⟨%d0, H0⟩, ⟨%d1, H1⟩, ⟨%d2, H2⟩, ⟨%d3, H3⟩⟩
      iapply ((runLast c (grid0.coords t) (featBuf t) (featWhole t) (weightBuf t) (weightWhole t) (biasBuf t) (biasWhole t) (outBuf t) (outWhole t) acc (Memref.isWhole_whole _) hf hl
        (blockAt m c 0 t) (blockAt m c 1 t) (blockAt m c 2 t) (accAt m c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%f4, H3⟩, ⟨%f5, HS⟩⟩
      isplitl [HS Hg]
      · isplitl [HS]
        · unfold owns; iexists _; isplitr
          swap; · iexact HS
          ipureintro
          exact runLast_reads_acc c _ _ _ _ _ _ _ _ _ _ _ hf hl _ _ _ _ _
        iexact Hg
      isplitl [Ho]; · iexact Ho
      isplitl [H0]; · iexact H0
      isplitl [H1]; · iexact H1
      isplitl [H2]; · iexact H2
      unfold owns; iexists _; isplitr
      swap; · iexact H3
      ipureintro
      exact runLast_reads_out c _ _ _ _ _ _ _ _ _ _ _ hf hl _ _ _ _ _
    · -- a block in between
      have hl : ¬ isLast (grid0.coords t) := fun h => hL ((isLast_iff t).mp h)
      rw [leaves_3_idle m c t hl]
      iintro ⟨⟨HS, Hg⟩, Ho, ⟨%d0, H0⟩, ⟨%d1, H1⟩, ⟨%d2, H2⟩, ⟨%d3, H3⟩⟩
      iapply ((runMiddle c (grid0.coords t) (featBuf t) (featWhole t) (weightBuf t) (weightWhole t) (biasBuf t) (biasWhole t) (outBuf t) (outWhole t) acc (Memref.isWhole_whole _) hf hl
        (blockAt m c 0 t) (blockAt m c 1 t) (blockAt m c 2 t) ((dats m 0 c).before 3 t d3)
        (accAt m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [HS]; · iexact HS
      iintro ⟨H0, H1, H2, H3, ⟨%f5, HS⟩⟩
      isplitl [HS Hg]
      · isplitl [HS]
        · unfold owns; iexists _; isplitr
          swap; · iexact HS
          ipureintro
          exact runMiddle_reads c _ _ _ _ _ _ _ _ _ _ _ hf hl _ _ _ _ _ _
        iexact Hg
      isplitl [Ho]; · iexact Ho
      isplitl [H0]; · iexact H0
      isplitl [H1]; · iexact H1
      isplitl [H2]; · iexact H2
      iexists _; iexact H3

/-- The library's body obligation, at every block. -/
theorem body_obligation (c : Dev nD) : Pipeline.BodyObligation (dats (F := F) m 0 c) (defs₀ (F := F)) Variants.none () Set.univ := fun t => by
  rw [bigSep_W0, bigSep_W0]
  exact sound_body m c t

/-! ## The run and the frame -/

/-- What the launch hands the region is the invariant before block 0. -/
theorem enters (c : Dev nD) : Pipeline.ΦA spec0 c ⊢ (dats m 0 c).Φ 0 := by
  rw [show (dats m 0 c).Φ 0 = carried m c 0 (Nat.zero_le _) from rfl, carried_zero m c 0 _ rfl]

/-- After the last block the invariant gives the region's own back: what the accumulator holds is forgotten. -/
theorem leavesRegion (c : Dev nD) : (dats m 0 c).Φ (Fin.last cfg0.N) ⊢ Pipeline.ΦA spec0 c := by
  rw [show (dats m 0 c).Φ (Fin.last cfg0.N)
        = carried m c (Fin.last cfg0.N).val (Nat.le_of_lt_succ (Fin.last cfg0.N).isLt) from rfl,
    carried_pos m c _ _ (by rw [Fin.val_last]; have := points; omega), inv_eq]
  iintro ⟨HS, Hg⟩
  isplitl [HS]
  · iexists _; iexact HS
  iexact Hg

set_option backward.isDefEq.respectTransparency.types false in
/-- Every weakly fair execution of the program terminates, and at the end every array of the pipeline holds what the
    library computes from the proof data and every other unscoped buffer what it held when the region was entered. -/
theorem run_main : θ_run defs (onTc (τ := τ) (main (F := F))) (s₀ m ρ) (Pipeline.FramePost cfgs (dats m) 0 (entry m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := entry m) (hmain := reaches m Variants.none) (hA := A_eq m)
    (hin := enters m) (hout := leavesRegion m)

/-- The program runs and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m (dats m) (A_eq m) r h c) (run_main m ρ)

/-! ## The result array after the run -/

/-- The result's block index is zero on both axes at every point, -/
theorem result_index_zero (t : Fin cfg0.N) (a : Fin (cfg0.win 3).shape.rank) : (cfg0.win 3).index t a = 0 := by
  fin_cases a <;> rfl

/-- so an element of the result's block sits in the result array at its own coordinates. -/
theorem result_block_emb (t : Fin cfg0.N) (y : ((cfg0.win 3).xblock (cfg0.grid.coords t)).Idx) (a : Fin (cfg0.win 3).shape.rank) :
    (((cfg0.win 3).blk t).view.emb y a : ℕ) = y a := by
  show (((cfg0.win 3).rect t).emb y a : ℕ) = y a
  exact Window.rect_emb_val_of_index_zero _ t a (result_index_zero t a) y

set_option maxHeartbeats 400000 in
/-- The result array after the run: its one block is the whole array, written back at the last block only, so it
    holds what the last block left in the result's buffer. -/
theorem result_after (c : Dev nD) (h : 48 < cfg0.N) : (dats m 0 c).arrAt 3 cfg0.N = resultAt m c 48 h := by
  -- only the last block is written back
  have hlast : ∀ t : Fin cfg0.N, (cfg0.win 3).flush t = true → t = ⟨48, h⟩ := fun t ht => by
    have h1 := (flush0_3 t).mp ht
    have h2 : t.val < 49 := lt_of_lt_of_eq t.isLt points
    exact Fin.ext (by show t.val = 48; omega)
  refine (dats m 0 c).arrAt_eq_of_cover 3 (resultAt m c 48 h) ?hG ?hcover
  case hG =>
    -- what is written back there is accumulator + bias, read through the block
    intro t ht
    obtain rfl := hlast t ht
    funext y
    rw [View.read_apply, cast_eq]
    show resultAt m c 48 h ((cfg0.win 3).xinj _ y) = _
    congr 1
    funext a; apply Fin.ext
    exact (result_block_emb ⟨48, h⟩ y a).symm
  case hcover =>
    -- and that block covers the array
    intro i
    refine ⟨⟨48, h⟩, (flush0_3 _).mpr (show (48 : ℕ) % 49 = 48 from rfl), ?_⟩
    let y : ((cfg0.win 3).xblock (cfg0.grid.coords ⟨48, h⟩)).Idx := i
    have he : ((cfg0.win 3).blk ⟨48, h⟩).view.emb y = i := funext fun a => Fin.ext (result_block_emb ⟨48, h⟩ y a)
    have hmem := View.emb_mem_set ((cfg0.win 3).blk ⟨48, h⟩).view y
    rw [he] at hmem
    exact hmem

end Cert.KernelIdeal.Acc

end
-- ==== Proof.Bits.Stretches.lean ====
/-
  The host part of the kernel's program, before its one region: 197 stretches of operations, in order.
  Every operation of every stretch touches TensorCore buffers only and determines its result (none leaves a
  buffer at contents nobody chose), and the program is those stretches in order followed by the region. -/
import proofs.«107941_j79491254714775_1_alg».proof.Proof.Gen.Kernel.Launch
import Idealize.ShloMosaic.Lib.Pipeline.Frame
import Idealize.ShloMosaic.Lib.StableHlo.Run

set_option maxRecDepth 16384

noncomputable section

namespace Cert.Kernel.Acc

open Idealize.ShloMosaic Idealize.ShloMosaic.TcCoe Idealize.SL Idealize.SL.Sem
open Cert.Kernel Cert.Kernel.Gen

variable {F : FTy → Type} [FloatOps F]

/-- The stretches of host operations before the region, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147, hostOps0_148, hostOps0_149, hostOps0_150, hostOps0_151, hostOps0_152, hostOps0_153, hostOps0_154, hostOps0_155, hostOps0_156, hostOps0_157, hostOps0_158, hostOps0_159, hostOps0_160, hostOps0_161, hostOps0_162, hostOps0_163, hostOps0_164, hostOps0_165, hostOps0_166, hostOps0_167, hostOps0_168, hostOps0_169, hostOps0_170, hostOps0_171, hostOps0_172, hostOps0_173, hostOps0_174, hostOps0_175, hostOps0_176, hostOps0_177, hostOps0_178, hostOps0_179, hostOps0_180, hostOps0_181, hostOps0_182, hostOps0_183, hostOps0_184, hostOps0_185, hostOps0_186, hostOps0_187, hostOps0_188, hostOps0_189, hostOps0_190, hostOps0_191, hostOps0_192, hostOps0_193, hostOps0_194, hostOps0_195, hostOps0_196]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps0_73_fresh : (hostOps0_73 : List (HloOp τ sig (Elt F))).Forall fun op => op.fresh = ∅ := by
  simp only [List.Forall]; repeat' constructor
theorem hostOps0_74_fresh : (hostOps0_74 : List (HloOp τ sig (Elt F))).Forall fun op => op.fresh = ∅ := by
  simp only [List.Forall]; repeat' constructor
theorem hostOps0_75_fresh : (hostOps0_75 : List (HloOp τ sig (Elt F))).Forall fun op => op.fresh = ∅ := by
  simp only [List.Forall]; repeat' constructor
theorem hostOps0_76_fresh : (hostOps0_76 : List (HloOp τ sig (Elt F))).Forall fun op => op.fresh = ∅ := by
  simp only [List.Forall]; repeat' constructor
theorem hostOps0_77_fresh : (hostOps0_77 : List (HloOp τ sig (Elt F))).Forall fun op => op.fresh = ∅ := by
  simp only [List.Forall]; repeat' constructor
theorem hostOps0_78_fresh : (hostOps0_78 : List (HloOp τ sig (Elt F))).Forall fun op => op.fresh = ∅ := by
  simp only [List.Forall]; repeat' constructor
theorem hostOps0_79_fresh : (hostOps0_79 : List (HloOp τ sig (Elt F))).Forall fun op => op.fresh = ∅ := by
  simp only [List.Forall]; repeat' constructor
theorem hostOps0_80_fresh : (hostOps0_80 : List (HloOp τ sig (Elt F))).Forall fun op => op.fresh = ∅ := by
  simp only [List.Forall]; repeat' constructor
theorem hostOps0_81_fresh : (hostOps0_81 : List (HloOp τ sig (Elt F))).Forall fun op => op.fresh = ∅ := by
  simp only [List.Forall]; repeat' constructor
theorem hostOps0_82_fresh : (hostOps0_82 : List (HloOp τ sig (Elt F))).Forall fun op => op.fresh = ∅ := by
  simp only [List.Forall]; repeat' constructor
theorem hostOps0_83_fresh : (hostOps0_83 : List (HloOp τ sig (Elt F))).Forall fun op => op.fresh = ∅ := by
  simp only [List.Forall]; repeat' constructor
theorem hostOps0_84_fresh : (hostOps0_84 : List (HloOp τ sig (Elt F))).Forall fun op => op.fresh = ∅ := by
  simp only [List.Forall]; repeat' constructor
theorem hostOps0_85_fresh : (hostOps0_85 : List (HloOp τ sig (Elt F))).Forall fun op => op.fresh = ∅ := by
  simp only [List.Forall]; repeat' constructor
theorem hostOps0_86_fresh : (hostOps0_86 : List (HloOp τ sig (Elt F))).Forall fun op => op.fresh = ∅ := by
  simp only [List.Forall]; repeat' constructor
theorem hostOps0_87_fresh : (hostOps0_87 : List (HloOp τ sig (Elt F))).Forall fun op => op.fresh = ∅ := by
  simp only [List.Forall]; repeat' constructor
theorem hostOps0_88_fresh : (hostOps0_88 : List (HloOp τ sig (Elt F))).Forall fun op => op.fresh = ∅ := by
  simp only [List.Forall]; repeat' constructor
theorem hostOps0_89_fresh : (hostOps0_89 : List (HloOp τ sig (Elt F))).Forall fun op => op.fresh = ∅ := by
  simp only [List.Forall]; repeat' constructor
theorem hostOps0_90_fresh : (hostOps0_90 : List (HloOp τ sig (Elt F))).Forall fun op => op.fresh = ∅ := by
  simp only [List.Forall]; repeat' constructor
theorem hostOps0_91_fresh : (hostOps0_91 : List (HloOp τ sig (Elt F))).Forall fun op => op.fresh = ∅ := by
  simp only [List.Forall]; repeat' constructor
theorem hostOps0_92_fresh : (hostOps0_92 : List (HloOp τ sig (Elt F))).Forall fun op => op.fresh = ∅ := by
  simp only [List.Forall]; repeat' constructor
theorem hostOps0_93_fresh : (hostOps0_93 : List (HloOp τ sig (Elt F))).Forall fun op => op.fresh = ∅ := by
  simp only [List.Forall]; repeat' constructor
theorem hostOps0_94_fresh : (hostOps0_94 : List (HloOp τ sig (Elt F))).Forall fun op => op.fresh = ∅ := by
  simp only [List.Forall]; repeat' constructor
theorem hostOps0_95_fresh : (hostOps0_95 : List (HloOp τ sig (Elt F))).Forall fun op => op.fresh = ∅ := by
  simp only [List.Forall]; repeat' constructor
theorem hostOps0_96_fresh : (hostOps0_96 : List (HloOp τ sig (Elt F))).Forall fun op => op.fresh = ∅ := by
  simp only [List.Forall]; repeat' constructor
theorem hostOps0_97_fresh : (hostOps0_97 : List (HloOp τ sig (Elt F))).Forall fun op => op.fresh = ∅ := by
  simp only [List.Forall]; repeat' constructor
theorem hostOps0_98_fresh : (hostOps0_98 : List (HloOp τ sig (Elt F))).Forall fun op => op.fresh = ∅ := by
  simp only [List.Forall]; repeat' constructor
theorem hostOps0_99_fresh : (hostOps0_99 : List (HloOp τ sig (Elt F))).Forall fun op => op.fresh = ∅ := by
  simp only [List.Forall]; repeat' constructor
theorem hostOps0_100_fresh : (hostOps0_100 : List (HloOp τ sig (Elt F))).Forall fun op => op.fresh = ∅ := by
  simp only [List.Forall]; repeat' constructor
theorem hostOps0_101_fresh : (hostOps0_101 : List (HloOp τ sig (Elt F))).Forall fun op => op.fresh = ∅ := by
  simp only [List.Forall]; repeat' constructor
theorem hostOps0_102_fresh : (hostOps0_102 : List (HloOp τ sig (Elt F))).Forall fun op => op.fresh = ∅ := by
  simp only [List.Forall]; repeat' constructor
theorem hostOps0_103_fresh : (hostOps0_103 : List (HloOp τ sig (Elt F))).Forall fun op => op.fresh = ∅ := by
  simp only [List.Forall]; repeat' constructor
theorem hostOps0_104_fresh : (hostOps0_104 : List (HloOp τ sig (Elt F))).Forall fun op => op.fresh = ∅ := by
  simp only [List.Forall]; repeat' constructor
theorem hostOps0_105_fresh : (hostOps0_105 : List (HloOp τ sig (Elt F))).Forall fun op => op.fresh = ∅ := by
  simp only [List.Forall]; repeat' constructor
theorem hostOps0_106_fresh : (hostOps0_106 : List (HloOp τ sig (Elt F))).Forall fun op => op.fresh = ∅ := by
  simp only [List.Forall]; repeat' constructor
theorem hostOps0_107_fresh : (hostOps0_107 : List (HloOp τ sig (Elt F))).Forall fun op => op.fresh = ∅ := by
  simp only [List.Forall]; repeat' constructor
theorem hostOps0_108_fresh : (hostOps0_108 : List (HloOp τ sig (Elt F))).Forall fun op => op.fresh = ∅ := by
  simp only [List.Forall]; repeat' constructor
theorem hostOps0_109_fresh : (hostOps0_109 : List (HloOp τ sig (Elt F))).Forall fun op => op.fresh = ∅ := by
  simp only [List.Forall]; repeat' constructor
theorem hostOps0_110_fresh : (hostOps0_110 : List (HloOp τ sig (Elt F))).Forall fun op => op.fresh = ∅ := by
  simp only [List.Forall]; repeat' constructor
theorem hostOps0_111_fresh : (hostOps0_111 : List (HloOp τ sig (Elt F))).Forall fun op => op.fresh = ∅ := by
  simp only [List.Forall]; repeat' constructor
theorem hostOps0_112_fresh : (hostOps0_112 : List (HloOp τ sig (Elt F))).Forall fun op => op.fresh = ∅ := by
  simp only [List.Forall]; repeat' constructor
theorem hostOps0_113_fresh : (hostOps0_113 : List (HloOp τ sig (Elt F))).Forall fun op => op.fresh = ∅ := by
  simp only [List.Forall]; repeat' constructor
theorem hostOps0_114_fresh : (hostOps0_114 : List (HloOp τ sig (Elt F))).Forall fun op => op.fresh = ∅ := by
  simp only [List.Forall]; repeat' constructor
theorem hostOps0_115_fresh : (hostOps0_115 : List (HloOp τ sig (Elt F))).Forall fun op => op.fresh = ∅ := by
  simp only [List.Forall]; repeat' constructor
theorem hostOps0_116_fresh : (hostOps0_116 : List (HloOp τ sig (Elt F))).Forall fun op => op.fresh = ∅ := by
  simp only [List.Forall]; repeat' constructor
theorem hostOps0_117_fresh : (hostOps0_117 : List (HloOp τ sig (Elt F))).Forall fun op => op.fresh = ∅ := by
  simp only [List.Forall]; repeat' constructor
theorem hostOps0_118_fresh : (hostOps0_118 : List (HloOp τ sig (Elt F))).Forall fun op => op.fresh = ∅ := by
  simp only [List.Forall]; repeat' constructor
theorem hostOps0_119_fresh : (hostOps0_119 : List (HloOp τ sig (Elt F))).Forall fun op => op.fresh = ∅ := by
  simp only [List.Forall]; repeat' constructor
theorem hostOps0_120_fresh : (hostOps0_120 : List (HloOp τ sig (Elt F))).Forall fun op => op.fresh = ∅ := by
  simp only [List.Forall]; repeat' constructor
theorem hostOps0_121_fresh : (hostOps0_121 : List (HloOp τ sig (Elt F))).Forall fun op => op.fresh = ∅ := by
  simp only [List.Forall]; repeat' constructor
theorem hostOps0_122_fresh : (hostOps0_122 : List (HloOp τ sig (Elt F))).Forall fun op => op.fresh = ∅ := by
  simp only [List.Forall]; repeat' constructor
theorem hostOps0_123_fresh : (hostOps0_123 : List (HloOp τ sig (Elt F))).Forall fun op => op.fresh = ∅ := by
  simp only [List.Forall]; repeat' constructor
theorem hostOps0_124_fresh : (hostOps0_124 : List (HloOp τ sig (Elt F))).Forall fun op => op.fresh = ∅ := by
  simp only [List.Forall]; repeat' constructor
theorem hostOps0_125_fresh : (hostOps0_125 : List (HloOp τ sig (Elt F))).Forall fun op => op.fresh = ∅ := by
  simp only [List.Forall]; repeat' constructor
theorem hostOps0_126_fresh : (hostOps0_126 : List (HloOp τ sig (Elt F))).Forall fun op => op.fresh = ∅ := by
  simp only [List.Forall]; repeat' constructor
theorem hostOps0_127_fresh : (hostOps0_127 : List (HloOp τ sig (Elt F))).Forall fun op => op.fresh = ∅ := by
  simp only [List.Forall]; repeat' constructor
theorem hostOps0_128_fresh : (hostOps0_128 : List (HloOp τ sig (Elt F))).Forall fun op => op.fresh = ∅ := by
  simp only [List.Forall]; repeat' constructor
theorem hostOps0_129_fresh : (hostOps0_129 : List (HloOp τ sig (Elt F))).Forall fun op => op.fresh = ∅ := by
  simp only [List.Forall]; repeat' constructor
theorem hostOps0_130_fresh : (hostOps0_130 : List (HloOp τ sig (Elt F))).Forall fun op => op.fresh = ∅ := by
  simp only [List.Forall]; repeat' constructor
theorem hostOps0_131_fresh : (hostOps0_131 : List (HloOp τ sig (Elt F))).Forall fun op => op.fresh = ∅ := by
  simp only [List.Forall]; repeat' constructor
theorem hostOps0_132_fresh : (hostOps0_132 : List (HloOp τ sig (Elt F))).Forall fun op => op.fresh = ∅ := by
  simp only [List.Forall]; repeat' constructor
theorem hostOps0_133_fresh : (hostOps0_133 : List (HloOp τ sig (Elt F))).Forall fun op => op.fresh = ∅ := by
  simp only [List.Forall]; repeat' constructor
theorem hostOps0_134_fresh : (hostOps0_134 : List (HloOp τ sig (Elt F))).Forall fun op => op.fresh = ∅ := by
  simp only [List.Forall]; repeat' constructor
theorem hostOps0_135_fresh : (hostOps0_135 : List (HloOp τ sig (Elt F))).Forall fun op => op.fresh = ∅ := by
  simp only [List.Forall]; repeat' constructor
theorem hostOps0_136_fresh : (hostOps0_136 : List (HloOp τ sig (Elt F))).Forall fun op => op.fresh = ∅ := by
  simp only [List.Forall]; repeat' constructor
theorem hostOps0_137_fresh : (hostOps0_137 : List (HloOp τ sig (Elt F))).Forall fun op => op.fresh = ∅ := by
  simp only [List.Forall]; repeat' constructor
theorem hostOps0_138_fresh : (hostOps0_138 : List (HloOp τ sig (Elt F))).Forall fun op => op.fresh = ∅ := by
  simp only [List.Forall]; repeat' constructor
theorem hostOps0_139_fresh : (hostOps0_139 : List (HloOp τ sig (Elt F))).Forall fun op => op.fresh = ∅ := by
  simp only [List.Forall]; repeat' constructor
theorem hostOps0_140_fresh : (hostOps0_140 : List (HloOp τ sig (Elt F))).Forall fun op => op.fresh = ∅ := by
  simp only [List.Forall]; repeat' constructor
theorem hostOps0_141_fresh : (hostOps0_141 : List (HloOp τ sig (Elt F))).Forall fun op => op.fresh = ∅ := by
  simp only [List.Forall]; repeat' constructor
theorem hostOps0_142_fresh : (hostOps0_142 : List (HloOp τ sig (Elt F))).Forall fun op => op.fresh = ∅ := by
  simp only [List.Forall]; repeat' constructor
theorem hostOps0_143_fresh : (hostOps0_143 : List (HloOp τ sig (Elt F))).Forall fun op => op.fresh = ∅ := by
  simp only [List.Forall]; repeat' constructor
theorem hostOps0_144_fresh : (hostOps0_144 : List (HloOp τ sig (Elt F))).Forall fun op => op.fresh = ∅ := by
  simp only [List.Forall]; repeat' constructor
theorem hostOps0_145_fresh : (hostOps0_145 : List (HloOp τ sig (Elt F))).Forall fun op => op.fresh = ∅ := by
  simp only [List.Forall]; repeat' constructor
theorem hostOps0_146_fresh : (hostOps0_146 : List (HloOp τ sig (Elt F))).Forall fun op => op.fresh = ∅ := by
  simp only [List.Forall]; repeat' constructor
theorem hostOps0_147_fresh : (hostOps0_147 : List (HloOp τ sig (Elt F))).Forall fun op => op.fresh = ∅ := by
  simp only [List.Forall]; repeat' constructor
theorem hostOps0_148_fresh : (hostOps0_148 : List (HloOp τ sig (Elt F))).Forall fun op => op.fresh = ∅ := by
  simp only [List.Forall]; repeat' constructor
theorem hostOps0_149_fresh : (hostOps0_149 : List (HloOp τ sig (Elt F))).Forall fun op => op.fresh = ∅ := by
  simp only [List.Forall]; repeat' constructor
theorem hostOps0_150_fresh : (hostOps0_150 : List (HloOp τ sig (Elt F))).Forall fun op => op.fresh = ∅ := by
  simp only [List.Forall]; repeat' constructor
theorem hostOps0_151_fresh : (hostOps0_151 : List (HloOp τ sig (Elt F))).Forall fun op => op.fresh = ∅ := by
  simp only [List.Forall]; repeat' constructor
theorem hostOps0_152_fresh : (hostOps0_152 : List (HloOp τ sig (Elt F))).Forall fun op => op.fresh = ∅ := by
  simp only [List.Forall]; repeat' constructor
theorem hostOps0_153_fresh : (hostOps0_153 : List (HloOp τ sig (Elt F))).Forall fun op => op.fresh = ∅ := by
  simp only [List.Forall]; repeat' constructor
theorem hostOps0_154_fresh : (hostOps0_154 : List (HloOp τ sig (Elt F))).Forall fun op => op.fresh = ∅ := by
  simp only [List.Forall]; repeat' constructor
theorem hostOps0_155_fresh : (hostOps0_155 : List (HloOp τ sig (Elt F))).Forall fun op => op.fresh = ∅ := by
  simp only [List.Forall]; repeat' constructor
theorem hostOps0_156_fresh : (hostOps0_156 : List (HloOp τ sig (Elt F))).Forall fun op => op.fresh = ∅ := by
  simp only [List.Forall]; repeat' constructor
theorem hostOps0_157_fresh : (hostOps0_157 : List (HloOp τ sig (Elt F))).Forall fun op => op.fresh = ∅ := by
  simp only [List.Forall]; repeat' constructor
theorem hostOps0_158_fresh : (hostOps0_158 : List (HloOp τ sig (Elt F))).Forall fun op => op.fresh = ∅ := by
  simp only [List.Forall]; repeat' constructor
theorem hostOps0_159_fresh : (hostOps0_159 : List (HloOp τ sig (Elt F))).Forall fun op => op.fresh = ∅ := by
  simp only [List.Forall]; repeat' constructor
theorem hostOps0_160_fresh : (hostOps0_160 : List (HloOp τ sig (Elt F))).Forall fun op => op.fresh = ∅ := by
  simp only [List.Forall]; repeat' constructor
theorem hostOps0_161_fresh : (hostOps0_161 : List (HloOp τ sig (Elt F))).Forall fun op => op.fresh = ∅ := by
  simp only [List.Forall]; repeat' constructor
theorem hostOps0_162_fresh : (hostOps0_162 : List (HloOp τ sig (Elt F))).Forall fun op => op.fresh = ∅ := by
  simp only [List.Forall]; repeat' constructor
theorem hostOps0_163_fresh : (hostOps0_163 : List (HloOp τ sig (Elt F))).Forall fun op => op.fresh = ∅ := by
  simp only [List.Forall]; repeat' constructor
theorem hostOps0_164_fresh : (hostOps0_164 : List (HloOp τ sig (Elt F))).Forall fun op => op.fresh = ∅ := by
  simp only [List.Forall]; repeat' constructor
theorem hostOps0_165_fresh : (hostOps0_165 : List (HloOp τ sig (Elt F))).Forall fun op => op.fresh = ∅ := by
  simp only [List.Forall]; repeat' constructor
theorem hostOps0_166_fresh : (hostOps0_166 : List (HloOp τ sig (Elt F))).Forall fun op => op.fresh = ∅ := by
  simp only [List.Forall]; repeat' constructor
theorem hostOps0_167_fresh : (hostOps0_167 : List (HloOp τ sig (Elt F))).Forall fun op => op.fresh = ∅ := by
  simp only [List.Forall]; repeat' constructor
theorem hostOps0_168_fresh : (hostOps0_168 : List (HloOp τ sig (Elt F))).Forall fun op => op.fresh = ∅ := by
  simp only [List.Forall]; repeat' constructor
theorem hostOps0_169_fresh : (hostOps0_169 : List (HloOp τ sig (Elt F))).Forall fun op => op.fresh = ∅ := by
  simp only [List.Forall]; repeat' constructor
theorem hostOps0_170_fresh : (hostOps0_170 : List (HloOp τ sig (Elt F))).Forall fun op => op.fresh = ∅ := by
  simp only [List.Forall]; repeat' constructor
theorem hostOps0_171_fresh : (hostOps0_171 : List (HloOp τ sig (Elt F))).Forall fun op => op.fresh = ∅ := by
  simp only [List.Forall]; repeat' constructor
theorem hostOps0_172_fresh : (hostOps0_172 : List (HloOp τ sig (Elt F))).Forall fun op => op.fresh = ∅ := by
  simp only [List.Forall]; repeat' constructor
theorem hostOps0_173_fresh : (hostOps0_173 : List (HloOp τ sig (Elt F))).Forall fun op => op.fresh = ∅ := by
  simp only [List.Forall]; repeat' constructor
theorem hostOps0_174_fresh : (hostOps0_174 : List (HloOp τ sig (Elt F))).Forall fun op => op.fresh = ∅ := by
  simp only [List.Forall]; repeat' constructor
theorem hostOps0_175_fresh : (hostOps0_175 : List (HloOp τ sig (Elt F))).Forall fun op => op.fresh = ∅ := by
  simp only [List.Forall]; repeat' constructor
theorem hostOps0_176_fresh : (hostOps0_176 : List (HloOp τ sig (Elt F))).Forall fun op => op.fresh = ∅ := by
  simp only [List.Forall]; repeat' constructor
theorem hostOps0_177_fresh : (hostOps0_177 : List (HloOp τ sig (Elt F))).Forall fun op => op.fresh = ∅ := by
  simp only [List.Forall]; repeat' constructor
theorem hostOps0_178_fresh : (hostOps0_178 : List (HloOp τ sig (Elt F))).Forall fun op => op.fresh = ∅ := by
  simp only [List.Forall]; repeat' constructor
theorem hostOps0_179_fresh : (hostOps0_179 : List (HloOp τ sig (Elt F))).Forall fun op => op.fresh = ∅ := by
  simp only [List.Forall]; repeat' constructor
theorem hostOps0_180_fresh : (hostOps0_180 : List (HloOp τ sig (Elt F))).Forall fun op => op.fresh = ∅ := by
  simp only [List.Forall]; repeat' constructor
theorem hostOps0_181_fresh : (hostOps0_181 : List (HloOp τ sig (Elt F))).Forall fun op => op.fresh = ∅ := by
  simp only [List.Forall]; repeat' constructor
theorem hostOps0_182_fresh : (hostOps0_182 : List (HloOp τ sig (Elt F))).Forall fun op => op.fresh = ∅ := by
  simp only [List.Forall]; repeat' constructor
theorem hostOps0_183_fresh : (hostOps0_183 : List (HloOp τ sig (Elt F))).Forall fun op => op.fresh = ∅ := by
  simp only [List.Forall]; repeat' constructor
theorem hostOps0_184_fresh : (hostOps0_184 : List (HloOp τ sig (Elt F))).Forall fun op => op.fresh = ∅ := by
  simp only [List.Forall]; repeat' constructor
theorem hostOps0_185_fresh : (hostOps0_185 : List (HloOp τ sig (Elt F))).Forall fun op => op.fresh = ∅ := by
  simp only [List.Forall]; repeat' constructor
theorem hostOps0_186_fresh : (hostOps0_186 : List (HloOp τ sig (Elt F))).Forall fun op => op.fresh = ∅ := by
  simp only [List.Forall]; repeat' constructor
theorem hostOps0_187_fresh : (hostOps0_187 : List (HloOp τ sig (Elt F))).Forall fun op => op.fresh = ∅ := by
  simp only [List.Forall]; repeat' constructor
theorem hostOps0_188_fresh : (hostOps0_188 : List (HloOp τ sig (Elt F))).Forall fun op => op.fresh = ∅ := by
  simp only [List.Forall]; repeat' constructor
theorem hostOps0_189_fresh : (hostOps0_189 : List (HloOp τ sig (Elt F))).Forall fun op => op.fresh = ∅ := by
  simp only [List.Forall]; repeat' constructor
theorem hostOps0_190_fresh : (hostOps0_190 : List (HloOp τ sig (Elt F))).Forall fun op => op.fresh = ∅ := by
  simp only [List.Forall]; repeat' constructor
theorem hostOps0_191_fresh : (hostOps0_191 : List (HloOp τ sig (Elt F))).Forall fun op => op.fresh = ∅ := by
  simp only [List.Forall]; repeat' constructor
theorem hostOps0_192_fresh : (hostOps0_192 : List (HloOp τ sig (Elt F))).Forall fun op => op.fresh = ∅ := by
  simp only [List.Forall]; repeat' constructor
theorem hostOps0_193_fresh : (hostOps0_193 : List (HloOp τ sig (Elt F))).Forall fun op => op.fresh = ∅ := by
  simp only [List.Forall]; repeat' constructor
theorem hostOps0_194_fresh : (hostOps0_194 : List (HloOp τ sig (Elt F))).Forall fun op => op.fresh = ∅ := by
  simp only [List.Forall]; repeat' constructor
theorem hostOps0_195_fresh : (hostOps0_195 : List (HloOp τ sig (Elt F))).Forall fun op => op.fresh = ∅ := by
  simp only [List.Forall]; repeat' constructor
theorem hostOps0_196_fresh : (hostOps0_196 : List (HloOp τ sig (Elt F))).Forall fun op => op.fresh = ∅ := by
  simp only [List.Forall]; repeat' constructor

/-- Every operation touches TensorCore buffers only. -/
theorem stretches_sub : (stretches (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub, hostOps0_73_sub, hostOps0_74_sub, hostOps0_75_sub, hostOps0_76_sub, hostOps0_77_sub, hostOps0_78_sub, hostOps0_79_sub, hostOps0_80_sub, hostOps0_81_sub, hostOps0_82_sub, hostOps0_83_sub, hostOps0_84_sub, hostOps0_85_sub, hostOps0_86_sub, hostOps0_87_sub, hostOps0_88_sub, hostOps0_89_sub, hostOps0_90_sub, hostOps0_91_sub, hostOps0_92_sub, hostOps0_93_sub, hostOps0_94_sub, hostOps0_95_sub, hostOps0_96_sub, hostOps0_97_sub, hostOps0_98_sub, hostOps0_99_sub, hostOps0_100_sub, hostOps0_101_sub, hostOps0_102_sub, hostOps0_103_sub, hostOps0_104_sub, hostOps0_105_sub, hostOps0_106_sub, hostOps0_107_sub, hostOps0_108_sub, hostOps0_109_sub, hostOps0_110_sub, hostOps0_111_sub, hostOps0_112_sub, hostOps0_113_sub, hostOps0_114_sub, hostOps0_115_sub, hostOps0_116_sub, hostOps0_117_sub, hostOps0_118_sub, hostOps0_119_sub, hostOps0_120_sub, hostOps0_121_sub, hostOps0_122_sub, hostOps0_123_sub, hostOps0_124_sub, hostOps0_125_sub, hostOps0_126_sub, hostOps0_127_sub, hostOps0_128_sub, hostOps0_129_sub, hostOps0_130_sub, hostOps0_131_sub, hostOps0_132_sub, hostOps0_133_sub, hostOps0_134_sub, hostOps0_135_sub, hostOps0_136_sub, hostOps0_137_sub, hostOps0_138_sub, hostOps0_139_sub, hostOps0_140_sub, hostOps0_141_sub, hostOps0_142_sub, hostOps0_143_sub, hostOps0_144_sub, hostOps0_145_sub, hostOps0_146_sub, hostOps0_147_sub, hostOps0_148_sub, hostOps0_149_sub, hostOps0_150_sub, hostOps0_151_sub, hostOps0_152_sub, hostOps0_153_sub, hostOps0_154_sub, hostOps0_155_sub, hostOps0_156_sub, hostOps0_157_sub, hostOps0_158_sub, hostOps0_159_sub, hostOps0_160_sub, hostOps0_161_sub, hostOps0_162_sub, hostOps0_163_sub, hostOps0_164_sub, hostOps0_165_sub, hostOps0_166_sub, hostOps0_167_sub, hostOps0_168_sub, hostOps0_169_sub, hostOps0_170_sub, hostOps0_171_sub, hostOps0_172_sub, hostOps0_173_sub, hostOps0_174_sub, hostOps0_175_sub, hostOps0_176_sub, hostOps0_177_sub, hostOps0_178_sub, hostOps0_179_sub, hostOps0_180_sub, hostOps0_181_sub, hostOps0_182_sub, hostOps0_183_sub, hostOps0_184_sub, hostOps0_185_sub, hostOps0_186_sub, hostOps0_187_sub, hostOps0_188_sub, hostOps0_189_sub, hostOps0_190_sub, hostOps0_191_sub, hostOps0_192_sub, hostOps0_193_sub, hostOps0_194_sub, hostOps0_195_sub, hostOps0_196_sub⟩

/-- Every operation determines its result. -/
theorem stretches_fresh : (stretches (F := F)).Forall fun ops => ops.Forall fun op => op.fresh = ∅ := by
  simp only [List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh, hostOps0_73_fresh, hostOps0_74_fresh, hostOps0_75_fresh, hostOps0_76_fresh, hostOps0_77_fresh, hostOps0_78_fresh, hostOps0_79_fresh, hostOps0_80_fresh, hostOps0_81_fresh, hostOps0_82_fresh, hostOps0_83_fresh, hostOps0_84_fresh, hostOps0_85_fresh, hostOps0_86_fresh, hostOps0_87_fresh, hostOps0_88_fresh, hostOps0_89_fresh, hostOps0_90_fresh, hostOps0_91_fresh, hostOps0_92_fresh, hostOps0_93_fresh, hostOps0_94_fresh, hostOps0_95_fresh, hostOps0_96_fresh, hostOps0_97_fresh, hostOps0_98_fresh, hostOps0_99_fresh, hostOps0_100_fresh, hostOps0_101_fresh, hostOps0_102_fresh, hostOps0_103_fresh, hostOps0_104_fresh, hostOps0_105_fresh, hostOps0_106_fresh, hostOps0_107_fresh, hostOps0_108_fresh, hostOps0_109_fresh, hostOps0_110_fresh, hostOps0_111_fresh, hostOps0_112_fresh, hostOps0_113_fresh, hostOps0_114_fresh, hostOps0_115_fresh, hostOps0_116_fresh, hostOps0_117_fresh, hostOps0_118_fresh, hostOps0_119_fresh, hostOps0_120_fresh, hostOps0_121_fresh, hostOps0_122_fresh, hostOps0_123_fresh, hostOps0_124_fresh, hostOps0_125_fresh, hostOps0_126_fresh, hostOps0_127_fresh, hostOps0_128_fresh, hostOps0_129_fresh, hostOps0_130_fresh, hostOps0_131_fresh, hostOps0_132_fresh, hostOps0_133_fresh, hostOps0_134_fresh, hostOps0_135_fresh, hostOps0_136_fresh, hostOps0_137_fresh, hostOps0_138_fresh, hostOps0_139_fresh, hostOps0_140_fresh, hostOps0_141_fresh, hostOps0_142_fresh, hostOps0_143_fresh, hostOps0_144_fresh, hostOps0_145_fresh, hostOps0_146_fresh, hostOps0_147_fresh, hostOps0_148_fresh, hostOps0_149_fresh, hostOps0_150_fresh, hostOps0_151_fresh, hostOps0_152_fresh, hostOps0_153_fresh, hostOps0_154_fresh, hostOps0_155_fresh, hostOps0_156_fresh, hostOps0_157_fresh, hostOps0_158_fresh, hostOps0_159_fresh, hostOps0_160_fresh, hostOps0_161_fresh, hostOps0_162_fresh, hostOps0_163_fresh, hostOps0_164_fresh, hostOps0_165_fresh, hostOps0_166_fresh, hostOps0_167_fresh, hostOps0_168_fresh, hostOps0_169_fresh, hostOps0_170_fresh, hostOps0_171_fresh, hostOps0_172_fresh, hostOps0_173_fresh, hostOps0_174_fresh, hostOps0_175_fresh, hostOps0_176_fresh, hostOps0_177_fresh, hostOps0_178_fresh, hostOps0_179_fresh, hostOps0_180_fresh, hostOps0_181_fresh, hostOps0_182_fresh, hostOps0_183_fresh, hostOps0_184_fresh, hostOps0_185_fresh, hostOps0_186_fresh, hostOps0_187_fresh, hostOps0_188_fresh, hostOps0_189_fresh, hostOps0_190_fresh, hostOps0_191_fresh, hostOps0_192_fresh, hostOps0_193_fresh, hostOps0_194_fresh, hostOps0_195_fresh, hostOps0_196_fresh⟩

/-- The program is the stretches in order, then the region. -/
theorem main_is (c : Dev nD) :
    main (F := F) c = Pipeline.chain ((stretches (F := F)).map StableHlo.seq ++ [Prog.lift (.customCall (Pipeline.entry 0) ())]) :=
  (main_chain c).trans rfl

end Cert.Kernel.Acc

end
-- ==== Proof.Bits.Keeps.lean ====
/-
  No host operation writes an argument of the program.
  Each of the 197 stretches before the region is a list of operations with one result buffer each, and every
  result buffer is a value of the program, never one of its six arguments.  So an argument's buffer holds after
  the whole line of stretches what it held before it. -/
import proofs.«107941_j79491254714775_1_alg».proof.Proof.Bits.Stretches

set_option maxRecDepth 16384

noncomputable section

namespace Cert.Kernel.Acc

open Idealize.ShloMosaic Idealize.ShloMosaic.TcCoe Idealize.SL Idealize.SL.Sem
open Cert.Kernel Cert.Kernel.Gen

variable {F : FTy → Type} [FloatOps F]

/-- The program's six arguments. -/
abbrev args : List (Ref sig .tc) := [main_arg0, main_arg1, main_arg2, main_arg3, main_arg4, main_arg5]

/-- The operation writes none of the arguments. -/
def Keeps (op : HloOp τ sig (Elt F)) : Prop := ∀ a ∈ args, (Proc.devRef .tc a : DevRef τ sig) ∉ op.writes

/-- An operation whose one result buffer is not an argument writes no argument: distinct references are distinct
    device buffers. -/
theorem keeps_of_result {op : HloOp τ sig (Elt F)} {y : Ref sig .tc}
    (hw : op.writes = {Proc.devRef .tc y}) (hy : y ∉ args) : Keeps op := fun a ha hmem => by
  rw [hw, Finset.mem_singleton] at hmem
  exact hy (Proc.devRef_injective _ hmem ▸ ha)

/-! Stretch by stretch: the stretch is a conjunction over its operations, and each operation's result is read off
    the operation and compared with the six arguments. -/

set_option maxHeartbeats 400000 in
theorem hostOps0_keeps : (hostOps0 : List (HloOp τ sig (Elt F))).Forall Keeps := by
  simp only [List.Forall]
  repeat' apply And.intro
  all_goals exact keeps_of_result rfl (by decide)
set_option maxHeartbeats 400000 in
theorem hostOps0_1_keeps : (hostOps0_1 : List (HloOp τ sig (Elt F))).Forall Keeps := by
  simp only [List.Forall]
  repeat' apply And.intro
  all_goals exact keeps_of_result rfl (by decide)
set_option maxHeartbeats 400000 in
theorem hostOps0_2_keeps : (hostOps0_2 : List (HloOp τ sig (Elt F))).Forall Keeps := by
  simp only [List.Forall]
  repeat' apply And.intro
  all_goals exact keeps_of_result rfl (by decide)
set_option maxHeartbeats 400000 in
theorem hostOps0_3_keeps : (hostOps0_3 : List (HloOp τ sig (Elt F))).Forall Keeps := by
  simp only [List.Forall]
  repeat' apply And.intro
  all_goals exact keeps_of_result rfl (by decide)
set_option maxHeartbeats 400000 in
theorem hostOps0_4_keeps : (hostOps0_4 : List (HloOp τ sig (Elt F))).Forall Keeps := by
  simp only [List.Forall]
  repeat' apply And.intro
  all_goals exact keeps_of_result rfl (by decide)
set_option maxHeartbeats 400000 in
theorem hostOps0_5_keeps : (hostOps0_5 : List (HloOp τ sig (Elt F))).Forall Keeps := by
  simp only [List.Forall]
  repeat' apply And.intro
  all_goals exact keeps_of_result rfl (by decide)
set_option maxHeartbeats 400000 in
theorem hostOps0_6_keeps : (hostOps0_6 : List (HloOp τ sig (Elt F))).Forall Keeps := by
  simp only [List.Forall]
  repeat' apply And.intro
  all_goals exact keeps_of_result rfl (by decide)
set_option maxHeartbeats 400000 in
theorem hostOps0_7_keeps : (hostOps0_7 : List (HloOp τ sig (Elt F))).Forall Keeps := by
  simp only [List.Forall]
  repeat' apply And.intro
  all_goals exact keeps_of_result rfl (by decide)
set_option maxHeartbeats 400000 in
theorem hostOps0_8_keeps : (hostOps0_8 : List (HloOp τ sig (Elt F))).Forall Keeps := by
  simp only [List.Forall]
  repeat' apply And.intro
  all_goals exact keeps_of_result rfl (by decide)
set_option maxHeartbeats 400000 in
theorem hostOps0_9_keeps : (hostOps0_9 : List (HloOp τ sig (Elt F))).Forall Keeps := by
  simp only [List.Forall]
  repeat' apply And.intro
  all_goals exact keeps_of_result rfl (by decide)
set_option maxHeartbeats 400000 in
theorem hostOps0_10_keeps : (hostOps0_10 : List (HloOp τ sig (Elt F))).Forall Keeps := by
  simp only [List.Forall]
  repeat' apply And.intro
  all_goals exact keeps_of_result rfl (by decide)
set_option maxHeartbeats 400000 in
theorem hostOps0_11_keeps : (hostOps0_11 : List (HloOp τ sig (Elt F))).Forall Keeps := by
  simp only [List.Forall]
  repeat' apply And.intro
  all_goals exact keeps_of_result rfl (by decide)
set_option maxHeartbeats 400000 in
theorem hostOps0_12_keeps : (hostOps0_12 : List (HloOp τ sig (Elt F))).Forall Keeps := by
  simp only [List.Forall]
  repeat' apply And.intro
  all_goals exact keeps_of_result rfl (by decide)
set_option maxHeartbeats 400000 in
theorem hostOps0_13_keeps : (hostOps0_13 : List (HloOp τ sig (Elt F))).Forall Keeps := by
  simp only [List.Forall]
  repeat' apply And.intro
  all_goals exact keeps_of_result rfl (by decide)
set_option maxHeartbeats 400000 in
theorem hostOps0_14_keeps : (hostOps0_14 : List (HloOp τ sig (Elt F))).Forall Keeps := by
  simp only [List.Forall]
  repeat' apply And.intro
  all_goals exact keeps_of_result rfl (by decide)
set_option maxHeartbeats 400000 in
theorem hostOps0_15_keeps : (hostOps0_15 : List (HloOp τ sig (Elt F))).Forall Keeps := by
  simp only [List.Forall]
  repeat' apply And.intro
  all_goals exact keeps_of_result rfl (by decide)
set_option maxHeartbeats 400000 in
theorem hostOps0_16_keeps : (hostOps0_16 : List (HloOp τ sig (Elt F))).Forall Keeps := by
  simp only [List.Forall]
  repeat' apply And.intro
  all_goals exact keeps_of_result rfl (by decide)
set_option maxHeartbeats 400000 in
theorem hostOps0_17_keeps : (hostOps0_17 : List (HloOp τ sig (Elt F))).Forall Keeps := by
  simp only [List.Forall]
  repeat' apply And.intro
  all_goals exact keeps_of_result rfl (by decide)
set_option maxHeartbeats 400000 in
theorem hostOps0_18_keeps : (hostOps0_18 : List (HloOp τ sig (Elt F))).Forall Keeps := by
  simp only [List.Forall]
  repeat' apply And.intro
  all_goals exact keeps_of_result rfl (by decide)
set_option maxHeartbeats 400000 in
theorem hostOps0_19_keeps : (hostOps0_19 : List (HloOp τ sig (Elt F))).Forall Keeps := by
  simp only [List.Forall]
  repeat' apply And.intro
  all_goals exact keeps_of_result rfl (by decide)
set_option maxHeartbeats 400000 in
theorem hostOps0_20_keeps : (hostOps0_20 : List (HloOp τ sig (Elt F))).Forall Keeps := by
  simp only [List.Forall]
  repeat' apply And.intro
  all_goals exact keeps_of_result rfl (by decide)
set_option maxHeartbeats 400000 in
theorem hostOps0_21_keeps : (hostOps0_21 : List (HloOp τ sig (Elt F))).Forall Keeps := by
  simp only [List.Forall]
  repeat' apply And.intro
  all_goals exact keeps_of_result rfl (by decide)
set_option maxHeartbeats 400000 in
theorem hostOps0_22_keeps : (hostOps0_22 : List (HloOp τ sig (Elt F))).Forall Keeps := by
  simp only [List.Forall]
  repeat' apply And.intro
  all_goals exact keeps_of_result rfl (by decide)
set_option maxHeartbeats 400000 in
theorem hostOps0_23_keeps : (hostOps0_23 : List (HloOp τ sig (Elt F))).Forall Keeps := by
  simp only [List.Forall]
  repeat' apply And.intro
  all_goals exact keeps_of_result rfl (by decide)
set_option maxHeartbeats 400000 in
theorem hostOps0_24_keeps : (hostOps0_24 : List (HloOp τ sig (Elt F))).Forall Keeps := by
  simp only [List.Forall]
  repeat' apply And.intro
  all_goals exact keeps_of_result rfl (by decide)
set_option maxHeartbeats 400000 in
theorem hostOps0_25_keeps : (hostOps0_25 : List (HloOp τ sig (Elt F))).Forall Keeps := by
  simp only [List.Forall]
  repeat' apply And.intro
  all_goals exact keeps_of_result rfl (by decide)
set_option maxHeartbeats 400000 in
theorem hostOps0_26_keeps : (hostOps0_26 : List (HloOp τ sig (Elt F))).Forall Keeps := by
  simp only [List.Forall]
  repeat' apply And.intro
  all_goals exact keeps_of_result rfl (by decide)
set_option maxHeartbeats 400000 in
theorem hostOps0_27_keeps : (hostOps0_27 : List (HloOp τ sig (Elt F))).Forall Keeps := by
  simp only [List.Forall]
  repeat' apply And.intro
  all_goals exact keeps_of_result rfl (by decide)
set_option maxHeartbeats 400000 in
theorem hostOps0_28_keeps : (hostOps0_28 : List (HloOp τ sig (Elt F))).Forall Keeps := by
  simp only [List.Forall]
  repeat' apply And.intro
  all_goals exact keeps_of_result rfl (by decide)
set_option maxHeartbeats 400000 in
theorem hostOps0_29_keeps : (hostOps0_29 : List (HloOp τ sig (Elt F))).Forall Keeps := by
  simp only [List.Forall]
  repeat' apply And.intro
  all_goals exact keeps_of_result rfl (by decide)
set_option maxHeartbeats 400000 in
theorem hostOps0_30_keeps : (hostOps0_30 : List (HloOp τ sig (Elt F))).Forall Keeps := by
  simp only [List.Forall]
  repeat' apply And.intro
  all_goals exact keeps_of_result rfl (by decide)
set_option maxHeartbeats 400000 in
theorem hostOps0_31_keeps : (hostOps0_31 : List (HloOp τ sig (Elt F))).Forall Keeps := by
  simp only [List.Forall]
  repeat' apply And.intro
  all_goals exact keeps_of_result rfl (by decide)
set_option maxHeartbeats 400000 in
theorem hostOps0_32_keeps : (hostOps0_32 : List (HloOp τ sig (Elt F))).Forall Keeps := by
  simp only [List.Forall]
  repeat' apply And.intro
  all_goals exact keeps_of_result rfl (by decide)
set_option maxHeartbeats 400000 in
theorem hostOps0_33_keeps : (hostOps0_33 : List (HloOp τ sig (Elt F))).Forall Keeps := by
  simp only [List.Forall]
  repeat' apply And.intro
  all_goals exact keeps_of_result rfl (by decide)
set_option maxHeartbeats 400000 in
theorem hostOps0_34_keeps : (hostOps0_34 : List (HloOp τ sig (Elt F))).Forall Keeps := by
  simp only [List.Forall]
  repeat' apply And.intro
  all_goals exact keeps_of_result rfl (by decide)
set_option maxHeartbeats 400000 in
theorem hostOps0_35_keeps : (hostOps0_35 : List (HloOp τ sig (Elt F))).Forall Keeps := by
  simp only [List.Forall]
  repeat' apply And.intro
  all_goals exact keeps_of_result rfl (by decide)
set_option maxHeartbeats 400000 in
theorem hostOps0_36_keeps : (hostOps0_36 : List (HloOp τ sig (Elt F))).Forall Keeps := by
  simp only [List.Forall]
  repeat' apply And.intro
  all_goals exact keeps_of_result rfl (by decide)
set_option maxHeartbeats 400000 in
theorem hostOps0_37_keeps : (hostOps0_37 : List (HloOp τ sig (Elt F))).Forall Keeps := by
  simp only [List.Forall]
  repeat' apply And.intro
  all_goals exact keeps_of_result rfl (by decide)
set_option maxHeartbeats 400000 in
theorem hostOps0_38_keeps : (hostOps0_38 : List (HloOp τ sig (Elt F))).Forall Keeps := by
  simp only [List.Forall]
  repeat' apply And.intro
  all_goals exact keeps_of_result rfl (by decide)
set_option maxHeartbeats 400000 in
theorem hostOps0_39_keeps : (hostOps0_39 : List (HloOp τ sig (Elt F))).Forall Keeps := by
  simp only [List.Forall]
  repeat' apply And.intro
  all_goals exact keeps_of_result rfl (by decide)
set_option maxHeartbeats 400000 in
theorem hostOps0_40_keeps : (hostOps0_40 : List (HloOp τ sig (Elt F))).Forall Keeps := by
  simp only [List.Forall]
  repeat' apply And.intro
  all_goals exact keeps_of_result rfl (by decide)
set_option maxHeartbeats 400000 in
theorem hostOps0_41_keeps : (hostOps0_41 : List (HloOp τ sig (Elt F))).Forall Keeps := by
  simp only [List.Forall]
  repeat' apply And.intro
  all_goals exact keeps_of_result rfl (by decide)
set_option maxHeartbeats 400000 in
theorem hostOps0_42_keeps : (hostOps0_42 : List (HloOp τ sig (Elt F))).Forall Keeps := by
  simp only [List.Forall]
  repeat' apply And.intro
  all_goals exact keeps_of_result rfl (by decide)
set_option maxHeartbeats 400000 in
theorem hostOps0_43_keeps : (hostOps0_43 : List (HloOp τ sig (Elt F))).Forall Keeps := by
  simp only [List.Forall]
  repeat' apply And.intro
  all_goals exact keeps_of_result rfl (by decide)
set_option maxHeartbeats 400000 in
theorem hostOps0_44_keeps : (hostOps0_44 : List (HloOp τ sig (Elt F))).Forall Keeps := by
  simp only [List.Forall]
  repeat' apply And.intro
  all_goals exact keeps_of_result rfl (by decide)
set_option maxHeartbeats 400000 in
theorem hostOps0_45_keeps : (hostOps0_45 : List (HloOp τ sig (Elt F))).Forall Keeps := by
  simp only [List.Forall]
  repeat' apply And.intro
  all_goals exact keeps_of_result rfl (by decide)
set_option maxHeartbeats 400000 in
theorem hostOps0_46_keeps : (hostOps0_46 : List (HloOp τ sig (Elt F))).Forall Keeps := by
  simp only [List.Forall]
  repeat' apply And.intro
  all_goals exact keeps_of_result rfl (by decide)
set_option maxHeartbeats 400000 in
theorem hostOps0_47_keeps : (hostOps0_47 : List (HloOp τ sig (Elt F))).Forall Keeps := by
  simp only [List.Forall]
  repeat' apply And.intro
  all_goals exact keeps_of_result rfl (by decide)
set_option maxHeartbeats 400000 in
theorem hostOps0_48_keeps : (hostOps0_48 : List (HloOp τ sig (Elt F))).Forall Keeps := by
  simp only [List.Forall]
  repeat' apply And.intro
  all_goals exact keeps_of_result rfl (by decide)
set_option maxHeartbeats 400000 in
theorem hostOps0_49_keeps : (hostOps0_49 : List (HloOp τ sig (Elt F))).Forall Keeps := by
  simp only [List.Forall]
  repeat' apply And.intro
  all_goals exact keeps_of_result rfl (by decide)
set_option maxHeartbeats 400000 in
theorem hostOps0_50_keeps : (hostOps0_50 : List (HloOp τ sig (Elt F))).Forall Keeps := by
  simp only [List.Forall]
  repeat' apply And.intro
  all_goals exact keeps_of_result rfl (by decide)
set_option maxHeartbeats 400000 in
theorem hostOps0_51_keeps : (hostOps0_51 : List (HloOp τ sig (Elt F))).Forall Keeps := by
  simp only [List.Forall]
  repeat' apply And.intro
  all_goals exact keeps_of_result rfl (by decide)
set_option maxHeartbeats 400000 in
theorem hostOps0_52_keeps : (hostOps0_52 : List (HloOp τ sig (Elt F))).Forall Keeps := by
  simp only [List.Forall]
  repeat' apply And.intro
  all_goals exact keeps_of_result rfl (by decide)
set_option maxHeartbeats 400000 in
theorem hostOps0_53_keeps : (hostOps0_53 : List (HloOp τ sig (Elt F))).Forall Keeps := by
  simp only [List.Forall]
  repeat' apply And.intro
  all_goals exact keeps_of_result rfl (by decide)
set_option maxHeartbeats 400000 in
theorem hostOps0_54_keeps : (hostOps0_54 : List (HloOp τ sig (Elt F))).Forall Keeps := by
  simp only [List.Forall]
  repeat' apply And.intro
  all_goals exact keeps_of_result rfl (by decide)
set_option maxHeartbeats 400000 in
theorem hostOps0_55_keeps : (hostOps0_55 : List (HloOp τ sig (Elt F))).Forall Keeps := by
  simp only [List.Forall]
  repeat' apply And.intro
  all_goals exact keeps_of_result rfl (by decide)
set_option maxHeartbeats 400000 in
theorem hostOps0_56_keeps : (hostOps0_56 : List (HloOp τ sig (Elt F))).Forall Keeps := by
  simp only [List.Forall]
  repeat' apply And.intro
  all_goals exact keeps_of_result rfl (by decide)
set_option maxHeartbeats 400000 in
theorem hostOps0_57_keeps : (hostOps0_57 : List (HloOp τ sig (Elt F))).Forall Keeps := by
  simp only [List.Forall]
  repeat' apply And.intro
  all_goals exact keeps_of_result rfl (by decide)
set_option maxHeartbeats 400000 in
theorem hostOps0_58_keeps : (hostOps0_58 : List (HloOp τ sig (Elt F))).Forall Keeps := by
  simp only [List.Forall]
  repeat' apply And.intro
  all_goals exact keeps_of_result rfl (by decide)
set_option maxHeartbeats 400000 in
theorem hostOps0_59_keeps : (hostOps0_59 : List (HloOp τ sig (Elt F))).Forall Keeps := by
  simp only [List.Forall]
  repeat' apply And.intro
  all_goals exact keeps_of_result rfl (by decide)
set_option maxHeartbeats 400000 in
theorem hostOps0_60_keeps : (hostOps0_60 : List (HloOp τ sig (Elt F))).Forall Keeps := by
  simp only [List.Forall]
  repeat' apply And.intro
  all_goals exact keeps_of_result rfl (by decide)
set_option maxHeartbeats 400000 in
theorem hostOps0_61_keeps : (hostOps0_61 : List (HloOp τ sig (Elt F))).Forall Keeps := by
  simp only [List.Forall]
  repeat' apply And.intro
  all_goals exact keeps_of_result rfl (by decide)
set_option maxHeartbeats 400000 in
theorem hostOps0_62_keeps : (hostOps0_62 : List (HloOp τ sig (Elt F))).Forall Keeps := by
  simp only [List.Forall]
  repeat' apply And.intro
  all_goals exact keeps_of_result rfl (by decide)
set_option maxHeartbeats 400000 in
theorem hostOps0_63_keeps : (hostOps0_63 : List (HloOp τ sig (Elt F))).Forall Keeps := by
  simp only [List.Forall]
  repeat' apply And.intro
  all_goals exact keeps_of_result rfl (by decide)
set_option maxHeartbeats 400000 in
theorem hostOps0_64_keeps : (hostOps0_64 : List (HloOp τ sig (Elt F))).Forall Keeps := by
  simp only [List.Forall]
  repeat' apply And.intro
  all_goals exact keeps_of_result rfl (by decide)
set_option maxHeartbeats 400000 in
theorem hostOps0_65_keeps : (hostOps0_65 : List (HloOp τ sig (Elt F))).Forall Keeps := by
  simp only [List.Forall]
  repeat' apply And.intro
  all_goals exact keeps_of_result rfl (by decide)
set_option maxHeartbeats 400000 in
theorem hostOps0_66_keeps : (hostOps0_66 : List (HloOp τ sig (Elt F))).Forall Keeps := by
  simp only [List.Forall]
  repeat' apply And.intro
  all_goals exact keeps_of_result rfl (by decide)
set_option maxHeartbeats 400000 in
theorem hostOps0_67_keeps : (hostOps0_67 : List (HloOp τ sig (Elt F))).Forall Keeps := by
  simp only [List.Forall]
  repeat' apply And.intro
  all_goals exact keeps_of_result rfl (by decide)
set_option maxHeartbeats 400000 in
theorem hostOps0_68_keeps : (hostOps0_68 : List (HloOp τ sig (Elt F))).Forall Keeps := by
  simp only [List.Forall]
  repeat' apply And.intro
  all_goals exact keeps_of_result rfl (by decide)
set_option maxHeartbeats 400000 in
theorem hostOps0_69_keeps : (hostOps0_69 : List (HloOp τ sig (Elt F))).Forall Keeps := by
  simp only [List.Forall]
  repeat' apply And.intro
  all_goals exact keeps_of_result rfl (by decide)
set_option maxHeartbeats 400000 in
theorem hostOps0_70_keeps : (hostOps0_70 : List (HloOp τ sig (Elt F))).Forall Keeps := by
  simp only [List.Forall]
  repeat' apply And.intro
  all_goals exact keeps_of_result rfl (by decide)
set_option maxHeartbeats 400000 in
theorem hostOps0_71_keeps : (hostOps0_71 : List (HloOp τ sig (Elt F))).Forall Keeps := by
  simp only [List.Forall]
  repeat' apply And.intro
  all_goals exact keeps_of_result rfl (by decide)
set_option maxHeartbeats 400000 in
theorem hostOps0_72_keeps : (hostOps0_72 : List (HloOp τ sig (Elt F))).Forall Keeps := by
  simp only [List.Forall]
  repeat' apply And.intro
  all_goals exact keeps_of_result rfl (by decide)
set_option maxHeartbeats 400000 in
theorem hostOps0_73_keeps : (hostOps0_73 : List (HloOp τ sig (Elt F))).Forall Keeps := by
  simp only [List.Forall]
  repeat' apply And.intro
  all_goals exact keeps_of_result rfl (by decide)
set_option maxHeartbeats 400000 in
theorem hostOps0_74_keeps : (hostOps0_74 : List (HloOp τ sig (Elt F))).Forall Keeps := by
  simp only [List.Forall]
  repeat' apply And.intro
  all_goals exact keeps_of_result rfl (by decide)
set_option maxHeartbeats 400000 in
theorem hostOps0_75_keeps : (hostOps0_75 : List (HloOp τ sig (Elt F))).Forall Keeps := by
  simp only [List.Forall]
  repeat' apply And.intro
  all_goals exact keeps_of_result rfl (by decide)
set_option maxHeartbeats 400000 in
theorem hostOps0_76_keeps : (hostOps0_76 : List (HloOp τ sig (Elt F))).Forall Keeps := by
  simp only [List.Forall]
  repeat' apply And.intro
  all_goals exact keeps_of_result rfl (by decide)
set_option maxHeartbeats 400000 in
theorem hostOps0_77_keeps : (hostOps0_77 : List (HloOp τ sig (Elt F))).Forall Keeps := by
  simp only [List.Forall]
  repeat' apply And.intro
  all_goals exact keeps_of_result rfl (by decide)
set_option maxHeartbeats 400000 in
theorem hostOps0_78_keeps : (hostOps0_78 : List (HloOp τ sig (Elt F))).Forall Keeps := by
  simp only [List.Forall]
  repeat' apply And.intro
  all_goals exact keeps_of_result rfl (by decide)
set_option maxHeartbeats 400000 in
theorem hostOps0_79_keeps : (hostOps0_79 : List (HloOp τ sig (Elt F))).Forall Keeps := by
  simp only [List.Forall]
  repeat' apply And.intro
  all_goals exact keeps_of_result rfl (by decide)
set_option maxHeartbeats 400000 in
theorem hostOps0_80_keeps : (hostOps0_80 : List (HloOp τ sig (Elt F))).Forall Keeps := by
  simp only [List.Forall]
  repeat' apply And.intro
  all_goals exact keeps_of_result rfl (by decide)
set_option maxHeartbeats 400000 in
theorem hostOps0_81_keeps : (hostOps0_81 : List (HloOp τ sig (Elt F))).Forall Keeps := by
  simp only [List.Forall]
  repeat' apply And.intro
  all_goals exact keeps_of_result rfl (by decide)
set_option maxHeartbeats 400000 in
theorem hostOps0_82_keeps : (hostOps0_82 : List (HloOp τ sig (Elt F))).Forall Keeps := by
  simp only [List.Forall]
  repeat' apply And.intro
  all_goals exact keeps_of_result rfl (by decide)
set_option maxHeartbeats 400000 in
theorem hostOps0_83_keeps : (hostOps0_83 : List (HloOp τ sig (Elt F))).Forall Keeps := by
  simp only [List.Forall]
  repeat' apply And.intro
  all_goals exact keeps_of_result rfl (by decide)
set_option maxHeartbeats 400000 in
theorem hostOps0_84_keeps : (hostOps0_84 : List (HloOp τ sig (Elt F))).Forall Keeps := by
  simp only [List.Forall]
  repeat' apply And.intro
  all_goals exact keeps_of_result rfl (by decide)
set_option maxHeartbeats 400000 in
theorem hostOps0_85_keeps : (hostOps0_85 : List (HloOp τ sig (Elt F))).Forall Keeps := by
  simp only [List.Forall]
  repeat' apply And.intro
  all_goals exact keeps_of_result rfl (by decide)
set_option maxHeartbeats 400000 in
theorem hostOps0_86_keeps : (hostOps0_86 : List (HloOp τ sig (Elt F))).Forall Keeps := by
  simp only [List.Forall]
  repeat' apply And.intro
  all_goals exact keeps_of_result rfl (by decide)
set_option maxHeartbeats 400000 in
theorem hostOps0_87_keeps : (hostOps0_87 : List (HloOp τ sig (Elt F))).Forall Keeps := by
  simp only [List.Forall]
  repeat' apply And.intro
  all_goals exact keeps_of_result rfl (by decide)
set_option maxHeartbeats 400000 in
theorem hostOps0_88_keeps : (hostOps0_88 : List (HloOp τ sig (Elt F))).Forall Keeps := by
  simp only [List.Forall]
  repeat' apply And.intro
  all_goals exact keeps_of_result rfl (by decide)
set_option maxHeartbeats 400000 in
theorem hostOps0_89_keeps : (hostOps0_89 : List (HloOp τ sig (Elt F))).Forall Keeps := by
  simp only [List.Forall]
  repeat' apply And.intro
  all_goals exact keeps_of_result rfl (by decide)
set_option maxHeartbeats 400000 in
theorem hostOps0_90_keeps : (hostOps0_90 : List (HloOp τ sig (Elt F))).Forall Keeps := by
  simp only [List.Forall]
  repeat' apply And.intro
  all_goals exact keeps_of_result rfl (by decide)
set_option maxHeartbeats 400000 in
theorem hostOps0_91_keeps : (hostOps0_91 : List (HloOp τ sig (Elt F))).Forall Keeps := by
  simp only [List.Forall]
  repeat' apply And.intro
  all_goals exact keeps_of_result rfl (by decide)
set_option maxHeartbeats 400000 in
theorem hostOps0_92_keeps : (hostOps0_92 : List (HloOp τ sig (Elt F))).Forall Keeps := by
  simp only [List.Forall]
  repeat' apply And.intro
  all_goals exact keeps_of_result rfl (by decide)
set_option maxHeartbeats 400000 in
theorem hostOps0_93_keeps : (hostOps0_93 : List (HloOp τ sig (Elt F))).Forall Keeps := by
  simp only [List.Forall]
  repeat' apply And.intro
  all_goals exact keeps_of_result rfl (by decide)
set_option maxHeartbeats 400000 in
theorem hostOps0_94_keeps : (hostOps0_94 : List (HloOp τ sig (Elt F))).Forall Keeps := by
  simp only [List.Forall]
  repeat' apply And.intro
  all_goals exact keeps_of_result rfl (by decide)
set_option maxHeartbeats 400000 in
theorem hostOps0_95_keeps : (hostOps0_95 : List (HloOp τ sig (Elt F))).Forall Keeps := by
  simp only [List.Forall]
  repeat' apply And.intro
  all_goals exact keeps_of_result rfl (by decide)
set_option maxHeartbeats 400000 in
theorem hostOps0_96_keeps : (hostOps0_96 : List (HloOp τ sig (Elt F))).Forall Keeps := by
  simp only [List.Forall]
  repeat' apply And.intro
  all_goals exact keeps_of_result rfl (by decide)
set_option maxHeartbeats 400000 in
theorem hostOps0_97_keeps : (hostOps0_97 : List (HloOp τ sig (Elt F))).Forall Keeps := by
  simp only [List.Forall]
  repeat' apply And.intro
  all_goals exact keeps_of_result rfl (by decide)
set_option maxHeartbeats 400000 in
theorem hostOps0_98_keeps : (hostOps0_98 : List (HloOp τ sig (Elt F))).Forall Keeps := by
  simp only [List.Forall]
  repeat' apply And.intro
  all_goals exact keeps_of_result rfl (by decide)
set_option maxHeartbeats 400000 in
theorem hostOps0_99_keeps : (hostOps0_99 : List (HloOp τ sig (Elt F))).Forall Keeps := by
  simp only [List.Forall]
  repeat' apply And.intro
  all_goals exact keeps_of_result rfl (by decide)
set_option maxHeartbeats 400000 in
theorem hostOps0_100_keeps : (hostOps0_100 : List (HloOp τ sig (Elt F))).Forall Keeps := by
  simp only [List.Forall]
  repeat' apply And.intro
  all_goals exact keeps_of_result rfl (by decide)
set_option maxHeartbeats 400000 in
theorem hostOps0_101_keeps : (hostOps0_101 : List (HloOp τ sig (Elt F))).Forall Keeps := by
  simp only [List.Forall]
  repeat' apply And.intro
  all_goals exact keeps_of_result rfl (by decide)
set_option maxHeartbeats 400000 in
theorem hostOps0_102_keeps : (hostOps0_102 : List (HloOp τ sig (Elt F))).Forall Keeps := by
  simp only [List.Forall]
  repeat' apply And.intro
  all_goals exact keeps_of_result rfl (by decide)
set_option maxHeartbeats 400000 in
theorem hostOps0_103_keeps : (hostOps0_103 : List (HloOp τ sig (Elt F))).Forall Keeps := by
  simp only [List.Forall]
  repeat' apply And.intro
  all_goals exact keeps_of_result rfl (by decide)
set_option maxHeartbeats 400000 in
theorem hostOps0_104_keeps : (hostOps0_104 : List (HloOp τ sig (Elt F))).Forall Keeps := by
  simp only [List.Forall]
  repeat' apply And.intro
  all_goals exact keeps_of_result rfl (by decide)
set_option maxHeartbeats 400000 in
theorem hostOps0_105_keeps : (hostOps0_105 : List (HloOp τ sig (Elt F))).Forall Keeps := by
  simp only [List.Forall]
  repeat' apply And.intro
  all_goals exact keeps_of_result rfl (by decide)
set_option maxHeartbeats 400000 in
theorem hostOps0_106_keeps : (hostOps0_106 : List (HloOp τ sig (Elt F))).Forall Keeps := by
  simp only [List.Forall]
  repeat' apply And.intro
  all_goals exact keeps_of_result rfl (by decide)
set_option maxHeartbeats 400000 in
theorem hostOps0_107_keeps : (hostOps0_107 : List (HloOp τ sig (Elt F))).Forall Keeps := by
  simp only [List.Forall]
  repeat' apply And.intro
  all_goals exact keeps_of_result rfl (by decide)
set_option maxHeartbeats 400000 in
theorem hostOps0_108_keeps : (hostOps0_108 : List (HloOp τ sig (Elt F))).Forall Keeps := by
  simp only [List.Forall]
  repeat' apply And.intro
  all_goals exact keeps_of_result rfl (by decide)
set_option maxHeartbeats 400000 in
theorem hostOps0_109_keeps : (hostOps0_109 : List (HloOp τ sig (Elt F))).Forall Keeps := by
  simp only [List.Forall]
  repeat' apply And.intro
  all_goals exact keeps_of_result rfl (by decide)
set_option maxHeartbeats 400000 in
theorem hostOps0_110_keeps : (hostOps0_110 : List (HloOp τ sig (Elt F))).Forall Keeps := by
  simp only [List.Forall]
  repeat' apply And.intro
  all_goals exact keeps_of_result rfl (by decide)
set_option maxHeartbeats 400000 in
theorem hostOps0_111_keeps : (hostOps0_111 : List (HloOp τ sig (Elt F))).Forall Keeps := by
  simp only [List.Forall]
  repeat' apply And.intro
  all_goals exact keeps_of_result rfl (by decide)
set_option maxHeartbeats 400000 in
theorem hostOps0_112_keeps : (hostOps0_112 : List (HloOp τ sig (Elt F))).Forall Keeps := by
  simp only [List.Forall]
  repeat' apply And.intro
  all_goals exact keeps_of_result rfl (by decide)
set_option maxHeartbeats 400000 in
theorem hostOps0_113_keeps : (hostOps0_113 : List (HloOp τ sig (Elt F))).Forall Keeps := by
  simp only [List.Forall]
  repeat' apply And.intro
  all_goals exact keeps_of_result rfl (by decide)
set_option maxHeartbeats 400000 in
theorem hostOps0_114_keeps : (hostOps0_114 : List (HloOp τ sig (Elt F))).Forall Keeps := by
  simp only [List.Forall]
  repeat' apply And.intro
  all_goals exact keeps_of_result rfl (by decide)
set_option maxHeartbeats 400000 in
theorem hostOps0_115_keeps : (hostOps0_115 : List (HloOp τ sig (Elt F))).Forall Keeps := by
  simp only [List.Forall]
  repeat' apply And.intro
  all_goals exact keeps_of_result rfl (by decide)
set_option maxHeartbeats 400000 in
theorem hostOps0_116_keeps : (hostOps0_116 : List (HloOp τ sig (Elt F))).Forall Keeps := by
  simp only [List.Forall]
  repeat' apply And.intro
  all_goals exact keeps_of_result rfl (by decide)
set_option maxHeartbeats 400000 in
theorem hostOps0_117_keeps : (hostOps0_117 : List (HloOp τ sig (Elt F))).Forall Keeps := by
  simp only [List.Forall]
  repeat' apply And.intro
  all_goals exact keeps_of_result rfl (by decide)
set_option maxHeartbeats 400000 in
theorem hostOps0_118_keeps : (hostOps0_118 : List (HloOp τ sig (Elt F))).Forall Keeps := by
  simp only [List.Forall]
  repeat' apply And.intro
  all_goals exact keeps_of_result rfl (by decide)
set_option maxHeartbeats 400000 in
theorem hostOps0_119_keeps : (hostOps0_119 : List (HloOp τ sig (Elt F))).Forall Keeps := by
  simp only [List.Forall]
  repeat' apply And.intro
  all_goals exact keeps_of_result rfl (by decide)
set_option maxHeartbeats 400000 in
theorem hostOps0_120_keeps : (hostOps0_120 : List (HloOp τ sig (Elt F))).Forall Keeps := by
  simp only [List.Forall]
  repeat' apply And.intro
  all_goals exact keeps_of_result rfl (by decide)
set_option maxHeartbeats 400000 in
theorem hostOps0_121_keeps : (hostOps0_121 : List (HloOp τ sig (Elt F))).Forall Keeps := by
  simp only [List.Forall]
  repeat' apply And.intro
  all_goals exact keeps_of_result rfl (by decide)
set_option maxHeartbeats 400000 in
theorem hostOps0_122_keeps : (hostOps0_122 : List (HloOp τ sig (Elt F))).Forall Keeps := by
  simp only [List.Forall]
  repeat' apply And.intro
  all_goals exact keeps_of_result rfl (by decide)
set_option maxHeartbeats 400000 in
theorem hostOps0_123_keeps : (hostOps0_123 : List (HloOp τ sig (Elt F))).Forall Keeps := by
  simp only [List.Forall]
  repeat' apply And.intro
  all_goals exact keeps_of_result rfl (by decide)
set_option maxHeartbeats 400000 in
theorem hostOps0_124_keeps : (hostOps0_124 : List (HloOp τ sig (Elt F))).Forall Keeps := by
  simp only [List.Forall]
  repeat' apply And.intro
  all_goals exact keeps_of_result rfl (by decide)
set_option maxHeartbeats 400000 in
theorem hostOps0_125_keeps : (hostOps0_125 : List (HloOp τ sig (Elt F))).Forall Keeps := by
  simp only [List.Forall]
  repeat' apply And.intro
  all_goals exact keeps_of_result rfl (by decide)
set_option maxHeartbeats 400000 in
theorem hostOps0_126_keeps : (hostOps0_126 : List (HloOp τ sig (Elt F))).Forall Keeps := by
  simp only [List.Forall]
  repeat' apply And.intro
  all_goals exact keeps_of_result rfl (by decide)
set_option maxHeartbeats 400000 in
theorem hostOps0_127_keeps : (hostOps0_127 : List (HloOp τ sig (Elt F))).Forall Keeps := by
  simp only [List.Forall]
  repeat' apply And.intro
  all_goals exact keeps_of_result rfl (by decide)
set_option maxHeartbeats 400000 in
theorem hostOps0_128_keeps : (hostOps0_128 : List (HloOp τ sig (Elt F))).Forall Keeps := by
  simp only [List.Forall]
  repeat' apply And.intro
  all_goals exact keeps_of_result rfl (by decide)
set_option maxHeartbeats 400000 in
theorem hostOps0_129_keeps : (hostOps0_129 : List (HloOp τ sig (Elt F))).Forall Keeps := by
  simp only [List.Forall]
  repeat' apply And.intro
  all_goals exact keeps_of_result rfl (by decide)
set_option maxHeartbeats 400000 in
theorem hostOps0_130_keeps : (hostOps0_130 : List (HloOp τ sig (Elt F))).Forall Keeps := by
  simp only [List.Forall]
  repeat' apply And.intro
  all_goals exact keeps_of_result rfl (by decide)
set_option maxHeartbeats 400000 in
theorem hostOps0_131_keeps : (hostOps0_131 : List (HloOp τ sig (Elt F))).Forall Keeps := by
  simp only [List.Forall]
  repeat' apply And.intro
  all_goals exact keeps_of_result rfl (by decide)
set_option maxHeartbeats 400000 in
theorem hostOps0_132_keeps : (hostOps0_132 : List (HloOp τ sig (Elt F))).Forall Keeps := by
  simp only [List.Forall]
  repeat' apply And.intro
  all_goals exact keeps_of_result rfl (by decide)
set_option maxHeartbeats 400000 in
theorem hostOps0_133_keeps : (hostOps0_133 : List (HloOp τ sig (Elt F))).Forall Keeps := by
  simp only [List.Forall]
  repeat' apply And.intro
  all_goals exact keeps_of_result rfl (by decide)
set_option maxHeartbeats 400000 in
theorem hostOps0_134_keeps : (hostOps0_134 : List (HloOp τ sig (Elt F))).Forall Keeps := by
  simp only [List.Forall]
  repeat' apply And.intro
  all_goals exact keeps_of_result rfl (by decide)
set_option maxHeartbeats 400000 in
theorem hostOps0_135_keeps : (hostOps0_135 : List (HloOp τ sig (Elt F))).Forall Keeps := by
  simp only [List.Forall]
  repeat' apply And.intro
  all_goals exact keeps_of_result rfl (by decide)
set_option maxHeartbeats 400000 in
theorem hostOps0_136_keeps : (hostOps0_136 : List (HloOp τ sig (Elt F))).Forall Keeps := by
  simp only [List.Forall]
  repeat' apply And.intro
  all_goals exact keeps_of_result rfl (by decide)
set_option maxHeartbeats 400000 in
theorem hostOps0_137_keeps : (hostOps0_137 : List (HloOp τ sig (Elt F))).Forall Keeps := by
  simp only [List.Forall]
  repeat' apply And.intro
  all_goals exact keeps_of_result rfl (by decide)
set_option maxHeartbeats 400000 in
theorem hostOps0_138_keeps : (hostOps0_138 : List (HloOp τ sig (Elt F))).Forall Keeps := by
  simp only [List.Forall]
  repeat' apply And.intro
  all_goals exact keeps_of_result rfl (by decide)
set_option maxHeartbeats 400000 in
theorem hostOps0_139_keeps : (hostOps0_139 : List (HloOp τ sig (Elt F))).Forall Keeps := by
  simp only [List.Forall]
  repeat' apply And.intro
  all_goals exact keeps_of_result rfl (by decide)
set_option maxHeartbeats 400000 in
theorem hostOps0_140_keeps : (hostOps0_140 : List (HloOp τ sig (Elt F))).Forall Keeps := by
  simp only [List.Forall]
  repeat' apply And.intro
  all_goals exact keeps_of_result rfl (by decide)
set_option maxHeartbeats 400000 in
theorem hostOps0_141_keeps : (hostOps0_141 : List (HloOp τ sig (Elt F))).Forall Keeps := by
  simp only [List.Forall]
  repeat' apply And.intro
  all_goals exact keeps_of_result rfl (by decide)
set_option maxHeartbeats 400000 in
theorem hostOps0_142_keeps : (hostOps0_142 : List (HloOp τ sig (Elt F))).Forall Keeps := by
  simp only [List.Forall]
  repeat' apply And.intro
  all_goals exact keeps_of_result rfl (by decide)
set_option maxHeartbeats 400000 in
theorem hostOps0_143_keeps : (hostOps0_143 : List (HloOp τ sig (Elt F))).Forall Keeps := by
  simp only [List.Forall]
  repeat' apply And.intro
  all_goals exact keeps_of_result rfl (by decide)
set_option maxHeartbeats 400000 in
theorem hostOps0_144_keeps : (hostOps0_144 : List (HloOp τ sig (Elt F))).Forall Keeps := by
  simp only [List.Forall]
  repeat' apply And.intro
  all_goals exact keeps_of_result rfl (by decide)
set_option maxHeartbeats 400000 in
theorem hostOps0_145_keeps : (hostOps0_145 : List (HloOp τ sig (Elt F))).Forall Keeps := by
  simp only [List.Forall]
  repeat' apply And.intro
  all_goals exact keeps_of_result rfl (by decide)
set_option maxHeartbeats 400000 in
theorem hostOps0_146_keeps : (hostOps0_146 : List (HloOp τ sig (Elt F))).Forall Keeps := by
  simp only [List.Forall]
  repeat' apply And.intro
  all_goals exact keeps_of_result rfl (by decide)
set_option maxHeartbeats 400000 in
theorem hostOps0_147_keeps : (hostOps0_147 : List (HloOp τ sig (Elt F))).Forall Keeps := by
  simp only [List.Forall]
  repeat' apply And.intro
  all_goals exact keeps_of_result rfl (by decide)
set_option maxHeartbeats 400000 in
theorem hostOps0_148_keeps : (hostOps0_148 : List (HloOp τ sig (Elt F))).Forall Keeps := by
  simp only [List.Forall]
  repeat' apply And.intro
  all_goals exact keeps_of_result rfl (by decide)
set_option maxHeartbeats 400000 in
theorem hostOps0_149_keeps : (hostOps0_149 : List (HloOp τ sig (Elt F))).Forall Keeps := by
  simp only [List.Forall]
  repeat' apply And.intro
  all_goals exact keeps_of_result rfl (by decide)
set_option maxHeartbeats 400000 in
theorem hostOps0_150_keeps : (hostOps0_150 : List (HloOp τ sig (Elt F))).Forall Keeps := by
  simp only [List.Forall]
  repeat' apply And.intro
  all_goals exact keeps_of_result rfl (by decide)
set_option maxHeartbeats 400000 in
theorem hostOps0_151_keeps : (hostOps0_151 : List (HloOp τ sig (Elt F))).Forall Keeps := by
  simp only [List.Forall]
  repeat' apply And.intro
  all_goals exact keeps_of_result rfl (by decide)
set_option maxHeartbeats 400000 in
theorem hostOps0_152_keeps : (hostOps0_152 : List (HloOp τ sig (Elt F))).Forall Keeps := by
  simp only [List.Forall]
  repeat' apply And.intro
  all_goals exact keeps_of_result rfl (by decide)
set_option maxHeartbeats 400000 in
theorem hostOps0_153_keeps : (hostOps0_153 : List (HloOp τ sig (Elt F))).Forall Keeps := by
  simp only [List.Forall]
  repeat' apply And.intro
  all_goals exact keeps_of_result rfl (by decide)
set_option maxHeartbeats 400000 in
theorem hostOps0_154_keeps : (hostOps0_154 : List (HloOp τ sig (Elt F))).Forall Keeps := by
  simp only [List.Forall]
  repeat' apply And.intro
  all_goals exact keeps_of_result rfl (by decide)
set_option maxHeartbeats 400000 in
theorem hostOps0_155_keeps : (hostOps0_155 : List (HloOp τ sig (Elt F))).Forall Keeps := by
  simp only [List.Forall]
  repeat' apply And.intro
  all_goals exact keeps_of_result rfl (by decide)
set_option maxHeartbeats 400000 in
theorem hostOps0_156_keeps : (hostOps0_156 : List (HloOp τ sig (Elt F))).Forall Keeps := by
  simp only [List.Forall]
  repeat' apply And.intro
  all_goals exact keeps_of_result rfl (by decide)
set_option maxHeartbeats 400000 in
theorem hostOps0_157_keeps : (hostOps0_157 : List (HloOp τ sig (Elt F))).Forall Keeps := by
  simp only [List.Forall]
  repeat' apply And.intro
  all_goals exact keeps_of_result rfl (by decide)
set_option maxHeartbeats 400000 in
theorem hostOps0_158_keeps : (hostOps0_158 : List (HloOp τ sig (Elt F))).Forall Keeps := by
  simp only [List.Forall]
  repeat' apply And.intro
  all_goals exact keeps_of_result rfl (by decide)
set_option maxHeartbeats 400000 in
theorem hostOps0_159_keeps : (hostOps0_159 : List (HloOp τ sig (Elt F))).Forall Keeps := by
  simp only [List.Forall]
  repeat' apply And.intro
  all_goals exact keeps_of_result rfl (by decide)
set_option maxHeartbeats 400000 in
theorem hostOps0_160_keeps : (hostOps0_160 : List (HloOp τ sig (Elt F))).Forall Keeps := by
  simp only [List.Forall]
  repeat' apply And.intro
  all_goals exact keeps_of_result rfl (by decide)
set_option maxHeartbeats 400000 in
theorem hostOps0_161_keeps : (hostOps0_161 : List (HloOp τ sig (Elt F))).Forall Keeps := by
  simp only [List.Forall]
  repeat' apply And.intro
  all_goals exact keeps_of_result rfl (by decide)
set_option maxHeartbeats 400000 in
theorem hostOps0_162_keeps : (hostOps0_162 : List (HloOp τ sig (Elt F))).Forall Keeps := by
  simp only [List.Forall]
  repeat' apply And.intro
  all_goals exact keeps_of_result rfl (by decide)
set_option maxHeartbeats 400000 in
theorem hostOps0_163_keeps : (hostOps0_163 : List (HloOp τ sig (Elt F))).Forall Keeps := by
  simp only [List.Forall]
  repeat' apply And.intro
  all_goals exact keeps_of_result rfl (by decide)
set_option maxHeartbeats 400000 in
theorem hostOps0_164_keeps : (hostOps0_164 : List (HloOp τ sig (Elt F))).Forall Keeps := by
  simp only [List.Forall]
  repeat' apply And.intro
  all_goals exact keeps_of_result rfl (by decide)
set_option maxHeartbeats 400000 in
theorem hostOps0_165_keeps : (hostOps0_165 : List (HloOp τ sig (Elt F))).Forall Keeps := by
  simp only [List.Forall]
  repeat' apply And.intro
  all_goals exact keeps_of_result rfl (by decide)
set_option maxHeartbeats 400000 in
theorem hostOps0_166_keeps : (hostOps0_166 : List (HloOp τ sig (Elt F))).Forall Keeps := by
  simp only [List.Forall]
  repeat' apply And.intro
  all_goals exact keeps_of_result rfl (by decide)
set_option maxHeartbeats 400000 in
theorem hostOps0_167_keeps : (hostOps0_167 : List (HloOp τ sig (Elt F))).Forall Keeps := by
  simp only [List.Forall]
  repeat' apply And.intro
  all_goals exact keeps_of_result rfl (by decide)
set_option maxHeartbeats 400000 in
theorem hostOps0_168_keeps : (hostOps0_168 : List (HloOp τ sig (Elt F))).Forall Keeps := by
  simp only [List.Forall]
  repeat' apply And.intro
  all_goals exact keeps_of_result rfl (by decide)
set_option maxHeartbeats 400000 in
theorem hostOps0_169_keeps : (hostOps0_169 : List (HloOp τ sig (Elt F))).Forall Keeps := by
  simp only [List.Forall]
  repeat' apply And.intro
  all_goals exact keeps_of_result rfl (by decide)
set_option maxHeartbeats 400000 in
theorem hostOps0_170_keeps : (hostOps0_170 : List (HloOp τ sig (Elt F))).Forall Keeps := by
  simp only [List.Forall]
  repeat' apply And.intro
  all_goals exact keeps_of_result rfl (by decide)
set_option maxHeartbeats 400000 in
theorem hostOps0_171_keeps : (hostOps0_171 : List (HloOp τ sig (Elt F))).Forall Keeps := by
  simp only [List.Forall]
  repeat' apply And.intro
  all_goals exact keeps_of_result rfl (by decide)
set_option maxHeartbeats 400000 in
theorem hostOps0_172_keeps : (hostOps0_172 : List (HloOp τ sig (Elt F))).Forall Keeps := by
  simp only [List.Forall]
  repeat' apply And.intro
  all_goals exact keeps_of_result rfl (by decide)
set_option maxHeartbeats 400000 in
theorem hostOps0_173_keeps : (hostOps0_173 : List (HloOp τ sig (Elt F))).Forall Keeps := by
  simp only [List.Forall]
  repeat' apply And.intro
  all_goals exact keeps_of_result rfl (by decide)
set_option maxHeartbeats 400000 in
theorem hostOps0_174_keeps : (hostOps0_174 : List (HloOp τ sig (Elt F))).Forall Keeps := by
  simp only [List.Forall]
  repeat' apply And.intro
  all_goals exact keeps_of_result rfl (by decide)
set_option maxHeartbeats 400000 in
theorem hostOps0_175_keeps : (hostOps0_175 : List (HloOp τ sig (Elt F))).Forall Keeps := by
  simp only [List.Forall]
  repeat' apply And.intro
  all_goals exact keeps_of_result rfl (by decide)
set_option maxHeartbeats 400000 in
theorem hostOps0_176_keeps : (hostOps0_176 : List (HloOp τ sig (Elt F))).Forall Keeps := by
  simp only [List.Forall]
  repeat' apply And.intro
  all_goals exact keeps_of_result rfl (by decide)
set_option maxHeartbeats 400000 in
theorem hostOps0_177_keeps : (hostOps0_177 : List (HloOp τ sig (Elt F))).Forall Keeps := by
  simp only [List.Forall]
  repeat' apply And.intro
  all_goals exact keeps_of_result rfl (by decide)
set_option maxHeartbeats 400000 in
theorem hostOps0_178_keeps : (hostOps0_178 : List (HloOp τ sig (Elt F))).Forall Keeps := by
  simp only [List.Forall]
  repeat' apply And.intro
  all_goals exact keeps_of_result rfl (by decide)
set_option maxHeartbeats 400000 in
theorem hostOps0_179_keeps : (hostOps0_179 : List (HloOp τ sig (Elt F))).Forall Keeps := by
  simp only [List.Forall]
  repeat' apply And.intro
  all_goals exact keeps_of_result rfl (by decide)
set_option maxHeartbeats 400000 in
theorem hostOps0_180_keeps : (hostOps0_180 : List (HloOp τ sig (Elt F))).Forall Keeps := by
  simp only [List.Forall]
  repeat' apply And.intro
  all_goals exact keeps_of_result rfl (by decide)
set_option maxHeartbeats 400000 in
theorem hostOps0_181_keeps : (hostOps0_181 : List (HloOp τ sig (Elt F))).Forall Keeps := by
  simp only [List.Forall]
  repeat' apply And.intro
  all_goals exact keeps_of_result rfl (by decide)
set_option maxHeartbeats 400000 in
theorem hostOps0_182_keeps : (hostOps0_182 : List (HloOp τ sig (Elt F))).Forall Keeps := by
  simp only [List.Forall]
  repeat' apply And.intro
  all_goals exact keeps_of_result rfl (by decide)
set_option maxHeartbeats 400000 in
theorem hostOps0_183_keeps : (hostOps0_183 : List (HloOp τ sig (Elt F))).Forall Keeps := by
  simp only [List.Forall]
  repeat' apply And.intro
  all_goals exact keeps_of_result rfl (by decide)
set_option maxHeartbeats 400000 in
theorem hostOps0_184_keeps : (hostOps0_184 : List (HloOp τ sig (Elt F))).Forall Keeps := by
  simp only [List.Forall]
  repeat' apply And.intro
  all_goals exact keeps_of_result rfl (by decide)
set_option maxHeartbeats 400000 in
theorem hostOps0_185_keeps : (hostOps0_185 : List (HloOp τ sig (Elt F))).Forall Keeps := by
  simp only [List.Forall]
  repeat' apply And.intro
  all_goals exact keeps_of_result rfl (by decide)
set_option maxHeartbeats 400000 in
theorem hostOps0_186_keeps : (hostOps0_186 : List (HloOp τ sig (Elt F))).Forall Keeps := by
  simp only [List.Forall]
  repeat' apply And.intro
  all_goals exact keeps_of_result rfl (by decide)
set_option maxHeartbeats 400000 in
theorem hostOps0_187_keeps : (hostOps0_187 : List (HloOp τ sig (Elt F))).Forall Keeps := by
  simp only [List.Forall]
  repeat' apply And.intro
  all_goals exact keeps_of_result rfl (by decide)
set_option maxHeartbeats 400000 in
theorem hostOps0_188_keeps : (hostOps0_188 : List (HloOp τ sig (Elt F))).Forall Keeps := by
  simp only [List.Forall]
  repeat' apply And.intro
  all_goals exact keeps_of_result rfl (by decide)
set_option maxHeartbeats 400000 in
theorem hostOps0_189_keeps : (hostOps0_189 : List (HloOp τ sig (Elt F))).Forall Keeps := by
  simp only [List.Forall]
  repeat' apply And.intro
  all_goals exact keeps_of_result rfl (by decide)
set_option maxHeartbeats 400000 in
theorem hostOps0_190_keeps : (hostOps0_190 : List (HloOp τ sig (Elt F))).Forall Keeps := by
  simp only [List.Forall]
  repeat' apply And.intro
  all_goals exact keeps_of_result rfl (by decide)
set_option maxHeartbeats 400000 in
theorem hostOps0_191_keeps : (hostOps0_191 : List (HloOp τ sig (Elt F))).Forall Keeps := by
  simp only [List.Forall]
  repeat' apply And.intro
  all_goals exact keeps_of_result rfl (by decide)
set_option maxHeartbeats 400000 in
theorem hostOps0_192_keeps : (hostOps0_192 : List (HloOp τ sig (Elt F))).Forall Keeps := by
  simp only [List.Forall]
  repeat' apply And.intro
  all_goals exact keeps_of_result rfl (by decide)
set_option maxHeartbeats 400000 in
theorem hostOps0_193_keeps : (hostOps0_193 : List (HloOp τ sig (Elt F))).Forall Keeps := by
  simp only [List.Forall]
  repeat' apply And.intro
  all_goals exact keeps_of_result rfl (by decide)
set_option maxHeartbeats 400000 in
theorem hostOps0_194_keeps : (hostOps0_194 : List (HloOp τ sig (Elt F))).Forall Keeps := by
  simp only [List.Forall]
  repeat' apply And.intro
  all_goals exact keeps_of_result rfl (by decide)
set_option maxHeartbeats 400000 in
theorem hostOps0_195_keeps : (hostOps0_195 : List (HloOp τ sig (Elt F))).Forall Keeps := by
  simp only [List.Forall]
  repeat' apply And.intro
  all_goals exact keeps_of_result rfl (by decide)
set_option maxHeartbeats 400000 in
theorem hostOps0_196_keeps : (hostOps0_196 : List (HloOp τ sig (Elt F))).Forall Keeps := by
  simp only [List.Forall]
  repeat' apply And.intro
  all_goals exact keeps_of_result rfl (by decide)

/-- Every operation of every stretch writes no argument. -/
theorem stretches_keep : (stretches (F := F)).Forall fun ops => ops.Forall Keeps := by
  simp only [List.Forall]
  exact ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, hostOps0_50_keeps, hostOps0_51_keeps, hostOps0_52_keeps, hostOps0_53_keeps, hostOps0_54_keeps, hostOps0_55_keeps, hostOps0_56_keeps, hostOps0_57_keeps, hostOps0_58_keeps, hostOps0_59_keeps, hostOps0_60_keeps, hostOps0_61_keeps, hostOps0_62_keeps, hostOps0_63_keeps, hostOps0_64_keeps, hostOps0_65_keeps, hostOps0_66_keeps, hostOps0_67_keeps, hostOps0_68_keeps, hostOps0_69_keeps, hostOps0_70_keeps, hostOps0_71_keeps, hostOps0_72_keeps, hostOps0_73_keeps, hostOps0_74_keeps, hostOps0_75_keeps, hostOps0_76_keeps, hostOps0_77_keeps, hostOps0_78_keeps, hostOps0_79_keeps, hostOps0_80_keeps, hostOps0_81_keeps, hostOps0_82_keeps, hostOps0_83_keeps, hostOps0_84_keeps, hostOps0_85_keeps, hostOps0_86_keeps, hostOps0_87_keeps, hostOps0_88_keeps, hostOps0_89_keeps, hostOps0_90_keeps, hostOps0_91_keeps, hostOps0_92_keeps, hostOps0_93_keeps, hostOps0_94_keeps, hostOps0_95_keeps, hostOps0_96_keeps, hostOps0_97_keeps, hostOps0_98_keeps, hostOps0_99_keeps, hostOps0_100_keeps, hostOps0_101_keeps, hostOps0_102_keeps, hostOps0_103_keeps, hostOps0_104_keeps, hostOps0_105_keeps, hostOps0_106_keeps, hostOps0_107_keeps, hostOps0_108_keeps, hostOps0_109_keeps, hostOps0_110_keeps, hostOps0_111_keeps, hostOps0_112_keeps, hostOps0_113_keeps, hostOps0_114_keeps, hostOps0_115_keeps, hostOps0_116_keeps, hostOps0_117_keeps, hostOps0_118_keeps, hostOps0_119_keeps, hostOps0_120_keeps, hostOps0_121_keeps, hostOps0_122_keeps, hostOps0_123_keeps, hostOps0_124_keeps, hostOps0_125_keeps, hostOps0_126_keeps, hostOps0_127_keeps, hostOps0_128_keeps, hostOps0_129_keeps, hostOps0_130_keeps, hostOps0_131_keeps, hostOps0_132_keeps, hostOps0_133_keeps, hostOps0_134_keeps, hostOps0_135_keeps, hostOps0_136_keeps, hostOps0_137_keeps, hostOps0_138_keeps, hostOps0_139_keeps, hostOps0_140_keeps, hostOps0_141_keeps, hostOps0_142_keeps, hostOps0_143_keeps, hostOps0_144_keeps, hostOps0_145_keeps, hostOps0_146_keeps, hostOps0_147_keeps, hostOps0_148_keeps, hostOps0_149_keeps, hostOps0_150_keeps, hostOps0_151_keeps, hostOps0_152_keeps, hostOps0_153_keeps, hostOps0_154_keeps, hostOps0_155_keeps, hostOps0_156_keeps, hostOps0_157_keeps, hostOps0_158_keeps, hostOps0_159_keeps, hostOps0_160_keeps, hostOps0_161_keeps, hostOps0_162_keeps, hostOps0_163_keeps, hostOps0_164_keeps, hostOps0_165_keeps, hostOps0_166_keeps, hostOps0_167_keeps, hostOps0_168_keeps, hostOps0_169_keeps, hostOps0_170_keeps, hostOps0_171_keeps, hostOps0_172_keeps, hostOps0_173_keeps, hostOps0_174_keeps, hostOps0_175_keeps, hostOps0_176_keeps, hostOps0_177_keeps, hostOps0_178_keeps, hostOps0_179_keeps, hostOps0_180_keeps, hostOps0_181_keeps, hostOps0_182_keeps, hostOps0_183_keeps, hostOps0_184_keeps, hostOps0_185_keeps, hostOps0_186_keeps, hostOps0_187_keeps, hostOps0_188_keeps, hostOps0_189_keeps, hostOps0_190_keeps, hostOps0_191_keeps, hostOps0_192_keeps, hostOps0_193_keeps, hostOps0_194_keeps, hostOps0_195_keeps, hostOps0_196_keeps⟩

/-- So does every operation of the stretches laid end to end: it is an operation of one of them. -/
theorem flatten_keeps : ∀ op ∈ (stretches (F := F)).flatten, Keeps op := fun op hop => by
  obtain ⟨ops, hops, hmem⟩ := List.mem_flatten.mp hop
  exact List.forall_iff_forall_mem.mp (List.forall_iff_forall_mem.mp stretches_keep ops hops) op hmem

/-- An argument's buffer holds after the whole line what it held before it. -/
theorem after_arg (V : Valuation τ sig (Elt F)) {a : Ref sig .tc} (ha : a ∈ args) :
    StableHlo.after (stretches (F := F)).flatten V (Proc.devRef .tc a) = V (Proc.devRef .tc a) :=
  StableHlo.after_of_forall_not_mem _ V fun op hop => flatten_keeps op hop a ha

end Cert.Kernel.Acc

end
-- ==== Proof.Bits.Entry.lean ====
/-
  The buffers as the region finds them.
  Before its one region the kernel's program runs its host part: 1,486 statements, 2,605 operations once the
  functions they call are written out in place (the RoI pooling that builds the 3 × 150528 feature matrix).  `entry m c b` is what buffer `b` of core `c` holds when the region is entered: the
  launch memory `m` with every one of those operations applied, in order.  No host operation writes an argument of
  the program, so each argument is found as launched.
-/
import proofs.«107941_j79491254714775_1_alg».proof.Proof.Bits.Keeps

set_option maxRecDepth 16384

noncomputable section

namespace Cert.Kernel.Acc

open Idealize.ShloMosaic Idealize.ShloMosaic.TcCoe Idealize.SL Idealize.SL.Sem
open Idealize.ShloMosaic.Rounds
open Cert.Kernel Cert.Kernel.Gen

variable {F : FTy → Type} [FloatOps F]
variable (m : (ℓ : Loc nD τ sig) → Buf (Elt F) ℓ)

/-- Core `c`'s buffer `b` when the region is entered: the launch contents after every host operation. -/
abbrev entry (c : Dev nD) (b : Ref sig .tc) : Buf (Elt F) ((c : Thread nD τ).loc b) :=
  StableHlo.after (stretches (F := F)).flatten (fun b => m (c, b)) b

/-- The program up to its region: the host stretches run, and the region is entered with the buffers at `entry`. -/
theorem reaches (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main stretches stretches_sub stretches_fresh main_is

/-- No host operation writes the feature map: the region finds it as launched. -/
theorem entry_arg0 (c : Dev nD) : entry m c main_arg0 = m ((c : Thread nD τ).loc main_arg0) :=
  after_arg (fun b => m (c, b)) (a := main_arg0) (by decide)
/-- Nor the person boxes. -/
theorem entry_arg1 (c : Dev nD) : entry m c main_arg1 = m ((c : Thread nD τ).loc main_arg1) :=
  after_arg (fun b => m (c, b)) (a := main_arg1) (by decide)
/-- Nor the object boxes. -/
theorem entry_arg2 (c : Dev nD) : entry m c main_arg2 = m ((c : Thread nD τ).loc main_arg2) :=
  after_arg (fun b => m (c, b)) (a := main_arg2) (by decide)
/-- Nor the ratio. -/
theorem entry_arg3 (c : Dev nD) : entry m c main_arg3 = m ((c : Thread nD τ).loc main_arg3) :=
  after_arg (fun b => m (c, b)) (a := main_arg3) (by decide)
/-- Nor the weights. -/
theorem entry_arg4 (c : Dev nD) : entry m c main_arg4 = m ((c : Thread nD τ).loc main_arg4) :=
  after_arg (fun b => m (c, b)) (a := main_arg4) (by decide)
/-- Nor the bias. -/
theorem entry_arg5 (c : Dev nD) : entry m c main_arg5 = m ((c : Thread nD τ).loc main_arg5) :=
  after_arg (fun b => m (c, b)) (a := main_arg5) (by decide)

end Cert.Kernel.Acc

end
-- ==== Proof.Bits.Cases.lean ====
/-
  The two tests the matmul body makes on its grid coordinate, in closed form.
  The body runs at the 49 blocks k = 0 … 48 of the long axis (150528 = 49 · 3072).  It tests
  k = 0 (clear the accumulator before adding this block's product) and k = 48 (after adding, write
  accumulator + bias to the result).  Both tests are integer chains over the coordinate alone; over
  the 49 points each is decided once, here.
-/
import proofs.«107941_j79491254714775_1_alg».proof.Proof.Gen.Kernel.Launch
import proofs.«107941_j79491254714775_1_alg».proof.Proof.Gen.Kernel.Skeleton
import proofs.«107941_j79491254714775_1_alg».proof.Proof.Gen.Kernel.Points

noncomputable section

namespace Cert.Kernel.Acc

open Idealize.ShloMosaic Idealize.ShloMosaic.TcCoe Idealize.SL.Sem
open Cert.Kernel Cert.Kernel.Gen

/-- "This is the first block": the body's test k = 0, as the integer chain the body computes. -/
abbrev isFirst (i : grid0.Coords) : Prop :=
  (Scalar.cmpi .ne (Scalar.extui (Scalar.cmpi .eq (BitVec.ofNat 32 (i 0).val) 0#32)) 0#32) = 1#1

/-- "This is the last block": the body's test k = 48. -/
abbrev isLast (i : grid0.Coords) : Prop := k0_cond2 i = 1#1

/-- The first test holds at point 0 and nowhere else. -/
theorem isFirst_iff : ∀ t : Fin cfg0.N, isFirst (grid0.coords t) ↔ t.val = 0 :=
  (by decide +kernel : ∀ t : Fin grid0.N, isFirst (grid0.coords t) ↔ t.val = 0)

/-- The last test holds at point 48 and nowhere else. -/
theorem isLast_iff : ∀ t : Fin cfg0.N, isLast (grid0.coords t) ↔ t.val = 48 :=
  (by decide +kernel : ∀ t : Fin grid0.N, isLast (grid0.coords t) ↔ t.val = 48)

/-- There are 49 points, so the first and the last are different points. -/
theorem points : cfg0.N = 49 := N_0

end Cert.Kernel.Acc

end
-- ==== Proof.Bits.Blocks.lean ====
/-
  The region's blocks.
  The matmul region walks the 49 blocks k = 0 … 48 of the long axis.  At point k it is handed rows of the
  feature matrix (window 0, block [3,3072] at (0,k)), of the weights (window 1, block [3072,1024] at (k,0)),
  the bias (window 2, one block [1024], fetched at the first point only) and the result (window 3, one block
  [3,1024], written back at the last point only).  This module says what each input window's staging buffer
  holds at every point, when each window is idle, what the region's class invariant is, and that the run of
  the region leaves the program's arguments as launched.
-/
import proofs.«107941_j79491254714775_1_alg».proof.Proof.Bits.Entry
import proofs.«107941_j79491254714775_1_alg».proof.Proof.Bits.Cases
import Idealize.ShloMosaic.Lib.Pipeline.Frame
import Idealize.ShloMosaic.Lib.Pipeline.FrameBody

set_option maxRecDepth 16384

noncomputable section

namespace Cert.Kernel.Acc

open Idealize.ShloMosaic Idealize.ShloMosaic.TcCoe Idealize.SL Idealize.SL.Sem
open Idealize.ShloMosaic.Rounds
open Idealize.SL.BI (sProp)
open scoped Idealize.SL.BI
open Idealize.SL.BI.BIBase
open Idealize.SL.RA
open Cert.Kernel Cert.Kernel.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option maxHeartbeats 400000 in
/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- Input window 0 (the feature matrix) is uncut: the part of a block's contents that a transfer moves is all of them. -/
private theorem cut_all0 {α : Type} (i : grid0.Coords) (X : (cfg0.win 0).block.Idx → α) :
    (cfg0.win 0).cut i X = X := rfl

/-- So a fetch into window 0's buffer leaves nothing of what the buffer held: it holds the array's block. -/
private theorem fetched_all0 {c : Dev nD} (dat : Pipeline.Dat τ (Elt F) Unit ℕ (UR sig nD τ) ℕ cfg0 c)
    (t : Fin cfg0.N) (d) : dat.fetched 0 t d = dat.blockOf 0 t := by
  unfold Pipeline.Dat.fetched
  rw [Pipeline.fill_of_clip_none (cfg := cfg0) 0 _ (fun _ => rfl) d (dat.blockOf 0 t) (dat.blockOf 0 t)]
  exact (cfg0.win 0).fill_cut _ (dat.blockOf 0 t)

/-- Input window 0's current staging buffer holds its block at every point, fetched there or not. -/
theorem before_in0 {c : Dev nD}
    (dat : Pipeline.Dat τ (Elt F) Unit ℕ (UR sig nD τ) ℕ cfg0 c)
    (hA : dat.A 0 = entry m c (Pipeline.arrRef spec0 0))
    (hafter : ∀ t, dat.after 0 t = blockAt m c 0 t) (t : Fin cfg0.N) (d) :
    dat.before 0 t d = blockAt m c 0 t := by
  -- the block the region reads off the array is the block of the array as the region finds it
  have hb : ∀ t, dat.blockOf 0 t = blockAt m c 0 t := fun t => by
    unfold Pipeline.Dat.blockOf blockAt; rw [hA]
  rw [dat.before_in_eq_fetched 0 rfl (fun _ => rfl) (fun _ _ _ => rfl)
    (fun t => by rw [cut_all0, hafter t, hb t]) t d, fetched_all0, hb t]

set_option maxHeartbeats 400000 in
/-- Input window 1 (the weights) is uncut: the part of a block's contents that a transfer moves is all of them. -/
private theorem cut_all1 {α : Type} (i : grid0.Coords) (X : (cfg0.win 1).block.Idx → α) :
    (cfg0.win 1).cut i X = X := rfl

/-- So a fetch into window 1's buffer leaves nothing of what the buffer held: it holds the array's block. -/
private theorem fetched_all1 {c : Dev nD} (dat : Pipeline.Dat τ (Elt F) Unit ℕ (UR sig nD τ) ℕ cfg0 c)
    (t : Fin cfg0.N) (d) : dat.fetched 1 t d = dat.blockOf 1 t := by
  unfold Pipeline.Dat.fetched
  rw [Pipeline.fill_of_clip_none (cfg := cfg0) 1 _ (fun _ => rfl) d (dat.blockOf 1 t) (dat.blockOf 1 t)]
  exact (cfg0.win 1).fill_cut _ (dat.blockOf 1 t)

/-- Input window 1's current staging buffer holds its block at every point, fetched there or not. -/
theorem before_in1 {c : Dev nD}
    (dat : Pipeline.Dat τ (Elt F) Unit ℕ (UR sig nD τ) ℕ cfg0 c)
    (hA : dat.A 1 = entry m c (Pipeline.arrRef spec0 1))
    (hafter : ∀ t, dat.after 1 t = blockAt m c 1 t) (t : Fin cfg0.N) (d) :
    dat.before 1 t d = blockAt m c 1 t := by
  -- the block the region reads off the array is the block of the array as the region finds it
  have hb : ∀ t, dat.blockOf 1 t = blockAt m c 1 t := fun t => by
    unfold Pipeline.Dat.blockOf blockAt; rw [hA]
  rw [dat.before_in_eq_fetched 1 rfl (fun _ => rfl) (fun _ _ _ => rfl)
    (fun t => by rw [cut_all1, hafter t, hb t]) t d, fetched_all1, hb t]

set_option maxHeartbeats 400000 in
/-- Input window 2 (the bias) is uncut: the part of a block's contents that a transfer moves is all of them. -/
private theorem cut_all2 {α : Type} (i : grid0.Coords) (X : (cfg0.win 2).block.Idx → α) :
    (cfg0.win 2).cut i X = X := rfl

/-- So a fetch into window 2's buffer leaves nothing of what the buffer held: it holds the array's block. -/
private theorem fetched_all2 {c : Dev nD} (dat : Pipeline.Dat τ (Elt F) Unit ℕ (UR sig nD τ) ℕ cfg0 c)
    (t : Fin cfg0.N) (d) : dat.fetched 2 t d = dat.blockOf 2 t := by
  unfold Pipeline.Dat.fetched
  rw [Pipeline.fill_of_clip_none (cfg := cfg0) 2 _ (fun _ => rfl) d (dat.blockOf 2 t) (dat.blockOf 2 t)]
  exact (cfg0.win 2).fill_cut _ (dat.blockOf 2 t)

/-- Input window 2's current staging buffer holds its block at every point, fetched there or not. -/
theorem before_in2 {c : Dev nD}
    (dat : Pipeline.Dat τ (Elt F) Unit ℕ (UR sig nD τ) ℕ cfg0 c)
    (hA : dat.A 2 = entry m c (Pipeline.arrRef spec0 2))
    (hafter : ∀ t, dat.after 2 t = blockAt m c 2 t) (t : Fin cfg0.N) (d) :
    dat.before 2 t d = blockAt m c 2 t := by
  -- the block the region reads off the array is the block of the array as the region finds it
  have hb : ∀ t, dat.blockOf 2 t = blockAt m c 2 t := fun t => by
    unfold Pipeline.Dat.blockOf blockAt; rw [hA]
  rw [dat.before_in_eq_fetched 2 rfl (fun _ => rfl) (fun _ _ _ => rfl)
    (fun t => by rw [cut_all2, hafter t, hb t]) t d, fetched_all2, hb t]

set_option maxHeartbeats 400000 in
/-- The three input windows are handed a block at every point. -/
theorem live_in : ∀ (w : Fin cfg0.W), w.val < 3 → ∀ t : Fin cfg0.N, cfg0.idle w (grid0.coords t) = false :=
  (by decide +kernel : ∀ (w : Fin 4), w.val < 3 → ∀ t : Fin grid0.N, idle0 w (grid0.coords t) = false)

/-- The result window is idle before the last point. -/
theorem result_idle : ∀ t : Fin cfg0.N, ¬isLast (grid0.coords t) → cfg0.idle 3 (grid0.coords t) = true :=
  (by decide +kernel : ∀ t : Fin grid0.N, ¬isLast (grid0.coords t) → idle0 3 (grid0.coords t) = true)

/-- At the last point the result window is live. -/
theorem result_live : ∀ t : Fin cfg0.N, isLast (grid0.coords t) → cfg0.idle 3 (grid0.coords t) = false :=
  (by decide +kernel : ∀ t : Fin grid0.N, isLast (grid0.coords t) → idle0 3 (grid0.coords t) = false)

/-- Before the last point the result block is not written back. -/
theorem result_kept : ∀ t : Fin cfg0.N, ¬isLast (grid0.coords t) → (cfg0.win 3).flush t = false :=
  (by decide +kernel : ∀ t : Fin grid0.N, ¬isLast (grid0.coords t) → win0_3.flush t = false)

/-- The accumulator. -/
abbrev acc : Memref sig .tc .vmem S3x1024 .f32 := Memref.whole cc0_scratch0

/-- The class invariant: the accumulator at some contents, the generator register at some state. -/
theorem inv_eq (c : Dev nD) :
    (Pipeline.ΦA spec0 c : sProp 𝕄) =
      iprop(iprop(∃ d, owns (c : Thread nD τ) acc fullShare d) ∗ (∃ r, prngReg c r)) := by
  unfold Pipeline.ΦA
  rw [scopedRest0_eq]
  simp only [acc, owns_whole]
  rfl

set_option maxHeartbeats 400000 in
/-- The run of the region leaves the six arguments as launched. -/
theorem args_kept
    (dats : (p : Fin 1) → (c : Dev nD) → Pipeline.Dat τ (Elt F) Unit ℕ (UR sig nD τ) ℕ (cfgs p) c)
    (hA : ∀ c w, (dats 0 c).A w = entry m c (Pipeline.arrRef spec0 w))
    (r : PUnit × MemSt nD τ sig (Elt F))
    (h : Pipeline.FramePost cfgs dats 0 (entry m) r) (c : Dev nD) :
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) := by
  obtain ⟨harr, hrest⟩ := h c
  -- the first four arguments are no window's array: the run leaves them as it found them
  have h0 := (hrest main_arg0 (Pipeline.mem_restRefs_of main_arg0 rfl (by decide))).trans (entry_arg0 m c)
  have h1 := (hrest main_arg1 (Pipeline.mem_restRefs_of main_arg1 rfl (by decide))).trans (entry_arg1 m c)
  have h2 := (hrest main_arg2 (Pipeline.mem_restRefs_of main_arg2 rfl (by decide))).trans (entry_arg2 m c)
  have h3 := (hrest main_arg3 (Pipeline.mem_restRefs_of main_arg3 rfl (by decide))).trans (entry_arg3 m c)
  -- the weights and the bias are the arrays of input windows 1 and 2: an input's array is never written
  have h4 := ((harr 1).trans ((dats 0 c).arrAt_in 1 rfl _)).trans ((hA c 1).trans (entry_arg4 m c))
  have h5 := ((harr 2).trans ((dats 0 c).arrAt_in 2 rfl _)).trans ((hA c 2).trans (entry_arg5 m c))
  exact ⟨h0, h1, h2, h3, h4, h5⟩

end Cert.Kernel.Acc

end
-- ==== Proof.Bits.RunFirst.lean ====
/-
  The matmul body at the first block (k = 0).
  The first test holds and the last does not: the body clears the accumulator (stores zeros over
  whatever it held), then adds this block's product to it as at every block.  The result buffer
  and the bias are not touched.
-/
import proofs.«107941_j79491254714775_1_alg».proof.Proof.Bits.Cases
import proofs.«107941_j79491254714775_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 400000 in
/-- What the body leaves in the accumulator at the first block, as the pieces stored (last first),
    with the body's run: owning the three inputs whole at x0, x1, x2, the result buffer whole at
    xr and the accumulator whole at anything, the body runs to a continuation that holds the
    inputs and the result buffer as they were and the accumulator with the pieces written. -/
noncomputable def runFirst (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : isFirst i) (hl : ¬ isLast i)
    (x0 : Vec F S3x3072 .f32) (x1 : Vec F S3072x1024 .f32) (x2 : Vec F S1024 .f32)
    (xr : Vec F S3x1024 .f32) :
    { L5 : List (View.Piece (Elt F) S3x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xr
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare xr
                ∗ (∃ f, arg5.view.loc (c : Thread nD τ) ↦[arg5.view.set]{fullShare} arg5.view.writes (Elt F) f L5)) -∗ K ⟨⟩))
          ⊢ wp frame (wpE (defs₀ (F := F)) Variants.none c none) E (cc0__matmul_kernel i arg1 harg1 arg2 harg2 arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0
    obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact hf2
      iexact H2
    isplitl [H3]
    · iexists _; isplitr; · ipureintro; exact hf3
      iexact H3
    iexists _; iexact H4

/-- The pieces stored at the first block cover the accumulator. -/
theorem runFirst_covers (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : isFirst i) (hl : ¬ isLast i)
    (x0 : Vec F S3x3072 .f32) (x1 : Vec F S3072x1024 .f32) (x2 : Vec F S1024 .f32)
    (xr : Vec F S3x1024 .f32) (y : S3x1024.Idx) :
    ∃ pc ∈ (runFirst (F := F) c i arg1 harg1 arg2 harg2 arg3 harg3 arg4 harg4 arg5 harg5 hf hl x0 x1 x2 xr).1, y ∈ pc.1.set :=
  View.cover_of_tiledL _ S3x1024.size (by sl_kernel_rfl) y

set_option maxHeartbeats 400000 in
/-- What the accumulator reads after the first block, whatever it held before: the later of the
    two pieces stored is the whole accumulator, and its payload is this block's product added to
    what the body read back after clearing, which is the zeros it had just stored. -/
theorem runFirst_reads (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : isFirst i) (hl : ¬ isLast i)
    (x0 : Vec F S3x3072 .f32) (x1 : Vec F S3072x1024 .f32) (x2 : Vec F S1024 .f32)
    (xr : Vec F S3x1024 .f32) (f : arg5.view.ty.Contents (Elt F)) :
    arg5.view.read (Elt F) (arg5.view.writes (Elt F) f
      (runFirst (F := F) c i arg1 harg1 arg2 harg2 arg3 harg3 arg4 harg4 arg5 harg5 hf hl x0 x1 x2 xr).1)
      = k0_pay2 x0 x1 (k0_pay1 (F := F)) := by
  rw [View.read_writes_eq_canon _ _ _ (runFirst_covers (F := F) c i arg1 harg1 arg2 harg2 arg3 harg3 arg4 harg4 arg5 harg5 hf hl x0 x1 x2 xr)]
  unfold runFirst
  dsimp only
  sl_unfold_words
  have hz : (![0, 0] : Fin 2 → ℕ) = fun _ => 0 := by funext a; fin_cases a <;> rfl
  rw [View.canon_cons_unit_zero (S := S3x1024) hz]
  simp only [View.readAt_eq_ld, Memref.IsWhole.read_unread, View.ld_unit_zero (S := S3x3072) hz,
    View.ld_unit_zero (S := S3072x1024) hz, View.readCov_unit_zero (S := S3x1024) _ hz]

end Cert.Kernel.Acc

end
-- ==== Proof.Bits.RunMiddle.lean ====
/-
  The matmul body at a block that is neither the first nor the last (0 < k < 48).
  Neither test holds, so the body only adds this block's product to the accumulator: it reads the
  feature block, the weight block and the accumulator, and stores accumulator + product back.  The
  result buffer and the bias are not touched.
-/
import proofs.«107941_j79491254714775_1_alg».proof.Proof.Bits.Cases
import proofs.«107941_j79491254714775_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 400000 in
/-- What the body leaves in the accumulator at a middle block, as the pieces stored (last first),
    with the body's run: owning the three inputs whole at x0, x1, x2, the result buffer whole at
    xr and the accumulator whole at xs, the body runs to a continuation that holds the inputs and
    the result buffer as they were and the accumulator with the pieces written. -/
noncomputable def runMiddle (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : ¬ isLast i)
    (x0 : Vec F S3x3072 .f32) (x1 : Vec F S3072x1024 .f32) (x2 : Vec F S1024 .f32)
    (xr : Vec F S3x1024 .f32) (xs : Vec F S3x1024 .f32) :
    { L5 : List (View.Piece (Elt F) S3x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xr
            ∗ owns (c : Thread nD τ) arg5 fullShare xs
            ∗ (iprop(owns (c : Thread nD τ) arg1 fullShare x0 ∗ owns (c : Thread nD τ) arg2 fullShare x1
                ∗ owns (c : Thread nD τ) arg3 fullShare x2 ∗ owns (c : Thread nD τ) arg4 fullShare xr
                ∗ (∃ f, arg5.view.loc (c : Thread nD τ) ↦[arg5.view.set]{fullShare} arg5.view.writes (Elt F) f L5)) -∗ K ⟨⟩))
          ⊢ wp frame (wpE (defs₀ (F := F)) Variants.none c none) E (cc0__matmul_kernel i arg1 harg1 arg2 harg2 arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0
    obtain rfl := harg2.eq_unread hf1
    obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact hf2
      iexact H2
    isplitl [H3]
    · iexists _; isplitr; · ipureintro; exact hf3
      iexact H3
    iexists _; iexact H4

/-- The pieces stored at a middle block cover the accumulator. -/
theorem runMiddle_covers (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : ¬ isLast i)
    (x0 : Vec F S3x3072 .f32) (x1 : Vec F S3072x1024 .f32) (x2 : Vec F S1024 .f32)
    (xr : Vec F S3x1024 .f32) (xs : Vec F S3x1024 .f32) (y : S3x1024.Idx) :
    ∃ pc ∈ (runMiddle (F := F) c i arg1 harg1 arg2 harg2 arg3 harg3 arg4 harg4 arg5 harg5 hf hl x0 x1 x2 xr xs).1, y ∈ pc.1.set :=
  View.cover_of_tiledL _ S3x1024.size (by sl_kernel_rfl) y

set_option maxHeartbeats 400000 in
/-- What the accumulator reads after a middle block, whatever it held outside the view: the one
    piece stored is the whole accumulator, and its payload is the old accumulator plus this
    block's product, over the blocks the loads read whole. -/
theorem runMiddle_reads (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : ¬ isLast i)
    (x0 : Vec F S3x3072 .f32) (x1 : Vec F S3072x1024 .f32) (x2 : Vec F S1024 .f32)
    (xr : Vec F S3x1024 .f32) (xs : Vec F S3x1024 .f32) (f : arg5.view.ty.Contents (Elt F)) :
    arg5.view.read (Elt F) (arg5.view.writes (Elt F) f
      (runMiddle (F := F) c i arg1 harg1 arg2 harg2 arg3 harg3 arg4 harg4 arg5 harg5 hf hl x0 x1 x2 xr xs).1)
      = k0_pay2 x0 x1 xs := by
  rw [View.read_writes_eq_canon _ _ _ (runMiddle_covers (F := F) c i arg1 harg1 arg2 harg2 arg3 harg3 arg4 harg4 arg5 harg5 hf hl x0 x1 x2 xr xs)]
  unfold runMiddle
  dsimp only
  sl_unfold_words
  have hz : (![0, 0] : Fin 2 → ℕ) = fun _ => 0 := by funext a; fin_cases a <;> rfl
  rw [View.canon_unit_zero (S := S3x1024) hz]
  simp only [View.readAt_eq_ld, Memref.IsWhole.read_unread, View.ld_unit_zero (S := S3x3072) hz,
    View.ld_unit_zero (S := S3072x1024) hz, View.ld_unit_zero (S := S3x1024) hz]

end Cert.Kernel.Acc

end
-- ==== Proof.Bits.RunLast.lean ====
/-
  The matmul body at the last block (k = 48).
  The first test fails and the last holds: the body adds this block's product to the accumulator
  as at every block, then reads the accumulator and the bias and stores accumulator + bias into the
  result buffer, over whatever it held.
-/
import proofs.«107941_j79491254714775_1_alg».proof.Proof.Bits.Cases
import proofs.«107941_j79491254714775_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 400000 in
/-- What the body leaves in the accumulator and in the result buffer at the last block, as the
    pieces stored into each (last first), with the body's run: owning the three inputs whole at
    x0, x1, x2, the result buffer whole at anything and the accumulator whole at xs, the body runs
    to a continuation that holds the inputs as they were, and the accumulator and the result
    buffer each with its pieces written. -/
noncomputable def runLast (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) :
    Σ' (L5 : List (View.Piece (Elt F) S3x1024 .f32)) (L4 : List (View.Piece (Elt F) S3x1024 .f32)),
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ owns (c : Thread nD τ) arg5 fullShare xs
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__matmul_kernel i arg1 harg1 arg2 harg2 arg3 harg3 arg4 harg4 arg5 harg5) K := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0
    obtain rfl := harg2.eq_unread hf1
    obtain rfl := harg3.eq_unread hf2
    obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

/-- The pieces stored at the last block cover the accumulator. -/
theorem runLast_covers5 (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (y : S3x1024.Idx) :
    ∃ pc ∈ (runLast (F := F) c i arg1 harg1 arg2 harg2 arg3 harg3 arg4 harg4 arg5 harg5 hf hl x0 x1 x2 xs).1, y ∈ pc.1.set :=
  View.cover_of_tiledL _ S3x1024.size (by sl_kernel_rfl) y

/-- The pieces stored at the last block cover the result buffer. -/
theorem runLast_covers4 (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (y : S3x1024.Idx) :
    ∃ pc ∈ (runLast (F := F) c i arg1 harg1 arg2 harg2 arg3 harg3 arg4 harg4 arg5 harg5 hf hl x0 x1 x2 xs).2.1, y ∈ pc.1.set :=
  View.cover_of_tiledL _ S3x1024.size (by sl_kernel_rfl) y

set_option maxHeartbeats 400000 in
/-- What the accumulator reads after the last block, whatever it held outside the view: the one
    piece stored into it is the whole accumulator, the old accumulator plus this block's
    product. -/
theorem runLast_reads_acc (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (f : arg5.view.ty.Contents (Elt F)) :
    arg5.view.read (Elt F) (arg5.view.writes (Elt F) f
      (runLast (F := F) c i arg1 harg1 arg2 harg2 arg3 harg3 arg4 harg4 arg5 harg5 hf hl x0 x1 x2 xs).1)
      = k0_pay2 x0 x1 xs := by
  rw [View.read_writes_eq_canon _ _ _ (runLast_covers5 (F := F) c i arg1 harg1 arg2 harg2 arg3 harg3 arg4 harg4 arg5 harg5 hf hl x0 x1 x2 xs)]
  unfold runLast
  dsimp only
  sl_unfold_words
  have hz : (![0, 0] : Fin 2 → ℕ) = fun _ => 0 := by funext a; fin_cases a <;> rfl
  rw [View.canon_unit_zero (S := S3x1024) hz]
  simp only [View.readAt_eq_ld, Memref.IsWhole.read_unread, View.ld_unit_zero (S := S3x3072) hz,
    View.ld_unit_zero (S := S3072x1024) hz, View.ld_unit_zero (S := S3x1024) hz]

set_option maxHeartbeats 400000 in
/-- What the result buffer reads after the last block, whatever it held before: the one piece
    stored into it is the whole buffer, the accumulator as just updated (read back from the
    piece stored a moment earlier) plus the bias broadcast along the rows. -/
theorem runLast_reads_out (c : Dev nD) (i : grid0.Coords)
    (arg1 : Memref sig .tc .vmem S3x3072 .f32) (harg1 : arg1.IsWhole)
    (arg2 : Memref sig .tc .vmem S3072x1024 .f32) (harg2 : arg2.IsWhole)
    (arg3 : Memref sig .tc .vmem S1024 .f32) (harg3 : arg3.IsWhole)
    (arg4 : Memref sig .tc .vmem S3x1024 .f32) (harg4 : arg4.IsWhole)
    (arg5 : Memref sig .tc .vmem S3x1024 .f32) (harg5 : arg5.IsWhole)
    (hf : ¬ isFirst i) (hl : isLast i)
    (x0 : Vec F S3x3072 .f32) (x1 : Vec F S3072x1024 .f32) (x2 : Vec F S1024 .f32)
    (xs : Vec F S3x1024 .f32) (f : arg4.view.ty.Contents (Elt F)) :
    arg4.view.read (Elt F) (arg4.view.writes (Elt F) f
      (runLast (F := F) c i arg1 harg1 arg2 harg2 arg3 harg3 arg4 harg4 arg5 harg5 hf hl x0 x1 x2 xs).2.1)
      = k0_pay3 (k0_pay2 x0 x1 xs) x2 := by
  rw [View.read_writes_eq_canon _ _ _ (runLast_covers4 (F := F) c i arg1 harg1 arg2 harg2 arg3 harg3 arg4 harg4 arg5 harg5 hf hl x0 x1 x2 xs)]
  unfold runLast
  dsimp only
  sl_unfold_words
  have hz : (![0, 0] : Fin 2 → ℕ) = fun _ => 0 := by funext a; fin_cases a <;> rfl
  have hz1 : (![0] : Fin 1 → ℕ) = fun _ => 0 := by funext a; fin_cases a; rfl
  rw [View.canon_unit_zero (S := S3x1024) hz]
  simp only [View.readAt_eq_ld, Memref.IsWhole.read_unread, View.ld_unit_zero (S := S3x3072) hz,
    View.ld_unit_zero (S := S3072x1024) hz, View.ld_unit_zero (S := S3x1024) hz,
    View.ld_unit_zero (S := S1024) hz1, View.readCov_unit_zero (S := S3x1024) _ hz]

end Cert.Kernel.Acc

end
-- ==== Proof.Bits.Carried.lean ====
/-
  The accumulator carried from block to block, and the run of the whole program.
  The matmul body visits the 49 blocks k = 0 … 48 of the long axis in order.  It keeps a 3 × 1024 accumulator
  between visits: cleared at k = 0, then at every k this block's product (feature block k times weight block k) is
  added to it; at k = 48 accumulator + bias is stored into the result's buffer, which is written back to the result
  array at that block only.  Here: what the accumulator holds after each block (a recursion over the blocks), what the
  result's buffer holds, the invariant that carries the accumulator between blocks, the pipeline's proof data, the body's
  obligation at every block, the run of the whole program, and the frame (no argument of the program is changed).
-/
import proofs.«107941_j79491254714775_1_alg».proof.Proof.Bits.Blocks
import proofs.«107941_j79491254714775_1_alg».proof.Proof.Bits.RunFirst
import proofs.«107941_j79491254714775_1_alg».proof.Proof.Bits.RunMiddle
import proofs.«107941_j79491254714775_1_alg».proof.Proof.Bits.RunLast
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator and the result's buffer hold, block by block -/

/-- The accumulator after the body at block `n`: at block 0 it was cleared and block 0's product added; at block
    `n + 1` block `n + 1`'s product is added to what block `n` left. -/
def accAt (c : Dev nD) : (n : ℕ) → n < cfg0.N → Vec F S3x1024 .f32
  | 0, h => k0_pay2 (blockAt m c 0 ⟨0, h⟩) (blockAt m c 1 ⟨0, h⟩) (k0_pay1 (F := F))
  | n + 1, h => k0_pay2 (blockAt m c 0 ⟨n + 1, h⟩) (blockAt m c 1 ⟨n + 1, h⟩) (accAt c n (Nat.lt_of_succ_lt h))

/-- The result's buffer after block `n` is taken to hold accumulator + bias.  Only the last block stores it, and only
    there is the buffer written back; at every other block the buffer is left as found and this is not consulted. -/
def resultAt (c : Dev nD) (n : ℕ) (h : n < cfg0.N) : Vec F S3x1024 .f32 :=
  k0_pay3 (accAt m c n h) (blockAt m c 2 ⟨n, h⟩)

/-- Block 0: the cleared accumulator plus block 0's product. -/
theorem accAt_zero (c : Dev nD) (h : 0 < cfg0.N) :
    accAt m c 0 h = k0_pay2 (blockAt m c 0 ⟨0, h⟩) (blockAt m c 1 ⟨0, h⟩) (k0_pay1 (F := F)) := rfl

/-- Block `n + 1`: what block `n` left plus block `n + 1`'s product. -/
theorem accAt_succ (c : Dev nD) (n : ℕ) (h : n + 1 < cfg0.N) :
    accAt m c (n + 1) h = k0_pay2 (blockAt m c 0 ⟨n + 1, h⟩) (blockAt m c 1 ⟨n + 1, h⟩) (accAt m c n (Nat.lt_of_succ_lt h)) := rfl

/-- The last block: the accumulator after all 49 blocks, plus the bias. -/
theorem resultAt_last (c : Dev nD) (h : 48 < cfg0.N) :
    resultAt m c 48 h = k0_pay3 (accAt m c 48 h) (blockAt m c 2 ⟨48, h⟩) := rfl

/-- The accumulator after the first block, at a point known to be the first. -/
theorem accAt_first (c : Dev nD) (t : Fin cfg0.N) (h : t.val = 0) :
    accAt m c t.val t.isLt = k0_pay2 (blockAt m c 0 t) (blockAt m c 1 t) (k0_pay1 (F := F)) := by
  obtain ⟨n, hn⟩ := t
  cases n with
  | zero => rfl
  | succ n => exact absurd h (Nat.succ_ne_zero n)

/-- The accumulator after a later block: this block's product added to what the block before left. -/
theorem accAt_later (c : Dev nD) (t : Fin cfg0.N) (h : t.val ≠ 0) :
    accAt m c t.val t.isLt
      = k0_pay2 (blockAt m c 0 t) (blockAt m c 1 t) (accAt m c (t.val - 1) (Nat.lt_of_le_of_lt (Nat.sub_le _ _) t.isLt)) := by
  obtain ⟨n, hn⟩ := t
  cases n with
  | zero => exact absurd rfl h
  | succ n => rfl

/-! ## The invariant carried between blocks -/

/-- Before block `n`: at `n = 0` the region's own invariant (the accumulator holds anything); before block `n + 1` the
    accumulator holds what block `n` left, and the generator register is at some state. -/
def carried (c : Dev nD) : (n : ℕ) → n ≤ cfg0.N → sProp 𝕄
  | 0, _ => Pipeline.ΦA spec0 c
  | n + 1, hn => iprop(iprop(owns (c : Thread nD τ) acc fullShare (accAt m c n hn)) ∗ (∃ r, prngReg c r))

theorem carried_zero (c : Dev nD) (n : ℕ) (h : n ≤ cfg0.N) (hz : n = 0) : carried m c n h = Pipeline.ΦA spec0 c := by
  subst hz; rfl

/-- After block `n`: the accumulator at that block's contents. -/
theorem carried_succ (c : Dev nD) (n : ℕ) (hn : n < cfg0.N) :
    carried m c (n + 1) hn = iprop(iprop(owns (c : Thread nD τ) acc fullShare (accAt m c n hn)) ∗ (∃ r, prngReg c r)) := rfl

/-- Before a block that is not the first: the accumulator at what the block before left. -/
theorem carried_pos (c : Dev nD) (n : ℕ) (h : n ≤ cfg0.N) (hz : n ≠ 0) :
    carried m c n h = iprop(iprop(owns (c : Thread nD τ) acc fullShare (accAt m c (n - 1) (by omega))) ∗ (∃ r, prngReg c r)) := by
  cases n with
  | zero => exact absurd rfl hz
  | succ n => rfl

/-! ## The pipeline's proof data -/

/-- Core `c`'s proof data: the arrays as the region finds them; after the body each input's buffer still at its
    block, the result's buffer at `resultAt`; the invariant `carried`; full shares; nothing owed. -/
def dats (_ : Fin 1) (c : Dev nD) : Pipeline.Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => resultAt m c t.val t.isLt
  Φ t := carried m c t.val (Nat.le_of_lt_succ t.isLt)
  q _ := fullShare
  owed _ := 0

/-- The proof data's arrays are the region-entry contents. -/
theorem A_eq (c : Dev nD) (w : Fin cfg0.W) : (dats m 0 c).A w = entry m c (Pipeline.arrRef spec0 w) := by
  dsimp only [dats]

/-- The invariant when a block starts, restated at the block's number. -/
theorem inv_start (c : Dev nD) (t : Fin cfg0.N) :
    (dats m 0 c).Φ t.castSucc = carried m c t.val (Nat.le_of_lt t.isLt) := by
  dsimp only [dats]; simp only [Fin.coe_castSucc]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = resultAt m c t.val t.isLt := by dsimp only [dats]

/-- Each input's current buffer holds its block at every point. -/
theorem before_0 (c : Dev nD) (t : Fin cfg0.N) (d) : (dats m 0 c).before 0 t d = blockAt m c 0 t :=
  before_in0 m (dats m 0 c) (A_eq m c 0) (after_0 m c) t d
theorem before_1 (c : Dev nD) (t : Fin cfg0.N) (d) : (dats m 0 c).before 1 t d = blockAt m c 1 t :=
  before_in1 m (dats m 0 c) (A_eq m c 1) (after_1 m c) t d
theorem before_2 (c : Dev nD) (t : Fin cfg0.N) (d) : (dats m 0 c).before 2 t d = blockAt m c 2 t :=
  before_in2 m (dats m 0 c) (A_eq m c 2) (after_2 m c) t d

/-! ## The body's obligation, at a generic block -/

/-- Each window's current buffer at block `t`, as the pipeline passes it to the body, and that it is a whole buffer. -/
abbrev featBuf (t : Fin cfg0.N) : Memref sig .tc .vmem S3x3072 .f32 := win0_0.stage (cfg0.slots t 0)
abbrev featWhole (t : Fin cfg0.N) : (featBuf t).IsWhole := hstage0_0 ((cfg0.slots t 0).cast nbuf0_0)
abbrev weightBuf (t : Fin cfg0.N) : Memref sig .tc .vmem S3072x1024 .f32 := win0_1.stage (cfg0.slots t 1)
abbrev weightWhole (t : Fin cfg0.N) : (weightBuf t).IsWhole := hstage0_1 ((cfg0.slots t 1).cast nbuf0_1)
abbrev biasBuf (t : Fin cfg0.N) : Memref sig .tc .vmem S1024 .f32 := win0_2.stage (cfg0.slots t 2)
abbrev biasWhole (t : Fin cfg0.N) : (biasBuf t).IsWhole := hstage0_2 ((cfg0.slots t 2).cast nbuf0_2)
abbrev outBuf (t : Fin cfg0.N) : Memref sig .tc .vmem S3x1024 .f32 := win0_3.stage (cfg0.slots t 3)
abbrev outWhole (t : Fin cfg0.N) : (outBuf t).IsWhole := hstage0_3 ((cfg0.slots t 3).cast nbuf0_3)

/-- The result's buffer at block `t`, with the point written as `t` itself. -/
theorem resultAt_at (c : Dev nD) (t : Fin cfg0.N) :
    resultAt m c t.val t.isLt = k0_pay3 (accAt m c t.val t.isLt) (blockAt m c 2 t) := rfl

/-- What the body is called with at block `t`: the invariant, what the core owes, and the four current buffers, -/
def bodyPre (c : Dev nD) (t : Fin cfg0.N) : sProp 𝕄 :=
  iprop((dats m 0 c).Φ t.castSucc ∗ (dats m 0 c).owesAt () t.castSucc
    ∗ (∃ d, owns (c : Thread nD τ) (featBuf t) fullShare ((dats m 0 c).before 0 t d))
    ∗ (∃ d, owns (c : Thread nD τ) (weightBuf t) fullShare ((dats m 0 c).before 1 t d))
    ∗ (∃ d, owns (c : Thread nD τ) (biasBuf t) fullShare ((dats m 0 c).before 2 t d))
    ∗ (∃ d, owns (c : Thread nD τ) (outBuf t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- An input's buffer is handed back at its block: the inputs are never idle. -/
theorem leaves_0 (c : Dev nD) (t : Fin cfg0.N) :
    (dats m 0 c).leavesExact 0 t = owns (c : Thread nD τ) (featBuf t) fullShare (blockAt m c 0 t) := by
  unfold Dat.leavesExact; rw [live_in 0 (by decide) t, after_0]
theorem leaves_1 (c : Dev nD) (t : Fin cfg0.N) :
    (dats m 0 c).leavesExact 1 t = owns (c : Thread nD τ) (weightBuf t) fullShare (blockAt m c 1 t) := by
  unfold Dat.leavesExact; rw [live_in 1 (by decide) t, after_1]
theorem leaves_2 (c : Dev nD) (t : Fin cfg0.N) :
    (dats m 0 c).leavesExact 2 t = owns (c : Thread nD τ) (biasBuf t) fullShare (blockAt m c 2 t) := by
  unfold Dat.leavesExact; rw [live_in 2 (by decide) t, after_2]

/-- Before the last block the result's buffer is handed back as it was found. -/
theorem leaves_3_idle (c : Dev nD) (t : Fin cfg0.N) (hl : ¬ isLast (grid0.coords t)) :
    (dats m 0 c).leavesExact 3 t = iprop(∃ d, owns (c : Thread nD τ) (outBuf t) fullShare ((dats m 0 c).before 3 t d)) :=
  Dat.leavesExact_idle (dats m 0 c) 3 t (result_idle t hl) (result_kept t hl)

/-- At the last block it is handed back at accumulator + bias. -/
theorem leaves_3_last (c : Dev nD) (t : Fin cfg0.N) (hl : isLast (grid0.coords t)) :
    (dats m 0 c).leavesExact 3 t = owns (c : Thread nD τ) (outBuf t) fullShare (resultAt m c t.val t.isLt) := by
  unfold Dat.leavesExact; rw [result_live t hl, after_3]

set_option maxHeartbeats 400000 in
/-- The body at any block.  The inputs' buffers hold their blocks.  At block 0 the invariant hands the body the
    accumulator at anything; the body clears it and adds block 0's product.  At a later block the invariant hands it
    the accumulator at what the block before left, and the body adds this block's product.  At the last block the body
    also stores accumulator + bias into the result's buffer; at every other block it leaves that buffer as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = carried m c (t.val + 1) t.isLt from rfl, carried_succ]
  rw [leaves_0, leaves_1, leaves_2, inv_start]
  by_cases hz : t.val = 0
  · -- the first block
    have hf : isFirst (grid0.coords t) := (isFirst_iff t).mpr hz
    have hl : ¬ isLast (grid0.coords t) := fun h => by have := (isLast_iff t).mp h; omega
    rw [leaves_3_idle m c t hl, carried_zero m c _ _ hz, inv_eq, accAt_first m c t hz]
    iintro ⟨⟨HS, Hg⟩, Ho, ⟨%d0, H0⟩, ⟨%d1, H1⟩, ⟨%d2, H2⟩, ⟨%d3, H3⟩⟩
    iapply ((runFirst c (grid0.coords t) (featBuf t) (featWhole t) (weightBuf t) (weightWhole t) (biasBuf t) (biasWhole t) (outBuf t) (outWhole t) acc (Memref.isWhole_whole _) hf hl
      (blockAt m c 0 t) (blockAt m c 1 t) (blockAt m c 2 t) ((dats m 0 c).before 3 t d3)).2 Set.univ _)
    isplitl [H0]; · iexact H0
    isplitl [H1]; · iexact H1
    isplitl [H2]; · iexact H2
    isplitl [H3]; · iexact H3
    isplitl [HS]; · iexact HS
    iintro ⟨H0, H1, H2, H3, ⟨%f5, HS⟩⟩
    isplitl [HS Hg]
    · isplitl [HS]
      · unfold owns; iexists _; isplitr
        swap; · iexact HS
        ipureintro
        exact runFirst_reads c _ _ _ _ _ _ _ _ _ _ _ hf hl _ _ _ _ _
      iexact Hg
    isplitl [Ho]; · iexact Ho
    isplitl [H0]; · iexact H0
    isplitl [H1]; · iexact H1
    isplitl [H2]; · iexact H2
    iexists _; iexact H3
  · have hf : ¬ isFirst (grid0.coords t) := fun h => hz ((isFirst_iff t).mp h)
    rw [carried_pos m c _ _ hz, accAt_later m c t hz]
    by_cases hL : t.val = 48
    · -- the last block
      have hl : isLast (grid0.coords t) := (isLast_iff t).mpr hL
      rw [leaves_3_last m c t hl, resultAt_at, accAt_later m c t hz]
      iintro ⟨⟨HS, Hg⟩, Ho, ⟨%d0, H0⟩, ⟨%d1, H1⟩, ⟨%d2, H2⟩, ⟨%d3, H3⟩⟩
      iapply ((runLast c (grid0.coords t) (featBuf t) (featWhole t) (weightBuf t) (weightWhole t) (biasBuf t) (biasWhole t) (outBuf t) (outWhole t) acc (Memref.isWhole_whole _) hf hl
        (blockAt m c 0 t) (blockAt m c 1 t) (blockAt m c 2 t) (accAt m c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%f4, H3⟩, ⟨%f5, HS⟩⟩
      isplitl [HS Hg]
      · isplitl [HS]
        · unfold owns; iexists _; isplitr
          swap; · iexact HS
          ipureintro
          exact runLast_reads_acc c _ _ _ _ _ _ _ _ _ _ _ hf hl _ _ _ _ _
        iexact Hg
      isplitl [Ho]; · iexact Ho
      isplitl [H0]; · iexact H0
      isplitl [H1]; · iexact H1
      isplitl [H2]; · iexact H2
      unfold owns; iexists _; isplitr
      swap; · iexact H3
      ipureintro
      exact runLast_reads_out c _ _ _ _ _ _ _ _ _ _ _ hf hl _ _ _ _ _
    · -- a block in between
      have hl : ¬ isLast (grid0.coords t) := fun h => hL ((isLast_iff t).mp h)
      rw [leaves_3_idle m c t hl]
      iintro ⟨⟨HS, Hg⟩, Ho, ⟨%d0, H0⟩, ⟨%d1, H1⟩, ⟨%d2, H2⟩, ⟨%d3, H3⟩⟩
      iapply ((runMiddle c (grid0.coords t) (featBuf t) (featWhole t) (weightBuf t) (weightWhole t) (biasBuf t) (biasWhole t) (outBuf t) (outWhole t) acc (Memref.isWhole_whole _) hf hl
        (blockAt m c 0 t) (blockAt m c 1 t) (blockAt m c 2 t) ((dats m 0 c).before 3 t d3)
        (accAt m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [HS]; · iexact HS
      iintro ⟨H0, H1, H2, H3, ⟨%f5, HS⟩⟩
      isplitl [HS Hg]
      · isplitl [HS]
        · unfold owns; iexists _; isplitr
          swap; · iexact HS
          ipureintro
          exact runMiddle_reads c _ _ _ _ _ _ _ _ _ _ _ hf hl _ _ _ _ _ _
        iexact Hg
      isplitl [Ho]; · iexact Ho
      isplitl [H0]; · iexact H0
      isplitl [H1]; · iexact H1
      isplitl [H2]; · iexact H2
      iexists _; iexact H3

/-- The library's body obligation, at every block. -/
theorem body_obligation (c : Dev nD) : Pipeline.BodyObligation (dats (F := F) m 0 c) (defs₀ (F := F)) Variants.none () Set.univ := fun t => by
  rw [bigSep_W0, bigSep_W0]
  exact sound_body m c t

/-! ## The run and the frame -/

/-- What the launch hands the region is the invariant before block 0. -/
theorem enters (c : Dev nD) : Pipeline.ΦA spec0 c ⊢ (dats m 0 c).Φ 0 := by
  rw [show (dats m 0 c).Φ 0 = carried m c 0 (Nat.zero_le _) from rfl, carried_zero m c 0 _ rfl]

/-- After the last block the invariant gives the region's own back: what the accumulator holds is forgotten. -/
theorem leavesRegion (c : Dev nD) : (dats m 0 c).Φ (Fin.last cfg0.N) ⊢ Pipeline.ΦA spec0 c := by
  rw [show (dats m 0 c).Φ (Fin.last cfg0.N)
        = carried m c (Fin.last cfg0.N).val (Nat.le_of_lt_succ (Fin.last cfg0.N).isLt) from rfl,
    carried_pos m c _ _ (by rw [Fin.val_last]; have := points; omega), inv_eq]
  iintro ⟨HS, Hg⟩
  isplitl [HS]
  · iexists _; iexact HS
  iexact Hg

set_option backward.isDefEq.respectTransparency.types false in
/-- Every weakly fair execution of the program terminates, and at the end every array of the pipeline holds what the
    library computes from the proof data and every other unscoped buffer what it held when the region was entered. -/
theorem run_main : θ_run defs (onTc (τ := τ) (main (F := F))) (s₀ m ρ) (Pipeline.FramePost cfgs (dats m) 0 (entry m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := entry m) (hmain := reaches m Variants.none) (hA := A_eq m)
    (hin := enters m) (hout := leavesRegion m)

/-- The program runs and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m (dats m) (A_eq m) r h c) (run_main m ρ)

/-! ## The result array after the run -/

/-- The result's block index is zero on both axes at every point, -/
theorem result_index_zero (t : Fin cfg0.N) (a : Fin (cfg0.win 3).shape.rank) : (cfg0.win 3).index t a = 0 := by
  fin_cases a <;> rfl

/-- so an element of the result's block sits in the result array at its own coordinates. -/
theorem result_block_emb (t : Fin cfg0.N) (y : ((cfg0.win 3).xblock (cfg0.grid.coords t)).Idx) (a : Fin (cfg0.win 3).shape.rank) :
    (((cfg0.win 3).blk t).view.emb y a : ℕ) = y a := by
  show (((cfg0.win 3).rect t).emb y a : ℕ) = y a
  exact Window.rect_emb_val_of_index_zero _ t a (result_index_zero t a) y

set_option maxHeartbeats 400000 in
/-- The result array after the run: its one block is the whole array, written back at the last block only, so it
    holds what the last block left in the result's buffer. -/
theorem result_after (c : Dev nD) (h : 48 < cfg0.N) : (dats m 0 c).arrAt 3 cfg0.N = resultAt m c 48 h := by
  -- only the last block is written back
  have hlast : ∀ t : Fin cfg0.N, (cfg0.win 3).flush t = true → t = ⟨48, h⟩ := fun t ht => by
    have h1 := (flush0_3 t).mp ht
    have h2 : t.val < 49 := lt_of_lt_of_eq t.isLt points
    exact Fin.ext (by show t.val = 48; omega)
  refine (dats m 0 c).arrAt_eq_of_cover 3 (resultAt m c 48 h) ?hG ?hcover
  case hG =>
    -- what is written back there is accumulator + bias, read through the block
    intro t ht
    obtain rfl := hlast t ht
    funext y
    rw [View.read_apply, cast_eq]
    show resultAt m c 48 h ((cfg0.win 3).xinj _ y) = _
    congr 1
    funext a; apply Fin.ext
    exact (result_block_emb ⟨48, h⟩ y a).symm
  case hcover =>
    -- and that block covers the array
    intro i
    refine ⟨⟨48, h⟩, (flush0_3 _).mpr (show (48 : ℕ) % 49 = 48 from rfl), ?_⟩
    let y : ((cfg0.win 3).xblock (cfg0.grid.coords ⟨48, h⟩)).Idx := i
    have he : ((cfg0.win 3).blk ⟨48, h⟩).view.emb y = i := funext fun a => Fin.ext (result_block_emb ⟨48, h⟩ y a)
    have hmem := View.emb_mem_set ((cfg0.win 3).blk ⟨48, h⟩).view y
    rw [he] at hmem
    exact hmem

end Cert.Kernel.Acc

end
-- ==== Proof.Spec.lean ====
/-
  The function both programs compute, and the one law of sums that relates the two ways of computing it.

  `linear tot W b` is the affine map of a fully connected layer: entry (i, n) of the result is
  (∑ j, tot (i, j) · W (j, n)) + b n, the sum running over all 150528 features.  The long sum is
  the same as 49 consecutive sums of 3072 terms (150528 = 49 · 3072), and a running total that
  starts at 0 + s 0 and adds s (k + 1) at each step ends at ∑ k, s k.  Both facts use only that
  addition on the extended reals is commutative and associative with 0 as its unit, so they hold
  whatever infinities the terms contain.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The pooled features: 3 rows of 150528. -/
abbrev STot : Shape := ⟨2, ![3, 150528]⟩
/-- The weights: 150528 rows of 1024. -/
abbrev SWt : Shape := ⟨2, ![150528, 1024]⟩
/-- The bias: 1024 entries. -/
abbrev SBias : Shape := ⟨1, ![1024]⟩
/-- The result: 3 rows of 1024. -/
abbrev SOut : Shape := ⟨2, ![3, 1024]⟩
/-- One block of the features: 3 rows of 3072. -/
abbrev SBlkX : Shape := ⟨2, ![3, 3072]⟩
/-- One block of the weights: 3072 rows of 1024. -/
abbrev SBlkW : Shape := ⟨2, ![3072, 1024]⟩

/-- Entry (i, n) of the layer's result. -/
def linearAt (tot : FVec Ideal STot .f32) (W : FVec Ideal SWt .f32) (b : FVec Ideal SBias .f32)
    (i : Fin 3) (n : Fin 1024) : EReal :=
  (∑ j : Fin 150528, tot (ix2 i j) * W (ix2 j n)) + b (ix1 n)

/-- The layer: features times weights plus bias. -/
def linear (tot : FVec Ideal STot .f32) (W : FVec Ideal SWt .f32) (b : FVec Ideal SBias .f32) :
    FVec Ideal SOut .f32 :=
  fun p => linearAt tot W b (p 0) (p 1)

/-- The layer read at an index given by its coordinates. -/
theorem linear_apply (tot : FVec Ideal STot .f32) (W : FVec Ideal SWt .f32) (b : FVec Ideal SBias .f32)
    (i : Fin 3) (n : Fin 1024) :
    linear tot W b (ix2 i n) = (∑ j : Fin 150528, tot (ix2 i j) * W (ix2 j n)) + b (ix1 n) := rfl

/-- Position l of block k on the long axis. -/
abbrev blk (k : Fin 49) (l : Fin 3072) : Fin 150528 := ⟨k.val * 3072 + l.val, by omega⟩

/-- A sum over the long axis is the sum over the 49 blocks of the sums over each block. -/
theorem sum_blocks {M : Type*} [AddCommMonoid M] (f : Fin 150528 → M) :
    (∑ j : Fin 150528, f j) = ∑ k : Fin 49, ∑ l : Fin 3072, f (blk k l) :=
  calc (∑ j : Fin 150528, f j)
      = ∑ p : Fin 49 × Fin 3072, f (finProdFinEquiv (m := 49) (n := 3072) p) :=
        (Equiv.sum_comp (finProdFinEquiv (m := 49) (n := 3072)) f).symm
    _ = ∑ k : Fin 49, ∑ l : Fin 3072, f (finProdFinEquiv (m := 49) (n := 3072) (k, l)) :=
        Fintype.sum_prod_type fun p : Fin 49 × Fin 3072 => f (finProdFinEquiv (m := 49) (n := 3072) p)
    _ = ∑ k : Fin 49, ∑ l : Fin 3072, f (blk k l) :=
        Finset.sum_congr rfl fun k _ => Finset.sum_congr rfl fun l _ =>
          congrArg f (Fin.ext (show l.val + 3072 * k.val = k.val * 3072 + l.val by omega))

/-- A running total that starts at `0 + s 0` and adds `s (k + 1)` at step `k + 1` is, after step `n`,
    the sum of `s 0 … s n`. -/
theorem fold_eq_sum_range {M : Type*} [AddCommMonoid M] (N : ℕ) (acc s : ℕ → M) (h0 : acc 0 = 0 + s 0)
    (hs : ∀ k, k + 1 < N → acc (k + 1) = acc k + s (k + 1)) :
    ∀ n, n < N → acc n = ∑ k ∈ Finset.range (n + 1), s k := by
  intro n
  induction n with
  | zero => intro _; rw [h0, zero_add, Finset.sum_range_one]
  | succ n ih =>
    intro hn
    rw [hs n hn, ih (by omega)]
    exact (Finset.sum_range_succ s (n + 1)).symm

/-- Over the 49 blocks: the running total after the last block is the sum over all of them. -/
theorem fold_eq_sum {M : Type*} [AddCommMonoid M] (acc s : ℕ → M) (h0 : acc 0 = 0 + s 0)
    (hs : ∀ k, k + 1 < 49 → acc (k + 1) = acc k + s (k + 1)) :
    acc 48 = ∑ k : Fin 49, s k.val :=
  (fold_eq_sum_range 49 acc s h0 hs 48 (by omega)).trans (Fin.sum_univ_eq_sum_range s 49).symm

end Cert.Spec

end
-- ==== Proof.BlockAt.lean ====
/-
  The region's input blocks, read entry by entry.

  At point k the region is handed block k of the features (columns k · 3072 … k · 3072 + 3071 of all three
  rows), block k of the weights (rows k · 3072 … of all 1024 columns) and the whole bias.  So entry (i, l)
  of the feature block is the feature matrix at (i, k · 3072 + l), entry (l, n) of the weight block is the
  weight matrix at (k · 3072 + l, n), and entry n of the bias block is the bias at n.
-/
import proofs.«107941_j79491254714775_1_alg».proof.Proof.Blocks
import proofs.«107941_j79491254714775_1_alg».proof.Proof.Spec
import Idealize.ShloMosaic.Lib.Pipeline.Value

noncomputable section

namespace Cert.KernelIdeal.Acc

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Where the three input windows' blocks sit at each point: the features' block k at block index (0, k),
    the weights' at (k, 0), the bias's at 0. -/
theorem block_index : ∀ t : Fin cfg0.N,
    win0_0.index t (0 : Fin 2) = 0 ∧ win0_0.index t (1 : Fin 2) = t.val ∧
    win0_1.index t (0 : Fin 2) = t.val ∧ win0_1.index t (1 : Fin 2) = 0 ∧ win0_2.index t (0 : Fin 1) = 0 :=
  (by decide +kernel : ∀ t : Fin grid0.N,
    win0_0.index t (0 : Fin 2) = 0 ∧ win0_0.index t (1 : Fin 2) = t.val ∧
    win0_1.index t (0 : Fin 2) = t.val ∧ win0_1.index t (1 : Fin 2) = 0 ∧ win0_2.index t (0 : Fin 1) = 0)

/-- A read of the feature window's block at point k, whatever the array holds. -/
theorem featureBlock_read (k : ℕ) (h : k < cfg0.N) (hk : k < 49)
    (f : ((cfg0.win 0).blk ⟨k, h⟩).view.ty.Contents (Elt Ideal)) (i : Fin 3) (l : Fin 3072) :
    ((cfg0.win 0).blk ⟨k, h⟩).view.read (Elt Ideal) f (ix2 i l) = f (ix2 i (Cert.Spec.blk ⟨k, hk⟩ l)) := by
  obtain ⟨h0, h1, -⟩ := block_index ⟨k, h⟩
  show f ((win0_0.rect ⟨k, h⟩).emb (ix2 i l)) = _
  refine congrArg f (funext fun a => Fin.ext ?_)
  match a with
  | ⟨0, _⟩ =>
    refine (win0_0.rect_emb_val ⟨k, h⟩ (ix2 i l) (0 : Fin 2)).trans ?_
    rw [h0]
    show 0 * 3 + i.val = i.val
    omega
  | ⟨1, _⟩ =>
    refine (win0_0.rect_emb_val ⟨k, h⟩ (ix2 i l) (1 : Fin 2)).trans ?_
    rw [h1]
    rfl

/-- A read of the weight window's block at point k, whatever the array holds. -/
theorem weightBlock_read (k : ℕ) (h : k < cfg0.N) (hk : k < 49)
    (f : ((cfg0.win 1).blk ⟨k, h⟩).view.ty.Contents (Elt Ideal)) (l : Fin 3072) (n : Fin 1024) :
    ((cfg0.win 1).blk ⟨k, h⟩).view.read (Elt Ideal) f (ix2 l n) = f (ix2 (Cert.Spec.blk ⟨k, hk⟩ l) n) := by
  obtain ⟨-, -, h0, h1, -⟩ := block_index ⟨k, h⟩
  show f ((win0_1.rect ⟨k, h⟩).emb (ix2 l n)) = _
  refine congrArg f (funext fun a => Fin.ext ?_)
  match a with
  | ⟨0, _⟩ =>
    refine (win0_1.rect_emb_val ⟨k, h⟩ (ix2 l n) (0 : Fin 2)).trans ?_
    rw [h0]
    rfl
  | ⟨1, _⟩ =>
    refine (win0_1.rect_emb_val ⟨k, h⟩ (ix2 l n) (1 : Fin 2)).trans ?_
    rw [h1]
    show 0 * 1024 + n.val = n.val
    omega

/-- A read of the bias window's one block, whatever the array holds. -/
theorem biasBlock_read (t : Fin cfg0.N) (f : ((cfg0.win 2).blk t).view.ty.Contents (Elt Ideal)) (n : Fin 1024) :
    ((cfg0.win 2).blk t).view.read (Elt Ideal) f (ix1 n) = f (ix1 n) := by
  obtain ⟨-, -, -, -, h0⟩ := block_index t
  show f ((win0_2.rect t).emb (ix1 n)) = _
  refine congrArg f (funext fun a => Fin.ext ?_)
  match a with
  | ⟨0, _⟩ =>
    refine (win0_2.rect_emb_val t (ix1 n) (0 : Fin 1)).trans ?_
    rw [h0]
    show 0 * 1024 + n.val = n.val
    omega

/-- Entry (i, l) of the feature block at point k is the feature matrix at (i, k · 3072 + l). -/
theorem featureBlock_apply (c : Dev nD) (k : ℕ) (h : k < cfg0.N) (hk : k < 49) (i : Fin 3) (l : Fin 3072) :
    blockAt m c 0 ⟨k, h⟩ (ix2 i l) = entry m c main_v1316 (ix2 i (Cert.Spec.blk ⟨k, hk⟩ l)) :=
  featureBlock_read k h hk (entry m c main_v1316) i l

/-- Entry (l, n) of the weight block at point k is the weight matrix at (k · 3072 + l, n). -/
theorem weightBlock_apply (c : Dev nD) (k : ℕ) (h : k < cfg0.N) (hk : k < 49) (l : Fin 3072) (n : Fin 1024) :
    blockAt m c 1 ⟨k, h⟩ (ix2 l n) = entry m c main_arg4 (ix2 (Cert.Spec.blk ⟨k, hk⟩ l) n) :=
  weightBlock_read k h hk (entry m c main_arg4) l n

/-- Entry n of the bias block, at any point, is the bias at n. -/
theorem biasBlock_apply (c : Dev nD) (t : Fin cfg0.N) (n : Fin 1024) :
    blockAt m c 2 t (ix1 n) = entry m c main_arg5 (ix1 n) :=
  biasBlock_read t (entry m c main_arg5) n

end Cert.KernelIdeal.Acc

end
-- ==== Proof.PayAt.lean ====
/-
  The three values the matmul body stores, read entry by entry on the extended reals.

  The body clears the accumulator (every entry 0), adds one block's product to it
  (entry (i, n) gains ∑ l, x (i, l) · w (l, n) over the block's 3072 columns; the narrowing of the
  operands before the product is the identity on extended reals), and at the end adds the bias
  (entry (i, n) gains b n).
-/
import proofs.«107941_j79491254714775_1_alg».proof.Proof.Gen.KernelIdeal.Skeleton
import Idealize.ShloMosaic.Lib.KernelVsHost
import Idealize.ShloMosaic.Lib.StackMember
import Idealize.ShloMosaic.Lib.ValueLayout

noncomputable section

open scoped BigOperators

namespace Cert.KernelIdeal.PayAt

open Idealize.ShloMosaic Idealize.ShloMosaic.ValueIdx Idealize.ShloMosaic.StackMember
open Cert.KernelIdeal Cert.KernelIdeal.Gen

/-- The cleared accumulator is 0 at every entry. -/
theorem pay1_apply (i : Fin 3) (n : Fin 1024) : (k0_pay1 (F := Ideal)) (ix2 i n) = 0 := by
  unfold k0_pay1
  simp only [shapeCast_self]
  exact Ideal.ofBits_zero_f32

/-- One block's product into a zero accumulator: entry (i, n) is the sum over the block's columns. -/
theorem block_product_apply (x : FVec Ideal S3x3072 .bf16) (w : FVec Ideal S3072x1024 .bf16) (i : Fin 3) (n : Fin 1024) :
    matmul dot_S3x3072_S3072x1024_S3x1024_1_0_0_1_n_n none x w (constant (F := Ideal) S3x1024 .f32 0x00000000#32) (ix2 i n)
      = ∑ l : Fin 3072, x (ix2 i l) * w (ix2 l n) := by
  rw [matmul_zero_eq_dotGeneral]
  exact dotGeneral_plain_apply none x w i n

/-- The accumulator after one more block: entry (i, n) gains the block's sum of products. -/
theorem pay2_apply (x : FVec Ideal S3x3072 .f32) (w : FVec Ideal S3072x1024 .f32) (a : FVec Ideal S3x1024 .f32)
    (i : Fin 3) (n : Fin 1024) :
    k0_pay2 (F := Ideal) x w a (ix2 i n) = a (ix2 i n) + ∑ l : Fin 3072, x (ix2 i l) * w (ix2 l n) := by
  unfold k0_pay2
  simp only [shapeCast_self]
  rw [addf_apply, block_product_apply]
  rfl

/-- The result: entry (i, n) is the accumulator's plus the bias at n. -/
theorem pay3_apply (a : FVec Ideal S3x1024 .f32) (b : FVec Ideal S1024 .f32) (i : Fin 3) (n : Fin 1024) :
    k0_pay3 (F := Ideal) a b (ix2 i n) = a (ix2 i n) + b (ix1 n) := by
  unfold k0_pay3
  show a (ix2 i n) + broadcastTo S3x1024 (shapeCast S1x1024 b _) _ (ix2 i n) = _
  rw [broadcastTo_1b_ab_apply]
  refine congrArg (a (ix2 i n) + ·) ?_
  refine shapeCast_apply b _ (ix2 (0 : Fin 1) n) (ix1 n) ?_
  rw [Shape.rowMajor_val_one, Shape.rowMajor_val_two]
  show n.val = 0 * 1024 + n.val
  omega

end Cert.KernelIdeal.PayAt

end
-- ==== Proof.KernelValue.lean ====
/-
  The kernel's result is the layer.

  The accumulator after block k holds, at entry (i, n), 0 plus the shares of blocks 0 … k, where block k's share
  is the sum over its 3072 positions l of feature (i, k · 3072 + l) times weight (k · 3072 + l, n).  After the
  last block that is the sum of all 49 shares, which is the sum over all 150528 features; the result adds the
  bias at n.  Only commutativity and associativity of addition on the extended reals, and 0 + x = x, are used.
-/
import proofs.«107941_j79491254714775_1_alg».proof.Proof.Carried
import proofs.«107941_j79491254714775_1_alg».proof.Proof.BlockAt
import proofs.«107941_j79491254714775_1_alg».proof.Proof.PayAt
import proofs.«107941_j79491254714775_1_alg».proof.Proof.Spec

noncomputable section

open scoped BigOperators

namespace Cert.KernelIdeal.Lin

open Idealize.ShloMosaic Idealize.ShloMosaic.TcCoe Idealize.SL.Sem Idealize.ShloMosaic.ValueIdx
open Cert.KernelIdeal Cert.KernelIdeal.Gen Cert.KernelIdeal.PayAt Cert.KernelIdeal.Acc

variable (m : (ℓ : Loc nD τ sig) → Buf (Elt Ideal) ℓ)

/-- The feature matrix as the region finds it. -/
def feat (c : Dev nD) : FVec Ideal Cert.Spec.STot .f32 := entry m c main_v1316
/-- The weights as the region finds them. -/
def wts (c : Dev nD) : FVec Ideal Cert.Spec.SWt .f32 := entry m c main_arg4
/-- The bias as the region finds it. -/
def bias (c : Dev nD) : FVec Ideal Cert.Spec.SBias .f32 := entry m c main_arg5

/-- Block k's share of entry (i, n) of the product: the sum over the block's 3072 positions of feature times weight. -/
def share (tot : FVec Ideal Cert.Spec.STot .f32) (W : FVec Ideal Cert.Spec.SWt .f32) (i : Fin 3) (n : Fin 1024)
    (k : Fin 49) : EReal :=
  ∑ l : Fin 3072, tot (ix2 i (Cert.Spec.blk k l)) * W (ix2 (Cert.Spec.blk k l) n)

/-- After block 0 the accumulator's entry (i, n) is 0 plus block 0's share. -/
theorem accAt_zero_apply (c : Dev nD) (h : 0 < cfg0.N) (i : Fin 3) (n : Fin 1024) :
    accAt m c 0 h (ix2 i n) = 0 + share (feat m c) (wts m c) i n ⟨0, by omega⟩ := by
  rw [accAt_zero, pay2_apply, pay1_apply]
  refine congrArg (0 + ·) (Finset.sum_congr rfl fun l _ => ?_)
  rw [featureBlock_apply m c 0 h (by omega), weightBlock_apply m c 0 h (by omega)]
  rfl

/-- Block k + 1 adds its share to what block k left. -/
theorem accAt_succ_apply (c : Dev nD) (k : ℕ) (h : k + 1 < cfg0.N) (hk : k + 1 < 49) (i : Fin 3) (n : Fin 1024) :
    accAt m c (k + 1) h (ix2 i n)
      = accAt m c k (Nat.lt_of_succ_lt h) (ix2 i n) + share (feat m c) (wts m c) i n ⟨k + 1, hk⟩ := by
  rw [accAt_succ, pay2_apply]
  refine congrArg (accAt m c k (Nat.lt_of_succ_lt h) (ix2 i n) + ·) (Finset.sum_congr rfl fun l _ => ?_)
  rw [featureBlock_apply m c (k + 1) h hk, weightBlock_apply m c (k + 1) h hk]
  rfl

/-- After the last block the accumulator's entry (i, n) is the sum of all 49 shares. -/
theorem accAt_last_apply (c : Dev nD) (h : 48 < cfg0.N) (i : Fin 3) (n : Fin 1024) :
    accAt m c 48 h (ix2 i n) = ∑ k : Fin 49, share (feat m c) (wts m c) i n k := by
  have hN : cfg0.N = 49 := points
  have key : (if hj : 48 < cfg0.N then accAt m c 48 hj (ix2 i n) else 0)
      = ∑ k : Fin 49, (if hj : k.val < 49 then share (feat m c) (wts m c) i n ⟨k.val, hj⟩ else 0) :=
    Cert.Spec.fold_eq_sum
      (fun j => if hj : j < cfg0.N then accAt m c j hj (ix2 i n) else 0)
      (fun j => if hj : j < 49 then share (feat m c) (wts m c) i n ⟨j, hj⟩ else 0)
      (by
        show (if hj : 0 < cfg0.N then accAt m c 0 hj (ix2 i n) else 0)
          = 0 + (if hj : 0 < 49 then share (feat m c) (wts m c) i n ⟨0, hj⟩ else 0)
        rw [dif_pos (show 0 < cfg0.N by omega), dif_pos (show 0 < 49 by omega)]
        exact accAt_zero_apply m c _ i n)
      (fun k hk => by
        show (if hj : k + 1 < cfg0.N then accAt m c (k + 1) hj (ix2 i n) else 0)
          = (if hj : k < cfg0.N then accAt m c k hj (ix2 i n) else 0)
            + (if hj : k + 1 < 49 then share (feat m c) (wts m c) i n ⟨k + 1, hj⟩ else 0)
        rw [dif_pos (show k + 1 < cfg0.N by omega), dif_pos (show k < cfg0.N by omega), dif_pos hk]
        exact accAt_succ_apply m c k _ hk i n)
  rw [dif_pos h] at key
  rw [key]
  exact Finset.sum_congr rfl fun k _ => dif_pos k.isLt

/-- The kernel's result, accumulator after the last block plus bias, is the layer of the feature matrix, the
    weights and the bias as the region finds them. -/
theorem result_is_layer (c : Dev nD) (h : 48 < cfg0.N) :
    resultAt m c 48 h = Cert.Spec.linear (feat m c) (wts m c) (bias m c) := by
  funext p
  obtain ⟨i, n, rfl⟩ : ∃ (i : Fin 3) (n : Fin 1024), p = ix2 i n := ⟨p 0, p 1, eq_ix2 p⟩
  rw [resultAt_last, pay3_apply, accAt_last_apply, biasBlock_apply, Cert.Spec.linear_apply, Cert.Spec.sum_blocks]
  rfl

/-- The same, with the three arrays spelt as the region finds them. -/
theorem kernel_is_linear (c : Dev nD) (h : 48 < cfg0.N) :
    resultAt m c 48 h = Cert.Spec.linear (entry m c main_v1316) (entry m c main_arg4) (entry m c main_arg5) :=
  result_is_layer m c h

/-- The result array after the run is the layer of the feature matrix as the region finds it and of the weights
    and the bias as launched (no host operation writes an argument). -/
theorem array_is_linear (c : Dev nD) (h : 48 < cfg0.N) :
    (dats m 0 c).arrAt 3 cfg0.N
      = Cert.Spec.linear (entry m c main_v1316) (m ((c : Thread nD τ).loc main_arg4))
          (m ((c : Thread nD τ).loc main_arg5)) := by
  rw [result_after m c h, kernel_is_linear m c h, entry_arg4, entry_arg5]

end Cert.KernelIdeal.Lin

end
-- ==== Proof.RefOps00.lean ====
/- Window 0 of the program's @main, every called function's body written out in place: 108 operations,
  cut into 12 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 0 … 12 of the program (13 of window 0), in order. -/
abbrev ops0_0 : List (HloOp τ sig (Elt F)) :=
  [ StableHlo.reshape main_arg0 main_v0 rfl shapeCasts_S1x512x64x64_S512x64x64,
    StableHlo.unary main_arg3 main_v1 ((extractStridedSlice S1 ![0] · slices_S2_S1_0) : (⟨S2, .f32⟩ : BufTy).Contents (Elt F) → (⟨S1, .f32⟩ : BufTy).Contents (Elt F)),
    StableHlo.reshape main_v1 main_v2 rfl shapeCasts_S1_S_,
    StableHlo.unary main_arg3 main_v3 ((extractStridedSlice S1 ![1] · slices_S2_S1_1) : (⟨S2, .f32⟩ : BufTy).Contents (Elt F) → (⟨S1, .f32⟩ : BufTy).Contents (Elt F)),
    StableHlo.reshape main_v3 main_v4 rfl shapeCasts_S1_S_,
    StableHlo.unary main_arg3 main_v5 ((extractStridedSlice S1 ![0] · slices_S2_S1_0) : (⟨S2, .f32⟩ : BufTy).Contents (Elt F) → (⟨S1, .f32⟩ : BufTy).Contents (Elt F)),
    StableHlo.reshape main_v5 main_v6 rfl shapeCasts_S1_S_,
    StableHlo.unary main_arg3 main_v7 ((extractStridedSlice S1 ![1] · slices_S2_S1_1) : (⟨S2, .f32⟩ : BufTy).Contents (Elt F) → (⟨S1, .f32⟩ : BufTy).Contents (Elt F)),
    StableHlo.reshape main_v7 main_v8 rfl shapeCasts_S1_S_,
    StableHlo.unary main_v2 main_v9 (broadcastInDim S1 ![] bcast_S_S1 : (⟨S_, .f32⟩ : BufTy).Contents (Elt F) → (⟨S1, .f32⟩ : BufTy).Contents (Elt F)),
    StableHlo.unary main_v4 main_v10 (broadcastInDim S1 ![] bcast_S_S1 : (⟨S_, .f32⟩ : BufTy).Contents (Elt F) → (⟨S1, .f32⟩ : BufTy).Contents (Elt F)),
    StableHlo.unary main_v6 main_v11 (broadcastInDim S1 ![] bcast_S_S1 : (⟨S_, .f32⟩ : BufTy).Contents (Elt F) → (⟨S1, .f32⟩ : BufTy).Contents (Elt F)),
    StableHlo.unary main_v8 main_v12 (broadcastInDim S1 ![] bcast_S_S1 : (⟨S_, .f32⟩ : BufTy).Contents (Elt F) → (⟨S1, .f32⟩ : BufTy).Contents (Elt F)) ]
theorem ops0_0_sub : (ops0_0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub ..⟩
theorem ops0_0_fresh : (ops0_0 : List (HloOp τ sig (Elt F))).Forall fun op => op.fresh = ∅ := by
  simp only [List.Forall]; repeat' constructor
theorem ops0_0_keeps : (ops0_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 13 … 16 of the program (4 of window 0), in order. -/
abbrev ops0_1 : List (HloOp τ sig (Elt F)) :=
  [ StableHlo.nary ![main_v9, main_v10, main_v11, main_v12] main_v13 (fun u => concatenate S4 0 [⟨S1, u 0⟩, ⟨S1, u 1⟩, ⟨S1, u 2⟩, ⟨S1, u 3⟩] concatenates_S1_S1_S1_S1_S4_d0),
    StableHlo.unary main_v13 main_v14 (broadcastInDim S1x4 ![1] bcast_S4_S1x4_1 : (⟨S4, .f32⟩ : BufTy).Contents (Elt F) → (⟨S1x4, .f32⟩ : BufTy).Contents (Elt F)),
    StableHlo.unary main_v14 main_v15 (broadcastInDim S3x4 ![0, 1] bcast_S1x4_S3x4_0_1 : (⟨S1x4, .f32⟩ : BufTy).Contents (Elt F) → (⟨S3x4, .f32⟩ : BufTy).Contents (Elt F)),
    StableHlo.binary main_arg1 main_v15 main_v16 (mulf : (⟨S3x4, .f32⟩ : BufTy).Contents (Elt F) → (⟨S3x4, .f32⟩ : BufTy).Contents (Elt F) → (⟨S3x4, .f32⟩ : BufTy).Contents (Elt F)) ]
theorem ops0_1_sub : (ops0_1 : List (HloOp τ sig (Elt F))).Forall fun op => op.bufs ⊆ StableHlo.tcRefs τ sig :=
  ⟨StableHlo.nary_bufs_sub .., StableHlo.unary_bufs_sub .., StableHlo.unary_bufs_sub .., StableHlo.binary_bufs_sub ..⟩
theorem ops0_1_fresh : (ops0_1 : List (HloOp τ sig (Elt F))).Forall fun op => op.fresh = ∅ := by
  simp only [List.Forall]; repeat' constructor
theorem ops0_1_keeps : (ops0_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 17 … 17 of the program (1 of window 0), in order. -/
abbrev ops0_2 : List (HloOp τ sig (Elt F)) :=
  [ StableHlo.TRef.unary (.of main_v16 : StableHlo.TRef sig ⟨S3x4, .f32⟩) (.of main_v17 : StableHlo.TRef sig ⟨S3x4, .f32⟩) Host.roundeven ]
theorem ops0_2_sub : (ops0_2 : List (HloOp τ sig (Elt F))).Forall fun op => op.bufs ⊆ StableHlo.tcRefs τ sig :=
  StableHlo.unary_bufs_sub ..
theorem ops0_2_fresh : (ops0_2 : List (HloOp τ sig (Elt F))).Forall fun op => op.fresh = ∅ := by
  simp only [List.Forall]; repeat' constructor
theorem ops0_2_keeps : (ops0_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 18 … 21 of the program (4 of window 0), in order. -/
abbrev ops0_3 : List (HloOp τ sig (Elt F)) :=
  [ StableHlo.unary main_v17 main_v18 (fptosi 32 : (⟨S3x4, .f32⟩ : BufTy).Contents (Elt F) → (⟨S3x4, .i32⟩ : BufTy).Contents (Elt F)),
    StableHlo.unary main_v13 main_v19 (broadcastInDim S1x4 ![1] bcast_S4_S1x4_1 : (⟨S4, .f32⟩ : BufTy).Contents (Elt F) → (⟨S1x4, .f32⟩ : BufTy).Contents (Elt F)),
    StableHlo.unary main_v19 main_v20 (broadcastInDim S4x4 ![0, 1] bcast_S1x4_S4x4_0_1 : (⟨S1x4, .f32⟩ : BufTy).Contents (Elt F) → (⟨S4x4, .f32⟩ : BufTy).Contents (Elt F)),
    StableHlo.binary main_arg2 main_v20 main_v21 (mulf : (⟨S4x4, .f32⟩ : BufTy).Contents (Elt F) → (⟨S4x4, .f32⟩ : BufTy).Contents (Elt F) → (⟨S4x4, .f32⟩ : BufTy).Contents (Elt F)) ]
theorem ops0_3_sub : (ops0_3 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub ..⟩
theorem ops0_3_fresh : (ops0_3 : List (HloOp τ sig (Elt F))).Forall fun op => op.fresh = ∅ := by
  simp only [List.Forall]; repeat' constructor
theorem ops0_3_keeps : (ops0_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 22 … 22 of the program (1 of window 0), in order. -/
abbrev ops0_4 : List (HloOp τ sig (Elt F)) :=
  [ StableHlo.TRef.unary (.of main_v21 : StableHlo.TRef sig ⟨S4x4, .f32⟩) (.of main_v22 : StableHlo.TRef sig ⟨S4x4, .f32⟩) Host.roundeven ]
theorem ops0_4_sub : (ops0_4 : List (HloOp τ sig (Elt F))).Forall fun op => op.bufs ⊆ StableHlo.tcRefs τ sig :=
  StableHlo.unary_bufs_sub ..
theorem ops0_4_fresh : (ops0_4 : List (HloOp τ sig (Elt F))).Forall fun op => op.fresh = ∅ := by
  simp only [List.Forall]; repeat' constructor
theorem ops0_4_keeps : (ops0_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 23 … 29 of the program (7 of window 0), in order. -/
abbrev ops0_5 : List (HloOp τ sig (Elt F)) :=
  [ StableHlo.unary main_v22 main_v23 (fptosi 32 : (⟨S4x4, .f32⟩ : BufTy).Contents (Elt F) → (⟨S4x4, .i32⟩ : BufTy).Contents (Elt F)),
    StableHlo.nullary main_v24 (iotaInDim S7 32 0),
    StableHlo.nullary main_v25 (iotaInDim S7 32 0),
    StableHlo.nullary main_c (constantI S_ 32 64#32),
    StableHlo.unary main_c main_v26 (broadcastInDim S7 ![] bcast_S_S7 : (⟨S_, .i32⟩ : BufTy).Contents (Elt F) → (⟨S7, .i32⟩ : BufTy).Contents (Elt F)),
    StableHlo.binary main_v24 main_v26 main_v27 (muli : (⟨S7, .i32⟩ : BufTy).Contents (Elt F) → (⟨S7, .i32⟩ : BufTy).Contents (Elt F) → (⟨S7, .i32⟩ : BufTy).Contents (Elt F)),
    StableHlo.nullary main_c_0 (constantI S_ 32 7#32) ]
theorem ops0_5_sub : (ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.unary_bufs_sub .., StableHlo.binary_bufs_sub .., StableHlo.nullary_bufs_sub ..⟩
theorem ops0_5_fresh : (ops0_5 : List (HloOp τ sig (Elt F))).Forall fun op => op.fresh = ∅ := by
  simp only [List.Forall]; repeat' constructor
theorem ops0_5_keeps : (ops0_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 30 … 46 of the program (17 of window 0), in order. -/
abbrev ops0_6 : List (HloOp τ sig (Elt F)) :=
  [ StableHlo.TRef.unary (.of main_c_0 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S7, .i32⟩) (broadcastInDim S7 ![] bcast_S_S7),
    StableHlo.TRef.binary (.of main_v27 : StableHlo.TRef sig ⟨S7, .i32⟩) (.of main_call2_v1 : StableHlo.TRef sig ⟨S7, .i32⟩) (.of main_call2_v2 : StableHlo.TRef sig ⟨S7, .i32⟩) Host.divsi,
    StableHlo.TRef.unary (.of main_v27 : StableHlo.TRef sig ⟨S7, .i32⟩) (.of main_call2_v3 : StableHlo.TRef sig ⟨S7, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S7, .i32⟩) (broadcastInDim S7 ![] bcast_S_S7),
    StableHlo.TRef.binary (.of main_call2_v3 : StableHlo.TRef sig ⟨S7, .i32⟩) (.of main_call2_v5 : StableHlo.TRef sig ⟨S7, .i32⟩) (.of main_call2_v6 : StableHlo.TRef sig ⟨S7, .i1⟩) (cmpi .ne),
    StableHlo.TRef.unary (.of main_call2_v0 : StableHlo.TRef sig ⟨S_, .i32⟩) (.of main_call2_v7 : StableHlo.TRef sig ⟨S7, .i32⟩) (broadcastInDim S7 ![] bcast_S_S7),
    StableHlo.TRef.binary (.of main_v27 : StableHlo.TRef sig ⟨S7, .i32⟩) (.of main_call2_v7 : StableHlo.TRef sig ⟨S7, .i32⟩) (.of main_call2_v8 : StableHlo.TRef sig ⟨S7, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S7, .i32⟩) (broadcastInDim S7 ![] bcast_S_S7),
    StableHlo.TRef.binary (.of main_call2_v8 : StableHlo.TRef sig ⟨S7, .i32⟩) (.of main_call2_v9 : StableHlo.TRef sig ⟨S7, .i32⟩) (.of main_call2_v10 : StableHlo.TRef sig ⟨S7, .i1⟩) (cmpi .ne),
    StableHlo.TRef.binary (.of main_call2_v6 : StableHlo.TRef sig ⟨S7, .i1⟩) (.of main_call2_v10 : StableHlo.TRef sig ⟨S7, .i1⟩) (.of main_call2_v11 : StableHlo.TRef sig ⟨S7, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S7, .i32⟩) (broadcastInDim S7 ![] bcast_S_S7),
    StableHlo.TRef.binary (.of main_call2_v2 : StableHlo.TRef sig ⟨S7, .i32⟩) (.of main_call2_v12 : StableHlo.TRef sig ⟨S7, .i32⟩) (.of main_call2_v13 : StableHlo.TRef sig ⟨S7, .i32⟩) subi,
    StableHlo.TRef.ternary (.of main_call2_v11 : StableHlo.TRef sig ⟨S7, .i1⟩) (.of main_call2_v13 : StableHlo.TRef sig ⟨S7, .i32⟩) (.of main_call2_v2 : StableHlo.TRef sig ⟨S7, .i32⟩) (.of main_v28 : StableHlo.TRef sig ⟨S7, .i32⟩) select ]
theorem ops0_6_sub : (ops0_6 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops0_6_fresh : (ops0_6 : List (HloOp τ sig (Elt F))).Forall fun op => op.fresh = ∅ := by
  simp only [List.Forall]; repeat' constructor
theorem ops0_6_keeps : (ops0_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 47 … 57 of the program (11 of window 0), in order. -/
abbrev ops0_7 : List (HloOp τ sig (Elt F)) :=
  [ StableHlo.nullary main_c_1 (constantI S_ 32 0#32),
    StableHlo.unary main_c_1 main_v29 (broadcastInDim S7 ![] bcast_S_S7 : (⟨S_, .i32⟩ : BufTy).Contents (Elt F) → (⟨S7, .i32⟩ : BufTy).Contents (Elt F)),
    StableHlo.binary main_v29 main_v28 main_v30 (addi : (⟨S7, .i32⟩ : BufTy).Contents (Elt F) → (⟨S7, .i32⟩ : BufTy).Contents (Elt F) → (⟨S7, .i32⟩ : BufTy).Contents (Elt F)),
    StableHlo.nullary main_c_2 (constantI S_ 32 1#32),
    StableHlo.unary main_c_2 main_v31 (broadcastInDim S7 ![] bcast_S_S7 : (⟨S_, .i32⟩ : BufTy).Contents (Elt F) → (⟨S7, .i32⟩ : BufTy).Contents (Elt F)),
    StableHlo.binary main_v24 main_v31 main_v32 (addi : (⟨S7, .i32⟩ : BufTy).Contents (Elt F) → (⟨S7, .i32⟩ : BufTy).Contents (Elt F) → (⟨S7, .i32⟩ : BufTy).Contents (Elt F)),
    StableHlo.unary main_v32 main_v33 (negi : (⟨S7, .i32⟩ : BufTy).Contents (Elt F) → (⟨S7, .i32⟩ : BufTy).Contents (Elt F)),
    StableHlo.nullary main_c_3 (constantI S_ 32 64#32),
    StableHlo.unary main_c_3 main_v34 (broadcastInDim S7 ![] bcast_S_S7 : (⟨S_, .i32⟩ : BufTy).Contents (Elt F) → (⟨S7, .i32⟩ : BufTy).Contents (Elt F)),
    StableHlo.binary main_v33 main_v34 main_v35 (muli : (⟨S7, .i32⟩ : BufTy).Contents (Elt F) → (⟨S7, .i32⟩ : BufTy).Contents (Elt F) → (⟨S7, .i32⟩ : BufTy).Contents (Elt F)),
    StableHlo.nullary main_c_4 (constantI S_ 32 7#32) ]
theorem ops0_7_sub : (ops0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
theorem ops0_7_fresh : (ops0_7 : List (HloOp τ sig (Elt F))).Forall fun op => op.fresh = ∅ := by
  simp only [List.Forall]; repeat' constructor
theorem ops0_7_keeps : (ops0_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 58 … 74 of the program (17 of window 0), in order. -/
abbrev ops0_8 : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S7, .i32⟩) (broadcastInDim S7 ![] bcast_S_S7),
    StableHlo.TRef.binary (.of main_v35 : StableHlo.TRef sig ⟨S7, .i32⟩) (.of main_call3_v1 : StableHlo.TRef sig ⟨S7, .i32⟩) (.of main_call3_v2 : StableHlo.TRef sig ⟨S7, .i32⟩) Host.divsi,
    StableHlo.TRef.unary (.of main_v35 : StableHlo.TRef sig ⟨S7, .i32⟩) (.of main_call3_v3 : StableHlo.TRef sig ⟨S7, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S7, .i32⟩) (broadcastInDim S7 ![] bcast_S_S7),
    StableHlo.TRef.binary (.of main_call3_v3 : StableHlo.TRef sig ⟨S7, .i32⟩) (.of main_call3_v5 : StableHlo.TRef sig ⟨S7, .i32⟩) (.of main_call3_v6 : StableHlo.TRef sig ⟨S7, .i1⟩) (cmpi .ne),
    StableHlo.TRef.unary (.of main_call3_v0 : StableHlo.TRef sig ⟨S_, .i32⟩) (.of main_call3_v7 : StableHlo.TRef sig ⟨S7, .i32⟩) (broadcastInDim S7 ![] bcast_S_S7),
    StableHlo.TRef.binary (.of main_v35 : StableHlo.TRef sig ⟨S7, .i32⟩) (.of main_call3_v7 : StableHlo.TRef sig ⟨S7, .i32⟩) (.of main_call3_v8 : StableHlo.TRef sig ⟨S7, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S7, .i32⟩) (broadcastInDim S7 ![] bcast_S_S7),
    StableHlo.TRef.binary (.of main_call3_v8 : StableHlo.TRef sig ⟨S7, .i32⟩) (.of main_call3_v9 : StableHlo.TRef sig ⟨S7, .i32⟩) (.of main_call3_v10 : StableHlo.TRef sig ⟨S7, .i1⟩) (cmpi .ne),
    StableHlo.TRef.binary (.of main_call3_v6 : StableHlo.TRef sig ⟨S7, .i1⟩) (.of main_call3_v10 : StableHlo.TRef sig ⟨S7, .i1⟩) (.of main_call3_v11 : StableHlo.TRef sig ⟨S7, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S7, .i32⟩) (broadcastInDim S7 ![] bcast_S_S7),
    StableHlo.TRef.binary (.of main_call3_v2 : StableHlo.TRef sig ⟨S7, .i32⟩) (.of main_call3_v12 : StableHlo.TRef sig ⟨S7, .i32⟩) (.of main_call3_v13 : StableHlo.TRef sig ⟨S7, .i32⟩) subi,
    StableHlo.TRef.ternary (.of main_call3_v11 : StableHlo.TRef sig ⟨S7, .i1⟩) (.of main_call3_v13 : StableHlo.TRef sig ⟨S7, .i32⟩) (.of main_call3_v2 : StableHlo.TRef sig ⟨S7, .i32⟩) (.of main_v36 : StableHlo.TRef sig ⟨S7, .i32⟩) select ]
theorem ops0_8_sub : (ops0_8 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops0_8_fresh : (ops0_8 : List (HloOp τ sig (Elt F))).Forall fun op => op.fresh = ∅ := by
  simp only [List.Forall]; repeat' constructor
theorem ops0_8_keeps : (ops0_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 75 … 81 of the program (7 of window 0), in order. -/
abbrev ops0_9 : List (HloOp τ sig (Elt F)) :=
  [ StableHlo.nullary main_c_5 (constantI S_ 32 0#32),
    StableHlo.unary main_c_5 main_v37 (broadcastInDim S7 ![] bcast_S_S7 : (⟨S_, .i32⟩ : BufTy).Contents (Elt F) → (⟨S7, .i32⟩ : BufTy).Contents (Elt F)),
    StableHlo.binary main_v37 main_v36 main_v38 (subi : (⟨S7, .i32⟩ : BufTy).Contents (Elt F) → (⟨S7, .i32⟩ : BufTy).Contents (Elt F) → (⟨S7, .i32⟩ : BufTy).Contents (Elt F)),
    StableHlo.nullary main_c_6 (constantI S_ 32 64#32),
    StableHlo.unary main_c_6 main_v39 (broadcastInDim S7 ![] bcast_S_S7 : (⟨S_, .i32⟩ : BufTy).Contents (Elt F) → (⟨S7, .i32⟩ : BufTy).Contents (Elt F)),
    StableHlo.binary main_v25 main_v39 main_v40 (muli : (⟨S7, .i32⟩ : BufTy).Contents (Elt F) → (⟨S7, .i32⟩ : BufTy).Contents (Elt F) → (⟨S7, .i32⟩ : BufTy).Contents (Elt F)),
    StableHlo.nullary main_c_7 (constantI S_ 32 7#32) ]
theorem ops0_9_sub : (ops0_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
theorem ops0_9_fresh : (ops0_9 : List (HloOp τ sig (Elt F))).Forall fun op => op.fresh = ∅ := by
  simp only [List.Forall]; repeat' constructor
theorem ops0_9_keeps : (ops0_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 82 … 98 of the program (17 of window 0), in order. -/
abbrev ops0_10 : List (HloOp τ sig (Elt F)) :=
  [ StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S7, .i32⟩) (broadcastInDim S7 ![] bcast_S_S7),
    StableHlo.TRef.binary (.of main_v40 : StableHlo.TRef sig ⟨S7, .i32⟩) (.of main_call4_v1 : StableHlo.TRef sig ⟨S7, .i32⟩) (.of main_call4_v2 : StableHlo.TRef sig ⟨S7, .i32⟩) Host.divsi,
    StableHlo.TRef.unary (.of main_v40 : StableHlo.TRef sig ⟨S7, .i32⟩) (.of main_call4_v3 : StableHlo.TRef sig ⟨S7, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S7, .i32⟩) (broadcastInDim S7 ![] bcast_S_S7),
    StableHlo.TRef.binary (.of main_call4_v3 : StableHlo.TRef sig ⟨S7, .i32⟩) (.of main_call4_v5 : StableHlo.TRef sig ⟨S7, .i32⟩) (.of main_call4_v6 : StableHlo.TRef sig ⟨S7, .i1⟩) (cmpi .ne),
    StableHlo.TRef.unary (.of main_call4_v0 : StableHlo.TRef sig ⟨S_, .i32⟩) (.of main_call4_v7 : StableHlo.TRef sig ⟨S7, .i32⟩) (broadcastInDim S7 ![] bcast_S_S7),
    StableHlo.TRef.binary (.of main_v40 : StableHlo.TRef sig ⟨S7, .i32⟩) (.of main_call4_v7 : StableHlo.TRef sig ⟨S7, .i32⟩) (.of main_call4_v8 : StableHlo.TRef sig ⟨S7, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S7, .i32⟩) (broadcastInDim S7 ![] bcast_S_S7),
    StableHlo.TRef.binary (.of main_call4_v8 : StableHlo.TRef sig ⟨S7, .i32⟩) (.of main_call4_v9 : StableHlo.TRef sig ⟨S7, .i32⟩) (.of main_call4_v10 : StableHlo.TRef sig ⟨S7, .i1⟩) (cmpi .ne),
    StableHlo.TRef.binary (.of main_call4_v6 : StableHlo.TRef sig ⟨S7, .i1⟩) (.of main_call4_v10 : StableHlo.TRef sig ⟨S7, .i1⟩) (.of main_call4_v11 : StableHlo.TRef sig ⟨S7, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S7, .i32⟩) (broadcastInDim S7 ![] bcast_S_S7),
    StableHlo.TRef.binary (.of main_call4_v2 : StableHlo.TRef sig ⟨S7, .i32⟩) (.of main_call4_v12 : StableHlo.TRef sig ⟨S7, .i32⟩) (.of main_call4_v13 : StableHlo.TRef sig ⟨S7, .i32⟩) subi,
    StableHlo.TRef.ternary (.of main_call4_v11 : StableHlo.TRef sig ⟨S7, .i1⟩) (.of main_call4_v13 : StableHlo.TRef sig ⟨S7, .i32⟩) (.of main_call4_v2 : StableHlo.TRef sig ⟨S7, .i32⟩) (.of main_v41 : StableHlo.TRef sig ⟨S7, .i32⟩) select ]
theorem ops0_10_sub : (ops0_10 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops0_10_fresh : (ops0_10 : List (HloOp τ sig (Elt F))).Forall fun op => op.fresh = ∅ := by
  simp only [List.Forall]; repeat' constructor
theorem ops0_10_keeps : (ops0_10 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_10, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 99 … 107 of the program (9 of window 0), in order. -/
abbrev ops0_11 : List (HloOp τ sig (Elt F)) :=
  [ StableHlo.nullary main_c_8 (constantI S_ 32 0#32),
    StableHlo.unary main_c_8 main_v42 (broadcastInDim S7 ![] bcast_S_S7 : (⟨S_, .i32⟩ : BufTy).Contents (Elt F) → (⟨S7, .i32⟩ : BufTy).Contents (Elt F)),
    StableHlo.binary main_v42 main_v41 main_v43 (addi : (⟨S7, .i32⟩ : BufTy).Contents (Elt F) → (⟨S7, .i32⟩ : BufTy).Contents (Elt F) → (⟨S7, .i32⟩ : BufTy).Contents (Elt F)),
    StableHlo.nullary main_c_9 (constantI S_ 32 1#32),
    StableHlo.unary main_c_9 main_v44 (broadcastInDim S7 ![] bcast_S_S7 : (⟨S_, .i32⟩ : BufTy).Contents (Elt F) → (⟨S7, .i32⟩ : BufTy).Contents (Elt F)),
    StableHlo.binary main_v25 main_v44 main_v45 (addi : (⟨S7, .i32⟩ : BufTy).Contents (Elt F) → (⟨S7, .i32⟩ : BufTy).Contents (Elt F) → (⟨S7, .i32⟩ : BufTy).Contents (Elt F)),
    StableHlo.unary main_v45 main_v46 (negi : (⟨S7, .i32⟩ : BufTy).Contents (Elt F) → (⟨S7, .i32⟩ : BufTy).Contents (Elt F)),
    StableHlo.nullary main_c_10 (constantI S_ 32 64#32),
    StableHlo.unary main_c_10 main_v47 (broadcastInDim S7 ![] bcast_S_S7 : (⟨S_, .i32⟩ : BufTy).Contents (Elt F) → (⟨S7, .i32⟩ : BufTy).Contents (Elt F)) ]
theorem ops0_11_sub : (ops0_11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub ..⟩
theorem ops0_11_fresh : (ops0_11 : List (HloOp τ sig (Elt F))).Forall fun op => op.fresh = ∅ := by
  simp only [List.Forall]; repeat' constructor
theorem ops0_11_keeps : (ops0_11 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops0_11, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part0_eq (c : Dev nD) : main_part0 (F := F) c = Pipeline.chainK [StableHlo.seq ops0_0, StableHlo.seq ops0_1, StableHlo.seq ops0_2, StableHlo.seq ops0_3, StableHlo.seq ops0_4, StableHlo.seq ops0_5, StableHlo.seq ops0_6, StableHlo.seq ops0_7, StableHlo.seq ops0_8, StableHlo.seq ops0_9, StableHlo.seq ops0_10] (StableHlo.seq ops0_11) := by
  chain_rfl

end Cert.ReferenceIdeal.Host

end
-- ==== Proof.RefOps01.lean ====
/- Window 1 of the program's @main, every called function's body written out in place: 98 operations,
  cut into 8 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 108 … 109 of the program (2 of window 1), in order. -/
abbrev ops1_0 : List (HloOp τ sig (Elt F)) :=
  [ StableHlo.binary main_v46 main_v47 main_v48 (muli : (⟨S7, .i32⟩ : BufTy).Contents (Elt F) → (⟨S7, .i32⟩ : BufTy).Contents (Elt F) → (⟨S7, .i32⟩ : BufTy).Contents (Elt F)),
    StableHlo.nullary main_c_11 (constantI S_ 32 7#32) ]
theorem ops1_0_sub : (ops1_0 : List (HloOp τ sig (Elt F))).Forall fun op => op.bufs ⊆ StableHlo.tcRefs τ sig :=
  ⟨StableHlo.binary_bufs_sub .., StableHlo.nullary_bufs_sub ..⟩
theorem ops1_0_fresh : (ops1_0 : List (HloOp τ sig (Elt F))).Forall fun op => op.fresh = ∅ := by
  simp only [List.Forall]; repeat' constructor
theorem ops1_0_keeps : (ops1_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 110 … 126 of the program (17 of window 1), in order. -/
abbrev ops1_1 : List (HloOp τ sig (Elt F)) :=
  [ StableHlo.TRef.unary (.of main_c_11 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S7, .i32⟩) (broadcastInDim S7 ![] bcast_S_S7),
    StableHlo.TRef.binary (.of main_v48 : StableHlo.TRef sig ⟨S7, .i32⟩) (.of main_call5_v1 : StableHlo.TRef sig ⟨S7, .i32⟩) (.of main_call5_v2 : StableHlo.TRef sig ⟨S7, .i32⟩) Host.divsi,
    StableHlo.TRef.unary (.of main_v48 : StableHlo.TRef sig ⟨S7, .i32⟩) (.of main_call5_v3 : StableHlo.TRef sig ⟨S7, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S7, .i32⟩) (broadcastInDim S7 ![] bcast_S_S7),
    StableHlo.TRef.binary (.of main_call5_v3 : StableHlo.TRef sig ⟨S7, .i32⟩) (.of main_call5_v5 : StableHlo.TRef sig ⟨S7, .i32⟩) (.of main_call5_v6 : StableHlo.TRef sig ⟨S7, .i1⟩) (cmpi .ne),
    StableHlo.TRef.unary (.of main_call5_v0 : StableHlo.TRef sig ⟨S_, .i32⟩) (.of main_call5_v7 : StableHlo.TRef sig ⟨S7, .i32⟩) (broadcastInDim S7 ![] bcast_S_S7),
    StableHlo.TRef.binary (.of main_v48 : StableHlo.TRef sig ⟨S7, .i32⟩) (.of main_call5_v7 : StableHlo.TRef sig ⟨S7, .i32⟩) (.of main_call5_v8 : StableHlo.TRef sig ⟨S7, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S7, .i32⟩) (broadcastInDim S7 ![] bcast_S_S7),
    StableHlo.TRef.binary (.of main_call5_v8 : StableHlo.TRef sig ⟨S7, .i32⟩) (.of main_call5_v9 : StableHlo.TRef sig ⟨S7, .i32⟩) (.of main_call5_v10 : StableHlo.TRef sig ⟨S7, .i1⟩) (cmpi .ne),
    StableHlo.TRef.binary (.of main_call5_v6 : StableHlo.TRef sig ⟨S7, .i1⟩) (.of main_call5_v10 : StableHlo.TRef sig ⟨S7, .i1⟩) (.of main_call5_v11 : StableHlo.TRef sig ⟨S7, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S7, .i32⟩) (broadcastInDim S7 ![] bcast_S_S7),
    StableHlo.TRef.binary (.of main_call5_v2 : StableHlo.TRef sig ⟨S7, .i32⟩) (.of main_call5_v12 : StableHlo.TRef sig ⟨S7, .i32⟩) (.of main_call5_v13 : StableHlo.TRef sig ⟨S7, .i32⟩) subi,
    StableHlo.TRef.ternary (.of main_call5_v11 : StableHlo.TRef sig ⟨S7, .i1⟩) (.of main_call5_v13 : StableHlo.TRef sig ⟨S7, .i32⟩) (.of main_call5_v2 : StableHlo.TRef sig ⟨S7, .i32⟩) (.of main_v49 : StableHlo.TRef sig ⟨S7, .i32⟩) select ]
theorem ops1_1_sub : (ops1_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops1_1_fresh : (ops1_1 : List (HloOp τ sig (Elt F))).Forall fun op => op.fresh = ∅ := by
  simp only [List.Forall]; repeat' constructor
theorem ops1_1_keeps : (ops1_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 127 … 156 of the program (30 of window 1), in order. -/
abbrev ops1_2 : List (HloOp τ sig (Elt F)) :=
  [ StableHlo.nullary main_c_12 (constantI S_ 32 0#32),
    StableHlo.unary main_c_12 main_v50 (broadcastInDim S7 ![] bcast_S_S7 : (⟨S_, .i32⟩ : BufTy).Contents (Elt F) → (⟨S7, .i32⟩ : BufTy).Contents (Elt F)),
    StableHlo.binary main_v50 main_v49 main_v51 (subi : (⟨S7, .i32⟩ : BufTy).Contents (Elt F) → (⟨S7, .i32⟩ : BufTy).Contents (Elt F) → (⟨S7, .i32⟩ : BufTy).Contents (Elt F)),
    StableHlo.nullary main_v52 (iotaInDim S64 32 0),
    StableHlo.nullary main_v53 (iotaInDim S64 32 0),
    StableHlo.unary main_v52 main_v54 (broadcastInDim S1x64 ![1] bcast_S64_S1x64_1 : (⟨S64, .i32⟩ : BufTy).Contents (Elt F) → (⟨S1x64, .i32⟩ : BufTy).Contents (Elt F)),
    StableHlo.unary main_v30 main_v55 (broadcastInDim S7x1 ![0] bcast_S7_S7x1_0 : (⟨S7, .i32⟩ : BufTy).Contents (Elt F) → (⟨S7x1, .i32⟩ : BufTy).Contents (Elt F)),
    StableHlo.unary main_v54 main_v56 (broadcastInDim S7x64 ![0, 1] bcast_S1x64_S7x64_0_1 : (⟨S1x64, .i32⟩ : BufTy).Contents (Elt F) → (⟨S7x64, .i32⟩ : BufTy).Contents (Elt F)),
    StableHlo.unary main_v55 main_v57 (broadcastInDim S7x64 ![0, 1] bcast_S7x1_S7x64_0_1 : (⟨S7x1, .i32⟩ : BufTy).Contents (Elt F) → (⟨S7x64, .i32⟩ : BufTy).Contents (Elt F)),
    StableHlo.binary main_v56 main_v57 main_v58 (cmpi .sge : (⟨S7x64, .i32⟩ : BufTy).Contents (Elt F) → (⟨S7x64, .i32⟩ : BufTy).Contents (Elt F) → (⟨S7x64, .i1⟩ : BufTy).Contents (Elt F)),
    StableHlo.unary main_v52 main_v59 (broadcastInDim S1x64 ![1] bcast_S64_S1x64_1 : (⟨S64, .i32⟩ : BufTy).Contents (Elt F) → (⟨S1x64, .i32⟩ : BufTy).Contents (Elt F)),
    StableHlo.unary main_v38 main_v60 (broadcastInDim S7x1 ![0] bcast_S7_S7x1_0 : (⟨S7, .i32⟩ : BufTy).Contents (Elt F) → (⟨S7x1, .i32⟩ : BufTy).Contents (Elt F)),
    StableHlo.unary main_v59 main_v61 (broadcastInDim S7x64 ![0, 1] bcast_S1x64_S7x64_0_1 : (⟨S1x64, .i32⟩ : BufTy).Contents (Elt F) → (⟨S7x64, .i32⟩ : BufTy).Contents (Elt F)),
    StableHlo.unary main_v60 main_v62 (broadcastInDim S7x64 ![0, 1] bcast_S7x1_S7x64_0_1 : (⟨S7x1, .i32⟩ : BufTy).Contents (Elt F) → (⟨S7x64, .i32⟩ : BufTy).Contents (Elt F)),
    StableHlo.binary main_v61 main_v62 main_v63 (cmpi .slt : (⟨S7x64, .i32⟩ : BufTy).Contents (Elt F) → (⟨S7x64, .i32⟩ : BufTy).Contents (Elt F) → (⟨S7x64, .i1⟩ : BufTy).Contents (Elt F)),
    StableHlo.binary main_v58 main_v63 main_v64 (andi : (⟨S7x64, .i1⟩ : BufTy).Contents (Elt F) → (⟨S7x64, .i1⟩ : BufTy).Contents (Elt F) → (⟨S7x64, .i1⟩ : BufTy).Contents (Elt F)),
    StableHlo.unary main_v53 main_v65 (broadcastInDim S1x64 ![1] bcast_S64_S1x64_1 : (⟨S64, .i32⟩ : BufTy).Contents (Elt F) → (⟨S1x64, .i32⟩ : BufTy).Contents (Elt F)),
    StableHlo.unary main_v43 main_v66 (broadcastInDim S7x1 ![0] bcast_S7_S7x1_0 : (⟨S7, .i32⟩ : BufTy).Contents (Elt F) → (⟨S7x1, .i32⟩ : BufTy).Contents (Elt F)),
    StableHlo.unary main_v65 main_v67 (broadcastInDim S7x64 ![0, 1] bcast_S1x64_S7x64_0_1 : (⟨S1x64, .i32⟩ : BufTy).Contents (Elt F) → (⟨S7x64, .i32⟩ : BufTy).Contents (Elt F)),
    StableHlo.unary main_v66 main_v68 (broadcastInDim S7x64 ![0, 1] bcast_S7x1_S7x64_0_1 : (⟨S7x1, .i32⟩ : BufTy).Contents (Elt F) → (⟨S7x64, .i32⟩ : BufTy).Contents (Elt F)),
    StableHlo.binary main_v67 main_v68 main_v69 (cmpi .sge : (⟨S7x64, .i32⟩ : BufTy).Contents (Elt F) → (⟨S7x64, .i32⟩ : BufTy).Contents (Elt F) → (⟨S7x64, .i1⟩ : BufTy).Contents (Elt F)),
    StableHlo.unary main_v53 main_v70 (broadcastInDim S1x64 ![1] bcast_S64_S1x64_1 : (⟨S64, .i32⟩ : BufTy).Contents (Elt F) → (⟨S1x64, .i32⟩ : BufTy).Contents (Elt F)),
    StableHlo.unary main_v51 main_v71 (broadcastInDim S7x1 ![0] bcast_S7_S7x1_0 : (⟨S7, .i32⟩ : BufTy).Contents (Elt F) → (⟨S7x1, .i32⟩ : BufTy).Contents (Elt F)),
    StableHlo.unary main_v70 main_v72 (broadcastInDim S7x64 ![0, 1] bcast_S1x64_S7x64_0_1 : (⟨S1x64, .i32⟩ : BufTy).Contents (Elt F) → (⟨S7x64, .i32⟩ : BufTy).Contents (Elt F)),
    StableHlo.unary main_v71 main_v73 (broadcastInDim S7x64 ![0, 1] bcast_S7x1_S7x64_0_1 : (⟨S7x1, .i32⟩ : BufTy).Contents (Elt F) → (⟨S7x64, .i32⟩ : BufTy).Contents (Elt F)),
    StableHlo.binary main_v72 main_v73 main_v74 (cmpi .slt : (⟨S7x64, .i32⟩ : BufTy).Contents (Elt F) → (⟨S7x64, .i32⟩ : BufTy).Contents (Elt F) → (⟨S7x64, .i1⟩ : BufTy).Contents (Elt F)),
    StableHlo.binary main_v69 main_v74 main_v75 (andi : (⟨S7x64, .i1⟩ : BufTy).Contents (Elt F) → (⟨S7x64, .i1⟩ : BufTy).Contents (Elt F) → (⟨S7x64, .i1⟩ : BufTy).Contents (Elt F)),
    StableHlo.unary main_v64 main_v76 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v77 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst (constant S_ .f32 0xFF800000#32) ]
theorem ops1_2_sub : (ops1_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops1_2_fresh : (ops1_2 : List (HloOp τ sig (Elt F))).Forall fun op => op.fresh = ∅ := by
  simp only [List.Forall]; repeat' constructor
theorem ops1_2_keeps : (ops1_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 157 … 160 of the program (4 of window 1), in order. -/
abbrev ops1_3 : List (HloOp τ sig (Elt F)) :=
  [ StableHlo.TRef.unary (.of main_v76 : StableHlo.TRef sig ⟨S7x1x64x1, .i1⟩) (.of main_call6_v0 : StableHlo.TRef sig ⟨S7x512x64x64, .i1⟩) (broadcastInDim S7x512x64x64 ![0, 1, 2, 3] bcast_S7x1x64x1_S7x512x64x64_0_1_2_3),
    StableHlo.TRef.unary (.of main_v77 : StableHlo.TRef sig ⟨S1x512x64x64, .f32⟩) (.of main_call6_v1 : StableHlo.TRef sig ⟨S7x512x64x64, .f32⟩) (broadcastInDim S7x512x64x64 ![0, 1, 2, 3] bcast_S1x512x64x64_S7x512x64x64_0_1_2_3),
    StableHlo.TRef.unary (.of main_cst : StableHlo.TRef sig ⟨S_, .f32⟩) (.of main_call6_v2 : StableHlo.TRef sig ⟨S7x512x64x64, .f32⟩) (broadcastInDim S7x512x64x64 ![] bcast_S_S7x512x64x64),
    StableHlo.TRef.ternary (.of main_call6_v0 : StableHlo.TRef sig ⟨S7x512x64x64, .i1⟩) (.of main_call6_v1 : StableHlo.TRef sig ⟨S7x512x64x64, .f32⟩) (.of main_call6_v2 : StableHlo.TRef sig ⟨S7x512x64x64, .f32⟩) (.of main_v78 : StableHlo.TRef sig ⟨S7x512x64x64, .f32⟩) select ]
theorem ops1_3_sub : (ops1_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops1_3_fresh : (ops1_3 : List (HloOp τ sig (Elt F))).Forall fun op => op.fresh = ∅ := by
  simp only [List.Forall]; repeat' constructor
theorem ops1_3_keeps : (ops1_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 161 … 165 of the program (5 of window 1), in order. -/
abbrev ops1_4 : List (HloOp τ sig (Elt F)) :=
  [ StableHlo.nullary main_cst_13 (constant S_ .f32 0xFF800000#32),
    StableHlo.binary main_v78 main_cst_13 main_v79 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v75 main_v80 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v79 main_v81 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_14 (constant S_ .f32 0xFF800000#32) ]
theorem ops1_4_sub : (ops1_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops1_4_fresh : (ops1_4 : List (HloOp τ sig (Elt F))).Forall fun op => op.fresh = ∅ := by
  simp only [List.Forall]; repeat' constructor
theorem ops1_4_keeps : (ops1_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 166 … 169 of the program (4 of window 1), in order. -/
abbrev ops1_5 : List (HloOp τ sig (Elt F)) :=
  [ StableHlo.TRef.unary (.of main_v80 : StableHlo.TRef sig ⟨S1x1x7x64, .i1⟩) (.of main_call7_v0 : StableHlo.TRef sig ⟨S7x512x7x64, .i1⟩) (broadcastInDim S7x512x7x64 ![0, 1, 2, 3] bcast_S1x1x7x64_S7x512x7x64_0_1_2_3),
    StableHlo.TRef.unary (.of main_v81 : StableHlo.TRef sig ⟨S7x512x1x64, .f32⟩) (.of main_call7_v1 : StableHlo.TRef sig ⟨S7x512x7x64, .f32⟩) (broadcastInDim S7x512x7x64 ![0, 1, 2, 3] bcast_S7x512x1x64_S7x512x7x64_0_1_2_3),
    StableHlo.TRef.unary (.of main_cst_14 : StableHlo.TRef sig ⟨S_, .f32⟩) (.of main_call7_v2 : StableHlo.TRef sig ⟨S7x512x7x64, .f32⟩) (broadcastInDim S7x512x7x64 ![] bcast_S_S7x512x7x64),
    StableHlo.TRef.ternary (.of main_call7_v0 : StableHlo.TRef sig ⟨S7x512x7x64, .i1⟩) (.of main_call7_v1 : StableHlo.TRef sig ⟨S7x512x7x64, .f32⟩) (.of main_call7_v2 : StableHlo.TRef sig ⟨S7x512x7x64, .f32⟩) (.of main_v82 : StableHlo.TRef sig ⟨S7x512x7x64, .f32⟩) select ]
theorem ops1_5_sub : (ops1_5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops1_5_fresh : (ops1_5 : List (HloOp τ sig (Elt F))).Forall fun op => op.fresh = ∅ := by
  simp only [List.Forall]; repeat' constructor
theorem ops1_5_keeps : (ops1_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 170 … 188 of the program (19 of window 1), in order. -/
abbrev ops1_6 : List (HloOp τ sig (Elt F)) :=
  [ StableHlo.nullary main_cst_15 (constant S_ .f32 0xFF800000#32),
    StableHlo.binary main_v82 main_cst_15 main_v83 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v83 main_v84 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v84 main_v85 rfl shapeCasts_S512x7x7_S25088,
    StableHlo.unary main_v18 main_v86 ((extractStridedSlice S1x1 ![0, 1] · slices_S3x4_S1x1_0_1) : (⟨S3x4, .i32⟩ : BufTy).Contents (Elt F) → (⟨S1x1, .i32⟩ : BufTy).Contents (Elt F)),
    StableHlo.reshape main_v86 main_v87 rfl shapeCasts_S1x1_S_,
    StableHlo.unary main_v18 main_v88 ((extractStridedSlice S1x1 ![0, 3] · slices_S3x4_S1x1_0_3) : (⟨S3x4, .i32⟩ : BufTy).Contents (Elt F) → (⟨S1x1, .i32⟩ : BufTy).Contents (Elt F)),
    StableHlo.reshape main_v88 main_v89 rfl shapeCasts_S1x1_S_,
    StableHlo.unary main_v18 main_v90 ((extractStridedSlice S1x1 ![0, 0] · slices_S3x4_S1x1_0_0) : (⟨S3x4, .i32⟩ : BufTy).Contents (Elt F) → (⟨S1x1, .i32⟩ : BufTy).Contents (Elt F)),
    StableHlo.reshape main_v90 main_v91 rfl shapeCasts_S1x1_S_,
    StableHlo.unary main_v18 main_v92 ((extractStridedSlice S1x1 ![0, 2] · slices_S3x4_S1x1_0_2) : (⟨S3x4, .i32⟩ : BufTy).Contents (Elt F) → (⟨S1x1, .i32⟩ : BufTy).Contents (Elt F)),
    StableHlo.reshape main_v92 main_v93 rfl shapeCasts_S1x1_S_,
    StableHlo.binary main_v89 main_v87 main_v94 (subi : (⟨S_, .i32⟩ : BufTy).Contents (Elt F) → (⟨S_, .i32⟩ : BufTy).Contents (Elt F) → (⟨S_, .i32⟩ : BufTy).Contents (Elt F)),
    StableHlo.binary main_v93 main_v91 main_v95 (subi : (⟨S_, .i32⟩ : BufTy).Contents (Elt F) → (⟨S_, .i32⟩ : BufTy).Contents (Elt F) → (⟨S_, .i32⟩ : BufTy).Contents (Elt F)),
    StableHlo.nullary main_v96 (iotaInDim S7 32 0),
    StableHlo.nullary main_v97 (iotaInDim S7 32 0),
    StableHlo.unary main_v94 main_v98 (broadcastInDim S7 ![] bcast_S_S7 : (⟨S_, .i32⟩ : BufTy).Contents (Elt F) → (⟨S7, .i32⟩ : BufTy).Contents (Elt F)),
    StableHlo.binary main_v96 main_v98 main_v99 (muli : (⟨S7, .i32⟩ : BufTy).Contents (Elt F) → (⟨S7, .i32⟩ : BufTy).Contents (Elt F) → (⟨S7, .i32⟩ : BufTy).Contents (Elt F)),
    StableHlo.nullary main_c_16 (constantI S_ 32 7#32) ]
theorem ops1_6_sub : (ops1_6 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops1_6_fresh : (ops1_6 : List (HloOp τ sig (Elt F))).Forall fun op => op.fresh = ∅ := by
  simp only [List.Forall]; repeat' constructor
theorem ops1_6_keeps : (ops1_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 189 … 205 of the program (17 of window 1), in order. -/
abbrev ops1_7 : List (HloOp τ sig (Elt F)) :=
  [ StableHlo.TRef.unary (.of main_c_16 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S7, .i32⟩) (broadcastInDim S7 ![] bcast_S_S7),
    StableHlo.TRef.binary (.of main_v99 : StableHlo.TRef sig ⟨S7, .i32⟩) (.of main_call8_v1 : StableHlo.TRef sig ⟨S7, .i32⟩) (.of main_call8_v2 : StableHlo.TRef sig ⟨S7, .i32⟩) Host.divsi,
    StableHlo.TRef.unary (.of main_v99 : StableHlo.TRef sig ⟨S7, .i32⟩) (.of main_call8_v3 : StableHlo.TRef sig ⟨S7, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S7, .i32⟩) (broadcastInDim S7 ![] bcast_S_S7),
    StableHlo.TRef.binary (.of main_call8_v3 : StableHlo.TRef sig ⟨S7, .i32⟩) (.of main_call8_v5 : StableHlo.TRef sig ⟨S7, .i32⟩) (.of main_call8_v6 : StableHlo.TRef sig ⟨S7, .i1⟩) (cmpi .ne),
    StableHlo.TRef.unary (.of main_call8_v0 : StableHlo.TRef sig ⟨S_, .i32⟩) (.of main_call8_v7 : StableHlo.TRef sig ⟨S7, .i32⟩) (broadcastInDim S7 ![] bcast_S_S7),
    StableHlo.TRef.binary (.of main_v99 : StableHlo.TRef sig ⟨S7, .i32⟩) (.of main_call8_v7 : StableHlo.TRef sig ⟨S7, .i32⟩) (.of main_call8_v8 : StableHlo.TRef sig ⟨S7, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S7, .i32⟩) (broadcastInDim S7 ![] bcast_S_S7),
    StableHlo.TRef.binary (.of main_call8_v8 : StableHlo.TRef sig ⟨S7, .i32⟩) (.of main_call8_v9 : StableHlo.TRef sig ⟨S7, .i32⟩) (.of main_call8_v10 : StableHlo.TRef sig ⟨S7, .i1⟩) (cmpi .ne),
    StableHlo.TRef.binary (.of main_call8_v6 : StableHlo.TRef sig ⟨S7, .i1⟩) (.of main_call8_v10 : StableHlo.TRef sig ⟨S7, .i1⟩) (.of main_call8_v11 : StableHlo.TRef sig ⟨S7, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S7, .i32⟩) (broadcastInDim S7 ![] bcast_S_S7),
    StableHlo.TRef.binary (.of main_call8_v2 : StableHlo.TRef sig ⟨S7, .i32⟩) (.of main_call8_v12 : StableHlo.TRef sig ⟨S7, .i32⟩) (.of main_call8_v13 : StableHlo.TRef sig ⟨S7, .i32⟩) subi,
    StableHlo.TRef.ternary (.of main_call8_v11 : StableHlo.TRef sig ⟨S7, .i1⟩) (.of main_call8_v13 : StableHlo.TRef sig ⟨S7, .i32⟩) (.of main_call8_v2 : StableHlo.TRef sig ⟨S7, .i32⟩) (.of main_v100 : StableHlo.TRef sig ⟨S7, .i32⟩) select ]
theorem ops1_7_sub : (ops1_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops1_7_fresh : (ops1_7 : List (HloOp τ sig (Elt F))).Forall fun op => op.fresh = ∅ := by
  simp only [List.Forall]; repeat' constructor
theorem ops1_7_keeps : (ops1_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops1_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part1_eq (c : Dev nD) : main_part1 (F := F) c = Pipeline.chainK [StableHlo.seq ops1_0, StableHlo.seq ops1_1, StableHlo.seq ops1_2, StableHlo.seq ops1_3, StableHlo.seq ops1_4, StableHlo.seq ops1_5, StableHlo.seq ops1_6] (StableHlo.seq ops1_7) := by
  chain_rfl

end Cert.ReferenceIdeal.Host

end
-- ==== Proof.RefOps02.lean ====
/- Window 2 of the program's @main, every called function's body written out in place: 111 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 206 … 214 of the program (9 of window 2), in order. -/
abbrev ops2_0 : List (HloOp τ sig (Elt F)) :=
  [ StableHlo.unary main_v87 main_v101 (broadcastInDim S7 ![] bcast_S_S7 : (⟨S_, .i32⟩ : BufTy).Contents (Elt F) → (⟨S7, .i32⟩ : BufTy).Contents (Elt F)),
    StableHlo.binary main_v101 main_v100 main_v102 (addi : (⟨S7, .i32⟩ : BufTy).Contents (Elt F) → (⟨S7, .i32⟩ : BufTy).Contents (Elt F) → (⟨S7, .i32⟩ : BufTy).Contents (Elt F)),
    StableHlo.nullary main_c_17 (constantI S_ 32 1#32),
    StableHlo.unary main_c_17 main_v103 (broadcastInDim S7 ![] bcast_S_S7 : (⟨S_, .i32⟩ : BufTy).Contents (Elt F) → (⟨S7, .i32⟩ : BufTy).Contents (Elt F)),
    StableHlo.binary main_v96 main_v103 main_v104 (addi : (⟨S7, .i32⟩ : BufTy).Contents (Elt F) → (⟨S7, .i32⟩ : BufTy).Contents (Elt F) → (⟨S7, .i32⟩ : BufTy).Contents (Elt F)),
    StableHlo.unary main_v104 main_v105 (negi : (⟨S7, .i32⟩ : BufTy).Contents (Elt F) → (⟨S7, .i32⟩ : BufTy).Contents (Elt F)),
    StableHlo.unary main_v94 main_v106 (broadcastInDim S7 ![] bcast_S_S7 : (⟨S_, .i32⟩ : BufTy).Contents (Elt F) → (⟨S7, .i32⟩ : BufTy).Contents (Elt F)),
    StableHlo.binary main_v105 main_v106 main_v107 (muli : (⟨S7, .i32⟩ : BufTy).Contents (Elt F) → (⟨S7, .i32⟩ : BufTy).Contents (Elt F) → (⟨S7, .i32⟩ : BufTy).Contents (Elt F)),
    StableHlo.nullary main_c_18 (constantI S_ 32 7#32) ]
theorem ops2_0_sub : (ops2_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops2_0_fresh : (ops2_0 : List (HloOp τ sig (Elt F))).Forall fun op => op.fresh = ∅ := by
  simp only [List.Forall]; repeat' constructor
theorem ops2_0_keeps : (ops2_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 215 … 231 of the program (17 of window 2), in order. -/
abbrev ops2_1 : List (HloOp τ sig (Elt F)) :=
  [ StableHlo.TRef.unary (.of main_c_18 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S7, .i32⟩) (broadcastInDim S7 ![] bcast_S_S7),
    StableHlo.TRef.binary (.of main_v107 : StableHlo.TRef sig ⟨S7, .i32⟩) (.of main_call9_v1 : StableHlo.TRef sig ⟨S7, .i32⟩) (.of main_call9_v2 : StableHlo.TRef sig ⟨S7, .i32⟩) Host.divsi,
    StableHlo.TRef.unary (.of main_v107 : StableHlo.TRef sig ⟨S7, .i32⟩) (.of main_call9_v3 : StableHlo.TRef sig ⟨S7, .i32⟩) signi,
    StableHlo.TRef.unary (.of main_call9_v0 : StableHlo.TRef sig ⟨S_, .i32⟩) (.of main_call9_v4 : StableHlo.TRef sig ⟨S_, .i32⟩) signi,
    StableHlo.TRef.unary (.of main_call9_v4 : StableHlo.TRef sig ⟨S_, .i32⟩) (.of main_call9_v5 : StableHlo.TRef sig ⟨S7, .i32⟩) (broadcastInDim S7 ![] bcast_S_S7),
    StableHlo.TRef.binary (.of main_call9_v3 : StableHlo.TRef sig ⟨S7, .i32⟩) (.of main_call9_v5 : StableHlo.TRef sig ⟨S7, .i32⟩) (.of main_call9_v6 : StableHlo.TRef sig ⟨S7, .i1⟩) (cmpi .ne),
    StableHlo.TRef.unary (.of main_call9_v0 : StableHlo.TRef sig ⟨S_, .i32⟩) (.of main_call9_v7 : StableHlo.TRef sig ⟨S7, .i32⟩) (broadcastInDim S7 ![] bcast_S_S7),
    StableHlo.TRef.binary (.of main_v107 : StableHlo.TRef sig ⟨S7, .i32⟩) (.of main_call9_v7 : StableHlo.TRef sig ⟨S7, .i32⟩) (.of main_call9_v8 : StableHlo.TRef sig ⟨S7, .i32⟩) Host.remsi,
    StableHlo.TRef.nullary (.of main_call9_c : StableHlo.TRef sig ⟨S_, .i32⟩) (constantI S_ 32 0#32),
    StableHlo.TRef.unary (.of main_call9_c : StableHlo.TRef sig ⟨S_, .i32⟩) (.of main_call9_v9 : StableHlo.TRef sig ⟨S7, .i32⟩) (broadcastInDim S7 ![] bcast_S_S7),
    StableHlo.TRef.binary (.of main_call9_v8 : StableHlo.TRef sig ⟨S7, .i32⟩) (.of main_call9_v9 : StableHlo.TRef sig ⟨S7, .i32⟩) (.of main_call9_v10 : StableHlo.TRef sig ⟨S7, .i1⟩) (cmpi .ne),
    StableHlo.TRef.binary (.of main_call9_v6 : StableHlo.TRef sig ⟨S7, .i1⟩) (.of main_call9_v10 : StableHlo.TRef sig ⟨S7, .i1⟩) (.of main_call9_v11 : StableHlo.TRef sig ⟨S7, .i1⟩) andi,
    StableHlo.TRef.nullary (.of main_call9_c_0 : StableHlo.TRef sig ⟨S_, .i32⟩) (constantI S_ 32 1#32),
    StableHlo.TRef.unary (.of main_call9_c_0 : StableHlo.TRef sig ⟨S_, .i32⟩) (.of main_call9_v12 : StableHlo.TRef sig ⟨S7, .i32⟩) (broadcastInDim S7 ![] bcast_S_S7),
    StableHlo.TRef.binary (.of main_call9_v2 : StableHlo.TRef sig ⟨S7, .i32⟩) (.of main_call9_v12 : StableHlo.TRef sig ⟨S7, .i32⟩) (.of main_call9_v13 : StableHlo.TRef sig ⟨S7, .i32⟩) subi,
    StableHlo.TRef.ternary (.of main_call9_v11 : StableHlo.TRef sig ⟨S7, .i1⟩) (.of main_call9_v13 : StableHlo.TRef sig ⟨S7, .i32⟩) (.of main_call9_v2 : StableHlo.TRef sig ⟨S7, .i32⟩) (.of main_v108 : StableHlo.TRef sig ⟨S7, .i32⟩) select ]
theorem ops2_1_sub : (ops2_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops2_1_fresh : (ops2_1 : List (HloOp τ sig (Elt F))).Forall fun op => op.fresh = ∅ := by
  simp only [List.Forall]; repeat' constructor
theorem ops2_1_keeps : (ops2_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 232 … 236 of the program (5 of window 2), in order. -/
abbrev ops2_2 : List (HloOp τ sig (Elt F)) :=
  [ StableHlo.unary main_v87 main_v109 (broadcastInDim S7 ![] bcast_S_S7 : (⟨S_, .i32⟩ : BufTy).Contents (Elt F) → (⟨S7, .i32⟩ : BufTy).Contents (Elt F)),
    StableHlo.binary main_v109 main_v108 main_v110 (subi : (⟨S7, .i32⟩ : BufTy).Contents (Elt F) → (⟨S7, .i32⟩ : BufTy).Contents (Elt F) → (⟨S7, .i32⟩ : BufTy).Contents (Elt F)),
    StableHlo.unary main_v95 main_v111 (broadcastInDim S7 ![] bcast_S_S7 : (⟨S_, .i32⟩ : BufTy).Contents (Elt F) → (⟨S7, .i32⟩ : BufTy).Contents (Elt F)),
    StableHlo.binary main_v97 main_v111 main_v112 (muli : (⟨S7, .i32⟩ : BufTy).Contents (Elt F) → (⟨S7, .i32⟩ : BufTy).Contents (Elt F) → (⟨S7, .i32⟩ : BufTy).Contents (Elt F)),
    StableHlo.nullary main_c_19 (constantI S_ 32 7#32) ]
theorem ops2_2_sub : (ops2_2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops2_2_fresh : (ops2_2 : List (HloOp τ sig (Elt F))).Forall fun op => op.fresh = ∅ := by
  simp only [List.Forall]; repeat' constructor
theorem ops2_2_keeps : (ops2_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 237 … 253 of the program (17 of window 2), in order. -/
abbrev ops2_3 : List (HloOp τ sig (Elt F)) :=
  [ StableHlo.TRef.unary (.of main_c_19 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S7, .i32⟩) (broadcastInDim S7 ![] bcast_S_S7),
    StableHlo.TRef.binary (.of main_v112 : StableHlo.TRef sig ⟨S7, .i32⟩) (.of main_call10_v1 : StableHlo.TRef sig ⟨S7, .i32⟩) (.of main_call10_v2 : StableHlo.TRef sig ⟨S7, .i32⟩) Host.divsi,
    StableHlo.TRef.unary (.of main_v112 : StableHlo.TRef sig ⟨S7, .i32⟩) (.of main_call10_v3 : StableHlo.TRef sig ⟨S7, .i32⟩) signi,
    StableHlo.TRef.unary (.of main_call10_v0 : StableHlo.TRef sig ⟨S_, .i32⟩) (.of main_call10_v4 : StableHlo.TRef sig ⟨S_, .i32⟩) signi,
    StableHlo.TRef.unary (.of main_call10_v4 : StableHlo.TRef sig ⟨S_, .i32⟩) (.of main_call10_v5 : StableHlo.TRef sig ⟨S7, .i32⟩) (broadcastInDim S7 ![] bcast_S_S7),
    StableHlo.TRef.binary (.of main_call10_v3 : StableHlo.TRef sig ⟨S7, .i32⟩) (.of main_call10_v5 : StableHlo.TRef sig ⟨S7, .i32⟩) (.of main_call10_v6 : StableHlo.TRef sig ⟨S7, .i1⟩) (cmpi .ne),
    StableHlo.TRef.unary (.of main_call10_v0 : StableHlo.TRef sig ⟨S_, .i32⟩) (.of main_call10_v7 : StableHlo.TRef sig ⟨S7, .i32⟩) (broadcastInDim S7 ![] bcast_S_S7),
    StableHlo.TRef.binary (.of main_v112 : StableHlo.TRef sig ⟨S7, .i32⟩) (.of main_call10_v7 : StableHlo.TRef sig ⟨S7, .i32⟩) (.of main_call10_v8 : StableHlo.TRef sig ⟨S7, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v9 : StableHlo.TRef sig ⟨S7, .i32⟩) (broadcastInDim S7 ![] bcast_S_S7),
    StableHlo.TRef.binary (.of main_call10_v8 : StableHlo.TRef sig ⟨S7, .i32⟩) (.of main_call10_v9 : StableHlo.TRef sig ⟨S7, .i32⟩) (.of main_call10_v10 : StableHlo.TRef sig ⟨S7, .i1⟩) (cmpi .ne),
    StableHlo.TRef.binary (.of main_call10_v6 : StableHlo.TRef sig ⟨S7, .i1⟩) (.of main_call10_v10 : StableHlo.TRef sig ⟨S7, .i1⟩) (.of main_call10_v11 : StableHlo.TRef sig ⟨S7, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v12 : StableHlo.TRef sig ⟨S7, .i32⟩) (broadcastInDim S7 ![] bcast_S_S7),
    StableHlo.TRef.binary (.of main_call10_v2 : StableHlo.TRef sig ⟨S7, .i32⟩) (.of main_call10_v12 : StableHlo.TRef sig ⟨S7, .i32⟩) (.of main_call10_v13 : StableHlo.TRef sig ⟨S7, .i32⟩) subi,
    StableHlo.TRef.ternary (.of main_call10_v11 : StableHlo.TRef sig ⟨S7, .i1⟩) (.of main_call10_v13 : StableHlo.TRef sig ⟨S7, .i32⟩) (.of main_call10_v2 : StableHlo.TRef sig ⟨S7, .i32⟩) (.of main_v113 : StableHlo.TRef sig ⟨S7, .i32⟩) select ]
theorem ops2_3_sub : (ops2_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops2_3_fresh : (ops2_3 : List (HloOp τ sig (Elt F))).Forall fun op => op.fresh = ∅ := by
  simp only [List.Forall]; repeat' constructor
theorem ops2_3_keeps : (ops2_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 254 … 262 of the program (9 of window 2), in order. -/
abbrev ops2_4 : List (HloOp τ sig (Elt F)) :=
  [ StableHlo.unary main_v91 main_v114 (broadcastInDim S7 ![] bcast_S_S7 : (⟨S_, .i32⟩ : BufTy).Contents (Elt F) → (⟨S7, .i32⟩ : BufTy).Contents (Elt F)),
    StableHlo.binary main_v114 main_v113 main_v115 (addi : (⟨S7, .i32⟩ : BufTy).Contents (Elt F) → (⟨S7, .i32⟩ : BufTy).Contents (Elt F) → (⟨S7, .i32⟩ : BufTy).Contents (Elt F)),
    StableHlo.nullary main_c_20 (constantI S_ 32 1#32),
    StableHlo.unary main_c_20 main_v116 (broadcastInDim S7 ![] bcast_S_S7 : (⟨S_, .i32⟩ : BufTy).Contents (Elt F) → (⟨S7, .i32⟩ : BufTy).Contents (Elt F)),
    StableHlo.binary main_v97 main_v116 main_v117 (addi : (⟨S7, .i32⟩ : BufTy).Contents (Elt F) → (⟨S7, .i32⟩ : BufTy).Contents (Elt F) → (⟨S7, .i32⟩ : BufTy).Contents (Elt F)),
    StableHlo.unary main_v117 main_v118 (negi : (⟨S7, .i32⟩ : BufTy).Contents (Elt F) → (⟨S7, .i32⟩ : BufTy).Contents (Elt F)),
    StableHlo.unary main_v95 main_v119 (broadcastInDim S7 ![] bcast_S_S7 : (⟨S_, .i32⟩ : BufTy).Contents (Elt F) → (⟨S7, .i32⟩ : BufTy).Contents (Elt F)),
    StableHlo.binary main_v118 main_v119 main_v120 (muli : (⟨S7, .i32⟩ : BufTy).Contents (Elt F) → (⟨S7, .i32⟩ : BufTy).Contents (Elt F) → (⟨S7, .i32⟩ : BufTy).Contents (Elt F)),
    StableHlo.nullary main_c_21 (constantI S_ 32 7#32) ]
theorem ops2_4_sub : (ops2_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops2_4_fresh : (ops2_4 : List (HloOp τ sig (Elt F))).Forall fun op => op.fresh = ∅ := by
  simp only [List.Forall]; repeat' constructor
theorem ops2_4_keeps : (ops2_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 263 … 279 of the program (17 of window 2), in order. -/
abbrev ops2_5 : List (HloOp τ sig (Elt F)) :=
  [ StableHlo.TRef.unary (.of main_c_21 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S7, .i32⟩) (broadcastInDim S7 ![] bcast_S_S7),
    StableHlo.TRef.binary (.of main_v120 : StableHlo.TRef sig ⟨S7, .i32⟩) (.of main_call11_v1 : StableHlo.TRef sig ⟨S7, .i32⟩) (.of main_call11_v2 : StableHlo.TRef sig ⟨S7, .i32⟩) Host.divsi,
    StableHlo.TRef.unary (.of main_v120 : StableHlo.TRef sig ⟨S7, .i32⟩) (.of main_call11_v3 : StableHlo.TRef sig ⟨S7, .i32⟩) signi,
    StableHlo.TRef.unary (.of main_call11_v0 : StableHlo.TRef sig ⟨S_, .i32⟩) (.of main_call11_v4 : StableHlo.TRef sig ⟨S_, .i32⟩) signi,
    StableHlo.TRef.unary (.of main_call11_v4 : StableHlo.TRef sig ⟨S_, .i32⟩) (.of main_call11_v5 : StableHlo.TRef sig ⟨S7, .i32⟩) (broadcastInDim S7 ![] bcast_S_S7),
    StableHlo.TRef.binary (.of main_call11_v3 : StableHlo.TRef sig ⟨S7, .i32⟩) (.of main_call11_v5 : StableHlo.TRef sig ⟨S7, .i32⟩) (.of main_call11_v6 : StableHlo.TRef sig ⟨S7, .i1⟩) (cmpi .ne),
    StableHlo.TRef.unary (.of main_call11_v0 : StableHlo.TRef sig ⟨S_, .i32⟩) (.of main_call11_v7 : StableHlo.TRef sig ⟨S7, .i32⟩) (broadcastInDim S7 ![] bcast_S_S7),
    StableHlo.TRef.binary (.of main_v120 : StableHlo.TRef sig ⟨S7, .i32⟩) (.of main_call11_v7 : StableHlo.TRef sig ⟨S7, .i32⟩) (.of main_call11_v8 : StableHlo.TRef sig ⟨S7, .i32⟩) Host.remsi,
    StableHlo.TRef.nullary (.of main_call11_c : StableHlo.TRef sig ⟨S_, .i32⟩) (constantI S_ 32 0#32),
    StableHlo.TRef.unary (.of main_call11_c : StableHlo.TRef sig ⟨S_, .i32⟩) (.of main_call11_v9 : StableHlo.TRef sig ⟨S7, .i32⟩) (broadcastInDim S7 ![] bcast_S_S7),
    StableHlo.TRef.binary (.of main_call11_v8 : StableHlo.TRef sig ⟨S7, .i32⟩) (.of main_call11_v9 : StableHlo.TRef sig ⟨S7, .i32⟩) (.of main_call11_v10 : StableHlo.TRef sig ⟨S7, .i1⟩) (cmpi .ne),
    StableHlo.TRef.binary (.of main_call11_v6 : StableHlo.TRef sig ⟨S7, .i1⟩) (.of main_call11_v10 : StableHlo.TRef sig ⟨S7, .i1⟩) (.of main_call11_v11 : StableHlo.TRef sig ⟨S7, .i1⟩) andi,
    StableHlo.TRef.nullary (.of main_call11_c_0 : StableHlo.TRef sig ⟨S_, .i32⟩) (constantI S_ 32 1#32),
    StableHlo.TRef.unary (.of main_call11_c_0 : StableHlo.TRef sig ⟨S_, .i32⟩) (.of main_call11_v12 : StableHlo.TRef sig ⟨S7, .i32⟩) (broadcastInDim S7 ![] bcast_S_S7),
    StableHlo.TRef.binary (.of main_call11_v2 : StableHlo.TRef sig ⟨S7, .i32⟩) (.of main_call11_v12 : StableHlo.TRef sig ⟨S7, .i32⟩) (.of main_call11_v13 : StableHlo.TRef sig ⟨S7, .i32⟩) subi,
    StableHlo.TRef.ternary (.of main_call11_v11 : StableHlo.TRef sig ⟨S7, .i1⟩) (.of main_call11_v13 : StableHlo.TRef sig ⟨S7, .i32⟩) (.of main_call11_v2 : StableHlo.TRef sig ⟨S7, .i32⟩) (.of main_v121 : StableHlo.TRef sig ⟨S7, .i32⟩) select ]
theorem ops2_5_sub : (ops2_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops2_5_fresh : (ops2_5 : List (HloOp τ sig (Elt F))).Forall fun op => op.fresh = ∅ := by
  simp only [List.Forall]; repeat' constructor
theorem ops2_5_keeps : (ops2_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 280 … 308 of the program (29 of window 2), in order. -/
abbrev ops2_6 : List (HloOp τ sig (Elt F)) :=
  [ StableHlo.unary main_v91 main_v122 (broadcastInDim S7 ![] bcast_S_S7 : (⟨S_, .i32⟩ : BufTy).Contents (Elt F) → (⟨S7, .i32⟩ : BufTy).Contents (Elt F)),
    StableHlo.binary main_v122 main_v121 main_v123 (subi : (⟨S7, .i32⟩ : BufTy).Contents (Elt F) → (⟨S7, .i32⟩ : BufTy).Contents (Elt F) → (⟨S7, .i32⟩ : BufTy).Contents (Elt F)),
    StableHlo.nullary main_v124 (iotaInDim S64 32 0),
    StableHlo.nullary main_v125 (iotaInDim S64 32 0),
    StableHlo.unary main_v124 main_v126 (broadcastInDim S1x64 ![1] bcast_S64_S1x64_1 : (⟨S64, .i32⟩ : BufTy).Contents (Elt F) → (⟨S1x64, .i32⟩ : BufTy).Contents (Elt F)),
    StableHlo.unary main_v102 main_v127 (broadcastInDim S7x1 ![0] bcast_S7_S7x1_0 : (⟨S7, .i32⟩ : BufTy).Contents (Elt F) → (⟨S7x1, .i32⟩ : BufTy).Contents (Elt F)),
    StableHlo.unary main_v126 main_v128 (broadcastInDim S7x64 ![0, 1] bcast_S1x64_S7x64_0_1 : (⟨S1x64, .i32⟩ : BufTy).Contents (Elt F) → (⟨S7x64, .i32⟩ : BufTy).Contents (Elt F)),
    StableHlo.unary main_v127 main_v129 (broadcastInDim S7x64 ![0, 1] bcast_S7x1_S7x64_0_1 : (⟨S7x1, .i32⟩ : BufTy).Contents (Elt F) → (⟨S7x64, .i32⟩ : BufTy).Contents (Elt F)),
    StableHlo.binary main_v128 main_v129 main_v130 (cmpi .sge : (⟨S7x64, .i32⟩ : BufTy).Contents (Elt F) → (⟨S7x64, .i32⟩ : BufTy).Contents (Elt F) → (⟨S7x64, .i1⟩ : BufTy).Contents (Elt F)),
    StableHlo.unary main_v124 main_v131 (broadcastInDim S1x64 ![1] bcast_S64_S1x64_1 : (⟨S64, .i32⟩ : BufTy).Contents (Elt F) → (⟨S1x64, .i32⟩ : BufTy).Contents (Elt F)),
    StableHlo.unary main_v110 main_v132 (broadcastInDim S7x1 ![0] bcast_S7_S7x1_0 : (⟨S7, .i32⟩ : BufTy).Contents (Elt F) → (⟨S7x1, .i32⟩ : BufTy).Contents (Elt F)),
    StableHlo.unary main_v131 main_v133 (broadcastInDim S7x64 ![0, 1] bcast_S1x64_S7x64_0_1 : (⟨S1x64, .i32⟩ : BufTy).Contents (Elt F) → (⟨S7x64, .i32⟩ : BufTy).Contents (Elt F)),
    StableHlo.unary main_v132 main_v134 (broadcastInDim S7x64 ![0, 1] bcast_S7x1_S7x64_0_1 : (⟨S7x1, .i32⟩ : BufTy).Contents (Elt F) → (⟨S7x64, .i32⟩ : BufTy).Contents (Elt F)),
    StableHlo.binary main_v133 main_v134 main_v135 (cmpi .slt : (⟨S7x64, .i32⟩ : BufTy).Contents (Elt F) → (⟨S7x64, .i32⟩ : BufTy).Contents (Elt F) → (⟨S7x64, .i1⟩ : BufTy).Contents (Elt F)),
    StableHlo.binary main_v130 main_v135 main_v136 (andi : (⟨S7x64, .i1⟩ : BufTy).Contents (Elt F) → (⟨S7x64, .i1⟩ : BufTy).Contents (Elt F) → (⟨S7x64, .i1⟩ : BufTy).Contents (Elt F)),
    StableHlo.unary main_v125 main_v137 (broadcastInDim S1x64 ![1] bcast_S64_S1x64_1 : (⟨S64, .i32⟩ : BufTy).Contents (Elt F) → (⟨S1x64, .i32⟩ : BufTy).Contents (Elt F)),
    StableHlo.unary main_v115 main_v138 (broadcastInDim S7x1 ![0] bcast_S7_S7x1_0 : (⟨S7, .i32⟩ : BufTy).Contents (Elt F) → (⟨S7x1, .i32⟩ : BufTy).Contents (Elt F)),
    StableHlo.unary main_v137 main_v139 (broadcastInDim S7x64 ![0, 1] bcast_S1x64_S7x64_0_1 : (⟨S1x64, .i32⟩ : BufTy).Contents (Elt F) → (⟨S7x64, .i32⟩ : BufTy).Contents (Elt F)),
    StableHlo.unary main_v138 main_v140 (broadcastInDim S7x64 ![0, 1] bcast_S7x1_S7x64_0_1 : (⟨S7x1, .i32⟩ : BufTy).Contents (Elt F) → (⟨S7x64, .i32⟩ : BufTy).Contents (Elt F)),
    StableHlo.binary main_v139 main_v140 main_v141 (cmpi .sge : (⟨S7x64, .i32⟩ : BufTy).Contents (Elt F) → (⟨S7x64, .i32⟩ : BufTy).Contents (Elt F) → (⟨S7x64, .i1⟩ : BufTy).Contents (Elt F)),
    StableHlo.unary main_v125 main_v142 (broadcastInDim S1x64 ![1] bcast_S64_S1x64_1 : (⟨S64, .i32⟩ : BufTy).Contents (Elt F) → (⟨S1x64, .i32⟩ : BufTy).Contents (Elt F)),
    StableHlo.unary main_v123 main_v143 (broadcastInDim S7x1 ![0] bcast_S7_S7x1_0 : (⟨S7, .i32⟩ : BufTy).Contents (Elt F) → (⟨S7x1, .i32⟩ : BufTy).Contents (Elt F)),
    StableHlo.unary main_v142 main_v144 (broadcastInDim S7x64 ![0, 1] bcast_S1x64_S7x64_0_1 : (⟨S1x64, .i32⟩ : BufTy).Contents (Elt F) → (⟨S7x64, .i32⟩ : BufTy).Contents (Elt F)),
    StableHlo.unary main_v143 main_v145 (broadcastInDim S7x64 ![0, 1] bcast_S7x1_S7x64_0_1 : (⟨S7x1, .i32⟩ : BufTy).Contents (Elt F) → (⟨S7x64, .i32⟩ : BufTy).Contents (Elt F)),
    StableHlo.binary main_v144 main_v145 main_v146 (cmpi .slt : (⟨S7x64, .i32⟩ : BufTy).Contents (Elt F) → (⟨S7x64, .i32⟩ : BufTy).Contents (Elt F) → (⟨S7x64, .i1⟩ : BufTy).Contents (Elt F)),
    StableHlo.binary main_v141 main_v146 main_v147 (andi : (⟨S7x64, .i1⟩ : BufTy).Contents (Elt F) → (⟨S7x64, .i1⟩ : BufTy).Contents (Elt F) → (⟨S7x64, .i1⟩ : BufTy).Contents (Elt F)),
    StableHlo.unary main_v136 main_v148 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v149 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_22 (constant S_ .f32 0xFF800000#32) ]
theorem ops2_6_sub : (ops2_6 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops2_6_fresh : (ops2_6 : List (HloOp τ sig (Elt F))).Forall fun op => op.fresh = ∅ := by
  simp only [List.Forall]; repeat' constructor
theorem ops2_6_keeps : (ops2_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 309 … 312 of the program (4 of window 2), in order. -/
abbrev ops2_7 : List (HloOp τ sig (Elt F)) :=
  [ StableHlo.TRef.unary (.of main_v148 : StableHlo.TRef sig ⟨S7x1x64x1, .i1⟩) (.of main_call12_v0 : StableHlo.TRef sig ⟨S7x512x64x64, .i1⟩) (broadcastInDim S7x512x64x64 ![0, 1, 2, 3] bcast_S7x1x64x1_S7x512x64x64_0_1_2_3),
    StableHlo.TRef.unary (.of main_v149 : StableHlo.TRef sig ⟨S1x512x64x64, .f32⟩) (.of main_call12_v1 : StableHlo.TRef sig ⟨S7x512x64x64, .f32⟩) (broadcastInDim S7x512x64x64 ![0, 1, 2, 3] bcast_S1x512x64x64_S7x512x64x64_0_1_2_3),
    StableHlo.TRef.unary (.of main_cst_22 : StableHlo.TRef sig ⟨S_, .f32⟩) (.of main_call12_v2 : StableHlo.TRef sig ⟨S7x512x64x64, .f32⟩) (broadcastInDim S7x512x64x64 ![] bcast_S_S7x512x64x64),
    StableHlo.TRef.ternary (.of main_call12_v0 : StableHlo.TRef sig ⟨S7x512x64x64, .i1⟩) (.of main_call12_v1 : StableHlo.TRef sig ⟨S7x512x64x64, .f32⟩) (.of main_call12_v2 : StableHlo.TRef sig ⟨S7x512x64x64, .f32⟩) (.of main_v150 : StableHlo.TRef sig ⟨S7x512x64x64, .f32⟩) select ]
theorem ops2_7_sub : (ops2_7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops2_7_fresh : (ops2_7 : List (HloOp τ sig (Elt F))).Forall fun op => op.fresh = ∅ := by
  simp only [List.Forall]; repeat' constructor
theorem ops2_7_keeps : (ops2_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 313 … 316 of the program (4 of window 2), in order. -/
abbrev ops2_8 : List (HloOp τ sig (Elt F)) :=
  [ StableHlo.nullary main_cst_23 (constant S_ .f32 0xFF800000#32),
    StableHlo.binary main_v150 main_cst_23 main_v151 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v147 main_v152 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v151 main_v153 (broadcastInDim S7x512x1x64 ![0, 1, 3] bcast_S7x512x64_S7x512x1x64_0_1_3 : (⟨S7x512x64, .f32⟩ : BufTy).Contents (Elt F) → (⟨S7x512x1x64, .f32⟩ : BufTy).Contents (Elt F)) ]
theorem ops2_8_sub : (ops2_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
theorem ops2_8_fresh : (ops2_8 : List (HloOp τ sig (Elt F))).Forall fun op => op.fresh = ∅ := by
  simp only [List.Forall]; repeat' constructor
theorem ops2_8_keeps : (ops2_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops2_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part2_eq (c : Dev nD) : main_part2 (F := F) c = Pipeline.chainK [StableHlo.seq ops2_0, StableHlo.seq ops2_1, StableHlo.seq ops2_2, StableHlo.seq ops2_3, StableHlo.seq ops2_4, StableHlo.seq ops2_5, StableHlo.seq ops2_6, StableHlo.seq ops2_7] (StableHlo.seq ops2_8) := by
  chain_rfl

end Cert.ReferenceIdeal.Host

end
-- ==== Proof.RefOps03.lean ====
/- Window 3 of the program's @main, every called function's body written out in place: 127 operations,
  cut into 11 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 317 … 317 of the program (1 of window 3), in order. -/
abbrev ops3_0 : List (HloOp τ sig (Elt F)) :=
  [ StableHlo.nullary main_cst_24 (constant S_ .f32 0xFF800000#32) ]
theorem ops3_0_sub : (ops3_0 : List (HloOp τ sig (Elt F))).Forall fun op => op.bufs ⊆ StableHlo.tcRefs τ sig :=
  StableHlo.nullary_bufs_sub ..
theorem ops3_0_fresh : (ops3_0 : List (HloOp τ sig (Elt F))).Forall fun op => op.fresh = ∅ := by
  simp only [List.Forall]; repeat' constructor
theorem ops3_0_keeps : (ops3_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 318 … 321 of the program (4 of window 3), in order. -/
abbrev ops3_1 : List (HloOp τ sig (Elt F)) :=
  [ StableHlo.TRef.unary (.of main_v152 : StableHlo.TRef sig ⟨S1x1x7x64, .i1⟩) (.of main_call13_v0 : StableHlo.TRef sig ⟨S7x512x7x64, .i1⟩) (broadcastInDim S7x512x7x64 ![0, 1, 2, 3] bcast_S1x1x7x64_S7x512x7x64_0_1_2_3),
    StableHlo.TRef.unary (.of main_v153 : StableHlo.TRef sig ⟨S7x512x1x64, .f32⟩) (.of main_call13_v1 : StableHlo.TRef sig ⟨S7x512x7x64, .f32⟩) (broadcastInDim S7x512x7x64 ![0, 1, 2, 3] bcast_S7x512x1x64_S7x512x7x64_0_1_2_3),
    StableHlo.TRef.unary (.of main_cst_24 : StableHlo.TRef sig ⟨S_, .f32⟩) (.of main_call13_v2 : StableHlo.TRef sig ⟨S7x512x7x64, .f32⟩) (broadcastInDim S7x512x7x64 ![] bcast_S_S7x512x7x64),
    StableHlo.TRef.ternary (.of main_call13_v0 : StableHlo.TRef sig ⟨S7x512x7x64, .i1⟩) (.of main_call13_v1 : StableHlo.TRef sig ⟨S7x512x7x64, .f32⟩) (.of main_call13_v2 : StableHlo.TRef sig ⟨S7x512x7x64, .f32⟩) (.of main_v154 : StableHlo.TRef sig ⟨S7x512x7x64, .f32⟩) select ]
theorem ops3_1_sub : (ops3_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops3_1_fresh : (ops3_1 : List (HloOp τ sig (Elt F))).Forall fun op => op.fresh = ∅ := by
  simp only [List.Forall]; repeat' constructor
theorem ops3_1_keeps : (ops3_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 322 … 340 of the program (19 of window 3), in order. -/
abbrev ops3_2 : List (HloOp τ sig (Elt F)) :=
  [ StableHlo.nullary main_cst_25 (constant S_ .f32 0xFF800000#32),
    StableHlo.binary main_v154 main_cst_25 main_v155 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v155 main_v156 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v156 main_v157 rfl shapeCasts_S512x7x7_S25088,
    StableHlo.unary main_v18 main_v158 ((extractStridedSlice S1x1 ![1, 1] · slices_S3x4_S1x1_1_1) : (⟨S3x4, .i32⟩ : BufTy).Contents (Elt F) → (⟨S1x1, .i32⟩ : BufTy).Contents (Elt F)),
    StableHlo.reshape main_v158 main_v159 rfl shapeCasts_S1x1_S_,
    StableHlo.unary main_v18 main_v160 ((extractStridedSlice S1x1 ![1, 3] · slices_S3x4_S1x1_1_3) : (⟨S3x4, .i32⟩ : BufTy).Contents (Elt F) → (⟨S1x1, .i32⟩ : BufTy).Contents (Elt F)),
    StableHlo.reshape main_v160 main_v161 rfl shapeCasts_S1x1_S_,
    StableHlo.unary main_v18 main_v162 ((extractStridedSlice S1x1 ![1, 0] · slices_S3x4_S1x1_1_0) : (⟨S3x4, .i32⟩ : BufTy).Contents (Elt F) → (⟨S1x1, .i32⟩ : BufTy).Contents (Elt F)),
    StableHlo.reshape main_v162 main_v163 rfl shapeCasts_S1x1_S_,
    StableHlo.unary main_v18 main_v164 ((extractStridedSlice S1x1 ![1, 2] · slices_S3x4_S1x1_1_2) : (⟨S3x4, .i32⟩ : BufTy).Contents (Elt F) → (⟨S1x1, .i32⟩ : BufTy).Contents (Elt F)),
    StableHlo.reshape main_v164 main_v165 rfl shapeCasts_S1x1_S_,
    StableHlo.binary main_v161 main_v159 main_v166 (subi : (⟨S_, .i32⟩ : BufTy).Contents (Elt F) → (⟨S_, .i32⟩ : BufTy).Contents (Elt F) → (⟨S_, .i32⟩ : BufTy).Contents (Elt F)),
    StableHlo.binary main_v165 main_v163 main_v167 (subi : (⟨S_, .i32⟩ : BufTy).Contents (Elt F) → (⟨S_, .i32⟩ : BufTy).Contents (Elt F) → (⟨S_, .i32⟩ : BufTy).Contents (Elt F)),
    StableHlo.nullary main_v168 (iotaInDim S7 32 0),
    StableHlo.nullary main_v169 (iotaInDim S7 32 0),
    StableHlo.unary main_v166 main_v170 (broadcastInDim S7 ![] bcast_S_S7 : (⟨S_, .i32⟩ : BufTy).Contents (Elt F) → (⟨S7, .i32⟩ : BufTy).Contents (Elt F)),
    StableHlo.binary main_v168 main_v170 main_v171 (muli : (⟨S7, .i32⟩ : BufTy).Contents (Elt F) → (⟨S7, .i32⟩ : BufTy).Contents (Elt F) → (⟨S7, .i32⟩ : BufTy).Contents (Elt F)),
    StableHlo.nullary main_c_26 (constantI S_ 32 7#32) ]
theorem ops3_2_sub : (ops3_2 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops3_2_fresh : (ops3_2 : List (HloOp τ sig (Elt F))).Forall fun op => op.fresh = ∅ := by
  simp only [List.Forall]; repeat' constructor
theorem ops3_2_keeps : (ops3_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 341 … 357 of the program (17 of window 3), in order. -/
abbrev ops3_3 : List (HloOp τ sig (Elt F)) :=
  [ StableHlo.TRef.unary (.of main_c_26 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S7, .i32⟩) (broadcastInDim S7 ![] bcast_S_S7),
    StableHlo.TRef.binary (.of main_v171 : StableHlo.TRef sig ⟨S7, .i32⟩) (.of main_call14_v1 : StableHlo.TRef sig ⟨S7, .i32⟩) (.of main_call14_v2 : StableHlo.TRef sig ⟨S7, .i32⟩) Host.divsi,
    StableHlo.TRef.unary (.of main_v171 : StableHlo.TRef sig ⟨S7, .i32⟩) (.of main_call14_v3 : StableHlo.TRef sig ⟨S7, .i32⟩) signi,
    StableHlo.TRef.unary (.of main_call14_v0 : StableHlo.TRef sig ⟨S_, .i32⟩) (.of main_call14_v4 : StableHlo.TRef sig ⟨S_, .i32⟩) signi,
    StableHlo.TRef.unary (.of main_call14_v4 : StableHlo.TRef sig ⟨S_, .i32⟩) (.of main_call14_v5 : StableHlo.TRef sig ⟨S7, .i32⟩) (broadcastInDim S7 ![] bcast_S_S7),
    StableHlo.TRef.binary (.of main_call14_v3 : StableHlo.TRef sig ⟨S7, .i32⟩) (.of main_call14_v5 : StableHlo.TRef sig ⟨S7, .i32⟩) (.of main_call14_v6 : StableHlo.TRef sig ⟨S7, .i1⟩) (cmpi .ne),
    StableHlo.TRef.unary (.of main_call14_v0 : StableHlo.TRef sig ⟨S_, .i32⟩) (.of main_call14_v7 : StableHlo.TRef sig ⟨S7, .i32⟩) (broadcastInDim S7 ![] bcast_S_S7),
    StableHlo.TRef.binary (.of main_v171 : StableHlo.TRef sig ⟨S7, .i32⟩) (.of main_call14_v7 : StableHlo.TRef sig ⟨S7, .i32⟩) (.of main_call14_v8 : StableHlo.TRef sig ⟨S7, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v9 : StableHlo.TRef sig ⟨S7, .i32⟩) (broadcastInDim S7 ![] bcast_S_S7),
    StableHlo.TRef.binary (.of main_call14_v8 : StableHlo.TRef sig ⟨S7, .i32⟩) (.of main_call14_v9 : StableHlo.TRef sig ⟨S7, .i32⟩) (.of main_call14_v10 : StableHlo.TRef sig ⟨S7, .i1⟩) (cmpi .ne),
    StableHlo.TRef.binary (.of main_call14_v6 : StableHlo.TRef sig ⟨S7, .i1⟩) (.of main_call14_v10 : StableHlo.TRef sig ⟨S7, .i1⟩) (.of main_call14_v11 : StableHlo.TRef sig ⟨S7, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v12 : StableHlo.TRef sig ⟨S7, .i32⟩) (broadcastInDim S7 ![] bcast_S_S7),
    StableHlo.TRef.binary (.of main_call14_v2 : StableHlo.TRef sig ⟨S7, .i32⟩) (.of main_call14_v12 : StableHlo.TRef sig ⟨S7, .i32⟩) (.of main_call14_v13 : StableHlo.TRef sig ⟨S7, .i32⟩) subi,
    StableHlo.TRef.ternary (.of main_call14_v11 : StableHlo.TRef sig ⟨S7, .i1⟩) (.of main_call14_v13 : StableHlo.TRef sig ⟨S7, .i32⟩) (.of main_call14_v2 : StableHlo.TRef sig ⟨S7, .i32⟩) (.of main_v172 : StableHlo.TRef sig ⟨S7, .i32⟩) select ]
theorem ops3_3_sub : (ops3_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops3_3_fresh : (ops3_3 : List (HloOp τ sig (Elt F))).Forall fun op => op.fresh = ∅ := by
  simp only [List.Forall]; repeat' constructor
theorem ops3_3_keeps : (ops3_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 358 … 366 of the program (9 of window 3), in order. -/
abbrev ops3_4 : List (HloOp τ sig (Elt F)) :=
  [ StableHlo.unary main_v159 main_v173 (broadcastInDim S7 ![] bcast_S_S7 : (⟨S_, .i32⟩ : BufTy).Contents (Elt F) → (⟨S7, .i32⟩ : BufTy).Contents (Elt F)),
    StableHlo.binary main_v173 main_v172 main_v174 (addi : (⟨S7, .i32⟩ : BufTy).Contents (Elt F) → (⟨S7, .i32⟩ : BufTy).Contents (Elt F) → (⟨S7, .i32⟩ : BufTy).Contents (Elt F)),
    StableHlo.nullary main_c_27 (constantI S_ 32 1#32),
    StableHlo.unary main_c_27 main_v175 (broadcastInDim S7 ![] bcast_S_S7 : (⟨S_, .i32⟩ : BufTy).Contents (Elt F) → (⟨S7, .i32⟩ : BufTy).Contents (Elt F)),
    StableHlo.binary main_v168 main_v175 main_v176 (addi : (⟨S7, .i32⟩ : BufTy).Contents (Elt F) → (⟨S7, .i32⟩ : BufTy).Contents (Elt F) → (⟨S7, .i32⟩ : BufTy).Contents (Elt F)),
    StableHlo.unary main_v176 main_v177 (negi : (⟨S7, .i32⟩ : BufTy).Contents (Elt F) → (⟨S7, .i32⟩ : BufTy).Contents (Elt F)),
    StableHlo.unary main_v166 main_v178 (broadcastInDim S7 ![] bcast_S_S7 : (⟨S_, .i32⟩ : BufTy).Contents (Elt F) → (⟨S7, .i32⟩ : BufTy).Contents (Elt F)),
    StableHlo.binary main_v177 main_v178 main_v179 (muli : (⟨S7, .i32⟩ : BufTy).Contents (Elt F) → (⟨S7, .i32⟩ : BufTy).Contents (Elt F) → (⟨S7, .i32⟩ : BufTy).Contents (Elt F)),
    StableHlo.nullary main_c_28 (constantI S_ 32 7#32) ]
theorem ops3_4_sub : (ops3_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops3_4_fresh : (ops3_4 : List (HloOp τ sig (Elt F))).Forall fun op => op.fresh = ∅ := by
  simp only [List.Forall]; repeat' constructor
theorem ops3_4_keeps : (ops3_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 367 … 383 of the program (17 of window 3), in order. -/
abbrev ops3_5 : List (HloOp τ sig (Elt F)) :=
  [ StableHlo.TRef.unary (.of main_c_28 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S7, .i32⟩) (broadcastInDim S7 ![] bcast_S_S7),
    StableHlo.TRef.binary (.of main_v179 : StableHlo.TRef sig ⟨S7, .i32⟩) (.of main_call15_v1 : StableHlo.TRef sig ⟨S7, .i32⟩) (.of main_call15_v2 : StableHlo.TRef sig ⟨S7, .i32⟩) Host.divsi,
    StableHlo.TRef.unary (.of main_v179 : StableHlo.TRef sig ⟨S7, .i32⟩) (.of main_call15_v3 : StableHlo.TRef sig ⟨S7, .i32⟩) signi,
    StableHlo.TRef.unary (.of main_call15_v0 : StableHlo.TRef sig ⟨S_, .i32⟩) (.of main_call15_v4 : StableHlo.TRef sig ⟨S_, .i32⟩) signi,
    StableHlo.TRef.unary (.of main_call15_v4 : StableHlo.TRef sig ⟨S_, .i32⟩) (.of main_call15_v5 : StableHlo.TRef sig ⟨S7, .i32⟩) (broadcastInDim S7 ![] bcast_S_S7),
    StableHlo.TRef.binary (.of main_call15_v3 : StableHlo.TRef sig ⟨S7, .i32⟩) (.of main_call15_v5 : StableHlo.TRef sig ⟨S7, .i32⟩) (.of main_call15_v6 : StableHlo.TRef sig ⟨S7, .i1⟩) (cmpi .ne),
    StableHlo.TRef.unary (.of main_call15_v0 : StableHlo.TRef sig ⟨S_, .i32⟩) (.of main_call15_v7 : StableHlo.TRef sig ⟨S7, .i32⟩) (broadcastInDim S7 ![] bcast_S_S7),
    StableHlo.TRef.binary (.of main_v179 : StableHlo.TRef sig ⟨S7, .i32⟩) (.of main_call15_v7 : StableHlo.TRef sig ⟨S7, .i32⟩) (.of main_call15_v8 : StableHlo.TRef sig ⟨S7, .i32⟩) Host.remsi,
    StableHlo.TRef.nullary (.of main_call15_c : StableHlo.TRef sig ⟨S_, .i32⟩) (constantI S_ 32 0#32),
    StableHlo.TRef.unary (.of main_call15_c : StableHlo.TRef sig ⟨S_, .i32⟩) (.of main_call15_v9 : StableHlo.TRef sig ⟨S7, .i32⟩) (broadcastInDim S7 ![] bcast_S_S7),
    StableHlo.TRef.binary (.of main_call15_v8 : StableHlo.TRef sig ⟨S7, .i32⟩) (.of main_call15_v9 : StableHlo.TRef sig ⟨S7, .i32⟩) (.of main_call15_v10 : StableHlo.TRef sig ⟨S7, .i1⟩) (cmpi .ne),
    StableHlo.TRef.binary (.of main_call15_v6 : StableHlo.TRef sig ⟨S7, .i1⟩) (.of main_call15_v10 : StableHlo.TRef sig ⟨S7, .i1⟩) (.of main_call15_v11 : StableHlo.TRef sig ⟨S7, .i1⟩) andi,
    StableHlo.TRef.nullary (.of main_call15_c_0 : StableHlo.TRef sig ⟨S_, .i32⟩) (constantI S_ 32 1#32),
    StableHlo.TRef.unary (.of main_call15_c_0 : StableHlo.TRef sig ⟨S_, .i32⟩) (.of main_call15_v12 : StableHlo.TRef sig ⟨S7, .i32⟩) (broadcastInDim S7 ![] bcast_S_S7),
    StableHlo.TRef.binary (.of main_call15_v2 : StableHlo.TRef sig ⟨S7, .i32⟩) (.of main_call15_v12 : StableHlo.TRef sig ⟨S7, .i32⟩) (.of main_call15_v13 : StableHlo.TRef sig ⟨S7, .i32⟩) subi,
    StableHlo.TRef.ternary (.of main_call15_v11 : StableHlo.TRef sig ⟨S7, .i1⟩) (.of main_call15_v13 : StableHlo.TRef sig ⟨S7, .i32⟩) (.of main_call15_v2 : StableHlo.TRef sig ⟨S7, .i32⟩) (.of main_v180 : StableHlo.TRef sig ⟨S7, .i32⟩) select ]
theorem ops3_5_sub : (ops3_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops3_5_fresh : (ops3_5 : List (HloOp τ sig (Elt F))).Forall fun op => op.fresh = ∅ := by
  simp only [List.Forall]; repeat' constructor
theorem ops3_5_keeps : (ops3_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 384 … 388 of the program (5 of window 3), in order. -/
abbrev ops3_6 : List (HloOp τ sig (Elt F)) :=
  [ StableHlo.unary main_v159 main_v181 (broadcastInDim S7 ![] bcast_S_S7 : (⟨S_, .i32⟩ : BufTy).Contents (Elt F) → (⟨S7, .i32⟩ : BufTy).Contents (Elt F)),
    StableHlo.binary main_v181 main_v180 main_v182 (subi : (⟨S7, .i32⟩ : BufTy).Contents (Elt F) → (⟨S7, .i32⟩ : BufTy).Contents (Elt F) → (⟨S7, .i32⟩ : BufTy).Contents (Elt F)),
    StableHlo.unary main_v167 main_v183 (broadcastInDim S7 ![] bcast_S_S7 : (⟨S_, .i32⟩ : BufTy).Contents (Elt F) → (⟨S7, .i32⟩ : BufTy).Contents (Elt F)),
    StableHlo.binary main_v169 main_v183 main_v184 (muli : (⟨S7, .i32⟩ : BufTy).Contents (Elt F) → (⟨S7, .i32⟩ : BufTy).Contents (Elt F) → (⟨S7, .i32⟩ : BufTy).Contents (Elt F)),
    StableHlo.nullary main_c_29 (constantI S_ 32 7#32) ]
theorem ops3_6_sub : (ops3_6 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops3_6_fresh : (ops3_6 : List (HloOp τ sig (Elt F))).Forall fun op => op.fresh = ∅ := by
  simp only [List.Forall]; repeat' constructor
theorem ops3_6_keeps : (ops3_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 389 … 405 of the program (17 of window 3), in order. -/
abbrev ops3_7 : List (HloOp τ sig (Elt F)) :=
  [ StableHlo.TRef.unary (.of main_c_29 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S7, .i32⟩) (broadcastInDim S7 ![] bcast_S_S7),
    StableHlo.TRef.binary (.of main_v184 : StableHlo.TRef sig ⟨S7, .i32⟩) (.of main_call16_v1 : StableHlo.TRef sig ⟨S7, .i32⟩) (.of main_call16_v2 : StableHlo.TRef sig ⟨S7, .i32⟩) Host.divsi,
    StableHlo.TRef.unary (.of main_v184 : StableHlo.TRef sig ⟨S7, .i32⟩) (.of main_call16_v3 : StableHlo.TRef sig ⟨S7, .i32⟩) signi,
    StableHlo.TRef.unary (.of main_call16_v0 : StableHlo.TRef sig ⟨S_, .i32⟩) (.of main_call16_v4 : StableHlo.TRef sig ⟨S_, .i32⟩) signi,
    StableHlo.TRef.unary (.of main_call16_v4 : StableHlo.TRef sig ⟨S_, .i32⟩) (.of main_call16_v5 : StableHlo.TRef sig ⟨S7, .i32⟩) (broadcastInDim S7 ![] bcast_S_S7),
    StableHlo.TRef.binary (.of main_call16_v3 : StableHlo.TRef sig ⟨S7, .i32⟩) (.of main_call16_v5 : StableHlo.TRef sig ⟨S7, .i32⟩) (.of main_call16_v6 : StableHlo.TRef sig ⟨S7, .i1⟩) (cmpi .ne),
    StableHlo.TRef.unary (.of main_call16_v0 : StableHlo.TRef sig ⟨S_, .i32⟩) (.of main_call16_v7 : StableHlo.TRef sig ⟨S7, .i32⟩) (broadcastInDim S7 ![] bcast_S_S7),
    StableHlo.TRef.binary (.of main_v184 : StableHlo.TRef sig ⟨S7, .i32⟩) (.of main_call16_v7 : StableHlo.TRef sig ⟨S7, .i32⟩) (.of main_call16_v8 : StableHlo.TRef sig ⟨S7, .i32⟩) Host.remsi,
    StableHlo.TRef.nullary (.of main_call16_c : StableHlo.TRef sig ⟨S_, .i32⟩) (constantI S_ 32 0#32),
    StableHlo.TRef.unary (.of main_call16_c : StableHlo.TRef sig ⟨S_, .i32⟩) (.of main_call16_v9 : StableHlo.TRef sig ⟨S7, .i32⟩) (broadcastInDim S7 ![] bcast_S_S7),
    StableHlo.TRef.binary (.of main_call16_v8 : StableHlo.TRef sig ⟨S7, .i32⟩) (.of main_call16_v9 : StableHlo.TRef sig ⟨S7, .i32⟩) (.of main_call16_v10 : StableHlo.TRef sig ⟨S7, .i1⟩) (cmpi .ne),
    StableHlo.TRef.binary (.of main_call16_v6 : StableHlo.TRef sig ⟨S7, .i1⟩) (.of main_call16_v10 : StableHlo.TRef sig ⟨S7, .i1⟩) (.of main_call16_v11 : StableHlo.TRef sig ⟨S7, .i1⟩) andi,
    StableHlo.TRef.nullary (.of main_call16_c_0 : StableHlo.TRef sig ⟨S_, .i32⟩) (constantI S_ 32 1#32),
    StableHlo.TRef.unary (.of main_call16_c_0 : StableHlo.TRef sig ⟨S_, .i32⟩) (.of main_call16_v12 : StableHlo.TRef sig ⟨S7, .i32⟩) (broadcastInDim S7 ![] bcast_S_S7),
    StableHlo.TRef.binary (.of main_call16_v2 : StableHlo.TRef sig ⟨S7, .i32⟩) (.of main_call16_v12 : StableHlo.TRef sig ⟨S7, .i32⟩) (.of main_call16_v13 : StableHlo.TRef sig ⟨S7, .i32⟩) subi,
    StableHlo.TRef.ternary (.of main_call16_v11 : StableHlo.TRef sig ⟨S7, .i1⟩) (.of main_call16_v13 : StableHlo.TRef sig ⟨S7, .i32⟩) (.of main_call16_v2 : StableHlo.TRef sig ⟨S7, .i32⟩) (.of main_v185 : StableHlo.TRef sig ⟨S7, .i32⟩) select ]
theorem ops3_7_sub : (ops3_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops3_7_fresh : (ops3_7 : List (HloOp τ sig (Elt F))).Forall fun op => op.fresh = ∅ := by
  simp only [List.Forall]; repeat' constructor
theorem ops3_7_keeps : (ops3_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 406 … 414 of the program (9 of window 3), in order. -/
abbrev ops3_8 : List (HloOp τ sig (Elt F)) :=
  [ StableHlo.unary main_v163 main_v186 (broadcastInDim S7 ![] bcast_S_S7 : (⟨S_, .i32⟩ : BufTy).Contents (Elt F) → (⟨S7, .i32⟩ : BufTy).Contents (Elt F)),
    StableHlo.binary main_v186 main_v185 main_v187 (addi : (⟨S7, .i32⟩ : BufTy).Contents (Elt F) → (⟨S7, .i32⟩ : BufTy).Contents (Elt F) → (⟨S7, .i32⟩ : BufTy).Contents (Elt F)),
    StableHlo.nullary main_c_30 (constantI S_ 32 1#32),
    StableHlo.unary main_c_30 main_v188 (broadcastInDim S7 ![] bcast_S_S7 : (⟨S_, .i32⟩ : BufTy).Contents (Elt F) → (⟨S7, .i32⟩ : BufTy).Contents (Elt F)),
    StableHlo.binary main_v169 main_v188 main_v189 (addi : (⟨S7, .i32⟩ : BufTy).Contents (Elt F) → (⟨S7, .i32⟩ : BufTy).Contents (Elt F) → (⟨S7, .i32⟩ : BufTy).Contents (Elt F)),
    StableHlo.unary main_v189 main_v190 (negi : (⟨S7, .i32⟩ : BufTy).Contents (Elt F) → (⟨S7, .i32⟩ : BufTy).Contents (Elt F)),
    StableHlo.unary main_v167 main_v191 (broadcastInDim S7 ![] bcast_S_S7 : (⟨S_, .i32⟩ : BufTy).Contents (Elt F) → (⟨S7, .i32⟩ : BufTy).Contents (Elt F)),
    StableHlo.binary main_v190 main_v191 main_v192 (muli : (⟨S7, .i32⟩ : BufTy).Contents (Elt F) → (⟨S7, .i32⟩ : BufTy).Contents (Elt F) → (⟨S7, .i32⟩ : BufTy).Contents (Elt F)),
    StableHlo.nullary main_c_31 (constantI S_ 32 7#32) ]
theorem ops3_8_sub : (ops3_8 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops3_8_fresh : (ops3_8 : List (HloOp τ sig (Elt F))).Forall fun op => op.fresh = ∅ := by
  simp only [List.Forall]; repeat' constructor
theorem ops3_8_keeps : (ops3_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 415 … 431 of the program (17 of window 3), in order. -/
abbrev ops3_9 : List (HloOp τ sig (Elt F)) :=
  [ StableHlo.TRef.unary (.of main_c_31 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S7, .i32⟩) (broadcastInDim S7 ![] bcast_S_S7),
    StableHlo.TRef.binary (.of main_v192 : StableHlo.TRef sig ⟨S7, .i32⟩) (.of main_call17_v1 : StableHlo.TRef sig ⟨S7, .i32⟩) (.of main_call17_v2 : StableHlo.TRef sig ⟨S7, .i32⟩) Host.divsi,
    StableHlo.TRef.unary (.of main_v192 : StableHlo.TRef sig ⟨S7, .i32⟩) (.of main_call17_v3 : StableHlo.TRef sig ⟨S7, .i32⟩) signi,
    StableHlo.TRef.unary (.of main_call17_v0 : StableHlo.TRef sig ⟨S_, .i32⟩) (.of main_call17_v4 : StableHlo.TRef sig ⟨S_, .i32⟩) signi,
    StableHlo.TRef.unary (.of main_call17_v4 : StableHlo.TRef sig ⟨S_, .i32⟩) (.of main_call17_v5 : StableHlo.TRef sig ⟨S7, .i32⟩) (broadcastInDim S7 ![] bcast_S_S7),
    StableHlo.TRef.binary (.of main_call17_v3 : StableHlo.TRef sig ⟨S7, .i32⟩) (.of main_call17_v5 : StableHlo.TRef sig ⟨S7, .i32⟩) (.of main_call17_v6 : StableHlo.TRef sig ⟨S7, .i1⟩) (cmpi .ne),
    StableHlo.TRef.unary (.of main_call17_v0 : StableHlo.TRef sig ⟨S_, .i32⟩) (.of main_call17_v7 : StableHlo.TRef sig ⟨S7, .i32⟩) (broadcastInDim S7 ![] bcast_S_S7),
    StableHlo.TRef.binary (.of main_v192 : StableHlo.TRef sig ⟨S7, .i32⟩) (.of main_call17_v7 : StableHlo.TRef sig ⟨S7, .i32⟩) (.of main_call17_v8 : StableHlo.TRef sig ⟨S7, .i32⟩) Host.remsi,
    StableHlo.TRef.nullary (.of main_call17_c : StableHlo.TRef sig ⟨S_, .i32⟩) (constantI S_ 32 0#32),
    StableHlo.TRef.unary (.of main_call17_c : StableHlo.TRef sig ⟨S_, .i32⟩) (.of main_call17_v9 : StableHlo.TRef sig ⟨S7, .i32⟩) (broadcastInDim S7 ![] bcast_S_S7),
    StableHlo.TRef.binary (.of main_call17_v8 : StableHlo.TRef sig ⟨S7, .i32⟩) (.of main_call17_v9 : StableHlo.TRef sig ⟨S7, .i32⟩) (.of main_call17_v10 : StableHlo.TRef sig ⟨S7, .i1⟩) (cmpi .ne),
    StableHlo.TRef.binary (.of main_call17_v6 : StableHlo.TRef sig ⟨S7, .i1⟩) (.of main_call17_v10 : StableHlo.TRef sig ⟨S7, .i1⟩) (.of main_call17_v11 : StableHlo.TRef sig ⟨S7, .i1⟩) andi,
    StableHlo.TRef.nullary (.of main_call17_c_0 : StableHlo.TRef sig ⟨S_, .i32⟩) (constantI S_ 32 1#32),
    StableHlo.TRef.unary (.of main_call17_c_0 : StableHlo.TRef sig ⟨S_, .i32⟩) (.of main_call17_v12 : StableHlo.TRef sig ⟨S7, .i32⟩) (broadcastInDim S7 ![] bcast_S_S7),
    StableHlo.TRef.binary (.of main_call17_v2 : StableHlo.TRef sig ⟨S7, .i32⟩) (.of main_call17_v12 : StableHlo.TRef sig ⟨S7, .i32⟩) (.of main_call17_v13 : StableHlo.TRef sig ⟨S7, .i32⟩) subi,
    StableHlo.TRef.ternary (.of main_call17_v11 : StableHlo.TRef sig ⟨S7, .i1⟩) (.of main_call17_v13 : StableHlo.TRef sig ⟨S7, .i32⟩) (.of main_call17_v2 : StableHlo.TRef sig ⟨S7, .i32⟩) (.of main_v193 : StableHlo.TRef sig ⟨S7, .i32⟩) select ]
theorem ops3_9_sub : (ops3_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops3_9_fresh : (ops3_9 : List (HloOp τ sig (Elt F))).Forall fun op => op.fresh = ∅ := by
  simp only [List.Forall]; repeat' constructor
theorem ops3_9_keeps : (ops3_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 432 … 443 of the program (12 of window 3), in order. -/
abbrev ops3_10 : List (HloOp τ sig (Elt F)) :=
  [ StableHlo.unary main_v163 main_v194 (broadcastInDim S7 ![] bcast_S_S7 : (⟨S_, .i32⟩ : BufTy).Contents (Elt F) → (⟨S7, .i32⟩ : BufTy).Contents (Elt F)),
    StableHlo.binary main_v194 main_v193 main_v195 (subi : (⟨S7, .i32⟩ : BufTy).Contents (Elt F) → (⟨S7, .i32⟩ : BufTy).Contents (Elt F) → (⟨S7, .i32⟩ : BufTy).Contents (Elt F)),
    StableHlo.nullary main_v196 (iotaInDim S64 32 0),
    StableHlo.nullary main_v197 (iotaInDim S64 32 0),
    StableHlo.unary main_v196 main_v198 (broadcastInDim S1x64 ![1] bcast_S64_S1x64_1 : (⟨S64, .i32⟩ : BufTy).Contents (Elt F) → (⟨S1x64, .i32⟩ : BufTy).Contents (Elt F)),
    StableHlo.unary main_v174 main_v199 (broadcastInDim S7x1 ![0] bcast_S7_S7x1_0 : (⟨S7, .i32⟩ : BufTy).Contents (Elt F) → (⟨S7x1, .i32⟩ : BufTy).Contents (Elt F)),
    StableHlo.unary main_v198 main_v200 (broadcastInDim S7x64 ![0, 1] bcast_S1x64_S7x64_0_1 : (⟨S1x64, .i32⟩ : BufTy).Contents (Elt F) → (⟨S7x64, .i32⟩ : BufTy).Contents (Elt F)),
    StableHlo.unary main_v199 main_v201 (broadcastInDim S7x64 ![0, 1] bcast_S7x1_S7x64_0_1 : (⟨S7x1, .i32⟩ : BufTy).Contents (Elt F) → (⟨S7x64, .i32⟩ : BufTy).Contents (Elt F)),
    StableHlo.binary main_v200 main_v201 main_v202 (cmpi .sge : (⟨S7x64, .i32⟩ : BufTy).Contents (Elt F) → (⟨S7x64, .i32⟩ : BufTy).Contents (Elt F) → (⟨S7x64, .i1⟩ : BufTy).Contents (Elt F)),
    StableHlo.unary main_v196 main_v203 (broadcastInDim S1x64 ![1] bcast_S64_S1x64_1 : (⟨S64, .i32⟩ : BufTy).Contents (Elt F) → (⟨S1x64, .i32⟩ : BufTy).Contents (Elt F)),
    StableHlo.unary main_v182 main_v204 (broadcastInDim S7x1 ![0] bcast_S7_S7x1_0 : (⟨S7, .i32⟩ : BufTy).Contents (Elt F) → (⟨S7x1, .i32⟩ : BufTy).Contents (Elt F)),
    StableHlo.unary main_v203 main_v205 (broadcastInDim S7x64 ![0, 1] bcast_S1x64_S7x64_0_1 : (⟨S1x64, .i32⟩ : BufTy).Contents (Elt F) → (⟨S7x64, .i32⟩ : BufTy).Contents (Elt F)) ]
theorem ops3_10_sub : (ops3_10 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub ..⟩
theorem ops3_10_fresh : (ops3_10 : List (HloOp τ sig (Elt F))).Forall fun op => op.fresh = ∅ := by
  simp only [List.Forall]; repeat' constructor
theorem ops3_10_keeps : (ops3_10 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops3_10, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part3_eq (c : Dev nD) : main_part3 (F := F) c = Pipeline.chainK [StableHlo.seq ops3_0, StableHlo.seq ops3_1, StableHlo.seq ops3_2, StableHlo.seq ops3_3, StableHlo.seq ops3_4, StableHlo.seq ops3_5, StableHlo.seq ops3_6, StableHlo.seq ops3_7, StableHlo.seq ops3_8, StableHlo.seq ops3_9] (StableHlo.seq ops3_10) := by
  chain_rfl

end Cert.ReferenceIdeal.Host

end
-- ==== Proof.RefOps04.lean ====
/- Window 4 of the program's @main, every called function's body written out in place: 114 operations,
  cut into 10 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 444 … 460 of the program (17 of window 4), in order. -/
abbrev ops4_0 : List (HloOp τ sig (Elt F)) :=
  [ StableHlo.unary main_v204 main_v206 (broadcastInDim S7x64 ![0, 1] bcast_S7x1_S7x64_0_1 : (⟨S7x1, .i32⟩ : BufTy).Contents (Elt F) → (⟨S7x64, .i32⟩ : BufTy).Contents (Elt F)),
    StableHlo.binary main_v205 main_v206 main_v207 (cmpi .slt : (⟨S7x64, .i32⟩ : BufTy).Contents (Elt F) → (⟨S7x64, .i32⟩ : BufTy).Contents (Elt F) → (⟨S7x64, .i1⟩ : BufTy).Contents (Elt F)),
    StableHlo.binary main_v202 main_v207 main_v208 (andi : (⟨S7x64, .i1⟩ : BufTy).Contents (Elt F) → (⟨S7x64, .i1⟩ : BufTy).Contents (Elt F) → (⟨S7x64, .i1⟩ : BufTy).Contents (Elt F)),
    StableHlo.unary main_v197 main_v209 (broadcastInDim S1x64 ![1] bcast_S64_S1x64_1 : (⟨S64, .i32⟩ : BufTy).Contents (Elt F) → (⟨S1x64, .i32⟩ : BufTy).Contents (Elt F)),
    StableHlo.unary main_v187 main_v210 (broadcastInDim S7x1 ![0] bcast_S7_S7x1_0 : (⟨S7, .i32⟩ : BufTy).Contents (Elt F) → (⟨S7x1, .i32⟩ : BufTy).Contents (Elt F)),
    StableHlo.unary main_v209 main_v211 (broadcastInDim S7x64 ![0, 1] bcast_S1x64_S7x64_0_1 : (⟨S1x64, .i32⟩ : BufTy).Contents (Elt F) → (⟨S7x64, .i32⟩ : BufTy).Contents (Elt F)),
    StableHlo.unary main_v210 main_v212 (broadcastInDim S7x64 ![0, 1] bcast_S7x1_S7x64_0_1 : (⟨S7x1, .i32⟩ : BufTy).Contents (Elt F) → (⟨S7x64, .i32⟩ : BufTy).Contents (Elt F)),
    StableHlo.binary main_v211 main_v212 main_v213 (cmpi .sge : (⟨S7x64, .i32⟩ : BufTy).Contents (Elt F) → (⟨S7x64, .i32⟩ : BufTy).Contents (Elt F) → (⟨S7x64, .i1⟩ : BufTy).Contents (Elt F)),
    StableHlo.unary main_v197 main_v214 (broadcastInDim S1x64 ![1] bcast_S64_S1x64_1 : (⟨S64, .i32⟩ : BufTy).Contents (Elt F) → (⟨S1x64, .i32⟩ : BufTy).Contents (Elt F)),
    StableHlo.unary main_v195 main_v215 (broadcastInDim S7x1 ![0] bcast_S7_S7x1_0 : (⟨S7, .i32⟩ : BufTy).Contents (Elt F) → (⟨S7x1, .i32⟩ : BufTy).Contents (Elt F)),
    StableHlo.unary main_v214 main_v216 (broadcastInDim S7x64 ![0, 1] bcast_S1x64_S7x64_0_1 : (⟨S1x64, .i32⟩ : BufTy).Contents (Elt F) → (⟨S7x64, .i32⟩ : BufTy).Contents (Elt F)),
    StableHlo.unary main_v215 main_v217 (broadcastInDim S7x64 ![0, 1] bcast_S7x1_S7x64_0_1 : (⟨S7x1, .i32⟩ : BufTy).Contents (Elt F) → (⟨S7x64, .i32⟩ : BufTy).Contents (Elt F)),
    StableHlo.binary main_v216 main_v217 main_v218 (cmpi .slt : (⟨S7x64, .i32⟩ : BufTy).Contents (Elt F) → (⟨S7x64, .i32⟩ : BufTy).Contents (Elt F) → (⟨S7x64, .i1⟩ : BufTy).Contents (Elt F)),
    StableHlo.binary main_v213 main_v218 main_v219 (andi : (⟨S7x64, .i1⟩ : BufTy).Contents (Elt F) → (⟨S7x64, .i1⟩ : BufTy).Contents (Elt F) → (⟨S7x64, .i1⟩ : BufTy).Contents (Elt F)),
    StableHlo.unary main_v208 main_v220 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v221 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_32 (constant S_ .f32 0xFF800000#32) ]
theorem ops4_0_sub : (ops4_0 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops4_0_fresh : (ops4_0 : List (HloOp τ sig (Elt F))).Forall fun op => op.fresh = ∅ := by
  simp only [List.Forall]; repeat' constructor
theorem ops4_0_keeps : (ops4_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 461 … 464 of the program (4 of window 4), in order. -/
abbrev ops4_1 : List (HloOp τ sig (Elt F)) :=
  [ StableHlo.TRef.unary (.of main_v220 : StableHlo.TRef sig ⟨S7x1x64x1, .i1⟩) (.of main_call18_v0 : StableHlo.TRef sig ⟨S7x512x64x64, .i1⟩) (broadcastInDim S7x512x64x64 ![0, 1, 2, 3] bcast_S7x1x64x1_S7x512x64x64_0_1_2_3),
    StableHlo.TRef.unary (.of main_v221 : StableHlo.TRef sig ⟨S1x512x64x64, .f32⟩) (.of main_call18_v1 : StableHlo.TRef sig ⟨S7x512x64x64, .f32⟩) (broadcastInDim S7x512x64x64 ![0, 1, 2, 3] bcast_S1x512x64x64_S7x512x64x64_0_1_2_3),
    StableHlo.TRef.unary (.of main_cst_32 : StableHlo.TRef sig ⟨S_, .f32⟩) (.of main_call18_v2 : StableHlo.TRef sig ⟨S7x512x64x64, .f32⟩) (broadcastInDim S7x512x64x64 ![] bcast_S_S7x512x64x64),
    StableHlo.TRef.ternary (.of main_call18_v0 : StableHlo.TRef sig ⟨S7x512x64x64, .i1⟩) (.of main_call18_v1 : StableHlo.TRef sig ⟨S7x512x64x64, .f32⟩) (.of main_call18_v2 : StableHlo.TRef sig ⟨S7x512x64x64, .f32⟩) (.of main_v222 : StableHlo.TRef sig ⟨S7x512x64x64, .f32⟩) select ]
theorem ops4_1_sub : (ops4_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops4_1_fresh : (ops4_1 : List (HloOp τ sig (Elt F))).Forall fun op => op.fresh = ∅ := by
  simp only [List.Forall]; repeat' constructor
theorem ops4_1_keeps : (ops4_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 465 … 469 of the program (5 of window 4), in order. -/
abbrev ops4_2 : List (HloOp τ sig (Elt F)) :=
  [ StableHlo.nullary main_cst_33 (constant S_ .f32 0xFF800000#32),
    StableHlo.binary main_v222 main_cst_33 main_v223 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v219 main_v224 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v223 main_v225 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_34 (constant S_ .f32 0xFF800000#32) ]
theorem ops4_2_sub : (ops4_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops4_2_fresh : (ops4_2 : List (HloOp τ sig (Elt F))).Forall fun op => op.fresh = ∅ := by
  simp only [List.Forall]; repeat' constructor
theorem ops4_2_keeps : (ops4_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 470 … 473 of the program (4 of window 4), in order. -/
abbrev ops4_3 : List (HloOp τ sig (Elt F)) :=
  [ StableHlo.TRef.unary (.of main_v224 : StableHlo.TRef sig ⟨S1x1x7x64, .i1⟩) (.of main_call19_v0 : StableHlo.TRef sig ⟨S7x512x7x64, .i1⟩) (broadcastInDim S7x512x7x64 ![0, 1, 2, 3] bcast_S1x1x7x64_S7x512x7x64_0_1_2_3),
    StableHlo.TRef.unary (.of main_v225 : StableHlo.TRef sig ⟨S7x512x1x64, .f32⟩) (.of main_call19_v1 : StableHlo.TRef sig ⟨S7x512x7x64, .f32⟩) (broadcastInDim S7x512x7x64 ![0, 1, 2, 3] bcast_S7x512x1x64_S7x512x7x64_0_1_2_3),
    StableHlo.TRef.unary (.of main_cst_34 : StableHlo.TRef sig ⟨S_, .f32⟩) (.of main_call19_v2 : StableHlo.TRef sig ⟨S7x512x7x64, .f32⟩) (broadcastInDim S7x512x7x64 ![] bcast_S_S7x512x7x64),
    StableHlo.TRef.ternary (.of main_call19_v0 : StableHlo.TRef sig ⟨S7x512x7x64, .i1⟩) (.of main_call19_v1 : StableHlo.TRef sig ⟨S7x512x7x64, .f32⟩) (.of main_call19_v2 : StableHlo.TRef sig ⟨S7x512x7x64, .f32⟩) (.of main_v226 : StableHlo.TRef sig ⟨S7x512x7x64, .f32⟩) select ]
theorem ops4_3_sub : (ops4_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops4_3_fresh : (ops4_3 : List (HloOp τ sig (Elt F))).Forall fun op => op.fresh = ∅ := by
  simp only [List.Forall]; repeat' constructor
theorem ops4_3_keeps : (ops4_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 474 … 492 of the program (19 of window 4), in order. -/
abbrev ops4_4 : List (HloOp τ sig (Elt F)) :=
  [ StableHlo.nullary main_cst_35 (constant S_ .f32 0xFF800000#32),
    StableHlo.binary main_v226 main_cst_35 main_v227 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v227 main_v228 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v228 main_v229 rfl shapeCasts_S512x7x7_S25088,
    StableHlo.unary main_v18 main_v230 ((extractStridedSlice S1x1 ![2, 1] · slices_S3x4_S1x1_2_1) : (⟨S3x4, .i32⟩ : BufTy).Contents (Elt F) → (⟨S1x1, .i32⟩ : BufTy).Contents (Elt F)),
    StableHlo.reshape main_v230 main_v231 rfl shapeCasts_S1x1_S_,
    StableHlo.unary main_v18 main_v232 ((extractStridedSlice S1x1 ![2, 3] · slices_S3x4_S1x1_2_3) : (⟨S3x4, .i32⟩ : BufTy).Contents (Elt F) → (⟨S1x1, .i32⟩ : BufTy).Contents (Elt F)),
    StableHlo.reshape main_v232 main_v233 rfl shapeCasts_S1x1_S_,
    StableHlo.unary main_v18 main_v234 ((extractStridedSlice S1x1 ![2, 0] · slices_S3x4_S1x1_2_0) : (⟨S3x4, .i32⟩ : BufTy).Contents (Elt F) → (⟨S1x1, .i32⟩ : BufTy).Contents (Elt F)),
    StableHlo.reshape main_v234 main_v235 rfl shapeCasts_S1x1_S_,
    StableHlo.unary main_v18 main_v236 ((extractStridedSlice S1x1 ![2, 2] · slices_S3x4_S1x1_2_2) : (⟨S3x4, .i32⟩ : BufTy).Contents (Elt F) → (⟨S1x1, .i32⟩ : BufTy).Contents (Elt F)),
    StableHlo.reshape main_v236 main_v237 rfl shapeCasts_S1x1_S_,
    StableHlo.binary main_v233 main_v231 main_v238 (subi : (⟨S_, .i32⟩ : BufTy).Contents (Elt F) → (⟨S_, .i32⟩ : BufTy).Contents (Elt F) → (⟨S_, .i32⟩ : BufTy).Contents (Elt F)),
    StableHlo.binary main_v237 main_v235 main_v239 (subi : (⟨S_, .i32⟩ : BufTy).Contents (Elt F) → (⟨S_, .i32⟩ : BufTy).Contents (Elt F) → (⟨S_, .i32⟩ : BufTy).Contents (Elt F)),
    StableHlo.nullary main_v240 (iotaInDim S7 32 0),
    StableHlo.nullary main_v241 (iotaInDim S7 32 0),
    StableHlo.unary main_v238 main_v242 (broadcastInDim S7 ![] bcast_S_S7 : (⟨S_, .i32⟩ : BufTy).Contents (Elt F) → (⟨S7, .i32⟩ : BufTy).Contents (Elt F)),
    StableHlo.binary main_v240 main_v242 main_v243 (muli : (⟨S7, .i32⟩ : BufTy).Contents (Elt F) → (⟨S7, .i32⟩ : BufTy).Contents (Elt F) → (⟨S7, .i32⟩ : BufTy).Contents (Elt F)),
    StableHlo.nullary main_c_36 (constantI S_ 32 7#32) ]
theorem ops4_4_sub : (ops4_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops4_4_fresh : (ops4_4 : List (HloOp τ sig (Elt F))).Forall fun op => op.fresh = ∅ := by
  simp only [List.Forall]; repeat' constructor
theorem ops4_4_keeps : (ops4_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 493 … 509 of the program (17 of window 4), in order. -/
abbrev ops4_5 : List (HloOp τ sig (Elt F)) :=
  [ StableHlo.TRef.unary (.of main_c_36 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S7, .i32⟩) (broadcastInDim S7 ![] bcast_S_S7),
    StableHlo.TRef.binary (.of main_v243 : StableHlo.TRef sig ⟨S7, .i32⟩) (.of main_call20_v1 : StableHlo.TRef sig ⟨S7, .i32⟩) (.of main_call20_v2 : StableHlo.TRef sig ⟨S7, .i32⟩) Host.divsi,
    StableHlo.TRef.unary (.of main_v243 : StableHlo.TRef sig ⟨S7, .i32⟩) (.of main_call20_v3 : StableHlo.TRef sig ⟨S7, .i32⟩) signi,
    StableHlo.TRef.unary (.of main_call20_v0 : StableHlo.TRef sig ⟨S_, .i32⟩) (.of main_call20_v4 : StableHlo.TRef sig ⟨S_, .i32⟩) signi,
    StableHlo.TRef.unary (.of main_call20_v4 : StableHlo.TRef sig ⟨S_, .i32⟩) (.of main_call20_v5 : StableHlo.TRef sig ⟨S7, .i32⟩) (broadcastInDim S7 ![] bcast_S_S7),
    StableHlo.TRef.binary (.of main_call20_v3 : StableHlo.TRef sig ⟨S7, .i32⟩) (.of main_call20_v5 : StableHlo.TRef sig ⟨S7, .i32⟩) (.of main_call20_v6 : StableHlo.TRef sig ⟨S7, .i1⟩) (cmpi .ne),
    StableHlo.TRef.unary (.of main_call20_v0 : StableHlo.TRef sig ⟨S_, .i32⟩) (.of main_call20_v7 : StableHlo.TRef sig ⟨S7, .i32⟩) (broadcastInDim S7 ![] bcast_S_S7),
    StableHlo.TRef.binary (.of main_v243 : StableHlo.TRef sig ⟨S7, .i32⟩) (.of main_call20_v7 : StableHlo.TRef sig ⟨S7, .i32⟩) (.of main_call20_v8 : StableHlo.TRef sig ⟨S7, .i32⟩) Host.remsi,
    StableHlo.TRef.nullary (.of main_call20_c : StableHlo.TRef sig ⟨S_, .i32⟩) (constantI S_ 32 0#32),
    StableHlo.TRef.unary (.of main_call20_c : StableHlo.TRef sig ⟨S_, .i32⟩) (.of main_call20_v9 : StableHlo.TRef sig ⟨S7, .i32⟩) (broadcastInDim S7 ![] bcast_S_S7),
    StableHlo.TRef.binary (.of main_call20_v8 : StableHlo.TRef sig ⟨S7, .i32⟩) (.of main_call20_v9 : StableHlo.TRef sig ⟨S7, .i32⟩) (.of main_call20_v10 : StableHlo.TRef sig ⟨S7, .i1⟩) (cmpi .ne),
    StableHlo.TRef.binary (.of main_call20_v6 : StableHlo.TRef sig ⟨S7, .i1⟩) (.of main_call20_v10 : StableHlo.TRef sig ⟨S7, .i1⟩) (.of main_call20_v11 : StableHlo.TRef sig ⟨S7, .i1⟩) andi,
    StableHlo.TRef.nullary (.of main_call20_c_0 : StableHlo.TRef sig ⟨S_, .i32⟩) (constantI S_ 32 1#32),
    StableHlo.TRef.unary (.of main_call20_c_0 : StableHlo.TRef sig ⟨S_, .i32⟩) (.of main_call20_v12 : StableHlo.TRef sig ⟨S7, .i32⟩) (broadcastInDim S7 ![] bcast_S_S7),
    StableHlo.TRef.binary (.of main_call20_v2 : StableHlo.TRef sig ⟨S7, .i32⟩) (.of main_call20_v12 : StableHlo.TRef sig ⟨S7, .i32⟩) (.of main_call20_v13 : StableHlo.TRef sig ⟨S7, .i32⟩) subi,
    StableHlo.TRef.ternary (.of main_call20_v11 : StableHlo.TRef sig ⟨S7, .i1⟩) (.of main_call20_v13 : StableHlo.TRef sig ⟨S7, .i32⟩) (.of main_call20_v2 : StableHlo.TRef sig ⟨S7, .i32⟩) (.of main_v244 : StableHlo.TRef sig ⟨S7, .i32⟩) select ]
theorem ops4_5_sub : (ops4_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops4_5_fresh : (ops4_5 : List (HloOp τ sig (Elt F))).Forall fun op => op.fresh = ∅ := by
  simp only [List.Forall]; repeat' constructor
theorem ops4_5_keeps : (ops4_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 510 … 518 of the program (9 of window 4), in order. -/
abbrev ops4_6 : List (HloOp τ sig (Elt F)) :=
  [ StableHlo.unary main_v231 main_v245 (broadcastInDim S7 ![] bcast_S_S7 : (⟨S_, .i32⟩ : BufTy).Contents (Elt F) → (⟨S7, .i32⟩ : BufTy).Contents (Elt F)),
    StableHlo.binary main_v245 main_v244 main_v246 (addi : (⟨S7, .i32⟩ : BufTy).Contents (Elt F) → (⟨S7, .i32⟩ : BufTy).Contents (Elt F) → (⟨S7, .i32⟩ : BufTy).Contents (Elt F)),
    StableHlo.nullary main_c_37 (constantI S_ 32 1#32),
    StableHlo.unary main_c_37 main_v247 (broadcastInDim S7 ![] bcast_S_S7 : (⟨S_, .i32⟩ : BufTy).Contents (Elt F) → (⟨S7, .i32⟩ : BufTy).Contents (Elt F)),
    StableHlo.binary main_v240 main_v247 main_v248 (addi : (⟨S7, .i32⟩ : BufTy).Contents (Elt F) → (⟨S7, .i32⟩ : BufTy).Contents (Elt F) → (⟨S7, .i32⟩ : BufTy).Contents (Elt F)),
    StableHlo.unary main_v248 main_v249 (negi : (⟨S7, .i32⟩ : BufTy).Contents (Elt F) → (⟨S7, .i32⟩ : BufTy).Contents (Elt F)),
    StableHlo.unary main_v238 main_v250 (broadcastInDim S7 ![] bcast_S_S7 : (⟨S_, .i32⟩ : BufTy).Contents (Elt F) → (⟨S7, .i32⟩ : BufTy).Contents (Elt F)),
    StableHlo.binary main_v249 main_v250 main_v251 (muli : (⟨S7, .i32⟩ : BufTy).Contents (Elt F) → (⟨S7, .i32⟩ : BufTy).Contents (Elt F) → (⟨S7, .i32⟩ : BufTy).Contents (Elt F)),
    StableHlo.nullary main_c_38 (constantI S_ 32 7#32) ]
theorem ops4_6_sub : (ops4_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops4_6_fresh : (ops4_6 : List (HloOp τ sig (Elt F))).Forall fun op => op.fresh = ∅ := by
  simp only [List.Forall]; repeat' constructor
theorem ops4_6_keeps : (ops4_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 519 … 535 of the program (17 of window 4), in order. -/
abbrev ops4_7 : List (HloOp τ sig (Elt F)) :=
  [ StableHlo.TRef.unary (.of main_c_38 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S7, .i32⟩) (broadcastInDim S7 ![] bcast_S_S7),
    StableHlo.TRef.binary (.of main_v251 : StableHlo.TRef sig ⟨S7, .i32⟩) (.of main_call21_v1 : StableHlo.TRef sig ⟨S7, .i32⟩) (.of main_call21_v2 : StableHlo.TRef sig ⟨S7, .i32⟩) Host.divsi,
    StableHlo.TRef.unary (.of main_v251 : StableHlo.TRef sig ⟨S7, .i32⟩) (.of main_call21_v3 : StableHlo.TRef sig ⟨S7, .i32⟩) signi,
    StableHlo.TRef.unary (.of main_call21_v0 : StableHlo.TRef sig ⟨S_, .i32⟩) (.of main_call21_v4 : StableHlo.TRef sig ⟨S_, .i32⟩) signi,
    StableHlo.TRef.unary (.of main_call21_v4 : StableHlo.TRef sig ⟨S_, .i32⟩) (.of main_call21_v5 : StableHlo.TRef sig ⟨S7, .i32⟩) (broadcastInDim S7 ![] bcast_S_S7),
    StableHlo.TRef.binary (.of main_call21_v3 : StableHlo.TRef sig ⟨S7, .i32⟩) (.of main_call21_v5 : StableHlo.TRef sig ⟨S7, .i32⟩) (.of main_call21_v6 : StableHlo.TRef sig ⟨S7, .i1⟩) (cmpi .ne),
    StableHlo.TRef.unary (.of main_call21_v0 : StableHlo.TRef sig ⟨S_, .i32⟩) (.of main_call21_v7 : StableHlo.TRef sig ⟨S7, .i32⟩) (broadcastInDim S7 ![] bcast_S_S7),
    StableHlo.TRef.binary (.of main_v251 : StableHlo.TRef sig ⟨S7, .i32⟩) (.of main_call21_v7 : StableHlo.TRef sig ⟨S7, .i32⟩) (.of main_call21_v8 : StableHlo.TRef sig ⟨S7, .i32⟩) Host.remsi,
    StableHlo.TRef.nullary (.of main_call21_c : StableHlo.TRef sig ⟨S_, .i32⟩) (constantI S_ 32 0#32),
    StableHlo.TRef.unary (.of main_call21_c : StableHlo.TRef sig ⟨S_, .i32⟩) (.of main_call21_v9 : StableHlo.TRef sig ⟨S7, .i32⟩) (broadcastInDim S7 ![] bcast_S_S7),
    StableHlo.TRef.binary (.of main_call21_v8 : StableHlo.TRef sig ⟨S7, .i32⟩) (.of main_call21_v9 : StableHlo.TRef sig ⟨S7, .i32⟩) (.of main_call21_v10 : StableHlo.TRef sig ⟨S7, .i1⟩) (cmpi .ne),
    StableHlo.TRef.binary (.of main_call21_v6 : StableHlo.TRef sig ⟨S7, .i1⟩) (.of main_call21_v10 : StableHlo.TRef sig ⟨S7, .i1⟩) (.of main_call21_v11 : StableHlo.TRef sig ⟨S7, .i1⟩) andi,
    StableHlo.TRef.nullary (.of main_call21_c_0 : StableHlo.TRef sig ⟨S_, .i32⟩) (constantI S_ 32 1#32),
    StableHlo.TRef.unary (.of main_call21_c_0 : StableHlo.TRef sig ⟨S_, .i32⟩) (.of main_call21_v12 : StableHlo.TRef sig ⟨S7, .i32⟩) (broadcastInDim S7 ![] bcast_S_S7),
    StableHlo.TRef.binary (.of main_call21_v2 : StableHlo.TRef sig ⟨S7, .i32⟩) (.of main_call21_v12 : StableHlo.TRef sig ⟨S7, .i32⟩) (.of main_call21_v13 : StableHlo.TRef sig ⟨S7, .i32⟩) subi,
    StableHlo.TRef.ternary (.of main_call21_v11 : StableHlo.TRef sig ⟨S7, .i1⟩) (.of main_call21_v13 : StableHlo.TRef sig ⟨S7, .i32⟩) (.of main_call21_v2 : StableHlo.TRef sig ⟨S7, .i32⟩) (.of main_v252 : StableHlo.TRef sig ⟨S7, .i32⟩) select ]
theorem ops4_7_sub : (ops4_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops4_7_fresh : (ops4_7 : List (HloOp τ sig (Elt F))).Forall fun op => op.fresh = ∅ := by
  simp only [List.Forall]; repeat' constructor
theorem ops4_7_keeps : (ops4_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 536 … 540 of the program (5 of window 4), in order. -/
abbrev ops4_8 : List (HloOp τ sig (Elt F)) :=
  [ StableHlo.unary main_v231 main_v253 (broadcastInDim S7 ![] bcast_S_S7 : (⟨S_, .i32⟩ : BufTy).Contents (Elt F) → (⟨S7, .i32⟩ : BufTy).Contents (Elt F)),
    StableHlo.binary main_v253 main_v252 main_v254 (subi : (⟨S7, .i32⟩ : BufTy).Contents (Elt F) → (⟨S7, .i32⟩ : BufTy).Contents (Elt F) → (⟨S7, .i32⟩ : BufTy).Contents (Elt F)),
    StableHlo.unary main_v239 main_v255 (broadcastInDim S7 ![] bcast_S_S7 : (⟨S_, .i32⟩ : BufTy).Contents (Elt F) → (⟨S7, .i32⟩ : BufTy).Contents (Elt F)),
    StableHlo.binary main_v241 main_v255 main_v256 (muli : (⟨S7, .i32⟩ : BufTy).Contents (Elt F) → (⟨S7, .i32⟩ : BufTy).Contents (Elt F) → (⟨S7, .i32⟩ : BufTy).Contents (Elt F)),
    StableHlo.nullary main_c_39 (constantI S_ 32 7#32) ]
theorem ops4_8_sub : (ops4_8 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops4_8_fresh : (ops4_8 : List (HloOp τ sig (Elt F))).Forall fun op => op.fresh = ∅ := by
  simp only [List.Forall]; repeat' constructor
theorem ops4_8_keeps : (ops4_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 541 … 557 of the program (17 of window 4), in order. -/
abbrev ops4_9 : List (HloOp τ sig (Elt F)) :=
  [ StableHlo.TRef.unary (.of main_c_39 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S7, .i32⟩) (broadcastInDim S7 ![] bcast_S_S7),
    StableHlo.TRef.binary (.of main_v256 : StableHlo.TRef sig ⟨S7, .i32⟩) (.of main_call22_v1 : StableHlo.TRef sig ⟨S7, .i32⟩) (.of main_call22_v2 : StableHlo.TRef sig ⟨S7, .i32⟩) Host.divsi,
    StableHlo.TRef.unary (.of main_v256 : StableHlo.TRef sig ⟨S7, .i32⟩) (.of main_call22_v3 : StableHlo.TRef sig ⟨S7, .i32⟩) signi,
    StableHlo.TRef.unary (.of main_call22_v0 : StableHlo.TRef sig ⟨S_, .i32⟩) (.of main_call22_v4 : StableHlo.TRef sig ⟨S_, .i32⟩) signi,
    StableHlo.TRef.unary (.of main_call22_v4 : StableHlo.TRef sig ⟨S_, .i32⟩) (.of main_call22_v5 : StableHlo.TRef sig ⟨S7, .i32⟩) (broadcastInDim S7 ![] bcast_S_S7),
    StableHlo.TRef.binary (.of main_call22_v3 : StableHlo.TRef sig ⟨S7, .i32⟩) (.of main_call22_v5 : StableHlo.TRef sig ⟨S7, .i32⟩) (.of main_call22_v6 : StableHlo.TRef sig ⟨S7, .i1⟩) (cmpi .ne),
    StableHlo.TRef.unary (.of main_call22_v0 : StableHlo.TRef sig ⟨S_, .i32⟩) (.of main_call22_v7 : StableHlo.TRef sig ⟨S7, .i32⟩) (broadcastInDim S7 ![] bcast_S_S7),
    StableHlo.TRef.binary (.of main_v256 : StableHlo.TRef sig ⟨S7, .i32⟩) (.of main_call22_v7 : StableHlo.TRef sig ⟨S7, .i32⟩) (.of main_call22_v8 : StableHlo.TRef sig ⟨S7, .i32⟩) Host.remsi,
    StableHlo.TRef.nullary (.of main_call22_c : StableHlo.TRef sig ⟨S_, .i32⟩) (constantI S_ 32 0#32),
    StableHlo.TRef.unary (.of main_call22_c : StableHlo.TRef sig ⟨S_, .i32⟩) (.of main_call22_v9 : StableHlo.TRef sig ⟨S7, .i32⟩) (broadcastInDim S7 ![] bcast_S_S7),
    StableHlo.TRef.binary (.of main_call22_v8 : StableHlo.TRef sig ⟨S7, .i32⟩) (.of main_call22_v9 : StableHlo.TRef sig ⟨S7, .i32⟩) (.of main_call22_v10 : StableHlo.TRef sig ⟨S7, .i1⟩) (cmpi .ne),
    StableHlo.TRef.binary (.of main_call22_v6 : StableHlo.TRef sig ⟨S7, .i1⟩) (.of main_call22_v10 : StableHlo.TRef sig ⟨S7, .i1⟩) (.of main_call22_v11 : StableHlo.TRef sig ⟨S7, .i1⟩) andi,
    StableHlo.TRef.nullary (.of main_call22_c_0 : StableHlo.TRef sig ⟨S_, .i32⟩) (constantI S_ 32 1#32),
    StableHlo.TRef.unary (.of main_call22_c_0 : StableHlo.TRef sig ⟨S_, .i32⟩) (.of main_call22_v12 : StableHlo.TRef sig ⟨S7, .i32⟩) (broadcastInDim S7 ![] bcast_S_S7),
    StableHlo.TRef.binary (.of main_call22_v2 : StableHlo.TRef sig ⟨S7, .i32⟩) (.of main_call22_v12 : StableHlo.TRef sig ⟨S7, .i32⟩) (.of main_call22_v13 : StableHlo.TRef sig ⟨S7, .i32⟩) subi,
    StableHlo.TRef.ternary (.of main_call22_v11 : StableHlo.TRef sig ⟨S7, .i1⟩) (.of main_call22_v13 : StableHlo.TRef sig ⟨S7, .i32⟩) (.of main_call22_v2 : StableHlo.TRef sig ⟨S7, .i32⟩) (.of main_v257 : StableHlo.TRef sig ⟨S7, .i32⟩) select ]
theorem ops4_9_sub : (ops4_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops4_9_fresh : (ops4_9 : List (HloOp τ sig (Elt F))).Forall fun op => op.fresh = ∅ := by
  simp only [List.Forall]; repeat' constructor
theorem ops4_9_keeps : (ops4_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops4_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part4_eq (c : Dev nD) : main_part4 (F := F) c = Pipeline.chainK [StableHlo.seq ops4_0, StableHlo.seq ops4_1, StableHlo.seq ops4_2, StableHlo.seq ops4_3, StableHlo.seq ops4_4, StableHlo.seq ops4_5, StableHlo.seq ops4_6, StableHlo.seq ops4_7, StableHlo.seq ops4_8] (StableHlo.seq ops4_9) := by
  chain_rfl

end Cert.ReferenceIdeal.Host

end
-- ==== Proof.RefOps05.lean ====
/- Window 5 of the program's @main, every called function's body written out in place: 82 operations,
  cut into 7 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 558 … 566 of the program (9 of window 5), in order. -/
abbrev ops5_0 : List (HloOp τ sig (Elt F)) :=
  [ StableHlo.unary main_v235 main_v258 (broadcastInDim S7 ![] bcast_S_S7 : (⟨S_, .i32⟩ : BufTy).Contents (Elt F) → (⟨S7, .i32⟩ : BufTy).Contents (Elt F)),
    StableHlo.binary main_v258 main_v257 main_v259 (addi : (⟨S7, .i32⟩ : BufTy).Contents (Elt F) → (⟨S7, .i32⟩ : BufTy).Contents (Elt F) → (⟨S7, .i32⟩ : BufTy).Contents (Elt F)),
    StableHlo.nullary main_c_40 (constantI S_ 32 1#32),
    StableHlo.unary main_c_40 main_v260 (broadcastInDim S7 ![] bcast_S_S7 : (⟨S_, .i32⟩ : BufTy).Contents (Elt F) → (⟨S7, .i32⟩ : BufTy).Contents (Elt F)),
    StableHlo.binary main_v241 main_v260 main_v261 (addi : (⟨S7, .i32⟩ : BufTy).Contents (Elt F) → (⟨S7, .i32⟩ : BufTy).Contents (Elt F) → (⟨S7, .i32⟩ : BufTy).Contents (Elt F)),
    StableHlo.unary main_v261 main_v262 (negi : (⟨S7, .i32⟩ : BufTy).Contents (Elt F) → (⟨S7, .i32⟩ : BufTy).Contents (Elt F)),
    StableHlo.unary main_v239 main_v263 (broadcastInDim S7 ![] bcast_S_S7 : (⟨S_, .i32⟩ : BufTy).Contents (Elt F) → (⟨S7, .i32⟩ : BufTy).Contents (Elt F)),
    StableHlo.binary main_v262 main_v263 main_v264 (muli : (⟨S7, .i32⟩ : BufTy).Contents (Elt F) → (⟨S7, .i32⟩ : BufTy).Contents (Elt F) → (⟨S7, .i32⟩ : BufTy).Contents (Elt F)),
    StableHlo.nullary main_c_41 (constantI S_ 32 7#32) ]
theorem ops5_0_sub : (ops5_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops5_0_fresh : (ops5_0 : List (HloOp τ sig (Elt F))).Forall fun op => op.fresh = ∅ := by
  simp only [List.Forall]; repeat' constructor
theorem ops5_0_keeps : (ops5_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 567 … 583 of the program (17 of window 5), in order. -/
abbrev ops5_1 : List (HloOp τ sig (Elt F)) :=
  [ StableHlo.TRef.unary (.of main_c_41 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S7, .i32⟩) (broadcastInDim S7 ![] bcast_S_S7),
    StableHlo.TRef.binary (.of main_v264 : StableHlo.TRef sig ⟨S7, .i32⟩) (.of main_call23_v1 : StableHlo.TRef sig ⟨S7, .i32⟩) (.of main_call23_v2 : StableHlo.TRef sig ⟨S7, .i32⟩) Host.divsi,
    StableHlo.TRef.unary (.of main_v264 : StableHlo.TRef sig ⟨S7, .i32⟩) (.of main_call23_v3 : StableHlo.TRef sig ⟨S7, .i32⟩) signi,
    StableHlo.TRef.unary (.of main_call23_v0 : StableHlo.TRef sig ⟨S_, .i32⟩) (.of main_call23_v4 : StableHlo.TRef sig ⟨S_, .i32⟩) signi,
    StableHlo.TRef.unary (.of main_call23_v4 : StableHlo.TRef sig ⟨S_, .i32⟩) (.of main_call23_v5 : StableHlo.TRef sig ⟨S7, .i32⟩) (broadcastInDim S7 ![] bcast_S_S7),
    StableHlo.TRef.binary (.of main_call23_v3 : StableHlo.TRef sig ⟨S7, .i32⟩) (.of main_call23_v5 : StableHlo.TRef sig ⟨S7, .i32⟩) (.of main_call23_v6 : StableHlo.TRef sig ⟨S7, .i1⟩) (cmpi .ne),
    StableHlo.TRef.unary (.of main_call23_v0 : StableHlo.TRef sig ⟨S_, .i32⟩) (.of main_call23_v7 : StableHlo.TRef sig ⟨S7, .i32⟩) (broadcastInDim S7 ![] bcast_S_S7),
    StableHlo.TRef.binary (.of main_v264 : StableHlo.TRef sig ⟨S7, .i32⟩) (.of main_call23_v7 : StableHlo.TRef sig ⟨S7, .i32⟩) (.of main_call23_v8 : StableHlo.TRef sig ⟨S7, .i32⟩) Host.remsi,
    StableHlo.TRef.nullary (.of main_call23_c : StableHlo.TRef sig ⟨S_, .i32⟩) (constantI S_ 32 0#32),
    StableHlo.TRef.unary (.of main_call23_c : StableHlo.TRef sig ⟨S_, .i32⟩) (.of main_call23_v9 : StableHlo.TRef sig ⟨S7, .i32⟩) (broadcastInDim S7 ![] bcast_S_S7),
    StableHlo.TRef.binary (.of main_call23_v8 : StableHlo.TRef sig ⟨S7, .i32⟩) (.of main_call23_v9 : StableHlo.TRef sig ⟨S7, .i32⟩) (.of main_call23_v10 : StableHlo.TRef sig ⟨S7, .i1⟩) (cmpi .ne),
    StableHlo.TRef.binary (.of main_call23_v6 : StableHlo.TRef sig ⟨S7, .i1⟩) (.of main_call23_v10 : StableHlo.TRef sig ⟨S7, .i1⟩) (.of main_call23_v11 : StableHlo.TRef sig ⟨S7, .i1⟩) andi,
    StableHlo.TRef.nullary (.of main_call23_c_0 : StableHlo.TRef sig ⟨S_, .i32⟩) (constantI S_ 32 1#32),
    StableHlo.TRef.unary (.of main_call23_c_0 : StableHlo.TRef sig ⟨S_, .i32⟩) (.of main_call23_v12 : StableHlo.TRef sig ⟨S7, .i32⟩) (broadcastInDim S7 ![] bcast_S_S7),
    StableHlo.TRef.binary (.of main_call23_v2 : StableHlo.TRef sig ⟨S7, .i32⟩) (.of main_call23_v12 : StableHlo.TRef sig ⟨S7, .i32⟩) (.of main_call23_v13 : StableHlo.TRef sig ⟨S7, .i32⟩) subi,
    StableHlo.TRef.ternary (.of main_call23_v11 : StableHlo.TRef sig ⟨S7, .i1⟩) (.of main_call23_v13 : StableHlo.TRef sig ⟨S7, .i32⟩) (.of main_call23_v2 : StableHlo.TRef sig ⟨S7, .i32⟩) (.of main_v265 : StableHlo.TRef sig ⟨S7, .i32⟩) select ]
theorem ops5_1_sub : (ops5_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops5_1_fresh : (ops5_1 : List (HloOp τ sig (Elt F))).Forall fun op => op.fresh = ∅ := by
  simp only [List.Forall]; repeat' constructor
theorem ops5_1_keeps : (ops5_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 584 … 612 of the program (29 of window 5), in order. -/
abbrev ops5_2 : List (HloOp τ sig (Elt F)) :=
  [ StableHlo.unary main_v235 main_v266 (broadcastInDim S7 ![] bcast_S_S7 : (⟨S_, .i32⟩ : BufTy).Contents (Elt F) → (⟨S7, .i32⟩ : BufTy).Contents (Elt F)),
    StableHlo.binary main_v266 main_v265 main_v267 (subi : (⟨S7, .i32⟩ : BufTy).Contents (Elt F) → (⟨S7, .i32⟩ : BufTy).Contents (Elt F) → (⟨S7, .i32⟩ : BufTy).Contents (Elt F)),
    StableHlo.nullary main_v268 (iotaInDim S64 32 0),
    StableHlo.nullary main_v269 (iotaInDim S64 32 0),
    StableHlo.unary main_v268 main_v270 (broadcastInDim S1x64 ![1] bcast_S64_S1x64_1 : (⟨S64, .i32⟩ : BufTy).Contents (Elt F) → (⟨S1x64, .i32⟩ : BufTy).Contents (Elt F)),
    StableHlo.unary main_v246 main_v271 (broadcastInDim S7x1 ![0] bcast_S7_S7x1_0 : (⟨S7, .i32⟩ : BufTy).Contents (Elt F) → (⟨S7x1, .i32⟩ : BufTy).Contents (Elt F)),
    StableHlo.unary main_v270 main_v272 (broadcastInDim S7x64 ![0, 1] bcast_S1x64_S7x64_0_1 : (⟨S1x64, .i32⟩ : BufTy).Contents (Elt F) → (⟨S7x64, .i32⟩ : BufTy).Contents (Elt F)),
    StableHlo.unary main_v271 main_v273 (broadcastInDim S7x64 ![0, 1] bcast_S7x1_S7x64_0_1 : (⟨S7x1, .i32⟩ : BufTy).Contents (Elt F) → (⟨S7x64, .i32⟩ : BufTy).Contents (Elt F)),
    StableHlo.binary main_v272 main_v273 main_v274 (cmpi .sge : (⟨S7x64, .i32⟩ : BufTy).Contents (Elt F) → (⟨S7x64, .i32⟩ : BufTy).Contents (Elt F) → (⟨S7x64, .i1⟩ : BufTy).Contents (Elt F)),
    StableHlo.unary main_v268 main_v275 (broadcastInDim S1x64 ![1] bcast_S64_S1x64_1 : (⟨S64, .i32⟩ : BufTy).Contents (Elt F) → (⟨S1x64, .i32⟩ : BufTy).Contents (Elt F)),
    StableHlo.unary main_v254 main_v276 (broadcastInDim S7x1 ![0] bcast_S7_S7x1_0 : (⟨S7, .i32⟩ : BufTy).Contents (Elt F) → (⟨S7x1, .i32⟩ : BufTy).Contents (Elt F)),
    StableHlo.unary main_v275 main_v277 (broadcastInDim S7x64 ![0, 1] bcast_S1x64_S7x64_0_1 : (⟨S1x64, .i32⟩ : BufTy).Contents (Elt F) → (⟨S7x64, .i32⟩ : BufTy).Contents (Elt F)),
    StableHlo.unary main_v276 main_v278 (broadcastInDim S7x64 ![0, 1] bcast_S7x1_S7x64_0_1 : (⟨S7x1, .i32⟩ : BufTy).Contents (Elt F) → (⟨S7x64, .i32⟩ : BufTy).Contents (Elt F)),
    StableHlo.binary main_v277 main_v278 main_v279 (cmpi .slt : (⟨S7x64, .i32⟩ : BufTy).Contents (Elt F) → (⟨S7x64, .i32⟩ : BufTy).Contents (Elt F) → (⟨S7x64, .i1⟩ : BufTy).Contents (Elt F)),
    StableHlo.binary main_v274 main_v279 main_v280 (andi : (⟨S7x64, .i1⟩ : BufTy).Contents (Elt F) → (⟨S7x64, .i1⟩ : BufTy).Contents (Elt F) → (⟨S7x64, .i1⟩ : BufTy).Contents (Elt F)),
    StableHlo.unary main_v269 main_v281 (broadcastInDim S1x64 ![1] bcast_S64_S1x64_1 : (⟨S64, .i32⟩ : BufTy).Contents (Elt F) → (⟨S1x64, .i32⟩ : BufTy).Contents (Elt F)),
    StableHlo.unary main_v259 main_v282 (broadcastInDim S7x1 ![0] bcast_S7_S7x1_0 : (⟨S7, .i32⟩ : BufTy).Contents (Elt F) → (⟨S7x1, .i32⟩ : BufTy).Contents (Elt F)),
    StableHlo.unary main_v281 main_v283 (broadcastInDim S7x64 ![0, 1] bcast_S1x64_S7x64_0_1 : (⟨S1x64, .i32⟩ : BufTy).Contents (Elt F) → (⟨S7x64, .i32⟩ : BufTy).Contents (Elt F)),
    StableHlo.unary main_v282 main_v284 (broadcastInDim S7x64 ![0, 1] bcast_S7x1_S7x64_0_1 : (⟨S7x1, .i32⟩ : BufTy).Contents (Elt F) → (⟨S7x64, .i32⟩ : BufTy).Contents (Elt F)),
    StableHlo.binary main_v283 main_v284 main_v285 (cmpi .sge : (⟨S7x64, .i32⟩ : BufTy).Contents (Elt F) → (⟨S7x64, .i32⟩ : BufTy).Contents (Elt F) → (⟨S7x64, .i1⟩ : BufTy).Contents (Elt F)),
    StableHlo.unary main_v269 main_v286 (broadcastInDim S1x64 ![1] bcast_S64_S1x64_1 : (⟨S64, .i32⟩ : BufTy).Contents (Elt F) → (⟨S1x64, .i32⟩ : BufTy).Contents (Elt F)),
    StableHlo.unary main_v267 main_v287 (broadcastInDim S7x1 ![0] bcast_S7_S7x1_0 : (⟨S7, .i32⟩ : BufTy).Contents (Elt F) → (⟨S7x1, .i32⟩ : BufTy).Contents (Elt F)),
    StableHlo.unary main_v286 main_v288 (broadcastInDim S7x64 ![0, 1] bcast_S1x64_S7x64_0_1 : (⟨S1x64, .i32⟩ : BufTy).Contents (Elt F) → (⟨S7x64, .i32⟩ : BufTy).Contents (Elt F)),
    StableHlo.unary main_v287 main_v289 (broadcastInDim S7x64 ![0, 1] bcast_S7x1_S7x64_0_1 : (⟨S7x1, .i32⟩ : BufTy).Contents (Elt F) → (⟨S7x64, .i32⟩ : BufTy).Contents (Elt F)),
    StableHlo.binary main_v288 main_v289 main_v290 (cmpi .slt : (⟨S7x64, .i32⟩ : BufTy).Contents (Elt F) → (⟨S7x64, .i32⟩ : BufTy).Contents (Elt F) → (⟨S7x64, .i1⟩ : BufTy).Contents (Elt F)),
    StableHlo.binary main_v285 main_v290 main_v291 (andi : (⟨S7x64, .i1⟩ : BufTy).Contents (Elt F) → (⟨S7x64, .i1⟩ : BufTy).Contents (Elt F) → (⟨S7x64, .i1⟩ : BufTy).Contents (Elt F)),
    StableHlo.unary main_v280 main_v292 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v293 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_42 (constant S_ .f32 0xFF800000#32) ]
theorem ops5_2_sub : (ops5_2 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops5_2_fresh : (ops5_2 : List (HloOp τ sig (Elt F))).Forall fun op => op.fresh = ∅ := by
  simp only [List.Forall]; repeat' constructor
theorem ops5_2_keeps : (ops5_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 613 … 616 of the program (4 of window 5), in order. -/
abbrev ops5_3 : List (HloOp τ sig (Elt F)) :=
  [ StableHlo.TRef.unary (.of main_v292 : StableHlo.TRef sig ⟨S7x1x64x1, .i1⟩) (.of main_call24_v0 : StableHlo.TRef sig ⟨S7x512x64x64, .i1⟩) (broadcastInDim S7x512x64x64 ![0, 1, 2, 3] bcast_S7x1x64x1_S7x512x64x64_0_1_2_3),
    StableHlo.TRef.unary (.of main_v293 : StableHlo.TRef sig ⟨S1x512x64x64, .f32⟩) (.of main_call24_v1 : StableHlo.TRef sig ⟨S7x512x64x64, .f32⟩) (broadcastInDim S7x512x64x64 ![0, 1, 2, 3] bcast_S1x512x64x64_S7x512x64x64_0_1_2_3),
    StableHlo.TRef.unary (.of main_cst_42 : StableHlo.TRef sig ⟨S_, .f32⟩) (.of main_call24_v2 : StableHlo.TRef sig ⟨S7x512x64x64, .f32⟩) (broadcastInDim S7x512x64x64 ![] bcast_S_S7x512x64x64),
    StableHlo.TRef.ternary (.of main_call24_v0 : StableHlo.TRef sig ⟨S7x512x64x64, .i1⟩) (.of main_call24_v1 : StableHlo.TRef sig ⟨S7x512x64x64, .f32⟩) (.of main_call24_v2 : StableHlo.TRef sig ⟨S7x512x64x64, .f32⟩) (.of main_v294 : StableHlo.TRef sig ⟨S7x512x64x64, .f32⟩) select ]
theorem ops5_3_sub : (ops5_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops5_3_fresh : (ops5_3 : List (HloOp τ sig (Elt F))).Forall fun op => op.fresh = ∅ := by
  simp only [List.Forall]; repeat' constructor
theorem ops5_3_keeps : (ops5_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 617 … 621 of the program (5 of window 5), in order. -/
abbrev ops5_4 : List (HloOp τ sig (Elt F)) :=
  [ StableHlo.nullary main_cst_43 (constant S_ .f32 0xFF800000#32),
    StableHlo.binary main_v294 main_cst_43 main_v295 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v291 main_v296 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v295 main_v297 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_44 (constant S_ .f32 0xFF800000#32) ]
theorem ops5_4_sub : (ops5_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops5_4_fresh : (ops5_4 : List (HloOp τ sig (Elt F))).Forall fun op => op.fresh = ∅ := by
  simp only [List.Forall]; repeat' constructor
theorem ops5_4_keeps : (ops5_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 622 … 625 of the program (4 of window 5), in order. -/
abbrev ops5_5 : List (HloOp τ sig (Elt F)) :=
  [ StableHlo.TRef.unary (.of main_v296 : StableHlo.TRef sig ⟨S1x1x7x64, .i1⟩) (.of main_call25_v0 : StableHlo.TRef sig ⟨S7x512x7x64, .i1⟩) (broadcastInDim S7x512x7x64 ![0, 1, 2, 3] bcast_S1x1x7x64_S7x512x7x64_0_1_2_3),
    StableHlo.TRef.unary (.of main_v297 : StableHlo.TRef sig ⟨S7x512x1x64, .f32⟩) (.of main_call25_v1 : StableHlo.TRef sig ⟨S7x512x7x64, .f32⟩) (broadcastInDim S7x512x7x64 ![0, 1, 2, 3] bcast_S7x512x1x64_S7x512x7x64_0_1_2_3),
    StableHlo.TRef.unary (.of main_cst_44 : StableHlo.TRef sig ⟨S_, .f32⟩) (.of main_call25_v2 : StableHlo.TRef sig ⟨S7x512x7x64, .f32⟩) (broadcastInDim S7x512x7x64 ![] bcast_S_S7x512x7x64),
    StableHlo.TRef.ternary (.of main_call25_v0 : StableHlo.TRef sig ⟨S7x512x7x64, .i1⟩) (.of main_call25_v1 : StableHlo.TRef sig ⟨S7x512x7x64, .f32⟩) (.of main_call25_v2 : StableHlo.TRef sig ⟨S7x512x7x64, .f32⟩) (.of main_v298 : StableHlo.TRef sig ⟨S7x512x7x64, .f32⟩) select ]
theorem ops5_5_sub : (ops5_5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops5_5_fresh : (ops5_5 : List (HloOp τ sig (Elt F))).Forall fun op => op.fresh = ∅ := by
  simp only [List.Forall]; repeat' constructor
theorem ops5_5_keeps : (ops5_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 626 … 639 of the program (14 of window 5), in order. -/
abbrev ops5_6 : List (HloOp τ sig (Elt F)) :=
  [ StableHlo.nullary main_cst_45 (constant S_ .f32 0xFF800000#32),
    StableHlo.binary main_v298 main_cst_45 main_v299 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v299 main_v300 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v300 main_v301 rfl shapeCasts_S512x7x7_S25088,
    StableHlo.unary main_v18 main_v302 ((extractStridedSlice S1x1 ![0, 1] · slices_S3x4_S1x1_0_1) : (⟨S3x4, .i32⟩ : BufTy).Contents (Elt F) → (⟨S1x1, .i32⟩ : BufTy).Contents (Elt F)),
    StableHlo.reshape main_v302 main_v303 rfl shapeCasts_S1x1_S_,
    StableHlo.unary main_v23 main_v304 ((extractStridedSlice S1x1 ![0, 1] · slices_S4x4_S1x1_0_1) : (⟨S4x4, .i32⟩ : BufTy).Contents (Elt F) → (⟨S1x1, .i32⟩ : BufTy).Contents (Elt F)),
    StableHlo.reshape main_v304 main_v305 rfl shapeCasts_S1x1_S_,
    StableHlo.binary main_v303 main_v305 main_v306 (minsi : (⟨S_, .i32⟩ : BufTy).Contents (Elt F) → (⟨S_, .i32⟩ : BufTy).Contents (Elt F) → (⟨S_, .i32⟩ : BufTy).Contents (Elt F)),
    StableHlo.unary main_v18 main_v307 ((extractStridedSlice S1x1 ![0, 3] · slices_S3x4_S1x1_0_3) : (⟨S3x4, .i32⟩ : BufTy).Contents (Elt F) → (⟨S1x1, .i32⟩ : BufTy).Contents (Elt F)),
    StableHlo.reshape main_v307 main_v308 rfl shapeCasts_S1x1_S_,
    StableHlo.unary main_v23 main_v309 ((extractStridedSlice S1x1 ![0, 3] · slices_S4x4_S1x1_0_3) : (⟨S4x4, .i32⟩ : BufTy).Contents (Elt F) → (⟨S1x1, .i32⟩ : BufTy).Contents (Elt F)),
    StableHlo.reshape main_v309 main_v310 rfl shapeCasts_S1x1_S_,
    StableHlo.binary main_v308 main_v310 main_v311 (maxsi : (⟨S_, .i32⟩ : BufTy).Contents (Elt F) → (⟨S_, .i32⟩ : BufTy).Contents (Elt F) → (⟨S_, .i32⟩ : BufTy).Contents (Elt F)) ]
theorem ops5_6_sub : (ops5_6 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub ..⟩
theorem ops5_6_fresh : (ops5_6 : List (HloOp τ sig (Elt F))).Forall fun op => op.fresh = ∅ := by
  simp only [List.Forall]; repeat' constructor
theorem ops5_6_keeps : (ops5_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops5_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part5_eq (c : Dev nD) : main_part5 (F := F) c = Pipeline.chainK [StableHlo.seq ops5_0, StableHlo.seq ops5_1, StableHlo.seq ops5_2, StableHlo.seq ops5_3, StableHlo.seq ops5_4, StableHlo.seq ops5_5] (StableHlo.seq ops5_6) := by
  chain_rfl

end Cert.ReferenceIdeal.Host

end
-- ==== Proof.RefOps06.lean ====
/- Window 6 of the program's @main, every called function's body written out in place: 124 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 640 … 656 of the program (17 of window 6), in order. -/
abbrev ops6_0 : List (HloOp τ sig (Elt F)) :=
  [ StableHlo.unary main_v18 main_v312 ((extractStridedSlice S1x1 ![0, 0] · slices_S3x4_S1x1_0_0) : (⟨S3x4, .i32⟩ : BufTy).Contents (Elt F) → (⟨S1x1, .i32⟩ : BufTy).Contents (Elt F)),
    StableHlo.reshape main_v312 main_v313 rfl shapeCasts_S1x1_S_,
    StableHlo.unary main_v23 main_v314 ((extractStridedSlice S1x1 ![0, 0] · slices_S4x4_S1x1_0_0) : (⟨S4x4, .i32⟩ : BufTy).Contents (Elt F) → (⟨S1x1, .i32⟩ : BufTy).Contents (Elt F)),
    StableHlo.reshape main_v314 main_v315 rfl shapeCasts_S1x1_S_,
    StableHlo.binary main_v313 main_v315 main_v316 (minsi : (⟨S_, .i32⟩ : BufTy).Contents (Elt F) → (⟨S_, .i32⟩ : BufTy).Contents (Elt F) → (⟨S_, .i32⟩ : BufTy).Contents (Elt F)),
    StableHlo.unary main_v18 main_v317 ((extractStridedSlice S1x1 ![0, 2] · slices_S3x4_S1x1_0_2) : (⟨S3x4, .i32⟩ : BufTy).Contents (Elt F) → (⟨S1x1, .i32⟩ : BufTy).Contents (Elt F)),
    StableHlo.reshape main_v317 main_v318 rfl shapeCasts_S1x1_S_,
    StableHlo.unary main_v23 main_v319 ((extractStridedSlice S1x1 ![0, 2] · slices_S4x4_S1x1_0_2) : (⟨S4x4, .i32⟩ : BufTy).Contents (Elt F) → (⟨S1x1, .i32⟩ : BufTy).Contents (Elt F)),
    StableHlo.reshape main_v319 main_v320 rfl shapeCasts_S1x1_S_,
    StableHlo.binary main_v318 main_v320 main_v321 (maxsi : (⟨S_, .i32⟩ : BufTy).Contents (Elt F) → (⟨S_, .i32⟩ : BufTy).Contents (Elt F) → (⟨S_, .i32⟩ : BufTy).Contents (Elt F)),
    StableHlo.binary main_v311 main_v306 main_v322 (subi : (⟨S_, .i32⟩ : BufTy).Contents (Elt F) → (⟨S_, .i32⟩ : BufTy).Contents (Elt F) → (⟨S_, .i32⟩ : BufTy).Contents (Elt F)),
    StableHlo.binary main_v321 main_v316 main_v323 (subi : (⟨S_, .i32⟩ : BufTy).Contents (Elt F) → (⟨S_, .i32⟩ : BufTy).Contents (Elt F) → (⟨S_, .i32⟩ : BufTy).Contents (Elt F)),
    StableHlo.nullary main_v324 (iotaInDim S7 32 0),
    StableHlo.nullary main_v325 (iotaInDim S7 32 0),
    StableHlo.unary main_v322 main_v326 (broadcastInDim S7 ![] bcast_S_S7 : (⟨S_, .i32⟩ : BufTy).Contents (Elt F) → (⟨S7, .i32⟩ : BufTy).Contents (Elt F)),
    StableHlo.binary main_v324 main_v326 main_v327 (muli : (⟨S7, .i32⟩ : BufTy).Contents (Elt F) → (⟨S7, .i32⟩ : BufTy).Contents (Elt F) → (⟨S7, .i32⟩ : BufTy).Contents (Elt F)),
    StableHlo.nullary main_c_46 (constantI S_ 32 7#32) ]
theorem ops6_0_sub : (ops6_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops6_0_fresh : (ops6_0 : List (HloOp τ sig (Elt F))).Forall fun op => op.fresh = ∅ := by
  simp only [List.Forall]; repeat' constructor
theorem ops6_0_keeps : (ops6_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 657 … 673 of the program (17 of window 6), in order. -/
abbrev ops6_1 : List (HloOp τ sig (Elt F)) :=
  [ StableHlo.TRef.unary (.of main_c_46 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S7, .i32⟩) (broadcastInDim S7 ![] bcast_S_S7),
    StableHlo.TRef.binary (.of main_v327 : StableHlo.TRef sig ⟨S7, .i32⟩) (.of main_call26_v1 : StableHlo.TRef sig ⟨S7, .i32⟩) (.of main_call26_v2 : StableHlo.TRef sig ⟨S7, .i32⟩) Host.divsi,
    StableHlo.TRef.unary (.of main_v327 : StableHlo.TRef sig ⟨S7, .i32⟩) (.of main_call26_v3 : StableHlo.TRef sig ⟨S7, .i32⟩) signi,
    StableHlo.TRef.unary (.of main_call26_v0 : StableHlo.TRef sig ⟨S_, .i32⟩) (.of main_call26_v4 : StableHlo.TRef sig ⟨S_, .i32⟩) signi,
    StableHlo.TRef.unary (.of main_call26_v4 : StableHlo.TRef sig ⟨S_, .i32⟩) (.of main_call26_v5 : StableHlo.TRef sig ⟨S7, .i32⟩) (broadcastInDim S7 ![] bcast_S_S7),
    StableHlo.TRef.binary (.of main_call26_v3 : StableHlo.TRef sig ⟨S7, .i32⟩) (.of main_call26_v5 : StableHlo.TRef sig ⟨S7, .i32⟩) (.of main_call26_v6 : StableHlo.TRef sig ⟨S7, .i1⟩) (cmpi .ne),
    StableHlo.TRef.unary (.of main_call26_v0 : StableHlo.TRef sig ⟨S_, .i32⟩) (.of main_call26_v7 : StableHlo.TRef sig ⟨S7, .i32⟩) (broadcastInDim S7 ![] bcast_S_S7),
    StableHlo.TRef.binary (.of main_v327 : StableHlo.TRef sig ⟨S7, .i32⟩) (.of main_call26_v7 : StableHlo.TRef sig ⟨S7, .i32⟩) (.of main_call26_v8 : StableHlo.TRef sig ⟨S7, .i32⟩) Host.remsi,
    StableHlo.TRef.nullary (.of main_call26_c : StableHlo.TRef sig ⟨S_, .i32⟩) (constantI S_ 32 0#32),
    StableHlo.TRef.unary (.of main_call26_c : StableHlo.TRef sig ⟨S_, .i32⟩) (.of main_call26_v9 : StableHlo.TRef sig ⟨S7, .i32⟩) (broadcastInDim S7 ![] bcast_S_S7),
    StableHlo.TRef.binary (.of main_call26_v8 : StableHlo.TRef sig ⟨S7, .i32⟩) (.of main_call26_v9 : StableHlo.TRef sig ⟨S7, .i32⟩) (.of main_call26_v10 : StableHlo.TRef sig ⟨S7, .i1⟩) (cmpi .ne),
    StableHlo.TRef.binary (.of main_call26_v6 : StableHlo.TRef sig ⟨S7, .i1⟩) (.of main_call26_v10 : StableHlo.TRef sig ⟨S7, .i1⟩) (.of main_call26_v11 : StableHlo.TRef sig ⟨S7, .i1⟩) andi,
    StableHlo.TRef.nullary (.of main_call26_c_0 : StableHlo.TRef sig ⟨S_, .i32⟩) (constantI S_ 32 1#32),
    StableHlo.TRef.unary (.of main_call26_c_0 : StableHlo.TRef sig ⟨S_, .i32⟩) (.of main_call26_v12 : StableHlo.TRef sig ⟨S7, .i32⟩) (broadcastInDim S7 ![] bcast_S_S7),
    StableHlo.TRef.binary (.of main_call26_v2 : StableHlo.TRef sig ⟨S7, .i32⟩) (.of main_call26_v12 : StableHlo.TRef sig ⟨S7, .i32⟩) (.of main_call26_v13 : StableHlo.TRef sig ⟨S7, .i32⟩) subi,
    StableHlo.TRef.ternary (.of main_call26_v11 : StableHlo.TRef sig ⟨S7, .i1⟩) (.of main_call26_v13 : StableHlo.TRef sig ⟨S7, .i32⟩) (.of main_call26_v2 : StableHlo.TRef sig ⟨S7, .i32⟩) (.of main_v328 : StableHlo.TRef sig ⟨S7, .i32⟩) select ]
theorem ops6_1_sub : (ops6_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops6_1_fresh : (ops6_1 : List (HloOp τ sig (Elt F))).Forall fun op => op.fresh = ∅ := by
  simp only [List.Forall]; repeat' constructor
theorem ops6_1_keeps : (ops6_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 674 … 682 of the program (9 of window 6), in order. -/
abbrev ops6_2 : List (HloOp τ sig (Elt F)) :=
  [ StableHlo.unary main_v306 main_v329 (broadcastInDim S7 ![] bcast_S_S7 : (⟨S_, .i32⟩ : BufTy).Contents (Elt F) → (⟨S7, .i32⟩ : BufTy).Contents (Elt F)),
    StableHlo.binary main_v329 main_v328 main_v330 (addi : (⟨S7, .i32⟩ : BufTy).Contents (Elt F) → (⟨S7, .i32⟩ : BufTy).Contents (Elt F) → (⟨S7, .i32⟩ : BufTy).Contents (Elt F)),
    StableHlo.nullary main_c_47 (constantI S_ 32 1#32),
    StableHlo.unary main_c_47 main_v331 (broadcastInDim S7 ![] bcast_S_S7 : (⟨S_, .i32⟩ : BufTy).Contents (Elt F) → (⟨S7, .i32⟩ : BufTy).Contents (Elt F)),
    StableHlo.binary main_v324 main_v331 main_v332 (addi : (⟨S7, .i32⟩ : BufTy).Contents (Elt F) → (⟨S7, .i32⟩ : BufTy).Contents (Elt F) → (⟨S7, .i32⟩ : BufTy).Contents (Elt F)),
    StableHlo.unary main_v332 main_v333 (negi : (⟨S7, .i32⟩ : BufTy).Contents (Elt F) → (⟨S7, .i32⟩ : BufTy).Contents (Elt F)),
    StableHlo.unary main_v322 main_v334 (broadcastInDim S7 ![] bcast_S_S7 : (⟨S_, .i32⟩ : BufTy).Contents (Elt F) → (⟨S7, .i32⟩ : BufTy).Contents (Elt F)),
    StableHlo.binary main_v333 main_v334 main_v335 (muli : (⟨S7, .i32⟩ : BufTy).Contents (Elt F) → (⟨S7, .i32⟩ : BufTy).Contents (Elt F) → (⟨S7, .i32⟩ : BufTy).Contents (Elt F)),
    StableHlo.nullary main_c_48 (constantI S_ 32 7#32) ]
theorem ops6_2_sub : (ops6_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops6_2_fresh : (ops6_2 : List (HloOp τ sig (Elt F))).Forall fun op => op.fresh = ∅ := by
  simp only [List.Forall]; repeat' constructor
theorem ops6_2_keeps : (ops6_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 683 … 699 of the program (17 of window 6), in order. -/
abbrev ops6_3 : List (HloOp τ sig (Elt F)) :=
  [ StableHlo.TRef.unary (.of main_c_48 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S7, .i32⟩) (broadcastInDim S7 ![] bcast_S_S7),
    StableHlo.TRef.binary (.of main_v335 : StableHlo.TRef sig ⟨S7, .i32⟩) (.of main_call27_v1 : StableHlo.TRef sig ⟨S7, .i32⟩) (.of main_call27_v2 : StableHlo.TRef sig ⟨S7, .i32⟩) Host.divsi,
    StableHlo.TRef.unary (.of main_v335 : StableHlo.TRef sig ⟨S7, .i32⟩) (.of main_call27_v3 : StableHlo.TRef sig ⟨S7, .i32⟩) signi,
    StableHlo.TRef.unary (.of main_call27_v0 : StableHlo.TRef sig ⟨S_, .i32⟩) (.of main_call27_v4 : StableHlo.TRef sig ⟨S_, .i32⟩) signi,
    StableHlo.TRef.unary (.of main_call27_v4 : StableHlo.TRef sig ⟨S_, .i32⟩) (.of main_call27_v5 : StableHlo.TRef sig ⟨S7, .i32⟩) (broadcastInDim S7 ![] bcast_S_S7),
    StableHlo.TRef.binary (.of main_call27_v3 : StableHlo.TRef sig ⟨S7, .i32⟩) (.of main_call27_v5 : StableHlo.TRef sig ⟨S7, .i32⟩) (.of main_call27_v6 : StableHlo.TRef sig ⟨S7, .i1⟩) (cmpi .ne),
    StableHlo.TRef.unary (.of main_call27_v0 : StableHlo.TRef sig ⟨S_, .i32⟩) (.of main_call27_v7 : StableHlo.TRef sig ⟨S7, .i32⟩) (broadcastInDim S7 ![] bcast_S_S7),
    StableHlo.TRef.binary (.of main_v335 : StableHlo.TRef sig ⟨S7, .i32⟩) (.of main_call27_v7 : StableHlo.TRef sig ⟨S7, .i32⟩) (.of main_call27_v8 : StableHlo.TRef sig ⟨S7, .i32⟩) Host.remsi,
    StableHlo.TRef.nullary (.of main_call27_c : StableHlo.TRef sig ⟨S_, .i32⟩) (constantI S_ 32 0#32),
    StableHlo.TRef.unary (.of main_call27_c : StableHlo.TRef sig ⟨S_, .i32⟩) (.of main_call27_v9 : StableHlo.TRef sig ⟨S7, .i32⟩) (broadcastInDim S7 ![] bcast_S_S7),
    StableHlo.TRef.binary (.of main_call27_v8 : StableHlo.TRef sig ⟨S7, .i32⟩) (.of main_call27_v9 : StableHlo.TRef sig ⟨S7, .i32⟩) (.of main_call27_v10 : StableHlo.TRef sig ⟨S7, .i1⟩) (cmpi .ne),
    StableHlo.TRef.binary (.of main_call27_v6 : StableHlo.TRef sig ⟨S7, .i1⟩) (.of main_call27_v10 : StableHlo.TRef sig ⟨S7, .i1⟩) (.of main_call27_v11 : StableHlo.TRef sig ⟨S7, .i1⟩) andi,
    StableHlo.TRef.nullary (.of main_call27_c_0 : StableHlo.TRef sig ⟨S_, .i32⟩) (constantI S_ 32 1#32),
    StableHlo.TRef.unary (.of main_call27_c_0 : StableHlo.TRef sig ⟨S_, .i32⟩) (.of main_call27_v12 : StableHlo.TRef sig ⟨S7, .i32⟩) (broadcastInDim S7 ![] bcast_S_S7),
    StableHlo.TRef.binary (.of main_call27_v2 : StableHlo.TRef sig ⟨S7, .i32⟩) (.of main_call27_v12 : StableHlo.TRef sig ⟨S7, .i32⟩) (.of main_call27_v13 : StableHlo.TRef sig ⟨S7, .i32⟩) subi,
    StableHlo.TRef.ternary (.of main_call27_v11 : StableHlo.TRef sig ⟨S7, .i1⟩) (.of main_call27_v13 : StableHlo.TRef sig ⟨S7, .i32⟩) (.of main_call27_v2 : StableHlo.TRef sig ⟨S7, .i32⟩) (.of main_v336 : StableHlo.TRef sig ⟨S7, .i32⟩) select ]
theorem ops6_3_sub : (ops6_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops6_3_fresh : (ops6_3 : List (HloOp τ sig (Elt F))).Forall fun op => op.fresh = ∅ := by
  simp only [List.Forall]; repeat' constructor
theorem ops6_3_keeps : (ops6_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 700 … 704 of the program (5 of window 6), in order. -/
abbrev ops6_4 : List (HloOp τ sig (Elt F)) :=
  [ StableHlo.unary main_v306 main_v337 (broadcastInDim S7 ![] bcast_S_S7 : (⟨S_, .i32⟩ : BufTy).Contents (Elt F) → (⟨S7, .i32⟩ : BufTy).Contents (Elt F)),
    StableHlo.binary main_v337 main_v336 main_v338 (subi : (⟨S7, .i32⟩ : BufTy).Contents (Elt F) → (⟨S7, .i32⟩ : BufTy).Contents (Elt F) → (⟨S7, .i32⟩ : BufTy).Contents (Elt F)),
    StableHlo.unary main_v323 main_v339 (broadcastInDim S7 ![] bcast_S_S7 : (⟨S_, .i32⟩ : BufTy).Contents (Elt F) → (⟨S7, .i32⟩ : BufTy).Contents (Elt F)),
    StableHlo.binary main_v325 main_v339 main_v340 (muli : (⟨S7, .i32⟩ : BufTy).Contents (Elt F) → (⟨S7, .i32⟩ : BufTy).Contents (Elt F) → (⟨S7, .i32⟩ : BufTy).Contents (Elt F)),
    StableHlo.nullary main_c_49 (constantI S_ 32 7#32) ]
theorem ops6_4_sub : (ops6_4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops6_4_fresh : (ops6_4 : List (HloOp τ sig (Elt F))).Forall fun op => op.fresh = ∅ := by
  simp only [List.Forall]; repeat' constructor
theorem ops6_4_keeps : (ops6_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 705 … 721 of the program (17 of window 6), in order. -/
abbrev ops6_5 : List (HloOp τ sig (Elt F)) :=
  [ StableHlo.TRef.unary (.of main_c_49 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S7, .i32⟩) (broadcastInDim S7 ![] bcast_S_S7),
    StableHlo.TRef.binary (.of main_v340 : StableHlo.TRef sig ⟨S7, .i32⟩) (.of main_call28_v1 : StableHlo.TRef sig ⟨S7, .i32⟩) (.of main_call28_v2 : StableHlo.TRef sig ⟨S7, .i32⟩) Host.divsi,
    StableHlo.TRef.unary (.of main_v340 : StableHlo.TRef sig ⟨S7, .i32⟩) (.of main_call28_v3 : StableHlo.TRef sig ⟨S7, .i32⟩) signi,
    StableHlo.TRef.unary (.of main_call28_v0 : StableHlo.TRef sig ⟨S_, .i32⟩) (.of main_call28_v4 : StableHlo.TRef sig ⟨S_, .i32⟩) signi,
    StableHlo.TRef.unary (.of main_call28_v4 : StableHlo.TRef sig ⟨S_, .i32⟩) (.of main_call28_v5 : StableHlo.TRef sig ⟨S7, .i32⟩) (broadcastInDim S7 ![] bcast_S_S7),
    StableHlo.TRef.binary (.of main_call28_v3 : StableHlo.TRef sig ⟨S7, .i32⟩) (.of main_call28_v5 : StableHlo.TRef sig ⟨S7, .i32⟩) (.of main_call28_v6 : StableHlo.TRef sig ⟨S7, .i1⟩) (cmpi .ne),
    StableHlo.TRef.unary (.of main_call28_v0 : StableHlo.TRef sig ⟨S_, .i32⟩) (.of main_call28_v7 : StableHlo.TRef sig ⟨S7, .i32⟩) (broadcastInDim S7 ![] bcast_S_S7),
    StableHlo.TRef.binary (.of main_v340 : StableHlo.TRef sig ⟨S7, .i32⟩) (.of main_call28_v7 : StableHlo.TRef sig ⟨S7, .i32⟩) (.of main_call28_v8 : StableHlo.TRef sig ⟨S7, .i32⟩) Host.remsi,
    StableHlo.TRef.nullary (.of main_call28_c : StableHlo.TRef sig ⟨S_, .i32⟩) (constantI S_ 32 0#32),
    StableHlo.TRef.unary (.of main_call28_c : StableHlo.TRef sig ⟨S_, .i32⟩) (.of main_call28_v9 : StableHlo.TRef sig ⟨S7, .i32⟩) (broadcastInDim S7 ![] bcast_S_S7),
    StableHlo.TRef.binary (.of main_call28_v8 : StableHlo.TRef sig ⟨S7, .i32⟩) (.of main_call28_v9 : StableHlo.TRef sig ⟨S7, .i32⟩) (.of main_call28_v10 : StableHlo.TRef sig ⟨S7, .i1⟩) (cmpi .ne),
    StableHlo.TRef.binary (.of main_call28_v6 : StableHlo.TRef sig ⟨S7, .i1⟩) (.of main_call28_v10 : StableHlo.TRef sig ⟨S7, .i1⟩) (.of main_call28_v11 : StableHlo.TRef sig ⟨S7, .i1⟩) andi,
    StableHlo.TRef.nullary (.of main_call28_c_0 : StableHlo.TRef sig ⟨S_, .i32⟩) (constantI S_ 32 1#32),
    StableHlo.TRef.unary (.of main_call28_c_0 : StableHlo.TRef sig ⟨S_, .i32⟩) (.of main_call28_v12 : StableHlo.TRef sig ⟨S7, .i32⟩) (broadcastInDim S7 ![] bcast_S_S7),
    StableHlo.TRef.binary (.of main_call28_v2 : StableHlo.TRef sig ⟨S7, .i32⟩) (.of main_call28_v12 : StableHlo.TRef sig ⟨S7, .i32⟩) (.of main_call28_v13 : StableHlo.TRef sig ⟨S7, .i32⟩) subi,
    StableHlo.TRef.ternary (.of main_call28_v11 : StableHlo.TRef sig ⟨S7, .i1⟩) (.of main_call28_v13 : StableHlo.TRef sig ⟨S7, .i32⟩) (.of main_call28_v2 : StableHlo.TRef sig ⟨S7, .i32⟩) (.of main_v341 : StableHlo.TRef sig ⟨S7, .i32⟩) select ]
theorem ops6_5_sub : (ops6_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops6_5_fresh : (ops6_5 : List (HloOp τ sig (Elt F))).Forall fun op => op.fresh = ∅ := by
  simp only [List.Forall]; repeat' constructor
theorem ops6_5_keeps : (ops6_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 722 … 730 of the program (9 of window 6), in order. -/
abbrev ops6_6 : List (HloOp τ sig (Elt F)) :=
  [ StableHlo.unary main_v316 main_v342 (broadcastInDim S7 ![] bcast_S_S7 : (⟨S_, .i32⟩ : BufTy).Contents (Elt F) → (⟨S7, .i32⟩ : BufTy).Contents (Elt F)),
    StableHlo.binary main_v342 main_v341 main_v343 (addi : (⟨S7, .i32⟩ : BufTy).Contents (Elt F) → (⟨S7, .i32⟩ : BufTy).Contents (Elt F) → (⟨S7, .i32⟩ : BufTy).Contents (Elt F)),
    StableHlo.nullary main_c_50 (constantI S_ 32 1#32),
    StableHlo.unary main_c_50 main_v344 (broadcastInDim S7 ![] bcast_S_S7 : (⟨S_, .i32⟩ : BufTy).Contents (Elt F) → (⟨S7, .i32⟩ : BufTy).Contents (Elt F)),
    StableHlo.binary main_v325 main_v344 main_v345 (addi : (⟨S7, .i32⟩ : BufTy).Contents (Elt F) → (⟨S7, .i32⟩ : BufTy).Contents (Elt F) → (⟨S7, .i32⟩ : BufTy).Contents (Elt F)),
    StableHlo.unary main_v345 main_v346 (negi : (⟨S7, .i32⟩ : BufTy).Contents (Elt F) → (⟨S7, .i32⟩ : BufTy).Contents (Elt F)),
    StableHlo.unary main_v323 main_v347 (broadcastInDim S7 ![] bcast_S_S7 : (⟨S_, .i32⟩ : BufTy).Contents (Elt F) → (⟨S7, .i32⟩ : BufTy).Contents (Elt F)),
    StableHlo.binary main_v346 main_v347 main_v348 (muli : (⟨S7, .i32⟩ : BufTy).Contents (Elt F) → (⟨S7, .i32⟩ : BufTy).Contents (Elt F) → (⟨S7, .i32⟩ : BufTy).Contents (Elt F)),
    StableHlo.nullary main_c_51 (constantI S_ 32 7#32) ]
theorem ops6_6_sub : (ops6_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops6_6_fresh : (ops6_6 : List (HloOp τ sig (Elt F))).Forall fun op => op.fresh = ∅ := by
  simp only [List.Forall]; repeat' constructor
theorem ops6_6_keeps : (ops6_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 731 … 747 of the program (17 of window 6), in order. -/
abbrev ops6_7 : List (HloOp τ sig (Elt F)) :=
  [ StableHlo.TRef.unary (.of main_c_51 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S7, .i32⟩) (broadcastInDim S7 ![] bcast_S_S7),
    StableHlo.TRef.binary (.of main_v348 : StableHlo.TRef sig ⟨S7, .i32⟩) (.of main_call29_v1 : StableHlo.TRef sig ⟨S7, .i32⟩) (.of main_call29_v2 : StableHlo.TRef sig ⟨S7, .i32⟩) Host.divsi,
    StableHlo.TRef.unary (.of main_v348 : StableHlo.TRef sig ⟨S7, .i32⟩) (.of main_call29_v3 : StableHlo.TRef sig ⟨S7, .i32⟩) signi,
    StableHlo.TRef.unary (.of main_call29_v0 : StableHlo.TRef sig ⟨S_, .i32⟩) (.of main_call29_v4 : StableHlo.TRef sig ⟨S_, .i32⟩) signi,
    StableHlo.TRef.unary (.of main_call29_v4 : StableHlo.TRef sig ⟨S_, .i32⟩) (.of main_call29_v5 : StableHlo.TRef sig ⟨S7, .i32⟩) (broadcastInDim S7 ![] bcast_S_S7),
    StableHlo.TRef.binary (.of main_call29_v3 : StableHlo.TRef sig ⟨S7, .i32⟩) (.of main_call29_v5 : StableHlo.TRef sig ⟨S7, .i32⟩) (.of main_call29_v6 : StableHlo.TRef sig ⟨S7, .i1⟩) (cmpi .ne),
    StableHlo.TRef.unary (.of main_call29_v0 : StableHlo.TRef sig ⟨S_, .i32⟩) (.of main_call29_v7 : StableHlo.TRef sig ⟨S7, .i32⟩) (broadcastInDim S7 ![] bcast_S_S7),
    StableHlo.TRef.binary (.of main_v348 : StableHlo.TRef sig ⟨S7, .i32⟩) (.of main_call29_v7 : StableHlo.TRef sig ⟨S7, .i32⟩) (.of main_call29_v8 : StableHlo.TRef sig ⟨S7, .i32⟩) Host.remsi,
    StableHlo.TRef.nullary (.of main_call29_c : StableHlo.TRef sig ⟨S_, .i32⟩) (constantI S_ 32 0#32),
    StableHlo.TRef.unary (.of main_call29_c : StableHlo.TRef sig ⟨S_, .i32⟩) (.of main_call29_v9 : StableHlo.TRef sig ⟨S7, .i32⟩) (broadcastInDim S7 ![] bcast_S_S7),
    StableHlo.TRef.binary (.of main_call29_v8 : StableHlo.TRef sig ⟨S7, .i32⟩) (.of main_call29_v9 : StableHlo.TRef sig ⟨S7, .i32⟩) (.of main_call29_v10 : StableHlo.TRef sig ⟨S7, .i1⟩) (cmpi .ne),
    StableHlo.TRef.binary (.of main_call29_v6 : StableHlo.TRef sig ⟨S7, .i1⟩) (.of main_call29_v10 : StableHlo.TRef sig ⟨S7, .i1⟩) (.of main_call29_v11 : StableHlo.TRef sig ⟨S7, .i1⟩) andi,
    StableHlo.TRef.nullary (.of main_call29_c_0 : StableHlo.TRef sig ⟨S_, .i32⟩) (constantI S_ 32 1#32),
    StableHlo.TRef.unary (.of main_call29_c_0 : StableHlo.TRef sig ⟨S_, .i32⟩) (.of main_call29_v12 : StableHlo.TRef sig ⟨S7, .i32⟩) (broadcastInDim S7 ![] bcast_S_S7),
    StableHlo.TRef.binary (.of main_call29_v2 : StableHlo.TRef sig ⟨S7, .i32⟩) (.of main_call29_v12 : StableHlo.TRef sig ⟨S7, .i32⟩) (.of main_call29_v13 : StableHlo.TRef sig ⟨S7, .i32⟩) subi,
    StableHlo.TRef.ternary (.of main_call29_v11 : StableHlo.TRef sig ⟨S7, .i1⟩) (.of main_call29_v13 : StableHlo.TRef sig ⟨S7, .i32⟩) (.of main_call29_v2 : StableHlo.TRef sig ⟨S7, .i32⟩) (.of main_v349 : StableHlo.TRef sig ⟨S7, .i32⟩) select ]
theorem ops6_7_sub : (ops6_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops6_7_fresh : (ops6_7 : List (HloOp τ sig (Elt F))).Forall fun op => op.fresh = ∅ := by
  simp only [List.Forall]; repeat' constructor
theorem ops6_7_keeps : (ops6_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 748 … 763 of the program (16 of window 6), in order. -/
abbrev ops6_8 : List (HloOp τ sig (Elt F)) :=
  [ StableHlo.unary main_v316 main_v350 (broadcastInDim S7 ![] bcast_S_S7 : (⟨S_, .i32⟩ : BufTy).Contents (Elt F) → (⟨S7, .i32⟩ : BufTy).Contents (Elt F)),
    StableHlo.binary main_v350 main_v349 main_v351 (subi : (⟨S7, .i32⟩ : BufTy).Contents (Elt F) → (⟨S7, .i32⟩ : BufTy).Contents (Elt F) → (⟨S7, .i32⟩ : BufTy).Contents (Elt F)),
    StableHlo.nullary main_v352 (iotaInDim S64 32 0),
    StableHlo.nullary main_v353 (iotaInDim S64 32 0),
    StableHlo.unary main_v352 main_v354 (broadcastInDim S1x64 ![1] bcast_S64_S1x64_1 : (⟨S64, .i32⟩ : BufTy).Contents (Elt F) → (⟨S1x64, .i32⟩ : BufTy).Contents (Elt F)),
    StableHlo.unary main_v330 main_v355 (broadcastInDim S7x1 ![0] bcast_S7_S7x1_0 : (⟨S7, .i32⟩ : BufTy).Contents (Elt F) → (⟨S7x1, .i32⟩ : BufTy).Contents (Elt F)),
    StableHlo.unary main_v354 main_v356 (broadcastInDim S7x64 ![0, 1] bcast_S1x64_S7x64_0_1 : (⟨S1x64, .i32⟩ : BufTy).Contents (Elt F) → (⟨S7x64, .i32⟩ : BufTy).Contents (Elt F)),
    StableHlo.unary main_v355 main_v357 (broadcastInDim S7x64 ![0, 1] bcast_S7x1_S7x64_0_1 : (⟨S7x1, .i32⟩ : BufTy).Contents (Elt F) → (⟨S7x64, .i32⟩ : BufTy).Contents (Elt F)),
    StableHlo.binary main_v356 main_v357 main_v358 (cmpi .sge : (⟨S7x64, .i32⟩ : BufTy).Contents (Elt F) → (⟨S7x64, .i32⟩ : BufTy).Contents (Elt F) → (⟨S7x64, .i1⟩ : BufTy).Contents (Elt F)),
    StableHlo.unary main_v352 main_v359 (broadcastInDim S1x64 ![1] bcast_S64_S1x64_1 : (⟨S64, .i32⟩ : BufTy).Contents (Elt F) → (⟨S1x64, .i32⟩ : BufTy).Contents (Elt F)),
    StableHlo.unary main_v338 main_v360 (broadcastInDim S7x1 ![0] bcast_S7_S7x1_0 : (⟨S7, .i32⟩ : BufTy).Contents (Elt F) → (⟨S7x1, .i32⟩ : BufTy).Contents (Elt F)),
    StableHlo.unary main_v359 main_v361 (broadcastInDim S7x64 ![0, 1] bcast_S1x64_S7x64_0_1 : (⟨S1x64, .i32⟩ : BufTy).Contents (Elt F) → (⟨S7x64, .i32⟩ : BufTy).Contents (Elt F)),
    StableHlo.unary main_v360 main_v362 (broadcastInDim S7x64 ![0, 1] bcast_S7x1_S7x64_0_1 : (⟨S7x1, .i32⟩ : BufTy).Contents (Elt F) → (⟨S7x64, .i32⟩ : BufTy).Contents (Elt F)),
    StableHlo.binary main_v361 main_v362 main_v363 (cmpi .slt : (⟨S7x64, .i32⟩ : BufTy).Contents (Elt F) → (⟨S7x64, .i32⟩ : BufTy).Contents (Elt F) → (⟨S7x64, .i1⟩ : BufTy).Contents (Elt F)),
    StableHlo.binary main_v358 main_v363 main_v364 (andi : (⟨S7x64, .i1⟩ : BufTy).Contents (Elt F) → (⟨S7x64, .i1⟩ : BufTy).Contents (Elt F) → (⟨S7x64, .i1⟩ : BufTy).Contents (Elt F)),
    StableHlo.unary main_v353 main_v365 (broadcastInDim S1x64 ![1] bcast_S64_S1x64_1 : (⟨S64, .i32⟩ : BufTy).Contents (Elt F) → (⟨S1x64, .i32⟩ : BufTy).Contents (Elt F)) ]
theorem ops6_8_sub : (ops6_8 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub ..⟩
theorem ops6_8_fresh : (ops6_8 : List (HloOp τ sig (Elt F))).Forall fun op => op.fresh = ∅ := by
  simp only [List.Forall]; repeat' constructor
theorem ops6_8_keeps : (ops6_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops6_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part6_eq (c : Dev nD) : main_part6 (F := F) c = Pipeline.chainK [StableHlo.seq ops6_0, StableHlo.seq ops6_1, StableHlo.seq ops6_2, StableHlo.seq ops6_3, StableHlo.seq ops6_4, StableHlo.seq ops6_5, StableHlo.seq ops6_6, StableHlo.seq ops6_7] (StableHlo.seq ops6_8) := by
  chain_rfl

end Cert.ReferenceIdeal.Host

end
-- ==== Proof.RefOps07.lean ====
/- Window 7 of the program's @main, every called function's body written out in place: 82 operations,
  cut into 7 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 764 … 776 of the program (13 of window 7), in order. -/
abbrev ops7_0 : List (HloOp τ sig (Elt F)) :=
  [ StableHlo.unary main_v343 main_v366 (broadcastInDim S7x1 ![0] bcast_S7_S7x1_0 : (⟨S7, .i32⟩ : BufTy).Contents (Elt F) → (⟨S7x1, .i32⟩ : BufTy).Contents (Elt F)),
    StableHlo.unary main_v365 main_v367 (broadcastInDim S7x64 ![0, 1] bcast_S1x64_S7x64_0_1 : (⟨S1x64, .i32⟩ : BufTy).Contents (Elt F) → (⟨S7x64, .i32⟩ : BufTy).Contents (Elt F)),
    StableHlo.unary main_v366 main_v368 (broadcastInDim S7x64 ![0, 1] bcast_S7x1_S7x64_0_1 : (⟨S7x1, .i32⟩ : BufTy).Contents (Elt F) → (⟨S7x64, .i32⟩ : BufTy).Contents (Elt F)),
    StableHlo.binary main_v367 main_v368 main_v369 (cmpi .sge : (⟨S7x64, .i32⟩ : BufTy).Contents (Elt F) → (⟨S7x64, .i32⟩ : BufTy).Contents (Elt F) → (⟨S7x64, .i1⟩ : BufTy).Contents (Elt F)),
    StableHlo.unary main_v353 main_v370 (broadcastInDim S1x64 ![1] bcast_S64_S1x64_1 : (⟨S64, .i32⟩ : BufTy).Contents (Elt F) → (⟨S1x64, .i32⟩ : BufTy).Contents (Elt F)),
    StableHlo.unary main_v351 main_v371 (broadcastInDim S7x1 ![0] bcast_S7_S7x1_0 : (⟨S7, .i32⟩ : BufTy).Contents (Elt F) → (⟨S7x1, .i32⟩ : BufTy).Contents (Elt F)),
    StableHlo.unary main_v370 main_v372 (broadcastInDim S7x64 ![0, 1] bcast_S1x64_S7x64_0_1 : (⟨S1x64, .i32⟩ : BufTy).Contents (Elt F) → (⟨S7x64, .i32⟩ : BufTy).Contents (Elt F)),
    StableHlo.unary main_v371 main_v373 (broadcastInDim S7x64 ![0, 1] bcast_S7x1_S7x64_0_1 : (⟨S7x1, .i32⟩ : BufTy).Contents (Elt F) → (⟨S7x64, .i32⟩ : BufTy).Contents (Elt F)),
    StableHlo.binary main_v372 main_v373 main_v374 (cmpi .slt : (⟨S7x64, .i32⟩ : BufTy).Contents (Elt F) → (⟨S7x64, .i32⟩ : BufTy).Contents (Elt F) → (⟨S7x64, .i1⟩ : BufTy).Contents (Elt F)),
    StableHlo.binary main_v369 main_v374 main_v375 (andi : (⟨S7x64, .i1⟩ : BufTy).Contents (Elt F) → (⟨S7x64, .i1⟩ : BufTy).Contents (Elt F) → (⟨S7x64, .i1⟩ : BufTy).Contents (Elt F)),
    StableHlo.unary main_v364 main_v376 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v377 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_52 (constant S_ .f32 0xFF800000#32) ]
theorem ops7_0_sub : (ops7_0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops7_0_fresh : (ops7_0 : List (HloOp τ sig (Elt F))).Forall fun op => op.fresh = ∅ := by
  simp only [List.Forall]; repeat' constructor
theorem ops7_0_keeps : (ops7_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 777 … 780 of the program (4 of window 7), in order. -/
abbrev ops7_1 : List (HloOp τ sig (Elt F)) :=
  [ StableHlo.TRef.unary (.of main_v376 : StableHlo.TRef sig ⟨S7x1x64x1, .i1⟩) (.of main_call30_v0 : StableHlo.TRef sig ⟨S7x512x64x64, .i1⟩) (broadcastInDim S7x512x64x64 ![0, 1, 2, 3] bcast_S7x1x64x1_S7x512x64x64_0_1_2_3),
    StableHlo.TRef.unary (.of main_v377 : StableHlo.TRef sig ⟨S1x512x64x64, .f32⟩) (.of main_call30_v1 : StableHlo.TRef sig ⟨S7x512x64x64, .f32⟩) (broadcastInDim S7x512x64x64 ![0, 1, 2, 3] bcast_S1x512x64x64_S7x512x64x64_0_1_2_3),
    StableHlo.TRef.unary (.of main_cst_52 : StableHlo.TRef sig ⟨S_, .f32⟩) (.of main_call30_v2 : StableHlo.TRef sig ⟨S7x512x64x64, .f32⟩) (broadcastInDim S7x512x64x64 ![] bcast_S_S7x512x64x64),
    StableHlo.TRef.ternary (.of main_call30_v0 : StableHlo.TRef sig ⟨S7x512x64x64, .i1⟩) (.of main_call30_v1 : StableHlo.TRef sig ⟨S7x512x64x64, .f32⟩) (.of main_call30_v2 : StableHlo.TRef sig ⟨S7x512x64x64, .f32⟩) (.of main_v378 : StableHlo.TRef sig ⟨S7x512x64x64, .f32⟩) select ]
theorem ops7_1_sub : (ops7_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops7_1_fresh : (ops7_1 : List (HloOp τ sig (Elt F))).Forall fun op => op.fresh = ∅ := by
  simp only [List.Forall]; repeat' constructor
theorem ops7_1_keeps : (ops7_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 781 … 785 of the program (5 of window 7), in order. -/
abbrev ops7_2 : List (HloOp τ sig (Elt F)) :=
  [ StableHlo.nullary main_cst_53 (constant S_ .f32 0xFF800000#32),
    StableHlo.binary main_v378 main_cst_53 main_v379 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v375 main_v380 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v379 main_v381 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_54 (constant S_ .f32 0xFF800000#32) ]
theorem ops7_2_sub : (ops7_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops7_2_fresh : (ops7_2 : List (HloOp τ sig (Elt F))).Forall fun op => op.fresh = ∅ := by
  simp only [List.Forall]; repeat' constructor
theorem ops7_2_keeps : (ops7_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 786 … 789 of the program (4 of window 7), in order. -/
abbrev ops7_3 : List (HloOp τ sig (Elt F)) :=
  [ StableHlo.TRef.unary (.of main_v380 : StableHlo.TRef sig ⟨S1x1x7x64, .i1⟩) (.of main_call31_v0 : StableHlo.TRef sig ⟨S7x512x7x64, .i1⟩) (broadcastInDim S7x512x7x64 ![0, 1, 2, 3] bcast_S1x1x7x64_S7x512x7x64_0_1_2_3),
    StableHlo.TRef.unary (.of main_v381 : StableHlo.TRef sig ⟨S7x512x1x64, .f32⟩) (.of main_call31_v1 : StableHlo.TRef sig ⟨S7x512x7x64, .f32⟩) (broadcastInDim S7x512x7x64 ![0, 1, 2, 3] bcast_S7x512x1x64_S7x512x7x64_0_1_2_3),
    StableHlo.TRef.unary (.of main_cst_54 : StableHlo.TRef sig ⟨S_, .f32⟩) (.of main_call31_v2 : StableHlo.TRef sig ⟨S7x512x7x64, .f32⟩) (broadcastInDim S7x512x7x64 ![] bcast_S_S7x512x7x64),
    StableHlo.TRef.ternary (.of main_call31_v0 : StableHlo.TRef sig ⟨S7x512x7x64, .i1⟩) (.of main_call31_v1 : StableHlo.TRef sig ⟨S7x512x7x64, .f32⟩) (.of main_call31_v2 : StableHlo.TRef sig ⟨S7x512x7x64, .f32⟩) (.of main_v382 : StableHlo.TRef sig ⟨S7x512x7x64, .f32⟩) select ]
theorem ops7_3_sub : (ops7_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops7_3_fresh : (ops7_3 : List (HloOp τ sig (Elt F))).Forall fun op => op.fresh = ∅ := by
  simp only [List.Forall]; repeat' constructor
theorem ops7_3_keeps : (ops7_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 790 … 820 of the program (31 of window 7), in order. -/
abbrev ops7_4 : List (HloOp τ sig (Elt F)) :=
  [ StableHlo.nullary main_cst_55 (constant S_ .f32 0xFF800000#32),
    StableHlo.binary main_v382 main_cst_55 main_v383 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v383 main_v384 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v384 main_v385 rfl shapeCasts_S512x7x7_S25088,
    StableHlo.unary main_v18 main_v386 ((extractStridedSlice S1x1 ![0, 1] · slices_S3x4_S1x1_0_1) : (⟨S3x4, .i32⟩ : BufTy).Contents (Elt F) → (⟨S1x1, .i32⟩ : BufTy).Contents (Elt F)),
    StableHlo.reshape main_v386 main_v387 rfl shapeCasts_S1x1_S_,
    StableHlo.unary main_v23 main_v388 ((extractStridedSlice S1x1 ![1, 1] · slices_S4x4_S1x1_1_1) : (⟨S4x4, .i32⟩ : BufTy).Contents (Elt F) → (⟨S1x1, .i32⟩ : BufTy).Contents (Elt F)),
    StableHlo.reshape main_v388 main_v389 rfl shapeCasts_S1x1_S_,
    StableHlo.binary main_v387 main_v389 main_v390 (minsi : (⟨S_, .i32⟩ : BufTy).Contents (Elt F) → (⟨S_, .i32⟩ : BufTy).Contents (Elt F) → (⟨S_, .i32⟩ : BufTy).Contents (Elt F)),
    StableHlo.unary main_v18 main_v391 ((extractStridedSlice S1x1 ![0, 3] · slices_S3x4_S1x1_0_3) : (⟨S3x4, .i32⟩ : BufTy).Contents (Elt F) → (⟨S1x1, .i32⟩ : BufTy).Contents (Elt F)),
    StableHlo.reshape main_v391 main_v392 rfl shapeCasts_S1x1_S_,
    StableHlo.unary main_v23 main_v393 ((extractStridedSlice S1x1 ![1, 3] · slices_S4x4_S1x1_1_3) : (⟨S4x4, .i32⟩ : BufTy).Contents (Elt F) → (⟨S1x1, .i32⟩ : BufTy).Contents (Elt F)),
    StableHlo.reshape main_v393 main_v394 rfl shapeCasts_S1x1_S_,
    StableHlo.binary main_v392 main_v394 main_v395 (maxsi : (⟨S_, .i32⟩ : BufTy).Contents (Elt F) → (⟨S_, .i32⟩ : BufTy).Contents (Elt F) → (⟨S_, .i32⟩ : BufTy).Contents (Elt F)),
    StableHlo.unary main_v18 main_v396 ((extractStridedSlice S1x1 ![0, 0] · slices_S3x4_S1x1_0_0) : (⟨S3x4, .i32⟩ : BufTy).Contents (Elt F) → (⟨S1x1, .i32⟩ : BufTy).Contents (Elt F)),
    StableHlo.reshape main_v396 main_v397 rfl shapeCasts_S1x1_S_,
    StableHlo.unary main_v23 main_v398 ((extractStridedSlice S1x1 ![1, 0] · slices_S4x4_S1x1_1_0) : (⟨S4x4, .i32⟩ : BufTy).Contents (Elt F) → (⟨S1x1, .i32⟩ : BufTy).Contents (Elt F)),
    StableHlo.reshape main_v398 main_v399 rfl shapeCasts_S1x1_S_,
    StableHlo.binary main_v397 main_v399 main_v400 (minsi : (⟨S_, .i32⟩ : BufTy).Contents (Elt F) → (⟨S_, .i32⟩ : BufTy).Contents (Elt F) → (⟨S_, .i32⟩ : BufTy).Contents (Elt F)),
    StableHlo.unary main_v18 main_v401 ((extractStridedSlice S1x1 ![0, 2] · slices_S3x4_S1x1_0_2) : (⟨S3x4, .i32⟩ : BufTy).Contents (Elt F) → (⟨S1x1, .i32⟩ : BufTy).Contents (Elt F)),
    StableHlo.reshape main_v401 main_v402 rfl shapeCasts_S1x1_S_,
    StableHlo.unary main_v23 main_v403 ((extractStridedSlice S1x1 ![1, 2] · slices_S4x4_S1x1_1_2) : (⟨S4x4, .i32⟩ : BufTy).Contents (Elt F) → (⟨S1x1, .i32⟩ : BufTy).Contents (Elt F)),
    StableHlo.reshape main_v403 main_v404 rfl shapeCasts_S1x1_S_,
    StableHlo.binary main_v402 main_v404 main_v405 (maxsi : (⟨S_, .i32⟩ : BufTy).Contents (Elt F) → (⟨S_, .i32⟩ : BufTy).Contents (Elt F) → (⟨S_, .i32⟩ : BufTy).Contents (Elt F)),
    StableHlo.binary main_v395 main_v390 main_v406 (subi : (⟨S_, .i32⟩ : BufTy).Contents (Elt F) → (⟨S_, .i32⟩ : BufTy).Contents (Elt F) → (⟨S_, .i32⟩ : BufTy).Contents (Elt F)),
    StableHlo.binary main_v405 main_v400 main_v407 (subi : (⟨S_, .i32⟩ : BufTy).Contents (Elt F) → (⟨S_, .i32⟩ : BufTy).Contents (Elt F) → (⟨S_, .i32⟩ : BufTy).Contents (Elt F)),
    StableHlo.nullary main_v408 (iotaInDim S7 32 0),
    StableHlo.nullary main_v409 (iotaInDim S7 32 0),
    StableHlo.unary main_v406 main_v410 (broadcastInDim S7 ![] bcast_S_S7 : (⟨S_, .i32⟩ : BufTy).Contents (Elt F) → (⟨S7, .i32⟩ : BufTy).Contents (Elt F)),
    StableHlo.binary main_v408 main_v410 main_v411 (muli : (⟨S7, .i32⟩ : BufTy).Contents (Elt F) → (⟨S7, .i32⟩ : BufTy).Contents (Elt F) → (⟨S7, .i32⟩ : BufTy).Contents (Elt F)),
    StableHlo.nullary main_c_56 (constantI S_ 32 7#32) ]
theorem ops7_4_sub : (ops7_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops7_4_fresh : (ops7_4 : List (HloOp τ sig (Elt F))).Forall fun op => op.fresh = ∅ := by
  simp only [List.Forall]; repeat' constructor
theorem ops7_4_keeps : (ops7_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 821 … 837 of the program (17 of window 7), in order. -/
abbrev ops7_5 : List (HloOp τ sig (Elt F)) :=
  [ StableHlo.TRef.unary (.of main_c_56 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S7, .i32⟩) (broadcastInDim S7 ![] bcast_S_S7),
    StableHlo.TRef.binary (.of main_v411 : StableHlo.TRef sig ⟨S7, .i32⟩) (.of main_call32_v1 : StableHlo.TRef sig ⟨S7, .i32⟩) (.of main_call32_v2 : StableHlo.TRef sig ⟨S7, .i32⟩) Host.divsi,
    StableHlo.TRef.unary (.of main_v411 : StableHlo.TRef sig ⟨S7, .i32⟩) (.of main_call32_v3 : StableHlo.TRef sig ⟨S7, .i32⟩) signi,
    StableHlo.TRef.unary (.of main_call32_v0 : StableHlo.TRef sig ⟨S_, .i32⟩) (.of main_call32_v4 : StableHlo.TRef sig ⟨S_, .i32⟩) signi,
    StableHlo.TRef.unary (.of main_call32_v4 : StableHlo.TRef sig ⟨S_, .i32⟩) (.of main_call32_v5 : StableHlo.TRef sig ⟨S7, .i32⟩) (broadcastInDim S7 ![] bcast_S_S7),
    StableHlo.TRef.binary (.of main_call32_v3 : StableHlo.TRef sig ⟨S7, .i32⟩) (.of main_call32_v5 : StableHlo.TRef sig ⟨S7, .i32⟩) (.of main_call32_v6 : StableHlo.TRef sig ⟨S7, .i1⟩) (cmpi .ne),
    StableHlo.TRef.unary (.of main_call32_v0 : StableHlo.TRef sig ⟨S_, .i32⟩) (.of main_call32_v7 : StableHlo.TRef sig ⟨S7, .i32⟩) (broadcastInDim S7 ![] bcast_S_S7),
    StableHlo.TRef.binary (.of main_v411 : StableHlo.TRef sig ⟨S7, .i32⟩) (.of main_call32_v7 : StableHlo.TRef sig ⟨S7, .i32⟩) (.of main_call32_v8 : StableHlo.TRef sig ⟨S7, .i32⟩) Host.remsi,
    StableHlo.TRef.nullary (.of main_call32_c : StableHlo.TRef sig ⟨S_, .i32⟩) (constantI S_ 32 0#32),
    StableHlo.TRef.unary (.of main_call32_c : StableHlo.TRef sig ⟨S_, .i32⟩) (.of main_call32_v9 : StableHlo.TRef sig ⟨S7, .i32⟩) (broadcastInDim S7 ![] bcast_S_S7),
    StableHlo.TRef.binary (.of main_call32_v8 : StableHlo.TRef sig ⟨S7, .i32⟩) (.of main_call32_v9 : StableHlo.TRef sig ⟨S7, .i32⟩) (.of main_call32_v10 : StableHlo.TRef sig ⟨S7, .i1⟩) (cmpi .ne),
    StableHlo.TRef.binary (.of main_call32_v6 : StableHlo.TRef sig ⟨S7, .i1⟩) (.of main_call32_v10 : StableHlo.TRef sig ⟨S7, .i1⟩) (.of main_call32_v11 : StableHlo.TRef sig ⟨S7, .i1⟩) andi,
    StableHlo.TRef.nullary (.of main_call32_c_0 : StableHlo.TRef sig ⟨S_, .i32⟩) (constantI S_ 32 1#32),
    StableHlo.TRef.unary (.of main_call32_c_0 : StableHlo.TRef sig ⟨S_, .i32⟩) (.of main_call32_v12 : StableHlo.TRef sig ⟨S7, .i32⟩) (broadcastInDim S7 ![] bcast_S_S7),
    StableHlo.TRef.binary (.of main_call32_v2 : StableHlo.TRef sig ⟨S7, .i32⟩) (.of main_call32_v12 : StableHlo.TRef sig ⟨S7, .i32⟩) (.of main_call32_v13 : StableHlo.TRef sig ⟨S7, .i32⟩) subi,
    StableHlo.TRef.ternary (.of main_call32_v11 : StableHlo.TRef sig ⟨S7, .i1⟩) (.of main_call32_v13 : StableHlo.TRef sig ⟨S7, .i32⟩) (.of main_call32_v2 : StableHlo.TRef sig ⟨S7, .i32⟩) (.of main_v412 : StableHlo.TRef sig ⟨S7, .i32⟩) select ]
theorem ops7_5_sub : (ops7_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops7_5_fresh : (ops7_5 : List (HloOp τ sig (Elt F))).Forall fun op => op.fresh = ∅ := by
  simp only [List.Forall]; repeat' constructor
theorem ops7_5_keeps : (ops7_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 838 … 845 of the program (8 of window 7), in order. -/
abbrev ops7_6 : List (HloOp τ sig (Elt F)) :=
  [ StableHlo.unary main_v390 main_v413 (broadcastInDim S7 ![] bcast_S_S7 : (⟨S_, .i32⟩ : BufTy).Contents (Elt F) → (⟨S7, .i32⟩ : BufTy).Contents (Elt F)),
    StableHlo.binary main_v413 main_v412 main_v414 (addi : (⟨S7, .i32⟩ : BufTy).Contents (Elt F) → (⟨S7, .i32⟩ : BufTy).Contents (Elt F) → (⟨S7, .i32⟩ : BufTy).Contents (Elt F)),
    StableHlo.nullary main_c_57 (constantI S_ 32 1#32),
    StableHlo.unary main_c_57 main_v415 (broadcastInDim S7 ![] bcast_S_S7 : (⟨S_, .i32⟩ : BufTy).Contents (Elt F) → (⟨S7, .i32⟩ : BufTy).Contents (Elt F)),
    StableHlo.binary main_v408 main_v415 main_v416 (addi : (⟨S7, .i32⟩ : BufTy).Contents (Elt F) → (⟨S7, .i32⟩ : BufTy).Contents (Elt F) → (⟨S7, .i32⟩ : BufTy).Contents (Elt F)),
    StableHlo.unary main_v416 main_v417 (negi : (⟨S7, .i32⟩ : BufTy).Contents (Elt F) → (⟨S7, .i32⟩ : BufTy).Contents (Elt F)),
    StableHlo.unary main_v406 main_v418 (broadcastInDim S7 ![] bcast_S_S7 : (⟨S_, .i32⟩ : BufTy).Contents (Elt F) → (⟨S7, .i32⟩ : BufTy).Contents (Elt F)),
    StableHlo.binary main_v417 main_v418 main_v419 (muli : (⟨S7, .i32⟩ : BufTy).Contents (Elt F) → (⟨S7, .i32⟩ : BufTy).Contents (Elt F) → (⟨S7, .i32⟩ : BufTy).Contents (Elt F)) ]
theorem ops7_6_sub : (ops7_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩
theorem ops7_6_fresh : (ops7_6 : List (HloOp τ sig (Elt F))).Forall fun op => op.fresh = ∅ := by
  simp only [List.Forall]; repeat' constructor
theorem ops7_6_keeps : (ops7_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops7_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part7_eq (c : Dev nD) : main_part7 (F := F) c = Pipeline.chainK [StableHlo.seq ops7_0, StableHlo.seq ops7_1, StableHlo.seq ops7_2, StableHlo.seq ops7_3, StableHlo.seq ops7_4, StableHlo.seq ops7_5] (StableHlo.seq ops7_6) := by
  chain_rfl

end Cert.ReferenceIdeal.Host

end
-- ==== Proof.RefOps08.lean ====
/- Window 8 of the program's @main, every called function's body written out in place: 114 operations,
  cut into 11 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 846 … 846 of the program (1 of window 8), in order. -/
abbrev ops8_0 : List (HloOp τ sig (Elt F)) :=
  [ StableHlo.nullary main_c_58 (constantI S_ 32 7#32) ]
theorem ops8_0_sub : (ops8_0 : List (HloOp τ sig (Elt F))).Forall fun op => op.bufs ⊆ StableHlo.tcRefs τ sig :=
  StableHlo.nullary_bufs_sub ..
theorem ops8_0_fresh : (ops8_0 : List (HloOp τ sig (Elt F))).Forall fun op => op.fresh = ∅ := by
  simp only [List.Forall]; repeat' constructor
theorem ops8_0_keeps : (ops8_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 847 … 863 of the program (17 of window 8), in order. -/
abbrev ops8_1 : List (HloOp τ sig (Elt F)) :=
  [ StableHlo.TRef.unary (.of main_c_58 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S7, .i32⟩) (broadcastInDim S7 ![] bcast_S_S7),
    StableHlo.TRef.binary (.of main_v419 : StableHlo.TRef sig ⟨S7, .i32⟩) (.of main_call33_v1 : StableHlo.TRef sig ⟨S7, .i32⟩) (.of main_call33_v2 : StableHlo.TRef sig ⟨S7, .i32⟩) Host.divsi,
    StableHlo.TRef.unary (.of main_v419 : StableHlo.TRef sig ⟨S7, .i32⟩) (.of main_call33_v3 : StableHlo.TRef sig ⟨S7, .i32⟩) signi,
    StableHlo.TRef.unary (.of main_call33_v0 : StableHlo.TRef sig ⟨S_, .i32⟩) (.of main_call33_v4 : StableHlo.TRef sig ⟨S_, .i32⟩) signi,
    StableHlo.TRef.unary (.of main_call33_v4 : StableHlo.TRef sig ⟨S_, .i32⟩) (.of main_call33_v5 : StableHlo.TRef sig ⟨S7, .i32⟩) (broadcastInDim S7 ![] bcast_S_S7),
    StableHlo.TRef.binary (.of main_call33_v3 : StableHlo.TRef sig ⟨S7, .i32⟩) (.of main_call33_v5 : StableHlo.TRef sig ⟨S7, .i32⟩) (.of main_call33_v6 : StableHlo.TRef sig ⟨S7, .i1⟩) (cmpi .ne),
    StableHlo.TRef.unary (.of main_call33_v0 : StableHlo.TRef sig ⟨S_, .i32⟩) (.of main_call33_v7 : StableHlo.TRef sig ⟨S7, .i32⟩) (broadcastInDim S7 ![] bcast_S_S7),
    StableHlo.TRef.binary (.of main_v419 : StableHlo.TRef sig ⟨S7, .i32⟩) (.of main_call33_v7 : StableHlo.TRef sig ⟨S7, .i32⟩) (.of main_call33_v8 : StableHlo.TRef sig ⟨S7, .i32⟩) Host.remsi,
    StableHlo.TRef.nullary (.of main_call33_c : StableHlo.TRef sig ⟨S_, .i32⟩) (constantI S_ 32 0#32),
    StableHlo.TRef.unary (.of main_call33_c : StableHlo.TRef sig ⟨S_, .i32⟩) (.of main_call33_v9 : StableHlo.TRef sig ⟨S7, .i32⟩) (broadcastInDim S7 ![] bcast_S_S7),
    StableHlo.TRef.binary (.of main_call33_v8 : StableHlo.TRef sig ⟨S7, .i32⟩) (.of main_call33_v9 : StableHlo.TRef sig ⟨S7, .i32⟩) (.of main_call33_v10 : StableHlo.TRef sig ⟨S7, .i1⟩) (cmpi .ne),
    StableHlo.TRef.binary (.of main_call33_v6 : StableHlo.TRef sig ⟨S7, .i1⟩) (.of main_call33_v10 : StableHlo.TRef sig ⟨S7, .i1⟩) (.of main_call33_v11 : StableHlo.TRef sig ⟨S7, .i1⟩) andi,
    StableHlo.TRef.nullary (.of main_call33_c_0 : StableHlo.TRef sig ⟨S_, .i32⟩) (constantI S_ 32 1#32),
    StableHlo.TRef.unary (.of main_call33_c_0 : StableHlo.TRef sig ⟨S_, .i32⟩) (.of main_call33_v12 : StableHlo.TRef sig ⟨S7, .i32⟩) (broadcastInDim S7 ![] bcast_S_S7),
    StableHlo.TRef.binary (.of main_call33_v2 : StableHlo.TRef sig ⟨S7, .i32⟩) (.of main_call33_v12 : StableHlo.TRef sig ⟨S7, .i32⟩) (.of main_call33_v13 : StableHlo.TRef sig ⟨S7, .i32⟩) subi,
    StableHlo.TRef.ternary (.of main_call33_v11 : StableHlo.TRef sig ⟨S7, .i1⟩) (.of main_call33_v13 : StableHlo.TRef sig ⟨S7, .i32⟩) (.of main_call33_v2 : StableHlo.TRef sig ⟨S7, .i32⟩) (.of main_v420 : StableHlo.TRef sig ⟨S7, .i32⟩) select ]
theorem ops8_1_sub : (ops8_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops8_1_fresh : (ops8_1 : List (HloOp τ sig (Elt F))).Forall fun op => op.fresh = ∅ := by
  simp only [List.Forall]; repeat' constructor
theorem ops8_1_keeps : (ops8_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 864 … 868 of the program (5 of window 8), in order. -/
abbrev ops8_2 : List (HloOp τ sig (Elt F)) :=
  [ StableHlo.unary main_v390 main_v421 (broadcastInDim S7 ![] bcast_S_S7 : (⟨S_, .i32⟩ : BufTy).Contents (Elt F) → (⟨S7, .i32⟩ : BufTy).Contents (Elt F)),
    StableHlo.binary main_v421 main_v420 main_v422 (subi : (⟨S7, .i32⟩ : BufTy).Contents (Elt F) → (⟨S7, .i32⟩ : BufTy).Contents (Elt F) → (⟨S7, .i32⟩ : BufTy).Contents (Elt F)),
    StableHlo.unary main_v407 main_v423 (broadcastInDim S7 ![] bcast_S_S7 : (⟨S_, .i32⟩ : BufTy).Contents (Elt F) → (⟨S7, .i32⟩ : BufTy).Contents (Elt F)),
    StableHlo.binary main_v409 main_v423 main_v424 (muli : (⟨S7, .i32⟩ : BufTy).Contents (Elt F) → (⟨S7, .i32⟩ : BufTy).Contents (Elt F) → (⟨S7, .i32⟩ : BufTy).Contents (Elt F)),
    StableHlo.nullary main_c_59 (constantI S_ 32 7#32) ]
theorem ops8_2_sub : (ops8_2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops8_2_fresh : (ops8_2 : List (HloOp τ sig (Elt F))).Forall fun op => op.fresh = ∅ := by
  simp only [List.Forall]; repeat' constructor
theorem ops8_2_keeps : (ops8_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 869 … 885 of the program (17 of window 8), in order. -/
abbrev ops8_3 : List (HloOp τ sig (Elt F)) :=
  [ StableHlo.TRef.unary (.of main_c_59 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S7, .i32⟩) (broadcastInDim S7 ![] bcast_S_S7),
    StableHlo.TRef.binary (.of main_v424 : StableHlo.TRef sig ⟨S7, .i32⟩) (.of main_call34_v1 : StableHlo.TRef sig ⟨S7, .i32⟩) (.of main_call34_v2 : StableHlo.TRef sig ⟨S7, .i32⟩) Host.divsi,
    StableHlo.TRef.unary (.of main_v424 : StableHlo.TRef sig ⟨S7, .i32⟩) (.of main_call34_v3 : StableHlo.TRef sig ⟨S7, .i32⟩) signi,
    StableHlo.TRef.unary (.of main_call34_v0 : StableHlo.TRef sig ⟨S_, .i32⟩) (.of main_call34_v4 : StableHlo.TRef sig ⟨S_, .i32⟩) signi,
    StableHlo.TRef.unary (.of main_call34_v4 : StableHlo.TRef sig ⟨S_, .i32⟩) (.of main_call34_v5 : StableHlo.TRef sig ⟨S7, .i32⟩) (broadcastInDim S7 ![] bcast_S_S7),
    StableHlo.TRef.binary (.of main_call34_v3 : StableHlo.TRef sig ⟨S7, .i32⟩) (.of main_call34_v5 : StableHlo.TRef sig ⟨S7, .i32⟩) (.of main_call34_v6 : StableHlo.TRef sig ⟨S7, .i1⟩) (cmpi .ne),
    StableHlo.TRef.unary (.of main_call34_v0 : StableHlo.TRef sig ⟨S_, .i32⟩) (.of main_call34_v7 : StableHlo.TRef sig ⟨S7, .i32⟩) (broadcastInDim S7 ![] bcast_S_S7),
    StableHlo.TRef.binary (.of main_v424 : StableHlo.TRef sig ⟨S7, .i32⟩) (.of main_call34_v7 : StableHlo.TRef sig ⟨S7, .i32⟩) (.of main_call34_v8 : StableHlo.TRef sig ⟨S7, .i32⟩) Host.remsi,
    StableHlo.TRef.nullary (.of main_call34_c : StableHlo.TRef sig ⟨S_, .i32⟩) (constantI S_ 32 0#32),
    StableHlo.TRef.unary (.of main_call34_c : StableHlo.TRef sig ⟨S_, .i32⟩) (.of main_call34_v9 : StableHlo.TRef sig ⟨S7, .i32⟩) (broadcastInDim S7 ![] bcast_S_S7),
    StableHlo.TRef.binary (.of main_call34_v8 : StableHlo.TRef sig ⟨S7, .i32⟩) (.of main_call34_v9 : StableHlo.TRef sig ⟨S7, .i32⟩) (.of main_call34_v10 : StableHlo.TRef sig ⟨S7, .i1⟩) (cmpi .ne),
    StableHlo.TRef.binary (.of main_call34_v6 : StableHlo.TRef sig ⟨S7, .i1⟩) (.of main_call34_v10 : StableHlo.TRef sig ⟨S7, .i1⟩) (.of main_call34_v11 : StableHlo.TRef sig ⟨S7, .i1⟩) andi,
    StableHlo.TRef.nullary (.of main_call34_c_0 : StableHlo.TRef sig ⟨S_, .i32⟩) (constantI S_ 32 1#32),
    StableHlo.TRef.unary (.of main_call34_c_0 : StableHlo.TRef sig ⟨S_, .i32⟩) (.of main_call34_v12 : StableHlo.TRef sig ⟨S7, .i32⟩) (broadcastInDim S7 ![] bcast_S_S7),
    StableHlo.TRef.binary (.of main_call34_v2 : StableHlo.TRef sig ⟨S7, .i32⟩) (.of main_call34_v12 : StableHlo.TRef sig ⟨S7, .i32⟩) (.of main_call34_v13 : StableHlo.TRef sig ⟨S7, .i32⟩) subi,
    StableHlo.TRef.ternary (.of main_call34_v11 : StableHlo.TRef sig ⟨S7, .i1⟩) (.of main_call34_v13 : StableHlo.TRef sig ⟨S7, .i32⟩) (.of main_call34_v2 : StableHlo.TRef sig ⟨S7, .i32⟩) (.of main_v425 : StableHlo.TRef sig ⟨S7, .i32⟩) select ]
theorem ops8_3_sub : (ops8_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops8_3_fresh : (ops8_3 : List (HloOp τ sig (Elt F))).Forall fun op => op.fresh = ∅ := by
  simp only [List.Forall]; repeat' constructor
theorem ops8_3_keeps : (ops8_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 886 … 894 of the program (9 of window 8), in order. -/
abbrev ops8_4 : List (HloOp τ sig (Elt F)) :=
  [ StableHlo.unary main_v400 main_v426 (broadcastInDim S7 ![] bcast_S_S7 : (⟨S_, .i32⟩ : BufTy).Contents (Elt F) → (⟨S7, .i32⟩ : BufTy).Contents (Elt F)),
    StableHlo.binary main_v426 main_v425 main_v427 (addi : (⟨S7, .i32⟩ : BufTy).Contents (Elt F) → (⟨S7, .i32⟩ : BufTy).Contents (Elt F) → (⟨S7, .i32⟩ : BufTy).Contents (Elt F)),
    StableHlo.nullary main_c_60 (constantI S_ 32 1#32),
    StableHlo.unary main_c_60 main_v428 (broadcastInDim S7 ![] bcast_S_S7 : (⟨S_, .i32⟩ : BufTy).Contents (Elt F) → (⟨S7, .i32⟩ : BufTy).Contents (Elt F)),
    StableHlo.binary main_v409 main_v428 main_v429 (addi : (⟨S7, .i32⟩ : BufTy).Contents (Elt F) → (⟨S7, .i32⟩ : BufTy).Contents (Elt F) → (⟨S7, .i32⟩ : BufTy).Contents (Elt F)),
    StableHlo.unary main_v429 main_v430 (negi : (⟨S7, .i32⟩ : BufTy).Contents (Elt F) → (⟨S7, .i32⟩ : BufTy).Contents (Elt F)),
    StableHlo.unary main_v407 main_v431 (broadcastInDim S7 ![] bcast_S_S7 : (⟨S_, .i32⟩ : BufTy).Contents (Elt F) → (⟨S7, .i32⟩ : BufTy).Contents (Elt F)),
    StableHlo.binary main_v430 main_v431 main_v432 (muli : (⟨S7, .i32⟩ : BufTy).Contents (Elt F) → (⟨S7, .i32⟩ : BufTy).Contents (Elt F) → (⟨S7, .i32⟩ : BufTy).Contents (Elt F)),
    StableHlo.nullary main_c_61 (constantI S_ 32 7#32) ]
theorem ops8_4_sub : (ops8_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops8_4_fresh : (ops8_4 : List (HloOp τ sig (Elt F))).Forall fun op => op.fresh = ∅ := by
  simp only [List.Forall]; repeat' constructor
theorem ops8_4_keeps : (ops8_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 895 … 911 of the program (17 of window 8), in order. -/
abbrev ops8_5 : List (HloOp τ sig (Elt F)) :=
  [ StableHlo.TRef.unary (.of main_c_61 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S7, .i32⟩) (broadcastInDim S7 ![] bcast_S_S7),
    StableHlo.TRef.binary (.of main_v432 : StableHlo.TRef sig ⟨S7, .i32⟩) (.of main_call35_v1 : StableHlo.TRef sig ⟨S7, .i32⟩) (.of main_call35_v2 : StableHlo.TRef sig ⟨S7, .i32⟩) Host.divsi,
    StableHlo.TRef.unary (.of main_v432 : StableHlo.TRef sig ⟨S7, .i32⟩) (.of main_call35_v3 : StableHlo.TRef sig ⟨S7, .i32⟩) signi,
    StableHlo.TRef.unary (.of main_call35_v0 : StableHlo.TRef sig ⟨S_, .i32⟩) (.of main_call35_v4 : StableHlo.TRef sig ⟨S_, .i32⟩) signi,
    StableHlo.TRef.unary (.of main_call35_v4 : StableHlo.TRef sig ⟨S_, .i32⟩) (.of main_call35_v5 : StableHlo.TRef sig ⟨S7, .i32⟩) (broadcastInDim S7 ![] bcast_S_S7),
    StableHlo.TRef.binary (.of main_call35_v3 : StableHlo.TRef sig ⟨S7, .i32⟩) (.of main_call35_v5 : StableHlo.TRef sig ⟨S7, .i32⟩) (.of main_call35_v6 : StableHlo.TRef sig ⟨S7, .i1⟩) (cmpi .ne),
    StableHlo.TRef.unary (.of main_call35_v0 : StableHlo.TRef sig ⟨S_, .i32⟩) (.of main_call35_v7 : StableHlo.TRef sig ⟨S7, .i32⟩) (broadcastInDim S7 ![] bcast_S_S7),
    StableHlo.TRef.binary (.of main_v432 : StableHlo.TRef sig ⟨S7, .i32⟩) (.of main_call35_v7 : StableHlo.TRef sig ⟨S7, .i32⟩) (.of main_call35_v8 : StableHlo.TRef sig ⟨S7, .i32⟩) Host.remsi,
    StableHlo.TRef.nullary (.of main_call35_c : StableHlo.TRef sig ⟨S_, .i32⟩) (constantI S_ 32 0#32),
    StableHlo.TRef.unary (.of main_call35_c : StableHlo.TRef sig ⟨S_, .i32⟩) (.of main_call35_v9 : StableHlo.TRef sig ⟨S7, .i32⟩) (broadcastInDim S7 ![] bcast_S_S7),
    StableHlo.TRef.binary (.of main_call35_v8 : StableHlo.TRef sig ⟨S7, .i32⟩) (.of main_call35_v9 : StableHlo.TRef sig ⟨S7, .i32⟩) (.of main_call35_v10 : StableHlo.TRef sig ⟨S7, .i1⟩) (cmpi .ne),
    StableHlo.TRef.binary (.of main_call35_v6 : StableHlo.TRef sig ⟨S7, .i1⟩) (.of main_call35_v10 : StableHlo.TRef sig ⟨S7, .i1⟩) (.of main_call35_v11 : StableHlo.TRef sig ⟨S7, .i1⟩) andi,
    StableHlo.TRef.nullary (.of main_call35_c_0 : StableHlo.TRef sig ⟨S_, .i32⟩) (constantI S_ 32 1#32),
    StableHlo.TRef.unary (.of main_call35_c_0 : StableHlo.TRef sig ⟨S_, .i32⟩) (.of main_call35_v12 : StableHlo.TRef sig ⟨S7, .i32⟩) (broadcastInDim S7 ![] bcast_S_S7),
    StableHlo.TRef.binary (.of main_call35_v2 : StableHlo.TRef sig ⟨S7, .i32⟩) (.of main_call35_v12 : StableHlo.TRef sig ⟨S7, .i32⟩) (.of main_call35_v13 : StableHlo.TRef sig ⟨S7, .i32⟩) subi,
    StableHlo.TRef.ternary (.of main_call35_v11 : StableHlo.TRef sig ⟨S7, .i1⟩) (.of main_call35_v13 : StableHlo.TRef sig ⟨S7, .i32⟩) (.of main_call35_v2 : StableHlo.TRef sig ⟨S7, .i32⟩) (.of main_v433 : StableHlo.TRef sig ⟨S7, .i32⟩) select ]
theorem ops8_5_sub : (ops8_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops8_5_fresh : (ops8_5 : List (HloOp τ sig (Elt F))).Forall fun op => op.fresh = ∅ := by
  simp only [List.Forall]; repeat' constructor
theorem ops8_5_keeps : (ops8_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 912 … 940 of the program (29 of window 8), in order. -/
abbrev ops8_6 : List (HloOp τ sig (Elt F)) :=
  [ StableHlo.unary main_v400 main_v434 (broadcastInDim S7 ![] bcast_S_S7 : (⟨S_, .i32⟩ : BufTy).Contents (Elt F) → (⟨S7, .i32⟩ : BufTy).Contents (Elt F)),
    StableHlo.binary main_v434 main_v433 main_v435 (subi : (⟨S7, .i32⟩ : BufTy).Contents (Elt F) → (⟨S7, .i32⟩ : BufTy).Contents (Elt F) → (⟨S7, .i32⟩ : BufTy).Contents (Elt F)),
    StableHlo.nullary main_v436 (iotaInDim S64 32 0),
    StableHlo.nullary main_v437 (iotaInDim S64 32 0),
    StableHlo.unary main_v436 main_v438 (broadcastInDim S1x64 ![1] bcast_S64_S1x64_1 : (⟨S64, .i32⟩ : BufTy).Contents (Elt F) → (⟨S1x64, .i32⟩ : BufTy).Contents (Elt F)),
    StableHlo.unary main_v414 main_v439 (broadcastInDim S7x1 ![0] bcast_S7_S7x1_0 : (⟨S7, .i32⟩ : BufTy).Contents (Elt F) → (⟨S7x1, .i32⟩ : BufTy).Contents (Elt F)),
    StableHlo.unary main_v438 main_v440 (broadcastInDim S7x64 ![0, 1] bcast_S1x64_S7x64_0_1 : (⟨S1x64, .i32⟩ : BufTy).Contents (Elt F) → (⟨S7x64, .i32⟩ : BufTy).Contents (Elt F)),
    StableHlo.unary main_v439 main_v441 (broadcastInDim S7x64 ![0, 1] bcast_S7x1_S7x64_0_1 : (⟨S7x1, .i32⟩ : BufTy).Contents (Elt F) → (⟨S7x64, .i32⟩ : BufTy).Contents (Elt F)),
    StableHlo.binary main_v440 main_v441 main_v442 (cmpi .sge : (⟨S7x64, .i32⟩ : BufTy).Contents (Elt F) → (⟨S7x64, .i32⟩ : BufTy).Contents (Elt F) → (⟨S7x64, .i1⟩ : BufTy).Contents (Elt F)),
    StableHlo.unary main_v436 main_v443 (broadcastInDim S1x64 ![1] bcast_S64_S1x64_1 : (⟨S64, .i32⟩ : BufTy).Contents (Elt F) → (⟨S1x64, .i32⟩ : BufTy).Contents (Elt F)),
    StableHlo.unary main_v422 main_v444 (broadcastInDim S7x1 ![0] bcast_S7_S7x1_0 : (⟨S7, .i32⟩ : BufTy).Contents (Elt F) → (⟨S7x1, .i32⟩ : BufTy).Contents (Elt F)),
    StableHlo.unary main_v443 main_v445 (broadcastInDim S7x64 ![0, 1] bcast_S1x64_S7x64_0_1 : (⟨S1x64, .i32⟩ : BufTy).Contents (Elt F) → (⟨S7x64, .i32⟩ : BufTy).Contents (Elt F)),
    StableHlo.unary main_v444 main_v446 (broadcastInDim S7x64 ![0, 1] bcast_S7x1_S7x64_0_1 : (⟨S7x1, .i32⟩ : BufTy).Contents (Elt F) → (⟨S7x64, .i32⟩ : BufTy).Contents (Elt F)),
    StableHlo.binary main_v445 main_v446 main_v447 (cmpi .slt : (⟨S7x64, .i32⟩ : BufTy).Contents (Elt F) → (⟨S7x64, .i32⟩ : BufTy).Contents (Elt F) → (⟨S7x64, .i1⟩ : BufTy).Contents (Elt F)),
    StableHlo.binary main_v442 main_v447 main_v448 (andi : (⟨S7x64, .i1⟩ : BufTy).Contents (Elt F) → (⟨S7x64, .i1⟩ : BufTy).Contents (Elt F) → (⟨S7x64, .i1⟩ : BufTy).Contents (Elt F)),
    StableHlo.unary main_v437 main_v449 (broadcastInDim S1x64 ![1] bcast_S64_S1x64_1 : (⟨S64, .i32⟩ : BufTy).Contents (Elt F) → (⟨S1x64, .i32⟩ : BufTy).Contents (Elt F)),
    StableHlo.unary main_v427 main_v450 (broadcastInDim S7x1 ![0] bcast_S7_S7x1_0 : (⟨S7, .i32⟩ : BufTy).Contents (Elt F) → (⟨S7x1, .i32⟩ : BufTy).Contents (Elt F)),
    StableHlo.unary main_v449 main_v451 (broadcastInDim S7x64 ![0, 1] bcast_S1x64_S7x64_0_1 : (⟨S1x64, .i32⟩ : BufTy).Contents (Elt F) → (⟨S7x64, .i32⟩ : BufTy).Contents (Elt F)),
    StableHlo.unary main_v450 main_v452 (broadcastInDim S7x64 ![0, 1] bcast_S7x1_S7x64_0_1 : (⟨S7x1, .i32⟩ : BufTy).Contents (Elt F) → (⟨S7x64, .i32⟩ : BufTy).Contents (Elt F)),
    StableHlo.binary main_v451 main_v452 main_v453 (cmpi .sge : (⟨S7x64, .i32⟩ : BufTy).Contents (Elt F) → (⟨S7x64, .i32⟩ : BufTy).Contents (Elt F) → (⟨S7x64, .i1⟩ : BufTy).Contents (Elt F)),
    StableHlo.unary main_v437 main_v454 (broadcastInDim S1x64 ![1] bcast_S64_S1x64_1 : (⟨S64, .i32⟩ : BufTy).Contents (Elt F) → (⟨S1x64, .i32⟩ : BufTy).Contents (Elt F)),
    StableHlo.unary main_v435 main_v455 (broadcastInDim S7x1 ![0] bcast_S7_S7x1_0 : (⟨S7, .i32⟩ : BufTy).Contents (Elt F) → (⟨S7x1, .i32⟩ : BufTy).Contents (Elt F)),
    StableHlo.unary main_v454 main_v456 (broadcastInDim S7x64 ![0, 1] bcast_S1x64_S7x64_0_1 : (⟨S1x64, .i32⟩ : BufTy).Contents (Elt F) → (⟨S7x64, .i32⟩ : BufTy).Contents (Elt F)),
    StableHlo.unary main_v455 main_v457 (broadcastInDim S7x64 ![0, 1] bcast_S7x1_S7x64_0_1 : (⟨S7x1, .i32⟩ : BufTy).Contents (Elt F) → (⟨S7x64, .i32⟩ : BufTy).Contents (Elt F)),
    StableHlo.binary main_v456 main_v457 main_v458 (cmpi .slt : (⟨S7x64, .i32⟩ : BufTy).Contents (Elt F) → (⟨S7x64, .i32⟩ : BufTy).Contents (Elt F) → (⟨S7x64, .i1⟩ : BufTy).Contents (Elt F)),
    StableHlo.binary main_v453 main_v458 main_v459 (andi : (⟨S7x64, .i1⟩ : BufTy).Contents (Elt F) → (⟨S7x64, .i1⟩ : BufTy).Contents (Elt F) → (⟨S7x64, .i1⟩ : BufTy).Contents (Elt F)),
    StableHlo.unary main_v448 main_v460 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v461 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_62 (constant S_ .f32 0xFF800000#32) ]
theorem ops8_6_sub : (ops8_6 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops8_6_fresh : (ops8_6 : List (HloOp τ sig (Elt F))).Forall fun op => op.fresh = ∅ := by
  simp only [List.Forall]; repeat' constructor
theorem ops8_6_keeps : (ops8_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 941 … 944 of the program (4 of window 8), in order. -/
abbrev ops8_7 : List (HloOp τ sig (Elt F)) :=
  [ StableHlo.TRef.unary (.of main_v460 : StableHlo.TRef sig ⟨S7x1x64x1, .i1⟩) (.of main_call36_v0 : StableHlo.TRef sig ⟨S7x512x64x64, .i1⟩) (broadcastInDim S7x512x64x64 ![0, 1, 2, 3] bcast_S7x1x64x1_S7x512x64x64_0_1_2_3),
    StableHlo.TRef.unary (.of main_v461 : StableHlo.TRef sig ⟨S1x512x64x64, .f32⟩) (.of main_call36_v1 : StableHlo.TRef sig ⟨S7x512x64x64, .f32⟩) (broadcastInDim S7x512x64x64 ![0, 1, 2, 3] bcast_S1x512x64x64_S7x512x64x64_0_1_2_3),
    StableHlo.TRef.unary (.of main_cst_62 : StableHlo.TRef sig ⟨S_, .f32⟩) (.of main_call36_v2 : StableHlo.TRef sig ⟨S7x512x64x64, .f32⟩) (broadcastInDim S7x512x64x64 ![] bcast_S_S7x512x64x64),
    StableHlo.TRef.ternary (.of main_call36_v0 : StableHlo.TRef sig ⟨S7x512x64x64, .i1⟩) (.of main_call36_v1 : StableHlo.TRef sig ⟨S7x512x64x64, .f32⟩) (.of main_call36_v2 : StableHlo.TRef sig ⟨S7x512x64x64, .f32⟩) (.of main_v462 : StableHlo.TRef sig ⟨S7x512x64x64, .f32⟩) select ]
theorem ops8_7_sub : (ops8_7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops8_7_fresh : (ops8_7 : List (HloOp τ sig (Elt F))).Forall fun op => op.fresh = ∅ := by
  simp only [List.Forall]; repeat' constructor
theorem ops8_7_keeps : (ops8_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 945 … 949 of the program (5 of window 8), in order. -/
abbrev ops8_8 : List (HloOp τ sig (Elt F)) :=
  [ StableHlo.nullary main_cst_63 (constant S_ .f32 0xFF800000#32),
    StableHlo.binary main_v462 main_cst_63 main_v463 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v459 main_v464 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v463 main_v465 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_64 (constant S_ .f32 0xFF800000#32) ]
theorem ops8_8_sub : (ops8_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops8_8_fresh : (ops8_8 : List (HloOp τ sig (Elt F))).Forall fun op => op.fresh = ∅ := by
  simp only [List.Forall]; repeat' constructor
theorem ops8_8_keeps : (ops8_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 950 … 953 of the program (4 of window 8), in order. -/
abbrev ops8_9 : List (HloOp τ sig (Elt F)) :=
  [ StableHlo.TRef.unary (.of main_v464 : StableHlo.TRef sig ⟨S1x1x7x64, .i1⟩) (.of main_call37_v0 : StableHlo.TRef sig ⟨S7x512x7x64, .i1⟩) (broadcastInDim S7x512x7x64 ![0, 1, 2, 3] bcast_S1x1x7x64_S7x512x7x64_0_1_2_3),
    StableHlo.TRef.unary (.of main_v465 : StableHlo.TRef sig ⟨S7x512x1x64, .f32⟩) (.of main_call37_v1 : StableHlo.TRef sig ⟨S7x512x7x64, .f32⟩) (broadcastInDim S7x512x7x64 ![0, 1, 2, 3] bcast_S7x512x1x64_S7x512x7x64_0_1_2_3),
    StableHlo.TRef.unary (.of main_cst_64 : StableHlo.TRef sig ⟨S_, .f32⟩) (.of main_call37_v2 : StableHlo.TRef sig ⟨S7x512x7x64, .f32⟩) (broadcastInDim S7x512x7x64 ![] bcast_S_S7x512x7x64),
    StableHlo.TRef.ternary (.of main_call37_v0 : StableHlo.TRef sig ⟨S7x512x7x64, .i1⟩) (.of main_call37_v1 : StableHlo.TRef sig ⟨S7x512x7x64, .f32⟩) (.of main_call37_v2 : StableHlo.TRef sig ⟨S7x512x7x64, .f32⟩) (.of main_v466 : StableHlo.TRef sig ⟨S7x512x7x64, .f32⟩) select ]
theorem ops8_9_sub : (ops8_9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops8_9_fresh : (ops8_9 : List (HloOp τ sig (Elt F))).Forall fun op => op.fresh = ∅ := by
  simp only [List.Forall]; repeat' constructor
theorem ops8_9_keeps : (ops8_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 954 … 959 of the program (6 of window 8), in order. -/
abbrev ops8_10 : List (HloOp τ sig (Elt F)) :=
  [ StableHlo.nullary main_cst_65 (constant S_ .f32 0xFF800000#32),
    StableHlo.binary main_v466 main_cst_65 main_v467 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v467 main_v468 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v468 main_v469 rfl shapeCasts_S512x7x7_S25088,
    StableHlo.unary main_v18 main_v470 ((extractStridedSlice S1x1 ![0, 1] · slices_S3x4_S1x1_0_1) : (⟨S3x4, .i32⟩ : BufTy).Contents (Elt F) → (⟨S1x1, .i32⟩ : BufTy).Contents (Elt F)),
    StableHlo.reshape main_v470 main_v471 rfl shapeCasts_S1x1_S_ ]
theorem ops8_10_sub : (ops8_10 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub ..⟩
theorem ops8_10_fresh : (ops8_10 : List (HloOp τ sig (Elt F))).Forall fun op => op.fresh = ∅ := by
  simp only [List.Forall]; repeat' constructor
theorem ops8_10_keeps : (ops8_10 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops8_10, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part8_eq (c : Dev nD) : main_part8 (F := F) c = Pipeline.chainK [StableHlo.seq ops8_0, StableHlo.seq ops8_1, StableHlo.seq ops8_2, StableHlo.seq ops8_3, StableHlo.seq ops8_4, StableHlo.seq ops8_5, StableHlo.seq ops8_6, StableHlo.seq ops8_7, StableHlo.seq ops8_8, StableHlo.seq ops8_9] (StableHlo.seq ops8_10) := by
  chain_rfl

end Cert.ReferenceIdeal.Host

end
-- ==== Proof.RefOps09.lean ====
/- Window 9 of the program's @main, every called function's body written out in place: 124 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 960 … 984 of the program (25 of window 9), in order. -/
abbrev ops9_0 : List (HloOp τ sig (Elt F)) :=
  [ StableHlo.unary main_v23 main_v472 ((extractStridedSlice S1x1 ![2, 1] · slices_S4x4_S1x1_2_1) : (⟨S4x4, .i32⟩ : BufTy).Contents (Elt F) → (⟨S1x1, .i32⟩ : BufTy).Contents (Elt F)),
    StableHlo.reshape main_v472 main_v473 rfl shapeCasts_S1x1_S_,
    StableHlo.binary main_v471 main_v473 main_v474 (minsi : (⟨S_, .i32⟩ : BufTy).Contents (Elt F) → (⟨S_, .i32⟩ : BufTy).Contents (Elt F) → (⟨S_, .i32⟩ : BufTy).Contents (Elt F)),
    StableHlo.unary main_v18 main_v475 ((extractStridedSlice S1x1 ![0, 3] · slices_S3x4_S1x1_0_3) : (⟨S3x4, .i32⟩ : BufTy).Contents (Elt F) → (⟨S1x1, .i32⟩ : BufTy).Contents (Elt F)),
    StableHlo.reshape main_v475 main_v476 rfl shapeCasts_S1x1_S_,
    StableHlo.unary main_v23 main_v477 ((extractStridedSlice S1x1 ![2, 3] · slices_S4x4_S1x1_2_3) : (⟨S4x4, .i32⟩ : BufTy).Contents (Elt F) → (⟨S1x1, .i32⟩ : BufTy).Contents (Elt F)),
    StableHlo.reshape main_v477 main_v478 rfl shapeCasts_S1x1_S_,
    StableHlo.binary main_v476 main_v478 main_v479 (maxsi : (⟨S_, .i32⟩ : BufTy).Contents (Elt F) → (⟨S_, .i32⟩ : BufTy).Contents (Elt F) → (⟨S_, .i32⟩ : BufTy).Contents (Elt F)),
    StableHlo.unary main_v18 main_v480 ((extractStridedSlice S1x1 ![0, 0] · slices_S3x4_S1x1_0_0) : (⟨S3x4, .i32⟩ : BufTy).Contents (Elt F) → (⟨S1x1, .i32⟩ : BufTy).Contents (Elt F)),
    StableHlo.reshape main_v480 main_v481 rfl shapeCasts_S1x1_S_,
    StableHlo.unary main_v23 main_v482 ((extractStridedSlice S1x1 ![2, 0] · slices_S4x4_S1x1_2_0) : (⟨S4x4, .i32⟩ : BufTy).Contents (Elt F) → (⟨S1x1, .i32⟩ : BufTy).Contents (Elt F)),
    StableHlo.reshape main_v482 main_v483 rfl shapeCasts_S1x1_S_,
    StableHlo.binary main_v481 main_v483 main_v484 (minsi : (⟨S_, .i32⟩ : BufTy).Contents (Elt F) → (⟨S_, .i32⟩ : BufTy).Contents (Elt F) → (⟨S_, .i32⟩ : BufTy).Contents (Elt F)),
    StableHlo.unary main_v18 main_v485 ((extractStridedSlice S1x1 ![0, 2] · slices_S3x4_S1x1_0_2) : (⟨S3x4, .i32⟩ : BufTy).Contents (Elt F) → (⟨S1x1, .i32⟩ : BufTy).Contents (Elt F)),
    StableHlo.reshape main_v485 main_v486 rfl shapeCasts_S1x1_S_,
    StableHlo.unary main_v23 main_v487 ((extractStridedSlice S1x1 ![2, 2] · slices_S4x4_S1x1_2_2) : (⟨S4x4, .i32⟩ : BufTy).Contents (Elt F) → (⟨S1x1, .i32⟩ : BufTy).Contents (Elt F)),
    StableHlo.reshape main_v487 main_v488 rfl shapeCasts_S1x1_S_,
    StableHlo.binary main_v486 main_v488 main_v489 (maxsi : (⟨S_, .i32⟩ : BufTy).Contents (Elt F) → (⟨S_, .i32⟩ : BufTy).Contents (Elt F) → (⟨S_, .i32⟩ : BufTy).Contents (Elt F)),
    StableHlo.binary main_v479 main_v474 main_v490 (subi : (⟨S_, .i32⟩ : BufTy).Contents (Elt F) → (⟨S_, .i32⟩ : BufTy).Contents (Elt F) → (⟨S_, .i32⟩ : BufTy).Contents (Elt F)),
    StableHlo.binary main_v489 main_v484 main_v491 (subi : (⟨S_, .i32⟩ : BufTy).Contents (Elt F) → (⟨S_, .i32⟩ : BufTy).Contents (Elt F) → (⟨S_, .i32⟩ : BufTy).Contents (Elt F)),
    StableHlo.nullary main_v492 (iotaInDim S7 32 0),
    StableHlo.nullary main_v493 (iotaInDim S7 32 0),
    StableHlo.unary main_v490 main_v494 (broadcastInDim S7 ![] bcast_S_S7 : (⟨S_, .i32⟩ : BufTy).Contents (Elt F) → (⟨S7, .i32⟩ : BufTy).Contents (Elt F)),
    StableHlo.binary main_v492 main_v494 main_v495 (muli : (⟨S7, .i32⟩ : BufTy).Contents (Elt F) → (⟨S7, .i32⟩ : BufTy).Contents (Elt F) → (⟨S7, .i32⟩ : BufTy).Contents (Elt F)),
    StableHlo.nullary main_c_66 (constantI S_ 32 7#32) ]
theorem ops9_0_sub : (ops9_0 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops9_0_fresh : (ops9_0 : List (HloOp τ sig (Elt F))).Forall fun op => op.fresh = ∅ := by
  simp only [List.Forall]; repeat' constructor
theorem ops9_0_keeps : (ops9_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 985 … 1001 of the program (17 of window 9), in order. -/
abbrev ops9_1 : List (HloOp τ sig (Elt F)) :=
  [ StableHlo.TRef.unary (.of main_c_66 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S7, .i32⟩) (broadcastInDim S7 ![] bcast_S_S7),
    StableHlo.TRef.binary (.of main_v495 : StableHlo.TRef sig ⟨S7, .i32⟩) (.of main_call38_v1 : StableHlo.TRef sig ⟨S7, .i32⟩) (.of main_call38_v2 : StableHlo.TRef sig ⟨S7, .i32⟩) Host.divsi,
    StableHlo.TRef.unary (.of main_v495 : StableHlo.TRef sig ⟨S7, .i32⟩) (.of main_call38_v3 : StableHlo.TRef sig ⟨S7, .i32⟩) signi,
    StableHlo.TRef.unary (.of main_call38_v0 : StableHlo.TRef sig ⟨S_, .i32⟩) (.of main_call38_v4 : StableHlo.TRef sig ⟨S_, .i32⟩) signi,
    StableHlo.TRef.unary (.of main_call38_v4 : StableHlo.TRef sig ⟨S_, .i32⟩) (.of main_call38_v5 : StableHlo.TRef sig ⟨S7, .i32⟩) (broadcastInDim S7 ![] bcast_S_S7),
    StableHlo.TRef.binary (.of main_call38_v3 : StableHlo.TRef sig ⟨S7, .i32⟩) (.of main_call38_v5 : StableHlo.TRef sig ⟨S7, .i32⟩) (.of main_call38_v6 : StableHlo.TRef sig ⟨S7, .i1⟩) (cmpi .ne),
    StableHlo.TRef.unary (.of main_call38_v0 : StableHlo.TRef sig ⟨S_, .i32⟩) (.of main_call38_v7 : StableHlo.TRef sig ⟨S7, .i32⟩) (broadcastInDim S7 ![] bcast_S_S7),
    StableHlo.TRef.binary (.of main_v495 : StableHlo.TRef sig ⟨S7, .i32⟩) (.of main_call38_v7 : StableHlo.TRef sig ⟨S7, .i32⟩) (.of main_call38_v8 : StableHlo.TRef sig ⟨S7, .i32⟩) Host.remsi,
    StableHlo.TRef.nullary (.of main_call38_c : StableHlo.TRef sig ⟨S_, .i32⟩) (constantI S_ 32 0#32),
    StableHlo.TRef.unary (.of main_call38_c : StableHlo.TRef sig ⟨S_, .i32⟩) (.of main_call38_v9 : StableHlo.TRef sig ⟨S7, .i32⟩) (broadcastInDim S7 ![] bcast_S_S7),
    StableHlo.TRef.binary (.of main_call38_v8 : StableHlo.TRef sig ⟨S7, .i32⟩) (.of main_call38_v9 : StableHlo.TRef sig ⟨S7, .i32⟩) (.of main_call38_v10 : StableHlo.TRef sig ⟨S7, .i1⟩) (cmpi .ne),
    StableHlo.TRef.binary (.of main_call38_v6 : StableHlo.TRef sig ⟨S7, .i1⟩) (.of main_call38_v10 : StableHlo.TRef sig ⟨S7, .i1⟩) (.of main_call38_v11 : StableHlo.TRef sig ⟨S7, .i1⟩) andi,
    StableHlo.TRef.nullary (.of main_call38_c_0 : StableHlo.TRef sig ⟨S_, .i32⟩) (constantI S_ 32 1#32),
    StableHlo.TRef.unary (.of main_call38_c_0 : StableHlo.TRef sig ⟨S_, .i32⟩) (.of main_call38_v12 : StableHlo.TRef sig ⟨S7, .i32⟩) (broadcastInDim S7 ![] bcast_S_S7),
    StableHlo.TRef.binary (.of main_call38_v2 : StableHlo.TRef sig ⟨S7, .i32⟩) (.of main_call38_v12 : StableHlo.TRef sig ⟨S7, .i32⟩) (.of main_call38_v13 : StableHlo.TRef sig ⟨S7, .i32⟩) subi,
    StableHlo.TRef.ternary (.of main_call38_v11 : StableHlo.TRef sig ⟨S7, .i1⟩) (.of main_call38_v13 : StableHlo.TRef sig ⟨S7, .i32⟩) (.of main_call38_v2 : StableHlo.TRef sig ⟨S7, .i32⟩) (.of main_v496 : StableHlo.TRef sig ⟨S7, .i32⟩) select ]
theorem ops9_1_sub : (ops9_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops9_1_fresh : (ops9_1 : List (HloOp τ sig (Elt F))).Forall fun op => op.fresh = ∅ := by
  simp only [List.Forall]; repeat' constructor
theorem ops9_1_keeps : (ops9_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1002 … 1010 of the program (9 of window 9), in order. -/
abbrev ops9_2 : List (HloOp τ sig (Elt F)) :=
  [ StableHlo.unary main_v474 main_v497 (broadcastInDim S7 ![] bcast_S_S7 : (⟨S_, .i32⟩ : BufTy).Contents (Elt F) → (⟨S7, .i32⟩ : BufTy).Contents (Elt F)),
    StableHlo.binary main_v497 main_v496 main_v498 (addi : (⟨S7, .i32⟩ : BufTy).Contents (Elt F) → (⟨S7, .i32⟩ : BufTy).Contents (Elt F) → (⟨S7, .i32⟩ : BufTy).Contents (Elt F)),
    StableHlo.nullary main_c_67 (constantI S_ 32 1#32),
    StableHlo.unary main_c_67 main_v499 (broadcastInDim S7 ![] bcast_S_S7 : (⟨S_, .i32⟩ : BufTy).Contents (Elt F) → (⟨S7, .i32⟩ : BufTy).Contents (Elt F)),
    StableHlo.binary main_v492 main_v499 main_v500 (addi : (⟨S7, .i32⟩ : BufTy).Contents (Elt F) → (⟨S7, .i32⟩ : BufTy).Contents (Elt F) → (⟨S7, .i32⟩ : BufTy).Contents (Elt F)),
    StableHlo.unary main_v500 main_v501 (negi : (⟨S7, .i32⟩ : BufTy).Contents (Elt F) → (⟨S7, .i32⟩ : BufTy).Contents (Elt F)),
    StableHlo.unary main_v490 main_v502 (broadcastInDim S7 ![] bcast_S_S7 : (⟨S_, .i32⟩ : BufTy).Contents (Elt F) → (⟨S7, .i32⟩ : BufTy).Contents (Elt F)),
    StableHlo.binary main_v501 main_v502 main_v503 (muli : (⟨S7, .i32⟩ : BufTy).Contents (Elt F) → (⟨S7, .i32⟩ : BufTy).Contents (Elt F) → (⟨S7, .i32⟩ : BufTy).Contents (Elt F)),
    StableHlo.nullary main_c_68 (constantI S_ 32 7#32) ]
theorem ops9_2_sub : (ops9_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops9_2_fresh : (ops9_2 : List (HloOp τ sig (Elt F))).Forall fun op => op.fresh = ∅ := by
  simp only [List.Forall]; repeat' constructor
theorem ops9_2_keeps : (ops9_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1011 … 1027 of the program (17 of window 9), in order. -/
abbrev ops9_3 : List (HloOp τ sig (Elt F)) :=
  [ StableHlo.TRef.unary (.of main_c_68 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S7, .i32⟩) (broadcastInDim S7 ![] bcast_S_S7),
    StableHlo.TRef.binary (.of main_v503 : StableHlo.TRef sig ⟨S7, .i32⟩) (.of main_call39_v1 : StableHlo.TRef sig ⟨S7, .i32⟩) (.of main_call39_v2 : StableHlo.TRef sig ⟨S7, .i32⟩) Host.divsi,
    StableHlo.TRef.unary (.of main_v503 : StableHlo.TRef sig ⟨S7, .i32⟩) (.of main_call39_v3 : StableHlo.TRef sig ⟨S7, .i32⟩) signi,
    StableHlo.TRef.unary (.of main_call39_v0 : StableHlo.TRef sig ⟨S_, .i32⟩) (.of main_call39_v4 : StableHlo.TRef sig ⟨S_, .i32⟩) signi,
    StableHlo.TRef.unary (.of main_call39_v4 : StableHlo.TRef sig ⟨S_, .i32⟩) (.of main_call39_v5 : StableHlo.TRef sig ⟨S7, .i32⟩) (broadcastInDim S7 ![] bcast_S_S7),
    StableHlo.TRef.binary (.of main_call39_v3 : StableHlo.TRef sig ⟨S7, .i32⟩) (.of main_call39_v5 : StableHlo.TRef sig ⟨S7, .i32⟩) (.of main_call39_v6 : StableHlo.TRef sig ⟨S7, .i1⟩) (cmpi .ne),
    StableHlo.TRef.unary (.of main_call39_v0 : StableHlo.TRef sig ⟨S_, .i32⟩) (.of main_call39_v7 : StableHlo.TRef sig ⟨S7, .i32⟩) (broadcastInDim S7 ![] bcast_S_S7),
    StableHlo.TRef.binary (.of main_v503 : StableHlo.TRef sig ⟨S7, .i32⟩) (.of main_call39_v7 : StableHlo.TRef sig ⟨S7, .i32⟩) (.of main_call39_v8 : StableHlo.TRef sig ⟨S7, .i32⟩) Host.remsi,
    StableHlo.TRef.nullary (.of main_call39_c : StableHlo.TRef sig ⟨S_, .i32⟩) (constantI S_ 32 0#32),
    StableHlo.TRef.unary (.of main_call39_c : StableHlo.TRef sig ⟨S_, .i32⟩) (.of main_call39_v9 : StableHlo.TRef sig ⟨S7, .i32⟩) (broadcastInDim S7 ![] bcast_S_S7),
    StableHlo.TRef.binary (.of main_call39_v8 : StableHlo.TRef sig ⟨S7, .i32⟩) (.of main_call39_v9 : StableHlo.TRef sig ⟨S7, .i32⟩) (.of main_call39_v10 : StableHlo.TRef sig ⟨S7, .i1⟩) (cmpi .ne),
    StableHlo.TRef.binary (.of main_call39_v6 : StableHlo.TRef sig ⟨S7, .i1⟩) (.of main_call39_v10 : StableHlo.TRef sig ⟨S7, .i1⟩) (.of main_call39_v11 : StableHlo.TRef sig ⟨S7, .i1⟩) andi,
    StableHlo.TRef.nullary (.of main_call39_c_0 : StableHlo.TRef sig ⟨S_, .i32⟩) (constantI S_ 32 1#32),
    StableHlo.TRef.unary (.of main_call39_c_0 : StableHlo.TRef sig ⟨S_, .i32⟩) (.of main_call39_v12 : StableHlo.TRef sig ⟨S7, .i32⟩) (broadcastInDim S7 ![] bcast_S_S7),
    StableHlo.TRef.binary (.of main_call39_v2 : StableHlo.TRef sig ⟨S7, .i32⟩) (.of main_call39_v12 : StableHlo.TRef sig ⟨S7, .i32⟩) (.of main_call39_v13 : StableHlo.TRef sig ⟨S7, .i32⟩) subi,
    StableHlo.TRef.ternary (.of main_call39_v11 : StableHlo.TRef sig ⟨S7, .i1⟩) (.of main_call39_v13 : StableHlo.TRef sig ⟨S7, .i32⟩) (.of main_call39_v2 : StableHlo.TRef sig ⟨S7, .i32⟩) (.of main_v504 : StableHlo.TRef sig ⟨S7, .i32⟩) select ]
theorem ops9_3_sub : (ops9_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops9_3_fresh : (ops9_3 : List (HloOp τ sig (Elt F))).Forall fun op => op.fresh = ∅ := by
  simp only [List.Forall]; repeat' constructor
theorem ops9_3_keeps : (ops9_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1028 … 1032 of the program (5 of window 9), in order. -/
abbrev ops9_4 : List (HloOp τ sig (Elt F)) :=
  [ StableHlo.unary main_v474 main_v505 (broadcastInDim S7 ![] bcast_S_S7 : (⟨S_, .i32⟩ : BufTy).Contents (Elt F) → (⟨S7, .i32⟩ : BufTy).Contents (Elt F)),
    StableHlo.binary main_v505 main_v504 main_v506 (subi : (⟨S7, .i32⟩ : BufTy).Contents (Elt F) → (⟨S7, .i32⟩ : BufTy).Contents (Elt F) → (⟨S7, .i32⟩ : BufTy).Contents (Elt F)),
    StableHlo.unary main_v491 main_v507 (broadcastInDim S7 ![] bcast_S_S7 : (⟨S_, .i32⟩ : BufTy).Contents (Elt F) → (⟨S7, .i32⟩ : BufTy).Contents (Elt F)),
    StableHlo.binary main_v493 main_v507 main_v508 (muli : (⟨S7, .i32⟩ : BufTy).Contents (Elt F) → (⟨S7, .i32⟩ : BufTy).Contents (Elt F) → (⟨S7, .i32⟩ : BufTy).Contents (Elt F)),
    StableHlo.nullary main_c_69 (constantI S_ 32 7#32) ]
theorem ops9_4_sub : (ops9_4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops9_4_fresh : (ops9_4 : List (HloOp τ sig (Elt F))).Forall fun op => op.fresh = ∅ := by
  simp only [List.Forall]; repeat' constructor
theorem ops9_4_keeps : (ops9_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1033 … 1049 of the program (17 of window 9), in order. -/
abbrev ops9_5 : List (HloOp τ sig (Elt F)) :=
  [ StableHlo.TRef.unary (.of main_c_69 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S7, .i32⟩) (broadcastInDim S7 ![] bcast_S_S7),
    StableHlo.TRef.binary (.of main_v508 : StableHlo.TRef sig ⟨S7, .i32⟩) (.of main_call40_v1 : StableHlo.TRef sig ⟨S7, .i32⟩) (.of main_call40_v2 : StableHlo.TRef sig ⟨S7, .i32⟩) Host.divsi,
    StableHlo.TRef.unary (.of main_v508 : StableHlo.TRef sig ⟨S7, .i32⟩) (.of main_call40_v3 : StableHlo.TRef sig ⟨S7, .i32⟩) signi,
    StableHlo.TRef.unary (.of main_call40_v0 : StableHlo.TRef sig ⟨S_, .i32⟩) (.of main_call40_v4 : StableHlo.TRef sig ⟨S_, .i32⟩) signi,
    StableHlo.TRef.unary (.of main_call40_v4 : StableHlo.TRef sig ⟨S_, .i32⟩) (.of main_call40_v5 : StableHlo.TRef sig ⟨S7, .i32⟩) (broadcastInDim S7 ![] bcast_S_S7),
    StableHlo.TRef.binary (.of main_call40_v3 : StableHlo.TRef sig ⟨S7, .i32⟩) (.of main_call40_v5 : StableHlo.TRef sig ⟨S7, .i32⟩) (.of main_call40_v6 : StableHlo.TRef sig ⟨S7, .i1⟩) (cmpi .ne),
    StableHlo.TRef.unary (.of main_call40_v0 : StableHlo.TRef sig ⟨S_, .i32⟩) (.of main_call40_v7 : StableHlo.TRef sig ⟨S7, .i32⟩) (broadcastInDim S7 ![] bcast_S_S7),
    StableHlo.TRef.binary (.of main_v508 : StableHlo.TRef sig ⟨S7, .i32⟩) (.of main_call40_v7 : StableHlo.TRef sig ⟨S7, .i32⟩) (.of main_call40_v8 : StableHlo.TRef sig ⟨S7, .i32⟩) Host.remsi,
    StableHlo.TRef.nullary (.of main_call40_c : StableHlo.TRef sig ⟨S_, .i32⟩) (constantI S_ 32 0#32),
    StableHlo.TRef.unary (.of main_call40_c : StableHlo.TRef sig ⟨S_, .i32⟩) (.of main_call40_v9 : StableHlo.TRef sig ⟨S7, .i32⟩) (broadcastInDim S7 ![] bcast_S_S7),
    StableHlo.TRef.binary (.of main_call40_v8 : StableHlo.TRef sig ⟨S7, .i32⟩) (.of main_call40_v9 : StableHlo.TRef sig ⟨S7, .i32⟩) (.of main_call40_v10 : StableHlo.TRef sig ⟨S7, .i1⟩) (cmpi .ne),
    StableHlo.TRef.binary (.of main_call40_v6 : StableHlo.TRef sig ⟨S7, .i1⟩) (.of main_call40_v10 : StableHlo.TRef sig ⟨S7, .i1⟩) (.of main_call40_v11 : StableHlo.TRef sig ⟨S7, .i1⟩) andi,
    StableHlo.TRef.nullary (.of main_call40_c_0 : StableHlo.TRef sig ⟨S_, .i32⟩) (constantI S_ 32 1#32),
    StableHlo.TRef.unary (.of main_call40_c_0 : StableHlo.TRef sig ⟨S_, .i32⟩) (.of main_call40_v12 : StableHlo.TRef sig ⟨S7, .i32⟩) (broadcastInDim S7 ![] bcast_S_S7),
    StableHlo.TRef.binary (.of main_call40_v2 : StableHlo.TRef sig ⟨S7, .i32⟩) (.of main_call40_v12 : StableHlo.TRef sig ⟨S7, .i32⟩) (.of main_call40_v13 : StableHlo.TRef sig ⟨S7, .i32⟩) subi,
    StableHlo.TRef.ternary (.of main_call40_v11 : StableHlo.TRef sig ⟨S7, .i1⟩) (.of main_call40_v13 : StableHlo.TRef sig ⟨S7, .i32⟩) (.of main_call40_v2 : StableHlo.TRef sig ⟨S7, .i32⟩) (.of main_v509 : StableHlo.TRef sig ⟨S7, .i32⟩) select ]
theorem ops9_5_sub : (ops9_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops9_5_fresh : (ops9_5 : List (HloOp τ sig (Elt F))).Forall fun op => op.fresh = ∅ := by
  simp only [List.Forall]; repeat' constructor
theorem ops9_5_keeps : (ops9_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1050 … 1058 of the program (9 of window 9), in order. -/
abbrev ops9_6 : List (HloOp τ sig (Elt F)) :=
  [ StableHlo.unary main_v484 main_v510 (broadcastInDim S7 ![] bcast_S_S7 : (⟨S_, .i32⟩ : BufTy).Contents (Elt F) → (⟨S7, .i32⟩ : BufTy).Contents (Elt F)),
    StableHlo.binary main_v510 main_v509 main_v511 (addi : (⟨S7, .i32⟩ : BufTy).Contents (Elt F) → (⟨S7, .i32⟩ : BufTy).Contents (Elt F) → (⟨S7, .i32⟩ : BufTy).Contents (Elt F)),
    StableHlo.nullary main_c_70 (constantI S_ 32 1#32),
    StableHlo.unary main_c_70 main_v512 (broadcastInDim S7 ![] bcast_S_S7 : (⟨S_, .i32⟩ : BufTy).Contents (Elt F) → (⟨S7, .i32⟩ : BufTy).Contents (Elt F)),
    StableHlo.binary main_v493 main_v512 main_v513 (addi : (⟨S7, .i32⟩ : BufTy).Contents (Elt F) → (⟨S7, .i32⟩ : BufTy).Contents (Elt F) → (⟨S7, .i32⟩ : BufTy).Contents (Elt F)),
    StableHlo.unary main_v513 main_v514 (negi : (⟨S7, .i32⟩ : BufTy).Contents (Elt F) → (⟨S7, .i32⟩ : BufTy).Contents (Elt F)),
    StableHlo.unary main_v491 main_v515 (broadcastInDim S7 ![] bcast_S_S7 : (⟨S_, .i32⟩ : BufTy).Contents (Elt F) → (⟨S7, .i32⟩ : BufTy).Contents (Elt F)),
    StableHlo.binary main_v514 main_v515 main_v516 (muli : (⟨S7, .i32⟩ : BufTy).Contents (Elt F) → (⟨S7, .i32⟩ : BufTy).Contents (Elt F) → (⟨S7, .i32⟩ : BufTy).Contents (Elt F)),
    StableHlo.nullary main_c_71 (constantI S_ 32 7#32) ]
theorem ops9_6_sub : (ops9_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops9_6_fresh : (ops9_6 : List (HloOp τ sig (Elt F))).Forall fun op => op.fresh = ∅ := by
  simp only [List.Forall]; repeat' constructor
theorem ops9_6_keeps : (ops9_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1059 … 1075 of the program (17 of window 9), in order. -/
abbrev ops9_7 : List (HloOp τ sig (Elt F)) :=
  [ StableHlo.TRef.unary (.of main_c_71 : StableHlo.TRef sig ⟨S_, .i32⟩) (.of main_call41_v0 : StableHlo.TRef sig ⟨S_, .i32⟩) id,
    StableHlo.TRef.unary (.of main_call41_v0 : StableHlo.TRef sig ⟨S_, .i32⟩) (.of main_call41_v1 : StableHlo.TRef sig ⟨S7, .i32⟩) (broadcastInDim S7 ![] bcast_S_S7),
    StableHlo.TRef.binary (.of main_v516 : StableHlo.TRef sig ⟨S7, .i32⟩) (.of main_call41_v1 : StableHlo.TRef sig ⟨S7, .i32⟩) (.of main_call41_v2 : StableHlo.TRef sig ⟨S7, .i32⟩) Host.divsi,
    StableHlo.TRef.unary (.of main_v516 : StableHlo.TRef sig ⟨S7, .i32⟩) (.of main_call41_v3 : StableHlo.TRef sig ⟨S7, .i32⟩) signi,
    StableHlo.TRef.unary (.of main_call41_v0 : StableHlo.TRef sig ⟨S_, .i32⟩) (.of main_call41_v4 : StableHlo.TRef sig ⟨S_, .i32⟩) signi,
    StableHlo.TRef.unary (.of main_call41_v4 : StableHlo.TRef sig ⟨S_, .i32⟩) (.of main_call41_v5 : StableHlo.TRef sig ⟨S7, .i32⟩) (broadcastInDim S7 ![] bcast_S_S7),
    StableHlo.TRef.binary (.of main_call41_v3 : StableHlo.TRef sig ⟨S7, .i32⟩) (.of main_call41_v5 : StableHlo.TRef sig ⟨S7, .i32⟩) (.of main_call41_v6 : StableHlo.TRef sig ⟨S7, .i1⟩) (cmpi .ne),
    StableHlo.TRef.unary (.of main_call41_v0 : StableHlo.TRef sig ⟨S_, .i32⟩) (.of main_call41_v7 : StableHlo.TRef sig ⟨S7, .i32⟩) (broadcastInDim S7 ![] bcast_S_S7),
    StableHlo.TRef.binary (.of main_v516 : StableHlo.TRef sig ⟨S7, .i32⟩) (.of main_call41_v7 : StableHlo.TRef sig ⟨S7, .i32⟩) (.of main_call41_v8 : StableHlo.TRef sig ⟨S7, .i32⟩) Host.remsi,
    StableHlo.TRef.nullary (.of main_call41_c : StableHlo.TRef sig ⟨S_, .i32⟩) (constantI S_ 32 0#32),
    StableHlo.TRef.unary (.of main_call41_c : StableHlo.TRef sig ⟨S_, .i32⟩) (.of main_call41_v9 : StableHlo.TRef sig ⟨S7, .i32⟩) (broadcastInDim S7 ![] bcast_S_S7),
    StableHlo.TRef.binary (.of main_call41_v8 : StableHlo.TRef sig ⟨S7, .i32⟩) (.of main_call41_v9 : StableHlo.TRef sig ⟨S7, .i32⟩) (.of main_call41_v10 : StableHlo.TRef sig ⟨S7, .i1⟩) (cmpi .ne),
    StableHlo.TRef.binary (.of main_call41_v6 : StableHlo.TRef sig ⟨S7, .i1⟩) (.of main_call41_v10 : StableHlo.TRef sig ⟨S7, .i1⟩) (.of main_call41_v11 : StableHlo.TRef sig ⟨S7, .i1⟩) andi,
    StableHlo.TRef.nullary (.of main_call41_c_0 : StableHlo.TRef sig ⟨S_, .i32⟩) (constantI S_ 32 1#32),
    StableHlo.TRef.unary (.of main_call41_c_0 : StableHlo.TRef sig ⟨S_, .i32⟩) (.of main_call41_v12 : StableHlo.TRef sig ⟨S7, .i32⟩) (broadcastInDim S7 ![] bcast_S_S7),
    StableHlo.TRef.binary (.of main_call41_v2 : StableHlo.TRef sig ⟨S7, .i32⟩) (.of main_call41_v12 : StableHlo.TRef sig ⟨S7, .i32⟩) (.of main_call41_v13 : StableHlo.TRef sig ⟨S7, .i32⟩) subi,
    StableHlo.TRef.ternary (.of main_call41_v11 : StableHlo.TRef sig ⟨S7, .i1⟩) (.of main_call41_v13 : StableHlo.TRef sig ⟨S7, .i32⟩) (.of main_call41_v2 : StableHlo.TRef sig ⟨S7, .i32⟩) (.of main_v517 : StableHlo.TRef sig ⟨S7, .i32⟩) select ]
theorem ops9_7_sub : (ops9_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops9_7_fresh : (ops9_7 : List (HloOp τ sig (Elt F))).Forall fun op => op.fresh = ∅ := by
  simp only [List.Forall]; repeat' constructor
theorem ops9_7_keeps : (ops9_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1076 … 1083 of the program (8 of window 9), in order. -/
abbrev ops9_8 : List (HloOp τ sig (Elt F)) :=
  [ StableHlo.unary main_v484 main_v518 (broadcastInDim S7 ![] bcast_S_S7 : (⟨S_, .i32⟩ : BufTy).Contents (Elt F) → (⟨S7, .i32⟩ : BufTy).Contents (Elt F)),
    StableHlo.binary main_v518 main_v517 main_v519 (subi : (⟨S7, .i32⟩ : BufTy).Contents (Elt F) → (⟨S7, .i32⟩ : BufTy).Contents (Elt F) → (⟨S7, .i32⟩ : BufTy).Contents (Elt F)),
    StableHlo.nullary main_v520 (iotaInDim S64 32 0),
    StableHlo.nullary main_v521 (iotaInDim S64 32 0),
    StableHlo.unary main_v520 main_v522 (broadcastInDim S1x64 ![1] bcast_S64_S1x64_1 : (⟨S64, .i32⟩ : BufTy).Contents (Elt F) → (⟨S1x64, .i32⟩ : BufTy).Contents (Elt F)),
    StableHlo.unary main_v498 main_v523 (broadcastInDim S7x1 ![0] bcast_S7_S7x1_0 : (⟨S7, .i32⟩ : BufTy).Contents (Elt F) → (⟨S7x1, .i32⟩ : BufTy).Contents (Elt F)),
    StableHlo.unary main_v522 main_v524 (broadcastInDim S7x64 ![0, 1] bcast_S1x64_S7x64_0_1 : (⟨S1x64, .i32⟩ : BufTy).Contents (Elt F) → (⟨S7x64, .i32⟩ : BufTy).Contents (Elt F)),
    StableHlo.unary main_v523 main_v525 (broadcastInDim S7x64 ![0, 1] bcast_S7x1_S7x64_0_1 : (⟨S7x1, .i32⟩ : BufTy).Contents (Elt F) → (⟨S7x64, .i32⟩ : BufTy).Contents (Elt F)) ]
theorem ops9_8_sub : (ops9_8 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub ..⟩
theorem ops9_8_fresh : (ops9_8 : List (HloOp τ sig (Elt F))).Forall fun op => op.fresh = ∅ := by
  simp only [List.Forall]; repeat' constructor
theorem ops9_8_keeps : (ops9_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops9_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part9_eq (c : Dev nD) : main_part9 (F := F) c = Pipeline.chainK [StableHlo.seq ops9_0, StableHlo.seq ops9_1, StableHlo.seq ops9_2, StableHlo.seq ops9_3, StableHlo.seq ops9_4, StableHlo.seq ops9_5, StableHlo.seq ops9_6, StableHlo.seq ops9_7] (StableHlo.seq ops9_8) := by
  chain_rfl

end Cert.ReferenceIdeal.Host

end
-- ==== Proof.RefOps10.lean ====
/- Window 10 of the program's @main, every called function's body written out in place: 82 operations,
  cut into 6 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1084 … 1104 of the program (21 of window 10), in order. -/
abbrev ops10_0 : List (HloOp τ sig (Elt F)) :=
  [ StableHlo.binary main_v524 main_v525 main_v526 (cmpi .sge : (⟨S7x64, .i32⟩ : BufTy).Contents (Elt F) → (⟨S7x64, .i32⟩ : BufTy).Contents (Elt F) → (⟨S7x64, .i1⟩ : BufTy).Contents (Elt F)),
    StableHlo.unary main_v520 main_v527 (broadcastInDim S1x64 ![1] bcast_S64_S1x64_1 : (⟨S64, .i32⟩ : BufTy).Contents (Elt F) → (⟨S1x64, .i32⟩ : BufTy).Contents (Elt F)),
    StableHlo.unary main_v506 main_v528 (broadcastInDim S7x1 ![0] bcast_S7_S7x1_0 : (⟨S7, .i32⟩ : BufTy).Contents (Elt F) → (⟨S7x1, .i32⟩ : BufTy).Contents (Elt F)),
    StableHlo.unary main_v527 main_v529 (broadcastInDim S7x64 ![0, 1] bcast_S1x64_S7x64_0_1 : (⟨S1x64, .i32⟩ : BufTy).Contents (Elt F) → (⟨S7x64, .i32⟩ : BufTy).Contents (Elt F)),
    StableHlo.unary main_v528 main_v530 (broadcastInDim S7x64 ![0, 1] bcast_S7x1_S7x64_0_1 : (⟨S7x1, .i32⟩ : BufTy).Contents (Elt F) → (⟨S7x64, .i32⟩ : BufTy).Contents (Elt F)),
    StableHlo.binary main_v529 main_v530 main_v531 (cmpi .slt : (⟨S7x64, .i32⟩ : BufTy).Contents (Elt F) → (⟨S7x64, .i32⟩ : BufTy).Contents (Elt F) → (⟨S7x64, .i1⟩ : BufTy).Contents (Elt F)),
    StableHlo.binary main_v526 main_v531 main_v532 (andi : (⟨S7x64, .i1⟩ : BufTy).Contents (Elt F) → (⟨S7x64, .i1⟩ : BufTy).Contents (Elt F) → (⟨S7x64, .i1⟩ : BufTy).Contents (Elt F)),
    StableHlo.unary main_v521 main_v533 (broadcastInDim S1x64 ![1] bcast_S64_S1x64_1 : (⟨S64, .i32⟩ : BufTy).Contents (Elt F) → (⟨S1x64, .i32⟩ : BufTy).Contents (Elt F)),
    StableHlo.unary main_v511 main_v534 (broadcastInDim S7x1 ![0] bcast_S7_S7x1_0 : (⟨S7, .i32⟩ : BufTy).Contents (Elt F) → (⟨S7x1, .i32⟩ : BufTy).Contents (Elt F)),
    StableHlo.unary main_v533 main_v535 (broadcastInDim S7x64 ![0, 1] bcast_S1x64_S7x64_0_1 : (⟨S1x64, .i32⟩ : BufTy).Contents (Elt F) → (⟨S7x64, .i32⟩ : BufTy).Contents (Elt F)),
    StableHlo.unary main_v534 main_v536 (broadcastInDim S7x64 ![0, 1] bcast_S7x1_S7x64_0_1 : (⟨S7x1, .i32⟩ : BufTy).Contents (Elt F) → (⟨S7x64, .i32⟩ : BufTy).Contents (Elt F)),
    StableHlo.binary main_v535 main_v536 main_v537 (cmpi .sge : (⟨S7x64, .i32⟩ : BufTy).Contents (Elt F) → (⟨S7x64, .i32⟩ : BufTy).Contents (Elt F) → (⟨S7x64, .i1⟩ : BufTy).Contents (Elt F)),
    StableHlo.unary main_v521 main_v538 (broadcastInDim S1x64 ![1] bcast_S64_S1x64_1 : (⟨S64, .i32⟩ : BufTy).Contents (Elt F) → (⟨S1x64, .i32⟩ : BufTy).Contents (Elt F)),
    StableHlo.unary main_v519 main_v539 (broadcastInDim S7x1 ![0] bcast_S7_S7x1_0 : (⟨S7, .i32⟩ : BufTy).Contents (Elt F) → (⟨S7x1, .i32⟩ : BufTy).Contents (Elt F)),
    StableHlo.unary main_v538 main_v540 (broadcastInDim S7x64 ![0, 1] bcast_S1x64_S7x64_0_1 : (⟨S1x64, .i32⟩ : BufTy).Contents (Elt F) → (⟨S7x64, .i32⟩ : BufTy).Contents (Elt F)),
    StableHlo.unary main_v539 main_v541 (broadcastInDim S7x64 ![0, 1] bcast_S7x1_S7x64_0_1 : (⟨S7x1, .i32⟩ : BufTy).Contents (Elt F) → (⟨S7x64, .i32⟩ : BufTy).Contents (Elt F)),
    StableHlo.binary main_v540 main_v541 main_v542 (cmpi .slt : (⟨S7x64, .i32⟩ : BufTy).Contents (Elt F) → (⟨S7x64, .i32⟩ : BufTy).Contents (Elt F) → (⟨S7x64, .i1⟩ : BufTy).Contents (Elt F)),
    StableHlo.binary main_v537 main_v542 main_v543 (andi : (⟨S7x64, .i1⟩ : BufTy).Contents (Elt F) → (⟨S7x64, .i1⟩ : BufTy).Contents (Elt F) → (⟨S7x64, .i1⟩ : BufTy).Contents (Elt F)),
    StableHlo.unary main_v532 main_v544 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v545 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_72 (constant S_ .f32 0xFF800000#32) ]
theorem ops10_0_sub : (ops10_0 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops10_0_fresh : (ops10_0 : List (HloOp τ sig (Elt F))).Forall fun op => op.fresh = ∅ := by
  simp only [List.Forall]; repeat' constructor
theorem ops10_0_keeps : (ops10_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops10_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1105 … 1108 of the program (4 of window 10), in order. -/
abbrev ops10_1 : List (HloOp τ sig (Elt F)) :=
  [ StableHlo.TRef.unary (.of main_v544 : StableHlo.TRef sig ⟨S7x1x64x1, .i1⟩) (.of main_call42_v0 : StableHlo.TRef sig ⟨S7x512x64x64, .i1⟩) (broadcastInDim S7x512x64x64 ![0, 1, 2, 3] bcast_S7x1x64x1_S7x512x64x64_0_1_2_3),
    StableHlo.TRef.unary (.of main_v545 : StableHlo.TRef sig ⟨S1x512x64x64, .f32⟩) (.of main_call42_v1 : StableHlo.TRef sig ⟨S7x512x64x64, .f32⟩) (broadcastInDim S7x512x64x64 ![0, 1, 2, 3] bcast_S1x512x64x64_S7x512x64x64_0_1_2_3),
    StableHlo.TRef.unary (.of main_cst_72 : StableHlo.TRef sig ⟨S_, .f32⟩) (.of main_call42_v2 : StableHlo.TRef sig ⟨S7x512x64x64, .f32⟩) (broadcastInDim S7x512x64x64 ![] bcast_S_S7x512x64x64),
    StableHlo.TRef.ternary (.of main_call42_v0 : StableHlo.TRef sig ⟨S7x512x64x64, .i1⟩) (.of main_call42_v1 : StableHlo.TRef sig ⟨S7x512x64x64, .f32⟩) (.of main_call42_v2 : StableHlo.TRef sig ⟨S7x512x64x64, .f32⟩) (.of main_v546 : StableHlo.TRef sig ⟨S7x512x64x64, .f32⟩) select ]
theorem ops10_1_sub : (ops10_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops10_1_fresh : (ops10_1 : List (HloOp τ sig (Elt F))).Forall fun op => op.fresh = ∅ := by
  simp only [List.Forall]; repeat' constructor
theorem ops10_1_keeps : (ops10_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops10_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1109 … 1113 of the program (5 of window 10), in order. -/
abbrev ops10_2 : List (HloOp τ sig (Elt F)) :=
  [ StableHlo.nullary main_cst_73 (constant S_ .f32 0xFF800000#32),
    StableHlo.binary main_v546 main_cst_73 main_v547 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v543 main_v548 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v547 main_v549 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_74 (constant S_ .f32 0xFF800000#32) ]
theorem ops10_2_sub : (ops10_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops10_2_fresh : (ops10_2 : List (HloOp τ sig (Elt F))).Forall fun op => op.fresh = ∅ := by
  simp only [List.Forall]; repeat' constructor
theorem ops10_2_keeps : (ops10_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops10_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1114 … 1117 of the program (4 of window 10), in order. -/
abbrev ops10_3 : List (HloOp τ sig (Elt F)) :=
  [ StableHlo.TRef.unary (.of main_v548 : StableHlo.TRef sig ⟨S1x1x7x64, .i1⟩) (.of main_call43_v0 : StableHlo.TRef sig ⟨S7x512x7x64, .i1⟩) (broadcastInDim S7x512x7x64 ![0, 1, 2, 3] bcast_S1x1x7x64_S7x512x7x64_0_1_2_3),
    StableHlo.TRef.unary (.of main_v549 : StableHlo.TRef sig ⟨S7x512x1x64, .f32⟩) (.of main_call43_v1 : StableHlo.TRef sig ⟨S7x512x7x64, .f32⟩) (broadcastInDim S7x512x7x64 ![0, 1, 2, 3] bcast_S7x512x1x64_S7x512x7x64_0_1_2_3),
    StableHlo.TRef.unary (.of main_cst_74 : StableHlo.TRef sig ⟨S_, .f32⟩) (.of main_call43_v2 : StableHlo.TRef sig ⟨S7x512x7x64, .f32⟩) (broadcastInDim S7x512x7x64 ![] bcast_S_S7x512x7x64),
    StableHlo.TRef.ternary (.of main_call43_v0 : StableHlo.TRef sig ⟨S7x512x7x64, .i1⟩) (.of main_call43_v1 : StableHlo.TRef sig ⟨S7x512x7x64, .f32⟩) (.of main_call43_v2 : StableHlo.TRef sig ⟨S7x512x7x64, .f32⟩) (.of main_v550 : StableHlo.TRef sig ⟨S7x512x7x64, .f32⟩) select ]
theorem ops10_3_sub : (ops10_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops10_3_fresh : (ops10_3 : List (HloOp τ sig (Elt F))).Forall fun op => op.fresh = ∅ := by
  simp only [List.Forall]; repeat' constructor
theorem ops10_3_keeps : (ops10_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops10_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1118 … 1148 of the program (31 of window 10), in order. -/
abbrev ops10_4 : List (HloOp τ sig (Elt F)) :=
  [ StableHlo.nullary main_cst_75 (constant S_ .f32 0xFF800000#32),
    StableHlo.binary main_v550 main_cst_75 main_v551 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v551 main_v552 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v552 main_v553 rfl shapeCasts_S512x7x7_S25088,
    StableHlo.unary main_v18 main_v554 ((extractStridedSlice S1x1 ![0, 1] · slices_S3x4_S1x1_0_1) : (⟨S3x4, .i32⟩ : BufTy).Contents (Elt F) → (⟨S1x1, .i32⟩ : BufTy).Contents (Elt F)),
    StableHlo.reshape main_v554 main_v555 rfl shapeCasts_S1x1_S_,
    StableHlo.unary main_v23 main_v556 ((extractStridedSlice S1x1 ![3, 1] · slices_S4x4_S1x1_3_1) : (⟨S4x4, .i32⟩ : BufTy).Contents (Elt F) → (⟨S1x1, .i32⟩ : BufTy).Contents (Elt F)),
    StableHlo.reshape main_v556 main_v557 rfl shapeCasts_S1x1_S_,
    StableHlo.binary main_v555 main_v557 main_v558 (minsi : (⟨S_, .i32⟩ : BufTy).Contents (Elt F) → (⟨S_, .i32⟩ : BufTy).Contents (Elt F) → (⟨S_, .i32⟩ : BufTy).Contents (Elt F)),
    StableHlo.unary main_v18 main_v559 ((extractStridedSlice S1x1 ![0, 3] · slices_S3x4_S1x1_0_3) : (⟨S3x4, .i32⟩ : BufTy).Contents (Elt F) → (⟨S1x1, .i32⟩ : BufTy).Contents (Elt F)),
    StableHlo.reshape main_v559 main_v560 rfl shapeCasts_S1x1_S_,
    StableHlo.unary main_v23 main_v561 ((extractStridedSlice S1x1 ![3, 3] · slices_S4x4_S1x1_3_3) : (⟨S4x4, .i32⟩ : BufTy).Contents (Elt F) → (⟨S1x1, .i32⟩ : BufTy).Contents (Elt F)),
    StableHlo.reshape main_v561 main_v562 rfl shapeCasts_S1x1_S_,
    StableHlo.binary main_v560 main_v562 main_v563 (maxsi : (⟨S_, .i32⟩ : BufTy).Contents (Elt F) → (⟨S_, .i32⟩ : BufTy).Contents (Elt F) → (⟨S_, .i32⟩ : BufTy).Contents (Elt F)),
    StableHlo.unary main_v18 main_v564 ((extractStridedSlice S1x1 ![0, 0] · slices_S3x4_S1x1_0_0) : (⟨S3x4, .i32⟩ : BufTy).Contents (Elt F) → (⟨S1x1, .i32⟩ : BufTy).Contents (Elt F)),
    StableHlo.reshape main_v564 main_v565 rfl shapeCasts_S1x1_S_,
    StableHlo.unary main_v23 main_v566 ((extractStridedSlice S1x1 ![3, 0] · slices_S4x4_S1x1_3_0) : (⟨S4x4, .i32⟩ : BufTy).Contents (Elt F) → (⟨S1x1, .i32⟩ : BufTy).Contents (Elt F)),
    StableHlo.reshape main_v566 main_v567 rfl shapeCasts_S1x1_S_,
    StableHlo.binary main_v565 main_v567 main_v568 (minsi : (⟨S_, .i32⟩ : BufTy).Contents (Elt F) → (⟨S_, .i32⟩ : BufTy).Contents (Elt F) → (⟨S_, .i32⟩ : BufTy).Contents (Elt F)),
    StableHlo.unary main_v18 main_v569 ((extractStridedSlice S1x1 ![0, 2] · slices_S3x4_S1x1_0_2) : (⟨S3x4, .i32⟩ : BufTy).Contents (Elt F) → (⟨S1x1, .i32⟩ : BufTy).Contents (Elt F)),
    StableHlo.reshape main_v569 main_v570 rfl shapeCasts_S1x1_S_,
    StableHlo.unary main_v23 main_v571 ((extractStridedSlice S1x1 ![3, 2] · slices_S4x4_S1x1_3_2) : (⟨S4x4, .i32⟩ : BufTy).Contents (Elt F) → (⟨S1x1, .i32⟩ : BufTy).Contents (Elt F)),
    StableHlo.reshape main_v571 main_v572 rfl shapeCasts_S1x1_S_,
    StableHlo.binary main_v570 main_v572 main_v573 (maxsi : (⟨S_, .i32⟩ : BufTy).Contents (Elt F) → (⟨S_, .i32⟩ : BufTy).Contents (Elt F) → (⟨S_, .i32⟩ : BufTy).Contents (Elt F)),
    StableHlo.binary main_v563 main_v558 main_v574 (subi : (⟨S_, .i32⟩ : BufTy).Contents (Elt F) → (⟨S_, .i32⟩ : BufTy).Contents (Elt F) → (⟨S_, .i32⟩ : BufTy).Contents (Elt F)),
    StableHlo.binary main_v573 main_v568 main_v575 (subi : (⟨S_, .i32⟩ : BufTy).Contents (Elt F) → (⟨S_, .i32⟩ : BufTy).Contents (Elt F) → (⟨S_, .i32⟩ : BufTy).Contents (Elt F)),
    StableHlo.nullary main_v576 (iotaInDim S7 32 0),
    StableHlo.nullary main_v577 (iotaInDim S7 32 0),
    StableHlo.unary main_v574 main_v578 (broadcastInDim S7 ![] bcast_S_S7 : (⟨S_, .i32⟩ : BufTy).Contents (Elt F) → (⟨S7, .i32⟩ : BufTy).Contents (Elt F)),
    StableHlo.binary main_v576 main_v578 main_v579 (muli : (⟨S7, .i32⟩ : BufTy).Contents (Elt F) → (⟨S7, .i32⟩ : BufTy).Contents (Elt F) → (⟨S7, .i32⟩ : BufTy).Contents (Elt F)),
    StableHlo.nullary main_c_76 (constantI S_ 32 7#32) ]
theorem ops10_4_sub : (ops10_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops10_4_fresh : (ops10_4 : List (HloOp τ sig (Elt F))).Forall fun op => op.fresh = ∅ := by
  simp only [List.Forall]; repeat' constructor
theorem ops10_4_keeps : (ops10_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops10_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1149 … 1165 of the program (17 of window 10), in order. -/
abbrev ops10_5 : List (HloOp τ sig (Elt F)) :=
  [ StableHlo.TRef.unary (.of main_c_76 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S7, .i32⟩) (broadcastInDim S7 ![] bcast_S_S7),
    StableHlo.TRef.binary (.of main_v579 : StableHlo.TRef sig ⟨S7, .i32⟩) (.of main_call44_v1 : StableHlo.TRef sig ⟨S7, .i32⟩) (.of main_call44_v2 : StableHlo.TRef sig ⟨S7, .i32⟩) Host.divsi,
    StableHlo.TRef.unary (.of main_v579 : StableHlo.TRef sig ⟨S7, .i32⟩) (.of main_call44_v3 : StableHlo.TRef sig ⟨S7, .i32⟩) signi,
    StableHlo.TRef.unary (.of main_call44_v0 : StableHlo.TRef sig ⟨S_, .i32⟩) (.of main_call44_v4 : StableHlo.TRef sig ⟨S_, .i32⟩) signi,
    StableHlo.TRef.unary (.of main_call44_v4 : StableHlo.TRef sig ⟨S_, .i32⟩) (.of main_call44_v5 : StableHlo.TRef sig ⟨S7, .i32⟩) (broadcastInDim S7 ![] bcast_S_S7),
    StableHlo.TRef.binary (.of main_call44_v3 : StableHlo.TRef sig ⟨S7, .i32⟩) (.of main_call44_v5 : StableHlo.TRef sig ⟨S7, .i32⟩) (.of main_call44_v6 : StableHlo.TRef sig ⟨S7, .i1⟩) (cmpi .ne),
    StableHlo.TRef.unary (.of main_call44_v0 : StableHlo.TRef sig ⟨S_, .i32⟩) (.of main_call44_v7 : StableHlo.TRef sig ⟨S7, .i32⟩) (broadcastInDim S7 ![] bcast_S_S7),
    StableHlo.TRef.binary (.of main_v579 : StableHlo.TRef sig ⟨S7, .i32⟩) (.of main_call44_v7 : StableHlo.TRef sig ⟨S7, .i32⟩) (.of main_call44_v8 : StableHlo.TRef sig ⟨S7, .i32⟩) Host.remsi,
    StableHlo.TRef.nullary (.of main_call44_c : StableHlo.TRef sig ⟨S_, .i32⟩) (constantI S_ 32 0#32),
    StableHlo.TRef.unary (.of main_call44_c : StableHlo.TRef sig ⟨S_, .i32⟩) (.of main_call44_v9 : StableHlo.TRef sig ⟨S7, .i32⟩) (broadcastInDim S7 ![] bcast_S_S7),
    StableHlo.TRef.binary (.of main_call44_v8 : StableHlo.TRef sig ⟨S7, .i32⟩) (.of main_call44_v9 : StableHlo.TRef sig ⟨S7, .i32⟩) (.of main_call44_v10 : StableHlo.TRef sig ⟨S7, .i1⟩) (cmpi .ne),
    StableHlo.TRef.binary (.of main_call44_v6 : StableHlo.TRef sig ⟨S7, .i1⟩) (.of main_call44_v10 : StableHlo.TRef sig ⟨S7, .i1⟩) (.of main_call44_v11 : StableHlo.TRef sig ⟨S7, .i1⟩) andi,
    StableHlo.TRef.nullary (.of main_call44_c_0 : StableHlo.TRef sig ⟨S_, .i32⟩) (constantI S_ 32 1#32),
    StableHlo.TRef.unary (.of main_call44_c_0 : StableHlo.TRef sig ⟨S_, .i32⟩) (.of main_call44_v12 : StableHlo.TRef sig ⟨S7, .i32⟩) (broadcastInDim S7 ![] bcast_S_S7),
    StableHlo.TRef.binary (.of main_call44_v2 : StableHlo.TRef sig ⟨S7, .i32⟩) (.of main_call44_v12 : StableHlo.TRef sig ⟨S7, .i32⟩) (.of main_call44_v13 : StableHlo.TRef sig ⟨S7, .i32⟩) subi,
    StableHlo.TRef.ternary (.of main_call44_v11 : StableHlo.TRef sig ⟨S7, .i1⟩) (.of main_call44_v13 : StableHlo.TRef sig ⟨S7, .i32⟩) (.of main_call44_v2 : StableHlo.TRef sig ⟨S7, .i32⟩) (.of main_v580 : StableHlo.TRef sig ⟨S7, .i32⟩) select ]
theorem ops10_5_sub : (ops10_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops10_5_fresh : (ops10_5 : List (HloOp τ sig (Elt F))).Forall fun op => op.fresh = ∅ := by
  simp only [List.Forall]; repeat' constructor
theorem ops10_5_keeps : (ops10_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops10_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part10_eq (c : Dev nD) : main_part10 (F := F) c = Pipeline.chainK [StableHlo.seq ops10_0, StableHlo.seq ops10_1, StableHlo.seq ops10_2, StableHlo.seq ops10_3, StableHlo.seq ops10_4] (StableHlo.seq ops10_5) := by
  chain_rfl

end Cert.ReferenceIdeal.Host

end
-- ==== Proof.RefOps11.lean ====
/- Window 11 of the program's @main, every called function's body written out in place: 111 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1166 … 1174 of the program (9 of window 11), in order. -/
abbrev ops11_0 : List (HloOp τ sig (Elt F)) :=
  [ StableHlo.unary main_v558 main_v581 (broadcastInDim S7 ![] bcast_S_S7 : (⟨S_, .i32⟩ : BufTy).Contents (Elt F) → (⟨S7, .i32⟩ : BufTy).Contents (Elt F)),
    StableHlo.binary main_v581 main_v580 main_v582 (addi : (⟨S7, .i32⟩ : BufTy).Contents (Elt F) → (⟨S7, .i32⟩ : BufTy).Contents (Elt F) → (⟨S7, .i32⟩ : BufTy).Contents (Elt F)),
    StableHlo.nullary main_c_77 (constantI S_ 32 1#32),
    StableHlo.unary main_c_77 main_v583 (broadcastInDim S7 ![] bcast_S_S7 : (⟨S_, .i32⟩ : BufTy).Contents (Elt F) → (⟨S7, .i32⟩ : BufTy).Contents (Elt F)),
    StableHlo.binary main_v576 main_v583 main_v584 (addi : (⟨S7, .i32⟩ : BufTy).Contents (Elt F) → (⟨S7, .i32⟩ : BufTy).Contents (Elt F) → (⟨S7, .i32⟩ : BufTy).Contents (Elt F)),
    StableHlo.unary main_v584 main_v585 (negi : (⟨S7, .i32⟩ : BufTy).Contents (Elt F) → (⟨S7, .i32⟩ : BufTy).Contents (Elt F)),
    StableHlo.unary main_v574 main_v586 (broadcastInDim S7 ![] bcast_S_S7 : (⟨S_, .i32⟩ : BufTy).Contents (Elt F) → (⟨S7, .i32⟩ : BufTy).Contents (Elt F)),
    StableHlo.binary main_v585 main_v586 main_v587 (muli : (⟨S7, .i32⟩ : BufTy).Contents (Elt F) → (⟨S7, .i32⟩ : BufTy).Contents (Elt F) → (⟨S7, .i32⟩ : BufTy).Contents (Elt F)),
    StableHlo.nullary main_c_78 (constantI S_ 32 7#32) ]
theorem ops11_0_sub : (ops11_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops11_0_fresh : (ops11_0 : List (HloOp τ sig (Elt F))).Forall fun op => op.fresh = ∅ := by
  simp only [List.Forall]; repeat' constructor
theorem ops11_0_keeps : (ops11_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1175 … 1191 of the program (17 of window 11), in order. -/
abbrev ops11_1 : List (HloOp τ sig (Elt F)) :=
  [ StableHlo.TRef.unary (.of main_c_78 : StableHlo.TRef sig ⟨S_, .i32⟩) (.of main_call45_v0 : StableHlo.TRef sig ⟨S_, .i32⟩) id,
    StableHlo.TRef.unary (.of main_call45_v0 : StableHlo.TRef sig ⟨S_, .i32⟩) (.of main_call45_v1 : StableHlo.TRef sig ⟨S7, .i32⟩) (broadcastInDim S7 ![] bcast_S_S7),
    StableHlo.TRef.binary (.of main_v587 : StableHlo.TRef sig ⟨S7, .i32⟩) (.of main_call45_v1 : StableHlo.TRef sig ⟨S7, .i32⟩) (.of main_call45_v2 : StableHlo.TRef sig ⟨S7, .i32⟩) Host.divsi,
    StableHlo.TRef.unary (.of main_v587 : StableHlo.TRef sig ⟨S7, .i32⟩) (.of main_call45_v3 : StableHlo.TRef sig ⟨S7, .i32⟩) signi,
    StableHlo.TRef.unary (.of main_call45_v0 : StableHlo.TRef sig ⟨S_, .i32⟩) (.of main_call45_v4 : StableHlo.TRef sig ⟨S_, .i32⟩) signi,
    StableHlo.TRef.unary (.of main_call45_v4 : StableHlo.TRef sig ⟨S_, .i32⟩) (.of main_call45_v5 : StableHlo.TRef sig ⟨S7, .i32⟩) (broadcastInDim S7 ![] bcast_S_S7),
    StableHlo.TRef.binary (.of main_call45_v3 : StableHlo.TRef sig ⟨S7, .i32⟩) (.of main_call45_v5 : StableHlo.TRef sig ⟨S7, .i32⟩) (.of main_call45_v6 : StableHlo.TRef sig ⟨S7, .i1⟩) (cmpi .ne),
    StableHlo.TRef.unary (.of main_call45_v0 : StableHlo.TRef sig ⟨S_, .i32⟩) (.of main_call45_v7 : StableHlo.TRef sig ⟨S7, .i32⟩) (broadcastInDim S7 ![] bcast_S_S7),
    StableHlo.TRef.binary (.of main_v587 : StableHlo.TRef sig ⟨S7, .i32⟩) (.of main_call45_v7 : StableHlo.TRef sig ⟨S7, .i32⟩) (.of main_call45_v8 : StableHlo.TRef sig ⟨S7, .i32⟩) Host.remsi,
    StableHlo.TRef.nullary (.of main_call45_c : StableHlo.TRef sig ⟨S_, .i32⟩) (constantI S_ 32 0#32),
    StableHlo.TRef.unary (.of main_call45_c : StableHlo.TRef sig ⟨S_, .i32⟩) (.of main_call45_v9 : StableHlo.TRef sig ⟨S7, .i32⟩) (broadcastInDim S7 ![] bcast_S_S7),
    StableHlo.TRef.binary (.of main_call45_v8 : StableHlo.TRef sig ⟨S7, .i32⟩) (.of main_call45_v9 : StableHlo.TRef sig ⟨S7, .i32⟩) (.of main_call45_v10 : StableHlo.TRef sig ⟨S7, .i1⟩) (cmpi .ne),
    StableHlo.TRef.binary (.of main_call45_v6 : StableHlo.TRef sig ⟨S7, .i1⟩) (.of main_call45_v10 : StableHlo.TRef sig ⟨S7, .i1⟩) (.of main_call45_v11 : StableHlo.TRef sig ⟨S7, .i1⟩) andi,
    StableHlo.TRef.nullary (.of main_call45_c_0 : StableHlo.TRef sig ⟨S_, .i32⟩) (constantI S_ 32 1#32),
    StableHlo.TRef.unary (.of main_call45_c_0 : StableHlo.TRef sig ⟨S_, .i32⟩) (.of main_call45_v12 : StableHlo.TRef sig ⟨S7, .i32⟩) (broadcastInDim S7 ![] bcast_S_S7),
    StableHlo.TRef.binary (.of main_call45_v2 : StableHlo.TRef sig ⟨S7, .i32⟩) (.of main_call45_v12 : StableHlo.TRef sig ⟨S7, .i32⟩) (.of main_call45_v13 : StableHlo.TRef sig ⟨S7, .i32⟩) subi,
    StableHlo.TRef.ternary (.of main_call45_v11 : StableHlo.TRef sig ⟨S7, .i1⟩) (.of main_call45_v13 : StableHlo.TRef sig ⟨S7, .i32⟩) (.of main_call45_v2 : StableHlo.TRef sig ⟨S7, .i32⟩) (.of main_v588 : StableHlo.TRef sig ⟨S7, .i32⟩) select ]
theorem ops11_1_sub : (ops11_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops11_1_fresh : (ops11_1 : List (HloOp τ sig (Elt F))).Forall fun op => op.fresh = ∅ := by
  simp only [List.Forall]; repeat' constructor
theorem ops11_1_keeps : (ops11_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1192 … 1196 of the program (5 of window 11), in order. -/
abbrev ops11_2 : List (HloOp τ sig (Elt F)) :=
  [ StableHlo.unary main_v558 main_v589 (broadcastInDim S7 ![] bcast_S_S7 : (⟨S_, .i32⟩ : BufTy).Contents (Elt F) → (⟨S7, .i32⟩ : BufTy).Contents (Elt F)),
    StableHlo.binary main_v589 main_v588 main_v590 (subi : (⟨S7, .i32⟩ : BufTy).Contents (Elt F) → (⟨S7, .i32⟩ : BufTy).Contents (Elt F) → (⟨S7, .i32⟩ : BufTy).Contents (Elt F)),
    StableHlo.unary main_v575 main_v591 (broadcastInDim S7 ![] bcast_S_S7 : (⟨S_, .i32⟩ : BufTy).Contents (Elt F) → (⟨S7, .i32⟩ : BufTy).Contents (Elt F)),
    StableHlo.binary main_v577 main_v591 main_v592 (muli : (⟨S7, .i32⟩ : BufTy).Contents (Elt F) → (⟨S7, .i32⟩ : BufTy).Contents (Elt F) → (⟨S7, .i32⟩ : BufTy).Contents (Elt F)),
    StableHlo.nullary main_c_79 (constantI S_ 32 7#32) ]
theorem ops11_2_sub : (ops11_2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops11_2_fresh : (ops11_2 : List (HloOp τ sig (Elt F))).Forall fun op => op.fresh = ∅ := by
  simp only [List.Forall]; repeat' constructor
theorem ops11_2_keeps : (ops11_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1197 … 1213 of the program (17 of window 11), in order. -/
abbrev ops11_3 : List (HloOp τ sig (Elt F)) :=
  [ StableHlo.TRef.unary (.of main_c_79 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S7, .i32⟩) (broadcastInDim S7 ![] bcast_S_S7),
    StableHlo.TRef.binary (.of main_v592 : StableHlo.TRef sig ⟨S7, .i32⟩) (.of main_call46_v1 : StableHlo.TRef sig ⟨S7, .i32⟩) (.of main_call46_v2 : StableHlo.TRef sig ⟨S7, .i32⟩) Host.divsi,
    StableHlo.TRef.unary (.of main_v592 : StableHlo.TRef sig ⟨S7, .i32⟩) (.of main_call46_v3 : StableHlo.TRef sig ⟨S7, .i32⟩) signi,
    StableHlo.TRef.unary (.of main_call46_v0 : StableHlo.TRef sig ⟨S_, .i32⟩) (.of main_call46_v4 : StableHlo.TRef sig ⟨S_, .i32⟩) signi,
    StableHlo.TRef.unary (.of main_call46_v4 : StableHlo.TRef sig ⟨S_, .i32⟩) (.of main_call46_v5 : StableHlo.TRef sig ⟨S7, .i32⟩) (broadcastInDim S7 ![] bcast_S_S7),
    StableHlo.TRef.binary (.of main_call46_v3 : StableHlo.TRef sig ⟨S7, .i32⟩) (.of main_call46_v5 : StableHlo.TRef sig ⟨S7, .i32⟩) (.of main_call46_v6 : StableHlo.TRef sig ⟨S7, .i1⟩) (cmpi .ne),
    StableHlo.TRef.unary (.of main_call46_v0 : StableHlo.TRef sig ⟨S_, .i32⟩) (.of main_call46_v7 : StableHlo.TRef sig ⟨S7, .i32⟩) (broadcastInDim S7 ![] bcast_S_S7),
    StableHlo.TRef.binary (.of main_v592 : StableHlo.TRef sig ⟨S7, .i32⟩) (.of main_call46_v7 : StableHlo.TRef sig ⟨S7, .i32⟩) (.of main_call46_v8 : StableHlo.TRef sig ⟨S7, .i32⟩) Host.remsi,
    StableHlo.TRef.nullary (.of main_call46_c : StableHlo.TRef sig ⟨S_, .i32⟩) (constantI S_ 32 0#32),
    StableHlo.TRef.unary (.of main_call46_c : StableHlo.TRef sig ⟨S_, .i32⟩) (.of main_call46_v9 : StableHlo.TRef sig ⟨S7, .i32⟩) (broadcastInDim S7 ![] bcast_S_S7),
    StableHlo.TRef.binary (.of main_call46_v8 : StableHlo.TRef sig ⟨S7, .i32⟩) (.of main_call46_v9 : StableHlo.TRef sig ⟨S7, .i32⟩) (.of main_call46_v10 : StableHlo.TRef sig ⟨S7, .i1⟩) (cmpi .ne),
    StableHlo.TRef.binary (.of main_call46_v6 : StableHlo.TRef sig ⟨S7, .i1⟩) (.of main_call46_v10 : StableHlo.TRef sig ⟨S7, .i1⟩) (.of main_call46_v11 : StableHlo.TRef sig ⟨S7, .i1⟩) andi,
    StableHlo.TRef.nullary (.of main_call46_c_0 : StableHlo.TRef sig ⟨S_, .i32⟩) (constantI S_ 32 1#32),
    StableHlo.TRef.unary (.of main_call46_c_0 : StableHlo.TRef sig ⟨S_, .i32⟩) (.of main_call46_v12 : StableHlo.TRef sig ⟨S7, .i32⟩) (broadcastInDim S7 ![] bcast_S_S7),
    StableHlo.TRef.binary (.of main_call46_v2 : StableHlo.TRef sig ⟨S7, .i32⟩) (.of main_call46_v12 : StableHlo.TRef sig ⟨S7, .i32⟩) (.of main_call46_v13 : StableHlo.TRef sig ⟨S7, .i32⟩) subi,
    StableHlo.TRef.ternary (.of main_call46_v11 : StableHlo.TRef sig ⟨S7, .i1⟩) (.of main_call46_v13 : StableHlo.TRef sig ⟨S7, .i32⟩) (.of main_call46_v2 : StableHlo.TRef sig ⟨S7, .i32⟩) (.of main_v593 : StableHlo.TRef sig ⟨S7, .i32⟩) select ]
theorem ops11_3_sub : (ops11_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops11_3_fresh : (ops11_3 : List (HloOp τ sig (Elt F))).Forall fun op => op.fresh = ∅ := by
  simp only [List.Forall]; repeat' constructor
theorem ops11_3_keeps : (ops11_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1214 … 1222 of the program (9 of window 11), in order. -/
abbrev ops11_4 : List (HloOp τ sig (Elt F)) :=
  [ StableHlo.unary main_v568 main_v594 (broadcastInDim S7 ![] bcast_S_S7 : (⟨S_, .i32⟩ : BufTy).Contents (Elt F) → (⟨S7, .i32⟩ : BufTy).Contents (Elt F)),
    StableHlo.binary main_v594 main_v593 main_v595 (addi : (⟨S7, .i32⟩ : BufTy).Contents (Elt F) → (⟨S7, .i32⟩ : BufTy).Contents (Elt F) → (⟨S7, .i32⟩ : BufTy).Contents (Elt F)),
    StableHlo.nullary main_c_80 (constantI S_ 32 1#32),
    StableHlo.unary main_c_80 main_v596 (broadcastInDim S7 ![] bcast_S_S7 : (⟨S_, .i32⟩ : BufTy).Contents (Elt F) → (⟨S7, .i32⟩ : BufTy).Contents (Elt F)),
    StableHlo.binary main_v577 main_v596 main_v597 (addi : (⟨S7, .i32⟩ : BufTy).Contents (Elt F) → (⟨S7, .i32⟩ : BufTy).Contents (Elt F) → (⟨S7, .i32⟩ : BufTy).Contents (Elt F)),
    StableHlo.unary main_v597 main_v598 (negi : (⟨S7, .i32⟩ : BufTy).Contents (Elt F) → (⟨S7, .i32⟩ : BufTy).Contents (Elt F)),
    StableHlo.unary main_v575 main_v599 (broadcastInDim S7 ![] bcast_S_S7 : (⟨S_, .i32⟩ : BufTy).Contents (Elt F) → (⟨S7, .i32⟩ : BufTy).Contents (Elt F)),
    StableHlo.binary main_v598 main_v599 main_v600 (muli : (⟨S7, .i32⟩ : BufTy).Contents (Elt F) → (⟨S7, .i32⟩ : BufTy).Contents (Elt F) → (⟨S7, .i32⟩ : BufTy).Contents (Elt F)),
    StableHlo.nullary main_c_81 (constantI S_ 32 7#32) ]
theorem ops11_4_sub : (ops11_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops11_4_fresh : (ops11_4 : List (HloOp τ sig (Elt F))).Forall fun op => op.fresh = ∅ := by
  simp only [List.Forall]; repeat' constructor
theorem ops11_4_keeps : (ops11_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1223 … 1239 of the program (17 of window 11), in order. -/
abbrev ops11_5 : List (HloOp τ sig (Elt F)) :=
  [ StableHlo.TRef.unary (.of main_c_81 : StableHlo.TRef sig ⟨S_, .i32⟩) (.of main_call47_v0 : StableHlo.TRef sig ⟨S_, .i32⟩) id,
    StableHlo.TRef.unary (.of main_call47_v0 : StableHlo.TRef sig ⟨S_, .i32⟩) (.of main_call47_v1 : StableHlo.TRef sig ⟨S7, .i32⟩) (broadcastInDim S7 ![] bcast_S_S7),
    StableHlo.TRef.binary (.of main_v600 : StableHlo.TRef sig ⟨S7, .i32⟩) (.of main_call47_v1 : StableHlo.TRef sig ⟨S7, .i32⟩) (.of main_call47_v2 : StableHlo.TRef sig ⟨S7, .i32⟩) Host.divsi,
    StableHlo.TRef.unary (.of main_v600 : StableHlo.TRef sig ⟨S7, .i32⟩) (.of main_call47_v3 : StableHlo.TRef sig ⟨S7, .i32⟩) signi,
    StableHlo.TRef.unary (.of main_call47_v0 : StableHlo.TRef sig ⟨S_, .i32⟩) (.of main_call47_v4 : StableHlo.TRef sig ⟨S_, .i32⟩) signi,
    StableHlo.TRef.unary (.of main_call47_v4 : StableHlo.TRef sig ⟨S_, .i32⟩) (.of main_call47_v5 : StableHlo.TRef sig ⟨S7, .i32⟩) (broadcastInDim S7 ![] bcast_S_S7),
    StableHlo.TRef.binary (.of main_call47_v3 : StableHlo.TRef sig ⟨S7, .i32⟩) (.of main_call47_v5 : StableHlo.TRef sig ⟨S7, .i32⟩) (.of main_call47_v6 : StableHlo.TRef sig ⟨S7, .i1⟩) (cmpi .ne),
    StableHlo.TRef.unary (.of main_call47_v0 : StableHlo.TRef sig ⟨S_, .i32⟩) (.of main_call47_v7 : StableHlo.TRef sig ⟨S7, .i32⟩) (broadcastInDim S7 ![] bcast_S_S7),
    StableHlo.TRef.binary (.of main_v600 : StableHlo.TRef sig ⟨S7, .i32⟩) (.of main_call47_v7 : StableHlo.TRef sig ⟨S7, .i32⟩) (.of main_call47_v8 : StableHlo.TRef sig ⟨S7, .i32⟩) Host.remsi,
    StableHlo.TRef.nullary (.of main_call47_c : StableHlo.TRef sig ⟨S_, .i32⟩) (constantI S_ 32 0#32),
    StableHlo.TRef.unary (.of main_call47_c : StableHlo.TRef sig ⟨S_, .i32⟩) (.of main_call47_v9 : StableHlo.TRef sig ⟨S7, .i32⟩) (broadcastInDim S7 ![] bcast_S_S7),
    StableHlo.TRef.binary (.of main_call47_v8 : StableHlo.TRef sig ⟨S7, .i32⟩) (.of main_call47_v9 : StableHlo.TRef sig ⟨S7, .i32⟩) (.of main_call47_v10 : StableHlo.TRef sig ⟨S7, .i1⟩) (cmpi .ne),
    StableHlo.TRef.binary (.of main_call47_v6 : StableHlo.TRef sig ⟨S7, .i1⟩) (.of main_call47_v10 : StableHlo.TRef sig ⟨S7, .i1⟩) (.of main_call47_v11 : StableHlo.TRef sig ⟨S7, .i1⟩) andi,
    StableHlo.TRef.nullary (.of main_call47_c_0 : StableHlo.TRef sig ⟨S_, .i32⟩) (constantI S_ 32 1#32),
    StableHlo.TRef.unary (.of main_call47_c_0 : StableHlo.TRef sig ⟨S_, .i32⟩) (.of main_call47_v12 : StableHlo.TRef sig ⟨S7, .i32⟩) (broadcastInDim S7 ![] bcast_S_S7),
    StableHlo.TRef.binary (.of main_call47_v2 : StableHlo.TRef sig ⟨S7, .i32⟩) (.of main_call47_v12 : StableHlo.TRef sig ⟨S7, .i32⟩) (.of main_call47_v13 : StableHlo.TRef sig ⟨S7, .i32⟩) subi,
    StableHlo.TRef.ternary (.of main_call47_v11 : StableHlo.TRef sig ⟨S7, .i1⟩) (.of main_call47_v13 : StableHlo.TRef sig ⟨S7, .i32⟩) (.of main_call47_v2 : StableHlo.TRef sig ⟨S7, .i32⟩) (.of main_v601 : StableHlo.TRef sig ⟨S7, .i32⟩) select ]
theorem ops11_5_sub : (ops11_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops11_5_fresh : (ops11_5 : List (HloOp τ sig (Elt F))).Forall fun op => op.fresh = ∅ := by
  simp only [List.Forall]; repeat' constructor
theorem ops11_5_keeps : (ops11_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1240 … 1268 of the program (29 of window 11), in order. -/
abbrev ops11_6 : List (HloOp τ sig (Elt F)) :=
  [ StableHlo.unary main_v568 main_v602 (broadcastInDim S7 ![] bcast_S_S7 : (⟨S_, .i32⟩ : BufTy).Contents (Elt F) → (⟨S7, .i32⟩ : BufTy).Contents (Elt F)),
    StableHlo.binary main_v602 main_v601 main_v603 (subi : (⟨S7, .i32⟩ : BufTy).Contents (Elt F) → (⟨S7, .i32⟩ : BufTy).Contents (Elt F) → (⟨S7, .i32⟩ : BufTy).Contents (Elt F)),
    StableHlo.nullary main_v604 (iotaInDim S64 32 0),
    StableHlo.nullary main_v605 (iotaInDim S64 32 0),
    StableHlo.unary main_v604 main_v606 (broadcastInDim S1x64 ![1] bcast_S64_S1x64_1 : (⟨S64, .i32⟩ : BufTy).Contents (Elt F) → (⟨S1x64, .i32⟩ : BufTy).Contents (Elt F)),
    StableHlo.unary main_v582 main_v607 (broadcastInDim S7x1 ![0] bcast_S7_S7x1_0 : (⟨S7, .i32⟩ : BufTy).Contents (Elt F) → (⟨S7x1, .i32⟩ : BufTy).Contents (Elt F)),
    StableHlo.unary main_v606 main_v608 (broadcastInDim S7x64 ![0, 1] bcast_S1x64_S7x64_0_1 : (⟨S1x64, .i32⟩ : BufTy).Contents (Elt F) → (⟨S7x64, .i32⟩ : BufTy).Contents (Elt F)),
    StableHlo.unary main_v607 main_v609 (broadcastInDim S7x64 ![0, 1] bcast_S7x1_S7x64_0_1 : (⟨S7x1, .i32⟩ : BufTy).Contents (Elt F) → (⟨S7x64, .i32⟩ : BufTy).Contents (Elt F)),
    StableHlo.binary main_v608 main_v609 main_v610 (cmpi .sge : (⟨S7x64, .i32⟩ : BufTy).Contents (Elt F) → (⟨S7x64, .i32⟩ : BufTy).Contents (Elt F) → (⟨S7x64, .i1⟩ : BufTy).Contents (Elt F)),
    StableHlo.unary main_v604 main_v611 (broadcastInDim S1x64 ![1] bcast_S64_S1x64_1 : (⟨S64, .i32⟩ : BufTy).Contents (Elt F) → (⟨S1x64, .i32⟩ : BufTy).Contents (Elt F)),
    StableHlo.unary main_v590 main_v612 (broadcastInDim S7x1 ![0] bcast_S7_S7x1_0 : (⟨S7, .i32⟩ : BufTy).Contents (Elt F) → (⟨S7x1, .i32⟩ : BufTy).Contents (Elt F)),
    StableHlo.unary main_v611 main_v613 (broadcastInDim S7x64 ![0, 1] bcast_S1x64_S7x64_0_1 : (⟨S1x64, .i32⟩ : BufTy).Contents (Elt F) → (⟨S7x64, .i32⟩ : BufTy).Contents (Elt F)),
    StableHlo.unary main_v612 main_v614 (broadcastInDim S7x64 ![0, 1] bcast_S7x1_S7x64_0_1 : (⟨S7x1, .i32⟩ : BufTy).Contents (Elt F) → (⟨S7x64, .i32⟩ : BufTy).Contents (Elt F)),
    StableHlo.binary main_v613 main_v614 main_v615 (cmpi .slt : (⟨S7x64, .i32⟩ : BufTy).Contents (Elt F) → (⟨S7x64, .i32⟩ : BufTy).Contents (Elt F) → (⟨S7x64, .i1⟩ : BufTy).Contents (Elt F)),
    StableHlo.binary main_v610 main_v615 main_v616 (andi : (⟨S7x64, .i1⟩ : BufTy).Contents (Elt F) → (⟨S7x64, .i1⟩ : BufTy).Contents (Elt F) → (⟨S7x64, .i1⟩ : BufTy).Contents (Elt F)),
    StableHlo.unary main_v605 main_v617 (broadcastInDim S1x64 ![1] bcast_S64_S1x64_1 : (⟨S64, .i32⟩ : BufTy).Contents (Elt F) → (⟨S1x64, .i32⟩ : BufTy).Contents (Elt F)),
    StableHlo.unary main_v595 main_v618 (broadcastInDim S7x1 ![0] bcast_S7_S7x1_0 : (⟨S7, .i32⟩ : BufTy).Contents (Elt F) → (⟨S7x1, .i32⟩ : BufTy).Contents (Elt F)),
    StableHlo.unary main_v617 main_v619 (broadcastInDim S7x64 ![0, 1] bcast_S1x64_S7x64_0_1 : (⟨S1x64, .i32⟩ : BufTy).Contents (Elt F) → (⟨S7x64, .i32⟩ : BufTy).Contents (Elt F)),
    StableHlo.unary main_v618 main_v620 (broadcastInDim S7x64 ![0, 1] bcast_S7x1_S7x64_0_1 : (⟨S7x1, .i32⟩ : BufTy).Contents (Elt F) → (⟨S7x64, .i32⟩ : BufTy).Contents (Elt F)),
    StableHlo.binary main_v619 main_v620 main_v621 (cmpi .sge : (⟨S7x64, .i32⟩ : BufTy).Contents (Elt F) → (⟨S7x64, .i32⟩ : BufTy).Contents (Elt F) → (⟨S7x64, .i1⟩ : BufTy).Contents (Elt F)),
    StableHlo.unary main_v605 main_v622 (broadcastInDim S1x64 ![1] bcast_S64_S1x64_1 : (⟨S64, .i32⟩ : BufTy).Contents (Elt F) → (⟨S1x64, .i32⟩ : BufTy).Contents (Elt F)),
    StableHlo.unary main_v603 main_v623 (broadcastInDim S7x1 ![0] bcast_S7_S7x1_0 : (⟨S7, .i32⟩ : BufTy).Contents (Elt F) → (⟨S7x1, .i32⟩ : BufTy).Contents (Elt F)),
    StableHlo.unary main_v622 main_v624 (broadcastInDim S7x64 ![0, 1] bcast_S1x64_S7x64_0_1 : (⟨S1x64, .i32⟩ : BufTy).Contents (Elt F) → (⟨S7x64, .i32⟩ : BufTy).Contents (Elt F)),
    StableHlo.unary main_v623 main_v625 (broadcastInDim S7x64 ![0, 1] bcast_S7x1_S7x64_0_1 : (⟨S7x1, .i32⟩ : BufTy).Contents (Elt F) → (⟨S7x64, .i32⟩ : BufTy).Contents (Elt F)),
    StableHlo.binary main_v624 main_v625 main_v626 (cmpi .slt : (⟨S7x64, .i32⟩ : BufTy).Contents (Elt F) → (⟨S7x64, .i32⟩ : BufTy).Contents (Elt F) → (⟨S7x64, .i1⟩ : BufTy).Contents (Elt F)),
    StableHlo.binary main_v621 main_v626 main_v627 (andi : (⟨S7x64, .i1⟩ : BufTy).Contents (Elt F) → (⟨S7x64, .i1⟩ : BufTy).Contents (Elt F) → (⟨S7x64, .i1⟩ : BufTy).Contents (Elt F)),
    StableHlo.unary main_v616 main_v628 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v629 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_82 (constant S_ .f32 0xFF800000#32) ]
theorem ops11_6_sub : (ops11_6 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops11_6_fresh : (ops11_6 : List (HloOp τ sig (Elt F))).Forall fun op => op.fresh = ∅ := by
  simp only [List.Forall]; repeat' constructor
theorem ops11_6_keeps : (ops11_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1269 … 1272 of the program (4 of window 11), in order. -/
abbrev ops11_7 : List (HloOp τ sig (Elt F)) :=
  [ StableHlo.TRef.unary (.of main_v628 : StableHlo.TRef sig ⟨S7x1x64x1, .i1⟩) (.of main_call48_v0 : StableHlo.TRef sig ⟨S7x512x64x64, .i1⟩) (broadcastInDim S7x512x64x64 ![0, 1, 2, 3] bcast_S7x1x64x1_S7x512x64x64_0_1_2_3),
    StableHlo.TRef.unary (.of main_v629 : StableHlo.TRef sig ⟨S1x512x64x64, .f32⟩) (.of main_call48_v1 : StableHlo.TRef sig ⟨S7x512x64x64, .f32⟩) (broadcastInDim S7x512x64x64 ![0, 1, 2, 3] bcast_S1x512x64x64_S7x512x64x64_0_1_2_3),
    StableHlo.TRef.unary (.of main_cst_82 : StableHlo.TRef sig ⟨S_, .f32⟩) (.of main_call48_v2 : StableHlo.TRef sig ⟨S7x512x64x64, .f32⟩) (broadcastInDim S7x512x64x64 ![] bcast_S_S7x512x64x64),
    StableHlo.TRef.ternary (.of main_call48_v0 : StableHlo.TRef sig ⟨S7x512x64x64, .i1⟩) (.of main_call48_v1 : StableHlo.TRef sig ⟨S7x512x64x64, .f32⟩) (.of main_call48_v2 : StableHlo.TRef sig ⟨S7x512x64x64, .f32⟩) (.of main_v630 : StableHlo.TRef sig ⟨S7x512x64x64, .f32⟩) select ]
theorem ops11_7_sub : (ops11_7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops11_7_fresh : (ops11_7 : List (HloOp τ sig (Elt F))).Forall fun op => op.fresh = ∅ := by
  simp only [List.Forall]; repeat' constructor
theorem ops11_7_keeps : (ops11_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1273 … 1276 of the program (4 of window 11), in order. -/
abbrev ops11_8 : List (HloOp τ sig (Elt F)) :=
  [ StableHlo.nullary main_cst_83 (constant S_ .f32 0xFF800000#32),
    StableHlo.binary main_v630 main_cst_83 main_v631 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v627 main_v632 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v631 main_v633 (broadcastInDim S7x512x1x64 ![0, 1, 3] bcast_S7x512x64_S7x512x1x64_0_1_3 : (⟨S7x512x64, .f32⟩ : BufTy).Contents (Elt F) → (⟨S7x512x1x64, .f32⟩ : BufTy).Contents (Elt F)) ]
theorem ops11_8_sub : (ops11_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
theorem ops11_8_fresh : (ops11_8 : List (HloOp τ sig (Elt F))).Forall fun op => op.fresh = ∅ := by
  simp only [List.Forall]; repeat' constructor
theorem ops11_8_keeps : (ops11_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops11_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part11_eq (c : Dev nD) : main_part11 (F := F) c = Pipeline.chainK [StableHlo.seq ops11_0, StableHlo.seq ops11_1, StableHlo.seq ops11_2, StableHlo.seq ops11_3, StableHlo.seq ops11_4, StableHlo.seq ops11_5, StableHlo.seq ops11_6, StableHlo.seq ops11_7] (StableHlo.seq ops11_8) := by
  chain_rfl

end Cert.ReferenceIdeal.Host

end
-- ==== Proof.RefOps12.lean ====
/- Window 12 of the program's @main, every called function's body written out in place: 127 operations,
  cut into 10 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1277 … 1277 of the program (1 of window 12), in order. -/
abbrev ops12_0 : List (HloOp τ sig (Elt F)) :=
  [ StableHlo.nullary main_cst_84 (constant S_ .f32 0xFF800000#32) ]
theorem ops12_0_sub : (ops12_0 : List (HloOp τ sig (Elt F))).Forall fun op => op.bufs ⊆ StableHlo.tcRefs τ sig :=
  StableHlo.nullary_bufs_sub ..
theorem ops12_0_fresh : (ops12_0 : List (HloOp τ sig (Elt F))).Forall fun op => op.fresh = ∅ := by
  simp only [List.Forall]; repeat' constructor
theorem ops12_0_keeps : (ops12_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1278 … 1281 of the program (4 of window 12), in order. -/
abbrev ops12_1 : List (HloOp τ sig (Elt F)) :=
  [ StableHlo.TRef.unary (.of main_v632 : StableHlo.TRef sig ⟨S1x1x7x64, .i1⟩) (.of main_call49_v0 : StableHlo.TRef sig ⟨S7x512x7x64, .i1⟩) (broadcastInDim S7x512x7x64 ![0, 1, 2, 3] bcast_S1x1x7x64_S7x512x7x64_0_1_2_3),
    StableHlo.TRef.unary (.of main_v633 : StableHlo.TRef sig ⟨S7x512x1x64, .f32⟩) (.of main_call49_v1 : StableHlo.TRef sig ⟨S7x512x7x64, .f32⟩) (broadcastInDim S7x512x7x64 ![0, 1, 2, 3] bcast_S7x512x1x64_S7x512x7x64_0_1_2_3),
    StableHlo.TRef.unary (.of main_cst_84 : StableHlo.TRef sig ⟨S_, .f32⟩) (.of main_call49_v2 : StableHlo.TRef sig ⟨S7x512x7x64, .f32⟩) (broadcastInDim S7x512x7x64 ![] bcast_S_S7x512x7x64),
    StableHlo.TRef.ternary (.of main_call49_v0 : StableHlo.TRef sig ⟨S7x512x7x64, .i1⟩) (.of main_call49_v1 : StableHlo.TRef sig ⟨S7x512x7x64, .f32⟩) (.of main_call49_v2 : StableHlo.TRef sig ⟨S7x512x7x64, .f32⟩) (.of main_v634 : StableHlo.TRef sig ⟨S7x512x7x64, .f32⟩) select ]
theorem ops12_1_sub : (ops12_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops12_1_fresh : (ops12_1 : List (HloOp τ sig (Elt F))).Forall fun op => op.fresh = ∅ := by
  simp only [List.Forall]; repeat' constructor
theorem ops12_1_keeps : (ops12_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1282 … 1312 of the program (31 of window 12), in order. -/
abbrev ops12_2 : List (HloOp τ sig (Elt F)) :=
  [ StableHlo.nullary main_cst_85 (constant S_ .f32 0xFF800000#32),
    StableHlo.binary main_v634 main_cst_85 main_v635 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v635 main_v636 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v636 main_v637 rfl shapeCasts_S512x7x7_S25088,
    StableHlo.unary main_v18 main_v638 ((extractStridedSlice S1x1 ![1, 1] · slices_S3x4_S1x1_1_1) : (⟨S3x4, .i32⟩ : BufTy).Contents (Elt F) → (⟨S1x1, .i32⟩ : BufTy).Contents (Elt F)),
    StableHlo.reshape main_v638 main_v639 rfl shapeCasts_S1x1_S_,
    StableHlo.unary main_v23 main_v640 ((extractStridedSlice S1x1 ![0, 1] · slices_S4x4_S1x1_0_1) : (⟨S4x4, .i32⟩ : BufTy).Contents (Elt F) → (⟨S1x1, .i32⟩ : BufTy).Contents (Elt F)),
    StableHlo.reshape main_v640 main_v641 rfl shapeCasts_S1x1_S_,
    StableHlo.binary main_v639 main_v641 main_v642 (minsi : (⟨S_, .i32⟩ : BufTy).Contents (Elt F) → (⟨S_, .i32⟩ : BufTy).Contents (Elt F) → (⟨S_, .i32⟩ : BufTy).Contents (Elt F)),
    StableHlo.unary main_v18 main_v643 ((extractStridedSlice S1x1 ![1, 3] · slices_S3x4_S1x1_1_3) : (⟨S3x4, .i32⟩ : BufTy).Contents (Elt F) → (⟨S1x1, .i32⟩ : BufTy).Contents (Elt F)),
    StableHlo.reshape main_v643 main_v644 rfl shapeCasts_S1x1_S_,
    StableHlo.unary main_v23 main_v645 ((extractStridedSlice S1x1 ![0, 3] · slices_S4x4_S1x1_0_3) : (⟨S4x4, .i32⟩ : BufTy).Contents (Elt F) → (⟨S1x1, .i32⟩ : BufTy).Contents (Elt F)),
    StableHlo.reshape main_v645 main_v646 rfl shapeCasts_S1x1_S_,
    StableHlo.binary main_v644 main_v646 main_v647 (maxsi : (⟨S_, .i32⟩ : BufTy).Contents (Elt F) → (⟨S_, .i32⟩ : BufTy).Contents (Elt F) → (⟨S_, .i32⟩ : BufTy).Contents (Elt F)),
    StableHlo.unary main_v18 main_v648 ((extractStridedSlice S1x1 ![1, 0] · slices_S3x4_S1x1_1_0) : (⟨S3x4, .i32⟩ : BufTy).Contents (Elt F) → (⟨S1x1, .i32⟩ : BufTy).Contents (Elt F)),
    StableHlo.reshape main_v648 main_v649 rfl shapeCasts_S1x1_S_,
    StableHlo.unary main_v23 main_v650 ((extractStridedSlice S1x1 ![0, 0] · slices_S4x4_S1x1_0_0) : (⟨S4x4, .i32⟩ : BufTy).Contents (Elt F) → (⟨S1x1, .i32⟩ : BufTy).Contents (Elt F)),
    StableHlo.reshape main_v650 main_v651 rfl shapeCasts_S1x1_S_,
    StableHlo.binary main_v649 main_v651 main_v652 (minsi : (⟨S_, .i32⟩ : BufTy).Contents (Elt F) → (⟨S_, .i32⟩ : BufTy).Contents (Elt F) → (⟨S_, .i32⟩ : BufTy).Contents (Elt F)),
    StableHlo.unary main_v18 main_v653 ((extractStridedSlice S1x1 ![1, 2] · slices_S3x4_S1x1_1_2) : (⟨S3x4, .i32⟩ : BufTy).Contents (Elt F) → (⟨S1x1, .i32⟩ : BufTy).Contents (Elt F)),
    StableHlo.reshape main_v653 main_v654 rfl shapeCasts_S1x1_S_,
    StableHlo.unary main_v23 main_v655 ((extractStridedSlice S1x1 ![0, 2] · slices_S4x4_S1x1_0_2) : (⟨S4x4, .i32⟩ : BufTy).Contents (Elt F) → (⟨S1x1, .i32⟩ : BufTy).Contents (Elt F)),
    StableHlo.reshape main_v655 main_v656 rfl shapeCasts_S1x1_S_,
    StableHlo.binary main_v654 main_v656 main_v657 (maxsi : (⟨S_, .i32⟩ : BufTy).Contents (Elt F) → (⟨S_, .i32⟩ : BufTy).Contents (Elt F) → (⟨S_, .i32⟩ : BufTy).Contents (Elt F)),
    StableHlo.binary main_v647 main_v642 main_v658 (subi : (⟨S_, .i32⟩ : BufTy).Contents (Elt F) → (⟨S_, .i32⟩ : BufTy).Contents (Elt F) → (⟨S_, .i32⟩ : BufTy).Contents (Elt F)),
    StableHlo.binary main_v657 main_v652 main_v659 (subi : (⟨S_, .i32⟩ : BufTy).Contents (Elt F) → (⟨S_, .i32⟩ : BufTy).Contents (Elt F) → (⟨S_, .i32⟩ : BufTy).Contents (Elt F)),
    StableHlo.nullary main_v660 (iotaInDim S7 32 0),
    StableHlo.nullary main_v661 (iotaInDim S7 32 0),
    StableHlo.unary main_v658 main_v662 (broadcastInDim S7 ![] bcast_S_S7 : (⟨S_, .i32⟩ : BufTy).Contents (Elt F) → (⟨S7, .i32⟩ : BufTy).Contents (Elt F)),
    StableHlo.binary main_v660 main_v662 main_v663 (muli : (⟨S7, .i32⟩ : BufTy).Contents (Elt F) → (⟨S7, .i32⟩ : BufTy).Contents (Elt F) → (⟨S7, .i32⟩ : BufTy).Contents (Elt F)),
    StableHlo.nullary main_c_86 (constantI S_ 32 7#32) ]
theorem ops12_2_sub : (ops12_2 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops12_2_fresh : (ops12_2 : List (HloOp τ sig (Elt F))).Forall fun op => op.fresh = ∅ := by
  simp only [List.Forall]; repeat' constructor
theorem ops12_2_keeps : (ops12_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1313 … 1329 of the program (17 of window 12), in order. -/
abbrev ops12_3 : List (HloOp τ sig (Elt F)) :=
  [ StableHlo.TRef.unary (.of main_c_86 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S7, .i32⟩) (broadcastInDim S7 ![] bcast_S_S7),
    StableHlo.TRef.binary (.of main_v663 : StableHlo.TRef sig ⟨S7, .i32⟩) (.of main_call50_v1 : StableHlo.TRef sig ⟨S7, .i32⟩) (.of main_call50_v2 : StableHlo.TRef sig ⟨S7, .i32⟩) Host.divsi,
    StableHlo.TRef.unary (.of main_v663 : StableHlo.TRef sig ⟨S7, .i32⟩) (.of main_call50_v3 : StableHlo.TRef sig ⟨S7, .i32⟩) signi,
    StableHlo.TRef.unary (.of main_call50_v0 : StableHlo.TRef sig ⟨S_, .i32⟩) (.of main_call50_v4 : StableHlo.TRef sig ⟨S_, .i32⟩) signi,
    StableHlo.TRef.unary (.of main_call50_v4 : StableHlo.TRef sig ⟨S_, .i32⟩) (.of main_call50_v5 : StableHlo.TRef sig ⟨S7, .i32⟩) (broadcastInDim S7 ![] bcast_S_S7),
    StableHlo.TRef.binary (.of main_call50_v3 : StableHlo.TRef sig ⟨S7, .i32⟩) (.of main_call50_v5 : StableHlo.TRef sig ⟨S7, .i32⟩) (.of main_call50_v6 : StableHlo.TRef sig ⟨S7, .i1⟩) (cmpi .ne),
    StableHlo.TRef.unary (.of main_call50_v0 : StableHlo.TRef sig ⟨S_, .i32⟩) (.of main_call50_v7 : StableHlo.TRef sig ⟨S7, .i32⟩) (broadcastInDim S7 ![] bcast_S_S7),
    StableHlo.TRef.binary (.of main_v663 : StableHlo.TRef sig ⟨S7, .i32⟩) (.of main_call50_v7 : StableHlo.TRef sig ⟨S7, .i32⟩) (.of main_call50_v8 : StableHlo.TRef sig ⟨S7, .i32⟩) Host.remsi,
    StableHlo.TRef.nullary (.of main_call50_c : StableHlo.TRef sig ⟨S_, .i32⟩) (constantI S_ 32 0#32),
    StableHlo.TRef.unary (.of main_call50_c : StableHlo.TRef sig ⟨S_, .i32⟩) (.of main_call50_v9 : StableHlo.TRef sig ⟨S7, .i32⟩) (broadcastInDim S7 ![] bcast_S_S7),
    StableHlo.TRef.binary (.of main_call50_v8 : StableHlo.TRef sig ⟨S7, .i32⟩) (.of main_call50_v9 : StableHlo.TRef sig ⟨S7, .i32⟩) (.of main_call50_v10 : StableHlo.TRef sig ⟨S7, .i1⟩) (cmpi .ne),
    StableHlo.TRef.binary (.of main_call50_v6 : StableHlo.TRef sig ⟨S7, .i1⟩) (.of main_call50_v10 : StableHlo.TRef sig ⟨S7, .i1⟩) (.of main_call50_v11 : StableHlo.TRef sig ⟨S7, .i1⟩) andi,
    StableHlo.TRef.nullary (.of main_call50_c_0 : StableHlo.TRef sig ⟨S_, .i32⟩) (constantI S_ 32 1#32),
    StableHlo.TRef.unary (.of main_call50_c_0 : StableHlo.TRef sig ⟨S_, .i32⟩) (.of main_call50_v12 : StableHlo.TRef sig ⟨S7, .i32⟩) (broadcastInDim S7 ![] bcast_S_S7),
    StableHlo.TRef.binary (.of main_call50_v2 : StableHlo.TRef sig ⟨S7, .i32⟩) (.of main_call50_v12 : StableHlo.TRef sig ⟨S7, .i32⟩) (.of main_call50_v13 : StableHlo.TRef sig ⟨S7, .i32⟩) subi,
    StableHlo.TRef.ternary (.of main_call50_v11 : StableHlo.TRef sig ⟨S7, .i1⟩) (.of main_call50_v13 : StableHlo.TRef sig ⟨S7, .i32⟩) (.of main_call50_v2 : StableHlo.TRef sig ⟨S7, .i32⟩) (.of main_v664 : StableHlo.TRef sig ⟨S7, .i32⟩) select ]
theorem ops12_3_sub : (ops12_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops12_3_fresh : (ops12_3 : List (HloOp τ sig (Elt F))).Forall fun op => op.fresh = ∅ := by
  simp only [List.Forall]; repeat' constructor
theorem ops12_3_keeps : (ops12_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1330 … 1338 of the program (9 of window 12), in order. -/
abbrev ops12_4 : List (HloOp τ sig (Elt F)) :=
  [ StableHlo.unary main_v642 main_v665 (broadcastInDim S7 ![] bcast_S_S7 : (⟨S_, .i32⟩ : BufTy).Contents (Elt F) → (⟨S7, .i32⟩ : BufTy).Contents (Elt F)),
    StableHlo.binary main_v665 main_v664 main_v666 (addi : (⟨S7, .i32⟩ : BufTy).Contents (Elt F) → (⟨S7, .i32⟩ : BufTy).Contents (Elt F) → (⟨S7, .i32⟩ : BufTy).Contents (Elt F)),
    StableHlo.nullary main_c_87 (constantI S_ 32 1#32),
    StableHlo.unary main_c_87 main_v667 (broadcastInDim S7 ![] bcast_S_S7 : (⟨S_, .i32⟩ : BufTy).Contents (Elt F) → (⟨S7, .i32⟩ : BufTy).Contents (Elt F)),
    StableHlo.binary main_v660 main_v667 main_v668 (addi : (⟨S7, .i32⟩ : BufTy).Contents (Elt F) → (⟨S7, .i32⟩ : BufTy).Contents (Elt F) → (⟨S7, .i32⟩ : BufTy).Contents (Elt F)),
    StableHlo.unary main_v668 main_v669 (negi : (⟨S7, .i32⟩ : BufTy).Contents (Elt F) → (⟨S7, .i32⟩ : BufTy).Contents (Elt F)),
    StableHlo.unary main_v658 main_v670 (broadcastInDim S7 ![] bcast_S_S7 : (⟨S_, .i32⟩ : BufTy).Contents (Elt F) → (⟨S7, .i32⟩ : BufTy).Contents (Elt F)),
    StableHlo.binary main_v669 main_v670 main_v671 (muli : (⟨S7, .i32⟩ : BufTy).Contents (Elt F) → (⟨S7, .i32⟩ : BufTy).Contents (Elt F) → (⟨S7, .i32⟩ : BufTy).Contents (Elt F)),
    StableHlo.nullary main_c_88 (constantI S_ 32 7#32) ]
theorem ops12_4_sub : (ops12_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops12_4_fresh : (ops12_4 : List (HloOp τ sig (Elt F))).Forall fun op => op.fresh = ∅ := by
  simp only [List.Forall]; repeat' constructor
theorem ops12_4_keeps : (ops12_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1339 … 1355 of the program (17 of window 12), in order. -/
abbrev ops12_5 : List (HloOp τ sig (Elt F)) :=
  [ StableHlo.TRef.unary (.of main_c_88 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S7, .i32⟩) (broadcastInDim S7 ![] bcast_S_S7),
    StableHlo.TRef.binary (.of main_v671 : StableHlo.TRef sig ⟨S7, .i32⟩) (.of main_call51_v1 : StableHlo.TRef sig ⟨S7, .i32⟩) (.of main_call51_v2 : StableHlo.TRef sig ⟨S7, .i32⟩) Host.divsi,
    StableHlo.TRef.unary (.of main_v671 : StableHlo.TRef sig ⟨S7, .i32⟩) (.of main_call51_v3 : StableHlo.TRef sig ⟨S7, .i32⟩) signi,
    StableHlo.TRef.unary (.of main_call51_v0 : StableHlo.TRef sig ⟨S_, .i32⟩) (.of main_call51_v4 : StableHlo.TRef sig ⟨S_, .i32⟩) signi,
    StableHlo.TRef.unary (.of main_call51_v4 : StableHlo.TRef sig ⟨S_, .i32⟩) (.of main_call51_v5 : StableHlo.TRef sig ⟨S7, .i32⟩) (broadcastInDim S7 ![] bcast_S_S7),
    StableHlo.TRef.binary (.of main_call51_v3 : StableHlo.TRef sig ⟨S7, .i32⟩) (.of main_call51_v5 : StableHlo.TRef sig ⟨S7, .i32⟩) (.of main_call51_v6 : StableHlo.TRef sig ⟨S7, .i1⟩) (cmpi .ne),
    StableHlo.TRef.unary (.of main_call51_v0 : StableHlo.TRef sig ⟨S_, .i32⟩) (.of main_call51_v7 : StableHlo.TRef sig ⟨S7, .i32⟩) (broadcastInDim S7 ![] bcast_S_S7),
    StableHlo.TRef.binary (.of main_v671 : StableHlo.TRef sig ⟨S7, .i32⟩) (.of main_call51_v7 : StableHlo.TRef sig ⟨S7, .i32⟩) (.of main_call51_v8 : StableHlo.TRef sig ⟨S7, .i32⟩) Host.remsi,
    StableHlo.TRef.nullary (.of main_call51_c : StableHlo.TRef sig ⟨S_, .i32⟩) (constantI S_ 32 0#32),
    StableHlo.TRef.unary (.of main_call51_c : StableHlo.TRef sig ⟨S_, .i32⟩) (.of main_call51_v9 : StableHlo.TRef sig ⟨S7, .i32⟩) (broadcastInDim S7 ![] bcast_S_S7),
    StableHlo.TRef.binary (.of main_call51_v8 : StableHlo.TRef sig ⟨S7, .i32⟩) (.of main_call51_v9 : StableHlo.TRef sig ⟨S7, .i32⟩) (.of main_call51_v10 : StableHlo.TRef sig ⟨S7, .i1⟩) (cmpi .ne),
    StableHlo.TRef.binary (.of main_call51_v6 : StableHlo.TRef sig ⟨S7, .i1⟩) (.of main_call51_v10 : StableHlo.TRef sig ⟨S7, .i1⟩) (.of main_call51_v11 : StableHlo.TRef sig ⟨S7, .i1⟩) andi,
    StableHlo.TRef.nullary (.of main_call51_c_0 : StableHlo.TRef sig ⟨S_, .i32⟩) (constantI S_ 32 1#32),
    StableHlo.TRef.unary (.of main_call51_c_0 : StableHlo.TRef sig ⟨S_, .i32⟩) (.of main_call51_v12 : StableHlo.TRef sig ⟨S7, .i32⟩) (broadcastInDim S7 ![] bcast_S_S7),
    StableHlo.TRef.binary (.of main_call51_v2 : StableHlo.TRef sig ⟨S7, .i32⟩) (.of main_call51_v12 : StableHlo.TRef sig ⟨S7, .i32⟩) (.of main_call51_v13 : StableHlo.TRef sig ⟨S7, .i32⟩) subi,
    StableHlo.TRef.ternary (.of main_call51_v11 : StableHlo.TRef sig ⟨S7, .i1⟩) (.of main_call51_v13 : StableHlo.TRef sig ⟨S7, .i32⟩) (.of main_call51_v2 : StableHlo.TRef sig ⟨S7, .i32⟩) (.of main_v672 : StableHlo.TRef sig ⟨S7, .i32⟩) select ]
theorem ops12_5_sub : (ops12_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops12_5_fresh : (ops12_5 : List (HloOp τ sig (Elt F))).Forall fun op => op.fresh = ∅ := by
  simp only [List.Forall]; repeat' constructor
theorem ops12_5_keeps : (ops12_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1356 … 1360 of the program (5 of window 12), in order. -/
abbrev ops12_6 : List (HloOp τ sig (Elt F)) :=
  [ StableHlo.unary main_v642 main_v673 (broadcastInDim S7 ![] bcast_S_S7 : (⟨S_, .i32⟩ : BufTy).Contents (Elt F) → (⟨S7, .i32⟩ : BufTy).Contents (Elt F)),
    StableHlo.binary main_v673 main_v672 main_v674 (subi : (⟨S7, .i32⟩ : BufTy).Contents (Elt F) → (⟨S7, .i32⟩ : BufTy).Contents (Elt F) → (⟨S7, .i32⟩ : BufTy).Contents (Elt F)),
    StableHlo.unary main_v659 main_v675 (broadcastInDim S7 ![] bcast_S_S7 : (⟨S_, .i32⟩ : BufTy).Contents (Elt F) → (⟨S7, .i32⟩ : BufTy).Contents (Elt F)),
    StableHlo.binary main_v661 main_v675 main_v676 (muli : (⟨S7, .i32⟩ : BufTy).Contents (Elt F) → (⟨S7, .i32⟩ : BufTy).Contents (Elt F) → (⟨S7, .i32⟩ : BufTy).Contents (Elt F)),
    StableHlo.nullary main_c_89 (constantI S_ 32 7#32) ]
theorem ops12_6_sub : (ops12_6 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops12_6_fresh : (ops12_6 : List (HloOp τ sig (Elt F))).Forall fun op => op.fresh = ∅ := by
  simp only [List.Forall]; repeat' constructor
theorem ops12_6_keeps : (ops12_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1361 … 1377 of the program (17 of window 12), in order. -/
abbrev ops12_7 : List (HloOp τ sig (Elt F)) :=
  [ StableHlo.TRef.unary (.of main_c_89 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S7, .i32⟩) (broadcastInDim S7 ![] bcast_S_S7),
    StableHlo.TRef.binary (.of main_v676 : StableHlo.TRef sig ⟨S7, .i32⟩) (.of main_call52_v1 : StableHlo.TRef sig ⟨S7, .i32⟩) (.of main_call52_v2 : StableHlo.TRef sig ⟨S7, .i32⟩) Host.divsi,
    StableHlo.TRef.unary (.of main_v676 : StableHlo.TRef sig ⟨S7, .i32⟩) (.of main_call52_v3 : StableHlo.TRef sig ⟨S7, .i32⟩) signi,
    StableHlo.TRef.unary (.of main_call52_v0 : StableHlo.TRef sig ⟨S_, .i32⟩) (.of main_call52_v4 : StableHlo.TRef sig ⟨S_, .i32⟩) signi,
    StableHlo.TRef.unary (.of main_call52_v4 : StableHlo.TRef sig ⟨S_, .i32⟩) (.of main_call52_v5 : StableHlo.TRef sig ⟨S7, .i32⟩) (broadcastInDim S7 ![] bcast_S_S7),
    StableHlo.TRef.binary (.of main_call52_v3 : StableHlo.TRef sig ⟨S7, .i32⟩) (.of main_call52_v5 : StableHlo.TRef sig ⟨S7, .i32⟩) (.of main_call52_v6 : StableHlo.TRef sig ⟨S7, .i1⟩) (cmpi .ne),
    StableHlo.TRef.unary (.of main_call52_v0 : StableHlo.TRef sig ⟨S_, .i32⟩) (.of main_call52_v7 : StableHlo.TRef sig ⟨S7, .i32⟩) (broadcastInDim S7 ![] bcast_S_S7),
    StableHlo.TRef.binary (.of main_v676 : StableHlo.TRef sig ⟨S7, .i32⟩) (.of main_call52_v7 : StableHlo.TRef sig ⟨S7, .i32⟩) (.of main_call52_v8 : StableHlo.TRef sig ⟨S7, .i32⟩) Host.remsi,
    StableHlo.TRef.nullary (.of main_call52_c : StableHlo.TRef sig ⟨S_, .i32⟩) (constantI S_ 32 0#32),
    StableHlo.TRef.unary (.of main_call52_c : StableHlo.TRef sig ⟨S_, .i32⟩) (.of main_call52_v9 : StableHlo.TRef sig ⟨S7, .i32⟩) (broadcastInDim S7 ![] bcast_S_S7),
    StableHlo.TRef.binary (.of main_call52_v8 : StableHlo.TRef sig ⟨S7, .i32⟩) (.of main_call52_v9 : StableHlo.TRef sig ⟨S7, .i32⟩) (.of main_call52_v10 : StableHlo.TRef sig ⟨S7, .i1⟩) (cmpi .ne),
    StableHlo.TRef.binary (.of main_call52_v6 : StableHlo.TRef sig ⟨S7, .i1⟩) (.of main_call52_v10 : StableHlo.TRef sig ⟨S7, .i1⟩) (.of main_call52_v11 : StableHlo.TRef sig ⟨S7, .i1⟩) andi,
    StableHlo.TRef.nullary (.of main_call52_c_0 : StableHlo.TRef sig ⟨S_, .i32⟩) (constantI S_ 32 1#32),
    StableHlo.TRef.unary (.of main_call52_c_0 : StableHlo.TRef sig ⟨S_, .i32⟩) (.of main_call52_v12 : StableHlo.TRef sig ⟨S7, .i32⟩) (broadcastInDim S7 ![] bcast_S_S7),
    StableHlo.TRef.binary (.of main_call52_v2 : StableHlo.TRef sig ⟨S7, .i32⟩) (.of main_call52_v12 : StableHlo.TRef sig ⟨S7, .i32⟩) (.of main_call52_v13 : StableHlo.TRef sig ⟨S7, .i32⟩) subi,
    StableHlo.TRef.ternary (.of main_call52_v11 : StableHlo.TRef sig ⟨S7, .i1⟩) (.of main_call52_v13 : StableHlo.TRef sig ⟨S7, .i32⟩) (.of main_call52_v2 : StableHlo.TRef sig ⟨S7, .i32⟩) (.of main_v677 : StableHlo.TRef sig ⟨S7, .i32⟩) select ]
theorem ops12_7_sub : (ops12_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops12_7_fresh : (ops12_7 : List (HloOp τ sig (Elt F))).Forall fun op => op.fresh = ∅ := by
  simp only [List.Forall]; repeat' constructor
theorem ops12_7_keeps : (ops12_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1378 … 1386 of the program (9 of window 12), in order. -/
abbrev ops12_8 : List (HloOp τ sig (Elt F)) :=
  [ StableHlo.unary main_v652 main_v678 (broadcastInDim S7 ![] bcast_S_S7 : (⟨S_, .i32⟩ : BufTy).Contents (Elt F) → (⟨S7, .i32⟩ : BufTy).Contents (Elt F)),
    StableHlo.binary main_v678 main_v677 main_v679 (addi : (⟨S7, .i32⟩ : BufTy).Contents (Elt F) → (⟨S7, .i32⟩ : BufTy).Contents (Elt F) → (⟨S7, .i32⟩ : BufTy).Contents (Elt F)),
    StableHlo.nullary main_c_90 (constantI S_ 32 1#32),
    StableHlo.unary main_c_90 main_v680 (broadcastInDim S7 ![] bcast_S_S7 : (⟨S_, .i32⟩ : BufTy).Contents (Elt F) → (⟨S7, .i32⟩ : BufTy).Contents (Elt F)),
    StableHlo.binary main_v661 main_v680 main_v681 (addi : (⟨S7, .i32⟩ : BufTy).Contents (Elt F) → (⟨S7, .i32⟩ : BufTy).Contents (Elt F) → (⟨S7, .i32⟩ : BufTy).Contents (Elt F)),
    StableHlo.unary main_v681 main_v682 (negi : (⟨S7, .i32⟩ : BufTy).Contents (Elt F) → (⟨S7, .i32⟩ : BufTy).Contents (Elt F)),
    StableHlo.unary main_v659 main_v683 (broadcastInDim S7 ![] bcast_S_S7 : (⟨S_, .i32⟩ : BufTy).Contents (Elt F) → (⟨S7, .i32⟩ : BufTy).Contents (Elt F)),
    StableHlo.binary main_v682 main_v683 main_v684 (muli : (⟨S7, .i32⟩ : BufTy).Contents (Elt F) → (⟨S7, .i32⟩ : BufTy).Contents (Elt F) → (⟨S7, .i32⟩ : BufTy).Contents (Elt F)),
    StableHlo.nullary main_c_91 (constantI S_ 32 7#32) ]
theorem ops12_8_sub : (ops12_8 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops12_8_fresh : (ops12_8 : List (HloOp τ sig (Elt F))).Forall fun op => op.fresh = ∅ := by
  simp only [List.Forall]; repeat' constructor
theorem ops12_8_keeps : (ops12_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1387 … 1403 of the program (17 of window 12), in order. -/
abbrev ops12_9 : List (HloOp τ sig (Elt F)) :=
  [ StableHlo.TRef.unary (.of main_c_91 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S7, .i32⟩) (broadcastInDim S7 ![] bcast_S_S7),
    StableHlo.TRef.binary (.of main_v684 : StableHlo.TRef sig ⟨S7, .i32⟩) (.of main_call53_v1 : StableHlo.TRef sig ⟨S7, .i32⟩) (.of main_call53_v2 : StableHlo.TRef sig ⟨S7, .i32⟩) Host.divsi,
    StableHlo.TRef.unary (.of main_v684 : StableHlo.TRef sig ⟨S7, .i32⟩) (.of main_call53_v3 : StableHlo.TRef sig ⟨S7, .i32⟩) signi,
    StableHlo.TRef.unary (.of main_call53_v0 : StableHlo.TRef sig ⟨S_, .i32⟩) (.of main_call53_v4 : StableHlo.TRef sig ⟨S_, .i32⟩) signi,
    StableHlo.TRef.unary (.of main_call53_v4 : StableHlo.TRef sig ⟨S_, .i32⟩) (.of main_call53_v5 : StableHlo.TRef sig ⟨S7, .i32⟩) (broadcastInDim S7 ![] bcast_S_S7),
    StableHlo.TRef.binary (.of main_call53_v3 : StableHlo.TRef sig ⟨S7, .i32⟩) (.of main_call53_v5 : StableHlo.TRef sig ⟨S7, .i32⟩) (.of main_call53_v6 : StableHlo.TRef sig ⟨S7, .i1⟩) (cmpi .ne),
    StableHlo.TRef.unary (.of main_call53_v0 : StableHlo.TRef sig ⟨S_, .i32⟩) (.of main_call53_v7 : StableHlo.TRef sig ⟨S7, .i32⟩) (broadcastInDim S7 ![] bcast_S_S7),
    StableHlo.TRef.binary (.of main_v684 : StableHlo.TRef sig ⟨S7, .i32⟩) (.of main_call53_v7 : StableHlo.TRef sig ⟨S7, .i32⟩) (.of main_call53_v8 : StableHlo.TRef sig ⟨S7, .i32⟩) Host.remsi,
    StableHlo.TRef.nullary (.of main_call53_c : StableHlo.TRef sig ⟨S_, .i32⟩) (constantI S_ 32 0#32),
    StableHlo.TRef.unary (.of main_call53_c : StableHlo.TRef sig ⟨S_, .i32⟩) (.of main_call53_v9 : StableHlo.TRef sig ⟨S7, .i32⟩) (broadcastInDim S7 ![] bcast_S_S7),
    StableHlo.TRef.binary (.of main_call53_v8 : StableHlo.TRef sig ⟨S7, .i32⟩) (.of main_call53_v9 : StableHlo.TRef sig ⟨S7, .i32⟩) (.of main_call53_v10 : StableHlo.TRef sig ⟨S7, .i1⟩) (cmpi .ne),
    StableHlo.TRef.binary (.of main_call53_v6 : StableHlo.TRef sig ⟨S7, .i1⟩) (.of main_call53_v10 : StableHlo.TRef sig ⟨S7, .i1⟩) (.of main_call53_v11 : StableHlo.TRef sig ⟨S7, .i1⟩) andi,
    StableHlo.TRef.nullary (.of main_call53_c_0 : StableHlo.TRef sig ⟨S_, .i32⟩) (constantI S_ 32 1#32),
    StableHlo.TRef.unary (.of main_call53_c_0 : StableHlo.TRef sig ⟨S_, .i32⟩) (.of main_call53_v12 : StableHlo.TRef sig ⟨S7, .i32⟩) (broadcastInDim S7 ![] bcast_S_S7),
    StableHlo.TRef.binary (.of main_call53_v2 : StableHlo.TRef sig ⟨S7, .i32⟩) (.of main_call53_v12 : StableHlo.TRef sig ⟨S7, .i32⟩) (.of main_call53_v13 : StableHlo.TRef sig ⟨S7, .i32⟩) subi,
    StableHlo.TRef.ternary (.of main_call53_v11 : StableHlo.TRef sig ⟨S7, .i1⟩) (.of main_call53_v13 : StableHlo.TRef sig ⟨S7, .i32⟩) (.of main_call53_v2 : StableHlo.TRef sig ⟨S7, .i32⟩) (.of main_v685 : StableHlo.TRef sig ⟨S7, .i32⟩) select ]
theorem ops12_9_sub : (ops12_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops12_9_fresh : (ops12_9 : List (HloOp τ sig (Elt F))).Forall fun op => op.fresh = ∅ := by
  simp only [List.Forall]; repeat' constructor
theorem ops12_9_keeps : (ops12_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops12_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part12_eq (c : Dev nD) : main_part12 (F := F) c = Pipeline.chainK [StableHlo.seq ops12_0, StableHlo.seq ops12_1, StableHlo.seq ops12_2, StableHlo.seq ops12_3, StableHlo.seq ops12_4, StableHlo.seq ops12_5, StableHlo.seq ops12_6, StableHlo.seq ops12_7, StableHlo.seq ops12_8] (StableHlo.seq ops12_9) := by
  chain_rfl

end Cert.ReferenceIdeal.Host

end
-- ==== Proof.RefOps13.lean ====
/- Window 13 of the program's @main, every called function's body written out in place: 66 operations,
  cut into 5 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1404 … 1432 of the program (29 of window 13), in order. -/
abbrev ops13_0 : List (HloOp τ sig (Elt F)) :=
  [ StableHlo.unary main_v652 main_v686 (broadcastInDim S7 ![] bcast_S_S7 : (⟨S_, .i32⟩ : BufTy).Contents (Elt F) → (⟨S7, .i32⟩ : BufTy).Contents (Elt F)),
    StableHlo.binary main_v686 main_v685 main_v687 (subi : (⟨S7, .i32⟩ : BufTy).Contents (Elt F) → (⟨S7, .i32⟩ : BufTy).Contents (Elt F) → (⟨S7, .i32⟩ : BufTy).Contents (Elt F)),
    StableHlo.nullary main_v688 (iotaInDim S64 32 0),
    StableHlo.nullary main_v689 (iotaInDim S64 32 0),
    StableHlo.unary main_v688 main_v690 (broadcastInDim S1x64 ![1] bcast_S64_S1x64_1 : (⟨S64, .i32⟩ : BufTy).Contents (Elt F) → (⟨S1x64, .i32⟩ : BufTy).Contents (Elt F)),
    StableHlo.unary main_v666 main_v691 (broadcastInDim S7x1 ![0] bcast_S7_S7x1_0 : (⟨S7, .i32⟩ : BufTy).Contents (Elt F) → (⟨S7x1, .i32⟩ : BufTy).Contents (Elt F)),
    StableHlo.unary main_v690 main_v692 (broadcastInDim S7x64 ![0, 1] bcast_S1x64_S7x64_0_1 : (⟨S1x64, .i32⟩ : BufTy).Contents (Elt F) → (⟨S7x64, .i32⟩ : BufTy).Contents (Elt F)),
    StableHlo.unary main_v691 main_v693 (broadcastInDim S7x64 ![0, 1] bcast_S7x1_S7x64_0_1 : (⟨S7x1, .i32⟩ : BufTy).Contents (Elt F) → (⟨S7x64, .i32⟩ : BufTy).Contents (Elt F)),
    StableHlo.binary main_v692 main_v693 main_v694 (cmpi .sge : (⟨S7x64, .i32⟩ : BufTy).Contents (Elt F) → (⟨S7x64, .i32⟩ : BufTy).Contents (Elt F) → (⟨S7x64, .i1⟩ : BufTy).Contents (Elt F)),
    StableHlo.unary main_v688 main_v695 (broadcastInDim S1x64 ![1] bcast_S64_S1x64_1 : (⟨S64, .i32⟩ : BufTy).Contents (Elt F) → (⟨S1x64, .i32⟩ : BufTy).Contents (Elt F)),
    StableHlo.unary main_v674 main_v696 (broadcastInDim S7x1 ![0] bcast_S7_S7x1_0 : (⟨S7, .i32⟩ : BufTy).Contents (Elt F) → (⟨S7x1, .i32⟩ : BufTy).Contents (Elt F)),
    StableHlo.unary main_v695 main_v697 (broadcastInDim S7x64 ![0, 1] bcast_S1x64_S7x64_0_1 : (⟨S1x64, .i32⟩ : BufTy).Contents (Elt F) → (⟨S7x64, .i32⟩ : BufTy).Contents (Elt F)),
    StableHlo.unary main_v696 main_v698 (broadcastInDim S7x64 ![0, 1] bcast_S7x1_S7x64_0_1 : (⟨S7x1, .i32⟩ : BufTy).Contents (Elt F) → (⟨S7x64, .i32⟩ : BufTy).Contents (Elt F)),
    StableHlo.binary main_v697 main_v698 main_v699 (cmpi .slt : (⟨S7x64, .i32⟩ : BufTy).Contents (Elt F) → (⟨S7x64, .i32⟩ : BufTy).Contents (Elt F) → (⟨S7x64, .i1⟩ : BufTy).Contents (Elt F)),
    StableHlo.binary main_v694 main_v699 main_v700 (andi : (⟨S7x64, .i1⟩ : BufTy).Contents (Elt F) → (⟨S7x64, .i1⟩ : BufTy).Contents (Elt F) → (⟨S7x64, .i1⟩ : BufTy).Contents (Elt F)),
    StableHlo.unary main_v689 main_v701 (broadcastInDim S1x64 ![1] bcast_S64_S1x64_1 : (⟨S64, .i32⟩ : BufTy).Contents (Elt F) → (⟨S1x64, .i32⟩ : BufTy).Contents (Elt F)),
    StableHlo.unary main_v679 main_v702 (broadcastInDim S7x1 ![0] bcast_S7_S7x1_0 : (⟨S7, .i32⟩ : BufTy).Contents (Elt F) → (⟨S7x1, .i32⟩ : BufTy).Contents (Elt F)),
    StableHlo.unary main_v701 main_v703 (broadcastInDim S7x64 ![0, 1] bcast_S1x64_S7x64_0_1 : (⟨S1x64, .i32⟩ : BufTy).Contents (Elt F) → (⟨S7x64, .i32⟩ : BufTy).Contents (Elt F)),
    StableHlo.unary main_v702 main_v704 (broadcastInDim S7x64 ![0, 1] bcast_S7x1_S7x64_0_1 : (⟨S7x1, .i32⟩ : BufTy).Contents (Elt F) → (⟨S7x64, .i32⟩ : BufTy).Contents (Elt F)),
    StableHlo.binary main_v703 main_v704 main_v705 (cmpi .sge : (⟨S7x64, .i32⟩ : BufTy).Contents (Elt F) → (⟨S7x64, .i32⟩ : BufTy).Contents (Elt F) → (⟨S7x64, .i1⟩ : BufTy).Contents (Elt F)),
    StableHlo.unary main_v689 main_v706 (broadcastInDim S1x64 ![1] bcast_S64_S1x64_1 : (⟨S64, .i32⟩ : BufTy).Contents (Elt F) → (⟨S1x64, .i32⟩ : BufTy).Contents (Elt F)),
    StableHlo.unary main_v687 main_v707 (broadcastInDim S7x1 ![0] bcast_S7_S7x1_0 : (⟨S7, .i32⟩ : BufTy).Contents (Elt F) → (⟨S7x1, .i32⟩ : BufTy).Contents (Elt F)),
    StableHlo.unary main_v706 main_v708 (broadcastInDim S7x64 ![0, 1] bcast_S1x64_S7x64_0_1 : (⟨S1x64, .i32⟩ : BufTy).Contents (Elt F) → (⟨S7x64, .i32⟩ : BufTy).Contents (Elt F)),
    StableHlo.unary main_v707 main_v709 (broadcastInDim S7x64 ![0, 1] bcast_S7x1_S7x64_0_1 : (⟨S7x1, .i32⟩ : BufTy).Contents (Elt F) → (⟨S7x64, .i32⟩ : BufTy).Contents (Elt F)),
    StableHlo.binary main_v708 main_v709 main_v710 (cmpi .slt : (⟨S7x64, .i32⟩ : BufTy).Contents (Elt F) → (⟨S7x64, .i32⟩ : BufTy).Contents (Elt F) → (⟨S7x64, .i1⟩ : BufTy).Contents (Elt F)),
    StableHlo.binary main_v705 main_v710 main_v711 (andi : (⟨S7x64, .i1⟩ : BufTy).Contents (Elt F) → (⟨S7x64, .i1⟩ : BufTy).Contents (Elt F) → (⟨S7x64, .i1⟩ : BufTy).Contents (Elt F)),
    StableHlo.unary main_v700 main_v712 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v713 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_92 (constant S_ .f32 0xFF800000#32) ]
theorem ops13_0_sub : (ops13_0 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops13_0_fresh : (ops13_0 : List (HloOp τ sig (Elt F))).Forall fun op => op.fresh = ∅ := by
  simp only [List.Forall]; repeat' constructor
theorem ops13_0_keeps : (ops13_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops13_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1433 … 1436 of the program (4 of window 13), in order. -/
abbrev ops13_1 : List (HloOp τ sig (Elt F)) :=
  [ StableHlo.TRef.unary (.of main_v712 : StableHlo.TRef sig ⟨S7x1x64x1, .i1⟩) (.of main_call54_v0 : StableHlo.TRef sig ⟨S7x512x64x64, .i1⟩) (broadcastInDim S7x512x64x64 ![0, 1, 2, 3] bcast_S7x1x64x1_S7x512x64x64_0_1_2_3),
    StableHlo.TRef.unary (.of main_v713 : StableHlo.TRef sig ⟨S1x512x64x64, .f32⟩) (.of main_call54_v1 : StableHlo.TRef sig ⟨S7x512x64x64, .f32⟩) (broadcastInDim S7x512x64x64 ![0, 1, 2, 3] bcast_S1x512x64x64_S7x512x64x64_0_1_2_3),
    StableHlo.TRef.unary (.of main_cst_92 : StableHlo.TRef sig ⟨S_, .f32⟩) (.of main_call54_v2 : StableHlo.TRef sig ⟨S7x512x64x64, .f32⟩) (broadcastInDim S7x512x64x64 ![] bcast_S_S7x512x64x64),
    StableHlo.TRef.ternary (.of main_call54_v0 : StableHlo.TRef sig ⟨S7x512x64x64, .i1⟩) (.of main_call54_v1 : StableHlo.TRef sig ⟨S7x512x64x64, .f32⟩) (.of main_call54_v2 : StableHlo.TRef sig ⟨S7x512x64x64, .f32⟩) (.of main_v714 : StableHlo.TRef sig ⟨S7x512x64x64, .f32⟩) select ]
theorem ops13_1_sub : (ops13_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops13_1_fresh : (ops13_1 : List (HloOp τ sig (Elt F))).Forall fun op => op.fresh = ∅ := by
  simp only [List.Forall]; repeat' constructor
theorem ops13_1_keeps : (ops13_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops13_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1437 … 1441 of the program (5 of window 13), in order. -/
abbrev ops13_2 : List (HloOp τ sig (Elt F)) :=
  [ StableHlo.nullary main_cst_93 (constant S_ .f32 0xFF800000#32),
    StableHlo.binary main_v714 main_cst_93 main_v715 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v711 main_v716 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v715 main_v717 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_94 (constant S_ .f32 0xFF800000#32) ]
theorem ops13_2_sub : (ops13_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops13_2_fresh : (ops13_2 : List (HloOp τ sig (Elt F))).Forall fun op => op.fresh = ∅ := by
  simp only [List.Forall]; repeat' constructor
theorem ops13_2_keeps : (ops13_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops13_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1442 … 1445 of the program (4 of window 13), in order. -/
abbrev ops13_3 : List (HloOp τ sig (Elt F)) :=
  [ StableHlo.TRef.unary (.of main_v716 : StableHlo.TRef sig ⟨S1x1x7x64, .i1⟩) (.of main_call55_v0 : StableHlo.TRef sig ⟨S7x512x7x64, .i1⟩) (broadcastInDim S7x512x7x64 ![0, 1, 2, 3] bcast_S1x1x7x64_S7x512x7x64_0_1_2_3),
    StableHlo.TRef.unary (.of main_v717 : StableHlo.TRef sig ⟨S7x512x1x64, .f32⟩) (.of main_call55_v1 : StableHlo.TRef sig ⟨S7x512x7x64, .f32⟩) (broadcastInDim S7x512x7x64 ![0, 1, 2, 3] bcast_S7x512x1x64_S7x512x7x64_0_1_2_3),
    StableHlo.TRef.unary (.of main_cst_94 : StableHlo.TRef sig ⟨S_, .f32⟩) (.of main_call55_v2 : StableHlo.TRef sig ⟨S7x512x7x64, .f32⟩) (broadcastInDim S7x512x7x64 ![] bcast_S_S7x512x7x64),
    StableHlo.TRef.ternary (.of main_call55_v0 : StableHlo.TRef sig ⟨S7x512x7x64, .i1⟩) (.of main_call55_v1 : StableHlo.TRef sig ⟨S7x512x7x64, .f32⟩) (.of main_call55_v2 : StableHlo.TRef sig ⟨S7x512x7x64, .f32⟩) (.of main_v718 : StableHlo.TRef sig ⟨S7x512x7x64, .f32⟩) select ]
theorem ops13_3_sub : (ops13_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops13_3_fresh : (ops13_3 : List (HloOp τ sig (Elt F))).Forall fun op => op.fresh = ∅ := by
  simp only [List.Forall]; repeat' constructor
theorem ops13_3_keeps : (ops13_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops13_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1446 … 1469 of the program (24 of window 13), in order. -/
abbrev ops13_4 : List (HloOp τ sig (Elt F)) :=
  [ StableHlo.nullary main_cst_95 (constant S_ .f32 0xFF800000#32),
    StableHlo.binary main_v718 main_cst_95 main_v719 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v719 main_v720 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v720 main_v721 rfl shapeCasts_S512x7x7_S25088,
    StableHlo.unary main_v18 main_v722 ((extractStridedSlice S1x1 ![1, 1] · slices_S3x4_S1x1_1_1) : (⟨S3x4, .i32⟩ : BufTy).Contents (Elt F) → (⟨S1x1, .i32⟩ : BufTy).Contents (Elt F)),
    StableHlo.reshape main_v722 main_v723 rfl shapeCasts_S1x1_S_,
    StableHlo.unary main_v23 main_v724 ((extractStridedSlice S1x1 ![1, 1] · slices_S4x4_S1x1_1_1) : (⟨S4x4, .i32⟩ : BufTy).Contents (Elt F) → (⟨S1x1, .i32⟩ : BufTy).Contents (Elt F)),
    StableHlo.reshape main_v724 main_v725 rfl shapeCasts_S1x1_S_,
    StableHlo.binary main_v723 main_v725 main_v726 (minsi : (⟨S_, .i32⟩ : BufTy).Contents (Elt F) → (⟨S_, .i32⟩ : BufTy).Contents (Elt F) → (⟨S_, .i32⟩ : BufTy).Contents (Elt F)),
    StableHlo.unary main_v18 main_v727 ((extractStridedSlice S1x1 ![1, 3] · slices_S3x4_S1x1_1_3) : (⟨S3x4, .i32⟩ : BufTy).Contents (Elt F) → (⟨S1x1, .i32⟩ : BufTy).Contents (Elt F)),
    StableHlo.reshape main_v727 main_v728 rfl shapeCasts_S1x1_S_,
    StableHlo.unary main_v23 main_v729 ((extractStridedSlice S1x1 ![1, 3] · slices_S4x4_S1x1_1_3) : (⟨S4x4, .i32⟩ : BufTy).Contents (Elt F) → (⟨S1x1, .i32⟩ : BufTy).Contents (Elt F)),
    StableHlo.reshape main_v729 main_v730 rfl shapeCasts_S1x1_S_,
    StableHlo.binary main_v728 main_v730 main_v731 (maxsi : (⟨S_, .i32⟩ : BufTy).Contents (Elt F) → (⟨S_, .i32⟩ : BufTy).Contents (Elt F) → (⟨S_, .i32⟩ : BufTy).Contents (Elt F)),
    StableHlo.unary main_v18 main_v732 ((extractStridedSlice S1x1 ![1, 0] · slices_S3x4_S1x1_1_0) : (⟨S3x4, .i32⟩ : BufTy).Contents (Elt F) → (⟨S1x1, .i32⟩ : BufTy).Contents (Elt F)),
    StableHlo.reshape main_v732 main_v733 rfl shapeCasts_S1x1_S_,
    StableHlo.unary main_v23 main_v734 ((extractStridedSlice S1x1 ![1, 0] · slices_S4x4_S1x1_1_0) : (⟨S4x4, .i32⟩ : BufTy).Contents (Elt F) → (⟨S1x1, .i32⟩ : BufTy).Contents (Elt F)),
    StableHlo.reshape main_v734 main_v735 rfl shapeCasts_S1x1_S_,
    StableHlo.binary main_v733 main_v735 main_v736 (minsi : (⟨S_, .i32⟩ : BufTy).Contents (Elt F) → (⟨S_, .i32⟩ : BufTy).Contents (Elt F) → (⟨S_, .i32⟩ : BufTy).Contents (Elt F)),
    StableHlo.unary main_v18 main_v737 ((extractStridedSlice S1x1 ![1, 2] · slices_S3x4_S1x1_1_2) : (⟨S3x4, .i32⟩ : BufTy).Contents (Elt F) → (⟨S1x1, .i32⟩ : BufTy).Contents (Elt F)),
    StableHlo.reshape main_v737 main_v738 rfl shapeCasts_S1x1_S_,
    StableHlo.unary main_v23 main_v739 ((extractStridedSlice S1x1 ![1, 2] · slices_S4x4_S1x1_1_2) : (⟨S4x4, .i32⟩ : BufTy).Contents (Elt F) → (⟨S1x1, .i32⟩ : BufTy).Contents (Elt F)),
    StableHlo.reshape main_v739 main_v740 rfl shapeCasts_S1x1_S_,
    StableHlo.binary main_v738 main_v740 main_v741 (maxsi : (⟨S_, .i32⟩ : BufTy).Contents (Elt F) → (⟨S_, .i32⟩ : BufTy).Contents (Elt F) → (⟨S_, .i32⟩ : BufTy).Contents (Elt F)) ]
theorem ops13_4_sub : (ops13_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub ..⟩
theorem ops13_4_fresh : (ops13_4 : List (HloOp τ sig (Elt F))).Forall fun op => op.fresh = ∅ := by
  simp only [List.Forall]; repeat' constructor
theorem ops13_4_keeps : (ops13_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops13_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part13_eq (c : Dev nD) : main_part13 (F := F) c = Pipeline.chainK [StableHlo.seq ops13_0, StableHlo.seq ops13_1, StableHlo.seq ops13_2, StableHlo.seq ops13_3] (StableHlo.seq ops13_4) := by
  chain_rfl

end Cert.ReferenceIdeal.Host

end
-- ==== Proof.RefOps14.lean ====
/- Window 14 of the program's @main, every called function's body written out in place: 124 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1470 … 1476 of the program (7 of window 14), in order. -/
abbrev ops14_0 : List (HloOp τ sig (Elt F)) :=
  [ StableHlo.binary main_v731 main_v726 main_v742 (subi : (⟨S_, .i32⟩ : BufTy).Contents (Elt F) → (⟨S_, .i32⟩ : BufTy).Contents (Elt F) → (⟨S_, .i32⟩ : BufTy).Contents (Elt F)),
    StableHlo.binary main_v741 main_v736 main_v743 (subi : (⟨S_, .i32⟩ : BufTy).Contents (Elt F) → (⟨S_, .i32⟩ : BufTy).Contents (Elt F) → (⟨S_, .i32⟩ : BufTy).Contents (Elt F)),
    StableHlo.nullary main_v744 (iotaInDim S7 32 0),
    StableHlo.nullary main_v745 (iotaInDim S7 32 0),
    StableHlo.unary main_v742 main_v746 (broadcastInDim S7 ![] bcast_S_S7 : (⟨S_, .i32⟩ : BufTy).Contents (Elt F) → (⟨S7, .i32⟩ : BufTy).Contents (Elt F)),
    StableHlo.binary main_v744 main_v746 main_v747 (muli : (⟨S7, .i32⟩ : BufTy).Contents (Elt F) → (⟨S7, .i32⟩ : BufTy).Contents (Elt F) → (⟨S7, .i32⟩ : BufTy).Contents (Elt F)),
    StableHlo.nullary main_c_96 (constantI S_ 32 7#32) ]
theorem ops14_0_sub : (ops14_0 : List (HloOp τ sig (Elt F))).Forall fun op => op.bufs ⊆ StableHlo.tcRefs τ sig :=
  ⟨StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops14_0_fresh : (ops14_0 : List (HloOp τ sig (Elt F))).Forall fun op => op.fresh = ∅ := by
  simp only [List.Forall]; repeat' constructor
theorem ops14_0_keeps : (ops14_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1477 … 1493 of the program (17 of window 14), in order. -/
abbrev ops14_1 : List (HloOp τ sig (Elt F)) :=
  [ StableHlo.TRef.unary (.of main_c_96 : StableHlo.TRef sig ⟨S_, .i32⟩) (.of main_call56_v0 : StableHlo.TRef sig ⟨S_, .i32⟩) id,
    StableHlo.TRef.unary (.of main_call56_v0 : StableHlo.TRef sig ⟨S_, .i32⟩) (.of main_call56_v1 : StableHlo.TRef sig ⟨S7, .i32⟩) (broadcastInDim S7 ![] bcast_S_S7),
    StableHlo.TRef.binary (.of main_v747 : StableHlo.TRef sig ⟨S7, .i32⟩) (.of main_call56_v1 : StableHlo.TRef sig ⟨S7, .i32⟩) (.of main_call56_v2 : StableHlo.TRef sig ⟨S7, .i32⟩) Host.divsi,
    StableHlo.TRef.unary (.of main_v747 : StableHlo.TRef sig ⟨S7, .i32⟩) (.of main_call56_v3 : StableHlo.TRef sig ⟨S7, .i32⟩) signi,
    StableHlo.TRef.unary (.of main_call56_v0 : StableHlo.TRef sig ⟨S_, .i32⟩) (.of main_call56_v4 : StableHlo.TRef sig ⟨S_, .i32⟩) signi,
    StableHlo.TRef.unary (.of main_call56_v4 : StableHlo.TRef sig ⟨S_, .i32⟩) (.of main_call56_v5 : StableHlo.TRef sig ⟨S7, .i32⟩) (broadcastInDim S7 ![] bcast_S_S7),
    StableHlo.TRef.binary (.of main_call56_v3 : StableHlo.TRef sig ⟨S7, .i32⟩) (.of main_call56_v5 : StableHlo.TRef sig ⟨S7, .i32⟩) (.of main_call56_v6 : StableHlo.TRef sig ⟨S7, .i1⟩) (cmpi .ne),
    StableHlo.TRef.unary (.of main_call56_v0 : StableHlo.TRef sig ⟨S_, .i32⟩) (.of main_call56_v7 : StableHlo.TRef sig ⟨S7, .i32⟩) (broadcastInDim S7 ![] bcast_S_S7),
    StableHlo.TRef.binary (.of main_v747 : StableHlo.TRef sig ⟨S7, .i32⟩) (.of main_call56_v7 : StableHlo.TRef sig ⟨S7, .i32⟩) (.of main_call56_v8 : StableHlo.TRef sig ⟨S7, .i32⟩) Host.remsi,
    StableHlo.TRef.nullary (.of main_call56_c : StableHlo.TRef sig ⟨S_, .i32⟩) (constantI S_ 32 0#32),
    StableHlo.TRef.unary (.of main_call56_c : StableHlo.TRef sig ⟨S_, .i32⟩) (.of main_call56_v9 : StableHlo.TRef sig ⟨S7, .i32⟩) (broadcastInDim S7 ![] bcast_S_S7),
    StableHlo.TRef.binary (.of main_call56_v8 : StableHlo.TRef sig ⟨S7, .i32⟩) (.of main_call56_v9 : StableHlo.TRef sig ⟨S7, .i32⟩) (.of main_call56_v10 : StableHlo.TRef sig ⟨S7, .i1⟩) (cmpi .ne),
    StableHlo.TRef.binary (.of main_call56_v6 : StableHlo.TRef sig ⟨S7, .i1⟩) (.of main_call56_v10 : StableHlo.TRef sig ⟨S7, .i1⟩) (.of main_call56_v11 : StableHlo.TRef sig ⟨S7, .i1⟩) andi,
    StableHlo.TRef.nullary (.of main_call56_c_0 : StableHlo.TRef sig ⟨S_, .i32⟩) (constantI S_ 32 1#32),
    StableHlo.TRef.unary (.of main_call56_c_0 : StableHlo.TRef sig ⟨S_, .i32⟩) (.of main_call56_v12 : StableHlo.TRef sig ⟨S7, .i32⟩) (broadcastInDim S7 ![] bcast_S_S7),
    StableHlo.TRef.binary (.of main_call56_v2 : StableHlo.TRef sig ⟨S7, .i32⟩) (.of main_call56_v12 : StableHlo.TRef sig ⟨S7, .i32⟩) (.of main_call56_v13 : StableHlo.TRef sig ⟨S7, .i32⟩) subi,
    StableHlo.TRef.ternary (.of main_call56_v11 : StableHlo.TRef sig ⟨S7, .i1⟩) (.of main_call56_v13 : StableHlo.TRef sig ⟨S7, .i32⟩) (.of main_call56_v2 : StableHlo.TRef sig ⟨S7, .i32⟩) (.of main_v748 : StableHlo.TRef sig ⟨S7, .i32⟩) select ]
theorem ops14_1_sub : (ops14_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops14_1_fresh : (ops14_1 : List (HloOp τ sig (Elt F))).Forall fun op => op.fresh = ∅ := by
  simp only [List.Forall]; repeat' constructor
theorem ops14_1_keeps : (ops14_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1494 … 1502 of the program (9 of window 14), in order. -/
abbrev ops14_2 : List (HloOp τ sig (Elt F)) :=
  [ StableHlo.unary main_v726 main_v749 (broadcastInDim S7 ![] bcast_S_S7 : (⟨S_, .i32⟩ : BufTy).Contents (Elt F) → (⟨S7, .i32⟩ : BufTy).Contents (Elt F)),
    StableHlo.binary main_v749 main_v748 main_v750 (addi : (⟨S7, .i32⟩ : BufTy).Contents (Elt F) → (⟨S7, .i32⟩ : BufTy).Contents (Elt F) → (⟨S7, .i32⟩ : BufTy).Contents (Elt F)),
    StableHlo.nullary main_c_97 (constantI S_ 32 1#32),
    StableHlo.unary main_c_97 main_v751 (broadcastInDim S7 ![] bcast_S_S7 : (⟨S_, .i32⟩ : BufTy).Contents (Elt F) → (⟨S7, .i32⟩ : BufTy).Contents (Elt F)),
    StableHlo.binary main_v744 main_v751 main_v752 (addi : (⟨S7, .i32⟩ : BufTy).Contents (Elt F) → (⟨S7, .i32⟩ : BufTy).Contents (Elt F) → (⟨S7, .i32⟩ : BufTy).Contents (Elt F)),
    StableHlo.unary main_v752 main_v753 (negi : (⟨S7, .i32⟩ : BufTy).Contents (Elt F) → (⟨S7, .i32⟩ : BufTy).Contents (Elt F)),
    StableHlo.unary main_v742 main_v754 (broadcastInDim S7 ![] bcast_S_S7 : (⟨S_, .i32⟩ : BufTy).Contents (Elt F) → (⟨S7, .i32⟩ : BufTy).Contents (Elt F)),
    StableHlo.binary main_v753 main_v754 main_v755 (muli : (⟨S7, .i32⟩ : BufTy).Contents (Elt F) → (⟨S7, .i32⟩ : BufTy).Contents (Elt F) → (⟨S7, .i32⟩ : BufTy).Contents (Elt F)),
    StableHlo.nullary main_c_98 (constantI S_ 32 7#32) ]
theorem ops14_2_sub : (ops14_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops14_2_fresh : (ops14_2 : List (HloOp τ sig (Elt F))).Forall fun op => op.fresh = ∅ := by
  simp only [List.Forall]; repeat' constructor
theorem ops14_2_keeps : (ops14_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1503 … 1519 of the program (17 of window 14), in order. -/
abbrev ops14_3 : List (HloOp τ sig (Elt F)) :=
  [ StableHlo.TRef.unary (.of main_c_98 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S7, .i32⟩) (broadcastInDim S7 ![] bcast_S_S7),
    StableHlo.TRef.binary (.of main_v755 : StableHlo.TRef sig ⟨S7, .i32⟩) (.of main_call57_v1 : StableHlo.TRef sig ⟨S7, .i32⟩) (.of main_call57_v2 : StableHlo.TRef sig ⟨S7, .i32⟩) Host.divsi,
    StableHlo.TRef.unary (.of main_v755 : StableHlo.TRef sig ⟨S7, .i32⟩) (.of main_call57_v3 : StableHlo.TRef sig ⟨S7, .i32⟩) signi,
    StableHlo.TRef.unary (.of main_call57_v0 : StableHlo.TRef sig ⟨S_, .i32⟩) (.of main_call57_v4 : StableHlo.TRef sig ⟨S_, .i32⟩) signi,
    StableHlo.TRef.unary (.of main_call57_v4 : StableHlo.TRef sig ⟨S_, .i32⟩) (.of main_call57_v5 : StableHlo.TRef sig ⟨S7, .i32⟩) (broadcastInDim S7 ![] bcast_S_S7),
    StableHlo.TRef.binary (.of main_call57_v3 : StableHlo.TRef sig ⟨S7, .i32⟩) (.of main_call57_v5 : StableHlo.TRef sig ⟨S7, .i32⟩) (.of main_call57_v6 : StableHlo.TRef sig ⟨S7, .i1⟩) (cmpi .ne),
    StableHlo.TRef.unary (.of main_call57_v0 : StableHlo.TRef sig ⟨S_, .i32⟩) (.of main_call57_v7 : StableHlo.TRef sig ⟨S7, .i32⟩) (broadcastInDim S7 ![] bcast_S_S7),
    StableHlo.TRef.binary (.of main_v755 : StableHlo.TRef sig ⟨S7, .i32⟩) (.of main_call57_v7 : StableHlo.TRef sig ⟨S7, .i32⟩) (.of main_call57_v8 : StableHlo.TRef sig ⟨S7, .i32⟩) Host.remsi,
    StableHlo.TRef.nullary (.of main_call57_c : StableHlo.TRef sig ⟨S_, .i32⟩) (constantI S_ 32 0#32),
    StableHlo.TRef.unary (.of main_call57_c : StableHlo.TRef sig ⟨S_, .i32⟩) (.of main_call57_v9 : StableHlo.TRef sig ⟨S7, .i32⟩) (broadcastInDim S7 ![] bcast_S_S7),
    StableHlo.TRef.binary (.of main_call57_v8 : StableHlo.TRef sig ⟨S7, .i32⟩) (.of main_call57_v9 : StableHlo.TRef sig ⟨S7, .i32⟩) (.of main_call57_v10 : StableHlo.TRef sig ⟨S7, .i1⟩) (cmpi .ne),
    StableHlo.TRef.binary (.of main_call57_v6 : StableHlo.TRef sig ⟨S7, .i1⟩) (.of main_call57_v10 : StableHlo.TRef sig ⟨S7, .i1⟩) (.of main_call57_v11 : StableHlo.TRef sig ⟨S7, .i1⟩) andi,
    StableHlo.TRef.nullary (.of main_call57_c_0 : StableHlo.TRef sig ⟨S_, .i32⟩) (constantI S_ 32 1#32),
    StableHlo.TRef.unary (.of main_call57_c_0 : StableHlo.TRef sig ⟨S_, .i32⟩) (.of main_call57_v12 : StableHlo.TRef sig ⟨S7, .i32⟩) (broadcastInDim S7 ![] bcast_S_S7),
    StableHlo.TRef.binary (.of main_call57_v2 : StableHlo.TRef sig ⟨S7, .i32⟩) (.of main_call57_v12 : StableHlo.TRef sig ⟨S7, .i32⟩) (.of main_call57_v13 : StableHlo.TRef sig ⟨S7, .i32⟩) subi,
    StableHlo.TRef.ternary (.of main_call57_v11 : StableHlo.TRef sig ⟨S7, .i1⟩) (.of main_call57_v13 : StableHlo.TRef sig ⟨S7, .i32⟩) (.of main_call57_v2 : StableHlo.TRef sig ⟨S7, .i32⟩) (.of main_v756 : StableHlo.TRef sig ⟨S7, .i32⟩) select ]
theorem ops14_3_sub : (ops14_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops14_3_fresh : (ops14_3 : List (HloOp τ sig (Elt F))).Forall fun op => op.fresh = ∅ := by
  simp only [List.Forall]; repeat' constructor
theorem ops14_3_keeps : (ops14_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1520 … 1524 of the program (5 of window 14), in order. -/
abbrev ops14_4 : List (HloOp τ sig (Elt F)) :=
  [ StableHlo.unary main_v726 main_v757 (broadcastInDim S7 ![] bcast_S_S7 : (⟨S_, .i32⟩ : BufTy).Contents (Elt F) → (⟨S7, .i32⟩ : BufTy).Contents (Elt F)),
    StableHlo.binary main_v757 main_v756 main_v758 (subi : (⟨S7, .i32⟩ : BufTy).Contents (Elt F) → (⟨S7, .i32⟩ : BufTy).Contents (Elt F) → (⟨S7, .i32⟩ : BufTy).Contents (Elt F)),
    StableHlo.unary main_v743 main_v759 (broadcastInDim S7 ![] bcast_S_S7 : (⟨S_, .i32⟩ : BufTy).Contents (Elt F) → (⟨S7, .i32⟩ : BufTy).Contents (Elt F)),
    StableHlo.binary main_v745 main_v759 main_v760 (muli : (⟨S7, .i32⟩ : BufTy).Contents (Elt F) → (⟨S7, .i32⟩ : BufTy).Contents (Elt F) → (⟨S7, .i32⟩ : BufTy).Contents (Elt F)),
    StableHlo.nullary main_c_99 (constantI S_ 32 7#32) ]
theorem ops14_4_sub : (ops14_4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops14_4_fresh : (ops14_4 : List (HloOp τ sig (Elt F))).Forall fun op => op.fresh = ∅ := by
  simp only [List.Forall]; repeat' constructor
theorem ops14_4_keeps : (ops14_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1525 … 1541 of the program (17 of window 14), in order. -/
abbrev ops14_5 : List (HloOp τ sig (Elt F)) :=
  [ StableHlo.TRef.unary (.of main_c_99 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S7, .i32⟩) (broadcastInDim S7 ![] bcast_S_S7),
    StableHlo.TRef.binary (.of main_v760 : StableHlo.TRef sig ⟨S7, .i32⟩) (.of main_call58_v1 : StableHlo.TRef sig ⟨S7, .i32⟩) (.of main_call58_v2 : StableHlo.TRef sig ⟨S7, .i32⟩) Host.divsi,
    StableHlo.TRef.unary (.of main_v760 : StableHlo.TRef sig ⟨S7, .i32⟩) (.of main_call58_v3 : StableHlo.TRef sig ⟨S7, .i32⟩) signi,
    StableHlo.TRef.unary (.of main_call58_v0 : StableHlo.TRef sig ⟨S_, .i32⟩) (.of main_call58_v4 : StableHlo.TRef sig ⟨S_, .i32⟩) signi,
    StableHlo.TRef.unary (.of main_call58_v4 : StableHlo.TRef sig ⟨S_, .i32⟩) (.of main_call58_v5 : StableHlo.TRef sig ⟨S7, .i32⟩) (broadcastInDim S7 ![] bcast_S_S7),
    StableHlo.TRef.binary (.of main_call58_v3 : StableHlo.TRef sig ⟨S7, .i32⟩) (.of main_call58_v5 : StableHlo.TRef sig ⟨S7, .i32⟩) (.of main_call58_v6 : StableHlo.TRef sig ⟨S7, .i1⟩) (cmpi .ne),
    StableHlo.TRef.unary (.of main_call58_v0 : StableHlo.TRef sig ⟨S_, .i32⟩) (.of main_call58_v7 : StableHlo.TRef sig ⟨S7, .i32⟩) (broadcastInDim S7 ![] bcast_S_S7),
    StableHlo.TRef.binary (.of main_v760 : StableHlo.TRef sig ⟨S7, .i32⟩) (.of main_call58_v7 : StableHlo.TRef sig ⟨S7, .i32⟩) (.of main_call58_v8 : StableHlo.TRef sig ⟨S7, .i32⟩) Host.remsi,
    StableHlo.TRef.nullary (.of main_call58_c : StableHlo.TRef sig ⟨S_, .i32⟩) (constantI S_ 32 0#32),
    StableHlo.TRef.unary (.of main_call58_c : StableHlo.TRef sig ⟨S_, .i32⟩) (.of main_call58_v9 : StableHlo.TRef sig ⟨S7, .i32⟩) (broadcastInDim S7 ![] bcast_S_S7),
    StableHlo.TRef.binary (.of main_call58_v8 : StableHlo.TRef sig ⟨S7, .i32⟩) (.of main_call58_v9 : StableHlo.TRef sig ⟨S7, .i32⟩) (.of main_call58_v10 : StableHlo.TRef sig ⟨S7, .i1⟩) (cmpi .ne),
    StableHlo.TRef.binary (.of main_call58_v6 : StableHlo.TRef sig ⟨S7, .i1⟩) (.of main_call58_v10 : StableHlo.TRef sig ⟨S7, .i1⟩) (.of main_call58_v11 : StableHlo.TRef sig ⟨S7, .i1⟩) andi,
    StableHlo.TRef.nullary (.of main_call58_c_0 : StableHlo.TRef sig ⟨S_, .i32⟩) (constantI S_ 32 1#32),
    StableHlo.TRef.unary (.of main_call58_c_0 : StableHlo.TRef sig ⟨S_, .i32⟩) (.of main_call58_v12 : StableHlo.TRef sig ⟨S7, .i32⟩) (broadcastInDim S7 ![] bcast_S_S7),
    StableHlo.TRef.binary (.of main_call58_v2 : StableHlo.TRef sig ⟨S7, .i32⟩) (.of main_call58_v12 : StableHlo.TRef sig ⟨S7, .i32⟩) (.of main_call58_v13 : StableHlo.TRef sig ⟨S7, .i32⟩) subi,
    StableHlo.TRef.ternary (.of main_call58_v11 : StableHlo.TRef sig ⟨S7, .i1⟩) (.of main_call58_v13 : StableHlo.TRef sig ⟨S7, .i32⟩) (.of main_call58_v2 : StableHlo.TRef sig ⟨S7, .i32⟩) (.of main_v761 : StableHlo.TRef sig ⟨S7, .i32⟩) select ]
theorem ops14_5_sub : (ops14_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops14_5_fresh : (ops14_5 : List (HloOp τ sig (Elt F))).Forall fun op => op.fresh = ∅ := by
  simp only [List.Forall]; repeat' constructor
theorem ops14_5_keeps : (ops14_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1542 … 1550 of the program (9 of window 14), in order. -/
abbrev ops14_6 : List (HloOp τ sig (Elt F)) :=
  [ StableHlo.unary main_v736 main_v762 (broadcastInDim S7 ![] bcast_S_S7 : (⟨S_, .i32⟩ : BufTy).Contents (Elt F) → (⟨S7, .i32⟩ : BufTy).Contents (Elt F)),
    StableHlo.binary main_v762 main_v761 main_v763 (addi : (⟨S7, .i32⟩ : BufTy).Contents (Elt F) → (⟨S7, .i32⟩ : BufTy).Contents (Elt F) → (⟨S7, .i32⟩ : BufTy).Contents (Elt F)),
    StableHlo.nullary main_c_100 (constantI S_ 32 1#32),
    StableHlo.unary main_c_100 main_v764 (broadcastInDim S7 ![] bcast_S_S7 : (⟨S_, .i32⟩ : BufTy).Contents (Elt F) → (⟨S7, .i32⟩ : BufTy).Contents (Elt F)),
    StableHlo.binary main_v745 main_v764 main_v765 (addi : (⟨S7, .i32⟩ : BufTy).Contents (Elt F) → (⟨S7, .i32⟩ : BufTy).Contents (Elt F) → (⟨S7, .i32⟩ : BufTy).Contents (Elt F)),
    StableHlo.unary main_v765 main_v766 (negi : (⟨S7, .i32⟩ : BufTy).Contents (Elt F) → (⟨S7, .i32⟩ : BufTy).Contents (Elt F)),
    StableHlo.unary main_v743 main_v767 (broadcastInDim S7 ![] bcast_S_S7 : (⟨S_, .i32⟩ : BufTy).Contents (Elt F) → (⟨S7, .i32⟩ : BufTy).Contents (Elt F)),
    StableHlo.binary main_v766 main_v767 main_v768 (muli : (⟨S7, .i32⟩ : BufTy).Contents (Elt F) → (⟨S7, .i32⟩ : BufTy).Contents (Elt F) → (⟨S7, .i32⟩ : BufTy).Contents (Elt F)),
    StableHlo.nullary main_c_101 (constantI S_ 32 7#32) ]
theorem ops14_6_sub : (ops14_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops14_6_fresh : (ops14_6 : List (HloOp τ sig (Elt F))).Forall fun op => op.fresh = ∅ := by
  simp only [List.Forall]; repeat' constructor
theorem ops14_6_keeps : (ops14_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1551 … 1567 of the program (17 of window 14), in order. -/
abbrev ops14_7 : List (HloOp τ sig (Elt F)) :=
  [ StableHlo.TRef.unary (.of main_c_101 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S7, .i32⟩) (broadcastInDim S7 ![] bcast_S_S7),
    StableHlo.TRef.binary (.of main_v768 : StableHlo.TRef sig ⟨S7, .i32⟩) (.of main_call59_v1 : StableHlo.TRef sig ⟨S7, .i32⟩) (.of main_call59_v2 : StableHlo.TRef sig ⟨S7, .i32⟩) Host.divsi,
    StableHlo.TRef.unary (.of main_v768 : StableHlo.TRef sig ⟨S7, .i32⟩) (.of main_call59_v3 : StableHlo.TRef sig ⟨S7, .i32⟩) signi,
    StableHlo.TRef.unary (.of main_call59_v0 : StableHlo.TRef sig ⟨S_, .i32⟩) (.of main_call59_v4 : StableHlo.TRef sig ⟨S_, .i32⟩) signi,
    StableHlo.TRef.unary (.of main_call59_v4 : StableHlo.TRef sig ⟨S_, .i32⟩) (.of main_call59_v5 : StableHlo.TRef sig ⟨S7, .i32⟩) (broadcastInDim S7 ![] bcast_S_S7),
    StableHlo.TRef.binary (.of main_call59_v3 : StableHlo.TRef sig ⟨S7, .i32⟩) (.of main_call59_v5 : StableHlo.TRef sig ⟨S7, .i32⟩) (.of main_call59_v6 : StableHlo.TRef sig ⟨S7, .i1⟩) (cmpi .ne),
    StableHlo.TRef.unary (.of main_call59_v0 : StableHlo.TRef sig ⟨S_, .i32⟩) (.of main_call59_v7 : StableHlo.TRef sig ⟨S7, .i32⟩) (broadcastInDim S7 ![] bcast_S_S7),
    StableHlo.TRef.binary (.of main_v768 : StableHlo.TRef sig ⟨S7, .i32⟩) (.of main_call59_v7 : StableHlo.TRef sig ⟨S7, .i32⟩) (.of main_call59_v8 : StableHlo.TRef sig ⟨S7, .i32⟩) Host.remsi,
    StableHlo.TRef.nullary (.of main_call59_c : StableHlo.TRef sig ⟨S_, .i32⟩) (constantI S_ 32 0#32),
    StableHlo.TRef.unary (.of main_call59_c : StableHlo.TRef sig ⟨S_, .i32⟩) (.of main_call59_v9 : StableHlo.TRef sig ⟨S7, .i32⟩) (broadcastInDim S7 ![] bcast_S_S7),
    StableHlo.TRef.binary (.of main_call59_v8 : StableHlo.TRef sig ⟨S7, .i32⟩) (.of main_call59_v9 : StableHlo.TRef sig ⟨S7, .i32⟩) (.of main_call59_v10 : StableHlo.TRef sig ⟨S7, .i1⟩) (cmpi .ne),
    StableHlo.TRef.binary (.of main_call59_v6 : StableHlo.TRef sig ⟨S7, .i1⟩) (.of main_call59_v10 : StableHlo.TRef sig ⟨S7, .i1⟩) (.of main_call59_v11 : StableHlo.TRef sig ⟨S7, .i1⟩) andi,
    StableHlo.TRef.nullary (.of main_call59_c_0 : StableHlo.TRef sig ⟨S_, .i32⟩) (constantI S_ 32 1#32),
    StableHlo.TRef.unary (.of main_call59_c_0 : StableHlo.TRef sig ⟨S_, .i32⟩) (.of main_call59_v12 : StableHlo.TRef sig ⟨S7, .i32⟩) (broadcastInDim S7 ![] bcast_S_S7),
    StableHlo.TRef.binary (.of main_call59_v2 : StableHlo.TRef sig ⟨S7, .i32⟩) (.of main_call59_v12 : StableHlo.TRef sig ⟨S7, .i32⟩) (.of main_call59_v13 : StableHlo.TRef sig ⟨S7, .i32⟩) subi,
    StableHlo.TRef.ternary (.of main_call59_v11 : StableHlo.TRef sig ⟨S7, .i1⟩) (.of main_call59_v13 : StableHlo.TRef sig ⟨S7, .i32⟩) (.of main_call59_v2 : StableHlo.TRef sig ⟨S7, .i32⟩) (.of main_v769 : StableHlo.TRef sig ⟨S7, .i32⟩) select ]
theorem ops14_7_sub : (ops14_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops14_7_fresh : (ops14_7 : List (HloOp τ sig (Elt F))).Forall fun op => op.fresh = ∅ := by
  simp only [List.Forall]; repeat' constructor
theorem ops14_7_keeps : (ops14_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1568 … 1593 of the program (26 of window 14), in order. -/
abbrev ops14_8 : List (HloOp τ sig (Elt F)) :=
  [ StableHlo.unary main_v736 main_v770 (broadcastInDim S7 ![] bcast_S_S7 : (⟨S_, .i32⟩ : BufTy).Contents (Elt F) → (⟨S7, .i32⟩ : BufTy).Contents (Elt F)),
    StableHlo.binary main_v770 main_v769 main_v771 (subi : (⟨S7, .i32⟩ : BufTy).Contents (Elt F) → (⟨S7, .i32⟩ : BufTy).Contents (Elt F) → (⟨S7, .i32⟩ : BufTy).Contents (Elt F)),
    StableHlo.nullary main_v772 (iotaInDim S64 32 0),
    StableHlo.nullary main_v773 (iotaInDim S64 32 0),
    StableHlo.unary main_v772 main_v774 (broadcastInDim S1x64 ![1] bcast_S64_S1x64_1 : (⟨S64, .i32⟩ : BufTy).Contents (Elt F) → (⟨S1x64, .i32⟩ : BufTy).Contents (Elt F)),
    StableHlo.unary main_v750 main_v775 (broadcastInDim S7x1 ![0] bcast_S7_S7x1_0 : (⟨S7, .i32⟩ : BufTy).Contents (Elt F) → (⟨S7x1, .i32⟩ : BufTy).Contents (Elt F)),
    StableHlo.unary main_v774 main_v776 (broadcastInDim S7x64 ![0, 1] bcast_S1x64_S7x64_0_1 : (⟨S1x64, .i32⟩ : BufTy).Contents (Elt F) → (⟨S7x64, .i32⟩ : BufTy).Contents (Elt F)),
    StableHlo.unary main_v775 main_v777 (broadcastInDim S7x64 ![0, 1] bcast_S7x1_S7x64_0_1 : (⟨S7x1, .i32⟩ : BufTy).Contents (Elt F) → (⟨S7x64, .i32⟩ : BufTy).Contents (Elt F)),
    StableHlo.binary main_v776 main_v777 main_v778 (cmpi .sge : (⟨S7x64, .i32⟩ : BufTy).Contents (Elt F) → (⟨S7x64, .i32⟩ : BufTy).Contents (Elt F) → (⟨S7x64, .i1⟩ : BufTy).Contents (Elt F)),
    StableHlo.unary main_v772 main_v779 (broadcastInDim S1x64 ![1] bcast_S64_S1x64_1 : (⟨S64, .i32⟩ : BufTy).Contents (Elt F) → (⟨S1x64, .i32⟩ : BufTy).Contents (Elt F)),
    StableHlo.unary main_v758 main_v780 (broadcastInDim S7x1 ![0] bcast_S7_S7x1_0 : (⟨S7, .i32⟩ : BufTy).Contents (Elt F) → (⟨S7x1, .i32⟩ : BufTy).Contents (Elt F)),
    StableHlo.unary main_v779 main_v781 (broadcastInDim S7x64 ![0, 1] bcast_S1x64_S7x64_0_1 : (⟨S1x64, .i32⟩ : BufTy).Contents (Elt F) → (⟨S7x64, .i32⟩ : BufTy).Contents (Elt F)),
    StableHlo.unary main_v780 main_v782 (broadcastInDim S7x64 ![0, 1] bcast_S7x1_S7x64_0_1 : (⟨S7x1, .i32⟩ : BufTy).Contents (Elt F) → (⟨S7x64, .i32⟩ : BufTy).Contents (Elt F)),
    StableHlo.binary main_v781 main_v782 main_v783 (cmpi .slt : (⟨S7x64, .i32⟩ : BufTy).Contents (Elt F) → (⟨S7x64, .i32⟩ : BufTy).Contents (Elt F) → (⟨S7x64, .i1⟩ : BufTy).Contents (Elt F)),
    StableHlo.binary main_v778 main_v783 main_v784 (andi : (⟨S7x64, .i1⟩ : BufTy).Contents (Elt F) → (⟨S7x64, .i1⟩ : BufTy).Contents (Elt F) → (⟨S7x64, .i1⟩ : BufTy).Contents (Elt F)),
    StableHlo.unary main_v773 main_v785 (broadcastInDim S1x64 ![1] bcast_S64_S1x64_1 : (⟨S64, .i32⟩ : BufTy).Contents (Elt F) → (⟨S1x64, .i32⟩ : BufTy).Contents (Elt F)),
    StableHlo.unary main_v763 main_v786 (broadcastInDim S7x1 ![0] bcast_S7_S7x1_0 : (⟨S7, .i32⟩ : BufTy).Contents (Elt F) → (⟨S7x1, .i32⟩ : BufTy).Contents (Elt F)),
    StableHlo.unary main_v785 main_v787 (broadcastInDim S7x64 ![0, 1] bcast_S1x64_S7x64_0_1 : (⟨S1x64, .i32⟩ : BufTy).Contents (Elt F) → (⟨S7x64, .i32⟩ : BufTy).Contents (Elt F)),
    StableHlo.unary main_v786 main_v788 (broadcastInDim S7x64 ![0, 1] bcast_S7x1_S7x64_0_1 : (⟨S7x1, .i32⟩ : BufTy).Contents (Elt F) → (⟨S7x64, .i32⟩ : BufTy).Contents (Elt F)),
    StableHlo.binary main_v787 main_v788 main_v789 (cmpi .sge : (⟨S7x64, .i32⟩ : BufTy).Contents (Elt F) → (⟨S7x64, .i32⟩ : BufTy).Contents (Elt F) → (⟨S7x64, .i1⟩ : BufTy).Contents (Elt F)),
    StableHlo.unary main_v773 main_v790 (broadcastInDim S1x64 ![1] bcast_S64_S1x64_1 : (⟨S64, .i32⟩ : BufTy).Contents (Elt F) → (⟨S1x64, .i32⟩ : BufTy).Contents (Elt F)),
    StableHlo.unary main_v771 main_v791 (broadcastInDim S7x1 ![0] bcast_S7_S7x1_0 : (⟨S7, .i32⟩ : BufTy).Contents (Elt F) → (⟨S7x1, .i32⟩ : BufTy).Contents (Elt F)),
    StableHlo.unary main_v790 main_v792 (broadcastInDim S7x64 ![0, 1] bcast_S1x64_S7x64_0_1 : (⟨S1x64, .i32⟩ : BufTy).Contents (Elt F) → (⟨S7x64, .i32⟩ : BufTy).Contents (Elt F)),
    StableHlo.unary main_v791 main_v793 (broadcastInDim S7x64 ![0, 1] bcast_S7x1_S7x64_0_1 : (⟨S7x1, .i32⟩ : BufTy).Contents (Elt F) → (⟨S7x64, .i32⟩ : BufTy).Contents (Elt F)),
    StableHlo.binary main_v792 main_v793 main_v794 (cmpi .slt : (⟨S7x64, .i32⟩ : BufTy).Contents (Elt F) → (⟨S7x64, .i32⟩ : BufTy).Contents (Elt F) → (⟨S7x64, .i1⟩ : BufTy).Contents (Elt F)),
    StableHlo.binary main_v789 main_v794 main_v795 (andi : (⟨S7x64, .i1⟩ : BufTy).Contents (Elt F) → (⟨S7x64, .i1⟩ : BufTy).Contents (Elt F) → (⟨S7x64, .i1⟩ : BufTy).Contents (Elt F)) ]
theorem ops14_8_sub : (ops14_8 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub ..⟩
theorem ops14_8_fresh : (ops14_8 : List (HloOp τ sig (Elt F))).Forall fun op => op.fresh = ∅ := by
  simp only [List.Forall]; repeat' constructor
theorem ops14_8_keeps : (ops14_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops14_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part14_eq (c : Dev nD) : main_part14 (F := F) c = Pipeline.chainK [StableHlo.seq ops14_0, StableHlo.seq ops14_1, StableHlo.seq ops14_2, StableHlo.seq ops14_3, StableHlo.seq ops14_4, StableHlo.seq ops14_5, StableHlo.seq ops14_6, StableHlo.seq ops14_7] (StableHlo.seq ops14_8) := by
  chain_rfl

end Cert.ReferenceIdeal.Host

end
-- ==== Proof.RefOps15.lean ====
/- Window 15 of the program's @main, every called function's body written out in place: 114 operations,
  cut into 11 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1594 … 1596 of the program (3 of window 15), in order. -/
abbrev ops15_0 : List (HloOp τ sig (Elt F)) :=
  [ StableHlo.unary main_v784 main_v796 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v797 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_102 (constant S_ .f32 0xFF800000#32) ]
theorem ops15_0_sub : (ops15_0 : List (HloOp τ sig (Elt F))).Forall fun op => op.bufs ⊆ StableHlo.tcRefs τ sig :=
  ⟨StableHlo.unary_bufs_sub .., StableHlo.unary_bufs_sub .., StableHlo.nullary_bufs_sub ..⟩
theorem ops15_0_fresh : (ops15_0 : List (HloOp τ sig (Elt F))).Forall fun op => op.fresh = ∅ := by
  simp only [List.Forall]; repeat' constructor
theorem ops15_0_keeps : (ops15_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1597 … 1600 of the program (4 of window 15), in order. -/
abbrev ops15_1 : List (HloOp τ sig (Elt F)) :=
  [ StableHlo.TRef.unary (.of main_v796 : StableHlo.TRef sig ⟨S7x1x64x1, .i1⟩) (.of main_call60_v0 : StableHlo.TRef sig ⟨S7x512x64x64, .i1⟩) (broadcastInDim S7x512x64x64 ![0, 1, 2, 3] bcast_S7x1x64x1_S7x512x64x64_0_1_2_3),
    StableHlo.TRef.unary (.of main_v797 : StableHlo.TRef sig ⟨S1x512x64x64, .f32⟩) (.of main_call60_v1 : StableHlo.TRef sig ⟨S7x512x64x64, .f32⟩) (broadcastInDim S7x512x64x64 ![0, 1, 2, 3] bcast_S1x512x64x64_S7x512x64x64_0_1_2_3),
    StableHlo.TRef.unary (.of main_cst_102 : StableHlo.TRef sig ⟨S_, .f32⟩) (.of main_call60_v2 : StableHlo.TRef sig ⟨S7x512x64x64, .f32⟩) (broadcastInDim S7x512x64x64 ![] bcast_S_S7x512x64x64),
    StableHlo.TRef.ternary (.of main_call60_v0 : StableHlo.TRef sig ⟨S7x512x64x64, .i1⟩) (.of main_call60_v1 : StableHlo.TRef sig ⟨S7x512x64x64, .f32⟩) (.of main_call60_v2 : StableHlo.TRef sig ⟨S7x512x64x64, .f32⟩) (.of main_v798 : StableHlo.TRef sig ⟨S7x512x64x64, .f32⟩) select ]
theorem ops15_1_sub : (ops15_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops15_1_fresh : (ops15_1 : List (HloOp τ sig (Elt F))).Forall fun op => op.fresh = ∅ := by
  simp only [List.Forall]; repeat' constructor
theorem ops15_1_keeps : (ops15_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1601 … 1605 of the program (5 of window 15), in order. -/
abbrev ops15_2 : List (HloOp τ sig (Elt F)) :=
  [ StableHlo.nullary main_cst_103 (constant S_ .f32 0xFF800000#32),
    StableHlo.binary main_v798 main_cst_103 main_v799 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v795 main_v800 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v799 main_v801 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_104 (constant S_ .f32 0xFF800000#32) ]
theorem ops15_2_sub : (ops15_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops15_2_fresh : (ops15_2 : List (HloOp τ sig (Elt F))).Forall fun op => op.fresh = ∅ := by
  simp only [List.Forall]; repeat' constructor
theorem ops15_2_keeps : (ops15_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1606 … 1609 of the program (4 of window 15), in order. -/
abbrev ops15_3 : List (HloOp τ sig (Elt F)) :=
  [ StableHlo.TRef.unary (.of main_v800 : StableHlo.TRef sig ⟨S1x1x7x64, .i1⟩) (.of main_call61_v0 : StableHlo.TRef sig ⟨S7x512x7x64, .i1⟩) (broadcastInDim S7x512x7x64 ![0, 1, 2, 3] bcast_S1x1x7x64_S7x512x7x64_0_1_2_3),
    StableHlo.TRef.unary (.of main_v801 : StableHlo.TRef sig ⟨S7x512x1x64, .f32⟩) (.of main_call61_v1 : StableHlo.TRef sig ⟨S7x512x7x64, .f32⟩) (broadcastInDim S7x512x7x64 ![0, 1, 2, 3] bcast_S7x512x1x64_S7x512x7x64_0_1_2_3),
    StableHlo.TRef.unary (.of main_cst_104 : StableHlo.TRef sig ⟨S_, .f32⟩) (.of main_call61_v2 : StableHlo.TRef sig ⟨S7x512x7x64, .f32⟩) (broadcastInDim S7x512x7x64 ![] bcast_S_S7x512x7x64),
    StableHlo.TRef.ternary (.of main_call61_v0 : StableHlo.TRef sig ⟨S7x512x7x64, .i1⟩) (.of main_call61_v1 : StableHlo.TRef sig ⟨S7x512x7x64, .f32⟩) (.of main_call61_v2 : StableHlo.TRef sig ⟨S7x512x7x64, .f32⟩) (.of main_v802 : StableHlo.TRef sig ⟨S7x512x7x64, .f32⟩) select ]
theorem ops15_3_sub : (ops15_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops15_3_fresh : (ops15_3 : List (HloOp τ sig (Elt F))).Forall fun op => op.fresh = ∅ := by
  simp only [List.Forall]; repeat' constructor
theorem ops15_3_keeps : (ops15_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1610 … 1640 of the program (31 of window 15), in order. -/
abbrev ops15_4 : List (HloOp τ sig (Elt F)) :=
  [ StableHlo.nullary main_cst_105 (constant S_ .f32 0xFF800000#32),
    StableHlo.binary main_v802 main_cst_105 main_v803 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v803 main_v804 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v804 main_v805 rfl shapeCasts_S512x7x7_S25088,
    StableHlo.unary main_v18 main_v806 ((extractStridedSlice S1x1 ![1, 1] · slices_S3x4_S1x1_1_1) : (⟨S3x4, .i32⟩ : BufTy).Contents (Elt F) → (⟨S1x1, .i32⟩ : BufTy).Contents (Elt F)),
    StableHlo.reshape main_v806 main_v807 rfl shapeCasts_S1x1_S_,
    StableHlo.unary main_v23 main_v808 ((extractStridedSlice S1x1 ![2, 1] · slices_S4x4_S1x1_2_1) : (⟨S4x4, .i32⟩ : BufTy).Contents (Elt F) → (⟨S1x1, .i32⟩ : BufTy).Contents (Elt F)),
    StableHlo.reshape main_v808 main_v809 rfl shapeCasts_S1x1_S_,
    StableHlo.binary main_v807 main_v809 main_v810 (minsi : (⟨S_, .i32⟩ : BufTy).Contents (Elt F) → (⟨S_, .i32⟩ : BufTy).Contents (Elt F) → (⟨S_, .i32⟩ : BufTy).Contents (Elt F)),
    StableHlo.unary main_v18 main_v811 ((extractStridedSlice S1x1 ![1, 3] · slices_S3x4_S1x1_1_3) : (⟨S3x4, .i32⟩ : BufTy).Contents (Elt F) → (⟨S1x1, .i32⟩ : BufTy).Contents (Elt F)),
    StableHlo.reshape main_v811 main_v812 rfl shapeCasts_S1x1_S_,
    StableHlo.unary main_v23 main_v813 ((extractStridedSlice S1x1 ![2, 3] · slices_S4x4_S1x1_2_3) : (⟨S4x4, .i32⟩ : BufTy).Contents (Elt F) → (⟨S1x1, .i32⟩ : BufTy).Contents (Elt F)),
    StableHlo.reshape main_v813 main_v814 rfl shapeCasts_S1x1_S_,
    StableHlo.binary main_v812 main_v814 main_v815 (maxsi : (⟨S_, .i32⟩ : BufTy).Contents (Elt F) → (⟨S_, .i32⟩ : BufTy).Contents (Elt F) → (⟨S_, .i32⟩ : BufTy).Contents (Elt F)),
    StableHlo.unary main_v18 main_v816 ((extractStridedSlice S1x1 ![1, 0] · slices_S3x4_S1x1_1_0) : (⟨S3x4, .i32⟩ : BufTy).Contents (Elt F) → (⟨S1x1, .i32⟩ : BufTy).Contents (Elt F)),
    StableHlo.reshape main_v816 main_v817 rfl shapeCasts_S1x1_S_,
    StableHlo.unary main_v23 main_v818 ((extractStridedSlice S1x1 ![2, 0] · slices_S4x4_S1x1_2_0) : (⟨S4x4, .i32⟩ : BufTy).Contents (Elt F) → (⟨S1x1, .i32⟩ : BufTy).Contents (Elt F)),
    StableHlo.reshape main_v818 main_v819 rfl shapeCasts_S1x1_S_,
    StableHlo.binary main_v817 main_v819 main_v820 (minsi : (⟨S_, .i32⟩ : BufTy).Contents (Elt F) → (⟨S_, .i32⟩ : BufTy).Contents (Elt F) → (⟨S_, .i32⟩ : BufTy).Contents (Elt F)),
    StableHlo.unary main_v18 main_v821 ((extractStridedSlice S1x1 ![1, 2] · slices_S3x4_S1x1_1_2) : (⟨S3x4, .i32⟩ : BufTy).Contents (Elt F) → (⟨S1x1, .i32⟩ : BufTy).Contents (Elt F)),
    StableHlo.reshape main_v821 main_v822 rfl shapeCasts_S1x1_S_,
    StableHlo.unary main_v23 main_v823 ((extractStridedSlice S1x1 ![2, 2] · slices_S4x4_S1x1_2_2) : (⟨S4x4, .i32⟩ : BufTy).Contents (Elt F) → (⟨S1x1, .i32⟩ : BufTy).Contents (Elt F)),
    StableHlo.reshape main_v823 main_v824 rfl shapeCasts_S1x1_S_,
    StableHlo.binary main_v822 main_v824 main_v825 (maxsi : (⟨S_, .i32⟩ : BufTy).Contents (Elt F) → (⟨S_, .i32⟩ : BufTy).Contents (Elt F) → (⟨S_, .i32⟩ : BufTy).Contents (Elt F)),
    StableHlo.binary main_v815 main_v810 main_v826 (subi : (⟨S_, .i32⟩ : BufTy).Contents (Elt F) → (⟨S_, .i32⟩ : BufTy).Contents (Elt F) → (⟨S_, .i32⟩ : BufTy).Contents (Elt F)),
    StableHlo.binary main_v825 main_v820 main_v827 (subi : (⟨S_, .i32⟩ : BufTy).Contents (Elt F) → (⟨S_, .i32⟩ : BufTy).Contents (Elt F) → (⟨S_, .i32⟩ : BufTy).Contents (Elt F)),
    StableHlo.nullary main_v828 (iotaInDim S7 32 0),
    StableHlo.nullary main_v829 (iotaInDim S7 32 0),
    StableHlo.unary main_v826 main_v830 (broadcastInDim S7 ![] bcast_S_S7 : (⟨S_, .i32⟩ : BufTy).Contents (Elt F) → (⟨S7, .i32⟩ : BufTy).Contents (Elt F)),
    StableHlo.binary main_v828 main_v830 main_v831 (muli : (⟨S7, .i32⟩ : BufTy).Contents (Elt F) → (⟨S7, .i32⟩ : BufTy).Contents (Elt F) → (⟨S7, .i32⟩ : BufTy).Contents (Elt F)),
    StableHlo.nullary main_c_106 (constantI S_ 32 7#32) ]
theorem ops15_4_sub : (ops15_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops15_4_fresh : (ops15_4 : List (HloOp τ sig (Elt F))).Forall fun op => op.fresh = ∅ := by
  simp only [List.Forall]; repeat' constructor
theorem ops15_4_keeps : (ops15_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1641 … 1657 of the program (17 of window 15), in order. -/
abbrev ops15_5 : List (HloOp τ sig (Elt F)) :=
  [ StableHlo.TRef.unary (.of main_c_106 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S7, .i32⟩) (broadcastInDim S7 ![] bcast_S_S7),
    StableHlo.TRef.binary (.of main_v831 : StableHlo.TRef sig ⟨S7, .i32⟩) (.of main_call62_v1 : StableHlo.TRef sig ⟨S7, .i32⟩) (.of main_call62_v2 : StableHlo.TRef sig ⟨S7, .i32⟩) Host.divsi,
    StableHlo.TRef.unary (.of main_v831 : StableHlo.TRef sig ⟨S7, .i32⟩) (.of main_call62_v3 : StableHlo.TRef sig ⟨S7, .i32⟩) signi,
    StableHlo.TRef.unary (.of main_call62_v0 : StableHlo.TRef sig ⟨S_, .i32⟩) (.of main_call62_v4 : StableHlo.TRef sig ⟨S_, .i32⟩) signi,
    StableHlo.TRef.unary (.of main_call62_v4 : StableHlo.TRef sig ⟨S_, .i32⟩) (.of main_call62_v5 : StableHlo.TRef sig ⟨S7, .i32⟩) (broadcastInDim S7 ![] bcast_S_S7),
    StableHlo.TRef.binary (.of main_call62_v3 : StableHlo.TRef sig ⟨S7, .i32⟩) (.of main_call62_v5 : StableHlo.TRef sig ⟨S7, .i32⟩) (.of main_call62_v6 : StableHlo.TRef sig ⟨S7, .i1⟩) (cmpi .ne),
    StableHlo.TRef.unary (.of main_call62_v0 : StableHlo.TRef sig ⟨S_, .i32⟩) (.of main_call62_v7 : StableHlo.TRef sig ⟨S7, .i32⟩) (broadcastInDim S7 ![] bcast_S_S7),
    StableHlo.TRef.binary (.of main_v831 : StableHlo.TRef sig ⟨S7, .i32⟩) (.of main_call62_v7 : StableHlo.TRef sig ⟨S7, .i32⟩) (.of main_call62_v8 : StableHlo.TRef sig ⟨S7, .i32⟩) Host.remsi,
    StableHlo.TRef.nullary (.of main_call62_c : StableHlo.TRef sig ⟨S_, .i32⟩) (constantI S_ 32 0#32),
    StableHlo.TRef.unary (.of main_call62_c : StableHlo.TRef sig ⟨S_, .i32⟩) (.of main_call62_v9 : StableHlo.TRef sig ⟨S7, .i32⟩) (broadcastInDim S7 ![] bcast_S_S7),
    StableHlo.TRef.binary (.of main_call62_v8 : StableHlo.TRef sig ⟨S7, .i32⟩) (.of main_call62_v9 : StableHlo.TRef sig ⟨S7, .i32⟩) (.of main_call62_v10 : StableHlo.TRef sig ⟨S7, .i1⟩) (cmpi .ne),
    StableHlo.TRef.binary (.of main_call62_v6 : StableHlo.TRef sig ⟨S7, .i1⟩) (.of main_call62_v10 : StableHlo.TRef sig ⟨S7, .i1⟩) (.of main_call62_v11 : StableHlo.TRef sig ⟨S7, .i1⟩) andi,
    StableHlo.TRef.nullary (.of main_call62_c_0 : StableHlo.TRef sig ⟨S_, .i32⟩) (constantI S_ 32 1#32),
    StableHlo.TRef.unary (.of main_call62_c_0 : StableHlo.TRef sig ⟨S_, .i32⟩) (.of main_call62_v12 : StableHlo.TRef sig ⟨S7, .i32⟩) (broadcastInDim S7 ![] bcast_S_S7),
    StableHlo.TRef.binary (.of main_call62_v2 : StableHlo.TRef sig ⟨S7, .i32⟩) (.of main_call62_v12 : StableHlo.TRef sig ⟨S7, .i32⟩) (.of main_call62_v13 : StableHlo.TRef sig ⟨S7, .i32⟩) subi,
    StableHlo.TRef.ternary (.of main_call62_v11 : StableHlo.TRef sig ⟨S7, .i1⟩) (.of main_call62_v13 : StableHlo.TRef sig ⟨S7, .i32⟩) (.of main_call62_v2 : StableHlo.TRef sig ⟨S7, .i32⟩) (.of main_v832 : StableHlo.TRef sig ⟨S7, .i32⟩) select ]
theorem ops15_5_sub : (ops15_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops15_5_fresh : (ops15_5 : List (HloOp τ sig (Elt F))).Forall fun op => op.fresh = ∅ := by
  simp only [List.Forall]; repeat' constructor
theorem ops15_5_keeps : (ops15_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1658 … 1666 of the program (9 of window 15), in order. -/
abbrev ops15_6 : List (HloOp τ sig (Elt F)) :=
  [ StableHlo.unary main_v810 main_v833 (broadcastInDim S7 ![] bcast_S_S7 : (⟨S_, .i32⟩ : BufTy).Contents (Elt F) → (⟨S7, .i32⟩ : BufTy).Contents (Elt F)),
    StableHlo.binary main_v833 main_v832 main_v834 (addi : (⟨S7, .i32⟩ : BufTy).Contents (Elt F) → (⟨S7, .i32⟩ : BufTy).Contents (Elt F) → (⟨S7, .i32⟩ : BufTy).Contents (Elt F)),
    StableHlo.nullary main_c_107 (constantI S_ 32 1#32),
    StableHlo.unary main_c_107 main_v835 (broadcastInDim S7 ![] bcast_S_S7 : (⟨S_, .i32⟩ : BufTy).Contents (Elt F) → (⟨S7, .i32⟩ : BufTy).Contents (Elt F)),
    StableHlo.binary main_v828 main_v835 main_v836 (addi : (⟨S7, .i32⟩ : BufTy).Contents (Elt F) → (⟨S7, .i32⟩ : BufTy).Contents (Elt F) → (⟨S7, .i32⟩ : BufTy).Contents (Elt F)),
    StableHlo.unary main_v836 main_v837 (negi : (⟨S7, .i32⟩ : BufTy).Contents (Elt F) → (⟨S7, .i32⟩ : BufTy).Contents (Elt F)),
    StableHlo.unary main_v826 main_v838 (broadcastInDim S7 ![] bcast_S_S7 : (⟨S_, .i32⟩ : BufTy).Contents (Elt F) → (⟨S7, .i32⟩ : BufTy).Contents (Elt F)),
    StableHlo.binary main_v837 main_v838 main_v839 (muli : (⟨S7, .i32⟩ : BufTy).Contents (Elt F) → (⟨S7, .i32⟩ : BufTy).Contents (Elt F) → (⟨S7, .i32⟩ : BufTy).Contents (Elt F)),
    StableHlo.nullary main_c_108 (constantI S_ 32 7#32) ]
theorem ops15_6_sub : (ops15_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops15_6_fresh : (ops15_6 : List (HloOp τ sig (Elt F))).Forall fun op => op.fresh = ∅ := by
  simp only [List.Forall]; repeat' constructor
theorem ops15_6_keeps : (ops15_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1667 … 1683 of the program (17 of window 15), in order. -/
abbrev ops15_7 : List (HloOp τ sig (Elt F)) :=
  [ StableHlo.TRef.unary (.of main_c_108 : StableHlo.TRef sig ⟨S_, .i32⟩) (.of main_call63_v0 : StableHlo.TRef sig ⟨S_, .i32⟩) id,
    StableHlo.TRef.unary (.of main_call63_v0 : StableHlo.TRef sig ⟨S_, .i32⟩) (.of main_call63_v1 : StableHlo.TRef sig ⟨S7, .i32⟩) (broadcastInDim S7 ![] bcast_S_S7),
    StableHlo.TRef.binary (.of main_v839 : StableHlo.TRef sig ⟨S7, .i32⟩) (.of main_call63_v1 : StableHlo.TRef sig ⟨S7, .i32⟩) (.of main_call63_v2 : StableHlo.TRef sig ⟨S7, .i32⟩) Host.divsi,
    StableHlo.TRef.unary (.of main_v839 : StableHlo.TRef sig ⟨S7, .i32⟩) (.of main_call63_v3 : StableHlo.TRef sig ⟨S7, .i32⟩) signi,
    StableHlo.TRef.unary (.of main_call63_v0 : StableHlo.TRef sig ⟨S_, .i32⟩) (.of main_call63_v4 : StableHlo.TRef sig ⟨S_, .i32⟩) signi,
    StableHlo.TRef.unary (.of main_call63_v4 : StableHlo.TRef sig ⟨S_, .i32⟩) (.of main_call63_v5 : StableHlo.TRef sig ⟨S7, .i32⟩) (broadcastInDim S7 ![] bcast_S_S7),
    StableHlo.TRef.binary (.of main_call63_v3 : StableHlo.TRef sig ⟨S7, .i32⟩) (.of main_call63_v5 : StableHlo.TRef sig ⟨S7, .i32⟩) (.of main_call63_v6 : StableHlo.TRef sig ⟨S7, .i1⟩) (cmpi .ne),
    StableHlo.TRef.unary (.of main_call63_v0 : StableHlo.TRef sig ⟨S_, .i32⟩) (.of main_call63_v7 : StableHlo.TRef sig ⟨S7, .i32⟩) (broadcastInDim S7 ![] bcast_S_S7),
    StableHlo.TRef.binary (.of main_v839 : StableHlo.TRef sig ⟨S7, .i32⟩) (.of main_call63_v7 : StableHlo.TRef sig ⟨S7, .i32⟩) (.of main_call63_v8 : StableHlo.TRef sig ⟨S7, .i32⟩) Host.remsi,
    StableHlo.TRef.nullary (.of main_call63_c : StableHlo.TRef sig ⟨S_, .i32⟩) (constantI S_ 32 0#32),
    StableHlo.TRef.unary (.of main_call63_c : StableHlo.TRef sig ⟨S_, .i32⟩) (.of main_call63_v9 : StableHlo.TRef sig ⟨S7, .i32⟩) (broadcastInDim S7 ![] bcast_S_S7),
    StableHlo.TRef.binary (.of main_call63_v8 : StableHlo.TRef sig ⟨S7, .i32⟩) (.of main_call63_v9 : StableHlo.TRef sig ⟨S7, .i32⟩) (.of main_call63_v10 : StableHlo.TRef sig ⟨S7, .i1⟩) (cmpi .ne),
    StableHlo.TRef.binary (.of main_call63_v6 : StableHlo.TRef sig ⟨S7, .i1⟩) (.of main_call63_v10 : StableHlo.TRef sig ⟨S7, .i1⟩) (.of main_call63_v11 : StableHlo.TRef sig ⟨S7, .i1⟩) andi,
    StableHlo.TRef.nullary (.of main_call63_c_0 : StableHlo.TRef sig ⟨S_, .i32⟩) (constantI S_ 32 1#32),
    StableHlo.TRef.unary (.of main_call63_c_0 : StableHlo.TRef sig ⟨S_, .i32⟩) (.of main_call63_v12 : StableHlo.TRef sig ⟨S7, .i32⟩) (broadcastInDim S7 ![] bcast_S_S7),
    StableHlo.TRef.binary (.of main_call63_v2 : StableHlo.TRef sig ⟨S7, .i32⟩) (.of main_call63_v12 : StableHlo.TRef sig ⟨S7, .i32⟩) (.of main_call63_v13 : StableHlo.TRef sig ⟨S7, .i32⟩) subi,
    StableHlo.TRef.ternary (.of main_call63_v11 : StableHlo.TRef sig ⟨S7, .i1⟩) (.of main_call63_v13 : StableHlo.TRef sig ⟨S7, .i32⟩) (.of main_call63_v2 : StableHlo.TRef sig ⟨S7, .i32⟩) (.of main_v840 : StableHlo.TRef sig ⟨S7, .i32⟩) select ]
theorem ops15_7_sub : (ops15_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops15_7_fresh : (ops15_7 : List (HloOp τ sig (Elt F))).Forall fun op => op.fresh = ∅ := by
  simp only [List.Forall]; repeat' constructor
theorem ops15_7_keeps : (ops15_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1684 … 1688 of the program (5 of window 15), in order. -/
abbrev ops15_8 : List (HloOp τ sig (Elt F)) :=
  [ StableHlo.unary main_v810 main_v841 (broadcastInDim S7 ![] bcast_S_S7 : (⟨S_, .i32⟩ : BufTy).Contents (Elt F) → (⟨S7, .i32⟩ : BufTy).Contents (Elt F)),
    StableHlo.binary main_v841 main_v840 main_v842 (subi : (⟨S7, .i32⟩ : BufTy).Contents (Elt F) → (⟨S7, .i32⟩ : BufTy).Contents (Elt F) → (⟨S7, .i32⟩ : BufTy).Contents (Elt F)),
    StableHlo.unary main_v827 main_v843 (broadcastInDim S7 ![] bcast_S_S7 : (⟨S_, .i32⟩ : BufTy).Contents (Elt F) → (⟨S7, .i32⟩ : BufTy).Contents (Elt F)),
    StableHlo.binary main_v829 main_v843 main_v844 (muli : (⟨S7, .i32⟩ : BufTy).Contents (Elt F) → (⟨S7, .i32⟩ : BufTy).Contents (Elt F) → (⟨S7, .i32⟩ : BufTy).Contents (Elt F)),
    StableHlo.nullary main_c_109 (constantI S_ 32 7#32) ]
theorem ops15_8_sub : (ops15_8 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops15_8_fresh : (ops15_8 : List (HloOp τ sig (Elt F))).Forall fun op => op.fresh = ∅ := by
  simp only [List.Forall]; repeat' constructor
theorem ops15_8_keeps : (ops15_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1689 … 1705 of the program (17 of window 15), in order. -/
abbrev ops15_9 : List (HloOp τ sig (Elt F)) :=
  [ StableHlo.TRef.unary (.of main_c_109 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S7, .i32⟩) (broadcastInDim S7 ![] bcast_S_S7),
    StableHlo.TRef.binary (.of main_v844 : StableHlo.TRef sig ⟨S7, .i32⟩) (.of main_call64_v1 : StableHlo.TRef sig ⟨S7, .i32⟩) (.of main_call64_v2 : StableHlo.TRef sig ⟨S7, .i32⟩) Host.divsi,
    StableHlo.TRef.unary (.of main_v844 : StableHlo.TRef sig ⟨S7, .i32⟩) (.of main_call64_v3 : StableHlo.TRef sig ⟨S7, .i32⟩) signi,
    StableHlo.TRef.unary (.of main_call64_v0 : StableHlo.TRef sig ⟨S_, .i32⟩) (.of main_call64_v4 : StableHlo.TRef sig ⟨S_, .i32⟩) signi,
    StableHlo.TRef.unary (.of main_call64_v4 : StableHlo.TRef sig ⟨S_, .i32⟩) (.of main_call64_v5 : StableHlo.TRef sig ⟨S7, .i32⟩) (broadcastInDim S7 ![] bcast_S_S7),
    StableHlo.TRef.binary (.of main_call64_v3 : StableHlo.TRef sig ⟨S7, .i32⟩) (.of main_call64_v5 : StableHlo.TRef sig ⟨S7, .i32⟩) (.of main_call64_v6 : StableHlo.TRef sig ⟨S7, .i1⟩) (cmpi .ne),
    StableHlo.TRef.unary (.of main_call64_v0 : StableHlo.TRef sig ⟨S_, .i32⟩) (.of main_call64_v7 : StableHlo.TRef sig ⟨S7, .i32⟩) (broadcastInDim S7 ![] bcast_S_S7),
    StableHlo.TRef.binary (.of main_v844 : StableHlo.TRef sig ⟨S7, .i32⟩) (.of main_call64_v7 : StableHlo.TRef sig ⟨S7, .i32⟩) (.of main_call64_v8 : StableHlo.TRef sig ⟨S7, .i32⟩) Host.remsi,
    StableHlo.TRef.nullary (.of main_call64_c : StableHlo.TRef sig ⟨S_, .i32⟩) (constantI S_ 32 0#32),
    StableHlo.TRef.unary (.of main_call64_c : StableHlo.TRef sig ⟨S_, .i32⟩) (.of main_call64_v9 : StableHlo.TRef sig ⟨S7, .i32⟩) (broadcastInDim S7 ![] bcast_S_S7),
    StableHlo.TRef.binary (.of main_call64_v8 : StableHlo.TRef sig ⟨S7, .i32⟩) (.of main_call64_v9 : StableHlo.TRef sig ⟨S7, .i32⟩) (.of main_call64_v10 : StableHlo.TRef sig ⟨S7, .i1⟩) (cmpi .ne),
    StableHlo.TRef.binary (.of main_call64_v6 : StableHlo.TRef sig ⟨S7, .i1⟩) (.of main_call64_v10 : StableHlo.TRef sig ⟨S7, .i1⟩) (.of main_call64_v11 : StableHlo.TRef sig ⟨S7, .i1⟩) andi,
    StableHlo.TRef.nullary (.of main_call64_c_0 : StableHlo.TRef sig ⟨S_, .i32⟩) (constantI S_ 32 1#32),
    StableHlo.TRef.unary (.of main_call64_c_0 : StableHlo.TRef sig ⟨S_, .i32⟩) (.of main_call64_v12 : StableHlo.TRef sig ⟨S7, .i32⟩) (broadcastInDim S7 ![] bcast_S_S7),
    StableHlo.TRef.binary (.of main_call64_v2 : StableHlo.TRef sig ⟨S7, .i32⟩) (.of main_call64_v12 : StableHlo.TRef sig ⟨S7, .i32⟩) (.of main_call64_v13 : StableHlo.TRef sig ⟨S7, .i32⟩) subi,
    StableHlo.TRef.ternary (.of main_call64_v11 : StableHlo.TRef sig ⟨S7, .i1⟩) (.of main_call64_v13 : StableHlo.TRef sig ⟨S7, .i32⟩) (.of main_call64_v2 : StableHlo.TRef sig ⟨S7, .i32⟩) (.of main_v845 : StableHlo.TRef sig ⟨S7, .i32⟩) select ]
theorem ops15_9_sub : (ops15_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops15_9_fresh : (ops15_9 : List (HloOp τ sig (Elt F))).Forall fun op => op.fresh = ∅ := by
  simp only [List.Forall]; repeat' constructor
theorem ops15_9_keeps : (ops15_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1706 … 1707 of the program (2 of window 15), in order. -/
abbrev ops15_10 : List (HloOp τ sig (Elt F)) :=
  [ StableHlo.unary main_v820 main_v846 (broadcastInDim S7 ![] bcast_S_S7 : (⟨S_, .i32⟩ : BufTy).Contents (Elt F) → (⟨S7, .i32⟩ : BufTy).Contents (Elt F)),
    StableHlo.binary main_v846 main_v845 main_v847 (addi : (⟨S7, .i32⟩ : BufTy).Contents (Elt F) → (⟨S7, .i32⟩ : BufTy).Contents (Elt F) → (⟨S7, .i32⟩ : BufTy).Contents (Elt F)) ]
theorem ops15_10_sub : (ops15_10 : List (HloOp τ sig (Elt F))).Forall fun op => op.bufs ⊆ StableHlo.tcRefs τ sig :=
  ⟨StableHlo.unary_bufs_sub .., StableHlo.binary_bufs_sub ..⟩
theorem ops15_10_fresh : (ops15_10 : List (HloOp τ sig (Elt F))).Forall fun op => op.fresh = ∅ := by
  simp only [List.Forall]; repeat' constructor
theorem ops15_10_keeps : (ops15_10 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops15_10, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part15_eq (c : Dev nD) : main_part15 (F := F) c = Pipeline.chainK [StableHlo.seq ops15_0, StableHlo.seq ops15_1, StableHlo.seq ops15_2, StableHlo.seq ops15_3, StableHlo.seq ops15_4, StableHlo.seq ops15_5, StableHlo.seq ops15_6, StableHlo.seq ops15_7, StableHlo.seq ops15_8, StableHlo.seq ops15_9] (StableHlo.seq ops15_10) := by
  chain_rfl

end Cert.ReferenceIdeal.Host

end
-- ==== Proof.RefOps16.lean ====
/- Window 16 of the program's @main, every called function's body written out in place: 82 operations,
  cut into 7 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1708 … 1714 of the program (7 of window 16), in order. -/
abbrev ops16_0 : List (HloOp τ sig (Elt F)) :=
  [ StableHlo.nullary main_c_110 (constantI S_ 32 1#32),
    StableHlo.unary main_c_110 main_v848 (broadcastInDim S7 ![] bcast_S_S7 : (⟨S_, .i32⟩ : BufTy).Contents (Elt F) → (⟨S7, .i32⟩ : BufTy).Contents (Elt F)),
    StableHlo.binary main_v829 main_v848 main_v849 (addi : (⟨S7, .i32⟩ : BufTy).Contents (Elt F) → (⟨S7, .i32⟩ : BufTy).Contents (Elt F) → (⟨S7, .i32⟩ : BufTy).Contents (Elt F)),
    StableHlo.unary main_v849 main_v850 (negi : (⟨S7, .i32⟩ : BufTy).Contents (Elt F) → (⟨S7, .i32⟩ : BufTy).Contents (Elt F)),
    StableHlo.unary main_v827 main_v851 (broadcastInDim S7 ![] bcast_S_S7 : (⟨S_, .i32⟩ : BufTy).Contents (Elt F) → (⟨S7, .i32⟩ : BufTy).Contents (Elt F)),
    StableHlo.binary main_v850 main_v851 main_v852 (muli : (⟨S7, .i32⟩ : BufTy).Contents (Elt F) → (⟨S7, .i32⟩ : BufTy).Contents (Elt F) → (⟨S7, .i32⟩ : BufTy).Contents (Elt F)),
    StableHlo.nullary main_c_111 (constantI S_ 32 7#32) ]
theorem ops16_0_sub : (ops16_0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops16_0_fresh : (ops16_0 : List (HloOp τ sig (Elt F))).Forall fun op => op.fresh = ∅ := by
  simp only [List.Forall]; repeat' constructor
theorem ops16_0_keeps : (ops16_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1715 … 1731 of the program (17 of window 16), in order. -/
abbrev ops16_1 : List (HloOp τ sig (Elt F)) :=
  [ StableHlo.TRef.unary (.of main_c_111 : StableHlo.TRef sig ⟨S_, .i32⟩) (.of main_call65_v0 : StableHlo.TRef sig ⟨S_, .i32⟩) id,
    StableHlo.TRef.unary (.of main_call65_v0 : StableHlo.TRef sig ⟨S_, .i32⟩) (.of main_call65_v1 : StableHlo.TRef sig ⟨S7, .i32⟩) (broadcastInDim S7 ![] bcast_S_S7),
    StableHlo.TRef.binary (.of main_v852 : StableHlo.TRef sig ⟨S7, .i32⟩) (.of main_call65_v1 : StableHlo.TRef sig ⟨S7, .i32⟩) (.of main_call65_v2 : StableHlo.TRef sig ⟨S7, .i32⟩) Host.divsi,
    StableHlo.TRef.unary (.of main_v852 : StableHlo.TRef sig ⟨S7, .i32⟩) (.of main_call65_v3 : StableHlo.TRef sig ⟨S7, .i32⟩) signi,
    StableHlo.TRef.unary (.of main_call65_v0 : StableHlo.TRef sig ⟨S_, .i32⟩) (.of main_call65_v4 : StableHlo.TRef sig ⟨S_, .i32⟩) signi,
    StableHlo.TRef.unary (.of main_call65_v4 : StableHlo.TRef sig ⟨S_, .i32⟩) (.of main_call65_v5 : StableHlo.TRef sig ⟨S7, .i32⟩) (broadcastInDim S7 ![] bcast_S_S7),
    StableHlo.TRef.binary (.of main_call65_v3 : StableHlo.TRef sig ⟨S7, .i32⟩) (.of main_call65_v5 : StableHlo.TRef sig ⟨S7, .i32⟩) (.of main_call65_v6 : StableHlo.TRef sig ⟨S7, .i1⟩) (cmpi .ne),
    StableHlo.TRef.unary (.of main_call65_v0 : StableHlo.TRef sig ⟨S_, .i32⟩) (.of main_call65_v7 : StableHlo.TRef sig ⟨S7, .i32⟩) (broadcastInDim S7 ![] bcast_S_S7),
    StableHlo.TRef.binary (.of main_v852 : StableHlo.TRef sig ⟨S7, .i32⟩) (.of main_call65_v7 : StableHlo.TRef sig ⟨S7, .i32⟩) (.of main_call65_v8 : StableHlo.TRef sig ⟨S7, .i32⟩) Host.remsi,
    StableHlo.TRef.nullary (.of main_call65_c : StableHlo.TRef sig ⟨S_, .i32⟩) (constantI S_ 32 0#32),
    StableHlo.TRef.unary (.of main_call65_c : StableHlo.TRef sig ⟨S_, .i32⟩) (.of main_call65_v9 : StableHlo.TRef sig ⟨S7, .i32⟩) (broadcastInDim S7 ![] bcast_S_S7),
    StableHlo.TRef.binary (.of main_call65_v8 : StableHlo.TRef sig ⟨S7, .i32⟩) (.of main_call65_v9 : StableHlo.TRef sig ⟨S7, .i32⟩) (.of main_call65_v10 : StableHlo.TRef sig ⟨S7, .i1⟩) (cmpi .ne),
    StableHlo.TRef.binary (.of main_call65_v6 : StableHlo.TRef sig ⟨S7, .i1⟩) (.of main_call65_v10 : StableHlo.TRef sig ⟨S7, .i1⟩) (.of main_call65_v11 : StableHlo.TRef sig ⟨S7, .i1⟩) andi,
    StableHlo.TRef.nullary (.of main_call65_c_0 : StableHlo.TRef sig ⟨S_, .i32⟩) (constantI S_ 32 1#32),
    StableHlo.TRef.unary (.of main_call65_c_0 : StableHlo.TRef sig ⟨S_, .i32⟩) (.of main_call65_v12 : StableHlo.TRef sig ⟨S7, .i32⟩) (broadcastInDim S7 ![] bcast_S_S7),
    StableHlo.TRef.binary (.of main_call65_v2 : StableHlo.TRef sig ⟨S7, .i32⟩) (.of main_call65_v12 : StableHlo.TRef sig ⟨S7, .i32⟩) (.of main_call65_v13 : StableHlo.TRef sig ⟨S7, .i32⟩) subi,
    StableHlo.TRef.ternary (.of main_call65_v11 : StableHlo.TRef sig ⟨S7, .i1⟩) (.of main_call65_v13 : StableHlo.TRef sig ⟨S7, .i32⟩) (.of main_call65_v2 : StableHlo.TRef sig ⟨S7, .i32⟩) (.of main_v853 : StableHlo.TRef sig ⟨S7, .i32⟩) select ]
theorem ops16_1_sub : (ops16_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops16_1_fresh : (ops16_1 : List (HloOp τ sig (Elt F))).Forall fun op => op.fresh = ∅ := by
  simp only [List.Forall]; repeat' constructor
theorem ops16_1_keeps : (ops16_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1732 … 1760 of the program (29 of window 16), in order. -/
abbrev ops16_2 : List (HloOp τ sig (Elt F)) :=
  [ StableHlo.unary main_v820 main_v854 (broadcastInDim S7 ![] bcast_S_S7 : (⟨S_, .i32⟩ : BufTy).Contents (Elt F) → (⟨S7, .i32⟩ : BufTy).Contents (Elt F)),
    StableHlo.binary main_v854 main_v853 main_v855 (subi : (⟨S7, .i32⟩ : BufTy).Contents (Elt F) → (⟨S7, .i32⟩ : BufTy).Contents (Elt F) → (⟨S7, .i32⟩ : BufTy).Contents (Elt F)),
    StableHlo.nullary main_v856 (iotaInDim S64 32 0),
    StableHlo.nullary main_v857 (iotaInDim S64 32 0),
    StableHlo.unary main_v856 main_v858 (broadcastInDim S1x64 ![1] bcast_S64_S1x64_1 : (⟨S64, .i32⟩ : BufTy).Contents (Elt F) → (⟨S1x64, .i32⟩ : BufTy).Contents (Elt F)),
    StableHlo.unary main_v834 main_v859 (broadcastInDim S7x1 ![0] bcast_S7_S7x1_0 : (⟨S7, .i32⟩ : BufTy).Contents (Elt F) → (⟨S7x1, .i32⟩ : BufTy).Contents (Elt F)),
    StableHlo.unary main_v858 main_v860 (broadcastInDim S7x64 ![0, 1] bcast_S1x64_S7x64_0_1 : (⟨S1x64, .i32⟩ : BufTy).Contents (Elt F) → (⟨S7x64, .i32⟩ : BufTy).Contents (Elt F)),
    StableHlo.unary main_v859 main_v861 (broadcastInDim S7x64 ![0, 1] bcast_S7x1_S7x64_0_1 : (⟨S7x1, .i32⟩ : BufTy).Contents (Elt F) → (⟨S7x64, .i32⟩ : BufTy).Contents (Elt F)),
    StableHlo.binary main_v860 main_v861 main_v862 (cmpi .sge : (⟨S7x64, .i32⟩ : BufTy).Contents (Elt F) → (⟨S7x64, .i32⟩ : BufTy).Contents (Elt F) → (⟨S7x64, .i1⟩ : BufTy).Contents (Elt F)),
    StableHlo.unary main_v856 main_v863 (broadcastInDim S1x64 ![1] bcast_S64_S1x64_1 : (⟨S64, .i32⟩ : BufTy).Contents (Elt F) → (⟨S1x64, .i32⟩ : BufTy).Contents (Elt F)),
    StableHlo.unary main_v842 main_v864 (broadcastInDim S7x1 ![0] bcast_S7_S7x1_0 : (⟨S7, .i32⟩ : BufTy).Contents (Elt F) → (⟨S7x1, .i32⟩ : BufTy).Contents (Elt F)),
    StableHlo.unary main_v863 main_v865 (broadcastInDim S7x64 ![0, 1] bcast_S1x64_S7x64_0_1 : (⟨S1x64, .i32⟩ : BufTy).Contents (Elt F) → (⟨S7x64, .i32⟩ : BufTy).Contents (Elt F)),
    StableHlo.unary main_v864 main_v866 (broadcastInDim S7x64 ![0, 1] bcast_S7x1_S7x64_0_1 : (⟨S7x1, .i32⟩ : BufTy).Contents (Elt F) → (⟨S7x64, .i32⟩ : BufTy).Contents (Elt F)),
    StableHlo.binary main_v865 main_v866 main_v867 (cmpi .slt : (⟨S7x64, .i32⟩ : BufTy).Contents (Elt F) → (⟨S7x64, .i32⟩ : BufTy).Contents (Elt F) → (⟨S7x64, .i1⟩ : BufTy).Contents (Elt F)),
    StableHlo.binary main_v862 main_v867 main_v868 (andi : (⟨S7x64, .i1⟩ : BufTy).Contents (Elt F) → (⟨S7x64, .i1⟩ : BufTy).Contents (Elt F) → (⟨S7x64, .i1⟩ : BufTy).Contents (Elt F)),
    StableHlo.unary main_v857 main_v869 (broadcastInDim S1x64 ![1] bcast_S64_S1x64_1 : (⟨S64, .i32⟩ : BufTy).Contents (Elt F) → (⟨S1x64, .i32⟩ : BufTy).Contents (Elt F)),
    StableHlo.unary main_v847 main_v870 (broadcastInDim S7x1 ![0] bcast_S7_S7x1_0 : (⟨S7, .i32⟩ : BufTy).Contents (Elt F) → (⟨S7x1, .i32⟩ : BufTy).Contents (Elt F)),
    StableHlo.unary main_v869 main_v871 (broadcastInDim S7x64 ![0, 1] bcast_S1x64_S7x64_0_1 : (⟨S1x64, .i32⟩ : BufTy).Contents (Elt F) → (⟨S7x64, .i32⟩ : BufTy).Contents (Elt F)),
    StableHlo.unary main_v870 main_v872 (broadcastInDim S7x64 ![0, 1] bcast_S7x1_S7x64_0_1 : (⟨S7x1, .i32⟩ : BufTy).Contents (Elt F) → (⟨S7x64, .i32⟩ : BufTy).Contents (Elt F)),
    StableHlo.binary main_v871 main_v872 main_v873 (cmpi .sge : (⟨S7x64, .i32⟩ : BufTy).Contents (Elt F) → (⟨S7x64, .i32⟩ : BufTy).Contents (Elt F) → (⟨S7x64, .i1⟩ : BufTy).Contents (Elt F)),
    StableHlo.unary main_v857 main_v874 (broadcastInDim S1x64 ![1] bcast_S64_S1x64_1 : (⟨S64, .i32⟩ : BufTy).Contents (Elt F) → (⟨S1x64, .i32⟩ : BufTy).Contents (Elt F)),
    StableHlo.unary main_v855 main_v875 (broadcastInDim S7x1 ![0] bcast_S7_S7x1_0 : (⟨S7, .i32⟩ : BufTy).Contents (Elt F) → (⟨S7x1, .i32⟩ : BufTy).Contents (Elt F)),
    StableHlo.unary main_v874 main_v876 (broadcastInDim S7x64 ![0, 1] bcast_S1x64_S7x64_0_1 : (⟨S1x64, .i32⟩ : BufTy).Contents (Elt F) → (⟨S7x64, .i32⟩ : BufTy).Contents (Elt F)),
    StableHlo.unary main_v875 main_v877 (broadcastInDim S7x64 ![0, 1] bcast_S7x1_S7x64_0_1 : (⟨S7x1, .i32⟩ : BufTy).Contents (Elt F) → (⟨S7x64, .i32⟩ : BufTy).Contents (Elt F)),
    StableHlo.binary main_v876 main_v877 main_v878 (cmpi .slt : (⟨S7x64, .i32⟩ : BufTy).Contents (Elt F) → (⟨S7x64, .i32⟩ : BufTy).Contents (Elt F) → (⟨S7x64, .i1⟩ : BufTy).Contents (Elt F)),
    StableHlo.binary main_v873 main_v878 main_v879 (andi : (⟨S7x64, .i1⟩ : BufTy).Contents (Elt F) → (⟨S7x64, .i1⟩ : BufTy).Contents (Elt F) → (⟨S7x64, .i1⟩ : BufTy).Contents (Elt F)),
    StableHlo.unary main_v868 main_v880 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v881 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_112 (constant S_ .f32 0xFF800000#32) ]
theorem ops16_2_sub : (ops16_2 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops16_2_fresh : (ops16_2 : List (HloOp τ sig (Elt F))).Forall fun op => op.fresh = ∅ := by
  simp only [List.Forall]; repeat' constructor
theorem ops16_2_keeps : (ops16_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1761 … 1764 of the program (4 of window 16), in order. -/
abbrev ops16_3 : List (HloOp τ sig (Elt F)) :=
  [ StableHlo.TRef.unary (.of main_v880 : StableHlo.TRef sig ⟨S7x1x64x1, .i1⟩) (.of main_call66_v0 : StableHlo.TRef sig ⟨S7x512x64x64, .i1⟩) (broadcastInDim S7x512x64x64 ![0, 1, 2, 3] bcast_S7x1x64x1_S7x512x64x64_0_1_2_3),
    StableHlo.TRef.unary (.of main_v881 : StableHlo.TRef sig ⟨S1x512x64x64, .f32⟩) (.of main_call66_v1 : StableHlo.TRef sig ⟨S7x512x64x64, .f32⟩) (broadcastInDim S7x512x64x64 ![0, 1, 2, 3] bcast_S1x512x64x64_S7x512x64x64_0_1_2_3),
    StableHlo.TRef.unary (.of main_cst_112 : StableHlo.TRef sig ⟨S_, .f32⟩) (.of main_call66_v2 : StableHlo.TRef sig ⟨S7x512x64x64, .f32⟩) (broadcastInDim S7x512x64x64 ![] bcast_S_S7x512x64x64),
    StableHlo.TRef.ternary (.of main_call66_v0 : StableHlo.TRef sig ⟨S7x512x64x64, .i1⟩) (.of main_call66_v1 : StableHlo.TRef sig ⟨S7x512x64x64, .f32⟩) (.of main_call66_v2 : StableHlo.TRef sig ⟨S7x512x64x64, .f32⟩) (.of main_v882 : StableHlo.TRef sig ⟨S7x512x64x64, .f32⟩) select ]
theorem ops16_3_sub : (ops16_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops16_3_fresh : (ops16_3 : List (HloOp τ sig (Elt F))).Forall fun op => op.fresh = ∅ := by
  simp only [List.Forall]; repeat' constructor
theorem ops16_3_keeps : (ops16_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1765 … 1769 of the program (5 of window 16), in order. -/
abbrev ops16_4 : List (HloOp τ sig (Elt F)) :=
  [ StableHlo.nullary main_cst_113 (constant S_ .f32 0xFF800000#32),
    StableHlo.binary main_v882 main_cst_113 main_v883 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v879 main_v884 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v883 main_v885 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_114 (constant S_ .f32 0xFF800000#32) ]
theorem ops16_4_sub : (ops16_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops16_4_fresh : (ops16_4 : List (HloOp τ sig (Elt F))).Forall fun op => op.fresh = ∅ := by
  simp only [List.Forall]; repeat' constructor
theorem ops16_4_keeps : (ops16_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1770 … 1773 of the program (4 of window 16), in order. -/
abbrev ops16_5 : List (HloOp τ sig (Elt F)) :=
  [ StableHlo.TRef.unary (.of main_v884 : StableHlo.TRef sig ⟨S1x1x7x64, .i1⟩) (.of main_call67_v0 : StableHlo.TRef sig ⟨S7x512x7x64, .i1⟩) (broadcastInDim S7x512x7x64 ![0, 1, 2, 3] bcast_S1x1x7x64_S7x512x7x64_0_1_2_3),
    StableHlo.TRef.unary (.of main_v885 : StableHlo.TRef sig ⟨S7x512x1x64, .f32⟩) (.of main_call67_v1 : StableHlo.TRef sig ⟨S7x512x7x64, .f32⟩) (broadcastInDim S7x512x7x64 ![0, 1, 2, 3] bcast_S7x512x1x64_S7x512x7x64_0_1_2_3),
    StableHlo.TRef.unary (.of main_cst_114 : StableHlo.TRef sig ⟨S_, .f32⟩) (.of main_call67_v2 : StableHlo.TRef sig ⟨S7x512x7x64, .f32⟩) (broadcastInDim S7x512x7x64 ![] bcast_S_S7x512x7x64),
    StableHlo.TRef.ternary (.of main_call67_v0 : StableHlo.TRef sig ⟨S7x512x7x64, .i1⟩) (.of main_call67_v1 : StableHlo.TRef sig ⟨S7x512x7x64, .f32⟩) (.of main_call67_v2 : StableHlo.TRef sig ⟨S7x512x7x64, .f32⟩) (.of main_v886 : StableHlo.TRef sig ⟨S7x512x7x64, .f32⟩) select ]
theorem ops16_5_sub : (ops16_5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops16_5_fresh : (ops16_5 : List (HloOp τ sig (Elt F))).Forall fun op => op.fresh = ∅ := by
  simp only [List.Forall]; repeat' constructor
theorem ops16_5_keeps : (ops16_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1774 … 1789 of the program (16 of window 16), in order. -/
abbrev ops16_6 : List (HloOp τ sig (Elt F)) :=
  [ StableHlo.nullary main_cst_115 (constant S_ .f32 0xFF800000#32),
    StableHlo.binary main_v886 main_cst_115 main_v887 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v887 main_v888 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v888 main_v889 rfl shapeCasts_S512x7x7_S25088,
    StableHlo.unary main_v18 main_v890 ((extractStridedSlice S1x1 ![1, 1] · slices_S3x4_S1x1_1_1) : (⟨S3x4, .i32⟩ : BufTy).Contents (Elt F) → (⟨S1x1, .i32⟩ : BufTy).Contents (Elt F)),
    StableHlo.reshape main_v890 main_v891 rfl shapeCasts_S1x1_S_,
    StableHlo.unary main_v23 main_v892 ((extractStridedSlice S1x1 ![3, 1] · slices_S4x4_S1x1_3_1) : (⟨S4x4, .i32⟩ : BufTy).Contents (Elt F) → (⟨S1x1, .i32⟩ : BufTy).Contents (Elt F)),
    StableHlo.reshape main_v892 main_v893 rfl shapeCasts_S1x1_S_,
    StableHlo.binary main_v891 main_v893 main_v894 (minsi : (⟨S_, .i32⟩ : BufTy).Contents (Elt F) → (⟨S_, .i32⟩ : BufTy).Contents (Elt F) → (⟨S_, .i32⟩ : BufTy).Contents (Elt F)),
    StableHlo.unary main_v18 main_v895 ((extractStridedSlice S1x1 ![1, 3] · slices_S3x4_S1x1_1_3) : (⟨S3x4, .i32⟩ : BufTy).Contents (Elt F) → (⟨S1x1, .i32⟩ : BufTy).Contents (Elt F)),
    StableHlo.reshape main_v895 main_v896 rfl shapeCasts_S1x1_S_,
    StableHlo.unary main_v23 main_v897 ((extractStridedSlice S1x1 ![3, 3] · slices_S4x4_S1x1_3_3) : (⟨S4x4, .i32⟩ : BufTy).Contents (Elt F) → (⟨S1x1, .i32⟩ : BufTy).Contents (Elt F)),
    StableHlo.reshape main_v897 main_v898 rfl shapeCasts_S1x1_S_,
    StableHlo.binary main_v896 main_v898 main_v899 (maxsi : (⟨S_, .i32⟩ : BufTy).Contents (Elt F) → (⟨S_, .i32⟩ : BufTy).Contents (Elt F) → (⟨S_, .i32⟩ : BufTy).Contents (Elt F)),
    StableHlo.unary main_v18 main_v900 ((extractStridedSlice S1x1 ![1, 0] · slices_S3x4_S1x1_1_0) : (⟨S3x4, .i32⟩ : BufTy).Contents (Elt F) → (⟨S1x1, .i32⟩ : BufTy).Contents (Elt F)),
    StableHlo.reshape main_v900 main_v901 rfl shapeCasts_S1x1_S_ ]
theorem ops16_6_sub : (ops16_6 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub ..⟩
theorem ops16_6_fresh : (ops16_6 : List (HloOp τ sig (Elt F))).Forall fun op => op.fresh = ∅ := by
  simp only [List.Forall]; repeat' constructor
theorem ops16_6_keeps : (ops16_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops16_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part16_eq (c : Dev nD) : main_part16 (F := F) c = Pipeline.chainK [StableHlo.seq ops16_0, StableHlo.seq ops16_1, StableHlo.seq ops16_2, StableHlo.seq ops16_3, StableHlo.seq ops16_4, StableHlo.seq ops16_5] (StableHlo.seq ops16_6) := by
  chain_rfl

end Cert.ReferenceIdeal.Host

end
-- ==== Proof.RefOps17.lean ====
/- Window 17 of the program's @main, every called function's body written out in place: 124 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1790 … 1804 of the program (15 of window 17), in order. -/
abbrev ops17_0 : List (HloOp τ sig (Elt F)) :=
  [ StableHlo.unary main_v23 main_v902 ((extractStridedSlice S1x1 ![3, 0] · slices_S4x4_S1x1_3_0) : (⟨S4x4, .i32⟩ : BufTy).Contents (Elt F) → (⟨S1x1, .i32⟩ : BufTy).Contents (Elt F)),
    StableHlo.reshape main_v902 main_v903 rfl shapeCasts_S1x1_S_,
    StableHlo.binary main_v901 main_v903 main_v904 (minsi : (⟨S_, .i32⟩ : BufTy).Contents (Elt F) → (⟨S_, .i32⟩ : BufTy).Contents (Elt F) → (⟨S_, .i32⟩ : BufTy).Contents (Elt F)),
    StableHlo.unary main_v18 main_v905 ((extractStridedSlice S1x1 ![1, 2] · slices_S3x4_S1x1_1_2) : (⟨S3x4, .i32⟩ : BufTy).Contents (Elt F) → (⟨S1x1, .i32⟩ : BufTy).Contents (Elt F)),
    StableHlo.reshape main_v905 main_v906 rfl shapeCasts_S1x1_S_,
    StableHlo.unary main_v23 main_v907 ((extractStridedSlice S1x1 ![3, 2] · slices_S4x4_S1x1_3_2) : (⟨S4x4, .i32⟩ : BufTy).Contents (Elt F) → (⟨S1x1, .i32⟩ : BufTy).Contents (Elt F)),
    StableHlo.reshape main_v907 main_v908 rfl shapeCasts_S1x1_S_,
    StableHlo.binary main_v906 main_v908 main_v909 (maxsi : (⟨S_, .i32⟩ : BufTy).Contents (Elt F) → (⟨S_, .i32⟩ : BufTy).Contents (Elt F) → (⟨S_, .i32⟩ : BufTy).Contents (Elt F)),
    StableHlo.binary main_v899 main_v894 main_v910 (subi : (⟨S_, .i32⟩ : BufTy).Contents (Elt F) → (⟨S_, .i32⟩ : BufTy).Contents (Elt F) → (⟨S_, .i32⟩ : BufTy).Contents (Elt F)),
    StableHlo.binary main_v909 main_v904 main_v911 (subi : (⟨S_, .i32⟩ : BufTy).Contents (Elt F) → (⟨S_, .i32⟩ : BufTy).Contents (Elt F) → (⟨S_, .i32⟩ : BufTy).Contents (Elt F)),
    StableHlo.nullary main_v912 (iotaInDim S7 32 0),
    StableHlo.nullary main_v913 (iotaInDim S7 32 0),
    StableHlo.unary main_v910 main_v914 (broadcastInDim S7 ![] bcast_S_S7 : (⟨S_, .i32⟩ : BufTy).Contents (Elt F) → (⟨S7, .i32⟩ : BufTy).Contents (Elt F)),
    StableHlo.binary main_v912 main_v914 main_v915 (muli : (⟨S7, .i32⟩ : BufTy).Contents (Elt F) → (⟨S7, .i32⟩ : BufTy).Contents (Elt F) → (⟨S7, .i32⟩ : BufTy).Contents (Elt F)),
    StableHlo.nullary main_c_116 (constantI S_ 32 7#32) ]
theorem ops17_0_sub : (ops17_0 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops17_0_fresh : (ops17_0 : List (HloOp τ sig (Elt F))).Forall fun op => op.fresh = ∅ := by
  simp only [List.Forall]; repeat' constructor
theorem ops17_0_keeps : (ops17_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1805 … 1821 of the program (17 of window 17), in order. -/
abbrev ops17_1 : List (HloOp τ sig (Elt F)) :=
  [ StableHlo.TRef.unary (.of main_c_116 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S7, .i32⟩) (broadcastInDim S7 ![] bcast_S_S7),
    StableHlo.TRef.binary (.of main_v915 : StableHlo.TRef sig ⟨S7, .i32⟩) (.of main_call68_v1 : StableHlo.TRef sig ⟨S7, .i32⟩) (.of main_call68_v2 : StableHlo.TRef sig ⟨S7, .i32⟩) Host.divsi,
    StableHlo.TRef.unary (.of main_v915 : StableHlo.TRef sig ⟨S7, .i32⟩) (.of main_call68_v3 : StableHlo.TRef sig ⟨S7, .i32⟩) signi,
    StableHlo.TRef.unary (.of main_call68_v0 : StableHlo.TRef sig ⟨S_, .i32⟩) (.of main_call68_v4 : StableHlo.TRef sig ⟨S_, .i32⟩) signi,
    StableHlo.TRef.unary (.of main_call68_v4 : StableHlo.TRef sig ⟨S_, .i32⟩) (.of main_call68_v5 : StableHlo.TRef sig ⟨S7, .i32⟩) (broadcastInDim S7 ![] bcast_S_S7),
    StableHlo.TRef.binary (.of main_call68_v3 : StableHlo.TRef sig ⟨S7, .i32⟩) (.of main_call68_v5 : StableHlo.TRef sig ⟨S7, .i32⟩) (.of main_call68_v6 : StableHlo.TRef sig ⟨S7, .i1⟩) (cmpi .ne),
    StableHlo.TRef.unary (.of main_call68_v0 : StableHlo.TRef sig ⟨S_, .i32⟩) (.of main_call68_v7 : StableHlo.TRef sig ⟨S7, .i32⟩) (broadcastInDim S7 ![] bcast_S_S7),
    StableHlo.TRef.binary (.of main_v915 : StableHlo.TRef sig ⟨S7, .i32⟩) (.of main_call68_v7 : StableHlo.TRef sig ⟨S7, .i32⟩) (.of main_call68_v8 : StableHlo.TRef sig ⟨S7, .i32⟩) Host.remsi,
    StableHlo.TRef.nullary (.of main_call68_c : StableHlo.TRef sig ⟨S_, .i32⟩) (constantI S_ 32 0#32),
    StableHlo.TRef.unary (.of main_call68_c : StableHlo.TRef sig ⟨S_, .i32⟩) (.of main_call68_v9 : StableHlo.TRef sig ⟨S7, .i32⟩) (broadcastInDim S7 ![] bcast_S_S7),
    StableHlo.TRef.binary (.of main_call68_v8 : StableHlo.TRef sig ⟨S7, .i32⟩) (.of main_call68_v9 : StableHlo.TRef sig ⟨S7, .i32⟩) (.of main_call68_v10 : StableHlo.TRef sig ⟨S7, .i1⟩) (cmpi .ne),
    StableHlo.TRef.binary (.of main_call68_v6 : StableHlo.TRef sig ⟨S7, .i1⟩) (.of main_call68_v10 : StableHlo.TRef sig ⟨S7, .i1⟩) (.of main_call68_v11 : StableHlo.TRef sig ⟨S7, .i1⟩) andi,
    StableHlo.TRef.nullary (.of main_call68_c_0 : StableHlo.TRef sig ⟨S_, .i32⟩) (constantI S_ 32 1#32),
    StableHlo.TRef.unary (.of main_call68_c_0 : StableHlo.TRef sig ⟨S_, .i32⟩) (.of main_call68_v12 : StableHlo.TRef sig ⟨S7, .i32⟩) (broadcastInDim S7 ![] bcast_S_S7),
    StableHlo.TRef.binary (.of main_call68_v2 : StableHlo.TRef sig ⟨S7, .i32⟩) (.of main_call68_v12 : StableHlo.TRef sig ⟨S7, .i32⟩) (.of main_call68_v13 : StableHlo.TRef sig ⟨S7, .i32⟩) subi,
    StableHlo.TRef.ternary (.of main_call68_v11 : StableHlo.TRef sig ⟨S7, .i1⟩) (.of main_call68_v13 : StableHlo.TRef sig ⟨S7, .i32⟩) (.of main_call68_v2 : StableHlo.TRef sig ⟨S7, .i32⟩) (.of main_v916 : StableHlo.TRef sig ⟨S7, .i32⟩) select ]
theorem ops17_1_sub : (ops17_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops17_1_fresh : (ops17_1 : List (HloOp τ sig (Elt F))).Forall fun op => op.fresh = ∅ := by
  simp only [List.Forall]; repeat' constructor
theorem ops17_1_keeps : (ops17_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1822 … 1830 of the program (9 of window 17), in order. -/
abbrev ops17_2 : List (HloOp τ sig (Elt F)) :=
  [ StableHlo.unary main_v894 main_v917 (broadcastInDim S7 ![] bcast_S_S7 : (⟨S_, .i32⟩ : BufTy).Contents (Elt F) → (⟨S7, .i32⟩ : BufTy).Contents (Elt F)),
    StableHlo.binary main_v917 main_v916 main_v918 (addi : (⟨S7, .i32⟩ : BufTy).Contents (Elt F) → (⟨S7, .i32⟩ : BufTy).Contents (Elt F) → (⟨S7, .i32⟩ : BufTy).Contents (Elt F)),
    StableHlo.nullary main_c_117 (constantI S_ 32 1#32),
    StableHlo.unary main_c_117 main_v919 (broadcastInDim S7 ![] bcast_S_S7 : (⟨S_, .i32⟩ : BufTy).Contents (Elt F) → (⟨S7, .i32⟩ : BufTy).Contents (Elt F)),
    StableHlo.binary main_v912 main_v919 main_v920 (addi : (⟨S7, .i32⟩ : BufTy).Contents (Elt F) → (⟨S7, .i32⟩ : BufTy).Contents (Elt F) → (⟨S7, .i32⟩ : BufTy).Contents (Elt F)),
    StableHlo.unary main_v920 main_v921 (negi : (⟨S7, .i32⟩ : BufTy).Contents (Elt F) → (⟨S7, .i32⟩ : BufTy).Contents (Elt F)),
    StableHlo.unary main_v910 main_v922 (broadcastInDim S7 ![] bcast_S_S7 : (⟨S_, .i32⟩ : BufTy).Contents (Elt F) → (⟨S7, .i32⟩ : BufTy).Contents (Elt F)),
    StableHlo.binary main_v921 main_v922 main_v923 (muli : (⟨S7, .i32⟩ : BufTy).Contents (Elt F) → (⟨S7, .i32⟩ : BufTy).Contents (Elt F) → (⟨S7, .i32⟩ : BufTy).Contents (Elt F)),
    StableHlo.nullary main_c_118 (constantI S_ 32 7#32) ]
theorem ops17_2_sub : (ops17_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops17_2_fresh : (ops17_2 : List (HloOp τ sig (Elt F))).Forall fun op => op.fresh = ∅ := by
  simp only [List.Forall]; repeat' constructor
theorem ops17_2_keeps : (ops17_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1831 … 1847 of the program (17 of window 17), in order. -/
abbrev ops17_3 : List (HloOp τ sig (Elt F)) :=
  [ StableHlo.TRef.unary (.of main_c_118 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S7, .i32⟩) (broadcastInDim S7 ![] bcast_S_S7),
    StableHlo.TRef.binary (.of main_v923 : StableHlo.TRef sig ⟨S7, .i32⟩) (.of main_call69_v1 : StableHlo.TRef sig ⟨S7, .i32⟩) (.of main_call69_v2 : StableHlo.TRef sig ⟨S7, .i32⟩) Host.divsi,
    StableHlo.TRef.unary (.of main_v923 : StableHlo.TRef sig ⟨S7, .i32⟩) (.of main_call69_v3 : StableHlo.TRef sig ⟨S7, .i32⟩) signi,
    StableHlo.TRef.unary (.of main_call69_v0 : StableHlo.TRef sig ⟨S_, .i32⟩) (.of main_call69_v4 : StableHlo.TRef sig ⟨S_, .i32⟩) signi,
    StableHlo.TRef.unary (.of main_call69_v4 : StableHlo.TRef sig ⟨S_, .i32⟩) (.of main_call69_v5 : StableHlo.TRef sig ⟨S7, .i32⟩) (broadcastInDim S7 ![] bcast_S_S7),
    StableHlo.TRef.binary (.of main_call69_v3 : StableHlo.TRef sig ⟨S7, .i32⟩) (.of main_call69_v5 : StableHlo.TRef sig ⟨S7, .i32⟩) (.of main_call69_v6 : StableHlo.TRef sig ⟨S7, .i1⟩) (cmpi .ne),
    StableHlo.TRef.unary (.of main_call69_v0 : StableHlo.TRef sig ⟨S_, .i32⟩) (.of main_call69_v7 : StableHlo.TRef sig ⟨S7, .i32⟩) (broadcastInDim S7 ![] bcast_S_S7),
    StableHlo.TRef.binary (.of main_v923 : StableHlo.TRef sig ⟨S7, .i32⟩) (.of main_call69_v7 : StableHlo.TRef sig ⟨S7, .i32⟩) (.of main_call69_v8 : StableHlo.TRef sig ⟨S7, .i32⟩) Host.remsi,
    StableHlo.TRef.nullary (.of main_call69_c : StableHlo.TRef sig ⟨S_, .i32⟩) (constantI S_ 32 0#32),
    StableHlo.TRef.unary (.of main_call69_c : StableHlo.TRef sig ⟨S_, .i32⟩) (.of main_call69_v9 : StableHlo.TRef sig ⟨S7, .i32⟩) (broadcastInDim S7 ![] bcast_S_S7),
    StableHlo.TRef.binary (.of main_call69_v8 : StableHlo.TRef sig ⟨S7, .i32⟩) (.of main_call69_v9 : StableHlo.TRef sig ⟨S7, .i32⟩) (.of main_call69_v10 : StableHlo.TRef sig ⟨S7, .i1⟩) (cmpi .ne),
    StableHlo.TRef.binary (.of main_call69_v6 : StableHlo.TRef sig ⟨S7, .i1⟩) (.of main_call69_v10 : StableHlo.TRef sig ⟨S7, .i1⟩) (.of main_call69_v11 : StableHlo.TRef sig ⟨S7, .i1⟩) andi,
    StableHlo.TRef.nullary (.of main_call69_c_0 : StableHlo.TRef sig ⟨S_, .i32⟩) (constantI S_ 32 1#32),
    StableHlo.TRef.unary (.of main_call69_c_0 : StableHlo.TRef sig ⟨S_, .i32⟩) (.of main_call69_v12 : StableHlo.TRef sig ⟨S7, .i32⟩) (broadcastInDim S7 ![] bcast_S_S7),
    StableHlo.TRef.binary (.of main_call69_v2 : StableHlo.TRef sig ⟨S7, .i32⟩) (.of main_call69_v12 : StableHlo.TRef sig ⟨S7, .i32⟩) (.of main_call69_v13 : StableHlo.TRef sig ⟨S7, .i32⟩) subi,
    StableHlo.TRef.ternary (.of main_call69_v11 : StableHlo.TRef sig ⟨S7, .i1⟩) (.of main_call69_v13 : StableHlo.TRef sig ⟨S7, .i32⟩) (.of main_call69_v2 : StableHlo.TRef sig ⟨S7, .i32⟩) (.of main_v924 : StableHlo.TRef sig ⟨S7, .i32⟩) select ]
theorem ops17_3_sub : (ops17_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops17_3_fresh : (ops17_3 : List (HloOp τ sig (Elt F))).Forall fun op => op.fresh = ∅ := by
  simp only [List.Forall]; repeat' constructor
theorem ops17_3_keeps : (ops17_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1848 … 1852 of the program (5 of window 17), in order. -/
abbrev ops17_4 : List (HloOp τ sig (Elt F)) :=
  [ StableHlo.unary main_v894 main_v925 (broadcastInDim S7 ![] bcast_S_S7 : (⟨S_, .i32⟩ : BufTy).Contents (Elt F) → (⟨S7, .i32⟩ : BufTy).Contents (Elt F)),
    StableHlo.binary main_v925 main_v924 main_v926 (subi : (⟨S7, .i32⟩ : BufTy).Contents (Elt F) → (⟨S7, .i32⟩ : BufTy).Contents (Elt F) → (⟨S7, .i32⟩ : BufTy).Contents (Elt F)),
    StableHlo.unary main_v911 main_v927 (broadcastInDim S7 ![] bcast_S_S7 : (⟨S_, .i32⟩ : BufTy).Contents (Elt F) → (⟨S7, .i32⟩ : BufTy).Contents (Elt F)),
    StableHlo.binary main_v913 main_v927 main_v928 (muli : (⟨S7, .i32⟩ : BufTy).Contents (Elt F) → (⟨S7, .i32⟩ : BufTy).Contents (Elt F) → (⟨S7, .i32⟩ : BufTy).Contents (Elt F)),
    StableHlo.nullary main_c_119 (constantI S_ 32 7#32) ]
theorem ops17_4_sub : (ops17_4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops17_4_fresh : (ops17_4 : List (HloOp τ sig (Elt F))).Forall fun op => op.fresh = ∅ := by
  simp only [List.Forall]; repeat' constructor
theorem ops17_4_keeps : (ops17_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1853 … 1869 of the program (17 of window 17), in order. -/
abbrev ops17_5 : List (HloOp τ sig (Elt F)) :=
  [ StableHlo.TRef.unary (.of main_c_119 : StableHlo.TRef sig ⟨S_, .i32⟩) (.of main_call70_v0 : StableHlo.TRef sig ⟨S_, .i32⟩) id,
    StableHlo.TRef.unary (.of main_call70_v0 : StableHlo.TRef sig ⟨S_, .i32⟩) (.of main_call70_v1 : StableHlo.TRef sig ⟨S7, .i32⟩) (broadcastInDim S7 ![] bcast_S_S7),
    StableHlo.TRef.binary (.of main_v928 : StableHlo.TRef sig ⟨S7, .i32⟩) (.of main_call70_v1 : StableHlo.TRef sig ⟨S7, .i32⟩) (.of main_call70_v2 : StableHlo.TRef sig ⟨S7, .i32⟩) Host.divsi,
    StableHlo.TRef.unary (.of main_v928 : StableHlo.TRef sig ⟨S7, .i32⟩) (.of main_call70_v3 : StableHlo.TRef sig ⟨S7, .i32⟩) signi,
    StableHlo.TRef.unary (.of main_call70_v0 : StableHlo.TRef sig ⟨S_, .i32⟩) (.of main_call70_v4 : StableHlo.TRef sig ⟨S_, .i32⟩) signi,
    StableHlo.TRef.unary (.of main_call70_v4 : StableHlo.TRef sig ⟨S_, .i32⟩) (.of main_call70_v5 : StableHlo.TRef sig ⟨S7, .i32⟩) (broadcastInDim S7 ![] bcast_S_S7),
    StableHlo.TRef.binary (.of main_call70_v3 : StableHlo.TRef sig ⟨S7, .i32⟩) (.of main_call70_v5 : StableHlo.TRef sig ⟨S7, .i32⟩) (.of main_call70_v6 : StableHlo.TRef sig ⟨S7, .i1⟩) (cmpi .ne),
    StableHlo.TRef.unary (.of main_call70_v0 : StableHlo.TRef sig ⟨S_, .i32⟩) (.of main_call70_v7 : StableHlo.TRef sig ⟨S7, .i32⟩) (broadcastInDim S7 ![] bcast_S_S7),
    StableHlo.TRef.binary (.of main_v928 : StableHlo.TRef sig ⟨S7, .i32⟩) (.of main_call70_v7 : StableHlo.TRef sig ⟨S7, .i32⟩) (.of main_call70_v8 : StableHlo.TRef sig ⟨S7, .i32⟩) Host.remsi,
    StableHlo.TRef.nullary (.of main_call70_c : StableHlo.TRef sig ⟨S_, .i32⟩) (constantI S_ 32 0#32),
    StableHlo.TRef.unary (.of main_call70_c : StableHlo.TRef sig ⟨S_, .i32⟩) (.of main_call70_v9 : StableHlo.TRef sig ⟨S7, .i32⟩) (broadcastInDim S7 ![] bcast_S_S7),
    StableHlo.TRef.binary (.of main_call70_v8 : StableHlo.TRef sig ⟨S7, .i32⟩) (.of main_call70_v9 : StableHlo.TRef sig ⟨S7, .i32⟩) (.of main_call70_v10 : StableHlo.TRef sig ⟨S7, .i1⟩) (cmpi .ne),
    StableHlo.TRef.binary (.of main_call70_v6 : StableHlo.TRef sig ⟨S7, .i1⟩) (.of main_call70_v10 : StableHlo.TRef sig ⟨S7, .i1⟩) (.of main_call70_v11 : StableHlo.TRef sig ⟨S7, .i1⟩) andi,
    StableHlo.TRef.nullary (.of main_call70_c_0 : StableHlo.TRef sig ⟨S_, .i32⟩) (constantI S_ 32 1#32),
    StableHlo.TRef.unary (.of main_call70_c_0 : StableHlo.TRef sig ⟨S_, .i32⟩) (.of main_call70_v12 : StableHlo.TRef sig ⟨S7, .i32⟩) (broadcastInDim S7 ![] bcast_S_S7),
    StableHlo.TRef.binary (.of main_call70_v2 : StableHlo.TRef sig ⟨S7, .i32⟩) (.of main_call70_v12 : StableHlo.TRef sig ⟨S7, .i32⟩) (.of main_call70_v13 : StableHlo.TRef sig ⟨S7, .i32⟩) subi,
    StableHlo.TRef.ternary (.of main_call70_v11 : StableHlo.TRef sig ⟨S7, .i1⟩) (.of main_call70_v13 : StableHlo.TRef sig ⟨S7, .i32⟩) (.of main_call70_v2 : StableHlo.TRef sig ⟨S7, .i32⟩) (.of main_v929 : StableHlo.TRef sig ⟨S7, .i32⟩) select ]
theorem ops17_5_sub : (ops17_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops17_5_fresh : (ops17_5 : List (HloOp τ sig (Elt F))).Forall fun op => op.fresh = ∅ := by
  simp only [List.Forall]; repeat' constructor
theorem ops17_5_keeps : (ops17_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1870 … 1878 of the program (9 of window 17), in order. -/
abbrev ops17_6 : List (HloOp τ sig (Elt F)) :=
  [ StableHlo.unary main_v904 main_v930 (broadcastInDim S7 ![] bcast_S_S7 : (⟨S_, .i32⟩ : BufTy).Contents (Elt F) → (⟨S7, .i32⟩ : BufTy).Contents (Elt F)),
    StableHlo.binary main_v930 main_v929 main_v931 (addi : (⟨S7, .i32⟩ : BufTy).Contents (Elt F) → (⟨S7, .i32⟩ : BufTy).Contents (Elt F) → (⟨S7, .i32⟩ : BufTy).Contents (Elt F)),
    StableHlo.nullary main_c_120 (constantI S_ 32 1#32),
    StableHlo.unary main_c_120 main_v932 (broadcastInDim S7 ![] bcast_S_S7 : (⟨S_, .i32⟩ : BufTy).Contents (Elt F) → (⟨S7, .i32⟩ : BufTy).Contents (Elt F)),
    StableHlo.binary main_v913 main_v932 main_v933 (addi : (⟨S7, .i32⟩ : BufTy).Contents (Elt F) → (⟨S7, .i32⟩ : BufTy).Contents (Elt F) → (⟨S7, .i32⟩ : BufTy).Contents (Elt F)),
    StableHlo.unary main_v933 main_v934 (negi : (⟨S7, .i32⟩ : BufTy).Contents (Elt F) → (⟨S7, .i32⟩ : BufTy).Contents (Elt F)),
    StableHlo.unary main_v911 main_v935 (broadcastInDim S7 ![] bcast_S_S7 : (⟨S_, .i32⟩ : BufTy).Contents (Elt F) → (⟨S7, .i32⟩ : BufTy).Contents (Elt F)),
    StableHlo.binary main_v934 main_v935 main_v936 (muli : (⟨S7, .i32⟩ : BufTy).Contents (Elt F) → (⟨S7, .i32⟩ : BufTy).Contents (Elt F) → (⟨S7, .i32⟩ : BufTy).Contents (Elt F)),
    StableHlo.nullary main_c_121 (constantI S_ 32 7#32) ]
theorem ops17_6_sub : (ops17_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops17_6_fresh : (ops17_6 : List (HloOp τ sig (Elt F))).Forall fun op => op.fresh = ∅ := by
  simp only [List.Forall]; repeat' constructor
theorem ops17_6_keeps : (ops17_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1879 … 1895 of the program (17 of window 17), in order. -/
abbrev ops17_7 : List (HloOp τ sig (Elt F)) :=
  [ StableHlo.TRef.unary (.of main_c_121 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S7, .i32⟩) (broadcastInDim S7 ![] bcast_S_S7),
    StableHlo.TRef.binary (.of main_v936 : StableHlo.TRef sig ⟨S7, .i32⟩) (.of main_call71_v1 : StableHlo.TRef sig ⟨S7, .i32⟩) (.of main_call71_v2 : StableHlo.TRef sig ⟨S7, .i32⟩) Host.divsi,
    StableHlo.TRef.unary (.of main_v936 : StableHlo.TRef sig ⟨S7, .i32⟩) (.of main_call71_v3 : StableHlo.TRef sig ⟨S7, .i32⟩) signi,
    StableHlo.TRef.unary (.of main_call71_v0 : StableHlo.TRef sig ⟨S_, .i32⟩) (.of main_call71_v4 : StableHlo.TRef sig ⟨S_, .i32⟩) signi,
    StableHlo.TRef.unary (.of main_call71_v4 : StableHlo.TRef sig ⟨S_, .i32⟩) (.of main_call71_v5 : StableHlo.TRef sig ⟨S7, .i32⟩) (broadcastInDim S7 ![] bcast_S_S7),
    StableHlo.TRef.binary (.of main_call71_v3 : StableHlo.TRef sig ⟨S7, .i32⟩) (.of main_call71_v5 : StableHlo.TRef sig ⟨S7, .i32⟩) (.of main_call71_v6 : StableHlo.TRef sig ⟨S7, .i1⟩) (cmpi .ne),
    StableHlo.TRef.unary (.of main_call71_v0 : StableHlo.TRef sig ⟨S_, .i32⟩) (.of main_call71_v7 : StableHlo.TRef sig ⟨S7, .i32⟩) (broadcastInDim S7 ![] bcast_S_S7),
    StableHlo.TRef.binary (.of main_v936 : StableHlo.TRef sig ⟨S7, .i32⟩) (.of main_call71_v7 : StableHlo.TRef sig ⟨S7, .i32⟩) (.of main_call71_v8 : StableHlo.TRef sig ⟨S7, .i32⟩) Host.remsi,
    StableHlo.TRef.nullary (.of main_call71_c : StableHlo.TRef sig ⟨S_, .i32⟩) (constantI S_ 32 0#32),
    StableHlo.TRef.unary (.of main_call71_c : StableHlo.TRef sig ⟨S_, .i32⟩) (.of main_call71_v9 : StableHlo.TRef sig ⟨S7, .i32⟩) (broadcastInDim S7 ![] bcast_S_S7),
    StableHlo.TRef.binary (.of main_call71_v8 : StableHlo.TRef sig ⟨S7, .i32⟩) (.of main_call71_v9 : StableHlo.TRef sig ⟨S7, .i32⟩) (.of main_call71_v10 : StableHlo.TRef sig ⟨S7, .i1⟩) (cmpi .ne),
    StableHlo.TRef.binary (.of main_call71_v6 : StableHlo.TRef sig ⟨S7, .i1⟩) (.of main_call71_v10 : StableHlo.TRef sig ⟨S7, .i1⟩) (.of main_call71_v11 : StableHlo.TRef sig ⟨S7, .i1⟩) andi,
    StableHlo.TRef.nullary (.of main_call71_c_0 : StableHlo.TRef sig ⟨S_, .i32⟩) (constantI S_ 32 1#32),
    StableHlo.TRef.unary (.of main_call71_c_0 : StableHlo.TRef sig ⟨S_, .i32⟩) (.of main_call71_v12 : StableHlo.TRef sig ⟨S7, .i32⟩) (broadcastInDim S7 ![] bcast_S_S7),
    StableHlo.TRef.binary (.of main_call71_v2 : StableHlo.TRef sig ⟨S7, .i32⟩) (.of main_call71_v12 : StableHlo.TRef sig ⟨S7, .i32⟩) (.of main_call71_v13 : StableHlo.TRef sig ⟨S7, .i32⟩) subi,
    StableHlo.TRef.ternary (.of main_call71_v11 : StableHlo.TRef sig ⟨S7, .i1⟩) (.of main_call71_v13 : StableHlo.TRef sig ⟨S7, .i32⟩) (.of main_call71_v2 : StableHlo.TRef sig ⟨S7, .i32⟩) (.of main_v937 : StableHlo.TRef sig ⟨S7, .i32⟩) select ]
theorem ops17_7_sub : (ops17_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops17_7_fresh : (ops17_7 : List (HloOp τ sig (Elt F))).Forall fun op => op.fresh = ∅ := by
  simp only [List.Forall]; repeat' constructor
theorem ops17_7_keeps : (ops17_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1896 … 1913 of the program (18 of window 17), in order. -/
abbrev ops17_8 : List (HloOp τ sig (Elt F)) :=
  [ StableHlo.unary main_v904 main_v938 (broadcastInDim S7 ![] bcast_S_S7 : (⟨S_, .i32⟩ : BufTy).Contents (Elt F) → (⟨S7, .i32⟩ : BufTy).Contents (Elt F)),
    StableHlo.binary main_v938 main_v937 main_v939 (subi : (⟨S7, .i32⟩ : BufTy).Contents (Elt F) → (⟨S7, .i32⟩ : BufTy).Contents (Elt F) → (⟨S7, .i32⟩ : BufTy).Contents (Elt F)),
    StableHlo.nullary main_v940 (iotaInDim S64 32 0),
    StableHlo.nullary main_v941 (iotaInDim S64 32 0),
    StableHlo.unary main_v940 main_v942 (broadcastInDim S1x64 ![1] bcast_S64_S1x64_1 : (⟨S64, .i32⟩ : BufTy).Contents (Elt F) → (⟨S1x64, .i32⟩ : BufTy).Contents (Elt F)),
    StableHlo.unary main_v918 main_v943 (broadcastInDim S7x1 ![0] bcast_S7_S7x1_0 : (⟨S7, .i32⟩ : BufTy).Contents (Elt F) → (⟨S7x1, .i32⟩ : BufTy).Contents (Elt F)),
    StableHlo.unary main_v942 main_v944 (broadcastInDim S7x64 ![0, 1] bcast_S1x64_S7x64_0_1 : (⟨S1x64, .i32⟩ : BufTy).Contents (Elt F) → (⟨S7x64, .i32⟩ : BufTy).Contents (Elt F)),
    StableHlo.unary main_v943 main_v945 (broadcastInDim S7x64 ![0, 1] bcast_S7x1_S7x64_0_1 : (⟨S7x1, .i32⟩ : BufTy).Contents (Elt F) → (⟨S7x64, .i32⟩ : BufTy).Contents (Elt F)),
    StableHlo.binary main_v944 main_v945 main_v946 (cmpi .sge : (⟨S7x64, .i32⟩ : BufTy).Contents (Elt F) → (⟨S7x64, .i32⟩ : BufTy).Contents (Elt F) → (⟨S7x64, .i1⟩ : BufTy).Contents (Elt F)),
    StableHlo.unary main_v940 main_v947 (broadcastInDim S1x64 ![1] bcast_S64_S1x64_1 : (⟨S64, .i32⟩ : BufTy).Contents (Elt F) → (⟨S1x64, .i32⟩ : BufTy).Contents (Elt F)),
    StableHlo.unary main_v926 main_v948 (broadcastInDim S7x1 ![0] bcast_S7_S7x1_0 : (⟨S7, .i32⟩ : BufTy).Contents (Elt F) → (⟨S7x1, .i32⟩ : BufTy).Contents (Elt F)),
    StableHlo.unary main_v947 main_v949 (broadcastInDim S7x64 ![0, 1] bcast_S1x64_S7x64_0_1 : (⟨S1x64, .i32⟩ : BufTy).Contents (Elt F) → (⟨S7x64, .i32⟩ : BufTy).Contents (Elt F)),
    StableHlo.unary main_v948 main_v950 (broadcastInDim S7x64 ![0, 1] bcast_S7x1_S7x64_0_1 : (⟨S7x1, .i32⟩ : BufTy).Contents (Elt F) → (⟨S7x64, .i32⟩ : BufTy).Contents (Elt F)),
    StableHlo.binary main_v949 main_v950 main_v951 (cmpi .slt : (⟨S7x64, .i32⟩ : BufTy).Contents (Elt F) → (⟨S7x64, .i32⟩ : BufTy).Contents (Elt F) → (⟨S7x64, .i1⟩ : BufTy).Contents (Elt F)),
    StableHlo.binary main_v946 main_v951 main_v952 (andi : (⟨S7x64, .i1⟩ : BufTy).Contents (Elt F) → (⟨S7x64, .i1⟩ : BufTy).Contents (Elt F) → (⟨S7x64, .i1⟩ : BufTy).Contents (Elt F)),
    StableHlo.unary main_v941 main_v953 (broadcastInDim S1x64 ![1] bcast_S64_S1x64_1 : (⟨S64, .i32⟩ : BufTy).Contents (Elt F) → (⟨S1x64, .i32⟩ : BufTy).Contents (Elt F)),
    StableHlo.unary main_v931 main_v954 (broadcastInDim S7x1 ![0] bcast_S7_S7x1_0 : (⟨S7, .i32⟩ : BufTy).Contents (Elt F) → (⟨S7x1, .i32⟩ : BufTy).Contents (Elt F)),
    StableHlo.unary main_v953 main_v955 (broadcastInDim S7x64 ![0, 1] bcast_S1x64_S7x64_0_1 : (⟨S1x64, .i32⟩ : BufTy).Contents (Elt F) → (⟨S7x64, .i32⟩ : BufTy).Contents (Elt F)) ]
theorem ops17_8_sub : (ops17_8 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub ..⟩
theorem ops17_8_fresh : (ops17_8 : List (HloOp τ sig (Elt F))).Forall fun op => op.fresh = ∅ := by
  simp only [List.Forall]; repeat' constructor
theorem ops17_8_keeps : (ops17_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops17_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part17_eq (c : Dev nD) : main_part17 (F := F) c = Pipeline.chainK [StableHlo.seq ops17_0, StableHlo.seq ops17_1, StableHlo.seq ops17_2, StableHlo.seq ops17_3, StableHlo.seq ops17_4, StableHlo.seq ops17_5, StableHlo.seq ops17_6, StableHlo.seq ops17_7] (StableHlo.seq ops17_8) := by
  chain_rfl

end Cert.ReferenceIdeal.Host

end
-- ==== Proof.RefOps18.lean ====
/- Window 18 of the program's @main, every called function's body written out in place: 98 operations,
  cut into 8 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 1914 … 1924 of the program (11 of window 18), in order. -/
abbrev ops18_0 : List (HloOp τ sig (Elt F)) :=
  [ StableHlo.unary main_v954 main_v956 (broadcastInDim S7x64 ![0, 1] bcast_S7x1_S7x64_0_1 : (⟨S7x1, .i32⟩ : BufTy).Contents (Elt F) → (⟨S7x64, .i32⟩ : BufTy).Contents (Elt F)),
    StableHlo.binary main_v955 main_v956 main_v957 (cmpi .sge : (⟨S7x64, .i32⟩ : BufTy).Contents (Elt F) → (⟨S7x64, .i32⟩ : BufTy).Contents (Elt F) → (⟨S7x64, .i1⟩ : BufTy).Contents (Elt F)),
    StableHlo.unary main_v941 main_v958 (broadcastInDim S1x64 ![1] bcast_S64_S1x64_1 : (⟨S64, .i32⟩ : BufTy).Contents (Elt F) → (⟨S1x64, .i32⟩ : BufTy).Contents (Elt F)),
    StableHlo.unary main_v939 main_v959 (broadcastInDim S7x1 ![0] bcast_S7_S7x1_0 : (⟨S7, .i32⟩ : BufTy).Contents (Elt F) → (⟨S7x1, .i32⟩ : BufTy).Contents (Elt F)),
    StableHlo.unary main_v958 main_v960 (broadcastInDim S7x64 ![0, 1] bcast_S1x64_S7x64_0_1 : (⟨S1x64, .i32⟩ : BufTy).Contents (Elt F) → (⟨S7x64, .i32⟩ : BufTy).Contents (Elt F)),
    StableHlo.unary main_v959 main_v961 (broadcastInDim S7x64 ![0, 1] bcast_S7x1_S7x64_0_1 : (⟨S7x1, .i32⟩ : BufTy).Contents (Elt F) → (⟨S7x64, .i32⟩ : BufTy).Contents (Elt F)),
    StableHlo.binary main_v960 main_v961 main_v962 (cmpi .slt : (⟨S7x64, .i32⟩ : BufTy).Contents (Elt F) → (⟨S7x64, .i32⟩ : BufTy).Contents (Elt F) → (⟨S7x64, .i1⟩ : BufTy).Contents (Elt F)),
    StableHlo.binary main_v957 main_v962 main_v963 (andi : (⟨S7x64, .i1⟩ : BufTy).Contents (Elt F) → (⟨S7x64, .i1⟩ : BufTy).Contents (Elt F) → (⟨S7x64, .i1⟩ : BufTy).Contents (Elt F)),
    StableHlo.unary main_v952 main_v964 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v965 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_122 (constant S_ .f32 0xFF800000#32) ]
theorem ops18_0_sub : (ops18_0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops18_0_fresh : (ops18_0 : List (HloOp τ sig (Elt F))).Forall fun op => op.fresh = ∅ := by
  simp only [List.Forall]; repeat' constructor
theorem ops18_0_keeps : (ops18_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1925 … 1928 of the program (4 of window 18), in order. -/
abbrev ops18_1 : List (HloOp τ sig (Elt F)) :=
  [ StableHlo.TRef.unary (.of main_v964 : StableHlo.TRef sig ⟨S7x1x64x1, .i1⟩) (.of main_call72_v0 : StableHlo.TRef sig ⟨S7x512x64x64, .i1⟩) (broadcastInDim S7x512x64x64 ![0, 1, 2, 3] bcast_S7x1x64x1_S7x512x64x64_0_1_2_3),
    StableHlo.TRef.unary (.of main_v965 : StableHlo.TRef sig ⟨S1x512x64x64, .f32⟩) (.of main_call72_v1 : StableHlo.TRef sig ⟨S7x512x64x64, .f32⟩) (broadcastInDim S7x512x64x64 ![0, 1, 2, 3] bcast_S1x512x64x64_S7x512x64x64_0_1_2_3),
    StableHlo.TRef.unary (.of main_cst_122 : StableHlo.TRef sig ⟨S_, .f32⟩) (.of main_call72_v2 : StableHlo.TRef sig ⟨S7x512x64x64, .f32⟩) (broadcastInDim S7x512x64x64 ![] bcast_S_S7x512x64x64),
    StableHlo.TRef.ternary (.of main_call72_v0 : StableHlo.TRef sig ⟨S7x512x64x64, .i1⟩) (.of main_call72_v1 : StableHlo.TRef sig ⟨S7x512x64x64, .f32⟩) (.of main_call72_v2 : StableHlo.TRef sig ⟨S7x512x64x64, .f32⟩) (.of main_v966 : StableHlo.TRef sig ⟨S7x512x64x64, .f32⟩) select ]
theorem ops18_1_sub : (ops18_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops18_1_fresh : (ops18_1 : List (HloOp τ sig (Elt F))).Forall fun op => op.fresh = ∅ := by
  simp only [List.Forall]; repeat' constructor
theorem ops18_1_keeps : (ops18_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1929 … 1933 of the program (5 of window 18), in order. -/
abbrev ops18_2 : List (HloOp τ sig (Elt F)) :=
  [ StableHlo.nullary main_cst_123 (constant S_ .f32 0xFF800000#32),
    StableHlo.binary main_v966 main_cst_123 main_v967 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v963 main_v968 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v967 main_v969 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_124 (constant S_ .f32 0xFF800000#32) ]
theorem ops18_2_sub : (ops18_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops18_2_fresh : (ops18_2 : List (HloOp τ sig (Elt F))).Forall fun op => op.fresh = ∅ := by
  simp only [List.Forall]; repeat' constructor
theorem ops18_2_keeps : (ops18_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1934 … 1937 of the program (4 of window 18), in order. -/
abbrev ops18_3 : List (HloOp τ sig (Elt F)) :=
  [ StableHlo.TRef.unary (.of main_v968 : StableHlo.TRef sig ⟨S1x1x7x64, .i1⟩) (.of main_call73_v0 : StableHlo.TRef sig ⟨S7x512x7x64, .i1⟩) (broadcastInDim S7x512x7x64 ![0, 1, 2, 3] bcast_S1x1x7x64_S7x512x7x64_0_1_2_3),
    StableHlo.TRef.unary (.of main_v969 : StableHlo.TRef sig ⟨S7x512x1x64, .f32⟩) (.of main_call73_v1 : StableHlo.TRef sig ⟨S7x512x7x64, .f32⟩) (broadcastInDim S7x512x7x64 ![0, 1, 2, 3] bcast_S7x512x1x64_S7x512x7x64_0_1_2_3),
    StableHlo.TRef.unary (.of main_cst_124 : StableHlo.TRef sig ⟨S_, .f32⟩) (.of main_call73_v2 : StableHlo.TRef sig ⟨S7x512x7x64, .f32⟩) (broadcastInDim S7x512x7x64 ![] bcast_S_S7x512x7x64),
    StableHlo.TRef.ternary (.of main_call73_v0 : StableHlo.TRef sig ⟨S7x512x7x64, .i1⟩) (.of main_call73_v1 : StableHlo.TRef sig ⟨S7x512x7x64, .f32⟩) (.of main_call73_v2 : StableHlo.TRef sig ⟨S7x512x7x64, .f32⟩) (.of main_v970 : StableHlo.TRef sig ⟨S7x512x7x64, .f32⟩) select ]
theorem ops18_3_sub : (ops18_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops18_3_fresh : (ops18_3 : List (HloOp τ sig (Elt F))).Forall fun op => op.fresh = ∅ := by
  simp only [List.Forall]; repeat' constructor
theorem ops18_3_keeps : (ops18_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1938 … 1968 of the program (31 of window 18), in order. -/
abbrev ops18_4 : List (HloOp τ sig (Elt F)) :=
  [ StableHlo.nullary main_cst_125 (constant S_ .f32 0xFF800000#32),
    StableHlo.binary main_v970 main_cst_125 main_v971 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v971 main_v972 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v972 main_v973 rfl shapeCasts_S512x7x7_S25088,
    StableHlo.unary main_v18 main_v974 ((extractStridedSlice S1x1 ![2, 1] · slices_S3x4_S1x1_2_1) : (⟨S3x4, .i32⟩ : BufTy).Contents (Elt F) → (⟨S1x1, .i32⟩ : BufTy).Contents (Elt F)),
    StableHlo.reshape main_v974 main_v975 rfl shapeCasts_S1x1_S_,
    StableHlo.unary main_v23 main_v976 ((extractStridedSlice S1x1 ![0, 1] · slices_S4x4_S1x1_0_1) : (⟨S4x4, .i32⟩ : BufTy).Contents (Elt F) → (⟨S1x1, .i32⟩ : BufTy).Contents (Elt F)),
    StableHlo.reshape main_v976 main_v977 rfl shapeCasts_S1x1_S_,
    StableHlo.binary main_v975 main_v977 main_v978 (minsi : (⟨S_, .i32⟩ : BufTy).Contents (Elt F) → (⟨S_, .i32⟩ : BufTy).Contents (Elt F) → (⟨S_, .i32⟩ : BufTy).Contents (Elt F)),
    StableHlo.unary main_v18 main_v979 ((extractStridedSlice S1x1 ![2, 3] · slices_S3x4_S1x1_2_3) : (⟨S3x4, .i32⟩ : BufTy).Contents (Elt F) → (⟨S1x1, .i32⟩ : BufTy).Contents (Elt F)),
    StableHlo.reshape main_v979 main_v980 rfl shapeCasts_S1x1_S_,
    StableHlo.unary main_v23 main_v981 ((extractStridedSlice S1x1 ![0, 3] · slices_S4x4_S1x1_0_3) : (⟨S4x4, .i32⟩ : BufTy).Contents (Elt F) → (⟨S1x1, .i32⟩ : BufTy).Contents (Elt F)),
    StableHlo.reshape main_v981 main_v982 rfl shapeCasts_S1x1_S_,
    StableHlo.binary main_v980 main_v982 main_v983 (maxsi : (⟨S_, .i32⟩ : BufTy).Contents (Elt F) → (⟨S_, .i32⟩ : BufTy).Contents (Elt F) → (⟨S_, .i32⟩ : BufTy).Contents (Elt F)),
    StableHlo.unary main_v18 main_v984 ((extractStridedSlice S1x1 ![2, 0] · slices_S3x4_S1x1_2_0) : (⟨S3x4, .i32⟩ : BufTy).Contents (Elt F) → (⟨S1x1, .i32⟩ : BufTy).Contents (Elt F)),
    StableHlo.reshape main_v984 main_v985 rfl shapeCasts_S1x1_S_,
    StableHlo.unary main_v23 main_v986 ((extractStridedSlice S1x1 ![0, 0] · slices_S4x4_S1x1_0_0) : (⟨S4x4, .i32⟩ : BufTy).Contents (Elt F) → (⟨S1x1, .i32⟩ : BufTy).Contents (Elt F)),
    StableHlo.reshape main_v986 main_v987 rfl shapeCasts_S1x1_S_,
    StableHlo.binary main_v985 main_v987 main_v988 (minsi : (⟨S_, .i32⟩ : BufTy).Contents (Elt F) → (⟨S_, .i32⟩ : BufTy).Contents (Elt F) → (⟨S_, .i32⟩ : BufTy).Contents (Elt F)),
    StableHlo.unary main_v18 main_v989 ((extractStridedSlice S1x1 ![2, 2] · slices_S3x4_S1x1_2_2) : (⟨S3x4, .i32⟩ : BufTy).Contents (Elt F) → (⟨S1x1, .i32⟩ : BufTy).Contents (Elt F)),
    StableHlo.reshape main_v989 main_v990 rfl shapeCasts_S1x1_S_,
    StableHlo.unary main_v23 main_v991 ((extractStridedSlice S1x1 ![0, 2] · slices_S4x4_S1x1_0_2) : (⟨S4x4, .i32⟩ : BufTy).Contents (Elt F) → (⟨S1x1, .i32⟩ : BufTy).Contents (Elt F)),
    StableHlo.reshape main_v991 main_v992 rfl shapeCasts_S1x1_S_,
    StableHlo.binary main_v990 main_v992 main_v993 (maxsi : (⟨S_, .i32⟩ : BufTy).Contents (Elt F) → (⟨S_, .i32⟩ : BufTy).Contents (Elt F) → (⟨S_, .i32⟩ : BufTy).Contents (Elt F)),
    StableHlo.binary main_v983 main_v978 main_v994 (subi : (⟨S_, .i32⟩ : BufTy).Contents (Elt F) → (⟨S_, .i32⟩ : BufTy).Contents (Elt F) → (⟨S_, .i32⟩ : BufTy).Contents (Elt F)),
    StableHlo.binary main_v993 main_v988 main_v995 (subi : (⟨S_, .i32⟩ : BufTy).Contents (Elt F) → (⟨S_, .i32⟩ : BufTy).Contents (Elt F) → (⟨S_, .i32⟩ : BufTy).Contents (Elt F)),
    StableHlo.nullary main_v996 (iotaInDim S7 32 0),
    StableHlo.nullary main_v997 (iotaInDim S7 32 0),
    StableHlo.unary main_v994 main_v998 (broadcastInDim S7 ![] bcast_S_S7 : (⟨S_, .i32⟩ : BufTy).Contents (Elt F) → (⟨S7, .i32⟩ : BufTy).Contents (Elt F)),
    StableHlo.binary main_v996 main_v998 main_v999 (muli : (⟨S7, .i32⟩ : BufTy).Contents (Elt F) → (⟨S7, .i32⟩ : BufTy).Contents (Elt F) → (⟨S7, .i32⟩ : BufTy).Contents (Elt F)),
    StableHlo.nullary main_c_126 (constantI S_ 32 7#32) ]
theorem ops18_4_sub : (ops18_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops18_4_fresh : (ops18_4 : List (HloOp τ sig (Elt F))).Forall fun op => op.fresh = ∅ := by
  simp only [List.Forall]; repeat' constructor
theorem ops18_4_keeps : (ops18_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1969 … 1985 of the program (17 of window 18), in order. -/
abbrev ops18_5 : List (HloOp τ sig (Elt F)) :=
  [ StableHlo.TRef.unary (.of main_c_126 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S7, .i32⟩) (broadcastInDim S7 ![] bcast_S_S7),
    StableHlo.TRef.binary (.of main_v999 : StableHlo.TRef sig ⟨S7, .i32⟩) (.of main_call74_v1 : StableHlo.TRef sig ⟨S7, .i32⟩) (.of main_call74_v2 : StableHlo.TRef sig ⟨S7, .i32⟩) Host.divsi,
    StableHlo.TRef.unary (.of main_v999 : StableHlo.TRef sig ⟨S7, .i32⟩) (.of main_call74_v3 : StableHlo.TRef sig ⟨S7, .i32⟩) signi,
    StableHlo.TRef.unary (.of main_call74_v0 : StableHlo.TRef sig ⟨S_, .i32⟩) (.of main_call74_v4 : StableHlo.TRef sig ⟨S_, .i32⟩) signi,
    StableHlo.TRef.unary (.of main_call74_v4 : StableHlo.TRef sig ⟨S_, .i32⟩) (.of main_call74_v5 : StableHlo.TRef sig ⟨S7, .i32⟩) (broadcastInDim S7 ![] bcast_S_S7),
    StableHlo.TRef.binary (.of main_call74_v3 : StableHlo.TRef sig ⟨S7, .i32⟩) (.of main_call74_v5 : StableHlo.TRef sig ⟨S7, .i32⟩) (.of main_call74_v6 : StableHlo.TRef sig ⟨S7, .i1⟩) (cmpi .ne),
    StableHlo.TRef.unary (.of main_call74_v0 : StableHlo.TRef sig ⟨S_, .i32⟩) (.of main_call74_v7 : StableHlo.TRef sig ⟨S7, .i32⟩) (broadcastInDim S7 ![] bcast_S_S7),
    StableHlo.TRef.binary (.of main_v999 : StableHlo.TRef sig ⟨S7, .i32⟩) (.of main_call74_v7 : StableHlo.TRef sig ⟨S7, .i32⟩) (.of main_call74_v8 : StableHlo.TRef sig ⟨S7, .i32⟩) Host.remsi,
    StableHlo.TRef.nullary (.of main_call74_c : StableHlo.TRef sig ⟨S_, .i32⟩) (constantI S_ 32 0#32),
    StableHlo.TRef.unary (.of main_call74_c : StableHlo.TRef sig ⟨S_, .i32⟩) (.of main_call74_v9 : StableHlo.TRef sig ⟨S7, .i32⟩) (broadcastInDim S7 ![] bcast_S_S7),
    StableHlo.TRef.binary (.of main_call74_v8 : StableHlo.TRef sig ⟨S7, .i32⟩) (.of main_call74_v9 : StableHlo.TRef sig ⟨S7, .i32⟩) (.of main_call74_v10 : StableHlo.TRef sig ⟨S7, .i1⟩) (cmpi .ne),
    StableHlo.TRef.binary (.of main_call74_v6 : StableHlo.TRef sig ⟨S7, .i1⟩) (.of main_call74_v10 : StableHlo.TRef sig ⟨S7, .i1⟩) (.of main_call74_v11 : StableHlo.TRef sig ⟨S7, .i1⟩) andi,
    StableHlo.TRef.nullary (.of main_call74_c_0 : StableHlo.TRef sig ⟨S_, .i32⟩) (constantI S_ 32 1#32),
    StableHlo.TRef.unary (.of main_call74_c_0 : StableHlo.TRef sig ⟨S_, .i32⟩) (.of main_call74_v12 : StableHlo.TRef sig ⟨S7, .i32⟩) (broadcastInDim S7 ![] bcast_S_S7),
    StableHlo.TRef.binary (.of main_call74_v2 : StableHlo.TRef sig ⟨S7, .i32⟩) (.of main_call74_v12 : StableHlo.TRef sig ⟨S7, .i32⟩) (.of main_call74_v13 : StableHlo.TRef sig ⟨S7, .i32⟩) subi,
    StableHlo.TRef.ternary (.of main_call74_v11 : StableHlo.TRef sig ⟨S7, .i1⟩) (.of main_call74_v13 : StableHlo.TRef sig ⟨S7, .i32⟩) (.of main_call74_v2 : StableHlo.TRef sig ⟨S7, .i32⟩) (.of main_v1000 : StableHlo.TRef sig ⟨S7, .i32⟩) select ]
theorem ops18_5_sub : (ops18_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops18_5_fresh : (ops18_5 : List (HloOp τ sig (Elt F))).Forall fun op => op.fresh = ∅ := by
  simp only [List.Forall]; repeat' constructor
theorem ops18_5_keeps : (ops18_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1986 … 1994 of the program (9 of window 18), in order. -/
abbrev ops18_6 : List (HloOp τ sig (Elt F)) :=
  [ StableHlo.unary main_v978 main_v1001 (broadcastInDim S7 ![] bcast_S_S7 : (⟨S_, .i32⟩ : BufTy).Contents (Elt F) → (⟨S7, .i32⟩ : BufTy).Contents (Elt F)),
    StableHlo.binary main_v1001 main_v1000 main_v1002 (addi : (⟨S7, .i32⟩ : BufTy).Contents (Elt F) → (⟨S7, .i32⟩ : BufTy).Contents (Elt F) → (⟨S7, .i32⟩ : BufTy).Contents (Elt F)),
    StableHlo.nullary main_c_127 (constantI S_ 32 1#32),
    StableHlo.unary main_c_127 main_v1003 (broadcastInDim S7 ![] bcast_S_S7 : (⟨S_, .i32⟩ : BufTy).Contents (Elt F) → (⟨S7, .i32⟩ : BufTy).Contents (Elt F)),
    StableHlo.binary main_v996 main_v1003 main_v1004 (addi : (⟨S7, .i32⟩ : BufTy).Contents (Elt F) → (⟨S7, .i32⟩ : BufTy).Contents (Elt F) → (⟨S7, .i32⟩ : BufTy).Contents (Elt F)),
    StableHlo.unary main_v1004 main_v1005 (negi : (⟨S7, .i32⟩ : BufTy).Contents (Elt F) → (⟨S7, .i32⟩ : BufTy).Contents (Elt F)),
    StableHlo.unary main_v994 main_v1006 (broadcastInDim S7 ![] bcast_S_S7 : (⟨S_, .i32⟩ : BufTy).Contents (Elt F) → (⟨S7, .i32⟩ : BufTy).Contents (Elt F)),
    StableHlo.binary main_v1005 main_v1006 main_v1007 (muli : (⟨S7, .i32⟩ : BufTy).Contents (Elt F) → (⟨S7, .i32⟩ : BufTy).Contents (Elt F) → (⟨S7, .i32⟩ : BufTy).Contents (Elt F)),
    StableHlo.nullary main_c_128 (constantI S_ 32 7#32) ]
theorem ops18_6_sub : (ops18_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops18_6_fresh : (ops18_6 : List (HloOp τ sig (Elt F))).Forall fun op => op.fresh = ∅ := by
  simp only [List.Forall]; repeat' constructor
theorem ops18_6_keeps : (ops18_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 1995 … 2011 of the program (17 of window 18), in order. -/
abbrev ops18_7 : List (HloOp τ sig (Elt F)) :=
  [ StableHlo.TRef.unary (.of main_c_128 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S7, .i32⟩) (broadcastInDim S7 ![] bcast_S_S7),
    StableHlo.TRef.binary (.of main_v1007 : StableHlo.TRef sig ⟨S7, .i32⟩) (.of main_call75_v1 : StableHlo.TRef sig ⟨S7, .i32⟩) (.of main_call75_v2 : StableHlo.TRef sig ⟨S7, .i32⟩) Host.divsi,
    StableHlo.TRef.unary (.of main_v1007 : StableHlo.TRef sig ⟨S7, .i32⟩) (.of main_call75_v3 : StableHlo.TRef sig ⟨S7, .i32⟩) signi,
    StableHlo.TRef.unary (.of main_call75_v0 : StableHlo.TRef sig ⟨S_, .i32⟩) (.of main_call75_v4 : StableHlo.TRef sig ⟨S_, .i32⟩) signi,
    StableHlo.TRef.unary (.of main_call75_v4 : StableHlo.TRef sig ⟨S_, .i32⟩) (.of main_call75_v5 : StableHlo.TRef sig ⟨S7, .i32⟩) (broadcastInDim S7 ![] bcast_S_S7),
    StableHlo.TRef.binary (.of main_call75_v3 : StableHlo.TRef sig ⟨S7, .i32⟩) (.of main_call75_v5 : StableHlo.TRef sig ⟨S7, .i32⟩) (.of main_call75_v6 : StableHlo.TRef sig ⟨S7, .i1⟩) (cmpi .ne),
    StableHlo.TRef.unary (.of main_call75_v0 : StableHlo.TRef sig ⟨S_, .i32⟩) (.of main_call75_v7 : StableHlo.TRef sig ⟨S7, .i32⟩) (broadcastInDim S7 ![] bcast_S_S7),
    StableHlo.TRef.binary (.of main_v1007 : StableHlo.TRef sig ⟨S7, .i32⟩) (.of main_call75_v7 : StableHlo.TRef sig ⟨S7, .i32⟩) (.of main_call75_v8 : StableHlo.TRef sig ⟨S7, .i32⟩) Host.remsi,
    StableHlo.TRef.nullary (.of main_call75_c : StableHlo.TRef sig ⟨S_, .i32⟩) (constantI S_ 32 0#32),
    StableHlo.TRef.unary (.of main_call75_c : StableHlo.TRef sig ⟨S_, .i32⟩) (.of main_call75_v9 : StableHlo.TRef sig ⟨S7, .i32⟩) (broadcastInDim S7 ![] bcast_S_S7),
    StableHlo.TRef.binary (.of main_call75_v8 : StableHlo.TRef sig ⟨S7, .i32⟩) (.of main_call75_v9 : StableHlo.TRef sig ⟨S7, .i32⟩) (.of main_call75_v10 : StableHlo.TRef sig ⟨S7, .i1⟩) (cmpi .ne),
    StableHlo.TRef.binary (.of main_call75_v6 : StableHlo.TRef sig ⟨S7, .i1⟩) (.of main_call75_v10 : StableHlo.TRef sig ⟨S7, .i1⟩) (.of main_call75_v11 : StableHlo.TRef sig ⟨S7, .i1⟩) andi,
    StableHlo.TRef.nullary (.of main_call75_c_0 : StableHlo.TRef sig ⟨S_, .i32⟩) (constantI S_ 32 1#32),
    StableHlo.TRef.unary (.of main_call75_c_0 : StableHlo.TRef sig ⟨S_, .i32⟩) (.of main_call75_v12 : StableHlo.TRef sig ⟨S7, .i32⟩) (broadcastInDim S7 ![] bcast_S_S7),
    StableHlo.TRef.binary (.of main_call75_v2 : StableHlo.TRef sig ⟨S7, .i32⟩) (.of main_call75_v12 : StableHlo.TRef sig ⟨S7, .i32⟩) (.of main_call75_v13 : StableHlo.TRef sig ⟨S7, .i32⟩) subi,
    StableHlo.TRef.ternary (.of main_call75_v11 : StableHlo.TRef sig ⟨S7, .i1⟩) (.of main_call75_v13 : StableHlo.TRef sig ⟨S7, .i32⟩) (.of main_call75_v2 : StableHlo.TRef sig ⟨S7, .i32⟩) (.of main_v1008 : StableHlo.TRef sig ⟨S7, .i32⟩) select ]
theorem ops18_7_sub : (ops18_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops18_7_fresh : (ops18_7 : List (HloOp τ sig (Elt F))).Forall fun op => op.fresh = ∅ := by
  simp only [List.Forall]; repeat' constructor
theorem ops18_7_keeps : (ops18_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops18_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part18_eq (c : Dev nD) : main_part18 (F := F) c = Pipeline.chainK [StableHlo.seq ops18_0, StableHlo.seq ops18_1, StableHlo.seq ops18_2, StableHlo.seq ops18_3, StableHlo.seq ops18_4, StableHlo.seq ops18_5, StableHlo.seq ops18_6] (StableHlo.seq ops18_7) := by
  chain_rfl

end Cert.ReferenceIdeal.Host

end
-- ==== Proof.RefOps19.lean ====
/- Window 19 of the program's @main, every called function's body written out in place: 98 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 2012 … 2016 of the program (5 of window 19), in order. -/
abbrev ops19_0 : List (HloOp τ sig (Elt F)) :=
  [ StableHlo.unary main_v978 main_v1009 (broadcastInDim S7 ![] bcast_S_S7 : (⟨S_, .i32⟩ : BufTy).Contents (Elt F) → (⟨S7, .i32⟩ : BufTy).Contents (Elt F)),
    StableHlo.binary main_v1009 main_v1008 main_v1010 (subi : (⟨S7, .i32⟩ : BufTy).Contents (Elt F) → (⟨S7, .i32⟩ : BufTy).Contents (Elt F) → (⟨S7, .i32⟩ : BufTy).Contents (Elt F)),
    StableHlo.unary main_v995 main_v1011 (broadcastInDim S7 ![] bcast_S_S7 : (⟨S_, .i32⟩ : BufTy).Contents (Elt F) → (⟨S7, .i32⟩ : BufTy).Contents (Elt F)),
    StableHlo.binary main_v997 main_v1011 main_v1012 (muli : (⟨S7, .i32⟩ : BufTy).Contents (Elt F) → (⟨S7, .i32⟩ : BufTy).Contents (Elt F) → (⟨S7, .i32⟩ : BufTy).Contents (Elt F)),
    StableHlo.nullary main_c_129 (constantI S_ 32 7#32) ]
theorem ops19_0_sub : (ops19_0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops19_0_fresh : (ops19_0 : List (HloOp τ sig (Elt F))).Forall fun op => op.fresh = ∅ := by
  simp only [List.Forall]; repeat' constructor
theorem ops19_0_keeps : (ops19_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2017 … 2033 of the program (17 of window 19), in order. -/
abbrev ops19_1 : List (HloOp τ sig (Elt F)) :=
  [ StableHlo.TRef.unary (.of main_c_129 : StableHlo.TRef sig ⟨S_, .i32⟩) (.of main_call76_v0 : StableHlo.TRef sig ⟨S_, .i32⟩) id,
    StableHlo.TRef.unary (.of main_call76_v0 : StableHlo.TRef sig ⟨S_, .i32⟩) (.of main_call76_v1 : StableHlo.TRef sig ⟨S7, .i32⟩) (broadcastInDim S7 ![] bcast_S_S7),
    StableHlo.TRef.binary (.of main_v1012 : StableHlo.TRef sig ⟨S7, .i32⟩) (.of main_call76_v1 : StableHlo.TRef sig ⟨S7, .i32⟩) (.of main_call76_v2 : StableHlo.TRef sig ⟨S7, .i32⟩) Host.divsi,
    StableHlo.TRef.unary (.of main_v1012 : StableHlo.TRef sig ⟨S7, .i32⟩) (.of main_call76_v3 : StableHlo.TRef sig ⟨S7, .i32⟩) signi,
    StableHlo.TRef.unary (.of main_call76_v0 : StableHlo.TRef sig ⟨S_, .i32⟩) (.of main_call76_v4 : StableHlo.TRef sig ⟨S_, .i32⟩) signi,
    StableHlo.TRef.unary (.of main_call76_v4 : StableHlo.TRef sig ⟨S_, .i32⟩) (.of main_call76_v5 : StableHlo.TRef sig ⟨S7, .i32⟩) (broadcastInDim S7 ![] bcast_S_S7),
    StableHlo.TRef.binary (.of main_call76_v3 : StableHlo.TRef sig ⟨S7, .i32⟩) (.of main_call76_v5 : StableHlo.TRef sig ⟨S7, .i32⟩) (.of main_call76_v6 : StableHlo.TRef sig ⟨S7, .i1⟩) (cmpi .ne),
    StableHlo.TRef.unary (.of main_call76_v0 : StableHlo.TRef sig ⟨S_, .i32⟩) (.of main_call76_v7 : StableHlo.TRef sig ⟨S7, .i32⟩) (broadcastInDim S7 ![] bcast_S_S7),
    StableHlo.TRef.binary (.of main_v1012 : StableHlo.TRef sig ⟨S7, .i32⟩) (.of main_call76_v7 : StableHlo.TRef sig ⟨S7, .i32⟩) (.of main_call76_v8 : StableHlo.TRef sig ⟨S7, .i32⟩) Host.remsi,
    StableHlo.TRef.nullary (.of main_call76_c : StableHlo.TRef sig ⟨S_, .i32⟩) (constantI S_ 32 0#32),
    StableHlo.TRef.unary (.of main_call76_c : StableHlo.TRef sig ⟨S_, .i32⟩) (.of main_call76_v9 : StableHlo.TRef sig ⟨S7, .i32⟩) (broadcastInDim S7 ![] bcast_S_S7),
    StableHlo.TRef.binary (.of main_call76_v8 : StableHlo.TRef sig ⟨S7, .i32⟩) (.of main_call76_v9 : StableHlo.TRef sig ⟨S7, .i32⟩) (.of main_call76_v10 : StableHlo.TRef sig ⟨S7, .i1⟩) (cmpi .ne),
    StableHlo.TRef.binary (.of main_call76_v6 : StableHlo.TRef sig ⟨S7, .i1⟩) (.of main_call76_v10 : StableHlo.TRef sig ⟨S7, .i1⟩) (.of main_call76_v11 : StableHlo.TRef sig ⟨S7, .i1⟩) andi,
    StableHlo.TRef.nullary (.of main_call76_c_0 : StableHlo.TRef sig ⟨S_, .i32⟩) (constantI S_ 32 1#32),
    StableHlo.TRef.unary (.of main_call76_c_0 : StableHlo.TRef sig ⟨S_, .i32⟩) (.of main_call76_v12 : StableHlo.TRef sig ⟨S7, .i32⟩) (broadcastInDim S7 ![] bcast_S_S7),
    StableHlo.TRef.binary (.of main_call76_v2 : StableHlo.TRef sig ⟨S7, .i32⟩) (.of main_call76_v12 : StableHlo.TRef sig ⟨S7, .i32⟩) (.of main_call76_v13 : StableHlo.TRef sig ⟨S7, .i32⟩) subi,
    StableHlo.TRef.ternary (.of main_call76_v11 : StableHlo.TRef sig ⟨S7, .i1⟩) (.of main_call76_v13 : StableHlo.TRef sig ⟨S7, .i32⟩) (.of main_call76_v2 : StableHlo.TRef sig ⟨S7, .i32⟩) (.of main_v1013 : StableHlo.TRef sig ⟨S7, .i32⟩) select ]
theorem ops19_1_sub : (ops19_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops19_1_fresh : (ops19_1 : List (HloOp τ sig (Elt F))).Forall fun op => op.fresh = ∅ := by
  simp only [List.Forall]; repeat' constructor
theorem ops19_1_keeps : (ops19_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2034 … 2042 of the program (9 of window 19), in order. -/
abbrev ops19_2 : List (HloOp τ sig (Elt F)) :=
  [ StableHlo.unary main_v988 main_v1014 (broadcastInDim S7 ![] bcast_S_S7 : (⟨S_, .i32⟩ : BufTy).Contents (Elt F) → (⟨S7, .i32⟩ : BufTy).Contents (Elt F)),
    StableHlo.binary main_v1014 main_v1013 main_v1015 (addi : (⟨S7, .i32⟩ : BufTy).Contents (Elt F) → (⟨S7, .i32⟩ : BufTy).Contents (Elt F) → (⟨S7, .i32⟩ : BufTy).Contents (Elt F)),
    StableHlo.nullary main_c_130 (constantI S_ 32 1#32),
    StableHlo.unary main_c_130 main_v1016 (broadcastInDim S7 ![] bcast_S_S7 : (⟨S_, .i32⟩ : BufTy).Contents (Elt F) → (⟨S7, .i32⟩ : BufTy).Contents (Elt F)),
    StableHlo.binary main_v997 main_v1016 main_v1017 (addi : (⟨S7, .i32⟩ : BufTy).Contents (Elt F) → (⟨S7, .i32⟩ : BufTy).Contents (Elt F) → (⟨S7, .i32⟩ : BufTy).Contents (Elt F)),
    StableHlo.unary main_v1017 main_v1018 (negi : (⟨S7, .i32⟩ : BufTy).Contents (Elt F) → (⟨S7, .i32⟩ : BufTy).Contents (Elt F)),
    StableHlo.unary main_v995 main_v1019 (broadcastInDim S7 ![] bcast_S_S7 : (⟨S_, .i32⟩ : BufTy).Contents (Elt F) → (⟨S7, .i32⟩ : BufTy).Contents (Elt F)),
    StableHlo.binary main_v1018 main_v1019 main_v1020 (muli : (⟨S7, .i32⟩ : BufTy).Contents (Elt F) → (⟨S7, .i32⟩ : BufTy).Contents (Elt F) → (⟨S7, .i32⟩ : BufTy).Contents (Elt F)),
    StableHlo.nullary main_c_131 (constantI S_ 32 7#32) ]
theorem ops19_2_sub : (ops19_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops19_2_fresh : (ops19_2 : List (HloOp τ sig (Elt F))).Forall fun op => op.fresh = ∅ := by
  simp only [List.Forall]; repeat' constructor
theorem ops19_2_keeps : (ops19_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2043 … 2059 of the program (17 of window 19), in order. -/
abbrev ops19_3 : List (HloOp τ sig (Elt F)) :=
  [ StableHlo.TRef.unary (.of main_c_131 : StableHlo.TRef sig ⟨S_, .i32⟩) (.of main_call77_v0 : StableHlo.TRef sig ⟨S_, .i32⟩) id,
    StableHlo.TRef.unary (.of main_call77_v0 : StableHlo.TRef sig ⟨S_, .i32⟩) (.of main_call77_v1 : StableHlo.TRef sig ⟨S7, .i32⟩) (broadcastInDim S7 ![] bcast_S_S7),
    StableHlo.TRef.binary (.of main_v1020 : StableHlo.TRef sig ⟨S7, .i32⟩) (.of main_call77_v1 : StableHlo.TRef sig ⟨S7, .i32⟩) (.of main_call77_v2 : StableHlo.TRef sig ⟨S7, .i32⟩) Host.divsi,
    StableHlo.TRef.unary (.of main_v1020 : StableHlo.TRef sig ⟨S7, .i32⟩) (.of main_call77_v3 : StableHlo.TRef sig ⟨S7, .i32⟩) signi,
    StableHlo.TRef.unary (.of main_call77_v0 : StableHlo.TRef sig ⟨S_, .i32⟩) (.of main_call77_v4 : StableHlo.TRef sig ⟨S_, .i32⟩) signi,
    StableHlo.TRef.unary (.of main_call77_v4 : StableHlo.TRef sig ⟨S_, .i32⟩) (.of main_call77_v5 : StableHlo.TRef sig ⟨S7, .i32⟩) (broadcastInDim S7 ![] bcast_S_S7),
    StableHlo.TRef.binary (.of main_call77_v3 : StableHlo.TRef sig ⟨S7, .i32⟩) (.of main_call77_v5 : StableHlo.TRef sig ⟨S7, .i32⟩) (.of main_call77_v6 : StableHlo.TRef sig ⟨S7, .i1⟩) (cmpi .ne),
    StableHlo.TRef.unary (.of main_call77_v0 : StableHlo.TRef sig ⟨S_, .i32⟩) (.of main_call77_v7 : StableHlo.TRef sig ⟨S7, .i32⟩) (broadcastInDim S7 ![] bcast_S_S7),
    StableHlo.TRef.binary (.of main_v1020 : StableHlo.TRef sig ⟨S7, .i32⟩) (.of main_call77_v7 : StableHlo.TRef sig ⟨S7, .i32⟩) (.of main_call77_v8 : StableHlo.TRef sig ⟨S7, .i32⟩) Host.remsi,
    StableHlo.TRef.nullary (.of main_call77_c : StableHlo.TRef sig ⟨S_, .i32⟩) (constantI S_ 32 0#32),
    StableHlo.TRef.unary (.of main_call77_c : StableHlo.TRef sig ⟨S_, .i32⟩) (.of main_call77_v9 : StableHlo.TRef sig ⟨S7, .i32⟩) (broadcastInDim S7 ![] bcast_S_S7),
    StableHlo.TRef.binary (.of main_call77_v8 : StableHlo.TRef sig ⟨S7, .i32⟩) (.of main_call77_v9 : StableHlo.TRef sig ⟨S7, .i32⟩) (.of main_call77_v10 : StableHlo.TRef sig ⟨S7, .i1⟩) (cmpi .ne),
    StableHlo.TRef.binary (.of main_call77_v6 : StableHlo.TRef sig ⟨S7, .i1⟩) (.of main_call77_v10 : StableHlo.TRef sig ⟨S7, .i1⟩) (.of main_call77_v11 : StableHlo.TRef sig ⟨S7, .i1⟩) andi,
    StableHlo.TRef.nullary (.of main_call77_c_0 : StableHlo.TRef sig ⟨S_, .i32⟩) (constantI S_ 32 1#32),
    StableHlo.TRef.unary (.of main_call77_c_0 : StableHlo.TRef sig ⟨S_, .i32⟩) (.of main_call77_v12 : StableHlo.TRef sig ⟨S7, .i32⟩) (broadcastInDim S7 ![] bcast_S_S7),
    StableHlo.TRef.binary (.of main_call77_v2 : StableHlo.TRef sig ⟨S7, .i32⟩) (.of main_call77_v12 : StableHlo.TRef sig ⟨S7, .i32⟩) (.of main_call77_v13 : StableHlo.TRef sig ⟨S7, .i32⟩) subi,
    StableHlo.TRef.ternary (.of main_call77_v11 : StableHlo.TRef sig ⟨S7, .i1⟩) (.of main_call77_v13 : StableHlo.TRef sig ⟨S7, .i32⟩) (.of main_call77_v2 : StableHlo.TRef sig ⟨S7, .i32⟩) (.of main_v1021 : StableHlo.TRef sig ⟨S7, .i32⟩) select ]
theorem ops19_3_sub : (ops19_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops19_3_fresh : (ops19_3 : List (HloOp τ sig (Elt F))).Forall fun op => op.fresh = ∅ := by
  simp only [List.Forall]; repeat' constructor
theorem ops19_3_keeps : (ops19_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2060 … 2088 of the program (29 of window 19), in order. -/
abbrev ops19_4 : List (HloOp τ sig (Elt F)) :=
  [ StableHlo.unary main_v988 main_v1022 (broadcastInDim S7 ![] bcast_S_S7 : (⟨S_, .i32⟩ : BufTy).Contents (Elt F) → (⟨S7, .i32⟩ : BufTy).Contents (Elt F)),
    StableHlo.binary main_v1022 main_v1021 main_v1023 (subi : (⟨S7, .i32⟩ : BufTy).Contents (Elt F) → (⟨S7, .i32⟩ : BufTy).Contents (Elt F) → (⟨S7, .i32⟩ : BufTy).Contents (Elt F)),
    StableHlo.nullary main_v1024 (iotaInDim S64 32 0),
    StableHlo.nullary main_v1025 (iotaInDim S64 32 0),
    StableHlo.unary main_v1024 main_v1026 (broadcastInDim S1x64 ![1] bcast_S64_S1x64_1 : (⟨S64, .i32⟩ : BufTy).Contents (Elt F) → (⟨S1x64, .i32⟩ : BufTy).Contents (Elt F)),
    StableHlo.unary main_v1002 main_v1027 (broadcastInDim S7x1 ![0] bcast_S7_S7x1_0 : (⟨S7, .i32⟩ : BufTy).Contents (Elt F) → (⟨S7x1, .i32⟩ : BufTy).Contents (Elt F)),
    StableHlo.unary main_v1026 main_v1028 (broadcastInDim S7x64 ![0, 1] bcast_S1x64_S7x64_0_1 : (⟨S1x64, .i32⟩ : BufTy).Contents (Elt F) → (⟨S7x64, .i32⟩ : BufTy).Contents (Elt F)),
    StableHlo.unary main_v1027 main_v1029 (broadcastInDim S7x64 ![0, 1] bcast_S7x1_S7x64_0_1 : (⟨S7x1, .i32⟩ : BufTy).Contents (Elt F) → (⟨S7x64, .i32⟩ : BufTy).Contents (Elt F)),
    StableHlo.binary main_v1028 main_v1029 main_v1030 (cmpi .sge : (⟨S7x64, .i32⟩ : BufTy).Contents (Elt F) → (⟨S7x64, .i32⟩ : BufTy).Contents (Elt F) → (⟨S7x64, .i1⟩ : BufTy).Contents (Elt F)),
    StableHlo.unary main_v1024 main_v1031 (broadcastInDim S1x64 ![1] bcast_S64_S1x64_1 : (⟨S64, .i32⟩ : BufTy).Contents (Elt F) → (⟨S1x64, .i32⟩ : BufTy).Contents (Elt F)),
    StableHlo.unary main_v1010 main_v1032 (broadcastInDim S7x1 ![0] bcast_S7_S7x1_0 : (⟨S7, .i32⟩ : BufTy).Contents (Elt F) → (⟨S7x1, .i32⟩ : BufTy).Contents (Elt F)),
    StableHlo.unary main_v1031 main_v1033 (broadcastInDim S7x64 ![0, 1] bcast_S1x64_S7x64_0_1 : (⟨S1x64, .i32⟩ : BufTy).Contents (Elt F) → (⟨S7x64, .i32⟩ : BufTy).Contents (Elt F)),
    StableHlo.unary main_v1032 main_v1034 (broadcastInDim S7x64 ![0, 1] bcast_S7x1_S7x64_0_1 : (⟨S7x1, .i32⟩ : BufTy).Contents (Elt F) → (⟨S7x64, .i32⟩ : BufTy).Contents (Elt F)),
    StableHlo.binary main_v1033 main_v1034 main_v1035 (cmpi .slt : (⟨S7x64, .i32⟩ : BufTy).Contents (Elt F) → (⟨S7x64, .i32⟩ : BufTy).Contents (Elt F) → (⟨S7x64, .i1⟩ : BufTy).Contents (Elt F)),
    StableHlo.binary main_v1030 main_v1035 main_v1036 (andi : (⟨S7x64, .i1⟩ : BufTy).Contents (Elt F) → (⟨S7x64, .i1⟩ : BufTy).Contents (Elt F) → (⟨S7x64, .i1⟩ : BufTy).Contents (Elt F)),
    StableHlo.unary main_v1025 main_v1037 (broadcastInDim S1x64 ![1] bcast_S64_S1x64_1 : (⟨S64, .i32⟩ : BufTy).Contents (Elt F) → (⟨S1x64, .i32⟩ : BufTy).Contents (Elt F)),
    StableHlo.unary main_v1015 main_v1038 (broadcastInDim S7x1 ![0] bcast_S7_S7x1_0 : (⟨S7, .i32⟩ : BufTy).Contents (Elt F) → (⟨S7x1, .i32⟩ : BufTy).Contents (Elt F)),
    StableHlo.unary main_v1037 main_v1039 (broadcastInDim S7x64 ![0, 1] bcast_S1x64_S7x64_0_1 : (⟨S1x64, .i32⟩ : BufTy).Contents (Elt F) → (⟨S7x64, .i32⟩ : BufTy).Contents (Elt F)),
    StableHlo.unary main_v1038 main_v1040 (broadcastInDim S7x64 ![0, 1] bcast_S7x1_S7x64_0_1 : (⟨S7x1, .i32⟩ : BufTy).Contents (Elt F) → (⟨S7x64, .i32⟩ : BufTy).Contents (Elt F)),
    StableHlo.binary main_v1039 main_v1040 main_v1041 (cmpi .sge : (⟨S7x64, .i32⟩ : BufTy).Contents (Elt F) → (⟨S7x64, .i32⟩ : BufTy).Contents (Elt F) → (⟨S7x64, .i1⟩ : BufTy).Contents (Elt F)),
    StableHlo.unary main_v1025 main_v1042 (broadcastInDim S1x64 ![1] bcast_S64_S1x64_1 : (⟨S64, .i32⟩ : BufTy).Contents (Elt F) → (⟨S1x64, .i32⟩ : BufTy).Contents (Elt F)),
    StableHlo.unary main_v1023 main_v1043 (broadcastInDim S7x1 ![0] bcast_S7_S7x1_0 : (⟨S7, .i32⟩ : BufTy).Contents (Elt F) → (⟨S7x1, .i32⟩ : BufTy).Contents (Elt F)),
    StableHlo.unary main_v1042 main_v1044 (broadcastInDim S7x64 ![0, 1] bcast_S1x64_S7x64_0_1 : (⟨S1x64, .i32⟩ : BufTy).Contents (Elt F) → (⟨S7x64, .i32⟩ : BufTy).Contents (Elt F)),
    StableHlo.unary main_v1043 main_v1045 (broadcastInDim S7x64 ![0, 1] bcast_S7x1_S7x64_0_1 : (⟨S7x1, .i32⟩ : BufTy).Contents (Elt F) → (⟨S7x64, .i32⟩ : BufTy).Contents (Elt F)),
    StableHlo.binary main_v1044 main_v1045 main_v1046 (cmpi .slt : (⟨S7x64, .i32⟩ : BufTy).Contents (Elt F) → (⟨S7x64, .i32⟩ : BufTy).Contents (Elt F) → (⟨S7x64, .i1⟩ : BufTy).Contents (Elt F)),
    StableHlo.binary main_v1041 main_v1046 main_v1047 (andi : (⟨S7x64, .i1⟩ : BufTy).Contents (Elt F) → (⟨S7x64, .i1⟩ : BufTy).Contents (Elt F) → (⟨S7x64, .i1⟩ : BufTy).Contents (Elt F)),
    StableHlo.unary main_v1036 main_v1048 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1049 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_132 (constant S_ .f32 0xFF800000#32) ]
theorem ops19_4_sub : (ops19_4 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops19_4_fresh : (ops19_4 : List (HloOp τ sig (Elt F))).Forall fun op => op.fresh = ∅ := by
  simp only [List.Forall]; repeat' constructor
theorem ops19_4_keeps : (ops19_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2089 … 2092 of the program (4 of window 19), in order. -/
abbrev ops19_5 : List (HloOp τ sig (Elt F)) :=
  [ StableHlo.TRef.unary (.of main_v1048 : StableHlo.TRef sig ⟨S7x1x64x1, .i1⟩) (.of main_call78_v0 : StableHlo.TRef sig ⟨S7x512x64x64, .i1⟩) (broadcastInDim S7x512x64x64 ![0, 1, 2, 3] bcast_S7x1x64x1_S7x512x64x64_0_1_2_3),
    StableHlo.TRef.unary (.of main_v1049 : StableHlo.TRef sig ⟨S1x512x64x64, .f32⟩) (.of main_call78_v1 : StableHlo.TRef sig ⟨S7x512x64x64, .f32⟩) (broadcastInDim S7x512x64x64 ![0, 1, 2, 3] bcast_S1x512x64x64_S7x512x64x64_0_1_2_3),
    StableHlo.TRef.unary (.of main_cst_132 : StableHlo.TRef sig ⟨S_, .f32⟩) (.of main_call78_v2 : StableHlo.TRef sig ⟨S7x512x64x64, .f32⟩) (broadcastInDim S7x512x64x64 ![] bcast_S_S7x512x64x64),
    StableHlo.TRef.ternary (.of main_call78_v0 : StableHlo.TRef sig ⟨S7x512x64x64, .i1⟩) (.of main_call78_v1 : StableHlo.TRef sig ⟨S7x512x64x64, .f32⟩) (.of main_call78_v2 : StableHlo.TRef sig ⟨S7x512x64x64, .f32⟩) (.of main_v1050 : StableHlo.TRef sig ⟨S7x512x64x64, .f32⟩) select ]
theorem ops19_5_sub : (ops19_5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops19_5_fresh : (ops19_5 : List (HloOp τ sig (Elt F))).Forall fun op => op.fresh = ∅ := by
  simp only [List.Forall]; repeat' constructor
theorem ops19_5_keeps : (ops19_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2093 … 2097 of the program (5 of window 19), in order. -/
abbrev ops19_6 : List (HloOp τ sig (Elt F)) :=
  [ StableHlo.nullary main_cst_133 (constant S_ .f32 0xFF800000#32),
    StableHlo.binary main_v1050 main_cst_133 main_v1051 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1047 main_v1052 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1051 main_v1053 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_134 (constant S_ .f32 0xFF800000#32) ]
theorem ops19_6_sub : (ops19_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops19_6_fresh : (ops19_6 : List (HloOp τ sig (Elt F))).Forall fun op => op.fresh = ∅ := by
  simp only [List.Forall]; repeat' constructor
theorem ops19_6_keeps : (ops19_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2098 … 2101 of the program (4 of window 19), in order. -/
abbrev ops19_7 : List (HloOp τ sig (Elt F)) :=
  [ StableHlo.TRef.unary (.of main_v1052 : StableHlo.TRef sig ⟨S1x1x7x64, .i1⟩) (.of main_call79_v0 : StableHlo.TRef sig ⟨S7x512x7x64, .i1⟩) (broadcastInDim S7x512x7x64 ![0, 1, 2, 3] bcast_S1x1x7x64_S7x512x7x64_0_1_2_3),
    StableHlo.TRef.unary (.of main_v1053 : StableHlo.TRef sig ⟨S7x512x1x64, .f32⟩) (.of main_call79_v1 : StableHlo.TRef sig ⟨S7x512x7x64, .f32⟩) (broadcastInDim S7x512x7x64 ![0, 1, 2, 3] bcast_S7x512x1x64_S7x512x7x64_0_1_2_3),
    StableHlo.TRef.unary (.of main_cst_134 : StableHlo.TRef sig ⟨S_, .f32⟩) (.of main_call79_v2 : StableHlo.TRef sig ⟨S7x512x7x64, .f32⟩) (broadcastInDim S7x512x7x64 ![] bcast_S_S7x512x7x64),
    StableHlo.TRef.ternary (.of main_call79_v0 : StableHlo.TRef sig ⟨S7x512x7x64, .i1⟩) (.of main_call79_v1 : StableHlo.TRef sig ⟨S7x512x7x64, .f32⟩) (.of main_call79_v2 : StableHlo.TRef sig ⟨S7x512x7x64, .f32⟩) (.of main_v1054 : StableHlo.TRef sig ⟨S7x512x7x64, .f32⟩) select ]
theorem ops19_7_sub : (ops19_7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops19_7_fresh : (ops19_7 : List (HloOp τ sig (Elt F))).Forall fun op => op.fresh = ∅ := by
  simp only [List.Forall]; repeat' constructor
theorem ops19_7_keeps : (ops19_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2102 … 2109 of the program (8 of window 19), in order. -/
abbrev ops19_8 : List (HloOp τ sig (Elt F)) :=
  [ StableHlo.nullary main_cst_135 (constant S_ .f32 0xFF800000#32),
    StableHlo.binary main_v1054 main_cst_135 main_v1055 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1055 main_v1056 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1056 main_v1057 rfl shapeCasts_S512x7x7_S25088,
    StableHlo.unary main_v18 main_v1058 ((extractStridedSlice S1x1 ![2, 1] · slices_S3x4_S1x1_2_1) : (⟨S3x4, .i32⟩ : BufTy).Contents (Elt F) → (⟨S1x1, .i32⟩ : BufTy).Contents (Elt F)),
    StableHlo.reshape main_v1058 main_v1059 rfl shapeCasts_S1x1_S_,
    StableHlo.unary main_v23 main_v1060 ((extractStridedSlice S1x1 ![1, 1] · slices_S4x4_S1x1_1_1) : (⟨S4x4, .i32⟩ : BufTy).Contents (Elt F) → (⟨S1x1, .i32⟩ : BufTy).Contents (Elt F)),
    StableHlo.reshape main_v1060 main_v1061 rfl shapeCasts_S1x1_S_ ]
theorem ops19_8_sub : (ops19_8 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub ..⟩
theorem ops19_8_fresh : (ops19_8 : List (HloOp τ sig (Elt F))).Forall fun op => op.fresh = ∅ := by
  simp only [List.Forall]; repeat' constructor
theorem ops19_8_keeps : (ops19_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops19_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part19_eq (c : Dev nD) : main_part19 (F := F) c = Pipeline.chainK [StableHlo.seq ops19_0, StableHlo.seq ops19_1, StableHlo.seq ops19_2, StableHlo.seq ops19_3, StableHlo.seq ops19_4, StableHlo.seq ops19_5, StableHlo.seq ops19_6, StableHlo.seq ops19_7] (StableHlo.seq ops19_8) := by
  chain_rfl

end Cert.ReferenceIdeal.Host

end
-- ==== Proof.RefOps20.lean ====
/- Window 20 of the program's @main, every called function's body written out in place: 124 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 2110 … 2132 of the program (23 of window 20), in order. -/
abbrev ops20_0 : List (HloOp τ sig (Elt F)) :=
  [ StableHlo.binary main_v1059 main_v1061 main_v1062 (minsi : (⟨S_, .i32⟩ : BufTy).Contents (Elt F) → (⟨S_, .i32⟩ : BufTy).Contents (Elt F) → (⟨S_, .i32⟩ : BufTy).Contents (Elt F)),
    StableHlo.unary main_v18 main_v1063 ((extractStridedSlice S1x1 ![2, 3] · slices_S3x4_S1x1_2_3) : (⟨S3x4, .i32⟩ : BufTy).Contents (Elt F) → (⟨S1x1, .i32⟩ : BufTy).Contents (Elt F)),
    StableHlo.reshape main_v1063 main_v1064 rfl shapeCasts_S1x1_S_,
    StableHlo.unary main_v23 main_v1065 ((extractStridedSlice S1x1 ![1, 3] · slices_S4x4_S1x1_1_3) : (⟨S4x4, .i32⟩ : BufTy).Contents (Elt F) → (⟨S1x1, .i32⟩ : BufTy).Contents (Elt F)),
    StableHlo.reshape main_v1065 main_v1066 rfl shapeCasts_S1x1_S_,
    StableHlo.binary main_v1064 main_v1066 main_v1067 (maxsi : (⟨S_, .i32⟩ : BufTy).Contents (Elt F) → (⟨S_, .i32⟩ : BufTy).Contents (Elt F) → (⟨S_, .i32⟩ : BufTy).Contents (Elt F)),
    StableHlo.unary main_v18 main_v1068 ((extractStridedSlice S1x1 ![2, 0] · slices_S3x4_S1x1_2_0) : (⟨S3x4, .i32⟩ : BufTy).Contents (Elt F) → (⟨S1x1, .i32⟩ : BufTy).Contents (Elt F)),
    StableHlo.reshape main_v1068 main_v1069 rfl shapeCasts_S1x1_S_,
    StableHlo.unary main_v23 main_v1070 ((extractStridedSlice S1x1 ![1, 0] · slices_S4x4_S1x1_1_0) : (⟨S4x4, .i32⟩ : BufTy).Contents (Elt F) → (⟨S1x1, .i32⟩ : BufTy).Contents (Elt F)),
    StableHlo.reshape main_v1070 main_v1071 rfl shapeCasts_S1x1_S_,
    StableHlo.binary main_v1069 main_v1071 main_v1072 (minsi : (⟨S_, .i32⟩ : BufTy).Contents (Elt F) → (⟨S_, .i32⟩ : BufTy).Contents (Elt F) → (⟨S_, .i32⟩ : BufTy).Contents (Elt F)),
    StableHlo.unary main_v18 main_v1073 ((extractStridedSlice S1x1 ![2, 2] · slices_S3x4_S1x1_2_2) : (⟨S3x4, .i32⟩ : BufTy).Contents (Elt F) → (⟨S1x1, .i32⟩ : BufTy).Contents (Elt F)),
    StableHlo.reshape main_v1073 main_v1074 rfl shapeCasts_S1x1_S_,
    StableHlo.unary main_v23 main_v1075 ((extractStridedSlice S1x1 ![1, 2] · slices_S4x4_S1x1_1_2) : (⟨S4x4, .i32⟩ : BufTy).Contents (Elt F) → (⟨S1x1, .i32⟩ : BufTy).Contents (Elt F)),
    StableHlo.reshape main_v1075 main_v1076 rfl shapeCasts_S1x1_S_,
    StableHlo.binary main_v1074 main_v1076 main_v1077 (maxsi : (⟨S_, .i32⟩ : BufTy).Contents (Elt F) → (⟨S_, .i32⟩ : BufTy).Contents (Elt F) → (⟨S_, .i32⟩ : BufTy).Contents (Elt F)),
    StableHlo.binary main_v1067 main_v1062 main_v1078 (subi : (⟨S_, .i32⟩ : BufTy).Contents (Elt F) → (⟨S_, .i32⟩ : BufTy).Contents (Elt F) → (⟨S_, .i32⟩ : BufTy).Contents (Elt F)),
    StableHlo.binary main_v1077 main_v1072 main_v1079 (subi : (⟨S_, .i32⟩ : BufTy).Contents (Elt F) → (⟨S_, .i32⟩ : BufTy).Contents (Elt F) → (⟨S_, .i32⟩ : BufTy).Contents (Elt F)),
    StableHlo.nullary main_v1080 (iotaInDim S7 32 0),
    StableHlo.nullary main_v1081 (iotaInDim S7 32 0),
    StableHlo.unary main_v1078 main_v1082 (broadcastInDim S7 ![] bcast_S_S7 : (⟨S_, .i32⟩ : BufTy).Contents (Elt F) → (⟨S7, .i32⟩ : BufTy).Contents (Elt F)),
    StableHlo.binary main_v1080 main_v1082 main_v1083 (muli : (⟨S7, .i32⟩ : BufTy).Contents (Elt F) → (⟨S7, .i32⟩ : BufTy).Contents (Elt F) → (⟨S7, .i32⟩ : BufTy).Contents (Elt F)),
    StableHlo.nullary main_c_136 (constantI S_ 32 7#32) ]
theorem ops20_0_sub : (ops20_0 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops20_0_fresh : (ops20_0 : List (HloOp τ sig (Elt F))).Forall fun op => op.fresh = ∅ := by
  simp only [List.Forall]; repeat' constructor
theorem ops20_0_keeps : (ops20_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2133 … 2149 of the program (17 of window 20), in order. -/
abbrev ops20_1 : List (HloOp τ sig (Elt F)) :=
  [ StableHlo.TRef.unary (.of main_c_136 : StableHlo.TRef sig ⟨S_, .i32⟩) (.of main_call80_v0 : StableHlo.TRef sig ⟨S_, .i32⟩) id,
    StableHlo.TRef.unary (.of main_call80_v0 : StableHlo.TRef sig ⟨S_, .i32⟩) (.of main_call80_v1 : StableHlo.TRef sig ⟨S7, .i32⟩) (broadcastInDim S7 ![] bcast_S_S7),
    StableHlo.TRef.binary (.of main_v1083 : StableHlo.TRef sig ⟨S7, .i32⟩) (.of main_call80_v1 : StableHlo.TRef sig ⟨S7, .i32⟩) (.of main_call80_v2 : StableHlo.TRef sig ⟨S7, .i32⟩) Host.divsi,
    StableHlo.TRef.unary (.of main_v1083 : StableHlo.TRef sig ⟨S7, .i32⟩) (.of main_call80_v3 : StableHlo.TRef sig ⟨S7, .i32⟩) signi,
    StableHlo.TRef.unary (.of main_call80_v0 : StableHlo.TRef sig ⟨S_, .i32⟩) (.of main_call80_v4 : StableHlo.TRef sig ⟨S_, .i32⟩) signi,
    StableHlo.TRef.unary (.of main_call80_v4 : StableHlo.TRef sig ⟨S_, .i32⟩) (.of main_call80_v5 : StableHlo.TRef sig ⟨S7, .i32⟩) (broadcastInDim S7 ![] bcast_S_S7),
    StableHlo.TRef.binary (.of main_call80_v3 : StableHlo.TRef sig ⟨S7, .i32⟩) (.of main_call80_v5 : StableHlo.TRef sig ⟨S7, .i32⟩) (.of main_call80_v6 : StableHlo.TRef sig ⟨S7, .i1⟩) (cmpi .ne),
    StableHlo.TRef.unary (.of main_call80_v0 : StableHlo.TRef sig ⟨S_, .i32⟩) (.of main_call80_v7 : StableHlo.TRef sig ⟨S7, .i32⟩) (broadcastInDim S7 ![] bcast_S_S7),
    StableHlo.TRef.binary (.of main_v1083 : StableHlo.TRef sig ⟨S7, .i32⟩) (.of main_call80_v7 : StableHlo.TRef sig ⟨S7, .i32⟩) (.of main_call80_v8 : StableHlo.TRef sig ⟨S7, .i32⟩) Host.remsi,
    StableHlo.TRef.nullary (.of main_call80_c : StableHlo.TRef sig ⟨S_, .i32⟩) (constantI S_ 32 0#32),
    StableHlo.TRef.unary (.of main_call80_c : StableHlo.TRef sig ⟨S_, .i32⟩) (.of main_call80_v9 : StableHlo.TRef sig ⟨S7, .i32⟩) (broadcastInDim S7 ![] bcast_S_S7),
    StableHlo.TRef.binary (.of main_call80_v8 : StableHlo.TRef sig ⟨S7, .i32⟩) (.of main_call80_v9 : StableHlo.TRef sig ⟨S7, .i32⟩) (.of main_call80_v10 : StableHlo.TRef sig ⟨S7, .i1⟩) (cmpi .ne),
    StableHlo.TRef.binary (.of main_call80_v6 : StableHlo.TRef sig ⟨S7, .i1⟩) (.of main_call80_v10 : StableHlo.TRef sig ⟨S7, .i1⟩) (.of main_call80_v11 : StableHlo.TRef sig ⟨S7, .i1⟩) andi,
    StableHlo.TRef.nullary (.of main_call80_c_0 : StableHlo.TRef sig ⟨S_, .i32⟩) (constantI S_ 32 1#32),
    StableHlo.TRef.unary (.of main_call80_c_0 : StableHlo.TRef sig ⟨S_, .i32⟩) (.of main_call80_v12 : StableHlo.TRef sig ⟨S7, .i32⟩) (broadcastInDim S7 ![] bcast_S_S7),
    StableHlo.TRef.binary (.of main_call80_v2 : StableHlo.TRef sig ⟨S7, .i32⟩) (.of main_call80_v12 : StableHlo.TRef sig ⟨S7, .i32⟩) (.of main_call80_v13 : StableHlo.TRef sig ⟨S7, .i32⟩) subi,
    StableHlo.TRef.ternary (.of main_call80_v11 : StableHlo.TRef sig ⟨S7, .i1⟩) (.of main_call80_v13 : StableHlo.TRef sig ⟨S7, .i32⟩) (.of main_call80_v2 : StableHlo.TRef sig ⟨S7, .i32⟩) (.of main_v1084 : StableHlo.TRef sig ⟨S7, .i32⟩) select ]
theorem ops20_1_sub : (ops20_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops20_1_fresh : (ops20_1 : List (HloOp τ sig (Elt F))).Forall fun op => op.fresh = ∅ := by
  simp only [List.Forall]; repeat' constructor
theorem ops20_1_keeps : (ops20_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2150 … 2158 of the program (9 of window 20), in order. -/
abbrev ops20_2 : List (HloOp τ sig (Elt F)) :=
  [ StableHlo.unary main_v1062 main_v1085 (broadcastInDim S7 ![] bcast_S_S7 : (⟨S_, .i32⟩ : BufTy).Contents (Elt F) → (⟨S7, .i32⟩ : BufTy).Contents (Elt F)),
    StableHlo.binary main_v1085 main_v1084 main_v1086 (addi : (⟨S7, .i32⟩ : BufTy).Contents (Elt F) → (⟨S7, .i32⟩ : BufTy).Contents (Elt F) → (⟨S7, .i32⟩ : BufTy).Contents (Elt F)),
    StableHlo.nullary main_c_137 (constantI S_ 32 1#32),
    StableHlo.unary main_c_137 main_v1087 (broadcastInDim S7 ![] bcast_S_S7 : (⟨S_, .i32⟩ : BufTy).Contents (Elt F) → (⟨S7, .i32⟩ : BufTy).Contents (Elt F)),
    StableHlo.binary main_v1080 main_v1087 main_v1088 (addi : (⟨S7, .i32⟩ : BufTy).Contents (Elt F) → (⟨S7, .i32⟩ : BufTy).Contents (Elt F) → (⟨S7, .i32⟩ : BufTy).Contents (Elt F)),
    StableHlo.unary main_v1088 main_v1089 (negi : (⟨S7, .i32⟩ : BufTy).Contents (Elt F) → (⟨S7, .i32⟩ : BufTy).Contents (Elt F)),
    StableHlo.unary main_v1078 main_v1090 (broadcastInDim S7 ![] bcast_S_S7 : (⟨S_, .i32⟩ : BufTy).Contents (Elt F) → (⟨S7, .i32⟩ : BufTy).Contents (Elt F)),
    StableHlo.binary main_v1089 main_v1090 main_v1091 (muli : (⟨S7, .i32⟩ : BufTy).Contents (Elt F) → (⟨S7, .i32⟩ : BufTy).Contents (Elt F) → (⟨S7, .i32⟩ : BufTy).Contents (Elt F)),
    StableHlo.nullary main_c_138 (constantI S_ 32 7#32) ]
theorem ops20_2_sub : (ops20_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops20_2_fresh : (ops20_2 : List (HloOp τ sig (Elt F))).Forall fun op => op.fresh = ∅ := by
  simp only [List.Forall]; repeat' constructor
theorem ops20_2_keeps : (ops20_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2159 … 2175 of the program (17 of window 20), in order. -/
abbrev ops20_3 : List (HloOp τ sig (Elt F)) :=
  [ StableHlo.TRef.unary (.of main_c_138 : StableHlo.TRef sig ⟨S_, .i32⟩) (.of main_call81_v0 : StableHlo.TRef sig ⟨S_, .i32⟩) id,
    StableHlo.TRef.unary (.of main_call81_v0 : StableHlo.TRef sig ⟨S_, .i32⟩) (.of main_call81_v1 : StableHlo.TRef sig ⟨S7, .i32⟩) (broadcastInDim S7 ![] bcast_S_S7),
    StableHlo.TRef.binary (.of main_v1091 : StableHlo.TRef sig ⟨S7, .i32⟩) (.of main_call81_v1 : StableHlo.TRef sig ⟨S7, .i32⟩) (.of main_call81_v2 : StableHlo.TRef sig ⟨S7, .i32⟩) Host.divsi,
    StableHlo.TRef.unary (.of main_v1091 : StableHlo.TRef sig ⟨S7, .i32⟩) (.of main_call81_v3 : StableHlo.TRef sig ⟨S7, .i32⟩) signi,
    StableHlo.TRef.unary (.of main_call81_v0 : StableHlo.TRef sig ⟨S_, .i32⟩) (.of main_call81_v4 : StableHlo.TRef sig ⟨S_, .i32⟩) signi,
    StableHlo.TRef.unary (.of main_call81_v4 : StableHlo.TRef sig ⟨S_, .i32⟩) (.of main_call81_v5 : StableHlo.TRef sig ⟨S7, .i32⟩) (broadcastInDim S7 ![] bcast_S_S7),
    StableHlo.TRef.binary (.of main_call81_v3 : StableHlo.TRef sig ⟨S7, .i32⟩) (.of main_call81_v5 : StableHlo.TRef sig ⟨S7, .i32⟩) (.of main_call81_v6 : StableHlo.TRef sig ⟨S7, .i1⟩) (cmpi .ne),
    StableHlo.TRef.unary (.of main_call81_v0 : StableHlo.TRef sig ⟨S_, .i32⟩) (.of main_call81_v7 : StableHlo.TRef sig ⟨S7, .i32⟩) (broadcastInDim S7 ![] bcast_S_S7),
    StableHlo.TRef.binary (.of main_v1091 : StableHlo.TRef sig ⟨S7, .i32⟩) (.of main_call81_v7 : StableHlo.TRef sig ⟨S7, .i32⟩) (.of main_call81_v8 : StableHlo.TRef sig ⟨S7, .i32⟩) Host.remsi,
    StableHlo.TRef.nullary (.of main_call81_c : StableHlo.TRef sig ⟨S_, .i32⟩) (constantI S_ 32 0#32),
    StableHlo.TRef.unary (.of main_call81_c : StableHlo.TRef sig ⟨S_, .i32⟩) (.of main_call81_v9 : StableHlo.TRef sig ⟨S7, .i32⟩) (broadcastInDim S7 ![] bcast_S_S7),
    StableHlo.TRef.binary (.of main_call81_v8 : StableHlo.TRef sig ⟨S7, .i32⟩) (.of main_call81_v9 : StableHlo.TRef sig ⟨S7, .i32⟩) (.of main_call81_v10 : StableHlo.TRef sig ⟨S7, .i1⟩) (cmpi .ne),
    StableHlo.TRef.binary (.of main_call81_v6 : StableHlo.TRef sig ⟨S7, .i1⟩) (.of main_call81_v10 : StableHlo.TRef sig ⟨S7, .i1⟩) (.of main_call81_v11 : StableHlo.TRef sig ⟨S7, .i1⟩) andi,
    StableHlo.TRef.nullary (.of main_call81_c_0 : StableHlo.TRef sig ⟨S_, .i32⟩) (constantI S_ 32 1#32),
    StableHlo.TRef.unary (.of main_call81_c_0 : StableHlo.TRef sig ⟨S_, .i32⟩) (.of main_call81_v12 : StableHlo.TRef sig ⟨S7, .i32⟩) (broadcastInDim S7 ![] bcast_S_S7),
    StableHlo.TRef.binary (.of main_call81_v2 : StableHlo.TRef sig ⟨S7, .i32⟩) (.of main_call81_v12 : StableHlo.TRef sig ⟨S7, .i32⟩) (.of main_call81_v13 : StableHlo.TRef sig ⟨S7, .i32⟩) subi,
    StableHlo.TRef.ternary (.of main_call81_v11 : StableHlo.TRef sig ⟨S7, .i1⟩) (.of main_call81_v13 : StableHlo.TRef sig ⟨S7, .i32⟩) (.of main_call81_v2 : StableHlo.TRef sig ⟨S7, .i32⟩) (.of main_v1092 : StableHlo.TRef sig ⟨S7, .i32⟩) select ]
theorem ops20_3_sub : (ops20_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops20_3_fresh : (ops20_3 : List (HloOp τ sig (Elt F))).Forall fun op => op.fresh = ∅ := by
  simp only [List.Forall]; repeat' constructor
theorem ops20_3_keeps : (ops20_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2176 … 2180 of the program (5 of window 20), in order. -/
abbrev ops20_4 : List (HloOp τ sig (Elt F)) :=
  [ StableHlo.unary main_v1062 main_v1093 (broadcastInDim S7 ![] bcast_S_S7 : (⟨S_, .i32⟩ : BufTy).Contents (Elt F) → (⟨S7, .i32⟩ : BufTy).Contents (Elt F)),
    StableHlo.binary main_v1093 main_v1092 main_v1094 (subi : (⟨S7, .i32⟩ : BufTy).Contents (Elt F) → (⟨S7, .i32⟩ : BufTy).Contents (Elt F) → (⟨S7, .i32⟩ : BufTy).Contents (Elt F)),
    StableHlo.unary main_v1079 main_v1095 (broadcastInDim S7 ![] bcast_S_S7 : (⟨S_, .i32⟩ : BufTy).Contents (Elt F) → (⟨S7, .i32⟩ : BufTy).Contents (Elt F)),
    StableHlo.binary main_v1081 main_v1095 main_v1096 (muli : (⟨S7, .i32⟩ : BufTy).Contents (Elt F) → (⟨S7, .i32⟩ : BufTy).Contents (Elt F) → (⟨S7, .i32⟩ : BufTy).Contents (Elt F)),
    StableHlo.nullary main_c_139 (constantI S_ 32 7#32) ]
theorem ops20_4_sub : (ops20_4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops20_4_fresh : (ops20_4 : List (HloOp τ sig (Elt F))).Forall fun op => op.fresh = ∅ := by
  simp only [List.Forall]; repeat' constructor
theorem ops20_4_keeps : (ops20_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2181 … 2197 of the program (17 of window 20), in order. -/
abbrev ops20_5 : List (HloOp τ sig (Elt F)) :=
  [ StableHlo.TRef.unary (.of main_c_139 : StableHlo.TRef sig ⟨S_, .i32⟩) (.of main_call82_v0 : StableHlo.TRef sig ⟨S_, .i32⟩) id,
    StableHlo.TRef.unary (.of main_call82_v0 : StableHlo.TRef sig ⟨S_, .i32⟩) (.of main_call82_v1 : StableHlo.TRef sig ⟨S7, .i32⟩) (broadcastInDim S7 ![] bcast_S_S7),
    StableHlo.TRef.binary (.of main_v1096 : StableHlo.TRef sig ⟨S7, .i32⟩) (.of main_call82_v1 : StableHlo.TRef sig ⟨S7, .i32⟩) (.of main_call82_v2 : StableHlo.TRef sig ⟨S7, .i32⟩) Host.divsi,
    StableHlo.TRef.unary (.of main_v1096 : StableHlo.TRef sig ⟨S7, .i32⟩) (.of main_call82_v3 : StableHlo.TRef sig ⟨S7, .i32⟩) signi,
    StableHlo.TRef.unary (.of main_call82_v0 : StableHlo.TRef sig ⟨S_, .i32⟩) (.of main_call82_v4 : StableHlo.TRef sig ⟨S_, .i32⟩) signi,
    StableHlo.TRef.unary (.of main_call82_v4 : StableHlo.TRef sig ⟨S_, .i32⟩) (.of main_call82_v5 : StableHlo.TRef sig ⟨S7, .i32⟩) (broadcastInDim S7 ![] bcast_S_S7),
    StableHlo.TRef.binary (.of main_call82_v3 : StableHlo.TRef sig ⟨S7, .i32⟩) (.of main_call82_v5 : StableHlo.TRef sig ⟨S7, .i32⟩) (.of main_call82_v6 : StableHlo.TRef sig ⟨S7, .i1⟩) (cmpi .ne),
    StableHlo.TRef.unary (.of main_call82_v0 : StableHlo.TRef sig ⟨S_, .i32⟩) (.of main_call82_v7 : StableHlo.TRef sig ⟨S7, .i32⟩) (broadcastInDim S7 ![] bcast_S_S7),
    StableHlo.TRef.binary (.of main_v1096 : StableHlo.TRef sig ⟨S7, .i32⟩) (.of main_call82_v7 : StableHlo.TRef sig ⟨S7, .i32⟩) (.of main_call82_v8 : StableHlo.TRef sig ⟨S7, .i32⟩) Host.remsi,
    StableHlo.TRef.nullary (.of main_call82_c : StableHlo.TRef sig ⟨S_, .i32⟩) (constantI S_ 32 0#32),
    StableHlo.TRef.unary (.of main_call82_c : StableHlo.TRef sig ⟨S_, .i32⟩) (.of main_call82_v9 : StableHlo.TRef sig ⟨S7, .i32⟩) (broadcastInDim S7 ![] bcast_S_S7),
    StableHlo.TRef.binary (.of main_call82_v8 : StableHlo.TRef sig ⟨S7, .i32⟩) (.of main_call82_v9 : StableHlo.TRef sig ⟨S7, .i32⟩) (.of main_call82_v10 : StableHlo.TRef sig ⟨S7, .i1⟩) (cmpi .ne),
    StableHlo.TRef.binary (.of main_call82_v6 : StableHlo.TRef sig ⟨S7, .i1⟩) (.of main_call82_v10 : StableHlo.TRef sig ⟨S7, .i1⟩) (.of main_call82_v11 : StableHlo.TRef sig ⟨S7, .i1⟩) andi,
    StableHlo.TRef.nullary (.of main_call82_c_0 : StableHlo.TRef sig ⟨S_, .i32⟩) (constantI S_ 32 1#32),
    StableHlo.TRef.unary (.of main_call82_c_0 : StableHlo.TRef sig ⟨S_, .i32⟩) (.of main_call82_v12 : StableHlo.TRef sig ⟨S7, .i32⟩) (broadcastInDim S7 ![] bcast_S_S7),
    StableHlo.TRef.binary (.of main_call82_v2 : StableHlo.TRef sig ⟨S7, .i32⟩) (.of main_call82_v12 : StableHlo.TRef sig ⟨S7, .i32⟩) (.of main_call82_v13 : StableHlo.TRef sig ⟨S7, .i32⟩) subi,
    StableHlo.TRef.ternary (.of main_call82_v11 : StableHlo.TRef sig ⟨S7, .i1⟩) (.of main_call82_v13 : StableHlo.TRef sig ⟨S7, .i32⟩) (.of main_call82_v2 : StableHlo.TRef sig ⟨S7, .i32⟩) (.of main_v1097 : StableHlo.TRef sig ⟨S7, .i32⟩) select ]
theorem ops20_5_sub : (ops20_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops20_5_fresh : (ops20_5 : List (HloOp τ sig (Elt F))).Forall fun op => op.fresh = ∅ := by
  simp only [List.Forall]; repeat' constructor
theorem ops20_5_keeps : (ops20_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2198 … 2206 of the program (9 of window 20), in order. -/
abbrev ops20_6 : List (HloOp τ sig (Elt F)) :=
  [ StableHlo.unary main_v1072 main_v1098 (broadcastInDim S7 ![] bcast_S_S7 : (⟨S_, .i32⟩ : BufTy).Contents (Elt F) → (⟨S7, .i32⟩ : BufTy).Contents (Elt F)),
    StableHlo.binary main_v1098 main_v1097 main_v1099 (addi : (⟨S7, .i32⟩ : BufTy).Contents (Elt F) → (⟨S7, .i32⟩ : BufTy).Contents (Elt F) → (⟨S7, .i32⟩ : BufTy).Contents (Elt F)),
    StableHlo.nullary main_c_140 (constantI S_ 32 1#32),
    StableHlo.unary main_c_140 main_v1100 (broadcastInDim S7 ![] bcast_S_S7 : (⟨S_, .i32⟩ : BufTy).Contents (Elt F) → (⟨S7, .i32⟩ : BufTy).Contents (Elt F)),
    StableHlo.binary main_v1081 main_v1100 main_v1101 (addi : (⟨S7, .i32⟩ : BufTy).Contents (Elt F) → (⟨S7, .i32⟩ : BufTy).Contents (Elt F) → (⟨S7, .i32⟩ : BufTy).Contents (Elt F)),
    StableHlo.unary main_v1101 main_v1102 (negi : (⟨S7, .i32⟩ : BufTy).Contents (Elt F) → (⟨S7, .i32⟩ : BufTy).Contents (Elt F)),
    StableHlo.unary main_v1079 main_v1103 (broadcastInDim S7 ![] bcast_S_S7 : (⟨S_, .i32⟩ : BufTy).Contents (Elt F) → (⟨S7, .i32⟩ : BufTy).Contents (Elt F)),
    StableHlo.binary main_v1102 main_v1103 main_v1104 (muli : (⟨S7, .i32⟩ : BufTy).Contents (Elt F) → (⟨S7, .i32⟩ : BufTy).Contents (Elt F) → (⟨S7, .i32⟩ : BufTy).Contents (Elt F)),
    StableHlo.nullary main_c_141 (constantI S_ 32 7#32) ]
theorem ops20_6_sub : (ops20_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops20_6_fresh : (ops20_6 : List (HloOp τ sig (Elt F))).Forall fun op => op.fresh = ∅ := by
  simp only [List.Forall]; repeat' constructor
theorem ops20_6_keeps : (ops20_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2207 … 2223 of the program (17 of window 20), in order. -/
abbrev ops20_7 : List (HloOp τ sig (Elt F)) :=
  [ StableHlo.TRef.unary (.of main_c_141 : StableHlo.TRef sig ⟨S_, .i32⟩) (.of main_call83_v0 : StableHlo.TRef sig ⟨S_, .i32⟩) id,
    StableHlo.TRef.unary (.of main_call83_v0 : StableHlo.TRef sig ⟨S_, .i32⟩) (.of main_call83_v1 : StableHlo.TRef sig ⟨S7, .i32⟩) (broadcastInDim S7 ![] bcast_S_S7),
    StableHlo.TRef.binary (.of main_v1104 : StableHlo.TRef sig ⟨S7, .i32⟩) (.of main_call83_v1 : StableHlo.TRef sig ⟨S7, .i32⟩) (.of main_call83_v2 : StableHlo.TRef sig ⟨S7, .i32⟩) Host.divsi,
    StableHlo.TRef.unary (.of main_v1104 : StableHlo.TRef sig ⟨S7, .i32⟩) (.of main_call83_v3 : StableHlo.TRef sig ⟨S7, .i32⟩) signi,
    StableHlo.TRef.unary (.of main_call83_v0 : StableHlo.TRef sig ⟨S_, .i32⟩) (.of main_call83_v4 : StableHlo.TRef sig ⟨S_, .i32⟩) signi,
    StableHlo.TRef.unary (.of main_call83_v4 : StableHlo.TRef sig ⟨S_, .i32⟩) (.of main_call83_v5 : StableHlo.TRef sig ⟨S7, .i32⟩) (broadcastInDim S7 ![] bcast_S_S7),
    StableHlo.TRef.binary (.of main_call83_v3 : StableHlo.TRef sig ⟨S7, .i32⟩) (.of main_call83_v5 : StableHlo.TRef sig ⟨S7, .i32⟩) (.of main_call83_v6 : StableHlo.TRef sig ⟨S7, .i1⟩) (cmpi .ne),
    StableHlo.TRef.unary (.of main_call83_v0 : StableHlo.TRef sig ⟨S_, .i32⟩) (.of main_call83_v7 : StableHlo.TRef sig ⟨S7, .i32⟩) (broadcastInDim S7 ![] bcast_S_S7),
    StableHlo.TRef.binary (.of main_v1104 : StableHlo.TRef sig ⟨S7, .i32⟩) (.of main_call83_v7 : StableHlo.TRef sig ⟨S7, .i32⟩) (.of main_call83_v8 : StableHlo.TRef sig ⟨S7, .i32⟩) Host.remsi,
    StableHlo.TRef.nullary (.of main_call83_c : StableHlo.TRef sig ⟨S_, .i32⟩) (constantI S_ 32 0#32),
    StableHlo.TRef.unary (.of main_call83_c : StableHlo.TRef sig ⟨S_, .i32⟩) (.of main_call83_v9 : StableHlo.TRef sig ⟨S7, .i32⟩) (broadcastInDim S7 ![] bcast_S_S7),
    StableHlo.TRef.binary (.of main_call83_v8 : StableHlo.TRef sig ⟨S7, .i32⟩) (.of main_call83_v9 : StableHlo.TRef sig ⟨S7, .i32⟩) (.of main_call83_v10 : StableHlo.TRef sig ⟨S7, .i1⟩) (cmpi .ne),
    StableHlo.TRef.binary (.of main_call83_v6 : StableHlo.TRef sig ⟨S7, .i1⟩) (.of main_call83_v10 : StableHlo.TRef sig ⟨S7, .i1⟩) (.of main_call83_v11 : StableHlo.TRef sig ⟨S7, .i1⟩) andi,
    StableHlo.TRef.nullary (.of main_call83_c_0 : StableHlo.TRef sig ⟨S_, .i32⟩) (constantI S_ 32 1#32),
    StableHlo.TRef.unary (.of main_call83_c_0 : StableHlo.TRef sig ⟨S_, .i32⟩) (.of main_call83_v12 : StableHlo.TRef sig ⟨S7, .i32⟩) (broadcastInDim S7 ![] bcast_S_S7),
    StableHlo.TRef.binary (.of main_call83_v2 : StableHlo.TRef sig ⟨S7, .i32⟩) (.of main_call83_v12 : StableHlo.TRef sig ⟨S7, .i32⟩) (.of main_call83_v13 : StableHlo.TRef sig ⟨S7, .i32⟩) subi,
    StableHlo.TRef.ternary (.of main_call83_v11 : StableHlo.TRef sig ⟨S7, .i1⟩) (.of main_call83_v13 : StableHlo.TRef sig ⟨S7, .i32⟩) (.of main_call83_v2 : StableHlo.TRef sig ⟨S7, .i32⟩) (.of main_v1105 : StableHlo.TRef sig ⟨S7, .i32⟩) select ]
theorem ops20_7_sub : (ops20_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops20_7_fresh : (ops20_7 : List (HloOp τ sig (Elt F))).Forall fun op => op.fresh = ∅ := by
  simp only [List.Forall]; repeat' constructor
theorem ops20_7_keeps : (ops20_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2224 … 2233 of the program (10 of window 20), in order. -/
abbrev ops20_8 : List (HloOp τ sig (Elt F)) :=
  [ StableHlo.unary main_v1072 main_v1106 (broadcastInDim S7 ![] bcast_S_S7 : (⟨S_, .i32⟩ : BufTy).Contents (Elt F) → (⟨S7, .i32⟩ : BufTy).Contents (Elt F)),
    StableHlo.binary main_v1106 main_v1105 main_v1107 (subi : (⟨S7, .i32⟩ : BufTy).Contents (Elt F) → (⟨S7, .i32⟩ : BufTy).Contents (Elt F) → (⟨S7, .i32⟩ : BufTy).Contents (Elt F)),
    StableHlo.nullary main_v1108 (iotaInDim S64 32 0),
    StableHlo.nullary main_v1109 (iotaInDim S64 32 0),
    StableHlo.unary main_v1108 main_v1110 (broadcastInDim S1x64 ![1] bcast_S64_S1x64_1 : (⟨S64, .i32⟩ : BufTy).Contents (Elt F) → (⟨S1x64, .i32⟩ : BufTy).Contents (Elt F)),
    StableHlo.unary main_v1086 main_v1111 (broadcastInDim S7x1 ![0] bcast_S7_S7x1_0 : (⟨S7, .i32⟩ : BufTy).Contents (Elt F) → (⟨S7x1, .i32⟩ : BufTy).Contents (Elt F)),
    StableHlo.unary main_v1110 main_v1112 (broadcastInDim S7x64 ![0, 1] bcast_S1x64_S7x64_0_1 : (⟨S1x64, .i32⟩ : BufTy).Contents (Elt F) → (⟨S7x64, .i32⟩ : BufTy).Contents (Elt F)),
    StableHlo.unary main_v1111 main_v1113 (broadcastInDim S7x64 ![0, 1] bcast_S7x1_S7x64_0_1 : (⟨S7x1, .i32⟩ : BufTy).Contents (Elt F) → (⟨S7x64, .i32⟩ : BufTy).Contents (Elt F)),
    StableHlo.binary main_v1112 main_v1113 main_v1114 (cmpi .sge : (⟨S7x64, .i32⟩ : BufTy).Contents (Elt F) → (⟨S7x64, .i32⟩ : BufTy).Contents (Elt F) → (⟨S7x64, .i1⟩ : BufTy).Contents (Elt F)),
    StableHlo.unary main_v1108 main_v1115 (broadcastInDim S1x64 ![1] bcast_S64_S1x64_1 : (⟨S64, .i32⟩ : BufTy).Contents (Elt F) → (⟨S1x64, .i32⟩ : BufTy).Contents (Elt F)) ]
theorem ops20_8_sub : (ops20_8 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub ..⟩
theorem ops20_8_fresh : (ops20_8 : List (HloOp τ sig (Elt F))).Forall fun op => op.fresh = ∅ := by
  simp only [List.Forall]; repeat' constructor
theorem ops20_8_keeps : (ops20_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops20_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part20_eq (c : Dev nD) : main_part20 (F := F) c = Pipeline.chainK [StableHlo.seq ops20_0, StableHlo.seq ops20_1, StableHlo.seq ops20_2, StableHlo.seq ops20_3, StableHlo.seq ops20_4, StableHlo.seq ops20_5, StableHlo.seq ops20_6, StableHlo.seq ops20_7] (StableHlo.seq ops20_8) := by
  chain_rfl

end Cert.ReferenceIdeal.Host

end
-- ==== Proof.RefOps21.lean ====
/- Window 21 of the program's @main, every called function's body written out in place: 82 operations,
  cut into 7 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 2234 … 2252 of the program (19 of window 21), in order. -/
abbrev ops21_0 : List (HloOp τ sig (Elt F)) :=
  [ StableHlo.unary main_v1094 main_v1116 (broadcastInDim S7x1 ![0] bcast_S7_S7x1_0 : (⟨S7, .i32⟩ : BufTy).Contents (Elt F) → (⟨S7x1, .i32⟩ : BufTy).Contents (Elt F)),
    StableHlo.unary main_v1115 main_v1117 (broadcastInDim S7x64 ![0, 1] bcast_S1x64_S7x64_0_1 : (⟨S1x64, .i32⟩ : BufTy).Contents (Elt F) → (⟨S7x64, .i32⟩ : BufTy).Contents (Elt F)),
    StableHlo.unary main_v1116 main_v1118 (broadcastInDim S7x64 ![0, 1] bcast_S7x1_S7x64_0_1 : (⟨S7x1, .i32⟩ : BufTy).Contents (Elt F) → (⟨S7x64, .i32⟩ : BufTy).Contents (Elt F)),
    StableHlo.binary main_v1117 main_v1118 main_v1119 (cmpi .slt : (⟨S7x64, .i32⟩ : BufTy).Contents (Elt F) → (⟨S7x64, .i32⟩ : BufTy).Contents (Elt F) → (⟨S7x64, .i1⟩ : BufTy).Contents (Elt F)),
    StableHlo.binary main_v1114 main_v1119 main_v1120 (andi : (⟨S7x64, .i1⟩ : BufTy).Contents (Elt F) → (⟨S7x64, .i1⟩ : BufTy).Contents (Elt F) → (⟨S7x64, .i1⟩ : BufTy).Contents (Elt F)),
    StableHlo.unary main_v1109 main_v1121 (broadcastInDim S1x64 ![1] bcast_S64_S1x64_1 : (⟨S64, .i32⟩ : BufTy).Contents (Elt F) → (⟨S1x64, .i32⟩ : BufTy).Contents (Elt F)),
    StableHlo.unary main_v1099 main_v1122 (broadcastInDim S7x1 ![0] bcast_S7_S7x1_0 : (⟨S7, .i32⟩ : BufTy).Contents (Elt F) → (⟨S7x1, .i32⟩ : BufTy).Contents (Elt F)),
    StableHlo.unary main_v1121 main_v1123 (broadcastInDim S7x64 ![0, 1] bcast_S1x64_S7x64_0_1 : (⟨S1x64, .i32⟩ : BufTy).Contents (Elt F) → (⟨S7x64, .i32⟩ : BufTy).Contents (Elt F)),
    StableHlo.unary main_v1122 main_v1124 (broadcastInDim S7x64 ![0, 1] bcast_S7x1_S7x64_0_1 : (⟨S7x1, .i32⟩ : BufTy).Contents (Elt F) → (⟨S7x64, .i32⟩ : BufTy).Contents (Elt F)),
    StableHlo.binary main_v1123 main_v1124 main_v1125 (cmpi .sge : (⟨S7x64, .i32⟩ : BufTy).Contents (Elt F) → (⟨S7x64, .i32⟩ : BufTy).Contents (Elt F) → (⟨S7x64, .i1⟩ : BufTy).Contents (Elt F)),
    StableHlo.unary main_v1109 main_v1126 (broadcastInDim S1x64 ![1] bcast_S64_S1x64_1 : (⟨S64, .i32⟩ : BufTy).Contents (Elt F) → (⟨S1x64, .i32⟩ : BufTy).Contents (Elt F)),
    StableHlo.unary main_v1107 main_v1127 (broadcastInDim S7x1 ![0] bcast_S7_S7x1_0 : (⟨S7, .i32⟩ : BufTy).Contents (Elt F) → (⟨S7x1, .i32⟩ : BufTy).Contents (Elt F)),
    StableHlo.unary main_v1126 main_v1128 (broadcastInDim S7x64 ![0, 1] bcast_S1x64_S7x64_0_1 : (⟨S1x64, .i32⟩ : BufTy).Contents (Elt F) → (⟨S7x64, .i32⟩ : BufTy).Contents (Elt F)),
    StableHlo.unary main_v1127 main_v1129 (broadcastInDim S7x64 ![0, 1] bcast_S7x1_S7x64_0_1 : (⟨S7x1, .i32⟩ : BufTy).Contents (Elt F) → (⟨S7x64, .i32⟩ : BufTy).Contents (Elt F)),
    StableHlo.binary main_v1128 main_v1129 main_v1130 (cmpi .slt : (⟨S7x64, .i32⟩ : BufTy).Contents (Elt F) → (⟨S7x64, .i32⟩ : BufTy).Contents (Elt F) → (⟨S7x64, .i1⟩ : BufTy).Contents (Elt F)),
    StableHlo.binary main_v1125 main_v1130 main_v1131 (andi : (⟨S7x64, .i1⟩ : BufTy).Contents (Elt F) → (⟨S7x64, .i1⟩ : BufTy).Contents (Elt F) → (⟨S7x64, .i1⟩ : BufTy).Contents (Elt F)),
    StableHlo.unary main_v1120 main_v1132 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1133 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_142 (constant S_ .f32 0xFF800000#32) ]
theorem ops21_0_sub : (ops21_0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops21_0_fresh : (ops21_0 : List (HloOp τ sig (Elt F))).Forall fun op => op.fresh = ∅ := by
  simp only [List.Forall]; repeat' constructor
theorem ops21_0_keeps : (ops21_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2253 … 2256 of the program (4 of window 21), in order. -/
abbrev ops21_1 : List (HloOp τ sig (Elt F)) :=
  [ StableHlo.TRef.unary (.of main_v1132 : StableHlo.TRef sig ⟨S7x1x64x1, .i1⟩) (.of main_call84_v0 : StableHlo.TRef sig ⟨S7x512x64x64, .i1⟩) (broadcastInDim S7x512x64x64 ![0, 1, 2, 3] bcast_S7x1x64x1_S7x512x64x64_0_1_2_3),
    StableHlo.TRef.unary (.of main_v1133 : StableHlo.TRef sig ⟨S1x512x64x64, .f32⟩) (.of main_call84_v1 : StableHlo.TRef sig ⟨S7x512x64x64, .f32⟩) (broadcastInDim S7x512x64x64 ![0, 1, 2, 3] bcast_S1x512x64x64_S7x512x64x64_0_1_2_3),
    StableHlo.TRef.unary (.of main_cst_142 : StableHlo.TRef sig ⟨S_, .f32⟩) (.of main_call84_v2 : StableHlo.TRef sig ⟨S7x512x64x64, .f32⟩) (broadcastInDim S7x512x64x64 ![] bcast_S_S7x512x64x64),
    StableHlo.TRef.ternary (.of main_call84_v0 : StableHlo.TRef sig ⟨S7x512x64x64, .i1⟩) (.of main_call84_v1 : StableHlo.TRef sig ⟨S7x512x64x64, .f32⟩) (.of main_call84_v2 : StableHlo.TRef sig ⟨S7x512x64x64, .f32⟩) (.of main_v1134 : StableHlo.TRef sig ⟨S7x512x64x64, .f32⟩) select ]
theorem ops21_1_sub : (ops21_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops21_1_fresh : (ops21_1 : List (HloOp τ sig (Elt F))).Forall fun op => op.fresh = ∅ := by
  simp only [List.Forall]; repeat' constructor
theorem ops21_1_keeps : (ops21_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2257 … 2261 of the program (5 of window 21), in order. -/
abbrev ops21_2 : List (HloOp τ sig (Elt F)) :=
  [ StableHlo.nullary main_cst_143 (constant S_ .f32 0xFF800000#32),
    StableHlo.binary main_v1134 main_cst_143 main_v1135 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1131 main_v1136 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1135 main_v1137 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_144 (constant S_ .f32 0xFF800000#32) ]
theorem ops21_2_sub : (ops21_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops21_2_fresh : (ops21_2 : List (HloOp τ sig (Elt F))).Forall fun op => op.fresh = ∅ := by
  simp only [List.Forall]; repeat' constructor
theorem ops21_2_keeps : (ops21_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2262 … 2265 of the program (4 of window 21), in order. -/
abbrev ops21_3 : List (HloOp τ sig (Elt F)) :=
  [ StableHlo.TRef.unary (.of main_v1136 : StableHlo.TRef sig ⟨S1x1x7x64, .i1⟩) (.of main_call85_v0 : StableHlo.TRef sig ⟨S7x512x7x64, .i1⟩) (broadcastInDim S7x512x7x64 ![0, 1, 2, 3] bcast_S1x1x7x64_S7x512x7x64_0_1_2_3),
    StableHlo.TRef.unary (.of main_v1137 : StableHlo.TRef sig ⟨S7x512x1x64, .f32⟩) (.of main_call85_v1 : StableHlo.TRef sig ⟨S7x512x7x64, .f32⟩) (broadcastInDim S7x512x7x64 ![0, 1, 2, 3] bcast_S7x512x1x64_S7x512x7x64_0_1_2_3),
    StableHlo.TRef.unary (.of main_cst_144 : StableHlo.TRef sig ⟨S_, .f32⟩) (.of main_call85_v2 : StableHlo.TRef sig ⟨S7x512x7x64, .f32⟩) (broadcastInDim S7x512x7x64 ![] bcast_S_S7x512x7x64),
    StableHlo.TRef.ternary (.of main_call85_v0 : StableHlo.TRef sig ⟨S7x512x7x64, .i1⟩) (.of main_call85_v1 : StableHlo.TRef sig ⟨S7x512x7x64, .f32⟩) (.of main_call85_v2 : StableHlo.TRef sig ⟨S7x512x7x64, .f32⟩) (.of main_v1138 : StableHlo.TRef sig ⟨S7x512x7x64, .f32⟩) select ]
theorem ops21_3_sub : (ops21_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops21_3_fresh : (ops21_3 : List (HloOp τ sig (Elt F))).Forall fun op => op.fresh = ∅ := by
  simp only [List.Forall]; repeat' constructor
theorem ops21_3_keeps : (ops21_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2266 … 2296 of the program (31 of window 21), in order. -/
abbrev ops21_4 : List (HloOp τ sig (Elt F)) :=
  [ StableHlo.nullary main_cst_145 (constant S_ .f32 0xFF800000#32),
    StableHlo.binary main_v1138 main_cst_145 main_v1139 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1139 main_v1140 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1140 main_v1141 rfl shapeCasts_S512x7x7_S25088,
    StableHlo.unary main_v18 main_v1142 ((extractStridedSlice S1x1 ![2, 1] · slices_S3x4_S1x1_2_1) : (⟨S3x4, .i32⟩ : BufTy).Contents (Elt F) → (⟨S1x1, .i32⟩ : BufTy).Contents (Elt F)),
    StableHlo.reshape main_v1142 main_v1143 rfl shapeCasts_S1x1_S_,
    StableHlo.unary main_v23 main_v1144 ((extractStridedSlice S1x1 ![2, 1] · slices_S4x4_S1x1_2_1) : (⟨S4x4, .i32⟩ : BufTy).Contents (Elt F) → (⟨S1x1, .i32⟩ : BufTy).Contents (Elt F)),
    StableHlo.reshape main_v1144 main_v1145 rfl shapeCasts_S1x1_S_,
    StableHlo.binary main_v1143 main_v1145 main_v1146 (minsi : (⟨S_, .i32⟩ : BufTy).Contents (Elt F) → (⟨S_, .i32⟩ : BufTy).Contents (Elt F) → (⟨S_, .i32⟩ : BufTy).Contents (Elt F)),
    StableHlo.unary main_v18 main_v1147 ((extractStridedSlice S1x1 ![2, 3] · slices_S3x4_S1x1_2_3) : (⟨S3x4, .i32⟩ : BufTy).Contents (Elt F) → (⟨S1x1, .i32⟩ : BufTy).Contents (Elt F)),
    StableHlo.reshape main_v1147 main_v1148 rfl shapeCasts_S1x1_S_,
    StableHlo.unary main_v23 main_v1149 ((extractStridedSlice S1x1 ![2, 3] · slices_S4x4_S1x1_2_3) : (⟨S4x4, .i32⟩ : BufTy).Contents (Elt F) → (⟨S1x1, .i32⟩ : BufTy).Contents (Elt F)),
    StableHlo.reshape main_v1149 main_v1150 rfl shapeCasts_S1x1_S_,
    StableHlo.binary main_v1148 main_v1150 main_v1151 (maxsi : (⟨S_, .i32⟩ : BufTy).Contents (Elt F) → (⟨S_, .i32⟩ : BufTy).Contents (Elt F) → (⟨S_, .i32⟩ : BufTy).Contents (Elt F)),
    StableHlo.unary main_v18 main_v1152 ((extractStridedSlice S1x1 ![2, 0] · slices_S3x4_S1x1_2_0) : (⟨S3x4, .i32⟩ : BufTy).Contents (Elt F) → (⟨S1x1, .i32⟩ : BufTy).Contents (Elt F)),
    StableHlo.reshape main_v1152 main_v1153 rfl shapeCasts_S1x1_S_,
    StableHlo.unary main_v23 main_v1154 ((extractStridedSlice S1x1 ![2, 0] · slices_S4x4_S1x1_2_0) : (⟨S4x4, .i32⟩ : BufTy).Contents (Elt F) → (⟨S1x1, .i32⟩ : BufTy).Contents (Elt F)),
    StableHlo.reshape main_v1154 main_v1155 rfl shapeCasts_S1x1_S_,
    StableHlo.binary main_v1153 main_v1155 main_v1156 (minsi : (⟨S_, .i32⟩ : BufTy).Contents (Elt F) → (⟨S_, .i32⟩ : BufTy).Contents (Elt F) → (⟨S_, .i32⟩ : BufTy).Contents (Elt F)),
    StableHlo.unary main_v18 main_v1157 ((extractStridedSlice S1x1 ![2, 2] · slices_S3x4_S1x1_2_2) : (⟨S3x4, .i32⟩ : BufTy).Contents (Elt F) → (⟨S1x1, .i32⟩ : BufTy).Contents (Elt F)),
    StableHlo.reshape main_v1157 main_v1158 rfl shapeCasts_S1x1_S_,
    StableHlo.unary main_v23 main_v1159 ((extractStridedSlice S1x1 ![2, 2] · slices_S4x4_S1x1_2_2) : (⟨S4x4, .i32⟩ : BufTy).Contents (Elt F) → (⟨S1x1, .i32⟩ : BufTy).Contents (Elt F)),
    StableHlo.reshape main_v1159 main_v1160 rfl shapeCasts_S1x1_S_,
    StableHlo.binary main_v1158 main_v1160 main_v1161 (maxsi : (⟨S_, .i32⟩ : BufTy).Contents (Elt F) → (⟨S_, .i32⟩ : BufTy).Contents (Elt F) → (⟨S_, .i32⟩ : BufTy).Contents (Elt F)),
    StableHlo.binary main_v1151 main_v1146 main_v1162 (subi : (⟨S_, .i32⟩ : BufTy).Contents (Elt F) → (⟨S_, .i32⟩ : BufTy).Contents (Elt F) → (⟨S_, .i32⟩ : BufTy).Contents (Elt F)),
    StableHlo.binary main_v1161 main_v1156 main_v1163 (subi : (⟨S_, .i32⟩ : BufTy).Contents (Elt F) → (⟨S_, .i32⟩ : BufTy).Contents (Elt F) → (⟨S_, .i32⟩ : BufTy).Contents (Elt F)),
    StableHlo.nullary main_v1164 (iotaInDim S7 32 0),
    StableHlo.nullary main_v1165 (iotaInDim S7 32 0),
    StableHlo.unary main_v1162 main_v1166 (broadcastInDim S7 ![] bcast_S_S7 : (⟨S_, .i32⟩ : BufTy).Contents (Elt F) → (⟨S7, .i32⟩ : BufTy).Contents (Elt F)),
    StableHlo.binary main_v1164 main_v1166 main_v1167 (muli : (⟨S7, .i32⟩ : BufTy).Contents (Elt F) → (⟨S7, .i32⟩ : BufTy).Contents (Elt F) → (⟨S7, .i32⟩ : BufTy).Contents (Elt F)),
    StableHlo.nullary main_c_146 (constantI S_ 32 7#32) ]
theorem ops21_4_sub : (ops21_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops21_4_fresh : (ops21_4 : List (HloOp τ sig (Elt F))).Forall fun op => op.fresh = ∅ := by
  simp only [List.Forall]; repeat' constructor
theorem ops21_4_keeps : (ops21_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2297 … 2313 of the program (17 of window 21), in order. -/
abbrev ops21_5 : List (HloOp τ sig (Elt F)) :=
  [ StableHlo.TRef.unary (.of main_c_146 : StableHlo.TRef sig ⟨S_, .i32⟩) (.of main_call86_v0 : StableHlo.TRef sig ⟨S_, .i32⟩) id,
    StableHlo.TRef.unary (.of main_call86_v0 : StableHlo.TRef sig ⟨S_, .i32⟩) (.of main_call86_v1 : StableHlo.TRef sig ⟨S7, .i32⟩) (broadcastInDim S7 ![] bcast_S_S7),
    StableHlo.TRef.binary (.of main_v1167 : StableHlo.TRef sig ⟨S7, .i32⟩) (.of main_call86_v1 : StableHlo.TRef sig ⟨S7, .i32⟩) (.of main_call86_v2 : StableHlo.TRef sig ⟨S7, .i32⟩) Host.divsi,
    StableHlo.TRef.unary (.of main_v1167 : StableHlo.TRef sig ⟨S7, .i32⟩) (.of main_call86_v3 : StableHlo.TRef sig ⟨S7, .i32⟩) signi,
    StableHlo.TRef.unary (.of main_call86_v0 : StableHlo.TRef sig ⟨S_, .i32⟩) (.of main_call86_v4 : StableHlo.TRef sig ⟨S_, .i32⟩) signi,
    StableHlo.TRef.unary (.of main_call86_v4 : StableHlo.TRef sig ⟨S_, .i32⟩) (.of main_call86_v5 : StableHlo.TRef sig ⟨S7, .i32⟩) (broadcastInDim S7 ![] bcast_S_S7),
    StableHlo.TRef.binary (.of main_call86_v3 : StableHlo.TRef sig ⟨S7, .i32⟩) (.of main_call86_v5 : StableHlo.TRef sig ⟨S7, .i32⟩) (.of main_call86_v6 : StableHlo.TRef sig ⟨S7, .i1⟩) (cmpi .ne),
    StableHlo.TRef.unary (.of main_call86_v0 : StableHlo.TRef sig ⟨S_, .i32⟩) (.of main_call86_v7 : StableHlo.TRef sig ⟨S7, .i32⟩) (broadcastInDim S7 ![] bcast_S_S7),
    StableHlo.TRef.binary (.of main_v1167 : StableHlo.TRef sig ⟨S7, .i32⟩) (.of main_call86_v7 : StableHlo.TRef sig ⟨S7, .i32⟩) (.of main_call86_v8 : StableHlo.TRef sig ⟨S7, .i32⟩) Host.remsi,
    StableHlo.TRef.nullary (.of main_call86_c : StableHlo.TRef sig ⟨S_, .i32⟩) (constantI S_ 32 0#32),
    StableHlo.TRef.unary (.of main_call86_c : StableHlo.TRef sig ⟨S_, .i32⟩) (.of main_call86_v9 : StableHlo.TRef sig ⟨S7, .i32⟩) (broadcastInDim S7 ![] bcast_S_S7),
    StableHlo.TRef.binary (.of main_call86_v8 : StableHlo.TRef sig ⟨S7, .i32⟩) (.of main_call86_v9 : StableHlo.TRef sig ⟨S7, .i32⟩) (.of main_call86_v10 : StableHlo.TRef sig ⟨S7, .i1⟩) (cmpi .ne),
    StableHlo.TRef.binary (.of main_call86_v6 : StableHlo.TRef sig ⟨S7, .i1⟩) (.of main_call86_v10 : StableHlo.TRef sig ⟨S7, .i1⟩) (.of main_call86_v11 : StableHlo.TRef sig ⟨S7, .i1⟩) andi,
    StableHlo.TRef.nullary (.of main_call86_c_0 : StableHlo.TRef sig ⟨S_, .i32⟩) (constantI S_ 32 1#32),
    StableHlo.TRef.unary (.of main_call86_c_0 : StableHlo.TRef sig ⟨S_, .i32⟩) (.of main_call86_v12 : StableHlo.TRef sig ⟨S7, .i32⟩) (broadcastInDim S7 ![] bcast_S_S7),
    StableHlo.TRef.binary (.of main_call86_v2 : StableHlo.TRef sig ⟨S7, .i32⟩) (.of main_call86_v12 : StableHlo.TRef sig ⟨S7, .i32⟩) (.of main_call86_v13 : StableHlo.TRef sig ⟨S7, .i32⟩) subi,
    StableHlo.TRef.ternary (.of main_call86_v11 : StableHlo.TRef sig ⟨S7, .i1⟩) (.of main_call86_v13 : StableHlo.TRef sig ⟨S7, .i32⟩) (.of main_call86_v2 : StableHlo.TRef sig ⟨S7, .i32⟩) (.of main_v1168 : StableHlo.TRef sig ⟨S7, .i32⟩) select ]
theorem ops21_5_sub : (ops21_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops21_5_fresh : (ops21_5 : List (HloOp τ sig (Elt F))).Forall fun op => op.fresh = ∅ := by
  simp only [List.Forall]; repeat' constructor
theorem ops21_5_keeps : (ops21_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2314 … 2315 of the program (2 of window 21), in order. -/
abbrev ops21_6 : List (HloOp τ sig (Elt F)) :=
  [ StableHlo.unary main_v1146 main_v1169 (broadcastInDim S7 ![] bcast_S_S7 : (⟨S_, .i32⟩ : BufTy).Contents (Elt F) → (⟨S7, .i32⟩ : BufTy).Contents (Elt F)),
    StableHlo.binary main_v1169 main_v1168 main_v1170 (addi : (⟨S7, .i32⟩ : BufTy).Contents (Elt F) → (⟨S7, .i32⟩ : BufTy).Contents (Elt F) → (⟨S7, .i32⟩ : BufTy).Contents (Elt F)) ]
theorem ops21_6_sub : (ops21_6 : List (HloOp τ sig (Elt F))).Forall fun op => op.bufs ⊆ StableHlo.tcRefs τ sig :=
  ⟨StableHlo.unary_bufs_sub .., StableHlo.binary_bufs_sub ..⟩
theorem ops21_6_fresh : (ops21_6 : List (HloOp τ sig (Elt F))).Forall fun op => op.fresh = ∅ := by
  simp only [List.Forall]; repeat' constructor
theorem ops21_6_keeps : (ops21_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops21_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part21_eq (c : Dev nD) : main_part21 (F := F) c = Pipeline.chainK [StableHlo.seq ops21_0, StableHlo.seq ops21_1, StableHlo.seq ops21_2, StableHlo.seq ops21_3, StableHlo.seq ops21_4, StableHlo.seq ops21_5] (StableHlo.seq ops21_6) := by
  chain_rfl

end Cert.ReferenceIdeal.Host

end
-- ==== Proof.RefOps22.lean ====
/- Window 22 of the program's @main, every called function's body written out in place: 114 operations,
  cut into 10 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 2316 … 2322 of the program (7 of window 22), in order. -/
abbrev ops22_0 : List (HloOp τ sig (Elt F)) :=
  [ StableHlo.nullary main_c_147 (constantI S_ 32 1#32),
    StableHlo.unary main_c_147 main_v1171 (broadcastInDim S7 ![] bcast_S_S7 : (⟨S_, .i32⟩ : BufTy).Contents (Elt F) → (⟨S7, .i32⟩ : BufTy).Contents (Elt F)),
    StableHlo.binary main_v1164 main_v1171 main_v1172 (addi : (⟨S7, .i32⟩ : BufTy).Contents (Elt F) → (⟨S7, .i32⟩ : BufTy).Contents (Elt F) → (⟨S7, .i32⟩ : BufTy).Contents (Elt F)),
    StableHlo.unary main_v1172 main_v1173 (negi : (⟨S7, .i32⟩ : BufTy).Contents (Elt F) → (⟨S7, .i32⟩ : BufTy).Contents (Elt F)),
    StableHlo.unary main_v1162 main_v1174 (broadcastInDim S7 ![] bcast_S_S7 : (⟨S_, .i32⟩ : BufTy).Contents (Elt F) → (⟨S7, .i32⟩ : BufTy).Contents (Elt F)),
    StableHlo.binary main_v1173 main_v1174 main_v1175 (muli : (⟨S7, .i32⟩ : BufTy).Contents (Elt F) → (⟨S7, .i32⟩ : BufTy).Contents (Elt F) → (⟨S7, .i32⟩ : BufTy).Contents (Elt F)),
    StableHlo.nullary main_c_148 (constantI S_ 32 7#32) ]
theorem ops22_0_sub : (ops22_0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops22_0_fresh : (ops22_0 : List (HloOp τ sig (Elt F))).Forall fun op => op.fresh = ∅ := by
  simp only [List.Forall]; repeat' constructor
theorem ops22_0_keeps : (ops22_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2323 … 2339 of the program (17 of window 22), in order. -/
abbrev ops22_1 : List (HloOp τ sig (Elt F)) :=
  [ StableHlo.TRef.unary (.of main_c_148 : StableHlo.TRef sig ⟨S_, .i32⟩) (.of main_call87_v0 : StableHlo.TRef sig ⟨S_, .i32⟩) id,
    StableHlo.TRef.unary (.of main_call87_v0 : StableHlo.TRef sig ⟨S_, .i32⟩) (.of main_call87_v1 : StableHlo.TRef sig ⟨S7, .i32⟩) (broadcastInDim S7 ![] bcast_S_S7),
    StableHlo.TRef.binary (.of main_v1175 : StableHlo.TRef sig ⟨S7, .i32⟩) (.of main_call87_v1 : StableHlo.TRef sig ⟨S7, .i32⟩) (.of main_call87_v2 : StableHlo.TRef sig ⟨S7, .i32⟩) Host.divsi,
    StableHlo.TRef.unary (.of main_v1175 : StableHlo.TRef sig ⟨S7, .i32⟩) (.of main_call87_v3 : StableHlo.TRef sig ⟨S7, .i32⟩) signi,
    StableHlo.TRef.unary (.of main_call87_v0 : StableHlo.TRef sig ⟨S_, .i32⟩) (.of main_call87_v4 : StableHlo.TRef sig ⟨S_, .i32⟩) signi,
    StableHlo.TRef.unary (.of main_call87_v4 : StableHlo.TRef sig ⟨S_, .i32⟩) (.of main_call87_v5 : StableHlo.TRef sig ⟨S7, .i32⟩) (broadcastInDim S7 ![] bcast_S_S7),
    StableHlo.TRef.binary (.of main_call87_v3 : StableHlo.TRef sig ⟨S7, .i32⟩) (.of main_call87_v5 : StableHlo.TRef sig ⟨S7, .i32⟩) (.of main_call87_v6 : StableHlo.TRef sig ⟨S7, .i1⟩) (cmpi .ne),
    StableHlo.TRef.unary (.of main_call87_v0 : StableHlo.TRef sig ⟨S_, .i32⟩) (.of main_call87_v7 : StableHlo.TRef sig ⟨S7, .i32⟩) (broadcastInDim S7 ![] bcast_S_S7),
    StableHlo.TRef.binary (.of main_v1175 : StableHlo.TRef sig ⟨S7, .i32⟩) (.of main_call87_v7 : StableHlo.TRef sig ⟨S7, .i32⟩) (.of main_call87_v8 : StableHlo.TRef sig ⟨S7, .i32⟩) Host.remsi,
    StableHlo.TRef.nullary (.of main_call87_c : StableHlo.TRef sig ⟨S_, .i32⟩) (constantI S_ 32 0#32),
    StableHlo.TRef.unary (.of main_call87_c : StableHlo.TRef sig ⟨S_, .i32⟩) (.of main_call87_v9 : StableHlo.TRef sig ⟨S7, .i32⟩) (broadcastInDim S7 ![] bcast_S_S7),
    StableHlo.TRef.binary (.of main_call87_v8 : StableHlo.TRef sig ⟨S7, .i32⟩) (.of main_call87_v9 : StableHlo.TRef sig ⟨S7, .i32⟩) (.of main_call87_v10 : StableHlo.TRef sig ⟨S7, .i1⟩) (cmpi .ne),
    StableHlo.TRef.binary (.of main_call87_v6 : StableHlo.TRef sig ⟨S7, .i1⟩) (.of main_call87_v10 : StableHlo.TRef sig ⟨S7, .i1⟩) (.of main_call87_v11 : StableHlo.TRef sig ⟨S7, .i1⟩) andi,
    StableHlo.TRef.nullary (.of main_call87_c_0 : StableHlo.TRef sig ⟨S_, .i32⟩) (constantI S_ 32 1#32),
    StableHlo.TRef.unary (.of main_call87_c_0 : StableHlo.TRef sig ⟨S_, .i32⟩) (.of main_call87_v12 : StableHlo.TRef sig ⟨S7, .i32⟩) (broadcastInDim S7 ![] bcast_S_S7),
    StableHlo.TRef.binary (.of main_call87_v2 : StableHlo.TRef sig ⟨S7, .i32⟩) (.of main_call87_v12 : StableHlo.TRef sig ⟨S7, .i32⟩) (.of main_call87_v13 : StableHlo.TRef sig ⟨S7, .i32⟩) subi,
    StableHlo.TRef.ternary (.of main_call87_v11 : StableHlo.TRef sig ⟨S7, .i1⟩) (.of main_call87_v13 : StableHlo.TRef sig ⟨S7, .i32⟩) (.of main_call87_v2 : StableHlo.TRef sig ⟨S7, .i32⟩) (.of main_v1176 : StableHlo.TRef sig ⟨S7, .i32⟩) select ]
theorem ops22_1_sub : (ops22_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops22_1_fresh : (ops22_1 : List (HloOp τ sig (Elt F))).Forall fun op => op.fresh = ∅ := by
  simp only [List.Forall]; repeat' constructor
theorem ops22_1_keeps : (ops22_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2340 … 2344 of the program (5 of window 22), in order. -/
abbrev ops22_2 : List (HloOp τ sig (Elt F)) :=
  [ StableHlo.unary main_v1146 main_v1177 (broadcastInDim S7 ![] bcast_S_S7 : (⟨S_, .i32⟩ : BufTy).Contents (Elt F) → (⟨S7, .i32⟩ : BufTy).Contents (Elt F)),
    StableHlo.binary main_v1177 main_v1176 main_v1178 (subi : (⟨S7, .i32⟩ : BufTy).Contents (Elt F) → (⟨S7, .i32⟩ : BufTy).Contents (Elt F) → (⟨S7, .i32⟩ : BufTy).Contents (Elt F)),
    StableHlo.unary main_v1163 main_v1179 (broadcastInDim S7 ![] bcast_S_S7 : (⟨S_, .i32⟩ : BufTy).Contents (Elt F) → (⟨S7, .i32⟩ : BufTy).Contents (Elt F)),
    StableHlo.binary main_v1165 main_v1179 main_v1180 (muli : (⟨S7, .i32⟩ : BufTy).Contents (Elt F) → (⟨S7, .i32⟩ : BufTy).Contents (Elt F) → (⟨S7, .i32⟩ : BufTy).Contents (Elt F)),
    StableHlo.nullary main_c_149 (constantI S_ 32 7#32) ]
theorem ops22_2_sub : (ops22_2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops22_2_fresh : (ops22_2 : List (HloOp τ sig (Elt F))).Forall fun op => op.fresh = ∅ := by
  simp only [List.Forall]; repeat' constructor
theorem ops22_2_keeps : (ops22_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2345 … 2361 of the program (17 of window 22), in order. -/
abbrev ops22_3 : List (HloOp τ sig (Elt F)) :=
  [ StableHlo.TRef.unary (.of main_c_149 : StableHlo.TRef sig ⟨S_, .i32⟩) (.of main_call88_v0 : StableHlo.TRef sig ⟨S_, .i32⟩) id,
    StableHlo.TRef.unary (.of main_call88_v0 : StableHlo.TRef sig ⟨S_, .i32⟩) (.of main_call88_v1 : StableHlo.TRef sig ⟨S7, .i32⟩) (broadcastInDim S7 ![] bcast_S_S7),
    StableHlo.TRef.binary (.of main_v1180 : StableHlo.TRef sig ⟨S7, .i32⟩) (.of main_call88_v1 : StableHlo.TRef sig ⟨S7, .i32⟩) (.of main_call88_v2 : StableHlo.TRef sig ⟨S7, .i32⟩) Host.divsi,
    StableHlo.TRef.unary (.of main_v1180 : StableHlo.TRef sig ⟨S7, .i32⟩) (.of main_call88_v3 : StableHlo.TRef sig ⟨S7, .i32⟩) signi,
    StableHlo.TRef.unary (.of main_call88_v0 : StableHlo.TRef sig ⟨S_, .i32⟩) (.of main_call88_v4 : StableHlo.TRef sig ⟨S_, .i32⟩) signi,
    StableHlo.TRef.unary (.of main_call88_v4 : StableHlo.TRef sig ⟨S_, .i32⟩) (.of main_call88_v5 : StableHlo.TRef sig ⟨S7, .i32⟩) (broadcastInDim S7 ![] bcast_S_S7),
    StableHlo.TRef.binary (.of main_call88_v3 : StableHlo.TRef sig ⟨S7, .i32⟩) (.of main_call88_v5 : StableHlo.TRef sig ⟨S7, .i32⟩) (.of main_call88_v6 : StableHlo.TRef sig ⟨S7, .i1⟩) (cmpi .ne),
    StableHlo.TRef.unary (.of main_call88_v0 : StableHlo.TRef sig ⟨S_, .i32⟩) (.of main_call88_v7 : StableHlo.TRef sig ⟨S7, .i32⟩) (broadcastInDim S7 ![] bcast_S_S7),
    StableHlo.TRef.binary (.of main_v1180 : StableHlo.TRef sig ⟨S7, .i32⟩) (.of main_call88_v7 : StableHlo.TRef sig ⟨S7, .i32⟩) (.of main_call88_v8 : StableHlo.TRef sig ⟨S7, .i32⟩) Host.remsi,
    StableHlo.TRef.nullary (.of main_call88_c : StableHlo.TRef sig ⟨S_, .i32⟩) (constantI S_ 32 0#32),
    StableHlo.TRef.unary (.of main_call88_c : StableHlo.TRef sig ⟨S_, .i32⟩) (.of main_call88_v9 : StableHlo.TRef sig ⟨S7, .i32⟩) (broadcastInDim S7 ![] bcast_S_S7),
    StableHlo.TRef.binary (.of main_call88_v8 : StableHlo.TRef sig ⟨S7, .i32⟩) (.of main_call88_v9 : StableHlo.TRef sig ⟨S7, .i32⟩) (.of main_call88_v10 : StableHlo.TRef sig ⟨S7, .i1⟩) (cmpi .ne),
    StableHlo.TRef.binary (.of main_call88_v6 : StableHlo.TRef sig ⟨S7, .i1⟩) (.of main_call88_v10 : StableHlo.TRef sig ⟨S7, .i1⟩) (.of main_call88_v11 : StableHlo.TRef sig ⟨S7, .i1⟩) andi,
    StableHlo.TRef.nullary (.of main_call88_c_0 : StableHlo.TRef sig ⟨S_, .i32⟩) (constantI S_ 32 1#32),
    StableHlo.TRef.unary (.of main_call88_c_0 : StableHlo.TRef sig ⟨S_, .i32⟩) (.of main_call88_v12 : StableHlo.TRef sig ⟨S7, .i32⟩) (broadcastInDim S7 ![] bcast_S_S7),
    StableHlo.TRef.binary (.of main_call88_v2 : StableHlo.TRef sig ⟨S7, .i32⟩) (.of main_call88_v12 : StableHlo.TRef sig ⟨S7, .i32⟩) (.of main_call88_v13 : StableHlo.TRef sig ⟨S7, .i32⟩) subi,
    StableHlo.TRef.ternary (.of main_call88_v11 : StableHlo.TRef sig ⟨S7, .i1⟩) (.of main_call88_v13 : StableHlo.TRef sig ⟨S7, .i32⟩) (.of main_call88_v2 : StableHlo.TRef sig ⟨S7, .i32⟩) (.of main_v1181 : StableHlo.TRef sig ⟨S7, .i32⟩) select ]
theorem ops22_3_sub : (ops22_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops22_3_fresh : (ops22_3 : List (HloOp τ sig (Elt F))).Forall fun op => op.fresh = ∅ := by
  simp only [List.Forall]; repeat' constructor
theorem ops22_3_keeps : (ops22_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2362 … 2370 of the program (9 of window 22), in order. -/
abbrev ops22_4 : List (HloOp τ sig (Elt F)) :=
  [ StableHlo.unary main_v1156 main_v1182 (broadcastInDim S7 ![] bcast_S_S7 : (⟨S_, .i32⟩ : BufTy).Contents (Elt F) → (⟨S7, .i32⟩ : BufTy).Contents (Elt F)),
    StableHlo.binary main_v1182 main_v1181 main_v1183 (addi : (⟨S7, .i32⟩ : BufTy).Contents (Elt F) → (⟨S7, .i32⟩ : BufTy).Contents (Elt F) → (⟨S7, .i32⟩ : BufTy).Contents (Elt F)),
    StableHlo.nullary main_c_150 (constantI S_ 32 1#32),
    StableHlo.unary main_c_150 main_v1184 (broadcastInDim S7 ![] bcast_S_S7 : (⟨S_, .i32⟩ : BufTy).Contents (Elt F) → (⟨S7, .i32⟩ : BufTy).Contents (Elt F)),
    StableHlo.binary main_v1165 main_v1184 main_v1185 (addi : (⟨S7, .i32⟩ : BufTy).Contents (Elt F) → (⟨S7, .i32⟩ : BufTy).Contents (Elt F) → (⟨S7, .i32⟩ : BufTy).Contents (Elt F)),
    StableHlo.unary main_v1185 main_v1186 (negi : (⟨S7, .i32⟩ : BufTy).Contents (Elt F) → (⟨S7, .i32⟩ : BufTy).Contents (Elt F)),
    StableHlo.unary main_v1163 main_v1187 (broadcastInDim S7 ![] bcast_S_S7 : (⟨S_, .i32⟩ : BufTy).Contents (Elt F) → (⟨S7, .i32⟩ : BufTy).Contents (Elt F)),
    StableHlo.binary main_v1186 main_v1187 main_v1188 (muli : (⟨S7, .i32⟩ : BufTy).Contents (Elt F) → (⟨S7, .i32⟩ : BufTy).Contents (Elt F) → (⟨S7, .i32⟩ : BufTy).Contents (Elt F)),
    StableHlo.nullary main_c_151 (constantI S_ 32 7#32) ]
theorem ops22_4_sub : (ops22_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops22_4_fresh : (ops22_4 : List (HloOp τ sig (Elt F))).Forall fun op => op.fresh = ∅ := by
  simp only [List.Forall]; repeat' constructor
theorem ops22_4_keeps : (ops22_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2371 … 2387 of the program (17 of window 22), in order. -/
abbrev ops22_5 : List (HloOp τ sig (Elt F)) :=
  [ StableHlo.TRef.unary (.of main_c_151 : StableHlo.TRef sig ⟨S_, .i32⟩) (.of main_call89_v0 : StableHlo.TRef sig ⟨S_, .i32⟩) id,
    StableHlo.TRef.unary (.of main_call89_v0 : StableHlo.TRef sig ⟨S_, .i32⟩) (.of main_call89_v1 : StableHlo.TRef sig ⟨S7, .i32⟩) (broadcastInDim S7 ![] bcast_S_S7),
    StableHlo.TRef.binary (.of main_v1188 : StableHlo.TRef sig ⟨S7, .i32⟩) (.of main_call89_v1 : StableHlo.TRef sig ⟨S7, .i32⟩) (.of main_call89_v2 : StableHlo.TRef sig ⟨S7, .i32⟩) Host.divsi,
    StableHlo.TRef.unary (.of main_v1188 : StableHlo.TRef sig ⟨S7, .i32⟩) (.of main_call89_v3 : StableHlo.TRef sig ⟨S7, .i32⟩) signi,
    StableHlo.TRef.unary (.of main_call89_v0 : StableHlo.TRef sig ⟨S_, .i32⟩) (.of main_call89_v4 : StableHlo.TRef sig ⟨S_, .i32⟩) signi,
    StableHlo.TRef.unary (.of main_call89_v4 : StableHlo.TRef sig ⟨S_, .i32⟩) (.of main_call89_v5 : StableHlo.TRef sig ⟨S7, .i32⟩) (broadcastInDim S7 ![] bcast_S_S7),
    StableHlo.TRef.binary (.of main_call89_v3 : StableHlo.TRef sig ⟨S7, .i32⟩) (.of main_call89_v5 : StableHlo.TRef sig ⟨S7, .i32⟩) (.of main_call89_v6 : StableHlo.TRef sig ⟨S7, .i1⟩) (cmpi .ne),
    StableHlo.TRef.unary (.of main_call89_v0 : StableHlo.TRef sig ⟨S_, .i32⟩) (.of main_call89_v7 : StableHlo.TRef sig ⟨S7, .i32⟩) (broadcastInDim S7 ![] bcast_S_S7),
    StableHlo.TRef.binary (.of main_v1188 : StableHlo.TRef sig ⟨S7, .i32⟩) (.of main_call89_v7 : StableHlo.TRef sig ⟨S7, .i32⟩) (.of main_call89_v8 : StableHlo.TRef sig ⟨S7, .i32⟩) Host.remsi,
    StableHlo.TRef.nullary (.of main_call89_c : StableHlo.TRef sig ⟨S_, .i32⟩) (constantI S_ 32 0#32),
    StableHlo.TRef.unary (.of main_call89_c : StableHlo.TRef sig ⟨S_, .i32⟩) (.of main_call89_v9 : StableHlo.TRef sig ⟨S7, .i32⟩) (broadcastInDim S7 ![] bcast_S_S7),
    StableHlo.TRef.binary (.of main_call89_v8 : StableHlo.TRef sig ⟨S7, .i32⟩) (.of main_call89_v9 : StableHlo.TRef sig ⟨S7, .i32⟩) (.of main_call89_v10 : StableHlo.TRef sig ⟨S7, .i1⟩) (cmpi .ne),
    StableHlo.TRef.binary (.of main_call89_v6 : StableHlo.TRef sig ⟨S7, .i1⟩) (.of main_call89_v10 : StableHlo.TRef sig ⟨S7, .i1⟩) (.of main_call89_v11 : StableHlo.TRef sig ⟨S7, .i1⟩) andi,
    StableHlo.TRef.nullary (.of main_call89_c_0 : StableHlo.TRef sig ⟨S_, .i32⟩) (constantI S_ 32 1#32),
    StableHlo.TRef.unary (.of main_call89_c_0 : StableHlo.TRef sig ⟨S_, .i32⟩) (.of main_call89_v12 : StableHlo.TRef sig ⟨S7, .i32⟩) (broadcastInDim S7 ![] bcast_S_S7),
    StableHlo.TRef.binary (.of main_call89_v2 : StableHlo.TRef sig ⟨S7, .i32⟩) (.of main_call89_v12 : StableHlo.TRef sig ⟨S7, .i32⟩) (.of main_call89_v13 : StableHlo.TRef sig ⟨S7, .i32⟩) subi,
    StableHlo.TRef.ternary (.of main_call89_v11 : StableHlo.TRef sig ⟨S7, .i1⟩) (.of main_call89_v13 : StableHlo.TRef sig ⟨S7, .i32⟩) (.of main_call89_v2 : StableHlo.TRef sig ⟨S7, .i32⟩) (.of main_v1189 : StableHlo.TRef sig ⟨S7, .i32⟩) select ]
theorem ops22_5_sub : (ops22_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops22_5_fresh : (ops22_5 : List (HloOp τ sig (Elt F))).Forall fun op => op.fresh = ∅ := by
  simp only [List.Forall]; repeat' constructor
theorem ops22_5_keeps : (ops22_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2388 … 2416 of the program (29 of window 22), in order. -/
abbrev ops22_6 : List (HloOp τ sig (Elt F)) :=
  [ StableHlo.unary main_v1156 main_v1190 (broadcastInDim S7 ![] bcast_S_S7 : (⟨S_, .i32⟩ : BufTy).Contents (Elt F) → (⟨S7, .i32⟩ : BufTy).Contents (Elt F)),
    StableHlo.binary main_v1190 main_v1189 main_v1191 (subi : (⟨S7, .i32⟩ : BufTy).Contents (Elt F) → (⟨S7, .i32⟩ : BufTy).Contents (Elt F) → (⟨S7, .i32⟩ : BufTy).Contents (Elt F)),
    StableHlo.nullary main_v1192 (iotaInDim S64 32 0),
    StableHlo.nullary main_v1193 (iotaInDim S64 32 0),
    StableHlo.unary main_v1192 main_v1194 (broadcastInDim S1x64 ![1] bcast_S64_S1x64_1 : (⟨S64, .i32⟩ : BufTy).Contents (Elt F) → (⟨S1x64, .i32⟩ : BufTy).Contents (Elt F)),
    StableHlo.unary main_v1170 main_v1195 (broadcastInDim S7x1 ![0] bcast_S7_S7x1_0 : (⟨S7, .i32⟩ : BufTy).Contents (Elt F) → (⟨S7x1, .i32⟩ : BufTy).Contents (Elt F)),
    StableHlo.unary main_v1194 main_v1196 (broadcastInDim S7x64 ![0, 1] bcast_S1x64_S7x64_0_1 : (⟨S1x64, .i32⟩ : BufTy).Contents (Elt F) → (⟨S7x64, .i32⟩ : BufTy).Contents (Elt F)),
    StableHlo.unary main_v1195 main_v1197 (broadcastInDim S7x64 ![0, 1] bcast_S7x1_S7x64_0_1 : (⟨S7x1, .i32⟩ : BufTy).Contents (Elt F) → (⟨S7x64, .i32⟩ : BufTy).Contents (Elt F)),
    StableHlo.binary main_v1196 main_v1197 main_v1198 (cmpi .sge : (⟨S7x64, .i32⟩ : BufTy).Contents (Elt F) → (⟨S7x64, .i32⟩ : BufTy).Contents (Elt F) → (⟨S7x64, .i1⟩ : BufTy).Contents (Elt F)),
    StableHlo.unary main_v1192 main_v1199 (broadcastInDim S1x64 ![1] bcast_S64_S1x64_1 : (⟨S64, .i32⟩ : BufTy).Contents (Elt F) → (⟨S1x64, .i32⟩ : BufTy).Contents (Elt F)),
    StableHlo.unary main_v1178 main_v1200 (broadcastInDim S7x1 ![0] bcast_S7_S7x1_0 : (⟨S7, .i32⟩ : BufTy).Contents (Elt F) → (⟨S7x1, .i32⟩ : BufTy).Contents (Elt F)),
    StableHlo.unary main_v1199 main_v1201 (broadcastInDim S7x64 ![0, 1] bcast_S1x64_S7x64_0_1 : (⟨S1x64, .i32⟩ : BufTy).Contents (Elt F) → (⟨S7x64, .i32⟩ : BufTy).Contents (Elt F)),
    StableHlo.unary main_v1200 main_v1202 (broadcastInDim S7x64 ![0, 1] bcast_S7x1_S7x64_0_1 : (⟨S7x1, .i32⟩ : BufTy).Contents (Elt F) → (⟨S7x64, .i32⟩ : BufTy).Contents (Elt F)),
    StableHlo.binary main_v1201 main_v1202 main_v1203 (cmpi .slt : (⟨S7x64, .i32⟩ : BufTy).Contents (Elt F) → (⟨S7x64, .i32⟩ : BufTy).Contents (Elt F) → (⟨S7x64, .i1⟩ : BufTy).Contents (Elt F)),
    StableHlo.binary main_v1198 main_v1203 main_v1204 (andi : (⟨S7x64, .i1⟩ : BufTy).Contents (Elt F) → (⟨S7x64, .i1⟩ : BufTy).Contents (Elt F) → (⟨S7x64, .i1⟩ : BufTy).Contents (Elt F)),
    StableHlo.unary main_v1193 main_v1205 (broadcastInDim S1x64 ![1] bcast_S64_S1x64_1 : (⟨S64, .i32⟩ : BufTy).Contents (Elt F) → (⟨S1x64, .i32⟩ : BufTy).Contents (Elt F)),
    StableHlo.unary main_v1183 main_v1206 (broadcastInDim S7x1 ![0] bcast_S7_S7x1_0 : (⟨S7, .i32⟩ : BufTy).Contents (Elt F) → (⟨S7x1, .i32⟩ : BufTy).Contents (Elt F)),
    StableHlo.unary main_v1205 main_v1207 (broadcastInDim S7x64 ![0, 1] bcast_S1x64_S7x64_0_1 : (⟨S1x64, .i32⟩ : BufTy).Contents (Elt F) → (⟨S7x64, .i32⟩ : BufTy).Contents (Elt F)),
    StableHlo.unary main_v1206 main_v1208 (broadcastInDim S7x64 ![0, 1] bcast_S7x1_S7x64_0_1 : (⟨S7x1, .i32⟩ : BufTy).Contents (Elt F) → (⟨S7x64, .i32⟩ : BufTy).Contents (Elt F)),
    StableHlo.binary main_v1207 main_v1208 main_v1209 (cmpi .sge : (⟨S7x64, .i32⟩ : BufTy).Contents (Elt F) → (⟨S7x64, .i32⟩ : BufTy).Contents (Elt F) → (⟨S7x64, .i1⟩ : BufTy).Contents (Elt F)),
    StableHlo.unary main_v1193 main_v1210 (broadcastInDim S1x64 ![1] bcast_S64_S1x64_1 : (⟨S64, .i32⟩ : BufTy).Contents (Elt F) → (⟨S1x64, .i32⟩ : BufTy).Contents (Elt F)),
    StableHlo.unary main_v1191 main_v1211 (broadcastInDim S7x1 ![0] bcast_S7_S7x1_0 : (⟨S7, .i32⟩ : BufTy).Contents (Elt F) → (⟨S7x1, .i32⟩ : BufTy).Contents (Elt F)),
    StableHlo.unary main_v1210 main_v1212 (broadcastInDim S7x64 ![0, 1] bcast_S1x64_S7x64_0_1 : (⟨S1x64, .i32⟩ : BufTy).Contents (Elt F) → (⟨S7x64, .i32⟩ : BufTy).Contents (Elt F)),
    StableHlo.unary main_v1211 main_v1213 (broadcastInDim S7x64 ![0, 1] bcast_S7x1_S7x64_0_1 : (⟨S7x1, .i32⟩ : BufTy).Contents (Elt F) → (⟨S7x64, .i32⟩ : BufTy).Contents (Elt F)),
    StableHlo.binary main_v1212 main_v1213 main_v1214 (cmpi .slt : (⟨S7x64, .i32⟩ : BufTy).Contents (Elt F) → (⟨S7x64, .i32⟩ : BufTy).Contents (Elt F) → (⟨S7x64, .i1⟩ : BufTy).Contents (Elt F)),
    StableHlo.binary main_v1209 main_v1214 main_v1215 (andi : (⟨S7x64, .i1⟩ : BufTy).Contents (Elt F) → (⟨S7x64, .i1⟩ : BufTy).Contents (Elt F) → (⟨S7x64, .i1⟩ : BufTy).Contents (Elt F)),
    StableHlo.unary main_v1204 main_v1216 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1217 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_152 (constant S_ .f32 0xFF800000#32) ]
theorem ops22_6_sub : (ops22_6 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops22_6_fresh : (ops22_6 : List (HloOp τ sig (Elt F))).Forall fun op => op.fresh = ∅ := by
  simp only [List.Forall]; repeat' constructor
theorem ops22_6_keeps : (ops22_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2417 … 2420 of the program (4 of window 22), in order. -/
abbrev ops22_7 : List (HloOp τ sig (Elt F)) :=
  [ StableHlo.TRef.unary (.of main_v1216 : StableHlo.TRef sig ⟨S7x1x64x1, .i1⟩) (.of main_call90_v0 : StableHlo.TRef sig ⟨S7x512x64x64, .i1⟩) (broadcastInDim S7x512x64x64 ![0, 1, 2, 3] bcast_S7x1x64x1_S7x512x64x64_0_1_2_3),
    StableHlo.TRef.unary (.of main_v1217 : StableHlo.TRef sig ⟨S1x512x64x64, .f32⟩) (.of main_call90_v1 : StableHlo.TRef sig ⟨S7x512x64x64, .f32⟩) (broadcastInDim S7x512x64x64 ![0, 1, 2, 3] bcast_S1x512x64x64_S7x512x64x64_0_1_2_3),
    StableHlo.TRef.unary (.of main_cst_152 : StableHlo.TRef sig ⟨S_, .f32⟩) (.of main_call90_v2 : StableHlo.TRef sig ⟨S7x512x64x64, .f32⟩) (broadcastInDim S7x512x64x64 ![] bcast_S_S7x512x64x64),
    StableHlo.TRef.ternary (.of main_call90_v0 : StableHlo.TRef sig ⟨S7x512x64x64, .i1⟩) (.of main_call90_v1 : StableHlo.TRef sig ⟨S7x512x64x64, .f32⟩) (.of main_call90_v2 : StableHlo.TRef sig ⟨S7x512x64x64, .f32⟩) (.of main_v1218 : StableHlo.TRef sig ⟨S7x512x64x64, .f32⟩) select ]
theorem ops22_7_sub : (ops22_7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops22_7_fresh : (ops22_7 : List (HloOp τ sig (Elt F))).Forall fun op => op.fresh = ∅ := by
  simp only [List.Forall]; repeat' constructor
theorem ops22_7_keeps : (ops22_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2421 … 2425 of the program (5 of window 22), in order. -/
abbrev ops22_8 : List (HloOp τ sig (Elt F)) :=
  [ StableHlo.nullary main_cst_153 (constant S_ .f32 0xFF800000#32),
    StableHlo.binary main_v1218 main_cst_153 main_v1219 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1215 main_v1220 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1219 main_v1221 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_154 (constant S_ .f32 0xFF800000#32) ]
theorem ops22_8_sub : (ops22_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops22_8_fresh : (ops22_8 : List (HloOp τ sig (Elt F))).Forall fun op => op.fresh = ∅ := by
  simp only [List.Forall]; repeat' constructor
theorem ops22_8_keeps : (ops22_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2426 … 2429 of the program (4 of window 22), in order. -/
abbrev ops22_9 : List (HloOp τ sig (Elt F)) :=
  [ StableHlo.TRef.unary (.of main_v1220 : StableHlo.TRef sig ⟨S1x1x7x64, .i1⟩) (.of main_call91_v0 : StableHlo.TRef sig ⟨S7x512x7x64, .i1⟩) (broadcastInDim S7x512x7x64 ![0, 1, 2, 3] bcast_S1x1x7x64_S7x512x7x64_0_1_2_3),
    StableHlo.TRef.unary (.of main_v1221 : StableHlo.TRef sig ⟨S7x512x1x64, .f32⟩) (.of main_call91_v1 : StableHlo.TRef sig ⟨S7x512x7x64, .f32⟩) (broadcastInDim S7x512x7x64 ![0, 1, 2, 3] bcast_S7x512x1x64_S7x512x7x64_0_1_2_3),
    StableHlo.TRef.unary (.of main_cst_154 : StableHlo.TRef sig ⟨S_, .f32⟩) (.of main_call91_v2 : StableHlo.TRef sig ⟨S7x512x7x64, .f32⟩) (broadcastInDim S7x512x7x64 ![] bcast_S_S7x512x7x64),
    StableHlo.TRef.ternary (.of main_call91_v0 : StableHlo.TRef sig ⟨S7x512x7x64, .i1⟩) (.of main_call91_v1 : StableHlo.TRef sig ⟨S7x512x7x64, .f32⟩) (.of main_call91_v2 : StableHlo.TRef sig ⟨S7x512x7x64, .f32⟩) (.of main_v1222 : StableHlo.TRef sig ⟨S7x512x7x64, .f32⟩) select ]
theorem ops22_9_sub : (ops22_9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops22_9_fresh : (ops22_9 : List (HloOp τ sig (Elt F))).Forall fun op => op.fresh = ∅ := by
  simp only [List.Forall]; repeat' constructor
theorem ops22_9_keeps : (ops22_9 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops22_9, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part22_eq (c : Dev nD) : main_part22 (F := F) c = Pipeline.chainK [StableHlo.seq ops22_0, StableHlo.seq ops22_1, StableHlo.seq ops22_2, StableHlo.seq ops22_3, StableHlo.seq ops22_4, StableHlo.seq ops22_5, StableHlo.seq ops22_6, StableHlo.seq ops22_7, StableHlo.seq ops22_8] (StableHlo.seq ops22_9) := by
  chain_rfl

end Cert.ReferenceIdeal.Host

end
-- ==== Proof.RefOps23.lean ====
/- Window 23 of the program's @main, every called function's body written out in place: 124 operations,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 2430 … 2460 of the program (31 of window 23), in order. -/
abbrev ops23_0 : List (HloOp τ sig (Elt F)) :=
  [ StableHlo.nullary main_cst_155 (constant S_ .f32 0xFF800000#32),
    StableHlo.binary main_v1222 main_cst_155 main_v1223 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1223 main_v1224 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1224 main_v1225 rfl shapeCasts_S512x7x7_S25088,
    StableHlo.unary main_v18 main_v1226 ((extractStridedSlice S1x1 ![2, 1] · slices_S3x4_S1x1_2_1) : (⟨S3x4, .i32⟩ : BufTy).Contents (Elt F) → (⟨S1x1, .i32⟩ : BufTy).Contents (Elt F)),
    StableHlo.reshape main_v1226 main_v1227 rfl shapeCasts_S1x1_S_,
    StableHlo.unary main_v23 main_v1228 ((extractStridedSlice S1x1 ![3, 1] · slices_S4x4_S1x1_3_1) : (⟨S4x4, .i32⟩ : BufTy).Contents (Elt F) → (⟨S1x1, .i32⟩ : BufTy).Contents (Elt F)),
    StableHlo.reshape main_v1228 main_v1229 rfl shapeCasts_S1x1_S_,
    StableHlo.binary main_v1227 main_v1229 main_v1230 (minsi : (⟨S_, .i32⟩ : BufTy).Contents (Elt F) → (⟨S_, .i32⟩ : BufTy).Contents (Elt F) → (⟨S_, .i32⟩ : BufTy).Contents (Elt F)),
    StableHlo.unary main_v18 main_v1231 ((extractStridedSlice S1x1 ![2, 3] · slices_S3x4_S1x1_2_3) : (⟨S3x4, .i32⟩ : BufTy).Contents (Elt F) → (⟨S1x1, .i32⟩ : BufTy).Contents (Elt F)),
    StableHlo.reshape main_v1231 main_v1232 rfl shapeCasts_S1x1_S_,
    StableHlo.unary main_v23 main_v1233 ((extractStridedSlice S1x1 ![3, 3] · slices_S4x4_S1x1_3_3) : (⟨S4x4, .i32⟩ : BufTy).Contents (Elt F) → (⟨S1x1, .i32⟩ : BufTy).Contents (Elt F)),
    StableHlo.reshape main_v1233 main_v1234 rfl shapeCasts_S1x1_S_,
    StableHlo.binary main_v1232 main_v1234 main_v1235 (maxsi : (⟨S_, .i32⟩ : BufTy).Contents (Elt F) → (⟨S_, .i32⟩ : BufTy).Contents (Elt F) → (⟨S_, .i32⟩ : BufTy).Contents (Elt F)),
    StableHlo.unary main_v18 main_v1236 ((extractStridedSlice S1x1 ![2, 0] · slices_S3x4_S1x1_2_0) : (⟨S3x4, .i32⟩ : BufTy).Contents (Elt F) → (⟨S1x1, .i32⟩ : BufTy).Contents (Elt F)),
    StableHlo.reshape main_v1236 main_v1237 rfl shapeCasts_S1x1_S_,
    StableHlo.unary main_v23 main_v1238 ((extractStridedSlice S1x1 ![3, 0] · slices_S4x4_S1x1_3_0) : (⟨S4x4, .i32⟩ : BufTy).Contents (Elt F) → (⟨S1x1, .i32⟩ : BufTy).Contents (Elt F)),
    StableHlo.reshape main_v1238 main_v1239 rfl shapeCasts_S1x1_S_,
    StableHlo.binary main_v1237 main_v1239 main_v1240 (minsi : (⟨S_, .i32⟩ : BufTy).Contents (Elt F) → (⟨S_, .i32⟩ : BufTy).Contents (Elt F) → (⟨S_, .i32⟩ : BufTy).Contents (Elt F)),
    StableHlo.unary main_v18 main_v1241 ((extractStridedSlice S1x1 ![2, 2] · slices_S3x4_S1x1_2_2) : (⟨S3x4, .i32⟩ : BufTy).Contents (Elt F) → (⟨S1x1, .i32⟩ : BufTy).Contents (Elt F)),
    StableHlo.reshape main_v1241 main_v1242 rfl shapeCasts_S1x1_S_,
    StableHlo.unary main_v23 main_v1243 ((extractStridedSlice S1x1 ![3, 2] · slices_S4x4_S1x1_3_2) : (⟨S4x4, .i32⟩ : BufTy).Contents (Elt F) → (⟨S1x1, .i32⟩ : BufTy).Contents (Elt F)),
    StableHlo.reshape main_v1243 main_v1244 rfl shapeCasts_S1x1_S_,
    StableHlo.binary main_v1242 main_v1244 main_v1245 (maxsi : (⟨S_, .i32⟩ : BufTy).Contents (Elt F) → (⟨S_, .i32⟩ : BufTy).Contents (Elt F) → (⟨S_, .i32⟩ : BufTy).Contents (Elt F)),
    StableHlo.binary main_v1235 main_v1230 main_v1246 (subi : (⟨S_, .i32⟩ : BufTy).Contents (Elt F) → (⟨S_, .i32⟩ : BufTy).Contents (Elt F) → (⟨S_, .i32⟩ : BufTy).Contents (Elt F)),
    StableHlo.binary main_v1245 main_v1240 main_v1247 (subi : (⟨S_, .i32⟩ : BufTy).Contents (Elt F) → (⟨S_, .i32⟩ : BufTy).Contents (Elt F) → (⟨S_, .i32⟩ : BufTy).Contents (Elt F)),
    StableHlo.nullary main_v1248 (iotaInDim S7 32 0),
    StableHlo.nullary main_v1249 (iotaInDim S7 32 0),
    StableHlo.unary main_v1246 main_v1250 (broadcastInDim S7 ![] bcast_S_S7 : (⟨S_, .i32⟩ : BufTy).Contents (Elt F) → (⟨S7, .i32⟩ : BufTy).Contents (Elt F)),
    StableHlo.binary main_v1248 main_v1250 main_v1251 (muli : (⟨S7, .i32⟩ : BufTy).Contents (Elt F) → (⟨S7, .i32⟩ : BufTy).Contents (Elt F) → (⟨S7, .i32⟩ : BufTy).Contents (Elt F)),
    StableHlo.nullary main_c_156 (constantI S_ 32 7#32) ]
theorem ops23_0_sub : (ops23_0 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub ..⟩
theorem ops23_0_fresh : (ops23_0 : List (HloOp τ sig (Elt F))).Forall fun op => op.fresh = ∅ := by
  simp only [List.Forall]; repeat' constructor
theorem ops23_0_keeps : (ops23_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2461 … 2477 of the program (17 of window 23), in order. -/
abbrev ops23_1 : List (HloOp τ sig (Elt F)) :=
  [ StableHlo.TRef.unary (.of main_c_156 : StableHlo.TRef sig ⟨S_, .i32⟩) (.of main_call92_v0 : StableHlo.TRef sig ⟨S_, .i32⟩) id,
    StableHlo.TRef.unary (.of main_call92_v0 : StableHlo.TRef sig ⟨S_, .i32⟩) (.of main_call92_v1 : StableHlo.TRef sig ⟨S7, .i32⟩) (broadcastInDim S7 ![] bcast_S_S7),
    StableHlo.TRef.binary (.of main_v1251 : StableHlo.TRef sig ⟨S7, .i32⟩) (.of main_call92_v1 : StableHlo.TRef sig ⟨S7, .i32⟩) (.of main_call92_v2 : StableHlo.TRef sig ⟨S7, .i32⟩) Host.divsi,
    StableHlo.TRef.unary (.of main_v1251 : StableHlo.TRef sig ⟨S7, .i32⟩) (.of main_call92_v3 : StableHlo.TRef sig ⟨S7, .i32⟩) signi,
    StableHlo.TRef.unary (.of main_call92_v0 : StableHlo.TRef sig ⟨S_, .i32⟩) (.of main_call92_v4 : StableHlo.TRef sig ⟨S_, .i32⟩) signi,
    StableHlo.TRef.unary (.of main_call92_v4 : StableHlo.TRef sig ⟨S_, .i32⟩) (.of main_call92_v5 : StableHlo.TRef sig ⟨S7, .i32⟩) (broadcastInDim S7 ![] bcast_S_S7),
    StableHlo.TRef.binary (.of main_call92_v3 : StableHlo.TRef sig ⟨S7, .i32⟩) (.of main_call92_v5 : StableHlo.TRef sig ⟨S7, .i32⟩) (.of main_call92_v6 : StableHlo.TRef sig ⟨S7, .i1⟩) (cmpi .ne),
    StableHlo.TRef.unary (.of main_call92_v0 : StableHlo.TRef sig ⟨S_, .i32⟩) (.of main_call92_v7 : StableHlo.TRef sig ⟨S7, .i32⟩) (broadcastInDim S7 ![] bcast_S_S7),
    StableHlo.TRef.binary (.of main_v1251 : StableHlo.TRef sig ⟨S7, .i32⟩) (.of main_call92_v7 : StableHlo.TRef sig ⟨S7, .i32⟩) (.of main_call92_v8 : StableHlo.TRef sig ⟨S7, .i32⟩) Host.remsi,
    StableHlo.TRef.nullary (.of main_call92_c : StableHlo.TRef sig ⟨S_, .i32⟩) (constantI S_ 32 0#32),
    StableHlo.TRef.unary (.of main_call92_c : StableHlo.TRef sig ⟨S_, .i32⟩) (.of main_call92_v9 : StableHlo.TRef sig ⟨S7, .i32⟩) (broadcastInDim S7 ![] bcast_S_S7),
    StableHlo.TRef.binary (.of main_call92_v8 : StableHlo.TRef sig ⟨S7, .i32⟩) (.of main_call92_v9 : StableHlo.TRef sig ⟨S7, .i32⟩) (.of main_call92_v10 : StableHlo.TRef sig ⟨S7, .i1⟩) (cmpi .ne),
    StableHlo.TRef.binary (.of main_call92_v6 : StableHlo.TRef sig ⟨S7, .i1⟩) (.of main_call92_v10 : StableHlo.TRef sig ⟨S7, .i1⟩) (.of main_call92_v11 : StableHlo.TRef sig ⟨S7, .i1⟩) andi,
    StableHlo.TRef.nullary (.of main_call92_c_0 : StableHlo.TRef sig ⟨S_, .i32⟩) (constantI S_ 32 1#32),
    StableHlo.TRef.unary (.of main_call92_c_0 : StableHlo.TRef sig ⟨S_, .i32⟩) (.of main_call92_v12 : StableHlo.TRef sig ⟨S7, .i32⟩) (broadcastInDim S7 ![] bcast_S_S7),
    StableHlo.TRef.binary (.of main_call92_v2 : StableHlo.TRef sig ⟨S7, .i32⟩) (.of main_call92_v12 : StableHlo.TRef sig ⟨S7, .i32⟩) (.of main_call92_v13 : StableHlo.TRef sig ⟨S7, .i32⟩) subi,
    StableHlo.TRef.ternary (.of main_call92_v11 : StableHlo.TRef sig ⟨S7, .i1⟩) (.of main_call92_v13 : StableHlo.TRef sig ⟨S7, .i32⟩) (.of main_call92_v2 : StableHlo.TRef sig ⟨S7, .i32⟩) (.of main_v1252 : StableHlo.TRef sig ⟨S7, .i32⟩) select ]
theorem ops23_1_sub : (ops23_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops23_1_fresh : (ops23_1 : List (HloOp τ sig (Elt F))).Forall fun op => op.fresh = ∅ := by
  simp only [List.Forall]; repeat' constructor
theorem ops23_1_keeps : (ops23_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2478 … 2486 of the program (9 of window 23), in order. -/
abbrev ops23_2 : List (HloOp τ sig (Elt F)) :=
  [ StableHlo.unary main_v1230 main_v1253 (broadcastInDim S7 ![] bcast_S_S7 : (⟨S_, .i32⟩ : BufTy).Contents (Elt F) → (⟨S7, .i32⟩ : BufTy).Contents (Elt F)),
    StableHlo.binary main_v1253 main_v1252 main_v1254 (addi : (⟨S7, .i32⟩ : BufTy).Contents (Elt F) → (⟨S7, .i32⟩ : BufTy).Contents (Elt F) → (⟨S7, .i32⟩ : BufTy).Contents (Elt F)),
    StableHlo.nullary main_c_157 (constantI S_ 32 1#32),
    StableHlo.unary main_c_157 main_v1255 (broadcastInDim S7 ![] bcast_S_S7 : (⟨S_, .i32⟩ : BufTy).Contents (Elt F) → (⟨S7, .i32⟩ : BufTy).Contents (Elt F)),
    StableHlo.binary main_v1248 main_v1255 main_v1256 (addi : (⟨S7, .i32⟩ : BufTy).Contents (Elt F) → (⟨S7, .i32⟩ : BufTy).Contents (Elt F) → (⟨S7, .i32⟩ : BufTy).Contents (Elt F)),
    StableHlo.unary main_v1256 main_v1257 (negi : (⟨S7, .i32⟩ : BufTy).Contents (Elt F) → (⟨S7, .i32⟩ : BufTy).Contents (Elt F)),
    StableHlo.unary main_v1246 main_v1258 (broadcastInDim S7 ![] bcast_S_S7 : (⟨S_, .i32⟩ : BufTy).Contents (Elt F) → (⟨S7, .i32⟩ : BufTy).Contents (Elt F)),
    StableHlo.binary main_v1257 main_v1258 main_v1259 (muli : (⟨S7, .i32⟩ : BufTy).Contents (Elt F) → (⟨S7, .i32⟩ : BufTy).Contents (Elt F) → (⟨S7, .i32⟩ : BufTy).Contents (Elt F)),
    StableHlo.nullary main_c_158 (constantI S_ 32 7#32) ]
theorem ops23_2_sub : (ops23_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops23_2_fresh : (ops23_2 : List (HloOp τ sig (Elt F))).Forall fun op => op.fresh = ∅ := by
  simp only [List.Forall]; repeat' constructor
theorem ops23_2_keeps : (ops23_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2487 … 2503 of the program (17 of window 23), in order. -/
abbrev ops23_3 : List (HloOp τ sig (Elt F)) :=
  [ StableHlo.TRef.unary (.of main_c_158 : StableHlo.TRef sig ⟨S_, .i32⟩) (.of main_call93_v0 : StableHlo.TRef sig ⟨S_, .i32⟩) id,
    StableHlo.TRef.unary (.of main_call93_v0 : StableHlo.TRef sig ⟨S_, .i32⟩) (.of main_call93_v1 : StableHlo.TRef sig ⟨S7, .i32⟩) (broadcastInDim S7 ![] bcast_S_S7),
    StableHlo.TRef.binary (.of main_v1259 : StableHlo.TRef sig ⟨S7, .i32⟩) (.of main_call93_v1 : StableHlo.TRef sig ⟨S7, .i32⟩) (.of main_call93_v2 : StableHlo.TRef sig ⟨S7, .i32⟩) Host.divsi,
    StableHlo.TRef.unary (.of main_v1259 : StableHlo.TRef sig ⟨S7, .i32⟩) (.of main_call93_v3 : StableHlo.TRef sig ⟨S7, .i32⟩) signi,
    StableHlo.TRef.unary (.of main_call93_v0 : StableHlo.TRef sig ⟨S_, .i32⟩) (.of main_call93_v4 : StableHlo.TRef sig ⟨S_, .i32⟩) signi,
    StableHlo.TRef.unary (.of main_call93_v4 : StableHlo.TRef sig ⟨S_, .i32⟩) (.of main_call93_v5 : StableHlo.TRef sig ⟨S7, .i32⟩) (broadcastInDim S7 ![] bcast_S_S7),
    StableHlo.TRef.binary (.of main_call93_v3 : StableHlo.TRef sig ⟨S7, .i32⟩) (.of main_call93_v5 : StableHlo.TRef sig ⟨S7, .i32⟩) (.of main_call93_v6 : StableHlo.TRef sig ⟨S7, .i1⟩) (cmpi .ne),
    StableHlo.TRef.unary (.of main_call93_v0 : StableHlo.TRef sig ⟨S_, .i32⟩) (.of main_call93_v7 : StableHlo.TRef sig ⟨S7, .i32⟩) (broadcastInDim S7 ![] bcast_S_S7),
    StableHlo.TRef.binary (.of main_v1259 : StableHlo.TRef sig ⟨S7, .i32⟩) (.of main_call93_v7 : StableHlo.TRef sig ⟨S7, .i32⟩) (.of main_call93_v8 : StableHlo.TRef sig ⟨S7, .i32⟩) Host.remsi,
    StableHlo.TRef.nullary (.of main_call93_c : StableHlo.TRef sig ⟨S_, .i32⟩) (constantI S_ 32 0#32),
    StableHlo.TRef.unary (.of main_call93_c : StableHlo.TRef sig ⟨S_, .i32⟩) (.of main_call93_v9 : StableHlo.TRef sig ⟨S7, .i32⟩) (broadcastInDim S7 ![] bcast_S_S7),
    StableHlo.TRef.binary (.of main_call93_v8 : StableHlo.TRef sig ⟨S7, .i32⟩) (.of main_call93_v9 : StableHlo.TRef sig ⟨S7, .i32⟩) (.of main_call93_v10 : StableHlo.TRef sig ⟨S7, .i1⟩) (cmpi .ne),
    StableHlo.TRef.binary (.of main_call93_v6 : StableHlo.TRef sig ⟨S7, .i1⟩) (.of main_call93_v10 : StableHlo.TRef sig ⟨S7, .i1⟩) (.of main_call93_v11 : StableHlo.TRef sig ⟨S7, .i1⟩) andi,
    StableHlo.TRef.nullary (.of main_call93_c_0 : StableHlo.TRef sig ⟨S_, .i32⟩) (constantI S_ 32 1#32),
    StableHlo.TRef.unary (.of main_call93_c_0 : StableHlo.TRef sig ⟨S_, .i32⟩) (.of main_call93_v12 : StableHlo.TRef sig ⟨S7, .i32⟩) (broadcastInDim S7 ![] bcast_S_S7),
    StableHlo.TRef.binary (.of main_call93_v2 : StableHlo.TRef sig ⟨S7, .i32⟩) (.of main_call93_v12 : StableHlo.TRef sig ⟨S7, .i32⟩) (.of main_call93_v13 : StableHlo.TRef sig ⟨S7, .i32⟩) subi,
    StableHlo.TRef.ternary (.of main_call93_v11 : StableHlo.TRef sig ⟨S7, .i1⟩) (.of main_call93_v13 : StableHlo.TRef sig ⟨S7, .i32⟩) (.of main_call93_v2 : StableHlo.TRef sig ⟨S7, .i32⟩) (.of main_v1260 : StableHlo.TRef sig ⟨S7, .i32⟩) select ]
theorem ops23_3_sub : (ops23_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops23_3_fresh : (ops23_3 : List (HloOp τ sig (Elt F))).Forall fun op => op.fresh = ∅ := by
  simp only [List.Forall]; repeat' constructor
theorem ops23_3_keeps : (ops23_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2504 … 2508 of the program (5 of window 23), in order. -/
abbrev ops23_4 : List (HloOp τ sig (Elt F)) :=
  [ StableHlo.unary main_v1230 main_v1261 (broadcastInDim S7 ![] bcast_S_S7 : (⟨S_, .i32⟩ : BufTy).Contents (Elt F) → (⟨S7, .i32⟩ : BufTy).Contents (Elt F)),
    StableHlo.binary main_v1261 main_v1260 main_v1262 (subi : (⟨S7, .i32⟩ : BufTy).Contents (Elt F) → (⟨S7, .i32⟩ : BufTy).Contents (Elt F) → (⟨S7, .i32⟩ : BufTy).Contents (Elt F)),
    StableHlo.unary main_v1247 main_v1263 (broadcastInDim S7 ![] bcast_S_S7 : (⟨S_, .i32⟩ : BufTy).Contents (Elt F) → (⟨S7, .i32⟩ : BufTy).Contents (Elt F)),
    StableHlo.binary main_v1249 main_v1263 main_v1264 (muli : (⟨S7, .i32⟩ : BufTy).Contents (Elt F) → (⟨S7, .i32⟩ : BufTy).Contents (Elt F) → (⟨S7, .i32⟩ : BufTy).Contents (Elt F)),
    StableHlo.nullary main_c_159 (constantI S_ 32 7#32) ]
theorem ops23_4_sub : (ops23_4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub ..⟩
theorem ops23_4_fresh : (ops23_4 : List (HloOp τ sig (Elt F))).Forall fun op => op.fresh = ∅ := by
  simp only [List.Forall]; repeat' constructor
theorem ops23_4_keeps : (ops23_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2509 … 2525 of the program (17 of window 23), in order. -/
abbrev ops23_5 : List (HloOp τ sig (Elt F)) :=
  [ StableHlo.TRef.unary (.of main_c_159 : StableHlo.TRef sig ⟨S_, .i32⟩) (.of main_call94_v0 : StableHlo.TRef sig ⟨S_, .i32⟩) id,
    StableHlo.TRef.unary (.of main_call94_v0 : StableHlo.TRef sig ⟨S_, .i32⟩) (.of main_call94_v1 : StableHlo.TRef sig ⟨S7, .i32⟩) (broadcastInDim S7 ![] bcast_S_S7),
    StableHlo.TRef.binary (.of main_v1264 : StableHlo.TRef sig ⟨S7, .i32⟩) (.of main_call94_v1 : StableHlo.TRef sig ⟨S7, .i32⟩) (.of main_call94_v2 : StableHlo.TRef sig ⟨S7, .i32⟩) Host.divsi,
    StableHlo.TRef.unary (.of main_v1264 : StableHlo.TRef sig ⟨S7, .i32⟩) (.of main_call94_v3 : StableHlo.TRef sig ⟨S7, .i32⟩) signi,
    StableHlo.TRef.unary (.of main_call94_v0 : StableHlo.TRef sig ⟨S_, .i32⟩) (.of main_call94_v4 : StableHlo.TRef sig ⟨S_, .i32⟩) signi,
    StableHlo.TRef.unary (.of main_call94_v4 : StableHlo.TRef sig ⟨S_, .i32⟩) (.of main_call94_v5 : StableHlo.TRef sig ⟨S7, .i32⟩) (broadcastInDim S7 ![] bcast_S_S7),
    StableHlo.TRef.binary (.of main_call94_v3 : StableHlo.TRef sig ⟨S7, .i32⟩) (.of main_call94_v5 : StableHlo.TRef sig ⟨S7, .i32⟩) (.of main_call94_v6 : StableHlo.TRef sig ⟨S7, .i1⟩) (cmpi .ne),
    StableHlo.TRef.unary (.of main_call94_v0 : StableHlo.TRef sig ⟨S_, .i32⟩) (.of main_call94_v7 : StableHlo.TRef sig ⟨S7, .i32⟩) (broadcastInDim S7 ![] bcast_S_S7),
    StableHlo.TRef.binary (.of main_v1264 : StableHlo.TRef sig ⟨S7, .i32⟩) (.of main_call94_v7 : StableHlo.TRef sig ⟨S7, .i32⟩) (.of main_call94_v8 : StableHlo.TRef sig ⟨S7, .i32⟩) Host.remsi,
    StableHlo.TRef.nullary (.of main_call94_c : StableHlo.TRef sig ⟨S_, .i32⟩) (constantI S_ 32 0#32),
    StableHlo.TRef.unary (.of main_call94_c : StableHlo.TRef sig ⟨S_, .i32⟩) (.of main_call94_v9 : StableHlo.TRef sig ⟨S7, .i32⟩) (broadcastInDim S7 ![] bcast_S_S7),
    StableHlo.TRef.binary (.of main_call94_v8 : StableHlo.TRef sig ⟨S7, .i32⟩) (.of main_call94_v9 : StableHlo.TRef sig ⟨S7, .i32⟩) (.of main_call94_v10 : StableHlo.TRef sig ⟨S7, .i1⟩) (cmpi .ne),
    StableHlo.TRef.binary (.of main_call94_v6 : StableHlo.TRef sig ⟨S7, .i1⟩) (.of main_call94_v10 : StableHlo.TRef sig ⟨S7, .i1⟩) (.of main_call94_v11 : StableHlo.TRef sig ⟨S7, .i1⟩) andi,
    StableHlo.TRef.nullary (.of main_call94_c_0 : StableHlo.TRef sig ⟨S_, .i32⟩) (constantI S_ 32 1#32),
    StableHlo.TRef.unary (.of main_call94_c_0 : StableHlo.TRef sig ⟨S_, .i32⟩) (.of main_call94_v12 : StableHlo.TRef sig ⟨S7, .i32⟩) (broadcastInDim S7 ![] bcast_S_S7),
    StableHlo.TRef.binary (.of main_call94_v2 : StableHlo.TRef sig ⟨S7, .i32⟩) (.of main_call94_v12 : StableHlo.TRef sig ⟨S7, .i32⟩) (.of main_call94_v13 : StableHlo.TRef sig ⟨S7, .i32⟩) subi,
    StableHlo.TRef.ternary (.of main_call94_v11 : StableHlo.TRef sig ⟨S7, .i1⟩) (.of main_call94_v13 : StableHlo.TRef sig ⟨S7, .i32⟩) (.of main_call94_v2 : StableHlo.TRef sig ⟨S7, .i32⟩) (.of main_v1265 : StableHlo.TRef sig ⟨S7, .i32⟩) select ]
theorem ops23_5_sub : (ops23_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops23_5_fresh : (ops23_5 : List (HloOp τ sig (Elt F))).Forall fun op => op.fresh = ∅ := by
  simp only [List.Forall]; repeat' constructor
theorem ops23_5_keeps : (ops23_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2526 … 2534 of the program (9 of window 23), in order. -/
abbrev ops23_6 : List (HloOp τ sig (Elt F)) :=
  [ StableHlo.unary main_v1240 main_v1266 (broadcastInDim S7 ![] bcast_S_S7 : (⟨S_, .i32⟩ : BufTy).Contents (Elt F) → (⟨S7, .i32⟩ : BufTy).Contents (Elt F)),
    StableHlo.binary main_v1266 main_v1265 main_v1267 (addi : (⟨S7, .i32⟩ : BufTy).Contents (Elt F) → (⟨S7, .i32⟩ : BufTy).Contents (Elt F) → (⟨S7, .i32⟩ : BufTy).Contents (Elt F)),
    StableHlo.nullary main_c_160 (constantI S_ 32 1#32),
    StableHlo.unary main_c_160 main_v1268 (broadcastInDim S7 ![] bcast_S_S7 : (⟨S_, .i32⟩ : BufTy).Contents (Elt F) → (⟨S7, .i32⟩ : BufTy).Contents (Elt F)),
    StableHlo.binary main_v1249 main_v1268 main_v1269 (addi : (⟨S7, .i32⟩ : BufTy).Contents (Elt F) → (⟨S7, .i32⟩ : BufTy).Contents (Elt F) → (⟨S7, .i32⟩ : BufTy).Contents (Elt F)),
    StableHlo.unary main_v1269 main_v1270 (negi : (⟨S7, .i32⟩ : BufTy).Contents (Elt F) → (⟨S7, .i32⟩ : BufTy).Contents (Elt F)),
    StableHlo.unary main_v1247 main_v1271 (broadcastInDim S7 ![] bcast_S_S7 : (⟨S_, .i32⟩ : BufTy).Contents (Elt F) → (⟨S7, .i32⟩ : BufTy).Contents (Elt F)),
    StableHlo.binary main_v1270 main_v1271 main_v1272 (muli : (⟨S7, .i32⟩ : BufTy).Contents (Elt F) → (⟨S7, .i32⟩ : BufTy).Contents (Elt F) → (⟨S7, .i32⟩ : BufTy).Contents (Elt F)),
    StableHlo.nullary main_c_161 (constantI S_ 32 7#32) ]
theorem ops23_6_sub : (ops23_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
theorem ops23_6_fresh : (ops23_6 : List (HloOp τ sig (Elt F))).Forall fun op => op.fresh = ∅ := by
  simp only [List.Forall]; repeat' constructor
theorem ops23_6_keeps : (ops23_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2535 … 2551 of the program (17 of window 23), in order. -/
abbrev ops23_7 : List (HloOp τ sig (Elt F)) :=
  [ StableHlo.TRef.unary (.of main_c_161 : StableHlo.TRef sig ⟨S_, .i32⟩) (.of main_call95_v0 : StableHlo.TRef sig ⟨S_, .i32⟩) id,
    StableHlo.TRef.unary (.of main_call95_v0 : StableHlo.TRef sig ⟨S_, .i32⟩) (.of main_call95_v1 : StableHlo.TRef sig ⟨S7, .i32⟩) (broadcastInDim S7 ![] bcast_S_S7),
    StableHlo.TRef.binary (.of main_v1272 : StableHlo.TRef sig ⟨S7, .i32⟩) (.of main_call95_v1 : StableHlo.TRef sig ⟨S7, .i32⟩) (.of main_call95_v2 : StableHlo.TRef sig ⟨S7, .i32⟩) Host.divsi,
    StableHlo.TRef.unary (.of main_v1272 : StableHlo.TRef sig ⟨S7, .i32⟩) (.of main_call95_v3 : StableHlo.TRef sig ⟨S7, .i32⟩) signi,
    StableHlo.TRef.unary (.of main_call95_v0 : StableHlo.TRef sig ⟨S_, .i32⟩) (.of main_call95_v4 : StableHlo.TRef sig ⟨S_, .i32⟩) signi,
    StableHlo.TRef.unary (.of main_call95_v4 : StableHlo.TRef sig ⟨S_, .i32⟩) (.of main_call95_v5 : StableHlo.TRef sig ⟨S7, .i32⟩) (broadcastInDim S7 ![] bcast_S_S7),
    StableHlo.TRef.binary (.of main_call95_v3 : StableHlo.TRef sig ⟨S7, .i32⟩) (.of main_call95_v5 : StableHlo.TRef sig ⟨S7, .i32⟩) (.of main_call95_v6 : StableHlo.TRef sig ⟨S7, .i1⟩) (cmpi .ne),
    StableHlo.TRef.unary (.of main_call95_v0 : StableHlo.TRef sig ⟨S_, .i32⟩) (.of main_call95_v7 : StableHlo.TRef sig ⟨S7, .i32⟩) (broadcastInDim S7 ![] bcast_S_S7),
    StableHlo.TRef.binary (.of main_v1272 : StableHlo.TRef sig ⟨S7, .i32⟩) (.of main_call95_v7 : StableHlo.TRef sig ⟨S7, .i32⟩) (.of main_call95_v8 : StableHlo.TRef sig ⟨S7, .i32⟩) Host.remsi,
    StableHlo.TRef.nullary (.of main_call95_c : StableHlo.TRef sig ⟨S_, .i32⟩) (constantI S_ 32 0#32),
    StableHlo.TRef.unary (.of main_call95_c : StableHlo.TRef sig ⟨S_, .i32⟩) (.of main_call95_v9 : StableHlo.TRef sig ⟨S7, .i32⟩) (broadcastInDim S7 ![] bcast_S_S7),
    StableHlo.TRef.binary (.of main_call95_v8 : StableHlo.TRef sig ⟨S7, .i32⟩) (.of main_call95_v9 : StableHlo.TRef sig ⟨S7, .i32⟩) (.of main_call95_v10 : StableHlo.TRef sig ⟨S7, .i1⟩) (cmpi .ne),
    StableHlo.TRef.binary (.of main_call95_v6 : StableHlo.TRef sig ⟨S7, .i1⟩) (.of main_call95_v10 : StableHlo.TRef sig ⟨S7, .i1⟩) (.of main_call95_v11 : StableHlo.TRef sig ⟨S7, .i1⟩) andi,
    StableHlo.TRef.nullary (.of main_call95_c_0 : StableHlo.TRef sig ⟨S_, .i32⟩) (constantI S_ 32 1#32),
    StableHlo.TRef.unary (.of main_call95_c_0 : StableHlo.TRef sig ⟨S_, .i32⟩) (.of main_call95_v12 : StableHlo.TRef sig ⟨S7, .i32⟩) (broadcastInDim S7 ![] bcast_S_S7),
    StableHlo.TRef.binary (.of main_call95_v2 : StableHlo.TRef sig ⟨S7, .i32⟩) (.of main_call95_v12 : StableHlo.TRef sig ⟨S7, .i32⟩) (.of main_call95_v13 : StableHlo.TRef sig ⟨S7, .i32⟩) subi,
    StableHlo.TRef.ternary (.of main_call95_v11 : StableHlo.TRef sig ⟨S7, .i1⟩) (.of main_call95_v13 : StableHlo.TRef sig ⟨S7, .i32⟩) (.of main_call95_v2 : StableHlo.TRef sig ⟨S7, .i32⟩) (.of main_v1273 : StableHlo.TRef sig ⟨S7, .i32⟩) select ]
theorem ops23_7_sub : (ops23_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops23_7_fresh : (ops23_7 : List (HloOp τ sig (Elt F))).Forall fun op => op.fresh = ∅ := by
  simp only [List.Forall]; repeat' constructor
theorem ops23_7_keeps : (ops23_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2552 … 2553 of the program (2 of window 23), in order. -/
abbrev ops23_8 : List (HloOp τ sig (Elt F)) :=
  [ StableHlo.unary main_v1240 main_v1274 (broadcastInDim S7 ![] bcast_S_S7 : (⟨S_, .i32⟩ : BufTy).Contents (Elt F) → (⟨S7, .i32⟩ : BufTy).Contents (Elt F)),
    StableHlo.binary main_v1274 main_v1273 main_v1275 (subi : (⟨S7, .i32⟩ : BufTy).Contents (Elt F) → (⟨S7, .i32⟩ : BufTy).Contents (Elt F) → (⟨S7, .i32⟩ : BufTy).Contents (Elt F)) ]
theorem ops23_8_sub : (ops23_8 : List (HloOp τ sig (Elt F))).Forall fun op => op.bufs ⊆ StableHlo.tcRefs τ sig :=
  ⟨StableHlo.unary_bufs_sub .., StableHlo.binary_bufs_sub ..⟩
theorem ops23_8_fresh : (ops23_8 : List (HloOp τ sig (Elt F))).Forall fun op => op.fresh = ∅ := by
  simp only [List.Forall]; repeat' constructor
theorem ops23_8_keeps : (ops23_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops23_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (its last statement in tail position). -/
theorem main_part23_eq (c : Dev nD) : main_part23 (F := F) c = Pipeline.chainK [StableHlo.seq ops23_0, StableHlo.seq ops23_1, StableHlo.seq ops23_2, StableHlo.seq ops23_3, StableHlo.seq ops23_4, StableHlo.seq ops23_5, StableHlo.seq ops23_6, StableHlo.seq ops23_7] (StableHlo.seq ops23_8) := by
  chain_rfl

end Cert.ReferenceIdeal.Host

end
-- ==== Proof.RefOps24.lean ====
/- Window 24 of the program's @main, every called function's body written out in place: 51 operations and the four the program ends with,
  cut into 9 lists in program order (a new list begins wherever a called function's body begins or ends, and at every concatenate).  Every operation touches TensorCore buffers only,
  determines its result, and writes none of the six argument buffers; and the window is its lists run in order. -/
import proofs.«107941_j79491254714775_1_alg».proof.Proof.Gen.ReferenceIdeal
import Idealize.ShloMosaic.Lib.Pipeline.Regions
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- Operations 2554 … 2580 of the program (27 of window 24), in order. -/
abbrev ops24_0 : List (HloOp τ sig (Elt F)) :=
  [ StableHlo.nullary main_v1276 (iotaInDim S64 32 0),
    StableHlo.nullary main_v1277 (iotaInDim S64 32 0),
    StableHlo.unary main_v1276 main_v1278 (broadcastInDim S1x64 ![1] bcast_S64_S1x64_1 : (⟨S64, .i32⟩ : BufTy).Contents (Elt F) → (⟨S1x64, .i32⟩ : BufTy).Contents (Elt F)),
    StableHlo.unary main_v1254 main_v1279 (broadcastInDim S7x1 ![0] bcast_S7_S7x1_0 : (⟨S7, .i32⟩ : BufTy).Contents (Elt F) → (⟨S7x1, .i32⟩ : BufTy).Contents (Elt F)),
    StableHlo.unary main_v1278 main_v1280 (broadcastInDim S7x64 ![0, 1] bcast_S1x64_S7x64_0_1 : (⟨S1x64, .i32⟩ : BufTy).Contents (Elt F) → (⟨S7x64, .i32⟩ : BufTy).Contents (Elt F)),
    StableHlo.unary main_v1279 main_v1281 (broadcastInDim S7x64 ![0, 1] bcast_S7x1_S7x64_0_1 : (⟨S7x1, .i32⟩ : BufTy).Contents (Elt F) → (⟨S7x64, .i32⟩ : BufTy).Contents (Elt F)),
    StableHlo.binary main_v1280 main_v1281 main_v1282 (cmpi .sge : (⟨S7x64, .i32⟩ : BufTy).Contents (Elt F) → (⟨S7x64, .i32⟩ : BufTy).Contents (Elt F) → (⟨S7x64, .i1⟩ : BufTy).Contents (Elt F)),
    StableHlo.unary main_v1276 main_v1283 (broadcastInDim S1x64 ![1] bcast_S64_S1x64_1 : (⟨S64, .i32⟩ : BufTy).Contents (Elt F) → (⟨S1x64, .i32⟩ : BufTy).Contents (Elt F)),
    StableHlo.unary main_v1262 main_v1284 (broadcastInDim S7x1 ![0] bcast_S7_S7x1_0 : (⟨S7, .i32⟩ : BufTy).Contents (Elt F) → (⟨S7x1, .i32⟩ : BufTy).Contents (Elt F)),
    StableHlo.unary main_v1283 main_v1285 (broadcastInDim S7x64 ![0, 1] bcast_S1x64_S7x64_0_1 : (⟨S1x64, .i32⟩ : BufTy).Contents (Elt F) → (⟨S7x64, .i32⟩ : BufTy).Contents (Elt F)),
    StableHlo.unary main_v1284 main_v1286 (broadcastInDim S7x64 ![0, 1] bcast_S7x1_S7x64_0_1 : (⟨S7x1, .i32⟩ : BufTy).Contents (Elt F) → (⟨S7x64, .i32⟩ : BufTy).Contents (Elt F)),
    StableHlo.binary main_v1285 main_v1286 main_v1287 (cmpi .slt : (⟨S7x64, .i32⟩ : BufTy).Contents (Elt F) → (⟨S7x64, .i32⟩ : BufTy).Contents (Elt F) → (⟨S7x64, .i1⟩ : BufTy).Contents (Elt F)),
    StableHlo.binary main_v1282 main_v1287 main_v1288 (andi : (⟨S7x64, .i1⟩ : BufTy).Contents (Elt F) → (⟨S7x64, .i1⟩ : BufTy).Contents (Elt F) → (⟨S7x64, .i1⟩ : BufTy).Contents (Elt F)),
    StableHlo.unary main_v1277 main_v1289 (broadcastInDim S1x64 ![1] bcast_S64_S1x64_1 : (⟨S64, .i32⟩ : BufTy).Contents (Elt F) → (⟨S1x64, .i32⟩ : BufTy).Contents (Elt F)),
    StableHlo.unary main_v1267 main_v1290 (broadcastInDim S7x1 ![0] bcast_S7_S7x1_0 : (⟨S7, .i32⟩ : BufTy).Contents (Elt F) → (⟨S7x1, .i32⟩ : BufTy).Contents (Elt F)),
    StableHlo.unary main_v1289 main_v1291 (broadcastInDim S7x64 ![0, 1] bcast_S1x64_S7x64_0_1 : (⟨S1x64, .i32⟩ : BufTy).Contents (Elt F) → (⟨S7x64, .i32⟩ : BufTy).Contents (Elt F)),
    StableHlo.unary main_v1290 main_v1292 (broadcastInDim S7x64 ![0, 1] bcast_S7x1_S7x64_0_1 : (⟨S7x1, .i32⟩ : BufTy).Contents (Elt F) → (⟨S7x64, .i32⟩ : BufTy).Contents (Elt F)),
    StableHlo.binary main_v1291 main_v1292 main_v1293 (cmpi .sge : (⟨S7x64, .i32⟩ : BufTy).Contents (Elt F) → (⟨S7x64, .i32⟩ : BufTy).Contents (Elt F) → (⟨S7x64, .i1⟩ : BufTy).Contents (Elt F)),
    StableHlo.unary main_v1277 main_v1294 (broadcastInDim S1x64 ![1] bcast_S64_S1x64_1 : (⟨S64, .i32⟩ : BufTy).Contents (Elt F) → (⟨S1x64, .i32⟩ : BufTy).Contents (Elt F)),
    StableHlo.unary main_v1275 main_v1295 (broadcastInDim S7x1 ![0] bcast_S7_S7x1_0 : (⟨S7, .i32⟩ : BufTy).Contents (Elt F) → (⟨S7x1, .i32⟩ : BufTy).Contents (Elt F)),
    StableHlo.unary main_v1294 main_v1296 (broadcastInDim S7x64 ![0, 1] bcast_S1x64_S7x64_0_1 : (⟨S1x64, .i32⟩ : BufTy).Contents (Elt F) → (⟨S7x64, .i32⟩ : BufTy).Contents (Elt F)),
    StableHlo.unary main_v1295 main_v1297 (broadcastInDim S7x64 ![0, 1] bcast_S7x1_S7x64_0_1 : (⟨S7x1, .i32⟩ : BufTy).Contents (Elt F) → (⟨S7x64, .i32⟩ : BufTy).Contents (Elt F)),
    StableHlo.binary main_v1296 main_v1297 main_v1298 (cmpi .slt : (⟨S7x64, .i32⟩ : BufTy).Contents (Elt F) → (⟨S7x64, .i32⟩ : BufTy).Contents (Elt F) → (⟨S7x64, .i1⟩ : BufTy).Contents (Elt F)),
    StableHlo.binary main_v1293 main_v1298 main_v1299 (andi : (⟨S7x64, .i1⟩ : BufTy).Contents (Elt F) → (⟨S7x64, .i1⟩ : BufTy).Contents (Elt F) → (⟨S7x64, .i1⟩ : BufTy).Contents (Elt F)),
    StableHlo.unary main_v1288 main_v1300 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1301 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_162 (constant S_ .f32 0xFF800000#32) ]
theorem ops24_0_sub : (ops24_0 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩
theorem ops24_0_fresh : (ops24_0 : List (HloOp τ sig (Elt F))).Forall fun op => op.fresh = ∅ := by
  simp only [List.Forall]; repeat' constructor
theorem ops24_0_keeps : (ops24_0 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_0, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2581 … 2584 of the program (4 of window 24), in order. -/
abbrev ops24_1 : List (HloOp τ sig (Elt F)) :=
  [ StableHlo.TRef.unary (.of main_v1300 : StableHlo.TRef sig ⟨S7x1x64x1, .i1⟩) (.of main_call96_v0 : StableHlo.TRef sig ⟨S7x512x64x64, .i1⟩) (broadcastInDim S7x512x64x64 ![0, 1, 2, 3] bcast_S7x1x64x1_S7x512x64x64_0_1_2_3),
    StableHlo.TRef.unary (.of main_v1301 : StableHlo.TRef sig ⟨S1x512x64x64, .f32⟩) (.of main_call96_v1 : StableHlo.TRef sig ⟨S7x512x64x64, .f32⟩) (broadcastInDim S7x512x64x64 ![0, 1, 2, 3] bcast_S1x512x64x64_S7x512x64x64_0_1_2_3),
    StableHlo.TRef.unary (.of main_cst_162 : StableHlo.TRef sig ⟨S_, .f32⟩) (.of main_call96_v2 : StableHlo.TRef sig ⟨S7x512x64x64, .f32⟩) (broadcastInDim S7x512x64x64 ![] bcast_S_S7x512x64x64),
    StableHlo.TRef.ternary (.of main_call96_v0 : StableHlo.TRef sig ⟨S7x512x64x64, .i1⟩) (.of main_call96_v1 : StableHlo.TRef sig ⟨S7x512x64x64, .f32⟩) (.of main_call96_v2 : StableHlo.TRef sig ⟨S7x512x64x64, .f32⟩) (.of main_v1302 : StableHlo.TRef sig ⟨S7x512x64x64, .f32⟩) select ]
theorem ops24_1_sub : (ops24_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops24_1_fresh : (ops24_1 : List (HloOp τ sig (Elt F))).Forall fun op => op.fresh = ∅ := by
  simp only [List.Forall]; repeat' constructor
theorem ops24_1_keeps : (ops24_1 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2585 … 2589 of the program (5 of window 24), in order. -/
abbrev ops24_2 : List (HloOp τ sig (Elt F)) :=
  [ StableHlo.nullary main_cst_163 (constant S_ .f32 0xFF800000#32),
    StableHlo.binary main_v1302 main_cst_163 main_v1303 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1299 main_v1304 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1303 main_v1305 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_164 (constant S_ .f32 0xFF800000#32) ]
theorem ops24_2_sub : (ops24_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub ..⟩
theorem ops24_2_fresh : (ops24_2 : List (HloOp τ sig (Elt F))).Forall fun op => op.fresh = ∅ := by
  simp only [List.Forall]; repeat' constructor
theorem ops24_2_keeps : (ops24_2 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2590 … 2593 of the program (4 of window 24), in order. -/
abbrev ops24_3 : List (HloOp τ sig (Elt F)) :=
  [ StableHlo.TRef.unary (.of main_v1304 : StableHlo.TRef sig ⟨S1x1x7x64, .i1⟩) (.of main_call97_v0 : StableHlo.TRef sig ⟨S7x512x7x64, .i1⟩) (broadcastInDim S7x512x7x64 ![0, 1, 2, 3] bcast_S1x1x7x64_S7x512x7x64_0_1_2_3),
    StableHlo.TRef.unary (.of main_v1305 : StableHlo.TRef sig ⟨S7x512x1x64, .f32⟩) (.of main_call97_v1 : StableHlo.TRef sig ⟨S7x512x7x64, .f32⟩) (broadcastInDim S7x512x7x64 ![0, 1, 2, 3] bcast_S7x512x1x64_S7x512x7x64_0_1_2_3),
    StableHlo.TRef.unary (.of main_cst_164 : StableHlo.TRef sig ⟨S_, .f32⟩) (.of main_call97_v2 : StableHlo.TRef sig ⟨S7x512x7x64, .f32⟩) (broadcastInDim S7x512x7x64 ![] bcast_S_S7x512x7x64),
    StableHlo.TRef.ternary (.of main_call97_v0 : StableHlo.TRef sig ⟨S7x512x7x64, .i1⟩) (.of main_call97_v1 : StableHlo.TRef sig ⟨S7x512x7x64, .f32⟩) (.of main_call97_v2 : StableHlo.TRef sig ⟨S7x512x7x64, .f32⟩) (.of main_v1306 : StableHlo.TRef sig ⟨S7x512x7x64, .f32⟩) select ]
theorem ops24_3_sub : (ops24_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops24_3_fresh : (ops24_3 : List (HloOp τ sig (Elt F))).Forall fun op => op.fresh = ∅ := by
  simp only [List.Forall]; repeat' constructor
theorem ops24_3_keeps : (ops24_3 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2594 … 2597 of the program (4 of window 24), in order. -/
abbrev ops24_4 : List (HloOp τ sig (Elt F)) :=
  [ StableHlo.nullary main_cst_165 (constant S_ .f32 0xFF800000#32),
    StableHlo.binary main_v1306 main_cst_165 main_v1307 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1307 main_v1308 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1308 main_v1309 rfl shapeCasts_S512x7x7_S25088 ]
theorem ops24_4_sub : (ops24_4 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub ..⟩
theorem ops24_4_fresh : (ops24_4 : List (HloOp τ sig (Elt F))).Forall fun op => op.fresh = ∅ := by
  simp only [List.Forall]; repeat' constructor
theorem ops24_4_keeps : (ops24_4 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2598 … 2598 of the program (1 of window 24), in order. -/
abbrev ops24_5 : List (HloOp τ sig (Elt F)) :=
  [ StableHlo.nary ![main_v157, main_v385, main_v469, main_v553, main_v637, main_v85] main_v1310 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0) ]
theorem ops24_5_sub : (ops24_5 : List (HloOp τ sig (Elt F))).Forall fun op => op.bufs ⊆ StableHlo.tcRefs τ sig :=
  StableHlo.nary_bufs_sub ..
theorem ops24_5_fresh : (ops24_5 : List (HloOp τ sig (Elt F))).Forall fun op => op.fresh = ∅ := by
  simp only [List.Forall]; repeat' constructor
theorem ops24_5_keeps : (ops24_5 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2599 … 2599 of the program (1 of window 24), in order. -/
abbrev ops24_6 : List (HloOp τ sig (Elt F)) :=
  [ StableHlo.nary ![main_v229, main_v721, main_v805, main_v889, main_v973, main_v85] main_v1311 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0) ]
theorem ops24_6_sub : (ops24_6 : List (HloOp τ sig (Elt F))).Forall fun op => op.bufs ⊆ StableHlo.tcRefs τ sig :=
  StableHlo.nary_bufs_sub ..
theorem ops24_6_fresh : (ops24_6 : List (HloOp τ sig (Elt F))).Forall fun op => op.fresh = ∅ := by
  simp only [List.Forall]; repeat' constructor
theorem ops24_6_keeps : (ops24_6 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2600 … 2603 of the program (4 of window 24), in order. -/
abbrev ops24_7 : List (HloOp τ sig (Elt F)) :=
  [ StableHlo.nary ![main_v301, main_v1057, main_v1141, main_v1225, main_v1309, main_v85] main_v1312 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0),
    StableHlo.unary main_v1310 main_v1313 (broadcastInDim S1x150528 ![1] bcast_S150528_S1x150528_1 : (⟨S150528, .f32⟩ : BufTy).Contents (Elt F) → (⟨S1x150528, .f32⟩ : BufTy).Contents (Elt F)),
    StableHlo.unary main_v1311 main_v1314 (broadcastInDim S1x150528 ![1] bcast_S150528_S1x150528_1 : (⟨S150528, .f32⟩ : BufTy).Contents (Elt F) → (⟨S1x150528, .f32⟩ : BufTy).Contents (Elt F)),
    StableHlo.unary main_v1312 main_v1315 (broadcastInDim S1x150528 ![1] bcast_S150528_S1x150528_1 : (⟨S150528, .f32⟩ : BufTy).Contents (Elt F) → (⟨S1x150528, .f32⟩ : BufTy).Contents (Elt F)) ]
theorem ops24_7_sub : (ops24_7 : List (HloOp τ sig (Elt F))).Forall fun op => op.bufs ⊆ StableHlo.tcRefs τ sig :=
  ⟨StableHlo.nary_bufs_sub .., StableHlo.unary_bufs_sub .., StableHlo.unary_bufs_sub .., StableHlo.unary_bufs_sub ..⟩
theorem ops24_7_fresh : (ops24_7 : List (HloOp τ sig (Elt F))).Forall fun op => op.fresh = ∅ := by
  simp only [List.Forall]; repeat' constructor
theorem ops24_7_keeps : (ops24_7 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Operations 2604 … 2604 of the program (1 of window 24), in order. -/
abbrev ops24_8 : List (HloOp τ sig (Elt F)) :=
  [ StableHlo.nary ![main_v1313, main_v1314, main_v1315] main_v1316 (fun u => concatenate S3x150528 0 [⟨S1x150528, u 0⟩, ⟨S1x150528, u 1⟩, ⟨S1x150528, u 2⟩] concatenates_S1x150528_S1x150528_S1x150528_S3x150528_d0) ]
theorem ops24_8_sub : (ops24_8 : List (HloOp τ sig (Elt F))).Forall fun op => op.bufs ⊆ StableHlo.tcRefs τ sig :=
  StableHlo.nary_bufs_sub ..
theorem ops24_8_fresh : (ops24_8 : List (HloOp τ sig (Elt F))).Forall fun op => op.fresh = ∅ := by
  simp only [List.Forall]; repeat' constructor
theorem ops24_8_keeps : (ops24_8 : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [ops24_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The reference's last four operations: the product of the pooled rows with the weights, the bias spread over the rows, their sum. -/
abbrev tail : List (HloOp τ sig (Elt F)) :=
  [ StableHlo.binary main_v1316 main_arg4 main_v1317 ((fun l r => Host.dotGeneral dot_S3x150528_S150528x1024_S3x1024_1_0_0_1_n_n none l r) : (⟨S3x150528, .f32⟩ : BufTy).Contents (Elt F) → (⟨S150528x1024, .f32⟩ : BufTy).Contents (Elt F) → (⟨S3x1024, .f32⟩ : BufTy).Contents (Elt F)),
    StableHlo.unary main_arg5 main_v1318 (broadcastInDim S1x1024 ![1] bcast_S1024_S1x1024_1 : (⟨S1024, .f32⟩ : BufTy).Contents (Elt F) → (⟨S1x1024, .f32⟩ : BufTy).Contents (Elt F)),
    StableHlo.unary main_v1318 main_v1319 (broadcastInDim S3x1024 ![0, 1] bcast_S1x1024_S3x1024_0_1 : (⟨S1x1024, .f32⟩ : BufTy).Contents (Elt F) → (⟨S3x1024, .f32⟩ : BufTy).Contents (Elt F)),
    StableHlo.binary main_v1317 main_v1319 main_v1320 (addf : (⟨S3x1024, .f32⟩ : BufTy).Contents (Elt F) → (⟨S3x1024, .f32⟩ : BufTy).Contents (Elt F) → (⟨S3x1024, .f32⟩ : BufTy).Contents (Elt F)) ]
theorem tail_sub : (tail : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem tail_fresh : (tail : List (HloOp τ sig (Elt F))).Forall fun op => op.fresh = ∅ := by
  simp only [List.Forall]; repeat' constructor
theorem tail_keeps : (tail : List (HloOp τ sig (Elt F))).Forall fun op => (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes := by
  simp only [tail, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- The window is its lists run one after the other (the program's last window: it ends with the return). -/
theorem main_part24_eq (c : Dev nD) : main_part24 (F := F) c = Pipeline.chain [StableHlo.seq ops24_0, StableHlo.seq ops24_1, StableHlo.seq ops24_2, StableHlo.seq ops24_3, StableHlo.seq ops24_4, StableHlo.seq ops24_5, StableHlo.seq ops24_6, StableHlo.seq ops24_7, StableHlo.seq ops24_8, StableHlo.seq tail] := by
  chain_rfl

end Cert.ReferenceIdeal.Host

end
-- ==== Proof.RefRun.lean ====
/-
  The reference program's run.  Its @main, every called function's body written out in place, is one straight line of
  2,609 operations: the 2,605 that pool the feature map into the three rows (`prefixOps`: 220 lists, those of the 25
  windows in order, laid end to end) and the four that multiply the rows by the weights and add the bias (`tail`).  A straight
  line of operations that touch TensorCore buffers only, each determining its result, runs to the end from any
  memory, and leaves every buffer at the fold of the operations' results over the launch contents (`runs`).  No
  operation writes an argument buffer, so the six arguments end as they began (`kept_arg0` … `kept_arg5`, `frame`);
  and the result buffer holds the pooled rows times the weights, plus the bias spread over the rows (`result_eq`).
-/
import proofs.«107941_j79491254714775_1_alg».proof.Proof.RefOps00
import proofs.«107941_j79491254714775_1_alg».proof.Proof.RefOps01
import proofs.«107941_j79491254714775_1_alg».proof.Proof.RefOps02
import proofs.«107941_j79491254714775_1_alg».proof.Proof.RefOps03
import proofs.«107941_j79491254714775_1_alg».proof.Proof.RefOps04
import proofs.«107941_j79491254714775_1_alg».proof.Proof.RefOps05
import proofs.«107941_j79491254714775_1_alg».proof.Proof.RefOps06
import proofs.«107941_j79491254714775_1_alg».proof.Proof.RefOps07
import proofs.«107941_j79491254714775_1_alg».proof.Proof.RefOps08
import proofs.«107941_j79491254714775_1_alg».proof.Proof.RefOps09
import proofs.«107941_j79491254714775_1_alg».proof.Proof.RefOps10
import proofs.«107941_j79491254714775_1_alg».proof.Proof.RefOps11
import proofs.«107941_j79491254714775_1_alg».proof.Proof.RefOps12
import proofs.«107941_j79491254714775_1_alg».proof.Proof.RefOps13
import proofs.«107941_j79491254714775_1_alg».proof.Proof.RefOps14
import proofs.«107941_j79491254714775_1_alg».proof.Proof.RefOps15
import proofs.«107941_j79491254714775_1_alg».proof.Proof.RefOps16
import proofs.«107941_j79491254714775_1_alg».proof.Proof.RefOps17
import proofs.«107941_j79491254714775_1_alg».proof.Proof.RefOps18
import proofs.«107941_j79491254714775_1_alg».proof.Proof.RefOps19
import proofs.«107941_j79491254714775_1_alg».proof.Proof.RefOps20
import proofs.«107941_j79491254714775_1_alg».proof.Proof.RefOps21
import proofs.«107941_j79491254714775_1_alg».proof.Proof.RefOps22
import proofs.«107941_j79491254714775_1_alg».proof.Proof.RefOps23
import proofs.«107941_j79491254714775_1_alg».proof.Proof.RefOps24
import Idealize.ShloMosaic.Lib.Pipeline.Frame
import Idealize.ShloMosaic.Lib.StableHlo.Run

set_option maxRecDepth 16384

noncomputable section

namespace Cert.ReferenceIdeal.Host

open Idealize.ShloMosaic Idealize.ShloMosaic.TcCoe Idealize.SL Idealize.SL.Sem
open Cert.ReferenceIdeal Cert.ReferenceIdeal.Gen

variable {F : FTy → Type} [FloatOps F]

/-- An operation writes none of the program's six argument buffers. -/
abbrev KeepsArgs (op : HloOp τ sig (Elt F)) : Prop :=
  (Proc.devRef .tc main_arg0 : DevRef τ sig) ∉ op.writes ∧ (Proc.devRef .tc main_arg1 : DevRef τ sig) ∉ op.writes ∧ (Proc.devRef .tc main_arg2 : DevRef τ sig) ∉ op.writes ∧ (Proc.devRef .tc main_arg3 : DevRef τ sig) ∉ op.writes ∧ (Proc.devRef .tc main_arg4 : DevRef τ sig) ∉ op.writes ∧ (Proc.devRef .tc main_arg5 : DevRef τ sig) ∉ op.writes

/-! ## Two facts about lists of lists of operations -/

/-- Lines of operations run one after the other are their concatenation run as one line. -/
theorem chain_map_seq {Λ : Labels} : ∀ (L : List (List (HloOp τ sig (Elt F)))),
    (Pipeline.chain (L.map StableHlo.seq) : Prog (TpuEff nD τ sig (Elt F) Λ .tc) PUnit) = StableHlo.seq L.flatten
  | [] => rfl
  | l :: L => by rw [List.map_cons, Pipeline.chain_cons, List.flatten_cons, StableHlo.seq_append, chain_map_seq L]

/-- What holds of every operation of every list, and of every operation of one more list, holds of every operation
    of the lists laid end to end followed by that one. -/
theorem forall_mem_flatten_append {p : HloOp τ sig (Elt F) → Prop} {L : List (List (HloOp τ sig (Elt F)))}
    {t : List (HloOp τ sig (Elt F))} (hL : L.Forall fun l => l.Forall p) (ht : t.Forall p) :
    ∀ op ∈ L.flatten ++ t, p op := by
  intro op hop
  rcases List.mem_append.mp hop with h | h
  · obtain ⟨l, hl, hal⟩ := List.mem_flatten.mp h
    exact List.forall_iff_forall_mem.mp (List.forall_iff_forall_mem.mp hL l hl) op hal
  · exact List.forall_iff_forall_mem.mp ht op h

/-! ## The program as one line of operations -/

/-- The lists of the shared part, in program order: window by window, each window's lists in order. -/
abbrev chunks : List (List (HloOp τ sig (Elt F))) :=
  [ops0_0, ops0_1, ops0_2, ops0_3, ops0_4, ops0_5, ops0_6, ops0_7, ops0_8, ops0_9, ops0_10, ops0_11, ops1_0, ops1_1, ops1_2, ops1_3, ops1_4, ops1_5, ops1_6, ops1_7, ops2_0, ops2_1, ops2_2, ops2_3, ops2_4, ops2_5, ops2_6, ops2_7, ops2_8, ops3_0, ops3_1, ops3_2, ops3_3, ops3_4, ops3_5, ops3_6, ops3_7, ops3_8, ops3_9, ops3_10, ops4_0, ops4_1, ops4_2, ops4_3, ops4_4, ops4_5, ops4_6, ops4_7, ops4_8, ops4_9, ops5_0, ops5_1, ops5_2, ops5_3, ops5_4, ops5_5, ops5_6, ops6_0, ops6_1, ops6_2, ops6_3, ops6_4, ops6_5, ops6_6, ops6_7, ops6_8, ops7_0, ops7_1, ops7_2, ops7_3, ops7_4, ops7_5, ops7_6, ops8_0, ops8_1, ops8_2, ops8_3, ops8_4, ops8_5, ops8_6, ops8_7, ops8_8, ops8_9, ops8_10, ops9_0, ops9_1, ops9_2, ops9_3, ops9_4, ops9_5, ops9_6, ops9_7, ops9_8, ops10_0, ops10_1, ops10_2, ops10_3, ops10_4, ops10_5, ops11_0, ops11_1, ops11_2, ops11_3, ops11_4, ops11_5, ops11_6, ops11_7, ops11_8, ops12_0, ops12_1, ops12_2, ops12_3, ops12_4, ops12_5, ops12_6, ops12_7, ops12_8, ops12_9, ops13_0, ops13_1, ops13_2, ops13_3, ops13_4, ops14_0, ops14_1, ops14_2, ops14_3, ops14_4, ops14_5, ops14_6, ops14_7, ops14_8, ops15_0, ops15_1, ops15_2, ops15_3, ops15_4, ops15_5, ops15_6, ops15_7, ops15_8, ops15_9, ops15_10, ops16_0, ops16_1, ops16_2, ops16_3, ops16_4, ops16_5, ops16_6, ops17_0, ops17_1, ops17_2, ops17_3, ops17_4, ops17_5, ops17_6, ops17_7, ops17_8, ops18_0, ops18_1, ops18_2, ops18_3, ops18_4, ops18_5, ops18_6, ops18_7, ops19_0, ops19_1, ops19_2, ops19_3, ops19_4, ops19_5, ops19_6, ops19_7, ops19_8, ops20_0, ops20_1, ops20_2, ops20_3, ops20_4, ops20_5, ops20_6, ops20_7, ops20_8, ops21_0, ops21_1, ops21_2, ops21_3, ops21_4, ops21_5, ops21_6, ops22_0, ops22_1, ops22_2, ops22_3, ops22_4, ops22_5, ops22_6, ops22_7, ops22_8, ops22_9, ops23_0, ops23_1, ops23_2, ops23_3, ops23_4, ops23_5, ops23_6, ops23_7, ops23_8, ops24_0, ops24_1, ops24_2, ops24_3, ops24_4, ops24_5, ops24_6, ops24_7, ops24_8]

/-- The operations that pool the feature map into the three rows: the lists laid end to end. -/
abbrev prefixOps : List (HloOp τ sig (Elt F)) := (chunks (F := F)).flatten

theorem chunks_sub : (chunks (F := F)).Forall fun ops => ops.Forall fun op => op.bufs ⊆ StableHlo.tcRefs τ sig := by
  simp only [List.Forall]
  exact ⟨ops0_0_sub, ops0_1_sub, ops0_2_sub, ops0_3_sub, ops0_4_sub, ops0_5_sub, ops0_6_sub, ops0_7_sub, ops0_8_sub, ops0_9_sub, ops0_10_sub, ops0_11_sub, ops1_0_sub, ops1_1_sub, ops1_2_sub, ops1_3_sub, ops1_4_sub, ops1_5_sub, ops1_6_sub, ops1_7_sub, ops2_0_sub, ops2_1_sub, ops2_2_sub, ops2_3_sub, ops2_4_sub, ops2_5_sub, ops2_6_sub, ops2_7_sub, ops2_8_sub, ops3_0_sub, ops3_1_sub, ops3_2_sub, ops3_3_sub, ops3_4_sub, ops3_5_sub, ops3_6_sub, ops3_7_sub, ops3_8_sub, ops3_9_sub, ops3_10_sub, ops4_0_sub, ops4_1_sub, ops4_2_sub, ops4_3_sub, ops4_4_sub, ops4_5_sub, ops4_6_sub, ops4_7_sub, ops4_8_sub, ops4_9_sub, ops5_0_sub, ops5_1_sub, ops5_2_sub, ops5_3_sub, ops5_4_sub, ops5_5_sub, ops5_6_sub, ops6_0_sub, ops6_1_sub, ops6_2_sub, ops6_3_sub, ops6_4_sub, ops6_5_sub, ops6_6_sub, ops6_7_sub, ops6_8_sub, ops7_0_sub, ops7_1_sub, ops7_2_sub, ops7_3_sub, ops7_4_sub, ops7_5_sub, ops7_6_sub, ops8_0_sub, ops8_1_sub, ops8_2_sub, ops8_3_sub, ops8_4_sub, ops8_5_sub, ops8_6_sub, ops8_7_sub, ops8_8_sub, ops8_9_sub, ops8_10_sub, ops9_0_sub, ops9_1_sub, ops9_2_sub, ops9_3_sub, ops9_4_sub, ops9_5_sub, ops9_6_sub, ops9_7_sub, ops9_8_sub, ops10_0_sub, ops10_1_sub, ops10_2_sub, ops10_3_sub, ops10_4_sub, ops10_5_sub, ops11_0_sub, ops11_1_sub, ops11_2_sub, ops11_3_sub, ops11_4_sub, ops11_5_sub, ops11_6_sub, ops11_7_sub, ops11_8_sub, ops12_0_sub, ops12_1_sub, ops12_2_sub, ops12_3_sub, ops12_4_sub, ops12_5_sub, ops12_6_sub, ops12_7_sub, ops12_8_sub, ops12_9_sub, ops13_0_sub, ops13_1_sub, ops13_2_sub, ops13_3_sub, ops13_4_sub, ops14_0_sub, ops14_1_sub, ops14_2_sub, ops14_3_sub, ops14_4_sub, ops14_5_sub, ops14_6_sub, ops14_7_sub, ops14_8_sub, ops15_0_sub, ops15_1_sub, ops15_2_sub, ops15_3_sub, ops15_4_sub, ops15_5_sub, ops15_6_sub, ops15_7_sub, ops15_8_sub, ops15_9_sub, ops15_10_sub, ops16_0_sub, ops16_1_sub, ops16_2_sub, ops16_3_sub, ops16_4_sub, ops16_5_sub, ops16_6_sub, ops17_0_sub, ops17_1_sub, ops17_2_sub, ops17_3_sub, ops17_4_sub, ops17_5_sub, ops17_6_sub, ops17_7_sub, ops17_8_sub, ops18_0_sub, ops18_1_sub, ops18_2_sub, ops18_3_sub, ops18_4_sub, ops18_5_sub, ops18_6_sub, ops18_7_sub, ops19_0_sub, ops19_1_sub, ops19_2_sub, ops19_3_sub, ops19_4_sub, ops19_5_sub, ops19_6_sub, ops19_7_sub, ops19_8_sub, ops20_0_sub, ops20_1_sub, ops20_2_sub, ops20_3_sub, ops20_4_sub, ops20_5_sub, ops20_6_sub, ops20_7_sub, ops20_8_sub, ops21_0_sub, ops21_1_sub, ops21_2_sub, ops21_3_sub, ops21_4_sub, ops21_5_sub, ops21_6_sub, ops22_0_sub, ops22_1_sub, ops22_2_sub, ops22_3_sub, ops22_4_sub, ops22_5_sub, ops22_6_sub, ops22_7_sub, ops22_8_sub, ops22_9_sub, ops23_0_sub, ops23_1_sub, ops23_2_sub, ops23_3_sub, ops23_4_sub, ops23_5_sub, ops23_6_sub, ops23_7_sub, ops23_8_sub, ops24_0_sub, ops24_1_sub, ops24_2_sub, ops24_3_sub, ops24_4_sub, ops24_5_sub, ops24_6_sub, ops24_7_sub, ops24_8_sub⟩

theorem chunks_fresh : (chunks (F := F)).Forall fun ops => ops.Forall fun op => op.fresh = ∅ := by
  simp only [List.Forall]
  exact ⟨ops0_0_fresh, ops0_1_fresh, ops0_2_fresh, ops0_3_fresh, ops0_4_fresh, ops0_5_fresh, ops0_6_fresh, ops0_7_fresh, ops0_8_fresh, ops0_9_fresh, ops0_10_fresh, ops0_11_fresh, ops1_0_fresh, ops1_1_fresh, ops1_2_fresh, ops1_3_fresh, ops1_4_fresh, ops1_5_fresh, ops1_6_fresh, ops1_7_fresh, ops2_0_fresh, ops2_1_fresh, ops2_2_fresh, ops2_3_fresh, ops2_4_fresh, ops2_5_fresh, ops2_6_fresh, ops2_7_fresh, ops2_8_fresh, ops3_0_fresh, ops3_1_fresh, ops3_2_fresh, ops3_3_fresh, ops3_4_fresh, ops3_5_fresh, ops3_6_fresh, ops3_7_fresh, ops3_8_fresh, ops3_9_fresh, ops3_10_fresh, ops4_0_fresh, ops4_1_fresh, ops4_2_fresh, ops4_3_fresh, ops4_4_fresh, ops4_5_fresh, ops4_6_fresh, ops4_7_fresh, ops4_8_fresh, ops4_9_fresh, ops5_0_fresh, ops5_1_fresh, ops5_2_fresh, ops5_3_fresh, ops5_4_fresh, ops5_5_fresh, ops5_6_fresh, ops6_0_fresh, ops6_1_fresh, ops6_2_fresh, ops6_3_fresh, ops6_4_fresh, ops6_5_fresh, ops6_6_fresh, ops6_7_fresh, ops6_8_fresh, ops7_0_fresh, ops7_1_fresh, ops7_2_fresh, ops7_3_fresh, ops7_4_fresh, ops7_5_fresh, ops7_6_fresh, ops8_0_fresh, ops8_1_fresh, ops8_2_fresh, ops8_3_fresh, ops8_4_fresh, ops8_5_fresh, ops8_6_fresh, ops8_7_fresh, ops8_8_fresh, ops8_9_fresh, ops8_10_fresh, ops9_0_fresh, ops9_1_fresh, ops9_2_fresh, ops9_3_fresh, ops9_4_fresh, ops9_5_fresh, ops9_6_fresh, ops9_7_fresh, ops9_8_fresh, ops10_0_fresh, ops10_1_fresh, ops10_2_fresh, ops10_3_fresh, ops10_4_fresh, ops10_5_fresh, ops11_0_fresh, ops11_1_fresh, ops11_2_fresh, ops11_3_fresh, ops11_4_fresh, ops11_5_fresh, ops11_6_fresh, ops11_7_fresh, ops11_8_fresh, ops12_0_fresh, ops12_1_fresh, ops12_2_fresh, ops12_3_fresh, ops12_4_fresh, ops12_5_fresh, ops12_6_fresh, ops12_7_fresh, ops12_8_fresh, ops12_9_fresh, ops13_0_fresh, ops13_1_fresh, ops13_2_fresh, ops13_3_fresh, ops13_4_fresh, ops14_0_fresh, ops14_1_fresh, ops14_2_fresh, ops14_3_fresh, ops14_4_fresh, ops14_5_fresh, ops14_6_fresh, ops14_7_fresh, ops14_8_fresh, ops15_0_fresh, ops15_1_fresh, ops15_2_fresh, ops15_3_fresh, ops15_4_fresh, ops15_5_fresh, ops15_6_fresh, ops15_7_fresh, ops15_8_fresh, ops15_9_fresh, ops15_10_fresh, ops16_0_fresh, ops16_1_fresh, ops16_2_fresh, ops16_3_fresh, ops16_4_fresh, ops16_5_fresh, ops16_6_fresh, ops17_0_fresh, ops17_1_fresh, ops17_2_fresh, ops17_3_fresh, ops17_4_fresh, ops17_5_fresh, ops17_6_fresh, ops17_7_fresh, ops17_8_fresh, ops18_0_fresh, ops18_1_fresh, ops18_2_fresh, ops18_3_fresh, ops18_4_fresh, ops18_5_fresh, ops18_6_fresh, ops18_7_fresh, ops19_0_fresh, ops19_1_fresh, ops19_2_fresh, ops19_3_fresh, ops19_4_fresh, ops19_5_fresh, ops19_6_fresh, ops19_7_fresh, ops19_8_fresh, ops20_0_fresh, ops20_1_fresh, ops20_2_fresh, ops20_3_fresh, ops20_4_fresh, ops20_5_fresh, ops20_6_fresh, ops20_7_fresh, ops20_8_fresh, ops21_0_fresh, ops21_1_fresh, ops21_2_fresh, ops21_3_fresh, ops21_4_fresh, ops21_5_fresh, ops21_6_fresh, ops22_0_fresh, ops22_1_fresh, ops22_2_fresh, ops22_3_fresh, ops22_4_fresh, ops22_5_fresh, ops22_6_fresh, ops22_7_fresh, ops22_8_fresh, ops22_9_fresh, ops23_0_fresh, ops23_1_fresh, ops23_2_fresh, ops23_3_fresh, ops23_4_fresh, ops23_5_fresh, ops23_6_fresh, ops23_7_fresh, ops23_8_fresh, ops24_0_fresh, ops24_1_fresh, ops24_2_fresh, ops24_3_fresh, ops24_4_fresh, ops24_5_fresh, ops24_6_fresh, ops24_7_fresh, ops24_8_fresh⟩

theorem chunks_keeps : (chunks (F := F)).Forall fun ops => ops.Forall fun op => KeepsArgs op := by
  simp only [List.Forall]
  exact ⟨ops0_0_keeps, ops0_1_keeps, ops0_2_keeps, ops0_3_keeps, ops0_4_keeps, ops0_5_keeps, ops0_6_keeps, ops0_7_keeps, ops0_8_keeps, ops0_9_keeps, ops0_10_keeps, ops0_11_keeps, ops1_0_keeps, ops1_1_keeps, ops1_2_keeps, ops1_3_keeps, ops1_4_keeps, ops1_5_keeps, ops1_6_keeps, ops1_7_keeps, ops2_0_keeps, ops2_1_keeps, ops2_2_keeps, ops2_3_keeps, ops2_4_keeps, ops2_5_keeps, ops2_6_keeps, ops2_7_keeps, ops2_8_keeps, ops3_0_keeps, ops3_1_keeps, ops3_2_keeps, ops3_3_keeps, ops3_4_keeps, ops3_5_keeps, ops3_6_keeps, ops3_7_keeps, ops3_8_keeps, ops3_9_keeps, ops3_10_keeps, ops4_0_keeps, ops4_1_keeps, ops4_2_keeps, ops4_3_keeps, ops4_4_keeps, ops4_5_keeps, ops4_6_keeps, ops4_7_keeps, ops4_8_keeps, ops4_9_keeps, ops5_0_keeps, ops5_1_keeps, ops5_2_keeps, ops5_3_keeps, ops5_4_keeps, ops5_5_keeps, ops5_6_keeps, ops6_0_keeps, ops6_1_keeps, ops6_2_keeps, ops6_3_keeps, ops6_4_keeps, ops6_5_keeps, ops6_6_keeps, ops6_7_keeps, ops6_8_keeps, ops7_0_keeps, ops7_1_keeps, ops7_2_keeps, ops7_3_keeps, ops7_4_keeps, ops7_5_keeps, ops7_6_keeps, ops8_0_keeps, ops8_1_keeps, ops8_2_keeps, ops8_3_keeps, ops8_4_keeps, ops8_5_keeps, ops8_6_keeps, ops8_7_keeps, ops8_8_keeps, ops8_9_keeps, ops8_10_keeps, ops9_0_keeps, ops9_1_keeps, ops9_2_keeps, ops9_3_keeps, ops9_4_keeps, ops9_5_keeps, ops9_6_keeps, ops9_7_keeps, ops9_8_keeps, ops10_0_keeps, ops10_1_keeps, ops10_2_keeps, ops10_3_keeps, ops10_4_keeps, ops10_5_keeps, ops11_0_keeps, ops11_1_keeps, ops11_2_keeps, ops11_3_keeps, ops11_4_keeps, ops11_5_keeps, ops11_6_keeps, ops11_7_keeps, ops11_8_keeps, ops12_0_keeps, ops12_1_keeps, ops12_2_keeps, ops12_3_keeps, ops12_4_keeps, ops12_5_keeps, ops12_6_keeps, ops12_7_keeps, ops12_8_keeps, ops12_9_keeps, ops13_0_keeps, ops13_1_keeps, ops13_2_keeps, ops13_3_keeps, ops13_4_keeps, ops14_0_keeps, ops14_1_keeps, ops14_2_keeps, ops14_3_keeps, ops14_4_keeps, ops14_5_keeps, ops14_6_keeps, ops14_7_keeps, ops14_8_keeps, ops15_0_keeps, ops15_1_keeps, ops15_2_keeps, ops15_3_keeps, ops15_4_keeps, ops15_5_keeps, ops15_6_keeps, ops15_7_keeps, ops15_8_keeps, ops15_9_keeps, ops15_10_keeps, ops16_0_keeps, ops16_1_keeps, ops16_2_keeps, ops16_3_keeps, ops16_4_keeps, ops16_5_keeps, ops16_6_keeps, ops17_0_keeps, ops17_1_keeps, ops17_2_keeps, ops17_3_keeps, ops17_4_keeps, ops17_5_keeps, ops17_6_keeps, ops17_7_keeps, ops17_8_keeps, ops18_0_keeps, ops18_1_keeps, ops18_2_keeps, ops18_3_keeps, ops18_4_keeps, ops18_5_keeps, ops18_6_keeps, ops18_7_keeps, ops19_0_keeps, ops19_1_keeps, ops19_2_keeps, ops19_3_keeps, ops19_4_keeps, ops19_5_keeps, ops19_6_keeps, ops19_7_keeps, ops19_8_keeps, ops20_0_keeps, ops20_1_keeps, ops20_2_keeps, ops20_3_keeps, ops20_4_keeps, ops20_5_keeps, ops20_6_keeps, ops20_7_keeps, ops20_8_keeps, ops21_0_keeps, ops21_1_keeps, ops21_2_keeps, ops21_3_keeps, ops21_4_keeps, ops21_5_keeps, ops21_6_keeps, ops22_0_keeps, ops22_1_keeps, ops22_2_keeps, ops22_3_keeps, ops22_4_keeps, ops22_5_keeps, ops22_6_keeps, ops22_7_keeps, ops22_8_keeps, ops22_9_keeps, ops23_0_keeps, ops23_1_keeps, ops23_2_keeps, ops23_3_keeps, ops23_4_keeps, ops23_5_keeps, ops23_6_keeps, ops23_7_keeps, ops23_8_keeps, ops24_0_keeps, ops24_1_keeps, ops24_2_keeps, ops24_3_keeps, ops24_4_keeps, ops24_5_keeps, ops24_6_keeps, ops24_7_keeps, ops24_8_keeps⟩

/-- @main is its 25 windows in order; each window is its lists in order; so @main is all the lists in order, run as
    one line. -/
theorem main_eq (c : Dev nD) : main (F := F) c = StableHlo.seq (prefixOps ++ tail) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c >>= fun _ => main_part16 (F := F) c >>= fun _ => main_part17 (F := F) c >>= fun _ => main_part18 (F := F) c >>= fun _ => main_part19 (F := F) c >>= fun _ => main_part20 (F := F) c >>= fun _ => main_part21 (F := F) c >>= fun _ => main_part22 (F := F) c >>= fun _ => main_part23 (F := F) c >>= fun _ => main_part24 (F := F) c) = _
  rewrite [main_part24_eq, main_part23_eq, Pipeline.chainK_bind_chain, main_part22_eq, Pipeline.chainK_bind_chain, main_part21_eq, Pipeline.chainK_bind_chain, main_part20_eq, Pipeline.chainK_bind_chain, main_part19_eq, Pipeline.chainK_bind_chain, main_part18_eq, Pipeline.chainK_bind_chain, main_part17_eq, Pipeline.chainK_bind_chain, main_part16_eq, Pipeline.chainK_bind_chain, main_part15_eq, Pipeline.chainK_bind_chain, main_part14_eq, Pipeline.chainK_bind_chain, main_part13_eq, Pipeline.chainK_bind_chain, main_part12_eq, Pipeline.chainK_bind_chain, main_part11_eq, Pipeline.chainK_bind_chain, main_part10_eq, Pipeline.chainK_bind_chain, main_part9_eq, Pipeline.chainK_bind_chain, main_part8_eq, Pipeline.chainK_bind_chain, main_part7_eq, Pipeline.chainK_bind_chain, main_part6_eq, Pipeline.chainK_bind_chain, main_part5_eq, Pipeline.chainK_bind_chain, main_part4_eq, Pipeline.chainK_bind_chain, main_part3_eq, Pipeline.chainK_bind_chain, main_part2_eq, Pipeline.chainK_bind_chain, main_part1_eq, Pipeline.chainK_bind_chain, main_part0_eq, Pipeline.chainK_bind_chain]
  rw [show (prefixOps ++ tail : List (HloOp τ sig (Elt F))) = ((chunks (F := F)) ++ [tail]).flatten by
        rw [List.flatten_append, List.flatten_singleton],
      ← chain_map_seq]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference terminates, and every buffer
    ends at the fold of the operations' results over what the launch dealt it. -/
theorem runs (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after (prefixOps ++ tail) (StableHlo.launchContents m d) (Proc.devRef .tc b) :=
  StableHlo.run_seq scopedRefs_eq scopedSems_eq defs main (fun _ => prefixOps ++ tail) main_eq
    (fun _ => List.forall_iff_forall_mem.mpr (forall_mem_flatten_append chunks_sub tail_sub)) m ρ
    (fun _ => forall_mem_flatten_append chunks_fresh tail_fresh)

/-! ## The arguments are never written -/

theorem keeps_all : ∀ op ∈ (prefixOps ++ tail : List (HloOp τ sig (Elt F))), KeepsArgs op :=
  forall_mem_flatten_append chunks_keeps tail_keeps

theorem keeps_prefix : ∀ op ∈ (prefixOps : List (HloOp τ sig (Elt F))), KeepsArgs op := fun op h =>
  forall_mem_flatten_append (t := []) chunks_keeps trivial op (by rw [List.append_nil]; exact h)

variable (V : Valuation τ sig (Elt F))

theorem kept_arg0 : StableHlo.after (prefixOps ++ tail) V (Proc.devRef .tc main_arg0) = V (Proc.devRef .tc main_arg0) :=
  StableHlo.after_of_forall_not_mem _ V fun op h => (keeps_all op h).1
theorem kept_arg1 : StableHlo.after (prefixOps ++ tail) V (Proc.devRef .tc main_arg1) = V (Proc.devRef .tc main_arg1) :=
  StableHlo.after_of_forall_not_mem _ V fun op h => (keeps_all op h).2.1
theorem kept_arg2 : StableHlo.after (prefixOps ++ tail) V (Proc.devRef .tc main_arg2) = V (Proc.devRef .tc main_arg2) :=
  StableHlo.after_of_forall_not_mem _ V fun op h => (keeps_all op h).2.2.1
theorem kept_arg3 : StableHlo.after (prefixOps ++ tail) V (Proc.devRef .tc main_arg3) = V (Proc.devRef .tc main_arg3) :=
  StableHlo.after_of_forall_not_mem _ V fun op h => (keeps_all op h).2.2.2.1
theorem kept_arg4 : StableHlo.after (prefixOps ++ tail) V (Proc.devRef .tc main_arg4) = V (Proc.devRef .tc main_arg4) :=
  StableHlo.after_of_forall_not_mem _ V fun op h => (keeps_all op h).2.2.2.2.1
theorem kept_arg5 : StableHlo.after (prefixOps ++ tail) V (Proc.devRef .tc main_arg5) = V (Proc.devRef .tc main_arg5) :=
  StableHlo.after_of_forall_not_mem _ V fun op h => (keeps_all op h).2.2.2.2.2

/-- The weights and the bias are as the launch dealt them when the pooling is done. -/
theorem prefix_kept_arg4 : StableHlo.after prefixOps V (Proc.devRef .tc main_arg4) = V (Proc.devRef .tc main_arg4) :=
  StableHlo.after_of_forall_not_mem _ V fun op h => (keeps_prefix op h).2.2.2.2.1
theorem prefix_kept_arg5 : StableHlo.after prefixOps V (Proc.devRef .tc main_arg5) = V (Proc.devRef .tc main_arg5) :=
  StableHlo.after_of_forall_not_mem _ V fun op h => (keeps_prefix op h).2.2.2.2.2

/-- The reference runs, and its six argument buffers end as they began. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_arg0).trans (kept_arg0 _), (h c main_arg1).trans (kept_arg1 _), (h c main_arg2).trans (kept_arg2 _),
       (h c main_arg3).trans (kept_arg3 _), (h c main_arg4).trans (kept_arg4 _), (h c main_arg5).trans (kept_arg5 _)⟩)
    (runs m ρ)

/-! ## What the result buffer holds -/

/-- The result: the pooled rows (whatever the pooling left in its last buffer) times the weights, plus the bias
    spread over the three rows. -/
theorem result_eq :
    StableHlo.after (prefixOps ++ tail) V (Proc.devRef .tc main_v1320)
      = addf (Host.dotGeneral dot_S3x150528_S150528x1024_S3x1024_1_0_0_1_n_n none
                (StableHlo.after prefixOps V (Proc.devRef .tc main_v1316)) (V (Proc.devRef .tc main_arg4)))
             (broadcastInDim S3x1024 ![0, 1] bcast_S1x1024_S3x1024_0_1
                (broadcastInDim S1x1024 ![1] bcast_S1024_S1x1024_1 (V (Proc.devRef .tc main_arg5)))) := by
  rw [StableHlo.after_append, ← prefix_kept_arg4 V, ← prefix_kept_arg5 V]
  generalize StableHlo.after prefixOps V = W
  after_results

end Cert.ReferenceIdeal.Host

end
-- ==== Proof.RefValue.lean ====
/-
  The reference's last four operations, read entry by entry on the extended reals.

  The reference multiplies the 3 × 150528 features by the 150528 × 1024 weights, lays the bias
  along a new leading axis, copies that one row down the three rows, and adds.  Entry (i, n) of the
  product is ∑ j, tot (i, j) · W (j, n); entry (i, n) of the twice-broadcast bias is b n.  So the sum
  is the layer `linear`.
-/
import proofs.«107941_j79491254714775_1_alg».proof.Proof.Gen.ReferenceIdeal
import proofs.«107941_j79491254714775_1_alg».proof.Proof.Spec
import Idealize.ShloMosaic.Lib.StackMember
import Idealize.ShloMosaic.Lib.Pipeline.Value

noncomputable section

open scoped BigOperators

namespace Cert.ReferenceIdeal.Lin

open Idealize.ShloMosaic Idealize.ShloMosaic.ValueIdx Idealize.ShloMosaic.StackMember
open Cert.ReferenceIdeal Cert.ReferenceIdeal.Facts₀

/-- The product's entry (i, n) is the sum over the 150528 features. -/
theorem product_apply (tot : FVec Ideal S3x150528 .f32) (W : FVec Ideal S150528x1024 .f32) (i : Fin 3) (n : Fin 1024) :
    Host.dotGeneral dot_S3x150528_S150528x1024_S3x1024_1_0_0_1_n_n none tot W (ix2 i n)
      = ∑ j : Fin 150528, tot (ix2 i j) * W (ix2 j n) :=
  dotGeneral_plain_apply none tot W i n

/-- The bias laid along a new leading axis and copied down the rows reads, at (i, n), the bias at n. -/
theorem bias_rows_apply (b : FVec Ideal S1024 .f32) (i : Fin 3) (n : Fin 1024) :
    broadcastInDim S3x1024 ![0, 1] bcast_S1x1024_S3x1024_0_1 (broadcastInDim S1x1024 ![1] bcast_S1024_S1x1024_1 b) (ix2 i n)
      = b (ix1 n) := by
  refine (broadcastInDim_apply ![0, 1] bcast_S1x1024_S3x1024_0_1 _ (ix2 i n) (ix2 (0 : Fin 1) n) fun a => ?_).trans ?_
  · match a with
    | ⟨0, _⟩ => rfl
    | ⟨1, _⟩ => rfl
  · refine broadcastInDim_apply ![1] bcast_S1024_S1x1024_1 b (ix2 (0 : Fin 1) n) (ix1 n) fun a => ?_
    match a with
    | ⟨0, _⟩ => rfl

/-- The reference's result is the layer. -/
theorem ref_is_linear (tot : FVec Ideal S3x150528 .f32) (W : FVec Ideal S150528x1024 .f32) (b : FVec Ideal S1024 .f32) :
    addf (Host.dotGeneral dot_S3x150528_S150528x1024_S3x1024_1_0_0_1_n_n none tot W)
        (broadcastInDim S3x1024 ![0, 1] bcast_S1x1024_S3x1024_0_1 (broadcastInDim S1x1024 ![1] bcast_S1024_S1x1024_1 b))
      = Cert.Spec.linear tot W b := by
  funext p
  obtain ⟨i, n, rfl⟩ : ∃ (i : Fin 3) (n : Fin 1024), p = ix2 i n := ⟨p 0, p 1, eq_ix2 p⟩
  rw [addf_apply, product_apply, bias_rows_apply]
  exact (Cert.Spec.linear_apply tot W b i n).symm

end Cert.ReferenceIdeal.Lin

end
-- ==== Proof.Agree.Part0.lean ====
/- The kernel's program and the reference compute the pooled feature matrix by the same 2605 operations.  This part is
  operations 0 to 321 (the generated stretches 0 to 27), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 0 to 12 of the host part, in order. -/
abbrev ops0 : List (HloOp τ sig (Elt F)) :=
  [ StableHlo.reshape main_arg0 main_v0 rfl shapeCasts_S1x512x64x64_S512x64x64,
    StableHlo.unary main_arg3 main_v1 ((extractStridedSlice S1 ![0] · slices_S2_S1_0) : (⟨S2, .f32⟩ : BufTy).Contents (Elt F) → (⟨S1, .f32⟩ : BufTy).Contents (Elt F)),
    StableHlo.reshape main_v1 main_v2 rfl shapeCasts_S1_S_,
    StableHlo.unary main_arg3 main_v3 ((extractStridedSlice S1 ![1] · slices_S2_S1_1) : (⟨S2, .f32⟩ : BufTy).Contents (Elt F) → (⟨S1, .f32⟩ : BufTy).Contents (Elt F)),
    StableHlo.reshape main_v3 main_v4 rfl shapeCasts_S1_S_,
    StableHlo.unary main_arg3 main_v5 ((extractStridedSlice S1 ![0] · slices_S2_S1_0) : (⟨S2, .f32⟩ : BufTy).Contents (Elt F) → (⟨S1, .f32⟩ : BufTy).Contents (Elt F)),
    StableHlo.reshape main_v5 main_v6 rfl shapeCasts_S1_S_,
    StableHlo.unary main_arg3 main_v7 ((extractStridedSlice S1 ![1] · slices_S2_S1_1) : (⟨S2, .f32⟩ : BufTy).Contents (Elt F) → (⟨S1, .f32⟩ : BufTy).Contents (Elt F)),
    StableHlo.reshape main_v7 main_v8 rfl shapeCasts_S1_S_,
    StableHlo.unary main_v2 main_v9 (broadcastInDim S1 ![] bcast_S_S1 : (⟨S_, .f32⟩ : BufTy).Contents (Elt F) → (⟨S1, .f32⟩ : BufTy).Contents (Elt F)),
    StableHlo.unary main_v4 main_v10 (broadcastInDim S1 ![] bcast_S_S1 : (⟨S_, .f32⟩ : BufTy).Contents (Elt F) → (⟨S1, .f32⟩ : BufTy).Contents (Elt F)),
    StableHlo.unary main_v6 main_v11 (broadcastInDim S1 ![] bcast_S_S1 : (⟨S_, .f32⟩ : BufTy).Contents (Elt F) → (⟨S1, .f32⟩ : BufTy).Contents (Elt F)),
    StableHlo.unary main_v8 main_v12 (broadcastInDim S1 ![] bcast_S_S1 : (⟨S_, .f32⟩ : BufTy).Contents (Elt F) → (⟨S1, .f32⟩ : BufTy).Contents (Elt F)) ]
/-- The buffers those operations write, in order. -/
abbrev ops0_W : List (Ref sig .tc) :=
  [main_v0, main_v1, main_v2, main_v3, main_v4, main_v5, main_v6, main_v7, main_v8, main_v9, main_v10, main_v11, main_v12]
/-- Each operation writes its own result buffer and nothing else. -/
theorem ops0_writes : (ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_⟩ <;> exact Cert.Agree.wrote (by decide)
/-- Operations 13 to 16 of the host part, in order. -/
abbrev ops1 : List (HloOp τ sig (Elt F)) :=
  [ StableHlo.nary ![main_v9, main_v10, main_v11, main_v12] main_v13 (fun u => concatenate S4 0 [⟨S1, u 0⟩, ⟨S1, u 1⟩, ⟨S1, u 2⟩, ⟨S1, u 3⟩] concatenates_S1_S1_S1_S1_S4_d0),
    StableHlo.unary main_v13 main_v14 (broadcastInDim S1x4 ![1] bcast_S4_S1x4_1 : (⟨S4, .f32⟩ : BufTy).Contents (Elt F) → (⟨S1x4, .f32⟩ : BufTy).Contents (Elt F)),
    StableHlo.unary main_v14 main_v15 (broadcastInDim S3x4 ![0, 1] bcast_S1x4_S3x4_0_1 : (⟨S1x4, .f32⟩ : BufTy).Contents (Elt F) → (⟨S3x4, .f32⟩ : BufTy).Contents (Elt F)),
    StableHlo.binary main_arg1 main_v15 main_v16 (mulf : (⟨S3x4, .f32⟩ : BufTy).Contents (Elt F) → (⟨S3x4, .f32⟩ : BufTy).Contents (Elt F) → (⟨S3x4, .f32⟩ : BufTy).Contents (Elt F)) ]
/-- The buffers those operations write, in order. -/
abbrev ops1_W : List (Ref sig .tc) :=
  [main_v13, main_v14, main_v15, main_v16]
/-- Each operation writes its own result buffer and nothing else. -/
theorem ops1_writes : (ops1 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_⟩ <;> exact Cert.Agree.wrote (by decide)
/-- Operations 17 to 74 of the host part, in order. -/
abbrev ops2 : List (HloOp τ sig (Elt F)) :=
  [ StableHlo.TRef.unary (.of main_v16 : StableHlo.TRef sig ⟨S3x4, .f32⟩) (.of main_v17 : StableHlo.TRef sig ⟨S3x4, .f32⟩) Host.roundeven,
    StableHlo.unary main_v17 main_v18 (fptosi 32 : (⟨S3x4, .f32⟩ : BufTy).Contents (Elt F) → (⟨S3x4, .i32⟩ : BufTy).Contents (Elt F)),
    StableHlo.unary main_v13 main_v19 (broadcastInDim S1x4 ![1] bcast_S4_S1x4_1 : (⟨S4, .f32⟩ : BufTy).Contents (Elt F) → (⟨S1x4, .f32⟩ : BufTy).Contents (Elt F)),
    StableHlo.unary main_v19 main_v20 (broadcastInDim S4x4 ![0, 1] bcast_S1x4_S4x4_0_1 : (⟨S1x4, .f32⟩ : BufTy).Contents (Elt F) → (⟨S4x4, .f32⟩ : BufTy).Contents (Elt F)),
    StableHlo.binary main_arg2 main_v20 main_v21 (mulf : (⟨S4x4, .f32⟩ : BufTy).Contents (Elt F) → (⟨S4x4, .f32⟩ : BufTy).Contents (Elt F) → (⟨S4x4, .f32⟩ : BufTy).Contents (Elt F)),
    StableHlo.TRef.unary (.of main_v21 : StableHlo.TRef sig ⟨S4x4, .f32⟩) (.of main_v22 : StableHlo.TRef sig ⟨S4x4, .f32⟩) Host.roundeven,
    StableHlo.unary main_v22 main_v23 (fptosi 32 : (⟨S4x4, .f32⟩ : BufTy).Contents (Elt F) → (⟨S4x4, .i32⟩ : BufTy).Contents (Elt F)),
    StableHlo.nullary main_v24 (iotaInDim S7 32 0),
    StableHlo.nullary main_v25 (iotaInDim S7 32 0),
    StableHlo.nullary main_c (constantI S_ 32 64#32),
    StableHlo.unary main_c main_v26 (broadcastInDim S7 ![] bcast_S_S7 : (⟨S_, .i32⟩ : BufTy).Contents (Elt F) → (⟨S7, .i32⟩ : BufTy).Contents (Elt F)),
    StableHlo.binary main_v24 main_v26 main_v27 (muli : (⟨S7, .i32⟩ : BufTy).Contents (Elt F) → (⟨S7, .i32⟩ : BufTy).Contents (Elt F) → (⟨S7, .i32⟩ : BufTy).Contents (Elt F)),
    StableHlo.nullary main_c_0 (constantI S_ 32 7#32),
    StableHlo.TRef.unary (.of main_c_0 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S7, .i32⟩) (broadcastInDim S7 ![] bcast_S_S7),
    StableHlo.TRef.binary (.of main_v27 : StableHlo.TRef sig ⟨S7, .i32⟩) (.of main_call2_v1 : StableHlo.TRef sig ⟨S7, .i32⟩) (.of main_call2_v2 : StableHlo.TRef sig ⟨S7, .i32⟩) Host.divsi,
    StableHlo.TRef.unary (.of main_v27 : StableHlo.TRef sig ⟨S7, .i32⟩) (.of main_call2_v3 : StableHlo.TRef sig ⟨S7, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S7, .i32⟩) (broadcastInDim S7 ![] bcast_S_S7),
    StableHlo.TRef.binary (.of main_call2_v3 : StableHlo.TRef sig ⟨S7, .i32⟩) (.of main_call2_v5 : StableHlo.TRef sig ⟨S7, .i32⟩) (.of main_call2_v6 : StableHlo.TRef sig ⟨S7, .i1⟩) (cmpi .ne),
    StableHlo.TRef.unary (.of main_call2_v0 : StableHlo.TRef sig ⟨S_, .i32⟩) (.of main_call2_v7 : StableHlo.TRef sig ⟨S7, .i32⟩) (broadcastInDim S7 ![] bcast_S_S7),
    StableHlo.TRef.binary (.of main_v27 : StableHlo.TRef sig ⟨S7, .i32⟩) (.of main_call2_v7 : StableHlo.TRef sig ⟨S7, .i32⟩) (.of main_call2_v8 : StableHlo.TRef sig ⟨S7, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S7, .i32⟩) (broadcastInDim S7 ![] bcast_S_S7),
    StableHlo.TRef.binary (.of main_call2_v8 : StableHlo.TRef sig ⟨S7, .i32⟩) (.of main_call2_v9 : StableHlo.TRef sig ⟨S7, .i32⟩) (.of main_call2_v10 : StableHlo.TRef sig ⟨S7, .i1⟩) (cmpi .ne),
    StableHlo.TRef.binary (.of main_call2_v6 : StableHlo.TRef sig ⟨S7, .i1⟩) (.of main_call2_v10 : StableHlo.TRef sig ⟨S7, .i1⟩) (.of main_call2_v11 : StableHlo.TRef sig ⟨S7, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S7, .i32⟩) (broadcastInDim S7 ![] bcast_S_S7),
    StableHlo.TRef.binary (.of main_call2_v2 : StableHlo.TRef sig ⟨S7, .i32⟩) (.of main_call2_v12 : StableHlo.TRef sig ⟨S7, .i32⟩) (.of main_call2_v13 : StableHlo.TRef sig ⟨S7, .i32⟩) subi,
    StableHlo.TRef.ternary (.of main_call2_v11 : StableHlo.TRef sig ⟨S7, .i1⟩) (.of main_call2_v13 : StableHlo.TRef sig ⟨S7, .i32⟩) (.of main_call2_v2 : StableHlo.TRef sig ⟨S7, .i32⟩) (.of main_v28 : StableHlo.TRef sig ⟨S7, .i32⟩) select,
    StableHlo.nullary main_c_1 (constantI S_ 32 0#32),
    StableHlo.unary main_c_1 main_v29 (broadcastInDim S7 ![] bcast_S_S7 : (⟨S_, .i32⟩ : BufTy).Contents (Elt F) → (⟨S7, .i32⟩ : BufTy).Contents (Elt F)),
    StableHlo.binary main_v29 main_v28 main_v30 (addi : (⟨S7, .i32⟩ : BufTy).Contents (Elt F) → (⟨S7, .i32⟩ : BufTy).Contents (Elt F) → (⟨S7, .i32⟩ : BufTy).Contents (Elt F)),
    StableHlo.nullary main_c_2 (constantI S_ 32 1#32),
    StableHlo.unary main_c_2 main_v31 (broadcastInDim S7 ![] bcast_S_S7 : (⟨S_, .i32⟩ : BufTy).Contents (Elt F) → (⟨S7, .i32⟩ : BufTy).Contents (Elt F)),
    StableHlo.binary main_v24 main_v31 main_v32 (addi : (⟨S7, .i32⟩ : BufTy).Contents (Elt F) → (⟨S7, .i32⟩ : BufTy).Contents (Elt F) → (⟨S7, .i32⟩ : BufTy).Contents (Elt F)),
    StableHlo.unary main_v32 main_v33 (negi : (⟨S7, .i32⟩ : BufTy).Contents (Elt F) → (⟨S7, .i32⟩ : BufTy).Contents (Elt F)),
    StableHlo.nullary main_c_3 (constantI S_ 32 64#32),
    StableHlo.unary main_c_3 main_v34 (broadcastInDim S7 ![] bcast_S_S7 : (⟨S_, .i32⟩ : BufTy).Contents (Elt F) → (⟨S7, .i32⟩ : BufTy).Contents (Elt F)),
    StableHlo.binary main_v33 main_v34 main_v35 (muli : (⟨S7, .i32⟩ : BufTy).Contents (Elt F) → (⟨S7, .i32⟩ : BufTy).Contents (Elt F) → (⟨S7, .i32⟩ : BufTy).Contents (Elt F)),
    StableHlo.nullary main_c_4 (constantI S_ 32 7#32),
    StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S7, .i32⟩) (broadcastInDim S7 ![] bcast_S_S7),
    StableHlo.TRef.binary (.of main_v35 : StableHlo.TRef sig ⟨S7, .i32⟩) (.of main_call3_v1 : StableHlo.TRef sig ⟨S7, .i32⟩) (.of main_call3_v2 : StableHlo.TRef sig ⟨S7, .i32⟩) Host.divsi,
    StableHlo.TRef.unary (.of main_v35 : StableHlo.TRef sig ⟨S7, .i32⟩) (.of main_call3_v3 : StableHlo.TRef sig ⟨S7, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S7, .i32⟩) (broadcastInDim S7 ![] bcast_S_S7),
    StableHlo.TRef.binary (.of main_call3_v3 : StableHlo.TRef sig ⟨S7, .i32⟩) (.of main_call3_v5 : StableHlo.TRef sig ⟨S7, .i32⟩) (.of main_call3_v6 : StableHlo.TRef sig ⟨S7, .i1⟩) (cmpi .ne),
    StableHlo.TRef.unary (.of main_call3_v0 : StableHlo.TRef sig ⟨S_, .i32⟩) (.of main_call3_v7 : StableHlo.TRef sig ⟨S7, .i32⟩) (broadcastInDim S7 ![] bcast_S_S7),
    StableHlo.TRef.binary (.of main_v35 : StableHlo.TRef sig ⟨S7, .i32⟩) (.of main_call3_v7 : StableHlo.TRef sig ⟨S7, .i32⟩) (.of main_call3_v8 : StableHlo.TRef sig ⟨S7, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S7, .i32⟩) (broadcastInDim S7 ![] bcast_S_S7),
    StableHlo.TRef.binary (.of main_call3_v8 : StableHlo.TRef sig ⟨S7, .i32⟩) (.of main_call3_v9 : StableHlo.TRef sig ⟨S7, .i32⟩) (.of main_call3_v10 : StableHlo.TRef sig ⟨S7, .i1⟩) (cmpi .ne),
    StableHlo.TRef.binary (.of main_call3_v6 : StableHlo.TRef sig ⟨S7, .i1⟩) (.of main_call3_v10 : StableHlo.TRef sig ⟨S7, .i1⟩) (.of main_call3_v11 : StableHlo.TRef sig ⟨S7, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S7, .i32⟩) (broadcastInDim S7 ![] bcast_S_S7),
    StableHlo.TRef.binary (.of main_call3_v2 : StableHlo.TRef sig ⟨S7, .i32⟩) (.of main_call3_v12 : StableHlo.TRef sig ⟨S7, .i32⟩) (.of main_call3_v13 : StableHlo.TRef sig ⟨S7, .i32⟩) subi,
    StableHlo.TRef.ternary (.of main_call3_v11 : StableHlo.TRef sig ⟨S7, .i1⟩) (.of main_call3_v13 : StableHlo.TRef sig ⟨S7, .i32⟩) (.of main_call3_v2 : StableHlo.TRef sig ⟨S7, .i32⟩) (.of main_v36 : StableHlo.TRef sig ⟨S7, .i32⟩) select ]
/-- The buffers those operations write, in order. -/
abbrev ops2_W : List (Ref sig .tc) :=
  [main_v17, main_v18, main_v19, main_v20, main_v21, main_v22, main_v23, main_v24, main_v25, main_c, main_v26, main_v27, main_c_0, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v28, main_c_1, main_v29, main_v30, main_c_2, main_v31, main_v32, main_v33, main_c_3, main_v34, main_v35, main_c_4, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v36]
/-- Each operation writes its own result buffer and nothing else. -/
theorem ops2_writes : (ops2 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 75 to 126 of the host part, in order. -/
abbrev ops3 : List (HloOp τ sig (Elt F)) :=
  [ StableHlo.nullary main_c_5 (constantI S_ 32 0#32),
    StableHlo.unary main_c_5 main_v37 (broadcastInDim S7 ![] bcast_S_S7 : (⟨S_, .i32⟩ : BufTy).Contents (Elt F) → (⟨S7, .i32⟩ : BufTy).Contents (Elt F)),
    StableHlo.binary main_v37 main_v36 main_v38 (subi : (⟨S7, .i32⟩ : BufTy).Contents (Elt F) → (⟨S7, .i32⟩ : BufTy).Contents (Elt F) → (⟨S7, .i32⟩ : BufTy).Contents (Elt F)),
    StableHlo.nullary main_c_6 (constantI S_ 32 64#32),
    StableHlo.unary main_c_6 main_v39 (broadcastInDim S7 ![] bcast_S_S7 : (⟨S_, .i32⟩ : BufTy).Contents (Elt F) → (⟨S7, .i32⟩ : BufTy).Contents (Elt F)),
    StableHlo.binary main_v25 main_v39 main_v40 (muli : (⟨S7, .i32⟩ : BufTy).Contents (Elt F) → (⟨S7, .i32⟩ : BufTy).Contents (Elt F) → (⟨S7, .i32⟩ : BufTy).Contents (Elt F)),
    StableHlo.nullary main_c_7 (constantI S_ 32 7#32),
    StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S7, .i32⟩) (broadcastInDim S7 ![] bcast_S_S7),
    StableHlo.TRef.binary (.of main_v40 : StableHlo.TRef sig ⟨S7, .i32⟩) (.of main_call4_v1 : StableHlo.TRef sig ⟨S7, .i32⟩) (.of main_call4_v2 : StableHlo.TRef sig ⟨S7, .i32⟩) Host.divsi,
    StableHlo.TRef.unary (.of main_v40 : StableHlo.TRef sig ⟨S7, .i32⟩) (.of main_call4_v3 : StableHlo.TRef sig ⟨S7, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S7, .i32⟩) (broadcastInDim S7 ![] bcast_S_S7),
    StableHlo.TRef.binary (.of main_call4_v3 : StableHlo.TRef sig ⟨S7, .i32⟩) (.of main_call4_v5 : StableHlo.TRef sig ⟨S7, .i32⟩) (.of main_call4_v6 : StableHlo.TRef sig ⟨S7, .i1⟩) (cmpi .ne),
    StableHlo.TRef.unary (.of main_call4_v0 : StableHlo.TRef sig ⟨S_, .i32⟩) (.of main_call4_v7 : StableHlo.TRef sig ⟨S7, .i32⟩) (broadcastInDim S7 ![] bcast_S_S7),
    StableHlo.TRef.binary (.of main_v40 : StableHlo.TRef sig ⟨S7, .i32⟩) (.of main_call4_v7 : StableHlo.TRef sig ⟨S7, .i32⟩) (.of main_call4_v8 : StableHlo.TRef sig ⟨S7, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S7, .i32⟩) (broadcastInDim S7 ![] bcast_S_S7),
    StableHlo.TRef.binary (.of main_call4_v8 : StableHlo.TRef sig ⟨S7, .i32⟩) (.of main_call4_v9 : StableHlo.TRef sig ⟨S7, .i32⟩) (.of main_call4_v10 : StableHlo.TRef sig ⟨S7, .i1⟩) (cmpi .ne),
    StableHlo.TRef.binary (.of main_call4_v6 : StableHlo.TRef sig ⟨S7, .i1⟩) (.of main_call4_v10 : StableHlo.TRef sig ⟨S7, .i1⟩) (.of main_call4_v11 : StableHlo.TRef sig ⟨S7, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S7, .i32⟩) (broadcastInDim S7 ![] bcast_S_S7),
    StableHlo.TRef.binary (.of main_call4_v2 : StableHlo.TRef sig ⟨S7, .i32⟩) (.of main_call4_v12 : StableHlo.TRef sig ⟨S7, .i32⟩) (.of main_call4_v13 : StableHlo.TRef sig ⟨S7, .i32⟩) subi,
    StableHlo.TRef.ternary (.of main_call4_v11 : StableHlo.TRef sig ⟨S7, .i1⟩) (.of main_call4_v13 : StableHlo.TRef sig ⟨S7, .i32⟩) (.of main_call4_v2 : StableHlo.TRef sig ⟨S7, .i32⟩) (.of main_v41 : StableHlo.TRef sig ⟨S7, .i32⟩) select,
    StableHlo.nullary main_c_8 (constantI S_ 32 0#32),
    StableHlo.unary main_c_8 main_v42 (broadcastInDim S7 ![] bcast_S_S7 : (⟨S_, .i32⟩ : BufTy).Contents (Elt F) → (⟨S7, .i32⟩ : BufTy).Contents (Elt F)),
    StableHlo.binary main_v42 main_v41 main_v43 (addi : (⟨S7, .i32⟩ : BufTy).Contents (Elt F) → (⟨S7, .i32⟩ : BufTy).Contents (Elt F) → (⟨S7, .i32⟩ : BufTy).Contents (Elt F)),
    StableHlo.nullary main_c_9 (constantI S_ 32 1#32),
    StableHlo.unary main_c_9 main_v44 (broadcastInDim S7 ![] bcast_S_S7 : (⟨S_, .i32⟩ : BufTy).Contents (Elt F) → (⟨S7, .i32⟩ : BufTy).Contents (Elt F)),
    StableHlo.binary main_v25 main_v44 main_v45 (addi : (⟨S7, .i32⟩ : BufTy).Contents (Elt F) → (⟨S7, .i32⟩ : BufTy).Contents (Elt F) → (⟨S7, .i32⟩ : BufTy).Contents (Elt F)),
    StableHlo.unary main_v45 main_v46 (negi : (⟨S7, .i32⟩ : BufTy).Contents (Elt F) → (⟨S7, .i32⟩ : BufTy).Contents (Elt F)),
    StableHlo.nullary main_c_10 (constantI S_ 32 64#32),
    StableHlo.unary main_c_10 main_v47 (broadcastInDim S7 ![] bcast_S_S7 : (⟨S_, .i32⟩ : BufTy).Contents (Elt F) → (⟨S7, .i32⟩ : BufTy).Contents (Elt F)),
    StableHlo.binary main_v46 main_v47 main_v48 (muli : (⟨S7, .i32⟩ : BufTy).Contents (Elt F) → (⟨S7, .i32⟩ : BufTy).Contents (Elt F) → (⟨S7, .i32⟩ : BufTy).Contents (Elt F)),
    StableHlo.nullary main_c_11 (constantI S_ 32 7#32),
    StableHlo.TRef.unary (.of main_c_11 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S7, .i32⟩) (broadcastInDim S7 ![] bcast_S_S7),
    StableHlo.TRef.binary (.of main_v48 : StableHlo.TRef sig ⟨S7, .i32⟩) (.of main_call5_v1 : StableHlo.TRef sig ⟨S7, .i32⟩) (.of main_call5_v2 : StableHlo.TRef sig ⟨S7, .i32⟩) Host.divsi,
    StableHlo.TRef.unary (.of main_v48 : StableHlo.TRef sig ⟨S7, .i32⟩) (.of main_call5_v3 : StableHlo.TRef sig ⟨S7, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S7, .i32⟩) (broadcastInDim S7 ![] bcast_S_S7),
    StableHlo.TRef.binary (.of main_call5_v3 : StableHlo.TRef sig ⟨S7, .i32⟩) (.of main_call5_v5 : StableHlo.TRef sig ⟨S7, .i32⟩) (.of main_call5_v6 : StableHlo.TRef sig ⟨S7, .i1⟩) (cmpi .ne),
    StableHlo.TRef.unary (.of main_call5_v0 : StableHlo.TRef sig ⟨S_, .i32⟩) (.of main_call5_v7 : StableHlo.TRef sig ⟨S7, .i32⟩) (broadcastInDim S7 ![] bcast_S_S7),
    StableHlo.TRef.binary (.of main_v48 : StableHlo.TRef sig ⟨S7, .i32⟩) (.of main_call5_v7 : StableHlo.TRef sig ⟨S7, .i32⟩) (.of main_call5_v8 : StableHlo.TRef sig ⟨S7, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S7, .i32⟩) (broadcastInDim S7 ![] bcast_S_S7),
    StableHlo.TRef.binary (.of main_call5_v8 : StableHlo.TRef sig ⟨S7, .i32⟩) (.of main_call5_v9 : StableHlo.TRef sig ⟨S7, .i32⟩) (.of main_call5_v10 : StableHlo.TRef sig ⟨S7, .i1⟩) (cmpi .ne),
    StableHlo.TRef.binary (.of main_call5_v6 : StableHlo.TRef sig ⟨S7, .i1⟩) (.of main_call5_v10 : StableHlo.TRef sig ⟨S7, .i1⟩) (.of main_call5_v11 : StableHlo.TRef sig ⟨S7, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S7, .i32⟩) (broadcastInDim S7 ![] bcast_S_S7),
    StableHlo.TRef.binary (.of main_call5_v2 : StableHlo.TRef sig ⟨S7, .i32⟩) (.of main_call5_v12 : StableHlo.TRef sig ⟨S7, .i32⟩) (.of main_call5_v13 : StableHlo.TRef sig ⟨S7, .i32⟩) subi,
    StableHlo.TRef.ternary (.of main_call5_v11 : StableHlo.TRef sig ⟨S7, .i1⟩) (.of main_call5_v13 : StableHlo.TRef sig ⟨S7, .i32⟩) (.of main_call5_v2 : StableHlo.TRef sig ⟨S7, .i32⟩) (.of main_v49 : StableHlo.TRef sig ⟨S7, .i32⟩) select ]
/-- The buffers those operations write, in order. -/
abbrev ops3_W : List (Ref sig .tc) :=
  [main_c_5, main_v37, main_v38, main_c_6, main_v39, main_v40, main_c_7, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v41, main_c_8, main_v42, main_v43, main_c_9, main_v44, main_v45, main_v46, main_c_10, main_v47, main_v48, main_c_11, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v49]
/-- Each operation writes its own result buffer and nothing else. -/
theorem ops3_writes : (ops3 : List (HloOp τ sig (Elt F))).Forall fun op => op.writes ⊆ (ops3_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 127 to 169 of the host part, in order. -/
abbrev ops4 : List (HloOp τ sig (Elt F)) :=
  [ StableHlo.nullary main_c_12 (constantI S_ 32 0#32),
    StableHlo.unary main_c_12 main_v50 (broadcastInDim S7 ![] bcast_S_S7 : (⟨S_, .i32⟩ : BufTy).Contents (Elt F) → (⟨S7, .i32⟩ : BufTy).Contents (Elt F)),
    StableHlo.binary main_v50 main_v49 main_v51 (subi : (⟨S7, .i32⟩ : BufTy).Contents (Elt F) → (⟨S7, .i32⟩ : BufTy).Contents (Elt F) → (⟨S7, .i32⟩ : BufTy).Contents (Elt F)),
    StableHlo.nullary main_v52 (iotaInDim S64 32 0),
    StableHlo.nullary main_v53 (iotaInDim S64 32 0),
    StableHlo.unary main_v52 main_v54 (broadcastInDim S1x64 ![1] bcast_S64_S1x64_1 : (⟨S64, .i32⟩ : BufTy).Contents (Elt F) → (⟨S1x64, .i32⟩ : BufTy).Contents (Elt F)),
    StableHlo.unary main_v30 main_v55 (broadcastInDim S7x1 ![0] bcast_S7_S7x1_0 : (⟨S7, .i32⟩ : BufTy).Contents (Elt F) → (⟨S7x1, .i32⟩ : BufTy).Contents (Elt F)),
    StableHlo.unary main_v54 main_v56 (broadcastInDim S7x64 ![0, 1] bcast_S1x64_S7x64_0_1 : (⟨S1x64, .i32⟩ : BufTy).Contents (Elt F) → (⟨S7x64, .i32⟩ : BufTy).Contents (Elt F)),
    StableHlo.unary main_v55 main_v57 (broadcastInDim S7x64 ![0, 1] bcast_S7x1_S7x64_0_1 : (⟨S7x1, .i32⟩ : BufTy).Contents (Elt F) → (⟨S7x64, .i32⟩ : BufTy).Contents (Elt F)),
    StableHlo.binary main_v56 main_v57 main_v58 (cmpi .sge : (⟨S7x64, .i32⟩ : BufTy).Contents (Elt F) → (⟨S7x64, .i32⟩ : BufTy).Contents (Elt F) → (⟨S7x64, .i1⟩ : BufTy).Contents (Elt F)),
    StableHlo.unary main_v52 main_v59 (broadcastInDim S1x64 ![1] bcast_S64_S1x64_1 : (⟨S64, .i32⟩ : BufTy).Contents (Elt F) → (⟨S1x64, .i32⟩ : BufTy).Contents (Elt F)),
    StableHlo.unary main_v38 main_v60 (broadcastInDim S7x1 ![0] bcast_S7_S7x1_0 : (⟨S7, .i32⟩ : BufTy).Contents (Elt F) → (⟨S7x1, .i32⟩ : BufTy).Contents (Elt F)),
    StableHlo.unary main_v59 main_v61 (broadcastInDim S7x64 ![0, 1] bcast_S1x64_S7x64_0_1 : (⟨S1x64, .i32⟩ : BufTy).Contents (Elt F) → (⟨S7x64, .i32⟩ : BufTy).Contents (Elt F)),
    StableHlo.unary main_v60 main_v62 (broadcastInDim S7x64 ![0, 1] bcast_S7x1_S7x64_0_1 : (⟨S7x1, .i32⟩ : BufTy).Contents (Elt F) → (⟨S7x64, .i32⟩ : BufTy).Contents (Elt F)),
    StableHlo.binary main_v61 main_v62 main_v63 (cmpi .slt : (⟨S7x64, .i32⟩ : BufTy).Contents (Elt F) → (⟨S7x64, .i32⟩ : BufTy).Contents (Elt F) → (⟨S7x64, .i1⟩ : BufTy).Contents (Elt F)),
    StableHlo.binary main_v58 main_v63 main_v64 (andi : (⟨S7x64, .i1⟩ : BufTy).Contents (Elt F) → (⟨S7x64, .i1⟩ : BufTy).Contents (Elt F) → (⟨S7x64, .i1⟩ : BufTy).Contents (Elt F)),
    StableHlo.unary main_v53 main_v65 (broadcastInDim S1x64 ![1] bcast_S64_S1x64_1 : (⟨S64, .i32⟩ : BufTy).Contents (Elt F) → (⟨S1x64, .i32⟩ : BufTy).Contents (Elt F)),
    StableHlo.unary main_v43 main_v66 (broadcastInDim S7x1 ![0] bcast_S7_S7x1_0 : (⟨S7, .i32⟩ : BufTy).Contents (Elt F) → (⟨S7x1, .i32⟩ : BufTy).Contents (Elt F)),
    StableHlo.unary main_v65 main_v67 (broadcastInDim S7x64 ![0, 1] bcast_S1x64_S7x64_0_1 : (⟨S1x64, .i32⟩ : BufTy).Contents (Elt F) → (⟨S7x64, .i32⟩ : BufTy).Contents (Elt F)),
    StableHlo.unary main_v66 main_v68 (broadcastInDim S7x64 ![0, 1] bcast_S7x1_S7x64_0_1 : (⟨S7x1, .i32⟩ : BufTy).Contents (Elt F) → (⟨S7x64, .i32⟩ : BufTy).Contents (Elt F)),
    StableHlo.binary main_v67 main_v68 main_v69 (cmpi .sge : (⟨S7x64, .i32⟩ : BufTy).Contents (Elt F) → (⟨S7x64, .i32⟩ : BufTy).Contents (Elt F) → (⟨S7x64, .i1⟩ : BufTy).Contents (Elt F)),
    StableHlo.unary main_v53 main_v70 (broadcastInDim S1x64 ![1] bcast_S64_S1x64_1 : (⟨S64, .i32⟩ : BufTy).Contents (Elt F) → (⟨S1x64, .i32⟩ : BufTy).Contents (Elt F)),
    StableHlo.unary main_v51 main_v71 (broadcastInDim S7x1 ![0] bcast_S7_S7x1_0 : (⟨S7, .i32⟩ : BufTy).Contents (Elt F) → (⟨S7x1, .i32⟩ : BufTy).Contents (Elt F)),
    StableHlo.unary main_v70 main_v72 (broadcastInDim S7x64 ![0, 1] bcast_S1x64_S7x64_0_1 : (⟨S1x64, .i32⟩ : BufTy).Contents (Elt F) → (⟨S7x64, .i32⟩ : BufTy).Contents (Elt F)),
    StableHlo.unary main_v71 main_v73 (broadcastInDim S7x64 ![0, 1] bcast_S7x1_S7x64_0_1 : (⟨S7x1, .i32⟩ : BufTy).Contents (Elt F) → (⟨S7x64, .i32⟩ : BufTy).Contents (Elt F)),
    StableHlo.binary main_v72 main_v73 main_v74 (cmpi .slt : (⟨S7x64, .i32⟩ : BufTy).Contents (Elt F) → (⟨S7x64, .i32⟩ : BufTy).Contents (Elt F) → (⟨S7x64, .i1⟩ : BufTy).Contents (Elt F)),
    StableHlo.binary main_v69 main_v74 main_v75 (andi : (⟨S7x64, .i1⟩ : BufTy).Contents (Elt F) → (⟨S7x64, .i1⟩ : BufTy).Contents (Elt F) → (⟨S7x64, .i1⟩ : BufTy).Contents (Elt F)),
    StableHlo.unary main_v64 main_v76 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v77 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst (constant S_ .f32 0xFF800000#32),
    StableHlo.TRef.unary (.of main_v76 : StableHlo.TRef sig ⟨S7x1x64x1, .i1⟩) (.of main_call6_v0 : StableHlo.TRef sig ⟨S7x512x64x64, .i1⟩) (broadcastInDim S7x512x64x64 ![0, 1, 2, 3] bcast_S7x1x64x1_S7x512x64x64_0_1_2_3),
    StableHlo.TRef.unary (.of main_v77 : StableHlo.TRef sig ⟨S1x512x64x64, .f32⟩) (.of main_call6_v1 : StableHlo.TRef sig ⟨S7x512x64x64, .f32⟩) (broadcastInDim S7x512x64x64 ![0, 1, 2, 3] bcast_S1x512x64x64_S7x512x64x64_0_1_2_3),
    StableHlo.TRef.unary (.of main_cst : StableHlo.TRef sig ⟨S_, .f32⟩) (.of main_call6_v2 : StableHlo.TRef sig ⟨S7x512x64x64, .f32⟩) (broadcastInDim S7x512x64x64 ![] bcast_S_S7x512x64x64),
    StableHlo.TRef.ternary (.of main_call6_v0 : StableHlo.TRef sig ⟨S7x512x64x64, .i1⟩) (.of main_call6_v1 : StableHlo.TRef sig ⟨S7x512x64x64, .f32⟩) (.of main_call6_v2 : StableHlo.TRef sig ⟨S7x512x64x64, .f32⟩) (.of main_v78 : StableHlo.TRef sig ⟨S7x512x64x64, .f32⟩) select,
    StableHlo.nullary main_cst_13 (constant S_ .f32 0xFF800000#32),
    StableHlo.binary main_v78 main_cst_13 main_v79 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v75 main_v80 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v79 main_v81 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_14 (constant S_ .f32 0xFF800000#32),
    StableHlo.TRef.unary (.of main_v80 : StableHlo.TRef sig ⟨S1x1x7x64, .i1⟩) (.of main_call7_v0 : StableHlo.TRef sig ⟨S7x512x7x64, .i1⟩) (broadcastInDim S7x512x7x64 ![0, 1, 2, 3] bcast_S1x1x7x64_S7x512x7x64_0_1_2_3),
    StableHlo.TRef.unary (.of main_v81 : StableHlo.TRef sig ⟨S7x512x1x64, .f32⟩) (.of main_call7_v1 : StableHlo.TRef sig ⟨S7x512x7x64, .f32⟩) (broadcastInDim S7x512x7x64 ![0, 1, 2, 3] bcast_S7x512x1x64_S7x512x7x64_0_1_2_3),
    StableHlo.TRef.unary (.of main_cst_14 : StableHlo.TRef sig ⟨S_, .f32⟩) (.of main_call7_v2 : StableHlo.TRef sig ⟨S7x512x7x64, .f32⟩) (broadcastInDim S7x512x7x64 ![] bcast_S_S7x512x7x64),
    StableHlo.TRef.ternary (.of main_call7_v0 : StableHlo.TRef sig ⟨S7x512x7x64, .i1⟩) (.of main_call7_v1 : StableHlo.TRef sig ⟨S7x512x7x64, .f32⟩) (.of main_call7_v2 : StableHlo.TRef sig ⟨S7x512x7x64, .f32⟩) (.of main_v82 : StableHlo.TRef sig ⟨S7x512x7x64, .f32⟩) select ]
/-- The buffers those operations write, in order. -/
abbrev ops4_W : List (Ref sig .tc) :=
  [main_c_12, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_cst, main_call6_v0, main_call6_v1, main_call6_v2, main_v78, main_cst_13, main_v79, main_v80, main_v81, main_cst_14, main_call7_v0, main_call7_v1, main_call7_v2, main_v82]
/-- Each operation writes its own result buffer and nothing else. -/
theorem ops4_writes : (ops4 : List (HloOp τ sig (Elt F))).Forall fun op => op.writes ⊆ (ops4_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 170 to 214 of the host part, in order. -/
abbrev ops5 : List (HloOp τ sig (Elt F)) :=
  [ StableHlo.nullary main_cst_15 (constant S_ .f32 0xFF800000#32),
    StableHlo.binary main_v82 main_cst_15 main_v83 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v83 main_v84 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v84 main_v85 rfl shapeCasts_S512x7x7_S25088,
    StableHlo.unary main_v18 main_v86 ((extractStridedSlice S1x1 ![0, 1] · slices_S3x4_S1x1_0_1) : (⟨S3x4, .i32⟩ : BufTy).Contents (Elt F) → (⟨S1x1, .i32⟩ : BufTy).Contents (Elt F)),
    StableHlo.reshape main_v86 main_v87 rfl shapeCasts_S1x1_S_,
    StableHlo.unary main_v18 main_v88 ((extractStridedSlice S1x1 ![0, 3] · slices_S3x4_S1x1_0_3) : (⟨S3x4, .i32⟩ : BufTy).Contents (Elt F) → (⟨S1x1, .i32⟩ : BufTy).Contents (Elt F)),
    StableHlo.reshape main_v88 main_v89 rfl shapeCasts_S1x1_S_,
    StableHlo.unary main_v18 main_v90 ((extractStridedSlice S1x1 ![0, 0] · slices_S3x4_S1x1_0_0) : (⟨S3x4, .i32⟩ : BufTy).Contents (Elt F) → (⟨S1x1, .i32⟩ : BufTy).Contents (Elt F)),
    StableHlo.reshape main_v90 main_v91 rfl shapeCasts_S1x1_S_,
    StableHlo.unary main_v18 main_v92 ((extractStridedSlice S1x1 ![0, 2] · slices_S3x4_S1x1_0_2) : (⟨S3x4, .i32⟩ : BufTy).Contents (Elt F) → (⟨S1x1, .i32⟩ : BufTy).Contents (Elt F)),
    StableHlo.reshape main_v92 main_v93 rfl shapeCasts_S1x1_S_,
    StableHlo.binary main_v89 main_v87 main_v94 (subi : (⟨S_, .i32⟩ : BufTy).Contents (Elt F) → (⟨S_, .i32⟩ : BufTy).Contents (Elt F) → (⟨S_, .i32⟩ : BufTy).Contents (Elt F)),
    StableHlo.binary main_v93 main_v91 main_v95 (subi : (⟨S_, .i32⟩ : BufTy).Contents (Elt F) → (⟨S_, .i32⟩ : BufTy).Contents (Elt F) → (⟨S_, .i32⟩ : BufTy).Contents (Elt F)),
    StableHlo.nullary main_v96 (iotaInDim S7 32 0),
    StableHlo.nullary main_v97 (iotaInDim S7 32 0),
    StableHlo.unary main_v94 main_v98 (broadcastInDim S7 ![] bcast_S_S7 : (⟨S_, .i32⟩ : BufTy).Contents (Elt F) → (⟨S7, .i32⟩ : BufTy).Contents (Elt F)),
    StableHlo.binary main_v96 main_v98 main_v99 (muli : (⟨S7, .i32⟩ : BufTy).Contents (Elt F) → (⟨S7, .i32⟩ : BufTy).Contents (Elt F) → (⟨S7, .i32⟩ : BufTy).Contents (Elt F)),
    StableHlo.nullary main_c_16 (constantI S_ 32 7#32),
    StableHlo.TRef.unary (.of main_c_16 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S7, .i32⟩) (broadcastInDim S7 ![] bcast_S_S7),
    StableHlo.TRef.binary (.of main_v99 : StableHlo.TRef sig ⟨S7, .i32⟩) (.of main_call8_v1 : StableHlo.TRef sig ⟨S7, .i32⟩) (.of main_call8_v2 : StableHlo.TRef sig ⟨S7, .i32⟩) Host.divsi,
    StableHlo.TRef.unary (.of main_v99 : StableHlo.TRef sig ⟨S7, .i32⟩) (.of main_call8_v3 : StableHlo.TRef sig ⟨S7, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S7, .i32⟩) (broadcastInDim S7 ![] bcast_S_S7),
    StableHlo.TRef.binary (.of main_call8_v3 : StableHlo.TRef sig ⟨S7, .i32⟩) (.of main_call8_v5 : StableHlo.TRef sig ⟨S7, .i32⟩) (.of main_call8_v6 : StableHlo.TRef sig ⟨S7, .i1⟩) (cmpi .ne),
    StableHlo.TRef.unary (.of main_call8_v0 : StableHlo.TRef sig ⟨S_, .i32⟩) (.of main_call8_v7 : StableHlo.TRef sig ⟨S7, .i32⟩) (broadcastInDim S7 ![] bcast_S_S7),
    StableHlo.TRef.binary (.of main_v99 : StableHlo.TRef sig ⟨S7, .i32⟩) (.of main_call8_v7 : StableHlo.TRef sig ⟨S7, .i32⟩) (.of main_call8_v8 : StableHlo.TRef sig ⟨S7, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S7, .i32⟩) (broadcastInDim S7 ![] bcast_S_S7),
    StableHlo.TRef.binary (.of main_call8_v8 : StableHlo.TRef sig ⟨S7, .i32⟩) (.of main_call8_v9 : StableHlo.TRef sig ⟨S7, .i32⟩) (.of main_call8_v10 : StableHlo.TRef sig ⟨S7, .i1⟩) (cmpi .ne),
    StableHlo.TRef.binary (.of main_call8_v6 : StableHlo.TRef sig ⟨S7, .i1⟩) (.of main_call8_v10 : StableHlo.TRef sig ⟨S7, .i1⟩) (.of main_call8_v11 : StableHlo.TRef sig ⟨S7, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S7, .i32⟩) (broadcastInDim S7 ![] bcast_S_S7),
    StableHlo.TRef.binary (.of main_call8_v2 : StableHlo.TRef sig ⟨S7, .i32⟩) (.of main_call8_v12 : StableHlo.TRef sig ⟨S7, .i32⟩) (.of main_call8_v13 : StableHlo.TRef sig ⟨S7, .i32⟩) subi,
    StableHlo.TRef.ternary (.of main_call8_v11 : StableHlo.TRef sig ⟨S7, .i1⟩) (.of main_call8_v13 : StableHlo.TRef sig ⟨S7, .i32⟩) (.of main_call8_v2 : StableHlo.TRef sig ⟨S7, .i32⟩) (.of main_v100 : StableHlo.TRef sig ⟨S7, .i32⟩) select,
    StableHlo.unary main_v87 main_v101 (broadcastInDim S7 ![] bcast_S_S7 : (⟨S_, .i32⟩ : BufTy).Contents (Elt F) → (⟨S7, .i32⟩ : BufTy).Contents (Elt F)),
    StableHlo.binary main_v101 main_v100 main_v102 (addi : (⟨S7, .i32⟩ : BufTy).Contents (Elt F) → (⟨S7, .i32⟩ : BufTy).Contents (Elt F) → (⟨S7, .i32⟩ : BufTy).Contents (Elt F)),
    StableHlo.nullary main_c_17 (constantI S_ 32 1#32),
    StableHlo.unary main_c_17 main_v103 (broadcastInDim S7 ![] bcast_S_S7 : (⟨S_, .i32⟩ : BufTy).Contents (Elt F) → (⟨S7, .i32⟩ : BufTy).Contents (Elt F)),
    StableHlo.binary main_v96 main_v103 main_v104 (addi : (⟨S7, .i32⟩ : BufTy).Contents (Elt F) → (⟨S7, .i32⟩ : BufTy).Contents (Elt F) → (⟨S7, .i32⟩ : BufTy).Contents (Elt F)),
    StableHlo.unary main_v104 main_v105 (negi : (⟨S7, .i32⟩ : BufTy).Contents (Elt F) → (⟨S7, .i32⟩ : BufTy).Contents (Elt F)),
    StableHlo.unary main_v94 main_v106 (broadcastInDim S7 ![] bcast_S_S7 : (⟨S_, .i32⟩ : BufTy).Contents (Elt F) → (⟨S7, .i32⟩ : BufTy).Contents (Elt F)),
    StableHlo.binary main_v105 main_v106 main_v107 (muli : (⟨S7, .i32⟩ : BufTy).Contents (Elt F) → (⟨S7, .i32⟩ : BufTy).Contents (Elt F) → (⟨S7, .i32⟩ : BufTy).Contents (Elt F)),
    StableHlo.nullary main_c_18 (constantI S_ 32 7#32) ]
/-- The buffers those operations write, in order. -/
abbrev ops5_W : List (Ref sig .tc) :=
  [main_cst_15, main_v83, main_v84, main_v85, main_v86, main_v87, main_v88, main_v89, main_v90, main_v91, main_v92, main_v93, main_v94, main_v95, main_v96, main_v97, main_v98, main_v99, main_c_16, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v100, main_v101, main_v102, main_c_17, main_v103, main_v104, main_v105, main_v106, main_v107, main_c_18]
/-- Each operation writes its own result buffer and nothing else. -/
theorem ops5_writes : (ops5 : List (HloOp τ sig (Elt F))).Forall fun op => op.writes ⊆ (ops5_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 215 to 262 of the host part, in order. -/
abbrev ops6 : List (HloOp τ sig (Elt F)) :=
  [ StableHlo.TRef.unary (.of main_c_18 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S7, .i32⟩) (broadcastInDim S7 ![] bcast_S_S7),
    StableHlo.TRef.binary (.of main_v107 : StableHlo.TRef sig ⟨S7, .i32⟩) (.of main_call9_v1 : StableHlo.TRef sig ⟨S7, .i32⟩) (.of main_call9_v2 : StableHlo.TRef sig ⟨S7, .i32⟩) Host.divsi,
    StableHlo.TRef.unary (.of main_v107 : StableHlo.TRef sig ⟨S7, .i32⟩) (.of main_call9_v3 : StableHlo.TRef sig ⟨S7, .i32⟩) signi,
    StableHlo.TRef.unary (.of main_call9_v0 : StableHlo.TRef sig ⟨S_, .i32⟩) (.of main_call9_v4 : StableHlo.TRef sig ⟨S_, .i32⟩) signi,
    StableHlo.TRef.unary (.of main_call9_v4 : StableHlo.TRef sig ⟨S_, .i32⟩) (.of main_call9_v5 : StableHlo.TRef sig ⟨S7, .i32⟩) (broadcastInDim S7 ![] bcast_S_S7),
    StableHlo.TRef.binary (.of main_call9_v3 : StableHlo.TRef sig ⟨S7, .i32⟩) (.of main_call9_v5 : StableHlo.TRef sig ⟨S7, .i32⟩) (.of main_call9_v6 : StableHlo.TRef sig ⟨S7, .i1⟩) (cmpi .ne),
    StableHlo.TRef.unary (.of main_call9_v0 : StableHlo.TRef sig ⟨S_, .i32⟩) (.of main_call9_v7 : StableHlo.TRef sig ⟨S7, .i32⟩) (broadcastInDim S7 ![] bcast_S_S7),
    StableHlo.TRef.binary (.of main_v107 : StableHlo.TRef sig ⟨S7, .i32⟩) (.of main_call9_v7 : StableHlo.TRef sig ⟨S7, .i32⟩) (.of main_call9_v8 : StableHlo.TRef sig ⟨S7, .i32⟩) Host.remsi,
    StableHlo.TRef.nullary (.of main_call9_c : StableHlo.TRef sig ⟨S_, .i32⟩) (constantI S_ 32 0#32),
    StableHlo.TRef.unary (.of main_call9_c : StableHlo.TRef sig ⟨S_, .i32⟩) (.of main_call9_v9 : StableHlo.TRef sig ⟨S7, .i32⟩) (broadcastInDim S7 ![] bcast_S_S7),
    StableHlo.TRef.binary (.of main_call9_v8 : StableHlo.TRef sig ⟨S7, .i32⟩) (.of main_call9_v9 : StableHlo.TRef sig ⟨S7, .i32⟩) (.of main_call9_v10 : StableHlo.TRef sig ⟨S7, .i1⟩) (cmpi .ne),
    StableHlo.TRef.binary (.of main_call9_v6 : StableHlo.TRef sig ⟨S7, .i1⟩) (.of main_call9_v10 : StableHlo.TRef sig ⟨S7, .i1⟩) (.of main_call9_v11 : StableHlo.TRef sig ⟨S7, .i1⟩) andi,
    StableHlo.TRef.nullary (.of main_call9_c_0 : StableHlo.TRef sig ⟨S_, .i32⟩) (constantI S_ 32 1#32),
    StableHlo.TRef.unary (.of main_call9_c_0 : StableHlo.TRef sig ⟨S_, .i32⟩) (.of main_call9_v12 : StableHlo.TRef sig ⟨S7, .i32⟩) (broadcastInDim S7 ![] bcast_S_S7),
    StableHlo.TRef.binary (.of main_call9_v2 : StableHlo.TRef sig ⟨S7, .i32⟩) (.of main_call9_v12 : StableHlo.TRef sig ⟨S7, .i32⟩) (.of main_call9_v13 : StableHlo.TRef sig ⟨S7, .i32⟩) subi,
    StableHlo.TRef.ternary (.of main_call9_v11 : StableHlo.TRef sig ⟨S7, .i1⟩) (.of main_call9_v13 : StableHlo.TRef sig ⟨S7, .i32⟩) (.of main_call9_v2 : StableHlo.TRef sig ⟨S7, .i32⟩) (.of main_v108 : StableHlo.TRef sig ⟨S7, .i32⟩) select,
    StableHlo.unary main_v87 main_v109 (broadcastInDim S7 ![] bcast_S_S7 : (⟨S_, .i32⟩ : BufTy).Contents (Elt F) → (⟨S7, .i32⟩ : BufTy).Contents (Elt F)),
    StableHlo.binary main_v109 main_v108 main_v110 (subi : (⟨S7, .i32⟩ : BufTy).Contents (Elt F) → (⟨S7, .i32⟩ : BufTy).Contents (Elt F) → (⟨S7, .i32⟩ : BufTy).Contents (Elt F)),
    StableHlo.unary main_v95 main_v111 (broadcastInDim S7 ![] bcast_S_S7 : (⟨S_, .i32⟩ : BufTy).Contents (Elt F) → (⟨S7, .i32⟩ : BufTy).Contents (Elt F)),
    StableHlo.binary main_v97 main_v111 main_v112 (muli : (⟨S7, .i32⟩ : BufTy).Contents (Elt F) → (⟨S7, .i32⟩ : BufTy).Contents (Elt F) → (⟨S7, .i32⟩ : BufTy).Contents (Elt F)),
    StableHlo.nullary main_c_19 (constantI S_ 32 7#32),
    StableHlo.TRef.unary (.of main_c_19 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S7, .i32⟩) (broadcastInDim S7 ![] bcast_S_S7),
    StableHlo.TRef.binary (.of main_v112 : StableHlo.TRef sig ⟨S7, .i32⟩) (.of main_call10_v1 : StableHlo.TRef sig ⟨S7, .i32⟩) (.of main_call10_v2 : StableHlo.TRef sig ⟨S7, .i32⟩) Host.divsi,
    StableHlo.TRef.unary (.of main_v112 : StableHlo.TRef sig ⟨S7, .i32⟩) (.of main_call10_v3 : StableHlo.TRef sig ⟨S7, .i32⟩) signi,
    StableHlo.TRef.unary (.of main_call10_v0 : StableHlo.TRef sig ⟨S_, .i32⟩) (.of main_call10_v4 : StableHlo.TRef sig ⟨S_, .i32⟩) signi,
    StableHlo.TRef.unary (.of main_call10_v4 : StableHlo.TRef sig ⟨S_, .i32⟩) (.of main_call10_v5 : StableHlo.TRef sig ⟨S7, .i32⟩) (broadcastInDim S7 ![] bcast_S_S7),
    StableHlo.TRef.binary (.of main_call10_v3 : StableHlo.TRef sig ⟨S7, .i32⟩) (.of main_call10_v5 : StableHlo.TRef sig ⟨S7, .i32⟩) (.of main_call10_v6 : StableHlo.TRef sig ⟨S7, .i1⟩) (cmpi .ne),
    StableHlo.TRef.unary (.of main_call10_v0 : StableHlo.TRef sig ⟨S_, .i32⟩) (.of main_call10_v7 : StableHlo.TRef sig ⟨S7, .i32⟩) (broadcastInDim S7 ![] bcast_S_S7),
    StableHlo.TRef.binary (.of main_v112 : StableHlo.TRef sig ⟨S7, .i32⟩) (.of main_call10_v7 : StableHlo.TRef sig ⟨S7, .i32⟩) (.of main_call10_v8 : StableHlo.TRef sig ⟨S7, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v9 : StableHlo.TRef sig ⟨S7, .i32⟩) (broadcastInDim S7 ![] bcast_S_S7),
    StableHlo.TRef.binary (.of main_call10_v8 : StableHlo.TRef sig ⟨S7, .i32⟩) (.of main_call10_v9 : StableHlo.TRef sig ⟨S7, .i32⟩) (.of main_call10_v10 : StableHlo.TRef sig ⟨S7, .i1⟩) (cmpi .ne),
    StableHlo.TRef.binary (.of main_call10_v6 : StableHlo.TRef sig ⟨S7, .i1⟩) (.of main_call10_v10 : StableHlo.TRef sig ⟨S7, .i1⟩) (.of main_call10_v11 : StableHlo.TRef sig ⟨S7, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v12 : StableHlo.TRef sig ⟨S7, .i32⟩) (broadcastInDim S7 ![] bcast_S_S7),
    StableHlo.TRef.binary (.of main_call10_v2 : StableHlo.TRef sig ⟨S7, .i32⟩) (.of main_call10_v12 : StableHlo.TRef sig ⟨S7, .i32⟩) (.of main_call10_v13 : StableHlo.TRef sig ⟨S7, .i32⟩) subi,
    StableHlo.TRef.ternary (.of main_call10_v11 : StableHlo.TRef sig ⟨S7, .i1⟩) (.of main_call10_v13 : StableHlo.TRef sig ⟨S7, .i32⟩) (.of main_call10_v2 : StableHlo.TRef sig ⟨S7, .i32⟩) (.of main_v113 : StableHlo.TRef sig ⟨S7, .i32⟩) select,
    StableHlo.unary main_v91 main_v114 (broadcastInDim S7 ![] bcast_S_S7 : (⟨S_, .i32⟩ : BufTy).Contents (Elt F) → (⟨S7, .i32⟩ : BufTy).Contents (Elt F)),
    StableHlo.binary main_v114 main_v113 main_v115 (addi : (⟨S7, .i32⟩ : BufTy).Contents (Elt F) → (⟨S7, .i32⟩ : BufTy).Contents (Elt F) → (⟨S7, .i32⟩ : BufTy).Contents (Elt F)),
    StableHlo.nullary main_c_20 (constantI S_ 32 1#32),
    StableHlo.unary main_c_20 main_v116 (broadcastInDim S7 ![] bcast_S_S7 : (⟨S_, .i32⟩ : BufTy).Contents (Elt F) → (⟨S7, .i32⟩ : BufTy).Contents (Elt F)),
    StableHlo.binary main_v97 main_v116 main_v117 (addi : (⟨S7, .i32⟩ : BufTy).Contents (Elt F) → (⟨S7, .i32⟩ : BufTy).Contents (Elt F) → (⟨S7, .i32⟩ : BufTy).Contents (Elt F)),
    StableHlo.unary main_v117 main_v118 (negi : (⟨S7, .i32⟩ : BufTy).Contents (Elt F) → (⟨S7, .i32⟩ : BufTy).Contents (Elt F)),
    StableHlo.unary main_v95 main_v119 (broadcastInDim S7 ![] bcast_S_S7 : (⟨S_, .i32⟩ : BufTy).Contents (Elt F) → (⟨S7, .i32⟩ : BufTy).Contents (Elt F)),
    StableHlo.binary main_v118 main_v119 main_v120 (muli : (⟨S7, .i32⟩ : BufTy).Contents (Elt F) → (⟨S7, .i32⟩ : BufTy).Contents (Elt F) → (⟨S7, .i32⟩ : BufTy).Contents (Elt F)),
    StableHlo.nullary main_c_21 (constantI S_ 32 7#32) ]
/-- The buffers those operations write, in order. -/
abbrev ops6_W : List (Ref sig .tc) :=
  [main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v108, main_v109, main_v110, main_v111, main_v112, main_c_19, main_call10_v0, main_call10_v1, main_call10_v2, main_call10_v3, main_call10_v4, main_call10_v5, main_call10_v6, main_call10_v7, main_call10_v8, main_call10_c, main_call10_v9, main_call10_v10, main_call10_v11, main_call10_c_0, main_call10_v12, main_call10_v13, main_v113, main_v114, main_v115, main_c_20, main_v116, main_v117, main_v118, main_v119, main_v120, main_c_21]
/-- Each operation writes its own result buffer and nothing else. -/
theorem ops6_writes : (ops6 : List (HloOp τ sig (Elt F))).Forall fun op => op.writes ⊆ (ops6_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 263 to 321 of the host part, in order. -/
abbrev ops7 : List (HloOp τ sig (Elt F)) :=
  [ StableHlo.TRef.unary (.of main_c_21 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S7, .i32⟩) (broadcastInDim S7 ![] bcast_S_S7),
    StableHlo.TRef.binary (.of main_v120 : StableHlo.TRef sig ⟨S7, .i32⟩) (.of main_call11_v1 : StableHlo.TRef sig ⟨S7, .i32⟩) (.of main_call11_v2 : StableHlo.TRef sig ⟨S7, .i32⟩) Host.divsi,
    StableHlo.TRef.unary (.of main_v120 : StableHlo.TRef sig ⟨S7, .i32⟩) (.of main_call11_v3 : StableHlo.TRef sig ⟨S7, .i32⟩) signi,
    StableHlo.TRef.unary (.of main_call11_v0 : StableHlo.TRef sig ⟨S_, .i32⟩) (.of main_call11_v4 : StableHlo.TRef sig ⟨S_, .i32⟩) signi,
    StableHlo.TRef.unary (.of main_call11_v4 : StableHlo.TRef sig ⟨S_, .i32⟩) (.of main_call11_v5 : StableHlo.TRef sig ⟨S7, .i32⟩) (broadcastInDim S7 ![] bcast_S_S7),
    StableHlo.TRef.binary (.of main_call11_v3 : StableHlo.TRef sig ⟨S7, .i32⟩) (.of main_call11_v5 : StableHlo.TRef sig ⟨S7, .i32⟩) (.of main_call11_v6 : StableHlo.TRef sig ⟨S7, .i1⟩) (cmpi .ne),
    StableHlo.TRef.unary (.of main_call11_v0 : StableHlo.TRef sig ⟨S_, .i32⟩) (.of main_call11_v7 : StableHlo.TRef sig ⟨S7, .i32⟩) (broadcastInDim S7 ![] bcast_S_S7),
    StableHlo.TRef.binary (.of main_v120 : StableHlo.TRef sig ⟨S7, .i32⟩) (.of main_call11_v7 : StableHlo.TRef sig ⟨S7, .i32⟩) (.of main_call11_v8 : StableHlo.TRef sig ⟨S7, .i32⟩) Host.remsi,
    StableHlo.TRef.nullary (.of main_call11_c : StableHlo.TRef sig ⟨S_, .i32⟩) (constantI S_ 32 0#32),
    StableHlo.TRef.unary (.of main_call11_c : StableHlo.TRef sig ⟨S_, .i32⟩) (.of main_call11_v9 : StableHlo.TRef sig ⟨S7, .i32⟩) (broadcastInDim S7 ![] bcast_S_S7),
    StableHlo.TRef.binary (.of main_call11_v8 : StableHlo.TRef sig ⟨S7, .i32⟩) (.of main_call11_v9 : StableHlo.TRef sig ⟨S7, .i32⟩) (.of main_call11_v10 : StableHlo.TRef sig ⟨S7, .i1⟩) (cmpi .ne),
    StableHlo.TRef.binary (.of main_call11_v6 : StableHlo.TRef sig ⟨S7, .i1⟩) (.of main_call11_v10 : StableHlo.TRef sig ⟨S7, .i1⟩) (.of main_call11_v11 : StableHlo.TRef sig ⟨S7, .i1⟩) andi,
    StableHlo.TRef.nullary (.of main_call11_c_0 : StableHlo.TRef sig ⟨S_, .i32⟩) (constantI S_ 32 1#32),
    StableHlo.TRef.unary (.of main_call11_c_0 : StableHlo.TRef sig ⟨S_, .i32⟩) (.of main_call11_v12 : StableHlo.TRef sig ⟨S7, .i32⟩) (broadcastInDim S7 ![] bcast_S_S7),
    StableHlo.TRef.binary (.of main_call11_v2 : StableHlo.TRef sig ⟨S7, .i32⟩) (.of main_call11_v12 : StableHlo.TRef sig ⟨S7, .i32⟩) (.of main_call11_v13 : StableHlo.TRef sig ⟨S7, .i32⟩) subi,
    StableHlo.TRef.ternary (.of main_call11_v11 : StableHlo.TRef sig ⟨S7, .i1⟩) (.of main_call11_v13 : StableHlo.TRef sig ⟨S7, .i32⟩) (.of main_call11_v2 : StableHlo.TRef sig ⟨S7, .i32⟩) (.of main_v121 : StableHlo.TRef sig ⟨S7, .i32⟩) select,
    StableHlo.unary main_v91 main_v122 (broadcastInDim S7 ![] bcast_S_S7 : (⟨S_, .i32⟩ : BufTy).Contents (Elt F) → (⟨S7, .i32⟩ : BufTy).Contents (Elt F)),
    StableHlo.binary main_v122 main_v121 main_v123 (subi : (⟨S7, .i32⟩ : BufTy).Contents (Elt F) → (⟨S7, .i32⟩ : BufTy).Contents (Elt F) → (⟨S7, .i32⟩ : BufTy).Contents (Elt F)),
    StableHlo.nullary main_v124 (iotaInDim S64 32 0),
    StableHlo.nullary main_v125 (iotaInDim S64 32 0),
    StableHlo.unary main_v124 main_v126 (broadcastInDim S1x64 ![1] bcast_S64_S1x64_1 : (⟨S64, .i32⟩ : BufTy).Contents (Elt F) → (⟨S1x64, .i32⟩ : BufTy).Contents (Elt F)),
    StableHlo.unary main_v102 main_v127 (broadcastInDim S7x1 ![0] bcast_S7_S7x1_0 : (⟨S7, .i32⟩ : BufTy).Contents (Elt F) → (⟨S7x1, .i32⟩ : BufTy).Contents (Elt F)),
    StableHlo.unary main_v126 main_v128 (broadcastInDim S7x64 ![0, 1] bcast_S1x64_S7x64_0_1 : (⟨S1x64, .i32⟩ : BufTy).Contents (Elt F) → (⟨S7x64, .i32⟩ : BufTy).Contents (Elt F)),
    StableHlo.unary main_v127 main_v129 (broadcastInDim S7x64 ![0, 1] bcast_S7x1_S7x64_0_1 : (⟨S7x1, .i32⟩ : BufTy).Contents (Elt F) → (⟨S7x64, .i32⟩ : BufTy).Contents (Elt F)),
    StableHlo.binary main_v128 main_v129 main_v130 (cmpi .sge : (⟨S7x64, .i32⟩ : BufTy).Contents (Elt F) → (⟨S7x64, .i32⟩ : BufTy).Contents (Elt F) → (⟨S7x64, .i1⟩ : BufTy).Contents (Elt F)),
    StableHlo.unary main_v124 main_v131 (broadcastInDim S1x64 ![1] bcast_S64_S1x64_1 : (⟨S64, .i32⟩ : BufTy).Contents (Elt F) → (⟨S1x64, .i32⟩ : BufTy).Contents (Elt F)),
    StableHlo.unary main_v110 main_v132 (broadcastInDim S7x1 ![0] bcast_S7_S7x1_0 : (⟨S7, .i32⟩ : BufTy).Contents (Elt F) → (⟨S7x1, .i32⟩ : BufTy).Contents (Elt F)),
    StableHlo.unary main_v131 main_v133 (broadcastInDim S7x64 ![0, 1] bcast_S1x64_S7x64_0_1 : (⟨S1x64, .i32⟩ : BufTy).Contents (Elt F) → (⟨S7x64, .i32⟩ : BufTy).Contents (Elt F)),
    StableHlo.unary main_v132 main_v134 (broadcastInDim S7x64 ![0, 1] bcast_S7x1_S7x64_0_1 : (⟨S7x1, .i32⟩ : BufTy).Contents (Elt F) → (⟨S7x64, .i32⟩ : BufTy).Contents (Elt F)),
    StableHlo.binary main_v133 main_v134 main_v135 (cmpi .slt : (⟨S7x64, .i32⟩ : BufTy).Contents (Elt F) → (⟨S7x64, .i32⟩ : BufTy).Contents (Elt F) → (⟨S7x64, .i1⟩ : BufTy).Contents (Elt F)),
    StableHlo.binary main_v130 main_v135 main_v136 (andi : (⟨S7x64, .i1⟩ : BufTy).Contents (Elt F) → (⟨S7x64, .i1⟩ : BufTy).Contents (Elt F) → (⟨S7x64, .i1⟩ : BufTy).Contents (Elt F)),
    StableHlo.unary main_v125 main_v137 (broadcastInDim S1x64 ![1] bcast_S64_S1x64_1 : (⟨S64, .i32⟩ : BufTy).Contents (Elt F) → (⟨S1x64, .i32⟩ : BufTy).Contents (Elt F)),
    StableHlo.unary main_v115 main_v138 (broadcastInDim S7x1 ![0] bcast_S7_S7x1_0 : (⟨S7, .i32⟩ : BufTy).Contents (Elt F) → (⟨S7x1, .i32⟩ : BufTy).Contents (Elt F)),
    StableHlo.unary main_v137 main_v139 (broadcastInDim S7x64 ![0, 1] bcast_S1x64_S7x64_0_1 : (⟨S1x64, .i32⟩ : BufTy).Contents (Elt F) → (⟨S7x64, .i32⟩ : BufTy).Contents (Elt F)),
    StableHlo.unary main_v138 main_v140 (broadcastInDim S7x64 ![0, 1] bcast_S7x1_S7x64_0_1 : (⟨S7x1, .i32⟩ : BufTy).Contents (Elt F) → (⟨S7x64, .i32⟩ : BufTy).Contents (Elt F)),
    StableHlo.binary main_v139 main_v140 main_v141 (cmpi .sge : (⟨S7x64, .i32⟩ : BufTy).Contents (Elt F) → (⟨S7x64, .i32⟩ : BufTy).Contents (Elt F) → (⟨S7x64, .i1⟩ : BufTy).Contents (Elt F)),
    StableHlo.unary main_v125 main_v142 (broadcastInDim S1x64 ![1] bcast_S64_S1x64_1 : (⟨S64, .i32⟩ : BufTy).Contents (Elt F) → (⟨S1x64, .i32⟩ : BufTy).Contents (Elt F)),
    StableHlo.unary main_v123 main_v143 (broadcastInDim S7x1 ![0] bcast_S7_S7x1_0 : (⟨S7, .i32⟩ : BufTy).Contents (Elt F) → (⟨S7x1, .i32⟩ : BufTy).Contents (Elt F)),
    StableHlo.unary main_v142 main_v144 (broadcastInDim S7x64 ![0, 1] bcast_S1x64_S7x64_0_1 : (⟨S1x64, .i32⟩ : BufTy).Contents (Elt F) → (⟨S7x64, .i32⟩ : BufTy).Contents (Elt F)),
    StableHlo.unary main_v143 main_v145 (broadcastInDim S7x64 ![0, 1] bcast_S7x1_S7x64_0_1 : (⟨S7x1, .i32⟩ : BufTy).Contents (Elt F) → (⟨S7x64, .i32⟩ : BufTy).Contents (Elt F)),
    StableHlo.binary main_v144 main_v145 main_v146 (cmpi .slt : (⟨S7x64, .i32⟩ : BufTy).Contents (Elt F) → (⟨S7x64, .i32⟩ : BufTy).Contents (Elt F) → (⟨S7x64, .i1⟩ : BufTy).Contents (Elt F)),
    StableHlo.binary main_v141 main_v146 main_v147 (andi : (⟨S7x64, .i1⟩ : BufTy).Contents (Elt F) → (⟨S7x64, .i1⟩ : BufTy).Contents (Elt F) → (⟨S7x64, .i1⟩ : BufTy).Contents (Elt F)),
    StableHlo.unary main_v136 main_v148 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v149 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_22 (constant S_ .f32 0xFF800000#32),
    StableHlo.TRef.unary (.of main_v148 : StableHlo.TRef sig ⟨S7x1x64x1, .i1⟩) (.of main_call12_v0 : StableHlo.TRef sig ⟨S7x512x64x64, .i1⟩) (broadcastInDim S7x512x64x64 ![0, 1, 2, 3] bcast_S7x1x64x1_S7x512x64x64_0_1_2_3),
    StableHlo.TRef.unary (.of main_v149 : StableHlo.TRef sig ⟨S1x512x64x64, .f32⟩) (.of main_call12_v1 : StableHlo.TRef sig ⟨S7x512x64x64, .f32⟩) (broadcastInDim S7x512x64x64 ![0, 1, 2, 3] bcast_S1x512x64x64_S7x512x64x64_0_1_2_3),
    StableHlo.TRef.unary (.of main_cst_22 : StableHlo.TRef sig ⟨S_, .f32⟩) (.of main_call12_v2 : StableHlo.TRef sig ⟨S7x512x64x64, .f32⟩) (broadcastInDim S7x512x64x64 ![] bcast_S_S7x512x64x64),
    StableHlo.TRef.ternary (.of main_call12_v0 : StableHlo.TRef sig ⟨S7x512x64x64, .i1⟩) (.of main_call12_v1 : StableHlo.TRef sig ⟨S7x512x64x64, .f32⟩) (.of main_call12_v2 : StableHlo.TRef sig ⟨S7x512x64x64, .f32⟩) (.of main_v150 : StableHlo.TRef sig ⟨S7x512x64x64, .f32⟩) select,
    StableHlo.nullary main_cst_23 (constant S_ .f32 0xFF800000#32),
    StableHlo.binary main_v150 main_cst_23 main_v151 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v147 main_v152 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v151 main_v153 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_24 (constant S_ .f32 0xFF800000#32),
    StableHlo.TRef.unary (.of main_v152 : StableHlo.TRef sig ⟨S1x1x7x64, .i1⟩) (.of main_call13_v0 : StableHlo.TRef sig ⟨S7x512x7x64, .i1⟩) (broadcastInDim S7x512x7x64 ![0, 1, 2, 3] bcast_S1x1x7x64_S7x512x7x64_0_1_2_3),
    StableHlo.TRef.unary (.of main_v153 : StableHlo.TRef sig ⟨S7x512x1x64, .f32⟩) (.of main_call13_v1 : StableHlo.TRef sig ⟨S7x512x7x64, .f32⟩) (broadcastInDim S7x512x7x64 ![0, 1, 2, 3] bcast_S7x512x1x64_S7x512x7x64_0_1_2_3),
    StableHlo.TRef.unary (.of main_cst_24 : StableHlo.TRef sig ⟨S_, .f32⟩) (.of main_call13_v2 : StableHlo.TRef sig ⟨S7x512x7x64, .f32⟩) (broadcastInDim S7x512x7x64 ![] bcast_S_S7x512x7x64),
    StableHlo.TRef.ternary (.of main_call13_v0 : StableHlo.TRef sig ⟨S7x512x7x64, .i1⟩) (.of main_call13_v1 : StableHlo.TRef sig ⟨S7x512x7x64, .f32⟩) (.of main_call13_v2 : StableHlo.TRef sig ⟨S7x512x7x64, .f32⟩) (.of main_v154 : StableHlo.TRef sig ⟨S7x512x7x64, .f32⟩) select ]
/-- The buffers those operations write, in order. -/
abbrev ops7_W : List (Ref sig .tc) :=
  [main_call11_v0, main_call11_v1, main_call11_v2, main_call11_v3, main_call11_v4, main_call11_v5, main_call11_v6, main_call11_v7, main_call11_v8, main_call11_c, main_call11_v9, main_call11_v10, main_call11_v11, main_call11_c_0, main_call11_v12, main_call11_v13, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_cst_22, main_call12_v0, main_call12_v1, main_call12_v2, main_v150, main_cst_23, main_v151, main_v152, main_v153, main_cst_24, main_call13_v0, main_call13_v1, main_call13_v2, main_v154]
/-- Each operation writes its own result buffer and nothing else. -/
theorem ops7_writes : (ops7 : List (HloOp τ sig (Elt F))).Forall fun op => op.writes ⊆ (ops7_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part0 : List (HloOp τ sig (Elt F)) :=
  ops0 ++ ops1 ++ ops2 ++ ops3 ++ ops4 ++ ops5 ++ ops6 ++ ops7
/-- The generated stretches 0 to 27, in order, are this part: the same operations, cut elsewhere. -/
theorem part0_is : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27] : List (List (HloOp τ sig (Elt F)))).flatten = part0 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 0 to 12 of the host part, in order. -/
abbrev ops0 : List (HloOp τ sig (Elt F)) :=
  [ StableHlo.reshape main_arg0 main_v0 rfl shapeCasts_S1x512x64x64_S512x64x64,
    StableHlo.unary main_arg3 main_v1 ((extractStridedSlice S1 ![0] · slices_S2_S1_0) : (⟨S2, .f32⟩ : BufTy).Contents (Elt F) → (⟨S1, .f32⟩ : BufTy).Contents (Elt F)),
    StableHlo.reshape main_v1 main_v2 rfl shapeCasts_S1_S_,
    StableHlo.unary main_arg3 main_v3 ((extractStridedSlice S1 ![1] · slices_S2_S1_1) : (⟨S2, .f32⟩ : BufTy).Contents (Elt F) → (⟨S1, .f32⟩ : BufTy).Contents (Elt F)),
    StableHlo.reshape main_v3 main_v4 rfl shapeCasts_S1_S_,
    StableHlo.unary main_arg3 main_v5 ((extractStridedSlice S1 ![0] · slices_S2_S1_0) : (⟨S2, .f32⟩ : BufTy).Contents (Elt F) → (⟨S1, .f32⟩ : BufTy).Contents (Elt F)),
    StableHlo.reshape main_v5 main_v6 rfl shapeCasts_S1_S_,
    StableHlo.unary main_arg3 main_v7 ((extractStridedSlice S1 ![1] · slices_S2_S1_1) : (⟨S2, .f32⟩ : BufTy).Contents (Elt F) → (⟨S1, .f32⟩ : BufTy).Contents (Elt F)),
    StableHlo.reshape main_v7 main_v8 rfl shapeCasts_S1_S_,
    StableHlo.unary main_v2 main_v9 (broadcastInDim S1 ![] bcast_S_S1 : (⟨S_, .f32⟩ : BufTy).Contents (Elt F) → (⟨S1, .f32⟩ : BufTy).Contents (Elt F)),
    StableHlo.unary main_v4 main_v10 (broadcastInDim S1 ![] bcast_S_S1 : (⟨S_, .f32⟩ : BufTy).Contents (Elt F) → (⟨S1, .f32⟩ : BufTy).Contents (Elt F)),
    StableHlo.unary main_v6 main_v11 (broadcastInDim S1 ![] bcast_S_S1 : (⟨S_, .f32⟩ : BufTy).Contents (Elt F) → (⟨S1, .f32⟩ : BufTy).Contents (Elt F)),
    StableHlo.unary main_v8 main_v12 (broadcastInDim S1 ![] bcast_S_S1 : (⟨S_, .f32⟩ : BufTy).Contents (Elt F) → (⟨S1, .f32⟩ : BufTy).Contents (Elt F)) ]
/-- The buffers those operations write, in order. -/
abbrev ops0_W : List (Ref sig .tc) :=
  [main_v0, main_v1, main_v2, main_v3, main_v4, main_v5, main_v6, main_v7, main_v8, main_v9, main_v10, main_v11, main_v12]
/-- Each operation writes its own result buffer and nothing else. -/
theorem ops0_writes : (ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_⟩ <;> exact Cert.Agree.wrote (by decide)
/-- Operations 13 to 16 of the host part, in order. -/
abbrev ops1 : List (HloOp τ sig (Elt F)) :=
  [ StableHlo.nary ![main_v9, main_v10, main_v11, main_v12] main_v13 (fun u => concatenate S4 0 [⟨S1, u 0⟩, ⟨S1, u 1⟩, ⟨S1, u 2⟩, ⟨S1, u 3⟩] concatenates_S1_S1_S1_S1_S4_d0),
    StableHlo.unary main_v13 main_v14 (broadcastInDim S1x4 ![1] bcast_S4_S1x4_1 : (⟨S4, .f32⟩ : BufTy).Contents (Elt F) → (⟨S1x4, .f32⟩ : BufTy).Contents (Elt F)),
    StableHlo.unary main_v14 main_v15 (broadcastInDim S3x4 ![0, 1] bcast_S1x4_S3x4_0_1 : (⟨S1x4, .f32⟩ : BufTy).Contents (Elt F) → (⟨S3x4, .f32⟩ : BufTy).Contents (Elt F)),
    StableHlo.binary main_arg1 main_v15 main_v16 (mulf : (⟨S3x4, .f32⟩ : BufTy).Contents (Elt F) → (⟨S3x4, .f32⟩ : BufTy).Contents (Elt F) → (⟨S3x4, .f32⟩ : BufTy).Contents (Elt F)) ]
/-- The buffers those operations write, in order. -/
abbrev ops1_W : List (Ref sig .tc) :=
  [main_v13, main_v14, main_v15, main_v16]
/-- Each operation writes its own result buffer and nothing else. -/
theorem ops1_writes : (ops1 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_⟩ <;> exact Cert.Agree.wrote (by decide)
/-- Operations 17 to 74 of the host part, in order. -/
abbrev ops2 : List (HloOp τ sig (Elt F)) :=
  [ StableHlo.TRef.unary (.of main_v16 : StableHlo.TRef sig ⟨S3x4, .f32⟩) (.of main_v17 : StableHlo.TRef sig ⟨S3x4, .f32⟩) Host.roundeven,
    StableHlo.unary main_v17 main_v18 (fptosi 32 : (⟨S3x4, .f32⟩ : BufTy).Contents (Elt F) → (⟨S3x4, .i32⟩ : BufTy).Contents (Elt F)),
    StableHlo.unary main_v13 main_v19 (broadcastInDim S1x4 ![1] bcast_S4_S1x4_1 : (⟨S4, .f32⟩ : BufTy).Contents (Elt F) → (⟨S1x4, .f32⟩ : BufTy).Contents (Elt F)),
    StableHlo.unary main_v19 main_v20 (broadcastInDim S4x4 ![0, 1] bcast_S1x4_S4x4_0_1 : (⟨S1x4, .f32⟩ : BufTy).Contents (Elt F) → (⟨S4x4, .f32⟩ : BufTy).Contents (Elt F)),
    StableHlo.binary main_arg2 main_v20 main_v21 (mulf : (⟨S4x4, .f32⟩ : BufTy).Contents (Elt F) → (⟨S4x4, .f32⟩ : BufTy).Contents (Elt F) → (⟨S4x4, .f32⟩ : BufTy).Contents (Elt F)),
    StableHlo.TRef.unary (.of main_v21 : StableHlo.TRef sig ⟨S4x4, .f32⟩) (.of main_v22 : StableHlo.TRef sig ⟨S4x4, .f32⟩) Host.roundeven,
    StableHlo.unary main_v22 main_v23 (fptosi 32 : (⟨S4x4, .f32⟩ : BufTy).Contents (Elt F) → (⟨S4x4, .i32⟩ : BufTy).Contents (Elt F)),
    StableHlo.nullary main_v24 (iotaInDim S7 32 0),
    StableHlo.nullary main_v25 (iotaInDim S7 32 0),
    StableHlo.nullary main_c (constantI S_ 32 64#32),
    StableHlo.unary main_c main_v26 (broadcastInDim S7 ![] bcast_S_S7 : (⟨S_, .i32⟩ : BufTy).Contents (Elt F) → (⟨S7, .i32⟩ : BufTy).Contents (Elt F)),
    StableHlo.binary main_v24 main_v26 main_v27 (muli : (⟨S7, .i32⟩ : BufTy).Contents (Elt F) → (⟨S7, .i32⟩ : BufTy).Contents (Elt F) → (⟨S7, .i32⟩ : BufTy).Contents (Elt F)),
    StableHlo.nullary main_c_0 (constantI S_ 32 7#32),
    StableHlo.TRef.unary (.of main_c_0 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S7, .i32⟩) (broadcastInDim S7 ![] bcast_S_S7),
    StableHlo.TRef.binary (.of main_v27 : StableHlo.TRef sig ⟨S7, .i32⟩) (.of main_call2_v1 : StableHlo.TRef sig ⟨S7, .i32⟩) (.of main_call2_v2 : StableHlo.TRef sig ⟨S7, .i32⟩) Host.divsi,
    StableHlo.TRef.unary (.of main_v27 : StableHlo.TRef sig ⟨S7, .i32⟩) (.of main_call2_v3 : StableHlo.TRef sig ⟨S7, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S7, .i32⟩) (broadcastInDim S7 ![] bcast_S_S7),
    StableHlo.TRef.binary (.of main_call2_v3 : StableHlo.TRef sig ⟨S7, .i32⟩) (.of main_call2_v5 : StableHlo.TRef sig ⟨S7, .i32⟩) (.of main_call2_v6 : StableHlo.TRef sig ⟨S7, .i1⟩) (cmpi .ne),
    StableHlo.TRef.unary (.of main_call2_v0 : StableHlo.TRef sig ⟨S_, .i32⟩) (.of main_call2_v7 : StableHlo.TRef sig ⟨S7, .i32⟩) (broadcastInDim S7 ![] bcast_S_S7),
    StableHlo.TRef.binary (.of main_v27 : StableHlo.TRef sig ⟨S7, .i32⟩) (.of main_call2_v7 : StableHlo.TRef sig ⟨S7, .i32⟩) (.of main_call2_v8 : StableHlo.TRef sig ⟨S7, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S7, .i32⟩) (broadcastInDim S7 ![] bcast_S_S7),
    StableHlo.TRef.binary (.of main_call2_v8 : StableHlo.TRef sig ⟨S7, .i32⟩) (.of main_call2_v9 : StableHlo.TRef sig ⟨S7, .i32⟩) (.of main_call2_v10 : StableHlo.TRef sig ⟨S7, .i1⟩) (cmpi .ne),
    StableHlo.TRef.binary (.of main_call2_v6 : StableHlo.TRef sig ⟨S7, .i1⟩) (.of main_call2_v10 : StableHlo.TRef sig ⟨S7, .i1⟩) (.of main_call2_v11 : StableHlo.TRef sig ⟨S7, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S7, .i32⟩) (broadcastInDim S7 ![] bcast_S_S7),
    StableHlo.TRef.binary (.of main_call2_v2 : StableHlo.TRef sig ⟨S7, .i32⟩) (.of main_call2_v12 : StableHlo.TRef sig ⟨S7, .i32⟩) (.of main_call2_v13 : StableHlo.TRef sig ⟨S7, .i32⟩) subi,
    StableHlo.TRef.ternary (.of main_call2_v11 : StableHlo.TRef sig ⟨S7, .i1⟩) (.of main_call2_v13 : StableHlo.TRef sig ⟨S7, .i32⟩) (.of main_call2_v2 : StableHlo.TRef sig ⟨S7, .i32⟩) (.of main_v28 : StableHlo.TRef sig ⟨S7, .i32⟩) select,
    StableHlo.nullary main_c_1 (constantI S_ 32 0#32),
    StableHlo.unary main_c_1 main_v29 (broadcastInDim S7 ![] bcast_S_S7 : (⟨S_, .i32⟩ : BufTy).Contents (Elt F) → (⟨S7, .i32⟩ : BufTy).Contents (Elt F)),
    StableHlo.binary main_v29 main_v28 main_v30 (addi : (⟨S7, .i32⟩ : BufTy).Contents (Elt F) → (⟨S7, .i32⟩ : BufTy).Contents (Elt F) → (⟨S7, .i32⟩ : BufTy).Contents (Elt F)),
    StableHlo.nullary main_c_2 (constantI S_ 32 1#32),
    StableHlo.unary main_c_2 main_v31 (broadcastInDim S7 ![] bcast_S_S7 : (⟨S_, .i32⟩ : BufTy).Contents (Elt F) → (⟨S7, .i32⟩ : BufTy).Contents (Elt F)),
    StableHlo.binary main_v24 main_v31 main_v32 (addi : (⟨S7, .i32⟩ : BufTy).Contents (Elt F) → (⟨S7, .i32⟩ : BufTy).Contents (Elt F) → (⟨S7, .i32⟩ : BufTy).Contents (Elt F)),
    StableHlo.unary main_v32 main_v33 (negi : (⟨S7, .i32⟩ : BufTy).Contents (Elt F) → (⟨S7, .i32⟩ : BufTy).Contents (Elt F)),
    StableHlo.nullary main_c_3 (constantI S_ 32 64#32),
    StableHlo.unary main_c_3 main_v34 (broadcastInDim S7 ![] bcast_S_S7 : (⟨S_, .i32⟩ : BufTy).Contents (Elt F) → (⟨S7, .i32⟩ : BufTy).Contents (Elt F)),
    StableHlo.binary main_v33 main_v34 main_v35 (muli : (⟨S7, .i32⟩ : BufTy).Contents (Elt F) → (⟨S7, .i32⟩ : BufTy).Contents (Elt F) → (⟨S7, .i32⟩ : BufTy).Contents (Elt F)),
    StableHlo.nullary main_c_4 (constantI S_ 32 7#32),
    StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S7, .i32⟩) (broadcastInDim S7 ![] bcast_S_S7),
    StableHlo.TRef.binary (.of main_v35 : StableHlo.TRef sig ⟨S7, .i32⟩) (.of main_call3_v1 : StableHlo.TRef sig ⟨S7, .i32⟩) (.of main_call3_v2 : StableHlo.TRef sig ⟨S7, .i32⟩) Host.divsi,
    StableHlo.TRef.unary (.of main_v35 : StableHlo.TRef sig ⟨S7, .i32⟩) (.of main_call3_v3 : StableHlo.TRef sig ⟨S7, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S7, .i32⟩) (broadcastInDim S7 ![] bcast_S_S7),
    StableHlo.TRef.binary (.of main_call3_v3 : StableHlo.TRef sig ⟨S7, .i32⟩) (.of main_call3_v5 : StableHlo.TRef sig ⟨S7, .i32⟩) (.of main_call3_v6 : StableHlo.TRef sig ⟨S7, .i1⟩) (cmpi .ne),
    StableHlo.TRef.unary (.of main_call3_v0 : StableHlo.TRef sig ⟨S_, .i32⟩) (.of main_call3_v7 : StableHlo.TRef sig ⟨S7, .i32⟩) (broadcastInDim S7 ![] bcast_S_S7),
    StableHlo.TRef.binary (.of main_v35 : StableHlo.TRef sig ⟨S7, .i32⟩) (.of main_call3_v7 : StableHlo.TRef sig ⟨S7, .i32⟩) (.of main_call3_v8 : StableHlo.TRef sig ⟨S7, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S7, .i32⟩) (broadcastInDim S7 ![] bcast_S_S7),
    StableHlo.TRef.binary (.of main_call3_v8 : StableHlo.TRef sig ⟨S7, .i32⟩) (.of main_call3_v9 : StableHlo.TRef sig ⟨S7, .i32⟩) (.of main_call3_v10 : StableHlo.TRef sig ⟨S7, .i1⟩) (cmpi .ne),
    StableHlo.TRef.binary (.of main_call3_v6 : StableHlo.TRef sig ⟨S7, .i1⟩) (.of main_call3_v10 : StableHlo.TRef sig ⟨S7, .i1⟩) (.of main_call3_v11 : StableHlo.TRef sig ⟨S7, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S7, .i32⟩) (broadcastInDim S7 ![] bcast_S_S7),
    StableHlo.TRef.binary (.of main_call3_v2 : StableHlo.TRef sig ⟨S7, .i32⟩) (.of main_call3_v12 : StableHlo.TRef sig ⟨S7, .i32⟩) (.of main_call3_v13 : StableHlo.TRef sig ⟨S7, .i32⟩) subi,
    StableHlo.TRef.ternary (.of main_call3_v11 : StableHlo.TRef sig ⟨S7, .i1⟩) (.of main_call3_v13 : StableHlo.TRef sig ⟨S7, .i32⟩) (.of main_call3_v2 : StableHlo.TRef sig ⟨S7, .i32⟩) (.of main_v36 : StableHlo.TRef sig ⟨S7, .i32⟩) select ]
/-- The buffers those operations write, in order. -/
abbrev ops2_W : List (Ref sig .tc) :=
  [main_v17, main_v18, main_v19, main_v20, main_v21, main_v22, main_v23, main_v24, main_v25, main_c, main_v26, main_v27, main_c_0, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v28, main_c_1, main_v29, main_v30, main_c_2, main_v31, main_v32, main_v33, main_c_3, main_v34, main_v35, main_c_4, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v36]
/-- Each operation writes its own result buffer and nothing else. -/
theorem ops2_writes : (ops2 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 75 to 126 of the host part, in order. -/
abbrev ops3 : List (HloOp τ sig (Elt F)) :=
  [ StableHlo.nullary main_c_5 (constantI S_ 32 0#32),
    StableHlo.unary main_c_5 main_v37 (broadcastInDim S7 ![] bcast_S_S7 : (⟨S_, .i32⟩ : BufTy).Contents (Elt F) → (⟨S7, .i32⟩ : BufTy).Contents (Elt F)),
    StableHlo.binary main_v37 main_v36 main_v38 (subi : (⟨S7, .i32⟩ : BufTy).Contents (Elt F) → (⟨S7, .i32⟩ : BufTy).Contents (Elt F) → (⟨S7, .i32⟩ : BufTy).Contents (Elt F)),
    StableHlo.nullary main_c_6 (constantI S_ 32 64#32),
    StableHlo.unary main_c_6 main_v39 (broadcastInDim S7 ![] bcast_S_S7 : (⟨S_, .i32⟩ : BufTy).Contents (Elt F) → (⟨S7, .i32⟩ : BufTy).Contents (Elt F)),
    StableHlo.binary main_v25 main_v39 main_v40 (muli : (⟨S7, .i32⟩ : BufTy).Contents (Elt F) → (⟨S7, .i32⟩ : BufTy).Contents (Elt F) → (⟨S7, .i32⟩ : BufTy).Contents (Elt F)),
    StableHlo.nullary main_c_7 (constantI S_ 32 7#32),
    StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S7, .i32⟩) (broadcastInDim S7 ![] bcast_S_S7),
    StableHlo.TRef.binary (.of main_v40 : StableHlo.TRef sig ⟨S7, .i32⟩) (.of main_call4_v1 : StableHlo.TRef sig ⟨S7, .i32⟩) (.of main_call4_v2 : StableHlo.TRef sig ⟨S7, .i32⟩) Host.divsi,
    StableHlo.TRef.unary (.of main_v40 : StableHlo.TRef sig ⟨S7, .i32⟩) (.of main_call4_v3 : StableHlo.TRef sig ⟨S7, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S7, .i32⟩) (broadcastInDim S7 ![] bcast_S_S7),
    StableHlo.TRef.binary (.of main_call4_v3 : StableHlo.TRef sig ⟨S7, .i32⟩) (.of main_call4_v5 : StableHlo.TRef sig ⟨S7, .i32⟩) (.of main_call4_v6 : StableHlo.TRef sig ⟨S7, .i1⟩) (cmpi .ne),
    StableHlo.TRef.unary (.of main_call4_v0 : StableHlo.TRef sig ⟨S_, .i32⟩) (.of main_call4_v7 : StableHlo.TRef sig ⟨S7, .i32⟩) (broadcastInDim S7 ![] bcast_S_S7),
    StableHlo.TRef.binary (.of main_v40 : StableHlo.TRef sig ⟨S7, .i32⟩) (.of main_call4_v7 : StableHlo.TRef sig ⟨S7, .i32⟩) (.of main_call4_v8 : StableHlo.TRef sig ⟨S7, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S7, .i32⟩) (broadcastInDim S7 ![] bcast_S_S7),
    StableHlo.TRef.binary (.of main_call4_v8 : StableHlo.TRef sig ⟨S7, .i32⟩) (.of main_call4_v9 : StableHlo.TRef sig ⟨S7, .i32⟩) (.of main_call4_v10 : StableHlo.TRef sig ⟨S7, .i1⟩) (cmpi .ne),
    StableHlo.TRef.binary (.of main_call4_v6 : StableHlo.TRef sig ⟨S7, .i1⟩) (.of main_call4_v10 : StableHlo.TRef sig ⟨S7, .i1⟩) (.of main_call4_v11 : StableHlo.TRef sig ⟨S7, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S7, .i32⟩) (broadcastInDim S7 ![] bcast_S_S7),
    StableHlo.TRef.binary (.of main_call4_v2 : StableHlo.TRef sig ⟨S7, .i32⟩) (.of main_call4_v12 : StableHlo.TRef sig ⟨S7, .i32⟩) (.of main_call4_v13 : StableHlo.TRef sig ⟨S7, .i32⟩) subi,
    StableHlo.TRef.ternary (.of main_call4_v11 : StableHlo.TRef sig ⟨S7, .i1⟩) (.of main_call4_v13 : StableHlo.TRef sig ⟨S7, .i32⟩) (.of main_call4_v2 : StableHlo.TRef sig ⟨S7, .i32⟩) (.of main_v41 : StableHlo.TRef sig ⟨S7, .i32⟩) select,
    StableHlo.nullary main_c_8 (constantI S_ 32 0#32),
    StableHlo.unary main_c_8 main_v42 (broadcastInDim S7 ![] bcast_S_S7 : (⟨S_, .i32⟩ : BufTy).Contents (Elt F) → (⟨S7, .i32⟩ : BufTy).Contents (Elt F)),
    StableHlo.binary main_v42 main_v41 main_v43 (addi : (⟨S7, .i32⟩ : BufTy).Contents (Elt F) → (⟨S7, .i32⟩ : BufTy).Contents (Elt F) → (⟨S7, .i32⟩ : BufTy).Contents (Elt F)),
    StableHlo.nullary main_c_9 (constantI S_ 32 1#32),
    StableHlo.unary main_c_9 main_v44 (broadcastInDim S7 ![] bcast_S_S7 : (⟨S_, .i32⟩ : BufTy).Contents (Elt F) → (⟨S7, .i32⟩ : BufTy).Contents (Elt F)),
    StableHlo.binary main_v25 main_v44 main_v45 (addi : (⟨S7, .i32⟩ : BufTy).Contents (Elt F) → (⟨S7, .i32⟩ : BufTy).Contents (Elt F) → (⟨S7, .i32⟩ : BufTy).Contents (Elt F)),
    StableHlo.unary main_v45 main_v46 (negi : (⟨S7, .i32⟩ : BufTy).Contents (Elt F) → (⟨S7, .i32⟩ : BufTy).Contents (Elt F)),
    StableHlo.nullary main_c_10 (constantI S_ 32 64#32),
    StableHlo.unary main_c_10 main_v47 (broadcastInDim S7 ![] bcast_S_S7 : (⟨S_, .i32⟩ : BufTy).Contents (Elt F) → (⟨S7, .i32⟩ : BufTy).Contents (Elt F)),
    StableHlo.binary main_v46 main_v47 main_v48 (muli : (⟨S7, .i32⟩ : BufTy).Contents (Elt F) → (⟨S7, .i32⟩ : BufTy).Contents (Elt F) → (⟨S7, .i32⟩ : BufTy).Contents (Elt F)),
    StableHlo.nullary main_c_11 (constantI S_ 32 7#32),
    StableHlo.TRef.unary (.of main_c_11 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S7, .i32⟩) (broadcastInDim S7 ![] bcast_S_S7),
    StableHlo.TRef.binary (.of main_v48 : StableHlo.TRef sig ⟨S7, .i32⟩) (.of main_call5_v1 : StableHlo.TRef sig ⟨S7, .i32⟩) (.of main_call5_v2 : StableHlo.TRef sig ⟨S7, .i32⟩) Host.divsi,
    StableHlo.TRef.unary (.of main_v48 : StableHlo.TRef sig ⟨S7, .i32⟩) (.of main_call5_v3 : StableHlo.TRef sig ⟨S7, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S7, .i32⟩) (broadcastInDim S7 ![] bcast_S_S7),
    StableHlo.TRef.binary (.of main_call5_v3 : StableHlo.TRef sig ⟨S7, .i32⟩) (.of main_call5_v5 : StableHlo.TRef sig ⟨S7, .i32⟩) (.of main_call5_v6 : StableHlo.TRef sig ⟨S7, .i1⟩) (cmpi .ne),
    StableHlo.TRef.unary (.of main_call5_v0 : StableHlo.TRef sig ⟨S_, .i32⟩) (.of main_call5_v7 : StableHlo.TRef sig ⟨S7, .i32⟩) (broadcastInDim S7 ![] bcast_S_S7),
    StableHlo.TRef.binary (.of main_v48 : StableHlo.TRef sig ⟨S7, .i32⟩) (.of main_call5_v7 : StableHlo.TRef sig ⟨S7, .i32⟩) (.of main_call5_v8 : StableHlo.TRef sig ⟨S7, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S7, .i32⟩) (broadcastInDim S7 ![] bcast_S_S7),
    StableHlo.TRef.binary (.of main_call5_v8 : StableHlo.TRef sig ⟨S7, .i32⟩) (.of main_call5_v9 : StableHlo.TRef sig ⟨S7, .i32⟩) (.of main_call5_v10 : StableHlo.TRef sig ⟨S7, .i1⟩) (cmpi .ne),
    StableHlo.TRef.binary (.of main_call5_v6 : StableHlo.TRef sig ⟨S7, .i1⟩) (.of main_call5_v10 : StableHlo.TRef sig ⟨S7, .i1⟩) (.of main_call5_v11 : StableHlo.TRef sig ⟨S7, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S7, .i32⟩) (broadcastInDim S7 ![] bcast_S_S7),
    StableHlo.TRef.binary (.of main_call5_v2 : StableHlo.TRef sig ⟨S7, .i32⟩) (.of main_call5_v12 : StableHlo.TRef sig ⟨S7, .i32⟩) (.of main_call5_v13 : StableHlo.TRef sig ⟨S7, .i32⟩) subi,
    StableHlo.TRef.ternary (.of main_call5_v11 : StableHlo.TRef sig ⟨S7, .i1⟩) (.of main_call5_v13 : StableHlo.TRef sig ⟨S7, .i32⟩) (.of main_call5_v2 : StableHlo.TRef sig ⟨S7, .i32⟩) (.of main_v49 : StableHlo.TRef sig ⟨S7, .i32⟩) select ]
/-- The buffers those operations write, in order. -/
abbrev ops3_W : List (Ref sig .tc) :=
  [main_c_5, main_v37, main_v38, main_c_6, main_v39, main_v40, main_c_7, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v41, main_c_8, main_v42, main_v43, main_c_9, main_v44, main_v45, main_v46, main_c_10, main_v47, main_v48, main_c_11, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v49]
/-- Each operation writes its own result buffer and nothing else. -/
theorem ops3_writes : (ops3 : List (HloOp τ sig (Elt F))).Forall fun op => op.writes ⊆ (ops3_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 127 to 169 of the host part, in order. -/
abbrev ops4 : List (HloOp τ sig (Elt F)) :=
  [ StableHlo.nullary main_c_12 (constantI S_ 32 0#32),
    StableHlo.unary main_c_12 main_v50 (broadcastInDim S7 ![] bcast_S_S7 : (⟨S_, .i32⟩ : BufTy).Contents (Elt F) → (⟨S7, .i32⟩ : BufTy).Contents (Elt F)),
    StableHlo.binary main_v50 main_v49 main_v51 (subi : (⟨S7, .i32⟩ : BufTy).Contents (Elt F) → (⟨S7, .i32⟩ : BufTy).Contents (Elt F) → (⟨S7, .i32⟩ : BufTy).Contents (Elt F)),
    StableHlo.nullary main_v52 (iotaInDim S64 32 0),
    StableHlo.nullary main_v53 (iotaInDim S64 32 0),
    StableHlo.unary main_v52 main_v54 (broadcastInDim S1x64 ![1] bcast_S64_S1x64_1 : (⟨S64, .i32⟩ : BufTy).Contents (Elt F) → (⟨S1x64, .i32⟩ : BufTy).Contents (Elt F)),
    StableHlo.unary main_v30 main_v55 (broadcastInDim S7x1 ![0] bcast_S7_S7x1_0 : (⟨S7, .i32⟩ : BufTy).Contents (Elt F) → (⟨S7x1, .i32⟩ : BufTy).Contents (Elt F)),
    StableHlo.unary main_v54 main_v56 (broadcastInDim S7x64 ![0, 1] bcast_S1x64_S7x64_0_1 : (⟨S1x64, .i32⟩ : BufTy).Contents (Elt F) → (⟨S7x64, .i32⟩ : BufTy).Contents (Elt F)),
    StableHlo.unary main_v55 main_v57 (broadcastInDim S7x64 ![0, 1] bcast_S7x1_S7x64_0_1 : (⟨S7x1, .i32⟩ : BufTy).Contents (Elt F) → (⟨S7x64, .i32⟩ : BufTy).Contents (Elt F)),
    StableHlo.binary main_v56 main_v57 main_v58 (cmpi .sge : (⟨S7x64, .i32⟩ : BufTy).Contents (Elt F) → (⟨S7x64, .i32⟩ : BufTy).Contents (Elt F) → (⟨S7x64, .i1⟩ : BufTy).Contents (Elt F)),
    StableHlo.unary main_v52 main_v59 (broadcastInDim S1x64 ![1] bcast_S64_S1x64_1 : (⟨S64, .i32⟩ : BufTy).Contents (Elt F) → (⟨S1x64, .i32⟩ : BufTy).Contents (Elt F)),
    StableHlo.unary main_v38 main_v60 (broadcastInDim S7x1 ![0] bcast_S7_S7x1_0 : (⟨S7, .i32⟩ : BufTy).Contents (Elt F) → (⟨S7x1, .i32⟩ : BufTy).Contents (Elt F)),
    StableHlo.unary main_v59 main_v61 (broadcastInDim S7x64 ![0, 1] bcast_S1x64_S7x64_0_1 : (⟨S1x64, .i32⟩ : BufTy).Contents (Elt F) → (⟨S7x64, .i32⟩ : BufTy).Contents (Elt F)),
    StableHlo.unary main_v60 main_v62 (broadcastInDim S7x64 ![0, 1] bcast_S7x1_S7x64_0_1 : (⟨S7x1, .i32⟩ : BufTy).Contents (Elt F) → (⟨S7x64, .i32⟩ : BufTy).Contents (Elt F)),
    StableHlo.binary main_v61 main_v62 main_v63 (cmpi .slt : (⟨S7x64, .i32⟩ : BufTy).Contents (Elt F) → (⟨S7x64, .i32⟩ : BufTy).Contents (Elt F) → (⟨S7x64, .i1⟩ : BufTy).Contents (Elt F)),
    StableHlo.binary main_v58 main_v63 main_v64 (andi : (⟨S7x64, .i1⟩ : BufTy).Contents (Elt F) → (⟨S7x64, .i1⟩ : BufTy).Contents (Elt F) → (⟨S7x64, .i1⟩ : BufTy).Contents (Elt F)),
    StableHlo.unary main_v53 main_v65 (broadcastInDim S1x64 ![1] bcast_S64_S1x64_1 : (⟨S64, .i32⟩ : BufTy).Contents (Elt F) → (⟨S1x64, .i32⟩ : BufTy).Contents (Elt F)),
    StableHlo.unary main_v43 main_v66 (broadcastInDim S7x1 ![0] bcast_S7_S7x1_0 : (⟨S7, .i32⟩ : BufTy).Contents (Elt F) → (⟨S7x1, .i32⟩ : BufTy).Contents (Elt F)),
    StableHlo.unary main_v65 main_v67 (broadcastInDim S7x64 ![0, 1] bcast_S1x64_S7x64_0_1 : (⟨S1x64, .i32⟩ : BufTy).Contents (Elt F) → (⟨S7x64, .i32⟩ : BufTy).Contents (Elt F)),
    StableHlo.unary main_v66 main_v68 (broadcastInDim S7x64 ![0, 1] bcast_S7x1_S7x64_0_1 : (⟨S7x1, .i32⟩ : BufTy).Contents (Elt F) → (⟨S7x64, .i32⟩ : BufTy).Contents (Elt F)),
    StableHlo.binary main_v67 main_v68 main_v69 (cmpi .sge : (⟨S7x64, .i32⟩ : BufTy).Contents (Elt F) → (⟨S7x64, .i32⟩ : BufTy).Contents (Elt F) → (⟨S7x64, .i1⟩ : BufTy).Contents (Elt F)),
    StableHlo.unary main_v53 main_v70 (broadcastInDim S1x64 ![1] bcast_S64_S1x64_1 : (⟨S64, .i32⟩ : BufTy).Contents (Elt F) → (⟨S1x64, .i32⟩ : BufTy).Contents (Elt F)),
    StableHlo.unary main_v51 main_v71 (broadcastInDim S7x1 ![0] bcast_S7_S7x1_0 : (⟨S7, .i32⟩ : BufTy).Contents (Elt F) → (⟨S7x1, .i32⟩ : BufTy).Contents (Elt F)),
    StableHlo.unary main_v70 main_v72 (broadcastInDim S7x64 ![0, 1] bcast_S1x64_S7x64_0_1 : (⟨S1x64, .i32⟩ : BufTy).Contents (Elt F) → (⟨S7x64, .i32⟩ : BufTy).Contents (Elt F)),
    StableHlo.unary main_v71 main_v73 (broadcastInDim S7x64 ![0, 1] bcast_S7x1_S7x64_0_1 : (⟨S7x1, .i32⟩ : BufTy).Contents (Elt F) → (⟨S7x64, .i32⟩ : BufTy).Contents (Elt F)),
    StableHlo.binary main_v72 main_v73 main_v74 (cmpi .slt : (⟨S7x64, .i32⟩ : BufTy).Contents (Elt F) → (⟨S7x64, .i32⟩ : BufTy).Contents (Elt F) → (⟨S7x64, .i1⟩ : BufTy).Contents (Elt F)),
    StableHlo.binary main_v69 main_v74 main_v75 (andi : (⟨S7x64, .i1⟩ : BufTy).Contents (Elt F) → (⟨S7x64, .i1⟩ : BufTy).Contents (Elt F) → (⟨S7x64, .i1⟩ : BufTy).Contents (Elt F)),
    StableHlo.unary main_v64 main_v76 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v77 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst (constant S_ .f32 0xFF800000#32),
    StableHlo.TRef.unary (.of main_v76 : StableHlo.TRef sig ⟨S7x1x64x1, .i1⟩) (.of main_call6_v0 : StableHlo.TRef sig ⟨S7x512x64x64, .i1⟩) (broadcastInDim S7x512x64x64 ![0, 1, 2, 3] bcast_S7x1x64x1_S7x512x64x64_0_1_2_3),
    StableHlo.TRef.unary (.of main_v77 : StableHlo.TRef sig ⟨S1x512x64x64, .f32⟩) (.of main_call6_v1 : StableHlo.TRef sig ⟨S7x512x64x64, .f32⟩) (broadcastInDim S7x512x64x64 ![0, 1, 2, 3] bcast_S1x512x64x64_S7x512x64x64_0_1_2_3),
    StableHlo.TRef.unary (.of main_cst : StableHlo.TRef sig ⟨S_, .f32⟩) (.of main_call6_v2 : StableHlo.TRef sig ⟨S7x512x64x64, .f32⟩) (broadcastInDim S7x512x64x64 ![] bcast_S_S7x512x64x64),
    StableHlo.TRef.ternary (.of main_call6_v0 : StableHlo.TRef sig ⟨S7x512x64x64, .i1⟩) (.of main_call6_v1 : StableHlo.TRef sig ⟨S7x512x64x64, .f32⟩) (.of main_call6_v2 : StableHlo.TRef sig ⟨S7x512x64x64, .f32⟩) (.of main_v78 : StableHlo.TRef sig ⟨S7x512x64x64, .f32⟩) select,
    StableHlo.nullary main_cst_13 (constant S_ .f32 0xFF800000#32),
    StableHlo.binary main_v78 main_cst_13 main_v79 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v75 main_v80 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v79 main_v81 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_14 (constant S_ .f32 0xFF800000#32),
    StableHlo.TRef.unary (.of main_v80 : StableHlo.TRef sig ⟨S1x1x7x64, .i1⟩) (.of main_call7_v0 : StableHlo.TRef sig ⟨S7x512x7x64, .i1⟩) (broadcastInDim S7x512x7x64 ![0, 1, 2, 3] bcast_S1x1x7x64_S7x512x7x64_0_1_2_3),
    StableHlo.TRef.unary (.of main_v81 : StableHlo.TRef sig ⟨S7x512x1x64, .f32⟩) (.of main_call7_v1 : StableHlo.TRef sig ⟨S7x512x7x64, .f32⟩) (broadcastInDim S7x512x7x64 ![0, 1, 2, 3] bcast_S7x512x1x64_S7x512x7x64_0_1_2_3),
    StableHlo.TRef.unary (.of main_cst_14 : StableHlo.TRef sig ⟨S_, .f32⟩) (.of main_call7_v2 : StableHlo.TRef sig ⟨S7x512x7x64, .f32⟩) (broadcastInDim S7x512x7x64 ![] bcast_S_S7x512x7x64),
    StableHlo.TRef.ternary (.of main_call7_v0 : StableHlo.TRef sig ⟨S7x512x7x64, .i1⟩) (.of main_call7_v1 : StableHlo.TRef sig ⟨S7x512x7x64, .f32⟩) (.of main_call7_v2 : StableHlo.TRef sig ⟨S7x512x7x64, .f32⟩) (.of main_v82 : StableHlo.TRef sig ⟨S7x512x7x64, .f32⟩) select ]
/-- The buffers those operations write, in order. -/
abbrev ops4_W : List (Ref sig .tc) :=
  [main_c_12, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_cst, main_call6_v0, main_call6_v1, main_call6_v2, main_v78, main_cst_13, main_v79, main_v80, main_v81, main_cst_14, main_call7_v0, main_call7_v1, main_call7_v2, main_v82]
/-- Each operation writes its own result buffer and nothing else. -/
theorem ops4_writes : (ops4 : List (HloOp τ sig (Elt F))).Forall fun op => op.writes ⊆ (ops4_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 170 to 214 of the host part, in order. -/
abbrev ops5 : List (HloOp τ sig (Elt F)) :=
  [ StableHlo.nullary main_cst_15 (constant S_ .f32 0xFF800000#32),
    StableHlo.binary main_v82 main_cst_15 main_v83 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v83 main_v84 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v84 main_v85 rfl shapeCasts_S512x7x7_S25088,
    StableHlo.unary main_v18 main_v86 ((extractStridedSlice S1x1 ![0, 1] · slices_S3x4_S1x1_0_1) : (⟨S3x4, .i32⟩ : BufTy).Contents (Elt F) → (⟨S1x1, .i32⟩ : BufTy).Contents (Elt F)),
    StableHlo.reshape main_v86 main_v87 rfl shapeCasts_S1x1_S_,
    StableHlo.unary main_v18 main_v88 ((extractStridedSlice S1x1 ![0, 3] · slices_S3x4_S1x1_0_3) : (⟨S3x4, .i32⟩ : BufTy).Contents (Elt F) → (⟨S1x1, .i32⟩ : BufTy).Contents (Elt F)),
    StableHlo.reshape main_v88 main_v89 rfl shapeCasts_S1x1_S_,
    StableHlo.unary main_v18 main_v90 ((extractStridedSlice S1x1 ![0, 0] · slices_S3x4_S1x1_0_0) : (⟨S3x4, .i32⟩ : BufTy).Contents (Elt F) → (⟨S1x1, .i32⟩ : BufTy).Contents (Elt F)),
    StableHlo.reshape main_v90 main_v91 rfl shapeCasts_S1x1_S_,
    StableHlo.unary main_v18 main_v92 ((extractStridedSlice S1x1 ![0, 2] · slices_S3x4_S1x1_0_2) : (⟨S3x4, .i32⟩ : BufTy).Contents (Elt F) → (⟨S1x1, .i32⟩ : BufTy).Contents (Elt F)),
    StableHlo.reshape main_v92 main_v93 rfl shapeCasts_S1x1_S_,
    StableHlo.binary main_v89 main_v87 main_v94 (subi : (⟨S_, .i32⟩ : BufTy).Contents (Elt F) → (⟨S_, .i32⟩ : BufTy).Contents (Elt F) → (⟨S_, .i32⟩ : BufTy).Contents (Elt F)),
    StableHlo.binary main_v93 main_v91 main_v95 (subi : (⟨S_, .i32⟩ : BufTy).Contents (Elt F) → (⟨S_, .i32⟩ : BufTy).Contents (Elt F) → (⟨S_, .i32⟩ : BufTy).Contents (Elt F)),
    StableHlo.nullary main_v96 (iotaInDim S7 32 0),
    StableHlo.nullary main_v97 (iotaInDim S7 32 0),
    StableHlo.unary main_v94 main_v98 (broadcastInDim S7 ![] bcast_S_S7 : (⟨S_, .i32⟩ : BufTy).Contents (Elt F) → (⟨S7, .i32⟩ : BufTy).Contents (Elt F)),
    StableHlo.binary main_v96 main_v98 main_v99 (muli : (⟨S7, .i32⟩ : BufTy).Contents (Elt F) → (⟨S7, .i32⟩ : BufTy).Contents (Elt F) → (⟨S7, .i32⟩ : BufTy).Contents (Elt F)),
    StableHlo.nullary main_c_16 (constantI S_ 32 7#32),
    StableHlo.TRef.unary (.of main_c_16 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S7, .i32⟩) (broadcastInDim S7 ![] bcast_S_S7),
    StableHlo.TRef.binary (.of main_v99 : StableHlo.TRef sig ⟨S7, .i32⟩) (.of main_call8_v1 : StableHlo.TRef sig ⟨S7, .i32⟩) (.of main_call8_v2 : StableHlo.TRef sig ⟨S7, .i32⟩) Host.divsi,
    StableHlo.TRef.unary (.of main_v99 : StableHlo.TRef sig ⟨S7, .i32⟩) (.of main_call8_v3 : StableHlo.TRef sig ⟨S7, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S7, .i32⟩) (broadcastInDim S7 ![] bcast_S_S7),
    StableHlo.TRef.binary (.of main_call8_v3 : StableHlo.TRef sig ⟨S7, .i32⟩) (.of main_call8_v5 : StableHlo.TRef sig ⟨S7, .i32⟩) (.of main_call8_v6 : StableHlo.TRef sig ⟨S7, .i1⟩) (cmpi .ne),
    StableHlo.TRef.unary (.of main_call8_v0 : StableHlo.TRef sig ⟨S_, .i32⟩) (.of main_call8_v7 : StableHlo.TRef sig ⟨S7, .i32⟩) (broadcastInDim S7 ![] bcast_S_S7),
    StableHlo.TRef.binary (.of main_v99 : StableHlo.TRef sig ⟨S7, .i32⟩) (.of main_call8_v7 : StableHlo.TRef sig ⟨S7, .i32⟩) (.of main_call8_v8 : StableHlo.TRef sig ⟨S7, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S7, .i32⟩) (broadcastInDim S7 ![] bcast_S_S7),
    StableHlo.TRef.binary (.of main_call8_v8 : StableHlo.TRef sig ⟨S7, .i32⟩) (.of main_call8_v9 : StableHlo.TRef sig ⟨S7, .i32⟩) (.of main_call8_v10 : StableHlo.TRef sig ⟨S7, .i1⟩) (cmpi .ne),
    StableHlo.TRef.binary (.of main_call8_v6 : StableHlo.TRef sig ⟨S7, .i1⟩) (.of main_call8_v10 : StableHlo.TRef sig ⟨S7, .i1⟩) (.of main_call8_v11 : StableHlo.TRef sig ⟨S7, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S7, .i32⟩) (broadcastInDim S7 ![] bcast_S_S7),
    StableHlo.TRef.binary (.of main_call8_v2 : StableHlo.TRef sig ⟨S7, .i32⟩) (.of main_call8_v12 : StableHlo.TRef sig ⟨S7, .i32⟩) (.of main_call8_v13 : StableHlo.TRef sig ⟨S7, .i32⟩) subi,
    StableHlo.TRef.ternary (.of main_call8_v11 : StableHlo.TRef sig ⟨S7, .i1⟩) (.of main_call8_v13 : StableHlo.TRef sig ⟨S7, .i32⟩) (.of main_call8_v2 : StableHlo.TRef sig ⟨S7, .i32⟩) (.of main_v100 : StableHlo.TRef sig ⟨S7, .i32⟩) select,
    StableHlo.unary main_v87 main_v101 (broadcastInDim S7 ![] bcast_S_S7 : (⟨S_, .i32⟩ : BufTy).Contents (Elt F) → (⟨S7, .i32⟩ : BufTy).Contents (Elt F)),
    StableHlo.binary main_v101 main_v100 main_v102 (addi : (⟨S7, .i32⟩ : BufTy).Contents (Elt F) → (⟨S7, .i32⟩ : BufTy).Contents (Elt F) → (⟨S7, .i32⟩ : BufTy).Contents (Elt F)),
    StableHlo.nullary main_c_17 (constantI S_ 32 1#32),
    StableHlo.unary main_c_17 main_v103 (broadcastInDim S7 ![] bcast_S_S7 : (⟨S_, .i32⟩ : BufTy).Contents (Elt F) → (⟨S7, .i32⟩ : BufTy).Contents (Elt F)),
    StableHlo.binary main_v96 main_v103 main_v104 (addi : (⟨S7, .i32⟩ : BufTy).Contents (Elt F) → (⟨S7, .i32⟩ : BufTy).Contents (Elt F) → (⟨S7, .i32⟩ : BufTy).Contents (Elt F)),
    StableHlo.unary main_v104 main_v105 (negi : (⟨S7, .i32⟩ : BufTy).Contents (Elt F) → (⟨S7, .i32⟩ : BufTy).Contents (Elt F)),
    StableHlo.unary main_v94 main_v106 (broadcastInDim S7 ![] bcast_S_S7 : (⟨S_, .i32⟩ : BufTy).Contents (Elt F) → (⟨S7, .i32⟩ : BufTy).Contents (Elt F)),
    StableHlo.binary main_v105 main_v106 main_v107 (muli : (⟨S7, .i32⟩ : BufTy).Contents (Elt F) → (⟨S7, .i32⟩ : BufTy).Contents (Elt F) → (⟨S7, .i32⟩ : BufTy).Contents (Elt F)),
    StableHlo.nullary main_c_18 (constantI S_ 32 7#32) ]
/-- The buffers those operations write, in order. -/
abbrev ops5_W : List (Ref sig .tc) :=
  [main_cst_15, main_v83, main_v84, main_v85, main_v86, main_v87, main_v88, main_v89, main_v90, main_v91, main_v92, main_v93, main_v94, main_v95, main_v96, main_v97, main_v98, main_v99, main_c_16, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v100, main_v101, main_v102, main_c_17, main_v103, main_v104, main_v105, main_v106, main_v107, main_c_18]
/-- Each operation writes its own result buffer and nothing else. -/
theorem ops5_writes : (ops5 : List (HloOp τ sig (Elt F))).Forall fun op => op.writes ⊆ (ops5_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 215 to 262 of the host part, in order. -/
abbrev ops6 : List (HloOp τ sig (Elt F)) :=
  [ StableHlo.TRef.unary (.of main_c_18 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S7, .i32⟩) (broadcastInDim S7 ![] bcast_S_S7),
    StableHlo.TRef.binary (.of main_v107 : StableHlo.TRef sig ⟨S7, .i32⟩) (.of main_call9_v1 : StableHlo.TRef sig ⟨S7, .i32⟩) (.of main_call9_v2 : StableHlo.TRef sig ⟨S7, .i32⟩) Host.divsi,
    StableHlo.TRef.unary (.of main_v107 : StableHlo.TRef sig ⟨S7, .i32⟩) (.of main_call9_v3 : StableHlo.TRef sig ⟨S7, .i32⟩) signi,
    StableHlo.TRef.unary (.of main_call9_v0 : StableHlo.TRef sig ⟨S_, .i32⟩) (.of main_call9_v4 : StableHlo.TRef sig ⟨S_, .i32⟩) signi,
    StableHlo.TRef.unary (.of main_call9_v4 : StableHlo.TRef sig ⟨S_, .i32⟩) (.of main_call9_v5 : StableHlo.TRef sig ⟨S7, .i32⟩) (broadcastInDim S7 ![] bcast_S_S7),
    StableHlo.TRef.binary (.of main_call9_v3 : StableHlo.TRef sig ⟨S7, .i32⟩) (.of main_call9_v5 : StableHlo.TRef sig ⟨S7, .i32⟩) (.of main_call9_v6 : StableHlo.TRef sig ⟨S7, .i1⟩) (cmpi .ne),
    StableHlo.TRef.unary (.of main_call9_v0 : StableHlo.TRef sig ⟨S_, .i32⟩) (.of main_call9_v7 : StableHlo.TRef sig ⟨S7, .i32⟩) (broadcastInDim S7 ![] bcast_S_S7),
    StableHlo.TRef.binary (.of main_v107 : StableHlo.TRef sig ⟨S7, .i32⟩) (.of main_call9_v7 : StableHlo.TRef sig ⟨S7, .i32⟩) (.of main_call9_v8 : StableHlo.TRef sig ⟨S7, .i32⟩) Host.remsi,
    StableHlo.TRef.nullary (.of main_call9_c : StableHlo.TRef sig ⟨S_, .i32⟩) (constantI S_ 32 0#32),
    StableHlo.TRef.unary (.of main_call9_c : StableHlo.TRef sig ⟨S_, .i32⟩) (.of main_call9_v9 : StableHlo.TRef sig ⟨S7, .i32⟩) (broadcastInDim S7 ![] bcast_S_S7),
    StableHlo.TRef.binary (.of main_call9_v8 : StableHlo.TRef sig ⟨S7, .i32⟩) (.of main_call9_v9 : StableHlo.TRef sig ⟨S7, .i32⟩) (.of main_call9_v10 : StableHlo.TRef sig ⟨S7, .i1⟩) (cmpi .ne),
    StableHlo.TRef.binary (.of main_call9_v6 : StableHlo.TRef sig ⟨S7, .i1⟩) (.of main_call9_v10 : StableHlo.TRef sig ⟨S7, .i1⟩) (.of main_call9_v11 : StableHlo.TRef sig ⟨S7, .i1⟩) andi,
    StableHlo.TRef.nullary (.of main_call9_c_0 : StableHlo.TRef sig ⟨S_, .i32⟩) (constantI S_ 32 1#32),
    StableHlo.TRef.unary (.of main_call9_c_0 : StableHlo.TRef sig ⟨S_, .i32⟩) (.of main_call9_v12 : StableHlo.TRef sig ⟨S7, .i32⟩) (broadcastInDim S7 ![] bcast_S_S7),
    StableHlo.TRef.binary (.of main_call9_v2 : StableHlo.TRef sig ⟨S7, .i32⟩) (.of main_call9_v12 : StableHlo.TRef sig ⟨S7, .i32⟩) (.of main_call9_v13 : StableHlo.TRef sig ⟨S7, .i32⟩) subi,
    StableHlo.TRef.ternary (.of main_call9_v11 : StableHlo.TRef sig ⟨S7, .i1⟩) (.of main_call9_v13 : StableHlo.TRef sig ⟨S7, .i32⟩) (.of main_call9_v2 : StableHlo.TRef sig ⟨S7, .i32⟩) (.of main_v108 : StableHlo.TRef sig ⟨S7, .i32⟩) select,
    StableHlo.unary main_v87 main_v109 (broadcastInDim S7 ![] bcast_S_S7 : (⟨S_, .i32⟩ : BufTy).Contents (Elt F) → (⟨S7, .i32⟩ : BufTy).Contents (Elt F)),
    StableHlo.binary main_v109 main_v108 main_v110 (subi : (⟨S7, .i32⟩ : BufTy).Contents (Elt F) → (⟨S7, .i32⟩ : BufTy).Contents (Elt F) → (⟨S7, .i32⟩ : BufTy).Contents (Elt F)),
    StableHlo.unary main_v95 main_v111 (broadcastInDim S7 ![] bcast_S_S7 : (⟨S_, .i32⟩ : BufTy).Contents (Elt F) → (⟨S7, .i32⟩ : BufTy).Contents (Elt F)),
    StableHlo.binary main_v97 main_v111 main_v112 (muli : (⟨S7, .i32⟩ : BufTy).Contents (Elt F) → (⟨S7, .i32⟩ : BufTy).Contents (Elt F) → (⟨S7, .i32⟩ : BufTy).Contents (Elt F)),
    StableHlo.nullary main_c_19 (constantI S_ 32 7#32),
    StableHlo.TRef.unary (.of main_c_19 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S7, .i32⟩) (broadcastInDim S7 ![] bcast_S_S7),
    StableHlo.TRef.binary (.of main_v112 : StableHlo.TRef sig ⟨S7, .i32⟩) (.of main_call10_v1 : StableHlo.TRef sig ⟨S7, .i32⟩) (.of main_call10_v2 : StableHlo.TRef sig ⟨S7, .i32⟩) Host.divsi,
    StableHlo.TRef.unary (.of main_v112 : StableHlo.TRef sig ⟨S7, .i32⟩) (.of main_call10_v3 : StableHlo.TRef sig ⟨S7, .i32⟩) signi,
    StableHlo.TRef.unary (.of main_call10_v0 : StableHlo.TRef sig ⟨S_, .i32⟩) (.of main_call10_v4 : StableHlo.TRef sig ⟨S_, .i32⟩) signi,
    StableHlo.TRef.unary (.of main_call10_v4 : StableHlo.TRef sig ⟨S_, .i32⟩) (.of main_call10_v5 : StableHlo.TRef sig ⟨S7, .i32⟩) (broadcastInDim S7 ![] bcast_S_S7),
    StableHlo.TRef.binary (.of main_call10_v3 : StableHlo.TRef sig ⟨S7, .i32⟩) (.of main_call10_v5 : StableHlo.TRef sig ⟨S7, .i32⟩) (.of main_call10_v6 : StableHlo.TRef sig ⟨S7, .i1⟩) (cmpi .ne),
    StableHlo.TRef.unary (.of main_call10_v0 : StableHlo.TRef sig ⟨S_, .i32⟩) (.of main_call10_v7 : StableHlo.TRef sig ⟨S7, .i32⟩) (broadcastInDim S7 ![] bcast_S_S7),
    StableHlo.TRef.binary (.of main_v112 : StableHlo.TRef sig ⟨S7, .i32⟩) (.of main_call10_v7 : StableHlo.TRef sig ⟨S7, .i32⟩) (.of main_call10_v8 : StableHlo.TRef sig ⟨S7, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v9 : StableHlo.TRef sig ⟨S7, .i32⟩) (broadcastInDim S7 ![] bcast_S_S7),
    StableHlo.TRef.binary (.of main_call10_v8 : StableHlo.TRef sig ⟨S7, .i32⟩) (.of main_call10_v9 : StableHlo.TRef sig ⟨S7, .i32⟩) (.of main_call10_v10 : StableHlo.TRef sig ⟨S7, .i1⟩) (cmpi .ne),
    StableHlo.TRef.binary (.of main_call10_v6 : StableHlo.TRef sig ⟨S7, .i1⟩) (.of main_call10_v10 : StableHlo.TRef sig ⟨S7, .i1⟩) (.of main_call10_v11 : StableHlo.TRef sig ⟨S7, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v12 : StableHlo.TRef sig ⟨S7, .i32⟩) (broadcastInDim S7 ![] bcast_S_S7),
    StableHlo.TRef.binary (.of main_call10_v2 : StableHlo.TRef sig ⟨S7, .i32⟩) (.of main_call10_v12 : StableHlo.TRef sig ⟨S7, .i32⟩) (.of main_call10_v13 : StableHlo.TRef sig ⟨S7, .i32⟩) subi,
    StableHlo.TRef.ternary (.of main_call10_v11 : StableHlo.TRef sig ⟨S7, .i1⟩) (.of main_call10_v13 : StableHlo.TRef sig ⟨S7, .i32⟩) (.of main_call10_v2 : StableHlo.TRef sig ⟨S7, .i32⟩) (.of main_v113 : StableHlo.TRef sig ⟨S7, .i32⟩) select,
    StableHlo.unary main_v91 main_v114 (broadcastInDim S7 ![] bcast_S_S7 : (⟨S_, .i32⟩ : BufTy).Contents (Elt F) → (⟨S7, .i32⟩ : BufTy).Contents (Elt F)),
    StableHlo.binary main_v114 main_v113 main_v115 (addi : (⟨S7, .i32⟩ : BufTy).Contents (Elt F) → (⟨S7, .i32⟩ : BufTy).Contents (Elt F) → (⟨S7, .i32⟩ : BufTy).Contents (Elt F)),
    StableHlo.nullary main_c_20 (constantI S_ 32 1#32),
    StableHlo.unary main_c_20 main_v116 (broadcastInDim S7 ![] bcast_S_S7 : (⟨S_, .i32⟩ : BufTy).Contents (Elt F) → (⟨S7, .i32⟩ : BufTy).Contents (Elt F)),
    StableHlo.binary main_v97 main_v116 main_v117 (addi : (⟨S7, .i32⟩ : BufTy).Contents (Elt F) → (⟨S7, .i32⟩ : BufTy).Contents (Elt F) → (⟨S7, .i32⟩ : BufTy).Contents (Elt F)),
    StableHlo.unary main_v117 main_v118 (negi : (⟨S7, .i32⟩ : BufTy).Contents (Elt F) → (⟨S7, .i32⟩ : BufTy).Contents (Elt F)),
    StableHlo.unary main_v95 main_v119 (broadcastInDim S7 ![] bcast_S_S7 : (⟨S_, .i32⟩ : BufTy).Contents (Elt F) → (⟨S7, .i32⟩ : BufTy).Contents (Elt F)),
    StableHlo.binary main_v118 main_v119 main_v120 (muli : (⟨S7, .i32⟩ : BufTy).Contents (Elt F) → (⟨S7, .i32⟩ : BufTy).Contents (Elt F) → (⟨S7, .i32⟩ : BufTy).Contents (Elt F)),
    StableHlo.nullary main_c_21 (constantI S_ 32 7#32) ]
/-- The buffers those operations write, in order. -/
abbrev ops6_W : List (Ref sig .tc) :=
  [main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v108, main_v109, main_v110, main_v111, main_v112, main_c_19, main_call10_v0, main_call10_v1, main_call10_v2, main_call10_v3, main_call10_v4, main_call10_v5, main_call10_v6, main_call10_v7, main_call10_v8, main_call10_c, main_call10_v9, main_call10_v10, main_call10_v11, main_call10_c_0, main_call10_v12, main_call10_v13, main_v113, main_v114, main_v115, main_c_20, main_v116, main_v117, main_v118, main_v119, main_v120, main_c_21]
/-- Each operation writes its own result buffer and nothing else. -/
theorem ops6_writes : (ops6 : List (HloOp τ sig (Elt F))).Forall fun op => op.writes ⊆ (ops6_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 263 to 321 of the host part, in order. -/
abbrev ops7 : List (HloOp τ sig (Elt F)) :=
  [ StableHlo.TRef.unary (.of main_c_21 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S7, .i32⟩) (broadcastInDim S7 ![] bcast_S_S7),
    StableHlo.TRef.binary (.of main_v120 : StableHlo.TRef sig ⟨S7, .i32⟩) (.of main_call11_v1 : StableHlo.TRef sig ⟨S7, .i32⟩) (.of main_call11_v2 : StableHlo.TRef sig ⟨S7, .i32⟩) Host.divsi,
    StableHlo.TRef.unary (.of main_v120 : StableHlo.TRef sig ⟨S7, .i32⟩) (.of main_call11_v3 : StableHlo.TRef sig ⟨S7, .i32⟩) signi,
    StableHlo.TRef.unary (.of main_call11_v0 : StableHlo.TRef sig ⟨S_, .i32⟩) (.of main_call11_v4 : StableHlo.TRef sig ⟨S_, .i32⟩) signi,
    StableHlo.TRef.unary (.of main_call11_v4 : StableHlo.TRef sig ⟨S_, .i32⟩) (.of main_call11_v5 : StableHlo.TRef sig ⟨S7, .i32⟩) (broadcastInDim S7 ![] bcast_S_S7),
    StableHlo.TRef.binary (.of main_call11_v3 : StableHlo.TRef sig ⟨S7, .i32⟩) (.of main_call11_v5 : StableHlo.TRef sig ⟨S7, .i32⟩) (.of main_call11_v6 : StableHlo.TRef sig ⟨S7, .i1⟩) (cmpi .ne),
    StableHlo.TRef.unary (.of main_call11_v0 : StableHlo.TRef sig ⟨S_, .i32⟩) (.of main_call11_v7 : StableHlo.TRef sig ⟨S7, .i32⟩) (broadcastInDim S7 ![] bcast_S_S7),
    StableHlo.TRef.binary (.of main_v120 : StableHlo.TRef sig ⟨S7, .i32⟩) (.of main_call11_v7 : StableHlo.TRef sig ⟨S7, .i32⟩) (.of main_call11_v8 : StableHlo.TRef sig ⟨S7, .i32⟩) Host.remsi,
    StableHlo.TRef.nullary (.of main_call11_c : StableHlo.TRef sig ⟨S_, .i32⟩) (constantI S_ 32 0#32),
    StableHlo.TRef.unary (.of main_call11_c : StableHlo.TRef sig ⟨S_, .i32⟩) (.of main_call11_v9 : StableHlo.TRef sig ⟨S7, .i32⟩) (broadcastInDim S7 ![] bcast_S_S7),
    StableHlo.TRef.binary (.of main_call11_v8 : StableHlo.TRef sig ⟨S7, .i32⟩) (.of main_call11_v9 : StableHlo.TRef sig ⟨S7, .i32⟩) (.of main_call11_v10 : StableHlo.TRef sig ⟨S7, .i1⟩) (cmpi .ne),
    StableHlo.TRef.binary (.of main_call11_v6 : StableHlo.TRef sig ⟨S7, .i1⟩) (.of main_call11_v10 : StableHlo.TRef sig ⟨S7, .i1⟩) (.of main_call11_v11 : StableHlo.TRef sig ⟨S7, .i1⟩) andi,
    StableHlo.TRef.nullary (.of main_call11_c_0 : StableHlo.TRef sig ⟨S_, .i32⟩) (constantI S_ 32 1#32),
    StableHlo.TRef.unary (.of main_call11_c_0 : StableHlo.TRef sig ⟨S_, .i32⟩) (.of main_call11_v12 : StableHlo.TRef sig ⟨S7, .i32⟩) (broadcastInDim S7 ![] bcast_S_S7),
    StableHlo.TRef.binary (.of main_call11_v2 : StableHlo.TRef sig ⟨S7, .i32⟩) (.of main_call11_v12 : StableHlo.TRef sig ⟨S7, .i32⟩) (.of main_call11_v13 : StableHlo.TRef sig ⟨S7, .i32⟩) subi,
    StableHlo.TRef.ternary (.of main_call11_v11 : StableHlo.TRef sig ⟨S7, .i1⟩) (.of main_call11_v13 : StableHlo.TRef sig ⟨S7, .i32⟩) (.of main_call11_v2 : StableHlo.TRef sig ⟨S7, .i32⟩) (.of main_v121 : StableHlo.TRef sig ⟨S7, .i32⟩) select,
    StableHlo.unary main_v91 main_v122 (broadcastInDim S7 ![] bcast_S_S7 : (⟨S_, .i32⟩ : BufTy).Contents (Elt F) → (⟨S7, .i32⟩ : BufTy).Contents (Elt F)),
    StableHlo.binary main_v122 main_v121 main_v123 (subi : (⟨S7, .i32⟩ : BufTy).Contents (Elt F) → (⟨S7, .i32⟩ : BufTy).Contents (Elt F) → (⟨S7, .i32⟩ : BufTy).Contents (Elt F)),
    StableHlo.nullary main_v124 (iotaInDim S64 32 0),
    StableHlo.nullary main_v125 (iotaInDim S64 32 0),
    StableHlo.unary main_v124 main_v126 (broadcastInDim S1x64 ![1] bcast_S64_S1x64_1 : (⟨S64, .i32⟩ : BufTy).Contents (Elt F) → (⟨S1x64, .i32⟩ : BufTy).Contents (Elt F)),
    StableHlo.unary main_v102 main_v127 (broadcastInDim S7x1 ![0] bcast_S7_S7x1_0 : (⟨S7, .i32⟩ : BufTy).Contents (Elt F) → (⟨S7x1, .i32⟩ : BufTy).Contents (Elt F)),
    StableHlo.unary main_v126 main_v128 (broadcastInDim S7x64 ![0, 1] bcast_S1x64_S7x64_0_1 : (⟨S1x64, .i32⟩ : BufTy).Contents (Elt F) → (⟨S7x64, .i32⟩ : BufTy).Contents (Elt F)),
    StableHlo.unary main_v127 main_v129 (broadcastInDim S7x64 ![0, 1] bcast_S7x1_S7x64_0_1 : (⟨S7x1, .i32⟩ : BufTy).Contents (Elt F) → (⟨S7x64, .i32⟩ : BufTy).Contents (Elt F)),
    StableHlo.binary main_v128 main_v129 main_v130 (cmpi .sge : (⟨S7x64, .i32⟩ : BufTy).Contents (Elt F) → (⟨S7x64, .i32⟩ : BufTy).Contents (Elt F) → (⟨S7x64, .i1⟩ : BufTy).Contents (Elt F)),
    StableHlo.unary main_v124 main_v131 (broadcastInDim S1x64 ![1] bcast_S64_S1x64_1 : (⟨S64, .i32⟩ : BufTy).Contents (Elt F) → (⟨S1x64, .i32⟩ : BufTy).Contents (Elt F)),
    StableHlo.unary main_v110 main_v132 (broadcastInDim S7x1 ![0] bcast_S7_S7x1_0 : (⟨S7, .i32⟩ : BufTy).Contents (Elt F) → (⟨S7x1, .i32⟩ : BufTy).Contents (Elt F)),
    StableHlo.unary main_v131 main_v133 (broadcastInDim S7x64 ![0, 1] bcast_S1x64_S7x64_0_1 : (⟨S1x64, .i32⟩ : BufTy).Contents (Elt F) → (⟨S7x64, .i32⟩ : BufTy).Contents (Elt F)),
    StableHlo.unary main_v132 main_v134 (broadcastInDim S7x64 ![0, 1] bcast_S7x1_S7x64_0_1 : (⟨S7x1, .i32⟩ : BufTy).Contents (Elt F) → (⟨S7x64, .i32⟩ : BufTy).Contents (Elt F)),
    StableHlo.binary main_v133 main_v134 main_v135 (cmpi .slt : (⟨S7x64, .i32⟩ : BufTy).Contents (Elt F) → (⟨S7x64, .i32⟩ : BufTy).Contents (Elt F) → (⟨S7x64, .i1⟩ : BufTy).Contents (Elt F)),
    StableHlo.binary main_v130 main_v135 main_v136 (andi : (⟨S7x64, .i1⟩ : BufTy).Contents (Elt F) → (⟨S7x64, .i1⟩ : BufTy).Contents (Elt F) → (⟨S7x64, .i1⟩ : BufTy).Contents (Elt F)),
    StableHlo.unary main_v125 main_v137 (broadcastInDim S1x64 ![1] bcast_S64_S1x64_1 : (⟨S64, .i32⟩ : BufTy).Contents (Elt F) → (⟨S1x64, .i32⟩ : BufTy).Contents (Elt F)),
    StableHlo.unary main_v115 main_v138 (broadcastInDim S7x1 ![0] bcast_S7_S7x1_0 : (⟨S7, .i32⟩ : BufTy).Contents (Elt F) → (⟨S7x1, .i32⟩ : BufTy).Contents (Elt F)),
    StableHlo.unary main_v137 main_v139 (broadcastInDim S7x64 ![0, 1] bcast_S1x64_S7x64_0_1 : (⟨S1x64, .i32⟩ : BufTy).Contents (Elt F) → (⟨S7x64, .i32⟩ : BufTy).Contents (Elt F)),
    StableHlo.unary main_v138 main_v140 (broadcastInDim S7x64 ![0, 1] bcast_S7x1_S7x64_0_1 : (⟨S7x1, .i32⟩ : BufTy).Contents (Elt F) → (⟨S7x64, .i32⟩ : BufTy).Contents (Elt F)),
    StableHlo.binary main_v139 main_v140 main_v141 (cmpi .sge : (⟨S7x64, .i32⟩ : BufTy).Contents (Elt F) → (⟨S7x64, .i32⟩ : BufTy).Contents (Elt F) → (⟨S7x64, .i1⟩ : BufTy).Contents (Elt F)),
    StableHlo.unary main_v125 main_v142 (broadcastInDim S1x64 ![1] bcast_S64_S1x64_1 : (⟨S64, .i32⟩ : BufTy).Contents (Elt F) → (⟨S1x64, .i32⟩ : BufTy).Contents (Elt F)),
    StableHlo.unary main_v123 main_v143 (broadcastInDim S7x1 ![0] bcast_S7_S7x1_0 : (⟨S7, .i32⟩ : BufTy).Contents (Elt F) → (⟨S7x1, .i32⟩ : BufTy).Contents (Elt F)),
    StableHlo.unary main_v142 main_v144 (broadcastInDim S7x64 ![0, 1] bcast_S1x64_S7x64_0_1 : (⟨S1x64, .i32⟩ : BufTy).Contents (Elt F) → (⟨S7x64, .i32⟩ : BufTy).Contents (Elt F)),
    StableHlo.unary main_v143 main_v145 (broadcastInDim S7x64 ![0, 1] bcast_S7x1_S7x64_0_1 : (⟨S7x1, .i32⟩ : BufTy).Contents (Elt F) → (⟨S7x64, .i32⟩ : BufTy).Contents (Elt F)),
    StableHlo.binary main_v144 main_v145 main_v146 (cmpi .slt : (⟨S7x64, .i32⟩ : BufTy).Contents (Elt F) → (⟨S7x64, .i32⟩ : BufTy).Contents (Elt F) → (⟨S7x64, .i1⟩ : BufTy).Contents (Elt F)),
    StableHlo.binary main_v141 main_v146 main_v147 (andi : (⟨S7x64, .i1⟩ : BufTy).Contents (Elt F) → (⟨S7x64, .i1⟩ : BufTy).Contents (Elt F) → (⟨S7x64, .i1⟩ : BufTy).Contents (Elt F)),
    StableHlo.unary main_v136 main_v148 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v149 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_22 (constant S_ .f32 0xFF800000#32),
    StableHlo.TRef.unary (.of main_v148 : StableHlo.TRef sig ⟨S7x1x64x1, .i1⟩) (.of main_call12_v0 : StableHlo.TRef sig ⟨S7x512x64x64, .i1⟩) (broadcastInDim S7x512x64x64 ![0, 1, 2, 3] bcast_S7x1x64x1_S7x512x64x64_0_1_2_3),
    StableHlo.TRef.unary (.of main_v149 : StableHlo.TRef sig ⟨S1x512x64x64, .f32⟩) (.of main_call12_v1 : StableHlo.TRef sig ⟨S7x512x64x64, .f32⟩) (broadcastInDim S7x512x64x64 ![0, 1, 2, 3] bcast_S1x512x64x64_S7x512x64x64_0_1_2_3),
    StableHlo.TRef.unary (.of main_cst_22 : StableHlo.TRef sig ⟨S_, .f32⟩) (.of main_call12_v2 : StableHlo.TRef sig ⟨S7x512x64x64, .f32⟩) (broadcastInDim S7x512x64x64 ![] bcast_S_S7x512x64x64),
    StableHlo.TRef.ternary (.of main_call12_v0 : StableHlo.TRef sig ⟨S7x512x64x64, .i1⟩) (.of main_call12_v1 : StableHlo.TRef sig ⟨S7x512x64x64, .f32⟩) (.of main_call12_v2 : StableHlo.TRef sig ⟨S7x512x64x64, .f32⟩) (.of main_v150 : StableHlo.TRef sig ⟨S7x512x64x64, .f32⟩) select,
    StableHlo.nullary main_cst_23 (constant S_ .f32 0xFF800000#32),
    StableHlo.binary main_v150 main_cst_23 main_v151 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v147 main_v152 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v151 main_v153 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_24 (constant S_ .f32 0xFF800000#32),
    StableHlo.TRef.unary (.of main_v152 : StableHlo.TRef sig ⟨S1x1x7x64, .i1⟩) (.of main_call13_v0 : StableHlo.TRef sig ⟨S7x512x7x64, .i1⟩) (broadcastInDim S7x512x7x64 ![0, 1, 2, 3] bcast_S1x1x7x64_S7x512x7x64_0_1_2_3),
    StableHlo.TRef.unary (.of main_v153 : StableHlo.TRef sig ⟨S7x512x1x64, .f32⟩) (.of main_call13_v1 : StableHlo.TRef sig ⟨S7x512x7x64, .f32⟩) (broadcastInDim S7x512x7x64 ![0, 1, 2, 3] bcast_S7x512x1x64_S7x512x7x64_0_1_2_3),
    StableHlo.TRef.unary (.of main_cst_24 : StableHlo.TRef sig ⟨S_, .f32⟩) (.of main_call13_v2 : StableHlo.TRef sig ⟨S7x512x7x64, .f32⟩) (broadcastInDim S7x512x7x64 ![] bcast_S_S7x512x7x64),
    StableHlo.TRef.ternary (.of main_call13_v0 : StableHlo.TRef sig ⟨S7x512x7x64, .i1⟩) (.of main_call13_v1 : StableHlo.TRef sig ⟨S7x512x7x64, .f32⟩) (.of main_call13_v2 : StableHlo.TRef sig ⟨S7x512x7x64, .f32⟩) (.of main_v154 : StableHlo.TRef sig ⟨S7x512x7x64, .f32⟩) select ]
/-- The buffers those operations write, in order. -/
abbrev ops7_W : List (Ref sig .tc) :=
  [main_call11_v0, main_call11_v1, main_call11_v2, main_call11_v3, main_call11_v4, main_call11_v5, main_call11_v6, main_call11_v7, main_call11_v8, main_call11_c, main_call11_v9, main_call11_v10, main_call11_v11, main_call11_c_0, main_call11_v12, main_call11_v13, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_cst_22, main_call12_v0, main_call12_v1, main_call12_v2, main_v150, main_cst_23, main_v151, main_v152, main_v153, main_cst_24, main_call13_v0, main_call13_v1, main_call13_v2, main_v154]
/-- Each operation writes its own result buffer and nothing else. -/
theorem ops7_writes : (ops7 : List (HloOp τ sig (Elt F))).Forall fun op => op.writes ⊆ (ops7_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part0 : List (HloOp τ sig (Elt F)) :=
  ops0 ++ ops1 ++ ops2 ++ ops3 ++ ops4 ++ ops5 ++ ops6 ++ ops7
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 0 (operations 0 to 12): agreement on the 4 buffers live before it gives agreement on the 7 live after it. -/
theorem step0
    (h : WK (Proc.devRef .tc Cert.KernelIdeal.main_arg0) = WR (Proc.devRef .tc Cert.ReferenceIdeal.main_arg0)
      ∧ WK (Proc.devRef .tc Cert.KernelIdeal.main_arg1) = WR (Proc.devRef .tc Cert.ReferenceIdeal.main_arg1)
      ∧ WK (Proc.devRef .tc Cert.KernelIdeal.main_arg2) = WR (Proc.devRef .tc Cert.ReferenceIdeal.main_arg2)
      ∧ WK (Proc.devRef .tc Cert.KernelIdeal.main_arg3) = WR (Proc.devRef .tc Cert.ReferenceIdeal.main_arg3)) :
    (after (Cert.KernelIdeal.Agree.ops0 (F := F)) WK) (Proc.devRef .tc Cert.KernelIdeal.main_arg1) = (after (Cert.ReferenceIdeal.Agree.ops0 (F := F)) WR) (Proc.devRef .tc Cert.ReferenceIdeal.main_arg1)
      ∧ (after (Cert.KernelIdeal.Agree.ops0 (F := F)) WK) (Proc.devRef .tc Cert.KernelIdeal.main_arg2) = (after (Cert.ReferenceIdeal.Agree.ops0 (F := F)) WR) (Proc.devRef .tc Cert.ReferenceIdeal.main_arg2)
      ∧ (after (Cert.KernelIdeal.Agree.ops0 (F := F)) WK) (Proc.devRef .tc Cert.KernelIdeal.main_v0) = (after (Cert.ReferenceIdeal.Agree.ops0 (F := F)) WR) (Proc.devRef .tc Cert.ReferenceIdeal.main_v0)
      ∧ (after (Cert.KernelIdeal.Agree.ops0 (F := F)) WK) (Proc.devRef .tc Cert.KernelIdeal.main_v9) = (after (Cert.ReferenceIdeal.Agree.ops0 (F := F)) WR) (Proc.devRef .tc Cert.ReferenceIdeal.main_v9)
      ∧ (after (Cert.KernelIdeal.Agree.ops0 (F := F)) WK) (Proc.devRef .tc Cert.KernelIdeal.main_v10) = (after (Cert.ReferenceIdeal.Agree.ops0 (F := F)) WR) (Proc.devRef .tc Cert.ReferenceIdeal.main_v10)
      ∧ (after (Cert.KernelIdeal.Agree.ops0 (F := F)) WK) (Proc.devRef .tc Cert.KernelIdeal.main_v11) = (after (Cert.ReferenceIdeal.Agree.ops0 (F := F)) WR) (Proc.devRef .tc Cert.ReferenceIdeal.main_v11)
      ∧ (after (Cert.KernelIdeal.Agree.ops0 (F := F)) WK) (Proc.devRef .tc Cert.KernelIdeal.main_v12) = (after (Cert.ReferenceIdeal.Agree.ops0 (F := F)) WR) (Proc.devRef .tc Cert.ReferenceIdeal.main_v12) := by
  obtain ⟨h_arg0, h_arg1, h_arg2, h_arg3⟩ := h
  refine ⟨?_, ?_, ?_, ?_, ?_, ?_, ?_⟩
  · exact (after_of_writes_sub _ WK Cert.KernelIdeal.Agree.ops0_writes (by decide)).trans (h_arg1.trans (after_of_writes_sub _ WR Cert.ReferenceIdeal.Agree.ops0_writes (by decide)).symm)
  · exact (after_of_writes_sub _ WK Cert.KernelIdeal.Agree.ops0_writes (by decide)).trans (h_arg2.trans (after_of_writes_sub _ WR Cert.ReferenceIdeal.Agree.ops0_writes (by decide)).symm)
  · run_agrees [h_arg0]
  · run_agrees [h_arg3]
  · run_agrees [h_arg3]
  · run_agrees [h_arg3]
  · run_agrees [h_arg3]

set_option maxHeartbeats 800000 in
/-- Run 1 (operations 13 to 16): agreement on the 7 buffers live before it gives agreement on the 4 live after it. -/
theorem step1
    (h : WK (Proc.devRef .tc Cert.KernelIdeal.main_arg1) = WR (Proc.devRef .tc Cert.ReferenceIdeal.main_arg1)
      ∧ WK (Proc.devRef .tc Cert.KernelIdeal.main_arg2) = WR (Proc.devRef .tc Cert.ReferenceIdeal.main_arg2)
      ∧ WK (Proc.devRef .tc Cert.KernelIdeal.main_v0) = WR (Proc.devRef .tc Cert.ReferenceIdeal.main_v0)
      ∧ WK (Proc.devRef .tc Cert.KernelIdeal.main_v9) = WR (Proc.devRef .tc Cert.ReferenceIdeal.main_v9)
      ∧ WK (Proc.devRef .tc Cert.KernelIdeal.main_v10) = WR (Proc.devRef .tc Cert.ReferenceIdeal.main_v10)
      ∧ WK (Proc.devRef .tc Cert.KernelIdeal.main_v11) = WR (Proc.devRef .tc Cert.ReferenceIdeal.main_v11)
      ∧ WK (Proc.devRef .tc Cert.KernelIdeal.main_v12) = WR (Proc.devRef .tc Cert.ReferenceIdeal.main_v12)) :
    (after (Cert.KernelIdeal.Agree.ops1 (F := F)) WK) (Proc.devRef .tc Cert.KernelIdeal.main_arg2) = (after (Cert.ReferenceIdeal.Agree.ops1 (F := F)) WR) (Proc.devRef .tc Cert.ReferenceIdeal.main_arg2)
      ∧ (after (Cert.KernelIdeal.Agree.ops1 (F := F)) WK) (Proc.devRef .tc Cert.KernelIdeal.main_v0) = (after (Cert.ReferenceIdeal.Agree.ops1 (F := F)) WR) (Proc.devRef .tc Cert.ReferenceIdeal.main_v0)
      ∧ (after (Cert.KernelIdeal.Agree.ops1 (F := F)) WK) (Proc.devRef .tc Cert.KernelIdeal.main_v13) = (after (Cert.ReferenceIdeal.Agree.ops1 (F := F)) WR) (Proc.devRef .tc Cert.ReferenceIdeal.main_v13)
      ∧ (after (Cert.KernelIdeal.Agree.ops1 (F := F)) WK) (Proc.devRef .tc Cert.KernelIdeal.main_v16) = (after (Cert.ReferenceIdeal.Agree.ops1 (F := F)) WR) (Proc.devRef .tc Cert.ReferenceIdeal.main_v16) := by
  obtain ⟨h_arg1, h_arg2, h_v0, h_v9, h_v10, h_v11, h_v12⟩ := h
  have e0 : WK (Proc.devRef .tc (![Cert.KernelIdeal.main_v9, Cert.KernelIdeal.main_v10, Cert.KernelIdeal.main_v11, Cert.KernelIdeal.main_v12] 0)) = WR (Proc.devRef .tc (![Cert.ReferenceIdeal.main_v9, Cert.ReferenceIdeal.main_v10, Cert.ReferenceIdeal.main_v11, Cert.ReferenceIdeal.main_v12] 0)) := h_v9
  have e1 : WK (Proc.devRef .tc (![Cert.KernelIdeal.main_v9, Cert.KernelIdeal.main_v10, Cert.KernelIdeal.main_v11, Cert.KernelIdeal.main_v12] 1)) = WR (Proc.devRef .tc (![Cert.ReferenceIdeal.main_v9, Cert.ReferenceIdeal.main_v10, Cert.ReferenceIdeal.main_v11, Cert.ReferenceIdeal.main_v12] 1)) := h_v10
  have e2 : WK (Proc.devRef .tc (![Cert.KernelIdeal.main_v9, Cert.KernelIdeal.main_v10, Cert.KernelIdeal.main_v11, Cert.KernelIdeal.main_v12] 2)) = WR (Proc.devRef .tc (![Cert.ReferenceIdeal.main_v9, Cert.ReferenceIdeal.main_v10, Cert.ReferenceIdeal.main_v11, Cert.ReferenceIdeal.main_v12] 2)) := h_v11
  have e3 : WK (Proc.devRef .tc (![Cert.KernelIdeal.main_v9, Cert.KernelIdeal.main_v10, Cert.KernelIdeal.main_v11, Cert.KernelIdeal.main_v12] 3)) = WR (Proc.devRef .tc (![Cert.ReferenceIdeal.main_v9, Cert.ReferenceIdeal.main_v10, Cert.ReferenceIdeal.main_v11, Cert.ReferenceIdeal.main_v12] 3)) := h_v12
  refine ⟨?_, ?_, ?_, ?_⟩
  · exact (after_of_writes_sub _ WK Cert.KernelIdeal.Agree.ops1_writes (by decide)).trans (h_arg2.trans (after_of_writes_sub _ WR Cert.ReferenceIdeal.Agree.ops1_writes (by decide)).symm)
  · exact (after_of_writes_sub _ WK Cert.KernelIdeal.Agree.ops1_writes (by decide)).trans (h_v0.trans (after_of_writes_sub _ WR Cert.ReferenceIdeal.Agree.ops1_writes (by decide)).symm)
  · after_results; beta_reduce; rw [e0, e1, e2, e3]
  · after_results; beta_reduce; rw [h_arg1, e0, e1, e2, e3]

set_option maxHeartbeats 800000 in
/-- Run 2 (operations 17 to 74): agreement on the 4 buffers live before it gives agreement on the 6 live after it. -/
theorem step2
    (h : WK (Proc.devRef .tc Cert.KernelIdeal.main_arg2) = WR (Proc.devRef .tc Cert.ReferenceIdeal.main_arg2)
      ∧ WK (Proc.devRef .tc Cert.KernelIdeal.main_v0) = WR (Proc.devRef .tc Cert.ReferenceIdeal.main_v0)
      ∧ WK (Proc.devRef .tc Cert.KernelIdeal.main_v13) = WR (Proc.devRef .tc Cert.ReferenceIdeal.main_v13)
      ∧ WK (Proc.devRef .tc Cert.KernelIdeal.main_v16) = WR (Proc.devRef .tc Cert.ReferenceIdeal.main_v16)) :
    (after (Cert.KernelIdeal.Agree.ops2 (F := F)) WK) (Proc.devRef .tc Cert.KernelIdeal.main_v0) = (after (Cert.ReferenceIdeal.Agree.ops2 (F := F)) WR) (Proc.devRef .tc Cert.ReferenceIdeal.main_v0)
      ∧ (after (Cert.KernelIdeal.Agree.ops2 (F := F)) WK) (Proc.devRef .tc Cert.KernelIdeal.main_v18) = (after (Cert.ReferenceIdeal.Agree.ops2 (F := F)) WR) (Proc.devRef .tc Cert.ReferenceIdeal.main_v18)
      ∧ (after (Cert.KernelIdeal.Agree.ops2 (F := F)) WK) (Proc.devRef .tc Cert.KernelIdeal.main_v23) = (after (Cert.ReferenceIdeal.Agree.ops2 (F := F)) WR) (Proc.devRef .tc Cert.ReferenceIdeal.main_v23)
      ∧ (after (Cert.KernelIdeal.Agree.ops2 (F := F)) WK) (Proc.devRef .tc Cert.KernelIdeal.main_v25) = (after (Cert.ReferenceIdeal.Agree.ops2 (F := F)) WR) (Proc.devRef .tc Cert.ReferenceIdeal.main_v25)
      ∧ (after (Cert.KernelIdeal.Agree.ops2 (F := F)) WK) (Proc.devRef .tc Cert.KernelIdeal.main_v30) = (after (Cert.ReferenceIdeal.Agree.ops2 (F := F)) WR) (Proc.devRef .tc Cert.ReferenceIdeal.main_v30)
      ∧ (after (Cert.KernelIdeal.Agree.ops2 (F := F)) WK) (Proc.devRef .tc Cert.KernelIdeal.main_v36) = (after (Cert.ReferenceIdeal.Agree.ops2 (F := F)) WR) (Proc.devRef .tc Cert.ReferenceIdeal.main_v36) := by
  obtain ⟨h_arg2, h_v0, h_v13, h_v16⟩ := h
  refine ⟨?_, ?_, ?_, ?_, ?_, ?_⟩
  · exact (after_of_writes_sub _ WK Cert.KernelIdeal.Agree.ops2_writes (by decide)).trans (h_v0.trans (after_of_writes_sub _ WR Cert.ReferenceIdeal.Agree.ops2_writes (by decide)).symm)
  · run_agrees [h_v16]
  · run_agrees [h_arg2, h_v13]
  · after_results_simp; first | done | rfl
  · after_results_simp; first | done | rfl
  · after_results_simp; first | done | rfl

set_option maxHeartbeats 800000 in
/-- Run 3 (operations 75 to 126): agreement on the 6 buffers live before it gives agreement on the 7 live after it. -/
theorem step3
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v25) = WR (Proc.devRef .tc Cert.ReferenceIdeal.main_v25)
      ∧ WK (Proc.devRef .tc Cert.KernelIdeal.main_v30) = WR (Proc.devRef .tc Cert.ReferenceIdeal.main_v30)
      ∧ WK (Proc.devRef .tc Cert.KernelIdeal.main_v36) = WR (Proc.devRef .tc Cert.ReferenceIdeal.main_v36)) :
    (after (Cert.KernelIdeal.Agree.ops3 (F := F)) WK) (Proc.devRef .tc Cert.KernelIdeal.main_v0) = (after (Cert.ReferenceIdeal.Agree.ops3 (F := F)) WR) (Proc.devRef .tc Cert.ReferenceIdeal.main_v0)
      ∧ (after (Cert.KernelIdeal.Agree.ops3 (F := F)) WK) (Proc.devRef .tc Cert.KernelIdeal.main_v18) = (after (Cert.ReferenceIdeal.Agree.ops3 (F := F)) WR) (Proc.devRef .tc Cert.ReferenceIdeal.main_v18)
      ∧ (after (Cert.KernelIdeal.Agree.ops3 (F := F)) WK) (Proc.devRef .tc Cert.KernelIdeal.main_v23) = (after (Cert.ReferenceIdeal.Agree.ops3 (F := F)) WR) (Proc.devRef .tc Cert.ReferenceIdeal.main_v23)
      ∧ (after (Cert.KernelIdeal.Agree.ops3 (F := F)) WK) (Proc.devRef .tc Cert.KernelIdeal.main_v30) = (after (Cert.ReferenceIdeal.Agree.ops3 (F := F)) WR) (Proc.devRef .tc Cert.ReferenceIdeal.main_v30)
      ∧ (after (Cert.KernelIdeal.Agree.ops3 (F := F)) WK) (Proc.devRef .tc Cert.KernelIdeal.main_v38) = (after (Cert.ReferenceIdeal.Agree.ops3 (F := F)) WR) (Proc.devRef .tc Cert.ReferenceIdeal.main_v38)
      ∧ (after (Cert.KernelIdeal.Agree.ops3 (F := F)) WK) (Proc.devRef .tc Cert.KernelIdeal.main_v43) = (after (Cert.ReferenceIdeal.Agree.ops3 (F := F)) WR) (Proc.devRef .tc Cert.ReferenceIdeal.main_v43)
      ∧ (after (Cert.KernelIdeal.Agree.ops3 (F := F)) WK) (Proc.devRef .tc Cert.KernelIdeal.main_v49) = (after (Cert.ReferenceIdeal.Agree.ops3 (F := F)) WR) (Proc.devRef .tc Cert.ReferenceIdeal.main_v49) := by
  obtain ⟨h_v0, h_v18, h_v23, h_v25, h_v30, h_v36⟩ := h
  refine ⟨?_, ?_, ?_, ?_, ?_, ?_, ?_⟩
  · exact (after_of_writes_sub _ WK Cert.KernelIdeal.Agree.ops3_writes (by decide)).trans (h_v0.trans (after_of_writes_sub _ WR Cert.ReferenceIdeal.Agree.ops3_writes (by decide)).symm)
  · exact (after_of_writes_sub _ WK Cert.KernelIdeal.Agree.ops3_writes (by decide)).trans (h_v18.trans (after_of_writes_sub _ WR Cert.ReferenceIdeal.Agree.ops3_writes (by decide)).symm)
  · exact (after_of_writes_sub _ WK Cert.KernelIdeal.Agree.ops3_writes (by decide)).trans (h_v23.trans (after_of_writes_sub _ WR Cert.ReferenceIdeal.Agree.ops3_writes (by decide)).symm)
  · exact (after_of_writes_sub _ WK Cert.KernelIdeal.Agree.ops3_writes (by decide)).trans (h_v30.trans (after_of_writes_sub _ WR Cert.ReferenceIdeal.Agree.ops3_writes (by decide)).symm)
  · run_agrees [h_v36]
  · run_agrees [h_v25]
  · run_agrees [h_v25]

set_option maxHeartbeats 800000 in
/-- Run 4 (operations 127 to 169): agreement on the 7 buffers live before it gives agreement on the 4 live after it. -/
theorem step4
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v30) = WR (Proc.devRef .tc Cert.ReferenceIdeal.main_v30)
      ∧ WK (Proc.devRef .tc Cert.KernelIdeal.main_v38) = WR (Proc.devRef .tc Cert.ReferenceIdeal.main_v38)
      ∧ WK (Proc.devRef .tc Cert.KernelIdeal.main_v43) = WR (Proc.devRef .tc Cert.ReferenceIdeal.main_v43)
      ∧ WK (Proc.devRef .tc Cert.KernelIdeal.main_v49) = WR (Proc.devRef .tc Cert.ReferenceIdeal.main_v49)) :
    (after (Cert.KernelIdeal.Agree.ops4 (F := F)) WK) (Proc.devRef .tc Cert.KernelIdeal.main_v0) = (after (Cert.ReferenceIdeal.Agree.ops4 (F := F)) WR) (Proc.devRef .tc Cert.ReferenceIdeal.main_v0)
      ∧ (after (Cert.KernelIdeal.Agree.ops4 (F := F)) WK) (Proc.devRef .tc Cert.KernelIdeal.main_v18) = (after (Cert.ReferenceIdeal.Agree.ops4 (F := F)) WR) (Proc.devRef .tc Cert.ReferenceIdeal.main_v18)
      ∧ (after (Cert.KernelIdeal.Agree.ops4 (F := F)) WK) (Proc.devRef .tc Cert.KernelIdeal.main_v23) = (after (Cert.ReferenceIdeal.Agree.ops4 (F := F)) WR) (Proc.devRef .tc Cert.ReferenceIdeal.main_v23)
      ∧ (after (Cert.KernelIdeal.Agree.ops4 (F := F)) WK) (Proc.devRef .tc Cert.KernelIdeal.main_v82) = (after (Cert.ReferenceIdeal.Agree.ops4 (F := F)) WR) (Proc.devRef .tc Cert.ReferenceIdeal.main_v82) := by
  obtain ⟨h_v0, h_v18, h_v23, h_v30, h_v38, h_v43, h_v49⟩ := h
  refine ⟨?_, ?_, ?_, ?_⟩
  · exact (after_of_writes_sub _ WK Cert.KernelIdeal.Agree.ops4_writes (by decide)).trans (h_v0.trans (after_of_writes_sub _ WR Cert.ReferenceIdeal.Agree.ops4_writes (by decide)).symm)
  · exact (after_of_writes_sub _ WK Cert.KernelIdeal.Agree.ops4_writes (by decide)).trans (h_v18.trans (after_of_writes_sub _ WR Cert.ReferenceIdeal.Agree.ops4_writes (by decide)).symm)
  · exact (after_of_writes_sub _ WK Cert.KernelIdeal.Agree.ops4_writes (by decide)).trans (h_v23.trans (after_of_writes_sub _ WR Cert.ReferenceIdeal.Agree.ops4_writes (by decide)).symm)
  · run_agrees [h_v0, h_v30, h_v38, h_v43, h_v49]

set_option maxHeartbeats 800000 in
/-- Run 5 (operations 170 to 214): agreement on the 4 buffers live before it gives agreement on the 11 live after it. -/
theorem step5
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v82) = WR (Proc.devRef .tc Cert.ReferenceIdeal.main_v82)) :
    (after (Cert.KernelIdeal.Agree.ops5 (F := F)) WK) (Proc.devRef .tc Cert.KernelIdeal.main_v0) = (after (Cert.ReferenceIdeal.Agree.ops5 (F := F)) WR) (Proc.devRef .tc Cert.ReferenceIdeal.main_v0)
      ∧ (after (Cert.KernelIdeal.Agree.ops5 (F := F)) WK) (Proc.devRef .tc Cert.KernelIdeal.main_v18) = (after (Cert.ReferenceIdeal.Agree.ops5 (F := F)) WR) (Proc.devRef .tc Cert.ReferenceIdeal.main_v18)
      ∧ (after (Cert.KernelIdeal.Agree.ops5 (F := F)) WK) (Proc.devRef .tc Cert.KernelIdeal.main_v23) = (after (Cert.ReferenceIdeal.Agree.ops5 (F := F)) WR) (Proc.devRef .tc Cert.ReferenceIdeal.main_v23)
      ∧ (after (Cert.KernelIdeal.Agree.ops5 (F := F)) WK) (Proc.devRef .tc Cert.KernelIdeal.main_v85) = (after (Cert.ReferenceIdeal.Agree.ops5 (F := F)) WR) (Proc.devRef .tc Cert.ReferenceIdeal.main_v85)
      ∧ (after (Cert.KernelIdeal.Agree.ops5 (F := F)) WK) (Proc.devRef .tc Cert.KernelIdeal.main_v87) = (after (Cert.ReferenceIdeal.Agree.ops5 (F := F)) WR) (Proc.devRef .tc Cert.ReferenceIdeal.main_v87)
      ∧ (after (Cert.KernelIdeal.Agree.ops5 (F := F)) WK) (Proc.devRef .tc Cert.KernelIdeal.main_v91) = (after (Cert.ReferenceIdeal.Agree.ops5 (F := F)) WR) (Proc.devRef .tc Cert.ReferenceIdeal.main_v91)
      ∧ (after (Cert.KernelIdeal.Agree.ops5 (F := F)) WK) (Proc.devRef .tc Cert.KernelIdeal.main_v95) = (after (Cert.ReferenceIdeal.Agree.ops5 (F := F)) WR) (Proc.devRef .tc Cert.ReferenceIdeal.main_v95)
      ∧ (after (Cert.KernelIdeal.Agree.ops5 (F := F)) WK) (Proc.devRef .tc Cert.KernelIdeal.main_v97) = (after (Cert.ReferenceIdeal.Agree.ops5 (F := F)) WR) (Proc.devRef .tc Cert.ReferenceIdeal.main_v97)
      ∧ (after (Cert.KernelIdeal.Agree.ops5 (F := F)) WK) (Proc.devRef .tc Cert.KernelIdeal.main_v102) = (after (Cert.ReferenceIdeal.Agree.ops5 (F := F)) WR) (Proc.devRef .tc Cert.ReferenceIdeal.main_v102)
      ∧ (after (Cert.KernelIdeal.Agree.ops5 (F := F)) WK) (Proc.devRef .tc Cert.KernelIdeal.main_v107) = (after (Cert.ReferenceIdeal.Agree.ops5 (F := F)) WR) (Proc.devRef .tc Cert.ReferenceIdeal.main_v107)
      ∧ (after (Cert.KernelIdeal.Agree.ops5 (F := F)) WK) (Proc.devRef .tc Cert.KernelIdeal.main_c_18) = (after (Cert.ReferenceIdeal.Agree.ops5 (F := F)) WR) (Proc.devRef .tc Cert.ReferenceIdeal.main_c_18) := by
  obtain ⟨h_v0, h_v18, h_v23, h_v82⟩ := h
  refine ⟨?_, ?_, ?_, ?_, ?_, ?_, ?_, ?_, ?_, ?_, ?_⟩
  · exact (after_of_writes_sub _ WK Cert.KernelIdeal.Agree.ops5_writes (by decide)).trans (h_v0.trans (after_of_writes_sub _ WR Cert.ReferenceIdeal.Agree.ops5_writes (by decide)).symm)
  · exact (after_of_writes_sub _ WK Cert.KernelIdeal.Agree.ops5_writes (by decide)).trans (h_v18.trans (after_of_writes_sub _ WR Cert.ReferenceIdeal.Agree.ops5_writes (by decide)).symm)
  · exact (after_of_writes_sub _ WK Cert.KernelIdeal.Agree.ops5_writes (by decide)).trans (h_v23.trans (after_of_writes_sub _ WR Cert.ReferenceIdeal.Agree.ops5_writes (by decide)).symm)
  · run_agrees [h_v82]
  · run_agrees [h_v18]
  · run_agrees [h_v18]
  · run_agrees [h_v18]
  · after_results_simp; first | done | rfl
  · run_agrees [h_v18]
  · run_agrees [h_v18]
  · after_results_simp; first | done | rfl

set_option maxHeartbeats 800000 in
/-- Run 6 (operations 215 to 262): agreement on the 11 buffers live before it gives agreement on the 10 live after it. -/
theorem step6
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v87) = WR (Proc.devRef .tc Cert.ReferenceIdeal.main_v87)
      ∧ WK (Proc.devRef .tc Cert.KernelIdeal.main_v91) = WR (Proc.devRef .tc Cert.ReferenceIdeal.main_v91)
      ∧ WK (Proc.devRef .tc Cert.KernelIdeal.main_v95) = WR (Proc.devRef .tc Cert.ReferenceIdeal.main_v95)
      ∧ WK (Proc.devRef .tc Cert.KernelIdeal.main_v97) = WR (Proc.devRef .tc Cert.ReferenceIdeal.main_v97)
      ∧ WK (Proc.devRef .tc Cert.KernelIdeal.main_v102) = WR (Proc.devRef .tc Cert.ReferenceIdeal.main_v102)
      ∧ WK (Proc.devRef .tc Cert.KernelIdeal.main_v107) = WR (Proc.devRef .tc Cert.ReferenceIdeal.main_v107)
      ∧ WK (Proc.devRef .tc Cert.KernelIdeal.main_c_18) = WR (Proc.devRef .tc Cert.ReferenceIdeal.main_c_18)) :
    (after (Cert.KernelIdeal.Agree.ops6 (F := F)) WK) (Proc.devRef .tc Cert.KernelIdeal.main_v0) = (after (Cert.ReferenceIdeal.Agree.ops6 (F := F)) WR) (Proc.devRef .tc Cert.ReferenceIdeal.main_v0)
      ∧ (after (Cert.KernelIdeal.Agree.ops6 (F := F)) WK) (Proc.devRef .tc Cert.KernelIdeal.main_v18) = (after (Cert.ReferenceIdeal.Agree.ops6 (F := F)) WR) (Proc.devRef .tc Cert.ReferenceIdeal.main_v18)
      ∧ (after (Cert.KernelIdeal.Agree.ops6 (F := F)) WK) (Proc.devRef .tc Cert.KernelIdeal.main_v23) = (after (Cert.ReferenceIdeal.Agree.ops6 (F := F)) WR) (Proc.devRef .tc Cert.ReferenceIdeal.main_v23)
      ∧ (after (Cert.KernelIdeal.Agree.ops6 (F := F)) WK) (Proc.devRef .tc Cert.KernelIdeal.main_v85) = (after (Cert.ReferenceIdeal.Agree.ops6 (F := F)) WR) (Proc.devRef .tc Cert.ReferenceIdeal.main_v85)
      ∧ (after (Cert.KernelIdeal.Agree.ops6 (F := F)) WK) (Proc.devRef .tc Cert.KernelIdeal.main_v91) = (after (Cert.ReferenceIdeal.Agree.ops6 (F := F)) WR) (Proc.devRef .tc Cert.ReferenceIdeal.main_v91)
      ∧ (after (Cert.KernelIdeal.Agree.ops6 (F := F)) WK) (Proc.devRef .tc Cert.KernelIdeal.main_v102) = (after (Cert.ReferenceIdeal.Agree.ops6 (F := F)) WR) (Proc.devRef .tc Cert.ReferenceIdeal.main_v102)
      ∧ (after (Cert.KernelIdeal.Agree.ops6 (F := F)) WK) (Proc.devRef .tc Cert.KernelIdeal.main_v110) = (after (Cert.ReferenceIdeal.Agree.ops6 (F := F)) WR) (Proc.devRef .tc Cert.ReferenceIdeal.main_v110)
      ∧ (after (Cert.KernelIdeal.Agree.ops6 (F := F)) WK) (Proc.devRef .tc Cert.KernelIdeal.main_v115) = (after (Cert.ReferenceIdeal.Agree.ops6 (F := F)) WR) (Proc.devRef .tc Cert.ReferenceIdeal.main_v115)
      ∧ (after (Cert.KernelIdeal.Agree.ops6 (F := F)) WK) (Proc.devRef .tc Cert.KernelIdeal.main_v120) = (after (Cert.ReferenceIdeal.Agree.ops6 (F := F)) WR) (Proc.devRef .tc Cert.ReferenceIdeal.main_v120)
      ∧ (after (Cert.KernelIdeal.Agree.ops6 (F := F)) WK) (Proc.devRef .tc Cert.KernelIdeal.main_c_21) = (after (Cert.ReferenceIdeal.Agree.ops6 (F := F)) WR) (Proc.devRef .tc Cert.ReferenceIdeal.main_c_21) := by
  obtain ⟨h_v0, h_v18, h_v23, h_v85, h_v87, h_v91, h_v95, h_v97, h_v102, h_v107, h_c_18⟩ := h
  refine ⟨?_, ?_, ?_, ?_, ?_, ?_, ?_, ?_, ?_, ?_⟩
  · exact (after_of_writes_sub _ WK Cert.KernelIdeal.Agree.ops6_writes (by decide)).trans (h_v0.trans (after_of_writes_sub _ WR Cert.ReferenceIdeal.Agree.ops6_writes (by decide)).symm)
  · exact (after_of_writes_sub _ WK Cert.KernelIdeal.Agree.ops6_writes (by decide)).trans (h_v18.trans (after_of_writes_sub _ WR Cert.ReferenceIdeal.Agree.ops6_writes (by decide)).symm)
  · exact (after_of_writes_sub _ WK Cert.KernelIdeal.Agree.ops6_writes (by decide)).trans (h_v23.trans (after_of_writes_sub _ WR Cert.ReferenceIdeal.Agree.ops6_writes (by decide)).symm)
  · exact (after_of_writes_sub _ WK Cert.KernelIdeal.Agree.ops6_writes (by decide)).trans (h_v85.trans (after_of_writes_sub _ WR Cert.ReferenceIdeal.Agree.ops6_writes (by decide)).symm)
  · exact (after_of_writes_sub _ WK Cert.KernelIdeal.Agree.ops6_writes (by decide)).trans (h_v91.trans (after_of_writes_sub _ WR Cert.ReferenceIdeal.Agree.ops6_writes (by decide)).symm)
  · exact (after_of_writes_sub _ WK Cert.KernelIdeal.Agree.ops6_writes (by decide)).trans (h_v102.trans (after_of_writes_sub _ WR Cert.ReferenceIdeal.Agree.ops6_writes (by decide)).symm)
  · run_agrees [h_v87, h_v107, h_c_18]
  · run_agrees [h_v91, h_v95, h_v97]
  · run_agrees [h_v95, h_v97]
  · after_results_simp; first | done | rfl

set_option maxHeartbeats 800000 in
/-- Run 7 (operations 263 to 321): agreement on the 10 buffers live before it gives agreement on the 5 live after it. -/
theorem step7
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v91) = WR (Proc.devRef .tc Cert.ReferenceIdeal.main_v91)
      ∧ WK (Proc.devRef .tc Cert.KernelIdeal.main_v102) = WR (Proc.devRef .tc Cert.ReferenceIdeal.main_v102)
      ∧ WK (Proc.devRef .tc Cert.KernelIdeal.main_v110) = WR (Proc.devRef .tc Cert.ReferenceIdeal.main_v110)
      ∧ WK (Proc.devRef .tc Cert.KernelIdeal.main_v115) = WR (Proc.devRef .tc Cert.ReferenceIdeal.main_v115)
      ∧ WK (Proc.devRef .tc Cert.KernelIdeal.main_v120) = WR (Proc.devRef .tc Cert.ReferenceIdeal.main_v120)
      ∧ WK (Proc.devRef .tc Cert.KernelIdeal.main_c_21) = WR (Proc.devRef .tc Cert.ReferenceIdeal.main_c_21)) :
    (after (Cert.KernelIdeal.Agree.ops7 (F := F)) WK) (Proc.devRef .tc Cert.KernelIdeal.main_v0) = (after (Cert.ReferenceIdeal.Agree.ops7 (F := F)) WR) (Proc.devRef .tc Cert.ReferenceIdeal.main_v0)
      ∧ (after (Cert.KernelIdeal.Agree.ops7 (F := F)) WK) (Proc.devRef .tc Cert.KernelIdeal.main_v18) = (after (Cert.ReferenceIdeal.Agree.ops7 (F := F)) WR) (Proc.devRef .tc Cert.ReferenceIdeal.main_v18)
      ∧ (after (Cert.KernelIdeal.Agree.ops7 (F := F)) WK) (Proc.devRef .tc Cert.KernelIdeal.main_v23) = (after (Cert.ReferenceIdeal.Agree.ops7 (F := F)) WR) (Proc.devRef .tc Cert.ReferenceIdeal.main_v23)
      ∧ (after (Cert.KernelIdeal.Agree.ops7 (F := F)) WK) (Proc.devRef .tc Cert.KernelIdeal.main_v85) = (after (Cert.ReferenceIdeal.Agree.ops7 (F := F)) WR) (Proc.devRef .tc Cert.ReferenceIdeal.main_v85)
      ∧ (after (Cert.KernelIdeal.Agree.ops7 (F := F)) WK) (Proc.devRef .tc Cert.KernelIdeal.main_v154) = (after (Cert.ReferenceIdeal.Agree.ops7 (F := F)) WR) (Proc.devRef .tc Cert.ReferenceIdeal.main_v154) := by
  obtain ⟨h_v0, h_v18, h_v23, h_v85, h_v91, h_v102, h_v110, h_v115, h_v120, h_c_21⟩ := h
  refine ⟨?_, ?_, ?_, ?_, ?_⟩
  · exact (after_of_writes_sub _ WK Cert.KernelIdeal.Agree.ops7_writes (by decide)).trans (h_v0.trans (after_of_writes_sub _ WR Cert.ReferenceIdeal.Agree.ops7_writes (by decide)).symm)
  · exact (after_of_writes_sub _ WK Cert.KernelIdeal.Agree.ops7_writes (by decide)).trans (h_v18.trans (after_of_writes_sub _ WR Cert.ReferenceIdeal.Agree.ops7_writes (by decide)).symm)
  · exact (after_of_writes_sub _ WK Cert.KernelIdeal.Agree.ops7_writes (by decide)).trans (h_v23.trans (after_of_writes_sub _ WR Cert.ReferenceIdeal.Agree.ops7_writes (by decide)).symm)
  · exact (after_of_writes_sub _ WK Cert.KernelIdeal.Agree.ops7_writes (by decide)).trans (h_v85.trans (after_of_writes_sub _ WR Cert.ReferenceIdeal.Agree.ops7_writes (by decide)).symm)
  · run_agrees [h_v0, h_v91, h_v102, h_v110, h_v115, h_v120, h_c_21]

/-- The whole part: agreement on the 4 buffers live before it gives agreement on the 5 live after it. -/
theorem part0
    (h : WK (Proc.devRef .tc Cert.KernelIdeal.main_arg0) = WR (Proc.devRef .tc Cert.ReferenceIdeal.main_arg0)
      ∧ WK (Proc.devRef .tc Cert.KernelIdeal.main_arg1) = WR (Proc.devRef .tc Cert.ReferenceIdeal.main_arg1)
      ∧ WK (Proc.devRef .tc Cert.KernelIdeal.main_arg2) = WR (Proc.devRef .tc Cert.ReferenceIdeal.main_arg2)
      ∧ WK (Proc.devRef .tc Cert.KernelIdeal.main_arg3) = WR (Proc.devRef .tc Cert.ReferenceIdeal.main_arg3)) :
    (after (Cert.KernelIdeal.Agree.part0 (F := F)) WK) (Proc.devRef .tc Cert.KernelIdeal.main_v0) = (after (Cert.ReferenceIdeal.Agree.part0 (F := F)) WR) (Proc.devRef .tc Cert.ReferenceIdeal.main_v0)
      ∧ (after (Cert.KernelIdeal.Agree.part0 (F := F)) WK) (Proc.devRef .tc Cert.KernelIdeal.main_v18) = (after (Cert.ReferenceIdeal.Agree.part0 (F := F)) WR) (Proc.devRef .tc Cert.ReferenceIdeal.main_v18)
      ∧ (after (Cert.KernelIdeal.Agree.part0 (F := F)) WK) (Proc.devRef .tc Cert.KernelIdeal.main_v23) = (after (Cert.ReferenceIdeal.Agree.part0 (F := F)) WR) (Proc.devRef .tc Cert.ReferenceIdeal.main_v23)
      ∧ (after (Cert.KernelIdeal.Agree.part0 (F := F)) WK) (Proc.devRef .tc Cert.KernelIdeal.main_v85) = (after (Cert.ReferenceIdeal.Agree.part0 (F := F)) WR) (Proc.devRef .tc Cert.ReferenceIdeal.main_v85)
      ∧ (after (Cert.KernelIdeal.Agree.part0 (F := F)) WK) (Proc.devRef .tc Cert.KernelIdeal.main_v154) = (after (Cert.ReferenceIdeal.Agree.part0 (F := F)) WR) (Proc.devRef .tc Cert.ReferenceIdeal.main_v154) := by
  have s0 := step0 WK WR h
  have s1 := step1 (after (Cert.KernelIdeal.Agree.ops0 (F := F)) WK) (after (Cert.ReferenceIdeal.Agree.ops0 (F := F)) WR) s0
  have s2 := step2 (after (Cert.KernelIdeal.Agree.ops1 (F := F)) (after (Cert.KernelIdeal.Agree.ops0 (F := F)) WK)) (after (Cert.ReferenceIdeal.Agree.ops1 (F := F)) (after (Cert.ReferenceIdeal.Agree.ops0 (F := F)) WR)) s1
  have s3 := step3 (after (Cert.KernelIdeal.Agree.ops2 (F := F)) (after (Cert.KernelIdeal.Agree.ops1 (F := F)) (after (Cert.KernelIdeal.Agree.ops0 (F := F)) WK))) (after (Cert.ReferenceIdeal.Agree.ops2 (F := F)) (after (Cert.ReferenceIdeal.Agree.ops1 (F := F)) (after (Cert.ReferenceIdeal.Agree.ops0 (F := F)) WR))) s2
  have s4 := step4 (after (Cert.KernelIdeal.Agree.ops3 (F := F)) (after (Cert.KernelIdeal.Agree.ops2 (F := F)) (after (Cert.KernelIdeal.Agree.ops1 (F := F)) (after (Cert.KernelIdeal.Agree.ops0 (F := F)) WK)))) (after (Cert.ReferenceIdeal.Agree.ops3 (F := F)) (after (Cert.ReferenceIdeal.Agree.ops2 (F := F)) (after (Cert.ReferenceIdeal.Agree.ops1 (F := F)) (after (Cert.ReferenceIdeal.Agree.ops0 (F := F)) WR)))) s3
  have s5 := step5 (after (Cert.KernelIdeal.Agree.ops4 (F := F)) (after (Cert.KernelIdeal.Agree.ops3 (F := F)) (after (Cert.KernelIdeal.Agree.ops2 (F := F)) (after (Cert.KernelIdeal.Agree.ops1 (F := F)) (after (Cert.KernelIdeal.Agree.ops0 (F := F)) WK))))) (after (Cert.ReferenceIdeal.Agree.ops4 (F := F)) (after (Cert.ReferenceIdeal.Agree.ops3 (F := F)) (after (Cert.ReferenceIdeal.Agree.ops2 (F := F)) (after (Cert.ReferenceIdeal.Agree.ops1 (F := F)) (after (Cert.ReferenceIdeal.Agree.ops0 (F := F)) WR))))) s4
  have s6 := step6 (after (Cert.KernelIdeal.Agree.ops5 (F := F)) (after (Cert.KernelIdeal.Agree.ops4 (F := F)) (after (Cert.KernelIdeal.Agree.ops3 (F := F)) (after (Cert.KernelIdeal.Agree.ops2 (F := F)) (after (Cert.KernelIdeal.Agree.ops1 (F := F)) (after (Cert.KernelIdeal.Agree.ops0 (F := F)) WK)))))) (after (Cert.ReferenceIdeal.Agree.ops5 (F := F)) (after (Cert.ReferenceIdeal.Agree.ops4 (F := F)) (after (Cert.ReferenceIdeal.Agree.ops3 (F := F)) (after (Cert.ReferenceIdeal.Agree.ops2 (F := F)) (after (Cert.ReferenceIdeal.Agree.ops1 (F := F)) (after (Cert.ReferenceIdeal.Agree.ops0 (F := F)) WR)))))) s5
  have s7 := step7 (after (Cert.KernelIdeal.Agree.ops6 (F := F)) (after (Cert.KernelIdeal.Agree.ops5 (F := F)) (after (Cert.KernelIdeal.Agree.ops4 (F := F)) (after (Cert.KernelIdeal.Agree.ops3 (F := F)) (after (Cert.KernelIdeal.Agree.ops2 (F := F)) (after (Cert.KernelIdeal.Agree.ops1 (F := F)) (after (Cert.KernelIdeal.Agree.ops0 (F := F)) WK))))))) (after (Cert.ReferenceIdeal.Agree.ops6 (F := F)) (after (Cert.ReferenceIdeal.Agree.ops5 (F := F)) (after (Cert.ReferenceIdeal.Agree.ops4 (F := F)) (after (Cert.ReferenceIdeal.Agree.ops3 (F := F)) (after (Cert.ReferenceIdeal.Agree.ops2 (F := F)) (after (Cert.ReferenceIdeal.Agree.ops1 (F := F)) (after (Cert.ReferenceIdeal.Agree.ops0 (F := F)) WR))))))) s6
  simp only [Cert.KernelIdeal.Agree.part0, Cert.ReferenceIdeal.Agree.part0, after_append]
  exact s7

end Cert.Agree

end
-- ==== Proof.Agree.Part1.lean ====
/- The kernel's program and the reference compute the pooled feature matrix by the same 2605 operations.  This part is
  operations 322 to 625 (the generated stretches 28 to 51), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 322 to 366 of the host part, in order. -/
abbrev ops8 : List (HloOp τ sig (Elt F)) :=
  [ StableHlo.nullary main_cst_25 (constant S_ .f32 0xFF800000#32),
    StableHlo.binary main_v154 main_cst_25 main_v155 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v155 main_v156 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v156 main_v157 rfl shapeCasts_S512x7x7_S25088,
    StableHlo.unary main_v18 main_v158 ((extractStridedSlice S1x1 ![1, 1] · slices_S3x4_S1x1_1_1) : (⟨S3x4, .i32⟩ : BufTy).Contents (Elt F) → (⟨S1x1, .i32⟩ : BufTy).Contents (Elt F)),
    StableHlo.reshape main_v158 main_v159 rfl shapeCasts_S1x1_S_,
    StableHlo.unary main_v18 main_v160 ((extractStridedSlice S1x1 ![1, 3] · slices_S3x4_S1x1_1_3) : (⟨S3x4, .i32⟩ : BufTy).Contents (Elt F) → (⟨S1x1, .i32⟩ : BufTy).Contents (Elt F)),
    StableHlo.reshape main_v160 main_v161 rfl shapeCasts_S1x1_S_,
    StableHlo.unary main_v18 main_v162 ((extractStridedSlice S1x1 ![1, 0] · slices_S3x4_S1x1_1_0) : (⟨S3x4, .i32⟩ : BufTy).Contents (Elt F) → (⟨S1x1, .i32⟩ : BufTy).Contents (Elt F)),
    StableHlo.reshape main_v162 main_v163 rfl shapeCasts_S1x1_S_,
    StableHlo.unary main_v18 main_v164 ((extractStridedSlice S1x1 ![1, 2] · slices_S3x4_S1x1_1_2) : (⟨S3x4, .i32⟩ : BufTy).Contents (Elt F) → (⟨S1x1, .i32⟩ : BufTy).Contents (Elt F)),
    StableHlo.reshape main_v164 main_v165 rfl shapeCasts_S1x1_S_,
    StableHlo.binary main_v161 main_v159 main_v166 (subi : (⟨S_, .i32⟩ : BufTy).Contents (Elt F) → (⟨S_, .i32⟩ : BufTy).Contents (Elt F) → (⟨S_, .i32⟩ : BufTy).Contents (Elt F)),
    StableHlo.binary main_v165 main_v163 main_v167 (subi : (⟨S_, .i32⟩ : BufTy).Contents (Elt F) → (⟨S_, .i32⟩ : BufTy).Contents (Elt F) → (⟨S_, .i32⟩ : BufTy).Contents (Elt F)),
    StableHlo.nullary main_v168 (iotaInDim S7 32 0),
    StableHlo.nullary main_v169 (iotaInDim S7 32 0),
    StableHlo.unary main_v166 main_v170 (broadcastInDim S7 ![] bcast_S_S7 : (⟨S_, .i32⟩ : BufTy).Contents (Elt F) → (⟨S7, .i32⟩ : BufTy).Contents (Elt F)),
    StableHlo.binary main_v168 main_v170 main_v171 (muli : (⟨S7, .i32⟩ : BufTy).Contents (Elt F) → (⟨S7, .i32⟩ : BufTy).Contents (Elt F) → (⟨S7, .i32⟩ : BufTy).Contents (Elt F)),
    StableHlo.nullary main_c_26 (constantI S_ 32 7#32),
    StableHlo.TRef.unary (.of main_c_26 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S7, .i32⟩) (broadcastInDim S7 ![] bcast_S_S7),
    StableHlo.TRef.binary (.of main_v171 : StableHlo.TRef sig ⟨S7, .i32⟩) (.of main_call14_v1 : StableHlo.TRef sig ⟨S7, .i32⟩) (.of main_call14_v2 : StableHlo.TRef sig ⟨S7, .i32⟩) Host.divsi,
    StableHlo.TRef.unary (.of main_v171 : StableHlo.TRef sig ⟨S7, .i32⟩) (.of main_call14_v3 : StableHlo.TRef sig ⟨S7, .i32⟩) signi,
    StableHlo.TRef.unary (.of main_call14_v0 : StableHlo.TRef sig ⟨S_, .i32⟩) (.of main_call14_v4 : StableHlo.TRef sig ⟨S_, .i32⟩) signi,
    StableHlo.TRef.unary (.of main_call14_v4 : StableHlo.TRef sig ⟨S_, .i32⟩) (.of main_call14_v5 : StableHlo.TRef sig ⟨S7, .i32⟩) (broadcastInDim S7 ![] bcast_S_S7),
    StableHlo.TRef.binary (.of main_call14_v3 : StableHlo.TRef sig ⟨S7, .i32⟩) (.of main_call14_v5 : StableHlo.TRef sig ⟨S7, .i32⟩) (.of main_call14_v6 : StableHlo.TRef sig ⟨S7, .i1⟩) (cmpi .ne),
    StableHlo.TRef.unary (.of main_call14_v0 : StableHlo.TRef sig ⟨S_, .i32⟩) (.of main_call14_v7 : StableHlo.TRef sig ⟨S7, .i32⟩) (broadcastInDim S7 ![] bcast_S_S7),
    StableHlo.TRef.binary (.of main_v171 : StableHlo.TRef sig ⟨S7, .i32⟩) (.of main_call14_v7 : StableHlo.TRef sig ⟨S7, .i32⟩) (.of main_call14_v8 : StableHlo.TRef sig ⟨S7, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v9 : StableHlo.TRef sig ⟨S7, .i32⟩) (broadcastInDim S7 ![] bcast_S_S7),
    StableHlo.TRef.binary (.of main_call14_v8 : StableHlo.TRef sig ⟨S7, .i32⟩) (.of main_call14_v9 : StableHlo.TRef sig ⟨S7, .i32⟩) (.of main_call14_v10 : StableHlo.TRef sig ⟨S7, .i1⟩) (cmpi .ne),
    StableHlo.TRef.binary (.of main_call14_v6 : StableHlo.TRef sig ⟨S7, .i1⟩) (.of main_call14_v10 : StableHlo.TRef sig ⟨S7, .i1⟩) (.of main_call14_v11 : StableHlo.TRef sig ⟨S7, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v12 : StableHlo.TRef sig ⟨S7, .i32⟩) (broadcastInDim S7 ![] bcast_S_S7),
    StableHlo.TRef.binary (.of main_call14_v2 : StableHlo.TRef sig ⟨S7, .i32⟩) (.of main_call14_v12 : StableHlo.TRef sig ⟨S7, .i32⟩) (.of main_call14_v13 : StableHlo.TRef sig ⟨S7, .i32⟩) subi,
    StableHlo.TRef.ternary (.of main_call14_v11 : StableHlo.TRef sig ⟨S7, .i1⟩) (.of main_call14_v13 : StableHlo.TRef sig ⟨S7, .i32⟩) (.of main_call14_v2 : StableHlo.TRef sig ⟨S7, .i32⟩) (.of main_v172 : StableHlo.TRef sig ⟨S7, .i32⟩) select,
    StableHlo.unary main_v159 main_v173 (broadcastInDim S7 ![] bcast_S_S7 : (⟨S_, .i32⟩ : BufTy).Contents (Elt F) → (⟨S7, .i32⟩ : BufTy).Contents (Elt F)),
    StableHlo.binary main_v173 main_v172 main_v174 (addi : (⟨S7, .i32⟩ : BufTy).Contents (Elt F) → (⟨S7, .i32⟩ : BufTy).Contents (Elt F) → (⟨S7, .i32⟩ : BufTy).Contents (Elt F)),
    StableHlo.nullary main_c_27 (constantI S_ 32 1#32),
    StableHlo.unary main_c_27 main_v175 (broadcastInDim S7 ![] bcast_S_S7 : (⟨S_, .i32⟩ : BufTy).Contents (Elt F) → (⟨S7, .i32⟩ : BufTy).Contents (Elt F)),
    StableHlo.binary main_v168 main_v175 main_v176 (addi : (⟨S7, .i32⟩ : BufTy).Contents (Elt F) → (⟨S7, .i32⟩ : BufTy).Contents (Elt F) → (⟨S7, .i32⟩ : BufTy).Contents (Elt F)),
    StableHlo.unary main_v176 main_v177 (negi : (⟨S7, .i32⟩ : BufTy).Contents (Elt F) → (⟨S7, .i32⟩ : BufTy).Contents (Elt F)),
    StableHlo.unary main_v166 main_v178 (broadcastInDim S7 ![] bcast_S_S7 : (⟨S_, .i32⟩ : BufTy).Contents (Elt F) → (⟨S7, .i32⟩ : BufTy).Contents (Elt F)),
    StableHlo.binary main_v177 main_v178 main_v179 (muli : (⟨S7, .i32⟩ : BufTy).Contents (Elt F) → (⟨S7, .i32⟩ : BufTy).Contents (Elt F) → (⟨S7, .i32⟩ : BufTy).Contents (Elt F)),
    StableHlo.nullary main_c_28 (constantI S_ 32 7#32) ]
/-- The buffers those operations write, in order. -/
abbrev ops8_W : List (Ref sig .tc) :=
  [main_cst_25, main_v155, main_v156, main_v157, main_v158, main_v159, main_v160, main_v161, main_v162, main_v163, main_v164, main_v165, main_v166, main_v167, main_v168, main_v169, main_v170, main_v171, main_c_26, main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v172, main_v173, main_v174, main_c_27, main_v175, main_v176, main_v177, main_v178, main_v179, main_c_28]
/-- Each operation writes its own result buffer and nothing else. -/
theorem ops8_writes : (ops8 : List (HloOp τ sig (Elt F))).Forall fun op => op.writes ⊆ (ops8_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 367 to 414 of the host part, in order. -/
abbrev ops9 : List (HloOp τ sig (Elt F)) :=
  [ StableHlo.TRef.unary (.of main_c_28 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S7, .i32⟩) (broadcastInDim S7 ![] bcast_S_S7),
    StableHlo.TRef.binary (.of main_v179 : StableHlo.TRef sig ⟨S7, .i32⟩) (.of main_call15_v1 : StableHlo.TRef sig ⟨S7, .i32⟩) (.of main_call15_v2 : StableHlo.TRef sig ⟨S7, .i32⟩) Host.divsi,
    StableHlo.TRef.unary (.of main_v179 : StableHlo.TRef sig ⟨S7, .i32⟩) (.of main_call15_v3 : StableHlo.TRef sig ⟨S7, .i32⟩) signi,
    StableHlo.TRef.unary (.of main_call15_v0 : StableHlo.TRef sig ⟨S_, .i32⟩) (.of main_call15_v4 : StableHlo.TRef sig ⟨S_, .i32⟩) signi,
    StableHlo.TRef.unary (.of main_call15_v4 : StableHlo.TRef sig ⟨S_, .i32⟩) (.of main_call15_v5 : StableHlo.TRef sig ⟨S7, .i32⟩) (broadcastInDim S7 ![] bcast_S_S7),
    StableHlo.TRef.binary (.of main_call15_v3 : StableHlo.TRef sig ⟨S7, .i32⟩) (.of main_call15_v5 : StableHlo.TRef sig ⟨S7, .i32⟩) (.of main_call15_v6 : StableHlo.TRef sig ⟨S7, .i1⟩) (cmpi .ne),
    StableHlo.TRef.unary (.of main_call15_v0 : StableHlo.TRef sig ⟨S_, .i32⟩) (.of main_call15_v7 : StableHlo.TRef sig ⟨S7, .i32⟩) (broadcastInDim S7 ![] bcast_S_S7),
    StableHlo.TRef.binary (.of main_v179 : StableHlo.TRef sig ⟨S7, .i32⟩) (.of main_call15_v7 : StableHlo.TRef sig ⟨S7, .i32⟩) (.of main_call15_v8 : StableHlo.TRef sig ⟨S7, .i32⟩) Host.remsi,
    StableHlo.TRef.nullary (.of main_call15_c : StableHlo.TRef sig ⟨S_, .i32⟩) (constantI S_ 32 0#32),
    StableHlo.TRef.unary (.of main_call15_c : StableHlo.TRef sig ⟨S_, .i32⟩) (.of main_call15_v9 : StableHlo.TRef sig ⟨S7, .i32⟩) (broadcastInDim S7 ![] bcast_S_S7),
    StableHlo.TRef.binary (.of main_call15_v8 : StableHlo.TRef sig ⟨S7, .i32⟩) (.of main_call15_v9 : StableHlo.TRef sig ⟨S7, .i32⟩) (.of main_call15_v10 : StableHlo.TRef sig ⟨S7, .i1⟩) (cmpi .ne),
    StableHlo.TRef.binary (.of main_call15_v6 : StableHlo.TRef sig ⟨S7, .i1⟩) (.of main_call15_v10 : StableHlo.TRef sig ⟨S7, .i1⟩) (.of main_call15_v11 : StableHlo.TRef sig ⟨S7, .i1⟩) andi,
    StableHlo.TRef.nullary (.of main_call15_c_0 : StableHlo.TRef sig ⟨S_, .i32⟩) (constantI S_ 32 1#32),
    StableHlo.TRef.unary (.of main_call15_c_0 : StableHlo.TRef sig ⟨S_, .i32⟩) (.of main_call15_v12 : StableHlo.TRef sig ⟨S7, .i32⟩) (broadcastInDim S7 ![] bcast_S_S7),
    StableHlo.TRef.binary (.of main_call15_v2 : StableHlo.TRef sig ⟨S7, .i32⟩) (.of main_call15_v12 : StableHlo.TRef sig ⟨S7, .i32⟩) (.of main_call15_v13 : StableHlo.TRef sig ⟨S7, .i32⟩) subi,
    StableHlo.TRef.ternary (.of main_call15_v11 : StableHlo.TRef sig ⟨S7, .i1⟩) (.of main_call15_v13 : StableHlo.TRef sig ⟨S7, .i32⟩) (.of main_call15_v2 : StableHlo.TRef sig ⟨S7, .i32⟩) (.of main_v180 : StableHlo.TRef sig ⟨S7, .i32⟩) select,
    StableHlo.unary main_v159 main_v181 (broadcastInDim S7 ![] bcast_S_S7 : (⟨S_, .i32⟩ : BufTy).Contents (Elt F) → (⟨S7, .i32⟩ : BufTy).Contents (Elt F)),
    StableHlo.binary main_v181 main_v180 main_v182 (subi : (⟨S7, .i32⟩ : BufTy).Contents (Elt F) → (⟨S7, .i32⟩ : BufTy).Contents (Elt F) → (⟨S7, .i32⟩ : BufTy).Contents (Elt F)),
    StableHlo.unary main_v167 main_v183 (broadcastInDim S7 ![] bcast_S_S7 : (⟨S_, .i32⟩ : BufTy).Contents (Elt F) → (⟨S7, .i32⟩ : BufTy).Contents (Elt F)),
    StableHlo.binary main_v169 main_v183 main_v184 (muli : (⟨S7, .i32⟩ : BufTy).Contents (Elt F) → (⟨S7, .i32⟩ : BufTy).Contents (Elt F) → (⟨S7, .i32⟩ : BufTy).Contents (Elt F)),
    StableHlo.nullary main_c_29 (constantI S_ 32 7#32),
    StableHlo.TRef.unary (.of main_c_29 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S7, .i32⟩) (broadcastInDim S7 ![] bcast_S_S7),
    StableHlo.TRef.binary (.of main_v184 : StableHlo.TRef sig ⟨S7, .i32⟩) (.of main_call16_v1 : StableHlo.TRef sig ⟨S7, .i32⟩) (.of main_call16_v2 : StableHlo.TRef sig ⟨S7, .i32⟩) Host.divsi,
    StableHlo.TRef.unary (.of main_v184 : StableHlo.TRef sig ⟨S7, .i32⟩) (.of main_call16_v3 : StableHlo.TRef sig ⟨S7, .i32⟩) signi,
    StableHlo.TRef.unary (.of main_call16_v0 : StableHlo.TRef sig ⟨S_, .i32⟩) (.of main_call16_v4 : StableHlo.TRef sig ⟨S_, .i32⟩) signi,
    StableHlo.TRef.unary (.of main_call16_v4 : StableHlo.TRef sig ⟨S_, .i32⟩) (.of main_call16_v5 : StableHlo.TRef sig ⟨S7, .i32⟩) (broadcastInDim S7 ![] bcast_S_S7),
    StableHlo.TRef.binary (.of main_call16_v3 : StableHlo.TRef sig ⟨S7, .i32⟩) (.of main_call16_v5 : StableHlo.TRef sig ⟨S7, .i32⟩) (.of main_call16_v6 : StableHlo.TRef sig ⟨S7, .i1⟩) (cmpi .ne),
    StableHlo.TRef.unary (.of main_call16_v0 : StableHlo.TRef sig ⟨S_, .i32⟩) (.of main_call16_v7 : StableHlo.TRef sig ⟨S7, .i32⟩) (broadcastInDim S7 ![] bcast_S_S7),
    StableHlo.TRef.binary (.of main_v184 : StableHlo.TRef sig ⟨S7, .i32⟩) (.of main_call16_v7 : StableHlo.TRef sig ⟨S7, .i32⟩) (.of main_call16_v8 : StableHlo.TRef sig ⟨S7, .i32⟩) Host.remsi,
    StableHlo.TRef.nullary (.of main_call16_c : StableHlo.TRef sig ⟨S_, .i32⟩) (constantI S_ 32 0#32),
    StableHlo.TRef.unary (.of main_call16_c : StableHlo.TRef sig ⟨S_, .i32⟩) (.of main_call16_v9 : StableHlo.TRef sig ⟨S7, .i32⟩) (broadcastInDim S7 ![] bcast_S_S7),
    StableHlo.TRef.binary (.of main_call16_v8 : StableHlo.TRef sig ⟨S7, .i32⟩) (.of main_call16_v9 : StableHlo.TRef sig ⟨S7, .i32⟩) (.of main_call16_v10 : StableHlo.TRef sig ⟨S7, .i1⟩) (cmpi .ne),
    StableHlo.TRef.binary (.of main_call16_v6 : StableHlo.TRef sig ⟨S7, .i1⟩) (.of main_call16_v10 : StableHlo.TRef sig ⟨S7, .i1⟩) (.of main_call16_v11 : StableHlo.TRef sig ⟨S7, .i1⟩) andi,
    StableHlo.TRef.nullary (.of main_call16_c_0 : StableHlo.TRef sig ⟨S_, .i32⟩) (constantI S_ 32 1#32),
    StableHlo.TRef.unary (.of main_call16_c_0 : StableHlo.TRef sig ⟨S_, .i32⟩) (.of main_call16_v12 : StableHlo.TRef sig ⟨S7, .i32⟩) (broadcastInDim S7 ![] bcast_S_S7),
    StableHlo.TRef.binary (.of main_call16_v2 : StableHlo.TRef sig ⟨S7, .i32⟩) (.of main_call16_v12 : StableHlo.TRef sig ⟨S7, .i32⟩) (.of main_call16_v13 : StableHlo.TRef sig ⟨S7, .i32⟩) subi,
    StableHlo.TRef.ternary (.of main_call16_v11 : StableHlo.TRef sig ⟨S7, .i1⟩) (.of main_call16_v13 : StableHlo.TRef sig ⟨S7, .i32⟩) (.of main_call16_v2 : StableHlo.TRef sig ⟨S7, .i32⟩) (.of main_v185 : StableHlo.TRef sig ⟨S7, .i32⟩) select,
    StableHlo.unary main_v163 main_v186 (broadcastInDim S7 ![] bcast_S_S7 : (⟨S_, .i32⟩ : BufTy).Contents (Elt F) → (⟨S7, .i32⟩ : BufTy).Contents (Elt F)),
    StableHlo.binary main_v186 main_v185 main_v187 (addi : (⟨S7, .i32⟩ : BufTy).Contents (Elt F) → (⟨S7, .i32⟩ : BufTy).Contents (Elt F) → (⟨S7, .i32⟩ : BufTy).Contents (Elt F)),
    StableHlo.nullary main_c_30 (constantI S_ 32 1#32),
    StableHlo.unary main_c_30 main_v188 (broadcastInDim S7 ![] bcast_S_S7 : (⟨S_, .i32⟩ : BufTy).Contents (Elt F) → (⟨S7, .i32⟩ : BufTy).Contents (Elt F)),
    StableHlo.binary main_v169 main_v188 main_v189 (addi : (⟨S7, .i32⟩ : BufTy).Contents (Elt F) → (⟨S7, .i32⟩ : BufTy).Contents (Elt F) → (⟨S7, .i32⟩ : BufTy).Contents (Elt F)),
    StableHlo.unary main_v189 main_v190 (negi : (⟨S7, .i32⟩ : BufTy).Contents (Elt F) → (⟨S7, .i32⟩ : BufTy).Contents (Elt F)),
    StableHlo.unary main_v167 main_v191 (broadcastInDim S7 ![] bcast_S_S7 : (⟨S_, .i32⟩ : BufTy).Contents (Elt F) → (⟨S7, .i32⟩ : BufTy).Contents (Elt F)),
    StableHlo.binary main_v190 main_v191 main_v192 (muli : (⟨S7, .i32⟩ : BufTy).Contents (Elt F) → (⟨S7, .i32⟩ : BufTy).Contents (Elt F) → (⟨S7, .i32⟩ : BufTy).Contents (Elt F)),
    StableHlo.nullary main_c_31 (constantI S_ 32 7#32) ]
/-- The buffers those operations write, in order. -/
abbrev ops9_W : List (Ref sig .tc) :=
  [main_call15_v0, main_call15_v1, main_call15_v2, main_call15_v3, main_call15_v4, main_call15_v5, main_call15_v6, main_call15_v7, main_call15_v8, main_call15_c, main_call15_v9, main_call15_v10, main_call15_v11, main_call15_c_0, main_call15_v12, main_call15_v13, main_v180, main_v181, main_v182, main_v183, main_v184, main_c_29, main_call16_v0, main_call16_v1, main_call16_v2, main_call16_v3, main_call16_v4, main_call16_v5, main_call16_v6, main_call16_v7, main_call16_v8, main_call16_c, main_call16_v9, main_call16_v10, main_call16_v11, main_call16_c_0, main_call16_v12, main_call16_v13, main_v185, main_v186, main_v187, main_c_30, main_v188, main_v189, main_v190, main_v191, main_v192, main_c_31]
/-- Each operation writes its own result buffer and nothing else. -/
theorem ops9_writes : (ops9 : List (HloOp τ sig (Elt F))).Forall fun op => op.writes ⊆ (ops9_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 415 to 473 of the host part, in order. -/
abbrev ops10 : List (HloOp τ sig (Elt F)) :=
  [ StableHlo.TRef.unary (.of main_c_31 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S7, .i32⟩) (broadcastInDim S7 ![] bcast_S_S7),
    StableHlo.TRef.binary (.of main_v192 : StableHlo.TRef sig ⟨S7, .i32⟩) (.of main_call17_v1 : StableHlo.TRef sig ⟨S7, .i32⟩) (.of main_call17_v2 : StableHlo.TRef sig ⟨S7, .i32⟩) Host.divsi,
    StableHlo.TRef.unary (.of main_v192 : StableHlo.TRef sig ⟨S7, .i32⟩) (.of main_call17_v3 : StableHlo.TRef sig ⟨S7, .i32⟩) signi,
    StableHlo.TRef.unary (.of main_call17_v0 : StableHlo.TRef sig ⟨S_, .i32⟩) (.of main_call17_v4 : StableHlo.TRef sig ⟨S_, .i32⟩) signi,
    StableHlo.TRef.unary (.of main_call17_v4 : StableHlo.TRef sig ⟨S_, .i32⟩) (.of main_call17_v5 : StableHlo.TRef sig ⟨S7, .i32⟩) (broadcastInDim S7 ![] bcast_S_S7),
    StableHlo.TRef.binary (.of main_call17_v3 : StableHlo.TRef sig ⟨S7, .i32⟩) (.of main_call17_v5 : StableHlo.TRef sig ⟨S7, .i32⟩) (.of main_call17_v6 : StableHlo.TRef sig ⟨S7, .i1⟩) (cmpi .ne),
    StableHlo.TRef.unary (.of main_call17_v0 : StableHlo.TRef sig ⟨S_, .i32⟩) (.of main_call17_v7 : StableHlo.TRef sig ⟨S7, .i32⟩) (broadcastInDim S7 ![] bcast_S_S7),
    StableHlo.TRef.binary (.of main_v192 : StableHlo.TRef sig ⟨S7, .i32⟩) (.of main_call17_v7 : StableHlo.TRef sig ⟨S7, .i32⟩) (.of main_call17_v8 : StableHlo.TRef sig ⟨S7, .i32⟩) Host.remsi,
    StableHlo.TRef.nullary (.of main_call17_c : StableHlo.TRef sig ⟨S_, .i32⟩) (constantI S_ 32 0#32),
    StableHlo.TRef.unary (.of main_call17_c : StableHlo.TRef sig ⟨S_, .i32⟩) (.of main_call17_v9 : StableHlo.TRef sig ⟨S7, .i32⟩) (broadcastInDim S7 ![] bcast_S_S7),
    StableHlo.TRef.binary (.of main_call17_v8 : StableHlo.TRef sig ⟨S7, .i32⟩) (.of main_call17_v9 : StableHlo.TRef sig ⟨S7, .i32⟩) (.of main_call17_v10 : StableHlo.TRef sig ⟨S7, .i1⟩) (cmpi .ne),
    StableHlo.TRef.binary (.of main_call17_v6 : StableHlo.TRef sig ⟨S7, .i1⟩) (.of main_call17_v10 : StableHlo.TRef sig ⟨S7, .i1⟩) (.of main_call17_v11 : StableHlo.TRef sig ⟨S7, .i1⟩) andi,
    StableHlo.TRef.nullary (.of main_call17_c_0 : StableHlo.TRef sig ⟨S_, .i32⟩) (constantI S_ 32 1#32),
    StableHlo.TRef.unary (.of main_call17_c_0 : StableHlo.TRef sig ⟨S_, .i32⟩) (.of main_call17_v12 : StableHlo.TRef sig ⟨S7, .i32⟩) (broadcastInDim S7 ![] bcast_S_S7),
    StableHlo.TRef.binary (.of main_call17_v2 : StableHlo.TRef sig ⟨S7, .i32⟩) (.of main_call17_v12 : StableHlo.TRef sig ⟨S7, .i32⟩) (.of main_call17_v13 : StableHlo.TRef sig ⟨S7, .i32⟩) subi,
    StableHlo.TRef.ternary (.of main_call17_v11 : StableHlo.TRef sig ⟨S7, .i1⟩) (.of main_call17_v13 : StableHlo.TRef sig ⟨S7, .i32⟩) (.of main_call17_v2 : StableHlo.TRef sig ⟨S7, .i32⟩) (.of main_v193 : StableHlo.TRef sig ⟨S7, .i32⟩) select,
    StableHlo.unary main_v163 main_v194 (broadcastInDim S7 ![] bcast_S_S7 : (⟨S_, .i32⟩ : BufTy).Contents (Elt F) → (⟨S7, .i32⟩ : BufTy).Contents (Elt F)),
    StableHlo.binary main_v194 main_v193 main_v195 (subi : (⟨S7, .i32⟩ : BufTy).Contents (Elt F) → (⟨S7, .i32⟩ : BufTy).Contents (Elt F) → (⟨S7, .i32⟩ : BufTy).Contents (Elt F)),
    StableHlo.nullary main_v196 (iotaInDim S64 32 0),
    StableHlo.nullary main_v197 (iotaInDim S64 32 0),
    StableHlo.unary main_v196 main_v198 (broadcastInDim S1x64 ![1] bcast_S64_S1x64_1 : (⟨S64, .i32⟩ : BufTy).Contents (Elt F) → (⟨S1x64, .i32⟩ : BufTy).Contents (Elt F)),
    StableHlo.unary main_v174 main_v199 (broadcastInDim S7x1 ![0] bcast_S7_S7x1_0 : (⟨S7, .i32⟩ : BufTy).Contents (Elt F) → (⟨S7x1, .i32⟩ : BufTy).Contents (Elt F)),
    StableHlo.unary main_v198 main_v200 (broadcastInDim S7x64 ![0, 1] bcast_S1x64_S7x64_0_1 : (⟨S1x64, .i32⟩ : BufTy).Contents (Elt F) → (⟨S7x64, .i32⟩ : BufTy).Contents (Elt F)),
    StableHlo.unary main_v199 main_v201 (broadcastInDim S7x64 ![0, 1] bcast_S7x1_S7x64_0_1 : (⟨S7x1, .i32⟩ : BufTy).Contents (Elt F) → (⟨S7x64, .i32⟩ : BufTy).Contents (Elt F)),
    StableHlo.binary main_v200 main_v201 main_v202 (cmpi .sge : (⟨S7x64, .i32⟩ : BufTy).Contents (Elt F) → (⟨S7x64, .i32⟩ : BufTy).Contents (Elt F) → (⟨S7x64, .i1⟩ : BufTy).Contents (Elt F)),
    StableHlo.unary main_v196 main_v203 (broadcastInDim S1x64 ![1] bcast_S64_S1x64_1 : (⟨S64, .i32⟩ : BufTy).Contents (Elt F) → (⟨S1x64, .i32⟩ : BufTy).Contents (Elt F)),
    StableHlo.unary main_v182 main_v204 (broadcastInDim S7x1 ![0] bcast_S7_S7x1_0 : (⟨S7, .i32⟩ : BufTy).Contents (Elt F) → (⟨S7x1, .i32⟩ : BufTy).Contents (Elt F)),
    StableHlo.unary main_v203 main_v205 (broadcastInDim S7x64 ![0, 1] bcast_S1x64_S7x64_0_1 : (⟨S1x64, .i32⟩ : BufTy).Contents (Elt F) → (⟨S7x64, .i32⟩ : BufTy).Contents (Elt F)),
    StableHlo.unary main_v204 main_v206 (broadcastInDim S7x64 ![0, 1] bcast_S7x1_S7x64_0_1 : (⟨S7x1, .i32⟩ : BufTy).Contents (Elt F) → (⟨S7x64, .i32⟩ : BufTy).Contents (Elt F)),
    StableHlo.binary main_v205 main_v206 main_v207 (cmpi .slt : (⟨S7x64, .i32⟩ : BufTy).Contents (Elt F) → (⟨S7x64, .i32⟩ : BufTy).Contents (Elt F) → (⟨S7x64, .i1⟩ : BufTy).Contents (Elt F)),
    StableHlo.binary main_v202 main_v207 main_v208 (andi : (⟨S7x64, .i1⟩ : BufTy).Contents (Elt F) → (⟨S7x64, .i1⟩ : BufTy).Contents (Elt F) → (⟨S7x64, .i1⟩ : BufTy).Contents (Elt F)),
    StableHlo.unary main_v197 main_v209 (broadcastInDim S1x64 ![1] bcast_S64_S1x64_1 : (⟨S64, .i32⟩ : BufTy).Contents (Elt F) → (⟨S1x64, .i32⟩ : BufTy).Contents (Elt F)),
    StableHlo.unary main_v187 main_v210 (broadcastInDim S7x1 ![0] bcast_S7_S7x1_0 : (⟨S7, .i32⟩ : BufTy).Contents (Elt F) → (⟨S7x1, .i32⟩ : BufTy).Contents (Elt F)),
    StableHlo.unary main_v209 main_v211 (broadcastInDim S7x64 ![0, 1] bcast_S1x64_S7x64_0_1 : (⟨S1x64, .i32⟩ : BufTy).Contents (Elt F) → (⟨S7x64, .i32⟩ : BufTy).Contents (Elt F)),
    StableHlo.unary main_v210 main_v212 (broadcastInDim S7x64 ![0, 1] bcast_S7x1_S7x64_0_1 : (⟨S7x1, .i32⟩ : BufTy).Contents (Elt F) → (⟨S7x64, .i32⟩ : BufTy).Contents (Elt F)),
    StableHlo.binary main_v211 main_v212 main_v213 (cmpi .sge : (⟨S7x64, .i32⟩ : BufTy).Contents (Elt F) → (⟨S7x64, .i32⟩ : BufTy).Contents (Elt F) → (⟨S7x64, .i1⟩ : BufTy).Contents (Elt F)),
    StableHlo.unary main_v197 main_v214 (broadcastInDim S1x64 ![1] bcast_S64_S1x64_1 : (⟨S64, .i32⟩ : BufTy).Contents (Elt F) → (⟨S1x64, .i32⟩ : BufTy).Contents (Elt F)),
    StableHlo.unary main_v195 main_v215 (broadcastInDim S7x1 ![0] bcast_S7_S7x1_0 : (⟨S7, .i32⟩ : BufTy).Contents (Elt F) → (⟨S7x1, .i32⟩ : BufTy).Contents (Elt F)),
    StableHlo.unary main_v214 main_v216 (broadcastInDim S7x64 ![0, 1] bcast_S1x64_S7x64_0_1 : (⟨S1x64, .i32⟩ : BufTy).Contents (Elt F) → (⟨S7x64, .i32⟩ : BufTy).Contents (Elt F)),
    StableHlo.unary main_v215 main_v217 (broadcastInDim S7x64 ![0, 1] bcast_S7x1_S7x64_0_1 : (⟨S7x1, .i32⟩ : BufTy).Contents (Elt F) → (⟨S7x64, .i32⟩ : BufTy).Contents (Elt F)),
    StableHlo.binary main_v216 main_v217 main_v218 (cmpi .slt : (⟨S7x64, .i32⟩ : BufTy).Contents (Elt F) → (⟨S7x64, .i32⟩ : BufTy).Contents (Elt F) → (⟨S7x64, .i1⟩ : BufTy).Contents (Elt F)),
    StableHlo.binary main_v213 main_v218 main_v219 (andi : (⟨S7x64, .i1⟩ : BufTy).Contents (Elt F) → (⟨S7x64, .i1⟩ : BufTy).Contents (Elt F) → (⟨S7x64, .i1⟩ : BufTy).Contents (Elt F)),
    StableHlo.unary main_v208 main_v220 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v221 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_32 (constant S_ .f32 0xFF800000#32),
    StableHlo.TRef.unary (.of main_v220 : StableHlo.TRef sig ⟨S7x1x64x1, .i1⟩) (.of main_call18_v0 : StableHlo.TRef sig ⟨S7x512x64x64, .i1⟩) (broadcastInDim S7x512x64x64 ![0, 1, 2, 3] bcast_S7x1x64x1_S7x512x64x64_0_1_2_3),
    StableHlo.TRef.unary (.of main_v221 : StableHlo.TRef sig ⟨S1x512x64x64, .f32⟩) (.of main_call18_v1 : StableHlo.TRef sig ⟨S7x512x64x64, .f32⟩) (broadcastInDim S7x512x64x64 ![0, 1, 2, 3] bcast_S1x512x64x64_S7x512x64x64_0_1_2_3),
    StableHlo.TRef.unary (.of main_cst_32 : StableHlo.TRef sig ⟨S_, .f32⟩) (.of main_call18_v2 : StableHlo.TRef sig ⟨S7x512x64x64, .f32⟩) (broadcastInDim S7x512x64x64 ![] bcast_S_S7x512x64x64),
    StableHlo.TRef.ternary (.of main_call18_v0 : StableHlo.TRef sig ⟨S7x512x64x64, .i1⟩) (.of main_call18_v1 : StableHlo.TRef sig ⟨S7x512x64x64, .f32⟩) (.of main_call18_v2 : StableHlo.TRef sig ⟨S7x512x64x64, .f32⟩) (.of main_v222 : StableHlo.TRef sig ⟨S7x512x64x64, .f32⟩) select,
    StableHlo.nullary main_cst_33 (constant S_ .f32 0xFF800000#32),
    StableHlo.binary main_v222 main_cst_33 main_v223 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v219 main_v224 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v223 main_v225 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_34 (constant S_ .f32 0xFF800000#32),
    StableHlo.TRef.unary (.of main_v224 : StableHlo.TRef sig ⟨S1x1x7x64, .i1⟩) (.of main_call19_v0 : StableHlo.TRef sig ⟨S7x512x7x64, .i1⟩) (broadcastInDim S7x512x7x64 ![0, 1, 2, 3] bcast_S1x1x7x64_S7x512x7x64_0_1_2_3),
    StableHlo.TRef.unary (.of main_v225 : StableHlo.TRef sig ⟨S7x512x1x64, .f32⟩) (.of main_call19_v1 : StableHlo.TRef sig ⟨S7x512x7x64, .f32⟩) (broadcastInDim S7x512x7x64 ![0, 1, 2, 3] bcast_S7x512x1x64_S7x512x7x64_0_1_2_3),
    StableHlo.TRef.unary (.of main_cst_34 : StableHlo.TRef sig ⟨S_, .f32⟩) (.of main_call19_v2 : StableHlo.TRef sig ⟨S7x512x7x64, .f32⟩) (broadcastInDim S7x512x7x64 ![] bcast_S_S7x512x7x64),
    StableHlo.TRef.ternary (.of main_call19_v0 : StableHlo.TRef sig ⟨S7x512x7x64, .i1⟩) (.of main_call19_v1 : StableHlo.TRef sig ⟨S7x512x7x64, .f32⟩) (.of main_call19_v2 : StableHlo.TRef sig ⟨S7x512x7x64, .f32⟩) (.of main_v226 : StableHlo.TRef sig ⟨S7x512x7x64, .f32⟩) select ]
/-- The buffers those operations write, in order. -/
abbrev ops10_W : List (Ref sig .tc) :=
  [main_call17_v0, main_call17_v1, main_call17_v2, main_call17_v3, main_call17_v4, main_call17_v5, main_call17_v6, main_call17_v7, main_call17_v8, main_call17_c, main_call17_v9, main_call17_v10, main_call17_v11, main_call17_c_0, main_call17_v12, main_call17_v13, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_cst_32, main_call18_v0, main_call18_v1, main_call18_v2, main_v222, main_cst_33, main_v223, main_v224, main_v225, main_cst_34, main_call19_v0, main_call19_v1, main_call19_v2, main_v226]
/-- Each operation writes its own result buffer and nothing else. -/
theorem ops10_writes : (ops10 : List (HloOp τ sig (Elt F))).Forall fun op => op.writes ⊆ (ops10_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 474 to 518 of the host part, in order. -/
abbrev ops11 : List (HloOp τ sig (Elt F)) :=
  [ StableHlo.nullary main_cst_35 (constant S_ .f32 0xFF800000#32),
    StableHlo.binary main_v226 main_cst_35 main_v227 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v227 main_v228 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v228 main_v229 rfl shapeCasts_S512x7x7_S25088,
    StableHlo.unary main_v18 main_v230 ((extractStridedSlice S1x1 ![2, 1] · slices_S3x4_S1x1_2_1) : (⟨S3x4, .i32⟩ : BufTy).Contents (Elt F) → (⟨S1x1, .i32⟩ : BufTy).Contents (Elt F)),
    StableHlo.reshape main_v230 main_v231 rfl shapeCasts_S1x1_S_,
    StableHlo.unary main_v18 main_v232 ((extractStridedSlice S1x1 ![2, 3] · slices_S3x4_S1x1_2_3) : (⟨S3x4, .i32⟩ : BufTy).Contents (Elt F) → (⟨S1x1, .i32⟩ : BufTy).Contents (Elt F)),
    StableHlo.reshape main_v232 main_v233 rfl shapeCasts_S1x1_S_,
    StableHlo.unary main_v18 main_v234 ((extractStridedSlice S1x1 ![2, 0] · slices_S3x4_S1x1_2_0) : (⟨S3x4, .i32⟩ : BufTy).Contents (Elt F) → (⟨S1x1, .i32⟩ : BufTy).Contents (Elt F)),
    StableHlo.reshape main_v234 main_v235 rfl shapeCasts_S1x1_S_,
    StableHlo.unary main_v18 main_v236 ((extractStridedSlice S1x1 ![2, 2] · slices_S3x4_S1x1_2_2) : (⟨S3x4, .i32⟩ : BufTy).Contents (Elt F) → (⟨S1x1, .i32⟩ : BufTy).Contents (Elt F)),
    StableHlo.reshape main_v236 main_v237 rfl shapeCasts_S1x1_S_,
    StableHlo.binary main_v233 main_v231 main_v238 (subi : (⟨S_, .i32⟩ : BufTy).Contents (Elt F) → (⟨S_, .i32⟩ : BufTy).Contents (Elt F) → (⟨S_, .i32⟩ : BufTy).Contents (Elt F)),
    StableHlo.binary main_v237 main_v235 main_v239 (subi : (⟨S_, .i32⟩ : BufTy).Contents (Elt F) → (⟨S_, .i32⟩ : BufTy).Contents (Elt F) → (⟨S_, .i32⟩ : BufTy).Contents (Elt F)),
    StableHlo.nullary main_v240 (iotaInDim S7 32 0),
    StableHlo.nullary main_v241 (iotaInDim S7 32 0),
    StableHlo.unary main_v238 main_v242 (broadcastInDim S7 ![] bcast_S_S7 : (⟨S_, .i32⟩ : BufTy).Contents (Elt F) → (⟨S7, .i32⟩ : BufTy).Contents (Elt F)),
    StableHlo.binary main_v240 main_v242 main_v243 (muli : (⟨S7, .i32⟩ : BufTy).Contents (Elt F) → (⟨S7, .i32⟩ : BufTy).Contents (Elt F) → (⟨S7, .i32⟩ : BufTy).Contents (Elt F)),
    StableHlo.nullary main_c_36 (constantI S_ 32 7#32),
    StableHlo.TRef.unary (.of main_c_36 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S7, .i32⟩) (broadcastInDim S7 ![] bcast_S_S7),
    StableHlo.TRef.binary (.of main_v243 : StableHlo.TRef sig ⟨S7, .i32⟩) (.of main_call20_v1 : StableHlo.TRef sig ⟨S7, .i32⟩) (.of main_call20_v2 : StableHlo.TRef sig ⟨S7, .i32⟩) Host.divsi,
    StableHlo.TRef.unary (.of main_v243 : StableHlo.TRef sig ⟨S7, .i32⟩) (.of main_call20_v3 : StableHlo.TRef sig ⟨S7, .i32⟩) signi,
    StableHlo.TRef.unary (.of main_call20_v0 : StableHlo.TRef sig ⟨S_, .i32⟩) (.of main_call20_v4 : StableHlo.TRef sig ⟨S_, .i32⟩) signi,
    StableHlo.TRef.unary (.of main_call20_v4 : StableHlo.TRef sig ⟨S_, .i32⟩) (.of main_call20_v5 : StableHlo.TRef sig ⟨S7, .i32⟩) (broadcastInDim S7 ![] bcast_S_S7),
    StableHlo.TRef.binary (.of main_call20_v3 : StableHlo.TRef sig ⟨S7, .i32⟩) (.of main_call20_v5 : StableHlo.TRef sig ⟨S7, .i32⟩) (.of main_call20_v6 : StableHlo.TRef sig ⟨S7, .i1⟩) (cmpi .ne),
    StableHlo.TRef.unary (.of main_call20_v0 : StableHlo.TRef sig ⟨S_, .i32⟩) (.of main_call20_v7 : StableHlo.TRef sig ⟨S7, .i32⟩) (broadcastInDim S7 ![] bcast_S_S7),
    StableHlo.TRef.binary (.of main_v243 : StableHlo.TRef sig ⟨S7, .i32⟩) (.of main_call20_v7 : StableHlo.TRef sig ⟨S7, .i32⟩) (.of main_call20_v8 : StableHlo.TRef sig ⟨S7, .i32⟩) Host.remsi,
    StableHlo.TRef.nullary (.of main_call20_c : StableHlo.TRef sig ⟨S_, .i32⟩) (constantI S_ 32 0#32),
    StableHlo.TRef.unary (.of main_call20_c : StableHlo.TRef sig ⟨S_, .i32⟩) (.of main_call20_v9 : StableHlo.TRef sig ⟨S7, .i32⟩) (broadcastInDim S7 ![] bcast_S_S7),
    StableHlo.TRef.binary (.of main_call20_v8 : StableHlo.TRef sig ⟨S7, .i32⟩) (.of main_call20_v9 : StableHlo.TRef sig ⟨S7, .i32⟩) (.of main_call20_v10 : StableHlo.TRef sig ⟨S7, .i1⟩) (cmpi .ne),
    StableHlo.TRef.binary (.of main_call20_v6 : StableHlo.TRef sig ⟨S7, .i1⟩) (.of main_call20_v10 : StableHlo.TRef sig ⟨S7, .i1⟩) (.of main_call20_v11 : StableHlo.TRef sig ⟨S7, .i1⟩) andi,
    StableHlo.TRef.nullary (.of main_call20_c_0 : StableHlo.TRef sig ⟨S_, .i32⟩) (constantI S_ 32 1#32),
    StableHlo.TRef.unary (.of main_call20_c_0 : StableHlo.TRef sig ⟨S_, .i32⟩) (.of main_call20_v12 : StableHlo.TRef sig ⟨S7, .i32⟩) (broadcastInDim S7 ![] bcast_S_S7),
    StableHlo.TRef.binary (.of main_call20_v2 : StableHlo.TRef sig ⟨S7, .i32⟩) (.of main_call20_v12 : StableHlo.TRef sig ⟨S7, .i32⟩) (.of main_call20_v13 : StableHlo.TRef sig ⟨S7, .i32⟩) subi,
    StableHlo.TRef.ternary (.of main_call20_v11 : StableHlo.TRef sig ⟨S7, .i1⟩) (.of main_call20_v13 : StableHlo.TRef sig ⟨S7, .i32⟩) (.of main_call20_v2 : StableHlo.TRef sig ⟨S7, .i32⟩) (.of main_v244 : StableHlo.TRef sig ⟨S7, .i32⟩) select,
    StableHlo.unary main_v231 main_v245 (broadcastInDim S7 ![] bcast_S_S7 : (⟨S_, .i32⟩ : BufTy).Contents (Elt F) → (⟨S7, .i32⟩ : BufTy).Contents (Elt F)),
    StableHlo.binary main_v245 main_v244 main_v246 (addi : (⟨S7, .i32⟩ : BufTy).Contents (Elt F) → (⟨S7, .i32⟩ : BufTy).Contents (Elt F) → (⟨S7, .i32⟩ : BufTy).Contents (Elt F)),
    StableHlo.nullary main_c_37 (constantI S_ 32 1#32),
    StableHlo.unary main_c_37 main_v247 (broadcastInDim S7 ![] bcast_S_S7 : (⟨S_, .i32⟩ : BufTy).Contents (Elt F) → (⟨S7, .i32⟩ : BufTy).Contents (Elt F)),
    StableHlo.binary main_v240 main_v247 main_v248 (addi : (⟨S7, .i32⟩ : BufTy).Contents (Elt F) → (⟨S7, .i32⟩ : BufTy).Contents (Elt F) → (⟨S7, .i32⟩ : BufTy).Contents (Elt F)),
    StableHlo.unary main_v248 main_v249 (negi : (⟨S7, .i32⟩ : BufTy).Contents (Elt F) → (⟨S7, .i32⟩ : BufTy).Contents (Elt F)),
    StableHlo.unary main_v238 main_v250 (broadcastInDim S7 ![] bcast_S_S7 : (⟨S_, .i32⟩ : BufTy).Contents (Elt F) → (⟨S7, .i32⟩ : BufTy).Contents (Elt F)),
    StableHlo.binary main_v249 main_v250 main_v251 (muli : (⟨S7, .i32⟩ : BufTy).Contents (Elt F) → (⟨S7, .i32⟩ : BufTy).Contents (Elt F) → (⟨S7, .i32⟩ : BufTy).Contents (Elt F)),
    StableHlo.nullary main_c_38 (constantI S_ 32 7#32) ]
/-- The buffers those operations write, in order. -/
abbrev ops11_W : List (Ref sig .tc) :=
  [main_cst_35, main_v227, main_v228, main_v229, main_v230, main_v231, main_v232, main_v233, main_v234, main_v235, main_v236, main_v237, main_v238, main_v239, main_v240, main_v241, main_v242, main_v243, main_c_36, main_call20_v0, main_call20_v1, main_call20_v2, main_call20_v3, main_call20_v4, main_call20_v5, main_call20_v6, main_call20_v7, main_call20_v8, main_call20_c, main_call20_v9, main_call20_v10, main_call20_v11, main_call20_c_0, main_call20_v12, main_call20_v13, main_v244, main_v245, main_v246, main_c_37, main_v247, main_v248, main_v249, main_v250, main_v251, main_c_38]
/-- Each operation writes its own result buffer and nothing else. -/
theorem ops11_writes : (ops11 : List (HloOp τ sig (Elt F))).Forall fun op => op.writes ⊆ (ops11_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 519 to 566 of the host part, in order. -/
abbrev ops12 : List (HloOp τ sig (Elt F)) :=
  [ StableHlo.TRef.unary (.of main_c_38 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S7, .i32⟩) (broadcastInDim S7 ![] bcast_S_S7),
    StableHlo.TRef.binary (.of main_v251 : StableHlo.TRef sig ⟨S7, .i32⟩) (.of main_call21_v1 : StableHlo.TRef sig ⟨S7, .i32⟩) (.of main_call21_v2 : StableHlo.TRef sig ⟨S7, .i32⟩) Host.divsi,
    StableHlo.TRef.unary (.of main_v251 : StableHlo.TRef sig ⟨S7, .i32⟩) (.of main_call21_v3 : StableHlo.TRef sig ⟨S7, .i32⟩) signi,
    StableHlo.TRef.unary (.of main_call21_v0 : StableHlo.TRef sig ⟨S_, .i32⟩) (.of main_call21_v4 : StableHlo.TRef sig ⟨S_, .i32⟩) signi,
    StableHlo.TRef.unary (.of main_call21_v4 : StableHlo.TRef sig ⟨S_, .i32⟩) (.of main_call21_v5 : StableHlo.TRef sig ⟨S7, .i32⟩) (broadcastInDim S7 ![] bcast_S_S7),
    StableHlo.TRef.binary (.of main_call21_v3 : StableHlo.TRef sig ⟨S7, .i32⟩) (.of main_call21_v5 : StableHlo.TRef sig ⟨S7, .i32⟩) (.of main_call21_v6 : StableHlo.TRef sig ⟨S7, .i1⟩) (cmpi .ne),
    StableHlo.TRef.unary (.of main_call21_v0 : StableHlo.TRef sig ⟨S_, .i32⟩) (.of main_call21_v7 : StableHlo.TRef sig ⟨S7, .i32⟩) (broadcastInDim S7 ![] bcast_S_S7),
    StableHlo.TRef.binary (.of main_v251 : StableHlo.TRef sig ⟨S7, .i32⟩) (.of main_call21_v7 : StableHlo.TRef sig ⟨S7, .i32⟩) (.of main_call21_v8 : StableHlo.TRef sig ⟨S7, .i32⟩) Host.remsi,
    StableHlo.TRef.nullary (.of main_call21_c : StableHlo.TRef sig ⟨S_, .i32⟩) (constantI S_ 32 0#32),
    StableHlo.TRef.unary (.of main_call21_c : StableHlo.TRef sig ⟨S_, .i32⟩) (.of main_call21_v9 : StableHlo.TRef sig ⟨S7, .i32⟩) (broadcastInDim S7 ![] bcast_S_S7),
    StableHlo.TRef.binary (.of main_call21_v8 : StableHlo.TRef sig ⟨S7, .i32⟩) (.of main_call21_v9 : StableHlo.TRef sig ⟨S7, .i32⟩) (.of main_call21_v10 : StableHlo.TRef sig ⟨S7, .i1⟩) (cmpi .ne),
    StableHlo.TRef.binary (.of main_call21_v6 : StableHlo.TRef sig ⟨S7, .i1⟩) (.of main_call21_v10 : StableHlo.TRef sig ⟨S7, .i1⟩) (.of main_call21_v11 : StableHlo.TRef sig ⟨S7, .i1⟩) andi,
    StableHlo.TRef.nullary (.of main_call21_c_0 : StableHlo.TRef sig ⟨S_, .i32⟩) (constantI S_ 32 1#32),
    StableHlo.TRef.unary (.of main_call21_c_0 : StableHlo.TRef sig ⟨S_, .i32⟩) (.of main_call21_v12 : StableHlo.TRef sig ⟨S7, .i32⟩) (broadcastInDim S7 ![] bcast_S_S7),
    StableHlo.TRef.binary (.of main_call21_v2 : StableHlo.TRef sig ⟨S7, .i32⟩) (.of main_call21_v12 : StableHlo.TRef sig ⟨S7, .i32⟩) (.of main_call21_v13 : StableHlo.TRef sig ⟨S7, .i32⟩) subi,
    StableHlo.TRef.ternary (.of main_call21_v11 : StableHlo.TRef sig ⟨S7, .i1⟩) (.of main_call21_v13 : StableHlo.TRef sig ⟨S7, .i32⟩) (.of main_call21_v2 : StableHlo.TRef sig ⟨S7, .i32⟩) (.of main_v252 : StableHlo.TRef sig ⟨S7, .i32⟩) select,
    StableHlo.unary main_v231 main_v253 (broadcastInDim S7 ![] bcast_S_S7 : (⟨S_, .i32⟩ : BufTy).Contents (Elt F) → (⟨S7, .i32⟩ : BufTy).Contents (Elt F)),
    StableHlo.binary main_v253 main_v252 main_v254 (subi : (⟨S7, .i32⟩ : BufTy).Contents (Elt F) → (⟨S7, .i32⟩ : BufTy).Contents (Elt F) → (⟨S7, .i32⟩ : BufTy).Contents (Elt F)),
    StableHlo.unary main_v239 main_v255 (broadcastInDim S7 ![] bcast_S_S7 : (⟨S_, .i32⟩ : BufTy).Contents (Elt F) → (⟨S7, .i32⟩ : BufTy).Contents (Elt F)),
    StableHlo.binary main_v241 main_v255 main_v256 (muli : (⟨S7, .i32⟩ : BufTy).Contents (Elt F) → (⟨S7, .i32⟩ : BufTy).Contents (Elt F) → (⟨S7, .i32⟩ : BufTy).Contents (Elt F)),
    StableHlo.nullary main_c_39 (constantI S_ 32 7#32),
    StableHlo.TRef.unary (.of main_c_39 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S7, .i32⟩) (broadcastInDim S7 ![] bcast_S_S7),
    StableHlo.TRef.binary (.of main_v256 : StableHlo.TRef sig ⟨S7, .i32⟩) (.of main_call22_v1 : StableHlo.TRef sig ⟨S7, .i32⟩) (.of main_call22_v2 : StableHlo.TRef sig ⟨S7, .i32⟩) Host.divsi,
    StableHlo.TRef.unary (.of main_v256 : StableHlo.TRef sig ⟨S7, .i32⟩) (.of main_call22_v3 : StableHlo.TRef sig ⟨S7, .i32⟩) signi,
    StableHlo.TRef.unary (.of main_call22_v0 : StableHlo.TRef sig ⟨S_, .i32⟩) (.of main_call22_v4 : StableHlo.TRef sig ⟨S_, .i32⟩) signi,
    StableHlo.TRef.unary (.of main_call22_v4 : StableHlo.TRef sig ⟨S_, .i32⟩) (.of main_call22_v5 : StableHlo.TRef sig ⟨S7, .i32⟩) (broadcastInDim S7 ![] bcast_S_S7),
    StableHlo.TRef.binary (.of main_call22_v3 : StableHlo.TRef sig ⟨S7, .i32⟩) (.of main_call22_v5 : StableHlo.TRef sig ⟨S7, .i32⟩) (.of main_call22_v6 : StableHlo.TRef sig ⟨S7, .i1⟩) (cmpi .ne),
    StableHlo.TRef.unary (.of main_call22_v0 : StableHlo.TRef sig ⟨S_, .i32⟩) (.of main_call22_v7 : StableHlo.TRef sig ⟨S7, .i32⟩) (broadcastInDim S7 ![] bcast_S_S7),
    StableHlo.TRef.binary (.of main_v256 : StableHlo.TRef sig ⟨S7, .i32⟩) (.of main_call22_v7 : StableHlo.TRef sig ⟨S7, .i32⟩) (.of main_call22_v8 : StableHlo.TRef sig ⟨S7, .i32⟩) Host.remsi,
    StableHlo.TRef.nullary (.of main_call22_c : StableHlo.TRef sig ⟨S_, .i32⟩) (constantI S_ 32 0#32),
    StableHlo.TRef.unary (.of main_call22_c : StableHlo.TRef sig ⟨S_, .i32⟩) (.of main_call22_v9 : StableHlo.TRef sig ⟨S7, .i32⟩) (broadcastInDim S7 ![] bcast_S_S7),
    StableHlo.TRef.binary (.of main_call22_v8 : StableHlo.TRef sig ⟨S7, .i32⟩) (.of main_call22_v9 : StableHlo.TRef sig ⟨S7, .i32⟩) (.of main_call22_v10 : StableHlo.TRef sig ⟨S7, .i1⟩) (cmpi .ne),
    StableHlo.TRef.binary (.of main_call22_v6 : StableHlo.TRef sig ⟨S7, .i1⟩) (.of main_call22_v10 : StableHlo.TRef sig ⟨S7, .i1⟩) (.of main_call22_v11 : StableHlo.TRef sig ⟨S7, .i1⟩) andi,
    StableHlo.TRef.nullary (.of main_call22_c_0 : StableHlo.TRef sig ⟨S_, .i32⟩) (constantI S_ 32 1#32),
    StableHlo.TRef.unary (.of main_call22_c_0 : StableHlo.TRef sig ⟨S_, .i32⟩) (.of main_call22_v12 : StableHlo.TRef sig ⟨S7, .i32⟩) (broadcastInDim S7 ![] bcast_S_S7),
    StableHlo.TRef.binary (.of main_call22_v2 : StableHlo.TRef sig ⟨S7, .i32⟩) (.of main_call22_v12 : StableHlo.TRef sig ⟨S7, .i32⟩) (.of main_call22_v13 : StableHlo.TRef sig ⟨S7, .i32⟩) subi,
    StableHlo.TRef.ternary (.of main_call22_v11 : StableHlo.TRef sig ⟨S7, .i1⟩) (.of main_call22_v13 : StableHlo.TRef sig ⟨S7, .i32⟩) (.of main_call22_v2 : StableHlo.TRef sig ⟨S7, .i32⟩) (.of main_v257 : StableHlo.TRef sig ⟨S7, .i32⟩) select,
    StableHlo.unary main_v235 main_v258 (broadcastInDim S7 ![] bcast_S_S7 : (⟨S_, .i32⟩ : BufTy).Contents (Elt F) → (⟨S7, .i32⟩ : BufTy).Contents (Elt F)),
    StableHlo.binary main_v258 main_v257 main_v259 (addi : (⟨S7, .i32⟩ : BufTy).Contents (Elt F) → (⟨S7, .i32⟩ : BufTy).Contents (Elt F) → (⟨S7, .i32⟩ : BufTy).Contents (Elt F)),
    StableHlo.nullary main_c_40 (constantI S_ 32 1#32),
    StableHlo.unary main_c_40 main_v260 (broadcastInDim S7 ![] bcast_S_S7 : (⟨S_, .i32⟩ : BufTy).Contents (Elt F) → (⟨S7, .i32⟩ : BufTy).Contents (Elt F)),
    StableHlo.binary main_v241 main_v260 main_v261 (addi : (⟨S7, .i32⟩ : BufTy).Contents (Elt F) → (⟨S7, .i32⟩ : BufTy).Contents (Elt F) → (⟨S7, .i32⟩ : BufTy).Contents (Elt F)),
    StableHlo.unary main_v261 main_v262 (negi : (⟨S7, .i32⟩ : BufTy).Contents (Elt F) → (⟨S7, .i32⟩ : BufTy).Contents (Elt F)),
    StableHlo.unary main_v239 main_v263 (broadcastInDim S7 ![] bcast_S_S7 : (⟨S_, .i32⟩ : BufTy).Contents (Elt F) → (⟨S7, .i32⟩ : BufTy).Contents (Elt F)),
    StableHlo.binary main_v262 main_v263 main_v264 (muli : (⟨S7, .i32⟩ : BufTy).Contents (Elt F) → (⟨S7, .i32⟩ : BufTy).Contents (Elt F) → (⟨S7, .i32⟩ : BufTy).Contents (Elt F)),
    StableHlo.nullary main_c_41 (constantI S_ 32 7#32) ]
/-- The buffers those operations write, in order. -/
abbrev ops12_W : List (Ref sig .tc) :=
  [main_call21_v0, main_call21_v1, main_call21_v2, main_call21_v3, main_call21_v4, main_call21_v5, main_call21_v6, main_call21_v7, main_call21_v8, main_call21_c, main_call21_v9, main_call21_v10, main_call21_v11, main_call21_c_0, main_call21_v12, main_call21_v13, main_v252, main_v253, main_v254, main_v255, main_v256, main_c_39, main_call22_v0, main_call22_v1, main_call22_v2, main_call22_v3, main_call22_v4, main_call22_v5, main_call22_v6, main_call22_v7, main_call22_v8, main_call22_c, main_call22_v9, main_call22_v10, main_call22_v11, main_call22_c_0, main_call22_v12, main_call22_v13, main_v257, main_v258, main_v259, main_c_40, main_v260, main_v261, main_v262, main_v263, main_v264, main_c_41]
/-- Each operation writes its own result buffer and nothing else. -/
theorem ops12_writes : (ops12 : List (HloOp τ sig (Elt F))).Forall fun op => op.writes ⊆ (ops12_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 567 to 625 of the host part, in order. -/
abbrev ops13 : List (HloOp τ sig (Elt F)) :=
  [ StableHlo.TRef.unary (.of main_c_41 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S7, .i32⟩) (broadcastInDim S7 ![] bcast_S_S7),
    StableHlo.TRef.binary (.of main_v264 : StableHlo.TRef sig ⟨S7, .i32⟩) (.of main_call23_v1 : StableHlo.TRef sig ⟨S7, .i32⟩) (.of main_call23_v2 : StableHlo.TRef sig ⟨S7, .i32⟩) Host.divsi,
    StableHlo.TRef.unary (.of main_v264 : StableHlo.TRef sig ⟨S7, .i32⟩) (.of main_call23_v3 : StableHlo.TRef sig ⟨S7, .i32⟩) signi,
    StableHlo.TRef.unary (.of main_call23_v0 : StableHlo.TRef sig ⟨S_, .i32⟩) (.of main_call23_v4 : StableHlo.TRef sig ⟨S_, .i32⟩) signi,
    StableHlo.TRef.unary (.of main_call23_v4 : StableHlo.TRef sig ⟨S_, .i32⟩) (.of main_call23_v5 : StableHlo.TRef sig ⟨S7, .i32⟩) (broadcastInDim S7 ![] bcast_S_S7),
    StableHlo.TRef.binary (.of main_call23_v3 : StableHlo.TRef sig ⟨S7, .i32⟩) (.of main_call23_v5 : StableHlo.TRef sig ⟨S7, .i32⟩) (.of main_call23_v6 : StableHlo.TRef sig ⟨S7, .i1⟩) (cmpi .ne),
    StableHlo.TRef.unary (.of main_call23_v0 : StableHlo.TRef sig ⟨S_, .i32⟩) (.of main_call23_v7 : StableHlo.TRef sig ⟨S7, .i32⟩) (broadcastInDim S7 ![] bcast_S_S7),
    StableHlo.TRef.binary (.of main_v264 : StableHlo.TRef sig ⟨S7, .i32⟩) (.of main_call23_v7 : StableHlo.TRef sig ⟨S7, .i32⟩) (.of main_call23_v8 : StableHlo.TRef sig ⟨S7, .i32⟩) Host.remsi,
    StableHlo.TRef.nullary (.of main_call23_c : StableHlo.TRef sig ⟨S_, .i32⟩) (constantI S_ 32 0#32),
    StableHlo.TRef.unary (.of main_call23_c : StableHlo.TRef sig ⟨S_, .i32⟩) (.of main_call23_v9 : StableHlo.TRef sig ⟨S7, .i32⟩) (broadcastInDim S7 ![] bcast_S_S7),
    StableHlo.TRef.binary (.of main_call23_v8 : StableHlo.TRef sig ⟨S7, .i32⟩) (.of main_call23_v9 : StableHlo.TRef sig ⟨S7, .i32⟩) (.of main_call23_v10 : StableHlo.TRef sig ⟨S7, .i1⟩) (cmpi .ne),
    StableHlo.TRef.binary (.of main_call23_v6 : StableHlo.TRef sig ⟨S7, .i1⟩) (.of main_call23_v10 : StableHlo.TRef sig ⟨S7, .i1⟩) (.of main_call23_v11 : StableHlo.TRef sig ⟨S7, .i1⟩) andi,
    StableHlo.TRef.nullary (.of main_call23_c_0 : StableHlo.TRef sig ⟨S_, .i32⟩) (constantI S_ 32 1#32),
    StableHlo.TRef.unary (.of main_call23_c_0 : StableHlo.TRef sig ⟨S_, .i32⟩) (.of main_call23_v12 : StableHlo.TRef sig ⟨S7, .i32⟩) (broadcastInDim S7 ![] bcast_S_S7),
    StableHlo.TRef.binary (.of main_call23_v2 : StableHlo.TRef sig ⟨S7, .i32⟩) (.of main_call23_v12 : StableHlo.TRef sig ⟨S7, .i32⟩) (.of main_call23_v13 : StableHlo.TRef sig ⟨S7, .i32⟩) subi,
    StableHlo.TRef.ternary (.of main_call23_v11 : StableHlo.TRef sig ⟨S7, .i1⟩) (.of main_call23_v13 : StableHlo.TRef sig ⟨S7, .i32⟩) (.of main_call23_v2 : StableHlo.TRef sig ⟨S7, .i32⟩) (.of main_v265 : StableHlo.TRef sig ⟨S7, .i32⟩) select,
    StableHlo.unary main_v235 main_v266 (broadcastInDim S7 ![] bcast_S_S7 : (⟨S_, .i32⟩ : BufTy).Contents (Elt F) → (⟨S7, .i32⟩ : BufTy).Contents (Elt F)),
    StableHlo.binary main_v266 main_v265 main_v267 (subi : (⟨S7, .i32⟩ : BufTy).Contents (Elt F) → (⟨S7, .i32⟩ : BufTy).Contents (Elt F) → (⟨S7, .i32⟩ : BufTy).Contents (Elt F)),
    StableHlo.nullary main_v268 (iotaInDim S64 32 0),
    StableHlo.nullary main_v269 (iotaInDim S64 32 0),
    StableHlo.unary main_v268 main_v270 (broadcastInDim S1x64 ![1] bcast_S64_S1x64_1 : (⟨S64, .i32⟩ : BufTy).Contents (Elt F) → (⟨S1x64, .i32⟩ : BufTy).Contents (Elt F)),
    StableHlo.unary main_v246 main_v271 (broadcastInDim S7x1 ![0] bcast_S7_S7x1_0 : (⟨S7, .i32⟩ : BufTy).Contents (Elt F) → (⟨S7x1, .i32⟩ : BufTy).Contents (Elt F)),
    StableHlo.unary main_v270 main_v272 (broadcastInDim S7x64 ![0, 1] bcast_S1x64_S7x64_0_1 : (⟨S1x64, .i32⟩ : BufTy).Contents (Elt F) → (⟨S7x64, .i32⟩ : BufTy).Contents (Elt F)),
    StableHlo.unary main_v271 main_v273 (broadcastInDim S7x64 ![0, 1] bcast_S7x1_S7x64_0_1 : (⟨S7x1, .i32⟩ : BufTy).Contents (Elt F) → (⟨S7x64, .i32⟩ : BufTy).Contents (Elt F)),
    StableHlo.binary main_v272 main_v273 main_v274 (cmpi .sge : (⟨S7x64, .i32⟩ : BufTy).Contents (Elt F) → (⟨S7x64, .i32⟩ : BufTy).Contents (Elt F) → (⟨S7x64, .i1⟩ : BufTy).Contents (Elt F)),
    StableHlo.unary main_v268 main_v275 (broadcastInDim S1x64 ![1] bcast_S64_S1x64_1 : (⟨S64, .i32⟩ : BufTy).Contents (Elt F) → (⟨S1x64, .i32⟩ : BufTy).Contents (Elt F)),
    StableHlo.unary main_v254 main_v276 (broadcastInDim S7x1 ![0] bcast_S7_S7x1_0 : (⟨S7, .i32⟩ : BufTy).Contents (Elt F) → (⟨S7x1, .i32⟩ : BufTy).Contents (Elt F)),
    StableHlo.unary main_v275 main_v277 (broadcastInDim S7x64 ![0, 1] bcast_S1x64_S7x64_0_1 : (⟨S1x64, .i32⟩ : BufTy).Contents (Elt F) → (⟨S7x64, .i32⟩ : BufTy).Contents (Elt F)),
    StableHlo.unary main_v276 main_v278 (broadcastInDim S7x64 ![0, 1] bcast_S7x1_S7x64_0_1 : (⟨S7x1, .i32⟩ : BufTy).Contents (Elt F) → (⟨S7x64, .i32⟩ : BufTy).Contents (Elt F)),
    StableHlo.binary main_v277 main_v278 main_v279 (cmpi .slt : (⟨S7x64, .i32⟩ : BufTy).Contents (Elt F) → (⟨S7x64, .i32⟩ : BufTy).Contents (Elt F) → (⟨S7x64, .i1⟩ : BufTy).Contents (Elt F)),
    StableHlo.binary main_v274 main_v279 main_v280 (andi : (⟨S7x64, .i1⟩ : BufTy).Contents (Elt F) → (⟨S7x64, .i1⟩ : BufTy).Contents (Elt F) → (⟨S7x64, .i1⟩ : BufTy).Contents (Elt F)),
    StableHlo.unary main_v269 main_v281 (broadcastInDim S1x64 ![1] bcast_S64_S1x64_1 : (⟨S64, .i32⟩ : BufTy).Contents (Elt F) → (⟨S1x64, .i32⟩ : BufTy).Contents (Elt F)),
    StableHlo.unary main_v259 main_v282 (broadcastInDim S7x1 ![0] bcast_S7_S7x1_0 : (⟨S7, .i32⟩ : BufTy).Contents (Elt F) → (⟨S7x1, .i32⟩ : BufTy).Contents (Elt F)),
    StableHlo.unary main_v281 main_v283 (broadcastInDim S7x64 ![0, 1] bcast_S1x64_S7x64_0_1 : (⟨S1x64, .i32⟩ : BufTy).Contents (Elt F) → (⟨S7x64, .i32⟩ : BufTy).Contents (Elt F)),
    StableHlo.unary main_v282 main_v284 (broadcastInDim S7x64 ![0, 1] bcast_S7x1_S7x64_0_1 : (⟨S7x1, .i32⟩ : BufTy).Contents (Elt F) → (⟨S7x64, .i32⟩ : BufTy).Contents (Elt F)),
    StableHlo.binary main_v283 main_v284 main_v285 (cmpi .sge : (⟨S7x64, .i32⟩ : BufTy).Contents (Elt F) → (⟨S7x64, .i32⟩ : BufTy).Contents (Elt F) → (⟨S7x64, .i1⟩ : BufTy).Contents (Elt F)),
    StableHlo.unary main_v269 main_v286 (broadcastInDim S1x64 ![1] bcast_S64_S1x64_1 : (⟨S64, .i32⟩ : BufTy).Contents (Elt F) → (⟨S1x64, .i32⟩ : BufTy).Contents (Elt F)),
    StableHlo.unary main_v267 main_v287 (broadcastInDim S7x1 ![0] bcast_S7_S7x1_0 : (⟨S7, .i32⟩ : BufTy).Contents (Elt F) → (⟨S7x1, .i32⟩ : BufTy).Contents (Elt F)),
    StableHlo.unary main_v286 main_v288 (broadcastInDim S7x64 ![0, 1] bcast_S1x64_S7x64_0_1 : (⟨S1x64, .i32⟩ : BufTy).Contents (Elt F) → (⟨S7x64, .i32⟩ : BufTy).Contents (Elt F)),
    StableHlo.unary main_v287 main_v289 (broadcastInDim S7x64 ![0, 1] bcast_S7x1_S7x64_0_1 : (⟨S7x1, .i32⟩ : BufTy).Contents (Elt F) → (⟨S7x64, .i32⟩ : BufTy).Contents (Elt F)),
    StableHlo.binary main_v288 main_v289 main_v290 (cmpi .slt : (⟨S7x64, .i32⟩ : BufTy).Contents (Elt F) → (⟨S7x64, .i32⟩ : BufTy).Contents (Elt F) → (⟨S7x64, .i1⟩ : BufTy).Contents (Elt F)),
    StableHlo.binary main_v285 main_v290 main_v291 (andi : (⟨S7x64, .i1⟩ : BufTy).Contents (Elt F) → (⟨S7x64, .i1⟩ : BufTy).Contents (Elt F) → (⟨S7x64, .i1⟩ : BufTy).Contents (Elt F)),
    StableHlo.unary main_v280 main_v292 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v293 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_42 (constant S_ .f32 0xFF800000#32),
    StableHlo.TRef.unary (.of main_v292 : StableHlo.TRef sig ⟨S7x1x64x1, .i1⟩) (.of main_call24_v0 : StableHlo.TRef sig ⟨S7x512x64x64, .i1⟩) (broadcastInDim S7x512x64x64 ![0, 1, 2, 3] bcast_S7x1x64x1_S7x512x64x64_0_1_2_3),
    StableHlo.TRef.unary (.of main_v293 : StableHlo.TRef sig ⟨S1x512x64x64, .f32⟩) (.of main_call24_v1 : StableHlo.TRef sig ⟨S7x512x64x64, .f32⟩) (broadcastInDim S7x512x64x64 ![0, 1, 2, 3] bcast_S1x512x64x64_S7x512x64x64_0_1_2_3),
    StableHlo.TRef.unary (.of main_cst_42 : StableHlo.TRef sig ⟨S_, .f32⟩) (.of main_call24_v2 : StableHlo.TRef sig ⟨S7x512x64x64, .f32⟩) (broadcastInDim S7x512x64x64 ![] bcast_S_S7x512x64x64),
    StableHlo.TRef.ternary (.of main_call24_v0 : StableHlo.TRef sig ⟨S7x512x64x64, .i1⟩) (.of main_call24_v1 : StableHlo.TRef sig ⟨S7x512x64x64, .f32⟩) (.of main_call24_v2 : StableHlo.TRef sig ⟨S7x512x64x64, .f32⟩) (.of main_v294 : StableHlo.TRef sig ⟨S7x512x64x64, .f32⟩) select,
    StableHlo.nullary main_cst_43 (constant S_ .f32 0xFF800000#32),
    StableHlo.binary main_v294 main_cst_43 main_v295 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v291 main_v296 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v295 main_v297 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_44 (constant S_ .f32 0xFF800000#32),
    StableHlo.TRef.unary (.of main_v296 : StableHlo.TRef sig ⟨S1x1x7x64, .i1⟩) (.of main_call25_v0 : StableHlo.TRef sig ⟨S7x512x7x64, .i1⟩) (broadcastInDim S7x512x7x64 ![0, 1, 2, 3] bcast_S1x1x7x64_S7x512x7x64_0_1_2_3),
    StableHlo.TRef.unary (.of main_v297 : StableHlo.TRef sig ⟨S7x512x1x64, .f32⟩) (.of main_call25_v1 : StableHlo.TRef sig ⟨S7x512x7x64, .f32⟩) (broadcastInDim S7x512x7x64 ![0, 1, 2, 3] bcast_S7x512x1x64_S7x512x7x64_0_1_2_3),
    StableHlo.TRef.unary (.of main_cst_44 : StableHlo.TRef sig ⟨S_, .f32⟩) (.of main_call25_v2 : StableHlo.TRef sig ⟨S7x512x7x64, .f32⟩) (broadcastInDim S7x512x7x64 ![] bcast_S_S7x512x7x64),
    StableHlo.TRef.ternary (.of main_call25_v0 : StableHlo.TRef sig ⟨S7x512x7x64, .i1⟩) (.of main_call25_v1 : StableHlo.TRef sig ⟨S7x512x7x64, .f32⟩) (.of main_call25_v2 : StableHlo.TRef sig ⟨S7x512x7x64, .f32⟩) (.of main_v298 : StableHlo.TRef sig ⟨S7x512x7x64, .f32⟩) select ]
/-- The buffers those operations write, in order. -/
abbrev ops13_W : List (Ref sig .tc) :=
  [main_call23_v0, main_call23_v1, main_call23_v2, main_call23_v3, main_call23_v4, main_call23_v5, main_call23_v6, main_call23_v7, main_call23_v8, main_call23_c, main_call23_v9, main_call23_v10, main_call23_v11, main_call23_c_0, main_call23_v12, main_call23_v13, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_cst_42, main_call24_v0, main_call24_v1, main_call24_v2, main_v294, main_cst_43, main_v295, main_v296, main_v297, main_cst_44, main_call25_v0, main_call25_v1, main_call25_v2, main_v298]
/-- Each operation writes its own result buffer and nothing else. -/
theorem ops13_writes : (ops13 : List (HloOp τ sig (Elt F))).Forall fun op => op.writes ⊆ (ops13_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part1 : List (HloOp τ sig (Elt F)) :=
  ops8 ++ ops9 ++ ops10 ++ ops11 ++ ops12 ++ ops13
/-- The generated stretches 28 to 51, in order, are this part: the same operations, cut elsewhere. -/
theorem part1_is : ([hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] : List (List (HloOp τ sig (Elt F)))).flatten = part1 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 322 to 366 of the host part, in order. -/
abbrev ops8 : List (HloOp τ sig (Elt F)) :=
  [ StableHlo.nullary main_cst_25 (constant S_ .f32 0xFF800000#32),
    StableHlo.binary main_v154 main_cst_25 main_v155 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v155 main_v156 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v156 main_v157 rfl shapeCasts_S512x7x7_S25088,
    StableHlo.unary main_v18 main_v158 ((extractStridedSlice S1x1 ![1, 1] · slices_S3x4_S1x1_1_1) : (⟨S3x4, .i32⟩ : BufTy).Contents (Elt F) → (⟨S1x1, .i32⟩ : BufTy).Contents (Elt F)),
    StableHlo.reshape main_v158 main_v159 rfl shapeCasts_S1x1_S_,
    StableHlo.unary main_v18 main_v160 ((extractStridedSlice S1x1 ![1, 3] · slices_S3x4_S1x1_1_3) : (⟨S3x4, .i32⟩ : BufTy).Contents (Elt F) → (⟨S1x1, .i32⟩ : BufTy).Contents (Elt F)),
    StableHlo.reshape main_v160 main_v161 rfl shapeCasts_S1x1_S_,
    StableHlo.unary main_v18 main_v162 ((extractStridedSlice S1x1 ![1, 0] · slices_S3x4_S1x1_1_0) : (⟨S3x4, .i32⟩ : BufTy).Contents (Elt F) → (⟨S1x1, .i32⟩ : BufTy).Contents (Elt F)),
    StableHlo.reshape main_v162 main_v163 rfl shapeCasts_S1x1_S_,
    StableHlo.unary main_v18 main_v164 ((extractStridedSlice S1x1 ![1, 2] · slices_S3x4_S1x1_1_2) : (⟨S3x4, .i32⟩ : BufTy).Contents (Elt F) → (⟨S1x1, .i32⟩ : BufTy).Contents (Elt F)),
    StableHlo.reshape main_v164 main_v165 rfl shapeCasts_S1x1_S_,
    StableHlo.binary main_v161 main_v159 main_v166 (subi : (⟨S_, .i32⟩ : BufTy).Contents (Elt F) → (⟨S_, .i32⟩ : BufTy).Contents (Elt F) → (⟨S_, .i32⟩ : BufTy).Contents (Elt F)),
    StableHlo.binary main_v165 main_v163 main_v167 (subi : (⟨S_, .i32⟩ : BufTy).Contents (Elt F) → (⟨S_, .i32⟩ : BufTy).Contents (Elt F) → (⟨S_, .i32⟩ : BufTy).Contents (Elt F)),
    StableHlo.nullary main_v168 (iotaInDim S7 32 0),
    StableHlo.nullary main_v169 (iotaInDim S7 32 0),
    StableHlo.unary main_v166 main_v170 (broadcastInDim S7 ![] bcast_S_S7 : (⟨S_, .i32⟩ : BufTy).Contents (Elt F) → (⟨S7, .i32⟩ : BufTy).Contents (Elt F)),
    StableHlo.binary main_v168 main_v170 main_v171 (muli : (⟨S7, .i32⟩ : BufTy).Contents (Elt F) → (⟨S7, .i32⟩ : BufTy).Contents (Elt F) → (⟨S7, .i32⟩ : BufTy).Contents (Elt F)),
    StableHlo.nullary main_c_26 (constantI S_ 32 7#32),
    StableHlo.TRef.unary (.of main_c_26 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S7, .i32⟩) (broadcastInDim S7 ![] bcast_S_S7),
    StableHlo.TRef.binary (.of main_v171 : StableHlo.TRef sig ⟨S7, .i32⟩) (.of main_call14_v1 : StableHlo.TRef sig ⟨S7, .i32⟩) (.of main_call14_v2 : StableHlo.TRef sig ⟨S7, .i32⟩) Host.divsi,
    StableHlo.TRef.unary (.of main_v171 : StableHlo.TRef sig ⟨S7, .i32⟩) (.of main_call14_v3 : StableHlo.TRef sig ⟨S7, .i32⟩) signi,
    StableHlo.TRef.unary (.of main_call14_v0 : StableHlo.TRef sig ⟨S_, .i32⟩) (.of main_call14_v4 : StableHlo.TRef sig ⟨S_, .i32⟩) signi,
    StableHlo.TRef.unary (.of main_call14_v4 : StableHlo.TRef sig ⟨S_, .i32⟩) (.of main_call14_v5 : StableHlo.TRef sig ⟨S7, .i32⟩) (broadcastInDim S7 ![] bcast_S_S7),
    StableHlo.TRef.binary (.of main_call14_v3 : StableHlo.TRef sig ⟨S7, .i32⟩) (.of main_call14_v5 : StableHlo.TRef sig ⟨S7, .i32⟩) (.of main_call14_v6 : StableHlo.TRef sig ⟨S7, .i1⟩) (cmpi .ne),
    StableHlo.TRef.unary (.of main_call14_v0 : StableHlo.TRef sig ⟨S_, .i32⟩) (.of main_call14_v7 : StableHlo.TRef sig ⟨S7, .i32⟩) (broadcastInDim S7 ![] bcast_S_S7),
    StableHlo.TRef.binary (.of main_v171 : StableHlo.TRef sig ⟨S7, .i32⟩) (.of main_call14_v7 : StableHlo.TRef sig ⟨S7, .i32⟩) (.of main_call14_v8 : StableHlo.TRef sig ⟨S7, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v9 : StableHlo.TRef sig ⟨S7, .i32⟩) (broadcastInDim S7 ![] bcast_S_S7),
    StableHlo.TRef.binary (.of main_call14_v8 : StableHlo.TRef sig ⟨S7, .i32⟩) (.of main_call14_v9 : StableHlo.TRef sig ⟨S7, .i32⟩) (.of main_call14_v10 : StableHlo.TRef sig ⟨S7, .i1⟩) (cmpi .ne),
    StableHlo.TRef.binary (.of main_call14_v6 : StableHlo.TRef sig ⟨S7, .i1⟩) (.of main_call14_v10 : StableHlo.TRef sig ⟨S7, .i1⟩) (.of main_call14_v11 : StableHlo.TRef sig ⟨S7, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v12 : StableHlo.TRef sig ⟨S7, .i32⟩) (broadcastInDim S7 ![] bcast_S_S7),
    StableHlo.TRef.binary (.of main_call14_v2 : StableHlo.TRef sig ⟨S7, .i32⟩) (.of main_call14_v12 : StableHlo.TRef sig ⟨S7, .i32⟩) (.of main_call14_v13 : StableHlo.TRef sig ⟨S7, .i32⟩) subi,
    StableHlo.TRef.ternary (.of main_call14_v11 : StableHlo.TRef sig ⟨S7, .i1⟩) (.of main_call14_v13 : StableHlo.TRef sig ⟨S7, .i32⟩) (.of main_call14_v2 : StableHlo.TRef sig ⟨S7, .i32⟩) (.of main_v172 : StableHlo.TRef sig ⟨S7, .i32⟩) select,
    StableHlo.unary main_v159 main_v173 (broadcastInDim S7 ![] bcast_S_S7 : (⟨S_, .i32⟩ : BufTy).Contents (Elt F) → (⟨S7, .i32⟩ : BufTy).Contents (Elt F)),
    StableHlo.binary main_v173 main_v172 main_v174 (addi : (⟨S7, .i32⟩ : BufTy).Contents (Elt F) → (⟨S7, .i32⟩ : BufTy).Contents (Elt F) → (⟨S7, .i32⟩ : BufTy).Contents (Elt F)),
    StableHlo.nullary main_c_27 (constantI S_ 32 1#32),
    StableHlo.unary main_c_27 main_v175 (broadcastInDim S7 ![] bcast_S_S7 : (⟨S_, .i32⟩ : BufTy).Contents (Elt F) → (⟨S7, .i32⟩ : BufTy).Contents (Elt F)),
    StableHlo.binary main_v168 main_v175 main_v176 (addi : (⟨S7, .i32⟩ : BufTy).Contents (Elt F) → (⟨S7, .i32⟩ : BufTy).Contents (Elt F) → (⟨S7, .i32⟩ : BufTy).Contents (Elt F)),
    StableHlo.unary main_v176 main_v177 (negi : (⟨S7, .i32⟩ : BufTy).Contents (Elt F) → (⟨S7, .i32⟩ : BufTy).Contents (Elt F)),
    StableHlo.unary main_v166 main_v178 (broadcastInDim S7 ![] bcast_S_S7 : (⟨S_, .i32⟩ : BufTy).Contents (Elt F) → (⟨S7, .i32⟩ : BufTy).Contents (Elt F)),
    StableHlo.binary main_v177 main_v178 main_v179 (muli : (⟨S7, .i32⟩ : BufTy).Contents (Elt F) → (⟨S7, .i32⟩ : BufTy).Contents (Elt F) → (⟨S7, .i32⟩ : BufTy).Contents (Elt F)),
    StableHlo.nullary main_c_28 (constantI S_ 32 7#32) ]
/-- The buffers those operations write, in order. -/
abbrev ops8_W : List (Ref sig .tc) :=
  [main_cst_25, main_v155, main_v156, main_v157, main_v158, main_v159, main_v160, main_v161, main_v162, main_v163, main_v164, main_v165, main_v166, main_v167, main_v168, main_v169, main_v170, main_v171, main_c_26, main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v172, main_v173, main_v174, main_c_27, main_v175, main_v176, main_v177, main_v178, main_v179, main_c_28]
/-- Each operation writes its own result buffer and nothing else. -/
theorem ops8_writes : (ops8 : List (HloOp τ sig (Elt F))).Forall fun op => op.writes ⊆ (ops8_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 367 to 414 of the host part, in order. -/
abbrev ops9 : List (HloOp τ sig (Elt F)) :=
  [ StableHlo.TRef.unary (.of main_c_28 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S7, .i32⟩) (broadcastInDim S7 ![] bcast_S_S7),
    StableHlo.TRef.binary (.of main_v179 : StableHlo.TRef sig ⟨S7, .i32⟩) (.of main_call15_v1 : StableHlo.TRef sig ⟨S7, .i32⟩) (.of main_call15_v2 : StableHlo.TRef sig ⟨S7, .i32⟩) Host.divsi,
    StableHlo.TRef.unary (.of main_v179 : StableHlo.TRef sig ⟨S7, .i32⟩) (.of main_call15_v3 : StableHlo.TRef sig ⟨S7, .i32⟩) signi,
    StableHlo.TRef.unary (.of main_call15_v0 : StableHlo.TRef sig ⟨S_, .i32⟩) (.of main_call15_v4 : StableHlo.TRef sig ⟨S_, .i32⟩) signi,
    StableHlo.TRef.unary (.of main_call15_v4 : StableHlo.TRef sig ⟨S_, .i32⟩) (.of main_call15_v5 : StableHlo.TRef sig ⟨S7, .i32⟩) (broadcastInDim S7 ![] bcast_S_S7),
    StableHlo.TRef.binary (.of main_call15_v3 : StableHlo.TRef sig ⟨S7, .i32⟩) (.of main_call15_v5 : StableHlo.TRef sig ⟨S7, .i32⟩) (.of main_call15_v6 : StableHlo.TRef sig ⟨S7, .i1⟩) (cmpi .ne),
    StableHlo.TRef.unary (.of main_call15_v0 : StableHlo.TRef sig ⟨S_, .i32⟩) (.of main_call15_v7 : StableHlo.TRef sig ⟨S7, .i32⟩) (broadcastInDim S7 ![] bcast_S_S7),
    StableHlo.TRef.binary (.of main_v179 : StableHlo.TRef sig ⟨S7, .i32⟩) (.of main_call15_v7 : StableHlo.TRef sig ⟨S7, .i32⟩) (.of main_call15_v8 : StableHlo.TRef sig ⟨S7, .i32⟩) Host.remsi,
    StableHlo.TRef.nullary (.of main_call15_c : StableHlo.TRef sig ⟨S_, .i32⟩) (constantI S_ 32 0#32),
    StableHlo.TRef.unary (.of main_call15_c : StableHlo.TRef sig ⟨S_, .i32⟩) (.of main_call15_v9 : StableHlo.TRef sig ⟨S7, .i32⟩) (broadcastInDim S7 ![] bcast_S_S7),
    StableHlo.TRef.binary (.of main_call15_v8 : StableHlo.TRef sig ⟨S7, .i32⟩) (.of main_call15_v9 : StableHlo.TRef sig ⟨S7, .i32⟩) (.of main_call15_v10 : StableHlo.TRef sig ⟨S7, .i1⟩) (cmpi .ne),
    StableHlo.TRef.binary (.of main_call15_v6 : StableHlo.TRef sig ⟨S7, .i1⟩) (.of main_call15_v10 : StableHlo.TRef sig ⟨S7, .i1⟩) (.of main_call15_v11 : StableHlo.TRef sig ⟨S7, .i1⟩) andi,
    StableHlo.TRef.nullary (.of main_call15_c_0 : StableHlo.TRef sig ⟨S_, .i32⟩) (constantI S_ 32 1#32),
    StableHlo.TRef.unary (.of main_call15_c_0 : StableHlo.TRef sig ⟨S_, .i32⟩) (.of main_call15_v12 : StableHlo.TRef sig ⟨S7, .i32⟩) (broadcastInDim S7 ![] bcast_S_S7),
    StableHlo.TRef.binary (.of main_call15_v2 : StableHlo.TRef sig ⟨S7, .i32⟩) (.of main_call15_v12 : StableHlo.TRef sig ⟨S7, .i32⟩) (.of main_call15_v13 : StableHlo.TRef sig ⟨S7, .i32⟩) subi,
    StableHlo.TRef.ternary (.of main_call15_v11 : StableHlo.TRef sig ⟨S7, .i1⟩) (.of main_call15_v13 : StableHlo.TRef sig ⟨S7, .i32⟩) (.of main_call15_v2 : StableHlo.TRef sig ⟨S7, .i32⟩) (.of main_v180 : StableHlo.TRef sig ⟨S7, .i32⟩) select,
    StableHlo.unary main_v159 main_v181 (broadcastInDim S7 ![] bcast_S_S7 : (⟨S_, .i32⟩ : BufTy).Contents (Elt F) → (⟨S7, .i32⟩ : BufTy).Contents (Elt F)),
    StableHlo.binary main_v181 main_v180 main_v182 (subi : (⟨S7, .i32⟩ : BufTy).Contents (Elt F) → (⟨S7, .i32⟩ : BufTy).Contents (Elt F) → (⟨S7, .i32⟩ : BufTy).Contents (Elt F)),
    StableHlo.unary main_v167 main_v183 (broadcastInDim S7 ![] bcast_S_S7 : (⟨S_, .i32⟩ : BufTy).Contents (Elt F) → (⟨S7, .i32⟩ : BufTy).Contents (Elt F)),
    StableHlo.binary main_v169 main_v183 main_v184 (muli : (⟨S7, .i32⟩ : BufTy).Contents (Elt F) → (⟨S7, .i32⟩ : BufTy).Contents (Elt F) → (⟨S7, .i32⟩ : BufTy).Contents (Elt F)),
    StableHlo.nullary main_c_29 (constantI S_ 32 7#32),
    StableHlo.TRef.unary (.of main_c_29 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S7, .i32⟩) (broadcastInDim S7 ![] bcast_S_S7),
    StableHlo.TRef.binary (.of main_v184 : StableHlo.TRef sig ⟨S7, .i32⟩) (.of main_call16_v1 : StableHlo.TRef sig ⟨S7, .i32⟩) (.of main_call16_v2 : StableHlo.TRef sig ⟨S7, .i32⟩) Host.divsi,
    StableHlo.TRef.unary (.of main_v184 : StableHlo.TRef sig ⟨S7, .i32⟩) (.of main_call16_v3 : StableHlo.TRef sig ⟨S7, .i32⟩) signi,
    StableHlo.TRef.unary (.of main_call16_v0 : StableHlo.TRef sig ⟨S_, .i32⟩) (.of main_call16_v4 : StableHlo.TRef sig ⟨S_, .i32⟩) signi,
    StableHlo.TRef.unary (.of main_call16_v4 : StableHlo.TRef sig ⟨S_, .i32⟩) (.of main_call16_v5 : StableHlo.TRef sig ⟨S7, .i32⟩) (broadcastInDim S7 ![] bcast_S_S7),
    StableHlo.TRef.binary (.of main_call16_v3 : StableHlo.TRef sig ⟨S7, .i32⟩) (.of main_call16_v5 : StableHlo.TRef sig ⟨S7, .i32⟩) (.of main_call16_v6 : StableHlo.TRef sig ⟨S7, .i1⟩) (cmpi .ne),
    StableHlo.TRef.unary (.of main_call16_v0 : StableHlo.TRef sig ⟨S_, .i32⟩) (.of main_call16_v7 : StableHlo.TRef sig ⟨S7, .i32⟩) (broadcastInDim S7 ![] bcast_S_S7),
    StableHlo.TRef.binary (.of main_v184 : StableHlo.TRef sig ⟨S7, .i32⟩) (.of main_call16_v7 : StableHlo.TRef sig ⟨S7, .i32⟩) (.of main_call16_v8 : StableHlo.TRef sig ⟨S7, .i32⟩) Host.remsi,
    StableHlo.TRef.nullary (.of main_call16_c : StableHlo.TRef sig ⟨S_, .i32⟩) (constantI S_ 32 0#32),
    StableHlo.TRef.unary (.of main_call16_c : StableHlo.TRef sig ⟨S_, .i32⟩) (.of main_call16_v9 : StableHlo.TRef sig ⟨S7, .i32⟩) (broadcastInDim S7 ![] bcast_S_S7),
    StableHlo.TRef.binary (.of main_call16_v8 : StableHlo.TRef sig ⟨S7, .i32⟩) (.of main_call16_v9 : StableHlo.TRef sig ⟨S7, .i32⟩) (.of main_call16_v10 : StableHlo.TRef sig ⟨S7, .i1⟩) (cmpi .ne),
    StableHlo.TRef.binary (.of main_call16_v6 : StableHlo.TRef sig ⟨S7, .i1⟩) (.of main_call16_v10 : StableHlo.TRef sig ⟨S7, .i1⟩) (.of main_call16_v11 : StableHlo.TRef sig ⟨S7, .i1⟩) andi,
    StableHlo.TRef.nullary (.of main_call16_c_0 : StableHlo.TRef sig ⟨S_, .i32⟩) (constantI S_ 32 1#32),
    StableHlo.TRef.unary (.of main_call16_c_0 : StableHlo.TRef sig ⟨S_, .i32⟩) (.of main_call16_v12 : StableHlo.TRef sig ⟨S7, .i32⟩) (broadcastInDim S7 ![] bcast_S_S7),
    StableHlo.TRef.binary (.of main_call16_v2 : StableHlo.TRef sig ⟨S7, .i32⟩) (.of main_call16_v12 : StableHlo.TRef sig ⟨S7, .i32⟩) (.of main_call16_v13 : StableHlo.TRef sig ⟨S7, .i32⟩) subi,
    StableHlo.TRef.ternary (.of main_call16_v11 : StableHlo.TRef sig ⟨S7, .i1⟩) (.of main_call16_v13 : StableHlo.TRef sig ⟨S7, .i32⟩) (.of main_call16_v2 : StableHlo.TRef sig ⟨S7, .i32⟩) (.of main_v185 : StableHlo.TRef sig ⟨S7, .i32⟩) select,
    StableHlo.unary main_v163 main_v186 (broadcastInDim S7 ![] bcast_S_S7 : (⟨S_, .i32⟩ : BufTy).Contents (Elt F) → (⟨S7, .i32⟩ : BufTy).Contents (Elt F)),
    StableHlo.binary main_v186 main_v185 main_v187 (addi : (⟨S7, .i32⟩ : BufTy).Contents (Elt F) → (⟨S7, .i32⟩ : BufTy).Contents (Elt F) → (⟨S7, .i32⟩ : BufTy).Contents (Elt F)),
    StableHlo.nullary main_c_30 (constantI S_ 32 1#32),
    StableHlo.unary main_c_30 main_v188 (broadcastInDim S7 ![] bcast_S_S7 : (⟨S_, .i32⟩ : BufTy).Contents (Elt F) → (⟨S7, .i32⟩ : BufTy).Contents (Elt F)),
    StableHlo.binary main_v169 main_v188 main_v189 (addi : (⟨S7, .i32⟩ : BufTy).Contents (Elt F) → (⟨S7, .i32⟩ : BufTy).Contents (Elt F) → (⟨S7, .i32⟩ : BufTy).Contents (Elt F)),
    StableHlo.unary main_v189 main_v190 (negi : (⟨S7, .i32⟩ : BufTy).Contents (Elt F) → (⟨S7, .i32⟩ : BufTy).Contents (Elt F)),
    StableHlo.unary main_v167 main_v191 (broadcastInDim S7 ![] bcast_S_S7 : (⟨S_, .i32⟩ : BufTy).Contents (Elt F) → (⟨S7, .i32⟩ : BufTy).Contents (Elt F)),
    StableHlo.binary main_v190 main_v191 main_v192 (muli : (⟨S7, .i32⟩ : BufTy).Contents (Elt F) → (⟨S7, .i32⟩ : BufTy).Contents (Elt F) → (⟨S7, .i32⟩ : BufTy).Contents (Elt F)),
    StableHlo.nullary main_c_31 (constantI S_ 32 7#32) ]
/-- The buffers those operations write, in order. -/
abbrev ops9_W : List (Ref sig .tc) :=
  [main_call15_v0, main_call15_v1, main_call15_v2, main_call15_v3, main_call15_v4, main_call15_v5, main_call15_v6, main_call15_v7, main_call15_v8, main_call15_c, main_call15_v9, main_call15_v10, main_call15_v11, main_call15_c_0, main_call15_v12, main_call15_v13, main_v180, main_v181, main_v182, main_v183, main_v184, main_c_29, main_call16_v0, main_call16_v1, main_call16_v2, main_call16_v3, main_call16_v4, main_call16_v5, main_call16_v6, main_call16_v7, main_call16_v8, main_call16_c, main_call16_v9, main_call16_v10, main_call16_v11, main_call16_c_0, main_call16_v12, main_call16_v13, main_v185, main_v186, main_v187, main_c_30, main_v188, main_v189, main_v190, main_v191, main_v192, main_c_31]
/-- Each operation writes its own result buffer and nothing else. -/
theorem ops9_writes : (ops9 : List (HloOp τ sig (Elt F))).Forall fun op => op.writes ⊆ (ops9_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 415 to 473 of the host part, in order. -/
abbrev ops10 : List (HloOp τ sig (Elt F)) :=
  [ StableHlo.TRef.unary (.of main_c_31 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S7, .i32⟩) (broadcastInDim S7 ![] bcast_S_S7),
    StableHlo.TRef.binary (.of main_v192 : StableHlo.TRef sig ⟨S7, .i32⟩) (.of main_call17_v1 : StableHlo.TRef sig ⟨S7, .i32⟩) (.of main_call17_v2 : StableHlo.TRef sig ⟨S7, .i32⟩) Host.divsi,
    StableHlo.TRef.unary (.of main_v192 : StableHlo.TRef sig ⟨S7, .i32⟩) (.of main_call17_v3 : StableHlo.TRef sig ⟨S7, .i32⟩) signi,
    StableHlo.TRef.unary (.of main_call17_v0 : StableHlo.TRef sig ⟨S_, .i32⟩) (.of main_call17_v4 : StableHlo.TRef sig ⟨S_, .i32⟩) signi,
    StableHlo.TRef.unary (.of main_call17_v4 : StableHlo.TRef sig ⟨S_, .i32⟩) (.of main_call17_v5 : StableHlo.TRef sig ⟨S7, .i32⟩) (broadcastInDim S7 ![] bcast_S_S7),
    StableHlo.TRef.binary (.of main_call17_v3 : StableHlo.TRef sig ⟨S7, .i32⟩) (.of main_call17_v5 : StableHlo.TRef sig ⟨S7, .i32⟩) (.of main_call17_v6 : StableHlo.TRef sig ⟨S7, .i1⟩) (cmpi .ne),
    StableHlo.TRef.unary (.of main_call17_v0 : StableHlo.TRef sig ⟨S_, .i32⟩) (.of main_call17_v7 : StableHlo.TRef sig ⟨S7, .i32⟩) (broadcastInDim S7 ![] bcast_S_S7),
    StableHlo.TRef.binary (.of main_v192 : StableHlo.TRef sig ⟨S7, .i32⟩) (.of main_call17_v7 : StableHlo.TRef sig ⟨S7, .i32⟩) (.of main_call17_v8 : StableHlo.TRef sig ⟨S7, .i32⟩) Host.remsi,
    StableHlo.TRef.nullary (.of main_call17_c : StableHlo.TRef sig ⟨S_, .i32⟩) (constantI S_ 32 0#32),
    StableHlo.TRef.unary (.of main_call17_c : StableHlo.TRef sig ⟨S_, .i32⟩) (.of main_call17_v9 : StableHlo.TRef sig ⟨S7, .i32⟩) (broadcastInDim S7 ![] bcast_S_S7),
    StableHlo.TRef.binary (.of main_call17_v8 : StableHlo.TRef sig ⟨S7, .i32⟩) (.of main_call17_v9 : StableHlo.TRef sig ⟨S7, .i32⟩) (.of main_call17_v10 : StableHlo.TRef sig ⟨S7, .i1⟩) (cmpi .ne),
    StableHlo.TRef.binary (.of main_call17_v6 : StableHlo.TRef sig ⟨S7, .i1⟩) (.of main_call17_v10 : StableHlo.TRef sig ⟨S7, .i1⟩) (.of main_call17_v11 : StableHlo.TRef sig ⟨S7, .i1⟩) andi,
    StableHlo.TRef.nullary (.of main_call17_c_0 : StableHlo.TRef sig ⟨S_, .i32⟩) (constantI S_ 32 1#32),
    StableHlo.TRef.unary (.of main_call17_c_0 : StableHlo.TRef sig ⟨S_, .i32⟩) (.of main_call17_v12 : StableHlo.TRef sig ⟨S7, .i32⟩) (broadcastInDim S7 ![] bcast_S_S7),
    StableHlo.TRef.binary (.of main_call17_v2 : StableHlo.TRef sig ⟨S7, .i32⟩) (.of main_call17_v12 : StableHlo.TRef sig ⟨S7, .i32⟩) (.of main_call17_v13 : StableHlo.TRef sig ⟨S7, .i32⟩) subi,
    StableHlo.TRef.ternary (.of main_call17_v11 : StableHlo.TRef sig ⟨S7, .i1⟩) (.of main_call17_v13 : StableHlo.TRef sig ⟨S7, .i32⟩) (.of main_call17_v2 : StableHlo.TRef sig ⟨S7, .i32⟩) (.of main_v193 : StableHlo.TRef sig ⟨S7, .i32⟩) select,
    StableHlo.unary main_v163 main_v194 (broadcastInDim S7 ![] bcast_S_S7 : (⟨S_, .i32⟩ : BufTy).Contents (Elt F) → (⟨S7, .i32⟩ : BufTy).Contents (Elt F)),
    StableHlo.binary main_v194 main_v193 main_v195 (subi : (⟨S7, .i32⟩ : BufTy).Contents (Elt F) → (⟨S7, .i32⟩ : BufTy).Contents (Elt F) → (⟨S7, .i32⟩ : BufTy).Contents (Elt F)),
    StableHlo.nullary main_v196 (iotaInDim S64 32 0),
    StableHlo.nullary main_v197 (iotaInDim S64 32 0),
    StableHlo.unary main_v196 main_v198 (broadcastInDim S1x64 ![1] bcast_S64_S1x64_1 : (⟨S64, .i32⟩ : BufTy).Contents (Elt F) → (⟨S1x64, .i32⟩ : BufTy).Contents (Elt F)),
    StableHlo.unary main_v174 main_v199 (broadcastInDim S7x1 ![0] bcast_S7_S7x1_0 : (⟨S7, .i32⟩ : BufTy).Contents (Elt F) → (⟨S7x1, .i32⟩ : BufTy).Contents (Elt F)),
    StableHlo.unary main_v198 main_v200 (broadcastInDim S7x64 ![0, 1] bcast_S1x64_S7x64_0_1 : (⟨S1x64, .i32⟩ : BufTy).Contents (Elt F) → (⟨S7x64, .i32⟩ : BufTy).Contents (Elt F)),
    StableHlo.unary main_v199 main_v201 (broadcastInDim S7x64 ![0, 1] bcast_S7x1_S7x64_0_1 : (⟨S7x1, .i32⟩ : BufTy).Contents (Elt F) → (⟨S7x64, .i32⟩ : BufTy).Contents (Elt F)),
    StableHlo.binary main_v200 main_v201 main_v202 (cmpi .sge : (⟨S7x64, .i32⟩ : BufTy).Contents (Elt F) → (⟨S7x64, .i32⟩ : BufTy).Contents (Elt F) → (⟨S7x64, .i1⟩ : BufTy).Contents (Elt F)),
    StableHlo.unary main_v196 main_v203 (broadcastInDim S1x64 ![1] bcast_S64_S1x64_1 : (⟨S64, .i32⟩ : BufTy).Contents (Elt F) → (⟨S1x64, .i32⟩ : BufTy).Contents (Elt F)),
    StableHlo.unary main_v182 main_v204 (broadcastInDim S7x1 ![0] bcast_S7_S7x1_0 : (⟨S7, .i32⟩ : BufTy).Contents (Elt F) → (⟨S7x1, .i32⟩ : BufTy).Contents (Elt F)),
    StableHlo.unary main_v203 main_v205 (broadcastInDim S7x64 ![0, 1] bcast_S1x64_S7x64_0_1 : (⟨S1x64, .i32⟩ : BufTy).Contents (Elt F) → (⟨S7x64, .i32⟩ : BufTy).Contents (Elt F)),
    StableHlo.unary main_v204 main_v206 (broadcastInDim S7x64 ![0, 1] bcast_S7x1_S7x64_0_1 : (⟨S7x1, .i32⟩ : BufTy).Contents (Elt F) → (⟨S7x64, .i32⟩ : BufTy).Contents (Elt F)),
    StableHlo.binary main_v205 main_v206 main_v207 (cmpi .slt : (⟨S7x64, .i32⟩ : BufTy).Contents (Elt F) → (⟨S7x64, .i32⟩ : BufTy).Contents (Elt F) → (⟨S7x64, .i1⟩ : BufTy).Contents (Elt F)),
    StableHlo.binary main_v202 main_v207 main_v208 (andi : (⟨S7x64, .i1⟩ : BufTy).Contents (Elt F) → (⟨S7x64, .i1⟩ : BufTy).Contents (Elt F) → (⟨S7x64, .i1⟩ : BufTy).Contents (Elt F)),
    StableHlo.unary main_v197 main_v209 (broadcastInDim S1x64 ![1] bcast_S64_S1x64_1 : (⟨S64, .i32⟩ : BufTy).Contents (Elt F) → (⟨S1x64, .i32⟩ : BufTy).Contents (Elt F)),
    StableHlo.unary main_v187 main_v210 (broadcastInDim S7x1 ![0] bcast_S7_S7x1_0 : (⟨S7, .i32⟩ : BufTy).Contents (Elt F) → (⟨S7x1, .i32⟩ : BufTy).Contents (Elt F)),
    StableHlo.unary main_v209 main_v211 (broadcastInDim S7x64 ![0, 1] bcast_S1x64_S7x64_0_1 : (⟨S1x64, .i32⟩ : BufTy).Contents (Elt F) → (⟨S7x64, .i32⟩ : BufTy).Contents (Elt F)),
    StableHlo.unary main_v210 main_v212 (broadcastInDim S7x64 ![0, 1] bcast_S7x1_S7x64_0_1 : (⟨S7x1, .i32⟩ : BufTy).Contents (Elt F) → (⟨S7x64, .i32⟩ : BufTy).Contents (Elt F)),
    StableHlo.binary main_v211 main_v212 main_v213 (cmpi .sge : (⟨S7x64, .i32⟩ : BufTy).Contents (Elt F) → (⟨S7x64, .i32⟩ : BufTy).Contents (Elt F) → (⟨S7x64, .i1⟩ : BufTy).Contents (Elt F)),
    StableHlo.unary main_v197 main_v214 (broadcastInDim S1x64 ![1] bcast_S64_S1x64_1 : (⟨S64, .i32⟩ : BufTy).Contents (Elt F) → (⟨S1x64, .i32⟩ : BufTy).Contents (Elt F)),
    StableHlo.unary main_v195 main_v215 (broadcastInDim S7x1 ![0] bcast_S7_S7x1_0 : (⟨S7, .i32⟩ : BufTy).Contents (Elt F) → (⟨S7x1, .i32⟩ : BufTy).Contents (Elt F)),
    StableHlo.unary main_v214 main_v216 (broadcastInDim S7x64 ![0, 1] bcast_S1x64_S7x64_0_1 : (⟨S1x64, .i32⟩ : BufTy).Contents (Elt F) → (⟨S7x64, .i32⟩ : BufTy).Contents (Elt F)),
    StableHlo.unary main_v215 main_v217 (broadcastInDim S7x64 ![0, 1] bcast_S7x1_S7x64_0_1 : (⟨S7x1, .i32⟩ : BufTy).Contents (Elt F) → (⟨S7x64, .i32⟩ : BufTy).Contents (Elt F)),
    StableHlo.binary main_v216 main_v217 main_v218 (cmpi .slt : (⟨S7x64, .i32⟩ : BufTy).Contents (Elt F) → (⟨S7x64, .i32⟩ : BufTy).Contents (Elt F) → (⟨S7x64, .i1⟩ : BufTy).Contents (Elt F)),
    StableHlo.binary main_v213 main_v218 main_v219 (andi : (⟨S7x64, .i1⟩ : BufTy).Contents (Elt F) → (⟨S7x64, .i1⟩ : BufTy).Contents (Elt F) → (⟨S7x64, .i1⟩ : BufTy).Contents (Elt F)),
    StableHlo.unary main_v208 main_v220 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v221 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_32 (constant S_ .f32 0xFF800000#32),
    StableHlo.TRef.unary (.of main_v220 : StableHlo.TRef sig ⟨S7x1x64x1, .i1⟩) (.of main_call18_v0 : StableHlo.TRef sig ⟨S7x512x64x64, .i1⟩) (broadcastInDim S7x512x64x64 ![0, 1, 2, 3] bcast_S7x1x64x1_S7x512x64x64_0_1_2_3),
    StableHlo.TRef.unary (.of main_v221 : StableHlo.TRef sig ⟨S1x512x64x64, .f32⟩) (.of main_call18_v1 : StableHlo.TRef sig ⟨S7x512x64x64, .f32⟩) (broadcastInDim S7x512x64x64 ![0, 1, 2, 3] bcast_S1x512x64x64_S7x512x64x64_0_1_2_3),
    StableHlo.TRef.unary (.of main_cst_32 : StableHlo.TRef sig ⟨S_, .f32⟩) (.of main_call18_v2 : StableHlo.TRef sig ⟨S7x512x64x64, .f32⟩) (broadcastInDim S7x512x64x64 ![] bcast_S_S7x512x64x64),
    StableHlo.TRef.ternary (.of main_call18_v0 : StableHlo.TRef sig ⟨S7x512x64x64, .i1⟩) (.of main_call18_v1 : StableHlo.TRef sig ⟨S7x512x64x64, .f32⟩) (.of main_call18_v2 : StableHlo.TRef sig ⟨S7x512x64x64, .f32⟩) (.of main_v222 : StableHlo.TRef sig ⟨S7x512x64x64, .f32⟩) select,
    StableHlo.nullary main_cst_33 (constant S_ .f32 0xFF800000#32),
    StableHlo.binary main_v222 main_cst_33 main_v223 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v219 main_v224 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v223 main_v225 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_34 (constant S_ .f32 0xFF800000#32),
    StableHlo.TRef.unary (.of main_v224 : StableHlo.TRef sig ⟨S1x1x7x64, .i1⟩) (.of main_call19_v0 : StableHlo.TRef sig ⟨S7x512x7x64, .i1⟩) (broadcastInDim S7x512x7x64 ![0, 1, 2, 3] bcast_S1x1x7x64_S7x512x7x64_0_1_2_3),
    StableHlo.TRef.unary (.of main_v225 : StableHlo.TRef sig ⟨S7x512x1x64, .f32⟩) (.of main_call19_v1 : StableHlo.TRef sig ⟨S7x512x7x64, .f32⟩) (broadcastInDim S7x512x7x64 ![0, 1, 2, 3] bcast_S7x512x1x64_S7x512x7x64_0_1_2_3),
    StableHlo.TRef.unary (.of main_cst_34 : StableHlo.TRef sig ⟨S_, .f32⟩) (.of main_call19_v2 : StableHlo.TRef sig ⟨S7x512x7x64, .f32⟩) (broadcastInDim S7x512x7x64 ![] bcast_S_S7x512x7x64),
    StableHlo.TRef.ternary (.of main_call19_v0 : StableHlo.TRef sig ⟨S7x512x7x64, .i1⟩) (.of main_call19_v1 : StableHlo.TRef sig ⟨S7x512x7x64, .f32⟩) (.of main_call19_v2 : StableHlo.TRef sig ⟨S7x512x7x64, .f32⟩) (.of main_v226 : StableHlo.TRef sig ⟨S7x512x7x64, .f32⟩) select ]
/-- The buffers those operations write, in order. -/
abbrev ops10_W : List (Ref sig .tc) :=
  [main_call17_v0, main_call17_v1, main_call17_v2, main_call17_v3, main_call17_v4, main_call17_v5, main_call17_v6, main_call17_v7, main_call17_v8, main_call17_c, main_call17_v9, main_call17_v10, main_call17_v11, main_call17_c_0, main_call17_v12, main_call17_v13, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_cst_32, main_call18_v0, main_call18_v1, main_call18_v2, main_v222, main_cst_33, main_v223, main_v224, main_v225, main_cst_34, main_call19_v0, main_call19_v1, main_call19_v2, main_v226]
/-- Each operation writes its own result buffer and nothing else. -/
theorem ops10_writes : (ops10 : List (HloOp τ sig (Elt F))).Forall fun op => op.writes ⊆ (ops10_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 474 to 518 of the host part, in order. -/
abbrev ops11 : List (HloOp τ sig (Elt F)) :=
  [ StableHlo.nullary main_cst_35 (constant S_ .f32 0xFF800000#32),
    StableHlo.binary main_v226 main_cst_35 main_v227 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v227 main_v228 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v228 main_v229 rfl shapeCasts_S512x7x7_S25088,
    StableHlo.unary main_v18 main_v230 ((extractStridedSlice S1x1 ![2, 1] · slices_S3x4_S1x1_2_1) : (⟨S3x4, .i32⟩ : BufTy).Contents (Elt F) → (⟨S1x1, .i32⟩ : BufTy).Contents (Elt F)),
    StableHlo.reshape main_v230 main_v231 rfl shapeCasts_S1x1_S_,
    StableHlo.unary main_v18 main_v232 ((extractStridedSlice S1x1 ![2, 3] · slices_S3x4_S1x1_2_3) : (⟨S3x4, .i32⟩ : BufTy).Contents (Elt F) → (⟨S1x1, .i32⟩ : BufTy).Contents (Elt F)),
    StableHlo.reshape main_v232 main_v233 rfl shapeCasts_S1x1_S_,
    StableHlo.unary main_v18 main_v234 ((extractStridedSlice S1x1 ![2, 0] · slices_S3x4_S1x1_2_0) : (⟨S3x4, .i32⟩ : BufTy).Contents (Elt F) → (⟨S1x1, .i32⟩ : BufTy).Contents (Elt F)),
    StableHlo.reshape main_v234 main_v235 rfl shapeCasts_S1x1_S_,
    StableHlo.unary main_v18 main_v236 ((extractStridedSlice S1x1 ![2, 2] · slices_S3x4_S1x1_2_2) : (⟨S3x4, .i32⟩ : BufTy).Contents (Elt F) → (⟨S1x1, .i32⟩ : BufTy).Contents (Elt F)),
    StableHlo.reshape main_v236 main_v237 rfl shapeCasts_S1x1_S_,
    StableHlo.binary main_v233 main_v231 main_v238 (subi : (⟨S_, .i32⟩ : BufTy).Contents (Elt F) → (⟨S_, .i32⟩ : BufTy).Contents (Elt F) → (⟨S_, .i32⟩ : BufTy).Contents (Elt F)),
    StableHlo.binary main_v237 main_v235 main_v239 (subi : (⟨S_, .i32⟩ : BufTy).Contents (Elt F) → (⟨S_, .i32⟩ : BufTy).Contents (Elt F) → (⟨S_, .i32⟩ : BufTy).Contents (Elt F)),
    StableHlo.nullary main_v240 (iotaInDim S7 32 0),
    StableHlo.nullary main_v241 (iotaInDim S7 32 0),
    StableHlo.unary main_v238 main_v242 (broadcastInDim S7 ![] bcast_S_S7 : (⟨S_, .i32⟩ : BufTy).Contents (Elt F) → (⟨S7, .i32⟩ : BufTy).Contents (Elt F)),
    StableHlo.binary main_v240 main_v242 main_v243 (muli : (⟨S7, .i32⟩ : BufTy).Contents (Elt F) → (⟨S7, .i32⟩ : BufTy).Contents (Elt F) → (⟨S7, .i32⟩ : BufTy).Contents (Elt F)),
    StableHlo.nullary main_c_36 (constantI S_ 32 7#32),
    StableHlo.TRef.unary (.of main_c_36 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S7, .i32⟩) (broadcastInDim S7 ![] bcast_S_S7),
    StableHlo.TRef.binary (.of main_v243 : StableHlo.TRef sig ⟨S7, .i32⟩) (.of main_call20_v1 : StableHlo.TRef sig ⟨S7, .i32⟩) (.of main_call20_v2 : StableHlo.TRef sig ⟨S7, .i32⟩) Host.divsi,
    StableHlo.TRef.unary (.of main_v243 : StableHlo.TRef sig ⟨S7, .i32⟩) (.of main_call20_v3 : StableHlo.TRef sig ⟨S7, .i32⟩) signi,
    StableHlo.TRef.unary (.of main_call20_v0 : StableHlo.TRef sig ⟨S_, .i32⟩) (.of main_call20_v4 : StableHlo.TRef sig ⟨S_, .i32⟩) signi,
    StableHlo.TRef.unary (.of main_call20_v4 : StableHlo.TRef sig ⟨S_, .i32⟩) (.of main_call20_v5 : StableHlo.TRef sig ⟨S7, .i32⟩) (broadcastInDim S7 ![] bcast_S_S7),
    StableHlo.TRef.binary (.of main_call20_v3 : StableHlo.TRef sig ⟨S7, .i32⟩) (.of main_call20_v5 : StableHlo.TRef sig ⟨S7, .i32⟩) (.of main_call20_v6 : StableHlo.TRef sig ⟨S7, .i1⟩) (cmpi .ne),
    StableHlo.TRef.unary (.of main_call20_v0 : StableHlo.TRef sig ⟨S_, .i32⟩) (.of main_call20_v7 : StableHlo.TRef sig ⟨S7, .i32⟩) (broadcastInDim S7 ![] bcast_S_S7),
    StableHlo.TRef.binary (.of main_v243 : StableHlo.TRef sig ⟨S7, .i32⟩) (.of main_call20_v7 : StableHlo.TRef sig ⟨S7, .i32⟩) (.of main_call20_v8 : StableHlo.TRef sig ⟨S7, .i32⟩) Host.remsi,
    StableHlo.TRef.nullary (.of main_call20_c : StableHlo.TRef sig ⟨S_, .i32⟩) (constantI S_ 32 0#32),
    StableHlo.TRef.unary (.of main_call20_c : StableHlo.TRef sig ⟨S_, .i32⟩) (.of main_call20_v9 : StableHlo.TRef sig ⟨S7, .i32⟩) (broadcastInDim S7 ![] bcast_S_S7),
    StableHlo.TRef.binary (.of main_call20_v8 : StableHlo.TRef sig ⟨S7, .i32⟩) (.of main_call20_v9 : StableHlo.TRef sig ⟨S7, .i32⟩) (.of main_call20_v10 : StableHlo.TRef sig ⟨S7, .i1⟩) (cmpi .ne),
    StableHlo.TRef.binary (.of main_call20_v6 : StableHlo.TRef sig ⟨S7, .i1⟩) (.of main_call20_v10 : StableHlo.TRef sig ⟨S7, .i1⟩) (.of main_call20_v11 : StableHlo.TRef sig ⟨S7, .i1⟩) andi,
    StableHlo.TRef.nullary (.of main_call20_c_0 : StableHlo.TRef sig ⟨S_, .i32⟩) (constantI S_ 32 1#32),
    StableHlo.TRef.unary (.of main_call20_c_0 : StableHlo.TRef sig ⟨S_, .i32⟩) (.of main_call20_v12 : StableHlo.TRef sig ⟨S7, .i32⟩) (broadcastInDim S7 ![] bcast_S_S7),
    StableHlo.TRef.binary (.of main_call20_v2 : StableHlo.TRef sig ⟨S7, .i32⟩) (.of main_call20_v12 : StableHlo.TRef sig ⟨S7, .i32⟩) (.of main_call20_v13 : StableHlo.TRef sig ⟨S7, .i32⟩) subi,
    StableHlo.TRef.ternary (.of main_call20_v11 : StableHlo.TRef sig ⟨S7, .i1⟩) (.of main_call20_v13 : StableHlo.TRef sig ⟨S7, .i32⟩) (.of main_call20_v2 : StableHlo.TRef sig ⟨S7, .i32⟩) (.of main_v244 : StableHlo.TRef sig ⟨S7, .i32⟩) select,
    StableHlo.unary main_v231 main_v245 (broadcastInDim S7 ![] bcast_S_S7 : (⟨S_, .i32⟩ : BufTy).Contents (Elt F) → (⟨S7, .i32⟩ : BufTy).Contents (Elt F)),
    StableHlo.binary main_v245 main_v244 main_v246 (addi : (⟨S7, .i32⟩ : BufTy).Contents (Elt F) → (⟨S7, .i32⟩ : BufTy).Contents (Elt F) → (⟨S7, .i32⟩ : BufTy).Contents (Elt F)),
    StableHlo.nullary main_c_37 (constantI S_ 32 1#32),
    StableHlo.unary main_c_37 main_v247 (broadcastInDim S7 ![] bcast_S_S7 : (⟨S_, .i32⟩ : BufTy).Contents (Elt F) → (⟨S7, .i32⟩ : BufTy).Contents (Elt F)),
    StableHlo.binary main_v240 main_v247 main_v248 (addi : (⟨S7, .i32⟩ : BufTy).Contents (Elt F) → (⟨S7, .i32⟩ : BufTy).Contents (Elt F) → (⟨S7, .i32⟩ : BufTy).Contents (Elt F)),
    StableHlo.unary main_v248 main_v249 (negi : (⟨S7, .i32⟩ : BufTy).Contents (Elt F) → (⟨S7, .i32⟩ : BufTy).Contents (Elt F)),
    StableHlo.unary main_v238 main_v250 (broadcastInDim S7 ![] bcast_S_S7 : (⟨S_, .i32⟩ : BufTy).Contents (Elt F) → (⟨S7, .i32⟩ : BufTy).Contents (Elt F)),
    StableHlo.binary main_v249 main_v250 main_v251 (muli : (⟨S7, .i32⟩ : BufTy).Contents (Elt F) → (⟨S7, .i32⟩ : BufTy).Contents (Elt F) → (⟨S7, .i32⟩ : BufTy).Contents (Elt F)),
    StableHlo.nullary main_c_38 (constantI S_ 32 7#32) ]
/-- The buffers those operations write, in order. -/
abbrev ops11_W : List (Ref sig .tc) :=
  [main_cst_35, main_v227, main_v228, main_v229, main_v230, main_v231, main_v232, main_v233, main_v234, main_v235, main_v236, main_v237, main_v238, main_v239, main_v240, main_v241, main_v242, main_v243, main_c_36, main_call20_v0, main_call20_v1, main_call20_v2, main_call20_v3, main_call20_v4, main_call20_v5, main_call20_v6, main_call20_v7, main_call20_v8, main_call20_c, main_call20_v9, main_call20_v10, main_call20_v11, main_call20_c_0, main_call20_v12, main_call20_v13, main_v244, main_v245, main_v246, main_c_37, main_v247, main_v248, main_v249, main_v250, main_v251, main_c_38]
/-- Each operation writes its own result buffer and nothing else. -/
theorem ops11_writes : (ops11 : List (HloOp τ sig (Elt F))).Forall fun op => op.writes ⊆ (ops11_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 519 to 566 of the host part, in order. -/
abbrev ops12 : List (HloOp τ sig (Elt F)) :=
  [ StableHlo.TRef.unary (.of main_c_38 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S7, .i32⟩) (broadcastInDim S7 ![] bcast_S_S7),
    StableHlo.TRef.binary (.of main_v251 : StableHlo.TRef sig ⟨S7, .i32⟩) (.of main_call21_v1 : StableHlo.TRef sig ⟨S7, .i32⟩) (.of main_call21_v2 : StableHlo.TRef sig ⟨S7, .i32⟩) Host.divsi,
    StableHlo.TRef.unary (.of main_v251 : StableHlo.TRef sig ⟨S7, .i32⟩) (.of main_call21_v3 : StableHlo.TRef sig ⟨S7, .i32⟩) signi,
    StableHlo.TRef.unary (.of main_call21_v0 : StableHlo.TRef sig ⟨S_, .i32⟩) (.of main_call21_v4 : StableHlo.TRef sig ⟨S_, .i32⟩) signi,
    StableHlo.TRef.unary (.of main_call21_v4 : StableHlo.TRef sig ⟨S_, .i32⟩) (.of main_call21_v5 : StableHlo.TRef sig ⟨S7, .i32⟩) (broadcastInDim S7 ![] bcast_S_S7),
    StableHlo.TRef.binary (.of main_call21_v3 : StableHlo.TRef sig ⟨S7, .i32⟩) (.of main_call21_v5 : StableHlo.TRef sig ⟨S7, .i32⟩) (.of main_call21_v6 : StableHlo.TRef sig ⟨S7, .i1⟩) (cmpi .ne),
    StableHlo.TRef.unary (.of main_call21_v0 : StableHlo.TRef sig ⟨S_, .i32⟩) (.of main_call21_v7 : StableHlo.TRef sig ⟨S7, .i32⟩) (broadcastInDim S7 ![] bcast_S_S7),
    StableHlo.TRef.binary (.of main_v251 : StableHlo.TRef sig ⟨S7, .i32⟩) (.of main_call21_v7 : StableHlo.TRef sig ⟨S7, .i32⟩) (.of main_call21_v8 : StableHlo.TRef sig ⟨S7, .i32⟩) Host.remsi,
    StableHlo.TRef.nullary (.of main_call21_c : StableHlo.TRef sig ⟨S_, .i32⟩) (constantI S_ 32 0#32),
    StableHlo.TRef.unary (.of main_call21_c : StableHlo.TRef sig ⟨S_, .i32⟩) (.of main_call21_v9 : StableHlo.TRef sig ⟨S7, .i32⟩) (broadcastInDim S7 ![] bcast_S_S7),
    StableHlo.TRef.binary (.of main_call21_v8 : StableHlo.TRef sig ⟨S7, .i32⟩) (.of main_call21_v9 : StableHlo.TRef sig ⟨S7, .i32⟩) (.of main_call21_v10 : StableHlo.TRef sig ⟨S7, .i1⟩) (cmpi .ne),
    StableHlo.TRef.binary (.of main_call21_v6 : StableHlo.TRef sig ⟨S7, .i1⟩) (.of main_call21_v10 : StableHlo.TRef sig ⟨S7, .i1⟩) (.of main_call21_v11 : StableHlo.TRef sig ⟨S7, .i1⟩) andi,
    StableHlo.TRef.nullary (.of main_call21_c_0 : StableHlo.TRef sig ⟨S_, .i32⟩) (constantI S_ 32 1#32),
    StableHlo.TRef.unary (.of main_call21_c_0 : StableHlo.TRef sig ⟨S_, .i32⟩) (.of main_call21_v12 : StableHlo.TRef sig ⟨S7, .i32⟩) (broadcastInDim S7 ![] bcast_S_S7),
    StableHlo.TRef.binary (.of main_call21_v2 : StableHlo.TRef sig ⟨S7, .i32⟩) (.of main_call21_v12 : StableHlo.TRef sig ⟨S7, .i32⟩) (.of main_call21_v13 : StableHlo.TRef sig ⟨S7, .i32⟩) subi,
    StableHlo.TRef.ternary (.of main_call21_v11 : StableHlo.TRef sig ⟨S7, .i1⟩) (.of main_call21_v13 : StableHlo.TRef sig ⟨S7, .i32⟩) (.of main_call21_v2 : StableHlo.TRef sig ⟨S7, .i32⟩) (.of main_v252 : StableHlo.TRef sig ⟨S7, .i32⟩) select,
    StableHlo.unary main_v231 main_v253 (broadcastInDim S7 ![] bcast_S_S7 : (⟨S_, .i32⟩ : BufTy).Contents (Elt F) → (⟨S7, .i32⟩ : BufTy).Contents (Elt F)),
    StableHlo.binary main_v253 main_v252 main_v254 (subi : (⟨S7, .i32⟩ : BufTy).Contents (Elt F) → (⟨S7, .i32⟩ : BufTy).Contents (Elt F) → (⟨S7, .i32⟩ : BufTy).Contents (Elt F)),
    StableHlo.unary main_v239 main_v255 (broadcastInDim S7 ![] bcast_S_S7 : (⟨S_, .i32⟩ : BufTy).Contents (Elt F) → (⟨S7, .i32⟩ : BufTy).Contents (Elt F)),
    StableHlo.binary main_v241 main_v255 main_v256 (muli : (⟨S7, .i32⟩ : BufTy).Contents (Elt F) → (⟨S7, .i32⟩ : BufTy).Contents (Elt F) → (⟨S7, .i32⟩ : BufTy).Contents (Elt F)),
    StableHlo.nullary main_c_39 (constantI S_ 32 7#32),
    StableHlo.TRef.unary (.of main_c_39 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S7, .i32⟩) (broadcastInDim S7 ![] bcast_S_S7),
    StableHlo.TRef.binary (.of main_v256 : StableHlo.TRef sig ⟨S7, .i32⟩) (.of main_call22_v1 : StableHlo.TRef sig ⟨S7, .i32⟩) (.of main_call22_v2 : StableHlo.TRef sig ⟨S7, .i32⟩) Host.divsi,
    StableHlo.TRef.unary (.of main_v256 : StableHlo.TRef sig ⟨S7, .i32⟩) (.of main_call22_v3 : StableHlo.TRef sig ⟨S7, .i32⟩) signi,
    StableHlo.TRef.unary (.of main_call22_v0 : StableHlo.TRef sig ⟨S_, .i32⟩) (.of main_call22_v4 : StableHlo.TRef sig ⟨S_, .i32⟩) signi,
    StableHlo.TRef.unary (.of main_call22_v4 : StableHlo.TRef sig ⟨S_, .i32⟩) (.of main_call22_v5 : StableHlo.TRef sig ⟨S7, .i32⟩) (broadcastInDim S7 ![] bcast_S_S7),
    StableHlo.TRef.binary (.of main_call22_v3 : StableHlo.TRef sig ⟨S7, .i32⟩) (.of main_call22_v5 : StableHlo.TRef sig ⟨S7, .i32⟩) (.of main_call22_v6 : StableHlo.TRef sig ⟨S7, .i1⟩) (cmpi .ne),
    StableHlo.TRef.unary (.of main_call22_v0 : StableHlo.TRef sig ⟨S_, .i32⟩) (.of main_call22_v7 : StableHlo.TRef sig ⟨S7, .i32⟩) (broadcastInDim S7 ![] bcast_S_S7),
    StableHlo.TRef.binary (.of main_v256 : StableHlo.TRef sig ⟨S7, .i32⟩) (.of main_call22_v7 : StableHlo.TRef sig ⟨S7, .i32⟩) (.of main_call22_v8 : StableHlo.TRef sig ⟨S7, .i32⟩) Host.remsi,
    StableHlo.TRef.nullary (.of main_call22_c : StableHlo.TRef sig ⟨S_, .i32⟩) (constantI S_ 32 0#32),
    StableHlo.TRef.unary (.of main_call22_c : StableHlo.TRef sig ⟨S_, .i32⟩) (.of main_call22_v9 : StableHlo.TRef sig ⟨S7, .i32⟩) (broadcastInDim S7 ![] bcast_S_S7),
    StableHlo.TRef.binary (.of main_call22_v8 : StableHlo.TRef sig ⟨S7, .i32⟩) (.of main_call22_v9 : StableHlo.TRef sig ⟨S7, .i32⟩) (.of main_call22_v10 : StableHlo.TRef sig ⟨S7, .i1⟩) (cmpi .ne),
    StableHlo.TRef.binary (.of main_call22_v6 : StableHlo.TRef sig ⟨S7, .i1⟩) (.of main_call22_v10 : StableHlo.TRef sig ⟨S7, .i1⟩) (.of main_call22_v11 : StableHlo.TRef sig ⟨S7, .i1⟩) andi,
    StableHlo.TRef.nullary (.of main_call22_c_0 : StableHlo.TRef sig ⟨S_, .i32⟩) (constantI S_ 32 1#32),
    StableHlo.TRef.unary (.of main_call22_c_0 : StableHlo.TRef sig ⟨S_, .i32⟩) (.of main_call22_v12 : StableHlo.TRef sig ⟨S7, .i32⟩) (broadcastInDim S7 ![] bcast_S_S7),
    StableHlo.TRef.binary (.of main_call22_v2 : StableHlo.TRef sig ⟨S7, .i32⟩) (.of main_call22_v12 : StableHlo.TRef sig ⟨S7, .i32⟩) (.of main_call22_v13 : StableHlo.TRef sig ⟨S7, .i32⟩) subi,
    StableHlo.TRef.ternary (.of main_call22_v11 : StableHlo.TRef sig ⟨S7, .i1⟩) (.of main_call22_v13 : StableHlo.TRef sig ⟨S7, .i32⟩) (.of main_call22_v2 : StableHlo.TRef sig ⟨S7, .i32⟩) (.of main_v257 : StableHlo.TRef sig ⟨S7, .i32⟩) select,
    StableHlo.unary main_v235 main_v258 (broadcastInDim S7 ![] bcast_S_S7 : (⟨S_, .i32⟩ : BufTy).Contents (Elt F) → (⟨S7, .i32⟩ : BufTy).Contents (Elt F)),
    StableHlo.binary main_v258 main_v257 main_v259 (addi : (⟨S7, .i32⟩ : BufTy).Contents (Elt F) → (⟨S7, .i32⟩ : BufTy).Contents (Elt F) → (⟨S7, .i32⟩ : BufTy).Contents (Elt F)),
    StableHlo.nullary main_c_40 (constantI S_ 32 1#32),
    StableHlo.unary main_c_40 main_v260 (broadcastInDim S7 ![] bcast_S_S7 : (⟨S_, .i32⟩ : BufTy).Contents (Elt F) → (⟨S7, .i32⟩ : BufTy).Contents (Elt F)),
    StableHlo.binary main_v241 main_v260 main_v261 (addi : (⟨S7, .i32⟩ : BufTy).Contents (Elt F) → (⟨S7, .i32⟩ : BufTy).Contents (Elt F) → (⟨S7, .i32⟩ : BufTy).Contents (Elt F)),
    StableHlo.unary main_v261 main_v262 (negi : (⟨S7, .i32⟩ : BufTy).Contents (Elt F) → (⟨S7, .i32⟩ : BufTy).Contents (Elt F)),
    StableHlo.unary main_v239 main_v263 (broadcastInDim S7 ![] bcast_S_S7 : (⟨S_, .i32⟩ : BufTy).Contents (Elt F) → (⟨S7, .i32⟩ : BufTy).Contents (Elt F)),
    StableHlo.binary main_v262 main_v263 main_v264 (muli : (⟨S7, .i32⟩ : BufTy).Contents (Elt F) → (⟨S7, .i32⟩ : BufTy).Contents (Elt F) → (⟨S7, .i32⟩ : BufTy).Contents (Elt F)),
    StableHlo.nullary main_c_41 (constantI S_ 32 7#32) ]
/-- The buffers those operations write, in order. -/
abbrev ops12_W : List (Ref sig .tc) :=
  [main_call21_v0, main_call21_v1, main_call21_v2, main_call21_v3, main_call21_v4, main_call21_v5, main_call21_v6, main_call21_v7, main_call21_v8, main_call21_c, main_call21_v9, main_call21_v10, main_call21_v11, main_call21_c_0, main_call21_v12, main_call21_v13, main_v252, main_v253, main_v254, main_v255, main_v256, main_c_39, main_call22_v0, main_call22_v1, main_call22_v2, main_call22_v3, main_call22_v4, main_call22_v5, main_call22_v6, main_call22_v7, main_call22_v8, main_call22_c, main_call22_v9, main_call22_v10, main_call22_v11, main_call22_c_0, main_call22_v12, main_call22_v13, main_v257, main_v258, main_v259, main_c_40, main_v260, main_v261, main_v262, main_v263, main_v264, main_c_41]
/-- Each operation writes its own result buffer and nothing else. -/
theorem ops12_writes : (ops12 : List (HloOp τ sig (Elt F))).Forall fun op => op.writes ⊆ (ops12_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 567 to 625 of the host part, in order. -/
abbrev ops13 : List (HloOp τ sig (Elt F)) :=
  [ StableHlo.TRef.unary (.of main_c_41 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S7, .i32⟩) (broadcastInDim S7 ![] bcast_S_S7),
    StableHlo.TRef.binary (.of main_v264 : StableHlo.TRef sig ⟨S7, .i32⟩) (.of main_call23_v1 : StableHlo.TRef sig ⟨S7, .i32⟩) (.of main_call23_v2 : StableHlo.TRef sig ⟨S7, .i32⟩) Host.divsi,
    StableHlo.TRef.unary (.of main_v264 : StableHlo.TRef sig ⟨S7, .i32⟩) (.of main_call23_v3 : StableHlo.TRef sig ⟨S7, .i32⟩) signi,
    StableHlo.TRef.unary (.of main_call23_v0 : StableHlo.TRef sig ⟨S_, .i32⟩) (.of main_call23_v4 : StableHlo.TRef sig ⟨S_, .i32⟩) signi,
    StableHlo.TRef.unary (.of main_call23_v4 : StableHlo.TRef sig ⟨S_, .i32⟩) (.of main_call23_v5 : StableHlo.TRef sig ⟨S7, .i32⟩) (broadcastInDim S7 ![] bcast_S_S7),
    StableHlo.TRef.binary (.of main_call23_v3 : StableHlo.TRef sig ⟨S7, .i32⟩) (.of main_call23_v5 : StableHlo.TRef sig ⟨S7, .i32⟩) (.of main_call23_v6 : StableHlo.TRef sig ⟨S7, .i1⟩) (cmpi .ne),
    StableHlo.TRef.unary (.of main_call23_v0 : StableHlo.TRef sig ⟨S_, .i32⟩) (.of main_call23_v7 : StableHlo.TRef sig ⟨S7, .i32⟩) (broadcastInDim S7 ![] bcast_S_S7),
    StableHlo.TRef.binary (.of main_v264 : StableHlo.TRef sig ⟨S7, .i32⟩) (.of main_call23_v7 : StableHlo.TRef sig ⟨S7, .i32⟩) (.of main_call23_v8 : StableHlo.TRef sig ⟨S7, .i32⟩) Host.remsi,
    StableHlo.TRef.nullary (.of main_call23_c : StableHlo.TRef sig ⟨S_, .i32⟩) (constantI S_ 32 0#32),
    StableHlo.TRef.unary (.of main_call23_c : StableHlo.TRef sig ⟨S_, .i32⟩) (.of main_call23_v9 : StableHlo.TRef sig ⟨S7, .i32⟩) (broadcastInDim S7 ![] bcast_S_S7),
    StableHlo.TRef.binary (.of main_call23_v8 : StableHlo.TRef sig ⟨S7, .i32⟩) (.of main_call23_v9 : StableHlo.TRef sig ⟨S7, .i32⟩) (.of main_call23_v10 : StableHlo.TRef sig ⟨S7, .i1⟩) (cmpi .ne),
    StableHlo.TRef.binary (.of main_call23_v6 : StableHlo.TRef sig ⟨S7, .i1⟩) (.of main_call23_v10 : StableHlo.TRef sig ⟨S7, .i1⟩) (.of main_call23_v11 : StableHlo.TRef sig ⟨S7, .i1⟩) andi,
    StableHlo.TRef.nullary (.of main_call23_c_0 : StableHlo.TRef sig ⟨S_, .i32⟩) (constantI S_ 32 1#32),
    StableHlo.TRef.unary (.of main_call23_c_0 : StableHlo.TRef sig ⟨S_, .i32⟩) (.of main_call23_v12 : StableHlo.TRef sig ⟨S7, .i32⟩) (broadcastInDim S7 ![] bcast_S_S7),
    StableHlo.TRef.binary (.of main_call23_v2 : StableHlo.TRef sig ⟨S7, .i32⟩) (.of main_call23_v12 : StableHlo.TRef sig ⟨S7, .i32⟩) (.of main_call23_v13 : StableHlo.TRef sig ⟨S7, .i32⟩) subi,
    StableHlo.TRef.ternary (.of main_call23_v11 : StableHlo.TRef sig ⟨S7, .i1⟩) (.of main_call23_v13 : StableHlo.TRef sig ⟨S7, .i32⟩) (.of main_call23_v2 : StableHlo.TRef sig ⟨S7, .i32⟩) (.of main_v265 : StableHlo.TRef sig ⟨S7, .i32⟩) select,
    StableHlo.unary main_v235 main_v266 (broadcastInDim S7 ![] bcast_S_S7 : (⟨S_, .i32⟩ : BufTy).Contents (Elt F) → (⟨S7, .i32⟩ : BufTy).Contents (Elt F)),
    StableHlo.binary main_v266 main_v265 main_v267 (subi : (⟨S7, .i32⟩ : BufTy).Contents (Elt F) → (⟨S7, .i32⟩ : BufTy).Contents (Elt F) → (⟨S7, .i32⟩ : BufTy).Contents (Elt F)),
    StableHlo.nullary main_v268 (iotaInDim S64 32 0),
    StableHlo.nullary main_v269 (iotaInDim S64 32 0),
    StableHlo.unary main_v268 main_v270 (broadcastInDim S1x64 ![1] bcast_S64_S1x64_1 : (⟨S64, .i32⟩ : BufTy).Contents (Elt F) → (⟨S1x64, .i32⟩ : BufTy).Contents (Elt F)),
    StableHlo.unary main_v246 main_v271 (broadcastInDim S7x1 ![0] bcast_S7_S7x1_0 : (⟨S7, .i32⟩ : BufTy).Contents (Elt F) → (⟨S7x1, .i32⟩ : BufTy).Contents (Elt F)),
    StableHlo.unary main_v270 main_v272 (broadcastInDim S7x64 ![0, 1] bcast_S1x64_S7x64_0_1 : (⟨S1x64, .i32⟩ : BufTy).Contents (Elt F) → (⟨S7x64, .i32⟩ : BufTy).Contents (Elt F)),
    StableHlo.unary main_v271 main_v273 (broadcastInDim S7x64 ![0, 1] bcast_S7x1_S7x64_0_1 : (⟨S7x1, .i32⟩ : BufTy).Contents (Elt F) → (⟨S7x64, .i32⟩ : BufTy).Contents (Elt F)),
    StableHlo.binary main_v272 main_v273 main_v274 (cmpi .sge : (⟨S7x64, .i32⟩ : BufTy).Contents (Elt F) → (⟨S7x64, .i32⟩ : BufTy).Contents (Elt F) → (⟨S7x64, .i1⟩ : BufTy).Contents (Elt F)),
    StableHlo.unary main_v268 main_v275 (broadcastInDim S1x64 ![1] bcast_S64_S1x64_1 : (⟨S64, .i32⟩ : BufTy).Contents (Elt F) → (⟨S1x64, .i32⟩ : BufTy).Contents (Elt F)),
    StableHlo.unary main_v254 main_v276 (broadcastInDim S7x1 ![0] bcast_S7_S7x1_0 : (⟨S7, .i32⟩ : BufTy).Contents (Elt F) → (⟨S7x1, .i32⟩ : BufTy).Contents (Elt F)),
    StableHlo.unary main_v275 main_v277 (broadcastInDim S7x64 ![0, 1] bcast_S1x64_S7x64_0_1 : (⟨S1x64, .i32⟩ : BufTy).Contents (Elt F) → (⟨S7x64, .i32⟩ : BufTy).Contents (Elt F)),
    StableHlo.unary main_v276 main_v278 (broadcastInDim S7x64 ![0, 1] bcast_S7x1_S7x64_0_1 : (⟨S7x1, .i32⟩ : BufTy).Contents (Elt F) → (⟨S7x64, .i32⟩ : BufTy).Contents (Elt F)),
    StableHlo.binary main_v277 main_v278 main_v279 (cmpi .slt : (⟨S7x64, .i32⟩ : BufTy).Contents (Elt F) → (⟨S7x64, .i32⟩ : BufTy).Contents (Elt F) → (⟨S7x64, .i1⟩ : BufTy).Contents (Elt F)),
    StableHlo.binary main_v274 main_v279 main_v280 (andi : (⟨S7x64, .i1⟩ : BufTy).Contents (Elt F) → (⟨S7x64, .i1⟩ : BufTy).Contents (Elt F) → (⟨S7x64, .i1⟩ : BufTy).Contents (Elt F)),
    StableHlo.unary main_v269 main_v281 (broadcastInDim S1x64 ![1] bcast_S64_S1x64_1 : (⟨S64, .i32⟩ : BufTy).Contents (Elt F) → (⟨S1x64, .i32⟩ : BufTy).Contents (Elt F)),
    StableHlo.unary main_v259 main_v282 (broadcastInDim S7x1 ![0] bcast_S7_S7x1_0 : (⟨S7, .i32⟩ : BufTy).Contents (Elt F) → (⟨S7x1, .i32⟩ : BufTy).Contents (Elt F)),
    StableHlo.unary main_v281 main_v283 (broadcastInDim S7x64 ![0, 1] bcast_S1x64_S7x64_0_1 : (⟨S1x64, .i32⟩ : BufTy).Contents (Elt F) → (⟨S7x64, .i32⟩ : BufTy).Contents (Elt F)),
    StableHlo.unary main_v282 main_v284 (broadcastInDim S7x64 ![0, 1] bcast_S7x1_S7x64_0_1 : (⟨S7x1, .i32⟩ : BufTy).Contents (Elt F) → (⟨S7x64, .i32⟩ : BufTy).Contents (Elt F)),
    StableHlo.binary main_v283 main_v284 main_v285 (cmpi .sge : (⟨S7x64, .i32⟩ : BufTy).Contents (Elt F) → (⟨S7x64, .i32⟩ : BufTy).Contents (Elt F) → (⟨S7x64, .i1⟩ : BufTy).Contents (Elt F)),
    StableHlo.unary main_v269 main_v286 (broadcastInDim S1x64 ![1] bcast_S64_S1x64_1 : (⟨S64, .i32⟩ : BufTy).Contents (Elt F) → (⟨S1x64, .i32⟩ : BufTy).Contents (Elt F)),
    StableHlo.unary main_v267 main_v287 (broadcastInDim S7x1 ![0] bcast_S7_S7x1_0 : (⟨S7, .i32⟩ : BufTy).Contents (Elt F) → (⟨S7x1, .i32⟩ : BufTy).Contents (Elt F)),
    StableHlo.unary main_v286 main_v288 (broadcastInDim S7x64 ![0, 1] bcast_S1x64_S7x64_0_1 : (⟨S1x64, .i32⟩ : BufTy).Contents (Elt F) → (⟨S7x64, .i32⟩ : BufTy).Contents (Elt F)),
    StableHlo.unary main_v287 main_v289 (broadcastInDim S7x64 ![0, 1] bcast_S7x1_S7x64_0_1 : (⟨S7x1, .i32⟩ : BufTy).Contents (Elt F) → (⟨S7x64, .i32⟩ : BufTy).Contents (Elt F)),
    StableHlo.binary main_v288 main_v289 main_v290 (cmpi .slt : (⟨S7x64, .i32⟩ : BufTy).Contents (Elt F) → (⟨S7x64, .i32⟩ : BufTy).Contents (Elt F) → (⟨S7x64, .i1⟩ : BufTy).Contents (Elt F)),
    StableHlo.binary main_v285 main_v290 main_v291 (andi : (⟨S7x64, .i1⟩ : BufTy).Contents (Elt F) → (⟨S7x64, .i1⟩ : BufTy).Contents (Elt F) → (⟨S7x64, .i1⟩ : BufTy).Contents (Elt F)),
    StableHlo.unary main_v280 main_v292 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v293 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_42 (constant S_ .f32 0xFF800000#32),
    StableHlo.TRef.unary (.of main_v292 : StableHlo.TRef sig ⟨S7x1x64x1, .i1⟩) (.of main_call24_v0 : StableHlo.TRef sig ⟨S7x512x64x64, .i1⟩) (broadcastInDim S7x512x64x64 ![0, 1, 2, 3] bcast_S7x1x64x1_S7x512x64x64_0_1_2_3),
    StableHlo.TRef.unary (.of main_v293 : StableHlo.TRef sig ⟨S1x512x64x64, .f32⟩) (.of main_call24_v1 : StableHlo.TRef sig ⟨S7x512x64x64, .f32⟩) (broadcastInDim S7x512x64x64 ![0, 1, 2, 3] bcast_S1x512x64x64_S7x512x64x64_0_1_2_3),
    StableHlo.TRef.unary (.of main_cst_42 : StableHlo.TRef sig ⟨S_, .f32⟩) (.of main_call24_v2 : StableHlo.TRef sig ⟨S7x512x64x64, .f32⟩) (broadcastInDim S7x512x64x64 ![] bcast_S_S7x512x64x64),
    StableHlo.TRef.ternary (.of main_call24_v0 : StableHlo.TRef sig ⟨S7x512x64x64, .i1⟩) (.of main_call24_v1 : StableHlo.TRef sig ⟨S7x512x64x64, .f32⟩) (.of main_call24_v2 : StableHlo.TRef sig ⟨S7x512x64x64, .f32⟩) (.of main_v294 : StableHlo.TRef sig ⟨S7x512x64x64, .f32⟩) select,
    StableHlo.nullary main_cst_43 (constant S_ .f32 0xFF800000#32),
    StableHlo.binary main_v294 main_cst_43 main_v295 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v291 main_v296 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v295 main_v297 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_44 (constant S_ .f32 0xFF800000#32),
    StableHlo.TRef.unary (.of main_v296 : StableHlo.TRef sig ⟨S1x1x7x64, .i1⟩) (.of main_call25_v0 : StableHlo.TRef sig ⟨S7x512x7x64, .i1⟩) (broadcastInDim S7x512x7x64 ![0, 1, 2, 3] bcast_S1x1x7x64_S7x512x7x64_0_1_2_3),
    StableHlo.TRef.unary (.of main_v297 : StableHlo.TRef sig ⟨S7x512x1x64, .f32⟩) (.of main_call25_v1 : StableHlo.TRef sig ⟨S7x512x7x64, .f32⟩) (broadcastInDim S7x512x7x64 ![0, 1, 2, 3] bcast_S7x512x1x64_S7x512x7x64_0_1_2_3),
    StableHlo.TRef.unary (.of main_cst_44 : StableHlo.TRef sig ⟨S_, .f32⟩) (.of main_call25_v2 : StableHlo.TRef sig ⟨S7x512x7x64, .f32⟩) (broadcastInDim S7x512x7x64 ![] bcast_S_S7x512x7x64),
    StableHlo.TRef.ternary (.of main_call25_v0 : StableHlo.TRef sig ⟨S7x512x7x64, .i1⟩) (.of main_call25_v1 : StableHlo.TRef sig ⟨S7x512x7x64, .f32⟩) (.of main_call25_v2 : StableHlo.TRef sig ⟨S7x512x7x64, .f32⟩) (.of main_v298 : StableHlo.TRef sig ⟨S7x512x7x64, .f32⟩) select ]
/-- The buffers those operations write, in order. -/
abbrev ops13_W : List (Ref sig .tc) :=
  [main_call23_v0, main_call23_v1, main_call23_v2, main_call23_v3, main_call23_v4, main_call23_v5, main_call23_v6, main_call23_v7, main_call23_v8, main_call23_c, main_call23_v9, main_call23_v10, main_call23_v11, main_call23_c_0, main_call23_v12, main_call23_v13, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_cst_42, main_call24_v0, main_call24_v1, main_call24_v2, main_v294, main_cst_43, main_v295, main_v296, main_v297, main_cst_44, main_call25_v0, main_call25_v1, main_call25_v2, main_v298]
/-- Each operation writes its own result buffer and nothing else. -/
theorem ops13_writes : (ops13 : List (HloOp τ sig (Elt F))).Forall fun op => op.writes ⊆ (ops13_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part1 : List (HloOp τ sig (Elt F)) :=
  ops8 ++ ops9 ++ ops10 ++ ops11 ++ ops12 ++ ops13
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 8 (operations 322 to 366): agreement on the 5 buffers live before it gives agreement on the 12 live after it. -/
theorem step8
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v154) = WR (Proc.devRef .tc Cert.ReferenceIdeal.main_v154)) :
    (after (Cert.KernelIdeal.Agree.ops8 (F := F)) WK) (Proc.devRef .tc Cert.KernelIdeal.main_v0) = (after (Cert.ReferenceIdeal.Agree.ops8 (F := F)) WR) (Proc.devRef .tc Cert.ReferenceIdeal.main_v0)
      ∧ (after (Cert.KernelIdeal.Agree.ops8 (F := F)) WK) (Proc.devRef .tc Cert.KernelIdeal.main_v18) = (after (Cert.ReferenceIdeal.Agree.ops8 (F := F)) WR) (Proc.devRef .tc Cert.ReferenceIdeal.main_v18)
      ∧ (after (Cert.KernelIdeal.Agree.ops8 (F := F)) WK) (Proc.devRef .tc Cert.KernelIdeal.main_v23) = (after (Cert.ReferenceIdeal.Agree.ops8 (F := F)) WR) (Proc.devRef .tc Cert.ReferenceIdeal.main_v23)
      ∧ (after (Cert.KernelIdeal.Agree.ops8 (F := F)) WK) (Proc.devRef .tc Cert.KernelIdeal.main_v85) = (after (Cert.ReferenceIdeal.Agree.ops8 (F := F)) WR) (Proc.devRef .tc Cert.ReferenceIdeal.main_v85)
      ∧ (after (Cert.KernelIdeal.Agree.ops8 (F := F)) WK) (Proc.devRef .tc Cert.KernelIdeal.main_v157) = (after (Cert.ReferenceIdeal.Agree.ops8 (F := F)) WR) (Proc.devRef .tc Cert.ReferenceIdeal.main_v157)
      ∧ (after (Cert.KernelIdeal.Agree.ops8 (F := F)) WK) (Proc.devRef .tc Cert.KernelIdeal.main_v159) = (after (Cert.ReferenceIdeal.Agree.ops8 (F := F)) WR) (Proc.devRef .tc Cert.ReferenceIdeal.main_v159)
      ∧ (after (Cert.KernelIdeal.Agree.ops8 (F := F)) WK) (Proc.devRef .tc Cert.KernelIdeal.main_v163) = (after (Cert.ReferenceIdeal.Agree.ops8 (F := F)) WR) (Proc.devRef .tc Cert.ReferenceIdeal.main_v163)
      ∧ (after (Cert.KernelIdeal.Agree.ops8 (F := F)) WK) (Proc.devRef .tc Cert.KernelIdeal.main_v167) = (after (Cert.ReferenceIdeal.Agree.ops8 (F := F)) WR) (Proc.devRef .tc Cert.ReferenceIdeal.main_v167)
      ∧ (after (Cert.KernelIdeal.Agree.ops8 (F := F)) WK) (Proc.devRef .tc Cert.KernelIdeal.main_v169) = (after (Cert.ReferenceIdeal.Agree.ops8 (F := F)) WR) (Proc.devRef .tc Cert.ReferenceIdeal.main_v169)
      ∧ (after (Cert.KernelIdeal.Agree.ops8 (F := F)) WK) (Proc.devRef .tc Cert.KernelIdeal.main_v174) = (after (Cert.ReferenceIdeal.Agree.ops8 (F := F)) WR) (Proc.devRef .tc Cert.ReferenceIdeal.main_v174)
      ∧ (after (Cert.KernelIdeal.Agree.ops8 (F := F)) WK) (Proc.devRef .tc Cert.KernelIdeal.main_v179) = (after (Cert.ReferenceIdeal.Agree.ops8 (F := F)) WR) (Proc.devRef .tc Cert.ReferenceIdeal.main_v179)
      ∧ (after (Cert.KernelIdeal.Agree.ops8 (F := F)) WK) (Proc.devRef .tc Cert.KernelIdeal.main_c_28) = (after (Cert.ReferenceIdeal.Agree.ops8 (F := F)) WR) (Proc.devRef .tc Cert.ReferenceIdeal.main_c_28) := by
  obtain ⟨h_v0, h_v18, h_v23, h_v85, h_v154⟩ := h
  refine ⟨?_, ?_, ?_, ?_, ?_, ?_, ?_, ?_, ?_, ?_, ?_, ?_⟩
  · exact (after_of_writes_sub _ WK Cert.KernelIdeal.Agree.ops8_writes (by decide)).trans (h_v0.trans (after_of_writes_sub _ WR Cert.ReferenceIdeal.Agree.ops8_writes (by decide)).symm)
  · exact (after_of_writes_sub _ WK Cert.KernelIdeal.Agree.ops8_writes (by decide)).trans (h_v18.trans (after_of_writes_sub _ WR Cert.ReferenceIdeal.Agree.ops8_writes (by decide)).symm)
  · exact (after_of_writes_sub _ WK Cert.KernelIdeal.Agree.ops8_writes (by decide)).trans (h_v23.trans (after_of_writes_sub _ WR Cert.ReferenceIdeal.Agree.ops8_writes (by decide)).symm)
  · exact (after_of_writes_sub _ WK Cert.KernelIdeal.Agree.ops8_writes (by decide)).trans (h_v85.trans (after_of_writes_sub _ WR Cert.ReferenceIdeal.Agree.ops8_writes (by decide)).symm)
  · run_agrees [h_v154]
  · run_agrees [h_v18]
  · run_agrees [h_v18]
  · run_agrees [h_v18]
  · after_results_simp; first | done | rfl
  · run_agrees [h_v18]
  · run_agrees [h_v18]
  · after_results_simp; first | done | rfl

set_option maxHeartbeats 800000 in
/-- Run 9 (operations 367 to 414): agreement on the 12 buffers live before it gives agreement on the 11 live after it. -/
theorem step9
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v159) = WR (Proc.devRef .tc Cert.ReferenceIdeal.main_v159)
      ∧ WK (Proc.devRef .tc Cert.KernelIdeal.main_v163) = WR (Proc.devRef .tc Cert.ReferenceIdeal.main_v163)
      ∧ WK (Proc.devRef .tc Cert.KernelIdeal.main_v167) = WR (Proc.devRef .tc Cert.ReferenceIdeal.main_v167)
      ∧ WK (Proc.devRef .tc Cert.KernelIdeal.main_v169) = WR (Proc.devRef .tc Cert.ReferenceIdeal.main_v169)
      ∧ WK (Proc.devRef .tc Cert.KernelIdeal.main_v174) = WR (Proc.devRef .tc Cert.ReferenceIdeal.main_v174)
      ∧ WK (Proc.devRef .tc Cert.KernelIdeal.main_v179) = WR (Proc.devRef .tc Cert.ReferenceIdeal.main_v179)
      ∧ WK (Proc.devRef .tc Cert.KernelIdeal.main_c_28) = WR (Proc.devRef .tc Cert.ReferenceIdeal.main_c_28)) :
    (after (Cert.KernelIdeal.Agree.ops9 (F := F)) WK) (Proc.devRef .tc Cert.KernelIdeal.main_v0) = (after (Cert.ReferenceIdeal.Agree.ops9 (F := F)) WR) (Proc.devRef .tc Cert.ReferenceIdeal.main_v0)
      ∧ (after (Cert.KernelIdeal.Agree.ops9 (F := F)) WK) (Proc.devRef .tc Cert.KernelIdeal.main_v18) = (after (Cert.ReferenceIdeal.Agree.ops9 (F := F)) WR) (Proc.devRef .tc Cert.ReferenceIdeal.main_v18)
      ∧ (after (Cert.KernelIdeal.Agree.ops9 (F := F)) WK) (Proc.devRef .tc Cert.KernelIdeal.main_v23) = (after (Cert.ReferenceIdeal.Agree.ops9 (F := F)) WR) (Proc.devRef .tc Cert.ReferenceIdeal.main_v23)
      ∧ (after (Cert.KernelIdeal.Agree.ops9 (F := F)) WK) (Proc.devRef .tc Cert.KernelIdeal.main_v85) = (after (Cert.ReferenceIdeal.Agree.ops9 (F := F)) WR) (Proc.devRef .tc Cert.ReferenceIdeal.main_v85)
      ∧ (after (Cert.KernelIdeal.Agree.ops9 (F := F)) WK) (Proc.devRef .tc Cert.KernelIdeal.main_v157) = (after (Cert.ReferenceIdeal.Agree.ops9 (F := F)) WR) (Proc.devRef .tc Cert.ReferenceIdeal.main_v157)
      ∧ (after (Cert.KernelIdeal.Agree.ops9 (F := F)) WK) (Proc.devRef .tc Cert.KernelIdeal.main_v163) = (after (Cert.ReferenceIdeal.Agree.ops9 (F := F)) WR) (Proc.devRef .tc Cert.ReferenceIdeal.main_v163)
      ∧ (after (Cert.KernelIdeal.Agree.ops9 (F := F)) WK) (Proc.devRef .tc Cert.KernelIdeal.main_v174) = (after (Cert.ReferenceIdeal.Agree.ops9 (F := F)) WR) (Proc.devRef .tc Cert.ReferenceIdeal.main_v174)
      ∧ (after (Cert.KernelIdeal.Agree.ops9 (F := F)) WK) (Proc.devRef .tc Cert.KernelIdeal.main_v182) = (after (Cert.ReferenceIdeal.Agree.ops9 (F := F)) WR) (Proc.devRef .tc Cert.ReferenceIdeal.main_v182)
      ∧ (after (Cert.KernelIdeal.Agree.ops9 (F := F)) WK) (Proc.devRef .tc Cert.KernelIdeal.main_v187) = (after (Cert.ReferenceIdeal.Agree.ops9 (F := F)) WR) (Proc.devRef .tc Cert.ReferenceIdeal.main_v187)
      ∧ (after (Cert.KernelIdeal.Agree.ops9 (F := F)) WK) (Proc.devRef .tc Cert.KernelIdeal.main_v192) = (after (Cert.ReferenceIdeal.Agree.ops9 (F := F)) WR) (Proc.devRef .tc Cert.ReferenceIdeal.main_v192)
      ∧ (after (Cert.KernelIdeal.Agree.ops9 (F := F)) WK) (Proc.devRef .tc Cert.KernelIdeal.main_c_31) = (after (Cert.ReferenceIdeal.Agree.ops9 (F := F)) WR) (Proc.devRef .tc Cert.ReferenceIdeal.main_c_31) := by
  obtain ⟨h_v0, h_v18, h_v23, h_v85, h_v157, h_v159, h_v163, h_v167, h_v169, h_v174, h_v179, h_c_28⟩ := h
  refine ⟨?_, ?_, ?_, ?_, ?_, ?_, ?_, ?_, ?_, ?_, ?_⟩
  · exact (after_of_writes_sub _ WK Cert.KernelIdeal.Agree.ops9_writes (by decide)).trans (h_v0.trans (after_of_writes_sub _ WR Cert.ReferenceIdeal.Agree.ops9_writes (by decide)).symm)
  · exact (after_of_writes_sub _ WK Cert.KernelIdeal.Agree.ops9_writes (by decide)).trans (h_v18.trans (after_of_writes_sub _ WR Cert.ReferenceIdeal.Agree.ops9_writes (by decide)).symm)
  · exact (after_of_writes_sub _ WK Cert.KernelIdeal.Agree.ops9_writes (by decide)).trans (h_v23.trans (after_of_writes_sub _ WR Cert.ReferenceIdeal.Agree.ops9_writes (by decide)).symm)
  · exact (after_of_writes_sub _ WK Cert.KernelIdeal.Agree.ops9_writes (by decide)).trans (h_v85.trans (after_of_writes_sub _ WR Cert.ReferenceIdeal.Agree.ops9_writes (by decide)).symm)
  · exact (after_of_writes_sub _ WK Cert.KernelIdeal.Agree.ops9_writes (by decide)).trans (h_v157.trans (after_of_writes_sub _ WR Cert.ReferenceIdeal.Agree.ops9_writes (by decide)).symm)
  · exact (after_of_writes_sub _ WK Cert.KernelIdeal.Agree.ops9_writes (by decide)).trans (h_v163.trans (after_of_writes_sub _ WR Cert.ReferenceIdeal.Agree.ops9_writes (by decide)).symm)
  · exact (after_of_writes_sub _ WK Cert.KernelIdeal.Agree.ops9_writes (by decide)).trans (h_v174.trans (after_of_writes_sub _ WR Cert.ReferenceIdeal.Agree.ops9_writes (by decide)).symm)
  · run_agrees [h_v159, h_v179, h_c_28]
  · run_agrees [h_v163, h_v167, h_v169]
  · run_agrees [h_v167, h_v169]
  · after_results_simp; first | done | rfl

set_option maxHeartbeats 800000 in
/-- Run 10 (operations 415 to 473): agreement on the 11 buffers live before it gives agreement on the 6 live after it. -/
theorem step10
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v163) = WR (Proc.devRef .tc Cert.ReferenceIdeal.main_v163)
      ∧ WK (Proc.devRef .tc Cert.KernelIdeal.main_v174) = WR (Proc.devRef .tc Cert.ReferenceIdeal.main_v174)
      ∧ WK (Proc.devRef .tc Cert.KernelIdeal.main_v182) = WR (Proc.devRef .tc Cert.ReferenceIdeal.main_v182)
      ∧ WK (Proc.devRef .tc Cert.KernelIdeal.main_v187) = WR (Proc.devRef .tc Cert.ReferenceIdeal.main_v187)
      ∧ WK (Proc.devRef .tc Cert.KernelIdeal.main_v192) = WR (Proc.devRef .tc Cert.ReferenceIdeal.main_v192)
      ∧ WK (Proc.devRef .tc Cert.KernelIdeal.main_c_31) = WR (Proc.devRef .tc Cert.ReferenceIdeal.main_c_31)) :
    (after (Cert.KernelIdeal.Agree.ops10 (F := F)) WK) (Proc.devRef .tc Cert.KernelIdeal.main_v0) = (after (Cert.ReferenceIdeal.Agree.ops10 (F := F)) WR) (Proc.devRef .tc Cert.ReferenceIdeal.main_v0)
      ∧ (after (Cert.KernelIdeal.Agree.ops10 (F := F)) WK) (Proc.devRef .tc Cert.KernelIdeal.main_v18) = (after (Cert.ReferenceIdeal.Agree.ops10 (F := F)) WR) (Proc.devRef .tc Cert.ReferenceIdeal.main_v18)
      ∧ (after (Cert.KernelIdeal.Agree.ops10 (F := F)) WK) (Proc.devRef .tc Cert.KernelIdeal.main_v23) = (after (Cert.ReferenceIdeal.Agree.ops10 (F := F)) WR) (Proc.devRef .tc Cert.ReferenceIdeal.main_v23)
      ∧ (after (Cert.KernelIdeal.Agree.ops10 (F := F)) WK) (Proc.devRef .tc Cert.KernelIdeal.main_v85) = (after (Cert.ReferenceIdeal.Agree.ops10 (F := F)) WR) (Proc.devRef .tc Cert.ReferenceIdeal.main_v85)
      ∧ (after (Cert.KernelIdeal.Agree.ops10 (F := F)) WK) (Proc.devRef .tc Cert.KernelIdeal.main_v157) = (after (Cert.ReferenceIdeal.Agree.ops10 (F := F)) WR) (Proc.devRef .tc Cert.ReferenceIdeal.main_v157)
      ∧ (after (Cert.KernelIdeal.Agree.ops10 (F := F)) WK) (Proc.devRef .tc Cert.KernelIdeal.main_v226) = (after (Cert.ReferenceIdeal.Agree.ops10 (F := F)) WR) (Proc.devRef .tc Cert.ReferenceIdeal.main_v226) := by
  obtain ⟨h_v0, h_v18, h_v23, h_v85, h_v157, h_v163, h_v174, h_v182, h_v187, h_v192, h_c_31⟩ := h
  refine ⟨?_, ?_, ?_, ?_, ?_, ?_⟩
  · exact (after_of_writes_sub _ WK Cert.KernelIdeal.Agree.ops10_writes (by decide)).trans (h_v0.trans (after_of_writes_sub _ WR Cert.ReferenceIdeal.Agree.ops10_writes (by decide)).symm)
  · exact (after_of_writes_sub _ WK Cert.KernelIdeal.Agree.ops10_writes (by decide)).trans (h_v18.trans (after_of_writes_sub _ WR Cert.ReferenceIdeal.Agree.ops10_writes (by decide)).symm)
  · exact (after_of_writes_sub _ WK Cert.KernelIdeal.Agree.ops10_writes (by decide)).trans (h_v23.trans (after_of_writes_sub _ WR Cert.ReferenceIdeal.Agree.ops10_writes (by decide)).symm)
  · exact (after_of_writes_sub _ WK Cert.KernelIdeal.Agree.ops10_writes (by decide)).trans (h_v85.trans (after_of_writes_sub _ WR Cert.ReferenceIdeal.Agree.ops10_writes (by decide)).symm)
  · exact (after_of_writes_sub _ WK Cert.KernelIdeal.Agree.ops10_writes (by decide)).trans (h_v157.trans (after_of_writes_sub _ WR Cert.ReferenceIdeal.Agree.ops10_writes (by decide)).symm)
  · run_agrees [h_v0, h_v163, h_v174, h_v182, h_v187, h_v192, h_c_31]

set_option maxHeartbeats 800000 in
/-- Run 11 (operations 474 to 518): agreement on the 6 buffers live before it gives agreement on the 13 live after it. -/
theorem step11
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v226) = WR (Proc.devRef .tc Cert.ReferenceIdeal.main_v226)) :
    (after (Cert.KernelIdeal.Agree.ops11 (F := F)) WK) (Proc.devRef .tc Cert.KernelIdeal.main_v0) = (after (Cert.ReferenceIdeal.Agree.ops11 (F := F)) WR) (Proc.devRef .tc Cert.ReferenceIdeal.main_v0)
      ∧ (after (Cert.KernelIdeal.Agree.ops11 (F := F)) WK) (Proc.devRef .tc Cert.KernelIdeal.main_v18) = (after (Cert.ReferenceIdeal.Agree.ops11 (F := F)) WR) (Proc.devRef .tc Cert.ReferenceIdeal.main_v18)
      ∧ (after (Cert.KernelIdeal.Agree.ops11 (F := F)) WK) (Proc.devRef .tc Cert.KernelIdeal.main_v23) = (after (Cert.ReferenceIdeal.Agree.ops11 (F := F)) WR) (Proc.devRef .tc Cert.ReferenceIdeal.main_v23)
      ∧ (after (Cert.KernelIdeal.Agree.ops11 (F := F)) WK) (Proc.devRef .tc Cert.KernelIdeal.main_v85) = (after (Cert.ReferenceIdeal.Agree.ops11 (F := F)) WR) (Proc.devRef .tc Cert.ReferenceIdeal.main_v85)
      ∧ (after (Cert.KernelIdeal.Agree.ops11 (F := F)) WK) (Proc.devRef .tc Cert.KernelIdeal.main_v157) = (after (Cert.ReferenceIdeal.Agree.ops11 (F := F)) WR) (Proc.devRef .tc Cert.ReferenceIdeal.main_v157)
      ∧ (after (Cert.KernelIdeal.Agree.ops11 (F := F)) WK) (Proc.devRef .tc Cert.KernelIdeal.main_v229) = (after (Cert.ReferenceIdeal.Agree.ops11 (F := F)) WR) (Proc.devRef .tc Cert.ReferenceIdeal.main_v229)
      ∧ (after (Cert.KernelIdeal.Agree.ops11 (F := F)) WK) (Proc.devRef .tc Cert.KernelIdeal.main_v231) = (after (Cert.ReferenceIdeal.Agree.ops11 (F := F)) WR) (Proc.devRef .tc Cert.ReferenceIdeal.main_v231)
      ∧ (after (Cert.KernelIdeal.Agree.ops11 (F := F)) WK) (Proc.devRef .tc Cert.KernelIdeal.main_v235) = (after (Cert.ReferenceIdeal.Agree.ops11 (F := F)) WR) (Proc.devRef .tc Cert.ReferenceIdeal.main_v235)
      ∧ (after (Cert.KernelIdeal.Agree.ops11 (F := F)) WK) (Proc.devRef .tc Cert.KernelIdeal.main_v239) = (after (Cert.ReferenceIdeal.Agree.ops11 (F := F)) WR) (Proc.devRef .tc Cert.ReferenceIdeal.main_v239)
      ∧ (after (Cert.KernelIdeal.Agree.ops11 (F := F)) WK) (Proc.devRef .tc Cert.KernelIdeal.main_v241) = (after (Cert.ReferenceIdeal.Agree.ops11 (F := F)) WR) (Proc.devRef .tc Cert.ReferenceIdeal.main_v241)
      ∧ (after (Cert.KernelIdeal.Agree.ops11 (F := F)) WK) (Proc.devRef .tc Cert.KernelIdeal.main_v246) = (after (Cert.ReferenceIdeal.Agree.ops11 (F := F)) WR) (Proc.devRef .tc Cert.ReferenceIdeal.main_v246)
      ∧ (after (Cert.KernelIdeal.Agree.ops11 (F := F)) WK) (Proc.devRef .tc Cert.KernelIdeal.main_v251) = (after (Cert.ReferenceIdeal.Agree.ops11 (F := F)) WR) (Proc.devRef .tc Cert.ReferenceIdeal.main_v251)
      ∧ (after (Cert.KernelIdeal.Agree.ops11 (F := F)) WK) (Proc.devRef .tc Cert.KernelIdeal.main_c_38) = (after (Cert.ReferenceIdeal.Agree.ops11 (F := F)) WR) (Proc.devRef .tc Cert.ReferenceIdeal.main_c_38) := by
  obtain ⟨h_v0, h_v18, h_v23, h_v85, h_v157, h_v226⟩ := h
  refine ⟨?_, ?_, ?_, ?_, ?_, ?_, ?_, ?_, ?_, ?_, ?_, ?_, ?_⟩
  · exact (after_of_writes_sub _ WK Cert.KernelIdeal.Agree.ops11_writes (by decide)).trans (h_v0.trans (after_of_writes_sub _ WR Cert.ReferenceIdeal.Agree.ops11_writes (by decide)).symm)
  · exact (after_of_writes_sub _ WK Cert.KernelIdeal.Agree.ops11_writes (by decide)).trans (h_v18.trans (after_of_writes_sub _ WR Cert.ReferenceIdeal.Agree.ops11_writes (by decide)).symm)
  · exact (after_of_writes_sub _ WK Cert.KernelIdeal.Agree.ops11_writes (by decide)).trans (h_v23.trans (after_of_writes_sub _ WR Cert.ReferenceIdeal.Agree.ops11_writes (by decide)).symm)
  · exact (after_of_writes_sub _ WK Cert.KernelIdeal.Agree.ops11_writes (by decide)).trans (h_v85.trans (after_of_writes_sub _ WR Cert.ReferenceIdeal.Agree.ops11_writes (by decide)).symm)
  · exact (after_of_writes_sub _ WK Cert.KernelIdeal.Agree.ops11_writes (by decide)).trans (h_v157.trans (after_of_writes_sub _ WR Cert.ReferenceIdeal.Agree.ops11_writes (by decide)).symm)
  · run_agrees [h_v226]
  · run_agrees [h_v18]
  · run_agrees [h_v18]
  · run_agrees [h_v18]
  · after_results_simp; first | done | rfl
  · run_agrees [h_v18]
  · run_agrees [h_v18]
  · after_results_simp; first | done | rfl

set_option maxHeartbeats 800000 in
/-- Run 12 (operations 519 to 566): agreement on the 13 buffers live before it gives agreement on the 12 live after it. -/
theorem step12
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v231) = WR (Proc.devRef .tc Cert.ReferenceIdeal.main_v231)
      ∧ WK (Proc.devRef .tc Cert.KernelIdeal.main_v235) = WR (Proc.devRef .tc Cert.ReferenceIdeal.main_v235)
      ∧ WK (Proc.devRef .tc Cert.KernelIdeal.main_v239) = WR (Proc.devRef .tc Cert.ReferenceIdeal.main_v239)
      ∧ WK (Proc.devRef .tc Cert.KernelIdeal.main_v241) = WR (Proc.devRef .tc Cert.ReferenceIdeal.main_v241)
      ∧ WK (Proc.devRef .tc Cert.KernelIdeal.main_v246) = WR (Proc.devRef .tc Cert.ReferenceIdeal.main_v246)
      ∧ WK (Proc.devRef .tc Cert.KernelIdeal.main_v251) = WR (Proc.devRef .tc Cert.ReferenceIdeal.main_v251)
      ∧ WK (Proc.devRef .tc Cert.KernelIdeal.main_c_38) = WR (Proc.devRef .tc Cert.ReferenceIdeal.main_c_38)) :
    (after (Cert.KernelIdeal.Agree.ops12 (F := F)) WK) (Proc.devRef .tc Cert.KernelIdeal.main_v0) = (after (Cert.ReferenceIdeal.Agree.ops12 (F := F)) WR) (Proc.devRef .tc Cert.ReferenceIdeal.main_v0)
      ∧ (after (Cert.KernelIdeal.Agree.ops12 (F := F)) WK) (Proc.devRef .tc Cert.KernelIdeal.main_v18) = (after (Cert.ReferenceIdeal.Agree.ops12 (F := F)) WR) (Proc.devRef .tc Cert.ReferenceIdeal.main_v18)
      ∧ (after (Cert.KernelIdeal.Agree.ops12 (F := F)) WK) (Proc.devRef .tc Cert.KernelIdeal.main_v23) = (after (Cert.ReferenceIdeal.Agree.ops12 (F := F)) WR) (Proc.devRef .tc Cert.ReferenceIdeal.main_v23)
      ∧ (after (Cert.KernelIdeal.Agree.ops12 (F := F)) WK) (Proc.devRef .tc Cert.KernelIdeal.main_v85) = (after (Cert.ReferenceIdeal.Agree.ops12 (F := F)) WR) (Proc.devRef .tc Cert.ReferenceIdeal.main_v85)
      ∧ (after (Cert.KernelIdeal.Agree.ops12 (F := F)) WK) (Proc.devRef .tc Cert.KernelIdeal.main_v157) = (after (Cert.ReferenceIdeal.Agree.ops12 (F := F)) WR) (Proc.devRef .tc Cert.ReferenceIdeal.main_v157)
      ∧ (after (Cert.KernelIdeal.Agree.ops12 (F := F)) WK) (Proc.devRef .tc Cert.KernelIdeal.main_v229) = (after (Cert.ReferenceIdeal.Agree.ops12 (F := F)) WR) (Proc.devRef .tc Cert.ReferenceIdeal.main_v229)
      ∧ (after (Cert.KernelIdeal.Agree.ops12 (F := F)) WK) (Proc.devRef .tc Cert.KernelIdeal.main_v235) = (after (Cert.ReferenceIdeal.Agree.ops12 (F := F)) WR) (Proc.devRef .tc Cert.ReferenceIdeal.main_v235)
      ∧ (after (Cert.KernelIdeal.Agree.ops12 (F := F)) WK) (Proc.devRef .tc Cert.KernelIdeal.main_v246) = (after (Cert.ReferenceIdeal.Agree.ops12 (F := F)) WR) (Proc.devRef .tc Cert.ReferenceIdeal.main_v246)
      ∧ (after (Cert.KernelIdeal.Agree.ops12 (F := F)) WK) (Proc.devRef .tc Cert.KernelIdeal.main_v254) = (after (Cert.ReferenceIdeal.Agree.ops12 (F := F)) WR) (Proc.devRef .tc Cert.ReferenceIdeal.main_v254)
      ∧ (after (Cert.KernelIdeal.Agree.ops12 (F := F)) WK) (Proc.devRef .tc Cert.KernelIdeal.main_v259) = (after (Cert.ReferenceIdeal.Agree.ops12 (F := F)) WR) (Proc.devRef .tc Cert.ReferenceIdeal.main_v259)
      ∧ (after (Cert.KernelIdeal.Agree.ops12 (F := F)) WK) (Proc.devRef .tc Cert.KernelIdeal.main_v264) = (after (Cert.ReferenceIdeal.Agree.ops12 (F := F)) WR) (Proc.devRef .tc Cert.ReferenceIdeal.main_v264)
      ∧ (after (Cert.KernelIdeal.Agree.ops12 (F := F)) WK) (Proc.devRef .tc Cert.KernelIdeal.main_c_41) = (after (Cert.ReferenceIdeal.Agree.ops12 (F := F)) WR) (Proc.devRef .tc Cert.ReferenceIdeal.main_c_41) := by
  obtain ⟨h_v0, h_v18, h_v23, h_v85, h_v157, h_v229, h_v231, h_v235, h_v239, h_v241, h_v246, h_v251, h_c_38⟩ := h
  refine ⟨?_, ?_, ?_, ?_, ?_, ?_, ?_, ?_, ?_, ?_, ?_, ?_⟩
  · exact (after_of_writes_sub _ WK Cert.KernelIdeal.Agree.ops12_writes (by decide)).trans (h_v0.trans (after_of_writes_sub _ WR Cert.ReferenceIdeal.Agree.ops12_writes (by decide)).symm)
  · exact (after_of_writes_sub _ WK Cert.KernelIdeal.Agree.ops12_writes (by decide)).trans (h_v18.trans (after_of_writes_sub _ WR Cert.ReferenceIdeal.Agree.ops12_writes (by decide)).symm)
  · exact (after_of_writes_sub _ WK Cert.KernelIdeal.Agree.ops12_writes (by decide)).trans (h_v23.trans (after_of_writes_sub _ WR Cert.ReferenceIdeal.Agree.ops12_writes (by decide)).symm)
  · exact (after_of_writes_sub _ WK Cert.KernelIdeal.Agree.ops12_writes (by decide)).trans (h_v85.trans (after_of_writes_sub _ WR Cert.ReferenceIdeal.Agree.ops12_writes (by decide)).symm)
  · exact (after_of_writes_sub _ WK Cert.KernelIdeal.Agree.ops12_writes (by decide)).trans (h_v157.trans (after_of_writes_sub _ WR Cert.ReferenceIdeal.Agree.ops12_writes (by decide)).symm)
  · exact (after_of_writes_sub _ WK Cert.KernelIdeal.Agree.ops12_writes (by decide)).trans (h_v229.trans (after_of_writes_sub _ WR Cert.ReferenceIdeal.Agree.ops12_writes (by decide)).symm)
  · exact (after_of_writes_sub _ WK Cert.KernelIdeal.Agree.ops12_writes (by decide)).trans (h_v235.trans (after_of_writes_sub _ WR Cert.ReferenceIdeal.Agree.ops12_writes (by decide)).symm)
  · exact (after_of_writes_sub _ WK Cert.KernelIdeal.Agree.ops12_writes (by decide)).trans (h_v246.trans (after_of_writes_sub _ WR Cert.ReferenceIdeal.Agree.ops12_writes (by decide)).symm)
  · run_agrees [h_v231, h_v251, h_c_38]
  · run_agrees [h_v235, h_v239, h_v241]
  · run_agrees [h_v239, h_v241]
  · after_results_simp; first | done | rfl

set_option maxHeartbeats 800000 in
/-- Run 13 (operations 567 to 625): agreement on the 12 buffers live before it gives agreement on the 7 live after it. -/
theorem step13
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v235) = WR (Proc.devRef .tc Cert.ReferenceIdeal.main_v235)
      ∧ WK (Proc.devRef .tc Cert.KernelIdeal.main_v246) = WR (Proc.devRef .tc Cert.ReferenceIdeal.main_v246)
      ∧ WK (Proc.devRef .tc Cert.KernelIdeal.main_v254) = WR (Proc.devRef .tc Cert.ReferenceIdeal.main_v254)
      ∧ WK (Proc.devRef .tc Cert.KernelIdeal.main_v259) = WR (Proc.devRef .tc Cert.ReferenceIdeal.main_v259)
      ∧ WK (Proc.devRef .tc Cert.KernelIdeal.main_v264) = WR (Proc.devRef .tc Cert.ReferenceIdeal.main_v264)
      ∧ WK (Proc.devRef .tc Cert.KernelIdeal.main_c_41) = WR (Proc.devRef .tc Cert.ReferenceIdeal.main_c_41)) :
    (after (Cert.KernelIdeal.Agree.ops13 (F := F)) WK) (Proc.devRef .tc Cert.KernelIdeal.main_v0) = (after (Cert.ReferenceIdeal.Agree.ops13 (F := F)) WR) (Proc.devRef .tc Cert.ReferenceIdeal.main_v0)
      ∧ (after (Cert.KernelIdeal.Agree.ops13 (F := F)) WK) (Proc.devRef .tc Cert.KernelIdeal.main_v18) = (after (Cert.ReferenceIdeal.Agree.ops13 (F := F)) WR) (Proc.devRef .tc Cert.ReferenceIdeal.main_v18)
      ∧ (after (Cert.KernelIdeal.Agree.ops13 (F := F)) WK) (Proc.devRef .tc Cert.KernelIdeal.main_v23) = (after (Cert.ReferenceIdeal.Agree.ops13 (F := F)) WR) (Proc.devRef .tc Cert.ReferenceIdeal.main_v23)
      ∧ (after (Cert.KernelIdeal.Agree.ops13 (F := F)) WK) (Proc.devRef .tc Cert.KernelIdeal.main_v85) = (after (Cert.ReferenceIdeal.Agree.ops13 (F := F)) WR) (Proc.devRef .tc Cert.ReferenceIdeal.main_v85)
      ∧ (after (Cert.KernelIdeal.Agree.ops13 (F := F)) WK) (Proc.devRef .tc Cert.KernelIdeal.main_v157) = (after (Cert.ReferenceIdeal.Agree.ops13 (F := F)) WR) (Proc.devRef .tc Cert.ReferenceIdeal.main_v157)
      ∧ (after (Cert.KernelIdeal.Agree.ops13 (F := F)) WK) (Proc.devRef .tc Cert.KernelIdeal.main_v229) = (after (Cert.ReferenceIdeal.Agree.ops13 (F := F)) WR) (Proc.devRef .tc Cert.ReferenceIdeal.main_v229)
      ∧ (after (Cert.KernelIdeal.Agree.ops13 (F := F)) WK) (Proc.devRef .tc Cert.KernelIdeal.main_v298) = (after (Cert.ReferenceIdeal.Agree.ops13 (F := F)) WR) (Proc.devRef .tc Cert.ReferenceIdeal.main_v298) := by
  obtain ⟨h_v0, h_v18, h_v23, h_v85, h_v157, h_v229, h_v235, h_v246, h_v254, h_v259, h_v264, h_c_41⟩ := h
  refine ⟨?_, ?_, ?_, ?_, ?_, ?_, ?_⟩
  · exact (after_of_writes_sub _ WK Cert.KernelIdeal.Agree.ops13_writes (by decide)).trans (h_v0.trans (after_of_writes_sub _ WR Cert.ReferenceIdeal.Agree.ops13_writes (by decide)).symm)
  · exact (after_of_writes_sub _ WK Cert.KernelIdeal.Agree.ops13_writes (by decide)).trans (h_v18.trans (after_of_writes_sub _ WR Cert.ReferenceIdeal.Agree.ops13_writes (by decide)).symm)
  · exact (after_of_writes_sub _ WK Cert.KernelIdeal.Agree.ops13_writes (by decide)).trans (h_v23.trans (after_of_writes_sub _ WR Cert.ReferenceIdeal.Agree.ops13_writes (by decide)).symm)
  · exact (after_of_writes_sub _ WK Cert.KernelIdeal.Agree.ops13_writes (by decide)).trans (h_v85.trans (after_of_writes_sub _ WR Cert.ReferenceIdeal.Agree.ops13_writes (by decide)).symm)
  · exact (after_of_writes_sub _ WK Cert.KernelIdeal.Agree.ops13_writes (by decide)).trans (h_v157.trans (after_of_writes_sub _ WR Cert.ReferenceIdeal.Agree.ops13_writes (by decide)).symm)
  · exact (after_of_writes_sub _ WK Cert.KernelIdeal.Agree.ops13_writes (by decide)).trans (h_v229.trans (after_of_writes_sub _ WR Cert.ReferenceIdeal.Agree.ops13_writes (by decide)).symm)
  · run_agrees [h_v0, h_v235, h_v246, h_v254, h_v259, h_v264, h_c_41]

/-- The whole part: agreement on the 5 buffers live before it gives agreement on the 7 live after it. -/
theorem part1
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v154) = WR (Proc.devRef .tc Cert.ReferenceIdeal.main_v154)) :
    (after (Cert.KernelIdeal.Agree.part1 (F := F)) WK) (Proc.devRef .tc Cert.KernelIdeal.main_v0) = (after (Cert.ReferenceIdeal.Agree.part1 (F := F)) WR) (Proc.devRef .tc Cert.ReferenceIdeal.main_v0)
      ∧ (after (Cert.KernelIdeal.Agree.part1 (F := F)) WK) (Proc.devRef .tc Cert.KernelIdeal.main_v18) = (after (Cert.ReferenceIdeal.Agree.part1 (F := F)) WR) (Proc.devRef .tc Cert.ReferenceIdeal.main_v18)
      ∧ (after (Cert.KernelIdeal.Agree.part1 (F := F)) WK) (Proc.devRef .tc Cert.KernelIdeal.main_v23) = (after (Cert.ReferenceIdeal.Agree.part1 (F := F)) WR) (Proc.devRef .tc Cert.ReferenceIdeal.main_v23)
      ∧ (after (Cert.KernelIdeal.Agree.part1 (F := F)) WK) (Proc.devRef .tc Cert.KernelIdeal.main_v85) = (after (Cert.ReferenceIdeal.Agree.part1 (F := F)) WR) (Proc.devRef .tc Cert.ReferenceIdeal.main_v85)
      ∧ (after (Cert.KernelIdeal.Agree.part1 (F := F)) WK) (Proc.devRef .tc Cert.KernelIdeal.main_v157) = (after (Cert.ReferenceIdeal.Agree.part1 (F := F)) WR) (Proc.devRef .tc Cert.ReferenceIdeal.main_v157)
      ∧ (after (Cert.KernelIdeal.Agree.part1 (F := F)) WK) (Proc.devRef .tc Cert.KernelIdeal.main_v229) = (after (Cert.ReferenceIdeal.Agree.part1 (F := F)) WR) (Proc.devRef .tc Cert.ReferenceIdeal.main_v229)
      ∧ (after (Cert.KernelIdeal.Agree.part1 (F := F)) WK) (Proc.devRef .tc Cert.KernelIdeal.main_v298) = (after (Cert.ReferenceIdeal.Agree.part1 (F := F)) WR) (Proc.devRef .tc Cert.ReferenceIdeal.main_v298) := by
  have s8 := step8 WK WR h
  have s9 := step9 (after (Cert.KernelIdeal.Agree.ops8 (F := F)) WK) (after (Cert.ReferenceIdeal.Agree.ops8 (F := F)) WR) s8
  have s10 := step10 (after (Cert.KernelIdeal.Agree.ops9 (F := F)) (after (Cert.KernelIdeal.Agree.ops8 (F := F)) WK)) (after (Cert.ReferenceIdeal.Agree.ops9 (F := F)) (after (Cert.ReferenceIdeal.Agree.ops8 (F := F)) WR)) s9
  have s11 := step11 (after (Cert.KernelIdeal.Agree.ops10 (F := F)) (after (Cert.KernelIdeal.Agree.ops9 (F := F)) (after (Cert.KernelIdeal.Agree.ops8 (F := F)) WK))) (after (Cert.ReferenceIdeal.Agree.ops10 (F := F)) (after (Cert.ReferenceIdeal.Agree.ops9 (F := F)) (after (Cert.ReferenceIdeal.Agree.ops8 (F := F)) WR))) s10
  have s12 := step12 (after (Cert.KernelIdeal.Agree.ops11 (F := F)) (after (Cert.KernelIdeal.Agree.ops10 (F := F)) (after (Cert.KernelIdeal.Agree.ops9 (F := F)) (after (Cert.KernelIdeal.Agree.ops8 (F := F)) WK)))) (after (Cert.ReferenceIdeal.Agree.ops11 (F := F)) (after (Cert.ReferenceIdeal.Agree.ops10 (F := F)) (after (Cert.ReferenceIdeal.Agree.ops9 (F := F)) (after (Cert.ReferenceIdeal.Agree.ops8 (F := F)) WR)))) s11
  have s13 := step13 (after (Cert.KernelIdeal.Agree.ops12 (F := F)) (after (Cert.KernelIdeal.Agree.ops11 (F := F)) (after (Cert.KernelIdeal.Agree.ops10 (F := F)) (after (Cert.KernelIdeal.Agree.ops9 (F := F)) (after (Cert.KernelIdeal.Agree.ops8 (F := F)) WK))))) (after (Cert.ReferenceIdeal.Agree.ops12 (F := F)) (after (Cert.ReferenceIdeal.Agree.ops11 (F := F)) (after (Cert.ReferenceIdeal.Agree.ops10 (F := F)) (after (Cert.ReferenceIdeal.Agree.ops9 (F := F)) (after (Cert.ReferenceIdeal.Agree.ops8 (F := F)) WR))))) s12
  simp only [Cert.KernelIdeal.Agree.part1, Cert.ReferenceIdeal.Agree.part1, after_append]
  exact s13

end Cert.Agree

end
-- ==== Proof.Agree.Part2.lean ====
/- The kernel's program and the reference compute the pooled feature matrix by the same 2605 operations.  This part is
  operations 626 to 953 (the generated stretches 52 to 75), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 626 to 682 of the host part, in order. -/
abbrev ops14 : List (HloOp τ sig (Elt F)) :=
  [ StableHlo.nullary main_cst_45 (constant S_ .f32 0xFF800000#32),
    StableHlo.binary main_v298 main_cst_45 main_v299 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v299 main_v300 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v300 main_v301 rfl shapeCasts_S512x7x7_S25088,
    StableHlo.unary main_v18 main_v302 ((extractStridedSlice S1x1 ![0, 1] · slices_S3x4_S1x1_0_1) : (⟨S3x4, .i32⟩ : BufTy).Contents (Elt F) → (⟨S1x1, .i32⟩ : BufTy).Contents (Elt F)),
    StableHlo.reshape main_v302 main_v303 rfl shapeCasts_S1x1_S_,
    StableHlo.unary main_v23 main_v304 ((extractStridedSlice S1x1 ![0, 1] · slices_S4x4_S1x1_0_1) : (⟨S4x4, .i32⟩ : BufTy).Contents (Elt F) → (⟨S1x1, .i32⟩ : BufTy).Contents (Elt F)),
    StableHlo.reshape main_v304 main_v305 rfl shapeCasts_S1x1_S_,
    StableHlo.binary main_v303 main_v305 main_v306 (minsi : (⟨S_, .i32⟩ : BufTy).Contents (Elt F) → (⟨S_, .i32⟩ : BufTy).Contents (Elt F) → (⟨S_, .i32⟩ : BufTy).Contents (Elt F)),
    StableHlo.unary main_v18 main_v307 ((extractStridedSlice S1x1 ![0, 3] · slices_S3x4_S1x1_0_3) : (⟨S3x4, .i32⟩ : BufTy).Contents (Elt F) → (⟨S1x1, .i32⟩ : BufTy).Contents (Elt F)),
    StableHlo.reshape main_v307 main_v308 rfl shapeCasts_S1x1_S_,
    StableHlo.unary main_v23 main_v309 ((extractStridedSlice S1x1 ![0, 3] · slices_S4x4_S1x1_0_3) : (⟨S4x4, .i32⟩ : BufTy).Contents (Elt F) → (⟨S1x1, .i32⟩ : BufTy).Contents (Elt F)),
    StableHlo.reshape main_v309 main_v310 rfl shapeCasts_S1x1_S_,
    StableHlo.binary main_v308 main_v310 main_v311 (maxsi : (⟨S_, .i32⟩ : BufTy).Contents (Elt F) → (⟨S_, .i32⟩ : BufTy).Contents (Elt F) → (⟨S_, .i32⟩ : BufTy).Contents (Elt F)),
    StableHlo.unary main_v18 main_v312 ((extractStridedSlice S1x1 ![0, 0] · slices_S3x4_S1x1_0_0) : (⟨S3x4, .i32⟩ : BufTy).Contents (Elt F) → (⟨S1x1, .i32⟩ : BufTy).Contents (Elt F)),
    StableHlo.reshape main_v312 main_v313 rfl shapeCasts_S1x1_S_,
    StableHlo.unary main_v23 main_v314 ((extractStridedSlice S1x1 ![0, 0] · slices_S4x4_S1x1_0_0) : (⟨S4x4, .i32⟩ : BufTy).Contents (Elt F) → (⟨S1x1, .i32⟩ : BufTy).Contents (Elt F)),
    StableHlo.reshape main_v314 main_v315 rfl shapeCasts_S1x1_S_,
    StableHlo.binary main_v313 main_v315 main_v316 (minsi : (⟨S_, .i32⟩ : BufTy).Contents (Elt F) → (⟨S_, .i32⟩ : BufTy).Contents (Elt F) → (⟨S_, .i32⟩ : BufTy).Contents (Elt F)),
    StableHlo.unary main_v18 main_v317 ((extractStridedSlice S1x1 ![0, 2] · slices_S3x4_S1x1_0_2) : (⟨S3x4, .i32⟩ : BufTy).Contents (Elt F) → (⟨S1x1, .i32⟩ : BufTy).Contents (Elt F)),
    StableHlo.reshape main_v317 main_v318 rfl shapeCasts_S1x1_S_,
    StableHlo.unary main_v23 main_v319 ((extractStridedSlice S1x1 ![0, 2] · slices_S4x4_S1x1_0_2) : (⟨S4x4, .i32⟩ : BufTy).Contents (Elt F) → (⟨S1x1, .i32⟩ : BufTy).Contents (Elt F)),
    StableHlo.reshape main_v319 main_v320 rfl shapeCasts_S1x1_S_,
    StableHlo.binary main_v318 main_v320 main_v321 (maxsi : (⟨S_, .i32⟩ : BufTy).Contents (Elt F) → (⟨S_, .i32⟩ : BufTy).Contents (Elt F) → (⟨S_, .i32⟩ : BufTy).Contents (Elt F)),
    StableHlo.binary main_v311 main_v306 main_v322 (subi : (⟨S_, .i32⟩ : BufTy).Contents (Elt F) → (⟨S_, .i32⟩ : BufTy).Contents (Elt F) → (⟨S_, .i32⟩ : BufTy).Contents (Elt F)),
    StableHlo.binary main_v321 main_v316 main_v323 (subi : (⟨S_, .i32⟩ : BufTy).Contents (Elt F) → (⟨S_, .i32⟩ : BufTy).Contents (Elt F) → (⟨S_, .i32⟩ : BufTy).Contents (Elt F)),
    StableHlo.nullary main_v324 (iotaInDim S7 32 0),
    StableHlo.nullary main_v325 (iotaInDim S7 32 0),
    StableHlo.unary main_v322 main_v326 (broadcastInDim S7 ![] bcast_S_S7 : (⟨S_, .i32⟩ : BufTy).Contents (Elt F) → (⟨S7, .i32⟩ : BufTy).Contents (Elt F)),
    StableHlo.binary main_v324 main_v326 main_v327 (muli : (⟨S7, .i32⟩ : BufTy).Contents (Elt F) → (⟨S7, .i32⟩ : BufTy).Contents (Elt F) → (⟨S7, .i32⟩ : BufTy).Contents (Elt F)),
    StableHlo.nullary main_c_46 (constantI S_ 32 7#32),
    StableHlo.TRef.unary (.of main_c_46 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S7, .i32⟩) (broadcastInDim S7 ![] bcast_S_S7),
    StableHlo.TRef.binary (.of main_v327 : StableHlo.TRef sig ⟨S7, .i32⟩) (.of main_call26_v1 : StableHlo.TRef sig ⟨S7, .i32⟩) (.of main_call26_v2 : StableHlo.TRef sig ⟨S7, .i32⟩) Host.divsi,
    StableHlo.TRef.unary (.of main_v327 : StableHlo.TRef sig ⟨S7, .i32⟩) (.of main_call26_v3 : StableHlo.TRef sig ⟨S7, .i32⟩) signi,
    StableHlo.TRef.unary (.of main_call26_v0 : StableHlo.TRef sig ⟨S_, .i32⟩) (.of main_call26_v4 : StableHlo.TRef sig ⟨S_, .i32⟩) signi,
    StableHlo.TRef.unary (.of main_call26_v4 : StableHlo.TRef sig ⟨S_, .i32⟩) (.of main_call26_v5 : StableHlo.TRef sig ⟨S7, .i32⟩) (broadcastInDim S7 ![] bcast_S_S7),
    StableHlo.TRef.binary (.of main_call26_v3 : StableHlo.TRef sig ⟨S7, .i32⟩) (.of main_call26_v5 : StableHlo.TRef sig ⟨S7, .i32⟩) (.of main_call26_v6 : StableHlo.TRef sig ⟨S7, .i1⟩) (cmpi .ne),
    StableHlo.TRef.unary (.of main_call26_v0 : StableHlo.TRef sig ⟨S_, .i32⟩) (.of main_call26_v7 : StableHlo.TRef sig ⟨S7, .i32⟩) (broadcastInDim S7 ![] bcast_S_S7),
    StableHlo.TRef.binary (.of main_v327 : StableHlo.TRef sig ⟨S7, .i32⟩) (.of main_call26_v7 : StableHlo.TRef sig ⟨S7, .i32⟩) (.of main_call26_v8 : StableHlo.TRef sig ⟨S7, .i32⟩) Host.remsi,
    StableHlo.TRef.nullary (.of main_call26_c : StableHlo.TRef sig ⟨S_, .i32⟩) (constantI S_ 32 0#32),
    StableHlo.TRef.unary (.of main_call26_c : StableHlo.TRef sig ⟨S_, .i32⟩) (.of main_call26_v9 : StableHlo.TRef sig ⟨S7, .i32⟩) (broadcastInDim S7 ![] bcast_S_S7),
    StableHlo.TRef.binary (.of main_call26_v8 : StableHlo.TRef sig ⟨S7, .i32⟩) (.of main_call26_v9 : StableHlo.TRef sig ⟨S7, .i32⟩) (.of main_call26_v10 : StableHlo.TRef sig ⟨S7, .i1⟩) (cmpi .ne),
    StableHlo.TRef.binary (.of main_call26_v6 : StableHlo.TRef sig ⟨S7, .i1⟩) (.of main_call26_v10 : StableHlo.TRef sig ⟨S7, .i1⟩) (.of main_call26_v11 : StableHlo.TRef sig ⟨S7, .i1⟩) andi,
    StableHlo.TRef.nullary (.of main_call26_c_0 : StableHlo.TRef sig ⟨S_, .i32⟩) (constantI S_ 32 1#32),
    StableHlo.TRef.unary (.of main_call26_c_0 : StableHlo.TRef sig ⟨S_, .i32⟩) (.of main_call26_v12 : StableHlo.TRef sig ⟨S7, .i32⟩) (broadcastInDim S7 ![] bcast_S_S7),
    StableHlo.TRef.binary (.of main_call26_v2 : StableHlo.TRef sig ⟨S7, .i32⟩) (.of main_call26_v12 : StableHlo.TRef sig ⟨S7, .i32⟩) (.of main_call26_v13 : StableHlo.TRef sig ⟨S7, .i32⟩) subi,
    StableHlo.TRef.ternary (.of main_call26_v11 : StableHlo.TRef sig ⟨S7, .i1⟩) (.of main_call26_v13 : StableHlo.TRef sig ⟨S7, .i32⟩) (.of main_call26_v2 : StableHlo.TRef sig ⟨S7, .i32⟩) (.of main_v328 : StableHlo.TRef sig ⟨S7, .i32⟩) select,
    StableHlo.unary main_v306 main_v329 (broadcastInDim S7 ![] bcast_S_S7 : (⟨S_, .i32⟩ : BufTy).Contents (Elt F) → (⟨S7, .i32⟩ : BufTy).Contents (Elt F)),
    StableHlo.binary main_v329 main_v328 main_v330 (addi : (⟨S7, .i32⟩ : BufTy).Contents (Elt F) → (⟨S7, .i32⟩ : BufTy).Contents (Elt F) → (⟨S7, .i32⟩ : BufTy).Contents (Elt F)),
    StableHlo.nullary main_c_47 (constantI S_ 32 1#32),
    StableHlo.unary main_c_47 main_v331 (broadcastInDim S7 ![] bcast_S_S7 : (⟨S_, .i32⟩ : BufTy).Contents (Elt F) → (⟨S7, .i32⟩ : BufTy).Contents (Elt F)),
    StableHlo.binary main_v324 main_v331 main_v332 (addi : (⟨S7, .i32⟩ : BufTy).Contents (Elt F) → (⟨S7, .i32⟩ : BufTy).Contents (Elt F) → (⟨S7, .i32⟩ : BufTy).Contents (Elt F)),
    StableHlo.unary main_v332 main_v333 (negi : (⟨S7, .i32⟩ : BufTy).Contents (Elt F) → (⟨S7, .i32⟩ : BufTy).Contents (Elt F)),
    StableHlo.unary main_v322 main_v334 (broadcastInDim S7 ![] bcast_S_S7 : (⟨S_, .i32⟩ : BufTy).Contents (Elt F) → (⟨S7, .i32⟩ : BufTy).Contents (Elt F)),
    StableHlo.binary main_v333 main_v334 main_v335 (muli : (⟨S7, .i32⟩ : BufTy).Contents (Elt F) → (⟨S7, .i32⟩ : BufTy).Contents (Elt F) → (⟨S7, .i32⟩ : BufTy).Contents (Elt F)),
    StableHlo.nullary main_c_48 (constantI S_ 32 7#32) ]
/-- The buffers those operations write, in order. -/
abbrev ops14_W : List (Ref sig .tc) :=
  [main_cst_45, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_c_46, main_call26_v0, main_call26_v1, main_call26_v2, main_call26_v3, main_call26_v4, main_call26_v5, main_call26_v6, main_call26_v7, main_call26_v8, main_call26_c, main_call26_v9, main_call26_v10, main_call26_v11, main_call26_c_0, main_call26_v12, main_call26_v13, main_v328, main_v329, main_v330, main_c_47, main_v331, main_v332, main_v333, main_v334, main_v335, main_c_48]
/-- Each operation writes its own result buffer and nothing else. -/
theorem ops14_writes : (ops14 : List (HloOp τ sig (Elt F))).Forall fun op => op.writes ⊆ (ops14_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 683 to 730 of the host part, in order. -/
abbrev ops15 : List (HloOp τ sig (Elt F)) :=
  [ StableHlo.TRef.unary (.of main_c_48 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S7, .i32⟩) (broadcastInDim S7 ![] bcast_S_S7),
    StableHlo.TRef.binary (.of main_v335 : StableHlo.TRef sig ⟨S7, .i32⟩) (.of main_call27_v1 : StableHlo.TRef sig ⟨S7, .i32⟩) (.of main_call27_v2 : StableHlo.TRef sig ⟨S7, .i32⟩) Host.divsi,
    StableHlo.TRef.unary (.of main_v335 : StableHlo.TRef sig ⟨S7, .i32⟩) (.of main_call27_v3 : StableHlo.TRef sig ⟨S7, .i32⟩) signi,
    StableHlo.TRef.unary (.of main_call27_v0 : StableHlo.TRef sig ⟨S_, .i32⟩) (.of main_call27_v4 : StableHlo.TRef sig ⟨S_, .i32⟩) signi,
    StableHlo.TRef.unary (.of main_call27_v4 : StableHlo.TRef sig ⟨S_, .i32⟩) (.of main_call27_v5 : StableHlo.TRef sig ⟨S7, .i32⟩) (broadcastInDim S7 ![] bcast_S_S7),
    StableHlo.TRef.binary (.of main_call27_v3 : StableHlo.TRef sig ⟨S7, .i32⟩) (.of main_call27_v5 : StableHlo.TRef sig ⟨S7, .i32⟩) (.of main_call27_v6 : StableHlo.TRef sig ⟨S7, .i1⟩) (cmpi .ne),
    StableHlo.TRef.unary (.of main_call27_v0 : StableHlo.TRef sig ⟨S_, .i32⟩) (.of main_call27_v7 : StableHlo.TRef sig ⟨S7, .i32⟩) (broadcastInDim S7 ![] bcast_S_S7),
    StableHlo.TRef.binary (.of main_v335 : StableHlo.TRef sig ⟨S7, .i32⟩) (.of main_call27_v7 : StableHlo.TRef sig ⟨S7, .i32⟩) (.of main_call27_v8 : StableHlo.TRef sig ⟨S7, .i32⟩) Host.remsi,
    StableHlo.TRef.nullary (.of main_call27_c : StableHlo.TRef sig ⟨S_, .i32⟩) (constantI S_ 32 0#32),
    StableHlo.TRef.unary (.of main_call27_c : StableHlo.TRef sig ⟨S_, .i32⟩) (.of main_call27_v9 : StableHlo.TRef sig ⟨S7, .i32⟩) (broadcastInDim S7 ![] bcast_S_S7),
    StableHlo.TRef.binary (.of main_call27_v8 : StableHlo.TRef sig ⟨S7, .i32⟩) (.of main_call27_v9 : StableHlo.TRef sig ⟨S7, .i32⟩) (.of main_call27_v10 : StableHlo.TRef sig ⟨S7, .i1⟩) (cmpi .ne),
    StableHlo.TRef.binary (.of main_call27_v6 : StableHlo.TRef sig ⟨S7, .i1⟩) (.of main_call27_v10 : StableHlo.TRef sig ⟨S7, .i1⟩) (.of main_call27_v11 : StableHlo.TRef sig ⟨S7, .i1⟩) andi,
    StableHlo.TRef.nullary (.of main_call27_c_0 : StableHlo.TRef sig ⟨S_, .i32⟩) (constantI S_ 32 1#32),
    StableHlo.TRef.unary (.of main_call27_c_0 : StableHlo.TRef sig ⟨S_, .i32⟩) (.of main_call27_v12 : StableHlo.TRef sig ⟨S7, .i32⟩) (broadcastInDim S7 ![] bcast_S_S7),
    StableHlo.TRef.binary (.of main_call27_v2 : StableHlo.TRef sig ⟨S7, .i32⟩) (.of main_call27_v12 : StableHlo.TRef sig ⟨S7, .i32⟩) (.of main_call27_v13 : StableHlo.TRef sig ⟨S7, .i32⟩) subi,
    StableHlo.TRef.ternary (.of main_call27_v11 : StableHlo.TRef sig ⟨S7, .i1⟩) (.of main_call27_v13 : StableHlo.TRef sig ⟨S7, .i32⟩) (.of main_call27_v2 : StableHlo.TRef sig ⟨S7, .i32⟩) (.of main_v336 : StableHlo.TRef sig ⟨S7, .i32⟩) select,
    StableHlo.unary main_v306 main_v337 (broadcastInDim S7 ![] bcast_S_S7 : (⟨S_, .i32⟩ : BufTy).Contents (Elt F) → (⟨S7, .i32⟩ : BufTy).Contents (Elt F)),
    StableHlo.binary main_v337 main_v336 main_v338 (subi : (⟨S7, .i32⟩ : BufTy).Contents (Elt F) → (⟨S7, .i32⟩ : BufTy).Contents (Elt F) → (⟨S7, .i32⟩ : BufTy).Contents (Elt F)),
    StableHlo.unary main_v323 main_v339 (broadcastInDim S7 ![] bcast_S_S7 : (⟨S_, .i32⟩ : BufTy).Contents (Elt F) → (⟨S7, .i32⟩ : BufTy).Contents (Elt F)),
    StableHlo.binary main_v325 main_v339 main_v340 (muli : (⟨S7, .i32⟩ : BufTy).Contents (Elt F) → (⟨S7, .i32⟩ : BufTy).Contents (Elt F) → (⟨S7, .i32⟩ : BufTy).Contents (Elt F)),
    StableHlo.nullary main_c_49 (constantI S_ 32 7#32),
    StableHlo.TRef.unary (.of main_c_49 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S7, .i32⟩) (broadcastInDim S7 ![] bcast_S_S7),
    StableHlo.TRef.binary (.of main_v340 : StableHlo.TRef sig ⟨S7, .i32⟩) (.of main_call28_v1 : StableHlo.TRef sig ⟨S7, .i32⟩) (.of main_call28_v2 : StableHlo.TRef sig ⟨S7, .i32⟩) Host.divsi,
    StableHlo.TRef.unary (.of main_v340 : StableHlo.TRef sig ⟨S7, .i32⟩) (.of main_call28_v3 : StableHlo.TRef sig ⟨S7, .i32⟩) signi,
    StableHlo.TRef.unary (.of main_call28_v0 : StableHlo.TRef sig ⟨S_, .i32⟩) (.of main_call28_v4 : StableHlo.TRef sig ⟨S_, .i32⟩) signi,
    StableHlo.TRef.unary (.of main_call28_v4 : StableHlo.TRef sig ⟨S_, .i32⟩) (.of main_call28_v5 : StableHlo.TRef sig ⟨S7, .i32⟩) (broadcastInDim S7 ![] bcast_S_S7),
    StableHlo.TRef.binary (.of main_call28_v3 : StableHlo.TRef sig ⟨S7, .i32⟩) (.of main_call28_v5 : StableHlo.TRef sig ⟨S7, .i32⟩) (.of main_call28_v6 : StableHlo.TRef sig ⟨S7, .i1⟩) (cmpi .ne),
    StableHlo.TRef.unary (.of main_call28_v0 : StableHlo.TRef sig ⟨S_, .i32⟩) (.of main_call28_v7 : StableHlo.TRef sig ⟨S7, .i32⟩) (broadcastInDim S7 ![] bcast_S_S7),
    StableHlo.TRef.binary (.of main_v340 : StableHlo.TRef sig ⟨S7, .i32⟩) (.of main_call28_v7 : StableHlo.TRef sig ⟨S7, .i32⟩) (.of main_call28_v8 : StableHlo.TRef sig ⟨S7, .i32⟩) Host.remsi,
    StableHlo.TRef.nullary (.of main_call28_c : StableHlo.TRef sig ⟨S_, .i32⟩) (constantI S_ 32 0#32),
    StableHlo.TRef.unary (.of main_call28_c : StableHlo.TRef sig ⟨S_, .i32⟩) (.of main_call28_v9 : StableHlo.TRef sig ⟨S7, .i32⟩) (broadcastInDim S7 ![] bcast_S_S7),
    StableHlo.TRef.binary (.of main_call28_v8 : StableHlo.TRef sig ⟨S7, .i32⟩) (.of main_call28_v9 : StableHlo.TRef sig ⟨S7, .i32⟩) (.of main_call28_v10 : StableHlo.TRef sig ⟨S7, .i1⟩) (cmpi .ne),
    StableHlo.TRef.binary (.of main_call28_v6 : StableHlo.TRef sig ⟨S7, .i1⟩) (.of main_call28_v10 : StableHlo.TRef sig ⟨S7, .i1⟩) (.of main_call28_v11 : StableHlo.TRef sig ⟨S7, .i1⟩) andi,
    StableHlo.TRef.nullary (.of main_call28_c_0 : StableHlo.TRef sig ⟨S_, .i32⟩) (constantI S_ 32 1#32),
    StableHlo.TRef.unary (.of main_call28_c_0 : StableHlo.TRef sig ⟨S_, .i32⟩) (.of main_call28_v12 : StableHlo.TRef sig ⟨S7, .i32⟩) (broadcastInDim S7 ![] bcast_S_S7),
    StableHlo.TRef.binary (.of main_call28_v2 : StableHlo.TRef sig ⟨S7, .i32⟩) (.of main_call28_v12 : StableHlo.TRef sig ⟨S7, .i32⟩) (.of main_call28_v13 : StableHlo.TRef sig ⟨S7, .i32⟩) subi,
    StableHlo.TRef.ternary (.of main_call28_v11 : StableHlo.TRef sig ⟨S7, .i1⟩) (.of main_call28_v13 : StableHlo.TRef sig ⟨S7, .i32⟩) (.of main_call28_v2 : StableHlo.TRef sig ⟨S7, .i32⟩) (.of main_v341 : StableHlo.TRef sig ⟨S7, .i32⟩) select,
    StableHlo.unary main_v316 main_v342 (broadcastInDim S7 ![] bcast_S_S7 : (⟨S_, .i32⟩ : BufTy).Contents (Elt F) → (⟨S7, .i32⟩ : BufTy).Contents (Elt F)),
    StableHlo.binary main_v342 main_v341 main_v343 (addi : (⟨S7, .i32⟩ : BufTy).Contents (Elt F) → (⟨S7, .i32⟩ : BufTy).Contents (Elt F) → (⟨S7, .i32⟩ : BufTy).Contents (Elt F)),
    StableHlo.nullary main_c_50 (constantI S_ 32 1#32),
    StableHlo.unary main_c_50 main_v344 (broadcastInDim S7 ![] bcast_S_S7 : (⟨S_, .i32⟩ : BufTy).Contents (Elt F) → (⟨S7, .i32⟩ : BufTy).Contents (Elt F)),
    StableHlo.binary main_v325 main_v344 main_v345 (addi : (⟨S7, .i32⟩ : BufTy).Contents (Elt F) → (⟨S7, .i32⟩ : BufTy).Contents (Elt F) → (⟨S7, .i32⟩ : BufTy).Contents (Elt F)),
    StableHlo.unary main_v345 main_v346 (negi : (⟨S7, .i32⟩ : BufTy).Contents (Elt F) → (⟨S7, .i32⟩ : BufTy).Contents (Elt F)),
    StableHlo.unary main_v323 main_v347 (broadcastInDim S7 ![] bcast_S_S7 : (⟨S_, .i32⟩ : BufTy).Contents (Elt F) → (⟨S7, .i32⟩ : BufTy).Contents (Elt F)),
    StableHlo.binary main_v346 main_v347 main_v348 (muli : (⟨S7, .i32⟩ : BufTy).Contents (Elt F) → (⟨S7, .i32⟩ : BufTy).Contents (Elt F) → (⟨S7, .i32⟩ : BufTy).Contents (Elt F)),
    StableHlo.nullary main_c_51 (constantI S_ 32 7#32) ]
/-- The buffers those operations write, in order. -/
abbrev ops15_W : List (Ref sig .tc) :=
  [main_call27_v0, main_call27_v1, main_call27_v2, main_call27_v3, main_call27_v4, main_call27_v5, main_call27_v6, main_call27_v7, main_call27_v8, main_call27_c, main_call27_v9, main_call27_v10, main_call27_v11, main_call27_c_0, main_call27_v12, main_call27_v13, main_v336, main_v337, main_v338, main_v339, main_v340, main_c_49, main_call28_v0, main_call28_v1, main_call28_v2, main_call28_v3, main_call28_v4, main_call28_v5, main_call28_v6, main_call28_v7, main_call28_v8, main_call28_c, main_call28_v9, main_call28_v10, main_call28_v11, main_call28_c_0, main_call28_v12, main_call28_v13, main_v341, main_v342, main_v343, main_c_50, main_v344, main_v345, main_v346, main_v347, main_v348, main_c_51]
/-- Each operation writes its own result buffer and nothing else. -/
theorem ops15_writes : (ops15 : List (HloOp τ sig (Elt F))).Forall fun op => op.writes ⊆ (ops15_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 731 to 789 of the host part, in order. -/
abbrev ops16 : List (HloOp τ sig (Elt F)) :=
  [ StableHlo.TRef.unary (.of main_c_51 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S7, .i32⟩) (broadcastInDim S7 ![] bcast_S_S7),
    StableHlo.TRef.binary (.of main_v348 : StableHlo.TRef sig ⟨S7, .i32⟩) (.of main_call29_v1 : StableHlo.TRef sig ⟨S7, .i32⟩) (.of main_call29_v2 : StableHlo.TRef sig ⟨S7, .i32⟩) Host.divsi,
    StableHlo.TRef.unary (.of main_v348 : StableHlo.TRef sig ⟨S7, .i32⟩) (.of main_call29_v3 : StableHlo.TRef sig ⟨S7, .i32⟩) signi,
    StableHlo.TRef.unary (.of main_call29_v0 : StableHlo.TRef sig ⟨S_, .i32⟩) (.of main_call29_v4 : StableHlo.TRef sig ⟨S_, .i32⟩) signi,
    StableHlo.TRef.unary (.of main_call29_v4 : StableHlo.TRef sig ⟨S_, .i32⟩) (.of main_call29_v5 : StableHlo.TRef sig ⟨S7, .i32⟩) (broadcastInDim S7 ![] bcast_S_S7),
    StableHlo.TRef.binary (.of main_call29_v3 : StableHlo.TRef sig ⟨S7, .i32⟩) (.of main_call29_v5 : StableHlo.TRef sig ⟨S7, .i32⟩) (.of main_call29_v6 : StableHlo.TRef sig ⟨S7, .i1⟩) (cmpi .ne),
    StableHlo.TRef.unary (.of main_call29_v0 : StableHlo.TRef sig ⟨S_, .i32⟩) (.of main_call29_v7 : StableHlo.TRef sig ⟨S7, .i32⟩) (broadcastInDim S7 ![] bcast_S_S7),
    StableHlo.TRef.binary (.of main_v348 : StableHlo.TRef sig ⟨S7, .i32⟩) (.of main_call29_v7 : StableHlo.TRef sig ⟨S7, .i32⟩) (.of main_call29_v8 : StableHlo.TRef sig ⟨S7, .i32⟩) Host.remsi,
    StableHlo.TRef.nullary (.of main_call29_c : StableHlo.TRef sig ⟨S_, .i32⟩) (constantI S_ 32 0#32),
    StableHlo.TRef.unary (.of main_call29_c : StableHlo.TRef sig ⟨S_, .i32⟩) (.of main_call29_v9 : StableHlo.TRef sig ⟨S7, .i32⟩) (broadcastInDim S7 ![] bcast_S_S7),
    StableHlo.TRef.binary (.of main_call29_v8 : StableHlo.TRef sig ⟨S7, .i32⟩) (.of main_call29_v9 : StableHlo.TRef sig ⟨S7, .i32⟩) (.of main_call29_v10 : StableHlo.TRef sig ⟨S7, .i1⟩) (cmpi .ne),
    StableHlo.TRef.binary (.of main_call29_v6 : StableHlo.TRef sig ⟨S7, .i1⟩) (.of main_call29_v10 : StableHlo.TRef sig ⟨S7, .i1⟩) (.of main_call29_v11 : StableHlo.TRef sig ⟨S7, .i1⟩) andi,
    StableHlo.TRef.nullary (.of main_call29_c_0 : StableHlo.TRef sig ⟨S_, .i32⟩) (constantI S_ 32 1#32),
    StableHlo.TRef.unary (.of main_call29_c_0 : StableHlo.TRef sig ⟨S_, .i32⟩) (.of main_call29_v12 : StableHlo.TRef sig ⟨S7, .i32⟩) (broadcastInDim S7 ![] bcast_S_S7),
    StableHlo.TRef.binary (.of main_call29_v2 : StableHlo.TRef sig ⟨S7, .i32⟩) (.of main_call29_v12 : StableHlo.TRef sig ⟨S7, .i32⟩) (.of main_call29_v13 : StableHlo.TRef sig ⟨S7, .i32⟩) subi,
    StableHlo.TRef.ternary (.of main_call29_v11 : StableHlo.TRef sig ⟨S7, .i1⟩) (.of main_call29_v13 : StableHlo.TRef sig ⟨S7, .i32⟩) (.of main_call29_v2 : StableHlo.TRef sig ⟨S7, .i32⟩) (.of main_v349 : StableHlo.TRef sig ⟨S7, .i32⟩) select,
    StableHlo.unary main_v316 main_v350 (broadcastInDim S7 ![] bcast_S_S7 : (⟨S_, .i32⟩ : BufTy).Contents (Elt F) → (⟨S7, .i32⟩ : BufTy).Contents (Elt F)),
    StableHlo.binary main_v350 main_v349 main_v351 (subi : (⟨S7, .i32⟩ : BufTy).Contents (Elt F) → (⟨S7, .i32⟩ : BufTy).Contents (Elt F) → (⟨S7, .i32⟩ : BufTy).Contents (Elt F)),
    StableHlo.nullary main_v352 (iotaInDim S64 32 0),
    StableHlo.nullary main_v353 (iotaInDim S64 32 0),
    StableHlo.unary main_v352 main_v354 (broadcastInDim S1x64 ![1] bcast_S64_S1x64_1 : (⟨S64, .i32⟩ : BufTy).Contents (Elt F) → (⟨S1x64, .i32⟩ : BufTy).Contents (Elt F)),
    StableHlo.unary main_v330 main_v355 (broadcastInDim S7x1 ![0] bcast_S7_S7x1_0 : (⟨S7, .i32⟩ : BufTy).Contents (Elt F) → (⟨S7x1, .i32⟩ : BufTy).Contents (Elt F)),
    StableHlo.unary main_v354 main_v356 (broadcastInDim S7x64 ![0, 1] bcast_S1x64_S7x64_0_1 : (⟨S1x64, .i32⟩ : BufTy).Contents (Elt F) → (⟨S7x64, .i32⟩ : BufTy).Contents (Elt F)),
    StableHlo.unary main_v355 main_v357 (broadcastInDim S7x64 ![0, 1] bcast_S7x1_S7x64_0_1 : (⟨S7x1, .i32⟩ : BufTy).Contents (Elt F) → (⟨S7x64, .i32⟩ : BufTy).Contents (Elt F)),
    StableHlo.binary main_v356 main_v357 main_v358 (cmpi .sge : (⟨S7x64, .i32⟩ : BufTy).Contents (Elt F) → (⟨S7x64, .i32⟩ : BufTy).Contents (Elt F) → (⟨S7x64, .i1⟩ : BufTy).Contents (Elt F)),
    StableHlo.unary main_v352 main_v359 (broadcastInDim S1x64 ![1] bcast_S64_S1x64_1 : (⟨S64, .i32⟩ : BufTy).Contents (Elt F) → (⟨S1x64, .i32⟩ : BufTy).Contents (Elt F)),
    StableHlo.unary main_v338 main_v360 (broadcastInDim S7x1 ![0] bcast_S7_S7x1_0 : (⟨S7, .i32⟩ : BufTy).Contents (Elt F) → (⟨S7x1, .i32⟩ : BufTy).Contents (Elt F)),
    StableHlo.unary main_v359 main_v361 (broadcastInDim S7x64 ![0, 1] bcast_S1x64_S7x64_0_1 : (⟨S1x64, .i32⟩ : BufTy).Contents (Elt F) → (⟨S7x64, .i32⟩ : BufTy).Contents (Elt F)),
    StableHlo.unary main_v360 main_v362 (broadcastInDim S7x64 ![0, 1] bcast_S7x1_S7x64_0_1 : (⟨S7x1, .i32⟩ : BufTy).Contents (Elt F) → (⟨S7x64, .i32⟩ : BufTy).Contents (Elt F)),
    StableHlo.binary main_v361 main_v362 main_v363 (cmpi .slt : (⟨S7x64, .i32⟩ : BufTy).Contents (Elt F) → (⟨S7x64, .i32⟩ : BufTy).Contents (Elt F) → (⟨S7x64, .i1⟩ : BufTy).Contents (Elt F)),
    StableHlo.binary main_v358 main_v363 main_v364 (andi : (⟨S7x64, .i1⟩ : BufTy).Contents (Elt F) → (⟨S7x64, .i1⟩ : BufTy).Contents (Elt F) → (⟨S7x64, .i1⟩ : BufTy).Contents (Elt F)),
    StableHlo.unary main_v353 main_v365 (broadcastInDim S1x64 ![1] bcast_S64_S1x64_1 : (⟨S64, .i32⟩ : BufTy).Contents (Elt F) → (⟨S1x64, .i32⟩ : BufTy).Contents (Elt F)),
    StableHlo.unary main_v343 main_v366 (broadcastInDim S7x1 ![0] bcast_S7_S7x1_0 : (⟨S7, .i32⟩ : BufTy).Contents (Elt F) → (⟨S7x1, .i32⟩ : BufTy).Contents (Elt F)),
    StableHlo.unary main_v365 main_v367 (broadcastInDim S7x64 ![0, 1] bcast_S1x64_S7x64_0_1 : (⟨S1x64, .i32⟩ : BufTy).Contents (Elt F) → (⟨S7x64, .i32⟩ : BufTy).Contents (Elt F)),
    StableHlo.unary main_v366 main_v368 (broadcastInDim S7x64 ![0, 1] bcast_S7x1_S7x64_0_1 : (⟨S7x1, .i32⟩ : BufTy).Contents (Elt F) → (⟨S7x64, .i32⟩ : BufTy).Contents (Elt F)),
    StableHlo.binary main_v367 main_v368 main_v369 (cmpi .sge : (⟨S7x64, .i32⟩ : BufTy).Contents (Elt F) → (⟨S7x64, .i32⟩ : BufTy).Contents (Elt F) → (⟨S7x64, .i1⟩ : BufTy).Contents (Elt F)),
    StableHlo.unary main_v353 main_v370 (broadcastInDim S1x64 ![1] bcast_S64_S1x64_1 : (⟨S64, .i32⟩ : BufTy).Contents (Elt F) → (⟨S1x64, .i32⟩ : BufTy).Contents (Elt F)),
    StableHlo.unary main_v351 main_v371 (broadcastInDim S7x1 ![0] bcast_S7_S7x1_0 : (⟨S7, .i32⟩ : BufTy).Contents (Elt F) → (⟨S7x1, .i32⟩ : BufTy).Contents (Elt F)),
    StableHlo.unary main_v370 main_v372 (broadcastInDim S7x64 ![0, 1] bcast_S1x64_S7x64_0_1 : (⟨S1x64, .i32⟩ : BufTy).Contents (Elt F) → (⟨S7x64, .i32⟩ : BufTy).Contents (Elt F)),
    StableHlo.unary main_v371 main_v373 (broadcastInDim S7x64 ![0, 1] bcast_S7x1_S7x64_0_1 : (⟨S7x1, .i32⟩ : BufTy).Contents (Elt F) → (⟨S7x64, .i32⟩ : BufTy).Contents (Elt F)),
    StableHlo.binary main_v372 main_v373 main_v374 (cmpi .slt : (⟨S7x64, .i32⟩ : BufTy).Contents (Elt F) → (⟨S7x64, .i32⟩ : BufTy).Contents (Elt F) → (⟨S7x64, .i1⟩ : BufTy).Contents (Elt F)),
    StableHlo.binary main_v369 main_v374 main_v375 (andi : (⟨S7x64, .i1⟩ : BufTy).Contents (Elt F) → (⟨S7x64, .i1⟩ : BufTy).Contents (Elt F) → (⟨S7x64, .i1⟩ : BufTy).Contents (Elt F)),
    StableHlo.unary main_v364 main_v376 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v377 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_52 (constant S_ .f32 0xFF800000#32),
    StableHlo.TRef.unary (.of main_v376 : StableHlo.TRef sig ⟨S7x1x64x1, .i1⟩) (.of main_call30_v0 : StableHlo.TRef sig ⟨S7x512x64x64, .i1⟩) (broadcastInDim S7x512x64x64 ![0, 1, 2, 3] bcast_S7x1x64x1_S7x512x64x64_0_1_2_3),
    StableHlo.TRef.unary (.of main_v377 : StableHlo.TRef sig ⟨S1x512x64x64, .f32⟩) (.of main_call30_v1 : StableHlo.TRef sig ⟨S7x512x64x64, .f32⟩) (broadcastInDim S7x512x64x64 ![0, 1, 2, 3] bcast_S1x512x64x64_S7x512x64x64_0_1_2_3),
    StableHlo.TRef.unary (.of main_cst_52 : StableHlo.TRef sig ⟨S_, .f32⟩) (.of main_call30_v2 : StableHlo.TRef sig ⟨S7x512x64x64, .f32⟩) (broadcastInDim S7x512x64x64 ![] bcast_S_S7x512x64x64),
    StableHlo.TRef.ternary (.of main_call30_v0 : StableHlo.TRef sig ⟨S7x512x64x64, .i1⟩) (.of main_call30_v1 : StableHlo.TRef sig ⟨S7x512x64x64, .f32⟩) (.of main_call30_v2 : StableHlo.TRef sig ⟨S7x512x64x64, .f32⟩) (.of main_v378 : StableHlo.TRef sig ⟨S7x512x64x64, .f32⟩) select,
    StableHlo.nullary main_cst_53 (constant S_ .f32 0xFF800000#32),
    StableHlo.binary main_v378 main_cst_53 main_v379 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v375 main_v380 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v379 main_v381 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_54 (constant S_ .f32 0xFF800000#32),
    StableHlo.TRef.unary (.of main_v380 : StableHlo.TRef sig ⟨S1x1x7x64, .i1⟩) (.of main_call31_v0 : StableHlo.TRef sig ⟨S7x512x7x64, .i1⟩) (broadcastInDim S7x512x7x64 ![0, 1, 2, 3] bcast_S1x1x7x64_S7x512x7x64_0_1_2_3),
    StableHlo.TRef.unary (.of main_v381 : StableHlo.TRef sig ⟨S7x512x1x64, .f32⟩) (.of main_call31_v1 : StableHlo.TRef sig ⟨S7x512x7x64, .f32⟩) (broadcastInDim S7x512x7x64 ![0, 1, 2, 3] bcast_S7x512x1x64_S7x512x7x64_0_1_2_3),
    StableHlo.TRef.unary (.of main_cst_54 : StableHlo.TRef sig ⟨S_, .f32⟩) (.of main_call31_v2 : StableHlo.TRef sig ⟨S7x512x7x64, .f32⟩) (broadcastInDim S7x512x7x64 ![] bcast_S_S7x512x7x64),
    StableHlo.TRef.ternary (.of main_call31_v0 : StableHlo.TRef sig ⟨S7x512x7x64, .i1⟩) (.of main_call31_v1 : StableHlo.TRef sig ⟨S7x512x7x64, .f32⟩) (.of main_call31_v2 : StableHlo.TRef sig ⟨S7x512x7x64, .f32⟩) (.of main_v382 : StableHlo.TRef sig ⟨S7x512x7x64, .f32⟩) select ]
/-- The buffers those operations write, in order. -/
abbrev ops16_W : List (Ref sig .tc) :=
  [main_call29_v0, main_call29_v1, main_call29_v2, main_call29_v3, main_call29_v4, main_call29_v5, main_call29_v6, main_call29_v7, main_call29_v8, main_call29_c, main_call29_v9, main_call29_v10, main_call29_v11, main_call29_c_0, main_call29_v12, main_call29_v13, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_cst_52, main_call30_v0, main_call30_v1, main_call30_v2, main_v378, main_cst_53, main_v379, main_v380, main_v381, main_cst_54, main_call31_v0, main_call31_v1, main_call31_v2, main_v382]
/-- Each operation writes its own result buffer and nothing else. -/
theorem ops16_writes : (ops16 : List (HloOp τ sig (Elt F))).Forall fun op => op.writes ⊆ (ops16_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 790 to 846 of the host part, in order. -/
abbrev ops17 : List (HloOp τ sig (Elt F)) :=
  [ StableHlo.nullary main_cst_55 (constant S_ .f32 0xFF800000#32),
    StableHlo.binary main_v382 main_cst_55 main_v383 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v383 main_v384 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v384 main_v385 rfl shapeCasts_S512x7x7_S25088,
    StableHlo.unary main_v18 main_v386 ((extractStridedSlice S1x1 ![0, 1] · slices_S3x4_S1x1_0_1) : (⟨S3x4, .i32⟩ : BufTy).Contents (Elt F) → (⟨S1x1, .i32⟩ : BufTy).Contents (Elt F)),
    StableHlo.reshape main_v386 main_v387 rfl shapeCasts_S1x1_S_,
    StableHlo.unary main_v23 main_v388 ((extractStridedSlice S1x1 ![1, 1] · slices_S4x4_S1x1_1_1) : (⟨S4x4, .i32⟩ : BufTy).Contents (Elt F) → (⟨S1x1, .i32⟩ : BufTy).Contents (Elt F)),
    StableHlo.reshape main_v388 main_v389 rfl shapeCasts_S1x1_S_,
    StableHlo.binary main_v387 main_v389 main_v390 (minsi : (⟨S_, .i32⟩ : BufTy).Contents (Elt F) → (⟨S_, .i32⟩ : BufTy).Contents (Elt F) → (⟨S_, .i32⟩ : BufTy).Contents (Elt F)),
    StableHlo.unary main_v18 main_v391 ((extractStridedSlice S1x1 ![0, 3] · slices_S3x4_S1x1_0_3) : (⟨S3x4, .i32⟩ : BufTy).Contents (Elt F) → (⟨S1x1, .i32⟩ : BufTy).Contents (Elt F)),
    StableHlo.reshape main_v391 main_v392 rfl shapeCasts_S1x1_S_,
    StableHlo.unary main_v23 main_v393 ((extractStridedSlice S1x1 ![1, 3] · slices_S4x4_S1x1_1_3) : (⟨S4x4, .i32⟩ : BufTy).Contents (Elt F) → (⟨S1x1, .i32⟩ : BufTy).Contents (Elt F)),
    StableHlo.reshape main_v393 main_v394 rfl shapeCasts_S1x1_S_,
    StableHlo.binary main_v392 main_v394 main_v395 (maxsi : (⟨S_, .i32⟩ : BufTy).Contents (Elt F) → (⟨S_, .i32⟩ : BufTy).Contents (Elt F) → (⟨S_, .i32⟩ : BufTy).Contents (Elt F)),
    StableHlo.unary main_v18 main_v396 ((extractStridedSlice S1x1 ![0, 0] · slices_S3x4_S1x1_0_0) : (⟨S3x4, .i32⟩ : BufTy).Contents (Elt F) → (⟨S1x1, .i32⟩ : BufTy).Contents (Elt F)),
    StableHlo.reshape main_v396 main_v397 rfl shapeCasts_S1x1_S_,
    StableHlo.unary main_v23 main_v398 ((extractStridedSlice S1x1 ![1, 0] · slices_S4x4_S1x1_1_0) : (⟨S4x4, .i32⟩ : BufTy).Contents (Elt F) → (⟨S1x1, .i32⟩ : BufTy).Contents (Elt F)),
    StableHlo.reshape main_v398 main_v399 rfl shapeCasts_S1x1_S_,
    StableHlo.binary main_v397 main_v399 main_v400 (minsi : (⟨S_, .i32⟩ : BufTy).Contents (Elt F) → (⟨S_, .i32⟩ : BufTy).Contents (Elt F) → (⟨S_, .i32⟩ : BufTy).Contents (Elt F)),
    StableHlo.unary main_v18 main_v401 ((extractStridedSlice S1x1 ![0, 2] · slices_S3x4_S1x1_0_2) : (⟨S3x4, .i32⟩ : BufTy).Contents (Elt F) → (⟨S1x1, .i32⟩ : BufTy).Contents (Elt F)),
    StableHlo.reshape main_v401 main_v402 rfl shapeCasts_S1x1_S_,
    StableHlo.unary main_v23 main_v403 ((extractStridedSlice S1x1 ![1, 2] · slices_S4x4_S1x1_1_2) : (⟨S4x4, .i32⟩ : BufTy).Contents (Elt F) → (⟨S1x1, .i32⟩ : BufTy).Contents (Elt F)),
    StableHlo.reshape main_v403 main_v404 rfl shapeCasts_S1x1_S_,
    StableHlo.binary main_v402 main_v404 main_v405 (maxsi : (⟨S_, .i32⟩ : BufTy).Contents (Elt F) → (⟨S_, .i32⟩ : BufTy).Contents (Elt F) → (⟨S_, .i32⟩ : BufTy).Contents (Elt F)),
    StableHlo.binary main_v395 main_v390 main_v406 (subi : (⟨S_, .i32⟩ : BufTy).Contents (Elt F) → (⟨S_, .i32⟩ : BufTy).Contents (Elt F) → (⟨S_, .i32⟩ : BufTy).Contents (Elt F)),
    StableHlo.binary main_v405 main_v400 main_v407 (subi : (⟨S_, .i32⟩ : BufTy).Contents (Elt F) → (⟨S_, .i32⟩ : BufTy).Contents (Elt F) → (⟨S_, .i32⟩ : BufTy).Contents (Elt F)),
    StableHlo.nullary main_v408 (iotaInDim S7 32 0),
    StableHlo.nullary main_v409 (iotaInDim S7 32 0),
    StableHlo.unary main_v406 main_v410 (broadcastInDim S7 ![] bcast_S_S7 : (⟨S_, .i32⟩ : BufTy).Contents (Elt F) → (⟨S7, .i32⟩ : BufTy).Contents (Elt F)),
    StableHlo.binary main_v408 main_v410 main_v411 (muli : (⟨S7, .i32⟩ : BufTy).Contents (Elt F) → (⟨S7, .i32⟩ : BufTy).Contents (Elt F) → (⟨S7, .i32⟩ : BufTy).Contents (Elt F)),
    StableHlo.nullary main_c_56 (constantI S_ 32 7#32),
    StableHlo.TRef.unary (.of main_c_56 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S7, .i32⟩) (broadcastInDim S7 ![] bcast_S_S7),
    StableHlo.TRef.binary (.of main_v411 : StableHlo.TRef sig ⟨S7, .i32⟩) (.of main_call32_v1 : StableHlo.TRef sig ⟨S7, .i32⟩) (.of main_call32_v2 : StableHlo.TRef sig ⟨S7, .i32⟩) Host.divsi,
    StableHlo.TRef.unary (.of main_v411 : StableHlo.TRef sig ⟨S7, .i32⟩) (.of main_call32_v3 : StableHlo.TRef sig ⟨S7, .i32⟩) signi,
    StableHlo.TRef.unary (.of main_call32_v0 : StableHlo.TRef sig ⟨S_, .i32⟩) (.of main_call32_v4 : StableHlo.TRef sig ⟨S_, .i32⟩) signi,
    StableHlo.TRef.unary (.of main_call32_v4 : StableHlo.TRef sig ⟨S_, .i32⟩) (.of main_call32_v5 : StableHlo.TRef sig ⟨S7, .i32⟩) (broadcastInDim S7 ![] bcast_S_S7),
    StableHlo.TRef.binary (.of main_call32_v3 : StableHlo.TRef sig ⟨S7, .i32⟩) (.of main_call32_v5 : StableHlo.TRef sig ⟨S7, .i32⟩) (.of main_call32_v6 : StableHlo.TRef sig ⟨S7, .i1⟩) (cmpi .ne),
    StableHlo.TRef.unary (.of main_call32_v0 : StableHlo.TRef sig ⟨S_, .i32⟩) (.of main_call32_v7 : StableHlo.TRef sig ⟨S7, .i32⟩) (broadcastInDim S7 ![] bcast_S_S7),
    StableHlo.TRef.binary (.of main_v411 : StableHlo.TRef sig ⟨S7, .i32⟩) (.of main_call32_v7 : StableHlo.TRef sig ⟨S7, .i32⟩) (.of main_call32_v8 : StableHlo.TRef sig ⟨S7, .i32⟩) Host.remsi,
    StableHlo.TRef.nullary (.of main_call32_c : StableHlo.TRef sig ⟨S_, .i32⟩) (constantI S_ 32 0#32),
    StableHlo.TRef.unary (.of main_call32_c : StableHlo.TRef sig ⟨S_, .i32⟩) (.of main_call32_v9 : StableHlo.TRef sig ⟨S7, .i32⟩) (broadcastInDim S7 ![] bcast_S_S7),
    StableHlo.TRef.binary (.of main_call32_v8 : StableHlo.TRef sig ⟨S7, .i32⟩) (.of main_call32_v9 : StableHlo.TRef sig ⟨S7, .i32⟩) (.of main_call32_v10 : StableHlo.TRef sig ⟨S7, .i1⟩) (cmpi .ne),
    StableHlo.TRef.binary (.of main_call32_v6 : StableHlo.TRef sig ⟨S7, .i1⟩) (.of main_call32_v10 : StableHlo.TRef sig ⟨S7, .i1⟩) (.of main_call32_v11 : StableHlo.TRef sig ⟨S7, .i1⟩) andi,
    StableHlo.TRef.nullary (.of main_call32_c_0 : StableHlo.TRef sig ⟨S_, .i32⟩) (constantI S_ 32 1#32),
    StableHlo.TRef.unary (.of main_call32_c_0 : StableHlo.TRef sig ⟨S_, .i32⟩) (.of main_call32_v12 : StableHlo.TRef sig ⟨S7, .i32⟩) (broadcastInDim S7 ![] bcast_S_S7),
    StableHlo.TRef.binary (.of main_call32_v2 : StableHlo.TRef sig ⟨S7, .i32⟩) (.of main_call32_v12 : StableHlo.TRef sig ⟨S7, .i32⟩) (.of main_call32_v13 : StableHlo.TRef sig ⟨S7, .i32⟩) subi,
    StableHlo.TRef.ternary (.of main_call32_v11 : StableHlo.TRef sig ⟨S7, .i1⟩) (.of main_call32_v13 : StableHlo.TRef sig ⟨S7, .i32⟩) (.of main_call32_v2 : StableHlo.TRef sig ⟨S7, .i32⟩) (.of main_v412 : StableHlo.TRef sig ⟨S7, .i32⟩) select,
    StableHlo.unary main_v390 main_v413 (broadcastInDim S7 ![] bcast_S_S7 : (⟨S_, .i32⟩ : BufTy).Contents (Elt F) → (⟨S7, .i32⟩ : BufTy).Contents (Elt F)),
    StableHlo.binary main_v413 main_v412 main_v414 (addi : (⟨S7, .i32⟩ : BufTy).Contents (Elt F) → (⟨S7, .i32⟩ : BufTy).Contents (Elt F) → (⟨S7, .i32⟩ : BufTy).Contents (Elt F)),
    StableHlo.nullary main_c_57 (constantI S_ 32 1#32),
    StableHlo.unary main_c_57 main_v415 (broadcastInDim S7 ![] bcast_S_S7 : (⟨S_, .i32⟩ : BufTy).Contents (Elt F) → (⟨S7, .i32⟩ : BufTy).Contents (Elt F)),
    StableHlo.binary main_v408 main_v415 main_v416 (addi : (⟨S7, .i32⟩ : BufTy).Contents (Elt F) → (⟨S7, .i32⟩ : BufTy).Contents (Elt F) → (⟨S7, .i32⟩ : BufTy).Contents (Elt F)),
    StableHlo.unary main_v416 main_v417 (negi : (⟨S7, .i32⟩ : BufTy).Contents (Elt F) → (⟨S7, .i32⟩ : BufTy).Contents (Elt F)),
    StableHlo.unary main_v406 main_v418 (broadcastInDim S7 ![] bcast_S_S7 : (⟨S_, .i32⟩ : BufTy).Contents (Elt F) → (⟨S7, .i32⟩ : BufTy).Contents (Elt F)),
    StableHlo.binary main_v417 main_v418 main_v419 (muli : (⟨S7, .i32⟩ : BufTy).Contents (Elt F) → (⟨S7, .i32⟩ : BufTy).Contents (Elt F) → (⟨S7, .i32⟩ : BufTy).Contents (Elt F)),
    StableHlo.nullary main_c_58 (constantI S_ 32 7#32) ]
/-- The buffers those operations write, in order. -/
abbrev ops17_W : List (Ref sig .tc) :=
  [main_cst_55, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_c_56, main_call32_v0, main_call32_v1, main_call32_v2, main_call32_v3, main_call32_v4, main_call32_v5, main_call32_v6, main_call32_v7, main_call32_v8, main_call32_c, main_call32_v9, main_call32_v10, main_call32_v11, main_call32_c_0, main_call32_v12, main_call32_v13, main_v412, main_v413, main_v414, main_c_57, main_v415, main_v416, main_v417, main_v418, main_v419, main_c_58]
/-- Each operation writes its own result buffer and nothing else. -/
theorem ops17_writes : (ops17 : List (HloOp τ sig (Elt F))).Forall fun op => op.writes ⊆ (ops17_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 847 to 894 of the host part, in order. -/
abbrev ops18 : List (HloOp τ sig (Elt F)) :=
  [ StableHlo.TRef.unary (.of main_c_58 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S7, .i32⟩) (broadcastInDim S7 ![] bcast_S_S7),
    StableHlo.TRef.binary (.of main_v419 : StableHlo.TRef sig ⟨S7, .i32⟩) (.of main_call33_v1 : StableHlo.TRef sig ⟨S7, .i32⟩) (.of main_call33_v2 : StableHlo.TRef sig ⟨S7, .i32⟩) Host.divsi,
    StableHlo.TRef.unary (.of main_v419 : StableHlo.TRef sig ⟨S7, .i32⟩) (.of main_call33_v3 : StableHlo.TRef sig ⟨S7, .i32⟩) signi,
    StableHlo.TRef.unary (.of main_call33_v0 : StableHlo.TRef sig ⟨S_, .i32⟩) (.of main_call33_v4 : StableHlo.TRef sig ⟨S_, .i32⟩) signi,
    StableHlo.TRef.unary (.of main_call33_v4 : StableHlo.TRef sig ⟨S_, .i32⟩) (.of main_call33_v5 : StableHlo.TRef sig ⟨S7, .i32⟩) (broadcastInDim S7 ![] bcast_S_S7),
    StableHlo.TRef.binary (.of main_call33_v3 : StableHlo.TRef sig ⟨S7, .i32⟩) (.of main_call33_v5 : StableHlo.TRef sig ⟨S7, .i32⟩) (.of main_call33_v6 : StableHlo.TRef sig ⟨S7, .i1⟩) (cmpi .ne),
    StableHlo.TRef.unary (.of main_call33_v0 : StableHlo.TRef sig ⟨S_, .i32⟩) (.of main_call33_v7 : StableHlo.TRef sig ⟨S7, .i32⟩) (broadcastInDim S7 ![] bcast_S_S7),
    StableHlo.TRef.binary (.of main_v419 : StableHlo.TRef sig ⟨S7, .i32⟩) (.of main_call33_v7 : StableHlo.TRef sig ⟨S7, .i32⟩) (.of main_call33_v8 : StableHlo.TRef sig ⟨S7, .i32⟩) Host.remsi,
    StableHlo.TRef.nullary (.of main_call33_c : StableHlo.TRef sig ⟨S_, .i32⟩) (constantI S_ 32 0#32),
    StableHlo.TRef.unary (.of main_call33_c : StableHlo.TRef sig ⟨S_, .i32⟩) (.of main_call33_v9 : StableHlo.TRef sig ⟨S7, .i32⟩) (broadcastInDim S7 ![] bcast_S_S7),
    StableHlo.TRef.binary (.of main_call33_v8 : StableHlo.TRef sig ⟨S7, .i32⟩) (.of main_call33_v9 : StableHlo.TRef sig ⟨S7, .i32⟩) (.of main_call33_v10 : StableHlo.TRef sig ⟨S7, .i1⟩) (cmpi .ne),
    StableHlo.TRef.binary (.of main_call33_v6 : StableHlo.TRef sig ⟨S7, .i1⟩) (.of main_call33_v10 : StableHlo.TRef sig ⟨S7, .i1⟩) (.of main_call33_v11 : StableHlo.TRef sig ⟨S7, .i1⟩) andi,
    StableHlo.TRef.nullary (.of main_call33_c_0 : StableHlo.TRef sig ⟨S_, .i32⟩) (constantI S_ 32 1#32),
    StableHlo.TRef.unary (.of main_call33_c_0 : StableHlo.TRef sig ⟨S_, .i32⟩) (.of main_call33_v12 : StableHlo.TRef sig ⟨S7, .i32⟩) (broadcastInDim S7 ![] bcast_S_S7),
    StableHlo.TRef.binary (.of main_call33_v2 : StableHlo.TRef sig ⟨S7, .i32⟩) (.of main_call33_v12 : StableHlo.TRef sig ⟨S7, .i32⟩) (.of main_call33_v13 : StableHlo.TRef sig ⟨S7, .i32⟩) subi,
    StableHlo.TRef.ternary (.of main_call33_v11 : StableHlo.TRef sig ⟨S7, .i1⟩) (.of main_call33_v13 : StableHlo.TRef sig ⟨S7, .i32⟩) (.of main_call33_v2 : StableHlo.TRef sig ⟨S7, .i32⟩) (.of main_v420 : StableHlo.TRef sig ⟨S7, .i32⟩) select,
    StableHlo.unary main_v390 main_v421 (broadcastInDim S7 ![] bcast_S_S7 : (⟨S_, .i32⟩ : BufTy).Contents (Elt F) → (⟨S7, .i32⟩ : BufTy).Contents (Elt F)),
    StableHlo.binary main_v421 main_v420 main_v422 (subi : (⟨S7, .i32⟩ : BufTy).Contents (Elt F) → (⟨S7, .i32⟩ : BufTy).Contents (Elt F) → (⟨S7, .i32⟩ : BufTy).Contents (Elt F)),
    StableHlo.unary main_v407 main_v423 (broadcastInDim S7 ![] bcast_S_S7 : (⟨S_, .i32⟩ : BufTy).Contents (Elt F) → (⟨S7, .i32⟩ : BufTy).Contents (Elt F)),
    StableHlo.binary main_v409 main_v423 main_v424 (muli : (⟨S7, .i32⟩ : BufTy).Contents (Elt F) → (⟨S7, .i32⟩ : BufTy).Contents (Elt F) → (⟨S7, .i32⟩ : BufTy).Contents (Elt F)),
    StableHlo.nullary main_c_59 (constantI S_ 32 7#32),
    StableHlo.TRef.unary (.of main_c_59 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S7, .i32⟩) (broadcastInDim S7 ![] bcast_S_S7),
    StableHlo.TRef.binary (.of main_v424 : StableHlo.TRef sig ⟨S7, .i32⟩) (.of main_call34_v1 : StableHlo.TRef sig ⟨S7, .i32⟩) (.of main_call34_v2 : StableHlo.TRef sig ⟨S7, .i32⟩) Host.divsi,
    StableHlo.TRef.unary (.of main_v424 : StableHlo.TRef sig ⟨S7, .i32⟩) (.of main_call34_v3 : StableHlo.TRef sig ⟨S7, .i32⟩) signi,
    StableHlo.TRef.unary (.of main_call34_v0 : StableHlo.TRef sig ⟨S_, .i32⟩) (.of main_call34_v4 : StableHlo.TRef sig ⟨S_, .i32⟩) signi,
    StableHlo.TRef.unary (.of main_call34_v4 : StableHlo.TRef sig ⟨S_, .i32⟩) (.of main_call34_v5 : StableHlo.TRef sig ⟨S7, .i32⟩) (broadcastInDim S7 ![] bcast_S_S7),
    StableHlo.TRef.binary (.of main_call34_v3 : StableHlo.TRef sig ⟨S7, .i32⟩) (.of main_call34_v5 : StableHlo.TRef sig ⟨S7, .i32⟩) (.of main_call34_v6 : StableHlo.TRef sig ⟨S7, .i1⟩) (cmpi .ne),
    StableHlo.TRef.unary (.of main_call34_v0 : StableHlo.TRef sig ⟨S_, .i32⟩) (.of main_call34_v7 : StableHlo.TRef sig ⟨S7, .i32⟩) (broadcastInDim S7 ![] bcast_S_S7),
    StableHlo.TRef.binary (.of main_v424 : StableHlo.TRef sig ⟨S7, .i32⟩) (.of main_call34_v7 : StableHlo.TRef sig ⟨S7, .i32⟩) (.of main_call34_v8 : StableHlo.TRef sig ⟨S7, .i32⟩) Host.remsi,
    StableHlo.TRef.nullary (.of main_call34_c : StableHlo.TRef sig ⟨S_, .i32⟩) (constantI S_ 32 0#32),
    StableHlo.TRef.unary (.of main_call34_c : StableHlo.TRef sig ⟨S_, .i32⟩) (.of main_call34_v9 : StableHlo.TRef sig ⟨S7, .i32⟩) (broadcastInDim S7 ![] bcast_S_S7),
    StableHlo.TRef.binary (.of main_call34_v8 : StableHlo.TRef sig ⟨S7, .i32⟩) (.of main_call34_v9 : StableHlo.TRef sig ⟨S7, .i32⟩) (.of main_call34_v10 : StableHlo.TRef sig ⟨S7, .i1⟩) (cmpi .ne),
    StableHlo.TRef.binary (.of main_call34_v6 : StableHlo.TRef sig ⟨S7, .i1⟩) (.of main_call34_v10 : StableHlo.TRef sig ⟨S7, .i1⟩) (.of main_call34_v11 : StableHlo.TRef sig ⟨S7, .i1⟩) andi,
    StableHlo.TRef.nullary (.of main_call34_c_0 : StableHlo.TRef sig ⟨S_, .i32⟩) (constantI S_ 32 1#32),
    StableHlo.TRef.unary (.of main_call34_c_0 : StableHlo.TRef sig ⟨S_, .i32⟩) (.of main_call34_v12 : StableHlo.TRef sig ⟨S7, .i32⟩) (broadcastInDim S7 ![] bcast_S_S7),
    StableHlo.TRef.binary (.of main_call34_v2 : StableHlo.TRef sig ⟨S7, .i32⟩) (.of main_call34_v12 : StableHlo.TRef sig ⟨S7, .i32⟩) (.of main_call34_v13 : StableHlo.TRef sig ⟨S7, .i32⟩) subi,
    StableHlo.TRef.ternary (.of main_call34_v11 : StableHlo.TRef sig ⟨S7, .i1⟩) (.of main_call34_v13 : StableHlo.TRef sig ⟨S7, .i32⟩) (.of main_call34_v2 : StableHlo.TRef sig ⟨S7, .i32⟩) (.of main_v425 : StableHlo.TRef sig ⟨S7, .i32⟩) select,
    StableHlo.unary main_v400 main_v426 (broadcastInDim S7 ![] bcast_S_S7 : (⟨S_, .i32⟩ : BufTy).Contents (Elt F) → (⟨S7, .i32⟩ : BufTy).Contents (Elt F)),
    StableHlo.binary main_v426 main_v425 main_v427 (addi : (⟨S7, .i32⟩ : BufTy).Contents (Elt F) → (⟨S7, .i32⟩ : BufTy).Contents (Elt F) → (⟨S7, .i32⟩ : BufTy).Contents (Elt F)),
    StableHlo.nullary main_c_60 (constantI S_ 32 1#32),
    StableHlo.unary main_c_60 main_v428 (broadcastInDim S7 ![] bcast_S_S7 : (⟨S_, .i32⟩ : BufTy).Contents (Elt F) → (⟨S7, .i32⟩ : BufTy).Contents (Elt F)),
    StableHlo.binary main_v409 main_v428 main_v429 (addi : (⟨S7, .i32⟩ : BufTy).Contents (Elt F) → (⟨S7, .i32⟩ : BufTy).Contents (Elt F) → (⟨S7, .i32⟩ : BufTy).Contents (Elt F)),
    StableHlo.unary main_v429 main_v430 (negi : (⟨S7, .i32⟩ : BufTy).Contents (Elt F) → (⟨S7, .i32⟩ : BufTy).Contents (Elt F)),
    StableHlo.unary main_v407 main_v431 (broadcastInDim S7 ![] bcast_S_S7 : (⟨S_, .i32⟩ : BufTy).Contents (Elt F) → (⟨S7, .i32⟩ : BufTy).Contents (Elt F)),
    StableHlo.binary main_v430 main_v431 main_v432 (muli : (⟨S7, .i32⟩ : BufTy).Contents (Elt F) → (⟨S7, .i32⟩ : BufTy).Contents (Elt F) → (⟨S7, .i32⟩ : BufTy).Contents (Elt F)),
    StableHlo.nullary main_c_61 (constantI S_ 32 7#32) ]
/-- The buffers those operations write, in order. -/
abbrev ops18_W : List (Ref sig .tc) :=
  [main_call33_v0, main_call33_v1, main_call33_v2, main_call33_v3, main_call33_v4, main_call33_v5, main_call33_v6, main_call33_v7, main_call33_v8, main_call33_c, main_call33_v9, main_call33_v10, main_call33_v11, main_call33_c_0, main_call33_v12, main_call33_v13, main_v420, main_v421, main_v422, main_v423, main_v424, main_c_59, main_call34_v0, main_call34_v1, main_call34_v2, main_call34_v3, main_call34_v4, main_call34_v5, main_call34_v6, main_call34_v7, main_call34_v8, main_call34_c, main_call34_v9, main_call34_v10, main_call34_v11, main_call34_c_0, main_call34_v12, main_call34_v13, main_v425, main_v426, main_v427, main_c_60, main_v428, main_v429, main_v430, main_v431, main_v432, main_c_61]
/-- Each operation writes its own result buffer and nothing else. -/
theorem ops18_writes : (ops18 : List (HloOp τ sig (Elt F))).Forall fun op => op.writes ⊆ (ops18_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 895 to 953 of the host part, in order. -/
abbrev ops19 : List (HloOp τ sig (Elt F)) :=
  [ StableHlo.TRef.unary (.of main_c_61 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S7, .i32⟩) (broadcastInDim S7 ![] bcast_S_S7),
    StableHlo.TRef.binary (.of main_v432 : StableHlo.TRef sig ⟨S7, .i32⟩) (.of main_call35_v1 : StableHlo.TRef sig ⟨S7, .i32⟩) (.of main_call35_v2 : StableHlo.TRef sig ⟨S7, .i32⟩) Host.divsi,
    StableHlo.TRef.unary (.of main_v432 : StableHlo.TRef sig ⟨S7, .i32⟩) (.of main_call35_v3 : StableHlo.TRef sig ⟨S7, .i32⟩) signi,
    StableHlo.TRef.unary (.of main_call35_v0 : StableHlo.TRef sig ⟨S_, .i32⟩) (.of main_call35_v4 : StableHlo.TRef sig ⟨S_, .i32⟩) signi,
    StableHlo.TRef.unary (.of main_call35_v4 : StableHlo.TRef sig ⟨S_, .i32⟩) (.of main_call35_v5 : StableHlo.TRef sig ⟨S7, .i32⟩) (broadcastInDim S7 ![] bcast_S_S7),
    StableHlo.TRef.binary (.of main_call35_v3 : StableHlo.TRef sig ⟨S7, .i32⟩) (.of main_call35_v5 : StableHlo.TRef sig ⟨S7, .i32⟩) (.of main_call35_v6 : StableHlo.TRef sig ⟨S7, .i1⟩) (cmpi .ne),
    StableHlo.TRef.unary (.of main_call35_v0 : StableHlo.TRef sig ⟨S_, .i32⟩) (.of main_call35_v7 : StableHlo.TRef sig ⟨S7, .i32⟩) (broadcastInDim S7 ![] bcast_S_S7),
    StableHlo.TRef.binary (.of main_v432 : StableHlo.TRef sig ⟨S7, .i32⟩) (.of main_call35_v7 : StableHlo.TRef sig ⟨S7, .i32⟩) (.of main_call35_v8 : StableHlo.TRef sig ⟨S7, .i32⟩) Host.remsi,
    StableHlo.TRef.nullary (.of main_call35_c : StableHlo.TRef sig ⟨S_, .i32⟩) (constantI S_ 32 0#32),
    StableHlo.TRef.unary (.of main_call35_c : StableHlo.TRef sig ⟨S_, .i32⟩) (.of main_call35_v9 : StableHlo.TRef sig ⟨S7, .i32⟩) (broadcastInDim S7 ![] bcast_S_S7),
    StableHlo.TRef.binary (.of main_call35_v8 : StableHlo.TRef sig ⟨S7, .i32⟩) (.of main_call35_v9 : StableHlo.TRef sig ⟨S7, .i32⟩) (.of main_call35_v10 : StableHlo.TRef sig ⟨S7, .i1⟩) (cmpi .ne),
    StableHlo.TRef.binary (.of main_call35_v6 : StableHlo.TRef sig ⟨S7, .i1⟩) (.of main_call35_v10 : StableHlo.TRef sig ⟨S7, .i1⟩) (.of main_call35_v11 : StableHlo.TRef sig ⟨S7, .i1⟩) andi,
    StableHlo.TRef.nullary (.of main_call35_c_0 : StableHlo.TRef sig ⟨S_, .i32⟩) (constantI S_ 32 1#32),
    StableHlo.TRef.unary (.of main_call35_c_0 : StableHlo.TRef sig ⟨S_, .i32⟩) (.of main_call35_v12 : StableHlo.TRef sig ⟨S7, .i32⟩) (broadcastInDim S7 ![] bcast_S_S7),
    StableHlo.TRef.binary (.of main_call35_v2 : StableHlo.TRef sig ⟨S7, .i32⟩) (.of main_call35_v12 : StableHlo.TRef sig ⟨S7, .i32⟩) (.of main_call35_v13 : StableHlo.TRef sig ⟨S7, .i32⟩) subi,
    StableHlo.TRef.ternary (.of main_call35_v11 : StableHlo.TRef sig ⟨S7, .i1⟩) (.of main_call35_v13 : StableHlo.TRef sig ⟨S7, .i32⟩) (.of main_call35_v2 : StableHlo.TRef sig ⟨S7, .i32⟩) (.of main_v433 : StableHlo.TRef sig ⟨S7, .i32⟩) select,
    StableHlo.unary main_v400 main_v434 (broadcastInDim S7 ![] bcast_S_S7 : (⟨S_, .i32⟩ : BufTy).Contents (Elt F) → (⟨S7, .i32⟩ : BufTy).Contents (Elt F)),
    StableHlo.binary main_v434 main_v433 main_v435 (subi : (⟨S7, .i32⟩ : BufTy).Contents (Elt F) → (⟨S7, .i32⟩ : BufTy).Contents (Elt F) → (⟨S7, .i32⟩ : BufTy).Contents (Elt F)),
    StableHlo.nullary main_v436 (iotaInDim S64 32 0),
    StableHlo.nullary main_v437 (iotaInDim S64 32 0),
    StableHlo.unary main_v436 main_v438 (broadcastInDim S1x64 ![1] bcast_S64_S1x64_1 : (⟨S64, .i32⟩ : BufTy).Contents (Elt F) → (⟨S1x64, .i32⟩ : BufTy).Contents (Elt F)),
    StableHlo.unary main_v414 main_v439 (broadcastInDim S7x1 ![0] bcast_S7_S7x1_0 : (⟨S7, .i32⟩ : BufTy).Contents (Elt F) → (⟨S7x1, .i32⟩ : BufTy).Contents (Elt F)),
    StableHlo.unary main_v438 main_v440 (broadcastInDim S7x64 ![0, 1] bcast_S1x64_S7x64_0_1 : (⟨S1x64, .i32⟩ : BufTy).Contents (Elt F) → (⟨S7x64, .i32⟩ : BufTy).Contents (Elt F)),
    StableHlo.unary main_v439 main_v441 (broadcastInDim S7x64 ![0, 1] bcast_S7x1_S7x64_0_1 : (⟨S7x1, .i32⟩ : BufTy).Contents (Elt F) → (⟨S7x64, .i32⟩ : BufTy).Contents (Elt F)),
    StableHlo.binary main_v440 main_v441 main_v442 (cmpi .sge : (⟨S7x64, .i32⟩ : BufTy).Contents (Elt F) → (⟨S7x64, .i32⟩ : BufTy).Contents (Elt F) → (⟨S7x64, .i1⟩ : BufTy).Contents (Elt F)),
    StableHlo.unary main_v436 main_v443 (broadcastInDim S1x64 ![1] bcast_S64_S1x64_1 : (⟨S64, .i32⟩ : BufTy).Contents (Elt F) → (⟨S1x64, .i32⟩ : BufTy).Contents (Elt F)),
    StableHlo.unary main_v422 main_v444 (broadcastInDim S7x1 ![0] bcast_S7_S7x1_0 : (⟨S7, .i32⟩ : BufTy).Contents (Elt F) → (⟨S7x1, .i32⟩ : BufTy).Contents (Elt F)),
    StableHlo.unary main_v443 main_v445 (broadcastInDim S7x64 ![0, 1] bcast_S1x64_S7x64_0_1 : (⟨S1x64, .i32⟩ : BufTy).Contents (Elt F) → (⟨S7x64, .i32⟩ : BufTy).Contents (Elt F)),
    StableHlo.unary main_v444 main_v446 (broadcastInDim S7x64 ![0, 1] bcast_S7x1_S7x64_0_1 : (⟨S7x1, .i32⟩ : BufTy).Contents (Elt F) → (⟨S7x64, .i32⟩ : BufTy).Contents (Elt F)),
    StableHlo.binary main_v445 main_v446 main_v447 (cmpi .slt : (⟨S7x64, .i32⟩ : BufTy).Contents (Elt F) → (⟨S7x64, .i32⟩ : BufTy).Contents (Elt F) → (⟨S7x64, .i1⟩ : BufTy).Contents (Elt F)),
    StableHlo.binary main_v442 main_v447 main_v448 (andi : (⟨S7x64, .i1⟩ : BufTy).Contents (Elt F) → (⟨S7x64, .i1⟩ : BufTy).Contents (Elt F) → (⟨S7x64, .i1⟩ : BufTy).Contents (Elt F)),
    StableHlo.unary main_v437 main_v449 (broadcastInDim S1x64 ![1] bcast_S64_S1x64_1 : (⟨S64, .i32⟩ : BufTy).Contents (Elt F) → (⟨S1x64, .i32⟩ : BufTy).Contents (Elt F)),
    StableHlo.unary main_v427 main_v450 (broadcastInDim S7x1 ![0] bcast_S7_S7x1_0 : (⟨S7, .i32⟩ : BufTy).Contents (Elt F) → (⟨S7x1, .i32⟩ : BufTy).Contents (Elt F)),
    StableHlo.unary main_v449 main_v451 (broadcastInDim S7x64 ![0, 1] bcast_S1x64_S7x64_0_1 : (⟨S1x64, .i32⟩ : BufTy).Contents (Elt F) → (⟨S7x64, .i32⟩ : BufTy).Contents (Elt F)),
    StableHlo.unary main_v450 main_v452 (broadcastInDim S7x64 ![0, 1] bcast_S7x1_S7x64_0_1 : (⟨S7x1, .i32⟩ : BufTy).Contents (Elt F) → (⟨S7x64, .i32⟩ : BufTy).Contents (Elt F)),
    StableHlo.binary main_v451 main_v452 main_v453 (cmpi .sge : (⟨S7x64, .i32⟩ : BufTy).Contents (Elt F) → (⟨S7x64, .i32⟩ : BufTy).Contents (Elt F) → (⟨S7x64, .i1⟩ : BufTy).Contents (Elt F)),
    StableHlo.unary main_v437 main_v454 (broadcastInDim S1x64 ![1] bcast_S64_S1x64_1 : (⟨S64, .i32⟩ : BufTy).Contents (Elt F) → (⟨S1x64, .i32⟩ : BufTy).Contents (Elt F)),
    StableHlo.unary main_v435 main_v455 (broadcastInDim S7x1 ![0] bcast_S7_S7x1_0 : (⟨S7, .i32⟩ : BufTy).Contents (Elt F) → (⟨S7x1, .i32⟩ : BufTy).Contents (Elt F)),
    StableHlo.unary main_v454 main_v456 (broadcastInDim S7x64 ![0, 1] bcast_S1x64_S7x64_0_1 : (⟨S1x64, .i32⟩ : BufTy).Contents (Elt F) → (⟨S7x64, .i32⟩ : BufTy).Contents (Elt F)),
    StableHlo.unary main_v455 main_v457 (broadcastInDim S7x64 ![0, 1] bcast_S7x1_S7x64_0_1 : (⟨S7x1, .i32⟩ : BufTy).Contents (Elt F) → (⟨S7x64, .i32⟩ : BufTy).Contents (Elt F)),
    StableHlo.binary main_v456 main_v457 main_v458 (cmpi .slt : (⟨S7x64, .i32⟩ : BufTy).Contents (Elt F) → (⟨S7x64, .i32⟩ : BufTy).Contents (Elt F) → (⟨S7x64, .i1⟩ : BufTy).Contents (Elt F)),
    StableHlo.binary main_v453 main_v458 main_v459 (andi : (⟨S7x64, .i1⟩ : BufTy).Contents (Elt F) → (⟨S7x64, .i1⟩ : BufTy).Contents (Elt F) → (⟨S7x64, .i1⟩ : BufTy).Contents (Elt F)),
    StableHlo.unary main_v448 main_v460 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v461 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_62 (constant S_ .f32 0xFF800000#32),
    StableHlo.TRef.unary (.of main_v460 : StableHlo.TRef sig ⟨S7x1x64x1, .i1⟩) (.of main_call36_v0 : StableHlo.TRef sig ⟨S7x512x64x64, .i1⟩) (broadcastInDim S7x512x64x64 ![0, 1, 2, 3] bcast_S7x1x64x1_S7x512x64x64_0_1_2_3),
    StableHlo.TRef.unary (.of main_v461 : StableHlo.TRef sig ⟨S1x512x64x64, .f32⟩) (.of main_call36_v1 : StableHlo.TRef sig ⟨S7x512x64x64, .f32⟩) (broadcastInDim S7x512x64x64 ![0, 1, 2, 3] bcast_S1x512x64x64_S7x512x64x64_0_1_2_3),
    StableHlo.TRef.unary (.of main_cst_62 : StableHlo.TRef sig ⟨S_, .f32⟩) (.of main_call36_v2 : StableHlo.TRef sig ⟨S7x512x64x64, .f32⟩) (broadcastInDim S7x512x64x64 ![] bcast_S_S7x512x64x64),
    StableHlo.TRef.ternary (.of main_call36_v0 : StableHlo.TRef sig ⟨S7x512x64x64, .i1⟩) (.of main_call36_v1 : StableHlo.TRef sig ⟨S7x512x64x64, .f32⟩) (.of main_call36_v2 : StableHlo.TRef sig ⟨S7x512x64x64, .f32⟩) (.of main_v462 : StableHlo.TRef sig ⟨S7x512x64x64, .f32⟩) select,
    StableHlo.nullary main_cst_63 (constant S_ .f32 0xFF800000#32),
    StableHlo.binary main_v462 main_cst_63 main_v463 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v459 main_v464 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v463 main_v465 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_64 (constant S_ .f32 0xFF800000#32),
    StableHlo.TRef.unary (.of main_v464 : StableHlo.TRef sig ⟨S1x1x7x64, .i1⟩) (.of main_call37_v0 : StableHlo.TRef sig ⟨S7x512x7x64, .i1⟩) (broadcastInDim S7x512x7x64 ![0, 1, 2, 3] bcast_S1x1x7x64_S7x512x7x64_0_1_2_3),
    StableHlo.TRef.unary (.of main_v465 : StableHlo.TRef sig ⟨S7x512x1x64, .f32⟩) (.of main_call37_v1 : StableHlo.TRef sig ⟨S7x512x7x64, .f32⟩) (broadcastInDim S7x512x7x64 ![0, 1, 2, 3] bcast_S7x512x1x64_S7x512x7x64_0_1_2_3),
    StableHlo.TRef.unary (.of main_cst_64 : StableHlo.TRef sig ⟨S_, .f32⟩) (.of main_call37_v2 : StableHlo.TRef sig ⟨S7x512x7x64, .f32⟩) (broadcastInDim S7x512x7x64 ![] bcast_S_S7x512x7x64),
    StableHlo.TRef.ternary (.of main_call37_v0 : StableHlo.TRef sig ⟨S7x512x7x64, .i1⟩) (.of main_call37_v1 : StableHlo.TRef sig ⟨S7x512x7x64, .f32⟩) (.of main_call37_v2 : StableHlo.TRef sig ⟨S7x512x7x64, .f32⟩) (.of main_v466 : StableHlo.TRef sig ⟨S7x512x7x64, .f32⟩) select ]
/-- The buffers those operations write, in order. -/
abbrev ops19_W : List (Ref sig .tc) :=
  [main_call35_v0, main_call35_v1, main_call35_v2, main_call35_v3, main_call35_v4, main_call35_v5, main_call35_v6, main_call35_v7, main_call35_v8, main_call35_c, main_call35_v9, main_call35_v10, main_call35_v11, main_call35_c_0, main_call35_v12, main_call35_v13, main_v433, main_v434, main_v435, main_v436, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_cst_62, main_call36_v0, main_call36_v1, main_call36_v2, main_v462, main_cst_63, main_v463, main_v464, main_v465, main_cst_64, main_call37_v0, main_call37_v1, main_call37_v2, main_v466]
/-- Each operation writes its own result buffer and nothing else. -/
theorem ops19_writes : (ops19 : List (HloOp τ sig (Elt F))).Forall fun op => op.writes ⊆ (ops19_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part2 : List (HloOp τ sig (Elt F)) :=
  ops14 ++ ops15 ++ ops16 ++ ops17 ++ ops18 ++ ops19
/-- The generated stretches 52 to 75, in order, are this part: the same operations, cut elsewhere. -/
theorem part2_is : ([hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75] : List (List (HloOp τ sig (Elt F)))).flatten = part2 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 626 to 682 of the host part, in order. -/
abbrev ops14 : List (HloOp τ sig (Elt F)) :=
  [ StableHlo.nullary main_cst_45 (constant S_ .f32 0xFF800000#32),
    StableHlo.binary main_v298 main_cst_45 main_v299 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v299 main_v300 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v300 main_v301 rfl shapeCasts_S512x7x7_S25088,
    StableHlo.unary main_v18 main_v302 ((extractStridedSlice S1x1 ![0, 1] · slices_S3x4_S1x1_0_1) : (⟨S3x4, .i32⟩ : BufTy).Contents (Elt F) → (⟨S1x1, .i32⟩ : BufTy).Contents (Elt F)),
    StableHlo.reshape main_v302 main_v303 rfl shapeCasts_S1x1_S_,
    StableHlo.unary main_v23 main_v304 ((extractStridedSlice S1x1 ![0, 1] · slices_S4x4_S1x1_0_1) : (⟨S4x4, .i32⟩ : BufTy).Contents (Elt F) → (⟨S1x1, .i32⟩ : BufTy).Contents (Elt F)),
    StableHlo.reshape main_v304 main_v305 rfl shapeCasts_S1x1_S_,
    StableHlo.binary main_v303 main_v305 main_v306 (minsi : (⟨S_, .i32⟩ : BufTy).Contents (Elt F) → (⟨S_, .i32⟩ : BufTy).Contents (Elt F) → (⟨S_, .i32⟩ : BufTy).Contents (Elt F)),
    StableHlo.unary main_v18 main_v307 ((extractStridedSlice S1x1 ![0, 3] · slices_S3x4_S1x1_0_3) : (⟨S3x4, .i32⟩ : BufTy).Contents (Elt F) → (⟨S1x1, .i32⟩ : BufTy).Contents (Elt F)),
    StableHlo.reshape main_v307 main_v308 rfl shapeCasts_S1x1_S_,
    StableHlo.unary main_v23 main_v309 ((extractStridedSlice S1x1 ![0, 3] · slices_S4x4_S1x1_0_3) : (⟨S4x4, .i32⟩ : BufTy).Contents (Elt F) → (⟨S1x1, .i32⟩ : BufTy).Contents (Elt F)),
    StableHlo.reshape main_v309 main_v310 rfl shapeCasts_S1x1_S_,
    StableHlo.binary main_v308 main_v310 main_v311 (maxsi : (⟨S_, .i32⟩ : BufTy).Contents (Elt F) → (⟨S_, .i32⟩ : BufTy).Contents (Elt F) → (⟨S_, .i32⟩ : BufTy).Contents (Elt F)),
    StableHlo.unary main_v18 main_v312 ((extractStridedSlice S1x1 ![0, 0] · slices_S3x4_S1x1_0_0) : (⟨S3x4, .i32⟩ : BufTy).Contents (Elt F) → (⟨S1x1, .i32⟩ : BufTy).Contents (Elt F)),
    StableHlo.reshape main_v312 main_v313 rfl shapeCasts_S1x1_S_,
    StableHlo.unary main_v23 main_v314 ((extractStridedSlice S1x1 ![0, 0] · slices_S4x4_S1x1_0_0) : (⟨S4x4, .i32⟩ : BufTy).Contents (Elt F) → (⟨S1x1, .i32⟩ : BufTy).Contents (Elt F)),
    StableHlo.reshape main_v314 main_v315 rfl shapeCasts_S1x1_S_,
    StableHlo.binary main_v313 main_v315 main_v316 (minsi : (⟨S_, .i32⟩ : BufTy).Contents (Elt F) → (⟨S_, .i32⟩ : BufTy).Contents (Elt F) → (⟨S_, .i32⟩ : BufTy).Contents (Elt F)),
    StableHlo.unary main_v18 main_v317 ((extractStridedSlice S1x1 ![0, 2] · slices_S3x4_S1x1_0_2) : (⟨S3x4, .i32⟩ : BufTy).Contents (Elt F) → (⟨S1x1, .i32⟩ : BufTy).Contents (Elt F)),
    StableHlo.reshape main_v317 main_v318 rfl shapeCasts_S1x1_S_,
    StableHlo.unary main_v23 main_v319 ((extractStridedSlice S1x1 ![0, 2] · slices_S4x4_S1x1_0_2) : (⟨S4x4, .i32⟩ : BufTy).Contents (Elt F) → (⟨S1x1, .i32⟩ : BufTy).Contents (Elt F)),
    StableHlo.reshape main_v319 main_v320 rfl shapeCasts_S1x1_S_,
    StableHlo.binary main_v318 main_v320 main_v321 (maxsi : (⟨S_, .i32⟩ : BufTy).Contents (Elt F) → (⟨S_, .i32⟩ : BufTy).Contents (Elt F) → (⟨S_, .i32⟩ : BufTy).Contents (Elt F)),
    StableHlo.binary main_v311 main_v306 main_v322 (subi : (⟨S_, .i32⟩ : BufTy).Contents (Elt F) → (⟨S_, .i32⟩ : BufTy).Contents (Elt F) → (⟨S_, .i32⟩ : BufTy).Contents (Elt F)),
    StableHlo.binary main_v321 main_v316 main_v323 (subi : (⟨S_, .i32⟩ : BufTy).Contents (Elt F) → (⟨S_, .i32⟩ : BufTy).Contents (Elt F) → (⟨S_, .i32⟩ : BufTy).Contents (Elt F)),
    StableHlo.nullary main_v324 (iotaInDim S7 32 0),
    StableHlo.nullary main_v325 (iotaInDim S7 32 0),
    StableHlo.unary main_v322 main_v326 (broadcastInDim S7 ![] bcast_S_S7 : (⟨S_, .i32⟩ : BufTy).Contents (Elt F) → (⟨S7, .i32⟩ : BufTy).Contents (Elt F)),
    StableHlo.binary main_v324 main_v326 main_v327 (muli : (⟨S7, .i32⟩ : BufTy).Contents (Elt F) → (⟨S7, .i32⟩ : BufTy).Contents (Elt F) → (⟨S7, .i32⟩ : BufTy).Contents (Elt F)),
    StableHlo.nullary main_c_46 (constantI S_ 32 7#32),
    StableHlo.TRef.unary (.of main_c_46 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S7, .i32⟩) (broadcastInDim S7 ![] bcast_S_S7),
    StableHlo.TRef.binary (.of main_v327 : StableHlo.TRef sig ⟨S7, .i32⟩) (.of main_call26_v1 : StableHlo.TRef sig ⟨S7, .i32⟩) (.of main_call26_v2 : StableHlo.TRef sig ⟨S7, .i32⟩) Host.divsi,
    StableHlo.TRef.unary (.of main_v327 : StableHlo.TRef sig ⟨S7, .i32⟩) (.of main_call26_v3 : StableHlo.TRef sig ⟨S7, .i32⟩) signi,
    StableHlo.TRef.unary (.of main_call26_v0 : StableHlo.TRef sig ⟨S_, .i32⟩) (.of main_call26_v4 : StableHlo.TRef sig ⟨S_, .i32⟩) signi,
    StableHlo.TRef.unary (.of main_call26_v4 : StableHlo.TRef sig ⟨S_, .i32⟩) (.of main_call26_v5 : StableHlo.TRef sig ⟨S7, .i32⟩) (broadcastInDim S7 ![] bcast_S_S7),
    StableHlo.TRef.binary (.of main_call26_v3 : StableHlo.TRef sig ⟨S7, .i32⟩) (.of main_call26_v5 : StableHlo.TRef sig ⟨S7, .i32⟩) (.of main_call26_v6 : StableHlo.TRef sig ⟨S7, .i1⟩) (cmpi .ne),
    StableHlo.TRef.unary (.of main_call26_v0 : StableHlo.TRef sig ⟨S_, .i32⟩) (.of main_call26_v7 : StableHlo.TRef sig ⟨S7, .i32⟩) (broadcastInDim S7 ![] bcast_S_S7),
    StableHlo.TRef.binary (.of main_v327 : StableHlo.TRef sig ⟨S7, .i32⟩) (.of main_call26_v7 : StableHlo.TRef sig ⟨S7, .i32⟩) (.of main_call26_v8 : StableHlo.TRef sig ⟨S7, .i32⟩) Host.remsi,
    StableHlo.TRef.nullary (.of main_call26_c : StableHlo.TRef sig ⟨S_, .i32⟩) (constantI S_ 32 0#32),
    StableHlo.TRef.unary (.of main_call26_c : StableHlo.TRef sig ⟨S_, .i32⟩) (.of main_call26_v9 : StableHlo.TRef sig ⟨S7, .i32⟩) (broadcastInDim S7 ![] bcast_S_S7),
    StableHlo.TRef.binary (.of main_call26_v8 : StableHlo.TRef sig ⟨S7, .i32⟩) (.of main_call26_v9 : StableHlo.TRef sig ⟨S7, .i32⟩) (.of main_call26_v10 : StableHlo.TRef sig ⟨S7, .i1⟩) (cmpi .ne),
    StableHlo.TRef.binary (.of main_call26_v6 : StableHlo.TRef sig ⟨S7, .i1⟩) (.of main_call26_v10 : StableHlo.TRef sig ⟨S7, .i1⟩) (.of main_call26_v11 : StableHlo.TRef sig ⟨S7, .i1⟩) andi,
    StableHlo.TRef.nullary (.of main_call26_c_0 : StableHlo.TRef sig ⟨S_, .i32⟩) (constantI S_ 32 1#32),
    StableHlo.TRef.unary (.of main_call26_c_0 : StableHlo.TRef sig ⟨S_, .i32⟩) (.of main_call26_v12 : StableHlo.TRef sig ⟨S7, .i32⟩) (broadcastInDim S7 ![] bcast_S_S7),
    StableHlo.TRef.binary (.of main_call26_v2 : StableHlo.TRef sig ⟨S7, .i32⟩) (.of main_call26_v12 : StableHlo.TRef sig ⟨S7, .i32⟩) (.of main_call26_v13 : StableHlo.TRef sig ⟨S7, .i32⟩) subi,
    StableHlo.TRef.ternary (.of main_call26_v11 : StableHlo.TRef sig ⟨S7, .i1⟩) (.of main_call26_v13 : StableHlo.TRef sig ⟨S7, .i32⟩) (.of main_call26_v2 : StableHlo.TRef sig ⟨S7, .i32⟩) (.of main_v328 : StableHlo.TRef sig ⟨S7, .i32⟩) select,
    StableHlo.unary main_v306 main_v329 (broadcastInDim S7 ![] bcast_S_S7 : (⟨S_, .i32⟩ : BufTy).Contents (Elt F) → (⟨S7, .i32⟩ : BufTy).Contents (Elt F)),
    StableHlo.binary main_v329 main_v328 main_v330 (addi : (⟨S7, .i32⟩ : BufTy).Contents (Elt F) → (⟨S7, .i32⟩ : BufTy).Contents (Elt F) → (⟨S7, .i32⟩ : BufTy).Contents (Elt F)),
    StableHlo.nullary main_c_47 (constantI S_ 32 1#32),
    StableHlo.unary main_c_47 main_v331 (broadcastInDim S7 ![] bcast_S_S7 : (⟨S_, .i32⟩ : BufTy).Contents (Elt F) → (⟨S7, .i32⟩ : BufTy).Contents (Elt F)),
    StableHlo.binary main_v324 main_v331 main_v332 (addi : (⟨S7, .i32⟩ : BufTy).Contents (Elt F) → (⟨S7, .i32⟩ : BufTy).Contents (Elt F) → (⟨S7, .i32⟩ : BufTy).Contents (Elt F)),
    StableHlo.unary main_v332 main_v333 (negi : (⟨S7, .i32⟩ : BufTy).Contents (Elt F) → (⟨S7, .i32⟩ : BufTy).Contents (Elt F)),
    StableHlo.unary main_v322 main_v334 (broadcastInDim S7 ![] bcast_S_S7 : (⟨S_, .i32⟩ : BufTy).Contents (Elt F) → (⟨S7, .i32⟩ : BufTy).Contents (Elt F)),
    StableHlo.binary main_v333 main_v334 main_v335 (muli : (⟨S7, .i32⟩ : BufTy).Contents (Elt F) → (⟨S7, .i32⟩ : BufTy).Contents (Elt F) → (⟨S7, .i32⟩ : BufTy).Contents (Elt F)),
    StableHlo.nullary main_c_48 (constantI S_ 32 7#32) ]
/-- The buffers those operations write, in order. -/
abbrev ops14_W : List (Ref sig .tc) :=
  [main_cst_45, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_c_46, main_call26_v0, main_call26_v1, main_call26_v2, main_call26_v3, main_call26_v4, main_call26_v5, main_call26_v6, main_call26_v7, main_call26_v8, main_call26_c, main_call26_v9, main_call26_v10, main_call26_v11, main_call26_c_0, main_call26_v12, main_call26_v13, main_v328, main_v329, main_v330, main_c_47, main_v331, main_v332, main_v333, main_v334, main_v335, main_c_48]
/-- Each operation writes its own result buffer and nothing else. -/
theorem ops14_writes : (ops14 : List (HloOp τ sig (Elt F))).Forall fun op => op.writes ⊆ (ops14_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 683 to 730 of the host part, in order. -/
abbrev ops15 : List (HloOp τ sig (Elt F)) :=
  [ StableHlo.TRef.unary (.of main_c_48 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S7, .i32⟩) (broadcastInDim S7 ![] bcast_S_S7),
    StableHlo.TRef.binary (.of main_v335 : StableHlo.TRef sig ⟨S7, .i32⟩) (.of main_call27_v1 : StableHlo.TRef sig ⟨S7, .i32⟩) (.of main_call27_v2 : StableHlo.TRef sig ⟨S7, .i32⟩) Host.divsi,
    StableHlo.TRef.unary (.of main_v335 : StableHlo.TRef sig ⟨S7, .i32⟩) (.of main_call27_v3 : StableHlo.TRef sig ⟨S7, .i32⟩) signi,
    StableHlo.TRef.unary (.of main_call27_v0 : StableHlo.TRef sig ⟨S_, .i32⟩) (.of main_call27_v4 : StableHlo.TRef sig ⟨S_, .i32⟩) signi,
    StableHlo.TRef.unary (.of main_call27_v4 : StableHlo.TRef sig ⟨S_, .i32⟩) (.of main_call27_v5 : StableHlo.TRef sig ⟨S7, .i32⟩) (broadcastInDim S7 ![] bcast_S_S7),
    StableHlo.TRef.binary (.of main_call27_v3 : StableHlo.TRef sig ⟨S7, .i32⟩) (.of main_call27_v5 : StableHlo.TRef sig ⟨S7, .i32⟩) (.of main_call27_v6 : StableHlo.TRef sig ⟨S7, .i1⟩) (cmpi .ne),
    StableHlo.TRef.unary (.of main_call27_v0 : StableHlo.TRef sig ⟨S_, .i32⟩) (.of main_call27_v7 : StableHlo.TRef sig ⟨S7, .i32⟩) (broadcastInDim S7 ![] bcast_S_S7),
    StableHlo.TRef.binary (.of main_v335 : StableHlo.TRef sig ⟨S7, .i32⟩) (.of main_call27_v7 : StableHlo.TRef sig ⟨S7, .i32⟩) (.of main_call27_v8 : StableHlo.TRef sig ⟨S7, .i32⟩) Host.remsi,
    StableHlo.TRef.nullary (.of main_call27_c : StableHlo.TRef sig ⟨S_, .i32⟩) (constantI S_ 32 0#32),
    StableHlo.TRef.unary (.of main_call27_c : StableHlo.TRef sig ⟨S_, .i32⟩) (.of main_call27_v9 : StableHlo.TRef sig ⟨S7, .i32⟩) (broadcastInDim S7 ![] bcast_S_S7),
    StableHlo.TRef.binary (.of main_call27_v8 : StableHlo.TRef sig ⟨S7, .i32⟩) (.of main_call27_v9 : StableHlo.TRef sig ⟨S7, .i32⟩) (.of main_call27_v10 : StableHlo.TRef sig ⟨S7, .i1⟩) (cmpi .ne),
    StableHlo.TRef.binary (.of main_call27_v6 : StableHlo.TRef sig ⟨S7, .i1⟩) (.of main_call27_v10 : StableHlo.TRef sig ⟨S7, .i1⟩) (.of main_call27_v11 : StableHlo.TRef sig ⟨S7, .i1⟩) andi,
    StableHlo.TRef.nullary (.of main_call27_c_0 : StableHlo.TRef sig ⟨S_, .i32⟩) (constantI S_ 32 1#32),
    StableHlo.TRef.unary (.of main_call27_c_0 : StableHlo.TRef sig ⟨S_, .i32⟩) (.of main_call27_v12 : StableHlo.TRef sig ⟨S7, .i32⟩) (broadcastInDim S7 ![] bcast_S_S7),
    StableHlo.TRef.binary (.of main_call27_v2 : StableHlo.TRef sig ⟨S7, .i32⟩) (.of main_call27_v12 : StableHlo.TRef sig ⟨S7, .i32⟩) (.of main_call27_v13 : StableHlo.TRef sig ⟨S7, .i32⟩) subi,
    StableHlo.TRef.ternary (.of main_call27_v11 : StableHlo.TRef sig ⟨S7, .i1⟩) (.of main_call27_v13 : StableHlo.TRef sig ⟨S7, .i32⟩) (.of main_call27_v2 : StableHlo.TRef sig ⟨S7, .i32⟩) (.of main_v336 : StableHlo.TRef sig ⟨S7, .i32⟩) select,
    StableHlo.unary main_v306 main_v337 (broadcastInDim S7 ![] bcast_S_S7 : (⟨S_, .i32⟩ : BufTy).Contents (Elt F) → (⟨S7, .i32⟩ : BufTy).Contents (Elt F)),
    StableHlo.binary main_v337 main_v336 main_v338 (subi : (⟨S7, .i32⟩ : BufTy).Contents (Elt F) → (⟨S7, .i32⟩ : BufTy).Contents (Elt F) → (⟨S7, .i32⟩ : BufTy).Contents (Elt F)),
    StableHlo.unary main_v323 main_v339 (broadcastInDim S7 ![] bcast_S_S7 : (⟨S_, .i32⟩ : BufTy).Contents (Elt F) → (⟨S7, .i32⟩ : BufTy).Contents (Elt F)),
    StableHlo.binary main_v325 main_v339 main_v340 (muli : (⟨S7, .i32⟩ : BufTy).Contents (Elt F) → (⟨S7, .i32⟩ : BufTy).Contents (Elt F) → (⟨S7, .i32⟩ : BufTy).Contents (Elt F)),
    StableHlo.nullary main_c_49 (constantI S_ 32 7#32),
    StableHlo.TRef.unary (.of main_c_49 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S7, .i32⟩) (broadcastInDim S7 ![] bcast_S_S7),
    StableHlo.TRef.binary (.of main_v340 : StableHlo.TRef sig ⟨S7, .i32⟩) (.of main_call28_v1 : StableHlo.TRef sig ⟨S7, .i32⟩) (.of main_call28_v2 : StableHlo.TRef sig ⟨S7, .i32⟩) Host.divsi,
    StableHlo.TRef.unary (.of main_v340 : StableHlo.TRef sig ⟨S7, .i32⟩) (.of main_call28_v3 : StableHlo.TRef sig ⟨S7, .i32⟩) signi,
    StableHlo.TRef.unary (.of main_call28_v0 : StableHlo.TRef sig ⟨S_, .i32⟩) (.of main_call28_v4 : StableHlo.TRef sig ⟨S_, .i32⟩) signi,
    StableHlo.TRef.unary (.of main_call28_v4 : StableHlo.TRef sig ⟨S_, .i32⟩) (.of main_call28_v5 : StableHlo.TRef sig ⟨S7, .i32⟩) (broadcastInDim S7 ![] bcast_S_S7),
    StableHlo.TRef.binary (.of main_call28_v3 : StableHlo.TRef sig ⟨S7, .i32⟩) (.of main_call28_v5 : StableHlo.TRef sig ⟨S7, .i32⟩) (.of main_call28_v6 : StableHlo.TRef sig ⟨S7, .i1⟩) (cmpi .ne),
    StableHlo.TRef.unary (.of main_call28_v0 : StableHlo.TRef sig ⟨S_, .i32⟩) (.of main_call28_v7 : StableHlo.TRef sig ⟨S7, .i32⟩) (broadcastInDim S7 ![] bcast_S_S7),
    StableHlo.TRef.binary (.of main_v340 : StableHlo.TRef sig ⟨S7, .i32⟩) (.of main_call28_v7 : StableHlo.TRef sig ⟨S7, .i32⟩) (.of main_call28_v8 : StableHlo.TRef sig ⟨S7, .i32⟩) Host.remsi,
    StableHlo.TRef.nullary (.of main_call28_c : StableHlo.TRef sig ⟨S_, .i32⟩) (constantI S_ 32 0#32),
    StableHlo.TRef.unary (.of main_call28_c : StableHlo.TRef sig ⟨S_, .i32⟩) (.of main_call28_v9 : StableHlo.TRef sig ⟨S7, .i32⟩) (broadcastInDim S7 ![] bcast_S_S7),
    StableHlo.TRef.binary (.of main_call28_v8 : StableHlo.TRef sig ⟨S7, .i32⟩) (.of main_call28_v9 : StableHlo.TRef sig ⟨S7, .i32⟩) (.of main_call28_v10 : StableHlo.TRef sig ⟨S7, .i1⟩) (cmpi .ne),
    StableHlo.TRef.binary (.of main_call28_v6 : StableHlo.TRef sig ⟨S7, .i1⟩) (.of main_call28_v10 : StableHlo.TRef sig ⟨S7, .i1⟩) (.of main_call28_v11 : StableHlo.TRef sig ⟨S7, .i1⟩) andi,
    StableHlo.TRef.nullary (.of main_call28_c_0 : StableHlo.TRef sig ⟨S_, .i32⟩) (constantI S_ 32 1#32),
    StableHlo.TRef.unary (.of main_call28_c_0 : StableHlo.TRef sig ⟨S_, .i32⟩) (.of main_call28_v12 : StableHlo.TRef sig ⟨S7, .i32⟩) (broadcastInDim S7 ![] bcast_S_S7),
    StableHlo.TRef.binary (.of main_call28_v2 : StableHlo.TRef sig ⟨S7, .i32⟩) (.of main_call28_v12 : StableHlo.TRef sig ⟨S7, .i32⟩) (.of main_call28_v13 : StableHlo.TRef sig ⟨S7, .i32⟩) subi,
    StableHlo.TRef.ternary (.of main_call28_v11 : StableHlo.TRef sig ⟨S7, .i1⟩) (.of main_call28_v13 : StableHlo.TRef sig ⟨S7, .i32⟩) (.of main_call28_v2 : StableHlo.TRef sig ⟨S7, .i32⟩) (.of main_v341 : StableHlo.TRef sig ⟨S7, .i32⟩) select,
    StableHlo.unary main_v316 main_v342 (broadcastInDim S7 ![] bcast_S_S7 : (⟨S_, .i32⟩ : BufTy).Contents (Elt F) → (⟨S7, .i32⟩ : BufTy).Contents (Elt F)),
    StableHlo.binary main_v342 main_v341 main_v343 (addi : (⟨S7, .i32⟩ : BufTy).Contents (Elt F) → (⟨S7, .i32⟩ : BufTy).Contents (Elt F) → (⟨S7, .i32⟩ : BufTy).Contents (Elt F)),
    StableHlo.nullary main_c_50 (constantI S_ 32 1#32),
    StableHlo.unary main_c_50 main_v344 (broadcastInDim S7 ![] bcast_S_S7 : (⟨S_, .i32⟩ : BufTy).Contents (Elt F) → (⟨S7, .i32⟩ : BufTy).Contents (Elt F)),
    StableHlo.binary main_v325 main_v344 main_v345 (addi : (⟨S7, .i32⟩ : BufTy).Contents (Elt F) → (⟨S7, .i32⟩ : BufTy).Contents (Elt F) → (⟨S7, .i32⟩ : BufTy).Contents (Elt F)),
    StableHlo.unary main_v345 main_v346 (negi : (⟨S7, .i32⟩ : BufTy).Contents (Elt F) → (⟨S7, .i32⟩ : BufTy).Contents (Elt F)),
    StableHlo.unary main_v323 main_v347 (broadcastInDim S7 ![] bcast_S_S7 : (⟨S_, .i32⟩ : BufTy).Contents (Elt F) → (⟨S7, .i32⟩ : BufTy).Contents (Elt F)),
    StableHlo.binary main_v346 main_v347 main_v348 (muli : (⟨S7, .i32⟩ : BufTy).Contents (Elt F) → (⟨S7, .i32⟩ : BufTy).Contents (Elt F) → (⟨S7, .i32⟩ : BufTy).Contents (Elt F)),
    StableHlo.nullary main_c_51 (constantI S_ 32 7#32) ]
/-- The buffers those operations write, in order. -/
abbrev ops15_W : List (Ref sig .tc) :=
  [main_call27_v0, main_call27_v1, main_call27_v2, main_call27_v3, main_call27_v4, main_call27_v5, main_call27_v6, main_call27_v7, main_call27_v8, main_call27_c, main_call27_v9, main_call27_v10, main_call27_v11, main_call27_c_0, main_call27_v12, main_call27_v13, main_v336, main_v337, main_v338, main_v339, main_v340, main_c_49, main_call28_v0, main_call28_v1, main_call28_v2, main_call28_v3, main_call28_v4, main_call28_v5, main_call28_v6, main_call28_v7, main_call28_v8, main_call28_c, main_call28_v9, main_call28_v10, main_call28_v11, main_call28_c_0, main_call28_v12, main_call28_v13, main_v341, main_v342, main_v343, main_c_50, main_v344, main_v345, main_v346, main_v347, main_v348, main_c_51]
/-- Each operation writes its own result buffer and nothing else. -/
theorem ops15_writes : (ops15 : List (HloOp τ sig (Elt F))).Forall fun op => op.writes ⊆ (ops15_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 731 to 789 of the host part, in order. -/
abbrev ops16 : List (HloOp τ sig (Elt F)) :=
  [ StableHlo.TRef.unary (.of main_c_51 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S7, .i32⟩) (broadcastInDim S7 ![] bcast_S_S7),
    StableHlo.TRef.binary (.of main_v348 : StableHlo.TRef sig ⟨S7, .i32⟩) (.of main_call29_v1 : StableHlo.TRef sig ⟨S7, .i32⟩) (.of main_call29_v2 : StableHlo.TRef sig ⟨S7, .i32⟩) Host.divsi,
    StableHlo.TRef.unary (.of main_v348 : StableHlo.TRef sig ⟨S7, .i32⟩) (.of main_call29_v3 : StableHlo.TRef sig ⟨S7, .i32⟩) signi,
    StableHlo.TRef.unary (.of main_call29_v0 : StableHlo.TRef sig ⟨S_, .i32⟩) (.of main_call29_v4 : StableHlo.TRef sig ⟨S_, .i32⟩) signi,
    StableHlo.TRef.unary (.of main_call29_v4 : StableHlo.TRef sig ⟨S_, .i32⟩) (.of main_call29_v5 : StableHlo.TRef sig ⟨S7, .i32⟩) (broadcastInDim S7 ![] bcast_S_S7),
    StableHlo.TRef.binary (.of main_call29_v3 : StableHlo.TRef sig ⟨S7, .i32⟩) (.of main_call29_v5 : StableHlo.TRef sig ⟨S7, .i32⟩) (.of main_call29_v6 : StableHlo.TRef sig ⟨S7, .i1⟩) (cmpi .ne),
    StableHlo.TRef.unary (.of main_call29_v0 : StableHlo.TRef sig ⟨S_, .i32⟩) (.of main_call29_v7 : StableHlo.TRef sig ⟨S7, .i32⟩) (broadcastInDim S7 ![] bcast_S_S7),
    StableHlo.TRef.binary (.of main_v348 : StableHlo.TRef sig ⟨S7, .i32⟩) (.of main_call29_v7 : StableHlo.TRef sig ⟨S7, .i32⟩) (.of main_call29_v8 : StableHlo.TRef sig ⟨S7, .i32⟩) Host.remsi,
    StableHlo.TRef.nullary (.of main_call29_c : StableHlo.TRef sig ⟨S_, .i32⟩) (constantI S_ 32 0#32),
    StableHlo.TRef.unary (.of main_call29_c : StableHlo.TRef sig ⟨S_, .i32⟩) (.of main_call29_v9 : StableHlo.TRef sig ⟨S7, .i32⟩) (broadcastInDim S7 ![] bcast_S_S7),
    StableHlo.TRef.binary (.of main_call29_v8 : StableHlo.TRef sig ⟨S7, .i32⟩) (.of main_call29_v9 : StableHlo.TRef sig ⟨S7, .i32⟩) (.of main_call29_v10 : StableHlo.TRef sig ⟨S7, .i1⟩) (cmpi .ne),
    StableHlo.TRef.binary (.of main_call29_v6 : StableHlo.TRef sig ⟨S7, .i1⟩) (.of main_call29_v10 : StableHlo.TRef sig ⟨S7, .i1⟩) (.of main_call29_v11 : StableHlo.TRef sig ⟨S7, .i1⟩) andi,
    StableHlo.TRef.nullary (.of main_call29_c_0 : StableHlo.TRef sig ⟨S_, .i32⟩) (constantI S_ 32 1#32),
    StableHlo.TRef.unary (.of main_call29_c_0 : StableHlo.TRef sig ⟨S_, .i32⟩) (.of main_call29_v12 : StableHlo.TRef sig ⟨S7, .i32⟩) (broadcastInDim S7 ![] bcast_S_S7),
    StableHlo.TRef.binary (.of main_call29_v2 : StableHlo.TRef sig ⟨S7, .i32⟩) (.of main_call29_v12 : StableHlo.TRef sig ⟨S7, .i32⟩) (.of main_call29_v13 : StableHlo.TRef sig ⟨S7, .i32⟩) subi,
    StableHlo.TRef.ternary (.of main_call29_v11 : StableHlo.TRef sig ⟨S7, .i1⟩) (.of main_call29_v13 : StableHlo.TRef sig ⟨S7, .i32⟩) (.of main_call29_v2 : StableHlo.TRef sig ⟨S7, .i32⟩) (.of main_v349 : StableHlo.TRef sig ⟨S7, .i32⟩) select,
    StableHlo.unary main_v316 main_v350 (broadcastInDim S7 ![] bcast_S_S7 : (⟨S_, .i32⟩ : BufTy).Contents (Elt F) → (⟨S7, .i32⟩ : BufTy).Contents (Elt F)),
    StableHlo.binary main_v350 main_v349 main_v351 (subi : (⟨S7, .i32⟩ : BufTy).Contents (Elt F) → (⟨S7, .i32⟩ : BufTy).Contents (Elt F) → (⟨S7, .i32⟩ : BufTy).Contents (Elt F)),
    StableHlo.nullary main_v352 (iotaInDim S64 32 0),
    StableHlo.nullary main_v353 (iotaInDim S64 32 0),
    StableHlo.unary main_v352 main_v354 (broadcastInDim S1x64 ![1] bcast_S64_S1x64_1 : (⟨S64, .i32⟩ : BufTy).Contents (Elt F) → (⟨S1x64, .i32⟩ : BufTy).Contents (Elt F)),
    StableHlo.unary main_v330 main_v355 (broadcastInDim S7x1 ![0] bcast_S7_S7x1_0 : (⟨S7, .i32⟩ : BufTy).Contents (Elt F) → (⟨S7x1, .i32⟩ : BufTy).Contents (Elt F)),
    StableHlo.unary main_v354 main_v356 (broadcastInDim S7x64 ![0, 1] bcast_S1x64_S7x64_0_1 : (⟨S1x64, .i32⟩ : BufTy).Contents (Elt F) → (⟨S7x64, .i32⟩ : BufTy).Contents (Elt F)),
    StableHlo.unary main_v355 main_v357 (broadcastInDim S7x64 ![0, 1] bcast_S7x1_S7x64_0_1 : (⟨S7x1, .i32⟩ : BufTy).Contents (Elt F) → (⟨S7x64, .i32⟩ : BufTy).Contents (Elt F)),
    StableHlo.binary main_v356 main_v357 main_v358 (cmpi .sge : (⟨S7x64, .i32⟩ : BufTy).Contents (Elt F) → (⟨S7x64, .i32⟩ : BufTy).Contents (Elt F) → (⟨S7x64, .i1⟩ : BufTy).Contents (Elt F)),
    StableHlo.unary main_v352 main_v359 (broadcastInDim S1x64 ![1] bcast_S64_S1x64_1 : (⟨S64, .i32⟩ : BufTy).Contents (Elt F) → (⟨S1x64, .i32⟩ : BufTy).Contents (Elt F)),
    StableHlo.unary main_v338 main_v360 (broadcastInDim S7x1 ![0] bcast_S7_S7x1_0 : (⟨S7, .i32⟩ : BufTy).Contents (Elt F) → (⟨S7x1, .i32⟩ : BufTy).Contents (Elt F)),
    StableHlo.unary main_v359 main_v361 (broadcastInDim S7x64 ![0, 1] bcast_S1x64_S7x64_0_1 : (⟨S1x64, .i32⟩ : BufTy).Contents (Elt F) → (⟨S7x64, .i32⟩ : BufTy).Contents (Elt F)),
    StableHlo.unary main_v360 main_v362 (broadcastInDim S7x64 ![0, 1] bcast_S7x1_S7x64_0_1 : (⟨S7x1, .i32⟩ : BufTy).Contents (Elt F) → (⟨S7x64, .i32⟩ : BufTy).Contents (Elt F)),
    StableHlo.binary main_v361 main_v362 main_v363 (cmpi .slt : (⟨S7x64, .i32⟩ : BufTy).Contents (Elt F) → (⟨S7x64, .i32⟩ : BufTy).Contents (Elt F) → (⟨S7x64, .i1⟩ : BufTy).Contents (Elt F)),
    StableHlo.binary main_v358 main_v363 main_v364 (andi : (⟨S7x64, .i1⟩ : BufTy).Contents (Elt F) → (⟨S7x64, .i1⟩ : BufTy).Contents (Elt F) → (⟨S7x64, .i1⟩ : BufTy).Contents (Elt F)),
    StableHlo.unary main_v353 main_v365 (broadcastInDim S1x64 ![1] bcast_S64_S1x64_1 : (⟨S64, .i32⟩ : BufTy).Contents (Elt F) → (⟨S1x64, .i32⟩ : BufTy).Contents (Elt F)),
    StableHlo.unary main_v343 main_v366 (broadcastInDim S7x1 ![0] bcast_S7_S7x1_0 : (⟨S7, .i32⟩ : BufTy).Contents (Elt F) → (⟨S7x1, .i32⟩ : BufTy).Contents (Elt F)),
    StableHlo.unary main_v365 main_v367 (broadcastInDim S7x64 ![0, 1] bcast_S1x64_S7x64_0_1 : (⟨S1x64, .i32⟩ : BufTy).Contents (Elt F) → (⟨S7x64, .i32⟩ : BufTy).Contents (Elt F)),
    StableHlo.unary main_v366 main_v368 (broadcastInDim S7x64 ![0, 1] bcast_S7x1_S7x64_0_1 : (⟨S7x1, .i32⟩ : BufTy).Contents (Elt F) → (⟨S7x64, .i32⟩ : BufTy).Contents (Elt F)),
    StableHlo.binary main_v367 main_v368 main_v369 (cmpi .sge : (⟨S7x64, .i32⟩ : BufTy).Contents (Elt F) → (⟨S7x64, .i32⟩ : BufTy).Contents (Elt F) → (⟨S7x64, .i1⟩ : BufTy).Contents (Elt F)),
    StableHlo.unary main_v353 main_v370 (broadcastInDim S1x64 ![1] bcast_S64_S1x64_1 : (⟨S64, .i32⟩ : BufTy).Contents (Elt F) → (⟨S1x64, .i32⟩ : BufTy).Contents (Elt F)),
    StableHlo.unary main_v351 main_v371 (broadcastInDim S7x1 ![0] bcast_S7_S7x1_0 : (⟨S7, .i32⟩ : BufTy).Contents (Elt F) → (⟨S7x1, .i32⟩ : BufTy).Contents (Elt F)),
    StableHlo.unary main_v370 main_v372 (broadcastInDim S7x64 ![0, 1] bcast_S1x64_S7x64_0_1 : (⟨S1x64, .i32⟩ : BufTy).Contents (Elt F) → (⟨S7x64, .i32⟩ : BufTy).Contents (Elt F)),
    StableHlo.unary main_v371 main_v373 (broadcastInDim S7x64 ![0, 1] bcast_S7x1_S7x64_0_1 : (⟨S7x1, .i32⟩ : BufTy).Contents (Elt F) → (⟨S7x64, .i32⟩ : BufTy).Contents (Elt F)),
    StableHlo.binary main_v372 main_v373 main_v374 (cmpi .slt : (⟨S7x64, .i32⟩ : BufTy).Contents (Elt F) → (⟨S7x64, .i32⟩ : BufTy).Contents (Elt F) → (⟨S7x64, .i1⟩ : BufTy).Contents (Elt F)),
    StableHlo.binary main_v369 main_v374 main_v375 (andi : (⟨S7x64, .i1⟩ : BufTy).Contents (Elt F) → (⟨S7x64, .i1⟩ : BufTy).Contents (Elt F) → (⟨S7x64, .i1⟩ : BufTy).Contents (Elt F)),
    StableHlo.unary main_v364 main_v376 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v377 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_52 (constant S_ .f32 0xFF800000#32),
    StableHlo.TRef.unary (.of main_v376 : StableHlo.TRef sig ⟨S7x1x64x1, .i1⟩) (.of main_call30_v0 : StableHlo.TRef sig ⟨S7x512x64x64, .i1⟩) (broadcastInDim S7x512x64x64 ![0, 1, 2, 3] bcast_S7x1x64x1_S7x512x64x64_0_1_2_3),
    StableHlo.TRef.unary (.of main_v377 : StableHlo.TRef sig ⟨S1x512x64x64, .f32⟩) (.of main_call30_v1 : StableHlo.TRef sig ⟨S7x512x64x64, .f32⟩) (broadcastInDim S7x512x64x64 ![0, 1, 2, 3] bcast_S1x512x64x64_S7x512x64x64_0_1_2_3),
    StableHlo.TRef.unary (.of main_cst_52 : StableHlo.TRef sig ⟨S_, .f32⟩) (.of main_call30_v2 : StableHlo.TRef sig ⟨S7x512x64x64, .f32⟩) (broadcastInDim S7x512x64x64 ![] bcast_S_S7x512x64x64),
    StableHlo.TRef.ternary (.of main_call30_v0 : StableHlo.TRef sig ⟨S7x512x64x64, .i1⟩) (.of main_call30_v1 : StableHlo.TRef sig ⟨S7x512x64x64, .f32⟩) (.of main_call30_v2 : StableHlo.TRef sig ⟨S7x512x64x64, .f32⟩) (.of main_v378 : StableHlo.TRef sig ⟨S7x512x64x64, .f32⟩) select,
    StableHlo.nullary main_cst_53 (constant S_ .f32 0xFF800000#32),
    StableHlo.binary main_v378 main_cst_53 main_v379 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v375 main_v380 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v379 main_v381 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_54 (constant S_ .f32 0xFF800000#32),
    StableHlo.TRef.unary (.of main_v380 : StableHlo.TRef sig ⟨S1x1x7x64, .i1⟩) (.of main_call31_v0 : StableHlo.TRef sig ⟨S7x512x7x64, .i1⟩) (broadcastInDim S7x512x7x64 ![0, 1, 2, 3] bcast_S1x1x7x64_S7x512x7x64_0_1_2_3),
    StableHlo.TRef.unary (.of main_v381 : StableHlo.TRef sig ⟨S7x512x1x64, .f32⟩) (.of main_call31_v1 : StableHlo.TRef sig ⟨S7x512x7x64, .f32⟩) (broadcastInDim S7x512x7x64 ![0, 1, 2, 3] bcast_S7x512x1x64_S7x512x7x64_0_1_2_3),
    StableHlo.TRef.unary (.of main_cst_54 : StableHlo.TRef sig ⟨S_, .f32⟩) (.of main_call31_v2 : StableHlo.TRef sig ⟨S7x512x7x64, .f32⟩) (broadcastInDim S7x512x7x64 ![] bcast_S_S7x512x7x64),
    StableHlo.TRef.ternary (.of main_call31_v0 : StableHlo.TRef sig ⟨S7x512x7x64, .i1⟩) (.of main_call31_v1 : StableHlo.TRef sig ⟨S7x512x7x64, .f32⟩) (.of main_call31_v2 : StableHlo.TRef sig ⟨S7x512x7x64, .f32⟩) (.of main_v382 : StableHlo.TRef sig ⟨S7x512x7x64, .f32⟩) select ]
/-- The buffers those operations write, in order. -/
abbrev ops16_W : List (Ref sig .tc) :=
  [main_call29_v0, main_call29_v1, main_call29_v2, main_call29_v3, main_call29_v4, main_call29_v5, main_call29_v6, main_call29_v7, main_call29_v8, main_call29_c, main_call29_v9, main_call29_v10, main_call29_v11, main_call29_c_0, main_call29_v12, main_call29_v13, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_cst_52, main_call30_v0, main_call30_v1, main_call30_v2, main_v378, main_cst_53, main_v379, main_v380, main_v381, main_cst_54, main_call31_v0, main_call31_v1, main_call31_v2, main_v382]
/-- Each operation writes its own result buffer and nothing else. -/
theorem ops16_writes : (ops16 : List (HloOp τ sig (Elt F))).Forall fun op => op.writes ⊆ (ops16_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 790 to 846 of the host part, in order. -/
abbrev ops17 : List (HloOp τ sig (Elt F)) :=
  [ StableHlo.nullary main_cst_55 (constant S_ .f32 0xFF800000#32),
    StableHlo.binary main_v382 main_cst_55 main_v383 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v383 main_v384 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v384 main_v385 rfl shapeCasts_S512x7x7_S25088,
    StableHlo.unary main_v18 main_v386 ((extractStridedSlice S1x1 ![0, 1] · slices_S3x4_S1x1_0_1) : (⟨S3x4, .i32⟩ : BufTy).Contents (Elt F) → (⟨S1x1, .i32⟩ : BufTy).Contents (Elt F)),
    StableHlo.reshape main_v386 main_v387 rfl shapeCasts_S1x1_S_,
    StableHlo.unary main_v23 main_v388 ((extractStridedSlice S1x1 ![1, 1] · slices_S4x4_S1x1_1_1) : (⟨S4x4, .i32⟩ : BufTy).Contents (Elt F) → (⟨S1x1, .i32⟩ : BufTy).Contents (Elt F)),
    StableHlo.reshape main_v388 main_v389 rfl shapeCasts_S1x1_S_,
    StableHlo.binary main_v387 main_v389 main_v390 (minsi : (⟨S_, .i32⟩ : BufTy).Contents (Elt F) → (⟨S_, .i32⟩ : BufTy).Contents (Elt F) → (⟨S_, .i32⟩ : BufTy).Contents (Elt F)),
    StableHlo.unary main_v18 main_v391 ((extractStridedSlice S1x1 ![0, 3] · slices_S3x4_S1x1_0_3) : (⟨S3x4, .i32⟩ : BufTy).Contents (Elt F) → (⟨S1x1, .i32⟩ : BufTy).Contents (Elt F)),
    StableHlo.reshape main_v391 main_v392 rfl shapeCasts_S1x1_S_,
    StableHlo.unary main_v23 main_v393 ((extractStridedSlice S1x1 ![1, 3] · slices_S4x4_S1x1_1_3) : (⟨S4x4, .i32⟩ : BufTy).Contents (Elt F) → (⟨S1x1, .i32⟩ : BufTy).Contents (Elt F)),
    StableHlo.reshape main_v393 main_v394 rfl shapeCasts_S1x1_S_,
    StableHlo.binary main_v392 main_v394 main_v395 (maxsi : (⟨S_, .i32⟩ : BufTy).Contents (Elt F) → (⟨S_, .i32⟩ : BufTy).Contents (Elt F) → (⟨S_, .i32⟩ : BufTy).Contents (Elt F)),
    StableHlo.unary main_v18 main_v396 ((extractStridedSlice S1x1 ![0, 0] · slices_S3x4_S1x1_0_0) : (⟨S3x4, .i32⟩ : BufTy).Contents (Elt F) → (⟨S1x1, .i32⟩ : BufTy).Contents (Elt F)),
    StableHlo.reshape main_v396 main_v397 rfl shapeCasts_S1x1_S_,
    StableHlo.unary main_v23 main_v398 ((extractStridedSlice S1x1 ![1, 0] · slices_S4x4_S1x1_1_0) : (⟨S4x4, .i32⟩ : BufTy).Contents (Elt F) → (⟨S1x1, .i32⟩ : BufTy).Contents (Elt F)),
    StableHlo.reshape main_v398 main_v399 rfl shapeCasts_S1x1_S_,
    StableHlo.binary main_v397 main_v399 main_v400 (minsi : (⟨S_, .i32⟩ : BufTy).Contents (Elt F) → (⟨S_, .i32⟩ : BufTy).Contents (Elt F) → (⟨S_, .i32⟩ : BufTy).Contents (Elt F)),
    StableHlo.unary main_v18 main_v401 ((extractStridedSlice S1x1 ![0, 2] · slices_S3x4_S1x1_0_2) : (⟨S3x4, .i32⟩ : BufTy).Contents (Elt F) → (⟨S1x1, .i32⟩ : BufTy).Contents (Elt F)),
    StableHlo.reshape main_v401 main_v402 rfl shapeCasts_S1x1_S_,
    StableHlo.unary main_v23 main_v403 ((extractStridedSlice S1x1 ![1, 2] · slices_S4x4_S1x1_1_2) : (⟨S4x4, .i32⟩ : BufTy).Contents (Elt F) → (⟨S1x1, .i32⟩ : BufTy).Contents (Elt F)),
    StableHlo.reshape main_v403 main_v404 rfl shapeCasts_S1x1_S_,
    StableHlo.binary main_v402 main_v404 main_v405 (maxsi : (⟨S_, .i32⟩ : BufTy).Contents (Elt F) → (⟨S_, .i32⟩ : BufTy).Contents (Elt F) → (⟨S_, .i32⟩ : BufTy).Contents (Elt F)),
    StableHlo.binary main_v395 main_v390 main_v406 (subi : (⟨S_, .i32⟩ : BufTy).Contents (Elt F) → (⟨S_, .i32⟩ : BufTy).Contents (Elt F) → (⟨S_, .i32⟩ : BufTy).Contents (Elt F)),
    StableHlo.binary main_v405 main_v400 main_v407 (subi : (⟨S_, .i32⟩ : BufTy).Contents (Elt F) → (⟨S_, .i32⟩ : BufTy).Contents (Elt F) → (⟨S_, .i32⟩ : BufTy).Contents (Elt F)),
    StableHlo.nullary main_v408 (iotaInDim S7 32 0),
    StableHlo.nullary main_v409 (iotaInDim S7 32 0),
    StableHlo.unary main_v406 main_v410 (broadcastInDim S7 ![] bcast_S_S7 : (⟨S_, .i32⟩ : BufTy).Contents (Elt F) → (⟨S7, .i32⟩ : BufTy).Contents (Elt F)),
    StableHlo.binary main_v408 main_v410 main_v411 (muli : (⟨S7, .i32⟩ : BufTy).Contents (Elt F) → (⟨S7, .i32⟩ : BufTy).Contents (Elt F) → (⟨S7, .i32⟩ : BufTy).Contents (Elt F)),
    StableHlo.nullary main_c_56 (constantI S_ 32 7#32),
    StableHlo.TRef.unary (.of main_c_56 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S7, .i32⟩) (broadcastInDim S7 ![] bcast_S_S7),
    StableHlo.TRef.binary (.of main_v411 : StableHlo.TRef sig ⟨S7, .i32⟩) (.of main_call32_v1 : StableHlo.TRef sig ⟨S7, .i32⟩) (.of main_call32_v2 : StableHlo.TRef sig ⟨S7, .i32⟩) Host.divsi,
    StableHlo.TRef.unary (.of main_v411 : StableHlo.TRef sig ⟨S7, .i32⟩) (.of main_call32_v3 : StableHlo.TRef sig ⟨S7, .i32⟩) signi,
    StableHlo.TRef.unary (.of main_call32_v0 : StableHlo.TRef sig ⟨S_, .i32⟩) (.of main_call32_v4 : StableHlo.TRef sig ⟨S_, .i32⟩) signi,
    StableHlo.TRef.unary (.of main_call32_v4 : StableHlo.TRef sig ⟨S_, .i32⟩) (.of main_call32_v5 : StableHlo.TRef sig ⟨S7, .i32⟩) (broadcastInDim S7 ![] bcast_S_S7),
    StableHlo.TRef.binary (.of main_call32_v3 : StableHlo.TRef sig ⟨S7, .i32⟩) (.of main_call32_v5 : StableHlo.TRef sig ⟨S7, .i32⟩) (.of main_call32_v6 : StableHlo.TRef sig ⟨S7, .i1⟩) (cmpi .ne),
    StableHlo.TRef.unary (.of main_call32_v0 : StableHlo.TRef sig ⟨S_, .i32⟩) (.of main_call32_v7 : StableHlo.TRef sig ⟨S7, .i32⟩) (broadcastInDim S7 ![] bcast_S_S7),
    StableHlo.TRef.binary (.of main_v411 : StableHlo.TRef sig ⟨S7, .i32⟩) (.of main_call32_v7 : StableHlo.TRef sig ⟨S7, .i32⟩) (.of main_call32_v8 : StableHlo.TRef sig ⟨S7, .i32⟩) Host.remsi,
    StableHlo.TRef.nullary (.of main_call32_c : StableHlo.TRef sig ⟨S_, .i32⟩) (constantI S_ 32 0#32),
    StableHlo.TRef.unary (.of main_call32_c : StableHlo.TRef sig ⟨S_, .i32⟩) (.of main_call32_v9 : StableHlo.TRef sig ⟨S7, .i32⟩) (broadcastInDim S7 ![] bcast_S_S7),
    StableHlo.TRef.binary (.of main_call32_v8 : StableHlo.TRef sig ⟨S7, .i32⟩) (.of main_call32_v9 : StableHlo.TRef sig ⟨S7, .i32⟩) (.of main_call32_v10 : StableHlo.TRef sig ⟨S7, .i1⟩) (cmpi .ne),
    StableHlo.TRef.binary (.of main_call32_v6 : StableHlo.TRef sig ⟨S7, .i1⟩) (.of main_call32_v10 : StableHlo.TRef sig ⟨S7, .i1⟩) (.of main_call32_v11 : StableHlo.TRef sig ⟨S7, .i1⟩) andi,
    StableHlo.TRef.nullary (.of main_call32_c_0 : StableHlo.TRef sig ⟨S_, .i32⟩) (constantI S_ 32 1#32),
    StableHlo.TRef.unary (.of main_call32_c_0 : StableHlo.TRef sig ⟨S_, .i32⟩) (.of main_call32_v12 : StableHlo.TRef sig ⟨S7, .i32⟩) (broadcastInDim S7 ![] bcast_S_S7),
    StableHlo.TRef.binary (.of main_call32_v2 : StableHlo.TRef sig ⟨S7, .i32⟩) (.of main_call32_v12 : StableHlo.TRef sig ⟨S7, .i32⟩) (.of main_call32_v13 : StableHlo.TRef sig ⟨S7, .i32⟩) subi,
    StableHlo.TRef.ternary (.of main_call32_v11 : StableHlo.TRef sig ⟨S7, .i1⟩) (.of main_call32_v13 : StableHlo.TRef sig ⟨S7, .i32⟩) (.of main_call32_v2 : StableHlo.TRef sig ⟨S7, .i32⟩) (.of main_v412 : StableHlo.TRef sig ⟨S7, .i32⟩) select,
    StableHlo.unary main_v390 main_v413 (broadcastInDim S7 ![] bcast_S_S7 : (⟨S_, .i32⟩ : BufTy).Contents (Elt F) → (⟨S7, .i32⟩ : BufTy).Contents (Elt F)),
    StableHlo.binary main_v413 main_v412 main_v414 (addi : (⟨S7, .i32⟩ : BufTy).Contents (Elt F) → (⟨S7, .i32⟩ : BufTy).Contents (Elt F) → (⟨S7, .i32⟩ : BufTy).Contents (Elt F)),
    StableHlo.nullary main_c_57 (constantI S_ 32 1#32),
    StableHlo.unary main_c_57 main_v415 (broadcastInDim S7 ![] bcast_S_S7 : (⟨S_, .i32⟩ : BufTy).Contents (Elt F) → (⟨S7, .i32⟩ : BufTy).Contents (Elt F)),
    StableHlo.binary main_v408 main_v415 main_v416 (addi : (⟨S7, .i32⟩ : BufTy).Contents (Elt F) → (⟨S7, .i32⟩ : BufTy).Contents (Elt F) → (⟨S7, .i32⟩ : BufTy).Contents (Elt F)),
    StableHlo.unary main_v416 main_v417 (negi : (⟨S7, .i32⟩ : BufTy).Contents (Elt F) → (⟨S7, .i32⟩ : BufTy).Contents (Elt F)),
    StableHlo.unary main_v406 main_v418 (broadcastInDim S7 ![] bcast_S_S7 : (⟨S_, .i32⟩ : BufTy).Contents (Elt F) → (⟨S7, .i32⟩ : BufTy).Contents (Elt F)),
    StableHlo.binary main_v417 main_v418 main_v419 (muli : (⟨S7, .i32⟩ : BufTy).Contents (Elt F) → (⟨S7, .i32⟩ : BufTy).Contents (Elt F) → (⟨S7, .i32⟩ : BufTy).Contents (Elt F)),
    StableHlo.nullary main_c_58 (constantI S_ 32 7#32) ]
/-- The buffers those operations write, in order. -/
abbrev ops17_W : List (Ref sig .tc) :=
  [main_cst_55, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_c_56, main_call32_v0, main_call32_v1, main_call32_v2, main_call32_v3, main_call32_v4, main_call32_v5, main_call32_v6, main_call32_v7, main_call32_v8, main_call32_c, main_call32_v9, main_call32_v10, main_call32_v11, main_call32_c_0, main_call32_v12, main_call32_v13, main_v412, main_v413, main_v414, main_c_57, main_v415, main_v416, main_v417, main_v418, main_v419, main_c_58]
/-- Each operation writes its own result buffer and nothing else. -/
theorem ops17_writes : (ops17 : List (HloOp τ sig (Elt F))).Forall fun op => op.writes ⊆ (ops17_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 847 to 894 of the host part, in order. -/
abbrev ops18 : List (HloOp τ sig (Elt F)) :=
  [ StableHlo.TRef.unary (.of main_c_58 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S7, .i32⟩) (broadcastInDim S7 ![] bcast_S_S7),
    StableHlo.TRef.binary (.of main_v419 : StableHlo.TRef sig ⟨S7, .i32⟩) (.of main_call33_v1 : StableHlo.TRef sig ⟨S7, .i32⟩) (.of main_call33_v2 : StableHlo.TRef sig ⟨S7, .i32⟩) Host.divsi,
    StableHlo.TRef.unary (.of main_v419 : StableHlo.TRef sig ⟨S7, .i32⟩) (.of main_call33_v3 : StableHlo.TRef sig ⟨S7, .i32⟩) signi,
    StableHlo.TRef.unary (.of main_call33_v0 : StableHlo.TRef sig ⟨S_, .i32⟩) (.of main_call33_v4 : StableHlo.TRef sig ⟨S_, .i32⟩) signi,
    StableHlo.TRef.unary (.of main_call33_v4 : StableHlo.TRef sig ⟨S_, .i32⟩) (.of main_call33_v5 : StableHlo.TRef sig ⟨S7, .i32⟩) (broadcastInDim S7 ![] bcast_S_S7),
    StableHlo.TRef.binary (.of main_call33_v3 : StableHlo.TRef sig ⟨S7, .i32⟩) (.of main_call33_v5 : StableHlo.TRef sig ⟨S7, .i32⟩) (.of main_call33_v6 : StableHlo.TRef sig ⟨S7, .i1⟩) (cmpi .ne),
    StableHlo.TRef.unary (.of main_call33_v0 : StableHlo.TRef sig ⟨S_, .i32⟩) (.of main_call33_v7 : StableHlo.TRef sig ⟨S7, .i32⟩) (broadcastInDim S7 ![] bcast_S_S7),
    StableHlo.TRef.binary (.of main_v419 : StableHlo.TRef sig ⟨S7, .i32⟩) (.of main_call33_v7 : StableHlo.TRef sig ⟨S7, .i32⟩) (.of main_call33_v8 : StableHlo.TRef sig ⟨S7, .i32⟩) Host.remsi,
    StableHlo.TRef.nullary (.of main_call33_c : StableHlo.TRef sig ⟨S_, .i32⟩) (constantI S_ 32 0#32),
    StableHlo.TRef.unary (.of main_call33_c : StableHlo.TRef sig ⟨S_, .i32⟩) (.of main_call33_v9 : StableHlo.TRef sig ⟨S7, .i32⟩) (broadcastInDim S7 ![] bcast_S_S7),
    StableHlo.TRef.binary (.of main_call33_v8 : StableHlo.TRef sig ⟨S7, .i32⟩) (.of main_call33_v9 : StableHlo.TRef sig ⟨S7, .i32⟩) (.of main_call33_v10 : StableHlo.TRef sig ⟨S7, .i1⟩) (cmpi .ne),
    StableHlo.TRef.binary (.of main_call33_v6 : StableHlo.TRef sig ⟨S7, .i1⟩) (.of main_call33_v10 : StableHlo.TRef sig ⟨S7, .i1⟩) (.of main_call33_v11 : StableHlo.TRef sig ⟨S7, .i1⟩) andi,
    StableHlo.TRef.nullary (.of main_call33_c_0 : StableHlo.TRef sig ⟨S_, .i32⟩) (constantI S_ 32 1#32),
    StableHlo.TRef.unary (.of main_call33_c_0 : StableHlo.TRef sig ⟨S_, .i32⟩) (.of main_call33_v12 : StableHlo.TRef sig ⟨S7, .i32⟩) (broadcastInDim S7 ![] bcast_S_S7),
    StableHlo.TRef.binary (.of main_call33_v2 : StableHlo.TRef sig ⟨S7, .i32⟩) (.of main_call33_v12 : StableHlo.TRef sig ⟨S7, .i32⟩) (.of main_call33_v13 : StableHlo.TRef sig ⟨S7, .i32⟩) subi,
    StableHlo.TRef.ternary (.of main_call33_v11 : StableHlo.TRef sig ⟨S7, .i1⟩) (.of main_call33_v13 : StableHlo.TRef sig ⟨S7, .i32⟩) (.of main_call33_v2 : StableHlo.TRef sig ⟨S7, .i32⟩) (.of main_v420 : StableHlo.TRef sig ⟨S7, .i32⟩) select,
    StableHlo.unary main_v390 main_v421 (broadcastInDim S7 ![] bcast_S_S7 : (⟨S_, .i32⟩ : BufTy).Contents (Elt F) → (⟨S7, .i32⟩ : BufTy).Contents (Elt F)),
    StableHlo.binary main_v421 main_v420 main_v422 (subi : (⟨S7, .i32⟩ : BufTy).Contents (Elt F) → (⟨S7, .i32⟩ : BufTy).Contents (Elt F) → (⟨S7, .i32⟩ : BufTy).Contents (Elt F)),
    StableHlo.unary main_v407 main_v423 (broadcastInDim S7 ![] bcast_S_S7 : (⟨S_, .i32⟩ : BufTy).Contents (Elt F) → (⟨S7, .i32⟩ : BufTy).Contents (Elt F)),
    StableHlo.binary main_v409 main_v423 main_v424 (muli : (⟨S7, .i32⟩ : BufTy).Contents (Elt F) → (⟨S7, .i32⟩ : BufTy).Contents (Elt F) → (⟨S7, .i32⟩ : BufTy).Contents (Elt F)),
    StableHlo.nullary main_c_59 (constantI S_ 32 7#32),
    StableHlo.TRef.unary (.of main_c_59 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S7, .i32⟩) (broadcastInDim S7 ![] bcast_S_S7),
    StableHlo.TRef.binary (.of main_v424 : StableHlo.TRef sig ⟨S7, .i32⟩) (.of main_call34_v1 : StableHlo.TRef sig ⟨S7, .i32⟩) (.of main_call34_v2 : StableHlo.TRef sig ⟨S7, .i32⟩) Host.divsi,
    StableHlo.TRef.unary (.of main_v424 : StableHlo.TRef sig ⟨S7, .i32⟩) (.of main_call34_v3 : StableHlo.TRef sig ⟨S7, .i32⟩) signi,
    StableHlo.TRef.unary (.of main_call34_v0 : StableHlo.TRef sig ⟨S_, .i32⟩) (.of main_call34_v4 : StableHlo.TRef sig ⟨S_, .i32⟩) signi,
    StableHlo.TRef.unary (.of main_call34_v4 : StableHlo.TRef sig ⟨S_, .i32⟩) (.of main_call34_v5 : StableHlo.TRef sig ⟨S7, .i32⟩) (broadcastInDim S7 ![] bcast_S_S7),
    StableHlo.TRef.binary (.of main_call34_v3 : StableHlo.TRef sig ⟨S7, .i32⟩) (.of main_call34_v5 : StableHlo.TRef sig ⟨S7, .i32⟩) (.of main_call34_v6 : StableHlo.TRef sig ⟨S7, .i1⟩) (cmpi .ne),
    StableHlo.TRef.unary (.of main_call34_v0 : StableHlo.TRef sig ⟨S_, .i32⟩) (.of main_call34_v7 : StableHlo.TRef sig ⟨S7, .i32⟩) (broadcastInDim S7 ![] bcast_S_S7),
    StableHlo.TRef.binary (.of main_v424 : StableHlo.TRef sig ⟨S7, .i32⟩) (.of main_call34_v7 : StableHlo.TRef sig ⟨S7, .i32⟩) (.of main_call34_v8 : StableHlo.TRef sig ⟨S7, .i32⟩) Host.remsi,
    StableHlo.TRef.nullary (.of main_call34_c : StableHlo.TRef sig ⟨S_, .i32⟩) (constantI S_ 32 0#32),
    StableHlo.TRef.unary (.of main_call34_c : StableHlo.TRef sig ⟨S_, .i32⟩) (.of main_call34_v9 : StableHlo.TRef sig ⟨S7, .i32⟩) (broadcastInDim S7 ![] bcast_S_S7),
    StableHlo.TRef.binary (.of main_call34_v8 : StableHlo.TRef sig ⟨S7, .i32⟩) (.of main_call34_v9 : StableHlo.TRef sig ⟨S7, .i32⟩) (.of main_call34_v10 : StableHlo.TRef sig ⟨S7, .i1⟩) (cmpi .ne),
    StableHlo.TRef.binary (.of main_call34_v6 : StableHlo.TRef sig ⟨S7, .i1⟩) (.of main_call34_v10 : StableHlo.TRef sig ⟨S7, .i1⟩) (.of main_call34_v11 : StableHlo.TRef sig ⟨S7, .i1⟩) andi,
    StableHlo.TRef.nullary (.of main_call34_c_0 : StableHlo.TRef sig ⟨S_, .i32⟩) (constantI S_ 32 1#32),
    StableHlo.TRef.unary (.of main_call34_c_0 : StableHlo.TRef sig ⟨S_, .i32⟩) (.of main_call34_v12 : StableHlo.TRef sig ⟨S7, .i32⟩) (broadcastInDim S7 ![] bcast_S_S7),
    StableHlo.TRef.binary (.of main_call34_v2 : StableHlo.TRef sig ⟨S7, .i32⟩) (.of main_call34_v12 : StableHlo.TRef sig ⟨S7, .i32⟩) (.of main_call34_v13 : StableHlo.TRef sig ⟨S7, .i32⟩) subi,
    StableHlo.TRef.ternary (.of main_call34_v11 : StableHlo.TRef sig ⟨S7, .i1⟩) (.of main_call34_v13 : StableHlo.TRef sig ⟨S7, .i32⟩) (.of main_call34_v2 : StableHlo.TRef sig ⟨S7, .i32⟩) (.of main_v425 : StableHlo.TRef sig ⟨S7, .i32⟩) select,
    StableHlo.unary main_v400 main_v426 (broadcastInDim S7 ![] bcast_S_S7 : (⟨S_, .i32⟩ : BufTy).Contents (Elt F) → (⟨S7, .i32⟩ : BufTy).Contents (Elt F)),
    StableHlo.binary main_v426 main_v425 main_v427 (addi : (⟨S7, .i32⟩ : BufTy).Contents (Elt F) → (⟨S7, .i32⟩ : BufTy).Contents (Elt F) → (⟨S7, .i32⟩ : BufTy).Contents (Elt F)),
    StableHlo.nullary main_c_60 (constantI S_ 32 1#32),
    StableHlo.unary main_c_60 main_v428 (broadcastInDim S7 ![] bcast_S_S7 : (⟨S_, .i32⟩ : BufTy).Contents (Elt F) → (⟨S7, .i32⟩ : BufTy).Contents (Elt F)),
    StableHlo.binary main_v409 main_v428 main_v429 (addi : (⟨S7, .i32⟩ : BufTy).Contents (Elt F) → (⟨S7, .i32⟩ : BufTy).Contents (Elt F) → (⟨S7, .i32⟩ : BufTy).Contents (Elt F)),
    StableHlo.unary main_v429 main_v430 (negi : (⟨S7, .i32⟩ : BufTy).Contents (Elt F) → (⟨S7, .i32⟩ : BufTy).Contents (Elt F)),
    StableHlo.unary main_v407 main_v431 (broadcastInDim S7 ![] bcast_S_S7 : (⟨S_, .i32⟩ : BufTy).Contents (Elt F) → (⟨S7, .i32⟩ : BufTy).Contents (Elt F)),
    StableHlo.binary main_v430 main_v431 main_v432 (muli : (⟨S7, .i32⟩ : BufTy).Contents (Elt F) → (⟨S7, .i32⟩ : BufTy).Contents (Elt F) → (⟨S7, .i32⟩ : BufTy).Contents (Elt F)),
    StableHlo.nullary main_c_61 (constantI S_ 32 7#32) ]
/-- The buffers those operations write, in order. -/
abbrev ops18_W : List (Ref sig .tc) :=
  [main_call33_v0, main_call33_v1, main_call33_v2, main_call33_v3, main_call33_v4, main_call33_v5, main_call33_v6, main_call33_v7, main_call33_v8, main_call33_c, main_call33_v9, main_call33_v10, main_call33_v11, main_call33_c_0, main_call33_v12, main_call33_v13, main_v420, main_v421, main_v422, main_v423, main_v424, main_c_59, main_call34_v0, main_call34_v1, main_call34_v2, main_call34_v3, main_call34_v4, main_call34_v5, main_call34_v6, main_call34_v7, main_call34_v8, main_call34_c, main_call34_v9, main_call34_v10, main_call34_v11, main_call34_c_0, main_call34_v12, main_call34_v13, main_v425, main_v426, main_v427, main_c_60, main_v428, main_v429, main_v430, main_v431, main_v432, main_c_61]
/-- Each operation writes its own result buffer and nothing else. -/
theorem ops18_writes : (ops18 : List (HloOp τ sig (Elt F))).Forall fun op => op.writes ⊆ (ops18_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 895 to 953 of the host part, in order. -/
abbrev ops19 : List (HloOp τ sig (Elt F)) :=
  [ StableHlo.TRef.unary (.of main_c_61 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S7, .i32⟩) (broadcastInDim S7 ![] bcast_S_S7),
    StableHlo.TRef.binary (.of main_v432 : StableHlo.TRef sig ⟨S7, .i32⟩) (.of main_call35_v1 : StableHlo.TRef sig ⟨S7, .i32⟩) (.of main_call35_v2 : StableHlo.TRef sig ⟨S7, .i32⟩) Host.divsi,
    StableHlo.TRef.unary (.of main_v432 : StableHlo.TRef sig ⟨S7, .i32⟩) (.of main_call35_v3 : StableHlo.TRef sig ⟨S7, .i32⟩) signi,
    StableHlo.TRef.unary (.of main_call35_v0 : StableHlo.TRef sig ⟨S_, .i32⟩) (.of main_call35_v4 : StableHlo.TRef sig ⟨S_, .i32⟩) signi,
    StableHlo.TRef.unary (.of main_call35_v4 : StableHlo.TRef sig ⟨S_, .i32⟩) (.of main_call35_v5 : StableHlo.TRef sig ⟨S7, .i32⟩) (broadcastInDim S7 ![] bcast_S_S7),
    StableHlo.TRef.binary (.of main_call35_v3 : StableHlo.TRef sig ⟨S7, .i32⟩) (.of main_call35_v5 : StableHlo.TRef sig ⟨S7, .i32⟩) (.of main_call35_v6 : StableHlo.TRef sig ⟨S7, .i1⟩) (cmpi .ne),
    StableHlo.TRef.unary (.of main_call35_v0 : StableHlo.TRef sig ⟨S_, .i32⟩) (.of main_call35_v7 : StableHlo.TRef sig ⟨S7, .i32⟩) (broadcastInDim S7 ![] bcast_S_S7),
    StableHlo.TRef.binary (.of main_v432 : StableHlo.TRef sig ⟨S7, .i32⟩) (.of main_call35_v7 : StableHlo.TRef sig ⟨S7, .i32⟩) (.of main_call35_v8 : StableHlo.TRef sig ⟨S7, .i32⟩) Host.remsi,
    StableHlo.TRef.nullary (.of main_call35_c : StableHlo.TRef sig ⟨S_, .i32⟩) (constantI S_ 32 0#32),
    StableHlo.TRef.unary (.of main_call35_c : StableHlo.TRef sig ⟨S_, .i32⟩) (.of main_call35_v9 : StableHlo.TRef sig ⟨S7, .i32⟩) (broadcastInDim S7 ![] bcast_S_S7),
    StableHlo.TRef.binary (.of main_call35_v8 : StableHlo.TRef sig ⟨S7, .i32⟩) (.of main_call35_v9 : StableHlo.TRef sig ⟨S7, .i32⟩) (.of main_call35_v10 : StableHlo.TRef sig ⟨S7, .i1⟩) (cmpi .ne),
    StableHlo.TRef.binary (.of main_call35_v6 : StableHlo.TRef sig ⟨S7, .i1⟩) (.of main_call35_v10 : StableHlo.TRef sig ⟨S7, .i1⟩) (.of main_call35_v11 : StableHlo.TRef sig ⟨S7, .i1⟩) andi,
    StableHlo.TRef.nullary (.of main_call35_c_0 : StableHlo.TRef sig ⟨S_, .i32⟩) (constantI S_ 32 1#32),
    StableHlo.TRef.unary (.of main_call35_c_0 : StableHlo.TRef sig ⟨S_, .i32⟩) (.of main_call35_v12 : StableHlo.TRef sig ⟨S7, .i32⟩) (broadcastInDim S7 ![] bcast_S_S7),
    StableHlo.TRef.binary (.of main_call35_v2 : StableHlo.TRef sig ⟨S7, .i32⟩) (.of main_call35_v12 : StableHlo.TRef sig ⟨S7, .i32⟩) (.of main_call35_v13 : StableHlo.TRef sig ⟨S7, .i32⟩) subi,
    StableHlo.TRef.ternary (.of main_call35_v11 : StableHlo.TRef sig ⟨S7, .i1⟩) (.of main_call35_v13 : StableHlo.TRef sig ⟨S7, .i32⟩) (.of main_call35_v2 : StableHlo.TRef sig ⟨S7, .i32⟩) (.of main_v433 : StableHlo.TRef sig ⟨S7, .i32⟩) select,
    StableHlo.unary main_v400 main_v434 (broadcastInDim S7 ![] bcast_S_S7 : (⟨S_, .i32⟩ : BufTy).Contents (Elt F) → (⟨S7, .i32⟩ : BufTy).Contents (Elt F)),
    StableHlo.binary main_v434 main_v433 main_v435 (subi : (⟨S7, .i32⟩ : BufTy).Contents (Elt F) → (⟨S7, .i32⟩ : BufTy).Contents (Elt F) → (⟨S7, .i32⟩ : BufTy).Contents (Elt F)),
    StableHlo.nullary main_v436 (iotaInDim S64 32 0),
    StableHlo.nullary main_v437 (iotaInDim S64 32 0),
    StableHlo.unary main_v436 main_v438 (broadcastInDim S1x64 ![1] bcast_S64_S1x64_1 : (⟨S64, .i32⟩ : BufTy).Contents (Elt F) → (⟨S1x64, .i32⟩ : BufTy).Contents (Elt F)),
    StableHlo.unary main_v414 main_v439 (broadcastInDim S7x1 ![0] bcast_S7_S7x1_0 : (⟨S7, .i32⟩ : BufTy).Contents (Elt F) → (⟨S7x1, .i32⟩ : BufTy).Contents (Elt F)),
    StableHlo.unary main_v438 main_v440 (broadcastInDim S7x64 ![0, 1] bcast_S1x64_S7x64_0_1 : (⟨S1x64, .i32⟩ : BufTy).Contents (Elt F) → (⟨S7x64, .i32⟩ : BufTy).Contents (Elt F)),
    StableHlo.unary main_v439 main_v441 (broadcastInDim S7x64 ![0, 1] bcast_S7x1_S7x64_0_1 : (⟨S7x1, .i32⟩ : BufTy).Contents (Elt F) → (⟨S7x64, .i32⟩ : BufTy).Contents (Elt F)),
    StableHlo.binary main_v440 main_v441 main_v442 (cmpi .sge : (⟨S7x64, .i32⟩ : BufTy).Contents (Elt F) → (⟨S7x64, .i32⟩ : BufTy).Contents (Elt F) → (⟨S7x64, .i1⟩ : BufTy).Contents (Elt F)),
    StableHlo.unary main_v436 main_v443 (broadcastInDim S1x64 ![1] bcast_S64_S1x64_1 : (⟨S64, .i32⟩ : BufTy).Contents (Elt F) → (⟨S1x64, .i32⟩ : BufTy).Contents (Elt F)),
    StableHlo.unary main_v422 main_v444 (broadcastInDim S7x1 ![0] bcast_S7_S7x1_0 : (⟨S7, .i32⟩ : BufTy).Contents (Elt F) → (⟨S7x1, .i32⟩ : BufTy).Contents (Elt F)),
    StableHlo.unary main_v443 main_v445 (broadcastInDim S7x64 ![0, 1] bcast_S1x64_S7x64_0_1 : (⟨S1x64, .i32⟩ : BufTy).Contents (Elt F) → (⟨S7x64, .i32⟩ : BufTy).Contents (Elt F)),
    StableHlo.unary main_v444 main_v446 (broadcastInDim S7x64 ![0, 1] bcast_S7x1_S7x64_0_1 : (⟨S7x1, .i32⟩ : BufTy).Contents (Elt F) → (⟨S7x64, .i32⟩ : BufTy).Contents (Elt F)),
    StableHlo.binary main_v445 main_v446 main_v447 (cmpi .slt : (⟨S7x64, .i32⟩ : BufTy).Contents (Elt F) → (⟨S7x64, .i32⟩ : BufTy).Contents (Elt F) → (⟨S7x64, .i1⟩ : BufTy).Contents (Elt F)),
    StableHlo.binary main_v442 main_v447 main_v448 (andi : (⟨S7x64, .i1⟩ : BufTy).Contents (Elt F) → (⟨S7x64, .i1⟩ : BufTy).Contents (Elt F) → (⟨S7x64, .i1⟩ : BufTy).Contents (Elt F)),
    StableHlo.unary main_v437 main_v449 (broadcastInDim S1x64 ![1] bcast_S64_S1x64_1 : (⟨S64, .i32⟩ : BufTy).Contents (Elt F) → (⟨S1x64, .i32⟩ : BufTy).Contents (Elt F)),
    StableHlo.unary main_v427 main_v450 (broadcastInDim S7x1 ![0] bcast_S7_S7x1_0 : (⟨S7, .i32⟩ : BufTy).Contents (Elt F) → (⟨S7x1, .i32⟩ : BufTy).Contents (Elt F)),
    StableHlo.unary main_v449 main_v451 (broadcastInDim S7x64 ![0, 1] bcast_S1x64_S7x64_0_1 : (⟨S1x64, .i32⟩ : BufTy).Contents (Elt F) → (⟨S7x64, .i32⟩ : BufTy).Contents (Elt F)),
    StableHlo.unary main_v450 main_v452 (broadcastInDim S7x64 ![0, 1] bcast_S7x1_S7x64_0_1 : (⟨S7x1, .i32⟩ : BufTy).Contents (Elt F) → (⟨S7x64, .i32⟩ : BufTy).Contents (Elt F)),
    StableHlo.binary main_v451 main_v452 main_v453 (cmpi .sge : (⟨S7x64, .i32⟩ : BufTy).Contents (Elt F) → (⟨S7x64, .i32⟩ : BufTy).Contents (Elt F) → (⟨S7x64, .i1⟩ : BufTy).Contents (Elt F)),
    StableHlo.unary main_v437 main_v454 (broadcastInDim S1x64 ![1] bcast_S64_S1x64_1 : (⟨S64, .i32⟩ : BufTy).Contents (Elt F) → (⟨S1x64, .i32⟩ : BufTy).Contents (Elt F)),
    StableHlo.unary main_v435 main_v455 (broadcastInDim S7x1 ![0] bcast_S7_S7x1_0 : (⟨S7, .i32⟩ : BufTy).Contents (Elt F) → (⟨S7x1, .i32⟩ : BufTy).Contents (Elt F)),
    StableHlo.unary main_v454 main_v456 (broadcastInDim S7x64 ![0, 1] bcast_S1x64_S7x64_0_1 : (⟨S1x64, .i32⟩ : BufTy).Contents (Elt F) → (⟨S7x64, .i32⟩ : BufTy).Contents (Elt F)),
    StableHlo.unary main_v455 main_v457 (broadcastInDim S7x64 ![0, 1] bcast_S7x1_S7x64_0_1 : (⟨S7x1, .i32⟩ : BufTy).Contents (Elt F) → (⟨S7x64, .i32⟩ : BufTy).Contents (Elt F)),
    StableHlo.binary main_v456 main_v457 main_v458 (cmpi .slt : (⟨S7x64, .i32⟩ : BufTy).Contents (Elt F) → (⟨S7x64, .i32⟩ : BufTy).Contents (Elt F) → (⟨S7x64, .i1⟩ : BufTy).Contents (Elt F)),
    StableHlo.binary main_v453 main_v458 main_v459 (andi : (⟨S7x64, .i1⟩ : BufTy).Contents (Elt F) → (⟨S7x64, .i1⟩ : BufTy).Contents (Elt F) → (⟨S7x64, .i1⟩ : BufTy).Contents (Elt F)),
    StableHlo.unary main_v448 main_v460 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v461 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_62 (constant S_ .f32 0xFF800000#32),
    StableHlo.TRef.unary (.of main_v460 : StableHlo.TRef sig ⟨S7x1x64x1, .i1⟩) (.of main_call36_v0 : StableHlo.TRef sig ⟨S7x512x64x64, .i1⟩) (broadcastInDim S7x512x64x64 ![0, 1, 2, 3] bcast_S7x1x64x1_S7x512x64x64_0_1_2_3),
    StableHlo.TRef.unary (.of main_v461 : StableHlo.TRef sig ⟨S1x512x64x64, .f32⟩) (.of main_call36_v1 : StableHlo.TRef sig ⟨S7x512x64x64, .f32⟩) (broadcastInDim S7x512x64x64 ![0, 1, 2, 3] bcast_S1x512x64x64_S7x512x64x64_0_1_2_3),
    StableHlo.TRef.unary (.of main_cst_62 : StableHlo.TRef sig ⟨S_, .f32⟩) (.of main_call36_v2 : StableHlo.TRef sig ⟨S7x512x64x64, .f32⟩) (broadcastInDim S7x512x64x64 ![] bcast_S_S7x512x64x64),
    StableHlo.TRef.ternary (.of main_call36_v0 : StableHlo.TRef sig ⟨S7x512x64x64, .i1⟩) (.of main_call36_v1 : StableHlo.TRef sig ⟨S7x512x64x64, .f32⟩) (.of main_call36_v2 : StableHlo.TRef sig ⟨S7x512x64x64, .f32⟩) (.of main_v462 : StableHlo.TRef sig ⟨S7x512x64x64, .f32⟩) select,
    StableHlo.nullary main_cst_63 (constant S_ .f32 0xFF800000#32),
    StableHlo.binary main_v462 main_cst_63 main_v463 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v459 main_v464 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v463 main_v465 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_64 (constant S_ .f32 0xFF800000#32),
    StableHlo.TRef.unary (.of main_v464 : StableHlo.TRef sig ⟨S1x1x7x64, .i1⟩) (.of main_call37_v0 : StableHlo.TRef sig ⟨S7x512x7x64, .i1⟩) (broadcastInDim S7x512x7x64 ![0, 1, 2, 3] bcast_S1x1x7x64_S7x512x7x64_0_1_2_3),
    StableHlo.TRef.unary (.of main_v465 : StableHlo.TRef sig ⟨S7x512x1x64, .f32⟩) (.of main_call37_v1 : StableHlo.TRef sig ⟨S7x512x7x64, .f32⟩) (broadcastInDim S7x512x7x64 ![0, 1, 2, 3] bcast_S7x512x1x64_S7x512x7x64_0_1_2_3),
    StableHlo.TRef.unary (.of main_cst_64 : StableHlo.TRef sig ⟨S_, .f32⟩) (.of main_call37_v2 : StableHlo.TRef sig ⟨S7x512x7x64, .f32⟩) (broadcastInDim S7x512x7x64 ![] bcast_S_S7x512x7x64),
    StableHlo.TRef.ternary (.of main_call37_v0 : StableHlo.TRef sig ⟨S7x512x7x64, .i1⟩) (.of main_call37_v1 : StableHlo.TRef sig ⟨S7x512x7x64, .f32⟩) (.of main_call37_v2 : StableHlo.TRef sig ⟨S7x512x7x64, .f32⟩) (.of main_v466 : StableHlo.TRef sig ⟨S7x512x7x64, .f32⟩) select ]
/-- The buffers those operations write, in order. -/
abbrev ops19_W : List (Ref sig .tc) :=
  [main_call35_v0, main_call35_v1, main_call35_v2, main_call35_v3, main_call35_v4, main_call35_v5, main_call35_v6, main_call35_v7, main_call35_v8, main_call35_c, main_call35_v9, main_call35_v10, main_call35_v11, main_call35_c_0, main_call35_v12, main_call35_v13, main_v433, main_v434, main_v435, main_v436, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_cst_62, main_call36_v0, main_call36_v1, main_call36_v2, main_v462, main_cst_63, main_v463, main_v464, main_v465, main_cst_64, main_call37_v0, main_call37_v1, main_call37_v2, main_v466]
/-- Each operation writes its own result buffer and nothing else. -/
theorem ops19_writes : (ops19 : List (HloOp τ sig (Elt F))).Forall fun op => op.writes ⊆ (ops19_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part2 : List (HloOp τ sig (Elt F)) :=
  ops14 ++ ops15 ++ ops16 ++ ops17 ++ ops18 ++ ops19
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 14 (operations 626 to 682): agreement on the 7 buffers live before it gives agreement on the 14 live after it. -/
theorem step14
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v298) = WR (Proc.devRef .tc Cert.ReferenceIdeal.main_v298)) :
    (after (Cert.KernelIdeal.Agree.ops14 (F := F)) WK) (Proc.devRef .tc Cert.KernelIdeal.main_v0) = (after (Cert.ReferenceIdeal.Agree.ops14 (F := F)) WR) (Proc.devRef .tc Cert.ReferenceIdeal.main_v0)
      ∧ (after (Cert.KernelIdeal.Agree.ops14 (F := F)) WK) (Proc.devRef .tc Cert.KernelIdeal.main_v18) = (after (Cert.ReferenceIdeal.Agree.ops14 (F := F)) WR) (Proc.devRef .tc Cert.ReferenceIdeal.main_v18)
      ∧ (after (Cert.KernelIdeal.Agree.ops14 (F := F)) WK) (Proc.devRef .tc Cert.KernelIdeal.main_v23) = (after (Cert.ReferenceIdeal.Agree.ops14 (F := F)) WR) (Proc.devRef .tc Cert.ReferenceIdeal.main_v23)
      ∧ (after (Cert.KernelIdeal.Agree.ops14 (F := F)) WK) (Proc.devRef .tc Cert.KernelIdeal.main_v85) = (after (Cert.ReferenceIdeal.Agree.ops14 (F := F)) WR) (Proc.devRef .tc Cert.ReferenceIdeal.main_v85)
      ∧ (after (Cert.KernelIdeal.Agree.ops14 (F := F)) WK) (Proc.devRef .tc Cert.KernelIdeal.main_v157) = (after (Cert.ReferenceIdeal.Agree.ops14 (F := F)) WR) (Proc.devRef .tc Cert.ReferenceIdeal.main_v157)
      ∧ (after (Cert.KernelIdeal.Agree.ops14 (F := F)) WK) (Proc.devRef .tc Cert.KernelIdeal.main_v229) = (after (Cert.ReferenceIdeal.Agree.ops14 (F := F)) WR) (Proc.devRef .tc Cert.ReferenceIdeal.main_v229)
      ∧ (after (Cert.KernelIdeal.Agree.ops14 (F := F)) WK) (Proc.devRef .tc Cert.KernelIdeal.main_v301) = (after (Cert.ReferenceIdeal.Agree.ops14 (F := F)) WR) (Proc.devRef .tc Cert.ReferenceIdeal.main_v301)
      ∧ (after (Cert.KernelIdeal.Agree.ops14 (F := F)) WK) (Proc.devRef .tc Cert.KernelIdeal.main_v306) = (after (Cert.ReferenceIdeal.Agree.ops14 (F := F)) WR) (Proc.devRef .tc Cert.ReferenceIdeal.main_v306)
      ∧ (after (Cert.KernelIdeal.Agree.ops14 (F := F)) WK) (Proc.devRef .tc Cert.KernelIdeal.main_v316) = (after (Cert.ReferenceIdeal.Agree.ops14 (F := F)) WR) (Proc.devRef .tc Cert.ReferenceIdeal.main_v316)
      ∧ (after (Cert.KernelIdeal.Agree.ops14 (F := F)) WK) (Proc.devRef .tc Cert.KernelIdeal.main_v323) = (after (Cert.ReferenceIdeal.Agree.ops14 (F := F)) WR) (Proc.devRef .tc Cert.ReferenceIdeal.main_v323)
      ∧ (after (Cert.KernelIdeal.Agree.ops14 (F := F)) WK) (Proc.devRef .tc Cert.KernelIdeal.main_v325) = (after (Cert.ReferenceIdeal.Agree.ops14 (F := F)) WR) (Proc.devRef .tc Cert.ReferenceIdeal.main_v325)
      ∧ (after (Cert.KernelIdeal.Agree.ops14 (F := F)) WK) (Proc.devRef .tc Cert.KernelIdeal.main_v330) = (after (Cert.ReferenceIdeal.Agree.ops14 (F := F)) WR) (Proc.devRef .tc Cert.ReferenceIdeal.main_v330)
      ∧ (after (Cert.KernelIdeal.Agree.ops14 (F := F)) WK) (Proc.devRef .tc Cert.KernelIdeal.main_v335) = (after (Cert.ReferenceIdeal.Agree.ops14 (F := F)) WR) (Proc.devRef .tc Cert.ReferenceIdeal.main_v335)
      ∧ (after (Cert.KernelIdeal.Agree.ops14 (F := F)) WK) (Proc.devRef .tc Cert.KernelIdeal.main_c_48) = (after (Cert.ReferenceIdeal.Agree.ops14 (F := F)) WR) (Proc.devRef .tc Cert.ReferenceIdeal.main_c_48) := by
  obtain ⟨h_v0, h_v18, h_v23, h_v85, h_v157, h_v229, h_v298⟩ := h
  refine ⟨?_, ?_, ?_, ?_, ?_, ?_, ?_, ?_, ?_, ?_, ?_, ?_, ?_, ?_⟩
  · exact (after_of_writes_sub _ WK Cert.KernelIdeal.Agree.ops14_writes (by decide)).trans (h_v0.trans (after_of_writes_sub _ WR Cert.ReferenceIdeal.Agree.ops14_writes (by decide)).symm)
  · exact (after_of_writes_sub _ WK Cert.KernelIdeal.Agree.ops14_writes (by decide)).trans (h_v18.trans (after_of_writes_sub _ WR Cert.ReferenceIdeal.Agree.ops14_writes (by decide)).symm)
  · exact (after_of_writes_sub _ WK Cert.KernelIdeal.Agree.ops14_writes (by decide)).trans (h_v23.trans (after_of_writes_sub _ WR Cert.ReferenceIdeal.Agree.ops14_writes (by decide)).symm)
  · exact (after_of_writes_sub _ WK Cert.KernelIdeal.Agree.ops14_writes (by decide)).trans (h_v85.trans (after_of_writes_sub _ WR Cert.ReferenceIdeal.Agree.ops14_writes (by decide)).symm)
  · exact (after_of_writes_sub _ WK Cert.KernelIdeal.Agree.ops14_writes (by decide)).trans (h_v157.trans (after_of_writes_sub _ WR Cert.ReferenceIdeal.Agree.ops14_writes (by decide)).symm)
  · exact (after_of_writes_sub _ WK Cert.KernelIdeal.Agree.ops14_writes (by decide)).trans (h_v229.trans (after_of_writes_sub _ WR Cert.ReferenceIdeal.Agree.ops14_writes (by decide)).symm)
  · run_agrees [h_v298]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 15 (operations 683 to 730): agreement on the 14 buffers live before it gives agreement on the 13 live after it. -/
theorem step15
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v306) = WR (Proc.devRef .tc Cert.ReferenceIdeal.main_v306)
      ∧ WK (Proc.devRef .tc Cert.KernelIdeal.main_v316) = WR (Proc.devRef .tc Cert.ReferenceIdeal.main_v316)
      ∧ WK (Proc.devRef .tc Cert.KernelIdeal.main_v323) = WR (Proc.devRef .tc Cert.ReferenceIdeal.main_v323)
      ∧ WK (Proc.devRef .tc Cert.KernelIdeal.main_v325) = WR (Proc.devRef .tc Cert.ReferenceIdeal.main_v325)
      ∧ WK (Proc.devRef .tc Cert.KernelIdeal.main_v330) = WR (Proc.devRef .tc Cert.ReferenceIdeal.main_v330)
      ∧ WK (Proc.devRef .tc Cert.KernelIdeal.main_v335) = WR (Proc.devRef .tc Cert.ReferenceIdeal.main_v335)
      ∧ WK (Proc.devRef .tc Cert.KernelIdeal.main_c_48) = WR (Proc.devRef .tc Cert.ReferenceIdeal.main_c_48)) :
    (after (Cert.KernelIdeal.Agree.ops15 (F := F)) WK) (Proc.devRef .tc Cert.KernelIdeal.main_v0) = (after (Cert.ReferenceIdeal.Agree.ops15 (F := F)) WR) (Proc.devRef .tc Cert.ReferenceIdeal.main_v0)
      ∧ (after (Cert.KernelIdeal.Agree.ops15 (F := F)) WK) (Proc.devRef .tc Cert.KernelIdeal.main_v18) = (after (Cert.ReferenceIdeal.Agree.ops15 (F := F)) WR) (Proc.devRef .tc Cert.ReferenceIdeal.main_v18)
      ∧ (after (Cert.KernelIdeal.Agree.ops15 (F := F)) WK) (Proc.devRef .tc Cert.KernelIdeal.main_v23) = (after (Cert.ReferenceIdeal.Agree.ops15 (F := F)) WR) (Proc.devRef .tc Cert.ReferenceIdeal.main_v23)
      ∧ (after (Cert.KernelIdeal.Agree.ops15 (F := F)) WK) (Proc.devRef .tc Cert.KernelIdeal.main_v85) = (after (Cert.ReferenceIdeal.Agree.ops15 (F := F)) WR) (Proc.devRef .tc Cert.ReferenceIdeal.main_v85)
      ∧ (after (Cert.KernelIdeal.Agree.ops15 (F := F)) WK) (Proc.devRef .tc Cert.KernelIdeal.main_v157) = (after (Cert.ReferenceIdeal.Agree.ops15 (F := F)) WR) (Proc.devRef .tc Cert.ReferenceIdeal.main_v157)
      ∧ (after (Cert.KernelIdeal.Agree.ops15 (F := F)) WK) (Proc.devRef .tc Cert.KernelIdeal.main_v229) = (after (Cert.ReferenceIdeal.Agree.ops15 (F := F)) WR) (Proc.devRef .tc Cert.ReferenceIdeal.main_v229)
      ∧ (after (Cert.KernelIdeal.Agree.ops15 (F := F)) WK) (Proc.devRef .tc Cert.KernelIdeal.main_v301) = (after (Cert.ReferenceIdeal.Agree.ops15 (F := F)) WR) (Proc.devRef .tc Cert.ReferenceIdeal.main_v301)
      ∧ (after (Cert.KernelIdeal.Agree.ops15 (F := F)) WK) (Proc.devRef .tc Cert.KernelIdeal.main_v316) = (after (Cert.ReferenceIdeal.Agree.ops15 (F := F)) WR) (Proc.devRef .tc Cert.ReferenceIdeal.main_v316)
      ∧ (after (Cert.KernelIdeal.Agree.ops15 (F := F)) WK) (Proc.devRef .tc Cert.KernelIdeal.main_v330) = (after (Cert.ReferenceIdeal.Agree.ops15 (F := F)) WR) (Proc.devRef .tc Cert.ReferenceIdeal.main_v330)
      ∧ (after (Cert.KernelIdeal.Agree.ops15 (F := F)) WK) (Proc.devRef .tc Cert.KernelIdeal.main_v338) = (after (Cert.ReferenceIdeal.Agree.ops15 (F := F)) WR) (Proc.devRef .tc Cert.ReferenceIdeal.main_v338)
      ∧ (after (Cert.KernelIdeal.Agree.ops15 (F := F)) WK) (Proc.devRef .tc Cert.KernelIdeal.main_v343) = (after (Cert.ReferenceIdeal.Agree.ops15 (F := F)) WR) (Proc.devRef .tc Cert.ReferenceIdeal.main_v343)
      ∧ (after (Cert.KernelIdeal.Agree.ops15 (F := F)) WK) (Proc.devRef .tc Cert.KernelIdeal.main_v348) = (after (Cert.ReferenceIdeal.Agree.ops15 (F := F)) WR) (Proc.devRef .tc Cert.ReferenceIdeal.main_v348)
      ∧ (after (Cert.KernelIdeal.Agree.ops15 (F := F)) WK) (Proc.devRef .tc Cert.KernelIdeal.main_c_51) = (after (Cert.ReferenceIdeal.Agree.ops15 (F := F)) WR) (Proc.devRef .tc Cert.ReferenceIdeal.main_c_51) := by
  obtain ⟨h_v0, h_v18, h_v23, h_v85, h_v157, h_v229, h_v301, h_v306, h_v316, h_v323, h_v325, h_v330, h_v335, h_c_48⟩ := h
  refine ⟨?_, ?_, ?_, ?_, ?_, ?_, ?_, ?_, ?_, ?_, ?_, ?_, ?_⟩
  · exact (after_of_writes_sub _ WK Cert.KernelIdeal.Agree.ops15_writes (by decide)).trans (h_v0.trans (after_of_writes_sub _ WR Cert.ReferenceIdeal.Agree.ops15_writes (by decide)).symm)
  · exact (after_of_writes_sub _ WK Cert.KernelIdeal.Agree.ops15_writes (by decide)).trans (h_v18.trans (after_of_writes_sub _ WR Cert.ReferenceIdeal.Agree.ops15_writes (by decide)).symm)
  · exact (after_of_writes_sub _ WK Cert.KernelIdeal.Agree.ops15_writes (by decide)).trans (h_v23.trans (after_of_writes_sub _ WR Cert.ReferenceIdeal.Agree.ops15_writes (by decide)).symm)
  · exact (after_of_writes_sub _ WK Cert.KernelIdeal.Agree.ops15_writes (by decide)).trans (h_v85.trans (after_of_writes_sub _ WR Cert.ReferenceIdeal.Agree.ops15_writes (by decide)).symm)
  · exact (after_of_writes_sub _ WK Cert.KernelIdeal.Agree.ops15_writes (by decide)).trans (h_v157.trans (after_of_writes_sub _ WR Cert.ReferenceIdeal.Agree.ops15_writes (by decide)).symm)
  · exact (after_of_writes_sub _ WK Cert.KernelIdeal.Agree.ops15_writes (by decide)).trans (h_v229.trans (after_of_writes_sub _ WR Cert.ReferenceIdeal.Agree.ops15_writes (by decide)).symm)
  · exact (after_of_writes_sub _ WK Cert.KernelIdeal.Agree.ops15_writes (by decide)).trans (h_v301.trans (after_of_writes_sub _ WR Cert.ReferenceIdeal.Agree.ops15_writes (by decide)).symm)
  · exact (after_of_writes_sub _ WK Cert.KernelIdeal.Agree.ops15_writes (by decide)).trans (h_v316.trans (after_of_writes_sub _ WR Cert.ReferenceIdeal.Agree.ops15_writes (by decide)).symm)
  · exact (after_of_writes_sub _ WK Cert.KernelIdeal.Agree.ops15_writes (by decide)).trans (h_v330.trans (after_of_writes_sub _ WR Cert.ReferenceIdeal.Agree.ops15_writes (by decide)).symm)
  · run_agrees [h_v306, h_v335, h_c_48]
  · run_agrees [h_v316, h_v323, h_v325]
  · run_agrees [h_v323, h_v325]
  · after_results_simp; first | done | rfl

set_option maxHeartbeats 800000 in
/-- Run 16 (operations 731 to 789): agreement on the 13 buffers live before it gives agreement on the 8 live after it. -/
theorem step16
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v316) = WR (Proc.devRef .tc Cert.ReferenceIdeal.main_v316)
      ∧ WK (Proc.devRef .tc Cert.KernelIdeal.main_v330) = WR (Proc.devRef .tc Cert.ReferenceIdeal.main_v330)
      ∧ WK (Proc.devRef .tc Cert.KernelIdeal.main_v338) = WR (Proc.devRef .tc Cert.ReferenceIdeal.main_v338)
      ∧ WK (Proc.devRef .tc Cert.KernelIdeal.main_v343) = WR (Proc.devRef .tc Cert.ReferenceIdeal.main_v343)
      ∧ WK (Proc.devRef .tc Cert.KernelIdeal.main_v348) = WR (Proc.devRef .tc Cert.ReferenceIdeal.main_v348)
      ∧ WK (Proc.devRef .tc Cert.KernelIdeal.main_c_51) = WR (Proc.devRef .tc Cert.ReferenceIdeal.main_c_51)) :
    (after (Cert.KernelIdeal.Agree.ops16 (F := F)) WK) (Proc.devRef .tc Cert.KernelIdeal.main_v0) = (after (Cert.ReferenceIdeal.Agree.ops16 (F := F)) WR) (Proc.devRef .tc Cert.ReferenceIdeal.main_v0)
      ∧ (after (Cert.KernelIdeal.Agree.ops16 (F := F)) WK) (Proc.devRef .tc Cert.KernelIdeal.main_v18) = (after (Cert.ReferenceIdeal.Agree.ops16 (F := F)) WR) (Proc.devRef .tc Cert.ReferenceIdeal.main_v18)
      ∧ (after (Cert.KernelIdeal.Agree.ops16 (F := F)) WK) (Proc.devRef .tc Cert.KernelIdeal.main_v23) = (after (Cert.ReferenceIdeal.Agree.ops16 (F := F)) WR) (Proc.devRef .tc Cert.ReferenceIdeal.main_v23)
      ∧ (after (Cert.KernelIdeal.Agree.ops16 (F := F)) WK) (Proc.devRef .tc Cert.KernelIdeal.main_v85) = (after (Cert.ReferenceIdeal.Agree.ops16 (F := F)) WR) (Proc.devRef .tc Cert.ReferenceIdeal.main_v85)
      ∧ (after (Cert.KernelIdeal.Agree.ops16 (F := F)) WK) (Proc.devRef .tc Cert.KernelIdeal.main_v157) = (after (Cert.ReferenceIdeal.Agree.ops16 (F := F)) WR) (Proc.devRef .tc Cert.ReferenceIdeal.main_v157)
      ∧ (after (Cert.KernelIdeal.Agree.ops16 (F := F)) WK) (Proc.devRef .tc Cert.KernelIdeal.main_v229) = (after (Cert.ReferenceIdeal.Agree.ops16 (F := F)) WR) (Proc.devRef .tc Cert.ReferenceIdeal.main_v229)
      ∧ (after (Cert.KernelIdeal.Agree.ops16 (F := F)) WK) (Proc.devRef .tc Cert.KernelIdeal.main_v301) = (after (Cert.ReferenceIdeal.Agree.ops16 (F := F)) WR) (Proc.devRef .tc Cert.ReferenceIdeal.main_v301)
      ∧ (after (Cert.KernelIdeal.Agree.ops16 (F := F)) WK) (Proc.devRef .tc Cert.KernelIdeal.main_v382) = (after (Cert.ReferenceIdeal.Agree.ops16 (F := F)) WR) (Proc.devRef .tc Cert.ReferenceIdeal.main_v382) := by
  obtain ⟨h_v0, h_v18, h_v23, h_v85, h_v157, h_v229, h_v301, h_v316, h_v330, h_v338, h_v343, h_v348, h_c_51⟩ := h
  refine ⟨?_, ?_, ?_, ?_, ?_, ?_, ?_, ?_⟩
  · exact (after_of_writes_sub _ WK Cert.KernelIdeal.Agree.ops16_writes (by decide)).trans (h_v0.trans (after_of_writes_sub _ WR Cert.ReferenceIdeal.Agree.ops16_writes (by decide)).symm)
  · exact (after_of_writes_sub _ WK Cert.KernelIdeal.Agree.ops16_writes (by decide)).trans (h_v18.trans (after_of_writes_sub _ WR Cert.ReferenceIdeal.Agree.ops16_writes (by decide)).symm)
  · exact (after_of_writes_sub _ WK Cert.KernelIdeal.Agree.ops16_writes (by decide)).trans (h_v23.trans (after_of_writes_sub _ WR Cert.ReferenceIdeal.Agree.ops16_writes (by decide)).symm)
  · exact (after_of_writes_sub _ WK Cert.KernelIdeal.Agree.ops16_writes (by decide)).trans (h_v85.trans (after_of_writes_sub _ WR Cert.ReferenceIdeal.Agree.ops16_writes (by decide)).symm)
  · exact (after_of_writes_sub _ WK Cert.KernelIdeal.Agree.ops16_writes (by decide)).trans (h_v157.trans (after_of_writes_sub _ WR Cert.ReferenceIdeal.Agree.ops16_writes (by decide)).symm)
  · exact (after_of_writes_sub _ WK Cert.KernelIdeal.Agree.ops16_writes (by decide)).trans (h_v229.trans (after_of_writes_sub _ WR Cert.ReferenceIdeal.Agree.ops16_writes (by decide)).symm)
  · exact (after_of_writes_sub _ WK Cert.KernelIdeal.Agree.ops16_writes (by decide)).trans (h_v301.trans (after_of_writes_sub _ WR Cert.ReferenceIdeal.Agree.ops16_writes (by decide)).symm)
  · run_agrees [h_v0, h_v316, h_v330, h_v338, h_v343, h_v348, h_c_51]

set_option maxHeartbeats 800000 in
/-- Run 17 (operations 790 to 846): agreement on the 8 buffers live before it gives agreement on the 15 live after it. -/
theorem step17
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v382) = WR (Proc.devRef .tc Cert.ReferenceIdeal.main_v382)) :
    (after (Cert.KernelIdeal.Agree.ops17 (F := F)) WK) (Proc.devRef .tc Cert.KernelIdeal.main_v0) = (after (Cert.ReferenceIdeal.Agree.ops17 (F := F)) WR) (Proc.devRef .tc Cert.ReferenceIdeal.main_v0)
      ∧ (after (Cert.KernelIdeal.Agree.ops17 (F := F)) WK) (Proc.devRef .tc Cert.KernelIdeal.main_v18) = (after (Cert.ReferenceIdeal.Agree.ops17 (F := F)) WR) (Proc.devRef .tc Cert.ReferenceIdeal.main_v18)
      ∧ (after (Cert.KernelIdeal.Agree.ops17 (F := F)) WK) (Proc.devRef .tc Cert.KernelIdeal.main_v23) = (after (Cert.ReferenceIdeal.Agree.ops17 (F := F)) WR) (Proc.devRef .tc Cert.ReferenceIdeal.main_v23)
      ∧ (after (Cert.KernelIdeal.Agree.ops17 (F := F)) WK) (Proc.devRef .tc Cert.KernelIdeal.main_v85) = (after (Cert.ReferenceIdeal.Agree.ops17 (F := F)) WR) (Proc.devRef .tc Cert.ReferenceIdeal.main_v85)
      ∧ (after (Cert.KernelIdeal.Agree.ops17 (F := F)) WK) (Proc.devRef .tc Cert.KernelIdeal.main_v157) = (after (Cert.ReferenceIdeal.Agree.ops17 (F := F)) WR) (Proc.devRef .tc Cert.ReferenceIdeal.main_v157)
      ∧ (after (Cert.KernelIdeal.Agree.ops17 (F := F)) WK) (Proc.devRef .tc Cert.KernelIdeal.main_v229) = (after (Cert.ReferenceIdeal.Agree.ops17 (F := F)) WR) (Proc.devRef .tc Cert.ReferenceIdeal.main_v229)
      ∧ (after (Cert.KernelIdeal.Agree.ops17 (F := F)) WK) (Proc.devRef .tc Cert.KernelIdeal.main_v301) = (after (Cert.ReferenceIdeal.Agree.ops17 (F := F)) WR) (Proc.devRef .tc Cert.ReferenceIdeal.main_v301)
      ∧ (after (Cert.KernelIdeal.Agree.ops17 (F := F)) WK) (Proc.devRef .tc Cert.KernelIdeal.main_v385) = (after (Cert.ReferenceIdeal.Agree.ops17 (F := F)) WR) (Proc.devRef .tc Cert.ReferenceIdeal.main_v385)
      ∧ (after (Cert.KernelIdeal.Agree.ops17 (F := F)) WK) (Proc.devRef .tc Cert.KernelIdeal.main_v390) = (after (Cert.ReferenceIdeal.Agree.ops17 (F := F)) WR) (Proc.devRef .tc Cert.ReferenceIdeal.main_v390)
      ∧ (after (Cert.KernelIdeal.Agree.ops17 (F := F)) WK) (Proc.devRef .tc Cert.KernelIdeal.main_v400) = (after (Cert.ReferenceIdeal.Agree.ops17 (F := F)) WR) (Proc.devRef .tc Cert.ReferenceIdeal.main_v400)
      ∧ (after (Cert.KernelIdeal.Agree.ops17 (F := F)) WK) (Proc.devRef .tc Cert.KernelIdeal.main_v407) = (after (Cert.ReferenceIdeal.Agree.ops17 (F := F)) WR) (Proc.devRef .tc Cert.ReferenceIdeal.main_v407)
      ∧ (after (Cert.KernelIdeal.Agree.ops17 (F := F)) WK) (Proc.devRef .tc Cert.KernelIdeal.main_v409) = (after (Cert.ReferenceIdeal.Agree.ops17 (F := F)) WR) (Proc.devRef .tc Cert.ReferenceIdeal.main_v409)
      ∧ (after (Cert.KernelIdeal.Agree.ops17 (F := F)) WK) (Proc.devRef .tc Cert.KernelIdeal.main_v414) = (after (Cert.ReferenceIdeal.Agree.ops17 (F := F)) WR) (Proc.devRef .tc Cert.ReferenceIdeal.main_v414)
      ∧ (after (Cert.KernelIdeal.Agree.ops17 (F := F)) WK) (Proc.devRef .tc Cert.KernelIdeal.main_v419) = (after (Cert.ReferenceIdeal.Agree.ops17 (F := F)) WR) (Proc.devRef .tc Cert.ReferenceIdeal.main_v419)
      ∧ (after (Cert.KernelIdeal.Agree.ops17 (F := F)) WK) (Proc.devRef .tc Cert.KernelIdeal.main_c_58) = (after (Cert.ReferenceIdeal.Agree.ops17 (F := F)) WR) (Proc.devRef .tc Cert.ReferenceIdeal.main_c_58) := by
  obtain ⟨h_v0, h_v18, h_v23, h_v85, h_v157, h_v229, h_v301, h_v382⟩ := h
  refine ⟨?_, ?_, ?_, ?_, ?_, ?_, ?_, ?_, ?_, ?_, ?_, ?_, ?_, ?_, ?_⟩
  · exact (after_of_writes_sub _ WK Cert.KernelIdeal.Agree.ops17_writes (by decide)).trans (h_v0.trans (after_of_writes_sub _ WR Cert.ReferenceIdeal.Agree.ops17_writes (by decide)).symm)
  · exact (after_of_writes_sub _ WK Cert.KernelIdeal.Agree.ops17_writes (by decide)).trans (h_v18.trans (after_of_writes_sub _ WR Cert.ReferenceIdeal.Agree.ops17_writes (by decide)).symm)
  · exact (after_of_writes_sub _ WK Cert.KernelIdeal.Agree.ops17_writes (by decide)).trans (h_v23.trans (after_of_writes_sub _ WR Cert.ReferenceIdeal.Agree.ops17_writes (by decide)).symm)
  · exact (after_of_writes_sub _ WK Cert.KernelIdeal.Agree.ops17_writes (by decide)).trans (h_v85.trans (after_of_writes_sub _ WR Cert.ReferenceIdeal.Agree.ops17_writes (by decide)).symm)
  · exact (after_of_writes_sub _ WK Cert.KernelIdeal.Agree.ops17_writes (by decide)).trans (h_v157.trans (after_of_writes_sub _ WR Cert.ReferenceIdeal.Agree.ops17_writes (by decide)).symm)
  · exact (after_of_writes_sub _ WK Cert.KernelIdeal.Agree.ops17_writes (by decide)).trans (h_v229.trans (after_of_writes_sub _ WR Cert.ReferenceIdeal.Agree.ops17_writes (by decide)).symm)
  · exact (after_of_writes_sub _ WK Cert.KernelIdeal.Agree.ops17_writes (by decide)).trans (h_v301.trans (after_of_writes_sub _ WR Cert.ReferenceIdeal.Agree.ops17_writes (by decide)).symm)
  · run_agrees [h_v382]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 18 (operations 847 to 894): agreement on the 15 buffers live before it gives agreement on the 14 live after it. -/
theorem step18
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v390) = WR (Proc.devRef .tc Cert.ReferenceIdeal.main_v390)
      ∧ WK (Proc.devRef .tc Cert.KernelIdeal.main_v400) = WR (Proc.devRef .tc Cert.ReferenceIdeal.main_v400)
      ∧ WK (Proc.devRef .tc Cert.KernelIdeal.main_v407) = WR (Proc.devRef .tc Cert.ReferenceIdeal.main_v407)
      ∧ WK (Proc.devRef .tc Cert.KernelIdeal.main_v409) = WR (Proc.devRef .tc Cert.ReferenceIdeal.main_v409)
      ∧ WK (Proc.devRef .tc Cert.KernelIdeal.main_v414) = WR (Proc.devRef .tc Cert.ReferenceIdeal.main_v414)
      ∧ WK (Proc.devRef .tc Cert.KernelIdeal.main_v419) = WR (Proc.devRef .tc Cert.ReferenceIdeal.main_v419)
      ∧ WK (Proc.devRef .tc Cert.KernelIdeal.main_c_58) = WR (Proc.devRef .tc Cert.ReferenceIdeal.main_c_58)) :
    (after (Cert.KernelIdeal.Agree.ops18 (F := F)) WK) (Proc.devRef .tc Cert.KernelIdeal.main_v0) = (after (Cert.ReferenceIdeal.Agree.ops18 (F := F)) WR) (Proc.devRef .tc Cert.ReferenceIdeal.main_v0)
      ∧ (after (Cert.KernelIdeal.Agree.ops18 (F := F)) WK) (Proc.devRef .tc Cert.KernelIdeal.main_v18) = (after (Cert.ReferenceIdeal.Agree.ops18 (F := F)) WR) (Proc.devRef .tc Cert.ReferenceIdeal.main_v18)
      ∧ (after (Cert.KernelIdeal.Agree.ops18 (F := F)) WK) (Proc.devRef .tc Cert.KernelIdeal.main_v23) = (after (Cert.ReferenceIdeal.Agree.ops18 (F := F)) WR) (Proc.devRef .tc Cert.ReferenceIdeal.main_v23)
      ∧ (after (Cert.KernelIdeal.Agree.ops18 (F := F)) WK) (Proc.devRef .tc Cert.KernelIdeal.main_v85) = (after (Cert.ReferenceIdeal.Agree.ops18 (F := F)) WR) (Proc.devRef .tc Cert.ReferenceIdeal.main_v85)
      ∧ (after (Cert.KernelIdeal.Agree.ops18 (F := F)) WK) (Proc.devRef .tc Cert.KernelIdeal.main_v157) = (after (Cert.ReferenceIdeal.Agree.ops18 (F := F)) WR) (Proc.devRef .tc Cert.ReferenceIdeal.main_v157)
      ∧ (after (Cert.KernelIdeal.Agree.ops18 (F := F)) WK) (Proc.devRef .tc Cert.KernelIdeal.main_v229) = (after (Cert.ReferenceIdeal.Agree.ops18 (F := F)) WR) (Proc.devRef .tc Cert.ReferenceIdeal.main_v229)
      ∧ (after (Cert.KernelIdeal.Agree.ops18 (F := F)) WK) (Proc.devRef .tc Cert.KernelIdeal.main_v301) = (after (Cert.ReferenceIdeal.Agree.ops18 (F := F)) WR) (Proc.devRef .tc Cert.ReferenceIdeal.main_v301)
      ∧ (after (Cert.KernelIdeal.Agree.ops18 (F := F)) WK) (Proc.devRef .tc Cert.KernelIdeal.main_v385) = (after (Cert.ReferenceIdeal.Agree.ops18 (F := F)) WR) (Proc.devRef .tc Cert.ReferenceIdeal.main_v385)
      ∧ (after (Cert.KernelIdeal.Agree.ops18 (F := F)) WK) (Proc.devRef .tc Cert.KernelIdeal.main_v400) = (after (Cert.ReferenceIdeal.Agree.ops18 (F := F)) WR) (Proc.devRef .tc Cert.ReferenceIdeal.main_v400)
      ∧ (after (Cert.KernelIdeal.Agree.ops18 (F := F)) WK) (Proc.devRef .tc Cert.KernelIdeal.main_v414) = (after (Cert.ReferenceIdeal.Agree.ops18 (F := F)) WR) (Proc.devRef .tc Cert.ReferenceIdeal.main_v414)
      ∧ (after (Cert.KernelIdeal.Agree.ops18 (F := F)) WK) (Proc.devRef .tc Cert.KernelIdeal.main_v422) = (after (Cert.ReferenceIdeal.Agree.ops18 (F := F)) WR) (Proc.devRef .tc Cert.ReferenceIdeal.main_v422)
      ∧ (after (Cert.KernelIdeal.Agree.ops18 (F := F)) WK) (Proc.devRef .tc Cert.KernelIdeal.main_v427) = (after (Cert.ReferenceIdeal.Agree.ops18 (F := F)) WR) (Proc.devRef .tc Cert.ReferenceIdeal.main_v427)
      ∧ (after (Cert.KernelIdeal.Agree.ops18 (F := F)) WK) (Proc.devRef .tc Cert.KernelIdeal.main_v432) = (after (Cert.ReferenceIdeal.Agree.ops18 (F := F)) WR) (Proc.devRef .tc Cert.ReferenceIdeal.main_v432)
      ∧ (after (Cert.KernelIdeal.Agree.ops18 (F := F)) WK) (Proc.devRef .tc Cert.KernelIdeal.main_c_61) = (after (Cert.ReferenceIdeal.Agree.ops18 (F := F)) WR) (Proc.devRef .tc Cert.ReferenceIdeal.main_c_61) := by
  obtain ⟨h_v0, h_v18, h_v23, h_v85, h_v157, h_v229, h_v301, h_v385, h_v390, h_v400, h_v407, h_v409, h_v414, h_v419, h_c_58⟩ := h
  refine ⟨?_, ?_, ?_, ?_, ?_, ?_, ?_, ?_, ?_, ?_, ?_, ?_, ?_, ?_⟩
  · exact (after_of_writes_sub _ WK Cert.KernelIdeal.Agree.ops18_writes (by decide)).trans (h_v0.trans (after_of_writes_sub _ WR Cert.ReferenceIdeal.Agree.ops18_writes (by decide)).symm)
  · exact (after_of_writes_sub _ WK Cert.KernelIdeal.Agree.ops18_writes (by decide)).trans (h_v18.trans (after_of_writes_sub _ WR Cert.ReferenceIdeal.Agree.ops18_writes (by decide)).symm)
  · exact (after_of_writes_sub _ WK Cert.KernelIdeal.Agree.ops18_writes (by decide)).trans (h_v23.trans (after_of_writes_sub _ WR Cert.ReferenceIdeal.Agree.ops18_writes (by decide)).symm)
  · exact (after_of_writes_sub _ WK Cert.KernelIdeal.Agree.ops18_writes (by decide)).trans (h_v85.trans (after_of_writes_sub _ WR Cert.ReferenceIdeal.Agree.ops18_writes (by decide)).symm)
  · exact (after_of_writes_sub _ WK Cert.KernelIdeal.Agree.ops18_writes (by decide)).trans (h_v157.trans (after_of_writes_sub _ WR Cert.ReferenceIdeal.Agree.ops18_writes (by decide)).symm)
  · exact (after_of_writes_sub _ WK Cert.KernelIdeal.Agree.ops18_writes (by decide)).trans (h_v229.trans (after_of_writes_sub _ WR Cert.ReferenceIdeal.Agree.ops18_writes (by decide)).symm)
  · exact (after_of_writes_sub _ WK Cert.KernelIdeal.Agree.ops18_writes (by decide)).trans (h_v301.trans (after_of_writes_sub _ WR Cert.ReferenceIdeal.Agree.ops18_writes (by decide)).symm)
  · exact (after_of_writes_sub _ WK Cert.KernelIdeal.Agree.ops18_writes (by decide)).trans (h_v385.trans (after_of_writes_sub _ WR Cert.ReferenceIdeal.Agree.ops18_writes (by decide)).symm)
  · exact (after_of_writes_sub _ WK Cert.KernelIdeal.Agree.ops18_writes (by decide)).trans (h_v400.trans (after_of_writes_sub _ WR Cert.ReferenceIdeal.Agree.ops18_writes (by decide)).symm)
  · exact (after_of_writes_sub _ WK Cert.KernelIdeal.Agree.ops18_writes (by decide)).trans (h_v414.trans (after_of_writes_sub _ WR Cert.ReferenceIdeal.Agree.ops18_writes (by decide)).symm)
  · run_agrees [h_v390, h_v419, h_c_58]
  · run_agrees [h_v400, h_v407, h_v409]
  · run_agrees [h_v407, h_v409]
  · after_results_simp; first | done | rfl

set_option maxHeartbeats 800000 in
/-- Run 19 (operations 895 to 953): agreement on the 14 buffers live before it gives agreement on the 9 live after it. -/
theorem step19
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v400) = WR (Proc.devRef .tc Cert.ReferenceIdeal.main_v400)
      ∧ WK (Proc.devRef .tc Cert.KernelIdeal.main_v414) = WR (Proc.devRef .tc Cert.ReferenceIdeal.main_v414)
      ∧ WK (Proc.devRef .tc Cert.KernelIdeal.main_v422) = WR (Proc.devRef .tc Cert.ReferenceIdeal.main_v422)
      ∧ WK (Proc.devRef .tc Cert.KernelIdeal.main_v427) = WR (Proc.devRef .tc Cert.ReferenceIdeal.main_v427)
      ∧ WK (Proc.devRef .tc Cert.KernelIdeal.main_v432) = WR (Proc.devRef .tc Cert.ReferenceIdeal.main_v432)
      ∧ WK (Proc.devRef .tc Cert.KernelIdeal.main_c_61) = WR (Proc.devRef .tc Cert.ReferenceIdeal.main_c_61)) :
    (after (Cert.KernelIdeal.Agree.ops19 (F := F)) WK) (Proc.devRef .tc Cert.KernelIdeal.main_v0) = (after (Cert.ReferenceIdeal.Agree.ops19 (F := F)) WR) (Proc.devRef .tc Cert.ReferenceIdeal.main_v0)
      ∧ (after (Cert.KernelIdeal.Agree.ops19 (F := F)) WK) (Proc.devRef .tc Cert.KernelIdeal.main_v18) = (after (Cert.ReferenceIdeal.Agree.ops19 (F := F)) WR) (Proc.devRef .tc Cert.ReferenceIdeal.main_v18)
      ∧ (after (Cert.KernelIdeal.Agree.ops19 (F := F)) WK) (Proc.devRef .tc Cert.KernelIdeal.main_v23) = (after (Cert.ReferenceIdeal.Agree.ops19 (F := F)) WR) (Proc.devRef .tc Cert.ReferenceIdeal.main_v23)
      ∧ (after (Cert.KernelIdeal.Agree.ops19 (F := F)) WK) (Proc.devRef .tc Cert.KernelIdeal.main_v85) = (after (Cert.ReferenceIdeal.Agree.ops19 (F := F)) WR) (Proc.devRef .tc Cert.ReferenceIdeal.main_v85)
      ∧ (after (Cert.KernelIdeal.Agree.ops19 (F := F)) WK) (Proc.devRef .tc Cert.KernelIdeal.main_v157) = (after (Cert.ReferenceIdeal.Agree.ops19 (F := F)) WR) (Proc.devRef .tc Cert.ReferenceIdeal.main_v157)
      ∧ (after (Cert.KernelIdeal.Agree.ops19 (F := F)) WK) (Proc.devRef .tc Cert.KernelIdeal.main_v229) = (after (Cert.ReferenceIdeal.Agree.ops19 (F := F)) WR) (Proc.devRef .tc Cert.ReferenceIdeal.main_v229)
      ∧ (after (Cert.KernelIdeal.Agree.ops19 (F := F)) WK) (Proc.devRef .tc Cert.KernelIdeal.main_v301) = (after (Cert.ReferenceIdeal.Agree.ops19 (F := F)) WR) (Proc.devRef .tc Cert.ReferenceIdeal.main_v301)
      ∧ (after (Cert.KernelIdeal.Agree.ops19 (F := F)) WK) (Proc.devRef .tc Cert.KernelIdeal.main_v385) = (after (Cert.ReferenceIdeal.Agree.ops19 (F := F)) WR) (Proc.devRef .tc Cert.ReferenceIdeal.main_v385)
      ∧ (after (Cert.KernelIdeal.Agree.ops19 (F := F)) WK) (Proc.devRef .tc Cert.KernelIdeal.main_v466) = (after (Cert.ReferenceIdeal.Agree.ops19 (F := F)) WR) (Proc.devRef .tc Cert.ReferenceIdeal.main_v466) := by
  obtain ⟨h_v0, h_v18, h_v23, h_v85, h_v157, h_v229, h_v301, h_v385, h_v400, h_v414, h_v422, h_v427, h_v432, h_c_61⟩ := h
  refine ⟨?_, ?_, ?_, ?_, ?_, ?_, ?_, ?_, ?_⟩
  · exact (after_of_writes_sub _ WK Cert.KernelIdeal.Agree.ops19_writes (by decide)).trans (h_v0.trans (after_of_writes_sub _ WR Cert.ReferenceIdeal.Agree.ops19_writes (by decide)).symm)
  · exact (after_of_writes_sub _ WK Cert.KernelIdeal.Agree.ops19_writes (by decide)).trans (h_v18.trans (after_of_writes_sub _ WR Cert.ReferenceIdeal.Agree.ops19_writes (by decide)).symm)
  · exact (after_of_writes_sub _ WK Cert.KernelIdeal.Agree.ops19_writes (by decide)).trans (h_v23.trans (after_of_writes_sub _ WR Cert.ReferenceIdeal.Agree.ops19_writes (by decide)).symm)
  · exact (after_of_writes_sub _ WK Cert.KernelIdeal.Agree.ops19_writes (by decide)).trans (h_v85.trans (after_of_writes_sub _ WR Cert.ReferenceIdeal.Agree.ops19_writes (by decide)).symm)
  · exact (after_of_writes_sub _ WK Cert.KernelIdeal.Agree.ops19_writes (by decide)).trans (h_v157.trans (after_of_writes_sub _ WR Cert.ReferenceIdeal.Agree.ops19_writes (by decide)).symm)
  · exact (after_of_writes_sub _ WK Cert.KernelIdeal.Agree.ops19_writes (by decide)).trans (h_v229.trans (after_of_writes_sub _ WR Cert.ReferenceIdeal.Agree.ops19_writes (by decide)).symm)
  · exact (after_of_writes_sub _ WK Cert.KernelIdeal.Agree.ops19_writes (by decide)).trans (h_v301.trans (after_of_writes_sub _ WR Cert.ReferenceIdeal.Agree.ops19_writes (by decide)).symm)
  · exact (after_of_writes_sub _ WK Cert.KernelIdeal.Agree.ops19_writes (by decide)).trans (h_v385.trans (after_of_writes_sub _ WR Cert.ReferenceIdeal.Agree.ops19_writes (by decide)).symm)
  · run_agrees [h_v0, h_v400, h_v414, h_v422, h_v427, h_v432, h_c_61]

/-- The whole part: agreement on the 7 buffers live before it gives agreement on the 9 live after it. -/
theorem part2
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v298) = WR (Proc.devRef .tc Cert.ReferenceIdeal.main_v298)) :
    (after (Cert.KernelIdeal.Agree.part2 (F := F)) WK) (Proc.devRef .tc Cert.KernelIdeal.main_v0) = (after (Cert.ReferenceIdeal.Agree.part2 (F := F)) WR) (Proc.devRef .tc Cert.ReferenceIdeal.main_v0)
      ∧ (after (Cert.KernelIdeal.Agree.part2 (F := F)) WK) (Proc.devRef .tc Cert.KernelIdeal.main_v18) = (after (Cert.ReferenceIdeal.Agree.part2 (F := F)) WR) (Proc.devRef .tc Cert.ReferenceIdeal.main_v18)
      ∧ (after (Cert.KernelIdeal.Agree.part2 (F := F)) WK) (Proc.devRef .tc Cert.KernelIdeal.main_v23) = (after (Cert.ReferenceIdeal.Agree.part2 (F := F)) WR) (Proc.devRef .tc Cert.ReferenceIdeal.main_v23)
      ∧ (after (Cert.KernelIdeal.Agree.part2 (F := F)) WK) (Proc.devRef .tc Cert.KernelIdeal.main_v85) = (after (Cert.ReferenceIdeal.Agree.part2 (F := F)) WR) (Proc.devRef .tc Cert.ReferenceIdeal.main_v85)
      ∧ (after (Cert.KernelIdeal.Agree.part2 (F := F)) WK) (Proc.devRef .tc Cert.KernelIdeal.main_v157) = (after (Cert.ReferenceIdeal.Agree.part2 (F := F)) WR) (Proc.devRef .tc Cert.ReferenceIdeal.main_v157)
      ∧ (after (Cert.KernelIdeal.Agree.part2 (F := F)) WK) (Proc.devRef .tc Cert.KernelIdeal.main_v229) = (after (Cert.ReferenceIdeal.Agree.part2 (F := F)) WR) (Proc.devRef .tc Cert.ReferenceIdeal.main_v229)
      ∧ (after (Cert.KernelIdeal.Agree.part2 (F := F)) WK) (Proc.devRef .tc Cert.KernelIdeal.main_v301) = (after (Cert.ReferenceIdeal.Agree.part2 (F := F)) WR) (Proc.devRef .tc Cert.ReferenceIdeal.main_v301)
      ∧ (after (Cert.KernelIdeal.Agree.part2 (F := F)) WK) (Proc.devRef .tc Cert.KernelIdeal.main_v385) = (after (Cert.ReferenceIdeal.Agree.part2 (F := F)) WR) (Proc.devRef .tc Cert.ReferenceIdeal.main_v385)
      ∧ (after (Cert.KernelIdeal.Agree.part2 (F := F)) WK) (Proc.devRef .tc Cert.KernelIdeal.main_v466) = (after (Cert.ReferenceIdeal.Agree.part2 (F := F)) WR) (Proc.devRef .tc Cert.ReferenceIdeal.main_v466) := by
  have s14 := step14 WK WR h
  have s15 := step15 (after (Cert.KernelIdeal.Agree.ops14 (F := F)) WK) (after (Cert.ReferenceIdeal.Agree.ops14 (F := F)) WR) s14
  have s16 := step16 (after (Cert.KernelIdeal.Agree.ops15 (F := F)) (after (Cert.KernelIdeal.Agree.ops14 (F := F)) WK)) (after (Cert.ReferenceIdeal.Agree.ops15 (F := F)) (after (Cert.ReferenceIdeal.Agree.ops14 (F := F)) WR)) s15
  have s17 := step17 (after (Cert.KernelIdeal.Agree.ops16 (F := F)) (after (Cert.KernelIdeal.Agree.ops15 (F := F)) (after (Cert.KernelIdeal.Agree.ops14 (F := F)) WK))) (after (Cert.ReferenceIdeal.Agree.ops16 (F := F)) (after (Cert.ReferenceIdeal.Agree.ops15 (F := F)) (after (Cert.ReferenceIdeal.Agree.ops14 (F := F)) WR))) s16
  have s18 := step18 (after (Cert.KernelIdeal.Agree.ops17 (F := F)) (after (Cert.KernelIdeal.Agree.ops16 (F := F)) (after (Cert.KernelIdeal.Agree.ops15 (F := F)) (after (Cert.KernelIdeal.Agree.ops14 (F := F)) WK)))) (after (Cert.ReferenceIdeal.Agree.ops17 (F := F)) (after (Cert.ReferenceIdeal.Agree.ops16 (F := F)) (after (Cert.ReferenceIdeal.Agree.ops15 (F := F)) (after (Cert.ReferenceIdeal.Agree.ops14 (F := F)) WR)))) s17
  have s19 := step19 (after (Cert.KernelIdeal.Agree.ops18 (F := F)) (after (Cert.KernelIdeal.Agree.ops17 (F := F)) (after (Cert.KernelIdeal.Agree.ops16 (F := F)) (after (Cert.KernelIdeal.Agree.ops15 (F := F)) (after (Cert.KernelIdeal.Agree.ops14 (F := F)) WK))))) (after (Cert.ReferenceIdeal.Agree.ops18 (F := F)) (after (Cert.ReferenceIdeal.Agree.ops17 (F := F)) (after (Cert.ReferenceIdeal.Agree.ops16 (F := F)) (after (Cert.ReferenceIdeal.Agree.ops15 (F := F)) (after (Cert.ReferenceIdeal.Agree.ops14 (F := F)) WR))))) s18
  simp only [Cert.KernelIdeal.Agree.part2, Cert.ReferenceIdeal.Agree.part2, after_append]
  exact s19

end Cert.Agree

end
-- ==== Proof.Agree.Part3.lean ====
/- The kernel's program and the reference compute the pooled feature matrix by the same 2605 operations.  This part is
  operations 954 to 1281 (the generated stretches 76 to 99), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 954 to 1010 of the host part, in order. -/
abbrev ops20 : List (HloOp τ sig (Elt F)) :=
  [ StableHlo.nullary main_cst_65 (constant S_ .f32 0xFF800000#32),
    StableHlo.binary main_v466 main_cst_65 main_v467 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v467 main_v468 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v468 main_v469 rfl shapeCasts_S512x7x7_S25088,
    StableHlo.unary main_v18 main_v470 ((extractStridedSlice S1x1 ![0, 1] · slices_S3x4_S1x1_0_1) : (⟨S3x4, .i32⟩ : BufTy).Contents (Elt F) → (⟨S1x1, .i32⟩ : BufTy).Contents (Elt F)),
    StableHlo.reshape main_v470 main_v471 rfl shapeCasts_S1x1_S_,
    StableHlo.unary main_v23 main_v472 ((extractStridedSlice S1x1 ![2, 1] · slices_S4x4_S1x1_2_1) : (⟨S4x4, .i32⟩ : BufTy).Contents (Elt F) → (⟨S1x1, .i32⟩ : BufTy).Contents (Elt F)),
    StableHlo.reshape main_v472 main_v473 rfl shapeCasts_S1x1_S_,
    StableHlo.binary main_v471 main_v473 main_v474 (minsi : (⟨S_, .i32⟩ : BufTy).Contents (Elt F) → (⟨S_, .i32⟩ : BufTy).Contents (Elt F) → (⟨S_, .i32⟩ : BufTy).Contents (Elt F)),
    StableHlo.unary main_v18 main_v475 ((extractStridedSlice S1x1 ![0, 3] · slices_S3x4_S1x1_0_3) : (⟨S3x4, .i32⟩ : BufTy).Contents (Elt F) → (⟨S1x1, .i32⟩ : BufTy).Contents (Elt F)),
    StableHlo.reshape main_v475 main_v476 rfl shapeCasts_S1x1_S_,
    StableHlo.unary main_v23 main_v477 ((extractStridedSlice S1x1 ![2, 3] · slices_S4x4_S1x1_2_3) : (⟨S4x4, .i32⟩ : BufTy).Contents (Elt F) → (⟨S1x1, .i32⟩ : BufTy).Contents (Elt F)),
    StableHlo.reshape main_v477 main_v478 rfl shapeCasts_S1x1_S_,
    StableHlo.binary main_v476 main_v478 main_v479 (maxsi : (⟨S_, .i32⟩ : BufTy).Contents (Elt F) → (⟨S_, .i32⟩ : BufTy).Contents (Elt F) → (⟨S_, .i32⟩ : BufTy).Contents (Elt F)),
    StableHlo.unary main_v18 main_v480 ((extractStridedSlice S1x1 ![0, 0] · slices_S3x4_S1x1_0_0) : (⟨S3x4, .i32⟩ : BufTy).Contents (Elt F) → (⟨S1x1, .i32⟩ : BufTy).Contents (Elt F)),
    StableHlo.reshape main_v480 main_v481 rfl shapeCasts_S1x1_S_,
    StableHlo.unary main_v23 main_v482 ((extractStridedSlice S1x1 ![2, 0] · slices_S4x4_S1x1_2_0) : (⟨S4x4, .i32⟩ : BufTy).Contents (Elt F) → (⟨S1x1, .i32⟩ : BufTy).Contents (Elt F)),
    StableHlo.reshape main_v482 main_v483 rfl shapeCasts_S1x1_S_,
    StableHlo.binary main_v481 main_v483 main_v484 (minsi : (⟨S_, .i32⟩ : BufTy).Contents (Elt F) → (⟨S_, .i32⟩ : BufTy).Contents (Elt F) → (⟨S_, .i32⟩ : BufTy).Contents (Elt F)),
    StableHlo.unary main_v18 main_v485 ((extractStridedSlice S1x1 ![0, 2] · slices_S3x4_S1x1_0_2) : (⟨S3x4, .i32⟩ : BufTy).Contents (Elt F) → (⟨S1x1, .i32⟩ : BufTy).Contents (Elt F)),
    StableHlo.reshape main_v485 main_v486 rfl shapeCasts_S1x1_S_,
    StableHlo.unary main_v23 main_v487 ((extractStridedSlice S1x1 ![2, 2] · slices_S4x4_S1x1_2_2) : (⟨S4x4, .i32⟩ : BufTy).Contents (Elt F) → (⟨S1x1, .i32⟩ : BufTy).Contents (Elt F)),
    StableHlo.reshape main_v487 main_v488 rfl shapeCasts_S1x1_S_,
    StableHlo.binary main_v486 main_v488 main_v489 (maxsi : (⟨S_, .i32⟩ : BufTy).Contents (Elt F) → (⟨S_, .i32⟩ : BufTy).Contents (Elt F) → (⟨S_, .i32⟩ : BufTy).Contents (Elt F)),
    StableHlo.binary main_v479 main_v474 main_v490 (subi : (⟨S_, .i32⟩ : BufTy).Contents (Elt F) → (⟨S_, .i32⟩ : BufTy).Contents (Elt F) → (⟨S_, .i32⟩ : BufTy).Contents (Elt F)),
    StableHlo.binary main_v489 main_v484 main_v491 (subi : (⟨S_, .i32⟩ : BufTy).Contents (Elt F) → (⟨S_, .i32⟩ : BufTy).Contents (Elt F) → (⟨S_, .i32⟩ : BufTy).Contents (Elt F)),
    StableHlo.nullary main_v492 (iotaInDim S7 32 0),
    StableHlo.nullary main_v493 (iotaInDim S7 32 0),
    StableHlo.unary main_v490 main_v494 (broadcastInDim S7 ![] bcast_S_S7 : (⟨S_, .i32⟩ : BufTy).Contents (Elt F) → (⟨S7, .i32⟩ : BufTy).Contents (Elt F)),
    StableHlo.binary main_v492 main_v494 main_v495 (muli : (⟨S7, .i32⟩ : BufTy).Contents (Elt F) → (⟨S7, .i32⟩ : BufTy).Contents (Elt F) → (⟨S7, .i32⟩ : BufTy).Contents (Elt F)),
    StableHlo.nullary main_c_66 (constantI S_ 32 7#32),
    StableHlo.TRef.unary (.of main_c_66 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S7, .i32⟩) (broadcastInDim S7 ![] bcast_S_S7),
    StableHlo.TRef.binary (.of main_v495 : StableHlo.TRef sig ⟨S7, .i32⟩) (.of main_call38_v1 : StableHlo.TRef sig ⟨S7, .i32⟩) (.of main_call38_v2 : StableHlo.TRef sig ⟨S7, .i32⟩) Host.divsi,
    StableHlo.TRef.unary (.of main_v495 : StableHlo.TRef sig ⟨S7, .i32⟩) (.of main_call38_v3 : StableHlo.TRef sig ⟨S7, .i32⟩) signi,
    StableHlo.TRef.unary (.of main_call38_v0 : StableHlo.TRef sig ⟨S_, .i32⟩) (.of main_call38_v4 : StableHlo.TRef sig ⟨S_, .i32⟩) signi,
    StableHlo.TRef.unary (.of main_call38_v4 : StableHlo.TRef sig ⟨S_, .i32⟩) (.of main_call38_v5 : StableHlo.TRef sig ⟨S7, .i32⟩) (broadcastInDim S7 ![] bcast_S_S7),
    StableHlo.TRef.binary (.of main_call38_v3 : StableHlo.TRef sig ⟨S7, .i32⟩) (.of main_call38_v5 : StableHlo.TRef sig ⟨S7, .i32⟩) (.of main_call38_v6 : StableHlo.TRef sig ⟨S7, .i1⟩) (cmpi .ne),
    StableHlo.TRef.unary (.of main_call38_v0 : StableHlo.TRef sig ⟨S_, .i32⟩) (.of main_call38_v7 : StableHlo.TRef sig ⟨S7, .i32⟩) (broadcastInDim S7 ![] bcast_S_S7),
    StableHlo.TRef.binary (.of main_v495 : StableHlo.TRef sig ⟨S7, .i32⟩) (.of main_call38_v7 : StableHlo.TRef sig ⟨S7, .i32⟩) (.of main_call38_v8 : StableHlo.TRef sig ⟨S7, .i32⟩) Host.remsi,
    StableHlo.TRef.nullary (.of main_call38_c : StableHlo.TRef sig ⟨S_, .i32⟩) (constantI S_ 32 0#32),
    StableHlo.TRef.unary (.of main_call38_c : StableHlo.TRef sig ⟨S_, .i32⟩) (.of main_call38_v9 : StableHlo.TRef sig ⟨S7, .i32⟩) (broadcastInDim S7 ![] bcast_S_S7),
    StableHlo.TRef.binary (.of main_call38_v8 : StableHlo.TRef sig ⟨S7, .i32⟩) (.of main_call38_v9 : StableHlo.TRef sig ⟨S7, .i32⟩) (.of main_call38_v10 : StableHlo.TRef sig ⟨S7, .i1⟩) (cmpi .ne),
    StableHlo.TRef.binary (.of main_call38_v6 : StableHlo.TRef sig ⟨S7, .i1⟩) (.of main_call38_v10 : StableHlo.TRef sig ⟨S7, .i1⟩) (.of main_call38_v11 : StableHlo.TRef sig ⟨S7, .i1⟩) andi,
    StableHlo.TRef.nullary (.of main_call38_c_0 : StableHlo.TRef sig ⟨S_, .i32⟩) (constantI S_ 32 1#32),
    StableHlo.TRef.unary (.of main_call38_c_0 : StableHlo.TRef sig ⟨S_, .i32⟩) (.of main_call38_v12 : StableHlo.TRef sig ⟨S7, .i32⟩) (broadcastInDim S7 ![] bcast_S_S7),
    StableHlo.TRef.binary (.of main_call38_v2 : StableHlo.TRef sig ⟨S7, .i32⟩) (.of main_call38_v12 : StableHlo.TRef sig ⟨S7, .i32⟩) (.of main_call38_v13 : StableHlo.TRef sig ⟨S7, .i32⟩) subi,
    StableHlo.TRef.ternary (.of main_call38_v11 : StableHlo.TRef sig ⟨S7, .i1⟩) (.of main_call38_v13 : StableHlo.TRef sig ⟨S7, .i32⟩) (.of main_call38_v2 : StableHlo.TRef sig ⟨S7, .i32⟩) (.of main_v496 : StableHlo.TRef sig ⟨S7, .i32⟩) select,
    StableHlo.unary main_v474 main_v497 (broadcastInDim S7 ![] bcast_S_S7 : (⟨S_, .i32⟩ : BufTy).Contents (Elt F) → (⟨S7, .i32⟩ : BufTy).Contents (Elt F)),
    StableHlo.binary main_v497 main_v496 main_v498 (addi : (⟨S7, .i32⟩ : BufTy).Contents (Elt F) → (⟨S7, .i32⟩ : BufTy).Contents (Elt F) → (⟨S7, .i32⟩ : BufTy).Contents (Elt F)),
    StableHlo.nullary main_c_67 (constantI S_ 32 1#32),
    StableHlo.unary main_c_67 main_v499 (broadcastInDim S7 ![] bcast_S_S7 : (⟨S_, .i32⟩ : BufTy).Contents (Elt F) → (⟨S7, .i32⟩ : BufTy).Contents (Elt F)),
    StableHlo.binary main_v492 main_v499 main_v500 (addi : (⟨S7, .i32⟩ : BufTy).Contents (Elt F) → (⟨S7, .i32⟩ : BufTy).Contents (Elt F) → (⟨S7, .i32⟩ : BufTy).Contents (Elt F)),
    StableHlo.unary main_v500 main_v501 (negi : (⟨S7, .i32⟩ : BufTy).Contents (Elt F) → (⟨S7, .i32⟩ : BufTy).Contents (Elt F)),
    StableHlo.unary main_v490 main_v502 (broadcastInDim S7 ![] bcast_S_S7 : (⟨S_, .i32⟩ : BufTy).Contents (Elt F) → (⟨S7, .i32⟩ : BufTy).Contents (Elt F)),
    StableHlo.binary main_v501 main_v502 main_v503 (muli : (⟨S7, .i32⟩ : BufTy).Contents (Elt F) → (⟨S7, .i32⟩ : BufTy).Contents (Elt F) → (⟨S7, .i32⟩ : BufTy).Contents (Elt F)),
    StableHlo.nullary main_c_68 (constantI S_ 32 7#32) ]
/-- The buffers those operations write, in order. -/
abbrev ops20_W : List (Ref sig .tc) :=
  [main_cst_65, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_c_66, main_call38_v0, main_call38_v1, main_call38_v2, main_call38_v3, main_call38_v4, main_call38_v5, main_call38_v6, main_call38_v7, main_call38_v8, main_call38_c, main_call38_v9, main_call38_v10, main_call38_v11, main_call38_c_0, main_call38_v12, main_call38_v13, main_v496, main_v497, main_v498, main_c_67, main_v499, main_v500, main_v501, main_v502, main_v503, main_c_68]
/-- Each operation writes its own result buffer and nothing else. -/
theorem ops20_writes : (ops20 : List (HloOp τ sig (Elt F))).Forall fun op => op.writes ⊆ (ops20_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1011 to 1058 of the host part, in order. -/
abbrev ops21 : List (HloOp τ sig (Elt F)) :=
  [ StableHlo.TRef.unary (.of main_c_68 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S7, .i32⟩) (broadcastInDim S7 ![] bcast_S_S7),
    StableHlo.TRef.binary (.of main_v503 : StableHlo.TRef sig ⟨S7, .i32⟩) (.of main_call39_v1 : StableHlo.TRef sig ⟨S7, .i32⟩) (.of main_call39_v2 : StableHlo.TRef sig ⟨S7, .i32⟩) Host.divsi,
    StableHlo.TRef.unary (.of main_v503 : StableHlo.TRef sig ⟨S7, .i32⟩) (.of main_call39_v3 : StableHlo.TRef sig ⟨S7, .i32⟩) signi,
    StableHlo.TRef.unary (.of main_call39_v0 : StableHlo.TRef sig ⟨S_, .i32⟩) (.of main_call39_v4 : StableHlo.TRef sig ⟨S_, .i32⟩) signi,
    StableHlo.TRef.unary (.of main_call39_v4 : StableHlo.TRef sig ⟨S_, .i32⟩) (.of main_call39_v5 : StableHlo.TRef sig ⟨S7, .i32⟩) (broadcastInDim S7 ![] bcast_S_S7),
    StableHlo.TRef.binary (.of main_call39_v3 : StableHlo.TRef sig ⟨S7, .i32⟩) (.of main_call39_v5 : StableHlo.TRef sig ⟨S7, .i32⟩) (.of main_call39_v6 : StableHlo.TRef sig ⟨S7, .i1⟩) (cmpi .ne),
    StableHlo.TRef.unary (.of main_call39_v0 : StableHlo.TRef sig ⟨S_, .i32⟩) (.of main_call39_v7 : StableHlo.TRef sig ⟨S7, .i32⟩) (broadcastInDim S7 ![] bcast_S_S7),
    StableHlo.TRef.binary (.of main_v503 : StableHlo.TRef sig ⟨S7, .i32⟩) (.of main_call39_v7 : StableHlo.TRef sig ⟨S7, .i32⟩) (.of main_call39_v8 : StableHlo.TRef sig ⟨S7, .i32⟩) Host.remsi,
    StableHlo.TRef.nullary (.of main_call39_c : StableHlo.TRef sig ⟨S_, .i32⟩) (constantI S_ 32 0#32),
    StableHlo.TRef.unary (.of main_call39_c : StableHlo.TRef sig ⟨S_, .i32⟩) (.of main_call39_v9 : StableHlo.TRef sig ⟨S7, .i32⟩) (broadcastInDim S7 ![] bcast_S_S7),
    StableHlo.TRef.binary (.of main_call39_v8 : StableHlo.TRef sig ⟨S7, .i32⟩) (.of main_call39_v9 : StableHlo.TRef sig ⟨S7, .i32⟩) (.of main_call39_v10 : StableHlo.TRef sig ⟨S7, .i1⟩) (cmpi .ne),
    StableHlo.TRef.binary (.of main_call39_v6 : StableHlo.TRef sig ⟨S7, .i1⟩) (.of main_call39_v10 : StableHlo.TRef sig ⟨S7, .i1⟩) (.of main_call39_v11 : StableHlo.TRef sig ⟨S7, .i1⟩) andi,
    StableHlo.TRef.nullary (.of main_call39_c_0 : StableHlo.TRef sig ⟨S_, .i32⟩) (constantI S_ 32 1#32),
    StableHlo.TRef.unary (.of main_call39_c_0 : StableHlo.TRef sig ⟨S_, .i32⟩) (.of main_call39_v12 : StableHlo.TRef sig ⟨S7, .i32⟩) (broadcastInDim S7 ![] bcast_S_S7),
    StableHlo.TRef.binary (.of main_call39_v2 : StableHlo.TRef sig ⟨S7, .i32⟩) (.of main_call39_v12 : StableHlo.TRef sig ⟨S7, .i32⟩) (.of main_call39_v13 : StableHlo.TRef sig ⟨S7, .i32⟩) subi,
    StableHlo.TRef.ternary (.of main_call39_v11 : StableHlo.TRef sig ⟨S7, .i1⟩) (.of main_call39_v13 : StableHlo.TRef sig ⟨S7, .i32⟩) (.of main_call39_v2 : StableHlo.TRef sig ⟨S7, .i32⟩) (.of main_v504 : StableHlo.TRef sig ⟨S7, .i32⟩) select,
    StableHlo.unary main_v474 main_v505 (broadcastInDim S7 ![] bcast_S_S7 : (⟨S_, .i32⟩ : BufTy).Contents (Elt F) → (⟨S7, .i32⟩ : BufTy).Contents (Elt F)),
    StableHlo.binary main_v505 main_v504 main_v506 (subi : (⟨S7, .i32⟩ : BufTy).Contents (Elt F) → (⟨S7, .i32⟩ : BufTy).Contents (Elt F) → (⟨S7, .i32⟩ : BufTy).Contents (Elt F)),
    StableHlo.unary main_v491 main_v507 (broadcastInDim S7 ![] bcast_S_S7 : (⟨S_, .i32⟩ : BufTy).Contents (Elt F) → (⟨S7, .i32⟩ : BufTy).Contents (Elt F)),
    StableHlo.binary main_v493 main_v507 main_v508 (muli : (⟨S7, .i32⟩ : BufTy).Contents (Elt F) → (⟨S7, .i32⟩ : BufTy).Contents (Elt F) → (⟨S7, .i32⟩ : BufTy).Contents (Elt F)),
    StableHlo.nullary main_c_69 (constantI S_ 32 7#32),
    StableHlo.TRef.unary (.of main_c_69 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S7, .i32⟩) (broadcastInDim S7 ![] bcast_S_S7),
    StableHlo.TRef.binary (.of main_v508 : StableHlo.TRef sig ⟨S7, .i32⟩) (.of main_call40_v1 : StableHlo.TRef sig ⟨S7, .i32⟩) (.of main_call40_v2 : StableHlo.TRef sig ⟨S7, .i32⟩) Host.divsi,
    StableHlo.TRef.unary (.of main_v508 : StableHlo.TRef sig ⟨S7, .i32⟩) (.of main_call40_v3 : StableHlo.TRef sig ⟨S7, .i32⟩) signi,
    StableHlo.TRef.unary (.of main_call40_v0 : StableHlo.TRef sig ⟨S_, .i32⟩) (.of main_call40_v4 : StableHlo.TRef sig ⟨S_, .i32⟩) signi,
    StableHlo.TRef.unary (.of main_call40_v4 : StableHlo.TRef sig ⟨S_, .i32⟩) (.of main_call40_v5 : StableHlo.TRef sig ⟨S7, .i32⟩) (broadcastInDim S7 ![] bcast_S_S7),
    StableHlo.TRef.binary (.of main_call40_v3 : StableHlo.TRef sig ⟨S7, .i32⟩) (.of main_call40_v5 : StableHlo.TRef sig ⟨S7, .i32⟩) (.of main_call40_v6 : StableHlo.TRef sig ⟨S7, .i1⟩) (cmpi .ne),
    StableHlo.TRef.unary (.of main_call40_v0 : StableHlo.TRef sig ⟨S_, .i32⟩) (.of main_call40_v7 : StableHlo.TRef sig ⟨S7, .i32⟩) (broadcastInDim S7 ![] bcast_S_S7),
    StableHlo.TRef.binary (.of main_v508 : StableHlo.TRef sig ⟨S7, .i32⟩) (.of main_call40_v7 : StableHlo.TRef sig ⟨S7, .i32⟩) (.of main_call40_v8 : StableHlo.TRef sig ⟨S7, .i32⟩) Host.remsi,
    StableHlo.TRef.nullary (.of main_call40_c : StableHlo.TRef sig ⟨S_, .i32⟩) (constantI S_ 32 0#32),
    StableHlo.TRef.unary (.of main_call40_c : StableHlo.TRef sig ⟨S_, .i32⟩) (.of main_call40_v9 : StableHlo.TRef sig ⟨S7, .i32⟩) (broadcastInDim S7 ![] bcast_S_S7),
    StableHlo.TRef.binary (.of main_call40_v8 : StableHlo.TRef sig ⟨S7, .i32⟩) (.of main_call40_v9 : StableHlo.TRef sig ⟨S7, .i32⟩) (.of main_call40_v10 : StableHlo.TRef sig ⟨S7, .i1⟩) (cmpi .ne),
    StableHlo.TRef.binary (.of main_call40_v6 : StableHlo.TRef sig ⟨S7, .i1⟩) (.of main_call40_v10 : StableHlo.TRef sig ⟨S7, .i1⟩) (.of main_call40_v11 : StableHlo.TRef sig ⟨S7, .i1⟩) andi,
    StableHlo.TRef.nullary (.of main_call40_c_0 : StableHlo.TRef sig ⟨S_, .i32⟩) (constantI S_ 32 1#32),
    StableHlo.TRef.unary (.of main_call40_c_0 : StableHlo.TRef sig ⟨S_, .i32⟩) (.of main_call40_v12 : StableHlo.TRef sig ⟨S7, .i32⟩) (broadcastInDim S7 ![] bcast_S_S7),
    StableHlo.TRef.binary (.of main_call40_v2 : StableHlo.TRef sig ⟨S7, .i32⟩) (.of main_call40_v12 : StableHlo.TRef sig ⟨S7, .i32⟩) (.of main_call40_v13 : StableHlo.TRef sig ⟨S7, .i32⟩) subi,
    StableHlo.TRef.ternary (.of main_call40_v11 : StableHlo.TRef sig ⟨S7, .i1⟩) (.of main_call40_v13 : StableHlo.TRef sig ⟨S7, .i32⟩) (.of main_call40_v2 : StableHlo.TRef sig ⟨S7, .i32⟩) (.of main_v509 : StableHlo.TRef sig ⟨S7, .i32⟩) select,
    StableHlo.unary main_v484 main_v510 (broadcastInDim S7 ![] bcast_S_S7 : (⟨S_, .i32⟩ : BufTy).Contents (Elt F) → (⟨S7, .i32⟩ : BufTy).Contents (Elt F)),
    StableHlo.binary main_v510 main_v509 main_v511 (addi : (⟨S7, .i32⟩ : BufTy).Contents (Elt F) → (⟨S7, .i32⟩ : BufTy).Contents (Elt F) → (⟨S7, .i32⟩ : BufTy).Contents (Elt F)),
    StableHlo.nullary main_c_70 (constantI S_ 32 1#32),
    StableHlo.unary main_c_70 main_v512 (broadcastInDim S7 ![] bcast_S_S7 : (⟨S_, .i32⟩ : BufTy).Contents (Elt F) → (⟨S7, .i32⟩ : BufTy).Contents (Elt F)),
    StableHlo.binary main_v493 main_v512 main_v513 (addi : (⟨S7, .i32⟩ : BufTy).Contents (Elt F) → (⟨S7, .i32⟩ : BufTy).Contents (Elt F) → (⟨S7, .i32⟩ : BufTy).Contents (Elt F)),
    StableHlo.unary main_v513 main_v514 (negi : (⟨S7, .i32⟩ : BufTy).Contents (Elt F) → (⟨S7, .i32⟩ : BufTy).Contents (Elt F)),
    StableHlo.unary main_v491 main_v515 (broadcastInDim S7 ![] bcast_S_S7 : (⟨S_, .i32⟩ : BufTy).Contents (Elt F) → (⟨S7, .i32⟩ : BufTy).Contents (Elt F)),
    StableHlo.binary main_v514 main_v515 main_v516 (muli : (⟨S7, .i32⟩ : BufTy).Contents (Elt F) → (⟨S7, .i32⟩ : BufTy).Contents (Elt F) → (⟨S7, .i32⟩ : BufTy).Contents (Elt F)),
    StableHlo.nullary main_c_71 (constantI S_ 32 7#32) ]
/-- The buffers those operations write, in order. -/
abbrev ops21_W : List (Ref sig .tc) :=
  [main_call39_v0, main_call39_v1, main_call39_v2, main_call39_v3, main_call39_v4, main_call39_v5, main_call39_v6, main_call39_v7, main_call39_v8, main_call39_c, main_call39_v9, main_call39_v10, main_call39_v11, main_call39_c_0, main_call39_v12, main_call39_v13, main_v504, main_v505, main_v506, main_v507, main_v508, main_c_69, main_call40_v0, main_call40_v1, main_call40_v2, main_call40_v3, main_call40_v4, main_call40_v5, main_call40_v6, main_call40_v7, main_call40_v8, main_call40_c, main_call40_v9, main_call40_v10, main_call40_v11, main_call40_c_0, main_call40_v12, main_call40_v13, main_v509, main_v510, main_v511, main_c_70, main_v512, main_v513, main_v514, main_v515, main_v516, main_c_71]
/-- Each operation writes its own result buffer and nothing else. -/
theorem ops21_writes : (ops21 : List (HloOp τ sig (Elt F))).Forall fun op => op.writes ⊆ (ops21_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1059 to 1117 of the host part, in order. -/
abbrev ops22 : List (HloOp τ sig (Elt F)) :=
  [ StableHlo.TRef.unary (.of main_c_71 : StableHlo.TRef sig ⟨S_, .i32⟩) (.of main_call41_v0 : StableHlo.TRef sig ⟨S_, .i32⟩) id,
    StableHlo.TRef.unary (.of main_call41_v0 : StableHlo.TRef sig ⟨S_, .i32⟩) (.of main_call41_v1 : StableHlo.TRef sig ⟨S7, .i32⟩) (broadcastInDim S7 ![] bcast_S_S7),
    StableHlo.TRef.binary (.of main_v516 : StableHlo.TRef sig ⟨S7, .i32⟩) (.of main_call41_v1 : StableHlo.TRef sig ⟨S7, .i32⟩) (.of main_call41_v2 : StableHlo.TRef sig ⟨S7, .i32⟩) Host.divsi,
    StableHlo.TRef.unary (.of main_v516 : StableHlo.TRef sig ⟨S7, .i32⟩) (.of main_call41_v3 : StableHlo.TRef sig ⟨S7, .i32⟩) signi,
    StableHlo.TRef.unary (.of main_call41_v0 : StableHlo.TRef sig ⟨S_, .i32⟩) (.of main_call41_v4 : StableHlo.TRef sig ⟨S_, .i32⟩) signi,
    StableHlo.TRef.unary (.of main_call41_v4 : StableHlo.TRef sig ⟨S_, .i32⟩) (.of main_call41_v5 : StableHlo.TRef sig ⟨S7, .i32⟩) (broadcastInDim S7 ![] bcast_S_S7),
    StableHlo.TRef.binary (.of main_call41_v3 : StableHlo.TRef sig ⟨S7, .i32⟩) (.of main_call41_v5 : StableHlo.TRef sig ⟨S7, .i32⟩) (.of main_call41_v6 : StableHlo.TRef sig ⟨S7, .i1⟩) (cmpi .ne),
    StableHlo.TRef.unary (.of main_call41_v0 : StableHlo.TRef sig ⟨S_, .i32⟩) (.of main_call41_v7 : StableHlo.TRef sig ⟨S7, .i32⟩) (broadcastInDim S7 ![] bcast_S_S7),
    StableHlo.TRef.binary (.of main_v516 : StableHlo.TRef sig ⟨S7, .i32⟩) (.of main_call41_v7 : StableHlo.TRef sig ⟨S7, .i32⟩) (.of main_call41_v8 : StableHlo.TRef sig ⟨S7, .i32⟩) Host.remsi,
    StableHlo.TRef.nullary (.of main_call41_c : StableHlo.TRef sig ⟨S_, .i32⟩) (constantI S_ 32 0#32),
    StableHlo.TRef.unary (.of main_call41_c : StableHlo.TRef sig ⟨S_, .i32⟩) (.of main_call41_v9 : StableHlo.TRef sig ⟨S7, .i32⟩) (broadcastInDim S7 ![] bcast_S_S7),
    StableHlo.TRef.binary (.of main_call41_v8 : StableHlo.TRef sig ⟨S7, .i32⟩) (.of main_call41_v9 : StableHlo.TRef sig ⟨S7, .i32⟩) (.of main_call41_v10 : StableHlo.TRef sig ⟨S7, .i1⟩) (cmpi .ne),
    StableHlo.TRef.binary (.of main_call41_v6 : StableHlo.TRef sig ⟨S7, .i1⟩) (.of main_call41_v10 : StableHlo.TRef sig ⟨S7, .i1⟩) (.of main_call41_v11 : StableHlo.TRef sig ⟨S7, .i1⟩) andi,
    StableHlo.TRef.nullary (.of main_call41_c_0 : StableHlo.TRef sig ⟨S_, .i32⟩) (constantI S_ 32 1#32),
    StableHlo.TRef.unary (.of main_call41_c_0 : StableHlo.TRef sig ⟨S_, .i32⟩) (.of main_call41_v12 : StableHlo.TRef sig ⟨S7, .i32⟩) (broadcastInDim S7 ![] bcast_S_S7),
    StableHlo.TRef.binary (.of main_call41_v2 : StableHlo.TRef sig ⟨S7, .i32⟩) (.of main_call41_v12 : StableHlo.TRef sig ⟨S7, .i32⟩) (.of main_call41_v13 : StableHlo.TRef sig ⟨S7, .i32⟩) subi,
    StableHlo.TRef.ternary (.of main_call41_v11 : StableHlo.TRef sig ⟨S7, .i1⟩) (.of main_call41_v13 : StableHlo.TRef sig ⟨S7, .i32⟩) (.of main_call41_v2 : StableHlo.TRef sig ⟨S7, .i32⟩) (.of main_v517 : StableHlo.TRef sig ⟨S7, .i32⟩) select,
    StableHlo.unary main_v484 main_v518 (broadcastInDim S7 ![] bcast_S_S7 : (⟨S_, .i32⟩ : BufTy).Contents (Elt F) → (⟨S7, .i32⟩ : BufTy).Contents (Elt F)),
    StableHlo.binary main_v518 main_v517 main_v519 (subi : (⟨S7, .i32⟩ : BufTy).Contents (Elt F) → (⟨S7, .i32⟩ : BufTy).Contents (Elt F) → (⟨S7, .i32⟩ : BufTy).Contents (Elt F)),
    StableHlo.nullary main_v520 (iotaInDim S64 32 0),
    StableHlo.nullary main_v521 (iotaInDim S64 32 0),
    StableHlo.unary main_v520 main_v522 (broadcastInDim S1x64 ![1] bcast_S64_S1x64_1 : (⟨S64, .i32⟩ : BufTy).Contents (Elt F) → (⟨S1x64, .i32⟩ : BufTy).Contents (Elt F)),
    StableHlo.unary main_v498 main_v523 (broadcastInDim S7x1 ![0] bcast_S7_S7x1_0 : (⟨S7, .i32⟩ : BufTy).Contents (Elt F) → (⟨S7x1, .i32⟩ : BufTy).Contents (Elt F)),
    StableHlo.unary main_v522 main_v524 (broadcastInDim S7x64 ![0, 1] bcast_S1x64_S7x64_0_1 : (⟨S1x64, .i32⟩ : BufTy).Contents (Elt F) → (⟨S7x64, .i32⟩ : BufTy).Contents (Elt F)),
    StableHlo.unary main_v523 main_v525 (broadcastInDim S7x64 ![0, 1] bcast_S7x1_S7x64_0_1 : (⟨S7x1, .i32⟩ : BufTy).Contents (Elt F) → (⟨S7x64, .i32⟩ : BufTy).Contents (Elt F)),
    StableHlo.binary main_v524 main_v525 main_v526 (cmpi .sge : (⟨S7x64, .i32⟩ : BufTy).Contents (Elt F) → (⟨S7x64, .i32⟩ : BufTy).Contents (Elt F) → (⟨S7x64, .i1⟩ : BufTy).Contents (Elt F)),
    StableHlo.unary main_v520 main_v527 (broadcastInDim S1x64 ![1] bcast_S64_S1x64_1 : (⟨S64, .i32⟩ : BufTy).Contents (Elt F) → (⟨S1x64, .i32⟩ : BufTy).Contents (Elt F)),
    StableHlo.unary main_v506 main_v528 (broadcastInDim S7x1 ![0] bcast_S7_S7x1_0 : (⟨S7, .i32⟩ : BufTy).Contents (Elt F) → (⟨S7x1, .i32⟩ : BufTy).Contents (Elt F)),
    StableHlo.unary main_v527 main_v529 (broadcastInDim S7x64 ![0, 1] bcast_S1x64_S7x64_0_1 : (⟨S1x64, .i32⟩ : BufTy).Contents (Elt F) → (⟨S7x64, .i32⟩ : BufTy).Contents (Elt F)),
    StableHlo.unary main_v528 main_v530 (broadcastInDim S7x64 ![0, 1] bcast_S7x1_S7x64_0_1 : (⟨S7x1, .i32⟩ : BufTy).Contents (Elt F) → (⟨S7x64, .i32⟩ : BufTy).Contents (Elt F)),
    StableHlo.binary main_v529 main_v530 main_v531 (cmpi .slt : (⟨S7x64, .i32⟩ : BufTy).Contents (Elt F) → (⟨S7x64, .i32⟩ : BufTy).Contents (Elt F) → (⟨S7x64, .i1⟩ : BufTy).Contents (Elt F)),
    StableHlo.binary main_v526 main_v531 main_v532 (andi : (⟨S7x64, .i1⟩ : BufTy).Contents (Elt F) → (⟨S7x64, .i1⟩ : BufTy).Contents (Elt F) → (⟨S7x64, .i1⟩ : BufTy).Contents (Elt F)),
    StableHlo.unary main_v521 main_v533 (broadcastInDim S1x64 ![1] bcast_S64_S1x64_1 : (⟨S64, .i32⟩ : BufTy).Contents (Elt F) → (⟨S1x64, .i32⟩ : BufTy).Contents (Elt F)),
    StableHlo.unary main_v511 main_v534 (broadcastInDim S7x1 ![0] bcast_S7_S7x1_0 : (⟨S7, .i32⟩ : BufTy).Contents (Elt F) → (⟨S7x1, .i32⟩ : BufTy).Contents (Elt F)),
    StableHlo.unary main_v533 main_v535 (broadcastInDim S7x64 ![0, 1] bcast_S1x64_S7x64_0_1 : (⟨S1x64, .i32⟩ : BufTy).Contents (Elt F) → (⟨S7x64, .i32⟩ : BufTy).Contents (Elt F)),
    StableHlo.unary main_v534 main_v536 (broadcastInDim S7x64 ![0, 1] bcast_S7x1_S7x64_0_1 : (⟨S7x1, .i32⟩ : BufTy).Contents (Elt F) → (⟨S7x64, .i32⟩ : BufTy).Contents (Elt F)),
    StableHlo.binary main_v535 main_v536 main_v537 (cmpi .sge : (⟨S7x64, .i32⟩ : BufTy).Contents (Elt F) → (⟨S7x64, .i32⟩ : BufTy).Contents (Elt F) → (⟨S7x64, .i1⟩ : BufTy).Contents (Elt F)),
    StableHlo.unary main_v521 main_v538 (broadcastInDim S1x64 ![1] bcast_S64_S1x64_1 : (⟨S64, .i32⟩ : BufTy).Contents (Elt F) → (⟨S1x64, .i32⟩ : BufTy).Contents (Elt F)),
    StableHlo.unary main_v519 main_v539 (broadcastInDim S7x1 ![0] bcast_S7_S7x1_0 : (⟨S7, .i32⟩ : BufTy).Contents (Elt F) → (⟨S7x1, .i32⟩ : BufTy).Contents (Elt F)),
    StableHlo.unary main_v538 main_v540 (broadcastInDim S7x64 ![0, 1] bcast_S1x64_S7x64_0_1 : (⟨S1x64, .i32⟩ : BufTy).Contents (Elt F) → (⟨S7x64, .i32⟩ : BufTy).Contents (Elt F)),
    StableHlo.unary main_v539 main_v541 (broadcastInDim S7x64 ![0, 1] bcast_S7x1_S7x64_0_1 : (⟨S7x1, .i32⟩ : BufTy).Contents (Elt F) → (⟨S7x64, .i32⟩ : BufTy).Contents (Elt F)),
    StableHlo.binary main_v540 main_v541 main_v542 (cmpi .slt : (⟨S7x64, .i32⟩ : BufTy).Contents (Elt F) → (⟨S7x64, .i32⟩ : BufTy).Contents (Elt F) → (⟨S7x64, .i1⟩ : BufTy).Contents (Elt F)),
    StableHlo.binary main_v537 main_v542 main_v543 (andi : (⟨S7x64, .i1⟩ : BufTy).Contents (Elt F) → (⟨S7x64, .i1⟩ : BufTy).Contents (Elt F) → (⟨S7x64, .i1⟩ : BufTy).Contents (Elt F)),
    StableHlo.unary main_v532 main_v544 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v545 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_72 (constant S_ .f32 0xFF800000#32),
    StableHlo.TRef.unary (.of main_v544 : StableHlo.TRef sig ⟨S7x1x64x1, .i1⟩) (.of main_call42_v0 : StableHlo.TRef sig ⟨S7x512x64x64, .i1⟩) (broadcastInDim S7x512x64x64 ![0, 1, 2, 3] bcast_S7x1x64x1_S7x512x64x64_0_1_2_3),
    StableHlo.TRef.unary (.of main_v545 : StableHlo.TRef sig ⟨S1x512x64x64, .f32⟩) (.of main_call42_v1 : StableHlo.TRef sig ⟨S7x512x64x64, .f32⟩) (broadcastInDim S7x512x64x64 ![0, 1, 2, 3] bcast_S1x512x64x64_S7x512x64x64_0_1_2_3),
    StableHlo.TRef.unary (.of main_cst_72 : StableHlo.TRef sig ⟨S_, .f32⟩) (.of main_call42_v2 : StableHlo.TRef sig ⟨S7x512x64x64, .f32⟩) (broadcastInDim S7x512x64x64 ![] bcast_S_S7x512x64x64),
    StableHlo.TRef.ternary (.of main_call42_v0 : StableHlo.TRef sig ⟨S7x512x64x64, .i1⟩) (.of main_call42_v1 : StableHlo.TRef sig ⟨S7x512x64x64, .f32⟩) (.of main_call42_v2 : StableHlo.TRef sig ⟨S7x512x64x64, .f32⟩) (.of main_v546 : StableHlo.TRef sig ⟨S7x512x64x64, .f32⟩) select,
    StableHlo.nullary main_cst_73 (constant S_ .f32 0xFF800000#32),
    StableHlo.binary main_v546 main_cst_73 main_v547 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v543 main_v548 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v547 main_v549 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_74 (constant S_ .f32 0xFF800000#32),
    StableHlo.TRef.unary (.of main_v548 : StableHlo.TRef sig ⟨S1x1x7x64, .i1⟩) (.of main_call43_v0 : StableHlo.TRef sig ⟨S7x512x7x64, .i1⟩) (broadcastInDim S7x512x7x64 ![0, 1, 2, 3] bcast_S1x1x7x64_S7x512x7x64_0_1_2_3),
    StableHlo.TRef.unary (.of main_v549 : StableHlo.TRef sig ⟨S7x512x1x64, .f32⟩) (.of main_call43_v1 : StableHlo.TRef sig ⟨S7x512x7x64, .f32⟩) (broadcastInDim S7x512x7x64 ![0, 1, 2, 3] bcast_S7x512x1x64_S7x512x7x64_0_1_2_3),
    StableHlo.TRef.unary (.of main_cst_74 : StableHlo.TRef sig ⟨S_, .f32⟩) (.of main_call43_v2 : StableHlo.TRef sig ⟨S7x512x7x64, .f32⟩) (broadcastInDim S7x512x7x64 ![] bcast_S_S7x512x7x64),
    StableHlo.TRef.ternary (.of main_call43_v0 : StableHlo.TRef sig ⟨S7x512x7x64, .i1⟩) (.of main_call43_v1 : StableHlo.TRef sig ⟨S7x512x7x64, .f32⟩) (.of main_call43_v2 : StableHlo.TRef sig ⟨S7x512x7x64, .f32⟩) (.of main_v550 : StableHlo.TRef sig ⟨S7x512x7x64, .f32⟩) select ]
/-- The buffers those operations write, in order. -/
abbrev ops22_W : List (Ref sig .tc) :=
  [main_call41_v0, main_call41_v1, main_call41_v2, main_call41_v3, main_call41_v4, main_call41_v5, main_call41_v6, main_call41_v7, main_call41_v8, main_call41_c, main_call41_v9, main_call41_v10, main_call41_v11, main_call41_c_0, main_call41_v12, main_call41_v13, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_cst_72, main_call42_v0, main_call42_v1, main_call42_v2, main_v546, main_cst_73, main_v547, main_v548, main_v549, main_cst_74, main_call43_v0, main_call43_v1, main_call43_v2, main_v550]
/-- Each operation writes its own result buffer and nothing else. -/
theorem ops22_writes : (ops22 : List (HloOp τ sig (Elt F))).Forall fun op => op.writes ⊆ (ops22_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1118 to 1174 of the host part, in order. -/
abbrev ops23 : List (HloOp τ sig (Elt F)) :=
  [ StableHlo.nullary main_cst_75 (constant S_ .f32 0xFF800000#32),
    StableHlo.binary main_v550 main_cst_75 main_v551 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v551 main_v552 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v552 main_v553 rfl shapeCasts_S512x7x7_S25088,
    StableHlo.unary main_v18 main_v554 ((extractStridedSlice S1x1 ![0, 1] · slices_S3x4_S1x1_0_1) : (⟨S3x4, .i32⟩ : BufTy).Contents (Elt F) → (⟨S1x1, .i32⟩ : BufTy).Contents (Elt F)),
    StableHlo.reshape main_v554 main_v555 rfl shapeCasts_S1x1_S_,
    StableHlo.unary main_v23 main_v556 ((extractStridedSlice S1x1 ![3, 1] · slices_S4x4_S1x1_3_1) : (⟨S4x4, .i32⟩ : BufTy).Contents (Elt F) → (⟨S1x1, .i32⟩ : BufTy).Contents (Elt F)),
    StableHlo.reshape main_v556 main_v557 rfl shapeCasts_S1x1_S_,
    StableHlo.binary main_v555 main_v557 main_v558 (minsi : (⟨S_, .i32⟩ : BufTy).Contents (Elt F) → (⟨S_, .i32⟩ : BufTy).Contents (Elt F) → (⟨S_, .i32⟩ : BufTy).Contents (Elt F)),
    StableHlo.unary main_v18 main_v559 ((extractStridedSlice S1x1 ![0, 3] · slices_S3x4_S1x1_0_3) : (⟨S3x4, .i32⟩ : BufTy).Contents (Elt F) → (⟨S1x1, .i32⟩ : BufTy).Contents (Elt F)),
    StableHlo.reshape main_v559 main_v560 rfl shapeCasts_S1x1_S_,
    StableHlo.unary main_v23 main_v561 ((extractStridedSlice S1x1 ![3, 3] · slices_S4x4_S1x1_3_3) : (⟨S4x4, .i32⟩ : BufTy).Contents (Elt F) → (⟨S1x1, .i32⟩ : BufTy).Contents (Elt F)),
    StableHlo.reshape main_v561 main_v562 rfl shapeCasts_S1x1_S_,
    StableHlo.binary main_v560 main_v562 main_v563 (maxsi : (⟨S_, .i32⟩ : BufTy).Contents (Elt F) → (⟨S_, .i32⟩ : BufTy).Contents (Elt F) → (⟨S_, .i32⟩ : BufTy).Contents (Elt F)),
    StableHlo.unary main_v18 main_v564 ((extractStridedSlice S1x1 ![0, 0] · slices_S3x4_S1x1_0_0) : (⟨S3x4, .i32⟩ : BufTy).Contents (Elt F) → (⟨S1x1, .i32⟩ : BufTy).Contents (Elt F)),
    StableHlo.reshape main_v564 main_v565 rfl shapeCasts_S1x1_S_,
    StableHlo.unary main_v23 main_v566 ((extractStridedSlice S1x1 ![3, 0] · slices_S4x4_S1x1_3_0) : (⟨S4x4, .i32⟩ : BufTy).Contents (Elt F) → (⟨S1x1, .i32⟩ : BufTy).Contents (Elt F)),
    StableHlo.reshape main_v566 main_v567 rfl shapeCasts_S1x1_S_,
    StableHlo.binary main_v565 main_v567 main_v568 (minsi : (⟨S_, .i32⟩ : BufTy).Contents (Elt F) → (⟨S_, .i32⟩ : BufTy).Contents (Elt F) → (⟨S_, .i32⟩ : BufTy).Contents (Elt F)),
    StableHlo.unary main_v18 main_v569 ((extractStridedSlice S1x1 ![0, 2] · slices_S3x4_S1x1_0_2) : (⟨S3x4, .i32⟩ : BufTy).Contents (Elt F) → (⟨S1x1, .i32⟩ : BufTy).Contents (Elt F)),
    StableHlo.reshape main_v569 main_v570 rfl shapeCasts_S1x1_S_,
    StableHlo.unary main_v23 main_v571 ((extractStridedSlice S1x1 ![3, 2] · slices_S4x4_S1x1_3_2) : (⟨S4x4, .i32⟩ : BufTy).Contents (Elt F) → (⟨S1x1, .i32⟩ : BufTy).Contents (Elt F)),
    StableHlo.reshape main_v571 main_v572 rfl shapeCasts_S1x1_S_,
    StableHlo.binary main_v570 main_v572 main_v573 (maxsi : (⟨S_, .i32⟩ : BufTy).Contents (Elt F) → (⟨S_, .i32⟩ : BufTy).Contents (Elt F) → (⟨S_, .i32⟩ : BufTy).Contents (Elt F)),
    StableHlo.binary main_v563 main_v558 main_v574 (subi : (⟨S_, .i32⟩ : BufTy).Contents (Elt F) → (⟨S_, .i32⟩ : BufTy).Contents (Elt F) → (⟨S_, .i32⟩ : BufTy).Contents (Elt F)),
    StableHlo.binary main_v573 main_v568 main_v575 (subi : (⟨S_, .i32⟩ : BufTy).Contents (Elt F) → (⟨S_, .i32⟩ : BufTy).Contents (Elt F) → (⟨S_, .i32⟩ : BufTy).Contents (Elt F)),
    StableHlo.nullary main_v576 (iotaInDim S7 32 0),
    StableHlo.nullary main_v577 (iotaInDim S7 32 0),
    StableHlo.unary main_v574 main_v578 (broadcastInDim S7 ![] bcast_S_S7 : (⟨S_, .i32⟩ : BufTy).Contents (Elt F) → (⟨S7, .i32⟩ : BufTy).Contents (Elt F)),
    StableHlo.binary main_v576 main_v578 main_v579 (muli : (⟨S7, .i32⟩ : BufTy).Contents (Elt F) → (⟨S7, .i32⟩ : BufTy).Contents (Elt F) → (⟨S7, .i32⟩ : BufTy).Contents (Elt F)),
    StableHlo.nullary main_c_76 (constantI S_ 32 7#32),
    StableHlo.TRef.unary (.of main_c_76 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S7, .i32⟩) (broadcastInDim S7 ![] bcast_S_S7),
    StableHlo.TRef.binary (.of main_v579 : StableHlo.TRef sig ⟨S7, .i32⟩) (.of main_call44_v1 : StableHlo.TRef sig ⟨S7, .i32⟩) (.of main_call44_v2 : StableHlo.TRef sig ⟨S7, .i32⟩) Host.divsi,
    StableHlo.TRef.unary (.of main_v579 : StableHlo.TRef sig ⟨S7, .i32⟩) (.of main_call44_v3 : StableHlo.TRef sig ⟨S7, .i32⟩) signi,
    StableHlo.TRef.unary (.of main_call44_v0 : StableHlo.TRef sig ⟨S_, .i32⟩) (.of main_call44_v4 : StableHlo.TRef sig ⟨S_, .i32⟩) signi,
    StableHlo.TRef.unary (.of main_call44_v4 : StableHlo.TRef sig ⟨S_, .i32⟩) (.of main_call44_v5 : StableHlo.TRef sig ⟨S7, .i32⟩) (broadcastInDim S7 ![] bcast_S_S7),
    StableHlo.TRef.binary (.of main_call44_v3 : StableHlo.TRef sig ⟨S7, .i32⟩) (.of main_call44_v5 : StableHlo.TRef sig ⟨S7, .i32⟩) (.of main_call44_v6 : StableHlo.TRef sig ⟨S7, .i1⟩) (cmpi .ne),
    StableHlo.TRef.unary (.of main_call44_v0 : StableHlo.TRef sig ⟨S_, .i32⟩) (.of main_call44_v7 : StableHlo.TRef sig ⟨S7, .i32⟩) (broadcastInDim S7 ![] bcast_S_S7),
    StableHlo.TRef.binary (.of main_v579 : StableHlo.TRef sig ⟨S7, .i32⟩) (.of main_call44_v7 : StableHlo.TRef sig ⟨S7, .i32⟩) (.of main_call44_v8 : StableHlo.TRef sig ⟨S7, .i32⟩) Host.remsi,
    StableHlo.TRef.nullary (.of main_call44_c : StableHlo.TRef sig ⟨S_, .i32⟩) (constantI S_ 32 0#32),
    StableHlo.TRef.unary (.of main_call44_c : StableHlo.TRef sig ⟨S_, .i32⟩) (.of main_call44_v9 : StableHlo.TRef sig ⟨S7, .i32⟩) (broadcastInDim S7 ![] bcast_S_S7),
    StableHlo.TRef.binary (.of main_call44_v8 : StableHlo.TRef sig ⟨S7, .i32⟩) (.of main_call44_v9 : StableHlo.TRef sig ⟨S7, .i32⟩) (.of main_call44_v10 : StableHlo.TRef sig ⟨S7, .i1⟩) (cmpi .ne),
    StableHlo.TRef.binary (.of main_call44_v6 : StableHlo.TRef sig ⟨S7, .i1⟩) (.of main_call44_v10 : StableHlo.TRef sig ⟨S7, .i1⟩) (.of main_call44_v11 : StableHlo.TRef sig ⟨S7, .i1⟩) andi,
    StableHlo.TRef.nullary (.of main_call44_c_0 : StableHlo.TRef sig ⟨S_, .i32⟩) (constantI S_ 32 1#32),
    StableHlo.TRef.unary (.of main_call44_c_0 : StableHlo.TRef sig ⟨S_, .i32⟩) (.of main_call44_v12 : StableHlo.TRef sig ⟨S7, .i32⟩) (broadcastInDim S7 ![] bcast_S_S7),
    StableHlo.TRef.binary (.of main_call44_v2 : StableHlo.TRef sig ⟨S7, .i32⟩) (.of main_call44_v12 : StableHlo.TRef sig ⟨S7, .i32⟩) (.of main_call44_v13 : StableHlo.TRef sig ⟨S7, .i32⟩) subi,
    StableHlo.TRef.ternary (.of main_call44_v11 : StableHlo.TRef sig ⟨S7, .i1⟩) (.of main_call44_v13 : StableHlo.TRef sig ⟨S7, .i32⟩) (.of main_call44_v2 : StableHlo.TRef sig ⟨S7, .i32⟩) (.of main_v580 : StableHlo.TRef sig ⟨S7, .i32⟩) select,
    StableHlo.unary main_v558 main_v581 (broadcastInDim S7 ![] bcast_S_S7 : (⟨S_, .i32⟩ : BufTy).Contents (Elt F) → (⟨S7, .i32⟩ : BufTy).Contents (Elt F)),
    StableHlo.binary main_v581 main_v580 main_v582 (addi : (⟨S7, .i32⟩ : BufTy).Contents (Elt F) → (⟨S7, .i32⟩ : BufTy).Contents (Elt F) → (⟨S7, .i32⟩ : BufTy).Contents (Elt F)),
    StableHlo.nullary main_c_77 (constantI S_ 32 1#32),
    StableHlo.unary main_c_77 main_v583 (broadcastInDim S7 ![] bcast_S_S7 : (⟨S_, .i32⟩ : BufTy).Contents (Elt F) → (⟨S7, .i32⟩ : BufTy).Contents (Elt F)),
    StableHlo.binary main_v576 main_v583 main_v584 (addi : (⟨S7, .i32⟩ : BufTy).Contents (Elt F) → (⟨S7, .i32⟩ : BufTy).Contents (Elt F) → (⟨S7, .i32⟩ : BufTy).Contents (Elt F)),
    StableHlo.unary main_v584 main_v585 (negi : (⟨S7, .i32⟩ : BufTy).Contents (Elt F) → (⟨S7, .i32⟩ : BufTy).Contents (Elt F)),
    StableHlo.unary main_v574 main_v586 (broadcastInDim S7 ![] bcast_S_S7 : (⟨S_, .i32⟩ : BufTy).Contents (Elt F) → (⟨S7, .i32⟩ : BufTy).Contents (Elt F)),
    StableHlo.binary main_v585 main_v586 main_v587 (muli : (⟨S7, .i32⟩ : BufTy).Contents (Elt F) → (⟨S7, .i32⟩ : BufTy).Contents (Elt F) → (⟨S7, .i32⟩ : BufTy).Contents (Elt F)),
    StableHlo.nullary main_c_78 (constantI S_ 32 7#32) ]
/-- The buffers those operations write, in order. -/
abbrev ops23_W : List (Ref sig .tc) :=
  [main_cst_75, main_v551, main_v552, main_v553, main_v554, main_v555, main_v556, main_v557, main_v558, main_v559, main_v560, main_v561, main_v562, main_v563, main_v564, main_v565, main_v566, main_v567, main_v568, main_v569, main_v570, main_v571, main_v572, main_v573, main_v574, main_v575, main_v576, main_v577, main_v578, main_v579, main_c_76, main_call44_v0, main_call44_v1, main_call44_v2, main_call44_v3, main_call44_v4, main_call44_v5, main_call44_v6, main_call44_v7, main_call44_v8, main_call44_c, main_call44_v9, main_call44_v10, main_call44_v11, main_call44_c_0, main_call44_v12, main_call44_v13, main_v580, main_v581, main_v582, main_c_77, main_v583, main_v584, main_v585, main_v586, main_v587, main_c_78]
/-- Each operation writes its own result buffer and nothing else. -/
theorem ops23_writes : (ops23 : List (HloOp τ sig (Elt F))).Forall fun op => op.writes ⊆ (ops23_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1175 to 1222 of the host part, in order. -/
abbrev ops24 : List (HloOp τ sig (Elt F)) :=
  [ StableHlo.TRef.unary (.of main_c_78 : StableHlo.TRef sig ⟨S_, .i32⟩) (.of main_call45_v0 : StableHlo.TRef sig ⟨S_, .i32⟩) id,
    StableHlo.TRef.unary (.of main_call45_v0 : StableHlo.TRef sig ⟨S_, .i32⟩) (.of main_call45_v1 : StableHlo.TRef sig ⟨S7, .i32⟩) (broadcastInDim S7 ![] bcast_S_S7),
    StableHlo.TRef.binary (.of main_v587 : StableHlo.TRef sig ⟨S7, .i32⟩) (.of main_call45_v1 : StableHlo.TRef sig ⟨S7, .i32⟩) (.of main_call45_v2 : StableHlo.TRef sig ⟨S7, .i32⟩) Host.divsi,
    StableHlo.TRef.unary (.of main_v587 : StableHlo.TRef sig ⟨S7, .i32⟩) (.of main_call45_v3 : StableHlo.TRef sig ⟨S7, .i32⟩) signi,
    StableHlo.TRef.unary (.of main_call45_v0 : StableHlo.TRef sig ⟨S_, .i32⟩) (.of main_call45_v4 : StableHlo.TRef sig ⟨S_, .i32⟩) signi,
    StableHlo.TRef.unary (.of main_call45_v4 : StableHlo.TRef sig ⟨S_, .i32⟩) (.of main_call45_v5 : StableHlo.TRef sig ⟨S7, .i32⟩) (broadcastInDim S7 ![] bcast_S_S7),
    StableHlo.TRef.binary (.of main_call45_v3 : StableHlo.TRef sig ⟨S7, .i32⟩) (.of main_call45_v5 : StableHlo.TRef sig ⟨S7, .i32⟩) (.of main_call45_v6 : StableHlo.TRef sig ⟨S7, .i1⟩) (cmpi .ne),
    StableHlo.TRef.unary (.of main_call45_v0 : StableHlo.TRef sig ⟨S_, .i32⟩) (.of main_call45_v7 : StableHlo.TRef sig ⟨S7, .i32⟩) (broadcastInDim S7 ![] bcast_S_S7),
    StableHlo.TRef.binary (.of main_v587 : StableHlo.TRef sig ⟨S7, .i32⟩) (.of main_call45_v7 : StableHlo.TRef sig ⟨S7, .i32⟩) (.of main_call45_v8 : StableHlo.TRef sig ⟨S7, .i32⟩) Host.remsi,
    StableHlo.TRef.nullary (.of main_call45_c : StableHlo.TRef sig ⟨S_, .i32⟩) (constantI S_ 32 0#32),
    StableHlo.TRef.unary (.of main_call45_c : StableHlo.TRef sig ⟨S_, .i32⟩) (.of main_call45_v9 : StableHlo.TRef sig ⟨S7, .i32⟩) (broadcastInDim S7 ![] bcast_S_S7),
    StableHlo.TRef.binary (.of main_call45_v8 : StableHlo.TRef sig ⟨S7, .i32⟩) (.of main_call45_v9 : StableHlo.TRef sig ⟨S7, .i32⟩) (.of main_call45_v10 : StableHlo.TRef sig ⟨S7, .i1⟩) (cmpi .ne),
    StableHlo.TRef.binary (.of main_call45_v6 : StableHlo.TRef sig ⟨S7, .i1⟩) (.of main_call45_v10 : StableHlo.TRef sig ⟨S7, .i1⟩) (.of main_call45_v11 : StableHlo.TRef sig ⟨S7, .i1⟩) andi,
    StableHlo.TRef.nullary (.of main_call45_c_0 : StableHlo.TRef sig ⟨S_, .i32⟩) (constantI S_ 32 1#32),
    StableHlo.TRef.unary (.of main_call45_c_0 : StableHlo.TRef sig ⟨S_, .i32⟩) (.of main_call45_v12 : StableHlo.TRef sig ⟨S7, .i32⟩) (broadcastInDim S7 ![] bcast_S_S7),
    StableHlo.TRef.binary (.of main_call45_v2 : StableHlo.TRef sig ⟨S7, .i32⟩) (.of main_call45_v12 : StableHlo.TRef sig ⟨S7, .i32⟩) (.of main_call45_v13 : StableHlo.TRef sig ⟨S7, .i32⟩) subi,
    StableHlo.TRef.ternary (.of main_call45_v11 : StableHlo.TRef sig ⟨S7, .i1⟩) (.of main_call45_v13 : StableHlo.TRef sig ⟨S7, .i32⟩) (.of main_call45_v2 : StableHlo.TRef sig ⟨S7, .i32⟩) (.of main_v588 : StableHlo.TRef sig ⟨S7, .i32⟩) select,
    StableHlo.unary main_v558 main_v589 (broadcastInDim S7 ![] bcast_S_S7 : (⟨S_, .i32⟩ : BufTy).Contents (Elt F) → (⟨S7, .i32⟩ : BufTy).Contents (Elt F)),
    StableHlo.binary main_v589 main_v588 main_v590 (subi : (⟨S7, .i32⟩ : BufTy).Contents (Elt F) → (⟨S7, .i32⟩ : BufTy).Contents (Elt F) → (⟨S7, .i32⟩ : BufTy).Contents (Elt F)),
    StableHlo.unary main_v575 main_v591 (broadcastInDim S7 ![] bcast_S_S7 : (⟨S_, .i32⟩ : BufTy).Contents (Elt F) → (⟨S7, .i32⟩ : BufTy).Contents (Elt F)),
    StableHlo.binary main_v577 main_v591 main_v592 (muli : (⟨S7, .i32⟩ : BufTy).Contents (Elt F) → (⟨S7, .i32⟩ : BufTy).Contents (Elt F) → (⟨S7, .i32⟩ : BufTy).Contents (Elt F)),
    StableHlo.nullary main_c_79 (constantI S_ 32 7#32),
    StableHlo.TRef.unary (.of main_c_79 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S7, .i32⟩) (broadcastInDim S7 ![] bcast_S_S7),
    StableHlo.TRef.binary (.of main_v592 : StableHlo.TRef sig ⟨S7, .i32⟩) (.of main_call46_v1 : StableHlo.TRef sig ⟨S7, .i32⟩) (.of main_call46_v2 : StableHlo.TRef sig ⟨S7, .i32⟩) Host.divsi,
    StableHlo.TRef.unary (.of main_v592 : StableHlo.TRef sig ⟨S7, .i32⟩) (.of main_call46_v3 : StableHlo.TRef sig ⟨S7, .i32⟩) signi,
    StableHlo.TRef.unary (.of main_call46_v0 : StableHlo.TRef sig ⟨S_, .i32⟩) (.of main_call46_v4 : StableHlo.TRef sig ⟨S_, .i32⟩) signi,
    StableHlo.TRef.unary (.of main_call46_v4 : StableHlo.TRef sig ⟨S_, .i32⟩) (.of main_call46_v5 : StableHlo.TRef sig ⟨S7, .i32⟩) (broadcastInDim S7 ![] bcast_S_S7),
    StableHlo.TRef.binary (.of main_call46_v3 : StableHlo.TRef sig ⟨S7, .i32⟩) (.of main_call46_v5 : StableHlo.TRef sig ⟨S7, .i32⟩) (.of main_call46_v6 : StableHlo.TRef sig ⟨S7, .i1⟩) (cmpi .ne),
    StableHlo.TRef.unary (.of main_call46_v0 : StableHlo.TRef sig ⟨S_, .i32⟩) (.of main_call46_v7 : StableHlo.TRef sig ⟨S7, .i32⟩) (broadcastInDim S7 ![] bcast_S_S7),
    StableHlo.TRef.binary (.of main_v592 : StableHlo.TRef sig ⟨S7, .i32⟩) (.of main_call46_v7 : StableHlo.TRef sig ⟨S7, .i32⟩) (.of main_call46_v8 : StableHlo.TRef sig ⟨S7, .i32⟩) Host.remsi,
    StableHlo.TRef.nullary (.of main_call46_c : StableHlo.TRef sig ⟨S_, .i32⟩) (constantI S_ 32 0#32),
    StableHlo.TRef.unary (.of main_call46_c : StableHlo.TRef sig ⟨S_, .i32⟩) (.of main_call46_v9 : StableHlo.TRef sig ⟨S7, .i32⟩) (broadcastInDim S7 ![] bcast_S_S7),
    StableHlo.TRef.binary (.of main_call46_v8 : StableHlo.TRef sig ⟨S7, .i32⟩) (.of main_call46_v9 : StableHlo.TRef sig ⟨S7, .i32⟩) (.of main_call46_v10 : StableHlo.TRef sig ⟨S7, .i1⟩) (cmpi .ne),
    StableHlo.TRef.binary (.of main_call46_v6 : StableHlo.TRef sig ⟨S7, .i1⟩) (.of main_call46_v10 : StableHlo.TRef sig ⟨S7, .i1⟩) (.of main_call46_v11 : StableHlo.TRef sig ⟨S7, .i1⟩) andi,
    StableHlo.TRef.nullary (.of main_call46_c_0 : StableHlo.TRef sig ⟨S_, .i32⟩) (constantI S_ 32 1#32),
    StableHlo.TRef.unary (.of main_call46_c_0 : StableHlo.TRef sig ⟨S_, .i32⟩) (.of main_call46_v12 : StableHlo.TRef sig ⟨S7, .i32⟩) (broadcastInDim S7 ![] bcast_S_S7),
    StableHlo.TRef.binary (.of main_call46_v2 : StableHlo.TRef sig ⟨S7, .i32⟩) (.of main_call46_v12 : StableHlo.TRef sig ⟨S7, .i32⟩) (.of main_call46_v13 : StableHlo.TRef sig ⟨S7, .i32⟩) subi,
    StableHlo.TRef.ternary (.of main_call46_v11 : StableHlo.TRef sig ⟨S7, .i1⟩) (.of main_call46_v13 : StableHlo.TRef sig ⟨S7, .i32⟩) (.of main_call46_v2 : StableHlo.TRef sig ⟨S7, .i32⟩) (.of main_v593 : StableHlo.TRef sig ⟨S7, .i32⟩) select,
    StableHlo.unary main_v568 main_v594 (broadcastInDim S7 ![] bcast_S_S7 : (⟨S_, .i32⟩ : BufTy).Contents (Elt F) → (⟨S7, .i32⟩ : BufTy).Contents (Elt F)),
    StableHlo.binary main_v594 main_v593 main_v595 (addi : (⟨S7, .i32⟩ : BufTy).Contents (Elt F) → (⟨S7, .i32⟩ : BufTy).Contents (Elt F) → (⟨S7, .i32⟩ : BufTy).Contents (Elt F)),
    StableHlo.nullary main_c_80 (constantI S_ 32 1#32),
    StableHlo.unary main_c_80 main_v596 (broadcastInDim S7 ![] bcast_S_S7 : (⟨S_, .i32⟩ : BufTy).Contents (Elt F) → (⟨S7, .i32⟩ : BufTy).Contents (Elt F)),
    StableHlo.binary main_v577 main_v596 main_v597 (addi : (⟨S7, .i32⟩ : BufTy).Contents (Elt F) → (⟨S7, .i32⟩ : BufTy).Contents (Elt F) → (⟨S7, .i32⟩ : BufTy).Contents (Elt F)),
    StableHlo.unary main_v597 main_v598 (negi : (⟨S7, .i32⟩ : BufTy).Contents (Elt F) → (⟨S7, .i32⟩ : BufTy).Contents (Elt F)),
    StableHlo.unary main_v575 main_v599 (broadcastInDim S7 ![] bcast_S_S7 : (⟨S_, .i32⟩ : BufTy).Contents (Elt F) → (⟨S7, .i32⟩ : BufTy).Contents (Elt F)),
    StableHlo.binary main_v598 main_v599 main_v600 (muli : (⟨S7, .i32⟩ : BufTy).Contents (Elt F) → (⟨S7, .i32⟩ : BufTy).Contents (Elt F) → (⟨S7, .i32⟩ : BufTy).Contents (Elt F)),
    StableHlo.nullary main_c_81 (constantI S_ 32 7#32) ]
/-- The buffers those operations write, in order. -/
abbrev ops24_W : List (Ref sig .tc) :=
  [main_call45_v0, main_call45_v1, main_call45_v2, main_call45_v3, main_call45_v4, main_call45_v5, main_call45_v6, main_call45_v7, main_call45_v8, main_call45_c, main_call45_v9, main_call45_v10, main_call45_v11, main_call45_c_0, main_call45_v12, main_call45_v13, main_v588, main_v589, main_v590, main_v591, main_v592, main_c_79, main_call46_v0, main_call46_v1, main_call46_v2, main_call46_v3, main_call46_v4, main_call46_v5, main_call46_v6, main_call46_v7, main_call46_v8, main_call46_c, main_call46_v9, main_call46_v10, main_call46_v11, main_call46_c_0, main_call46_v12, main_call46_v13, main_v593, main_v594, main_v595, main_c_80, main_v596, main_v597, main_v598, main_v599, main_v600, main_c_81]
/-- Each operation writes its own result buffer and nothing else. -/
theorem ops24_writes : (ops24 : List (HloOp τ sig (Elt F))).Forall fun op => op.writes ⊆ (ops24_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1223 to 1281 of the host part, in order. -/
abbrev ops25 : List (HloOp τ sig (Elt F)) :=
  [ StableHlo.TRef.unary (.of main_c_81 : StableHlo.TRef sig ⟨S_, .i32⟩) (.of main_call47_v0 : StableHlo.TRef sig ⟨S_, .i32⟩) id,
    StableHlo.TRef.unary (.of main_call47_v0 : StableHlo.TRef sig ⟨S_, .i32⟩) (.of main_call47_v1 : StableHlo.TRef sig ⟨S7, .i32⟩) (broadcastInDim S7 ![] bcast_S_S7),
    StableHlo.TRef.binary (.of main_v600 : StableHlo.TRef sig ⟨S7, .i32⟩) (.of main_call47_v1 : StableHlo.TRef sig ⟨S7, .i32⟩) (.of main_call47_v2 : StableHlo.TRef sig ⟨S7, .i32⟩) Host.divsi,
    StableHlo.TRef.unary (.of main_v600 : StableHlo.TRef sig ⟨S7, .i32⟩) (.of main_call47_v3 : StableHlo.TRef sig ⟨S7, .i32⟩) signi,
    StableHlo.TRef.unary (.of main_call47_v0 : StableHlo.TRef sig ⟨S_, .i32⟩) (.of main_call47_v4 : StableHlo.TRef sig ⟨S_, .i32⟩) signi,
    StableHlo.TRef.unary (.of main_call47_v4 : StableHlo.TRef sig ⟨S_, .i32⟩) (.of main_call47_v5 : StableHlo.TRef sig ⟨S7, .i32⟩) (broadcastInDim S7 ![] bcast_S_S7),
    StableHlo.TRef.binary (.of main_call47_v3 : StableHlo.TRef sig ⟨S7, .i32⟩) (.of main_call47_v5 : StableHlo.TRef sig ⟨S7, .i32⟩) (.of main_call47_v6 : StableHlo.TRef sig ⟨S7, .i1⟩) (cmpi .ne),
    StableHlo.TRef.unary (.of main_call47_v0 : StableHlo.TRef sig ⟨S_, .i32⟩) (.of main_call47_v7 : StableHlo.TRef sig ⟨S7, .i32⟩) (broadcastInDim S7 ![] bcast_S_S7),
    StableHlo.TRef.binary (.of main_v600 : StableHlo.TRef sig ⟨S7, .i32⟩) (.of main_call47_v7 : StableHlo.TRef sig ⟨S7, .i32⟩) (.of main_call47_v8 : StableHlo.TRef sig ⟨S7, .i32⟩) Host.remsi,
    StableHlo.TRef.nullary (.of main_call47_c : StableHlo.TRef sig ⟨S_, .i32⟩) (constantI S_ 32 0#32),
    StableHlo.TRef.unary (.of main_call47_c : StableHlo.TRef sig ⟨S_, .i32⟩) (.of main_call47_v9 : StableHlo.TRef sig ⟨S7, .i32⟩) (broadcastInDim S7 ![] bcast_S_S7),
    StableHlo.TRef.binary (.of main_call47_v8 : StableHlo.TRef sig ⟨S7, .i32⟩) (.of main_call47_v9 : StableHlo.TRef sig ⟨S7, .i32⟩) (.of main_call47_v10 : StableHlo.TRef sig ⟨S7, .i1⟩) (cmpi .ne),
    StableHlo.TRef.binary (.of main_call47_v6 : StableHlo.TRef sig ⟨S7, .i1⟩) (.of main_call47_v10 : StableHlo.TRef sig ⟨S7, .i1⟩) (.of main_call47_v11 : StableHlo.TRef sig ⟨S7, .i1⟩) andi,
    StableHlo.TRef.nullary (.of main_call47_c_0 : StableHlo.TRef sig ⟨S_, .i32⟩) (constantI S_ 32 1#32),
    StableHlo.TRef.unary (.of main_call47_c_0 : StableHlo.TRef sig ⟨S_, .i32⟩) (.of main_call47_v12 : StableHlo.TRef sig ⟨S7, .i32⟩) (broadcastInDim S7 ![] bcast_S_S7),
    StableHlo.TRef.binary (.of main_call47_v2 : StableHlo.TRef sig ⟨S7, .i32⟩) (.of main_call47_v12 : StableHlo.TRef sig ⟨S7, .i32⟩) (.of main_call47_v13 : StableHlo.TRef sig ⟨S7, .i32⟩) subi,
    StableHlo.TRef.ternary (.of main_call47_v11 : StableHlo.TRef sig ⟨S7, .i1⟩) (.of main_call47_v13 : StableHlo.TRef sig ⟨S7, .i32⟩) (.of main_call47_v2 : StableHlo.TRef sig ⟨S7, .i32⟩) (.of main_v601 : StableHlo.TRef sig ⟨S7, .i32⟩) select,
    StableHlo.unary main_v568 main_v602 (broadcastInDim S7 ![] bcast_S_S7 : (⟨S_, .i32⟩ : BufTy).Contents (Elt F) → (⟨S7, .i32⟩ : BufTy).Contents (Elt F)),
    StableHlo.binary main_v602 main_v601 main_v603 (subi : (⟨S7, .i32⟩ : BufTy).Contents (Elt F) → (⟨S7, .i32⟩ : BufTy).Contents (Elt F) → (⟨S7, .i32⟩ : BufTy).Contents (Elt F)),
    StableHlo.nullary main_v604 (iotaInDim S64 32 0),
    StableHlo.nullary main_v605 (iotaInDim S64 32 0),
    StableHlo.unary main_v604 main_v606 (broadcastInDim S1x64 ![1] bcast_S64_S1x64_1 : (⟨S64, .i32⟩ : BufTy).Contents (Elt F) → (⟨S1x64, .i32⟩ : BufTy).Contents (Elt F)),
    StableHlo.unary main_v582 main_v607 (broadcastInDim S7x1 ![0] bcast_S7_S7x1_0 : (⟨S7, .i32⟩ : BufTy).Contents (Elt F) → (⟨S7x1, .i32⟩ : BufTy).Contents (Elt F)),
    StableHlo.unary main_v606 main_v608 (broadcastInDim S7x64 ![0, 1] bcast_S1x64_S7x64_0_1 : (⟨S1x64, .i32⟩ : BufTy).Contents (Elt F) → (⟨S7x64, .i32⟩ : BufTy).Contents (Elt F)),
    StableHlo.unary main_v607 main_v609 (broadcastInDim S7x64 ![0, 1] bcast_S7x1_S7x64_0_1 : (⟨S7x1, .i32⟩ : BufTy).Contents (Elt F) → (⟨S7x64, .i32⟩ : BufTy).Contents (Elt F)),
    StableHlo.binary main_v608 main_v609 main_v610 (cmpi .sge : (⟨S7x64, .i32⟩ : BufTy).Contents (Elt F) → (⟨S7x64, .i32⟩ : BufTy).Contents (Elt F) → (⟨S7x64, .i1⟩ : BufTy).Contents (Elt F)),
    StableHlo.unary main_v604 main_v611 (broadcastInDim S1x64 ![1] bcast_S64_S1x64_1 : (⟨S64, .i32⟩ : BufTy).Contents (Elt F) → (⟨S1x64, .i32⟩ : BufTy).Contents (Elt F)),
    StableHlo.unary main_v590 main_v612 (broadcastInDim S7x1 ![0] bcast_S7_S7x1_0 : (⟨S7, .i32⟩ : BufTy).Contents (Elt F) → (⟨S7x1, .i32⟩ : BufTy).Contents (Elt F)),
    StableHlo.unary main_v611 main_v613 (broadcastInDim S7x64 ![0, 1] bcast_S1x64_S7x64_0_1 : (⟨S1x64, .i32⟩ : BufTy).Contents (Elt F) → (⟨S7x64, .i32⟩ : BufTy).Contents (Elt F)),
    StableHlo.unary main_v612 main_v614 (broadcastInDim S7x64 ![0, 1] bcast_S7x1_S7x64_0_1 : (⟨S7x1, .i32⟩ : BufTy).Contents (Elt F) → (⟨S7x64, .i32⟩ : BufTy).Contents (Elt F)),
    StableHlo.binary main_v613 main_v614 main_v615 (cmpi .slt : (⟨S7x64, .i32⟩ : BufTy).Contents (Elt F) → (⟨S7x64, .i32⟩ : BufTy).Contents (Elt F) → (⟨S7x64, .i1⟩ : BufTy).Contents (Elt F)),
    StableHlo.binary main_v610 main_v615 main_v616 (andi : (⟨S7x64, .i1⟩ : BufTy).Contents (Elt F) → (⟨S7x64, .i1⟩ : BufTy).Contents (Elt F) → (⟨S7x64, .i1⟩ : BufTy).Contents (Elt F)),
    StableHlo.unary main_v605 main_v617 (broadcastInDim S1x64 ![1] bcast_S64_S1x64_1 : (⟨S64, .i32⟩ : BufTy).Contents (Elt F) → (⟨S1x64, .i32⟩ : BufTy).Contents (Elt F)),
    StableHlo.unary main_v595 main_v618 (broadcastInDim S7x1 ![0] bcast_S7_S7x1_0 : (⟨S7, .i32⟩ : BufTy).Contents (Elt F) → (⟨S7x1, .i32⟩ : BufTy).Contents (Elt F)),
    StableHlo.unary main_v617 main_v619 (broadcastInDim S7x64 ![0, 1] bcast_S1x64_S7x64_0_1 : (⟨S1x64, .i32⟩ : BufTy).Contents (Elt F) → (⟨S7x64, .i32⟩ : BufTy).Contents (Elt F)),
    StableHlo.unary main_v618 main_v620 (broadcastInDim S7x64 ![0, 1] bcast_S7x1_S7x64_0_1 : (⟨S7x1, .i32⟩ : BufTy).Contents (Elt F) → (⟨S7x64, .i32⟩ : BufTy).Contents (Elt F)),
    StableHlo.binary main_v619 main_v620 main_v621 (cmpi .sge : (⟨S7x64, .i32⟩ : BufTy).Contents (Elt F) → (⟨S7x64, .i32⟩ : BufTy).Contents (Elt F) → (⟨S7x64, .i1⟩ : BufTy).Contents (Elt F)),
    StableHlo.unary main_v605 main_v622 (broadcastInDim S1x64 ![1] bcast_S64_S1x64_1 : (⟨S64, .i32⟩ : BufTy).Contents (Elt F) → (⟨S1x64, .i32⟩ : BufTy).Contents (Elt F)),
    StableHlo.unary main_v603 main_v623 (broadcastInDim S7x1 ![0] bcast_S7_S7x1_0 : (⟨S7, .i32⟩ : BufTy).Contents (Elt F) → (⟨S7x1, .i32⟩ : BufTy).Contents (Elt F)),
    StableHlo.unary main_v622 main_v624 (broadcastInDim S7x64 ![0, 1] bcast_S1x64_S7x64_0_1 : (⟨S1x64, .i32⟩ : BufTy).Contents (Elt F) → (⟨S7x64, .i32⟩ : BufTy).Contents (Elt F)),
    StableHlo.unary main_v623 main_v625 (broadcastInDim S7x64 ![0, 1] bcast_S7x1_S7x64_0_1 : (⟨S7x1, .i32⟩ : BufTy).Contents (Elt F) → (⟨S7x64, .i32⟩ : BufTy).Contents (Elt F)),
    StableHlo.binary main_v624 main_v625 main_v626 (cmpi .slt : (⟨S7x64, .i32⟩ : BufTy).Contents (Elt F) → (⟨S7x64, .i32⟩ : BufTy).Contents (Elt F) → (⟨S7x64, .i1⟩ : BufTy).Contents (Elt F)),
    StableHlo.binary main_v621 main_v626 main_v627 (andi : (⟨S7x64, .i1⟩ : BufTy).Contents (Elt F) → (⟨S7x64, .i1⟩ : BufTy).Contents (Elt F) → (⟨S7x64, .i1⟩ : BufTy).Contents (Elt F)),
    StableHlo.unary main_v616 main_v628 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v629 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_82 (constant S_ .f32 0xFF800000#32),
    StableHlo.TRef.unary (.of main_v628 : StableHlo.TRef sig ⟨S7x1x64x1, .i1⟩) (.of main_call48_v0 : StableHlo.TRef sig ⟨S7x512x64x64, .i1⟩) (broadcastInDim S7x512x64x64 ![0, 1, 2, 3] bcast_S7x1x64x1_S7x512x64x64_0_1_2_3),
    StableHlo.TRef.unary (.of main_v629 : StableHlo.TRef sig ⟨S1x512x64x64, .f32⟩) (.of main_call48_v1 : StableHlo.TRef sig ⟨S7x512x64x64, .f32⟩) (broadcastInDim S7x512x64x64 ![0, 1, 2, 3] bcast_S1x512x64x64_S7x512x64x64_0_1_2_3),
    StableHlo.TRef.unary (.of main_cst_82 : StableHlo.TRef sig ⟨S_, .f32⟩) (.of main_call48_v2 : StableHlo.TRef sig ⟨S7x512x64x64, .f32⟩) (broadcastInDim S7x512x64x64 ![] bcast_S_S7x512x64x64),
    StableHlo.TRef.ternary (.of main_call48_v0 : StableHlo.TRef sig ⟨S7x512x64x64, .i1⟩) (.of main_call48_v1 : StableHlo.TRef sig ⟨S7x512x64x64, .f32⟩) (.of main_call48_v2 : StableHlo.TRef sig ⟨S7x512x64x64, .f32⟩) (.of main_v630 : StableHlo.TRef sig ⟨S7x512x64x64, .f32⟩) select,
    StableHlo.nullary main_cst_83 (constant S_ .f32 0xFF800000#32),
    StableHlo.binary main_v630 main_cst_83 main_v631 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v627 main_v632 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v631 main_v633 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_84 (constant S_ .f32 0xFF800000#32),
    StableHlo.TRef.unary (.of main_v632 : StableHlo.TRef sig ⟨S1x1x7x64, .i1⟩) (.of main_call49_v0 : StableHlo.TRef sig ⟨S7x512x7x64, .i1⟩) (broadcastInDim S7x512x7x64 ![0, 1, 2, 3] bcast_S1x1x7x64_S7x512x7x64_0_1_2_3),
    StableHlo.TRef.unary (.of main_v633 : StableHlo.TRef sig ⟨S7x512x1x64, .f32⟩) (.of main_call49_v1 : StableHlo.TRef sig ⟨S7x512x7x64, .f32⟩) (broadcastInDim S7x512x7x64 ![0, 1, 2, 3] bcast_S7x512x1x64_S7x512x7x64_0_1_2_3),
    StableHlo.TRef.unary (.of main_cst_84 : StableHlo.TRef sig ⟨S_, .f32⟩) (.of main_call49_v2 : StableHlo.TRef sig ⟨S7x512x7x64, .f32⟩) (broadcastInDim S7x512x7x64 ![] bcast_S_S7x512x7x64),
    StableHlo.TRef.ternary (.of main_call49_v0 : StableHlo.TRef sig ⟨S7x512x7x64, .i1⟩) (.of main_call49_v1 : StableHlo.TRef sig ⟨S7x512x7x64, .f32⟩) (.of main_call49_v2 : StableHlo.TRef sig ⟨S7x512x7x64, .f32⟩) (.of main_v634 : StableHlo.TRef sig ⟨S7x512x7x64, .f32⟩) select ]
/-- The buffers those operations write, in order. -/
abbrev ops25_W : List (Ref sig .tc) :=
  [main_call47_v0, main_call47_v1, main_call47_v2, main_call47_v3, main_call47_v4, main_call47_v5, main_call47_v6, main_call47_v7, main_call47_v8, main_call47_c, main_call47_v9, main_call47_v10, main_call47_v11, main_call47_c_0, main_call47_v12, main_call47_v13, main_v601, main_v602, main_v603, main_v604, main_v605, main_v606, main_v607, main_v608, main_v609, main_v610, main_v611, main_v612, main_v613, main_v614, main_v615, main_v616, main_v617, main_v618, main_v619, main_v620, main_v621, main_v622, main_v623, main_v624, main_v625, main_v626, main_v627, main_v628, main_v629, main_cst_82, main_call48_v0, main_call48_v1, main_call48_v2, main_v630, main_cst_83, main_v631, main_v632, main_v633, main_cst_84, main_call49_v0, main_call49_v1, main_call49_v2, main_v634]
/-- Each operation writes its own result buffer and nothing else. -/
theorem ops25_writes : (ops25 : List (HloOp τ sig (Elt F))).Forall fun op => op.writes ⊆ (ops25_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part3 : List (HloOp τ sig (Elt F)) :=
  ops20 ++ ops21 ++ ops22 ++ ops23 ++ ops24 ++ ops25
/-- The generated stretches 76 to 99, in order, are this part: the same operations, cut elsewhere. -/
theorem part3_is : ([hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99] : List (List (HloOp τ sig (Elt F)))).flatten = part3 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 954 to 1010 of the host part, in order. -/
abbrev ops20 : List (HloOp τ sig (Elt F)) :=
  [ StableHlo.nullary main_cst_65 (constant S_ .f32 0xFF800000#32),
    StableHlo.binary main_v466 main_cst_65 main_v467 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v467 main_v468 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v468 main_v469 rfl shapeCasts_S512x7x7_S25088,
    StableHlo.unary main_v18 main_v470 ((extractStridedSlice S1x1 ![0, 1] · slices_S3x4_S1x1_0_1) : (⟨S3x4, .i32⟩ : BufTy).Contents (Elt F) → (⟨S1x1, .i32⟩ : BufTy).Contents (Elt F)),
    StableHlo.reshape main_v470 main_v471 rfl shapeCasts_S1x1_S_,
    StableHlo.unary main_v23 main_v472 ((extractStridedSlice S1x1 ![2, 1] · slices_S4x4_S1x1_2_1) : (⟨S4x4, .i32⟩ : BufTy).Contents (Elt F) → (⟨S1x1, .i32⟩ : BufTy).Contents (Elt F)),
    StableHlo.reshape main_v472 main_v473 rfl shapeCasts_S1x1_S_,
    StableHlo.binary main_v471 main_v473 main_v474 (minsi : (⟨S_, .i32⟩ : BufTy).Contents (Elt F) → (⟨S_, .i32⟩ : BufTy).Contents (Elt F) → (⟨S_, .i32⟩ : BufTy).Contents (Elt F)),
    StableHlo.unary main_v18 main_v475 ((extractStridedSlice S1x1 ![0, 3] · slices_S3x4_S1x1_0_3) : (⟨S3x4, .i32⟩ : BufTy).Contents (Elt F) → (⟨S1x1, .i32⟩ : BufTy).Contents (Elt F)),
    StableHlo.reshape main_v475 main_v476 rfl shapeCasts_S1x1_S_,
    StableHlo.unary main_v23 main_v477 ((extractStridedSlice S1x1 ![2, 3] · slices_S4x4_S1x1_2_3) : (⟨S4x4, .i32⟩ : BufTy).Contents (Elt F) → (⟨S1x1, .i32⟩ : BufTy).Contents (Elt F)),
    StableHlo.reshape main_v477 main_v478 rfl shapeCasts_S1x1_S_,
    StableHlo.binary main_v476 main_v478 main_v479 (maxsi : (⟨S_, .i32⟩ : BufTy).Contents (Elt F) → (⟨S_, .i32⟩ : BufTy).Contents (Elt F) → (⟨S_, .i32⟩ : BufTy).Contents (Elt F)),
    StableHlo.unary main_v18 main_v480 ((extractStridedSlice S1x1 ![0, 0] · slices_S3x4_S1x1_0_0) : (⟨S3x4, .i32⟩ : BufTy).Contents (Elt F) → (⟨S1x1, .i32⟩ : BufTy).Contents (Elt F)),
    StableHlo.reshape main_v480 main_v481 rfl shapeCasts_S1x1_S_,
    StableHlo.unary main_v23 main_v482 ((extractStridedSlice S1x1 ![2, 0] · slices_S4x4_S1x1_2_0) : (⟨S4x4, .i32⟩ : BufTy).Contents (Elt F) → (⟨S1x1, .i32⟩ : BufTy).Contents (Elt F)),
    StableHlo.reshape main_v482 main_v483 rfl shapeCasts_S1x1_S_,
    StableHlo.binary main_v481 main_v483 main_v484 (minsi : (⟨S_, .i32⟩ : BufTy).Contents (Elt F) → (⟨S_, .i32⟩ : BufTy).Contents (Elt F) → (⟨S_, .i32⟩ : BufTy).Contents (Elt F)),
    StableHlo.unary main_v18 main_v485 ((extractStridedSlice S1x1 ![0, 2] · slices_S3x4_S1x1_0_2) : (⟨S3x4, .i32⟩ : BufTy).Contents (Elt F) → (⟨S1x1, .i32⟩ : BufTy).Contents (Elt F)),
    StableHlo.reshape main_v485 main_v486 rfl shapeCasts_S1x1_S_,
    StableHlo.unary main_v23 main_v487 ((extractStridedSlice S1x1 ![2, 2] · slices_S4x4_S1x1_2_2) : (⟨S4x4, .i32⟩ : BufTy).Contents (Elt F) → (⟨S1x1, .i32⟩ : BufTy).Contents (Elt F)),
    StableHlo.reshape main_v487 main_v488 rfl shapeCasts_S1x1_S_,
    StableHlo.binary main_v486 main_v488 main_v489 (maxsi : (⟨S_, .i32⟩ : BufTy).Contents (Elt F) → (⟨S_, .i32⟩ : BufTy).Contents (Elt F) → (⟨S_, .i32⟩ : BufTy).Contents (Elt F)),
    StableHlo.binary main_v479 main_v474 main_v490 (subi : (⟨S_, .i32⟩ : BufTy).Contents (Elt F) → (⟨S_, .i32⟩ : BufTy).Contents (Elt F) → (⟨S_, .i32⟩ : BufTy).Contents (Elt F)),
    StableHlo.binary main_v489 main_v484 main_v491 (subi : (⟨S_, .i32⟩ : BufTy).Contents (Elt F) → (⟨S_, .i32⟩ : BufTy).Contents (Elt F) → (⟨S_, .i32⟩ : BufTy).Contents (Elt F)),
    StableHlo.nullary main_v492 (iotaInDim S7 32 0),
    StableHlo.nullary main_v493 (iotaInDim S7 32 0),
    StableHlo.unary main_v490 main_v494 (broadcastInDim S7 ![] bcast_S_S7 : (⟨S_, .i32⟩ : BufTy).Contents (Elt F) → (⟨S7, .i32⟩ : BufTy).Contents (Elt F)),
    StableHlo.binary main_v492 main_v494 main_v495 (muli : (⟨S7, .i32⟩ : BufTy).Contents (Elt F) → (⟨S7, .i32⟩ : BufTy).Contents (Elt F) → (⟨S7, .i32⟩ : BufTy).Contents (Elt F)),
    StableHlo.nullary main_c_66 (constantI S_ 32 7#32),
    StableHlo.TRef.unary (.of main_c_66 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S7, .i32⟩) (broadcastInDim S7 ![] bcast_S_S7),
    StableHlo.TRef.binary (.of main_v495 : StableHlo.TRef sig ⟨S7, .i32⟩) (.of main_call38_v1 : StableHlo.TRef sig ⟨S7, .i32⟩) (.of main_call38_v2 : StableHlo.TRef sig ⟨S7, .i32⟩) Host.divsi,
    StableHlo.TRef.unary (.of main_v495 : StableHlo.TRef sig ⟨S7, .i32⟩) (.of main_call38_v3 : StableHlo.TRef sig ⟨S7, .i32⟩) signi,
    StableHlo.TRef.unary (.of main_call38_v0 : StableHlo.TRef sig ⟨S_, .i32⟩) (.of main_call38_v4 : StableHlo.TRef sig ⟨S_, .i32⟩) signi,
    StableHlo.TRef.unary (.of main_call38_v4 : StableHlo.TRef sig ⟨S_, .i32⟩) (.of main_call38_v5 : StableHlo.TRef sig ⟨S7, .i32⟩) (broadcastInDim S7 ![] bcast_S_S7),
    StableHlo.TRef.binary (.of main_call38_v3 : StableHlo.TRef sig ⟨S7, .i32⟩) (.of main_call38_v5 : StableHlo.TRef sig ⟨S7, .i32⟩) (.of main_call38_v6 : StableHlo.TRef sig ⟨S7, .i1⟩) (cmpi .ne),
    StableHlo.TRef.unary (.of main_call38_v0 : StableHlo.TRef sig ⟨S_, .i32⟩) (.of main_call38_v7 : StableHlo.TRef sig ⟨S7, .i32⟩) (broadcastInDim S7 ![] bcast_S_S7),
    StableHlo.TRef.binary (.of main_v495 : StableHlo.TRef sig ⟨S7, .i32⟩) (.of main_call38_v7 : StableHlo.TRef sig ⟨S7, .i32⟩) (.of main_call38_v8 : StableHlo.TRef sig ⟨S7, .i32⟩) Host.remsi,
    StableHlo.TRef.nullary (.of main_call38_c : StableHlo.TRef sig ⟨S_, .i32⟩) (constantI S_ 32 0#32),
    StableHlo.TRef.unary (.of main_call38_c : StableHlo.TRef sig ⟨S_, .i32⟩) (.of main_call38_v9 : StableHlo.TRef sig ⟨S7, .i32⟩) (broadcastInDim S7 ![] bcast_S_S7),
    StableHlo.TRef.binary (.of main_call38_v8 : StableHlo.TRef sig ⟨S7, .i32⟩) (.of main_call38_v9 : StableHlo.TRef sig ⟨S7, .i32⟩) (.of main_call38_v10 : StableHlo.TRef sig ⟨S7, .i1⟩) (cmpi .ne),
    StableHlo.TRef.binary (.of main_call38_v6 : StableHlo.TRef sig ⟨S7, .i1⟩) (.of main_call38_v10 : StableHlo.TRef sig ⟨S7, .i1⟩) (.of main_call38_v11 : StableHlo.TRef sig ⟨S7, .i1⟩) andi,
    StableHlo.TRef.nullary (.of main_call38_c_0 : StableHlo.TRef sig ⟨S_, .i32⟩) (constantI S_ 32 1#32),
    StableHlo.TRef.unary (.of main_call38_c_0 : StableHlo.TRef sig ⟨S_, .i32⟩) (.of main_call38_v12 : StableHlo.TRef sig ⟨S7, .i32⟩) (broadcastInDim S7 ![] bcast_S_S7),
    StableHlo.TRef.binary (.of main_call38_v2 : StableHlo.TRef sig ⟨S7, .i32⟩) (.of main_call38_v12 : StableHlo.TRef sig ⟨S7, .i32⟩) (.of main_call38_v13 : StableHlo.TRef sig ⟨S7, .i32⟩) subi,
    StableHlo.TRef.ternary (.of main_call38_v11 : StableHlo.TRef sig ⟨S7, .i1⟩) (.of main_call38_v13 : StableHlo.TRef sig ⟨S7, .i32⟩) (.of main_call38_v2 : StableHlo.TRef sig ⟨S7, .i32⟩) (.of main_v496 : StableHlo.TRef sig ⟨S7, .i32⟩) select,
    StableHlo.unary main_v474 main_v497 (broadcastInDim S7 ![] bcast_S_S7 : (⟨S_, .i32⟩ : BufTy).Contents (Elt F) → (⟨S7, .i32⟩ : BufTy).Contents (Elt F)),
    StableHlo.binary main_v497 main_v496 main_v498 (addi : (⟨S7, .i32⟩ : BufTy).Contents (Elt F) → (⟨S7, .i32⟩ : BufTy).Contents (Elt F) → (⟨S7, .i32⟩ : BufTy).Contents (Elt F)),
    StableHlo.nullary main_c_67 (constantI S_ 32 1#32),
    StableHlo.unary main_c_67 main_v499 (broadcastInDim S7 ![] bcast_S_S7 : (⟨S_, .i32⟩ : BufTy).Contents (Elt F) → (⟨S7, .i32⟩ : BufTy).Contents (Elt F)),
    StableHlo.binary main_v492 main_v499 main_v500 (addi : (⟨S7, .i32⟩ : BufTy).Contents (Elt F) → (⟨S7, .i32⟩ : BufTy).Contents (Elt F) → (⟨S7, .i32⟩ : BufTy).Contents (Elt F)),
    StableHlo.unary main_v500 main_v501 (negi : (⟨S7, .i32⟩ : BufTy).Contents (Elt F) → (⟨S7, .i32⟩ : BufTy).Contents (Elt F)),
    StableHlo.unary main_v490 main_v502 (broadcastInDim S7 ![] bcast_S_S7 : (⟨S_, .i32⟩ : BufTy).Contents (Elt F) → (⟨S7, .i32⟩ : BufTy).Contents (Elt F)),
    StableHlo.binary main_v501 main_v502 main_v503 (muli : (⟨S7, .i32⟩ : BufTy).Contents (Elt F) → (⟨S7, .i32⟩ : BufTy).Contents (Elt F) → (⟨S7, .i32⟩ : BufTy).Contents (Elt F)),
    StableHlo.nullary main_c_68 (constantI S_ 32 7#32) ]
/-- The buffers those operations write, in order. -/
abbrev ops20_W : List (Ref sig .tc) :=
  [main_cst_65, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_c_66, main_call38_v0, main_call38_v1, main_call38_v2, main_call38_v3, main_call38_v4, main_call38_v5, main_call38_v6, main_call38_v7, main_call38_v8, main_call38_c, main_call38_v9, main_call38_v10, main_call38_v11, main_call38_c_0, main_call38_v12, main_call38_v13, main_v496, main_v497, main_v498, main_c_67, main_v499, main_v500, main_v501, main_v502, main_v503, main_c_68]
/-- Each operation writes its own result buffer and nothing else. -/
theorem ops20_writes : (ops20 : List (HloOp τ sig (Elt F))).Forall fun op => op.writes ⊆ (ops20_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1011 to 1058 of the host part, in order. -/
abbrev ops21 : List (HloOp τ sig (Elt F)) :=
  [ StableHlo.TRef.unary (.of main_c_68 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S7, .i32⟩) (broadcastInDim S7 ![] bcast_S_S7),
    StableHlo.TRef.binary (.of main_v503 : StableHlo.TRef sig ⟨S7, .i32⟩) (.of main_call39_v1 : StableHlo.TRef sig ⟨S7, .i32⟩) (.of main_call39_v2 : StableHlo.TRef sig ⟨S7, .i32⟩) Host.divsi,
    StableHlo.TRef.unary (.of main_v503 : StableHlo.TRef sig ⟨S7, .i32⟩) (.of main_call39_v3 : StableHlo.TRef sig ⟨S7, .i32⟩) signi,
    StableHlo.TRef.unary (.of main_call39_v0 : StableHlo.TRef sig ⟨S_, .i32⟩) (.of main_call39_v4 : StableHlo.TRef sig ⟨S_, .i32⟩) signi,
    StableHlo.TRef.unary (.of main_call39_v4 : StableHlo.TRef sig ⟨S_, .i32⟩) (.of main_call39_v5 : StableHlo.TRef sig ⟨S7, .i32⟩) (broadcastInDim S7 ![] bcast_S_S7),
    StableHlo.TRef.binary (.of main_call39_v3 : StableHlo.TRef sig ⟨S7, .i32⟩) (.of main_call39_v5 : StableHlo.TRef sig ⟨S7, .i32⟩) (.of main_call39_v6 : StableHlo.TRef sig ⟨S7, .i1⟩) (cmpi .ne),
    StableHlo.TRef.unary (.of main_call39_v0 : StableHlo.TRef sig ⟨S_, .i32⟩) (.of main_call39_v7 : StableHlo.TRef sig ⟨S7, .i32⟩) (broadcastInDim S7 ![] bcast_S_S7),
    StableHlo.TRef.binary (.of main_v503 : StableHlo.TRef sig ⟨S7, .i32⟩) (.of main_call39_v7 : StableHlo.TRef sig ⟨S7, .i32⟩) (.of main_call39_v8 : StableHlo.TRef sig ⟨S7, .i32⟩) Host.remsi,
    StableHlo.TRef.nullary (.of main_call39_c : StableHlo.TRef sig ⟨S_, .i32⟩) (constantI S_ 32 0#32),
    StableHlo.TRef.unary (.of main_call39_c : StableHlo.TRef sig ⟨S_, .i32⟩) (.of main_call39_v9 : StableHlo.TRef sig ⟨S7, .i32⟩) (broadcastInDim S7 ![] bcast_S_S7),
    StableHlo.TRef.binary (.of main_call39_v8 : StableHlo.TRef sig ⟨S7, .i32⟩) (.of main_call39_v9 : StableHlo.TRef sig ⟨S7, .i32⟩) (.of main_call39_v10 : StableHlo.TRef sig ⟨S7, .i1⟩) (cmpi .ne),
    StableHlo.TRef.binary (.of main_call39_v6 : StableHlo.TRef sig ⟨S7, .i1⟩) (.of main_call39_v10 : StableHlo.TRef sig ⟨S7, .i1⟩) (.of main_call39_v11 : StableHlo.TRef sig ⟨S7, .i1⟩) andi,
    StableHlo.TRef.nullary (.of main_call39_c_0 : StableHlo.TRef sig ⟨S_, .i32⟩) (constantI S_ 32 1#32),
    StableHlo.TRef.unary (.of main_call39_c_0 : StableHlo.TRef sig ⟨S_, .i32⟩) (.of main_call39_v12 : StableHlo.TRef sig ⟨S7, .i32⟩) (broadcastInDim S7 ![] bcast_S_S7),
    StableHlo.TRef.binary (.of main_call39_v2 : StableHlo.TRef sig ⟨S7, .i32⟩) (.of main_call39_v12 : StableHlo.TRef sig ⟨S7, .i32⟩) (.of main_call39_v13 : StableHlo.TRef sig ⟨S7, .i32⟩) subi,
    StableHlo.TRef.ternary (.of main_call39_v11 : StableHlo.TRef sig ⟨S7, .i1⟩) (.of main_call39_v13 : StableHlo.TRef sig ⟨S7, .i32⟩) (.of main_call39_v2 : StableHlo.TRef sig ⟨S7, .i32⟩) (.of main_v504 : StableHlo.TRef sig ⟨S7, .i32⟩) select,
    StableHlo.unary main_v474 main_v505 (broadcastInDim S7 ![] bcast_S_S7 : (⟨S_, .i32⟩ : BufTy).Contents (Elt F) → (⟨S7, .i32⟩ : BufTy).Contents (Elt F)),
    StableHlo.binary main_v505 main_v504 main_v506 (subi : (⟨S7, .i32⟩ : BufTy).Contents (Elt F) → (⟨S7, .i32⟩ : BufTy).Contents (Elt F) → (⟨S7, .i32⟩ : BufTy).Contents (Elt F)),
    StableHlo.unary main_v491 main_v507 (broadcastInDim S7 ![] bcast_S_S7 : (⟨S_, .i32⟩ : BufTy).Contents (Elt F) → (⟨S7, .i32⟩ : BufTy).Contents (Elt F)),
    StableHlo.binary main_v493 main_v507 main_v508 (muli : (⟨S7, .i32⟩ : BufTy).Contents (Elt F) → (⟨S7, .i32⟩ : BufTy).Contents (Elt F) → (⟨S7, .i32⟩ : BufTy).Contents (Elt F)),
    StableHlo.nullary main_c_69 (constantI S_ 32 7#32),
    StableHlo.TRef.unary (.of main_c_69 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S7, .i32⟩) (broadcastInDim S7 ![] bcast_S_S7),
    StableHlo.TRef.binary (.of main_v508 : StableHlo.TRef sig ⟨S7, .i32⟩) (.of main_call40_v1 : StableHlo.TRef sig ⟨S7, .i32⟩) (.of main_call40_v2 : StableHlo.TRef sig ⟨S7, .i32⟩) Host.divsi,
    StableHlo.TRef.unary (.of main_v508 : StableHlo.TRef sig ⟨S7, .i32⟩) (.of main_call40_v3 : StableHlo.TRef sig ⟨S7, .i32⟩) signi,
    StableHlo.TRef.unary (.of main_call40_v0 : StableHlo.TRef sig ⟨S_, .i32⟩) (.of main_call40_v4 : StableHlo.TRef sig ⟨S_, .i32⟩) signi,
    StableHlo.TRef.unary (.of main_call40_v4 : StableHlo.TRef sig ⟨S_, .i32⟩) (.of main_call40_v5 : StableHlo.TRef sig ⟨S7, .i32⟩) (broadcastInDim S7 ![] bcast_S_S7),
    StableHlo.TRef.binary (.of main_call40_v3 : StableHlo.TRef sig ⟨S7, .i32⟩) (.of main_call40_v5 : StableHlo.TRef sig ⟨S7, .i32⟩) (.of main_call40_v6 : StableHlo.TRef sig ⟨S7, .i1⟩) (cmpi .ne),
    StableHlo.TRef.unary (.of main_call40_v0 : StableHlo.TRef sig ⟨S_, .i32⟩) (.of main_call40_v7 : StableHlo.TRef sig ⟨S7, .i32⟩) (broadcastInDim S7 ![] bcast_S_S7),
    StableHlo.TRef.binary (.of main_v508 : StableHlo.TRef sig ⟨S7, .i32⟩) (.of main_call40_v7 : StableHlo.TRef sig ⟨S7, .i32⟩) (.of main_call40_v8 : StableHlo.TRef sig ⟨S7, .i32⟩) Host.remsi,
    StableHlo.TRef.nullary (.of main_call40_c : StableHlo.TRef sig ⟨S_, .i32⟩) (constantI S_ 32 0#32),
    StableHlo.TRef.unary (.of main_call40_c : StableHlo.TRef sig ⟨S_, .i32⟩) (.of main_call40_v9 : StableHlo.TRef sig ⟨S7, .i32⟩) (broadcastInDim S7 ![] bcast_S_S7),
    StableHlo.TRef.binary (.of main_call40_v8 : StableHlo.TRef sig ⟨S7, .i32⟩) (.of main_call40_v9 : StableHlo.TRef sig ⟨S7, .i32⟩) (.of main_call40_v10 : StableHlo.TRef sig ⟨S7, .i1⟩) (cmpi .ne),
    StableHlo.TRef.binary (.of main_call40_v6 : StableHlo.TRef sig ⟨S7, .i1⟩) (.of main_call40_v10 : StableHlo.TRef sig ⟨S7, .i1⟩) (.of main_call40_v11 : StableHlo.TRef sig ⟨S7, .i1⟩) andi,
    StableHlo.TRef.nullary (.of main_call40_c_0 : StableHlo.TRef sig ⟨S_, .i32⟩) (constantI S_ 32 1#32),
    StableHlo.TRef.unary (.of main_call40_c_0 : StableHlo.TRef sig ⟨S_, .i32⟩) (.of main_call40_v12 : StableHlo.TRef sig ⟨S7, .i32⟩) (broadcastInDim S7 ![] bcast_S_S7),
    StableHlo.TRef.binary (.of main_call40_v2 : StableHlo.TRef sig ⟨S7, .i32⟩) (.of main_call40_v12 : StableHlo.TRef sig ⟨S7, .i32⟩) (.of main_call40_v13 : StableHlo.TRef sig ⟨S7, .i32⟩) subi,
    StableHlo.TRef.ternary (.of main_call40_v11 : StableHlo.TRef sig ⟨S7, .i1⟩) (.of main_call40_v13 : StableHlo.TRef sig ⟨S7, .i32⟩) (.of main_call40_v2 : StableHlo.TRef sig ⟨S7, .i32⟩) (.of main_v509 : StableHlo.TRef sig ⟨S7, .i32⟩) select,
    StableHlo.unary main_v484 main_v510 (broadcastInDim S7 ![] bcast_S_S7 : (⟨S_, .i32⟩ : BufTy).Contents (Elt F) → (⟨S7, .i32⟩ : BufTy).Contents (Elt F)),
    StableHlo.binary main_v510 main_v509 main_v511 (addi : (⟨S7, .i32⟩ : BufTy).Contents (Elt F) → (⟨S7, .i32⟩ : BufTy).Contents (Elt F) → (⟨S7, .i32⟩ : BufTy).Contents (Elt F)),
    StableHlo.nullary main_c_70 (constantI S_ 32 1#32),
    StableHlo.unary main_c_70 main_v512 (broadcastInDim S7 ![] bcast_S_S7 : (⟨S_, .i32⟩ : BufTy).Contents (Elt F) → (⟨S7, .i32⟩ : BufTy).Contents (Elt F)),
    StableHlo.binary main_v493 main_v512 main_v513 (addi : (⟨S7, .i32⟩ : BufTy).Contents (Elt F) → (⟨S7, .i32⟩ : BufTy).Contents (Elt F) → (⟨S7, .i32⟩ : BufTy).Contents (Elt F)),
    StableHlo.unary main_v513 main_v514 (negi : (⟨S7, .i32⟩ : BufTy).Contents (Elt F) → (⟨S7, .i32⟩ : BufTy).Contents (Elt F)),
    StableHlo.unary main_v491 main_v515 (broadcastInDim S7 ![] bcast_S_S7 : (⟨S_, .i32⟩ : BufTy).Contents (Elt F) → (⟨S7, .i32⟩ : BufTy).Contents (Elt F)),
    StableHlo.binary main_v514 main_v515 main_v516 (muli : (⟨S7, .i32⟩ : BufTy).Contents (Elt F) → (⟨S7, .i32⟩ : BufTy).Contents (Elt F) → (⟨S7, .i32⟩ : BufTy).Contents (Elt F)),
    StableHlo.nullary main_c_71 (constantI S_ 32 7#32) ]
/-- The buffers those operations write, in order. -/
abbrev ops21_W : List (Ref sig .tc) :=
  [main_call39_v0, main_call39_v1, main_call39_v2, main_call39_v3, main_call39_v4, main_call39_v5, main_call39_v6, main_call39_v7, main_call39_v8, main_call39_c, main_call39_v9, main_call39_v10, main_call39_v11, main_call39_c_0, main_call39_v12, main_call39_v13, main_v504, main_v505, main_v506, main_v507, main_v508, main_c_69, main_call40_v0, main_call40_v1, main_call40_v2, main_call40_v3, main_call40_v4, main_call40_v5, main_call40_v6, main_call40_v7, main_call40_v8, main_call40_c, main_call40_v9, main_call40_v10, main_call40_v11, main_call40_c_0, main_call40_v12, main_call40_v13, main_v509, main_v510, main_v511, main_c_70, main_v512, main_v513, main_v514, main_v515, main_v516, main_c_71]
/-- Each operation writes its own result buffer and nothing else. -/
theorem ops21_writes : (ops21 : List (HloOp τ sig (Elt F))).Forall fun op => op.writes ⊆ (ops21_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1059 to 1117 of the host part, in order. -/
abbrev ops22 : List (HloOp τ sig (Elt F)) :=
  [ StableHlo.TRef.unary (.of main_c_71 : StableHlo.TRef sig ⟨S_, .i32⟩) (.of main_call41_v0 : StableHlo.TRef sig ⟨S_, .i32⟩) id,
    StableHlo.TRef.unary (.of main_call41_v0 : StableHlo.TRef sig ⟨S_, .i32⟩) (.of main_call41_v1 : StableHlo.TRef sig ⟨S7, .i32⟩) (broadcastInDim S7 ![] bcast_S_S7),
    StableHlo.TRef.binary (.of main_v516 : StableHlo.TRef sig ⟨S7, .i32⟩) (.of main_call41_v1 : StableHlo.TRef sig ⟨S7, .i32⟩) (.of main_call41_v2 : StableHlo.TRef sig ⟨S7, .i32⟩) Host.divsi,
    StableHlo.TRef.unary (.of main_v516 : StableHlo.TRef sig ⟨S7, .i32⟩) (.of main_call41_v3 : StableHlo.TRef sig ⟨S7, .i32⟩) signi,
    StableHlo.TRef.unary (.of main_call41_v0 : StableHlo.TRef sig ⟨S_, .i32⟩) (.of main_call41_v4 : StableHlo.TRef sig ⟨S_, .i32⟩) signi,
    StableHlo.TRef.unary (.of main_call41_v4 : StableHlo.TRef sig ⟨S_, .i32⟩) (.of main_call41_v5 : StableHlo.TRef sig ⟨S7, .i32⟩) (broadcastInDim S7 ![] bcast_S_S7),
    StableHlo.TRef.binary (.of main_call41_v3 : StableHlo.TRef sig ⟨S7, .i32⟩) (.of main_call41_v5 : StableHlo.TRef sig ⟨S7, .i32⟩) (.of main_call41_v6 : StableHlo.TRef sig ⟨S7, .i1⟩) (cmpi .ne),
    StableHlo.TRef.unary (.of main_call41_v0 : StableHlo.TRef sig ⟨S_, .i32⟩) (.of main_call41_v7 : StableHlo.TRef sig ⟨S7, .i32⟩) (broadcastInDim S7 ![] bcast_S_S7),
    StableHlo.TRef.binary (.of main_v516 : StableHlo.TRef sig ⟨S7, .i32⟩) (.of main_call41_v7 : StableHlo.TRef sig ⟨S7, .i32⟩) (.of main_call41_v8 : StableHlo.TRef sig ⟨S7, .i32⟩) Host.remsi,
    StableHlo.TRef.nullary (.of main_call41_c : StableHlo.TRef sig ⟨S_, .i32⟩) (constantI S_ 32 0#32),
    StableHlo.TRef.unary (.of main_call41_c : StableHlo.TRef sig ⟨S_, .i32⟩) (.of main_call41_v9 : StableHlo.TRef sig ⟨S7, .i32⟩) (broadcastInDim S7 ![] bcast_S_S7),
    StableHlo.TRef.binary (.of main_call41_v8 : StableHlo.TRef sig ⟨S7, .i32⟩) (.of main_call41_v9 : StableHlo.TRef sig ⟨S7, .i32⟩) (.of main_call41_v10 : StableHlo.TRef sig ⟨S7, .i1⟩) (cmpi .ne),
    StableHlo.TRef.binary (.of main_call41_v6 : StableHlo.TRef sig ⟨S7, .i1⟩) (.of main_call41_v10 : StableHlo.TRef sig ⟨S7, .i1⟩) (.of main_call41_v11 : StableHlo.TRef sig ⟨S7, .i1⟩) andi,
    StableHlo.TRef.nullary (.of main_call41_c_0 : StableHlo.TRef sig ⟨S_, .i32⟩) (constantI S_ 32 1#32),
    StableHlo.TRef.unary (.of main_call41_c_0 : StableHlo.TRef sig ⟨S_, .i32⟩) (.of main_call41_v12 : StableHlo.TRef sig ⟨S7, .i32⟩) (broadcastInDim S7 ![] bcast_S_S7),
    StableHlo.TRef.binary (.of main_call41_v2 : StableHlo.TRef sig ⟨S7, .i32⟩) (.of main_call41_v12 : StableHlo.TRef sig ⟨S7, .i32⟩) (.of main_call41_v13 : StableHlo.TRef sig ⟨S7, .i32⟩) subi,
    StableHlo.TRef.ternary (.of main_call41_v11 : StableHlo.TRef sig ⟨S7, .i1⟩) (.of main_call41_v13 : StableHlo.TRef sig ⟨S7, .i32⟩) (.of main_call41_v2 : StableHlo.TRef sig ⟨S7, .i32⟩) (.of main_v517 : StableHlo.TRef sig ⟨S7, .i32⟩) select,
    StableHlo.unary main_v484 main_v518 (broadcastInDim S7 ![] bcast_S_S7 : (⟨S_, .i32⟩ : BufTy).Contents (Elt F) → (⟨S7, .i32⟩ : BufTy).Contents (Elt F)),
    StableHlo.binary main_v518 main_v517 main_v519 (subi : (⟨S7, .i32⟩ : BufTy).Contents (Elt F) → (⟨S7, .i32⟩ : BufTy).Contents (Elt F) → (⟨S7, .i32⟩ : BufTy).Contents (Elt F)),
    StableHlo.nullary main_v520 (iotaInDim S64 32 0),
    StableHlo.nullary main_v521 (iotaInDim S64 32 0),
    StableHlo.unary main_v520 main_v522 (broadcastInDim S1x64 ![1] bcast_S64_S1x64_1 : (⟨S64, .i32⟩ : BufTy).Contents (Elt F) → (⟨S1x64, .i32⟩ : BufTy).Contents (Elt F)),
    StableHlo.unary main_v498 main_v523 (broadcastInDim S7x1 ![0] bcast_S7_S7x1_0 : (⟨S7, .i32⟩ : BufTy).Contents (Elt F) → (⟨S7x1, .i32⟩ : BufTy).Contents (Elt F)),
    StableHlo.unary main_v522 main_v524 (broadcastInDim S7x64 ![0, 1] bcast_S1x64_S7x64_0_1 : (⟨S1x64, .i32⟩ : BufTy).Contents (Elt F) → (⟨S7x64, .i32⟩ : BufTy).Contents (Elt F)),
    StableHlo.unary main_v523 main_v525 (broadcastInDim S7x64 ![0, 1] bcast_S7x1_S7x64_0_1 : (⟨S7x1, .i32⟩ : BufTy).Contents (Elt F) → (⟨S7x64, .i32⟩ : BufTy).Contents (Elt F)),
    StableHlo.binary main_v524 main_v525 main_v526 (cmpi .sge : (⟨S7x64, .i32⟩ : BufTy).Contents (Elt F) → (⟨S7x64, .i32⟩ : BufTy).Contents (Elt F) → (⟨S7x64, .i1⟩ : BufTy).Contents (Elt F)),
    StableHlo.unary main_v520 main_v527 (broadcastInDim S1x64 ![1] bcast_S64_S1x64_1 : (⟨S64, .i32⟩ : BufTy).Contents (Elt F) → (⟨S1x64, .i32⟩ : BufTy).Contents (Elt F)),
    StableHlo.unary main_v506 main_v528 (broadcastInDim S7x1 ![0] bcast_S7_S7x1_0 : (⟨S7, .i32⟩ : BufTy).Contents (Elt F) → (⟨S7x1, .i32⟩ : BufTy).Contents (Elt F)),
    StableHlo.unary main_v527 main_v529 (broadcastInDim S7x64 ![0, 1] bcast_S1x64_S7x64_0_1 : (⟨S1x64, .i32⟩ : BufTy).Contents (Elt F) → (⟨S7x64, .i32⟩ : BufTy).Contents (Elt F)),
    StableHlo.unary main_v528 main_v530 (broadcastInDim S7x64 ![0, 1] bcast_S7x1_S7x64_0_1 : (⟨S7x1, .i32⟩ : BufTy).Contents (Elt F) → (⟨S7x64, .i32⟩ : BufTy).Contents (Elt F)),
    StableHlo.binary main_v529 main_v530 main_v531 (cmpi .slt : (⟨S7x64, .i32⟩ : BufTy).Contents (Elt F) → (⟨S7x64, .i32⟩ : BufTy).Contents (Elt F) → (⟨S7x64, .i1⟩ : BufTy).Contents (Elt F)),
    StableHlo.binary main_v526 main_v531 main_v532 (andi : (⟨S7x64, .i1⟩ : BufTy).Contents (Elt F) → (⟨S7x64, .i1⟩ : BufTy).Contents (Elt F) → (⟨S7x64, .i1⟩ : BufTy).Contents (Elt F)),
    StableHlo.unary main_v521 main_v533 (broadcastInDim S1x64 ![1] bcast_S64_S1x64_1 : (⟨S64, .i32⟩ : BufTy).Contents (Elt F) → (⟨S1x64, .i32⟩ : BufTy).Contents (Elt F)),
    StableHlo.unary main_v511 main_v534 (broadcastInDim S7x1 ![0] bcast_S7_S7x1_0 : (⟨S7, .i32⟩ : BufTy).Contents (Elt F) → (⟨S7x1, .i32⟩ : BufTy).Contents (Elt F)),
    StableHlo.unary main_v533 main_v535 (broadcastInDim S7x64 ![0, 1] bcast_S1x64_S7x64_0_1 : (⟨S1x64, .i32⟩ : BufTy).Contents (Elt F) → (⟨S7x64, .i32⟩ : BufTy).Contents (Elt F)),
    StableHlo.unary main_v534 main_v536 (broadcastInDim S7x64 ![0, 1] bcast_S7x1_S7x64_0_1 : (⟨S7x1, .i32⟩ : BufTy).Contents (Elt F) → (⟨S7x64, .i32⟩ : BufTy).Contents (Elt F)),
    StableHlo.binary main_v535 main_v536 main_v537 (cmpi .sge : (⟨S7x64, .i32⟩ : BufTy).Contents (Elt F) → (⟨S7x64, .i32⟩ : BufTy).Contents (Elt F) → (⟨S7x64, .i1⟩ : BufTy).Contents (Elt F)),
    StableHlo.unary main_v521 main_v538 (broadcastInDim S1x64 ![1] bcast_S64_S1x64_1 : (⟨S64, .i32⟩ : BufTy).Contents (Elt F) → (⟨S1x64, .i32⟩ : BufTy).Contents (Elt F)),
    StableHlo.unary main_v519 main_v539 (broadcastInDim S7x1 ![0] bcast_S7_S7x1_0 : (⟨S7, .i32⟩ : BufTy).Contents (Elt F) → (⟨S7x1, .i32⟩ : BufTy).Contents (Elt F)),
    StableHlo.unary main_v538 main_v540 (broadcastInDim S7x64 ![0, 1] bcast_S1x64_S7x64_0_1 : (⟨S1x64, .i32⟩ : BufTy).Contents (Elt F) → (⟨S7x64, .i32⟩ : BufTy).Contents (Elt F)),
    StableHlo.unary main_v539 main_v541 (broadcastInDim S7x64 ![0, 1] bcast_S7x1_S7x64_0_1 : (⟨S7x1, .i32⟩ : BufTy).Contents (Elt F) → (⟨S7x64, .i32⟩ : BufTy).Contents (Elt F)),
    StableHlo.binary main_v540 main_v541 main_v542 (cmpi .slt : (⟨S7x64, .i32⟩ : BufTy).Contents (Elt F) → (⟨S7x64, .i32⟩ : BufTy).Contents (Elt F) → (⟨S7x64, .i1⟩ : BufTy).Contents (Elt F)),
    StableHlo.binary main_v537 main_v542 main_v543 (andi : (⟨S7x64, .i1⟩ : BufTy).Contents (Elt F) → (⟨S7x64, .i1⟩ : BufTy).Contents (Elt F) → (⟨S7x64, .i1⟩ : BufTy).Contents (Elt F)),
    StableHlo.unary main_v532 main_v544 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v545 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_72 (constant S_ .f32 0xFF800000#32),
    StableHlo.TRef.unary (.of main_v544 : StableHlo.TRef sig ⟨S7x1x64x1, .i1⟩) (.of main_call42_v0 : StableHlo.TRef sig ⟨S7x512x64x64, .i1⟩) (broadcastInDim S7x512x64x64 ![0, 1, 2, 3] bcast_S7x1x64x1_S7x512x64x64_0_1_2_3),
    StableHlo.TRef.unary (.of main_v545 : StableHlo.TRef sig ⟨S1x512x64x64, .f32⟩) (.of main_call42_v1 : StableHlo.TRef sig ⟨S7x512x64x64, .f32⟩) (broadcastInDim S7x512x64x64 ![0, 1, 2, 3] bcast_S1x512x64x64_S7x512x64x64_0_1_2_3),
    StableHlo.TRef.unary (.of main_cst_72 : StableHlo.TRef sig ⟨S_, .f32⟩) (.of main_call42_v2 : StableHlo.TRef sig ⟨S7x512x64x64, .f32⟩) (broadcastInDim S7x512x64x64 ![] bcast_S_S7x512x64x64),
    StableHlo.TRef.ternary (.of main_call42_v0 : StableHlo.TRef sig ⟨S7x512x64x64, .i1⟩) (.of main_call42_v1 : StableHlo.TRef sig ⟨S7x512x64x64, .f32⟩) (.of main_call42_v2 : StableHlo.TRef sig ⟨S7x512x64x64, .f32⟩) (.of main_v546 : StableHlo.TRef sig ⟨S7x512x64x64, .f32⟩) select,
    StableHlo.nullary main_cst_73 (constant S_ .f32 0xFF800000#32),
    StableHlo.binary main_v546 main_cst_73 main_v547 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v543 main_v548 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v547 main_v549 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_74 (constant S_ .f32 0xFF800000#32),
    StableHlo.TRef.unary (.of main_v548 : StableHlo.TRef sig ⟨S1x1x7x64, .i1⟩) (.of main_call43_v0 : StableHlo.TRef sig ⟨S7x512x7x64, .i1⟩) (broadcastInDim S7x512x7x64 ![0, 1, 2, 3] bcast_S1x1x7x64_S7x512x7x64_0_1_2_3),
    StableHlo.TRef.unary (.of main_v549 : StableHlo.TRef sig ⟨S7x512x1x64, .f32⟩) (.of main_call43_v1 : StableHlo.TRef sig ⟨S7x512x7x64, .f32⟩) (broadcastInDim S7x512x7x64 ![0, 1, 2, 3] bcast_S7x512x1x64_S7x512x7x64_0_1_2_3),
    StableHlo.TRef.unary (.of main_cst_74 : StableHlo.TRef sig ⟨S_, .f32⟩) (.of main_call43_v2 : StableHlo.TRef sig ⟨S7x512x7x64, .f32⟩) (broadcastInDim S7x512x7x64 ![] bcast_S_S7x512x7x64),
    StableHlo.TRef.ternary (.of main_call43_v0 : StableHlo.TRef sig ⟨S7x512x7x64, .i1⟩) (.of main_call43_v1 : StableHlo.TRef sig ⟨S7x512x7x64, .f32⟩) (.of main_call43_v2 : StableHlo.TRef sig ⟨S7x512x7x64, .f32⟩) (.of main_v550 : StableHlo.TRef sig ⟨S7x512x7x64, .f32⟩) select ]
/-- The buffers those operations write, in order. -/
abbrev ops22_W : List (Ref sig .tc) :=
  [main_call41_v0, main_call41_v1, main_call41_v2, main_call41_v3, main_call41_v4, main_call41_v5, main_call41_v6, main_call41_v7, main_call41_v8, main_call41_c, main_call41_v9, main_call41_v10, main_call41_v11, main_call41_c_0, main_call41_v12, main_call41_v13, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_cst_72, main_call42_v0, main_call42_v1, main_call42_v2, main_v546, main_cst_73, main_v547, main_v548, main_v549, main_cst_74, main_call43_v0, main_call43_v1, main_call43_v2, main_v550]
/-- Each operation writes its own result buffer and nothing else. -/
theorem ops22_writes : (ops22 : List (HloOp τ sig (Elt F))).Forall fun op => op.writes ⊆ (ops22_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1118 to 1174 of the host part, in order. -/
abbrev ops23 : List (HloOp τ sig (Elt F)) :=
  [ StableHlo.nullary main_cst_75 (constant S_ .f32 0xFF800000#32),
    StableHlo.binary main_v550 main_cst_75 main_v551 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v551 main_v552 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v552 main_v553 rfl shapeCasts_S512x7x7_S25088,
    StableHlo.unary main_v18 main_v554 ((extractStridedSlice S1x1 ![0, 1] · slices_S3x4_S1x1_0_1) : (⟨S3x4, .i32⟩ : BufTy).Contents (Elt F) → (⟨S1x1, .i32⟩ : BufTy).Contents (Elt F)),
    StableHlo.reshape main_v554 main_v555 rfl shapeCasts_S1x1_S_,
    StableHlo.unary main_v23 main_v556 ((extractStridedSlice S1x1 ![3, 1] · slices_S4x4_S1x1_3_1) : (⟨S4x4, .i32⟩ : BufTy).Contents (Elt F) → (⟨S1x1, .i32⟩ : BufTy).Contents (Elt F)),
    StableHlo.reshape main_v556 main_v557 rfl shapeCasts_S1x1_S_,
    StableHlo.binary main_v555 main_v557 main_v558 (minsi : (⟨S_, .i32⟩ : BufTy).Contents (Elt F) → (⟨S_, .i32⟩ : BufTy).Contents (Elt F) → (⟨S_, .i32⟩ : BufTy).Contents (Elt F)),
    StableHlo.unary main_v18 main_v559 ((extractStridedSlice S1x1 ![0, 3] · slices_S3x4_S1x1_0_3) : (⟨S3x4, .i32⟩ : BufTy).Contents (Elt F) → (⟨S1x1, .i32⟩ : BufTy).Contents (Elt F)),
    StableHlo.reshape main_v559 main_v560 rfl shapeCasts_S1x1_S_,
    StableHlo.unary main_v23 main_v561 ((extractStridedSlice S1x1 ![3, 3] · slices_S4x4_S1x1_3_3) : (⟨S4x4, .i32⟩ : BufTy).Contents (Elt F) → (⟨S1x1, .i32⟩ : BufTy).Contents (Elt F)),
    StableHlo.reshape main_v561 main_v562 rfl shapeCasts_S1x1_S_,
    StableHlo.binary main_v560 main_v562 main_v563 (maxsi : (⟨S_, .i32⟩ : BufTy).Contents (Elt F) → (⟨S_, .i32⟩ : BufTy).Contents (Elt F) → (⟨S_, .i32⟩ : BufTy).Contents (Elt F)),
    StableHlo.unary main_v18 main_v564 ((extractStridedSlice S1x1 ![0, 0] · slices_S3x4_S1x1_0_0) : (⟨S3x4, .i32⟩ : BufTy).Contents (Elt F) → (⟨S1x1, .i32⟩ : BufTy).Contents (Elt F)),
    StableHlo.reshape main_v564 main_v565 rfl shapeCasts_S1x1_S_,
    StableHlo.unary main_v23 main_v566 ((extractStridedSlice S1x1 ![3, 0] · slices_S4x4_S1x1_3_0) : (⟨S4x4, .i32⟩ : BufTy).Contents (Elt F) → (⟨S1x1, .i32⟩ : BufTy).Contents (Elt F)),
    StableHlo.reshape main_v566 main_v567 rfl shapeCasts_S1x1_S_,
    StableHlo.binary main_v565 main_v567 main_v568 (minsi : (⟨S_, .i32⟩ : BufTy).Contents (Elt F) → (⟨S_, .i32⟩ : BufTy).Contents (Elt F) → (⟨S_, .i32⟩ : BufTy).Contents (Elt F)),
    StableHlo.unary main_v18 main_v569 ((extractStridedSlice S1x1 ![0, 2] · slices_S3x4_S1x1_0_2) : (⟨S3x4, .i32⟩ : BufTy).Contents (Elt F) → (⟨S1x1, .i32⟩ : BufTy).Contents (Elt F)),
    StableHlo.reshape main_v569 main_v570 rfl shapeCasts_S1x1_S_,
    StableHlo.unary main_v23 main_v571 ((extractStridedSlice S1x1 ![3, 2] · slices_S4x4_S1x1_3_2) : (⟨S4x4, .i32⟩ : BufTy).Contents (Elt F) → (⟨S1x1, .i32⟩ : BufTy).Contents (Elt F)),
    StableHlo.reshape main_v571 main_v572 rfl shapeCasts_S1x1_S_,
    StableHlo.binary main_v570 main_v572 main_v573 (maxsi : (⟨S_, .i32⟩ : BufTy).Contents (Elt F) → (⟨S_, .i32⟩ : BufTy).Contents (Elt F) → (⟨S_, .i32⟩ : BufTy).Contents (Elt F)),
    StableHlo.binary main_v563 main_v558 main_v574 (subi : (⟨S_, .i32⟩ : BufTy).Contents (Elt F) → (⟨S_, .i32⟩ : BufTy).Contents (Elt F) → (⟨S_, .i32⟩ : BufTy).Contents (Elt F)),
    StableHlo.binary main_v573 main_v568 main_v575 (subi : (⟨S_, .i32⟩ : BufTy).Contents (Elt F) → (⟨S_, .i32⟩ : BufTy).Contents (Elt F) → (⟨S_, .i32⟩ : BufTy).Contents (Elt F)),
    StableHlo.nullary main_v576 (iotaInDim S7 32 0),
    StableHlo.nullary main_v577 (iotaInDim S7 32 0),
    StableHlo.unary main_v574 main_v578 (broadcastInDim S7 ![] bcast_S_S7 : (⟨S_, .i32⟩ : BufTy).Contents (Elt F) → (⟨S7, .i32⟩ : BufTy).Contents (Elt F)),
    StableHlo.binary main_v576 main_v578 main_v579 (muli : (⟨S7, .i32⟩ : BufTy).Contents (Elt F) → (⟨S7, .i32⟩ : BufTy).Contents (Elt F) → (⟨S7, .i32⟩ : BufTy).Contents (Elt F)),
    StableHlo.nullary main_c_76 (constantI S_ 32 7#32),
    StableHlo.TRef.unary (.of main_c_76 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S7, .i32⟩) (broadcastInDim S7 ![] bcast_S_S7),
    StableHlo.TRef.binary (.of main_v579 : StableHlo.TRef sig ⟨S7, .i32⟩) (.of main_call44_v1 : StableHlo.TRef sig ⟨S7, .i32⟩) (.of main_call44_v2 : StableHlo.TRef sig ⟨S7, .i32⟩) Host.divsi,
    StableHlo.TRef.unary (.of main_v579 : StableHlo.TRef sig ⟨S7, .i32⟩) (.of main_call44_v3 : StableHlo.TRef sig ⟨S7, .i32⟩) signi,
    StableHlo.TRef.unary (.of main_call44_v0 : StableHlo.TRef sig ⟨S_, .i32⟩) (.of main_call44_v4 : StableHlo.TRef sig ⟨S_, .i32⟩) signi,
    StableHlo.TRef.unary (.of main_call44_v4 : StableHlo.TRef sig ⟨S_, .i32⟩) (.of main_call44_v5 : StableHlo.TRef sig ⟨S7, .i32⟩) (broadcastInDim S7 ![] bcast_S_S7),
    StableHlo.TRef.binary (.of main_call44_v3 : StableHlo.TRef sig ⟨S7, .i32⟩) (.of main_call44_v5 : StableHlo.TRef sig ⟨S7, .i32⟩) (.of main_call44_v6 : StableHlo.TRef sig ⟨S7, .i1⟩) (cmpi .ne),
    StableHlo.TRef.unary (.of main_call44_v0 : StableHlo.TRef sig ⟨S_, .i32⟩) (.of main_call44_v7 : StableHlo.TRef sig ⟨S7, .i32⟩) (broadcastInDim S7 ![] bcast_S_S7),
    StableHlo.TRef.binary (.of main_v579 : StableHlo.TRef sig ⟨S7, .i32⟩) (.of main_call44_v7 : StableHlo.TRef sig ⟨S7, .i32⟩) (.of main_call44_v8 : StableHlo.TRef sig ⟨S7, .i32⟩) Host.remsi,
    StableHlo.TRef.nullary (.of main_call44_c : StableHlo.TRef sig ⟨S_, .i32⟩) (constantI S_ 32 0#32),
    StableHlo.TRef.unary (.of main_call44_c : StableHlo.TRef sig ⟨S_, .i32⟩) (.of main_call44_v9 : StableHlo.TRef sig ⟨S7, .i32⟩) (broadcastInDim S7 ![] bcast_S_S7),
    StableHlo.TRef.binary (.of main_call44_v8 : StableHlo.TRef sig ⟨S7, .i32⟩) (.of main_call44_v9 : StableHlo.TRef sig ⟨S7, .i32⟩) (.of main_call44_v10 : StableHlo.TRef sig ⟨S7, .i1⟩) (cmpi .ne),
    StableHlo.TRef.binary (.of main_call44_v6 : StableHlo.TRef sig ⟨S7, .i1⟩) (.of main_call44_v10 : StableHlo.TRef sig ⟨S7, .i1⟩) (.of main_call44_v11 : StableHlo.TRef sig ⟨S7, .i1⟩) andi,
    StableHlo.TRef.nullary (.of main_call44_c_0 : StableHlo.TRef sig ⟨S_, .i32⟩) (constantI S_ 32 1#32),
    StableHlo.TRef.unary (.of main_call44_c_0 : StableHlo.TRef sig ⟨S_, .i32⟩) (.of main_call44_v12 : StableHlo.TRef sig ⟨S7, .i32⟩) (broadcastInDim S7 ![] bcast_S_S7),
    StableHlo.TRef.binary (.of main_call44_v2 : StableHlo.TRef sig ⟨S7, .i32⟩) (.of main_call44_v12 : StableHlo.TRef sig ⟨S7, .i32⟩) (.of main_call44_v13 : StableHlo.TRef sig ⟨S7, .i32⟩) subi,
    StableHlo.TRef.ternary (.of main_call44_v11 : StableHlo.TRef sig ⟨S7, .i1⟩) (.of main_call44_v13 : StableHlo.TRef sig ⟨S7, .i32⟩) (.of main_call44_v2 : StableHlo.TRef sig ⟨S7, .i32⟩) (.of main_v580 : StableHlo.TRef sig ⟨S7, .i32⟩) select,
    StableHlo.unary main_v558 main_v581 (broadcastInDim S7 ![] bcast_S_S7 : (⟨S_, .i32⟩ : BufTy).Contents (Elt F) → (⟨S7, .i32⟩ : BufTy).Contents (Elt F)),
    StableHlo.binary main_v581 main_v580 main_v582 (addi : (⟨S7, .i32⟩ : BufTy).Contents (Elt F) → (⟨S7, .i32⟩ : BufTy).Contents (Elt F) → (⟨S7, .i32⟩ : BufTy).Contents (Elt F)),
    StableHlo.nullary main_c_77 (constantI S_ 32 1#32),
    StableHlo.unary main_c_77 main_v583 (broadcastInDim S7 ![] bcast_S_S7 : (⟨S_, .i32⟩ : BufTy).Contents (Elt F) → (⟨S7, .i32⟩ : BufTy).Contents (Elt F)),
    StableHlo.binary main_v576 main_v583 main_v584 (addi : (⟨S7, .i32⟩ : BufTy).Contents (Elt F) → (⟨S7, .i32⟩ : BufTy).Contents (Elt F) → (⟨S7, .i32⟩ : BufTy).Contents (Elt F)),
    StableHlo.unary main_v584 main_v585 (negi : (⟨S7, .i32⟩ : BufTy).Contents (Elt F) → (⟨S7, .i32⟩ : BufTy).Contents (Elt F)),
    StableHlo.unary main_v574 main_v586 (broadcastInDim S7 ![] bcast_S_S7 : (⟨S_, .i32⟩ : BufTy).Contents (Elt F) → (⟨S7, .i32⟩ : BufTy).Contents (Elt F)),
    StableHlo.binary main_v585 main_v586 main_v587 (muli : (⟨S7, .i32⟩ : BufTy).Contents (Elt F) → (⟨S7, .i32⟩ : BufTy).Contents (Elt F) → (⟨S7, .i32⟩ : BufTy).Contents (Elt F)),
    StableHlo.nullary main_c_78 (constantI S_ 32 7#32) ]
/-- The buffers those operations write, in order. -/
abbrev ops23_W : List (Ref sig .tc) :=
  [main_cst_75, main_v551, main_v552, main_v553, main_v554, main_v555, main_v556, main_v557, main_v558, main_v559, main_v560, main_v561, main_v562, main_v563, main_v564, main_v565, main_v566, main_v567, main_v568, main_v569, main_v570, main_v571, main_v572, main_v573, main_v574, main_v575, main_v576, main_v577, main_v578, main_v579, main_c_76, main_call44_v0, main_call44_v1, main_call44_v2, main_call44_v3, main_call44_v4, main_call44_v5, main_call44_v6, main_call44_v7, main_call44_v8, main_call44_c, main_call44_v9, main_call44_v10, main_call44_v11, main_call44_c_0, main_call44_v12, main_call44_v13, main_v580, main_v581, main_v582, main_c_77, main_v583, main_v584, main_v585, main_v586, main_v587, main_c_78]
/-- Each operation writes its own result buffer and nothing else. -/
theorem ops23_writes : (ops23 : List (HloOp τ sig (Elt F))).Forall fun op => op.writes ⊆ (ops23_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1175 to 1222 of the host part, in order. -/
abbrev ops24 : List (HloOp τ sig (Elt F)) :=
  [ StableHlo.TRef.unary (.of main_c_78 : StableHlo.TRef sig ⟨S_, .i32⟩) (.of main_call45_v0 : StableHlo.TRef sig ⟨S_, .i32⟩) id,
    StableHlo.TRef.unary (.of main_call45_v0 : StableHlo.TRef sig ⟨S_, .i32⟩) (.of main_call45_v1 : StableHlo.TRef sig ⟨S7, .i32⟩) (broadcastInDim S7 ![] bcast_S_S7),
    StableHlo.TRef.binary (.of main_v587 : StableHlo.TRef sig ⟨S7, .i32⟩) (.of main_call45_v1 : StableHlo.TRef sig ⟨S7, .i32⟩) (.of main_call45_v2 : StableHlo.TRef sig ⟨S7, .i32⟩) Host.divsi,
    StableHlo.TRef.unary (.of main_v587 : StableHlo.TRef sig ⟨S7, .i32⟩) (.of main_call45_v3 : StableHlo.TRef sig ⟨S7, .i32⟩) signi,
    StableHlo.TRef.unary (.of main_call45_v0 : StableHlo.TRef sig ⟨S_, .i32⟩) (.of main_call45_v4 : StableHlo.TRef sig ⟨S_, .i32⟩) signi,
    StableHlo.TRef.unary (.of main_call45_v4 : StableHlo.TRef sig ⟨S_, .i32⟩) (.of main_call45_v5 : StableHlo.TRef sig ⟨S7, .i32⟩) (broadcastInDim S7 ![] bcast_S_S7),
    StableHlo.TRef.binary (.of main_call45_v3 : StableHlo.TRef sig ⟨S7, .i32⟩) (.of main_call45_v5 : StableHlo.TRef sig ⟨S7, .i32⟩) (.of main_call45_v6 : StableHlo.TRef sig ⟨S7, .i1⟩) (cmpi .ne),
    StableHlo.TRef.unary (.of main_call45_v0 : StableHlo.TRef sig ⟨S_, .i32⟩) (.of main_call45_v7 : StableHlo.TRef sig ⟨S7, .i32⟩) (broadcastInDim S7 ![] bcast_S_S7),
    StableHlo.TRef.binary (.of main_v587 : StableHlo.TRef sig ⟨S7, .i32⟩) (.of main_call45_v7 : StableHlo.TRef sig ⟨S7, .i32⟩) (.of main_call45_v8 : StableHlo.TRef sig ⟨S7, .i32⟩) Host.remsi,
    StableHlo.TRef.nullary (.of main_call45_c : StableHlo.TRef sig ⟨S_, .i32⟩) (constantI S_ 32 0#32),
    StableHlo.TRef.unary (.of main_call45_c : StableHlo.TRef sig ⟨S_, .i32⟩) (.of main_call45_v9 : StableHlo.TRef sig ⟨S7, .i32⟩) (broadcastInDim S7 ![] bcast_S_S7),
    StableHlo.TRef.binary (.of main_call45_v8 : StableHlo.TRef sig ⟨S7, .i32⟩) (.of main_call45_v9 : StableHlo.TRef sig ⟨S7, .i32⟩) (.of main_call45_v10 : StableHlo.TRef sig ⟨S7, .i1⟩) (cmpi .ne),
    StableHlo.TRef.binary (.of main_call45_v6 : StableHlo.TRef sig ⟨S7, .i1⟩) (.of main_call45_v10 : StableHlo.TRef sig ⟨S7, .i1⟩) (.of main_call45_v11 : StableHlo.TRef sig ⟨S7, .i1⟩) andi,
    StableHlo.TRef.nullary (.of main_call45_c_0 : StableHlo.TRef sig ⟨S_, .i32⟩) (constantI S_ 32 1#32),
    StableHlo.TRef.unary (.of main_call45_c_0 : StableHlo.TRef sig ⟨S_, .i32⟩) (.of main_call45_v12 : StableHlo.TRef sig ⟨S7, .i32⟩) (broadcastInDim S7 ![] bcast_S_S7),
    StableHlo.TRef.binary (.of main_call45_v2 : StableHlo.TRef sig ⟨S7, .i32⟩) (.of main_call45_v12 : StableHlo.TRef sig ⟨S7, .i32⟩) (.of main_call45_v13 : StableHlo.TRef sig ⟨S7, .i32⟩) subi,
    StableHlo.TRef.ternary (.of main_call45_v11 : StableHlo.TRef sig ⟨S7, .i1⟩) (.of main_call45_v13 : StableHlo.TRef sig ⟨S7, .i32⟩) (.of main_call45_v2 : StableHlo.TRef sig ⟨S7, .i32⟩) (.of main_v588 : StableHlo.TRef sig ⟨S7, .i32⟩) select,
    StableHlo.unary main_v558 main_v589 (broadcastInDim S7 ![] bcast_S_S7 : (⟨S_, .i32⟩ : BufTy).Contents (Elt F) → (⟨S7, .i32⟩ : BufTy).Contents (Elt F)),
    StableHlo.binary main_v589 main_v588 main_v590 (subi : (⟨S7, .i32⟩ : BufTy).Contents (Elt F) → (⟨S7, .i32⟩ : BufTy).Contents (Elt F) → (⟨S7, .i32⟩ : BufTy).Contents (Elt F)),
    StableHlo.unary main_v575 main_v591 (broadcastInDim S7 ![] bcast_S_S7 : (⟨S_, .i32⟩ : BufTy).Contents (Elt F) → (⟨S7, .i32⟩ : BufTy).Contents (Elt F)),
    StableHlo.binary main_v577 main_v591 main_v592 (muli : (⟨S7, .i32⟩ : BufTy).Contents (Elt F) → (⟨S7, .i32⟩ : BufTy).Contents (Elt F) → (⟨S7, .i32⟩ : BufTy).Contents (Elt F)),
    StableHlo.nullary main_c_79 (constantI S_ 32 7#32),
    StableHlo.TRef.unary (.of main_c_79 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S7, .i32⟩) (broadcastInDim S7 ![] bcast_S_S7),
    StableHlo.TRef.binary (.of main_v592 : StableHlo.TRef sig ⟨S7, .i32⟩) (.of main_call46_v1 : StableHlo.TRef sig ⟨S7, .i32⟩) (.of main_call46_v2 : StableHlo.TRef sig ⟨S7, .i32⟩) Host.divsi,
    StableHlo.TRef.unary (.of main_v592 : StableHlo.TRef sig ⟨S7, .i32⟩) (.of main_call46_v3 : StableHlo.TRef sig ⟨S7, .i32⟩) signi,
    StableHlo.TRef.unary (.of main_call46_v0 : StableHlo.TRef sig ⟨S_, .i32⟩) (.of main_call46_v4 : StableHlo.TRef sig ⟨S_, .i32⟩) signi,
    StableHlo.TRef.unary (.of main_call46_v4 : StableHlo.TRef sig ⟨S_, .i32⟩) (.of main_call46_v5 : StableHlo.TRef sig ⟨S7, .i32⟩) (broadcastInDim S7 ![] bcast_S_S7),
    StableHlo.TRef.binary (.of main_call46_v3 : StableHlo.TRef sig ⟨S7, .i32⟩) (.of main_call46_v5 : StableHlo.TRef sig ⟨S7, .i32⟩) (.of main_call46_v6 : StableHlo.TRef sig ⟨S7, .i1⟩) (cmpi .ne),
    StableHlo.TRef.unary (.of main_call46_v0 : StableHlo.TRef sig ⟨S_, .i32⟩) (.of main_call46_v7 : StableHlo.TRef sig ⟨S7, .i32⟩) (broadcastInDim S7 ![] bcast_S_S7),
    StableHlo.TRef.binary (.of main_v592 : StableHlo.TRef sig ⟨S7, .i32⟩) (.of main_call46_v7 : StableHlo.TRef sig ⟨S7, .i32⟩) (.of main_call46_v8 : StableHlo.TRef sig ⟨S7, .i32⟩) Host.remsi,
    StableHlo.TRef.nullary (.of main_call46_c : StableHlo.TRef sig ⟨S_, .i32⟩) (constantI S_ 32 0#32),
    StableHlo.TRef.unary (.of main_call46_c : StableHlo.TRef sig ⟨S_, .i32⟩) (.of main_call46_v9 : StableHlo.TRef sig ⟨S7, .i32⟩) (broadcastInDim S7 ![] bcast_S_S7),
    StableHlo.TRef.binary (.of main_call46_v8 : StableHlo.TRef sig ⟨S7, .i32⟩) (.of main_call46_v9 : StableHlo.TRef sig ⟨S7, .i32⟩) (.of main_call46_v10 : StableHlo.TRef sig ⟨S7, .i1⟩) (cmpi .ne),
    StableHlo.TRef.binary (.of main_call46_v6 : StableHlo.TRef sig ⟨S7, .i1⟩) (.of main_call46_v10 : StableHlo.TRef sig ⟨S7, .i1⟩) (.of main_call46_v11 : StableHlo.TRef sig ⟨S7, .i1⟩) andi,
    StableHlo.TRef.nullary (.of main_call46_c_0 : StableHlo.TRef sig ⟨S_, .i32⟩) (constantI S_ 32 1#32),
    StableHlo.TRef.unary (.of main_call46_c_0 : StableHlo.TRef sig ⟨S_, .i32⟩) (.of main_call46_v12 : StableHlo.TRef sig ⟨S7, .i32⟩) (broadcastInDim S7 ![] bcast_S_S7),
    StableHlo.TRef.binary (.of main_call46_v2 : StableHlo.TRef sig ⟨S7, .i32⟩) (.of main_call46_v12 : StableHlo.TRef sig ⟨S7, .i32⟩) (.of main_call46_v13 : StableHlo.TRef sig ⟨S7, .i32⟩) subi,
    StableHlo.TRef.ternary (.of main_call46_v11 : StableHlo.TRef sig ⟨S7, .i1⟩) (.of main_call46_v13 : StableHlo.TRef sig ⟨S7, .i32⟩) (.of main_call46_v2 : StableHlo.TRef sig ⟨S7, .i32⟩) (.of main_v593 : StableHlo.TRef sig ⟨S7, .i32⟩) select,
    StableHlo.unary main_v568 main_v594 (broadcastInDim S7 ![] bcast_S_S7 : (⟨S_, .i32⟩ : BufTy).Contents (Elt F) → (⟨S7, .i32⟩ : BufTy).Contents (Elt F)),
    StableHlo.binary main_v594 main_v593 main_v595 (addi : (⟨S7, .i32⟩ : BufTy).Contents (Elt F) → (⟨S7, .i32⟩ : BufTy).Contents (Elt F) → (⟨S7, .i32⟩ : BufTy).Contents (Elt F)),
    StableHlo.nullary main_c_80 (constantI S_ 32 1#32),
    StableHlo.unary main_c_80 main_v596 (broadcastInDim S7 ![] bcast_S_S7 : (⟨S_, .i32⟩ : BufTy).Contents (Elt F) → (⟨S7, .i32⟩ : BufTy).Contents (Elt F)),
    StableHlo.binary main_v577 main_v596 main_v597 (addi : (⟨S7, .i32⟩ : BufTy).Contents (Elt F) → (⟨S7, .i32⟩ : BufTy).Contents (Elt F) → (⟨S7, .i32⟩ : BufTy).Contents (Elt F)),
    StableHlo.unary main_v597 main_v598 (negi : (⟨S7, .i32⟩ : BufTy).Contents (Elt F) → (⟨S7, .i32⟩ : BufTy).Contents (Elt F)),
    StableHlo.unary main_v575 main_v599 (broadcastInDim S7 ![] bcast_S_S7 : (⟨S_, .i32⟩ : BufTy).Contents (Elt F) → (⟨S7, .i32⟩ : BufTy).Contents (Elt F)),
    StableHlo.binary main_v598 main_v599 main_v600 (muli : (⟨S7, .i32⟩ : BufTy).Contents (Elt F) → (⟨S7, .i32⟩ : BufTy).Contents (Elt F) → (⟨S7, .i32⟩ : BufTy).Contents (Elt F)),
    StableHlo.nullary main_c_81 (constantI S_ 32 7#32) ]
/-- The buffers those operations write, in order. -/
abbrev ops24_W : List (Ref sig .tc) :=
  [main_call45_v0, main_call45_v1, main_call45_v2, main_call45_v3, main_call45_v4, main_call45_v5, main_call45_v6, main_call45_v7, main_call45_v8, main_call45_c, main_call45_v9, main_call45_v10, main_call45_v11, main_call45_c_0, main_call45_v12, main_call45_v13, main_v588, main_v589, main_v590, main_v591, main_v592, main_c_79, main_call46_v0, main_call46_v1, main_call46_v2, main_call46_v3, main_call46_v4, main_call46_v5, main_call46_v6, main_call46_v7, main_call46_v8, main_call46_c, main_call46_v9, main_call46_v10, main_call46_v11, main_call46_c_0, main_call46_v12, main_call46_v13, main_v593, main_v594, main_v595, main_c_80, main_v596, main_v597, main_v598, main_v599, main_v600, main_c_81]
/-- Each operation writes its own result buffer and nothing else. -/
theorem ops24_writes : (ops24 : List (HloOp τ sig (Elt F))).Forall fun op => op.writes ⊆ (ops24_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1223 to 1281 of the host part, in order. -/
abbrev ops25 : List (HloOp τ sig (Elt F)) :=
  [ StableHlo.TRef.unary (.of main_c_81 : StableHlo.TRef sig ⟨S_, .i32⟩) (.of main_call47_v0 : StableHlo.TRef sig ⟨S_, .i32⟩) id,
    StableHlo.TRef.unary (.of main_call47_v0 : StableHlo.TRef sig ⟨S_, .i32⟩) (.of main_call47_v1 : StableHlo.TRef sig ⟨S7, .i32⟩) (broadcastInDim S7 ![] bcast_S_S7),
    StableHlo.TRef.binary (.of main_v600 : StableHlo.TRef sig ⟨S7, .i32⟩) (.of main_call47_v1 : StableHlo.TRef sig ⟨S7, .i32⟩) (.of main_call47_v2 : StableHlo.TRef sig ⟨S7, .i32⟩) Host.divsi,
    StableHlo.TRef.unary (.of main_v600 : StableHlo.TRef sig ⟨S7, .i32⟩) (.of main_call47_v3 : StableHlo.TRef sig ⟨S7, .i32⟩) signi,
    StableHlo.TRef.unary (.of main_call47_v0 : StableHlo.TRef sig ⟨S_, .i32⟩) (.of main_call47_v4 : StableHlo.TRef sig ⟨S_, .i32⟩) signi,
    StableHlo.TRef.unary (.of main_call47_v4 : StableHlo.TRef sig ⟨S_, .i32⟩) (.of main_call47_v5 : StableHlo.TRef sig ⟨S7, .i32⟩) (broadcastInDim S7 ![] bcast_S_S7),
    StableHlo.TRef.binary (.of main_call47_v3 : StableHlo.TRef sig ⟨S7, .i32⟩) (.of main_call47_v5 : StableHlo.TRef sig ⟨S7, .i32⟩) (.of main_call47_v6 : StableHlo.TRef sig ⟨S7, .i1⟩) (cmpi .ne),
    StableHlo.TRef.unary (.of main_call47_v0 : StableHlo.TRef sig ⟨S_, .i32⟩) (.of main_call47_v7 : StableHlo.TRef sig ⟨S7, .i32⟩) (broadcastInDim S7 ![] bcast_S_S7),
    StableHlo.TRef.binary (.of main_v600 : StableHlo.TRef sig ⟨S7, .i32⟩) (.of main_call47_v7 : StableHlo.TRef sig ⟨S7, .i32⟩) (.of main_call47_v8 : StableHlo.TRef sig ⟨S7, .i32⟩) Host.remsi,
    StableHlo.TRef.nullary (.of main_call47_c : StableHlo.TRef sig ⟨S_, .i32⟩) (constantI S_ 32 0#32),
    StableHlo.TRef.unary (.of main_call47_c : StableHlo.TRef sig ⟨S_, .i32⟩) (.of main_call47_v9 : StableHlo.TRef sig ⟨S7, .i32⟩) (broadcastInDim S7 ![] bcast_S_S7),
    StableHlo.TRef.binary (.of main_call47_v8 : StableHlo.TRef sig ⟨S7, .i32⟩) (.of main_call47_v9 : StableHlo.TRef sig ⟨S7, .i32⟩) (.of main_call47_v10 : StableHlo.TRef sig ⟨S7, .i1⟩) (cmpi .ne),
    StableHlo.TRef.binary (.of main_call47_v6 : StableHlo.TRef sig ⟨S7, .i1⟩) (.of main_call47_v10 : StableHlo.TRef sig ⟨S7, .i1⟩) (.of main_call47_v11 : StableHlo.TRef sig ⟨S7, .i1⟩) andi,
    StableHlo.TRef.nullary (.of main_call47_c_0 : StableHlo.TRef sig ⟨S_, .i32⟩) (constantI S_ 32 1#32),
    StableHlo.TRef.unary (.of main_call47_c_0 : StableHlo.TRef sig ⟨S_, .i32⟩) (.of main_call47_v12 : StableHlo.TRef sig ⟨S7, .i32⟩) (broadcastInDim S7 ![] bcast_S_S7),
    StableHlo.TRef.binary (.of main_call47_v2 : StableHlo.TRef sig ⟨S7, .i32⟩) (.of main_call47_v12 : StableHlo.TRef sig ⟨S7, .i32⟩) (.of main_call47_v13 : StableHlo.TRef sig ⟨S7, .i32⟩) subi,
    StableHlo.TRef.ternary (.of main_call47_v11 : StableHlo.TRef sig ⟨S7, .i1⟩) (.of main_call47_v13 : StableHlo.TRef sig ⟨S7, .i32⟩) (.of main_call47_v2 : StableHlo.TRef sig ⟨S7, .i32⟩) (.of main_v601 : StableHlo.TRef sig ⟨S7, .i32⟩) select,
    StableHlo.unary main_v568 main_v602 (broadcastInDim S7 ![] bcast_S_S7 : (⟨S_, .i32⟩ : BufTy).Contents (Elt F) → (⟨S7, .i32⟩ : BufTy).Contents (Elt F)),
    StableHlo.binary main_v602 main_v601 main_v603 (subi : (⟨S7, .i32⟩ : BufTy).Contents (Elt F) → (⟨S7, .i32⟩ : BufTy).Contents (Elt F) → (⟨S7, .i32⟩ : BufTy).Contents (Elt F)),
    StableHlo.nullary main_v604 (iotaInDim S64 32 0),
    StableHlo.nullary main_v605 (iotaInDim S64 32 0),
    StableHlo.unary main_v604 main_v606 (broadcastInDim S1x64 ![1] bcast_S64_S1x64_1 : (⟨S64, .i32⟩ : BufTy).Contents (Elt F) → (⟨S1x64, .i32⟩ : BufTy).Contents (Elt F)),
    StableHlo.unary main_v582 main_v607 (broadcastInDim S7x1 ![0] bcast_S7_S7x1_0 : (⟨S7, .i32⟩ : BufTy).Contents (Elt F) → (⟨S7x1, .i32⟩ : BufTy).Contents (Elt F)),
    StableHlo.unary main_v606 main_v608 (broadcastInDim S7x64 ![0, 1] bcast_S1x64_S7x64_0_1 : (⟨S1x64, .i32⟩ : BufTy).Contents (Elt F) → (⟨S7x64, .i32⟩ : BufTy).Contents (Elt F)),
    StableHlo.unary main_v607 main_v609 (broadcastInDim S7x64 ![0, 1] bcast_S7x1_S7x64_0_1 : (⟨S7x1, .i32⟩ : BufTy).Contents (Elt F) → (⟨S7x64, .i32⟩ : BufTy).Contents (Elt F)),
    StableHlo.binary main_v608 main_v609 main_v610 (cmpi .sge : (⟨S7x64, .i32⟩ : BufTy).Contents (Elt F) → (⟨S7x64, .i32⟩ : BufTy).Contents (Elt F) → (⟨S7x64, .i1⟩ : BufTy).Contents (Elt F)),
    StableHlo.unary main_v604 main_v611 (broadcastInDim S1x64 ![1] bcast_S64_S1x64_1 : (⟨S64, .i32⟩ : BufTy).Contents (Elt F) → (⟨S1x64, .i32⟩ : BufTy).Contents (Elt F)),
    StableHlo.unary main_v590 main_v612 (broadcastInDim S7x1 ![0] bcast_S7_S7x1_0 : (⟨S7, .i32⟩ : BufTy).Contents (Elt F) → (⟨S7x1, .i32⟩ : BufTy).Contents (Elt F)),
    StableHlo.unary main_v611 main_v613 (broadcastInDim S7x64 ![0, 1] bcast_S1x64_S7x64_0_1 : (⟨S1x64, .i32⟩ : BufTy).Contents (Elt F) → (⟨S7x64, .i32⟩ : BufTy).Contents (Elt F)),
    StableHlo.unary main_v612 main_v614 (broadcastInDim S7x64 ![0, 1] bcast_S7x1_S7x64_0_1 : (⟨S7x1, .i32⟩ : BufTy).Contents (Elt F) → (⟨S7x64, .i32⟩ : BufTy).Contents (Elt F)),
    StableHlo.binary main_v613 main_v614 main_v615 (cmpi .slt : (⟨S7x64, .i32⟩ : BufTy).Contents (Elt F) → (⟨S7x64, .i32⟩ : BufTy).Contents (Elt F) → (⟨S7x64, .i1⟩ : BufTy).Contents (Elt F)),
    StableHlo.binary main_v610 main_v615 main_v616 (andi : (⟨S7x64, .i1⟩ : BufTy).Contents (Elt F) → (⟨S7x64, .i1⟩ : BufTy).Contents (Elt F) → (⟨S7x64, .i1⟩ : BufTy).Contents (Elt F)),
    StableHlo.unary main_v605 main_v617 (broadcastInDim S1x64 ![1] bcast_S64_S1x64_1 : (⟨S64, .i32⟩ : BufTy).Contents (Elt F) → (⟨S1x64, .i32⟩ : BufTy).Contents (Elt F)),
    StableHlo.unary main_v595 main_v618 (broadcastInDim S7x1 ![0] bcast_S7_S7x1_0 : (⟨S7, .i32⟩ : BufTy).Contents (Elt F) → (⟨S7x1, .i32⟩ : BufTy).Contents (Elt F)),
    StableHlo.unary main_v617 main_v619 (broadcastInDim S7x64 ![0, 1] bcast_S1x64_S7x64_0_1 : (⟨S1x64, .i32⟩ : BufTy).Contents (Elt F) → (⟨S7x64, .i32⟩ : BufTy).Contents (Elt F)),
    StableHlo.unary main_v618 main_v620 (broadcastInDim S7x64 ![0, 1] bcast_S7x1_S7x64_0_1 : (⟨S7x1, .i32⟩ : BufTy).Contents (Elt F) → (⟨S7x64, .i32⟩ : BufTy).Contents (Elt F)),
    StableHlo.binary main_v619 main_v620 main_v621 (cmpi .sge : (⟨S7x64, .i32⟩ : BufTy).Contents (Elt F) → (⟨S7x64, .i32⟩ : BufTy).Contents (Elt F) → (⟨S7x64, .i1⟩ : BufTy).Contents (Elt F)),
    StableHlo.unary main_v605 main_v622 (broadcastInDim S1x64 ![1] bcast_S64_S1x64_1 : (⟨S64, .i32⟩ : BufTy).Contents (Elt F) → (⟨S1x64, .i32⟩ : BufTy).Contents (Elt F)),
    StableHlo.unary main_v603 main_v623 (broadcastInDim S7x1 ![0] bcast_S7_S7x1_0 : (⟨S7, .i32⟩ : BufTy).Contents (Elt F) → (⟨S7x1, .i32⟩ : BufTy).Contents (Elt F)),
    StableHlo.unary main_v622 main_v624 (broadcastInDim S7x64 ![0, 1] bcast_S1x64_S7x64_0_1 : (⟨S1x64, .i32⟩ : BufTy).Contents (Elt F) → (⟨S7x64, .i32⟩ : BufTy).Contents (Elt F)),
    StableHlo.unary main_v623 main_v625 (broadcastInDim S7x64 ![0, 1] bcast_S7x1_S7x64_0_1 : (⟨S7x1, .i32⟩ : BufTy).Contents (Elt F) → (⟨S7x64, .i32⟩ : BufTy).Contents (Elt F)),
    StableHlo.binary main_v624 main_v625 main_v626 (cmpi .slt : (⟨S7x64, .i32⟩ : BufTy).Contents (Elt F) → (⟨S7x64, .i32⟩ : BufTy).Contents (Elt F) → (⟨S7x64, .i1⟩ : BufTy).Contents (Elt F)),
    StableHlo.binary main_v621 main_v626 main_v627 (andi : (⟨S7x64, .i1⟩ : BufTy).Contents (Elt F) → (⟨S7x64, .i1⟩ : BufTy).Contents (Elt F) → (⟨S7x64, .i1⟩ : BufTy).Contents (Elt F)),
    StableHlo.unary main_v616 main_v628 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v629 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_82 (constant S_ .f32 0xFF800000#32),
    StableHlo.TRef.unary (.of main_v628 : StableHlo.TRef sig ⟨S7x1x64x1, .i1⟩) (.of main_call48_v0 : StableHlo.TRef sig ⟨S7x512x64x64, .i1⟩) (broadcastInDim S7x512x64x64 ![0, 1, 2, 3] bcast_S7x1x64x1_S7x512x64x64_0_1_2_3),
    StableHlo.TRef.unary (.of main_v629 : StableHlo.TRef sig ⟨S1x512x64x64, .f32⟩) (.of main_call48_v1 : StableHlo.TRef sig ⟨S7x512x64x64, .f32⟩) (broadcastInDim S7x512x64x64 ![0, 1, 2, 3] bcast_S1x512x64x64_S7x512x64x64_0_1_2_3),
    StableHlo.TRef.unary (.of main_cst_82 : StableHlo.TRef sig ⟨S_, .f32⟩) (.of main_call48_v2 : StableHlo.TRef sig ⟨S7x512x64x64, .f32⟩) (broadcastInDim S7x512x64x64 ![] bcast_S_S7x512x64x64),
    StableHlo.TRef.ternary (.of main_call48_v0 : StableHlo.TRef sig ⟨S7x512x64x64, .i1⟩) (.of main_call48_v1 : StableHlo.TRef sig ⟨S7x512x64x64, .f32⟩) (.of main_call48_v2 : StableHlo.TRef sig ⟨S7x512x64x64, .f32⟩) (.of main_v630 : StableHlo.TRef sig ⟨S7x512x64x64, .f32⟩) select,
    StableHlo.nullary main_cst_83 (constant S_ .f32 0xFF800000#32),
    StableHlo.binary main_v630 main_cst_83 main_v631 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v627 main_v632 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v631 main_v633 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_84 (constant S_ .f32 0xFF800000#32),
    StableHlo.TRef.unary (.of main_v632 : StableHlo.TRef sig ⟨S1x1x7x64, .i1⟩) (.of main_call49_v0 : StableHlo.TRef sig ⟨S7x512x7x64, .i1⟩) (broadcastInDim S7x512x7x64 ![0, 1, 2, 3] bcast_S1x1x7x64_S7x512x7x64_0_1_2_3),
    StableHlo.TRef.unary (.of main_v633 : StableHlo.TRef sig ⟨S7x512x1x64, .f32⟩) (.of main_call49_v1 : StableHlo.TRef sig ⟨S7x512x7x64, .f32⟩) (broadcastInDim S7x512x7x64 ![0, 1, 2, 3] bcast_S7x512x1x64_S7x512x7x64_0_1_2_3),
    StableHlo.TRef.unary (.of main_cst_84 : StableHlo.TRef sig ⟨S_, .f32⟩) (.of main_call49_v2 : StableHlo.TRef sig ⟨S7x512x7x64, .f32⟩) (broadcastInDim S7x512x7x64 ![] bcast_S_S7x512x7x64),
    StableHlo.TRef.ternary (.of main_call49_v0 : StableHlo.TRef sig ⟨S7x512x7x64, .i1⟩) (.of main_call49_v1 : StableHlo.TRef sig ⟨S7x512x7x64, .f32⟩) (.of main_call49_v2 : StableHlo.TRef sig ⟨S7x512x7x64, .f32⟩) (.of main_v634 : StableHlo.TRef sig ⟨S7x512x7x64, .f32⟩) select ]
/-- The buffers those operations write, in order. -/
abbrev ops25_W : List (Ref sig .tc) :=
  [main_call47_v0, main_call47_v1, main_call47_v2, main_call47_v3, main_call47_v4, main_call47_v5, main_call47_v6, main_call47_v7, main_call47_v8, main_call47_c, main_call47_v9, main_call47_v10, main_call47_v11, main_call47_c_0, main_call47_v12, main_call47_v13, main_v601, main_v602, main_v603, main_v604, main_v605, main_v606, main_v607, main_v608, main_v609, main_v610, main_v611, main_v612, main_v613, main_v614, main_v615, main_v616, main_v617, main_v618, main_v619, main_v620, main_v621, main_v622, main_v623, main_v624, main_v625, main_v626, main_v627, main_v628, main_v629, main_cst_82, main_call48_v0, main_call48_v1, main_call48_v2, main_v630, main_cst_83, main_v631, main_v632, main_v633, main_cst_84, main_call49_v0, main_call49_v1, main_call49_v2, main_v634]
/-- Each operation writes its own result buffer and nothing else. -/
theorem ops25_writes : (ops25 : List (HloOp τ sig (Elt F))).Forall fun op => op.writes ⊆ (ops25_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part3 : List (HloOp τ sig (Elt F)) :=
  ops20 ++ ops21 ++ ops22 ++ ops23 ++ ops24 ++ ops25
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 20 (operations 954 to 1010): agreement on the 9 buffers live before it gives agreement on the 16 live after it. -/
theorem step20
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v466) = WR (Proc.devRef .tc Cert.ReferenceIdeal.main_v466)) :
    (after (Cert.KernelIdeal.Agree.ops20 (F := F)) WK) (Proc.devRef .tc Cert.KernelIdeal.main_v0) = (after (Cert.ReferenceIdeal.Agree.ops20 (F := F)) WR) (Proc.devRef .tc Cert.ReferenceIdeal.main_v0)
      ∧ (after (Cert.KernelIdeal.Agree.ops20 (F := F)) WK) (Proc.devRef .tc Cert.KernelIdeal.main_v18) = (after (Cert.ReferenceIdeal.Agree.ops20 (F := F)) WR) (Proc.devRef .tc Cert.ReferenceIdeal.main_v18)
      ∧ (after (Cert.KernelIdeal.Agree.ops20 (F := F)) WK) (Proc.devRef .tc Cert.KernelIdeal.main_v23) = (after (Cert.ReferenceIdeal.Agree.ops20 (F := F)) WR) (Proc.devRef .tc Cert.ReferenceIdeal.main_v23)
      ∧ (after (Cert.KernelIdeal.Agree.ops20 (F := F)) WK) (Proc.devRef .tc Cert.KernelIdeal.main_v85) = (after (Cert.ReferenceIdeal.Agree.ops20 (F := F)) WR) (Proc.devRef .tc Cert.ReferenceIdeal.main_v85)
      ∧ (after (Cert.KernelIdeal.Agree.ops20 (F := F)) WK) (Proc.devRef .tc Cert.KernelIdeal.main_v157) = (after (Cert.ReferenceIdeal.Agree.ops20 (F := F)) WR) (Proc.devRef .tc Cert.ReferenceIdeal.main_v157)
      ∧ (after (Cert.KernelIdeal.Agree.ops20 (F := F)) WK) (Proc.devRef .tc Cert.KernelIdeal.main_v229) = (after (Cert.ReferenceIdeal.Agree.ops20 (F := F)) WR) (Proc.devRef .tc Cert.ReferenceIdeal.main_v229)
      ∧ (after (Cert.KernelIdeal.Agree.ops20 (F := F)) WK) (Proc.devRef .tc Cert.KernelIdeal.main_v301) = (after (Cert.ReferenceIdeal.Agree.ops20 (F := F)) WR) (Proc.devRef .tc Cert.ReferenceIdeal.main_v301)
      ∧ (after (Cert.KernelIdeal.Agree.ops20 (F := F)) WK) (Proc.devRef .tc Cert.KernelIdeal.main_v385) = (after (Cert.ReferenceIdeal.Agree.ops20 (F := F)) WR) (Proc.devRef .tc Cert.ReferenceIdeal.main_v385)
      ∧ (after (Cert.KernelIdeal.Agree.ops20 (F := F)) WK) (Proc.devRef .tc Cert.KernelIdeal.main_v469) = (after (Cert.ReferenceIdeal.Agree.ops20 (F := F)) WR) (Proc.devRef .tc Cert.ReferenceIdeal.main_v469)
      ∧ (after (Cert.KernelIdeal.Agree.ops20 (F := F)) WK) (Proc.devRef .tc Cert.KernelIdeal.main_v474) = (after (Cert.ReferenceIdeal.Agree.ops20 (F := F)) WR) (Proc.devRef .tc Cert.ReferenceIdeal.main_v474)
      ∧ (after (Cert.KernelIdeal.Agree.ops20 (F := F)) WK) (Proc.devRef .tc Cert.KernelIdeal.main_v484) = (after (Cert.ReferenceIdeal.Agree.ops20 (F := F)) WR) (Proc.devRef .tc Cert.ReferenceIdeal.main_v484)
      ∧ (after (Cert.KernelIdeal.Agree.ops20 (F := F)) WK) (Proc.devRef .tc Cert.KernelIdeal.main_v491) = (after (Cert.ReferenceIdeal.Agree.ops20 (F := F)) WR) (Proc.devRef .tc Cert.ReferenceIdeal.main_v491)
      ∧ (after (Cert.KernelIdeal.Agree.ops20 (F := F)) WK) (Proc.devRef .tc Cert.KernelIdeal.main_v493) = (after (Cert.ReferenceIdeal.Agree.ops20 (F := F)) WR) (Proc.devRef .tc Cert.ReferenceIdeal.main_v493)
      ∧ (after (Cert.KernelIdeal.Agree.ops20 (F := F)) WK) (Proc.devRef .tc Cert.KernelIdeal.main_v498) = (after (Cert.ReferenceIdeal.Agree.ops20 (F := F)) WR) (Proc.devRef .tc Cert.ReferenceIdeal.main_v498)
      ∧ (after (Cert.KernelIdeal.Agree.ops20 (F := F)) WK) (Proc.devRef .tc Cert.KernelIdeal.main_v503) = (after (Cert.ReferenceIdeal.Agree.ops20 (F := F)) WR) (Proc.devRef .tc Cert.ReferenceIdeal.main_v503)
      ∧ (after (Cert.KernelIdeal.Agree.ops20 (F := F)) WK) (Proc.devRef .tc Cert.KernelIdeal.main_c_68) = (after (Cert.ReferenceIdeal.Agree.ops20 (F := F)) WR) (Proc.devRef .tc Cert.ReferenceIdeal.main_c_68) := by
  obtain ⟨h_v0, h_v18, h_v23, h_v85, h_v157, h_v229, h_v301, h_v385, h_v466⟩ := h
  refine ⟨?_, ?_, ?_, ?_, ?_, ?_, ?_, ?_, ?_, ?_, ?_, ?_, ?_, ?_, ?_, ?_⟩
  · exact (after_of_writes_sub _ WK Cert.KernelIdeal.Agree.ops20_writes (by decide)).trans (h_v0.trans (after_of_writes_sub _ WR Cert.ReferenceIdeal.Agree.ops20_writes (by decide)).symm)
  · exact (after_of_writes_sub _ WK Cert.KernelIdeal.Agree.ops20_writes (by decide)).trans (h_v18.trans (after_of_writes_sub _ WR Cert.ReferenceIdeal.Agree.ops20_writes (by decide)).symm)
  · exact (after_of_writes_sub _ WK Cert.KernelIdeal.Agree.ops20_writes (by decide)).trans (h_v23.trans (after_of_writes_sub _ WR Cert.ReferenceIdeal.Agree.ops20_writes (by decide)).symm)
  · exact (after_of_writes_sub _ WK Cert.KernelIdeal.Agree.ops20_writes (by decide)).trans (h_v85.trans (after_of_writes_sub _ WR Cert.ReferenceIdeal.Agree.ops20_writes (by decide)).symm)
  · exact (after_of_writes_sub _ WK Cert.KernelIdeal.Agree.ops20_writes (by decide)).trans (h_v157.trans (after_of_writes_sub _ WR Cert.ReferenceIdeal.Agree.ops20_writes (by decide)).symm)
  · exact (after_of_writes_sub _ WK Cert.KernelIdeal.Agree.ops20_writes (by decide)).trans (h_v229.trans (after_of_writes_sub _ WR Cert.ReferenceIdeal.Agree.ops20_writes (by decide)).symm)
  · exact (after_of_writes_sub _ WK Cert.KernelIdeal.Agree.ops20_writes (by decide)).trans (h_v301.trans (after_of_writes_sub _ WR Cert.ReferenceIdeal.Agree.ops20_writes (by decide)).symm)
  · exact (after_of_writes_sub _ WK Cert.KernelIdeal.Agree.ops20_writes (by decide)).trans (h_v385.trans (after_of_writes_sub _ WR Cert.ReferenceIdeal.Agree.ops20_writes (by decide)).symm)
  · run_agrees [h_v466]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 21 (operations 1011 to 1058): agreement on the 16 buffers live before it gives agreement on the 15 live after it. -/
theorem step21
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v474) = WR (Proc.devRef .tc Cert.ReferenceIdeal.main_v474)
      ∧ WK (Proc.devRef .tc Cert.KernelIdeal.main_v484) = WR (Proc.devRef .tc Cert.ReferenceIdeal.main_v484)
      ∧ WK (Proc.devRef .tc Cert.KernelIdeal.main_v491) = WR (Proc.devRef .tc Cert.ReferenceIdeal.main_v491)
      ∧ WK (Proc.devRef .tc Cert.KernelIdeal.main_v493) = WR (Proc.devRef .tc Cert.ReferenceIdeal.main_v493)
      ∧ WK (Proc.devRef .tc Cert.KernelIdeal.main_v498) = WR (Proc.devRef .tc Cert.ReferenceIdeal.main_v498)
      ∧ WK (Proc.devRef .tc Cert.KernelIdeal.main_v503) = WR (Proc.devRef .tc Cert.ReferenceIdeal.main_v503)
      ∧ WK (Proc.devRef .tc Cert.KernelIdeal.main_c_68) = WR (Proc.devRef .tc Cert.ReferenceIdeal.main_c_68)) :
    (after (Cert.KernelIdeal.Agree.ops21 (F := F)) WK) (Proc.devRef .tc Cert.KernelIdeal.main_v0) = (after (Cert.ReferenceIdeal.Agree.ops21 (F := F)) WR) (Proc.devRef .tc Cert.ReferenceIdeal.main_v0)
      ∧ (after (Cert.KernelIdeal.Agree.ops21 (F := F)) WK) (Proc.devRef .tc Cert.KernelIdeal.main_v18) = (after (Cert.ReferenceIdeal.Agree.ops21 (F := F)) WR) (Proc.devRef .tc Cert.ReferenceIdeal.main_v18)
      ∧ (after (Cert.KernelIdeal.Agree.ops21 (F := F)) WK) (Proc.devRef .tc Cert.KernelIdeal.main_v23) = (after (Cert.ReferenceIdeal.Agree.ops21 (F := F)) WR) (Proc.devRef .tc Cert.ReferenceIdeal.main_v23)
      ∧ (after (Cert.KernelIdeal.Agree.ops21 (F := F)) WK) (Proc.devRef .tc Cert.KernelIdeal.main_v85) = (after (Cert.ReferenceIdeal.Agree.ops21 (F := F)) WR) (Proc.devRef .tc Cert.ReferenceIdeal.main_v85)
      ∧ (after (Cert.KernelIdeal.Agree.ops21 (F := F)) WK) (Proc.devRef .tc Cert.KernelIdeal.main_v157) = (after (Cert.ReferenceIdeal.Agree.ops21 (F := F)) WR) (Proc.devRef .tc Cert.ReferenceIdeal.main_v157)
      ∧ (after (Cert.KernelIdeal.Agree.ops21 (F := F)) WK) (Proc.devRef .tc Cert.KernelIdeal.main_v229) = (after (Cert.ReferenceIdeal.Agree.ops21 (F := F)) WR) (Proc.devRef .tc Cert.ReferenceIdeal.main_v229)
      ∧ (after (Cert.KernelIdeal.Agree.ops21 (F := F)) WK) (Proc.devRef .tc Cert.KernelIdeal.main_v301) = (after (Cert.ReferenceIdeal.Agree.ops21 (F := F)) WR) (Proc.devRef .tc Cert.ReferenceIdeal.main_v301)
      ∧ (after (Cert.KernelIdeal.Agree.ops21 (F := F)) WK) (Proc.devRef .tc Cert.KernelIdeal.main_v385) = (after (Cert.ReferenceIdeal.Agree.ops21 (F := F)) WR) (Proc.devRef .tc Cert.ReferenceIdeal.main_v385)
      ∧ (after (Cert.KernelIdeal.Agree.ops21 (F := F)) WK) (Proc.devRef .tc Cert.KernelIdeal.main_v469) = (after (Cert.ReferenceIdeal.Agree.ops21 (F := F)) WR) (Proc.devRef .tc Cert.ReferenceIdeal.main_v469)
      ∧ (after (Cert.KernelIdeal.Agree.ops21 (F := F)) WK) (Proc.devRef .tc Cert.KernelIdeal.main_v484) = (after (Cert.ReferenceIdeal.Agree.ops21 (F := F)) WR) (Proc.devRef .tc Cert.ReferenceIdeal.main_v484)
      ∧ (after (Cert.KernelIdeal.Agree.ops21 (F := F)) WK) (Proc.devRef .tc Cert.KernelIdeal.main_v498) = (after (Cert.ReferenceIdeal.Agree.ops21 (F := F)) WR) (Proc.devRef .tc Cert.ReferenceIdeal.main_v498)
      ∧ (after (Cert.KernelIdeal.Agree.ops21 (F := F)) WK) (Proc.devRef .tc Cert.KernelIdeal.main_v506) = (after (Cert.ReferenceIdeal.Agree.ops21 (F := F)) WR) (Proc.devRef .tc Cert.ReferenceIdeal.main_v506)
      ∧ (after (Cert.KernelIdeal.Agree.ops21 (F := F)) WK) (Proc.devRef .tc Cert.KernelIdeal.main_v511) = (after (Cert.ReferenceIdeal.Agree.ops21 (F := F)) WR) (Proc.devRef .tc Cert.ReferenceIdeal.main_v511)
      ∧ (after (Cert.KernelIdeal.Agree.ops21 (F := F)) WK) (Proc.devRef .tc Cert.KernelIdeal.main_v516) = (after (Cert.ReferenceIdeal.Agree.ops21 (F := F)) WR) (Proc.devRef .tc Cert.ReferenceIdeal.main_v516)
      ∧ (after (Cert.KernelIdeal.Agree.ops21 (F := F)) WK) (Proc.devRef .tc Cert.KernelIdeal.main_c_71) = (after (Cert.ReferenceIdeal.Agree.ops21 (F := F)) WR) (Proc.devRef .tc Cert.ReferenceIdeal.main_c_71) := by
  obtain ⟨h_v0, h_v18, h_v23, h_v85, h_v157, h_v229, h_v301, h_v385, h_v469, h_v474, h_v484, h_v491, h_v493, h_v498, h_v503, h_c_68⟩ := h
  refine ⟨?_, ?_, ?_, ?_, ?_, ?_, ?_, ?_, ?_, ?_, ?_, ?_, ?_, ?_, ?_⟩
  · exact (after_of_writes_sub _ WK Cert.KernelIdeal.Agree.ops21_writes (by decide)).trans (h_v0.trans (after_of_writes_sub _ WR Cert.ReferenceIdeal.Agree.ops21_writes (by decide)).symm)
  · exact (after_of_writes_sub _ WK Cert.KernelIdeal.Agree.ops21_writes (by decide)).trans (h_v18.trans (after_of_writes_sub _ WR Cert.ReferenceIdeal.Agree.ops21_writes (by decide)).symm)
  · exact (after_of_writes_sub _ WK Cert.KernelIdeal.Agree.ops21_writes (by decide)).trans (h_v23.trans (after_of_writes_sub _ WR Cert.ReferenceIdeal.Agree.ops21_writes (by decide)).symm)
  · exact (after_of_writes_sub _ WK Cert.KernelIdeal.Agree.ops21_writes (by decide)).trans (h_v85.trans (after_of_writes_sub _ WR Cert.ReferenceIdeal.Agree.ops21_writes (by decide)).symm)
  · exact (after_of_writes_sub _ WK Cert.KernelIdeal.Agree.ops21_writes (by decide)).trans (h_v157.trans (after_of_writes_sub _ WR Cert.ReferenceIdeal.Agree.ops21_writes (by decide)).symm)
  · exact (after_of_writes_sub _ WK Cert.KernelIdeal.Agree.ops21_writes (by decide)).trans (h_v229.trans (after_of_writes_sub _ WR Cert.ReferenceIdeal.Agree.ops21_writes (by decide)).symm)
  · exact (after_of_writes_sub _ WK Cert.KernelIdeal.Agree.ops21_writes (by decide)).trans (h_v301.trans (after_of_writes_sub _ WR Cert.ReferenceIdeal.Agree.ops21_writes (by decide)).symm)
  · exact (after_of_writes_sub _ WK Cert.KernelIdeal.Agree.ops21_writes (by decide)).trans (h_v385.trans (after_of_writes_sub _ WR Cert.ReferenceIdeal.Agree.ops21_writes (by decide)).symm)
  · exact (after_of_writes_sub _ WK Cert.KernelIdeal.Agree.ops21_writes (by decide)).trans (h_v469.trans (after_of_writes_sub _ WR Cert.ReferenceIdeal.Agree.ops21_writes (by decide)).symm)
  · exact (after_of_writes_sub _ WK Cert.KernelIdeal.Agree.ops21_writes (by decide)).trans (h_v484.trans (after_of_writes_sub _ WR Cert.ReferenceIdeal.Agree.ops21_writes (by decide)).symm)
  · exact (after_of_writes_sub _ WK Cert.KernelIdeal.Agree.ops21_writes (by decide)).trans (h_v498.trans (after_of_writes_sub _ WR Cert.ReferenceIdeal.Agree.ops21_writes (by decide)).symm)
  · run_agrees [h_v474, h_v503, h_c_68]
  · run_agrees [h_v484, h_v491, h_v493]
  · run_agrees [h_v491, h_v493]
  · after_results_simp; first | done | rfl

set_option maxHeartbeats 800000 in
/-- Run 22 (operations 1059 to 1117): agreement on the 15 buffers live before it gives agreement on the 10 live after it. -/
theorem step22
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v484) = WR (Proc.devRef .tc Cert.ReferenceIdeal.main_v484)
      ∧ WK (Proc.devRef .tc Cert.KernelIdeal.main_v498) = WR (Proc.devRef .tc Cert.ReferenceIdeal.main_v498)
      ∧ WK (Proc.devRef .tc Cert.KernelIdeal.main_v506) = WR (Proc.devRef .tc Cert.ReferenceIdeal.main_v506)
      ∧ WK (Proc.devRef .tc Cert.KernelIdeal.main_v511) = WR (Proc.devRef .tc Cert.ReferenceIdeal.main_v511)
      ∧ WK (Proc.devRef .tc Cert.KernelIdeal.main_v516) = WR (Proc.devRef .tc Cert.ReferenceIdeal.main_v516)
      ∧ WK (Proc.devRef .tc Cert.KernelIdeal.main_c_71) = WR (Proc.devRef .tc Cert.ReferenceIdeal.main_c_71)) :
    (after (Cert.KernelIdeal.Agree.ops22 (F := F)) WK) (Proc.devRef .tc Cert.KernelIdeal.main_v0) = (after (Cert.ReferenceIdeal.Agree.ops22 (F := F)) WR) (Proc.devRef .tc Cert.ReferenceIdeal.main_v0)
      ∧ (after (Cert.KernelIdeal.Agree.ops22 (F := F)) WK) (Proc.devRef .tc Cert.KernelIdeal.main_v18) = (after (Cert.ReferenceIdeal.Agree.ops22 (F := F)) WR) (Proc.devRef .tc Cert.ReferenceIdeal.main_v18)
      ∧ (after (Cert.KernelIdeal.Agree.ops22 (F := F)) WK) (Proc.devRef .tc Cert.KernelIdeal.main_v23) = (after (Cert.ReferenceIdeal.Agree.ops22 (F := F)) WR) (Proc.devRef .tc Cert.ReferenceIdeal.main_v23)
      ∧ (after (Cert.KernelIdeal.Agree.ops22 (F := F)) WK) (Proc.devRef .tc Cert.KernelIdeal.main_v85) = (after (Cert.ReferenceIdeal.Agree.ops22 (F := F)) WR) (Proc.devRef .tc Cert.ReferenceIdeal.main_v85)
      ∧ (after (Cert.KernelIdeal.Agree.ops22 (F := F)) WK) (Proc.devRef .tc Cert.KernelIdeal.main_v157) = (after (Cert.ReferenceIdeal.Agree.ops22 (F := F)) WR) (Proc.devRef .tc Cert.ReferenceIdeal.main_v157)
      ∧ (after (Cert.KernelIdeal.Agree.ops22 (F := F)) WK) (Proc.devRef .tc Cert.KernelIdeal.main_v229) = (after (Cert.ReferenceIdeal.Agree.ops22 (F := F)) WR) (Proc.devRef .tc Cert.ReferenceIdeal.main_v229)
      ∧ (after (Cert.KernelIdeal.Agree.ops22 (F := F)) WK) (Proc.devRef .tc Cert.KernelIdeal.main_v301) = (after (Cert.ReferenceIdeal.Agree.ops22 (F := F)) WR) (Proc.devRef .tc Cert.ReferenceIdeal.main_v301)
      ∧ (after (Cert.KernelIdeal.Agree.ops22 (F := F)) WK) (Proc.devRef .tc Cert.KernelIdeal.main_v385) = (after (Cert.ReferenceIdeal.Agree.ops22 (F := F)) WR) (Proc.devRef .tc Cert.ReferenceIdeal.main_v385)
      ∧ (after (Cert.KernelIdeal.Agree.ops22 (F := F)) WK) (Proc.devRef .tc Cert.KernelIdeal.main_v469) = (after (Cert.ReferenceIdeal.Agree.ops22 (F := F)) WR) (Proc.devRef .tc Cert.ReferenceIdeal.main_v469)
      ∧ (after (Cert.KernelIdeal.Agree.ops22 (F := F)) WK) (Proc.devRef .tc Cert.KernelIdeal.main_v550) = (after (Cert.ReferenceIdeal.Agree.ops22 (F := F)) WR) (Proc.devRef .tc Cert.ReferenceIdeal.main_v550) := by
  obtain ⟨h_v0, h_v18, h_v23, h_v85, h_v157, h_v229, h_v301, h_v385, h_v469, h_v484, h_v498, h_v506, h_v511, h_v516, h_c_71⟩ := h
  refine ⟨?_, ?_, ?_, ?_, ?_, ?_, ?_, ?_, ?_, ?_⟩
  · exact (after_of_writes_sub _ WK Cert.KernelIdeal.Agree.ops22_writes (by decide)).trans (h_v0.trans (after_of_writes_sub _ WR Cert.ReferenceIdeal.Agree.ops22_writes (by decide)).symm)
  · exact (after_of_writes_sub _ WK Cert.KernelIdeal.Agree.ops22_writes (by decide)).trans (h_v18.trans (after_of_writes_sub _ WR Cert.ReferenceIdeal.Agree.ops22_writes (by decide)).symm)
  · exact (after_of_writes_sub _ WK Cert.KernelIdeal.Agree.ops22_writes (by decide)).trans (h_v23.trans (after_of_writes_sub _ WR Cert.ReferenceIdeal.Agree.ops22_writes (by decide)).symm)
  · exact (after_of_writes_sub _ WK Cert.KernelIdeal.Agree.ops22_writes (by decide)).trans (h_v85.trans (after_of_writes_sub _ WR Cert.ReferenceIdeal.Agree.ops22_writes (by decide)).symm)
  · exact (after_of_writes_sub _ WK Cert.KernelIdeal.Agree.ops22_writes (by decide)).trans (h_v157.trans (after_of_writes_sub _ WR Cert.ReferenceIdeal.Agree.ops22_writes (by decide)).symm)
  · exact (after_of_writes_sub _ WK Cert.KernelIdeal.Agree.ops22_writes (by decide)).trans (h_v229.trans (after_of_writes_sub _ WR Cert.ReferenceIdeal.Agree.ops22_writes (by decide)).symm)
  · exact (after_of_writes_sub _ WK Cert.KernelIdeal.Agree.ops22_writes (by decide)).trans (h_v301.trans (after_of_writes_sub _ WR Cert.ReferenceIdeal.Agree.ops22_writes (by decide)).symm)
  · exact (after_of_writes_sub _ WK Cert.KernelIdeal.Agree.ops22_writes (by decide)).trans (h_v385.trans (after_of_writes_sub _ WR Cert.ReferenceIdeal.Agree.ops22_writes (by decide)).symm)
  · exact (after_of_writes_sub _ WK Cert.KernelIdeal.Agree.ops22_writes (by decide)).trans (h_v469.trans (after_of_writes_sub _ WR Cert.ReferenceIdeal.Agree.ops22_writes (by decide)).symm)
  · run_agrees [h_v0, h_v484, h_v498, h_v506, h_v511, h_v516, h_c_71]

set_option maxHeartbeats 800000 in
/-- Run 23 (operations 1118 to 1174): agreement on the 10 buffers live before it gives agreement on the 17 live after it. -/
theorem step23
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v550) = WR (Proc.devRef .tc Cert.ReferenceIdeal.main_v550)) :
    (after (Cert.KernelIdeal.Agree.ops23 (F := F)) WK) (Proc.devRef .tc Cert.KernelIdeal.main_v0) = (after (Cert.ReferenceIdeal.Agree.ops23 (F := F)) WR) (Proc.devRef .tc Cert.ReferenceIdeal.main_v0)
      ∧ (after (Cert.KernelIdeal.Agree.ops23 (F := F)) WK) (Proc.devRef .tc Cert.KernelIdeal.main_v18) = (after (Cert.ReferenceIdeal.Agree.ops23 (F := F)) WR) (Proc.devRef .tc Cert.ReferenceIdeal.main_v18)
      ∧ (after (Cert.KernelIdeal.Agree.ops23 (F := F)) WK) (Proc.devRef .tc Cert.KernelIdeal.main_v23) = (after (Cert.ReferenceIdeal.Agree.ops23 (F := F)) WR) (Proc.devRef .tc Cert.ReferenceIdeal.main_v23)
      ∧ (after (Cert.KernelIdeal.Agree.ops23 (F := F)) WK) (Proc.devRef .tc Cert.KernelIdeal.main_v85) = (after (Cert.ReferenceIdeal.Agree.ops23 (F := F)) WR) (Proc.devRef .tc Cert.ReferenceIdeal.main_v85)
      ∧ (after (Cert.KernelIdeal.Agree.ops23 (F := F)) WK) (Proc.devRef .tc Cert.KernelIdeal.main_v157) = (after (Cert.ReferenceIdeal.Agree.ops23 (F := F)) WR) (Proc.devRef .tc Cert.ReferenceIdeal.main_v157)
      ∧ (after (Cert.KernelIdeal.Agree.ops23 (F := F)) WK) (Proc.devRef .tc Cert.KernelIdeal.main_v229) = (after (Cert.ReferenceIdeal.Agree.ops23 (F := F)) WR) (Proc.devRef .tc Cert.ReferenceIdeal.main_v229)
      ∧ (after (Cert.KernelIdeal.Agree.ops23 (F := F)) WK) (Proc.devRef .tc Cert.KernelIdeal.main_v301) = (after (Cert.ReferenceIdeal.Agree.ops23 (F := F)) WR) (Proc.devRef .tc Cert.ReferenceIdeal.main_v301)
      ∧ (after (Cert.KernelIdeal.Agree.ops23 (F := F)) WK) (Proc.devRef .tc Cert.KernelIdeal.main_v385) = (after (Cert.ReferenceIdeal.Agree.ops23 (F := F)) WR) (Proc.devRef .tc Cert.ReferenceIdeal.main_v385)
      ∧ (after (Cert.KernelIdeal.Agree.ops23 (F := F)) WK) (Proc.devRef .tc Cert.KernelIdeal.main_v469) = (after (Cert.ReferenceIdeal.Agree.ops23 (F := F)) WR) (Proc.devRef .tc Cert.ReferenceIdeal.main_v469)
      ∧ (after (Cert.KernelIdeal.Agree.ops23 (F := F)) WK) (Proc.devRef .tc Cert.KernelIdeal.main_v553) = (after (Cert.ReferenceIdeal.Agree.ops23 (F := F)) WR) (Proc.devRef .tc Cert.ReferenceIdeal.main_v553)
      ∧ (after (Cert.KernelIdeal.Agree.ops23 (F := F)) WK) (Proc.devRef .tc Cert.KernelIdeal.main_v558) = (after (Cert.ReferenceIdeal.Agree.ops23 (F := F)) WR) (Proc.devRef .tc Cert.ReferenceIdeal.main_v558)
      ∧ (after (Cert.KernelIdeal.Agree.ops23 (F := F)) WK) (Proc.devRef .tc Cert.KernelIdeal.main_v568) = (after (Cert.ReferenceIdeal.Agree.ops23 (F := F)) WR) (Proc.devRef .tc Cert.ReferenceIdeal.main_v568)
      ∧ (after (Cert.KernelIdeal.Agree.ops23 (F := F)) WK) (Proc.devRef .tc Cert.KernelIdeal.main_v575) = (after (Cert.ReferenceIdeal.Agree.ops23 (F := F)) WR) (Proc.devRef .tc Cert.ReferenceIdeal.main_v575)
      ∧ (after (Cert.KernelIdeal.Agree.ops23 (F := F)) WK) (Proc.devRef .tc Cert.KernelIdeal.main_v577) = (after (Cert.ReferenceIdeal.Agree.ops23 (F := F)) WR) (Proc.devRef .tc Cert.ReferenceIdeal.main_v577)
      ∧ (after (Cert.KernelIdeal.Agree.ops23 (F := F)) WK) (Proc.devRef .tc Cert.KernelIdeal.main_v582) = (after (Cert.ReferenceIdeal.Agree.ops23 (F := F)) WR) (Proc.devRef .tc Cert.ReferenceIdeal.main_v582)
      ∧ (after (Cert.KernelIdeal.Agree.ops23 (F := F)) WK) (Proc.devRef .tc Cert.KernelIdeal.main_v587) = (after (Cert.ReferenceIdeal.Agree.ops23 (F := F)) WR) (Proc.devRef .tc Cert.ReferenceIdeal.main_v587)
      ∧ (after (Cert.KernelIdeal.Agree.ops23 (F := F)) WK) (Proc.devRef .tc Cert.KernelIdeal.main_c_78) = (after (Cert.ReferenceIdeal.Agree.ops23 (F := F)) WR) (Proc.devRef .tc Cert.ReferenceIdeal.main_c_78) := by
  obtain ⟨h_v0, h_v18, h_v23, h_v85, h_v157, h_v229, h_v301, h_v385, h_v469, h_v550⟩ := h
  refine ⟨?_, ?_, ?_, ?_, ?_, ?_, ?_, ?_, ?_, ?_, ?_, ?_, ?_, ?_, ?_, ?_, ?_⟩
  · exact (after_of_writes_sub _ WK Cert.KernelIdeal.Agree.ops23_writes (by decide)).trans (h_v0.trans (after_of_writes_sub _ WR Cert.ReferenceIdeal.Agree.ops23_writes (by decide)).symm)
  · exact (after_of_writes_sub _ WK Cert.KernelIdeal.Agree.ops23_writes (by decide)).trans (h_v18.trans (after_of_writes_sub _ WR Cert.ReferenceIdeal.Agree.ops23_writes (by decide)).symm)
  · exact (after_of_writes_sub _ WK Cert.KernelIdeal.Agree.ops23_writes (by decide)).trans (h_v23.trans (after_of_writes_sub _ WR Cert.ReferenceIdeal.Agree.ops23_writes (by decide)).symm)
  · exact (after_of_writes_sub _ WK Cert.KernelIdeal.Agree.ops23_writes (by decide)).trans (h_v85.trans (after_of_writes_sub _ WR Cert.ReferenceIdeal.Agree.ops23_writes (by decide)).symm)
  · exact (after_of_writes_sub _ WK Cert.KernelIdeal.Agree.ops23_writes (by decide)).trans (h_v157.trans (after_of_writes_sub _ WR Cert.ReferenceIdeal.Agree.ops23_writes (by decide)).symm)
  · exact (after_of_writes_sub _ WK Cert.KernelIdeal.Agree.ops23_writes (by decide)).trans (h_v229.trans (after_of_writes_sub _ WR Cert.ReferenceIdeal.Agree.ops23_writes (by decide)).symm)
  · exact (after_of_writes_sub _ WK Cert.KernelIdeal.Agree.ops23_writes (by decide)).trans (h_v301.trans (after_of_writes_sub _ WR Cert.ReferenceIdeal.Agree.ops23_writes (by decide)).symm)
  · exact (after_of_writes_sub _ WK Cert.KernelIdeal.Agree.ops23_writes (by decide)).trans (h_v385.trans (after_of_writes_sub _ WR Cert.ReferenceIdeal.Agree.ops23_writes (by decide)).symm)
  · exact (after_of_writes_sub _ WK Cert.KernelIdeal.Agree.ops23_writes (by decide)).trans (h_v469.trans (after_of_writes_sub _ WR Cert.ReferenceIdeal.Agree.ops23_writes (by decide)).symm)
  · run_agrees [h_v550]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 24 (operations 1175 to 1222): agreement on the 17 buffers live before it gives agreement on the 16 live after it. -/
theorem step24
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v558) = WR (Proc.devRef .tc Cert.ReferenceIdeal.main_v558)
      ∧ WK (Proc.devRef .tc Cert.KernelIdeal.main_v568) = WR (Proc.devRef .tc Cert.ReferenceIdeal.main_v568)
      ∧ WK (Proc.devRef .tc Cert.KernelIdeal.main_v575) = WR (Proc.devRef .tc Cert.ReferenceIdeal.main_v575)
      ∧ WK (Proc.devRef .tc Cert.KernelIdeal.main_v577) = WR (Proc.devRef .tc Cert.ReferenceIdeal.main_v577)
      ∧ WK (Proc.devRef .tc Cert.KernelIdeal.main_v582) = WR (Proc.devRef .tc Cert.ReferenceIdeal.main_v582)
      ∧ WK (Proc.devRef .tc Cert.KernelIdeal.main_v587) = WR (Proc.devRef .tc Cert.ReferenceIdeal.main_v587)
      ∧ WK (Proc.devRef .tc Cert.KernelIdeal.main_c_78) = WR (Proc.devRef .tc Cert.ReferenceIdeal.main_c_78)) :
    (after (Cert.KernelIdeal.Agree.ops24 (F := F)) WK) (Proc.devRef .tc Cert.KernelIdeal.main_v0) = (after (Cert.ReferenceIdeal.Agree.ops24 (F := F)) WR) (Proc.devRef .tc Cert.ReferenceIdeal.main_v0)
      ∧ (after (Cert.KernelIdeal.Agree.ops24 (F := F)) WK) (Proc.devRef .tc Cert.KernelIdeal.main_v18) = (after (Cert.ReferenceIdeal.Agree.ops24 (F := F)) WR) (Proc.devRef .tc Cert.ReferenceIdeal.main_v18)
      ∧ (after (Cert.KernelIdeal.Agree.ops24 (F := F)) WK) (Proc.devRef .tc Cert.KernelIdeal.main_v23) = (after (Cert.ReferenceIdeal.Agree.ops24 (F := F)) WR) (Proc.devRef .tc Cert.ReferenceIdeal.main_v23)
      ∧ (after (Cert.KernelIdeal.Agree.ops24 (F := F)) WK) (Proc.devRef .tc Cert.KernelIdeal.main_v85) = (after (Cert.ReferenceIdeal.Agree.ops24 (F := F)) WR) (Proc.devRef .tc Cert.ReferenceIdeal.main_v85)
      ∧ (after (Cert.KernelIdeal.Agree.ops24 (F := F)) WK) (Proc.devRef .tc Cert.KernelIdeal.main_v157) = (after (Cert.ReferenceIdeal.Agree.ops24 (F := F)) WR) (Proc.devRef .tc Cert.ReferenceIdeal.main_v157)
      ∧ (after (Cert.KernelIdeal.Agree.ops24 (F := F)) WK) (Proc.devRef .tc Cert.KernelIdeal.main_v229) = (after (Cert.ReferenceIdeal.Agree.ops24 (F := F)) WR) (Proc.devRef .tc Cert.ReferenceIdeal.main_v229)
      ∧ (after (Cert.KernelIdeal.Agree.ops24 (F := F)) WK) (Proc.devRef .tc Cert.KernelIdeal.main_v301) = (after (Cert.ReferenceIdeal.Agree.ops24 (F := F)) WR) (Proc.devRef .tc Cert.ReferenceIdeal.main_v301)
      ∧ (after (Cert.KernelIdeal.Agree.ops24 (F := F)) WK) (Proc.devRef .tc Cert.KernelIdeal.main_v385) = (after (Cert.ReferenceIdeal.Agree.ops24 (F := F)) WR) (Proc.devRef .tc Cert.ReferenceIdeal.main_v385)
      ∧ (after (Cert.KernelIdeal.Agree.ops24 (F := F)) WK) (Proc.devRef .tc Cert.KernelIdeal.main_v469) = (after (Cert.ReferenceIdeal.Agree.ops24 (F := F)) WR) (Proc.devRef .tc Cert.ReferenceIdeal.main_v469)
      ∧ (after (Cert.KernelIdeal.Agree.ops24 (F := F)) WK) (Proc.devRef .tc Cert.KernelIdeal.main_v553) = (after (Cert.ReferenceIdeal.Agree.ops24 (F := F)) WR) (Proc.devRef .tc Cert.ReferenceIdeal.main_v553)
      ∧ (after (Cert.KernelIdeal.Agree.ops24 (F := F)) WK) (Proc.devRef .tc Cert.KernelIdeal.main_v568) = (after (Cert.ReferenceIdeal.Agree.ops24 (F := F)) WR) (Proc.devRef .tc Cert.ReferenceIdeal.main_v568)
      ∧ (after (Cert.KernelIdeal.Agree.ops24 (F := F)) WK) (Proc.devRef .tc Cert.KernelIdeal.main_v582) = (after (Cert.ReferenceIdeal.Agree.ops24 (F := F)) WR) (Proc.devRef .tc Cert.ReferenceIdeal.main_v582)
      ∧ (after (Cert.KernelIdeal.Agree.ops24 (F := F)) WK) (Proc.devRef .tc Cert.KernelIdeal.main_v590) = (after (Cert.ReferenceIdeal.Agree.ops24 (F := F)) WR) (Proc.devRef .tc Cert.ReferenceIdeal.main_v590)
      ∧ (after (Cert.KernelIdeal.Agree.ops24 (F := F)) WK) (Proc.devRef .tc Cert.KernelIdeal.main_v595) = (after (Cert.ReferenceIdeal.Agree.ops24 (F := F)) WR) (Proc.devRef .tc Cert.ReferenceIdeal.main_v595)
      ∧ (after (Cert.KernelIdeal.Agree.ops24 (F := F)) WK) (Proc.devRef .tc Cert.KernelIdeal.main_v600) = (after (Cert.ReferenceIdeal.Agree.ops24 (F := F)) WR) (Proc.devRef .tc Cert.ReferenceIdeal.main_v600)
      ∧ (after (Cert.KernelIdeal.Agree.ops24 (F := F)) WK) (Proc.devRef .tc Cert.KernelIdeal.main_c_81) = (after (Cert.ReferenceIdeal.Agree.ops24 (F := F)) WR) (Proc.devRef .tc Cert.ReferenceIdeal.main_c_81) := by
  obtain ⟨h_v0, h_v18, h_v23, h_v85, h_v157, h_v229, h_v301, h_v385, h_v469, h_v553, h_v558, h_v568, h_v575, h_v577, h_v582, h_v587, h_c_78⟩ := h
  refine ⟨?_, ?_, ?_, ?_, ?_, ?_, ?_, ?_, ?_, ?_, ?_, ?_, ?_, ?_, ?_, ?_⟩
  · exact (after_of_writes_sub _ WK Cert.KernelIdeal.Agree.ops24_writes (by decide)).trans (h_v0.trans (after_of_writes_sub _ WR Cert.ReferenceIdeal.Agree.ops24_writes (by decide)).symm)
  · exact (after_of_writes_sub _ WK Cert.KernelIdeal.Agree.ops24_writes (by decide)).trans (h_v18.trans (after_of_writes_sub _ WR Cert.ReferenceIdeal.Agree.ops24_writes (by decide)).symm)
  · exact (after_of_writes_sub _ WK Cert.KernelIdeal.Agree.ops24_writes (by decide)).trans (h_v23.trans (after_of_writes_sub _ WR Cert.ReferenceIdeal.Agree.ops24_writes (by decide)).symm)
  · exact (after_of_writes_sub _ WK Cert.KernelIdeal.Agree.ops24_writes (by decide)).trans (h_v85.trans (after_of_writes_sub _ WR Cert.ReferenceIdeal.Agree.ops24_writes (by decide)).symm)
  · exact (after_of_writes_sub _ WK Cert.KernelIdeal.Agree.ops24_writes (by decide)).trans (h_v157.trans (after_of_writes_sub _ WR Cert.ReferenceIdeal.Agree.ops24_writes (by decide)).symm)
  · exact (after_of_writes_sub _ WK Cert.KernelIdeal.Agree.ops24_writes (by decide)).trans (h_v229.trans (after_of_writes_sub _ WR Cert.ReferenceIdeal.Agree.ops24_writes (by decide)).symm)
  · exact (after_of_writes_sub _ WK Cert.KernelIdeal.Agree.ops24_writes (by decide)).trans (h_v301.trans (after_of_writes_sub _ WR Cert.ReferenceIdeal.Agree.ops24_writes (by decide)).symm)
  · exact (after_of_writes_sub _ WK Cert.KernelIdeal.Agree.ops24_writes (by decide)).trans (h_v385.trans (after_of_writes_sub _ WR Cert.ReferenceIdeal.Agree.ops24_writes (by decide)).symm)
  · exact (after_of_writes_sub _ WK Cert.KernelIdeal.Agree.ops24_writes (by decide)).trans (h_v469.trans (after_of_writes_sub _ WR Cert.ReferenceIdeal.Agree.ops24_writes (by decide)).symm)
  · exact (after_of_writes_sub _ WK Cert.KernelIdeal.Agree.ops24_writes (by decide)).trans (h_v553.trans (after_of_writes_sub _ WR Cert.ReferenceIdeal.Agree.ops24_writes (by decide)).symm)
  · exact (after_of_writes_sub _ WK Cert.KernelIdeal.Agree.ops24_writes (by decide)).trans (h_v568.trans (after_of_writes_sub _ WR Cert.ReferenceIdeal.Agree.ops24_writes (by decide)).symm)
  · exact (after_of_writes_sub _ WK Cert.KernelIdeal.Agree.ops24_writes (by decide)).trans (h_v582.trans (after_of_writes_sub _ WR Cert.ReferenceIdeal.Agree.ops24_writes (by decide)).symm)
  · run_agrees [h_v558, h_v587, h_c_78]
  · run_agrees [h_v568, h_v575, h_v577]
  · run_agrees [h_v575, h_v577]
  · after_results_simp; first | done | rfl

set_option maxHeartbeats 800000 in
/-- Run 25 (operations 1223 to 1281): agreement on the 16 buffers live before it gives agreement on the 11 live after it. -/
theorem step25
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v568) = WR (Proc.devRef .tc Cert.ReferenceIdeal.main_v568)
      ∧ WK (Proc.devRef .tc Cert.KernelIdeal.main_v582) = WR (Proc.devRef .tc Cert.ReferenceIdeal.main_v582)
      ∧ WK (Proc.devRef .tc Cert.KernelIdeal.main_v590) = WR (Proc.devRef .tc Cert.ReferenceIdeal.main_v590)
      ∧ WK (Proc.devRef .tc Cert.KernelIdeal.main_v595) = WR (Proc.devRef .tc Cert.ReferenceIdeal.main_v595)
      ∧ WK (Proc.devRef .tc Cert.KernelIdeal.main_v600) = WR (Proc.devRef .tc Cert.ReferenceIdeal.main_v600)
      ∧ WK (Proc.devRef .tc Cert.KernelIdeal.main_c_81) = WR (Proc.devRef .tc Cert.ReferenceIdeal.main_c_81)) :
    (after (Cert.KernelIdeal.Agree.ops25 (F := F)) WK) (Proc.devRef .tc Cert.KernelIdeal.main_v0) = (after (Cert.ReferenceIdeal.Agree.ops25 (F := F)) WR) (Proc.devRef .tc Cert.ReferenceIdeal.main_v0)
      ∧ (after (Cert.KernelIdeal.Agree.ops25 (F := F)) WK) (Proc.devRef .tc Cert.KernelIdeal.main_v18) = (after (Cert.ReferenceIdeal.Agree.ops25 (F := F)) WR) (Proc.devRef .tc Cert.ReferenceIdeal.main_v18)
      ∧ (after (Cert.KernelIdeal.Agree.ops25 (F := F)) WK) (Proc.devRef .tc Cert.KernelIdeal.main_v23) = (after (Cert.ReferenceIdeal.Agree.ops25 (F := F)) WR) (Proc.devRef .tc Cert.ReferenceIdeal.main_v23)
      ∧ (after (Cert.KernelIdeal.Agree.ops25 (F := F)) WK) (Proc.devRef .tc Cert.KernelIdeal.main_v85) = (after (Cert.ReferenceIdeal.Agree.ops25 (F := F)) WR) (Proc.devRef .tc Cert.ReferenceIdeal.main_v85)
      ∧ (after (Cert.KernelIdeal.Agree.ops25 (F := F)) WK) (Proc.devRef .tc Cert.KernelIdeal.main_v157) = (after (Cert.ReferenceIdeal.Agree.ops25 (F := F)) WR) (Proc.devRef .tc Cert.ReferenceIdeal.main_v157)
      ∧ (after (Cert.KernelIdeal.Agree.ops25 (F := F)) WK) (Proc.devRef .tc Cert.KernelIdeal.main_v229) = (after (Cert.ReferenceIdeal.Agree.ops25 (F := F)) WR) (Proc.devRef .tc Cert.ReferenceIdeal.main_v229)
      ∧ (after (Cert.KernelIdeal.Agree.ops25 (F := F)) WK) (Proc.devRef .tc Cert.KernelIdeal.main_v301) = (after (Cert.ReferenceIdeal.Agree.ops25 (F := F)) WR) (Proc.devRef .tc Cert.ReferenceIdeal.main_v301)
      ∧ (after (Cert.KernelIdeal.Agree.ops25 (F := F)) WK) (Proc.devRef .tc Cert.KernelIdeal.main_v385) = (after (Cert.ReferenceIdeal.Agree.ops25 (F := F)) WR) (Proc.devRef .tc Cert.ReferenceIdeal.main_v385)
      ∧ (after (Cert.KernelIdeal.Agree.ops25 (F := F)) WK) (Proc.devRef .tc Cert.KernelIdeal.main_v469) = (after (Cert.ReferenceIdeal.Agree.ops25 (F := F)) WR) (Proc.devRef .tc Cert.ReferenceIdeal.main_v469)
      ∧ (after (Cert.KernelIdeal.Agree.ops25 (F := F)) WK) (Proc.devRef .tc Cert.KernelIdeal.main_v553) = (after (Cert.ReferenceIdeal.Agree.ops25 (F := F)) WR) (Proc.devRef .tc Cert.ReferenceIdeal.main_v553)
      ∧ (after (Cert.KernelIdeal.Agree.ops25 (F := F)) WK) (Proc.devRef .tc Cert.KernelIdeal.main_v634) = (after (Cert.ReferenceIdeal.Agree.ops25 (F := F)) WR) (Proc.devRef .tc Cert.ReferenceIdeal.main_v634) := by
  obtain ⟨h_v0, h_v18, h_v23, h_v85, h_v157, h_v229, h_v301, h_v385, h_v469, h_v553, h_v568, h_v582, h_v590, h_v595, h_v600, h_c_81⟩ := h
  refine ⟨?_, ?_, ?_, ?_, ?_, ?_, ?_, ?_, ?_, ?_, ?_⟩
  · exact (after_of_writes_sub _ WK Cert.KernelIdeal.Agree.ops25_writes (by decide)).trans (h_v0.trans (after_of_writes_sub _ WR Cert.ReferenceIdeal.Agree.ops25_writes (by decide)).symm)
  · exact (after_of_writes_sub _ WK Cert.KernelIdeal.Agree.ops25_writes (by decide)).trans (h_v18.trans (after_of_writes_sub _ WR Cert.ReferenceIdeal.Agree.ops25_writes (by decide)).symm)
  · exact (after_of_writes_sub _ WK Cert.KernelIdeal.Agree.ops25_writes (by decide)).trans (h_v23.trans (after_of_writes_sub _ WR Cert.ReferenceIdeal.Agree.ops25_writes (by decide)).symm)
  · exact (after_of_writes_sub _ WK Cert.KernelIdeal.Agree.ops25_writes (by decide)).trans (h_v85.trans (after_of_writes_sub _ WR Cert.ReferenceIdeal.Agree.ops25_writes (by decide)).symm)
  · exact (after_of_writes_sub _ WK Cert.KernelIdeal.Agree.ops25_writes (by decide)).trans (h_v157.trans (after_of_writes_sub _ WR Cert.ReferenceIdeal.Agree.ops25_writes (by decide)).symm)
  · exact (after_of_writes_sub _ WK Cert.KernelIdeal.Agree.ops25_writes (by decide)).trans (h_v229.trans (after_of_writes_sub _ WR Cert.ReferenceIdeal.Agree.ops25_writes (by decide)).symm)
  · exact (after_of_writes_sub _ WK Cert.KernelIdeal.Agree.ops25_writes (by decide)).trans (h_v301.trans (after_of_writes_sub _ WR Cert.ReferenceIdeal.Agree.ops25_writes (by decide)).symm)
  · exact (after_of_writes_sub _ WK Cert.KernelIdeal.Agree.ops25_writes (by decide)).trans (h_v385.trans (after_of_writes_sub _ WR Cert.ReferenceIdeal.Agree.ops25_writes (by decide)).symm)
  · exact (after_of_writes_sub _ WK Cert.KernelIdeal.Agree.ops25_writes (by decide)).trans (h_v469.trans (after_of_writes_sub _ WR Cert.ReferenceIdeal.Agree.ops25_writes (by decide)).symm)
  · exact (after_of_writes_sub _ WK Cert.KernelIdeal.Agree.ops25_writes (by decide)).trans (h_v553.trans (after_of_writes_sub _ WR Cert.ReferenceIdeal.Agree.ops25_writes (by decide)).symm)
  · run_agrees [h_v0, h_v568, h_v582, h_v590, h_v595, h_v600, h_c_81]

/-- The whole part: agreement on the 9 buffers live before it gives agreement on the 11 live after it. -/
theorem part3
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v466) = WR (Proc.devRef .tc Cert.ReferenceIdeal.main_v466)) :
    (after (Cert.KernelIdeal.Agree.part3 (F := F)) WK) (Proc.devRef .tc Cert.KernelIdeal.main_v0) = (after (Cert.ReferenceIdeal.Agree.part3 (F := F)) WR) (Proc.devRef .tc Cert.ReferenceIdeal.main_v0)
      ∧ (after (Cert.KernelIdeal.Agree.part3 (F := F)) WK) (Proc.devRef .tc Cert.KernelIdeal.main_v18) = (after (Cert.ReferenceIdeal.Agree.part3 (F := F)) WR) (Proc.devRef .tc Cert.ReferenceIdeal.main_v18)
      ∧ (after (Cert.KernelIdeal.Agree.part3 (F := F)) WK) (Proc.devRef .tc Cert.KernelIdeal.main_v23) = (after (Cert.ReferenceIdeal.Agree.part3 (F := F)) WR) (Proc.devRef .tc Cert.ReferenceIdeal.main_v23)
      ∧ (after (Cert.KernelIdeal.Agree.part3 (F := F)) WK) (Proc.devRef .tc Cert.KernelIdeal.main_v85) = (after (Cert.ReferenceIdeal.Agree.part3 (F := F)) WR) (Proc.devRef .tc Cert.ReferenceIdeal.main_v85)
      ∧ (after (Cert.KernelIdeal.Agree.part3 (F := F)) WK) (Proc.devRef .tc Cert.KernelIdeal.main_v157) = (after (Cert.ReferenceIdeal.Agree.part3 (F := F)) WR) (Proc.devRef .tc Cert.ReferenceIdeal.main_v157)
      ∧ (after (Cert.KernelIdeal.Agree.part3 (F := F)) WK) (Proc.devRef .tc Cert.KernelIdeal.main_v229) = (after (Cert.ReferenceIdeal.Agree.part3 (F := F)) WR) (Proc.devRef .tc Cert.ReferenceIdeal.main_v229)
      ∧ (after (Cert.KernelIdeal.Agree.part3 (F := F)) WK) (Proc.devRef .tc Cert.KernelIdeal.main_v301) = (after (Cert.ReferenceIdeal.Agree.part3 (F := F)) WR) (Proc.devRef .tc Cert.ReferenceIdeal.main_v301)
      ∧ (after (Cert.KernelIdeal.Agree.part3 (F := F)) WK) (Proc.devRef .tc Cert.KernelIdeal.main_v385) = (after (Cert.ReferenceIdeal.Agree.part3 (F := F)) WR) (Proc.devRef .tc Cert.ReferenceIdeal.main_v385)
      ∧ (after (Cert.KernelIdeal.Agree.part3 (F := F)) WK) (Proc.devRef .tc Cert.KernelIdeal.main_v469) = (after (Cert.ReferenceIdeal.Agree.part3 (F := F)) WR) (Proc.devRef .tc Cert.ReferenceIdeal.main_v469)
      ∧ (after (Cert.KernelIdeal.Agree.part3 (F := F)) WK) (Proc.devRef .tc Cert.KernelIdeal.main_v553) = (after (Cert.ReferenceIdeal.Agree.part3 (F := F)) WR) (Proc.devRef .tc Cert.ReferenceIdeal.main_v553)
      ∧ (after (Cert.KernelIdeal.Agree.part3 (F := F)) WK) (Proc.devRef .tc Cert.KernelIdeal.main_v634) = (after (Cert.ReferenceIdeal.Agree.part3 (F := F)) WR) (Proc.devRef .tc Cert.ReferenceIdeal.main_v634) := by
  have s20 := step20 WK WR h
  have s21 := step21 (after (Cert.KernelIdeal.Agree.ops20 (F := F)) WK) (after (Cert.ReferenceIdeal.Agree.ops20 (F := F)) WR) s20
  have s22 := step22 (after (Cert.KernelIdeal.Agree.ops21 (F := F)) (after (Cert.KernelIdeal.Agree.ops20 (F := F)) WK)) (after (Cert.ReferenceIdeal.Agree.ops21 (F := F)) (after (Cert.ReferenceIdeal.Agree.ops20 (F := F)) WR)) s21
  have s23 := step23 (after (Cert.KernelIdeal.Agree.ops22 (F := F)) (after (Cert.KernelIdeal.Agree.ops21 (F := F)) (after (Cert.KernelIdeal.Agree.ops20 (F := F)) WK))) (after (Cert.ReferenceIdeal.Agree.ops22 (F := F)) (after (Cert.ReferenceIdeal.Agree.ops21 (F := F)) (after (Cert.ReferenceIdeal.Agree.ops20 (F := F)) WR))) s22
  have s24 := step24 (after (Cert.KernelIdeal.Agree.ops23 (F := F)) (after (Cert.KernelIdeal.Agree.ops22 (F := F)) (after (Cert.KernelIdeal.Agree.ops21 (F := F)) (after (Cert.KernelIdeal.Agree.ops20 (F := F)) WK)))) (after (Cert.ReferenceIdeal.Agree.ops23 (F := F)) (after (Cert.ReferenceIdeal.Agree.ops22 (F := F)) (after (Cert.ReferenceIdeal.Agree.ops21 (F := F)) (after (Cert.ReferenceIdeal.Agree.ops20 (F := F)) WR)))) s23
  have s25 := step25 (after (Cert.KernelIdeal.Agree.ops24 (F := F)) (after (Cert.KernelIdeal.Agree.ops23 (F := F)) (after (Cert.KernelIdeal.Agree.ops22 (F := F)) (after (Cert.KernelIdeal.Agree.ops21 (F := F)) (after (Cert.KernelIdeal.Agree.ops20 (F := F)) WK))))) (after (Cert.ReferenceIdeal.Agree.ops24 (F := F)) (after (Cert.ReferenceIdeal.Agree.ops23 (F := F)) (after (Cert.ReferenceIdeal.Agree.ops22 (F := F)) (after (Cert.ReferenceIdeal.Agree.ops21 (F := F)) (after (Cert.ReferenceIdeal.Agree.ops20 (F := F)) WR))))) s24
  simp only [Cert.KernelIdeal.Agree.part3, Cert.ReferenceIdeal.Agree.part3, after_append]
  exact s25

end Cert.Agree

end
-- ==== Proof.Agree.Part4.lean ====
/- The kernel's program and the reference compute the pooled feature matrix by the same 2605 operations.  This part is
  operations 1282 to 1609 (the generated stretches 100 to 123), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 1282 to 1338 of the host part, in order. -/
abbrev ops26 : List (HloOp τ sig (Elt F)) :=
  [ StableHlo.nullary main_cst_85 (constant S_ .f32 0xFF800000#32),
    StableHlo.binary main_v634 main_cst_85 main_v635 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v635 main_v636 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v636 main_v637 rfl shapeCasts_S512x7x7_S25088,
    StableHlo.unary main_v18 main_v638 ((extractStridedSlice S1x1 ![1, 1] · slices_S3x4_S1x1_1_1) : (⟨S3x4, .i32⟩ : BufTy).Contents (Elt F) → (⟨S1x1, .i32⟩ : BufTy).Contents (Elt F)),
    StableHlo.reshape main_v638 main_v639 rfl shapeCasts_S1x1_S_,
    StableHlo.unary main_v23 main_v640 ((extractStridedSlice S1x1 ![0, 1] · slices_S4x4_S1x1_0_1) : (⟨S4x4, .i32⟩ : BufTy).Contents (Elt F) → (⟨S1x1, .i32⟩ : BufTy).Contents (Elt F)),
    StableHlo.reshape main_v640 main_v641 rfl shapeCasts_S1x1_S_,
    StableHlo.binary main_v639 main_v641 main_v642 (minsi : (⟨S_, .i32⟩ : BufTy).Contents (Elt F) → (⟨S_, .i32⟩ : BufTy).Contents (Elt F) → (⟨S_, .i32⟩ : BufTy).Contents (Elt F)),
    StableHlo.unary main_v18 main_v643 ((extractStridedSlice S1x1 ![1, 3] · slices_S3x4_S1x1_1_3) : (⟨S3x4, .i32⟩ : BufTy).Contents (Elt F) → (⟨S1x1, .i32⟩ : BufTy).Contents (Elt F)),
    StableHlo.reshape main_v643 main_v644 rfl shapeCasts_S1x1_S_,
    StableHlo.unary main_v23 main_v645 ((extractStridedSlice S1x1 ![0, 3] · slices_S4x4_S1x1_0_3) : (⟨S4x4, .i32⟩ : BufTy).Contents (Elt F) → (⟨S1x1, .i32⟩ : BufTy).Contents (Elt F)),
    StableHlo.reshape main_v645 main_v646 rfl shapeCasts_S1x1_S_,
    StableHlo.binary main_v644 main_v646 main_v647 (maxsi : (⟨S_, .i32⟩ : BufTy).Contents (Elt F) → (⟨S_, .i32⟩ : BufTy).Contents (Elt F) → (⟨S_, .i32⟩ : BufTy).Contents (Elt F)),
    StableHlo.unary main_v18 main_v648 ((extractStridedSlice S1x1 ![1, 0] · slices_S3x4_S1x1_1_0) : (⟨S3x4, .i32⟩ : BufTy).Contents (Elt F) → (⟨S1x1, .i32⟩ : BufTy).Contents (Elt F)),
    StableHlo.reshape main_v648 main_v649 rfl shapeCasts_S1x1_S_,
    StableHlo.unary main_v23 main_v650 ((extractStridedSlice S1x1 ![0, 0] · slices_S4x4_S1x1_0_0) : (⟨S4x4, .i32⟩ : BufTy).Contents (Elt F) → (⟨S1x1, .i32⟩ : BufTy).Contents (Elt F)),
    StableHlo.reshape main_v650 main_v651 rfl shapeCasts_S1x1_S_,
    StableHlo.binary main_v649 main_v651 main_v652 (minsi : (⟨S_, .i32⟩ : BufTy).Contents (Elt F) → (⟨S_, .i32⟩ : BufTy).Contents (Elt F) → (⟨S_, .i32⟩ : BufTy).Contents (Elt F)),
    StableHlo.unary main_v18 main_v653 ((extractStridedSlice S1x1 ![1, 2] · slices_S3x4_S1x1_1_2) : (⟨S3x4, .i32⟩ : BufTy).Contents (Elt F) → (⟨S1x1, .i32⟩ : BufTy).Contents (Elt F)),
    StableHlo.reshape main_v653 main_v654 rfl shapeCasts_S1x1_S_,
    StableHlo.unary main_v23 main_v655 ((extractStridedSlice S1x1 ![0, 2] · slices_S4x4_S1x1_0_2) : (⟨S4x4, .i32⟩ : BufTy).Contents (Elt F) → (⟨S1x1, .i32⟩ : BufTy).Contents (Elt F)),
    StableHlo.reshape main_v655 main_v656 rfl shapeCasts_S1x1_S_,
    StableHlo.binary main_v654 main_v656 main_v657 (maxsi : (⟨S_, .i32⟩ : BufTy).Contents (Elt F) → (⟨S_, .i32⟩ : BufTy).Contents (Elt F) → (⟨S_, .i32⟩ : BufTy).Contents (Elt F)),
    StableHlo.binary main_v647 main_v642 main_v658 (subi : (⟨S_, .i32⟩ : BufTy).Contents (Elt F) → (⟨S_, .i32⟩ : BufTy).Contents (Elt F) → (⟨S_, .i32⟩ : BufTy).Contents (Elt F)),
    StableHlo.binary main_v657 main_v652 main_v659 (subi : (⟨S_, .i32⟩ : BufTy).Contents (Elt F) → (⟨S_, .i32⟩ : BufTy).Contents (Elt F) → (⟨S_, .i32⟩ : BufTy).Contents (Elt F)),
    StableHlo.nullary main_v660 (iotaInDim S7 32 0),
    StableHlo.nullary main_v661 (iotaInDim S7 32 0),
    StableHlo.unary main_v658 main_v662 (broadcastInDim S7 ![] bcast_S_S7 : (⟨S_, .i32⟩ : BufTy).Contents (Elt F) → (⟨S7, .i32⟩ : BufTy).Contents (Elt F)),
    StableHlo.binary main_v660 main_v662 main_v663 (muli : (⟨S7, .i32⟩ : BufTy).Contents (Elt F) → (⟨S7, .i32⟩ : BufTy).Contents (Elt F) → (⟨S7, .i32⟩ : BufTy).Contents (Elt F)),
    StableHlo.nullary main_c_86 (constantI S_ 32 7#32),
    StableHlo.TRef.unary (.of main_c_86 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S7, .i32⟩) (broadcastInDim S7 ![] bcast_S_S7),
    StableHlo.TRef.binary (.of main_v663 : StableHlo.TRef sig ⟨S7, .i32⟩) (.of main_call50_v1 : StableHlo.TRef sig ⟨S7, .i32⟩) (.of main_call50_v2 : StableHlo.TRef sig ⟨S7, .i32⟩) Host.divsi,
    StableHlo.TRef.unary (.of main_v663 : StableHlo.TRef sig ⟨S7, .i32⟩) (.of main_call50_v3 : StableHlo.TRef sig ⟨S7, .i32⟩) signi,
    StableHlo.TRef.unary (.of main_call50_v0 : StableHlo.TRef sig ⟨S_, .i32⟩) (.of main_call50_v4 : StableHlo.TRef sig ⟨S_, .i32⟩) signi,
    StableHlo.TRef.unary (.of main_call50_v4 : StableHlo.TRef sig ⟨S_, .i32⟩) (.of main_call50_v5 : StableHlo.TRef sig ⟨S7, .i32⟩) (broadcastInDim S7 ![] bcast_S_S7),
    StableHlo.TRef.binary (.of main_call50_v3 : StableHlo.TRef sig ⟨S7, .i32⟩) (.of main_call50_v5 : StableHlo.TRef sig ⟨S7, .i32⟩) (.of main_call50_v6 : StableHlo.TRef sig ⟨S7, .i1⟩) (cmpi .ne),
    StableHlo.TRef.unary (.of main_call50_v0 : StableHlo.TRef sig ⟨S_, .i32⟩) (.of main_call50_v7 : StableHlo.TRef sig ⟨S7, .i32⟩) (broadcastInDim S7 ![] bcast_S_S7),
    StableHlo.TRef.binary (.of main_v663 : StableHlo.TRef sig ⟨S7, .i32⟩) (.of main_call50_v7 : StableHlo.TRef sig ⟨S7, .i32⟩) (.of main_call50_v8 : StableHlo.TRef sig ⟨S7, .i32⟩) Host.remsi,
    StableHlo.TRef.nullary (.of main_call50_c : StableHlo.TRef sig ⟨S_, .i32⟩) (constantI S_ 32 0#32),
    StableHlo.TRef.unary (.of main_call50_c : StableHlo.TRef sig ⟨S_, .i32⟩) (.of main_call50_v9 : StableHlo.TRef sig ⟨S7, .i32⟩) (broadcastInDim S7 ![] bcast_S_S7),
    StableHlo.TRef.binary (.of main_call50_v8 : StableHlo.TRef sig ⟨S7, .i32⟩) (.of main_call50_v9 : StableHlo.TRef sig ⟨S7, .i32⟩) (.of main_call50_v10 : StableHlo.TRef sig ⟨S7, .i1⟩) (cmpi .ne),
    StableHlo.TRef.binary (.of main_call50_v6 : StableHlo.TRef sig ⟨S7, .i1⟩) (.of main_call50_v10 : StableHlo.TRef sig ⟨S7, .i1⟩) (.of main_call50_v11 : StableHlo.TRef sig ⟨S7, .i1⟩) andi,
    StableHlo.TRef.nullary (.of main_call50_c_0 : StableHlo.TRef sig ⟨S_, .i32⟩) (constantI S_ 32 1#32),
    StableHlo.TRef.unary (.of main_call50_c_0 : StableHlo.TRef sig ⟨S_, .i32⟩) (.of main_call50_v12 : StableHlo.TRef sig ⟨S7, .i32⟩) (broadcastInDim S7 ![] bcast_S_S7),
    StableHlo.TRef.binary (.of main_call50_v2 : StableHlo.TRef sig ⟨S7, .i32⟩) (.of main_call50_v12 : StableHlo.TRef sig ⟨S7, .i32⟩) (.of main_call50_v13 : StableHlo.TRef sig ⟨S7, .i32⟩) subi,
    StableHlo.TRef.ternary (.of main_call50_v11 : StableHlo.TRef sig ⟨S7, .i1⟩) (.of main_call50_v13 : StableHlo.TRef sig ⟨S7, .i32⟩) (.of main_call50_v2 : StableHlo.TRef sig ⟨S7, .i32⟩) (.of main_v664 : StableHlo.TRef sig ⟨S7, .i32⟩) select,
    StableHlo.unary main_v642 main_v665 (broadcastInDim S7 ![] bcast_S_S7 : (⟨S_, .i32⟩ : BufTy).Contents (Elt F) → (⟨S7, .i32⟩ : BufTy).Contents (Elt F)),
    StableHlo.binary main_v665 main_v664 main_v666 (addi : (⟨S7, .i32⟩ : BufTy).Contents (Elt F) → (⟨S7, .i32⟩ : BufTy).Contents (Elt F) → (⟨S7, .i32⟩ : BufTy).Contents (Elt F)),
    StableHlo.nullary main_c_87 (constantI S_ 32 1#32),
    StableHlo.unary main_c_87 main_v667 (broadcastInDim S7 ![] bcast_S_S7 : (⟨S_, .i32⟩ : BufTy).Contents (Elt F) → (⟨S7, .i32⟩ : BufTy).Contents (Elt F)),
    StableHlo.binary main_v660 main_v667 main_v668 (addi : (⟨S7, .i32⟩ : BufTy).Contents (Elt F) → (⟨S7, .i32⟩ : BufTy).Contents (Elt F) → (⟨S7, .i32⟩ : BufTy).Contents (Elt F)),
    StableHlo.unary main_v668 main_v669 (negi : (⟨S7, .i32⟩ : BufTy).Contents (Elt F) → (⟨S7, .i32⟩ : BufTy).Contents (Elt F)),
    StableHlo.unary main_v658 main_v670 (broadcastInDim S7 ![] bcast_S_S7 : (⟨S_, .i32⟩ : BufTy).Contents (Elt F) → (⟨S7, .i32⟩ : BufTy).Contents (Elt F)),
    StableHlo.binary main_v669 main_v670 main_v671 (muli : (⟨S7, .i32⟩ : BufTy).Contents (Elt F) → (⟨S7, .i32⟩ : BufTy).Contents (Elt F) → (⟨S7, .i32⟩ : BufTy).Contents (Elt F)),
    StableHlo.nullary main_c_88 (constantI S_ 32 7#32) ]
/-- The buffers those operations write, in order. -/
abbrev ops26_W : List (Ref sig .tc) :=
  [main_cst_85, main_v635, main_v636, main_v637, main_v638, main_v639, main_v640, main_v641, main_v642, main_v643, main_v644, main_v645, main_v646, main_v647, main_v648, main_v649, main_v650, main_v651, main_v652, main_v653, main_v654, main_v655, main_v656, main_v657, main_v658, main_v659, main_v660, main_v661, main_v662, main_v663, main_c_86, main_call50_v0, main_call50_v1, main_call50_v2, main_call50_v3, main_call50_v4, main_call50_v5, main_call50_v6, main_call50_v7, main_call50_v8, main_call50_c, main_call50_v9, main_call50_v10, main_call50_v11, main_call50_c_0, main_call50_v12, main_call50_v13, main_v664, main_v665, main_v666, main_c_87, main_v667, main_v668, main_v669, main_v670, main_v671, main_c_88]
/-- Each operation writes its own result buffer and nothing else. -/
theorem ops26_writes : (ops26 : List (HloOp τ sig (Elt F))).Forall fun op => op.writes ⊆ (ops26_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1339 to 1386 of the host part, in order. -/
abbrev ops27 : List (HloOp τ sig (Elt F)) :=
  [ StableHlo.TRef.unary (.of main_c_88 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S7, .i32⟩) (broadcastInDim S7 ![] bcast_S_S7),
    StableHlo.TRef.binary (.of main_v671 : StableHlo.TRef sig ⟨S7, .i32⟩) (.of main_call51_v1 : StableHlo.TRef sig ⟨S7, .i32⟩) (.of main_call51_v2 : StableHlo.TRef sig ⟨S7, .i32⟩) Host.divsi,
    StableHlo.TRef.unary (.of main_v671 : StableHlo.TRef sig ⟨S7, .i32⟩) (.of main_call51_v3 : StableHlo.TRef sig ⟨S7, .i32⟩) signi,
    StableHlo.TRef.unary (.of main_call51_v0 : StableHlo.TRef sig ⟨S_, .i32⟩) (.of main_call51_v4 : StableHlo.TRef sig ⟨S_, .i32⟩) signi,
    StableHlo.TRef.unary (.of main_call51_v4 : StableHlo.TRef sig ⟨S_, .i32⟩) (.of main_call51_v5 : StableHlo.TRef sig ⟨S7, .i32⟩) (broadcastInDim S7 ![] bcast_S_S7),
    StableHlo.TRef.binary (.of main_call51_v3 : StableHlo.TRef sig ⟨S7, .i32⟩) (.of main_call51_v5 : StableHlo.TRef sig ⟨S7, .i32⟩) (.of main_call51_v6 : StableHlo.TRef sig ⟨S7, .i1⟩) (cmpi .ne),
    StableHlo.TRef.unary (.of main_call51_v0 : StableHlo.TRef sig ⟨S_, .i32⟩) (.of main_call51_v7 : StableHlo.TRef sig ⟨S7, .i32⟩) (broadcastInDim S7 ![] bcast_S_S7),
    StableHlo.TRef.binary (.of main_v671 : StableHlo.TRef sig ⟨S7, .i32⟩) (.of main_call51_v7 : StableHlo.TRef sig ⟨S7, .i32⟩) (.of main_call51_v8 : StableHlo.TRef sig ⟨S7, .i32⟩) Host.remsi,
    StableHlo.TRef.nullary (.of main_call51_c : StableHlo.TRef sig ⟨S_, .i32⟩) (constantI S_ 32 0#32),
    StableHlo.TRef.unary (.of main_call51_c : StableHlo.TRef sig ⟨S_, .i32⟩) (.of main_call51_v9 : StableHlo.TRef sig ⟨S7, .i32⟩) (broadcastInDim S7 ![] bcast_S_S7),
    StableHlo.TRef.binary (.of main_call51_v8 : StableHlo.TRef sig ⟨S7, .i32⟩) (.of main_call51_v9 : StableHlo.TRef sig ⟨S7, .i32⟩) (.of main_call51_v10 : StableHlo.TRef sig ⟨S7, .i1⟩) (cmpi .ne),
    StableHlo.TRef.binary (.of main_call51_v6 : StableHlo.TRef sig ⟨S7, .i1⟩) (.of main_call51_v10 : StableHlo.TRef sig ⟨S7, .i1⟩) (.of main_call51_v11 : StableHlo.TRef sig ⟨S7, .i1⟩) andi,
    StableHlo.TRef.nullary (.of main_call51_c_0 : StableHlo.TRef sig ⟨S_, .i32⟩) (constantI S_ 32 1#32),
    StableHlo.TRef.unary (.of main_call51_c_0 : StableHlo.TRef sig ⟨S_, .i32⟩) (.of main_call51_v12 : StableHlo.TRef sig ⟨S7, .i32⟩) (broadcastInDim S7 ![] bcast_S_S7),
    StableHlo.TRef.binary (.of main_call51_v2 : StableHlo.TRef sig ⟨S7, .i32⟩) (.of main_call51_v12 : StableHlo.TRef sig ⟨S7, .i32⟩) (.of main_call51_v13 : StableHlo.TRef sig ⟨S7, .i32⟩) subi,
    StableHlo.TRef.ternary (.of main_call51_v11 : StableHlo.TRef sig ⟨S7, .i1⟩) (.of main_call51_v13 : StableHlo.TRef sig ⟨S7, .i32⟩) (.of main_call51_v2 : StableHlo.TRef sig ⟨S7, .i32⟩) (.of main_v672 : StableHlo.TRef sig ⟨S7, .i32⟩) select,
    StableHlo.unary main_v642 main_v673 (broadcastInDim S7 ![] bcast_S_S7 : (⟨S_, .i32⟩ : BufTy).Contents (Elt F) → (⟨S7, .i32⟩ : BufTy).Contents (Elt F)),
    StableHlo.binary main_v673 main_v672 main_v674 (subi : (⟨S7, .i32⟩ : BufTy).Contents (Elt F) → (⟨S7, .i32⟩ : BufTy).Contents (Elt F) → (⟨S7, .i32⟩ : BufTy).Contents (Elt F)),
    StableHlo.unary main_v659 main_v675 (broadcastInDim S7 ![] bcast_S_S7 : (⟨S_, .i32⟩ : BufTy).Contents (Elt F) → (⟨S7, .i32⟩ : BufTy).Contents (Elt F)),
    StableHlo.binary main_v661 main_v675 main_v676 (muli : (⟨S7, .i32⟩ : BufTy).Contents (Elt F) → (⟨S7, .i32⟩ : BufTy).Contents (Elt F) → (⟨S7, .i32⟩ : BufTy).Contents (Elt F)),
    StableHlo.nullary main_c_89 (constantI S_ 32 7#32),
    StableHlo.TRef.unary (.of main_c_89 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S7, .i32⟩) (broadcastInDim S7 ![] bcast_S_S7),
    StableHlo.TRef.binary (.of main_v676 : StableHlo.TRef sig ⟨S7, .i32⟩) (.of main_call52_v1 : StableHlo.TRef sig ⟨S7, .i32⟩) (.of main_call52_v2 : StableHlo.TRef sig ⟨S7, .i32⟩) Host.divsi,
    StableHlo.TRef.unary (.of main_v676 : StableHlo.TRef sig ⟨S7, .i32⟩) (.of main_call52_v3 : StableHlo.TRef sig ⟨S7, .i32⟩) signi,
    StableHlo.TRef.unary (.of main_call52_v0 : StableHlo.TRef sig ⟨S_, .i32⟩) (.of main_call52_v4 : StableHlo.TRef sig ⟨S_, .i32⟩) signi,
    StableHlo.TRef.unary (.of main_call52_v4 : StableHlo.TRef sig ⟨S_, .i32⟩) (.of main_call52_v5 : StableHlo.TRef sig ⟨S7, .i32⟩) (broadcastInDim S7 ![] bcast_S_S7),
    StableHlo.TRef.binary (.of main_call52_v3 : StableHlo.TRef sig ⟨S7, .i32⟩) (.of main_call52_v5 : StableHlo.TRef sig ⟨S7, .i32⟩) (.of main_call52_v6 : StableHlo.TRef sig ⟨S7, .i1⟩) (cmpi .ne),
    StableHlo.TRef.unary (.of main_call52_v0 : StableHlo.TRef sig ⟨S_, .i32⟩) (.of main_call52_v7 : StableHlo.TRef sig ⟨S7, .i32⟩) (broadcastInDim S7 ![] bcast_S_S7),
    StableHlo.TRef.binary (.of main_v676 : StableHlo.TRef sig ⟨S7, .i32⟩) (.of main_call52_v7 : StableHlo.TRef sig ⟨S7, .i32⟩) (.of main_call52_v8 : StableHlo.TRef sig ⟨S7, .i32⟩) Host.remsi,
    StableHlo.TRef.nullary (.of main_call52_c : StableHlo.TRef sig ⟨S_, .i32⟩) (constantI S_ 32 0#32),
    StableHlo.TRef.unary (.of main_call52_c : StableHlo.TRef sig ⟨S_, .i32⟩) (.of main_call52_v9 : StableHlo.TRef sig ⟨S7, .i32⟩) (broadcastInDim S7 ![] bcast_S_S7),
    StableHlo.TRef.binary (.of main_call52_v8 : StableHlo.TRef sig ⟨S7, .i32⟩) (.of main_call52_v9 : StableHlo.TRef sig ⟨S7, .i32⟩) (.of main_call52_v10 : StableHlo.TRef sig ⟨S7, .i1⟩) (cmpi .ne),
    StableHlo.TRef.binary (.of main_call52_v6 : StableHlo.TRef sig ⟨S7, .i1⟩) (.of main_call52_v10 : StableHlo.TRef sig ⟨S7, .i1⟩) (.of main_call52_v11 : StableHlo.TRef sig ⟨S7, .i1⟩) andi,
    StableHlo.TRef.nullary (.of main_call52_c_0 : StableHlo.TRef sig ⟨S_, .i32⟩) (constantI S_ 32 1#32),
    StableHlo.TRef.unary (.of main_call52_c_0 : StableHlo.TRef sig ⟨S_, .i32⟩) (.of main_call52_v12 : StableHlo.TRef sig ⟨S7, .i32⟩) (broadcastInDim S7 ![] bcast_S_S7),
    StableHlo.TRef.binary (.of main_call52_v2 : StableHlo.TRef sig ⟨S7, .i32⟩) (.of main_call52_v12 : StableHlo.TRef sig ⟨S7, .i32⟩) (.of main_call52_v13 : StableHlo.TRef sig ⟨S7, .i32⟩) subi,
    StableHlo.TRef.ternary (.of main_call52_v11 : StableHlo.TRef sig ⟨S7, .i1⟩) (.of main_call52_v13 : StableHlo.TRef sig ⟨S7, .i32⟩) (.of main_call52_v2 : StableHlo.TRef sig ⟨S7, .i32⟩) (.of main_v677 : StableHlo.TRef sig ⟨S7, .i32⟩) select,
    StableHlo.unary main_v652 main_v678 (broadcastInDim S7 ![] bcast_S_S7 : (⟨S_, .i32⟩ : BufTy).Contents (Elt F) → (⟨S7, .i32⟩ : BufTy).Contents (Elt F)),
    StableHlo.binary main_v678 main_v677 main_v679 (addi : (⟨S7, .i32⟩ : BufTy).Contents (Elt F) → (⟨S7, .i32⟩ : BufTy).Contents (Elt F) → (⟨S7, .i32⟩ : BufTy).Contents (Elt F)),
    StableHlo.nullary main_c_90 (constantI S_ 32 1#32),
    StableHlo.unary main_c_90 main_v680 (broadcastInDim S7 ![] bcast_S_S7 : (⟨S_, .i32⟩ : BufTy).Contents (Elt F) → (⟨S7, .i32⟩ : BufTy).Contents (Elt F)),
    StableHlo.binary main_v661 main_v680 main_v681 (addi : (⟨S7, .i32⟩ : BufTy).Contents (Elt F) → (⟨S7, .i32⟩ : BufTy).Contents (Elt F) → (⟨S7, .i32⟩ : BufTy).Contents (Elt F)),
    StableHlo.unary main_v681 main_v682 (negi : (⟨S7, .i32⟩ : BufTy).Contents (Elt F) → (⟨S7, .i32⟩ : BufTy).Contents (Elt F)),
    StableHlo.unary main_v659 main_v683 (broadcastInDim S7 ![] bcast_S_S7 : (⟨S_, .i32⟩ : BufTy).Contents (Elt F) → (⟨S7, .i32⟩ : BufTy).Contents (Elt F)),
    StableHlo.binary main_v682 main_v683 main_v684 (muli : (⟨S7, .i32⟩ : BufTy).Contents (Elt F) → (⟨S7, .i32⟩ : BufTy).Contents (Elt F) → (⟨S7, .i32⟩ : BufTy).Contents (Elt F)),
    StableHlo.nullary main_c_91 (constantI S_ 32 7#32) ]
/-- The buffers those operations write, in order. -/
abbrev ops27_W : List (Ref sig .tc) :=
  [main_call51_v0, main_call51_v1, main_call51_v2, main_call51_v3, main_call51_v4, main_call51_v5, main_call51_v6, main_call51_v7, main_call51_v8, main_call51_c, main_call51_v9, main_call51_v10, main_call51_v11, main_call51_c_0, main_call51_v12, main_call51_v13, main_v672, main_v673, main_v674, main_v675, main_v676, main_c_89, main_call52_v0, main_call52_v1, main_call52_v2, main_call52_v3, main_call52_v4, main_call52_v5, main_call52_v6, main_call52_v7, main_call52_v8, main_call52_c, main_call52_v9, main_call52_v10, main_call52_v11, main_call52_c_0, main_call52_v12, main_call52_v13, main_v677, main_v678, main_v679, main_c_90, main_v680, main_v681, main_v682, main_v683, main_v684, main_c_91]
/-- Each operation writes its own result buffer and nothing else. -/
theorem ops27_writes : (ops27 : List (HloOp τ sig (Elt F))).Forall fun op => op.writes ⊆ (ops27_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1387 to 1445 of the host part, in order. -/
abbrev ops28 : List (HloOp τ sig (Elt F)) :=
  [ StableHlo.TRef.unary (.of main_c_91 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S7, .i32⟩) (broadcastInDim S7 ![] bcast_S_S7),
    StableHlo.TRef.binary (.of main_v684 : StableHlo.TRef sig ⟨S7, .i32⟩) (.of main_call53_v1 : StableHlo.TRef sig ⟨S7, .i32⟩) (.of main_call53_v2 : StableHlo.TRef sig ⟨S7, .i32⟩) Host.divsi,
    StableHlo.TRef.unary (.of main_v684 : StableHlo.TRef sig ⟨S7, .i32⟩) (.of main_call53_v3 : StableHlo.TRef sig ⟨S7, .i32⟩) signi,
    StableHlo.TRef.unary (.of main_call53_v0 : StableHlo.TRef sig ⟨S_, .i32⟩) (.of main_call53_v4 : StableHlo.TRef sig ⟨S_, .i32⟩) signi,
    StableHlo.TRef.unary (.of main_call53_v4 : StableHlo.TRef sig ⟨S_, .i32⟩) (.of main_call53_v5 : StableHlo.TRef sig ⟨S7, .i32⟩) (broadcastInDim S7 ![] bcast_S_S7),
    StableHlo.TRef.binary (.of main_call53_v3 : StableHlo.TRef sig ⟨S7, .i32⟩) (.of main_call53_v5 : StableHlo.TRef sig ⟨S7, .i32⟩) (.of main_call53_v6 : StableHlo.TRef sig ⟨S7, .i1⟩) (cmpi .ne),
    StableHlo.TRef.unary (.of main_call53_v0 : StableHlo.TRef sig ⟨S_, .i32⟩) (.of main_call53_v7 : StableHlo.TRef sig ⟨S7, .i32⟩) (broadcastInDim S7 ![] bcast_S_S7),
    StableHlo.TRef.binary (.of main_v684 : StableHlo.TRef sig ⟨S7, .i32⟩) (.of main_call53_v7 : StableHlo.TRef sig ⟨S7, .i32⟩) (.of main_call53_v8 : StableHlo.TRef sig ⟨S7, .i32⟩) Host.remsi,
    StableHlo.TRef.nullary (.of main_call53_c : StableHlo.TRef sig ⟨S_, .i32⟩) (constantI S_ 32 0#32),
    StableHlo.TRef.unary (.of main_call53_c : StableHlo.TRef sig ⟨S_, .i32⟩) (.of main_call53_v9 : StableHlo.TRef sig ⟨S7, .i32⟩) (broadcastInDim S7 ![] bcast_S_S7),
    StableHlo.TRef.binary (.of main_call53_v8 : StableHlo.TRef sig ⟨S7, .i32⟩) (.of main_call53_v9 : StableHlo.TRef sig ⟨S7, .i32⟩) (.of main_call53_v10 : StableHlo.TRef sig ⟨S7, .i1⟩) (cmpi .ne),
    StableHlo.TRef.binary (.of main_call53_v6 : StableHlo.TRef sig ⟨S7, .i1⟩) (.of main_call53_v10 : StableHlo.TRef sig ⟨S7, .i1⟩) (.of main_call53_v11 : StableHlo.TRef sig ⟨S7, .i1⟩) andi,
    StableHlo.TRef.nullary (.of main_call53_c_0 : StableHlo.TRef sig ⟨S_, .i32⟩) (constantI S_ 32 1#32),
    StableHlo.TRef.unary (.of main_call53_c_0 : StableHlo.TRef sig ⟨S_, .i32⟩) (.of main_call53_v12 : StableHlo.TRef sig ⟨S7, .i32⟩) (broadcastInDim S7 ![] bcast_S_S7),
    StableHlo.TRef.binary (.of main_call53_v2 : StableHlo.TRef sig ⟨S7, .i32⟩) (.of main_call53_v12 : StableHlo.TRef sig ⟨S7, .i32⟩) (.of main_call53_v13 : StableHlo.TRef sig ⟨S7, .i32⟩) subi,
    StableHlo.TRef.ternary (.of main_call53_v11 : StableHlo.TRef sig ⟨S7, .i1⟩) (.of main_call53_v13 : StableHlo.TRef sig ⟨S7, .i32⟩) (.of main_call53_v2 : StableHlo.TRef sig ⟨S7, .i32⟩) (.of main_v685 : StableHlo.TRef sig ⟨S7, .i32⟩) select,
    StableHlo.unary main_v652 main_v686 (broadcastInDim S7 ![] bcast_S_S7 : (⟨S_, .i32⟩ : BufTy).Contents (Elt F) → (⟨S7, .i32⟩ : BufTy).Contents (Elt F)),
    StableHlo.binary main_v686 main_v685 main_v687 (subi : (⟨S7, .i32⟩ : BufTy).Contents (Elt F) → (⟨S7, .i32⟩ : BufTy).Contents (Elt F) → (⟨S7, .i32⟩ : BufTy).Contents (Elt F)),
    StableHlo.nullary main_v688 (iotaInDim S64 32 0),
    StableHlo.nullary main_v689 (iotaInDim S64 32 0),
    StableHlo.unary main_v688 main_v690 (broadcastInDim S1x64 ![1] bcast_S64_S1x64_1 : (⟨S64, .i32⟩ : BufTy).Contents (Elt F) → (⟨S1x64, .i32⟩ : BufTy).Contents (Elt F)),
    StableHlo.unary main_v666 main_v691 (broadcastInDim S7x1 ![0] bcast_S7_S7x1_0 : (⟨S7, .i32⟩ : BufTy).Contents (Elt F) → (⟨S7x1, .i32⟩ : BufTy).Contents (Elt F)),
    StableHlo.unary main_v690 main_v692 (broadcastInDim S7x64 ![0, 1] bcast_S1x64_S7x64_0_1 : (⟨S1x64, .i32⟩ : BufTy).Contents (Elt F) → (⟨S7x64, .i32⟩ : BufTy).Contents (Elt F)),
    StableHlo.unary main_v691 main_v693 (broadcastInDim S7x64 ![0, 1] bcast_S7x1_S7x64_0_1 : (⟨S7x1, .i32⟩ : BufTy).Contents (Elt F) → (⟨S7x64, .i32⟩ : BufTy).Contents (Elt F)),
    StableHlo.binary main_v692 main_v693 main_v694 (cmpi .sge : (⟨S7x64, .i32⟩ : BufTy).Contents (Elt F) → (⟨S7x64, .i32⟩ : BufTy).Contents (Elt F) → (⟨S7x64, .i1⟩ : BufTy).Contents (Elt F)),
    StableHlo.unary main_v688 main_v695 (broadcastInDim S1x64 ![1] bcast_S64_S1x64_1 : (⟨S64, .i32⟩ : BufTy).Contents (Elt F) → (⟨S1x64, .i32⟩ : BufTy).Contents (Elt F)),
    StableHlo.unary main_v674 main_v696 (broadcastInDim S7x1 ![0] bcast_S7_S7x1_0 : (⟨S7, .i32⟩ : BufTy).Contents (Elt F) → (⟨S7x1, .i32⟩ : BufTy).Contents (Elt F)),
    StableHlo.unary main_v695 main_v697 (broadcastInDim S7x64 ![0, 1] bcast_S1x64_S7x64_0_1 : (⟨S1x64, .i32⟩ : BufTy).Contents (Elt F) → (⟨S7x64, .i32⟩ : BufTy).Contents (Elt F)),
    StableHlo.unary main_v696 main_v698 (broadcastInDim S7x64 ![0, 1] bcast_S7x1_S7x64_0_1 : (⟨S7x1, .i32⟩ : BufTy).Contents (Elt F) → (⟨S7x64, .i32⟩ : BufTy).Contents (Elt F)),
    StableHlo.binary main_v697 main_v698 main_v699 (cmpi .slt : (⟨S7x64, .i32⟩ : BufTy).Contents (Elt F) → (⟨S7x64, .i32⟩ : BufTy).Contents (Elt F) → (⟨S7x64, .i1⟩ : BufTy).Contents (Elt F)),
    StableHlo.binary main_v694 main_v699 main_v700 (andi : (⟨S7x64, .i1⟩ : BufTy).Contents (Elt F) → (⟨S7x64, .i1⟩ : BufTy).Contents (Elt F) → (⟨S7x64, .i1⟩ : BufTy).Contents (Elt F)),
    StableHlo.unary main_v689 main_v701 (broadcastInDim S1x64 ![1] bcast_S64_S1x64_1 : (⟨S64, .i32⟩ : BufTy).Contents (Elt F) → (⟨S1x64, .i32⟩ : BufTy).Contents (Elt F)),
    StableHlo.unary main_v679 main_v702 (broadcastInDim S7x1 ![0] bcast_S7_S7x1_0 : (⟨S7, .i32⟩ : BufTy).Contents (Elt F) → (⟨S7x1, .i32⟩ : BufTy).Contents (Elt F)),
    StableHlo.unary main_v701 main_v703 (broadcastInDim S7x64 ![0, 1] bcast_S1x64_S7x64_0_1 : (⟨S1x64, .i32⟩ : BufTy).Contents (Elt F) → (⟨S7x64, .i32⟩ : BufTy).Contents (Elt F)),
    StableHlo.unary main_v702 main_v704 (broadcastInDim S7x64 ![0, 1] bcast_S7x1_S7x64_0_1 : (⟨S7x1, .i32⟩ : BufTy).Contents (Elt F) → (⟨S7x64, .i32⟩ : BufTy).Contents (Elt F)),
    StableHlo.binary main_v703 main_v704 main_v705 (cmpi .sge : (⟨S7x64, .i32⟩ : BufTy).Contents (Elt F) → (⟨S7x64, .i32⟩ : BufTy).Contents (Elt F) → (⟨S7x64, .i1⟩ : BufTy).Contents (Elt F)),
    StableHlo.unary main_v689 main_v706 (broadcastInDim S1x64 ![1] bcast_S64_S1x64_1 : (⟨S64, .i32⟩ : BufTy).Contents (Elt F) → (⟨S1x64, .i32⟩ : BufTy).Contents (Elt F)),
    StableHlo.unary main_v687 main_v707 (broadcastInDim S7x1 ![0] bcast_S7_S7x1_0 : (⟨S7, .i32⟩ : BufTy).Contents (Elt F) → (⟨S7x1, .i32⟩ : BufTy).Contents (Elt F)),
    StableHlo.unary main_v706 main_v708 (broadcastInDim S7x64 ![0, 1] bcast_S1x64_S7x64_0_1 : (⟨S1x64, .i32⟩ : BufTy).Contents (Elt F) → (⟨S7x64, .i32⟩ : BufTy).Contents (Elt F)),
    StableHlo.unary main_v707 main_v709 (broadcastInDim S7x64 ![0, 1] bcast_S7x1_S7x64_0_1 : (⟨S7x1, .i32⟩ : BufTy).Contents (Elt F) → (⟨S7x64, .i32⟩ : BufTy).Contents (Elt F)),
    StableHlo.binary main_v708 main_v709 main_v710 (cmpi .slt : (⟨S7x64, .i32⟩ : BufTy).Contents (Elt F) → (⟨S7x64, .i32⟩ : BufTy).Contents (Elt F) → (⟨S7x64, .i1⟩ : BufTy).Contents (Elt F)),
    StableHlo.binary main_v705 main_v710 main_v711 (andi : (⟨S7x64, .i1⟩ : BufTy).Contents (Elt F) → (⟨S7x64, .i1⟩ : BufTy).Contents (Elt F) → (⟨S7x64, .i1⟩ : BufTy).Contents (Elt F)),
    StableHlo.unary main_v700 main_v712 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v713 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_92 (constant S_ .f32 0xFF800000#32),
    StableHlo.TRef.unary (.of main_v712 : StableHlo.TRef sig ⟨S7x1x64x1, .i1⟩) (.of main_call54_v0 : StableHlo.TRef sig ⟨S7x512x64x64, .i1⟩) (broadcastInDim S7x512x64x64 ![0, 1, 2, 3] bcast_S7x1x64x1_S7x512x64x64_0_1_2_3),
    StableHlo.TRef.unary (.of main_v713 : StableHlo.TRef sig ⟨S1x512x64x64, .f32⟩) (.of main_call54_v1 : StableHlo.TRef sig ⟨S7x512x64x64, .f32⟩) (broadcastInDim S7x512x64x64 ![0, 1, 2, 3] bcast_S1x512x64x64_S7x512x64x64_0_1_2_3),
    StableHlo.TRef.unary (.of main_cst_92 : StableHlo.TRef sig ⟨S_, .f32⟩) (.of main_call54_v2 : StableHlo.TRef sig ⟨S7x512x64x64, .f32⟩) (broadcastInDim S7x512x64x64 ![] bcast_S_S7x512x64x64),
    StableHlo.TRef.ternary (.of main_call54_v0 : StableHlo.TRef sig ⟨S7x512x64x64, .i1⟩) (.of main_call54_v1 : StableHlo.TRef sig ⟨S7x512x64x64, .f32⟩) (.of main_call54_v2 : StableHlo.TRef sig ⟨S7x512x64x64, .f32⟩) (.of main_v714 : StableHlo.TRef sig ⟨S7x512x64x64, .f32⟩) select,
    StableHlo.nullary main_cst_93 (constant S_ .f32 0xFF800000#32),
    StableHlo.binary main_v714 main_cst_93 main_v715 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v711 main_v716 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v715 main_v717 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_94 (constant S_ .f32 0xFF800000#32),
    StableHlo.TRef.unary (.of main_v716 : StableHlo.TRef sig ⟨S1x1x7x64, .i1⟩) (.of main_call55_v0 : StableHlo.TRef sig ⟨S7x512x7x64, .i1⟩) (broadcastInDim S7x512x7x64 ![0, 1, 2, 3] bcast_S1x1x7x64_S7x512x7x64_0_1_2_3),
    StableHlo.TRef.unary (.of main_v717 : StableHlo.TRef sig ⟨S7x512x1x64, .f32⟩) (.of main_call55_v1 : StableHlo.TRef sig ⟨S7x512x7x64, .f32⟩) (broadcastInDim S7x512x7x64 ![0, 1, 2, 3] bcast_S7x512x1x64_S7x512x7x64_0_1_2_3),
    StableHlo.TRef.unary (.of main_cst_94 : StableHlo.TRef sig ⟨S_, .f32⟩) (.of main_call55_v2 : StableHlo.TRef sig ⟨S7x512x7x64, .f32⟩) (broadcastInDim S7x512x7x64 ![] bcast_S_S7x512x7x64),
    StableHlo.TRef.ternary (.of main_call55_v0 : StableHlo.TRef sig ⟨S7x512x7x64, .i1⟩) (.of main_call55_v1 : StableHlo.TRef sig ⟨S7x512x7x64, .f32⟩) (.of main_call55_v2 : StableHlo.TRef sig ⟨S7x512x7x64, .f32⟩) (.of main_v718 : StableHlo.TRef sig ⟨S7x512x7x64, .f32⟩) select ]
/-- The buffers those operations write, in order. -/
abbrev ops28_W : List (Ref sig .tc) :=
  [main_call53_v0, main_call53_v1, main_call53_v2, main_call53_v3, main_call53_v4, main_call53_v5, main_call53_v6, main_call53_v7, main_call53_v8, main_call53_c, main_call53_v9, main_call53_v10, main_call53_v11, main_call53_c_0, main_call53_v12, main_call53_v13, main_v685, main_v686, main_v687, main_v688, main_v689, main_v690, main_v691, main_v692, main_v693, main_v694, main_v695, main_v696, main_v697, main_v698, main_v699, main_v700, main_v701, main_v702, main_v703, main_v704, main_v705, main_v706, main_v707, main_v708, main_v709, main_v710, main_v711, main_v712, main_v713, main_cst_92, main_call54_v0, main_call54_v1, main_call54_v2, main_v714, main_cst_93, main_v715, main_v716, main_v717, main_cst_94, main_call55_v0, main_call55_v1, main_call55_v2, main_v718]
/-- Each operation writes its own result buffer and nothing else. -/
theorem ops28_writes : (ops28 : List (HloOp τ sig (Elt F))).Forall fun op => op.writes ⊆ (ops28_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1446 to 1502 of the host part, in order. -/
abbrev ops29 : List (HloOp τ sig (Elt F)) :=
  [ StableHlo.nullary main_cst_95 (constant S_ .f32 0xFF800000#32),
    StableHlo.binary main_v718 main_cst_95 main_v719 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v719 main_v720 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v720 main_v721 rfl shapeCasts_S512x7x7_S25088,
    StableHlo.unary main_v18 main_v722 ((extractStridedSlice S1x1 ![1, 1] · slices_S3x4_S1x1_1_1) : (⟨S3x4, .i32⟩ : BufTy).Contents (Elt F) → (⟨S1x1, .i32⟩ : BufTy).Contents (Elt F)),
    StableHlo.reshape main_v722 main_v723 rfl shapeCasts_S1x1_S_,
    StableHlo.unary main_v23 main_v724 ((extractStridedSlice S1x1 ![1, 1] · slices_S4x4_S1x1_1_1) : (⟨S4x4, .i32⟩ : BufTy).Contents (Elt F) → (⟨S1x1, .i32⟩ : BufTy).Contents (Elt F)),
    StableHlo.reshape main_v724 main_v725 rfl shapeCasts_S1x1_S_,
    StableHlo.binary main_v723 main_v725 main_v726 (minsi : (⟨S_, .i32⟩ : BufTy).Contents (Elt F) → (⟨S_, .i32⟩ : BufTy).Contents (Elt F) → (⟨S_, .i32⟩ : BufTy).Contents (Elt F)),
    StableHlo.unary main_v18 main_v727 ((extractStridedSlice S1x1 ![1, 3] · slices_S3x4_S1x1_1_3) : (⟨S3x4, .i32⟩ : BufTy).Contents (Elt F) → (⟨S1x1, .i32⟩ : BufTy).Contents (Elt F)),
    StableHlo.reshape main_v727 main_v728 rfl shapeCasts_S1x1_S_,
    StableHlo.unary main_v23 main_v729 ((extractStridedSlice S1x1 ![1, 3] · slices_S4x4_S1x1_1_3) : (⟨S4x4, .i32⟩ : BufTy).Contents (Elt F) → (⟨S1x1, .i32⟩ : BufTy).Contents (Elt F)),
    StableHlo.reshape main_v729 main_v730 rfl shapeCasts_S1x1_S_,
    StableHlo.binary main_v728 main_v730 main_v731 (maxsi : (⟨S_, .i32⟩ : BufTy).Contents (Elt F) → (⟨S_, .i32⟩ : BufTy).Contents (Elt F) → (⟨S_, .i32⟩ : BufTy).Contents (Elt F)),
    StableHlo.unary main_v18 main_v732 ((extractStridedSlice S1x1 ![1, 0] · slices_S3x4_S1x1_1_0) : (⟨S3x4, .i32⟩ : BufTy).Contents (Elt F) → (⟨S1x1, .i32⟩ : BufTy).Contents (Elt F)),
    StableHlo.reshape main_v732 main_v733 rfl shapeCasts_S1x1_S_,
    StableHlo.unary main_v23 main_v734 ((extractStridedSlice S1x1 ![1, 0] · slices_S4x4_S1x1_1_0) : (⟨S4x4, .i32⟩ : BufTy).Contents (Elt F) → (⟨S1x1, .i32⟩ : BufTy).Contents (Elt F)),
    StableHlo.reshape main_v734 main_v735 rfl shapeCasts_S1x1_S_,
    StableHlo.binary main_v733 main_v735 main_v736 (minsi : (⟨S_, .i32⟩ : BufTy).Contents (Elt F) → (⟨S_, .i32⟩ : BufTy).Contents (Elt F) → (⟨S_, .i32⟩ : BufTy).Contents (Elt F)),
    StableHlo.unary main_v18 main_v737 ((extractStridedSlice S1x1 ![1, 2] · slices_S3x4_S1x1_1_2) : (⟨S3x4, .i32⟩ : BufTy).Contents (Elt F) → (⟨S1x1, .i32⟩ : BufTy).Contents (Elt F)),
    StableHlo.reshape main_v737 main_v738 rfl shapeCasts_S1x1_S_,
    StableHlo.unary main_v23 main_v739 ((extractStridedSlice S1x1 ![1, 2] · slices_S4x4_S1x1_1_2) : (⟨S4x4, .i32⟩ : BufTy).Contents (Elt F) → (⟨S1x1, .i32⟩ : BufTy).Contents (Elt F)),
    StableHlo.reshape main_v739 main_v740 rfl shapeCasts_S1x1_S_,
    StableHlo.binary main_v738 main_v740 main_v741 (maxsi : (⟨S_, .i32⟩ : BufTy).Contents (Elt F) → (⟨S_, .i32⟩ : BufTy).Contents (Elt F) → (⟨S_, .i32⟩ : BufTy).Contents (Elt F)),
    StableHlo.binary main_v731 main_v726 main_v742 (subi : (⟨S_, .i32⟩ : BufTy).Contents (Elt F) → (⟨S_, .i32⟩ : BufTy).Contents (Elt F) → (⟨S_, .i32⟩ : BufTy).Contents (Elt F)),
    StableHlo.binary main_v741 main_v736 main_v743 (subi : (⟨S_, .i32⟩ : BufTy).Contents (Elt F) → (⟨S_, .i32⟩ : BufTy).Contents (Elt F) → (⟨S_, .i32⟩ : BufTy).Contents (Elt F)),
    StableHlo.nullary main_v744 (iotaInDim S7 32 0),
    StableHlo.nullary main_v745 (iotaInDim S7 32 0),
    StableHlo.unary main_v742 main_v746 (broadcastInDim S7 ![] bcast_S_S7 : (⟨S_, .i32⟩ : BufTy).Contents (Elt F) → (⟨S7, .i32⟩ : BufTy).Contents (Elt F)),
    StableHlo.binary main_v744 main_v746 main_v747 (muli : (⟨S7, .i32⟩ : BufTy).Contents (Elt F) → (⟨S7, .i32⟩ : BufTy).Contents (Elt F) → (⟨S7, .i32⟩ : BufTy).Contents (Elt F)),
    StableHlo.nullary main_c_96 (constantI S_ 32 7#32),
    StableHlo.TRef.unary (.of main_c_96 : StableHlo.TRef sig ⟨S_, .i32⟩) (.of main_call56_v0 : StableHlo.TRef sig ⟨S_, .i32⟩) id,
    StableHlo.TRef.unary (.of main_call56_v0 : StableHlo.TRef sig ⟨S_, .i32⟩) (.of main_call56_v1 : StableHlo.TRef sig ⟨S7, .i32⟩) (broadcastInDim S7 ![] bcast_S_S7),
    StableHlo.TRef.binary (.of main_v747 : StableHlo.TRef sig ⟨S7, .i32⟩) (.of main_call56_v1 : StableHlo.TRef sig ⟨S7, .i32⟩) (.of main_call56_v2 : StableHlo.TRef sig ⟨S7, .i32⟩) Host.divsi,
    StableHlo.TRef.unary (.of main_v747 : StableHlo.TRef sig ⟨S7, .i32⟩) (.of main_call56_v3 : StableHlo.TRef sig ⟨S7, .i32⟩) signi,
    StableHlo.TRef.unary (.of main_call56_v0 : StableHlo.TRef sig ⟨S_, .i32⟩) (.of main_call56_v4 : StableHlo.TRef sig ⟨S_, .i32⟩) signi,
    StableHlo.TRef.unary (.of main_call56_v4 : StableHlo.TRef sig ⟨S_, .i32⟩) (.of main_call56_v5 : StableHlo.TRef sig ⟨S7, .i32⟩) (broadcastInDim S7 ![] bcast_S_S7),
    StableHlo.TRef.binary (.of main_call56_v3 : StableHlo.TRef sig ⟨S7, .i32⟩) (.of main_call56_v5 : StableHlo.TRef sig ⟨S7, .i32⟩) (.of main_call56_v6 : StableHlo.TRef sig ⟨S7, .i1⟩) (cmpi .ne),
    StableHlo.TRef.unary (.of main_call56_v0 : StableHlo.TRef sig ⟨S_, .i32⟩) (.of main_call56_v7 : StableHlo.TRef sig ⟨S7, .i32⟩) (broadcastInDim S7 ![] bcast_S_S7),
    StableHlo.TRef.binary (.of main_v747 : StableHlo.TRef sig ⟨S7, .i32⟩) (.of main_call56_v7 : StableHlo.TRef sig ⟨S7, .i32⟩) (.of main_call56_v8 : StableHlo.TRef sig ⟨S7, .i32⟩) Host.remsi,
    StableHlo.TRef.nullary (.of main_call56_c : StableHlo.TRef sig ⟨S_, .i32⟩) (constantI S_ 32 0#32),
    StableHlo.TRef.unary (.of main_call56_c : StableHlo.TRef sig ⟨S_, .i32⟩) (.of main_call56_v9 : StableHlo.TRef sig ⟨S7, .i32⟩) (broadcastInDim S7 ![] bcast_S_S7),
    StableHlo.TRef.binary (.of main_call56_v8 : StableHlo.TRef sig ⟨S7, .i32⟩) (.of main_call56_v9 : StableHlo.TRef sig ⟨S7, .i32⟩) (.of main_call56_v10 : StableHlo.TRef sig ⟨S7, .i1⟩) (cmpi .ne),
    StableHlo.TRef.binary (.of main_call56_v6 : StableHlo.TRef sig ⟨S7, .i1⟩) (.of main_call56_v10 : StableHlo.TRef sig ⟨S7, .i1⟩) (.of main_call56_v11 : StableHlo.TRef sig ⟨S7, .i1⟩) andi,
    StableHlo.TRef.nullary (.of main_call56_c_0 : StableHlo.TRef sig ⟨S_, .i32⟩) (constantI S_ 32 1#32),
    StableHlo.TRef.unary (.of main_call56_c_0 : StableHlo.TRef sig ⟨S_, .i32⟩) (.of main_call56_v12 : StableHlo.TRef sig ⟨S7, .i32⟩) (broadcastInDim S7 ![] bcast_S_S7),
    StableHlo.TRef.binary (.of main_call56_v2 : StableHlo.TRef sig ⟨S7, .i32⟩) (.of main_call56_v12 : StableHlo.TRef sig ⟨S7, .i32⟩) (.of main_call56_v13 : StableHlo.TRef sig ⟨S7, .i32⟩) subi,
    StableHlo.TRef.ternary (.of main_call56_v11 : StableHlo.TRef sig ⟨S7, .i1⟩) (.of main_call56_v13 : StableHlo.TRef sig ⟨S7, .i32⟩) (.of main_call56_v2 : StableHlo.TRef sig ⟨S7, .i32⟩) (.of main_v748 : StableHlo.TRef sig ⟨S7, .i32⟩) select,
    StableHlo.unary main_v726 main_v749 (broadcastInDim S7 ![] bcast_S_S7 : (⟨S_, .i32⟩ : BufTy).Contents (Elt F) → (⟨S7, .i32⟩ : BufTy).Contents (Elt F)),
    StableHlo.binary main_v749 main_v748 main_v750 (addi : (⟨S7, .i32⟩ : BufTy).Contents (Elt F) → (⟨S7, .i32⟩ : BufTy).Contents (Elt F) → (⟨S7, .i32⟩ : BufTy).Contents (Elt F)),
    StableHlo.nullary main_c_97 (constantI S_ 32 1#32),
    StableHlo.unary main_c_97 main_v751 (broadcastInDim S7 ![] bcast_S_S7 : (⟨S_, .i32⟩ : BufTy).Contents (Elt F) → (⟨S7, .i32⟩ : BufTy).Contents (Elt F)),
    StableHlo.binary main_v744 main_v751 main_v752 (addi : (⟨S7, .i32⟩ : BufTy).Contents (Elt F) → (⟨S7, .i32⟩ : BufTy).Contents (Elt F) → (⟨S7, .i32⟩ : BufTy).Contents (Elt F)),
    StableHlo.unary main_v752 main_v753 (negi : (⟨S7, .i32⟩ : BufTy).Contents (Elt F) → (⟨S7, .i32⟩ : BufTy).Contents (Elt F)),
    StableHlo.unary main_v742 main_v754 (broadcastInDim S7 ![] bcast_S_S7 : (⟨S_, .i32⟩ : BufTy).Contents (Elt F) → (⟨S7, .i32⟩ : BufTy).Contents (Elt F)),
    StableHlo.binary main_v753 main_v754 main_v755 (muli : (⟨S7, .i32⟩ : BufTy).Contents (Elt F) → (⟨S7, .i32⟩ : BufTy).Contents (Elt F) → (⟨S7, .i32⟩ : BufTy).Contents (Elt F)),
    StableHlo.nullary main_c_98 (constantI S_ 32 7#32) ]
/-- The buffers those operations write, in order. -/
abbrev ops29_W : List (Ref sig .tc) :=
  [main_cst_95, main_v719, main_v720, main_v721, main_v722, main_v723, main_v724, main_v725, main_v726, main_v727, main_v728, main_v729, main_v730, main_v731, main_v732, main_v733, main_v734, main_v735, main_v736, main_v737, main_v738, main_v739, main_v740, main_v741, main_v742, main_v743, main_v744, main_v745, main_v746, main_v747, main_c_96, main_call56_v0, main_call56_v1, main_call56_v2, main_call56_v3, main_call56_v4, main_call56_v5, main_call56_v6, main_call56_v7, main_call56_v8, main_call56_c, main_call56_v9, main_call56_v10, main_call56_v11, main_call56_c_0, main_call56_v12, main_call56_v13, main_v748, main_v749, main_v750, main_c_97, main_v751, main_v752, main_v753, main_v754, main_v755, main_c_98]
/-- Each operation writes its own result buffer and nothing else. -/
theorem ops29_writes : (ops29 : List (HloOp τ sig (Elt F))).Forall fun op => op.writes ⊆ (ops29_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1503 to 1550 of the host part, in order. -/
abbrev ops30 : List (HloOp τ sig (Elt F)) :=
  [ StableHlo.TRef.unary (.of main_c_98 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S7, .i32⟩) (broadcastInDim S7 ![] bcast_S_S7),
    StableHlo.TRef.binary (.of main_v755 : StableHlo.TRef sig ⟨S7, .i32⟩) (.of main_call57_v1 : StableHlo.TRef sig ⟨S7, .i32⟩) (.of main_call57_v2 : StableHlo.TRef sig ⟨S7, .i32⟩) Host.divsi,
    StableHlo.TRef.unary (.of main_v755 : StableHlo.TRef sig ⟨S7, .i32⟩) (.of main_call57_v3 : StableHlo.TRef sig ⟨S7, .i32⟩) signi,
    StableHlo.TRef.unary (.of main_call57_v0 : StableHlo.TRef sig ⟨S_, .i32⟩) (.of main_call57_v4 : StableHlo.TRef sig ⟨S_, .i32⟩) signi,
    StableHlo.TRef.unary (.of main_call57_v4 : StableHlo.TRef sig ⟨S_, .i32⟩) (.of main_call57_v5 : StableHlo.TRef sig ⟨S7, .i32⟩) (broadcastInDim S7 ![] bcast_S_S7),
    StableHlo.TRef.binary (.of main_call57_v3 : StableHlo.TRef sig ⟨S7, .i32⟩) (.of main_call57_v5 : StableHlo.TRef sig ⟨S7, .i32⟩) (.of main_call57_v6 : StableHlo.TRef sig ⟨S7, .i1⟩) (cmpi .ne),
    StableHlo.TRef.unary (.of main_call57_v0 : StableHlo.TRef sig ⟨S_, .i32⟩) (.of main_call57_v7 : StableHlo.TRef sig ⟨S7, .i32⟩) (broadcastInDim S7 ![] bcast_S_S7),
    StableHlo.TRef.binary (.of main_v755 : StableHlo.TRef sig ⟨S7, .i32⟩) (.of main_call57_v7 : StableHlo.TRef sig ⟨S7, .i32⟩) (.of main_call57_v8 : StableHlo.TRef sig ⟨S7, .i32⟩) Host.remsi,
    StableHlo.TRef.nullary (.of main_call57_c : StableHlo.TRef sig ⟨S_, .i32⟩) (constantI S_ 32 0#32),
    StableHlo.TRef.unary (.of main_call57_c : StableHlo.TRef sig ⟨S_, .i32⟩) (.of main_call57_v9 : StableHlo.TRef sig ⟨S7, .i32⟩) (broadcastInDim S7 ![] bcast_S_S7),
    StableHlo.TRef.binary (.of main_call57_v8 : StableHlo.TRef sig ⟨S7, .i32⟩) (.of main_call57_v9 : StableHlo.TRef sig ⟨S7, .i32⟩) (.of main_call57_v10 : StableHlo.TRef sig ⟨S7, .i1⟩) (cmpi .ne),
    StableHlo.TRef.binary (.of main_call57_v6 : StableHlo.TRef sig ⟨S7, .i1⟩) (.of main_call57_v10 : StableHlo.TRef sig ⟨S7, .i1⟩) (.of main_call57_v11 : StableHlo.TRef sig ⟨S7, .i1⟩) andi,
    StableHlo.TRef.nullary (.of main_call57_c_0 : StableHlo.TRef sig ⟨S_, .i32⟩) (constantI S_ 32 1#32),
    StableHlo.TRef.unary (.of main_call57_c_0 : StableHlo.TRef sig ⟨S_, .i32⟩) (.of main_call57_v12 : StableHlo.TRef sig ⟨S7, .i32⟩) (broadcastInDim S7 ![] bcast_S_S7),
    StableHlo.TRef.binary (.of main_call57_v2 : StableHlo.TRef sig ⟨S7, .i32⟩) (.of main_call57_v12 : StableHlo.TRef sig ⟨S7, .i32⟩) (.of main_call57_v13 : StableHlo.TRef sig ⟨S7, .i32⟩) subi,
    StableHlo.TRef.ternary (.of main_call57_v11 : StableHlo.TRef sig ⟨S7, .i1⟩) (.of main_call57_v13 : StableHlo.TRef sig ⟨S7, .i32⟩) (.of main_call57_v2 : StableHlo.TRef sig ⟨S7, .i32⟩) (.of main_v756 : StableHlo.TRef sig ⟨S7, .i32⟩) select,
    StableHlo.unary main_v726 main_v757 (broadcastInDim S7 ![] bcast_S_S7 : (⟨S_, .i32⟩ : BufTy).Contents (Elt F) → (⟨S7, .i32⟩ : BufTy).Contents (Elt F)),
    StableHlo.binary main_v757 main_v756 main_v758 (subi : (⟨S7, .i32⟩ : BufTy).Contents (Elt F) → (⟨S7, .i32⟩ : BufTy).Contents (Elt F) → (⟨S7, .i32⟩ : BufTy).Contents (Elt F)),
    StableHlo.unary main_v743 main_v759 (broadcastInDim S7 ![] bcast_S_S7 : (⟨S_, .i32⟩ : BufTy).Contents (Elt F) → (⟨S7, .i32⟩ : BufTy).Contents (Elt F)),
    StableHlo.binary main_v745 main_v759 main_v760 (muli : (⟨S7, .i32⟩ : BufTy).Contents (Elt F) → (⟨S7, .i32⟩ : BufTy).Contents (Elt F) → (⟨S7, .i32⟩ : BufTy).Contents (Elt F)),
    StableHlo.nullary main_c_99 (constantI S_ 32 7#32),
    StableHlo.TRef.unary (.of main_c_99 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S7, .i32⟩) (broadcastInDim S7 ![] bcast_S_S7),
    StableHlo.TRef.binary (.of main_v760 : StableHlo.TRef sig ⟨S7, .i32⟩) (.of main_call58_v1 : StableHlo.TRef sig ⟨S7, .i32⟩) (.of main_call58_v2 : StableHlo.TRef sig ⟨S7, .i32⟩) Host.divsi,
    StableHlo.TRef.unary (.of main_v760 : StableHlo.TRef sig ⟨S7, .i32⟩) (.of main_call58_v3 : StableHlo.TRef sig ⟨S7, .i32⟩) signi,
    StableHlo.TRef.unary (.of main_call58_v0 : StableHlo.TRef sig ⟨S_, .i32⟩) (.of main_call58_v4 : StableHlo.TRef sig ⟨S_, .i32⟩) signi,
    StableHlo.TRef.unary (.of main_call58_v4 : StableHlo.TRef sig ⟨S_, .i32⟩) (.of main_call58_v5 : StableHlo.TRef sig ⟨S7, .i32⟩) (broadcastInDim S7 ![] bcast_S_S7),
    StableHlo.TRef.binary (.of main_call58_v3 : StableHlo.TRef sig ⟨S7, .i32⟩) (.of main_call58_v5 : StableHlo.TRef sig ⟨S7, .i32⟩) (.of main_call58_v6 : StableHlo.TRef sig ⟨S7, .i1⟩) (cmpi .ne),
    StableHlo.TRef.unary (.of main_call58_v0 : StableHlo.TRef sig ⟨S_, .i32⟩) (.of main_call58_v7 : StableHlo.TRef sig ⟨S7, .i32⟩) (broadcastInDim S7 ![] bcast_S_S7),
    StableHlo.TRef.binary (.of main_v760 : StableHlo.TRef sig ⟨S7, .i32⟩) (.of main_call58_v7 : StableHlo.TRef sig ⟨S7, .i32⟩) (.of main_call58_v8 : StableHlo.TRef sig ⟨S7, .i32⟩) Host.remsi,
    StableHlo.TRef.nullary (.of main_call58_c : StableHlo.TRef sig ⟨S_, .i32⟩) (constantI S_ 32 0#32),
    StableHlo.TRef.unary (.of main_call58_c : StableHlo.TRef sig ⟨S_, .i32⟩) (.of main_call58_v9 : StableHlo.TRef sig ⟨S7, .i32⟩) (broadcastInDim S7 ![] bcast_S_S7),
    StableHlo.TRef.binary (.of main_call58_v8 : StableHlo.TRef sig ⟨S7, .i32⟩) (.of main_call58_v9 : StableHlo.TRef sig ⟨S7, .i32⟩) (.of main_call58_v10 : StableHlo.TRef sig ⟨S7, .i1⟩) (cmpi .ne),
    StableHlo.TRef.binary (.of main_call58_v6 : StableHlo.TRef sig ⟨S7, .i1⟩) (.of main_call58_v10 : StableHlo.TRef sig ⟨S7, .i1⟩) (.of main_call58_v11 : StableHlo.TRef sig ⟨S7, .i1⟩) andi,
    StableHlo.TRef.nullary (.of main_call58_c_0 : StableHlo.TRef sig ⟨S_, .i32⟩) (constantI S_ 32 1#32),
    StableHlo.TRef.unary (.of main_call58_c_0 : StableHlo.TRef sig ⟨S_, .i32⟩) (.of main_call58_v12 : StableHlo.TRef sig ⟨S7, .i32⟩) (broadcastInDim S7 ![] bcast_S_S7),
    StableHlo.TRef.binary (.of main_call58_v2 : StableHlo.TRef sig ⟨S7, .i32⟩) (.of main_call58_v12 : StableHlo.TRef sig ⟨S7, .i32⟩) (.of main_call58_v13 : StableHlo.TRef sig ⟨S7, .i32⟩) subi,
    StableHlo.TRef.ternary (.of main_call58_v11 : StableHlo.TRef sig ⟨S7, .i1⟩) (.of main_call58_v13 : StableHlo.TRef sig ⟨S7, .i32⟩) (.of main_call58_v2 : StableHlo.TRef sig ⟨S7, .i32⟩) (.of main_v761 : StableHlo.TRef sig ⟨S7, .i32⟩) select,
    StableHlo.unary main_v736 main_v762 (broadcastInDim S7 ![] bcast_S_S7 : (⟨S_, .i32⟩ : BufTy).Contents (Elt F) → (⟨S7, .i32⟩ : BufTy).Contents (Elt F)),
    StableHlo.binary main_v762 main_v761 main_v763 (addi : (⟨S7, .i32⟩ : BufTy).Contents (Elt F) → (⟨S7, .i32⟩ : BufTy).Contents (Elt F) → (⟨S7, .i32⟩ : BufTy).Contents (Elt F)),
    StableHlo.nullary main_c_100 (constantI S_ 32 1#32),
    StableHlo.unary main_c_100 main_v764 (broadcastInDim S7 ![] bcast_S_S7 : (⟨S_, .i32⟩ : BufTy).Contents (Elt F) → (⟨S7, .i32⟩ : BufTy).Contents (Elt F)),
    StableHlo.binary main_v745 main_v764 main_v765 (addi : (⟨S7, .i32⟩ : BufTy).Contents (Elt F) → (⟨S7, .i32⟩ : BufTy).Contents (Elt F) → (⟨S7, .i32⟩ : BufTy).Contents (Elt F)),
    StableHlo.unary main_v765 main_v766 (negi : (⟨S7, .i32⟩ : BufTy).Contents (Elt F) → (⟨S7, .i32⟩ : BufTy).Contents (Elt F)),
    StableHlo.unary main_v743 main_v767 (broadcastInDim S7 ![] bcast_S_S7 : (⟨S_, .i32⟩ : BufTy).Contents (Elt F) → (⟨S7, .i32⟩ : BufTy).Contents (Elt F)),
    StableHlo.binary main_v766 main_v767 main_v768 (muli : (⟨S7, .i32⟩ : BufTy).Contents (Elt F) → (⟨S7, .i32⟩ : BufTy).Contents (Elt F) → (⟨S7, .i32⟩ : BufTy).Contents (Elt F)),
    StableHlo.nullary main_c_101 (constantI S_ 32 7#32) ]
/-- The buffers those operations write, in order. -/
abbrev ops30_W : List (Ref sig .tc) :=
  [main_call57_v0, main_call57_v1, main_call57_v2, main_call57_v3, main_call57_v4, main_call57_v5, main_call57_v6, main_call57_v7, main_call57_v8, main_call57_c, main_call57_v9, main_call57_v10, main_call57_v11, main_call57_c_0, main_call57_v12, main_call57_v13, main_v756, main_v757, main_v758, main_v759, main_v760, main_c_99, main_call58_v0, main_call58_v1, main_call58_v2, main_call58_v3, main_call58_v4, main_call58_v5, main_call58_v6, main_call58_v7, main_call58_v8, main_call58_c, main_call58_v9, main_call58_v10, main_call58_v11, main_call58_c_0, main_call58_v12, main_call58_v13, main_v761, main_v762, main_v763, main_c_100, main_v764, main_v765, main_v766, main_v767, main_v768, main_c_101]
/-- Each operation writes its own result buffer and nothing else. -/
theorem ops30_writes : (ops30 : List (HloOp τ sig (Elt F))).Forall fun op => op.writes ⊆ (ops30_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1551 to 1609 of the host part, in order. -/
abbrev ops31 : List (HloOp τ sig (Elt F)) :=
  [ StableHlo.TRef.unary (.of main_c_101 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S7, .i32⟩) (broadcastInDim S7 ![] bcast_S_S7),
    StableHlo.TRef.binary (.of main_v768 : StableHlo.TRef sig ⟨S7, .i32⟩) (.of main_call59_v1 : StableHlo.TRef sig ⟨S7, .i32⟩) (.of main_call59_v2 : StableHlo.TRef sig ⟨S7, .i32⟩) Host.divsi,
    StableHlo.TRef.unary (.of main_v768 : StableHlo.TRef sig ⟨S7, .i32⟩) (.of main_call59_v3 : StableHlo.TRef sig ⟨S7, .i32⟩) signi,
    StableHlo.TRef.unary (.of main_call59_v0 : StableHlo.TRef sig ⟨S_, .i32⟩) (.of main_call59_v4 : StableHlo.TRef sig ⟨S_, .i32⟩) signi,
    StableHlo.TRef.unary (.of main_call59_v4 : StableHlo.TRef sig ⟨S_, .i32⟩) (.of main_call59_v5 : StableHlo.TRef sig ⟨S7, .i32⟩) (broadcastInDim S7 ![] bcast_S_S7),
    StableHlo.TRef.binary (.of main_call59_v3 : StableHlo.TRef sig ⟨S7, .i32⟩) (.of main_call59_v5 : StableHlo.TRef sig ⟨S7, .i32⟩) (.of main_call59_v6 : StableHlo.TRef sig ⟨S7, .i1⟩) (cmpi .ne),
    StableHlo.TRef.unary (.of main_call59_v0 : StableHlo.TRef sig ⟨S_, .i32⟩) (.of main_call59_v7 : StableHlo.TRef sig ⟨S7, .i32⟩) (broadcastInDim S7 ![] bcast_S_S7),
    StableHlo.TRef.binary (.of main_v768 : StableHlo.TRef sig ⟨S7, .i32⟩) (.of main_call59_v7 : StableHlo.TRef sig ⟨S7, .i32⟩) (.of main_call59_v8 : StableHlo.TRef sig ⟨S7, .i32⟩) Host.remsi,
    StableHlo.TRef.nullary (.of main_call59_c : StableHlo.TRef sig ⟨S_, .i32⟩) (constantI S_ 32 0#32),
    StableHlo.TRef.unary (.of main_call59_c : StableHlo.TRef sig ⟨S_, .i32⟩) (.of main_call59_v9 : StableHlo.TRef sig ⟨S7, .i32⟩) (broadcastInDim S7 ![] bcast_S_S7),
    StableHlo.TRef.binary (.of main_call59_v8 : StableHlo.TRef sig ⟨S7, .i32⟩) (.of main_call59_v9 : StableHlo.TRef sig ⟨S7, .i32⟩) (.of main_call59_v10 : StableHlo.TRef sig ⟨S7, .i1⟩) (cmpi .ne),
    StableHlo.TRef.binary (.of main_call59_v6 : StableHlo.TRef sig ⟨S7, .i1⟩) (.of main_call59_v10 : StableHlo.TRef sig ⟨S7, .i1⟩) (.of main_call59_v11 : StableHlo.TRef sig ⟨S7, .i1⟩) andi,
    StableHlo.TRef.nullary (.of main_call59_c_0 : StableHlo.TRef sig ⟨S_, .i32⟩) (constantI S_ 32 1#32),
    StableHlo.TRef.unary (.of main_call59_c_0 : StableHlo.TRef sig ⟨S_, .i32⟩) (.of main_call59_v12 : StableHlo.TRef sig ⟨S7, .i32⟩) (broadcastInDim S7 ![] bcast_S_S7),
    StableHlo.TRef.binary (.of main_call59_v2 : StableHlo.TRef sig ⟨S7, .i32⟩) (.of main_call59_v12 : StableHlo.TRef sig ⟨S7, .i32⟩) (.of main_call59_v13 : StableHlo.TRef sig ⟨S7, .i32⟩) subi,
    StableHlo.TRef.ternary (.of main_call59_v11 : StableHlo.TRef sig ⟨S7, .i1⟩) (.of main_call59_v13 : StableHlo.TRef sig ⟨S7, .i32⟩) (.of main_call59_v2 : StableHlo.TRef sig ⟨S7, .i32⟩) (.of main_v769 : StableHlo.TRef sig ⟨S7, .i32⟩) select,
    StableHlo.unary main_v736 main_v770 (broadcastInDim S7 ![] bcast_S_S7 : (⟨S_, .i32⟩ : BufTy).Contents (Elt F) → (⟨S7, .i32⟩ : BufTy).Contents (Elt F)),
    StableHlo.binary main_v770 main_v769 main_v771 (subi : (⟨S7, .i32⟩ : BufTy).Contents (Elt F) → (⟨S7, .i32⟩ : BufTy).Contents (Elt F) → (⟨S7, .i32⟩ : BufTy).Contents (Elt F)),
    StableHlo.nullary main_v772 (iotaInDim S64 32 0),
    StableHlo.nullary main_v773 (iotaInDim S64 32 0),
    StableHlo.unary main_v772 main_v774 (broadcastInDim S1x64 ![1] bcast_S64_S1x64_1 : (⟨S64, .i32⟩ : BufTy).Contents (Elt F) → (⟨S1x64, .i32⟩ : BufTy).Contents (Elt F)),
    StableHlo.unary main_v750 main_v775 (broadcastInDim S7x1 ![0] bcast_S7_S7x1_0 : (⟨S7, .i32⟩ : BufTy).Contents (Elt F) → (⟨S7x1, .i32⟩ : BufTy).Contents (Elt F)),
    StableHlo.unary main_v774 main_v776 (broadcastInDim S7x64 ![0, 1] bcast_S1x64_S7x64_0_1 : (⟨S1x64, .i32⟩ : BufTy).Contents (Elt F) → (⟨S7x64, .i32⟩ : BufTy).Contents (Elt F)),
    StableHlo.unary main_v775 main_v777 (broadcastInDim S7x64 ![0, 1] bcast_S7x1_S7x64_0_1 : (⟨S7x1, .i32⟩ : BufTy).Contents (Elt F) → (⟨S7x64, .i32⟩ : BufTy).Contents (Elt F)),
    StableHlo.binary main_v776 main_v777 main_v778 (cmpi .sge : (⟨S7x64, .i32⟩ : BufTy).Contents (Elt F) → (⟨S7x64, .i32⟩ : BufTy).Contents (Elt F) → (⟨S7x64, .i1⟩ : BufTy).Contents (Elt F)),
    StableHlo.unary main_v772 main_v779 (broadcastInDim S1x64 ![1] bcast_S64_S1x64_1 : (⟨S64, .i32⟩ : BufTy).Contents (Elt F) → (⟨S1x64, .i32⟩ : BufTy).Contents (Elt F)),
    StableHlo.unary main_v758 main_v780 (broadcastInDim S7x1 ![0] bcast_S7_S7x1_0 : (⟨S7, .i32⟩ : BufTy).Contents (Elt F) → (⟨S7x1, .i32⟩ : BufTy).Contents (Elt F)),
    StableHlo.unary main_v779 main_v781 (broadcastInDim S7x64 ![0, 1] bcast_S1x64_S7x64_0_1 : (⟨S1x64, .i32⟩ : BufTy).Contents (Elt F) → (⟨S7x64, .i32⟩ : BufTy).Contents (Elt F)),
    StableHlo.unary main_v780 main_v782 (broadcastInDim S7x64 ![0, 1] bcast_S7x1_S7x64_0_1 : (⟨S7x1, .i32⟩ : BufTy).Contents (Elt F) → (⟨S7x64, .i32⟩ : BufTy).Contents (Elt F)),
    StableHlo.binary main_v781 main_v782 main_v783 (cmpi .slt : (⟨S7x64, .i32⟩ : BufTy).Contents (Elt F) → (⟨S7x64, .i32⟩ : BufTy).Contents (Elt F) → (⟨S7x64, .i1⟩ : BufTy).Contents (Elt F)),
    StableHlo.binary main_v778 main_v783 main_v784 (andi : (⟨S7x64, .i1⟩ : BufTy).Contents (Elt F) → (⟨S7x64, .i1⟩ : BufTy).Contents (Elt F) → (⟨S7x64, .i1⟩ : BufTy).Contents (Elt F)),
    StableHlo.unary main_v773 main_v785 (broadcastInDim S1x64 ![1] bcast_S64_S1x64_1 : (⟨S64, .i32⟩ : BufTy).Contents (Elt F) → (⟨S1x64, .i32⟩ : BufTy).Contents (Elt F)),
    StableHlo.unary main_v763 main_v786 (broadcastInDim S7x1 ![0] bcast_S7_S7x1_0 : (⟨S7, .i32⟩ : BufTy).Contents (Elt F) → (⟨S7x1, .i32⟩ : BufTy).Contents (Elt F)),
    StableHlo.unary main_v785 main_v787 (broadcastInDim S7x64 ![0, 1] bcast_S1x64_S7x64_0_1 : (⟨S1x64, .i32⟩ : BufTy).Contents (Elt F) → (⟨S7x64, .i32⟩ : BufTy).Contents (Elt F)),
    StableHlo.unary main_v786 main_v788 (broadcastInDim S7x64 ![0, 1] bcast_S7x1_S7x64_0_1 : (⟨S7x1, .i32⟩ : BufTy).Contents (Elt F) → (⟨S7x64, .i32⟩ : BufTy).Contents (Elt F)),
    StableHlo.binary main_v787 main_v788 main_v789 (cmpi .sge : (⟨S7x64, .i32⟩ : BufTy).Contents (Elt F) → (⟨S7x64, .i32⟩ : BufTy).Contents (Elt F) → (⟨S7x64, .i1⟩ : BufTy).Contents (Elt F)),
    StableHlo.unary main_v773 main_v790 (broadcastInDim S1x64 ![1] bcast_S64_S1x64_1 : (⟨S64, .i32⟩ : BufTy).Contents (Elt F) → (⟨S1x64, .i32⟩ : BufTy).Contents (Elt F)),
    StableHlo.unary main_v771 main_v791 (broadcastInDim S7x1 ![0] bcast_S7_S7x1_0 : (⟨S7, .i32⟩ : BufTy).Contents (Elt F) → (⟨S7x1, .i32⟩ : BufTy).Contents (Elt F)),
    StableHlo.unary main_v790 main_v792 (broadcastInDim S7x64 ![0, 1] bcast_S1x64_S7x64_0_1 : (⟨S1x64, .i32⟩ : BufTy).Contents (Elt F) → (⟨S7x64, .i32⟩ : BufTy).Contents (Elt F)),
    StableHlo.unary main_v791 main_v793 (broadcastInDim S7x64 ![0, 1] bcast_S7x1_S7x64_0_1 : (⟨S7x1, .i32⟩ : BufTy).Contents (Elt F) → (⟨S7x64, .i32⟩ : BufTy).Contents (Elt F)),
    StableHlo.binary main_v792 main_v793 main_v794 (cmpi .slt : (⟨S7x64, .i32⟩ : BufTy).Contents (Elt F) → (⟨S7x64, .i32⟩ : BufTy).Contents (Elt F) → (⟨S7x64, .i1⟩ : BufTy).Contents (Elt F)),
    StableHlo.binary main_v789 main_v794 main_v795 (andi : (⟨S7x64, .i1⟩ : BufTy).Contents (Elt F) → (⟨S7x64, .i1⟩ : BufTy).Contents (Elt F) → (⟨S7x64, .i1⟩ : BufTy).Contents (Elt F)),
    StableHlo.unary main_v784 main_v796 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v797 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_102 (constant S_ .f32 0xFF800000#32),
    StableHlo.TRef.unary (.of main_v796 : StableHlo.TRef sig ⟨S7x1x64x1, .i1⟩) (.of main_call60_v0 : StableHlo.TRef sig ⟨S7x512x64x64, .i1⟩) (broadcastInDim S7x512x64x64 ![0, 1, 2, 3] bcast_S7x1x64x1_S7x512x64x64_0_1_2_3),
    StableHlo.TRef.unary (.of main_v797 : StableHlo.TRef sig ⟨S1x512x64x64, .f32⟩) (.of main_call60_v1 : StableHlo.TRef sig ⟨S7x512x64x64, .f32⟩) (broadcastInDim S7x512x64x64 ![0, 1, 2, 3] bcast_S1x512x64x64_S7x512x64x64_0_1_2_3),
    StableHlo.TRef.unary (.of main_cst_102 : StableHlo.TRef sig ⟨S_, .f32⟩) (.of main_call60_v2 : StableHlo.TRef sig ⟨S7x512x64x64, .f32⟩) (broadcastInDim S7x512x64x64 ![] bcast_S_S7x512x64x64),
    StableHlo.TRef.ternary (.of main_call60_v0 : StableHlo.TRef sig ⟨S7x512x64x64, .i1⟩) (.of main_call60_v1 : StableHlo.TRef sig ⟨S7x512x64x64, .f32⟩) (.of main_call60_v2 : StableHlo.TRef sig ⟨S7x512x64x64, .f32⟩) (.of main_v798 : StableHlo.TRef sig ⟨S7x512x64x64, .f32⟩) select,
    StableHlo.nullary main_cst_103 (constant S_ .f32 0xFF800000#32),
    StableHlo.binary main_v798 main_cst_103 main_v799 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v795 main_v800 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v799 main_v801 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_104 (constant S_ .f32 0xFF800000#32),
    StableHlo.TRef.unary (.of main_v800 : StableHlo.TRef sig ⟨S1x1x7x64, .i1⟩) (.of main_call61_v0 : StableHlo.TRef sig ⟨S7x512x7x64, .i1⟩) (broadcastInDim S7x512x7x64 ![0, 1, 2, 3] bcast_S1x1x7x64_S7x512x7x64_0_1_2_3),
    StableHlo.TRef.unary (.of main_v801 : StableHlo.TRef sig ⟨S7x512x1x64, .f32⟩) (.of main_call61_v1 : StableHlo.TRef sig ⟨S7x512x7x64, .f32⟩) (broadcastInDim S7x512x7x64 ![0, 1, 2, 3] bcast_S7x512x1x64_S7x512x7x64_0_1_2_3),
    StableHlo.TRef.unary (.of main_cst_104 : StableHlo.TRef sig ⟨S_, .f32⟩) (.of main_call61_v2 : StableHlo.TRef sig ⟨S7x512x7x64, .f32⟩) (broadcastInDim S7x512x7x64 ![] bcast_S_S7x512x7x64),
    StableHlo.TRef.ternary (.of main_call61_v0 : StableHlo.TRef sig ⟨S7x512x7x64, .i1⟩) (.of main_call61_v1 : StableHlo.TRef sig ⟨S7x512x7x64, .f32⟩) (.of main_call61_v2 : StableHlo.TRef sig ⟨S7x512x7x64, .f32⟩) (.of main_v802 : StableHlo.TRef sig ⟨S7x512x7x64, .f32⟩) select ]
/-- The buffers those operations write, in order. -/
abbrev ops31_W : List (Ref sig .tc) :=
  [main_call59_v0, main_call59_v1, main_call59_v2, main_call59_v3, main_call59_v4, main_call59_v5, main_call59_v6, main_call59_v7, main_call59_v8, main_call59_c, main_call59_v9, main_call59_v10, main_call59_v11, main_call59_c_0, main_call59_v12, main_call59_v13, main_v769, main_v770, main_v771, main_v772, main_v773, main_v774, main_v775, main_v776, main_v777, main_v778, main_v779, main_v780, main_v781, main_v782, main_v783, main_v784, main_v785, main_v786, main_v787, main_v788, main_v789, main_v790, main_v791, main_v792, main_v793, main_v794, main_v795, main_v796, main_v797, main_cst_102, main_call60_v0, main_call60_v1, main_call60_v2, main_v798, main_cst_103, main_v799, main_v800, main_v801, main_cst_104, main_call61_v0, main_call61_v1, main_call61_v2, main_v802]
/-- Each operation writes its own result buffer and nothing else. -/
theorem ops31_writes : (ops31 : List (HloOp τ sig (Elt F))).Forall fun op => op.writes ⊆ (ops31_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part4 : List (HloOp τ sig (Elt F)) :=
  ops26 ++ ops27 ++ ops28 ++ ops29 ++ ops30 ++ ops31
/-- The generated stretches 100 to 123, in order, are this part: the same operations, cut elsewhere. -/
theorem part4_is : ([hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123] : List (List (HloOp τ sig (Elt F)))).flatten = part4 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 1282 to 1338 of the host part, in order. -/
abbrev ops26 : List (HloOp τ sig (Elt F)) :=
  [ StableHlo.nullary main_cst_85 (constant S_ .f32 0xFF800000#32),
    StableHlo.binary main_v634 main_cst_85 main_v635 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v635 main_v636 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v636 main_v637 rfl shapeCasts_S512x7x7_S25088,
    StableHlo.unary main_v18 main_v638 ((extractStridedSlice S1x1 ![1, 1] · slices_S3x4_S1x1_1_1) : (⟨S3x4, .i32⟩ : BufTy).Contents (Elt F) → (⟨S1x1, .i32⟩ : BufTy).Contents (Elt F)),
    StableHlo.reshape main_v638 main_v639 rfl shapeCasts_S1x1_S_,
    StableHlo.unary main_v23 main_v640 ((extractStridedSlice S1x1 ![0, 1] · slices_S4x4_S1x1_0_1) : (⟨S4x4, .i32⟩ : BufTy).Contents (Elt F) → (⟨S1x1, .i32⟩ : BufTy).Contents (Elt F)),
    StableHlo.reshape main_v640 main_v641 rfl shapeCasts_S1x1_S_,
    StableHlo.binary main_v639 main_v641 main_v642 (minsi : (⟨S_, .i32⟩ : BufTy).Contents (Elt F) → (⟨S_, .i32⟩ : BufTy).Contents (Elt F) → (⟨S_, .i32⟩ : BufTy).Contents (Elt F)),
    StableHlo.unary main_v18 main_v643 ((extractStridedSlice S1x1 ![1, 3] · slices_S3x4_S1x1_1_3) : (⟨S3x4, .i32⟩ : BufTy).Contents (Elt F) → (⟨S1x1, .i32⟩ : BufTy).Contents (Elt F)),
    StableHlo.reshape main_v643 main_v644 rfl shapeCasts_S1x1_S_,
    StableHlo.unary main_v23 main_v645 ((extractStridedSlice S1x1 ![0, 3] · slices_S4x4_S1x1_0_3) : (⟨S4x4, .i32⟩ : BufTy).Contents (Elt F) → (⟨S1x1, .i32⟩ : BufTy).Contents (Elt F)),
    StableHlo.reshape main_v645 main_v646 rfl shapeCasts_S1x1_S_,
    StableHlo.binary main_v644 main_v646 main_v647 (maxsi : (⟨S_, .i32⟩ : BufTy).Contents (Elt F) → (⟨S_, .i32⟩ : BufTy).Contents (Elt F) → (⟨S_, .i32⟩ : BufTy).Contents (Elt F)),
    StableHlo.unary main_v18 main_v648 ((extractStridedSlice S1x1 ![1, 0] · slices_S3x4_S1x1_1_0) : (⟨S3x4, .i32⟩ : BufTy).Contents (Elt F) → (⟨S1x1, .i32⟩ : BufTy).Contents (Elt F)),
    StableHlo.reshape main_v648 main_v649 rfl shapeCasts_S1x1_S_,
    StableHlo.unary main_v23 main_v650 ((extractStridedSlice S1x1 ![0, 0] · slices_S4x4_S1x1_0_0) : (⟨S4x4, .i32⟩ : BufTy).Contents (Elt F) → (⟨S1x1, .i32⟩ : BufTy).Contents (Elt F)),
    StableHlo.reshape main_v650 main_v651 rfl shapeCasts_S1x1_S_,
    StableHlo.binary main_v649 main_v651 main_v652 (minsi : (⟨S_, .i32⟩ : BufTy).Contents (Elt F) → (⟨S_, .i32⟩ : BufTy).Contents (Elt F) → (⟨S_, .i32⟩ : BufTy).Contents (Elt F)),
    StableHlo.unary main_v18 main_v653 ((extractStridedSlice S1x1 ![1, 2] · slices_S3x4_S1x1_1_2) : (⟨S3x4, .i32⟩ : BufTy).Contents (Elt F) → (⟨S1x1, .i32⟩ : BufTy).Contents (Elt F)),
    StableHlo.reshape main_v653 main_v654 rfl shapeCasts_S1x1_S_,
    StableHlo.unary main_v23 main_v655 ((extractStridedSlice S1x1 ![0, 2] · slices_S4x4_S1x1_0_2) : (⟨S4x4, .i32⟩ : BufTy).Contents (Elt F) → (⟨S1x1, .i32⟩ : BufTy).Contents (Elt F)),
    StableHlo.reshape main_v655 main_v656 rfl shapeCasts_S1x1_S_,
    StableHlo.binary main_v654 main_v656 main_v657 (maxsi : (⟨S_, .i32⟩ : BufTy).Contents (Elt F) → (⟨S_, .i32⟩ : BufTy).Contents (Elt F) → (⟨S_, .i32⟩ : BufTy).Contents (Elt F)),
    StableHlo.binary main_v647 main_v642 main_v658 (subi : (⟨S_, .i32⟩ : BufTy).Contents (Elt F) → (⟨S_, .i32⟩ : BufTy).Contents (Elt F) → (⟨S_, .i32⟩ : BufTy).Contents (Elt F)),
    StableHlo.binary main_v657 main_v652 main_v659 (subi : (⟨S_, .i32⟩ : BufTy).Contents (Elt F) → (⟨S_, .i32⟩ : BufTy).Contents (Elt F) → (⟨S_, .i32⟩ : BufTy).Contents (Elt F)),
    StableHlo.nullary main_v660 (iotaInDim S7 32 0),
    StableHlo.nullary main_v661 (iotaInDim S7 32 0),
    StableHlo.unary main_v658 main_v662 (broadcastInDim S7 ![] bcast_S_S7 : (⟨S_, .i32⟩ : BufTy).Contents (Elt F) → (⟨S7, .i32⟩ : BufTy).Contents (Elt F)),
    StableHlo.binary main_v660 main_v662 main_v663 (muli : (⟨S7, .i32⟩ : BufTy).Contents (Elt F) → (⟨S7, .i32⟩ : BufTy).Contents (Elt F) → (⟨S7, .i32⟩ : BufTy).Contents (Elt F)),
    StableHlo.nullary main_c_86 (constantI S_ 32 7#32),
    StableHlo.TRef.unary (.of main_c_86 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S7, .i32⟩) (broadcastInDim S7 ![] bcast_S_S7),
    StableHlo.TRef.binary (.of main_v663 : StableHlo.TRef sig ⟨S7, .i32⟩) (.of main_call50_v1 : StableHlo.TRef sig ⟨S7, .i32⟩) (.of main_call50_v2 : StableHlo.TRef sig ⟨S7, .i32⟩) Host.divsi,
    StableHlo.TRef.unary (.of main_v663 : StableHlo.TRef sig ⟨S7, .i32⟩) (.of main_call50_v3 : StableHlo.TRef sig ⟨S7, .i32⟩) signi,
    StableHlo.TRef.unary (.of main_call50_v0 : StableHlo.TRef sig ⟨S_, .i32⟩) (.of main_call50_v4 : StableHlo.TRef sig ⟨S_, .i32⟩) signi,
    StableHlo.TRef.unary (.of main_call50_v4 : StableHlo.TRef sig ⟨S_, .i32⟩) (.of main_call50_v5 : StableHlo.TRef sig ⟨S7, .i32⟩) (broadcastInDim S7 ![] bcast_S_S7),
    StableHlo.TRef.binary (.of main_call50_v3 : StableHlo.TRef sig ⟨S7, .i32⟩) (.of main_call50_v5 : StableHlo.TRef sig ⟨S7, .i32⟩) (.of main_call50_v6 : StableHlo.TRef sig ⟨S7, .i1⟩) (cmpi .ne),
    StableHlo.TRef.unary (.of main_call50_v0 : StableHlo.TRef sig ⟨S_, .i32⟩) (.of main_call50_v7 : StableHlo.TRef sig ⟨S7, .i32⟩) (broadcastInDim S7 ![] bcast_S_S7),
    StableHlo.TRef.binary (.of main_v663 : StableHlo.TRef sig ⟨S7, .i32⟩) (.of main_call50_v7 : StableHlo.TRef sig ⟨S7, .i32⟩) (.of main_call50_v8 : StableHlo.TRef sig ⟨S7, .i32⟩) Host.remsi,
    StableHlo.TRef.nullary (.of main_call50_c : StableHlo.TRef sig ⟨S_, .i32⟩) (constantI S_ 32 0#32),
    StableHlo.TRef.unary (.of main_call50_c : StableHlo.TRef sig ⟨S_, .i32⟩) (.of main_call50_v9 : StableHlo.TRef sig ⟨S7, .i32⟩) (broadcastInDim S7 ![] bcast_S_S7),
    StableHlo.TRef.binary (.of main_call50_v8 : StableHlo.TRef sig ⟨S7, .i32⟩) (.of main_call50_v9 : StableHlo.TRef sig ⟨S7, .i32⟩) (.of main_call50_v10 : StableHlo.TRef sig ⟨S7, .i1⟩) (cmpi .ne),
    StableHlo.TRef.binary (.of main_call50_v6 : StableHlo.TRef sig ⟨S7, .i1⟩) (.of main_call50_v10 : StableHlo.TRef sig ⟨S7, .i1⟩) (.of main_call50_v11 : StableHlo.TRef sig ⟨S7, .i1⟩) andi,
    StableHlo.TRef.nullary (.of main_call50_c_0 : StableHlo.TRef sig ⟨S_, .i32⟩) (constantI S_ 32 1#32),
    StableHlo.TRef.unary (.of main_call50_c_0 : StableHlo.TRef sig ⟨S_, .i32⟩) (.of main_call50_v12 : StableHlo.TRef sig ⟨S7, .i32⟩) (broadcastInDim S7 ![] bcast_S_S7),
    StableHlo.TRef.binary (.of main_call50_v2 : StableHlo.TRef sig ⟨S7, .i32⟩) (.of main_call50_v12 : StableHlo.TRef sig ⟨S7, .i32⟩) (.of main_call50_v13 : StableHlo.TRef sig ⟨S7, .i32⟩) subi,
    StableHlo.TRef.ternary (.of main_call50_v11 : StableHlo.TRef sig ⟨S7, .i1⟩) (.of main_call50_v13 : StableHlo.TRef sig ⟨S7, .i32⟩) (.of main_call50_v2 : StableHlo.TRef sig ⟨S7, .i32⟩) (.of main_v664 : StableHlo.TRef sig ⟨S7, .i32⟩) select,
    StableHlo.unary main_v642 main_v665 (broadcastInDim S7 ![] bcast_S_S7 : (⟨S_, .i32⟩ : BufTy).Contents (Elt F) → (⟨S7, .i32⟩ : BufTy).Contents (Elt F)),
    StableHlo.binary main_v665 main_v664 main_v666 (addi : (⟨S7, .i32⟩ : BufTy).Contents (Elt F) → (⟨S7, .i32⟩ : BufTy).Contents (Elt F) → (⟨S7, .i32⟩ : BufTy).Contents (Elt F)),
    StableHlo.nullary main_c_87 (constantI S_ 32 1#32),
    StableHlo.unary main_c_87 main_v667 (broadcastInDim S7 ![] bcast_S_S7 : (⟨S_, .i32⟩ : BufTy).Contents (Elt F) → (⟨S7, .i32⟩ : BufTy).Contents (Elt F)),
    StableHlo.binary main_v660 main_v667 main_v668 (addi : (⟨S7, .i32⟩ : BufTy).Contents (Elt F) → (⟨S7, .i32⟩ : BufTy).Contents (Elt F) → (⟨S7, .i32⟩ : BufTy).Contents (Elt F)),
    StableHlo.unary main_v668 main_v669 (negi : (⟨S7, .i32⟩ : BufTy).Contents (Elt F) → (⟨S7, .i32⟩ : BufTy).Contents (Elt F)),
    StableHlo.unary main_v658 main_v670 (broadcastInDim S7 ![] bcast_S_S7 : (⟨S_, .i32⟩ : BufTy).Contents (Elt F) → (⟨S7, .i32⟩ : BufTy).Contents (Elt F)),
    StableHlo.binary main_v669 main_v670 main_v671 (muli : (⟨S7, .i32⟩ : BufTy).Contents (Elt F) → (⟨S7, .i32⟩ : BufTy).Contents (Elt F) → (⟨S7, .i32⟩ : BufTy).Contents (Elt F)),
    StableHlo.nullary main_c_88 (constantI S_ 32 7#32) ]
/-- The buffers those operations write, in order. -/
abbrev ops26_W : List (Ref sig .tc) :=
  [main_cst_85, main_v635, main_v636, main_v637, main_v638, main_v639, main_v640, main_v641, main_v642, main_v643, main_v644, main_v645, main_v646, main_v647, main_v648, main_v649, main_v650, main_v651, main_v652, main_v653, main_v654, main_v655, main_v656, main_v657, main_v658, main_v659, main_v660, main_v661, main_v662, main_v663, main_c_86, main_call50_v0, main_call50_v1, main_call50_v2, main_call50_v3, main_call50_v4, main_call50_v5, main_call50_v6, main_call50_v7, main_call50_v8, main_call50_c, main_call50_v9, main_call50_v10, main_call50_v11, main_call50_c_0, main_call50_v12, main_call50_v13, main_v664, main_v665, main_v666, main_c_87, main_v667, main_v668, main_v669, main_v670, main_v671, main_c_88]
/-- Each operation writes its own result buffer and nothing else. -/
theorem ops26_writes : (ops26 : List (HloOp τ sig (Elt F))).Forall fun op => op.writes ⊆ (ops26_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1339 to 1386 of the host part, in order. -/
abbrev ops27 : List (HloOp τ sig (Elt F)) :=
  [ StableHlo.TRef.unary (.of main_c_88 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S7, .i32⟩) (broadcastInDim S7 ![] bcast_S_S7),
    StableHlo.TRef.binary (.of main_v671 : StableHlo.TRef sig ⟨S7, .i32⟩) (.of main_call51_v1 : StableHlo.TRef sig ⟨S7, .i32⟩) (.of main_call51_v2 : StableHlo.TRef sig ⟨S7, .i32⟩) Host.divsi,
    StableHlo.TRef.unary (.of main_v671 : StableHlo.TRef sig ⟨S7, .i32⟩) (.of main_call51_v3 : StableHlo.TRef sig ⟨S7, .i32⟩) signi,
    StableHlo.TRef.unary (.of main_call51_v0 : StableHlo.TRef sig ⟨S_, .i32⟩) (.of main_call51_v4 : StableHlo.TRef sig ⟨S_, .i32⟩) signi,
    StableHlo.TRef.unary (.of main_call51_v4 : StableHlo.TRef sig ⟨S_, .i32⟩) (.of main_call51_v5 : StableHlo.TRef sig ⟨S7, .i32⟩) (broadcastInDim S7 ![] bcast_S_S7),
    StableHlo.TRef.binary (.of main_call51_v3 : StableHlo.TRef sig ⟨S7, .i32⟩) (.of main_call51_v5 : StableHlo.TRef sig ⟨S7, .i32⟩) (.of main_call51_v6 : StableHlo.TRef sig ⟨S7, .i1⟩) (cmpi .ne),
    StableHlo.TRef.unary (.of main_call51_v0 : StableHlo.TRef sig ⟨S_, .i32⟩) (.of main_call51_v7 : StableHlo.TRef sig ⟨S7, .i32⟩) (broadcastInDim S7 ![] bcast_S_S7),
    StableHlo.TRef.binary (.of main_v671 : StableHlo.TRef sig ⟨S7, .i32⟩) (.of main_call51_v7 : StableHlo.TRef sig ⟨S7, .i32⟩) (.of main_call51_v8 : StableHlo.TRef sig ⟨S7, .i32⟩) Host.remsi,
    StableHlo.TRef.nullary (.of main_call51_c : StableHlo.TRef sig ⟨S_, .i32⟩) (constantI S_ 32 0#32),
    StableHlo.TRef.unary (.of main_call51_c : StableHlo.TRef sig ⟨S_, .i32⟩) (.of main_call51_v9 : StableHlo.TRef sig ⟨S7, .i32⟩) (broadcastInDim S7 ![] bcast_S_S7),
    StableHlo.TRef.binary (.of main_call51_v8 : StableHlo.TRef sig ⟨S7, .i32⟩) (.of main_call51_v9 : StableHlo.TRef sig ⟨S7, .i32⟩) (.of main_call51_v10 : StableHlo.TRef sig ⟨S7, .i1⟩) (cmpi .ne),
    StableHlo.TRef.binary (.of main_call51_v6 : StableHlo.TRef sig ⟨S7, .i1⟩) (.of main_call51_v10 : StableHlo.TRef sig ⟨S7, .i1⟩) (.of main_call51_v11 : StableHlo.TRef sig ⟨S7, .i1⟩) andi,
    StableHlo.TRef.nullary (.of main_call51_c_0 : StableHlo.TRef sig ⟨S_, .i32⟩) (constantI S_ 32 1#32),
    StableHlo.TRef.unary (.of main_call51_c_0 : StableHlo.TRef sig ⟨S_, .i32⟩) (.of main_call51_v12 : StableHlo.TRef sig ⟨S7, .i32⟩) (broadcastInDim S7 ![] bcast_S_S7),
    StableHlo.TRef.binary (.of main_call51_v2 : StableHlo.TRef sig ⟨S7, .i32⟩) (.of main_call51_v12 : StableHlo.TRef sig ⟨S7, .i32⟩) (.of main_call51_v13 : StableHlo.TRef sig ⟨S7, .i32⟩) subi,
    StableHlo.TRef.ternary (.of main_call51_v11 : StableHlo.TRef sig ⟨S7, .i1⟩) (.of main_call51_v13 : StableHlo.TRef sig ⟨S7, .i32⟩) (.of main_call51_v2 : StableHlo.TRef sig ⟨S7, .i32⟩) (.of main_v672 : StableHlo.TRef sig ⟨S7, .i32⟩) select,
    StableHlo.unary main_v642 main_v673 (broadcastInDim S7 ![] bcast_S_S7 : (⟨S_, .i32⟩ : BufTy).Contents (Elt F) → (⟨S7, .i32⟩ : BufTy).Contents (Elt F)),
    StableHlo.binary main_v673 main_v672 main_v674 (subi : (⟨S7, .i32⟩ : BufTy).Contents (Elt F) → (⟨S7, .i32⟩ : BufTy).Contents (Elt F) → (⟨S7, .i32⟩ : BufTy).Contents (Elt F)),
    StableHlo.unary main_v659 main_v675 (broadcastInDim S7 ![] bcast_S_S7 : (⟨S_, .i32⟩ : BufTy).Contents (Elt F) → (⟨S7, .i32⟩ : BufTy).Contents (Elt F)),
    StableHlo.binary main_v661 main_v675 main_v676 (muli : (⟨S7, .i32⟩ : BufTy).Contents (Elt F) → (⟨S7, .i32⟩ : BufTy).Contents (Elt F) → (⟨S7, .i32⟩ : BufTy).Contents (Elt F)),
    StableHlo.nullary main_c_89 (constantI S_ 32 7#32),
    StableHlo.TRef.unary (.of main_c_89 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S7, .i32⟩) (broadcastInDim S7 ![] bcast_S_S7),
    StableHlo.TRef.binary (.of main_v676 : StableHlo.TRef sig ⟨S7, .i32⟩) (.of main_call52_v1 : StableHlo.TRef sig ⟨S7, .i32⟩) (.of main_call52_v2 : StableHlo.TRef sig ⟨S7, .i32⟩) Host.divsi,
    StableHlo.TRef.unary (.of main_v676 : StableHlo.TRef sig ⟨S7, .i32⟩) (.of main_call52_v3 : StableHlo.TRef sig ⟨S7, .i32⟩) signi,
    StableHlo.TRef.unary (.of main_call52_v0 : StableHlo.TRef sig ⟨S_, .i32⟩) (.of main_call52_v4 : StableHlo.TRef sig ⟨S_, .i32⟩) signi,
    StableHlo.TRef.unary (.of main_call52_v4 : StableHlo.TRef sig ⟨S_, .i32⟩) (.of main_call52_v5 : StableHlo.TRef sig ⟨S7, .i32⟩) (broadcastInDim S7 ![] bcast_S_S7),
    StableHlo.TRef.binary (.of main_call52_v3 : StableHlo.TRef sig ⟨S7, .i32⟩) (.of main_call52_v5 : StableHlo.TRef sig ⟨S7, .i32⟩) (.of main_call52_v6 : StableHlo.TRef sig ⟨S7, .i1⟩) (cmpi .ne),
    StableHlo.TRef.unary (.of main_call52_v0 : StableHlo.TRef sig ⟨S_, .i32⟩) (.of main_call52_v7 : StableHlo.TRef sig ⟨S7, .i32⟩) (broadcastInDim S7 ![] bcast_S_S7),
    StableHlo.TRef.binary (.of main_v676 : StableHlo.TRef sig ⟨S7, .i32⟩) (.of main_call52_v7 : StableHlo.TRef sig ⟨S7, .i32⟩) (.of main_call52_v8 : StableHlo.TRef sig ⟨S7, .i32⟩) Host.remsi,
    StableHlo.TRef.nullary (.of main_call52_c : StableHlo.TRef sig ⟨S_, .i32⟩) (constantI S_ 32 0#32),
    StableHlo.TRef.unary (.of main_call52_c : StableHlo.TRef sig ⟨S_, .i32⟩) (.of main_call52_v9 : StableHlo.TRef sig ⟨S7, .i32⟩) (broadcastInDim S7 ![] bcast_S_S7),
    StableHlo.TRef.binary (.of main_call52_v8 : StableHlo.TRef sig ⟨S7, .i32⟩) (.of main_call52_v9 : StableHlo.TRef sig ⟨S7, .i32⟩) (.of main_call52_v10 : StableHlo.TRef sig ⟨S7, .i1⟩) (cmpi .ne),
    StableHlo.TRef.binary (.of main_call52_v6 : StableHlo.TRef sig ⟨S7, .i1⟩) (.of main_call52_v10 : StableHlo.TRef sig ⟨S7, .i1⟩) (.of main_call52_v11 : StableHlo.TRef sig ⟨S7, .i1⟩) andi,
    StableHlo.TRef.nullary (.of main_call52_c_0 : StableHlo.TRef sig ⟨S_, .i32⟩) (constantI S_ 32 1#32),
    StableHlo.TRef.unary (.of main_call52_c_0 : StableHlo.TRef sig ⟨S_, .i32⟩) (.of main_call52_v12 : StableHlo.TRef sig ⟨S7, .i32⟩) (broadcastInDim S7 ![] bcast_S_S7),
    StableHlo.TRef.binary (.of main_call52_v2 : StableHlo.TRef sig ⟨S7, .i32⟩) (.of main_call52_v12 : StableHlo.TRef sig ⟨S7, .i32⟩) (.of main_call52_v13 : StableHlo.TRef sig ⟨S7, .i32⟩) subi,
    StableHlo.TRef.ternary (.of main_call52_v11 : StableHlo.TRef sig ⟨S7, .i1⟩) (.of main_call52_v13 : StableHlo.TRef sig ⟨S7, .i32⟩) (.of main_call52_v2 : StableHlo.TRef sig ⟨S7, .i32⟩) (.of main_v677 : StableHlo.TRef sig ⟨S7, .i32⟩) select,
    StableHlo.unary main_v652 main_v678 (broadcastInDim S7 ![] bcast_S_S7 : (⟨S_, .i32⟩ : BufTy).Contents (Elt F) → (⟨S7, .i32⟩ : BufTy).Contents (Elt F)),
    StableHlo.binary main_v678 main_v677 main_v679 (addi : (⟨S7, .i32⟩ : BufTy).Contents (Elt F) → (⟨S7, .i32⟩ : BufTy).Contents (Elt F) → (⟨S7, .i32⟩ : BufTy).Contents (Elt F)),
    StableHlo.nullary main_c_90 (constantI S_ 32 1#32),
    StableHlo.unary main_c_90 main_v680 (broadcastInDim S7 ![] bcast_S_S7 : (⟨S_, .i32⟩ : BufTy).Contents (Elt F) → (⟨S7, .i32⟩ : BufTy).Contents (Elt F)),
    StableHlo.binary main_v661 main_v680 main_v681 (addi : (⟨S7, .i32⟩ : BufTy).Contents (Elt F) → (⟨S7, .i32⟩ : BufTy).Contents (Elt F) → (⟨S7, .i32⟩ : BufTy).Contents (Elt F)),
    StableHlo.unary main_v681 main_v682 (negi : (⟨S7, .i32⟩ : BufTy).Contents (Elt F) → (⟨S7, .i32⟩ : BufTy).Contents (Elt F)),
    StableHlo.unary main_v659 main_v683 (broadcastInDim S7 ![] bcast_S_S7 : (⟨S_, .i32⟩ : BufTy).Contents (Elt F) → (⟨S7, .i32⟩ : BufTy).Contents (Elt F)),
    StableHlo.binary main_v682 main_v683 main_v684 (muli : (⟨S7, .i32⟩ : BufTy).Contents (Elt F) → (⟨S7, .i32⟩ : BufTy).Contents (Elt F) → (⟨S7, .i32⟩ : BufTy).Contents (Elt F)),
    StableHlo.nullary main_c_91 (constantI S_ 32 7#32) ]
/-- The buffers those operations write, in order. -/
abbrev ops27_W : List (Ref sig .tc) :=
  [main_call51_v0, main_call51_v1, main_call51_v2, main_call51_v3, main_call51_v4, main_call51_v5, main_call51_v6, main_call51_v7, main_call51_v8, main_call51_c, main_call51_v9, main_call51_v10, main_call51_v11, main_call51_c_0, main_call51_v12, main_call51_v13, main_v672, main_v673, main_v674, main_v675, main_v676, main_c_89, main_call52_v0, main_call52_v1, main_call52_v2, main_call52_v3, main_call52_v4, main_call52_v5, main_call52_v6, main_call52_v7, main_call52_v8, main_call52_c, main_call52_v9, main_call52_v10, main_call52_v11, main_call52_c_0, main_call52_v12, main_call52_v13, main_v677, main_v678, main_v679, main_c_90, main_v680, main_v681, main_v682, main_v683, main_v684, main_c_91]
/-- Each operation writes its own result buffer and nothing else. -/
theorem ops27_writes : (ops27 : List (HloOp τ sig (Elt F))).Forall fun op => op.writes ⊆ (ops27_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1387 to 1445 of the host part, in order. -/
abbrev ops28 : List (HloOp τ sig (Elt F)) :=
  [ StableHlo.TRef.unary (.of main_c_91 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S7, .i32⟩) (broadcastInDim S7 ![] bcast_S_S7),
    StableHlo.TRef.binary (.of main_v684 : StableHlo.TRef sig ⟨S7, .i32⟩) (.of main_call53_v1 : StableHlo.TRef sig ⟨S7, .i32⟩) (.of main_call53_v2 : StableHlo.TRef sig ⟨S7, .i32⟩) Host.divsi,
    StableHlo.TRef.unary (.of main_v684 : StableHlo.TRef sig ⟨S7, .i32⟩) (.of main_call53_v3 : StableHlo.TRef sig ⟨S7, .i32⟩) signi,
    StableHlo.TRef.unary (.of main_call53_v0 : StableHlo.TRef sig ⟨S_, .i32⟩) (.of main_call53_v4 : StableHlo.TRef sig ⟨S_, .i32⟩) signi,
    StableHlo.TRef.unary (.of main_call53_v4 : StableHlo.TRef sig ⟨S_, .i32⟩) (.of main_call53_v5 : StableHlo.TRef sig ⟨S7, .i32⟩) (broadcastInDim S7 ![] bcast_S_S7),
    StableHlo.TRef.binary (.of main_call53_v3 : StableHlo.TRef sig ⟨S7, .i32⟩) (.of main_call53_v5 : StableHlo.TRef sig ⟨S7, .i32⟩) (.of main_call53_v6 : StableHlo.TRef sig ⟨S7, .i1⟩) (cmpi .ne),
    StableHlo.TRef.unary (.of main_call53_v0 : StableHlo.TRef sig ⟨S_, .i32⟩) (.of main_call53_v7 : StableHlo.TRef sig ⟨S7, .i32⟩) (broadcastInDim S7 ![] bcast_S_S7),
    StableHlo.TRef.binary (.of main_v684 : StableHlo.TRef sig ⟨S7, .i32⟩) (.of main_call53_v7 : StableHlo.TRef sig ⟨S7, .i32⟩) (.of main_call53_v8 : StableHlo.TRef sig ⟨S7, .i32⟩) Host.remsi,
    StableHlo.TRef.nullary (.of main_call53_c : StableHlo.TRef sig ⟨S_, .i32⟩) (constantI S_ 32 0#32),
    StableHlo.TRef.unary (.of main_call53_c : StableHlo.TRef sig ⟨S_, .i32⟩) (.of main_call53_v9 : StableHlo.TRef sig ⟨S7, .i32⟩) (broadcastInDim S7 ![] bcast_S_S7),
    StableHlo.TRef.binary (.of main_call53_v8 : StableHlo.TRef sig ⟨S7, .i32⟩) (.of main_call53_v9 : StableHlo.TRef sig ⟨S7, .i32⟩) (.of main_call53_v10 : StableHlo.TRef sig ⟨S7, .i1⟩) (cmpi .ne),
    StableHlo.TRef.binary (.of main_call53_v6 : StableHlo.TRef sig ⟨S7, .i1⟩) (.of main_call53_v10 : StableHlo.TRef sig ⟨S7, .i1⟩) (.of main_call53_v11 : StableHlo.TRef sig ⟨S7, .i1⟩) andi,
    StableHlo.TRef.nullary (.of main_call53_c_0 : StableHlo.TRef sig ⟨S_, .i32⟩) (constantI S_ 32 1#32),
    StableHlo.TRef.unary (.of main_call53_c_0 : StableHlo.TRef sig ⟨S_, .i32⟩) (.of main_call53_v12 : StableHlo.TRef sig ⟨S7, .i32⟩) (broadcastInDim S7 ![] bcast_S_S7),
    StableHlo.TRef.binary (.of main_call53_v2 : StableHlo.TRef sig ⟨S7, .i32⟩) (.of main_call53_v12 : StableHlo.TRef sig ⟨S7, .i32⟩) (.of main_call53_v13 : StableHlo.TRef sig ⟨S7, .i32⟩) subi,
    StableHlo.TRef.ternary (.of main_call53_v11 : StableHlo.TRef sig ⟨S7, .i1⟩) (.of main_call53_v13 : StableHlo.TRef sig ⟨S7, .i32⟩) (.of main_call53_v2 : StableHlo.TRef sig ⟨S7, .i32⟩) (.of main_v685 : StableHlo.TRef sig ⟨S7, .i32⟩) select,
    StableHlo.unary main_v652 main_v686 (broadcastInDim S7 ![] bcast_S_S7 : (⟨S_, .i32⟩ : BufTy).Contents (Elt F) → (⟨S7, .i32⟩ : BufTy).Contents (Elt F)),
    StableHlo.binary main_v686 main_v685 main_v687 (subi : (⟨S7, .i32⟩ : BufTy).Contents (Elt F) → (⟨S7, .i32⟩ : BufTy).Contents (Elt F) → (⟨S7, .i32⟩ : BufTy).Contents (Elt F)),
    StableHlo.nullary main_v688 (iotaInDim S64 32 0),
    StableHlo.nullary main_v689 (iotaInDim S64 32 0),
    StableHlo.unary main_v688 main_v690 (broadcastInDim S1x64 ![1] bcast_S64_S1x64_1 : (⟨S64, .i32⟩ : BufTy).Contents (Elt F) → (⟨S1x64, .i32⟩ : BufTy).Contents (Elt F)),
    StableHlo.unary main_v666 main_v691 (broadcastInDim S7x1 ![0] bcast_S7_S7x1_0 : (⟨S7, .i32⟩ : BufTy).Contents (Elt F) → (⟨S7x1, .i32⟩ : BufTy).Contents (Elt F)),
    StableHlo.unary main_v690 main_v692 (broadcastInDim S7x64 ![0, 1] bcast_S1x64_S7x64_0_1 : (⟨S1x64, .i32⟩ : BufTy).Contents (Elt F) → (⟨S7x64, .i32⟩ : BufTy).Contents (Elt F)),
    StableHlo.unary main_v691 main_v693 (broadcastInDim S7x64 ![0, 1] bcast_S7x1_S7x64_0_1 : (⟨S7x1, .i32⟩ : BufTy).Contents (Elt F) → (⟨S7x64, .i32⟩ : BufTy).Contents (Elt F)),
    StableHlo.binary main_v692 main_v693 main_v694 (cmpi .sge : (⟨S7x64, .i32⟩ : BufTy).Contents (Elt F) → (⟨S7x64, .i32⟩ : BufTy).Contents (Elt F) → (⟨S7x64, .i1⟩ : BufTy).Contents (Elt F)),
    StableHlo.unary main_v688 main_v695 (broadcastInDim S1x64 ![1] bcast_S64_S1x64_1 : (⟨S64, .i32⟩ : BufTy).Contents (Elt F) → (⟨S1x64, .i32⟩ : BufTy).Contents (Elt F)),
    StableHlo.unary main_v674 main_v696 (broadcastInDim S7x1 ![0] bcast_S7_S7x1_0 : (⟨S7, .i32⟩ : BufTy).Contents (Elt F) → (⟨S7x1, .i32⟩ : BufTy).Contents (Elt F)),
    StableHlo.unary main_v695 main_v697 (broadcastInDim S7x64 ![0, 1] bcast_S1x64_S7x64_0_1 : (⟨S1x64, .i32⟩ : BufTy).Contents (Elt F) → (⟨S7x64, .i32⟩ : BufTy).Contents (Elt F)),
    StableHlo.unary main_v696 main_v698 (broadcastInDim S7x64 ![0, 1] bcast_S7x1_S7x64_0_1 : (⟨S7x1, .i32⟩ : BufTy).Contents (Elt F) → (⟨S7x64, .i32⟩ : BufTy).Contents (Elt F)),
    StableHlo.binary main_v697 main_v698 main_v699 (cmpi .slt : (⟨S7x64, .i32⟩ : BufTy).Contents (Elt F) → (⟨S7x64, .i32⟩ : BufTy).Contents (Elt F) → (⟨S7x64, .i1⟩ : BufTy).Contents (Elt F)),
    StableHlo.binary main_v694 main_v699 main_v700 (andi : (⟨S7x64, .i1⟩ : BufTy).Contents (Elt F) → (⟨S7x64, .i1⟩ : BufTy).Contents (Elt F) → (⟨S7x64, .i1⟩ : BufTy).Contents (Elt F)),
    StableHlo.unary main_v689 main_v701 (broadcastInDim S1x64 ![1] bcast_S64_S1x64_1 : (⟨S64, .i32⟩ : BufTy).Contents (Elt F) → (⟨S1x64, .i32⟩ : BufTy).Contents (Elt F)),
    StableHlo.unary main_v679 main_v702 (broadcastInDim S7x1 ![0] bcast_S7_S7x1_0 : (⟨S7, .i32⟩ : BufTy).Contents (Elt F) → (⟨S7x1, .i32⟩ : BufTy).Contents (Elt F)),
    StableHlo.unary main_v701 main_v703 (broadcastInDim S7x64 ![0, 1] bcast_S1x64_S7x64_0_1 : (⟨S1x64, .i32⟩ : BufTy).Contents (Elt F) → (⟨S7x64, .i32⟩ : BufTy).Contents (Elt F)),
    StableHlo.unary main_v702 main_v704 (broadcastInDim S7x64 ![0, 1] bcast_S7x1_S7x64_0_1 : (⟨S7x1, .i32⟩ : BufTy).Contents (Elt F) → (⟨S7x64, .i32⟩ : BufTy).Contents (Elt F)),
    StableHlo.binary main_v703 main_v704 main_v705 (cmpi .sge : (⟨S7x64, .i32⟩ : BufTy).Contents (Elt F) → (⟨S7x64, .i32⟩ : BufTy).Contents (Elt F) → (⟨S7x64, .i1⟩ : BufTy).Contents (Elt F)),
    StableHlo.unary main_v689 main_v706 (broadcastInDim S1x64 ![1] bcast_S64_S1x64_1 : (⟨S64, .i32⟩ : BufTy).Contents (Elt F) → (⟨S1x64, .i32⟩ : BufTy).Contents (Elt F)),
    StableHlo.unary main_v687 main_v707 (broadcastInDim S7x1 ![0] bcast_S7_S7x1_0 : (⟨S7, .i32⟩ : BufTy).Contents (Elt F) → (⟨S7x1, .i32⟩ : BufTy).Contents (Elt F)),
    StableHlo.unary main_v706 main_v708 (broadcastInDim S7x64 ![0, 1] bcast_S1x64_S7x64_0_1 : (⟨S1x64, .i32⟩ : BufTy).Contents (Elt F) → (⟨S7x64, .i32⟩ : BufTy).Contents (Elt F)),
    StableHlo.unary main_v707 main_v709 (broadcastInDim S7x64 ![0, 1] bcast_S7x1_S7x64_0_1 : (⟨S7x1, .i32⟩ : BufTy).Contents (Elt F) → (⟨S7x64, .i32⟩ : BufTy).Contents (Elt F)),
    StableHlo.binary main_v708 main_v709 main_v710 (cmpi .slt : (⟨S7x64, .i32⟩ : BufTy).Contents (Elt F) → (⟨S7x64, .i32⟩ : BufTy).Contents (Elt F) → (⟨S7x64, .i1⟩ : BufTy).Contents (Elt F)),
    StableHlo.binary main_v705 main_v710 main_v711 (andi : (⟨S7x64, .i1⟩ : BufTy).Contents (Elt F) → (⟨S7x64, .i1⟩ : BufTy).Contents (Elt F) → (⟨S7x64, .i1⟩ : BufTy).Contents (Elt F)),
    StableHlo.unary main_v700 main_v712 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v713 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_92 (constant S_ .f32 0xFF800000#32),
    StableHlo.TRef.unary (.of main_v712 : StableHlo.TRef sig ⟨S7x1x64x1, .i1⟩) (.of main_call54_v0 : StableHlo.TRef sig ⟨S7x512x64x64, .i1⟩) (broadcastInDim S7x512x64x64 ![0, 1, 2, 3] bcast_S7x1x64x1_S7x512x64x64_0_1_2_3),
    StableHlo.TRef.unary (.of main_v713 : StableHlo.TRef sig ⟨S1x512x64x64, .f32⟩) (.of main_call54_v1 : StableHlo.TRef sig ⟨S7x512x64x64, .f32⟩) (broadcastInDim S7x512x64x64 ![0, 1, 2, 3] bcast_S1x512x64x64_S7x512x64x64_0_1_2_3),
    StableHlo.TRef.unary (.of main_cst_92 : StableHlo.TRef sig ⟨S_, .f32⟩) (.of main_call54_v2 : StableHlo.TRef sig ⟨S7x512x64x64, .f32⟩) (broadcastInDim S7x512x64x64 ![] bcast_S_S7x512x64x64),
    StableHlo.TRef.ternary (.of main_call54_v0 : StableHlo.TRef sig ⟨S7x512x64x64, .i1⟩) (.of main_call54_v1 : StableHlo.TRef sig ⟨S7x512x64x64, .f32⟩) (.of main_call54_v2 : StableHlo.TRef sig ⟨S7x512x64x64, .f32⟩) (.of main_v714 : StableHlo.TRef sig ⟨S7x512x64x64, .f32⟩) select,
    StableHlo.nullary main_cst_93 (constant S_ .f32 0xFF800000#32),
    StableHlo.binary main_v714 main_cst_93 main_v715 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v711 main_v716 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v715 main_v717 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_94 (constant S_ .f32 0xFF800000#32),
    StableHlo.TRef.unary (.of main_v716 : StableHlo.TRef sig ⟨S1x1x7x64, .i1⟩) (.of main_call55_v0 : StableHlo.TRef sig ⟨S7x512x7x64, .i1⟩) (broadcastInDim S7x512x7x64 ![0, 1, 2, 3] bcast_S1x1x7x64_S7x512x7x64_0_1_2_3),
    StableHlo.TRef.unary (.of main_v717 : StableHlo.TRef sig ⟨S7x512x1x64, .f32⟩) (.of main_call55_v1 : StableHlo.TRef sig ⟨S7x512x7x64, .f32⟩) (broadcastInDim S7x512x7x64 ![0, 1, 2, 3] bcast_S7x512x1x64_S7x512x7x64_0_1_2_3),
    StableHlo.TRef.unary (.of main_cst_94 : StableHlo.TRef sig ⟨S_, .f32⟩) (.of main_call55_v2 : StableHlo.TRef sig ⟨S7x512x7x64, .f32⟩) (broadcastInDim S7x512x7x64 ![] bcast_S_S7x512x7x64),
    StableHlo.TRef.ternary (.of main_call55_v0 : StableHlo.TRef sig ⟨S7x512x7x64, .i1⟩) (.of main_call55_v1 : StableHlo.TRef sig ⟨S7x512x7x64, .f32⟩) (.of main_call55_v2 : StableHlo.TRef sig ⟨S7x512x7x64, .f32⟩) (.of main_v718 : StableHlo.TRef sig ⟨S7x512x7x64, .f32⟩) select ]
/-- The buffers those operations write, in order. -/
abbrev ops28_W : List (Ref sig .tc) :=
  [main_call53_v0, main_call53_v1, main_call53_v2, main_call53_v3, main_call53_v4, main_call53_v5, main_call53_v6, main_call53_v7, main_call53_v8, main_call53_c, main_call53_v9, main_call53_v10, main_call53_v11, main_call53_c_0, main_call53_v12, main_call53_v13, main_v685, main_v686, main_v687, main_v688, main_v689, main_v690, main_v691, main_v692, main_v693, main_v694, main_v695, main_v696, main_v697, main_v698, main_v699, main_v700, main_v701, main_v702, main_v703, main_v704, main_v705, main_v706, main_v707, main_v708, main_v709, main_v710, main_v711, main_v712, main_v713, main_cst_92, main_call54_v0, main_call54_v1, main_call54_v2, main_v714, main_cst_93, main_v715, main_v716, main_v717, main_cst_94, main_call55_v0, main_call55_v1, main_call55_v2, main_v718]
/-- Each operation writes its own result buffer and nothing else. -/
theorem ops28_writes : (ops28 : List (HloOp τ sig (Elt F))).Forall fun op => op.writes ⊆ (ops28_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1446 to 1502 of the host part, in order. -/
abbrev ops29 : List (HloOp τ sig (Elt F)) :=
  [ StableHlo.nullary main_cst_95 (constant S_ .f32 0xFF800000#32),
    StableHlo.binary main_v718 main_cst_95 main_v719 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v719 main_v720 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v720 main_v721 rfl shapeCasts_S512x7x7_S25088,
    StableHlo.unary main_v18 main_v722 ((extractStridedSlice S1x1 ![1, 1] · slices_S3x4_S1x1_1_1) : (⟨S3x4, .i32⟩ : BufTy).Contents (Elt F) → (⟨S1x1, .i32⟩ : BufTy).Contents (Elt F)),
    StableHlo.reshape main_v722 main_v723 rfl shapeCasts_S1x1_S_,
    StableHlo.unary main_v23 main_v724 ((extractStridedSlice S1x1 ![1, 1] · slices_S4x4_S1x1_1_1) : (⟨S4x4, .i32⟩ : BufTy).Contents (Elt F) → (⟨S1x1, .i32⟩ : BufTy).Contents (Elt F)),
    StableHlo.reshape main_v724 main_v725 rfl shapeCasts_S1x1_S_,
    StableHlo.binary main_v723 main_v725 main_v726 (minsi : (⟨S_, .i32⟩ : BufTy).Contents (Elt F) → (⟨S_, .i32⟩ : BufTy).Contents (Elt F) → (⟨S_, .i32⟩ : BufTy).Contents (Elt F)),
    StableHlo.unary main_v18 main_v727 ((extractStridedSlice S1x1 ![1, 3] · slices_S3x4_S1x1_1_3) : (⟨S3x4, .i32⟩ : BufTy).Contents (Elt F) → (⟨S1x1, .i32⟩ : BufTy).Contents (Elt F)),
    StableHlo.reshape main_v727 main_v728 rfl shapeCasts_S1x1_S_,
    StableHlo.unary main_v23 main_v729 ((extractStridedSlice S1x1 ![1, 3] · slices_S4x4_S1x1_1_3) : (⟨S4x4, .i32⟩ : BufTy).Contents (Elt F) → (⟨S1x1, .i32⟩ : BufTy).Contents (Elt F)),
    StableHlo.reshape main_v729 main_v730 rfl shapeCasts_S1x1_S_,
    StableHlo.binary main_v728 main_v730 main_v731 (maxsi : (⟨S_, .i32⟩ : BufTy).Contents (Elt F) → (⟨S_, .i32⟩ : BufTy).Contents (Elt F) → (⟨S_, .i32⟩ : BufTy).Contents (Elt F)),
    StableHlo.unary main_v18 main_v732 ((extractStridedSlice S1x1 ![1, 0] · slices_S3x4_S1x1_1_0) : (⟨S3x4, .i32⟩ : BufTy).Contents (Elt F) → (⟨S1x1, .i32⟩ : BufTy).Contents (Elt F)),
    StableHlo.reshape main_v732 main_v733 rfl shapeCasts_S1x1_S_,
    StableHlo.unary main_v23 main_v734 ((extractStridedSlice S1x1 ![1, 0] · slices_S4x4_S1x1_1_0) : (⟨S4x4, .i32⟩ : BufTy).Contents (Elt F) → (⟨S1x1, .i32⟩ : BufTy).Contents (Elt F)),
    StableHlo.reshape main_v734 main_v735 rfl shapeCasts_S1x1_S_,
    StableHlo.binary main_v733 main_v735 main_v736 (minsi : (⟨S_, .i32⟩ : BufTy).Contents (Elt F) → (⟨S_, .i32⟩ : BufTy).Contents (Elt F) → (⟨S_, .i32⟩ : BufTy).Contents (Elt F)),
    StableHlo.unary main_v18 main_v737 ((extractStridedSlice S1x1 ![1, 2] · slices_S3x4_S1x1_1_2) : (⟨S3x4, .i32⟩ : BufTy).Contents (Elt F) → (⟨S1x1, .i32⟩ : BufTy).Contents (Elt F)),
    StableHlo.reshape main_v737 main_v738 rfl shapeCasts_S1x1_S_,
    StableHlo.unary main_v23 main_v739 ((extractStridedSlice S1x1 ![1, 2] · slices_S4x4_S1x1_1_2) : (⟨S4x4, .i32⟩ : BufTy).Contents (Elt F) → (⟨S1x1, .i32⟩ : BufTy).Contents (Elt F)),
    StableHlo.reshape main_v739 main_v740 rfl shapeCasts_S1x1_S_,
    StableHlo.binary main_v738 main_v740 main_v741 (maxsi : (⟨S_, .i32⟩ : BufTy).Contents (Elt F) → (⟨S_, .i32⟩ : BufTy).Contents (Elt F) → (⟨S_, .i32⟩ : BufTy).Contents (Elt F)),
    StableHlo.binary main_v731 main_v726 main_v742 (subi : (⟨S_, .i32⟩ : BufTy).Contents (Elt F) → (⟨S_, .i32⟩ : BufTy).Contents (Elt F) → (⟨S_, .i32⟩ : BufTy).Contents (Elt F)),
    StableHlo.binary main_v741 main_v736 main_v743 (subi : (⟨S_, .i32⟩ : BufTy).Contents (Elt F) → (⟨S_, .i32⟩ : BufTy).Contents (Elt F) → (⟨S_, .i32⟩ : BufTy).Contents (Elt F)),
    StableHlo.nullary main_v744 (iotaInDim S7 32 0),
    StableHlo.nullary main_v745 (iotaInDim S7 32 0),
    StableHlo.unary main_v742 main_v746 (broadcastInDim S7 ![] bcast_S_S7 : (⟨S_, .i32⟩ : BufTy).Contents (Elt F) → (⟨S7, .i32⟩ : BufTy).Contents (Elt F)),
    StableHlo.binary main_v744 main_v746 main_v747 (muli : (⟨S7, .i32⟩ : BufTy).Contents (Elt F) → (⟨S7, .i32⟩ : BufTy).Contents (Elt F) → (⟨S7, .i32⟩ : BufTy).Contents (Elt F)),
    StableHlo.nullary main_c_96 (constantI S_ 32 7#32),
    StableHlo.TRef.unary (.of main_c_96 : StableHlo.TRef sig ⟨S_, .i32⟩) (.of main_call56_v0 : StableHlo.TRef sig ⟨S_, .i32⟩) id,
    StableHlo.TRef.unary (.of main_call56_v0 : StableHlo.TRef sig ⟨S_, .i32⟩) (.of main_call56_v1 : StableHlo.TRef sig ⟨S7, .i32⟩) (broadcastInDim S7 ![] bcast_S_S7),
    StableHlo.TRef.binary (.of main_v747 : StableHlo.TRef sig ⟨S7, .i32⟩) (.of main_call56_v1 : StableHlo.TRef sig ⟨S7, .i32⟩) (.of main_call56_v2 : StableHlo.TRef sig ⟨S7, .i32⟩) Host.divsi,
    StableHlo.TRef.unary (.of main_v747 : StableHlo.TRef sig ⟨S7, .i32⟩) (.of main_call56_v3 : StableHlo.TRef sig ⟨S7, .i32⟩) signi,
    StableHlo.TRef.unary (.of main_call56_v0 : StableHlo.TRef sig ⟨S_, .i32⟩) (.of main_call56_v4 : StableHlo.TRef sig ⟨S_, .i32⟩) signi,
    StableHlo.TRef.unary (.of main_call56_v4 : StableHlo.TRef sig ⟨S_, .i32⟩) (.of main_call56_v5 : StableHlo.TRef sig ⟨S7, .i32⟩) (broadcastInDim S7 ![] bcast_S_S7),
    StableHlo.TRef.binary (.of main_call56_v3 : StableHlo.TRef sig ⟨S7, .i32⟩) (.of main_call56_v5 : StableHlo.TRef sig ⟨S7, .i32⟩) (.of main_call56_v6 : StableHlo.TRef sig ⟨S7, .i1⟩) (cmpi .ne),
    StableHlo.TRef.unary (.of main_call56_v0 : StableHlo.TRef sig ⟨S_, .i32⟩) (.of main_call56_v7 : StableHlo.TRef sig ⟨S7, .i32⟩) (broadcastInDim S7 ![] bcast_S_S7),
    StableHlo.TRef.binary (.of main_v747 : StableHlo.TRef sig ⟨S7, .i32⟩) (.of main_call56_v7 : StableHlo.TRef sig ⟨S7, .i32⟩) (.of main_call56_v8 : StableHlo.TRef sig ⟨S7, .i32⟩) Host.remsi,
    StableHlo.TRef.nullary (.of main_call56_c : StableHlo.TRef sig ⟨S_, .i32⟩) (constantI S_ 32 0#32),
    StableHlo.TRef.unary (.of main_call56_c : StableHlo.TRef sig ⟨S_, .i32⟩) (.of main_call56_v9 : StableHlo.TRef sig ⟨S7, .i32⟩) (broadcastInDim S7 ![] bcast_S_S7),
    StableHlo.TRef.binary (.of main_call56_v8 : StableHlo.TRef sig ⟨S7, .i32⟩) (.of main_call56_v9 : StableHlo.TRef sig ⟨S7, .i32⟩) (.of main_call56_v10 : StableHlo.TRef sig ⟨S7, .i1⟩) (cmpi .ne),
    StableHlo.TRef.binary (.of main_call56_v6 : StableHlo.TRef sig ⟨S7, .i1⟩) (.of main_call56_v10 : StableHlo.TRef sig ⟨S7, .i1⟩) (.of main_call56_v11 : StableHlo.TRef sig ⟨S7, .i1⟩) andi,
    StableHlo.TRef.nullary (.of main_call56_c_0 : StableHlo.TRef sig ⟨S_, .i32⟩) (constantI S_ 32 1#32),
    StableHlo.TRef.unary (.of main_call56_c_0 : StableHlo.TRef sig ⟨S_, .i32⟩) (.of main_call56_v12 : StableHlo.TRef sig ⟨S7, .i32⟩) (broadcastInDim S7 ![] bcast_S_S7),
    StableHlo.TRef.binary (.of main_call56_v2 : StableHlo.TRef sig ⟨S7, .i32⟩) (.of main_call56_v12 : StableHlo.TRef sig ⟨S7, .i32⟩) (.of main_call56_v13 : StableHlo.TRef sig ⟨S7, .i32⟩) subi,
    StableHlo.TRef.ternary (.of main_call56_v11 : StableHlo.TRef sig ⟨S7, .i1⟩) (.of main_call56_v13 : StableHlo.TRef sig ⟨S7, .i32⟩) (.of main_call56_v2 : StableHlo.TRef sig ⟨S7, .i32⟩) (.of main_v748 : StableHlo.TRef sig ⟨S7, .i32⟩) select,
    StableHlo.unary main_v726 main_v749 (broadcastInDim S7 ![] bcast_S_S7 : (⟨S_, .i32⟩ : BufTy).Contents (Elt F) → (⟨S7, .i32⟩ : BufTy).Contents (Elt F)),
    StableHlo.binary main_v749 main_v748 main_v750 (addi : (⟨S7, .i32⟩ : BufTy).Contents (Elt F) → (⟨S7, .i32⟩ : BufTy).Contents (Elt F) → (⟨S7, .i32⟩ : BufTy).Contents (Elt F)),
    StableHlo.nullary main_c_97 (constantI S_ 32 1#32),
    StableHlo.unary main_c_97 main_v751 (broadcastInDim S7 ![] bcast_S_S7 : (⟨S_, .i32⟩ : BufTy).Contents (Elt F) → (⟨S7, .i32⟩ : BufTy).Contents (Elt F)),
    StableHlo.binary main_v744 main_v751 main_v752 (addi : (⟨S7, .i32⟩ : BufTy).Contents (Elt F) → (⟨S7, .i32⟩ : BufTy).Contents (Elt F) → (⟨S7, .i32⟩ : BufTy).Contents (Elt F)),
    StableHlo.unary main_v752 main_v753 (negi : (⟨S7, .i32⟩ : BufTy).Contents (Elt F) → (⟨S7, .i32⟩ : BufTy).Contents (Elt F)),
    StableHlo.unary main_v742 main_v754 (broadcastInDim S7 ![] bcast_S_S7 : (⟨S_, .i32⟩ : BufTy).Contents (Elt F) → (⟨S7, .i32⟩ : BufTy).Contents (Elt F)),
    StableHlo.binary main_v753 main_v754 main_v755 (muli : (⟨S7, .i32⟩ : BufTy).Contents (Elt F) → (⟨S7, .i32⟩ : BufTy).Contents (Elt F) → (⟨S7, .i32⟩ : BufTy).Contents (Elt F)),
    StableHlo.nullary main_c_98 (constantI S_ 32 7#32) ]
/-- The buffers those operations write, in order. -/
abbrev ops29_W : List (Ref sig .tc) :=
  [main_cst_95, main_v719, main_v720, main_v721, main_v722, main_v723, main_v724, main_v725, main_v726, main_v727, main_v728, main_v729, main_v730, main_v731, main_v732, main_v733, main_v734, main_v735, main_v736, main_v737, main_v738, main_v739, main_v740, main_v741, main_v742, main_v743, main_v744, main_v745, main_v746, main_v747, main_c_96, main_call56_v0, main_call56_v1, main_call56_v2, main_call56_v3, main_call56_v4, main_call56_v5, main_call56_v6, main_call56_v7, main_call56_v8, main_call56_c, main_call56_v9, main_call56_v10, main_call56_v11, main_call56_c_0, main_call56_v12, main_call56_v13, main_v748, main_v749, main_v750, main_c_97, main_v751, main_v752, main_v753, main_v754, main_v755, main_c_98]
/-- Each operation writes its own result buffer and nothing else. -/
theorem ops29_writes : (ops29 : List (HloOp τ sig (Elt F))).Forall fun op => op.writes ⊆ (ops29_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1503 to 1550 of the host part, in order. -/
abbrev ops30 : List (HloOp τ sig (Elt F)) :=
  [ StableHlo.TRef.unary (.of main_c_98 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S7, .i32⟩) (broadcastInDim S7 ![] bcast_S_S7),
    StableHlo.TRef.binary (.of main_v755 : StableHlo.TRef sig ⟨S7, .i32⟩) (.of main_call57_v1 : StableHlo.TRef sig ⟨S7, .i32⟩) (.of main_call57_v2 : StableHlo.TRef sig ⟨S7, .i32⟩) Host.divsi,
    StableHlo.TRef.unary (.of main_v755 : StableHlo.TRef sig ⟨S7, .i32⟩) (.of main_call57_v3 : StableHlo.TRef sig ⟨S7, .i32⟩) signi,
    StableHlo.TRef.unary (.of main_call57_v0 : StableHlo.TRef sig ⟨S_, .i32⟩) (.of main_call57_v4 : StableHlo.TRef sig ⟨S_, .i32⟩) signi,
    StableHlo.TRef.unary (.of main_call57_v4 : StableHlo.TRef sig ⟨S_, .i32⟩) (.of main_call57_v5 : StableHlo.TRef sig ⟨S7, .i32⟩) (broadcastInDim S7 ![] bcast_S_S7),
    StableHlo.TRef.binary (.of main_call57_v3 : StableHlo.TRef sig ⟨S7, .i32⟩) (.of main_call57_v5 : StableHlo.TRef sig ⟨S7, .i32⟩) (.of main_call57_v6 : StableHlo.TRef sig ⟨S7, .i1⟩) (cmpi .ne),
    StableHlo.TRef.unary (.of main_call57_v0 : StableHlo.TRef sig ⟨S_, .i32⟩) (.of main_call57_v7 : StableHlo.TRef sig ⟨S7, .i32⟩) (broadcastInDim S7 ![] bcast_S_S7),
    StableHlo.TRef.binary (.of main_v755 : StableHlo.TRef sig ⟨S7, .i32⟩) (.of main_call57_v7 : StableHlo.TRef sig ⟨S7, .i32⟩) (.of main_call57_v8 : StableHlo.TRef sig ⟨S7, .i32⟩) Host.remsi,
    StableHlo.TRef.nullary (.of main_call57_c : StableHlo.TRef sig ⟨S_, .i32⟩) (constantI S_ 32 0#32),
    StableHlo.TRef.unary (.of main_call57_c : StableHlo.TRef sig ⟨S_, .i32⟩) (.of main_call57_v9 : StableHlo.TRef sig ⟨S7, .i32⟩) (broadcastInDim S7 ![] bcast_S_S7),
    StableHlo.TRef.binary (.of main_call57_v8 : StableHlo.TRef sig ⟨S7, .i32⟩) (.of main_call57_v9 : StableHlo.TRef sig ⟨S7, .i32⟩) (.of main_call57_v10 : StableHlo.TRef sig ⟨S7, .i1⟩) (cmpi .ne),
    StableHlo.TRef.binary (.of main_call57_v6 : StableHlo.TRef sig ⟨S7, .i1⟩) (.of main_call57_v10 : StableHlo.TRef sig ⟨S7, .i1⟩) (.of main_call57_v11 : StableHlo.TRef sig ⟨S7, .i1⟩) andi,
    StableHlo.TRef.nullary (.of main_call57_c_0 : StableHlo.TRef sig ⟨S_, .i32⟩) (constantI S_ 32 1#32),
    StableHlo.TRef.unary (.of main_call57_c_0 : StableHlo.TRef sig ⟨S_, .i32⟩) (.of main_call57_v12 : StableHlo.TRef sig ⟨S7, .i32⟩) (broadcastInDim S7 ![] bcast_S_S7),
    StableHlo.TRef.binary (.of main_call57_v2 : StableHlo.TRef sig ⟨S7, .i32⟩) (.of main_call57_v12 : StableHlo.TRef sig ⟨S7, .i32⟩) (.of main_call57_v13 : StableHlo.TRef sig ⟨S7, .i32⟩) subi,
    StableHlo.TRef.ternary (.of main_call57_v11 : StableHlo.TRef sig ⟨S7, .i1⟩) (.of main_call57_v13 : StableHlo.TRef sig ⟨S7, .i32⟩) (.of main_call57_v2 : StableHlo.TRef sig ⟨S7, .i32⟩) (.of main_v756 : StableHlo.TRef sig ⟨S7, .i32⟩) select,
    StableHlo.unary main_v726 main_v757 (broadcastInDim S7 ![] bcast_S_S7 : (⟨S_, .i32⟩ : BufTy).Contents (Elt F) → (⟨S7, .i32⟩ : BufTy).Contents (Elt F)),
    StableHlo.binary main_v757 main_v756 main_v758 (subi : (⟨S7, .i32⟩ : BufTy).Contents (Elt F) → (⟨S7, .i32⟩ : BufTy).Contents (Elt F) → (⟨S7, .i32⟩ : BufTy).Contents (Elt F)),
    StableHlo.unary main_v743 main_v759 (broadcastInDim S7 ![] bcast_S_S7 : (⟨S_, .i32⟩ : BufTy).Contents (Elt F) → (⟨S7, .i32⟩ : BufTy).Contents (Elt F)),
    StableHlo.binary main_v745 main_v759 main_v760 (muli : (⟨S7, .i32⟩ : BufTy).Contents (Elt F) → (⟨S7, .i32⟩ : BufTy).Contents (Elt F) → (⟨S7, .i32⟩ : BufTy).Contents (Elt F)),
    StableHlo.nullary main_c_99 (constantI S_ 32 7#32),
    StableHlo.TRef.unary (.of main_c_99 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S7, .i32⟩) (broadcastInDim S7 ![] bcast_S_S7),
    StableHlo.TRef.binary (.of main_v760 : StableHlo.TRef sig ⟨S7, .i32⟩) (.of main_call58_v1 : StableHlo.TRef sig ⟨S7, .i32⟩) (.of main_call58_v2 : StableHlo.TRef sig ⟨S7, .i32⟩) Host.divsi,
    StableHlo.TRef.unary (.of main_v760 : StableHlo.TRef sig ⟨S7, .i32⟩) (.of main_call58_v3 : StableHlo.TRef sig ⟨S7, .i32⟩) signi,
    StableHlo.TRef.unary (.of main_call58_v0 : StableHlo.TRef sig ⟨S_, .i32⟩) (.of main_call58_v4 : StableHlo.TRef sig ⟨S_, .i32⟩) signi,
    StableHlo.TRef.unary (.of main_call58_v4 : StableHlo.TRef sig ⟨S_, .i32⟩) (.of main_call58_v5 : StableHlo.TRef sig ⟨S7, .i32⟩) (broadcastInDim S7 ![] bcast_S_S7),
    StableHlo.TRef.binary (.of main_call58_v3 : StableHlo.TRef sig ⟨S7, .i32⟩) (.of main_call58_v5 : StableHlo.TRef sig ⟨S7, .i32⟩) (.of main_call58_v6 : StableHlo.TRef sig ⟨S7, .i1⟩) (cmpi .ne),
    StableHlo.TRef.unary (.of main_call58_v0 : StableHlo.TRef sig ⟨S_, .i32⟩) (.of main_call58_v7 : StableHlo.TRef sig ⟨S7, .i32⟩) (broadcastInDim S7 ![] bcast_S_S7),
    StableHlo.TRef.binary (.of main_v760 : StableHlo.TRef sig ⟨S7, .i32⟩) (.of main_call58_v7 : StableHlo.TRef sig ⟨S7, .i32⟩) (.of main_call58_v8 : StableHlo.TRef sig ⟨S7, .i32⟩) Host.remsi,
    StableHlo.TRef.nullary (.of main_call58_c : StableHlo.TRef sig ⟨S_, .i32⟩) (constantI S_ 32 0#32),
    StableHlo.TRef.unary (.of main_call58_c : StableHlo.TRef sig ⟨S_, .i32⟩) (.of main_call58_v9 : StableHlo.TRef sig ⟨S7, .i32⟩) (broadcastInDim S7 ![] bcast_S_S7),
    StableHlo.TRef.binary (.of main_call58_v8 : StableHlo.TRef sig ⟨S7, .i32⟩) (.of main_call58_v9 : StableHlo.TRef sig ⟨S7, .i32⟩) (.of main_call58_v10 : StableHlo.TRef sig ⟨S7, .i1⟩) (cmpi .ne),
    StableHlo.TRef.binary (.of main_call58_v6 : StableHlo.TRef sig ⟨S7, .i1⟩) (.of main_call58_v10 : StableHlo.TRef sig ⟨S7, .i1⟩) (.of main_call58_v11 : StableHlo.TRef sig ⟨S7, .i1⟩) andi,
    StableHlo.TRef.nullary (.of main_call58_c_0 : StableHlo.TRef sig ⟨S_, .i32⟩) (constantI S_ 32 1#32),
    StableHlo.TRef.unary (.of main_call58_c_0 : StableHlo.TRef sig ⟨S_, .i32⟩) (.of main_call58_v12 : StableHlo.TRef sig ⟨S7, .i32⟩) (broadcastInDim S7 ![] bcast_S_S7),
    StableHlo.TRef.binary (.of main_call58_v2 : StableHlo.TRef sig ⟨S7, .i32⟩) (.of main_call58_v12 : StableHlo.TRef sig ⟨S7, .i32⟩) (.of main_call58_v13 : StableHlo.TRef sig ⟨S7, .i32⟩) subi,
    StableHlo.TRef.ternary (.of main_call58_v11 : StableHlo.TRef sig ⟨S7, .i1⟩) (.of main_call58_v13 : StableHlo.TRef sig ⟨S7, .i32⟩) (.of main_call58_v2 : StableHlo.TRef sig ⟨S7, .i32⟩) (.of main_v761 : StableHlo.TRef sig ⟨S7, .i32⟩) select,
    StableHlo.unary main_v736 main_v762 (broadcastInDim S7 ![] bcast_S_S7 : (⟨S_, .i32⟩ : BufTy).Contents (Elt F) → (⟨S7, .i32⟩ : BufTy).Contents (Elt F)),
    StableHlo.binary main_v762 main_v761 main_v763 (addi : (⟨S7, .i32⟩ : BufTy).Contents (Elt F) → (⟨S7, .i32⟩ : BufTy).Contents (Elt F) → (⟨S7, .i32⟩ : BufTy).Contents (Elt F)),
    StableHlo.nullary main_c_100 (constantI S_ 32 1#32),
    StableHlo.unary main_c_100 main_v764 (broadcastInDim S7 ![] bcast_S_S7 : (⟨S_, .i32⟩ : BufTy).Contents (Elt F) → (⟨S7, .i32⟩ : BufTy).Contents (Elt F)),
    StableHlo.binary main_v745 main_v764 main_v765 (addi : (⟨S7, .i32⟩ : BufTy).Contents (Elt F) → (⟨S7, .i32⟩ : BufTy).Contents (Elt F) → (⟨S7, .i32⟩ : BufTy).Contents (Elt F)),
    StableHlo.unary main_v765 main_v766 (negi : (⟨S7, .i32⟩ : BufTy).Contents (Elt F) → (⟨S7, .i32⟩ : BufTy).Contents (Elt F)),
    StableHlo.unary main_v743 main_v767 (broadcastInDim S7 ![] bcast_S_S7 : (⟨S_, .i32⟩ : BufTy).Contents (Elt F) → (⟨S7, .i32⟩ : BufTy).Contents (Elt F)),
    StableHlo.binary main_v766 main_v767 main_v768 (muli : (⟨S7, .i32⟩ : BufTy).Contents (Elt F) → (⟨S7, .i32⟩ : BufTy).Contents (Elt F) → (⟨S7, .i32⟩ : BufTy).Contents (Elt F)),
    StableHlo.nullary main_c_101 (constantI S_ 32 7#32) ]
/-- The buffers those operations write, in order. -/
abbrev ops30_W : List (Ref sig .tc) :=
  [main_call57_v0, main_call57_v1, main_call57_v2, main_call57_v3, main_call57_v4, main_call57_v5, main_call57_v6, main_call57_v7, main_call57_v8, main_call57_c, main_call57_v9, main_call57_v10, main_call57_v11, main_call57_c_0, main_call57_v12, main_call57_v13, main_v756, main_v757, main_v758, main_v759, main_v760, main_c_99, main_call58_v0, main_call58_v1, main_call58_v2, main_call58_v3, main_call58_v4, main_call58_v5, main_call58_v6, main_call58_v7, main_call58_v8, main_call58_c, main_call58_v9, main_call58_v10, main_call58_v11, main_call58_c_0, main_call58_v12, main_call58_v13, main_v761, main_v762, main_v763, main_c_100, main_v764, main_v765, main_v766, main_v767, main_v768, main_c_101]
/-- Each operation writes its own result buffer and nothing else. -/
theorem ops30_writes : (ops30 : List (HloOp τ sig (Elt F))).Forall fun op => op.writes ⊆ (ops30_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1551 to 1609 of the host part, in order. -/
abbrev ops31 : List (HloOp τ sig (Elt F)) :=
  [ StableHlo.TRef.unary (.of main_c_101 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S7, .i32⟩) (broadcastInDim S7 ![] bcast_S_S7),
    StableHlo.TRef.binary (.of main_v768 : StableHlo.TRef sig ⟨S7, .i32⟩) (.of main_call59_v1 : StableHlo.TRef sig ⟨S7, .i32⟩) (.of main_call59_v2 : StableHlo.TRef sig ⟨S7, .i32⟩) Host.divsi,
    StableHlo.TRef.unary (.of main_v768 : StableHlo.TRef sig ⟨S7, .i32⟩) (.of main_call59_v3 : StableHlo.TRef sig ⟨S7, .i32⟩) signi,
    StableHlo.TRef.unary (.of main_call59_v0 : StableHlo.TRef sig ⟨S_, .i32⟩) (.of main_call59_v4 : StableHlo.TRef sig ⟨S_, .i32⟩) signi,
    StableHlo.TRef.unary (.of main_call59_v4 : StableHlo.TRef sig ⟨S_, .i32⟩) (.of main_call59_v5 : StableHlo.TRef sig ⟨S7, .i32⟩) (broadcastInDim S7 ![] bcast_S_S7),
    StableHlo.TRef.binary (.of main_call59_v3 : StableHlo.TRef sig ⟨S7, .i32⟩) (.of main_call59_v5 : StableHlo.TRef sig ⟨S7, .i32⟩) (.of main_call59_v6 : StableHlo.TRef sig ⟨S7, .i1⟩) (cmpi .ne),
    StableHlo.TRef.unary (.of main_call59_v0 : StableHlo.TRef sig ⟨S_, .i32⟩) (.of main_call59_v7 : StableHlo.TRef sig ⟨S7, .i32⟩) (broadcastInDim S7 ![] bcast_S_S7),
    StableHlo.TRef.binary (.of main_v768 : StableHlo.TRef sig ⟨S7, .i32⟩) (.of main_call59_v7 : StableHlo.TRef sig ⟨S7, .i32⟩) (.of main_call59_v8 : StableHlo.TRef sig ⟨S7, .i32⟩) Host.remsi,
    StableHlo.TRef.nullary (.of main_call59_c : StableHlo.TRef sig ⟨S_, .i32⟩) (constantI S_ 32 0#32),
    StableHlo.TRef.unary (.of main_call59_c : StableHlo.TRef sig ⟨S_, .i32⟩) (.of main_call59_v9 : StableHlo.TRef sig ⟨S7, .i32⟩) (broadcastInDim S7 ![] bcast_S_S7),
    StableHlo.TRef.binary (.of main_call59_v8 : StableHlo.TRef sig ⟨S7, .i32⟩) (.of main_call59_v9 : StableHlo.TRef sig ⟨S7, .i32⟩) (.of main_call59_v10 : StableHlo.TRef sig ⟨S7, .i1⟩) (cmpi .ne),
    StableHlo.TRef.binary (.of main_call59_v6 : StableHlo.TRef sig ⟨S7, .i1⟩) (.of main_call59_v10 : StableHlo.TRef sig ⟨S7, .i1⟩) (.of main_call59_v11 : StableHlo.TRef sig ⟨S7, .i1⟩) andi,
    StableHlo.TRef.nullary (.of main_call59_c_0 : StableHlo.TRef sig ⟨S_, .i32⟩) (constantI S_ 32 1#32),
    StableHlo.TRef.unary (.of main_call59_c_0 : StableHlo.TRef sig ⟨S_, .i32⟩) (.of main_call59_v12 : StableHlo.TRef sig ⟨S7, .i32⟩) (broadcastInDim S7 ![] bcast_S_S7),
    StableHlo.TRef.binary (.of main_call59_v2 : StableHlo.TRef sig ⟨S7, .i32⟩) (.of main_call59_v12 : StableHlo.TRef sig ⟨S7, .i32⟩) (.of main_call59_v13 : StableHlo.TRef sig ⟨S7, .i32⟩) subi,
    StableHlo.TRef.ternary (.of main_call59_v11 : StableHlo.TRef sig ⟨S7, .i1⟩) (.of main_call59_v13 : StableHlo.TRef sig ⟨S7, .i32⟩) (.of main_call59_v2 : StableHlo.TRef sig ⟨S7, .i32⟩) (.of main_v769 : StableHlo.TRef sig ⟨S7, .i32⟩) select,
    StableHlo.unary main_v736 main_v770 (broadcastInDim S7 ![] bcast_S_S7 : (⟨S_, .i32⟩ : BufTy).Contents (Elt F) → (⟨S7, .i32⟩ : BufTy).Contents (Elt F)),
    StableHlo.binary main_v770 main_v769 main_v771 (subi : (⟨S7, .i32⟩ : BufTy).Contents (Elt F) → (⟨S7, .i32⟩ : BufTy).Contents (Elt F) → (⟨S7, .i32⟩ : BufTy).Contents (Elt F)),
    StableHlo.nullary main_v772 (iotaInDim S64 32 0),
    StableHlo.nullary main_v773 (iotaInDim S64 32 0),
    StableHlo.unary main_v772 main_v774 (broadcastInDim S1x64 ![1] bcast_S64_S1x64_1 : (⟨S64, .i32⟩ : BufTy).Contents (Elt F) → (⟨S1x64, .i32⟩ : BufTy).Contents (Elt F)),
    StableHlo.unary main_v750 main_v775 (broadcastInDim S7x1 ![0] bcast_S7_S7x1_0 : (⟨S7, .i32⟩ : BufTy).Contents (Elt F) → (⟨S7x1, .i32⟩ : BufTy).Contents (Elt F)),
    StableHlo.unary main_v774 main_v776 (broadcastInDim S7x64 ![0, 1] bcast_S1x64_S7x64_0_1 : (⟨S1x64, .i32⟩ : BufTy).Contents (Elt F) → (⟨S7x64, .i32⟩ : BufTy).Contents (Elt F)),
    StableHlo.unary main_v775 main_v777 (broadcastInDim S7x64 ![0, 1] bcast_S7x1_S7x64_0_1 : (⟨S7x1, .i32⟩ : BufTy).Contents (Elt F) → (⟨S7x64, .i32⟩ : BufTy).Contents (Elt F)),
    StableHlo.binary main_v776 main_v777 main_v778 (cmpi .sge : (⟨S7x64, .i32⟩ : BufTy).Contents (Elt F) → (⟨S7x64, .i32⟩ : BufTy).Contents (Elt F) → (⟨S7x64, .i1⟩ : BufTy).Contents (Elt F)),
    StableHlo.unary main_v772 main_v779 (broadcastInDim S1x64 ![1] bcast_S64_S1x64_1 : (⟨S64, .i32⟩ : BufTy).Contents (Elt F) → (⟨S1x64, .i32⟩ : BufTy).Contents (Elt F)),
    StableHlo.unary main_v758 main_v780 (broadcastInDim S7x1 ![0] bcast_S7_S7x1_0 : (⟨S7, .i32⟩ : BufTy).Contents (Elt F) → (⟨S7x1, .i32⟩ : BufTy).Contents (Elt F)),
    StableHlo.unary main_v779 main_v781 (broadcastInDim S7x64 ![0, 1] bcast_S1x64_S7x64_0_1 : (⟨S1x64, .i32⟩ : BufTy).Contents (Elt F) → (⟨S7x64, .i32⟩ : BufTy).Contents (Elt F)),
    StableHlo.unary main_v780 main_v782 (broadcastInDim S7x64 ![0, 1] bcast_S7x1_S7x64_0_1 : (⟨S7x1, .i32⟩ : BufTy).Contents (Elt F) → (⟨S7x64, .i32⟩ : BufTy).Contents (Elt F)),
    StableHlo.binary main_v781 main_v782 main_v783 (cmpi .slt : (⟨S7x64, .i32⟩ : BufTy).Contents (Elt F) → (⟨S7x64, .i32⟩ : BufTy).Contents (Elt F) → (⟨S7x64, .i1⟩ : BufTy).Contents (Elt F)),
    StableHlo.binary main_v778 main_v783 main_v784 (andi : (⟨S7x64, .i1⟩ : BufTy).Contents (Elt F) → (⟨S7x64, .i1⟩ : BufTy).Contents (Elt F) → (⟨S7x64, .i1⟩ : BufTy).Contents (Elt F)),
    StableHlo.unary main_v773 main_v785 (broadcastInDim S1x64 ![1] bcast_S64_S1x64_1 : (⟨S64, .i32⟩ : BufTy).Contents (Elt F) → (⟨S1x64, .i32⟩ : BufTy).Contents (Elt F)),
    StableHlo.unary main_v763 main_v786 (broadcastInDim S7x1 ![0] bcast_S7_S7x1_0 : (⟨S7, .i32⟩ : BufTy).Contents (Elt F) → (⟨S7x1, .i32⟩ : BufTy).Contents (Elt F)),
    StableHlo.unary main_v785 main_v787 (broadcastInDim S7x64 ![0, 1] bcast_S1x64_S7x64_0_1 : (⟨S1x64, .i32⟩ : BufTy).Contents (Elt F) → (⟨S7x64, .i32⟩ : BufTy).Contents (Elt F)),
    StableHlo.unary main_v786 main_v788 (broadcastInDim S7x64 ![0, 1] bcast_S7x1_S7x64_0_1 : (⟨S7x1, .i32⟩ : BufTy).Contents (Elt F) → (⟨S7x64, .i32⟩ : BufTy).Contents (Elt F)),
    StableHlo.binary main_v787 main_v788 main_v789 (cmpi .sge : (⟨S7x64, .i32⟩ : BufTy).Contents (Elt F) → (⟨S7x64, .i32⟩ : BufTy).Contents (Elt F) → (⟨S7x64, .i1⟩ : BufTy).Contents (Elt F)),
    StableHlo.unary main_v773 main_v790 (broadcastInDim S1x64 ![1] bcast_S64_S1x64_1 : (⟨S64, .i32⟩ : BufTy).Contents (Elt F) → (⟨S1x64, .i32⟩ : BufTy).Contents (Elt F)),
    StableHlo.unary main_v771 main_v791 (broadcastInDim S7x1 ![0] bcast_S7_S7x1_0 : (⟨S7, .i32⟩ : BufTy).Contents (Elt F) → (⟨S7x1, .i32⟩ : BufTy).Contents (Elt F)),
    StableHlo.unary main_v790 main_v792 (broadcastInDim S7x64 ![0, 1] bcast_S1x64_S7x64_0_1 : (⟨S1x64, .i32⟩ : BufTy).Contents (Elt F) → (⟨S7x64, .i32⟩ : BufTy).Contents (Elt F)),
    StableHlo.unary main_v791 main_v793 (broadcastInDim S7x64 ![0, 1] bcast_S7x1_S7x64_0_1 : (⟨S7x1, .i32⟩ : BufTy).Contents (Elt F) → (⟨S7x64, .i32⟩ : BufTy).Contents (Elt F)),
    StableHlo.binary main_v792 main_v793 main_v794 (cmpi .slt : (⟨S7x64, .i32⟩ : BufTy).Contents (Elt F) → (⟨S7x64, .i32⟩ : BufTy).Contents (Elt F) → (⟨S7x64, .i1⟩ : BufTy).Contents (Elt F)),
    StableHlo.binary main_v789 main_v794 main_v795 (andi : (⟨S7x64, .i1⟩ : BufTy).Contents (Elt F) → (⟨S7x64, .i1⟩ : BufTy).Contents (Elt F) → (⟨S7x64, .i1⟩ : BufTy).Contents (Elt F)),
    StableHlo.unary main_v784 main_v796 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v797 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_102 (constant S_ .f32 0xFF800000#32),
    StableHlo.TRef.unary (.of main_v796 : StableHlo.TRef sig ⟨S7x1x64x1, .i1⟩) (.of main_call60_v0 : StableHlo.TRef sig ⟨S7x512x64x64, .i1⟩) (broadcastInDim S7x512x64x64 ![0, 1, 2, 3] bcast_S7x1x64x1_S7x512x64x64_0_1_2_3),
    StableHlo.TRef.unary (.of main_v797 : StableHlo.TRef sig ⟨S1x512x64x64, .f32⟩) (.of main_call60_v1 : StableHlo.TRef sig ⟨S7x512x64x64, .f32⟩) (broadcastInDim S7x512x64x64 ![0, 1, 2, 3] bcast_S1x512x64x64_S7x512x64x64_0_1_2_3),
    StableHlo.TRef.unary (.of main_cst_102 : StableHlo.TRef sig ⟨S_, .f32⟩) (.of main_call60_v2 : StableHlo.TRef sig ⟨S7x512x64x64, .f32⟩) (broadcastInDim S7x512x64x64 ![] bcast_S_S7x512x64x64),
    StableHlo.TRef.ternary (.of main_call60_v0 : StableHlo.TRef sig ⟨S7x512x64x64, .i1⟩) (.of main_call60_v1 : StableHlo.TRef sig ⟨S7x512x64x64, .f32⟩) (.of main_call60_v2 : StableHlo.TRef sig ⟨S7x512x64x64, .f32⟩) (.of main_v798 : StableHlo.TRef sig ⟨S7x512x64x64, .f32⟩) select,
    StableHlo.nullary main_cst_103 (constant S_ .f32 0xFF800000#32),
    StableHlo.binary main_v798 main_cst_103 main_v799 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v795 main_v800 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v799 main_v801 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_104 (constant S_ .f32 0xFF800000#32),
    StableHlo.TRef.unary (.of main_v800 : StableHlo.TRef sig ⟨S1x1x7x64, .i1⟩) (.of main_call61_v0 : StableHlo.TRef sig ⟨S7x512x7x64, .i1⟩) (broadcastInDim S7x512x7x64 ![0, 1, 2, 3] bcast_S1x1x7x64_S7x512x7x64_0_1_2_3),
    StableHlo.TRef.unary (.of main_v801 : StableHlo.TRef sig ⟨S7x512x1x64, .f32⟩) (.of main_call61_v1 : StableHlo.TRef sig ⟨S7x512x7x64, .f32⟩) (broadcastInDim S7x512x7x64 ![0, 1, 2, 3] bcast_S7x512x1x64_S7x512x7x64_0_1_2_3),
    StableHlo.TRef.unary (.of main_cst_104 : StableHlo.TRef sig ⟨S_, .f32⟩) (.of main_call61_v2 : StableHlo.TRef sig ⟨S7x512x7x64, .f32⟩) (broadcastInDim S7x512x7x64 ![] bcast_S_S7x512x7x64),
    StableHlo.TRef.ternary (.of main_call61_v0 : StableHlo.TRef sig ⟨S7x512x7x64, .i1⟩) (.of main_call61_v1 : StableHlo.TRef sig ⟨S7x512x7x64, .f32⟩) (.of main_call61_v2 : StableHlo.TRef sig ⟨S7x512x7x64, .f32⟩) (.of main_v802 : StableHlo.TRef sig ⟨S7x512x7x64, .f32⟩) select ]
/-- The buffers those operations write, in order. -/
abbrev ops31_W : List (Ref sig .tc) :=
  [main_call59_v0, main_call59_v1, main_call59_v2, main_call59_v3, main_call59_v4, main_call59_v5, main_call59_v6, main_call59_v7, main_call59_v8, main_call59_c, main_call59_v9, main_call59_v10, main_call59_v11, main_call59_c_0, main_call59_v12, main_call59_v13, main_v769, main_v770, main_v771, main_v772, main_v773, main_v774, main_v775, main_v776, main_v777, main_v778, main_v779, main_v780, main_v781, main_v782, main_v783, main_v784, main_v785, main_v786, main_v787, main_v788, main_v789, main_v790, main_v791, main_v792, main_v793, main_v794, main_v795, main_v796, main_v797, main_cst_102, main_call60_v0, main_call60_v1, main_call60_v2, main_v798, main_cst_103, main_v799, main_v800, main_v801, main_cst_104, main_call61_v0, main_call61_v1, main_call61_v2, main_v802]
/-- Each operation writes its own result buffer and nothing else. -/
theorem ops31_writes : (ops31 : List (HloOp τ sig (Elt F))).Forall fun op => op.writes ⊆ (ops31_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part4 : List (HloOp τ sig (Elt F)) :=
  ops26 ++ ops27 ++ ops28 ++ ops29 ++ ops30 ++ ops31
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 26 (operations 1282 to 1338): agreement on the 11 buffers live before it gives agreement on the 18 live after it. -/
theorem step26
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v634) = WR (Proc.devRef .tc Cert.ReferenceIdeal.main_v634)) :
    (after (Cert.KernelIdeal.Agree.ops26 (F := F)) WK) (Proc.devRef .tc Cert.KernelIdeal.main_v0) = (after (Cert.ReferenceIdeal.Agree.ops26 (F := F)) WR) (Proc.devRef .tc Cert.ReferenceIdeal.main_v0)
      ∧ (after (Cert.KernelIdeal.Agree.ops26 (F := F)) WK) (Proc.devRef .tc Cert.KernelIdeal.main_v18) = (after (Cert.ReferenceIdeal.Agree.ops26 (F := F)) WR) (Proc.devRef .tc Cert.ReferenceIdeal.main_v18)
      ∧ (after (Cert.KernelIdeal.Agree.ops26 (F := F)) WK) (Proc.devRef .tc Cert.KernelIdeal.main_v23) = (after (Cert.ReferenceIdeal.Agree.ops26 (F := F)) WR) (Proc.devRef .tc Cert.ReferenceIdeal.main_v23)
      ∧ (after (Cert.KernelIdeal.Agree.ops26 (F := F)) WK) (Proc.devRef .tc Cert.KernelIdeal.main_v85) = (after (Cert.ReferenceIdeal.Agree.ops26 (F := F)) WR) (Proc.devRef .tc Cert.ReferenceIdeal.main_v85)
      ∧ (after (Cert.KernelIdeal.Agree.ops26 (F := F)) WK) (Proc.devRef .tc Cert.KernelIdeal.main_v157) = (after (Cert.ReferenceIdeal.Agree.ops26 (F := F)) WR) (Proc.devRef .tc Cert.ReferenceIdeal.main_v157)
      ∧ (after (Cert.KernelIdeal.Agree.ops26 (F := F)) WK) (Proc.devRef .tc Cert.KernelIdeal.main_v229) = (after (Cert.ReferenceIdeal.Agree.ops26 (F := F)) WR) (Proc.devRef .tc Cert.ReferenceIdeal.main_v229)
      ∧ (after (Cert.KernelIdeal.Agree.ops26 (F := F)) WK) (Proc.devRef .tc Cert.KernelIdeal.main_v301) = (after (Cert.ReferenceIdeal.Agree.ops26 (F := F)) WR) (Proc.devRef .tc Cert.ReferenceIdeal.main_v301)
      ∧ (after (Cert.KernelIdeal.Agree.ops26 (F := F)) WK) (Proc.devRef .tc Cert.KernelIdeal.main_v385) = (after (Cert.ReferenceIdeal.Agree.ops26 (F := F)) WR) (Proc.devRef .tc Cert.ReferenceIdeal.main_v385)
      ∧ (after (Cert.KernelIdeal.Agree.ops26 (F := F)) WK) (Proc.devRef .tc Cert.KernelIdeal.main_v469) = (after (Cert.ReferenceIdeal.Agree.ops26 (F := F)) WR) (Proc.devRef .tc Cert.ReferenceIdeal.main_v469)
      ∧ (after (Cert.KernelIdeal.Agree.ops26 (F := F)) WK) (Proc.devRef .tc Cert.KernelIdeal.main_v553) = (after (Cert.ReferenceIdeal.Agree.ops26 (F := F)) WR) (Proc.devRef .tc Cert.ReferenceIdeal.main_v553)
      ∧ (after (Cert.KernelIdeal.Agree.ops26 (F := F)) WK) (Proc.devRef .tc Cert.KernelIdeal.main_v637) = (after (Cert.ReferenceIdeal.Agree.ops26 (F := F)) WR) (Proc.devRef .tc Cert.ReferenceIdeal.main_v637)
      ∧ (after (Cert.KernelIdeal.Agree.ops26 (F := F)) WK) (Proc.devRef .tc Cert.KernelIdeal.main_v642) = (after (Cert.ReferenceIdeal.Agree.ops26 (F := F)) WR) (Proc.devRef .tc Cert.ReferenceIdeal.main_v642)
      ∧ (after (Cert.KernelIdeal.Agree.ops26 (F := F)) WK) (Proc.devRef .tc Cert.KernelIdeal.main_v652) = (after (Cert.ReferenceIdeal.Agree.ops26 (F := F)) WR) (Proc.devRef .tc Cert.ReferenceIdeal.main_v652)
      ∧ (after (Cert.KernelIdeal.Agree.ops26 (F := F)) WK) (Proc.devRef .tc Cert.KernelIdeal.main_v659) = (after (Cert.ReferenceIdeal.Agree.ops26 (F := F)) WR) (Proc.devRef .tc Cert.ReferenceIdeal.main_v659)
      ∧ (after (Cert.KernelIdeal.Agree.ops26 (F := F)) WK) (Proc.devRef .tc Cert.KernelIdeal.main_v661) = (after (Cert.ReferenceIdeal.Agree.ops26 (F := F)) WR) (Proc.devRef .tc Cert.ReferenceIdeal.main_v661)
      ∧ (after (Cert.KernelIdeal.Agree.ops26 (F := F)) WK) (Proc.devRef .tc Cert.KernelIdeal.main_v666) = (after (Cert.ReferenceIdeal.Agree.ops26 (F := F)) WR) (Proc.devRef .tc Cert.ReferenceIdeal.main_v666)
      ∧ (after (Cert.KernelIdeal.Agree.ops26 (F := F)) WK) (Proc.devRef .tc Cert.KernelIdeal.main_v671) = (after (Cert.ReferenceIdeal.Agree.ops26 (F := F)) WR) (Proc.devRef .tc Cert.ReferenceIdeal.main_v671)
      ∧ (after (Cert.KernelIdeal.Agree.ops26 (F := F)) WK) (Proc.devRef .tc Cert.KernelIdeal.main_c_88) = (after (Cert.ReferenceIdeal.Agree.ops26 (F := F)) WR) (Proc.devRef .tc Cert.ReferenceIdeal.main_c_88) := by
  obtain ⟨h_v0, h_v18, h_v23, h_v85, h_v157, h_v229, h_v301, h_v385, h_v469, h_v553, h_v634⟩ := h
  refine ⟨?_, ?_, ?_, ?_, ?_, ?_, ?_, ?_, ?_, ?_, ?_, ?_, ?_, ?_, ?_, ?_, ?_, ?_⟩
  · exact (after_of_writes_sub _ WK Cert.KernelIdeal.Agree.ops26_writes (by decide)).trans (h_v0.trans (after_of_writes_sub _ WR Cert.ReferenceIdeal.Agree.ops26_writes (by decide)).symm)
  · exact (after_of_writes_sub _ WK Cert.KernelIdeal.Agree.ops26_writes (by decide)).trans (h_v18.trans (after_of_writes_sub _ WR Cert.ReferenceIdeal.Agree.ops26_writes (by decide)).symm)
  · exact (after_of_writes_sub _ WK Cert.KernelIdeal.Agree.ops26_writes (by decide)).trans (h_v23.trans (after_of_writes_sub _ WR Cert.ReferenceIdeal.Agree.ops26_writes (by decide)).symm)
  · exact (after_of_writes_sub _ WK Cert.KernelIdeal.Agree.ops26_writes (by decide)).trans (h_v85.trans (after_of_writes_sub _ WR Cert.ReferenceIdeal.Agree.ops26_writes (by decide)).symm)
  · exact (after_of_writes_sub _ WK Cert.KernelIdeal.Agree.ops26_writes (by decide)).trans (h_v157.trans (after_of_writes_sub _ WR Cert.ReferenceIdeal.Agree.ops26_writes (by decide)).symm)
  · exact (after_of_writes_sub _ WK Cert.KernelIdeal.Agree.ops26_writes (by decide)).trans (h_v229.trans (after_of_writes_sub _ WR Cert.ReferenceIdeal.Agree.ops26_writes (by decide)).symm)
  · exact (after_of_writes_sub _ WK Cert.KernelIdeal.Agree.ops26_writes (by decide)).trans (h_v301.trans (after_of_writes_sub _ WR Cert.ReferenceIdeal.Agree.ops26_writes (by decide)).symm)
  · exact (after_of_writes_sub _ WK Cert.KernelIdeal.Agree.ops26_writes (by decide)).trans (h_v385.trans (after_of_writes_sub _ WR Cert.ReferenceIdeal.Agree.ops26_writes (by decide)).symm)
  · exact (after_of_writes_sub _ WK Cert.KernelIdeal.Agree.ops26_writes (by decide)).trans (h_v469.trans (after_of_writes_sub _ WR Cert.ReferenceIdeal.Agree.ops26_writes (by decide)).symm)
  · exact (after_of_writes_sub _ WK Cert.KernelIdeal.Agree.ops26_writes (by decide)).trans (h_v553.trans (after_of_writes_sub _ WR Cert.ReferenceIdeal.Agree.ops26_writes (by decide)).symm)
  · run_agrees [h_v634]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 27 (operations 1339 to 1386): agreement on the 18 buffers live before it gives agreement on the 17 live after it. -/
theorem step27
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v642) = WR (Proc.devRef .tc Cert.ReferenceIdeal.main_v642)
      ∧ WK (Proc.devRef .tc Cert.KernelIdeal.main_v652) = WR (Proc.devRef .tc Cert.ReferenceIdeal.main_v652)
      ∧ WK (Proc.devRef .tc Cert.KernelIdeal.main_v659) = WR (Proc.devRef .tc Cert.ReferenceIdeal.main_v659)
      ∧ WK (Proc.devRef .tc Cert.KernelIdeal.main_v661) = WR (Proc.devRef .tc Cert.ReferenceIdeal.main_v661)
      ∧ WK (Proc.devRef .tc Cert.KernelIdeal.main_v666) = WR (Proc.devRef .tc Cert.ReferenceIdeal.main_v666)
      ∧ WK (Proc.devRef .tc Cert.KernelIdeal.main_v671) = WR (Proc.devRef .tc Cert.ReferenceIdeal.main_v671)
      ∧ WK (Proc.devRef .tc Cert.KernelIdeal.main_c_88) = WR (Proc.devRef .tc Cert.ReferenceIdeal.main_c_88)) :
    (after (Cert.KernelIdeal.Agree.ops27 (F := F)) WK) (Proc.devRef .tc Cert.KernelIdeal.main_v0) = (after (Cert.ReferenceIdeal.Agree.ops27 (F := F)) WR) (Proc.devRef .tc Cert.ReferenceIdeal.main_v0)
      ∧ (after (Cert.KernelIdeal.Agree.ops27 (F := F)) WK) (Proc.devRef .tc Cert.KernelIdeal.main_v18) = (after (Cert.ReferenceIdeal.Agree.ops27 (F := F)) WR) (Proc.devRef .tc Cert.ReferenceIdeal.main_v18)
      ∧ (after (Cert.KernelIdeal.Agree.ops27 (F := F)) WK) (Proc.devRef .tc Cert.KernelIdeal.main_v23) = (after (Cert.ReferenceIdeal.Agree.ops27 (F := F)) WR) (Proc.devRef .tc Cert.ReferenceIdeal.main_v23)
      ∧ (after (Cert.KernelIdeal.Agree.ops27 (F := F)) WK) (Proc.devRef .tc Cert.KernelIdeal.main_v85) = (after (Cert.ReferenceIdeal.Agree.ops27 (F := F)) WR) (Proc.devRef .tc Cert.ReferenceIdeal.main_v85)
      ∧ (after (Cert.KernelIdeal.Agree.ops27 (F := F)) WK) (Proc.devRef .tc Cert.KernelIdeal.main_v157) = (after (Cert.ReferenceIdeal.Agree.ops27 (F := F)) WR) (Proc.devRef .tc Cert.ReferenceIdeal.main_v157)
      ∧ (after (Cert.KernelIdeal.Agree.ops27 (F := F)) WK) (Proc.devRef .tc Cert.KernelIdeal.main_v229) = (after (Cert.ReferenceIdeal.Agree.ops27 (F := F)) WR) (Proc.devRef .tc Cert.ReferenceIdeal.main_v229)
      ∧ (after (Cert.KernelIdeal.Agree.ops27 (F := F)) WK) (Proc.devRef .tc Cert.KernelIdeal.main_v301) = (after (Cert.ReferenceIdeal.Agree.ops27 (F := F)) WR) (Proc.devRef .tc Cert.ReferenceIdeal.main_v301)
      ∧ (after (Cert.KernelIdeal.Agree.ops27 (F := F)) WK) (Proc.devRef .tc Cert.KernelIdeal.main_v385) = (after (Cert.ReferenceIdeal.Agree.ops27 (F := F)) WR) (Proc.devRef .tc Cert.ReferenceIdeal.main_v385)
      ∧ (after (Cert.KernelIdeal.Agree.ops27 (F := F)) WK) (Proc.devRef .tc Cert.KernelIdeal.main_v469) = (after (Cert.ReferenceIdeal.Agree.ops27 (F := F)) WR) (Proc.devRef .tc Cert.ReferenceIdeal.main_v469)
      ∧ (after (Cert.KernelIdeal.Agree.ops27 (F := F)) WK) (Proc.devRef .tc Cert.KernelIdeal.main_v553) = (after (Cert.ReferenceIdeal.Agree.ops27 (F := F)) WR) (Proc.devRef .tc Cert.ReferenceIdeal.main_v553)
      ∧ (after (Cert.KernelIdeal.Agree.ops27 (F := F)) WK) (Proc.devRef .tc Cert.KernelIdeal.main_v637) = (after (Cert.ReferenceIdeal.Agree.ops27 (F := F)) WR) (Proc.devRef .tc Cert.ReferenceIdeal.main_v637)
      ∧ (after (Cert.KernelIdeal.Agree.ops27 (F := F)) WK) (Proc.devRef .tc Cert.KernelIdeal.main_v652) = (after (Cert.ReferenceIdeal.Agree.ops27 (F := F)) WR) (Proc.devRef .tc Cert.ReferenceIdeal.main_v652)
      ∧ (after (Cert.KernelIdeal.Agree.ops27 (F := F)) WK) (Proc.devRef .tc Cert.KernelIdeal.main_v666) = (after (Cert.ReferenceIdeal.Agree.ops27 (F := F)) WR) (Proc.devRef .tc Cert.ReferenceIdeal.main_v666)
      ∧ (after (Cert.KernelIdeal.Agree.ops27 (F := F)) WK) (Proc.devRef .tc Cert.KernelIdeal.main_v674) = (after (Cert.ReferenceIdeal.Agree.ops27 (F := F)) WR) (Proc.devRef .tc Cert.ReferenceIdeal.main_v674)
      ∧ (after (Cert.KernelIdeal.Agree.ops27 (F := F)) WK) (Proc.devRef .tc Cert.KernelIdeal.main_v679) = (after (Cert.ReferenceIdeal.Agree.ops27 (F := F)) WR) (Proc.devRef .tc Cert.ReferenceIdeal.main_v679)
      ∧ (after (Cert.KernelIdeal.Agree.ops27 (F := F)) WK) (Proc.devRef .tc Cert.KernelIdeal.main_v684) = (after (Cert.ReferenceIdeal.Agree.ops27 (F := F)) WR) (Proc.devRef .tc Cert.ReferenceIdeal.main_v684)
      ∧ (after (Cert.KernelIdeal.Agree.ops27 (F := F)) WK) (Proc.devRef .tc Cert.KernelIdeal.main_c_91) = (after (Cert.ReferenceIdeal.Agree.ops27 (F := F)) WR) (Proc.devRef .tc Cert.ReferenceIdeal.main_c_91) := by
  obtain ⟨h_v0, h_v18, h_v23, h_v85, h_v157, h_v229, h_v301, h_v385, h_v469, h_v553, h_v637, h_v642, h_v652, h_v659, h_v661, h_v666, h_v671, h_c_88⟩ := h
  refine ⟨?_, ?_, ?_, ?_, ?_, ?_, ?_, ?_, ?_, ?_, ?_, ?_, ?_, ?_, ?_, ?_, ?_⟩
  · exact (after_of_writes_sub _ WK Cert.KernelIdeal.Agree.ops27_writes (by decide)).trans (h_v0.trans (after_of_writes_sub _ WR Cert.ReferenceIdeal.Agree.ops27_writes (by decide)).symm)
  · exact (after_of_writes_sub _ WK Cert.KernelIdeal.Agree.ops27_writes (by decide)).trans (h_v18.trans (after_of_writes_sub _ WR Cert.ReferenceIdeal.Agree.ops27_writes (by decide)).symm)
  · exact (after_of_writes_sub _ WK Cert.KernelIdeal.Agree.ops27_writes (by decide)).trans (h_v23.trans (after_of_writes_sub _ WR Cert.ReferenceIdeal.Agree.ops27_writes (by decide)).symm)
  · exact (after_of_writes_sub _ WK Cert.KernelIdeal.Agree.ops27_writes (by decide)).trans (h_v85.trans (after_of_writes_sub _ WR Cert.ReferenceIdeal.Agree.ops27_writes (by decide)).symm)
  · exact (after_of_writes_sub _ WK Cert.KernelIdeal.Agree.ops27_writes (by decide)).trans (h_v157.trans (after_of_writes_sub _ WR Cert.ReferenceIdeal.Agree.ops27_writes (by decide)).symm)
  · exact (after_of_writes_sub _ WK Cert.KernelIdeal.Agree.ops27_writes (by decide)).trans (h_v229.trans (after_of_writes_sub _ WR Cert.ReferenceIdeal.Agree.ops27_writes (by decide)).symm)
  · exact (after_of_writes_sub _ WK Cert.KernelIdeal.Agree.ops27_writes (by decide)).trans (h_v301.trans (after_of_writes_sub _ WR Cert.ReferenceIdeal.Agree.ops27_writes (by decide)).symm)
  · exact (after_of_writes_sub _ WK Cert.KernelIdeal.Agree.ops27_writes (by decide)).trans (h_v385.trans (after_of_writes_sub _ WR Cert.ReferenceIdeal.Agree.ops27_writes (by decide)).symm)
  · exact (after_of_writes_sub _ WK Cert.KernelIdeal.Agree.ops27_writes (by decide)).trans (h_v469.trans (after_of_writes_sub _ WR Cert.ReferenceIdeal.Agree.ops27_writes (by decide)).symm)
  · exact (after_of_writes_sub _ WK Cert.KernelIdeal.Agree.ops27_writes (by decide)).trans (h_v553.trans (after_of_writes_sub _ WR Cert.ReferenceIdeal.Agree.ops27_writes (by decide)).symm)
  · exact (after_of_writes_sub _ WK Cert.KernelIdeal.Agree.ops27_writes (by decide)).trans (h_v637.trans (after_of_writes_sub _ WR Cert.ReferenceIdeal.Agree.ops27_writes (by decide)).symm)
  · exact (after_of_writes_sub _ WK Cert.KernelIdeal.Agree.ops27_writes (by decide)).trans (h_v652.trans (after_of_writes_sub _ WR Cert.ReferenceIdeal.Agree.ops27_writes (by decide)).symm)
  · exact (after_of_writes_sub _ WK Cert.KernelIdeal.Agree.ops27_writes (by decide)).trans (h_v666.trans (after_of_writes_sub _ WR Cert.ReferenceIdeal.Agree.ops27_writes (by decide)).symm)
  · run_agrees [h_v642, h_v671, h_c_88]
  · run_agrees [h_v652, h_v659, h_v661]
  · run_agrees [h_v659, h_v661]
  · after_results_simp; first | done | rfl

set_option maxHeartbeats 800000 in
/-- Run 28 (operations 1387 to 1445): agreement on the 17 buffers live before it gives agreement on the 12 live after it. -/
theorem step28
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v652) = WR (Proc.devRef .tc Cert.ReferenceIdeal.main_v652)
      ∧ WK (Proc.devRef .tc Cert.KernelIdeal.main_v666) = WR (Proc.devRef .tc Cert.ReferenceIdeal.main_v666)
      ∧ WK (Proc.devRef .tc Cert.KernelIdeal.main_v674) = WR (Proc.devRef .tc Cert.ReferenceIdeal.main_v674)
      ∧ WK (Proc.devRef .tc Cert.KernelIdeal.main_v679) = WR (Proc.devRef .tc Cert.ReferenceIdeal.main_v679)
      ∧ WK (Proc.devRef .tc Cert.KernelIdeal.main_v684) = WR (Proc.devRef .tc Cert.ReferenceIdeal.main_v684)
      ∧ WK (Proc.devRef .tc Cert.KernelIdeal.main_c_91) = WR (Proc.devRef .tc Cert.ReferenceIdeal.main_c_91)) :
    (after (Cert.KernelIdeal.Agree.ops28 (F := F)) WK) (Proc.devRef .tc Cert.KernelIdeal.main_v0) = (after (Cert.ReferenceIdeal.Agree.ops28 (F := F)) WR) (Proc.devRef .tc Cert.ReferenceIdeal.main_v0)
      ∧ (after (Cert.KernelIdeal.Agree.ops28 (F := F)) WK) (Proc.devRef .tc Cert.KernelIdeal.main_v18) = (after (Cert.ReferenceIdeal.Agree.ops28 (F := F)) WR) (Proc.devRef .tc Cert.ReferenceIdeal.main_v18)
      ∧ (after (Cert.KernelIdeal.Agree.ops28 (F := F)) WK) (Proc.devRef .tc Cert.KernelIdeal.main_v23) = (after (Cert.ReferenceIdeal.Agree.ops28 (F := F)) WR) (Proc.devRef .tc Cert.ReferenceIdeal.main_v23)
      ∧ (after (Cert.KernelIdeal.Agree.ops28 (F := F)) WK) (Proc.devRef .tc Cert.KernelIdeal.main_v85) = (after (Cert.ReferenceIdeal.Agree.ops28 (F := F)) WR) (Proc.devRef .tc Cert.ReferenceIdeal.main_v85)
      ∧ (after (Cert.KernelIdeal.Agree.ops28 (F := F)) WK) (Proc.devRef .tc Cert.KernelIdeal.main_v157) = (after (Cert.ReferenceIdeal.Agree.ops28 (F := F)) WR) (Proc.devRef .tc Cert.ReferenceIdeal.main_v157)
      ∧ (after (Cert.KernelIdeal.Agree.ops28 (F := F)) WK) (Proc.devRef .tc Cert.KernelIdeal.main_v229) = (after (Cert.ReferenceIdeal.Agree.ops28 (F := F)) WR) (Proc.devRef .tc Cert.ReferenceIdeal.main_v229)
      ∧ (after (Cert.KernelIdeal.Agree.ops28 (F := F)) WK) (Proc.devRef .tc Cert.KernelIdeal.main_v301) = (after (Cert.ReferenceIdeal.Agree.ops28 (F := F)) WR) (Proc.devRef .tc Cert.ReferenceIdeal.main_v301)
      ∧ (after (Cert.KernelIdeal.Agree.ops28 (F := F)) WK) (Proc.devRef .tc Cert.KernelIdeal.main_v385) = (after (Cert.ReferenceIdeal.Agree.ops28 (F := F)) WR) (Proc.devRef .tc Cert.ReferenceIdeal.main_v385)
      ∧ (after (Cert.KernelIdeal.Agree.ops28 (F := F)) WK) (Proc.devRef .tc Cert.KernelIdeal.main_v469) = (after (Cert.ReferenceIdeal.Agree.ops28 (F := F)) WR) (Proc.devRef .tc Cert.ReferenceIdeal.main_v469)
      ∧ (after (Cert.KernelIdeal.Agree.ops28 (F := F)) WK) (Proc.devRef .tc Cert.KernelIdeal.main_v553) = (after (Cert.ReferenceIdeal.Agree.ops28 (F := F)) WR) (Proc.devRef .tc Cert.ReferenceIdeal.main_v553)
      ∧ (after (Cert.KernelIdeal.Agree.ops28 (F := F)) WK) (Proc.devRef .tc Cert.KernelIdeal.main_v637) = (after (Cert.ReferenceIdeal.Agree.ops28 (F := F)) WR) (Proc.devRef .tc Cert.ReferenceIdeal.main_v637)
      ∧ (after (Cert.KernelIdeal.Agree.ops28 (F := F)) WK) (Proc.devRef .tc Cert.KernelIdeal.main_v718) = (after (Cert.ReferenceIdeal.Agree.ops28 (F := F)) WR) (Proc.devRef .tc Cert.ReferenceIdeal.main_v718) := by
  obtain ⟨h_v0, h_v18, h_v23, h_v85, h_v157, h_v229, h_v301, h_v385, h_v469, h_v553, h_v637, h_v652, h_v666, h_v674, h_v679, h_v684, h_c_91⟩ := h
  refine ⟨?_, ?_, ?_, ?_, ?_, ?_, ?_, ?_, ?_, ?_, ?_, ?_⟩
  · exact (after_of_writes_sub _ WK Cert.KernelIdeal.Agree.ops28_writes (by decide)).trans (h_v0.trans (after_of_writes_sub _ WR Cert.ReferenceIdeal.Agree.ops28_writes (by decide)).symm)
  · exact (after_of_writes_sub _ WK Cert.KernelIdeal.Agree.ops28_writes (by decide)).trans (h_v18.trans (after_of_writes_sub _ WR Cert.ReferenceIdeal.Agree.ops28_writes (by decide)).symm)
  · exact (after_of_writes_sub _ WK Cert.KernelIdeal.Agree.ops28_writes (by decide)).trans (h_v23.trans (after_of_writes_sub _ WR Cert.ReferenceIdeal.Agree.ops28_writes (by decide)).symm)
  · exact (after_of_writes_sub _ WK Cert.KernelIdeal.Agree.ops28_writes (by decide)).trans (h_v85.trans (after_of_writes_sub _ WR Cert.ReferenceIdeal.Agree.ops28_writes (by decide)).symm)
  · exact (after_of_writes_sub _ WK Cert.KernelIdeal.Agree.ops28_writes (by decide)).trans (h_v157.trans (after_of_writes_sub _ WR Cert.ReferenceIdeal.Agree.ops28_writes (by decide)).symm)
  · exact (after_of_writes_sub _ WK Cert.KernelIdeal.Agree.ops28_writes (by decide)).trans (h_v229.trans (after_of_writes_sub _ WR Cert.ReferenceIdeal.Agree.ops28_writes (by decide)).symm)
  · exact (after_of_writes_sub _ WK Cert.KernelIdeal.Agree.ops28_writes (by decide)).trans (h_v301.trans (after_of_writes_sub _ WR Cert.ReferenceIdeal.Agree.ops28_writes (by decide)).symm)
  · exact (after_of_writes_sub _ WK Cert.KernelIdeal.Agree.ops28_writes (by decide)).trans (h_v385.trans (after_of_writes_sub _ WR Cert.ReferenceIdeal.Agree.ops28_writes (by decide)).symm)
  · exact (after_of_writes_sub _ WK Cert.KernelIdeal.Agree.ops28_writes (by decide)).trans (h_v469.trans (after_of_writes_sub _ WR Cert.ReferenceIdeal.Agree.ops28_writes (by decide)).symm)
  · exact (after_of_writes_sub _ WK Cert.KernelIdeal.Agree.ops28_writes (by decide)).trans (h_v553.trans (after_of_writes_sub _ WR Cert.ReferenceIdeal.Agree.ops28_writes (by decide)).symm)
  · exact (after_of_writes_sub _ WK Cert.KernelIdeal.Agree.ops28_writes (by decide)).trans (h_v637.trans (after_of_writes_sub _ WR Cert.ReferenceIdeal.Agree.ops28_writes (by decide)).symm)
  · run_agrees [h_v0, h_v652, h_v666, h_v674, h_v679, h_v684, h_c_91]

set_option maxHeartbeats 800000 in
/-- Run 29 (operations 1446 to 1502): agreement on the 12 buffers live before it gives agreement on the 19 live after it. -/
theorem step29
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v718) = WR (Proc.devRef .tc Cert.ReferenceIdeal.main_v718)) :
    (after (Cert.KernelIdeal.Agree.ops29 (F := F)) WK) (Proc.devRef .tc Cert.KernelIdeal.main_v0) = (after (Cert.ReferenceIdeal.Agree.ops29 (F := F)) WR) (Proc.devRef .tc Cert.ReferenceIdeal.main_v0)
      ∧ (after (Cert.KernelIdeal.Agree.ops29 (F := F)) WK) (Proc.devRef .tc Cert.KernelIdeal.main_v18) = (after (Cert.ReferenceIdeal.Agree.ops29 (F := F)) WR) (Proc.devRef .tc Cert.ReferenceIdeal.main_v18)
      ∧ (after (Cert.KernelIdeal.Agree.ops29 (F := F)) WK) (Proc.devRef .tc Cert.KernelIdeal.main_v23) = (after (Cert.ReferenceIdeal.Agree.ops29 (F := F)) WR) (Proc.devRef .tc Cert.ReferenceIdeal.main_v23)
      ∧ (after (Cert.KernelIdeal.Agree.ops29 (F := F)) WK) (Proc.devRef .tc Cert.KernelIdeal.main_v85) = (after (Cert.ReferenceIdeal.Agree.ops29 (F := F)) WR) (Proc.devRef .tc Cert.ReferenceIdeal.main_v85)
      ∧ (after (Cert.KernelIdeal.Agree.ops29 (F := F)) WK) (Proc.devRef .tc Cert.KernelIdeal.main_v157) = (after (Cert.ReferenceIdeal.Agree.ops29 (F := F)) WR) (Proc.devRef .tc Cert.ReferenceIdeal.main_v157)
      ∧ (after (Cert.KernelIdeal.Agree.ops29 (F := F)) WK) (Proc.devRef .tc Cert.KernelIdeal.main_v229) = (after (Cert.ReferenceIdeal.Agree.ops29 (F := F)) WR) (Proc.devRef .tc Cert.ReferenceIdeal.main_v229)
      ∧ (after (Cert.KernelIdeal.Agree.ops29 (F := F)) WK) (Proc.devRef .tc Cert.KernelIdeal.main_v301) = (after (Cert.ReferenceIdeal.Agree.ops29 (F := F)) WR) (Proc.devRef .tc Cert.ReferenceIdeal.main_v301)
      ∧ (after (Cert.KernelIdeal.Agree.ops29 (F := F)) WK) (Proc.devRef .tc Cert.KernelIdeal.main_v385) = (after (Cert.ReferenceIdeal.Agree.ops29 (F := F)) WR) (Proc.devRef .tc Cert.ReferenceIdeal.main_v385)
      ∧ (after (Cert.KernelIdeal.Agree.ops29 (F := F)) WK) (Proc.devRef .tc Cert.KernelIdeal.main_v469) = (after (Cert.ReferenceIdeal.Agree.ops29 (F := F)) WR) (Proc.devRef .tc Cert.ReferenceIdeal.main_v469)
      ∧ (after (Cert.KernelIdeal.Agree.ops29 (F := F)) WK) (Proc.devRef .tc Cert.KernelIdeal.main_v553) = (after (Cert.ReferenceIdeal.Agree.ops29 (F := F)) WR) (Proc.devRef .tc Cert.ReferenceIdeal.main_v553)
      ∧ (after (Cert.KernelIdeal.Agree.ops29 (F := F)) WK) (Proc.devRef .tc Cert.KernelIdeal.main_v637) = (after (Cert.ReferenceIdeal.Agree.ops29 (F := F)) WR) (Proc.devRef .tc Cert.ReferenceIdeal.main_v637)
      ∧ (after (Cert.KernelIdeal.Agree.ops29 (F := F)) WK) (Proc.devRef .tc Cert.KernelIdeal.main_v721) = (after (Cert.ReferenceIdeal.Agree.ops29 (F := F)) WR) (Proc.devRef .tc Cert.ReferenceIdeal.main_v721)
      ∧ (after (Cert.KernelIdeal.Agree.ops29 (F := F)) WK) (Proc.devRef .tc Cert.KernelIdeal.main_v726) = (after (Cert.ReferenceIdeal.Agree.ops29 (F := F)) WR) (Proc.devRef .tc Cert.ReferenceIdeal.main_v726)
      ∧ (after (Cert.KernelIdeal.Agree.ops29 (F := F)) WK) (Proc.devRef .tc Cert.KernelIdeal.main_v736) = (after (Cert.ReferenceIdeal.Agree.ops29 (F := F)) WR) (Proc.devRef .tc Cert.ReferenceIdeal.main_v736)
      ∧ (after (Cert.KernelIdeal.Agree.ops29 (F := F)) WK) (Proc.devRef .tc Cert.KernelIdeal.main_v743) = (after (Cert.ReferenceIdeal.Agree.ops29 (F := F)) WR) (Proc.devRef .tc Cert.ReferenceIdeal.main_v743)
      ∧ (after (Cert.KernelIdeal.Agree.ops29 (F := F)) WK) (Proc.devRef .tc Cert.KernelIdeal.main_v745) = (after (Cert.ReferenceIdeal.Agree.ops29 (F := F)) WR) (Proc.devRef .tc Cert.ReferenceIdeal.main_v745)
      ∧ (after (Cert.KernelIdeal.Agree.ops29 (F := F)) WK) (Proc.devRef .tc Cert.KernelIdeal.main_v750) = (after (Cert.ReferenceIdeal.Agree.ops29 (F := F)) WR) (Proc.devRef .tc Cert.ReferenceIdeal.main_v750)
      ∧ (after (Cert.KernelIdeal.Agree.ops29 (F := F)) WK) (Proc.devRef .tc Cert.KernelIdeal.main_v755) = (after (Cert.ReferenceIdeal.Agree.ops29 (F := F)) WR) (Proc.devRef .tc Cert.ReferenceIdeal.main_v755)
      ∧ (after (Cert.KernelIdeal.Agree.ops29 (F := F)) WK) (Proc.devRef .tc Cert.KernelIdeal.main_c_98) = (after (Cert.ReferenceIdeal.Agree.ops29 (F := F)) WR) (Proc.devRef .tc Cert.ReferenceIdeal.main_c_98) := by
  obtain ⟨h_v0, h_v18, h_v23, h_v85, h_v157, h_v229, h_v301, h_v385, h_v469, h_v553, h_v637, h_v718⟩ := h
  refine ⟨?_, ?_, ?_, ?_, ?_, ?_, ?_, ?_, ?_, ?_, ?_, ?_, ?_, ?_, ?_, ?_, ?_, ?_, ?_⟩
  · exact (after_of_writes_sub _ WK Cert.KernelIdeal.Agree.ops29_writes (by decide)).trans (h_v0.trans (after_of_writes_sub _ WR Cert.ReferenceIdeal.Agree.ops29_writes (by decide)).symm)
  · exact (after_of_writes_sub _ WK Cert.KernelIdeal.Agree.ops29_writes (by decide)).trans (h_v18.trans (after_of_writes_sub _ WR Cert.ReferenceIdeal.Agree.ops29_writes (by decide)).symm)
  · exact (after_of_writes_sub _ WK Cert.KernelIdeal.Agree.ops29_writes (by decide)).trans (h_v23.trans (after_of_writes_sub _ WR Cert.ReferenceIdeal.Agree.ops29_writes (by decide)).symm)
  · exact (after_of_writes_sub _ WK Cert.KernelIdeal.Agree.ops29_writes (by decide)).trans (h_v85.trans (after_of_writes_sub _ WR Cert.ReferenceIdeal.Agree.ops29_writes (by decide)).symm)
  · exact (after_of_writes_sub _ WK Cert.KernelIdeal.Agree.ops29_writes (by decide)).trans (h_v157.trans (after_of_writes_sub _ WR Cert.ReferenceIdeal.Agree.ops29_writes (by decide)).symm)
  · exact (after_of_writes_sub _ WK Cert.KernelIdeal.Agree.ops29_writes (by decide)).trans (h_v229.trans (after_of_writes_sub _ WR Cert.ReferenceIdeal.Agree.ops29_writes (by decide)).symm)
  · exact (after_of_writes_sub _ WK Cert.KernelIdeal.Agree.ops29_writes (by decide)).trans (h_v301.trans (after_of_writes_sub _ WR Cert.ReferenceIdeal.Agree.ops29_writes (by decide)).symm)
  · exact (after_of_writes_sub _ WK Cert.KernelIdeal.Agree.ops29_writes (by decide)).trans (h_v385.trans (after_of_writes_sub _ WR Cert.ReferenceIdeal.Agree.ops29_writes (by decide)).symm)
  · exact (after_of_writes_sub _ WK Cert.KernelIdeal.Agree.ops29_writes (by decide)).trans (h_v469.trans (after_of_writes_sub _ WR Cert.ReferenceIdeal.Agree.ops29_writes (by decide)).symm)
  · exact (after_of_writes_sub _ WK Cert.KernelIdeal.Agree.ops29_writes (by decide)).trans (h_v553.trans (after_of_writes_sub _ WR Cert.ReferenceIdeal.Agree.ops29_writes (by decide)).symm)
  · exact (after_of_writes_sub _ WK Cert.KernelIdeal.Agree.ops29_writes (by decide)).trans (h_v637.trans (after_of_writes_sub _ WR Cert.ReferenceIdeal.Agree.ops29_writes (by decide)).symm)
  · run_agrees [h_v718]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 30 (operations 1503 to 1550): agreement on the 19 buffers live before it gives agreement on the 18 live after it. -/
theorem step30
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v726) = WR (Proc.devRef .tc Cert.ReferenceIdeal.main_v726)
      ∧ WK (Proc.devRef .tc Cert.KernelIdeal.main_v736) = WR (Proc.devRef .tc Cert.ReferenceIdeal.main_v736)
      ∧ WK (Proc.devRef .tc Cert.KernelIdeal.main_v743) = WR (Proc.devRef .tc Cert.ReferenceIdeal.main_v743)
      ∧ WK (Proc.devRef .tc Cert.KernelIdeal.main_v745) = WR (Proc.devRef .tc Cert.ReferenceIdeal.main_v745)
      ∧ WK (Proc.devRef .tc Cert.KernelIdeal.main_v750) = WR (Proc.devRef .tc Cert.ReferenceIdeal.main_v750)
      ∧ WK (Proc.devRef .tc Cert.KernelIdeal.main_v755) = WR (Proc.devRef .tc Cert.ReferenceIdeal.main_v755)
      ∧ WK (Proc.devRef .tc Cert.KernelIdeal.main_c_98) = WR (Proc.devRef .tc Cert.ReferenceIdeal.main_c_98)) :
    (after (Cert.KernelIdeal.Agree.ops30 (F := F)) WK) (Proc.devRef .tc Cert.KernelIdeal.main_v0) = (after (Cert.ReferenceIdeal.Agree.ops30 (F := F)) WR) (Proc.devRef .tc Cert.ReferenceIdeal.main_v0)
      ∧ (after (Cert.KernelIdeal.Agree.ops30 (F := F)) WK) (Proc.devRef .tc Cert.KernelIdeal.main_v18) = (after (Cert.ReferenceIdeal.Agree.ops30 (F := F)) WR) (Proc.devRef .tc Cert.ReferenceIdeal.main_v18)
      ∧ (after (Cert.KernelIdeal.Agree.ops30 (F := F)) WK) (Proc.devRef .tc Cert.KernelIdeal.main_v23) = (after (Cert.ReferenceIdeal.Agree.ops30 (F := F)) WR) (Proc.devRef .tc Cert.ReferenceIdeal.main_v23)
      ∧ (after (Cert.KernelIdeal.Agree.ops30 (F := F)) WK) (Proc.devRef .tc Cert.KernelIdeal.main_v85) = (after (Cert.ReferenceIdeal.Agree.ops30 (F := F)) WR) (Proc.devRef .tc Cert.ReferenceIdeal.main_v85)
      ∧ (after (Cert.KernelIdeal.Agree.ops30 (F := F)) WK) (Proc.devRef .tc Cert.KernelIdeal.main_v157) = (after (Cert.ReferenceIdeal.Agree.ops30 (F := F)) WR) (Proc.devRef .tc Cert.ReferenceIdeal.main_v157)
      ∧ (after (Cert.KernelIdeal.Agree.ops30 (F := F)) WK) (Proc.devRef .tc Cert.KernelIdeal.main_v229) = (after (Cert.ReferenceIdeal.Agree.ops30 (F := F)) WR) (Proc.devRef .tc Cert.ReferenceIdeal.main_v229)
      ∧ (after (Cert.KernelIdeal.Agree.ops30 (F := F)) WK) (Proc.devRef .tc Cert.KernelIdeal.main_v301) = (after (Cert.ReferenceIdeal.Agree.ops30 (F := F)) WR) (Proc.devRef .tc Cert.ReferenceIdeal.main_v301)
      ∧ (after (Cert.KernelIdeal.Agree.ops30 (F := F)) WK) (Proc.devRef .tc Cert.KernelIdeal.main_v385) = (after (Cert.ReferenceIdeal.Agree.ops30 (F := F)) WR) (Proc.devRef .tc Cert.ReferenceIdeal.main_v385)
      ∧ (after (Cert.KernelIdeal.Agree.ops30 (F := F)) WK) (Proc.devRef .tc Cert.KernelIdeal.main_v469) = (after (Cert.ReferenceIdeal.Agree.ops30 (F := F)) WR) (Proc.devRef .tc Cert.ReferenceIdeal.main_v469)
      ∧ (after (Cert.KernelIdeal.Agree.ops30 (F := F)) WK) (Proc.devRef .tc Cert.KernelIdeal.main_v553) = (after (Cert.ReferenceIdeal.Agree.ops30 (F := F)) WR) (Proc.devRef .tc Cert.ReferenceIdeal.main_v553)
      ∧ (after (Cert.KernelIdeal.Agree.ops30 (F := F)) WK) (Proc.devRef .tc Cert.KernelIdeal.main_v637) = (after (Cert.ReferenceIdeal.Agree.ops30 (F := F)) WR) (Proc.devRef .tc Cert.ReferenceIdeal.main_v637)
      ∧ (after (Cert.KernelIdeal.Agree.ops30 (F := F)) WK) (Proc.devRef .tc Cert.KernelIdeal.main_v721) = (after (Cert.ReferenceIdeal.Agree.ops30 (F := F)) WR) (Proc.devRef .tc Cert.ReferenceIdeal.main_v721)
      ∧ (after (Cert.KernelIdeal.Agree.ops30 (F := F)) WK) (Proc.devRef .tc Cert.KernelIdeal.main_v736) = (after (Cert.ReferenceIdeal.Agree.ops30 (F := F)) WR) (Proc.devRef .tc Cert.ReferenceIdeal.main_v736)
      ∧ (after (Cert.KernelIdeal.Agree.ops30 (F := F)) WK) (Proc.devRef .tc Cert.KernelIdeal.main_v750) = (after (Cert.ReferenceIdeal.Agree.ops30 (F := F)) WR) (Proc.devRef .tc Cert.ReferenceIdeal.main_v750)
      ∧ (after (Cert.KernelIdeal.Agree.ops30 (F := F)) WK) (Proc.devRef .tc Cert.KernelIdeal.main_v758) = (after (Cert.ReferenceIdeal.Agree.ops30 (F := F)) WR) (Proc.devRef .tc Cert.ReferenceIdeal.main_v758)
      ∧ (after (Cert.KernelIdeal.Agree.ops30 (F := F)) WK) (Proc.devRef .tc Cert.KernelIdeal.main_v763) = (after (Cert.ReferenceIdeal.Agree.ops30 (F := F)) WR) (Proc.devRef .tc Cert.ReferenceIdeal.main_v763)
      ∧ (after (Cert.KernelIdeal.Agree.ops30 (F := F)) WK) (Proc.devRef .tc Cert.KernelIdeal.main_v768) = (after (Cert.ReferenceIdeal.Agree.ops30 (F := F)) WR) (Proc.devRef .tc Cert.ReferenceIdeal.main_v768)
      ∧ (after (Cert.KernelIdeal.Agree.ops30 (F := F)) WK) (Proc.devRef .tc Cert.KernelIdeal.main_c_101) = (after (Cert.ReferenceIdeal.Agree.ops30 (F := F)) WR) (Proc.devRef .tc Cert.ReferenceIdeal.main_c_101) := by
  obtain ⟨h_v0, h_v18, h_v23, h_v85, h_v157, h_v229, h_v301, h_v385, h_v469, h_v553, h_v637, h_v721, h_v726, h_v736, h_v743, h_v745, h_v750, h_v755, h_c_98⟩ := h
  refine ⟨?_, ?_, ?_, ?_, ?_, ?_, ?_, ?_, ?_, ?_, ?_, ?_, ?_, ?_, ?_, ?_, ?_, ?_⟩
  · exact (after_of_writes_sub _ WK Cert.KernelIdeal.Agree.ops30_writes (by decide)).trans (h_v0.trans (after_of_writes_sub _ WR Cert.ReferenceIdeal.Agree.ops30_writes (by decide)).symm)
  · exact (after_of_writes_sub _ WK Cert.KernelIdeal.Agree.ops30_writes (by decide)).trans (h_v18.trans (after_of_writes_sub _ WR Cert.ReferenceIdeal.Agree.ops30_writes (by decide)).symm)
  · exact (after_of_writes_sub _ WK Cert.KernelIdeal.Agree.ops30_writes (by decide)).trans (h_v23.trans (after_of_writes_sub _ WR Cert.ReferenceIdeal.Agree.ops30_writes (by decide)).symm)
  · exact (after_of_writes_sub _ WK Cert.KernelIdeal.Agree.ops30_writes (by decide)).trans (h_v85.trans (after_of_writes_sub _ WR Cert.ReferenceIdeal.Agree.ops30_writes (by decide)).symm)
  · exact (after_of_writes_sub _ WK Cert.KernelIdeal.Agree.ops30_writes (by decide)).trans (h_v157.trans (after_of_writes_sub _ WR Cert.ReferenceIdeal.Agree.ops30_writes (by decide)).symm)
  · exact (after_of_writes_sub _ WK Cert.KernelIdeal.Agree.ops30_writes (by decide)).trans (h_v229.trans (after_of_writes_sub _ WR Cert.ReferenceIdeal.Agree.ops30_writes (by decide)).symm)
  · exact (after_of_writes_sub _ WK Cert.KernelIdeal.Agree.ops30_writes (by decide)).trans (h_v301.trans (after_of_writes_sub _ WR Cert.ReferenceIdeal.Agree.ops30_writes (by decide)).symm)
  · exact (after_of_writes_sub _ WK Cert.KernelIdeal.Agree.ops30_writes (by decide)).trans (h_v385.trans (after_of_writes_sub _ WR Cert.ReferenceIdeal.Agree.ops30_writes (by decide)).symm)
  · exact (after_of_writes_sub _ WK Cert.KernelIdeal.Agree.ops30_writes (by decide)).trans (h_v469.trans (after_of_writes_sub _ WR Cert.ReferenceIdeal.Agree.ops30_writes (by decide)).symm)
  · exact (after_of_writes_sub _ WK Cert.KernelIdeal.Agree.ops30_writes (by decide)).trans (h_v553.trans (after_of_writes_sub _ WR Cert.ReferenceIdeal.Agree.ops30_writes (by decide)).symm)
  · exact (after_of_writes_sub _ WK Cert.KernelIdeal.Agree.ops30_writes (by decide)).trans (h_v637.trans (after_of_writes_sub _ WR Cert.ReferenceIdeal.Agree.ops30_writes (by decide)).symm)
  · exact (after_of_writes_sub _ WK Cert.KernelIdeal.Agree.ops30_writes (by decide)).trans (h_v721.trans (after_of_writes_sub _ WR Cert.ReferenceIdeal.Agree.ops30_writes (by decide)).symm)
  · exact (after_of_writes_sub _ WK Cert.KernelIdeal.Agree.ops30_writes (by decide)).trans (h_v736.trans (after_of_writes_sub _ WR Cert.ReferenceIdeal.Agree.ops30_writes (by decide)).symm)
  · exact (after_of_writes_sub _ WK Cert.KernelIdeal.Agree.ops30_writes (by decide)).trans (h_v750.trans (after_of_writes_sub _ WR Cert.ReferenceIdeal.Agree.ops30_writes (by decide)).symm)
  · run_agrees [h_v726, h_v755, h_c_98]
  · run_agrees [h_v736, h_v743, h_v745]
  · run_agrees [h_v743, h_v745]
  · after_results_simp; first | done | rfl

set_option maxHeartbeats 800000 in
/-- Run 31 (operations 1551 to 1609): agreement on the 18 buffers live before it gives agreement on the 13 live after it. -/
theorem step31
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v736) = WR (Proc.devRef .tc Cert.ReferenceIdeal.main_v736)
      ∧ WK (Proc.devRef .tc Cert.KernelIdeal.main_v750) = WR (Proc.devRef .tc Cert.ReferenceIdeal.main_v750)
      ∧ WK (Proc.devRef .tc Cert.KernelIdeal.main_v758) = WR (Proc.devRef .tc Cert.ReferenceIdeal.main_v758)
      ∧ WK (Proc.devRef .tc Cert.KernelIdeal.main_v763) = WR (Proc.devRef .tc Cert.ReferenceIdeal.main_v763)
      ∧ WK (Proc.devRef .tc Cert.KernelIdeal.main_v768) = WR (Proc.devRef .tc Cert.ReferenceIdeal.main_v768)
      ∧ WK (Proc.devRef .tc Cert.KernelIdeal.main_c_101) = WR (Proc.devRef .tc Cert.ReferenceIdeal.main_c_101)) :
    (after (Cert.KernelIdeal.Agree.ops31 (F := F)) WK) (Proc.devRef .tc Cert.KernelIdeal.main_v0) = (after (Cert.ReferenceIdeal.Agree.ops31 (F := F)) WR) (Proc.devRef .tc Cert.ReferenceIdeal.main_v0)
      ∧ (after (Cert.KernelIdeal.Agree.ops31 (F := F)) WK) (Proc.devRef .tc Cert.KernelIdeal.main_v18) = (after (Cert.ReferenceIdeal.Agree.ops31 (F := F)) WR) (Proc.devRef .tc Cert.ReferenceIdeal.main_v18)
      ∧ (after (Cert.KernelIdeal.Agree.ops31 (F := F)) WK) (Proc.devRef .tc Cert.KernelIdeal.main_v23) = (after (Cert.ReferenceIdeal.Agree.ops31 (F := F)) WR) (Proc.devRef .tc Cert.ReferenceIdeal.main_v23)
      ∧ (after (Cert.KernelIdeal.Agree.ops31 (F := F)) WK) (Proc.devRef .tc Cert.KernelIdeal.main_v85) = (after (Cert.ReferenceIdeal.Agree.ops31 (F := F)) WR) (Proc.devRef .tc Cert.ReferenceIdeal.main_v85)
      ∧ (after (Cert.KernelIdeal.Agree.ops31 (F := F)) WK) (Proc.devRef .tc Cert.KernelIdeal.main_v157) = (after (Cert.ReferenceIdeal.Agree.ops31 (F := F)) WR) (Proc.devRef .tc Cert.ReferenceIdeal.main_v157)
      ∧ (after (Cert.KernelIdeal.Agree.ops31 (F := F)) WK) (Proc.devRef .tc Cert.KernelIdeal.main_v229) = (after (Cert.ReferenceIdeal.Agree.ops31 (F := F)) WR) (Proc.devRef .tc Cert.ReferenceIdeal.main_v229)
      ∧ (after (Cert.KernelIdeal.Agree.ops31 (F := F)) WK) (Proc.devRef .tc Cert.KernelIdeal.main_v301) = (after (Cert.ReferenceIdeal.Agree.ops31 (F := F)) WR) (Proc.devRef .tc Cert.ReferenceIdeal.main_v301)
      ∧ (after (Cert.KernelIdeal.Agree.ops31 (F := F)) WK) (Proc.devRef .tc Cert.KernelIdeal.main_v385) = (after (Cert.ReferenceIdeal.Agree.ops31 (F := F)) WR) (Proc.devRef .tc Cert.ReferenceIdeal.main_v385)
      ∧ (after (Cert.KernelIdeal.Agree.ops31 (F := F)) WK) (Proc.devRef .tc Cert.KernelIdeal.main_v469) = (after (Cert.ReferenceIdeal.Agree.ops31 (F := F)) WR) (Proc.devRef .tc Cert.ReferenceIdeal.main_v469)
      ∧ (after (Cert.KernelIdeal.Agree.ops31 (F := F)) WK) (Proc.devRef .tc Cert.KernelIdeal.main_v553) = (after (Cert.ReferenceIdeal.Agree.ops31 (F := F)) WR) (Proc.devRef .tc Cert.ReferenceIdeal.main_v553)
      ∧ (after (Cert.KernelIdeal.Agree.ops31 (F := F)) WK) (Proc.devRef .tc Cert.KernelIdeal.main_v637) = (after (Cert.ReferenceIdeal.Agree.ops31 (F := F)) WR) (Proc.devRef .tc Cert.ReferenceIdeal.main_v637)
      ∧ (after (Cert.KernelIdeal.Agree.ops31 (F := F)) WK) (Proc.devRef .tc Cert.KernelIdeal.main_v721) = (after (Cert.ReferenceIdeal.Agree.ops31 (F := F)) WR) (Proc.devRef .tc Cert.ReferenceIdeal.main_v721)
      ∧ (after (Cert.KernelIdeal.Agree.ops31 (F := F)) WK) (Proc.devRef .tc Cert.KernelIdeal.main_v802) = (after (Cert.ReferenceIdeal.Agree.ops31 (F := F)) WR) (Proc.devRef .tc Cert.ReferenceIdeal.main_v802) := by
  obtain ⟨h_v0, h_v18, h_v23, h_v85, h_v157, h_v229, h_v301, h_v385, h_v469, h_v553, h_v637, h_v721, h_v736, h_v750, h_v758, h_v763, h_v768, h_c_101⟩ := h
  refine ⟨?_, ?_, ?_, ?_, ?_, ?_, ?_, ?_, ?_, ?_, ?_, ?_, ?_⟩
  · exact (after_of_writes_sub _ WK Cert.KernelIdeal.Agree.ops31_writes (by decide)).trans (h_v0.trans (after_of_writes_sub _ WR Cert.ReferenceIdeal.Agree.ops31_writes (by decide)).symm)
  · exact (after_of_writes_sub _ WK Cert.KernelIdeal.Agree.ops31_writes (by decide)).trans (h_v18.trans (after_of_writes_sub _ WR Cert.ReferenceIdeal.Agree.ops31_writes (by decide)).symm)
  · exact (after_of_writes_sub _ WK Cert.KernelIdeal.Agree.ops31_writes (by decide)).trans (h_v23.trans (after_of_writes_sub _ WR Cert.ReferenceIdeal.Agree.ops31_writes (by decide)).symm)
  · exact (after_of_writes_sub _ WK Cert.KernelIdeal.Agree.ops31_writes (by decide)).trans (h_v85.trans (after_of_writes_sub _ WR Cert.ReferenceIdeal.Agree.ops31_writes (by decide)).symm)
  · exact (after_of_writes_sub _ WK Cert.KernelIdeal.Agree.ops31_writes (by decide)).trans (h_v157.trans (after_of_writes_sub _ WR Cert.ReferenceIdeal.Agree.ops31_writes (by decide)).symm)
  · exact (after_of_writes_sub _ WK Cert.KernelIdeal.Agree.ops31_writes (by decide)).trans (h_v229.trans (after_of_writes_sub _ WR Cert.ReferenceIdeal.Agree.ops31_writes (by decide)).symm)
  · exact (after_of_writes_sub _ WK Cert.KernelIdeal.Agree.ops31_writes (by decide)).trans (h_v301.trans (after_of_writes_sub _ WR Cert.ReferenceIdeal.Agree.ops31_writes (by decide)).symm)
  · exact (after_of_writes_sub _ WK Cert.KernelIdeal.Agree.ops31_writes (by decide)).trans (h_v385.trans (after_of_writes_sub _ WR Cert.ReferenceIdeal.Agree.ops31_writes (by decide)).symm)
  · exact (after_of_writes_sub _ WK Cert.KernelIdeal.Agree.ops31_writes (by decide)).trans (h_v469.trans (after_of_writes_sub _ WR Cert.ReferenceIdeal.Agree.ops31_writes (by decide)).symm)
  · exact (after_of_writes_sub _ WK Cert.KernelIdeal.Agree.ops31_writes (by decide)).trans (h_v553.trans (after_of_writes_sub _ WR Cert.ReferenceIdeal.Agree.ops31_writes (by decide)).symm)
  · exact (after_of_writes_sub _ WK Cert.KernelIdeal.Agree.ops31_writes (by decide)).trans (h_v637.trans (after_of_writes_sub _ WR Cert.ReferenceIdeal.Agree.ops31_writes (by decide)).symm)
  · exact (after_of_writes_sub _ WK Cert.KernelIdeal.Agree.ops31_writes (by decide)).trans (h_v721.trans (after_of_writes_sub _ WR Cert.ReferenceIdeal.Agree.ops31_writes (by decide)).symm)
  · run_agrees [h_v0, h_v736, h_v750, h_v758, h_v763, h_v768, h_c_101]

/-- The whole part: agreement on the 11 buffers live before it gives agreement on the 13 live after it. -/
theorem part4
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v634) = WR (Proc.devRef .tc Cert.ReferenceIdeal.main_v634)) :
    (after (Cert.KernelIdeal.Agree.part4 (F := F)) WK) (Proc.devRef .tc Cert.KernelIdeal.main_v0) = (after (Cert.ReferenceIdeal.Agree.part4 (F := F)) WR) (Proc.devRef .tc Cert.ReferenceIdeal.main_v0)
      ∧ (after (Cert.KernelIdeal.Agree.part4 (F := F)) WK) (Proc.devRef .tc Cert.KernelIdeal.main_v18) = (after (Cert.ReferenceIdeal.Agree.part4 (F := F)) WR) (Proc.devRef .tc Cert.ReferenceIdeal.main_v18)
      ∧ (after (Cert.KernelIdeal.Agree.part4 (F := F)) WK) (Proc.devRef .tc Cert.KernelIdeal.main_v23) = (after (Cert.ReferenceIdeal.Agree.part4 (F := F)) WR) (Proc.devRef .tc Cert.ReferenceIdeal.main_v23)
      ∧ (after (Cert.KernelIdeal.Agree.part4 (F := F)) WK) (Proc.devRef .tc Cert.KernelIdeal.main_v85) = (after (Cert.ReferenceIdeal.Agree.part4 (F := F)) WR) (Proc.devRef .tc Cert.ReferenceIdeal.main_v85)
      ∧ (after (Cert.KernelIdeal.Agree.part4 (F := F)) WK) (Proc.devRef .tc Cert.KernelIdeal.main_v157) = (after (Cert.ReferenceIdeal.Agree.part4 (F := F)) WR) (Proc.devRef .tc Cert.ReferenceIdeal.main_v157)
      ∧ (after (Cert.KernelIdeal.Agree.part4 (F := F)) WK) (Proc.devRef .tc Cert.KernelIdeal.main_v229) = (after (Cert.ReferenceIdeal.Agree.part4 (F := F)) WR) (Proc.devRef .tc Cert.ReferenceIdeal.main_v229)
      ∧ (after (Cert.KernelIdeal.Agree.part4 (F := F)) WK) (Proc.devRef .tc Cert.KernelIdeal.main_v301) = (after (Cert.ReferenceIdeal.Agree.part4 (F := F)) WR) (Proc.devRef .tc Cert.ReferenceIdeal.main_v301)
      ∧ (after (Cert.KernelIdeal.Agree.part4 (F := F)) WK) (Proc.devRef .tc Cert.KernelIdeal.main_v385) = (after (Cert.ReferenceIdeal.Agree.part4 (F := F)) WR) (Proc.devRef .tc Cert.ReferenceIdeal.main_v385)
      ∧ (after (Cert.KernelIdeal.Agree.part4 (F := F)) WK) (Proc.devRef .tc Cert.KernelIdeal.main_v469) = (after (Cert.ReferenceIdeal.Agree.part4 (F := F)) WR) (Proc.devRef .tc Cert.ReferenceIdeal.main_v469)
      ∧ (after (Cert.KernelIdeal.Agree.part4 (F := F)) WK) (Proc.devRef .tc Cert.KernelIdeal.main_v553) = (after (Cert.ReferenceIdeal.Agree.part4 (F := F)) WR) (Proc.devRef .tc Cert.ReferenceIdeal.main_v553)
      ∧ (after (Cert.KernelIdeal.Agree.part4 (F := F)) WK) (Proc.devRef .tc Cert.KernelIdeal.main_v637) = (after (Cert.ReferenceIdeal.Agree.part4 (F := F)) WR) (Proc.devRef .tc Cert.ReferenceIdeal.main_v637)
      ∧ (after (Cert.KernelIdeal.Agree.part4 (F := F)) WK) (Proc.devRef .tc Cert.KernelIdeal.main_v721) = (after (Cert.ReferenceIdeal.Agree.part4 (F := F)) WR) (Proc.devRef .tc Cert.ReferenceIdeal.main_v721)
      ∧ (after (Cert.KernelIdeal.Agree.part4 (F := F)) WK) (Proc.devRef .tc Cert.KernelIdeal.main_v802) = (after (Cert.ReferenceIdeal.Agree.part4 (F := F)) WR) (Proc.devRef .tc Cert.ReferenceIdeal.main_v802) := by
  have s26 := step26 WK WR h
  have s27 := step27 (after (Cert.KernelIdeal.Agree.ops26 (F := F)) WK) (after (Cert.ReferenceIdeal.Agree.ops26 (F := F)) WR) s26
  have s28 := step28 (after (Cert.KernelIdeal.Agree.ops27 (F := F)) (after (Cert.KernelIdeal.Agree.ops26 (F := F)) WK)) (after (Cert.ReferenceIdeal.Agree.ops27 (F := F)) (after (Cert.ReferenceIdeal.Agree.ops26 (F := F)) WR)) s27
  have s29 := step29 (after (Cert.KernelIdeal.Agree.ops28 (F := F)) (after (Cert.KernelIdeal.Agree.ops27 (F := F)) (after (Cert.KernelIdeal.Agree.ops26 (F := F)) WK))) (after (Cert.ReferenceIdeal.Agree.ops28 (F := F)) (after (Cert.ReferenceIdeal.Agree.ops27 (F := F)) (after (Cert.ReferenceIdeal.Agree.ops26 (F := F)) WR))) s28
  have s30 := step30 (after (Cert.KernelIdeal.Agree.ops29 (F := F)) (after (Cert.KernelIdeal.Agree.ops28 (F := F)) (after (Cert.KernelIdeal.Agree.ops27 (F := F)) (after (Cert.KernelIdeal.Agree.ops26 (F := F)) WK)))) (after (Cert.ReferenceIdeal.Agree.ops29 (F := F)) (after (Cert.ReferenceIdeal.Agree.ops28 (F := F)) (after (Cert.ReferenceIdeal.Agree.ops27 (F := F)) (after (Cert.ReferenceIdeal.Agree.ops26 (F := F)) WR)))) s29
  have s31 := step31 (after (Cert.KernelIdeal.Agree.ops30 (F := F)) (after (Cert.KernelIdeal.Agree.ops29 (F := F)) (after (Cert.KernelIdeal.Agree.ops28 (F := F)) (after (Cert.KernelIdeal.Agree.ops27 (F := F)) (after (Cert.KernelIdeal.Agree.ops26 (F := F)) WK))))) (after (Cert.ReferenceIdeal.Agree.ops30 (F := F)) (after (Cert.ReferenceIdeal.Agree.ops29 (F := F)) (after (Cert.ReferenceIdeal.Agree.ops28 (F := F)) (after (Cert.ReferenceIdeal.Agree.ops27 (F := F)) (after (Cert.ReferenceIdeal.Agree.ops26 (F := F)) WR))))) s30
  simp only [Cert.KernelIdeal.Agree.part4, Cert.ReferenceIdeal.Agree.part4, after_append]
  exact s31

end Cert.Agree

end
-- ==== Proof.Agree.Part5.lean ====
/- The kernel's program and the reference compute the pooled feature matrix by the same 2605 operations.  This part is
  operations 1610 to 1937 (the generated stretches 124 to 147), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 1610 to 1666 of the host part, in order. -/
abbrev ops32 : List (HloOp τ sig (Elt F)) :=
  [ StableHlo.nullary main_cst_105 (constant S_ .f32 0xFF800000#32),
    StableHlo.binary main_v802 main_cst_105 main_v803 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v803 main_v804 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v804 main_v805 rfl shapeCasts_S512x7x7_S25088,
    StableHlo.unary main_v18 main_v806 ((extractStridedSlice S1x1 ![1, 1] · slices_S3x4_S1x1_1_1) : (⟨S3x4, .i32⟩ : BufTy).Contents (Elt F) → (⟨S1x1, .i32⟩ : BufTy).Contents (Elt F)),
    StableHlo.reshape main_v806 main_v807 rfl shapeCasts_S1x1_S_,
    StableHlo.unary main_v23 main_v808 ((extractStridedSlice S1x1 ![2, 1] · slices_S4x4_S1x1_2_1) : (⟨S4x4, .i32⟩ : BufTy).Contents (Elt F) → (⟨S1x1, .i32⟩ : BufTy).Contents (Elt F)),
    StableHlo.reshape main_v808 main_v809 rfl shapeCasts_S1x1_S_,
    StableHlo.binary main_v807 main_v809 main_v810 (minsi : (⟨S_, .i32⟩ : BufTy).Contents (Elt F) → (⟨S_, .i32⟩ : BufTy).Contents (Elt F) → (⟨S_, .i32⟩ : BufTy).Contents (Elt F)),
    StableHlo.unary main_v18 main_v811 ((extractStridedSlice S1x1 ![1, 3] · slices_S3x4_S1x1_1_3) : (⟨S3x4, .i32⟩ : BufTy).Contents (Elt F) → (⟨S1x1, .i32⟩ : BufTy).Contents (Elt F)),
    StableHlo.reshape main_v811 main_v812 rfl shapeCasts_S1x1_S_,
    StableHlo.unary main_v23 main_v813 ((extractStridedSlice S1x1 ![2, 3] · slices_S4x4_S1x1_2_3) : (⟨S4x4, .i32⟩ : BufTy).Contents (Elt F) → (⟨S1x1, .i32⟩ : BufTy).Contents (Elt F)),
    StableHlo.reshape main_v813 main_v814 rfl shapeCasts_S1x1_S_,
    StableHlo.binary main_v812 main_v814 main_v815 (maxsi : (⟨S_, .i32⟩ : BufTy).Contents (Elt F) → (⟨S_, .i32⟩ : BufTy).Contents (Elt F) → (⟨S_, .i32⟩ : BufTy).Contents (Elt F)),
    StableHlo.unary main_v18 main_v816 ((extractStridedSlice S1x1 ![1, 0] · slices_S3x4_S1x1_1_0) : (⟨S3x4, .i32⟩ : BufTy).Contents (Elt F) → (⟨S1x1, .i32⟩ : BufTy).Contents (Elt F)),
    StableHlo.reshape main_v816 main_v817 rfl shapeCasts_S1x1_S_,
    StableHlo.unary main_v23 main_v818 ((extractStridedSlice S1x1 ![2, 0] · slices_S4x4_S1x1_2_0) : (⟨S4x4, .i32⟩ : BufTy).Contents (Elt F) → (⟨S1x1, .i32⟩ : BufTy).Contents (Elt F)),
    StableHlo.reshape main_v818 main_v819 rfl shapeCasts_S1x1_S_,
    StableHlo.binary main_v817 main_v819 main_v820 (minsi : (⟨S_, .i32⟩ : BufTy).Contents (Elt F) → (⟨S_, .i32⟩ : BufTy).Contents (Elt F) → (⟨S_, .i32⟩ : BufTy).Contents (Elt F)),
    StableHlo.unary main_v18 main_v821 ((extractStridedSlice S1x1 ![1, 2] · slices_S3x4_S1x1_1_2) : (⟨S3x4, .i32⟩ : BufTy).Contents (Elt F) → (⟨S1x1, .i32⟩ : BufTy).Contents (Elt F)),
    StableHlo.reshape main_v821 main_v822 rfl shapeCasts_S1x1_S_,
    StableHlo.unary main_v23 main_v823 ((extractStridedSlice S1x1 ![2, 2] · slices_S4x4_S1x1_2_2) : (⟨S4x4, .i32⟩ : BufTy).Contents (Elt F) → (⟨S1x1, .i32⟩ : BufTy).Contents (Elt F)),
    StableHlo.reshape main_v823 main_v824 rfl shapeCasts_S1x1_S_,
    StableHlo.binary main_v822 main_v824 main_v825 (maxsi : (⟨S_, .i32⟩ : BufTy).Contents (Elt F) → (⟨S_, .i32⟩ : BufTy).Contents (Elt F) → (⟨S_, .i32⟩ : BufTy).Contents (Elt F)),
    StableHlo.binary main_v815 main_v810 main_v826 (subi : (⟨S_, .i32⟩ : BufTy).Contents (Elt F) → (⟨S_, .i32⟩ : BufTy).Contents (Elt F) → (⟨S_, .i32⟩ : BufTy).Contents (Elt F)),
    StableHlo.binary main_v825 main_v820 main_v827 (subi : (⟨S_, .i32⟩ : BufTy).Contents (Elt F) → (⟨S_, .i32⟩ : BufTy).Contents (Elt F) → (⟨S_, .i32⟩ : BufTy).Contents (Elt F)),
    StableHlo.nullary main_v828 (iotaInDim S7 32 0),
    StableHlo.nullary main_v829 (iotaInDim S7 32 0),
    StableHlo.unary main_v826 main_v830 (broadcastInDim S7 ![] bcast_S_S7 : (⟨S_, .i32⟩ : BufTy).Contents (Elt F) → (⟨S7, .i32⟩ : BufTy).Contents (Elt F)),
    StableHlo.binary main_v828 main_v830 main_v831 (muli : (⟨S7, .i32⟩ : BufTy).Contents (Elt F) → (⟨S7, .i32⟩ : BufTy).Contents (Elt F) → (⟨S7, .i32⟩ : BufTy).Contents (Elt F)),
    StableHlo.nullary main_c_106 (constantI S_ 32 7#32),
    StableHlo.TRef.unary (.of main_c_106 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S7, .i32⟩) (broadcastInDim S7 ![] bcast_S_S7),
    StableHlo.TRef.binary (.of main_v831 : StableHlo.TRef sig ⟨S7, .i32⟩) (.of main_call62_v1 : StableHlo.TRef sig ⟨S7, .i32⟩) (.of main_call62_v2 : StableHlo.TRef sig ⟨S7, .i32⟩) Host.divsi,
    StableHlo.TRef.unary (.of main_v831 : StableHlo.TRef sig ⟨S7, .i32⟩) (.of main_call62_v3 : StableHlo.TRef sig ⟨S7, .i32⟩) signi,
    StableHlo.TRef.unary (.of main_call62_v0 : StableHlo.TRef sig ⟨S_, .i32⟩) (.of main_call62_v4 : StableHlo.TRef sig ⟨S_, .i32⟩) signi,
    StableHlo.TRef.unary (.of main_call62_v4 : StableHlo.TRef sig ⟨S_, .i32⟩) (.of main_call62_v5 : StableHlo.TRef sig ⟨S7, .i32⟩) (broadcastInDim S7 ![] bcast_S_S7),
    StableHlo.TRef.binary (.of main_call62_v3 : StableHlo.TRef sig ⟨S7, .i32⟩) (.of main_call62_v5 : StableHlo.TRef sig ⟨S7, .i32⟩) (.of main_call62_v6 : StableHlo.TRef sig ⟨S7, .i1⟩) (cmpi .ne),
    StableHlo.TRef.unary (.of main_call62_v0 : StableHlo.TRef sig ⟨S_, .i32⟩) (.of main_call62_v7 : StableHlo.TRef sig ⟨S7, .i32⟩) (broadcastInDim S7 ![] bcast_S_S7),
    StableHlo.TRef.binary (.of main_v831 : StableHlo.TRef sig ⟨S7, .i32⟩) (.of main_call62_v7 : StableHlo.TRef sig ⟨S7, .i32⟩) (.of main_call62_v8 : StableHlo.TRef sig ⟨S7, .i32⟩) Host.remsi,
    StableHlo.TRef.nullary (.of main_call62_c : StableHlo.TRef sig ⟨S_, .i32⟩) (constantI S_ 32 0#32),
    StableHlo.TRef.unary (.of main_call62_c : StableHlo.TRef sig ⟨S_, .i32⟩) (.of main_call62_v9 : StableHlo.TRef sig ⟨S7, .i32⟩) (broadcastInDim S7 ![] bcast_S_S7),
    StableHlo.TRef.binary (.of main_call62_v8 : StableHlo.TRef sig ⟨S7, .i32⟩) (.of main_call62_v9 : StableHlo.TRef sig ⟨S7, .i32⟩) (.of main_call62_v10 : StableHlo.TRef sig ⟨S7, .i1⟩) (cmpi .ne),
    StableHlo.TRef.binary (.of main_call62_v6 : StableHlo.TRef sig ⟨S7, .i1⟩) (.of main_call62_v10 : StableHlo.TRef sig ⟨S7, .i1⟩) (.of main_call62_v11 : StableHlo.TRef sig ⟨S7, .i1⟩) andi,
    StableHlo.TRef.nullary (.of main_call62_c_0 : StableHlo.TRef sig ⟨S_, .i32⟩) (constantI S_ 32 1#32),
    StableHlo.TRef.unary (.of main_call62_c_0 : StableHlo.TRef sig ⟨S_, .i32⟩) (.of main_call62_v12 : StableHlo.TRef sig ⟨S7, .i32⟩) (broadcastInDim S7 ![] bcast_S_S7),
    StableHlo.TRef.binary (.of main_call62_v2 : StableHlo.TRef sig ⟨S7, .i32⟩) (.of main_call62_v12 : StableHlo.TRef sig ⟨S7, .i32⟩) (.of main_call62_v13 : StableHlo.TRef sig ⟨S7, .i32⟩) subi,
    StableHlo.TRef.ternary (.of main_call62_v11 : StableHlo.TRef sig ⟨S7, .i1⟩) (.of main_call62_v13 : StableHlo.TRef sig ⟨S7, .i32⟩) (.of main_call62_v2 : StableHlo.TRef sig ⟨S7, .i32⟩) (.of main_v832 : StableHlo.TRef sig ⟨S7, .i32⟩) select,
    StableHlo.unary main_v810 main_v833 (broadcastInDim S7 ![] bcast_S_S7 : (⟨S_, .i32⟩ : BufTy).Contents (Elt F) → (⟨S7, .i32⟩ : BufTy).Contents (Elt F)),
    StableHlo.binary main_v833 main_v832 main_v834 (addi : (⟨S7, .i32⟩ : BufTy).Contents (Elt F) → (⟨S7, .i32⟩ : BufTy).Contents (Elt F) → (⟨S7, .i32⟩ : BufTy).Contents (Elt F)),
    StableHlo.nullary main_c_107 (constantI S_ 32 1#32),
    StableHlo.unary main_c_107 main_v835 (broadcastInDim S7 ![] bcast_S_S7 : (⟨S_, .i32⟩ : BufTy).Contents (Elt F) → (⟨S7, .i32⟩ : BufTy).Contents (Elt F)),
    StableHlo.binary main_v828 main_v835 main_v836 (addi : (⟨S7, .i32⟩ : BufTy).Contents (Elt F) → (⟨S7, .i32⟩ : BufTy).Contents (Elt F) → (⟨S7, .i32⟩ : BufTy).Contents (Elt F)),
    StableHlo.unary main_v836 main_v837 (negi : (⟨S7, .i32⟩ : BufTy).Contents (Elt F) → (⟨S7, .i32⟩ : BufTy).Contents (Elt F)),
    StableHlo.unary main_v826 main_v838 (broadcastInDim S7 ![] bcast_S_S7 : (⟨S_, .i32⟩ : BufTy).Contents (Elt F) → (⟨S7, .i32⟩ : BufTy).Contents (Elt F)),
    StableHlo.binary main_v837 main_v838 main_v839 (muli : (⟨S7, .i32⟩ : BufTy).Contents (Elt F) → (⟨S7, .i32⟩ : BufTy).Contents (Elt F) → (⟨S7, .i32⟩ : BufTy).Contents (Elt F)),
    StableHlo.nullary main_c_108 (constantI S_ 32 7#32) ]
/-- The buffers those operations write, in order. -/
abbrev ops32_W : List (Ref sig .tc) :=
  [main_cst_105, main_v803, main_v804, main_v805, main_v806, main_v807, main_v808, main_v809, main_v810, main_v811, main_v812, main_v813, main_v814, main_v815, main_v816, main_v817, main_v818, main_v819, main_v820, main_v821, main_v822, main_v823, main_v824, main_v825, main_v826, main_v827, main_v828, main_v829, main_v830, main_v831, main_c_106, main_call62_v0, main_call62_v1, main_call62_v2, main_call62_v3, main_call62_v4, main_call62_v5, main_call62_v6, main_call62_v7, main_call62_v8, main_call62_c, main_call62_v9, main_call62_v10, main_call62_v11, main_call62_c_0, main_call62_v12, main_call62_v13, main_v832, main_v833, main_v834, main_c_107, main_v835, main_v836, main_v837, main_v838, main_v839, main_c_108]
/-- Each operation writes its own result buffer and nothing else. -/
theorem ops32_writes : (ops32 : List (HloOp τ sig (Elt F))).Forall fun op => op.writes ⊆ (ops32_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1667 to 1714 of the host part, in order. -/
abbrev ops33 : List (HloOp τ sig (Elt F)) :=
  [ StableHlo.TRef.unary (.of main_c_108 : StableHlo.TRef sig ⟨S_, .i32⟩) (.of main_call63_v0 : StableHlo.TRef sig ⟨S_, .i32⟩) id,
    StableHlo.TRef.unary (.of main_call63_v0 : StableHlo.TRef sig ⟨S_, .i32⟩) (.of main_call63_v1 : StableHlo.TRef sig ⟨S7, .i32⟩) (broadcastInDim S7 ![] bcast_S_S7),
    StableHlo.TRef.binary (.of main_v839 : StableHlo.TRef sig ⟨S7, .i32⟩) (.of main_call63_v1 : StableHlo.TRef sig ⟨S7, .i32⟩) (.of main_call63_v2 : StableHlo.TRef sig ⟨S7, .i32⟩) Host.divsi,
    StableHlo.TRef.unary (.of main_v839 : StableHlo.TRef sig ⟨S7, .i32⟩) (.of main_call63_v3 : StableHlo.TRef sig ⟨S7, .i32⟩) signi,
    StableHlo.TRef.unary (.of main_call63_v0 : StableHlo.TRef sig ⟨S_, .i32⟩) (.of main_call63_v4 : StableHlo.TRef sig ⟨S_, .i32⟩) signi,
    StableHlo.TRef.unary (.of main_call63_v4 : StableHlo.TRef sig ⟨S_, .i32⟩) (.of main_call63_v5 : StableHlo.TRef sig ⟨S7, .i32⟩) (broadcastInDim S7 ![] bcast_S_S7),
    StableHlo.TRef.binary (.of main_call63_v3 : StableHlo.TRef sig ⟨S7, .i32⟩) (.of main_call63_v5 : StableHlo.TRef sig ⟨S7, .i32⟩) (.of main_call63_v6 : StableHlo.TRef sig ⟨S7, .i1⟩) (cmpi .ne),
    StableHlo.TRef.unary (.of main_call63_v0 : StableHlo.TRef sig ⟨S_, .i32⟩) (.of main_call63_v7 : StableHlo.TRef sig ⟨S7, .i32⟩) (broadcastInDim S7 ![] bcast_S_S7),
    StableHlo.TRef.binary (.of main_v839 : StableHlo.TRef sig ⟨S7, .i32⟩) (.of main_call63_v7 : StableHlo.TRef sig ⟨S7, .i32⟩) (.of main_call63_v8 : StableHlo.TRef sig ⟨S7, .i32⟩) Host.remsi,
    StableHlo.TRef.nullary (.of main_call63_c : StableHlo.TRef sig ⟨S_, .i32⟩) (constantI S_ 32 0#32),
    StableHlo.TRef.unary (.of main_call63_c : StableHlo.TRef sig ⟨S_, .i32⟩) (.of main_call63_v9 : StableHlo.TRef sig ⟨S7, .i32⟩) (broadcastInDim S7 ![] bcast_S_S7),
    StableHlo.TRef.binary (.of main_call63_v8 : StableHlo.TRef sig ⟨S7, .i32⟩) (.of main_call63_v9 : StableHlo.TRef sig ⟨S7, .i32⟩) (.of main_call63_v10 : StableHlo.TRef sig ⟨S7, .i1⟩) (cmpi .ne),
    StableHlo.TRef.binary (.of main_call63_v6 : StableHlo.TRef sig ⟨S7, .i1⟩) (.of main_call63_v10 : StableHlo.TRef sig ⟨S7, .i1⟩) (.of main_call63_v11 : StableHlo.TRef sig ⟨S7, .i1⟩) andi,
    StableHlo.TRef.nullary (.of main_call63_c_0 : StableHlo.TRef sig ⟨S_, .i32⟩) (constantI S_ 32 1#32),
    StableHlo.TRef.unary (.of main_call63_c_0 : StableHlo.TRef sig ⟨S_, .i32⟩) (.of main_call63_v12 : StableHlo.TRef sig ⟨S7, .i32⟩) (broadcastInDim S7 ![] bcast_S_S7),
    StableHlo.TRef.binary (.of main_call63_v2 : StableHlo.TRef sig ⟨S7, .i32⟩) (.of main_call63_v12 : StableHlo.TRef sig ⟨S7, .i32⟩) (.of main_call63_v13 : StableHlo.TRef sig ⟨S7, .i32⟩) subi,
    StableHlo.TRef.ternary (.of main_call63_v11 : StableHlo.TRef sig ⟨S7, .i1⟩) (.of main_call63_v13 : StableHlo.TRef sig ⟨S7, .i32⟩) (.of main_call63_v2 : StableHlo.TRef sig ⟨S7, .i32⟩) (.of main_v840 : StableHlo.TRef sig ⟨S7, .i32⟩) select,
    StableHlo.unary main_v810 main_v841 (broadcastInDim S7 ![] bcast_S_S7 : (⟨S_, .i32⟩ : BufTy).Contents (Elt F) → (⟨S7, .i32⟩ : BufTy).Contents (Elt F)),
    StableHlo.binary main_v841 main_v840 main_v842 (subi : (⟨S7, .i32⟩ : BufTy).Contents (Elt F) → (⟨S7, .i32⟩ : BufTy).Contents (Elt F) → (⟨S7, .i32⟩ : BufTy).Contents (Elt F)),
    StableHlo.unary main_v827 main_v843 (broadcastInDim S7 ![] bcast_S_S7 : (⟨S_, .i32⟩ : BufTy).Contents (Elt F) → (⟨S7, .i32⟩ : BufTy).Contents (Elt F)),
    StableHlo.binary main_v829 main_v843 main_v844 (muli : (⟨S7, .i32⟩ : BufTy).Contents (Elt F) → (⟨S7, .i32⟩ : BufTy).Contents (Elt F) → (⟨S7, .i32⟩ : BufTy).Contents (Elt F)),
    StableHlo.nullary main_c_109 (constantI S_ 32 7#32),
    StableHlo.TRef.unary (.of main_c_109 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S7, .i32⟩) (broadcastInDim S7 ![] bcast_S_S7),
    StableHlo.TRef.binary (.of main_v844 : StableHlo.TRef sig ⟨S7, .i32⟩) (.of main_call64_v1 : StableHlo.TRef sig ⟨S7, .i32⟩) (.of main_call64_v2 : StableHlo.TRef sig ⟨S7, .i32⟩) Host.divsi,
    StableHlo.TRef.unary (.of main_v844 : StableHlo.TRef sig ⟨S7, .i32⟩) (.of main_call64_v3 : StableHlo.TRef sig ⟨S7, .i32⟩) signi,
    StableHlo.TRef.unary (.of main_call64_v0 : StableHlo.TRef sig ⟨S_, .i32⟩) (.of main_call64_v4 : StableHlo.TRef sig ⟨S_, .i32⟩) signi,
    StableHlo.TRef.unary (.of main_call64_v4 : StableHlo.TRef sig ⟨S_, .i32⟩) (.of main_call64_v5 : StableHlo.TRef sig ⟨S7, .i32⟩) (broadcastInDim S7 ![] bcast_S_S7),
    StableHlo.TRef.binary (.of main_call64_v3 : StableHlo.TRef sig ⟨S7, .i32⟩) (.of main_call64_v5 : StableHlo.TRef sig ⟨S7, .i32⟩) (.of main_call64_v6 : StableHlo.TRef sig ⟨S7, .i1⟩) (cmpi .ne),
    StableHlo.TRef.unary (.of main_call64_v0 : StableHlo.TRef sig ⟨S_, .i32⟩) (.of main_call64_v7 : StableHlo.TRef sig ⟨S7, .i32⟩) (broadcastInDim S7 ![] bcast_S_S7),
    StableHlo.TRef.binary (.of main_v844 : StableHlo.TRef sig ⟨S7, .i32⟩) (.of main_call64_v7 : StableHlo.TRef sig ⟨S7, .i32⟩) (.of main_call64_v8 : StableHlo.TRef sig ⟨S7, .i32⟩) Host.remsi,
    StableHlo.TRef.nullary (.of main_call64_c : StableHlo.TRef sig ⟨S_, .i32⟩) (constantI S_ 32 0#32),
    StableHlo.TRef.unary (.of main_call64_c : StableHlo.TRef sig ⟨S_, .i32⟩) (.of main_call64_v9 : StableHlo.TRef sig ⟨S7, .i32⟩) (broadcastInDim S7 ![] bcast_S_S7),
    StableHlo.TRef.binary (.of main_call64_v8 : StableHlo.TRef sig ⟨S7, .i32⟩) (.of main_call64_v9 : StableHlo.TRef sig ⟨S7, .i32⟩) (.of main_call64_v10 : StableHlo.TRef sig ⟨S7, .i1⟩) (cmpi .ne),
    StableHlo.TRef.binary (.of main_call64_v6 : StableHlo.TRef sig ⟨S7, .i1⟩) (.of main_call64_v10 : StableHlo.TRef sig ⟨S7, .i1⟩) (.of main_call64_v11 : StableHlo.TRef sig ⟨S7, .i1⟩) andi,
    StableHlo.TRef.nullary (.of main_call64_c_0 : StableHlo.TRef sig ⟨S_, .i32⟩) (constantI S_ 32 1#32),
    StableHlo.TRef.unary (.of main_call64_c_0 : StableHlo.TRef sig ⟨S_, .i32⟩) (.of main_call64_v12 : StableHlo.TRef sig ⟨S7, .i32⟩) (broadcastInDim S7 ![] bcast_S_S7),
    StableHlo.TRef.binary (.of main_call64_v2 : StableHlo.TRef sig ⟨S7, .i32⟩) (.of main_call64_v12 : StableHlo.TRef sig ⟨S7, .i32⟩) (.of main_call64_v13 : StableHlo.TRef sig ⟨S7, .i32⟩) subi,
    StableHlo.TRef.ternary (.of main_call64_v11 : StableHlo.TRef sig ⟨S7, .i1⟩) (.of main_call64_v13 : StableHlo.TRef sig ⟨S7, .i32⟩) (.of main_call64_v2 : StableHlo.TRef sig ⟨S7, .i32⟩) (.of main_v845 : StableHlo.TRef sig ⟨S7, .i32⟩) select,
    StableHlo.unary main_v820 main_v846 (broadcastInDim S7 ![] bcast_S_S7 : (⟨S_, .i32⟩ : BufTy).Contents (Elt F) → (⟨S7, .i32⟩ : BufTy).Contents (Elt F)),
    StableHlo.binary main_v846 main_v845 main_v847 (addi : (⟨S7, .i32⟩ : BufTy).Contents (Elt F) → (⟨S7, .i32⟩ : BufTy).Contents (Elt F) → (⟨S7, .i32⟩ : BufTy).Contents (Elt F)),
    StableHlo.nullary main_c_110 (constantI S_ 32 1#32),
    StableHlo.unary main_c_110 main_v848 (broadcastInDim S7 ![] bcast_S_S7 : (⟨S_, .i32⟩ : BufTy).Contents (Elt F) → (⟨S7, .i32⟩ : BufTy).Contents (Elt F)),
    StableHlo.binary main_v829 main_v848 main_v849 (addi : (⟨S7, .i32⟩ : BufTy).Contents (Elt F) → (⟨S7, .i32⟩ : BufTy).Contents (Elt F) → (⟨S7, .i32⟩ : BufTy).Contents (Elt F)),
    StableHlo.unary main_v849 main_v850 (negi : (⟨S7, .i32⟩ : BufTy).Contents (Elt F) → (⟨S7, .i32⟩ : BufTy).Contents (Elt F)),
    StableHlo.unary main_v827 main_v851 (broadcastInDim S7 ![] bcast_S_S7 : (⟨S_, .i32⟩ : BufTy).Contents (Elt F) → (⟨S7, .i32⟩ : BufTy).Contents (Elt F)),
    StableHlo.binary main_v850 main_v851 main_v852 (muli : (⟨S7, .i32⟩ : BufTy).Contents (Elt F) → (⟨S7, .i32⟩ : BufTy).Contents (Elt F) → (⟨S7, .i32⟩ : BufTy).Contents (Elt F)),
    StableHlo.nullary main_c_111 (constantI S_ 32 7#32) ]
/-- The buffers those operations write, in order. -/
abbrev ops33_W : List (Ref sig .tc) :=
  [main_call63_v0, main_call63_v1, main_call63_v2, main_call63_v3, main_call63_v4, main_call63_v5, main_call63_v6, main_call63_v7, main_call63_v8, main_call63_c, main_call63_v9, main_call63_v10, main_call63_v11, main_call63_c_0, main_call63_v12, main_call63_v13, main_v840, main_v841, main_v842, main_v843, main_v844, main_c_109, main_call64_v0, main_call64_v1, main_call64_v2, main_call64_v3, main_call64_v4, main_call64_v5, main_call64_v6, main_call64_v7, main_call64_v8, main_call64_c, main_call64_v9, main_call64_v10, main_call64_v11, main_call64_c_0, main_call64_v12, main_call64_v13, main_v845, main_v846, main_v847, main_c_110, main_v848, main_v849, main_v850, main_v851, main_v852, main_c_111]
/-- Each operation writes its own result buffer and nothing else. -/
theorem ops33_writes : (ops33 : List (HloOp τ sig (Elt F))).Forall fun op => op.writes ⊆ (ops33_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1715 to 1773 of the host part, in order. -/
abbrev ops34 : List (HloOp τ sig (Elt F)) :=
  [ StableHlo.TRef.unary (.of main_c_111 : StableHlo.TRef sig ⟨S_, .i32⟩) (.of main_call65_v0 : StableHlo.TRef sig ⟨S_, .i32⟩) id,
    StableHlo.TRef.unary (.of main_call65_v0 : StableHlo.TRef sig ⟨S_, .i32⟩) (.of main_call65_v1 : StableHlo.TRef sig ⟨S7, .i32⟩) (broadcastInDim S7 ![] bcast_S_S7),
    StableHlo.TRef.binary (.of main_v852 : StableHlo.TRef sig ⟨S7, .i32⟩) (.of main_call65_v1 : StableHlo.TRef sig ⟨S7, .i32⟩) (.of main_call65_v2 : StableHlo.TRef sig ⟨S7, .i32⟩) Host.divsi,
    StableHlo.TRef.unary (.of main_v852 : StableHlo.TRef sig ⟨S7, .i32⟩) (.of main_call65_v3 : StableHlo.TRef sig ⟨S7, .i32⟩) signi,
    StableHlo.TRef.unary (.of main_call65_v0 : StableHlo.TRef sig ⟨S_, .i32⟩) (.of main_call65_v4 : StableHlo.TRef sig ⟨S_, .i32⟩) signi,
    StableHlo.TRef.unary (.of main_call65_v4 : StableHlo.TRef sig ⟨S_, .i32⟩) (.of main_call65_v5 : StableHlo.TRef sig ⟨S7, .i32⟩) (broadcastInDim S7 ![] bcast_S_S7),
    StableHlo.TRef.binary (.of main_call65_v3 : StableHlo.TRef sig ⟨S7, .i32⟩) (.of main_call65_v5 : StableHlo.TRef sig ⟨S7, .i32⟩) (.of main_call65_v6 : StableHlo.TRef sig ⟨S7, .i1⟩) (cmpi .ne),
    StableHlo.TRef.unary (.of main_call65_v0 : StableHlo.TRef sig ⟨S_, .i32⟩) (.of main_call65_v7 : StableHlo.TRef sig ⟨S7, .i32⟩) (broadcastInDim S7 ![] bcast_S_S7),
    StableHlo.TRef.binary (.of main_v852 : StableHlo.TRef sig ⟨S7, .i32⟩) (.of main_call65_v7 : StableHlo.TRef sig ⟨S7, .i32⟩) (.of main_call65_v8 : StableHlo.TRef sig ⟨S7, .i32⟩) Host.remsi,
    StableHlo.TRef.nullary (.of main_call65_c : StableHlo.TRef sig ⟨S_, .i32⟩) (constantI S_ 32 0#32),
    StableHlo.TRef.unary (.of main_call65_c : StableHlo.TRef sig ⟨S_, .i32⟩) (.of main_call65_v9 : StableHlo.TRef sig ⟨S7, .i32⟩) (broadcastInDim S7 ![] bcast_S_S7),
    StableHlo.TRef.binary (.of main_call65_v8 : StableHlo.TRef sig ⟨S7, .i32⟩) (.of main_call65_v9 : StableHlo.TRef sig ⟨S7, .i32⟩) (.of main_call65_v10 : StableHlo.TRef sig ⟨S7, .i1⟩) (cmpi .ne),
    StableHlo.TRef.binary (.of main_call65_v6 : StableHlo.TRef sig ⟨S7, .i1⟩) (.of main_call65_v10 : StableHlo.TRef sig ⟨S7, .i1⟩) (.of main_call65_v11 : StableHlo.TRef sig ⟨S7, .i1⟩) andi,
    StableHlo.TRef.nullary (.of main_call65_c_0 : StableHlo.TRef sig ⟨S_, .i32⟩) (constantI S_ 32 1#32),
    StableHlo.TRef.unary (.of main_call65_c_0 : StableHlo.TRef sig ⟨S_, .i32⟩) (.of main_call65_v12 : StableHlo.TRef sig ⟨S7, .i32⟩) (broadcastInDim S7 ![] bcast_S_S7),
    StableHlo.TRef.binary (.of main_call65_v2 : StableHlo.TRef sig ⟨S7, .i32⟩) (.of main_call65_v12 : StableHlo.TRef sig ⟨S7, .i32⟩) (.of main_call65_v13 : StableHlo.TRef sig ⟨S7, .i32⟩) subi,
    StableHlo.TRef.ternary (.of main_call65_v11 : StableHlo.TRef sig ⟨S7, .i1⟩) (.of main_call65_v13 : StableHlo.TRef sig ⟨S7, .i32⟩) (.of main_call65_v2 : StableHlo.TRef sig ⟨S7, .i32⟩) (.of main_v853 : StableHlo.TRef sig ⟨S7, .i32⟩) select,
    StableHlo.unary main_v820 main_v854 (broadcastInDim S7 ![] bcast_S_S7 : (⟨S_, .i32⟩ : BufTy).Contents (Elt F) → (⟨S7, .i32⟩ : BufTy).Contents (Elt F)),
    StableHlo.binary main_v854 main_v853 main_v855 (subi : (⟨S7, .i32⟩ : BufTy).Contents (Elt F) → (⟨S7, .i32⟩ : BufTy).Contents (Elt F) → (⟨S7, .i32⟩ : BufTy).Contents (Elt F)),
    StableHlo.nullary main_v856 (iotaInDim S64 32 0),
    StableHlo.nullary main_v857 (iotaInDim S64 32 0),
    StableHlo.unary main_v856 main_v858 (broadcastInDim S1x64 ![1] bcast_S64_S1x64_1 : (⟨S64, .i32⟩ : BufTy).Contents (Elt F) → (⟨S1x64, .i32⟩ : BufTy).Contents (Elt F)),
    StableHlo.unary main_v834 main_v859 (broadcastInDim S7x1 ![0] bcast_S7_S7x1_0 : (⟨S7, .i32⟩ : BufTy).Contents (Elt F) → (⟨S7x1, .i32⟩ : BufTy).Contents (Elt F)),
    StableHlo.unary main_v858 main_v860 (broadcastInDim S7x64 ![0, 1] bcast_S1x64_S7x64_0_1 : (⟨S1x64, .i32⟩ : BufTy).Contents (Elt F) → (⟨S7x64, .i32⟩ : BufTy).Contents (Elt F)),
    StableHlo.unary main_v859 main_v861 (broadcastInDim S7x64 ![0, 1] bcast_S7x1_S7x64_0_1 : (⟨S7x1, .i32⟩ : BufTy).Contents (Elt F) → (⟨S7x64, .i32⟩ : BufTy).Contents (Elt F)),
    StableHlo.binary main_v860 main_v861 main_v862 (cmpi .sge : (⟨S7x64, .i32⟩ : BufTy).Contents (Elt F) → (⟨S7x64, .i32⟩ : BufTy).Contents (Elt F) → (⟨S7x64, .i1⟩ : BufTy).Contents (Elt F)),
    StableHlo.unary main_v856 main_v863 (broadcastInDim S1x64 ![1] bcast_S64_S1x64_1 : (⟨S64, .i32⟩ : BufTy).Contents (Elt F) → (⟨S1x64, .i32⟩ : BufTy).Contents (Elt F)),
    StableHlo.unary main_v842 main_v864 (broadcastInDim S7x1 ![0] bcast_S7_S7x1_0 : (⟨S7, .i32⟩ : BufTy).Contents (Elt F) → (⟨S7x1, .i32⟩ : BufTy).Contents (Elt F)),
    StableHlo.unary main_v863 main_v865 (broadcastInDim S7x64 ![0, 1] bcast_S1x64_S7x64_0_1 : (⟨S1x64, .i32⟩ : BufTy).Contents (Elt F) → (⟨S7x64, .i32⟩ : BufTy).Contents (Elt F)),
    StableHlo.unary main_v864 main_v866 (broadcastInDim S7x64 ![0, 1] bcast_S7x1_S7x64_0_1 : (⟨S7x1, .i32⟩ : BufTy).Contents (Elt F) → (⟨S7x64, .i32⟩ : BufTy).Contents (Elt F)),
    StableHlo.binary main_v865 main_v866 main_v867 (cmpi .slt : (⟨S7x64, .i32⟩ : BufTy).Contents (Elt F) → (⟨S7x64, .i32⟩ : BufTy).Contents (Elt F) → (⟨S7x64, .i1⟩ : BufTy).Contents (Elt F)),
    StableHlo.binary main_v862 main_v867 main_v868 (andi : (⟨S7x64, .i1⟩ : BufTy).Contents (Elt F) → (⟨S7x64, .i1⟩ : BufTy).Contents (Elt F) → (⟨S7x64, .i1⟩ : BufTy).Contents (Elt F)),
    StableHlo.unary main_v857 main_v869 (broadcastInDim S1x64 ![1] bcast_S64_S1x64_1 : (⟨S64, .i32⟩ : BufTy).Contents (Elt F) → (⟨S1x64, .i32⟩ : BufTy).Contents (Elt F)),
    StableHlo.unary main_v847 main_v870 (broadcastInDim S7x1 ![0] bcast_S7_S7x1_0 : (⟨S7, .i32⟩ : BufTy).Contents (Elt F) → (⟨S7x1, .i32⟩ : BufTy).Contents (Elt F)),
    StableHlo.unary main_v869 main_v871 (broadcastInDim S7x64 ![0, 1] bcast_S1x64_S7x64_0_1 : (⟨S1x64, .i32⟩ : BufTy).Contents (Elt F) → (⟨S7x64, .i32⟩ : BufTy).Contents (Elt F)),
    StableHlo.unary main_v870 main_v872 (broadcastInDim S7x64 ![0, 1] bcast_S7x1_S7x64_0_1 : (⟨S7x1, .i32⟩ : BufTy).Contents (Elt F) → (⟨S7x64, .i32⟩ : BufTy).Contents (Elt F)),
    StableHlo.binary main_v871 main_v872 main_v873 (cmpi .sge : (⟨S7x64, .i32⟩ : BufTy).Contents (Elt F) → (⟨S7x64, .i32⟩ : BufTy).Contents (Elt F) → (⟨S7x64, .i1⟩ : BufTy).Contents (Elt F)),
    StableHlo.unary main_v857 main_v874 (broadcastInDim S1x64 ![1] bcast_S64_S1x64_1 : (⟨S64, .i32⟩ : BufTy).Contents (Elt F) → (⟨S1x64, .i32⟩ : BufTy).Contents (Elt F)),
    StableHlo.unary main_v855 main_v875 (broadcastInDim S7x1 ![0] bcast_S7_S7x1_0 : (⟨S7, .i32⟩ : BufTy).Contents (Elt F) → (⟨S7x1, .i32⟩ : BufTy).Contents (Elt F)),
    StableHlo.unary main_v874 main_v876 (broadcastInDim S7x64 ![0, 1] bcast_S1x64_S7x64_0_1 : (⟨S1x64, .i32⟩ : BufTy).Contents (Elt F) → (⟨S7x64, .i32⟩ : BufTy).Contents (Elt F)),
    StableHlo.unary main_v875 main_v877 (broadcastInDim S7x64 ![0, 1] bcast_S7x1_S7x64_0_1 : (⟨S7x1, .i32⟩ : BufTy).Contents (Elt F) → (⟨S7x64, .i32⟩ : BufTy).Contents (Elt F)),
    StableHlo.binary main_v876 main_v877 main_v878 (cmpi .slt : (⟨S7x64, .i32⟩ : BufTy).Contents (Elt F) → (⟨S7x64, .i32⟩ : BufTy).Contents (Elt F) → (⟨S7x64, .i1⟩ : BufTy).Contents (Elt F)),
    StableHlo.binary main_v873 main_v878 main_v879 (andi : (⟨S7x64, .i1⟩ : BufTy).Contents (Elt F) → (⟨S7x64, .i1⟩ : BufTy).Contents (Elt F) → (⟨S7x64, .i1⟩ : BufTy).Contents (Elt F)),
    StableHlo.unary main_v868 main_v880 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v881 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_112 (constant S_ .f32 0xFF800000#32),
    StableHlo.TRef.unary (.of main_v880 : StableHlo.TRef sig ⟨S7x1x64x1, .i1⟩) (.of main_call66_v0 : StableHlo.TRef sig ⟨S7x512x64x64, .i1⟩) (broadcastInDim S7x512x64x64 ![0, 1, 2, 3] bcast_S7x1x64x1_S7x512x64x64_0_1_2_3),
    StableHlo.TRef.unary (.of main_v881 : StableHlo.TRef sig ⟨S1x512x64x64, .f32⟩) (.of main_call66_v1 : StableHlo.TRef sig ⟨S7x512x64x64, .f32⟩) (broadcastInDim S7x512x64x64 ![0, 1, 2, 3] bcast_S1x512x64x64_S7x512x64x64_0_1_2_3),
    StableHlo.TRef.unary (.of main_cst_112 : StableHlo.TRef sig ⟨S_, .f32⟩) (.of main_call66_v2 : StableHlo.TRef sig ⟨S7x512x64x64, .f32⟩) (broadcastInDim S7x512x64x64 ![] bcast_S_S7x512x64x64),
    StableHlo.TRef.ternary (.of main_call66_v0 : StableHlo.TRef sig ⟨S7x512x64x64, .i1⟩) (.of main_call66_v1 : StableHlo.TRef sig ⟨S7x512x64x64, .f32⟩) (.of main_call66_v2 : StableHlo.TRef sig ⟨S7x512x64x64, .f32⟩) (.of main_v882 : StableHlo.TRef sig ⟨S7x512x64x64, .f32⟩) select,
    StableHlo.nullary main_cst_113 (constant S_ .f32 0xFF800000#32),
    StableHlo.binary main_v882 main_cst_113 main_v883 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v879 main_v884 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v883 main_v885 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_114 (constant S_ .f32 0xFF800000#32),
    StableHlo.TRef.unary (.of main_v884 : StableHlo.TRef sig ⟨S1x1x7x64, .i1⟩) (.of main_call67_v0 : StableHlo.TRef sig ⟨S7x512x7x64, .i1⟩) (broadcastInDim S7x512x7x64 ![0, 1, 2, 3] bcast_S1x1x7x64_S7x512x7x64_0_1_2_3),
    StableHlo.TRef.unary (.of main_v885 : StableHlo.TRef sig ⟨S7x512x1x64, .f32⟩) (.of main_call67_v1 : StableHlo.TRef sig ⟨S7x512x7x64, .f32⟩) (broadcastInDim S7x512x7x64 ![0, 1, 2, 3] bcast_S7x512x1x64_S7x512x7x64_0_1_2_3),
    StableHlo.TRef.unary (.of main_cst_114 : StableHlo.TRef sig ⟨S_, .f32⟩) (.of main_call67_v2 : StableHlo.TRef sig ⟨S7x512x7x64, .f32⟩) (broadcastInDim S7x512x7x64 ![] bcast_S_S7x512x7x64),
    StableHlo.TRef.ternary (.of main_call67_v0 : StableHlo.TRef sig ⟨S7x512x7x64, .i1⟩) (.of main_call67_v1 : StableHlo.TRef sig ⟨S7x512x7x64, .f32⟩) (.of main_call67_v2 : StableHlo.TRef sig ⟨S7x512x7x64, .f32⟩) (.of main_v886 : StableHlo.TRef sig ⟨S7x512x7x64, .f32⟩) select ]
/-- The buffers those operations write, in order. -/
abbrev ops34_W : List (Ref sig .tc) :=
  [main_call65_v0, main_call65_v1, main_call65_v2, main_call65_v3, main_call65_v4, main_call65_v5, main_call65_v6, main_call65_v7, main_call65_v8, main_call65_c, main_call65_v9, main_call65_v10, main_call65_v11, main_call65_c_0, main_call65_v12, main_call65_v13, main_v853, main_v854, main_v855, main_v856, main_v857, main_v858, main_v859, main_v860, main_v861, main_v862, main_v863, main_v864, main_v865, main_v866, main_v867, main_v868, main_v869, main_v870, main_v871, main_v872, main_v873, main_v874, main_v875, main_v876, main_v877, main_v878, main_v879, main_v880, main_v881, main_cst_112, main_call66_v0, main_call66_v1, main_call66_v2, main_v882, main_cst_113, main_v883, main_v884, main_v885, main_cst_114, main_call67_v0, main_call67_v1, main_call67_v2, main_v886]
/-- Each operation writes its own result buffer and nothing else. -/
theorem ops34_writes : (ops34 : List (HloOp τ sig (Elt F))).Forall fun op => op.writes ⊆ (ops34_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1774 to 1830 of the host part, in order. -/
abbrev ops35 : List (HloOp τ sig (Elt F)) :=
  [ StableHlo.nullary main_cst_115 (constant S_ .f32 0xFF800000#32),
    StableHlo.binary main_v886 main_cst_115 main_v887 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v887 main_v888 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v888 main_v889 rfl shapeCasts_S512x7x7_S25088,
    StableHlo.unary main_v18 main_v890 ((extractStridedSlice S1x1 ![1, 1] · slices_S3x4_S1x1_1_1) : (⟨S3x4, .i32⟩ : BufTy).Contents (Elt F) → (⟨S1x1, .i32⟩ : BufTy).Contents (Elt F)),
    StableHlo.reshape main_v890 main_v891 rfl shapeCasts_S1x1_S_,
    StableHlo.unary main_v23 main_v892 ((extractStridedSlice S1x1 ![3, 1] · slices_S4x4_S1x1_3_1) : (⟨S4x4, .i32⟩ : BufTy).Contents (Elt F) → (⟨S1x1, .i32⟩ : BufTy).Contents (Elt F)),
    StableHlo.reshape main_v892 main_v893 rfl shapeCasts_S1x1_S_,
    StableHlo.binary main_v891 main_v893 main_v894 (minsi : (⟨S_, .i32⟩ : BufTy).Contents (Elt F) → (⟨S_, .i32⟩ : BufTy).Contents (Elt F) → (⟨S_, .i32⟩ : BufTy).Contents (Elt F)),
    StableHlo.unary main_v18 main_v895 ((extractStridedSlice S1x1 ![1, 3] · slices_S3x4_S1x1_1_3) : (⟨S3x4, .i32⟩ : BufTy).Contents (Elt F) → (⟨S1x1, .i32⟩ : BufTy).Contents (Elt F)),
    StableHlo.reshape main_v895 main_v896 rfl shapeCasts_S1x1_S_,
    StableHlo.unary main_v23 main_v897 ((extractStridedSlice S1x1 ![3, 3] · slices_S4x4_S1x1_3_3) : (⟨S4x4, .i32⟩ : BufTy).Contents (Elt F) → (⟨S1x1, .i32⟩ : BufTy).Contents (Elt F)),
    StableHlo.reshape main_v897 main_v898 rfl shapeCasts_S1x1_S_,
    StableHlo.binary main_v896 main_v898 main_v899 (maxsi : (⟨S_, .i32⟩ : BufTy).Contents (Elt F) → (⟨S_, .i32⟩ : BufTy).Contents (Elt F) → (⟨S_, .i32⟩ : BufTy).Contents (Elt F)),
    StableHlo.unary main_v18 main_v900 ((extractStridedSlice S1x1 ![1, 0] · slices_S3x4_S1x1_1_0) : (⟨S3x4, .i32⟩ : BufTy).Contents (Elt F) → (⟨S1x1, .i32⟩ : BufTy).Contents (Elt F)),
    StableHlo.reshape main_v900 main_v901 rfl shapeCasts_S1x1_S_,
    StableHlo.unary main_v23 main_v902 ((extractStridedSlice S1x1 ![3, 0] · slices_S4x4_S1x1_3_0) : (⟨S4x4, .i32⟩ : BufTy).Contents (Elt F) → (⟨S1x1, .i32⟩ : BufTy).Contents (Elt F)),
    StableHlo.reshape main_v902 main_v903 rfl shapeCasts_S1x1_S_,
    StableHlo.binary main_v901 main_v903 main_v904 (minsi : (⟨S_, .i32⟩ : BufTy).Contents (Elt F) → (⟨S_, .i32⟩ : BufTy).Contents (Elt F) → (⟨S_, .i32⟩ : BufTy).Contents (Elt F)),
    StableHlo.unary main_v18 main_v905 ((extractStridedSlice S1x1 ![1, 2] · slices_S3x4_S1x1_1_2) : (⟨S3x4, .i32⟩ : BufTy).Contents (Elt F) → (⟨S1x1, .i32⟩ : BufTy).Contents (Elt F)),
    StableHlo.reshape main_v905 main_v906 rfl shapeCasts_S1x1_S_,
    StableHlo.unary main_v23 main_v907 ((extractStridedSlice S1x1 ![3, 2] · slices_S4x4_S1x1_3_2) : (⟨S4x4, .i32⟩ : BufTy).Contents (Elt F) → (⟨S1x1, .i32⟩ : BufTy).Contents (Elt F)),
    StableHlo.reshape main_v907 main_v908 rfl shapeCasts_S1x1_S_,
    StableHlo.binary main_v906 main_v908 main_v909 (maxsi : (⟨S_, .i32⟩ : BufTy).Contents (Elt F) → (⟨S_, .i32⟩ : BufTy).Contents (Elt F) → (⟨S_, .i32⟩ : BufTy).Contents (Elt F)),
    StableHlo.binary main_v899 main_v894 main_v910 (subi : (⟨S_, .i32⟩ : BufTy).Contents (Elt F) → (⟨S_, .i32⟩ : BufTy).Contents (Elt F) → (⟨S_, .i32⟩ : BufTy).Contents (Elt F)),
    StableHlo.binary main_v909 main_v904 main_v911 (subi : (⟨S_, .i32⟩ : BufTy).Contents (Elt F) → (⟨S_, .i32⟩ : BufTy).Contents (Elt F) → (⟨S_, .i32⟩ : BufTy).Contents (Elt F)),
    StableHlo.nullary main_v912 (iotaInDim S7 32 0),
    StableHlo.nullary main_v913 (iotaInDim S7 32 0),
    StableHlo.unary main_v910 main_v914 (broadcastInDim S7 ![] bcast_S_S7 : (⟨S_, .i32⟩ : BufTy).Contents (Elt F) → (⟨S7, .i32⟩ : BufTy).Contents (Elt F)),
    StableHlo.binary main_v912 main_v914 main_v915 (muli : (⟨S7, .i32⟩ : BufTy).Contents (Elt F) → (⟨S7, .i32⟩ : BufTy).Contents (Elt F) → (⟨S7, .i32⟩ : BufTy).Contents (Elt F)),
    StableHlo.nullary main_c_116 (constantI S_ 32 7#32),
    StableHlo.TRef.unary (.of main_c_116 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S7, .i32⟩) (broadcastInDim S7 ![] bcast_S_S7),
    StableHlo.TRef.binary (.of main_v915 : StableHlo.TRef sig ⟨S7, .i32⟩) (.of main_call68_v1 : StableHlo.TRef sig ⟨S7, .i32⟩) (.of main_call68_v2 : StableHlo.TRef sig ⟨S7, .i32⟩) Host.divsi,
    StableHlo.TRef.unary (.of main_v915 : StableHlo.TRef sig ⟨S7, .i32⟩) (.of main_call68_v3 : StableHlo.TRef sig ⟨S7, .i32⟩) signi,
    StableHlo.TRef.unary (.of main_call68_v0 : StableHlo.TRef sig ⟨S_, .i32⟩) (.of main_call68_v4 : StableHlo.TRef sig ⟨S_, .i32⟩) signi,
    StableHlo.TRef.unary (.of main_call68_v4 : StableHlo.TRef sig ⟨S_, .i32⟩) (.of main_call68_v5 : StableHlo.TRef sig ⟨S7, .i32⟩) (broadcastInDim S7 ![] bcast_S_S7),
    StableHlo.TRef.binary (.of main_call68_v3 : StableHlo.TRef sig ⟨S7, .i32⟩) (.of main_call68_v5 : StableHlo.TRef sig ⟨S7, .i32⟩) (.of main_call68_v6 : StableHlo.TRef sig ⟨S7, .i1⟩) (cmpi .ne),
    StableHlo.TRef.unary (.of main_call68_v0 : StableHlo.TRef sig ⟨S_, .i32⟩) (.of main_call68_v7 : StableHlo.TRef sig ⟨S7, .i32⟩) (broadcastInDim S7 ![] bcast_S_S7),
    StableHlo.TRef.binary (.of main_v915 : StableHlo.TRef sig ⟨S7, .i32⟩) (.of main_call68_v7 : StableHlo.TRef sig ⟨S7, .i32⟩) (.of main_call68_v8 : StableHlo.TRef sig ⟨S7, .i32⟩) Host.remsi,
    StableHlo.TRef.nullary (.of main_call68_c : StableHlo.TRef sig ⟨S_, .i32⟩) (constantI S_ 32 0#32),
    StableHlo.TRef.unary (.of main_call68_c : StableHlo.TRef sig ⟨S_, .i32⟩) (.of main_call68_v9 : StableHlo.TRef sig ⟨S7, .i32⟩) (broadcastInDim S7 ![] bcast_S_S7),
    StableHlo.TRef.binary (.of main_call68_v8 : StableHlo.TRef sig ⟨S7, .i32⟩) (.of main_call68_v9 : StableHlo.TRef sig ⟨S7, .i32⟩) (.of main_call68_v10 : StableHlo.TRef sig ⟨S7, .i1⟩) (cmpi .ne),
    StableHlo.TRef.binary (.of main_call68_v6 : StableHlo.TRef sig ⟨S7, .i1⟩) (.of main_call68_v10 : StableHlo.TRef sig ⟨S7, .i1⟩) (.of main_call68_v11 : StableHlo.TRef sig ⟨S7, .i1⟩) andi,
    StableHlo.TRef.nullary (.of main_call68_c_0 : StableHlo.TRef sig ⟨S_, .i32⟩) (constantI S_ 32 1#32),
    StableHlo.TRef.unary (.of main_call68_c_0 : StableHlo.TRef sig ⟨S_, .i32⟩) (.of main_call68_v12 : StableHlo.TRef sig ⟨S7, .i32⟩) (broadcastInDim S7 ![] bcast_S_S7),
    StableHlo.TRef.binary (.of main_call68_v2 : StableHlo.TRef sig ⟨S7, .i32⟩) (.of main_call68_v12 : StableHlo.TRef sig ⟨S7, .i32⟩) (.of main_call68_v13 : StableHlo.TRef sig ⟨S7, .i32⟩) subi,
    StableHlo.TRef.ternary (.of main_call68_v11 : StableHlo.TRef sig ⟨S7, .i1⟩) (.of main_call68_v13 : StableHlo.TRef sig ⟨S7, .i32⟩) (.of main_call68_v2 : StableHlo.TRef sig ⟨S7, .i32⟩) (.of main_v916 : StableHlo.TRef sig ⟨S7, .i32⟩) select,
    StableHlo.unary main_v894 main_v917 (broadcastInDim S7 ![] bcast_S_S7 : (⟨S_, .i32⟩ : BufTy).Contents (Elt F) → (⟨S7, .i32⟩ : BufTy).Contents (Elt F)),
    StableHlo.binary main_v917 main_v916 main_v918 (addi : (⟨S7, .i32⟩ : BufTy).Contents (Elt F) → (⟨S7, .i32⟩ : BufTy).Contents (Elt F) → (⟨S7, .i32⟩ : BufTy).Contents (Elt F)),
    StableHlo.nullary main_c_117 (constantI S_ 32 1#32),
    StableHlo.unary main_c_117 main_v919 (broadcastInDim S7 ![] bcast_S_S7 : (⟨S_, .i32⟩ : BufTy).Contents (Elt F) → (⟨S7, .i32⟩ : BufTy).Contents (Elt F)),
    StableHlo.binary main_v912 main_v919 main_v920 (addi : (⟨S7, .i32⟩ : BufTy).Contents (Elt F) → (⟨S7, .i32⟩ : BufTy).Contents (Elt F) → (⟨S7, .i32⟩ : BufTy).Contents (Elt F)),
    StableHlo.unary main_v920 main_v921 (negi : (⟨S7, .i32⟩ : BufTy).Contents (Elt F) → (⟨S7, .i32⟩ : BufTy).Contents (Elt F)),
    StableHlo.unary main_v910 main_v922 (broadcastInDim S7 ![] bcast_S_S7 : (⟨S_, .i32⟩ : BufTy).Contents (Elt F) → (⟨S7, .i32⟩ : BufTy).Contents (Elt F)),
    StableHlo.binary main_v921 main_v922 main_v923 (muli : (⟨S7, .i32⟩ : BufTy).Contents (Elt F) → (⟨S7, .i32⟩ : BufTy).Contents (Elt F) → (⟨S7, .i32⟩ : BufTy).Contents (Elt F)),
    StableHlo.nullary main_c_118 (constantI S_ 32 7#32) ]
/-- The buffers those operations write, in order. -/
abbrev ops35_W : List (Ref sig .tc) :=
  [main_cst_115, main_v887, main_v888, main_v889, main_v890, main_v891, main_v892, main_v893, main_v894, main_v895, main_v896, main_v897, main_v898, main_v899, main_v900, main_v901, main_v902, main_v903, main_v904, main_v905, main_v906, main_v907, main_v908, main_v909, main_v910, main_v911, main_v912, main_v913, main_v914, main_v915, main_c_116, main_call68_v0, main_call68_v1, main_call68_v2, main_call68_v3, main_call68_v4, main_call68_v5, main_call68_v6, main_call68_v7, main_call68_v8, main_call68_c, main_call68_v9, main_call68_v10, main_call68_v11, main_call68_c_0, main_call68_v12, main_call68_v13, main_v916, main_v917, main_v918, main_c_117, main_v919, main_v920, main_v921, main_v922, main_v923, main_c_118]
/-- Each operation writes its own result buffer and nothing else. -/
theorem ops35_writes : (ops35 : List (HloOp τ sig (Elt F))).Forall fun op => op.writes ⊆ (ops35_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1831 to 1878 of the host part, in order. -/
abbrev ops36 : List (HloOp τ sig (Elt F)) :=
  [ StableHlo.TRef.unary (.of main_c_118 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S7, .i32⟩) (broadcastInDim S7 ![] bcast_S_S7),
    StableHlo.TRef.binary (.of main_v923 : StableHlo.TRef sig ⟨S7, .i32⟩) (.of main_call69_v1 : StableHlo.TRef sig ⟨S7, .i32⟩) (.of main_call69_v2 : StableHlo.TRef sig ⟨S7, .i32⟩) Host.divsi,
    StableHlo.TRef.unary (.of main_v923 : StableHlo.TRef sig ⟨S7, .i32⟩) (.of main_call69_v3 : StableHlo.TRef sig ⟨S7, .i32⟩) signi,
    StableHlo.TRef.unary (.of main_call69_v0 : StableHlo.TRef sig ⟨S_, .i32⟩) (.of main_call69_v4 : StableHlo.TRef sig ⟨S_, .i32⟩) signi,
    StableHlo.TRef.unary (.of main_call69_v4 : StableHlo.TRef sig ⟨S_, .i32⟩) (.of main_call69_v5 : StableHlo.TRef sig ⟨S7, .i32⟩) (broadcastInDim S7 ![] bcast_S_S7),
    StableHlo.TRef.binary (.of main_call69_v3 : StableHlo.TRef sig ⟨S7, .i32⟩) (.of main_call69_v5 : StableHlo.TRef sig ⟨S7, .i32⟩) (.of main_call69_v6 : StableHlo.TRef sig ⟨S7, .i1⟩) (cmpi .ne),
    StableHlo.TRef.unary (.of main_call69_v0 : StableHlo.TRef sig ⟨S_, .i32⟩) (.of main_call69_v7 : StableHlo.TRef sig ⟨S7, .i32⟩) (broadcastInDim S7 ![] bcast_S_S7),
    StableHlo.TRef.binary (.of main_v923 : StableHlo.TRef sig ⟨S7, .i32⟩) (.of main_call69_v7 : StableHlo.TRef sig ⟨S7, .i32⟩) (.of main_call69_v8 : StableHlo.TRef sig ⟨S7, .i32⟩) Host.remsi,
    StableHlo.TRef.nullary (.of main_call69_c : StableHlo.TRef sig ⟨S_, .i32⟩) (constantI S_ 32 0#32),
    StableHlo.TRef.unary (.of main_call69_c : StableHlo.TRef sig ⟨S_, .i32⟩) (.of main_call69_v9 : StableHlo.TRef sig ⟨S7, .i32⟩) (broadcastInDim S7 ![] bcast_S_S7),
    StableHlo.TRef.binary (.of main_call69_v8 : StableHlo.TRef sig ⟨S7, .i32⟩) (.of main_call69_v9 : StableHlo.TRef sig ⟨S7, .i32⟩) (.of main_call69_v10 : StableHlo.TRef sig ⟨S7, .i1⟩) (cmpi .ne),
    StableHlo.TRef.binary (.of main_call69_v6 : StableHlo.TRef sig ⟨S7, .i1⟩) (.of main_call69_v10 : StableHlo.TRef sig ⟨S7, .i1⟩) (.of main_call69_v11 : StableHlo.TRef sig ⟨S7, .i1⟩) andi,
    StableHlo.TRef.nullary (.of main_call69_c_0 : StableHlo.TRef sig ⟨S_, .i32⟩) (constantI S_ 32 1#32),
    StableHlo.TRef.unary (.of main_call69_c_0 : StableHlo.TRef sig ⟨S_, .i32⟩) (.of main_call69_v12 : StableHlo.TRef sig ⟨S7, .i32⟩) (broadcastInDim S7 ![] bcast_S_S7),
    StableHlo.TRef.binary (.of main_call69_v2 : StableHlo.TRef sig ⟨S7, .i32⟩) (.of main_call69_v12 : StableHlo.TRef sig ⟨S7, .i32⟩) (.of main_call69_v13 : StableHlo.TRef sig ⟨S7, .i32⟩) subi,
    StableHlo.TRef.ternary (.of main_call69_v11 : StableHlo.TRef sig ⟨S7, .i1⟩) (.of main_call69_v13 : StableHlo.TRef sig ⟨S7, .i32⟩) (.of main_call69_v2 : StableHlo.TRef sig ⟨S7, .i32⟩) (.of main_v924 : StableHlo.TRef sig ⟨S7, .i32⟩) select,
    StableHlo.unary main_v894 main_v925 (broadcastInDim S7 ![] bcast_S_S7 : (⟨S_, .i32⟩ : BufTy).Contents (Elt F) → (⟨S7, .i32⟩ : BufTy).Contents (Elt F)),
    StableHlo.binary main_v925 main_v924 main_v926 (subi : (⟨S7, .i32⟩ : BufTy).Contents (Elt F) → (⟨S7, .i32⟩ : BufTy).Contents (Elt F) → (⟨S7, .i32⟩ : BufTy).Contents (Elt F)),
    StableHlo.unary main_v911 main_v927 (broadcastInDim S7 ![] bcast_S_S7 : (⟨S_, .i32⟩ : BufTy).Contents (Elt F) → (⟨S7, .i32⟩ : BufTy).Contents (Elt F)),
    StableHlo.binary main_v913 main_v927 main_v928 (muli : (⟨S7, .i32⟩ : BufTy).Contents (Elt F) → (⟨S7, .i32⟩ : BufTy).Contents (Elt F) → (⟨S7, .i32⟩ : BufTy).Contents (Elt F)),
    StableHlo.nullary main_c_119 (constantI S_ 32 7#32),
    StableHlo.TRef.unary (.of main_c_119 : StableHlo.TRef sig ⟨S_, .i32⟩) (.of main_call70_v0 : StableHlo.TRef sig ⟨S_, .i32⟩) id,
    StableHlo.TRef.unary (.of main_call70_v0 : StableHlo.TRef sig ⟨S_, .i32⟩) (.of main_call70_v1 : StableHlo.TRef sig ⟨S7, .i32⟩) (broadcastInDim S7 ![] bcast_S_S7),
    StableHlo.TRef.binary (.of main_v928 : StableHlo.TRef sig ⟨S7, .i32⟩) (.of main_call70_v1 : StableHlo.TRef sig ⟨S7, .i32⟩) (.of main_call70_v2 : StableHlo.TRef sig ⟨S7, .i32⟩) Host.divsi,
    StableHlo.TRef.unary (.of main_v928 : StableHlo.TRef sig ⟨S7, .i32⟩) (.of main_call70_v3 : StableHlo.TRef sig ⟨S7, .i32⟩) signi,
    StableHlo.TRef.unary (.of main_call70_v0 : StableHlo.TRef sig ⟨S_, .i32⟩) (.of main_call70_v4 : StableHlo.TRef sig ⟨S_, .i32⟩) signi,
    StableHlo.TRef.unary (.of main_call70_v4 : StableHlo.TRef sig ⟨S_, .i32⟩) (.of main_call70_v5 : StableHlo.TRef sig ⟨S7, .i32⟩) (broadcastInDim S7 ![] bcast_S_S7),
    StableHlo.TRef.binary (.of main_call70_v3 : StableHlo.TRef sig ⟨S7, .i32⟩) (.of main_call70_v5 : StableHlo.TRef sig ⟨S7, .i32⟩) (.of main_call70_v6 : StableHlo.TRef sig ⟨S7, .i1⟩) (cmpi .ne),
    StableHlo.TRef.unary (.of main_call70_v0 : StableHlo.TRef sig ⟨S_, .i32⟩) (.of main_call70_v7 : StableHlo.TRef sig ⟨S7, .i32⟩) (broadcastInDim S7 ![] bcast_S_S7),
    StableHlo.TRef.binary (.of main_v928 : StableHlo.TRef sig ⟨S7, .i32⟩) (.of main_call70_v7 : StableHlo.TRef sig ⟨S7, .i32⟩) (.of main_call70_v8 : StableHlo.TRef sig ⟨S7, .i32⟩) Host.remsi,
    StableHlo.TRef.nullary (.of main_call70_c : StableHlo.TRef sig ⟨S_, .i32⟩) (constantI S_ 32 0#32),
    StableHlo.TRef.unary (.of main_call70_c : StableHlo.TRef sig ⟨S_, .i32⟩) (.of main_call70_v9 : StableHlo.TRef sig ⟨S7, .i32⟩) (broadcastInDim S7 ![] bcast_S_S7),
    StableHlo.TRef.binary (.of main_call70_v8 : StableHlo.TRef sig ⟨S7, .i32⟩) (.of main_call70_v9 : StableHlo.TRef sig ⟨S7, .i32⟩) (.of main_call70_v10 : StableHlo.TRef sig ⟨S7, .i1⟩) (cmpi .ne),
    StableHlo.TRef.binary (.of main_call70_v6 : StableHlo.TRef sig ⟨S7, .i1⟩) (.of main_call70_v10 : StableHlo.TRef sig ⟨S7, .i1⟩) (.of main_call70_v11 : StableHlo.TRef sig ⟨S7, .i1⟩) andi,
    StableHlo.TRef.nullary (.of main_call70_c_0 : StableHlo.TRef sig ⟨S_, .i32⟩) (constantI S_ 32 1#32),
    StableHlo.TRef.unary (.of main_call70_c_0 : StableHlo.TRef sig ⟨S_, .i32⟩) (.of main_call70_v12 : StableHlo.TRef sig ⟨S7, .i32⟩) (broadcastInDim S7 ![] bcast_S_S7),
    StableHlo.TRef.binary (.of main_call70_v2 : StableHlo.TRef sig ⟨S7, .i32⟩) (.of main_call70_v12 : StableHlo.TRef sig ⟨S7, .i32⟩) (.of main_call70_v13 : StableHlo.TRef sig ⟨S7, .i32⟩) subi,
    StableHlo.TRef.ternary (.of main_call70_v11 : StableHlo.TRef sig ⟨S7, .i1⟩) (.of main_call70_v13 : StableHlo.TRef sig ⟨S7, .i32⟩) (.of main_call70_v2 : StableHlo.TRef sig ⟨S7, .i32⟩) (.of main_v929 : StableHlo.TRef sig ⟨S7, .i32⟩) select,
    StableHlo.unary main_v904 main_v930 (broadcastInDim S7 ![] bcast_S_S7 : (⟨S_, .i32⟩ : BufTy).Contents (Elt F) → (⟨S7, .i32⟩ : BufTy).Contents (Elt F)),
    StableHlo.binary main_v930 main_v929 main_v931 (addi : (⟨S7, .i32⟩ : BufTy).Contents (Elt F) → (⟨S7, .i32⟩ : BufTy).Contents (Elt F) → (⟨S7, .i32⟩ : BufTy).Contents (Elt F)),
    StableHlo.nullary main_c_120 (constantI S_ 32 1#32),
    StableHlo.unary main_c_120 main_v932 (broadcastInDim S7 ![] bcast_S_S7 : (⟨S_, .i32⟩ : BufTy).Contents (Elt F) → (⟨S7, .i32⟩ : BufTy).Contents (Elt F)),
    StableHlo.binary main_v913 main_v932 main_v933 (addi : (⟨S7, .i32⟩ : BufTy).Contents (Elt F) → (⟨S7, .i32⟩ : BufTy).Contents (Elt F) → (⟨S7, .i32⟩ : BufTy).Contents (Elt F)),
    StableHlo.unary main_v933 main_v934 (negi : (⟨S7, .i32⟩ : BufTy).Contents (Elt F) → (⟨S7, .i32⟩ : BufTy).Contents (Elt F)),
    StableHlo.unary main_v911 main_v935 (broadcastInDim S7 ![] bcast_S_S7 : (⟨S_, .i32⟩ : BufTy).Contents (Elt F) → (⟨S7, .i32⟩ : BufTy).Contents (Elt F)),
    StableHlo.binary main_v934 main_v935 main_v936 (muli : (⟨S7, .i32⟩ : BufTy).Contents (Elt F) → (⟨S7, .i32⟩ : BufTy).Contents (Elt F) → (⟨S7, .i32⟩ : BufTy).Contents (Elt F)),
    StableHlo.nullary main_c_121 (constantI S_ 32 7#32) ]
/-- The buffers those operations write, in order. -/
abbrev ops36_W : List (Ref sig .tc) :=
  [main_call69_v0, main_call69_v1, main_call69_v2, main_call69_v3, main_call69_v4, main_call69_v5, main_call69_v6, main_call69_v7, main_call69_v8, main_call69_c, main_call69_v9, main_call69_v10, main_call69_v11, main_call69_c_0, main_call69_v12, main_call69_v13, main_v924, main_v925, main_v926, main_v927, main_v928, main_c_119, main_call70_v0, main_call70_v1, main_call70_v2, main_call70_v3, main_call70_v4, main_call70_v5, main_call70_v6, main_call70_v7, main_call70_v8, main_call70_c, main_call70_v9, main_call70_v10, main_call70_v11, main_call70_c_0, main_call70_v12, main_call70_v13, main_v929, main_v930, main_v931, main_c_120, main_v932, main_v933, main_v934, main_v935, main_v936, main_c_121]
/-- Each operation writes its own result buffer and nothing else. -/
theorem ops36_writes : (ops36 : List (HloOp τ sig (Elt F))).Forall fun op => op.writes ⊆ (ops36_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1879 to 1937 of the host part, in order. -/
abbrev ops37 : List (HloOp τ sig (Elt F)) :=
  [ StableHlo.TRef.unary (.of main_c_121 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S7, .i32⟩) (broadcastInDim S7 ![] bcast_S_S7),
    StableHlo.TRef.binary (.of main_v936 : StableHlo.TRef sig ⟨S7, .i32⟩) (.of main_call71_v1 : StableHlo.TRef sig ⟨S7, .i32⟩) (.of main_call71_v2 : StableHlo.TRef sig ⟨S7, .i32⟩) Host.divsi,
    StableHlo.TRef.unary (.of main_v936 : StableHlo.TRef sig ⟨S7, .i32⟩) (.of main_call71_v3 : StableHlo.TRef sig ⟨S7, .i32⟩) signi,
    StableHlo.TRef.unary (.of main_call71_v0 : StableHlo.TRef sig ⟨S_, .i32⟩) (.of main_call71_v4 : StableHlo.TRef sig ⟨S_, .i32⟩) signi,
    StableHlo.TRef.unary (.of main_call71_v4 : StableHlo.TRef sig ⟨S_, .i32⟩) (.of main_call71_v5 : StableHlo.TRef sig ⟨S7, .i32⟩) (broadcastInDim S7 ![] bcast_S_S7),
    StableHlo.TRef.binary (.of main_call71_v3 : StableHlo.TRef sig ⟨S7, .i32⟩) (.of main_call71_v5 : StableHlo.TRef sig ⟨S7, .i32⟩) (.of main_call71_v6 : StableHlo.TRef sig ⟨S7, .i1⟩) (cmpi .ne),
    StableHlo.TRef.unary (.of main_call71_v0 : StableHlo.TRef sig ⟨S_, .i32⟩) (.of main_call71_v7 : StableHlo.TRef sig ⟨S7, .i32⟩) (broadcastInDim S7 ![] bcast_S_S7),
    StableHlo.TRef.binary (.of main_v936 : StableHlo.TRef sig ⟨S7, .i32⟩) (.of main_call71_v7 : StableHlo.TRef sig ⟨S7, .i32⟩) (.of main_call71_v8 : StableHlo.TRef sig ⟨S7, .i32⟩) Host.remsi,
    StableHlo.TRef.nullary (.of main_call71_c : StableHlo.TRef sig ⟨S_, .i32⟩) (constantI S_ 32 0#32),
    StableHlo.TRef.unary (.of main_call71_c : StableHlo.TRef sig ⟨S_, .i32⟩) (.of main_call71_v9 : StableHlo.TRef sig ⟨S7, .i32⟩) (broadcastInDim S7 ![] bcast_S_S7),
    StableHlo.TRef.binary (.of main_call71_v8 : StableHlo.TRef sig ⟨S7, .i32⟩) (.of main_call71_v9 : StableHlo.TRef sig ⟨S7, .i32⟩) (.of main_call71_v10 : StableHlo.TRef sig ⟨S7, .i1⟩) (cmpi .ne),
    StableHlo.TRef.binary (.of main_call71_v6 : StableHlo.TRef sig ⟨S7, .i1⟩) (.of main_call71_v10 : StableHlo.TRef sig ⟨S7, .i1⟩) (.of main_call71_v11 : StableHlo.TRef sig ⟨S7, .i1⟩) andi,
    StableHlo.TRef.nullary (.of main_call71_c_0 : StableHlo.TRef sig ⟨S_, .i32⟩) (constantI S_ 32 1#32),
    StableHlo.TRef.unary (.of main_call71_c_0 : StableHlo.TRef sig ⟨S_, .i32⟩) (.of main_call71_v12 : StableHlo.TRef sig ⟨S7, .i32⟩) (broadcastInDim S7 ![] bcast_S_S7),
    StableHlo.TRef.binary (.of main_call71_v2 : StableHlo.TRef sig ⟨S7, .i32⟩) (.of main_call71_v12 : StableHlo.TRef sig ⟨S7, .i32⟩) (.of main_call71_v13 : StableHlo.TRef sig ⟨S7, .i32⟩) subi,
    StableHlo.TRef.ternary (.of main_call71_v11 : StableHlo.TRef sig ⟨S7, .i1⟩) (.of main_call71_v13 : StableHlo.TRef sig ⟨S7, .i32⟩) (.of main_call71_v2 : StableHlo.TRef sig ⟨S7, .i32⟩) (.of main_v937 : StableHlo.TRef sig ⟨S7, .i32⟩) select,
    StableHlo.unary main_v904 main_v938 (broadcastInDim S7 ![] bcast_S_S7 : (⟨S_, .i32⟩ : BufTy).Contents (Elt F) → (⟨S7, .i32⟩ : BufTy).Contents (Elt F)),
    StableHlo.binary main_v938 main_v937 main_v939 (subi : (⟨S7, .i32⟩ : BufTy).Contents (Elt F) → (⟨S7, .i32⟩ : BufTy).Contents (Elt F) → (⟨S7, .i32⟩ : BufTy).Contents (Elt F)),
    StableHlo.nullary main_v940 (iotaInDim S64 32 0),
    StableHlo.nullary main_v941 (iotaInDim S64 32 0),
    StableHlo.unary main_v940 main_v942 (broadcastInDim S1x64 ![1] bcast_S64_S1x64_1 : (⟨S64, .i32⟩ : BufTy).Contents (Elt F) → (⟨S1x64, .i32⟩ : BufTy).Contents (Elt F)),
    StableHlo.unary main_v918 main_v943 (broadcastInDim S7x1 ![0] bcast_S7_S7x1_0 : (⟨S7, .i32⟩ : BufTy).Contents (Elt F) → (⟨S7x1, .i32⟩ : BufTy).Contents (Elt F)),
    StableHlo.unary main_v942 main_v944 (broadcastInDim S7x64 ![0, 1] bcast_S1x64_S7x64_0_1 : (⟨S1x64, .i32⟩ : BufTy).Contents (Elt F) → (⟨S7x64, .i32⟩ : BufTy).Contents (Elt F)),
    StableHlo.unary main_v943 main_v945 (broadcastInDim S7x64 ![0, 1] bcast_S7x1_S7x64_0_1 : (⟨S7x1, .i32⟩ : BufTy).Contents (Elt F) → (⟨S7x64, .i32⟩ : BufTy).Contents (Elt F)),
    StableHlo.binary main_v944 main_v945 main_v946 (cmpi .sge : (⟨S7x64, .i32⟩ : BufTy).Contents (Elt F) → (⟨S7x64, .i32⟩ : BufTy).Contents (Elt F) → (⟨S7x64, .i1⟩ : BufTy).Contents (Elt F)),
    StableHlo.unary main_v940 main_v947 (broadcastInDim S1x64 ![1] bcast_S64_S1x64_1 : (⟨S64, .i32⟩ : BufTy).Contents (Elt F) → (⟨S1x64, .i32⟩ : BufTy).Contents (Elt F)),
    StableHlo.unary main_v926 main_v948 (broadcastInDim S7x1 ![0] bcast_S7_S7x1_0 : (⟨S7, .i32⟩ : BufTy).Contents (Elt F) → (⟨S7x1, .i32⟩ : BufTy).Contents (Elt F)),
    StableHlo.unary main_v947 main_v949 (broadcastInDim S7x64 ![0, 1] bcast_S1x64_S7x64_0_1 : (⟨S1x64, .i32⟩ : BufTy).Contents (Elt F) → (⟨S7x64, .i32⟩ : BufTy).Contents (Elt F)),
    StableHlo.unary main_v948 main_v950 (broadcastInDim S7x64 ![0, 1] bcast_S7x1_S7x64_0_1 : (⟨S7x1, .i32⟩ : BufTy).Contents (Elt F) → (⟨S7x64, .i32⟩ : BufTy).Contents (Elt F)),
    StableHlo.binary main_v949 main_v950 main_v951 (cmpi .slt : (⟨S7x64, .i32⟩ : BufTy).Contents (Elt F) → (⟨S7x64, .i32⟩ : BufTy).Contents (Elt F) → (⟨S7x64, .i1⟩ : BufTy).Contents (Elt F)),
    StableHlo.binary main_v946 main_v951 main_v952 (andi : (⟨S7x64, .i1⟩ : BufTy).Contents (Elt F) → (⟨S7x64, .i1⟩ : BufTy).Contents (Elt F) → (⟨S7x64, .i1⟩ : BufTy).Contents (Elt F)),
    StableHlo.unary main_v941 main_v953 (broadcastInDim S1x64 ![1] bcast_S64_S1x64_1 : (⟨S64, .i32⟩ : BufTy).Contents (Elt F) → (⟨S1x64, .i32⟩ : BufTy).Contents (Elt F)),
    StableHlo.unary main_v931 main_v954 (broadcastInDim S7x1 ![0] bcast_S7_S7x1_0 : (⟨S7, .i32⟩ : BufTy).Contents (Elt F) → (⟨S7x1, .i32⟩ : BufTy).Contents (Elt F)),
    StableHlo.unary main_v953 main_v955 (broadcastInDim S7x64 ![0, 1] bcast_S1x64_S7x64_0_1 : (⟨S1x64, .i32⟩ : BufTy).Contents (Elt F) → (⟨S7x64, .i32⟩ : BufTy).Contents (Elt F)),
    StableHlo.unary main_v954 main_v956 (broadcastInDim S7x64 ![0, 1] bcast_S7x1_S7x64_0_1 : (⟨S7x1, .i32⟩ : BufTy).Contents (Elt F) → (⟨S7x64, .i32⟩ : BufTy).Contents (Elt F)),
    StableHlo.binary main_v955 main_v956 main_v957 (cmpi .sge : (⟨S7x64, .i32⟩ : BufTy).Contents (Elt F) → (⟨S7x64, .i32⟩ : BufTy).Contents (Elt F) → (⟨S7x64, .i1⟩ : BufTy).Contents (Elt F)),
    StableHlo.unary main_v941 main_v958 (broadcastInDim S1x64 ![1] bcast_S64_S1x64_1 : (⟨S64, .i32⟩ : BufTy).Contents (Elt F) → (⟨S1x64, .i32⟩ : BufTy).Contents (Elt F)),
    StableHlo.unary main_v939 main_v959 (broadcastInDim S7x1 ![0] bcast_S7_S7x1_0 : (⟨S7, .i32⟩ : BufTy).Contents (Elt F) → (⟨S7x1, .i32⟩ : BufTy).Contents (Elt F)),
    StableHlo.unary main_v958 main_v960 (broadcastInDim S7x64 ![0, 1] bcast_S1x64_S7x64_0_1 : (⟨S1x64, .i32⟩ : BufTy).Contents (Elt F) → (⟨S7x64, .i32⟩ : BufTy).Contents (Elt F)),
    StableHlo.unary main_v959 main_v961 (broadcastInDim S7x64 ![0, 1] bcast_S7x1_S7x64_0_1 : (⟨S7x1, .i32⟩ : BufTy).Contents (Elt F) → (⟨S7x64, .i32⟩ : BufTy).Contents (Elt F)),
    StableHlo.binary main_v960 main_v961 main_v962 (cmpi .slt : (⟨S7x64, .i32⟩ : BufTy).Contents (Elt F) → (⟨S7x64, .i32⟩ : BufTy).Contents (Elt F) → (⟨S7x64, .i1⟩ : BufTy).Contents (Elt F)),
    StableHlo.binary main_v957 main_v962 main_v963 (andi : (⟨S7x64, .i1⟩ : BufTy).Contents (Elt F) → (⟨S7x64, .i1⟩ : BufTy).Contents (Elt F) → (⟨S7x64, .i1⟩ : BufTy).Contents (Elt F)),
    StableHlo.unary main_v952 main_v964 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v965 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_122 (constant S_ .f32 0xFF800000#32),
    StableHlo.TRef.unary (.of main_v964 : StableHlo.TRef sig ⟨S7x1x64x1, .i1⟩) (.of main_call72_v0 : StableHlo.TRef sig ⟨S7x512x64x64, .i1⟩) (broadcastInDim S7x512x64x64 ![0, 1, 2, 3] bcast_S7x1x64x1_S7x512x64x64_0_1_2_3),
    StableHlo.TRef.unary (.of main_v965 : StableHlo.TRef sig ⟨S1x512x64x64, .f32⟩) (.of main_call72_v1 : StableHlo.TRef sig ⟨S7x512x64x64, .f32⟩) (broadcastInDim S7x512x64x64 ![0, 1, 2, 3] bcast_S1x512x64x64_S7x512x64x64_0_1_2_3),
    StableHlo.TRef.unary (.of main_cst_122 : StableHlo.TRef sig ⟨S_, .f32⟩) (.of main_call72_v2 : StableHlo.TRef sig ⟨S7x512x64x64, .f32⟩) (broadcastInDim S7x512x64x64 ![] bcast_S_S7x512x64x64),
    StableHlo.TRef.ternary (.of main_call72_v0 : StableHlo.TRef sig ⟨S7x512x64x64, .i1⟩) (.of main_call72_v1 : StableHlo.TRef sig ⟨S7x512x64x64, .f32⟩) (.of main_call72_v2 : StableHlo.TRef sig ⟨S7x512x64x64, .f32⟩) (.of main_v966 : StableHlo.TRef sig ⟨S7x512x64x64, .f32⟩) select,
    StableHlo.nullary main_cst_123 (constant S_ .f32 0xFF800000#32),
    StableHlo.binary main_v966 main_cst_123 main_v967 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v963 main_v968 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v967 main_v969 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_124 (constant S_ .f32 0xFF800000#32),
    StableHlo.TRef.unary (.of main_v968 : StableHlo.TRef sig ⟨S1x1x7x64, .i1⟩) (.of main_call73_v0 : StableHlo.TRef sig ⟨S7x512x7x64, .i1⟩) (broadcastInDim S7x512x7x64 ![0, 1, 2, 3] bcast_S1x1x7x64_S7x512x7x64_0_1_2_3),
    StableHlo.TRef.unary (.of main_v969 : StableHlo.TRef sig ⟨S7x512x1x64, .f32⟩) (.of main_call73_v1 : StableHlo.TRef sig ⟨S7x512x7x64, .f32⟩) (broadcastInDim S7x512x7x64 ![0, 1, 2, 3] bcast_S7x512x1x64_S7x512x7x64_0_1_2_3),
    StableHlo.TRef.unary (.of main_cst_124 : StableHlo.TRef sig ⟨S_, .f32⟩) (.of main_call73_v2 : StableHlo.TRef sig ⟨S7x512x7x64, .f32⟩) (broadcastInDim S7x512x7x64 ![] bcast_S_S7x512x7x64),
    StableHlo.TRef.ternary (.of main_call73_v0 : StableHlo.TRef sig ⟨S7x512x7x64, .i1⟩) (.of main_call73_v1 : StableHlo.TRef sig ⟨S7x512x7x64, .f32⟩) (.of main_call73_v2 : StableHlo.TRef sig ⟨S7x512x7x64, .f32⟩) (.of main_v970 : StableHlo.TRef sig ⟨S7x512x7x64, .f32⟩) select ]
/-- The buffers those operations write, in order. -/
abbrev ops37_W : List (Ref sig .tc) :=
  [main_call71_v0, main_call71_v1, main_call71_v2, main_call71_v3, main_call71_v4, main_call71_v5, main_call71_v6, main_call71_v7, main_call71_v8, main_call71_c, main_call71_v9, main_call71_v10, main_call71_v11, main_call71_c_0, main_call71_v12, main_call71_v13, main_v937, main_v938, main_v939, main_v940, main_v941, main_v942, main_v943, main_v944, main_v945, main_v946, main_v947, main_v948, main_v949, main_v950, main_v951, main_v952, main_v953, main_v954, main_v955, main_v956, main_v957, main_v958, main_v959, main_v960, main_v961, main_v962, main_v963, main_v964, main_v965, main_cst_122, main_call72_v0, main_call72_v1, main_call72_v2, main_v966, main_cst_123, main_v967, main_v968, main_v969, main_cst_124, main_call73_v0, main_call73_v1, main_call73_v2, main_v970]
/-- Each operation writes its own result buffer and nothing else. -/
theorem ops37_writes : (ops37 : List (HloOp τ sig (Elt F))).Forall fun op => op.writes ⊆ (ops37_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part5 : List (HloOp τ sig (Elt F)) :=
  ops32 ++ ops33 ++ ops34 ++ ops35 ++ ops36 ++ ops37
/-- The generated stretches 124 to 147, in order, are this part: the same operations, cut elsewhere. -/
theorem part5_is : ([hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147] : List (List (HloOp τ sig (Elt F)))).flatten = part5 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 1610 to 1666 of the host part, in order. -/
abbrev ops32 : List (HloOp τ sig (Elt F)) :=
  [ StableHlo.nullary main_cst_105 (constant S_ .f32 0xFF800000#32),
    StableHlo.binary main_v802 main_cst_105 main_v803 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v803 main_v804 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v804 main_v805 rfl shapeCasts_S512x7x7_S25088,
    StableHlo.unary main_v18 main_v806 ((extractStridedSlice S1x1 ![1, 1] · slices_S3x4_S1x1_1_1) : (⟨S3x4, .i32⟩ : BufTy).Contents (Elt F) → (⟨S1x1, .i32⟩ : BufTy).Contents (Elt F)),
    StableHlo.reshape main_v806 main_v807 rfl shapeCasts_S1x1_S_,
    StableHlo.unary main_v23 main_v808 ((extractStridedSlice S1x1 ![2, 1] · slices_S4x4_S1x1_2_1) : (⟨S4x4, .i32⟩ : BufTy).Contents (Elt F) → (⟨S1x1, .i32⟩ : BufTy).Contents (Elt F)),
    StableHlo.reshape main_v808 main_v809 rfl shapeCasts_S1x1_S_,
    StableHlo.binary main_v807 main_v809 main_v810 (minsi : (⟨S_, .i32⟩ : BufTy).Contents (Elt F) → (⟨S_, .i32⟩ : BufTy).Contents (Elt F) → (⟨S_, .i32⟩ : BufTy).Contents (Elt F)),
    StableHlo.unary main_v18 main_v811 ((extractStridedSlice S1x1 ![1, 3] · slices_S3x4_S1x1_1_3) : (⟨S3x4, .i32⟩ : BufTy).Contents (Elt F) → (⟨S1x1, .i32⟩ : BufTy).Contents (Elt F)),
    StableHlo.reshape main_v811 main_v812 rfl shapeCasts_S1x1_S_,
    StableHlo.unary main_v23 main_v813 ((extractStridedSlice S1x1 ![2, 3] · slices_S4x4_S1x1_2_3) : (⟨S4x4, .i32⟩ : BufTy).Contents (Elt F) → (⟨S1x1, .i32⟩ : BufTy).Contents (Elt F)),
    StableHlo.reshape main_v813 main_v814 rfl shapeCasts_S1x1_S_,
    StableHlo.binary main_v812 main_v814 main_v815 (maxsi : (⟨S_, .i32⟩ : BufTy).Contents (Elt F) → (⟨S_, .i32⟩ : BufTy).Contents (Elt F) → (⟨S_, .i32⟩ : BufTy).Contents (Elt F)),
    StableHlo.unary main_v18 main_v816 ((extractStridedSlice S1x1 ![1, 0] · slices_S3x4_S1x1_1_0) : (⟨S3x4, .i32⟩ : BufTy).Contents (Elt F) → (⟨S1x1, .i32⟩ : BufTy).Contents (Elt F)),
    StableHlo.reshape main_v816 main_v817 rfl shapeCasts_S1x1_S_,
    StableHlo.unary main_v23 main_v818 ((extractStridedSlice S1x1 ![2, 0] · slices_S4x4_S1x1_2_0) : (⟨S4x4, .i32⟩ : BufTy).Contents (Elt F) → (⟨S1x1, .i32⟩ : BufTy).Contents (Elt F)),
    StableHlo.reshape main_v818 main_v819 rfl shapeCasts_S1x1_S_,
    StableHlo.binary main_v817 main_v819 main_v820 (minsi : (⟨S_, .i32⟩ : BufTy).Contents (Elt F) → (⟨S_, .i32⟩ : BufTy).Contents (Elt F) → (⟨S_, .i32⟩ : BufTy).Contents (Elt F)),
    StableHlo.unary main_v18 main_v821 ((extractStridedSlice S1x1 ![1, 2] · slices_S3x4_S1x1_1_2) : (⟨S3x4, .i32⟩ : BufTy).Contents (Elt F) → (⟨S1x1, .i32⟩ : BufTy).Contents (Elt F)),
    StableHlo.reshape main_v821 main_v822 rfl shapeCasts_S1x1_S_,
    StableHlo.unary main_v23 main_v823 ((extractStridedSlice S1x1 ![2, 2] · slices_S4x4_S1x1_2_2) : (⟨S4x4, .i32⟩ : BufTy).Contents (Elt F) → (⟨S1x1, .i32⟩ : BufTy).Contents (Elt F)),
    StableHlo.reshape main_v823 main_v824 rfl shapeCasts_S1x1_S_,
    StableHlo.binary main_v822 main_v824 main_v825 (maxsi : (⟨S_, .i32⟩ : BufTy).Contents (Elt F) → (⟨S_, .i32⟩ : BufTy).Contents (Elt F) → (⟨S_, .i32⟩ : BufTy).Contents (Elt F)),
    StableHlo.binary main_v815 main_v810 main_v826 (subi : (⟨S_, .i32⟩ : BufTy).Contents (Elt F) → (⟨S_, .i32⟩ : BufTy).Contents (Elt F) → (⟨S_, .i32⟩ : BufTy).Contents (Elt F)),
    StableHlo.binary main_v825 main_v820 main_v827 (subi : (⟨S_, .i32⟩ : BufTy).Contents (Elt F) → (⟨S_, .i32⟩ : BufTy).Contents (Elt F) → (⟨S_, .i32⟩ : BufTy).Contents (Elt F)),
    StableHlo.nullary main_v828 (iotaInDim S7 32 0),
    StableHlo.nullary main_v829 (iotaInDim S7 32 0),
    StableHlo.unary main_v826 main_v830 (broadcastInDim S7 ![] bcast_S_S7 : (⟨S_, .i32⟩ : BufTy).Contents (Elt F) → (⟨S7, .i32⟩ : BufTy).Contents (Elt F)),
    StableHlo.binary main_v828 main_v830 main_v831 (muli : (⟨S7, .i32⟩ : BufTy).Contents (Elt F) → (⟨S7, .i32⟩ : BufTy).Contents (Elt F) → (⟨S7, .i32⟩ : BufTy).Contents (Elt F)),
    StableHlo.nullary main_c_106 (constantI S_ 32 7#32),
    StableHlo.TRef.unary (.of main_c_106 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S7, .i32⟩) (broadcastInDim S7 ![] bcast_S_S7),
    StableHlo.TRef.binary (.of main_v831 : StableHlo.TRef sig ⟨S7, .i32⟩) (.of main_call62_v1 : StableHlo.TRef sig ⟨S7, .i32⟩) (.of main_call62_v2 : StableHlo.TRef sig ⟨S7, .i32⟩) Host.divsi,
    StableHlo.TRef.unary (.of main_v831 : StableHlo.TRef sig ⟨S7, .i32⟩) (.of main_call62_v3 : StableHlo.TRef sig ⟨S7, .i32⟩) signi,
    StableHlo.TRef.unary (.of main_call62_v0 : StableHlo.TRef sig ⟨S_, .i32⟩) (.of main_call62_v4 : StableHlo.TRef sig ⟨S_, .i32⟩) signi,
    StableHlo.TRef.unary (.of main_call62_v4 : StableHlo.TRef sig ⟨S_, .i32⟩) (.of main_call62_v5 : StableHlo.TRef sig ⟨S7, .i32⟩) (broadcastInDim S7 ![] bcast_S_S7),
    StableHlo.TRef.binary (.of main_call62_v3 : StableHlo.TRef sig ⟨S7, .i32⟩) (.of main_call62_v5 : StableHlo.TRef sig ⟨S7, .i32⟩) (.of main_call62_v6 : StableHlo.TRef sig ⟨S7, .i1⟩) (cmpi .ne),
    StableHlo.TRef.unary (.of main_call62_v0 : StableHlo.TRef sig ⟨S_, .i32⟩) (.of main_call62_v7 : StableHlo.TRef sig ⟨S7, .i32⟩) (broadcastInDim S7 ![] bcast_S_S7),
    StableHlo.TRef.binary (.of main_v831 : StableHlo.TRef sig ⟨S7, .i32⟩) (.of main_call62_v7 : StableHlo.TRef sig ⟨S7, .i32⟩) (.of main_call62_v8 : StableHlo.TRef sig ⟨S7, .i32⟩) Host.remsi,
    StableHlo.TRef.nullary (.of main_call62_c : StableHlo.TRef sig ⟨S_, .i32⟩) (constantI S_ 32 0#32),
    StableHlo.TRef.unary (.of main_call62_c : StableHlo.TRef sig ⟨S_, .i32⟩) (.of main_call62_v9 : StableHlo.TRef sig ⟨S7, .i32⟩) (broadcastInDim S7 ![] bcast_S_S7),
    StableHlo.TRef.binary (.of main_call62_v8 : StableHlo.TRef sig ⟨S7, .i32⟩) (.of main_call62_v9 : StableHlo.TRef sig ⟨S7, .i32⟩) (.of main_call62_v10 : StableHlo.TRef sig ⟨S7, .i1⟩) (cmpi .ne),
    StableHlo.TRef.binary (.of main_call62_v6 : StableHlo.TRef sig ⟨S7, .i1⟩) (.of main_call62_v10 : StableHlo.TRef sig ⟨S7, .i1⟩) (.of main_call62_v11 : StableHlo.TRef sig ⟨S7, .i1⟩) andi,
    StableHlo.TRef.nullary (.of main_call62_c_0 : StableHlo.TRef sig ⟨S_, .i32⟩) (constantI S_ 32 1#32),
    StableHlo.TRef.unary (.of main_call62_c_0 : StableHlo.TRef sig ⟨S_, .i32⟩) (.of main_call62_v12 : StableHlo.TRef sig ⟨S7, .i32⟩) (broadcastInDim S7 ![] bcast_S_S7),
    StableHlo.TRef.binary (.of main_call62_v2 : StableHlo.TRef sig ⟨S7, .i32⟩) (.of main_call62_v12 : StableHlo.TRef sig ⟨S7, .i32⟩) (.of main_call62_v13 : StableHlo.TRef sig ⟨S7, .i32⟩) subi,
    StableHlo.TRef.ternary (.of main_call62_v11 : StableHlo.TRef sig ⟨S7, .i1⟩) (.of main_call62_v13 : StableHlo.TRef sig ⟨S7, .i32⟩) (.of main_call62_v2 : StableHlo.TRef sig ⟨S7, .i32⟩) (.of main_v832 : StableHlo.TRef sig ⟨S7, .i32⟩) select,
    StableHlo.unary main_v810 main_v833 (broadcastInDim S7 ![] bcast_S_S7 : (⟨S_, .i32⟩ : BufTy).Contents (Elt F) → (⟨S7, .i32⟩ : BufTy).Contents (Elt F)),
    StableHlo.binary main_v833 main_v832 main_v834 (addi : (⟨S7, .i32⟩ : BufTy).Contents (Elt F) → (⟨S7, .i32⟩ : BufTy).Contents (Elt F) → (⟨S7, .i32⟩ : BufTy).Contents (Elt F)),
    StableHlo.nullary main_c_107 (constantI S_ 32 1#32),
    StableHlo.unary main_c_107 main_v835 (broadcastInDim S7 ![] bcast_S_S7 : (⟨S_, .i32⟩ : BufTy).Contents (Elt F) → (⟨S7, .i32⟩ : BufTy).Contents (Elt F)),
    StableHlo.binary main_v828 main_v835 main_v836 (addi : (⟨S7, .i32⟩ : BufTy).Contents (Elt F) → (⟨S7, .i32⟩ : BufTy).Contents (Elt F) → (⟨S7, .i32⟩ : BufTy).Contents (Elt F)),
    StableHlo.unary main_v836 main_v837 (negi : (⟨S7, .i32⟩ : BufTy).Contents (Elt F) → (⟨S7, .i32⟩ : BufTy).Contents (Elt F)),
    StableHlo.unary main_v826 main_v838 (broadcastInDim S7 ![] bcast_S_S7 : (⟨S_, .i32⟩ : BufTy).Contents (Elt F) → (⟨S7, .i32⟩ : BufTy).Contents (Elt F)),
    StableHlo.binary main_v837 main_v838 main_v839 (muli : (⟨S7, .i32⟩ : BufTy).Contents (Elt F) → (⟨S7, .i32⟩ : BufTy).Contents (Elt F) → (⟨S7, .i32⟩ : BufTy).Contents (Elt F)),
    StableHlo.nullary main_c_108 (constantI S_ 32 7#32) ]
/-- The buffers those operations write, in order. -/
abbrev ops32_W : List (Ref sig .tc) :=
  [main_cst_105, main_v803, main_v804, main_v805, main_v806, main_v807, main_v808, main_v809, main_v810, main_v811, main_v812, main_v813, main_v814, main_v815, main_v816, main_v817, main_v818, main_v819, main_v820, main_v821, main_v822, main_v823, main_v824, main_v825, main_v826, main_v827, main_v828, main_v829, main_v830, main_v831, main_c_106, main_call62_v0, main_call62_v1, main_call62_v2, main_call62_v3, main_call62_v4, main_call62_v5, main_call62_v6, main_call62_v7, main_call62_v8, main_call62_c, main_call62_v9, main_call62_v10, main_call62_v11, main_call62_c_0, main_call62_v12, main_call62_v13, main_v832, main_v833, main_v834, main_c_107, main_v835, main_v836, main_v837, main_v838, main_v839, main_c_108]
/-- Each operation writes its own result buffer and nothing else. -/
theorem ops32_writes : (ops32 : List (HloOp τ sig (Elt F))).Forall fun op => op.writes ⊆ (ops32_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1667 to 1714 of the host part, in order. -/
abbrev ops33 : List (HloOp τ sig (Elt F)) :=
  [ StableHlo.TRef.unary (.of main_c_108 : StableHlo.TRef sig ⟨S_, .i32⟩) (.of main_call63_v0 : StableHlo.TRef sig ⟨S_, .i32⟩) id,
    StableHlo.TRef.unary (.of main_call63_v0 : StableHlo.TRef sig ⟨S_, .i32⟩) (.of main_call63_v1 : StableHlo.TRef sig ⟨S7, .i32⟩) (broadcastInDim S7 ![] bcast_S_S7),
    StableHlo.TRef.binary (.of main_v839 : StableHlo.TRef sig ⟨S7, .i32⟩) (.of main_call63_v1 : StableHlo.TRef sig ⟨S7, .i32⟩) (.of main_call63_v2 : StableHlo.TRef sig ⟨S7, .i32⟩) Host.divsi,
    StableHlo.TRef.unary (.of main_v839 : StableHlo.TRef sig ⟨S7, .i32⟩) (.of main_call63_v3 : StableHlo.TRef sig ⟨S7, .i32⟩) signi,
    StableHlo.TRef.unary (.of main_call63_v0 : StableHlo.TRef sig ⟨S_, .i32⟩) (.of main_call63_v4 : StableHlo.TRef sig ⟨S_, .i32⟩) signi,
    StableHlo.TRef.unary (.of main_call63_v4 : StableHlo.TRef sig ⟨S_, .i32⟩) (.of main_call63_v5 : StableHlo.TRef sig ⟨S7, .i32⟩) (broadcastInDim S7 ![] bcast_S_S7),
    StableHlo.TRef.binary (.of main_call63_v3 : StableHlo.TRef sig ⟨S7, .i32⟩) (.of main_call63_v5 : StableHlo.TRef sig ⟨S7, .i32⟩) (.of main_call63_v6 : StableHlo.TRef sig ⟨S7, .i1⟩) (cmpi .ne),
    StableHlo.TRef.unary (.of main_call63_v0 : StableHlo.TRef sig ⟨S_, .i32⟩) (.of main_call63_v7 : StableHlo.TRef sig ⟨S7, .i32⟩) (broadcastInDim S7 ![] bcast_S_S7),
    StableHlo.TRef.binary (.of main_v839 : StableHlo.TRef sig ⟨S7, .i32⟩) (.of main_call63_v7 : StableHlo.TRef sig ⟨S7, .i32⟩) (.of main_call63_v8 : StableHlo.TRef sig ⟨S7, .i32⟩) Host.remsi,
    StableHlo.TRef.nullary (.of main_call63_c : StableHlo.TRef sig ⟨S_, .i32⟩) (constantI S_ 32 0#32),
    StableHlo.TRef.unary (.of main_call63_c : StableHlo.TRef sig ⟨S_, .i32⟩) (.of main_call63_v9 : StableHlo.TRef sig ⟨S7, .i32⟩) (broadcastInDim S7 ![] bcast_S_S7),
    StableHlo.TRef.binary (.of main_call63_v8 : StableHlo.TRef sig ⟨S7, .i32⟩) (.of main_call63_v9 : StableHlo.TRef sig ⟨S7, .i32⟩) (.of main_call63_v10 : StableHlo.TRef sig ⟨S7, .i1⟩) (cmpi .ne),
    StableHlo.TRef.binary (.of main_call63_v6 : StableHlo.TRef sig ⟨S7, .i1⟩) (.of main_call63_v10 : StableHlo.TRef sig ⟨S7, .i1⟩) (.of main_call63_v11 : StableHlo.TRef sig ⟨S7, .i1⟩) andi,
    StableHlo.TRef.nullary (.of main_call63_c_0 : StableHlo.TRef sig ⟨S_, .i32⟩) (constantI S_ 32 1#32),
    StableHlo.TRef.unary (.of main_call63_c_0 : StableHlo.TRef sig ⟨S_, .i32⟩) (.of main_call63_v12 : StableHlo.TRef sig ⟨S7, .i32⟩) (broadcastInDim S7 ![] bcast_S_S7),
    StableHlo.TRef.binary (.of main_call63_v2 : StableHlo.TRef sig ⟨S7, .i32⟩) (.of main_call63_v12 : StableHlo.TRef sig ⟨S7, .i32⟩) (.of main_call63_v13 : StableHlo.TRef sig ⟨S7, .i32⟩) subi,
    StableHlo.TRef.ternary (.of main_call63_v11 : StableHlo.TRef sig ⟨S7, .i1⟩) (.of main_call63_v13 : StableHlo.TRef sig ⟨S7, .i32⟩) (.of main_call63_v2 : StableHlo.TRef sig ⟨S7, .i32⟩) (.of main_v840 : StableHlo.TRef sig ⟨S7, .i32⟩) select,
    StableHlo.unary main_v810 main_v841 (broadcastInDim S7 ![] bcast_S_S7 : (⟨S_, .i32⟩ : BufTy).Contents (Elt F) → (⟨S7, .i32⟩ : BufTy).Contents (Elt F)),
    StableHlo.binary main_v841 main_v840 main_v842 (subi : (⟨S7, .i32⟩ : BufTy).Contents (Elt F) → (⟨S7, .i32⟩ : BufTy).Contents (Elt F) → (⟨S7, .i32⟩ : BufTy).Contents (Elt F)),
    StableHlo.unary main_v827 main_v843 (broadcastInDim S7 ![] bcast_S_S7 : (⟨S_, .i32⟩ : BufTy).Contents (Elt F) → (⟨S7, .i32⟩ : BufTy).Contents (Elt F)),
    StableHlo.binary main_v829 main_v843 main_v844 (muli : (⟨S7, .i32⟩ : BufTy).Contents (Elt F) → (⟨S7, .i32⟩ : BufTy).Contents (Elt F) → (⟨S7, .i32⟩ : BufTy).Contents (Elt F)),
    StableHlo.nullary main_c_109 (constantI S_ 32 7#32),
    StableHlo.TRef.unary (.of main_c_109 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S7, .i32⟩) (broadcastInDim S7 ![] bcast_S_S7),
    StableHlo.TRef.binary (.of main_v844 : StableHlo.TRef sig ⟨S7, .i32⟩) (.of main_call64_v1 : StableHlo.TRef sig ⟨S7, .i32⟩) (.of main_call64_v2 : StableHlo.TRef sig ⟨S7, .i32⟩) Host.divsi,
    StableHlo.TRef.unary (.of main_v844 : StableHlo.TRef sig ⟨S7, .i32⟩) (.of main_call64_v3 : StableHlo.TRef sig ⟨S7, .i32⟩) signi,
    StableHlo.TRef.unary (.of main_call64_v0 : StableHlo.TRef sig ⟨S_, .i32⟩) (.of main_call64_v4 : StableHlo.TRef sig ⟨S_, .i32⟩) signi,
    StableHlo.TRef.unary (.of main_call64_v4 : StableHlo.TRef sig ⟨S_, .i32⟩) (.of main_call64_v5 : StableHlo.TRef sig ⟨S7, .i32⟩) (broadcastInDim S7 ![] bcast_S_S7),
    StableHlo.TRef.binary (.of main_call64_v3 : StableHlo.TRef sig ⟨S7, .i32⟩) (.of main_call64_v5 : StableHlo.TRef sig ⟨S7, .i32⟩) (.of main_call64_v6 : StableHlo.TRef sig ⟨S7, .i1⟩) (cmpi .ne),
    StableHlo.TRef.unary (.of main_call64_v0 : StableHlo.TRef sig ⟨S_, .i32⟩) (.of main_call64_v7 : StableHlo.TRef sig ⟨S7, .i32⟩) (broadcastInDim S7 ![] bcast_S_S7),
    StableHlo.TRef.binary (.of main_v844 : StableHlo.TRef sig ⟨S7, .i32⟩) (.of main_call64_v7 : StableHlo.TRef sig ⟨S7, .i32⟩) (.of main_call64_v8 : StableHlo.TRef sig ⟨S7, .i32⟩) Host.remsi,
    StableHlo.TRef.nullary (.of main_call64_c : StableHlo.TRef sig ⟨S_, .i32⟩) (constantI S_ 32 0#32),
    StableHlo.TRef.unary (.of main_call64_c : StableHlo.TRef sig ⟨S_, .i32⟩) (.of main_call64_v9 : StableHlo.TRef sig ⟨S7, .i32⟩) (broadcastInDim S7 ![] bcast_S_S7),
    StableHlo.TRef.binary (.of main_call64_v8 : StableHlo.TRef sig ⟨S7, .i32⟩) (.of main_call64_v9 : StableHlo.TRef sig ⟨S7, .i32⟩) (.of main_call64_v10 : StableHlo.TRef sig ⟨S7, .i1⟩) (cmpi .ne),
    StableHlo.TRef.binary (.of main_call64_v6 : StableHlo.TRef sig ⟨S7, .i1⟩) (.of main_call64_v10 : StableHlo.TRef sig ⟨S7, .i1⟩) (.of main_call64_v11 : StableHlo.TRef sig ⟨S7, .i1⟩) andi,
    StableHlo.TRef.nullary (.of main_call64_c_0 : StableHlo.TRef sig ⟨S_, .i32⟩) (constantI S_ 32 1#32),
    StableHlo.TRef.unary (.of main_call64_c_0 : StableHlo.TRef sig ⟨S_, .i32⟩) (.of main_call64_v12 : StableHlo.TRef sig ⟨S7, .i32⟩) (broadcastInDim S7 ![] bcast_S_S7),
    StableHlo.TRef.binary (.of main_call64_v2 : StableHlo.TRef sig ⟨S7, .i32⟩) (.of main_call64_v12 : StableHlo.TRef sig ⟨S7, .i32⟩) (.of main_call64_v13 : StableHlo.TRef sig ⟨S7, .i32⟩) subi,
    StableHlo.TRef.ternary (.of main_call64_v11 : StableHlo.TRef sig ⟨S7, .i1⟩) (.of main_call64_v13 : StableHlo.TRef sig ⟨S7, .i32⟩) (.of main_call64_v2 : StableHlo.TRef sig ⟨S7, .i32⟩) (.of main_v845 : StableHlo.TRef sig ⟨S7, .i32⟩) select,
    StableHlo.unary main_v820 main_v846 (broadcastInDim S7 ![] bcast_S_S7 : (⟨S_, .i32⟩ : BufTy).Contents (Elt F) → (⟨S7, .i32⟩ : BufTy).Contents (Elt F)),
    StableHlo.binary main_v846 main_v845 main_v847 (addi : (⟨S7, .i32⟩ : BufTy).Contents (Elt F) → (⟨S7, .i32⟩ : BufTy).Contents (Elt F) → (⟨S7, .i32⟩ : BufTy).Contents (Elt F)),
    StableHlo.nullary main_c_110 (constantI S_ 32 1#32),
    StableHlo.unary main_c_110 main_v848 (broadcastInDim S7 ![] bcast_S_S7 : (⟨S_, .i32⟩ : BufTy).Contents (Elt F) → (⟨S7, .i32⟩ : BufTy).Contents (Elt F)),
    StableHlo.binary main_v829 main_v848 main_v849 (addi : (⟨S7, .i32⟩ : BufTy).Contents (Elt F) → (⟨S7, .i32⟩ : BufTy).Contents (Elt F) → (⟨S7, .i32⟩ : BufTy).Contents (Elt F)),
    StableHlo.unary main_v849 main_v850 (negi : (⟨S7, .i32⟩ : BufTy).Contents (Elt F) → (⟨S7, .i32⟩ : BufTy).Contents (Elt F)),
    StableHlo.unary main_v827 main_v851 (broadcastInDim S7 ![] bcast_S_S7 : (⟨S_, .i32⟩ : BufTy).Contents (Elt F) → (⟨S7, .i32⟩ : BufTy).Contents (Elt F)),
    StableHlo.binary main_v850 main_v851 main_v852 (muli : (⟨S7, .i32⟩ : BufTy).Contents (Elt F) → (⟨S7, .i32⟩ : BufTy).Contents (Elt F) → (⟨S7, .i32⟩ : BufTy).Contents (Elt F)),
    StableHlo.nullary main_c_111 (constantI S_ 32 7#32) ]
/-- The buffers those operations write, in order. -/
abbrev ops33_W : List (Ref sig .tc) :=
  [main_call63_v0, main_call63_v1, main_call63_v2, main_call63_v3, main_call63_v4, main_call63_v5, main_call63_v6, main_call63_v7, main_call63_v8, main_call63_c, main_call63_v9, main_call63_v10, main_call63_v11, main_call63_c_0, main_call63_v12, main_call63_v13, main_v840, main_v841, main_v842, main_v843, main_v844, main_c_109, main_call64_v0, main_call64_v1, main_call64_v2, main_call64_v3, main_call64_v4, main_call64_v5, main_call64_v6, main_call64_v7, main_call64_v8, main_call64_c, main_call64_v9, main_call64_v10, main_call64_v11, main_call64_c_0, main_call64_v12, main_call64_v13, main_v845, main_v846, main_v847, main_c_110, main_v848, main_v849, main_v850, main_v851, main_v852, main_c_111]
/-- Each operation writes its own result buffer and nothing else. -/
theorem ops33_writes : (ops33 : List (HloOp τ sig (Elt F))).Forall fun op => op.writes ⊆ (ops33_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1715 to 1773 of the host part, in order. -/
abbrev ops34 : List (HloOp τ sig (Elt F)) :=
  [ StableHlo.TRef.unary (.of main_c_111 : StableHlo.TRef sig ⟨S_, .i32⟩) (.of main_call65_v0 : StableHlo.TRef sig ⟨S_, .i32⟩) id,
    StableHlo.TRef.unary (.of main_call65_v0 : StableHlo.TRef sig ⟨S_, .i32⟩) (.of main_call65_v1 : StableHlo.TRef sig ⟨S7, .i32⟩) (broadcastInDim S7 ![] bcast_S_S7),
    StableHlo.TRef.binary (.of main_v852 : StableHlo.TRef sig ⟨S7, .i32⟩) (.of main_call65_v1 : StableHlo.TRef sig ⟨S7, .i32⟩) (.of main_call65_v2 : StableHlo.TRef sig ⟨S7, .i32⟩) Host.divsi,
    StableHlo.TRef.unary (.of main_v852 : StableHlo.TRef sig ⟨S7, .i32⟩) (.of main_call65_v3 : StableHlo.TRef sig ⟨S7, .i32⟩) signi,
    StableHlo.TRef.unary (.of main_call65_v0 : StableHlo.TRef sig ⟨S_, .i32⟩) (.of main_call65_v4 : StableHlo.TRef sig ⟨S_, .i32⟩) signi,
    StableHlo.TRef.unary (.of main_call65_v4 : StableHlo.TRef sig ⟨S_, .i32⟩) (.of main_call65_v5 : StableHlo.TRef sig ⟨S7, .i32⟩) (broadcastInDim S7 ![] bcast_S_S7),
    StableHlo.TRef.binary (.of main_call65_v3 : StableHlo.TRef sig ⟨S7, .i32⟩) (.of main_call65_v5 : StableHlo.TRef sig ⟨S7, .i32⟩) (.of main_call65_v6 : StableHlo.TRef sig ⟨S7, .i1⟩) (cmpi .ne),
    StableHlo.TRef.unary (.of main_call65_v0 : StableHlo.TRef sig ⟨S_, .i32⟩) (.of main_call65_v7 : StableHlo.TRef sig ⟨S7, .i32⟩) (broadcastInDim S7 ![] bcast_S_S7),
    StableHlo.TRef.binary (.of main_v852 : StableHlo.TRef sig ⟨S7, .i32⟩) (.of main_call65_v7 : StableHlo.TRef sig ⟨S7, .i32⟩) (.of main_call65_v8 : StableHlo.TRef sig ⟨S7, .i32⟩) Host.remsi,
    StableHlo.TRef.nullary (.of main_call65_c : StableHlo.TRef sig ⟨S_, .i32⟩) (constantI S_ 32 0#32),
    StableHlo.TRef.unary (.of main_call65_c : StableHlo.TRef sig ⟨S_, .i32⟩) (.of main_call65_v9 : StableHlo.TRef sig ⟨S7, .i32⟩) (broadcastInDim S7 ![] bcast_S_S7),
    StableHlo.TRef.binary (.of main_call65_v8 : StableHlo.TRef sig ⟨S7, .i32⟩) (.of main_call65_v9 : StableHlo.TRef sig ⟨S7, .i32⟩) (.of main_call65_v10 : StableHlo.TRef sig ⟨S7, .i1⟩) (cmpi .ne),
    StableHlo.TRef.binary (.of main_call65_v6 : StableHlo.TRef sig ⟨S7, .i1⟩) (.of main_call65_v10 : StableHlo.TRef sig ⟨S7, .i1⟩) (.of main_call65_v11 : StableHlo.TRef sig ⟨S7, .i1⟩) andi,
    StableHlo.TRef.nullary (.of main_call65_c_0 : StableHlo.TRef sig ⟨S_, .i32⟩) (constantI S_ 32 1#32),
    StableHlo.TRef.unary (.of main_call65_c_0 : StableHlo.TRef sig ⟨S_, .i32⟩) (.of main_call65_v12 : StableHlo.TRef sig ⟨S7, .i32⟩) (broadcastInDim S7 ![] bcast_S_S7),
    StableHlo.TRef.binary (.of main_call65_v2 : StableHlo.TRef sig ⟨S7, .i32⟩) (.of main_call65_v12 : StableHlo.TRef sig ⟨S7, .i32⟩) (.of main_call65_v13 : StableHlo.TRef sig ⟨S7, .i32⟩) subi,
    StableHlo.TRef.ternary (.of main_call65_v11 : StableHlo.TRef sig ⟨S7, .i1⟩) (.of main_call65_v13 : StableHlo.TRef sig ⟨S7, .i32⟩) (.of main_call65_v2 : StableHlo.TRef sig ⟨S7, .i32⟩) (.of main_v853 : StableHlo.TRef sig ⟨S7, .i32⟩) select,
    StableHlo.unary main_v820 main_v854 (broadcastInDim S7 ![] bcast_S_S7 : (⟨S_, .i32⟩ : BufTy).Contents (Elt F) → (⟨S7, .i32⟩ : BufTy).Contents (Elt F)),
    StableHlo.binary main_v854 main_v853 main_v855 (subi : (⟨S7, .i32⟩ : BufTy).Contents (Elt F) → (⟨S7, .i32⟩ : BufTy).Contents (Elt F) → (⟨S7, .i32⟩ : BufTy).Contents (Elt F)),
    StableHlo.nullary main_v856 (iotaInDim S64 32 0),
    StableHlo.nullary main_v857 (iotaInDim S64 32 0),
    StableHlo.unary main_v856 main_v858 (broadcastInDim S1x64 ![1] bcast_S64_S1x64_1 : (⟨S64, .i32⟩ : BufTy).Contents (Elt F) → (⟨S1x64, .i32⟩ : BufTy).Contents (Elt F)),
    StableHlo.unary main_v834 main_v859 (broadcastInDim S7x1 ![0] bcast_S7_S7x1_0 : (⟨S7, .i32⟩ : BufTy).Contents (Elt F) → (⟨S7x1, .i32⟩ : BufTy).Contents (Elt F)),
    StableHlo.unary main_v858 main_v860 (broadcastInDim S7x64 ![0, 1] bcast_S1x64_S7x64_0_1 : (⟨S1x64, .i32⟩ : BufTy).Contents (Elt F) → (⟨S7x64, .i32⟩ : BufTy).Contents (Elt F)),
    StableHlo.unary main_v859 main_v861 (broadcastInDim S7x64 ![0, 1] bcast_S7x1_S7x64_0_1 : (⟨S7x1, .i32⟩ : BufTy).Contents (Elt F) → (⟨S7x64, .i32⟩ : BufTy).Contents (Elt F)),
    StableHlo.binary main_v860 main_v861 main_v862 (cmpi .sge : (⟨S7x64, .i32⟩ : BufTy).Contents (Elt F) → (⟨S7x64, .i32⟩ : BufTy).Contents (Elt F) → (⟨S7x64, .i1⟩ : BufTy).Contents (Elt F)),
    StableHlo.unary main_v856 main_v863 (broadcastInDim S1x64 ![1] bcast_S64_S1x64_1 : (⟨S64, .i32⟩ : BufTy).Contents (Elt F) → (⟨S1x64, .i32⟩ : BufTy).Contents (Elt F)),
    StableHlo.unary main_v842 main_v864 (broadcastInDim S7x1 ![0] bcast_S7_S7x1_0 : (⟨S7, .i32⟩ : BufTy).Contents (Elt F) → (⟨S7x1, .i32⟩ : BufTy).Contents (Elt F)),
    StableHlo.unary main_v863 main_v865 (broadcastInDim S7x64 ![0, 1] bcast_S1x64_S7x64_0_1 : (⟨S1x64, .i32⟩ : BufTy).Contents (Elt F) → (⟨S7x64, .i32⟩ : BufTy).Contents (Elt F)),
    StableHlo.unary main_v864 main_v866 (broadcastInDim S7x64 ![0, 1] bcast_S7x1_S7x64_0_1 : (⟨S7x1, .i32⟩ : BufTy).Contents (Elt F) → (⟨S7x64, .i32⟩ : BufTy).Contents (Elt F)),
    StableHlo.binary main_v865 main_v866 main_v867 (cmpi .slt : (⟨S7x64, .i32⟩ : BufTy).Contents (Elt F) → (⟨S7x64, .i32⟩ : BufTy).Contents (Elt F) → (⟨S7x64, .i1⟩ : BufTy).Contents (Elt F)),
    StableHlo.binary main_v862 main_v867 main_v868 (andi : (⟨S7x64, .i1⟩ : BufTy).Contents (Elt F) → (⟨S7x64, .i1⟩ : BufTy).Contents (Elt F) → (⟨S7x64, .i1⟩ : BufTy).Contents (Elt F)),
    StableHlo.unary main_v857 main_v869 (broadcastInDim S1x64 ![1] bcast_S64_S1x64_1 : (⟨S64, .i32⟩ : BufTy).Contents (Elt F) → (⟨S1x64, .i32⟩ : BufTy).Contents (Elt F)),
    StableHlo.unary main_v847 main_v870 (broadcastInDim S7x1 ![0] bcast_S7_S7x1_0 : (⟨S7, .i32⟩ : BufTy).Contents (Elt F) → (⟨S7x1, .i32⟩ : BufTy).Contents (Elt F)),
    StableHlo.unary main_v869 main_v871 (broadcastInDim S7x64 ![0, 1] bcast_S1x64_S7x64_0_1 : (⟨S1x64, .i32⟩ : BufTy).Contents (Elt F) → (⟨S7x64, .i32⟩ : BufTy).Contents (Elt F)),
    StableHlo.unary main_v870 main_v872 (broadcastInDim S7x64 ![0, 1] bcast_S7x1_S7x64_0_1 : (⟨S7x1, .i32⟩ : BufTy).Contents (Elt F) → (⟨S7x64, .i32⟩ : BufTy).Contents (Elt F)),
    StableHlo.binary main_v871 main_v872 main_v873 (cmpi .sge : (⟨S7x64, .i32⟩ : BufTy).Contents (Elt F) → (⟨S7x64, .i32⟩ : BufTy).Contents (Elt F) → (⟨S7x64, .i1⟩ : BufTy).Contents (Elt F)),
    StableHlo.unary main_v857 main_v874 (broadcastInDim S1x64 ![1] bcast_S64_S1x64_1 : (⟨S64, .i32⟩ : BufTy).Contents (Elt F) → (⟨S1x64, .i32⟩ : BufTy).Contents (Elt F)),
    StableHlo.unary main_v855 main_v875 (broadcastInDim S7x1 ![0] bcast_S7_S7x1_0 : (⟨S7, .i32⟩ : BufTy).Contents (Elt F) → (⟨S7x1, .i32⟩ : BufTy).Contents (Elt F)),
    StableHlo.unary main_v874 main_v876 (broadcastInDim S7x64 ![0, 1] bcast_S1x64_S7x64_0_1 : (⟨S1x64, .i32⟩ : BufTy).Contents (Elt F) → (⟨S7x64, .i32⟩ : BufTy).Contents (Elt F)),
    StableHlo.unary main_v875 main_v877 (broadcastInDim S7x64 ![0, 1] bcast_S7x1_S7x64_0_1 : (⟨S7x1, .i32⟩ : BufTy).Contents (Elt F) → (⟨S7x64, .i32⟩ : BufTy).Contents (Elt F)),
    StableHlo.binary main_v876 main_v877 main_v878 (cmpi .slt : (⟨S7x64, .i32⟩ : BufTy).Contents (Elt F) → (⟨S7x64, .i32⟩ : BufTy).Contents (Elt F) → (⟨S7x64, .i1⟩ : BufTy).Contents (Elt F)),
    StableHlo.binary main_v873 main_v878 main_v879 (andi : (⟨S7x64, .i1⟩ : BufTy).Contents (Elt F) → (⟨S7x64, .i1⟩ : BufTy).Contents (Elt F) → (⟨S7x64, .i1⟩ : BufTy).Contents (Elt F)),
    StableHlo.unary main_v868 main_v880 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v881 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_112 (constant S_ .f32 0xFF800000#32),
    StableHlo.TRef.unary (.of main_v880 : StableHlo.TRef sig ⟨S7x1x64x1, .i1⟩) (.of main_call66_v0 : StableHlo.TRef sig ⟨S7x512x64x64, .i1⟩) (broadcastInDim S7x512x64x64 ![0, 1, 2, 3] bcast_S7x1x64x1_S7x512x64x64_0_1_2_3),
    StableHlo.TRef.unary (.of main_v881 : StableHlo.TRef sig ⟨S1x512x64x64, .f32⟩) (.of main_call66_v1 : StableHlo.TRef sig ⟨S7x512x64x64, .f32⟩) (broadcastInDim S7x512x64x64 ![0, 1, 2, 3] bcast_S1x512x64x64_S7x512x64x64_0_1_2_3),
    StableHlo.TRef.unary (.of main_cst_112 : StableHlo.TRef sig ⟨S_, .f32⟩) (.of main_call66_v2 : StableHlo.TRef sig ⟨S7x512x64x64, .f32⟩) (broadcastInDim S7x512x64x64 ![] bcast_S_S7x512x64x64),
    StableHlo.TRef.ternary (.of main_call66_v0 : StableHlo.TRef sig ⟨S7x512x64x64, .i1⟩) (.of main_call66_v1 : StableHlo.TRef sig ⟨S7x512x64x64, .f32⟩) (.of main_call66_v2 : StableHlo.TRef sig ⟨S7x512x64x64, .f32⟩) (.of main_v882 : StableHlo.TRef sig ⟨S7x512x64x64, .f32⟩) select,
    StableHlo.nullary main_cst_113 (constant S_ .f32 0xFF800000#32),
    StableHlo.binary main_v882 main_cst_113 main_v883 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v879 main_v884 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v883 main_v885 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_114 (constant S_ .f32 0xFF800000#32),
    StableHlo.TRef.unary (.of main_v884 : StableHlo.TRef sig ⟨S1x1x7x64, .i1⟩) (.of main_call67_v0 : StableHlo.TRef sig ⟨S7x512x7x64, .i1⟩) (broadcastInDim S7x512x7x64 ![0, 1, 2, 3] bcast_S1x1x7x64_S7x512x7x64_0_1_2_3),
    StableHlo.TRef.unary (.of main_v885 : StableHlo.TRef sig ⟨S7x512x1x64, .f32⟩) (.of main_call67_v1 : StableHlo.TRef sig ⟨S7x512x7x64, .f32⟩) (broadcastInDim S7x512x7x64 ![0, 1, 2, 3] bcast_S7x512x1x64_S7x512x7x64_0_1_2_3),
    StableHlo.TRef.unary (.of main_cst_114 : StableHlo.TRef sig ⟨S_, .f32⟩) (.of main_call67_v2 : StableHlo.TRef sig ⟨S7x512x7x64, .f32⟩) (broadcastInDim S7x512x7x64 ![] bcast_S_S7x512x7x64),
    StableHlo.TRef.ternary (.of main_call67_v0 : StableHlo.TRef sig ⟨S7x512x7x64, .i1⟩) (.of main_call67_v1 : StableHlo.TRef sig ⟨S7x512x7x64, .f32⟩) (.of main_call67_v2 : StableHlo.TRef sig ⟨S7x512x7x64, .f32⟩) (.of main_v886 : StableHlo.TRef sig ⟨S7x512x7x64, .f32⟩) select ]
/-- The buffers those operations write, in order. -/
abbrev ops34_W : List (Ref sig .tc) :=
  [main_call65_v0, main_call65_v1, main_call65_v2, main_call65_v3, main_call65_v4, main_call65_v5, main_call65_v6, main_call65_v7, main_call65_v8, main_call65_c, main_call65_v9, main_call65_v10, main_call65_v11, main_call65_c_0, main_call65_v12, main_call65_v13, main_v853, main_v854, main_v855, main_v856, main_v857, main_v858, main_v859, main_v860, main_v861, main_v862, main_v863, main_v864, main_v865, main_v866, main_v867, main_v868, main_v869, main_v870, main_v871, main_v872, main_v873, main_v874, main_v875, main_v876, main_v877, main_v878, main_v879, main_v880, main_v881, main_cst_112, main_call66_v0, main_call66_v1, main_call66_v2, main_v882, main_cst_113, main_v883, main_v884, main_v885, main_cst_114, main_call67_v0, main_call67_v1, main_call67_v2, main_v886]
/-- Each operation writes its own result buffer and nothing else. -/
theorem ops34_writes : (ops34 : List (HloOp τ sig (Elt F))).Forall fun op => op.writes ⊆ (ops34_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1774 to 1830 of the host part, in order. -/
abbrev ops35 : List (HloOp τ sig (Elt F)) :=
  [ StableHlo.nullary main_cst_115 (constant S_ .f32 0xFF800000#32),
    StableHlo.binary main_v886 main_cst_115 main_v887 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v887 main_v888 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v888 main_v889 rfl shapeCasts_S512x7x7_S25088,
    StableHlo.unary main_v18 main_v890 ((extractStridedSlice S1x1 ![1, 1] · slices_S3x4_S1x1_1_1) : (⟨S3x4, .i32⟩ : BufTy).Contents (Elt F) → (⟨S1x1, .i32⟩ : BufTy).Contents (Elt F)),
    StableHlo.reshape main_v890 main_v891 rfl shapeCasts_S1x1_S_,
    StableHlo.unary main_v23 main_v892 ((extractStridedSlice S1x1 ![3, 1] · slices_S4x4_S1x1_3_1) : (⟨S4x4, .i32⟩ : BufTy).Contents (Elt F) → (⟨S1x1, .i32⟩ : BufTy).Contents (Elt F)),
    StableHlo.reshape main_v892 main_v893 rfl shapeCasts_S1x1_S_,
    StableHlo.binary main_v891 main_v893 main_v894 (minsi : (⟨S_, .i32⟩ : BufTy).Contents (Elt F) → (⟨S_, .i32⟩ : BufTy).Contents (Elt F) → (⟨S_, .i32⟩ : BufTy).Contents (Elt F)),
    StableHlo.unary main_v18 main_v895 ((extractStridedSlice S1x1 ![1, 3] · slices_S3x4_S1x1_1_3) : (⟨S3x4, .i32⟩ : BufTy).Contents (Elt F) → (⟨S1x1, .i32⟩ : BufTy).Contents (Elt F)),
    StableHlo.reshape main_v895 main_v896 rfl shapeCasts_S1x1_S_,
    StableHlo.unary main_v23 main_v897 ((extractStridedSlice S1x1 ![3, 3] · slices_S4x4_S1x1_3_3) : (⟨S4x4, .i32⟩ : BufTy).Contents (Elt F) → (⟨S1x1, .i32⟩ : BufTy).Contents (Elt F)),
    StableHlo.reshape main_v897 main_v898 rfl shapeCasts_S1x1_S_,
    StableHlo.binary main_v896 main_v898 main_v899 (maxsi : (⟨S_, .i32⟩ : BufTy).Contents (Elt F) → (⟨S_, .i32⟩ : BufTy).Contents (Elt F) → (⟨S_, .i32⟩ : BufTy).Contents (Elt F)),
    StableHlo.unary main_v18 main_v900 ((extractStridedSlice S1x1 ![1, 0] · slices_S3x4_S1x1_1_0) : (⟨S3x4, .i32⟩ : BufTy).Contents (Elt F) → (⟨S1x1, .i32⟩ : BufTy).Contents (Elt F)),
    StableHlo.reshape main_v900 main_v901 rfl shapeCasts_S1x1_S_,
    StableHlo.unary main_v23 main_v902 ((extractStridedSlice S1x1 ![3, 0] · slices_S4x4_S1x1_3_0) : (⟨S4x4, .i32⟩ : BufTy).Contents (Elt F) → (⟨S1x1, .i32⟩ : BufTy).Contents (Elt F)),
    StableHlo.reshape main_v902 main_v903 rfl shapeCasts_S1x1_S_,
    StableHlo.binary main_v901 main_v903 main_v904 (minsi : (⟨S_, .i32⟩ : BufTy).Contents (Elt F) → (⟨S_, .i32⟩ : BufTy).Contents (Elt F) → (⟨S_, .i32⟩ : BufTy).Contents (Elt F)),
    StableHlo.unary main_v18 main_v905 ((extractStridedSlice S1x1 ![1, 2] · slices_S3x4_S1x1_1_2) : (⟨S3x4, .i32⟩ : BufTy).Contents (Elt F) → (⟨S1x1, .i32⟩ : BufTy).Contents (Elt F)),
    StableHlo.reshape main_v905 main_v906 rfl shapeCasts_S1x1_S_,
    StableHlo.unary main_v23 main_v907 ((extractStridedSlice S1x1 ![3, 2] · slices_S4x4_S1x1_3_2) : (⟨S4x4, .i32⟩ : BufTy).Contents (Elt F) → (⟨S1x1, .i32⟩ : BufTy).Contents (Elt F)),
    StableHlo.reshape main_v907 main_v908 rfl shapeCasts_S1x1_S_,
    StableHlo.binary main_v906 main_v908 main_v909 (maxsi : (⟨S_, .i32⟩ : BufTy).Contents (Elt F) → (⟨S_, .i32⟩ : BufTy).Contents (Elt F) → (⟨S_, .i32⟩ : BufTy).Contents (Elt F)),
    StableHlo.binary main_v899 main_v894 main_v910 (subi : (⟨S_, .i32⟩ : BufTy).Contents (Elt F) → (⟨S_, .i32⟩ : BufTy).Contents (Elt F) → (⟨S_, .i32⟩ : BufTy).Contents (Elt F)),
    StableHlo.binary main_v909 main_v904 main_v911 (subi : (⟨S_, .i32⟩ : BufTy).Contents (Elt F) → (⟨S_, .i32⟩ : BufTy).Contents (Elt F) → (⟨S_, .i32⟩ : BufTy).Contents (Elt F)),
    StableHlo.nullary main_v912 (iotaInDim S7 32 0),
    StableHlo.nullary main_v913 (iotaInDim S7 32 0),
    StableHlo.unary main_v910 main_v914 (broadcastInDim S7 ![] bcast_S_S7 : (⟨S_, .i32⟩ : BufTy).Contents (Elt F) → (⟨S7, .i32⟩ : BufTy).Contents (Elt F)),
    StableHlo.binary main_v912 main_v914 main_v915 (muli : (⟨S7, .i32⟩ : BufTy).Contents (Elt F) → (⟨S7, .i32⟩ : BufTy).Contents (Elt F) → (⟨S7, .i32⟩ : BufTy).Contents (Elt F)),
    StableHlo.nullary main_c_116 (constantI S_ 32 7#32),
    StableHlo.TRef.unary (.of main_c_116 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S7, .i32⟩) (broadcastInDim S7 ![] bcast_S_S7),
    StableHlo.TRef.binary (.of main_v915 : StableHlo.TRef sig ⟨S7, .i32⟩) (.of main_call68_v1 : StableHlo.TRef sig ⟨S7, .i32⟩) (.of main_call68_v2 : StableHlo.TRef sig ⟨S7, .i32⟩) Host.divsi,
    StableHlo.TRef.unary (.of main_v915 : StableHlo.TRef sig ⟨S7, .i32⟩) (.of main_call68_v3 : StableHlo.TRef sig ⟨S7, .i32⟩) signi,
    StableHlo.TRef.unary (.of main_call68_v0 : StableHlo.TRef sig ⟨S_, .i32⟩) (.of main_call68_v4 : StableHlo.TRef sig ⟨S_, .i32⟩) signi,
    StableHlo.TRef.unary (.of main_call68_v4 : StableHlo.TRef sig ⟨S_, .i32⟩) (.of main_call68_v5 : StableHlo.TRef sig ⟨S7, .i32⟩) (broadcastInDim S7 ![] bcast_S_S7),
    StableHlo.TRef.binary (.of main_call68_v3 : StableHlo.TRef sig ⟨S7, .i32⟩) (.of main_call68_v5 : StableHlo.TRef sig ⟨S7, .i32⟩) (.of main_call68_v6 : StableHlo.TRef sig ⟨S7, .i1⟩) (cmpi .ne),
    StableHlo.TRef.unary (.of main_call68_v0 : StableHlo.TRef sig ⟨S_, .i32⟩) (.of main_call68_v7 : StableHlo.TRef sig ⟨S7, .i32⟩) (broadcastInDim S7 ![] bcast_S_S7),
    StableHlo.TRef.binary (.of main_v915 : StableHlo.TRef sig ⟨S7, .i32⟩) (.of main_call68_v7 : StableHlo.TRef sig ⟨S7, .i32⟩) (.of main_call68_v8 : StableHlo.TRef sig ⟨S7, .i32⟩) Host.remsi,
    StableHlo.TRef.nullary (.of main_call68_c : StableHlo.TRef sig ⟨S_, .i32⟩) (constantI S_ 32 0#32),
    StableHlo.TRef.unary (.of main_call68_c : StableHlo.TRef sig ⟨S_, .i32⟩) (.of main_call68_v9 : StableHlo.TRef sig ⟨S7, .i32⟩) (broadcastInDim S7 ![] bcast_S_S7),
    StableHlo.TRef.binary (.of main_call68_v8 : StableHlo.TRef sig ⟨S7, .i32⟩) (.of main_call68_v9 : StableHlo.TRef sig ⟨S7, .i32⟩) (.of main_call68_v10 : StableHlo.TRef sig ⟨S7, .i1⟩) (cmpi .ne),
    StableHlo.TRef.binary (.of main_call68_v6 : StableHlo.TRef sig ⟨S7, .i1⟩) (.of main_call68_v10 : StableHlo.TRef sig ⟨S7, .i1⟩) (.of main_call68_v11 : StableHlo.TRef sig ⟨S7, .i1⟩) andi,
    StableHlo.TRef.nullary (.of main_call68_c_0 : StableHlo.TRef sig ⟨S_, .i32⟩) (constantI S_ 32 1#32),
    StableHlo.TRef.unary (.of main_call68_c_0 : StableHlo.TRef sig ⟨S_, .i32⟩) (.of main_call68_v12 : StableHlo.TRef sig ⟨S7, .i32⟩) (broadcastInDim S7 ![] bcast_S_S7),
    StableHlo.TRef.binary (.of main_call68_v2 : StableHlo.TRef sig ⟨S7, .i32⟩) (.of main_call68_v12 : StableHlo.TRef sig ⟨S7, .i32⟩) (.of main_call68_v13 : StableHlo.TRef sig ⟨S7, .i32⟩) subi,
    StableHlo.TRef.ternary (.of main_call68_v11 : StableHlo.TRef sig ⟨S7, .i1⟩) (.of main_call68_v13 : StableHlo.TRef sig ⟨S7, .i32⟩) (.of main_call68_v2 : StableHlo.TRef sig ⟨S7, .i32⟩) (.of main_v916 : StableHlo.TRef sig ⟨S7, .i32⟩) select,
    StableHlo.unary main_v894 main_v917 (broadcastInDim S7 ![] bcast_S_S7 : (⟨S_, .i32⟩ : BufTy).Contents (Elt F) → (⟨S7, .i32⟩ : BufTy).Contents (Elt F)),
    StableHlo.binary main_v917 main_v916 main_v918 (addi : (⟨S7, .i32⟩ : BufTy).Contents (Elt F) → (⟨S7, .i32⟩ : BufTy).Contents (Elt F) → (⟨S7, .i32⟩ : BufTy).Contents (Elt F)),
    StableHlo.nullary main_c_117 (constantI S_ 32 1#32),
    StableHlo.unary main_c_117 main_v919 (broadcastInDim S7 ![] bcast_S_S7 : (⟨S_, .i32⟩ : BufTy).Contents (Elt F) → (⟨S7, .i32⟩ : BufTy).Contents (Elt F)),
    StableHlo.binary main_v912 main_v919 main_v920 (addi : (⟨S7, .i32⟩ : BufTy).Contents (Elt F) → (⟨S7, .i32⟩ : BufTy).Contents (Elt F) → (⟨S7, .i32⟩ : BufTy).Contents (Elt F)),
    StableHlo.unary main_v920 main_v921 (negi : (⟨S7, .i32⟩ : BufTy).Contents (Elt F) → (⟨S7, .i32⟩ : BufTy).Contents (Elt F)),
    StableHlo.unary main_v910 main_v922 (broadcastInDim S7 ![] bcast_S_S7 : (⟨S_, .i32⟩ : BufTy).Contents (Elt F) → (⟨S7, .i32⟩ : BufTy).Contents (Elt F)),
    StableHlo.binary main_v921 main_v922 main_v923 (muli : (⟨S7, .i32⟩ : BufTy).Contents (Elt F) → (⟨S7, .i32⟩ : BufTy).Contents (Elt F) → (⟨S7, .i32⟩ : BufTy).Contents (Elt F)),
    StableHlo.nullary main_c_118 (constantI S_ 32 7#32) ]
/-- The buffers those operations write, in order. -/
abbrev ops35_W : List (Ref sig .tc) :=
  [main_cst_115, main_v887, main_v888, main_v889, main_v890, main_v891, main_v892, main_v893, main_v894, main_v895, main_v896, main_v897, main_v898, main_v899, main_v900, main_v901, main_v902, main_v903, main_v904, main_v905, main_v906, main_v907, main_v908, main_v909, main_v910, main_v911, main_v912, main_v913, main_v914, main_v915, main_c_116, main_call68_v0, main_call68_v1, main_call68_v2, main_call68_v3, main_call68_v4, main_call68_v5, main_call68_v6, main_call68_v7, main_call68_v8, main_call68_c, main_call68_v9, main_call68_v10, main_call68_v11, main_call68_c_0, main_call68_v12, main_call68_v13, main_v916, main_v917, main_v918, main_c_117, main_v919, main_v920, main_v921, main_v922, main_v923, main_c_118]
/-- Each operation writes its own result buffer and nothing else. -/
theorem ops35_writes : (ops35 : List (HloOp τ sig (Elt F))).Forall fun op => op.writes ⊆ (ops35_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1831 to 1878 of the host part, in order. -/
abbrev ops36 : List (HloOp τ sig (Elt F)) :=
  [ StableHlo.TRef.unary (.of main_c_118 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S7, .i32⟩) (broadcastInDim S7 ![] bcast_S_S7),
    StableHlo.TRef.binary (.of main_v923 : StableHlo.TRef sig ⟨S7, .i32⟩) (.of main_call69_v1 : StableHlo.TRef sig ⟨S7, .i32⟩) (.of main_call69_v2 : StableHlo.TRef sig ⟨S7, .i32⟩) Host.divsi,
    StableHlo.TRef.unary (.of main_v923 : StableHlo.TRef sig ⟨S7, .i32⟩) (.of main_call69_v3 : StableHlo.TRef sig ⟨S7, .i32⟩) signi,
    StableHlo.TRef.unary (.of main_call69_v0 : StableHlo.TRef sig ⟨S_, .i32⟩) (.of main_call69_v4 : StableHlo.TRef sig ⟨S_, .i32⟩) signi,
    StableHlo.TRef.unary (.of main_call69_v4 : StableHlo.TRef sig ⟨S_, .i32⟩) (.of main_call69_v5 : StableHlo.TRef sig ⟨S7, .i32⟩) (broadcastInDim S7 ![] bcast_S_S7),
    StableHlo.TRef.binary (.of main_call69_v3 : StableHlo.TRef sig ⟨S7, .i32⟩) (.of main_call69_v5 : StableHlo.TRef sig ⟨S7, .i32⟩) (.of main_call69_v6 : StableHlo.TRef sig ⟨S7, .i1⟩) (cmpi .ne),
    StableHlo.TRef.unary (.of main_call69_v0 : StableHlo.TRef sig ⟨S_, .i32⟩) (.of main_call69_v7 : StableHlo.TRef sig ⟨S7, .i32⟩) (broadcastInDim S7 ![] bcast_S_S7),
    StableHlo.TRef.binary (.of main_v923 : StableHlo.TRef sig ⟨S7, .i32⟩) (.of main_call69_v7 : StableHlo.TRef sig ⟨S7, .i32⟩) (.of main_call69_v8 : StableHlo.TRef sig ⟨S7, .i32⟩) Host.remsi,
    StableHlo.TRef.nullary (.of main_call69_c : StableHlo.TRef sig ⟨S_, .i32⟩) (constantI S_ 32 0#32),
    StableHlo.TRef.unary (.of main_call69_c : StableHlo.TRef sig ⟨S_, .i32⟩) (.of main_call69_v9 : StableHlo.TRef sig ⟨S7, .i32⟩) (broadcastInDim S7 ![] bcast_S_S7),
    StableHlo.TRef.binary (.of main_call69_v8 : StableHlo.TRef sig ⟨S7, .i32⟩) (.of main_call69_v9 : StableHlo.TRef sig ⟨S7, .i32⟩) (.of main_call69_v10 : StableHlo.TRef sig ⟨S7, .i1⟩) (cmpi .ne),
    StableHlo.TRef.binary (.of main_call69_v6 : StableHlo.TRef sig ⟨S7, .i1⟩) (.of main_call69_v10 : StableHlo.TRef sig ⟨S7, .i1⟩) (.of main_call69_v11 : StableHlo.TRef sig ⟨S7, .i1⟩) andi,
    StableHlo.TRef.nullary (.of main_call69_c_0 : StableHlo.TRef sig ⟨S_, .i32⟩) (constantI S_ 32 1#32),
    StableHlo.TRef.unary (.of main_call69_c_0 : StableHlo.TRef sig ⟨S_, .i32⟩) (.of main_call69_v12 : StableHlo.TRef sig ⟨S7, .i32⟩) (broadcastInDim S7 ![] bcast_S_S7),
    StableHlo.TRef.binary (.of main_call69_v2 : StableHlo.TRef sig ⟨S7, .i32⟩) (.of main_call69_v12 : StableHlo.TRef sig ⟨S7, .i32⟩) (.of main_call69_v13 : StableHlo.TRef sig ⟨S7, .i32⟩) subi,
    StableHlo.TRef.ternary (.of main_call69_v11 : StableHlo.TRef sig ⟨S7, .i1⟩) (.of main_call69_v13 : StableHlo.TRef sig ⟨S7, .i32⟩) (.of main_call69_v2 : StableHlo.TRef sig ⟨S7, .i32⟩) (.of main_v924 : StableHlo.TRef sig ⟨S7, .i32⟩) select,
    StableHlo.unary main_v894 main_v925 (broadcastInDim S7 ![] bcast_S_S7 : (⟨S_, .i32⟩ : BufTy).Contents (Elt F) → (⟨S7, .i32⟩ : BufTy).Contents (Elt F)),
    StableHlo.binary main_v925 main_v924 main_v926 (subi : (⟨S7, .i32⟩ : BufTy).Contents (Elt F) → (⟨S7, .i32⟩ : BufTy).Contents (Elt F) → (⟨S7, .i32⟩ : BufTy).Contents (Elt F)),
    StableHlo.unary main_v911 main_v927 (broadcastInDim S7 ![] bcast_S_S7 : (⟨S_, .i32⟩ : BufTy).Contents (Elt F) → (⟨S7, .i32⟩ : BufTy).Contents (Elt F)),
    StableHlo.binary main_v913 main_v927 main_v928 (muli : (⟨S7, .i32⟩ : BufTy).Contents (Elt F) → (⟨S7, .i32⟩ : BufTy).Contents (Elt F) → (⟨S7, .i32⟩ : BufTy).Contents (Elt F)),
    StableHlo.nullary main_c_119 (constantI S_ 32 7#32),
    StableHlo.TRef.unary (.of main_c_119 : StableHlo.TRef sig ⟨S_, .i32⟩) (.of main_call70_v0 : StableHlo.TRef sig ⟨S_, .i32⟩) id,
    StableHlo.TRef.unary (.of main_call70_v0 : StableHlo.TRef sig ⟨S_, .i32⟩) (.of main_call70_v1 : StableHlo.TRef sig ⟨S7, .i32⟩) (broadcastInDim S7 ![] bcast_S_S7),
    StableHlo.TRef.binary (.of main_v928 : StableHlo.TRef sig ⟨S7, .i32⟩) (.of main_call70_v1 : StableHlo.TRef sig ⟨S7, .i32⟩) (.of main_call70_v2 : StableHlo.TRef sig ⟨S7, .i32⟩) Host.divsi,
    StableHlo.TRef.unary (.of main_v928 : StableHlo.TRef sig ⟨S7, .i32⟩) (.of main_call70_v3 : StableHlo.TRef sig ⟨S7, .i32⟩) signi,
    StableHlo.TRef.unary (.of main_call70_v0 : StableHlo.TRef sig ⟨S_, .i32⟩) (.of main_call70_v4 : StableHlo.TRef sig ⟨S_, .i32⟩) signi,
    StableHlo.TRef.unary (.of main_call70_v4 : StableHlo.TRef sig ⟨S_, .i32⟩) (.of main_call70_v5 : StableHlo.TRef sig ⟨S7, .i32⟩) (broadcastInDim S7 ![] bcast_S_S7),
    StableHlo.TRef.binary (.of main_call70_v3 : StableHlo.TRef sig ⟨S7, .i32⟩) (.of main_call70_v5 : StableHlo.TRef sig ⟨S7, .i32⟩) (.of main_call70_v6 : StableHlo.TRef sig ⟨S7, .i1⟩) (cmpi .ne),
    StableHlo.TRef.unary (.of main_call70_v0 : StableHlo.TRef sig ⟨S_, .i32⟩) (.of main_call70_v7 : StableHlo.TRef sig ⟨S7, .i32⟩) (broadcastInDim S7 ![] bcast_S_S7),
    StableHlo.TRef.binary (.of main_v928 : StableHlo.TRef sig ⟨S7, .i32⟩) (.of main_call70_v7 : StableHlo.TRef sig ⟨S7, .i32⟩) (.of main_call70_v8 : StableHlo.TRef sig ⟨S7, .i32⟩) Host.remsi,
    StableHlo.TRef.nullary (.of main_call70_c : StableHlo.TRef sig ⟨S_, .i32⟩) (constantI S_ 32 0#32),
    StableHlo.TRef.unary (.of main_call70_c : StableHlo.TRef sig ⟨S_, .i32⟩) (.of main_call70_v9 : StableHlo.TRef sig ⟨S7, .i32⟩) (broadcastInDim S7 ![] bcast_S_S7),
    StableHlo.TRef.binary (.of main_call70_v8 : StableHlo.TRef sig ⟨S7, .i32⟩) (.of main_call70_v9 : StableHlo.TRef sig ⟨S7, .i32⟩) (.of main_call70_v10 : StableHlo.TRef sig ⟨S7, .i1⟩) (cmpi .ne),
    StableHlo.TRef.binary (.of main_call70_v6 : StableHlo.TRef sig ⟨S7, .i1⟩) (.of main_call70_v10 : StableHlo.TRef sig ⟨S7, .i1⟩) (.of main_call70_v11 : StableHlo.TRef sig ⟨S7, .i1⟩) andi,
    StableHlo.TRef.nullary (.of main_call70_c_0 : StableHlo.TRef sig ⟨S_, .i32⟩) (constantI S_ 32 1#32),
    StableHlo.TRef.unary (.of main_call70_c_0 : StableHlo.TRef sig ⟨S_, .i32⟩) (.of main_call70_v12 : StableHlo.TRef sig ⟨S7, .i32⟩) (broadcastInDim S7 ![] bcast_S_S7),
    StableHlo.TRef.binary (.of main_call70_v2 : StableHlo.TRef sig ⟨S7, .i32⟩) (.of main_call70_v12 : StableHlo.TRef sig ⟨S7, .i32⟩) (.of main_call70_v13 : StableHlo.TRef sig ⟨S7, .i32⟩) subi,
    StableHlo.TRef.ternary (.of main_call70_v11 : StableHlo.TRef sig ⟨S7, .i1⟩) (.of main_call70_v13 : StableHlo.TRef sig ⟨S7, .i32⟩) (.of main_call70_v2 : StableHlo.TRef sig ⟨S7, .i32⟩) (.of main_v929 : StableHlo.TRef sig ⟨S7, .i32⟩) select,
    StableHlo.unary main_v904 main_v930 (broadcastInDim S7 ![] bcast_S_S7 : (⟨S_, .i32⟩ : BufTy).Contents (Elt F) → (⟨S7, .i32⟩ : BufTy).Contents (Elt F)),
    StableHlo.binary main_v930 main_v929 main_v931 (addi : (⟨S7, .i32⟩ : BufTy).Contents (Elt F) → (⟨S7, .i32⟩ : BufTy).Contents (Elt F) → (⟨S7, .i32⟩ : BufTy).Contents (Elt F)),
    StableHlo.nullary main_c_120 (constantI S_ 32 1#32),
    StableHlo.unary main_c_120 main_v932 (broadcastInDim S7 ![] bcast_S_S7 : (⟨S_, .i32⟩ : BufTy).Contents (Elt F) → (⟨S7, .i32⟩ : BufTy).Contents (Elt F)),
    StableHlo.binary main_v913 main_v932 main_v933 (addi : (⟨S7, .i32⟩ : BufTy).Contents (Elt F) → (⟨S7, .i32⟩ : BufTy).Contents (Elt F) → (⟨S7, .i32⟩ : BufTy).Contents (Elt F)),
    StableHlo.unary main_v933 main_v934 (negi : (⟨S7, .i32⟩ : BufTy).Contents (Elt F) → (⟨S7, .i32⟩ : BufTy).Contents (Elt F)),
    StableHlo.unary main_v911 main_v935 (broadcastInDim S7 ![] bcast_S_S7 : (⟨S_, .i32⟩ : BufTy).Contents (Elt F) → (⟨S7, .i32⟩ : BufTy).Contents (Elt F)),
    StableHlo.binary main_v934 main_v935 main_v936 (muli : (⟨S7, .i32⟩ : BufTy).Contents (Elt F) → (⟨S7, .i32⟩ : BufTy).Contents (Elt F) → (⟨S7, .i32⟩ : BufTy).Contents (Elt F)),
    StableHlo.nullary main_c_121 (constantI S_ 32 7#32) ]
/-- The buffers those operations write, in order. -/
abbrev ops36_W : List (Ref sig .tc) :=
  [main_call69_v0, main_call69_v1, main_call69_v2, main_call69_v3, main_call69_v4, main_call69_v5, main_call69_v6, main_call69_v7, main_call69_v8, main_call69_c, main_call69_v9, main_call69_v10, main_call69_v11, main_call69_c_0, main_call69_v12, main_call69_v13, main_v924, main_v925, main_v926, main_v927, main_v928, main_c_119, main_call70_v0, main_call70_v1, main_call70_v2, main_call70_v3, main_call70_v4, main_call70_v5, main_call70_v6, main_call70_v7, main_call70_v8, main_call70_c, main_call70_v9, main_call70_v10, main_call70_v11, main_call70_c_0, main_call70_v12, main_call70_v13, main_v929, main_v930, main_v931, main_c_120, main_v932, main_v933, main_v934, main_v935, main_v936, main_c_121]
/-- Each operation writes its own result buffer and nothing else. -/
theorem ops36_writes : (ops36 : List (HloOp τ sig (Elt F))).Forall fun op => op.writes ⊆ (ops36_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1879 to 1937 of the host part, in order. -/
abbrev ops37 : List (HloOp τ sig (Elt F)) :=
  [ StableHlo.TRef.unary (.of main_c_121 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S7, .i32⟩) (broadcastInDim S7 ![] bcast_S_S7),
    StableHlo.TRef.binary (.of main_v936 : StableHlo.TRef sig ⟨S7, .i32⟩) (.of main_call71_v1 : StableHlo.TRef sig ⟨S7, .i32⟩) (.of main_call71_v2 : StableHlo.TRef sig ⟨S7, .i32⟩) Host.divsi,
    StableHlo.TRef.unary (.of main_v936 : StableHlo.TRef sig ⟨S7, .i32⟩) (.of main_call71_v3 : StableHlo.TRef sig ⟨S7, .i32⟩) signi,
    StableHlo.TRef.unary (.of main_call71_v0 : StableHlo.TRef sig ⟨S_, .i32⟩) (.of main_call71_v4 : StableHlo.TRef sig ⟨S_, .i32⟩) signi,
    StableHlo.TRef.unary (.of main_call71_v4 : StableHlo.TRef sig ⟨S_, .i32⟩) (.of main_call71_v5 : StableHlo.TRef sig ⟨S7, .i32⟩) (broadcastInDim S7 ![] bcast_S_S7),
    StableHlo.TRef.binary (.of main_call71_v3 : StableHlo.TRef sig ⟨S7, .i32⟩) (.of main_call71_v5 : StableHlo.TRef sig ⟨S7, .i32⟩) (.of main_call71_v6 : StableHlo.TRef sig ⟨S7, .i1⟩) (cmpi .ne),
    StableHlo.TRef.unary (.of main_call71_v0 : StableHlo.TRef sig ⟨S_, .i32⟩) (.of main_call71_v7 : StableHlo.TRef sig ⟨S7, .i32⟩) (broadcastInDim S7 ![] bcast_S_S7),
    StableHlo.TRef.binary (.of main_v936 : StableHlo.TRef sig ⟨S7, .i32⟩) (.of main_call71_v7 : StableHlo.TRef sig ⟨S7, .i32⟩) (.of main_call71_v8 : StableHlo.TRef sig ⟨S7, .i32⟩) Host.remsi,
    StableHlo.TRef.nullary (.of main_call71_c : StableHlo.TRef sig ⟨S_, .i32⟩) (constantI S_ 32 0#32),
    StableHlo.TRef.unary (.of main_call71_c : StableHlo.TRef sig ⟨S_, .i32⟩) (.of main_call71_v9 : StableHlo.TRef sig ⟨S7, .i32⟩) (broadcastInDim S7 ![] bcast_S_S7),
    StableHlo.TRef.binary (.of main_call71_v8 : StableHlo.TRef sig ⟨S7, .i32⟩) (.of main_call71_v9 : StableHlo.TRef sig ⟨S7, .i32⟩) (.of main_call71_v10 : StableHlo.TRef sig ⟨S7, .i1⟩) (cmpi .ne),
    StableHlo.TRef.binary (.of main_call71_v6 : StableHlo.TRef sig ⟨S7, .i1⟩) (.of main_call71_v10 : StableHlo.TRef sig ⟨S7, .i1⟩) (.of main_call71_v11 : StableHlo.TRef sig ⟨S7, .i1⟩) andi,
    StableHlo.TRef.nullary (.of main_call71_c_0 : StableHlo.TRef sig ⟨S_, .i32⟩) (constantI S_ 32 1#32),
    StableHlo.TRef.unary (.of main_call71_c_0 : StableHlo.TRef sig ⟨S_, .i32⟩) (.of main_call71_v12 : StableHlo.TRef sig ⟨S7, .i32⟩) (broadcastInDim S7 ![] bcast_S_S7),
    StableHlo.TRef.binary (.of main_call71_v2 : StableHlo.TRef sig ⟨S7, .i32⟩) (.of main_call71_v12 : StableHlo.TRef sig ⟨S7, .i32⟩) (.of main_call71_v13 : StableHlo.TRef sig ⟨S7, .i32⟩) subi,
    StableHlo.TRef.ternary (.of main_call71_v11 : StableHlo.TRef sig ⟨S7, .i1⟩) (.of main_call71_v13 : StableHlo.TRef sig ⟨S7, .i32⟩) (.of main_call71_v2 : StableHlo.TRef sig ⟨S7, .i32⟩) (.of main_v937 : StableHlo.TRef sig ⟨S7, .i32⟩) select,
    StableHlo.unary main_v904 main_v938 (broadcastInDim S7 ![] bcast_S_S7 : (⟨S_, .i32⟩ : BufTy).Contents (Elt F) → (⟨S7, .i32⟩ : BufTy).Contents (Elt F)),
    StableHlo.binary main_v938 main_v937 main_v939 (subi : (⟨S7, .i32⟩ : BufTy).Contents (Elt F) → (⟨S7, .i32⟩ : BufTy).Contents (Elt F) → (⟨S7, .i32⟩ : BufTy).Contents (Elt F)),
    StableHlo.nullary main_v940 (iotaInDim S64 32 0),
    StableHlo.nullary main_v941 (iotaInDim S64 32 0),
    StableHlo.unary main_v940 main_v942 (broadcastInDim S1x64 ![1] bcast_S64_S1x64_1 : (⟨S64, .i32⟩ : BufTy).Contents (Elt F) → (⟨S1x64, .i32⟩ : BufTy).Contents (Elt F)),
    StableHlo.unary main_v918 main_v943 (broadcastInDim S7x1 ![0] bcast_S7_S7x1_0 : (⟨S7, .i32⟩ : BufTy).Contents (Elt F) → (⟨S7x1, .i32⟩ : BufTy).Contents (Elt F)),
    StableHlo.unary main_v942 main_v944 (broadcastInDim S7x64 ![0, 1] bcast_S1x64_S7x64_0_1 : (⟨S1x64, .i32⟩ : BufTy).Contents (Elt F) → (⟨S7x64, .i32⟩ : BufTy).Contents (Elt F)),
    StableHlo.unary main_v943 main_v945 (broadcastInDim S7x64 ![0, 1] bcast_S7x1_S7x64_0_1 : (⟨S7x1, .i32⟩ : BufTy).Contents (Elt F) → (⟨S7x64, .i32⟩ : BufTy).Contents (Elt F)),
    StableHlo.binary main_v944 main_v945 main_v946 (cmpi .sge : (⟨S7x64, .i32⟩ : BufTy).Contents (Elt F) → (⟨S7x64, .i32⟩ : BufTy).Contents (Elt F) → (⟨S7x64, .i1⟩ : BufTy).Contents (Elt F)),
    StableHlo.unary main_v940 main_v947 (broadcastInDim S1x64 ![1] bcast_S64_S1x64_1 : (⟨S64, .i32⟩ : BufTy).Contents (Elt F) → (⟨S1x64, .i32⟩ : BufTy).Contents (Elt F)),
    StableHlo.unary main_v926 main_v948 (broadcastInDim S7x1 ![0] bcast_S7_S7x1_0 : (⟨S7, .i32⟩ : BufTy).Contents (Elt F) → (⟨S7x1, .i32⟩ : BufTy).Contents (Elt F)),
    StableHlo.unary main_v947 main_v949 (broadcastInDim S7x64 ![0, 1] bcast_S1x64_S7x64_0_1 : (⟨S1x64, .i32⟩ : BufTy).Contents (Elt F) → (⟨S7x64, .i32⟩ : BufTy).Contents (Elt F)),
    StableHlo.unary main_v948 main_v950 (broadcastInDim S7x64 ![0, 1] bcast_S7x1_S7x64_0_1 : (⟨S7x1, .i32⟩ : BufTy).Contents (Elt F) → (⟨S7x64, .i32⟩ : BufTy).Contents (Elt F)),
    StableHlo.binary main_v949 main_v950 main_v951 (cmpi .slt : (⟨S7x64, .i32⟩ : BufTy).Contents (Elt F) → (⟨S7x64, .i32⟩ : BufTy).Contents (Elt F) → (⟨S7x64, .i1⟩ : BufTy).Contents (Elt F)),
    StableHlo.binary main_v946 main_v951 main_v952 (andi : (⟨S7x64, .i1⟩ : BufTy).Contents (Elt F) → (⟨S7x64, .i1⟩ : BufTy).Contents (Elt F) → (⟨S7x64, .i1⟩ : BufTy).Contents (Elt F)),
    StableHlo.unary main_v941 main_v953 (broadcastInDim S1x64 ![1] bcast_S64_S1x64_1 : (⟨S64, .i32⟩ : BufTy).Contents (Elt F) → (⟨S1x64, .i32⟩ : BufTy).Contents (Elt F)),
    StableHlo.unary main_v931 main_v954 (broadcastInDim S7x1 ![0] bcast_S7_S7x1_0 : (⟨S7, .i32⟩ : BufTy).Contents (Elt F) → (⟨S7x1, .i32⟩ : BufTy).Contents (Elt F)),
    StableHlo.unary main_v953 main_v955 (broadcastInDim S7x64 ![0, 1] bcast_S1x64_S7x64_0_1 : (⟨S1x64, .i32⟩ : BufTy).Contents (Elt F) → (⟨S7x64, .i32⟩ : BufTy).Contents (Elt F)),
    StableHlo.unary main_v954 main_v956 (broadcastInDim S7x64 ![0, 1] bcast_S7x1_S7x64_0_1 : (⟨S7x1, .i32⟩ : BufTy).Contents (Elt F) → (⟨S7x64, .i32⟩ : BufTy).Contents (Elt F)),
    StableHlo.binary main_v955 main_v956 main_v957 (cmpi .sge : (⟨S7x64, .i32⟩ : BufTy).Contents (Elt F) → (⟨S7x64, .i32⟩ : BufTy).Contents (Elt F) → (⟨S7x64, .i1⟩ : BufTy).Contents (Elt F)),
    StableHlo.unary main_v941 main_v958 (broadcastInDim S1x64 ![1] bcast_S64_S1x64_1 : (⟨S64, .i32⟩ : BufTy).Contents (Elt F) → (⟨S1x64, .i32⟩ : BufTy).Contents (Elt F)),
    StableHlo.unary main_v939 main_v959 (broadcastInDim S7x1 ![0] bcast_S7_S7x1_0 : (⟨S7, .i32⟩ : BufTy).Contents (Elt F) → (⟨S7x1, .i32⟩ : BufTy).Contents (Elt F)),
    StableHlo.unary main_v958 main_v960 (broadcastInDim S7x64 ![0, 1] bcast_S1x64_S7x64_0_1 : (⟨S1x64, .i32⟩ : BufTy).Contents (Elt F) → (⟨S7x64, .i32⟩ : BufTy).Contents (Elt F)),
    StableHlo.unary main_v959 main_v961 (broadcastInDim S7x64 ![0, 1] bcast_S7x1_S7x64_0_1 : (⟨S7x1, .i32⟩ : BufTy).Contents (Elt F) → (⟨S7x64, .i32⟩ : BufTy).Contents (Elt F)),
    StableHlo.binary main_v960 main_v961 main_v962 (cmpi .slt : (⟨S7x64, .i32⟩ : BufTy).Contents (Elt F) → (⟨S7x64, .i32⟩ : BufTy).Contents (Elt F) → (⟨S7x64, .i1⟩ : BufTy).Contents (Elt F)),
    StableHlo.binary main_v957 main_v962 main_v963 (andi : (⟨S7x64, .i1⟩ : BufTy).Contents (Elt F) → (⟨S7x64, .i1⟩ : BufTy).Contents (Elt F) → (⟨S7x64, .i1⟩ : BufTy).Contents (Elt F)),
    StableHlo.unary main_v952 main_v964 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v965 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_122 (constant S_ .f32 0xFF800000#32),
    StableHlo.TRef.unary (.of main_v964 : StableHlo.TRef sig ⟨S7x1x64x1, .i1⟩) (.of main_call72_v0 : StableHlo.TRef sig ⟨S7x512x64x64, .i1⟩) (broadcastInDim S7x512x64x64 ![0, 1, 2, 3] bcast_S7x1x64x1_S7x512x64x64_0_1_2_3),
    StableHlo.TRef.unary (.of main_v965 : StableHlo.TRef sig ⟨S1x512x64x64, .f32⟩) (.of main_call72_v1 : StableHlo.TRef sig ⟨S7x512x64x64, .f32⟩) (broadcastInDim S7x512x64x64 ![0, 1, 2, 3] bcast_S1x512x64x64_S7x512x64x64_0_1_2_3),
    StableHlo.TRef.unary (.of main_cst_122 : StableHlo.TRef sig ⟨S_, .f32⟩) (.of main_call72_v2 : StableHlo.TRef sig ⟨S7x512x64x64, .f32⟩) (broadcastInDim S7x512x64x64 ![] bcast_S_S7x512x64x64),
    StableHlo.TRef.ternary (.of main_call72_v0 : StableHlo.TRef sig ⟨S7x512x64x64, .i1⟩) (.of main_call72_v1 : StableHlo.TRef sig ⟨S7x512x64x64, .f32⟩) (.of main_call72_v2 : StableHlo.TRef sig ⟨S7x512x64x64, .f32⟩) (.of main_v966 : StableHlo.TRef sig ⟨S7x512x64x64, .f32⟩) select,
    StableHlo.nullary main_cst_123 (constant S_ .f32 0xFF800000#32),
    StableHlo.binary main_v966 main_cst_123 main_v967 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v963 main_v968 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v967 main_v969 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_124 (constant S_ .f32 0xFF800000#32),
    StableHlo.TRef.unary (.of main_v968 : StableHlo.TRef sig ⟨S1x1x7x64, .i1⟩) (.of main_call73_v0 : StableHlo.TRef sig ⟨S7x512x7x64, .i1⟩) (broadcastInDim S7x512x7x64 ![0, 1, 2, 3] bcast_S1x1x7x64_S7x512x7x64_0_1_2_3),
    StableHlo.TRef.unary (.of main_v969 : StableHlo.TRef sig ⟨S7x512x1x64, .f32⟩) (.of main_call73_v1 : StableHlo.TRef sig ⟨S7x512x7x64, .f32⟩) (broadcastInDim S7x512x7x64 ![0, 1, 2, 3] bcast_S7x512x1x64_S7x512x7x64_0_1_2_3),
    StableHlo.TRef.unary (.of main_cst_124 : StableHlo.TRef sig ⟨S_, .f32⟩) (.of main_call73_v2 : StableHlo.TRef sig ⟨S7x512x7x64, .f32⟩) (broadcastInDim S7x512x7x64 ![] bcast_S_S7x512x7x64),
    StableHlo.TRef.ternary (.of main_call73_v0 : StableHlo.TRef sig ⟨S7x512x7x64, .i1⟩) (.of main_call73_v1 : StableHlo.TRef sig ⟨S7x512x7x64, .f32⟩) (.of main_call73_v2 : StableHlo.TRef sig ⟨S7x512x7x64, .f32⟩) (.of main_v970 : StableHlo.TRef sig ⟨S7x512x7x64, .f32⟩) select ]
/-- The buffers those operations write, in order. -/
abbrev ops37_W : List (Ref sig .tc) :=
  [main_call71_v0, main_call71_v1, main_call71_v2, main_call71_v3, main_call71_v4, main_call71_v5, main_call71_v6, main_call71_v7, main_call71_v8, main_call71_c, main_call71_v9, main_call71_v10, main_call71_v11, main_call71_c_0, main_call71_v12, main_call71_v13, main_v937, main_v938, main_v939, main_v940, main_v941, main_v942, main_v943, main_v944, main_v945, main_v946, main_v947, main_v948, main_v949, main_v950, main_v951, main_v952, main_v953, main_v954, main_v955, main_v956, main_v957, main_v958, main_v959, main_v960, main_v961, main_v962, main_v963, main_v964, main_v965, main_cst_122, main_call72_v0, main_call72_v1, main_call72_v2, main_v966, main_cst_123, main_v967, main_v968, main_v969, main_cst_124, main_call73_v0, main_call73_v1, main_call73_v2, main_v970]
/-- Each operation writes its own result buffer and nothing else. -/
theorem ops37_writes : (ops37 : List (HloOp τ sig (Elt F))).Forall fun op => op.writes ⊆ (ops37_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part5 : List (HloOp τ sig (Elt F)) :=
  ops32 ++ ops33 ++ ops34 ++ ops35 ++ ops36 ++ ops37
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 32 (operations 1610 to 1666): agreement on the 13 buffers live before it gives agreement on the 20 live after it. -/
theorem step32
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v802) = WR (Proc.devRef .tc Cert.ReferenceIdeal.main_v802)) :
    (after (Cert.KernelIdeal.Agree.ops32 (F := F)) WK) (Proc.devRef .tc Cert.KernelIdeal.main_v0) = (after (Cert.ReferenceIdeal.Agree.ops32 (F := F)) WR) (Proc.devRef .tc Cert.ReferenceIdeal.main_v0)
      ∧ (after (Cert.KernelIdeal.Agree.ops32 (F := F)) WK) (Proc.devRef .tc Cert.KernelIdeal.main_v18) = (after (Cert.ReferenceIdeal.Agree.ops32 (F := F)) WR) (Proc.devRef .tc Cert.ReferenceIdeal.main_v18)
      ∧ (after (Cert.KernelIdeal.Agree.ops32 (F := F)) WK) (Proc.devRef .tc Cert.KernelIdeal.main_v23) = (after (Cert.ReferenceIdeal.Agree.ops32 (F := F)) WR) (Proc.devRef .tc Cert.ReferenceIdeal.main_v23)
      ∧ (after (Cert.KernelIdeal.Agree.ops32 (F := F)) WK) (Proc.devRef .tc Cert.KernelIdeal.main_v85) = (after (Cert.ReferenceIdeal.Agree.ops32 (F := F)) WR) (Proc.devRef .tc Cert.ReferenceIdeal.main_v85)
      ∧ (after (Cert.KernelIdeal.Agree.ops32 (F := F)) WK) (Proc.devRef .tc Cert.KernelIdeal.main_v157) = (after (Cert.ReferenceIdeal.Agree.ops32 (F := F)) WR) (Proc.devRef .tc Cert.ReferenceIdeal.main_v157)
      ∧ (after (Cert.KernelIdeal.Agree.ops32 (F := F)) WK) (Proc.devRef .tc Cert.KernelIdeal.main_v229) = (after (Cert.ReferenceIdeal.Agree.ops32 (F := F)) WR) (Proc.devRef .tc Cert.ReferenceIdeal.main_v229)
      ∧ (after (Cert.KernelIdeal.Agree.ops32 (F := F)) WK) (Proc.devRef .tc Cert.KernelIdeal.main_v301) = (after (Cert.ReferenceIdeal.Agree.ops32 (F := F)) WR) (Proc.devRef .tc Cert.ReferenceIdeal.main_v301)
      ∧ (after (Cert.KernelIdeal.Agree.ops32 (F := F)) WK) (Proc.devRef .tc Cert.KernelIdeal.main_v385) = (after (Cert.ReferenceIdeal.Agree.ops32 (F := F)) WR) (Proc.devRef .tc Cert.ReferenceIdeal.main_v385)
      ∧ (after (Cert.KernelIdeal.Agree.ops32 (F := F)) WK) (Proc.devRef .tc Cert.KernelIdeal.main_v469) = (after (Cert.ReferenceIdeal.Agree.ops32 (F := F)) WR) (Proc.devRef .tc Cert.ReferenceIdeal.main_v469)
      ∧ (after (Cert.KernelIdeal.Agree.ops32 (F := F)) WK) (Proc.devRef .tc Cert.KernelIdeal.main_v553) = (after (Cert.ReferenceIdeal.Agree.ops32 (F := F)) WR) (Proc.devRef .tc Cert.ReferenceIdeal.main_v553)
      ∧ (after (Cert.KernelIdeal.Agree.ops32 (F := F)) WK) (Proc.devRef .tc Cert.KernelIdeal.main_v637) = (after (Cert.ReferenceIdeal.Agree.ops32 (F := F)) WR) (Proc.devRef .tc Cert.ReferenceIdeal.main_v637)
      ∧ (after (Cert.KernelIdeal.Agree.ops32 (F := F)) WK) (Proc.devRef .tc Cert.KernelIdeal.main_v721) = (after (Cert.ReferenceIdeal.Agree.ops32 (F := F)) WR) (Proc.devRef .tc Cert.ReferenceIdeal.main_v721)
      ∧ (after (Cert.KernelIdeal.Agree.ops32 (F := F)) WK) (Proc.devRef .tc Cert.KernelIdeal.main_v805) = (after (Cert.ReferenceIdeal.Agree.ops32 (F := F)) WR) (Proc.devRef .tc Cert.ReferenceIdeal.main_v805)
      ∧ (after (Cert.KernelIdeal.Agree.ops32 (F := F)) WK) (Proc.devRef .tc Cert.KernelIdeal.main_v810) = (after (Cert.ReferenceIdeal.Agree.ops32 (F := F)) WR) (Proc.devRef .tc Cert.ReferenceIdeal.main_v810)
      ∧ (after (Cert.KernelIdeal.Agree.ops32 (F := F)) WK) (Proc.devRef .tc Cert.KernelIdeal.main_v820) = (after (Cert.ReferenceIdeal.Agree.ops32 (F := F)) WR) (Proc.devRef .tc Cert.ReferenceIdeal.main_v820)
      ∧ (after (Cert.KernelIdeal.Agree.ops32 (F := F)) WK) (Proc.devRef .tc Cert.KernelIdeal.main_v827) = (after (Cert.ReferenceIdeal.Agree.ops32 (F := F)) WR) (Proc.devRef .tc Cert.ReferenceIdeal.main_v827)
      ∧ (after (Cert.KernelIdeal.Agree.ops32 (F := F)) WK) (Proc.devRef .tc Cert.KernelIdeal.main_v829) = (after (Cert.ReferenceIdeal.Agree.ops32 (F := F)) WR) (Proc.devRef .tc Cert.ReferenceIdeal.main_v829)
      ∧ (after (Cert.KernelIdeal.Agree.ops32 (F := F)) WK) (Proc.devRef .tc Cert.KernelIdeal.main_v834) = (after (Cert.ReferenceIdeal.Agree.ops32 (F := F)) WR) (Proc.devRef .tc Cert.ReferenceIdeal.main_v834)
      ∧ (after (Cert.KernelIdeal.Agree.ops32 (F := F)) WK) (Proc.devRef .tc Cert.KernelIdeal.main_v839) = (after (Cert.ReferenceIdeal.Agree.ops32 (F := F)) WR) (Proc.devRef .tc Cert.ReferenceIdeal.main_v839)
      ∧ (after (Cert.KernelIdeal.Agree.ops32 (F := F)) WK) (Proc.devRef .tc Cert.KernelIdeal.main_c_108) = (after (Cert.ReferenceIdeal.Agree.ops32 (F := F)) WR) (Proc.devRef .tc Cert.ReferenceIdeal.main_c_108) := by
  obtain ⟨h_v0, h_v18, h_v23, h_v85, h_v157, h_v229, h_v301, h_v385, h_v469, h_v553, h_v637, h_v721, h_v802⟩ := h
  refine ⟨?_, ?_, ?_, ?_, ?_, ?_, ?_, ?_, ?_, ?_, ?_, ?_, ?_, ?_, ?_, ?_, ?_, ?_, ?_, ?_⟩
  · exact (after_of_writes_sub _ WK Cert.KernelIdeal.Agree.ops32_writes (by decide)).trans (h_v0.trans (after_of_writes_sub _ WR Cert.ReferenceIdeal.Agree.ops32_writes (by decide)).symm)
  · exact (after_of_writes_sub _ WK Cert.KernelIdeal.Agree.ops32_writes (by decide)).trans (h_v18.trans (after_of_writes_sub _ WR Cert.ReferenceIdeal.Agree.ops32_writes (by decide)).symm)
  · exact (after_of_writes_sub _ WK Cert.KernelIdeal.Agree.ops32_writes (by decide)).trans (h_v23.trans (after_of_writes_sub _ WR Cert.ReferenceIdeal.Agree.ops32_writes (by decide)).symm)
  · exact (after_of_writes_sub _ WK Cert.KernelIdeal.Agree.ops32_writes (by decide)).trans (h_v85.trans (after_of_writes_sub _ WR Cert.ReferenceIdeal.Agree.ops32_writes (by decide)).symm)
  · exact (after_of_writes_sub _ WK Cert.KernelIdeal.Agree.ops32_writes (by decide)).trans (h_v157.trans (after_of_writes_sub _ WR Cert.ReferenceIdeal.Agree.ops32_writes (by decide)).symm)
  · exact (after_of_writes_sub _ WK Cert.KernelIdeal.Agree.ops32_writes (by decide)).trans (h_v229.trans (after_of_writes_sub _ WR Cert.ReferenceIdeal.Agree.ops32_writes (by decide)).symm)
  · exact (after_of_writes_sub _ WK Cert.KernelIdeal.Agree.ops32_writes (by decide)).trans (h_v301.trans (after_of_writes_sub _ WR Cert.ReferenceIdeal.Agree.ops32_writes (by decide)).symm)
  · exact (after_of_writes_sub _ WK Cert.KernelIdeal.Agree.ops32_writes (by decide)).trans (h_v385.trans (after_of_writes_sub _ WR Cert.ReferenceIdeal.Agree.ops32_writes (by decide)).symm)
  · exact (after_of_writes_sub _ WK Cert.KernelIdeal.Agree.ops32_writes (by decide)).trans (h_v469.trans (after_of_writes_sub _ WR Cert.ReferenceIdeal.Agree.ops32_writes (by decide)).symm)
  · exact (after_of_writes_sub _ WK Cert.KernelIdeal.Agree.ops32_writes (by decide)).trans (h_v553.trans (after_of_writes_sub _ WR Cert.ReferenceIdeal.Agree.ops32_writes (by decide)).symm)
  · exact (after_of_writes_sub _ WK Cert.KernelIdeal.Agree.ops32_writes (by decide)).trans (h_v637.trans (after_of_writes_sub _ WR Cert.ReferenceIdeal.Agree.ops32_writes (by decide)).symm)
  · exact (after_of_writes_sub _ WK Cert.KernelIdeal.Agree.ops32_writes (by decide)).trans (h_v721.trans (after_of_writes_sub _ WR Cert.ReferenceIdeal.Agree.ops32_writes (by decide)).symm)
  · run_agrees [h_v802]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 33 (operations 1667 to 1714): agreement on the 20 buffers live before it gives agreement on the 19 live after it. -/
theorem step33
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v810) = WR (Proc.devRef .tc Cert.ReferenceIdeal.main_v810)
      ∧ WK (Proc.devRef .tc Cert.KernelIdeal.main_v820) = WR (Proc.devRef .tc Cert.ReferenceIdeal.main_v820)
      ∧ WK (Proc.devRef .tc Cert.KernelIdeal.main_v827) = WR (Proc.devRef .tc Cert.ReferenceIdeal.main_v827)
      ∧ WK (Proc.devRef .tc Cert.KernelIdeal.main_v829) = WR (Proc.devRef .tc Cert.ReferenceIdeal.main_v829)
      ∧ WK (Proc.devRef .tc Cert.KernelIdeal.main_v834) = WR (Proc.devRef .tc Cert.ReferenceIdeal.main_v834)
      ∧ WK (Proc.devRef .tc Cert.KernelIdeal.main_v839) = WR (Proc.devRef .tc Cert.ReferenceIdeal.main_v839)
      ∧ WK (Proc.devRef .tc Cert.KernelIdeal.main_c_108) = WR (Proc.devRef .tc Cert.ReferenceIdeal.main_c_108)) :
    (after (Cert.KernelIdeal.Agree.ops33 (F := F)) WK) (Proc.devRef .tc Cert.KernelIdeal.main_v0) = (after (Cert.ReferenceIdeal.Agree.ops33 (F := F)) WR) (Proc.devRef .tc Cert.ReferenceIdeal.main_v0)
      ∧ (after (Cert.KernelIdeal.Agree.ops33 (F := F)) WK) (Proc.devRef .tc Cert.KernelIdeal.main_v18) = (after (Cert.ReferenceIdeal.Agree.ops33 (F := F)) WR) (Proc.devRef .tc Cert.ReferenceIdeal.main_v18)
      ∧ (after (Cert.KernelIdeal.Agree.ops33 (F := F)) WK) (Proc.devRef .tc Cert.KernelIdeal.main_v23) = (after (Cert.ReferenceIdeal.Agree.ops33 (F := F)) WR) (Proc.devRef .tc Cert.ReferenceIdeal.main_v23)
      ∧ (after (Cert.KernelIdeal.Agree.ops33 (F := F)) WK) (Proc.devRef .tc Cert.KernelIdeal.main_v85) = (after (Cert.ReferenceIdeal.Agree.ops33 (F := F)) WR) (Proc.devRef .tc Cert.ReferenceIdeal.main_v85)
      ∧ (after (Cert.KernelIdeal.Agree.ops33 (F := F)) WK) (Proc.devRef .tc Cert.KernelIdeal.main_v157) = (after (Cert.ReferenceIdeal.Agree.ops33 (F := F)) WR) (Proc.devRef .tc Cert.ReferenceIdeal.main_v157)
      ∧ (after (Cert.KernelIdeal.Agree.ops33 (F := F)) WK) (Proc.devRef .tc Cert.KernelIdeal.main_v229) = (after (Cert.ReferenceIdeal.Agree.ops33 (F := F)) WR) (Proc.devRef .tc Cert.ReferenceIdeal.main_v229)
      ∧ (after (Cert.KernelIdeal.Agree.ops33 (F := F)) WK) (Proc.devRef .tc Cert.KernelIdeal.main_v301) = (after (Cert.ReferenceIdeal.Agree.ops33 (F := F)) WR) (Proc.devRef .tc Cert.ReferenceIdeal.main_v301)
      ∧ (after (Cert.KernelIdeal.Agree.ops33 (F := F)) WK) (Proc.devRef .tc Cert.KernelIdeal.main_v385) = (after (Cert.ReferenceIdeal.Agree.ops33 (F := F)) WR) (Proc.devRef .tc Cert.ReferenceIdeal.main_v385)
      ∧ (after (Cert.KernelIdeal.Agree.ops33 (F := F)) WK) (Proc.devRef .tc Cert.KernelIdeal.main_v469) = (after (Cert.ReferenceIdeal.Agree.ops33 (F := F)) WR) (Proc.devRef .tc Cert.ReferenceIdeal.main_v469)
      ∧ (after (Cert.KernelIdeal.Agree.ops33 (F := F)) WK) (Proc.devRef .tc Cert.KernelIdeal.main_v553) = (after (Cert.ReferenceIdeal.Agree.ops33 (F := F)) WR) (Proc.devRef .tc Cert.ReferenceIdeal.main_v553)
      ∧ (after (Cert.KernelIdeal.Agree.ops33 (F := F)) WK) (Proc.devRef .tc Cert.KernelIdeal.main_v637) = (after (Cert.ReferenceIdeal.Agree.ops33 (F := F)) WR) (Proc.devRef .tc Cert.ReferenceIdeal.main_v637)
      ∧ (after (Cert.KernelIdeal.Agree.ops33 (F := F)) WK) (Proc.devRef .tc Cert.KernelIdeal.main_v721) = (after (Cert.ReferenceIdeal.Agree.ops33 (F := F)) WR) (Proc.devRef .tc Cert.ReferenceIdeal.main_v721)
      ∧ (after (Cert.KernelIdeal.Agree.ops33 (F := F)) WK) (Proc.devRef .tc Cert.KernelIdeal.main_v805) = (after (Cert.ReferenceIdeal.Agree.ops33 (F := F)) WR) (Proc.devRef .tc Cert.ReferenceIdeal.main_v805)
      ∧ (after (Cert.KernelIdeal.Agree.ops33 (F := F)) WK) (Proc.devRef .tc Cert.KernelIdeal.main_v820) = (after (Cert.ReferenceIdeal.Agree.ops33 (F := F)) WR) (Proc.devRef .tc Cert.ReferenceIdeal.main_v820)
      ∧ (after (Cert.KernelIdeal.Agree.ops33 (F := F)) WK) (Proc.devRef .tc Cert.KernelIdeal.main_v834) = (after (Cert.ReferenceIdeal.Agree.ops33 (F := F)) WR) (Proc.devRef .tc Cert.ReferenceIdeal.main_v834)
      ∧ (after (Cert.KernelIdeal.Agree.ops33 (F := F)) WK) (Proc.devRef .tc Cert.KernelIdeal.main_v842) = (after (Cert.ReferenceIdeal.Agree.ops33 (F := F)) WR) (Proc.devRef .tc Cert.ReferenceIdeal.main_v842)
      ∧ (after (Cert.KernelIdeal.Agree.ops33 (F := F)) WK) (Proc.devRef .tc Cert.KernelIdeal.main_v847) = (after (Cert.ReferenceIdeal.Agree.ops33 (F := F)) WR) (Proc.devRef .tc Cert.ReferenceIdeal.main_v847)
      ∧ (after (Cert.KernelIdeal.Agree.ops33 (F := F)) WK) (Proc.devRef .tc Cert.KernelIdeal.main_v852) = (after (Cert.ReferenceIdeal.Agree.ops33 (F := F)) WR) (Proc.devRef .tc Cert.ReferenceIdeal.main_v852)
      ∧ (after (Cert.KernelIdeal.Agree.ops33 (F := F)) WK) (Proc.devRef .tc Cert.KernelIdeal.main_c_111) = (after (Cert.ReferenceIdeal.Agree.ops33 (F := F)) WR) (Proc.devRef .tc Cert.ReferenceIdeal.main_c_111) := by
  obtain ⟨h_v0, h_v18, h_v23, h_v85, h_v157, h_v229, h_v301, h_v385, h_v469, h_v553, h_v637, h_v721, h_v805, h_v810, h_v820, h_v827, h_v829, h_v834, h_v839, h_c_108⟩ := h
  refine ⟨?_, ?_, ?_, ?_, ?_, ?_, ?_, ?_, ?_, ?_, ?_, ?_, ?_, ?_, ?_, ?_, ?_, ?_, ?_⟩
  · exact (after_of_writes_sub _ WK Cert.KernelIdeal.Agree.ops33_writes (by decide)).trans (h_v0.trans (after_of_writes_sub _ WR Cert.ReferenceIdeal.Agree.ops33_writes (by decide)).symm)
  · exact (after_of_writes_sub _ WK Cert.KernelIdeal.Agree.ops33_writes (by decide)).trans (h_v18.trans (after_of_writes_sub _ WR Cert.ReferenceIdeal.Agree.ops33_writes (by decide)).symm)
  · exact (after_of_writes_sub _ WK Cert.KernelIdeal.Agree.ops33_writes (by decide)).trans (h_v23.trans (after_of_writes_sub _ WR Cert.ReferenceIdeal.Agree.ops33_writes (by decide)).symm)
  · exact (after_of_writes_sub _ WK Cert.KernelIdeal.Agree.ops33_writes (by decide)).trans (h_v85.trans (after_of_writes_sub _ WR Cert.ReferenceIdeal.Agree.ops33_writes (by decide)).symm)
  · exact (after_of_writes_sub _ WK Cert.KernelIdeal.Agree.ops33_writes (by decide)).trans (h_v157.trans (after_of_writes_sub _ WR Cert.ReferenceIdeal.Agree.ops33_writes (by decide)).symm)
  · exact (after_of_writes_sub _ WK Cert.KernelIdeal.Agree.ops33_writes (by decide)).trans (h_v229.trans (after_of_writes_sub _ WR Cert.ReferenceIdeal.Agree.ops33_writes (by decide)).symm)
  · exact (after_of_writes_sub _ WK Cert.KernelIdeal.Agree.ops33_writes (by decide)).trans (h_v301.trans (after_of_writes_sub _ WR Cert.ReferenceIdeal.Agree.ops33_writes (by decide)).symm)
  · exact (after_of_writes_sub _ WK Cert.KernelIdeal.Agree.ops33_writes (by decide)).trans (h_v385.trans (after_of_writes_sub _ WR Cert.ReferenceIdeal.Agree.ops33_writes (by decide)).symm)
  · exact (after_of_writes_sub _ WK Cert.KernelIdeal.Agree.ops33_writes (by decide)).trans (h_v469.trans (after_of_writes_sub _ WR Cert.ReferenceIdeal.Agree.ops33_writes (by decide)).symm)
  · exact (after_of_writes_sub _ WK Cert.KernelIdeal.Agree.ops33_writes (by decide)).trans (h_v553.trans (after_of_writes_sub _ WR Cert.ReferenceIdeal.Agree.ops33_writes (by decide)).symm)
  · exact (after_of_writes_sub _ WK Cert.KernelIdeal.Agree.ops33_writes (by decide)).trans (h_v637.trans (after_of_writes_sub _ WR Cert.ReferenceIdeal.Agree.ops33_writes (by decide)).symm)
  · exact (after_of_writes_sub _ WK Cert.KernelIdeal.Agree.ops33_writes (by decide)).trans (h_v721.trans (after_of_writes_sub _ WR Cert.ReferenceIdeal.Agree.ops33_writes (by decide)).symm)
  · exact (after_of_writes_sub _ WK Cert.KernelIdeal.Agree.ops33_writes (by decide)).trans (h_v805.trans (after_of_writes_sub _ WR Cert.ReferenceIdeal.Agree.ops33_writes (by decide)).symm)
  · exact (after_of_writes_sub _ WK Cert.KernelIdeal.Agree.ops33_writes (by decide)).trans (h_v820.trans (after_of_writes_sub _ WR Cert.ReferenceIdeal.Agree.ops33_writes (by decide)).symm)
  · exact (after_of_writes_sub _ WK Cert.KernelIdeal.Agree.ops33_writes (by decide)).trans (h_v834.trans (after_of_writes_sub _ WR Cert.ReferenceIdeal.Agree.ops33_writes (by decide)).symm)
  · run_agrees [h_v810, h_v839, h_c_108]
  · run_agrees [h_v820, h_v827, h_v829]
  · run_agrees [h_v827, h_v829]
  · after_results_simp; first | done | rfl

set_option maxHeartbeats 800000 in
/-- Run 34 (operations 1715 to 1773): agreement on the 19 buffers live before it gives agreement on the 14 live after it. -/
theorem step34
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v820) = WR (Proc.devRef .tc Cert.ReferenceIdeal.main_v820)
      ∧ WK (Proc.devRef .tc Cert.KernelIdeal.main_v834) = WR (Proc.devRef .tc Cert.ReferenceIdeal.main_v834)
      ∧ WK (Proc.devRef .tc Cert.KernelIdeal.main_v842) = WR (Proc.devRef .tc Cert.ReferenceIdeal.main_v842)
      ∧ WK (Proc.devRef .tc Cert.KernelIdeal.main_v847) = WR (Proc.devRef .tc Cert.ReferenceIdeal.main_v847)
      ∧ WK (Proc.devRef .tc Cert.KernelIdeal.main_v852) = WR (Proc.devRef .tc Cert.ReferenceIdeal.main_v852)
      ∧ WK (Proc.devRef .tc Cert.KernelIdeal.main_c_111) = WR (Proc.devRef .tc Cert.ReferenceIdeal.main_c_111)) :
    (after (Cert.KernelIdeal.Agree.ops34 (F := F)) WK) (Proc.devRef .tc Cert.KernelIdeal.main_v0) = (after (Cert.ReferenceIdeal.Agree.ops34 (F := F)) WR) (Proc.devRef .tc Cert.ReferenceIdeal.main_v0)
      ∧ (after (Cert.KernelIdeal.Agree.ops34 (F := F)) WK) (Proc.devRef .tc Cert.KernelIdeal.main_v18) = (after (Cert.ReferenceIdeal.Agree.ops34 (F := F)) WR) (Proc.devRef .tc Cert.ReferenceIdeal.main_v18)
      ∧ (after (Cert.KernelIdeal.Agree.ops34 (F := F)) WK) (Proc.devRef .tc Cert.KernelIdeal.main_v23) = (after (Cert.ReferenceIdeal.Agree.ops34 (F := F)) WR) (Proc.devRef .tc Cert.ReferenceIdeal.main_v23)
      ∧ (after (Cert.KernelIdeal.Agree.ops34 (F := F)) WK) (Proc.devRef .tc Cert.KernelIdeal.main_v85) = (after (Cert.ReferenceIdeal.Agree.ops34 (F := F)) WR) (Proc.devRef .tc Cert.ReferenceIdeal.main_v85)
      ∧ (after (Cert.KernelIdeal.Agree.ops34 (F := F)) WK) (Proc.devRef .tc Cert.KernelIdeal.main_v157) = (after (Cert.ReferenceIdeal.Agree.ops34 (F := F)) WR) (Proc.devRef .tc Cert.ReferenceIdeal.main_v157)
      ∧ (after (Cert.KernelIdeal.Agree.ops34 (F := F)) WK) (Proc.devRef .tc Cert.KernelIdeal.main_v229) = (after (Cert.ReferenceIdeal.Agree.ops34 (F := F)) WR) (Proc.devRef .tc Cert.ReferenceIdeal.main_v229)
      ∧ (after (Cert.KernelIdeal.Agree.ops34 (F := F)) WK) (Proc.devRef .tc Cert.KernelIdeal.main_v301) = (after (Cert.ReferenceIdeal.Agree.ops34 (F := F)) WR) (Proc.devRef .tc Cert.ReferenceIdeal.main_v301)
      ∧ (after (Cert.KernelIdeal.Agree.ops34 (F := F)) WK) (Proc.devRef .tc Cert.KernelIdeal.main_v385) = (after (Cert.ReferenceIdeal.Agree.ops34 (F := F)) WR) (Proc.devRef .tc Cert.ReferenceIdeal.main_v385)
      ∧ (after (Cert.KernelIdeal.Agree.ops34 (F := F)) WK) (Proc.devRef .tc Cert.KernelIdeal.main_v469) = (after (Cert.ReferenceIdeal.Agree.ops34 (F := F)) WR) (Proc.devRef .tc Cert.ReferenceIdeal.main_v469)
      ∧ (after (Cert.KernelIdeal.Agree.ops34 (F := F)) WK) (Proc.devRef .tc Cert.KernelIdeal.main_v553) = (after (Cert.ReferenceIdeal.Agree.ops34 (F := F)) WR) (Proc.devRef .tc Cert.ReferenceIdeal.main_v553)
      ∧ (after (Cert.KernelIdeal.Agree.ops34 (F := F)) WK) (Proc.devRef .tc Cert.KernelIdeal.main_v637) = (after (Cert.ReferenceIdeal.Agree.ops34 (F := F)) WR) (Proc.devRef .tc Cert.ReferenceIdeal.main_v637)
      ∧ (after (Cert.KernelIdeal.Agree.ops34 (F := F)) WK) (Proc.devRef .tc Cert.KernelIdeal.main_v721) = (after (Cert.ReferenceIdeal.Agree.ops34 (F := F)) WR) (Proc.devRef .tc Cert.ReferenceIdeal.main_v721)
      ∧ (after (Cert.KernelIdeal.Agree.ops34 (F := F)) WK) (Proc.devRef .tc Cert.KernelIdeal.main_v805) = (after (Cert.ReferenceIdeal.Agree.ops34 (F := F)) WR) (Proc.devRef .tc Cert.ReferenceIdeal.main_v805)
      ∧ (after (Cert.KernelIdeal.Agree.ops34 (F := F)) WK) (Proc.devRef .tc Cert.KernelIdeal.main_v886) = (after (Cert.ReferenceIdeal.Agree.ops34 (F := F)) WR) (Proc.devRef .tc Cert.ReferenceIdeal.main_v886) := by
  obtain ⟨h_v0, h_v18, h_v23, h_v85, h_v157, h_v229, h_v301, h_v385, h_v469, h_v553, h_v637, h_v721, h_v805, h_v820, h_v834, h_v842, h_v847, h_v852, h_c_111⟩ := h
  refine ⟨?_, ?_, ?_, ?_, ?_, ?_, ?_, ?_, ?_, ?_, ?_, ?_, ?_, ?_⟩
  · exact (after_of_writes_sub _ WK Cert.KernelIdeal.Agree.ops34_writes (by decide)).trans (h_v0.trans (after_of_writes_sub _ WR Cert.ReferenceIdeal.Agree.ops34_writes (by decide)).symm)
  · exact (after_of_writes_sub _ WK Cert.KernelIdeal.Agree.ops34_writes (by decide)).trans (h_v18.trans (after_of_writes_sub _ WR Cert.ReferenceIdeal.Agree.ops34_writes (by decide)).symm)
  · exact (after_of_writes_sub _ WK Cert.KernelIdeal.Agree.ops34_writes (by decide)).trans (h_v23.trans (after_of_writes_sub _ WR Cert.ReferenceIdeal.Agree.ops34_writes (by decide)).symm)
  · exact (after_of_writes_sub _ WK Cert.KernelIdeal.Agree.ops34_writes (by decide)).trans (h_v85.trans (after_of_writes_sub _ WR Cert.ReferenceIdeal.Agree.ops34_writes (by decide)).symm)
  · exact (after_of_writes_sub _ WK Cert.KernelIdeal.Agree.ops34_writes (by decide)).trans (h_v157.trans (after_of_writes_sub _ WR Cert.ReferenceIdeal.Agree.ops34_writes (by decide)).symm)
  · exact (after_of_writes_sub _ WK Cert.KernelIdeal.Agree.ops34_writes (by decide)).trans (h_v229.trans (after_of_writes_sub _ WR Cert.ReferenceIdeal.Agree.ops34_writes (by decide)).symm)
  · exact (after_of_writes_sub _ WK Cert.KernelIdeal.Agree.ops34_writes (by decide)).trans (h_v301.trans (after_of_writes_sub _ WR Cert.ReferenceIdeal.Agree.ops34_writes (by decide)).symm)
  · exact (after_of_writes_sub _ WK Cert.KernelIdeal.Agree.ops34_writes (by decide)).trans (h_v385.trans (after_of_writes_sub _ WR Cert.ReferenceIdeal.Agree.ops34_writes (by decide)).symm)
  · exact (after_of_writes_sub _ WK Cert.KernelIdeal.Agree.ops34_writes (by decide)).trans (h_v469.trans (after_of_writes_sub _ WR Cert.ReferenceIdeal.Agree.ops34_writes (by decide)).symm)
  · exact (after_of_writes_sub _ WK Cert.KernelIdeal.Agree.ops34_writes (by decide)).trans (h_v553.trans (after_of_writes_sub _ WR Cert.ReferenceIdeal.Agree.ops34_writes (by decide)).symm)
  · exact (after_of_writes_sub _ WK Cert.KernelIdeal.Agree.ops34_writes (by decide)).trans (h_v637.trans (after_of_writes_sub _ WR Cert.ReferenceIdeal.Agree.ops34_writes (by decide)).symm)
  · exact (after_of_writes_sub _ WK Cert.KernelIdeal.Agree.ops34_writes (by decide)).trans (h_v721.trans (after_of_writes_sub _ WR Cert.ReferenceIdeal.Agree.ops34_writes (by decide)).symm)
  · exact (after_of_writes_sub _ WK Cert.KernelIdeal.Agree.ops34_writes (by decide)).trans (h_v805.trans (after_of_writes_sub _ WR Cert.ReferenceIdeal.Agree.ops34_writes (by decide)).symm)
  · run_agrees [h_v0, h_v820, h_v834, h_v842, h_v847, h_v852, h_c_111]

set_option maxHeartbeats 800000 in
/-- Run 35 (operations 1774 to 1830): agreement on the 14 buffers live before it gives agreement on the 21 live after it. -/
theorem step35
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v886) = WR (Proc.devRef .tc Cert.ReferenceIdeal.main_v886)) :
    (after (Cert.KernelIdeal.Agree.ops35 (F := F)) WK) (Proc.devRef .tc Cert.KernelIdeal.main_v0) = (after (Cert.ReferenceIdeal.Agree.ops35 (F := F)) WR) (Proc.devRef .tc Cert.ReferenceIdeal.main_v0)
      ∧ (after (Cert.KernelIdeal.Agree.ops35 (F := F)) WK) (Proc.devRef .tc Cert.KernelIdeal.main_v18) = (after (Cert.ReferenceIdeal.Agree.ops35 (F := F)) WR) (Proc.devRef .tc Cert.ReferenceIdeal.main_v18)
      ∧ (after (Cert.KernelIdeal.Agree.ops35 (F := F)) WK) (Proc.devRef .tc Cert.KernelIdeal.main_v23) = (after (Cert.ReferenceIdeal.Agree.ops35 (F := F)) WR) (Proc.devRef .tc Cert.ReferenceIdeal.main_v23)
      ∧ (after (Cert.KernelIdeal.Agree.ops35 (F := F)) WK) (Proc.devRef .tc Cert.KernelIdeal.main_v85) = (after (Cert.ReferenceIdeal.Agree.ops35 (F := F)) WR) (Proc.devRef .tc Cert.ReferenceIdeal.main_v85)
      ∧ (after (Cert.KernelIdeal.Agree.ops35 (F := F)) WK) (Proc.devRef .tc Cert.KernelIdeal.main_v157) = (after (Cert.ReferenceIdeal.Agree.ops35 (F := F)) WR) (Proc.devRef .tc Cert.ReferenceIdeal.main_v157)
      ∧ (after (Cert.KernelIdeal.Agree.ops35 (F := F)) WK) (Proc.devRef .tc Cert.KernelIdeal.main_v229) = (after (Cert.ReferenceIdeal.Agree.ops35 (F := F)) WR) (Proc.devRef .tc Cert.ReferenceIdeal.main_v229)
      ∧ (after (Cert.KernelIdeal.Agree.ops35 (F := F)) WK) (Proc.devRef .tc Cert.KernelIdeal.main_v301) = (after (Cert.ReferenceIdeal.Agree.ops35 (F := F)) WR) (Proc.devRef .tc Cert.ReferenceIdeal.main_v301)
      ∧ (after (Cert.KernelIdeal.Agree.ops35 (F := F)) WK) (Proc.devRef .tc Cert.KernelIdeal.main_v385) = (after (Cert.ReferenceIdeal.Agree.ops35 (F := F)) WR) (Proc.devRef .tc Cert.ReferenceIdeal.main_v385)
      ∧ (after (Cert.KernelIdeal.Agree.ops35 (F := F)) WK) (Proc.devRef .tc Cert.KernelIdeal.main_v469) = (after (Cert.ReferenceIdeal.Agree.ops35 (F := F)) WR) (Proc.devRef .tc Cert.ReferenceIdeal.main_v469)
      ∧ (after (Cert.KernelIdeal.Agree.ops35 (F := F)) WK) (Proc.devRef .tc Cert.KernelIdeal.main_v553) = (after (Cert.ReferenceIdeal.Agree.ops35 (F := F)) WR) (Proc.devRef .tc Cert.ReferenceIdeal.main_v553)
      ∧ (after (Cert.KernelIdeal.Agree.ops35 (F := F)) WK) (Proc.devRef .tc Cert.KernelIdeal.main_v637) = (after (Cert.ReferenceIdeal.Agree.ops35 (F := F)) WR) (Proc.devRef .tc Cert.ReferenceIdeal.main_v637)
      ∧ (after (Cert.KernelIdeal.Agree.ops35 (F := F)) WK) (Proc.devRef .tc Cert.KernelIdeal.main_v721) = (after (Cert.ReferenceIdeal.Agree.ops35 (F := F)) WR) (Proc.devRef .tc Cert.ReferenceIdeal.main_v721)
      ∧ (after (Cert.KernelIdeal.Agree.ops35 (F := F)) WK) (Proc.devRef .tc Cert.KernelIdeal.main_v805) = (after (Cert.ReferenceIdeal.Agree.ops35 (F := F)) WR) (Proc.devRef .tc Cert.ReferenceIdeal.main_v805)
      ∧ (after (Cert.KernelIdeal.Agree.ops35 (F := F)) WK) (Proc.devRef .tc Cert.KernelIdeal.main_v889) = (after (Cert.ReferenceIdeal.Agree.ops35 (F := F)) WR) (Proc.devRef .tc Cert.ReferenceIdeal.main_v889)
      ∧ (after (Cert.KernelIdeal.Agree.ops35 (F := F)) WK) (Proc.devRef .tc Cert.KernelIdeal.main_v894) = (after (Cert.ReferenceIdeal.Agree.ops35 (F := F)) WR) (Proc.devRef .tc Cert.ReferenceIdeal.main_v894)
      ∧ (after (Cert.KernelIdeal.Agree.ops35 (F := F)) WK) (Proc.devRef .tc Cert.KernelIdeal.main_v904) = (after (Cert.ReferenceIdeal.Agree.ops35 (F := F)) WR) (Proc.devRef .tc Cert.ReferenceIdeal.main_v904)
      ∧ (after (Cert.KernelIdeal.Agree.ops35 (F := F)) WK) (Proc.devRef .tc Cert.KernelIdeal.main_v911) = (after (Cert.ReferenceIdeal.Agree.ops35 (F := F)) WR) (Proc.devRef .tc Cert.ReferenceIdeal.main_v911)
      ∧ (after (Cert.KernelIdeal.Agree.ops35 (F := F)) WK) (Proc.devRef .tc Cert.KernelIdeal.main_v913) = (after (Cert.ReferenceIdeal.Agree.ops35 (F := F)) WR) (Proc.devRef .tc Cert.ReferenceIdeal.main_v913)
      ∧ (after (Cert.KernelIdeal.Agree.ops35 (F := F)) WK) (Proc.devRef .tc Cert.KernelIdeal.main_v918) = (after (Cert.ReferenceIdeal.Agree.ops35 (F := F)) WR) (Proc.devRef .tc Cert.ReferenceIdeal.main_v918)
      ∧ (after (Cert.KernelIdeal.Agree.ops35 (F := F)) WK) (Proc.devRef .tc Cert.KernelIdeal.main_v923) = (after (Cert.ReferenceIdeal.Agree.ops35 (F := F)) WR) (Proc.devRef .tc Cert.ReferenceIdeal.main_v923)
      ∧ (after (Cert.KernelIdeal.Agree.ops35 (F := F)) WK) (Proc.devRef .tc Cert.KernelIdeal.main_c_118) = (after (Cert.ReferenceIdeal.Agree.ops35 (F := F)) WR) (Proc.devRef .tc Cert.ReferenceIdeal.main_c_118) := by
  obtain ⟨h_v0, h_v18, h_v23, h_v85, h_v157, h_v229, h_v301, h_v385, h_v469, h_v553, h_v637, h_v721, h_v805, h_v886⟩ := h
  refine ⟨?_, ?_, ?_, ?_, ?_, ?_, ?_, ?_, ?_, ?_, ?_, ?_, ?_, ?_, ?_, ?_, ?_, ?_, ?_, ?_, ?_⟩
  · exact (after_of_writes_sub _ WK Cert.KernelIdeal.Agree.ops35_writes (by decide)).trans (h_v0.trans (after_of_writes_sub _ WR Cert.ReferenceIdeal.Agree.ops35_writes (by decide)).symm)
  · exact (after_of_writes_sub _ WK Cert.KernelIdeal.Agree.ops35_writes (by decide)).trans (h_v18.trans (after_of_writes_sub _ WR Cert.ReferenceIdeal.Agree.ops35_writes (by decide)).symm)
  · exact (after_of_writes_sub _ WK Cert.KernelIdeal.Agree.ops35_writes (by decide)).trans (h_v23.trans (after_of_writes_sub _ WR Cert.ReferenceIdeal.Agree.ops35_writes (by decide)).symm)
  · exact (after_of_writes_sub _ WK Cert.KernelIdeal.Agree.ops35_writes (by decide)).trans (h_v85.trans (after_of_writes_sub _ WR Cert.ReferenceIdeal.Agree.ops35_writes (by decide)).symm)
  · exact (after_of_writes_sub _ WK Cert.KernelIdeal.Agree.ops35_writes (by decide)).trans (h_v157.trans (after_of_writes_sub _ WR Cert.ReferenceIdeal.Agree.ops35_writes (by decide)).symm)
  · exact (after_of_writes_sub _ WK Cert.KernelIdeal.Agree.ops35_writes (by decide)).trans (h_v229.trans (after_of_writes_sub _ WR Cert.ReferenceIdeal.Agree.ops35_writes (by decide)).symm)
  · exact (after_of_writes_sub _ WK Cert.KernelIdeal.Agree.ops35_writes (by decide)).trans (h_v301.trans (after_of_writes_sub _ WR Cert.ReferenceIdeal.Agree.ops35_writes (by decide)).symm)
  · exact (after_of_writes_sub _ WK Cert.KernelIdeal.Agree.ops35_writes (by decide)).trans (h_v385.trans (after_of_writes_sub _ WR Cert.ReferenceIdeal.Agree.ops35_writes (by decide)).symm)
  · exact (after_of_writes_sub _ WK Cert.KernelIdeal.Agree.ops35_writes (by decide)).trans (h_v469.trans (after_of_writes_sub _ WR Cert.ReferenceIdeal.Agree.ops35_writes (by decide)).symm)
  · exact (after_of_writes_sub _ WK Cert.KernelIdeal.Agree.ops35_writes (by decide)).trans (h_v553.trans (after_of_writes_sub _ WR Cert.ReferenceIdeal.Agree.ops35_writes (by decide)).symm)
  · exact (after_of_writes_sub _ WK Cert.KernelIdeal.Agree.ops35_writes (by decide)).trans (h_v637.trans (after_of_writes_sub _ WR Cert.ReferenceIdeal.Agree.ops35_writes (by decide)).symm)
  · exact (after_of_writes_sub _ WK Cert.KernelIdeal.Agree.ops35_writes (by decide)).trans (h_v721.trans (after_of_writes_sub _ WR Cert.ReferenceIdeal.Agree.ops35_writes (by decide)).symm)
  · exact (after_of_writes_sub _ WK Cert.KernelIdeal.Agree.ops35_writes (by decide)).trans (h_v805.trans (after_of_writes_sub _ WR Cert.ReferenceIdeal.Agree.ops35_writes (by decide)).symm)
  · run_agrees [h_v886]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 36 (operations 1831 to 1878): agreement on the 21 buffers live before it gives agreement on the 20 live after it. -/
theorem step36
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v894) = WR (Proc.devRef .tc Cert.ReferenceIdeal.main_v894)
      ∧ WK (Proc.devRef .tc Cert.KernelIdeal.main_v904) = WR (Proc.devRef .tc Cert.ReferenceIdeal.main_v904)
      ∧ WK (Proc.devRef .tc Cert.KernelIdeal.main_v911) = WR (Proc.devRef .tc Cert.ReferenceIdeal.main_v911)
      ∧ WK (Proc.devRef .tc Cert.KernelIdeal.main_v913) = WR (Proc.devRef .tc Cert.ReferenceIdeal.main_v913)
      ∧ WK (Proc.devRef .tc Cert.KernelIdeal.main_v918) = WR (Proc.devRef .tc Cert.ReferenceIdeal.main_v918)
      ∧ WK (Proc.devRef .tc Cert.KernelIdeal.main_v923) = WR (Proc.devRef .tc Cert.ReferenceIdeal.main_v923)
      ∧ WK (Proc.devRef .tc Cert.KernelIdeal.main_c_118) = WR (Proc.devRef .tc Cert.ReferenceIdeal.main_c_118)) :
    (after (Cert.KernelIdeal.Agree.ops36 (F := F)) WK) (Proc.devRef .tc Cert.KernelIdeal.main_v0) = (after (Cert.ReferenceIdeal.Agree.ops36 (F := F)) WR) (Proc.devRef .tc Cert.ReferenceIdeal.main_v0)
      ∧ (after (Cert.KernelIdeal.Agree.ops36 (F := F)) WK) (Proc.devRef .tc Cert.KernelIdeal.main_v18) = (after (Cert.ReferenceIdeal.Agree.ops36 (F := F)) WR) (Proc.devRef .tc Cert.ReferenceIdeal.main_v18)
      ∧ (after (Cert.KernelIdeal.Agree.ops36 (F := F)) WK) (Proc.devRef .tc Cert.KernelIdeal.main_v23) = (after (Cert.ReferenceIdeal.Agree.ops36 (F := F)) WR) (Proc.devRef .tc Cert.ReferenceIdeal.main_v23)
      ∧ (after (Cert.KernelIdeal.Agree.ops36 (F := F)) WK) (Proc.devRef .tc Cert.KernelIdeal.main_v85) = (after (Cert.ReferenceIdeal.Agree.ops36 (F := F)) WR) (Proc.devRef .tc Cert.ReferenceIdeal.main_v85)
      ∧ (after (Cert.KernelIdeal.Agree.ops36 (F := F)) WK) (Proc.devRef .tc Cert.KernelIdeal.main_v157) = (after (Cert.ReferenceIdeal.Agree.ops36 (F := F)) WR) (Proc.devRef .tc Cert.ReferenceIdeal.main_v157)
      ∧ (after (Cert.KernelIdeal.Agree.ops36 (F := F)) WK) (Proc.devRef .tc Cert.KernelIdeal.main_v229) = (after (Cert.ReferenceIdeal.Agree.ops36 (F := F)) WR) (Proc.devRef .tc Cert.ReferenceIdeal.main_v229)
      ∧ (after (Cert.KernelIdeal.Agree.ops36 (F := F)) WK) (Proc.devRef .tc Cert.KernelIdeal.main_v301) = (after (Cert.ReferenceIdeal.Agree.ops36 (F := F)) WR) (Proc.devRef .tc Cert.ReferenceIdeal.main_v301)
      ∧ (after (Cert.KernelIdeal.Agree.ops36 (F := F)) WK) (Proc.devRef .tc Cert.KernelIdeal.main_v385) = (after (Cert.ReferenceIdeal.Agree.ops36 (F := F)) WR) (Proc.devRef .tc Cert.ReferenceIdeal.main_v385)
      ∧ (after (Cert.KernelIdeal.Agree.ops36 (F := F)) WK) (Proc.devRef .tc Cert.KernelIdeal.main_v469) = (after (Cert.ReferenceIdeal.Agree.ops36 (F := F)) WR) (Proc.devRef .tc Cert.ReferenceIdeal.main_v469)
      ∧ (after (Cert.KernelIdeal.Agree.ops36 (F := F)) WK) (Proc.devRef .tc Cert.KernelIdeal.main_v553) = (after (Cert.ReferenceIdeal.Agree.ops36 (F := F)) WR) (Proc.devRef .tc Cert.ReferenceIdeal.main_v553)
      ∧ (after (Cert.KernelIdeal.Agree.ops36 (F := F)) WK) (Proc.devRef .tc Cert.KernelIdeal.main_v637) = (after (Cert.ReferenceIdeal.Agree.ops36 (F := F)) WR) (Proc.devRef .tc Cert.ReferenceIdeal.main_v637)
      ∧ (after (Cert.KernelIdeal.Agree.ops36 (F := F)) WK) (Proc.devRef .tc Cert.KernelIdeal.main_v721) = (after (Cert.ReferenceIdeal.Agree.ops36 (F := F)) WR) (Proc.devRef .tc Cert.ReferenceIdeal.main_v721)
      ∧ (after (Cert.KernelIdeal.Agree.ops36 (F := F)) WK) (Proc.devRef .tc Cert.KernelIdeal.main_v805) = (after (Cert.ReferenceIdeal.Agree.ops36 (F := F)) WR) (Proc.devRef .tc Cert.ReferenceIdeal.main_v805)
      ∧ (after (Cert.KernelIdeal.Agree.ops36 (F := F)) WK) (Proc.devRef .tc Cert.KernelIdeal.main_v889) = (after (Cert.ReferenceIdeal.Agree.ops36 (F := F)) WR) (Proc.devRef .tc Cert.ReferenceIdeal.main_v889)
      ∧ (after (Cert.KernelIdeal.Agree.ops36 (F := F)) WK) (Proc.devRef .tc Cert.KernelIdeal.main_v904) = (after (Cert.ReferenceIdeal.Agree.ops36 (F := F)) WR) (Proc.devRef .tc Cert.ReferenceIdeal.main_v904)
      ∧ (after (Cert.KernelIdeal.Agree.ops36 (F := F)) WK) (Proc.devRef .tc Cert.KernelIdeal.main_v918) = (after (Cert.ReferenceIdeal.Agree.ops36 (F := F)) WR) (Proc.devRef .tc Cert.ReferenceIdeal.main_v918)
      ∧ (after (Cert.KernelIdeal.Agree.ops36 (F := F)) WK) (Proc.devRef .tc Cert.KernelIdeal.main_v926) = (after (Cert.ReferenceIdeal.Agree.ops36 (F := F)) WR) (Proc.devRef .tc Cert.ReferenceIdeal.main_v926)
      ∧ (after (Cert.KernelIdeal.Agree.ops36 (F := F)) WK) (Proc.devRef .tc Cert.KernelIdeal.main_v931) = (after (Cert.ReferenceIdeal.Agree.ops36 (F := F)) WR) (Proc.devRef .tc Cert.ReferenceIdeal.main_v931)
      ∧ (after (Cert.KernelIdeal.Agree.ops36 (F := F)) WK) (Proc.devRef .tc Cert.KernelIdeal.main_v936) = (after (Cert.ReferenceIdeal.Agree.ops36 (F := F)) WR) (Proc.devRef .tc Cert.ReferenceIdeal.main_v936)
      ∧ (after (Cert.KernelIdeal.Agree.ops36 (F := F)) WK) (Proc.devRef .tc Cert.KernelIdeal.main_c_121) = (after (Cert.ReferenceIdeal.Agree.ops36 (F := F)) WR) (Proc.devRef .tc Cert.ReferenceIdeal.main_c_121) := by
  obtain ⟨h_v0, h_v18, h_v23, h_v85, h_v157, h_v229, h_v301, h_v385, h_v469, h_v553, h_v637, h_v721, h_v805, h_v889, h_v894, h_v904, h_v911, h_v913, h_v918, h_v923, h_c_118⟩ := h
  refine ⟨?_, ?_, ?_, ?_, ?_, ?_, ?_, ?_, ?_, ?_, ?_, ?_, ?_, ?_, ?_, ?_, ?_, ?_, ?_, ?_⟩
  · exact (after_of_writes_sub _ WK Cert.KernelIdeal.Agree.ops36_writes (by decide)).trans (h_v0.trans (after_of_writes_sub _ WR Cert.ReferenceIdeal.Agree.ops36_writes (by decide)).symm)
  · exact (after_of_writes_sub _ WK Cert.KernelIdeal.Agree.ops36_writes (by decide)).trans (h_v18.trans (after_of_writes_sub _ WR Cert.ReferenceIdeal.Agree.ops36_writes (by decide)).symm)
  · exact (after_of_writes_sub _ WK Cert.KernelIdeal.Agree.ops36_writes (by decide)).trans (h_v23.trans (after_of_writes_sub _ WR Cert.ReferenceIdeal.Agree.ops36_writes (by decide)).symm)
  · exact (after_of_writes_sub _ WK Cert.KernelIdeal.Agree.ops36_writes (by decide)).trans (h_v85.trans (after_of_writes_sub _ WR Cert.ReferenceIdeal.Agree.ops36_writes (by decide)).symm)
  · exact (after_of_writes_sub _ WK Cert.KernelIdeal.Agree.ops36_writes (by decide)).trans (h_v157.trans (after_of_writes_sub _ WR Cert.ReferenceIdeal.Agree.ops36_writes (by decide)).symm)
  · exact (after_of_writes_sub _ WK Cert.KernelIdeal.Agree.ops36_writes (by decide)).trans (h_v229.trans (after_of_writes_sub _ WR Cert.ReferenceIdeal.Agree.ops36_writes (by decide)).symm)
  · exact (after_of_writes_sub _ WK Cert.KernelIdeal.Agree.ops36_writes (by decide)).trans (h_v301.trans (after_of_writes_sub _ WR Cert.ReferenceIdeal.Agree.ops36_writes (by decide)).symm)
  · exact (after_of_writes_sub _ WK Cert.KernelIdeal.Agree.ops36_writes (by decide)).trans (h_v385.trans (after_of_writes_sub _ WR Cert.ReferenceIdeal.Agree.ops36_writes (by decide)).symm)
  · exact (after_of_writes_sub _ WK Cert.KernelIdeal.Agree.ops36_writes (by decide)).trans (h_v469.trans (after_of_writes_sub _ WR Cert.ReferenceIdeal.Agree.ops36_writes (by decide)).symm)
  · exact (after_of_writes_sub _ WK Cert.KernelIdeal.Agree.ops36_writes (by decide)).trans (h_v553.trans (after_of_writes_sub _ WR Cert.ReferenceIdeal.Agree.ops36_writes (by decide)).symm)
  · exact (after_of_writes_sub _ WK Cert.KernelIdeal.Agree.ops36_writes (by decide)).trans (h_v637.trans (after_of_writes_sub _ WR Cert.ReferenceIdeal.Agree.ops36_writes (by decide)).symm)
  · exact (after_of_writes_sub _ WK Cert.KernelIdeal.Agree.ops36_writes (by decide)).trans (h_v721.trans (after_of_writes_sub _ WR Cert.ReferenceIdeal.Agree.ops36_writes (by decide)).symm)
  · exact (after_of_writes_sub _ WK Cert.KernelIdeal.Agree.ops36_writes (by decide)).trans (h_v805.trans (after_of_writes_sub _ WR Cert.ReferenceIdeal.Agree.ops36_writes (by decide)).symm)
  · exact (after_of_writes_sub _ WK Cert.KernelIdeal.Agree.ops36_writes (by decide)).trans (h_v889.trans (after_of_writes_sub _ WR Cert.ReferenceIdeal.Agree.ops36_writes (by decide)).symm)
  · exact (after_of_writes_sub _ WK Cert.KernelIdeal.Agree.ops36_writes (by decide)).trans (h_v904.trans (after_of_writes_sub _ WR Cert.ReferenceIdeal.Agree.ops36_writes (by decide)).symm)
  · exact (after_of_writes_sub _ WK Cert.KernelIdeal.Agree.ops36_writes (by decide)).trans (h_v918.trans (after_of_writes_sub _ WR Cert.ReferenceIdeal.Agree.ops36_writes (by decide)).symm)
  · run_agrees [h_v894, h_v923, h_c_118]
  · run_agrees [h_v904, h_v911, h_v913]
  · run_agrees [h_v911, h_v913]
  · after_results_simp; first | done | rfl

set_option maxHeartbeats 800000 in
/-- Run 37 (operations 1879 to 1937): agreement on the 20 buffers live before it gives agreement on the 15 live after it. -/
theorem step37
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v904) = WR (Proc.devRef .tc Cert.ReferenceIdeal.main_v904)
      ∧ WK (Proc.devRef .tc Cert.KernelIdeal.main_v918) = WR (Proc.devRef .tc Cert.ReferenceIdeal.main_v918)
      ∧ WK (Proc.devRef .tc Cert.KernelIdeal.main_v926) = WR (Proc.devRef .tc Cert.ReferenceIdeal.main_v926)
      ∧ WK (Proc.devRef .tc Cert.KernelIdeal.main_v931) = WR (Proc.devRef .tc Cert.ReferenceIdeal.main_v931)
      ∧ WK (Proc.devRef .tc Cert.KernelIdeal.main_v936) = WR (Proc.devRef .tc Cert.ReferenceIdeal.main_v936)
      ∧ WK (Proc.devRef .tc Cert.KernelIdeal.main_c_121) = WR (Proc.devRef .tc Cert.ReferenceIdeal.main_c_121)) :
    (after (Cert.KernelIdeal.Agree.ops37 (F := F)) WK) (Proc.devRef .tc Cert.KernelIdeal.main_v0) = (after (Cert.ReferenceIdeal.Agree.ops37 (F := F)) WR) (Proc.devRef .tc Cert.ReferenceIdeal.main_v0)
      ∧ (after (Cert.KernelIdeal.Agree.ops37 (F := F)) WK) (Proc.devRef .tc Cert.KernelIdeal.main_v18) = (after (Cert.ReferenceIdeal.Agree.ops37 (F := F)) WR) (Proc.devRef .tc Cert.ReferenceIdeal.main_v18)
      ∧ (after (Cert.KernelIdeal.Agree.ops37 (F := F)) WK) (Proc.devRef .tc Cert.KernelIdeal.main_v23) = (after (Cert.ReferenceIdeal.Agree.ops37 (F := F)) WR) (Proc.devRef .tc Cert.ReferenceIdeal.main_v23)
      ∧ (after (Cert.KernelIdeal.Agree.ops37 (F := F)) WK) (Proc.devRef .tc Cert.KernelIdeal.main_v85) = (after (Cert.ReferenceIdeal.Agree.ops37 (F := F)) WR) (Proc.devRef .tc Cert.ReferenceIdeal.main_v85)
      ∧ (after (Cert.KernelIdeal.Agree.ops37 (F := F)) WK) (Proc.devRef .tc Cert.KernelIdeal.main_v157) = (after (Cert.ReferenceIdeal.Agree.ops37 (F := F)) WR) (Proc.devRef .tc Cert.ReferenceIdeal.main_v157)
      ∧ (after (Cert.KernelIdeal.Agree.ops37 (F := F)) WK) (Proc.devRef .tc Cert.KernelIdeal.main_v229) = (after (Cert.ReferenceIdeal.Agree.ops37 (F := F)) WR) (Proc.devRef .tc Cert.ReferenceIdeal.main_v229)
      ∧ (after (Cert.KernelIdeal.Agree.ops37 (F := F)) WK) (Proc.devRef .tc Cert.KernelIdeal.main_v301) = (after (Cert.ReferenceIdeal.Agree.ops37 (F := F)) WR) (Proc.devRef .tc Cert.ReferenceIdeal.main_v301)
      ∧ (after (Cert.KernelIdeal.Agree.ops37 (F := F)) WK) (Proc.devRef .tc Cert.KernelIdeal.main_v385) = (after (Cert.ReferenceIdeal.Agree.ops37 (F := F)) WR) (Proc.devRef .tc Cert.ReferenceIdeal.main_v385)
      ∧ (after (Cert.KernelIdeal.Agree.ops37 (F := F)) WK) (Proc.devRef .tc Cert.KernelIdeal.main_v469) = (after (Cert.ReferenceIdeal.Agree.ops37 (F := F)) WR) (Proc.devRef .tc Cert.ReferenceIdeal.main_v469)
      ∧ (after (Cert.KernelIdeal.Agree.ops37 (F := F)) WK) (Proc.devRef .tc Cert.KernelIdeal.main_v553) = (after (Cert.ReferenceIdeal.Agree.ops37 (F := F)) WR) (Proc.devRef .tc Cert.ReferenceIdeal.main_v553)
      ∧ (after (Cert.KernelIdeal.Agree.ops37 (F := F)) WK) (Proc.devRef .tc Cert.KernelIdeal.main_v637) = (after (Cert.ReferenceIdeal.Agree.ops37 (F := F)) WR) (Proc.devRef .tc Cert.ReferenceIdeal.main_v637)
      ∧ (after (Cert.KernelIdeal.Agree.ops37 (F := F)) WK) (Proc.devRef .tc Cert.KernelIdeal.main_v721) = (after (Cert.ReferenceIdeal.Agree.ops37 (F := F)) WR) (Proc.devRef .tc Cert.ReferenceIdeal.main_v721)
      ∧ (after (Cert.KernelIdeal.Agree.ops37 (F := F)) WK) (Proc.devRef .tc Cert.KernelIdeal.main_v805) = (after (Cert.ReferenceIdeal.Agree.ops37 (F := F)) WR) (Proc.devRef .tc Cert.ReferenceIdeal.main_v805)
      ∧ (after (Cert.KernelIdeal.Agree.ops37 (F := F)) WK) (Proc.devRef .tc Cert.KernelIdeal.main_v889) = (after (Cert.ReferenceIdeal.Agree.ops37 (F := F)) WR) (Proc.devRef .tc Cert.ReferenceIdeal.main_v889)
      ∧ (after (Cert.KernelIdeal.Agree.ops37 (F := F)) WK) (Proc.devRef .tc Cert.KernelIdeal.main_v970) = (after (Cert.ReferenceIdeal.Agree.ops37 (F := F)) WR) (Proc.devRef .tc Cert.ReferenceIdeal.main_v970) := by
  obtain ⟨h_v0, h_v18, h_v23, h_v85, h_v157, h_v229, h_v301, h_v385, h_v469, h_v553, h_v637, h_v721, h_v805, h_v889, h_v904, h_v918, h_v926, h_v931, h_v936, h_c_121⟩ := h
  refine ⟨?_, ?_, ?_, ?_, ?_, ?_, ?_, ?_, ?_, ?_, ?_, ?_, ?_, ?_, ?_⟩
  · exact (after_of_writes_sub _ WK Cert.KernelIdeal.Agree.ops37_writes (by decide)).trans (h_v0.trans (after_of_writes_sub _ WR Cert.ReferenceIdeal.Agree.ops37_writes (by decide)).symm)
  · exact (after_of_writes_sub _ WK Cert.KernelIdeal.Agree.ops37_writes (by decide)).trans (h_v18.trans (after_of_writes_sub _ WR Cert.ReferenceIdeal.Agree.ops37_writes (by decide)).symm)
  · exact (after_of_writes_sub _ WK Cert.KernelIdeal.Agree.ops37_writes (by decide)).trans (h_v23.trans (after_of_writes_sub _ WR Cert.ReferenceIdeal.Agree.ops37_writes (by decide)).symm)
  · exact (after_of_writes_sub _ WK Cert.KernelIdeal.Agree.ops37_writes (by decide)).trans (h_v85.trans (after_of_writes_sub _ WR Cert.ReferenceIdeal.Agree.ops37_writes (by decide)).symm)
  · exact (after_of_writes_sub _ WK Cert.KernelIdeal.Agree.ops37_writes (by decide)).trans (h_v157.trans (after_of_writes_sub _ WR Cert.ReferenceIdeal.Agree.ops37_writes (by decide)).symm)
  · exact (after_of_writes_sub _ WK Cert.KernelIdeal.Agree.ops37_writes (by decide)).trans (h_v229.trans (after_of_writes_sub _ WR Cert.ReferenceIdeal.Agree.ops37_writes (by decide)).symm)
  · exact (after_of_writes_sub _ WK Cert.KernelIdeal.Agree.ops37_writes (by decide)).trans (h_v301.trans (after_of_writes_sub _ WR Cert.ReferenceIdeal.Agree.ops37_writes (by decide)).symm)
  · exact (after_of_writes_sub _ WK Cert.KernelIdeal.Agree.ops37_writes (by decide)).trans (h_v385.trans (after_of_writes_sub _ WR Cert.ReferenceIdeal.Agree.ops37_writes (by decide)).symm)
  · exact (after_of_writes_sub _ WK Cert.KernelIdeal.Agree.ops37_writes (by decide)).trans (h_v469.trans (after_of_writes_sub _ WR Cert.ReferenceIdeal.Agree.ops37_writes (by decide)).symm)
  · exact (after_of_writes_sub _ WK Cert.KernelIdeal.Agree.ops37_writes (by decide)).trans (h_v553.trans (after_of_writes_sub _ WR Cert.ReferenceIdeal.Agree.ops37_writes (by decide)).symm)
  · exact (after_of_writes_sub _ WK Cert.KernelIdeal.Agree.ops37_writes (by decide)).trans (h_v637.trans (after_of_writes_sub _ WR Cert.ReferenceIdeal.Agree.ops37_writes (by decide)).symm)
  · exact (after_of_writes_sub _ WK Cert.KernelIdeal.Agree.ops37_writes (by decide)).trans (h_v721.trans (after_of_writes_sub _ WR Cert.ReferenceIdeal.Agree.ops37_writes (by decide)).symm)
  · exact (after_of_writes_sub _ WK Cert.KernelIdeal.Agree.ops37_writes (by decide)).trans (h_v805.trans (after_of_writes_sub _ WR Cert.ReferenceIdeal.Agree.ops37_writes (by decide)).symm)
  · exact (after_of_writes_sub _ WK Cert.KernelIdeal.Agree.ops37_writes (by decide)).trans (h_v889.trans (after_of_writes_sub _ WR Cert.ReferenceIdeal.Agree.ops37_writes (by decide)).symm)
  · run_agrees [h_v0, h_v904, h_v918, h_v926, h_v931, h_v936, h_c_121]

/-- The whole part: agreement on the 13 buffers live before it gives agreement on the 15 live after it. -/
theorem part5
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v802) = WR (Proc.devRef .tc Cert.ReferenceIdeal.main_v802)) :
    (after (Cert.KernelIdeal.Agree.part5 (F := F)) WK) (Proc.devRef .tc Cert.KernelIdeal.main_v0) = (after (Cert.ReferenceIdeal.Agree.part5 (F := F)) WR) (Proc.devRef .tc Cert.ReferenceIdeal.main_v0)
      ∧ (after (Cert.KernelIdeal.Agree.part5 (F := F)) WK) (Proc.devRef .tc Cert.KernelIdeal.main_v18) = (after (Cert.ReferenceIdeal.Agree.part5 (F := F)) WR) (Proc.devRef .tc Cert.ReferenceIdeal.main_v18)
      ∧ (after (Cert.KernelIdeal.Agree.part5 (F := F)) WK) (Proc.devRef .tc Cert.KernelIdeal.main_v23) = (after (Cert.ReferenceIdeal.Agree.part5 (F := F)) WR) (Proc.devRef .tc Cert.ReferenceIdeal.main_v23)
      ∧ (after (Cert.KernelIdeal.Agree.part5 (F := F)) WK) (Proc.devRef .tc Cert.KernelIdeal.main_v85) = (after (Cert.ReferenceIdeal.Agree.part5 (F := F)) WR) (Proc.devRef .tc Cert.ReferenceIdeal.main_v85)
      ∧ (after (Cert.KernelIdeal.Agree.part5 (F := F)) WK) (Proc.devRef .tc Cert.KernelIdeal.main_v157) = (after (Cert.ReferenceIdeal.Agree.part5 (F := F)) WR) (Proc.devRef .tc Cert.ReferenceIdeal.main_v157)
      ∧ (after (Cert.KernelIdeal.Agree.part5 (F := F)) WK) (Proc.devRef .tc Cert.KernelIdeal.main_v229) = (after (Cert.ReferenceIdeal.Agree.part5 (F := F)) WR) (Proc.devRef .tc Cert.ReferenceIdeal.main_v229)
      ∧ (after (Cert.KernelIdeal.Agree.part5 (F := F)) WK) (Proc.devRef .tc Cert.KernelIdeal.main_v301) = (after (Cert.ReferenceIdeal.Agree.part5 (F := F)) WR) (Proc.devRef .tc Cert.ReferenceIdeal.main_v301)
      ∧ (after (Cert.KernelIdeal.Agree.part5 (F := F)) WK) (Proc.devRef .tc Cert.KernelIdeal.main_v385) = (after (Cert.ReferenceIdeal.Agree.part5 (F := F)) WR) (Proc.devRef .tc Cert.ReferenceIdeal.main_v385)
      ∧ (after (Cert.KernelIdeal.Agree.part5 (F := F)) WK) (Proc.devRef .tc Cert.KernelIdeal.main_v469) = (after (Cert.ReferenceIdeal.Agree.part5 (F := F)) WR) (Proc.devRef .tc Cert.ReferenceIdeal.main_v469)
      ∧ (after (Cert.KernelIdeal.Agree.part5 (F := F)) WK) (Proc.devRef .tc Cert.KernelIdeal.main_v553) = (after (Cert.ReferenceIdeal.Agree.part5 (F := F)) WR) (Proc.devRef .tc Cert.ReferenceIdeal.main_v553)
      ∧ (after (Cert.KernelIdeal.Agree.part5 (F := F)) WK) (Proc.devRef .tc Cert.KernelIdeal.main_v637) = (after (Cert.ReferenceIdeal.Agree.part5 (F := F)) WR) (Proc.devRef .tc Cert.ReferenceIdeal.main_v637)
      ∧ (after (Cert.KernelIdeal.Agree.part5 (F := F)) WK) (Proc.devRef .tc Cert.KernelIdeal.main_v721) = (after (Cert.ReferenceIdeal.Agree.part5 (F := F)) WR) (Proc.devRef .tc Cert.ReferenceIdeal.main_v721)
      ∧ (after (Cert.KernelIdeal.Agree.part5 (F := F)) WK) (Proc.devRef .tc Cert.KernelIdeal.main_v805) = (after (Cert.ReferenceIdeal.Agree.part5 (F := F)) WR) (Proc.devRef .tc Cert.ReferenceIdeal.main_v805)
      ∧ (after (Cert.KernelIdeal.Agree.part5 (F := F)) WK) (Proc.devRef .tc Cert.KernelIdeal.main_v889) = (after (Cert.ReferenceIdeal.Agree.part5 (F := F)) WR) (Proc.devRef .tc Cert.ReferenceIdeal.main_v889)
      ∧ (after (Cert.KernelIdeal.Agree.part5 (F := F)) WK) (Proc.devRef .tc Cert.KernelIdeal.main_v970) = (after (Cert.ReferenceIdeal.Agree.part5 (F := F)) WR) (Proc.devRef .tc Cert.ReferenceIdeal.main_v970) := by
  have s32 := step32 WK WR h
  have s33 := step33 (after (Cert.KernelIdeal.Agree.ops32 (F := F)) WK) (after (Cert.ReferenceIdeal.Agree.ops32 (F := F)) WR) s32
  have s34 := step34 (after (Cert.KernelIdeal.Agree.ops33 (F := F)) (after (Cert.KernelIdeal.Agree.ops32 (F := F)) WK)) (after (Cert.ReferenceIdeal.Agree.ops33 (F := F)) (after (Cert.ReferenceIdeal.Agree.ops32 (F := F)) WR)) s33
  have s35 := step35 (after (Cert.KernelIdeal.Agree.ops34 (F := F)) (after (Cert.KernelIdeal.Agree.ops33 (F := F)) (after (Cert.KernelIdeal.Agree.ops32 (F := F)) WK))) (after (Cert.ReferenceIdeal.Agree.ops34 (F := F)) (after (Cert.ReferenceIdeal.Agree.ops33 (F := F)) (after (Cert.ReferenceIdeal.Agree.ops32 (F := F)) WR))) s34
  have s36 := step36 (after (Cert.KernelIdeal.Agree.ops35 (F := F)) (after (Cert.KernelIdeal.Agree.ops34 (F := F)) (after (Cert.KernelIdeal.Agree.ops33 (F := F)) (after (Cert.KernelIdeal.Agree.ops32 (F := F)) WK)))) (after (Cert.ReferenceIdeal.Agree.ops35 (F := F)) (after (Cert.ReferenceIdeal.Agree.ops34 (F := F)) (after (Cert.ReferenceIdeal.Agree.ops33 (F := F)) (after (Cert.ReferenceIdeal.Agree.ops32 (F := F)) WR)))) s35
  have s37 := step37 (after (Cert.KernelIdeal.Agree.ops36 (F := F)) (after (Cert.KernelIdeal.Agree.ops35 (F := F)) (after (Cert.KernelIdeal.Agree.ops34 (F := F)) (after (Cert.KernelIdeal.Agree.ops33 (F := F)) (after (Cert.KernelIdeal.Agree.ops32 (F := F)) WK))))) (after (Cert.ReferenceIdeal.Agree.ops36 (F := F)) (after (Cert.ReferenceIdeal.Agree.ops35 (F := F)) (after (Cert.ReferenceIdeal.Agree.ops34 (F := F)) (after (Cert.ReferenceIdeal.Agree.ops33 (F := F)) (after (Cert.ReferenceIdeal.Agree.ops32 (F := F)) WR))))) s36
  simp only [Cert.KernelIdeal.Agree.part5, Cert.ReferenceIdeal.Agree.part5, after_append]
  exact s37

end Cert.Agree

end
-- ==== Proof.Agree.Part6.lean ====
/- The kernel's program and the reference compute the pooled feature matrix by the same 2605 operations.  This part is
  operations 1938 to 2265 (the generated stretches 148 to 171), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 1938 to 1994 of the host part, in order. -/
abbrev ops38 : List (HloOp τ sig (Elt F)) :=
  [ StableHlo.nullary main_cst_125 (constant S_ .f32 0xFF800000#32),
    StableHlo.binary main_v970 main_cst_125 main_v971 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v971 main_v972 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v972 main_v973 rfl shapeCasts_S512x7x7_S25088,
    StableHlo.unary main_v18 main_v974 ((extractStridedSlice S1x1 ![2, 1] · slices_S3x4_S1x1_2_1) : (⟨S3x4, .i32⟩ : BufTy).Contents (Elt F) → (⟨S1x1, .i32⟩ : BufTy).Contents (Elt F)),
    StableHlo.reshape main_v974 main_v975 rfl shapeCasts_S1x1_S_,
    StableHlo.unary main_v23 main_v976 ((extractStridedSlice S1x1 ![0, 1] · slices_S4x4_S1x1_0_1) : (⟨S4x4, .i32⟩ : BufTy).Contents (Elt F) → (⟨S1x1, .i32⟩ : BufTy).Contents (Elt F)),
    StableHlo.reshape main_v976 main_v977 rfl shapeCasts_S1x1_S_,
    StableHlo.binary main_v975 main_v977 main_v978 (minsi : (⟨S_, .i32⟩ : BufTy).Contents (Elt F) → (⟨S_, .i32⟩ : BufTy).Contents (Elt F) → (⟨S_, .i32⟩ : BufTy).Contents (Elt F)),
    StableHlo.unary main_v18 main_v979 ((extractStridedSlice S1x1 ![2, 3] · slices_S3x4_S1x1_2_3) : (⟨S3x4, .i32⟩ : BufTy).Contents (Elt F) → (⟨S1x1, .i32⟩ : BufTy).Contents (Elt F)),
    StableHlo.reshape main_v979 main_v980 rfl shapeCasts_S1x1_S_,
    StableHlo.unary main_v23 main_v981 ((extractStridedSlice S1x1 ![0, 3] · slices_S4x4_S1x1_0_3) : (⟨S4x4, .i32⟩ : BufTy).Contents (Elt F) → (⟨S1x1, .i32⟩ : BufTy).Contents (Elt F)),
    StableHlo.reshape main_v981 main_v982 rfl shapeCasts_S1x1_S_,
    StableHlo.binary main_v980 main_v982 main_v983 (maxsi : (⟨S_, .i32⟩ : BufTy).Contents (Elt F) → (⟨S_, .i32⟩ : BufTy).Contents (Elt F) → (⟨S_, .i32⟩ : BufTy).Contents (Elt F)),
    StableHlo.unary main_v18 main_v984 ((extractStridedSlice S1x1 ![2, 0] · slices_S3x4_S1x1_2_0) : (⟨S3x4, .i32⟩ : BufTy).Contents (Elt F) → (⟨S1x1, .i32⟩ : BufTy).Contents (Elt F)),
    StableHlo.reshape main_v984 main_v985 rfl shapeCasts_S1x1_S_,
    StableHlo.unary main_v23 main_v986 ((extractStridedSlice S1x1 ![0, 0] · slices_S4x4_S1x1_0_0) : (⟨S4x4, .i32⟩ : BufTy).Contents (Elt F) → (⟨S1x1, .i32⟩ : BufTy).Contents (Elt F)),
    StableHlo.reshape main_v986 main_v987 rfl shapeCasts_S1x1_S_,
    StableHlo.binary main_v985 main_v987 main_v988 (minsi : (⟨S_, .i32⟩ : BufTy).Contents (Elt F) → (⟨S_, .i32⟩ : BufTy).Contents (Elt F) → (⟨S_, .i32⟩ : BufTy).Contents (Elt F)),
    StableHlo.unary main_v18 main_v989 ((extractStridedSlice S1x1 ![2, 2] · slices_S3x4_S1x1_2_2) : (⟨S3x4, .i32⟩ : BufTy).Contents (Elt F) → (⟨S1x1, .i32⟩ : BufTy).Contents (Elt F)),
    StableHlo.reshape main_v989 main_v990 rfl shapeCasts_S1x1_S_,
    StableHlo.unary main_v23 main_v991 ((extractStridedSlice S1x1 ![0, 2] · slices_S4x4_S1x1_0_2) : (⟨S4x4, .i32⟩ : BufTy).Contents (Elt F) → (⟨S1x1, .i32⟩ : BufTy).Contents (Elt F)),
    StableHlo.reshape main_v991 main_v992 rfl shapeCasts_S1x1_S_,
    StableHlo.binary main_v990 main_v992 main_v993 (maxsi : (⟨S_, .i32⟩ : BufTy).Contents (Elt F) → (⟨S_, .i32⟩ : BufTy).Contents (Elt F) → (⟨S_, .i32⟩ : BufTy).Contents (Elt F)),
    StableHlo.binary main_v983 main_v978 main_v994 (subi : (⟨S_, .i32⟩ : BufTy).Contents (Elt F) → (⟨S_, .i32⟩ : BufTy).Contents (Elt F) → (⟨S_, .i32⟩ : BufTy).Contents (Elt F)),
    StableHlo.binary main_v993 main_v988 main_v995 (subi : (⟨S_, .i32⟩ : BufTy).Contents (Elt F) → (⟨S_, .i32⟩ : BufTy).Contents (Elt F) → (⟨S_, .i32⟩ : BufTy).Contents (Elt F)),
    StableHlo.nullary main_v996 (iotaInDim S7 32 0),
    StableHlo.nullary main_v997 (iotaInDim S7 32 0),
    StableHlo.unary main_v994 main_v998 (broadcastInDim S7 ![] bcast_S_S7 : (⟨S_, .i32⟩ : BufTy).Contents (Elt F) → (⟨S7, .i32⟩ : BufTy).Contents (Elt F)),
    StableHlo.binary main_v996 main_v998 main_v999 (muli : (⟨S7, .i32⟩ : BufTy).Contents (Elt F) → (⟨S7, .i32⟩ : BufTy).Contents (Elt F) → (⟨S7, .i32⟩ : BufTy).Contents (Elt F)),
    StableHlo.nullary main_c_126 (constantI S_ 32 7#32),
    StableHlo.TRef.unary (.of main_c_126 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S7, .i32⟩) (broadcastInDim S7 ![] bcast_S_S7),
    StableHlo.TRef.binary (.of main_v999 : StableHlo.TRef sig ⟨S7, .i32⟩) (.of main_call74_v1 : StableHlo.TRef sig ⟨S7, .i32⟩) (.of main_call74_v2 : StableHlo.TRef sig ⟨S7, .i32⟩) Host.divsi,
    StableHlo.TRef.unary (.of main_v999 : StableHlo.TRef sig ⟨S7, .i32⟩) (.of main_call74_v3 : StableHlo.TRef sig ⟨S7, .i32⟩) signi,
    StableHlo.TRef.unary (.of main_call74_v0 : StableHlo.TRef sig ⟨S_, .i32⟩) (.of main_call74_v4 : StableHlo.TRef sig ⟨S_, .i32⟩) signi,
    StableHlo.TRef.unary (.of main_call74_v4 : StableHlo.TRef sig ⟨S_, .i32⟩) (.of main_call74_v5 : StableHlo.TRef sig ⟨S7, .i32⟩) (broadcastInDim S7 ![] bcast_S_S7),
    StableHlo.TRef.binary (.of main_call74_v3 : StableHlo.TRef sig ⟨S7, .i32⟩) (.of main_call74_v5 : StableHlo.TRef sig ⟨S7, .i32⟩) (.of main_call74_v6 : StableHlo.TRef sig ⟨S7, .i1⟩) (cmpi .ne),
    StableHlo.TRef.unary (.of main_call74_v0 : StableHlo.TRef sig ⟨S_, .i32⟩) (.of main_call74_v7 : StableHlo.TRef sig ⟨S7, .i32⟩) (broadcastInDim S7 ![] bcast_S_S7),
    StableHlo.TRef.binary (.of main_v999 : StableHlo.TRef sig ⟨S7, .i32⟩) (.of main_call74_v7 : StableHlo.TRef sig ⟨S7, .i32⟩) (.of main_call74_v8 : StableHlo.TRef sig ⟨S7, .i32⟩) Host.remsi,
    StableHlo.TRef.nullary (.of main_call74_c : StableHlo.TRef sig ⟨S_, .i32⟩) (constantI S_ 32 0#32),
    StableHlo.TRef.unary (.of main_call74_c : StableHlo.TRef sig ⟨S_, .i32⟩) (.of main_call74_v9 : StableHlo.TRef sig ⟨S7, .i32⟩) (broadcastInDim S7 ![] bcast_S_S7),
    StableHlo.TRef.binary (.of main_call74_v8 : StableHlo.TRef sig ⟨S7, .i32⟩) (.of main_call74_v9 : StableHlo.TRef sig ⟨S7, .i32⟩) (.of main_call74_v10 : StableHlo.TRef sig ⟨S7, .i1⟩) (cmpi .ne),
    StableHlo.TRef.binary (.of main_call74_v6 : StableHlo.TRef sig ⟨S7, .i1⟩) (.of main_call74_v10 : StableHlo.TRef sig ⟨S7, .i1⟩) (.of main_call74_v11 : StableHlo.TRef sig ⟨S7, .i1⟩) andi,
    StableHlo.TRef.nullary (.of main_call74_c_0 : StableHlo.TRef sig ⟨S_, .i32⟩) (constantI S_ 32 1#32),
    StableHlo.TRef.unary (.of main_call74_c_0 : StableHlo.TRef sig ⟨S_, .i32⟩) (.of main_call74_v12 : StableHlo.TRef sig ⟨S7, .i32⟩) (broadcastInDim S7 ![] bcast_S_S7),
    StableHlo.TRef.binary (.of main_call74_v2 : StableHlo.TRef sig ⟨S7, .i32⟩) (.of main_call74_v12 : StableHlo.TRef sig ⟨S7, .i32⟩) (.of main_call74_v13 : StableHlo.TRef sig ⟨S7, .i32⟩) subi,
    StableHlo.TRef.ternary (.of main_call74_v11 : StableHlo.TRef sig ⟨S7, .i1⟩) (.of main_call74_v13 : StableHlo.TRef sig ⟨S7, .i32⟩) (.of main_call74_v2 : StableHlo.TRef sig ⟨S7, .i32⟩) (.of main_v1000 : StableHlo.TRef sig ⟨S7, .i32⟩) select,
    StableHlo.unary main_v978 main_v1001 (broadcastInDim S7 ![] bcast_S_S7 : (⟨S_, .i32⟩ : BufTy).Contents (Elt F) → (⟨S7, .i32⟩ : BufTy).Contents (Elt F)),
    StableHlo.binary main_v1001 main_v1000 main_v1002 (addi : (⟨S7, .i32⟩ : BufTy).Contents (Elt F) → (⟨S7, .i32⟩ : BufTy).Contents (Elt F) → (⟨S7, .i32⟩ : BufTy).Contents (Elt F)),
    StableHlo.nullary main_c_127 (constantI S_ 32 1#32),
    StableHlo.unary main_c_127 main_v1003 (broadcastInDim S7 ![] bcast_S_S7 : (⟨S_, .i32⟩ : BufTy).Contents (Elt F) → (⟨S7, .i32⟩ : BufTy).Contents (Elt F)),
    StableHlo.binary main_v996 main_v1003 main_v1004 (addi : (⟨S7, .i32⟩ : BufTy).Contents (Elt F) → (⟨S7, .i32⟩ : BufTy).Contents (Elt F) → (⟨S7, .i32⟩ : BufTy).Contents (Elt F)),
    StableHlo.unary main_v1004 main_v1005 (negi : (⟨S7, .i32⟩ : BufTy).Contents (Elt F) → (⟨S7, .i32⟩ : BufTy).Contents (Elt F)),
    StableHlo.unary main_v994 main_v1006 (broadcastInDim S7 ![] bcast_S_S7 : (⟨S_, .i32⟩ : BufTy).Contents (Elt F) → (⟨S7, .i32⟩ : BufTy).Contents (Elt F)),
    StableHlo.binary main_v1005 main_v1006 main_v1007 (muli : (⟨S7, .i32⟩ : BufTy).Contents (Elt F) → (⟨S7, .i32⟩ : BufTy).Contents (Elt F) → (⟨S7, .i32⟩ : BufTy).Contents (Elt F)),
    StableHlo.nullary main_c_128 (constantI S_ 32 7#32) ]
/-- The buffers those operations write, in order. -/
abbrev ops38_W : List (Ref sig .tc) :=
  [main_cst_125, main_v971, main_v972, main_v973, main_v974, main_v975, main_v976, main_v977, main_v978, main_v979, main_v980, main_v981, main_v982, main_v983, main_v984, main_v985, main_v986, main_v987, main_v988, main_v989, main_v990, main_v991, main_v992, main_v993, main_v994, main_v995, main_v996, main_v997, main_v998, main_v999, main_c_126, main_call74_v0, main_call74_v1, main_call74_v2, main_call74_v3, main_call74_v4, main_call74_v5, main_call74_v6, main_call74_v7, main_call74_v8, main_call74_c, main_call74_v9, main_call74_v10, main_call74_v11, main_call74_c_0, main_call74_v12, main_call74_v13, main_v1000, main_v1001, main_v1002, main_c_127, main_v1003, main_v1004, main_v1005, main_v1006, main_v1007, main_c_128]
/-- Each operation writes its own result buffer and nothing else. -/
theorem ops38_writes : (ops38 : List (HloOp τ sig (Elt F))).Forall fun op => op.writes ⊆ (ops38_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1995 to 2042 of the host part, in order. -/
abbrev ops39 : List (HloOp τ sig (Elt F)) :=
  [ StableHlo.TRef.unary (.of main_c_128 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S7, .i32⟩) (broadcastInDim S7 ![] bcast_S_S7),
    StableHlo.TRef.binary (.of main_v1007 : StableHlo.TRef sig ⟨S7, .i32⟩) (.of main_call75_v1 : StableHlo.TRef sig ⟨S7, .i32⟩) (.of main_call75_v2 : StableHlo.TRef sig ⟨S7, .i32⟩) Host.divsi,
    StableHlo.TRef.unary (.of main_v1007 : StableHlo.TRef sig ⟨S7, .i32⟩) (.of main_call75_v3 : StableHlo.TRef sig ⟨S7, .i32⟩) signi,
    StableHlo.TRef.unary (.of main_call75_v0 : StableHlo.TRef sig ⟨S_, .i32⟩) (.of main_call75_v4 : StableHlo.TRef sig ⟨S_, .i32⟩) signi,
    StableHlo.TRef.unary (.of main_call75_v4 : StableHlo.TRef sig ⟨S_, .i32⟩) (.of main_call75_v5 : StableHlo.TRef sig ⟨S7, .i32⟩) (broadcastInDim S7 ![] bcast_S_S7),
    StableHlo.TRef.binary (.of main_call75_v3 : StableHlo.TRef sig ⟨S7, .i32⟩) (.of main_call75_v5 : StableHlo.TRef sig ⟨S7, .i32⟩) (.of main_call75_v6 : StableHlo.TRef sig ⟨S7, .i1⟩) (cmpi .ne),
    StableHlo.TRef.unary (.of main_call75_v0 : StableHlo.TRef sig ⟨S_, .i32⟩) (.of main_call75_v7 : StableHlo.TRef sig ⟨S7, .i32⟩) (broadcastInDim S7 ![] bcast_S_S7),
    StableHlo.TRef.binary (.of main_v1007 : StableHlo.TRef sig ⟨S7, .i32⟩) (.of main_call75_v7 : StableHlo.TRef sig ⟨S7, .i32⟩) (.of main_call75_v8 : StableHlo.TRef sig ⟨S7, .i32⟩) Host.remsi,
    StableHlo.TRef.nullary (.of main_call75_c : StableHlo.TRef sig ⟨S_, .i32⟩) (constantI S_ 32 0#32),
    StableHlo.TRef.unary (.of main_call75_c : StableHlo.TRef sig ⟨S_, .i32⟩) (.of main_call75_v9 : StableHlo.TRef sig ⟨S7, .i32⟩) (broadcastInDim S7 ![] bcast_S_S7),
    StableHlo.TRef.binary (.of main_call75_v8 : StableHlo.TRef sig ⟨S7, .i32⟩) (.of main_call75_v9 : StableHlo.TRef sig ⟨S7, .i32⟩) (.of main_call75_v10 : StableHlo.TRef sig ⟨S7, .i1⟩) (cmpi .ne),
    StableHlo.TRef.binary (.of main_call75_v6 : StableHlo.TRef sig ⟨S7, .i1⟩) (.of main_call75_v10 : StableHlo.TRef sig ⟨S7, .i1⟩) (.of main_call75_v11 : StableHlo.TRef sig ⟨S7, .i1⟩) andi,
    StableHlo.TRef.nullary (.of main_call75_c_0 : StableHlo.TRef sig ⟨S_, .i32⟩) (constantI S_ 32 1#32),
    StableHlo.TRef.unary (.of main_call75_c_0 : StableHlo.TRef sig ⟨S_, .i32⟩) (.of main_call75_v12 : StableHlo.TRef sig ⟨S7, .i32⟩) (broadcastInDim S7 ![] bcast_S_S7),
    StableHlo.TRef.binary (.of main_call75_v2 : StableHlo.TRef sig ⟨S7, .i32⟩) (.of main_call75_v12 : StableHlo.TRef sig ⟨S7, .i32⟩) (.of main_call75_v13 : StableHlo.TRef sig ⟨S7, .i32⟩) subi,
    StableHlo.TRef.ternary (.of main_call75_v11 : StableHlo.TRef sig ⟨S7, .i1⟩) (.of main_call75_v13 : StableHlo.TRef sig ⟨S7, .i32⟩) (.of main_call75_v2 : StableHlo.TRef sig ⟨S7, .i32⟩) (.of main_v1008 : StableHlo.TRef sig ⟨S7, .i32⟩) select,
    StableHlo.unary main_v978 main_v1009 (broadcastInDim S7 ![] bcast_S_S7 : (⟨S_, .i32⟩ : BufTy).Contents (Elt F) → (⟨S7, .i32⟩ : BufTy).Contents (Elt F)),
    StableHlo.binary main_v1009 main_v1008 main_v1010 (subi : (⟨S7, .i32⟩ : BufTy).Contents (Elt F) → (⟨S7, .i32⟩ : BufTy).Contents (Elt F) → (⟨S7, .i32⟩ : BufTy).Contents (Elt F)),
    StableHlo.unary main_v995 main_v1011 (broadcastInDim S7 ![] bcast_S_S7 : (⟨S_, .i32⟩ : BufTy).Contents (Elt F) → (⟨S7, .i32⟩ : BufTy).Contents (Elt F)),
    StableHlo.binary main_v997 main_v1011 main_v1012 (muli : (⟨S7, .i32⟩ : BufTy).Contents (Elt F) → (⟨S7, .i32⟩ : BufTy).Contents (Elt F) → (⟨S7, .i32⟩ : BufTy).Contents (Elt F)),
    StableHlo.nullary main_c_129 (constantI S_ 32 7#32),
    StableHlo.TRef.unary (.of main_c_129 : StableHlo.TRef sig ⟨S_, .i32⟩) (.of main_call76_v0 : StableHlo.TRef sig ⟨S_, .i32⟩) id,
    StableHlo.TRef.unary (.of main_call76_v0 : StableHlo.TRef sig ⟨S_, .i32⟩) (.of main_call76_v1 : StableHlo.TRef sig ⟨S7, .i32⟩) (broadcastInDim S7 ![] bcast_S_S7),
    StableHlo.TRef.binary (.of main_v1012 : StableHlo.TRef sig ⟨S7, .i32⟩) (.of main_call76_v1 : StableHlo.TRef sig ⟨S7, .i32⟩) (.of main_call76_v2 : StableHlo.TRef sig ⟨S7, .i32⟩) Host.divsi,
    StableHlo.TRef.unary (.of main_v1012 : StableHlo.TRef sig ⟨S7, .i32⟩) (.of main_call76_v3 : StableHlo.TRef sig ⟨S7, .i32⟩) signi,
    StableHlo.TRef.unary (.of main_call76_v0 : StableHlo.TRef sig ⟨S_, .i32⟩) (.of main_call76_v4 : StableHlo.TRef sig ⟨S_, .i32⟩) signi,
    StableHlo.TRef.unary (.of main_call76_v4 : StableHlo.TRef sig ⟨S_, .i32⟩) (.of main_call76_v5 : StableHlo.TRef sig ⟨S7, .i32⟩) (broadcastInDim S7 ![] bcast_S_S7),
    StableHlo.TRef.binary (.of main_call76_v3 : StableHlo.TRef sig ⟨S7, .i32⟩) (.of main_call76_v5 : StableHlo.TRef sig ⟨S7, .i32⟩) (.of main_call76_v6 : StableHlo.TRef sig ⟨S7, .i1⟩) (cmpi .ne),
    StableHlo.TRef.unary (.of main_call76_v0 : StableHlo.TRef sig ⟨S_, .i32⟩) (.of main_call76_v7 : StableHlo.TRef sig ⟨S7, .i32⟩) (broadcastInDim S7 ![] bcast_S_S7),
    StableHlo.TRef.binary (.of main_v1012 : StableHlo.TRef sig ⟨S7, .i32⟩) (.of main_call76_v7 : StableHlo.TRef sig ⟨S7, .i32⟩) (.of main_call76_v8 : StableHlo.TRef sig ⟨S7, .i32⟩) Host.remsi,
    StableHlo.TRef.nullary (.of main_call76_c : StableHlo.TRef sig ⟨S_, .i32⟩) (constantI S_ 32 0#32),
    StableHlo.TRef.unary (.of main_call76_c : StableHlo.TRef sig ⟨S_, .i32⟩) (.of main_call76_v9 : StableHlo.TRef sig ⟨S7, .i32⟩) (broadcastInDim S7 ![] bcast_S_S7),
    StableHlo.TRef.binary (.of main_call76_v8 : StableHlo.TRef sig ⟨S7, .i32⟩) (.of main_call76_v9 : StableHlo.TRef sig ⟨S7, .i32⟩) (.of main_call76_v10 : StableHlo.TRef sig ⟨S7, .i1⟩) (cmpi .ne),
    StableHlo.TRef.binary (.of main_call76_v6 : StableHlo.TRef sig ⟨S7, .i1⟩) (.of main_call76_v10 : StableHlo.TRef sig ⟨S7, .i1⟩) (.of main_call76_v11 : StableHlo.TRef sig ⟨S7, .i1⟩) andi,
    StableHlo.TRef.nullary (.of main_call76_c_0 : StableHlo.TRef sig ⟨S_, .i32⟩) (constantI S_ 32 1#32),
    StableHlo.TRef.unary (.of main_call76_c_0 : StableHlo.TRef sig ⟨S_, .i32⟩) (.of main_call76_v12 : StableHlo.TRef sig ⟨S7, .i32⟩) (broadcastInDim S7 ![] bcast_S_S7),
    StableHlo.TRef.binary (.of main_call76_v2 : StableHlo.TRef sig ⟨S7, .i32⟩) (.of main_call76_v12 : StableHlo.TRef sig ⟨S7, .i32⟩) (.of main_call76_v13 : StableHlo.TRef sig ⟨S7, .i32⟩) subi,
    StableHlo.TRef.ternary (.of main_call76_v11 : StableHlo.TRef sig ⟨S7, .i1⟩) (.of main_call76_v13 : StableHlo.TRef sig ⟨S7, .i32⟩) (.of main_call76_v2 : StableHlo.TRef sig ⟨S7, .i32⟩) (.of main_v1013 : StableHlo.TRef sig ⟨S7, .i32⟩) select,
    StableHlo.unary main_v988 main_v1014 (broadcastInDim S7 ![] bcast_S_S7 : (⟨S_, .i32⟩ : BufTy).Contents (Elt F) → (⟨S7, .i32⟩ : BufTy).Contents (Elt F)),
    StableHlo.binary main_v1014 main_v1013 main_v1015 (addi : (⟨S7, .i32⟩ : BufTy).Contents (Elt F) → (⟨S7, .i32⟩ : BufTy).Contents (Elt F) → (⟨S7, .i32⟩ : BufTy).Contents (Elt F)),
    StableHlo.nullary main_c_130 (constantI S_ 32 1#32),
    StableHlo.unary main_c_130 main_v1016 (broadcastInDim S7 ![] bcast_S_S7 : (⟨S_, .i32⟩ : BufTy).Contents (Elt F) → (⟨S7, .i32⟩ : BufTy).Contents (Elt F)),
    StableHlo.binary main_v997 main_v1016 main_v1017 (addi : (⟨S7, .i32⟩ : BufTy).Contents (Elt F) → (⟨S7, .i32⟩ : BufTy).Contents (Elt F) → (⟨S7, .i32⟩ : BufTy).Contents (Elt F)),
    StableHlo.unary main_v1017 main_v1018 (negi : (⟨S7, .i32⟩ : BufTy).Contents (Elt F) → (⟨S7, .i32⟩ : BufTy).Contents (Elt F)),
    StableHlo.unary main_v995 main_v1019 (broadcastInDim S7 ![] bcast_S_S7 : (⟨S_, .i32⟩ : BufTy).Contents (Elt F) → (⟨S7, .i32⟩ : BufTy).Contents (Elt F)),
    StableHlo.binary main_v1018 main_v1019 main_v1020 (muli : (⟨S7, .i32⟩ : BufTy).Contents (Elt F) → (⟨S7, .i32⟩ : BufTy).Contents (Elt F) → (⟨S7, .i32⟩ : BufTy).Contents (Elt F)),
    StableHlo.nullary main_c_131 (constantI S_ 32 7#32) ]
/-- The buffers those operations write, in order. -/
abbrev ops39_W : List (Ref sig .tc) :=
  [main_call75_v0, main_call75_v1, main_call75_v2, main_call75_v3, main_call75_v4, main_call75_v5, main_call75_v6, main_call75_v7, main_call75_v8, main_call75_c, main_call75_v9, main_call75_v10, main_call75_v11, main_call75_c_0, main_call75_v12, main_call75_v13, main_v1008, main_v1009, main_v1010, main_v1011, main_v1012, main_c_129, main_call76_v0, main_call76_v1, main_call76_v2, main_call76_v3, main_call76_v4, main_call76_v5, main_call76_v6, main_call76_v7, main_call76_v8, main_call76_c, main_call76_v9, main_call76_v10, main_call76_v11, main_call76_c_0, main_call76_v12, main_call76_v13, main_v1013, main_v1014, main_v1015, main_c_130, main_v1016, main_v1017, main_v1018, main_v1019, main_v1020, main_c_131]
/-- Each operation writes its own result buffer and nothing else. -/
theorem ops39_writes : (ops39 : List (HloOp τ sig (Elt F))).Forall fun op => op.writes ⊆ (ops39_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2043 to 2101 of the host part, in order. -/
abbrev ops40 : List (HloOp τ sig (Elt F)) :=
  [ StableHlo.TRef.unary (.of main_c_131 : StableHlo.TRef sig ⟨S_, .i32⟩) (.of main_call77_v0 : StableHlo.TRef sig ⟨S_, .i32⟩) id,
    StableHlo.TRef.unary (.of main_call77_v0 : StableHlo.TRef sig ⟨S_, .i32⟩) (.of main_call77_v1 : StableHlo.TRef sig ⟨S7, .i32⟩) (broadcastInDim S7 ![] bcast_S_S7),
    StableHlo.TRef.binary (.of main_v1020 : StableHlo.TRef sig ⟨S7, .i32⟩) (.of main_call77_v1 : StableHlo.TRef sig ⟨S7, .i32⟩) (.of main_call77_v2 : StableHlo.TRef sig ⟨S7, .i32⟩) Host.divsi,
    StableHlo.TRef.unary (.of main_v1020 : StableHlo.TRef sig ⟨S7, .i32⟩) (.of main_call77_v3 : StableHlo.TRef sig ⟨S7, .i32⟩) signi,
    StableHlo.TRef.unary (.of main_call77_v0 : StableHlo.TRef sig ⟨S_, .i32⟩) (.of main_call77_v4 : StableHlo.TRef sig ⟨S_, .i32⟩) signi,
    StableHlo.TRef.unary (.of main_call77_v4 : StableHlo.TRef sig ⟨S_, .i32⟩) (.of main_call77_v5 : StableHlo.TRef sig ⟨S7, .i32⟩) (broadcastInDim S7 ![] bcast_S_S7),
    StableHlo.TRef.binary (.of main_call77_v3 : StableHlo.TRef sig ⟨S7, .i32⟩) (.of main_call77_v5 : StableHlo.TRef sig ⟨S7, .i32⟩) (.of main_call77_v6 : StableHlo.TRef sig ⟨S7, .i1⟩) (cmpi .ne),
    StableHlo.TRef.unary (.of main_call77_v0 : StableHlo.TRef sig ⟨S_, .i32⟩) (.of main_call77_v7 : StableHlo.TRef sig ⟨S7, .i32⟩) (broadcastInDim S7 ![] bcast_S_S7),
    StableHlo.TRef.binary (.of main_v1020 : StableHlo.TRef sig ⟨S7, .i32⟩) (.of main_call77_v7 : StableHlo.TRef sig ⟨S7, .i32⟩) (.of main_call77_v8 : StableHlo.TRef sig ⟨S7, .i32⟩) Host.remsi,
    StableHlo.TRef.nullary (.of main_call77_c : StableHlo.TRef sig ⟨S_, .i32⟩) (constantI S_ 32 0#32),
    StableHlo.TRef.unary (.of main_call77_c : StableHlo.TRef sig ⟨S_, .i32⟩) (.of main_call77_v9 : StableHlo.TRef sig ⟨S7, .i32⟩) (broadcastInDim S7 ![] bcast_S_S7),
    StableHlo.TRef.binary (.of main_call77_v8 : StableHlo.TRef sig ⟨S7, .i32⟩) (.of main_call77_v9 : StableHlo.TRef sig ⟨S7, .i32⟩) (.of main_call77_v10 : StableHlo.TRef sig ⟨S7, .i1⟩) (cmpi .ne),
    StableHlo.TRef.binary (.of main_call77_v6 : StableHlo.TRef sig ⟨S7, .i1⟩) (.of main_call77_v10 : StableHlo.TRef sig ⟨S7, .i1⟩) (.of main_call77_v11 : StableHlo.TRef sig ⟨S7, .i1⟩) andi,
    StableHlo.TRef.nullary (.of main_call77_c_0 : StableHlo.TRef sig ⟨S_, .i32⟩) (constantI S_ 32 1#32),
    StableHlo.TRef.unary (.of main_call77_c_0 : StableHlo.TRef sig ⟨S_, .i32⟩) (.of main_call77_v12 : StableHlo.TRef sig ⟨S7, .i32⟩) (broadcastInDim S7 ![] bcast_S_S7),
    StableHlo.TRef.binary (.of main_call77_v2 : StableHlo.TRef sig ⟨S7, .i32⟩) (.of main_call77_v12 : StableHlo.TRef sig ⟨S7, .i32⟩) (.of main_call77_v13 : StableHlo.TRef sig ⟨S7, .i32⟩) subi,
    StableHlo.TRef.ternary (.of main_call77_v11 : StableHlo.TRef sig ⟨S7, .i1⟩) (.of main_call77_v13 : StableHlo.TRef sig ⟨S7, .i32⟩) (.of main_call77_v2 : StableHlo.TRef sig ⟨S7, .i32⟩) (.of main_v1021 : StableHlo.TRef sig ⟨S7, .i32⟩) select,
    StableHlo.unary main_v988 main_v1022 (broadcastInDim S7 ![] bcast_S_S7 : (⟨S_, .i32⟩ : BufTy).Contents (Elt F) → (⟨S7, .i32⟩ : BufTy).Contents (Elt F)),
    StableHlo.binary main_v1022 main_v1021 main_v1023 (subi : (⟨S7, .i32⟩ : BufTy).Contents (Elt F) → (⟨S7, .i32⟩ : BufTy).Contents (Elt F) → (⟨S7, .i32⟩ : BufTy).Contents (Elt F)),
    StableHlo.nullary main_v1024 (iotaInDim S64 32 0),
    StableHlo.nullary main_v1025 (iotaInDim S64 32 0),
    StableHlo.unary main_v1024 main_v1026 (broadcastInDim S1x64 ![1] bcast_S64_S1x64_1 : (⟨S64, .i32⟩ : BufTy).Contents (Elt F) → (⟨S1x64, .i32⟩ : BufTy).Contents (Elt F)),
    StableHlo.unary main_v1002 main_v1027 (broadcastInDim S7x1 ![0] bcast_S7_S7x1_0 : (⟨S7, .i32⟩ : BufTy).Contents (Elt F) → (⟨S7x1, .i32⟩ : BufTy).Contents (Elt F)),
    StableHlo.unary main_v1026 main_v1028 (broadcastInDim S7x64 ![0, 1] bcast_S1x64_S7x64_0_1 : (⟨S1x64, .i32⟩ : BufTy).Contents (Elt F) → (⟨S7x64, .i32⟩ : BufTy).Contents (Elt F)),
    StableHlo.unary main_v1027 main_v1029 (broadcastInDim S7x64 ![0, 1] bcast_S7x1_S7x64_0_1 : (⟨S7x1, .i32⟩ : BufTy).Contents (Elt F) → (⟨S7x64, .i32⟩ : BufTy).Contents (Elt F)),
    StableHlo.binary main_v1028 main_v1029 main_v1030 (cmpi .sge : (⟨S7x64, .i32⟩ : BufTy).Contents (Elt F) → (⟨S7x64, .i32⟩ : BufTy).Contents (Elt F) → (⟨S7x64, .i1⟩ : BufTy).Contents (Elt F)),
    StableHlo.unary main_v1024 main_v1031 (broadcastInDim S1x64 ![1] bcast_S64_S1x64_1 : (⟨S64, .i32⟩ : BufTy).Contents (Elt F) → (⟨S1x64, .i32⟩ : BufTy).Contents (Elt F)),
    StableHlo.unary main_v1010 main_v1032 (broadcastInDim S7x1 ![0] bcast_S7_S7x1_0 : (⟨S7, .i32⟩ : BufTy).Contents (Elt F) → (⟨S7x1, .i32⟩ : BufTy).Contents (Elt F)),
    StableHlo.unary main_v1031 main_v1033 (broadcastInDim S7x64 ![0, 1] bcast_S1x64_S7x64_0_1 : (⟨S1x64, .i32⟩ : BufTy).Contents (Elt F) → (⟨S7x64, .i32⟩ : BufTy).Contents (Elt F)),
    StableHlo.unary main_v1032 main_v1034 (broadcastInDim S7x64 ![0, 1] bcast_S7x1_S7x64_0_1 : (⟨S7x1, .i32⟩ : BufTy).Contents (Elt F) → (⟨S7x64, .i32⟩ : BufTy).Contents (Elt F)),
    StableHlo.binary main_v1033 main_v1034 main_v1035 (cmpi .slt : (⟨S7x64, .i32⟩ : BufTy).Contents (Elt F) → (⟨S7x64, .i32⟩ : BufTy).Contents (Elt F) → (⟨S7x64, .i1⟩ : BufTy).Contents (Elt F)),
    StableHlo.binary main_v1030 main_v1035 main_v1036 (andi : (⟨S7x64, .i1⟩ : BufTy).Contents (Elt F) → (⟨S7x64, .i1⟩ : BufTy).Contents (Elt F) → (⟨S7x64, .i1⟩ : BufTy).Contents (Elt F)),
    StableHlo.unary main_v1025 main_v1037 (broadcastInDim S1x64 ![1] bcast_S64_S1x64_1 : (⟨S64, .i32⟩ : BufTy).Contents (Elt F) → (⟨S1x64, .i32⟩ : BufTy).Contents (Elt F)),
    StableHlo.unary main_v1015 main_v1038 (broadcastInDim S7x1 ![0] bcast_S7_S7x1_0 : (⟨S7, .i32⟩ : BufTy).Contents (Elt F) → (⟨S7x1, .i32⟩ : BufTy).Contents (Elt F)),
    StableHlo.unary main_v1037 main_v1039 (broadcastInDim S7x64 ![0, 1] bcast_S1x64_S7x64_0_1 : (⟨S1x64, .i32⟩ : BufTy).Contents (Elt F) → (⟨S7x64, .i32⟩ : BufTy).Contents (Elt F)),
    StableHlo.unary main_v1038 main_v1040 (broadcastInDim S7x64 ![0, 1] bcast_S7x1_S7x64_0_1 : (⟨S7x1, .i32⟩ : BufTy).Contents (Elt F) → (⟨S7x64, .i32⟩ : BufTy).Contents (Elt F)),
    StableHlo.binary main_v1039 main_v1040 main_v1041 (cmpi .sge : (⟨S7x64, .i32⟩ : BufTy).Contents (Elt F) → (⟨S7x64, .i32⟩ : BufTy).Contents (Elt F) → (⟨S7x64, .i1⟩ : BufTy).Contents (Elt F)),
    StableHlo.unary main_v1025 main_v1042 (broadcastInDim S1x64 ![1] bcast_S64_S1x64_1 : (⟨S64, .i32⟩ : BufTy).Contents (Elt F) → (⟨S1x64, .i32⟩ : BufTy).Contents (Elt F)),
    StableHlo.unary main_v1023 main_v1043 (broadcastInDim S7x1 ![0] bcast_S7_S7x1_0 : (⟨S7, .i32⟩ : BufTy).Contents (Elt F) → (⟨S7x1, .i32⟩ : BufTy).Contents (Elt F)),
    StableHlo.unary main_v1042 main_v1044 (broadcastInDim S7x64 ![0, 1] bcast_S1x64_S7x64_0_1 : (⟨S1x64, .i32⟩ : BufTy).Contents (Elt F) → (⟨S7x64, .i32⟩ : BufTy).Contents (Elt F)),
    StableHlo.unary main_v1043 main_v1045 (broadcastInDim S7x64 ![0, 1] bcast_S7x1_S7x64_0_1 : (⟨S7x1, .i32⟩ : BufTy).Contents (Elt F) → (⟨S7x64, .i32⟩ : BufTy).Contents (Elt F)),
    StableHlo.binary main_v1044 main_v1045 main_v1046 (cmpi .slt : (⟨S7x64, .i32⟩ : BufTy).Contents (Elt F) → (⟨S7x64, .i32⟩ : BufTy).Contents (Elt F) → (⟨S7x64, .i1⟩ : BufTy).Contents (Elt F)),
    StableHlo.binary main_v1041 main_v1046 main_v1047 (andi : (⟨S7x64, .i1⟩ : BufTy).Contents (Elt F) → (⟨S7x64, .i1⟩ : BufTy).Contents (Elt F) → (⟨S7x64, .i1⟩ : BufTy).Contents (Elt F)),
    StableHlo.unary main_v1036 main_v1048 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1049 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_132 (constant S_ .f32 0xFF800000#32),
    StableHlo.TRef.unary (.of main_v1048 : StableHlo.TRef sig ⟨S7x1x64x1, .i1⟩) (.of main_call78_v0 : StableHlo.TRef sig ⟨S7x512x64x64, .i1⟩) (broadcastInDim S7x512x64x64 ![0, 1, 2, 3] bcast_S7x1x64x1_S7x512x64x64_0_1_2_3),
    StableHlo.TRef.unary (.of main_v1049 : StableHlo.TRef sig ⟨S1x512x64x64, .f32⟩) (.of main_call78_v1 : StableHlo.TRef sig ⟨S7x512x64x64, .f32⟩) (broadcastInDim S7x512x64x64 ![0, 1, 2, 3] bcast_S1x512x64x64_S7x512x64x64_0_1_2_3),
    StableHlo.TRef.unary (.of main_cst_132 : StableHlo.TRef sig ⟨S_, .f32⟩) (.of main_call78_v2 : StableHlo.TRef sig ⟨S7x512x64x64, .f32⟩) (broadcastInDim S7x512x64x64 ![] bcast_S_S7x512x64x64),
    StableHlo.TRef.ternary (.of main_call78_v0 : StableHlo.TRef sig ⟨S7x512x64x64, .i1⟩) (.of main_call78_v1 : StableHlo.TRef sig ⟨S7x512x64x64, .f32⟩) (.of main_call78_v2 : StableHlo.TRef sig ⟨S7x512x64x64, .f32⟩) (.of main_v1050 : StableHlo.TRef sig ⟨S7x512x64x64, .f32⟩) select,
    StableHlo.nullary main_cst_133 (constant S_ .f32 0xFF800000#32),
    StableHlo.binary main_v1050 main_cst_133 main_v1051 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1047 main_v1052 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1051 main_v1053 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_134 (constant S_ .f32 0xFF800000#32),
    StableHlo.TRef.unary (.of main_v1052 : StableHlo.TRef sig ⟨S1x1x7x64, .i1⟩) (.of main_call79_v0 : StableHlo.TRef sig ⟨S7x512x7x64, .i1⟩) (broadcastInDim S7x512x7x64 ![0, 1, 2, 3] bcast_S1x1x7x64_S7x512x7x64_0_1_2_3),
    StableHlo.TRef.unary (.of main_v1053 : StableHlo.TRef sig ⟨S7x512x1x64, .f32⟩) (.of main_call79_v1 : StableHlo.TRef sig ⟨S7x512x7x64, .f32⟩) (broadcastInDim S7x512x7x64 ![0, 1, 2, 3] bcast_S7x512x1x64_S7x512x7x64_0_1_2_3),
    StableHlo.TRef.unary (.of main_cst_134 : StableHlo.TRef sig ⟨S_, .f32⟩) (.of main_call79_v2 : StableHlo.TRef sig ⟨S7x512x7x64, .f32⟩) (broadcastInDim S7x512x7x64 ![] bcast_S_S7x512x7x64),
    StableHlo.TRef.ternary (.of main_call79_v0 : StableHlo.TRef sig ⟨S7x512x7x64, .i1⟩) (.of main_call79_v1 : StableHlo.TRef sig ⟨S7x512x7x64, .f32⟩) (.of main_call79_v2 : StableHlo.TRef sig ⟨S7x512x7x64, .f32⟩) (.of main_v1054 : StableHlo.TRef sig ⟨S7x512x7x64, .f32⟩) select ]
/-- The buffers those operations write, in order. -/
abbrev ops40_W : List (Ref sig .tc) :=
  [main_call77_v0, main_call77_v1, main_call77_v2, main_call77_v3, main_call77_v4, main_call77_v5, main_call77_v6, main_call77_v7, main_call77_v8, main_call77_c, main_call77_v9, main_call77_v10, main_call77_v11, main_call77_c_0, main_call77_v12, main_call77_v13, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047, main_v1048, main_v1049, main_cst_132, main_call78_v0, main_call78_v1, main_call78_v2, main_v1050, main_cst_133, main_v1051, main_v1052, main_v1053, main_cst_134, main_call79_v0, main_call79_v1, main_call79_v2, main_v1054]
/-- Each operation writes its own result buffer and nothing else. -/
theorem ops40_writes : (ops40 : List (HloOp τ sig (Elt F))).Forall fun op => op.writes ⊆ (ops40_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2102 to 2158 of the host part, in order. -/
abbrev ops41 : List (HloOp τ sig (Elt F)) :=
  [ StableHlo.nullary main_cst_135 (constant S_ .f32 0xFF800000#32),
    StableHlo.binary main_v1054 main_cst_135 main_v1055 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1055 main_v1056 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1056 main_v1057 rfl shapeCasts_S512x7x7_S25088,
    StableHlo.unary main_v18 main_v1058 ((extractStridedSlice S1x1 ![2, 1] · slices_S3x4_S1x1_2_1) : (⟨S3x4, .i32⟩ : BufTy).Contents (Elt F) → (⟨S1x1, .i32⟩ : BufTy).Contents (Elt F)),
    StableHlo.reshape main_v1058 main_v1059 rfl shapeCasts_S1x1_S_,
    StableHlo.unary main_v23 main_v1060 ((extractStridedSlice S1x1 ![1, 1] · slices_S4x4_S1x1_1_1) : (⟨S4x4, .i32⟩ : BufTy).Contents (Elt F) → (⟨S1x1, .i32⟩ : BufTy).Contents (Elt F)),
    StableHlo.reshape main_v1060 main_v1061 rfl shapeCasts_S1x1_S_,
    StableHlo.binary main_v1059 main_v1061 main_v1062 (minsi : (⟨S_, .i32⟩ : BufTy).Contents (Elt F) → (⟨S_, .i32⟩ : BufTy).Contents (Elt F) → (⟨S_, .i32⟩ : BufTy).Contents (Elt F)),
    StableHlo.unary main_v18 main_v1063 ((extractStridedSlice S1x1 ![2, 3] · slices_S3x4_S1x1_2_3) : (⟨S3x4, .i32⟩ : BufTy).Contents (Elt F) → (⟨S1x1, .i32⟩ : BufTy).Contents (Elt F)),
    StableHlo.reshape main_v1063 main_v1064 rfl shapeCasts_S1x1_S_,
    StableHlo.unary main_v23 main_v1065 ((extractStridedSlice S1x1 ![1, 3] · slices_S4x4_S1x1_1_3) : (⟨S4x4, .i32⟩ : BufTy).Contents (Elt F) → (⟨S1x1, .i32⟩ : BufTy).Contents (Elt F)),
    StableHlo.reshape main_v1065 main_v1066 rfl shapeCasts_S1x1_S_,
    StableHlo.binary main_v1064 main_v1066 main_v1067 (maxsi : (⟨S_, .i32⟩ : BufTy).Contents (Elt F) → (⟨S_, .i32⟩ : BufTy).Contents (Elt F) → (⟨S_, .i32⟩ : BufTy).Contents (Elt F)),
    StableHlo.unary main_v18 main_v1068 ((extractStridedSlice S1x1 ![2, 0] · slices_S3x4_S1x1_2_0) : (⟨S3x4, .i32⟩ : BufTy).Contents (Elt F) → (⟨S1x1, .i32⟩ : BufTy).Contents (Elt F)),
    StableHlo.reshape main_v1068 main_v1069 rfl shapeCasts_S1x1_S_,
    StableHlo.unary main_v23 main_v1070 ((extractStridedSlice S1x1 ![1, 0] · slices_S4x4_S1x1_1_0) : (⟨S4x4, .i32⟩ : BufTy).Contents (Elt F) → (⟨S1x1, .i32⟩ : BufTy).Contents (Elt F)),
    StableHlo.reshape main_v1070 main_v1071 rfl shapeCasts_S1x1_S_,
    StableHlo.binary main_v1069 main_v1071 main_v1072 (minsi : (⟨S_, .i32⟩ : BufTy).Contents (Elt F) → (⟨S_, .i32⟩ : BufTy).Contents (Elt F) → (⟨S_, .i32⟩ : BufTy).Contents (Elt F)),
    StableHlo.unary main_v18 main_v1073 ((extractStridedSlice S1x1 ![2, 2] · slices_S3x4_S1x1_2_2) : (⟨S3x4, .i32⟩ : BufTy).Contents (Elt F) → (⟨S1x1, .i32⟩ : BufTy).Contents (Elt F)),
    StableHlo.reshape main_v1073 main_v1074 rfl shapeCasts_S1x1_S_,
    StableHlo.unary main_v23 main_v1075 ((extractStridedSlice S1x1 ![1, 2] · slices_S4x4_S1x1_1_2) : (⟨S4x4, .i32⟩ : BufTy).Contents (Elt F) → (⟨S1x1, .i32⟩ : BufTy).Contents (Elt F)),
    StableHlo.reshape main_v1075 main_v1076 rfl shapeCasts_S1x1_S_,
    StableHlo.binary main_v1074 main_v1076 main_v1077 (maxsi : (⟨S_, .i32⟩ : BufTy).Contents (Elt F) → (⟨S_, .i32⟩ : BufTy).Contents (Elt F) → (⟨S_, .i32⟩ : BufTy).Contents (Elt F)),
    StableHlo.binary main_v1067 main_v1062 main_v1078 (subi : (⟨S_, .i32⟩ : BufTy).Contents (Elt F) → (⟨S_, .i32⟩ : BufTy).Contents (Elt F) → (⟨S_, .i32⟩ : BufTy).Contents (Elt F)),
    StableHlo.binary main_v1077 main_v1072 main_v1079 (subi : (⟨S_, .i32⟩ : BufTy).Contents (Elt F) → (⟨S_, .i32⟩ : BufTy).Contents (Elt F) → (⟨S_, .i32⟩ : BufTy).Contents (Elt F)),
    StableHlo.nullary main_v1080 (iotaInDim S7 32 0),
    StableHlo.nullary main_v1081 (iotaInDim S7 32 0),
    StableHlo.unary main_v1078 main_v1082 (broadcastInDim S7 ![] bcast_S_S7 : (⟨S_, .i32⟩ : BufTy).Contents (Elt F) → (⟨S7, .i32⟩ : BufTy).Contents (Elt F)),
    StableHlo.binary main_v1080 main_v1082 main_v1083 (muli : (⟨S7, .i32⟩ : BufTy).Contents (Elt F) → (⟨S7, .i32⟩ : BufTy).Contents (Elt F) → (⟨S7, .i32⟩ : BufTy).Contents (Elt F)),
    StableHlo.nullary main_c_136 (constantI S_ 32 7#32),
    StableHlo.TRef.unary (.of main_c_136 : StableHlo.TRef sig ⟨S_, .i32⟩) (.of main_call80_v0 : StableHlo.TRef sig ⟨S_, .i32⟩) id,
    StableHlo.TRef.unary (.of main_call80_v0 : StableHlo.TRef sig ⟨S_, .i32⟩) (.of main_call80_v1 : StableHlo.TRef sig ⟨S7, .i32⟩) (broadcastInDim S7 ![] bcast_S_S7),
    StableHlo.TRef.binary (.of main_v1083 : StableHlo.TRef sig ⟨S7, .i32⟩) (.of main_call80_v1 : StableHlo.TRef sig ⟨S7, .i32⟩) (.of main_call80_v2 : StableHlo.TRef sig ⟨S7, .i32⟩) Host.divsi,
    StableHlo.TRef.unary (.of main_v1083 : StableHlo.TRef sig ⟨S7, .i32⟩) (.of main_call80_v3 : StableHlo.TRef sig ⟨S7, .i32⟩) signi,
    StableHlo.TRef.unary (.of main_call80_v0 : StableHlo.TRef sig ⟨S_, .i32⟩) (.of main_call80_v4 : StableHlo.TRef sig ⟨S_, .i32⟩) signi,
    StableHlo.TRef.unary (.of main_call80_v4 : StableHlo.TRef sig ⟨S_, .i32⟩) (.of main_call80_v5 : StableHlo.TRef sig ⟨S7, .i32⟩) (broadcastInDim S7 ![] bcast_S_S7),
    StableHlo.TRef.binary (.of main_call80_v3 : StableHlo.TRef sig ⟨S7, .i32⟩) (.of main_call80_v5 : StableHlo.TRef sig ⟨S7, .i32⟩) (.of main_call80_v6 : StableHlo.TRef sig ⟨S7, .i1⟩) (cmpi .ne),
    StableHlo.TRef.unary (.of main_call80_v0 : StableHlo.TRef sig ⟨S_, .i32⟩) (.of main_call80_v7 : StableHlo.TRef sig ⟨S7, .i32⟩) (broadcastInDim S7 ![] bcast_S_S7),
    StableHlo.TRef.binary (.of main_v1083 : StableHlo.TRef sig ⟨S7, .i32⟩) (.of main_call80_v7 : StableHlo.TRef sig ⟨S7, .i32⟩) (.of main_call80_v8 : StableHlo.TRef sig ⟨S7, .i32⟩) Host.remsi,
    StableHlo.TRef.nullary (.of main_call80_c : StableHlo.TRef sig ⟨S_, .i32⟩) (constantI S_ 32 0#32),
    StableHlo.TRef.unary (.of main_call80_c : StableHlo.TRef sig ⟨S_, .i32⟩) (.of main_call80_v9 : StableHlo.TRef sig ⟨S7, .i32⟩) (broadcastInDim S7 ![] bcast_S_S7),
    StableHlo.TRef.binary (.of main_call80_v8 : StableHlo.TRef sig ⟨S7, .i32⟩) (.of main_call80_v9 : StableHlo.TRef sig ⟨S7, .i32⟩) (.of main_call80_v10 : StableHlo.TRef sig ⟨S7, .i1⟩) (cmpi .ne),
    StableHlo.TRef.binary (.of main_call80_v6 : StableHlo.TRef sig ⟨S7, .i1⟩) (.of main_call80_v10 : StableHlo.TRef sig ⟨S7, .i1⟩) (.of main_call80_v11 : StableHlo.TRef sig ⟨S7, .i1⟩) andi,
    StableHlo.TRef.nullary (.of main_call80_c_0 : StableHlo.TRef sig ⟨S_, .i32⟩) (constantI S_ 32 1#32),
    StableHlo.TRef.unary (.of main_call80_c_0 : StableHlo.TRef sig ⟨S_, .i32⟩) (.of main_call80_v12 : StableHlo.TRef sig ⟨S7, .i32⟩) (broadcastInDim S7 ![] bcast_S_S7),
    StableHlo.TRef.binary (.of main_call80_v2 : StableHlo.TRef sig ⟨S7, .i32⟩) (.of main_call80_v12 : StableHlo.TRef sig ⟨S7, .i32⟩) (.of main_call80_v13 : StableHlo.TRef sig ⟨S7, .i32⟩) subi,
    StableHlo.TRef.ternary (.of main_call80_v11 : StableHlo.TRef sig ⟨S7, .i1⟩) (.of main_call80_v13 : StableHlo.TRef sig ⟨S7, .i32⟩) (.of main_call80_v2 : StableHlo.TRef sig ⟨S7, .i32⟩) (.of main_v1084 : StableHlo.TRef sig ⟨S7, .i32⟩) select,
    StableHlo.unary main_v1062 main_v1085 (broadcastInDim S7 ![] bcast_S_S7 : (⟨S_, .i32⟩ : BufTy).Contents (Elt F) → (⟨S7, .i32⟩ : BufTy).Contents (Elt F)),
    StableHlo.binary main_v1085 main_v1084 main_v1086 (addi : (⟨S7, .i32⟩ : BufTy).Contents (Elt F) → (⟨S7, .i32⟩ : BufTy).Contents (Elt F) → (⟨S7, .i32⟩ : BufTy).Contents (Elt F)),
    StableHlo.nullary main_c_137 (constantI S_ 32 1#32),
    StableHlo.unary main_c_137 main_v1087 (broadcastInDim S7 ![] bcast_S_S7 : (⟨S_, .i32⟩ : BufTy).Contents (Elt F) → (⟨S7, .i32⟩ : BufTy).Contents (Elt F)),
    StableHlo.binary main_v1080 main_v1087 main_v1088 (addi : (⟨S7, .i32⟩ : BufTy).Contents (Elt F) → (⟨S7, .i32⟩ : BufTy).Contents (Elt F) → (⟨S7, .i32⟩ : BufTy).Contents (Elt F)),
    StableHlo.unary main_v1088 main_v1089 (negi : (⟨S7, .i32⟩ : BufTy).Contents (Elt F) → (⟨S7, .i32⟩ : BufTy).Contents (Elt F)),
    StableHlo.unary main_v1078 main_v1090 (broadcastInDim S7 ![] bcast_S_S7 : (⟨S_, .i32⟩ : BufTy).Contents (Elt F) → (⟨S7, .i32⟩ : BufTy).Contents (Elt F)),
    StableHlo.binary main_v1089 main_v1090 main_v1091 (muli : (⟨S7, .i32⟩ : BufTy).Contents (Elt F) → (⟨S7, .i32⟩ : BufTy).Contents (Elt F) → (⟨S7, .i32⟩ : BufTy).Contents (Elt F)),
    StableHlo.nullary main_c_138 (constantI S_ 32 7#32) ]
/-- The buffers those operations write, in order. -/
abbrev ops41_W : List (Ref sig .tc) :=
  [main_cst_135, main_v1055, main_v1056, main_v1057, main_v1058, main_v1059, main_v1060, main_v1061, main_v1062, main_v1063, main_v1064, main_v1065, main_v1066, main_v1067, main_v1068, main_v1069, main_v1070, main_v1071, main_v1072, main_v1073, main_v1074, main_v1075, main_v1076, main_v1077, main_v1078, main_v1079, main_v1080, main_v1081, main_v1082, main_v1083, main_c_136, main_call80_v0, main_call80_v1, main_call80_v2, main_call80_v3, main_call80_v4, main_call80_v5, main_call80_v6, main_call80_v7, main_call80_v8, main_call80_c, main_call80_v9, main_call80_v10, main_call80_v11, main_call80_c_0, main_call80_v12, main_call80_v13, main_v1084, main_v1085, main_v1086, main_c_137, main_v1087, main_v1088, main_v1089, main_v1090, main_v1091, main_c_138]
/-- Each operation writes its own result buffer and nothing else. -/
theorem ops41_writes : (ops41 : List (HloOp τ sig (Elt F))).Forall fun op => op.writes ⊆ (ops41_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2159 to 2206 of the host part, in order. -/
abbrev ops42 : List (HloOp τ sig (Elt F)) :=
  [ StableHlo.TRef.unary (.of main_c_138 : StableHlo.TRef sig ⟨S_, .i32⟩) (.of main_call81_v0 : StableHlo.TRef sig ⟨S_, .i32⟩) id,
    StableHlo.TRef.unary (.of main_call81_v0 : StableHlo.TRef sig ⟨S_, .i32⟩) (.of main_call81_v1 : StableHlo.TRef sig ⟨S7, .i32⟩) (broadcastInDim S7 ![] bcast_S_S7),
    StableHlo.TRef.binary (.of main_v1091 : StableHlo.TRef sig ⟨S7, .i32⟩) (.of main_call81_v1 : StableHlo.TRef sig ⟨S7, .i32⟩) (.of main_call81_v2 : StableHlo.TRef sig ⟨S7, .i32⟩) Host.divsi,
    StableHlo.TRef.unary (.of main_v1091 : StableHlo.TRef sig ⟨S7, .i32⟩) (.of main_call81_v3 : StableHlo.TRef sig ⟨S7, .i32⟩) signi,
    StableHlo.TRef.unary (.of main_call81_v0 : StableHlo.TRef sig ⟨S_, .i32⟩) (.of main_call81_v4 : StableHlo.TRef sig ⟨S_, .i32⟩) signi,
    StableHlo.TRef.unary (.of main_call81_v4 : StableHlo.TRef sig ⟨S_, .i32⟩) (.of main_call81_v5 : StableHlo.TRef sig ⟨S7, .i32⟩) (broadcastInDim S7 ![] bcast_S_S7),
    StableHlo.TRef.binary (.of main_call81_v3 : StableHlo.TRef sig ⟨S7, .i32⟩) (.of main_call81_v5 : StableHlo.TRef sig ⟨S7, .i32⟩) (.of main_call81_v6 : StableHlo.TRef sig ⟨S7, .i1⟩) (cmpi .ne),
    StableHlo.TRef.unary (.of main_call81_v0 : StableHlo.TRef sig ⟨S_, .i32⟩) (.of main_call81_v7 : StableHlo.TRef sig ⟨S7, .i32⟩) (broadcastInDim S7 ![] bcast_S_S7),
    StableHlo.TRef.binary (.of main_v1091 : StableHlo.TRef sig ⟨S7, .i32⟩) (.of main_call81_v7 : StableHlo.TRef sig ⟨S7, .i32⟩) (.of main_call81_v8 : StableHlo.TRef sig ⟨S7, .i32⟩) Host.remsi,
    StableHlo.TRef.nullary (.of main_call81_c : StableHlo.TRef sig ⟨S_, .i32⟩) (constantI S_ 32 0#32),
    StableHlo.TRef.unary (.of main_call81_c : StableHlo.TRef sig ⟨S_, .i32⟩) (.of main_call81_v9 : StableHlo.TRef sig ⟨S7, .i32⟩) (broadcastInDim S7 ![] bcast_S_S7),
    StableHlo.TRef.binary (.of main_call81_v8 : StableHlo.TRef sig ⟨S7, .i32⟩) (.of main_call81_v9 : StableHlo.TRef sig ⟨S7, .i32⟩) (.of main_call81_v10 : StableHlo.TRef sig ⟨S7, .i1⟩) (cmpi .ne),
    StableHlo.TRef.binary (.of main_call81_v6 : StableHlo.TRef sig ⟨S7, .i1⟩) (.of main_call81_v10 : StableHlo.TRef sig ⟨S7, .i1⟩) (.of main_call81_v11 : StableHlo.TRef sig ⟨S7, .i1⟩) andi,
    StableHlo.TRef.nullary (.of main_call81_c_0 : StableHlo.TRef sig ⟨S_, .i32⟩) (constantI S_ 32 1#32),
    StableHlo.TRef.unary (.of main_call81_c_0 : StableHlo.TRef sig ⟨S_, .i32⟩) (.of main_call81_v12 : StableHlo.TRef sig ⟨S7, .i32⟩) (broadcastInDim S7 ![] bcast_S_S7),
    StableHlo.TRef.binary (.of main_call81_v2 : StableHlo.TRef sig ⟨S7, .i32⟩) (.of main_call81_v12 : StableHlo.TRef sig ⟨S7, .i32⟩) (.of main_call81_v13 : StableHlo.TRef sig ⟨S7, .i32⟩) subi,
    StableHlo.TRef.ternary (.of main_call81_v11 : StableHlo.TRef sig ⟨S7, .i1⟩) (.of main_call81_v13 : StableHlo.TRef sig ⟨S7, .i32⟩) (.of main_call81_v2 : StableHlo.TRef sig ⟨S7, .i32⟩) (.of main_v1092 : StableHlo.TRef sig ⟨S7, .i32⟩) select,
    StableHlo.unary main_v1062 main_v1093 (broadcastInDim S7 ![] bcast_S_S7 : (⟨S_, .i32⟩ : BufTy).Contents (Elt F) → (⟨S7, .i32⟩ : BufTy).Contents (Elt F)),
    StableHlo.binary main_v1093 main_v1092 main_v1094 (subi : (⟨S7, .i32⟩ : BufTy).Contents (Elt F) → (⟨S7, .i32⟩ : BufTy).Contents (Elt F) → (⟨S7, .i32⟩ : BufTy).Contents (Elt F)),
    StableHlo.unary main_v1079 main_v1095 (broadcastInDim S7 ![] bcast_S_S7 : (⟨S_, .i32⟩ : BufTy).Contents (Elt F) → (⟨S7, .i32⟩ : BufTy).Contents (Elt F)),
    StableHlo.binary main_v1081 main_v1095 main_v1096 (muli : (⟨S7, .i32⟩ : BufTy).Contents (Elt F) → (⟨S7, .i32⟩ : BufTy).Contents (Elt F) → (⟨S7, .i32⟩ : BufTy).Contents (Elt F)),
    StableHlo.nullary main_c_139 (constantI S_ 32 7#32),
    StableHlo.TRef.unary (.of main_c_139 : StableHlo.TRef sig ⟨S_, .i32⟩) (.of main_call82_v0 : StableHlo.TRef sig ⟨S_, .i32⟩) id,
    StableHlo.TRef.unary (.of main_call82_v0 : StableHlo.TRef sig ⟨S_, .i32⟩) (.of main_call82_v1 : StableHlo.TRef sig ⟨S7, .i32⟩) (broadcastInDim S7 ![] bcast_S_S7),
    StableHlo.TRef.binary (.of main_v1096 : StableHlo.TRef sig ⟨S7, .i32⟩) (.of main_call82_v1 : StableHlo.TRef sig ⟨S7, .i32⟩) (.of main_call82_v2 : StableHlo.TRef sig ⟨S7, .i32⟩) Host.divsi,
    StableHlo.TRef.unary (.of main_v1096 : StableHlo.TRef sig ⟨S7, .i32⟩) (.of main_call82_v3 : StableHlo.TRef sig ⟨S7, .i32⟩) signi,
    StableHlo.TRef.unary (.of main_call82_v0 : StableHlo.TRef sig ⟨S_, .i32⟩) (.of main_call82_v4 : StableHlo.TRef sig ⟨S_, .i32⟩) signi,
    StableHlo.TRef.unary (.of main_call82_v4 : StableHlo.TRef sig ⟨S_, .i32⟩) (.of main_call82_v5 : StableHlo.TRef sig ⟨S7, .i32⟩) (broadcastInDim S7 ![] bcast_S_S7),
    StableHlo.TRef.binary (.of main_call82_v3 : StableHlo.TRef sig ⟨S7, .i32⟩) (.of main_call82_v5 : StableHlo.TRef sig ⟨S7, .i32⟩) (.of main_call82_v6 : StableHlo.TRef sig ⟨S7, .i1⟩) (cmpi .ne),
    StableHlo.TRef.unary (.of main_call82_v0 : StableHlo.TRef sig ⟨S_, .i32⟩) (.of main_call82_v7 : StableHlo.TRef sig ⟨S7, .i32⟩) (broadcastInDim S7 ![] bcast_S_S7),
    StableHlo.TRef.binary (.of main_v1096 : StableHlo.TRef sig ⟨S7, .i32⟩) (.of main_call82_v7 : StableHlo.TRef sig ⟨S7, .i32⟩) (.of main_call82_v8 : StableHlo.TRef sig ⟨S7, .i32⟩) Host.remsi,
    StableHlo.TRef.nullary (.of main_call82_c : StableHlo.TRef sig ⟨S_, .i32⟩) (constantI S_ 32 0#32),
    StableHlo.TRef.unary (.of main_call82_c : StableHlo.TRef sig ⟨S_, .i32⟩) (.of main_call82_v9 : StableHlo.TRef sig ⟨S7, .i32⟩) (broadcastInDim S7 ![] bcast_S_S7),
    StableHlo.TRef.binary (.of main_call82_v8 : StableHlo.TRef sig ⟨S7, .i32⟩) (.of main_call82_v9 : StableHlo.TRef sig ⟨S7, .i32⟩) (.of main_call82_v10 : StableHlo.TRef sig ⟨S7, .i1⟩) (cmpi .ne),
    StableHlo.TRef.binary (.of main_call82_v6 : StableHlo.TRef sig ⟨S7, .i1⟩) (.of main_call82_v10 : StableHlo.TRef sig ⟨S7, .i1⟩) (.of main_call82_v11 : StableHlo.TRef sig ⟨S7, .i1⟩) andi,
    StableHlo.TRef.nullary (.of main_call82_c_0 : StableHlo.TRef sig ⟨S_, .i32⟩) (constantI S_ 32 1#32),
    StableHlo.TRef.unary (.of main_call82_c_0 : StableHlo.TRef sig ⟨S_, .i32⟩) (.of main_call82_v12 : StableHlo.TRef sig ⟨S7, .i32⟩) (broadcastInDim S7 ![] bcast_S_S7),
    StableHlo.TRef.binary (.of main_call82_v2 : StableHlo.TRef sig ⟨S7, .i32⟩) (.of main_call82_v12 : StableHlo.TRef sig ⟨S7, .i32⟩) (.of main_call82_v13 : StableHlo.TRef sig ⟨S7, .i32⟩) subi,
    StableHlo.TRef.ternary (.of main_call82_v11 : StableHlo.TRef sig ⟨S7, .i1⟩) (.of main_call82_v13 : StableHlo.TRef sig ⟨S7, .i32⟩) (.of main_call82_v2 : StableHlo.TRef sig ⟨S7, .i32⟩) (.of main_v1097 : StableHlo.TRef sig ⟨S7, .i32⟩) select,
    StableHlo.unary main_v1072 main_v1098 (broadcastInDim S7 ![] bcast_S_S7 : (⟨S_, .i32⟩ : BufTy).Contents (Elt F) → (⟨S7, .i32⟩ : BufTy).Contents (Elt F)),
    StableHlo.binary main_v1098 main_v1097 main_v1099 (addi : (⟨S7, .i32⟩ : BufTy).Contents (Elt F) → (⟨S7, .i32⟩ : BufTy).Contents (Elt F) → (⟨S7, .i32⟩ : BufTy).Contents (Elt F)),
    StableHlo.nullary main_c_140 (constantI S_ 32 1#32),
    StableHlo.unary main_c_140 main_v1100 (broadcastInDim S7 ![] bcast_S_S7 : (⟨S_, .i32⟩ : BufTy).Contents (Elt F) → (⟨S7, .i32⟩ : BufTy).Contents (Elt F)),
    StableHlo.binary main_v1081 main_v1100 main_v1101 (addi : (⟨S7, .i32⟩ : BufTy).Contents (Elt F) → (⟨S7, .i32⟩ : BufTy).Contents (Elt F) → (⟨S7, .i32⟩ : BufTy).Contents (Elt F)),
    StableHlo.unary main_v1101 main_v1102 (negi : (⟨S7, .i32⟩ : BufTy).Contents (Elt F) → (⟨S7, .i32⟩ : BufTy).Contents (Elt F)),
    StableHlo.unary main_v1079 main_v1103 (broadcastInDim S7 ![] bcast_S_S7 : (⟨S_, .i32⟩ : BufTy).Contents (Elt F) → (⟨S7, .i32⟩ : BufTy).Contents (Elt F)),
    StableHlo.binary main_v1102 main_v1103 main_v1104 (muli : (⟨S7, .i32⟩ : BufTy).Contents (Elt F) → (⟨S7, .i32⟩ : BufTy).Contents (Elt F) → (⟨S7, .i32⟩ : BufTy).Contents (Elt F)),
    StableHlo.nullary main_c_141 (constantI S_ 32 7#32) ]
/-- The buffers those operations write, in order. -/
abbrev ops42_W : List (Ref sig .tc) :=
  [main_call81_v0, main_call81_v1, main_call81_v2, main_call81_v3, main_call81_v4, main_call81_v5, main_call81_v6, main_call81_v7, main_call81_v8, main_call81_c, main_call81_v9, main_call81_v10, main_call81_v11, main_call81_c_0, main_call81_v12, main_call81_v13, main_v1092, main_v1093, main_v1094, main_v1095, main_v1096, main_c_139, main_call82_v0, main_call82_v1, main_call82_v2, main_call82_v3, main_call82_v4, main_call82_v5, main_call82_v6, main_call82_v7, main_call82_v8, main_call82_c, main_call82_v9, main_call82_v10, main_call82_v11, main_call82_c_0, main_call82_v12, main_call82_v13, main_v1097, main_v1098, main_v1099, main_c_140, main_v1100, main_v1101, main_v1102, main_v1103, main_v1104, main_c_141]
/-- Each operation writes its own result buffer and nothing else. -/
theorem ops42_writes : (ops42 : List (HloOp τ sig (Elt F))).Forall fun op => op.writes ⊆ (ops42_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2207 to 2265 of the host part, in order. -/
abbrev ops43 : List (HloOp τ sig (Elt F)) :=
  [ StableHlo.TRef.unary (.of main_c_141 : StableHlo.TRef sig ⟨S_, .i32⟩) (.of main_call83_v0 : StableHlo.TRef sig ⟨S_, .i32⟩) id,
    StableHlo.TRef.unary (.of main_call83_v0 : StableHlo.TRef sig ⟨S_, .i32⟩) (.of main_call83_v1 : StableHlo.TRef sig ⟨S7, .i32⟩) (broadcastInDim S7 ![] bcast_S_S7),
    StableHlo.TRef.binary (.of main_v1104 : StableHlo.TRef sig ⟨S7, .i32⟩) (.of main_call83_v1 : StableHlo.TRef sig ⟨S7, .i32⟩) (.of main_call83_v2 : StableHlo.TRef sig ⟨S7, .i32⟩) Host.divsi,
    StableHlo.TRef.unary (.of main_v1104 : StableHlo.TRef sig ⟨S7, .i32⟩) (.of main_call83_v3 : StableHlo.TRef sig ⟨S7, .i32⟩) signi,
    StableHlo.TRef.unary (.of main_call83_v0 : StableHlo.TRef sig ⟨S_, .i32⟩) (.of main_call83_v4 : StableHlo.TRef sig ⟨S_, .i32⟩) signi,
    StableHlo.TRef.unary (.of main_call83_v4 : StableHlo.TRef sig ⟨S_, .i32⟩) (.of main_call83_v5 : StableHlo.TRef sig ⟨S7, .i32⟩) (broadcastInDim S7 ![] bcast_S_S7),
    StableHlo.TRef.binary (.of main_call83_v3 : StableHlo.TRef sig ⟨S7, .i32⟩) (.of main_call83_v5 : StableHlo.TRef sig ⟨S7, .i32⟩) (.of main_call83_v6 : StableHlo.TRef sig ⟨S7, .i1⟩) (cmpi .ne),
    StableHlo.TRef.unary (.of main_call83_v0 : StableHlo.TRef sig ⟨S_, .i32⟩) (.of main_call83_v7 : StableHlo.TRef sig ⟨S7, .i32⟩) (broadcastInDim S7 ![] bcast_S_S7),
    StableHlo.TRef.binary (.of main_v1104 : StableHlo.TRef sig ⟨S7, .i32⟩) (.of main_call83_v7 : StableHlo.TRef sig ⟨S7, .i32⟩) (.of main_call83_v8 : StableHlo.TRef sig ⟨S7, .i32⟩) Host.remsi,
    StableHlo.TRef.nullary (.of main_call83_c : StableHlo.TRef sig ⟨S_, .i32⟩) (constantI S_ 32 0#32),
    StableHlo.TRef.unary (.of main_call83_c : StableHlo.TRef sig ⟨S_, .i32⟩) (.of main_call83_v9 : StableHlo.TRef sig ⟨S7, .i32⟩) (broadcastInDim S7 ![] bcast_S_S7),
    StableHlo.TRef.binary (.of main_call83_v8 : StableHlo.TRef sig ⟨S7, .i32⟩) (.of main_call83_v9 : StableHlo.TRef sig ⟨S7, .i32⟩) (.of main_call83_v10 : StableHlo.TRef sig ⟨S7, .i1⟩) (cmpi .ne),
    StableHlo.TRef.binary (.of main_call83_v6 : StableHlo.TRef sig ⟨S7, .i1⟩) (.of main_call83_v10 : StableHlo.TRef sig ⟨S7, .i1⟩) (.of main_call83_v11 : StableHlo.TRef sig ⟨S7, .i1⟩) andi,
    StableHlo.TRef.nullary (.of main_call83_c_0 : StableHlo.TRef sig ⟨S_, .i32⟩) (constantI S_ 32 1#32),
    StableHlo.TRef.unary (.of main_call83_c_0 : StableHlo.TRef sig ⟨S_, .i32⟩) (.of main_call83_v12 : StableHlo.TRef sig ⟨S7, .i32⟩) (broadcastInDim S7 ![] bcast_S_S7),
    StableHlo.TRef.binary (.of main_call83_v2 : StableHlo.TRef sig ⟨S7, .i32⟩) (.of main_call83_v12 : StableHlo.TRef sig ⟨S7, .i32⟩) (.of main_call83_v13 : StableHlo.TRef sig ⟨S7, .i32⟩) subi,
    StableHlo.TRef.ternary (.of main_call83_v11 : StableHlo.TRef sig ⟨S7, .i1⟩) (.of main_call83_v13 : StableHlo.TRef sig ⟨S7, .i32⟩) (.of main_call83_v2 : StableHlo.TRef sig ⟨S7, .i32⟩) (.of main_v1105 : StableHlo.TRef sig ⟨S7, .i32⟩) select,
    StableHlo.unary main_v1072 main_v1106 (broadcastInDim S7 ![] bcast_S_S7 : (⟨S_, .i32⟩ : BufTy).Contents (Elt F) → (⟨S7, .i32⟩ : BufTy).Contents (Elt F)),
    StableHlo.binary main_v1106 main_v1105 main_v1107 (subi : (⟨S7, .i32⟩ : BufTy).Contents (Elt F) → (⟨S7, .i32⟩ : BufTy).Contents (Elt F) → (⟨S7, .i32⟩ : BufTy).Contents (Elt F)),
    StableHlo.nullary main_v1108 (iotaInDim S64 32 0),
    StableHlo.nullary main_v1109 (iotaInDim S64 32 0),
    StableHlo.unary main_v1108 main_v1110 (broadcastInDim S1x64 ![1] bcast_S64_S1x64_1 : (⟨S64, .i32⟩ : BufTy).Contents (Elt F) → (⟨S1x64, .i32⟩ : BufTy).Contents (Elt F)),
    StableHlo.unary main_v1086 main_v1111 (broadcastInDim S7x1 ![0] bcast_S7_S7x1_0 : (⟨S7, .i32⟩ : BufTy).Contents (Elt F) → (⟨S7x1, .i32⟩ : BufTy).Contents (Elt F)),
    StableHlo.unary main_v1110 main_v1112 (broadcastInDim S7x64 ![0, 1] bcast_S1x64_S7x64_0_1 : (⟨S1x64, .i32⟩ : BufTy).Contents (Elt F) → (⟨S7x64, .i32⟩ : BufTy).Contents (Elt F)),
    StableHlo.unary main_v1111 main_v1113 (broadcastInDim S7x64 ![0, 1] bcast_S7x1_S7x64_0_1 : (⟨S7x1, .i32⟩ : BufTy).Contents (Elt F) → (⟨S7x64, .i32⟩ : BufTy).Contents (Elt F)),
    StableHlo.binary main_v1112 main_v1113 main_v1114 (cmpi .sge : (⟨S7x64, .i32⟩ : BufTy).Contents (Elt F) → (⟨S7x64, .i32⟩ : BufTy).Contents (Elt F) → (⟨S7x64, .i1⟩ : BufTy).Contents (Elt F)),
    StableHlo.unary main_v1108 main_v1115 (broadcastInDim S1x64 ![1] bcast_S64_S1x64_1 : (⟨S64, .i32⟩ : BufTy).Contents (Elt F) → (⟨S1x64, .i32⟩ : BufTy).Contents (Elt F)),
    StableHlo.unary main_v1094 main_v1116 (broadcastInDim S7x1 ![0] bcast_S7_S7x1_0 : (⟨S7, .i32⟩ : BufTy).Contents (Elt F) → (⟨S7x1, .i32⟩ : BufTy).Contents (Elt F)),
    StableHlo.unary main_v1115 main_v1117 (broadcastInDim S7x64 ![0, 1] bcast_S1x64_S7x64_0_1 : (⟨S1x64, .i32⟩ : BufTy).Contents (Elt F) → (⟨S7x64, .i32⟩ : BufTy).Contents (Elt F)),
    StableHlo.unary main_v1116 main_v1118 (broadcastInDim S7x64 ![0, 1] bcast_S7x1_S7x64_0_1 : (⟨S7x1, .i32⟩ : BufTy).Contents (Elt F) → (⟨S7x64, .i32⟩ : BufTy).Contents (Elt F)),
    StableHlo.binary main_v1117 main_v1118 main_v1119 (cmpi .slt : (⟨S7x64, .i32⟩ : BufTy).Contents (Elt F) → (⟨S7x64, .i32⟩ : BufTy).Contents (Elt F) → (⟨S7x64, .i1⟩ : BufTy).Contents (Elt F)),
    StableHlo.binary main_v1114 main_v1119 main_v1120 (andi : (⟨S7x64, .i1⟩ : BufTy).Contents (Elt F) → (⟨S7x64, .i1⟩ : BufTy).Contents (Elt F) → (⟨S7x64, .i1⟩ : BufTy).Contents (Elt F)),
    StableHlo.unary main_v1109 main_v1121 (broadcastInDim S1x64 ![1] bcast_S64_S1x64_1 : (⟨S64, .i32⟩ : BufTy).Contents (Elt F) → (⟨S1x64, .i32⟩ : BufTy).Contents (Elt F)),
    StableHlo.unary main_v1099 main_v1122 (broadcastInDim S7x1 ![0] bcast_S7_S7x1_0 : (⟨S7, .i32⟩ : BufTy).Contents (Elt F) → (⟨S7x1, .i32⟩ : BufTy).Contents (Elt F)),
    StableHlo.unary main_v1121 main_v1123 (broadcastInDim S7x64 ![0, 1] bcast_S1x64_S7x64_0_1 : (⟨S1x64, .i32⟩ : BufTy).Contents (Elt F) → (⟨S7x64, .i32⟩ : BufTy).Contents (Elt F)),
    StableHlo.unary main_v1122 main_v1124 (broadcastInDim S7x64 ![0, 1] bcast_S7x1_S7x64_0_1 : (⟨S7x1, .i32⟩ : BufTy).Contents (Elt F) → (⟨S7x64, .i32⟩ : BufTy).Contents (Elt F)),
    StableHlo.binary main_v1123 main_v1124 main_v1125 (cmpi .sge : (⟨S7x64, .i32⟩ : BufTy).Contents (Elt F) → (⟨S7x64, .i32⟩ : BufTy).Contents (Elt F) → (⟨S7x64, .i1⟩ : BufTy).Contents (Elt F)),
    StableHlo.unary main_v1109 main_v1126 (broadcastInDim S1x64 ![1] bcast_S64_S1x64_1 : (⟨S64, .i32⟩ : BufTy).Contents (Elt F) → (⟨S1x64, .i32⟩ : BufTy).Contents (Elt F)),
    StableHlo.unary main_v1107 main_v1127 (broadcastInDim S7x1 ![0] bcast_S7_S7x1_0 : (⟨S7, .i32⟩ : BufTy).Contents (Elt F) → (⟨S7x1, .i32⟩ : BufTy).Contents (Elt F)),
    StableHlo.unary main_v1126 main_v1128 (broadcastInDim S7x64 ![0, 1] bcast_S1x64_S7x64_0_1 : (⟨S1x64, .i32⟩ : BufTy).Contents (Elt F) → (⟨S7x64, .i32⟩ : BufTy).Contents (Elt F)),
    StableHlo.unary main_v1127 main_v1129 (broadcastInDim S7x64 ![0, 1] bcast_S7x1_S7x64_0_1 : (⟨S7x1, .i32⟩ : BufTy).Contents (Elt F) → (⟨S7x64, .i32⟩ : BufTy).Contents (Elt F)),
    StableHlo.binary main_v1128 main_v1129 main_v1130 (cmpi .slt : (⟨S7x64, .i32⟩ : BufTy).Contents (Elt F) → (⟨S7x64, .i32⟩ : BufTy).Contents (Elt F) → (⟨S7x64, .i1⟩ : BufTy).Contents (Elt F)),
    StableHlo.binary main_v1125 main_v1130 main_v1131 (andi : (⟨S7x64, .i1⟩ : BufTy).Contents (Elt F) → (⟨S7x64, .i1⟩ : BufTy).Contents (Elt F) → (⟨S7x64, .i1⟩ : BufTy).Contents (Elt F)),
    StableHlo.unary main_v1120 main_v1132 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1133 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_142 (constant S_ .f32 0xFF800000#32),
    StableHlo.TRef.unary (.of main_v1132 : StableHlo.TRef sig ⟨S7x1x64x1, .i1⟩) (.of main_call84_v0 : StableHlo.TRef sig ⟨S7x512x64x64, .i1⟩) (broadcastInDim S7x512x64x64 ![0, 1, 2, 3] bcast_S7x1x64x1_S7x512x64x64_0_1_2_3),
    StableHlo.TRef.unary (.of main_v1133 : StableHlo.TRef sig ⟨S1x512x64x64, .f32⟩) (.of main_call84_v1 : StableHlo.TRef sig ⟨S7x512x64x64, .f32⟩) (broadcastInDim S7x512x64x64 ![0, 1, 2, 3] bcast_S1x512x64x64_S7x512x64x64_0_1_2_3),
    StableHlo.TRef.unary (.of main_cst_142 : StableHlo.TRef sig ⟨S_, .f32⟩) (.of main_call84_v2 : StableHlo.TRef sig ⟨S7x512x64x64, .f32⟩) (broadcastInDim S7x512x64x64 ![] bcast_S_S7x512x64x64),
    StableHlo.TRef.ternary (.of main_call84_v0 : StableHlo.TRef sig ⟨S7x512x64x64, .i1⟩) (.of main_call84_v1 : StableHlo.TRef sig ⟨S7x512x64x64, .f32⟩) (.of main_call84_v2 : StableHlo.TRef sig ⟨S7x512x64x64, .f32⟩) (.of main_v1134 : StableHlo.TRef sig ⟨S7x512x64x64, .f32⟩) select,
    StableHlo.nullary main_cst_143 (constant S_ .f32 0xFF800000#32),
    StableHlo.binary main_v1134 main_cst_143 main_v1135 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1131 main_v1136 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1135 main_v1137 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_144 (constant S_ .f32 0xFF800000#32),
    StableHlo.TRef.unary (.of main_v1136 : StableHlo.TRef sig ⟨S1x1x7x64, .i1⟩) (.of main_call85_v0 : StableHlo.TRef sig ⟨S7x512x7x64, .i1⟩) (broadcastInDim S7x512x7x64 ![0, 1, 2, 3] bcast_S1x1x7x64_S7x512x7x64_0_1_2_3),
    StableHlo.TRef.unary (.of main_v1137 : StableHlo.TRef sig ⟨S7x512x1x64, .f32⟩) (.of main_call85_v1 : StableHlo.TRef sig ⟨S7x512x7x64, .f32⟩) (broadcastInDim S7x512x7x64 ![0, 1, 2, 3] bcast_S7x512x1x64_S7x512x7x64_0_1_2_3),
    StableHlo.TRef.unary (.of main_cst_144 : StableHlo.TRef sig ⟨S_, .f32⟩) (.of main_call85_v2 : StableHlo.TRef sig ⟨S7x512x7x64, .f32⟩) (broadcastInDim S7x512x7x64 ![] bcast_S_S7x512x7x64),
    StableHlo.TRef.ternary (.of main_call85_v0 : StableHlo.TRef sig ⟨S7x512x7x64, .i1⟩) (.of main_call85_v1 : StableHlo.TRef sig ⟨S7x512x7x64, .f32⟩) (.of main_call85_v2 : StableHlo.TRef sig ⟨S7x512x7x64, .f32⟩) (.of main_v1138 : StableHlo.TRef sig ⟨S7x512x7x64, .f32⟩) select ]
/-- The buffers those operations write, in order. -/
abbrev ops43_W : List (Ref sig .tc) :=
  [main_call83_v0, main_call83_v1, main_call83_v2, main_call83_v3, main_call83_v4, main_call83_v5, main_call83_v6, main_call83_v7, main_call83_v8, main_call83_c, main_call83_v9, main_call83_v10, main_call83_v11, main_call83_c_0, main_call83_v12, main_call83_v13, main_v1105, main_v1106, main_v1107, main_v1108, main_v1109, main_v1110, main_v1111, main_v1112, main_v1113, main_v1114, main_v1115, main_v1116, main_v1117, main_v1118, main_v1119, main_v1120, main_v1121, main_v1122, main_v1123, main_v1124, main_v1125, main_v1126, main_v1127, main_v1128, main_v1129, main_v1130, main_v1131, main_v1132, main_v1133, main_cst_142, main_call84_v0, main_call84_v1, main_call84_v2, main_v1134, main_cst_143, main_v1135, main_v1136, main_v1137, main_cst_144, main_call85_v0, main_call85_v1, main_call85_v2, main_v1138]
/-- Each operation writes its own result buffer and nothing else. -/
theorem ops43_writes : (ops43 : List (HloOp τ sig (Elt F))).Forall fun op => op.writes ⊆ (ops43_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part6 : List (HloOp τ sig (Elt F)) :=
  ops38 ++ ops39 ++ ops40 ++ ops41 ++ ops42 ++ ops43
/-- The generated stretches 148 to 171, in order, are this part: the same operations, cut elsewhere. -/
theorem part6_is : ([hostOps0_148, hostOps0_149, hostOps0_150, hostOps0_151, hostOps0_152, hostOps0_153, hostOps0_154, hostOps0_155, hostOps0_156, hostOps0_157, hostOps0_158, hostOps0_159, hostOps0_160, hostOps0_161, hostOps0_162, hostOps0_163, hostOps0_164, hostOps0_165, hostOps0_166, hostOps0_167, hostOps0_168, hostOps0_169, hostOps0_170, hostOps0_171] : List (List (HloOp τ sig (Elt F)))).flatten = part6 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 1938 to 1994 of the host part, in order. -/
abbrev ops38 : List (HloOp τ sig (Elt F)) :=
  [ StableHlo.nullary main_cst_125 (constant S_ .f32 0xFF800000#32),
    StableHlo.binary main_v970 main_cst_125 main_v971 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v971 main_v972 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v972 main_v973 rfl shapeCasts_S512x7x7_S25088,
    StableHlo.unary main_v18 main_v974 ((extractStridedSlice S1x1 ![2, 1] · slices_S3x4_S1x1_2_1) : (⟨S3x4, .i32⟩ : BufTy).Contents (Elt F) → (⟨S1x1, .i32⟩ : BufTy).Contents (Elt F)),
    StableHlo.reshape main_v974 main_v975 rfl shapeCasts_S1x1_S_,
    StableHlo.unary main_v23 main_v976 ((extractStridedSlice S1x1 ![0, 1] · slices_S4x4_S1x1_0_1) : (⟨S4x4, .i32⟩ : BufTy).Contents (Elt F) → (⟨S1x1, .i32⟩ : BufTy).Contents (Elt F)),
    StableHlo.reshape main_v976 main_v977 rfl shapeCasts_S1x1_S_,
    StableHlo.binary main_v975 main_v977 main_v978 (minsi : (⟨S_, .i32⟩ : BufTy).Contents (Elt F) → (⟨S_, .i32⟩ : BufTy).Contents (Elt F) → (⟨S_, .i32⟩ : BufTy).Contents (Elt F)),
    StableHlo.unary main_v18 main_v979 ((extractStridedSlice S1x1 ![2, 3] · slices_S3x4_S1x1_2_3) : (⟨S3x4, .i32⟩ : BufTy).Contents (Elt F) → (⟨S1x1, .i32⟩ : BufTy).Contents (Elt F)),
    StableHlo.reshape main_v979 main_v980 rfl shapeCasts_S1x1_S_,
    StableHlo.unary main_v23 main_v981 ((extractStridedSlice S1x1 ![0, 3] · slices_S4x4_S1x1_0_3) : (⟨S4x4, .i32⟩ : BufTy).Contents (Elt F) → (⟨S1x1, .i32⟩ : BufTy).Contents (Elt F)),
    StableHlo.reshape main_v981 main_v982 rfl shapeCasts_S1x1_S_,
    StableHlo.binary main_v980 main_v982 main_v983 (maxsi : (⟨S_, .i32⟩ : BufTy).Contents (Elt F) → (⟨S_, .i32⟩ : BufTy).Contents (Elt F) → (⟨S_, .i32⟩ : BufTy).Contents (Elt F)),
    StableHlo.unary main_v18 main_v984 ((extractStridedSlice S1x1 ![2, 0] · slices_S3x4_S1x1_2_0) : (⟨S3x4, .i32⟩ : BufTy).Contents (Elt F) → (⟨S1x1, .i32⟩ : BufTy).Contents (Elt F)),
    StableHlo.reshape main_v984 main_v985 rfl shapeCasts_S1x1_S_,
    StableHlo.unary main_v23 main_v986 ((extractStridedSlice S1x1 ![0, 0] · slices_S4x4_S1x1_0_0) : (⟨S4x4, .i32⟩ : BufTy).Contents (Elt F) → (⟨S1x1, .i32⟩ : BufTy).Contents (Elt F)),
    StableHlo.reshape main_v986 main_v987 rfl shapeCasts_S1x1_S_,
    StableHlo.binary main_v985 main_v987 main_v988 (minsi : (⟨S_, .i32⟩ : BufTy).Contents (Elt F) → (⟨S_, .i32⟩ : BufTy).Contents (Elt F) → (⟨S_, .i32⟩ : BufTy).Contents (Elt F)),
    StableHlo.unary main_v18 main_v989 ((extractStridedSlice S1x1 ![2, 2] · slices_S3x4_S1x1_2_2) : (⟨S3x4, .i32⟩ : BufTy).Contents (Elt F) → (⟨S1x1, .i32⟩ : BufTy).Contents (Elt F)),
    StableHlo.reshape main_v989 main_v990 rfl shapeCasts_S1x1_S_,
    StableHlo.unary main_v23 main_v991 ((extractStridedSlice S1x1 ![0, 2] · slices_S4x4_S1x1_0_2) : (⟨S4x4, .i32⟩ : BufTy).Contents (Elt F) → (⟨S1x1, .i32⟩ : BufTy).Contents (Elt F)),
    StableHlo.reshape main_v991 main_v992 rfl shapeCasts_S1x1_S_,
    StableHlo.binary main_v990 main_v992 main_v993 (maxsi : (⟨S_, .i32⟩ : BufTy).Contents (Elt F) → (⟨S_, .i32⟩ : BufTy).Contents (Elt F) → (⟨S_, .i32⟩ : BufTy).Contents (Elt F)),
    StableHlo.binary main_v983 main_v978 main_v994 (subi : (⟨S_, .i32⟩ : BufTy).Contents (Elt F) → (⟨S_, .i32⟩ : BufTy).Contents (Elt F) → (⟨S_, .i32⟩ : BufTy).Contents (Elt F)),
    StableHlo.binary main_v993 main_v988 main_v995 (subi : (⟨S_, .i32⟩ : BufTy).Contents (Elt F) → (⟨S_, .i32⟩ : BufTy).Contents (Elt F) → (⟨S_, .i32⟩ : BufTy).Contents (Elt F)),
    StableHlo.nullary main_v996 (iotaInDim S7 32 0),
    StableHlo.nullary main_v997 (iotaInDim S7 32 0),
    StableHlo.unary main_v994 main_v998 (broadcastInDim S7 ![] bcast_S_S7 : (⟨S_, .i32⟩ : BufTy).Contents (Elt F) → (⟨S7, .i32⟩ : BufTy).Contents (Elt F)),
    StableHlo.binary main_v996 main_v998 main_v999 (muli : (⟨S7, .i32⟩ : BufTy).Contents (Elt F) → (⟨S7, .i32⟩ : BufTy).Contents (Elt F) → (⟨S7, .i32⟩ : BufTy).Contents (Elt F)),
    StableHlo.nullary main_c_126 (constantI S_ 32 7#32),
    StableHlo.TRef.unary (.of main_c_126 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S7, .i32⟩) (broadcastInDim S7 ![] bcast_S_S7),
    StableHlo.TRef.binary (.of main_v999 : StableHlo.TRef sig ⟨S7, .i32⟩) (.of main_call74_v1 : StableHlo.TRef sig ⟨S7, .i32⟩) (.of main_call74_v2 : StableHlo.TRef sig ⟨S7, .i32⟩) Host.divsi,
    StableHlo.TRef.unary (.of main_v999 : StableHlo.TRef sig ⟨S7, .i32⟩) (.of main_call74_v3 : StableHlo.TRef sig ⟨S7, .i32⟩) signi,
    StableHlo.TRef.unary (.of main_call74_v0 : StableHlo.TRef sig ⟨S_, .i32⟩) (.of main_call74_v4 : StableHlo.TRef sig ⟨S_, .i32⟩) signi,
    StableHlo.TRef.unary (.of main_call74_v4 : StableHlo.TRef sig ⟨S_, .i32⟩) (.of main_call74_v5 : StableHlo.TRef sig ⟨S7, .i32⟩) (broadcastInDim S7 ![] bcast_S_S7),
    StableHlo.TRef.binary (.of main_call74_v3 : StableHlo.TRef sig ⟨S7, .i32⟩) (.of main_call74_v5 : StableHlo.TRef sig ⟨S7, .i32⟩) (.of main_call74_v6 : StableHlo.TRef sig ⟨S7, .i1⟩) (cmpi .ne),
    StableHlo.TRef.unary (.of main_call74_v0 : StableHlo.TRef sig ⟨S_, .i32⟩) (.of main_call74_v7 : StableHlo.TRef sig ⟨S7, .i32⟩) (broadcastInDim S7 ![] bcast_S_S7),
    StableHlo.TRef.binary (.of main_v999 : StableHlo.TRef sig ⟨S7, .i32⟩) (.of main_call74_v7 : StableHlo.TRef sig ⟨S7, .i32⟩) (.of main_call74_v8 : StableHlo.TRef sig ⟨S7, .i32⟩) Host.remsi,
    StableHlo.TRef.nullary (.of main_call74_c : StableHlo.TRef sig ⟨S_, .i32⟩) (constantI S_ 32 0#32),
    StableHlo.TRef.unary (.of main_call74_c : StableHlo.TRef sig ⟨S_, .i32⟩) (.of main_call74_v9 : StableHlo.TRef sig ⟨S7, .i32⟩) (broadcastInDim S7 ![] bcast_S_S7),
    StableHlo.TRef.binary (.of main_call74_v8 : StableHlo.TRef sig ⟨S7, .i32⟩) (.of main_call74_v9 : StableHlo.TRef sig ⟨S7, .i32⟩) (.of main_call74_v10 : StableHlo.TRef sig ⟨S7, .i1⟩) (cmpi .ne),
    StableHlo.TRef.binary (.of main_call74_v6 : StableHlo.TRef sig ⟨S7, .i1⟩) (.of main_call74_v10 : StableHlo.TRef sig ⟨S7, .i1⟩) (.of main_call74_v11 : StableHlo.TRef sig ⟨S7, .i1⟩) andi,
    StableHlo.TRef.nullary (.of main_call74_c_0 : StableHlo.TRef sig ⟨S_, .i32⟩) (constantI S_ 32 1#32),
    StableHlo.TRef.unary (.of main_call74_c_0 : StableHlo.TRef sig ⟨S_, .i32⟩) (.of main_call74_v12 : StableHlo.TRef sig ⟨S7, .i32⟩) (broadcastInDim S7 ![] bcast_S_S7),
    StableHlo.TRef.binary (.of main_call74_v2 : StableHlo.TRef sig ⟨S7, .i32⟩) (.of main_call74_v12 : StableHlo.TRef sig ⟨S7, .i32⟩) (.of main_call74_v13 : StableHlo.TRef sig ⟨S7, .i32⟩) subi,
    StableHlo.TRef.ternary (.of main_call74_v11 : StableHlo.TRef sig ⟨S7, .i1⟩) (.of main_call74_v13 : StableHlo.TRef sig ⟨S7, .i32⟩) (.of main_call74_v2 : StableHlo.TRef sig ⟨S7, .i32⟩) (.of main_v1000 : StableHlo.TRef sig ⟨S7, .i32⟩) select,
    StableHlo.unary main_v978 main_v1001 (broadcastInDim S7 ![] bcast_S_S7 : (⟨S_, .i32⟩ : BufTy).Contents (Elt F) → (⟨S7, .i32⟩ : BufTy).Contents (Elt F)),
    StableHlo.binary main_v1001 main_v1000 main_v1002 (addi : (⟨S7, .i32⟩ : BufTy).Contents (Elt F) → (⟨S7, .i32⟩ : BufTy).Contents (Elt F) → (⟨S7, .i32⟩ : BufTy).Contents (Elt F)),
    StableHlo.nullary main_c_127 (constantI S_ 32 1#32),
    StableHlo.unary main_c_127 main_v1003 (broadcastInDim S7 ![] bcast_S_S7 : (⟨S_, .i32⟩ : BufTy).Contents (Elt F) → (⟨S7, .i32⟩ : BufTy).Contents (Elt F)),
    StableHlo.binary main_v996 main_v1003 main_v1004 (addi : (⟨S7, .i32⟩ : BufTy).Contents (Elt F) → (⟨S7, .i32⟩ : BufTy).Contents (Elt F) → (⟨S7, .i32⟩ : BufTy).Contents (Elt F)),
    StableHlo.unary main_v1004 main_v1005 (negi : (⟨S7, .i32⟩ : BufTy).Contents (Elt F) → (⟨S7, .i32⟩ : BufTy).Contents (Elt F)),
    StableHlo.unary main_v994 main_v1006 (broadcastInDim S7 ![] bcast_S_S7 : (⟨S_, .i32⟩ : BufTy).Contents (Elt F) → (⟨S7, .i32⟩ : BufTy).Contents (Elt F)),
    StableHlo.binary main_v1005 main_v1006 main_v1007 (muli : (⟨S7, .i32⟩ : BufTy).Contents (Elt F) → (⟨S7, .i32⟩ : BufTy).Contents (Elt F) → (⟨S7, .i32⟩ : BufTy).Contents (Elt F)),
    StableHlo.nullary main_c_128 (constantI S_ 32 7#32) ]
/-- The buffers those operations write, in order. -/
abbrev ops38_W : List (Ref sig .tc) :=
  [main_cst_125, main_v971, main_v972, main_v973, main_v974, main_v975, main_v976, main_v977, main_v978, main_v979, main_v980, main_v981, main_v982, main_v983, main_v984, main_v985, main_v986, main_v987, main_v988, main_v989, main_v990, main_v991, main_v992, main_v993, main_v994, main_v995, main_v996, main_v997, main_v998, main_v999, main_c_126, main_call74_v0, main_call74_v1, main_call74_v2, main_call74_v3, main_call74_v4, main_call74_v5, main_call74_v6, main_call74_v7, main_call74_v8, main_call74_c, main_call74_v9, main_call74_v10, main_call74_v11, main_call74_c_0, main_call74_v12, main_call74_v13, main_v1000, main_v1001, main_v1002, main_c_127, main_v1003, main_v1004, main_v1005, main_v1006, main_v1007, main_c_128]
/-- Each operation writes its own result buffer and nothing else. -/
theorem ops38_writes : (ops38 : List (HloOp τ sig (Elt F))).Forall fun op => op.writes ⊆ (ops38_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 1995 to 2042 of the host part, in order. -/
abbrev ops39 : List (HloOp τ sig (Elt F)) :=
  [ StableHlo.TRef.unary (.of main_c_128 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S7, .i32⟩) (broadcastInDim S7 ![] bcast_S_S7),
    StableHlo.TRef.binary (.of main_v1007 : StableHlo.TRef sig ⟨S7, .i32⟩) (.of main_call75_v1 : StableHlo.TRef sig ⟨S7, .i32⟩) (.of main_call75_v2 : StableHlo.TRef sig ⟨S7, .i32⟩) Host.divsi,
    StableHlo.TRef.unary (.of main_v1007 : StableHlo.TRef sig ⟨S7, .i32⟩) (.of main_call75_v3 : StableHlo.TRef sig ⟨S7, .i32⟩) signi,
    StableHlo.TRef.unary (.of main_call75_v0 : StableHlo.TRef sig ⟨S_, .i32⟩) (.of main_call75_v4 : StableHlo.TRef sig ⟨S_, .i32⟩) signi,
    StableHlo.TRef.unary (.of main_call75_v4 : StableHlo.TRef sig ⟨S_, .i32⟩) (.of main_call75_v5 : StableHlo.TRef sig ⟨S7, .i32⟩) (broadcastInDim S7 ![] bcast_S_S7),
    StableHlo.TRef.binary (.of main_call75_v3 : StableHlo.TRef sig ⟨S7, .i32⟩) (.of main_call75_v5 : StableHlo.TRef sig ⟨S7, .i32⟩) (.of main_call75_v6 : StableHlo.TRef sig ⟨S7, .i1⟩) (cmpi .ne),
    StableHlo.TRef.unary (.of main_call75_v0 : StableHlo.TRef sig ⟨S_, .i32⟩) (.of main_call75_v7 : StableHlo.TRef sig ⟨S7, .i32⟩) (broadcastInDim S7 ![] bcast_S_S7),
    StableHlo.TRef.binary (.of main_v1007 : StableHlo.TRef sig ⟨S7, .i32⟩) (.of main_call75_v7 : StableHlo.TRef sig ⟨S7, .i32⟩) (.of main_call75_v8 : StableHlo.TRef sig ⟨S7, .i32⟩) Host.remsi,
    StableHlo.TRef.nullary (.of main_call75_c : StableHlo.TRef sig ⟨S_, .i32⟩) (constantI S_ 32 0#32),
    StableHlo.TRef.unary (.of main_call75_c : StableHlo.TRef sig ⟨S_, .i32⟩) (.of main_call75_v9 : StableHlo.TRef sig ⟨S7, .i32⟩) (broadcastInDim S7 ![] bcast_S_S7),
    StableHlo.TRef.binary (.of main_call75_v8 : StableHlo.TRef sig ⟨S7, .i32⟩) (.of main_call75_v9 : StableHlo.TRef sig ⟨S7, .i32⟩) (.of main_call75_v10 : StableHlo.TRef sig ⟨S7, .i1⟩) (cmpi .ne),
    StableHlo.TRef.binary (.of main_call75_v6 : StableHlo.TRef sig ⟨S7, .i1⟩) (.of main_call75_v10 : StableHlo.TRef sig ⟨S7, .i1⟩) (.of main_call75_v11 : StableHlo.TRef sig ⟨S7, .i1⟩) andi,
    StableHlo.TRef.nullary (.of main_call75_c_0 : StableHlo.TRef sig ⟨S_, .i32⟩) (constantI S_ 32 1#32),
    StableHlo.TRef.unary (.of main_call75_c_0 : StableHlo.TRef sig ⟨S_, .i32⟩) (.of main_call75_v12 : StableHlo.TRef sig ⟨S7, .i32⟩) (broadcastInDim S7 ![] bcast_S_S7),
    StableHlo.TRef.binary (.of main_call75_v2 : StableHlo.TRef sig ⟨S7, .i32⟩) (.of main_call75_v12 : StableHlo.TRef sig ⟨S7, .i32⟩) (.of main_call75_v13 : StableHlo.TRef sig ⟨S7, .i32⟩) subi,
    StableHlo.TRef.ternary (.of main_call75_v11 : StableHlo.TRef sig ⟨S7, .i1⟩) (.of main_call75_v13 : StableHlo.TRef sig ⟨S7, .i32⟩) (.of main_call75_v2 : StableHlo.TRef sig ⟨S7, .i32⟩) (.of main_v1008 : StableHlo.TRef sig ⟨S7, .i32⟩) select,
    StableHlo.unary main_v978 main_v1009 (broadcastInDim S7 ![] bcast_S_S7 : (⟨S_, .i32⟩ : BufTy).Contents (Elt F) → (⟨S7, .i32⟩ : BufTy).Contents (Elt F)),
    StableHlo.binary main_v1009 main_v1008 main_v1010 (subi : (⟨S7, .i32⟩ : BufTy).Contents (Elt F) → (⟨S7, .i32⟩ : BufTy).Contents (Elt F) → (⟨S7, .i32⟩ : BufTy).Contents (Elt F)),
    StableHlo.unary main_v995 main_v1011 (broadcastInDim S7 ![] bcast_S_S7 : (⟨S_, .i32⟩ : BufTy).Contents (Elt F) → (⟨S7, .i32⟩ : BufTy).Contents (Elt F)),
    StableHlo.binary main_v997 main_v1011 main_v1012 (muli : (⟨S7, .i32⟩ : BufTy).Contents (Elt F) → (⟨S7, .i32⟩ : BufTy).Contents (Elt F) → (⟨S7, .i32⟩ : BufTy).Contents (Elt F)),
    StableHlo.nullary main_c_129 (constantI S_ 32 7#32),
    StableHlo.TRef.unary (.of main_c_129 : StableHlo.TRef sig ⟨S_, .i32⟩) (.of main_call76_v0 : StableHlo.TRef sig ⟨S_, .i32⟩) id,
    StableHlo.TRef.unary (.of main_call76_v0 : StableHlo.TRef sig ⟨S_, .i32⟩) (.of main_call76_v1 : StableHlo.TRef sig ⟨S7, .i32⟩) (broadcastInDim S7 ![] bcast_S_S7),
    StableHlo.TRef.binary (.of main_v1012 : StableHlo.TRef sig ⟨S7, .i32⟩) (.of main_call76_v1 : StableHlo.TRef sig ⟨S7, .i32⟩) (.of main_call76_v2 : StableHlo.TRef sig ⟨S7, .i32⟩) Host.divsi,
    StableHlo.TRef.unary (.of main_v1012 : StableHlo.TRef sig ⟨S7, .i32⟩) (.of main_call76_v3 : StableHlo.TRef sig ⟨S7, .i32⟩) signi,
    StableHlo.TRef.unary (.of main_call76_v0 : StableHlo.TRef sig ⟨S_, .i32⟩) (.of main_call76_v4 : StableHlo.TRef sig ⟨S_, .i32⟩) signi,
    StableHlo.TRef.unary (.of main_call76_v4 : StableHlo.TRef sig ⟨S_, .i32⟩) (.of main_call76_v5 : StableHlo.TRef sig ⟨S7, .i32⟩) (broadcastInDim S7 ![] bcast_S_S7),
    StableHlo.TRef.binary (.of main_call76_v3 : StableHlo.TRef sig ⟨S7, .i32⟩) (.of main_call76_v5 : StableHlo.TRef sig ⟨S7, .i32⟩) (.of main_call76_v6 : StableHlo.TRef sig ⟨S7, .i1⟩) (cmpi .ne),
    StableHlo.TRef.unary (.of main_call76_v0 : StableHlo.TRef sig ⟨S_, .i32⟩) (.of main_call76_v7 : StableHlo.TRef sig ⟨S7, .i32⟩) (broadcastInDim S7 ![] bcast_S_S7),
    StableHlo.TRef.binary (.of main_v1012 : StableHlo.TRef sig ⟨S7, .i32⟩) (.of main_call76_v7 : StableHlo.TRef sig ⟨S7, .i32⟩) (.of main_call76_v8 : StableHlo.TRef sig ⟨S7, .i32⟩) Host.remsi,
    StableHlo.TRef.nullary (.of main_call76_c : StableHlo.TRef sig ⟨S_, .i32⟩) (constantI S_ 32 0#32),
    StableHlo.TRef.unary (.of main_call76_c : StableHlo.TRef sig ⟨S_, .i32⟩) (.of main_call76_v9 : StableHlo.TRef sig ⟨S7, .i32⟩) (broadcastInDim S7 ![] bcast_S_S7),
    StableHlo.TRef.binary (.of main_call76_v8 : StableHlo.TRef sig ⟨S7, .i32⟩) (.of main_call76_v9 : StableHlo.TRef sig ⟨S7, .i32⟩) (.of main_call76_v10 : StableHlo.TRef sig ⟨S7, .i1⟩) (cmpi .ne),
    StableHlo.TRef.binary (.of main_call76_v6 : StableHlo.TRef sig ⟨S7, .i1⟩) (.of main_call76_v10 : StableHlo.TRef sig ⟨S7, .i1⟩) (.of main_call76_v11 : StableHlo.TRef sig ⟨S7, .i1⟩) andi,
    StableHlo.TRef.nullary (.of main_call76_c_0 : StableHlo.TRef sig ⟨S_, .i32⟩) (constantI S_ 32 1#32),
    StableHlo.TRef.unary (.of main_call76_c_0 : StableHlo.TRef sig ⟨S_, .i32⟩) (.of main_call76_v12 : StableHlo.TRef sig ⟨S7, .i32⟩) (broadcastInDim S7 ![] bcast_S_S7),
    StableHlo.TRef.binary (.of main_call76_v2 : StableHlo.TRef sig ⟨S7, .i32⟩) (.of main_call76_v12 : StableHlo.TRef sig ⟨S7, .i32⟩) (.of main_call76_v13 : StableHlo.TRef sig ⟨S7, .i32⟩) subi,
    StableHlo.TRef.ternary (.of main_call76_v11 : StableHlo.TRef sig ⟨S7, .i1⟩) (.of main_call76_v13 : StableHlo.TRef sig ⟨S7, .i32⟩) (.of main_call76_v2 : StableHlo.TRef sig ⟨S7, .i32⟩) (.of main_v1013 : StableHlo.TRef sig ⟨S7, .i32⟩) select,
    StableHlo.unary main_v988 main_v1014 (broadcastInDim S7 ![] bcast_S_S7 : (⟨S_, .i32⟩ : BufTy).Contents (Elt F) → (⟨S7, .i32⟩ : BufTy).Contents (Elt F)),
    StableHlo.binary main_v1014 main_v1013 main_v1015 (addi : (⟨S7, .i32⟩ : BufTy).Contents (Elt F) → (⟨S7, .i32⟩ : BufTy).Contents (Elt F) → (⟨S7, .i32⟩ : BufTy).Contents (Elt F)),
    StableHlo.nullary main_c_130 (constantI S_ 32 1#32),
    StableHlo.unary main_c_130 main_v1016 (broadcastInDim S7 ![] bcast_S_S7 : (⟨S_, .i32⟩ : BufTy).Contents (Elt F) → (⟨S7, .i32⟩ : BufTy).Contents (Elt F)),
    StableHlo.binary main_v997 main_v1016 main_v1017 (addi : (⟨S7, .i32⟩ : BufTy).Contents (Elt F) → (⟨S7, .i32⟩ : BufTy).Contents (Elt F) → (⟨S7, .i32⟩ : BufTy).Contents (Elt F)),
    StableHlo.unary main_v1017 main_v1018 (negi : (⟨S7, .i32⟩ : BufTy).Contents (Elt F) → (⟨S7, .i32⟩ : BufTy).Contents (Elt F)),
    StableHlo.unary main_v995 main_v1019 (broadcastInDim S7 ![] bcast_S_S7 : (⟨S_, .i32⟩ : BufTy).Contents (Elt F) → (⟨S7, .i32⟩ : BufTy).Contents (Elt F)),
    StableHlo.binary main_v1018 main_v1019 main_v1020 (muli : (⟨S7, .i32⟩ : BufTy).Contents (Elt F) → (⟨S7, .i32⟩ : BufTy).Contents (Elt F) → (⟨S7, .i32⟩ : BufTy).Contents (Elt F)),
    StableHlo.nullary main_c_131 (constantI S_ 32 7#32) ]
/-- The buffers those operations write, in order. -/
abbrev ops39_W : List (Ref sig .tc) :=
  [main_call75_v0, main_call75_v1, main_call75_v2, main_call75_v3, main_call75_v4, main_call75_v5, main_call75_v6, main_call75_v7, main_call75_v8, main_call75_c, main_call75_v9, main_call75_v10, main_call75_v11, main_call75_c_0, main_call75_v12, main_call75_v13, main_v1008, main_v1009, main_v1010, main_v1011, main_v1012, main_c_129, main_call76_v0, main_call76_v1, main_call76_v2, main_call76_v3, main_call76_v4, main_call76_v5, main_call76_v6, main_call76_v7, main_call76_v8, main_call76_c, main_call76_v9, main_call76_v10, main_call76_v11, main_call76_c_0, main_call76_v12, main_call76_v13, main_v1013, main_v1014, main_v1015, main_c_130, main_v1016, main_v1017, main_v1018, main_v1019, main_v1020, main_c_131]
/-- Each operation writes its own result buffer and nothing else. -/
theorem ops39_writes : (ops39 : List (HloOp τ sig (Elt F))).Forall fun op => op.writes ⊆ (ops39_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2043 to 2101 of the host part, in order. -/
abbrev ops40 : List (HloOp τ sig (Elt F)) :=
  [ StableHlo.TRef.unary (.of main_c_131 : StableHlo.TRef sig ⟨S_, .i32⟩) (.of main_call77_v0 : StableHlo.TRef sig ⟨S_, .i32⟩) id,
    StableHlo.TRef.unary (.of main_call77_v0 : StableHlo.TRef sig ⟨S_, .i32⟩) (.of main_call77_v1 : StableHlo.TRef sig ⟨S7, .i32⟩) (broadcastInDim S7 ![] bcast_S_S7),
    StableHlo.TRef.binary (.of main_v1020 : StableHlo.TRef sig ⟨S7, .i32⟩) (.of main_call77_v1 : StableHlo.TRef sig ⟨S7, .i32⟩) (.of main_call77_v2 : StableHlo.TRef sig ⟨S7, .i32⟩) Host.divsi,
    StableHlo.TRef.unary (.of main_v1020 : StableHlo.TRef sig ⟨S7, .i32⟩) (.of main_call77_v3 : StableHlo.TRef sig ⟨S7, .i32⟩) signi,
    StableHlo.TRef.unary (.of main_call77_v0 : StableHlo.TRef sig ⟨S_, .i32⟩) (.of main_call77_v4 : StableHlo.TRef sig ⟨S_, .i32⟩) signi,
    StableHlo.TRef.unary (.of main_call77_v4 : StableHlo.TRef sig ⟨S_, .i32⟩) (.of main_call77_v5 : StableHlo.TRef sig ⟨S7, .i32⟩) (broadcastInDim S7 ![] bcast_S_S7),
    StableHlo.TRef.binary (.of main_call77_v3 : StableHlo.TRef sig ⟨S7, .i32⟩) (.of main_call77_v5 : StableHlo.TRef sig ⟨S7, .i32⟩) (.of main_call77_v6 : StableHlo.TRef sig ⟨S7, .i1⟩) (cmpi .ne),
    StableHlo.TRef.unary (.of main_call77_v0 : StableHlo.TRef sig ⟨S_, .i32⟩) (.of main_call77_v7 : StableHlo.TRef sig ⟨S7, .i32⟩) (broadcastInDim S7 ![] bcast_S_S7),
    StableHlo.TRef.binary (.of main_v1020 : StableHlo.TRef sig ⟨S7, .i32⟩) (.of main_call77_v7 : StableHlo.TRef sig ⟨S7, .i32⟩) (.of main_call77_v8 : StableHlo.TRef sig ⟨S7, .i32⟩) Host.remsi,
    StableHlo.TRef.nullary (.of main_call77_c : StableHlo.TRef sig ⟨S_, .i32⟩) (constantI S_ 32 0#32),
    StableHlo.TRef.unary (.of main_call77_c : StableHlo.TRef sig ⟨S_, .i32⟩) (.of main_call77_v9 : StableHlo.TRef sig ⟨S7, .i32⟩) (broadcastInDim S7 ![] bcast_S_S7),
    StableHlo.TRef.binary (.of main_call77_v8 : StableHlo.TRef sig ⟨S7, .i32⟩) (.of main_call77_v9 : StableHlo.TRef sig ⟨S7, .i32⟩) (.of main_call77_v10 : StableHlo.TRef sig ⟨S7, .i1⟩) (cmpi .ne),
    StableHlo.TRef.binary (.of main_call77_v6 : StableHlo.TRef sig ⟨S7, .i1⟩) (.of main_call77_v10 : StableHlo.TRef sig ⟨S7, .i1⟩) (.of main_call77_v11 : StableHlo.TRef sig ⟨S7, .i1⟩) andi,
    StableHlo.TRef.nullary (.of main_call77_c_0 : StableHlo.TRef sig ⟨S_, .i32⟩) (constantI S_ 32 1#32),
    StableHlo.TRef.unary (.of main_call77_c_0 : StableHlo.TRef sig ⟨S_, .i32⟩) (.of main_call77_v12 : StableHlo.TRef sig ⟨S7, .i32⟩) (broadcastInDim S7 ![] bcast_S_S7),
    StableHlo.TRef.binary (.of main_call77_v2 : StableHlo.TRef sig ⟨S7, .i32⟩) (.of main_call77_v12 : StableHlo.TRef sig ⟨S7, .i32⟩) (.of main_call77_v13 : StableHlo.TRef sig ⟨S7, .i32⟩) subi,
    StableHlo.TRef.ternary (.of main_call77_v11 : StableHlo.TRef sig ⟨S7, .i1⟩) (.of main_call77_v13 : StableHlo.TRef sig ⟨S7, .i32⟩) (.of main_call77_v2 : StableHlo.TRef sig ⟨S7, .i32⟩) (.of main_v1021 : StableHlo.TRef sig ⟨S7, .i32⟩) select,
    StableHlo.unary main_v988 main_v1022 (broadcastInDim S7 ![] bcast_S_S7 : (⟨S_, .i32⟩ : BufTy).Contents (Elt F) → (⟨S7, .i32⟩ : BufTy).Contents (Elt F)),
    StableHlo.binary main_v1022 main_v1021 main_v1023 (subi : (⟨S7, .i32⟩ : BufTy).Contents (Elt F) → (⟨S7, .i32⟩ : BufTy).Contents (Elt F) → (⟨S7, .i32⟩ : BufTy).Contents (Elt F)),
    StableHlo.nullary main_v1024 (iotaInDim S64 32 0),
    StableHlo.nullary main_v1025 (iotaInDim S64 32 0),
    StableHlo.unary main_v1024 main_v1026 (broadcastInDim S1x64 ![1] bcast_S64_S1x64_1 : (⟨S64, .i32⟩ : BufTy).Contents (Elt F) → (⟨S1x64, .i32⟩ : BufTy).Contents (Elt F)),
    StableHlo.unary main_v1002 main_v1027 (broadcastInDim S7x1 ![0] bcast_S7_S7x1_0 : (⟨S7, .i32⟩ : BufTy).Contents (Elt F) → (⟨S7x1, .i32⟩ : BufTy).Contents (Elt F)),
    StableHlo.unary main_v1026 main_v1028 (broadcastInDim S7x64 ![0, 1] bcast_S1x64_S7x64_0_1 : (⟨S1x64, .i32⟩ : BufTy).Contents (Elt F) → (⟨S7x64, .i32⟩ : BufTy).Contents (Elt F)),
    StableHlo.unary main_v1027 main_v1029 (broadcastInDim S7x64 ![0, 1] bcast_S7x1_S7x64_0_1 : (⟨S7x1, .i32⟩ : BufTy).Contents (Elt F) → (⟨S7x64, .i32⟩ : BufTy).Contents (Elt F)),
    StableHlo.binary main_v1028 main_v1029 main_v1030 (cmpi .sge : (⟨S7x64, .i32⟩ : BufTy).Contents (Elt F) → (⟨S7x64, .i32⟩ : BufTy).Contents (Elt F) → (⟨S7x64, .i1⟩ : BufTy).Contents (Elt F)),
    StableHlo.unary main_v1024 main_v1031 (broadcastInDim S1x64 ![1] bcast_S64_S1x64_1 : (⟨S64, .i32⟩ : BufTy).Contents (Elt F) → (⟨S1x64, .i32⟩ : BufTy).Contents (Elt F)),
    StableHlo.unary main_v1010 main_v1032 (broadcastInDim S7x1 ![0] bcast_S7_S7x1_0 : (⟨S7, .i32⟩ : BufTy).Contents (Elt F) → (⟨S7x1, .i32⟩ : BufTy).Contents (Elt F)),
    StableHlo.unary main_v1031 main_v1033 (broadcastInDim S7x64 ![0, 1] bcast_S1x64_S7x64_0_1 : (⟨S1x64, .i32⟩ : BufTy).Contents (Elt F) → (⟨S7x64, .i32⟩ : BufTy).Contents (Elt F)),
    StableHlo.unary main_v1032 main_v1034 (broadcastInDim S7x64 ![0, 1] bcast_S7x1_S7x64_0_1 : (⟨S7x1, .i32⟩ : BufTy).Contents (Elt F) → (⟨S7x64, .i32⟩ : BufTy).Contents (Elt F)),
    StableHlo.binary main_v1033 main_v1034 main_v1035 (cmpi .slt : (⟨S7x64, .i32⟩ : BufTy).Contents (Elt F) → (⟨S7x64, .i32⟩ : BufTy).Contents (Elt F) → (⟨S7x64, .i1⟩ : BufTy).Contents (Elt F)),
    StableHlo.binary main_v1030 main_v1035 main_v1036 (andi : (⟨S7x64, .i1⟩ : BufTy).Contents (Elt F) → (⟨S7x64, .i1⟩ : BufTy).Contents (Elt F) → (⟨S7x64, .i1⟩ : BufTy).Contents (Elt F)),
    StableHlo.unary main_v1025 main_v1037 (broadcastInDim S1x64 ![1] bcast_S64_S1x64_1 : (⟨S64, .i32⟩ : BufTy).Contents (Elt F) → (⟨S1x64, .i32⟩ : BufTy).Contents (Elt F)),
    StableHlo.unary main_v1015 main_v1038 (broadcastInDim S7x1 ![0] bcast_S7_S7x1_0 : (⟨S7, .i32⟩ : BufTy).Contents (Elt F) → (⟨S7x1, .i32⟩ : BufTy).Contents (Elt F)),
    StableHlo.unary main_v1037 main_v1039 (broadcastInDim S7x64 ![0, 1] bcast_S1x64_S7x64_0_1 : (⟨S1x64, .i32⟩ : BufTy).Contents (Elt F) → (⟨S7x64, .i32⟩ : BufTy).Contents (Elt F)),
    StableHlo.unary main_v1038 main_v1040 (broadcastInDim S7x64 ![0, 1] bcast_S7x1_S7x64_0_1 : (⟨S7x1, .i32⟩ : BufTy).Contents (Elt F) → (⟨S7x64, .i32⟩ : BufTy).Contents (Elt F)),
    StableHlo.binary main_v1039 main_v1040 main_v1041 (cmpi .sge : (⟨S7x64, .i32⟩ : BufTy).Contents (Elt F) → (⟨S7x64, .i32⟩ : BufTy).Contents (Elt F) → (⟨S7x64, .i1⟩ : BufTy).Contents (Elt F)),
    StableHlo.unary main_v1025 main_v1042 (broadcastInDim S1x64 ![1] bcast_S64_S1x64_1 : (⟨S64, .i32⟩ : BufTy).Contents (Elt F) → (⟨S1x64, .i32⟩ : BufTy).Contents (Elt F)),
    StableHlo.unary main_v1023 main_v1043 (broadcastInDim S7x1 ![0] bcast_S7_S7x1_0 : (⟨S7, .i32⟩ : BufTy).Contents (Elt F) → (⟨S7x1, .i32⟩ : BufTy).Contents (Elt F)),
    StableHlo.unary main_v1042 main_v1044 (broadcastInDim S7x64 ![0, 1] bcast_S1x64_S7x64_0_1 : (⟨S1x64, .i32⟩ : BufTy).Contents (Elt F) → (⟨S7x64, .i32⟩ : BufTy).Contents (Elt F)),
    StableHlo.unary main_v1043 main_v1045 (broadcastInDim S7x64 ![0, 1] bcast_S7x1_S7x64_0_1 : (⟨S7x1, .i32⟩ : BufTy).Contents (Elt F) → (⟨S7x64, .i32⟩ : BufTy).Contents (Elt F)),
    StableHlo.binary main_v1044 main_v1045 main_v1046 (cmpi .slt : (⟨S7x64, .i32⟩ : BufTy).Contents (Elt F) → (⟨S7x64, .i32⟩ : BufTy).Contents (Elt F) → (⟨S7x64, .i1⟩ : BufTy).Contents (Elt F)),
    StableHlo.binary main_v1041 main_v1046 main_v1047 (andi : (⟨S7x64, .i1⟩ : BufTy).Contents (Elt F) → (⟨S7x64, .i1⟩ : BufTy).Contents (Elt F) → (⟨S7x64, .i1⟩ : BufTy).Contents (Elt F)),
    StableHlo.unary main_v1036 main_v1048 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1049 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_132 (constant S_ .f32 0xFF800000#32),
    StableHlo.TRef.unary (.of main_v1048 : StableHlo.TRef sig ⟨S7x1x64x1, .i1⟩) (.of main_call78_v0 : StableHlo.TRef sig ⟨S7x512x64x64, .i1⟩) (broadcastInDim S7x512x64x64 ![0, 1, 2, 3] bcast_S7x1x64x1_S7x512x64x64_0_1_2_3),
    StableHlo.TRef.unary (.of main_v1049 : StableHlo.TRef sig ⟨S1x512x64x64, .f32⟩) (.of main_call78_v1 : StableHlo.TRef sig ⟨S7x512x64x64, .f32⟩) (broadcastInDim S7x512x64x64 ![0, 1, 2, 3] bcast_S1x512x64x64_S7x512x64x64_0_1_2_3),
    StableHlo.TRef.unary (.of main_cst_132 : StableHlo.TRef sig ⟨S_, .f32⟩) (.of main_call78_v2 : StableHlo.TRef sig ⟨S7x512x64x64, .f32⟩) (broadcastInDim S7x512x64x64 ![] bcast_S_S7x512x64x64),
    StableHlo.TRef.ternary (.of main_call78_v0 : StableHlo.TRef sig ⟨S7x512x64x64, .i1⟩) (.of main_call78_v1 : StableHlo.TRef sig ⟨S7x512x64x64, .f32⟩) (.of main_call78_v2 : StableHlo.TRef sig ⟨S7x512x64x64, .f32⟩) (.of main_v1050 : StableHlo.TRef sig ⟨S7x512x64x64, .f32⟩) select,
    StableHlo.nullary main_cst_133 (constant S_ .f32 0xFF800000#32),
    StableHlo.binary main_v1050 main_cst_133 main_v1051 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1047 main_v1052 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1051 main_v1053 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_134 (constant S_ .f32 0xFF800000#32),
    StableHlo.TRef.unary (.of main_v1052 : StableHlo.TRef sig ⟨S1x1x7x64, .i1⟩) (.of main_call79_v0 : StableHlo.TRef sig ⟨S7x512x7x64, .i1⟩) (broadcastInDim S7x512x7x64 ![0, 1, 2, 3] bcast_S1x1x7x64_S7x512x7x64_0_1_2_3),
    StableHlo.TRef.unary (.of main_v1053 : StableHlo.TRef sig ⟨S7x512x1x64, .f32⟩) (.of main_call79_v1 : StableHlo.TRef sig ⟨S7x512x7x64, .f32⟩) (broadcastInDim S7x512x7x64 ![0, 1, 2, 3] bcast_S7x512x1x64_S7x512x7x64_0_1_2_3),
    StableHlo.TRef.unary (.of main_cst_134 : StableHlo.TRef sig ⟨S_, .f32⟩) (.of main_call79_v2 : StableHlo.TRef sig ⟨S7x512x7x64, .f32⟩) (broadcastInDim S7x512x7x64 ![] bcast_S_S7x512x7x64),
    StableHlo.TRef.ternary (.of main_call79_v0 : StableHlo.TRef sig ⟨S7x512x7x64, .i1⟩) (.of main_call79_v1 : StableHlo.TRef sig ⟨S7x512x7x64, .f32⟩) (.of main_call79_v2 : StableHlo.TRef sig ⟨S7x512x7x64, .f32⟩) (.of main_v1054 : StableHlo.TRef sig ⟨S7x512x7x64, .f32⟩) select ]
/-- The buffers those operations write, in order. -/
abbrev ops40_W : List (Ref sig .tc) :=
  [main_call77_v0, main_call77_v1, main_call77_v2, main_call77_v3, main_call77_v4, main_call77_v5, main_call77_v6, main_call77_v7, main_call77_v8, main_call77_c, main_call77_v9, main_call77_v10, main_call77_v11, main_call77_c_0, main_call77_v12, main_call77_v13, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047, main_v1048, main_v1049, main_cst_132, main_call78_v0, main_call78_v1, main_call78_v2, main_v1050, main_cst_133, main_v1051, main_v1052, main_v1053, main_cst_134, main_call79_v0, main_call79_v1, main_call79_v2, main_v1054]
/-- Each operation writes its own result buffer and nothing else. -/
theorem ops40_writes : (ops40 : List (HloOp τ sig (Elt F))).Forall fun op => op.writes ⊆ (ops40_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2102 to 2158 of the host part, in order. -/
abbrev ops41 : List (HloOp τ sig (Elt F)) :=
  [ StableHlo.nullary main_cst_135 (constant S_ .f32 0xFF800000#32),
    StableHlo.binary main_v1054 main_cst_135 main_v1055 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1055 main_v1056 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1056 main_v1057 rfl shapeCasts_S512x7x7_S25088,
    StableHlo.unary main_v18 main_v1058 ((extractStridedSlice S1x1 ![2, 1] · slices_S3x4_S1x1_2_1) : (⟨S3x4, .i32⟩ : BufTy).Contents (Elt F) → (⟨S1x1, .i32⟩ : BufTy).Contents (Elt F)),
    StableHlo.reshape main_v1058 main_v1059 rfl shapeCasts_S1x1_S_,
    StableHlo.unary main_v23 main_v1060 ((extractStridedSlice S1x1 ![1, 1] · slices_S4x4_S1x1_1_1) : (⟨S4x4, .i32⟩ : BufTy).Contents (Elt F) → (⟨S1x1, .i32⟩ : BufTy).Contents (Elt F)),
    StableHlo.reshape main_v1060 main_v1061 rfl shapeCasts_S1x1_S_,
    StableHlo.binary main_v1059 main_v1061 main_v1062 (minsi : (⟨S_, .i32⟩ : BufTy).Contents (Elt F) → (⟨S_, .i32⟩ : BufTy).Contents (Elt F) → (⟨S_, .i32⟩ : BufTy).Contents (Elt F)),
    StableHlo.unary main_v18 main_v1063 ((extractStridedSlice S1x1 ![2, 3] · slices_S3x4_S1x1_2_3) : (⟨S3x4, .i32⟩ : BufTy).Contents (Elt F) → (⟨S1x1, .i32⟩ : BufTy).Contents (Elt F)),
    StableHlo.reshape main_v1063 main_v1064 rfl shapeCasts_S1x1_S_,
    StableHlo.unary main_v23 main_v1065 ((extractStridedSlice S1x1 ![1, 3] · slices_S4x4_S1x1_1_3) : (⟨S4x4, .i32⟩ : BufTy).Contents (Elt F) → (⟨S1x1, .i32⟩ : BufTy).Contents (Elt F)),
    StableHlo.reshape main_v1065 main_v1066 rfl shapeCasts_S1x1_S_,
    StableHlo.binary main_v1064 main_v1066 main_v1067 (maxsi : (⟨S_, .i32⟩ : BufTy).Contents (Elt F) → (⟨S_, .i32⟩ : BufTy).Contents (Elt F) → (⟨S_, .i32⟩ : BufTy).Contents (Elt F)),
    StableHlo.unary main_v18 main_v1068 ((extractStridedSlice S1x1 ![2, 0] · slices_S3x4_S1x1_2_0) : (⟨S3x4, .i32⟩ : BufTy).Contents (Elt F) → (⟨S1x1, .i32⟩ : BufTy).Contents (Elt F)),
    StableHlo.reshape main_v1068 main_v1069 rfl shapeCasts_S1x1_S_,
    StableHlo.unary main_v23 main_v1070 ((extractStridedSlice S1x1 ![1, 0] · slices_S4x4_S1x1_1_0) : (⟨S4x4, .i32⟩ : BufTy).Contents (Elt F) → (⟨S1x1, .i32⟩ : BufTy).Contents (Elt F)),
    StableHlo.reshape main_v1070 main_v1071 rfl shapeCasts_S1x1_S_,
    StableHlo.binary main_v1069 main_v1071 main_v1072 (minsi : (⟨S_, .i32⟩ : BufTy).Contents (Elt F) → (⟨S_, .i32⟩ : BufTy).Contents (Elt F) → (⟨S_, .i32⟩ : BufTy).Contents (Elt F)),
    StableHlo.unary main_v18 main_v1073 ((extractStridedSlice S1x1 ![2, 2] · slices_S3x4_S1x1_2_2) : (⟨S3x4, .i32⟩ : BufTy).Contents (Elt F) → (⟨S1x1, .i32⟩ : BufTy).Contents (Elt F)),
    StableHlo.reshape main_v1073 main_v1074 rfl shapeCasts_S1x1_S_,
    StableHlo.unary main_v23 main_v1075 ((extractStridedSlice S1x1 ![1, 2] · slices_S4x4_S1x1_1_2) : (⟨S4x4, .i32⟩ : BufTy).Contents (Elt F) → (⟨S1x1, .i32⟩ : BufTy).Contents (Elt F)),
    StableHlo.reshape main_v1075 main_v1076 rfl shapeCasts_S1x1_S_,
    StableHlo.binary main_v1074 main_v1076 main_v1077 (maxsi : (⟨S_, .i32⟩ : BufTy).Contents (Elt F) → (⟨S_, .i32⟩ : BufTy).Contents (Elt F) → (⟨S_, .i32⟩ : BufTy).Contents (Elt F)),
    StableHlo.binary main_v1067 main_v1062 main_v1078 (subi : (⟨S_, .i32⟩ : BufTy).Contents (Elt F) → (⟨S_, .i32⟩ : BufTy).Contents (Elt F) → (⟨S_, .i32⟩ : BufTy).Contents (Elt F)),
    StableHlo.binary main_v1077 main_v1072 main_v1079 (subi : (⟨S_, .i32⟩ : BufTy).Contents (Elt F) → (⟨S_, .i32⟩ : BufTy).Contents (Elt F) → (⟨S_, .i32⟩ : BufTy).Contents (Elt F)),
    StableHlo.nullary main_v1080 (iotaInDim S7 32 0),
    StableHlo.nullary main_v1081 (iotaInDim S7 32 0),
    StableHlo.unary main_v1078 main_v1082 (broadcastInDim S7 ![] bcast_S_S7 : (⟨S_, .i32⟩ : BufTy).Contents (Elt F) → (⟨S7, .i32⟩ : BufTy).Contents (Elt F)),
    StableHlo.binary main_v1080 main_v1082 main_v1083 (muli : (⟨S7, .i32⟩ : BufTy).Contents (Elt F) → (⟨S7, .i32⟩ : BufTy).Contents (Elt F) → (⟨S7, .i32⟩ : BufTy).Contents (Elt F)),
    StableHlo.nullary main_c_136 (constantI S_ 32 7#32),
    StableHlo.TRef.unary (.of main_c_136 : StableHlo.TRef sig ⟨S_, .i32⟩) (.of main_call80_v0 : StableHlo.TRef sig ⟨S_, .i32⟩) id,
    StableHlo.TRef.unary (.of main_call80_v0 : StableHlo.TRef sig ⟨S_, .i32⟩) (.of main_call80_v1 : StableHlo.TRef sig ⟨S7, .i32⟩) (broadcastInDim S7 ![] bcast_S_S7),
    StableHlo.TRef.binary (.of main_v1083 : StableHlo.TRef sig ⟨S7, .i32⟩) (.of main_call80_v1 : StableHlo.TRef sig ⟨S7, .i32⟩) (.of main_call80_v2 : StableHlo.TRef sig ⟨S7, .i32⟩) Host.divsi,
    StableHlo.TRef.unary (.of main_v1083 : StableHlo.TRef sig ⟨S7, .i32⟩) (.of main_call80_v3 : StableHlo.TRef sig ⟨S7, .i32⟩) signi,
    StableHlo.TRef.unary (.of main_call80_v0 : StableHlo.TRef sig ⟨S_, .i32⟩) (.of main_call80_v4 : StableHlo.TRef sig ⟨S_, .i32⟩) signi,
    StableHlo.TRef.unary (.of main_call80_v4 : StableHlo.TRef sig ⟨S_, .i32⟩) (.of main_call80_v5 : StableHlo.TRef sig ⟨S7, .i32⟩) (broadcastInDim S7 ![] bcast_S_S7),
    StableHlo.TRef.binary (.of main_call80_v3 : StableHlo.TRef sig ⟨S7, .i32⟩) (.of main_call80_v5 : StableHlo.TRef sig ⟨S7, .i32⟩) (.of main_call80_v6 : StableHlo.TRef sig ⟨S7, .i1⟩) (cmpi .ne),
    StableHlo.TRef.unary (.of main_call80_v0 : StableHlo.TRef sig ⟨S_, .i32⟩) (.of main_call80_v7 : StableHlo.TRef sig ⟨S7, .i32⟩) (broadcastInDim S7 ![] bcast_S_S7),
    StableHlo.TRef.binary (.of main_v1083 : StableHlo.TRef sig ⟨S7, .i32⟩) (.of main_call80_v7 : StableHlo.TRef sig ⟨S7, .i32⟩) (.of main_call80_v8 : StableHlo.TRef sig ⟨S7, .i32⟩) Host.remsi,
    StableHlo.TRef.nullary (.of main_call80_c : StableHlo.TRef sig ⟨S_, .i32⟩) (constantI S_ 32 0#32),
    StableHlo.TRef.unary (.of main_call80_c : StableHlo.TRef sig ⟨S_, .i32⟩) (.of main_call80_v9 : StableHlo.TRef sig ⟨S7, .i32⟩) (broadcastInDim S7 ![] bcast_S_S7),
    StableHlo.TRef.binary (.of main_call80_v8 : StableHlo.TRef sig ⟨S7, .i32⟩) (.of main_call80_v9 : StableHlo.TRef sig ⟨S7, .i32⟩) (.of main_call80_v10 : StableHlo.TRef sig ⟨S7, .i1⟩) (cmpi .ne),
    StableHlo.TRef.binary (.of main_call80_v6 : StableHlo.TRef sig ⟨S7, .i1⟩) (.of main_call80_v10 : StableHlo.TRef sig ⟨S7, .i1⟩) (.of main_call80_v11 : StableHlo.TRef sig ⟨S7, .i1⟩) andi,
    StableHlo.TRef.nullary (.of main_call80_c_0 : StableHlo.TRef sig ⟨S_, .i32⟩) (constantI S_ 32 1#32),
    StableHlo.TRef.unary (.of main_call80_c_0 : StableHlo.TRef sig ⟨S_, .i32⟩) (.of main_call80_v12 : StableHlo.TRef sig ⟨S7, .i32⟩) (broadcastInDim S7 ![] bcast_S_S7),
    StableHlo.TRef.binary (.of main_call80_v2 : StableHlo.TRef sig ⟨S7, .i32⟩) (.of main_call80_v12 : StableHlo.TRef sig ⟨S7, .i32⟩) (.of main_call80_v13 : StableHlo.TRef sig ⟨S7, .i32⟩) subi,
    StableHlo.TRef.ternary (.of main_call80_v11 : StableHlo.TRef sig ⟨S7, .i1⟩) (.of main_call80_v13 : StableHlo.TRef sig ⟨S7, .i32⟩) (.of main_call80_v2 : StableHlo.TRef sig ⟨S7, .i32⟩) (.of main_v1084 : StableHlo.TRef sig ⟨S7, .i32⟩) select,
    StableHlo.unary main_v1062 main_v1085 (broadcastInDim S7 ![] bcast_S_S7 : (⟨S_, .i32⟩ : BufTy).Contents (Elt F) → (⟨S7, .i32⟩ : BufTy).Contents (Elt F)),
    StableHlo.binary main_v1085 main_v1084 main_v1086 (addi : (⟨S7, .i32⟩ : BufTy).Contents (Elt F) → (⟨S7, .i32⟩ : BufTy).Contents (Elt F) → (⟨S7, .i32⟩ : BufTy).Contents (Elt F)),
    StableHlo.nullary main_c_137 (constantI S_ 32 1#32),
    StableHlo.unary main_c_137 main_v1087 (broadcastInDim S7 ![] bcast_S_S7 : (⟨S_, .i32⟩ : BufTy).Contents (Elt F) → (⟨S7, .i32⟩ : BufTy).Contents (Elt F)),
    StableHlo.binary main_v1080 main_v1087 main_v1088 (addi : (⟨S7, .i32⟩ : BufTy).Contents (Elt F) → (⟨S7, .i32⟩ : BufTy).Contents (Elt F) → (⟨S7, .i32⟩ : BufTy).Contents (Elt F)),
    StableHlo.unary main_v1088 main_v1089 (negi : (⟨S7, .i32⟩ : BufTy).Contents (Elt F) → (⟨S7, .i32⟩ : BufTy).Contents (Elt F)),
    StableHlo.unary main_v1078 main_v1090 (broadcastInDim S7 ![] bcast_S_S7 : (⟨S_, .i32⟩ : BufTy).Contents (Elt F) → (⟨S7, .i32⟩ : BufTy).Contents (Elt F)),
    StableHlo.binary main_v1089 main_v1090 main_v1091 (muli : (⟨S7, .i32⟩ : BufTy).Contents (Elt F) → (⟨S7, .i32⟩ : BufTy).Contents (Elt F) → (⟨S7, .i32⟩ : BufTy).Contents (Elt F)),
    StableHlo.nullary main_c_138 (constantI S_ 32 7#32) ]
/-- The buffers those operations write, in order. -/
abbrev ops41_W : List (Ref sig .tc) :=
  [main_cst_135, main_v1055, main_v1056, main_v1057, main_v1058, main_v1059, main_v1060, main_v1061, main_v1062, main_v1063, main_v1064, main_v1065, main_v1066, main_v1067, main_v1068, main_v1069, main_v1070, main_v1071, main_v1072, main_v1073, main_v1074, main_v1075, main_v1076, main_v1077, main_v1078, main_v1079, main_v1080, main_v1081, main_v1082, main_v1083, main_c_136, main_call80_v0, main_call80_v1, main_call80_v2, main_call80_v3, main_call80_v4, main_call80_v5, main_call80_v6, main_call80_v7, main_call80_v8, main_call80_c, main_call80_v9, main_call80_v10, main_call80_v11, main_call80_c_0, main_call80_v12, main_call80_v13, main_v1084, main_v1085, main_v1086, main_c_137, main_v1087, main_v1088, main_v1089, main_v1090, main_v1091, main_c_138]
/-- Each operation writes its own result buffer and nothing else. -/
theorem ops41_writes : (ops41 : List (HloOp τ sig (Elt F))).Forall fun op => op.writes ⊆ (ops41_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2159 to 2206 of the host part, in order. -/
abbrev ops42 : List (HloOp τ sig (Elt F)) :=
  [ StableHlo.TRef.unary (.of main_c_138 : StableHlo.TRef sig ⟨S_, .i32⟩) (.of main_call81_v0 : StableHlo.TRef sig ⟨S_, .i32⟩) id,
    StableHlo.TRef.unary (.of main_call81_v0 : StableHlo.TRef sig ⟨S_, .i32⟩) (.of main_call81_v1 : StableHlo.TRef sig ⟨S7, .i32⟩) (broadcastInDim S7 ![] bcast_S_S7),
    StableHlo.TRef.binary (.of main_v1091 : StableHlo.TRef sig ⟨S7, .i32⟩) (.of main_call81_v1 : StableHlo.TRef sig ⟨S7, .i32⟩) (.of main_call81_v2 : StableHlo.TRef sig ⟨S7, .i32⟩) Host.divsi,
    StableHlo.TRef.unary (.of main_v1091 : StableHlo.TRef sig ⟨S7, .i32⟩) (.of main_call81_v3 : StableHlo.TRef sig ⟨S7, .i32⟩) signi,
    StableHlo.TRef.unary (.of main_call81_v0 : StableHlo.TRef sig ⟨S_, .i32⟩) (.of main_call81_v4 : StableHlo.TRef sig ⟨S_, .i32⟩) signi,
    StableHlo.TRef.unary (.of main_call81_v4 : StableHlo.TRef sig ⟨S_, .i32⟩) (.of main_call81_v5 : StableHlo.TRef sig ⟨S7, .i32⟩) (broadcastInDim S7 ![] bcast_S_S7),
    StableHlo.TRef.binary (.of main_call81_v3 : StableHlo.TRef sig ⟨S7, .i32⟩) (.of main_call81_v5 : StableHlo.TRef sig ⟨S7, .i32⟩) (.of main_call81_v6 : StableHlo.TRef sig ⟨S7, .i1⟩) (cmpi .ne),
    StableHlo.TRef.unary (.of main_call81_v0 : StableHlo.TRef sig ⟨S_, .i32⟩) (.of main_call81_v7 : StableHlo.TRef sig ⟨S7, .i32⟩) (broadcastInDim S7 ![] bcast_S_S7),
    StableHlo.TRef.binary (.of main_v1091 : StableHlo.TRef sig ⟨S7, .i32⟩) (.of main_call81_v7 : StableHlo.TRef sig ⟨S7, .i32⟩) (.of main_call81_v8 : StableHlo.TRef sig ⟨S7, .i32⟩) Host.remsi,
    StableHlo.TRef.nullary (.of main_call81_c : StableHlo.TRef sig ⟨S_, .i32⟩) (constantI S_ 32 0#32),
    StableHlo.TRef.unary (.of main_call81_c : StableHlo.TRef sig ⟨S_, .i32⟩) (.of main_call81_v9 : StableHlo.TRef sig ⟨S7, .i32⟩) (broadcastInDim S7 ![] bcast_S_S7),
    StableHlo.TRef.binary (.of main_call81_v8 : StableHlo.TRef sig ⟨S7, .i32⟩) (.of main_call81_v9 : StableHlo.TRef sig ⟨S7, .i32⟩) (.of main_call81_v10 : StableHlo.TRef sig ⟨S7, .i1⟩) (cmpi .ne),
    StableHlo.TRef.binary (.of main_call81_v6 : StableHlo.TRef sig ⟨S7, .i1⟩) (.of main_call81_v10 : StableHlo.TRef sig ⟨S7, .i1⟩) (.of main_call81_v11 : StableHlo.TRef sig ⟨S7, .i1⟩) andi,
    StableHlo.TRef.nullary (.of main_call81_c_0 : StableHlo.TRef sig ⟨S_, .i32⟩) (constantI S_ 32 1#32),
    StableHlo.TRef.unary (.of main_call81_c_0 : StableHlo.TRef sig ⟨S_, .i32⟩) (.of main_call81_v12 : StableHlo.TRef sig ⟨S7, .i32⟩) (broadcastInDim S7 ![] bcast_S_S7),
    StableHlo.TRef.binary (.of main_call81_v2 : StableHlo.TRef sig ⟨S7, .i32⟩) (.of main_call81_v12 : StableHlo.TRef sig ⟨S7, .i32⟩) (.of main_call81_v13 : StableHlo.TRef sig ⟨S7, .i32⟩) subi,
    StableHlo.TRef.ternary (.of main_call81_v11 : StableHlo.TRef sig ⟨S7, .i1⟩) (.of main_call81_v13 : StableHlo.TRef sig ⟨S7, .i32⟩) (.of main_call81_v2 : StableHlo.TRef sig ⟨S7, .i32⟩) (.of main_v1092 : StableHlo.TRef sig ⟨S7, .i32⟩) select,
    StableHlo.unary main_v1062 main_v1093 (broadcastInDim S7 ![] bcast_S_S7 : (⟨S_, .i32⟩ : BufTy).Contents (Elt F) → (⟨S7, .i32⟩ : BufTy).Contents (Elt F)),
    StableHlo.binary main_v1093 main_v1092 main_v1094 (subi : (⟨S7, .i32⟩ : BufTy).Contents (Elt F) → (⟨S7, .i32⟩ : BufTy).Contents (Elt F) → (⟨S7, .i32⟩ : BufTy).Contents (Elt F)),
    StableHlo.unary main_v1079 main_v1095 (broadcastInDim S7 ![] bcast_S_S7 : (⟨S_, .i32⟩ : BufTy).Contents (Elt F) → (⟨S7, .i32⟩ : BufTy).Contents (Elt F)),
    StableHlo.binary main_v1081 main_v1095 main_v1096 (muli : (⟨S7, .i32⟩ : BufTy).Contents (Elt F) → (⟨S7, .i32⟩ : BufTy).Contents (Elt F) → (⟨S7, .i32⟩ : BufTy).Contents (Elt F)),
    StableHlo.nullary main_c_139 (constantI S_ 32 7#32),
    StableHlo.TRef.unary (.of main_c_139 : StableHlo.TRef sig ⟨S_, .i32⟩) (.of main_call82_v0 : StableHlo.TRef sig ⟨S_, .i32⟩) id,
    StableHlo.TRef.unary (.of main_call82_v0 : StableHlo.TRef sig ⟨S_, .i32⟩) (.of main_call82_v1 : StableHlo.TRef sig ⟨S7, .i32⟩) (broadcastInDim S7 ![] bcast_S_S7),
    StableHlo.TRef.binary (.of main_v1096 : StableHlo.TRef sig ⟨S7, .i32⟩) (.of main_call82_v1 : StableHlo.TRef sig ⟨S7, .i32⟩) (.of main_call82_v2 : StableHlo.TRef sig ⟨S7, .i32⟩) Host.divsi,
    StableHlo.TRef.unary (.of main_v1096 : StableHlo.TRef sig ⟨S7, .i32⟩) (.of main_call82_v3 : StableHlo.TRef sig ⟨S7, .i32⟩) signi,
    StableHlo.TRef.unary (.of main_call82_v0 : StableHlo.TRef sig ⟨S_, .i32⟩) (.of main_call82_v4 : StableHlo.TRef sig ⟨S_, .i32⟩) signi,
    StableHlo.TRef.unary (.of main_call82_v4 : StableHlo.TRef sig ⟨S_, .i32⟩) (.of main_call82_v5 : StableHlo.TRef sig ⟨S7, .i32⟩) (broadcastInDim S7 ![] bcast_S_S7),
    StableHlo.TRef.binary (.of main_call82_v3 : StableHlo.TRef sig ⟨S7, .i32⟩) (.of main_call82_v5 : StableHlo.TRef sig ⟨S7, .i32⟩) (.of main_call82_v6 : StableHlo.TRef sig ⟨S7, .i1⟩) (cmpi .ne),
    StableHlo.TRef.unary (.of main_call82_v0 : StableHlo.TRef sig ⟨S_, .i32⟩) (.of main_call82_v7 : StableHlo.TRef sig ⟨S7, .i32⟩) (broadcastInDim S7 ![] bcast_S_S7),
    StableHlo.TRef.binary (.of main_v1096 : StableHlo.TRef sig ⟨S7, .i32⟩) (.of main_call82_v7 : StableHlo.TRef sig ⟨S7, .i32⟩) (.of main_call82_v8 : StableHlo.TRef sig ⟨S7, .i32⟩) Host.remsi,
    StableHlo.TRef.nullary (.of main_call82_c : StableHlo.TRef sig ⟨S_, .i32⟩) (constantI S_ 32 0#32),
    StableHlo.TRef.unary (.of main_call82_c : StableHlo.TRef sig ⟨S_, .i32⟩) (.of main_call82_v9 : StableHlo.TRef sig ⟨S7, .i32⟩) (broadcastInDim S7 ![] bcast_S_S7),
    StableHlo.TRef.binary (.of main_call82_v8 : StableHlo.TRef sig ⟨S7, .i32⟩) (.of main_call82_v9 : StableHlo.TRef sig ⟨S7, .i32⟩) (.of main_call82_v10 : StableHlo.TRef sig ⟨S7, .i1⟩) (cmpi .ne),
    StableHlo.TRef.binary (.of main_call82_v6 : StableHlo.TRef sig ⟨S7, .i1⟩) (.of main_call82_v10 : StableHlo.TRef sig ⟨S7, .i1⟩) (.of main_call82_v11 : StableHlo.TRef sig ⟨S7, .i1⟩) andi,
    StableHlo.TRef.nullary (.of main_call82_c_0 : StableHlo.TRef sig ⟨S_, .i32⟩) (constantI S_ 32 1#32),
    StableHlo.TRef.unary (.of main_call82_c_0 : StableHlo.TRef sig ⟨S_, .i32⟩) (.of main_call82_v12 : StableHlo.TRef sig ⟨S7, .i32⟩) (broadcastInDim S7 ![] bcast_S_S7),
    StableHlo.TRef.binary (.of main_call82_v2 : StableHlo.TRef sig ⟨S7, .i32⟩) (.of main_call82_v12 : StableHlo.TRef sig ⟨S7, .i32⟩) (.of main_call82_v13 : StableHlo.TRef sig ⟨S7, .i32⟩) subi,
    StableHlo.TRef.ternary (.of main_call82_v11 : StableHlo.TRef sig ⟨S7, .i1⟩) (.of main_call82_v13 : StableHlo.TRef sig ⟨S7, .i32⟩) (.of main_call82_v2 : StableHlo.TRef sig ⟨S7, .i32⟩) (.of main_v1097 : StableHlo.TRef sig ⟨S7, .i32⟩) select,
    StableHlo.unary main_v1072 main_v1098 (broadcastInDim S7 ![] bcast_S_S7 : (⟨S_, .i32⟩ : BufTy).Contents (Elt F) → (⟨S7, .i32⟩ : BufTy).Contents (Elt F)),
    StableHlo.binary main_v1098 main_v1097 main_v1099 (addi : (⟨S7, .i32⟩ : BufTy).Contents (Elt F) → (⟨S7, .i32⟩ : BufTy).Contents (Elt F) → (⟨S7, .i32⟩ : BufTy).Contents (Elt F)),
    StableHlo.nullary main_c_140 (constantI S_ 32 1#32),
    StableHlo.unary main_c_140 main_v1100 (broadcastInDim S7 ![] bcast_S_S7 : (⟨S_, .i32⟩ : BufTy).Contents (Elt F) → (⟨S7, .i32⟩ : BufTy).Contents (Elt F)),
    StableHlo.binary main_v1081 main_v1100 main_v1101 (addi : (⟨S7, .i32⟩ : BufTy).Contents (Elt F) → (⟨S7, .i32⟩ : BufTy).Contents (Elt F) → (⟨S7, .i32⟩ : BufTy).Contents (Elt F)),
    StableHlo.unary main_v1101 main_v1102 (negi : (⟨S7, .i32⟩ : BufTy).Contents (Elt F) → (⟨S7, .i32⟩ : BufTy).Contents (Elt F)),
    StableHlo.unary main_v1079 main_v1103 (broadcastInDim S7 ![] bcast_S_S7 : (⟨S_, .i32⟩ : BufTy).Contents (Elt F) → (⟨S7, .i32⟩ : BufTy).Contents (Elt F)),
    StableHlo.binary main_v1102 main_v1103 main_v1104 (muli : (⟨S7, .i32⟩ : BufTy).Contents (Elt F) → (⟨S7, .i32⟩ : BufTy).Contents (Elt F) → (⟨S7, .i32⟩ : BufTy).Contents (Elt F)),
    StableHlo.nullary main_c_141 (constantI S_ 32 7#32) ]
/-- The buffers those operations write, in order. -/
abbrev ops42_W : List (Ref sig .tc) :=
  [main_call81_v0, main_call81_v1, main_call81_v2, main_call81_v3, main_call81_v4, main_call81_v5, main_call81_v6, main_call81_v7, main_call81_v8, main_call81_c, main_call81_v9, main_call81_v10, main_call81_v11, main_call81_c_0, main_call81_v12, main_call81_v13, main_v1092, main_v1093, main_v1094, main_v1095, main_v1096, main_c_139, main_call82_v0, main_call82_v1, main_call82_v2, main_call82_v3, main_call82_v4, main_call82_v5, main_call82_v6, main_call82_v7, main_call82_v8, main_call82_c, main_call82_v9, main_call82_v10, main_call82_v11, main_call82_c_0, main_call82_v12, main_call82_v13, main_v1097, main_v1098, main_v1099, main_c_140, main_v1100, main_v1101, main_v1102, main_v1103, main_v1104, main_c_141]
/-- Each operation writes its own result buffer and nothing else. -/
theorem ops42_writes : (ops42 : List (HloOp τ sig (Elt F))).Forall fun op => op.writes ⊆ (ops42_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2207 to 2265 of the host part, in order. -/
abbrev ops43 : List (HloOp τ sig (Elt F)) :=
  [ StableHlo.TRef.unary (.of main_c_141 : StableHlo.TRef sig ⟨S_, .i32⟩) (.of main_call83_v0 : StableHlo.TRef sig ⟨S_, .i32⟩) id,
    StableHlo.TRef.unary (.of main_call83_v0 : StableHlo.TRef sig ⟨S_, .i32⟩) (.of main_call83_v1 : StableHlo.TRef sig ⟨S7, .i32⟩) (broadcastInDim S7 ![] bcast_S_S7),
    StableHlo.TRef.binary (.of main_v1104 : StableHlo.TRef sig ⟨S7, .i32⟩) (.of main_call83_v1 : StableHlo.TRef sig ⟨S7, .i32⟩) (.of main_call83_v2 : StableHlo.TRef sig ⟨S7, .i32⟩) Host.divsi,
    StableHlo.TRef.unary (.of main_v1104 : StableHlo.TRef sig ⟨S7, .i32⟩) (.of main_call83_v3 : StableHlo.TRef sig ⟨S7, .i32⟩) signi,
    StableHlo.TRef.unary (.of main_call83_v0 : StableHlo.TRef sig ⟨S_, .i32⟩) (.of main_call83_v4 : StableHlo.TRef sig ⟨S_, .i32⟩) signi,
    StableHlo.TRef.unary (.of main_call83_v4 : StableHlo.TRef sig ⟨S_, .i32⟩) (.of main_call83_v5 : StableHlo.TRef sig ⟨S7, .i32⟩) (broadcastInDim S7 ![] bcast_S_S7),
    StableHlo.TRef.binary (.of main_call83_v3 : StableHlo.TRef sig ⟨S7, .i32⟩) (.of main_call83_v5 : StableHlo.TRef sig ⟨S7, .i32⟩) (.of main_call83_v6 : StableHlo.TRef sig ⟨S7, .i1⟩) (cmpi .ne),
    StableHlo.TRef.unary (.of main_call83_v0 : StableHlo.TRef sig ⟨S_, .i32⟩) (.of main_call83_v7 : StableHlo.TRef sig ⟨S7, .i32⟩) (broadcastInDim S7 ![] bcast_S_S7),
    StableHlo.TRef.binary (.of main_v1104 : StableHlo.TRef sig ⟨S7, .i32⟩) (.of main_call83_v7 : StableHlo.TRef sig ⟨S7, .i32⟩) (.of main_call83_v8 : StableHlo.TRef sig ⟨S7, .i32⟩) Host.remsi,
    StableHlo.TRef.nullary (.of main_call83_c : StableHlo.TRef sig ⟨S_, .i32⟩) (constantI S_ 32 0#32),
    StableHlo.TRef.unary (.of main_call83_c : StableHlo.TRef sig ⟨S_, .i32⟩) (.of main_call83_v9 : StableHlo.TRef sig ⟨S7, .i32⟩) (broadcastInDim S7 ![] bcast_S_S7),
    StableHlo.TRef.binary (.of main_call83_v8 : StableHlo.TRef sig ⟨S7, .i32⟩) (.of main_call83_v9 : StableHlo.TRef sig ⟨S7, .i32⟩) (.of main_call83_v10 : StableHlo.TRef sig ⟨S7, .i1⟩) (cmpi .ne),
    StableHlo.TRef.binary (.of main_call83_v6 : StableHlo.TRef sig ⟨S7, .i1⟩) (.of main_call83_v10 : StableHlo.TRef sig ⟨S7, .i1⟩) (.of main_call83_v11 : StableHlo.TRef sig ⟨S7, .i1⟩) andi,
    StableHlo.TRef.nullary (.of main_call83_c_0 : StableHlo.TRef sig ⟨S_, .i32⟩) (constantI S_ 32 1#32),
    StableHlo.TRef.unary (.of main_call83_c_0 : StableHlo.TRef sig ⟨S_, .i32⟩) (.of main_call83_v12 : StableHlo.TRef sig ⟨S7, .i32⟩) (broadcastInDim S7 ![] bcast_S_S7),
    StableHlo.TRef.binary (.of main_call83_v2 : StableHlo.TRef sig ⟨S7, .i32⟩) (.of main_call83_v12 : StableHlo.TRef sig ⟨S7, .i32⟩) (.of main_call83_v13 : StableHlo.TRef sig ⟨S7, .i32⟩) subi,
    StableHlo.TRef.ternary (.of main_call83_v11 : StableHlo.TRef sig ⟨S7, .i1⟩) (.of main_call83_v13 : StableHlo.TRef sig ⟨S7, .i32⟩) (.of main_call83_v2 : StableHlo.TRef sig ⟨S7, .i32⟩) (.of main_v1105 : StableHlo.TRef sig ⟨S7, .i32⟩) select,
    StableHlo.unary main_v1072 main_v1106 (broadcastInDim S7 ![] bcast_S_S7 : (⟨S_, .i32⟩ : BufTy).Contents (Elt F) → (⟨S7, .i32⟩ : BufTy).Contents (Elt F)),
    StableHlo.binary main_v1106 main_v1105 main_v1107 (subi : (⟨S7, .i32⟩ : BufTy).Contents (Elt F) → (⟨S7, .i32⟩ : BufTy).Contents (Elt F) → (⟨S7, .i32⟩ : BufTy).Contents (Elt F)),
    StableHlo.nullary main_v1108 (iotaInDim S64 32 0),
    StableHlo.nullary main_v1109 (iotaInDim S64 32 0),
    StableHlo.unary main_v1108 main_v1110 (broadcastInDim S1x64 ![1] bcast_S64_S1x64_1 : (⟨S64, .i32⟩ : BufTy).Contents (Elt F) → (⟨S1x64, .i32⟩ : BufTy).Contents (Elt F)),
    StableHlo.unary main_v1086 main_v1111 (broadcastInDim S7x1 ![0] bcast_S7_S7x1_0 : (⟨S7, .i32⟩ : BufTy).Contents (Elt F) → (⟨S7x1, .i32⟩ : BufTy).Contents (Elt F)),
    StableHlo.unary main_v1110 main_v1112 (broadcastInDim S7x64 ![0, 1] bcast_S1x64_S7x64_0_1 : (⟨S1x64, .i32⟩ : BufTy).Contents (Elt F) → (⟨S7x64, .i32⟩ : BufTy).Contents (Elt F)),
    StableHlo.unary main_v1111 main_v1113 (broadcastInDim S7x64 ![0, 1] bcast_S7x1_S7x64_0_1 : (⟨S7x1, .i32⟩ : BufTy).Contents (Elt F) → (⟨S7x64, .i32⟩ : BufTy).Contents (Elt F)),
    StableHlo.binary main_v1112 main_v1113 main_v1114 (cmpi .sge : (⟨S7x64, .i32⟩ : BufTy).Contents (Elt F) → (⟨S7x64, .i32⟩ : BufTy).Contents (Elt F) → (⟨S7x64, .i1⟩ : BufTy).Contents (Elt F)),
    StableHlo.unary main_v1108 main_v1115 (broadcastInDim S1x64 ![1] bcast_S64_S1x64_1 : (⟨S64, .i32⟩ : BufTy).Contents (Elt F) → (⟨S1x64, .i32⟩ : BufTy).Contents (Elt F)),
    StableHlo.unary main_v1094 main_v1116 (broadcastInDim S7x1 ![0] bcast_S7_S7x1_0 : (⟨S7, .i32⟩ : BufTy).Contents (Elt F) → (⟨S7x1, .i32⟩ : BufTy).Contents (Elt F)),
    StableHlo.unary main_v1115 main_v1117 (broadcastInDim S7x64 ![0, 1] bcast_S1x64_S7x64_0_1 : (⟨S1x64, .i32⟩ : BufTy).Contents (Elt F) → (⟨S7x64, .i32⟩ : BufTy).Contents (Elt F)),
    StableHlo.unary main_v1116 main_v1118 (broadcastInDim S7x64 ![0, 1] bcast_S7x1_S7x64_0_1 : (⟨S7x1, .i32⟩ : BufTy).Contents (Elt F) → (⟨S7x64, .i32⟩ : BufTy).Contents (Elt F)),
    StableHlo.binary main_v1117 main_v1118 main_v1119 (cmpi .slt : (⟨S7x64, .i32⟩ : BufTy).Contents (Elt F) → (⟨S7x64, .i32⟩ : BufTy).Contents (Elt F) → (⟨S7x64, .i1⟩ : BufTy).Contents (Elt F)),
    StableHlo.binary main_v1114 main_v1119 main_v1120 (andi : (⟨S7x64, .i1⟩ : BufTy).Contents (Elt F) → (⟨S7x64, .i1⟩ : BufTy).Contents (Elt F) → (⟨S7x64, .i1⟩ : BufTy).Contents (Elt F)),
    StableHlo.unary main_v1109 main_v1121 (broadcastInDim S1x64 ![1] bcast_S64_S1x64_1 : (⟨S64, .i32⟩ : BufTy).Contents (Elt F) → (⟨S1x64, .i32⟩ : BufTy).Contents (Elt F)),
    StableHlo.unary main_v1099 main_v1122 (broadcastInDim S7x1 ![0] bcast_S7_S7x1_0 : (⟨S7, .i32⟩ : BufTy).Contents (Elt F) → (⟨S7x1, .i32⟩ : BufTy).Contents (Elt F)),
    StableHlo.unary main_v1121 main_v1123 (broadcastInDim S7x64 ![0, 1] bcast_S1x64_S7x64_0_1 : (⟨S1x64, .i32⟩ : BufTy).Contents (Elt F) → (⟨S7x64, .i32⟩ : BufTy).Contents (Elt F)),
    StableHlo.unary main_v1122 main_v1124 (broadcastInDim S7x64 ![0, 1] bcast_S7x1_S7x64_0_1 : (⟨S7x1, .i32⟩ : BufTy).Contents (Elt F) → (⟨S7x64, .i32⟩ : BufTy).Contents (Elt F)),
    StableHlo.binary main_v1123 main_v1124 main_v1125 (cmpi .sge : (⟨S7x64, .i32⟩ : BufTy).Contents (Elt F) → (⟨S7x64, .i32⟩ : BufTy).Contents (Elt F) → (⟨S7x64, .i1⟩ : BufTy).Contents (Elt F)),
    StableHlo.unary main_v1109 main_v1126 (broadcastInDim S1x64 ![1] bcast_S64_S1x64_1 : (⟨S64, .i32⟩ : BufTy).Contents (Elt F) → (⟨S1x64, .i32⟩ : BufTy).Contents (Elt F)),
    StableHlo.unary main_v1107 main_v1127 (broadcastInDim S7x1 ![0] bcast_S7_S7x1_0 : (⟨S7, .i32⟩ : BufTy).Contents (Elt F) → (⟨S7x1, .i32⟩ : BufTy).Contents (Elt F)),
    StableHlo.unary main_v1126 main_v1128 (broadcastInDim S7x64 ![0, 1] bcast_S1x64_S7x64_0_1 : (⟨S1x64, .i32⟩ : BufTy).Contents (Elt F) → (⟨S7x64, .i32⟩ : BufTy).Contents (Elt F)),
    StableHlo.unary main_v1127 main_v1129 (broadcastInDim S7x64 ![0, 1] bcast_S7x1_S7x64_0_1 : (⟨S7x1, .i32⟩ : BufTy).Contents (Elt F) → (⟨S7x64, .i32⟩ : BufTy).Contents (Elt F)),
    StableHlo.binary main_v1128 main_v1129 main_v1130 (cmpi .slt : (⟨S7x64, .i32⟩ : BufTy).Contents (Elt F) → (⟨S7x64, .i32⟩ : BufTy).Contents (Elt F) → (⟨S7x64, .i1⟩ : BufTy).Contents (Elt F)),
    StableHlo.binary main_v1125 main_v1130 main_v1131 (andi : (⟨S7x64, .i1⟩ : BufTy).Contents (Elt F) → (⟨S7x64, .i1⟩ : BufTy).Contents (Elt F) → (⟨S7x64, .i1⟩ : BufTy).Contents (Elt F)),
    StableHlo.unary main_v1120 main_v1132 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1133 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_142 (constant S_ .f32 0xFF800000#32),
    StableHlo.TRef.unary (.of main_v1132 : StableHlo.TRef sig ⟨S7x1x64x1, .i1⟩) (.of main_call84_v0 : StableHlo.TRef sig ⟨S7x512x64x64, .i1⟩) (broadcastInDim S7x512x64x64 ![0, 1, 2, 3] bcast_S7x1x64x1_S7x512x64x64_0_1_2_3),
    StableHlo.TRef.unary (.of main_v1133 : StableHlo.TRef sig ⟨S1x512x64x64, .f32⟩) (.of main_call84_v1 : StableHlo.TRef sig ⟨S7x512x64x64, .f32⟩) (broadcastInDim S7x512x64x64 ![0, 1, 2, 3] bcast_S1x512x64x64_S7x512x64x64_0_1_2_3),
    StableHlo.TRef.unary (.of main_cst_142 : StableHlo.TRef sig ⟨S_, .f32⟩) (.of main_call84_v2 : StableHlo.TRef sig ⟨S7x512x64x64, .f32⟩) (broadcastInDim S7x512x64x64 ![] bcast_S_S7x512x64x64),
    StableHlo.TRef.ternary (.of main_call84_v0 : StableHlo.TRef sig ⟨S7x512x64x64, .i1⟩) (.of main_call84_v1 : StableHlo.TRef sig ⟨S7x512x64x64, .f32⟩) (.of main_call84_v2 : StableHlo.TRef sig ⟨S7x512x64x64, .f32⟩) (.of main_v1134 : StableHlo.TRef sig ⟨S7x512x64x64, .f32⟩) select,
    StableHlo.nullary main_cst_143 (constant S_ .f32 0xFF800000#32),
    StableHlo.binary main_v1134 main_cst_143 main_v1135 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1131 main_v1136 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1135 main_v1137 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_144 (constant S_ .f32 0xFF800000#32),
    StableHlo.TRef.unary (.of main_v1136 : StableHlo.TRef sig ⟨S1x1x7x64, .i1⟩) (.of main_call85_v0 : StableHlo.TRef sig ⟨S7x512x7x64, .i1⟩) (broadcastInDim S7x512x7x64 ![0, 1, 2, 3] bcast_S1x1x7x64_S7x512x7x64_0_1_2_3),
    StableHlo.TRef.unary (.of main_v1137 : StableHlo.TRef sig ⟨S7x512x1x64, .f32⟩) (.of main_call85_v1 : StableHlo.TRef sig ⟨S7x512x7x64, .f32⟩) (broadcastInDim S7x512x7x64 ![0, 1, 2, 3] bcast_S7x512x1x64_S7x512x7x64_0_1_2_3),
    StableHlo.TRef.unary (.of main_cst_144 : StableHlo.TRef sig ⟨S_, .f32⟩) (.of main_call85_v2 : StableHlo.TRef sig ⟨S7x512x7x64, .f32⟩) (broadcastInDim S7x512x7x64 ![] bcast_S_S7x512x7x64),
    StableHlo.TRef.ternary (.of main_call85_v0 : StableHlo.TRef sig ⟨S7x512x7x64, .i1⟩) (.of main_call85_v1 : StableHlo.TRef sig ⟨S7x512x7x64, .f32⟩) (.of main_call85_v2 : StableHlo.TRef sig ⟨S7x512x7x64, .f32⟩) (.of main_v1138 : StableHlo.TRef sig ⟨S7x512x7x64, .f32⟩) select ]
/-- The buffers those operations write, in order. -/
abbrev ops43_W : List (Ref sig .tc) :=
  [main_call83_v0, main_call83_v1, main_call83_v2, main_call83_v3, main_call83_v4, main_call83_v5, main_call83_v6, main_call83_v7, main_call83_v8, main_call83_c, main_call83_v9, main_call83_v10, main_call83_v11, main_call83_c_0, main_call83_v12, main_call83_v13, main_v1105, main_v1106, main_v1107, main_v1108, main_v1109, main_v1110, main_v1111, main_v1112, main_v1113, main_v1114, main_v1115, main_v1116, main_v1117, main_v1118, main_v1119, main_v1120, main_v1121, main_v1122, main_v1123, main_v1124, main_v1125, main_v1126, main_v1127, main_v1128, main_v1129, main_v1130, main_v1131, main_v1132, main_v1133, main_cst_142, main_call84_v0, main_call84_v1, main_call84_v2, main_v1134, main_cst_143, main_v1135, main_v1136, main_v1137, main_cst_144, main_call85_v0, main_call85_v1, main_call85_v2, main_v1138]
/-- Each operation writes its own result buffer and nothing else. -/
theorem ops43_writes : (ops43 : List (HloOp τ sig (Elt F))).Forall fun op => op.writes ⊆ (ops43_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- This part's runs, one after the other. -/
abbrev part6 : List (HloOp τ sig (Elt F)) :=
  ops38 ++ ops39 ++ ops40 ++ ops41 ++ ops42 ++ ops43
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 38 (operations 1938 to 1994): agreement on the 15 buffers live before it gives agreement on the 22 live after it. -/
theorem step38
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v970) = WR (Proc.devRef .tc Cert.ReferenceIdeal.main_v970)) :
    (after (Cert.KernelIdeal.Agree.ops38 (F := F)) WK) (Proc.devRef .tc Cert.KernelIdeal.main_v0) = (after (Cert.ReferenceIdeal.Agree.ops38 (F := F)) WR) (Proc.devRef .tc Cert.ReferenceIdeal.main_v0)
      ∧ (after (Cert.KernelIdeal.Agree.ops38 (F := F)) WK) (Proc.devRef .tc Cert.KernelIdeal.main_v18) = (after (Cert.ReferenceIdeal.Agree.ops38 (F := F)) WR) (Proc.devRef .tc Cert.ReferenceIdeal.main_v18)
      ∧ (after (Cert.KernelIdeal.Agree.ops38 (F := F)) WK) (Proc.devRef .tc Cert.KernelIdeal.main_v23) = (after (Cert.ReferenceIdeal.Agree.ops38 (F := F)) WR) (Proc.devRef .tc Cert.ReferenceIdeal.main_v23)
      ∧ (after (Cert.KernelIdeal.Agree.ops38 (F := F)) WK) (Proc.devRef .tc Cert.KernelIdeal.main_v85) = (after (Cert.ReferenceIdeal.Agree.ops38 (F := F)) WR) (Proc.devRef .tc Cert.ReferenceIdeal.main_v85)
      ∧ (after (Cert.KernelIdeal.Agree.ops38 (F := F)) WK) (Proc.devRef .tc Cert.KernelIdeal.main_v157) = (after (Cert.ReferenceIdeal.Agree.ops38 (F := F)) WR) (Proc.devRef .tc Cert.ReferenceIdeal.main_v157)
      ∧ (after (Cert.KernelIdeal.Agree.ops38 (F := F)) WK) (Proc.devRef .tc Cert.KernelIdeal.main_v229) = (after (Cert.ReferenceIdeal.Agree.ops38 (F := F)) WR) (Proc.devRef .tc Cert.ReferenceIdeal.main_v229)
      ∧ (after (Cert.KernelIdeal.Agree.ops38 (F := F)) WK) (Proc.devRef .tc Cert.KernelIdeal.main_v301) = (after (Cert.ReferenceIdeal.Agree.ops38 (F := F)) WR) (Proc.devRef .tc Cert.ReferenceIdeal.main_v301)
      ∧ (after (Cert.KernelIdeal.Agree.ops38 (F := F)) WK) (Proc.devRef .tc Cert.KernelIdeal.main_v385) = (after (Cert.ReferenceIdeal.Agree.ops38 (F := F)) WR) (Proc.devRef .tc Cert.ReferenceIdeal.main_v385)
      ∧ (after (Cert.KernelIdeal.Agree.ops38 (F := F)) WK) (Proc.devRef .tc Cert.KernelIdeal.main_v469) = (after (Cert.ReferenceIdeal.Agree.ops38 (F := F)) WR) (Proc.devRef .tc Cert.ReferenceIdeal.main_v469)
      ∧ (after (Cert.KernelIdeal.Agree.ops38 (F := F)) WK) (Proc.devRef .tc Cert.KernelIdeal.main_v553) = (after (Cert.ReferenceIdeal.Agree.ops38 (F := F)) WR) (Proc.devRef .tc Cert.ReferenceIdeal.main_v553)
      ∧ (after (Cert.KernelIdeal.Agree.ops38 (F := F)) WK) (Proc.devRef .tc Cert.KernelIdeal.main_v637) = (after (Cert.ReferenceIdeal.Agree.ops38 (F := F)) WR) (Proc.devRef .tc Cert.ReferenceIdeal.main_v637)
      ∧ (after (Cert.KernelIdeal.Agree.ops38 (F := F)) WK) (Proc.devRef .tc Cert.KernelIdeal.main_v721) = (after (Cert.ReferenceIdeal.Agree.ops38 (F := F)) WR) (Proc.devRef .tc Cert.ReferenceIdeal.main_v721)
      ∧ (after (Cert.KernelIdeal.Agree.ops38 (F := F)) WK) (Proc.devRef .tc Cert.KernelIdeal.main_v805) = (after (Cert.ReferenceIdeal.Agree.ops38 (F := F)) WR) (Proc.devRef .tc Cert.ReferenceIdeal.main_v805)
      ∧ (after (Cert.KernelIdeal.Agree.ops38 (F := F)) WK) (Proc.devRef .tc Cert.KernelIdeal.main_v889) = (after (Cert.ReferenceIdeal.Agree.ops38 (F := F)) WR) (Proc.devRef .tc Cert.ReferenceIdeal.main_v889)
      ∧ (after (Cert.KernelIdeal.Agree.ops38 (F := F)) WK) (Proc.devRef .tc Cert.KernelIdeal.main_v973) = (after (Cert.ReferenceIdeal.Agree.ops38 (F := F)) WR) (Proc.devRef .tc Cert.ReferenceIdeal.main_v973)
      ∧ (after (Cert.KernelIdeal.Agree.ops38 (F := F)) WK) (Proc.devRef .tc Cert.KernelIdeal.main_v978) = (after (Cert.ReferenceIdeal.Agree.ops38 (F := F)) WR) (Proc.devRef .tc Cert.ReferenceIdeal.main_v978)
      ∧ (after (Cert.KernelIdeal.Agree.ops38 (F := F)) WK) (Proc.devRef .tc Cert.KernelIdeal.main_v988) = (after (Cert.ReferenceIdeal.Agree.ops38 (F := F)) WR) (Proc.devRef .tc Cert.ReferenceIdeal.main_v988)
      ∧ (after (Cert.KernelIdeal.Agree.ops38 (F := F)) WK) (Proc.devRef .tc Cert.KernelIdeal.main_v995) = (after (Cert.ReferenceIdeal.Agree.ops38 (F := F)) WR) (Proc.devRef .tc Cert.ReferenceIdeal.main_v995)
      ∧ (after (Cert.KernelIdeal.Agree.ops38 (F := F)) WK) (Proc.devRef .tc Cert.KernelIdeal.main_v997) = (after (Cert.ReferenceIdeal.Agree.ops38 (F := F)) WR) (Proc.devRef .tc Cert.ReferenceIdeal.main_v997)
      ∧ (after (Cert.KernelIdeal.Agree.ops38 (F := F)) WK) (Proc.devRef .tc Cert.KernelIdeal.main_v1002) = (after (Cert.ReferenceIdeal.Agree.ops38 (F := F)) WR) (Proc.devRef .tc Cert.ReferenceIdeal.main_v1002)
      ∧ (after (Cert.KernelIdeal.Agree.ops38 (F := F)) WK) (Proc.devRef .tc Cert.KernelIdeal.main_v1007) = (after (Cert.ReferenceIdeal.Agree.ops38 (F := F)) WR) (Proc.devRef .tc Cert.ReferenceIdeal.main_v1007)
      ∧ (after (Cert.KernelIdeal.Agree.ops38 (F := F)) WK) (Proc.devRef .tc Cert.KernelIdeal.main_c_128) = (after (Cert.ReferenceIdeal.Agree.ops38 (F := F)) WR) (Proc.devRef .tc Cert.ReferenceIdeal.main_c_128) := by
  obtain ⟨h_v0, h_v18, h_v23, h_v85, h_v157, h_v229, h_v301, h_v385, h_v469, h_v553, h_v637, h_v721, h_v805, h_v889, h_v970⟩ := h
  refine ⟨?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops38_writes (by decide)).trans (h_v0.trans (after_of_writes_sub _ WR Cert.ReferenceIdeal.Agree.ops38_writes (by decide)).symm)
  · exact (after_of_writes_sub _ WK Cert.KernelIdeal.Agree.ops38_writes (by decide)).trans (h_v18.trans (after_of_writes_sub _ WR Cert.ReferenceIdeal.Agree.ops38_writes (by decide)).symm)
  · exact (after_of_writes_sub _ WK Cert.KernelIdeal.Agree.ops38_writes (by decide)).trans (h_v23.trans (after_of_writes_sub _ WR Cert.ReferenceIdeal.Agree.ops38_writes (by decide)).symm)
  · exact (after_of_writes_sub _ WK Cert.KernelIdeal.Agree.ops38_writes (by decide)).trans (h_v85.trans (after_of_writes_sub _ WR Cert.ReferenceIdeal.Agree.ops38_writes (by decide)).symm)
  · exact (after_of_writes_sub _ WK Cert.KernelIdeal.Agree.ops38_writes (by decide)).trans (h_v157.trans (after_of_writes_sub _ WR Cert.ReferenceIdeal.Agree.ops38_writes (by decide)).symm)
  · exact (after_of_writes_sub _ WK Cert.KernelIdeal.Agree.ops38_writes (by decide)).trans (h_v229.trans (after_of_writes_sub _ WR Cert.ReferenceIdeal.Agree.ops38_writes (by decide)).symm)
  · exact (after_of_writes_sub _ WK Cert.KernelIdeal.Agree.ops38_writes (by decide)).trans (h_v301.trans (after_of_writes_sub _ WR Cert.ReferenceIdeal.Agree.ops38_writes (by decide)).symm)
  · exact (after_of_writes_sub _ WK Cert.KernelIdeal.Agree.ops38_writes (by decide)).trans (h_v385.trans (after_of_writes_sub _ WR Cert.ReferenceIdeal.Agree.ops38_writes (by decide)).symm)
  · exact (after_of_writes_sub _ WK Cert.KernelIdeal.Agree.ops38_writes (by decide)).trans (h_v469.trans (after_of_writes_sub _ WR Cert.ReferenceIdeal.Agree.ops38_writes (by decide)).symm)
  · exact (after_of_writes_sub _ WK Cert.KernelIdeal.Agree.ops38_writes (by decide)).trans (h_v553.trans (after_of_writes_sub _ WR Cert.ReferenceIdeal.Agree.ops38_writes (by decide)).symm)
  · exact (after_of_writes_sub _ WK Cert.KernelIdeal.Agree.ops38_writes (by decide)).trans (h_v637.trans (after_of_writes_sub _ WR Cert.ReferenceIdeal.Agree.ops38_writes (by decide)).symm)
  · exact (after_of_writes_sub _ WK Cert.KernelIdeal.Agree.ops38_writes (by decide)).trans (h_v721.trans (after_of_writes_sub _ WR Cert.ReferenceIdeal.Agree.ops38_writes (by decide)).symm)
  · exact (after_of_writes_sub _ WK Cert.KernelIdeal.Agree.ops38_writes (by decide)).trans (h_v805.trans (after_of_writes_sub _ WR Cert.ReferenceIdeal.Agree.ops38_writes (by decide)).symm)
  · exact (after_of_writes_sub _ WK Cert.KernelIdeal.Agree.ops38_writes (by decide)).trans (h_v889.trans (after_of_writes_sub _ WR Cert.ReferenceIdeal.Agree.ops38_writes (by decide)).symm)
  · run_agrees [h_v970]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 39 (operations 1995 to 2042): agreement on the 22 buffers live before it gives agreement on the 21 live after it. -/
theorem step39
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v978) = WR (Proc.devRef .tc Cert.ReferenceIdeal.main_v978)
      ∧ WK (Proc.devRef .tc Cert.KernelIdeal.main_v988) = WR (Proc.devRef .tc Cert.ReferenceIdeal.main_v988)
      ∧ WK (Proc.devRef .tc Cert.KernelIdeal.main_v995) = WR (Proc.devRef .tc Cert.ReferenceIdeal.main_v995)
      ∧ WK (Proc.devRef .tc Cert.KernelIdeal.main_v997) = WR (Proc.devRef .tc Cert.ReferenceIdeal.main_v997)
      ∧ WK (Proc.devRef .tc Cert.KernelIdeal.main_v1002) = WR (Proc.devRef .tc Cert.ReferenceIdeal.main_v1002)
      ∧ WK (Proc.devRef .tc Cert.KernelIdeal.main_v1007) = WR (Proc.devRef .tc Cert.ReferenceIdeal.main_v1007)
      ∧ WK (Proc.devRef .tc Cert.KernelIdeal.main_c_128) = WR (Proc.devRef .tc Cert.ReferenceIdeal.main_c_128)) :
    (after (Cert.KernelIdeal.Agree.ops39 (F := F)) WK) (Proc.devRef .tc Cert.KernelIdeal.main_v0) = (after (Cert.ReferenceIdeal.Agree.ops39 (F := F)) WR) (Proc.devRef .tc Cert.ReferenceIdeal.main_v0)
      ∧ (after (Cert.KernelIdeal.Agree.ops39 (F := F)) WK) (Proc.devRef .tc Cert.KernelIdeal.main_v18) = (after (Cert.ReferenceIdeal.Agree.ops39 (F := F)) WR) (Proc.devRef .tc Cert.ReferenceIdeal.main_v18)
      ∧ (after (Cert.KernelIdeal.Agree.ops39 (F := F)) WK) (Proc.devRef .tc Cert.KernelIdeal.main_v23) = (after (Cert.ReferenceIdeal.Agree.ops39 (F := F)) WR) (Proc.devRef .tc Cert.ReferenceIdeal.main_v23)
      ∧ (after (Cert.KernelIdeal.Agree.ops39 (F := F)) WK) (Proc.devRef .tc Cert.KernelIdeal.main_v85) = (after (Cert.ReferenceIdeal.Agree.ops39 (F := F)) WR) (Proc.devRef .tc Cert.ReferenceIdeal.main_v85)
      ∧ (after (Cert.KernelIdeal.Agree.ops39 (F := F)) WK) (Proc.devRef .tc Cert.KernelIdeal.main_v157) = (after (Cert.ReferenceIdeal.Agree.ops39 (F := F)) WR) (Proc.devRef .tc Cert.ReferenceIdeal.main_v157)
      ∧ (after (Cert.KernelIdeal.Agree.ops39 (F := F)) WK) (Proc.devRef .tc Cert.KernelIdeal.main_v229) = (after (Cert.ReferenceIdeal.Agree.ops39 (F := F)) WR) (Proc.devRef .tc Cert.ReferenceIdeal.main_v229)
      ∧ (after (Cert.KernelIdeal.Agree.ops39 (F := F)) WK) (Proc.devRef .tc Cert.KernelIdeal.main_v301) = (after (Cert.ReferenceIdeal.Agree.ops39 (F := F)) WR) (Proc.devRef .tc Cert.ReferenceIdeal.main_v301)
      ∧ (after (Cert.KernelIdeal.Agree.ops39 (F := F)) WK) (Proc.devRef .tc Cert.KernelIdeal.main_v385) = (after (Cert.ReferenceIdeal.Agree.ops39 (F := F)) WR) (Proc.devRef .tc Cert.ReferenceIdeal.main_v385)
      ∧ (after (Cert.KernelIdeal.Agree.ops39 (F := F)) WK) (Proc.devRef .tc Cert.KernelIdeal.main_v469) = (after (Cert.ReferenceIdeal.Agree.ops39 (F := F)) WR) (Proc.devRef .tc Cert.ReferenceIdeal.main_v469)
      ∧ (after (Cert.KernelIdeal.Agree.ops39 (F := F)) WK) (Proc.devRef .tc Cert.KernelIdeal.main_v553) = (after (Cert.ReferenceIdeal.Agree.ops39 (F := F)) WR) (Proc.devRef .tc Cert.ReferenceIdeal.main_v553)
      ∧ (after (Cert.KernelIdeal.Agree.ops39 (F := F)) WK) (Proc.devRef .tc Cert.KernelIdeal.main_v637) = (after (Cert.ReferenceIdeal.Agree.ops39 (F := F)) WR) (Proc.devRef .tc Cert.ReferenceIdeal.main_v637)
      ∧ (after (Cert.KernelIdeal.Agree.ops39 (F := F)) WK) (Proc.devRef .tc Cert.KernelIdeal.main_v721) = (after (Cert.ReferenceIdeal.Agree.ops39 (F := F)) WR) (Proc.devRef .tc Cert.ReferenceIdeal.main_v721)
      ∧ (after (Cert.KernelIdeal.Agree.ops39 (F := F)) WK) (Proc.devRef .tc Cert.KernelIdeal.main_v805) = (after (Cert.ReferenceIdeal.Agree.ops39 (F := F)) WR) (Proc.devRef .tc Cert.ReferenceIdeal.main_v805)
      ∧ (after (Cert.KernelIdeal.Agree.ops39 (F := F)) WK) (Proc.devRef .tc Cert.KernelIdeal.main_v889) = (after (Cert.ReferenceIdeal.Agree.ops39 (F := F)) WR) (Proc.devRef .tc Cert.ReferenceIdeal.main_v889)
      ∧ (after (Cert.KernelIdeal.Agree.ops39 (F := F)) WK) (Proc.devRef .tc Cert.KernelIdeal.main_v973) = (after (Cert.ReferenceIdeal.Agree.ops39 (F := F)) WR) (Proc.devRef .tc Cert.ReferenceIdeal.main_v973)
      ∧ (after (Cert.KernelIdeal.Agree.ops39 (F := F)) WK) (Proc.devRef .tc Cert.KernelIdeal.main_v988) = (after (Cert.ReferenceIdeal.Agree.ops39 (F := F)) WR) (Proc.devRef .tc Cert.ReferenceIdeal.main_v988)
      ∧ (after (Cert.KernelIdeal.Agree.ops39 (F := F)) WK) (Proc.devRef .tc Cert.KernelIdeal.main_v1002) = (after (Cert.ReferenceIdeal.Agree.ops39 (F := F)) WR) (Proc.devRef .tc Cert.ReferenceIdeal.main_v1002)
      ∧ (after (Cert.KernelIdeal.Agree.ops39 (F := F)) WK) (Proc.devRef .tc Cert.KernelIdeal.main_v1010) = (after (Cert.ReferenceIdeal.Agree.ops39 (F := F)) WR) (Proc.devRef .tc Cert.ReferenceIdeal.main_v1010)
      ∧ (after (Cert.KernelIdeal.Agree.ops39 (F := F)) WK) (Proc.devRef .tc Cert.KernelIdeal.main_v1015) = (after (Cert.ReferenceIdeal.Agree.ops39 (F := F)) WR) (Proc.devRef .tc Cert.ReferenceIdeal.main_v1015)
      ∧ (after (Cert.KernelIdeal.Agree.ops39 (F := F)) WK) (Proc.devRef .tc Cert.KernelIdeal.main_v1020) = (after (Cert.ReferenceIdeal.Agree.ops39 (F := F)) WR) (Proc.devRef .tc Cert.ReferenceIdeal.main_v1020)
      ∧ (after (Cert.KernelIdeal.Agree.ops39 (F := F)) WK) (Proc.devRef .tc Cert.KernelIdeal.main_c_131) = (after (Cert.ReferenceIdeal.Agree.ops39 (F := F)) WR) (Proc.devRef .tc Cert.ReferenceIdeal.main_c_131) := by
  obtain ⟨h_v0, h_v18, h_v23, h_v85, h_v157, h_v229, h_v301, h_v385, h_v469, h_v553, h_v637, h_v721, h_v805, h_v889, h_v973, h_v978, h_v988, h_v995, h_v997, h_v1002, h_v1007, h_c_128⟩ := h
  refine ⟨?_, ?_, ?_, ?_, ?_, ?_, ?_, ?_, ?_, ?_, ?_, ?_, ?_, ?_, ?_, ?_, ?_, ?_, ?_, ?_, ?_⟩
  · exact (after_of_writes_sub _ WK Cert.KernelIdeal.Agree.ops39_writes (by decide)).trans (h_v0.trans (after_of_writes_sub _ WR Cert.ReferenceIdeal.Agree.ops39_writes (by decide)).symm)
  · exact (after_of_writes_sub _ WK Cert.KernelIdeal.Agree.ops39_writes (by decide)).trans (h_v18.trans (after_of_writes_sub _ WR Cert.ReferenceIdeal.Agree.ops39_writes (by decide)).symm)
  · exact (after_of_writes_sub _ WK Cert.KernelIdeal.Agree.ops39_writes (by decide)).trans (h_v23.trans (after_of_writes_sub _ WR Cert.ReferenceIdeal.Agree.ops39_writes (by decide)).symm)
  · exact (after_of_writes_sub _ WK Cert.KernelIdeal.Agree.ops39_writes (by decide)).trans (h_v85.trans (after_of_writes_sub _ WR Cert.ReferenceIdeal.Agree.ops39_writes (by decide)).symm)
  · exact (after_of_writes_sub _ WK Cert.KernelIdeal.Agree.ops39_writes (by decide)).trans (h_v157.trans (after_of_writes_sub _ WR Cert.ReferenceIdeal.Agree.ops39_writes (by decide)).symm)
  · exact (after_of_writes_sub _ WK Cert.KernelIdeal.Agree.ops39_writes (by decide)).trans (h_v229.trans (after_of_writes_sub _ WR Cert.ReferenceIdeal.Agree.ops39_writes (by decide)).symm)
  · exact (after_of_writes_sub _ WK Cert.KernelIdeal.Agree.ops39_writes (by decide)).trans (h_v301.trans (after_of_writes_sub _ WR Cert.ReferenceIdeal.Agree.ops39_writes (by decide)).symm)
  · exact (after_of_writes_sub _ WK Cert.KernelIdeal.Agree.ops39_writes (by decide)).trans (h_v385.trans (after_of_writes_sub _ WR Cert.ReferenceIdeal.Agree.ops39_writes (by decide)).symm)
  · exact (after_of_writes_sub _ WK Cert.KernelIdeal.Agree.ops39_writes (by decide)).trans (h_v469.trans (after_of_writes_sub _ WR Cert.ReferenceIdeal.Agree.ops39_writes (by decide)).symm)
  · exact (after_of_writes_sub _ WK Cert.KernelIdeal.Agree.ops39_writes (by decide)).trans (h_v553.trans (after_of_writes_sub _ WR Cert.ReferenceIdeal.Agree.ops39_writes (by decide)).symm)
  · exact (after_of_writes_sub _ WK Cert.KernelIdeal.Agree.ops39_writes (by decide)).trans (h_v637.trans (after_of_writes_sub _ WR Cert.ReferenceIdeal.Agree.ops39_writes (by decide)).symm)
  · exact (after_of_writes_sub _ WK Cert.KernelIdeal.Agree.ops39_writes (by decide)).trans (h_v721.trans (after_of_writes_sub _ WR Cert.ReferenceIdeal.Agree.ops39_writes (by decide)).symm)
  · exact (after_of_writes_sub _ WK Cert.KernelIdeal.Agree.ops39_writes (by decide)).trans (h_v805.trans (after_of_writes_sub _ WR Cert.ReferenceIdeal.Agree.ops39_writes (by decide)).symm)
  · exact (after_of_writes_sub _ WK Cert.KernelIdeal.Agree.ops39_writes (by decide)).trans (h_v889.trans (after_of_writes_sub _ WR Cert.ReferenceIdeal.Agree.ops39_writes (by decide)).symm)
  · exact (after_of_writes_sub _ WK Cert.KernelIdeal.Agree.ops39_writes (by decide)).trans (h_v973.trans (after_of_writes_sub _ WR Cert.ReferenceIdeal.Agree.ops39_writes (by decide)).symm)
  · exact (after_of_writes_sub _ WK Cert.KernelIdeal.Agree.ops39_writes (by decide)).trans (h_v988.trans (after_of_writes_sub _ WR Cert.ReferenceIdeal.Agree.ops39_writes (by decide)).symm)
  · exact (after_of_writes_sub _ WK Cert.KernelIdeal.Agree.ops39_writes (by decide)).trans (h_v1002.trans (after_of_writes_sub _ WR Cert.ReferenceIdeal.Agree.ops39_writes (by decide)).symm)
  · run_agrees [h_v978, h_v1007, h_c_128]
  · run_agrees [h_v988, h_v995, h_v997]
  · run_agrees [h_v995, h_v997]
  · after_results_simp; first | done | rfl

set_option maxHeartbeats 800000 in
/-- Run 40 (operations 2043 to 2101): agreement on the 21 buffers live before it gives agreement on the 16 live after it. -/
theorem step40
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v988) = WR (Proc.devRef .tc Cert.ReferenceIdeal.main_v988)
      ∧ WK (Proc.devRef .tc Cert.KernelIdeal.main_v1002) = WR (Proc.devRef .tc Cert.ReferenceIdeal.main_v1002)
      ∧ WK (Proc.devRef .tc Cert.KernelIdeal.main_v1010) = WR (Proc.devRef .tc Cert.ReferenceIdeal.main_v1010)
      ∧ WK (Proc.devRef .tc Cert.KernelIdeal.main_v1015) = WR (Proc.devRef .tc Cert.ReferenceIdeal.main_v1015)
      ∧ WK (Proc.devRef .tc Cert.KernelIdeal.main_v1020) = WR (Proc.devRef .tc Cert.ReferenceIdeal.main_v1020)
      ∧ WK (Proc.devRef .tc Cert.KernelIdeal.main_c_131) = WR (Proc.devRef .tc Cert.ReferenceIdeal.main_c_131)) :
    (after (Cert.KernelIdeal.Agree.ops40 (F := F)) WK) (Proc.devRef .tc Cert.KernelIdeal.main_v0) = (after (Cert.ReferenceIdeal.Agree.ops40 (F := F)) WR) (Proc.devRef .tc Cert.ReferenceIdeal.main_v0)
      ∧ (after (Cert.KernelIdeal.Agree.ops40 (F := F)) WK) (Proc.devRef .tc Cert.KernelIdeal.main_v18) = (after (Cert.ReferenceIdeal.Agree.ops40 (F := F)) WR) (Proc.devRef .tc Cert.ReferenceIdeal.main_v18)
      ∧ (after (Cert.KernelIdeal.Agree.ops40 (F := F)) WK) (Proc.devRef .tc Cert.KernelIdeal.main_v23) = (after (Cert.ReferenceIdeal.Agree.ops40 (F := F)) WR) (Proc.devRef .tc Cert.ReferenceIdeal.main_v23)
      ∧ (after (Cert.KernelIdeal.Agree.ops40 (F := F)) WK) (Proc.devRef .tc Cert.KernelIdeal.main_v85) = (after (Cert.ReferenceIdeal.Agree.ops40 (F := F)) WR) (Proc.devRef .tc Cert.ReferenceIdeal.main_v85)
      ∧ (after (Cert.KernelIdeal.Agree.ops40 (F := F)) WK) (Proc.devRef .tc Cert.KernelIdeal.main_v157) = (after (Cert.ReferenceIdeal.Agree.ops40 (F := F)) WR) (Proc.devRef .tc Cert.ReferenceIdeal.main_v157)
      ∧ (after (Cert.KernelIdeal.Agree.ops40 (F := F)) WK) (Proc.devRef .tc Cert.KernelIdeal.main_v229) = (after (Cert.ReferenceIdeal.Agree.ops40 (F := F)) WR) (Proc.devRef .tc Cert.ReferenceIdeal.main_v229)
      ∧ (after (Cert.KernelIdeal.Agree.ops40 (F := F)) WK) (Proc.devRef .tc Cert.KernelIdeal.main_v301) = (after (Cert.ReferenceIdeal.Agree.ops40 (F := F)) WR) (Proc.devRef .tc Cert.ReferenceIdeal.main_v301)
      ∧ (after (Cert.KernelIdeal.Agree.ops40 (F := F)) WK) (Proc.devRef .tc Cert.KernelIdeal.main_v385) = (after (Cert.ReferenceIdeal.Agree.ops40 (F := F)) WR) (Proc.devRef .tc Cert.ReferenceIdeal.main_v385)
      ∧ (after (Cert.KernelIdeal.Agree.ops40 (F := F)) WK) (Proc.devRef .tc Cert.KernelIdeal.main_v469) = (after (Cert.ReferenceIdeal.Agree.ops40 (F := F)) WR) (Proc.devRef .tc Cert.ReferenceIdeal.main_v469)
      ∧ (after (Cert.KernelIdeal.Agree.ops40 (F := F)) WK) (Proc.devRef .tc Cert.KernelIdeal.main_v553) = (after (Cert.ReferenceIdeal.Agree.ops40 (F := F)) WR) (Proc.devRef .tc Cert.ReferenceIdeal.main_v553)
      ∧ (after (Cert.KernelIdeal.Agree.ops40 (F := F)) WK) (Proc.devRef .tc Cert.KernelIdeal.main_v637) = (after (Cert.ReferenceIdeal.Agree.ops40 (F := F)) WR) (Proc.devRef .tc Cert.ReferenceIdeal.main_v637)
      ∧ (after (Cert.KernelIdeal.Agree.ops40 (F := F)) WK) (Proc.devRef .tc Cert.KernelIdeal.main_v721) = (after (Cert.ReferenceIdeal.Agree.ops40 (F := F)) WR) (Proc.devRef .tc Cert.ReferenceIdeal.main_v721)
      ∧ (after (Cert.KernelIdeal.Agree.ops40 (F := F)) WK) (Proc.devRef .tc Cert.KernelIdeal.main_v805) = (after (Cert.ReferenceIdeal.Agree.ops40 (F := F)) WR) (Proc.devRef .tc Cert.ReferenceIdeal.main_v805)
      ∧ (after (Cert.KernelIdeal.Agree.ops40 (F := F)) WK) (Proc.devRef .tc Cert.KernelIdeal.main_v889) = (after (Cert.ReferenceIdeal.Agree.ops40 (F := F)) WR) (Proc.devRef .tc Cert.ReferenceIdeal.main_v889)
      ∧ (after (Cert.KernelIdeal.Agree.ops40 (F := F)) WK) (Proc.devRef .tc Cert.KernelIdeal.main_v973) = (after (Cert.ReferenceIdeal.Agree.ops40 (F := F)) WR) (Proc.devRef .tc Cert.ReferenceIdeal.main_v973)
      ∧ (after (Cert.KernelIdeal.Agree.ops40 (F := F)) WK) (Proc.devRef .tc Cert.KernelIdeal.main_v1054) = (after (Cert.ReferenceIdeal.Agree.ops40 (F := F)) WR) (Proc.devRef .tc Cert.ReferenceIdeal.main_v1054) := by
  obtain ⟨h_v0, h_v18, h_v23, h_v85, h_v157, h_v229, h_v301, h_v385, h_v469, h_v553, h_v637, h_v721, h_v805, h_v889, h_v973, h_v988, h_v1002, h_v1010, h_v1015, h_v1020, h_c_131⟩ := h
  refine ⟨?_, ?_, ?_, ?_, ?_, ?_, ?_, ?_, ?_, ?_, ?_, ?_, ?_, ?_, ?_, ?_⟩
  · exact (after_of_writes_sub _ WK Cert.KernelIdeal.Agree.ops40_writes (by decide)).trans (h_v0.trans (after_of_writes_sub _ WR Cert.ReferenceIdeal.Agree.ops40_writes (by decide)).symm)
  · exact (after_of_writes_sub _ WK Cert.KernelIdeal.Agree.ops40_writes (by decide)).trans (h_v18.trans (after_of_writes_sub _ WR Cert.ReferenceIdeal.Agree.ops40_writes (by decide)).symm)
  · exact (after_of_writes_sub _ WK Cert.KernelIdeal.Agree.ops40_writes (by decide)).trans (h_v23.trans (after_of_writes_sub _ WR Cert.ReferenceIdeal.Agree.ops40_writes (by decide)).symm)
  · exact (after_of_writes_sub _ WK Cert.KernelIdeal.Agree.ops40_writes (by decide)).trans (h_v85.trans (after_of_writes_sub _ WR Cert.ReferenceIdeal.Agree.ops40_writes (by decide)).symm)
  · exact (after_of_writes_sub _ WK Cert.KernelIdeal.Agree.ops40_writes (by decide)).trans (h_v157.trans (after_of_writes_sub _ WR Cert.ReferenceIdeal.Agree.ops40_writes (by decide)).symm)
  · exact (after_of_writes_sub _ WK Cert.KernelIdeal.Agree.ops40_writes (by decide)).trans (h_v229.trans (after_of_writes_sub _ WR Cert.ReferenceIdeal.Agree.ops40_writes (by decide)).symm)
  · exact (after_of_writes_sub _ WK Cert.KernelIdeal.Agree.ops40_writes (by decide)).trans (h_v301.trans (after_of_writes_sub _ WR Cert.ReferenceIdeal.Agree.ops40_writes (by decide)).symm)
  · exact (after_of_writes_sub _ WK Cert.KernelIdeal.Agree.ops40_writes (by decide)).trans (h_v385.trans (after_of_writes_sub _ WR Cert.ReferenceIdeal.Agree.ops40_writes (by decide)).symm)
  · exact (after_of_writes_sub _ WK Cert.KernelIdeal.Agree.ops40_writes (by decide)).trans (h_v469.trans (after_of_writes_sub _ WR Cert.ReferenceIdeal.Agree.ops40_writes (by decide)).symm)
  · exact (after_of_writes_sub _ WK Cert.KernelIdeal.Agree.ops40_writes (by decide)).trans (h_v553.trans (after_of_writes_sub _ WR Cert.ReferenceIdeal.Agree.ops40_writes (by decide)).symm)
  · exact (after_of_writes_sub _ WK Cert.KernelIdeal.Agree.ops40_writes (by decide)).trans (h_v637.trans (after_of_writes_sub _ WR Cert.ReferenceIdeal.Agree.ops40_writes (by decide)).symm)
  · exact (after_of_writes_sub _ WK Cert.KernelIdeal.Agree.ops40_writes (by decide)).trans (h_v721.trans (after_of_writes_sub _ WR Cert.ReferenceIdeal.Agree.ops40_writes (by decide)).symm)
  · exact (after_of_writes_sub _ WK Cert.KernelIdeal.Agree.ops40_writes (by decide)).trans (h_v805.trans (after_of_writes_sub _ WR Cert.ReferenceIdeal.Agree.ops40_writes (by decide)).symm)
  · exact (after_of_writes_sub _ WK Cert.KernelIdeal.Agree.ops40_writes (by decide)).trans (h_v889.trans (after_of_writes_sub _ WR Cert.ReferenceIdeal.Agree.ops40_writes (by decide)).symm)
  · exact (after_of_writes_sub _ WK Cert.KernelIdeal.Agree.ops40_writes (by decide)).trans (h_v973.trans (after_of_writes_sub _ WR Cert.ReferenceIdeal.Agree.ops40_writes (by decide)).symm)
  · run_agrees [h_v0, h_v988, h_v1002, h_v1010, h_v1015, h_v1020, h_c_131]

set_option maxHeartbeats 800000 in
/-- Run 41 (operations 2102 to 2158): agreement on the 16 buffers live before it gives agreement on the 23 live after it. -/
theorem step41
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1054) = WR (Proc.devRef .tc Cert.ReferenceIdeal.main_v1054)) :
    (after (Cert.KernelIdeal.Agree.ops41 (F := F)) WK) (Proc.devRef .tc Cert.KernelIdeal.main_v0) = (after (Cert.ReferenceIdeal.Agree.ops41 (F := F)) WR) (Proc.devRef .tc Cert.ReferenceIdeal.main_v0)
      ∧ (after (Cert.KernelIdeal.Agree.ops41 (F := F)) WK) (Proc.devRef .tc Cert.KernelIdeal.main_v18) = (after (Cert.ReferenceIdeal.Agree.ops41 (F := F)) WR) (Proc.devRef .tc Cert.ReferenceIdeal.main_v18)
      ∧ (after (Cert.KernelIdeal.Agree.ops41 (F := F)) WK) (Proc.devRef .tc Cert.KernelIdeal.main_v23) = (after (Cert.ReferenceIdeal.Agree.ops41 (F := F)) WR) (Proc.devRef .tc Cert.ReferenceIdeal.main_v23)
      ∧ (after (Cert.KernelIdeal.Agree.ops41 (F := F)) WK) (Proc.devRef .tc Cert.KernelIdeal.main_v85) = (after (Cert.ReferenceIdeal.Agree.ops41 (F := F)) WR) (Proc.devRef .tc Cert.ReferenceIdeal.main_v85)
      ∧ (after (Cert.KernelIdeal.Agree.ops41 (F := F)) WK) (Proc.devRef .tc Cert.KernelIdeal.main_v157) = (after (Cert.ReferenceIdeal.Agree.ops41 (F := F)) WR) (Proc.devRef .tc Cert.ReferenceIdeal.main_v157)
      ∧ (after (Cert.KernelIdeal.Agree.ops41 (F := F)) WK) (Proc.devRef .tc Cert.KernelIdeal.main_v229) = (after (Cert.ReferenceIdeal.Agree.ops41 (F := F)) WR) (Proc.devRef .tc Cert.ReferenceIdeal.main_v229)
      ∧ (after (Cert.KernelIdeal.Agree.ops41 (F := F)) WK) (Proc.devRef .tc Cert.KernelIdeal.main_v301) = (after (Cert.ReferenceIdeal.Agree.ops41 (F := F)) WR) (Proc.devRef .tc Cert.ReferenceIdeal.main_v301)
      ∧ (after (Cert.KernelIdeal.Agree.ops41 (F := F)) WK) (Proc.devRef .tc Cert.KernelIdeal.main_v385) = (after (Cert.ReferenceIdeal.Agree.ops41 (F := F)) WR) (Proc.devRef .tc Cert.ReferenceIdeal.main_v385)
      ∧ (after (Cert.KernelIdeal.Agree.ops41 (F := F)) WK) (Proc.devRef .tc Cert.KernelIdeal.main_v469) = (after (Cert.ReferenceIdeal.Agree.ops41 (F := F)) WR) (Proc.devRef .tc Cert.ReferenceIdeal.main_v469)
      ∧ (after (Cert.KernelIdeal.Agree.ops41 (F := F)) WK) (Proc.devRef .tc Cert.KernelIdeal.main_v553) = (after (Cert.ReferenceIdeal.Agree.ops41 (F := F)) WR) (Proc.devRef .tc Cert.ReferenceIdeal.main_v553)
      ∧ (after (Cert.KernelIdeal.Agree.ops41 (F := F)) WK) (Proc.devRef .tc Cert.KernelIdeal.main_v637) = (after (Cert.ReferenceIdeal.Agree.ops41 (F := F)) WR) (Proc.devRef .tc Cert.ReferenceIdeal.main_v637)
      ∧ (after (Cert.KernelIdeal.Agree.ops41 (F := F)) WK) (Proc.devRef .tc Cert.KernelIdeal.main_v721) = (after (Cert.ReferenceIdeal.Agree.ops41 (F := F)) WR) (Proc.devRef .tc Cert.ReferenceIdeal.main_v721)
      ∧ (after (Cert.KernelIdeal.Agree.ops41 (F := F)) WK) (Proc.devRef .tc Cert.KernelIdeal.main_v805) = (after (Cert.ReferenceIdeal.Agree.ops41 (F := F)) WR) (Proc.devRef .tc Cert.ReferenceIdeal.main_v805)
      ∧ (after (Cert.KernelIdeal.Agree.ops41 (F := F)) WK) (Proc.devRef .tc Cert.KernelIdeal.main_v889) = (after (Cert.ReferenceIdeal.Agree.ops41 (F := F)) WR) (Proc.devRef .tc Cert.ReferenceIdeal.main_v889)
      ∧ (after (Cert.KernelIdeal.Agree.ops41 (F := F)) WK) (Proc.devRef .tc Cert.KernelIdeal.main_v973) = (after (Cert.ReferenceIdeal.Agree.ops41 (F := F)) WR) (Proc.devRef .tc Cert.ReferenceIdeal.main_v973)
      ∧ (after (Cert.KernelIdeal.Agree.ops41 (F := F)) WK) (Proc.devRef .tc Cert.KernelIdeal.main_v1057) = (after (Cert.ReferenceIdeal.Agree.ops41 (F := F)) WR) (Proc.devRef .tc Cert.ReferenceIdeal.main_v1057)
      ∧ (after (Cert.KernelIdeal.Agree.ops41 (F := F)) WK) (Proc.devRef .tc Cert.KernelIdeal.main_v1062) = (after (Cert.ReferenceIdeal.Agree.ops41 (F := F)) WR) (Proc.devRef .tc Cert.ReferenceIdeal.main_v1062)
      ∧ (after (Cert.KernelIdeal.Agree.ops41 (F := F)) WK) (Proc.devRef .tc Cert.KernelIdeal.main_v1072) = (after (Cert.ReferenceIdeal.Agree.ops41 (F := F)) WR) (Proc.devRef .tc Cert.ReferenceIdeal.main_v1072)
      ∧ (after (Cert.KernelIdeal.Agree.ops41 (F := F)) WK) (Proc.devRef .tc Cert.KernelIdeal.main_v1079) = (after (Cert.ReferenceIdeal.Agree.ops41 (F := F)) WR) (Proc.devRef .tc Cert.ReferenceIdeal.main_v1079)
      ∧ (after (Cert.KernelIdeal.Agree.ops41 (F := F)) WK) (Proc.devRef .tc Cert.KernelIdeal.main_v1081) = (after (Cert.ReferenceIdeal.Agree.ops41 (F := F)) WR) (Proc.devRef .tc Cert.ReferenceIdeal.main_v1081)
      ∧ (after (Cert.KernelIdeal.Agree.ops41 (F := F)) WK) (Proc.devRef .tc Cert.KernelIdeal.main_v1086) = (after (Cert.ReferenceIdeal.Agree.ops41 (F := F)) WR) (Proc.devRef .tc Cert.ReferenceIdeal.main_v1086)
      ∧ (after (Cert.KernelIdeal.Agree.ops41 (F := F)) WK) (Proc.devRef .tc Cert.KernelIdeal.main_v1091) = (after (Cert.ReferenceIdeal.Agree.ops41 (F := F)) WR) (Proc.devRef .tc Cert.ReferenceIdeal.main_v1091)
      ∧ (after (Cert.KernelIdeal.Agree.ops41 (F := F)) WK) (Proc.devRef .tc Cert.KernelIdeal.main_c_138) = (after (Cert.ReferenceIdeal.Agree.ops41 (F := F)) WR) (Proc.devRef .tc Cert.ReferenceIdeal.main_c_138) := by
  obtain ⟨h_v0, h_v18, h_v23, h_v85, h_v157, h_v229, h_v301, h_v385, h_v469, h_v553, h_v637, h_v721, h_v805, h_v889, h_v973, h_v1054⟩ := h
  refine ⟨?_, ?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops41_writes (by decide)).trans (h_v0.trans (after_of_writes_sub _ WR Cert.ReferenceIdeal.Agree.ops41_writes (by decide)).symm)
  · exact (after_of_writes_sub _ WK Cert.KernelIdeal.Agree.ops41_writes (by decide)).trans (h_v18.trans (after_of_writes_sub _ WR Cert.ReferenceIdeal.Agree.ops41_writes (by decide)).symm)
  · exact (after_of_writes_sub _ WK Cert.KernelIdeal.Agree.ops41_writes (by decide)).trans (h_v23.trans (after_of_writes_sub _ WR Cert.ReferenceIdeal.Agree.ops41_writes (by decide)).symm)
  · exact (after_of_writes_sub _ WK Cert.KernelIdeal.Agree.ops41_writes (by decide)).trans (h_v85.trans (after_of_writes_sub _ WR Cert.ReferenceIdeal.Agree.ops41_writes (by decide)).symm)
  · exact (after_of_writes_sub _ WK Cert.KernelIdeal.Agree.ops41_writes (by decide)).trans (h_v157.trans (after_of_writes_sub _ WR Cert.ReferenceIdeal.Agree.ops41_writes (by decide)).symm)
  · exact (after_of_writes_sub _ WK Cert.KernelIdeal.Agree.ops41_writes (by decide)).trans (h_v229.trans (after_of_writes_sub _ WR Cert.ReferenceIdeal.Agree.ops41_writes (by decide)).symm)
  · exact (after_of_writes_sub _ WK Cert.KernelIdeal.Agree.ops41_writes (by decide)).trans (h_v301.trans (after_of_writes_sub _ WR Cert.ReferenceIdeal.Agree.ops41_writes (by decide)).symm)
  · exact (after_of_writes_sub _ WK Cert.KernelIdeal.Agree.ops41_writes (by decide)).trans (h_v385.trans (after_of_writes_sub _ WR Cert.ReferenceIdeal.Agree.ops41_writes (by decide)).symm)
  · exact (after_of_writes_sub _ WK Cert.KernelIdeal.Agree.ops41_writes (by decide)).trans (h_v469.trans (after_of_writes_sub _ WR Cert.ReferenceIdeal.Agree.ops41_writes (by decide)).symm)
  · exact (after_of_writes_sub _ WK Cert.KernelIdeal.Agree.ops41_writes (by decide)).trans (h_v553.trans (after_of_writes_sub _ WR Cert.ReferenceIdeal.Agree.ops41_writes (by decide)).symm)
  · exact (after_of_writes_sub _ WK Cert.KernelIdeal.Agree.ops41_writes (by decide)).trans (h_v637.trans (after_of_writes_sub _ WR Cert.ReferenceIdeal.Agree.ops41_writes (by decide)).symm)
  · exact (after_of_writes_sub _ WK Cert.KernelIdeal.Agree.ops41_writes (by decide)).trans (h_v721.trans (after_of_writes_sub _ WR Cert.ReferenceIdeal.Agree.ops41_writes (by decide)).symm)
  · exact (after_of_writes_sub _ WK Cert.KernelIdeal.Agree.ops41_writes (by decide)).trans (h_v805.trans (after_of_writes_sub _ WR Cert.ReferenceIdeal.Agree.ops41_writes (by decide)).symm)
  · exact (after_of_writes_sub _ WK Cert.KernelIdeal.Agree.ops41_writes (by decide)).trans (h_v889.trans (after_of_writes_sub _ WR Cert.ReferenceIdeal.Agree.ops41_writes (by decide)).symm)
  · exact (after_of_writes_sub _ WK Cert.KernelIdeal.Agree.ops41_writes (by decide)).trans (h_v973.trans (after_of_writes_sub _ WR Cert.ReferenceIdeal.Agree.ops41_writes (by decide)).symm)
  · run_agrees [h_v1054]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 42 (operations 2159 to 2206): agreement on the 23 buffers live before it gives agreement on the 22 live after it. -/
theorem step42
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1062) = WR (Proc.devRef .tc Cert.ReferenceIdeal.main_v1062)
      ∧ WK (Proc.devRef .tc Cert.KernelIdeal.main_v1072) = WR (Proc.devRef .tc Cert.ReferenceIdeal.main_v1072)
      ∧ WK (Proc.devRef .tc Cert.KernelIdeal.main_v1079) = WR (Proc.devRef .tc Cert.ReferenceIdeal.main_v1079)
      ∧ WK (Proc.devRef .tc Cert.KernelIdeal.main_v1081) = WR (Proc.devRef .tc Cert.ReferenceIdeal.main_v1081)
      ∧ WK (Proc.devRef .tc Cert.KernelIdeal.main_v1086) = WR (Proc.devRef .tc Cert.ReferenceIdeal.main_v1086)
      ∧ WK (Proc.devRef .tc Cert.KernelIdeal.main_v1091) = WR (Proc.devRef .tc Cert.ReferenceIdeal.main_v1091)
      ∧ WK (Proc.devRef .tc Cert.KernelIdeal.main_c_138) = WR (Proc.devRef .tc Cert.ReferenceIdeal.main_c_138)) :
    (after (Cert.KernelIdeal.Agree.ops42 (F := F)) WK) (Proc.devRef .tc Cert.KernelIdeal.main_v0) = (after (Cert.ReferenceIdeal.Agree.ops42 (F := F)) WR) (Proc.devRef .tc Cert.ReferenceIdeal.main_v0)
      ∧ (after (Cert.KernelIdeal.Agree.ops42 (F := F)) WK) (Proc.devRef .tc Cert.KernelIdeal.main_v18) = (after (Cert.ReferenceIdeal.Agree.ops42 (F := F)) WR) (Proc.devRef .tc Cert.ReferenceIdeal.main_v18)
      ∧ (after (Cert.KernelIdeal.Agree.ops42 (F := F)) WK) (Proc.devRef .tc Cert.KernelIdeal.main_v23) = (after (Cert.ReferenceIdeal.Agree.ops42 (F := F)) WR) (Proc.devRef .tc Cert.ReferenceIdeal.main_v23)
      ∧ (after (Cert.KernelIdeal.Agree.ops42 (F := F)) WK) (Proc.devRef .tc Cert.KernelIdeal.main_v85) = (after (Cert.ReferenceIdeal.Agree.ops42 (F := F)) WR) (Proc.devRef .tc Cert.ReferenceIdeal.main_v85)
      ∧ (after (Cert.KernelIdeal.Agree.ops42 (F := F)) WK) (Proc.devRef .tc Cert.KernelIdeal.main_v157) = (after (Cert.ReferenceIdeal.Agree.ops42 (F := F)) WR) (Proc.devRef .tc Cert.ReferenceIdeal.main_v157)
      ∧ (after (Cert.KernelIdeal.Agree.ops42 (F := F)) WK) (Proc.devRef .tc Cert.KernelIdeal.main_v229) = (after (Cert.ReferenceIdeal.Agree.ops42 (F := F)) WR) (Proc.devRef .tc Cert.ReferenceIdeal.main_v229)
      ∧ (after (Cert.KernelIdeal.Agree.ops42 (F := F)) WK) (Proc.devRef .tc Cert.KernelIdeal.main_v301) = (after (Cert.ReferenceIdeal.Agree.ops42 (F := F)) WR) (Proc.devRef .tc Cert.ReferenceIdeal.main_v301)
      ∧ (after (Cert.KernelIdeal.Agree.ops42 (F := F)) WK) (Proc.devRef .tc Cert.KernelIdeal.main_v385) = (after (Cert.ReferenceIdeal.Agree.ops42 (F := F)) WR) (Proc.devRef .tc Cert.ReferenceIdeal.main_v385)
      ∧ (after (Cert.KernelIdeal.Agree.ops42 (F := F)) WK) (Proc.devRef .tc Cert.KernelIdeal.main_v469) = (after (Cert.ReferenceIdeal.Agree.ops42 (F := F)) WR) (Proc.devRef .tc Cert.ReferenceIdeal.main_v469)
      ∧ (after (Cert.KernelIdeal.Agree.ops42 (F := F)) WK) (Proc.devRef .tc Cert.KernelIdeal.main_v553) = (after (Cert.ReferenceIdeal.Agree.ops42 (F := F)) WR) (Proc.devRef .tc Cert.ReferenceIdeal.main_v553)
      ∧ (after (Cert.KernelIdeal.Agree.ops42 (F := F)) WK) (Proc.devRef .tc Cert.KernelIdeal.main_v637) = (after (Cert.ReferenceIdeal.Agree.ops42 (F := F)) WR) (Proc.devRef .tc Cert.ReferenceIdeal.main_v637)
      ∧ (after (Cert.KernelIdeal.Agree.ops42 (F := F)) WK) (Proc.devRef .tc Cert.KernelIdeal.main_v721) = (after (Cert.ReferenceIdeal.Agree.ops42 (F := F)) WR) (Proc.devRef .tc Cert.ReferenceIdeal.main_v721)
      ∧ (after (Cert.KernelIdeal.Agree.ops42 (F := F)) WK) (Proc.devRef .tc Cert.KernelIdeal.main_v805) = (after (Cert.ReferenceIdeal.Agree.ops42 (F := F)) WR) (Proc.devRef .tc Cert.ReferenceIdeal.main_v805)
      ∧ (after (Cert.KernelIdeal.Agree.ops42 (F := F)) WK) (Proc.devRef .tc Cert.KernelIdeal.main_v889) = (after (Cert.ReferenceIdeal.Agree.ops42 (F := F)) WR) (Proc.devRef .tc Cert.ReferenceIdeal.main_v889)
      ∧ (after (Cert.KernelIdeal.Agree.ops42 (F := F)) WK) (Proc.devRef .tc Cert.KernelIdeal.main_v973) = (after (Cert.ReferenceIdeal.Agree.ops42 (F := F)) WR) (Proc.devRef .tc Cert.ReferenceIdeal.main_v973)
      ∧ (after (Cert.KernelIdeal.Agree.ops42 (F := F)) WK) (Proc.devRef .tc Cert.KernelIdeal.main_v1057) = (after (Cert.ReferenceIdeal.Agree.ops42 (F := F)) WR) (Proc.devRef .tc Cert.ReferenceIdeal.main_v1057)
      ∧ (after (Cert.KernelIdeal.Agree.ops42 (F := F)) WK) (Proc.devRef .tc Cert.KernelIdeal.main_v1072) = (after (Cert.ReferenceIdeal.Agree.ops42 (F := F)) WR) (Proc.devRef .tc Cert.ReferenceIdeal.main_v1072)
      ∧ (after (Cert.KernelIdeal.Agree.ops42 (F := F)) WK) (Proc.devRef .tc Cert.KernelIdeal.main_v1086) = (after (Cert.ReferenceIdeal.Agree.ops42 (F := F)) WR) (Proc.devRef .tc Cert.ReferenceIdeal.main_v1086)
      ∧ (after (Cert.KernelIdeal.Agree.ops42 (F := F)) WK) (Proc.devRef .tc Cert.KernelIdeal.main_v1094) = (after (Cert.ReferenceIdeal.Agree.ops42 (F := F)) WR) (Proc.devRef .tc Cert.ReferenceIdeal.main_v1094)
      ∧ (after (Cert.KernelIdeal.Agree.ops42 (F := F)) WK) (Proc.devRef .tc Cert.KernelIdeal.main_v1099) = (after (Cert.ReferenceIdeal.Agree.ops42 (F := F)) WR) (Proc.devRef .tc Cert.ReferenceIdeal.main_v1099)
      ∧ (after (Cert.KernelIdeal.Agree.ops42 (F := F)) WK) (Proc.devRef .tc Cert.KernelIdeal.main_v1104) = (after (Cert.ReferenceIdeal.Agree.ops42 (F := F)) WR) (Proc.devRef .tc Cert.ReferenceIdeal.main_v1104)
      ∧ (after (Cert.KernelIdeal.Agree.ops42 (F := F)) WK) (Proc.devRef .tc Cert.KernelIdeal.main_c_141) = (after (Cert.ReferenceIdeal.Agree.ops42 (F := F)) WR) (Proc.devRef .tc Cert.ReferenceIdeal.main_c_141) := by
  obtain ⟨h_v0, h_v18, h_v23, h_v85, h_v157, h_v229, h_v301, h_v385, h_v469, h_v553, h_v637, h_v721, h_v805, h_v889, h_v973, h_v1057, h_v1062, h_v1072, h_v1079, h_v1081, h_v1086, h_v1091, h_c_138⟩ := h
  refine ⟨?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops42_writes (by decide)).trans (h_v0.trans (after_of_writes_sub _ WR Cert.ReferenceIdeal.Agree.ops42_writes (by decide)).symm)
  · exact (after_of_writes_sub _ WK Cert.KernelIdeal.Agree.ops42_writes (by decide)).trans (h_v18.trans (after_of_writes_sub _ WR Cert.ReferenceIdeal.Agree.ops42_writes (by decide)).symm)
  · exact (after_of_writes_sub _ WK Cert.KernelIdeal.Agree.ops42_writes (by decide)).trans (h_v23.trans (after_of_writes_sub _ WR Cert.ReferenceIdeal.Agree.ops42_writes (by decide)).symm)
  · exact (after_of_writes_sub _ WK Cert.KernelIdeal.Agree.ops42_writes (by decide)).trans (h_v85.trans (after_of_writes_sub _ WR Cert.ReferenceIdeal.Agree.ops42_writes (by decide)).symm)
  · exact (after_of_writes_sub _ WK Cert.KernelIdeal.Agree.ops42_writes (by decide)).trans (h_v157.trans (after_of_writes_sub _ WR Cert.ReferenceIdeal.Agree.ops42_writes (by decide)).symm)
  · exact (after_of_writes_sub _ WK Cert.KernelIdeal.Agree.ops42_writes (by decide)).trans (h_v229.trans (after_of_writes_sub _ WR Cert.ReferenceIdeal.Agree.ops42_writes (by decide)).symm)
  · exact (after_of_writes_sub _ WK Cert.KernelIdeal.Agree.ops42_writes (by decide)).trans (h_v301.trans (after_of_writes_sub _ WR Cert.ReferenceIdeal.Agree.ops42_writes (by decide)).symm)
  · exact (after_of_writes_sub _ WK Cert.KernelIdeal.Agree.ops42_writes (by decide)).trans (h_v385.trans (after_of_writes_sub _ WR Cert.ReferenceIdeal.Agree.ops42_writes (by decide)).symm)
  · exact (after_of_writes_sub _ WK Cert.KernelIdeal.Agree.ops42_writes (by decide)).trans (h_v469.trans (after_of_writes_sub _ WR Cert.ReferenceIdeal.Agree.ops42_writes (by decide)).symm)
  · exact (after_of_writes_sub _ WK Cert.KernelIdeal.Agree.ops42_writes (by decide)).trans (h_v553.trans (after_of_writes_sub _ WR Cert.ReferenceIdeal.Agree.ops42_writes (by decide)).symm)
  · exact (after_of_writes_sub _ WK Cert.KernelIdeal.Agree.ops42_writes (by decide)).trans (h_v637.trans (after_of_writes_sub _ WR Cert.ReferenceIdeal.Agree.ops42_writes (by decide)).symm)
  · exact (after_of_writes_sub _ WK Cert.KernelIdeal.Agree.ops42_writes (by decide)).trans (h_v721.trans (after_of_writes_sub _ WR Cert.ReferenceIdeal.Agree.ops42_writes (by decide)).symm)
  · exact (after_of_writes_sub _ WK Cert.KernelIdeal.Agree.ops42_writes (by decide)).trans (h_v805.trans (after_of_writes_sub _ WR Cert.ReferenceIdeal.Agree.ops42_writes (by decide)).symm)
  · exact (after_of_writes_sub _ WK Cert.KernelIdeal.Agree.ops42_writes (by decide)).trans (h_v889.trans (after_of_writes_sub _ WR Cert.ReferenceIdeal.Agree.ops42_writes (by decide)).symm)
  · exact (after_of_writes_sub _ WK Cert.KernelIdeal.Agree.ops42_writes (by decide)).trans (h_v973.trans (after_of_writes_sub _ WR Cert.ReferenceIdeal.Agree.ops42_writes (by decide)).symm)
  · exact (after_of_writes_sub _ WK Cert.KernelIdeal.Agree.ops42_writes (by decide)).trans (h_v1057.trans (after_of_writes_sub _ WR Cert.ReferenceIdeal.Agree.ops42_writes (by decide)).symm)
  · exact (after_of_writes_sub _ WK Cert.KernelIdeal.Agree.ops42_writes (by decide)).trans (h_v1072.trans (after_of_writes_sub _ WR Cert.ReferenceIdeal.Agree.ops42_writes (by decide)).symm)
  · exact (after_of_writes_sub _ WK Cert.KernelIdeal.Agree.ops42_writes (by decide)).trans (h_v1086.trans (after_of_writes_sub _ WR Cert.ReferenceIdeal.Agree.ops42_writes (by decide)).symm)
  · run_agrees [h_v1062, h_v1091, h_c_138]
  · run_agrees [h_v1072, h_v1079, h_v1081]
  · run_agrees [h_v1079, h_v1081]
  · after_results_simp; first | done | rfl

set_option maxHeartbeats 800000 in
/-- Run 43 (operations 2207 to 2265): agreement on the 22 buffers live before it gives agreement on the 17 live after it. -/
theorem step43
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1072) = WR (Proc.devRef .tc Cert.ReferenceIdeal.main_v1072)
      ∧ WK (Proc.devRef .tc Cert.KernelIdeal.main_v1086) = WR (Proc.devRef .tc Cert.ReferenceIdeal.main_v1086)
      ∧ WK (Proc.devRef .tc Cert.KernelIdeal.main_v1094) = WR (Proc.devRef .tc Cert.ReferenceIdeal.main_v1094)
      ∧ WK (Proc.devRef .tc Cert.KernelIdeal.main_v1099) = WR (Proc.devRef .tc Cert.ReferenceIdeal.main_v1099)
      ∧ WK (Proc.devRef .tc Cert.KernelIdeal.main_v1104) = WR (Proc.devRef .tc Cert.ReferenceIdeal.main_v1104)
      ∧ WK (Proc.devRef .tc Cert.KernelIdeal.main_c_141) = WR (Proc.devRef .tc Cert.ReferenceIdeal.main_c_141)) :
    (after (Cert.KernelIdeal.Agree.ops43 (F := F)) WK) (Proc.devRef .tc Cert.KernelIdeal.main_v0) = (after (Cert.ReferenceIdeal.Agree.ops43 (F := F)) WR) (Proc.devRef .tc Cert.ReferenceIdeal.main_v0)
      ∧ (after (Cert.KernelIdeal.Agree.ops43 (F := F)) WK) (Proc.devRef .tc Cert.KernelIdeal.main_v18) = (after (Cert.ReferenceIdeal.Agree.ops43 (F := F)) WR) (Proc.devRef .tc Cert.ReferenceIdeal.main_v18)
      ∧ (after (Cert.KernelIdeal.Agree.ops43 (F := F)) WK) (Proc.devRef .tc Cert.KernelIdeal.main_v23) = (after (Cert.ReferenceIdeal.Agree.ops43 (F := F)) WR) (Proc.devRef .tc Cert.ReferenceIdeal.main_v23)
      ∧ (after (Cert.KernelIdeal.Agree.ops43 (F := F)) WK) (Proc.devRef .tc Cert.KernelIdeal.main_v85) = (after (Cert.ReferenceIdeal.Agree.ops43 (F := F)) WR) (Proc.devRef .tc Cert.ReferenceIdeal.main_v85)
      ∧ (after (Cert.KernelIdeal.Agree.ops43 (F := F)) WK) (Proc.devRef .tc Cert.KernelIdeal.main_v157) = (after (Cert.ReferenceIdeal.Agree.ops43 (F := F)) WR) (Proc.devRef .tc Cert.ReferenceIdeal.main_v157)
      ∧ (after (Cert.KernelIdeal.Agree.ops43 (F := F)) WK) (Proc.devRef .tc Cert.KernelIdeal.main_v229) = (after (Cert.ReferenceIdeal.Agree.ops43 (F := F)) WR) (Proc.devRef .tc Cert.ReferenceIdeal.main_v229)
      ∧ (after (Cert.KernelIdeal.Agree.ops43 (F := F)) WK) (Proc.devRef .tc Cert.KernelIdeal.main_v301) = (after (Cert.ReferenceIdeal.Agree.ops43 (F := F)) WR) (Proc.devRef .tc Cert.ReferenceIdeal.main_v301)
      ∧ (after (Cert.KernelIdeal.Agree.ops43 (F := F)) WK) (Proc.devRef .tc Cert.KernelIdeal.main_v385) = (after (Cert.ReferenceIdeal.Agree.ops43 (F := F)) WR) (Proc.devRef .tc Cert.ReferenceIdeal.main_v385)
      ∧ (after (Cert.KernelIdeal.Agree.ops43 (F := F)) WK) (Proc.devRef .tc Cert.KernelIdeal.main_v469) = (after (Cert.ReferenceIdeal.Agree.ops43 (F := F)) WR) (Proc.devRef .tc Cert.ReferenceIdeal.main_v469)
      ∧ (after (Cert.KernelIdeal.Agree.ops43 (F := F)) WK) (Proc.devRef .tc Cert.KernelIdeal.main_v553) = (after (Cert.ReferenceIdeal.Agree.ops43 (F := F)) WR) (Proc.devRef .tc Cert.ReferenceIdeal.main_v553)
      ∧ (after (Cert.KernelIdeal.Agree.ops43 (F := F)) WK) (Proc.devRef .tc Cert.KernelIdeal.main_v637) = (after (Cert.ReferenceIdeal.Agree.ops43 (F := F)) WR) (Proc.devRef .tc Cert.ReferenceIdeal.main_v637)
      ∧ (after (Cert.KernelIdeal.Agree.ops43 (F := F)) WK) (Proc.devRef .tc Cert.KernelIdeal.main_v721) = (after (Cert.ReferenceIdeal.Agree.ops43 (F := F)) WR) (Proc.devRef .tc Cert.ReferenceIdeal.main_v721)
      ∧ (after (Cert.KernelIdeal.Agree.ops43 (F := F)) WK) (Proc.devRef .tc Cert.KernelIdeal.main_v805) = (after (Cert.ReferenceIdeal.Agree.ops43 (F := F)) WR) (Proc.devRef .tc Cert.ReferenceIdeal.main_v805)
      ∧ (after (Cert.KernelIdeal.Agree.ops43 (F := F)) WK) (Proc.devRef .tc Cert.KernelIdeal.main_v889) = (after (Cert.ReferenceIdeal.Agree.ops43 (F := F)) WR) (Proc.devRef .tc Cert.ReferenceIdeal.main_v889)
      ∧ (after (Cert.KernelIdeal.Agree.ops43 (F := F)) WK) (Proc.devRef .tc Cert.KernelIdeal.main_v973) = (after (Cert.ReferenceIdeal.Agree.ops43 (F := F)) WR) (Proc.devRef .tc Cert.ReferenceIdeal.main_v973)
      ∧ (after (Cert.KernelIdeal.Agree.ops43 (F := F)) WK) (Proc.devRef .tc Cert.KernelIdeal.main_v1057) = (after (Cert.ReferenceIdeal.Agree.ops43 (F := F)) WR) (Proc.devRef .tc Cert.ReferenceIdeal.main_v1057)
      ∧ (after (Cert.KernelIdeal.Agree.ops43 (F := F)) WK) (Proc.devRef .tc Cert.KernelIdeal.main_v1138) = (after (Cert.ReferenceIdeal.Agree.ops43 (F := F)) WR) (Proc.devRef .tc Cert.ReferenceIdeal.main_v1138) := by
  obtain ⟨h_v0, h_v18, h_v23, h_v85, h_v157, h_v229, h_v301, h_v385, h_v469, h_v553, h_v637, h_v721, h_v805, h_v889, h_v973, h_v1057, h_v1072, h_v1086, h_v1094, h_v1099, h_v1104, h_c_141⟩ := h
  refine ⟨?_, ?_, ?_, ?_, ?_, ?_, ?_, ?_, ?_, ?_, ?_, ?_, ?_, ?_, ?_, ?_, ?_⟩
  · exact (after_of_writes_sub _ WK Cert.KernelIdeal.Agree.ops43_writes (by decide)).trans (h_v0.trans (after_of_writes_sub _ WR Cert.ReferenceIdeal.Agree.ops43_writes (by decide)).symm)
  · exact (after_of_writes_sub _ WK Cert.KernelIdeal.Agree.ops43_writes (by decide)).trans (h_v18.trans (after_of_writes_sub _ WR Cert.ReferenceIdeal.Agree.ops43_writes (by decide)).symm)
  · exact (after_of_writes_sub _ WK Cert.KernelIdeal.Agree.ops43_writes (by decide)).trans (h_v23.trans (after_of_writes_sub _ WR Cert.ReferenceIdeal.Agree.ops43_writes (by decide)).symm)
  · exact (after_of_writes_sub _ WK Cert.KernelIdeal.Agree.ops43_writes (by decide)).trans (h_v85.trans (after_of_writes_sub _ WR Cert.ReferenceIdeal.Agree.ops43_writes (by decide)).symm)
  · exact (after_of_writes_sub _ WK Cert.KernelIdeal.Agree.ops43_writes (by decide)).trans (h_v157.trans (after_of_writes_sub _ WR Cert.ReferenceIdeal.Agree.ops43_writes (by decide)).symm)
  · exact (after_of_writes_sub _ WK Cert.KernelIdeal.Agree.ops43_writes (by decide)).trans (h_v229.trans (after_of_writes_sub _ WR Cert.ReferenceIdeal.Agree.ops43_writes (by decide)).symm)
  · exact (after_of_writes_sub _ WK Cert.KernelIdeal.Agree.ops43_writes (by decide)).trans (h_v301.trans (after_of_writes_sub _ WR Cert.ReferenceIdeal.Agree.ops43_writes (by decide)).symm)
  · exact (after_of_writes_sub _ WK Cert.KernelIdeal.Agree.ops43_writes (by decide)).trans (h_v385.trans (after_of_writes_sub _ WR Cert.ReferenceIdeal.Agree.ops43_writes (by decide)).symm)
  · exact (after_of_writes_sub _ WK Cert.KernelIdeal.Agree.ops43_writes (by decide)).trans (h_v469.trans (after_of_writes_sub _ WR Cert.ReferenceIdeal.Agree.ops43_writes (by decide)).symm)
  · exact (after_of_writes_sub _ WK Cert.KernelIdeal.Agree.ops43_writes (by decide)).trans (h_v553.trans (after_of_writes_sub _ WR Cert.ReferenceIdeal.Agree.ops43_writes (by decide)).symm)
  · exact (after_of_writes_sub _ WK Cert.KernelIdeal.Agree.ops43_writes (by decide)).trans (h_v637.trans (after_of_writes_sub _ WR Cert.ReferenceIdeal.Agree.ops43_writes (by decide)).symm)
  · exact (after_of_writes_sub _ WK Cert.KernelIdeal.Agree.ops43_writes (by decide)).trans (h_v721.trans (after_of_writes_sub _ WR Cert.ReferenceIdeal.Agree.ops43_writes (by decide)).symm)
  · exact (after_of_writes_sub _ WK Cert.KernelIdeal.Agree.ops43_writes (by decide)).trans (h_v805.trans (after_of_writes_sub _ WR Cert.ReferenceIdeal.Agree.ops43_writes (by decide)).symm)
  · exact (after_of_writes_sub _ WK Cert.KernelIdeal.Agree.ops43_writes (by decide)).trans (h_v889.trans (after_of_writes_sub _ WR Cert.ReferenceIdeal.Agree.ops43_writes (by decide)).symm)
  · exact (after_of_writes_sub _ WK Cert.KernelIdeal.Agree.ops43_writes (by decide)).trans (h_v973.trans (after_of_writes_sub _ WR Cert.ReferenceIdeal.Agree.ops43_writes (by decide)).symm)
  · exact (after_of_writes_sub _ WK Cert.KernelIdeal.Agree.ops43_writes (by decide)).trans (h_v1057.trans (after_of_writes_sub _ WR Cert.ReferenceIdeal.Agree.ops43_writes (by decide)).symm)
  · run_agrees [h_v0, h_v1072, h_v1086, h_v1094, h_v1099, h_v1104, h_c_141]

/-- The whole part: agreement on the 15 buffers live before it gives agreement on the 17 live after it. -/
theorem part6
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v970) = WR (Proc.devRef .tc Cert.ReferenceIdeal.main_v970)) :
    (after (Cert.KernelIdeal.Agree.part6 (F := F)) WK) (Proc.devRef .tc Cert.KernelIdeal.main_v0) = (after (Cert.ReferenceIdeal.Agree.part6 (F := F)) WR) (Proc.devRef .tc Cert.ReferenceIdeal.main_v0)
      ∧ (after (Cert.KernelIdeal.Agree.part6 (F := F)) WK) (Proc.devRef .tc Cert.KernelIdeal.main_v18) = (after (Cert.ReferenceIdeal.Agree.part6 (F := F)) WR) (Proc.devRef .tc Cert.ReferenceIdeal.main_v18)
      ∧ (after (Cert.KernelIdeal.Agree.part6 (F := F)) WK) (Proc.devRef .tc Cert.KernelIdeal.main_v23) = (after (Cert.ReferenceIdeal.Agree.part6 (F := F)) WR) (Proc.devRef .tc Cert.ReferenceIdeal.main_v23)
      ∧ (after (Cert.KernelIdeal.Agree.part6 (F := F)) WK) (Proc.devRef .tc Cert.KernelIdeal.main_v85) = (after (Cert.ReferenceIdeal.Agree.part6 (F := F)) WR) (Proc.devRef .tc Cert.ReferenceIdeal.main_v85)
      ∧ (after (Cert.KernelIdeal.Agree.part6 (F := F)) WK) (Proc.devRef .tc Cert.KernelIdeal.main_v157) = (after (Cert.ReferenceIdeal.Agree.part6 (F := F)) WR) (Proc.devRef .tc Cert.ReferenceIdeal.main_v157)
      ∧ (after (Cert.KernelIdeal.Agree.part6 (F := F)) WK) (Proc.devRef .tc Cert.KernelIdeal.main_v229) = (after (Cert.ReferenceIdeal.Agree.part6 (F := F)) WR) (Proc.devRef .tc Cert.ReferenceIdeal.main_v229)
      ∧ (after (Cert.KernelIdeal.Agree.part6 (F := F)) WK) (Proc.devRef .tc Cert.KernelIdeal.main_v301) = (after (Cert.ReferenceIdeal.Agree.part6 (F := F)) WR) (Proc.devRef .tc Cert.ReferenceIdeal.main_v301)
      ∧ (after (Cert.KernelIdeal.Agree.part6 (F := F)) WK) (Proc.devRef .tc Cert.KernelIdeal.main_v385) = (after (Cert.ReferenceIdeal.Agree.part6 (F := F)) WR) (Proc.devRef .tc Cert.ReferenceIdeal.main_v385)
      ∧ (after (Cert.KernelIdeal.Agree.part6 (F := F)) WK) (Proc.devRef .tc Cert.KernelIdeal.main_v469) = (after (Cert.ReferenceIdeal.Agree.part6 (F := F)) WR) (Proc.devRef .tc Cert.ReferenceIdeal.main_v469)
      ∧ (after (Cert.KernelIdeal.Agree.part6 (F := F)) WK) (Proc.devRef .tc Cert.KernelIdeal.main_v553) = (after (Cert.ReferenceIdeal.Agree.part6 (F := F)) WR) (Proc.devRef .tc Cert.ReferenceIdeal.main_v553)
      ∧ (after (Cert.KernelIdeal.Agree.part6 (F := F)) WK) (Proc.devRef .tc Cert.KernelIdeal.main_v637) = (after (Cert.ReferenceIdeal.Agree.part6 (F := F)) WR) (Proc.devRef .tc Cert.ReferenceIdeal.main_v637)
      ∧ (after (Cert.KernelIdeal.Agree.part6 (F := F)) WK) (Proc.devRef .tc Cert.KernelIdeal.main_v721) = (after (Cert.ReferenceIdeal.Agree.part6 (F := F)) WR) (Proc.devRef .tc Cert.ReferenceIdeal.main_v721)
      ∧ (after (Cert.KernelIdeal.Agree.part6 (F := F)) WK) (Proc.devRef .tc Cert.KernelIdeal.main_v805) = (after (Cert.ReferenceIdeal.Agree.part6 (F := F)) WR) (Proc.devRef .tc Cert.ReferenceIdeal.main_v805)
      ∧ (after (Cert.KernelIdeal.Agree.part6 (F := F)) WK) (Proc.devRef .tc Cert.KernelIdeal.main_v889) = (after (Cert.ReferenceIdeal.Agree.part6 (F := F)) WR) (Proc.devRef .tc Cert.ReferenceIdeal.main_v889)
      ∧ (after (Cert.KernelIdeal.Agree.part6 (F := F)) WK) (Proc.devRef .tc Cert.KernelIdeal.main_v973) = (after (Cert.ReferenceIdeal.Agree.part6 (F := F)) WR) (Proc.devRef .tc Cert.ReferenceIdeal.main_v973)
      ∧ (after (Cert.KernelIdeal.Agree.part6 (F := F)) WK) (Proc.devRef .tc Cert.KernelIdeal.main_v1057) = (after (Cert.ReferenceIdeal.Agree.part6 (F := F)) WR) (Proc.devRef .tc Cert.ReferenceIdeal.main_v1057)
      ∧ (after (Cert.KernelIdeal.Agree.part6 (F := F)) WK) (Proc.devRef .tc Cert.KernelIdeal.main_v1138) = (after (Cert.ReferenceIdeal.Agree.part6 (F := F)) WR) (Proc.devRef .tc Cert.ReferenceIdeal.main_v1138) := by
  have s38 := step38 WK WR h
  have s39 := step39 (after (Cert.KernelIdeal.Agree.ops38 (F := F)) WK) (after (Cert.ReferenceIdeal.Agree.ops38 (F := F)) WR) s38
  have s40 := step40 (after (Cert.KernelIdeal.Agree.ops39 (F := F)) (after (Cert.KernelIdeal.Agree.ops38 (F := F)) WK)) (after (Cert.ReferenceIdeal.Agree.ops39 (F := F)) (after (Cert.ReferenceIdeal.Agree.ops38 (F := F)) WR)) s39
  have s41 := step41 (after (Cert.KernelIdeal.Agree.ops40 (F := F)) (after (Cert.KernelIdeal.Agree.ops39 (F := F)) (after (Cert.KernelIdeal.Agree.ops38 (F := F)) WK))) (after (Cert.ReferenceIdeal.Agree.ops40 (F := F)) (after (Cert.ReferenceIdeal.Agree.ops39 (F := F)) (after (Cert.ReferenceIdeal.Agree.ops38 (F := F)) WR))) s40
  have s42 := step42 (after (Cert.KernelIdeal.Agree.ops41 (F := F)) (after (Cert.KernelIdeal.Agree.ops40 (F := F)) (after (Cert.KernelIdeal.Agree.ops39 (F := F)) (after (Cert.KernelIdeal.Agree.ops38 (F := F)) WK)))) (after (Cert.ReferenceIdeal.Agree.ops41 (F := F)) (after (Cert.ReferenceIdeal.Agree.ops40 (F := F)) (after (Cert.ReferenceIdeal.Agree.ops39 (F := F)) (after (Cert.ReferenceIdeal.Agree.ops38 (F := F)) WR)))) s41
  have s43 := step43 (after (Cert.KernelIdeal.Agree.ops42 (F := F)) (after (Cert.KernelIdeal.Agree.ops41 (F := F)) (after (Cert.KernelIdeal.Agree.ops40 (F := F)) (after (Cert.KernelIdeal.Agree.ops39 (F := F)) (after (Cert.KernelIdeal.Agree.ops38 (F := F)) WK))))) (after (Cert.ReferenceIdeal.Agree.ops42 (F := F)) (after (Cert.ReferenceIdeal.Agree.ops41 (F := F)) (after (Cert.ReferenceIdeal.Agree.ops40 (F := F)) (after (Cert.ReferenceIdeal.Agree.ops39 (F := F)) (after (Cert.ReferenceIdeal.Agree.ops38 (F := F)) WR))))) s42
  simp only [Cert.KernelIdeal.Agree.part6, Cert.ReferenceIdeal.Agree.part6, after_append]
  exact s43

end Cert.Agree

end
-- ==== Proof.Agree.Part7.lean ====
/- The kernel's program and the reference compute the pooled feature matrix by the same 2605 operations.  This part is
  operations 2266 to 2604 (the generated stretches 172 to 196), cut into runs.  For each run: if the two sides' buffers agree on
  every buffer that is live before the run (written earlier, read by the run or later), they agree on every buffer
  that is live after it.  A buffer the run writes is a function of live buffers only, the same function on both sides;
  a buffer it does not write is found as it was.  Neither side's contents are ever computed. -/
import proofs.«107941_j79491254714775_1_alg».proof.Proof.Gen.KernelIdeal.Launch
import proofs.«107941_j79491254714775_1_alg».proof.Proof.Gen.ReferenceIdeal
import Idealize.ShloMosaic.Lib.StableHlo.Run
import Idealize.ShloMosaic.Lib.Pipeline.Frame

set_option maxRecDepth 16384

noncomputable section

/-- A buffer on a list is, as the one-buffer set an operation writes, inside the list's set of buffers. -/
private theorem Cert.Agree.wrote {τ : Idealize.ShloMosaic.Topo} {sig : Idealize.ShloMosaic.RefSig} {W : List (Idealize.ShloMosaic.Ref sig .tc)} {y : Idealize.ShloMosaic.Ref sig .tc} (h : y ∈ W) :
    ({Idealize.ShloMosaic.Proc.devRef .tc y} : Finset (Idealize.ShloMosaic.DevRef τ sig)) ⊆ (W.map (Idealize.ShloMosaic.Proc.devRef (τ := τ) .tc)).toFinset := by
  intro b hb
  rw [Finset.mem_singleton.mp hb]
  exact List.mem_toFinset.mpr (List.mem_map_of_mem h)

namespace Cert.KernelIdeal.Agree
open Idealize.ShloMosaic Idealize.ShloMosaic.TcCoe Idealize.SL.Sem
open Cert.KernelIdeal Cert.KernelIdeal.Gen
variable {F : FTy → Type} [FloatOps F]
/-- Operations 2266 to 2322 of the host part, in order. -/
abbrev ops44 : List (HloOp τ sig (Elt F)) :=
  [ StableHlo.nullary main_cst_145 (constant S_ .f32 0xFF800000#32),
    StableHlo.binary main_v1138 main_cst_145 main_v1139 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1139 main_v1140 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1140 main_v1141 rfl shapeCasts_S512x7x7_S25088,
    StableHlo.unary main_v18 main_v1142 ((extractStridedSlice S1x1 ![2, 1] · slices_S3x4_S1x1_2_1) : (⟨S3x4, .i32⟩ : BufTy).Contents (Elt F) → (⟨S1x1, .i32⟩ : BufTy).Contents (Elt F)),
    StableHlo.reshape main_v1142 main_v1143 rfl shapeCasts_S1x1_S_,
    StableHlo.unary main_v23 main_v1144 ((extractStridedSlice S1x1 ![2, 1] · slices_S4x4_S1x1_2_1) : (⟨S4x4, .i32⟩ : BufTy).Contents (Elt F) → (⟨S1x1, .i32⟩ : BufTy).Contents (Elt F)),
    StableHlo.reshape main_v1144 main_v1145 rfl shapeCasts_S1x1_S_,
    StableHlo.binary main_v1143 main_v1145 main_v1146 (minsi : (⟨S_, .i32⟩ : BufTy).Contents (Elt F) → (⟨S_, .i32⟩ : BufTy).Contents (Elt F) → (⟨S_, .i32⟩ : BufTy).Contents (Elt F)),
    StableHlo.unary main_v18 main_v1147 ((extractStridedSlice S1x1 ![2, 3] · slices_S3x4_S1x1_2_3) : (⟨S3x4, .i32⟩ : BufTy).Contents (Elt F) → (⟨S1x1, .i32⟩ : BufTy).Contents (Elt F)),
    StableHlo.reshape main_v1147 main_v1148 rfl shapeCasts_S1x1_S_,
    StableHlo.unary main_v23 main_v1149 ((extractStridedSlice S1x1 ![2, 3] · slices_S4x4_S1x1_2_3) : (⟨S4x4, .i32⟩ : BufTy).Contents (Elt F) → (⟨S1x1, .i32⟩ : BufTy).Contents (Elt F)),
    StableHlo.reshape main_v1149 main_v1150 rfl shapeCasts_S1x1_S_,
    StableHlo.binary main_v1148 main_v1150 main_v1151 (maxsi : (⟨S_, .i32⟩ : BufTy).Contents (Elt F) → (⟨S_, .i32⟩ : BufTy).Contents (Elt F) → (⟨S_, .i32⟩ : BufTy).Contents (Elt F)),
    StableHlo.unary main_v18 main_v1152 ((extractStridedSlice S1x1 ![2, 0] · slices_S3x4_S1x1_2_0) : (⟨S3x4, .i32⟩ : BufTy).Contents (Elt F) → (⟨S1x1, .i32⟩ : BufTy).Contents (Elt F)),
    StableHlo.reshape main_v1152 main_v1153 rfl shapeCasts_S1x1_S_,
    StableHlo.unary main_v23 main_v1154 ((extractStridedSlice S1x1 ![2, 0] · slices_S4x4_S1x1_2_0) : (⟨S4x4, .i32⟩ : BufTy).Contents (Elt F) → (⟨S1x1, .i32⟩ : BufTy).Contents (Elt F)),
    StableHlo.reshape main_v1154 main_v1155 rfl shapeCasts_S1x1_S_,
    StableHlo.binary main_v1153 main_v1155 main_v1156 (minsi : (⟨S_, .i32⟩ : BufTy).Contents (Elt F) → (⟨S_, .i32⟩ : BufTy).Contents (Elt F) → (⟨S_, .i32⟩ : BufTy).Contents (Elt F)),
    StableHlo.unary main_v18 main_v1157 ((extractStridedSlice S1x1 ![2, 2] · slices_S3x4_S1x1_2_2) : (⟨S3x4, .i32⟩ : BufTy).Contents (Elt F) → (⟨S1x1, .i32⟩ : BufTy).Contents (Elt F)),
    StableHlo.reshape main_v1157 main_v1158 rfl shapeCasts_S1x1_S_,
    StableHlo.unary main_v23 main_v1159 ((extractStridedSlice S1x1 ![2, 2] · slices_S4x4_S1x1_2_2) : (⟨S4x4, .i32⟩ : BufTy).Contents (Elt F) → (⟨S1x1, .i32⟩ : BufTy).Contents (Elt F)),
    StableHlo.reshape main_v1159 main_v1160 rfl shapeCasts_S1x1_S_,
    StableHlo.binary main_v1158 main_v1160 main_v1161 (maxsi : (⟨S_, .i32⟩ : BufTy).Contents (Elt F) → (⟨S_, .i32⟩ : BufTy).Contents (Elt F) → (⟨S_, .i32⟩ : BufTy).Contents (Elt F)),
    StableHlo.binary main_v1151 main_v1146 main_v1162 (subi : (⟨S_, .i32⟩ : BufTy).Contents (Elt F) → (⟨S_, .i32⟩ : BufTy).Contents (Elt F) → (⟨S_, .i32⟩ : BufTy).Contents (Elt F)),
    StableHlo.binary main_v1161 main_v1156 main_v1163 (subi : (⟨S_, .i32⟩ : BufTy).Contents (Elt F) → (⟨S_, .i32⟩ : BufTy).Contents (Elt F) → (⟨S_, .i32⟩ : BufTy).Contents (Elt F)),
    StableHlo.nullary main_v1164 (iotaInDim S7 32 0),
    StableHlo.nullary main_v1165 (iotaInDim S7 32 0),
    StableHlo.unary main_v1162 main_v1166 (broadcastInDim S7 ![] bcast_S_S7 : (⟨S_, .i32⟩ : BufTy).Contents (Elt F) → (⟨S7, .i32⟩ : BufTy).Contents (Elt F)),
    StableHlo.binary main_v1164 main_v1166 main_v1167 (muli : (⟨S7, .i32⟩ : BufTy).Contents (Elt F) → (⟨S7, .i32⟩ : BufTy).Contents (Elt F) → (⟨S7, .i32⟩ : BufTy).Contents (Elt F)),
    StableHlo.nullary main_c_146 (constantI S_ 32 7#32),
    StableHlo.TRef.unary (.of main_c_146 : StableHlo.TRef sig ⟨S_, .i32⟩) (.of main_call86_v0 : StableHlo.TRef sig ⟨S_, .i32⟩) id,
    StableHlo.TRef.unary (.of main_call86_v0 : StableHlo.TRef sig ⟨S_, .i32⟩) (.of main_call86_v1 : StableHlo.TRef sig ⟨S7, .i32⟩) (broadcastInDim S7 ![] bcast_S_S7),
    StableHlo.TRef.binary (.of main_v1167 : StableHlo.TRef sig ⟨S7, .i32⟩) (.of main_call86_v1 : StableHlo.TRef sig ⟨S7, .i32⟩) (.of main_call86_v2 : StableHlo.TRef sig ⟨S7, .i32⟩) Host.divsi,
    StableHlo.TRef.unary (.of main_v1167 : StableHlo.TRef sig ⟨S7, .i32⟩) (.of main_call86_v3 : StableHlo.TRef sig ⟨S7, .i32⟩) signi,
    StableHlo.TRef.unary (.of main_call86_v0 : StableHlo.TRef sig ⟨S_, .i32⟩) (.of main_call86_v4 : StableHlo.TRef sig ⟨S_, .i32⟩) signi,
    StableHlo.TRef.unary (.of main_call86_v4 : StableHlo.TRef sig ⟨S_, .i32⟩) (.of main_call86_v5 : StableHlo.TRef sig ⟨S7, .i32⟩) (broadcastInDim S7 ![] bcast_S_S7),
    StableHlo.TRef.binary (.of main_call86_v3 : StableHlo.TRef sig ⟨S7, .i32⟩) (.of main_call86_v5 : StableHlo.TRef sig ⟨S7, .i32⟩) (.of main_call86_v6 : StableHlo.TRef sig ⟨S7, .i1⟩) (cmpi .ne),
    StableHlo.TRef.unary (.of main_call86_v0 : StableHlo.TRef sig ⟨S_, .i32⟩) (.of main_call86_v7 : StableHlo.TRef sig ⟨S7, .i32⟩) (broadcastInDim S7 ![] bcast_S_S7),
    StableHlo.TRef.binary (.of main_v1167 : StableHlo.TRef sig ⟨S7, .i32⟩) (.of main_call86_v7 : StableHlo.TRef sig ⟨S7, .i32⟩) (.of main_call86_v8 : StableHlo.TRef sig ⟨S7, .i32⟩) Host.remsi,
    StableHlo.TRef.nullary (.of main_call86_c : StableHlo.TRef sig ⟨S_, .i32⟩) (constantI S_ 32 0#32),
    StableHlo.TRef.unary (.of main_call86_c : StableHlo.TRef sig ⟨S_, .i32⟩) (.of main_call86_v9 : StableHlo.TRef sig ⟨S7, .i32⟩) (broadcastInDim S7 ![] bcast_S_S7),
    StableHlo.TRef.binary (.of main_call86_v8 : StableHlo.TRef sig ⟨S7, .i32⟩) (.of main_call86_v9 : StableHlo.TRef sig ⟨S7, .i32⟩) (.of main_call86_v10 : StableHlo.TRef sig ⟨S7, .i1⟩) (cmpi .ne),
    StableHlo.TRef.binary (.of main_call86_v6 : StableHlo.TRef sig ⟨S7, .i1⟩) (.of main_call86_v10 : StableHlo.TRef sig ⟨S7, .i1⟩) (.of main_call86_v11 : StableHlo.TRef sig ⟨S7, .i1⟩) andi,
    StableHlo.TRef.nullary (.of main_call86_c_0 : StableHlo.TRef sig ⟨S_, .i32⟩) (constantI S_ 32 1#32),
    StableHlo.TRef.unary (.of main_call86_c_0 : StableHlo.TRef sig ⟨S_, .i32⟩) (.of main_call86_v12 : StableHlo.TRef sig ⟨S7, .i32⟩) (broadcastInDim S7 ![] bcast_S_S7),
    StableHlo.TRef.binary (.of main_call86_v2 : StableHlo.TRef sig ⟨S7, .i32⟩) (.of main_call86_v12 : StableHlo.TRef sig ⟨S7, .i32⟩) (.of main_call86_v13 : StableHlo.TRef sig ⟨S7, .i32⟩) subi,
    StableHlo.TRef.ternary (.of main_call86_v11 : StableHlo.TRef sig ⟨S7, .i1⟩) (.of main_call86_v13 : StableHlo.TRef sig ⟨S7, .i32⟩) (.of main_call86_v2 : StableHlo.TRef sig ⟨S7, .i32⟩) (.of main_v1168 : StableHlo.TRef sig ⟨S7, .i32⟩) select,
    StableHlo.unary main_v1146 main_v1169 (broadcastInDim S7 ![] bcast_S_S7 : (⟨S_, .i32⟩ : BufTy).Contents (Elt F) → (⟨S7, .i32⟩ : BufTy).Contents (Elt F)),
    StableHlo.binary main_v1169 main_v1168 main_v1170 (addi : (⟨S7, .i32⟩ : BufTy).Contents (Elt F) → (⟨S7, .i32⟩ : BufTy).Contents (Elt F) → (⟨S7, .i32⟩ : BufTy).Contents (Elt F)),
    StableHlo.nullary main_c_147 (constantI S_ 32 1#32),
    StableHlo.unary main_c_147 main_v1171 (broadcastInDim S7 ![] bcast_S_S7 : (⟨S_, .i32⟩ : BufTy).Contents (Elt F) → (⟨S7, .i32⟩ : BufTy).Contents (Elt F)),
    StableHlo.binary main_v1164 main_v1171 main_v1172 (addi : (⟨S7, .i32⟩ : BufTy).Contents (Elt F) → (⟨S7, .i32⟩ : BufTy).Contents (Elt F) → (⟨S7, .i32⟩ : BufTy).Contents (Elt F)),
    StableHlo.unary main_v1172 main_v1173 (negi : (⟨S7, .i32⟩ : BufTy).Contents (Elt F) → (⟨S7, .i32⟩ : BufTy).Contents (Elt F)),
    StableHlo.unary main_v1162 main_v1174 (broadcastInDim S7 ![] bcast_S_S7 : (⟨S_, .i32⟩ : BufTy).Contents (Elt F) → (⟨S7, .i32⟩ : BufTy).Contents (Elt F)),
    StableHlo.binary main_v1173 main_v1174 main_v1175 (muli : (⟨S7, .i32⟩ : BufTy).Contents (Elt F) → (⟨S7, .i32⟩ : BufTy).Contents (Elt F) → (⟨S7, .i32⟩ : BufTy).Contents (Elt F)),
    StableHlo.nullary main_c_148 (constantI S_ 32 7#32) ]
/-- The buffers those operations write, in order. -/
abbrev ops44_W : List (Ref sig .tc) :=
  [main_cst_145, main_v1139, main_v1140, main_v1141, main_v1142, main_v1143, main_v1144, main_v1145, main_v1146, main_v1147, main_v1148, main_v1149, main_v1150, main_v1151, main_v1152, main_v1153, main_v1154, main_v1155, main_v1156, main_v1157, main_v1158, main_v1159, main_v1160, main_v1161, main_v1162, main_v1163, main_v1164, main_v1165, main_v1166, main_v1167, main_c_146, main_call86_v0, main_call86_v1, main_call86_v2, main_call86_v3, main_call86_v4, main_call86_v5, main_call86_v6, main_call86_v7, main_call86_v8, main_call86_c, main_call86_v9, main_call86_v10, main_call86_v11, main_call86_c_0, main_call86_v12, main_call86_v13, main_v1168, main_v1169, main_v1170, main_c_147, main_v1171, main_v1172, main_v1173, main_v1174, main_v1175, main_c_148]
/-- Each operation writes its own result buffer and nothing else. -/
theorem ops44_writes : (ops44 : List (HloOp τ sig (Elt F))).Forall fun op => op.writes ⊆ (ops44_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2323 to 2370 of the host part, in order. -/
abbrev ops45 : List (HloOp τ sig (Elt F)) :=
  [ StableHlo.TRef.unary (.of main_c_148 : StableHlo.TRef sig ⟨S_, .i32⟩) (.of main_call87_v0 : StableHlo.TRef sig ⟨S_, .i32⟩) id,
    StableHlo.TRef.unary (.of main_call87_v0 : StableHlo.TRef sig ⟨S_, .i32⟩) (.of main_call87_v1 : StableHlo.TRef sig ⟨S7, .i32⟩) (broadcastInDim S7 ![] bcast_S_S7),
    StableHlo.TRef.binary (.of main_v1175 : StableHlo.TRef sig ⟨S7, .i32⟩) (.of main_call87_v1 : StableHlo.TRef sig ⟨S7, .i32⟩) (.of main_call87_v2 : StableHlo.TRef sig ⟨S7, .i32⟩) Host.divsi,
    StableHlo.TRef.unary (.of main_v1175 : StableHlo.TRef sig ⟨S7, .i32⟩) (.of main_call87_v3 : StableHlo.TRef sig ⟨S7, .i32⟩) signi,
    StableHlo.TRef.unary (.of main_call87_v0 : StableHlo.TRef sig ⟨S_, .i32⟩) (.of main_call87_v4 : StableHlo.TRef sig ⟨S_, .i32⟩) signi,
    StableHlo.TRef.unary (.of main_call87_v4 : StableHlo.TRef sig ⟨S_, .i32⟩) (.of main_call87_v5 : StableHlo.TRef sig ⟨S7, .i32⟩) (broadcastInDim S7 ![] bcast_S_S7),
    StableHlo.TRef.binary (.of main_call87_v3 : StableHlo.TRef sig ⟨S7, .i32⟩) (.of main_call87_v5 : StableHlo.TRef sig ⟨S7, .i32⟩) (.of main_call87_v6 : StableHlo.TRef sig ⟨S7, .i1⟩) (cmpi .ne),
    StableHlo.TRef.unary (.of main_call87_v0 : StableHlo.TRef sig ⟨S_, .i32⟩) (.of main_call87_v7 : StableHlo.TRef sig ⟨S7, .i32⟩) (broadcastInDim S7 ![] bcast_S_S7),
    StableHlo.TRef.binary (.of main_v1175 : StableHlo.TRef sig ⟨S7, .i32⟩) (.of main_call87_v7 : StableHlo.TRef sig ⟨S7, .i32⟩) (.of main_call87_v8 : StableHlo.TRef sig ⟨S7, .i32⟩) Host.remsi,
    StableHlo.TRef.nullary (.of main_call87_c : StableHlo.TRef sig ⟨S_, .i32⟩) (constantI S_ 32 0#32),
    StableHlo.TRef.unary (.of main_call87_c : StableHlo.TRef sig ⟨S_, .i32⟩) (.of main_call87_v9 : StableHlo.TRef sig ⟨S7, .i32⟩) (broadcastInDim S7 ![] bcast_S_S7),
    StableHlo.TRef.binary (.of main_call87_v8 : StableHlo.TRef sig ⟨S7, .i32⟩) (.of main_call87_v9 : StableHlo.TRef sig ⟨S7, .i32⟩) (.of main_call87_v10 : StableHlo.TRef sig ⟨S7, .i1⟩) (cmpi .ne),
    StableHlo.TRef.binary (.of main_call87_v6 : StableHlo.TRef sig ⟨S7, .i1⟩) (.of main_call87_v10 : StableHlo.TRef sig ⟨S7, .i1⟩) (.of main_call87_v11 : StableHlo.TRef sig ⟨S7, .i1⟩) andi,
    StableHlo.TRef.nullary (.of main_call87_c_0 : StableHlo.TRef sig ⟨S_, .i32⟩) (constantI S_ 32 1#32),
    StableHlo.TRef.unary (.of main_call87_c_0 : StableHlo.TRef sig ⟨S_, .i32⟩) (.of main_call87_v12 : StableHlo.TRef sig ⟨S7, .i32⟩) (broadcastInDim S7 ![] bcast_S_S7),
    StableHlo.TRef.binary (.of main_call87_v2 : StableHlo.TRef sig ⟨S7, .i32⟩) (.of main_call87_v12 : StableHlo.TRef sig ⟨S7, .i32⟩) (.of main_call87_v13 : StableHlo.TRef sig ⟨S7, .i32⟩) subi,
    StableHlo.TRef.ternary (.of main_call87_v11 : StableHlo.TRef sig ⟨S7, .i1⟩) (.of main_call87_v13 : StableHlo.TRef sig ⟨S7, .i32⟩) (.of main_call87_v2 : StableHlo.TRef sig ⟨S7, .i32⟩) (.of main_v1176 : StableHlo.TRef sig ⟨S7, .i32⟩) select,
    StableHlo.unary main_v1146 main_v1177 (broadcastInDim S7 ![] bcast_S_S7 : (⟨S_, .i32⟩ : BufTy).Contents (Elt F) → (⟨S7, .i32⟩ : BufTy).Contents (Elt F)),
    StableHlo.binary main_v1177 main_v1176 main_v1178 (subi : (⟨S7, .i32⟩ : BufTy).Contents (Elt F) → (⟨S7, .i32⟩ : BufTy).Contents (Elt F) → (⟨S7, .i32⟩ : BufTy).Contents (Elt F)),
    StableHlo.unary main_v1163 main_v1179 (broadcastInDim S7 ![] bcast_S_S7 : (⟨S_, .i32⟩ : BufTy).Contents (Elt F) → (⟨S7, .i32⟩ : BufTy).Contents (Elt F)),
    StableHlo.binary main_v1165 main_v1179 main_v1180 (muli : (⟨S7, .i32⟩ : BufTy).Contents (Elt F) → (⟨S7, .i32⟩ : BufTy).Contents (Elt F) → (⟨S7, .i32⟩ : BufTy).Contents (Elt F)),
    StableHlo.nullary main_c_149 (constantI S_ 32 7#32),
    StableHlo.TRef.unary (.of main_c_149 : StableHlo.TRef sig ⟨S_, .i32⟩) (.of main_call88_v0 : StableHlo.TRef sig ⟨S_, .i32⟩) id,
    StableHlo.TRef.unary (.of main_call88_v0 : StableHlo.TRef sig ⟨S_, .i32⟩) (.of main_call88_v1 : StableHlo.TRef sig ⟨S7, .i32⟩) (broadcastInDim S7 ![] bcast_S_S7),
    StableHlo.TRef.binary (.of main_v1180 : StableHlo.TRef sig ⟨S7, .i32⟩) (.of main_call88_v1 : StableHlo.TRef sig ⟨S7, .i32⟩) (.of main_call88_v2 : StableHlo.TRef sig ⟨S7, .i32⟩) Host.divsi,
    StableHlo.TRef.unary (.of main_v1180 : StableHlo.TRef sig ⟨S7, .i32⟩) (.of main_call88_v3 : StableHlo.TRef sig ⟨S7, .i32⟩) signi,
    StableHlo.TRef.unary (.of main_call88_v0 : StableHlo.TRef sig ⟨S_, .i32⟩) (.of main_call88_v4 : StableHlo.TRef sig ⟨S_, .i32⟩) signi,
    StableHlo.TRef.unary (.of main_call88_v4 : StableHlo.TRef sig ⟨S_, .i32⟩) (.of main_call88_v5 : StableHlo.TRef sig ⟨S7, .i32⟩) (broadcastInDim S7 ![] bcast_S_S7),
    StableHlo.TRef.binary (.of main_call88_v3 : StableHlo.TRef sig ⟨S7, .i32⟩) (.of main_call88_v5 : StableHlo.TRef sig ⟨S7, .i32⟩) (.of main_call88_v6 : StableHlo.TRef sig ⟨S7, .i1⟩) (cmpi .ne),
    StableHlo.TRef.unary (.of main_call88_v0 : StableHlo.TRef sig ⟨S_, .i32⟩) (.of main_call88_v7 : StableHlo.TRef sig ⟨S7, .i32⟩) (broadcastInDim S7 ![] bcast_S_S7),
    StableHlo.TRef.binary (.of main_v1180 : StableHlo.TRef sig ⟨S7, .i32⟩) (.of main_call88_v7 : StableHlo.TRef sig ⟨S7, .i32⟩) (.of main_call88_v8 : StableHlo.TRef sig ⟨S7, .i32⟩) Host.remsi,
    StableHlo.TRef.nullary (.of main_call88_c : StableHlo.TRef sig ⟨S_, .i32⟩) (constantI S_ 32 0#32),
    StableHlo.TRef.unary (.of main_call88_c : StableHlo.TRef sig ⟨S_, .i32⟩) (.of main_call88_v9 : StableHlo.TRef sig ⟨S7, .i32⟩) (broadcastInDim S7 ![] bcast_S_S7),
    StableHlo.TRef.binary (.of main_call88_v8 : StableHlo.TRef sig ⟨S7, .i32⟩) (.of main_call88_v9 : StableHlo.TRef sig ⟨S7, .i32⟩) (.of main_call88_v10 : StableHlo.TRef sig ⟨S7, .i1⟩) (cmpi .ne),
    StableHlo.TRef.binary (.of main_call88_v6 : StableHlo.TRef sig ⟨S7, .i1⟩) (.of main_call88_v10 : StableHlo.TRef sig ⟨S7, .i1⟩) (.of main_call88_v11 : StableHlo.TRef sig ⟨S7, .i1⟩) andi,
    StableHlo.TRef.nullary (.of main_call88_c_0 : StableHlo.TRef sig ⟨S_, .i32⟩) (constantI S_ 32 1#32),
    StableHlo.TRef.unary (.of main_call88_c_0 : StableHlo.TRef sig ⟨S_, .i32⟩) (.of main_call88_v12 : StableHlo.TRef sig ⟨S7, .i32⟩) (broadcastInDim S7 ![] bcast_S_S7),
    StableHlo.TRef.binary (.of main_call88_v2 : StableHlo.TRef sig ⟨S7, .i32⟩) (.of main_call88_v12 : StableHlo.TRef sig ⟨S7, .i32⟩) (.of main_call88_v13 : StableHlo.TRef sig ⟨S7, .i32⟩) subi,
    StableHlo.TRef.ternary (.of main_call88_v11 : StableHlo.TRef sig ⟨S7, .i1⟩) (.of main_call88_v13 : StableHlo.TRef sig ⟨S7, .i32⟩) (.of main_call88_v2 : StableHlo.TRef sig ⟨S7, .i32⟩) (.of main_v1181 : StableHlo.TRef sig ⟨S7, .i32⟩) select,
    StableHlo.unary main_v1156 main_v1182 (broadcastInDim S7 ![] bcast_S_S7 : (⟨S_, .i32⟩ : BufTy).Contents (Elt F) → (⟨S7, .i32⟩ : BufTy).Contents (Elt F)),
    StableHlo.binary main_v1182 main_v1181 main_v1183 (addi : (⟨S7, .i32⟩ : BufTy).Contents (Elt F) → (⟨S7, .i32⟩ : BufTy).Contents (Elt F) → (⟨S7, .i32⟩ : BufTy).Contents (Elt F)),
    StableHlo.nullary main_c_150 (constantI S_ 32 1#32),
    StableHlo.unary main_c_150 main_v1184 (broadcastInDim S7 ![] bcast_S_S7 : (⟨S_, .i32⟩ : BufTy).Contents (Elt F) → (⟨S7, .i32⟩ : BufTy).Contents (Elt F)),
    StableHlo.binary main_v1165 main_v1184 main_v1185 (addi : (⟨S7, .i32⟩ : BufTy).Contents (Elt F) → (⟨S7, .i32⟩ : BufTy).Contents (Elt F) → (⟨S7, .i32⟩ : BufTy).Contents (Elt F)),
    StableHlo.unary main_v1185 main_v1186 (negi : (⟨S7, .i32⟩ : BufTy).Contents (Elt F) → (⟨S7, .i32⟩ : BufTy).Contents (Elt F)),
    StableHlo.unary main_v1163 main_v1187 (broadcastInDim S7 ![] bcast_S_S7 : (⟨S_, .i32⟩ : BufTy).Contents (Elt F) → (⟨S7, .i32⟩ : BufTy).Contents (Elt F)),
    StableHlo.binary main_v1186 main_v1187 main_v1188 (muli : (⟨S7, .i32⟩ : BufTy).Contents (Elt F) → (⟨S7, .i32⟩ : BufTy).Contents (Elt F) → (⟨S7, .i32⟩ : BufTy).Contents (Elt F)),
    StableHlo.nullary main_c_151 (constantI S_ 32 7#32) ]
/-- The buffers those operations write, in order. -/
abbrev ops45_W : List (Ref sig .tc) :=
  [main_call87_v0, main_call87_v1, main_call87_v2, main_call87_v3, main_call87_v4, main_call87_v5, main_call87_v6, main_call87_v7, main_call87_v8, main_call87_c, main_call87_v9, main_call87_v10, main_call87_v11, main_call87_c_0, main_call87_v12, main_call87_v13, main_v1176, main_v1177, main_v1178, main_v1179, main_v1180, main_c_149, main_call88_v0, main_call88_v1, main_call88_v2, main_call88_v3, main_call88_v4, main_call88_v5, main_call88_v6, main_call88_v7, main_call88_v8, main_call88_c, main_call88_v9, main_call88_v10, main_call88_v11, main_call88_c_0, main_call88_v12, main_call88_v13, main_v1181, main_v1182, main_v1183, main_c_150, main_v1184, main_v1185, main_v1186, main_v1187, main_v1188, main_c_151]
/-- Each operation writes its own result buffer and nothing else. -/
theorem ops45_writes : (ops45 : List (HloOp τ sig (Elt F))).Forall fun op => op.writes ⊆ (ops45_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2371 to 2429 of the host part, in order. -/
abbrev ops46 : List (HloOp τ sig (Elt F)) :=
  [ StableHlo.TRef.unary (.of main_c_151 : StableHlo.TRef sig ⟨S_, .i32⟩) (.of main_call89_v0 : StableHlo.TRef sig ⟨S_, .i32⟩) id,
    StableHlo.TRef.unary (.of main_call89_v0 : StableHlo.TRef sig ⟨S_, .i32⟩) (.of main_call89_v1 : StableHlo.TRef sig ⟨S7, .i32⟩) (broadcastInDim S7 ![] bcast_S_S7),
    StableHlo.TRef.binary (.of main_v1188 : StableHlo.TRef sig ⟨S7, .i32⟩) (.of main_call89_v1 : StableHlo.TRef sig ⟨S7, .i32⟩) (.of main_call89_v2 : StableHlo.TRef sig ⟨S7, .i32⟩) Host.divsi,
    StableHlo.TRef.unary (.of main_v1188 : StableHlo.TRef sig ⟨S7, .i32⟩) (.of main_call89_v3 : StableHlo.TRef sig ⟨S7, .i32⟩) signi,
    StableHlo.TRef.unary (.of main_call89_v0 : StableHlo.TRef sig ⟨S_, .i32⟩) (.of main_call89_v4 : StableHlo.TRef sig ⟨S_, .i32⟩) signi,
    StableHlo.TRef.unary (.of main_call89_v4 : StableHlo.TRef sig ⟨S_, .i32⟩) (.of main_call89_v5 : StableHlo.TRef sig ⟨S7, .i32⟩) (broadcastInDim S7 ![] bcast_S_S7),
    StableHlo.TRef.binary (.of main_call89_v3 : StableHlo.TRef sig ⟨S7, .i32⟩) (.of main_call89_v5 : StableHlo.TRef sig ⟨S7, .i32⟩) (.of main_call89_v6 : StableHlo.TRef sig ⟨S7, .i1⟩) (cmpi .ne),
    StableHlo.TRef.unary (.of main_call89_v0 : StableHlo.TRef sig ⟨S_, .i32⟩) (.of main_call89_v7 : StableHlo.TRef sig ⟨S7, .i32⟩) (broadcastInDim S7 ![] bcast_S_S7),
    StableHlo.TRef.binary (.of main_v1188 : StableHlo.TRef sig ⟨S7, .i32⟩) (.of main_call89_v7 : StableHlo.TRef sig ⟨S7, .i32⟩) (.of main_call89_v8 : StableHlo.TRef sig ⟨S7, .i32⟩) Host.remsi,
    StableHlo.TRef.nullary (.of main_call89_c : StableHlo.TRef sig ⟨S_, .i32⟩) (constantI S_ 32 0#32),
    StableHlo.TRef.unary (.of main_call89_c : StableHlo.TRef sig ⟨S_, .i32⟩) (.of main_call89_v9 : StableHlo.TRef sig ⟨S7, .i32⟩) (broadcastInDim S7 ![] bcast_S_S7),
    StableHlo.TRef.binary (.of main_call89_v8 : StableHlo.TRef sig ⟨S7, .i32⟩) (.of main_call89_v9 : StableHlo.TRef sig ⟨S7, .i32⟩) (.of main_call89_v10 : StableHlo.TRef sig ⟨S7, .i1⟩) (cmpi .ne),
    StableHlo.TRef.binary (.of main_call89_v6 : StableHlo.TRef sig ⟨S7, .i1⟩) (.of main_call89_v10 : StableHlo.TRef sig ⟨S7, .i1⟩) (.of main_call89_v11 : StableHlo.TRef sig ⟨S7, .i1⟩) andi,
    StableHlo.TRef.nullary (.of main_call89_c_0 : StableHlo.TRef sig ⟨S_, .i32⟩) (constantI S_ 32 1#32),
    StableHlo.TRef.unary (.of main_call89_c_0 : StableHlo.TRef sig ⟨S_, .i32⟩) (.of main_call89_v12 : StableHlo.TRef sig ⟨S7, .i32⟩) (broadcastInDim S7 ![] bcast_S_S7),
    StableHlo.TRef.binary (.of main_call89_v2 : StableHlo.TRef sig ⟨S7, .i32⟩) (.of main_call89_v12 : StableHlo.TRef sig ⟨S7, .i32⟩) (.of main_call89_v13 : StableHlo.TRef sig ⟨S7, .i32⟩) subi,
    StableHlo.TRef.ternary (.of main_call89_v11 : StableHlo.TRef sig ⟨S7, .i1⟩) (.of main_call89_v13 : StableHlo.TRef sig ⟨S7, .i32⟩) (.of main_call89_v2 : StableHlo.TRef sig ⟨S7, .i32⟩) (.of main_v1189 : StableHlo.TRef sig ⟨S7, .i32⟩) select,
    StableHlo.unary main_v1156 main_v1190 (broadcastInDim S7 ![] bcast_S_S7 : (⟨S_, .i32⟩ : BufTy).Contents (Elt F) → (⟨S7, .i32⟩ : BufTy).Contents (Elt F)),
    StableHlo.binary main_v1190 main_v1189 main_v1191 (subi : (⟨S7, .i32⟩ : BufTy).Contents (Elt F) → (⟨S7, .i32⟩ : BufTy).Contents (Elt F) → (⟨S7, .i32⟩ : BufTy).Contents (Elt F)),
    StableHlo.nullary main_v1192 (iotaInDim S64 32 0),
    StableHlo.nullary main_v1193 (iotaInDim S64 32 0),
    StableHlo.unary main_v1192 main_v1194 (broadcastInDim S1x64 ![1] bcast_S64_S1x64_1 : (⟨S64, .i32⟩ : BufTy).Contents (Elt F) → (⟨S1x64, .i32⟩ : BufTy).Contents (Elt F)),
    StableHlo.unary main_v1170 main_v1195 (broadcastInDim S7x1 ![0] bcast_S7_S7x1_0 : (⟨S7, .i32⟩ : BufTy).Contents (Elt F) → (⟨S7x1, .i32⟩ : BufTy).Contents (Elt F)),
    StableHlo.unary main_v1194 main_v1196 (broadcastInDim S7x64 ![0, 1] bcast_S1x64_S7x64_0_1 : (⟨S1x64, .i32⟩ : BufTy).Contents (Elt F) → (⟨S7x64, .i32⟩ : BufTy).Contents (Elt F)),
    StableHlo.unary main_v1195 main_v1197 (broadcastInDim S7x64 ![0, 1] bcast_S7x1_S7x64_0_1 : (⟨S7x1, .i32⟩ : BufTy).Contents (Elt F) → (⟨S7x64, .i32⟩ : BufTy).Contents (Elt F)),
    StableHlo.binary main_v1196 main_v1197 main_v1198 (cmpi .sge : (⟨S7x64, .i32⟩ : BufTy).Contents (Elt F) → (⟨S7x64, .i32⟩ : BufTy).Contents (Elt F) → (⟨S7x64, .i1⟩ : BufTy).Contents (Elt F)),
    StableHlo.unary main_v1192 main_v1199 (broadcastInDim S1x64 ![1] bcast_S64_S1x64_1 : (⟨S64, .i32⟩ : BufTy).Contents (Elt F) → (⟨S1x64, .i32⟩ : BufTy).Contents (Elt F)),
    StableHlo.unary main_v1178 main_v1200 (broadcastInDim S7x1 ![0] bcast_S7_S7x1_0 : (⟨S7, .i32⟩ : BufTy).Contents (Elt F) → (⟨S7x1, .i32⟩ : BufTy).Contents (Elt F)),
    StableHlo.unary main_v1199 main_v1201 (broadcastInDim S7x64 ![0, 1] bcast_S1x64_S7x64_0_1 : (⟨S1x64, .i32⟩ : BufTy).Contents (Elt F) → (⟨S7x64, .i32⟩ : BufTy).Contents (Elt F)),
    StableHlo.unary main_v1200 main_v1202 (broadcastInDim S7x64 ![0, 1] bcast_S7x1_S7x64_0_1 : (⟨S7x1, .i32⟩ : BufTy).Contents (Elt F) → (⟨S7x64, .i32⟩ : BufTy).Contents (Elt F)),
    StableHlo.binary main_v1201 main_v1202 main_v1203 (cmpi .slt : (⟨S7x64, .i32⟩ : BufTy).Contents (Elt F) → (⟨S7x64, .i32⟩ : BufTy).Contents (Elt F) → (⟨S7x64, .i1⟩ : BufTy).Contents (Elt F)),
    StableHlo.binary main_v1198 main_v1203 main_v1204 (andi : (⟨S7x64, .i1⟩ : BufTy).Contents (Elt F) → (⟨S7x64, .i1⟩ : BufTy).Contents (Elt F) → (⟨S7x64, .i1⟩ : BufTy).Contents (Elt F)),
    StableHlo.unary main_v1193 main_v1205 (broadcastInDim S1x64 ![1] bcast_S64_S1x64_1 : (⟨S64, .i32⟩ : BufTy).Contents (Elt F) → (⟨S1x64, .i32⟩ : BufTy).Contents (Elt F)),
    StableHlo.unary main_v1183 main_v1206 (broadcastInDim S7x1 ![0] bcast_S7_S7x1_0 : (⟨S7, .i32⟩ : BufTy).Contents (Elt F) → (⟨S7x1, .i32⟩ : BufTy).Contents (Elt F)),
    StableHlo.unary main_v1205 main_v1207 (broadcastInDim S7x64 ![0, 1] bcast_S1x64_S7x64_0_1 : (⟨S1x64, .i32⟩ : BufTy).Contents (Elt F) → (⟨S7x64, .i32⟩ : BufTy).Contents (Elt F)),
    StableHlo.unary main_v1206 main_v1208 (broadcastInDim S7x64 ![0, 1] bcast_S7x1_S7x64_0_1 : (⟨S7x1, .i32⟩ : BufTy).Contents (Elt F) → (⟨S7x64, .i32⟩ : BufTy).Contents (Elt F)),
    StableHlo.binary main_v1207 main_v1208 main_v1209 (cmpi .sge : (⟨S7x64, .i32⟩ : BufTy).Contents (Elt F) → (⟨S7x64, .i32⟩ : BufTy).Contents (Elt F) → (⟨S7x64, .i1⟩ : BufTy).Contents (Elt F)),
    StableHlo.unary main_v1193 main_v1210 (broadcastInDim S1x64 ![1] bcast_S64_S1x64_1 : (⟨S64, .i32⟩ : BufTy).Contents (Elt F) → (⟨S1x64, .i32⟩ : BufTy).Contents (Elt F)),
    StableHlo.unary main_v1191 main_v1211 (broadcastInDim S7x1 ![0] bcast_S7_S7x1_0 : (⟨S7, .i32⟩ : BufTy).Contents (Elt F) → (⟨S7x1, .i32⟩ : BufTy).Contents (Elt F)),
    StableHlo.unary main_v1210 main_v1212 (broadcastInDim S7x64 ![0, 1] bcast_S1x64_S7x64_0_1 : (⟨S1x64, .i32⟩ : BufTy).Contents (Elt F) → (⟨S7x64, .i32⟩ : BufTy).Contents (Elt F)),
    StableHlo.unary main_v1211 main_v1213 (broadcastInDim S7x64 ![0, 1] bcast_S7x1_S7x64_0_1 : (⟨S7x1, .i32⟩ : BufTy).Contents (Elt F) → (⟨S7x64, .i32⟩ : BufTy).Contents (Elt F)),
    StableHlo.binary main_v1212 main_v1213 main_v1214 (cmpi .slt : (⟨S7x64, .i32⟩ : BufTy).Contents (Elt F) → (⟨S7x64, .i32⟩ : BufTy).Contents (Elt F) → (⟨S7x64, .i1⟩ : BufTy).Contents (Elt F)),
    StableHlo.binary main_v1209 main_v1214 main_v1215 (andi : (⟨S7x64, .i1⟩ : BufTy).Contents (Elt F) → (⟨S7x64, .i1⟩ : BufTy).Contents (Elt F) → (⟨S7x64, .i1⟩ : BufTy).Contents (Elt F)),
    StableHlo.unary main_v1204 main_v1216 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1217 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_152 (constant S_ .f32 0xFF800000#32),
    StableHlo.TRef.unary (.of main_v1216 : StableHlo.TRef sig ⟨S7x1x64x1, .i1⟩) (.of main_call90_v0 : StableHlo.TRef sig ⟨S7x512x64x64, .i1⟩) (broadcastInDim S7x512x64x64 ![0, 1, 2, 3] bcast_S7x1x64x1_S7x512x64x64_0_1_2_3),
    StableHlo.TRef.unary (.of main_v1217 : StableHlo.TRef sig ⟨S1x512x64x64, .f32⟩) (.of main_call90_v1 : StableHlo.TRef sig ⟨S7x512x64x64, .f32⟩) (broadcastInDim S7x512x64x64 ![0, 1, 2, 3] bcast_S1x512x64x64_S7x512x64x64_0_1_2_3),
    StableHlo.TRef.unary (.of main_cst_152 : StableHlo.TRef sig ⟨S_, .f32⟩) (.of main_call90_v2 : StableHlo.TRef sig ⟨S7x512x64x64, .f32⟩) (broadcastInDim S7x512x64x64 ![] bcast_S_S7x512x64x64),
    StableHlo.TRef.ternary (.of main_call90_v0 : StableHlo.TRef sig ⟨S7x512x64x64, .i1⟩) (.of main_call90_v1 : StableHlo.TRef sig ⟨S7x512x64x64, .f32⟩) (.of main_call90_v2 : StableHlo.TRef sig ⟨S7x512x64x64, .f32⟩) (.of main_v1218 : StableHlo.TRef sig ⟨S7x512x64x64, .f32⟩) select,
    StableHlo.nullary main_cst_153 (constant S_ .f32 0xFF800000#32),
    StableHlo.binary main_v1218 main_cst_153 main_v1219 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1215 main_v1220 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1219 main_v1221 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_154 (constant S_ .f32 0xFF800000#32),
    StableHlo.TRef.unary (.of main_v1220 : StableHlo.TRef sig ⟨S1x1x7x64, .i1⟩) (.of main_call91_v0 : StableHlo.TRef sig ⟨S7x512x7x64, .i1⟩) (broadcastInDim S7x512x7x64 ![0, 1, 2, 3] bcast_S1x1x7x64_S7x512x7x64_0_1_2_3),
    StableHlo.TRef.unary (.of main_v1221 : StableHlo.TRef sig ⟨S7x512x1x64, .f32⟩) (.of main_call91_v1 : StableHlo.TRef sig ⟨S7x512x7x64, .f32⟩) (broadcastInDim S7x512x7x64 ![0, 1, 2, 3] bcast_S7x512x1x64_S7x512x7x64_0_1_2_3),
    StableHlo.TRef.unary (.of main_cst_154 : StableHlo.TRef sig ⟨S_, .f32⟩) (.of main_call91_v2 : StableHlo.TRef sig ⟨S7x512x7x64, .f32⟩) (broadcastInDim S7x512x7x64 ![] bcast_S_S7x512x7x64),
    StableHlo.TRef.ternary (.of main_call91_v0 : StableHlo.TRef sig ⟨S7x512x7x64, .i1⟩) (.of main_call91_v1 : StableHlo.TRef sig ⟨S7x512x7x64, .f32⟩) (.of main_call91_v2 : StableHlo.TRef sig ⟨S7x512x7x64, .f32⟩) (.of main_v1222 : StableHlo.TRef sig ⟨S7x512x7x64, .f32⟩) select ]
/-- The buffers those operations write, in order. -/
abbrev ops46_W : List (Ref sig .tc) :=
  [main_call89_v0, main_call89_v1, main_call89_v2, main_call89_v3, main_call89_v4, main_call89_v5, main_call89_v6, main_call89_v7, main_call89_v8, main_call89_c, main_call89_v9, main_call89_v10, main_call89_v11, main_call89_c_0, main_call89_v12, main_call89_v13, main_v1189, main_v1190, main_v1191, main_v1192, main_v1193, main_v1194, main_v1195, main_v1196, main_v1197, main_v1198, main_v1199, main_v1200, main_v1201, main_v1202, main_v1203, main_v1204, main_v1205, main_v1206, main_v1207, main_v1208, main_v1209, main_v1210, main_v1211, main_v1212, main_v1213, main_v1214, main_v1215, main_v1216, main_v1217, main_cst_152, main_call90_v0, main_call90_v1, main_call90_v2, main_v1218, main_cst_153, main_v1219, main_v1220, main_v1221, main_cst_154, main_call91_v0, main_call91_v1, main_call91_v2, main_v1222]
/-- Each operation writes its own result buffer and nothing else. -/
theorem ops46_writes : (ops46 : List (HloOp τ sig (Elt F))).Forall fun op => op.writes ⊆ (ops46_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2430 to 2486 of the host part, in order. -/
abbrev ops47 : List (HloOp τ sig (Elt F)) :=
  [ StableHlo.nullary main_cst_155 (constant S_ .f32 0xFF800000#32),
    StableHlo.binary main_v1222 main_cst_155 main_v1223 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1223 main_v1224 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1224 main_v1225 rfl shapeCasts_S512x7x7_S25088,
    StableHlo.unary main_v18 main_v1226 ((extractStridedSlice S1x1 ![2, 1] · slices_S3x4_S1x1_2_1) : (⟨S3x4, .i32⟩ : BufTy).Contents (Elt F) → (⟨S1x1, .i32⟩ : BufTy).Contents (Elt F)),
    StableHlo.reshape main_v1226 main_v1227 rfl shapeCasts_S1x1_S_,
    StableHlo.unary main_v23 main_v1228 ((extractStridedSlice S1x1 ![3, 1] · slices_S4x4_S1x1_3_1) : (⟨S4x4, .i32⟩ : BufTy).Contents (Elt F) → (⟨S1x1, .i32⟩ : BufTy).Contents (Elt F)),
    StableHlo.reshape main_v1228 main_v1229 rfl shapeCasts_S1x1_S_,
    StableHlo.binary main_v1227 main_v1229 main_v1230 (minsi : (⟨S_, .i32⟩ : BufTy).Contents (Elt F) → (⟨S_, .i32⟩ : BufTy).Contents (Elt F) → (⟨S_, .i32⟩ : BufTy).Contents (Elt F)),
    StableHlo.unary main_v18 main_v1231 ((extractStridedSlice S1x1 ![2, 3] · slices_S3x4_S1x1_2_3) : (⟨S3x4, .i32⟩ : BufTy).Contents (Elt F) → (⟨S1x1, .i32⟩ : BufTy).Contents (Elt F)),
    StableHlo.reshape main_v1231 main_v1232 rfl shapeCasts_S1x1_S_,
    StableHlo.unary main_v23 main_v1233 ((extractStridedSlice S1x1 ![3, 3] · slices_S4x4_S1x1_3_3) : (⟨S4x4, .i32⟩ : BufTy).Contents (Elt F) → (⟨S1x1, .i32⟩ : BufTy).Contents (Elt F)),
    StableHlo.reshape main_v1233 main_v1234 rfl shapeCasts_S1x1_S_,
    StableHlo.binary main_v1232 main_v1234 main_v1235 (maxsi : (⟨S_, .i32⟩ : BufTy).Contents (Elt F) → (⟨S_, .i32⟩ : BufTy).Contents (Elt F) → (⟨S_, .i32⟩ : BufTy).Contents (Elt F)),
    StableHlo.unary main_v18 main_v1236 ((extractStridedSlice S1x1 ![2, 0] · slices_S3x4_S1x1_2_0) : (⟨S3x4, .i32⟩ : BufTy).Contents (Elt F) → (⟨S1x1, .i32⟩ : BufTy).Contents (Elt F)),
    StableHlo.reshape main_v1236 main_v1237 rfl shapeCasts_S1x1_S_,
    StableHlo.unary main_v23 main_v1238 ((extractStridedSlice S1x1 ![3, 0] · slices_S4x4_S1x1_3_0) : (⟨S4x4, .i32⟩ : BufTy).Contents (Elt F) → (⟨S1x1, .i32⟩ : BufTy).Contents (Elt F)),
    StableHlo.reshape main_v1238 main_v1239 rfl shapeCasts_S1x1_S_,
    StableHlo.binary main_v1237 main_v1239 main_v1240 (minsi : (⟨S_, .i32⟩ : BufTy).Contents (Elt F) → (⟨S_, .i32⟩ : BufTy).Contents (Elt F) → (⟨S_, .i32⟩ : BufTy).Contents (Elt F)),
    StableHlo.unary main_v18 main_v1241 ((extractStridedSlice S1x1 ![2, 2] · slices_S3x4_S1x1_2_2) : (⟨S3x4, .i32⟩ : BufTy).Contents (Elt F) → (⟨S1x1, .i32⟩ : BufTy).Contents (Elt F)),
    StableHlo.reshape main_v1241 main_v1242 rfl shapeCasts_S1x1_S_,
    StableHlo.unary main_v23 main_v1243 ((extractStridedSlice S1x1 ![3, 2] · slices_S4x4_S1x1_3_2) : (⟨S4x4, .i32⟩ : BufTy).Contents (Elt F) → (⟨S1x1, .i32⟩ : BufTy).Contents (Elt F)),
    StableHlo.reshape main_v1243 main_v1244 rfl shapeCasts_S1x1_S_,
    StableHlo.binary main_v1242 main_v1244 main_v1245 (maxsi : (⟨S_, .i32⟩ : BufTy).Contents (Elt F) → (⟨S_, .i32⟩ : BufTy).Contents (Elt F) → (⟨S_, .i32⟩ : BufTy).Contents (Elt F)),
    StableHlo.binary main_v1235 main_v1230 main_v1246 (subi : (⟨S_, .i32⟩ : BufTy).Contents (Elt F) → (⟨S_, .i32⟩ : BufTy).Contents (Elt F) → (⟨S_, .i32⟩ : BufTy).Contents (Elt F)),
    StableHlo.binary main_v1245 main_v1240 main_v1247 (subi : (⟨S_, .i32⟩ : BufTy).Contents (Elt F) → (⟨S_, .i32⟩ : BufTy).Contents (Elt F) → (⟨S_, .i32⟩ : BufTy).Contents (Elt F)),
    StableHlo.nullary main_v1248 (iotaInDim S7 32 0),
    StableHlo.nullary main_v1249 (iotaInDim S7 32 0),
    StableHlo.unary main_v1246 main_v1250 (broadcastInDim S7 ![] bcast_S_S7 : (⟨S_, .i32⟩ : BufTy).Contents (Elt F) → (⟨S7, .i32⟩ : BufTy).Contents (Elt F)),
    StableHlo.binary main_v1248 main_v1250 main_v1251 (muli : (⟨S7, .i32⟩ : BufTy).Contents (Elt F) → (⟨S7, .i32⟩ : BufTy).Contents (Elt F) → (⟨S7, .i32⟩ : BufTy).Contents (Elt F)),
    StableHlo.nullary main_c_156 (constantI S_ 32 7#32),
    StableHlo.TRef.unary (.of main_c_156 : StableHlo.TRef sig ⟨S_, .i32⟩) (.of main_call92_v0 : StableHlo.TRef sig ⟨S_, .i32⟩) id,
    StableHlo.TRef.unary (.of main_call92_v0 : StableHlo.TRef sig ⟨S_, .i32⟩) (.of main_call92_v1 : StableHlo.TRef sig ⟨S7, .i32⟩) (broadcastInDim S7 ![] bcast_S_S7),
    StableHlo.TRef.binary (.of main_v1251 : StableHlo.TRef sig ⟨S7, .i32⟩) (.of main_call92_v1 : StableHlo.TRef sig ⟨S7, .i32⟩) (.of main_call92_v2 : StableHlo.TRef sig ⟨S7, .i32⟩) Host.divsi,
    StableHlo.TRef.unary (.of main_v1251 : StableHlo.TRef sig ⟨S7, .i32⟩) (.of main_call92_v3 : StableHlo.TRef sig ⟨S7, .i32⟩) signi,
    StableHlo.TRef.unary (.of main_call92_v0 : StableHlo.TRef sig ⟨S_, .i32⟩) (.of main_call92_v4 : StableHlo.TRef sig ⟨S_, .i32⟩) signi,
    StableHlo.TRef.unary (.of main_call92_v4 : StableHlo.TRef sig ⟨S_, .i32⟩) (.of main_call92_v5 : StableHlo.TRef sig ⟨S7, .i32⟩) (broadcastInDim S7 ![] bcast_S_S7),
    StableHlo.TRef.binary (.of main_call92_v3 : StableHlo.TRef sig ⟨S7, .i32⟩) (.of main_call92_v5 : StableHlo.TRef sig ⟨S7, .i32⟩) (.of main_call92_v6 : StableHlo.TRef sig ⟨S7, .i1⟩) (cmpi .ne),
    StableHlo.TRef.unary (.of main_call92_v0 : StableHlo.TRef sig ⟨S_, .i32⟩) (.of main_call92_v7 : StableHlo.TRef sig ⟨S7, .i32⟩) (broadcastInDim S7 ![] bcast_S_S7),
    StableHlo.TRef.binary (.of main_v1251 : StableHlo.TRef sig ⟨S7, .i32⟩) (.of main_call92_v7 : StableHlo.TRef sig ⟨S7, .i32⟩) (.of main_call92_v8 : StableHlo.TRef sig ⟨S7, .i32⟩) Host.remsi,
    StableHlo.TRef.nullary (.of main_call92_c : StableHlo.TRef sig ⟨S_, .i32⟩) (constantI S_ 32 0#32),
    StableHlo.TRef.unary (.of main_call92_c : StableHlo.TRef sig ⟨S_, .i32⟩) (.of main_call92_v9 : StableHlo.TRef sig ⟨S7, .i32⟩) (broadcastInDim S7 ![] bcast_S_S7),
    StableHlo.TRef.binary (.of main_call92_v8 : StableHlo.TRef sig ⟨S7, .i32⟩) (.of main_call92_v9 : StableHlo.TRef sig ⟨S7, .i32⟩) (.of main_call92_v10 : StableHlo.TRef sig ⟨S7, .i1⟩) (cmpi .ne),
    StableHlo.TRef.binary (.of main_call92_v6 : StableHlo.TRef sig ⟨S7, .i1⟩) (.of main_call92_v10 : StableHlo.TRef sig ⟨S7, .i1⟩) (.of main_call92_v11 : StableHlo.TRef sig ⟨S7, .i1⟩) andi,
    StableHlo.TRef.nullary (.of main_call92_c_0 : StableHlo.TRef sig ⟨S_, .i32⟩) (constantI S_ 32 1#32),
    StableHlo.TRef.unary (.of main_call92_c_0 : StableHlo.TRef sig ⟨S_, .i32⟩) (.of main_call92_v12 : StableHlo.TRef sig ⟨S7, .i32⟩) (broadcastInDim S7 ![] bcast_S_S7),
    StableHlo.TRef.binary (.of main_call92_v2 : StableHlo.TRef sig ⟨S7, .i32⟩) (.of main_call92_v12 : StableHlo.TRef sig ⟨S7, .i32⟩) (.of main_call92_v13 : StableHlo.TRef sig ⟨S7, .i32⟩) subi,
    StableHlo.TRef.ternary (.of main_call92_v11 : StableHlo.TRef sig ⟨S7, .i1⟩) (.of main_call92_v13 : StableHlo.TRef sig ⟨S7, .i32⟩) (.of main_call92_v2 : StableHlo.TRef sig ⟨S7, .i32⟩) (.of main_v1252 : StableHlo.TRef sig ⟨S7, .i32⟩) select,
    StableHlo.unary main_v1230 main_v1253 (broadcastInDim S7 ![] bcast_S_S7 : (⟨S_, .i32⟩ : BufTy).Contents (Elt F) → (⟨S7, .i32⟩ : BufTy).Contents (Elt F)),
    StableHlo.binary main_v1253 main_v1252 main_v1254 (addi : (⟨S7, .i32⟩ : BufTy).Contents (Elt F) → (⟨S7, .i32⟩ : BufTy).Contents (Elt F) → (⟨S7, .i32⟩ : BufTy).Contents (Elt F)),
    StableHlo.nullary main_c_157 (constantI S_ 32 1#32),
    StableHlo.unary main_c_157 main_v1255 (broadcastInDim S7 ![] bcast_S_S7 : (⟨S_, .i32⟩ : BufTy).Contents (Elt F) → (⟨S7, .i32⟩ : BufTy).Contents (Elt F)),
    StableHlo.binary main_v1248 main_v1255 main_v1256 (addi : (⟨S7, .i32⟩ : BufTy).Contents (Elt F) → (⟨S7, .i32⟩ : BufTy).Contents (Elt F) → (⟨S7, .i32⟩ : BufTy).Contents (Elt F)),
    StableHlo.unary main_v1256 main_v1257 (negi : (⟨S7, .i32⟩ : BufTy).Contents (Elt F) → (⟨S7, .i32⟩ : BufTy).Contents (Elt F)),
    StableHlo.unary main_v1246 main_v1258 (broadcastInDim S7 ![] bcast_S_S7 : (⟨S_, .i32⟩ : BufTy).Contents (Elt F) → (⟨S7, .i32⟩ : BufTy).Contents (Elt F)),
    StableHlo.binary main_v1257 main_v1258 main_v1259 (muli : (⟨S7, .i32⟩ : BufTy).Contents (Elt F) → (⟨S7, .i32⟩ : BufTy).Contents (Elt F) → (⟨S7, .i32⟩ : BufTy).Contents (Elt F)),
    StableHlo.nullary main_c_158 (constantI S_ 32 7#32) ]
/-- The buffers those operations write, in order. -/
abbrev ops47_W : List (Ref sig .tc) :=
  [main_cst_155, main_v1223, main_v1224, main_v1225, main_v1226, main_v1227, main_v1228, main_v1229, main_v1230, main_v1231, main_v1232, main_v1233, main_v1234, main_v1235, main_v1236, main_v1237, main_v1238, main_v1239, main_v1240, main_v1241, main_v1242, main_v1243, main_v1244, main_v1245, main_v1246, main_v1247, main_v1248, main_v1249, main_v1250, main_v1251, main_c_156, main_call92_v0, main_call92_v1, main_call92_v2, main_call92_v3, main_call92_v4, main_call92_v5, main_call92_v6, main_call92_v7, main_call92_v8, main_call92_c, main_call92_v9, main_call92_v10, main_call92_v11, main_call92_c_0, main_call92_v12, main_call92_v13, main_v1252, main_v1253, main_v1254, main_c_157, main_v1255, main_v1256, main_v1257, main_v1258, main_v1259, main_c_158]
/-- Each operation writes its own result buffer and nothing else. -/
theorem ops47_writes : (ops47 : List (HloOp τ sig (Elt F))).Forall fun op => op.writes ⊆ (ops47_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2487 to 2534 of the host part, in order. -/
abbrev ops48 : List (HloOp τ sig (Elt F)) :=
  [ StableHlo.TRef.unary (.of main_c_158 : StableHlo.TRef sig ⟨S_, .i32⟩) (.of main_call93_v0 : StableHlo.TRef sig ⟨S_, .i32⟩) id,
    StableHlo.TRef.unary (.of main_call93_v0 : StableHlo.TRef sig ⟨S_, .i32⟩) (.of main_call93_v1 : StableHlo.TRef sig ⟨S7, .i32⟩) (broadcastInDim S7 ![] bcast_S_S7),
    StableHlo.TRef.binary (.of main_v1259 : StableHlo.TRef sig ⟨S7, .i32⟩) (.of main_call93_v1 : StableHlo.TRef sig ⟨S7, .i32⟩) (.of main_call93_v2 : StableHlo.TRef sig ⟨S7, .i32⟩) Host.divsi,
    StableHlo.TRef.unary (.of main_v1259 : StableHlo.TRef sig ⟨S7, .i32⟩) (.of main_call93_v3 : StableHlo.TRef sig ⟨S7, .i32⟩) signi,
    StableHlo.TRef.unary (.of main_call93_v0 : StableHlo.TRef sig ⟨S_, .i32⟩) (.of main_call93_v4 : StableHlo.TRef sig ⟨S_, .i32⟩) signi,
    StableHlo.TRef.unary (.of main_call93_v4 : StableHlo.TRef sig ⟨S_, .i32⟩) (.of main_call93_v5 : StableHlo.TRef sig ⟨S7, .i32⟩) (broadcastInDim S7 ![] bcast_S_S7),
    StableHlo.TRef.binary (.of main_call93_v3 : StableHlo.TRef sig ⟨S7, .i32⟩) (.of main_call93_v5 : StableHlo.TRef sig ⟨S7, .i32⟩) (.of main_call93_v6 : StableHlo.TRef sig ⟨S7, .i1⟩) (cmpi .ne),
    StableHlo.TRef.unary (.of main_call93_v0 : StableHlo.TRef sig ⟨S_, .i32⟩) (.of main_call93_v7 : StableHlo.TRef sig ⟨S7, .i32⟩) (broadcastInDim S7 ![] bcast_S_S7),
    StableHlo.TRef.binary (.of main_v1259 : StableHlo.TRef sig ⟨S7, .i32⟩) (.of main_call93_v7 : StableHlo.TRef sig ⟨S7, .i32⟩) (.of main_call93_v8 : StableHlo.TRef sig ⟨S7, .i32⟩) Host.remsi,
    StableHlo.TRef.nullary (.of main_call93_c : StableHlo.TRef sig ⟨S_, .i32⟩) (constantI S_ 32 0#32),
    StableHlo.TRef.unary (.of main_call93_c : StableHlo.TRef sig ⟨S_, .i32⟩) (.of main_call93_v9 : StableHlo.TRef sig ⟨S7, .i32⟩) (broadcastInDim S7 ![] bcast_S_S7),
    StableHlo.TRef.binary (.of main_call93_v8 : StableHlo.TRef sig ⟨S7, .i32⟩) (.of main_call93_v9 : StableHlo.TRef sig ⟨S7, .i32⟩) (.of main_call93_v10 : StableHlo.TRef sig ⟨S7, .i1⟩) (cmpi .ne),
    StableHlo.TRef.binary (.of main_call93_v6 : StableHlo.TRef sig ⟨S7, .i1⟩) (.of main_call93_v10 : StableHlo.TRef sig ⟨S7, .i1⟩) (.of main_call93_v11 : StableHlo.TRef sig ⟨S7, .i1⟩) andi,
    StableHlo.TRef.nullary (.of main_call93_c_0 : StableHlo.TRef sig ⟨S_, .i32⟩) (constantI S_ 32 1#32),
    StableHlo.TRef.unary (.of main_call93_c_0 : StableHlo.TRef sig ⟨S_, .i32⟩) (.of main_call93_v12 : StableHlo.TRef sig ⟨S7, .i32⟩) (broadcastInDim S7 ![] bcast_S_S7),
    StableHlo.TRef.binary (.of main_call93_v2 : StableHlo.TRef sig ⟨S7, .i32⟩) (.of main_call93_v12 : StableHlo.TRef sig ⟨S7, .i32⟩) (.of main_call93_v13 : StableHlo.TRef sig ⟨S7, .i32⟩) subi,
    StableHlo.TRef.ternary (.of main_call93_v11 : StableHlo.TRef sig ⟨S7, .i1⟩) (.of main_call93_v13 : StableHlo.TRef sig ⟨S7, .i32⟩) (.of main_call93_v2 : StableHlo.TRef sig ⟨S7, .i32⟩) (.of main_v1260 : StableHlo.TRef sig ⟨S7, .i32⟩) select,
    StableHlo.unary main_v1230 main_v1261 (broadcastInDim S7 ![] bcast_S_S7 : (⟨S_, .i32⟩ : BufTy).Contents (Elt F) → (⟨S7, .i32⟩ : BufTy).Contents (Elt F)),
    StableHlo.binary main_v1261 main_v1260 main_v1262 (subi : (⟨S7, .i32⟩ : BufTy).Contents (Elt F) → (⟨S7, .i32⟩ : BufTy).Contents (Elt F) → (⟨S7, .i32⟩ : BufTy).Contents (Elt F)),
    StableHlo.unary main_v1247 main_v1263 (broadcastInDim S7 ![] bcast_S_S7 : (⟨S_, .i32⟩ : BufTy).Contents (Elt F) → (⟨S7, .i32⟩ : BufTy).Contents (Elt F)),
    StableHlo.binary main_v1249 main_v1263 main_v1264 (muli : (⟨S7, .i32⟩ : BufTy).Contents (Elt F) → (⟨S7, .i32⟩ : BufTy).Contents (Elt F) → (⟨S7, .i32⟩ : BufTy).Contents (Elt F)),
    StableHlo.nullary main_c_159 (constantI S_ 32 7#32),
    StableHlo.TRef.unary (.of main_c_159 : StableHlo.TRef sig ⟨S_, .i32⟩) (.of main_call94_v0 : StableHlo.TRef sig ⟨S_, .i32⟩) id,
    StableHlo.TRef.unary (.of main_call94_v0 : StableHlo.TRef sig ⟨S_, .i32⟩) (.of main_call94_v1 : StableHlo.TRef sig ⟨S7, .i32⟩) (broadcastInDim S7 ![] bcast_S_S7),
    StableHlo.TRef.binary (.of main_v1264 : StableHlo.TRef sig ⟨S7, .i32⟩) (.of main_call94_v1 : StableHlo.TRef sig ⟨S7, .i32⟩) (.of main_call94_v2 : StableHlo.TRef sig ⟨S7, .i32⟩) Host.divsi,
    StableHlo.TRef.unary (.of main_v1264 : StableHlo.TRef sig ⟨S7, .i32⟩) (.of main_call94_v3 : StableHlo.TRef sig ⟨S7, .i32⟩) signi,
    StableHlo.TRef.unary (.of main_call94_v0 : StableHlo.TRef sig ⟨S_, .i32⟩) (.of main_call94_v4 : StableHlo.TRef sig ⟨S_, .i32⟩) signi,
    StableHlo.TRef.unary (.of main_call94_v4 : StableHlo.TRef sig ⟨S_, .i32⟩) (.of main_call94_v5 : StableHlo.TRef sig ⟨S7, .i32⟩) (broadcastInDim S7 ![] bcast_S_S7),
    StableHlo.TRef.binary (.of main_call94_v3 : StableHlo.TRef sig ⟨S7, .i32⟩) (.of main_call94_v5 : StableHlo.TRef sig ⟨S7, .i32⟩) (.of main_call94_v6 : StableHlo.TRef sig ⟨S7, .i1⟩) (cmpi .ne),
    StableHlo.TRef.unary (.of main_call94_v0 : StableHlo.TRef sig ⟨S_, .i32⟩) (.of main_call94_v7 : StableHlo.TRef sig ⟨S7, .i32⟩) (broadcastInDim S7 ![] bcast_S_S7),
    StableHlo.TRef.binary (.of main_v1264 : StableHlo.TRef sig ⟨S7, .i32⟩) (.of main_call94_v7 : StableHlo.TRef sig ⟨S7, .i32⟩) (.of main_call94_v8 : StableHlo.TRef sig ⟨S7, .i32⟩) Host.remsi,
    StableHlo.TRef.nullary (.of main_call94_c : StableHlo.TRef sig ⟨S_, .i32⟩) (constantI S_ 32 0#32),
    StableHlo.TRef.unary (.of main_call94_c : StableHlo.TRef sig ⟨S_, .i32⟩) (.of main_call94_v9 : StableHlo.TRef sig ⟨S7, .i32⟩) (broadcastInDim S7 ![] bcast_S_S7),
    StableHlo.TRef.binary (.of main_call94_v8 : StableHlo.TRef sig ⟨S7, .i32⟩) (.of main_call94_v9 : StableHlo.TRef sig ⟨S7, .i32⟩) (.of main_call94_v10 : StableHlo.TRef sig ⟨S7, .i1⟩) (cmpi .ne),
    StableHlo.TRef.binary (.of main_call94_v6 : StableHlo.TRef sig ⟨S7, .i1⟩) (.of main_call94_v10 : StableHlo.TRef sig ⟨S7, .i1⟩) (.of main_call94_v11 : StableHlo.TRef sig ⟨S7, .i1⟩) andi,
    StableHlo.TRef.nullary (.of main_call94_c_0 : StableHlo.TRef sig ⟨S_, .i32⟩) (constantI S_ 32 1#32),
    StableHlo.TRef.unary (.of main_call94_c_0 : StableHlo.TRef sig ⟨S_, .i32⟩) (.of main_call94_v12 : StableHlo.TRef sig ⟨S7, .i32⟩) (broadcastInDim S7 ![] bcast_S_S7),
    StableHlo.TRef.binary (.of main_call94_v2 : StableHlo.TRef sig ⟨S7, .i32⟩) (.of main_call94_v12 : StableHlo.TRef sig ⟨S7, .i32⟩) (.of main_call94_v13 : StableHlo.TRef sig ⟨S7, .i32⟩) subi,
    StableHlo.TRef.ternary (.of main_call94_v11 : StableHlo.TRef sig ⟨S7, .i1⟩) (.of main_call94_v13 : StableHlo.TRef sig ⟨S7, .i32⟩) (.of main_call94_v2 : StableHlo.TRef sig ⟨S7, .i32⟩) (.of main_v1265 : StableHlo.TRef sig ⟨S7, .i32⟩) select,
    StableHlo.unary main_v1240 main_v1266 (broadcastInDim S7 ![] bcast_S_S7 : (⟨S_, .i32⟩ : BufTy).Contents (Elt F) → (⟨S7, .i32⟩ : BufTy).Contents (Elt F)),
    StableHlo.binary main_v1266 main_v1265 main_v1267 (addi : (⟨S7, .i32⟩ : BufTy).Contents (Elt F) → (⟨S7, .i32⟩ : BufTy).Contents (Elt F) → (⟨S7, .i32⟩ : BufTy).Contents (Elt F)),
    StableHlo.nullary main_c_160 (constantI S_ 32 1#32),
    StableHlo.unary main_c_160 main_v1268 (broadcastInDim S7 ![] bcast_S_S7 : (⟨S_, .i32⟩ : BufTy).Contents (Elt F) → (⟨S7, .i32⟩ : BufTy).Contents (Elt F)),
    StableHlo.binary main_v1249 main_v1268 main_v1269 (addi : (⟨S7, .i32⟩ : BufTy).Contents (Elt F) → (⟨S7, .i32⟩ : BufTy).Contents (Elt F) → (⟨S7, .i32⟩ : BufTy).Contents (Elt F)),
    StableHlo.unary main_v1269 main_v1270 (negi : (⟨S7, .i32⟩ : BufTy).Contents (Elt F) → (⟨S7, .i32⟩ : BufTy).Contents (Elt F)),
    StableHlo.unary main_v1247 main_v1271 (broadcastInDim S7 ![] bcast_S_S7 : (⟨S_, .i32⟩ : BufTy).Contents (Elt F) → (⟨S7, .i32⟩ : BufTy).Contents (Elt F)),
    StableHlo.binary main_v1270 main_v1271 main_v1272 (muli : (⟨S7, .i32⟩ : BufTy).Contents (Elt F) → (⟨S7, .i32⟩ : BufTy).Contents (Elt F) → (⟨S7, .i32⟩ : BufTy).Contents (Elt F)),
    StableHlo.nullary main_c_161 (constantI S_ 32 7#32) ]
/-- The buffers those operations write, in order. -/
abbrev ops48_W : List (Ref sig .tc) :=
  [main_call93_v0, main_call93_v1, main_call93_v2, main_call93_v3, main_call93_v4, main_call93_v5, main_call93_v6, main_call93_v7, main_call93_v8, main_call93_c, main_call93_v9, main_call93_v10, main_call93_v11, main_call93_c_0, main_call93_v12, main_call93_v13, main_v1260, main_v1261, main_v1262, main_v1263, main_v1264, main_c_159, main_call94_v0, main_call94_v1, main_call94_v2, main_call94_v3, main_call94_v4, main_call94_v5, main_call94_v6, main_call94_v7, main_call94_v8, main_call94_c, main_call94_v9, main_call94_v10, main_call94_v11, main_call94_c_0, main_call94_v12, main_call94_v13, main_v1265, main_v1266, main_v1267, main_c_160, main_v1268, main_v1269, main_v1270, main_v1271, main_v1272, main_c_161]
/-- Each operation writes its own result buffer and nothing else. -/
theorem ops48_writes : (ops48 : List (HloOp τ sig (Elt F))).Forall fun op => op.writes ⊆ (ops48_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2535 to 2593 of the host part, in order. -/
abbrev ops49 : List (HloOp τ sig (Elt F)) :=
  [ StableHlo.TRef.unary (.of main_c_161 : StableHlo.TRef sig ⟨S_, .i32⟩) (.of main_call95_v0 : StableHlo.TRef sig ⟨S_, .i32⟩) id,
    StableHlo.TRef.unary (.of main_call95_v0 : StableHlo.TRef sig ⟨S_, .i32⟩) (.of main_call95_v1 : StableHlo.TRef sig ⟨S7, .i32⟩) (broadcastInDim S7 ![] bcast_S_S7),
    StableHlo.TRef.binary (.of main_v1272 : StableHlo.TRef sig ⟨S7, .i32⟩) (.of main_call95_v1 : StableHlo.TRef sig ⟨S7, .i32⟩) (.of main_call95_v2 : StableHlo.TRef sig ⟨S7, .i32⟩) Host.divsi,
    StableHlo.TRef.unary (.of main_v1272 : StableHlo.TRef sig ⟨S7, .i32⟩) (.of main_call95_v3 : StableHlo.TRef sig ⟨S7, .i32⟩) signi,
    StableHlo.TRef.unary (.of main_call95_v0 : StableHlo.TRef sig ⟨S_, .i32⟩) (.of main_call95_v4 : StableHlo.TRef sig ⟨S_, .i32⟩) signi,
    StableHlo.TRef.unary (.of main_call95_v4 : StableHlo.TRef sig ⟨S_, .i32⟩) (.of main_call95_v5 : StableHlo.TRef sig ⟨S7, .i32⟩) (broadcastInDim S7 ![] bcast_S_S7),
    StableHlo.TRef.binary (.of main_call95_v3 : StableHlo.TRef sig ⟨S7, .i32⟩) (.of main_call95_v5 : StableHlo.TRef sig ⟨S7, .i32⟩) (.of main_call95_v6 : StableHlo.TRef sig ⟨S7, .i1⟩) (cmpi .ne),
    StableHlo.TRef.unary (.of main_call95_v0 : StableHlo.TRef sig ⟨S_, .i32⟩) (.of main_call95_v7 : StableHlo.TRef sig ⟨S7, .i32⟩) (broadcastInDim S7 ![] bcast_S_S7),
    StableHlo.TRef.binary (.of main_v1272 : StableHlo.TRef sig ⟨S7, .i32⟩) (.of main_call95_v7 : StableHlo.TRef sig ⟨S7, .i32⟩) (.of main_call95_v8 : StableHlo.TRef sig ⟨S7, .i32⟩) Host.remsi,
    StableHlo.TRef.nullary (.of main_call95_c : StableHlo.TRef sig ⟨S_, .i32⟩) (constantI S_ 32 0#32),
    StableHlo.TRef.unary (.of main_call95_c : StableHlo.TRef sig ⟨S_, .i32⟩) (.of main_call95_v9 : StableHlo.TRef sig ⟨S7, .i32⟩) (broadcastInDim S7 ![] bcast_S_S7),
    StableHlo.TRef.binary (.of main_call95_v8 : StableHlo.TRef sig ⟨S7, .i32⟩) (.of main_call95_v9 : StableHlo.TRef sig ⟨S7, .i32⟩) (.of main_call95_v10 : StableHlo.TRef sig ⟨S7, .i1⟩) (cmpi .ne),
    StableHlo.TRef.binary (.of main_call95_v6 : StableHlo.TRef sig ⟨S7, .i1⟩) (.of main_call95_v10 : StableHlo.TRef sig ⟨S7, .i1⟩) (.of main_call95_v11 : StableHlo.TRef sig ⟨S7, .i1⟩) andi,
    StableHlo.TRef.nullary (.of main_call95_c_0 : StableHlo.TRef sig ⟨S_, .i32⟩) (constantI S_ 32 1#32),
    StableHlo.TRef.unary (.of main_call95_c_0 : StableHlo.TRef sig ⟨S_, .i32⟩) (.of main_call95_v12 : StableHlo.TRef sig ⟨S7, .i32⟩) (broadcastInDim S7 ![] bcast_S_S7),
    StableHlo.TRef.binary (.of main_call95_v2 : StableHlo.TRef sig ⟨S7, .i32⟩) (.of main_call95_v12 : StableHlo.TRef sig ⟨S7, .i32⟩) (.of main_call95_v13 : StableHlo.TRef sig ⟨S7, .i32⟩) subi,
    StableHlo.TRef.ternary (.of main_call95_v11 : StableHlo.TRef sig ⟨S7, .i1⟩) (.of main_call95_v13 : StableHlo.TRef sig ⟨S7, .i32⟩) (.of main_call95_v2 : StableHlo.TRef sig ⟨S7, .i32⟩) (.of main_v1273 : StableHlo.TRef sig ⟨S7, .i32⟩) select,
    StableHlo.unary main_v1240 main_v1274 (broadcastInDim S7 ![] bcast_S_S7 : (⟨S_, .i32⟩ : BufTy).Contents (Elt F) → (⟨S7, .i32⟩ : BufTy).Contents (Elt F)),
    StableHlo.binary main_v1274 main_v1273 main_v1275 (subi : (⟨S7, .i32⟩ : BufTy).Contents (Elt F) → (⟨S7, .i32⟩ : BufTy).Contents (Elt F) → (⟨S7, .i32⟩ : BufTy).Contents (Elt F)),
    StableHlo.nullary main_v1276 (iotaInDim S64 32 0),
    StableHlo.nullary main_v1277 (iotaInDim S64 32 0),
    StableHlo.unary main_v1276 main_v1278 (broadcastInDim S1x64 ![1] bcast_S64_S1x64_1 : (⟨S64, .i32⟩ : BufTy).Contents (Elt F) → (⟨S1x64, .i32⟩ : BufTy).Contents (Elt F)),
    StableHlo.unary main_v1254 main_v1279 (broadcastInDim S7x1 ![0] bcast_S7_S7x1_0 : (⟨S7, .i32⟩ : BufTy).Contents (Elt F) → (⟨S7x1, .i32⟩ : BufTy).Contents (Elt F)),
    StableHlo.unary main_v1278 main_v1280 (broadcastInDim S7x64 ![0, 1] bcast_S1x64_S7x64_0_1 : (⟨S1x64, .i32⟩ : BufTy).Contents (Elt F) → (⟨S7x64, .i32⟩ : BufTy).Contents (Elt F)),
    StableHlo.unary main_v1279 main_v1281 (broadcastInDim S7x64 ![0, 1] bcast_S7x1_S7x64_0_1 : (⟨S7x1, .i32⟩ : BufTy).Contents (Elt F) → (⟨S7x64, .i32⟩ : BufTy).Contents (Elt F)),
    StableHlo.binary main_v1280 main_v1281 main_v1282 (cmpi .sge : (⟨S7x64, .i32⟩ : BufTy).Contents (Elt F) → (⟨S7x64, .i32⟩ : BufTy).Contents (Elt F) → (⟨S7x64, .i1⟩ : BufTy).Contents (Elt F)),
    StableHlo.unary main_v1276 main_v1283 (broadcastInDim S1x64 ![1] bcast_S64_S1x64_1 : (⟨S64, .i32⟩ : BufTy).Contents (Elt F) → (⟨S1x64, .i32⟩ : BufTy).Contents (Elt F)),
    StableHlo.unary main_v1262 main_v1284 (broadcastInDim S7x1 ![0] bcast_S7_S7x1_0 : (⟨S7, .i32⟩ : BufTy).Contents (Elt F) → (⟨S7x1, .i32⟩ : BufTy).Contents (Elt F)),
    StableHlo.unary main_v1283 main_v1285 (broadcastInDim S7x64 ![0, 1] bcast_S1x64_S7x64_0_1 : (⟨S1x64, .i32⟩ : BufTy).Contents (Elt F) → (⟨S7x64, .i32⟩ : BufTy).Contents (Elt F)),
    StableHlo.unary main_v1284 main_v1286 (broadcastInDim S7x64 ![0, 1] bcast_S7x1_S7x64_0_1 : (⟨S7x1, .i32⟩ : BufTy).Contents (Elt F) → (⟨S7x64, .i32⟩ : BufTy).Contents (Elt F)),
    StableHlo.binary main_v1285 main_v1286 main_v1287 (cmpi .slt : (⟨S7x64, .i32⟩ : BufTy).Contents (Elt F) → (⟨S7x64, .i32⟩ : BufTy).Contents (Elt F) → (⟨S7x64, .i1⟩ : BufTy).Contents (Elt F)),
    StableHlo.binary main_v1282 main_v1287 main_v1288 (andi : (⟨S7x64, .i1⟩ : BufTy).Contents (Elt F) → (⟨S7x64, .i1⟩ : BufTy).Contents (Elt F) → (⟨S7x64, .i1⟩ : BufTy).Contents (Elt F)),
    StableHlo.unary main_v1277 main_v1289 (broadcastInDim S1x64 ![1] bcast_S64_S1x64_1 : (⟨S64, .i32⟩ : BufTy).Contents (Elt F) → (⟨S1x64, .i32⟩ : BufTy).Contents (Elt F)),
    StableHlo.unary main_v1267 main_v1290 (broadcastInDim S7x1 ![0] bcast_S7_S7x1_0 : (⟨S7, .i32⟩ : BufTy).Contents (Elt F) → (⟨S7x1, .i32⟩ : BufTy).Contents (Elt F)),
    StableHlo.unary main_v1289 main_v1291 (broadcastInDim S7x64 ![0, 1] bcast_S1x64_S7x64_0_1 : (⟨S1x64, .i32⟩ : BufTy).Contents (Elt F) → (⟨S7x64, .i32⟩ : BufTy).Contents (Elt F)),
    StableHlo.unary main_v1290 main_v1292 (broadcastInDim S7x64 ![0, 1] bcast_S7x1_S7x64_0_1 : (⟨S7x1, .i32⟩ : BufTy).Contents (Elt F) → (⟨S7x64, .i32⟩ : BufTy).Contents (Elt F)),
    StableHlo.binary main_v1291 main_v1292 main_v1293 (cmpi .sge : (⟨S7x64, .i32⟩ : BufTy).Contents (Elt F) → (⟨S7x64, .i32⟩ : BufTy).Contents (Elt F) → (⟨S7x64, .i1⟩ : BufTy).Contents (Elt F)),
    StableHlo.unary main_v1277 main_v1294 (broadcastInDim S1x64 ![1] bcast_S64_S1x64_1 : (⟨S64, .i32⟩ : BufTy).Contents (Elt F) → (⟨S1x64, .i32⟩ : BufTy).Contents (Elt F)),
    StableHlo.unary main_v1275 main_v1295 (broadcastInDim S7x1 ![0] bcast_S7_S7x1_0 : (⟨S7, .i32⟩ : BufTy).Contents (Elt F) → (⟨S7x1, .i32⟩ : BufTy).Contents (Elt F)),
    StableHlo.unary main_v1294 main_v1296 (broadcastInDim S7x64 ![0, 1] bcast_S1x64_S7x64_0_1 : (⟨S1x64, .i32⟩ : BufTy).Contents (Elt F) → (⟨S7x64, .i32⟩ : BufTy).Contents (Elt F)),
    StableHlo.unary main_v1295 main_v1297 (broadcastInDim S7x64 ![0, 1] bcast_S7x1_S7x64_0_1 : (⟨S7x1, .i32⟩ : BufTy).Contents (Elt F) → (⟨S7x64, .i32⟩ : BufTy).Contents (Elt F)),
    StableHlo.binary main_v1296 main_v1297 main_v1298 (cmpi .slt : (⟨S7x64, .i32⟩ : BufTy).Contents (Elt F) → (⟨S7x64, .i32⟩ : BufTy).Contents (Elt F) → (⟨S7x64, .i1⟩ : BufTy).Contents (Elt F)),
    StableHlo.binary main_v1293 main_v1298 main_v1299 (andi : (⟨S7x64, .i1⟩ : BufTy).Contents (Elt F) → (⟨S7x64, .i1⟩ : BufTy).Contents (Elt F) → (⟨S7x64, .i1⟩ : BufTy).Contents (Elt F)),
    StableHlo.unary main_v1288 main_v1300 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1301 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_162 (constant S_ .f32 0xFF800000#32),
    StableHlo.TRef.unary (.of main_v1300 : StableHlo.TRef sig ⟨S7x1x64x1, .i1⟩) (.of main_call96_v0 : StableHlo.TRef sig ⟨S7x512x64x64, .i1⟩) (broadcastInDim S7x512x64x64 ![0, 1, 2, 3] bcast_S7x1x64x1_S7x512x64x64_0_1_2_3),
    StableHlo.TRef.unary (.of main_v1301 : StableHlo.TRef sig ⟨S1x512x64x64, .f32⟩) (.of main_call96_v1 : StableHlo.TRef sig ⟨S7x512x64x64, .f32⟩) (broadcastInDim S7x512x64x64 ![0, 1, 2, 3] bcast_S1x512x64x64_S7x512x64x64_0_1_2_3),
    StableHlo.TRef.unary (.of main_cst_162 : StableHlo.TRef sig ⟨S_, .f32⟩) (.of main_call96_v2 : StableHlo.TRef sig ⟨S7x512x64x64, .f32⟩) (broadcastInDim S7x512x64x64 ![] bcast_S_S7x512x64x64),
    StableHlo.TRef.ternary (.of main_call96_v0 : StableHlo.TRef sig ⟨S7x512x64x64, .i1⟩) (.of main_call96_v1 : StableHlo.TRef sig ⟨S7x512x64x64, .f32⟩) (.of main_call96_v2 : StableHlo.TRef sig ⟨S7x512x64x64, .f32⟩) (.of main_v1302 : StableHlo.TRef sig ⟨S7x512x64x64, .f32⟩) select,
    StableHlo.nullary main_cst_163 (constant S_ .f32 0xFF800000#32),
    StableHlo.binary main_v1302 main_cst_163 main_v1303 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1299 main_v1304 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1303 main_v1305 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_164 (constant S_ .f32 0xFF800000#32),
    StableHlo.TRef.unary (.of main_v1304 : StableHlo.TRef sig ⟨S1x1x7x64, .i1⟩) (.of main_call97_v0 : StableHlo.TRef sig ⟨S7x512x7x64, .i1⟩) (broadcastInDim S7x512x7x64 ![0, 1, 2, 3] bcast_S1x1x7x64_S7x512x7x64_0_1_2_3),
    StableHlo.TRef.unary (.of main_v1305 : StableHlo.TRef sig ⟨S7x512x1x64, .f32⟩) (.of main_call97_v1 : StableHlo.TRef sig ⟨S7x512x7x64, .f32⟩) (broadcastInDim S7x512x7x64 ![0, 1, 2, 3] bcast_S7x512x1x64_S7x512x7x64_0_1_2_3),
    StableHlo.TRef.unary (.of main_cst_164 : StableHlo.TRef sig ⟨S_, .f32⟩) (.of main_call97_v2 : StableHlo.TRef sig ⟨S7x512x7x64, .f32⟩) (broadcastInDim S7x512x7x64 ![] bcast_S_S7x512x7x64),
    StableHlo.TRef.ternary (.of main_call97_v0 : StableHlo.TRef sig ⟨S7x512x7x64, .i1⟩) (.of main_call97_v1 : StableHlo.TRef sig ⟨S7x512x7x64, .f32⟩) (.of main_call97_v2 : StableHlo.TRef sig ⟨S7x512x7x64, .f32⟩) (.of main_v1306 : StableHlo.TRef sig ⟨S7x512x7x64, .f32⟩) select ]
/-- The buffers those operations write, in order. -/
abbrev ops49_W : List (Ref sig .tc) :=
  [main_call95_v0, main_call95_v1, main_call95_v2, main_call95_v3, main_call95_v4, main_call95_v5, main_call95_v6, main_call95_v7, main_call95_v8, main_call95_c, main_call95_v9, main_call95_v10, main_call95_v11, main_call95_c_0, main_call95_v12, main_call95_v13, main_v1273, main_v1274, main_v1275, main_v1276, main_v1277, main_v1278, main_v1279, main_v1280, main_v1281, main_v1282, main_v1283, main_v1284, main_v1285, main_v1286, main_v1287, main_v1288, main_v1289, main_v1290, main_v1291, main_v1292, main_v1293, main_v1294, main_v1295, main_v1296, main_v1297, main_v1298, main_v1299, main_v1300, main_v1301, main_cst_162, main_call96_v0, main_call96_v1, main_call96_v2, main_v1302, main_cst_163, main_v1303, main_v1304, main_v1305, main_cst_164, main_call97_v0, main_call97_v1, main_call97_v2, main_v1306]
/-- Each operation writes its own result buffer and nothing else. -/
theorem ops49_writes : (ops49 : List (HloOp τ sig (Elt F))).Forall fun op => op.writes ⊆ (ops49_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2594 to 2597 of the host part, in order. -/
abbrev ops50 : List (HloOp τ sig (Elt F)) :=
  [ StableHlo.nullary main_cst_165 (constant S_ .f32 0xFF800000#32),
    StableHlo.binary main_v1306 main_cst_165 main_v1307 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1307 main_v1308 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1308 main_v1309 rfl shapeCasts_S512x7x7_S25088 ]
/-- The buffers those operations write, in order. -/
abbrev ops50_W : List (Ref sig .tc) :=
  [main_cst_165, main_v1307, main_v1308, main_v1309]
/-- Each operation writes its own result buffer and nothing else. -/
theorem ops50_writes : (ops50 : List (HloOp τ sig (Elt F))).Forall fun op => op.writes ⊆ (ops50_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_⟩ <;> exact Cert.Agree.wrote (by decide)
/-- Operations 2598 to 2598 of the host part, in order. -/
abbrev ops51 : List (HloOp τ sig (Elt F)) :=
  [ StableHlo.nary ![main_v157, main_v385, main_v469, main_v553, main_v637, main_v85] main_v1310 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0) ]
/-- The buffers those operations write, in order. -/
abbrev ops51_W : List (Ref sig .tc) :=
  [main_v1310]
/-- Each operation writes its own result buffer and nothing else. -/
theorem ops51_writes : (ops51 : List (HloOp τ sig (Elt F))).Forall fun op => op.writes ⊆ (ops51_W.map (Proc.devRef (τ := τ) .tc)).toFinset := by
  simp only [List.Forall, StableHlo.nullary_writes, StableHlo.unary_writes, StableHlo.binary_writes, StableHlo.ternary_writes, StableHlo.reshape_writes, StableHlo.nary_writes]
  exact Cert.Agree.wrote (by decide)
/-- Operations 2599 to 2599 of the host part, in order. -/
abbrev ops52 : List (HloOp τ sig (Elt F)) :=
  [ StableHlo.nary ![main_v229, main_v721, main_v805, main_v889, main_v973, main_v85] main_v1311 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0) ]
/-- The buffers those operations write, in order. -/
abbrev ops52_W : List (Ref sig .tc) :=
  [main_v1311]
/-- Each operation writes its own result buffer and nothing else. -/
theorem ops52_writes : (ops52 : List (HloOp τ sig (Elt F))).Forall fun op => op.writes ⊆ (ops52_W.map (Proc.devRef (τ := τ) .tc)).toFinset := by
  simp only [List.Forall, StableHlo.nullary_writes, StableHlo.unary_writes, StableHlo.binary_writes, StableHlo.ternary_writes, StableHlo.reshape_writes, StableHlo.nary_writes]
  exact Cert.Agree.wrote (by decide)
/-- Operations 2600 to 2603 of the host part, in order. -/
abbrev ops53 : List (HloOp τ sig (Elt F)) :=
  [ StableHlo.nary ![main_v301, main_v1057, main_v1141, main_v1225, main_v1309, main_v85] main_v1312 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0),
    StableHlo.unary main_v1310 main_v1313 (broadcastInDim S1x150528 ![1] bcast_S150528_S1x150528_1 : (⟨S150528, .f32⟩ : BufTy).Contents (Elt F) → (⟨S1x150528, .f32⟩ : BufTy).Contents (Elt F)),
    StableHlo.unary main_v1311 main_v1314 (broadcastInDim S1x150528 ![1] bcast_S150528_S1x150528_1 : (⟨S150528, .f32⟩ : BufTy).Contents (Elt F) → (⟨S1x150528, .f32⟩ : BufTy).Contents (Elt F)),
    StableHlo.unary main_v1312 main_v1315 (broadcastInDim S1x150528 ![1] bcast_S150528_S1x150528_1 : (⟨S150528, .f32⟩ : BufTy).Contents (Elt F) → (⟨S1x150528, .f32⟩ : BufTy).Contents (Elt F)) ]
/-- The buffers those operations write, in order. -/
abbrev ops53_W : List (Ref sig .tc) :=
  [main_v1312, main_v1313, main_v1314, main_v1315]
/-- Each operation writes its own result buffer and nothing else. -/
theorem ops53_writes : (ops53 : List (HloOp τ sig (Elt F))).Forall fun op => op.writes ⊆ (ops53_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_⟩ <;> exact Cert.Agree.wrote (by decide)
/-- Operations 2604 to 2604 of the host part, in order. -/
abbrev ops54 : List (HloOp τ sig (Elt F)) :=
  [ StableHlo.nary ![main_v1313, main_v1314, main_v1315] main_v1316 (fun u => concatenate S3x150528 0 [⟨S1x150528, u 0⟩, ⟨S1x150528, u 1⟩, ⟨S1x150528, u 2⟩] concatenates_S1x150528_S1x150528_S1x150528_S3x150528_d0) ]
/-- The buffers those operations write, in order. -/
abbrev ops54_W : List (Ref sig .tc) :=
  [main_v1316]
/-- Each operation writes its own result buffer and nothing else. -/
theorem ops54_writes : (ops54 : List (HloOp τ sig (Elt F))).Forall fun op => op.writes ⊆ (ops54_W.map (Proc.devRef (τ := τ) .tc)).toFinset := by
  simp only [List.Forall, StableHlo.nullary_writes, StableHlo.unary_writes, StableHlo.binary_writes, StableHlo.ternary_writes, StableHlo.reshape_writes, StableHlo.nary_writes]
  exact Cert.Agree.wrote (by decide)
/-- This part's runs, one after the other. -/
abbrev part7 : List (HloOp τ sig (Elt F)) :=
  ops44 ++ ops45 ++ ops46 ++ ops47 ++ ops48 ++ ops49 ++ ops50 ++ ops51 ++ ops52 ++ ops53 ++ ops54
/-- The generated stretches 172 to 196, in order, are this part: the same operations, cut elsewhere. -/
theorem part7_is : ([hostOps0_172, hostOps0_173, hostOps0_174, hostOps0_175, hostOps0_176, hostOps0_177, hostOps0_178, hostOps0_179, hostOps0_180, hostOps0_181, hostOps0_182, hostOps0_183, hostOps0_184, hostOps0_185, hostOps0_186, hostOps0_187, hostOps0_188, hostOps0_189, hostOps0_190, hostOps0_191, hostOps0_192, hostOps0_193, hostOps0_194, hostOps0_195, hostOps0_196] : List (List (HloOp τ sig (Elt F)))).flatten = part7 := rfl
end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]
/-- Operations 2266 to 2322 of the host part, in order. -/
abbrev ops44 : List (HloOp τ sig (Elt F)) :=
  [ StableHlo.nullary main_cst_145 (constant S_ .f32 0xFF800000#32),
    StableHlo.binary main_v1138 main_cst_145 main_v1139 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1139 main_v1140 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1140 main_v1141 rfl shapeCasts_S512x7x7_S25088,
    StableHlo.unary main_v18 main_v1142 ((extractStridedSlice S1x1 ![2, 1] · slices_S3x4_S1x1_2_1) : (⟨S3x4, .i32⟩ : BufTy).Contents (Elt F) → (⟨S1x1, .i32⟩ : BufTy).Contents (Elt F)),
    StableHlo.reshape main_v1142 main_v1143 rfl shapeCasts_S1x1_S_,
    StableHlo.unary main_v23 main_v1144 ((extractStridedSlice S1x1 ![2, 1] · slices_S4x4_S1x1_2_1) : (⟨S4x4, .i32⟩ : BufTy).Contents (Elt F) → (⟨S1x1, .i32⟩ : BufTy).Contents (Elt F)),
    StableHlo.reshape main_v1144 main_v1145 rfl shapeCasts_S1x1_S_,
    StableHlo.binary main_v1143 main_v1145 main_v1146 (minsi : (⟨S_, .i32⟩ : BufTy).Contents (Elt F) → (⟨S_, .i32⟩ : BufTy).Contents (Elt F) → (⟨S_, .i32⟩ : BufTy).Contents (Elt F)),
    StableHlo.unary main_v18 main_v1147 ((extractStridedSlice S1x1 ![2, 3] · slices_S3x4_S1x1_2_3) : (⟨S3x4, .i32⟩ : BufTy).Contents (Elt F) → (⟨S1x1, .i32⟩ : BufTy).Contents (Elt F)),
    StableHlo.reshape main_v1147 main_v1148 rfl shapeCasts_S1x1_S_,
    StableHlo.unary main_v23 main_v1149 ((extractStridedSlice S1x1 ![2, 3] · slices_S4x4_S1x1_2_3) : (⟨S4x4, .i32⟩ : BufTy).Contents (Elt F) → (⟨S1x1, .i32⟩ : BufTy).Contents (Elt F)),
    StableHlo.reshape main_v1149 main_v1150 rfl shapeCasts_S1x1_S_,
    StableHlo.binary main_v1148 main_v1150 main_v1151 (maxsi : (⟨S_, .i32⟩ : BufTy).Contents (Elt F) → (⟨S_, .i32⟩ : BufTy).Contents (Elt F) → (⟨S_, .i32⟩ : BufTy).Contents (Elt F)),
    StableHlo.unary main_v18 main_v1152 ((extractStridedSlice S1x1 ![2, 0] · slices_S3x4_S1x1_2_0) : (⟨S3x4, .i32⟩ : BufTy).Contents (Elt F) → (⟨S1x1, .i32⟩ : BufTy).Contents (Elt F)),
    StableHlo.reshape main_v1152 main_v1153 rfl shapeCasts_S1x1_S_,
    StableHlo.unary main_v23 main_v1154 ((extractStridedSlice S1x1 ![2, 0] · slices_S4x4_S1x1_2_0) : (⟨S4x4, .i32⟩ : BufTy).Contents (Elt F) → (⟨S1x1, .i32⟩ : BufTy).Contents (Elt F)),
    StableHlo.reshape main_v1154 main_v1155 rfl shapeCasts_S1x1_S_,
    StableHlo.binary main_v1153 main_v1155 main_v1156 (minsi : (⟨S_, .i32⟩ : BufTy).Contents (Elt F) → (⟨S_, .i32⟩ : BufTy).Contents (Elt F) → (⟨S_, .i32⟩ : BufTy).Contents (Elt F)),
    StableHlo.unary main_v18 main_v1157 ((extractStridedSlice S1x1 ![2, 2] · slices_S3x4_S1x1_2_2) : (⟨S3x4, .i32⟩ : BufTy).Contents (Elt F) → (⟨S1x1, .i32⟩ : BufTy).Contents (Elt F)),
    StableHlo.reshape main_v1157 main_v1158 rfl shapeCasts_S1x1_S_,
    StableHlo.unary main_v23 main_v1159 ((extractStridedSlice S1x1 ![2, 2] · slices_S4x4_S1x1_2_2) : (⟨S4x4, .i32⟩ : BufTy).Contents (Elt F) → (⟨S1x1, .i32⟩ : BufTy).Contents (Elt F)),
    StableHlo.reshape main_v1159 main_v1160 rfl shapeCasts_S1x1_S_,
    StableHlo.binary main_v1158 main_v1160 main_v1161 (maxsi : (⟨S_, .i32⟩ : BufTy).Contents (Elt F) → (⟨S_, .i32⟩ : BufTy).Contents (Elt F) → (⟨S_, .i32⟩ : BufTy).Contents (Elt F)),
    StableHlo.binary main_v1151 main_v1146 main_v1162 (subi : (⟨S_, .i32⟩ : BufTy).Contents (Elt F) → (⟨S_, .i32⟩ : BufTy).Contents (Elt F) → (⟨S_, .i32⟩ : BufTy).Contents (Elt F)),
    StableHlo.binary main_v1161 main_v1156 main_v1163 (subi : (⟨S_, .i32⟩ : BufTy).Contents (Elt F) → (⟨S_, .i32⟩ : BufTy).Contents (Elt F) → (⟨S_, .i32⟩ : BufTy).Contents (Elt F)),
    StableHlo.nullary main_v1164 (iotaInDim S7 32 0),
    StableHlo.nullary main_v1165 (iotaInDim S7 32 0),
    StableHlo.unary main_v1162 main_v1166 (broadcastInDim S7 ![] bcast_S_S7 : (⟨S_, .i32⟩ : BufTy).Contents (Elt F) → (⟨S7, .i32⟩ : BufTy).Contents (Elt F)),
    StableHlo.binary main_v1164 main_v1166 main_v1167 (muli : (⟨S7, .i32⟩ : BufTy).Contents (Elt F) → (⟨S7, .i32⟩ : BufTy).Contents (Elt F) → (⟨S7, .i32⟩ : BufTy).Contents (Elt F)),
    StableHlo.nullary main_c_146 (constantI S_ 32 7#32),
    StableHlo.TRef.unary (.of main_c_146 : StableHlo.TRef sig ⟨S_, .i32⟩) (.of main_call86_v0 : StableHlo.TRef sig ⟨S_, .i32⟩) id,
    StableHlo.TRef.unary (.of main_call86_v0 : StableHlo.TRef sig ⟨S_, .i32⟩) (.of main_call86_v1 : StableHlo.TRef sig ⟨S7, .i32⟩) (broadcastInDim S7 ![] bcast_S_S7),
    StableHlo.TRef.binary (.of main_v1167 : StableHlo.TRef sig ⟨S7, .i32⟩) (.of main_call86_v1 : StableHlo.TRef sig ⟨S7, .i32⟩) (.of main_call86_v2 : StableHlo.TRef sig ⟨S7, .i32⟩) Host.divsi,
    StableHlo.TRef.unary (.of main_v1167 : StableHlo.TRef sig ⟨S7, .i32⟩) (.of main_call86_v3 : StableHlo.TRef sig ⟨S7, .i32⟩) signi,
    StableHlo.TRef.unary (.of main_call86_v0 : StableHlo.TRef sig ⟨S_, .i32⟩) (.of main_call86_v4 : StableHlo.TRef sig ⟨S_, .i32⟩) signi,
    StableHlo.TRef.unary (.of main_call86_v4 : StableHlo.TRef sig ⟨S_, .i32⟩) (.of main_call86_v5 : StableHlo.TRef sig ⟨S7, .i32⟩) (broadcastInDim S7 ![] bcast_S_S7),
    StableHlo.TRef.binary (.of main_call86_v3 : StableHlo.TRef sig ⟨S7, .i32⟩) (.of main_call86_v5 : StableHlo.TRef sig ⟨S7, .i32⟩) (.of main_call86_v6 : StableHlo.TRef sig ⟨S7, .i1⟩) (cmpi .ne),
    StableHlo.TRef.unary (.of main_call86_v0 : StableHlo.TRef sig ⟨S_, .i32⟩) (.of main_call86_v7 : StableHlo.TRef sig ⟨S7, .i32⟩) (broadcastInDim S7 ![] bcast_S_S7),
    StableHlo.TRef.binary (.of main_v1167 : StableHlo.TRef sig ⟨S7, .i32⟩) (.of main_call86_v7 : StableHlo.TRef sig ⟨S7, .i32⟩) (.of main_call86_v8 : StableHlo.TRef sig ⟨S7, .i32⟩) Host.remsi,
    StableHlo.TRef.nullary (.of main_call86_c : StableHlo.TRef sig ⟨S_, .i32⟩) (constantI S_ 32 0#32),
    StableHlo.TRef.unary (.of main_call86_c : StableHlo.TRef sig ⟨S_, .i32⟩) (.of main_call86_v9 : StableHlo.TRef sig ⟨S7, .i32⟩) (broadcastInDim S7 ![] bcast_S_S7),
    StableHlo.TRef.binary (.of main_call86_v8 : StableHlo.TRef sig ⟨S7, .i32⟩) (.of main_call86_v9 : StableHlo.TRef sig ⟨S7, .i32⟩) (.of main_call86_v10 : StableHlo.TRef sig ⟨S7, .i1⟩) (cmpi .ne),
    StableHlo.TRef.binary (.of main_call86_v6 : StableHlo.TRef sig ⟨S7, .i1⟩) (.of main_call86_v10 : StableHlo.TRef sig ⟨S7, .i1⟩) (.of main_call86_v11 : StableHlo.TRef sig ⟨S7, .i1⟩) andi,
    StableHlo.TRef.nullary (.of main_call86_c_0 : StableHlo.TRef sig ⟨S_, .i32⟩) (constantI S_ 32 1#32),
    StableHlo.TRef.unary (.of main_call86_c_0 : StableHlo.TRef sig ⟨S_, .i32⟩) (.of main_call86_v12 : StableHlo.TRef sig ⟨S7, .i32⟩) (broadcastInDim S7 ![] bcast_S_S7),
    StableHlo.TRef.binary (.of main_call86_v2 : StableHlo.TRef sig ⟨S7, .i32⟩) (.of main_call86_v12 : StableHlo.TRef sig ⟨S7, .i32⟩) (.of main_call86_v13 : StableHlo.TRef sig ⟨S7, .i32⟩) subi,
    StableHlo.TRef.ternary (.of main_call86_v11 : StableHlo.TRef sig ⟨S7, .i1⟩) (.of main_call86_v13 : StableHlo.TRef sig ⟨S7, .i32⟩) (.of main_call86_v2 : StableHlo.TRef sig ⟨S7, .i32⟩) (.of main_v1168 : StableHlo.TRef sig ⟨S7, .i32⟩) select,
    StableHlo.unary main_v1146 main_v1169 (broadcastInDim S7 ![] bcast_S_S7 : (⟨S_, .i32⟩ : BufTy).Contents (Elt F) → (⟨S7, .i32⟩ : BufTy).Contents (Elt F)),
    StableHlo.binary main_v1169 main_v1168 main_v1170 (addi : (⟨S7, .i32⟩ : BufTy).Contents (Elt F) → (⟨S7, .i32⟩ : BufTy).Contents (Elt F) → (⟨S7, .i32⟩ : BufTy).Contents (Elt F)),
    StableHlo.nullary main_c_147 (constantI S_ 32 1#32),
    StableHlo.unary main_c_147 main_v1171 (broadcastInDim S7 ![] bcast_S_S7 : (⟨S_, .i32⟩ : BufTy).Contents (Elt F) → (⟨S7, .i32⟩ : BufTy).Contents (Elt F)),
    StableHlo.binary main_v1164 main_v1171 main_v1172 (addi : (⟨S7, .i32⟩ : BufTy).Contents (Elt F) → (⟨S7, .i32⟩ : BufTy).Contents (Elt F) → (⟨S7, .i32⟩ : BufTy).Contents (Elt F)),
    StableHlo.unary main_v1172 main_v1173 (negi : (⟨S7, .i32⟩ : BufTy).Contents (Elt F) → (⟨S7, .i32⟩ : BufTy).Contents (Elt F)),
    StableHlo.unary main_v1162 main_v1174 (broadcastInDim S7 ![] bcast_S_S7 : (⟨S_, .i32⟩ : BufTy).Contents (Elt F) → (⟨S7, .i32⟩ : BufTy).Contents (Elt F)),
    StableHlo.binary main_v1173 main_v1174 main_v1175 (muli : (⟨S7, .i32⟩ : BufTy).Contents (Elt F) → (⟨S7, .i32⟩ : BufTy).Contents (Elt F) → (⟨S7, .i32⟩ : BufTy).Contents (Elt F)),
    StableHlo.nullary main_c_148 (constantI S_ 32 7#32) ]
/-- The buffers those operations write, in order. -/
abbrev ops44_W : List (Ref sig .tc) :=
  [main_cst_145, main_v1139, main_v1140, main_v1141, main_v1142, main_v1143, main_v1144, main_v1145, main_v1146, main_v1147, main_v1148, main_v1149, main_v1150, main_v1151, main_v1152, main_v1153, main_v1154, main_v1155, main_v1156, main_v1157, main_v1158, main_v1159, main_v1160, main_v1161, main_v1162, main_v1163, main_v1164, main_v1165, main_v1166, main_v1167, main_c_146, main_call86_v0, main_call86_v1, main_call86_v2, main_call86_v3, main_call86_v4, main_call86_v5, main_call86_v6, main_call86_v7, main_call86_v8, main_call86_c, main_call86_v9, main_call86_v10, main_call86_v11, main_call86_c_0, main_call86_v12, main_call86_v13, main_v1168, main_v1169, main_v1170, main_c_147, main_v1171, main_v1172, main_v1173, main_v1174, main_v1175, main_c_148]
/-- Each operation writes its own result buffer and nothing else. -/
theorem ops44_writes : (ops44 : List (HloOp τ sig (Elt F))).Forall fun op => op.writes ⊆ (ops44_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2323 to 2370 of the host part, in order. -/
abbrev ops45 : List (HloOp τ sig (Elt F)) :=
  [ StableHlo.TRef.unary (.of main_c_148 : StableHlo.TRef sig ⟨S_, .i32⟩) (.of main_call87_v0 : StableHlo.TRef sig ⟨S_, .i32⟩) id,
    StableHlo.TRef.unary (.of main_call87_v0 : StableHlo.TRef sig ⟨S_, .i32⟩) (.of main_call87_v1 : StableHlo.TRef sig ⟨S7, .i32⟩) (broadcastInDim S7 ![] bcast_S_S7),
    StableHlo.TRef.binary (.of main_v1175 : StableHlo.TRef sig ⟨S7, .i32⟩) (.of main_call87_v1 : StableHlo.TRef sig ⟨S7, .i32⟩) (.of main_call87_v2 : StableHlo.TRef sig ⟨S7, .i32⟩) Host.divsi,
    StableHlo.TRef.unary (.of main_v1175 : StableHlo.TRef sig ⟨S7, .i32⟩) (.of main_call87_v3 : StableHlo.TRef sig ⟨S7, .i32⟩) signi,
    StableHlo.TRef.unary (.of main_call87_v0 : StableHlo.TRef sig ⟨S_, .i32⟩) (.of main_call87_v4 : StableHlo.TRef sig ⟨S_, .i32⟩) signi,
    StableHlo.TRef.unary (.of main_call87_v4 : StableHlo.TRef sig ⟨S_, .i32⟩) (.of main_call87_v5 : StableHlo.TRef sig ⟨S7, .i32⟩) (broadcastInDim S7 ![] bcast_S_S7),
    StableHlo.TRef.binary (.of main_call87_v3 : StableHlo.TRef sig ⟨S7, .i32⟩) (.of main_call87_v5 : StableHlo.TRef sig ⟨S7, .i32⟩) (.of main_call87_v6 : StableHlo.TRef sig ⟨S7, .i1⟩) (cmpi .ne),
    StableHlo.TRef.unary (.of main_call87_v0 : StableHlo.TRef sig ⟨S_, .i32⟩) (.of main_call87_v7 : StableHlo.TRef sig ⟨S7, .i32⟩) (broadcastInDim S7 ![] bcast_S_S7),
    StableHlo.TRef.binary (.of main_v1175 : StableHlo.TRef sig ⟨S7, .i32⟩) (.of main_call87_v7 : StableHlo.TRef sig ⟨S7, .i32⟩) (.of main_call87_v8 : StableHlo.TRef sig ⟨S7, .i32⟩) Host.remsi,
    StableHlo.TRef.nullary (.of main_call87_c : StableHlo.TRef sig ⟨S_, .i32⟩) (constantI S_ 32 0#32),
    StableHlo.TRef.unary (.of main_call87_c : StableHlo.TRef sig ⟨S_, .i32⟩) (.of main_call87_v9 : StableHlo.TRef sig ⟨S7, .i32⟩) (broadcastInDim S7 ![] bcast_S_S7),
    StableHlo.TRef.binary (.of main_call87_v8 : StableHlo.TRef sig ⟨S7, .i32⟩) (.of main_call87_v9 : StableHlo.TRef sig ⟨S7, .i32⟩) (.of main_call87_v10 : StableHlo.TRef sig ⟨S7, .i1⟩) (cmpi .ne),
    StableHlo.TRef.binary (.of main_call87_v6 : StableHlo.TRef sig ⟨S7, .i1⟩) (.of main_call87_v10 : StableHlo.TRef sig ⟨S7, .i1⟩) (.of main_call87_v11 : StableHlo.TRef sig ⟨S7, .i1⟩) andi,
    StableHlo.TRef.nullary (.of main_call87_c_0 : StableHlo.TRef sig ⟨S_, .i32⟩) (constantI S_ 32 1#32),
    StableHlo.TRef.unary (.of main_call87_c_0 : StableHlo.TRef sig ⟨S_, .i32⟩) (.of main_call87_v12 : StableHlo.TRef sig ⟨S7, .i32⟩) (broadcastInDim S7 ![] bcast_S_S7),
    StableHlo.TRef.binary (.of main_call87_v2 : StableHlo.TRef sig ⟨S7, .i32⟩) (.of main_call87_v12 : StableHlo.TRef sig ⟨S7, .i32⟩) (.of main_call87_v13 : StableHlo.TRef sig ⟨S7, .i32⟩) subi,
    StableHlo.TRef.ternary (.of main_call87_v11 : StableHlo.TRef sig ⟨S7, .i1⟩) (.of main_call87_v13 : StableHlo.TRef sig ⟨S7, .i32⟩) (.of main_call87_v2 : StableHlo.TRef sig ⟨S7, .i32⟩) (.of main_v1176 : StableHlo.TRef sig ⟨S7, .i32⟩) select,
    StableHlo.unary main_v1146 main_v1177 (broadcastInDim S7 ![] bcast_S_S7 : (⟨S_, .i32⟩ : BufTy).Contents (Elt F) → (⟨S7, .i32⟩ : BufTy).Contents (Elt F)),
    StableHlo.binary main_v1177 main_v1176 main_v1178 (subi : (⟨S7, .i32⟩ : BufTy).Contents (Elt F) → (⟨S7, .i32⟩ : BufTy).Contents (Elt F) → (⟨S7, .i32⟩ : BufTy).Contents (Elt F)),
    StableHlo.unary main_v1163 main_v1179 (broadcastInDim S7 ![] bcast_S_S7 : (⟨S_, .i32⟩ : BufTy).Contents (Elt F) → (⟨S7, .i32⟩ : BufTy).Contents (Elt F)),
    StableHlo.binary main_v1165 main_v1179 main_v1180 (muli : (⟨S7, .i32⟩ : BufTy).Contents (Elt F) → (⟨S7, .i32⟩ : BufTy).Contents (Elt F) → (⟨S7, .i32⟩ : BufTy).Contents (Elt F)),
    StableHlo.nullary main_c_149 (constantI S_ 32 7#32),
    StableHlo.TRef.unary (.of main_c_149 : StableHlo.TRef sig ⟨S_, .i32⟩) (.of main_call88_v0 : StableHlo.TRef sig ⟨S_, .i32⟩) id,
    StableHlo.TRef.unary (.of main_call88_v0 : StableHlo.TRef sig ⟨S_, .i32⟩) (.of main_call88_v1 : StableHlo.TRef sig ⟨S7, .i32⟩) (broadcastInDim S7 ![] bcast_S_S7),
    StableHlo.TRef.binary (.of main_v1180 : StableHlo.TRef sig ⟨S7, .i32⟩) (.of main_call88_v1 : StableHlo.TRef sig ⟨S7, .i32⟩) (.of main_call88_v2 : StableHlo.TRef sig ⟨S7, .i32⟩) Host.divsi,
    StableHlo.TRef.unary (.of main_v1180 : StableHlo.TRef sig ⟨S7, .i32⟩) (.of main_call88_v3 : StableHlo.TRef sig ⟨S7, .i32⟩) signi,
    StableHlo.TRef.unary (.of main_call88_v0 : StableHlo.TRef sig ⟨S_, .i32⟩) (.of main_call88_v4 : StableHlo.TRef sig ⟨S_, .i32⟩) signi,
    StableHlo.TRef.unary (.of main_call88_v4 : StableHlo.TRef sig ⟨S_, .i32⟩) (.of main_call88_v5 : StableHlo.TRef sig ⟨S7, .i32⟩) (broadcastInDim S7 ![] bcast_S_S7),
    StableHlo.TRef.binary (.of main_call88_v3 : StableHlo.TRef sig ⟨S7, .i32⟩) (.of main_call88_v5 : StableHlo.TRef sig ⟨S7, .i32⟩) (.of main_call88_v6 : StableHlo.TRef sig ⟨S7, .i1⟩) (cmpi .ne),
    StableHlo.TRef.unary (.of main_call88_v0 : StableHlo.TRef sig ⟨S_, .i32⟩) (.of main_call88_v7 : StableHlo.TRef sig ⟨S7, .i32⟩) (broadcastInDim S7 ![] bcast_S_S7),
    StableHlo.TRef.binary (.of main_v1180 : StableHlo.TRef sig ⟨S7, .i32⟩) (.of main_call88_v7 : StableHlo.TRef sig ⟨S7, .i32⟩) (.of main_call88_v8 : StableHlo.TRef sig ⟨S7, .i32⟩) Host.remsi,
    StableHlo.TRef.nullary (.of main_call88_c : StableHlo.TRef sig ⟨S_, .i32⟩) (constantI S_ 32 0#32),
    StableHlo.TRef.unary (.of main_call88_c : StableHlo.TRef sig ⟨S_, .i32⟩) (.of main_call88_v9 : StableHlo.TRef sig ⟨S7, .i32⟩) (broadcastInDim S7 ![] bcast_S_S7),
    StableHlo.TRef.binary (.of main_call88_v8 : StableHlo.TRef sig ⟨S7, .i32⟩) (.of main_call88_v9 : StableHlo.TRef sig ⟨S7, .i32⟩) (.of main_call88_v10 : StableHlo.TRef sig ⟨S7, .i1⟩) (cmpi .ne),
    StableHlo.TRef.binary (.of main_call88_v6 : StableHlo.TRef sig ⟨S7, .i1⟩) (.of main_call88_v10 : StableHlo.TRef sig ⟨S7, .i1⟩) (.of main_call88_v11 : StableHlo.TRef sig ⟨S7, .i1⟩) andi,
    StableHlo.TRef.nullary (.of main_call88_c_0 : StableHlo.TRef sig ⟨S_, .i32⟩) (constantI S_ 32 1#32),
    StableHlo.TRef.unary (.of main_call88_c_0 : StableHlo.TRef sig ⟨S_, .i32⟩) (.of main_call88_v12 : StableHlo.TRef sig ⟨S7, .i32⟩) (broadcastInDim S7 ![] bcast_S_S7),
    StableHlo.TRef.binary (.of main_call88_v2 : StableHlo.TRef sig ⟨S7, .i32⟩) (.of main_call88_v12 : StableHlo.TRef sig ⟨S7, .i32⟩) (.of main_call88_v13 : StableHlo.TRef sig ⟨S7, .i32⟩) subi,
    StableHlo.TRef.ternary (.of main_call88_v11 : StableHlo.TRef sig ⟨S7, .i1⟩) (.of main_call88_v13 : StableHlo.TRef sig ⟨S7, .i32⟩) (.of main_call88_v2 : StableHlo.TRef sig ⟨S7, .i32⟩) (.of main_v1181 : StableHlo.TRef sig ⟨S7, .i32⟩) select,
    StableHlo.unary main_v1156 main_v1182 (broadcastInDim S7 ![] bcast_S_S7 : (⟨S_, .i32⟩ : BufTy).Contents (Elt F) → (⟨S7, .i32⟩ : BufTy).Contents (Elt F)),
    StableHlo.binary main_v1182 main_v1181 main_v1183 (addi : (⟨S7, .i32⟩ : BufTy).Contents (Elt F) → (⟨S7, .i32⟩ : BufTy).Contents (Elt F) → (⟨S7, .i32⟩ : BufTy).Contents (Elt F)),
    StableHlo.nullary main_c_150 (constantI S_ 32 1#32),
    StableHlo.unary main_c_150 main_v1184 (broadcastInDim S7 ![] bcast_S_S7 : (⟨S_, .i32⟩ : BufTy).Contents (Elt F) → (⟨S7, .i32⟩ : BufTy).Contents (Elt F)),
    StableHlo.binary main_v1165 main_v1184 main_v1185 (addi : (⟨S7, .i32⟩ : BufTy).Contents (Elt F) → (⟨S7, .i32⟩ : BufTy).Contents (Elt F) → (⟨S7, .i32⟩ : BufTy).Contents (Elt F)),
    StableHlo.unary main_v1185 main_v1186 (negi : (⟨S7, .i32⟩ : BufTy).Contents (Elt F) → (⟨S7, .i32⟩ : BufTy).Contents (Elt F)),
    StableHlo.unary main_v1163 main_v1187 (broadcastInDim S7 ![] bcast_S_S7 : (⟨S_, .i32⟩ : BufTy).Contents (Elt F) → (⟨S7, .i32⟩ : BufTy).Contents (Elt F)),
    StableHlo.binary main_v1186 main_v1187 main_v1188 (muli : (⟨S7, .i32⟩ : BufTy).Contents (Elt F) → (⟨S7, .i32⟩ : BufTy).Contents (Elt F) → (⟨S7, .i32⟩ : BufTy).Contents (Elt F)),
    StableHlo.nullary main_c_151 (constantI S_ 32 7#32) ]
/-- The buffers those operations write, in order. -/
abbrev ops45_W : List (Ref sig .tc) :=
  [main_call87_v0, main_call87_v1, main_call87_v2, main_call87_v3, main_call87_v4, main_call87_v5, main_call87_v6, main_call87_v7, main_call87_v8, main_call87_c, main_call87_v9, main_call87_v10, main_call87_v11, main_call87_c_0, main_call87_v12, main_call87_v13, main_v1176, main_v1177, main_v1178, main_v1179, main_v1180, main_c_149, main_call88_v0, main_call88_v1, main_call88_v2, main_call88_v3, main_call88_v4, main_call88_v5, main_call88_v6, main_call88_v7, main_call88_v8, main_call88_c, main_call88_v9, main_call88_v10, main_call88_v11, main_call88_c_0, main_call88_v12, main_call88_v13, main_v1181, main_v1182, main_v1183, main_c_150, main_v1184, main_v1185, main_v1186, main_v1187, main_v1188, main_c_151]
/-- Each operation writes its own result buffer and nothing else. -/
theorem ops45_writes : (ops45 : List (HloOp τ sig (Elt F))).Forall fun op => op.writes ⊆ (ops45_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2371 to 2429 of the host part, in order. -/
abbrev ops46 : List (HloOp τ sig (Elt F)) :=
  [ StableHlo.TRef.unary (.of main_c_151 : StableHlo.TRef sig ⟨S_, .i32⟩) (.of main_call89_v0 : StableHlo.TRef sig ⟨S_, .i32⟩) id,
    StableHlo.TRef.unary (.of main_call89_v0 : StableHlo.TRef sig ⟨S_, .i32⟩) (.of main_call89_v1 : StableHlo.TRef sig ⟨S7, .i32⟩) (broadcastInDim S7 ![] bcast_S_S7),
    StableHlo.TRef.binary (.of main_v1188 : StableHlo.TRef sig ⟨S7, .i32⟩) (.of main_call89_v1 : StableHlo.TRef sig ⟨S7, .i32⟩) (.of main_call89_v2 : StableHlo.TRef sig ⟨S7, .i32⟩) Host.divsi,
    StableHlo.TRef.unary (.of main_v1188 : StableHlo.TRef sig ⟨S7, .i32⟩) (.of main_call89_v3 : StableHlo.TRef sig ⟨S7, .i32⟩) signi,
    StableHlo.TRef.unary (.of main_call89_v0 : StableHlo.TRef sig ⟨S_, .i32⟩) (.of main_call89_v4 : StableHlo.TRef sig ⟨S_, .i32⟩) signi,
    StableHlo.TRef.unary (.of main_call89_v4 : StableHlo.TRef sig ⟨S_, .i32⟩) (.of main_call89_v5 : StableHlo.TRef sig ⟨S7, .i32⟩) (broadcastInDim S7 ![] bcast_S_S7),
    StableHlo.TRef.binary (.of main_call89_v3 : StableHlo.TRef sig ⟨S7, .i32⟩) (.of main_call89_v5 : StableHlo.TRef sig ⟨S7, .i32⟩) (.of main_call89_v6 : StableHlo.TRef sig ⟨S7, .i1⟩) (cmpi .ne),
    StableHlo.TRef.unary (.of main_call89_v0 : StableHlo.TRef sig ⟨S_, .i32⟩) (.of main_call89_v7 : StableHlo.TRef sig ⟨S7, .i32⟩) (broadcastInDim S7 ![] bcast_S_S7),
    StableHlo.TRef.binary (.of main_v1188 : StableHlo.TRef sig ⟨S7, .i32⟩) (.of main_call89_v7 : StableHlo.TRef sig ⟨S7, .i32⟩) (.of main_call89_v8 : StableHlo.TRef sig ⟨S7, .i32⟩) Host.remsi,
    StableHlo.TRef.nullary (.of main_call89_c : StableHlo.TRef sig ⟨S_, .i32⟩) (constantI S_ 32 0#32),
    StableHlo.TRef.unary (.of main_call89_c : StableHlo.TRef sig ⟨S_, .i32⟩) (.of main_call89_v9 : StableHlo.TRef sig ⟨S7, .i32⟩) (broadcastInDim S7 ![] bcast_S_S7),
    StableHlo.TRef.binary (.of main_call89_v8 : StableHlo.TRef sig ⟨S7, .i32⟩) (.of main_call89_v9 : StableHlo.TRef sig ⟨S7, .i32⟩) (.of main_call89_v10 : StableHlo.TRef sig ⟨S7, .i1⟩) (cmpi .ne),
    StableHlo.TRef.binary (.of main_call89_v6 : StableHlo.TRef sig ⟨S7, .i1⟩) (.of main_call89_v10 : StableHlo.TRef sig ⟨S7, .i1⟩) (.of main_call89_v11 : StableHlo.TRef sig ⟨S7, .i1⟩) andi,
    StableHlo.TRef.nullary (.of main_call89_c_0 : StableHlo.TRef sig ⟨S_, .i32⟩) (constantI S_ 32 1#32),
    StableHlo.TRef.unary (.of main_call89_c_0 : StableHlo.TRef sig ⟨S_, .i32⟩) (.of main_call89_v12 : StableHlo.TRef sig ⟨S7, .i32⟩) (broadcastInDim S7 ![] bcast_S_S7),
    StableHlo.TRef.binary (.of main_call89_v2 : StableHlo.TRef sig ⟨S7, .i32⟩) (.of main_call89_v12 : StableHlo.TRef sig ⟨S7, .i32⟩) (.of main_call89_v13 : StableHlo.TRef sig ⟨S7, .i32⟩) subi,
    StableHlo.TRef.ternary (.of main_call89_v11 : StableHlo.TRef sig ⟨S7, .i1⟩) (.of main_call89_v13 : StableHlo.TRef sig ⟨S7, .i32⟩) (.of main_call89_v2 : StableHlo.TRef sig ⟨S7, .i32⟩) (.of main_v1189 : StableHlo.TRef sig ⟨S7, .i32⟩) select,
    StableHlo.unary main_v1156 main_v1190 (broadcastInDim S7 ![] bcast_S_S7 : (⟨S_, .i32⟩ : BufTy).Contents (Elt F) → (⟨S7, .i32⟩ : BufTy).Contents (Elt F)),
    StableHlo.binary main_v1190 main_v1189 main_v1191 (subi : (⟨S7, .i32⟩ : BufTy).Contents (Elt F) → (⟨S7, .i32⟩ : BufTy).Contents (Elt F) → (⟨S7, .i32⟩ : BufTy).Contents (Elt F)),
    StableHlo.nullary main_v1192 (iotaInDim S64 32 0),
    StableHlo.nullary main_v1193 (iotaInDim S64 32 0),
    StableHlo.unary main_v1192 main_v1194 (broadcastInDim S1x64 ![1] bcast_S64_S1x64_1 : (⟨S64, .i32⟩ : BufTy).Contents (Elt F) → (⟨S1x64, .i32⟩ : BufTy).Contents (Elt F)),
    StableHlo.unary main_v1170 main_v1195 (broadcastInDim S7x1 ![0] bcast_S7_S7x1_0 : (⟨S7, .i32⟩ : BufTy).Contents (Elt F) → (⟨S7x1, .i32⟩ : BufTy).Contents (Elt F)),
    StableHlo.unary main_v1194 main_v1196 (broadcastInDim S7x64 ![0, 1] bcast_S1x64_S7x64_0_1 : (⟨S1x64, .i32⟩ : BufTy).Contents (Elt F) → (⟨S7x64, .i32⟩ : BufTy).Contents (Elt F)),
    StableHlo.unary main_v1195 main_v1197 (broadcastInDim S7x64 ![0, 1] bcast_S7x1_S7x64_0_1 : (⟨S7x1, .i32⟩ : BufTy).Contents (Elt F) → (⟨S7x64, .i32⟩ : BufTy).Contents (Elt F)),
    StableHlo.binary main_v1196 main_v1197 main_v1198 (cmpi .sge : (⟨S7x64, .i32⟩ : BufTy).Contents (Elt F) → (⟨S7x64, .i32⟩ : BufTy).Contents (Elt F) → (⟨S7x64, .i1⟩ : BufTy).Contents (Elt F)),
    StableHlo.unary main_v1192 main_v1199 (broadcastInDim S1x64 ![1] bcast_S64_S1x64_1 : (⟨S64, .i32⟩ : BufTy).Contents (Elt F) → (⟨S1x64, .i32⟩ : BufTy).Contents (Elt F)),
    StableHlo.unary main_v1178 main_v1200 (broadcastInDim S7x1 ![0] bcast_S7_S7x1_0 : (⟨S7, .i32⟩ : BufTy).Contents (Elt F) → (⟨S7x1, .i32⟩ : BufTy).Contents (Elt F)),
    StableHlo.unary main_v1199 main_v1201 (broadcastInDim S7x64 ![0, 1] bcast_S1x64_S7x64_0_1 : (⟨S1x64, .i32⟩ : BufTy).Contents (Elt F) → (⟨S7x64, .i32⟩ : BufTy).Contents (Elt F)),
    StableHlo.unary main_v1200 main_v1202 (broadcastInDim S7x64 ![0, 1] bcast_S7x1_S7x64_0_1 : (⟨S7x1, .i32⟩ : BufTy).Contents (Elt F) → (⟨S7x64, .i32⟩ : BufTy).Contents (Elt F)),
    StableHlo.binary main_v1201 main_v1202 main_v1203 (cmpi .slt : (⟨S7x64, .i32⟩ : BufTy).Contents (Elt F) → (⟨S7x64, .i32⟩ : BufTy).Contents (Elt F) → (⟨S7x64, .i1⟩ : BufTy).Contents (Elt F)),
    StableHlo.binary main_v1198 main_v1203 main_v1204 (andi : (⟨S7x64, .i1⟩ : BufTy).Contents (Elt F) → (⟨S7x64, .i1⟩ : BufTy).Contents (Elt F) → (⟨S7x64, .i1⟩ : BufTy).Contents (Elt F)),
    StableHlo.unary main_v1193 main_v1205 (broadcastInDim S1x64 ![1] bcast_S64_S1x64_1 : (⟨S64, .i32⟩ : BufTy).Contents (Elt F) → (⟨S1x64, .i32⟩ : BufTy).Contents (Elt F)),
    StableHlo.unary main_v1183 main_v1206 (broadcastInDim S7x1 ![0] bcast_S7_S7x1_0 : (⟨S7, .i32⟩ : BufTy).Contents (Elt F) → (⟨S7x1, .i32⟩ : BufTy).Contents (Elt F)),
    StableHlo.unary main_v1205 main_v1207 (broadcastInDim S7x64 ![0, 1] bcast_S1x64_S7x64_0_1 : (⟨S1x64, .i32⟩ : BufTy).Contents (Elt F) → (⟨S7x64, .i32⟩ : BufTy).Contents (Elt F)),
    StableHlo.unary main_v1206 main_v1208 (broadcastInDim S7x64 ![0, 1] bcast_S7x1_S7x64_0_1 : (⟨S7x1, .i32⟩ : BufTy).Contents (Elt F) → (⟨S7x64, .i32⟩ : BufTy).Contents (Elt F)),
    StableHlo.binary main_v1207 main_v1208 main_v1209 (cmpi .sge : (⟨S7x64, .i32⟩ : BufTy).Contents (Elt F) → (⟨S7x64, .i32⟩ : BufTy).Contents (Elt F) → (⟨S7x64, .i1⟩ : BufTy).Contents (Elt F)),
    StableHlo.unary main_v1193 main_v1210 (broadcastInDim S1x64 ![1] bcast_S64_S1x64_1 : (⟨S64, .i32⟩ : BufTy).Contents (Elt F) → (⟨S1x64, .i32⟩ : BufTy).Contents (Elt F)),
    StableHlo.unary main_v1191 main_v1211 (broadcastInDim S7x1 ![0] bcast_S7_S7x1_0 : (⟨S7, .i32⟩ : BufTy).Contents (Elt F) → (⟨S7x1, .i32⟩ : BufTy).Contents (Elt F)),
    StableHlo.unary main_v1210 main_v1212 (broadcastInDim S7x64 ![0, 1] bcast_S1x64_S7x64_0_1 : (⟨S1x64, .i32⟩ : BufTy).Contents (Elt F) → (⟨S7x64, .i32⟩ : BufTy).Contents (Elt F)),
    StableHlo.unary main_v1211 main_v1213 (broadcastInDim S7x64 ![0, 1] bcast_S7x1_S7x64_0_1 : (⟨S7x1, .i32⟩ : BufTy).Contents (Elt F) → (⟨S7x64, .i32⟩ : BufTy).Contents (Elt F)),
    StableHlo.binary main_v1212 main_v1213 main_v1214 (cmpi .slt : (⟨S7x64, .i32⟩ : BufTy).Contents (Elt F) → (⟨S7x64, .i32⟩ : BufTy).Contents (Elt F) → (⟨S7x64, .i1⟩ : BufTy).Contents (Elt F)),
    StableHlo.binary main_v1209 main_v1214 main_v1215 (andi : (⟨S7x64, .i1⟩ : BufTy).Contents (Elt F) → (⟨S7x64, .i1⟩ : BufTy).Contents (Elt F) → (⟨S7x64, .i1⟩ : BufTy).Contents (Elt F)),
    StableHlo.unary main_v1204 main_v1216 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1217 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_152 (constant S_ .f32 0xFF800000#32),
    StableHlo.TRef.unary (.of main_v1216 : StableHlo.TRef sig ⟨S7x1x64x1, .i1⟩) (.of main_call90_v0 : StableHlo.TRef sig ⟨S7x512x64x64, .i1⟩) (broadcastInDim S7x512x64x64 ![0, 1, 2, 3] bcast_S7x1x64x1_S7x512x64x64_0_1_2_3),
    StableHlo.TRef.unary (.of main_v1217 : StableHlo.TRef sig ⟨S1x512x64x64, .f32⟩) (.of main_call90_v1 : StableHlo.TRef sig ⟨S7x512x64x64, .f32⟩) (broadcastInDim S7x512x64x64 ![0, 1, 2, 3] bcast_S1x512x64x64_S7x512x64x64_0_1_2_3),
    StableHlo.TRef.unary (.of main_cst_152 : StableHlo.TRef sig ⟨S_, .f32⟩) (.of main_call90_v2 : StableHlo.TRef sig ⟨S7x512x64x64, .f32⟩) (broadcastInDim S7x512x64x64 ![] bcast_S_S7x512x64x64),
    StableHlo.TRef.ternary (.of main_call90_v0 : StableHlo.TRef sig ⟨S7x512x64x64, .i1⟩) (.of main_call90_v1 : StableHlo.TRef sig ⟨S7x512x64x64, .f32⟩) (.of main_call90_v2 : StableHlo.TRef sig ⟨S7x512x64x64, .f32⟩) (.of main_v1218 : StableHlo.TRef sig ⟨S7x512x64x64, .f32⟩) select,
    StableHlo.nullary main_cst_153 (constant S_ .f32 0xFF800000#32),
    StableHlo.binary main_v1218 main_cst_153 main_v1219 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1215 main_v1220 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1219 main_v1221 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_154 (constant S_ .f32 0xFF800000#32),
    StableHlo.TRef.unary (.of main_v1220 : StableHlo.TRef sig ⟨S1x1x7x64, .i1⟩) (.of main_call91_v0 : StableHlo.TRef sig ⟨S7x512x7x64, .i1⟩) (broadcastInDim S7x512x7x64 ![0, 1, 2, 3] bcast_S1x1x7x64_S7x512x7x64_0_1_2_3),
    StableHlo.TRef.unary (.of main_v1221 : StableHlo.TRef sig ⟨S7x512x1x64, .f32⟩) (.of main_call91_v1 : StableHlo.TRef sig ⟨S7x512x7x64, .f32⟩) (broadcastInDim S7x512x7x64 ![0, 1, 2, 3] bcast_S7x512x1x64_S7x512x7x64_0_1_2_3),
    StableHlo.TRef.unary (.of main_cst_154 : StableHlo.TRef sig ⟨S_, .f32⟩) (.of main_call91_v2 : StableHlo.TRef sig ⟨S7x512x7x64, .f32⟩) (broadcastInDim S7x512x7x64 ![] bcast_S_S7x512x7x64),
    StableHlo.TRef.ternary (.of main_call91_v0 : StableHlo.TRef sig ⟨S7x512x7x64, .i1⟩) (.of main_call91_v1 : StableHlo.TRef sig ⟨S7x512x7x64, .f32⟩) (.of main_call91_v2 : StableHlo.TRef sig ⟨S7x512x7x64, .f32⟩) (.of main_v1222 : StableHlo.TRef sig ⟨S7x512x7x64, .f32⟩) select ]
/-- The buffers those operations write, in order. -/
abbrev ops46_W : List (Ref sig .tc) :=
  [main_call89_v0, main_call89_v1, main_call89_v2, main_call89_v3, main_call89_v4, main_call89_v5, main_call89_v6, main_call89_v7, main_call89_v8, main_call89_c, main_call89_v9, main_call89_v10, main_call89_v11, main_call89_c_0, main_call89_v12, main_call89_v13, main_v1189, main_v1190, main_v1191, main_v1192, main_v1193, main_v1194, main_v1195, main_v1196, main_v1197, main_v1198, main_v1199, main_v1200, main_v1201, main_v1202, main_v1203, main_v1204, main_v1205, main_v1206, main_v1207, main_v1208, main_v1209, main_v1210, main_v1211, main_v1212, main_v1213, main_v1214, main_v1215, main_v1216, main_v1217, main_cst_152, main_call90_v0, main_call90_v1, main_call90_v2, main_v1218, main_cst_153, main_v1219, main_v1220, main_v1221, main_cst_154, main_call91_v0, main_call91_v1, main_call91_v2, main_v1222]
/-- Each operation writes its own result buffer and nothing else. -/
theorem ops46_writes : (ops46 : List (HloOp τ sig (Elt F))).Forall fun op => op.writes ⊆ (ops46_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2430 to 2486 of the host part, in order. -/
abbrev ops47 : List (HloOp τ sig (Elt F)) :=
  [ StableHlo.nullary main_cst_155 (constant S_ .f32 0xFF800000#32),
    StableHlo.binary main_v1222 main_cst_155 main_v1223 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1223 main_v1224 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1224 main_v1225 rfl shapeCasts_S512x7x7_S25088,
    StableHlo.unary main_v18 main_v1226 ((extractStridedSlice S1x1 ![2, 1] · slices_S3x4_S1x1_2_1) : (⟨S3x4, .i32⟩ : BufTy).Contents (Elt F) → (⟨S1x1, .i32⟩ : BufTy).Contents (Elt F)),
    StableHlo.reshape main_v1226 main_v1227 rfl shapeCasts_S1x1_S_,
    StableHlo.unary main_v23 main_v1228 ((extractStridedSlice S1x1 ![3, 1] · slices_S4x4_S1x1_3_1) : (⟨S4x4, .i32⟩ : BufTy).Contents (Elt F) → (⟨S1x1, .i32⟩ : BufTy).Contents (Elt F)),
    StableHlo.reshape main_v1228 main_v1229 rfl shapeCasts_S1x1_S_,
    StableHlo.binary main_v1227 main_v1229 main_v1230 (minsi : (⟨S_, .i32⟩ : BufTy).Contents (Elt F) → (⟨S_, .i32⟩ : BufTy).Contents (Elt F) → (⟨S_, .i32⟩ : BufTy).Contents (Elt F)),
    StableHlo.unary main_v18 main_v1231 ((extractStridedSlice S1x1 ![2, 3] · slices_S3x4_S1x1_2_3) : (⟨S3x4, .i32⟩ : BufTy).Contents (Elt F) → (⟨S1x1, .i32⟩ : BufTy).Contents (Elt F)),
    StableHlo.reshape main_v1231 main_v1232 rfl shapeCasts_S1x1_S_,
    StableHlo.unary main_v23 main_v1233 ((extractStridedSlice S1x1 ![3, 3] · slices_S4x4_S1x1_3_3) : (⟨S4x4, .i32⟩ : BufTy).Contents (Elt F) → (⟨S1x1, .i32⟩ : BufTy).Contents (Elt F)),
    StableHlo.reshape main_v1233 main_v1234 rfl shapeCasts_S1x1_S_,
    StableHlo.binary main_v1232 main_v1234 main_v1235 (maxsi : (⟨S_, .i32⟩ : BufTy).Contents (Elt F) → (⟨S_, .i32⟩ : BufTy).Contents (Elt F) → (⟨S_, .i32⟩ : BufTy).Contents (Elt F)),
    StableHlo.unary main_v18 main_v1236 ((extractStridedSlice S1x1 ![2, 0] · slices_S3x4_S1x1_2_0) : (⟨S3x4, .i32⟩ : BufTy).Contents (Elt F) → (⟨S1x1, .i32⟩ : BufTy).Contents (Elt F)),
    StableHlo.reshape main_v1236 main_v1237 rfl shapeCasts_S1x1_S_,
    StableHlo.unary main_v23 main_v1238 ((extractStridedSlice S1x1 ![3, 0] · slices_S4x4_S1x1_3_0) : (⟨S4x4, .i32⟩ : BufTy).Contents (Elt F) → (⟨S1x1, .i32⟩ : BufTy).Contents (Elt F)),
    StableHlo.reshape main_v1238 main_v1239 rfl shapeCasts_S1x1_S_,
    StableHlo.binary main_v1237 main_v1239 main_v1240 (minsi : (⟨S_, .i32⟩ : BufTy).Contents (Elt F) → (⟨S_, .i32⟩ : BufTy).Contents (Elt F) → (⟨S_, .i32⟩ : BufTy).Contents (Elt F)),
    StableHlo.unary main_v18 main_v1241 ((extractStridedSlice S1x1 ![2, 2] · slices_S3x4_S1x1_2_2) : (⟨S3x4, .i32⟩ : BufTy).Contents (Elt F) → (⟨S1x1, .i32⟩ : BufTy).Contents (Elt F)),
    StableHlo.reshape main_v1241 main_v1242 rfl shapeCasts_S1x1_S_,
    StableHlo.unary main_v23 main_v1243 ((extractStridedSlice S1x1 ![3, 2] · slices_S4x4_S1x1_3_2) : (⟨S4x4, .i32⟩ : BufTy).Contents (Elt F) → (⟨S1x1, .i32⟩ : BufTy).Contents (Elt F)),
    StableHlo.reshape main_v1243 main_v1244 rfl shapeCasts_S1x1_S_,
    StableHlo.binary main_v1242 main_v1244 main_v1245 (maxsi : (⟨S_, .i32⟩ : BufTy).Contents (Elt F) → (⟨S_, .i32⟩ : BufTy).Contents (Elt F) → (⟨S_, .i32⟩ : BufTy).Contents (Elt F)),
    StableHlo.binary main_v1235 main_v1230 main_v1246 (subi : (⟨S_, .i32⟩ : BufTy).Contents (Elt F) → (⟨S_, .i32⟩ : BufTy).Contents (Elt F) → (⟨S_, .i32⟩ : BufTy).Contents (Elt F)),
    StableHlo.binary main_v1245 main_v1240 main_v1247 (subi : (⟨S_, .i32⟩ : BufTy).Contents (Elt F) → (⟨S_, .i32⟩ : BufTy).Contents (Elt F) → (⟨S_, .i32⟩ : BufTy).Contents (Elt F)),
    StableHlo.nullary main_v1248 (iotaInDim S7 32 0),
    StableHlo.nullary main_v1249 (iotaInDim S7 32 0),
    StableHlo.unary main_v1246 main_v1250 (broadcastInDim S7 ![] bcast_S_S7 : (⟨S_, .i32⟩ : BufTy).Contents (Elt F) → (⟨S7, .i32⟩ : BufTy).Contents (Elt F)),
    StableHlo.binary main_v1248 main_v1250 main_v1251 (muli : (⟨S7, .i32⟩ : BufTy).Contents (Elt F) → (⟨S7, .i32⟩ : BufTy).Contents (Elt F) → (⟨S7, .i32⟩ : BufTy).Contents (Elt F)),
    StableHlo.nullary main_c_156 (constantI S_ 32 7#32),
    StableHlo.TRef.unary (.of main_c_156 : StableHlo.TRef sig ⟨S_, .i32⟩) (.of main_call92_v0 : StableHlo.TRef sig ⟨S_, .i32⟩) id,
    StableHlo.TRef.unary (.of main_call92_v0 : StableHlo.TRef sig ⟨S_, .i32⟩) (.of main_call92_v1 : StableHlo.TRef sig ⟨S7, .i32⟩) (broadcastInDim S7 ![] bcast_S_S7),
    StableHlo.TRef.binary (.of main_v1251 : StableHlo.TRef sig ⟨S7, .i32⟩) (.of main_call92_v1 : StableHlo.TRef sig ⟨S7, .i32⟩) (.of main_call92_v2 : StableHlo.TRef sig ⟨S7, .i32⟩) Host.divsi,
    StableHlo.TRef.unary (.of main_v1251 : StableHlo.TRef sig ⟨S7, .i32⟩) (.of main_call92_v3 : StableHlo.TRef sig ⟨S7, .i32⟩) signi,
    StableHlo.TRef.unary (.of main_call92_v0 : StableHlo.TRef sig ⟨S_, .i32⟩) (.of main_call92_v4 : StableHlo.TRef sig ⟨S_, .i32⟩) signi,
    StableHlo.TRef.unary (.of main_call92_v4 : StableHlo.TRef sig ⟨S_, .i32⟩) (.of main_call92_v5 : StableHlo.TRef sig ⟨S7, .i32⟩) (broadcastInDim S7 ![] bcast_S_S7),
    StableHlo.TRef.binary (.of main_call92_v3 : StableHlo.TRef sig ⟨S7, .i32⟩) (.of main_call92_v5 : StableHlo.TRef sig ⟨S7, .i32⟩) (.of main_call92_v6 : StableHlo.TRef sig ⟨S7, .i1⟩) (cmpi .ne),
    StableHlo.TRef.unary (.of main_call92_v0 : StableHlo.TRef sig ⟨S_, .i32⟩) (.of main_call92_v7 : StableHlo.TRef sig ⟨S7, .i32⟩) (broadcastInDim S7 ![] bcast_S_S7),
    StableHlo.TRef.binary (.of main_v1251 : StableHlo.TRef sig ⟨S7, .i32⟩) (.of main_call92_v7 : StableHlo.TRef sig ⟨S7, .i32⟩) (.of main_call92_v8 : StableHlo.TRef sig ⟨S7, .i32⟩) Host.remsi,
    StableHlo.TRef.nullary (.of main_call92_c : StableHlo.TRef sig ⟨S_, .i32⟩) (constantI S_ 32 0#32),
    StableHlo.TRef.unary (.of main_call92_c : StableHlo.TRef sig ⟨S_, .i32⟩) (.of main_call92_v9 : StableHlo.TRef sig ⟨S7, .i32⟩) (broadcastInDim S7 ![] bcast_S_S7),
    StableHlo.TRef.binary (.of main_call92_v8 : StableHlo.TRef sig ⟨S7, .i32⟩) (.of main_call92_v9 : StableHlo.TRef sig ⟨S7, .i32⟩) (.of main_call92_v10 : StableHlo.TRef sig ⟨S7, .i1⟩) (cmpi .ne),
    StableHlo.TRef.binary (.of main_call92_v6 : StableHlo.TRef sig ⟨S7, .i1⟩) (.of main_call92_v10 : StableHlo.TRef sig ⟨S7, .i1⟩) (.of main_call92_v11 : StableHlo.TRef sig ⟨S7, .i1⟩) andi,
    StableHlo.TRef.nullary (.of main_call92_c_0 : StableHlo.TRef sig ⟨S_, .i32⟩) (constantI S_ 32 1#32),
    StableHlo.TRef.unary (.of main_call92_c_0 : StableHlo.TRef sig ⟨S_, .i32⟩) (.of main_call92_v12 : StableHlo.TRef sig ⟨S7, .i32⟩) (broadcastInDim S7 ![] bcast_S_S7),
    StableHlo.TRef.binary (.of main_call92_v2 : StableHlo.TRef sig ⟨S7, .i32⟩) (.of main_call92_v12 : StableHlo.TRef sig ⟨S7, .i32⟩) (.of main_call92_v13 : StableHlo.TRef sig ⟨S7, .i32⟩) subi,
    StableHlo.TRef.ternary (.of main_call92_v11 : StableHlo.TRef sig ⟨S7, .i1⟩) (.of main_call92_v13 : StableHlo.TRef sig ⟨S7, .i32⟩) (.of main_call92_v2 : StableHlo.TRef sig ⟨S7, .i32⟩) (.of main_v1252 : StableHlo.TRef sig ⟨S7, .i32⟩) select,
    StableHlo.unary main_v1230 main_v1253 (broadcastInDim S7 ![] bcast_S_S7 : (⟨S_, .i32⟩ : BufTy).Contents (Elt F) → (⟨S7, .i32⟩ : BufTy).Contents (Elt F)),
    StableHlo.binary main_v1253 main_v1252 main_v1254 (addi : (⟨S7, .i32⟩ : BufTy).Contents (Elt F) → (⟨S7, .i32⟩ : BufTy).Contents (Elt F) → (⟨S7, .i32⟩ : BufTy).Contents (Elt F)),
    StableHlo.nullary main_c_157 (constantI S_ 32 1#32),
    StableHlo.unary main_c_157 main_v1255 (broadcastInDim S7 ![] bcast_S_S7 : (⟨S_, .i32⟩ : BufTy).Contents (Elt F) → (⟨S7, .i32⟩ : BufTy).Contents (Elt F)),
    StableHlo.binary main_v1248 main_v1255 main_v1256 (addi : (⟨S7, .i32⟩ : BufTy).Contents (Elt F) → (⟨S7, .i32⟩ : BufTy).Contents (Elt F) → (⟨S7, .i32⟩ : BufTy).Contents (Elt F)),
    StableHlo.unary main_v1256 main_v1257 (negi : (⟨S7, .i32⟩ : BufTy).Contents (Elt F) → (⟨S7, .i32⟩ : BufTy).Contents (Elt F)),
    StableHlo.unary main_v1246 main_v1258 (broadcastInDim S7 ![] bcast_S_S7 : (⟨S_, .i32⟩ : BufTy).Contents (Elt F) → (⟨S7, .i32⟩ : BufTy).Contents (Elt F)),
    StableHlo.binary main_v1257 main_v1258 main_v1259 (muli : (⟨S7, .i32⟩ : BufTy).Contents (Elt F) → (⟨S7, .i32⟩ : BufTy).Contents (Elt F) → (⟨S7, .i32⟩ : BufTy).Contents (Elt F)),
    StableHlo.nullary main_c_158 (constantI S_ 32 7#32) ]
/-- The buffers those operations write, in order. -/
abbrev ops47_W : List (Ref sig .tc) :=
  [main_cst_155, main_v1223, main_v1224, main_v1225, main_v1226, main_v1227, main_v1228, main_v1229, main_v1230, main_v1231, main_v1232, main_v1233, main_v1234, main_v1235, main_v1236, main_v1237, main_v1238, main_v1239, main_v1240, main_v1241, main_v1242, main_v1243, main_v1244, main_v1245, main_v1246, main_v1247, main_v1248, main_v1249, main_v1250, main_v1251, main_c_156, main_call92_v0, main_call92_v1, main_call92_v2, main_call92_v3, main_call92_v4, main_call92_v5, main_call92_v6, main_call92_v7, main_call92_v8, main_call92_c, main_call92_v9, main_call92_v10, main_call92_v11, main_call92_c_0, main_call92_v12, main_call92_v13, main_v1252, main_v1253, main_v1254, main_c_157, main_v1255, main_v1256, main_v1257, main_v1258, main_v1259, main_c_158]
/-- Each operation writes its own result buffer and nothing else. -/
theorem ops47_writes : (ops47 : List (HloOp τ sig (Elt F))).Forall fun op => op.writes ⊆ (ops47_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2487 to 2534 of the host part, in order. -/
abbrev ops48 : List (HloOp τ sig (Elt F)) :=
  [ StableHlo.TRef.unary (.of main_c_158 : StableHlo.TRef sig ⟨S_, .i32⟩) (.of main_call93_v0 : StableHlo.TRef sig ⟨S_, .i32⟩) id,
    StableHlo.TRef.unary (.of main_call93_v0 : StableHlo.TRef sig ⟨S_, .i32⟩) (.of main_call93_v1 : StableHlo.TRef sig ⟨S7, .i32⟩) (broadcastInDim S7 ![] bcast_S_S7),
    StableHlo.TRef.binary (.of main_v1259 : StableHlo.TRef sig ⟨S7, .i32⟩) (.of main_call93_v1 : StableHlo.TRef sig ⟨S7, .i32⟩) (.of main_call93_v2 : StableHlo.TRef sig ⟨S7, .i32⟩) Host.divsi,
    StableHlo.TRef.unary (.of main_v1259 : StableHlo.TRef sig ⟨S7, .i32⟩) (.of main_call93_v3 : StableHlo.TRef sig ⟨S7, .i32⟩) signi,
    StableHlo.TRef.unary (.of main_call93_v0 : StableHlo.TRef sig ⟨S_, .i32⟩) (.of main_call93_v4 : StableHlo.TRef sig ⟨S_, .i32⟩) signi,
    StableHlo.TRef.unary (.of main_call93_v4 : StableHlo.TRef sig ⟨S_, .i32⟩) (.of main_call93_v5 : StableHlo.TRef sig ⟨S7, .i32⟩) (broadcastInDim S7 ![] bcast_S_S7),
    StableHlo.TRef.binary (.of main_call93_v3 : StableHlo.TRef sig ⟨S7, .i32⟩) (.of main_call93_v5 : StableHlo.TRef sig ⟨S7, .i32⟩) (.of main_call93_v6 : StableHlo.TRef sig ⟨S7, .i1⟩) (cmpi .ne),
    StableHlo.TRef.unary (.of main_call93_v0 : StableHlo.TRef sig ⟨S_, .i32⟩) (.of main_call93_v7 : StableHlo.TRef sig ⟨S7, .i32⟩) (broadcastInDim S7 ![] bcast_S_S7),
    StableHlo.TRef.binary (.of main_v1259 : StableHlo.TRef sig ⟨S7, .i32⟩) (.of main_call93_v7 : StableHlo.TRef sig ⟨S7, .i32⟩) (.of main_call93_v8 : StableHlo.TRef sig ⟨S7, .i32⟩) Host.remsi,
    StableHlo.TRef.nullary (.of main_call93_c : StableHlo.TRef sig ⟨S_, .i32⟩) (constantI S_ 32 0#32),
    StableHlo.TRef.unary (.of main_call93_c : StableHlo.TRef sig ⟨S_, .i32⟩) (.of main_call93_v9 : StableHlo.TRef sig ⟨S7, .i32⟩) (broadcastInDim S7 ![] bcast_S_S7),
    StableHlo.TRef.binary (.of main_call93_v8 : StableHlo.TRef sig ⟨S7, .i32⟩) (.of main_call93_v9 : StableHlo.TRef sig ⟨S7, .i32⟩) (.of main_call93_v10 : StableHlo.TRef sig ⟨S7, .i1⟩) (cmpi .ne),
    StableHlo.TRef.binary (.of main_call93_v6 : StableHlo.TRef sig ⟨S7, .i1⟩) (.of main_call93_v10 : StableHlo.TRef sig ⟨S7, .i1⟩) (.of main_call93_v11 : StableHlo.TRef sig ⟨S7, .i1⟩) andi,
    StableHlo.TRef.nullary (.of main_call93_c_0 : StableHlo.TRef sig ⟨S_, .i32⟩) (constantI S_ 32 1#32),
    StableHlo.TRef.unary (.of main_call93_c_0 : StableHlo.TRef sig ⟨S_, .i32⟩) (.of main_call93_v12 : StableHlo.TRef sig ⟨S7, .i32⟩) (broadcastInDim S7 ![] bcast_S_S7),
    StableHlo.TRef.binary (.of main_call93_v2 : StableHlo.TRef sig ⟨S7, .i32⟩) (.of main_call93_v12 : StableHlo.TRef sig ⟨S7, .i32⟩) (.of main_call93_v13 : StableHlo.TRef sig ⟨S7, .i32⟩) subi,
    StableHlo.TRef.ternary (.of main_call93_v11 : StableHlo.TRef sig ⟨S7, .i1⟩) (.of main_call93_v13 : StableHlo.TRef sig ⟨S7, .i32⟩) (.of main_call93_v2 : StableHlo.TRef sig ⟨S7, .i32⟩) (.of main_v1260 : StableHlo.TRef sig ⟨S7, .i32⟩) select,
    StableHlo.unary main_v1230 main_v1261 (broadcastInDim S7 ![] bcast_S_S7 : (⟨S_, .i32⟩ : BufTy).Contents (Elt F) → (⟨S7, .i32⟩ : BufTy).Contents (Elt F)),
    StableHlo.binary main_v1261 main_v1260 main_v1262 (subi : (⟨S7, .i32⟩ : BufTy).Contents (Elt F) → (⟨S7, .i32⟩ : BufTy).Contents (Elt F) → (⟨S7, .i32⟩ : BufTy).Contents (Elt F)),
    StableHlo.unary main_v1247 main_v1263 (broadcastInDim S7 ![] bcast_S_S7 : (⟨S_, .i32⟩ : BufTy).Contents (Elt F) → (⟨S7, .i32⟩ : BufTy).Contents (Elt F)),
    StableHlo.binary main_v1249 main_v1263 main_v1264 (muli : (⟨S7, .i32⟩ : BufTy).Contents (Elt F) → (⟨S7, .i32⟩ : BufTy).Contents (Elt F) → (⟨S7, .i32⟩ : BufTy).Contents (Elt F)),
    StableHlo.nullary main_c_159 (constantI S_ 32 7#32),
    StableHlo.TRef.unary (.of main_c_159 : StableHlo.TRef sig ⟨S_, .i32⟩) (.of main_call94_v0 : StableHlo.TRef sig ⟨S_, .i32⟩) id,
    StableHlo.TRef.unary (.of main_call94_v0 : StableHlo.TRef sig ⟨S_, .i32⟩) (.of main_call94_v1 : StableHlo.TRef sig ⟨S7, .i32⟩) (broadcastInDim S7 ![] bcast_S_S7),
    StableHlo.TRef.binary (.of main_v1264 : StableHlo.TRef sig ⟨S7, .i32⟩) (.of main_call94_v1 : StableHlo.TRef sig ⟨S7, .i32⟩) (.of main_call94_v2 : StableHlo.TRef sig ⟨S7, .i32⟩) Host.divsi,
    StableHlo.TRef.unary (.of main_v1264 : StableHlo.TRef sig ⟨S7, .i32⟩) (.of main_call94_v3 : StableHlo.TRef sig ⟨S7, .i32⟩) signi,
    StableHlo.TRef.unary (.of main_call94_v0 : StableHlo.TRef sig ⟨S_, .i32⟩) (.of main_call94_v4 : StableHlo.TRef sig ⟨S_, .i32⟩) signi,
    StableHlo.TRef.unary (.of main_call94_v4 : StableHlo.TRef sig ⟨S_, .i32⟩) (.of main_call94_v5 : StableHlo.TRef sig ⟨S7, .i32⟩) (broadcastInDim S7 ![] bcast_S_S7),
    StableHlo.TRef.binary (.of main_call94_v3 : StableHlo.TRef sig ⟨S7, .i32⟩) (.of main_call94_v5 : StableHlo.TRef sig ⟨S7, .i32⟩) (.of main_call94_v6 : StableHlo.TRef sig ⟨S7, .i1⟩) (cmpi .ne),
    StableHlo.TRef.unary (.of main_call94_v0 : StableHlo.TRef sig ⟨S_, .i32⟩) (.of main_call94_v7 : StableHlo.TRef sig ⟨S7, .i32⟩) (broadcastInDim S7 ![] bcast_S_S7),
    StableHlo.TRef.binary (.of main_v1264 : StableHlo.TRef sig ⟨S7, .i32⟩) (.of main_call94_v7 : StableHlo.TRef sig ⟨S7, .i32⟩) (.of main_call94_v8 : StableHlo.TRef sig ⟨S7, .i32⟩) Host.remsi,
    StableHlo.TRef.nullary (.of main_call94_c : StableHlo.TRef sig ⟨S_, .i32⟩) (constantI S_ 32 0#32),
    StableHlo.TRef.unary (.of main_call94_c : StableHlo.TRef sig ⟨S_, .i32⟩) (.of main_call94_v9 : StableHlo.TRef sig ⟨S7, .i32⟩) (broadcastInDim S7 ![] bcast_S_S7),
    StableHlo.TRef.binary (.of main_call94_v8 : StableHlo.TRef sig ⟨S7, .i32⟩) (.of main_call94_v9 : StableHlo.TRef sig ⟨S7, .i32⟩) (.of main_call94_v10 : StableHlo.TRef sig ⟨S7, .i1⟩) (cmpi .ne),
    StableHlo.TRef.binary (.of main_call94_v6 : StableHlo.TRef sig ⟨S7, .i1⟩) (.of main_call94_v10 : StableHlo.TRef sig ⟨S7, .i1⟩) (.of main_call94_v11 : StableHlo.TRef sig ⟨S7, .i1⟩) andi,
    StableHlo.TRef.nullary (.of main_call94_c_0 : StableHlo.TRef sig ⟨S_, .i32⟩) (constantI S_ 32 1#32),
    StableHlo.TRef.unary (.of main_call94_c_0 : StableHlo.TRef sig ⟨S_, .i32⟩) (.of main_call94_v12 : StableHlo.TRef sig ⟨S7, .i32⟩) (broadcastInDim S7 ![] bcast_S_S7),
    StableHlo.TRef.binary (.of main_call94_v2 : StableHlo.TRef sig ⟨S7, .i32⟩) (.of main_call94_v12 : StableHlo.TRef sig ⟨S7, .i32⟩) (.of main_call94_v13 : StableHlo.TRef sig ⟨S7, .i32⟩) subi,
    StableHlo.TRef.ternary (.of main_call94_v11 : StableHlo.TRef sig ⟨S7, .i1⟩) (.of main_call94_v13 : StableHlo.TRef sig ⟨S7, .i32⟩) (.of main_call94_v2 : StableHlo.TRef sig ⟨S7, .i32⟩) (.of main_v1265 : StableHlo.TRef sig ⟨S7, .i32⟩) select,
    StableHlo.unary main_v1240 main_v1266 (broadcastInDim S7 ![] bcast_S_S7 : (⟨S_, .i32⟩ : BufTy).Contents (Elt F) → (⟨S7, .i32⟩ : BufTy).Contents (Elt F)),
    StableHlo.binary main_v1266 main_v1265 main_v1267 (addi : (⟨S7, .i32⟩ : BufTy).Contents (Elt F) → (⟨S7, .i32⟩ : BufTy).Contents (Elt F) → (⟨S7, .i32⟩ : BufTy).Contents (Elt F)),
    StableHlo.nullary main_c_160 (constantI S_ 32 1#32),
    StableHlo.unary main_c_160 main_v1268 (broadcastInDim S7 ![] bcast_S_S7 : (⟨S_, .i32⟩ : BufTy).Contents (Elt F) → (⟨S7, .i32⟩ : BufTy).Contents (Elt F)),
    StableHlo.binary main_v1249 main_v1268 main_v1269 (addi : (⟨S7, .i32⟩ : BufTy).Contents (Elt F) → (⟨S7, .i32⟩ : BufTy).Contents (Elt F) → (⟨S7, .i32⟩ : BufTy).Contents (Elt F)),
    StableHlo.unary main_v1269 main_v1270 (negi : (⟨S7, .i32⟩ : BufTy).Contents (Elt F) → (⟨S7, .i32⟩ : BufTy).Contents (Elt F)),
    StableHlo.unary main_v1247 main_v1271 (broadcastInDim S7 ![] bcast_S_S7 : (⟨S_, .i32⟩ : BufTy).Contents (Elt F) → (⟨S7, .i32⟩ : BufTy).Contents (Elt F)),
    StableHlo.binary main_v1270 main_v1271 main_v1272 (muli : (⟨S7, .i32⟩ : BufTy).Contents (Elt F) → (⟨S7, .i32⟩ : BufTy).Contents (Elt F) → (⟨S7, .i32⟩ : BufTy).Contents (Elt F)),
    StableHlo.nullary main_c_161 (constantI S_ 32 7#32) ]
/-- The buffers those operations write, in order. -/
abbrev ops48_W : List (Ref sig .tc) :=
  [main_call93_v0, main_call93_v1, main_call93_v2, main_call93_v3, main_call93_v4, main_call93_v5, main_call93_v6, main_call93_v7, main_call93_v8, main_call93_c, main_call93_v9, main_call93_v10, main_call93_v11, main_call93_c_0, main_call93_v12, main_call93_v13, main_v1260, main_v1261, main_v1262, main_v1263, main_v1264, main_c_159, main_call94_v0, main_call94_v1, main_call94_v2, main_call94_v3, main_call94_v4, main_call94_v5, main_call94_v6, main_call94_v7, main_call94_v8, main_call94_c, main_call94_v9, main_call94_v10, main_call94_v11, main_call94_c_0, main_call94_v12, main_call94_v13, main_v1265, main_v1266, main_v1267, main_c_160, main_v1268, main_v1269, main_v1270, main_v1271, main_v1272, main_c_161]
/-- Each operation writes its own result buffer and nothing else. -/
theorem ops48_writes : (ops48 : List (HloOp τ sig (Elt F))).Forall fun op => op.writes ⊆ (ops48_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2535 to 2593 of the host part, in order. -/
abbrev ops49 : List (HloOp τ sig (Elt F)) :=
  [ StableHlo.TRef.unary (.of main_c_161 : StableHlo.TRef sig ⟨S_, .i32⟩) (.of main_call95_v0 : StableHlo.TRef sig ⟨S_, .i32⟩) id,
    StableHlo.TRef.unary (.of main_call95_v0 : StableHlo.TRef sig ⟨S_, .i32⟩) (.of main_call95_v1 : StableHlo.TRef sig ⟨S7, .i32⟩) (broadcastInDim S7 ![] bcast_S_S7),
    StableHlo.TRef.binary (.of main_v1272 : StableHlo.TRef sig ⟨S7, .i32⟩) (.of main_call95_v1 : StableHlo.TRef sig ⟨S7, .i32⟩) (.of main_call95_v2 : StableHlo.TRef sig ⟨S7, .i32⟩) Host.divsi,
    StableHlo.TRef.unary (.of main_v1272 : StableHlo.TRef sig ⟨S7, .i32⟩) (.of main_call95_v3 : StableHlo.TRef sig ⟨S7, .i32⟩) signi,
    StableHlo.TRef.unary (.of main_call95_v0 : StableHlo.TRef sig ⟨S_, .i32⟩) (.of main_call95_v4 : StableHlo.TRef sig ⟨S_, .i32⟩) signi,
    StableHlo.TRef.unary (.of main_call95_v4 : StableHlo.TRef sig ⟨S_, .i32⟩) (.of main_call95_v5 : StableHlo.TRef sig ⟨S7, .i32⟩) (broadcastInDim S7 ![] bcast_S_S7),
    StableHlo.TRef.binary (.of main_call95_v3 : StableHlo.TRef sig ⟨S7, .i32⟩) (.of main_call95_v5 : StableHlo.TRef sig ⟨S7, .i32⟩) (.of main_call95_v6 : StableHlo.TRef sig ⟨S7, .i1⟩) (cmpi .ne),
    StableHlo.TRef.unary (.of main_call95_v0 : StableHlo.TRef sig ⟨S_, .i32⟩) (.of main_call95_v7 : StableHlo.TRef sig ⟨S7, .i32⟩) (broadcastInDim S7 ![] bcast_S_S7),
    StableHlo.TRef.binary (.of main_v1272 : StableHlo.TRef sig ⟨S7, .i32⟩) (.of main_call95_v7 : StableHlo.TRef sig ⟨S7, .i32⟩) (.of main_call95_v8 : StableHlo.TRef sig ⟨S7, .i32⟩) Host.remsi,
    StableHlo.TRef.nullary (.of main_call95_c : StableHlo.TRef sig ⟨S_, .i32⟩) (constantI S_ 32 0#32),
    StableHlo.TRef.unary (.of main_call95_c : StableHlo.TRef sig ⟨S_, .i32⟩) (.of main_call95_v9 : StableHlo.TRef sig ⟨S7, .i32⟩) (broadcastInDim S7 ![] bcast_S_S7),
    StableHlo.TRef.binary (.of main_call95_v8 : StableHlo.TRef sig ⟨S7, .i32⟩) (.of main_call95_v9 : StableHlo.TRef sig ⟨S7, .i32⟩) (.of main_call95_v10 : StableHlo.TRef sig ⟨S7, .i1⟩) (cmpi .ne),
    StableHlo.TRef.binary (.of main_call95_v6 : StableHlo.TRef sig ⟨S7, .i1⟩) (.of main_call95_v10 : StableHlo.TRef sig ⟨S7, .i1⟩) (.of main_call95_v11 : StableHlo.TRef sig ⟨S7, .i1⟩) andi,
    StableHlo.TRef.nullary (.of main_call95_c_0 : StableHlo.TRef sig ⟨S_, .i32⟩) (constantI S_ 32 1#32),
    StableHlo.TRef.unary (.of main_call95_c_0 : StableHlo.TRef sig ⟨S_, .i32⟩) (.of main_call95_v12 : StableHlo.TRef sig ⟨S7, .i32⟩) (broadcastInDim S7 ![] bcast_S_S7),
    StableHlo.TRef.binary (.of main_call95_v2 : StableHlo.TRef sig ⟨S7, .i32⟩) (.of main_call95_v12 : StableHlo.TRef sig ⟨S7, .i32⟩) (.of main_call95_v13 : StableHlo.TRef sig ⟨S7, .i32⟩) subi,
    StableHlo.TRef.ternary (.of main_call95_v11 : StableHlo.TRef sig ⟨S7, .i1⟩) (.of main_call95_v13 : StableHlo.TRef sig ⟨S7, .i32⟩) (.of main_call95_v2 : StableHlo.TRef sig ⟨S7, .i32⟩) (.of main_v1273 : StableHlo.TRef sig ⟨S7, .i32⟩) select,
    StableHlo.unary main_v1240 main_v1274 (broadcastInDim S7 ![] bcast_S_S7 : (⟨S_, .i32⟩ : BufTy).Contents (Elt F) → (⟨S7, .i32⟩ : BufTy).Contents (Elt F)),
    StableHlo.binary main_v1274 main_v1273 main_v1275 (subi : (⟨S7, .i32⟩ : BufTy).Contents (Elt F) → (⟨S7, .i32⟩ : BufTy).Contents (Elt F) → (⟨S7, .i32⟩ : BufTy).Contents (Elt F)),
    StableHlo.nullary main_v1276 (iotaInDim S64 32 0),
    StableHlo.nullary main_v1277 (iotaInDim S64 32 0),
    StableHlo.unary main_v1276 main_v1278 (broadcastInDim S1x64 ![1] bcast_S64_S1x64_1 : (⟨S64, .i32⟩ : BufTy).Contents (Elt F) → (⟨S1x64, .i32⟩ : BufTy).Contents (Elt F)),
    StableHlo.unary main_v1254 main_v1279 (broadcastInDim S7x1 ![0] bcast_S7_S7x1_0 : (⟨S7, .i32⟩ : BufTy).Contents (Elt F) → (⟨S7x1, .i32⟩ : BufTy).Contents (Elt F)),
    StableHlo.unary main_v1278 main_v1280 (broadcastInDim S7x64 ![0, 1] bcast_S1x64_S7x64_0_1 : (⟨S1x64, .i32⟩ : BufTy).Contents (Elt F) → (⟨S7x64, .i32⟩ : BufTy).Contents (Elt F)),
    StableHlo.unary main_v1279 main_v1281 (broadcastInDim S7x64 ![0, 1] bcast_S7x1_S7x64_0_1 : (⟨S7x1, .i32⟩ : BufTy).Contents (Elt F) → (⟨S7x64, .i32⟩ : BufTy).Contents (Elt F)),
    StableHlo.binary main_v1280 main_v1281 main_v1282 (cmpi .sge : (⟨S7x64, .i32⟩ : BufTy).Contents (Elt F) → (⟨S7x64, .i32⟩ : BufTy).Contents (Elt F) → (⟨S7x64, .i1⟩ : BufTy).Contents (Elt F)),
    StableHlo.unary main_v1276 main_v1283 (broadcastInDim S1x64 ![1] bcast_S64_S1x64_1 : (⟨S64, .i32⟩ : BufTy).Contents (Elt F) → (⟨S1x64, .i32⟩ : BufTy).Contents (Elt F)),
    StableHlo.unary main_v1262 main_v1284 (broadcastInDim S7x1 ![0] bcast_S7_S7x1_0 : (⟨S7, .i32⟩ : BufTy).Contents (Elt F) → (⟨S7x1, .i32⟩ : BufTy).Contents (Elt F)),
    StableHlo.unary main_v1283 main_v1285 (broadcastInDim S7x64 ![0, 1] bcast_S1x64_S7x64_0_1 : (⟨S1x64, .i32⟩ : BufTy).Contents (Elt F) → (⟨S7x64, .i32⟩ : BufTy).Contents (Elt F)),
    StableHlo.unary main_v1284 main_v1286 (broadcastInDim S7x64 ![0, 1] bcast_S7x1_S7x64_0_1 : (⟨S7x1, .i32⟩ : BufTy).Contents (Elt F) → (⟨S7x64, .i32⟩ : BufTy).Contents (Elt F)),
    StableHlo.binary main_v1285 main_v1286 main_v1287 (cmpi .slt : (⟨S7x64, .i32⟩ : BufTy).Contents (Elt F) → (⟨S7x64, .i32⟩ : BufTy).Contents (Elt F) → (⟨S7x64, .i1⟩ : BufTy).Contents (Elt F)),
    StableHlo.binary main_v1282 main_v1287 main_v1288 (andi : (⟨S7x64, .i1⟩ : BufTy).Contents (Elt F) → (⟨S7x64, .i1⟩ : BufTy).Contents (Elt F) → (⟨S7x64, .i1⟩ : BufTy).Contents (Elt F)),
    StableHlo.unary main_v1277 main_v1289 (broadcastInDim S1x64 ![1] bcast_S64_S1x64_1 : (⟨S64, .i32⟩ : BufTy).Contents (Elt F) → (⟨S1x64, .i32⟩ : BufTy).Contents (Elt F)),
    StableHlo.unary main_v1267 main_v1290 (broadcastInDim S7x1 ![0] bcast_S7_S7x1_0 : (⟨S7, .i32⟩ : BufTy).Contents (Elt F) → (⟨S7x1, .i32⟩ : BufTy).Contents (Elt F)),
    StableHlo.unary main_v1289 main_v1291 (broadcastInDim S7x64 ![0, 1] bcast_S1x64_S7x64_0_1 : (⟨S1x64, .i32⟩ : BufTy).Contents (Elt F) → (⟨S7x64, .i32⟩ : BufTy).Contents (Elt F)),
    StableHlo.unary main_v1290 main_v1292 (broadcastInDim S7x64 ![0, 1] bcast_S7x1_S7x64_0_1 : (⟨S7x1, .i32⟩ : BufTy).Contents (Elt F) → (⟨S7x64, .i32⟩ : BufTy).Contents (Elt F)),
    StableHlo.binary main_v1291 main_v1292 main_v1293 (cmpi .sge : (⟨S7x64, .i32⟩ : BufTy).Contents (Elt F) → (⟨S7x64, .i32⟩ : BufTy).Contents (Elt F) → (⟨S7x64, .i1⟩ : BufTy).Contents (Elt F)),
    StableHlo.unary main_v1277 main_v1294 (broadcastInDim S1x64 ![1] bcast_S64_S1x64_1 : (⟨S64, .i32⟩ : BufTy).Contents (Elt F) → (⟨S1x64, .i32⟩ : BufTy).Contents (Elt F)),
    StableHlo.unary main_v1275 main_v1295 (broadcastInDim S7x1 ![0] bcast_S7_S7x1_0 : (⟨S7, .i32⟩ : BufTy).Contents (Elt F) → (⟨S7x1, .i32⟩ : BufTy).Contents (Elt F)),
    StableHlo.unary main_v1294 main_v1296 (broadcastInDim S7x64 ![0, 1] bcast_S1x64_S7x64_0_1 : (⟨S1x64, .i32⟩ : BufTy).Contents (Elt F) → (⟨S7x64, .i32⟩ : BufTy).Contents (Elt F)),
    StableHlo.unary main_v1295 main_v1297 (broadcastInDim S7x64 ![0, 1] bcast_S7x1_S7x64_0_1 : (⟨S7x1, .i32⟩ : BufTy).Contents (Elt F) → (⟨S7x64, .i32⟩ : BufTy).Contents (Elt F)),
    StableHlo.binary main_v1296 main_v1297 main_v1298 (cmpi .slt : (⟨S7x64, .i32⟩ : BufTy).Contents (Elt F) → (⟨S7x64, .i32⟩ : BufTy).Contents (Elt F) → (⟨S7x64, .i1⟩ : BufTy).Contents (Elt F)),
    StableHlo.binary main_v1293 main_v1298 main_v1299 (andi : (⟨S7x64, .i1⟩ : BufTy).Contents (Elt F) → (⟨S7x64, .i1⟩ : BufTy).Contents (Elt F) → (⟨S7x64, .i1⟩ : BufTy).Contents (Elt F)),
    StableHlo.unary main_v1288 main_v1300 (broadcastInDim S7x1x64x1 ![0, 2] bcast_S7x64_S7x1x64x1_0_2 : (⟨S7x64, .i1⟩ : BufTy).Contents (Elt F) → (⟨S7x1x64x1, .i1⟩ : BufTy).Contents (Elt F)),
    StableHlo.unary main_v0 main_v1301 (broadcastInDim S1x512x64x64 ![1, 2, 3] bcast_S512x64x64_S1x512x64x64_1_2_3 : (⟨S512x64x64, .f32⟩ : BufTy).Contents (Elt F) → (⟨S1x512x64x64, .f32⟩ : BufTy).Contents (Elt F)),
    StableHlo.nullary main_cst_162 (constant S_ .f32 0xFF800000#32),
    StableHlo.TRef.unary (.of main_v1300 : StableHlo.TRef sig ⟨S7x1x64x1, .i1⟩) (.of main_call96_v0 : StableHlo.TRef sig ⟨S7x512x64x64, .i1⟩) (broadcastInDim S7x512x64x64 ![0, 1, 2, 3] bcast_S7x1x64x1_S7x512x64x64_0_1_2_3),
    StableHlo.TRef.unary (.of main_v1301 : StableHlo.TRef sig ⟨S1x512x64x64, .f32⟩) (.of main_call96_v1 : StableHlo.TRef sig ⟨S7x512x64x64, .f32⟩) (broadcastInDim S7x512x64x64 ![0, 1, 2, 3] bcast_S1x512x64x64_S7x512x64x64_0_1_2_3),
    StableHlo.TRef.unary (.of main_cst_162 : StableHlo.TRef sig ⟨S_, .f32⟩) (.of main_call96_v2 : StableHlo.TRef sig ⟨S7x512x64x64, .f32⟩) (broadcastInDim S7x512x64x64 ![] bcast_S_S7x512x64x64),
    StableHlo.TRef.ternary (.of main_call96_v0 : StableHlo.TRef sig ⟨S7x512x64x64, .i1⟩) (.of main_call96_v1 : StableHlo.TRef sig ⟨S7x512x64x64, .f32⟩) (.of main_call96_v2 : StableHlo.TRef sig ⟨S7x512x64x64, .f32⟩) (.of main_v1302 : StableHlo.TRef sig ⟨S7x512x64x64, .f32⟩) select,
    StableHlo.nullary main_cst_163 (constant S_ .f32 0xFF800000#32),
    StableHlo.binary main_v1302 main_cst_163 main_v1303 ((fun x v => Host.reduce FloatOps.maximumf x v reducesTo_S7x512x64x64_S7x512x64_d2 h_S_) : (⟨S7x512x64x64, .f32⟩ : BufTy).Contents (Elt F) → (⟨S_, .f32⟩ : BufTy).Contents (Elt F) → (⟨S7x512x64, .f32⟩ : BufTy).Contents (Elt F)),
    StableHlo.unary main_v1299 main_v1304 (broadcastInDim S1x1x7x64 ![2, 3] bcast_S7x64_S1x1x7x64_2_3 : (⟨S7x64, .i1⟩ : BufTy).Contents (Elt F) → (⟨S1x1x7x64, .i1⟩ : BufTy).Contents (Elt F)),
    StableHlo.unary main_v1303 main_v1305 (broadcastInDim S7x512x1x64 ![0, 1, 3] bcast_S7x512x64_S7x512x1x64_0_1_3 : (⟨S7x512x64, .f32⟩ : BufTy).Contents (Elt F) → (⟨S7x512x1x64, .f32⟩ : BufTy).Contents (Elt F)),
    StableHlo.nullary main_cst_164 (constant S_ .f32 0xFF800000#32),
    StableHlo.TRef.unary (.of main_v1304 : StableHlo.TRef sig ⟨S1x1x7x64, .i1⟩) (.of main_call97_v0 : StableHlo.TRef sig ⟨S7x512x7x64, .i1⟩) (broadcastInDim S7x512x7x64 ![0, 1, 2, 3] bcast_S1x1x7x64_S7x512x7x64_0_1_2_3),
    StableHlo.TRef.unary (.of main_v1305 : StableHlo.TRef sig ⟨S7x512x1x64, .f32⟩) (.of main_call97_v1 : StableHlo.TRef sig ⟨S7x512x7x64, .f32⟩) (broadcastInDim S7x512x7x64 ![0, 1, 2, 3] bcast_S7x512x1x64_S7x512x7x64_0_1_2_3),
    StableHlo.TRef.unary (.of main_cst_164 : StableHlo.TRef sig ⟨S_, .f32⟩) (.of main_call97_v2 : StableHlo.TRef sig ⟨S7x512x7x64, .f32⟩) (broadcastInDim S7x512x7x64 ![] bcast_S_S7x512x7x64),
    StableHlo.TRef.ternary (.of main_call97_v0 : StableHlo.TRef sig ⟨S7x512x7x64, .i1⟩) (.of main_call97_v1 : StableHlo.TRef sig ⟨S7x512x7x64, .f32⟩) (.of main_call97_v2 : StableHlo.TRef sig ⟨S7x512x7x64, .f32⟩) (.of main_v1306 : StableHlo.TRef sig ⟨S7x512x7x64, .f32⟩) select ]
/-- The buffers those operations write, in order. -/
abbrev ops49_W : List (Ref sig .tc) :=
  [main_call95_v0, main_call95_v1, main_call95_v2, main_call95_v3, main_call95_v4, main_call95_v5, main_call95_v6, main_call95_v7, main_call95_v8, main_call95_c, main_call95_v9, main_call95_v10, main_call95_v11, main_call95_c_0, main_call95_v12, main_call95_v13, main_v1273, main_v1274, main_v1275, main_v1276, main_v1277, main_v1278, main_v1279, main_v1280, main_v1281, main_v1282, main_v1283, main_v1284, main_v1285, main_v1286, main_v1287, main_v1288, main_v1289, main_v1290, main_v1291, main_v1292, main_v1293, main_v1294, main_v1295, main_v1296, main_v1297, main_v1298, main_v1299, main_v1300, main_v1301, main_cst_162, main_call96_v0, main_call96_v1, main_call96_v2, main_v1302, main_cst_163, main_v1303, main_v1304, main_v1305, main_cst_164, main_call97_v0, main_call97_v1, main_call97_v2, main_v1306]
/-- Each operation writes its own result buffer and nothing else. -/
theorem ops49_writes : (ops49 : List (HloOp τ sig (Elt F))).Forall fun op => op.writes ⊆ (ops49_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact Cert.Agree.wrote (by decide)
/-- Operations 2594 to 2597 of the host part, in order. -/
abbrev ops50 : List (HloOp τ sig (Elt F)) :=
  [ StableHlo.nullary main_cst_165 (constant S_ .f32 0xFF800000#32),
    StableHlo.binary main_v1306 main_cst_165 main_v1307 ((fun x v => Host.reduce FloatOps.maximumf x v reducesTo_S7x512x7x64_S7x512x7_d3 h_S_) : (⟨S7x512x7x64, .f32⟩ : BufTy).Contents (Elt F) → (⟨S_, .f32⟩ : BufTy).Contents (Elt F) → (⟨S7x512x7, .f32⟩ : BufTy).Contents (Elt F)),
    StableHlo.unary main_v1307 main_v1308 ((transpose S512x7x7 [1, 0, 2] · transposes_S7x512x7_S512x7x7_1_0_2) : (⟨S7x512x7, .f32⟩ : BufTy).Contents (Elt F) → (⟨S512x7x7, .f32⟩ : BufTy).Contents (Elt F)),
    StableHlo.reshape main_v1308 main_v1309 rfl shapeCasts_S512x7x7_S25088 ]
/-- The buffers those operations write, in order. -/
abbrev ops50_W : List (Ref sig .tc) :=
  [main_cst_165, main_v1307, main_v1308, main_v1309]
/-- Each operation writes its own result buffer and nothing else. -/
theorem ops50_writes : (ops50 : List (HloOp τ sig (Elt F))).Forall fun op => op.writes ⊆ (ops50_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_⟩ <;> exact Cert.Agree.wrote (by decide)
/-- Operations 2598 to 2598 of the host part, in order. -/
abbrev ops51 : List (HloOp τ sig (Elt F)) :=
  [ StableHlo.nary ![main_v157, main_v385, main_v469, main_v553, main_v637, main_v85] main_v1310 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0) ]
/-- The buffers those operations write, in order. -/
abbrev ops51_W : List (Ref sig .tc) :=
  [main_v1310]
/-- Each operation writes its own result buffer and nothing else. -/
theorem ops51_writes : (ops51 : List (HloOp τ sig (Elt F))).Forall fun op => op.writes ⊆ (ops51_W.map (Proc.devRef (τ := τ) .tc)).toFinset := by
  simp only [List.Forall, StableHlo.nullary_writes, StableHlo.unary_writes, StableHlo.binary_writes, StableHlo.ternary_writes, StableHlo.reshape_writes, StableHlo.nary_writes]
  exact Cert.Agree.wrote (by decide)
/-- Operations 2599 to 2599 of the host part, in order. -/
abbrev ops52 : List (HloOp τ sig (Elt F)) :=
  [ StableHlo.nary ![main_v229, main_v721, main_v805, main_v889, main_v973, main_v85] main_v1311 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0) ]
/-- The buffers those operations write, in order. -/
abbrev ops52_W : List (Ref sig .tc) :=
  [main_v1311]
/-- Each operation writes its own result buffer and nothing else. -/
theorem ops52_writes : (ops52 : List (HloOp τ sig (Elt F))).Forall fun op => op.writes ⊆ (ops52_W.map (Proc.devRef (τ := τ) .tc)).toFinset := by
  simp only [List.Forall, StableHlo.nullary_writes, StableHlo.unary_writes, StableHlo.binary_writes, StableHlo.ternary_writes, StableHlo.reshape_writes, StableHlo.nary_writes]
  exact Cert.Agree.wrote (by decide)
/-- Operations 2600 to 2603 of the host part, in order. -/
abbrev ops53 : List (HloOp τ sig (Elt F)) :=
  [ StableHlo.nary ![main_v301, main_v1057, main_v1141, main_v1225, main_v1309, main_v85] main_v1312 (fun u => concatenate S150528 0 [⟨S25088, u 0⟩, ⟨S25088, u 1⟩, ⟨S25088, u 2⟩, ⟨S25088, u 3⟩, ⟨S25088, u 4⟩, ⟨S25088, u 5⟩] concatenates_S25088_S25088_S25088_S25088_S25088_S25088_S150528_d0),
    StableHlo.unary main_v1310 main_v1313 (broadcastInDim S1x150528 ![1] bcast_S150528_S1x150528_1 : (⟨S150528, .f32⟩ : BufTy).Contents (Elt F) → (⟨S1x150528, .f32⟩ : BufTy).Contents (Elt F)),
    StableHlo.unary main_v1311 main_v1314 (broadcastInDim S1x150528 ![1] bcast_S150528_S1x150528_1 : (⟨S150528, .f32⟩ : BufTy).Contents (Elt F) → (⟨S1x150528, .f32⟩ : BufTy).Contents (Elt F)),
    StableHlo.unary main_v1312 main_v1315 (broadcastInDim S1x150528 ![1] bcast_S150528_S1x150528_1 : (⟨S150528, .f32⟩ : BufTy).Contents (Elt F) → (⟨S1x150528, .f32⟩ : BufTy).Contents (Elt F)) ]
/-- The buffers those operations write, in order. -/
abbrev ops53_W : List (Ref sig .tc) :=
  [main_v1312, main_v1313, main_v1314, main_v1315]
/-- Each operation writes its own result buffer and nothing else. -/
theorem ops53_writes : (ops53 : List (HloOp τ sig (Elt F))).Forall fun op => op.writes ⊆ (ops53_W.map (Proc.devRef (τ := τ) .tc)).toFinset := by
  simp only [List.Forall, StableHlo.nullary_writes, StableHlo.unary_writes, StableHlo.binary_writes, StableHlo.ternary_writes, StableHlo.reshape_writes, StableHlo.nary_writes]
  refine ⟨?_, ?_, ?_, ?_⟩ <;> exact Cert.Agree.wrote (by decide)
/-- Operations 2604 to 2604 of the host part, in order. -/
abbrev ops54 : List (HloOp τ sig (Elt F)) :=
  [ StableHlo.nary ![main_v1313, main_v1314, main_v1315] main_v1316 (fun u => concatenate S3x150528 0 [⟨S1x150528, u 0⟩, ⟨S1x150528, u 1⟩, ⟨S1x150528, u 2⟩] concatenates_S1x150528_S1x150528_S1x150528_S3x150528_d0) ]
/-- The buffers those operations write, in order. -/
abbrev ops54_W : List (Ref sig .tc) :=
  [main_v1316]
/-- Each operation writes its own result buffer and nothing else. -/
theorem ops54_writes : (ops54 : List (HloOp τ sig (Elt F))).Forall fun op => op.writes ⊆ (ops54_W.map (Proc.devRef (τ := τ) .tc)).toFinset := by
  simp only [List.Forall, StableHlo.nullary_writes, StableHlo.unary_writes, StableHlo.binary_writes, StableHlo.ternary_writes, StableHlo.reshape_writes, StableHlo.nary_writes]
  exact Cert.Agree.wrote (by decide)
/-- This part's runs, one after the other. -/
abbrev part7 : List (HloOp τ sig (Elt F)) :=
  ops44 ++ ops45 ++ ops46 ++ ops47 ++ ops48 ++ ops49 ++ ops50 ++ ops51 ++ ops52 ++ ops53 ++ ops54
end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- One buffer after a run, on both sides: each side's contents are unfolded operation by operation down to the live
    buffers the run found, those are rewritten by the agreement before the run, and what is left is one term spelled
    in two namespaces. -/
local macro "run_agrees" "[" hs:Lean.Parser.Tactic.simpLemma,* "]" : tactic =>
  `(tactic| (after_results_simp; first | done | (simp only [$hs,*]; first | done | rfl) | rfl))

set_option maxHeartbeats 800000 in
/-- Run 44 (operations 2266 to 2322): agreement on the 17 buffers live before it gives agreement on the 24 live after it. -/
theorem step44
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1138) = WR (Proc.devRef .tc Cert.ReferenceIdeal.main_v1138)) :
    (after (Cert.KernelIdeal.Agree.ops44 (F := F)) WK) (Proc.devRef .tc Cert.KernelIdeal.main_v0) = (after (Cert.ReferenceIdeal.Agree.ops44 (F := F)) WR) (Proc.devRef .tc Cert.ReferenceIdeal.main_v0)
      ∧ (after (Cert.KernelIdeal.Agree.ops44 (F := F)) WK) (Proc.devRef .tc Cert.KernelIdeal.main_v18) = (after (Cert.ReferenceIdeal.Agree.ops44 (F := F)) WR) (Proc.devRef .tc Cert.ReferenceIdeal.main_v18)
      ∧ (after (Cert.KernelIdeal.Agree.ops44 (F := F)) WK) (Proc.devRef .tc Cert.KernelIdeal.main_v23) = (after (Cert.ReferenceIdeal.Agree.ops44 (F := F)) WR) (Proc.devRef .tc Cert.ReferenceIdeal.main_v23)
      ∧ (after (Cert.KernelIdeal.Agree.ops44 (F := F)) WK) (Proc.devRef .tc Cert.KernelIdeal.main_v85) = (after (Cert.ReferenceIdeal.Agree.ops44 (F := F)) WR) (Proc.devRef .tc Cert.ReferenceIdeal.main_v85)
      ∧ (after (Cert.KernelIdeal.Agree.ops44 (F := F)) WK) (Proc.devRef .tc Cert.KernelIdeal.main_v157) = (after (Cert.ReferenceIdeal.Agree.ops44 (F := F)) WR) (Proc.devRef .tc Cert.ReferenceIdeal.main_v157)
      ∧ (after (Cert.KernelIdeal.Agree.ops44 (F := F)) WK) (Proc.devRef .tc Cert.KernelIdeal.main_v229) = (after (Cert.ReferenceIdeal.Agree.ops44 (F := F)) WR) (Proc.devRef .tc Cert.ReferenceIdeal.main_v229)
      ∧ (after (Cert.KernelIdeal.Agree.ops44 (F := F)) WK) (Proc.devRef .tc Cert.KernelIdeal.main_v301) = (after (Cert.ReferenceIdeal.Agree.ops44 (F := F)) WR) (Proc.devRef .tc Cert.ReferenceIdeal.main_v301)
      ∧ (after (Cert.KernelIdeal.Agree.ops44 (F := F)) WK) (Proc.devRef .tc Cert.KernelIdeal.main_v385) = (after (Cert.ReferenceIdeal.Agree.ops44 (F := F)) WR) (Proc.devRef .tc Cert.ReferenceIdeal.main_v385)
      ∧ (after (Cert.KernelIdeal.Agree.ops44 (F := F)) WK) (Proc.devRef .tc Cert.KernelIdeal.main_v469) = (after (Cert.ReferenceIdeal.Agree.ops44 (F := F)) WR) (Proc.devRef .tc Cert.ReferenceIdeal.main_v469)
      ∧ (after (Cert.KernelIdeal.Agree.ops44 (F := F)) WK) (Proc.devRef .tc Cert.KernelIdeal.main_v553) = (after (Cert.ReferenceIdeal.Agree.ops44 (F := F)) WR) (Proc.devRef .tc Cert.ReferenceIdeal.main_v553)
      ∧ (after (Cert.KernelIdeal.Agree.ops44 (F := F)) WK) (Proc.devRef .tc Cert.KernelIdeal.main_v637) = (after (Cert.ReferenceIdeal.Agree.ops44 (F := F)) WR) (Proc.devRef .tc Cert.ReferenceIdeal.main_v637)
      ∧ (after (Cert.KernelIdeal.Agree.ops44 (F := F)) WK) (Proc.devRef .tc Cert.KernelIdeal.main_v721) = (after (Cert.ReferenceIdeal.Agree.ops44 (F := F)) WR) (Proc.devRef .tc Cert.ReferenceIdeal.main_v721)
      ∧ (after (Cert.KernelIdeal.Agree.ops44 (F := F)) WK) (Proc.devRef .tc Cert.KernelIdeal.main_v805) = (after (Cert.ReferenceIdeal.Agree.ops44 (F := F)) WR) (Proc.devRef .tc Cert.ReferenceIdeal.main_v805)
      ∧ (after (Cert.KernelIdeal.Agree.ops44 (F := F)) WK) (Proc.devRef .tc Cert.KernelIdeal.main_v889) = (after (Cert.ReferenceIdeal.Agree.ops44 (F := F)) WR) (Proc.devRef .tc Cert.ReferenceIdeal.main_v889)
      ∧ (after (Cert.KernelIdeal.Agree.ops44 (F := F)) WK) (Proc.devRef .tc Cert.KernelIdeal.main_v973) = (after (Cert.ReferenceIdeal.Agree.ops44 (F := F)) WR) (Proc.devRef .tc Cert.ReferenceIdeal.main_v973)
      ∧ (after (Cert.KernelIdeal.Agree.ops44 (F := F)) WK) (Proc.devRef .tc Cert.KernelIdeal.main_v1057) = (after (Cert.ReferenceIdeal.Agree.ops44 (F := F)) WR) (Proc.devRef .tc Cert.ReferenceIdeal.main_v1057)
      ∧ (after (Cert.KernelIdeal.Agree.ops44 (F := F)) WK) (Proc.devRef .tc Cert.KernelIdeal.main_v1141) = (after (Cert.ReferenceIdeal.Agree.ops44 (F := F)) WR) (Proc.devRef .tc Cert.ReferenceIdeal.main_v1141)
      ∧ (after (Cert.KernelIdeal.Agree.ops44 (F := F)) WK) (Proc.devRef .tc Cert.KernelIdeal.main_v1146) = (after (Cert.ReferenceIdeal.Agree.ops44 (F := F)) WR) (Proc.devRef .tc Cert.ReferenceIdeal.main_v1146)
      ∧ (after (Cert.KernelIdeal.Agree.ops44 (F := F)) WK) (Proc.devRef .tc Cert.KernelIdeal.main_v1156) = (after (Cert.ReferenceIdeal.Agree.ops44 (F := F)) WR) (Proc.devRef .tc Cert.ReferenceIdeal.main_v1156)
      ∧ (after (Cert.KernelIdeal.Agree.ops44 (F := F)) WK) (Proc.devRef .tc Cert.KernelIdeal.main_v1163) = (after (Cert.ReferenceIdeal.Agree.ops44 (F := F)) WR) (Proc.devRef .tc Cert.ReferenceIdeal.main_v1163)
      ∧ (after (Cert.KernelIdeal.Agree.ops44 (F := F)) WK) (Proc.devRef .tc Cert.KernelIdeal.main_v1165) = (after (Cert.ReferenceIdeal.Agree.ops44 (F := F)) WR) (Proc.devRef .tc Cert.ReferenceIdeal.main_v1165)
      ∧ (after (Cert.KernelIdeal.Agree.ops44 (F := F)) WK) (Proc.devRef .tc Cert.KernelIdeal.main_v1170) = (after (Cert.ReferenceIdeal.Agree.ops44 (F := F)) WR) (Proc.devRef .tc Cert.ReferenceIdeal.main_v1170)
      ∧ (after (Cert.KernelIdeal.Agree.ops44 (F := F)) WK) (Proc.devRef .tc Cert.KernelIdeal.main_v1175) = (after (Cert.ReferenceIdeal.Agree.ops44 (F := F)) WR) (Proc.devRef .tc Cert.ReferenceIdeal.main_v1175)
      ∧ (after (Cert.KernelIdeal.Agree.ops44 (F := F)) WK) (Proc.devRef .tc Cert.KernelIdeal.main_c_148) = (after (Cert.ReferenceIdeal.Agree.ops44 (F := F)) WR) (Proc.devRef .tc Cert.ReferenceIdeal.main_c_148) := by
  obtain ⟨h_v0, h_v18, h_v23, h_v85, h_v157, h_v229, h_v301, h_v385, h_v469, h_v553, h_v637, h_v721, h_v805, h_v889, h_v973, h_v1057, h_v1138⟩ := h
  refine ⟨?_, ?_, ?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops44_writes (by decide)).trans (h_v0.trans (after_of_writes_sub _ WR Cert.ReferenceIdeal.Agree.ops44_writes (by decide)).symm)
  · exact (after_of_writes_sub _ WK Cert.KernelIdeal.Agree.ops44_writes (by decide)).trans (h_v18.trans (after_of_writes_sub _ WR Cert.ReferenceIdeal.Agree.ops44_writes (by decide)).symm)
  · exact (after_of_writes_sub _ WK Cert.KernelIdeal.Agree.ops44_writes (by decide)).trans (h_v23.trans (after_of_writes_sub _ WR Cert.ReferenceIdeal.Agree.ops44_writes (by decide)).symm)
  · exact (after_of_writes_sub _ WK Cert.KernelIdeal.Agree.ops44_writes (by decide)).trans (h_v85.trans (after_of_writes_sub _ WR Cert.ReferenceIdeal.Agree.ops44_writes (by decide)).symm)
  · exact (after_of_writes_sub _ WK Cert.KernelIdeal.Agree.ops44_writes (by decide)).trans (h_v157.trans (after_of_writes_sub _ WR Cert.ReferenceIdeal.Agree.ops44_writes (by decide)).symm)
  · exact (after_of_writes_sub _ WK Cert.KernelIdeal.Agree.ops44_writes (by decide)).trans (h_v229.trans (after_of_writes_sub _ WR Cert.ReferenceIdeal.Agree.ops44_writes (by decide)).symm)
  · exact (after_of_writes_sub _ WK Cert.KernelIdeal.Agree.ops44_writes (by decide)).trans (h_v301.trans (after_of_writes_sub _ WR Cert.ReferenceIdeal.Agree.ops44_writes (by decide)).symm)
  · exact (after_of_writes_sub _ WK Cert.KernelIdeal.Agree.ops44_writes (by decide)).trans (h_v385.trans (after_of_writes_sub _ WR Cert.ReferenceIdeal.Agree.ops44_writes (by decide)).symm)
  · exact (after_of_writes_sub _ WK Cert.KernelIdeal.Agree.ops44_writes (by decide)).trans (h_v469.trans (after_of_writes_sub _ WR Cert.ReferenceIdeal.Agree.ops44_writes (by decide)).symm)
  · exact (after_of_writes_sub _ WK Cert.KernelIdeal.Agree.ops44_writes (by decide)).trans (h_v553.trans (after_of_writes_sub _ WR Cert.ReferenceIdeal.Agree.ops44_writes (by decide)).symm)
  · exact (after_of_writes_sub _ WK Cert.KernelIdeal.Agree.ops44_writes (by decide)).trans (h_v637.trans (after_of_writes_sub _ WR Cert.ReferenceIdeal.Agree.ops44_writes (by decide)).symm)
  · exact (after_of_writes_sub _ WK Cert.KernelIdeal.Agree.ops44_writes (by decide)).trans (h_v721.trans (after_of_writes_sub _ WR Cert.ReferenceIdeal.Agree.ops44_writes (by decide)).symm)
  · exact (after_of_writes_sub _ WK Cert.KernelIdeal.Agree.ops44_writes (by decide)).trans (h_v805.trans (after_of_writes_sub _ WR Cert.ReferenceIdeal.Agree.ops44_writes (by decide)).symm)
  · exact (after_of_writes_sub _ WK Cert.KernelIdeal.Agree.ops44_writes (by decide)).trans (h_v889.trans (after_of_writes_sub _ WR Cert.ReferenceIdeal.Agree.ops44_writes (by decide)).symm)
  · exact (after_of_writes_sub _ WK Cert.KernelIdeal.Agree.ops44_writes (by decide)).trans (h_v973.trans (after_of_writes_sub _ WR Cert.ReferenceIdeal.Agree.ops44_writes (by decide)).symm)
  · exact (after_of_writes_sub _ WK Cert.KernelIdeal.Agree.ops44_writes (by decide)).trans (h_v1057.trans (after_of_writes_sub _ WR Cert.ReferenceIdeal.Agree.ops44_writes (by decide)).symm)
  · run_agrees [h_v1138]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 45 (operations 2323 to 2370): agreement on the 24 buffers live before it gives agreement on the 23 live after it. -/
theorem step45
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1146) = WR (Proc.devRef .tc Cert.ReferenceIdeal.main_v1146)
      ∧ WK (Proc.devRef .tc Cert.KernelIdeal.main_v1156) = WR (Proc.devRef .tc Cert.ReferenceIdeal.main_v1156)
      ∧ WK (Proc.devRef .tc Cert.KernelIdeal.main_v1163) = WR (Proc.devRef .tc Cert.ReferenceIdeal.main_v1163)
      ∧ WK (Proc.devRef .tc Cert.KernelIdeal.main_v1165) = WR (Proc.devRef .tc Cert.ReferenceIdeal.main_v1165)
      ∧ WK (Proc.devRef .tc Cert.KernelIdeal.main_v1170) = WR (Proc.devRef .tc Cert.ReferenceIdeal.main_v1170)
      ∧ WK (Proc.devRef .tc Cert.KernelIdeal.main_v1175) = WR (Proc.devRef .tc Cert.ReferenceIdeal.main_v1175)
      ∧ WK (Proc.devRef .tc Cert.KernelIdeal.main_c_148) = WR (Proc.devRef .tc Cert.ReferenceIdeal.main_c_148)) :
    (after (Cert.KernelIdeal.Agree.ops45 (F := F)) WK) (Proc.devRef .tc Cert.KernelIdeal.main_v0) = (after (Cert.ReferenceIdeal.Agree.ops45 (F := F)) WR) (Proc.devRef .tc Cert.ReferenceIdeal.main_v0)
      ∧ (after (Cert.KernelIdeal.Agree.ops45 (F := F)) WK) (Proc.devRef .tc Cert.KernelIdeal.main_v18) = (after (Cert.ReferenceIdeal.Agree.ops45 (F := F)) WR) (Proc.devRef .tc Cert.ReferenceIdeal.main_v18)
      ∧ (after (Cert.KernelIdeal.Agree.ops45 (F := F)) WK) (Proc.devRef .tc Cert.KernelIdeal.main_v23) = (after (Cert.ReferenceIdeal.Agree.ops45 (F := F)) WR) (Proc.devRef .tc Cert.ReferenceIdeal.main_v23)
      ∧ (after (Cert.KernelIdeal.Agree.ops45 (F := F)) WK) (Proc.devRef .tc Cert.KernelIdeal.main_v85) = (after (Cert.ReferenceIdeal.Agree.ops45 (F := F)) WR) (Proc.devRef .tc Cert.ReferenceIdeal.main_v85)
      ∧ (after (Cert.KernelIdeal.Agree.ops45 (F := F)) WK) (Proc.devRef .tc Cert.KernelIdeal.main_v157) = (after (Cert.ReferenceIdeal.Agree.ops45 (F := F)) WR) (Proc.devRef .tc Cert.ReferenceIdeal.main_v157)
      ∧ (after (Cert.KernelIdeal.Agree.ops45 (F := F)) WK) (Proc.devRef .tc Cert.KernelIdeal.main_v229) = (after (Cert.ReferenceIdeal.Agree.ops45 (F := F)) WR) (Proc.devRef .tc Cert.ReferenceIdeal.main_v229)
      ∧ (after (Cert.KernelIdeal.Agree.ops45 (F := F)) WK) (Proc.devRef .tc Cert.KernelIdeal.main_v301) = (after (Cert.ReferenceIdeal.Agree.ops45 (F := F)) WR) (Proc.devRef .tc Cert.ReferenceIdeal.main_v301)
      ∧ (after (Cert.KernelIdeal.Agree.ops45 (F := F)) WK) (Proc.devRef .tc Cert.KernelIdeal.main_v385) = (after (Cert.ReferenceIdeal.Agree.ops45 (F := F)) WR) (Proc.devRef .tc Cert.ReferenceIdeal.main_v385)
      ∧ (after (Cert.KernelIdeal.Agree.ops45 (F := F)) WK) (Proc.devRef .tc Cert.KernelIdeal.main_v469) = (after (Cert.ReferenceIdeal.Agree.ops45 (F := F)) WR) (Proc.devRef .tc Cert.ReferenceIdeal.main_v469)
      ∧ (after (Cert.KernelIdeal.Agree.ops45 (F := F)) WK) (Proc.devRef .tc Cert.KernelIdeal.main_v553) = (after (Cert.ReferenceIdeal.Agree.ops45 (F := F)) WR) (Proc.devRef .tc Cert.ReferenceIdeal.main_v553)
      ∧ (after (Cert.KernelIdeal.Agree.ops45 (F := F)) WK) (Proc.devRef .tc Cert.KernelIdeal.main_v637) = (after (Cert.ReferenceIdeal.Agree.ops45 (F := F)) WR) (Proc.devRef .tc Cert.ReferenceIdeal.main_v637)
      ∧ (after (Cert.KernelIdeal.Agree.ops45 (F := F)) WK) (Proc.devRef .tc Cert.KernelIdeal.main_v721) = (after (Cert.ReferenceIdeal.Agree.ops45 (F := F)) WR) (Proc.devRef .tc Cert.ReferenceIdeal.main_v721)
      ∧ (after (Cert.KernelIdeal.Agree.ops45 (F := F)) WK) (Proc.devRef .tc Cert.KernelIdeal.main_v805) = (after (Cert.ReferenceIdeal.Agree.ops45 (F := F)) WR) (Proc.devRef .tc Cert.ReferenceIdeal.main_v805)
      ∧ (after (Cert.KernelIdeal.Agree.ops45 (F := F)) WK) (Proc.devRef .tc Cert.KernelIdeal.main_v889) = (after (Cert.ReferenceIdeal.Agree.ops45 (F := F)) WR) (Proc.devRef .tc Cert.ReferenceIdeal.main_v889)
      ∧ (after (Cert.KernelIdeal.Agree.ops45 (F := F)) WK) (Proc.devRef .tc Cert.KernelIdeal.main_v973) = (after (Cert.ReferenceIdeal.Agree.ops45 (F := F)) WR) (Proc.devRef .tc Cert.ReferenceIdeal.main_v973)
      ∧ (after (Cert.KernelIdeal.Agree.ops45 (F := F)) WK) (Proc.devRef .tc Cert.KernelIdeal.main_v1057) = (after (Cert.ReferenceIdeal.Agree.ops45 (F := F)) WR) (Proc.devRef .tc Cert.ReferenceIdeal.main_v1057)
      ∧ (after (Cert.KernelIdeal.Agree.ops45 (F := F)) WK) (Proc.devRef .tc Cert.KernelIdeal.main_v1141) = (after (Cert.ReferenceIdeal.Agree.ops45 (F := F)) WR) (Proc.devRef .tc Cert.ReferenceIdeal.main_v1141)
      ∧ (after (Cert.KernelIdeal.Agree.ops45 (F := F)) WK) (Proc.devRef .tc Cert.KernelIdeal.main_v1156) = (after (Cert.ReferenceIdeal.Agree.ops45 (F := F)) WR) (Proc.devRef .tc Cert.ReferenceIdeal.main_v1156)
      ∧ (after (Cert.KernelIdeal.Agree.ops45 (F := F)) WK) (Proc.devRef .tc Cert.KernelIdeal.main_v1170) = (after (Cert.ReferenceIdeal.Agree.ops45 (F := F)) WR) (Proc.devRef .tc Cert.ReferenceIdeal.main_v1170)
      ∧ (after (Cert.KernelIdeal.Agree.ops45 (F := F)) WK) (Proc.devRef .tc Cert.KernelIdeal.main_v1178) = (after (Cert.ReferenceIdeal.Agree.ops45 (F := F)) WR) (Proc.devRef .tc Cert.ReferenceIdeal.main_v1178)
      ∧ (after (Cert.KernelIdeal.Agree.ops45 (F := F)) WK) (Proc.devRef .tc Cert.KernelIdeal.main_v1183) = (after (Cert.ReferenceIdeal.Agree.ops45 (F := F)) WR) (Proc.devRef .tc Cert.ReferenceIdeal.main_v1183)
      ∧ (after (Cert.KernelIdeal.Agree.ops45 (F := F)) WK) (Proc.devRef .tc Cert.KernelIdeal.main_v1188) = (after (Cert.ReferenceIdeal.Agree.ops45 (F := F)) WR) (Proc.devRef .tc Cert.ReferenceIdeal.main_v1188)
      ∧ (after (Cert.KernelIdeal.Agree.ops45 (F := F)) WK) (Proc.devRef .tc Cert.KernelIdeal.main_c_151) = (after (Cert.ReferenceIdeal.Agree.ops45 (F := F)) WR) (Proc.devRef .tc Cert.ReferenceIdeal.main_c_151) := by
  obtain ⟨h_v0, h_v18, h_v23, h_v85, h_v157, h_v229, h_v301, h_v385, h_v469, h_v553, h_v637, h_v721, h_v805, h_v889, h_v973, h_v1057, h_v1141, h_v1146, h_v1156, h_v1163, h_v1165, h_v1170, h_v1175, h_c_148⟩ := h
  refine ⟨?_, ?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops45_writes (by decide)).trans (h_v0.trans (after_of_writes_sub _ WR Cert.ReferenceIdeal.Agree.ops45_writes (by decide)).symm)
  · exact (after_of_writes_sub _ WK Cert.KernelIdeal.Agree.ops45_writes (by decide)).trans (h_v18.trans (after_of_writes_sub _ WR Cert.ReferenceIdeal.Agree.ops45_writes (by decide)).symm)
  · exact (after_of_writes_sub _ WK Cert.KernelIdeal.Agree.ops45_writes (by decide)).trans (h_v23.trans (after_of_writes_sub _ WR Cert.ReferenceIdeal.Agree.ops45_writes (by decide)).symm)
  · exact (after_of_writes_sub _ WK Cert.KernelIdeal.Agree.ops45_writes (by decide)).trans (h_v85.trans (after_of_writes_sub _ WR Cert.ReferenceIdeal.Agree.ops45_writes (by decide)).symm)
  · exact (after_of_writes_sub _ WK Cert.KernelIdeal.Agree.ops45_writes (by decide)).trans (h_v157.trans (after_of_writes_sub _ WR Cert.ReferenceIdeal.Agree.ops45_writes (by decide)).symm)
  · exact (after_of_writes_sub _ WK Cert.KernelIdeal.Agree.ops45_writes (by decide)).trans (h_v229.trans (after_of_writes_sub _ WR Cert.ReferenceIdeal.Agree.ops45_writes (by decide)).symm)
  · exact (after_of_writes_sub _ WK Cert.KernelIdeal.Agree.ops45_writes (by decide)).trans (h_v301.trans (after_of_writes_sub _ WR Cert.ReferenceIdeal.Agree.ops45_writes (by decide)).symm)
  · exact (after_of_writes_sub _ WK Cert.KernelIdeal.Agree.ops45_writes (by decide)).trans (h_v385.trans (after_of_writes_sub _ WR Cert.ReferenceIdeal.Agree.ops45_writes (by decide)).symm)
  · exact (after_of_writes_sub _ WK Cert.KernelIdeal.Agree.ops45_writes (by decide)).trans (h_v469.trans (after_of_writes_sub _ WR Cert.ReferenceIdeal.Agree.ops45_writes (by decide)).symm)
  · exact (after_of_writes_sub _ WK Cert.KernelIdeal.Agree.ops45_writes (by decide)).trans (h_v553.trans (after_of_writes_sub _ WR Cert.ReferenceIdeal.Agree.ops45_writes (by decide)).symm)
  · exact (after_of_writes_sub _ WK Cert.KernelIdeal.Agree.ops45_writes (by decide)).trans (h_v637.trans (after_of_writes_sub _ WR Cert.ReferenceIdeal.Agree.ops45_writes (by decide)).symm)
  · exact (after_of_writes_sub _ WK Cert.KernelIdeal.Agree.ops45_writes (by decide)).trans (h_v721.trans (after_of_writes_sub _ WR Cert.ReferenceIdeal.Agree.ops45_writes (by decide)).symm)
  · exact (after_of_writes_sub _ WK Cert.KernelIdeal.Agree.ops45_writes (by decide)).trans (h_v805.trans (after_of_writes_sub _ WR Cert.ReferenceIdeal.Agree.ops45_writes (by decide)).symm)
  · exact (after_of_writes_sub _ WK Cert.KernelIdeal.Agree.ops45_writes (by decide)).trans (h_v889.trans (after_of_writes_sub _ WR Cert.ReferenceIdeal.Agree.ops45_writes (by decide)).symm)
  · exact (after_of_writes_sub _ WK Cert.KernelIdeal.Agree.ops45_writes (by decide)).trans (h_v973.trans (after_of_writes_sub _ WR Cert.ReferenceIdeal.Agree.ops45_writes (by decide)).symm)
  · exact (after_of_writes_sub _ WK Cert.KernelIdeal.Agree.ops45_writes (by decide)).trans (h_v1057.trans (after_of_writes_sub _ WR Cert.ReferenceIdeal.Agree.ops45_writes (by decide)).symm)
  · exact (after_of_writes_sub _ WK Cert.KernelIdeal.Agree.ops45_writes (by decide)).trans (h_v1141.trans (after_of_writes_sub _ WR Cert.ReferenceIdeal.Agree.ops45_writes (by decide)).symm)
  · exact (after_of_writes_sub _ WK Cert.KernelIdeal.Agree.ops45_writes (by decide)).trans (h_v1156.trans (after_of_writes_sub _ WR Cert.ReferenceIdeal.Agree.ops45_writes (by decide)).symm)
  · exact (after_of_writes_sub _ WK Cert.KernelIdeal.Agree.ops45_writes (by decide)).trans (h_v1170.trans (after_of_writes_sub _ WR Cert.ReferenceIdeal.Agree.ops45_writes (by decide)).symm)
  · run_agrees [h_v1146, h_v1175, h_c_148]
  · run_agrees [h_v1156, h_v1163, h_v1165]
  · run_agrees [h_v1163, h_v1165]
  · after_results_simp; first | done | rfl

set_option maxHeartbeats 800000 in
/-- Run 46 (operations 2371 to 2429): agreement on the 23 buffers live before it gives agreement on the 18 live after it. -/
theorem step46
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1156) = WR (Proc.devRef .tc Cert.ReferenceIdeal.main_v1156)
      ∧ WK (Proc.devRef .tc Cert.KernelIdeal.main_v1170) = WR (Proc.devRef .tc Cert.ReferenceIdeal.main_v1170)
      ∧ WK (Proc.devRef .tc Cert.KernelIdeal.main_v1178) = WR (Proc.devRef .tc Cert.ReferenceIdeal.main_v1178)
      ∧ WK (Proc.devRef .tc Cert.KernelIdeal.main_v1183) = WR (Proc.devRef .tc Cert.ReferenceIdeal.main_v1183)
      ∧ WK (Proc.devRef .tc Cert.KernelIdeal.main_v1188) = WR (Proc.devRef .tc Cert.ReferenceIdeal.main_v1188)
      ∧ WK (Proc.devRef .tc Cert.KernelIdeal.main_c_151) = WR (Proc.devRef .tc Cert.ReferenceIdeal.main_c_151)) :
    (after (Cert.KernelIdeal.Agree.ops46 (F := F)) WK) (Proc.devRef .tc Cert.KernelIdeal.main_v0) = (after (Cert.ReferenceIdeal.Agree.ops46 (F := F)) WR) (Proc.devRef .tc Cert.ReferenceIdeal.main_v0)
      ∧ (after (Cert.KernelIdeal.Agree.ops46 (F := F)) WK) (Proc.devRef .tc Cert.KernelIdeal.main_v18) = (after (Cert.ReferenceIdeal.Agree.ops46 (F := F)) WR) (Proc.devRef .tc Cert.ReferenceIdeal.main_v18)
      ∧ (after (Cert.KernelIdeal.Agree.ops46 (F := F)) WK) (Proc.devRef .tc Cert.KernelIdeal.main_v23) = (after (Cert.ReferenceIdeal.Agree.ops46 (F := F)) WR) (Proc.devRef .tc Cert.ReferenceIdeal.main_v23)
      ∧ (after (Cert.KernelIdeal.Agree.ops46 (F := F)) WK) (Proc.devRef .tc Cert.KernelIdeal.main_v85) = (after (Cert.ReferenceIdeal.Agree.ops46 (F := F)) WR) (Proc.devRef .tc Cert.ReferenceIdeal.main_v85)
      ∧ (after (Cert.KernelIdeal.Agree.ops46 (F := F)) WK) (Proc.devRef .tc Cert.KernelIdeal.main_v157) = (after (Cert.ReferenceIdeal.Agree.ops46 (F := F)) WR) (Proc.devRef .tc Cert.ReferenceIdeal.main_v157)
      ∧ (after (Cert.KernelIdeal.Agree.ops46 (F := F)) WK) (Proc.devRef .tc Cert.KernelIdeal.main_v229) = (after (Cert.ReferenceIdeal.Agree.ops46 (F := F)) WR) (Proc.devRef .tc Cert.ReferenceIdeal.main_v229)
      ∧ (after (Cert.KernelIdeal.Agree.ops46 (F := F)) WK) (Proc.devRef .tc Cert.KernelIdeal.main_v301) = (after (Cert.ReferenceIdeal.Agree.ops46 (F := F)) WR) (Proc.devRef .tc Cert.ReferenceIdeal.main_v301)
      ∧ (after (Cert.KernelIdeal.Agree.ops46 (F := F)) WK) (Proc.devRef .tc Cert.KernelIdeal.main_v385) = (after (Cert.ReferenceIdeal.Agree.ops46 (F := F)) WR) (Proc.devRef .tc Cert.ReferenceIdeal.main_v385)
      ∧ (after (Cert.KernelIdeal.Agree.ops46 (F := F)) WK) (Proc.devRef .tc Cert.KernelIdeal.main_v469) = (after (Cert.ReferenceIdeal.Agree.ops46 (F := F)) WR) (Proc.devRef .tc Cert.ReferenceIdeal.main_v469)
      ∧ (after (Cert.KernelIdeal.Agree.ops46 (F := F)) WK) (Proc.devRef .tc Cert.KernelIdeal.main_v553) = (after (Cert.ReferenceIdeal.Agree.ops46 (F := F)) WR) (Proc.devRef .tc Cert.ReferenceIdeal.main_v553)
      ∧ (after (Cert.KernelIdeal.Agree.ops46 (F := F)) WK) (Proc.devRef .tc Cert.KernelIdeal.main_v637) = (after (Cert.ReferenceIdeal.Agree.ops46 (F := F)) WR) (Proc.devRef .tc Cert.ReferenceIdeal.main_v637)
      ∧ (after (Cert.KernelIdeal.Agree.ops46 (F := F)) WK) (Proc.devRef .tc Cert.KernelIdeal.main_v721) = (after (Cert.ReferenceIdeal.Agree.ops46 (F := F)) WR) (Proc.devRef .tc Cert.ReferenceIdeal.main_v721)
      ∧ (after (Cert.KernelIdeal.Agree.ops46 (F := F)) WK) (Proc.devRef .tc Cert.KernelIdeal.main_v805) = (after (Cert.ReferenceIdeal.Agree.ops46 (F := F)) WR) (Proc.devRef .tc Cert.ReferenceIdeal.main_v805)
      ∧ (after (Cert.KernelIdeal.Agree.ops46 (F := F)) WK) (Proc.devRef .tc Cert.KernelIdeal.main_v889) = (after (Cert.ReferenceIdeal.Agree.ops46 (F := F)) WR) (Proc.devRef .tc Cert.ReferenceIdeal.main_v889)
      ∧ (after (Cert.KernelIdeal.Agree.ops46 (F := F)) WK) (Proc.devRef .tc Cert.KernelIdeal.main_v973) = (after (Cert.ReferenceIdeal.Agree.ops46 (F := F)) WR) (Proc.devRef .tc Cert.ReferenceIdeal.main_v973)
      ∧ (after (Cert.KernelIdeal.Agree.ops46 (F := F)) WK) (Proc.devRef .tc Cert.KernelIdeal.main_v1057) = (after (Cert.ReferenceIdeal.Agree.ops46 (F := F)) WR) (Proc.devRef .tc Cert.ReferenceIdeal.main_v1057)
      ∧ (after (Cert.KernelIdeal.Agree.ops46 (F := F)) WK) (Proc.devRef .tc Cert.KernelIdeal.main_v1141) = (after (Cert.ReferenceIdeal.Agree.ops46 (F := F)) WR) (Proc.devRef .tc Cert.ReferenceIdeal.main_v1141)
      ∧ (after (Cert.KernelIdeal.Agree.ops46 (F := F)) WK) (Proc.devRef .tc Cert.KernelIdeal.main_v1222) = (after (Cert.ReferenceIdeal.Agree.ops46 (F := F)) WR) (Proc.devRef .tc Cert.ReferenceIdeal.main_v1222) := by
  obtain ⟨h_v0, h_v18, h_v23, h_v85, h_v157, h_v229, h_v301, h_v385, h_v469, h_v553, h_v637, h_v721, h_v805, h_v889, h_v973, h_v1057, h_v1141, h_v1156, h_v1170, h_v1178, h_v1183, h_v1188, h_c_151⟩ := h
  refine ⟨?_, ?_, ?_, ?_, ?_, ?_, ?_, ?_, ?_, ?_, ?_, ?_, ?_, ?_, ?_, ?_, ?_, ?_⟩
  · exact (after_of_writes_sub _ WK Cert.KernelIdeal.Agree.ops46_writes (by decide)).trans (h_v0.trans (after_of_writes_sub _ WR Cert.ReferenceIdeal.Agree.ops46_writes (by decide)).symm)
  · exact (after_of_writes_sub _ WK Cert.KernelIdeal.Agree.ops46_writes (by decide)).trans (h_v18.trans (after_of_writes_sub _ WR Cert.ReferenceIdeal.Agree.ops46_writes (by decide)).symm)
  · exact (after_of_writes_sub _ WK Cert.KernelIdeal.Agree.ops46_writes (by decide)).trans (h_v23.trans (after_of_writes_sub _ WR Cert.ReferenceIdeal.Agree.ops46_writes (by decide)).symm)
  · exact (after_of_writes_sub _ WK Cert.KernelIdeal.Agree.ops46_writes (by decide)).trans (h_v85.trans (after_of_writes_sub _ WR Cert.ReferenceIdeal.Agree.ops46_writes (by decide)).symm)
  · exact (after_of_writes_sub _ WK Cert.KernelIdeal.Agree.ops46_writes (by decide)).trans (h_v157.trans (after_of_writes_sub _ WR Cert.ReferenceIdeal.Agree.ops46_writes (by decide)).symm)
  · exact (after_of_writes_sub _ WK Cert.KernelIdeal.Agree.ops46_writes (by decide)).trans (h_v229.trans (after_of_writes_sub _ WR Cert.ReferenceIdeal.Agree.ops46_writes (by decide)).symm)
  · exact (after_of_writes_sub _ WK Cert.KernelIdeal.Agree.ops46_writes (by decide)).trans (h_v301.trans (after_of_writes_sub _ WR Cert.ReferenceIdeal.Agree.ops46_writes (by decide)).symm)
  · exact (after_of_writes_sub _ WK Cert.KernelIdeal.Agree.ops46_writes (by decide)).trans (h_v385.trans (after_of_writes_sub _ WR Cert.ReferenceIdeal.Agree.ops46_writes (by decide)).symm)
  · exact (after_of_writes_sub _ WK Cert.KernelIdeal.Agree.ops46_writes (by decide)).trans (h_v469.trans (after_of_writes_sub _ WR Cert.ReferenceIdeal.Agree.ops46_writes (by decide)).symm)
  · exact (after_of_writes_sub _ WK Cert.KernelIdeal.Agree.ops46_writes (by decide)).trans (h_v553.trans (after_of_writes_sub _ WR Cert.ReferenceIdeal.Agree.ops46_writes (by decide)).symm)
  · exact (after_of_writes_sub _ WK Cert.KernelIdeal.Agree.ops46_writes (by decide)).trans (h_v637.trans (after_of_writes_sub _ WR Cert.ReferenceIdeal.Agree.ops46_writes (by decide)).symm)
  · exact (after_of_writes_sub _ WK Cert.KernelIdeal.Agree.ops46_writes (by decide)).trans (h_v721.trans (after_of_writes_sub _ WR Cert.ReferenceIdeal.Agree.ops46_writes (by decide)).symm)
  · exact (after_of_writes_sub _ WK Cert.KernelIdeal.Agree.ops46_writes (by decide)).trans (h_v805.trans (after_of_writes_sub _ WR Cert.ReferenceIdeal.Agree.ops46_writes (by decide)).symm)
  · exact (after_of_writes_sub _ WK Cert.KernelIdeal.Agree.ops46_writes (by decide)).trans (h_v889.trans (after_of_writes_sub _ WR Cert.ReferenceIdeal.Agree.ops46_writes (by decide)).symm)
  · exact (after_of_writes_sub _ WK Cert.KernelIdeal.Agree.ops46_writes (by decide)).trans (h_v973.trans (after_of_writes_sub _ WR Cert.ReferenceIdeal.Agree.ops46_writes (by decide)).symm)
  · exact (after_of_writes_sub _ WK Cert.KernelIdeal.Agree.ops46_writes (by decide)).trans (h_v1057.trans (after_of_writes_sub _ WR Cert.ReferenceIdeal.Agree.ops46_writes (by decide)).symm)
  · exact (after_of_writes_sub _ WK Cert.KernelIdeal.Agree.ops46_writes (by decide)).trans (h_v1141.trans (after_of_writes_sub _ WR Cert.ReferenceIdeal.Agree.ops46_writes (by decide)).symm)
  · run_agrees [h_v0, h_v1156, h_v1170, h_v1178, h_v1183, h_v1188, h_c_151]

set_option maxHeartbeats 800000 in
/-- Run 47 (operations 2430 to 2486): agreement on the 18 buffers live before it gives agreement on the 23 live after it. -/
theorem step47
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1222) = WR (Proc.devRef .tc Cert.ReferenceIdeal.main_v1222)) :
    (after (Cert.KernelIdeal.Agree.ops47 (F := F)) WK) (Proc.devRef .tc Cert.KernelIdeal.main_v0) = (after (Cert.ReferenceIdeal.Agree.ops47 (F := F)) WR) (Proc.devRef .tc Cert.ReferenceIdeal.main_v0)
      ∧ (after (Cert.KernelIdeal.Agree.ops47 (F := F)) WK) (Proc.devRef .tc Cert.KernelIdeal.main_v85) = (after (Cert.ReferenceIdeal.Agree.ops47 (F := F)) WR) (Proc.devRef .tc Cert.ReferenceIdeal.main_v85)
      ∧ (after (Cert.KernelIdeal.Agree.ops47 (F := F)) WK) (Proc.devRef .tc Cert.KernelIdeal.main_v157) = (after (Cert.ReferenceIdeal.Agree.ops47 (F := F)) WR) (Proc.devRef .tc Cert.ReferenceIdeal.main_v157)
      ∧ (after (Cert.KernelIdeal.Agree.ops47 (F := F)) WK) (Proc.devRef .tc Cert.KernelIdeal.main_v229) = (after (Cert.ReferenceIdeal.Agree.ops47 (F := F)) WR) (Proc.devRef .tc Cert.ReferenceIdeal.main_v229)
      ∧ (after (Cert.KernelIdeal.Agree.ops47 (F := F)) WK) (Proc.devRef .tc Cert.KernelIdeal.main_v301) = (after (Cert.ReferenceIdeal.Agree.ops47 (F := F)) WR) (Proc.devRef .tc Cert.ReferenceIdeal.main_v301)
      ∧ (after (Cert.KernelIdeal.Agree.ops47 (F := F)) WK) (Proc.devRef .tc Cert.KernelIdeal.main_v385) = (after (Cert.ReferenceIdeal.Agree.ops47 (F := F)) WR) (Proc.devRef .tc Cert.ReferenceIdeal.main_v385)
      ∧ (after (Cert.KernelIdeal.Agree.ops47 (F := F)) WK) (Proc.devRef .tc Cert.KernelIdeal.main_v469) = (after (Cert.ReferenceIdeal.Agree.ops47 (F := F)) WR) (Proc.devRef .tc Cert.ReferenceIdeal.main_v469)
      ∧ (after (Cert.KernelIdeal.Agree.ops47 (F := F)) WK) (Proc.devRef .tc Cert.KernelIdeal.main_v553) = (after (Cert.ReferenceIdeal.Agree.ops47 (F := F)) WR) (Proc.devRef .tc Cert.ReferenceIdeal.main_v553)
      ∧ (after (Cert.KernelIdeal.Agree.ops47 (F := F)) WK) (Proc.devRef .tc Cert.KernelIdeal.main_v637) = (after (Cert.ReferenceIdeal.Agree.ops47 (F := F)) WR) (Proc.devRef .tc Cert.ReferenceIdeal.main_v637)
      ∧ (after (Cert.KernelIdeal.Agree.ops47 (F := F)) WK) (Proc.devRef .tc Cert.KernelIdeal.main_v721) = (after (Cert.ReferenceIdeal.Agree.ops47 (F := F)) WR) (Proc.devRef .tc Cert.ReferenceIdeal.main_v721)
      ∧ (after (Cert.KernelIdeal.Agree.ops47 (F := F)) WK) (Proc.devRef .tc Cert.KernelIdeal.main_v805) = (after (Cert.ReferenceIdeal.Agree.ops47 (F := F)) WR) (Proc.devRef .tc Cert.ReferenceIdeal.main_v805)
      ∧ (after (Cert.KernelIdeal.Agree.ops47 (F := F)) WK) (Proc.devRef .tc Cert.KernelIdeal.main_v889) = (after (Cert.ReferenceIdeal.Agree.ops47 (F := F)) WR) (Proc.devRef .tc Cert.ReferenceIdeal.main_v889)
      ∧ (after (Cert.KernelIdeal.Agree.ops47 (F := F)) WK) (Proc.devRef .tc Cert.KernelIdeal.main_v973) = (after (Cert.ReferenceIdeal.Agree.ops47 (F := F)) WR) (Proc.devRef .tc Cert.ReferenceIdeal.main_v973)
      ∧ (after (Cert.KernelIdeal.Agree.ops47 (F := F)) WK) (Proc.devRef .tc Cert.KernelIdeal.main_v1057) = (after (Cert.ReferenceIdeal.Agree.ops47 (F := F)) WR) (Proc.devRef .tc Cert.ReferenceIdeal.main_v1057)
      ∧ (after (Cert.KernelIdeal.Agree.ops47 (F := F)) WK) (Proc.devRef .tc Cert.KernelIdeal.main_v1141) = (after (Cert.ReferenceIdeal.Agree.ops47 (F := F)) WR) (Proc.devRef .tc Cert.ReferenceIdeal.main_v1141)
      ∧ (after (Cert.KernelIdeal.Agree.ops47 (F := F)) WK) (Proc.devRef .tc Cert.KernelIdeal.main_v1225) = (after (Cert.ReferenceIdeal.Agree.ops47 (F := F)) WR) (Proc.devRef .tc Cert.ReferenceIdeal.main_v1225)
      ∧ (after (Cert.KernelIdeal.Agree.ops47 (F := F)) WK) (Proc.devRef .tc Cert.KernelIdeal.main_v1230) = (after (Cert.ReferenceIdeal.Agree.ops47 (F := F)) WR) (Proc.devRef .tc Cert.ReferenceIdeal.main_v1230)
      ∧ (after (Cert.KernelIdeal.Agree.ops47 (F := F)) WK) (Proc.devRef .tc Cert.KernelIdeal.main_v1240) = (after (Cert.ReferenceIdeal.Agree.ops47 (F := F)) WR) (Proc.devRef .tc Cert.ReferenceIdeal.main_v1240)
      ∧ (after (Cert.KernelIdeal.Agree.ops47 (F := F)) WK) (Proc.devRef .tc Cert.KernelIdeal.main_v1247) = (after (Cert.ReferenceIdeal.Agree.ops47 (F := F)) WR) (Proc.devRef .tc Cert.ReferenceIdeal.main_v1247)
      ∧ (after (Cert.KernelIdeal.Agree.ops47 (F := F)) WK) (Proc.devRef .tc Cert.KernelIdeal.main_v1249) = (after (Cert.ReferenceIdeal.Agree.ops47 (F := F)) WR) (Proc.devRef .tc Cert.ReferenceIdeal.main_v1249)
      ∧ (after (Cert.KernelIdeal.Agree.ops47 (F := F)) WK) (Proc.devRef .tc Cert.KernelIdeal.main_v1254) = (after (Cert.ReferenceIdeal.Agree.ops47 (F := F)) WR) (Proc.devRef .tc Cert.ReferenceIdeal.main_v1254)
      ∧ (after (Cert.KernelIdeal.Agree.ops47 (F := F)) WK) (Proc.devRef .tc Cert.KernelIdeal.main_v1259) = (after (Cert.ReferenceIdeal.Agree.ops47 (F := F)) WR) (Proc.devRef .tc Cert.ReferenceIdeal.main_v1259)
      ∧ (after (Cert.KernelIdeal.Agree.ops47 (F := F)) WK) (Proc.devRef .tc Cert.KernelIdeal.main_c_158) = (after (Cert.ReferenceIdeal.Agree.ops47 (F := F)) WR) (Proc.devRef .tc Cert.ReferenceIdeal.main_c_158) := by
  obtain ⟨h_v0, h_v18, h_v23, h_v85, h_v157, h_v229, h_v301, h_v385, h_v469, h_v553, h_v637, h_v721, h_v805, h_v889, h_v973, h_v1057, h_v1141, h_v1222⟩ := h
  refine ⟨?_, ?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops47_writes (by decide)).trans (h_v0.trans (after_of_writes_sub _ WR Cert.ReferenceIdeal.Agree.ops47_writes (by decide)).symm)
  · exact (after_of_writes_sub _ WK Cert.KernelIdeal.Agree.ops47_writes (by decide)).trans (h_v85.trans (after_of_writes_sub _ WR Cert.ReferenceIdeal.Agree.ops47_writes (by decide)).symm)
  · exact (after_of_writes_sub _ WK Cert.KernelIdeal.Agree.ops47_writes (by decide)).trans (h_v157.trans (after_of_writes_sub _ WR Cert.ReferenceIdeal.Agree.ops47_writes (by decide)).symm)
  · exact (after_of_writes_sub _ WK Cert.KernelIdeal.Agree.ops47_writes (by decide)).trans (h_v229.trans (after_of_writes_sub _ WR Cert.ReferenceIdeal.Agree.ops47_writes (by decide)).symm)
  · exact (after_of_writes_sub _ WK Cert.KernelIdeal.Agree.ops47_writes (by decide)).trans (h_v301.trans (after_of_writes_sub _ WR Cert.ReferenceIdeal.Agree.ops47_writes (by decide)).symm)
  · exact (after_of_writes_sub _ WK Cert.KernelIdeal.Agree.ops47_writes (by decide)).trans (h_v385.trans (after_of_writes_sub _ WR Cert.ReferenceIdeal.Agree.ops47_writes (by decide)).symm)
  · exact (after_of_writes_sub _ WK Cert.KernelIdeal.Agree.ops47_writes (by decide)).trans (h_v469.trans (after_of_writes_sub _ WR Cert.ReferenceIdeal.Agree.ops47_writes (by decide)).symm)
  · exact (after_of_writes_sub _ WK Cert.KernelIdeal.Agree.ops47_writes (by decide)).trans (h_v553.trans (after_of_writes_sub _ WR Cert.ReferenceIdeal.Agree.ops47_writes (by decide)).symm)
  · exact (after_of_writes_sub _ WK Cert.KernelIdeal.Agree.ops47_writes (by decide)).trans (h_v637.trans (after_of_writes_sub _ WR Cert.ReferenceIdeal.Agree.ops47_writes (by decide)).symm)
  · exact (after_of_writes_sub _ WK Cert.KernelIdeal.Agree.ops47_writes (by decide)).trans (h_v721.trans (after_of_writes_sub _ WR Cert.ReferenceIdeal.Agree.ops47_writes (by decide)).symm)
  · exact (after_of_writes_sub _ WK Cert.KernelIdeal.Agree.ops47_writes (by decide)).trans (h_v805.trans (after_of_writes_sub _ WR Cert.ReferenceIdeal.Agree.ops47_writes (by decide)).symm)
  · exact (after_of_writes_sub _ WK Cert.KernelIdeal.Agree.ops47_writes (by decide)).trans (h_v889.trans (after_of_writes_sub _ WR Cert.ReferenceIdeal.Agree.ops47_writes (by decide)).symm)
  · exact (after_of_writes_sub _ WK Cert.KernelIdeal.Agree.ops47_writes (by decide)).trans (h_v973.trans (after_of_writes_sub _ WR Cert.ReferenceIdeal.Agree.ops47_writes (by decide)).symm)
  · exact (after_of_writes_sub _ WK Cert.KernelIdeal.Agree.ops47_writes (by decide)).trans (h_v1057.trans (after_of_writes_sub _ WR Cert.ReferenceIdeal.Agree.ops47_writes (by decide)).symm)
  · exact (after_of_writes_sub _ WK Cert.KernelIdeal.Agree.ops47_writes (by decide)).trans (h_v1141.trans (after_of_writes_sub _ WR Cert.ReferenceIdeal.Agree.ops47_writes (by decide)).symm)
  · run_agrees [h_v1222]
  · run_agrees [h_v18, h_v23]
  · run_agrees [h_v18, h_v23]
  · run_agrees [h_v18, h_v23]
  · after_results_simp; first | done | rfl
  · run_agrees [h_v18, h_v23]
  · run_agrees [h_v18, h_v23]
  · after_results_simp; first | done | rfl

set_option maxHeartbeats 800000 in
/-- Run 48 (operations 2487 to 2534): agreement on the 23 buffers live before it gives agreement on the 22 live after it. -/
theorem step48
    (h : WK (Proc.devRef .tc Cert.KernelIdeal.main_v0) = WR (Proc.devRef .tc Cert.ReferenceIdeal.main_v0)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1225) = WR (Proc.devRef .tc Cert.ReferenceIdeal.main_v1225)
      ∧ WK (Proc.devRef .tc Cert.KernelIdeal.main_v1230) = WR (Proc.devRef .tc Cert.ReferenceIdeal.main_v1230)
      ∧ WK (Proc.devRef .tc Cert.KernelIdeal.main_v1240) = WR (Proc.devRef .tc Cert.ReferenceIdeal.main_v1240)
      ∧ WK (Proc.devRef .tc Cert.KernelIdeal.main_v1247) = WR (Proc.devRef .tc Cert.ReferenceIdeal.main_v1247)
      ∧ WK (Proc.devRef .tc Cert.KernelIdeal.main_v1249) = WR (Proc.devRef .tc Cert.ReferenceIdeal.main_v1249)
      ∧ WK (Proc.devRef .tc Cert.KernelIdeal.main_v1254) = WR (Proc.devRef .tc Cert.ReferenceIdeal.main_v1254)
      ∧ WK (Proc.devRef .tc Cert.KernelIdeal.main_v1259) = WR (Proc.devRef .tc Cert.ReferenceIdeal.main_v1259)
      ∧ WK (Proc.devRef .tc Cert.KernelIdeal.main_c_158) = WR (Proc.devRef .tc Cert.ReferenceIdeal.main_c_158)) :
    (after (Cert.KernelIdeal.Agree.ops48 (F := F)) WK) (Proc.devRef .tc Cert.KernelIdeal.main_v0) = (after (Cert.ReferenceIdeal.Agree.ops48 (F := F)) WR) (Proc.devRef .tc Cert.ReferenceIdeal.main_v0)
      ∧ (after (Cert.KernelIdeal.Agree.ops48 (F := F)) WK) (Proc.devRef .tc Cert.KernelIdeal.main_v85) = (after (Cert.ReferenceIdeal.Agree.ops48 (F := F)) WR) (Proc.devRef .tc Cert.ReferenceIdeal.main_v85)
      ∧ (after (Cert.KernelIdeal.Agree.ops48 (F := F)) WK) (Proc.devRef .tc Cert.KernelIdeal.main_v157) = (after (Cert.ReferenceIdeal.Agree.ops48 (F := F)) WR) (Proc.devRef .tc Cert.ReferenceIdeal.main_v157)
      ∧ (after (Cert.KernelIdeal.Agree.ops48 (F := F)) WK) (Proc.devRef .tc Cert.KernelIdeal.main_v229) = (after (Cert.ReferenceIdeal.Agree.ops48 (F := F)) WR) (Proc.devRef .tc Cert.ReferenceIdeal.main_v229)
      ∧ (after (Cert.KernelIdeal.Agree.ops48 (F := F)) WK) (Proc.devRef .tc Cert.KernelIdeal.main_v301) = (after (Cert.ReferenceIdeal.Agree.ops48 (F := F)) WR) (Proc.devRef .tc Cert.ReferenceIdeal.main_v301)
      ∧ (after (Cert.KernelIdeal.Agree.ops48 (F := F)) WK) (Proc.devRef .tc Cert.KernelIdeal.main_v385) = (after (Cert.ReferenceIdeal.Agree.ops48 (F := F)) WR) (Proc.devRef .tc Cert.ReferenceIdeal.main_v385)
      ∧ (after (Cert.KernelIdeal.Agree.ops48 (F := F)) WK) (Proc.devRef .tc Cert.KernelIdeal.main_v469) = (after (Cert.ReferenceIdeal.Agree.ops48 (F := F)) WR) (Proc.devRef .tc Cert.ReferenceIdeal.main_v469)
      ∧ (after (Cert.KernelIdeal.Agree.ops48 (F := F)) WK) (Proc.devRef .tc Cert.KernelIdeal.main_v553) = (after (Cert.ReferenceIdeal.Agree.ops48 (F := F)) WR) (Proc.devRef .tc Cert.ReferenceIdeal.main_v553)
      ∧ (after (Cert.KernelIdeal.Agree.ops48 (F := F)) WK) (Proc.devRef .tc Cert.KernelIdeal.main_v637) = (after (Cert.ReferenceIdeal.Agree.ops48 (F := F)) WR) (Proc.devRef .tc Cert.ReferenceIdeal.main_v637)
      ∧ (after (Cert.KernelIdeal.Agree.ops48 (F := F)) WK) (Proc.devRef .tc Cert.KernelIdeal.main_v721) = (after (Cert.ReferenceIdeal.Agree.ops48 (F := F)) WR) (Proc.devRef .tc Cert.ReferenceIdeal.main_v721)
      ∧ (after (Cert.KernelIdeal.Agree.ops48 (F := F)) WK) (Proc.devRef .tc Cert.KernelIdeal.main_v805) = (after (Cert.ReferenceIdeal.Agree.ops48 (F := F)) WR) (Proc.devRef .tc Cert.ReferenceIdeal.main_v805)
      ∧ (after (Cert.KernelIdeal.Agree.ops48 (F := F)) WK) (Proc.devRef .tc Cert.KernelIdeal.main_v889) = (after (Cert.ReferenceIdeal.Agree.ops48 (F := F)) WR) (Proc.devRef .tc Cert.ReferenceIdeal.main_v889)
      ∧ (after (Cert.KernelIdeal.Agree.ops48 (F := F)) WK) (Proc.devRef .tc Cert.KernelIdeal.main_v973) = (after (Cert.ReferenceIdeal.Agree.ops48 (F := F)) WR) (Proc.devRef .tc Cert.ReferenceIdeal.main_v973)
      ∧ (after (Cert.KernelIdeal.Agree.ops48 (F := F)) WK) (Proc.devRef .tc Cert.KernelIdeal.main_v1057) = (after (Cert.ReferenceIdeal.Agree.ops48 (F := F)) WR) (Proc.devRef .tc Cert.ReferenceIdeal.main_v1057)
      ∧ (after (Cert.KernelIdeal.Agree.ops48 (F := F)) WK) (Proc.devRef .tc Cert.KernelIdeal.main_v1141) = (after (Cert.ReferenceIdeal.Agree.ops48 (F := F)) WR) (Proc.devRef .tc Cert.ReferenceIdeal.main_v1141)
      ∧ (after (Cert.KernelIdeal.Agree.ops48 (F := F)) WK) (Proc.devRef .tc Cert.KernelIdeal.main_v1225) = (after (Cert.ReferenceIdeal.Agree.ops48 (F := F)) WR) (Proc.devRef .tc Cert.ReferenceIdeal.main_v1225)
      ∧ (after (Cert.KernelIdeal.Agree.ops48 (F := F)) WK) (Proc.devRef .tc Cert.KernelIdeal.main_v1240) = (after (Cert.ReferenceIdeal.Agree.ops48 (F := F)) WR) (Proc.devRef .tc Cert.ReferenceIdeal.main_v1240)
      ∧ (after (Cert.KernelIdeal.Agree.ops48 (F := F)) WK) (Proc.devRef .tc Cert.KernelIdeal.main_v1254) = (after (Cert.ReferenceIdeal.Agree.ops48 (F := F)) WR) (Proc.devRef .tc Cert.ReferenceIdeal.main_v1254)
      ∧ (after (Cert.KernelIdeal.Agree.ops48 (F := F)) WK) (Proc.devRef .tc Cert.KernelIdeal.main_v1262) = (after (Cert.ReferenceIdeal.Agree.ops48 (F := F)) WR) (Proc.devRef .tc Cert.ReferenceIdeal.main_v1262)
      ∧ (after (Cert.KernelIdeal.Agree.ops48 (F := F)) WK) (Proc.devRef .tc Cert.KernelIdeal.main_v1267) = (after (Cert.ReferenceIdeal.Agree.ops48 (F := F)) WR) (Proc.devRef .tc Cert.ReferenceIdeal.main_v1267)
      ∧ (after (Cert.KernelIdeal.Agree.ops48 (F := F)) WK) (Proc.devRef .tc Cert.KernelIdeal.main_v1272) = (after (Cert.ReferenceIdeal.Agree.ops48 (F := F)) WR) (Proc.devRef .tc Cert.ReferenceIdeal.main_v1272)
      ∧ (after (Cert.KernelIdeal.Agree.ops48 (F := F)) WK) (Proc.devRef .tc Cert.KernelIdeal.main_c_161) = (after (Cert.ReferenceIdeal.Agree.ops48 (F := F)) WR) (Proc.devRef .tc Cert.ReferenceIdeal.main_c_161) := by
  obtain ⟨h_v0, h_v85, h_v157, h_v229, h_v301, h_v385, h_v469, h_v553, h_v637, h_v721, h_v805, h_v889, h_v973, h_v1057, h_v1141, h_v1225, h_v1230, h_v1240, h_v1247, h_v1249, h_v1254, h_v1259, h_c_158⟩ := h
  refine ⟨?_, ?_, ?_, ?_, ?_, ?_, ?_, ?_, ?_, ?_, ?_, ?_, ?_, ?_, ?_, ?_, ?_, ?_, ?_, ?_, ?_, ?_⟩
  · exact (after_of_writes_sub _ WK Cert.KernelIdeal.Agree.ops48_writes (by decide)).trans (h_v0.trans (after_of_writes_sub _ WR Cert.ReferenceIdeal.Agree.ops48_writes (by decide)).symm)
  · exact (after_of_writes_sub _ WK Cert.KernelIdeal.Agree.ops48_writes (by decide)).trans (h_v85.trans (after_of_writes_sub _ WR Cert.ReferenceIdeal.Agree.ops48_writes (by decide)).symm)
  · exact (after_of_writes_sub _ WK Cert.KernelIdeal.Agree.ops48_writes (by decide)).trans (h_v157.trans (after_of_writes_sub _ WR Cert.ReferenceIdeal.Agree.ops48_writes (by decide)).symm)
  · exact (after_of_writes_sub _ WK Cert.KernelIdeal.Agree.ops48_writes (by decide)).trans (h_v229.trans (after_of_writes_sub _ WR Cert.ReferenceIdeal.Agree.ops48_writes (by decide)).symm)
  · exact (after_of_writes_sub _ WK Cert.KernelIdeal.Agree.ops48_writes (by decide)).trans (h_v301.trans (after_of_writes_sub _ WR Cert.ReferenceIdeal.Agree.ops48_writes (by decide)).symm)
  · exact (after_of_writes_sub _ WK Cert.KernelIdeal.Agree.ops48_writes (by decide)).trans (h_v385.trans (after_of_writes_sub _ WR Cert.ReferenceIdeal.Agree.ops48_writes (by decide)).symm)
  · exact (after_of_writes_sub _ WK Cert.KernelIdeal.Agree.ops48_writes (by decide)).trans (h_v469.trans (after_of_writes_sub _ WR Cert.ReferenceIdeal.Agree.ops48_writes (by decide)).symm)
  · exact (after_of_writes_sub _ WK Cert.KernelIdeal.Agree.ops48_writes (by decide)).trans (h_v553.trans (after_of_writes_sub _ WR Cert.ReferenceIdeal.Agree.ops48_writes (by decide)).symm)
  · exact (after_of_writes_sub _ WK Cert.KernelIdeal.Agree.ops48_writes (by decide)).trans (h_v637.trans (after_of_writes_sub _ WR Cert.ReferenceIdeal.Agree.ops48_writes (by decide)).symm)
  · exact (after_of_writes_sub _ WK Cert.KernelIdeal.Agree.ops48_writes (by decide)).trans (h_v721.trans (after_of_writes_sub _ WR Cert.ReferenceIdeal.Agree.ops48_writes (by decide)).symm)
  · exact (after_of_writes_sub _ WK Cert.KernelIdeal.Agree.ops48_writes (by decide)).trans (h_v805.trans (after_of_writes_sub _ WR Cert.ReferenceIdeal.Agree.ops48_writes (by decide)).symm)
  · exact (after_of_writes_sub _ WK Cert.KernelIdeal.Agree.ops48_writes (by decide)).trans (h_v889.trans (after_of_writes_sub _ WR Cert.ReferenceIdeal.Agree.ops48_writes (by decide)).symm)
  · exact (after_of_writes_sub _ WK Cert.KernelIdeal.Agree.ops48_writes (by decide)).trans (h_v973.trans (after_of_writes_sub _ WR Cert.ReferenceIdeal.Agree.ops48_writes (by decide)).symm)
  · exact (after_of_writes_sub _ WK Cert.KernelIdeal.Agree.ops48_writes (by decide)).trans (h_v1057.trans (after_of_writes_sub _ WR Cert.ReferenceIdeal.Agree.ops48_writes (by decide)).symm)
  · exact (after_of_writes_sub _ WK Cert.KernelIdeal.Agree.ops48_writes (by decide)).trans (h_v1141.trans (after_of_writes_sub _ WR Cert.ReferenceIdeal.Agree.ops48_writes (by decide)).symm)
  · exact (after_of_writes_sub _ WK Cert.KernelIdeal.Agree.ops48_writes (by decide)).trans (h_v1225.trans (after_of_writes_sub _ WR Cert.ReferenceIdeal.Agree.ops48_writes (by decide)).symm)
  · exact (after_of_writes_sub _ WK Cert.KernelIdeal.Agree.ops48_writes (by decide)).trans (h_v1240.trans (after_of_writes_sub _ WR Cert.ReferenceIdeal.Agree.ops48_writes (by decide)).symm)
  · exact (after_of_writes_sub _ WK Cert.KernelIdeal.Agree.ops48_writes (by decide)).trans (h_v1254.trans (after_of_writes_sub _ WR Cert.ReferenceIdeal.Agree.ops48_writes (by decide)).symm)
  · run_agrees [h_v1230, h_v1259, h_c_158]
  · run_agrees [h_v1240, h_v1247, h_v1249]
  · run_agrees [h_v1247, h_v1249]
  · after_results_simp; first | done | rfl

set_option maxHeartbeats 800000 in
/-- Run 49 (operations 2535 to 2593): agreement on the 22 buffers live before it gives agreement on the 16 live after it. -/
theorem step49
    (h : WK (Proc.devRef .tc Cert.KernelIdeal.main_v0) = WR (Proc.devRef .tc Cert.ReferenceIdeal.main_v0)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1225) = WR (Proc.devRef .tc Cert.ReferenceIdeal.main_v1225)
      ∧ WK (Proc.devRef .tc Cert.KernelIdeal.main_v1240) = WR (Proc.devRef .tc Cert.ReferenceIdeal.main_v1240)
      ∧ WK (Proc.devRef .tc Cert.KernelIdeal.main_v1254) = WR (Proc.devRef .tc Cert.ReferenceIdeal.main_v1254)
      ∧ WK (Proc.devRef .tc Cert.KernelIdeal.main_v1262) = WR (Proc.devRef .tc Cert.ReferenceIdeal.main_v1262)
      ∧ WK (Proc.devRef .tc Cert.KernelIdeal.main_v1267) = WR (Proc.devRef .tc Cert.ReferenceIdeal.main_v1267)
      ∧ WK (Proc.devRef .tc Cert.KernelIdeal.main_v1272) = WR (Proc.devRef .tc Cert.ReferenceIdeal.main_v1272)
      ∧ WK (Proc.devRef .tc Cert.KernelIdeal.main_c_161) = WR (Proc.devRef .tc Cert.ReferenceIdeal.main_c_161)) :
    (after (Cert.KernelIdeal.Agree.ops49 (F := F)) WK) (Proc.devRef .tc Cert.KernelIdeal.main_v85) = (after (Cert.ReferenceIdeal.Agree.ops49 (F := F)) WR) (Proc.devRef .tc Cert.ReferenceIdeal.main_v85)
      ∧ (after (Cert.KernelIdeal.Agree.ops49 (F := F)) WK) (Proc.devRef .tc Cert.KernelIdeal.main_v157) = (after (Cert.ReferenceIdeal.Agree.ops49 (F := F)) WR) (Proc.devRef .tc Cert.ReferenceIdeal.main_v157)
      ∧ (after (Cert.KernelIdeal.Agree.ops49 (F := F)) WK) (Proc.devRef .tc Cert.KernelIdeal.main_v229) = (after (Cert.ReferenceIdeal.Agree.ops49 (F := F)) WR) (Proc.devRef .tc Cert.ReferenceIdeal.main_v229)
      ∧ (after (Cert.KernelIdeal.Agree.ops49 (F := F)) WK) (Proc.devRef .tc Cert.KernelIdeal.main_v301) = (after (Cert.ReferenceIdeal.Agree.ops49 (F := F)) WR) (Proc.devRef .tc Cert.ReferenceIdeal.main_v301)
      ∧ (after (Cert.KernelIdeal.Agree.ops49 (F := F)) WK) (Proc.devRef .tc Cert.KernelIdeal.main_v385) = (after (Cert.ReferenceIdeal.Agree.ops49 (F := F)) WR) (Proc.devRef .tc Cert.ReferenceIdeal.main_v385)
      ∧ (after (Cert.KernelIdeal.Agree.ops49 (F := F)) WK) (Proc.devRef .tc Cert.KernelIdeal.main_v469) = (after (Cert.ReferenceIdeal.Agree.ops49 (F := F)) WR) (Proc.devRef .tc Cert.ReferenceIdeal.main_v469)
      ∧ (after (Cert.KernelIdeal.Agree.ops49 (F := F)) WK) (Proc.devRef .tc Cert.KernelIdeal.main_v553) = (after (Cert.ReferenceIdeal.Agree.ops49 (F := F)) WR) (Proc.devRef .tc Cert.ReferenceIdeal.main_v553)
      ∧ (after (Cert.KernelIdeal.Agree.ops49 (F := F)) WK) (Proc.devRef .tc Cert.KernelIdeal.main_v637) = (after (Cert.ReferenceIdeal.Agree.ops49 (F := F)) WR) (Proc.devRef .tc Cert.ReferenceIdeal.main_v637)
      ∧ (after (Cert.KernelIdeal.Agree.ops49 (F := F)) WK) (Proc.devRef .tc Cert.KernelIdeal.main_v721) = (after (Cert.ReferenceIdeal.Agree.ops49 (F := F)) WR) (Proc.devRef .tc Cert.ReferenceIdeal.main_v721)
      ∧ (after (Cert.KernelIdeal.Agree.ops49 (F := F)) WK) (Proc.devRef .tc Cert.KernelIdeal.main_v805) = (after (Cert.ReferenceIdeal.Agree.ops49 (F := F)) WR) (Proc.devRef .tc Cert.ReferenceIdeal.main_v805)
      ∧ (after (Cert.KernelIdeal.Agree.ops49 (F := F)) WK) (Proc.devRef .tc Cert.KernelIdeal.main_v889) = (after (Cert.ReferenceIdeal.Agree.ops49 (F := F)) WR) (Proc.devRef .tc Cert.ReferenceIdeal.main_v889)
      ∧ (after (Cert.KernelIdeal.Agree.ops49 (F := F)) WK) (Proc.devRef .tc Cert.KernelIdeal.main_v973) = (after (Cert.ReferenceIdeal.Agree.ops49 (F := F)) WR) (Proc.devRef .tc Cert.ReferenceIdeal.main_v973)
      ∧ (after (Cert.KernelIdeal.Agree.ops49 (F := F)) WK) (Proc.devRef .tc Cert.KernelIdeal.main_v1057) = (after (Cert.ReferenceIdeal.Agree.ops49 (F := F)) WR) (Proc.devRef .tc Cert.ReferenceIdeal.main_v1057)
      ∧ (after (Cert.KernelIdeal.Agree.ops49 (F := F)) WK) (Proc.devRef .tc Cert.KernelIdeal.main_v1141) = (after (Cert.ReferenceIdeal.Agree.ops49 (F := F)) WR) (Proc.devRef .tc Cert.ReferenceIdeal.main_v1141)
      ∧ (after (Cert.KernelIdeal.Agree.ops49 (F := F)) WK) (Proc.devRef .tc Cert.KernelIdeal.main_v1225) = (after (Cert.ReferenceIdeal.Agree.ops49 (F := F)) WR) (Proc.devRef .tc Cert.ReferenceIdeal.main_v1225)
      ∧ (after (Cert.KernelIdeal.Agree.ops49 (F := F)) WK) (Proc.devRef .tc Cert.KernelIdeal.main_v1306) = (after (Cert.ReferenceIdeal.Agree.ops49 (F := F)) WR) (Proc.devRef .tc Cert.ReferenceIdeal.main_v1306) := by
  obtain ⟨h_v0, h_v85, h_v157, h_v229, h_v301, h_v385, h_v469, h_v553, h_v637, h_v721, h_v805, h_v889, h_v973, h_v1057, h_v1141, h_v1225, h_v1240, h_v1254, h_v1262, h_v1267, h_v1272, h_c_161⟩ := h
  refine ⟨?_, ?_, ?_, ?_, ?_, ?_, ?_, ?_, ?_, ?_, ?_, ?_, ?_, ?_, ?_, ?_⟩
  · exact (after_of_writes_sub _ WK Cert.KernelIdeal.Agree.ops49_writes (by decide)).trans (h_v85.trans (after_of_writes_sub _ WR Cert.ReferenceIdeal.Agree.ops49_writes (by decide)).symm)
  · exact (after_of_writes_sub _ WK Cert.KernelIdeal.Agree.ops49_writes (by decide)).trans (h_v157.trans (after_of_writes_sub _ WR Cert.ReferenceIdeal.Agree.ops49_writes (by decide)).symm)
  · exact (after_of_writes_sub _ WK Cert.KernelIdeal.Agree.ops49_writes (by decide)).trans (h_v229.trans (after_of_writes_sub _ WR Cert.ReferenceIdeal.Agree.ops49_writes (by decide)).symm)
  · exact (after_of_writes_sub _ WK Cert.KernelIdeal.Agree.ops49_writes (by decide)).trans (h_v301.trans (after_of_writes_sub _ WR Cert.ReferenceIdeal.Agree.ops49_writes (by decide)).symm)
  · exact (after_of_writes_sub _ WK Cert.KernelIdeal.Agree.ops49_writes (by decide)).trans (h_v385.trans (after_of_writes_sub _ WR Cert.ReferenceIdeal.Agree.ops49_writes (by decide)).symm)
  · exact (after_of_writes_sub _ WK Cert.KernelIdeal.Agree.ops49_writes (by decide)).trans (h_v469.trans (after_of_writes_sub _ WR Cert.ReferenceIdeal.Agree.ops49_writes (by decide)).symm)
  · exact (after_of_writes_sub _ WK Cert.KernelIdeal.Agree.ops49_writes (by decide)).trans (h_v553.trans (after_of_writes_sub _ WR Cert.ReferenceIdeal.Agree.ops49_writes (by decide)).symm)
  · exact (after_of_writes_sub _ WK Cert.KernelIdeal.Agree.ops49_writes (by decide)).trans (h_v637.trans (after_of_writes_sub _ WR Cert.ReferenceIdeal.Agree.ops49_writes (by decide)).symm)
  · exact (after_of_writes_sub _ WK Cert.KernelIdeal.Agree.ops49_writes (by decide)).trans (h_v721.trans (after_of_writes_sub _ WR Cert.ReferenceIdeal.Agree.ops49_writes (by decide)).symm)
  · exact (after_of_writes_sub _ WK Cert.KernelIdeal.Agree.ops49_writes (by decide)).trans (h_v805.trans (after_of_writes_sub _ WR Cert.ReferenceIdeal.Agree.ops49_writes (by decide)).symm)
  · exact (after_of_writes_sub _ WK Cert.KernelIdeal.Agree.ops49_writes (by decide)).trans (h_v889.trans (after_of_writes_sub _ WR Cert.ReferenceIdeal.Agree.ops49_writes (by decide)).symm)
  · exact (after_of_writes_sub _ WK Cert.KernelIdeal.Agree.ops49_writes (by decide)).trans (h_v973.trans (after_of_writes_sub _ WR Cert.ReferenceIdeal.Agree.ops49_writes (by decide)).symm)
  · exact (after_of_writes_sub _ WK Cert.KernelIdeal.Agree.ops49_writes (by decide)).trans (h_v1057.trans (after_of_writes_sub _ WR Cert.ReferenceIdeal.Agree.ops49_writes (by decide)).symm)
  · exact (after_of_writes_sub _ WK Cert.KernelIdeal.Agree.ops49_writes (by decide)).trans (h_v1141.trans (after_of_writes_sub _ WR Cert.ReferenceIdeal.Agree.ops49_writes (by decide)).symm)
  · exact (after_of_writes_sub _ WK Cert.KernelIdeal.Agree.ops49_writes (by decide)).trans (h_v1225.trans (after_of_writes_sub _ WR Cert.ReferenceIdeal.Agree.ops49_writes (by decide)).symm)
  · run_agrees [h_v0, h_v1240, h_v1254, h_v1262, h_v1267, h_v1272, h_c_161]

set_option maxHeartbeats 800000 in
/-- Run 50 (operations 2594 to 2597): agreement on the 16 buffers live before it gives agreement on the 16 live after it. -/
theorem step50
    (h : WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1225) = WR (Proc.devRef .tc Cert.ReferenceIdeal.main_v1225)
      ∧ WK (Proc.devRef .tc Cert.KernelIdeal.main_v1306) = WR (Proc.devRef .tc Cert.ReferenceIdeal.main_v1306)) :
    (after (Cert.KernelIdeal.Agree.ops50 (F := F)) WK) (Proc.devRef .tc Cert.KernelIdeal.main_v85) = (after (Cert.ReferenceIdeal.Agree.ops50 (F := F)) WR) (Proc.devRef .tc Cert.ReferenceIdeal.main_v85)
      ∧ (after (Cert.KernelIdeal.Agree.ops50 (F := F)) WK) (Proc.devRef .tc Cert.KernelIdeal.main_v157) = (after (Cert.ReferenceIdeal.Agree.ops50 (F := F)) WR) (Proc.devRef .tc Cert.ReferenceIdeal.main_v157)
      ∧ (after (Cert.KernelIdeal.Agree.ops50 (F := F)) WK) (Proc.devRef .tc Cert.KernelIdeal.main_v229) = (after (Cert.ReferenceIdeal.Agree.ops50 (F := F)) WR) (Proc.devRef .tc Cert.ReferenceIdeal.main_v229)
      ∧ (after (Cert.KernelIdeal.Agree.ops50 (F := F)) WK) (Proc.devRef .tc Cert.KernelIdeal.main_v301) = (after (Cert.ReferenceIdeal.Agree.ops50 (F := F)) WR) (Proc.devRef .tc Cert.ReferenceIdeal.main_v301)
      ∧ (after (Cert.KernelIdeal.Agree.ops50 (F := F)) WK) (Proc.devRef .tc Cert.KernelIdeal.main_v385) = (after (Cert.ReferenceIdeal.Agree.ops50 (F := F)) WR) (Proc.devRef .tc Cert.ReferenceIdeal.main_v385)
      ∧ (after (Cert.KernelIdeal.Agree.ops50 (F := F)) WK) (Proc.devRef .tc Cert.KernelIdeal.main_v469) = (after (Cert.ReferenceIdeal.Agree.ops50 (F := F)) WR) (Proc.devRef .tc Cert.ReferenceIdeal.main_v469)
      ∧ (after (Cert.KernelIdeal.Agree.ops50 (F := F)) WK) (Proc.devRef .tc Cert.KernelIdeal.main_v553) = (after (Cert.ReferenceIdeal.Agree.ops50 (F := F)) WR) (Proc.devRef .tc Cert.ReferenceIdeal.main_v553)
      ∧ (after (Cert.KernelIdeal.Agree.ops50 (F := F)) WK) (Proc.devRef .tc Cert.KernelIdeal.main_v637) = (after (Cert.ReferenceIdeal.Agree.ops50 (F := F)) WR) (Proc.devRef .tc Cert.ReferenceIdeal.main_v637)
      ∧ (after (Cert.KernelIdeal.Agree.ops50 (F := F)) WK) (Proc.devRef .tc Cert.KernelIdeal.main_v721) = (after (Cert.ReferenceIdeal.Agree.ops50 (F := F)) WR) (Proc.devRef .tc Cert.ReferenceIdeal.main_v721)
      ∧ (after (Cert.KernelIdeal.Agree.ops50 (F := F)) WK) (Proc.devRef .tc Cert.KernelIdeal.main_v805) = (after (Cert.ReferenceIdeal.Agree.ops50 (F := F)) WR) (Proc.devRef .tc Cert.ReferenceIdeal.main_v805)
      ∧ (after (Cert.KernelIdeal.Agree.ops50 (F := F)) WK) (Proc.devRef .tc Cert.KernelIdeal.main_v889) = (after (Cert.ReferenceIdeal.Agree.ops50 (F := F)) WR) (Proc.devRef .tc Cert.ReferenceIdeal.main_v889)
      ∧ (after (Cert.KernelIdeal.Agree.ops50 (F := F)) WK) (Proc.devRef .tc Cert.KernelIdeal.main_v973) = (after (Cert.ReferenceIdeal.Agree.ops50 (F := F)) WR) (Proc.devRef .tc Cert.ReferenceIdeal.main_v973)
      ∧ (after (Cert.KernelIdeal.Agree.ops50 (F := F)) WK) (Proc.devRef .tc Cert.KernelIdeal.main_v1057) = (after (Cert.ReferenceIdeal.Agree.ops50 (F := F)) WR) (Proc.devRef .tc Cert.ReferenceIdeal.main_v1057)
      ∧ (after (Cert.KernelIdeal.Agree.ops50 (F := F)) WK) (Proc.devRef .tc Cert.KernelIdeal.main_v1141) = (after (Cert.ReferenceIdeal.Agree.ops50 (F := F)) WR) (Proc.devRef .tc Cert.ReferenceIdeal.main_v1141)
      ∧ (after (Cert.KernelIdeal.Agree.ops50 (F := F)) WK) (Proc.devRef .tc Cert.KernelIdeal.main_v1225) = (after (Cert.ReferenceIdeal.Agree.ops50 (F := F)) WR) (Proc.devRef .tc Cert.ReferenceIdeal.main_v1225)
      ∧ (after (Cert.KernelIdeal.Agree.ops50 (F := F)) WK) (Proc.devRef .tc Cert.KernelIdeal.main_v1309) = (after (Cert.ReferenceIdeal.Agree.ops50 (F := F)) WR) (Proc.devRef .tc Cert.ReferenceIdeal.main_v1309) := by
  obtain ⟨h_v85, h_v157, h_v229, h_v301, h_v385, h_v469, h_v553, h_v637, h_v721, h_v805, h_v889, h_v973, h_v1057, h_v1141, h_v1225, h_v1306⟩ := h
  refine ⟨?_, ?_, ?_, ?_, ?_, ?_, ?_, ?_, ?_, ?_, ?_, ?_, ?_, ?_, ?_, ?_⟩
  · exact (after_of_writes_sub _ WK Cert.KernelIdeal.Agree.ops50_writes (by decide)).trans (h_v85.trans (after_of_writes_sub _ WR Cert.ReferenceIdeal.Agree.ops50_writes (by decide)).symm)
  · exact (after_of_writes_sub _ WK Cert.KernelIdeal.Agree.ops50_writes (by decide)).trans (h_v157.trans (after_of_writes_sub _ WR Cert.ReferenceIdeal.Agree.ops50_writes (by decide)).symm)
  · exact (after_of_writes_sub _ WK Cert.KernelIdeal.Agree.ops50_writes (by decide)).trans (h_v229.trans (after_of_writes_sub _ WR Cert.ReferenceIdeal.Agree.ops50_writes (by decide)).symm)
  · exact (after_of_writes_sub _ WK Cert.KernelIdeal.Agree.ops50_writes (by decide)).trans (h_v301.trans (after_of_writes_sub _ WR Cert.ReferenceIdeal.Agree.ops50_writes (by decide)).symm)
  · exact (after_of_writes_sub _ WK Cert.KernelIdeal.Agree.ops50_writes (by decide)).trans (h_v385.trans (after_of_writes_sub _ WR Cert.ReferenceIdeal.Agree.ops50_writes (by decide)).symm)
  · exact (after_of_writes_sub _ WK Cert.KernelIdeal.Agree.ops50_writes (by decide)).trans (h_v469.trans (after_of_writes_sub _ WR Cert.ReferenceIdeal.Agree.ops50_writes (by decide)).symm)
  · exact (after_of_writes_sub _ WK Cert.KernelIdeal.Agree.ops50_writes (by decide)).trans (h_v553.trans (after_of_writes_sub _ WR Cert.ReferenceIdeal.Agree.ops50_writes (by decide)).symm)
  · exact (after_of_writes_sub _ WK Cert.KernelIdeal.Agree.ops50_writes (by decide)).trans (h_v637.trans (after_of_writes_sub _ WR Cert.ReferenceIdeal.Agree.ops50_writes (by decide)).symm)
  · exact (after_of_writes_sub _ WK Cert.KernelIdeal.Agree.ops50_writes (by decide)).trans (h_v721.trans (after_of_writes_sub _ WR Cert.ReferenceIdeal.Agree.ops50_writes (by decide)).symm)
  · exact (after_of_writes_sub _ WK Cert.KernelIdeal.Agree.ops50_writes (by decide)).trans (h_v805.trans (after_of_writes_sub _ WR Cert.ReferenceIdeal.Agree.ops50_writes (by decide)).symm)
  · exact (after_of_writes_sub _ WK Cert.KernelIdeal.Agree.ops50_writes (by decide)).trans (h_v889.trans (after_of_writes_sub _ WR Cert.ReferenceIdeal.Agree.ops50_writes (by decide)).symm)
  · exact (after_of_writes_sub _ WK Cert.KernelIdeal.Agree.ops50_writes (by decide)).trans (h_v973.trans (after_of_writes_sub _ WR Cert.ReferenceIdeal.Agree.ops50_writes (by decide)).symm)
  · exact (after_of_writes_sub _ WK Cert.KernelIdeal.Agree.ops50_writes (by decide)).trans (h_v1057.trans (after_of_writes_sub _ WR Cert.ReferenceIdeal.Agree.ops50_writes (by decide)).symm)
  · exact (after_of_writes_sub _ WK Cert.KernelIdeal.Agree.ops50_writes (by decide)).trans (h_v1141.trans (after_of_writes_sub _ WR Cert.ReferenceIdeal.Agree.ops50_writes (by decide)).symm)
  · exact (after_of_writes_sub _ WK Cert.KernelIdeal.Agree.ops50_writes (by decide)).trans (h_v1225.trans (after_of_writes_sub _ WR Cert.ReferenceIdeal.Agree.ops50_writes (by decide)).symm)
  · run_agrees [h_v1306]

set_option maxHeartbeats 800000 in
/-- Run 51 (operations 2598 to 2598): agreement on the 16 buffers live before it gives agreement on the 12 live after it. -/
theorem step51
    (h : WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1225) = WR (Proc.devRef .tc Cert.ReferenceIdeal.main_v1225)
      ∧ WK (Proc.devRef .tc Cert.KernelIdeal.main_v1309) = WR (Proc.devRef .tc Cert.ReferenceIdeal.main_v1309)) :
    (after (Cert.KernelIdeal.Agree.ops51 (F := F)) WK) (Proc.devRef .tc Cert.KernelIdeal.main_v85) = (after (Cert.ReferenceIdeal.Agree.ops51 (F := F)) WR) (Proc.devRef .tc Cert.ReferenceIdeal.main_v85)
      ∧ (after (Cert.KernelIdeal.Agree.ops51 (F := F)) WK) (Proc.devRef .tc Cert.KernelIdeal.main_v229) = (after (Cert.ReferenceIdeal.Agree.ops51 (F := F)) WR) (Proc.devRef .tc Cert.ReferenceIdeal.main_v229)
      ∧ (after (Cert.KernelIdeal.Agree.ops51 (F := F)) WK) (Proc.devRef .tc Cert.KernelIdeal.main_v301) = (after (Cert.ReferenceIdeal.Agree.ops51 (F := F)) WR) (Proc.devRef .tc Cert.ReferenceIdeal.main_v301)
      ∧ (after (Cert.KernelIdeal.Agree.ops51 (F := F)) WK) (Proc.devRef .tc Cert.KernelIdeal.main_v721) = (after (Cert.ReferenceIdeal.Agree.ops51 (F := F)) WR) (Proc.devRef .tc Cert.ReferenceIdeal.main_v721)
      ∧ (after (Cert.KernelIdeal.Agree.ops51 (F := F)) WK) (Proc.devRef .tc Cert.KernelIdeal.main_v805) = (after (Cert.ReferenceIdeal.Agree.ops51 (F := F)) WR) (Proc.devRef .tc Cert.ReferenceIdeal.main_v805)
      ∧ (after (Cert.KernelIdeal.Agree.ops51 (F := F)) WK) (Proc.devRef .tc Cert.KernelIdeal.main_v889) = (after (Cert.ReferenceIdeal.Agree.ops51 (F := F)) WR) (Proc.devRef .tc Cert.ReferenceIdeal.main_v889)
      ∧ (after (Cert.KernelIdeal.Agree.ops51 (F := F)) WK) (Proc.devRef .tc Cert.KernelIdeal.main_v973) = (after (Cert.ReferenceIdeal.Agree.ops51 (F := F)) WR) (Proc.devRef .tc Cert.ReferenceIdeal.main_v973)
      ∧ (after (Cert.KernelIdeal.Agree.ops51 (F := F)) WK) (Proc.devRef .tc Cert.KernelIdeal.main_v1057) = (after (Cert.ReferenceIdeal.Agree.ops51 (F := F)) WR) (Proc.devRef .tc Cert.ReferenceIdeal.main_v1057)
      ∧ (after (Cert.KernelIdeal.Agree.ops51 (F := F)) WK) (Proc.devRef .tc Cert.KernelIdeal.main_v1141) = (after (Cert.ReferenceIdeal.Agree.ops51 (F := F)) WR) (Proc.devRef .tc Cert.ReferenceIdeal.main_v1141)
      ∧ (after (Cert.KernelIdeal.Agree.ops51 (F := F)) WK) (Proc.devRef .tc Cert.KernelIdeal.main_v1225) = (after (Cert.ReferenceIdeal.Agree.ops51 (F := F)) WR) (Proc.devRef .tc Cert.ReferenceIdeal.main_v1225)
      ∧ (after (Cert.KernelIdeal.Agree.ops51 (F := F)) WK) (Proc.devRef .tc Cert.KernelIdeal.main_v1309) = (after (Cert.ReferenceIdeal.Agree.ops51 (F := F)) WR) (Proc.devRef .tc Cert.ReferenceIdeal.main_v1309)
      ∧ (after (Cert.KernelIdeal.Agree.ops51 (F := F)) WK) (Proc.devRef .tc Cert.KernelIdeal.main_v1310) = (after (Cert.ReferenceIdeal.Agree.ops51 (F := F)) WR) (Proc.devRef .tc Cert.ReferenceIdeal.main_v1310) := by
  obtain ⟨h_v85, h_v157, h_v229, h_v301, h_v385, h_v469, h_v553, h_v637, h_v721, h_v805, h_v889, h_v973, h_v1057, h_v1141, h_v1225, h_v1309⟩ := h
  have e0 : WK (Proc.devRef .tc (![Cert.KernelIdeal.main_v157, Cert.KernelIdeal.main_v385, Cert.KernelIdeal.main_v469, Cert.KernelIdeal.main_v553, Cert.KernelIdeal.main_v637, Cert.KernelIdeal.main_v85] 0)) = WR (Proc.devRef .tc (![Cert.ReferenceIdeal.main_v157, Cert.ReferenceIdeal.main_v385, Cert.ReferenceIdeal.main_v469, Cert.ReferenceIdeal.main_v553, Cert.ReferenceIdeal.main_v637, Cert.ReferenceIdeal.main_v85] 0)) := h_v157
  have e1 : WK (Proc.devRef .tc (![Cert.KernelIdeal.main_v157, Cert.KernelIdeal.main_v385, Cert.KernelIdeal.main_v469, Cert.KernelIdeal.main_v553, Cert.KernelIdeal.main_v637, Cert.KernelIdeal.main_v85] 1)) = WR (Proc.devRef .tc (![Cert.ReferenceIdeal.main_v157, Cert.ReferenceIdeal.main_v385, Cert.ReferenceIdeal.main_v469, Cert.ReferenceIdeal.main_v553, Cert.ReferenceIdeal.main_v637, Cert.ReferenceIdeal.main_v85] 1)) := h_v385
  have e2 : WK (Proc.devRef .tc (![Cert.KernelIdeal.main_v157, Cert.KernelIdeal.main_v385, Cert.KernelIdeal.main_v469, Cert.KernelIdeal.main_v553, Cert.KernelIdeal.main_v637, Cert.KernelIdeal.main_v85] 2)) = WR (Proc.devRef .tc (![Cert.ReferenceIdeal.main_v157, Cert.ReferenceIdeal.main_v385, Cert.ReferenceIdeal.main_v469, Cert.ReferenceIdeal.main_v553, Cert.ReferenceIdeal.main_v637, Cert.ReferenceIdeal.main_v85] 2)) := h_v469
  have e3 : WK (Proc.devRef .tc (![Cert.KernelIdeal.main_v157, Cert.KernelIdeal.main_v385, Cert.KernelIdeal.main_v469, Cert.KernelIdeal.main_v553, Cert.KernelIdeal.main_v637, Cert.KernelIdeal.main_v85] 3)) = WR (Proc.devRef .tc (![Cert.ReferenceIdeal.main_v157, Cert.ReferenceIdeal.main_v385, Cert.ReferenceIdeal.main_v469, Cert.ReferenceIdeal.main_v553, Cert.ReferenceIdeal.main_v637, Cert.ReferenceIdeal.main_v85] 3)) := h_v553
  have e4 : WK (Proc.devRef .tc (![Cert.KernelIdeal.main_v157, Cert.KernelIdeal.main_v385, Cert.KernelIdeal.main_v469, Cert.KernelIdeal.main_v553, Cert.KernelIdeal.main_v637, Cert.KernelIdeal.main_v85] 4)) = WR (Proc.devRef .tc (![Cert.ReferenceIdeal.main_v157, Cert.ReferenceIdeal.main_v385, Cert.ReferenceIdeal.main_v469, Cert.ReferenceIdeal.main_v553, Cert.ReferenceIdeal.main_v637, Cert.ReferenceIdeal.main_v85] 4)) := h_v637
  have e5 : WK (Proc.devRef .tc (![Cert.KernelIdeal.main_v157, Cert.KernelIdeal.main_v385, Cert.KernelIdeal.main_v469, Cert.KernelIdeal.main_v553, Cert.KernelIdeal.main_v637, Cert.KernelIdeal.main_v85] 5)) = WR (Proc.devRef .tc (![Cert.ReferenceIdeal.main_v157, Cert.ReferenceIdeal.main_v385, Cert.ReferenceIdeal.main_v469, Cert.ReferenceIdeal.main_v553, Cert.ReferenceIdeal.main_v637, Cert.ReferenceIdeal.main_v85] 5)) := h_v85
  refine ⟨?_, ?_, ?_, ?_, ?_, ?_, ?_, ?_, ?_, ?_, ?_, ?_⟩
  · exact (after_of_writes_sub _ WK Cert.KernelIdeal.Agree.ops51_writes (by decide)).trans (h_v85.trans (after_of_writes_sub _ WR Cert.ReferenceIdeal.Agree.ops51_writes (by decide)).symm)
  · exact (after_of_writes_sub _ WK Cert.KernelIdeal.Agree.ops51_writes (by decide)).trans (h_v229.trans (after_of_writes_sub _ WR Cert.ReferenceIdeal.Agree.ops51_writes (by decide)).symm)
  · exact (after_of_writes_sub _ WK Cert.KernelIdeal.Agree.ops51_writes (by decide)).trans (h_v301.trans (after_of_writes_sub _ WR Cert.ReferenceIdeal.Agree.ops51_writes (by decide)).symm)
  · exact (after_of_writes_sub _ WK Cert.KernelIdeal.Agree.ops51_writes (by decide)).trans (h_v721.trans (after_of_writes_sub _ WR Cert.ReferenceIdeal.Agree.ops51_writes (by decide)).symm)
  · exact (after_of_writes_sub _ WK Cert.KernelIdeal.Agree.ops51_writes (by decide)).trans (h_v805.trans (after_of_writes_sub _ WR Cert.ReferenceIdeal.Agree.ops51_writes (by decide)).symm)
  · exact (after_of_writes_sub _ WK Cert.KernelIdeal.Agree.ops51_writes (by decide)).trans (h_v889.trans (after_of_writes_sub _ WR Cert.ReferenceIdeal.Agree.ops51_writes (by decide)).symm)
  · exact (after_of_writes_sub _ WK Cert.KernelIdeal.Agree.ops51_writes (by decide)).trans (h_v973.trans (after_of_writes_sub _ WR Cert.ReferenceIdeal.Agree.ops51_writes (by decide)).symm)
  · exact (after_of_writes_sub _ WK Cert.KernelIdeal.Agree.ops51_writes (by decide)).trans (h_v1057.trans (after_of_writes_sub _ WR Cert.ReferenceIdeal.Agree.ops51_writes (by decide)).symm)
  · exact (after_of_writes_sub _ WK Cert.KernelIdeal.Agree.ops51_writes (by decide)).trans (h_v1141.trans (after_of_writes_sub _ WR Cert.ReferenceIdeal.Agree.ops51_writes (by decide)).symm)
  · exact (after_of_writes_sub _ WK Cert.KernelIdeal.Agree.ops51_writes (by decide)).trans (h_v1225.trans (after_of_writes_sub _ WR Cert.ReferenceIdeal.Agree.ops51_writes (by decide)).symm)
  · exact (after_of_writes_sub _ WK Cert.KernelIdeal.Agree.ops51_writes (by decide)).trans (h_v1309.trans (after_of_writes_sub _ WR Cert.ReferenceIdeal.Agree.ops51_writes (by decide)).symm)
  · after_results; beta_reduce; rw [e0, e1, e2, e3, e4, e5]

set_option maxHeartbeats 800000 in
/-- Run 52 (operations 2599 to 2599): agreement on the 12 buffers live before it gives agreement on the 8 live after it. -/
theorem step52
    (h : WK (Proc.devRef .tc Cert.KernelIdeal.main_v85) = WR (Proc.devRef .tc Cert.ReferenceIdeal.main_v85)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1225) = WR (Proc.devRef .tc Cert.ReferenceIdeal.main_v1225)
      ∧ WK (Proc.devRef .tc Cert.KernelIdeal.main_v1309) = WR (Proc.devRef .tc Cert.ReferenceIdeal.main_v1309)
      ∧ WK (Proc.devRef .tc Cert.KernelIdeal.main_v1310) = WR (Proc.devRef .tc Cert.ReferenceIdeal.main_v1310)) :
    (after (Cert.KernelIdeal.Agree.ops52 (F := F)) WK) (Proc.devRef .tc Cert.KernelIdeal.main_v85) = (after (Cert.ReferenceIdeal.Agree.ops52 (F := F)) WR) (Proc.devRef .tc Cert.ReferenceIdeal.main_v85)
      ∧ (after (Cert.KernelIdeal.Agree.ops52 (F := F)) WK) (Proc.devRef .tc Cert.KernelIdeal.main_v301) = (after (Cert.ReferenceIdeal.Agree.ops52 (F := F)) WR) (Proc.devRef .tc Cert.ReferenceIdeal.main_v301)
      ∧ (after (Cert.KernelIdeal.Agree.ops52 (F := F)) WK) (Proc.devRef .tc Cert.KernelIdeal.main_v1057) = (after (Cert.ReferenceIdeal.Agree.ops52 (F := F)) WR) (Proc.devRef .tc Cert.ReferenceIdeal.main_v1057)
      ∧ (after (Cert.KernelIdeal.Agree.ops52 (F := F)) WK) (Proc.devRef .tc Cert.KernelIdeal.main_v1141) = (after (Cert.ReferenceIdeal.Agree.ops52 (F := F)) WR) (Proc.devRef .tc Cert.ReferenceIdeal.main_v1141)
      ∧ (after (Cert.KernelIdeal.Agree.ops52 (F := F)) WK) (Proc.devRef .tc Cert.KernelIdeal.main_v1225) = (after (Cert.ReferenceIdeal.Agree.ops52 (F := F)) WR) (Proc.devRef .tc Cert.ReferenceIdeal.main_v1225)
      ∧ (after (Cert.KernelIdeal.Agree.ops52 (F := F)) WK) (Proc.devRef .tc Cert.KernelIdeal.main_v1309) = (after (Cert.ReferenceIdeal.Agree.ops52 (F := F)) WR) (Proc.devRef .tc Cert.ReferenceIdeal.main_v1309)
      ∧ (after (Cert.KernelIdeal.Agree.ops52 (F := F)) WK) (Proc.devRef .tc Cert.KernelIdeal.main_v1310) = (after (Cert.ReferenceIdeal.Agree.ops52 (F := F)) WR) (Proc.devRef .tc Cert.ReferenceIdeal.main_v1310)
      ∧ (after (Cert.KernelIdeal.Agree.ops52 (F := F)) WK) (Proc.devRef .tc Cert.KernelIdeal.main_v1311) = (after (Cert.ReferenceIdeal.Agree.ops52 (F := F)) WR) (Proc.devRef .tc Cert.ReferenceIdeal.main_v1311) := by
  obtain ⟨h_v85, h_v229, h_v301, h_v721, h_v805, h_v889, h_v973, h_v1057, h_v1141, h_v1225, h_v1309, h_v1310⟩ := h
  have e0 : WK (Proc.devRef .tc (![Cert.KernelIdeal.main_v229, Cert.KernelIdeal.main_v721, Cert.KernelIdeal.main_v805, Cert.KernelIdeal.main_v889, Cert.KernelIdeal.main_v973, Cert.KernelIdeal.main_v85] 0)) = WR (Proc.devRef .tc (![Cert.ReferenceIdeal.main_v229, Cert.ReferenceIdeal.main_v721, Cert.ReferenceIdeal.main_v805, Cert.ReferenceIdeal.main_v889, Cert.ReferenceIdeal.main_v973, Cert.ReferenceIdeal.main_v85] 0)) := h_v229
  have e1 : WK (Proc.devRef .tc (![Cert.KernelIdeal.main_v229, Cert.KernelIdeal.main_v721, Cert.KernelIdeal.main_v805, Cert.KernelIdeal.main_v889, Cert.KernelIdeal.main_v973, Cert.KernelIdeal.main_v85] 1)) = WR (Proc.devRef .tc (![Cert.ReferenceIdeal.main_v229, Cert.ReferenceIdeal.main_v721, Cert.ReferenceIdeal.main_v805, Cert.ReferenceIdeal.main_v889, Cert.ReferenceIdeal.main_v973, Cert.ReferenceIdeal.main_v85] 1)) := h_v721
  have e2 : WK (Proc.devRef .tc (![Cert.KernelIdeal.main_v229, Cert.KernelIdeal.main_v721, Cert.KernelIdeal.main_v805, Cert.KernelIdeal.main_v889, Cert.KernelIdeal.main_v973, Cert.KernelIdeal.main_v85] 2)) = WR (Proc.devRef .tc (![Cert.ReferenceIdeal.main_v229, Cert.ReferenceIdeal.main_v721, Cert.ReferenceIdeal.main_v805, Cert.ReferenceIdeal.main_v889, Cert.ReferenceIdeal.main_v973, Cert.ReferenceIdeal.main_v85] 2)) := h_v805
  have e3 : WK (Proc.devRef .tc (![Cert.KernelIdeal.main_v229, Cert.KernelIdeal.main_v721, Cert.KernelIdeal.main_v805, Cert.KernelIdeal.main_v889, Cert.KernelIdeal.main_v973, Cert.KernelIdeal.main_v85] 3)) = WR (Proc.devRef .tc (![Cert.ReferenceIdeal.main_v229, Cert.ReferenceIdeal.main_v721, Cert.ReferenceIdeal.main_v805, Cert.ReferenceIdeal.main_v889, Cert.ReferenceIdeal.main_v973, Cert.ReferenceIdeal.main_v85] 3)) := h_v889
  have e4 : WK (Proc.devRef .tc (![Cert.KernelIdeal.main_v229, Cert.KernelIdeal.main_v721, Cert.KernelIdeal.main_v805, Cert.KernelIdeal.main_v889, Cert.KernelIdeal.main_v973, Cert.KernelIdeal.main_v85] 4)) = WR (Proc.devRef .tc (![Cert.ReferenceIdeal.main_v229, Cert.ReferenceIdeal.main_v721, Cert.ReferenceIdeal.main_v805, Cert.ReferenceIdeal.main_v889, Cert.ReferenceIdeal.main_v973, Cert.ReferenceIdeal.main_v85] 4)) := h_v973
  have e5 : WK (Proc.devRef .tc (![Cert.KernelIdeal.main_v229, Cert.KernelIdeal.main_v721, Cert.KernelIdeal.main_v805, Cert.KernelIdeal.main_v889, Cert.KernelIdeal.main_v973, Cert.KernelIdeal.main_v85] 5)) = WR (Proc.devRef .tc (![Cert.ReferenceIdeal.main_v229, Cert.ReferenceIdeal.main_v721, Cert.ReferenceIdeal.main_v805, Cert.ReferenceIdeal.main_v889, Cert.ReferenceIdeal.main_v973, Cert.ReferenceIdeal.main_v85] 5)) := h_v85
  refine ⟨?_, ?_, ?_, ?_, ?_, ?_, ?_, ?_⟩
  · exact (after_of_writes_sub _ WK Cert.KernelIdeal.Agree.ops52_writes (by decide)).trans (h_v85.trans (after_of_writes_sub _ WR Cert.ReferenceIdeal.Agree.ops52_writes (by decide)).symm)
  · exact (after_of_writes_sub _ WK Cert.KernelIdeal.Agree.ops52_writes (by decide)).trans (h_v301.trans (after_of_writes_sub _ WR Cert.ReferenceIdeal.Agree.ops52_writes (by decide)).symm)
  · exact (after_of_writes_sub _ WK Cert.KernelIdeal.Agree.ops52_writes (by decide)).trans (h_v1057.trans (after_of_writes_sub _ WR Cert.ReferenceIdeal.Agree.ops52_writes (by decide)).symm)
  · exact (after_of_writes_sub _ WK Cert.KernelIdeal.Agree.ops52_writes (by decide)).trans (h_v1141.trans (after_of_writes_sub _ WR Cert.ReferenceIdeal.Agree.ops52_writes (by decide)).symm)
  · exact (after_of_writes_sub _ WK Cert.KernelIdeal.Agree.ops52_writes (by decide)).trans (h_v1225.trans (after_of_writes_sub _ WR Cert.ReferenceIdeal.Agree.ops52_writes (by decide)).symm)
  · exact (after_of_writes_sub _ WK Cert.KernelIdeal.Agree.ops52_writes (by decide)).trans (h_v1309.trans (after_of_writes_sub _ WR Cert.ReferenceIdeal.Agree.ops52_writes (by decide)).symm)
  · exact (after_of_writes_sub _ WK Cert.KernelIdeal.Agree.ops52_writes (by decide)).trans (h_v1310.trans (after_of_writes_sub _ WR Cert.ReferenceIdeal.Agree.ops52_writes (by decide)).symm)
  · after_results; beta_reduce; rw [e0, e1, e2, e3, e4, e5]

set_option maxHeartbeats 800000 in
/-- Run 53 (operations 2600 to 2603): agreement on the 8 buffers live before it gives agreement on the 3 live after it. -/
theorem step53
    (h : WK (Proc.devRef .tc Cert.KernelIdeal.main_v85) = WR (Proc.devRef .tc Cert.ReferenceIdeal.main_v85)
      ∧ WK (Proc.devRef .tc Cert.KernelIdeal.main_v301) = WR (Proc.devRef .tc Cert.ReferenceIdeal.main_v301)
      ∧ WK (Proc.devRef .tc Cert.KernelIdeal.main_v1057) = WR (Proc.devRef .tc Cert.ReferenceIdeal.main_v1057)
      ∧ WK (Proc.devRef .tc Cert.KernelIdeal.main_v1141) = WR (Proc.devRef .tc Cert.ReferenceIdeal.main_v1141)
      ∧ WK (Proc.devRef .tc Cert.KernelIdeal.main_v1225) = WR (Proc.devRef .tc Cert.ReferenceIdeal.main_v1225)
      ∧ WK (Proc.devRef .tc Cert.KernelIdeal.main_v1309) = WR (Proc.devRef .tc Cert.ReferenceIdeal.main_v1309)
      ∧ WK (Proc.devRef .tc Cert.KernelIdeal.main_v1310) = WR (Proc.devRef .tc Cert.ReferenceIdeal.main_v1310)
      ∧ WK (Proc.devRef .tc Cert.KernelIdeal.main_v1311) = WR (Proc.devRef .tc Cert.ReferenceIdeal.main_v1311)) :
    (after (Cert.KernelIdeal.Agree.ops53 (F := F)) WK) (Proc.devRef .tc Cert.KernelIdeal.main_v1313) = (after (Cert.ReferenceIdeal.Agree.ops53 (F := F)) WR) (Proc.devRef .tc Cert.ReferenceIdeal.main_v1313)
      ∧ (after (Cert.KernelIdeal.Agree.ops53 (F := F)) WK) (Proc.devRef .tc Cert.KernelIdeal.main_v1314) = (after (Cert.ReferenceIdeal.Agree.ops53 (F := F)) WR) (Proc.devRef .tc Cert.ReferenceIdeal.main_v1314)
      ∧ (after (Cert.KernelIdeal.Agree.ops53 (F := F)) WK) (Proc.devRef .tc Cert.KernelIdeal.main_v1315) = (after (Cert.ReferenceIdeal.Agree.ops53 (F := F)) WR) (Proc.devRef .tc Cert.ReferenceIdeal.main_v1315) := by
  obtain ⟨h_v85, h_v301, h_v1057, h_v1141, h_v1225, h_v1309, h_v1310, h_v1311⟩ := h
  have e0 : WK (Proc.devRef .tc (![Cert.KernelIdeal.main_v301, Cert.KernelIdeal.main_v1057, Cert.KernelIdeal.main_v1141, Cert.KernelIdeal.main_v1225, Cert.KernelIdeal.main_v1309, Cert.KernelIdeal.main_v85] 0)) = WR (Proc.devRef .tc (![Cert.ReferenceIdeal.main_v301, Cert.ReferenceIdeal.main_v1057, Cert.ReferenceIdeal.main_v1141, Cert.ReferenceIdeal.main_v1225, Cert.ReferenceIdeal.main_v1309, Cert.ReferenceIdeal.main_v85] 0)) := h_v301
  have e1 : WK (Proc.devRef .tc (![Cert.KernelIdeal.main_v301, Cert.KernelIdeal.main_v1057, Cert.KernelIdeal.main_v1141, Cert.KernelIdeal.main_v1225, Cert.KernelIdeal.main_v1309, Cert.KernelIdeal.main_v85] 1)) = WR (Proc.devRef .tc (![Cert.ReferenceIdeal.main_v301, Cert.ReferenceIdeal.main_v1057, Cert.ReferenceIdeal.main_v1141, Cert.ReferenceIdeal.main_v1225, Cert.ReferenceIdeal.main_v1309, Cert.ReferenceIdeal.main_v85] 1)) := h_v1057
  have e2 : WK (Proc.devRef .tc (![Cert.KernelIdeal.main_v301, Cert.KernelIdeal.main_v1057, Cert.KernelIdeal.main_v1141, Cert.KernelIdeal.main_v1225, Cert.KernelIdeal.main_v1309, Cert.KernelIdeal.main_v85] 2)) = WR (Proc.devRef .tc (![Cert.ReferenceIdeal.main_v301, Cert.ReferenceIdeal.main_v1057, Cert.ReferenceIdeal.main_v1141, Cert.ReferenceIdeal.main_v1225, Cert.ReferenceIdeal.main_v1309, Cert.ReferenceIdeal.main_v85] 2)) := h_v1141
  have e3 : WK (Proc.devRef .tc (![Cert.KernelIdeal.main_v301, Cert.KernelIdeal.main_v1057, Cert.KernelIdeal.main_v1141, Cert.KernelIdeal.main_v1225, Cert.KernelIdeal.main_v1309, Cert.KernelIdeal.main_v85] 3)) = WR (Proc.devRef .tc (![Cert.ReferenceIdeal.main_v301, Cert.ReferenceIdeal.main_v1057, Cert.ReferenceIdeal.main_v1141, Cert.ReferenceIdeal.main_v1225, Cert.ReferenceIdeal.main_v1309, Cert.ReferenceIdeal.main_v85] 3)) := h_v1225
  have e4 : WK (Proc.devRef .tc (![Cert.KernelIdeal.main_v301, Cert.KernelIdeal.main_v1057, Cert.KernelIdeal.main_v1141, Cert.KernelIdeal.main_v1225, Cert.KernelIdeal.main_v1309, Cert.KernelIdeal.main_v85] 4)) = WR (Proc.devRef .tc (![Cert.ReferenceIdeal.main_v301, Cert.ReferenceIdeal.main_v1057, Cert.ReferenceIdeal.main_v1141, Cert.ReferenceIdeal.main_v1225, Cert.ReferenceIdeal.main_v1309, Cert.ReferenceIdeal.main_v85] 4)) := h_v1309
  have e5 : WK (Proc.devRef .tc (![Cert.KernelIdeal.main_v301, Cert.KernelIdeal.main_v1057, Cert.KernelIdeal.main_v1141, Cert.KernelIdeal.main_v1225, Cert.KernelIdeal.main_v1309, Cert.KernelIdeal.main_v85] 5)) = WR (Proc.devRef .tc (![Cert.ReferenceIdeal.main_v301, Cert.ReferenceIdeal.main_v1057, Cert.ReferenceIdeal.main_v1141, Cert.ReferenceIdeal.main_v1225, Cert.ReferenceIdeal.main_v1309, Cert.ReferenceIdeal.main_v85] 5)) := h_v85
  refine ⟨?_, ?_, ?_⟩
  · run_agrees [h_v1310]
  · run_agrees [h_v1311]
  · after_results; beta_reduce; rw [e0, e1, e2, e3, e4, e5]

set_option maxHeartbeats 800000 in
/-- Run 54 (operations 2604 to 2604): agreement on the 3 buffers live before it gives agreement on the 1 live after it. -/
theorem step54
    (h : WK (Proc.devRef .tc Cert.KernelIdeal.main_v1313) = WR (Proc.devRef .tc Cert.ReferenceIdeal.main_v1313)
      ∧ WK (Proc.devRef .tc Cert.KernelIdeal.main_v1314) = WR (Proc.devRef .tc Cert.ReferenceIdeal.main_v1314)
      ∧ WK (Proc.devRef .tc Cert.KernelIdeal.main_v1315) = WR (Proc.devRef .tc Cert.ReferenceIdeal.main_v1315)) :
    (after (Cert.KernelIdeal.Agree.ops54 (F := F)) WK) (Proc.devRef .tc Cert.KernelIdeal.main_v1316) = (after (Cert.ReferenceIdeal.Agree.ops54 (F := F)) WR) (Proc.devRef .tc Cert.ReferenceIdeal.main_v1316) := by
  obtain ⟨h_v1313, h_v1314, h_v1315⟩ := h
  have e0 : WK (Proc.devRef .tc (![Cert.KernelIdeal.main_v1313, Cert.KernelIdeal.main_v1314, Cert.KernelIdeal.main_v1315] 0)) = WR (Proc.devRef .tc (![Cert.ReferenceIdeal.main_v1313, Cert.ReferenceIdeal.main_v1314, Cert.ReferenceIdeal.main_v1315] 0)) := h_v1313
  have e1 : WK (Proc.devRef .tc (![Cert.KernelIdeal.main_v1313, Cert.KernelIdeal.main_v1314, Cert.KernelIdeal.main_v1315] 1)) = WR (Proc.devRef .tc (![Cert.ReferenceIdeal.main_v1313, Cert.ReferenceIdeal.main_v1314, Cert.ReferenceIdeal.main_v1315] 1)) := h_v1314
  have e2 : WK (Proc.devRef .tc (![Cert.KernelIdeal.main_v1313, Cert.KernelIdeal.main_v1314, Cert.KernelIdeal.main_v1315] 2)) = WR (Proc.devRef .tc (![Cert.ReferenceIdeal.main_v1313, Cert.ReferenceIdeal.main_v1314, Cert.ReferenceIdeal.main_v1315] 2)) := h_v1315
  after_results; beta_reduce; rw [e0, e1, e2]

/-- The whole part: agreement on the 17 buffers live before it gives agreement on the 1 live after it. -/
theorem part7
    (h : WK (Proc.devRef .tc Cert.KernelIdeal.main_v0) = WR (Proc.devRef .tc Cert.ReferenceIdeal.main_v0)
      ∧ WK (Proc.devRef .tc Cert.KernelIdeal.main_v18) = WR (Proc.devRef .tc Cert.ReferenceIdeal.main_v18)
      ∧ WK (Proc.devRef .tc Cert.KernelIdeal.main_v23) = WR (Proc.devRef .tc Cert.ReferenceIdeal.main_v23)
      ∧ WK (Proc.devRef .tc Cert.KernelIdeal.main_v85) = WR (Proc.devRef .tc Cert.ReferenceIdeal.main_v85)
      ∧ WK (Proc.devRef .tc Cert.KernelIdeal.main_v157) = WR (Proc.devRef .tc Cert.ReferenceIdeal.main_v157)
      ∧ WK (Proc.devRef .tc Cert.KernelIdeal.main_v229) = WR (Proc.devRef .tc Cert.ReferenceIdeal.main_v229)
      ∧ WK (Proc.devRef .tc Cert.KernelIdeal.main_v301) = WR (Proc.devRef .tc Cert.ReferenceIdeal.main_v301)
      ∧ WK (Proc.devRef .tc Cert.KernelIdeal.main_v385) = WR (Proc.devRef .tc Cert.ReferenceIdeal.main_v385)
      ∧ WK (Proc.devRef .tc Cert.KernelIdeal.main_v469) = WR (Proc.devRef .tc Cert.ReferenceIdeal.main_v469)
      ∧ WK (Proc.devRef .tc Cert.KernelIdeal.main_v553) = WR (Proc.devRef .tc Cert.ReferenceIdeal.main_v553)
      ∧ WK (Proc.devRef .tc Cert.KernelIdeal.main_v637) = WR (Proc.devRef .tc Cert.ReferenceIdeal.main_v637)
      ∧ WK (Proc.devRef .tc Cert.KernelIdeal.main_v721) = WR (Proc.devRef .tc Cert.ReferenceIdeal.main_v721)
      ∧ WK (Proc.devRef .tc Cert.KernelIdeal.main_v805) = WR (Proc.devRef .tc Cert.ReferenceIdeal.main_v805)
      ∧ WK (Proc.devRef .tc Cert.KernelIdeal.main_v889) = WR (Proc.devRef .tc Cert.ReferenceIdeal.main_v889)
      ∧ WK (Proc.devRef .tc Cert.KernelIdeal.main_v973) = WR (Proc.devRef .tc Cert.ReferenceIdeal.main_v973)
      ∧ WK (Proc.devRef .tc Cert.KernelIdeal.main_v1057) = WR (Proc.devRef .tc Cert.ReferenceIdeal.main_v1057)
      ∧ WK (Proc.devRef .tc Cert.KernelIdeal.main_v1138) = WR (Proc.devRef .tc Cert.ReferenceIdeal.main_v1138)) :
    (after (Cert.KernelIdeal.Agree.part7 (F := F)) WK) (Proc.devRef .tc Cert.KernelIdeal.main_v1316) = (after (Cert.ReferenceIdeal.Agree.part7 (F := F)) WR) (Proc.devRef .tc Cert.ReferenceIdeal.main_v1316) := by
  have s44 := step44 WK WR h
  have s45 := step45 (after (Cert.KernelIdeal.Agree.ops44 (F := F)) WK) (after (Cert.ReferenceIdeal.Agree.ops44 (F := F)) WR) s44
  have s46 := step46 (after (Cert.KernelIdeal.Agree.ops45 (F := F)) (after (Cert.KernelIdeal.Agree.ops44 (F := F)) WK)) (after (Cert.ReferenceIdeal.Agree.ops45 (F := F)) (after (Cert.ReferenceIdeal.Agree.ops44 (F := F)) WR)) s45
  have s47 := step47 (after (Cert.KernelIdeal.Agree.ops46 (F := F)) (after (Cert.KernelIdeal.Agree.ops45 (F := F)) (after (Cert.KernelIdeal.Agree.ops44 (F := F)) WK))) (after (Cert.ReferenceIdeal.Agree.ops46 (F := F)) (after (Cert.ReferenceIdeal.Agree.ops45 (F := F)) (after (Cert.ReferenceIdeal.Agree.ops44 (F := F)) WR))) s46
  have s48 := step48 (after (Cert.KernelIdeal.Agree.ops47 (F := F)) (after (Cert.KernelIdeal.Agree.ops46 (F := F)) (after (Cert.KernelIdeal.Agree.ops45 (F := F)) (after (Cert.KernelIdeal.Agree.ops44 (F := F)) WK)))) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR)))) s47
  have s49 := step49 (after (Cert.KernelIdeal.Agree.ops48 (F := F)) (after (Cert.KernelIdeal.Agree.ops47 (F := F)) (after (Cert.KernelIdeal.Agree.ops46 (F := F)) (after (Cert.KernelIdeal.Agree.ops45 (F := F)) (after (Cert.KernelIdeal.Agree.ops44 (F := F)) WK))))) (after (Cert.ReferenceIdeal.Agree.ops48 (F := F)) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR))))) s48
  have s50 := step50 (after (Cert.KernelIdeal.Agree.ops49 (F := F)) (after (Cert.KernelIdeal.Agree.ops48 (F := F)) (after (Cert.KernelIdeal.Agree.ops47 (F := F)) (after (Cert.KernelIdeal.Agree.ops46 (F := F)) (after (Cert.KernelIdeal.Agree.ops45 (F := F)) (after (Cert.KernelIdeal.Agree.ops44 (F := F)) WK)))))) (after (Cert.ReferenceIdeal.Agree.ops49 (F := F)) (after (Cert.ReferenceIdeal.Agree.ops48 (F := F)) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR)))))) s49
  have s51 := step51 (after (Cert.KernelIdeal.Agree.ops50 (F := F)) (after (Cert.KernelIdeal.Agree.ops49 (F := F)) (after (Cert.KernelIdeal.Agree.ops48 (F := F)) (after (Cert.KernelIdeal.Agree.ops47 (F := F)) (after (Cert.KernelIdeal.Agree.ops46 (F := F)) (after (Cert.KernelIdeal.Agree.ops45 (F := F)) (after (Cert.KernelIdeal.Agree.ops44 (F := F)) WK))))))) (after (Cert.ReferenceIdeal.Agree.ops50 (F := F)) (after (Cert.ReferenceIdeal.Agree.ops49 (F := F)) (after (Cert.ReferenceIdeal.Agree.ops48 (F := F)) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR))))))) s50
  have s52 := step52 (after (Cert.KernelIdeal.Agree.ops51 (F := F)) (after (Cert.KernelIdeal.Agree.ops50 (F := F)) (after (Cert.KernelIdeal.Agree.ops49 (F := F)) (after (Cert.KernelIdeal.Agree.ops48 (F := F)) (after (Cert.KernelIdeal.Agree.ops47 (F := F)) (after (Cert.KernelIdeal.Agree.ops46 (F := F)) (after (Cert.KernelIdeal.Agree.ops45 (F := F)) (after (Cert.KernelIdeal.Agree.ops44 (F := F)) WK)))))))) (after (Cert.ReferenceIdeal.Agree.ops51 (F := F)) (after (Cert.ReferenceIdeal.Agree.ops50 (F := F)) (after (Cert.ReferenceIdeal.Agree.ops49 (F := F)) (after (Cert.ReferenceIdeal.Agree.ops48 (F := F)) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR)))))))) s51
  have s53 := step53 (after (Cert.KernelIdeal.Agree.ops52 (F := F)) (after (Cert.KernelIdeal.Agree.ops51 (F := F)) (after (Cert.KernelIdeal.Agree.ops50 (F := F)) (after (Cert.KernelIdeal.Agree.ops49 (F := F)) (after (Cert.KernelIdeal.Agree.ops48 (F := F)) (after (Cert.KernelIdeal.Agree.ops47 (F := F)) (after (Cert.KernelIdeal.Agree.ops46 (F := F)) (after (Cert.KernelIdeal.Agree.ops45 (F := F)) (after (Cert.KernelIdeal.Agree.ops44 (F := F)) WK))))))))) (after (Cert.ReferenceIdeal.Agree.ops52 (F := F)) (after (Cert.ReferenceIdeal.Agree.ops51 (F := F)) (after (Cert.ReferenceIdeal.Agree.ops50 (F := F)) (after (Cert.ReferenceIdeal.Agree.ops49 (F := F)) (after (Cert.ReferenceIdeal.Agree.ops48 (F := F)) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR))))))))) s52
  have s54 := step54 (after (Cert.KernelIdeal.Agree.ops53 (F := F)) (after (Cert.KernelIdeal.Agree.ops52 (F := F)) (after (Cert.KernelIdeal.Agree.ops51 (F := F)) (after (Cert.KernelIdeal.Agree.ops50 (F := F)) (after (Cert.KernelIdeal.Agree.ops49 (F := F)) (after (Cert.KernelIdeal.Agree.ops48 (F := F)) (after (Cert.KernelIdeal.Agree.ops47 (F := F)) (after (Cert.KernelIdeal.Agree.ops46 (F := F)) (after (Cert.KernelIdeal.Agree.ops45 (F := F)) (after (Cert.KernelIdeal.Agree.ops44 (F := F)) WK)))))))))) (after (Cert.ReferenceIdeal.Agree.ops53 (F := F)) (after (Cert.ReferenceIdeal.Agree.ops52 (F := F)) (after (Cert.ReferenceIdeal.Agree.ops51 (F := F)) (after (Cert.ReferenceIdeal.Agree.ops50 (F := F)) (after (Cert.ReferenceIdeal.Agree.ops49 (F := F)) (after (Cert.ReferenceIdeal.Agree.ops48 (F := F)) (after (Cert.ReferenceIdeal.Agree.ops47 (F := F)) (after (Cert.ReferenceIdeal.Agree.ops46 (F := F)) (after (Cert.ReferenceIdeal.Agree.ops45 (F := F)) (after (Cert.ReferenceIdeal.Agree.ops44 (F := F)) WR)))))))))) s53
  simp only [Cert.KernelIdeal.Agree.part7, Cert.ReferenceIdeal.Agree.part7, after_append]
  exact s54

end Cert.Agree

end
-- ==== Proof.Agree.Bridge.lean ====
/- The reference's host part as its own module lays it out (Proof/RefRun.lean: 220 lists of operations, in order) is, part by
  part, the same list of operations as the parts of Proof/Agree/Part0.lean … Part7.lean read in the reference's namespace:
  both are the program's text, cut at different places. -/
import proofs.«107941_j79491254714775_1_alg».proof.Proof.RefRun
import proofs.«107941_j79491254714775_1_alg».proof.Proof.Agree.Part0
import proofs.«107941_j79491254714775_1_alg».proof.Proof.Agree.Part1
import proofs.«107941_j79491254714775_1_alg».proof.Proof.Agree.Part2
import proofs.«107941_j79491254714775_1_alg».proof.Proof.Agree.Part3
import proofs.«107941_j79491254714775_1_alg».proof.Proof.Agree.Part4
import proofs.«107941_j79491254714775_1_alg».proof.Proof.Agree.Part5
import proofs.«107941_j79491254714775_1_alg».proof.Proof.Agree.Part6
import proofs.«107941_j79491254714775_1_alg».proof.Proof.Agree.Part7

set_option maxRecDepth 16384

noncomputable section

namespace Cert.ReferenceIdeal.Agree
open Idealize.ShloMosaic Idealize.ShloMosaic.TcCoe Idealize.SL.Sem
open Cert.ReferenceIdeal Cert.ReferenceIdeal.Gen Cert.ReferenceIdeal.Host
variable {F : FTy → Type} [FloatOps F]
/-- The reference's own lists holding operations 0 to 321, in order, are part 0. -/
theorem part0_is : ([ops0_0, ops0_1, ops0_2, ops0_3, ops0_4, ops0_5, ops0_6, ops0_7, ops0_8, ops0_9, ops0_10, ops0_11, ops1_0, ops1_1, ops1_2, ops1_3, ops1_4, ops1_5, ops1_6, ops1_7, ops2_0, ops2_1, ops2_2, ops2_3, ops2_4, ops2_5, ops2_6, ops2_7, ops2_8, ops3_0, ops3_1] : List (List (HloOp τ sig (Elt F)))).flatten = part0 := rfl
/-- The reference's own lists holding operations 322 to 625, in order, are part 1. -/
theorem part1_is : ([ops3_2, ops3_3, ops3_4, ops3_5, ops3_6, ops3_7, ops3_8, ops3_9, ops3_10, ops4_0, ops4_1, ops4_2, ops4_3, ops4_4, ops4_5, ops4_6, ops4_7, ops4_8, ops4_9, ops5_0, ops5_1, ops5_2, ops5_3, ops5_4, ops5_5] : List (List (HloOp τ sig (Elt F)))).flatten = part1 := rfl
/-- The reference's own lists holding operations 626 to 953, in order, are part 2. -/
theorem part2_is : ([ops5_6, ops6_0, ops6_1, ops6_2, ops6_3, ops6_4, ops6_5, ops6_6, ops6_7, ops6_8, ops7_0, ops7_1, ops7_2, ops7_3, ops7_4, ops7_5, ops7_6, ops8_0, ops8_1, ops8_2, ops8_3, ops8_4, ops8_5, ops8_6, ops8_7, ops8_8, ops8_9] : List (List (HloOp τ sig (Elt F)))).flatten = part2 := rfl
/-- The reference's own lists holding operations 954 to 1281, in order, are part 3. -/
theorem part3_is : ([ops8_10, ops9_0, ops9_1, ops9_2, ops9_3, ops9_4, ops9_5, ops9_6, ops9_7, ops9_8, ops10_0, ops10_1, ops10_2, ops10_3, ops10_4, ops10_5, ops11_0, ops11_1, ops11_2, ops11_3, ops11_4, ops11_5, ops11_6, ops11_7, ops11_8, ops12_0, ops12_1] : List (List (HloOp τ sig (Elt F)))).flatten = part3 := rfl
/-- The reference's own lists holding operations 1282 to 1609, in order, are part 4. -/
theorem part4_is : ([ops12_2, ops12_3, ops12_4, ops12_5, ops12_6, ops12_7, ops12_8, ops12_9, ops13_0, ops13_1, ops13_2, ops13_3, ops13_4, ops14_0, ops14_1, ops14_2, ops14_3, ops14_4, ops14_5, ops14_6, ops14_7, ops14_8, ops15_0, ops15_1, ops15_2, ops15_3] : List (List (HloOp τ sig (Elt F)))).flatten = part4 := rfl
/-- The reference's own lists holding operations 1610 to 1937, in order, are part 5. -/
theorem part5_is : ([ops15_4, ops15_5, ops15_6, ops15_7, ops15_8, ops15_9, ops15_10, ops16_0, ops16_1, ops16_2, ops16_3, ops16_4, ops16_5, ops16_6, ops17_0, ops17_1, ops17_2, ops17_3, ops17_4, ops17_5, ops17_6, ops17_7, ops17_8, ops18_0, ops18_1, ops18_2, ops18_3] : List (List (HloOp τ sig (Elt F)))).flatten = part5 := rfl
/-- The reference's own lists holding operations 1938 to 2265, in order, are part 6. -/
theorem part6_is : ([ops18_4, ops18_5, ops18_6, ops18_7, ops19_0, ops19_1, ops19_2, ops19_3, ops19_4, ops19_5, ops19_6, ops19_7, ops19_8, ops20_0, ops20_1, ops20_2, ops20_3, ops20_4, ops20_5, ops20_6, ops20_7, ops20_8, ops21_0, ops21_1, ops21_2, ops21_3] : List (List (HloOp τ sig (Elt F)))).flatten = part6 := rfl
/-- The reference's own lists holding operations 2266 to 2604, in order, are part 7. -/
theorem part7_is : ([ops21_4, ops21_5, ops21_6, ops22_0, ops22_1, ops22_2, ops22_3, ops22_4, ops22_5, ops22_6, ops22_7, ops22_8, ops22_9, ops23_0, ops23_1, ops23_2, ops23_3, ops23_4, ops23_5, ops23_6, ops23_7, ops23_8, ops24_0, ops24_1, ops24_2, ops24_3, ops24_4, ops24_5, ops24_6, ops24_7, ops24_8] : List (List (HloOp τ sig (Elt F)))).flatten = part7 := rfl
end Cert.ReferenceIdeal.Agree

end
-- ==== Proof.Agree.lean ====
/-
  The two programs compute the pooled feature matrix by the same operations: the assembly.
  The host part before the kernel's region is cut into eight parts.  Each part carries agreement of
  the two sides on the buffers live before it to agreement on the buffers live after it.  Here the
  parts are put end to end: the kernel's stretches, flattened, are the eight parts in order; so are
  the reference's own lists of pooling operations; and agreement on the four arguments the host part
  reads is carried through all eight parts to the one buffer live at the end, the pooled feature
  matrix.
-/
import proofs.«107941_j79491254714775_1_alg».proof.Proof.Stretches
import proofs.«107941_j79491254714775_1_alg».proof.Proof.Agree.Bridge
import Idealize.ShloMosaic.Lib.StableHlo.Run
import Idealize.ShloMosaic.Lib.Pipeline.Frame

set_option maxRecDepth 16384

noncomputable section

namespace Cert.Agree
open Idealize.ShloMosaic Idealize.ShloMosaic.StableHlo

/-- The contents after eight lines run in a row are those after each line in turn. -/
theorem after_append8 {τ : Topo} {sig : RefSig} {Val : EltTy → Type}
    (l0 l1 l2 l3 l4 l5 l6 l7 : List (HloOp τ sig Val)) (V : Valuation τ sig Val) :
    after (l0 ++ l1 ++ l2 ++ l3 ++ l4 ++ l5 ++ l6 ++ l7) V
      = after l7 (after l6 (after l5 (after l4 (after l3 (after l2 (after l1 (after l0 V))))))) := by
  simp only [after_append]

end Cert.Agree

namespace Cert.KernelIdeal.Agree
open Idealize.ShloMosaic Idealize.ShloMosaic.TcCoe Idealize.SL.Sem
open Cert.KernelIdeal Cert.KernelIdeal.Gen
variable {F : FTy → Type} [FloatOps F]

/-- The kernel's host part: its eight parts in order. -/
abbrev allOps : List (HloOp τ sig (Elt F)) :=
  part0 ++ part1 ++ part2 ++ part3 ++ part4 ++ part5 ++ part6 ++ part7

/-- The kernel's stretches of host operations, flattened, are the eight parts in order: each part
    is the flattening of its own run of consecutive stretches, and the eight runs of stretches put
    end to end are all the stretches. -/
theorem stretches_flatten : (Cert.KernelIdeal.Acc.stretches (F := F)).flatten = allOps := by
  show _ = part0 ++ part1 ++ part2 ++ part3 ++ part4 ++ part5 ++ part6 ++ part7
  rw [← part0_is (F := F), ← part1_is (F := F), ← part2_is (F := F), ← part3_is (F := F),
    ← part4_is (F := F), ← part5_is (F := F), ← part6_is (F := F), ← part7_is (F := F)]
  simp only [← List.flatten_append]
  rfl

end Cert.KernelIdeal.Agree

namespace Cert.ReferenceIdeal.Agree
open Idealize.ShloMosaic Idealize.ShloMosaic.TcCoe Idealize.SL.Sem
open Cert.ReferenceIdeal Cert.ReferenceIdeal.Gen
variable {F : FTy → Type} [FloatOps F]

/-- The reference's host part up to the pooled feature matrix: its eight parts in order. -/
abbrev allOps : List (HloOp τ sig (Elt F)) :=
  part0 ++ part1 ++ part2 ++ part3 ++ part4 ++ part5 ++ part6 ++ part7

/-- The reference's pooling operations, laid end to end window by window, are the eight parts in
    order: each part is the flattening of its own run of consecutive lists, and the eight runs of
    lists put end to end are all the lists. -/
theorem allOps_eq : Cert.ReferenceIdeal.Host.prefixOps (F := F) = allOps := by
  show (Cert.ReferenceIdeal.Host.chunks (F := F)).flatten
    = part0 ++ part1 ++ part2 ++ part3 ++ part4 ++ part5 ++ part6 ++ part7
  rw [← part0_is (F := F), ← part1_is (F := F), ← part2_is (F := F), ← part3_is (F := F),
    ← part4_is (F := F), ← part5_is (F := F), ← part6_is (F := F), ← part7_is (F := F)]
  simp only [← List.flatten_append]
  rfl

end Cert.ReferenceIdeal.Agree

namespace Cert.Agree
open Idealize.ShloMosaic Idealize.ShloMosaic.TcCoe Idealize.SL.Sem Idealize.ShloMosaic.StableHlo
variable {F : FTy → Type} [FloatOps F]
variable (WK : Valuation Cert.KernelIdeal.τ Cert.KernelIdeal.sig (Elt F)) (WR : Valuation Cert.ReferenceIdeal.τ Cert.ReferenceIdeal.sig (Elt F))

/-- Agreeing on the four arguments the host part reads, the two sides agree on the pooled feature
    matrix: the kernel's after all its stretches, the reference's after its eight parts.  The
    agreement is carried part by part; the buffers live between two parts are exactly what the
    earlier part concludes and the later one assumes. -/
theorem same_total'
    (h0 : WK (Proc.devRef .tc Cert.KernelIdeal.main_arg0) = WR (Proc.devRef .tc Cert.ReferenceIdeal.main_arg0))
    (h1 : WK (Proc.devRef .tc Cert.KernelIdeal.main_arg1) = WR (Proc.devRef .tc Cert.ReferenceIdeal.main_arg1))
    (h2 : WK (Proc.devRef .tc Cert.KernelIdeal.main_arg2) = WR (Proc.devRef .tc Cert.ReferenceIdeal.main_arg2))
    (h3 : WK (Proc.devRef .tc Cert.KernelIdeal.main_arg3) = WR (Proc.devRef .tc Cert.ReferenceIdeal.main_arg3)) :
    after (Cert.KernelIdeal.Acc.stretches (F := F)).flatten WK (Proc.devRef .tc Cert.KernelIdeal.main_v1316)
      = after (Cert.ReferenceIdeal.Agree.allOps (F := F)) WR (Proc.devRef .tc Cert.ReferenceIdeal.main_v1316) := by
  have s0 := part0 WK WR ⟨h0, h1, h2, h3⟩
  have s1 := part1 (after (Cert.KernelIdeal.Agree.part0 (F := F)) WK)
    (after (Cert.ReferenceIdeal.Agree.part0 (F := F)) WR) s0
  have s2 := part2 (after (Cert.KernelIdeal.Agree.part1 (F := F)) (after (Cert.KernelIdeal.Agree.part0 (F := F)) WK))
    (after (Cert.ReferenceIdeal.Agree.part1 (F := F)) (after (Cert.ReferenceIdeal.Agree.part0 (F := F)) WR)) s1
  have s3 := part3 (after (Cert.KernelIdeal.Agree.part2 (F := F)) (after (Cert.KernelIdeal.Agree.part1 (F := F)) (after (Cert.KernelIdeal.Agree.part0 (F := F)) WK)))
    (after (Cert.ReferenceIdeal.Agree.part2 (F := F)) (after (Cert.ReferenceIdeal.Agree.part1 (F := F)) (after (Cert.ReferenceIdeal.Agree.part0 (F := F)) WR))) s2
  have s4 := part4 (after (Cert.KernelIdeal.Agree.part3 (F := F)) (after (Cert.KernelIdeal.Agree.part2 (F := F)) (after (Cert.KernelIdeal.Agree.part1 (F := F)) (after (Cert.KernelIdeal.Agree.part0 (F := F)) WK))))
    (after (Cert.ReferenceIdeal.Agree.part3 (F := F)) (after (Cert.ReferenceIdeal.Agree.part2 (F := F)) (after (Cert.ReferenceIdeal.Agree.part1 (F := F)) (after (Cert.ReferenceIdeal.Agree.part0 (F := F)) WR)))) s3
  have s5 := part5 (after (Cert.KernelIdeal.Agree.part4 (F := F)) (after (Cert.KernelIdeal.Agree.part3 (F := F)) (after (Cert.KernelIdeal.Agree.part2 (F := F)) (after (Cert.KernelIdeal.Agree.part1 (F := F)) (after (Cert.KernelIdeal.Agree.part0 (F := F)) WK)))))
    (after (Cert.ReferenceIdeal.Agree.part4 (F := F)) (after (Cert.ReferenceIdeal.Agree.part3 (F := F)) (after (Cert.ReferenceIdeal.Agree.part2 (F := F)) (after (Cert.ReferenceIdeal.Agree.part1 (F := F)) (after (Cert.ReferenceIdeal.Agree.part0 (F := F)) WR))))) s4
  have s6 := part6 (after (Cert.KernelIdeal.Agree.part5 (F := F)) (after (Cert.KernelIdeal.Agree.part4 (F := F)) (after (Cert.KernelIdeal.Agree.part3 (F := F)) (after (Cert.KernelIdeal.Agree.part2 (F := F)) (after (Cert.KernelIdeal.Agree.part1 (F := F)) (after (Cert.KernelIdeal.Agree.part0 (F := F)) WK))))))
    (after (Cert.ReferenceIdeal.Agree.part5 (F := F)) (after (Cert.ReferenceIdeal.Agree.part4 (F := F)) (after (Cert.ReferenceIdeal.Agree.part3 (F := F)) (after (Cert.ReferenceIdeal.Agree.part2 (F := F)) (after (Cert.ReferenceIdeal.Agree.part1 (F := F)) (after (Cert.ReferenceIdeal.Agree.part0 (F := F)) WR)))))) s5
  have s7 := part7 (after (Cert.KernelIdeal.Agree.part6 (F := F)) (after (Cert.KernelIdeal.Agree.part5 (F := F)) (after (Cert.KernelIdeal.Agree.part4 (F := F)) (after (Cert.KernelIdeal.Agree.part3 (F := F)) (after (Cert.KernelIdeal.Agree.part2 (F := F)) (after (Cert.KernelIdeal.Agree.part1 (F := F)) (after (Cert.KernelIdeal.Agree.part0 (F := F)) WK)))))))
    (after (Cert.ReferenceIdeal.Agree.part6 (F := F)) (after (Cert.ReferenceIdeal.Agree.part5 (F := F)) (after (Cert.ReferenceIdeal.Agree.part4 (F := F)) (after (Cert.ReferenceIdeal.Agree.part3 (F := F)) (after (Cert.ReferenceIdeal.Agree.part2 (F := F)) (after (Cert.ReferenceIdeal.Agree.part1 (F := F)) (after (Cert.ReferenceIdeal.Agree.part0 (F := F)) WR))))))) s6
  have eK := congrFun (after_append8 (Cert.KernelIdeal.Agree.part0 (F := F)) Cert.KernelIdeal.Agree.part1
    Cert.KernelIdeal.Agree.part2 Cert.KernelIdeal.Agree.part3 Cert.KernelIdeal.Agree.part4 Cert.KernelIdeal.Agree.part5
    Cert.KernelIdeal.Agree.part6 Cert.KernelIdeal.Agree.part7 WK) (Proc.devRef .tc Cert.KernelIdeal.main_v1316)
  have eR := congrFun (after_append8 (Cert.ReferenceIdeal.Agree.part0 (F := F)) Cert.ReferenceIdeal.Agree.part1
    Cert.ReferenceIdeal.Agree.part2 Cert.ReferenceIdeal.Agree.part3 Cert.ReferenceIdeal.Agree.part4 Cert.ReferenceIdeal.Agree.part5
    Cert.ReferenceIdeal.Agree.part6 Cert.ReferenceIdeal.Agree.part7 WR) (Proc.devRef .tc Cert.ReferenceIdeal.main_v1316)
  have eS := congrArg (fun l => after l WK (Proc.devRef .tc Cert.KernelIdeal.main_v1316))
    (Cert.KernelIdeal.Agree.stretches_flatten (F := F))
  exact (eS.trans eK).trans (s7.trans eR.symm)

/-- Agreeing on the four arguments the host part reads, the two programs hold the same pooled
    feature matrix: the kernel's after all its stretches, the reference's after its own pooling
    operations. -/
theorem same_total
    (h0 : WK (Proc.devRef .tc Cert.KernelIdeal.main_arg0) = WR (Proc.devRef .tc Cert.ReferenceIdeal.main_arg0))
    (h1 : WK (Proc.devRef .tc Cert.KernelIdeal.main_arg1) = WR (Proc.devRef .tc Cert.ReferenceIdeal.main_arg1))
    (h2 : WK (Proc.devRef .tc Cert.KernelIdeal.main_arg2) = WR (Proc.devRef .tc Cert.ReferenceIdeal.main_arg2))
    (h3 : WK (Proc.devRef .tc Cert.KernelIdeal.main_arg3) = WR (Proc.devRef .tc Cert.ReferenceIdeal.main_arg3)) :
    after (Cert.KernelIdeal.Acc.stretches (F := F)).flatten WK (Proc.devRef .tc Cert.KernelIdeal.main_v1316)
      = after (Cert.ReferenceIdeal.Host.prefixOps (F := F)) WR (Proc.devRef .tc Cert.ReferenceIdeal.main_v1316) :=
  (same_total' WK WR h0 h1 h2 h3).trans
    (congrArg (fun l => after l WR (Proc.devRef .tc Cert.ReferenceIdeal.main_v1316))
      (Cert.ReferenceIdeal.Agree.allOps_eq (F := F)).symm)

end Cert.Agree

end
-- ==== Proof.lean ====
/-
  The certificate: the kernel's program and the reference compute one function.
  Both programs first build the pooled feature matrix total : 3 × 150528 from the feature map, the boxes and the
  ratio, by the same 2,605 host operations.  The reference then returns total · W + b as one product over the
  150528-long axis.  The kernel's region walks that axis in 49 blocks of 3072: an accumulator is cleared at the first
  block, each block adds its partial product, and at the last block accumulator + b is written out.  On the extended
  reals a sum over 150528 terms is the sum of its 49 block sums taken in order on top of zero — addition there is
  commutative and associative and 0 + x = x — so the two results agree entry by entry, whatever the inputs hold
  (the pooled features may hold −∞ where a crop is empty; no law that fails at infinities is used).
  The three frames: each program runs to the end without a fault and no operation, and no write-back of the region,
  touches an argument.  The idealized kernel is the kernel's own text read over the extended reals (no rewrite).
-/
import proofs.«107941_j79491254714775_1_alg».proof.Defs
import proofs.«107941_j79491254714775_1_alg».proof.Proof.Gen.Kernel
import proofs.«107941_j79491254714775_1_alg».proof.Proof.Gen.KernelIdeal
import proofs.«107941_j79491254714775_1_alg».proof.Proof.Gen.ReferenceIdeal
import proofs.«107941_j79491254714775_1_alg».proof.Proof.Gen.Pre_finite_inputs
import proofs.«107941_j79491254714775_1_alg».proof.Proof.Carried
import proofs.«107941_j79491254714775_1_alg».proof.Proof.Bits.Carried
import proofs.«107941_j79491254714775_1_alg».proof.Proof.KernelValue
import proofs.«107941_j79491254714775_1_alg».proof.Proof.RefRun
import proofs.«107941_j79491254714775_1_alg».proof.Proof.RefValue
import proofs.«107941_j79491254714775_1_alg».proof.Proof.Agree

noncomputable section

namespace Cert.Proof

open Idealize.ShloMosaic Idealize.ShloMosaic.TcCoe Idealize.SL.Sem

/-- The linear layer is a function of its three arguments. -/
theorem linear_congr {t t' : FVec Ideal Cert.Spec.STot .f32} {w w' : FVec Ideal Cert.Spec.SWt .f32} {b b' : FVec Ideal Cert.Spec.SBias .f32}
    (ht : t = t') (hw : w = w') (hb : b = b') : Cert.Spec.linear t w b = Cert.Spec.linear t' w' b' := by
  subst ht hw hb; rfl

/-- The word-level kernel runs to the end and leaves its six arguments as launched. -/
theorem frame_kernel : Cert.frame_Kernel (hKernel := Cert.Kernel.Gen.facts) (hPre_finite_inputs := Cert.Pre_finite_inputs.Gen.facts) :=
  fun m ρ _ => Cert.Kernel.Acc.frame m ρ

/-- So does the kernel read over the extended reals: the same argument, generic in the float family. -/
theorem frame_kernel_ideal : Cert.frame_KernelIdeal (hKernelIdeal := Cert.KernelIdeal.Gen.facts) (hPre_finite_inputs := Cert.Pre_finite_inputs.Gen.facts) :=
  fun m ρ _ => Cert.KernelIdeal.Acc.frame m ρ

/-- The reference is host operations only; none writes an argument. -/
theorem frame_reference : Cert.frame_ReferenceIdeal (hReferenceIdeal := Cert.ReferenceIdeal.Gen.facts) (hPre_finite_inputs := Cert.Pre_finite_inputs.Gen.facts) :=
  fun m ρ _ => Cert.ReferenceIdeal.Host.frame m ρ

/-- The kernel ends with the linear layer of the pooled feature matrix as its region finds it: the result array after the
    last write-back is the accumulator after the 49th block plus the bias, which is the whole sum plus the bias. -/
theorem kernel_half (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1317)
          = Cert.Spec.linear (Cert.KernelIdeal.Acc.entry m c Cert.KernelIdeal.main_v1316) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run Cert.KernelIdeal.defs _ _).mono (fun r h c => ?_) (Cert.KernelIdeal.Acc.run_main (F := Ideal) m ρ)
  exact ⟨((h c).1 3).trans (Cert.KernelIdeal.Lin.array_is_linear m c (by have := Cert.KernelIdeal.Acc.points; omega)),
    Cert.KernelIdeal.Acc.args_kept m (Cert.KernelIdeal.Acc.dats m) (Cert.KernelIdeal.Acc.A_eq m) r h c⟩

/-- The reference, from a memory agreeing with the kernel's on the arguments, ends with the same: its product and bias are
    the linear layer of ITS pooled feature matrix, and the two programs' host operations leave one and the same matrix. -/
theorem reference_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v1320)
          = Cert.Spec.linear (Cert.KernelIdeal.Acc.entry m c Cert.KernelIdeal.main_v1316) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run Cert.ReferenceIdeal.defs _ _).mono (fun r h c => ?_) (Cert.ReferenceIdeal.Host.runs (F := Ideal) m' ρ')
  obtain ⟨a0, a1, a2, a3, a4, a5⟩ := hagree c
  refine ⟨?_, (h c Cert.ReferenceIdeal.main_arg0).trans (Cert.ReferenceIdeal.Host.kept_arg0 _), (h c Cert.ReferenceIdeal.main_arg1).trans (Cert.ReferenceIdeal.Host.kept_arg1 _),
    (h c Cert.ReferenceIdeal.main_arg2).trans (Cert.ReferenceIdeal.Host.kept_arg2 _), (h c Cert.ReferenceIdeal.main_arg3).trans (Cert.ReferenceIdeal.Host.kept_arg3 _),
    (h c Cert.ReferenceIdeal.main_arg4).trans (Cert.ReferenceIdeal.Host.kept_arg4 _), (h c Cert.ReferenceIdeal.main_arg5).trans (Cert.ReferenceIdeal.Host.kept_arg5 _)⟩
  refine (h c Cert.ReferenceIdeal.main_v1320).trans ((Cert.ReferenceIdeal.Host.result_eq _).trans ((Cert.ReferenceIdeal.Lin.ref_is_linear _ _ _).trans ?_))
  exact linear_congr
    (Cert.Agree.same_total (F := Ideal) (fun b => m (c, b)) (StableHlo.launchContents m' c) a0.symm a1.symm a2.symm a3.symm).symm
    a4 a5

/-- From memories agreeing on the arguments both programs end with equal results and unchanged arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := fun m ρ m' ρ' _ hagree =>
  ⟨fun c => Cert.Spec.linear (Cert.KernelIdeal.Acc.entry m c Cert.KernelIdeal.main_v1316) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    kernel_half m ρ, reference_half m m' ρ' hagree⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
